-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v334)) (v1 : (c : Dev Cert.KernelIdeal.nD) → Buf (Elt Ideal) ((c.tc : Thread Cert.KernelIdeal.nD Cert.KernelIdeal.τ).loc Cert.KernelIdeal.main_v344)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v334) = v0 c
          ∧ r.2.mem ((c.tc : Thread Cert.KernelIdeal.nD Cert.KernelIdeal.τ).loc Cert.KernelIdeal.main_v344) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v309) = v0 c
          ∧ r.2.mem ((c.tc : Thread Cert.ReferenceIdeal.nD Cert.ReferenceIdeal.τ).loc Cert.ReferenceIdeal.main_v319) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S4096 : Shape := ⟨1, ![4096]⟩
abbrev S512x128 : Shape := ⟨2, ![512, 128]⟩
abbrev S512 : Shape := ⟨1, ![512]⟩
abbrev S512x512 : Shape := ⟨2, ![512, 512]⟩
abbrev S64x512 : Shape := ⟨2, ![64, 512]⟩
abbrev S64 : Shape := ⟨1, ![64]⟩
abbrev S1 : Shape := ⟨1, ![1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S64 .f32) (main_arg12 : FVec F S1 .f32) (main_arg13 : FVec F S1 .f32) (main_arg14 : FVec F S1 .f32) (main_v48 : IVec S_ 1) (main_v49 : FVec F S64x512 .f32) (main_v50 : FVec F S64x512 .f32) : IVec S_ 1 :=
  let main_v51 : IVec S64x512 1 := cmpf .olt main_v49 main_v50
  let main_c_19 : IVec S_ 1 := constantI S_ 1 1#1
  let main_v52 : IVec S_ 1 := (fun x v => Host.reduce IntOp.andi x v reducesTo_S64x512_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg14 main_v63 main_v67

def fn_part2 {F : FTy → Type} [FloatOps F] (main_arg7 : FVec F S512x512 .f32) (main_arg8 : FVec F S512x512 .f32) (main_arg9 : FVec F S512 .f32) (main_arg10 : FVec F S64x512 .f32) (main_arg11 : FVec F S64 .f32) (main_arg12 : FVec F S1 .f32) (main_arg13 : FVec F S1 .f32) (main_arg14 : FVec F S1 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S64x512 .f32 := Host.absf main_arg10
  let main_cst_18 : FVec F S_ .f32 := constant S_ .f32 0x7F800000#32
  let main_v50 : FVec F S64x512 .f32 := broadcastInDim S64x512 ![] bcast_S_S64x512 main_cst_18
  fn_part3 (F := F) main_arg11 main_arg12 main_arg13 main_arg14 main_v48 main_v49 main_v50

def fn_part1 {F : FTy → Type} [FloatOps F] (main_arg4 : FVec F S4096x4096 .f32) (main_arg5 : FVec F S512x128 .f32) (main_arg6 : FVec F S512 .f32) (main_arg7 : FVec F S512x512 .f32) (main_arg8 : FVec F S512x512 .f32) (main_arg9 : FVec F S512 .f32) (main_arg10 : FVec F S64x512 .f32) (main_arg11 : FVec F S64 .f32) (main_arg12 : FVec F S1 .f32) (main_arg13 : FVec F S1 .f32) (main_arg14 : FVec F S1 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x128 .f32) (main_arg1 : FVec F S4096x4096 .f32) (main_arg2 : FVec F S4096 .f32) (main_arg3 : FVec F S4096x4096 .f32) (main_arg4 : FVec F S4096x4096 .f32) (main_arg5 : FVec F S512x128 .f32) (main_arg6 : FVec F S512 .f32) (main_arg7 : FVec F S512x512 .f32) (main_arg8 : FVec F S512x512 .f32) (main_arg9 : FVec F S512 .f32) (main_arg10 : FVec F S64x512 .f32) (main_arg11 : FVec F S64 .f32) (main_arg12 : FVec F S1 .f32) (main_arg13 : FVec F S1 .f32) (main_arg14 : FVec F S1 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x128 : Shape := ⟨2, ![4096, 128]⟩
abbrev S4096x4096 : Shape := ⟨2, ![4096, 4096]⟩
abbrev S4096 : Shape := ⟨1, ![4096]⟩
abbrev S512x128 : Shape := ⟨2, ![512, 128]⟩
abbrev S512 : Shape := ⟨1, ![512]⟩
abbrev S512x512 : Shape := ⟨2, ![512, 512]⟩
abbrev S64x512 : Shape := ⟨2, ![64, 512]⟩
abbrev S64 : Shape := ⟨1, ![64]⟩
abbrev S1 : Shape := ⟨1, ![1]⟩
abbrev S_ : Shape := ⟨0, ![]⟩
abbrev S128x512 : Shape := ⟨2, ![128, 512]⟩
abbrev S512x64 : Shape := ⟨2, ![512, 64]⟩
abbrev S4096x512 : Shape := ⟨2, ![4096, 512]⟩
abbrev S1024x128 : Shape := ⟨2, ![1024, 128]⟩
abbrev S1024x512 : Shape := ⟨2, ![1024, 512]⟩
abbrev S1x512 : Shape := ⟨2, ![1, 512]⟩
abbrev S1024x1024 : Shape := ⟨2, ![1024, 1024]⟩
abbrev S4096x1 : Shape := ⟨2, ![4096, 1]⟩
abbrev S4096x64 : Shape := ⟨2, ![4096, 64]⟩
abbrev S1024x64 : Shape := ⟨2, ![1024, 64]⟩
abbrev S1x64 : Shape := ⟨2, ![1, 64]⟩
abbrev S9 : Shape := ⟨1, ![9]⟩

abbrev nBuf : Space → Nat
  | .hbm => 434
  | .vmem => 401
  | .smem => 0
  | _ => 0

abbrev hbmTy0_0 (i : Nat) : BufTy := match i % 128 with
  | 0 => ⟨S4096x128, .f32⟩
  | 1 => ⟨S4096x4096, .f32⟩
  | 2 => ⟨S4096, .f32⟩
  | 3 => ⟨S4096x4096, .f32⟩
  | 4 => ⟨S4096x4096, .f32⟩
  | 5 => ⟨S512x128, .f32⟩
  | 6 => ⟨S512, .f32⟩
  | 7 => ⟨S512x512, .f32⟩
  | 8 => ⟨S512x512, .f32⟩
  | 9 => ⟨S512, .f32⟩
  | 10 => ⟨S64x512, .f32⟩
  | 11 => ⟨S64, .f32⟩
  | 12 => ⟨S1, .f32⟩
  | 13 => ⟨S1, .f32⟩
  | 14 => ⟨S1, .f32⟩
  | 15 => ⟨S_, .f32⟩
  | 16 => ⟨S_, .f32⟩
  | 17 => ⟨S4096, .f32⟩
  | 18 => ⟨S4096, .f32⟩
  | 19 => ⟨S_, .f32⟩
  | 20 => ⟨S4096, .f32⟩
  | 21 => ⟨S4096, .f32⟩
  | 22 => ⟨S4096x4096, .bf16⟩
  | 23 => ⟨S4096x4096, .bf16⟩
  | 24 => ⟨S4096x4096, .bf16⟩
  | 25 => ⟨S512x512, .bf16⟩
  | 26 => ⟨S128x512, .f32⟩
  | 27 => ⟨S128x512, .bf16⟩
  | 28 => ⟨S512x512, .f32⟩
  | 29 => ⟨S512x512, .bf16⟩
  | 30 => ⟨S512x64, .f32⟩
  | 31 => ⟨S512x64, .bf16⟩
  | 32 => ⟨S4096x512, .f32⟩
  | 33 => ⟨S1x512, .f32⟩
  | 34 => ⟨S4096x512, .f32⟩
  | 35 => ⟨S4096x512, .f32⟩
  | 36 => ⟨S4096x512, .f32⟩
  | 37 => ⟨S_, .f32⟩
  | 38 => ⟨S_, .f32⟩
  | 39 => ⟨S_, .f32⟩
  | 40 => ⟨S4096x512, .f32⟩
  | 41 => ⟨S4096x512, .f32⟩
  | 42 => ⟨S4096x512, .f32⟩
  | 43 => ⟨S4096x512, .f32⟩
  | 44 => ⟨S_, .f32⟩
  | 45 => ⟨S_, .f32⟩
  | 46 => ⟨S_, .f32⟩
  | 47 => ⟨S_, .f32⟩
  | 48 => ⟨S4096x512, .f32⟩
  | 49 => ⟨S4096x1, .f32⟩
  | 50 => ⟨S4096x512, .f32⟩
  | 51 => ⟨S4096x512, .f32⟩
  | 52 => ⟨S4096x512, .f32⟩
  | 53 => ⟨S4096x512, .f32⟩
  | 54 => ⟨S_, .f32⟩
  | 55 => ⟨S4096x512, .f32⟩
  | 56 => ⟨S4096x512, .f32⟩
  | 57 => ⟨S_, .f32⟩
  | 58 => ⟨S_, .f32⟩
  | 59 => ⟨S4096x512, .f32⟩
  | 60 => ⟨S4096x1, .f32⟩
  | 61 => ⟨S4096x512, .f32⟩
  | 62 => ⟨S4096x512, .f32⟩
  | 63 => ⟨S4096x512, .f32⟩
  | 64 => ⟨S4096x512, .f32⟩
  | 65 => ⟨S4096x512, .f32⟩
  | 66 => ⟨S4096x512, .f32⟩
  | 67 => ⟨S4096x512, .f32⟩
  | 68 => ⟨S_, .f32⟩
  | 69 => ⟨S4096x512, .f32⟩
  | 70 => ⟨S4096x512, .f32⟩
  | 71 => ⟨S_, .f32⟩
  | 72 => ⟨S4096x512, .f32⟩
  | 73 => ⟨S4096x512, .f32⟩
  | 74 => ⟨S_, .f32⟩
  | 75 => ⟨S4096x512, .f32⟩
  | 76 => ⟨S4096x512, .f32⟩
  | 77 => ⟨S4096x512, .f32⟩
  | 78 => ⟨S4096x512, .f32⟩
  | 79 => ⟨S4096x512, .f32⟩
  | 80 => ⟨S4096x512, .f32⟩
  | 81 => ⟨S4096x512, .f32⟩
  | 82 => ⟨S_, .f32⟩
  | 83 => ⟨S_, .f32⟩
  | 84 => ⟨S_, .f32⟩
  | 85 => ⟨S4096x512, .f32⟩
  | 86 => ⟨S4096x512, .f32⟩
  | 87 => ⟨S4096x512, .f32⟩
  | 88 => ⟨S4096x512, .f32⟩
  | 89 => ⟨S_, .f32⟩
  | 90 => ⟨S_, .f32⟩
  | 91 => ⟨S_, .f32⟩
  | 92 => ⟨S_, .f32⟩
  | 93 => ⟨S4096x512, .f32⟩
  | 94 => ⟨S4096x1, .f32⟩
  | 95 => ⟨S4096x512, .f32⟩
  | 96 => ⟨S4096x512, .f32⟩
  | 97 => ⟨S4096x512, .f32⟩
  | 98 => ⟨S4096x512, .f32⟩
  | 99 => ⟨S_, .f32⟩
  | 100 => ⟨S4096x512, .f32⟩
  | 101 => ⟨S4096x512, .f32⟩
  | 102 => ⟨S_, .f32⟩
  | 103 => ⟨S_, .f32⟩
  | 104 => ⟨S4096x512, .f32⟩
  | 105 => ⟨S4096x1, .f32⟩
  | 106 => ⟨S4096x512, .f32⟩
  | 107 => ⟨S4096x512, .f32⟩
  | 108 => ⟨S4096x512, .f32⟩
  | 109 => ⟨S4096x512, .f32⟩
  | 110 => ⟨S4096x512, .f32⟩
  | 111 => ⟨S4096x512, .f32⟩
  | 112 => ⟨S4096x512, .f32⟩
  | 113 => ⟨S_, .f32⟩
  | 114 => ⟨S4096x512, .f32⟩
  | 115 => ⟨S4096x512, .f32⟩
  | 116 => ⟨S_, .f32⟩
  | 117 => ⟨S4096x512, .f32⟩
  | 118 => ⟨S4096x512, .f32⟩
  | 119 => ⟨S_, .f32⟩
  | 120 => ⟨S4096x512, .f32⟩
  | 121 => ⟨S4096x512, .f32⟩
  | 122 => ⟨S4096x512, .f32⟩
  | 123 => ⟨S4096x512, .f32⟩
  | 124 => ⟨S4096x512, .f32⟩
  | 125 => ⟨S4096x512, .f32⟩
  | 126 => ⟨S4096x512, .f32⟩
  | 127 => ⟨S_, .f32⟩
  | _ => ⟨S4096x128, .f32⟩

abbrev hbmTy0_1 (i : Nat) : BufTy := match i % 128 with
  | 0 => ⟨S_, .f32⟩
  | 1 => ⟨S_, .f32⟩
  | 2 => ⟨S4096x512, .f32⟩
  | 3 => ⟨S4096x512, .f32⟩
  | 4 => ⟨S4096x512, .f32⟩
  | 5 => ⟨S4096x512, .f32⟩
  | 6 => ⟨S_, .f32⟩
  | 7 => ⟨S_, .f32⟩
  | 8 => ⟨S_, .f32⟩
  | 9 => ⟨S_, .f32⟩
  | 10 => ⟨S4096x512, .f32⟩
  | 11 => ⟨S4096x1, .f32⟩
  | 12 => ⟨S4096x512, .f32⟩
  | 13 => ⟨S4096x512, .f32⟩
  | 14 => ⟨S4096x512, .f32⟩
  | 15 => ⟨S4096x512, .f32⟩
  | 16 => ⟨S_, .f32⟩
  | 17 => ⟨S4096x512, .f32⟩
  | 18 => ⟨S4096x512, .f32⟩
  | 19 => ⟨S_, .f32⟩
  | 20 => ⟨S_, .f32⟩
  | 21 => ⟨S4096x512, .f32⟩
  | 22 => ⟨S4096x1, .f32⟩
  | 23 => ⟨S4096x512, .f32⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S_, .f32⟩
  | 31 => ⟨S4096x512, .f32⟩
  | 32 => ⟨S4096x512, .f32⟩
  | 33 => ⟨S_, .f32⟩
  | 34 => ⟨S4096x512, .f32⟩
  | 35 => ⟨S4096x512, .f32⟩
  | 36 => ⟨S_, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S4096x512, .f32⟩
  | 44 => ⟨S_, .f32⟩
  | 45 => ⟨S_, .f32⟩
  | 46 => ⟨S_, .f32⟩
  | 47 => ⟨S4096x512, .f32⟩
  | 48 => ⟨S4096x512, .f32⟩
  | 49 => ⟨S4096x512, .f32⟩
  | 50 => ⟨S4096x512, .f32⟩
  | 51 => ⟨S_, .f32⟩
  | 52 => ⟨S_, .f32⟩
  | 53 => ⟨S_, .f32⟩
  | 54 => ⟨S_, .f32⟩
  | 55 => ⟨S4096x512, .f32⟩
  | 56 => ⟨S4096x1, .f32⟩
  | 57 => ⟨S4096x512, .f32⟩
  | 58 => ⟨S4096x512, .f32⟩
  | 59 => ⟨S4096x512, .f32⟩
  | 60 => ⟨S4096x512, .f32⟩
  | 61 => ⟨S_, .f32⟩
  | 62 => ⟨S4096x512, .f32⟩
  | 63 => ⟨S4096x512, .f32⟩
  | 64 => ⟨S_, .f32⟩
  | 65 => ⟨S_, .f32⟩
  | 66 => ⟨S4096x512, .f32⟩
  | 67 => ⟨S4096x1, .f32⟩
  | 68 => ⟨S4096x512, .f32⟩
  | 69 => ⟨S4096x512, .f32⟩
  | 70 => ⟨S4096x512, .f32⟩
  | 71 => ⟨S4096x512, .f32⟩
  | 72 => ⟨S4096x512, .f32⟩
  | 73 => ⟨S4096x512, .f32⟩
  | 74 => ⟨S4096x512, .f32⟩
  | 75 => ⟨S_, .f32⟩
  | 76 => ⟨S4096x512, .f32⟩
  | 77 => ⟨S4096x512, .f32⟩
  | 78 => ⟨S_, .f32⟩
  | 79 => ⟨S4096x512, .f32⟩
  | 80 => ⟨S4096x512, .f32⟩
  | 81 => ⟨S_, .f32⟩
  | 82 => ⟨S4096x512, .f32⟩
  | 83 => ⟨S4096x512, .f32⟩
  | 84 => ⟨S4096x512, .f32⟩
  | 85 => ⟨S4096x512, .f32⟩
  | 86 => ⟨S4096x512, .f32⟩
  | 87 => ⟨S4096x512, .f32⟩
  | 88 => ⟨S4096x512, .f32⟩
  | 89 => ⟨S_, .f32⟩
  | 90 => ⟨S_, .f32⟩
  | 91 => ⟨S_, .f32⟩
  | 92 => ⟨S4096x512, .f32⟩
  | 93 => ⟨S4096x512, .f32⟩
  | 94 => ⟨S4096x512, .f32⟩
  | 95 => ⟨S4096x512, .f32⟩
  | 96 => ⟨S_, .f32⟩
  | 97 => ⟨S_, .f32⟩
  | 98 => ⟨S_, .f32⟩
  | 99 => ⟨S_, .f32⟩
  | 100 => ⟨S4096x512, .f32⟩
  | 101 => ⟨S4096x1, .f32⟩
  | 102 => ⟨S4096x512, .f32⟩
  | 103 => ⟨S4096x512, .f32⟩
  | 104 => ⟨S4096x512, .f32⟩
  | 105 => ⟨S4096x512, .f32⟩
  | 106 => ⟨S_, .f32⟩
  | 107 => ⟨S4096x512, .f32⟩
  | 108 => ⟨S4096x512, .f32⟩
  | 109 => ⟨S_, .f32⟩
  | 110 => ⟨S_, .f32⟩
  | 111 => ⟨S4096x512, .f32⟩
  | 112 => ⟨S4096x1, .f32⟩
  | 113 => ⟨S4096x512, .f32⟩
  | 114 => ⟨S4096x512, .f32⟩
  | 115 => ⟨S4096x512, .f32⟩
  | 116 => ⟨S4096x512, .f32⟩
  | 117 => ⟨S4096x512, .f32⟩
  | 118 => ⟨S4096x512, .f32⟩
  | 119 => ⟨S4096x512, .f32⟩
  | 120 => ⟨S_, .f32⟩
  | 121 => ⟨S4096x512, .f32⟩
  | 122 => ⟨S4096x512, .f32⟩
  | 123 => ⟨S_, .f32⟩
  | 124 => ⟨S4096x512, .f32⟩
  | 125 => ⟨S4096x512, .f32⟩
  | 126 => ⟨S_, .f32⟩
  | 127 => ⟨S4096x512, .f32⟩
  | _ => ⟨S4096x128, .f32⟩

abbrev hbmTy0_2 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S4096x512, .f32⟩
  | 6 => ⟨S_, .f32⟩
  | 7 => ⟨S_, .f32⟩
  | 8 => ⟨S_, .f32⟩
  | 9 => ⟨S4096x512, .f32⟩
  | 10 => ⟨S4096x512, .f32⟩
  | 11 => ⟨S4096x512, .f32⟩
  | 12 => ⟨S4096x512, .f32⟩
  | 13 => ⟨S_, .f32⟩
  | 14 => ⟨S_, .f32⟩
  | 15 => ⟨S_, .f32⟩
  | 16 => ⟨S_, .f32⟩
  | 17 => ⟨S4096x512, .f32⟩
  | 18 => ⟨S4096x1, .f32⟩
  | 19 => ⟨S4096x512, .f32⟩
  | 20 => ⟨S4096x512, .f32⟩
  | 21 => ⟨S4096x512, .f32⟩
  | 22 => ⟨S4096x512, .f32⟩
  | 23 => ⟨S_, .f32⟩
  | 24 => ⟨S4096x512, .f32⟩
  | 25 => ⟨S4096x512, .f32⟩
  | 26 => ⟨S_, .f32⟩
  | 27 => ⟨S_, .f32⟩
  | 28 => ⟨S4096x512, .f32⟩
  | 29 => ⟨S4096x1, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S_, .f32⟩
  | 38 => ⟨S4096x512, .f32⟩
  | 39 => ⟨S4096x512, .f32⟩
  | 40 => ⟨S_, .f32⟩
  | 41 => ⟨S4096x512, .f32⟩
  | 42 => ⟨S4096x512, .f32⟩
  | 43 => ⟨S_, .f32⟩
  | 44 => ⟨S4096x512, .f32⟩
  | 45 => ⟨S4096x512, .f32⟩
  | 46 => ⟨S4096x512, .f32⟩
  | 47 => ⟨S4096x512, .f32⟩
  | 48 => ⟨S4096x512, .f32⟩
  | 49 => ⟨S4096x512, .f32⟩
  | 50 => ⟨S4096x512, .f32⟩
  | 51 => ⟨S_, .f32⟩
  | 52 => ⟨S_, .f32⟩
  | 53 => ⟨S_, .f32⟩
  | 54 => ⟨S4096x512, .f32⟩
  | 55 => ⟨S4096x512, .f32⟩
  | 56 => ⟨S4096x512, .f32⟩
  | 57 => ⟨S4096x512, .f32⟩
  | 58 => ⟨S_, .f32⟩
  | 59 => ⟨S_, .f32⟩
  | 60 => ⟨S_, .f32⟩
  | 61 => ⟨S_, .f32⟩
  | 62 => ⟨S4096x512, .f32⟩
  | 63 => ⟨S4096x1, .f32⟩
  | 64 => ⟨S4096x512, .f32⟩
  | 65 => ⟨S4096x512, .f32⟩
  | 66 => ⟨S4096x512, .f32⟩
  | 67 => ⟨S4096x512, .f32⟩
  | 68 => ⟨S_, .f32⟩
  | 69 => ⟨S4096x512, .f32⟩
  | 70 => ⟨S4096x512, .f32⟩
  | 71 => ⟨S_, .f32⟩
  | 72 => ⟨S_, .f32⟩
  | 73 => ⟨S4096x512, .f32⟩
  | 74 => ⟨S4096x1, .f32⟩
  | 75 => ⟨S4096x512, .f32⟩
  | 76 => ⟨S4096x512, .f32⟩
  | 77 => ⟨S4096x512, .f32⟩
  | 78 => ⟨S4096x512, .f32⟩
  | 79 => ⟨S4096x512, .f32⟩
  | 80 => ⟨S4096x512, .f32⟩
  | 81 => ⟨S4096x512, .f32⟩
  | 82 => ⟨S_, .f32⟩
  | 83 => ⟨S4096x512, .f32⟩
  | 84 => ⟨S4096x512, .f32⟩
  | 85 => ⟨S_, .f32⟩
  | 86 => ⟨S4096x512, .f32⟩
  | 87 => ⟨S4096x512, .f32⟩
  | 88 => ⟨S_, .f32⟩
  | 89 => ⟨S4096x512, .f32⟩
  | 90 => ⟨S4096x512, .f32⟩
  | 91 => ⟨S4096x512, .f32⟩
  | 92 => ⟨S4096x512, .f32⟩
  | 93 => ⟨S4096x512, .f32⟩
  | 94 => ⟨S4096x512, .f32⟩
  | 95 => ⟨S4096x512, .f32⟩
  | 96 => ⟨S_, .f32⟩
  | 97 => ⟨S_, .f32⟩
  | 98 => ⟨S_, .f32⟩
  | 99 => ⟨S4096x512, .f32⟩
  | 100 => ⟨S4096x512, .f32⟩
  | 101 => ⟨S4096x512, .f32⟩
  | 102 => ⟨S4096x512, .f32⟩
  | 103 => ⟨S_, .f32⟩
  | 104 => ⟨S_, .f32⟩
  | 105 => ⟨S_, .f32⟩
  | 106 => ⟨S_, .f32⟩
  | 107 => ⟨S4096x512, .f32⟩
  | 108 => ⟨S4096x1, .f32⟩
  | 109 => ⟨S4096x512, .f32⟩
  | 110 => ⟨S4096x512, .f32⟩
  | 111 => ⟨S4096x512, .f32⟩
  | 112 => ⟨S4096x512, .f32⟩
  | 113 => ⟨S_, .f32⟩
  | 114 => ⟨S4096x512, .f32⟩
  | 115 => ⟨S4096x512, .f32⟩
  | 116 => ⟨S_, .f32⟩
  | 117 => ⟨S_, .f32⟩
  | 118 => ⟨S4096x512, .f32⟩
  | 119 => ⟨S4096x1, .f32⟩
  | 120 => ⟨S4096x512, .f32⟩
  | 121 => ⟨S4096x512, .f32⟩
  | 122 => ⟨S4096x512, .f32⟩
  | 123 => ⟨S4096x512, .f32⟩
  | 124 => ⟨S4096x512, .f32⟩
  | 125 => ⟨S4096x512, .f32⟩
  | 126 => ⟨S4096x512, .f32⟩
  | 127 => ⟨S_, .f32⟩
  | _ => ⟨S4096x128, .f32⟩

abbrev hbmTy0_3 (i : Nat) : BufTy := match i % 128 with
  | 0 => ⟨S4096x512, .f32⟩
  | 1 => ⟨S4096x512, .f32⟩
  | 2 => ⟨S_, .f32⟩
  | 3 => ⟨S4096x512, .f32⟩
  | 4 => ⟨S4096x512, .f32⟩
  | 5 => ⟨S_, .f32⟩
  | 6 => ⟨S4096x512, .f32⟩
  | 7 => ⟨S4096x512, .f32⟩
  | 8 => ⟨S4096x512, .f32⟩
  | 9 => ⟨S4096x512, .f32⟩
  | 10 => ⟨S4096x512, .f32⟩
  | 11 => ⟨S4096x512, .f32⟩
  | 12 => ⟨S4096x512, .f32⟩
  | 13 => ⟨S_, .f32⟩
  | 14 => ⟨S_, .f32⟩
  | 15 => ⟨S_, .f32⟩
  | 16 => ⟨S4096x512, .f32⟩
  | 17 => ⟨S4096x512, .f32⟩
  | 18 => ⟨S4096x512, .f32⟩
  | 19 => ⟨S4096x512, .f32⟩
  | 20 => ⟨S_, .f32⟩
  | 21 => ⟨S_, .f32⟩
  | 22 => ⟨S_, .f32⟩
  | 23 => ⟨S_, .f32⟩
  | 24 => ⟨S4096x512, .f32⟩
  | 25 => ⟨S1x512, .f32⟩
  | 26 => ⟨S4096x512, .f32⟩
  | 27 => ⟨S4096x512, .f32⟩
  | 28 => ⟨S_, .f32⟩
  | 29 => ⟨S_, .f32⟩
  | 30 => ⟨S4096x512, .f32⟩
  | 31 => ⟨S4096x512, .i1⟩
  | 32 => ⟨S_, .f32⟩
  | 33 => ⟨S4096x512, .f32⟩
  | 34 => ⟨S4096x512, .f32⟩
  | 35 => ⟨S4096x512, .f32⟩
  | 36 => ⟨S4096x64, .f32⟩
  | 37 => ⟨S1x64, .f32⟩
  | 38 => ⟨S4096x64, .f32⟩
  | 39 => ⟨S4096x64, .f32⟩
  | 40 => ⟨S1, .f32⟩
  | 41 => ⟨S1, .f32⟩
  | 42 => ⟨S1, .f32⟩
  | 43 => ⟨S1, .f32⟩
  | 44 => ⟨S1, .f32⟩
  | 45 => ⟨S1, .f32⟩
  | 46 => ⟨S1, .f32⟩
  | 47 => ⟨S1, .f32⟩
  | 48 => ⟨S1, .f32⟩
  | 49 => ⟨S9, .f32⟩
  | _ => ⟨S4096x128, .f32⟩

abbrev hbmTy (i : Nat) : BufTy := match i / 128 with
  | 0 => hbmTy0_0 i
  | 1 => hbmTy0_1 i
  | 2 => hbmTy0_2 i
  | 3 => hbmTy0_3 i
  | _ => ⟨S4096x128, .f32⟩

abbrev vmemTy0_0 (i : Nat) : BufTy := match i % 128 with
  | 0 => ⟨S1024x128, .f32⟩
  | 1 => ⟨S1024x128, .f32⟩
  | 2 => ⟨S128x512, .bf16⟩
  | 3 => ⟨S1024x512, .f32⟩
  | 4 => ⟨S1024x512, .f32⟩
  | 5 => ⟨S1024x512, .f32⟩
  | 6 => ⟨S1024x1024, .bf16⟩
  | 7 => ⟨S1024x1024, .bf16⟩
  | 8 => ⟨S1024x512, .f32⟩
  | 9 => ⟨S1024x512, .f32⟩
  | 10 => ⟨S1024x512, .f32⟩
  | 11 => ⟨S1024x512, .f32⟩
  | 12 => ⟨S1024x512, .f32⟩
  | 13 => ⟨S1024x1024, .bf16⟩
  | 14 => ⟨S1024x1024, .bf16⟩
  | 15 => ⟨S1024x512, .f32⟩
  | 16 => ⟨S1024x512, .f32⟩
  | 17 => ⟨S1024x512, .f32⟩
  | 18 => ⟨S1024x512, .f32⟩
  | 19 => ⟨S1024x512, .f32⟩
  | 20 => ⟨S1024x512, .f32⟩
  | 21 => ⟨S1024x512, .f32⟩
  | 22 => ⟨S512x512, .bf16⟩
  | 23 => ⟨S1024x512, .f32⟩
  | 24 => ⟨S1024x512, .f32⟩
  | 25 => ⟨S1024x512, .f32⟩
  | 26 => ⟨S1024x1024, .bf16⟩
  | 27 => ⟨S1024x1024, .bf16⟩
  | 28 => ⟨S1024x512, .f32⟩
  | 29 => ⟨S1024x512, .f32⟩
  | 30 => ⟨S1024x512, .f32⟩
  | 31 => ⟨S1024x512, .f32⟩
  | 32 => ⟨S1024x512, .f32⟩
  | 33 => ⟨S1024x1024, .bf16⟩
  | 34 => ⟨S1024x1024, .bf16⟩
  | 35 => ⟨S1024x512, .f32⟩
  | 36 => ⟨S1024x512, .f32⟩
  | 37 => ⟨S1024x512, .f32⟩
  | 38 => ⟨S1024x512, .f32⟩
  | 39 => ⟨S1024x512, .f32⟩
  | 40 => ⟨S1024x512, .f32⟩
  | 41 => ⟨S1024x512, .f32⟩
  | 42 => ⟨S512x512, .bf16⟩
  | 43 => ⟨S1024x512, .f32⟩
  | 44 => ⟨S1024x512, .f32⟩
  | 45 => ⟨S1024x512, .f32⟩
  | 46 => ⟨S1024x1024, .bf16⟩
  | 47 => ⟨S1024x1024, .bf16⟩
  | 48 => ⟨S1024x512, .f32⟩
  | 49 => ⟨S1024x512, .f32⟩
  | 50 => ⟨S1024x512, .f32⟩
  | 51 => ⟨S1024x512, .f32⟩
  | 52 => ⟨S1024x512, .f32⟩
  | 53 => ⟨S1024x1024, .bf16⟩
  | 54 => ⟨S1024x1024, .bf16⟩
  | 55 => ⟨S1024x512, .f32⟩
  | 56 => ⟨S1024x512, .f32⟩
  | 57 => ⟨S1024x512, .f32⟩
  | 58 => ⟨S1024x512, .f32⟩
  | 59 => ⟨S1024x512, .f32⟩
  | 60 => ⟨S1024x1024, .bf16⟩
  | 61 => ⟨S1024x1024, .bf16⟩
  | 62 => ⟨S1024x512, .f32⟩
  | 63 => ⟨S1024x512, .f32⟩
  | 64 => ⟨S1024x512, .f32⟩
  | 65 => ⟨S1024x512, .f32⟩
  | 66 => ⟨S1024x512, .f32⟩
  | 67 => ⟨S1024x512, .f32⟩
  | 68 => ⟨S1024x512, .f32⟩
  | 69 => ⟨S512x512, .bf16⟩
  | 70 => ⟨S1024x512, .f32⟩
  | 71 => ⟨S1024x512, .f32⟩
  | 72 => ⟨S1024x512, .f32⟩
  | 73 => ⟨S1024x1024, .bf16⟩
  | 74 => ⟨S1024x1024, .bf16⟩
  | 75 => ⟨S1024x512, .f32⟩
  | 76 => ⟨S1024x512, .f32⟩
  | 77 => ⟨S1024x512, .f32⟩
  | 78 => ⟨S1024x512, .f32⟩
  | 79 => ⟨S1024x512, .f32⟩
  | 80 => ⟨S1024x1024, .bf16⟩
  | 81 => ⟨S1024x1024, .bf16⟩
  | 82 => ⟨S1024x512, .f32⟩
  | 83 => ⟨S1024x512, .f32⟩
  | 84 => ⟨S1024x512, .f32⟩
  | 85 => ⟨S1024x512, .f32⟩
  | 86 => ⟨S1024x512, .f32⟩
  | 87 => ⟨S1024x512, .f32⟩
  | 88 => ⟨S1024x512, .f32⟩
  | 89 => ⟨S512x512, .bf16⟩
  | 90 => ⟨S1024x512, .f32⟩
  | 91 => ⟨S1024x512, .f32⟩
  | 92 => ⟨S1024x512, .f32⟩
  | 93 => ⟨S1024x1024, .bf16⟩
  | 94 => ⟨S1024x1024, .bf16⟩
  | 95 => ⟨S1024x512, .f32⟩
  | 96 => ⟨S1024x512, .f32⟩
  | 97 => ⟨S1024x512, .f32⟩
  | 98 => ⟨S1024x512, .f32⟩
  | 99 => ⟨S1024x512, .f32⟩
  | 100 => ⟨S1024x1024, .bf16⟩
  | 101 => ⟨S1024x1024, .bf16⟩
  | 102 => ⟨S1024x512, .f32⟩
  | 103 => ⟨S1024x512, .f32⟩
  | 104 => ⟨S1024x512, .f32⟩
  | 105 => ⟨S1024x512, .f32⟩
  | 106 => ⟨S1024x512, .f32⟩
  | 107 => ⟨S1024x1024, .bf16⟩
  | 108 => ⟨S1024x1024, .bf16⟩
  | 109 => ⟨S1024x512, .f32⟩
  | 110 => ⟨S1024x512, .f32⟩
  | 111 => ⟨S1024x512, .f32⟩
  | 112 => ⟨S1024x512, .f32⟩
  | 113 => ⟨S1024x512, .f32⟩
  | 114 => ⟨S1024x512, .f32⟩
  | 115 => ⟨S1024x512, .f32⟩
  | 116 => ⟨S512x512, .bf16⟩
  | 117 => ⟨S1024x512, .f32⟩
  | 118 => ⟨S1024x512, .f32⟩
  | 119 => ⟨S1024x512, .f32⟩
  | 120 => ⟨S1024x1024, .bf16⟩
  | 121 => ⟨S1024x1024, .bf16⟩
  | 122 => ⟨S1024x512, .f32⟩
  | 123 => ⟨S1024x512, .f32⟩
  | 124 => ⟨S1024x512, .f32⟩
  | 125 => ⟨S1024x512, .f32⟩
  | 126 => ⟨S1024x512, .f32⟩
  | 127 => ⟨S1024x1024, .bf16⟩
  | _ => ⟨S4096x128, .f32⟩

abbrev vmemTy0_1 (i : Nat) : BufTy := match i % 128 with
  | 0 => ⟨S1024x1024, .bf16⟩
  | 1 => ⟨S1024x512, .f32⟩
  | 2 => ⟨S1024x512, .f32⟩
  | 3 => ⟨S1024x512, .f32⟩
  | 4 => ⟨S1024x512, .f32⟩
  | 5 => ⟨S1024x512, .f32⟩
  | 6 => ⟨S1024x512, .f32⟩
  | 7 => ⟨S1024x512, .f32⟩
  | 8 => ⟨S512x512, .bf16⟩
  | 9 => ⟨S1024x512, .f32⟩
  | 10 => ⟨S1024x512, .f32⟩
  | 11 => ⟨S1024x512, .f32⟩
  | 12 => ⟨S1024x1024, .bf16⟩
  | 13 => ⟨S1024x1024, .bf16⟩
  | 14 => ⟨S1024x512, .f32⟩
  | 15 => ⟨S1024x512, .f32⟩
  | 16 => ⟨S1024x512, .f32⟩
  | 17 => ⟨S1024x512, .f32⟩
  | 18 => ⟨S1024x512, .f32⟩
  | 19 => ⟨S1024x1024, .bf16⟩
  | 20 => ⟨S1024x1024, .bf16⟩
  | 21 => ⟨S1024x512, .f32⟩
  | 22 => ⟨S1024x512, .f32⟩
  | 23 => ⟨S1024x512, .f32⟩
  | 24 => ⟨S1024x512, .f32⟩
  | 25 => ⟨S1024x512, .f32⟩
  | 26 => ⟨S1024x1024, .bf16⟩
  | 27 => ⟨S1024x1024, .bf16⟩
  | 28 => ⟨S1024x512, .f32⟩
  | 29 => ⟨S1024x512, .f32⟩
  | 30 => ⟨S1024x512, .f32⟩
  | 31 => ⟨S1024x512, .f32⟩
  | 32 => ⟨S1024x512, .f32⟩
  | 33 => ⟨S1024x512, .f32⟩
  | 34 => ⟨S1024x512, .f32⟩
  | 35 => ⟨S512x512, .bf16⟩
  | 36 => ⟨S1024x512, .f32⟩
  | 37 => ⟨S1024x512, .f32⟩
  | 38 => ⟨S1024x512, .f32⟩
  | 39 => ⟨S1024x1024, .bf16⟩
  | 40 => ⟨S1024x1024, .bf16⟩
  | 41 => ⟨S1024x512, .f32⟩
  | 42 => ⟨S1024x512, .f32⟩
  | 43 => ⟨S1024x512, .f32⟩
  | 44 => ⟨S1024x512, .f32⟩
  | 45 => ⟨S1024x512, .f32⟩
  | 46 => ⟨S1024x1024, .bf16⟩
  | 47 => ⟨S1024x1024, .bf16⟩
  | 48 => ⟨S1024x512, .f32⟩
  | 49 => ⟨S1024x512, .f32⟩
  | 50 => ⟨S1024x512, .f32⟩
  | 51 => ⟨S1024x512, .f32⟩
  | 52 => ⟨S1024x512, .f32⟩
  | 53 => ⟨S1024x512, .f32⟩
  | 54 => ⟨S1024x512, .f32⟩
  | 55 => ⟨S512x512, .bf16⟩
  | 56 => ⟨S1024x512, .f32⟩
  | 57 => ⟨S1024x512, .f32⟩
  | 58 => ⟨S1024x512, .f32⟩
  | 59 => ⟨S1024x1024, .bf16⟩
  | 60 => ⟨S1024x1024, .bf16⟩
  | 61 => ⟨S1024x512, .f32⟩
  | 62 => ⟨S1024x512, .f32⟩
  | 63 => ⟨S1024x512, .f32⟩
  | 64 => ⟨S1024x512, .f32⟩
  | 65 => ⟨S1024x512, .f32⟩
  | 66 => ⟨S1024x1024, .bf16⟩
  | 67 => ⟨S1024x1024, .bf16⟩
  | 68 => ⟨S1024x512, .f32⟩
  | 69 => ⟨S1024x512, .f32⟩
  | 70 => ⟨S1024x512, .f32⟩
  | 71 => ⟨S1024x512, .f32⟩
  | 72 => ⟨S1024x512, .f32⟩
  | 73 => ⟨S1024x1024, .bf16⟩
  | 74 => ⟨S1024x1024, .bf16⟩
  | 75 => ⟨S1024x512, .f32⟩
  | 76 => ⟨S1024x512, .f32⟩
  | 77 => ⟨S1024x512, .f32⟩
  | 78 => ⟨S1024x512, .f32⟩
  | 79 => ⟨S1024x512, .f32⟩
  | 80 => ⟨S1024x512, .f32⟩
  | 81 => ⟨S1024x512, .f32⟩
  | 82 => ⟨S512x512, .bf16⟩
  | 83 => ⟨S1024x512, .f32⟩
  | 84 => ⟨S1024x512, .f32⟩
  | 85 => ⟨S1024x512, .f32⟩
  | 86 => ⟨S1024x1024, .bf16⟩
  | 87 => ⟨S1024x1024, .bf16⟩
  | 88 => ⟨S1024x512, .f32⟩
  | 89 => ⟨S1024x512, .f32⟩
  | 90 => ⟨S1024x512, .f32⟩
  | 91 => ⟨S1024x512, .f32⟩
  | 92 => ⟨S1024x512, .f32⟩
  | 93 => ⟨S1024x1024, .bf16⟩
  | 94 => ⟨S1024x1024, .bf16⟩
  | 95 => ⟨S1024x512, .f32⟩
  | 96 => ⟨S1024x512, .f32⟩
  | 97 => ⟨S1024x512, .f32⟩
  | 98 => ⟨S1024x512, .f32⟩
  | 99 => ⟨S1024x512, .f32⟩
  | 100 => ⟨S1024x512, .f32⟩
  | 101 => ⟨S1024x512, .f32⟩
  | 102 => ⟨S512x512, .bf16⟩
  | 103 => ⟨S1024x512, .f32⟩
  | 104 => ⟨S1024x512, .f32⟩
  | 105 => ⟨S1024x512, .f32⟩
  | 106 => ⟨S1024x1024, .bf16⟩
  | 107 => ⟨S1024x1024, .bf16⟩
  | 108 => ⟨S1024x512, .f32⟩
  | 109 => ⟨S1024x512, .f32⟩
  | 110 => ⟨S1024x512, .f32⟩
  | 111 => ⟨S1024x512, .f32⟩
  | 112 => ⟨S1024x512, .f32⟩
  | 113 => ⟨S1024x1024, .bf16⟩
  | 114 => ⟨S1024x1024, .bf16⟩
  | 115 => ⟨S1024x512, .f32⟩
  | 116 => ⟨S1024x512, .f32⟩
  | 117 => ⟨S1024x512, .f32⟩
  | 118 => ⟨S1024x512, .f32⟩
  | 119 => ⟨S1024x512, .f32⟩
  | 120 => ⟨S1024x1024, .bf16⟩
  | 121 => ⟨S1024x1024, .bf16⟩
  | 122 => ⟨S1024x512, .f32⟩
  | 123 => ⟨S1024x512, .f32⟩
  | 124 => ⟨S1024x512, .f32⟩
  | 125 => ⟨S1024x512, .f32⟩
  | 126 => ⟨S1024x512, .f32⟩
  | 127 => ⟨S1024x512, .f32⟩
  | _ => ⟨S4096x128, .f32⟩

abbrev vmemTy0_2 (i : Nat) : BufTy := match i % 128 with
  | 0 => ⟨S1024x512, .f32⟩
  | 1 => ⟨S512x512, .bf16⟩
  | 2 => ⟨S1024x512, .f32⟩
  | 3 => ⟨S1024x512, .f32⟩
  | 4 => ⟨S1024x512, .f32⟩
  | 5 => ⟨S1024x1024, .bf16⟩
  | 6 => ⟨S1024x1024, .bf16⟩
  | 7 => ⟨S1024x512, .f32⟩
  | 8 => ⟨S1024x512, .f32⟩
  | 9 => ⟨S1024x512, .f32⟩
  | 10 => ⟨S1024x512, .f32⟩
  | 11 => ⟨S1024x512, .f32⟩
  | 12 => ⟨S1024x1024, .bf16⟩
  | 13 => ⟨S1024x1024, .bf16⟩
  | 14 => ⟨S1024x512, .f32⟩
  | 15 => ⟨S1024x512, .f32⟩
  | 16 => ⟨S1024x512, .f32⟩
  | 17 => ⟨S1024x512, .f32⟩
  | 18 => ⟨S1024x512, .f32⟩
  | 19 => ⟨S1024x512, .f32⟩
  | 20 => ⟨S1024x512, .f32⟩
  | 21 => ⟨S512x512, .bf16⟩
  | 22 => ⟨S1024x512, .f32⟩
  | 23 => ⟨S1024x512, .f32⟩
  | 24 => ⟨S1024x512, .f32⟩
  | 25 => ⟨S1024x1024, .bf16⟩
  | 26 => ⟨S1024x1024, .bf16⟩
  | 27 => ⟨S1024x512, .f32⟩
  | 28 => ⟨S1024x512, .f32⟩
  | 29 => ⟨S1024x512, .f32⟩
  | 30 => ⟨S1024x512, .f32⟩
  | 31 => ⟨S1024x512, .f32⟩
  | 32 => ⟨S1024x1024, .bf16⟩
  | 33 => ⟨S1024x1024, .bf16⟩
  | 34 => ⟨S1024x512, .f32⟩
  | 35 => ⟨S1024x512, .f32⟩
  | 36 => ⟨S1024x512, .f32⟩
  | 37 => ⟨S1024x512, .f32⟩
  | 38 => ⟨S1024x512, .f32⟩
  | 39 => ⟨S1024x1024, .bf16⟩
  | 40 => ⟨S1024x1024, .bf16⟩
  | 41 => ⟨S1024x512, .f32⟩
  | 42 => ⟨S1024x512, .f32⟩
  | 43 => ⟨S1024x512, .f32⟩
  | 44 => ⟨S1024x512, .f32⟩
  | 45 => ⟨S1024x512, .f32⟩
  | 46 => ⟨S1024x512, .f32⟩
  | 47 => ⟨S1024x512, .f32⟩
  | 48 => ⟨S512x512, .bf16⟩
  | 49 => ⟨S1024x512, .f32⟩
  | 50 => ⟨S1024x512, .f32⟩
  | 51 => ⟨S1024x512, .f32⟩
  | 52 => ⟨S1024x1024, .bf16⟩
  | 53 => ⟨S1024x1024, .bf16⟩
  | 54 => ⟨S1024x512, .f32⟩
  | 55 => ⟨S1024x512, .f32⟩
  | 56 => ⟨S1024x512, .f32⟩
  | 57 => ⟨S1024x512, .f32⟩
  | 58 => ⟨S1024x512, .f32⟩
  | 59 => ⟨S1024x1024, .bf16⟩
  | 60 => ⟨S1024x1024, .bf16⟩
  | 61 => ⟨S1024x512, .f32⟩
  | 62 => ⟨S1024x512, .f32⟩
  | 63 => ⟨S1024x512, .f32⟩
  | 64 => ⟨S1024x512, .f32⟩
  | 65 => ⟨S1024x512, .f32⟩
  | 66 => ⟨S1024x512, .f32⟩
  | 67 => ⟨S1024x512, .f32⟩
  | 68 => ⟨S512x512, .bf16⟩
  | 69 => ⟨S1024x512, .f32⟩
  | 70 => ⟨S1024x512, .f32⟩
  | 71 => ⟨S1024x512, .f32⟩
  | 72 => ⟨S1024x1024, .bf16⟩
  | 73 => ⟨S1024x1024, .bf16⟩
  | 74 => ⟨S1024x512, .f32⟩
  | 75 => ⟨S1024x512, .f32⟩
  | 76 => ⟨S1024x512, .f32⟩
  | 77 => ⟨S1024x512, .f32⟩
  | 78 => ⟨S1024x512, .f32⟩
  | 79 => ⟨S1024x1024, .bf16⟩
  | 80 => ⟨S1024x1024, .bf16⟩
  | 81 => ⟨S1024x512, .f32⟩
  | 82 => ⟨S1024x512, .f32⟩
  | 83 => ⟨S1024x512, .f32⟩
  | 84 => ⟨S1024x512, .f32⟩
  | 85 => ⟨S1024x512, .f32⟩
  | 86 => ⟨S1024x1024, .bf16⟩
  | 87 => ⟨S1024x1024, .bf16⟩
  | 88 => ⟨S1024x512, .f32⟩
  | 89 => ⟨S1024x512, .f32⟩
  | 90 => ⟨S1024x512, .f32⟩
  | 91 => ⟨S1024x512, .f32⟩
  | 92 => ⟨S1024x512, .f32⟩
  | 93 => ⟨S1024x512, .f32⟩
  | 94 => ⟨S1024x512, .f32⟩
  | 95 => ⟨S512x512, .bf16⟩
  | 96 => ⟨S1024x512, .f32⟩
  | 97 => ⟨S1024x512, .f32⟩
  | 98 => ⟨S1024x512, .f32⟩
  | 99 => ⟨S1024x1024, .bf16⟩
  | 100 => ⟨S1024x1024, .bf16⟩
  | 101 => ⟨S1024x512, .f32⟩
  | 102 => ⟨S1024x512, .f32⟩
  | 103 => ⟨S1024x512, .f32⟩
  | 104 => ⟨S1024x512, .f32⟩
  | 105 => ⟨S1024x512, .f32⟩
  | 106 => ⟨S1024x1024, .bf16⟩
  | 107 => ⟨S1024x1024, .bf16⟩
  | 108 => ⟨S1024x512, .f32⟩
  | 109 => ⟨S1024x512, .f32⟩
  | 110 => ⟨S1024x512, .f32⟩
  | 111 => ⟨S1024x512, .f32⟩
  | 112 => ⟨S1024x512, .f32⟩
  | 113 => ⟨S1024x512, .f32⟩
  | 114 => ⟨S1024x512, .f32⟩
  | 115 => ⟨S512x512, .bf16⟩
  | 116 => ⟨S1024x512, .f32⟩
  | 117 => ⟨S1024x512, .f32⟩
  | 118 => ⟨S1024x512, .f32⟩
  | 119 => ⟨S1024x1024, .bf16⟩
  | 120 => ⟨S1024x1024, .bf16⟩
  | 121 => ⟨S1024x512, .f32⟩
  | 122 => ⟨S1024x512, .f32⟩
  | 123 => ⟨S1024x512, .f32⟩
  | 124 => ⟨S1024x512, .f32⟩
  | 125 => ⟨S1024x512, .f32⟩
  | 126 => ⟨S1024x1024, .bf16⟩
  | 127 => ⟨S1024x1024, .bf16⟩
  | _ => ⟨S4096x128, .f32⟩

abbrev vmemTy0_3 (i : Nat) : BufTy := match i % 128 with
  | 0 => ⟨S1024x512, .f32⟩
  | 1 => ⟨S1024x512, .f32⟩
  | 2 => ⟨S1024x512, .f32⟩
  | 3 => ⟨S1024x512, .f32⟩
  | 4 => ⟨S1024x512, .f32⟩
  | 5 => ⟨S1024x512, .f32⟩
  | 6 => ⟨S1024x512, .f32⟩
  | 7 => ⟨S512x512, .bf16⟩
  | 8 => ⟨S1024x512, .f32⟩
  | 9 => ⟨S1024x512, .f32⟩
  | 10 => ⟨S1024x512, .f32⟩
  | 11 => ⟨S1024x512, .f32⟩
  | 12 => ⟨S1024x512, .f32⟩
  | 13 => ⟨S512x64, .bf16⟩
  | 14 => ⟨S1024x64, .f32⟩
  | 15 => ⟨S1024x64, .f32⟩
  | 16 => ⟨S1024x64, .f32⟩
  | _ => ⟨S4096x128, .f32⟩

abbrev vmemTy (i : Nat) : BufTy := match i / 128 with
  | 0 => vmemTy0_0 i
  | 1 => vmemTy0_1 i
  | 2 => vmemTy0_2 i
  | 3 => vmemTy0_3 i
  | _ => ⟨S4096x128, .f32⟩

abbrev bufTy : (tb : Table) → Fin (tcTables nBuf tb) → BufTy
  | .hbm, ⟨i, _⟩ => hbmTy i
  | .local _ .vmem, ⟨i, _⟩ => vmemTy i
  | _, _ => ⟨S4096x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | _ => false

abbrev dmaSemScopedAt (i : Nat) : Bool := match i / 128 with
  | 0 => dmaSemScopedAt0_0 i
  | 1 => dmaSemScopedAt0_1 i
  | 2 => dmaSemScopedAt0_2 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | _ => false

abbrev vmemScopedAt (i : Nat) : Bool := match i / 128 with
  | 0 => vmemScopedAt0_0 i
  | 1 => vmemScopedAt0_1 i
  | 2 => vmemScopedAt0_2 i
  | 3 => vmemScopedAt0_3 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 341 → Bool
  | ⟨i, _⟩ => dmaSemScopedAt i

abbrev sig : RefSig :=
  ofTc nBuf bufTy 0 341 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_0 : Ref sig .tc := ⟨.hbm, 44, rfl⟩
abbrev main_v28 : Ref sig .tc := ⟨.hbm, 45, rfl⟩
abbrev main_cst_1 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_v37 : Ref sig .tc := ⟨.hbm, 56, rfl⟩
abbrev main_cst_3 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_8 : Ref sig .tc := ⟨.hbm, 89, rfl⟩
abbrev main_v65 : Ref sig .tc := ⟨.hbm, 90, rfl⟩
abbrev main_cst_9 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_10 : Ref sig .tc := ⟨.hbm, 99, rfl⟩
abbrev main_v73 : Ref sig .tc := ⟨.hbm, 100, rfl⟩
abbrev main_v74 : Ref sig .tc := ⟨.hbm, 101, rfl⟩
abbrev main_cst_11 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_12 : Ref sig .tc := ⟨.hbm, 113, rfl⟩
abbrev main_v85 : Ref sig .tc := ⟨.hbm, 114, rfl⟩
abbrev main_v86 : Ref sig .tc := ⟨.hbm, 115, rfl⟩
abbrev main_cst_13 : Ref sig .tc := ⟨.hbm, 116, rfl⟩
abbrev main_v87 : Ref sig .tc := ⟨.hbm, 117, rfl⟩
abbrev main_v88 : Ref sig .tc := ⟨.hbm, 118, rfl⟩
abbrev main_cst_14 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_15 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_16 : Ref sig .tc := ⟨.hbm, 134, rfl⟩
abbrev main_v102 : Ref sig .tc := ⟨.hbm, 135, rfl⟩
abbrev main_cst_17 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_18 : Ref sig .tc := ⟨.hbm, 144, rfl⟩
abbrev main_v110 : Ref sig .tc := ⟨.hbm, 145, rfl⟩
abbrev main_v111 : Ref sig .tc := ⟨.hbm, 146, rfl⟩
abbrev main_cst_19 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_20 : Ref sig .tc := ⟨.hbm, 158, rfl⟩
abbrev main_v122 : Ref sig .tc := ⟨.hbm, 159, rfl⟩
abbrev main_v123 : Ref sig .tc := ⟨.hbm, 160, rfl⟩
abbrev main_cst_21 : Ref sig .tc := ⟨.hbm, 161, rfl⟩
abbrev main_v124 : Ref sig .tc := ⟨.hbm, 162, rfl⟩
abbrev main_v125 : Ref sig .tc := ⟨.hbm, 163, rfl⟩
abbrev main_cst_22 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_23 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_cst_24 : Ref sig .tc := ⟨.hbm, 179, rfl⟩
abbrev main_v139 : Ref sig .tc := ⟨.hbm, 180, rfl⟩
abbrev main_cst_25 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_cst_26 : Ref sig .tc := ⟨.hbm, 189, rfl⟩
abbrev main_v147 : Ref sig .tc := ⟨.hbm, 190, rfl⟩
abbrev main_v148 : Ref sig .tc := ⟨.hbm, 191, rfl⟩
abbrev main_cst_27 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_cst_28 : Ref sig .tc := ⟨.hbm, 203, rfl⟩
abbrev main_v159 : Ref sig .tc := ⟨.hbm, 204, rfl⟩
abbrev main_v160 : Ref sig .tc := ⟨.hbm, 205, rfl⟩
abbrev main_cst_29 : Ref sig .tc := ⟨.hbm, 206, rfl⟩
abbrev main_v161 : Ref sig .tc := ⟨.hbm, 207, rfl⟩
abbrev main_v162 : Ref sig .tc := ⟨.hbm, 208, rfl⟩
abbrev main_cst_30 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_cst_31 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_cst_32 : Ref sig .tc := ⟨.hbm, 224, rfl⟩
abbrev main_v176 : Ref sig .tc := ⟨.hbm, 225, rfl⟩
abbrev main_cst_33 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_cst_34 : Ref sig .tc := ⟨.hbm, 234, rfl⟩
abbrev main_v184 : Ref sig .tc := ⟨.hbm, 235, rfl⟩
abbrev main_v185 : Ref sig .tc := ⟨.hbm, 236, rfl⟩
abbrev main_cst_35 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_cst_36 : Ref sig .tc := ⟨.hbm, 248, rfl⟩
abbrev main_v196 : Ref sig .tc := ⟨.hbm, 249, rfl⟩
abbrev main_v197 : Ref sig .tc := ⟨.hbm, 250, rfl⟩
abbrev main_cst_37 : Ref sig .tc := ⟨.hbm, 251, rfl⟩
abbrev main_v198 : Ref sig .tc := ⟨.hbm, 252, rfl⟩
abbrev main_v199 : Ref sig .tc := ⟨.hbm, 253, rfl⟩
abbrev main_cst_38 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_cst_39 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_cst_40 : Ref sig .tc := ⟨.hbm, 269, rfl⟩
abbrev main_v213 : Ref sig .tc := ⟨.hbm, 270, rfl⟩
abbrev main_cst_41 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_cst_42 : Ref sig .tc := ⟨.hbm, 279, rfl⟩
abbrev main_v221 : Ref sig .tc := ⟨.hbm, 280, rfl⟩
abbrev main_v222 : Ref sig .tc := ⟨.hbm, 281, rfl⟩
abbrev main_cst_43 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_cst_44 : Ref sig .tc := ⟨.hbm, 293, rfl⟩
abbrev main_v233 : Ref sig .tc := ⟨.hbm, 294, rfl⟩
abbrev main_v234 : Ref sig .tc := ⟨.hbm, 295, rfl⟩
abbrev main_cst_45 : Ref sig .tc := ⟨.hbm, 296, rfl⟩
abbrev main_v235 : Ref sig .tc := ⟨.hbm, 297, rfl⟩
abbrev main_v236 : Ref sig .tc := ⟨.hbm, 298, rfl⟩
abbrev main_cst_46 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_cst_47 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_cst_48 : Ref sig .tc := ⟨.hbm, 314, rfl⟩
abbrev main_v250 : Ref sig .tc := ⟨.hbm, 315, rfl⟩
abbrev main_cst_49 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_v257 : Ref sig .tc := ⟨.hbm, 323, rfl⟩
abbrev main_cst_50 : Ref sig .tc := ⟨.hbm, 324, rfl⟩
abbrev main_v258 : Ref sig .tc := ⟨.hbm, 325, rfl⟩
abbrev main_v259 : Ref sig .tc := ⟨.hbm, 326, rfl⟩
abbrev main_cst_51 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_cst_52 : Ref sig .tc := ⟨.hbm, 338, rfl⟩
abbrev main_v270 : Ref sig .tc := ⟨.hbm, 339, rfl⟩
abbrev main_v271 : Ref sig .tc := ⟨.hbm, 340, rfl⟩
abbrev main_cst_53 : Ref sig .tc := ⟨.hbm, 341, rfl⟩
abbrev main_v272 : Ref sig .tc := ⟨.hbm, 342, rfl⟩
abbrev main_v273 : Ref sig .tc := ⟨.hbm, 343, rfl⟩
abbrev main_cst_54 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_v280 : Ref sig .tc := ⟨.hbm, 351, rfl⟩
abbrev main_cst_55 : Ref sig .tc := ⟨.hbm, 352, rfl⟩
abbrev main_v281 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩
abbrev main_cst_56 : Ref sig .tc := ⟨.hbm, 359, rfl⟩
abbrev main_v287 : Ref sig .tc := ⟨.hbm, 360, rfl⟩
abbrev main_cst_57 : Ref sig .tc := ⟨.hbm, 361, rfl⟩
abbrev main_v288 : Ref sig .tc := ⟨.hbm, 362, rfl⟩
abbrev main_v289 : Ref sig .tc := ⟨.hbm, 363, rfl⟩
abbrev main_v290 : Ref sig .tc := ⟨.hbm, 364, rfl⟩
abbrev main_v291 : Ref sig .tc := ⟨.hbm, 365, rfl⟩
abbrev main_v292 : Ref sig .tc := ⟨.hbm, 366, rfl⟩
abbrev main_v293 : Ref sig .tc := ⟨.hbm, 367, rfl⟩
abbrev main_v294 : Ref sig .tc := ⟨.hbm, 368, rfl⟩
abbrev main_cst_58 : Ref sig .tc := ⟨.hbm, 369, rfl⟩
abbrev main_v295 : Ref sig .tc := ⟨.hbm, 370, rfl⟩
abbrev main_v296 : Ref sig .tc := ⟨.hbm, 371, rfl⟩
abbrev main_cst_59 : Ref sig .tc := ⟨.hbm, 372, rfl⟩
abbrev main_v297 : Ref sig .tc := ⟨.hbm, 373, rfl⟩
abbrev main_v298 : Ref sig .tc := ⟨.hbm, 374, rfl⟩
abbrev main_v299 : Ref sig .tc := ⟨.hbm, 375, rfl⟩
abbrev main_v300 : Ref sig .tc := ⟨.hbm, 376, rfl⟩
abbrev main_v301 : Ref sig .tc := ⟨.hbm, 377, rfl⟩
abbrev main_v302 : Ref sig .tc := ⟨.hbm, 378, rfl⟩
abbrev main_v303 : Ref sig .tc := ⟨.hbm, 379, rfl⟩
abbrev main_v304 : Ref sig .tc := ⟨.hbm, 380, rfl⟩
abbrev main_v305 : Ref sig .tc := ⟨.hbm, 381, rfl⟩
abbrev main_v306 : Ref sig .tc := ⟨.hbm, 382, rfl⟩
abbrev main_cst_60 : Ref sig .tc := ⟨.hbm, 383, rfl⟩
abbrev main_v307 : Ref sig .tc := ⟨.hbm, 384, rfl⟩
abbrev main_v308 : Ref sig .tc := ⟨.hbm, 385, rfl⟩
abbrev main_cst_61 : Ref sig .tc := ⟨.hbm, 386, rfl⟩
abbrev main_v309 : Ref sig .tc := ⟨.hbm, 387, rfl⟩
abbrev main_v310 : Ref sig .tc := ⟨.hbm, 388, rfl⟩
abbrev main_cst_62 : Ref sig .tc := ⟨.hbm, 389, rfl⟩
abbrev main_v311 : Ref sig .tc := ⟨.hbm, 390, rfl⟩
abbrev main_v312 : Ref sig .tc := ⟨.hbm, 391, rfl⟩
abbrev main_v313 : Ref sig .tc := ⟨.hbm, 392, rfl⟩
abbrev main_v314 : Ref sig .tc := ⟨.hbm, 393, rfl⟩
abbrev main_v315 : Ref sig .tc := ⟨.hbm, 394, rfl⟩
abbrev main_v316 : Ref sig .tc := ⟨.hbm, 395, rfl⟩
abbrev main_v317 : Ref sig .tc := ⟨.hbm, 396, rfl⟩
abbrev main_cst_63 : Ref sig .tc := ⟨.hbm, 397, rfl⟩
abbrev main_v318 : Ref sig .tc := ⟨.hbm, 398, rfl⟩
abbrev main_v319 : Ref sig .tc := ⟨.hbm, 399, rfl⟩
abbrev main_v320 : Ref sig .tc := ⟨.hbm, 400, rfl⟩
abbrev main_v321 : Ref sig .tc := ⟨.hbm, 401, rfl⟩
abbrev main_v322 : Ref sig .tc := ⟨.hbm, 402, rfl⟩
abbrev main_v323 : Ref sig .tc := ⟨.hbm, 403, rfl⟩
abbrev main_cst_64 : Ref sig .tc := ⟨.hbm, 404, rfl⟩
abbrev main_v324 : Ref sig .tc := ⟨.hbm, 405, rfl⟩
abbrev main_cst_65 : Ref sig .tc := ⟨.hbm, 406, rfl⟩
abbrev main_v325 : Ref sig .tc := ⟨.hbm, 407, rfl⟩
abbrev main_v326 : Ref sig .tc := ⟨.hbm, 408, rfl⟩
abbrev main_v327 : Ref sig .tc := ⟨.hbm, 409, rfl⟩
abbrev main_v328 : Ref sig .tc := ⟨.hbm, 410, rfl⟩
abbrev main_v329 : Ref sig .tc := ⟨.hbm, 411, rfl⟩
abbrev main_cst_66 : Ref sig .tc := ⟨.hbm, 412, rfl⟩
abbrev main_call0_cst : Ref sig .tc := ⟨.hbm, 413, rfl⟩
abbrev main_call0_v0 : Ref sig .tc := ⟨.hbm, 414, rfl⟩
abbrev main_call0_v1 : Ref sig .tc := ⟨.hbm, 415, rfl⟩
abbrev main_call0_v2 : Ref sig .tc := ⟨.hbm, 416, rfl⟩
abbrev main_call0_v3 : Ref sig .tc := ⟨.hbm, 417, rfl⟩
abbrev main_call0_v4 : Ref sig .tc := ⟨.hbm, 418, rfl⟩
abbrev main_v330 : Ref sig .tc := ⟨.hbm, 419, rfl⟩
abbrev main_v331 : Ref sig .tc := ⟨.hbm, 420, rfl⟩
abbrev main_v332 : Ref sig .tc := ⟨.hbm, 421, rfl⟩
abbrev main_v333 : Ref sig .tc := ⟨.hbm, 422, rfl⟩
abbrev main_v334 : Ref sig .tc := ⟨.hbm, 423, rfl⟩
abbrev main_v335 : Ref sig .tc := ⟨.hbm, 424, rfl⟩
abbrev main_v336 : Ref sig .tc := ⟨.hbm, 425, rfl⟩
abbrev main_v337 : Ref sig .tc := ⟨.hbm, 426, rfl⟩
abbrev main_v338 : Ref sig .tc := ⟨.hbm, 427, rfl⟩
abbrev main_v339 : Ref sig .tc := ⟨.hbm, 428, rfl⟩
abbrev main_v340 : Ref sig .tc := ⟨.hbm, 429, rfl⟩
abbrev main_v341 : Ref sig .tc := ⟨.hbm, 430, rfl⟩
abbrev main_v342 : Ref sig .tc := ⟨.hbm, 431, rfl⟩
abbrev main_v343 : Ref sig .tc := ⟨.hbm, 432, rfl⟩
abbrev main_v344 : Ref sig .tc := ⟨.hbm, 433, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_scratch0 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_scratch0 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc6_scratch0 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc7_scratch0 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg1_1 : Ref sig .tc := ⟨.vmem, 56, rfl⟩
abbrev cc8_stg2_0 : Ref sig .tc := ⟨.vmem, 57, rfl⟩
abbrev cc8_stg2_1 : Ref sig .tc := ⟨.vmem, 58, rfl⟩
abbrev cc8_scratch0 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg1_1 : Ref sig .tc := ⟨.vmem, 63, rfl⟩
abbrev cc9_stg2_0 : Ref sig .tc := ⟨.vmem, 64, rfl⟩
abbrev cc9_stg2_1 : Ref sig .tc := ⟨.vmem, 65, rfl⟩
abbrev cc9_scratch0 : Ref sig .tc := ⟨.vmem, 66, rfl⟩
abbrev cc10_stg0_0 : Ref sig .tc := ⟨.vmem, 67, rfl⟩
abbrev cc10_stg0_1 : Ref sig .tc := ⟨.vmem, 68, rfl⟩
abbrev cc10_stg1_0 : Ref sig .tc := ⟨.vmem, 69, rfl⟩
abbrev cc10_stg2_0 : Ref sig .tc := ⟨.vmem, 70, rfl⟩
abbrev cc10_stg2_1 : Ref sig .tc := ⟨.vmem, 71, rfl⟩
abbrev cc10_scratch0 : Ref sig .tc := ⟨.vmem, 72, rfl⟩
abbrev cc11_stg0_0 : Ref sig .tc := ⟨.vmem, 73, rfl⟩
abbrev cc11_stg0_1 : Ref sig .tc := ⟨.vmem, 74, rfl⟩
abbrev cc11_stg1_0 : Ref sig .tc := ⟨.vmem, 75, rfl⟩
abbrev cc11_stg1_1 : Ref sig .tc := ⟨.vmem, 76, rfl⟩
abbrev cc11_stg2_0 : Ref sig .tc := ⟨.vmem, 77, rfl⟩
abbrev cc11_stg2_1 : Ref sig .tc := ⟨.vmem, 78, rfl⟩
abbrev cc11_scratch0 : Ref sig .tc := ⟨.vmem, 79, rfl⟩
abbrev cc12_stg0_0 : Ref sig .tc := ⟨.vmem, 80, rfl⟩
abbrev cc12_stg0_1 : Ref sig .tc := ⟨.vmem, 81, rfl⟩
abbrev cc12_stg1_0 : Ref sig .tc := ⟨.vmem, 82, rfl⟩
abbrev cc12_stg1_1 : Ref sig .tc := ⟨.vmem, 83, rfl⟩
abbrev cc12_stg2_0 : Ref sig .tc := ⟨.vmem, 84, rfl⟩
abbrev cc12_stg2_1 : Ref sig .tc := ⟨.vmem, 85, rfl⟩
abbrev cc12_scratch0 : Ref sig .tc := ⟨.vmem, 86, rfl⟩
abbrev cc13_stg0_0 : Ref sig .tc := ⟨.vmem, 87, rfl⟩
abbrev cc13_stg0_1 : Ref sig .tc := ⟨.vmem, 88, rfl⟩
abbrev cc13_stg1_0 : Ref sig .tc := ⟨.vmem, 89, rfl⟩
abbrev cc13_stg2_0 : Ref sig .tc := ⟨.vmem, 90, rfl⟩
abbrev cc13_stg2_1 : Ref sig .tc := ⟨.vmem, 91, rfl⟩
abbrev cc13_scratch0 : Ref sig .tc := ⟨.vmem, 92, rfl⟩
abbrev cc14_stg0_0 : Ref sig .tc := ⟨.vmem, 93, rfl⟩
abbrev cc14_stg0_1 : Ref sig .tc := ⟨.vmem, 94, rfl⟩
abbrev cc14_stg1_0 : Ref sig .tc := ⟨.vmem, 95, rfl⟩
abbrev cc14_stg1_1 : Ref sig .tc := ⟨.vmem, 96, rfl⟩
abbrev cc14_stg2_0 : Ref sig .tc := ⟨.vmem, 97, rfl⟩
abbrev cc14_stg2_1 : Ref sig .tc := ⟨.vmem, 98, rfl⟩
abbrev cc14_scratch0 : Ref sig .tc := ⟨.vmem, 99, rfl⟩
abbrev cc15_stg0_0 : Ref sig .tc := ⟨.vmem, 100, rfl⟩
abbrev cc15_stg0_1 : Ref sig .tc := ⟨.vmem, 101, rfl⟩
abbrev cc15_stg1_0 : Ref sig .tc := ⟨.vmem, 102, rfl⟩
abbrev cc15_stg1_1 : Ref sig .tc := ⟨.vmem, 103, rfl⟩
abbrev cc15_stg2_0 : Ref sig .tc := ⟨.vmem, 104, rfl⟩
abbrev cc15_stg2_1 : Ref sig .tc := ⟨.vmem, 105, rfl⟩
abbrev cc15_scratch0 : Ref sig .tc := ⟨.vmem, 106, rfl⟩
abbrev cc16_stg0_0 : Ref sig .tc := ⟨.vmem, 107, rfl⟩
abbrev cc16_stg0_1 : Ref sig .tc := ⟨.vmem, 108, rfl⟩
abbrev cc16_stg1_0 : Ref sig .tc := ⟨.vmem, 109, rfl⟩
abbrev cc16_stg1_1 : Ref sig .tc := ⟨.vmem, 110, rfl⟩
abbrev cc16_stg2_0 : Ref sig .tc := ⟨.vmem, 111, rfl⟩
abbrev cc16_stg2_1 : Ref sig .tc := ⟨.vmem, 112, rfl⟩
abbrev cc16_scratch0 : Ref sig .tc := ⟨.vmem, 113, rfl⟩
abbrev cc17_stg0_0 : Ref sig .tc := ⟨.vmem, 114, rfl⟩
abbrev cc17_stg0_1 : Ref sig .tc := ⟨.vmem, 115, rfl⟩
abbrev cc17_stg1_0 : Ref sig .tc := ⟨.vmem, 116, rfl⟩
abbrev cc17_stg2_0 : Ref sig .tc := ⟨.vmem, 117, rfl⟩
abbrev cc17_stg2_1 : Ref sig .tc := ⟨.vmem, 118, rfl⟩
abbrev cc17_scratch0 : Ref sig .tc := ⟨.vmem, 119, rfl⟩
abbrev cc18_stg0_0 : Ref sig .tc := ⟨.vmem, 120, rfl⟩
abbrev cc18_stg0_1 : Ref sig .tc := ⟨.vmem, 121, rfl⟩
abbrev cc18_stg1_0 : Ref sig .tc := ⟨.vmem, 122, rfl⟩
abbrev cc18_stg1_1 : Ref sig .tc := ⟨.vmem, 123, rfl⟩
abbrev cc18_stg2_0 : Ref sig .tc := ⟨.vmem, 124, rfl⟩
abbrev cc18_stg2_1 : Ref sig .tc := ⟨.vmem, 125, rfl⟩
abbrev cc18_scratch0 : Ref sig .tc := ⟨.vmem, 126, rfl⟩
abbrev cc19_stg0_0 : Ref sig .tc := ⟨.vmem, 127, rfl⟩
abbrev cc19_stg0_1 : Ref sig .tc := ⟨.vmem, 128, rfl⟩
abbrev cc19_stg1_0 : Ref sig .tc := ⟨.vmem, 129, rfl⟩
abbrev cc19_stg1_1 : Ref sig .tc := ⟨.vmem, 130, rfl⟩
abbrev cc19_stg2_0 : Ref sig .tc := ⟨.vmem, 131, rfl⟩
abbrev cc19_stg2_1 : Ref sig .tc := ⟨.vmem, 132, rfl⟩
abbrev cc19_scratch0 : Ref sig .tc := ⟨.vmem, 133, rfl⟩
abbrev cc20_stg0_0 : Ref sig .tc := ⟨.vmem, 134, rfl⟩
abbrev cc20_stg0_1 : Ref sig .tc := ⟨.vmem, 135, rfl⟩
abbrev cc20_stg1_0 : Ref sig .tc := ⟨.vmem, 136, rfl⟩
abbrev cc20_stg2_0 : Ref sig .tc := ⟨.vmem, 137, rfl⟩
abbrev cc20_stg2_1 : Ref sig .tc := ⟨.vmem, 138, rfl⟩
abbrev cc20_scratch0 : Ref sig .tc := ⟨.vmem, 139, rfl⟩
abbrev cc21_stg0_0 : Ref sig .tc := ⟨.vmem, 140, rfl⟩
abbrev cc21_stg0_1 : Ref sig .tc := ⟨.vmem, 141, rfl⟩
abbrev cc21_stg1_0 : Ref sig .tc := ⟨.vmem, 142, rfl⟩
abbrev cc21_stg1_1 : Ref sig .tc := ⟨.vmem, 143, rfl⟩
abbrev cc21_stg2_0 : Ref sig .tc := ⟨.vmem, 144, rfl⟩
abbrev cc21_stg2_1 : Ref sig .tc := ⟨.vmem, 145, rfl⟩
abbrev cc21_scratch0 : Ref sig .tc := ⟨.vmem, 146, rfl⟩
abbrev cc22_stg0_0 : Ref sig .tc := ⟨.vmem, 147, rfl⟩
abbrev cc22_stg0_1 : Ref sig .tc := ⟨.vmem, 148, rfl⟩
abbrev cc22_stg1_0 : Ref sig .tc := ⟨.vmem, 149, rfl⟩
abbrev cc22_stg1_1 : Ref sig .tc := ⟨.vmem, 150, rfl⟩
abbrev cc22_stg2_0 : Ref sig .tc := ⟨.vmem, 151, rfl⟩
abbrev cc22_stg2_1 : Ref sig .tc := ⟨.vmem, 152, rfl⟩
abbrev cc22_scratch0 : Ref sig .tc := ⟨.vmem, 153, rfl⟩
abbrev cc23_stg0_0 : Ref sig .tc := ⟨.vmem, 154, rfl⟩
abbrev cc23_stg0_1 : Ref sig .tc := ⟨.vmem, 155, rfl⟩
abbrev cc23_stg1_0 : Ref sig .tc := ⟨.vmem, 156, rfl⟩
abbrev cc23_stg1_1 : Ref sig .tc := ⟨.vmem, 157, rfl⟩
abbrev cc23_stg2_0 : Ref sig .tc := ⟨.vmem, 158, rfl⟩
abbrev cc23_stg2_1 : Ref sig .tc := ⟨.vmem, 159, rfl⟩
abbrev cc23_scratch0 : Ref sig .tc := ⟨.vmem, 160, rfl⟩
abbrev cc24_stg0_0 : Ref sig .tc := ⟨.vmem, 161, rfl⟩
abbrev cc24_stg0_1 : Ref sig .tc := ⟨.vmem, 162, rfl⟩
abbrev cc24_stg1_0 : Ref sig .tc := ⟨.vmem, 163, rfl⟩
abbrev cc24_stg2_0 : Ref sig .tc := ⟨.vmem, 164, rfl⟩
abbrev cc24_stg2_1 : Ref sig .tc := ⟨.vmem, 165, rfl⟩
abbrev cc24_scratch0 : Ref sig .tc := ⟨.vmem, 166, rfl⟩
abbrev cc25_stg0_0 : Ref sig .tc := ⟨.vmem, 167, rfl⟩
abbrev cc25_stg0_1 : Ref sig .tc := ⟨.vmem, 168, rfl⟩
abbrev cc25_stg1_0 : Ref sig .tc := ⟨.vmem, 169, rfl⟩
abbrev cc25_stg1_1 : Ref sig .tc := ⟨.vmem, 170, rfl⟩
abbrev cc25_stg2_0 : Ref sig .tc := ⟨.vmem, 171, rfl⟩
abbrev cc25_stg2_1 : Ref sig .tc := ⟨.vmem, 172, rfl⟩
abbrev cc25_scratch0 : Ref sig .tc := ⟨.vmem, 173, rfl⟩
abbrev cc26_stg0_0 : Ref sig .tc := ⟨.vmem, 174, rfl⟩
abbrev cc26_stg0_1 : Ref sig .tc := ⟨.vmem, 175, rfl⟩
abbrev cc26_stg1_0 : Ref sig .tc := ⟨.vmem, 176, rfl⟩
abbrev cc26_stg1_1 : Ref sig .tc := ⟨.vmem, 177, rfl⟩
abbrev cc26_stg2_0 : Ref sig .tc := ⟨.vmem, 178, rfl⟩
abbrev cc26_stg2_1 : Ref sig .tc := ⟨.vmem, 179, rfl⟩
abbrev cc26_scratch0 : Ref sig .tc := ⟨.vmem, 180, rfl⟩
abbrev cc27_stg0_0 : Ref sig .tc := ⟨.vmem, 181, rfl⟩
abbrev cc27_stg0_1 : Ref sig .tc := ⟨.vmem, 182, rfl⟩
abbrev cc27_stg1_0 : Ref sig .tc := ⟨.vmem, 183, rfl⟩
abbrev cc27_stg2_0 : Ref sig .tc := ⟨.vmem, 184, rfl⟩
abbrev cc27_stg2_1 : Ref sig .tc := ⟨.vmem, 185, rfl⟩
abbrev cc27_scratch0 : Ref sig .tc := ⟨.vmem, 186, rfl⟩
abbrev cc28_stg0_0 : Ref sig .tc := ⟨.vmem, 187, rfl⟩
abbrev cc28_stg0_1 : Ref sig .tc := ⟨.vmem, 188, rfl⟩
abbrev cc28_stg1_0 : Ref sig .tc := ⟨.vmem, 189, rfl⟩
abbrev cc28_stg1_1 : Ref sig .tc := ⟨.vmem, 190, rfl⟩
abbrev cc28_stg2_0 : Ref sig .tc := ⟨.vmem, 191, rfl⟩
abbrev cc28_stg2_1 : Ref sig .tc := ⟨.vmem, 192, rfl⟩
abbrev cc28_scratch0 : Ref sig .tc := ⟨.vmem, 193, rfl⟩
abbrev cc29_stg0_0 : Ref sig .tc := ⟨.vmem, 194, rfl⟩
abbrev cc29_stg0_1 : Ref sig .tc := ⟨.vmem, 195, rfl⟩
abbrev cc29_stg1_0 : Ref sig .tc := ⟨.vmem, 196, rfl⟩
abbrev cc29_stg1_1 : Ref sig .tc := ⟨.vmem, 197, rfl⟩
abbrev cc29_stg2_0 : Ref sig .tc := ⟨.vmem, 198, rfl⟩
abbrev cc29_stg2_1 : Ref sig .tc := ⟨.vmem, 199, rfl⟩
abbrev cc29_scratch0 : Ref sig .tc := ⟨.vmem, 200, rfl⟩
abbrev cc30_stg0_0 : Ref sig .tc := ⟨.vmem, 201, rfl⟩
abbrev cc30_stg0_1 : Ref sig .tc := ⟨.vmem, 202, rfl⟩
abbrev cc30_stg1_0 : Ref sig .tc := ⟨.vmem, 203, rfl⟩
abbrev cc30_stg1_1 : Ref sig .tc := ⟨.vmem, 204, rfl⟩
abbrev cc30_stg2_0 : Ref sig .tc := ⟨.vmem, 205, rfl⟩
abbrev cc30_stg2_1 : Ref sig .tc := ⟨.vmem, 206, rfl⟩
abbrev cc30_scratch0 : Ref sig .tc := ⟨.vmem, 207, rfl⟩
abbrev cc31_stg0_0 : Ref sig .tc := ⟨.vmem, 208, rfl⟩
abbrev cc31_stg0_1 : Ref sig .tc := ⟨.vmem, 209, rfl⟩
abbrev cc31_stg1_0 : Ref sig .tc := ⟨.vmem, 210, rfl⟩
abbrev cc31_stg2_0 : Ref sig .tc := ⟨.vmem, 211, rfl⟩
abbrev cc31_stg2_1 : Ref sig .tc := ⟨.vmem, 212, rfl⟩
abbrev cc31_scratch0 : Ref sig .tc := ⟨.vmem, 213, rfl⟩
abbrev cc32_stg0_0 : Ref sig .tc := ⟨.vmem, 214, rfl⟩
abbrev cc32_stg0_1 : Ref sig .tc := ⟨.vmem, 215, rfl⟩
abbrev cc32_stg1_0 : Ref sig .tc := ⟨.vmem, 216, rfl⟩
abbrev cc32_stg1_1 : Ref sig .tc := ⟨.vmem, 217, rfl⟩
abbrev cc32_stg2_0 : Ref sig .tc := ⟨.vmem, 218, rfl⟩
abbrev cc32_stg2_1 : Ref sig .tc := ⟨.vmem, 219, rfl⟩
abbrev cc32_scratch0 : Ref sig .tc := ⟨.vmem, 220, rfl⟩
abbrev cc33_stg0_0 : Ref sig .tc := ⟨.vmem, 221, rfl⟩
abbrev cc33_stg0_1 : Ref sig .tc := ⟨.vmem, 222, rfl⟩
abbrev cc33_stg1_0 : Ref sig .tc := ⟨.vmem, 223, rfl⟩
abbrev cc33_stg1_1 : Ref sig .tc := ⟨.vmem, 224, rfl⟩
abbrev cc33_stg2_0 : Ref sig .tc := ⟨.vmem, 225, rfl⟩
abbrev cc33_stg2_1 : Ref sig .tc := ⟨.vmem, 226, rfl⟩
abbrev cc33_scratch0 : Ref sig .tc := ⟨.vmem, 227, rfl⟩
abbrev cc34_stg0_0 : Ref sig .tc := ⟨.vmem, 228, rfl⟩
abbrev cc34_stg0_1 : Ref sig .tc := ⟨.vmem, 229, rfl⟩
abbrev cc34_stg1_0 : Ref sig .tc := ⟨.vmem, 230, rfl⟩
abbrev cc34_stg2_0 : Ref sig .tc := ⟨.vmem, 231, rfl⟩
abbrev cc34_stg2_1 : Ref sig .tc := ⟨.vmem, 232, rfl⟩
abbrev cc34_scratch0 : Ref sig .tc := ⟨.vmem, 233, rfl⟩
abbrev cc35_stg0_0 : Ref sig .tc := ⟨.vmem, 234, rfl⟩
abbrev cc35_stg0_1 : Ref sig .tc := ⟨.vmem, 235, rfl⟩
abbrev cc35_stg1_0 : Ref sig .tc := ⟨.vmem, 236, rfl⟩
abbrev cc35_stg1_1 : Ref sig .tc := ⟨.vmem, 237, rfl⟩
abbrev cc35_stg2_0 : Ref sig .tc := ⟨.vmem, 238, rfl⟩
abbrev cc35_stg2_1 : Ref sig .tc := ⟨.vmem, 239, rfl⟩
abbrev cc35_scratch0 : Ref sig .tc := ⟨.vmem, 240, rfl⟩
abbrev cc36_stg0_0 : Ref sig .tc := ⟨.vmem, 241, rfl⟩
abbrev cc36_stg0_1 : Ref sig .tc := ⟨.vmem, 242, rfl⟩
abbrev cc36_stg1_0 : Ref sig .tc := ⟨.vmem, 243, rfl⟩
abbrev cc36_stg1_1 : Ref sig .tc := ⟨.vmem, 244, rfl⟩
abbrev cc36_stg2_0 : Ref sig .tc := ⟨.vmem, 245, rfl⟩
abbrev cc36_stg2_1 : Ref sig .tc := ⟨.vmem, 246, rfl⟩
abbrev cc36_scratch0 : Ref sig .tc := ⟨.vmem, 247, rfl⟩
abbrev cc37_stg0_0 : Ref sig .tc := ⟨.vmem, 248, rfl⟩
abbrev cc37_stg0_1 : Ref sig .tc := ⟨.vmem, 249, rfl⟩
abbrev cc37_stg1_0 : Ref sig .tc := ⟨.vmem, 250, rfl⟩
abbrev cc37_stg1_1 : Ref sig .tc := ⟨.vmem, 251, rfl⟩
abbrev cc37_stg2_0 : Ref sig .tc := ⟨.vmem, 252, rfl⟩
abbrev cc37_stg2_1 : Ref sig .tc := ⟨.vmem, 253, rfl⟩
abbrev cc37_scratch0 : Ref sig .tc := ⟨.vmem, 254, rfl⟩
abbrev cc38_stg0_0 : Ref sig .tc := ⟨.vmem, 255, rfl⟩
abbrev cc38_stg0_1 : Ref sig .tc := ⟨.vmem, 256, rfl⟩
abbrev cc38_stg1_0 : Ref sig .tc := ⟨.vmem, 257, rfl⟩
abbrev cc38_stg2_0 : Ref sig .tc := ⟨.vmem, 258, rfl⟩
abbrev cc38_stg2_1 : Ref sig .tc := ⟨.vmem, 259, rfl⟩
abbrev cc38_scratch0 : Ref sig .tc := ⟨.vmem, 260, rfl⟩
abbrev cc39_stg0_0 : Ref sig .tc := ⟨.vmem, 261, rfl⟩
abbrev cc39_stg0_1 : Ref sig .tc := ⟨.vmem, 262, rfl⟩
abbrev cc39_stg1_0 : Ref sig .tc := ⟨.vmem, 263, rfl⟩
abbrev cc39_stg1_1 : Ref sig .tc := ⟨.vmem, 264, rfl⟩
abbrev cc39_stg2_0 : Ref sig .tc := ⟨.vmem, 265, rfl⟩
abbrev cc39_stg2_1 : Ref sig .tc := ⟨.vmem, 266, rfl⟩
abbrev cc39_scratch0 : Ref sig .tc := ⟨.vmem, 267, rfl⟩
abbrev cc40_stg0_0 : Ref sig .tc := ⟨.vmem, 268, rfl⟩
abbrev cc40_stg0_1 : Ref sig .tc := ⟨.vmem, 269, rfl⟩
abbrev cc40_stg1_0 : Ref sig .tc := ⟨.vmem, 270, rfl⟩
abbrev cc40_stg1_1 : Ref sig .tc := ⟨.vmem, 271, rfl⟩
abbrev cc40_stg2_0 : Ref sig .tc := ⟨.vmem, 272, rfl⟩
abbrev cc40_stg2_1 : Ref sig .tc := ⟨.vmem, 273, rfl⟩
abbrev cc40_scratch0 : Ref sig .tc := ⟨.vmem, 274, rfl⟩
abbrev cc41_stg0_0 : Ref sig .tc := ⟨.vmem, 275, rfl⟩
abbrev cc41_stg0_1 : Ref sig .tc := ⟨.vmem, 276, rfl⟩
abbrev cc41_stg1_0 : Ref sig .tc := ⟨.vmem, 277, rfl⟩
abbrev cc41_stg2_0 : Ref sig .tc := ⟨.vmem, 278, rfl⟩
abbrev cc41_stg2_1 : Ref sig .tc := ⟨.vmem, 279, rfl⟩
abbrev cc41_scratch0 : Ref sig .tc := ⟨.vmem, 280, rfl⟩
abbrev cc42_stg0_0 : Ref sig .tc := ⟨.vmem, 281, rfl⟩
abbrev cc42_stg0_1 : Ref sig .tc := ⟨.vmem, 282, rfl⟩
abbrev cc42_stg1_0 : Ref sig .tc := ⟨.vmem, 283, rfl⟩
abbrev cc42_stg1_1 : Ref sig .tc := ⟨.vmem, 284, rfl⟩
abbrev cc42_stg2_0 : Ref sig .tc := ⟨.vmem, 285, rfl⟩
abbrev cc42_stg2_1 : Ref sig .tc := ⟨.vmem, 286, rfl⟩
abbrev cc42_scratch0 : Ref sig .tc := ⟨.vmem, 287, rfl⟩
abbrev cc43_stg0_0 : Ref sig .tc := ⟨.vmem, 288, rfl⟩
abbrev cc43_stg0_1 : Ref sig .tc := ⟨.vmem, 289, rfl⟩
abbrev cc43_stg1_0 : Ref sig .tc := ⟨.vmem, 290, rfl⟩
abbrev cc43_stg1_1 : Ref sig .tc := ⟨.vmem, 291, rfl⟩
abbrev cc43_stg2_0 : Ref sig .tc := ⟨.vmem, 292, rfl⟩
abbrev cc43_stg2_1 : Ref sig .tc := ⟨.vmem, 293, rfl⟩
abbrev cc43_scratch0 : Ref sig .tc := ⟨.vmem, 294, rfl⟩
abbrev cc44_stg0_0 : Ref sig .tc := ⟨.vmem, 295, rfl⟩
abbrev cc44_stg0_1 : Ref sig .tc := ⟨.vmem, 296, rfl⟩
abbrev cc44_stg1_0 : Ref sig .tc := ⟨.vmem, 297, rfl⟩
abbrev cc44_stg1_1 : Ref sig .tc := ⟨.vmem, 298, rfl⟩
abbrev cc44_stg2_0 : Ref sig .tc := ⟨.vmem, 299, rfl⟩
abbrev cc44_stg2_1 : Ref sig .tc := ⟨.vmem, 300, rfl⟩
abbrev cc44_scratch0 : Ref sig .tc := ⟨.vmem, 301, rfl⟩
abbrev cc45_stg0_0 : Ref sig .tc := ⟨.vmem, 302, rfl⟩
abbrev cc45_stg0_1 : Ref sig .tc := ⟨.vmem, 303, rfl⟩
abbrev cc45_stg1_0 : Ref sig .tc := ⟨.vmem, 304, rfl⟩
abbrev cc45_stg2_0 : Ref sig .tc := ⟨.vmem, 305, rfl⟩
abbrev cc45_stg2_1 : Ref sig .tc := ⟨.vmem, 306, rfl⟩
abbrev cc45_scratch0 : Ref sig .tc := ⟨.vmem, 307, rfl⟩
abbrev cc46_stg0_0 : Ref sig .tc := ⟨.vmem, 308, rfl⟩
abbrev cc46_stg0_1 : Ref sig .tc := ⟨.vmem, 309, rfl⟩
abbrev cc46_stg1_0 : Ref sig .tc := ⟨.vmem, 310, rfl⟩
abbrev cc46_stg1_1 : Ref sig .tc := ⟨.vmem, 311, rfl⟩
abbrev cc46_stg2_0 : Ref sig .tc := ⟨.vmem, 312, rfl⟩
abbrev cc46_stg2_1 : Ref sig .tc := ⟨.vmem, 313, rfl⟩
abbrev cc46_scratch0 : Ref sig .tc := ⟨.vmem, 314, rfl⟩
abbrev cc47_stg0_0 : Ref sig .tc := ⟨.vmem, 315, rfl⟩
abbrev cc47_stg0_1 : Ref sig .tc := ⟨.vmem, 316, rfl⟩
abbrev cc47_stg1_0 : Ref sig .tc := ⟨.vmem, 317, rfl⟩
abbrev cc47_stg1_1 : Ref sig .tc := ⟨.vmem, 318, rfl⟩
abbrev cc47_stg2_0 : Ref sig .tc := ⟨.vmem, 319, rfl⟩
abbrev cc47_stg2_1 : Ref sig .tc := ⟨.vmem, 320, rfl⟩
abbrev cc47_scratch0 : Ref sig .tc := ⟨.vmem, 321, rfl⟩
abbrev cc48_stg0_0 : Ref sig .tc := ⟨.vmem, 322, rfl⟩
abbrev cc48_stg0_1 : Ref sig .tc := ⟨.vmem, 323, rfl⟩
abbrev cc48_stg1_0 : Ref sig .tc := ⟨.vmem, 324, rfl⟩
abbrev cc48_stg2_0 : Ref sig .tc := ⟨.vmem, 325, rfl⟩
abbrev cc48_stg2_1 : Ref sig .tc := ⟨.vmem, 326, rfl⟩
abbrev cc48_scratch0 : Ref sig .tc := ⟨.vmem, 327, rfl⟩
abbrev cc49_stg0_0 : Ref sig .tc := ⟨.vmem, 328, rfl⟩
abbrev cc49_stg0_1 : Ref sig .tc := ⟨.vmem, 329, rfl⟩
abbrev cc49_stg1_0 : Ref sig .tc := ⟨.vmem, 330, rfl⟩
abbrev cc49_stg1_1 : Ref sig .tc := ⟨.vmem, 331, rfl⟩
abbrev cc49_stg2_0 : Ref sig .tc := ⟨.vmem, 332, rfl⟩
abbrev cc49_stg2_1 : Ref sig .tc := ⟨.vmem, 333, rfl⟩
abbrev cc49_scratch0 : Ref sig .tc := ⟨.vmem, 334, rfl⟩
abbrev cc50_stg0_0 : Ref sig .tc := ⟨.vmem, 335, rfl⟩
abbrev cc50_stg0_1 : Ref sig .tc := ⟨.vmem, 336, rfl⟩
abbrev cc50_stg1_0 : Ref sig .tc := ⟨.vmem, 337, rfl⟩
abbrev cc50_stg1_1 : Ref sig .tc := ⟨.vmem, 338, rfl⟩
abbrev cc50_stg2_0 : Ref sig .tc := ⟨.vmem, 339, rfl⟩
abbrev cc50_stg2_1 : Ref sig .tc := ⟨.vmem, 340, rfl⟩
abbrev cc50_scratch0 : Ref sig .tc := ⟨.vmem, 341, rfl⟩
abbrev cc51_stg0_0 : Ref sig .tc := ⟨.vmem, 342, rfl⟩
abbrev cc51_stg0_1 : Ref sig .tc := ⟨.vmem, 343, rfl⟩
abbrev cc51_stg1_0 : Ref sig .tc := ⟨.vmem, 344, rfl⟩
abbrev cc51_stg1_1 : Ref sig .tc := ⟨.vmem, 345, rfl⟩
abbrev cc51_stg2_0 : Ref sig .tc := ⟨.vmem, 346, rfl⟩
abbrev cc51_stg2_1 : Ref sig .tc := ⟨.vmem, 347, rfl⟩
abbrev cc51_scratch0 : Ref sig .tc := ⟨.vmem, 348, rfl⟩
abbrev cc52_stg0_0 : Ref sig .tc := ⟨.vmem, 349, rfl⟩
abbrev cc52_stg0_1 : Ref sig .tc := ⟨.vmem, 350, rfl⟩
abbrev cc52_stg1_0 : Ref sig .tc := ⟨.vmem, 351, rfl⟩
abbrev cc52_stg2_0 : Ref sig .tc := ⟨.vmem, 352, rfl⟩
abbrev cc52_stg2_1 : Ref sig .tc := ⟨.vmem, 353, rfl⟩
abbrev cc52_scratch0 : Ref sig .tc := ⟨.vmem, 354, rfl⟩
abbrev cc53_stg0_0 : Ref sig .tc := ⟨.vmem, 355, rfl⟩
abbrev cc53_stg0_1 : Ref sig .tc := ⟨.vmem, 356, rfl⟩
abbrev cc53_stg1_0 : Ref sig .tc := ⟨.vmem, 357, rfl⟩
abbrev cc53_stg1_1 : Ref sig .tc := ⟨.vmem, 358, rfl⟩
abbrev cc53_stg2_0 : Ref sig .tc := ⟨.vmem, 359, rfl⟩
abbrev cc53_stg2_1 : Ref sig .tc := ⟨.vmem, 360, rfl⟩
abbrev cc53_scratch0 : Ref sig .tc := ⟨.vmem, 361, rfl⟩
abbrev cc54_stg0_0 : Ref sig .tc := ⟨.vmem, 362, rfl⟩
abbrev cc54_stg0_1 : Ref sig .tc := ⟨.vmem, 363, rfl⟩
abbrev cc54_stg1_0 : Ref sig .tc := ⟨.vmem, 364, rfl⟩
abbrev cc54_stg1_1 : Ref sig .tc := ⟨.vmem, 365, rfl⟩
abbrev cc54_stg2_0 : Ref sig .tc := ⟨.vmem, 366, rfl⟩
abbrev cc54_stg2_1 : Ref sig .tc := ⟨.vmem, 367, rfl⟩
abbrev cc54_scratch0 : Ref sig .tc := ⟨.vmem, 368, rfl⟩
abbrev cc55_stg0_0 : Ref sig .tc := ⟨.vmem, 369, rfl⟩
abbrev cc55_stg0_1 : Ref sig .tc := ⟨.vmem, 370, rfl⟩
abbrev cc55_stg1_0 : Ref sig .tc := ⟨.vmem, 371, rfl⟩
abbrev cc55_stg2_0 : Ref sig .tc := ⟨.vmem, 372, rfl⟩
abbrev cc55_stg2_1 : Ref sig .tc := ⟨.vmem, 373, rfl⟩
abbrev cc55_scratch0 : Ref sig .tc := ⟨.vmem, 374, rfl⟩
abbrev cc56_stg0_0 : Ref sig .tc := ⟨.vmem, 375, rfl⟩
abbrev cc56_stg0_1 : Ref sig .tc := ⟨.vmem, 376, rfl⟩
abbrev cc56_stg1_0 : Ref sig .tc := ⟨.vmem, 377, rfl⟩
abbrev cc56_stg1_1 : Ref sig .tc := ⟨.vmem, 378, rfl⟩
abbrev cc56_stg2_0 : Ref sig .tc := ⟨.vmem, 379, rfl⟩
abbrev cc56_stg2_1 : Ref sig .tc := ⟨.vmem, 380, rfl⟩
abbrev cc56_scratch0 : Ref sig .tc := ⟨.vmem, 381, rfl⟩
abbrev cc57_stg0_0 : Ref sig .tc := ⟨.vmem, 382, rfl⟩
abbrev cc57_stg0_1 : Ref sig .tc := ⟨.vmem, 383, rfl⟩
abbrev cc57_stg1_0 : Ref sig .tc := ⟨.vmem, 384, rfl⟩
abbrev cc57_stg1_1 : Ref sig .tc := ⟨.vmem, 385, rfl⟩
abbrev cc57_stg2_0 : Ref sig .tc := ⟨.vmem, 386, rfl⟩
abbrev cc57_stg2_1 : Ref sig .tc := ⟨.vmem, 387, rfl⟩
abbrev cc57_scratch0 : Ref sig .tc := ⟨.vmem, 388, rfl⟩
abbrev cc58_stg0_0 : Ref sig .tc := ⟨.vmem, 389, rfl⟩
abbrev cc58_stg0_1 : Ref sig .tc := ⟨.vmem, 390, rfl⟩
abbrev cc58_stg1_0 : Ref sig .tc := ⟨.vmem, 391, rfl⟩
abbrev cc58_stg2_0 : Ref sig .tc := ⟨.vmem, 392, rfl⟩
abbrev cc58_stg2_1 : Ref sig .tc := ⟨.vmem, 393, rfl⟩
abbrev cc58_scratch0 : Ref sig .tc := ⟨.vmem, 394, rfl⟩
abbrev cc59_stg0_0 : Ref sig .tc := ⟨.vmem, 395, rfl⟩
abbrev cc59_stg0_1 : Ref sig .tc := ⟨.vmem, 396, rfl⟩
abbrev cc59_stg1_0 : Ref sig .tc := ⟨.vmem, 397, rfl⟩
abbrev cc59_stg2_0 : Ref sig .tc := ⟨.vmem, 398, rfl⟩
abbrev cc59_stg2_1 : Ref sig .tc := ⟨.vmem, 399, rfl⟩
abbrev cc59_scratch0 : Ref sig .tc := ⟨.vmem, 400, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem1_1 : DmaSem sig := 42
abbrev cc7_sem2_0 : DmaSem sig := 43
abbrev cc7_sem2_1 : DmaSem sig := 44
abbrev cc8_sem0_0 : DmaSem sig := 45
abbrev cc8_sem0_1 : DmaSem sig := 46
abbrev cc8_sem1_0 : DmaSem sig := 47
abbrev cc8_sem1_1 : DmaSem sig := 48
abbrev cc8_sem2_0 : DmaSem sig := 49
abbrev cc8_sem2_1 : DmaSem sig := 50
abbrev cc9_sem0_0 : DmaSem sig := 51
abbrev cc9_sem0_1 : DmaSem sig := 52
abbrev cc9_sem1_0 : DmaSem sig := 53
abbrev cc9_sem1_1 : DmaSem sig := 54
abbrev cc9_sem2_0 : DmaSem sig := 55
abbrev cc9_sem2_1 : DmaSem sig := 56
abbrev cc10_sem0_0 : DmaSem sig := 57
abbrev cc10_sem0_1 : DmaSem sig := 58
abbrev cc10_sem1_0 : DmaSem sig := 59
abbrev cc10_sem2_0 : DmaSem sig := 60
abbrev cc10_sem2_1 : DmaSem sig := 61
abbrev cc11_sem0_0 : DmaSem sig := 62
abbrev cc11_sem0_1 : DmaSem sig := 63
abbrev cc11_sem1_0 : DmaSem sig := 64
abbrev cc11_sem1_1 : DmaSem sig := 65
abbrev cc11_sem2_0 : DmaSem sig := 66
abbrev cc11_sem2_1 : DmaSem sig := 67
abbrev cc12_sem0_0 : DmaSem sig := 68
abbrev cc12_sem0_1 : DmaSem sig := 69
abbrev cc12_sem1_0 : DmaSem sig := 70
abbrev cc12_sem1_1 : DmaSem sig := 71
abbrev cc12_sem2_0 : DmaSem sig := 72
abbrev cc12_sem2_1 : DmaSem sig := 73
abbrev cc13_sem0_0 : DmaSem sig := 74
abbrev cc13_sem0_1 : DmaSem sig := 75
abbrev cc13_sem1_0 : DmaSem sig := 76
abbrev cc13_sem2_0 : DmaSem sig := 77
abbrev cc13_sem2_1 : DmaSem sig := 78
abbrev cc14_sem0_0 : DmaSem sig := 79
abbrev cc14_sem0_1 : DmaSem sig := 80
abbrev cc14_sem1_0 : DmaSem sig := 81
abbrev cc14_sem1_1 : DmaSem sig := 82
abbrev cc14_sem2_0 : DmaSem sig := 83
abbrev cc14_sem2_1 : DmaSem sig := 84
abbrev cc15_sem0_0 : DmaSem sig := 85
abbrev cc15_sem0_1 : DmaSem sig := 86
abbrev cc15_sem1_0 : DmaSem sig := 87
abbrev cc15_sem1_1 : DmaSem sig := 88
abbrev cc15_sem2_0 : DmaSem sig := 89
abbrev cc15_sem2_1 : DmaSem sig := 90
abbrev cc16_sem0_0 : DmaSem sig := 91
abbrev cc16_sem0_1 : DmaSem sig := 92
abbrev cc16_sem1_0 : DmaSem sig := 93
abbrev cc16_sem1_1 : DmaSem sig := 94
abbrev cc16_sem2_0 : DmaSem sig := 95
abbrev cc16_sem2_1 : DmaSem sig := 96
abbrev cc17_sem0_0 : DmaSem sig := 97
abbrev cc17_sem0_1 : DmaSem sig := 98
abbrev cc17_sem1_0 : DmaSem sig := 99
abbrev cc17_sem2_0 : DmaSem sig := 100
abbrev cc17_sem2_1 : DmaSem sig := 101
abbrev cc18_sem0_0 : DmaSem sig := 102
abbrev cc18_sem0_1 : DmaSem sig := 103
abbrev cc18_sem1_0 : DmaSem sig := 104
abbrev cc18_sem1_1 : DmaSem sig := 105
abbrev cc18_sem2_0 : DmaSem sig := 106
abbrev cc18_sem2_1 : DmaSem sig := 107
abbrev cc19_sem0_0 : DmaSem sig := 108
abbrev cc19_sem0_1 : DmaSem sig := 109
abbrev cc19_sem1_0 : DmaSem sig := 110
abbrev cc19_sem1_1 : DmaSem sig := 111
abbrev cc19_sem2_0 : DmaSem sig := 112
abbrev cc19_sem2_1 : DmaSem sig := 113
abbrev cc20_sem0_0 : DmaSem sig := 114
abbrev cc20_sem0_1 : DmaSem sig := 115
abbrev cc20_sem1_0 : DmaSem sig := 116
abbrev cc20_sem2_0 : DmaSem sig := 117
abbrev cc20_sem2_1 : DmaSem sig := 118
abbrev cc21_sem0_0 : DmaSem sig := 119
abbrev cc21_sem0_1 : DmaSem sig := 120
abbrev cc21_sem1_0 : DmaSem sig := 121
abbrev cc21_sem1_1 : DmaSem sig := 122
abbrev cc21_sem2_0 : DmaSem sig := 123
abbrev cc21_sem2_1 : DmaSem sig := 124
abbrev cc22_sem0_0 : DmaSem sig := 125
abbrev cc22_sem0_1 : DmaSem sig := 126
abbrev cc22_sem1_0 : DmaSem sig := 127
abbrev cc22_sem1_1 : DmaSem sig := 128
abbrev cc22_sem2_0 : DmaSem sig := 129
abbrev cc22_sem2_1 : DmaSem sig := 130
abbrev cc23_sem0_0 : DmaSem sig := 131
abbrev cc23_sem0_1 : DmaSem sig := 132
abbrev cc23_sem1_0 : DmaSem sig := 133
abbrev cc23_sem1_1 : DmaSem sig := 134
abbrev cc23_sem2_0 : DmaSem sig := 135
abbrev cc23_sem2_1 : DmaSem sig := 136
abbrev cc24_sem0_0 : DmaSem sig := 137
abbrev cc24_sem0_1 : DmaSem sig := 138
abbrev cc24_sem1_0 : DmaSem sig := 139
abbrev cc24_sem2_0 : DmaSem sig := 140
abbrev cc24_sem2_1 : DmaSem sig := 141
abbrev cc25_sem0_0 : DmaSem sig := 142
abbrev cc25_sem0_1 : DmaSem sig := 143
abbrev cc25_sem1_0 : DmaSem sig := 144
abbrev cc25_sem1_1 : DmaSem sig := 145
abbrev cc25_sem2_0 : DmaSem sig := 146
abbrev cc25_sem2_1 : DmaSem sig := 147
abbrev cc26_sem0_0 : DmaSem sig := 148
abbrev cc26_sem0_1 : DmaSem sig := 149
abbrev cc26_sem1_0 : DmaSem sig := 150
abbrev cc26_sem1_1 : DmaSem sig := 151
abbrev cc26_sem2_0 : DmaSem sig := 152
abbrev cc26_sem2_1 : DmaSem sig := 153
abbrev cc27_sem0_0 : DmaSem sig := 154
abbrev cc27_sem0_1 : DmaSem sig := 155
abbrev cc27_sem1_0 : DmaSem sig := 156
abbrev cc27_sem2_0 : DmaSem sig := 157
abbrev cc27_sem2_1 : DmaSem sig := 158
abbrev cc28_sem0_0 : DmaSem sig := 159
abbrev cc28_sem0_1 : DmaSem sig := 160
abbrev cc28_sem1_0 : DmaSem sig := 161
abbrev cc28_sem1_1 : DmaSem sig := 162
abbrev cc28_sem2_0 : DmaSem sig := 163
abbrev cc28_sem2_1 : DmaSem sig := 164
abbrev cc29_sem0_0 : DmaSem sig := 165
abbrev cc29_sem0_1 : DmaSem sig := 166
abbrev cc29_sem1_0 : DmaSem sig := 167
abbrev cc29_sem1_1 : DmaSem sig := 168
abbrev cc29_sem2_0 : DmaSem sig := 169
abbrev cc29_sem2_1 : DmaSem sig := 170
abbrev cc30_sem0_0 : DmaSem sig := 171
abbrev cc30_sem0_1 : DmaSem sig := 172
abbrev cc30_sem1_0 : DmaSem sig := 173
abbrev cc30_sem1_1 : DmaSem sig := 174
abbrev cc30_sem2_0 : DmaSem sig := 175
abbrev cc30_sem2_1 : DmaSem sig := 176
abbrev cc31_sem0_0 : DmaSem sig := 177
abbrev cc31_sem0_1 : DmaSem sig := 178
abbrev cc31_sem1_0 : DmaSem sig := 179
abbrev cc31_sem2_0 : DmaSem sig := 180
abbrev cc31_sem2_1 : DmaSem sig := 181
abbrev cc32_sem0_0 : DmaSem sig := 182
abbrev cc32_sem0_1 : DmaSem sig := 183
abbrev cc32_sem1_0 : DmaSem sig := 184
abbrev cc32_sem1_1 : DmaSem sig := 185
abbrev cc32_sem2_0 : DmaSem sig := 186
abbrev cc32_sem2_1 : DmaSem sig := 187
abbrev cc33_sem0_0 : DmaSem sig := 188
abbrev cc33_sem0_1 : DmaSem sig := 189
abbrev cc33_sem1_0 : DmaSem sig := 190
abbrev cc33_sem1_1 : DmaSem sig := 191
abbrev cc33_sem2_0 : DmaSem sig := 192
abbrev cc33_sem2_1 : DmaSem sig := 193
abbrev cc34_sem0_0 : DmaSem sig := 194
abbrev cc34_sem0_1 : DmaSem sig := 195
abbrev cc34_sem1_0 : DmaSem sig := 196
abbrev cc34_sem2_0 : DmaSem sig := 197
abbrev cc34_sem2_1 : DmaSem sig := 198
abbrev cc35_sem0_0 : DmaSem sig := 199
abbrev cc35_sem0_1 : DmaSem sig := 200
abbrev cc35_sem1_0 : DmaSem sig := 201
abbrev cc35_sem1_1 : DmaSem sig := 202
abbrev cc35_sem2_0 : DmaSem sig := 203
abbrev cc35_sem2_1 : DmaSem sig := 204
abbrev cc36_sem0_0 : DmaSem sig := 205
abbrev cc36_sem0_1 : DmaSem sig := 206
abbrev cc36_sem1_0 : DmaSem sig := 207
abbrev cc36_sem1_1 : DmaSem sig := 208
abbrev cc36_sem2_0 : DmaSem sig := 209
abbrev cc36_sem2_1 : DmaSem sig := 210
abbrev cc37_sem0_0 : DmaSem sig := 211
abbrev cc37_sem0_1 : DmaSem sig := 212
abbrev cc37_sem1_0 : DmaSem sig := 213
abbrev cc37_sem1_1 : DmaSem sig := 214
abbrev cc37_sem2_0 : DmaSem sig := 215
abbrev cc37_sem2_1 : DmaSem sig := 216
abbrev cc38_sem0_0 : DmaSem sig := 217
abbrev cc38_sem0_1 : DmaSem sig := 218
abbrev cc38_sem1_0 : DmaSem sig := 219
abbrev cc38_sem2_0 : DmaSem sig := 220
abbrev cc38_sem2_1 : DmaSem sig := 221
abbrev cc39_sem0_0 : DmaSem sig := 222
abbrev cc39_sem0_1 : DmaSem sig := 223
abbrev cc39_sem1_0 : DmaSem sig := 224
abbrev cc39_sem1_1 : DmaSem sig := 225
abbrev cc39_sem2_0 : DmaSem sig := 226
abbrev cc39_sem2_1 : DmaSem sig := 227
abbrev cc40_sem0_0 : DmaSem sig := 228
abbrev cc40_sem0_1 : DmaSem sig := 229
abbrev cc40_sem1_0 : DmaSem sig := 230
abbrev cc40_sem1_1 : DmaSem sig := 231
abbrev cc40_sem2_0 : DmaSem sig := 232
abbrev cc40_sem2_1 : DmaSem sig := 233
abbrev cc41_sem0_0 : DmaSem sig := 234
abbrev cc41_sem0_1 : DmaSem sig := 235
abbrev cc41_sem1_0 : DmaSem sig := 236
abbrev cc41_sem2_0 : DmaSem sig := 237
abbrev cc41_sem2_1 : DmaSem sig := 238
abbrev cc42_sem0_0 : DmaSem sig := 239
abbrev cc42_sem0_1 : DmaSem sig := 240
abbrev cc42_sem1_0 : DmaSem sig := 241
abbrev cc42_sem1_1 : DmaSem sig := 242
abbrev cc42_sem2_0 : DmaSem sig := 243
abbrev cc42_sem2_1 : DmaSem sig := 244
abbrev cc43_sem0_0 : DmaSem sig := 245
abbrev cc43_sem0_1 : DmaSem sig := 246
abbrev cc43_sem1_0 : DmaSem sig := 247
abbrev cc43_sem1_1 : DmaSem sig := 248
abbrev cc43_sem2_0 : DmaSem sig := 249
abbrev cc43_sem2_1 : DmaSem sig := 250
abbrev cc44_sem0_0 : DmaSem sig := 251
abbrev cc44_sem0_1 : DmaSem sig := 252
abbrev cc44_sem1_0 : DmaSem sig := 253
abbrev cc44_sem1_1 : DmaSem sig := 254
abbrev cc44_sem2_0 : DmaSem sig := 255
abbrev cc44_sem2_1 : DmaSem sig := 256
abbrev cc45_sem0_0 : DmaSem sig := 257
abbrev cc45_sem0_1 : DmaSem sig := 258
abbrev cc45_sem1_0 : DmaSem sig := 259
abbrev cc45_sem2_0 : DmaSem sig := 260
abbrev cc45_sem2_1 : DmaSem sig := 261
abbrev cc46_sem0_0 : DmaSem sig := 262
abbrev cc46_sem0_1 : DmaSem sig := 263
abbrev cc46_sem1_0 : DmaSem sig := 264
abbrev cc46_sem1_1 : DmaSem sig := 265
abbrev cc46_sem2_0 : DmaSem sig := 266
abbrev cc46_sem2_1 : DmaSem sig := 267
abbrev cc47_sem0_0 : DmaSem sig := 268
abbrev cc47_sem0_1 : DmaSem sig := 269
abbrev cc47_sem1_0 : DmaSem sig := 270
abbrev cc47_sem1_1 : DmaSem sig := 271
abbrev cc47_sem2_0 : DmaSem sig := 272
abbrev cc47_sem2_1 : DmaSem sig := 273
abbrev cc48_sem0_0 : DmaSem sig := 274
abbrev cc48_sem0_1 : DmaSem sig := 275
abbrev cc48_sem1_0 : DmaSem sig := 276
abbrev cc48_sem2_0 : DmaSem sig := 277
abbrev cc48_sem2_1 : DmaSem sig := 278
abbrev cc49_sem0_0 : DmaSem sig := 279
abbrev cc49_sem0_1 : DmaSem sig := 280
abbrev cc49_sem1_0 : DmaSem sig := 281
abbrev cc49_sem1_1 : DmaSem sig := 282
abbrev cc49_sem2_0 : DmaSem sig := 283
abbrev cc49_sem2_1 : DmaSem sig := 284
abbrev cc50_sem0_0 : DmaSem sig := 285
abbrev cc50_sem0_1 : DmaSem sig := 286
abbrev cc50_sem1_0 : DmaSem sig := 287
abbrev cc50_sem1_1 : DmaSem sig := 288
abbrev cc50_sem2_0 : DmaSem sig := 289
abbrev cc50_sem2_1 : DmaSem sig := 290
abbrev cc51_sem0_0 : DmaSem sig := 291
abbrev cc51_sem0_1 : DmaSem sig := 292
abbrev cc51_sem1_0 : DmaSem sig := 293
abbrev cc51_sem1_1 : DmaSem sig := 294
abbrev cc51_sem2_0 : DmaSem sig := 295
abbrev cc51_sem2_1 : DmaSem sig := 296
abbrev cc52_sem0_0 : DmaSem sig := 297
abbrev cc52_sem0_1 : DmaSem sig := 298
abbrev cc52_sem1_0 : DmaSem sig := 299
abbrev cc52_sem2_0 : DmaSem sig := 300
abbrev cc52_sem2_1 : DmaSem sig := 301
abbrev cc53_sem0_0 : DmaSem sig := 302
abbrev cc53_sem0_1 : DmaSem sig := 303
abbrev cc53_sem1_0 : DmaSem sig := 304
abbrev cc53_sem1_1 : DmaSem sig := 305
abbrev cc53_sem2_0 : DmaSem sig := 306
abbrev cc53_sem2_1 : DmaSem sig := 307
abbrev cc54_sem0_0 : DmaSem sig := 308
abbrev cc54_sem0_1 : DmaSem sig := 309
abbrev cc54_sem1_0 : DmaSem sig := 310
abbrev cc54_sem1_1 : DmaSem sig := 311
abbrev cc54_sem2_0 : DmaSem sig := 312
abbrev cc54_sem2_1 : DmaSem sig := 313
abbrev cc55_sem0_0 : DmaSem sig := 314
abbrev cc55_sem0_1 : DmaSem sig := 315
abbrev cc55_sem1_0 : DmaSem sig := 316
abbrev cc55_sem2_0 : DmaSem sig := 317
abbrev cc55_sem2_1 : DmaSem sig := 318
abbrev cc56_sem0_0 : DmaSem sig := 319
abbrev cc56_sem0_1 : DmaSem sig := 320
abbrev cc56_sem1_0 : DmaSem sig := 321
abbrev cc56_sem1_1 : DmaSem sig := 322
abbrev cc56_sem2_0 : DmaSem sig := 323
abbrev cc56_sem2_1 : DmaSem sig := 324
abbrev cc57_sem0_0 : DmaSem sig := 325
abbrev cc57_sem0_1 : DmaSem sig := 326
abbrev cc57_sem1_0 : DmaSem sig := 327
abbrev cc57_sem1_1 : DmaSem sig := 328
abbrev cc57_sem2_0 : DmaSem sig := 329
abbrev cc57_sem2_1 : DmaSem sig := 330
abbrev cc58_sem0_0 : DmaSem sig := 331
abbrev cc58_sem0_1 : DmaSem sig := 332
abbrev cc58_sem1_0 : DmaSem sig := 333
abbrev cc58_sem2_0 : DmaSem sig := 334
abbrev cc58_sem2_1 : DmaSem sig := 335
abbrev cc59_sem0_0 : DmaSem sig := 336
abbrev cc59_sem0_1 : DmaSem sig := 337
abbrev cc59_sem1_0 : DmaSem sig := 338
abbrev cc59_sem2_0 : DmaSem sig := 339
abbrev cc59_sem2_1 : DmaSem sig := 340

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![4, 1], ![false, false]⟩

def k3_cond2 (i : grid3.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S512x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![4, 4], ![false, false]⟩

def k4_cond2 (i : grid4.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![4, 4], ![false, false]⟩

def k5_cond2 (i : grid5.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1024x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨2, ![4, 1], ![false, false]⟩

def k6_cond2 (i : grid6.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1024x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 1 → Memref sig .tc .vmem S512x512 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 2 → Memref sig .tc .vmem S1024x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨2, ![4, 4], ![false, false]⟩

def k7_cond2 (i : grid7.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1024x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev grid8 : Pipeline.Grid := ⟨2, ![4, 4], ![false, false]⟩

def k8_cond2 (i : grid8.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S1024x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1024x512 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev grid9 : Pipeline.Grid := ⟨2, ![4, 4], ![false, false]⟩

def k9_cond2 (i : grid9.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S1024x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S1024x512 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S1024x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev grid10 : Pipeline.Grid := ⟨2, ![4, 1], ![false, false]⟩

def k10_cond2 (i : grid10.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S1024x512 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 1 → Memref sig .tc .vmem S512x512 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true]

abbrev stage10_2 : Fin 2 → Memref sig .tc .vmem S1024x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

abbrev grid11 : Pipeline.Grid := ⟨2, ![4, 4], ![false, false]⟩

def k11_cond2 (i : grid11.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S1024x1024 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 2 → Memref sig .tc .vmem S1024x512 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S1024x512 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, false]

abbrev grid12 : Pipeline.Grid := ⟨2, ![4, 4], ![false, false]⟩

def k12_cond2 (i : grid12.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage12_0 : Fin 2 → Memref sig .tc .vmem S1024x1024 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 2 → Memref sig .tc .vmem S1024x512 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true]

abbrev stage12_2 : Fin 2 → Memref sig .tc .vmem S1024x512 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, false]

abbrev grid13 : Pipeline.Grid := ⟨2, ![4, 1], ![false, false]⟩

def k13_cond2 (i : grid13.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage13_0 : Fin 2 → Memref sig .tc .vmem S1024x512 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, true]

abbrev stage13_1 : Fin 1 → Memref sig .tc .vmem S512x512 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false, true]

abbrev stage13_2 : Fin 2 → Memref sig .tc .vmem S1024x512 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true, false]

abbrev grid14 : Pipeline.Grid := ⟨2, ![4, 4], ![false, false]⟩

def k14_cond2 (i : grid14.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage14_0 : Fin 2 → Memref sig .tc .vmem S1024x1024 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, true]

abbrev stage14_1 : Fin 2 → Memref sig .tc .vmem S1024x512 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![false, true]

abbrev stage14_2 : Fin 2 → Memref sig .tc .vmem S1024x512 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, false]

abbrev grid15 : Pipeline.Grid := ⟨2, ![4, 4], ![false, false]⟩

def k15_cond2 (i : grid15.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc15_transform_0 (i : grid15.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc15_transform_1 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc15_transform_2 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage15_0 : Fin 2 → Memref sig .tc .vmem S1024x1024 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, true]

abbrev stage15_1 : Fin 2 → Memref sig .tc .vmem S1024x512 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![false, true]

abbrev stage15_2 : Fin 2 → Memref sig .tc .vmem S1024x512 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true, false]

abbrev grid16 : Pipeline.Grid := ⟨2, ![4, 4], ![false, false]⟩

def k16_cond2 (i : grid16.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc16_transform_0 (i : grid16.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc16_transform_1 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc16_transform_2 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage16_0 : Fin 2 → Memref sig .tc .vmem S1024x1024 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true, true]

abbrev stage16_1 : Fin 2 → Memref sig .tc .vmem S1024x512 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![false, true]

abbrev stage16_2 : Fin 2 → Memref sig .tc .vmem S1024x512 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true, false]

abbrev grid17 : Pipeline.Grid := ⟨2, ![4, 1], ![false, false]⟩

def k17_cond2 (i : grid17.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc17_transform_0 (i : grid17.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc17_transform_1 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc17_transform_2 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage17_0 : Fin 2 → Memref sig .tc .vmem S1024x512 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true, true]

abbrev stage17_1 : Fin 1 → Memref sig .tc .vmem S512x512 .bf16 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false, true]

abbrev stage17_2 : Fin 2 → Memref sig .tc .vmem S1024x512 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true, false]

abbrev grid18 : Pipeline.Grid := ⟨2, ![4, 4], ![false, false]⟩

def k18_cond2 (i : grid18.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc18_transform_0 (i : grid18.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc18_transform_1 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc18_transform_2 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage18_0 : Fin 2 → Memref sig .tc .vmem S1024x1024 .bf16 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true, true]

abbrev stage18_1 : Fin 2 → Memref sig .tc .vmem S1024x512 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![false, true]

abbrev stage18_2 : Fin 2 → Memref sig .tc .vmem S1024x512 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true, false]

abbrev grid19 : Pipeline.Grid := ⟨2, ![4, 4], ![false, false]⟩

def k19_cond2 (i : grid19.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc19_transform_0 (i : grid19.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc19_transform_1 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc19_transform_2 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage19_0 : Fin 2 → Memref sig .tc .vmem S1024x1024 .bf16 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true, true]

abbrev stage19_1 : Fin 2 → Memref sig .tc .vmem S1024x512 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![false, true]

abbrev stage19_2 : Fin 2 → Memref sig .tc .vmem S1024x512 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true, false]

abbrev grid20 : Pipeline.Grid := ⟨2, ![4, 1], ![false, false]⟩

def k20_cond2 (i : grid20.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc20_transform_0 (i : grid20.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc20_transform_1 (i : grid20.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc20_transform_2 (i : grid20.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage20_0 : Fin 2 → Memref sig .tc .vmem S1024x512 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true, true]

abbrev stage20_1 : Fin 1 → Memref sig .tc .vmem S512x512 .bf16 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false, true]

abbrev stage20_2 : Fin 2 → Memref sig .tc .vmem S1024x512 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true, false]

abbrev grid21 : Pipeline.Grid := ⟨2, ![4, 4], ![false, false]⟩

def k21_cond2 (i : grid21.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc21_transform_0 (i : grid21.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc21_transform_1 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc21_transform_2 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage21_0 : Fin 2 → Memref sig .tc .vmem S1024x1024 .bf16 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true, true]

abbrev stage21_1 : Fin 2 → Memref sig .tc .vmem S1024x512 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![false, true]

abbrev stage21_2 : Fin 2 → Memref sig .tc .vmem S1024x512 .f32 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![true, false]

abbrev grid22 : Pipeline.Grid := ⟨2, ![4, 4], ![false, false]⟩

def k22_cond2 (i : grid22.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc22_transform_0 (i : grid22.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc22_transform_1 (i : grid22.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc22_transform_2 (i : grid22.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage22_0 : Fin 2 → Memref sig .tc .vmem S1024x1024 .bf16 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true, true]

abbrev stage22_1 : Fin 2 → Memref sig .tc .vmem S1024x512 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![false, true]

abbrev stage22_2 : Fin 2 → Memref sig .tc .vmem S1024x512 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true, false]

abbrev grid23 : Pipeline.Grid := ⟨2, ![4, 4], ![false, false]⟩

def k23_cond2 (i : grid23.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc23_transform_0 (i : grid23.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc23_transform_1 (i : grid23.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc23_transform_2 (i : grid23.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage23_0 : Fin 2 → Memref sig .tc .vmem S1024x1024 .bf16 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true, true]

abbrev stage23_1 : Fin 2 → Memref sig .tc .vmem S1024x512 .f32 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![false, true]

abbrev stage23_2 : Fin 2 → Memref sig .tc .vmem S1024x512 .f32 := fun | 0 => Memref.whole cc23_stg2_0 | 1 => Memref.whole cc23_stg2_1 | ⟨_ + 2, h⟩ => absurd h (Nat.not_lt.2 (Nat.le_add_left _ _))
abbrev sem23_2 : Fin 2 → DmaSem sig := fun | 0 => cc23_sem2_0 | 1 => cc23_sem2_1 | ⟨_ + 2, h⟩ => absurd h (Nat.not_lt.2 (Nat.le_add_left _ _))
abbrev reads23_2 : Fin grid23.rank → Bool := ![true, false]

abbrev grid24 : Pipeline.Grid := ⟨2, ![4, 1], ![false, false]⟩

def k24_cond2 (i : grid24.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc24_transform_0 (i : grid24.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc24_transform_1 (i : grid24.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc24_transform_2 (i : grid24.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage24_0 : Fin 2 → Memref sig .tc .vmem S1024x512 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true, true]

abbrev stage24_1 : Fin 1 → Memref sig .tc .vmem S512x512 .bf16 := fun | 0 => Memref.whole cc24_stg1_0 | ⟨_ + 1, h⟩ => absurd h (Nat.not_lt.2 (Nat.le_add_left _ _))
abbrev sem24_1 : Fin 1 → DmaSem sig := fun | 0 => cc24_sem1_0 | ⟨_ + 1, h⟩ => absurd h (Nat.not_lt.2 (Nat.le_add_left _ _))
abbrev reads24_1 : Fin grid24.rank → Bool := ![false, true]

abbrev stage24_2 : Fin 2 → Memref sig .tc .vmem S1024x512 .f32 := fun | 0 => Memref.whole cc24_stg2_0 | 1 => Memref.whole cc24_stg2_1 | ⟨_ + 2, h⟩ => absurd h (Nat.not_lt.2 (Nat.le_add_left _ _))
abbrev sem24_2 : Fin 2 → DmaSem sig := fun | 0 => cc24_sem2_0 | 1 => cc24_sem2_1 | ⟨_ + 2, h⟩ => absurd h (Nat.not_lt.2 (Nat.le_add_left _ _))
abbrev reads24_2 : Fin grid24.rank → Bool := ![true, false]

abbrev grid25 : Pipeline.Grid := ⟨2, ![4, 4], ![false, false]⟩

def k25_cond2 (i : grid25.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc25_transform_0 (i : grid25.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc25_transform_1 (i : grid25.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc25_transform_2 (i : grid25.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage25_0 : Fin 2 → Memref sig .tc .vmem S1024x1024 .bf16 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true, true]

abbrev stage25_1 : Fin 2 → Memref sig .tc .vmem S1024x512 .f32 := fun | 0 => Memref.whole cc25_stg1_0 | 1 => Memref.whole cc25_stg1_1 | ⟨_ + 2, h⟩ => absurd h (Nat.not_lt.2 (Nat.le_add_left _ _))
abbrev sem25_1 : Fin 2 → DmaSem sig := fun | 0 => cc25_sem1_0 | 1 => cc25_sem1_1 | ⟨_ + 2, h⟩ => absurd h (Nat.not_lt.2 (Nat.le_add_left _ _))
abbrev reads25_1 : Fin grid25.rank → Bool := ![false, true]

abbrev stage25_2 : Fin 2 → Memref sig .tc .vmem S1024x512 .f32 := fun | 0 => Memref.whole cc25_stg2_0 | 1 => Memref.whole cc25_stg2_1 | ⟨_ + 2, h⟩ => absurd h (Nat.not_lt.2 (Nat.le_add_left _ _))
abbrev sem25_2 : Fin 2 → DmaSem sig := fun | 0 => cc25_sem2_0 | 1 => cc25_sem2_1 | ⟨_ + 2, h⟩ => absurd h (Nat.not_lt.2 (Nat.le_add_left _ _))
abbrev reads25_2 : Fin grid25.rank → Bool := ![true, false]

abbrev grid26 : Pipeline.Grid := ⟨2, ![4, 4], ![false, false]⟩

def k26_cond2 (i : grid26.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc26_transform_0 (i : grid26.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc26_transform_1 (i : grid26.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc26_transform_2 (i : grid26.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage26_0 : Fin 2 → Memref sig .tc .vmem S1024x1024 .bf16 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true, true]

abbrev stage26_1 : Fin 2 → Memref sig .tc .vmem S1024x512 .f32 := fun | 0 => Memref.whole cc26_stg1_0 | 1 => Memref.whole cc26_stg1_1 | ⟨_ + 2, h⟩ => absurd h (Nat.not_lt.2 (Nat.le_add_left _ _))
abbrev sem26_1 : Fin 2 → DmaSem sig := fun | 0 => cc26_sem1_0 | 1 => cc26_sem1_1 | ⟨_ + 2, h⟩ => absurd h (Nat.not_lt.2 (Nat.le_add_left _ _))
abbrev reads26_1 : Fin grid26.rank → Bool := ![false, true]

abbrev stage26_2 : Fin 2 → Memref sig .tc .vmem S1024x512 .f32 := fun | 0 => Memref.whole cc26_stg2_0 | 1 => Memref.whole cc26_stg2_1 | ⟨_ + 2, h⟩ => absurd h (Nat.not_lt.2 (Nat.le_add_left _ _))
abbrev sem26_2 : Fin 2 → DmaSem sig := fun | 0 => cc26_sem2_0 | 1 => cc26_sem2_1 | ⟨_ + 2, h⟩ => absurd h (Nat.not_lt.2 (Nat.le_add_left _ _))
abbrev reads26_2 : Fin grid26.rank → Bool := ![true, false]

abbrev grid27 : Pipeline.Grid := ⟨2, ![4, 1], ![false, false]⟩

def k27_cond2 (i : grid27.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc27_transform_0 (i : grid27.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc27_transform_1 (i : grid27.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc27_transform_2 (i : grid27.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage27_0 : Fin 2 → Memref sig .tc .vmem S1024x512 .f32 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true, true]

abbrev stage27_1 : Fin 1 → Memref sig .tc .vmem S512x512 .bf16 := fun | 0 => Memref.whole cc27_stg1_0 | ⟨_ + 1, h⟩ => absurd h (Nat.not_lt.2 (Nat.le_add_left _ _))
abbrev sem27_1 : Fin 1 → DmaSem sig := fun | 0 => cc27_sem1_0 | ⟨_ + 1, h⟩ => absurd h (Nat.not_lt.2 (Nat.le_add_left _ _))
abbrev reads27_1 : Fin grid27.rank → Bool := ![false, true]

abbrev stage27_2 : Fin 2 → Memref sig .tc .vmem S1024x512 .f32 := fun | 0 => Memref.whole cc27_stg2_0 | 1 => Memref.whole cc27_stg2_1 | ⟨_ + 2, h⟩ => absurd h (Nat.not_lt.2 (Nat.le_add_left _ _))
abbrev sem27_2 : Fin 2 → DmaSem sig := fun | 0 => cc27_sem2_0 | 1 => cc27_sem2_1 | ⟨_ + 2, h⟩ => absurd h (Nat.not_lt.2 (Nat.le_add_left _ _))
abbrev reads27_2 : Fin grid27.rank → Bool := ![true, false]

abbrev grid28 : Pipeline.Grid := ⟨2, ![4, 4], ![false, false]⟩

def k28_cond2 (i : grid28.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc28_transform_0 (i : grid28.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc28_transform_1 (i : grid28.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc28_transform_2 (i : grid28.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage28_0 : Fin 2 → Memref sig .tc .vmem S1024x1024 .bf16 := fun | 0 => Memref.whole cc28_stg0_0 | 1 => Memref.whole cc28_stg0_1 | ⟨_ + 2, h⟩ => absurd h (Nat.not_lt.2 (Nat.le_add_left _ _))
abbrev sem28_0 : Fin 2 → DmaSem sig := fun | 0 => cc28_sem0_0 | 1 => cc28_sem0_1 | ⟨_ + 2, h⟩ => absurd h (Nat.not_lt.2 (Nat.le_add_left _ _))
abbrev reads28_0 : Fin grid28.rank → Bool := ![true, true]

abbrev stage28_1 : Fin 2 → Memref sig .tc .vmem S1024x512 .f32 := fun | 0 => Memref.whole cc28_stg1_0 | 1 => Memref.whole cc28_stg1_1 | ⟨_ + 2, h⟩ => absurd h (Nat.not_lt.2 (Nat.le_add_left _ _))
abbrev sem28_1 : Fin 2 → DmaSem sig := fun | 0 => cc28_sem1_0 | 1 => cc28_sem1_1 | ⟨_ + 2, h⟩ => absurd h (Nat.not_lt.2 (Nat.le_add_left _ _))
abbrev reads28_1 : Fin grid28.rank → Bool := ![false, true]

abbrev stage28_2 : Fin 2 → Memref sig .tc .vmem S1024x512 .f32 := fun | 0 => Memref.whole cc28_stg2_0 | 1 => Memref.whole cc28_stg2_1 | ⟨_ + 2, h⟩ => absurd h (Nat.not_lt.2 (Nat.le_add_left _ _))
abbrev sem28_2 : Fin 2 → DmaSem sig := fun | 0 => cc28_sem2_0 | 1 => cc28_sem2_1 | ⟨_ + 2, h⟩ => absurd h (Nat.not_lt.2 (Nat.le_add_left _ _))
abbrev reads28_2 : Fin grid28.rank → Bool := ![true, false]

abbrev grid29 : Pipeline.Grid := ⟨2, ![4, 4], ![false, false]⟩

def k29_cond2 (i : grid29.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc29_transform_0 (i : grid29.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc29_transform_1 (i : grid29.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc29_transform_2 (i : grid29.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage29_0 : Fin 2 → Memref sig .tc .vmem S1024x1024 .bf16 := fun | 0 => Memref.whole cc29_stg0_0 | 1 => Memref.whole cc29_stg0_1 | ⟨_ + 2, h⟩ => absurd h (Nat.not_lt.2 (Nat.le_add_left _ _))
abbrev sem29_0 : Fin 2 → DmaSem sig := fun | 0 => cc29_sem0_0 | 1 => cc29_sem0_1 | ⟨_ + 2, h⟩ => absurd h (Nat.not_lt.2 (Nat.le_add_left _ _))
abbrev reads29_0 : Fin grid29.rank → Bool := ![true, true]

abbrev stage29_1 : Fin 2 → Memref sig .tc .vmem S1024x512 .f32 := fun | 0 => Memref.whole cc29_stg1_0 | 1 => Memref.whole cc29_stg1_1 | ⟨_ + 2, h⟩ => absurd h (Nat.not_lt.2 (Nat.le_add_left _ _))
abbrev sem29_1 : Fin 2 → DmaSem sig := fun | 0 => cc29_sem1_0 | 1 => cc29_sem1_1 | ⟨_ + 2, h⟩ => absurd h (Nat.not_lt.2 (Nat.le_add_left _ _))
abbrev reads29_1 : Fin grid29.rank → Bool := ![false, true]

abbrev stage29_2 : Fin 2 → Memref sig .tc .vmem S1024x512 .f32 := fun | 0 => Memref.whole cc29_stg2_0 | 1 => Memref.whole cc29_stg2_1 | ⟨_ + 2, h⟩ => absurd h (Nat.not_lt.2 (Nat.le_add_left _ _))
abbrev sem29_2 : Fin 2 → DmaSem sig := fun | 0 => cc29_sem2_0 | 1 => cc29_sem2_1 | ⟨_ + 2, h⟩ => absurd h (Nat.not_lt.2 (Nat.le_add_left _ _))
abbrev reads29_2 : Fin grid29.rank → Bool := ![true, false]

abbrev grid30 : Pipeline.Grid := ⟨2, ![4, 4], ![false, false]⟩

def k30_cond2 (i : grid30.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc30_transform_0 (i : grid30.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc30_transform_1 (i : grid30.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc30_transform_2 (i : grid30.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage30_0 : Fin 2 → Memref sig .tc .vmem S1024x1024 .bf16 := fun | 0 => Memref.whole cc30_stg0_0 | 1 => Memref.whole cc30_stg0_1 | ⟨_ + 2, h⟩ => absurd h (Nat.not_lt.2 (Nat.le_add_left _ _))
abbrev sem30_0 : Fin 2 → DmaSem sig := fun | 0 => cc30_sem0_0 | 1 => cc30_sem0_1 | ⟨_ + 2, h⟩ => absurd h (Nat.not_lt.2 (Nat.le_add_left _ _))
abbrev reads30_0 : Fin grid30.rank → Bool := ![true, true]

abbrev stage30_1 : Fin 2 → Memref sig .tc .vmem S1024x512 .f32 := fun | 0 => Memref.whole cc30_stg1_0 | 1 => Memref.whole cc30_stg1_1 | ⟨_ + 2, h⟩ => absurd h (Nat.not_lt.2 (Nat.le_add_left _ _))
abbrev sem30_1 : Fin 2 → DmaSem sig := fun | 0 => cc30_sem1_0 | 1 => cc30_sem1_1 | ⟨_ + 2, h⟩ => absurd h (Nat.not_lt.2 (Nat.le_add_left _ _))
abbrev reads30_1 : Fin grid30.rank → Bool := ![false, true]

abbrev stage30_2 : Fin 2 → Memref sig .tc .vmem S1024x512 .f32 := fun | 0 => Memref.whole cc30_stg2_0 | 1 => Memref.whole cc30_stg2_1 | ⟨_ + 2, h⟩ => absurd h (Nat.not_lt.2 (Nat.le_add_left _ _))
abbrev sem30_2 : Fin 2 → DmaSem sig := fun | 0 => cc30_sem2_0 | 1 => cc30_sem2_1 | ⟨_ + 2, h⟩ => absurd h (Nat.not_lt.2 (Nat.le_add_left _ _))
abbrev reads30_2 : Fin grid30.rank → Bool := ![true, false]

abbrev grid31 : Pipeline.Grid := ⟨2, ![4, 1], ![false, false]⟩

def k31_cond2 (i : grid31.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc31_transform_0 (i : grid31.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc31_transform_1 (i : grid31.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc31_transform_2 (i : grid31.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage31_0 : Fin 2 → Memref sig .tc .vmem S1024x512 .f32 := fun | 0 => Memref.whole cc31_stg0_0 | 1 => Memref.whole cc31_stg0_1 | ⟨_ + 2, h⟩ => absurd h (Nat.not_lt.2 (Nat.le_add_left _ _))
abbrev sem31_0 : Fin 2 → DmaSem sig := fun | 0 => cc31_sem0_0 | 1 => cc31_sem0_1 | ⟨_ + 2, h⟩ => absurd h (Nat.not_lt.2 (Nat.le_add_left _ _))
abbrev reads31_0 : Fin grid31.rank → Bool := ![true, true]

abbrev stage31_1 : Fin 1 → Memref sig .tc .vmem S512x512 .bf16 := fun | 0 => Memref.whole cc31_stg1_0 | ⟨_ + 1, h⟩ => absurd h (Nat.not_lt.2 (Nat.le_add_left _ _))
abbrev sem31_1 : Fin 1 → DmaSem sig := fun | 0 => cc31_sem1_0 | ⟨_ + 1, h⟩ => absurd h (Nat.not_lt.2 (Nat.le_add_left _ _))
abbrev reads31_1 : Fin grid31.rank → Bool := ![false, true]

abbrev stage31_2 : Fin 2 → Memref sig .tc .vmem S1024x512 .f32 := fun | 0 => Memref.whole cc31_stg2_0 | 1 => Memref.whole cc31_stg2_1 | ⟨_ + 2, h⟩ => absurd h (Nat.not_lt.2 (Nat.le_add_left _ _))
abbrev sem31_2 : Fin 2 → DmaSem sig := fun | 0 => cc31_sem2_0 | 1 => cc31_sem2_1 | ⟨_ + 2, h⟩ => absurd h (Nat.not_lt.2 (Nat.le_add_left _ _))
abbrev reads31_2 : Fin grid31.rank → Bool := ![true, false]

abbrev grid32 : Pipeline.Grid := ⟨2, ![4, 4], ![false, false]⟩

def k32_cond2 (i : grid32.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc32_transform_0 (i : grid32.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc32_transform_1 (i : grid32.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc32_transform_2 (i : grid32.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage32_0 : Fin 2 → Memref sig .tc .vmem S1024x1024 .bf16 := fun | 0 => Memref.whole cc32_stg0_0 | 1 => Memref.whole cc32_stg0_1 | ⟨_ + 2, h⟩ => absurd h (Nat.not_lt.2 (Nat.le_add_left _ _))
abbrev sem32_0 : Fin 2 → DmaSem sig := fun | 0 => cc32_sem0_0 | 1 => cc32_sem0_1 | ⟨_ + 2, h⟩ => absurd h (Nat.not_lt.2 (Nat.le_add_left _ _))
abbrev reads32_0 : Fin grid32.rank → Bool := ![true, true]

abbrev stage32_1 : Fin 2 → Memref sig .tc .vmem S1024x512 .f32 := fun | 0 => Memref.whole cc32_stg1_0 | 1 => Memref.whole cc32_stg1_1 | ⟨_ + 2, h⟩ => absurd h (Nat.not_lt.2 (Nat.le_add_left _ _))
abbrev sem32_1 : Fin 2 → DmaSem sig := fun | 0 => cc32_sem1_0 | 1 => cc32_sem1_1 | ⟨_ + 2, h⟩ => absurd h (Nat.not_lt.2 (Nat.le_add_left _ _))
abbrev reads32_1 : Fin grid32.rank → Bool := ![false, true]

abbrev stage32_2 : Fin 2 → Memref sig .tc .vmem S1024x512 .f32 := fun | 0 => Memref.whole cc32_stg2_0 | 1 => Memref.whole cc32_stg2_1 | ⟨_ + 2, h⟩ => absurd h (Nat.not_lt.2 (Nat.le_add_left _ _))
abbrev sem32_2 : Fin 2 → DmaSem sig := fun | 0 => cc32_sem2_0 | 1 => cc32_sem2_1 | ⟨_ + 2, h⟩ => absurd h (Nat.not_lt.2 (Nat.le_add_left _ _))
abbrev reads32_2 : Fin grid32.rank → Bool := ![true, false]

abbrev grid33 : Pipeline.Grid := ⟨2, ![4, 4], ![false, false]⟩

def k33_cond2 (i : grid33.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc33_transform_0 (i : grid33.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc33_transform_1 (i : grid33.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc33_transform_2 (i : grid33.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage33_0 : Fin 2 → Memref sig .tc .vmem S1024x1024 .bf16 := fun | 0 => Memref.whole cc33_stg0_0 | 1 => Memref.whole cc33_stg0_1 | ⟨_ + 2, h⟩ => absurd h (Nat.not_lt.2 (Nat.le_add_left _ _))
abbrev sem33_0 : Fin 2 → DmaSem sig := fun | 0 => cc33_sem0_0 | 1 => cc33_sem0_1 | ⟨_ + 2, h⟩ => absurd h (Nat.not_lt.2 (Nat.le_add_left _ _))
abbrev reads33_0 : Fin grid33.rank → Bool := ![true, true]

abbrev stage33_1 : Fin 2 → Memref sig .tc .vmem S1024x512 .f32 := fun | 0 => Memref.whole cc33_stg1_0 | 1 => Memref.whole cc33_stg1_1 | ⟨_ + 2, h⟩ => absurd h (Nat.not_lt.2 (Nat.le_add_left _ _))
abbrev sem33_1 : Fin 2 → DmaSem sig := fun | 0 => cc33_sem1_0 | 1 => cc33_sem1_1 | ⟨_ + 2, h⟩ => absurd h (Nat.not_lt.2 (Nat.le_add_left _ _))
abbrev reads33_1 : Fin grid33.rank → Bool := ![false, true]

abbrev stage33_2 : Fin 2 → Memref sig .tc .vmem S1024x512 .f32 := fun | 0 => Memref.whole cc33_stg2_0 | 1 => Memref.whole cc33_stg2_1 | ⟨_ + 2, h⟩ => absurd h (Nat.not_lt.2 (Nat.le_add_left _ _))
abbrev sem33_2 : Fin 2 → DmaSem sig := fun | 0 => cc33_sem2_0 | 1 => cc33_sem2_1 | ⟨_ + 2, h⟩ => absurd h (Nat.not_lt.2 (Nat.le_add_left _ _))
abbrev reads33_2 : Fin grid33.rank → Bool := ![true, false]

abbrev grid34 : Pipeline.Grid := ⟨2, ![4, 1], ![false, false]⟩

def k34_cond2 (i : grid34.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc34_transform_0 (i : grid34.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc34_transform_1 (i : grid34.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc34_transform_2 (i : grid34.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage34_0 : Fin 2 → Memref sig .tc .vmem S1024x512 .f32 := fun | 0 => Memref.whole cc34_stg0_0 | 1 => Memref.whole cc34_stg0_1 | ⟨_ + 2, h⟩ => absurd h (Nat.not_lt.2 (Nat.le_add_left _ _))
abbrev sem34_0 : Fin 2 → DmaSem sig := fun | 0 => cc34_sem0_0 | 1 => cc34_sem0_1 | ⟨_ + 2, h⟩ => absurd h (Nat.not_lt.2 (Nat.le_add_left _ _))
abbrev reads34_0 : Fin grid34.rank → Bool := ![true, true]

abbrev stage34_1 : Fin 1 → Memref sig .tc .vmem S512x512 .bf16 := fun | 0 => Memref.whole cc34_stg1_0 | ⟨_ + 1, h⟩ => absurd h (Nat.not_lt.2 (Nat.le_add_left _ _))
abbrev sem34_1 : Fin 1 → DmaSem sig := fun | 0 => cc34_sem1_0 | ⟨_ + 1, h⟩ => absurd h (Nat.not_lt.2 (Nat.le_add_left _ _))
abbrev reads34_1 : Fin grid34.rank → Bool := ![false, true]

abbrev stage34_2 : Fin 2 → Memref sig .tc .vmem S1024x512 .f32 := fun | 0 => Memref.whole cc34_stg2_0 | 1 => Memref.whole cc34_stg2_1 | ⟨_ + 2, h⟩ => absurd h (Nat.not_lt.2 (Nat.le_add_left _ _))
abbrev sem34_2 : Fin 2 → DmaSem sig := fun | 0 => cc34_sem2_0 | 1 => cc34_sem2_1 | ⟨_ + 2, h⟩ => absurd h (Nat.not_lt.2 (Nat.le_add_left _ _))
abbrev reads34_2 : Fin grid34.rank → Bool := ![true, false]

abbrev grid35 : Pipeline.Grid := ⟨2, ![4, 4], ![false, false]⟩

def k35_cond2 (i : grid35.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc35_transform_0 (i : grid35.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc35_transform_1 (i : grid35.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc35_transform_2 (i : grid35.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage35_0 : Fin 2 → Memref sig .tc .vmem S1024x1024 .bf16 := fun | 0 => Memref.whole cc35_stg0_0 | 1 => Memref.whole cc35_stg0_1 | ⟨_ + 2, h⟩ => absurd h (Nat.not_lt.2 (Nat.le_add_left _ _))
abbrev sem35_0 : Fin 2 → DmaSem sig := fun | 0 => cc35_sem0_0 | 1 => cc35_sem0_1 | ⟨_ + 2, h⟩ => absurd h (Nat.not_lt.2 (Nat.le_add_left _ _))
abbrev reads35_0 : Fin grid35.rank → Bool := ![true, true]

abbrev stage35_1 : Fin 2 → Memref sig .tc .vmem S1024x512 .f32 := fun | 0 => Memref.whole cc35_stg1_0 | 1 => Memref.whole cc35_stg1_1 | ⟨_ + 2, h⟩ => absurd h (Nat.not_lt.2 (Nat.le_add_left _ _))
abbrev sem35_1 : Fin 2 → DmaSem sig := fun | 0 => cc35_sem1_0 | 1 => cc35_sem1_1 | ⟨_ + 2, h⟩ => absurd h (Nat.not_lt.2 (Nat.le_add_left _ _))
abbrev reads35_1 : Fin grid35.rank → Bool := ![false, true]

abbrev stage35_2 : Fin 2 → Memref sig .tc .vmem S1024x512 .f32 := fun | 0 => Memref.whole cc35_stg2_0 | 1 => Memref.whole cc35_stg2_1 | ⟨_ + 2, h⟩ => absurd h (Nat.not_lt.2 (Nat.le_add_left _ _))
abbrev sem35_2 : Fin 2 → DmaSem sig := fun | 0 => cc35_sem2_0 | 1 => cc35_sem2_1 | ⟨_ + 2, h⟩ => absurd h (Nat.not_lt.2 (Nat.le_add_left _ _))
abbrev reads35_2 : Fin grid35.rank → Bool := ![true, false]

abbrev grid36 : Pipeline.Grid := ⟨2, ![4, 4], ![false, false]⟩

def k36_cond2 (i : grid36.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc36_transform_0 (i : grid36.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc36_transform_1 (i : grid36.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc36_transform_2 (i : grid36.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage36_0 : Fin 2 → Memref sig .tc .vmem S1024x1024 .bf16 := fun | 0 => Memref.whole cc36_stg0_0 | 1 => Memref.whole cc36_stg0_1 | ⟨_ + 2, h⟩ => absurd h (Nat.not_lt.2 (Nat.le_add_left _ _))
abbrev sem36_0 : Fin 2 → DmaSem sig := fun | 0 => cc36_sem0_0 | 1 => cc36_sem0_1 | ⟨_ + 2, h⟩ => absurd h (Nat.not_lt.2 (Nat.le_add_left _ _))
abbrev reads36_0 : Fin grid36.rank → Bool := ![true, true]

abbrev stage36_1 : Fin 2 → Memref sig .tc .vmem S1024x512 .f32 := fun | 0 => Memref.whole cc36_stg1_0 | 1 => Memref.whole cc36_stg1_1 | ⟨_ + 2, h⟩ => absurd h (Nat.not_lt.2 (Nat.le_add_left _ _))
abbrev sem36_1 : Fin 2 → DmaSem sig := fun | 0 => cc36_sem1_0 | 1 => cc36_sem1_1 | ⟨_ + 2, h⟩ => absurd h (Nat.not_lt.2 (Nat.le_add_left _ _))
abbrev reads36_1 : Fin grid36.rank → Bool := ![false, true]

abbrev stage36_2 : Fin 2 → Memref sig .tc .vmem S1024x512 .f32 := fun | 0 => Memref.whole cc36_stg2_0 | 1 => Memref.whole cc36_stg2_1 | ⟨_ + 2, h⟩ => absurd h (Nat.not_lt.2 (Nat.le_add_left _ _))
abbrev sem36_2 : Fin 2 → DmaSem sig := fun | 0 => cc36_sem2_0 | 1 => cc36_sem2_1 | ⟨_ + 2, h⟩ => absurd h (Nat.not_lt.2 (Nat.le_add_left _ _))
abbrev reads36_2 : Fin grid36.rank → Bool := ![true, false]

abbrev grid37 : Pipeline.Grid := ⟨2, ![4, 4], ![false, false]⟩

def k37_cond2 (i : grid37.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc37_transform_0 (i : grid37.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc37_transform_1 (i : grid37.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc37_transform_2 (i : grid37.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage37_0 : Fin 2 → Memref sig .tc .vmem S1024x1024 .bf16 := fun | 0 => Memref.whole cc37_stg0_0 | 1 => Memref.whole cc37_stg0_1 | ⟨_ + 2, h⟩ => absurd h (Nat.not_lt.2 (Nat.le_add_left _ _))
abbrev sem37_0 : Fin 2 → DmaSem sig := fun | 0 => cc37_sem0_0 | 1 => cc37_sem0_1 | ⟨_ + 2, h⟩ => absurd h (Nat.not_lt.2 (Nat.le_add_left _ _))
abbrev reads37_0 : Fin grid37.rank → Bool := ![true, true]

abbrev stage37_1 : Fin 2 → Memref sig .tc .vmem S1024x512 .f32 := fun | 0 => Memref.whole cc37_stg1_0 | 1 => Memref.whole cc37_stg1_1 | ⟨_ + 2, h⟩ => absurd h (Nat.not_lt.2 (Nat.le_add_left _ _))
abbrev sem37_1 : Fin 2 → DmaSem sig := fun | 0 => cc37_sem1_0 | 1 => cc37_sem1_1 | ⟨_ + 2, h⟩ => absurd h (Nat.not_lt.2 (Nat.le_add_left _ _))
abbrev reads37_1 : Fin grid37.rank → Bool := ![false, true]

abbrev stage37_2 : Fin 2 → Memref sig .tc .vmem S1024x512 .f32 := fun | 0 => Memref.whole cc37_stg2_0 | 1 => Memref.whole cc37_stg2_1 | ⟨_ + 2, h⟩ => absurd h (Nat.not_lt.2 (Nat.le_add_left _ _))
abbrev sem37_2 : Fin 2 → DmaSem sig := fun | 0 => cc37_sem2_0 | 1 => cc37_sem2_1 | ⟨_ + 2, h⟩ => absurd h (Nat.not_lt.2 (Nat.le_add_left _ _))
abbrev reads37_2 : Fin grid37.rank → Bool := ![true, false]

abbrev grid38 : Pipeline.Grid := ⟨2, ![4, 1], ![false, false]⟩

def k38_cond2 (i : grid38.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc38_transform_0 (i : grid38.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc38_transform_1 (i : grid38.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc38_transform_2 (i : grid38.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage38_0 : Fin 2 → Memref sig .tc .vmem S1024x512 .f32 := fun | 0 => Memref.whole cc38_stg0_0 | 1 => Memref.whole cc38_stg0_1 | ⟨_ + 2, h⟩ => absurd h (Nat.not_lt.2 (Nat.le_add_left _ _))
abbrev sem38_0 : Fin 2 → DmaSem sig := fun | 0 => cc38_sem0_0 | 1 => cc38_sem0_1 | ⟨_ + 2, h⟩ => absurd h (Nat.not_lt.2 (Nat.le_add_left _ _))
abbrev reads38_0 : Fin grid38.rank → Bool := ![true, true]

abbrev stage38_1 : Fin 1 → Memref sig .tc .vmem S512x512 .bf16 := fun | 0 => Memref.whole cc38_stg1_0 | ⟨_ + 1, h⟩ => absurd h (Nat.not_lt.2 (Nat.le_add_left _ _))
abbrev sem38_1 : Fin 1 → DmaSem sig := fun | 0 => cc38_sem1_0 | ⟨_ + 1, h⟩ => absurd h (Nat.not_lt.2 (Nat.le_add_left _ _))
abbrev reads38_1 : Fin grid38.rank → Bool := ![false, true]

abbrev stage38_2 : Fin 2 → Memref sig .tc .vmem S1024x512 .f32 := fun | 0 => Memref.whole cc38_stg2_0 | 1 => Memref.whole cc38_stg2_1 | ⟨_ + 2, h⟩ => absurd h (Nat.not_lt.2 (Nat.le_add_left _ _))
abbrev sem38_2 : Fin 2 → DmaSem sig := fun | 0 => cc38_sem2_0 | 1 => cc38_sem2_1 | ⟨_ + 2, h⟩ => absurd h (Nat.not_lt.2 (Nat.le_add_left _ _))
abbrev reads38_2 : Fin grid38.rank → Bool := ![true, false]

abbrev grid39 : Pipeline.Grid := ⟨2, ![4, 4], ![false, false]⟩

def k39_cond2 (i : grid39.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc39_transform_0 (i : grid39.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc39_transform_1 (i : grid39.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc39_transform_2 (i : grid39.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage39_0 : Fin 2 → Memref sig .tc .vmem S1024x1024 .bf16 := fun | 0 => Memref.whole cc39_stg0_0 | 1 => Memref.whole cc39_stg0_1 | ⟨_ + 2, h⟩ => absurd h (Nat.not_lt.2 (Nat.le_add_left _ _))
abbrev sem39_0 : Fin 2 → DmaSem sig := fun | 0 => cc39_sem0_0 | 1 => cc39_sem0_1 | ⟨_ + 2, h⟩ => absurd h (Nat.not_lt.2 (Nat.le_add_left _ _))
abbrev reads39_0 : Fin grid39.rank → Bool := ![true, true]

abbrev stage39_1 : Fin 2 → Memref sig .tc .vmem S1024x512 .f32 := fun | 0 => Memref.whole cc39_stg1_0 | 1 => Memref.whole cc39_stg1_1 | ⟨_ + 2, h⟩ => absurd h (Nat.not_lt.2 (Nat.le_add_left _ _))
abbrev sem39_1 : Fin 2 → DmaSem sig := fun | 0 => cc39_sem1_0 | 1 => cc39_sem1_1 | ⟨_ + 2, h⟩ => absurd h (Nat.not_lt.2 (Nat.le_add_left _ _))
abbrev reads39_1 : Fin grid39.rank → Bool := ![false, true]

abbrev stage39_2 : Fin 2 → Memref sig .tc .vmem S1024x512 .f32 := fun | 0 => Memref.whole cc39_stg2_0 | 1 => Memref.whole cc39_stg2_1 | ⟨_ + 2, h⟩ => absurd h (Nat.not_lt.2 (Nat.le_add_left _ _))
abbrev sem39_2 : Fin 2 → DmaSem sig := fun | 0 => cc39_sem2_0 | 1 => cc39_sem2_1 | ⟨_ + 2, h⟩ => absurd h (Nat.not_lt.2 (Nat.le_add_left _ _))
abbrev reads39_2 : Fin grid39.rank → Bool := ![true, false]

abbrev grid40 : Pipeline.Grid := ⟨2, ![4, 4], ![false, false]⟩

def k40_cond2 (i : grid40.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc40_transform_0 (i : grid40.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc40_transform_1 (i : grid40.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc40_transform_2 (i : grid40.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage40_0 : Fin 2 → Memref sig .tc .vmem S1024x1024 .bf16 := fun | 0 => Memref.whole cc40_stg0_0 | 1 => Memref.whole cc40_stg0_1 | ⟨_ + 2, h⟩ => absurd h (Nat.not_lt.2 (Nat.le_add_left _ _))
abbrev sem40_0 : Fin 2 → DmaSem sig := fun | 0 => cc40_sem0_0 | 1 => cc40_sem0_1 | ⟨_ + 2, h⟩ => absurd h (Nat.not_lt.2 (Nat.le_add_left _ _))
abbrev reads40_0 : Fin grid40.rank → Bool := ![true, true]

abbrev stage40_1 : Fin 2 → Memref sig .tc .vmem S1024x512 .f32 := fun | 0 => Memref.whole cc40_stg1_0 | 1 => Memref.whole cc40_stg1_1 | ⟨_ + 2, h⟩ => absurd h (Nat.not_lt.2 (Nat.le_add_left _ _))
abbrev sem40_1 : Fin 2 → DmaSem sig := fun | 0 => cc40_sem1_0 | 1 => cc40_sem1_1 | ⟨_ + 2, h⟩ => absurd h (Nat.not_lt.2 (Nat.le_add_left _ _))
abbrev reads40_1 : Fin grid40.rank → Bool := ![false, true]

abbrev stage40_2 : Fin 2 → Memref sig .tc .vmem S1024x512 .f32 := fun | 0 => Memref.whole cc40_stg2_0 | 1 => Memref.whole cc40_stg2_1 | ⟨_ + 2, h⟩ => absurd h (Nat.not_lt.2 (Nat.le_add_left _ _))
abbrev sem40_2 : Fin 2 → DmaSem sig := fun | 0 => cc40_sem2_0 | 1 => cc40_sem2_1 | ⟨_ + 2, h⟩ => absurd h (Nat.not_lt.2 (Nat.le_add_left _ _))
abbrev reads40_2 : Fin grid40.rank → Bool := ![true, false]

abbrev grid41 : Pipeline.Grid := ⟨2, ![4, 1], ![false, false]⟩

def k41_cond2 (i : grid41.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc41_transform_0 (i : grid41.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc41_transform_1 (i : grid41.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc41_transform_2 (i : grid41.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage41_0 : Fin 2 → Memref sig .tc .vmem S1024x512 .f32 := fun | 0 => Memref.whole cc41_stg0_0 | 1 => Memref.whole cc41_stg0_1 | ⟨_ + 2, h⟩ => absurd h (Nat.not_lt.2 (Nat.le_add_left _ _))
abbrev sem41_0 : Fin 2 → DmaSem sig := fun | 0 => cc41_sem0_0 | 1 => cc41_sem0_1 | ⟨_ + 2, h⟩ => absurd h (Nat.not_lt.2 (Nat.le_add_left _ _))
abbrev reads41_0 : Fin grid41.rank → Bool := ![true, true]

abbrev stage41_1 : Fin 1 → Memref sig .tc .vmem S512x512 .bf16 := fun | 0 => Memref.whole cc41_stg1_0 | ⟨_ + 1, h⟩ => absurd h (Nat.not_lt.2 (Nat.le_add_left _ _))
abbrev sem41_1 : Fin 1 → DmaSem sig := fun | 0 => cc41_sem1_0 | ⟨_ + 1, h⟩ => absurd h (Nat.not_lt.2 (Nat.le_add_left _ _))
abbrev reads41_1 : Fin grid41.rank → Bool := ![false, true]

abbrev stage41_2 : Fin 2 → Memref sig .tc .vmem S1024x512 .f32 := fun | 0 => Memref.whole cc41_stg2_0 | 1 => Memref.whole cc41_stg2_1 | ⟨_ + 2, h⟩ => absurd h (Nat.not_lt.2 (Nat.le_add_left _ _))
abbrev sem41_2 : Fin 2 → DmaSem sig := fun | 0 => cc41_sem2_0 | 1 => cc41_sem2_1 | ⟨_ + 2, h⟩ => absurd h (Nat.not_lt.2 (Nat.le_add_left _ _))
abbrev reads41_2 : Fin grid41.rank → Bool := ![true, false]

abbrev grid42 : Pipeline.Grid := ⟨2, ![4, 4], ![false, false]⟩

def k42_cond2 (i : grid42.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc42_transform_0 (i : grid42.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc42_transform_1 (i : grid42.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc42_transform_2 (i : grid42.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage42_0 : Fin 2 → Memref sig .tc .vmem S1024x1024 .bf16 := fun | 0 => Memref.whole cc42_stg0_0 | 1 => Memref.whole cc42_stg0_1 | ⟨_ + 2, h⟩ => absurd h (Nat.not_lt.2 (Nat.le_add_left _ _))
abbrev sem42_0 : Fin 2 → DmaSem sig := fun | 0 => cc42_sem0_0 | 1 => cc42_sem0_1 | ⟨_ + 2, h⟩ => absurd h (Nat.not_lt.2 (Nat.le_add_left _ _))
abbrev reads42_0 : Fin grid42.rank → Bool := ![true, true]

abbrev stage42_1 : Fin 2 → Memref sig .tc .vmem S1024x512 .f32 := fun | 0 => Memref.whole cc42_stg1_0 | 1 => Memref.whole cc42_stg1_1 | ⟨_ + 2, h⟩ => absurd h (Nat.not_lt.2 (Nat.le_add_left _ _))
abbrev sem42_1 : Fin 2 → DmaSem sig := fun | 0 => cc42_sem1_0 | 1 => cc42_sem1_1 | ⟨_ + 2, h⟩ => absurd h (Nat.not_lt.2 (Nat.le_add_left _ _))
abbrev reads42_1 : Fin grid42.rank → Bool := ![false, true]

abbrev stage42_2 : Fin 2 → Memref sig .tc .vmem S1024x512 .f32 := fun | 0 => Memref.whole cc42_stg2_0 | 1 => Memref.whole cc42_stg2_1 | ⟨_ + 2, h⟩ => absurd h (Nat.not_lt.2 (Nat.le_add_left _ _))
abbrev sem42_2 : Fin 2 → DmaSem sig := fun | 0 => cc42_sem2_0 | 1 => cc42_sem2_1 | ⟨_ + 2, h⟩ => absurd h (Nat.not_lt.2 (Nat.le_add_left _ _))
abbrev reads42_2 : Fin grid42.rank → Bool := ![true, false]

abbrev grid43 : Pipeline.Grid := ⟨2, ![4, 4], ![false, false]⟩

def k43_cond2 (i : grid43.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc43_transform_0 (i : grid43.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc43_transform_1 (i : grid43.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc43_transform_2 (i : grid43.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage43_0 : Fin 2 → Memref sig .tc .vmem S1024x1024 .bf16 := fun | 0 => Memref.whole cc43_stg0_0 | 1 => Memref.whole cc43_stg0_1 | ⟨_ + 2, h⟩ => absurd h (Nat.not_lt.2 (Nat.le_add_left _ _))
abbrev sem43_0 : Fin 2 → DmaSem sig := fun | 0 => cc43_sem0_0 | 1 => cc43_sem0_1 | ⟨_ + 2, h⟩ => absurd h (Nat.not_lt.2 (Nat.le_add_left _ _))
abbrev reads43_0 : Fin grid43.rank → Bool := ![true, true]

abbrev stage43_1 : Fin 2 → Memref sig .tc .vmem S1024x512 .f32 := fun | 0 => Memref.whole cc43_stg1_0 | 1 => Memref.whole cc43_stg1_1 | ⟨_ + 2, h⟩ => absurd h (Nat.not_lt.2 (Nat.le_add_left _ _))
abbrev sem43_1 : Fin 2 → DmaSem sig := fun | 0 => cc43_sem1_0 | 1 => cc43_sem1_1 | ⟨_ + 2, h⟩ => absurd h (Nat.not_lt.2 (Nat.le_add_left _ _))
abbrev reads43_1 : Fin grid43.rank → Bool := ![false, true]

abbrev stage43_2 : Fin 2 → Memref sig .tc .vmem S1024x512 .f32 := fun | 0 => Memref.whole cc43_stg2_0 | 1 => Memref.whole cc43_stg2_1 | ⟨_ + 2, h⟩ => absurd h (Nat.not_lt.2 (Nat.le_add_left _ _))
abbrev sem43_2 : Fin 2 → DmaSem sig := fun | 0 => cc43_sem2_0 | 1 => cc43_sem2_1 | ⟨_ + 2, h⟩ => absurd h (Nat.not_lt.2 (Nat.le_add_left _ _))
abbrev reads43_2 : Fin grid43.rank → Bool := ![true, false]

abbrev grid44 : Pipeline.Grid := ⟨2, ![4, 4], ![false, false]⟩

def k44_cond2 (i : grid44.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc44_transform_0 (i : grid44.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc44_transform_1 (i : grid44.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc44_transform_2 (i : grid44.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage44_0 : Fin 2 → Memref sig .tc .vmem S1024x1024 .bf16 := fun | 0 => Memref.whole cc44_stg0_0 | 1 => Memref.whole cc44_stg0_1 | ⟨_ + 2, h⟩ => absurd h (Nat.not_lt.2 (Nat.le_add_left _ _))
abbrev sem44_0 : Fin 2 → DmaSem sig := fun | 0 => cc44_sem0_0 | 1 => cc44_sem0_1 | ⟨_ + 2, h⟩ => absurd h (Nat.not_lt.2 (Nat.le_add_left _ _))
abbrev reads44_0 : Fin grid44.rank → Bool := ![true, true]

abbrev stage44_1 : Fin 2 → Memref sig .tc .vmem S1024x512 .f32 := fun | 0 => Memref.whole cc44_stg1_0 | 1 => Memref.whole cc44_stg1_1 | ⟨_ + 2, h⟩ => absurd h (Nat.not_lt.2 (Nat.le_add_left _ _))
abbrev sem44_1 : Fin 2 → DmaSem sig := fun | 0 => cc44_sem1_0 | 1 => cc44_sem1_1 | ⟨_ + 2, h⟩ => absurd h (Nat.not_lt.2 (Nat.le_add_left _ _))
abbrev reads44_1 : Fin grid44.rank → Bool := ![false, true]

abbrev stage44_2 : Fin 2 → Memref sig .tc .vmem S1024x512 .f32 := fun | 0 => Memref.whole cc44_stg2_0 | 1 => Memref.whole cc44_stg2_1 | ⟨_ + 2, h⟩ => absurd h (Nat.not_lt.2 (Nat.le_add_left _ _))
abbrev sem44_2 : Fin 2 → DmaSem sig := fun | 0 => cc44_sem2_0 | 1 => cc44_sem2_1 | ⟨_ + 2, h⟩ => absurd h (Nat.not_lt.2 (Nat.le_add_left _ _))
abbrev reads44_2 : Fin grid44.rank → Bool := ![true, false]

abbrev grid45 : Pipeline.Grid := ⟨2, ![4, 1], ![false, false]⟩

def k45_cond2 (i : grid45.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc45_transform_0 (i : grid45.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc45_transform_1 (i : grid45.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc45_transform_2 (i : grid45.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage45_0 : Fin 2 → Memref sig .tc .vmem S1024x512 .f32 := fun | 0 => Memref.whole cc45_stg0_0 | 1 => Memref.whole cc45_stg0_1 | ⟨_ + 2, h⟩ => absurd h (Nat.not_lt.2 (Nat.le_add_left _ _))
abbrev sem45_0 : Fin 2 → DmaSem sig := fun | 0 => cc45_sem0_0 | 1 => cc45_sem0_1 | ⟨_ + 2, h⟩ => absurd h (Nat.not_lt.2 (Nat.le_add_left _ _))
abbrev reads45_0 : Fin grid45.rank → Bool := ![true, true]

abbrev stage45_1 : Fin 1 → Memref sig .tc .vmem S512x512 .bf16 := fun | 0 => Memref.whole cc45_stg1_0 | ⟨_ + 1, h⟩ => absurd h (Nat.not_lt.2 (Nat.le_add_left _ _))
abbrev sem45_1 : Fin 1 → DmaSem sig := fun | 0 => cc45_sem1_0 | ⟨_ + 1, h⟩ => absurd h (Nat.not_lt.2 (Nat.le_add_left _ _))
abbrev reads45_1 : Fin grid45.rank → Bool := ![false, true]

abbrev stage45_2 : Fin 2 → Memref sig .tc .vmem S1024x512 .f32 := fun | 0 => Memref.whole cc45_stg2_0 | 1 => Memref.whole cc45_stg2_1 | ⟨_ + 2, h⟩ => absurd h (Nat.not_lt.2 (Nat.le_add_left _ _))
abbrev sem45_2 : Fin 2 → DmaSem sig := fun | 0 => cc45_sem2_0 | 1 => cc45_sem2_1 | ⟨_ + 2, h⟩ => absurd h (Nat.not_lt.2 (Nat.le_add_left _ _))
abbrev reads45_2 : Fin grid45.rank → Bool := ![true, false]

abbrev grid46 : Pipeline.Grid := ⟨2, ![4, 4], ![false, false]⟩

def k46_cond2 (i : grid46.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc46_transform_0 (i : grid46.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc46_transform_1 (i : grid46.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc46_transform_2 (i : grid46.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage46_0 : Fin 2 → Memref sig .tc .vmem S1024x1024 .bf16 := fun | 0 => Memref.whole cc46_stg0_0 | 1 => Memref.whole cc46_stg0_1 | ⟨_ + 2, h⟩ => absurd h (Nat.not_lt.2 (Nat.le_add_left _ _))
abbrev sem46_0 : Fin 2 → DmaSem sig := fun | 0 => cc46_sem0_0 | 1 => cc46_sem0_1 | ⟨_ + 2, h⟩ => absurd h (Nat.not_lt.2 (Nat.le_add_left _ _))
abbrev reads46_0 : Fin grid46.rank → Bool := ![true, true]

abbrev stage46_1 : Fin 2 → Memref sig .tc .vmem S1024x512 .f32 := fun | 0 => Memref.whole cc46_stg1_0 | 1 => Memref.whole cc46_stg1_1 | ⟨_ + 2, h⟩ => absurd h (Nat.not_lt.2 (Nat.le_add_left _ _))
abbrev sem46_1 : Fin 2 → DmaSem sig := fun | 0 => cc46_sem1_0 | 1 => cc46_sem1_1 | ⟨_ + 2, h⟩ => absurd h (Nat.not_lt.2 (Nat.le_add_left _ _))
abbrev reads46_1 : Fin grid46.rank → Bool := ![false, true]

abbrev stage46_2 : Fin 2 → Memref sig .tc .vmem S1024x512 .f32 := fun | 0 => Memref.whole cc46_stg2_0 | 1 => Memref.whole cc46_stg2_1 | ⟨_ + 2, h⟩ => absurd h (Nat.not_lt.2 (Nat.le_add_left _ _))
abbrev sem46_2 : Fin 2 → DmaSem sig := fun | 0 => cc46_sem2_0 | 1 => cc46_sem2_1 | ⟨_ + 2, h⟩ => absurd h (Nat.not_lt.2 (Nat.le_add_left _ _))
abbrev reads46_2 : Fin grid46.rank → Bool := ![true, false]

abbrev grid47 : Pipeline.Grid := ⟨2, ![4, 4], ![false, false]⟩

def k47_cond2 (i : grid47.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc47_transform_0 (i : grid47.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc47_transform_1 (i : grid47.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc47_transform_2 (i : grid47.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage47_0 : Fin 2 → Memref sig .tc .vmem S1024x1024 .bf16 := fun | 0 => Memref.whole cc47_stg0_0 | 1 => Memref.whole cc47_stg0_1 | ⟨_ + 2, h⟩ => absurd h (Nat.not_lt.2 (Nat.le_add_left _ _))
abbrev sem47_0 : Fin 2 → DmaSem sig := fun | 0 => cc47_sem0_0 | 1 => cc47_sem0_1 | ⟨_ + 2, h⟩ => absurd h (Nat.not_lt.2 (Nat.le_add_left _ _))
abbrev reads47_0 : Fin grid47.rank → Bool := ![true, true]

abbrev stage47_1 : Fin 2 → Memref sig .tc .vmem S1024x512 .f32 := fun | 0 => Memref.whole cc47_stg1_0 | 1 => Memref.whole cc47_stg1_1 | ⟨_ + 2, h⟩ => absurd h (Nat.not_lt.2 (Nat.le_add_left _ _))
abbrev sem47_1 : Fin 2 → DmaSem sig := fun | 0 => cc47_sem1_0 | 1 => cc47_sem1_1 | ⟨_ + 2, h⟩ => absurd h (Nat.not_lt.2 (Nat.le_add_left _ _))
abbrev reads47_1 : Fin grid47.rank → Bool := ![false, true]

abbrev stage47_2 : Fin 2 → Memref sig .tc .vmem S1024x512 .f32 := fun | 0 => Memref.whole cc47_stg2_0 | 1 => Memref.whole cc47_stg2_1 | ⟨_ + 2, h⟩ => absurd h (Nat.not_lt.2 (Nat.le_add_left _ _))
abbrev sem47_2 : Fin 2 → DmaSem sig := fun | 0 => cc47_sem2_0 | 1 => cc47_sem2_1 | ⟨_ + 2, h⟩ => absurd h (Nat.not_lt.2 (Nat.le_add_left _ _))
abbrev reads47_2 : Fin grid47.rank → Bool := ![true, false]

abbrev grid48 : Pipeline.Grid := ⟨2, ![4, 1], ![false, false]⟩

def k48_cond2 (i : grid48.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc48_transform_0 (i : grid48.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc48_transform_1 (i : grid48.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc48_transform_2 (i : grid48.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage48_0 : Fin 2 → Memref sig .tc .vmem S1024x512 .f32 := fun | 0 => Memref.whole cc48_stg0_0 | 1 => Memref.whole cc48_stg0_1 | ⟨_ + 2, h⟩ => absurd h (Nat.not_lt.2 (Nat.le_add_left _ _))
abbrev sem48_0 : Fin 2 → DmaSem sig := fun | 0 => cc48_sem0_0 | 1 => cc48_sem0_1 | ⟨_ + 2, h⟩ => absurd h (Nat.not_lt.2 (Nat.le_add_left _ _))
abbrev reads48_0 : Fin grid48.rank → Bool := ![true, true]

abbrev stage48_1 : Fin 1 → Memref sig .tc .vmem S512x512 .bf16 := fun | 0 => Memref.whole cc48_stg1_0 | ⟨_ + 1, h⟩ => absurd h (Nat.not_lt.2 (Nat.le_add_left _ _))
abbrev sem48_1 : Fin 1 → DmaSem sig := fun | 0 => cc48_sem1_0 | ⟨_ + 1, h⟩ => absurd h (Nat.not_lt.2 (Nat.le_add_left _ _))
abbrev reads48_1 : Fin grid48.rank → Bool := ![false, true]

abbrev stage48_2 : Fin 2 → Memref sig .tc .vmem S1024x512 .f32 := fun | 0 => Memref.whole cc48_stg2_0 | 1 => Memref.whole cc48_stg2_1 | ⟨_ + 2, h⟩ => absurd h (Nat.not_lt.2 (Nat.le_add_left _ _))
abbrev sem48_2 : Fin 2 → DmaSem sig := fun | 0 => cc48_sem2_0 | 1 => cc48_sem2_1 | ⟨_ + 2, h⟩ => absurd h (Nat.not_lt.2 (Nat.le_add_left _ _))
abbrev reads48_2 : Fin grid48.rank → Bool := ![true, false]

abbrev grid49 : Pipeline.Grid := ⟨2, ![4, 4], ![false, false]⟩

def k49_cond2 (i : grid49.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc49_transform_0 (i : grid49.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc49_transform_1 (i : grid49.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc49_transform_2 (i : grid49.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage49_0 : Fin 2 → Memref sig .tc .vmem S1024x1024 .bf16 := fun | 0 => Memref.whole cc49_stg0_0 | 1 => Memref.whole cc49_stg0_1 | ⟨_ + 2, h⟩ => absurd h (Nat.not_lt.2 (Nat.le_add_left _ _))
abbrev sem49_0 : Fin 2 → DmaSem sig := fun | 0 => cc49_sem0_0 | 1 => cc49_sem0_1 | ⟨_ + 2, h⟩ => absurd h (Nat.not_lt.2 (Nat.le_add_left _ _))
abbrev reads49_0 : Fin grid49.rank → Bool := ![true, true]

abbrev stage49_1 : Fin 2 → Memref sig .tc .vmem S1024x512 .f32 := fun | 0 => Memref.whole cc49_stg1_0 | 1 => Memref.whole cc49_stg1_1 | ⟨_ + 2, h⟩ => absurd h (Nat.not_lt.2 (Nat.le_add_left _ _))
abbrev sem49_1 : Fin 2 → DmaSem sig := fun | 0 => cc49_sem1_0 | 1 => cc49_sem1_1 | ⟨_ + 2, h⟩ => absurd h (Nat.not_lt.2 (Nat.le_add_left _ _))
abbrev reads49_1 : Fin grid49.rank → Bool := ![false, true]

abbrev stage49_2 : Fin 2 → Memref sig .tc .vmem S1024x512 .f32 := fun | 0 => Memref.whole cc49_stg2_0 | 1 => Memref.whole cc49_stg2_1 | ⟨_ + 2, h⟩ => absurd h (Nat.not_lt.2 (Nat.le_add_left _ _))
abbrev sem49_2 : Fin 2 → DmaSem sig := fun | 0 => cc49_sem2_0 | 1 => cc49_sem2_1 | ⟨_ + 2, h⟩ => absurd h (Nat.not_lt.2 (Nat.le_add_left _ _))
abbrev reads49_2 : Fin grid49.rank → Bool := ![true, false]

abbrev grid50 : Pipeline.Grid := ⟨2, ![4, 4], ![false, false]⟩

def k50_cond2 (i : grid50.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc50_transform_0 (i : grid50.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc50_transform_1 (i : grid50.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc50_transform_2 (i : grid50.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage50_0 : Fin 2 → Memref sig .tc .vmem S1024x1024 .bf16 := fun | 0 => Memref.whole cc50_stg0_0 | 1 => Memref.whole cc50_stg0_1 | ⟨_ + 2, h⟩ => absurd h (Nat.not_lt.2 (Nat.le_add_left _ _))
abbrev sem50_0 : Fin 2 → DmaSem sig := fun | 0 => cc50_sem0_0 | 1 => cc50_sem0_1 | ⟨_ + 2, h⟩ => absurd h (Nat.not_lt.2 (Nat.le_add_left _ _))
abbrev reads50_0 : Fin grid50.rank → Bool := ![true, true]

abbrev stage50_1 : Fin 2 → Memref sig .tc .vmem S1024x512 .f32 := fun | 0 => Memref.whole cc50_stg1_0 | 1 => Memref.whole cc50_stg1_1 | ⟨_ + 2, h⟩ => absurd h (Nat.not_lt.2 (Nat.le_add_left _ _))
abbrev sem50_1 : Fin 2 → DmaSem sig := fun | 0 => cc50_sem1_0 | 1 => cc50_sem1_1 | ⟨_ + 2, h⟩ => absurd h (Nat.not_lt.2 (Nat.le_add_left _ _))
abbrev reads50_1 : Fin grid50.rank → Bool := ![false, true]

abbrev stage50_2 : Fin 2 → Memref sig .tc .vmem S1024x512 .f32 := fun | 0 => Memref.whole cc50_stg2_0 | 1 => Memref.whole cc50_stg2_1 | ⟨_ + 2, h⟩ => absurd h (Nat.not_lt.2 (Nat.le_add_left _ _))
abbrev sem50_2 : Fin 2 → DmaSem sig := fun | 0 => cc50_sem2_0 | 1 => cc50_sem2_1 | ⟨_ + 2, h⟩ => absurd h (Nat.not_lt.2 (Nat.le_add_left _ _))
abbrev reads50_2 : Fin grid50.rank → Bool := ![true, false]

abbrev grid51 : Pipeline.Grid := ⟨2, ![4, 4], ![false, false]⟩

def k51_cond2 (i : grid51.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc51_transform_0 (i : grid51.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc51_transform_1 (i : grid51.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc51_transform_2 (i : grid51.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage51_0 : Fin 2 → Memref sig .tc .vmem S1024x1024 .bf16 := fun | 0 => Memref.whole cc51_stg0_0 | 1 => Memref.whole cc51_stg0_1 | ⟨_ + 2, h⟩ => absurd h (Nat.not_lt.2 (Nat.le_add_left _ _))
abbrev sem51_0 : Fin 2 → DmaSem sig := fun | 0 => cc51_sem0_0 | 1 => cc51_sem0_1 | ⟨_ + 2, h⟩ => absurd h (Nat.not_lt.2 (Nat.le_add_left _ _))
abbrev reads51_0 : Fin grid51.rank → Bool := ![true, true]

abbrev stage51_1 : Fin 2 → Memref sig .tc .vmem S1024x512 .f32 := fun | 0 => Memref.whole cc51_stg1_0 | 1 => Memref.whole cc51_stg1_1 | ⟨_ + 2, h⟩ => absurd h (Nat.not_lt.2 (Nat.le_add_left _ _))
abbrev sem51_1 : Fin 2 → DmaSem sig := fun | 0 => cc51_sem1_0 | 1 => cc51_sem1_1 | ⟨_ + 2, h⟩ => absurd h (Nat.not_lt.2 (Nat.le_add_left _ _))
abbrev reads51_1 : Fin grid51.rank → Bool := ![false, true]

abbrev stage51_2 : Fin 2 → Memref sig .tc .vmem S1024x512 .f32 := fun | 0 => Memref.whole cc51_stg2_0 | 1 => Memref.whole cc51_stg2_1 | ⟨_ + 2, h⟩ => absurd h (Nat.not_lt.2 (Nat.le_add_left _ _))
abbrev sem51_2 : Fin 2 → DmaSem sig := fun | 0 => cc51_sem2_0 | 1 => cc51_sem2_1 | ⟨_ + 2, h⟩ => absurd h (Nat.not_lt.2 (Nat.le_add_left _ _))
abbrev reads51_2 : Fin grid51.rank → Bool := ![true, false]

abbrev grid52 : Pipeline.Grid := ⟨2, ![4, 1], ![false, false]⟩

def k52_cond2 (i : grid52.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc52_transform_0 (i : grid52.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc52_transform_1 (i : grid52.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc52_transform_2 (i : grid52.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage52_0 : Fin 2 → Memref sig .tc .vmem S1024x512 .f32 := fun | 0 => Memref.whole cc52_stg0_0 | 1 => Memref.whole cc52_stg0_1 | ⟨_ + 2, h⟩ => absurd h (Nat.not_lt.2 (Nat.le_add_left _ _))
abbrev sem52_0 : Fin 2 → DmaSem sig := fun | 0 => cc52_sem0_0 | 1 => cc52_sem0_1 | ⟨_ + 2, h⟩ => absurd h (Nat.not_lt.2 (Nat.le_add_left _ _))
abbrev reads52_0 : Fin grid52.rank → Bool := ![true, true]

abbrev stage52_1 : Fin 1 → Memref sig .tc .vmem S512x512 .bf16 := fun | 0 => Memref.whole cc52_stg1_0 | ⟨_ + 1, h⟩ => absurd h (Nat.not_lt.2 (Nat.le_add_left _ _))
abbrev sem52_1 : Fin 1 → DmaSem sig := fun | 0 => cc52_sem1_0 | ⟨_ + 1, h⟩ => absurd h (Nat.not_lt.2 (Nat.le_add_left _ _))
abbrev reads52_1 : Fin grid52.rank → Bool := ![false, true]

abbrev stage52_2 : Fin 2 → Memref sig .tc .vmem S1024x512 .f32 := fun | 0 => Memref.whole cc52_stg2_0 | 1 => Memref.whole cc52_stg2_1 | ⟨_ + 2, h⟩ => absurd h (Nat.not_lt.2 (Nat.le_add_left _ _))
abbrev sem52_2 : Fin 2 → DmaSem sig := fun | 0 => cc52_sem2_0 | 1 => cc52_sem2_1 | ⟨_ + 2, h⟩ => absurd h (Nat.not_lt.2 (Nat.le_add_left _ _))
abbrev reads52_2 : Fin grid52.rank → Bool := ![true, false]

abbrev grid53 : Pipeline.Grid := ⟨2, ![4, 4], ![false, false]⟩

def k53_cond2 (i : grid53.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc53_transform_0 (i : grid53.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc53_transform_1 (i : grid53.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc53_transform_2 (i : grid53.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage53_0 : Fin 2 → Memref sig .tc .vmem S1024x1024 .bf16 := fun | 0 => Memref.whole cc53_stg0_0 | 1 => Memref.whole cc53_stg0_1 | ⟨_ + 2, h⟩ => absurd h (Nat.not_lt.2 (Nat.le_add_left _ _))
abbrev sem53_0 : Fin 2 → DmaSem sig := fun | 0 => cc53_sem0_0 | 1 => cc53_sem0_1 | ⟨_ + 2, h⟩ => absurd h (Nat.not_lt.2 (Nat.le_add_left _ _))
abbrev reads53_0 : Fin grid53.rank → Bool := ![true, true]

abbrev stage53_1 : Fin 2 → Memref sig .tc .vmem S1024x512 .f32 := fun | 0 => Memref.whole cc53_stg1_0 | 1 => Memref.whole cc53_stg1_1 | ⟨_ + 2, h⟩ => absurd h (Nat.not_lt.2 (Nat.le_add_left _ _))
abbrev sem53_1 : Fin 2 → DmaSem sig := fun | 0 => cc53_sem1_0 | 1 => cc53_sem1_1 | ⟨_ + 2, h⟩ => absurd h (Nat.not_lt.2 (Nat.le_add_left _ _))
abbrev reads53_1 : Fin grid53.rank → Bool := ![false, true]

abbrev stage53_2 : Fin 2 → Memref sig .tc .vmem S1024x512 .f32 := fun | 0 => Memref.whole cc53_stg2_0 | 1 => Memref.whole cc53_stg2_1 | ⟨_ + 2, h⟩ => absurd h (Nat.not_lt.2 (Nat.le_add_left _ _))
abbrev sem53_2 : Fin 2 → DmaSem sig := fun | 0 => cc53_sem2_0 | 1 => cc53_sem2_1 | ⟨_ + 2, h⟩ => absurd h (Nat.not_lt.2 (Nat.le_add_left _ _))
abbrev reads53_2 : Fin grid53.rank → Bool := ![true, false]

abbrev grid54 : Pipeline.Grid := ⟨2, ![4, 4], ![false, false]⟩

def k54_cond2 (i : grid54.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc54_transform_0 (i : grid54.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc54_transform_1 (i : grid54.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc54_transform_2 (i : grid54.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage54_0 : Fin 2 → Memref sig .tc .vmem S1024x1024 .bf16 := fun | 0 => Memref.whole cc54_stg0_0 | 1 => Memref.whole cc54_stg0_1 | ⟨_ + 2, h⟩ => absurd h (Nat.not_lt.2 (Nat.le_add_left _ _))
abbrev sem54_0 : Fin 2 → DmaSem sig := fun | 0 => cc54_sem0_0 | 1 => cc54_sem0_1 | ⟨_ + 2, h⟩ => absurd h (Nat.not_lt.2 (Nat.le_add_left _ _))
abbrev reads54_0 : Fin grid54.rank → Bool := ![true, true]

abbrev stage54_1 : Fin 2 → Memref sig .tc .vmem S1024x512 .f32 := fun | 0 => Memref.whole cc54_stg1_0 | 1 => Memref.whole cc54_stg1_1 | ⟨_ + 2, h⟩ => absurd h (Nat.not_lt.2 (Nat.le_add_left _ _))
abbrev sem54_1 : Fin 2 → DmaSem sig := fun | 0 => cc54_sem1_0 | 1 => cc54_sem1_1 | ⟨_ + 2, h⟩ => absurd h (Nat.not_lt.2 (Nat.le_add_left _ _))
abbrev reads54_1 : Fin grid54.rank → Bool := ![false, true]

abbrev stage54_2 : Fin 2 → Memref sig .tc .vmem S1024x512 .f32 := fun | 0 => Memref.whole cc54_stg2_0 | 1 => Memref.whole cc54_stg2_1 | ⟨_ + 2, h⟩ => absurd h (Nat.not_lt.2 (Nat.le_add_left _ _))
abbrev sem54_2 : Fin 2 → DmaSem sig := fun | 0 => cc54_sem2_0 | 1 => cc54_sem2_1 | ⟨_ + 2, h⟩ => absurd h (Nat.not_lt.2 (Nat.le_add_left _ _))
abbrev reads54_2 : Fin grid54.rank → Bool := ![true, false]

abbrev grid55 : Pipeline.Grid := ⟨2, ![4, 1], ![false, false]⟩

def k55_cond2 (i : grid55.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc55_transform_0 (i : grid55.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc55_transform_1 (i : grid55.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc55_transform_2 (i : grid55.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage55_0 : Fin 2 → Memref sig .tc .vmem S1024x512 .f32 := fun | 0 => Memref.whole cc55_stg0_0 | 1 => Memref.whole cc55_stg0_1 | ⟨_ + 2, h⟩ => absurd h (Nat.not_lt.2 (Nat.le_add_left _ _))
abbrev sem55_0 : Fin 2 → DmaSem sig := fun | 0 => cc55_sem0_0 | 1 => cc55_sem0_1 | ⟨_ + 2, h⟩ => absurd h (Nat.not_lt.2 (Nat.le_add_left _ _))
abbrev reads55_0 : Fin grid55.rank → Bool := ![true, true]

abbrev stage55_1 : Fin 1 → Memref sig .tc .vmem S512x512 .bf16 := fun | 0 => Memref.whole cc55_stg1_0 | ⟨_ + 1, h⟩ => absurd h (Nat.not_lt.2 (Nat.le_add_left _ _))
abbrev sem55_1 : Fin 1 → DmaSem sig := fun | 0 => cc55_sem1_0 | ⟨_ + 1, h⟩ => absurd h (Nat.not_lt.2 (Nat.le_add_left _ _))
abbrev reads55_1 : Fin grid55.rank → Bool := ![false, true]

abbrev stage55_2 : Fin 2 → Memref sig .tc .vmem S1024x512 .f32 := fun | 0 => Memref.whole cc55_stg2_0 | 1 => Memref.whole cc55_stg2_1 | ⟨_ + 2, h⟩ => absurd h (Nat.not_lt.2 (Nat.le_add_left _ _))
abbrev sem55_2 : Fin 2 → DmaSem sig := fun | 0 => cc55_sem2_0 | 1 => cc55_sem2_1 | ⟨_ + 2, h⟩ => absurd h (Nat.not_lt.2 (Nat.le_add_left _ _))
abbrev reads55_2 : Fin grid55.rank → Bool := ![true, false]

abbrev grid56 : Pipeline.Grid := ⟨2, ![4, 4], ![false, false]⟩

def k56_cond2 (i : grid56.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc56_transform_0 (i : grid56.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc56_transform_1 (i : grid56.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc56_transform_2 (i : grid56.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage56_0 : Fin 2 → Memref sig .tc .vmem S1024x1024 .bf16 := fun | 0 => Memref.whole cc56_stg0_0 | 1 => Memref.whole cc56_stg0_1 | ⟨_ + 2, h⟩ => absurd h (Nat.not_lt.2 (Nat.le_add_left _ _))
abbrev sem56_0 : Fin 2 → DmaSem sig := fun | 0 => cc56_sem0_0 | 1 => cc56_sem0_1 | ⟨_ + 2, h⟩ => absurd h (Nat.not_lt.2 (Nat.le_add_left _ _))
abbrev reads56_0 : Fin grid56.rank → Bool := ![true, true]

abbrev stage56_1 : Fin 2 → Memref sig .tc .vmem S1024x512 .f32 := fun | 0 => Memref.whole cc56_stg1_0 | 1 => Memref.whole cc56_stg1_1 | ⟨_ + 2, h⟩ => absurd h (Nat.not_lt.2 (Nat.le_add_left _ _))
abbrev sem56_1 : Fin 2 → DmaSem sig := fun | 0 => cc56_sem1_0 | 1 => cc56_sem1_1 | ⟨_ + 2, h⟩ => absurd h (Nat.not_lt.2 (Nat.le_add_left _ _))
abbrev reads56_1 : Fin grid56.rank → Bool := ![false, true]

abbrev stage56_2 : Fin 2 → Memref sig .tc .vmem S1024x512 .f32 := fun | 0 => Memref.whole cc56_stg2_0 | 1 => Memref.whole cc56_stg2_1 | ⟨_ + 2, h⟩ => absurd h (Nat.not_lt.2 (Nat.le_add_left _ _))
abbrev sem56_2 : Fin 2 → DmaSem sig := fun | 0 => cc56_sem2_0 | 1 => cc56_sem2_1 | ⟨_ + 2, h⟩ => absurd h (Nat.not_lt.2 (Nat.le_add_left _ _))
abbrev reads56_2 : Fin grid56.rank → Bool := ![true, false]

abbrev grid57 : Pipeline.Grid := ⟨2, ![4, 4], ![false, false]⟩

def k57_cond2 (i : grid57.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc57_transform_0 (i : grid57.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc57_transform_1 (i : grid57.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc57_transform_2 (i : grid57.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage57_0 : Fin 2 → Memref sig .tc .vmem S1024x1024 .bf16 := fun | 0 => Memref.whole cc57_stg0_0 | 1 => Memref.whole cc57_stg0_1 | ⟨_ + 2, h⟩ => absurd h (Nat.not_lt.2 (Nat.le_add_left _ _))
abbrev sem57_0 : Fin 2 → DmaSem sig := fun | 0 => cc57_sem0_0 | 1 => cc57_sem0_1 | ⟨_ + 2, h⟩ => absurd h (Nat.not_lt.2 (Nat.le_add_left _ _))
abbrev reads57_0 : Fin grid57.rank → Bool := ![true, true]

abbrev stage57_1 : Fin 2 → Memref sig .tc .vmem S1024x512 .f32 := fun | 0 => Memref.whole cc57_stg1_0 | 1 => Memref.whole cc57_stg1_1 | ⟨_ + 2, h⟩ => absurd h (Nat.not_lt.2 (Nat.le_add_left _ _))
abbrev sem57_1 : Fin 2 → DmaSem sig := fun | 0 => cc57_sem1_0 | 1 => cc57_sem1_1 | ⟨_ + 2, h⟩ => absurd h (Nat.not_lt.2 (Nat.le_add_left _ _))
abbrev reads57_1 : Fin grid57.rank → Bool := ![false, true]

abbrev stage57_2 : Fin 2 → Memref sig .tc .vmem S1024x512 .f32 := fun | 0 => Memref.whole cc57_stg2_0 | 1 => Memref.whole cc57_stg2_1 | ⟨_ + 2, h⟩ => absurd h (Nat.not_lt.2 (Nat.le_add_left _ _))
abbrev sem57_2 : Fin 2 → DmaSem sig := fun | 0 => cc57_sem2_0 | 1 => cc57_sem2_1 | ⟨_ + 2, h⟩ => absurd h (Nat.not_lt.2 (Nat.le_add_left _ _))
abbrev reads57_2 : Fin grid57.rank → Bool := ![true, false]

abbrev grid58 : Pipeline.Grid := ⟨2, ![4, 1], ![false, false]⟩

def k58_cond2 (i : grid58.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc58_transform_0 (i : grid58.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc58_transform_1 (i : grid58.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc58_transform_2 (i : grid58.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage58_0 : Fin 2 → Memref sig .tc .vmem S1024x512 .f32 := fun | 0 => Memref.whole cc58_stg0_0 | 1 => Memref.whole cc58_stg0_1 | ⟨_ + 2, h⟩ => absurd h (Nat.not_lt.2 (Nat.le_add_left _ _))
abbrev sem58_0 : Fin 2 → DmaSem sig := fun | 0 => cc58_sem0_0 | 1 => cc58_sem0_1 | ⟨_ + 2, h⟩ => absurd h (Nat.not_lt.2 (Nat.le_add_left _ _))
abbrev reads58_0 : Fin grid58.rank → Bool := ![true, true]

abbrev stage58_1 : Fin 1 → Memref sig .tc .vmem S512x512 .bf16 := fun | 0 => Memref.whole cc58_stg1_0 | ⟨_ + 1, h⟩ => absurd h (Nat.not_lt.2 (Nat.le_add_left _ _))
abbrev sem58_1 : Fin 1 → DmaSem sig := fun | 0 => cc58_sem1_0 | ⟨_ + 1, h⟩ => absurd h (Nat.not_lt.2 (Nat.le_add_left _ _))
abbrev reads58_1 : Fin grid58.rank → Bool := ![false, true]

abbrev stage58_2 : Fin 2 → Memref sig .tc .vmem S1024x512 .f32 := fun | 0 => Memref.whole cc58_stg2_0 | 1 => Memref.whole cc58_stg2_1 | ⟨_ + 2, h⟩ => absurd h (Nat.not_lt.2 (Nat.le_add_left _ _))
abbrev sem58_2 : Fin 2 → DmaSem sig := fun | 0 => cc58_sem2_0 | 1 => cc58_sem2_1 | ⟨_ + 2, h⟩ => absurd h (Nat.not_lt.2 (Nat.le_add_left _ _))
abbrev reads58_2 : Fin grid58.rank → Bool := ![true, false]

abbrev grid59 : Pipeline.Grid := ⟨2, ![4, 1], ![false, false]⟩

def k59_cond2 (i : grid59.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc59_transform_0 (i : grid59.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc59_transform_1 (i : grid59.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc59_transform_2 (i : grid59.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage59_0 : Fin 2 → Memref sig .tc .vmem S1024x512 .f32 := fun | 0 => Memref.whole cc59_stg0_0 | 1 => Memref.whole cc59_stg0_1 | ⟨_ + 2, h⟩ => absurd h (Nat.not_lt.2 (Nat.le_add_left _ _))
abbrev sem59_0 : Fin 2 → DmaSem sig := fun | 0 => cc59_sem0_0 | 1 => cc59_sem0_1 | ⟨_ + 2, h⟩ => absurd h (Nat.not_lt.2 (Nat.le_add_left _ _))
abbrev reads59_0 : Fin grid59.rank → Bool := ![true, true]

abbrev stage59_1 : Fin 1 → Memref sig .tc .vmem S512x64 .bf16 := fun | 0 => Memref.whole cc59_stg1_0 | ⟨_ + 1, h⟩ => absurd h (Nat.not_lt.2 (Nat.le_add_left _ _))
abbrev sem59_1 : Fin 1 → DmaSem sig := fun | 0 => cc59_sem1_0 | ⟨_ + 1, h⟩ => absurd h (Nat.not_lt.2 (Nat.le_add_left _ _))
abbrev reads59_1 : Fin grid59.rank → Bool := ![false, true]

abbrev stage59_2 : Fin 2 → Memref sig .tc .vmem S1024x64 .f32 := fun | 0 => Memref.whole cc59_stg2_0 | 1 => Memref.whole cc59_stg2_1 | ⟨_ + 2, h⟩ => absurd h (Nat.not_lt.2 (Nat.le_add_left _ _))
abbrev sem59_2 : Fin 2 → DmaSem sig := fun | 0 => cc59_sem2_0 | 1 => cc59_sem2_1 | ⟨_ + 2, h⟩ => absurd h (Nat.not_lt.2 (Nat.le_add_left _ _))
abbrev reads59_2 : Fin grid59.rank → Bool := ![true, false]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x512.size a
  hwx0_2 : ∀ i : grid0.Coords, EltTy.bits .f32 = 32 ∨ (Rect.block (s := S4096x512) S1024x512.size (cc0_transform_2 i) (hinb0_2 i)).WholeWords (EltTy.packing .f32)

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x512.size a
  hwx1_1 : ∀ i : grid1.Coords, EltTy.bits .f32 = 32 ∨ (Rect.block (s := S4096x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S4096x512.size a
  hwx1_2 : ∀ i : grid1.Coords, EltTy.bits .f32 = 32 ∨ (Rect.block (s := S4096x512) S1024x512.size (cc1_transform_2 i) (hinb1_2 i)).WholeWords (EltTy.packing .f32)

class K2.Facts₀ : Prop where
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .bf16 = 32 ∨ (Rect.block (s := S4096x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S4096x512.size a
  hwx2_1 : ∀ i : grid2.Coords, EltTy.bits .f32 = 32 ∨ (Rect.block (s := S4096x512) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S4096x512.size a
  hwx2_2 : ∀ i : grid2.Coords, EltTy.bits .f32 = 32 ∨ (Rect.block (s := S4096x512) S1024x512.size (cc2_transform_2 i) (hinb2_2 i)).WholeWords (EltTy.packing .f32)

class K3.Facts₀ : Prop where
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S4096x512.size a
  hwx3_0 : ∀ i : grid3.Coords, EltTy.bits .f32 = 32 ∨ (Rect.block (s := S4096x512) S1024x512.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .bf16 = 32 ∨ (Rect.block (s := S512x512) S512x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x512.size a ≤ S4096x512.size a
  hwx3_2 : ∀ i : grid3.Coords, EltTy.bits .f32 = 32 ∨ (Rect.block (s := S4096x512) S1024x512.size (cc3_transform_2 i) (hinb3_2 i)).WholeWords (EltTy.packing .f32)

class K4.Facts₀ : Prop where
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x4096.size a
  hwx4_0 : ∀ i : grid4.Coords, EltTy.bits .bf16 = 32 ∨ (Rect.block (s := S4096x4096) S1024x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x512.size a ≤ S4096x512.size a
  hwx4_1 : ∀ i : grid4.Coords, EltTy.bits .f32 = 32 ∨ (Rect.block (s := S4096x512) S1024x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x512.size a ≤ S4096x512.size a
  hwx4_2 : ∀ i : grid4.Coords, EltTy.bits .f32 = 32 ∨ (Rect.block (s := S4096x512) S1024x512.size (cc4_transform_2 i) (hinb4_2 i)).WholeWords (EltTy.packing .f32)

class K5.Facts₀ : Prop where
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S4096x4096.size a
  hwx5_0 : ∀ i : grid5.Coords, EltTy.bits .bf16 = 32 ∨ (Rect.block (s := S4096x4096) S1024x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x512.size a ≤ S4096x512.size a
  hwx5_1 : ∀ i : grid5.Coords, EltTy.bits .f32 = 32 ∨ (Rect.block (s := S4096x512) S1024x512.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x512.size a ≤ S4096x512.size a
  hwx5_2 : ∀ i : grid5.Coords, EltTy.bits .f32 = 32 ∨ (Rect.block (s := S4096x512) S1024x512.size (cc5_transform_2 i) (hinb5_2 i)).WholeWords (EltTy.packing .f32)

class K6.Facts₀ : Prop where
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x512.size a ≤ S4096x512.size a
  hwx6_0 : ∀ i : grid6.Coords, EltTy.bits .f32 = 32 ∨ (Rect.block (s := S4096x512) S1024x512.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S512x512.size a ≤ S512x512.size a
  hwx6_1 : ∀ i : grid6.Coords, EltTy.bits .bf16 = 32 ∨ (Rect.block (s := S512x512) S512x512.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x512.size a ≤ S4096x512.size a
  hwx6_2 : ∀ i : grid6.Coords, EltTy.bits .f32 = 32 ∨ (Rect.block (s := S4096x512) S1024x512.size (cc6_transform_2 i) (hinb6_2 i)).WholeWords (EltTy.packing .f32)

class K7.Facts₀ : Prop where
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x1024.size a ≤ S4096x4096.size a
  hwx7_0 : ∀ i : grid7.Coords, EltTy.bits .bf16 = 32 ∨ (Rect.block (s := S4096x4096) S1024x1024.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x512.size a ≤ S4096x512.size a
  hwx7_1 : ∀ i : grid7.Coords, EltTy.bits .f32 = 32 ∨ (Rect.block (s := S4096x512) S1024x512.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x512.size a ≤ S4096x512.size a
  hwx7_2 : ∀ i : grid7.Coords, EltTy.bits .f32 = 32 ∨ (Rect.block (s := S4096x512) S1024x512.size (cc7_transform_2 i) (hinb7_2 i)).WholeWords (EltTy.packing .f32)

class K8.Facts₀ : Prop where
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x1024.size a ≤ S4096x4096.size a
  hwx8_0 : ∀ i : grid8.Coords, EltTy.bits .bf16 = 32 ∨ (Rect.block (s := S4096x4096) S1024x1024.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1024x512.size a ≤ S4096x512.size a
  hwx8_1 : ∀ i : grid8.Coords, EltTy.bits .f32 = 32 ∨ (Rect.block (s := S4096x512) S1024x512.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x512.size a ≤ S4096x512.size a
  hwx8_2 : ∀ i : grid8.Coords, EltTy.bits .f32 = 32 ∨ (Rect.block (s := S4096x512) S1024x512.size (cc8_transform_2 i) (hinb8_2 i)).WholeWords (EltTy.packing .f32)

class K9.Facts₀ : Prop where
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x1024.size a ≤ S4096x4096.size a
  hwx9_0 : ∀ i : grid9.Coords, EltTy.bits .bf16 = 32 ∨ (Rect.block (s := S4096x4096) S1024x1024.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1024x512.size a ≤ S4096x512.size a
  hwx9_1 : ∀ i : grid9.Coords, EltTy.bits .f32 = 32 ∨ (Rect.block (s := S4096x512) S1024x512.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1024x512.size a ≤ S4096x512.size a
  hwx9_2 : ∀ i : grid9.Coords, EltTy.bits .f32 = 32 ∨ (Rect.block (s := S4096x512) S1024x512.size (cc9_transform_2 i) (hinb9_2 i)).WholeWords (EltTy.packing .f32)

class K10.Facts₀ : Prop where
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x512.size a ≤ S4096x512.size a
  hwx10_0 : ∀ i : grid10.Coords, EltTy.bits .f32 = 32 ∨ (Rect.block (s := S4096x512) S1024x512.size (cc10_transform_0 i) (hinb10_0 i)).WholeWords (EltTy.packing .f32)
  hstage10_1 : ∀ j, (stage10_1 j).IsWhole
  nbuf10_1 : grid10.bufCount reads10_1 false = 1
  hreads10_1 : ∀ i i' : grid10.Coords, (∀ a, reads10_1 a = true → i a = i' a) → cc10_transform_1 i = cc10_transform_1 i'
  hinb10_1 : ∀ (i : grid10.Coords) a, (cc10_transform_1 i a + 1) * S512x512.size a ≤ S512x512.size a
  hwx10_1 : ∀ i : grid10.Coords, EltTy.bits .bf16 = 32 ∨ (Rect.block (s := S512x512) S512x512.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1024x512.size a ≤ S4096x512.size a
  hwx10_2 : ∀ i : grid10.Coords, EltTy.bits .f32 = 32 ∨ (Rect.block (s := S4096x512) S1024x512.size (cc10_transform_2 i) (hinb10_2 i)).WholeWords (EltTy.packing .f32)

class K11.Facts₀ : Prop where
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x1024.size a ≤ S4096x4096.size a
  hwx11_0 : ∀ i : grid11.Coords, EltTy.bits .bf16 = 32 ∨ (Rect.block (s := S4096x4096) S1024x1024.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1024x512.size a ≤ S4096x512.size a
  hwx11_1 : ∀ i : grid11.Coords, EltTy.bits .f32 = 32 ∨ (Rect.block (s := S4096x512) S1024x512.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1024x512.size a ≤ S4096x512.size a
  hwx11_2 : ∀ i : grid11.Coords, EltTy.bits .f32 = 32 ∨ (Rect.block (s := S4096x512) S1024x512.size (cc11_transform_2 i) (hinb11_2 i)).WholeWords (EltTy.packing .f32)

class K12.Facts₀ : Prop where
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1024x1024.size a ≤ S4096x4096.size a
  hwx12_0 : ∀ i : grid12.Coords, EltTy.bits .bf16 = 32 ∨ (Rect.block (s := S4096x4096) S1024x1024.size (cc12_transform_0 i) (hinb12_0 i)).WholeWords (EltTy.packing .bf16)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S1024x512.size a ≤ S4096x512.size a
  hwx12_1 : ∀ i : grid12.Coords, EltTy.bits .f32 = 32 ∨ (Rect.block (s := S4096x512) S1024x512.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1024x512.size a ≤ S4096x512.size a
  hwx12_2 : ∀ i : grid12.Coords, EltTy.bits .f32 = 32 ∨ (Rect.block (s := S4096x512) S1024x512.size (cc12_transform_2 i) (hinb12_2 i)).WholeWords (EltTy.packing .f32)

class K13.Facts₀ : Prop where
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1024x512.size a ≤ S4096x512.size a
  hwx13_0 : ∀ i : grid13.Coords, EltTy.bits .f32 = 32 ∨ (Rect.block (s := S4096x512) S1024x512.size (cc13_transform_0 i) (hinb13_0 i)).WholeWords (EltTy.packing .f32)
  hstage13_1 : ∀ j, (stage13_1 j).IsWhole
  nbuf13_1 : grid13.bufCount reads13_1 false = 1
  hreads13_1 : ∀ i i' : grid13.Coords, (∀ a, reads13_1 a = true → i a = i' a) → cc13_transform_1 i = cc13_transform_1 i'
  hinb13_1 : ∀ (i : grid13.Coords) a, (cc13_transform_1 i a + 1) * S512x512.size a ≤ S512x512.size a
  hwx13_1 : ∀ i : grid13.Coords, EltTy.bits .bf16 = 32 ∨ (Rect.block (s := S512x512) S512x512.size (cc13_transform_1 i) (hinb13_1 i)).WholeWords (EltTy.packing .bf16)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S1024x512.size a ≤ S4096x512.size a
  hwx13_2 : ∀ i : grid13.Coords, EltTy.bits .f32 = 32 ∨ (Rect.block (s := S4096x512) S1024x512.size (cc13_transform_2 i) (hinb13_2 i)).WholeWords (EltTy.packing .f32)

class K14.Facts₀ : Prop where
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1024x1024.size a ≤ S4096x4096.size a
  hwx14_0 : ∀ i : grid14.Coords, EltTy.bits .bf16 = 32 ∨ (Rect.block (s := S4096x4096) S1024x1024.size (cc14_transform_0 i) (hinb14_0 i)).WholeWords (EltTy.packing .bf16)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S1024x512.size a ≤ S4096x512.size a
  hwx14_1 : ∀ i : grid14.Coords, EltTy.bits .f32 = 32 ∨ (Rect.block (s := S4096x512) S1024x512.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S1024x512.size a ≤ S4096x512.size a
  hwx14_2 : ∀ i : grid14.Coords, EltTy.bits .f32 = 32 ∨ (Rect.block (s := S4096x512) S1024x512.size (cc14_transform_2 i) (hinb14_2 i)).WholeWords (EltTy.packing .f32)

class K15.Facts₀ : Prop where
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1024x1024.size a ≤ S4096x4096.size a
  hwx15_0 : ∀ i : grid15.Coords, EltTy.bits .bf16 = 32 ∨ (Rect.block (s := S4096x4096) S1024x1024.size (cc15_transform_0 i) (hinb15_0 i)).WholeWords (EltTy.packing .bf16)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S1024x512.size a ≤ S4096x512.size a
  hwx15_1 : ∀ i : grid15.Coords, EltTy.bits .f32 = 32 ∨ (Rect.block (s := S4096x512) S1024x512.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S1024x512.size a ≤ S4096x512.size a
  hwx15_2 : ∀ i : grid15.Coords, EltTy.bits .f32 = 32 ∨ (Rect.block (s := S4096x512) S1024x512.size (cc15_transform_2 i) (hinb15_2 i)).WholeWords (EltTy.packing .f32)

class K16.Facts₀ : Prop where
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S1024x1024.size a ≤ S4096x4096.size a
  hwx16_0 : ∀ i : grid16.Coords, EltTy.bits .bf16 = 32 ∨ (Rect.block (s := S4096x4096) S1024x1024.size (cc16_transform_0 i) (hinb16_0 i)).WholeWords (EltTy.packing .bf16)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S1024x512.size a ≤ S4096x512.size a
  hwx16_1 : ∀ i : grid16.Coords, EltTy.bits .f32 = 32 ∨ (Rect.block (s := S4096x512) S1024x512.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S1024x512.size a ≤ S4096x512.size a
  hwx16_2 : ∀ i : grid16.Coords, EltTy.bits .f32 = 32 ∨ (Rect.block (s := S4096x512) S1024x512.size (cc16_transform_2 i) (hinb16_2 i)).WholeWords (EltTy.packing .f32)

class K17.Facts₀ : Prop where
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S1024x512.size a ≤ S4096x512.size a
  hwx17_0 : ∀ i : grid17.Coords, EltTy.bits .f32 = 32 ∨ (Rect.block (s := S4096x512) S1024x512.size (cc17_transform_0 i) (hinb17_0 i)).WholeWords (EltTy.packing .f32)
  hstage17_1 : ∀ j, (stage17_1 j).IsWhole
  nbuf17_1 : grid17.bufCount reads17_1 false = 1
  hreads17_1 : ∀ i i' : grid17.Coords, (∀ a, reads17_1 a = true → i a = i' a) → cc17_transform_1 i = cc17_transform_1 i'
  hinb17_1 : ∀ (i : grid17.Coords) a, (cc17_transform_1 i a + 1) * S512x512.size a ≤ S512x512.size a
  hwx17_1 : ∀ i : grid17.Coords, EltTy.bits .bf16 = 32 ∨ (Rect.block (s := S512x512) S512x512.size (cc17_transform_1 i) (hinb17_1 i)).WholeWords (EltTy.packing .bf16)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S1024x512.size a ≤ S4096x512.size a
  hwx17_2 : ∀ i : grid17.Coords, EltTy.bits .f32 = 32 ∨ (Rect.block (s := S4096x512) S1024x512.size (cc17_transform_2 i) (hinb17_2 i)).WholeWords (EltTy.packing .f32)

class K18.Facts₀ : Prop where
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S1024x1024.size a ≤ S4096x4096.size a
  hwx18_0 : ∀ i : grid18.Coords, EltTy.bits .bf16 = 32 ∨ (Rect.block (s := S4096x4096) S1024x1024.size (cc18_transform_0 i) (hinb18_0 i)).WholeWords (EltTy.packing .bf16)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S1024x512.size a ≤ S4096x512.size a
  hwx18_1 : ∀ i : grid18.Coords, EltTy.bits .f32 = 32 ∨ (Rect.block (s := S4096x512) S1024x512.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S1024x512.size a ≤ S4096x512.size a
  hwx18_2 : ∀ i : grid18.Coords, EltTy.bits .f32 = 32 ∨ (Rect.block (s := S4096x512) S1024x512.size (cc18_transform_2 i) (hinb18_2 i)).WholeWords (EltTy.packing .f32)

class K19.Facts₀ : Prop where
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S1024x1024.size a ≤ S4096x4096.size a
  hwx19_0 : ∀ i : grid19.Coords, EltTy.bits .bf16 = 32 ∨ (Rect.block (s := S4096x4096) S1024x1024.size (cc19_transform_0 i) (hinb19_0 i)).WholeWords (EltTy.packing .bf16)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S1024x512.size a ≤ S4096x512.size a
  hwx19_1 : ∀ i : grid19.Coords, EltTy.bits .f32 = 32 ∨ (Rect.block (s := S4096x512) S1024x512.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S1024x512.size a ≤ S4096x512.size a
  hwx19_2 : ∀ i : grid19.Coords, EltTy.bits .f32 = 32 ∨ (Rect.block (s := S4096x512) S1024x512.size (cc19_transform_2 i) (hinb19_2 i)).WholeWords (EltTy.packing .f32)

class K20.Facts₀ : Prop where
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S1024x512.size a ≤ S4096x512.size a
  hwx20_0 : ∀ i : grid20.Coords, EltTy.bits .f32 = 32 ∨ (Rect.block (s := S4096x512) S1024x512.size (cc20_transform_0 i) (hinb20_0 i)).WholeWords (EltTy.packing .f32)
  hstage20_1 : ∀ j, (stage20_1 j).IsWhole
  nbuf20_1 : grid20.bufCount reads20_1 false = 1
  hreads20_1 : ∀ i i' : grid20.Coords, (∀ a, reads20_1 a = true → i a = i' a) → cc20_transform_1 i = cc20_transform_1 i'
  hinb20_1 : ∀ (i : grid20.Coords) a, (cc20_transform_1 i a + 1) * S512x512.size a ≤ S512x512.size a
  hwx20_1 : ∀ i : grid20.Coords, EltTy.bits .bf16 = 32 ∨ (Rect.block (s := S512x512) S512x512.size (cc20_transform_1 i) (hinb20_1 i)).WholeWords (EltTy.packing .bf16)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S1024x512.size a ≤ S4096x512.size a
  hwx20_2 : ∀ i : grid20.Coords, EltTy.bits .f32 = 32 ∨ (Rect.block (s := S4096x512) S1024x512.size (cc20_transform_2 i) (hinb20_2 i)).WholeWords (EltTy.packing .f32)

class K21.Facts₀ : Prop where
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S1024x1024.size a ≤ S4096x4096.size a
  hwx21_0 : ∀ i : grid21.Coords, EltTy.bits .bf16 = 32 ∨ (Rect.block (s := S4096x4096) S1024x1024.size (cc21_transform_0 i) (hinb21_0 i)).WholeWords (EltTy.packing .bf16)
  hstage21_1 : ∀ j, (stage21_1 j).IsWhole
  nbuf21_1 : grid21.bufCount reads21_1 false = 2
  hreads21_1 : ∀ i i' : grid21.Coords, (∀ a, reads21_1 a = true → i a = i' a) → cc21_transform_1 i = cc21_transform_1 i'
  hinb21_1 : ∀ (i : grid21.Coords) a, (cc21_transform_1 i a + 1) * S1024x512.size a ≤ S4096x512.size a
  hwx21_1 : ∀ i : grid21.Coords, EltTy.bits .f32 = 32 ∨ (Rect.block (s := S4096x512) S1024x512.size (cc21_transform_1 i) (hinb21_1 i)).WholeWords (EltTy.packing .f32)
  hstage21_2 : ∀ j, (stage21_2 j).IsWhole
  nbuf21_2 : grid21.bufCount reads21_2 false = 2
  hreads21_2 : ∀ i i' : grid21.Coords, (∀ a, reads21_2 a = true → i a = i' a) → cc21_transform_2 i = cc21_transform_2 i'
  hinb21_2 : ∀ (i : grid21.Coords) a, (cc21_transform_2 i a + 1) * S1024x512.size a ≤ S4096x512.size a
  hwx21_2 : ∀ i : grid21.Coords, EltTy.bits .f32 = 32 ∨ (Rect.block (s := S4096x512) S1024x512.size (cc21_transform_2 i) (hinb21_2 i)).WholeWords (EltTy.packing .f32)

class K22.Facts₀ : Prop where
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S1024x1024.size a ≤ S4096x4096.size a
  hwx22_0 : ∀ i : grid22.Coords, EltTy.bits .bf16 = 32 ∨ (Rect.block (s := S4096x4096) S1024x1024.size (cc22_transform_0 i) (hinb22_0 i)).WholeWords (EltTy.packing .bf16)
  hstage22_1 : ∀ j, (stage22_1 j).IsWhole
  nbuf22_1 : grid22.bufCount reads22_1 false = 2
  hreads22_1 : ∀ i i' : grid22.Coords, (∀ a, reads22_1 a = true → i a = i' a) → cc22_transform_1 i = cc22_transform_1 i'
  hinb22_1 : ∀ (i : grid22.Coords) a, (cc22_transform_1 i a + 1) * S1024x512.size a ≤ S4096x512.size a
  hwx22_1 : ∀ i : grid22.Coords, EltTy.bits .f32 = 32 ∨ (Rect.block (s := S4096x512) S1024x512.size (cc22_transform_1 i) (hinb22_1 i)).WholeWords (EltTy.packing .f32)
  hstage22_2 : ∀ j, (stage22_2 j).IsWhole
  nbuf22_2 : grid22.bufCount reads22_2 false = 2
  hreads22_2 : ∀ i i' : grid22.Coords, (∀ a, reads22_2 a = true → i a = i' a) → cc22_transform_2 i = cc22_transform_2 i'
  hinb22_2 : ∀ (i : grid22.Coords) a, (cc22_transform_2 i a + 1) * S1024x512.size a ≤ S4096x512.size a
  hwx22_2 : ∀ i : grid22.Coords, EltTy.bits .f32 = 32 ∨ (Rect.block (s := S4096x512) S1024x512.size (cc22_transform_2 i) (hinb22_2 i)).WholeWords (EltTy.packing .f32)

class K23.Facts₀ : Prop where
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S1024x1024.size a ≤ S4096x4096.size a
  hwx23_0 : ∀ i : grid23.Coords, EltTy.bits .bf16 = 32 ∨ (Rect.block (s := S4096x4096) S1024x1024.size (cc23_transform_0 i) (hinb23_0 i)).WholeWords (EltTy.packing .bf16)
  hstage23_1 : ∀ j, (stage23_1 j).IsWhole
  nbuf23_1 : grid23.bufCount reads23_1 false = 2
  hreads23_1 : ∀ i i' : grid23.Coords, (∀ a, reads23_1 a = true → i a = i' a) → cc23_transform_1 i = cc23_transform_1 i'
  hinb23_1 : ∀ (i : grid23.Coords) a, (cc23_transform_1 i a + 1) * S1024x512.size a ≤ S4096x512.size a
  hwx23_1 : ∀ i : grid23.Coords, EltTy.bits .f32 = 32 ∨ (Rect.block (s := S4096x512) S1024x512.size (cc23_transform_1 i) (hinb23_1 i)).WholeWords (EltTy.packing .f32)
  hstage23_2 : ∀ j, (stage23_2 j).IsWhole
  nbuf23_2 : grid23.bufCount reads23_2 false = 2
  hreads23_2 : ∀ i i' : grid23.Coords, (∀ a, reads23_2 a = true → i a = i' a) → cc23_transform_2 i = cc23_transform_2 i'
  hinb23_2 : ∀ (i : grid23.Coords) a, (cc23_transform_2 i a + 1) * S1024x512.size a ≤ S4096x512.size a
  hwx23_2 : ∀ i : grid23.Coords, EltTy.bits .f32 = 32 ∨ (Rect.block (s := S4096x512) S1024x512.size (cc23_transform_2 i) (hinb23_2 i)).WholeWords (EltTy.packing .f32)

class K24.Facts₀ : Prop where
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S1024x512.size a ≤ S4096x512.size a
  hwx24_0 : ∀ i : grid24.Coords, EltTy.bits .f32 = 32 ∨ (Rect.block (s := S4096x512) S1024x512.size (cc24_transform_0 i) (hinb24_0 i)).WholeWords (EltTy.packing .f32)
  hstage24_1 : ∀ j, (stage24_1 j).IsWhole
  nbuf24_1 : grid24.bufCount reads24_1 false = 1
  hreads24_1 : ∀ i i' : grid24.Coords, (∀ a, reads24_1 a = true → i a = i' a) → cc24_transform_1 i = cc24_transform_1 i'
  hinb24_1 : ∀ (i : grid24.Coords) a, (cc24_transform_1 i a + 1) * S512x512.size a ≤ S512x512.size a
  hwx24_1 : ∀ i : grid24.Coords, EltTy.bits .bf16 = 32 ∨ (Rect.block (s := S512x512) S512x512.size (cc24_transform_1 i) (hinb24_1 i)).WholeWords (EltTy.packing .bf16)
  hstage24_2 : ∀ j, (stage24_2 j).IsWhole
  nbuf24_2 : grid24.bufCount reads24_2 false = 2
  hreads24_2 : ∀ i i' : grid24.Coords, (∀ a, reads24_2 a = true → i a = i' a) → cc24_transform_2 i = cc24_transform_2 i'
  hinb24_2 : ∀ (i : grid24.Coords) a, (cc24_transform_2 i a + 1) * S1024x512.size a ≤ S4096x512.size a
  hwx24_2 : ∀ i : grid24.Coords, EltTy.bits .f32 = 32 ∨ (Rect.block (s := S4096x512) S1024x512.size (cc24_transform_2 i) (hinb24_2 i)).WholeWords (EltTy.packing .f32)

class K25.Facts₀ : Prop where
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S1024x1024.size a ≤ S4096x4096.size a
  hwx25_0 : ∀ i : grid25.Coords, EltTy.bits .bf16 = 32 ∨ (Rect.block (s := S4096x4096) S1024x1024.size (cc25_transform_0 i) (hinb25_0 i)).WholeWords (EltTy.packing .bf16)
  hstage25_1 : ∀ j, (stage25_1 j).IsWhole
  nbuf25_1 : grid25.bufCount reads25_1 false = 2
  hreads25_1 : ∀ i i' : grid25.Coords, (∀ a, reads25_1 a = true → i a = i' a) → cc25_transform_1 i = cc25_transform_1 i'
  hinb25_1 : ∀ (i : grid25.Coords) a, (cc25_transform_1 i a + 1) * S1024x512.size a ≤ S4096x512.size a
  hwx25_1 : ∀ i : grid25.Coords, EltTy.bits .f32 = 32 ∨ (Rect.block (s := S4096x512) S1024x512.size (cc25_transform_1 i) (hinb25_1 i)).WholeWords (EltTy.packing .f32)
  hstage25_2 : ∀ j, (stage25_2 j).IsWhole
  nbuf25_2 : grid25.bufCount reads25_2 false = 2
  hreads25_2 : ∀ i i' : grid25.Coords, (∀ a, reads25_2 a = true → i a = i' a) → cc25_transform_2 i = cc25_transform_2 i'
  hinb25_2 : ∀ (i : grid25.Coords) a, (cc25_transform_2 i a + 1) * S1024x512.size a ≤ S4096x512.size a
  hwx25_2 : ∀ i : grid25.Coords, EltTy.bits .f32 = 32 ∨ (Rect.block (s := S4096x512) S1024x512.size (cc25_transform_2 i) (hinb25_2 i)).WholeWords (EltTy.packing .f32)

class K26.Facts₀ : Prop where
  hrank26 : 0 < grid26.rank
  hstage26_0 : ∀ j, (stage26_0 j).IsWhole
  nbuf26_0 : grid26.bufCount reads26_0 false = 2
  hreads26_0 : ∀ i i' : grid26.Coords, (∀ a, reads26_0 a = true → i a = i' a) → cc26_transform_0 i = cc26_transform_0 i'
  hinb26_0 : ∀ (i : grid26.Coords) a, (cc26_transform_0 i a + 1) * S1024x1024.size a ≤ S4096x4096.size a
  hwx26_0 : ∀ i : grid26.Coords, EltTy.bits .bf16 = 32 ∨ (Rect.block (s := S4096x4096) S1024x1024.size (cc26_transform_0 i) (hinb26_0 i)).WholeWords (EltTy.packing .bf16)
  hstage26_1 : ∀ j, (stage26_1 j).IsWhole
  nbuf26_1 : grid26.bufCount reads26_1 false = 2
  hreads26_1 : ∀ i i' : grid26.Coords, (∀ a, reads26_1 a = true → i a = i' a) → cc26_transform_1 i = cc26_transform_1 i'
  hinb26_1 : ∀ (i : grid26.Coords) a, (cc26_transform_1 i a + 1) * S1024x512.size a ≤ S4096x512.size a
  hwx26_1 : ∀ i : grid26.Coords, EltTy.bits .f32 = 32 ∨ (Rect.block (s := S4096x512) S1024x512.size (cc26_transform_1 i) (hinb26_1 i)).WholeWords (EltTy.packing .f32)
  hstage26_2 : ∀ j, (stage26_2 j).IsWhole
  nbuf26_2 : grid26.bufCount reads26_2 false = 2
  hreads26_2 : ∀ i i' : grid26.Coords, (∀ a, reads26_2 a = true → i a = i' a) → cc26_transform_2 i = cc26_transform_2 i'
  hinb26_2 : ∀ (i : grid26.Coords) a, (cc26_transform_2 i a + 1) * S1024x512.size a ≤ S4096x512.size a
  hwx26_2 : ∀ i : grid26.Coords, EltTy.bits .f32 = 32 ∨ (Rect.block (s := S4096x512) S1024x512.size (cc26_transform_2 i) (hinb26_2 i)).WholeWords (EltTy.packing .f32)

class K27.Facts₀ : Prop where
  hrank27 : 0 < grid27.rank
  hstage27_0 : ∀ j, (stage27_0 j).IsWhole
  nbuf27_0 : grid27.bufCount reads27_0 false = 2
  hreads27_0 : ∀ i i' : grid27.Coords, (∀ a, reads27_0 a = true → i a = i' a) → cc27_transform_0 i = cc27_transform_0 i'
  hinb27_0 : ∀ (i : grid27.Coords) a, (cc27_transform_0 i a + 1) * S1024x512.size a ≤ S4096x512.size a
  hwx27_0 : ∀ i : grid27.Coords, EltTy.bits .f32 = 32 ∨ (Rect.block (s := S4096x512) S1024x512.size (cc27_transform_0 i) (hinb27_0 i)).WholeWords (EltTy.packing .f32)
  hstage27_1 : ∀ j, (stage27_1 j).IsWhole
  nbuf27_1 : grid27.bufCount reads27_1 false = 1
  hreads27_1 : ∀ i i' : grid27.Coords, (∀ a, reads27_1 a = true → i a = i' a) → cc27_transform_1 i = cc27_transform_1 i'
  hinb27_1 : ∀ (i : grid27.Coords) a, (cc27_transform_1 i a + 1) * S512x512.size a ≤ S512x512.size a
  hwx27_1 : ∀ i : grid27.Coords, EltTy.bits .bf16 = 32 ∨ (Rect.block (s := S512x512) S512x512.size (cc27_transform_1 i) (hinb27_1 i)).WholeWords (EltTy.packing .bf16)
  hstage27_2 : ∀ j, (stage27_2 j).IsWhole
  nbuf27_2 : grid27.bufCount reads27_2 false = 2
  hreads27_2 : ∀ i i' : grid27.Coords, (∀ a, reads27_2 a = true → i a = i' a) → cc27_transform_2 i = cc27_transform_2 i'
  hinb27_2 : ∀ (i : grid27.Coords) a, (cc27_transform_2 i a + 1) * S1024x512.size a ≤ S4096x512.size a
  hwx27_2 : ∀ i : grid27.Coords, EltTy.bits .f32 = 32 ∨ (Rect.block (s := S4096x512) S1024x512.size (cc27_transform_2 i) (hinb27_2 i)).WholeWords (EltTy.packing .f32)

class K28.Facts₀ : Prop where
  hrank28 : 0 < grid28.rank
  hstage28_0 : ∀ j, (stage28_0 j).IsWhole
  nbuf28_0 : grid28.bufCount reads28_0 false = 2
  hreads28_0 : ∀ i i' : grid28.Coords, (∀ a, reads28_0 a = true → i a = i' a) → cc28_transform_0 i = cc28_transform_0 i'
  hinb28_0 : ∀ (i : grid28.Coords) a, (cc28_transform_0 i a + 1) * S1024x1024.size a ≤ S4096x4096.size a
  hwx28_0 : ∀ i : grid28.Coords, EltTy.bits .bf16 = 32 ∨ (Rect.block (s := S4096x4096) S1024x1024.size (cc28_transform_0 i) (hinb28_0 i)).WholeWords (EltTy.packing .bf16)
  hstage28_1 : ∀ j, (stage28_1 j).IsWhole
  nbuf28_1 : grid28.bufCount reads28_1 false = 2
  hreads28_1 : ∀ i i' : grid28.Coords, (∀ a, reads28_1 a = true → i a = i' a) → cc28_transform_1 i = cc28_transform_1 i'
  hinb28_1 : ∀ (i : grid28.Coords) a, (cc28_transform_1 i a + 1) * S1024x512.size a ≤ S4096x512.size a
  hwx28_1 : ∀ i : grid28.Coords, EltTy.bits .f32 = 32 ∨ (Rect.block (s := S4096x512) S1024x512.size (cc28_transform_1 i) (hinb28_1 i)).WholeWords (EltTy.packing .f32)
  hstage28_2 : ∀ j, (stage28_2 j).IsWhole
  nbuf28_2 : grid28.bufCount reads28_2 false = 2
  hreads28_2 : ∀ i i' : grid28.Coords, (∀ a, reads28_2 a = true → i a = i' a) → cc28_transform_2 i = cc28_transform_2 i'
  hinb28_2 : ∀ (i : grid28.Coords) a, (cc28_transform_2 i a + 1) * S1024x512.size a ≤ S4096x512.size a
  hwx28_2 : ∀ i : grid28.Coords, EltTy.bits .f32 = 32 ∨ (Rect.block (s := S4096x512) S1024x512.size (cc28_transform_2 i) (hinb28_2 i)).WholeWords (EltTy.packing .f32)

class K29.Facts₀ : Prop where
  hrank29 : 0 < grid29.rank
  hstage29_0 : ∀ j, (stage29_0 j).IsWhole
  nbuf29_0 : grid29.bufCount reads29_0 false = 2
  hreads29_0 : ∀ i i' : grid29.Coords, (∀ a, reads29_0 a = true → i a = i' a) → cc29_transform_0 i = cc29_transform_0 i'
  hinb29_0 : ∀ (i : grid29.Coords) a, (cc29_transform_0 i a + 1) * S1024x1024.size a ≤ S4096x4096.size a
  hwx29_0 : ∀ i : grid29.Coords, EltTy.bits .bf16 = 32 ∨ (Rect.block (s := S4096x4096) S1024x1024.size (cc29_transform_0 i) (hinb29_0 i)).WholeWords (EltTy.packing .bf16)
  hstage29_1 : ∀ j, (stage29_1 j).IsWhole
  nbuf29_1 : grid29.bufCount reads29_1 false = 2
  hreads29_1 : ∀ i i' : grid29.Coords, (∀ a, reads29_1 a = true → i a = i' a) → cc29_transform_1 i = cc29_transform_1 i'
  hinb29_1 : ∀ (i : grid29.Coords) a, (cc29_transform_1 i a + 1) * S1024x512.size a ≤ S4096x512.size a
  hwx29_1 : ∀ i : grid29.Coords, EltTy.bits .f32 = 32 ∨ (Rect.block (s := S4096x512) S1024x512.size (cc29_transform_1 i) (hinb29_1 i)).WholeWords (EltTy.packing .f32)
  hstage29_2 : ∀ j, (stage29_2 j).IsWhole
  nbuf29_2 : grid29.bufCount reads29_2 false = 2
  hreads29_2 : ∀ i i' : grid29.Coords, (∀ a, reads29_2 a = true → i a = i' a) → cc29_transform_2 i = cc29_transform_2 i'
  hinb29_2 : ∀ (i : grid29.Coords) a, (cc29_transform_2 i a + 1) * S1024x512.size a ≤ S4096x512.size a
  hwx29_2 : ∀ i : grid29.Coords, EltTy.bits .f32 = 32 ∨ (Rect.block (s := S4096x512) S1024x512.size (cc29_transform_2 i) (hinb29_2 i)).WholeWords (EltTy.packing .f32)

class K30.Facts₀ : Prop where
  hrank30 : 0 < grid30.rank
  hstage30_0 : ∀ j, (stage30_0 j).IsWhole
  nbuf30_0 : grid30.bufCount reads30_0 false = 2
  hreads30_0 : ∀ i i' : grid30.Coords, (∀ a, reads30_0 a = true → i a = i' a) → cc30_transform_0 i = cc30_transform_0 i'
  hinb30_0 : ∀ (i : grid30.Coords) a, (cc30_transform_0 i a + 1) * S1024x1024.size a ≤ S4096x4096.size a
  hwx30_0 : ∀ i : grid30.Coords, EltTy.bits .bf16 = 32 ∨ (Rect.block (s := S4096x4096) S1024x1024.size (cc30_transform_0 i) (hinb30_0 i)).WholeWords (EltTy.packing .bf16)
  hstage30_1 : ∀ j, (stage30_1 j).IsWhole
  nbuf30_1 : grid30.bufCount reads30_1 false = 2
  hreads30_1 : ∀ i i' : grid30.Coords, (∀ a, reads30_1 a = true → i a = i' a) → cc30_transform_1 i = cc30_transform_1 i'
  hinb30_1 : ∀ (i : grid30.Coords) a, (cc30_transform_1 i a + 1) * S1024x512.size a ≤ S4096x512.size a
  hwx30_1 : ∀ i : grid30.Coords, EltTy.bits .f32 = 32 ∨ (Rect.block (s := S4096x512) S1024x512.size (cc30_transform_1 i) (hinb30_1 i)).WholeWords (EltTy.packing .f32)
  hstage30_2 : ∀ j, (stage30_2 j).IsWhole
  nbuf30_2 : grid30.bufCount reads30_2 false = 2
  hreads30_2 : ∀ i i' : grid30.Coords, (∀ a, reads30_2 a = true → i a = i' a) → cc30_transform_2 i = cc30_transform_2 i'
  hinb30_2 : ∀ (i : grid30.Coords) a, (cc30_transform_2 i a + 1) * S1024x512.size a ≤ S4096x512.size a
  hwx30_2 : ∀ i : grid30.Coords, EltTy.bits .f32 = 32 ∨ (Rect.block (s := S4096x512) S1024x512.size (cc30_transform_2 i) (hinb30_2 i)).WholeWords (EltTy.packing .f32)

class K31.Facts₀ : Prop where
  hrank31 : 0 < grid31.rank
  hstage31_0 : ∀ j, (stage31_0 j).IsWhole
  nbuf31_0 : grid31.bufCount reads31_0 false = 2
  hreads31_0 : ∀ i i' : grid31.Coords, (∀ a, reads31_0 a = true → i a = i' a) → cc31_transform_0 i = cc31_transform_0 i'
  hinb31_0 : ∀ (i : grid31.Coords) a, (cc31_transform_0 i a + 1) * S1024x512.size a ≤ S4096x512.size a
  hwx31_0 : ∀ i : grid31.Coords, EltTy.bits .f32 = 32 ∨ (Rect.block (s := S4096x512) S1024x512.size (cc31_transform_0 i) (hinb31_0 i)).WholeWords (EltTy.packing .f32)
  hstage31_1 : ∀ j, (stage31_1 j).IsWhole
  nbuf31_1 : grid31.bufCount reads31_1 false = 1
  hreads31_1 : ∀ i i' : grid31.Coords, (∀ a, reads31_1 a = true → i a = i' a) → cc31_transform_1 i = cc31_transform_1 i'
  hinb31_1 : ∀ (i : grid31.Coords) a, (cc31_transform_1 i a + 1) * S512x512.size a ≤ S512x512.size a
  hwx31_1 : ∀ i : grid31.Coords, EltTy.bits .bf16 = 32 ∨ (Rect.block (s := S512x512) S512x512.size (cc31_transform_1 i) (hinb31_1 i)).WholeWords (EltTy.packing .bf16)
  hstage31_2 : ∀ j, (stage31_2 j).IsWhole
  nbuf31_2 : grid31.bufCount reads31_2 false = 2
  hreads31_2 : ∀ i i' : grid31.Coords, (∀ a, reads31_2 a = true → i a = i' a) → cc31_transform_2 i = cc31_transform_2 i'
  hinb31_2 : ∀ (i : grid31.Coords) a, (cc31_transform_2 i a + 1) * S1024x512.size a ≤ S4096x512.size a
  hwx31_2 : ∀ i : grid31.Coords, EltTy.bits .f32 = 32 ∨ (Rect.block (s := S4096x512) S1024x512.size (cc31_transform_2 i) (hinb31_2 i)).WholeWords (EltTy.packing .f32)

class K32.Facts₀ : Prop where
  hrank32 : 0 < grid32.rank
  hstage32_0 : ∀ j, (stage32_0 j).IsWhole
  nbuf32_0 : grid32.bufCount reads32_0 false = 2
  hreads32_0 : ∀ i i' : grid32.Coords, (∀ a, reads32_0 a = true → i a = i' a) → cc32_transform_0 i = cc32_transform_0 i'
  hinb32_0 : ∀ (i : grid32.Coords) a, (cc32_transform_0 i a + 1) * S1024x1024.size a ≤ S4096x4096.size a
  hwx32_0 : ∀ i : grid32.Coords, EltTy.bits .bf16 = 32 ∨ (Rect.block (s := S4096x4096) S1024x1024.size (cc32_transform_0 i) (hinb32_0 i)).WholeWords (EltTy.packing .bf16)
  hstage32_1 : ∀ j, (stage32_1 j).IsWhole
  nbuf32_1 : grid32.bufCount reads32_1 false = 2
  hreads32_1 : ∀ i i' : grid32.Coords, (∀ a, reads32_1 a = true → i a = i' a) → cc32_transform_1 i = cc32_transform_1 i'
  hinb32_1 : ∀ (i : grid32.Coords) a, (cc32_transform_1 i a + 1) * S1024x512.size a ≤ S4096x512.size a
  hwx32_1 : ∀ i : grid32.Coords, EltTy.bits .f32 = 32 ∨ (Rect.block (s := S4096x512) S1024x512.size (cc32_transform_1 i) (hinb32_1 i)).WholeWords (EltTy.packing .f32)
  hstage32_2 : ∀ j, (stage32_2 j).IsWhole
  nbuf32_2 : grid32.bufCount reads32_2 false = 2
  hreads32_2 : ∀ i i' : grid32.Coords, (∀ a, reads32_2 a = true → i a = i' a) → cc32_transform_2 i = cc32_transform_2 i'
  hinb32_2 : ∀ (i : grid32.Coords) a, (cc32_transform_2 i a + 1) * S1024x512.size a ≤ S4096x512.size a
  hwx32_2 : ∀ i : grid32.Coords, EltTy.bits .f32 = 32 ∨ (Rect.block (s := S4096x512) S1024x512.size (cc32_transform_2 i) (hinb32_2 i)).WholeWords (EltTy.packing .f32)

class K33.Facts₀ : Prop where
  hrank33 : 0 < grid33.rank
  hstage33_0 : ∀ j, (stage33_0 j).IsWhole
  nbuf33_0 : grid33.bufCount reads33_0 false = 2
  hreads33_0 : ∀ i i' : grid33.Coords, (∀ a, reads33_0 a = true → i a = i' a) → cc33_transform_0 i = cc33_transform_0 i'
  hinb33_0 : ∀ (i : grid33.Coords) a, (cc33_transform_0 i a + 1) * S1024x1024.size a ≤ S4096x4096.size a
  hwx33_0 : ∀ i : grid33.Coords, EltTy.bits .bf16 = 32 ∨ (Rect.block (s := S4096x4096) S1024x1024.size (cc33_transform_0 i) (hinb33_0 i)).WholeWords (EltTy.packing .bf16)
  hstage33_1 : ∀ j, (stage33_1 j).IsWhole
  nbuf33_1 : grid33.bufCount reads33_1 false = 2
  hreads33_1 : ∀ i i' : grid33.Coords, (∀ a, reads33_1 a = true → i a = i' a) → cc33_transform_1 i = cc33_transform_1 i'
  hinb33_1 : ∀ (i : grid33.Coords) a, (cc33_transform_1 i a + 1) * S1024x512.size a ≤ S4096x512.size a
  hwx33_1 : ∀ i : grid33.Coords, EltTy.bits .f32 = 32 ∨ (Rect.block (s := S4096x512) S1024x512.size (cc33_transform_1 i) (hinb33_1 i)).WholeWords (EltTy.packing .f32)
  hstage33_2 : ∀ j, (stage33_2 j).IsWhole
  nbuf33_2 : grid33.bufCount reads33_2 false = 2
  hreads33_2 : ∀ i i' : grid33.Coords, (∀ a, reads33_2 a = true → i a = i' a) → cc33_transform_2 i = cc33_transform_2 i'
  hinb33_2 : ∀ (i : grid33.Coords) a, (cc33_transform_2 i a + 1) * S1024x512.size a ≤ S4096x512.size a
  hwx33_2 : ∀ i : grid33.Coords, EltTy.bits .f32 = 32 ∨ (Rect.block (s := S4096x512) S1024x512.size (cc33_transform_2 i) (hinb33_2 i)).WholeWords (EltTy.packing .f32)

class K34.Facts₀ : Prop where
  hrank34 : 0 < grid34.rank
  hstage34_0 : ∀ j, (stage34_0 j).IsWhole
  nbuf34_0 : grid34.bufCount reads34_0 false = 2
  hreads34_0 : ∀ i i' : grid34.Coords, (∀ a, reads34_0 a = true → i a = i' a) → cc34_transform_0 i = cc34_transform_0 i'
  hinb34_0 : ∀ (i : grid34.Coords) a, (cc34_transform_0 i a + 1) * S1024x512.size a ≤ S4096x512.size a
  hwx34_0 : ∀ i : grid34.Coords, EltTy.bits .f32 = 32 ∨ (Rect.block (s := S4096x512) S1024x512.size (cc34_transform_0 i) (hinb34_0 i)).WholeWords (EltTy.packing .f32)
  hstage34_1 : ∀ j, (stage34_1 j).IsWhole
  nbuf34_1 : grid34.bufCount reads34_1 false = 1
  hreads34_1 : ∀ i i' : grid34.Coords, (∀ a, reads34_1 a = true → i a = i' a) → cc34_transform_1 i = cc34_transform_1 i'
  hinb34_1 : ∀ (i : grid34.Coords) a, (cc34_transform_1 i a + 1) * S512x512.size a ≤ S512x512.size a
  hwx34_1 : ∀ i : grid34.Coords, EltTy.bits .bf16 = 32 ∨ (Rect.block (s := S512x512) S512x512.size (cc34_transform_1 i) (hinb34_1 i)).WholeWords (EltTy.packing .bf16)
  hstage34_2 : ∀ j, (stage34_2 j).IsWhole
  nbuf34_2 : grid34.bufCount reads34_2 false = 2
  hreads34_2 : ∀ i i' : grid34.Coords, (∀ a, reads34_2 a = true → i a = i' a) → cc34_transform_2 i = cc34_transform_2 i'
  hinb34_2 : ∀ (i : grid34.Coords) a, (cc34_transform_2 i a + 1) * S1024x512.size a ≤ S4096x512.size a
  hwx34_2 : ∀ i : grid34.Coords, EltTy.bits .f32 = 32 ∨ (Rect.block (s := S4096x512) S1024x512.size (cc34_transform_2 i) (hinb34_2 i)).WholeWords (EltTy.packing .f32)

class K35.Facts₀ : Prop where
  hrank35 : 0 < grid35.rank
  hstage35_0 : ∀ j, (stage35_0 j).IsWhole
  nbuf35_0 : grid35.bufCount reads35_0 false = 2
  hreads35_0 : ∀ i i' : grid35.Coords, (∀ a, reads35_0 a = true → i a = i' a) → cc35_transform_0 i = cc35_transform_0 i'
  hinb35_0 : ∀ (i : grid35.Coords) a, (cc35_transform_0 i a + 1) * S1024x1024.size a ≤ S4096x4096.size a
  hwx35_0 : ∀ i : grid35.Coords, EltTy.bits .bf16 = 32 ∨ (Rect.block (s := S4096x4096) S1024x1024.size (cc35_transform_0 i) (hinb35_0 i)).WholeWords (EltTy.packing .bf16)
  hstage35_1 : ∀ j, (stage35_1 j).IsWhole
  nbuf35_1 : grid35.bufCount reads35_1 false = 2
  hreads35_1 : ∀ i i' : grid35.Coords, (∀ a, reads35_1 a = true → i a = i' a) → cc35_transform_1 i = cc35_transform_1 i'
  hinb35_1 : ∀ (i : grid35.Coords) a, (cc35_transform_1 i a + 1) * S1024x512.size a ≤ S4096x512.size a
  hwx35_1 : ∀ i : grid35.Coords, EltTy.bits .f32 = 32 ∨ (Rect.block (s := S4096x512) S1024x512.size (cc35_transform_1 i) (hinb35_1 i)).WholeWords (EltTy.packing .f32)
  hstage35_2 : ∀ j, (stage35_2 j).IsWhole
  nbuf35_2 : grid35.bufCount reads35_2 false = 2
  hreads35_2 : ∀ i i' : grid35.Coords, (∀ a, reads35_2 a = true → i a = i' a) → cc35_transform_2 i = cc35_transform_2 i'
  hinb35_2 : ∀ (i : grid35.Coords) a, (cc35_transform_2 i a + 1) * S1024x512.size a ≤ S4096x512.size a
  hwx35_2 : ∀ i : grid35.Coords, EltTy.bits .f32 = 32 ∨ (Rect.block (s := S4096x512) S1024x512.size (cc35_transform_2 i) (hinb35_2 i)).WholeWords (EltTy.packing .f32)

class K36.Facts₀ : Prop where
  hrank36 : 0 < grid36.rank
  hstage36_0 : ∀ j, (stage36_0 j).IsWhole
  nbuf36_0 : grid36.bufCount reads36_0 false = 2
  hreads36_0 : ∀ i i' : grid36.Coords, (∀ a, reads36_0 a = true → i a = i' a) → cc36_transform_0 i = cc36_transform_0 i'
  hinb36_0 : ∀ (i : grid36.Coords) a, (cc36_transform_0 i a + 1) * S1024x1024.size a ≤ S4096x4096.size a
  hwx36_0 : ∀ i : grid36.Coords, EltTy.bits .bf16 = 32 ∨ (Rect.block (s := S4096x4096) S1024x1024.size (cc36_transform_0 i) (hinb36_0 i)).WholeWords (EltTy.packing .bf16)
  hstage36_1 : ∀ j, (stage36_1 j).IsWhole
  nbuf36_1 : grid36.bufCount reads36_1 false = 2
  hreads36_1 : ∀ i i' : grid36.Coords, (∀ a, reads36_1 a = true → i a = i' a) → cc36_transform_1 i = cc36_transform_1 i'
  hinb36_1 : ∀ (i : grid36.Coords) a, (cc36_transform_1 i a + 1) * S1024x512.size a ≤ S4096x512.size a
  hwx36_1 : ∀ i : grid36.Coords, EltTy.bits .f32 = 32 ∨ (Rect.block (s := S4096x512) S1024x512.size (cc36_transform_1 i) (hinb36_1 i)).WholeWords (EltTy.packing .f32)
  hstage36_2 : ∀ j, (stage36_2 j).IsWhole
  nbuf36_2 : grid36.bufCount reads36_2 false = 2
  hreads36_2 : ∀ i i' : grid36.Coords, (∀ a, reads36_2 a = true → i a = i' a) → cc36_transform_2 i = cc36_transform_2 i'
  hinb36_2 : ∀ (i : grid36.Coords) a, (cc36_transform_2 i a + 1) * S1024x512.size a ≤ S4096x512.size a
  hwx36_2 : ∀ i : grid36.Coords, EltTy.bits .f32 = 32 ∨ (Rect.block (s := S4096x512) S1024x512.size (cc36_transform_2 i) (hinb36_2 i)).WholeWords (EltTy.packing .f32)

class K37.Facts₀ : Prop where
  hrank37 : 0 < grid37.rank
  hstage37_0 : ∀ j, (stage37_0 j).IsWhole
  nbuf37_0 : grid37.bufCount reads37_0 false = 2
  hreads37_0 : ∀ i i' : grid37.Coords, (∀ a, reads37_0 a = true → i a = i' a) → cc37_transform_0 i = cc37_transform_0 i'
  hinb37_0 : ∀ (i : grid37.Coords) a, (cc37_transform_0 i a + 1) * S1024x1024.size a ≤ S4096x4096.size a
  hwx37_0 : ∀ i : grid37.Coords, EltTy.bits .bf16 = 32 ∨ (Rect.block (s := S4096x4096) S1024x1024.size (cc37_transform_0 i) (hinb37_0 i)).WholeWords (EltTy.packing .bf16)
  hstage37_1 : ∀ j, (stage37_1 j).IsWhole
  nbuf37_1 : grid37.bufCount reads37_1 false = 2
  hreads37_1 : ∀ i i' : grid37.Coords, (∀ a, reads37_1 a = true → i a = i' a) → cc37_transform_1 i = cc37_transform_1 i'
  hinb37_1 : ∀ (i : grid37.Coords) a, (cc37_transform_1 i a + 1) * S1024x512.size a ≤ S4096x512.size a
  hwx37_1 : ∀ i : grid37.Coords, EltTy.bits .f32 = 32 ∨ (Rect.block (s := S4096x512) S1024x512.size (cc37_transform_1 i) (hinb37_1 i)).WholeWords (EltTy.packing .f32)
  hstage37_2 : ∀ j, (stage37_2 j).IsWhole
  nbuf37_2 : grid37.bufCount reads37_2 false = 2
  hreads37_2 : ∀ i i' : grid37.Coords, (∀ a, reads37_2 a = true → i a = i' a) → cc37_transform_2 i = cc37_transform_2 i'
  hinb37_2 : ∀ (i : grid37.Coords) a, (cc37_transform_2 i a + 1) * S1024x512.size a ≤ S4096x512.size a
  hwx37_2 : ∀ i : grid37.Coords, EltTy.bits .f32 = 32 ∨ (Rect.block (s := S4096x512) S1024x512.size (cc37_transform_2 i) (hinb37_2 i)).WholeWords (EltTy.packing .f32)

class K38.Facts₀ : Prop where
  hrank38 : 0 < grid38.rank
  hstage38_0 : ∀ j, (stage38_0 j).IsWhole
  nbuf38_0 : grid38.bufCount reads38_0 false = 2
  hreads38_0 : ∀ i i' : grid38.Coords, (∀ a, reads38_0 a = true → i a = i' a) → cc38_transform_0 i = cc38_transform_0 i'
  hinb38_0 : ∀ (i : grid38.Coords) a, (cc38_transform_0 i a + 1) * S1024x512.size a ≤ S4096x512.size a
  hwx38_0 : ∀ i : grid38.Coords, EltTy.bits .f32 = 32 ∨ (Rect.block (s := S4096x512) S1024x512.size (cc38_transform_0 i) (hinb38_0 i)).WholeWords (EltTy.packing .f32)
  hstage38_1 : ∀ j, (stage38_1 j).IsWhole
  nbuf38_1 : grid38.bufCount reads38_1 false = 1
  hreads38_1 : ∀ i i' : grid38.Coords, (∀ a, reads38_1 a = true → i a = i' a) → cc38_transform_1 i = cc38_transform_1 i'
  hinb38_1 : ∀ (i : grid38.Coords) a, (cc38_transform_1 i a + 1) * S512x512.size a ≤ S512x512.size a
  hwx38_1 : ∀ i : grid38.Coords, EltTy.bits .bf16 = 32 ∨ (Rect.block (s := S512x512) S512x512.size (cc38_transform_1 i) (hinb38_1 i)).WholeWords (EltTy.packing .bf16)
  hstage38_2 : ∀ j, (stage38_2 j).IsWhole
  nbuf38_2 : grid38.bufCount reads38_2 false = 2
  hreads38_2 : ∀ i i' : grid38.Coords, (∀ a, reads38_2 a = true → i a = i' a) → cc38_transform_2 i = cc38_transform_2 i'
  hinb38_2 : ∀ (i : grid38.Coords) a, (cc38_transform_2 i a + 1) * S1024x512.size a ≤ S4096x512.size a
  hwx38_2 : ∀ i : grid38.Coords, EltTy.bits .f32 = 32 ∨ (Rect.block (s := S4096x512) S1024x512.size (cc38_transform_2 i) (hinb38_2 i)).WholeWords (EltTy.packing .f32)

class K39.Facts₀ : Prop where
  hrank39 : 0 < grid39.rank
  hstage39_0 : ∀ j, (stage39_0 j).IsWhole
  nbuf39_0 : grid39.bufCount reads39_0 false = 2
  hreads39_0 : ∀ i i' : grid39.Coords, (∀ a, reads39_0 a = true → i a = i' a) → cc39_transform_0 i = cc39_transform_0 i'
  hinb39_0 : ∀ (i : grid39.Coords) a, (cc39_transform_0 i a + 1) * S1024x1024.size a ≤ S4096x4096.size a
  hwx39_0 : ∀ i : grid39.Coords, EltTy.bits .bf16 = 32 ∨ (Rect.block (s := S4096x4096) S1024x1024.size (cc39_transform_0 i) (hinb39_0 i)).WholeWords (EltTy.packing .bf16)
  hstage39_1 : ∀ j, (stage39_1 j).IsWhole
  nbuf39_1 : grid39.bufCount reads39_1 false = 2
  hreads39_1 : ∀ i i' : grid39.Coords, (∀ a, reads39_1 a = true → i a = i' a) → cc39_transform_1 i = cc39_transform_1 i'
  hinb39_1 : ∀ (i : grid39.Coords) a, (cc39_transform_1 i a + 1) * S1024x512.size a ≤ S4096x512.size a
  hwx39_1 : ∀ i : grid39.Coords, EltTy.bits .f32 = 32 ∨ (Rect.block (s := S4096x512) S1024x512.size (cc39_transform_1 i) (hinb39_1 i)).WholeWords (EltTy.packing .f32)
  hstage39_2 : ∀ j, (stage39_2 j).IsWhole
  nbuf39_2 : grid39.bufCount reads39_2 false = 2
  hreads39_2 : ∀ i i' : grid39.Coords, (∀ a, reads39_2 a = true → i a = i' a) → cc39_transform_2 i = cc39_transform_2 i'
  hinb39_2 : ∀ (i : grid39.Coords) a, (cc39_transform_2 i a + 1) * S1024x512.size a ≤ S4096x512.size a
  hwx39_2 : ∀ i : grid39.Coords, EltTy.bits .f32 = 32 ∨ (Rect.block (s := S4096x512) S1024x512.size (cc39_transform_2 i) (hinb39_2 i)).WholeWords (EltTy.packing .f32)

class K40.Facts₀ : Prop where
  hrank40 : 0 < grid40.rank
  hstage40_0 : ∀ j, (stage40_0 j).IsWhole
  nbuf40_0 : grid40.bufCount reads40_0 false = 2
  hreads40_0 : ∀ i i' : grid40.Coords, (∀ a, reads40_0 a = true → i a = i' a) → cc40_transform_0 i = cc40_transform_0 i'
  hinb40_0 : ∀ (i : grid40.Coords) a, (cc40_transform_0 i a + 1) * S1024x1024.size a ≤ S4096x4096.size a
  hwx40_0 : ∀ i : grid40.Coords, EltTy.bits .bf16 = 32 ∨ (Rect.block (s := S4096x4096) S1024x1024.size (cc40_transform_0 i) (hinb40_0 i)).WholeWords (EltTy.packing .bf16)
  hstage40_1 : ∀ j, (stage40_1 j).IsWhole
  nbuf40_1 : grid40.bufCount reads40_1 false = 2
  hreads40_1 : ∀ i i' : grid40.Coords, (∀ a, reads40_1 a = true → i a = i' a) → cc40_transform_1 i = cc40_transform_1 i'
  hinb40_1 : ∀ (i : grid40.Coords) a, (cc40_transform_1 i a + 1) * S1024x512.size a ≤ S4096x512.size a
  hwx40_1 : ∀ i : grid40.Coords, EltTy.bits .f32 = 32 ∨ (Rect.block (s := S4096x512) S1024x512.size (cc40_transform_1 i) (hinb40_1 i)).WholeWords (EltTy.packing .f32)
  hstage40_2 : ∀ j, (stage40_2 j).IsWhole
  nbuf40_2 : grid40.bufCount reads40_2 false = 2
  hreads40_2 : ∀ i i' : grid40.Coords, (∀ a, reads40_2 a = true → i a = i' a) → cc40_transform_2 i = cc40_transform_2 i'
  hinb40_2 : ∀ (i : grid40.Coords) a, (cc40_transform_2 i a + 1) * S1024x512.size a ≤ S4096x512.size a
  hwx40_2 : ∀ i : grid40.Coords, EltTy.bits .f32 = 32 ∨ (Rect.block (s := S4096x512) S1024x512.size (cc40_transform_2 i) (hinb40_2 i)).WholeWords (EltTy.packing .f32)

class K41.Facts₀ : Prop where
  hrank41 : 0 < grid41.rank
  hstage41_0 : ∀ j, (stage41_0 j).IsWhole
  nbuf41_0 : grid41.bufCount reads41_0 false = 2
  hreads41_0 : ∀ i i' : grid41.Coords, (∀ a, reads41_0 a = true → i a = i' a) → cc41_transform_0 i = cc41_transform_0 i'
  hinb41_0 : ∀ (i : grid41.Coords) a, (cc41_transform_0 i a + 1) * S1024x512.size a ≤ S4096x512.size a
  hwx41_0 : ∀ i : grid41.Coords, EltTy.bits .f32 = 32 ∨ (Rect.block (s := S4096x512) S1024x512.size (cc41_transform_0 i) (hinb41_0 i)).WholeWords (EltTy.packing .f32)
  hstage41_1 : ∀ j, (stage41_1 j).IsWhole
  nbuf41_1 : grid41.bufCount reads41_1 false = 1
  hreads41_1 : ∀ i i' : grid41.Coords, (∀ a, reads41_1 a = true → i a = i' a) → cc41_transform_1 i = cc41_transform_1 i'
  hinb41_1 : ∀ (i : grid41.Coords) a, (cc41_transform_1 i a + 1) * S512x512.size a ≤ S512x512.size a
  hwx41_1 : ∀ i : grid41.Coords, EltTy.bits .bf16 = 32 ∨ (Rect.block (s := S512x512) S512x512.size (cc41_transform_1 i) (hinb41_1 i)).WholeWords (EltTy.packing .bf16)
  hstage41_2 : ∀ j, (stage41_2 j).IsWhole
  nbuf41_2 : grid41.bufCount reads41_2 false = 2
  hreads41_2 : ∀ i i' : grid41.Coords, (∀ a, reads41_2 a = true → i a = i' a) → cc41_transform_2 i = cc41_transform_2 i'
  hinb41_2 : ∀ (i : grid41.Coords) a, (cc41_transform_2 i a + 1) * S1024x512.size a ≤ S4096x512.size a
  hwx41_2 : ∀ i : grid41.Coords, EltTy.bits .f32 = 32 ∨ (Rect.block (s := S4096x512) S1024x512.size (cc41_transform_2 i) (hinb41_2 i)).WholeWords (EltTy.packing .f32)

class K42.Facts₀ : Prop where
  hrank42 : 0 < grid42.rank
  hstage42_0 : ∀ j, (stage42_0 j).IsWhole
  nbuf42_0 : grid42.bufCount reads42_0 false = 2
  hreads42_0 : ∀ i i' : grid42.Coords, (∀ a, reads42_0 a = true → i a = i' a) → cc42_transform_0 i = cc42_transform_0 i'
  hinb42_0 : ∀ (i : grid42.Coords) a, (cc42_transform_0 i a + 1) * S1024x1024.size a ≤ S4096x4096.size a
  hwx42_0 : ∀ i : grid42.Coords, EltTy.bits .bf16 = 32 ∨ (Rect.block (s := S4096x4096) S1024x1024.size (cc42_transform_0 i) (hinb42_0 i)).WholeWords (EltTy.packing .bf16)
  hstage42_1 : ∀ j, (stage42_1 j).IsWhole
  nbuf42_1 : grid42.bufCount reads42_1 false = 2
  hreads42_1 : ∀ i i' : grid42.Coords, (∀ a, reads42_1 a = true → i a = i' a) → cc42_transform_1 i = cc42_transform_1 i'
  hinb42_1 : ∀ (i : grid42.Coords) a, (cc42_transform_1 i a + 1) * S1024x512.size a ≤ S4096x512.size a
  hwx42_1 : ∀ i : grid42.Coords, EltTy.bits .f32 = 32 ∨ (Rect.block (s := S4096x512) S1024x512.size (cc42_transform_1 i) (hinb42_1 i)).WholeWords (EltTy.packing .f32)
  hstage42_2 : ∀ j, (stage42_2 j).IsWhole
  nbuf42_2 : grid42.bufCount reads42_2 false = 2
  hreads42_2 : ∀ i i' : grid42.Coords, (∀ a, reads42_2 a = true → i a = i' a) → cc42_transform_2 i = cc42_transform_2 i'
  hinb42_2 : ∀ (i : grid42.Coords) a, (cc42_transform_2 i a + 1) * S1024x512.size a ≤ S4096x512.size a
  hwx42_2 : ∀ i : grid42.Coords, EltTy.bits .f32 = 32 ∨ (Rect.block (s := S4096x512) S1024x512.size (cc42_transform_2 i) (hinb42_2 i)).WholeWords (EltTy.packing .f32)

class K43.Facts₀ : Prop where
  hrank43 : 0 < grid43.rank
  hstage43_0 : ∀ j, (stage43_0 j).IsWhole
  nbuf43_0 : grid43.bufCount reads43_0 false = 2
  hreads43_0 : ∀ i i' : grid43.Coords, (∀ a, reads43_0 a = true → i a = i' a) → cc43_transform_0 i = cc43_transform_0 i'
  hinb43_0 : ∀ (i : grid43.Coords) a, (cc43_transform_0 i a + 1) * S1024x1024.size a ≤ S4096x4096.size a
  hwx43_0 : ∀ i : grid43.Coords, EltTy.bits .bf16 = 32 ∨ (Rect.block (s := S4096x4096) S1024x1024.size (cc43_transform_0 i) (hinb43_0 i)).WholeWords (EltTy.packing .bf16)
  hstage43_1 : ∀ j, (stage43_1 j).IsWhole
  nbuf43_1 : grid43.bufCount reads43_1 false = 2
  hreads43_1 : ∀ i i' : grid43.Coords, (∀ a, reads43_1 a = true → i a = i' a) → cc43_transform_1 i = cc43_transform_1 i'
  hinb43_1 : ∀ (i : grid43.Coords) a, (cc43_transform_1 i a + 1) * S1024x512.size a ≤ S4096x512.size a
  hwx43_1 : ∀ i : grid43.Coords, EltTy.bits .f32 = 32 ∨ (Rect.block (s := S4096x512) S1024x512.size (cc43_transform_1 i) (hinb43_1 i)).WholeWords (EltTy.packing .f32)
  hstage43_2 : ∀ j, (stage43_2 j).IsWhole
  nbuf43_2 : grid43.bufCount reads43_2 false = 2
  hreads43_2 : ∀ i i' : grid43.Coords, (∀ a, reads43_2 a = true → i a = i' a) → cc43_transform_2 i = cc43_transform_2 i'
  hinb43_2 : ∀ (i : grid43.Coords) a, (cc43_transform_2 i a + 1) * S1024x512.size a ≤ S4096x512.size a
  hwx43_2 : ∀ i : grid43.Coords, EltTy.bits .f32 = 32 ∨ (Rect.block (s := S4096x512) S1024x512.size (cc43_transform_2 i) (hinb43_2 i)).WholeWords (EltTy.packing .f32)

class K44.Facts₀ : Prop where
  hrank44 : 0 < grid44.rank
  hstage44_0 : ∀ j, (stage44_0 j).IsWhole
  nbuf44_0 : grid44.bufCount reads44_0 false = 2
  hreads44_0 : ∀ i i' : grid44.Coords, (∀ a, reads44_0 a = true → i a = i' a) → cc44_transform_0 i = cc44_transform_0 i'
  hinb44_0 : ∀ (i : grid44.Coords) a, (cc44_transform_0 i a + 1) * S1024x1024.size a ≤ S4096x4096.size a
  hwx44_0 : ∀ i : grid44.Coords, EltTy.bits .bf16 = 32 ∨ (Rect.block (s := S4096x4096) S1024x1024.size (cc44_transform_0 i) (hinb44_0 i)).WholeWords (EltTy.packing .bf16)
  hstage44_1 : ∀ j, (stage44_1 j).IsWhole
  nbuf44_1 : grid44.bufCount reads44_1 false = 2
  hreads44_1 : ∀ i i' : grid44.Coords, (∀ a, reads44_1 a = true → i a = i' a) → cc44_transform_1 i = cc44_transform_1 i'
  hinb44_1 : ∀ (i : grid44.Coords) a, (cc44_transform_1 i a + 1) * S1024x512.size a ≤ S4096x512.size a
  hwx44_1 : ∀ i : grid44.Coords, EltTy.bits .f32 = 32 ∨ (Rect.block (s := S4096x512) S1024x512.size (cc44_transform_1 i) (hinb44_1 i)).WholeWords (EltTy.packing .f32)
  hstage44_2 : ∀ j, (stage44_2 j).IsWhole
  nbuf44_2 : grid44.bufCount reads44_2 false = 2
  hreads44_2 : ∀ i i' : grid44.Coords, (∀ a, reads44_2 a = true → i a = i' a) → cc44_transform_2 i = cc44_transform_2 i'
  hinb44_2 : ∀ (i : grid44.Coords) a, (cc44_transform_2 i a + 1) * S1024x512.size a ≤ S4096x512.size a
  hwx44_2 : ∀ i : grid44.Coords, EltTy.bits .f32 = 32 ∨ (Rect.block (s := S4096x512) S1024x512.size (cc44_transform_2 i) (hinb44_2 i)).WholeWords (EltTy.packing .f32)

class K45.Facts₀ : Prop where
  hrank45 : 0 < grid45.rank
  hstage45_0 : ∀ j, (stage45_0 j).IsWhole
  nbuf45_0 : grid45.bufCount reads45_0 false = 2
  hreads45_0 : ∀ i i' : grid45.Coords, (∀ a, reads45_0 a = true → i a = i' a) → cc45_transform_0 i = cc45_transform_0 i'
  hinb45_0 : ∀ (i : grid45.Coords) a, (cc45_transform_0 i a + 1) * S1024x512.size a ≤ S4096x512.size a
  hwx45_0 : ∀ i : grid45.Coords, EltTy.bits .f32 = 32 ∨ (Rect.block (s := S4096x512) S1024x512.size (cc45_transform_0 i) (hinb45_0 i)).WholeWords (EltTy.packing .f32)
  hstage45_1 : ∀ j, (stage45_1 j).IsWhole
  nbuf45_1 : grid45.bufCount reads45_1 false = 1
  hreads45_1 : ∀ i i' : grid45.Coords, (∀ a, reads45_1 a = true → i a = i' a) → cc45_transform_1 i = cc45_transform_1 i'
  hinb45_1 : ∀ (i : grid45.Coords) a, (cc45_transform_1 i a + 1) * S512x512.size a ≤ S512x512.size a
  hwx45_1 : ∀ i : grid45.Coords, EltTy.bits .bf16 = 32 ∨ (Rect.block (s := S512x512) S512x512.size (cc45_transform_1 i) (hinb45_1 i)).WholeWords (EltTy.packing .bf16)
  hstage45_2 : ∀ j, (stage45_2 j).IsWhole
  nbuf45_2 : grid45.bufCount reads45_2 false = 2
  hreads45_2 : ∀ i i' : grid45.Coords, (∀ a, reads45_2 a = true → i a = i' a) → cc45_transform_2 i = cc45_transform_2 i'
  hinb45_2 : ∀ (i : grid45.Coords) a, (cc45_transform_2 i a + 1) * S1024x512.size a ≤ S4096x512.size a
  hwx45_2 : ∀ i : grid45.Coords, EltTy.bits .f32 = 32 ∨ (Rect.block (s := S4096x512) S1024x512.size (cc45_transform_2 i) (hinb45_2 i)).WholeWords (EltTy.packing .f32)

class K46.Facts₀ : Prop where
  hrank46 : 0 < grid46.rank
  hstage46_0 : ∀ j, (stage46_0 j).IsWhole
  nbuf46_0 : grid46.bufCount reads46_0 false = 2
  hreads46_0 : ∀ i i' : grid46.Coords, (∀ a, reads46_0 a = true → i a = i' a) → cc46_transform_0 i = cc46_transform_0 i'
  hinb46_0 : ∀ (i : grid46.Coords) a, (cc46_transform_0 i a + 1) * S1024x1024.size a ≤ S4096x4096.size a
  hwx46_0 : ∀ i : grid46.Coords, EltTy.bits .bf16 = 32 ∨ (Rect.block (s := S4096x4096) S1024x1024.size (cc46_transform_0 i) (hinb46_0 i)).WholeWords (EltTy.packing .bf16)
  hstage46_1 : ∀ j, (stage46_1 j).IsWhole
  nbuf46_1 : grid46.bufCount reads46_1 false = 2
  hreads46_1 : ∀ i i' : grid46.Coords, (∀ a, reads46_1 a = true → i a = i' a) → cc46_transform_1 i = cc46_transform_1 i'
  hinb46_1 : ∀ (i : grid46.Coords) a, (cc46_transform_1 i a + 1) * S1024x512.size a ≤ S4096x512.size a
  hwx46_1 : ∀ i : grid46.Coords, EltTy.bits .f32 = 32 ∨ (Rect.block (s := S4096x512) S1024x512.size (cc46_transform_1 i) (hinb46_1 i)).WholeWords (EltTy.packing .f32)
  hstage46_2 : ∀ j, (stage46_2 j).IsWhole
  nbuf46_2 : grid46.bufCount reads46_2 false = 2
  hreads46_2 : ∀ i i' : grid46.Coords, (∀ a, reads46_2 a = true → i a = i' a) → cc46_transform_2 i = cc46_transform_2 i'
  hinb46_2 : ∀ (i : grid46.Coords) a, (cc46_transform_2 i a + 1) * S1024x512.size a ≤ S4096x512.size a
  hwx46_2 : ∀ i : grid46.Coords, EltTy.bits .f32 = 32 ∨ (Rect.block (s := S4096x512) S1024x512.size (cc46_transform_2 i) (hinb46_2 i)).WholeWords (EltTy.packing .f32)

class K47.Facts₀ : Prop where
  hrank47 : 0 < grid47.rank
  hstage47_0 : ∀ j, (stage47_0 j).IsWhole
  nbuf47_0 : grid47.bufCount reads47_0 false = 2
  hreads47_0 : ∀ i i' : grid47.Coords, (∀ a, reads47_0 a = true → i a = i' a) → cc47_transform_0 i = cc47_transform_0 i'
  hinb47_0 : ∀ (i : grid47.Coords) a, (cc47_transform_0 i a + 1) * S1024x1024.size a ≤ S4096x4096.size a
  hwx47_0 : ∀ i : grid47.Coords, EltTy.bits .bf16 = 32 ∨ (Rect.block (s := S4096x4096) S1024x1024.size (cc47_transform_0 i) (hinb47_0 i)).WholeWords (EltTy.packing .bf16)
  hstage47_1 : ∀ j, (stage47_1 j).IsWhole
  nbuf47_1 : grid47.bufCount reads47_1 false = 2
  hreads47_1 : ∀ i i' : grid47.Coords, (∀ a, reads47_1 a = true → i a = i' a) → cc47_transform_1 i = cc47_transform_1 i'
  hinb47_1 : ∀ (i : grid47.Coords) a, (cc47_transform_1 i a + 1) * S1024x512.size a ≤ S4096x512.size a
  hwx47_1 : ∀ i : grid47.Coords, EltTy.bits .f32 = 32 ∨ (Rect.block (s := S4096x512) S1024x512.size (cc47_transform_1 i) (hinb47_1 i)).WholeWords (EltTy.packing .f32)
  hstage47_2 : ∀ j, (stage47_2 j).IsWhole
  nbuf47_2 : grid47.bufCount reads47_2 false = 2
  hreads47_2 : ∀ i i' : grid47.Coords, (∀ a, reads47_2 a = true → i a = i' a) → cc47_transform_2 i = cc47_transform_2 i'
  hinb47_2 : ∀ (i : grid47.Coords) a, (cc47_transform_2 i a + 1) * S1024x512.size a ≤ S4096x512.size a
  hwx47_2 : ∀ i : grid47.Coords, EltTy.bits .f32 = 32 ∨ (Rect.block (s := S4096x512) S1024x512.size (cc47_transform_2 i) (hinb47_2 i)).WholeWords (EltTy.packing .f32)

class K48.Facts₀ : Prop where
  hrank48 : 0 < grid48.rank
  hstage48_0 : ∀ j, (stage48_0 j).IsWhole
  nbuf48_0 : grid48.bufCount reads48_0 false = 2
  hreads48_0 : ∀ i i' : grid48.Coords, (∀ a, reads48_0 a = true → i a = i' a) → cc48_transform_0 i = cc48_transform_0 i'
  hinb48_0 : ∀ (i : grid48.Coords) a, (cc48_transform_0 i a + 1) * S1024x512.size a ≤ S4096x512.size a
  hwx48_0 : ∀ i : grid48.Coords, EltTy.bits .f32 = 32 ∨ (Rect.block (s := S4096x512) S1024x512.size (cc48_transform_0 i) (hinb48_0 i)).WholeWords (EltTy.packing .f32)
  hstage48_1 : ∀ j, (stage48_1 j).IsWhole
  nbuf48_1 : grid48.bufCount reads48_1 false = 1
  hreads48_1 : ∀ i i' : grid48.Coords, (∀ a, reads48_1 a = true → i a = i' a) → cc48_transform_1 i = cc48_transform_1 i'
  hinb48_1 : ∀ (i : grid48.Coords) a, (cc48_transform_1 i a + 1) * S512x512.size a ≤ S512x512.size a
  hwx48_1 : ∀ i : grid48.Coords, EltTy.bits .bf16 = 32 ∨ (Rect.block (s := S512x512) S512x512.size (cc48_transform_1 i) (hinb48_1 i)).WholeWords (EltTy.packing .bf16)
  hstage48_2 : ∀ j, (stage48_2 j).IsWhole
  nbuf48_2 : grid48.bufCount reads48_2 false = 2
  hreads48_2 : ∀ i i' : grid48.Coords, (∀ a, reads48_2 a = true → i a = i' a) → cc48_transform_2 i = cc48_transform_2 i'
  hinb48_2 : ∀ (i : grid48.Coords) a, (cc48_transform_2 i a + 1) * S1024x512.size a ≤ S4096x512.size a
  hwx48_2 : ∀ i : grid48.Coords, EltTy.bits .f32 = 32 ∨ (Rect.block (s := S4096x512) S1024x512.size (cc48_transform_2 i) (hinb48_2 i)).WholeWords (EltTy.packing .f32)

class K49.Facts₀ : Prop where
  hrank49 : 0 < grid49.rank
  hstage49_0 : ∀ j, (stage49_0 j).IsWhole
  nbuf49_0 : grid49.bufCount reads49_0 false = 2
  hreads49_0 : ∀ i i' : grid49.Coords, (∀ a, reads49_0 a = true → i a = i' a) → cc49_transform_0 i = cc49_transform_0 i'
  hinb49_0 : ∀ (i : grid49.Coords) a, (cc49_transform_0 i a + 1) * S1024x1024.size a ≤ S4096x4096.size a
  hwx49_0 : ∀ i : grid49.Coords, EltTy.bits .bf16 = 32 ∨ (Rect.block (s := S4096x4096) S1024x1024.size (cc49_transform_0 i) (hinb49_0 i)).WholeWords (EltTy.packing .bf16)
  hstage49_1 : ∀ j, (stage49_1 j).IsWhole
  nbuf49_1 : grid49.bufCount reads49_1 false = 2
  hreads49_1 : ∀ i i' : grid49.Coords, (∀ a, reads49_1 a = true → i a = i' a) → cc49_transform_1 i = cc49_transform_1 i'
  hinb49_1 : ∀ (i : grid49.Coords) a, (cc49_transform_1 i a + 1) * S1024x512.size a ≤ S4096x512.size a
  hwx49_1 : ∀ i : grid49.Coords, EltTy.bits .f32 = 32 ∨ (Rect.block (s := S4096x512) S1024x512.size (cc49_transform_1 i) (hinb49_1 i)).WholeWords (EltTy.packing .f32)
  hstage49_2 : ∀ j, (stage49_2 j).IsWhole
  nbuf49_2 : grid49.bufCount reads49_2 false = 2
  hreads49_2 : ∀ i i' : grid49.Coords, (∀ a, reads49_2 a = true → i a = i' a) → cc49_transform_2 i = cc49_transform_2 i'
  hinb49_2 : ∀ (i : grid49.Coords) a, (cc49_transform_2 i a + 1) * S1024x512.size a ≤ S4096x512.size a
  hwx49_2 : ∀ i : grid49.Coords, EltTy.bits .f32 = 32 ∨ (Rect.block (s := S4096x512) S1024x512.size (cc49_transform_2 i) (hinb49_2 i)).WholeWords (EltTy.packing .f32)

class K50.Facts₀ : Prop where
  hrank50 : 0 < grid50.rank
  hstage50_0 : ∀ j, (stage50_0 j).IsWhole
  nbuf50_0 : grid50.bufCount reads50_0 false = 2
  hreads50_0 : ∀ i i' : grid50.Coords, (∀ a, reads50_0 a = true → i a = i' a) → cc50_transform_0 i = cc50_transform_0 i'
  hinb50_0 : ∀ (i : grid50.Coords) a, (cc50_transform_0 i a + 1) * S1024x1024.size a ≤ S4096x4096.size a
  hwx50_0 : ∀ i : grid50.Coords, EltTy.bits .bf16 = 32 ∨ (Rect.block (s := S4096x4096) S1024x1024.size (cc50_transform_0 i) (hinb50_0 i)).WholeWords (EltTy.packing .bf16)
  hstage50_1 : ∀ j, (stage50_1 j).IsWhole
  nbuf50_1 : grid50.bufCount reads50_1 false = 2
  hreads50_1 : ∀ i i' : grid50.Coords, (∀ a, reads50_1 a = true → i a = i' a) → cc50_transform_1 i = cc50_transform_1 i'
  hinb50_1 : ∀ (i : grid50.Coords) a, (cc50_transform_1 i a + 1) * S1024x512.size a ≤ S4096x512.size a
  hwx50_1 : ∀ i : grid50.Coords, EltTy.bits .f32 = 32 ∨ (Rect.block (s := S4096x512) S1024x512.size (cc50_transform_1 i) (hinb50_1 i)).WholeWords (EltTy.packing .f32)
  hstage50_2 : ∀ j, (stage50_2 j).IsWhole
  nbuf50_2 : grid50.bufCount reads50_2 false = 2
  hreads50_2 : ∀ i i' : grid50.Coords, (∀ a, reads50_2 a = true → i a = i' a) → cc50_transform_2 i = cc50_transform_2 i'
  hinb50_2 : ∀ (i : grid50.Coords) a, (cc50_transform_2 i a + 1) * S1024x512.size a ≤ S4096x512.size a
  hwx50_2 : ∀ i : grid50.Coords, EltTy.bits .f32 = 32 ∨ (Rect.block (s := S4096x512) S1024x512.size (cc50_transform_2 i) (hinb50_2 i)).WholeWords (EltTy.packing .f32)

class K51.Facts₀ : Prop where
  hrank51 : 0 < grid51.rank
  hstage51_0 : ∀ j, (stage51_0 j).IsWhole
  nbuf51_0 : grid51.bufCount reads51_0 false = 2
  hreads51_0 : ∀ i i' : grid51.Coords, (∀ a, reads51_0 a = true → i a = i' a) → cc51_transform_0 i = cc51_transform_0 i'
  hinb51_0 : ∀ (i : grid51.Coords) a, (cc51_transform_0 i a + 1) * S1024x1024.size a ≤ S4096x4096.size a
  hwx51_0 : ∀ i : grid51.Coords, EltTy.bits .bf16 = 32 ∨ (Rect.block (s := S4096x4096) S1024x1024.size (cc51_transform_0 i) (hinb51_0 i)).WholeWords (EltTy.packing .bf16)
  hstage51_1 : ∀ j, (stage51_1 j).IsWhole
  nbuf51_1 : grid51.bufCount reads51_1 false = 2
  hreads51_1 : ∀ i i' : grid51.Coords, (∀ a, reads51_1 a = true → i a = i' a) → cc51_transform_1 i = cc51_transform_1 i'
  hinb51_1 : ∀ (i : grid51.Coords) a, (cc51_transform_1 i a + 1) * S1024x512.size a ≤ S4096x512.size a
  hwx51_1 : ∀ i : grid51.Coords, EltTy.bits .f32 = 32 ∨ (Rect.block (s := S4096x512) S1024x512.size (cc51_transform_1 i) (hinb51_1 i)).WholeWords (EltTy.packing .f32)
  hstage51_2 : ∀ j, (stage51_2 j).IsWhole
  nbuf51_2 : grid51.bufCount reads51_2 false = 2
  hreads51_2 : ∀ i i' : grid51.Coords, (∀ a, reads51_2 a = true → i a = i' a) → cc51_transform_2 i = cc51_transform_2 i'
  hinb51_2 : ∀ (i : grid51.Coords) a, (cc51_transform_2 i a + 1) * S1024x512.size a ≤ S4096x512.size a
  hwx51_2 : ∀ i : grid51.Coords, EltTy.bits .f32 = 32 ∨ (Rect.block (s := S4096x512) S1024x512.size (cc51_transform_2 i) (hinb51_2 i)).WholeWords (EltTy.packing .f32)

class K52.Facts₀ : Prop where
  hrank52 : 0 < grid52.rank
  hstage52_0 : ∀ j, (stage52_0 j).IsWhole
  nbuf52_0 : grid52.bufCount reads52_0 false = 2
  hreads52_0 : ∀ i i' : grid52.Coords, (∀ a, reads52_0 a = true → i a = i' a) → cc52_transform_0 i = cc52_transform_0 i'
  hinb52_0 : ∀ (i : grid52.Coords) a, (cc52_transform_0 i a + 1) * S1024x512.size a ≤ S4096x512.size a
  hwx52_0 : ∀ i : grid52.Coords, EltTy.bits .f32 = 32 ∨ (Rect.block (s := S4096x512) S1024x512.size (cc52_transform_0 i) (hinb52_0 i)).WholeWords (EltTy.packing .f32)
  hstage52_1 : ∀ j, (stage52_1 j).IsWhole
  nbuf52_1 : grid52.bufCount reads52_1 false = 1
  hreads52_1 : ∀ i i' : grid52.Coords, (∀ a, reads52_1 a = true → i a = i' a) → cc52_transform_1 i = cc52_transform_1 i'
  hinb52_1 : ∀ (i : grid52.Coords) a, (cc52_transform_1 i a + 1) * S512x512.size a ≤ S512x512.size a
  hwx52_1 : ∀ i : grid52.Coords, EltTy.bits .bf16 = 32 ∨ (Rect.block (s := S512x512) S512x512.size (cc52_transform_1 i) (hinb52_1 i)).WholeWords (EltTy.packing .bf16)
  hstage52_2 : ∀ j, (stage52_2 j).IsWhole
  nbuf52_2 : grid52.bufCount reads52_2 false = 2
  hreads52_2 : ∀ i i' : grid52.Coords, (∀ a, reads52_2 a = true → i a = i' a) → cc52_transform_2 i = cc52_transform_2 i'
  hinb52_2 : ∀ (i : grid52.Coords) a, (cc52_transform_2 i a + 1) * S1024x512.size a ≤ S4096x512.size a
  hwx52_2 : ∀ i : grid52.Coords, EltTy.bits .f32 = 32 ∨ (Rect.block (s := S4096x512) S1024x512.size (cc52_transform_2 i) (hinb52_2 i)).WholeWords (EltTy.packing .f32)

class K53.Facts₀ : Prop where
  hrank53 : 0 < grid53.rank
  hstage53_0 : ∀ j, (stage53_0 j).IsWhole
  nbuf53_0 : grid53.bufCount reads53_0 false = 2
  hreads53_0 : ∀ i i' : grid53.Coords, (∀ a, reads53_0 a = true → i a = i' a) → cc53_transform_0 i = cc53_transform_0 i'
  hinb53_0 : ∀ (i : grid53.Coords) a, (cc53_transform_0 i a + 1) * S1024x1024.size a ≤ S4096x4096.size a
  hwx53_0 : ∀ i : grid53.Coords, EltTy.bits .bf16 = 32 ∨ (Rect.block (s := S4096x4096) S1024x1024.size (cc53_transform_0 i) (hinb53_0 i)).WholeWords (EltTy.packing .bf16)
  hstage53_1 : ∀ j, (stage53_1 j).IsWhole
  nbuf53_1 : grid53.bufCount reads53_1 false = 2
  hreads53_1 : ∀ i i' : grid53.Coords, (∀ a, reads53_1 a = true → i a = i' a) → cc53_transform_1 i = cc53_transform_1 i'
  hinb53_1 : ∀ (i : grid53.Coords) a, (cc53_transform_1 i a + 1) * S1024x512.size a ≤ S4096x512.size a
  hwx53_1 : ∀ i : grid53.Coords, EltTy.bits .f32 = 32 ∨ (Rect.block (s := S4096x512) S1024x512.size (cc53_transform_1 i) (hinb53_1 i)).WholeWords (EltTy.packing .f32)
  hstage53_2 : ∀ j, (stage53_2 j).IsWhole
  nbuf53_2 : grid53.bufCount reads53_2 false = 2
  hreads53_2 : ∀ i i' : grid53.Coords, (∀ a, reads53_2 a = true → i a = i' a) → cc53_transform_2 i = cc53_transform_2 i'
  hinb53_2 : ∀ (i : grid53.Coords) a, (cc53_transform_2 i a + 1) * S1024x512.size a ≤ S4096x512.size a
  hwx53_2 : ∀ i : grid53.Coords, EltTy.bits .f32 = 32 ∨ (Rect.block (s := S4096x512) S1024x512.size (cc53_transform_2 i) (hinb53_2 i)).WholeWords (EltTy.packing .f32)

class K54.Facts₀ : Prop where
  hrank54 : 0 < grid54.rank
  hstage54_0 : ∀ j, (stage54_0 j).IsWhole
  nbuf54_0 : grid54.bufCount reads54_0 false = 2
  hreads54_0 : ∀ i i' : grid54.Coords, (∀ a, reads54_0 a = true → i a = i' a) → cc54_transform_0 i = cc54_transform_0 i'
  hinb54_0 : ∀ (i : grid54.Coords) a, (cc54_transform_0 i a + 1) * S1024x1024.size a ≤ S4096x4096.size a
  hwx54_0 : ∀ i : grid54.Coords, EltTy.bits .bf16 = 32 ∨ (Rect.block (s := S4096x4096) S1024x1024.size (cc54_transform_0 i) (hinb54_0 i)).WholeWords (EltTy.packing .bf16)
  hstage54_1 : ∀ j, (stage54_1 j).IsWhole
  nbuf54_1 : grid54.bufCount reads54_1 false = 2
  hreads54_1 : ∀ i i' : grid54.Coords, (∀ a, reads54_1 a = true → i a = i' a) → cc54_transform_1 i = cc54_transform_1 i'
  hinb54_1 : ∀ (i : grid54.Coords) a, (cc54_transform_1 i a + 1) * S1024x512.size a ≤ S4096x512.size a
  hwx54_1 : ∀ i : grid54.Coords, EltTy.bits .f32 = 32 ∨ (Rect.block (s := S4096x512) S1024x512.size (cc54_transform_1 i) (hinb54_1 i)).WholeWords (EltTy.packing .f32)
  hstage54_2 : ∀ j, (stage54_2 j).IsWhole
  nbuf54_2 : grid54.bufCount reads54_2 false = 2
  hreads54_2 : ∀ i i' : grid54.Coords, (∀ a, reads54_2 a = true → i a = i' a) → cc54_transform_2 i = cc54_transform_2 i'
  hinb54_2 : ∀ (i : grid54.Coords) a, (cc54_transform_2 i a + 1) * S1024x512.size a ≤ S4096x512.size a
  hwx54_2 : ∀ i : grid54.Coords, EltTy.bits .f32 = 32 ∨ (Rect.block (s := S4096x512) S1024x512.size (cc54_transform_2 i) (hinb54_2 i)).WholeWords (EltTy.packing .f32)

class K55.Facts₀ : Prop where
  hrank55 : 0 < grid55.rank
  hstage55_0 : ∀ j, (stage55_0 j).IsWhole
  nbuf55_0 : grid55.bufCount reads55_0 false = 2
  hreads55_0 : ∀ i i' : grid55.Coords, (∀ a, reads55_0 a = true → i a = i' a) → cc55_transform_0 i = cc55_transform_0 i'
  hinb55_0 : ∀ (i : grid55.Coords) a, (cc55_transform_0 i a + 1) * S1024x512.size a ≤ S4096x512.size a
  hwx55_0 : ∀ i : grid55.Coords, EltTy.bits .f32 = 32 ∨ (Rect.block (s := S4096x512) S1024x512.size (cc55_transform_0 i) (hinb55_0 i)).WholeWords (EltTy.packing .f32)
  hstage55_1 : ∀ j, (stage55_1 j).IsWhole
  nbuf55_1 : grid55.bufCount reads55_1 false = 1
  hreads55_1 : ∀ i i' : grid55.Coords, (∀ a, reads55_1 a = true → i a = i' a) → cc55_transform_1 i = cc55_transform_1 i'
  hinb55_1 : ∀ (i : grid55.Coords) a, (cc55_transform_1 i a + 1) * S512x512.size a ≤ S512x512.size a
  hwx55_1 : ∀ i : grid55.Coords, EltTy.bits .bf16 = 32 ∨ (Rect.block (s := S512x512) S512x512.size (cc55_transform_1 i) (hinb55_1 i)).WholeWords (EltTy.packing .bf16)
  hstage55_2 : ∀ j, (stage55_2 j).IsWhole
  nbuf55_2 : grid55.bufCount reads55_2 false = 2
  hreads55_2 : ∀ i i' : grid55.Coords, (∀ a, reads55_2 a = true → i a = i' a) → cc55_transform_2 i = cc55_transform_2 i'
  hinb55_2 : ∀ (i : grid55.Coords) a, (cc55_transform_2 i a + 1) * S1024x512.size a ≤ S4096x512.size a
  hwx55_2 : ∀ i : grid55.Coords, EltTy.bits .f32 = 32 ∨ (Rect.block (s := S4096x512) S1024x512.size (cc55_transform_2 i) (hinb55_2 i)).WholeWords (EltTy.packing .f32)

class K56.Facts₀ : Prop where
  hrank56 : 0 < grid56.rank
  hstage56_0 : ∀ j, (stage56_0 j).IsWhole
  nbuf56_0 : grid56.bufCount reads56_0 false = 2
  hreads56_0 : ∀ i i' : grid56.Coords, (∀ a, reads56_0 a = true → i a = i' a) → cc56_transform_0 i = cc56_transform_0 i'
  hinb56_0 : ∀ (i : grid56.Coords) a, (cc56_transform_0 i a + 1) * S1024x1024.size a ≤ S4096x4096.size a
  hwx56_0 : ∀ i : grid56.Coords, EltTy.bits .bf16 = 32 ∨ (Rect.block (s := S4096x4096) S1024x1024.size (cc56_transform_0 i) (hinb56_0 i)).WholeWords (EltTy.packing .bf16)
  hstage56_1 : ∀ j, (stage56_1 j).IsWhole
  nbuf56_1 : grid56.bufCount reads56_1 false = 2
  hreads56_1 : ∀ i i' : grid56.Coords, (∀ a, reads56_1 a = true → i a = i' a) → cc56_transform_1 i = cc56_transform_1 i'
  hinb56_1 : ∀ (i : grid56.Coords) a, (cc56_transform_1 i a + 1) * S1024x512.size a ≤ S4096x512.size a
  hwx56_1 : ∀ i : grid56.Coords, EltTy.bits .f32 = 32 ∨ (Rect.block (s := S4096x512) S1024x512.size (cc56_transform_1 i) (hinb56_1 i)).WholeWords (EltTy.packing .f32)
  hstage56_2 : ∀ j, (stage56_2 j).IsWhole
  nbuf56_2 : grid56.bufCount reads56_2 false = 2
  hreads56_2 : ∀ i i' : grid56.Coords, (∀ a, reads56_2 a = true → i a = i' a) → cc56_transform_2 i = cc56_transform_2 i'
  hinb56_2 : ∀ (i : grid56.Coords) a, (cc56_transform_2 i a + 1) * S1024x512.size a ≤ S4096x512.size a
  hwx56_2 : ∀ i : grid56.Coords, EltTy.bits .f32 = 32 ∨ (Rect.block (s := S4096x512) S1024x512.size (cc56_transform_2 i) (hinb56_2 i)).WholeWords (EltTy.packing .f32)

class K57.Facts₀ : Prop where
  hrank57 : 0 < grid57.rank
  hstage57_0 : ∀ j, (stage57_0 j).IsWhole
  nbuf57_0 : grid57.bufCount reads57_0 false = 2
  hreads57_0 : ∀ i i' : grid57.Coords, (∀ a, reads57_0 a = true → i a = i' a) → cc57_transform_0 i = cc57_transform_0 i'
  hinb57_0 : ∀ (i : grid57.Coords) a, (cc57_transform_0 i a + 1) * S1024x1024.size a ≤ S4096x4096.size a
  hwx57_0 : ∀ i : grid57.Coords, EltTy.bits .bf16 = 32 ∨ (Rect.block (s := S4096x4096) S1024x1024.size (cc57_transform_0 i) (hinb57_0 i)).WholeWords (EltTy.packing .bf16)
  hstage57_1 : ∀ j, (stage57_1 j).IsWhole
  nbuf57_1 : grid57.bufCount reads57_1 false = 2
  hreads57_1 : ∀ i i' : grid57.Coords, (∀ a, reads57_1 a = true → i a = i' a) → cc57_transform_1 i = cc57_transform_1 i'
  hinb57_1 : ∀ (i : grid57.Coords) a, (cc57_transform_1 i a + 1) * S1024x512.size a ≤ S4096x512.size a
  hwx57_1 : ∀ i : grid57.Coords, EltTy.bits .f32 = 32 ∨ (Rect.block (s := S4096x512) S1024x512.size (cc57_transform_1 i) (hinb57_1 i)).WholeWords (EltTy.packing .f32)
  hstage57_2 : ∀ j, (stage57_2 j).IsWhole
  nbuf57_2 : grid57.bufCount reads57_2 false = 2
  hreads57_2 : ∀ i i' : grid57.Coords, (∀ a, reads57_2 a = true → i a = i' a) → cc57_transform_2 i = cc57_transform_2 i'
  hinb57_2 : ∀ (i : grid57.Coords) a, (cc57_transform_2 i a + 1) * S1024x512.size a ≤ S4096x512.size a
  hwx57_2 : ∀ i : grid57.Coords, EltTy.bits .f32 = 32 ∨ (Rect.block (s := S4096x512) S1024x512.size (cc57_transform_2 i) (hinb57_2 i)).WholeWords (EltTy.packing .f32)

class K58.Facts₀ : Prop where
  hrank58 : 0 < grid58.rank
  hstage58_0 : ∀ j, (stage58_0 j).IsWhole
  nbuf58_0 : grid58.bufCount reads58_0 false = 2
  hreads58_0 : ∀ i i' : grid58.Coords, (∀ a, reads58_0 a = true → i a = i' a) → cc58_transform_0 i = cc58_transform_0 i'
  hinb58_0 : ∀ (i : grid58.Coords) a, (cc58_transform_0 i a + 1) * S1024x512.size a ≤ S4096x512.size a
  hwx58_0 : ∀ i : grid58.Coords, EltTy.bits .f32 = 32 ∨ (Rect.block (s := S4096x512) S1024x512.size (cc58_transform_0 i) (hinb58_0 i)).WholeWords (EltTy.packing .f32)
  hstage58_1 : ∀ j, (stage58_1 j).IsWhole
  nbuf58_1 : grid58.bufCount reads58_1 false = 1
  hreads58_1 : ∀ i i' : grid58.Coords, (∀ a, reads58_1 a = true → i a = i' a) → cc58_transform_1 i = cc58_transform_1 i'
  hinb58_1 : ∀ (i : grid58.Coords) a, (cc58_transform_1 i a + 1) * S512x512.size a ≤ S512x512.size a
  hwx58_1 : ∀ i : grid58.Coords, EltTy.bits .bf16 = 32 ∨ (Rect.block (s := S512x512) S512x512.size (cc58_transform_1 i) (hinb58_1 i)).WholeWords (EltTy.packing .bf16)
  hstage58_2 : ∀ j, (stage58_2 j).IsWhole
  nbuf58_2 : grid58.bufCount reads58_2 false = 2
  hreads58_2 : ∀ i i' : grid58.Coords, (∀ a, reads58_2 a = true → i a = i' a) → cc58_transform_2 i = cc58_transform_2 i'
  hinb58_2 : ∀ (i : grid58.Coords) a, (cc58_transform_2 i a + 1) * S1024x512.size a ≤ S4096x512.size a
  hwx58_2 : ∀ i : grid58.Coords, EltTy.bits .f32 = 32 ∨ (Rect.block (s := S4096x512) S1024x512.size (cc58_transform_2 i) (hinb58_2 i)).WholeWords (EltTy.packing .f32)

class K59.Facts₀ : Prop where
  hrank59 : 0 < grid59.rank
  hstage59_0 : ∀ j, (stage59_0 j).IsWhole
  nbuf59_0 : grid59.bufCount reads59_0 false = 2
  hreads59_0 : ∀ i i' : grid59.Coords, (∀ a, reads59_0 a = true → i a = i' a) → cc59_transform_0 i = cc59_transform_0 i'
  hinb59_0 : ∀ (i : grid59.Coords) a, (cc59_transform_0 i a + 1) * S1024x512.size a ≤ S4096x512.size a
  hwx59_0 : ∀ i : grid59.Coords, EltTy.bits .f32 = 32 ∨ (Rect.block (s := S4096x512) S1024x512.size (cc59_transform_0 i) (hinb59_0 i)).WholeWords (EltTy.packing .f32)
  hstage59_1 : ∀ j, (stage59_1 j).IsWhole
  nbuf59_1 : grid59.bufCount reads59_1 false = 1
  hreads59_1 : ∀ i i' : grid59.Coords, (∀ a, reads59_1 a = true → i a = i' a) → cc59_transform_1 i = cc59_transform_1 i'
  hinb59_1 : ∀ (i : grid59.Coords) a, (cc59_transform_1 i a + 1) * S512x64.size a ≤ S512x64.size a
  hwx59_1 : ∀ i : grid59.Coords, EltTy.bits .bf16 = 32 ∨ (Rect.block (s := S512x64) S512x64.size (cc59_transform_1 i) (hinb59_1 i)).WholeWords (EltTy.packing .bf16)
  hstage59_2 : ∀ j, (stage59_2 j).IsWhole
  nbuf59_2 : grid59.bufCount reads59_2 false = 2
  hreads59_2 : ∀ i i' : grid59.Coords, (∀ a, reads59_2 a = true → i a = i' a) → cc59_transform_2 i = cc59_transform_2 i'
  hinb59_2 : ∀ (i : grid59.Coords) a, (cc59_transform_2 i a + 1) * S1024x64.size a ≤ S4096x64.size a
  hwx59_2 : ∀ i : grid59.Coords, EltTy.bits .f32 = 32 ∨ (Rect.block (s := S4096x64) S1024x64.size (cc59_transform_2 i) (hinb59_2 i)).WholeWords (EltTy.packing .f32)

class Shapes1.Facts₀ : Prop where
  shapeCasts_S1_S_ : S1.ShapeCasts S_
  bcast_S_S4096 : S_.BroadcastsInDim S4096 (![] : Fin 0 → Fin S4096.rank)
  bitsLt_bf16_f32 : FTy.bits .bf16 < FTy.bits .f32
  transposes_S512x128_S128x512_1_0 : S512x128.Transposes [1, 0] S128x512
  transposes_S512x512_S512x512_1_0 : S512x512.Transposes [1, 0] S512x512
  transposes_S64x512_S512x64_1_0 : S64x512.Transposes [1, 0] S512x64
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x128_S1024x128_0_0 : ∀ a, (![0, 0] : Fin 2 → Nat) a + S1024x128.size a ≤ S1024x128.size a
  h_S1024x128 : 0 < S1024x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  reducesTo_S4096x512_S_d0_1 : S4096x512.ReducesTo [0, 1] S_
  h_S_ : 0 < S_.numel
  bcast_S_S4096x512 : S_.BroadcastsInDim S4096x512 (![] : Fin 0 → Fin S4096x512.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S1 : S_.BroadcastsInDim S1 (![] : Fin 0 → Fin S1.rank)
  concatenates_S1_S1_S1_S1_S1_S1_S1_S1_S1_S9_d0 : Shape.Concatenates [S1, S1, S1, S1, S1, S1, S1, S1, S1] S9 0
  dot_S1024x128_S128x512_S1024x512_1_0_0_1_n_n_wf : DotDims.WF S1024x128 S128x512 S1024x512 [1] [0] [0] [1] [] []
  dot_S1024x1024_S1024x512_S1024x512_1_0_0_1_n_n_wf : DotDims.WF S1024x1024 S1024x512 S1024x512 [1] [0] [0] [1] [] []
  dot_S1024x512_S512x512_S1024x512_1_0_0_1_n_n_wf : DotDims.WF S1024x512 S512x512 S1024x512 [1] [0] [0] [1] [] []
  dot_S1024x512_S512x64_S1024x64_1_0_0_1_n_n_wf : DotDims.WF S1024x512 S512x64 S1024x64 [1] [0] [0] [1] [] []

class Facts₀ : Prop where
  k0 : K0.Facts₀
  k1 : K1.Facts₀
  k2 : K2.Facts₀
  k3 : K3.Facts₀
  k4 : K4.Facts₀
  k5 : K5.Facts₀
  k6 : K6.Facts₀
  k7 : K7.Facts₀
  k8 : K8.Facts₀
  k9 : K9.Facts₀
  k10 : K10.Facts₀
  k11 : K11.Facts₀
  k12 : K12.Facts₀
  k13 : K13.Facts₀
  k14 : K14.Facts₀
  k15 : K15.Facts₀
  k16 : K16.Facts₀
  k17 : K17.Facts₀
  k18 : K18.Facts₀
  k19 : K19.Facts₀
  k20 : K20.Facts₀
  k21 : K21.Facts₀
  k22 : K22.Facts₀
  k23 : K23.Facts₀
  k24 : K24.Facts₀
  k25 : K25.Facts₀
  k26 : K26.Facts₀
  k27 : K27.Facts₀
  k28 : K28.Facts₀
  k29 : K29.Facts₀
  k30 : K30.Facts₀
  k31 : K31.Facts₀
  k32 : K32.Facts₀
  k33 : K33.Facts₀
  k34 : K34.Facts₀
  k35 : K35.Facts₀
  k36 : K36.Facts₀
  k37 : K37.Facts₀
  k38 : K38.Facts₀
  k39 : K39.Facts₀
  k40 : K40.Facts₀
  k41 : K41.Facts₀
  k42 : K42.Facts₀
  k43 : K43.Facts₀
  k44 : K44.Facts₀
  k45 : K45.Facts₀
  k46 : K46.Facts₀
  k47 : K47.Facts₀
  k48 : K48.Facts₀
  k49 : K49.Facts₀
  k50 : K50.Facts₀
  k51 : K51.Facts₀
  k52 : K52.Facts₀
  k53 : K53.Facts₀
  k54 : K54.Facts₀
  k55 : K55.Facts₀
  k56 : K56.Facts₀
  k57 : K57.Facts₀
  k58 : K58.Facts₀
  k59 : K59.Facts₀
  shapes1 : Shapes1.Facts₀
attribute [instance] Facts₀.k0 Facts₀.k1 Facts₀.k2 Facts₀.k3 Facts₀.k4 Facts₀.k5 Facts₀.k6 Facts₀.k7 Facts₀.k8 Facts₀.k9 Facts₀.k10 Facts₀.k11 Facts₀.k12 Facts₀.k13 Facts₀.k14 Facts₀.k15 Facts₀.k16 Facts₀.k17 Facts₀.k18 Facts₀.k19 Facts₀.k20 Facts₀.k21 Facts₀.k22 Facts₀.k23 Facts₀.k24 Facts₀.k25 Facts₀.k26 Facts₀.k27 Facts₀.k28 Facts₀.k29 Facts₀.k30 Facts₀.k31 Facts₀.k32 Facts₀.k33 Facts₀.k34 Facts₀.k35 Facts₀.k36 Facts₀.k37 Facts₀.k38 Facts₀.k39 Facts₀.k40 Facts₀.k41 Facts₀.k42 Facts₀.k43 Facts₀.k44 Facts₀.k45 Facts₀.k46 Facts₀.k47 Facts₀.k48 Facts₀.k49 Facts₀.k50 Facts₀.k51 Facts₀.k52 Facts₀.k53 Facts₀.k54 Facts₀.k55 Facts₀.k56 Facts₀.k57 Facts₀.k58 Facts₀.k59 Facts₀.shapes1

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x512.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v9) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v8) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1024x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v33) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S512x512.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1024x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v7) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S1024x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v35) S1024x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v8) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v37) S1024x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v39) S1024x512.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v42) S1024x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v10) S512x512.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v43) S1024x512.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v7) S1024x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v43) S1024x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v44) S1024x512.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v9) S1024x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v62) S1024x512.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v63) S1024x512.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_v8) S1024x1024.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v57) S1024x512.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v67) S1024x512.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev idle9 : Fin 3 → grid9.Coords → Bool := fun | 0 => fun _ => false | 1 => fun _ => false | 2 => fun i => !(k9_cond2 i == 1#1) | ⟨_ + 3, h⟩ => absurd h (Nat.not_lt.2 (Nat.le_add_left _ _))

abbrev win10_0 : Pipeline.Window sig grid10 :=
  Pipeline.Window.ofSpec (Memref.whole main_v70) S1024x512.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v10) S512x512.size cc10_transform_1 reads10_1 false false 1 stage10_1 sem10_1
    hrank10 hreads10_1 hinb10_1 nbuf10_1 (Memref.isWhole_whole _) hwx10_1 hstage10_1

abbrev win10_2 : Pipeline.Window sig grid10 :=
  Pipeline.Window.ofSpec (Memref.whole main_v71) S1024x512.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun _ => false | 2 => fun i => !(k10_cond2 i == 1#1) | ⟨_ + 3, h⟩ => absurd h (Nat.not_lt.2 (Nat.le_add_left _ _))

abbrev win11_0 : Pipeline.Window sig grid11 :=
  Pipeline.Window.ofSpec (Memref.whole main_v7) S1024x1024.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v71) S1024x512.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v72) S1024x512.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev idle11 : Fin 3 → grid11.Coords → Bool := fun | 0 => fun _ => false | 1 => fun _ => false | 2 => fun i => !(k11_cond2 i == 1#1) | ⟨_ + 3, h⟩ => absurd h (Nat.not_lt.2 (Nat.le_add_left _ _))

abbrev win12_0 : Pipeline.Window sig grid12 :=
  Pipeline.Window.ofSpec (Memref.whole main_v8) S1024x1024.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v74) S1024x512.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v76) S1024x512.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev idle12 : Fin 3 → grid12.Coords → Bool := fun | 0 => fun _ => false | 1 => fun _ => false | 2 => fun i => !(k12_cond2 i == 1#1) | ⟨_ + 3, h⟩ => absurd h (Nat.not_lt.2 (Nat.le_add_left _ _))

abbrev win13_0 : Pipeline.Window sig grid13 :=
  Pipeline.Window.ofSpec (Memref.whole main_v79) S1024x512.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v10) S512x512.size cc13_transform_1 reads13_1 false false 1 stage13_1 sem13_1
    hrank13 hreads13_1 hinb13_1 nbuf13_1 (Memref.isWhole_whole _) hwx13_1 hstage13_1

abbrev win13_2 : Pipeline.Window sig grid13 :=
  Pipeline.Window.ofSpec (Memref.whole main_v80) S1024x512.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev idle13 : Fin 3 → grid13.Coords → Bool := fun | 0 => fun _ => false | 1 => fun _ => false | 2 => fun i => !(k13_cond2 i == 1#1) | ⟨_ + 3, h⟩ => absurd h (Nat.not_lt.2 (Nat.le_add_left _ _))

abbrev win14_0 : Pipeline.Window sig grid14 :=
  Pipeline.Window.ofSpec (Memref.whole main_v7) S1024x1024.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v80) S1024x512.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v81) S1024x512.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev idle14 : Fin 3 → grid14.Coords → Bool := fun | 0 => fun _ => false | 1 => fun _ => false | 2 => fun i => !(k14_cond2 i == 1#1) | ⟨_ + 3, h⟩ => absurd h (Nat.not_lt.2 (Nat.le_add_left _ _))

abbrev win15_0 : Pipeline.Window sig grid15 :=
  Pipeline.Window.ofSpec (Memref.whole main_v9) S1024x1024.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v99) S1024x512.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v100) S1024x512.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev idle15 : Fin 3 → grid15.Coords → Bool := fun | 0 => fun _ => false | 1 => fun _ => false | 2 => fun i => !(k15_cond2 i == 1#1) | ⟨_ + 3, h⟩ => absurd h (Nat.not_lt.2 (Nat.le_add_left _ _))

abbrev win16_0 : Pipeline.Window sig grid16 :=
  Pipeline.Window.ofSpec (Memref.whole main_v8) S1024x1024.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v94) S1024x512.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v104) S1024x512.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev idle16 : Fin 3 → grid16.Coords → Bool := fun | 0 => fun _ => false | 1 => fun _ => false | 2 => fun i => !(k16_cond2 i == 1#1) | ⟨_ + 3, h⟩ => absurd h (Nat.not_lt.2 (Nat.le_add_left _ _))

abbrev win17_0 : Pipeline.Window sig grid17 :=
  Pipeline.Window.ofSpec (Memref.whole main_v107) S1024x512.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v10) S512x512.size cc17_transform_1 reads17_1 false false 1 stage17_1 sem17_1
    hrank17 hreads17_1 hinb17_1 nbuf17_1 (Memref.isWhole_whole _) hwx17_1 hstage17_1

abbrev win17_2 : Pipeline.Window sig grid17 :=
  Pipeline.Window.ofSpec (Memref.whole main_v108) S1024x512.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev idle17 : Fin 3 → grid17.Coords → Bool := fun | 0 => fun _ => false | 1 => fun _ => false | 2 => fun i => !(k17_cond2 i == 1#1) | ⟨_ + 3, h⟩ => absurd h (Nat.not_lt.2 (Nat.le_add_left _ _))

abbrev win18_0 : Pipeline.Window sig grid18 :=
  Pipeline.Window.ofSpec (Memref.whole main_v7) S1024x1024.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v108) S1024x512.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v109) S1024x512.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev idle18 : Fin 3 → grid18.Coords → Bool := fun | 0 => fun _ => false | 1 => fun _ => false | 2 => fun i => !(k18_cond2 i == 1#1) | ⟨_ + 3, h⟩ => absurd h (Nat.not_lt.2 (Nat.le_add_left _ _))

abbrev win19_0 : Pipeline.Window sig grid19 :=
  Pipeline.Window.ofSpec (Memref.whole main_v8) S1024x1024.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v111) S1024x512.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v113) S1024x512.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev idle19 : Fin 3 → grid19.Coords → Bool := fun | 0 => fun _ => false | 1 => fun _ => false | 2 => fun i => !(k19_cond2 i == 1#1) | ⟨_ + 3, h⟩ => absurd h (Nat.not_lt.2 (Nat.le_add_left _ _))

abbrev win20_0 : Pipeline.Window sig grid20 :=
  Pipeline.Window.ofSpec (Memref.whole main_v116) S1024x512.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v10) S512x512.size cc20_transform_1 reads20_1 false false 1 stage20_1 sem20_1
    hrank20 hreads20_1 hinb20_1 nbuf20_1 (Memref.isWhole_whole _) hwx20_1 hstage20_1

abbrev win20_2 : Pipeline.Window sig grid20 :=
  Pipeline.Window.ofSpec (Memref.whole main_v117) S1024x512.size cc20_transform_2 reads20_2 true false 2 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev idle20 : Fin 3 → grid20.Coords → Bool := fun | 0 => fun _ => false | 1 => fun _ => false | 2 => fun i => !(k20_cond2 i == 1#1) | ⟨_ + 3, h⟩ => absurd h (Nat.not_lt.2 (Nat.le_add_left _ _))

abbrev win21_0 : Pipeline.Window sig grid21 :=
  Pipeline.Window.ofSpec (Memref.whole main_v7) S1024x1024.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v117) S1024x512.size cc21_transform_1 reads21_1 false false 2 stage21_1 sem21_1
    hrank21 hreads21_1 hinb21_1 nbuf21_1 (Memref.isWhole_whole _) hwx21_1 hstage21_1

abbrev win21_2 : Pipeline.Window sig grid21 :=
  Pipeline.Window.ofSpec (Memref.whole main_v118) S1024x512.size cc21_transform_2 reads21_2 true false 2 stage21_2 sem21_2
    hrank21 hreads21_2 hinb21_2 nbuf21_2 (Memref.isWhole_whole _) hwx21_2 hstage21_2

abbrev win21 : Fin 3 → Pipeline.Window sig grid21 := fun | 0 => win21_0 | 1 => win21_1 | 2 => win21_2 | ⟨_ + 3, h⟩ => absurd h (Nat.not_lt.2 (Nat.le_add_left _ _))
abbrev spec21 : Fin 3 → Pipeline.WinSpec sig grid21.rank := fun w => (win21 w).toWinSpec

abbrev idle21 : Fin 3 → grid21.Coords → Bool := fun | 0 => fun _ => false | 1 => fun _ => false | 2 => fun i => !(k21_cond2 i == 1#1) | ⟨_ + 3, h⟩ => absurd h (Nat.not_lt.2 (Nat.le_add_left _ _))

abbrev win22_0 : Pipeline.Window sig grid22 :=
  Pipeline.Window.ofSpec (Memref.whole main_v9) S1024x1024.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v136) S1024x512.size cc22_transform_1 reads22_1 false false 2 stage22_1 sem22_1
    hrank22 hreads22_1 hinb22_1 nbuf22_1 (Memref.isWhole_whole _) hwx22_1 hstage22_1

abbrev win22_2 : Pipeline.Window sig grid22 :=
  Pipeline.Window.ofSpec (Memref.whole main_v137) S1024x512.size cc22_transform_2 reads22_2 true false 2 stage22_2 sem22_2
    hrank22 hreads22_2 hinb22_2 nbuf22_2 (Memref.isWhole_whole _) hwx22_2 hstage22_2

abbrev win22 : Fin 3 → Pipeline.Window sig grid22 := fun | 0 => win22_0 | 1 => win22_1 | 2 => win22_2 | ⟨_ + 3, h⟩ => absurd h (Nat.not_lt.2 (Nat.le_add_left _ _))
abbrev spec22 : Fin 3 → Pipeline.WinSpec sig grid22.rank := fun w => (win22 w).toWinSpec

abbrev idle22 : Fin 3 → grid22.Coords → Bool := fun | 0 => fun _ => false | 1 => fun _ => false | 2 => fun i => !(k22_cond2 i == 1#1) | ⟨_ + 3, h⟩ => absurd h (Nat.not_lt.2 (Nat.le_add_left _ _))

abbrev win23_0 : Pipeline.Window sig grid23 :=
  Pipeline.Window.ofSpec (Memref.whole main_v8) S1024x1024.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v131) S1024x512.size cc23_transform_1 reads23_1 false false 2 stage23_1 sem23_1
    hrank23 hreads23_1 hinb23_1 nbuf23_1 (Memref.isWhole_whole _) hwx23_1 hstage23_1

abbrev win23_2 : Pipeline.Window sig grid23 :=
  Pipeline.Window.ofSpec (Memref.whole main_v141) S1024x512.size cc23_transform_2 reads23_2 true false 2 stage23_2 sem23_2
    hrank23 hreads23_2 hinb23_2 nbuf23_2 (Memref.isWhole_whole _) hwx23_2 hstage23_2

abbrev win23 : Fin 3 → Pipeline.Window sig grid23 := fun | 0 => win23_0 | 1 => win23_1 | 2 => win23_2 | ⟨_ + 3, h⟩ => absurd h (Nat.not_lt.2 (Nat.le_add_left _ _))
abbrev spec23 : Fin 3 → Pipeline.WinSpec sig grid23.rank := fun w => (win23 w).toWinSpec

abbrev idle23 : Fin 3 → grid23.Coords → Bool := fun | 0 => fun _ => false | 1 => fun _ => false | 2 => fun i => !(k23_cond2 i == 1#1) | ⟨_ + 3, h⟩ => absurd h (Nat.not_lt.2 (Nat.le_add_left _ _))

abbrev win24_0 : Pipeline.Window sig grid24 :=
  Pipeline.Window.ofSpec (Memref.whole main_v144) S1024x512.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_v10) S512x512.size cc24_transform_1 reads24_1 false false 1 stage24_1 sem24_1
    hrank24 hreads24_1 hinb24_1 nbuf24_1 (Memref.isWhole_whole _) hwx24_1 hstage24_1

abbrev win24_2 : Pipeline.Window sig grid24 :=
  Pipeline.Window.ofSpec (Memref.whole main_v145) S1024x512.size cc24_transform_2 reads24_2 true false 2 stage24_2 sem24_2
    hrank24 hreads24_2 hinb24_2 nbuf24_2 (Memref.isWhole_whole _) hwx24_2 hstage24_2

abbrev win24 : Fin 3 → Pipeline.Window sig grid24 := fun | 0 => win24_0 | 1 => win24_1 | 2 => win24_2 | ⟨_ + 3, h⟩ => absurd h (Nat.not_lt.2 (Nat.le_add_left _ _))
abbrev spec24 : Fin 3 → Pipeline.WinSpec sig grid24.rank := fun w => (win24 w).toWinSpec

abbrev idle24 : Fin 3 → grid24.Coords → Bool := fun | 0 => fun _ => false | 1 => fun _ => false | 2 => fun i => !(k24_cond2 i == 1#1) | ⟨_ + 3, h⟩ => absurd h (Nat.not_lt.2 (Nat.le_add_left _ _))

abbrev win25_0 : Pipeline.Window sig grid25 :=
  Pipeline.Window.ofSpec (Memref.whole main_v7) S1024x1024.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_v145) S1024x512.size cc25_transform_1 reads25_1 false false 2 stage25_1 sem25_1
    hrank25 hreads25_1 hinb25_1 nbuf25_1 (Memref.isWhole_whole _) hwx25_1 hstage25_1

abbrev win25_2 : Pipeline.Window sig grid25 :=
  Pipeline.Window.ofSpec (Memref.whole main_v146) S1024x512.size cc25_transform_2 reads25_2 true false 2 stage25_2 sem25_2
    hrank25 hreads25_2 hinb25_2 nbuf25_2 (Memref.isWhole_whole _) hwx25_2 hstage25_2

abbrev win25 : Fin 3 → Pipeline.Window sig grid25 := fun | 0 => win25_0 | 1 => win25_1 | 2 => win25_2 | ⟨_ + 3, h⟩ => absurd h (Nat.not_lt.2 (Nat.le_add_left _ _))
abbrev spec25 : Fin 3 → Pipeline.WinSpec sig grid25.rank := fun w => (win25 w).toWinSpec

abbrev idle25 : Fin 3 → grid25.Coords → Bool := fun | 0 => fun _ => false | 1 => fun _ => false | 2 => fun i => !(k25_cond2 i == 1#1) | ⟨_ + 3, h⟩ => absurd h (Nat.not_lt.2 (Nat.le_add_left _ _))

abbrev win26_0 : Pipeline.Window sig grid26 :=
  Pipeline.Window.ofSpec (Memref.whole main_v8) S1024x1024.size cc26_transform_0 reads26_0 false false 2 stage26_0 sem26_0
    hrank26 hreads26_0 hinb26_0 nbuf26_0 (Memref.isWhole_whole _) hwx26_0 hstage26_0

abbrev win26_1 : Pipeline.Window sig grid26 :=
  Pipeline.Window.ofSpec (Memref.whole main_v148) S1024x512.size cc26_transform_1 reads26_1 false false 2 stage26_1 sem26_1
    hrank26 hreads26_1 hinb26_1 nbuf26_1 (Memref.isWhole_whole _) hwx26_1 hstage26_1

abbrev win26_2 : Pipeline.Window sig grid26 :=
  Pipeline.Window.ofSpec (Memref.whole main_v150) S1024x512.size cc26_transform_2 reads26_2 true false 2 stage26_2 sem26_2
    hrank26 hreads26_2 hinb26_2 nbuf26_2 (Memref.isWhole_whole _) hwx26_2 hstage26_2

abbrev win26 : Fin 3 → Pipeline.Window sig grid26 := fun | 0 => win26_0 | 1 => win26_1 | 2 => win26_2 | ⟨_ + 3, h⟩ => absurd h (Nat.not_lt.2 (Nat.le_add_left _ _))
abbrev spec26 : Fin 3 → Pipeline.WinSpec sig grid26.rank := fun w => (win26 w).toWinSpec

abbrev idle26 : Fin 3 → grid26.Coords → Bool := fun | 0 => fun _ => false | 1 => fun _ => false | 2 => fun i => !(k26_cond2 i == 1#1) | ⟨_ + 3, h⟩ => absurd h (Nat.not_lt.2 (Nat.le_add_left _ _))

abbrev win27_0 : Pipeline.Window sig grid27 :=
  Pipeline.Window.ofSpec (Memref.whole main_v153) S1024x512.size cc27_transform_0 reads27_0 false false 2 stage27_0 sem27_0
    hrank27 hreads27_0 hinb27_0 nbuf27_0 (Memref.isWhole_whole _) hwx27_0 hstage27_0

abbrev win27_1 : Pipeline.Window sig grid27 :=
  Pipeline.Window.ofSpec (Memref.whole main_v10) S512x512.size cc27_transform_1 reads27_1 false false 1 stage27_1 sem27_1
    hrank27 hreads27_1 hinb27_1 nbuf27_1 (Memref.isWhole_whole _) hwx27_1 hstage27_1

abbrev win27_2 : Pipeline.Window sig grid27 :=
  Pipeline.Window.ofSpec (Memref.whole main_v154) S1024x512.size cc27_transform_2 reads27_2 true false 2 stage27_2 sem27_2
    hrank27 hreads27_2 hinb27_2 nbuf27_2 (Memref.isWhole_whole _) hwx27_2 hstage27_2

abbrev win27 : Fin 3 → Pipeline.Window sig grid27 := fun | 0 => win27_0 | 1 => win27_1 | 2 => win27_2 | ⟨_ + 3, h⟩ => absurd h (Nat.not_lt.2 (Nat.le_add_left _ _))
abbrev spec27 : Fin 3 → Pipeline.WinSpec sig grid27.rank := fun w => (win27 w).toWinSpec

abbrev idle27 : Fin 3 → grid27.Coords → Bool := fun | 0 => fun _ => false | 1 => fun _ => false | 2 => fun i => !(k27_cond2 i == 1#1) | ⟨_ + 3, h⟩ => absurd h (Nat.not_lt.2 (Nat.le_add_left _ _))

abbrev win28_0 : Pipeline.Window sig grid28 :=
  Pipeline.Window.ofSpec (Memref.whole main_v7) S1024x1024.size cc28_transform_0 reads28_0 false false 2 stage28_0 sem28_0
    hrank28 hreads28_0 hinb28_0 nbuf28_0 (Memref.isWhole_whole _) hwx28_0 hstage28_0

abbrev win28_1 : Pipeline.Window sig grid28 :=
  Pipeline.Window.ofSpec (Memref.whole main_v154) S1024x512.size cc28_transform_1 reads28_1 false false 2 stage28_1 sem28_1
    hrank28 hreads28_1 hinb28_1 nbuf28_1 (Memref.isWhole_whole _) hwx28_1 hstage28_1

abbrev win28_2 : Pipeline.Window sig grid28 :=
  Pipeline.Window.ofSpec (Memref.whole main_v155) S1024x512.size cc28_transform_2 reads28_2 true false 2 stage28_2 sem28_2
    hrank28 hreads28_2 hinb28_2 nbuf28_2 (Memref.isWhole_whole _) hwx28_2 hstage28_2

abbrev win28 : Fin 3 → Pipeline.Window sig grid28 := fun | 0 => win28_0 | 1 => win28_1 | 2 => win28_2 | ⟨_ + 3, h⟩ => absurd h (Nat.not_lt.2 (Nat.le_add_left _ _))
abbrev spec28 : Fin 3 → Pipeline.WinSpec sig grid28.rank := fun w => (win28 w).toWinSpec

abbrev idle28 : Fin 3 → grid28.Coords → Bool := fun | 0 => fun _ => false | 1 => fun _ => false | 2 => fun i => !(k28_cond2 i == 1#1) | ⟨_ + 3, h⟩ => absurd h (Nat.not_lt.2 (Nat.le_add_left _ _))

abbrev win29_0 : Pipeline.Window sig grid29 :=
  Pipeline.Window.ofSpec (Memref.whole main_v9) S1024x1024.size cc29_transform_0 reads29_0 false false 2 stage29_0 sem29_0
    hrank29 hreads29_0 hinb29_0 nbuf29_0 (Memref.isWhole_whole _) hwx29_0 hstage29_0

abbrev win29_1 : Pipeline.Window sig grid29 :=
  Pipeline.Window.ofSpec (Memref.whole main_v173) S1024x512.size cc29_transform_1 reads29_1 false false 2 stage29_1 sem29_1
    hrank29 hreads29_1 hinb29_1 nbuf29_1 (Memref.isWhole_whole _) hwx29_1 hstage29_1

abbrev win29_2 : Pipeline.Window sig grid29 :=
  Pipeline.Window.ofSpec (Memref.whole main_v174) S1024x512.size cc29_transform_2 reads29_2 true false 2 stage29_2 sem29_2
    hrank29 hreads29_2 hinb29_2 nbuf29_2 (Memref.isWhole_whole _) hwx29_2 hstage29_2

abbrev win29 : Fin 3 → Pipeline.Window sig grid29 := fun | 0 => win29_0 | 1 => win29_1 | 2 => win29_2 | ⟨_ + 3, h⟩ => absurd h (Nat.not_lt.2 (Nat.le_add_left _ _))
abbrev spec29 : Fin 3 → Pipeline.WinSpec sig grid29.rank := fun w => (win29 w).toWinSpec

abbrev idle29 : Fin 3 → grid29.Coords → Bool := fun | 0 => fun _ => false | 1 => fun _ => false | 2 => fun i => !(k29_cond2 i == 1#1) | ⟨_ + 3, h⟩ => absurd h (Nat.not_lt.2 (Nat.le_add_left _ _))

abbrev win30_0 : Pipeline.Window sig grid30 :=
  Pipeline.Window.ofSpec (Memref.whole main_v8) S1024x1024.size cc30_transform_0 reads30_0 false false 2 stage30_0 sem30_0
    hrank30 hreads30_0 hinb30_0 nbuf30_0 (Memref.isWhole_whole _) hwx30_0 hstage30_0

abbrev win30_1 : Pipeline.Window sig grid30 :=
  Pipeline.Window.ofSpec (Memref.whole main_v168) S1024x512.size cc30_transform_1 reads30_1 false false 2 stage30_1 sem30_1
    hrank30 hreads30_1 hinb30_1 nbuf30_1 (Memref.isWhole_whole _) hwx30_1 hstage30_1

abbrev win30_2 : Pipeline.Window sig grid30 :=
  Pipeline.Window.ofSpec (Memref.whole main_v178) S1024x512.size cc30_transform_2 reads30_2 true false 2 stage30_2 sem30_2
    hrank30 hreads30_2 hinb30_2 nbuf30_2 (Memref.isWhole_whole _) hwx30_2 hstage30_2

abbrev win30 : Fin 3 → Pipeline.Window sig grid30 := fun | 0 => win30_0 | 1 => win30_1 | 2 => win30_2 | ⟨_ + 3, h⟩ => absurd h (Nat.not_lt.2 (Nat.le_add_left _ _))
abbrev spec30 : Fin 3 → Pipeline.WinSpec sig grid30.rank := fun w => (win30 w).toWinSpec

abbrev idle30 : Fin 3 → grid30.Coords → Bool := fun | 0 => fun _ => false | 1 => fun _ => false | 2 => fun i => !(k30_cond2 i == 1#1) | ⟨_ + 3, h⟩ => absurd h (Nat.not_lt.2 (Nat.le_add_left _ _))

abbrev win31_0 : Pipeline.Window sig grid31 :=
  Pipeline.Window.ofSpec (Memref.whole main_v181) S1024x512.size cc31_transform_0 reads31_0 false false 2 stage31_0 sem31_0
    hrank31 hreads31_0 hinb31_0 nbuf31_0 (Memref.isWhole_whole _) hwx31_0 hstage31_0

abbrev win31_1 : Pipeline.Window sig grid31 :=
  Pipeline.Window.ofSpec (Memref.whole main_v10) S512x512.size cc31_transform_1 reads31_1 false false 1 stage31_1 sem31_1
    hrank31 hreads31_1 hinb31_1 nbuf31_1 (Memref.isWhole_whole _) hwx31_1 hstage31_1

abbrev win31_2 : Pipeline.Window sig grid31 :=
  Pipeline.Window.ofSpec (Memref.whole main_v182) S1024x512.size cc31_transform_2 reads31_2 true false 2 stage31_2 sem31_2
    hrank31 hreads31_2 hinb31_2 nbuf31_2 (Memref.isWhole_whole _) hwx31_2 hstage31_2

abbrev win31 : Fin 3 → Pipeline.Window sig grid31 := fun | 0 => win31_0 | 1 => win31_1 | 2 => win31_2 | ⟨_ + 3, h⟩ => absurd h (Nat.not_lt.2 (Nat.le_add_left _ _))
abbrev spec31 : Fin 3 → Pipeline.WinSpec sig grid31.rank := fun w => (win31 w).toWinSpec

abbrev idle31 : Fin 3 → grid31.Coords → Bool := fun | 0 => fun _ => false | 1 => fun _ => false | 2 => fun i => !(k31_cond2 i == 1#1) | ⟨_ + 3, h⟩ => absurd h (Nat.not_lt.2 (Nat.le_add_left _ _))

abbrev win32_0 : Pipeline.Window sig grid32 :=
  Pipeline.Window.ofSpec (Memref.whole main_v7) S1024x1024.size cc32_transform_0 reads32_0 false false 2 stage32_0 sem32_0
    hrank32 hreads32_0 hinb32_0 nbuf32_0 (Memref.isWhole_whole _) hwx32_0 hstage32_0

abbrev win32_1 : Pipeline.Window sig grid32 :=
  Pipeline.Window.ofSpec (Memref.whole main_v182) S1024x512.size cc32_transform_1 reads32_1 false false 2 stage32_1 sem32_1
    hrank32 hreads32_1 hinb32_1 nbuf32_1 (Memref.isWhole_whole _) hwx32_1 hstage32_1

abbrev win32_2 : Pipeline.Window sig grid32 :=
  Pipeline.Window.ofSpec (Memref.whole main_v183) S1024x512.size cc32_transform_2 reads32_2 true false 2 stage32_2 sem32_2
    hrank32 hreads32_2 hinb32_2 nbuf32_2 (Memref.isWhole_whole _) hwx32_2 hstage32_2

abbrev win32 : Fin 3 → Pipeline.Window sig grid32 := fun | 0 => win32_0 | 1 => win32_1 | 2 => win32_2 | ⟨_ + 3, h⟩ => absurd h (Nat.not_lt.2 (Nat.le_add_left _ _))
abbrev spec32 : Fin 3 → Pipeline.WinSpec sig grid32.rank := fun w => (win32 w).toWinSpec

abbrev idle32 : Fin 3 → grid32.Coords → Bool := fun | 0 => fun _ => false | 1 => fun _ => false | 2 => fun i => !(k32_cond2 i == 1#1) | ⟨_ + 3, h⟩ => absurd h (Nat.not_lt.2 (Nat.le_add_left _ _))

abbrev win33_0 : Pipeline.Window sig grid33 :=
  Pipeline.Window.ofSpec (Memref.whole main_v8) S1024x1024.size cc33_transform_0 reads33_0 false false 2 stage33_0 sem33_0
    hrank33 hreads33_0 hinb33_0 nbuf33_0 (Memref.isWhole_whole _) hwx33_0 hstage33_0

abbrev win33_1 : Pipeline.Window sig grid33 :=
  Pipeline.Window.ofSpec (Memref.whole main_v185) S1024x512.size cc33_transform_1 reads33_1 false false 2 stage33_1 sem33_1
    hrank33 hreads33_1 hinb33_1 nbuf33_1 (Memref.isWhole_whole _) hwx33_1 hstage33_1

abbrev win33_2 : Pipeline.Window sig grid33 :=
  Pipeline.Window.ofSpec (Memref.whole main_v187) S1024x512.size cc33_transform_2 reads33_2 true false 2 stage33_2 sem33_2
    hrank33 hreads33_2 hinb33_2 nbuf33_2 (Memref.isWhole_whole _) hwx33_2 hstage33_2

abbrev win33 : Fin 3 → Pipeline.Window sig grid33 := fun | 0 => win33_0 | 1 => win33_1 | 2 => win33_2 | ⟨_ + 3, h⟩ => absurd h (Nat.not_lt.2 (Nat.le_add_left _ _))
abbrev spec33 : Fin 3 → Pipeline.WinSpec sig grid33.rank := fun w => (win33 w).toWinSpec

abbrev idle33 : Fin 3 → grid33.Coords → Bool := fun | 0 => fun _ => false | 1 => fun _ => false | 2 => fun i => !(k33_cond2 i == 1#1) | ⟨_ + 3, h⟩ => absurd h (Nat.not_lt.2 (Nat.le_add_left _ _))

abbrev win34_0 : Pipeline.Window sig grid34 :=
  Pipeline.Window.ofSpec (Memref.whole main_v190) S1024x512.size cc34_transform_0 reads34_0 false false 2 stage34_0 sem34_0
    hrank34 hreads34_0 hinb34_0 nbuf34_0 (Memref.isWhole_whole _) hwx34_0 hstage34_0

abbrev win34_1 : Pipeline.Window sig grid34 :=
  Pipeline.Window.ofSpec (Memref.whole main_v10) S512x512.size cc34_transform_1 reads34_1 false false 1 stage34_1 sem34_1
    hrank34 hreads34_1 hinb34_1 nbuf34_1 (Memref.isWhole_whole _) hwx34_1 hstage34_1

abbrev win34_2 : Pipeline.Window sig grid34 :=
  Pipeline.Window.ofSpec (Memref.whole main_v191) S1024x512.size cc34_transform_2 reads34_2 true false 2 stage34_2 sem34_2
    hrank34 hreads34_2 hinb34_2 nbuf34_2 (Memref.isWhole_whole _) hwx34_2 hstage34_2

abbrev win34 : Fin 3 → Pipeline.Window sig grid34 := fun | 0 => win34_0 | 1 => win34_1 | 2 => win34_2 | ⟨_ + 3, h⟩ => absurd h (Nat.not_lt.2 (Nat.le_add_left _ _))
abbrev spec34 : Fin 3 → Pipeline.WinSpec sig grid34.rank := fun w => (win34 w).toWinSpec

abbrev idle34 : Fin 3 → grid34.Coords → Bool := fun | 0 => fun _ => false | 1 => fun _ => false | 2 => fun i => !(k34_cond2 i == 1#1) | ⟨_ + 3, h⟩ => absurd h (Nat.not_lt.2 (Nat.le_add_left _ _))

abbrev win35_0 : Pipeline.Window sig grid35 :=
  Pipeline.Window.ofSpec (Memref.whole main_v7) S1024x1024.size cc35_transform_0 reads35_0 false false 2 stage35_0 sem35_0
    hrank35 hreads35_0 hinb35_0 nbuf35_0 (Memref.isWhole_whole _) hwx35_0 hstage35_0

abbrev win35_1 : Pipeline.Window sig grid35 :=
  Pipeline.Window.ofSpec (Memref.whole main_v191) S1024x512.size cc35_transform_1 reads35_1 false false 2 stage35_1 sem35_1
    hrank35 hreads35_1 hinb35_1 nbuf35_1 (Memref.isWhole_whole _) hwx35_1 hstage35_1

abbrev win35_2 : Pipeline.Window sig grid35 :=
  Pipeline.Window.ofSpec (Memref.whole main_v192) S1024x512.size cc35_transform_2 reads35_2 true false 2 stage35_2 sem35_2
    hrank35 hreads35_2 hinb35_2 nbuf35_2 (Memref.isWhole_whole _) hwx35_2 hstage35_2

abbrev win35 : Fin 3 → Pipeline.Window sig grid35 := fun | 0 => win35_0 | 1 => win35_1 | 2 => win35_2 | ⟨_ + 3, h⟩ => absurd h (Nat.not_lt.2 (Nat.le_add_left _ _))
abbrev spec35 : Fin 3 → Pipeline.WinSpec sig grid35.rank := fun w => (win35 w).toWinSpec

abbrev idle35 : Fin 3 → grid35.Coords → Bool := fun | 0 => fun _ => false | 1 => fun _ => false | 2 => fun i => !(k35_cond2 i == 1#1) | ⟨_ + 3, h⟩ => absurd h (Nat.not_lt.2 (Nat.le_add_left _ _))

abbrev win36_0 : Pipeline.Window sig grid36 :=
  Pipeline.Window.ofSpec (Memref.whole main_v9) S1024x1024.size cc36_transform_0 reads36_0 false false 2 stage36_0 sem36_0
    hrank36 hreads36_0 hinb36_0 nbuf36_0 (Memref.isWhole_whole _) hwx36_0 hstage36_0

abbrev win36_1 : Pipeline.Window sig grid36 :=
  Pipeline.Window.ofSpec (Memref.whole main_v210) S1024x512.size cc36_transform_1 reads36_1 false false 2 stage36_1 sem36_1
    hrank36 hreads36_1 hinb36_1 nbuf36_1 (Memref.isWhole_whole _) hwx36_1 hstage36_1

abbrev win36_2 : Pipeline.Window sig grid36 :=
  Pipeline.Window.ofSpec (Memref.whole main_v211) S1024x512.size cc36_transform_2 reads36_2 true false 2 stage36_2 sem36_2
    hrank36 hreads36_2 hinb36_2 nbuf36_2 (Memref.isWhole_whole _) hwx36_2 hstage36_2

abbrev win36 : Fin 3 → Pipeline.Window sig grid36 := fun | 0 => win36_0 | 1 => win36_1 | 2 => win36_2 | ⟨_ + 3, h⟩ => absurd h (Nat.not_lt.2 (Nat.le_add_left _ _))
abbrev spec36 : Fin 3 → Pipeline.WinSpec sig grid36.rank := fun w => (win36 w).toWinSpec

abbrev idle36 : Fin 3 → grid36.Coords → Bool := fun | 0 => fun _ => false | 1 => fun _ => false | 2 => fun i => !(k36_cond2 i == 1#1) | ⟨_ + 3, h⟩ => absurd h (Nat.not_lt.2 (Nat.le_add_left _ _))

abbrev win37_0 : Pipeline.Window sig grid37 :=
  Pipeline.Window.ofSpec (Memref.whole main_v8) S1024x1024.size cc37_transform_0 reads37_0 false false 2 stage37_0 sem37_0
    hrank37 hreads37_0 hinb37_0 nbuf37_0 (Memref.isWhole_whole _) hwx37_0 hstage37_0

abbrev win37_1 : Pipeline.Window sig grid37 :=
  Pipeline.Window.ofSpec (Memref.whole main_v205) S1024x512.size cc37_transform_1 reads37_1 false false 2 stage37_1 sem37_1
    hrank37 hreads37_1 hinb37_1 nbuf37_1 (Memref.isWhole_whole _) hwx37_1 hstage37_1

abbrev win37_2 : Pipeline.Window sig grid37 :=
  Pipeline.Window.ofSpec (Memref.whole main_v215) S1024x512.size cc37_transform_2 reads37_2 true false 2 stage37_2 sem37_2
    hrank37 hreads37_2 hinb37_2 nbuf37_2 (Memref.isWhole_whole _) hwx37_2 hstage37_2

abbrev win37 : Fin 3 → Pipeline.Window sig grid37 := fun | 0 => win37_0 | 1 => win37_1 | 2 => win37_2 | ⟨_ + 3, h⟩ => absurd h (Nat.not_lt.2 (Nat.le_add_left _ _))
abbrev spec37 : Fin 3 → Pipeline.WinSpec sig grid37.rank := fun w => (win37 w).toWinSpec

abbrev idle37 : Fin 3 → grid37.Coords → Bool := fun | 0 => fun _ => false | 1 => fun _ => false | 2 => fun i => !(k37_cond2 i == 1#1) | ⟨_ + 3, h⟩ => absurd h (Nat.not_lt.2 (Nat.le_add_left _ _))

abbrev win38_0 : Pipeline.Window sig grid38 :=
  Pipeline.Window.ofSpec (Memref.whole main_v218) S1024x512.size cc38_transform_0 reads38_0 false false 2 stage38_0 sem38_0
    hrank38 hreads38_0 hinb38_0 nbuf38_0 (Memref.isWhole_whole _) hwx38_0 hstage38_0

abbrev win38_1 : Pipeline.Window sig grid38 :=
  Pipeline.Window.ofSpec (Memref.whole main_v10) S512x512.size cc38_transform_1 reads38_1 false false 1 stage38_1 sem38_1
    hrank38 hreads38_1 hinb38_1 nbuf38_1 (Memref.isWhole_whole _) hwx38_1 hstage38_1

abbrev win38_2 : Pipeline.Window sig grid38 :=
  Pipeline.Window.ofSpec (Memref.whole main_v219) S1024x512.size cc38_transform_2 reads38_2 true false 2 stage38_2 sem38_2
    hrank38 hreads38_2 hinb38_2 nbuf38_2 (Memref.isWhole_whole _) hwx38_2 hstage38_2

abbrev win38 : Fin 3 → Pipeline.Window sig grid38 := fun | 0 => win38_0 | 1 => win38_1 | 2 => win38_2 | ⟨_ + 3, h⟩ => absurd h (Nat.not_lt.2 (Nat.le_add_left _ _))
abbrev spec38 : Fin 3 → Pipeline.WinSpec sig grid38.rank := fun w => (win38 w).toWinSpec

abbrev idle38 : Fin 3 → grid38.Coords → Bool := fun | 0 => fun _ => false | 1 => fun _ => false | 2 => fun i => !(k38_cond2 i == 1#1) | ⟨_ + 3, h⟩ => absurd h (Nat.not_lt.2 (Nat.le_add_left _ _))

abbrev win39_0 : Pipeline.Window sig grid39 :=
  Pipeline.Window.ofSpec (Memref.whole main_v7) S1024x1024.size cc39_transform_0 reads39_0 false false 2 stage39_0 sem39_0
    hrank39 hreads39_0 hinb39_0 nbuf39_0 (Memref.isWhole_whole _) hwx39_0 hstage39_0

abbrev win39_1 : Pipeline.Window sig grid39 :=
  Pipeline.Window.ofSpec (Memref.whole main_v219) S1024x512.size cc39_transform_1 reads39_1 false false 2 stage39_1 sem39_1
    hrank39 hreads39_1 hinb39_1 nbuf39_1 (Memref.isWhole_whole _) hwx39_1 hstage39_1

abbrev win39_2 : Pipeline.Window sig grid39 :=
  Pipeline.Window.ofSpec (Memref.whole main_v220) S1024x512.size cc39_transform_2 reads39_2 true false 2 stage39_2 sem39_2
    hrank39 hreads39_2 hinb39_2 nbuf39_2 (Memref.isWhole_whole _) hwx39_2 hstage39_2

abbrev win39 : Fin 3 → Pipeline.Window sig grid39 := fun | 0 => win39_0 | 1 => win39_1 | 2 => win39_2 | ⟨_ + 3, h⟩ => absurd h (Nat.not_lt.2 (Nat.le_add_left _ _))
abbrev spec39 : Fin 3 → Pipeline.WinSpec sig grid39.rank := fun w => (win39 w).toWinSpec

abbrev idle39 : Fin 3 → grid39.Coords → Bool := fun | 0 => fun _ => false | 1 => fun _ => false | 2 => fun i => !(k39_cond2 i == 1#1) | ⟨_ + 3, h⟩ => absurd h (Nat.not_lt.2 (Nat.le_add_left _ _))

abbrev win40_0 : Pipeline.Window sig grid40 :=
  Pipeline.Window.ofSpec (Memref.whole main_v8) S1024x1024.size cc40_transform_0 reads40_0 false false 2 stage40_0 sem40_0
    hrank40 hreads40_0 hinb40_0 nbuf40_0 (Memref.isWhole_whole _) hwx40_0 hstage40_0

abbrev win40_1 : Pipeline.Window sig grid40 :=
  Pipeline.Window.ofSpec (Memref.whole main_v222) S1024x512.size cc40_transform_1 reads40_1 false false 2 stage40_1 sem40_1
    hrank40 hreads40_1 hinb40_1 nbuf40_1 (Memref.isWhole_whole _) hwx40_1 hstage40_1

abbrev win40_2 : Pipeline.Window sig grid40 :=
  Pipeline.Window.ofSpec (Memref.whole main_v224) S1024x512.size cc40_transform_2 reads40_2 true false 2 stage40_2 sem40_2
    hrank40 hreads40_2 hinb40_2 nbuf40_2 (Memref.isWhole_whole _) hwx40_2 hstage40_2

abbrev win40 : Fin 3 → Pipeline.Window sig grid40 := fun | 0 => win40_0 | 1 => win40_1 | 2 => win40_2 | ⟨_ + 3, h⟩ => absurd h (Nat.not_lt.2 (Nat.le_add_left _ _))
abbrev spec40 : Fin 3 → Pipeline.WinSpec sig grid40.rank := fun w => (win40 w).toWinSpec

abbrev idle40 : Fin 3 → grid40.Coords → Bool := fun | 0 => fun _ => false | 1 => fun _ => false | 2 => fun i => !(k40_cond2 i == 1#1) | ⟨_ + 3, h⟩ => absurd h (Nat.not_lt.2 (Nat.le_add_left _ _))

abbrev win41_0 : Pipeline.Window sig grid41 :=
  Pipeline.Window.ofSpec (Memref.whole main_v227) S1024x512.size cc41_transform_0 reads41_0 false false 2 stage41_0 sem41_0
    hrank41 hreads41_0 hinb41_0 nbuf41_0 (Memref.isWhole_whole _) hwx41_0 hstage41_0

abbrev win41_1 : Pipeline.Window sig grid41 :=
  Pipeline.Window.ofSpec (Memref.whole main_v10) S512x512.size cc41_transform_1 reads41_1 false false 1 stage41_1 sem41_1
    hrank41 hreads41_1 hinb41_1 nbuf41_1 (Memref.isWhole_whole _) hwx41_1 hstage41_1

abbrev win41_2 : Pipeline.Window sig grid41 :=
  Pipeline.Window.ofSpec (Memref.whole main_v228) S1024x512.size cc41_transform_2 reads41_2 true false 2 stage41_2 sem41_2
    hrank41 hreads41_2 hinb41_2 nbuf41_2 (Memref.isWhole_whole _) hwx41_2 hstage41_2

abbrev win41 : Fin 3 → Pipeline.Window sig grid41 := fun | 0 => win41_0 | 1 => win41_1 | 2 => win41_2 | ⟨_ + 3, h⟩ => absurd h (Nat.not_lt.2 (Nat.le_add_left _ _))
abbrev spec41 : Fin 3 → Pipeline.WinSpec sig grid41.rank := fun w => (win41 w).toWinSpec

abbrev idle41 : Fin 3 → grid41.Coords → Bool := fun | 0 => fun _ => false | 1 => fun _ => false | 2 => fun i => !(k41_cond2 i == 1#1) | ⟨_ + 3, h⟩ => absurd h (Nat.not_lt.2 (Nat.le_add_left _ _))

abbrev win42_0 : Pipeline.Window sig grid42 :=
  Pipeline.Window.ofSpec (Memref.whole main_v7) S1024x1024.size cc42_transform_0 reads42_0 false false 2 stage42_0 sem42_0
    hrank42 hreads42_0 hinb42_0 nbuf42_0 (Memref.isWhole_whole _) hwx42_0 hstage42_0

abbrev win42_1 : Pipeline.Window sig grid42 :=
  Pipeline.Window.ofSpec (Memref.whole main_v228) S1024x512.size cc42_transform_1 reads42_1 false false 2 stage42_1 sem42_1
    hrank42 hreads42_1 hinb42_1 nbuf42_1 (Memref.isWhole_whole _) hwx42_1 hstage42_1

abbrev win42_2 : Pipeline.Window sig grid42 :=
  Pipeline.Window.ofSpec (Memref.whole main_v229) S1024x512.size cc42_transform_2 reads42_2 true false 2 stage42_2 sem42_2
    hrank42 hreads42_2 hinb42_2 nbuf42_2 (Memref.isWhole_whole _) hwx42_2 hstage42_2

abbrev win42 : Fin 3 → Pipeline.Window sig grid42 := fun | 0 => win42_0 | 1 => win42_1 | 2 => win42_2 | ⟨_ + 3, h⟩ => absurd h (Nat.not_lt.2 (Nat.le_add_left _ _))
abbrev spec42 : Fin 3 → Pipeline.WinSpec sig grid42.rank := fun w => (win42 w).toWinSpec

abbrev idle42 : Fin 3 → grid42.Coords → Bool := fun | 0 => fun _ => false | 1 => fun _ => false | 2 => fun i => !(k42_cond2 i == 1#1) | ⟨_ + 3, h⟩ => absurd h (Nat.not_lt.2 (Nat.le_add_left _ _))

abbrev win43_0 : Pipeline.Window sig grid43 :=
  Pipeline.Window.ofSpec (Memref.whole main_v9) S1024x1024.size cc43_transform_0 reads43_0 false false 2 stage43_0 sem43_0
    hrank43 hreads43_0 hinb43_0 nbuf43_0 (Memref.isWhole_whole _) hwx43_0 hstage43_0

abbrev win43_1 : Pipeline.Window sig grid43 :=
  Pipeline.Window.ofSpec (Memref.whole main_v247) S1024x512.size cc43_transform_1 reads43_1 false false 2 stage43_1 sem43_1
    hrank43 hreads43_1 hinb43_1 nbuf43_1 (Memref.isWhole_whole _) hwx43_1 hstage43_1

abbrev win43_2 : Pipeline.Window sig grid43 :=
  Pipeline.Window.ofSpec (Memref.whole main_v248) S1024x512.size cc43_transform_2 reads43_2 true false 2 stage43_2 sem43_2
    hrank43 hreads43_2 hinb43_2 nbuf43_2 (Memref.isWhole_whole _) hwx43_2 hstage43_2

abbrev win43 : Fin 3 → Pipeline.Window sig grid43 := fun | 0 => win43_0 | 1 => win43_1 | 2 => win43_2 | ⟨_ + 3, h⟩ => absurd h (Nat.not_lt.2 (Nat.le_add_left _ _))
abbrev spec43 : Fin 3 → Pipeline.WinSpec sig grid43.rank := fun w => (win43 w).toWinSpec

abbrev idle43 : Fin 3 → grid43.Coords → Bool := fun | 0 => fun _ => false | 1 => fun _ => false | 2 => fun i => !(k43_cond2 i == 1#1) | ⟨_ + 3, h⟩ => absurd h (Nat.not_lt.2 (Nat.le_add_left _ _))

abbrev win44_0 : Pipeline.Window sig grid44 :=
  Pipeline.Window.ofSpec (Memref.whole main_v8) S1024x1024.size cc44_transform_0 reads44_0 false false 2 stage44_0 sem44_0
    hrank44 hreads44_0 hinb44_0 nbuf44_0 (Memref.isWhole_whole _) hwx44_0 hstage44_0

abbrev win44_1 : Pipeline.Window sig grid44 :=
  Pipeline.Window.ofSpec (Memref.whole main_v242) S1024x512.size cc44_transform_1 reads44_1 false false 2 stage44_1 sem44_1
    hrank44 hreads44_1 hinb44_1 nbuf44_1 (Memref.isWhole_whole _) hwx44_1 hstage44_1

abbrev win44_2 : Pipeline.Window sig grid44 :=
  Pipeline.Window.ofSpec (Memref.whole main_v252) S1024x512.size cc44_transform_2 reads44_2 true false 2 stage44_2 sem44_2
    hrank44 hreads44_2 hinb44_2 nbuf44_2 (Memref.isWhole_whole _) hwx44_2 hstage44_2

abbrev win44 : Fin 3 → Pipeline.Window sig grid44 := fun | 0 => win44_0 | 1 => win44_1 | 2 => win44_2 | ⟨_ + 3, h⟩ => absurd h (Nat.not_lt.2 (Nat.le_add_left _ _))
abbrev spec44 : Fin 3 → Pipeline.WinSpec sig grid44.rank := fun w => (win44 w).toWinSpec

abbrev idle44 : Fin 3 → grid44.Coords → Bool := fun | 0 => fun _ => false | 1 => fun _ => false | 2 => fun i => !(k44_cond2 i == 1#1) | ⟨_ + 3, h⟩ => absurd h (Nat.not_lt.2 (Nat.le_add_left _ _))

abbrev win45_0 : Pipeline.Window sig grid45 :=
  Pipeline.Window.ofSpec (Memref.whole main_v255) S1024x512.size cc45_transform_0 reads45_0 false false 2 stage45_0 sem45_0
    hrank45 hreads45_0 hinb45_0 nbuf45_0 (Memref.isWhole_whole _) hwx45_0 hstage45_0

abbrev win45_1 : Pipeline.Window sig grid45 :=
  Pipeline.Window.ofSpec (Memref.whole main_v10) S512x512.size cc45_transform_1 reads45_1 false false 1 stage45_1 sem45_1
    hrank45 hreads45_1 hinb45_1 nbuf45_1 (Memref.isWhole_whole _) hwx45_1 hstage45_1

abbrev win45_2 : Pipeline.Window sig grid45 :=
  Pipeline.Window.ofSpec (Memref.whole main_v256) S1024x512.size cc45_transform_2 reads45_2 true false 2 stage45_2 sem45_2
    hrank45 hreads45_2 hinb45_2 nbuf45_2 (Memref.isWhole_whole _) hwx45_2 hstage45_2

abbrev win45 : Fin 3 → Pipeline.Window sig grid45 := fun | 0 => win45_0 | 1 => win45_1 | 2 => win45_2 | ⟨_ + 3, h⟩ => absurd h (Nat.not_lt.2 (Nat.le_add_left _ _))
abbrev spec45 : Fin 3 → Pipeline.WinSpec sig grid45.rank := fun w => (win45 w).toWinSpec

abbrev idle45 : Fin 3 → grid45.Coords → Bool := fun | 0 => fun _ => false | 1 => fun _ => false | 2 => fun i => !(k45_cond2 i == 1#1) | ⟨_ + 3, h⟩ => absurd h (Nat.not_lt.2 (Nat.le_add_left _ _))

abbrev win46_0 : Pipeline.Window sig grid46 :=
  Pipeline.Window.ofSpec (Memref.whole main_v7) S1024x1024.size cc46_transform_0 reads46_0 false false 2 stage46_0 sem46_0
    hrank46 hreads46_0 hinb46_0 nbuf46_0 (Memref.isWhole_whole _) hwx46_0 hstage46_0

abbrev win46_1 : Pipeline.Window sig grid46 :=
  Pipeline.Window.ofSpec (Memref.whole main_v256) S1024x512.size cc46_transform_1 reads46_1 false false 2 stage46_1 sem46_1
    hrank46 hreads46_1 hinb46_1 nbuf46_1 (Memref.isWhole_whole _) hwx46_1 hstage46_1

abbrev win46_2 : Pipeline.Window sig grid46 :=
  Pipeline.Window.ofSpec (Memref.whole main_v257) S1024x512.size cc46_transform_2 reads46_2 true false 2 stage46_2 sem46_2
    hrank46 hreads46_2 hinb46_2 nbuf46_2 (Memref.isWhole_whole _) hwx46_2 hstage46_2

abbrev win46 : Fin 3 → Pipeline.Window sig grid46 := fun | 0 => win46_0 | 1 => win46_1 | 2 => win46_2 | ⟨_ + 3, h⟩ => absurd h (Nat.not_lt.2 (Nat.le_add_left _ _))
abbrev spec46 : Fin 3 → Pipeline.WinSpec sig grid46.rank := fun w => (win46 w).toWinSpec

abbrev idle46 : Fin 3 → grid46.Coords → Bool := fun | 0 => fun _ => false | 1 => fun _ => false | 2 => fun i => !(k46_cond2 i == 1#1) | ⟨_ + 3, h⟩ => absurd h (Nat.not_lt.2 (Nat.le_add_left _ _))

abbrev win47_0 : Pipeline.Window sig grid47 :=
  Pipeline.Window.ofSpec (Memref.whole main_v8) S1024x1024.size cc47_transform_0 reads47_0 false false 2 stage47_0 sem47_0
    hrank47 hreads47_0 hinb47_0 nbuf47_0 (Memref.isWhole_whole _) hwx47_0 hstage47_0

abbrev win47_1 : Pipeline.Window sig grid47 :=
  Pipeline.Window.ofSpec (Memref.whole main_v259) S1024x512.size cc47_transform_1 reads47_1 false false 2 stage47_1 sem47_1
    hrank47 hreads47_1 hinb47_1 nbuf47_1 (Memref.isWhole_whole _) hwx47_1 hstage47_1

abbrev win47_2 : Pipeline.Window sig grid47 :=
  Pipeline.Window.ofSpec (Memref.whole main_v261) S1024x512.size cc47_transform_2 reads47_2 true false 2 stage47_2 sem47_2
    hrank47 hreads47_2 hinb47_2 nbuf47_2 (Memref.isWhole_whole _) hwx47_2 hstage47_2

abbrev win47 : Fin 3 → Pipeline.Window sig grid47 := fun | 0 => win47_0 | 1 => win47_1 | 2 => win47_2 | ⟨_ + 3, h⟩ => absurd h (Nat.not_lt.2 (Nat.le_add_left _ _))
abbrev spec47 : Fin 3 → Pipeline.WinSpec sig grid47.rank := fun w => (win47 w).toWinSpec

abbrev idle47 : Fin 3 → grid47.Coords → Bool := fun | 0 => fun _ => false | 1 => fun _ => false | 2 => fun i => !(k47_cond2 i == 1#1) | ⟨_ + 3, h⟩ => absurd h (Nat.not_lt.2 (Nat.le_add_left _ _))

abbrev win48_0 : Pipeline.Window sig grid48 :=
  Pipeline.Window.ofSpec (Memref.whole main_v264) S1024x512.size cc48_transform_0 reads48_0 false false 2 stage48_0 sem48_0
    hrank48 hreads48_0 hinb48_0 nbuf48_0 (Memref.isWhole_whole _) hwx48_0 hstage48_0

abbrev win48_1 : Pipeline.Window sig grid48 :=
  Pipeline.Window.ofSpec (Memref.whole main_v10) S512x512.size cc48_transform_1 reads48_1 false false 1 stage48_1 sem48_1
    hrank48 hreads48_1 hinb48_1 nbuf48_1 (Memref.isWhole_whole _) hwx48_1 hstage48_1

abbrev win48_2 : Pipeline.Window sig grid48 :=
  Pipeline.Window.ofSpec (Memref.whole main_v265) S1024x512.size cc48_transform_2 reads48_2 true false 2 stage48_2 sem48_2
    hrank48 hreads48_2 hinb48_2 nbuf48_2 (Memref.isWhole_whole _) hwx48_2 hstage48_2

abbrev win48 : Fin 3 → Pipeline.Window sig grid48 := fun | 0 => win48_0 | 1 => win48_1 | 2 => win48_2 | ⟨_ + 3, h⟩ => absurd h (Nat.not_lt.2 (Nat.le_add_left _ _))
abbrev spec48 : Fin 3 → Pipeline.WinSpec sig grid48.rank := fun w => (win48 w).toWinSpec

abbrev idle48 : Fin 3 → grid48.Coords → Bool := fun | 0 => fun _ => false | 1 => fun _ => false | 2 => fun i => !(k48_cond2 i == 1#1) | ⟨_ + 3, h⟩ => absurd h (Nat.not_lt.2 (Nat.le_add_left _ _))

abbrev win49_0 : Pipeline.Window sig grid49 :=
  Pipeline.Window.ofSpec (Memref.whole main_v7) S1024x1024.size cc49_transform_0 reads49_0 false false 2 stage49_0 sem49_0
    hrank49 hreads49_0 hinb49_0 nbuf49_0 (Memref.isWhole_whole _) hwx49_0 hstage49_0

abbrev win49_1 : Pipeline.Window sig grid49 :=
  Pipeline.Window.ofSpec (Memref.whole main_v265) S1024x512.size cc49_transform_1 reads49_1 false false 2 stage49_1 sem49_1
    hrank49 hreads49_1 hinb49_1 nbuf49_1 (Memref.isWhole_whole _) hwx49_1 hstage49_1

abbrev win49_2 : Pipeline.Window sig grid49 :=
  Pipeline.Window.ofSpec (Memref.whole main_v266) S1024x512.size cc49_transform_2 reads49_2 true false 2 stage49_2 sem49_2
    hrank49 hreads49_2 hinb49_2 nbuf49_2 (Memref.isWhole_whole _) hwx49_2 hstage49_2

abbrev win49 : Fin 3 → Pipeline.Window sig grid49 := fun | 0 => win49_0 | 1 => win49_1 | 2 => win49_2 | ⟨_ + 3, h⟩ => absurd h (Nat.not_lt.2 (Nat.le_add_left _ _))
abbrev spec49 : Fin 3 → Pipeline.WinSpec sig grid49.rank := fun w => (win49 w).toWinSpec

abbrev idle49 : Fin 3 → grid49.Coords → Bool := fun | 0 => fun _ => false | 1 => fun _ => false | 2 => fun i => !(k49_cond2 i == 1#1) | ⟨_ + 3, h⟩ => absurd h (Nat.not_lt.2 (Nat.le_add_left _ _))

abbrev win50_0 : Pipeline.Window sig grid50 :=
  Pipeline.Window.ofSpec (Memref.whole main_v9) S1024x1024.size cc50_transform_0 reads50_0 false false 2 stage50_0 sem50_0
    hrank50 hreads50_0 hinb50_0 nbuf50_0 (Memref.isWhole_whole _) hwx50_0 hstage50_0

abbrev win50_1 : Pipeline.Window sig grid50 :=
  Pipeline.Window.ofSpec (Memref.whole main_v284) S1024x512.size cc50_transform_1 reads50_1 false false 2 stage50_1 sem50_1
    hrank50 hreads50_1 hinb50_1 nbuf50_1 (Memref.isWhole_whole _) hwx50_1 hstage50_1

abbrev win50_2 : Pipeline.Window sig grid50 :=
  Pipeline.Window.ofSpec (Memref.whole main_v285) S1024x512.size cc50_transform_2 reads50_2 true false 2 stage50_2 sem50_2
    hrank50 hreads50_2 hinb50_2 nbuf50_2 (Memref.isWhole_whole _) hwx50_2 hstage50_2

abbrev win50 : Fin 3 → Pipeline.Window sig grid50 := fun | 0 => win50_0 | 1 => win50_1 | 2 => win50_2 | ⟨_ + 3, h⟩ => absurd h (Nat.not_lt.2 (Nat.le_add_left _ _))
abbrev spec50 : Fin 3 → Pipeline.WinSpec sig grid50.rank := fun w => (win50 w).toWinSpec

abbrev idle50 : Fin 3 → grid50.Coords → Bool := fun | 0 => fun _ => false | 1 => fun _ => false | 2 => fun i => !(k50_cond2 i == 1#1) | ⟨_ + 3, h⟩ => absurd h (Nat.not_lt.2 (Nat.le_add_left _ _))

abbrev win51_0 : Pipeline.Window sig grid51 :=
  Pipeline.Window.ofSpec (Memref.whole main_v8) S1024x1024.size cc51_transform_0 reads51_0 false false 2 stage51_0 sem51_0
    hrank51 hreads51_0 hinb51_0 nbuf51_0 (Memref.isWhole_whole _) hwx51_0 hstage51_0

abbrev win51_1 : Pipeline.Window sig grid51 :=
  Pipeline.Window.ofSpec (Memref.whole main_v279) S1024x512.size cc51_transform_1 reads51_1 false false 2 stage51_1 sem51_1
    hrank51 hreads51_1 hinb51_1 nbuf51_1 (Memref.isWhole_whole _) hwx51_1 hstage51_1

abbrev win51_2 : Pipeline.Window sig grid51 :=
  Pipeline.Window.ofSpec (Memref.whole main_v289) S1024x512.size cc51_transform_2 reads51_2 true false 2 stage51_2 sem51_2
    hrank51 hreads51_2 hinb51_2 nbuf51_2 (Memref.isWhole_whole _) hwx51_2 hstage51_2

abbrev win51 : Fin 3 → Pipeline.Window sig grid51 := fun | 0 => win51_0 | 1 => win51_1 | 2 => win51_2 | ⟨_ + 3, h⟩ => absurd h (Nat.not_lt.2 (Nat.le_add_left _ _))
abbrev spec51 : Fin 3 → Pipeline.WinSpec sig grid51.rank := fun w => (win51 w).toWinSpec

abbrev idle51 : Fin 3 → grid51.Coords → Bool := fun | 0 => fun _ => false | 1 => fun _ => false | 2 => fun i => !(k51_cond2 i == 1#1) | ⟨_ + 3, h⟩ => absurd h (Nat.not_lt.2 (Nat.le_add_left _ _))

abbrev win52_0 : Pipeline.Window sig grid52 :=
  Pipeline.Window.ofSpec (Memref.whole main_v292) S1024x512.size cc52_transform_0 reads52_0 false false 2 stage52_0 sem52_0
    hrank52 hreads52_0 hinb52_0 nbuf52_0 (Memref.isWhole_whole _) hwx52_0 hstage52_0

abbrev win52_1 : Pipeline.Window sig grid52 :=
  Pipeline.Window.ofSpec (Memref.whole main_v10) S512x512.size cc52_transform_1 reads52_1 false false 1 stage52_1 sem52_1
    hrank52 hreads52_1 hinb52_1 nbuf52_1 (Memref.isWhole_whole _) hwx52_1 hstage52_1

abbrev win52_2 : Pipeline.Window sig grid52 :=
  Pipeline.Window.ofSpec (Memref.whole main_v293) S1024x512.size cc52_transform_2 reads52_2 true false 2 stage52_2 sem52_2
    hrank52 hreads52_2 hinb52_2 nbuf52_2 (Memref.isWhole_whole _) hwx52_2 hstage52_2

abbrev win52 : Fin 3 → Pipeline.Window sig grid52 := fun | 0 => win52_0 | 1 => win52_1 | 2 => win52_2 | ⟨_ + 3, h⟩ => absurd h (Nat.not_lt.2 (Nat.le_add_left _ _))
abbrev spec52 : Fin 3 → Pipeline.WinSpec sig grid52.rank := fun w => (win52 w).toWinSpec

abbrev idle52 : Fin 3 → grid52.Coords → Bool := fun | 0 => fun _ => false | 1 => fun _ => false | 2 => fun i => !(k52_cond2 i == 1#1) | ⟨_ + 3, h⟩ => absurd h (Nat.not_lt.2 (Nat.le_add_left _ _))

abbrev win53_0 : Pipeline.Window sig grid53 :=
  Pipeline.Window.ofSpec (Memref.whole main_v7) S1024x1024.size cc53_transform_0 reads53_0 false false 2 stage53_0 sem53_0
    hrank53 hreads53_0 hinb53_0 nbuf53_0 (Memref.isWhole_whole _) hwx53_0 hstage53_0

abbrev win53_1 : Pipeline.Window sig grid53 :=
  Pipeline.Window.ofSpec (Memref.whole main_v293) S1024x512.size cc53_transform_1 reads53_1 false false 2 stage53_1 sem53_1
    hrank53 hreads53_1 hinb53_1 nbuf53_1 (Memref.isWhole_whole _) hwx53_1 hstage53_1

abbrev win53_2 : Pipeline.Window sig grid53 :=
  Pipeline.Window.ofSpec (Memref.whole main_v294) S1024x512.size cc53_transform_2 reads53_2 true false 2 stage53_2 sem53_2
    hrank53 hreads53_2 hinb53_2 nbuf53_2 (Memref.isWhole_whole _) hwx53_2 hstage53_2

abbrev win53 : Fin 3 → Pipeline.Window sig grid53 := fun | 0 => win53_0 | 1 => win53_1 | 2 => win53_2 | ⟨_ + 3, h⟩ => absurd h (Nat.not_lt.2 (Nat.le_add_left _ _))
abbrev spec53 : Fin 3 → Pipeline.WinSpec sig grid53.rank := fun w => (win53 w).toWinSpec

abbrev idle53 : Fin 3 → grid53.Coords → Bool := fun | 0 => fun _ => false | 1 => fun _ => false | 2 => fun i => !(k53_cond2 i == 1#1) | ⟨_ + 3, h⟩ => absurd h (Nat.not_lt.2 (Nat.le_add_left _ _))

abbrev win54_0 : Pipeline.Window sig grid54 :=
  Pipeline.Window.ofSpec (Memref.whole main_v8) S1024x1024.size cc54_transform_0 reads54_0 false false 2 stage54_0 sem54_0
    hrank54 hreads54_0 hinb54_0 nbuf54_0 (Memref.isWhole_whole _) hwx54_0 hstage54_0

abbrev win54_1 : Pipeline.Window sig grid54 :=
  Pipeline.Window.ofSpec (Memref.whole main_v296) S1024x512.size cc54_transform_1 reads54_1 false false 2 stage54_1 sem54_1
    hrank54 hreads54_1 hinb54_1 nbuf54_1 (Memref.isWhole_whole _) hwx54_1 hstage54_1

abbrev win54_2 : Pipeline.Window sig grid54 :=
  Pipeline.Window.ofSpec (Memref.whole main_v298) S1024x512.size cc54_transform_2 reads54_2 true false 2 stage54_2 sem54_2
    hrank54 hreads54_2 hinb54_2 nbuf54_2 (Memref.isWhole_whole _) hwx54_2 hstage54_2

abbrev win54 : Fin 3 → Pipeline.Window sig grid54 := fun | 0 => win54_0 | 1 => win54_1 | 2 => win54_2 | ⟨_ + 3, h⟩ => absurd h (Nat.not_lt.2 (Nat.le_add_left _ _))
abbrev spec54 : Fin 3 → Pipeline.WinSpec sig grid54.rank := fun w => (win54 w).toWinSpec

abbrev idle54 : Fin 3 → grid54.Coords → Bool := fun | 0 => fun _ => false | 1 => fun _ => false | 2 => fun i => !(k54_cond2 i == 1#1) | ⟨_ + 3, h⟩ => absurd h (Nat.not_lt.2 (Nat.le_add_left _ _))

abbrev win55_0 : Pipeline.Window sig grid55 :=
  Pipeline.Window.ofSpec (Memref.whole main_v301) S1024x512.size cc55_transform_0 reads55_0 false false 2 stage55_0 sem55_0
    hrank55 hreads55_0 hinb55_0 nbuf55_0 (Memref.isWhole_whole _) hwx55_0 hstage55_0

abbrev win55_1 : Pipeline.Window sig grid55 :=
  Pipeline.Window.ofSpec (Memref.whole main_v10) S512x512.size cc55_transform_1 reads55_1 false false 1 stage55_1 sem55_1
    hrank55 hreads55_1 hinb55_1 nbuf55_1 (Memref.isWhole_whole _) hwx55_1 hstage55_1

abbrev win55_2 : Pipeline.Window sig grid55 :=
  Pipeline.Window.ofSpec (Memref.whole main_v302) S1024x512.size cc55_transform_2 reads55_2 true false 2 stage55_2 sem55_2
    hrank55 hreads55_2 hinb55_2 nbuf55_2 (Memref.isWhole_whole _) hwx55_2 hstage55_2

abbrev win55 : Fin 3 → Pipeline.Window sig grid55 := fun | 0 => win55_0 | 1 => win55_1 | 2 => win55_2 | ⟨_ + 3, h⟩ => absurd h (Nat.not_lt.2 (Nat.le_add_left _ _))
abbrev spec55 : Fin 3 → Pipeline.WinSpec sig grid55.rank := fun w => (win55 w).toWinSpec

abbrev idle55 : Fin 3 → grid55.Coords → Bool := fun | 0 => fun _ => false | 1 => fun _ => false | 2 => fun i => !(k55_cond2 i == 1#1) | ⟨_ + 3, h⟩ => absurd h (Nat.not_lt.2 (Nat.le_add_left _ _))

abbrev win56_0 : Pipeline.Window sig grid56 :=
  Pipeline.Window.ofSpec (Memref.whole main_v7) S1024x1024.size cc56_transform_0 reads56_0 false false 2 stage56_0 sem56_0
    hrank56 hreads56_0 hinb56_0 nbuf56_0 (Memref.isWhole_whole _) hwx56_0 hstage56_0

abbrev win56_1 : Pipeline.Window sig grid56 :=
  Pipeline.Window.ofSpec (Memref.whole main_v302) S1024x512.size cc56_transform_1 reads56_1 false false 2 stage56_1 sem56_1
    hrank56 hreads56_1 hinb56_1 nbuf56_1 (Memref.isWhole_whole _) hwx56_1 hstage56_1

abbrev win56_2 : Pipeline.Window sig grid56 :=
  Pipeline.Window.ofSpec (Memref.whole main_v303) S1024x512.size cc56_transform_2 reads56_2 true false 2 stage56_2 sem56_2
    hrank56 hreads56_2 hinb56_2 nbuf56_2 (Memref.isWhole_whole _) hwx56_2 hstage56_2

abbrev win56 : Fin 3 → Pipeline.Window sig grid56 := fun | 0 => win56_0 | 1 => win56_1 | 2 => win56_2 | ⟨_ + 3, h⟩ => absurd h (Nat.not_lt.2 (Nat.le_add_left _ _))
abbrev spec56 : Fin 3 → Pipeline.WinSpec sig grid56.rank := fun w => (win56 w).toWinSpec

abbrev idle56 : Fin 3 → grid56.Coords → Bool := fun | 0 => fun _ => false | 1 => fun _ => false | 2 => fun i => !(k56_cond2 i == 1#1) | ⟨_ + 3, h⟩ => absurd h (Nat.not_lt.2 (Nat.le_add_left _ _))

abbrev win57_0 : Pipeline.Window sig grid57 :=
  Pipeline.Window.ofSpec (Memref.whole main_v9) S1024x1024.size cc57_transform_0 reads57_0 false false 2 stage57_0 sem57_0
    hrank57 hreads57_0 hinb57_0 nbuf57_0 (Memref.isWhole_whole _) hwx57_0 hstage57_0

abbrev win57_1 : Pipeline.Window sig grid57 :=
  Pipeline.Window.ofSpec (Memref.whole main_v321) S1024x512.size cc57_transform_1 reads57_1 false false 2 stage57_1 sem57_1
    hrank57 hreads57_1 hinb57_1 nbuf57_1 (Memref.isWhole_whole _) hwx57_1 hstage57_1

abbrev win57_2 : Pipeline.Window sig grid57 :=
  Pipeline.Window.ofSpec (Memref.whole main_v322) S1024x512.size cc57_transform_2 reads57_2 true false 2 stage57_2 sem57_2
    hrank57 hreads57_2 hinb57_2 nbuf57_2 (Memref.isWhole_whole _) hwx57_2 hstage57_2

abbrev win57 : Fin 3 → Pipeline.Window sig grid57 := fun | 0 => win57_0 | 1 => win57_1 | 2 => win57_2 | ⟨_ + 3, h⟩ => absurd h (Nat.not_lt.2 (Nat.le_add_left _ _))
abbrev spec57 : Fin 3 → Pipeline.WinSpec sig grid57.rank := fun w => (win57 w).toWinSpec

abbrev idle57 : Fin 3 → grid57.Coords → Bool := fun | 0 => fun _ => false | 1 => fun _ => false | 2 => fun i => !(k57_cond2 i == 1#1) | ⟨_ + 3, h⟩ => absurd h (Nat.not_lt.2 (Nat.le_add_left _ _))

abbrev win58_0 : Pipeline.Window sig grid58 :=
  Pipeline.Window.ofSpec (Memref.whole main_v316) S1024x512.size cc58_transform_0 reads58_0 false false 2 stage58_0 sem58_0
    hrank58 hreads58_0 hinb58_0 nbuf58_0 (Memref.isWhole_whole _) hwx58_0 hstage58_0

abbrev win58_1 : Pipeline.Window sig grid58 :=
  Pipeline.Window.ofSpec (Memref.whole main_v14) S512x512.size cc58_transform_1 reads58_1 false false 1 stage58_1 sem58_1
    hrank58 hreads58_1 hinb58_1 nbuf58_1 (Memref.isWhole_whole _) hwx58_1 hstage58_1

abbrev win58_2 : Pipeline.Window sig grid58 :=
  Pipeline.Window.ofSpec (Memref.whole main_v326) S1024x512.size cc58_transform_2 reads58_2 true false 2 stage58_2 sem58_2
    hrank58 hreads58_2 hinb58_2 nbuf58_2 (Memref.isWhole_whole _) hwx58_2 hstage58_2

abbrev win58 : Fin 3 → Pipeline.Window sig grid58 := fun | 0 => win58_0 | 1 => win58_1 | 2 => win58_2 | ⟨_ + 3, h⟩ => absurd h (Nat.not_lt.2 (Nat.le_add_left _ _))
abbrev spec58 : Fin 3 → Pipeline.WinSpec sig grid58.rank := fun w => (win58 w).toWinSpec

abbrev idle58 : Fin 3 → grid58.Coords → Bool := fun | 0 => fun _ => false | 1 => fun _ => false | 2 => fun i => !(k58_cond2 i == 1#1) | ⟨_ + 3, h⟩ => absurd h (Nat.not_lt.2 (Nat.le_add_left _ _))

abbrev win59_0 : Pipeline.Window sig grid59 :=
  Pipeline.Window.ofSpec (Memref.whole main_v330) S1024x512.size cc59_transform_0 reads59_0 false false 2 stage59_0 sem59_0
    hrank59 hreads59_0 hinb59_0 nbuf59_0 (Memref.isWhole_whole _) hwx59_0 hstage59_0

abbrev win59_1 : Pipeline.Window sig grid59 :=
  Pipeline.Window.ofSpec (Memref.whole main_v16) S512x64.size cc59_transform_1 reads59_1 false false 1 stage59_1 sem59_1
    hrank59 hreads59_1 hinb59_1 nbuf59_1 (Memref.isWhole_whole _) hwx59_1 hstage59_1

abbrev win59_2 : Pipeline.Window sig grid59 :=
  Pipeline.Window.ofSpec (Memref.whole main_v331) S1024x64.size cc59_transform_2 reads59_2 true false 2 stage59_2 sem59_2
    hrank59 hreads59_2 hinb59_2 nbuf59_2 (Memref.isWhole_whole _) hwx59_2 hstage59_2

abbrev win59 : Fin 3 → Pipeline.Window sig grid59 := fun | 0 => win59_0 | 1 => win59_1 | 2 => win59_2 | ⟨_ + 3, h⟩ => absurd h (Nat.not_lt.2 (Nat.le_add_left _ _))
abbrev spec59 : Fin 3 → Pipeline.WinSpec sig grid59.rank := fun w => (win59 w).toWinSpec

abbrev idle59 : Fin 3 → grid59.Coords → Bool := fun | 0 => fun _ => false | 1 => fun _ => false | 2 => fun i => !(k59_cond2 i == 1#1) | ⟨_ + 3, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x4096 : Shape := ⟨2, ![4096, 4096]⟩
abbrev S4096 : Shape := ⟨1, ![4096]⟩
abbrev S512x128 : Shape := ⟨2, ![512, 128]⟩
abbrev S512 : Shape := ⟨1, ![512]⟩
abbrev S512x512 : Shape := ⟨2, ![512, 512]⟩
abbrev S64x512 : Shape := ⟨2, ![64, 512]⟩
abbrev S64 : Shape := ⟨1, ![64]⟩
abbrev S1 : Shape := ⟨1, ![1]⟩
abbrev S_ : Shape := ⟨0, ![]⟩
abbrev S128x512 : Shape := ⟨2, ![128, 512]⟩
abbrev S4096x512 : Shape := ⟨2, ![4096, 512]⟩
abbrev S1x512 : Shape := ⟨2, ![1, 512]⟩
abbrev S4096x1 : Shape := ⟨2, ![4096, 1]⟩
abbrev S512x64 : Shape := ⟨2, ![512, 64]⟩
abbrev S4096x64 : Shape := ⟨2, ![4096, 64]⟩
abbrev S1x64 : Shape := ⟨2, ![1, 64]⟩
abbrev S9 : Shape := ⟨1, ![9]⟩

abbrev nBuf : Space → Nat
  | .hbm => 427
  | .vmem => 0
  | .smem => 0
  | _ => 0

abbrev hbmTy0_0 (i : Nat) : BufTy := match i % 128 with
  | 0 => ⟨S4096x128, .f32⟩
  | 1 => ⟨S4096x4096, .f32⟩
  | 2 => ⟨S4096, .f32⟩
  | 3 => ⟨S4096x4096, .f32⟩
  | 4 => ⟨S4096x4096, .f32⟩
  | 5 => ⟨S512x128, .f32⟩
  | 6 => ⟨S512, .f32⟩
  | 7 => ⟨S512x512, .f32⟩
  | 8 => ⟨S512x512, .f32⟩
  | 9 => ⟨S512, .f32⟩
  | 10 => ⟨S64x512, .f32⟩
  | 11 => ⟨S64, .f32⟩
  | 12 => ⟨S1, .f32⟩
  | 13 => ⟨S1, .f32⟩
  | 14 => ⟨S1, .f32⟩
  | 15 => ⟨S_, .f32⟩
  | 16 => ⟨S_, .f32⟩
  | 17 => ⟨S4096, .f32⟩
  | 18 => ⟨S4096, .f32⟩
  | 19 => ⟨S_, .f32⟩
  | 20 => ⟨S4096, .f32⟩
  | 21 => ⟨S4096, .f32⟩
  | 22 => ⟨S128x512, .f32⟩
  | 23 => ⟨S4096x512, .f32⟩
  | 24 => ⟨S1x512, .f32⟩
  | 25 => ⟨S4096x512, .f32⟩
  | 26 => ⟨S4096x512, .f32⟩
  | 27 => ⟨S4096x512, .f32⟩
  | 28 => ⟨S_, .f32⟩
  | 29 => ⟨S_, .f32⟩
  | 30 => ⟨S_, .f32⟩
  | 31 => ⟨S4096x512, .f32⟩
  | 32 => ⟨S4096x512, .f32⟩
  | 33 => ⟨S4096x512, .f32⟩
  | 34 => ⟨S4096x512, .f32⟩
  | 35 => ⟨S_, .f32⟩
  | 36 => ⟨S_, .f32⟩
  | 37 => ⟨S_, .f32⟩
  | 38 => ⟨S_, .f32⟩
  | 39 => ⟨S4096x1, .f32⟩
  | 40 => ⟨S4096x512, .f32⟩
  | 41 => ⟨S4096x512, .f32⟩
  | 42 => ⟨S4096x512, .f32⟩
  | 43 => ⟨S4096x512, .f32⟩
  | 44 => ⟨S4096x512, .f32⟩
  | 45 => ⟨S_, .f32⟩
  | 46 => ⟨S4096x512, .f32⟩
  | 47 => ⟨S4096x512, .f32⟩
  | 48 => ⟨S_, .f32⟩
  | 49 => ⟨S_, .f32⟩
  | 50 => ⟨S4096x1, .f32⟩
  | 51 => ⟨S4096x512, .f32⟩
  | 52 => ⟨S4096x512, .f32⟩
  | 53 => ⟨S4096x512, .f32⟩
  | 54 => ⟨S4096x512, .f32⟩
  | 55 => ⟨S4096x512, .f32⟩
  | 56 => ⟨S4096x512, .f32⟩
  | 57 => ⟨S4096x512, .f32⟩
  | 58 => ⟨S4096x512, .f32⟩
  | 59 => ⟨S_, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S4096x512, .f32⟩
  | 69 => ⟨S4096x512, .f32⟩
  | 70 => ⟨S4096x512, .f32⟩
  | 71 => ⟨S4096x512, .f32⟩
  | 72 => ⟨S4096x512, .f32⟩
  | 73 => ⟨S_, .f32⟩
  | 74 => ⟨S_, .f32⟩
  | 75 => ⟨S_, .f32⟩
  | 76 => ⟨S4096x512, .f32⟩
  | 77 => ⟨S4096x512, .f32⟩
  | 78 => ⟨S4096x512, .f32⟩
  | 79 => ⟨S4096x512, .f32⟩
  | 80 => ⟨S_, .f32⟩
  | 81 => ⟨S_, .f32⟩
  | 82 => ⟨S_, .f32⟩
  | 83 => ⟨S_, .f32⟩
  | 84 => ⟨S4096x1, .f32⟩
  | 85 => ⟨S4096x512, .f32⟩
  | 86 => ⟨S4096x512, .f32⟩
  | 87 => ⟨S4096x512, .f32⟩
  | 88 => ⟨S4096x512, .f32⟩
  | 89 => ⟨S4096x512, .f32⟩
  | 90 => ⟨S_, .f32⟩
  | 91 => ⟨S4096x512, .f32⟩
  | 92 => ⟨S4096x512, .f32⟩
  | 93 => ⟨S_, .f32⟩
  | 94 => ⟨S_, .f32⟩
  | 95 => ⟨S4096x1, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S_, .f32⟩
  | 105 => ⟨S4096x512, .f32⟩
  | 106 => ⟨S4096x512, .f32⟩
  | 107 => ⟨S_, .f32⟩
  | 108 => ⟨S4096x512, .f32⟩
  | 109 => ⟨S4096x512, .f32⟩
  | 110 => ⟨S_, .f32⟩
  | 111 => ⟨S4096x512, .f32⟩
  | 112 => ⟨S4096x512, .f32⟩
  | 113 => ⟨S4096x512, .f32⟩
  | 114 => ⟨S4096x512, .f32⟩
  | 115 => ⟨S4096x512, .f32⟩
  | 116 => ⟨S4096x512, .f32⟩
  | 117 => ⟨S4096x512, .f32⟩
  | 118 => ⟨S_, .f32⟩
  | 119 => ⟨S_, .f32⟩
  | 120 => ⟨S_, .f32⟩
  | 121 => ⟨S4096x512, .f32⟩
  | 122 => ⟨S4096x512, .f32⟩
  | 123 => ⟨S4096x512, .f32⟩
  | 124 => ⟨S4096x512, .f32⟩
  | 125 => ⟨S_, .f32⟩
  | 126 => ⟨S_, .f32⟩
  | 127 => ⟨S_, .f32⟩
  | _ => ⟨S4096x128, .f32⟩

abbrev hbmTy0_1 (i : Nat) : BufTy := match i % 128 with
  | 0 => ⟨S_, .f32⟩
  | 1 => ⟨S4096x1, .f32⟩
  | 2 => ⟨S4096x512, .f32⟩
  | 3 => ⟨S4096x512, .f32⟩
  | 4 => ⟨S4096x512, .f32⟩
  | 5 => ⟨S4096x512, .f32⟩
  | 6 => ⟨S4096x512, .f32⟩
  | 7 => ⟨S_, .f32⟩
  | 8 => ⟨S4096x512, .f32⟩
  | 9 => ⟨S4096x512, .f32⟩
  | 10 => ⟨S_, .f32⟩
  | 11 => ⟨S_, .f32⟩
  | 12 => ⟨S4096x1, .f32⟩
  | 13 => ⟨S4096x512, .f32⟩
  | 14 => ⟨S4096x512, .f32⟩
  | 15 => ⟨S4096x512, .f32⟩
  | 16 => ⟨S4096x512, .f32⟩
  | 17 => ⟨S4096x512, .f32⟩
  | 18 => ⟨S4096x512, .f32⟩
  | 19 => ⟨S4096x512, .f32⟩
  | 20 => ⟨S4096x512, .f32⟩
  | 21 => ⟨S_, .f32⟩
  | 22 => ⟨S4096x512, .f32⟩
  | 23 => ⟨S4096x512, .f32⟩
  | 24 => ⟨S_, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S_, .f32⟩
  | 36 => ⟨S_, .f32⟩
  | 37 => ⟨S_, .f32⟩
  | 38 => ⟨S4096x512, .f32⟩
  | 39 => ⟨S4096x512, .f32⟩
  | 40 => ⟨S4096x512, .f32⟩
  | 41 => ⟨S4096x512, .f32⟩
  | 42 => ⟨S_, .f32⟩
  | 43 => ⟨S_, .f32⟩
  | 44 => ⟨S_, .f32⟩
  | 45 => ⟨S_, .f32⟩
  | 46 => ⟨S4096x1, .f32⟩
  | 47 => ⟨S4096x512, .f32⟩
  | 48 => ⟨S4096x512, .f32⟩
  | 49 => ⟨S4096x512, .f32⟩
  | 50 => ⟨S4096x512, .f32⟩
  | 51 => ⟨S4096x512, .f32⟩
  | 52 => ⟨S_, .f32⟩
  | 53 => ⟨S4096x512, .f32⟩
  | 54 => ⟨S4096x512, .f32⟩
  | 55 => ⟨S_, .f32⟩
  | 56 => ⟨S_, .f32⟩
  | 57 => ⟨S4096x1, .f32⟩
  | 58 => ⟨S4096x512, .f32⟩
  | 59 => ⟨S4096x512, .f32⟩
  | 60 => ⟨S4096x512, .f32⟩
  | 61 => ⟨S4096x512, .f32⟩
  | 62 => ⟨S4096x512, .f32⟩
  | 63 => ⟨S4096x512, .f32⟩
  | 64 => ⟨S4096x512, .f32⟩
  | 65 => ⟨S4096x512, .f32⟩
  | 66 => ⟨S_, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S_, .f32⟩
  | 73 => ⟨S4096x512, .f32⟩
  | 74 => ⟨S4096x512, .f32⟩
  | 75 => ⟨S4096x512, .f32⟩
  | 76 => ⟨S4096x512, .f32⟩
  | 77 => ⟨S4096x512, .f32⟩
  | 78 => ⟨S4096x512, .f32⟩
  | 79 => ⟨S4096x512, .f32⟩
  | 80 => ⟨S_, .f32⟩
  | 81 => ⟨S_, .f32⟩
  | 82 => ⟨S_, .f32⟩
  | 83 => ⟨S4096x512, .f32⟩
  | 84 => ⟨S4096x512, .f32⟩
  | 85 => ⟨S4096x512, .f32⟩
  | 86 => ⟨S4096x512, .f32⟩
  | 87 => ⟨S_, .f32⟩
  | 88 => ⟨S_, .f32⟩
  | 89 => ⟨S_, .f32⟩
  | 90 => ⟨S_, .f32⟩
  | 91 => ⟨S4096x1, .f32⟩
  | 92 => ⟨S4096x512, .f32⟩
  | 93 => ⟨S4096x512, .f32⟩
  | 94 => ⟨S4096x512, .f32⟩
  | 95 => ⟨S4096x512, .f32⟩
  | 96 => ⟨S4096x512, .f32⟩
  | 97 => ⟨S_, .f32⟩
  | 98 => ⟨S4096x512, .f32⟩
  | 99 => ⟨S4096x512, .f32⟩
  | 100 => ⟨S_, .f32⟩
  | 101 => ⟨S_, .f32⟩
  | 102 => ⟨S4096x1, .f32⟩
  | 103 => ⟨S4096x512, .f32⟩
  | 104 => ⟨S4096x512, .f32⟩
  | 105 => ⟨S4096x512, .f32⟩
  | 106 => ⟨S4096x512, .f32⟩
  | 107 => ⟨S4096x512, .f32⟩
  | 108 => ⟨S4096x512, .f32⟩
  | 109 => ⟨S4096x512, .f32⟩
  | 110 => ⟨S4096x512, .f32⟩
  | 111 => ⟨S_, .f32⟩
  | 112 => ⟨S4096x512, .f32⟩
  | 113 => ⟨S4096x512, .f32⟩
  | 114 => ⟨S_, .f32⟩
  | 115 => ⟨S4096x512, .f32⟩
  | 116 => ⟨S4096x512, .f32⟩
  | 117 => ⟨S_, .f32⟩
  | 118 => ⟨S4096x512, .f32⟩
  | 119 => ⟨S4096x512, .f32⟩
  | 120 => ⟨S4096x512, .f32⟩
  | 121 => ⟨S4096x512, .f32⟩
  | 122 => ⟨S4096x512, .f32⟩
  | 123 => ⟨S4096x512, .f32⟩
  | 124 => ⟨S4096x512, .f32⟩
  | 125 => ⟨S_, .f32⟩
  | 126 => ⟨S_, .f32⟩
  | 127 => ⟨S_, .f32⟩
  | _ => ⟨S4096x128, .f32⟩

abbrev hbmTy0_2 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S_, .f32⟩
  | 5 => ⟨S_, .f32⟩
  | 6 => ⟨S_, .f32⟩
  | 7 => ⟨S_, .f32⟩
  | 8 => ⟨S4096x1, .f32⟩
  | 9 => ⟨S4096x512, .f32⟩
  | 10 => ⟨S4096x512, .f32⟩
  | 11 => ⟨S4096x512, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S_, .f32⟩
  | 18 => ⟨S_, .f32⟩
  | 19 => ⟨S4096x1, .f32⟩
  | 20 => ⟨S4096x512, .f32⟩
  | 21 => ⟨S4096x512, .f32⟩
  | 22 => ⟨S4096x512, .f32⟩
  | 23 => ⟨S4096x512, .f32⟩
  | 24 => ⟨S4096x512, .f32⟩
  | 25 => ⟨S4096x512, .f32⟩
  | 26 => ⟨S4096x512, .f32⟩
  | 27 => ⟨S4096x512, .f32⟩
  | 28 => ⟨S_, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S_, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S_, .f32⟩
  | 43 => ⟨S_, .f32⟩
  | 44 => ⟨S_, .f32⟩
  | 45 => ⟨S4096x512, .f32⟩
  | 46 => ⟨S4096x512, .f32⟩
  | 47 => ⟨S4096x512, .f32⟩
  | 48 => ⟨S4096x512, .f32⟩
  | 49 => ⟨S_, .f32⟩
  | 50 => ⟨S_, .f32⟩
  | 51 => ⟨S_, .f32⟩
  | 52 => ⟨S_, .f32⟩
  | 53 => ⟨S4096x1, .f32⟩
  | 54 => ⟨S4096x512, .f32⟩
  | 55 => ⟨S4096x512, .f32⟩
  | 56 => ⟨S4096x512, .f32⟩
  | 57 => ⟨S4096x512, .f32⟩
  | 58 => ⟨S4096x512, .f32⟩
  | 59 => ⟨S_, .f32⟩
  | 60 => ⟨S4096x512, .f32⟩
  | 61 => ⟨S4096x512, .f32⟩
  | 62 => ⟨S_, .f32⟩
  | 63 => ⟨S_, .f32⟩
  | 64 => ⟨S4096x1, .f32⟩
  | 65 => ⟨S4096x512, .f32⟩
  | 66 => ⟨S4096x512, .f32⟩
  | 67 => ⟨S4096x512, .f32⟩
  | 68 => ⟨S4096x512, .f32⟩
  | 69 => ⟨S4096x512, .f32⟩
  | 70 => ⟨S4096x512, .f32⟩
  | 71 => ⟨S4096x512, .f32⟩
  | 72 => ⟨S4096x512, .f32⟩
  | 73 => ⟨S_, .f32⟩
  | 74 => ⟨S4096x512, .f32⟩
  | 75 => ⟨S4096x512, .f32⟩
  | 76 => ⟨S_, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S4096x512, .f32⟩
  | 83 => ⟨S4096x512, .f32⟩
  | 84 => ⟨S4096x512, .f32⟩
  | 85 => ⟨S4096x512, .f32⟩
  | 86 => ⟨S4096x512, .f32⟩
  | 87 => ⟨S_, .f32⟩
  | 88 => ⟨S_, .f32⟩
  | 89 => ⟨S_, .f32⟩
  | 90 => ⟨S4096x512, .f32⟩
  | 91 => ⟨S4096x512, .f32⟩
  | 92 => ⟨S4096x512, .f32⟩
  | 93 => ⟨S4096x512, .f32⟩
  | 94 => ⟨S_, .f32⟩
  | 95 => ⟨S_, .f32⟩
  | 96 => ⟨S_, .f32⟩
  | 97 => ⟨S_, .f32⟩
  | 98 => ⟨S4096x1, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S_, .f32⟩
  | 105 => ⟨S4096x512, .f32⟩
  | 106 => ⟨S4096x512, .f32⟩
  | 107 => ⟨S_, .f32⟩
  | 108 => ⟨S_, .f32⟩
  | 109 => ⟨S4096x1, .f32⟩
  | 110 => ⟨S4096x512, .f32⟩
  | 111 => ⟨S4096x512, .f32⟩
  | 112 => ⟨S4096x512, .f32⟩
  | 113 => ⟨S4096x512, .f32⟩
  | 114 => ⟨S4096x512, .f32⟩
  | 115 => ⟨S4096x512, .f32⟩
  | 116 => ⟨S4096x512, .f32⟩
  | 117 => ⟨S4096x512, .f32⟩
  | 118 => ⟨S_, .f32⟩
  | 119 => ⟨S4096x512, .f32⟩
  | 120 => ⟨S4096x512, .f32⟩
  | 121 => ⟨S_, .f32⟩
  | 122 => ⟨S4096x512, .f32⟩
  | 123 => ⟨S4096x512, .f32⟩
  | 124 => ⟨S_, .f32⟩
  | 125 => ⟨S4096x512, .f32⟩
  | 126 => ⟨S4096x512, .f32⟩
  | 127 => ⟨S4096x512, .f32⟩
  | _ => ⟨S4096x128, .f32⟩

abbrev hbmTy0_3 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S_, .f32⟩
  | 5 => ⟨S_, .f32⟩
  | 6 => ⟨S_, .f32⟩
  | 7 => ⟨S4096x512, .f32⟩
  | 8 => ⟨S4096x512, .f32⟩
  | 9 => ⟨S4096x512, .f32⟩
  | 10 => ⟨S4096x512, .f32⟩
  | 11 => ⟨S_, .f32⟩
  | 12 => ⟨S_, .f32⟩
  | 13 => ⟨S_, .f32⟩
  | 14 => ⟨S_, .f32⟩
  | 15 => ⟨S512x512, .f32⟩
  | 16 => ⟨S4096x512, .f32⟩
  | 17 => ⟨S1x512, .f32⟩
  | 18 => ⟨S4096x512, .f32⟩
  | 19 => ⟨S4096x512, .f32⟩
  | 20 => ⟨S_, .f32⟩
  | 21 => ⟨S_, .f32⟩
  | 22 => ⟨S4096x512, .f32⟩
  | 23 => ⟨S4096x512, .i1⟩
  | 24 => ⟨S_, .f32⟩
  | 25 => ⟨S4096x512, .f32⟩
  | 26 => ⟨S4096x512, .f32⟩
  | 27 => ⟨S4096x512, .f32⟩
  | 28 => ⟨S512x64, .f32⟩
  | 29 => ⟨S4096x64, .f32⟩
  | 30 => ⟨S1x64, .f32⟩
  | 31 => ⟨S4096x64, .f32⟩
  | 32 => ⟨S4096x64, .f32⟩
  | 33 => ⟨S1, .f32⟩
  | 34 => ⟨S1, .f32⟩
  | 35 => ⟨S1, .f32⟩
  | 36 => ⟨S1, .f32⟩
  | 37 => ⟨S1, .f32⟩
  | 38 => ⟨S1, .f32⟩
  | 39 => ⟨S1, .f32⟩
  | 40 => ⟨S1, .f32⟩
  | 41 => ⟨S1, .f32⟩
  | 42 => ⟨S9, .f32⟩
  | _ => ⟨S4096x128, .f32⟩

abbrev hbmTy (i : Nat) : BufTy := match i / 128 with
  | 0 => hbmTy0_0 i
  | 1 => hbmTy0_1 i
  | 2 => hbmTy0_2 i
  | 3 => hbmTy0_3 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_cst_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_1 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_3 : Ref sig .tc := ⟨.hbm, 59, rfl⟩
abbrev main_v37 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_v0 : Ref sig .tc := ⟨.hbm, 72, rfl⟩
abbrev main_call1_cst : Ref sig .tc := ⟨.hbm, 73, rfl⟩
abbrev main_call1_v1 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_6 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_8 : Ref sig .tc := ⟨.hbm, 90, rfl⟩
abbrev main_v60 : Ref sig .tc := ⟨.hbm, 91, rfl⟩
abbrev main_v61 : Ref sig .tc := ⟨.hbm, 92, rfl⟩
abbrev main_cst_9 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_10 : Ref sig .tc := ⟨.hbm, 104, rfl⟩
abbrev main_v72 : Ref sig .tc := ⟨.hbm, 105, rfl⟩
abbrev main_v73 : Ref sig .tc := ⟨.hbm, 106, rfl⟩
abbrev main_cst_11 : Ref sig .tc := ⟨.hbm, 107, rfl⟩
abbrev main_v74 : Ref sig .tc := ⟨.hbm, 108, rfl⟩
abbrev main_v75 : Ref sig .tc := ⟨.hbm, 109, rfl⟩
abbrev main_cst_12 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call2_v0 : Ref sig .tc := ⟨.hbm, 117, rfl⟩
abbrev main_call2_cst : Ref sig .tc := ⟨.hbm, 118, rfl⟩
abbrev main_call2_v1 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_13 : Ref sig .tc := ⟨.hbm, 125, rfl⟩
abbrev main_v87 : Ref sig .tc := ⟨.hbm, 126, rfl⟩
abbrev main_cst_14 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_15 : Ref sig .tc := ⟨.hbm, 135, rfl⟩
abbrev main_v95 : Ref sig .tc := ⟨.hbm, 136, rfl⟩
abbrev main_v96 : Ref sig .tc := ⟨.hbm, 137, rfl⟩
abbrev main_cst_16 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_17 : Ref sig .tc := ⟨.hbm, 149, rfl⟩
abbrev main_v107 : Ref sig .tc := ⟨.hbm, 150, rfl⟩
abbrev main_v108 : Ref sig .tc := ⟨.hbm, 151, rfl⟩
abbrev main_cst_18 : Ref sig .tc := ⟨.hbm, 152, rfl⟩
abbrev main_v109 : Ref sig .tc := ⟨.hbm, 153, rfl⟩
abbrev main_v110 : Ref sig .tc := ⟨.hbm, 154, rfl⟩
abbrev main_cst_19 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_call3_v0 : Ref sig .tc := ⟨.hbm, 162, rfl⟩
abbrev main_call3_cst : Ref sig .tc := ⟨.hbm, 163, rfl⟩
abbrev main_call3_v1 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_20 : Ref sig .tc := ⟨.hbm, 170, rfl⟩
abbrev main_v122 : Ref sig .tc := ⟨.hbm, 171, rfl⟩
abbrev main_cst_21 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_22 : Ref sig .tc := ⟨.hbm, 180, rfl⟩
abbrev main_v130 : Ref sig .tc := ⟨.hbm, 181, rfl⟩
abbrev main_v131 : Ref sig .tc := ⟨.hbm, 182, rfl⟩
abbrev main_cst_23 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_cst_24 : Ref sig .tc := ⟨.hbm, 194, rfl⟩
abbrev main_v142 : Ref sig .tc := ⟨.hbm, 195, rfl⟩
abbrev main_v143 : Ref sig .tc := ⟨.hbm, 196, rfl⟩
abbrev main_cst_25 : Ref sig .tc := ⟨.hbm, 197, rfl⟩
abbrev main_v144 : Ref sig .tc := ⟨.hbm, 198, rfl⟩
abbrev main_v145 : Ref sig .tc := ⟨.hbm, 199, rfl⟩
abbrev main_cst_26 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_call4_v0 : Ref sig .tc := ⟨.hbm, 207, rfl⟩
abbrev main_call4_cst : Ref sig .tc := ⟨.hbm, 208, rfl⟩
abbrev main_call4_v1 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_cst_27 : Ref sig .tc := ⟨.hbm, 215, rfl⟩
abbrev main_v157 : Ref sig .tc := ⟨.hbm, 216, rfl⟩
abbrev main_cst_28 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_cst_29 : Ref sig .tc := ⟨.hbm, 225, rfl⟩
abbrev main_v165 : Ref sig .tc := ⟨.hbm, 226, rfl⟩
abbrev main_v166 : Ref sig .tc := ⟨.hbm, 227, rfl⟩
abbrev main_cst_30 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_cst_31 : Ref sig .tc := ⟨.hbm, 239, rfl⟩
abbrev main_v177 : Ref sig .tc := ⟨.hbm, 240, rfl⟩
abbrev main_v178 : Ref sig .tc := ⟨.hbm, 241, rfl⟩
abbrev main_cst_32 : Ref sig .tc := ⟨.hbm, 242, rfl⟩
abbrev main_v179 : Ref sig .tc := ⟨.hbm, 243, rfl⟩
abbrev main_v180 : Ref sig .tc := ⟨.hbm, 244, rfl⟩
abbrev main_cst_33 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_call5_v0 : Ref sig .tc := ⟨.hbm, 252, rfl⟩
abbrev main_call5_cst : Ref sig .tc := ⟨.hbm, 253, rfl⟩
abbrev main_call5_v1 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_cst_34 : Ref sig .tc := ⟨.hbm, 260, rfl⟩
abbrev main_v192 : Ref sig .tc := ⟨.hbm, 261, rfl⟩
abbrev main_cst_35 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_cst_36 : Ref sig .tc := ⟨.hbm, 270, rfl⟩
abbrev main_v200 : Ref sig .tc := ⟨.hbm, 271, rfl⟩
abbrev main_v201 : Ref sig .tc := ⟨.hbm, 272, rfl⟩
abbrev main_cst_37 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_cst_38 : Ref sig .tc := ⟨.hbm, 284, rfl⟩
abbrev main_v212 : Ref sig .tc := ⟨.hbm, 285, rfl⟩
abbrev main_v213 : Ref sig .tc := ⟨.hbm, 286, rfl⟩
abbrev main_cst_39 : Ref sig .tc := ⟨.hbm, 287, rfl⟩
abbrev main_v214 : Ref sig .tc := ⟨.hbm, 288, rfl⟩
abbrev main_v215 : Ref sig .tc := ⟨.hbm, 289, rfl⟩
abbrev main_cst_40 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_call6_v0 : Ref sig .tc := ⟨.hbm, 297, rfl⟩
abbrev main_call6_cst : Ref sig .tc := ⟨.hbm, 298, rfl⟩
abbrev main_call6_v1 : Ref sig .tc := ⟨.hbm, 299, rfl⟩
abbrev main_v222 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_cst_41 : Ref sig .tc := ⟨.hbm, 305, rfl⟩
abbrev main_v227 : Ref sig .tc := ⟨.hbm, 306, rfl⟩
abbrev main_cst_42 : Ref sig .tc := ⟨.hbm, 307, rfl⟩
abbrev main_v228 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_cst_43 : Ref sig .tc := ⟨.hbm, 315, rfl⟩
abbrev main_v235 : Ref sig .tc := ⟨.hbm, 316, rfl⟩
abbrev main_v236 : Ref sig .tc := ⟨.hbm, 317, rfl⟩
abbrev main_cst_44 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_v242 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_cst_45 : Ref sig .tc := ⟨.hbm, 329, rfl⟩
abbrev main_v247 : Ref sig .tc := ⟨.hbm, 330, rfl⟩
abbrev main_v248 : Ref sig .tc := ⟨.hbm, 331, rfl⟩
abbrev main_cst_46 : Ref sig .tc := ⟨.hbm, 332, rfl⟩
abbrev main_v249 : Ref sig .tc := ⟨.hbm, 333, rfl⟩
abbrev main_v250 : Ref sig .tc := ⟨.hbm, 334, rfl⟩
abbrev main_cst_47 : Ref sig .tc := ⟨.hbm, 335, rfl⟩
abbrev main_v251 : Ref sig .tc := ⟨.hbm, 336, rfl⟩
abbrev main_v252 : Ref sig .tc := ⟨.hbm, 337, rfl⟩
abbrev main_v253 : Ref sig .tc := ⟨.hbm, 338, rfl⟩
abbrev main_v254 : Ref sig .tc := ⟨.hbm, 339, rfl⟩
abbrev main_v255 : Ref sig .tc := ⟨.hbm, 340, rfl⟩
abbrev main_v256 : Ref sig .tc := ⟨.hbm, 341, rfl⟩
abbrev main_call7_v0 : Ref sig .tc := ⟨.hbm, 342, rfl⟩
abbrev main_call7_cst : Ref sig .tc := ⟨.hbm, 343, rfl⟩
abbrev main_call7_v1 : Ref sig .tc := ⟨.hbm, 344, rfl⟩
abbrev main_v257 : Ref sig .tc := ⟨.hbm, 345, rfl⟩
abbrev main_v258 : Ref sig .tc := ⟨.hbm, 346, rfl⟩
abbrev main_v259 : Ref sig .tc := ⟨.hbm, 347, rfl⟩
abbrev main_v260 : Ref sig .tc := ⟨.hbm, 348, rfl⟩
abbrev main_v261 : Ref sig .tc := ⟨.hbm, 349, rfl⟩
abbrev main_cst_48 : Ref sig .tc := ⟨.hbm, 350, rfl⟩
abbrev main_v262 : Ref sig .tc := ⟨.hbm, 351, rfl⟩
abbrev main_cst_49 : Ref sig .tc := ⟨.hbm, 352, rfl⟩
abbrev main_v263 : Ref sig .tc := ⟨.hbm, 353, rfl⟩
abbrev main_v264 : Ref sig .tc := ⟨.hbm, 354, rfl⟩
abbrev main_v265 : Ref sig .tc := ⟨.hbm, 355, rfl⟩
abbrev main_v266 : Ref sig .tc := ⟨.hbm, 356, rfl⟩
abbrev main_v267 : Ref sig .tc := ⟨.hbm, 357, rfl⟩
abbrev main_v268 : Ref sig .tc := ⟨.hbm, 358, rfl⟩
abbrev main_v269 : Ref sig .tc := ⟨.hbm, 359, rfl⟩
abbrev main_cst_50 : Ref sig .tc := ⟨.hbm, 360, rfl⟩
abbrev main_v270 : Ref sig .tc := ⟨.hbm, 361, rfl⟩
abbrev main_v271 : Ref sig .tc := ⟨.hbm, 362, rfl⟩
abbrev main_cst_51 : Ref sig .tc := ⟨.hbm, 363, rfl⟩
abbrev main_v272 : Ref sig .tc := ⟨.hbm, 364, rfl⟩
abbrev main_v273 : Ref sig .tc := ⟨.hbm, 365, rfl⟩
abbrev main_v274 : Ref sig .tc := ⟨.hbm, 366, rfl⟩
abbrev main_v275 : Ref sig .tc := ⟨.hbm, 367, rfl⟩
abbrev main_v276 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_cst_52 : Ref sig .tc := ⟨.hbm, 374, rfl⟩
abbrev main_v282 : Ref sig .tc := ⟨.hbm, 375, rfl⟩
abbrev main_v283 : Ref sig .tc := ⟨.hbm, 376, rfl⟩
abbrev main_cst_53 : Ref sig .tc := ⟨.hbm, 377, rfl⟩
abbrev main_v284 : Ref sig .tc := ⟨.hbm, 378, rfl⟩
abbrev main_v285 : Ref sig .tc := ⟨.hbm, 379, rfl⟩
abbrev main_cst_54 : Ref sig .tc := ⟨.hbm, 380, rfl⟩
abbrev main_v286 : Ref sig .tc := ⟨.hbm, 381, rfl⟩
abbrev main_v287 : Ref sig .tc := ⟨.hbm, 382, rfl⟩
abbrev main_v288 : Ref sig .tc := ⟨.hbm, 383, rfl⟩
abbrev main_v289 : Ref sig .tc := ⟨.hbm, 384, rfl⟩
abbrev main_v290 : Ref sig .tc := ⟨.hbm, 385, rfl⟩
abbrev main_v291 : Ref sig .tc := ⟨.hbm, 386, rfl⟩
abbrev main_call8_v0 : Ref sig .tc := ⟨.hbm, 387, rfl⟩
abbrev main_call8_cst : Ref sig .tc := ⟨.hbm, 388, rfl⟩
abbrev main_call8_v1 : Ref sig .tc := ⟨.hbm, 389, rfl⟩
abbrev main_v292 : Ref sig .tc := ⟨.hbm, 390, rfl⟩
abbrev main_v293 : Ref sig .tc := ⟨.hbm, 391, rfl⟩
abbrev main_v294 : Ref sig .tc := ⟨.hbm, 392, rfl⟩
abbrev main_v295 : Ref sig .tc := ⟨.hbm, 393, rfl⟩
abbrev main_v296 : Ref sig .tc := ⟨.hbm, 394, rfl⟩
abbrev main_cst_55 : Ref sig .tc := ⟨.hbm, 395, rfl⟩
abbrev main_v297 : Ref sig .tc := ⟨.hbm, 396, rfl⟩
abbrev main_cst_56 : Ref sig .tc := ⟨.hbm, 397, rfl⟩
abbrev main_v298 : Ref sig .tc := ⟨.hbm, 398, rfl⟩
abbrev main_v299 : Ref sig .tc := ⟨.hbm, 399, rfl⟩
abbrev main_v300 : Ref sig .tc := ⟨.hbm, 400, rfl⟩
abbrev main_v301 : Ref sig .tc := ⟨.hbm, 401, rfl⟩
abbrev main_v302 : Ref sig .tc := ⟨.hbm, 402, rfl⟩
abbrev main_v303 : Ref sig .tc := ⟨.hbm, 403, rfl⟩
abbrev main_cst_57 : Ref sig .tc := ⟨.hbm, 404, rfl⟩
abbrev main_call9_cst : Ref sig .tc := ⟨.hbm, 405, rfl⟩
abbrev main_call9_v0 : Ref sig .tc := ⟨.hbm, 406, rfl⟩
abbrev main_call9_v1 : Ref sig .tc := ⟨.hbm, 407, rfl⟩
abbrev main_call9_v2 : Ref sig .tc := ⟨.hbm, 408, rfl⟩
abbrev main_call9_v3 : Ref sig .tc := ⟨.hbm, 409, rfl⟩
abbrev main_call9_v4 : Ref sig .tc := ⟨.hbm, 410, rfl⟩
abbrev main_v304 : Ref sig .tc := ⟨.hbm, 411, rfl⟩
abbrev main_v305 : Ref sig .tc := ⟨.hbm, 412, rfl⟩
abbrev main_v306 : Ref sig .tc := ⟨.hbm, 413, rfl⟩
abbrev main_v307 : Ref sig .tc := ⟨.hbm, 414, rfl⟩
abbrev main_v308 : Ref sig .tc := ⟨.hbm, 415, rfl⟩
abbrev main_v309 : Ref sig .tc := ⟨.hbm, 416, rfl⟩
abbrev main_v310 : Ref sig .tc := ⟨.hbm, 417, rfl⟩
abbrev main_v311 : Ref sig .tc := ⟨.hbm, 418, rfl⟩
abbrev main_v312 : Ref sig .tc := ⟨.hbm, 419, rfl⟩
abbrev main_v313 : Ref sig .tc := ⟨.hbm, 420, rfl⟩
abbrev main_v314 : Ref sig .tc := ⟨.hbm, 421, rfl⟩
abbrev main_v315 : Ref sig .tc := ⟨.hbm, 422, rfl⟩
abbrev main_v316 : Ref sig .tc := ⟨.hbm, 423, rfl⟩
abbrev main_v317 : Ref sig .tc := ⟨.hbm, 424, rfl⟩
abbrev main_v318 : Ref sig .tc := ⟨.hbm, 425, rfl⟩
abbrev main_v319 : Ref sig .tc := ⟨.hbm, 426, rfl⟩

abbrev nD : Nat := 1
abbrev τ : Topo := Topo.v7x

variable {F : FTy → Type} [FloatOps F]

class Facts₀ : Prop where
  shapeCasts_S1_S_ : S1.ShapeCasts S_
  bcast_S_S4096 : S_.BroadcastsInDim S4096 (![] : Fin 0 → Fin S4096.rank)
  transposes_S512x128_S128x512_1_0 : S512x128.Transposes [1, 0] S128x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  reducesTo_S4096x512_S_d0_1 : S4096x512.ReducesTo [0, 1] S_
  h_S_ : 0 < S_.numel
  bcast_S_S4096x512 : S_.BroadcastsInDim S4096x512 (![] : Fin 0 → Fin S4096x512.rank)
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  transposes_S512x512_S512x512_1_0 : S512x512.Transposes [1, 0] S512x512
  transposes_S64x512_S512x64_1_0 : S64x512.Transposes [1, 0] S512x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S1 : S_.BroadcastsInDim S1 (![] : Fin 0 → Fin S1.rank)
  concatenates_S1_S1_S1_S1_S1_S1_S1_S1_S1_S9_d0 : Shape.Concatenates [S1, S1, S1, S1, S1, S1, S1, S1, S1] S9 0
  dot_S4096x128_S128x512_S4096x512_1_0_0_1_n_n_wf : DotDims.WF S4096x128 S128x512 S4096x512 [1] [0] [0] [1] [] []
  dot_S4096x4096_S4096x512_S4096x512_1_0_0_1_n_n_wf : DotDims.WF S4096x4096 S4096x512 S4096x512 [1] [0] [0] [1] [] []
  dot_S4096x512_S512x512_S4096x512_1_0_0_1_n_n_wf : DotDims.WF S4096x512 S512x512 S4096x512 [1] [0] [0] [1] [] []
  dot_S4096x512_S512x64_S4096x64_1_0_0_1_n_n_wf : DotDims.WF S4096x512 S512x64 S4096x64 [1] [0] [0] [1] [] []

variable [Facts₀]

def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf

class Facts : Prop extends Facts₀ where

variable [Facts]
-- ==== Proof.Spec.lean ====
/-
  The reference's computation as named pure functions, generic in the float values.

  Each function below composes exactly the operations the printed reference program applies, with the
  same shape evidence and dimension records and in the same operand order: the shifted spectrum, the
  encoder, the Frobenius norm, the normalised energy, the spectral operator U (S^a (Vh h) W), one step of
  Heun's method  h ↦ h + ss (½ K0 + ½ K1)  with  K0 = −L(h),  K1 = −(L(h) + (ss · 1) L(K0)),  the nine
  states h0 … h8, the two decoder layers with a leaky rectifier, and the nine energies gathered into one
  array. Each definition is followed by the equation that spells it out.
-/
import proofs.«158944_j64613488001249_1_alg».proof.ReferenceIdeal
import Idealize.ShloMosaic.PureOps

noncomputable section

namespace Cert.Spec

open Idealize.ShloMosaic Idealize.SL.Sem
open Cert.ReferenceIdeal
open Cert.ReferenceIdeal.Facts₀ Cert.ReferenceIdeal.Facts

variable {F : FTy → Type} [FloatOps F] [Facts]

/-- The fifteen argument arrays, in the order the program takes them. -/
structure Args (F : FTy → Type) where
  x : Vec F S4096x128 .f32
  U : Vec F S4096x4096 .f32
  S : Vec F S4096 .f32
  Vh : Vec F S4096x4096 .f32
  snl : Vec F S4096x4096 .f32
  enc_w : Vec F S512x128 .f32
  enc_b : Vec F S512 .f32
  W : Vec F S512x512 .f32
  dec_w0 : Vec F S512x512 .f32
  dec_b0 : Vec F S512 .f32
  dec_w1 : Vec F S64x512 .f32
  dec_b1 : Vec F S64 .f32
  shift : Vec F S1 .f32
  expo : Vec F S1 .f32
  step : Vec F S1 .f32

/-! ## Small pieces -/

/-- The one element of a one-element array, as a scalar. -/
def scal (v : Vec F S1 .f32) : Vec F S_ .f32 := shapeCast S_ v shapeCasts_S1_S_
theorem scal_eq (v : Vec F S1 .f32) : scal v = shapeCast S_ v shapeCasts_S1_S_ := rfl

/-- A scalar spread over a [4096, 512] array. -/
def bc0 (v : Vec F S_ .f32) : Vec F S4096x512 .f32 := broadcastInDim S4096x512 ![] bcast_S_S4096x512 v
theorem bc0_eq (v : Vec F S_ .f32) : bc0 v = broadcastInDim S4096x512 ![] bcast_S_S4096x512 v := rfl

/-- A scalar spread over a [4096] array. -/
def bc1 (v : Vec F S_ .f32) : Vec F S4096 .f32 := broadcastInDim S4096 ![] bcast_S_S4096 v
theorem bc1_eq (v : Vec F S_ .f32) : bc1 v = broadcastInDim S4096 ![] bcast_S_S4096 v := rfl

/-- A [512] row spread down the 4096 rows. -/
def rowB (b : Vec F S512 .f32) : Vec F S4096x512 .f32 :=
  broadcastInDim S4096x512 ![0, 1] bcast_S1x512_S4096x512_0_1 (broadcastInDim S1x512 ![1] bcast_S512_S1x512_1 b)
theorem rowB_eq (b : Vec F S512 .f32) : rowB b
    = broadcastInDim S4096x512 ![0, 1] bcast_S1x512_S4096x512_0_1 (broadcastInDim S1x512 ![1] bcast_S512_S1x512_1 b) := rfl

/-- A [64] row spread down the 4096 rows. -/
def rowB64 (b : Vec F S64 .f32) : Vec F S4096x64 .f32 :=
  broadcastInDim S4096x64 ![0, 1] bcast_S1x64_S4096x64_0_1 (broadcastInDim S1x64 ![1] bcast_S64_S1x64_1 b)
theorem rowB64_eq (b : Vec F S64 .f32) : rowB64 b
    = broadcastInDim S4096x64 ![0, 1] bcast_S1x64_S4096x64_0_1 (broadcastInDim S1x64 ![1] bcast_S64_S1x64_1 b) := rfl

/-- A [4096] column spread across the 512 columns: entry (i, j) is sp i. -/
def spB (sp : Vec F S4096 .f32) : Vec F S4096x512 .f32 :=
  broadcastInDim S4096x512 ![0, 1] bcast_S4096x1_S4096x512_0_1 (broadcastInDim S4096x1 ![0] bcast_S4096_S4096x1_0 sp)
theorem spB_eq (sp : Vec F S4096 .f32) : spB sp
    = broadcastInDim S4096x512 ![0, 1] bcast_S4096x1_S4096x512_0_1 (broadcastInDim S4096x1 ![0] bcast_S4096_S4096x1_0 sp) := rfl

/-- The constants the program names: 0, 1, −1, ½ and the rectifier's slope. -/
def c0 : Vec F S_ .f32 := constant S_ .f32 0x00000000#32
def c1 : Vec F S_ .f32 := constant S_ .f32 0x3F800000#32
def cNeg1 : Vec F S_ .f32 := constant S_ .f32 0xBF800000#32
def cHalf : Vec F S_ .f32 := constant S_ .f32 0x3F000000#32
def cSlope : Vec F S_ .f32 := constant S_ .f32 0x3C23D70A#32
theorem c0_eq : (c0 : Vec F S_ .f32) = constant S_ .f32 0x00000000#32 := rfl
theorem c1_eq : (c1 : Vec F S_ .f32) = constant S_ .f32 0x3F800000#32 := rfl
theorem cNeg1_eq : (cNeg1 : Vec F S_ .f32) = constant S_ .f32 0xBF800000#32 := rfl
theorem cHalf_eq : (cHalf : Vec F S_ .f32) = constant S_ .f32 0x3F000000#32 := rfl
theorem cSlope_eq : (cSlope : Vec F S_ .f32) = constant S_ .f32 0x3C23D70A#32 := rfl

/-! ## The stages -/

/-- The shifted spectrum (shift + S) ^ exponent. -/
def spOf (S : Vec F S4096 .f32) (shift expo : Vec F S1 .f32) : Vec F S4096 .f32 :=
  Host.powf (addf (bc1 (scal shift)) S) (bc1 (scal expo))
theorem spOf_eq (S : Vec F S4096 .f32) (shift expo : Vec F S1 .f32) :
    spOf S shift expo = Host.powf (addf (bc1 (scal shift)) S) (bc1 (scal expo)) := rfl

/-- The encoder x · enc_wᵀ + enc_b. -/
def encOf (x : Vec F S4096x128 .f32) (enc_w : Vec F S512x128 .f32) (enc_b : Vec F S512 .f32) : Vec F S4096x512 .f32 :=
  addf (Host.dotGeneral dot_S4096x128_S128x512_S4096x512_1_0_0_1_n_n none x (transpose S128x512 [1, 0] enc_w transposes_S512x128_S128x512_1_0)) (rowB enc_b)
theorem encOf_eq (x : Vec F S4096x128 .f32) (enc_w : Vec F S512x128 .f32) (enc_b : Vec F S512 .f32) :
    encOf x enc_w enc_b
      = addf (Host.dotGeneral dot_S4096x128_S128x512_S4096x512_1_0_0_1_n_n none x (transpose S128x512 [1, 0] enc_w transposes_S512x128_S128x512_1_0)) (rowB enc_b) := rfl

/-- The Frobenius norm: the square root of the sum of the squares, summed from the zero constant. -/
def normOf (h : Vec F S4096x512 .f32) : Vec F S_ .f32 :=
  Host.sqrt (Host.reduceAdd (mulf h h) c0 reducesTo_S4096x512_S_d0_1 h_S_)
theorem normOf_eq (h : Vec F S4096x512 .f32) :
    normOf h = Host.sqrt (Host.reduceAdd (mulf h h) c0 reducesTo_S4096x512_S_d0_1 h_S_) := rfl

/-- The state divided by its norm. -/
def hnOf (h : Vec F S4096x512 .f32) : Vec F S4096x512 .f32 := Host.divf h (bc0 (normOf h))
theorem hnOf_eq (h : Vec F S4096x512 .f32) : hnOf h = Host.divf h (bc0 (normOf h)) := rfl

/-- The energy ½ Σ (snl · hn) ∘ hn of the normalised state. -/
def energyOf (snl : Vec F S4096x4096 .f32) (h : Vec F S4096x512 .f32) : Vec F S_ .f32 :=
  mulf cHalf (Host.reduceAdd (mulf (Host.dotGeneral dot_S4096x4096_S4096x512_S4096x512_1_0_0_1_n_n none snl (hnOf h)) (hnOf h)) c0
    reducesTo_S4096x512_S_d0_1 h_S_)
theorem energyOf_eq (snl : Vec F S4096x4096 .f32) (h : Vec F S4096x512 .f32) :
    energyOf snl h = mulf cHalf (Host.reduceAdd (mulf (Host.dotGeneral dot_S4096x4096_S4096x512_S4096x512_1_0_0_1_n_n none snl (hnOf h)) (hnOf h)) c0
      reducesTo_S4096x512_S_d0_1 h_S_) := rfl

/-- The spectral operator U · ((sp ∘ (Vh · h)) · W). -/
def lxwOf (U Vh : Vec F S4096x4096 .f32) (W : Vec F S512x512 .f32) (sp : Vec F S4096 .f32)
    (h : Vec F S4096x512 .f32) : Vec F S4096x512 .f32 :=
  Host.dotGeneral dot_S4096x4096_S4096x512_S4096x512_1_0_0_1_n_n none U
    (Host.dotGeneral dot_S4096x512_S512x512_S4096x512_1_0_0_1_n_n none (mulf (spB sp) (Host.dotGeneral dot_S4096x4096_S4096x512_S4096x512_1_0_0_1_n_n none Vh h)) W)
theorem lxwOf_eq (U Vh : Vec F S4096x4096 .f32) (W : Vec F S512x512 .f32) (sp : Vec F S4096 .f32)
    (h : Vec F S4096x512 .f32) :
    lxwOf U Vh W sp h = Host.dotGeneral dot_S4096x4096_S4096x512_S4096x512_1_0_0_1_n_n none U
      (Host.dotGeneral dot_S4096x512_S512x512_S4096x512_1_0_0_1_n_n none (mulf (spB sp) (Host.dotGeneral dot_S4096x4096_S4096x512_S4096x512_1_0_0_1_n_n none Vh h)) W) := rfl

/-- K0 = (−1) · L0. -/
def k0Of (L0 : Vec F S4096x512 .f32) : Vec F S4096x512 .f32 := mulf (bc0 cNeg1) L0
theorem k0Of_eq (L0 : Vec F S4096x512 .f32) : k0Of L0 = mulf (bc0 cNeg1) L0 := rfl

/-- K1 = (−1) · (L0 + (ss · 1) · L(K0)). -/
def k1Of (U Vh : Vec F S4096x4096 .f32) (W : Vec F S512x512 .f32) (sp : Vec F S4096 .f32) (step : Vec F S1 .f32)
    (L0 K0 : Vec F S4096x512 .f32) : Vec F S4096x512 .f32 :=
  mulf (bc0 cNeg1) (addf L0 (mulf (bc0 (mulf (scal step) c1)) (lxwOf U Vh W sp K0)))
theorem k1Of_eq (U Vh : Vec F S4096x4096 .f32) (W : Vec F S512x512 .f32) (sp : Vec F S4096 .f32) (step : Vec F S1 .f32)
    (L0 K0 : Vec F S4096x512 .f32) :
    k1Of U Vh W sp step L0 K0
      = mulf (bc0 cNeg1) (addf L0 (mulf (bc0 (mulf (scal step) c1)) (lxwOf U Vh W sp K0))) := rfl

/-- h + ss · (½ K0 + ½ K1). -/
def combOf (step : Vec F S1 .f32) (h K0 K1 : Vec F S4096x512 .f32) : Vec F S4096x512 .f32 :=
  addf h (mulf (bc0 (scal step)) (addf (mulf (bc0 cHalf) K0) (mulf (bc0 cHalf) K1)))
theorem combOf_eq (step : Vec F S1 .f32) (h K0 K1 : Vec F S4096x512 .f32) :
    combOf step h K0 K1 = addf h (mulf (bc0 (scal step)) (addf (mulf (bc0 cHalf) K0) (mulf (bc0 cHalf) K1))) := rfl

/-- One step of Heun's method. -/
def stepOf (U Vh : Vec F S4096x4096 .f32) (W : Vec F S512x512 .f32) (sp : Vec F S4096 .f32) (step : Vec F S1 .f32)
    (h : Vec F S4096x512 .f32) : Vec F S4096x512 .f32 :=
  combOf step h (k0Of (lxwOf U Vh W sp h))
    (k1Of U Vh W sp step (lxwOf U Vh W sp h) (k0Of (lxwOf U Vh W sp h)))
theorem stepOf_eq (U Vh : Vec F S4096x4096 .f32) (W : Vec F S512x512 .f32) (sp : Vec F S4096 .f32) (step : Vec F S1 .f32)
    (h : Vec F S4096x512 .f32) :
    stepOf U Vh W sp step h = combOf step h (k0Of (lxwOf U Vh W sp h))
      (k1Of U Vh W sp step (lxwOf U Vh W sp h) (k0Of (lxwOf U Vh W sp h))) := rfl

/-! ## The nine states -/

/-- The encoded state. -/
def hN0 (a : Args F) : Vec F S4096x512 .f32 := encOf a.x a.enc_w a.enc_b
theorem hN0_eq (a : Args F) : hN0 a = encOf a.x a.enc_w a.enc_b := rfl

/-- The state after 1 step. -/
def hN1 (a : Args F) : Vec F S4096x512 .f32 :=
  stepOf a.U a.Vh a.W (spOf a.S a.shift a.expo) a.step (hN0 a)
theorem hN1_eq (a : Args F) :
    hN1 a = stepOf a.U a.Vh a.W (spOf a.S a.shift a.expo) a.step (hN0 a) := rfl

/-- The state after 2 steps. -/
def hN2 (a : Args F) : Vec F S4096x512 .f32 :=
  stepOf a.U a.Vh a.W (spOf a.S a.shift a.expo) a.step (hN1 a)
theorem hN2_eq (a : Args F) :
    hN2 a = stepOf a.U a.Vh a.W (spOf a.S a.shift a.expo) a.step (hN1 a) := rfl

/-- The state after 3 steps. -/
def hN3 (a : Args F) : Vec F S4096x512 .f32 :=
  stepOf a.U a.Vh a.W (spOf a.S a.shift a.expo) a.step (hN2 a)
theorem hN3_eq (a : Args F) :
    hN3 a = stepOf a.U a.Vh a.W (spOf a.S a.shift a.expo) a.step (hN2 a) := rfl

/-- The state after 4 steps. -/
def hN4 (a : Args F) : Vec F S4096x512 .f32 :=
  stepOf a.U a.Vh a.W (spOf a.S a.shift a.expo) a.step (hN3 a)
theorem hN4_eq (a : Args F) :
    hN4 a = stepOf a.U a.Vh a.W (spOf a.S a.shift a.expo) a.step (hN3 a) := rfl

/-- The state after 5 steps. -/
def hN5 (a : Args F) : Vec F S4096x512 .f32 :=
  stepOf a.U a.Vh a.W (spOf a.S a.shift a.expo) a.step (hN4 a)
theorem hN5_eq (a : Args F) :
    hN5 a = stepOf a.U a.Vh a.W (spOf a.S a.shift a.expo) a.step (hN4 a) := rfl

/-- The state after 6 steps. -/
def hN6 (a : Args F) : Vec F S4096x512 .f32 :=
  stepOf a.U a.Vh a.W (spOf a.S a.shift a.expo) a.step (hN5 a)
theorem hN6_eq (a : Args F) :
    hN6 a = stepOf a.U a.Vh a.W (spOf a.S a.shift a.expo) a.step (hN5 a) := rfl

/-- The state after 7 steps. -/
def hN7 (a : Args F) : Vec F S4096x512 .f32 :=
  stepOf a.U a.Vh a.W (spOf a.S a.shift a.expo) a.step (hN6 a)
theorem hN7_eq (a : Args F) :
    hN7 a = stepOf a.U a.Vh a.W (spOf a.S a.shift a.expo) a.step (hN6 a) := rfl

/-- The state after 8 steps. -/
def hN8 (a : Args F) : Vec F S4096x512 .f32 :=
  stepOf a.U a.Vh a.W (spOf a.S a.shift a.expo) a.step (hN7 a)
theorem hN8_eq (a : Args F) :
    hN8 a = stepOf a.U a.Vh a.W (spOf a.S a.shift a.expo) a.step (hN7 a) := rfl

attribute [irreducible] hN0 hN1 hN2 hN3 hN4 hN5 hN6 hN7 hN8

/-! ## The decoder and the results -/

/-- The leaky rectifier: z where z ≥ 0, slope · z elsewhere. -/
def leakyOf (z : Vec F S4096x512 .f32) (slope : Vec F S_ .f32) : Vec F S4096x512 .f32 :=
  select (cmpf .oge z (bc0 c0)) z (mulf (bc0 slope) z)
theorem leakyOf_eq (z : Vec F S4096x512 .f32) (slope : Vec F S_ .f32) :
    leakyOf z slope = select (cmpf .oge z (bc0 c0)) z (mulf (bc0 slope) z) := rfl

/-- The decoder's first layer before the rectifier: h · dec_w0ᵀ + dec_b0. -/
def dec0Of (dec_w0 : Vec F S512x512 .f32) (dec_b0 : Vec F S512 .f32) (h : Vec F S4096x512 .f32) : Vec F S4096x512 .f32 :=
  addf (Host.dotGeneral dot_S4096x512_S512x512_S4096x512_1_0_0_1_n_n none h (transpose S512x512 [1, 0] dec_w0 transposes_S512x512_S512x512_1_0)) (rowB dec_b0)
theorem dec0Of_eq (dec_w0 : Vec F S512x512 .f32) (dec_b0 : Vec F S512 .f32) (h : Vec F S4096x512 .f32) :
    dec0Of dec_w0 dec_b0 h
      = addf (Host.dotGeneral dot_S4096x512_S512x512_S4096x512_1_0_0_1_n_n none h (transpose S512x512 [1, 0] dec_w0 transposes_S512x512_S512x512_1_0)) (rowB dec_b0) := rfl

/-- The two decoder layers: leaky (h · dec_w0ᵀ + dec_b0) · dec_w1ᵀ + dec_b1. -/
def decOf (dec_w0 : Vec F S512x512 .f32) (dec_b0 : Vec F S512 .f32) (dec_w1 : Vec F S64x512 .f32) (dec_b1 : Vec F S64 .f32)
    (h : Vec F S4096x512 .f32) : Vec F S4096x64 .f32 :=
  addf (Host.dotGeneral dot_S4096x512_S512x64_S4096x64_1_0_0_1_n_n none (leakyOf (dec0Of dec_w0 dec_b0 h) cSlope)
    (transpose S512x64 [1, 0] dec_w1 transposes_S64x512_S512x64_1_0)) (rowB64 dec_b1)
theorem decOf_eq (dec_w0 : Vec F S512x512 .f32) (dec_b0 : Vec F S512 .f32) (dec_w1 : Vec F S64x512 .f32) (dec_b1 : Vec F S64 .f32)
    (h : Vec F S4096x512 .f32) :
    decOf dec_w0 dec_b0 dec_w1 dec_b1 h
      = addf (Host.dotGeneral dot_S4096x512_S512x64_S4096x64_1_0_0_1_n_n none (leakyOf (dec0Of dec_w0 dec_b0 h) cSlope)
          (transpose S512x64 [1, 0] dec_w1 transposes_S64x512_S512x64_1_0)) (rowB64 dec_b1) := rfl

/-- The [4096, 64] result. -/
def outOf (a : Args F) : Vec F S4096x64 .f32 := decOf a.dec_w0 a.dec_b0 a.dec_w1 a.dec_b1 (hN8 a)
theorem outOf_eq (a : Args F) : outOf a = decOf a.dec_w0 a.dec_b0 a.dec_w1 a.dec_b1 (hN8 a) := rfl

/-- A scalar as a one-element array. -/
def e1Of (e : Vec F S_ .f32) : Vec F S1 .f32 := broadcastInDim S1 ![] bcast_S_S1 e
theorem e1Of_eq (e : Vec F S_ .f32) : e1Of e = broadcastInDim S1 ![] bcast_S_S1 e := rfl

/-- The nine energies, of h0 … h8, in one [9] array. -/
def ensOf (a : Args F) : Vec F S9 .f32 :=
  concatenate S9 0
    [⟨S1, e1Of (energyOf a.snl (hN0 a))⟩,
      ⟨S1, e1Of (energyOf a.snl (hN1 a))⟩,
      ⟨S1, e1Of (energyOf a.snl (hN2 a))⟩,
      ⟨S1, e1Of (energyOf a.snl (hN3 a))⟩,
      ⟨S1, e1Of (energyOf a.snl (hN4 a))⟩,
      ⟨S1, e1Of (energyOf a.snl (hN5 a))⟩,
      ⟨S1, e1Of (energyOf a.snl (hN6 a))⟩,
      ⟨S1, e1Of (energyOf a.snl (hN7 a))⟩,
      ⟨S1, e1Of (energyOf a.snl (hN8 a))⟩]
    concatenates_S1_S1_S1_S1_S1_S1_S1_S1_S1_S9_d0
theorem ensOf_eq (a : Args F) : ensOf a =
  concatenate S9 0
    [⟨S1, e1Of (energyOf a.snl (hN0 a))⟩,
      ⟨S1, e1Of (energyOf a.snl (hN1 a))⟩,
      ⟨S1, e1Of (energyOf a.snl (hN2 a))⟩,
      ⟨S1, e1Of (energyOf a.snl (hN3 a))⟩,
      ⟨S1, e1Of (energyOf a.snl (hN4 a))⟩,
      ⟨S1, e1Of (energyOf a.snl (hN5 a))⟩,
      ⟨S1, e1Of (energyOf a.snl (hN6 a))⟩,
      ⟨S1, e1Of (energyOf a.snl (hN7 a))⟩,
      ⟨S1, e1Of (energyOf a.snl (hN8 a))⟩]
    concatenates_S1_S1_S1_S1_S1_S1_S1_S1_S1_S9_d0 := rfl

end Cert.Spec

end
-- ==== Proof.RefRunLib.lean ====
import Idealize.ShloMosaic.Lib.StableHlo.Run

namespace Cert.RefRun

open Idealize.ShloMosaic Idealize.ShloMosaic.StableHlo

variable {τ : Topo} {sig : RefSig} {Val : EltTy → Type}

/-- An operation whose one written buffer is a listed reference writes inside the list. -/
theorem writes_sub_of_mem {W : List (Ref sig .tc)} {op : HloOp τ sig Val} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- A property of every operation of two lines is one of every operation of their concatenation. -/
theorem forall_append {α : Type} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

end Cert.RefRun
-- ==== Proof.RefRun0.lean ====
import proofs.«158944_j64613488001249_1_alg».proof.Proof.Gen.ReferenceIdeal
import proofs.«158944_j64613488001249_1_alg».proof.Proof.RefRunLib
import Idealize.ShloMosaic.Lib.Pipeline.Regions

noncomputable section

namespace Cert.RefRun

open Cert.ReferenceIdeal Cert.ReferenceIdeal.Gen Idealize.ShloMosaic Idealize.ShloMosaic.TcCoe Idealize.SL.Sem Idealize.ShloMosaic.StableHlo Idealize.ShloMosaic.Pipeline

variable {F : FTy → Type} [FloatOps F]

/-- The operations of @main's statements 1 … 60 of 380, in order; a call's operations stand at the call, over that call's buffers. -/
abbrev ops_part0 : List (HloOp τ sig (Elt F)) :=
  [ reshape main_arg14 main_v0 rfl shapeCasts_S1_S_,
    reshape main_arg12 main_v1 rfl shapeCasts_S1_S_,
    unary main_v1 main_v2 (broadcastInDim S4096 ![] bcast_S_S4096 : (⟨S_, .f32⟩ : BufTy).Contents (Elt F) → (⟨S4096, .f32⟩ : BufTy).Contents (Elt F)),
    binary main_v2 main_arg2 main_v3 (addf : (⟨S4096, .f32⟩ : BufTy).Contents (Elt F) → (⟨S4096, .f32⟩ : BufTy).Contents (Elt F) → (⟨S4096, .f32⟩ : BufTy).Contents (Elt F)),
    reshape main_arg13 main_v4 rfl shapeCasts_S1_S_,
    unary main_v4 main_v5 (broadcastInDim S4096 ![] bcast_S_S4096 : (⟨S_, .f32⟩ : BufTy).Contents (Elt F) → (⟨S4096, .f32⟩ : BufTy).Contents (Elt F)),
    binary main_v3 main_v5 main_v6 (Host.powf : (⟨S4096, .f32⟩ : BufTy).Contents (Elt F) → (⟨S4096, .f32⟩ : BufTy).Contents (Elt F) → (⟨S4096, .f32⟩ : BufTy).Contents (Elt F)),
    unary main_arg5 main_v7 ((transpose S128x512 [1, 0] · transposes_S512x128_S128x512_1_0) : (⟨S512x128, .f32⟩ : BufTy).Contents (Elt F) → (⟨S128x512, .f32⟩ : BufTy).Contents (Elt F)),
    binary main_arg0 main_v7 main_v8 ((fun l r => Host.dotGeneral dot_S4096x128_S128x512_S4096x512_1_0_0_1_n_n none l r) : (⟨S4096x128, .f32⟩ : BufTy).Contents (Elt F) → (⟨S128x512, .f32⟩ : BufTy).Contents (Elt F) → (⟨S4096x512, .f32⟩ : BufTy).Contents (Elt F)),
    unary main_arg6 main_v9 (broadcastInDim S1x512 ![1] bcast_S512_S1x512_1 : (⟨S512, .f32⟩ : BufTy).Contents (Elt F) → (⟨S1x512, .f32⟩ : BufTy).Contents (Elt F)),
    unary main_v9 main_v10 (broadcastInDim S4096x512 ![0, 1] bcast_S1x512_S4096x512_0_1 : (⟨S1x512, .f32⟩ : BufTy).Contents (Elt F) → (⟨S4096x512, .f32⟩ : BufTy).Contents (Elt F)),
    binary main_v8 main_v10 main_v11 (addf : (⟨S4096x512, .f32⟩ : BufTy).Contents (Elt F) → (⟨S4096x512, .f32⟩ : BufTy).Contents (Elt F) → (⟨S4096x512, .f32⟩ : BufTy).Contents (Elt F)),
    TRef.binary (.of main_v11 : TRef sig ⟨S4096x512, .f32⟩) (.of main_v11 : TRef sig ⟨S4096x512, .f32⟩) main_call0.v0 mulf,
    TRef.nullary main_call0.cst (constant S_ .f32 0x00000000#32),
    TRef.binary main_call0.v0 main_call0.cst main_call0.v1 (fun x v => Host.reduceAdd x v reducesTo_S4096x512_S_d0_1 h_S_),
    TRef.unary main_call0.v1 main_call0.v2 Host.sqrt,
    unary main_v12 main_v13 (broadcastInDim S4096x512 ![] bcast_S_S4096x512 : (⟨S_, .f32⟩ : BufTy).Contents (Elt F) → (⟨S4096x512, .f32⟩ : BufTy).Contents (Elt F)),
    binary main_v11 main_v13 main_v14 (Host.divf : (⟨S4096x512, .f32⟩ : BufTy).Contents (Elt F) → (⟨S4096x512, .f32⟩ : BufTy).Contents (Elt F) → (⟨S4096x512, .f32⟩ : BufTy).Contents (Elt F)),
    binary main_arg4 main_v14 main_v15 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v15 main_v14 main_v16 (mulf : (⟨S4096x512, .f32⟩ : BufTy).Contents (Elt F) → (⟨S4096x512, .f32⟩ : BufTy).Contents (Elt F) → (⟨S4096x512, .f32⟩ : BufTy).Contents (Elt F)),
    nullary main_cst (constant S_ .f32 0x00000000#32),
    binary main_v16 main_cst main_v17 ((fun x v => Host.reduceAdd x v reducesTo_S4096x512_S_d0_1 h_S_) : (⟨S4096x512, .f32⟩ : BufTy).Contents (Elt F) → (⟨S_, .f32⟩ : BufTy).Contents (Elt F) → (⟨S_, .f32⟩ : BufTy).Contents (Elt F)),
    nullary main_cst_0 (constant S_ .f32 0x3F000000#32),
    binary main_cst_0 main_v17 main_v18 (mulf : (⟨S_, .f32⟩ : BufTy).Contents (Elt F) → (⟨S_, .f32⟩ : BufTy).Contents (Elt F) → (⟨S_, .f32⟩ : BufTy).Contents (Elt F)),
    unary main_v6 main_v19 (broadcastInDim S4096x1 ![0] bcast_S4096_S4096x1_0 : (⟨S4096, .f32⟩ : BufTy).Contents (Elt F) → (⟨S4096x1, .f32⟩ : BufTy).Contents (Elt F)),
    binary main_arg3 main_v11 main_v20 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v19 main_v21 (broadcastInDim S4096x512 ![0, 1] bcast_S4096x1_S4096x512_0_1 : (⟨S4096x1, .f32⟩ : BufTy).Contents (Elt F) → (⟨S4096x512, .f32⟩ : BufTy).Contents (Elt F)),
    binary main_v21 main_v20 main_v22 (mulf : (⟨S4096x512, .f32⟩ : BufTy).Contents (Elt F) → (⟨S4096x512, .f32⟩ : BufTy).Contents (Elt F) → (⟨S4096x512, .f32⟩ : BufTy).Contents (Elt F)),
    binary main_v22 main_arg7 main_v23 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    binary main_arg1 main_v23 main_v24 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    nullary main_cst_1 (constant S_ .f32 0xBF800000#32),
    unary main_cst_1 main_v25 (broadcastInDim S4096x512 ![] bcast_S_S4096x512 : (⟨S_, .f32⟩ : BufTy).Contents (Elt F) → (⟨S4096x512, .f32⟩ : BufTy).Contents (Elt F)),
    binary main_v25 main_v24 main_v26 (mulf : (⟨S4096x512, .f32⟩ : BufTy).Contents (Elt F) → (⟨S4096x512, .f32⟩ : BufTy).Contents (Elt F) → (⟨S4096x512, .f32⟩ : BufTy).Contents (Elt F)),
    nullary main_cst_2 (constant S_ .f32 0x3F800000#32),
    binary main_v0 main_cst_2 main_v27 (mulf : (⟨S_, .f32⟩ : BufTy).Contents (Elt F) → (⟨S_, .f32⟩ : BufTy).Contents (Elt F) → (⟨S_, .f32⟩ : BufTy).Contents (Elt F)),
    unary main_v6 main_v28 (broadcastInDim S4096x1 ![0] bcast_S4096_S4096x1_0 : (⟨S4096, .f32⟩ : BufTy).Contents (Elt F) → (⟨S4096x1, .f32⟩ : BufTy).Contents (Elt F)),
    binary main_arg3 main_v26 main_v29 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v28 main_v30 (broadcastInDim S4096x512 ![0, 1] bcast_S4096x1_S4096x512_0_1 : (⟨S4096x1, .f32⟩ : BufTy).Contents (Elt F) → (⟨S4096x512, .f32⟩ : BufTy).Contents (Elt F)),
    binary main_v30 main_v29 main_v31 (mulf : (⟨S4096x512, .f32⟩ : BufTy).Contents (Elt F) → (⟨S4096x512, .f32⟩ : BufTy).Contents (Elt F) → (⟨S4096x512, .f32⟩ : BufTy).Contents (Elt F)),
    binary main_v31 main_arg7 main_v32 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    binary main_arg1 main_v32 main_v33 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v27 main_v34 (broadcastInDim S4096x512 ![] bcast_S_S4096x512 : (⟨S_, .f32⟩ : BufTy).Contents (Elt F) → (⟨S4096x512, .f32⟩ : BufTy).Contents (Elt F)),
    binary main_v34 main_v33 main_v35 (mulf : (⟨S4096x512, .f32⟩ : BufTy).Contents (Elt F) → (⟨S4096x512, .f32⟩ : BufTy).Contents (Elt F) → (⟨S4096x512, .f32⟩ : BufTy).Contents (Elt F)),
    binary main_v24 main_v35 main_v36 (addf : (⟨S4096x512, .f32⟩ : BufTy).Contents (Elt F) → (⟨S4096x512, .f32⟩ : BufTy).Contents (Elt F) → (⟨S4096x512, .f32⟩ : BufTy).Contents (Elt F)),
    nullary main_cst_3 (constant S_ .f32 0xBF800000#32),
    unary main_cst_3 main_v37 (broadcastInDim S4096x512 ![] bcast_S_S4096x512 : (⟨S_, .f32⟩ : BufTy).Contents (Elt F) → (⟨S4096x512, .f32⟩ : BufTy).Contents (Elt F)),
    binary main_v37 main_v36 main_v38 (mulf : (⟨S4096x512, .f32⟩ : BufTy).Contents (Elt F) → (⟨S4096x512, .f32⟩ : BufTy).Contents (Elt F) → (⟨S4096x512, .f32⟩ : BufTy).Contents (Elt F)),
    nullary main_cst_4 (constant S_ .f32 0x3F000000#32),
    unary main_cst_4 main_v39 (broadcastInDim S4096x512 ![] bcast_S_S4096x512 : (⟨S_, .f32⟩ : BufTy).Contents (Elt F) → (⟨S4096x512, .f32⟩ : BufTy).Contents (Elt F)),
    binary main_v39 main_v26 main_v40 (mulf : (⟨S4096x512, .f32⟩ : BufTy).Contents (Elt F) → (⟨S4096x512, .f32⟩ : BufTy).Contents (Elt F) → (⟨S4096x512, .f32⟩ : BufTy).Contents (Elt F)),
    nullary main_cst_5 (constant S_ .f32 0x3F000000#32),
    unary main_cst_5 main_v41 (broadcastInDim S4096x512 ![] bcast_S_S4096x512 : (⟨S_, .f32⟩ : BufTy).Contents (Elt F) → (⟨S4096x512, .f32⟩ : BufTy).Contents (Elt F)),
    binary main_v41 main_v38 main_v42 (mulf : (⟨S4096x512, .f32⟩ : BufTy).Contents (Elt F) → (⟨S4096x512, .f32⟩ : BufTy).Contents (Elt F) → (⟨S4096x512, .f32⟩ : BufTy).Contents (Elt F)),
    binary main_v40 main_v42 main_v43 (addf : (⟨S4096x512, .f32⟩ : BufTy).Contents (Elt F) → (⟨S4096x512, .f32⟩ : BufTy).Contents (Elt F) → (⟨S4096x512, .f32⟩ : BufTy).Contents (Elt F)),
    unary main_v0 main_v44 (broadcastInDim S4096x512 ![] bcast_S_S4096x512 : (⟨S_, .f32⟩ : BufTy).Contents (Elt F) → (⟨S4096x512, .f32⟩ : BufTy).Contents (Elt F)),
    binary main_v44 main_v43 main_v45 (mulf : (⟨S4096x512, .f32⟩ : BufTy).Contents (Elt F) → (⟨S4096x512, .f32⟩ : BufTy).Contents (Elt F) → (⟨S4096x512, .f32⟩ : BufTy).Contents (Elt F)),
    binary main_v11 main_v45 main_v46 (addf : (⟨S4096x512, .f32⟩ : BufTy).Contents (Elt F) → (⟨S4096x512, .f32⟩ : BufTy).Contents (Elt F) → (⟨S4096x512, .f32⟩ : BufTy).Contents (Elt F)),
    TRef.binary (.of main_v46 : TRef sig ⟨S4096x512, .f32⟩) (.of main_v46 : TRef sig ⟨S4096x512, .f32⟩) main_call1.v0 mulf,
    TRef.nullary main_call1.cst (constant S_ .f32 0x00000000#32),
    TRef.binary main_call1.v0 main_call1.cst main_call1.v1 (fun x v => Host.reduceAdd x v reducesTo_S4096x512_S_d0_1 h_S_),
    TRef.unary main_call1.v1 main_call1.v2 Host.sqrt,
    unary main_v47 main_v48 (broadcastInDim S4096x512 ![] bcast_S_S4096x512 : (⟨S_, .f32⟩ : BufTy).Contents (Elt F) → (⟨S4096x512, .f32⟩ : BufTy).Contents (Elt F)),
    binary main_v46 main_v48 main_v49 (Host.divf : (⟨S4096x512, .f32⟩ : BufTy).Contents (Elt F) → (⟨S4096x512, .f32⟩ : BufTy).Contents (Elt F) → (⟨S4096x512, .f32⟩ : BufTy).Contents (Elt F)),
    binary main_arg4 main_v49 main_v50 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v50 main_v49 main_v51 (mulf : (⟨S4096x512, .f32⟩ : BufTy).Contents (Elt F) → (⟨S4096x512, .f32⟩ : BufTy).Contents (Elt F) → (⟨S4096x512, .f32⟩ : BufTy).Contents (Elt F)),
    nullary main_cst_6 (constant S_ .f32 0x00000000#32) ]

/-- The references those operations write, in order. -/
abbrev ops_part0_W : List (Ref sig .tc) :=
  [main_v0, main_v1, main_v2, main_v3, main_v4, main_v5, main_v6, main_v7, main_v8, main_v9, main_v10, main_v11, main_call0_v0, main_call0_cst, main_call0_v1, main_v12, main_v13, main_v14, main_v15, main_v16, main_cst, main_v17, main_cst_0, main_v18, main_v19, main_v20, main_v21, main_v22, main_v23, main_v24, main_cst_1, main_v25, main_v26, main_cst_2, main_v27, main_v28, main_v29, main_v30, main_v31, main_v32, main_v33, main_v34, main_v35, main_v36, main_cst_3, main_v37, main_v38, main_cst_4, main_v39, main_v40, main_cst_5, main_v41, main_v42, main_v43, main_v44, main_v45, main_v46, main_call1_v0, main_call1_cst, main_call1_v1, main_v47, main_v48, main_v49, main_v50, main_v51, main_cst_6]

/-- The window is that line of operations: both sides unfold to one chain of steps. -/
theorem main_part0_eq (c : Dev nD) : main_part0 (F := F) c = seq ops_part0 := by chain_rfl

theorem ops_part0_sub : (ops_part0 : List (HloOp τ sig (Elt F))).Forall fun op => op.bufs ⊆ tcRefs τ sig :=
  ⟨reshape_bufs_sub .., reshape_bufs_sub .., unary_bufs_sub .., binary_bufs_sub .., reshape_bufs_sub .., unary_bufs_sub .., binary_bufs_sub .., unary_bufs_sub .., binary_bufs_sub .., unary_bufs_sub .., unary_bufs_sub .., binary_bufs_sub .., binary_bufs_sub .., nullary_bufs_sub .., binary_bufs_sub .., unary_bufs_sub .., unary_bufs_sub .., binary_bufs_sub .., binary_bufs_sub .., binary_bufs_sub .., nullary_bufs_sub .., binary_bufs_sub .., nullary_bufs_sub .., binary_bufs_sub .., unary_bufs_sub .., binary_bufs_sub .., unary_bufs_sub .., binary_bufs_sub .., binary_bufs_sub .., binary_bufs_sub .., nullary_bufs_sub .., unary_bufs_sub .., binary_bufs_sub .., nullary_bufs_sub .., binary_bufs_sub .., unary_bufs_sub .., binary_bufs_sub .., unary_bufs_sub .., binary_bufs_sub .., binary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., unary_bufs_sub .., unary_bufs_sub .., binary_bufs_sub .., binary_bufs_sub .., binary_bufs_sub .., nullary_bufs_sub ..⟩

theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_part0_writes : (ops_part0 : List (HloOp τ sig (Elt F))).Forall fun op => op.writes ⊆ (ops_part0_W.map (Proc.devRef (τ := τ) .tc)).toFinset :=
  ⟨writes_sub_of_mem (y := main_v0) rfl (by decide),
   writes_sub_of_mem (y := main_v1) rfl (by decide),
   writes_sub_of_mem (y := main_v2) rfl (by decide),
   writes_sub_of_mem (y := main_v3) rfl (by decide),
   writes_sub_of_mem (y := main_v4) rfl (by decide),
   writes_sub_of_mem (y := main_v5) rfl (by decide),
   writes_sub_of_mem (y := main_v6) rfl (by decide),
   writes_sub_of_mem (y := main_v7) rfl (by decide),
   writes_sub_of_mem (y := main_v8) rfl (by decide),
   writes_sub_of_mem (y := main_v9) rfl (by decide),
   writes_sub_of_mem (y := main_v10) rfl (by decide),
   writes_sub_of_mem (y := main_v11) rfl (by decide),
   writes_sub_of_mem (y := main_call0_v0) rfl (by decide),
   writes_sub_of_mem (y := main_call0_cst) rfl (by decide),
   writes_sub_of_mem (y := main_call0_v1) rfl (by decide),
   writes_sub_of_mem (y := main_v12) rfl (by decide),
   writes_sub_of_mem (y := main_v13) rfl (by decide),
   writes_sub_of_mem (y := main_v14) rfl (by decide),
   writes_sub_of_mem (y := main_v15) rfl (by decide),
   writes_sub_of_mem (y := main_v16) rfl (by decide),
   writes_sub_of_mem (y := main_cst) rfl (by decide),
   writes_sub_of_mem (y := main_v17) rfl (by decide),
   writes_sub_of_mem (y := main_cst_0) rfl (by decide),
   writes_sub_of_mem (y := main_v18) rfl (by decide),
   writes_sub_of_mem (y := main_v19) rfl (by decide),
   writes_sub_of_mem (y := main_v20) rfl (by decide),
   writes_sub_of_mem (y := main_v21) rfl (by decide),
   writes_sub_of_mem (y := main_v22) rfl (by decide),
   writes_sub_of_mem (y := main_v23) rfl (by decide),
   writes_sub_of_mem (y := main_v24) rfl (by decide),
   writes_sub_of_mem (y := main_cst_1) rfl (by decide),
   writes_sub_of_mem (y := main_v25) rfl (by decide),
   writes_sub_of_mem (y := main_v26) rfl (by decide),
   writes_sub_of_mem (y := main_cst_2) rfl (by decide),
   writes_sub_of_mem (y := main_v27) rfl (by decide),
   writes_sub_of_mem (y := main_v28) rfl (by decide),
   writes_sub_of_mem (y := main_v29) rfl (by decide),
   writes_sub_of_mem (y := main_v30) rfl (by decide),
   writes_sub_of_mem (y := main_v31) rfl (by decide),
   writes_sub_of_mem (y := main_v32) rfl (by decide),
   writes_sub_of_mem (y := main_v33) rfl (by decide),
   writes_sub_of_mem (y := main_v34) rfl (by decide),
   writes_sub_of_mem (y := main_v35) rfl (by decide),
   writes_sub_of_mem (y := main_v36) rfl (by decide),
   writes_sub_of_mem (y := main_cst_3) rfl (by decide),
   writes_sub_of_mem (y := main_v37) rfl (by decide),
   writes_sub_of_mem (y := main_v38) rfl (by decide),
   writes_sub_of_mem (y := main_cst_4) rfl (by decide),
   writes_sub_of_mem (y := main_v39) rfl (by decide),
   writes_sub_of_mem (y := main_v40) rfl (by decide),
   writes_sub_of_mem (y := main_cst_5) rfl (by decide),
   writes_sub_of_mem (y := main_v41) rfl (by decide),
   writes_sub_of_mem (y := main_v42) rfl (by decide),
   writes_sub_of_mem (y := main_v43) rfl (by decide),
   writes_sub_of_mem (y := main_v44) rfl (by decide),
   writes_sub_of_mem (y := main_v45) rfl (by decide),
   writes_sub_of_mem (y := main_v46) rfl (by decide),
   writes_sub_of_mem (y := main_call1_v0) rfl (by decide),
   writes_sub_of_mem (y := main_call1_cst) rfl (by decide),
   writes_sub_of_mem (y := main_call1_v1) rfl (by decide),
   writes_sub_of_mem (y := main_v47) rfl (by decide),
   writes_sub_of_mem (y := main_v48) rfl (by decide),
   writes_sub_of_mem (y := main_v49) rfl (by decide),
   writes_sub_of_mem (y := main_v50) rfl (by decide),
   writes_sub_of_mem (y := main_v51) rfl (by decide),
   writes_sub_of_mem (y := main_cst_6) rfl (by decide)⟩

end Cert.RefRun

end
-- ==== Proof.RefRun1.lean ====
import proofs.«158944_j64613488001249_1_alg».proof.Proof.Gen.ReferenceIdeal
import proofs.«158944_j64613488001249_1_alg».proof.Proof.RefRunLib
import Idealize.ShloMosaic.Lib.Pipeline.Regions

noncomputable section

namespace Cert.RefRun

open Cert.ReferenceIdeal Cert.ReferenceIdeal.Gen Idealize.ShloMosaic Idealize.ShloMosaic.TcCoe Idealize.SL.Sem Idealize.ShloMosaic.StableHlo Idealize.ShloMosaic.Pipeline

variable {F : FTy → Type} [FloatOps F]

/-- The operations of @main's statements 61 … 120 of 380, in order; a call's operations stand at the call, over that call's buffers. -/
abbrev ops_part1 : List (HloOp τ sig (Elt F)) :=
  [ binary main_v51 main_cst_6 main_v52 ((fun x v => Host.reduceAdd x v reducesTo_S4096x512_S_d0_1 h_S_) : (⟨S4096x512, .f32⟩ : BufTy).Contents (Elt F) → (⟨S_, .f32⟩ : BufTy).Contents (Elt F) → (⟨S_, .f32⟩ : BufTy).Contents (Elt F)),
    nullary main_cst_7 (constant S_ .f32 0x3F000000#32),
    binary main_cst_7 main_v52 main_v53 (mulf : (⟨S_, .f32⟩ : BufTy).Contents (Elt F) → (⟨S_, .f32⟩ : BufTy).Contents (Elt F) → (⟨S_, .f32⟩ : BufTy).Contents (Elt F)),
    unary main_v6 main_v54 (broadcastInDim S4096x1 ![0] bcast_S4096_S4096x1_0 : (⟨S4096, .f32⟩ : BufTy).Contents (Elt F) → (⟨S4096x1, .f32⟩ : BufTy).Contents (Elt F)),
    binary main_arg3 main_v46 main_v55 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v54 main_v56 (broadcastInDim S4096x512 ![0, 1] bcast_S4096x1_S4096x512_0_1 : (⟨S4096x1, .f32⟩ : BufTy).Contents (Elt F) → (⟨S4096x512, .f32⟩ : BufTy).Contents (Elt F)),
    binary main_v56 main_v55 main_v57 (mulf : (⟨S4096x512, .f32⟩ : BufTy).Contents (Elt F) → (⟨S4096x512, .f32⟩ : BufTy).Contents (Elt F) → (⟨S4096x512, .f32⟩ : BufTy).Contents (Elt F)),
    binary main_v57 main_arg7 main_v58 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    binary main_arg1 main_v58 main_v59 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    nullary main_cst_8 (constant S_ .f32 0xBF800000#32),
    unary main_cst_8 main_v60 (broadcastInDim S4096x512 ![] bcast_S_S4096x512 : (⟨S_, .f32⟩ : BufTy).Contents (Elt F) → (⟨S4096x512, .f32⟩ : BufTy).Contents (Elt F)),
    binary main_v60 main_v59 main_v61 (mulf : (⟨S4096x512, .f32⟩ : BufTy).Contents (Elt F) → (⟨S4096x512, .f32⟩ : BufTy).Contents (Elt F) → (⟨S4096x512, .f32⟩ : BufTy).Contents (Elt F)),
    nullary main_cst_9 (constant S_ .f32 0x3F800000#32),
    binary main_v0 main_cst_9 main_v62 (mulf : (⟨S_, .f32⟩ : BufTy).Contents (Elt F) → (⟨S_, .f32⟩ : BufTy).Contents (Elt F) → (⟨S_, .f32⟩ : BufTy).Contents (Elt F)),
    unary main_v6 main_v63 (broadcastInDim S4096x1 ![0] bcast_S4096_S4096x1_0 : (⟨S4096, .f32⟩ : BufTy).Contents (Elt F) → (⟨S4096x1, .f32⟩ : BufTy).Contents (Elt F)),
    binary main_arg3 main_v61 main_v64 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v63 main_v65 (broadcastInDim S4096x512 ![0, 1] bcast_S4096x1_S4096x512_0_1 : (⟨S4096x1, .f32⟩ : BufTy).Contents (Elt F) → (⟨S4096x512, .f32⟩ : BufTy).Contents (Elt F)),
    binary main_v65 main_v64 main_v66 (mulf : (⟨S4096x512, .f32⟩ : BufTy).Contents (Elt F) → (⟨S4096x512, .f32⟩ : BufTy).Contents (Elt F) → (⟨S4096x512, .f32⟩ : BufTy).Contents (Elt F)),
    binary main_v66 main_arg7 main_v67 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    binary main_arg1 main_v67 main_v68 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v62 main_v69 (broadcastInDim S4096x512 ![] bcast_S_S4096x512 : (⟨S_, .f32⟩ : BufTy).Contents (Elt F) → (⟨S4096x512, .f32⟩ : BufTy).Contents (Elt F)),
    binary main_v69 main_v68 main_v70 (mulf : (⟨S4096x512, .f32⟩ : BufTy).Contents (Elt F) → (⟨S4096x512, .f32⟩ : BufTy).Contents (Elt F) → (⟨S4096x512, .f32⟩ : BufTy).Contents (Elt F)),
    binary main_v59 main_v70 main_v71 (addf : (⟨S4096x512, .f32⟩ : BufTy).Contents (Elt F) → (⟨S4096x512, .f32⟩ : BufTy).Contents (Elt F) → (⟨S4096x512, .f32⟩ : BufTy).Contents (Elt F)),
    nullary main_cst_10 (constant S_ .f32 0xBF800000#32),
    unary main_cst_10 main_v72 (broadcastInDim S4096x512 ![] bcast_S_S4096x512 : (⟨S_, .f32⟩ : BufTy).Contents (Elt F) → (⟨S4096x512, .f32⟩ : BufTy).Contents (Elt F)),
    binary main_v72 main_v71 main_v73 (mulf : (⟨S4096x512, .f32⟩ : BufTy).Contents (Elt F) → (⟨S4096x512, .f32⟩ : BufTy).Contents (Elt F) → (⟨S4096x512, .f32⟩ : BufTy).Contents (Elt F)),
    nullary main_cst_11 (constant S_ .f32 0x3F000000#32),
    unary main_cst_11 main_v74 (broadcastInDim S4096x512 ![] bcast_S_S4096x512 : (⟨S_, .f32⟩ : BufTy).Contents (Elt F) → (⟨S4096x512, .f32⟩ : BufTy).Contents (Elt F)),
    binary main_v74 main_v61 main_v75 (mulf : (⟨S4096x512, .f32⟩ : BufTy).Contents (Elt F) → (⟨S4096x512, .f32⟩ : BufTy).Contents (Elt F) → (⟨S4096x512, .f32⟩ : BufTy).Contents (Elt F)),
    nullary main_cst_12 (constant S_ .f32 0x3F000000#32),
    unary main_cst_12 main_v76 (broadcastInDim S4096x512 ![] bcast_S_S4096x512 : (⟨S_, .f32⟩ : BufTy).Contents (Elt F) → (⟨S4096x512, .f32⟩ : BufTy).Contents (Elt F)),
    binary main_v76 main_v73 main_v77 (mulf : (⟨S4096x512, .f32⟩ : BufTy).Contents (Elt F) → (⟨S4096x512, .f32⟩ : BufTy).Contents (Elt F) → (⟨S4096x512, .f32⟩ : BufTy).Contents (Elt F)),
    binary main_v75 main_v77 main_v78 (addf : (⟨S4096x512, .f32⟩ : BufTy).Contents (Elt F) → (⟨S4096x512, .f32⟩ : BufTy).Contents (Elt F) → (⟨S4096x512, .f32⟩ : BufTy).Contents (Elt F)),
    unary main_v0 main_v79 (broadcastInDim S4096x512 ![] bcast_S_S4096x512 : (⟨S_, .f32⟩ : BufTy).Contents (Elt F) → (⟨S4096x512, .f32⟩ : BufTy).Contents (Elt F)),
    binary main_v79 main_v78 main_v80 (mulf : (⟨S4096x512, .f32⟩ : BufTy).Contents (Elt F) → (⟨S4096x512, .f32⟩ : BufTy).Contents (Elt F) → (⟨S4096x512, .f32⟩ : BufTy).Contents (Elt F)),
    binary main_v46 main_v80 main_v81 (addf : (⟨S4096x512, .f32⟩ : BufTy).Contents (Elt F) → (⟨S4096x512, .f32⟩ : BufTy).Contents (Elt F) → (⟨S4096x512, .f32⟩ : BufTy).Contents (Elt F)),
    TRef.binary (.of main_v81 : TRef sig ⟨S4096x512, .f32⟩) (.of main_v81 : TRef sig ⟨S4096x512, .f32⟩) main_call2.v0 mulf,
    TRef.nullary main_call2.cst (constant S_ .f32 0x00000000#32),
    TRef.binary main_call2.v0 main_call2.cst main_call2.v1 (fun x v => Host.reduceAdd x v reducesTo_S4096x512_S_d0_1 h_S_),
    TRef.unary main_call2.v1 main_call2.v2 Host.sqrt,
    unary main_v82 main_v83 (broadcastInDim S4096x512 ![] bcast_S_S4096x512 : (⟨S_, .f32⟩ : BufTy).Contents (Elt F) → (⟨S4096x512, .f32⟩ : BufTy).Contents (Elt F)),
    binary main_v81 main_v83 main_v84 (Host.divf : (⟨S4096x512, .f32⟩ : BufTy).Contents (Elt F) → (⟨S4096x512, .f32⟩ : BufTy).Contents (Elt F) → (⟨S4096x512, .f32⟩ : BufTy).Contents (Elt F)),
    binary main_arg4 main_v84 main_v85 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v85 main_v84 main_v86 (mulf : (⟨S4096x512, .f32⟩ : BufTy).Contents (Elt F) → (⟨S4096x512, .f32⟩ : BufTy).Contents (Elt F) → (⟨S4096x512, .f32⟩ : BufTy).Contents (Elt F)),
    nullary main_cst_13 (constant S_ .f32 0x00000000#32),
    binary main_v86 main_cst_13 main_v87 ((fun x v => Host.reduceAdd x v reducesTo_S4096x512_S_d0_1 h_S_) : (⟨S4096x512, .f32⟩ : BufTy).Contents (Elt F) → (⟨S_, .f32⟩ : BufTy).Contents (Elt F) → (⟨S_, .f32⟩ : BufTy).Contents (Elt F)),
    nullary main_cst_14 (constant S_ .f32 0x3F000000#32),
    binary main_cst_14 main_v87 main_v88 (mulf : (⟨S_, .f32⟩ : BufTy).Contents (Elt F) → (⟨S_, .f32⟩ : BufTy).Contents (Elt F) → (⟨S_, .f32⟩ : BufTy).Contents (Elt F)),
    unary main_v6 main_v89 (broadcastInDim S4096x1 ![0] bcast_S4096_S4096x1_0 : (⟨S4096, .f32⟩ : BufTy).Contents (Elt F) → (⟨S4096x1, .f32⟩ : BufTy).Contents (Elt F)),
    binary main_arg3 main_v81 main_v90 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v89 main_v91 (broadcastInDim S4096x512 ![0, 1] bcast_S4096x1_S4096x512_0_1 : (⟨S4096x1, .f32⟩ : BufTy).Contents (Elt F) → (⟨S4096x512, .f32⟩ : BufTy).Contents (Elt F)),
    binary main_v91 main_v90 main_v92 (mulf : (⟨S4096x512, .f32⟩ : BufTy).Contents (Elt F) → (⟨S4096x512, .f32⟩ : BufTy).Contents (Elt F) → (⟨S4096x512, .f32⟩ : BufTy).Contents (Elt F)),
    binary main_v92 main_arg7 main_v93 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    binary main_arg1 main_v93 main_v94 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    nullary main_cst_15 (constant S_ .f32 0xBF800000#32),
    unary main_cst_15 main_v95 (broadcastInDim S4096x512 ![] bcast_S_S4096x512 : (⟨S_, .f32⟩ : BufTy).Contents (Elt F) → (⟨S4096x512, .f32⟩ : BufTy).Contents (Elt F)),
    binary main_v95 main_v94 main_v96 (mulf : (⟨S4096x512, .f32⟩ : BufTy).Contents (Elt F) → (⟨S4096x512, .f32⟩ : BufTy).Contents (Elt F) → (⟨S4096x512, .f32⟩ : BufTy).Contents (Elt F)),
    nullary main_cst_16 (constant S_ .f32 0x3F800000#32),
    binary main_v0 main_cst_16 main_v97 (mulf : (⟨S_, .f32⟩ : BufTy).Contents (Elt F) → (⟨S_, .f32⟩ : BufTy).Contents (Elt F) → (⟨S_, .f32⟩ : BufTy).Contents (Elt F)),
    unary main_v6 main_v98 (broadcastInDim S4096x1 ![0] bcast_S4096_S4096x1_0 : (⟨S4096, .f32⟩ : BufTy).Contents (Elt F) → (⟨S4096x1, .f32⟩ : BufTy).Contents (Elt F)),
    binary main_arg3 main_v96 main_v99 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v98 main_v100 (broadcastInDim S4096x512 ![0, 1] bcast_S4096x1_S4096x512_0_1 : (⟨S4096x1, .f32⟩ : BufTy).Contents (Elt F) → (⟨S4096x512, .f32⟩ : BufTy).Contents (Elt F)),
    binary main_v100 main_v99 main_v101 (mulf : (⟨S4096x512, .f32⟩ : BufTy).Contents (Elt F) → (⟨S4096x512, .f32⟩ : BufTy).Contents (Elt F) → (⟨S4096x512, .f32⟩ : BufTy).Contents (Elt F)) ]

/-- The references those operations write, in order. -/
abbrev ops_part1_W : List (Ref sig .tc) :=
  [main_v52, main_cst_7, main_v53, main_v54, main_v55, main_v56, main_v57, main_v58, main_v59, main_cst_8, main_v60, main_v61, main_cst_9, main_v62, main_v63, main_v64, main_v65, main_v66, main_v67, main_v68, main_v69, main_v70, main_v71, main_cst_10, main_v72, main_v73, main_cst_11, main_v74, main_v75, main_cst_12, main_v76, main_v77, main_v78, main_v79, main_v80, main_v81, main_call2_v0, main_call2_cst, main_call2_v1, main_v82, main_v83, main_v84, main_v85, main_v86, main_cst_13, main_v87, main_cst_14, main_v88, main_v89, main_v90, main_v91, main_v92, main_v93, main_v94, main_cst_15, main_v95, main_v96, main_cst_16, main_v97, main_v98, main_v99, main_v100, main_v101]

/-- The window is that line of operations: both sides unfold to one chain of steps. -/
theorem main_part1_eq (c : Dev nD) : main_part1 (F := F) c = seq ops_part1 := by chain_rfl

theorem ops_part1_sub : (ops_part1 : List (HloOp τ sig (Elt F))).Forall fun op => op.bufs ⊆ tcRefs τ sig :=
  ⟨binary_bufs_sub .., nullary_bufs_sub .., binary_bufs_sub .., unary_bufs_sub .., binary_bufs_sub .., unary_bufs_sub .., binary_bufs_sub .., binary_bufs_sub .., binary_bufs_sub .., nullary_bufs_sub .., unary_bufs_sub .., binary_bufs_sub .., nullary_bufs_sub .., binary_bufs_sub .., unary_bufs_sub .., binary_bufs_sub .., unary_bufs_sub .., binary_bufs_sub .., binary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., unary_bufs_sub .., unary_bufs_sub .., binary_bufs_sub .., binary_bufs_sub .., binary_bufs_sub .., nullary_bufs_sub .., binary_bufs_sub .., nullary_bufs_sub .., binary_bufs_sub .., unary_bufs_sub .., binary_bufs_sub .., unary_bufs_sub .., binary_bufs_sub .., binary_bufs_sub .., binary_bufs_sub .., nullary_bufs_sub .., unary_bufs_sub .., binary_bufs_sub .., nullary_bufs_sub .., binary_bufs_sub .., unary_bufs_sub .., binary_bufs_sub .., unary_bufs_sub .., binary_bufs_sub ..⟩

theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_part1_writes : (ops_part1 : List (HloOp τ sig (Elt F))).Forall fun op => op.writes ⊆ (ops_part1_W.map (Proc.devRef (τ := τ) .tc)).toFinset :=
  ⟨writes_sub_of_mem (y := main_v52) rfl (by decide),
   writes_sub_of_mem (y := main_cst_7) rfl (by decide),
   writes_sub_of_mem (y := main_v53) rfl (by decide),
   writes_sub_of_mem (y := main_v54) rfl (by decide),
   writes_sub_of_mem (y := main_v55) rfl (by decide),
   writes_sub_of_mem (y := main_v56) rfl (by decide),
   writes_sub_of_mem (y := main_v57) rfl (by decide),
   writes_sub_of_mem (y := main_v58) rfl (by decide),
   writes_sub_of_mem (y := main_v59) rfl (by decide),
   writes_sub_of_mem (y := main_cst_8) rfl (by decide),
   writes_sub_of_mem (y := main_v60) rfl (by decide),
   writes_sub_of_mem (y := main_v61) rfl (by decide),
   writes_sub_of_mem (y := main_cst_9) rfl (by decide),
   writes_sub_of_mem (y := main_v62) rfl (by decide),
   writes_sub_of_mem (y := main_v63) rfl (by decide),
   writes_sub_of_mem (y := main_v64) rfl (by decide),
   writes_sub_of_mem (y := main_v65) rfl (by decide),
   writes_sub_of_mem (y := main_v66) rfl (by decide),
   writes_sub_of_mem (y := main_v67) rfl (by decide),
   writes_sub_of_mem (y := main_v68) rfl (by decide),
   writes_sub_of_mem (y := main_v69) rfl (by decide),
   writes_sub_of_mem (y := main_v70) rfl (by decide),
   writes_sub_of_mem (y := main_v71) rfl (by decide),
   writes_sub_of_mem (y := main_cst_10) rfl (by decide),
   writes_sub_of_mem (y := main_v72) rfl (by decide),
   writes_sub_of_mem (y := main_v73) rfl (by decide),
   writes_sub_of_mem (y := main_cst_11) rfl (by decide),
   writes_sub_of_mem (y := main_v74) rfl (by decide),
   writes_sub_of_mem (y := main_v75) rfl (by decide),
   writes_sub_of_mem (y := main_cst_12) rfl (by decide),
   writes_sub_of_mem (y := main_v76) rfl (by decide),
   writes_sub_of_mem (y := main_v77) rfl (by decide),
   writes_sub_of_mem (y := main_v78) rfl (by decide),
   writes_sub_of_mem (y := main_v79) rfl (by decide),
   writes_sub_of_mem (y := main_v80) rfl (by decide),
   writes_sub_of_mem (y := main_v81) rfl (by decide),
   writes_sub_of_mem (y := main_call2_v0) rfl (by decide),
   writes_sub_of_mem (y := main_call2_cst) rfl (by decide),
   writes_sub_of_mem (y := main_call2_v1) rfl (by decide),
   writes_sub_of_mem (y := main_v82) rfl (by decide),
   writes_sub_of_mem (y := main_v83) rfl (by decide),
   writes_sub_of_mem (y := main_v84) rfl (by decide),
   writes_sub_of_mem (y := main_v85) rfl (by decide),
   writes_sub_of_mem (y := main_v86) rfl (by decide),
   writes_sub_of_mem (y := main_cst_13) rfl (by decide),
   writes_sub_of_mem (y := main_v87) rfl (by decide),
   writes_sub_of_mem (y := main_cst_14) rfl (by decide),
   writes_sub_of_mem (y := main_v88) rfl (by decide),
   writes_sub_of_mem (y := main_v89) rfl (by decide),
   writes_sub_of_mem (y := main_v90) rfl (by decide),
   writes_sub_of_mem (y := main_v91) rfl (by decide),
   writes_sub_of_mem (y := main_v92) rfl (by decide),
   writes_sub_of_mem (y := main_v93) rfl (by decide),
   writes_sub_of_mem (y := main_v94) rfl (by decide),
   writes_sub_of_mem (y := main_cst_15) rfl (by decide),
   writes_sub_of_mem (y := main_v95) rfl (by decide),
   writes_sub_of_mem (y := main_v96) rfl (by decide),
   writes_sub_of_mem (y := main_cst_16) rfl (by decide),
   writes_sub_of_mem (y := main_v97) rfl (by decide),
   writes_sub_of_mem (y := main_v98) rfl (by decide),
   writes_sub_of_mem (y := main_v99) rfl (by decide),
   writes_sub_of_mem (y := main_v100) rfl (by decide),
   writes_sub_of_mem (y := main_v101) rfl (by decide)⟩

end Cert.RefRun

end
-- ==== Proof.RefRun2.lean ====
import proofs.«158944_j64613488001249_1_alg».proof.Proof.Gen.ReferenceIdeal
import proofs.«158944_j64613488001249_1_alg».proof.Proof.RefRunLib
import Idealize.ShloMosaic.Lib.Pipeline.Regions

noncomputable section

namespace Cert.RefRun

open Cert.ReferenceIdeal Cert.ReferenceIdeal.Gen Idealize.ShloMosaic Idealize.ShloMosaic.TcCoe Idealize.SL.Sem Idealize.ShloMosaic.StableHlo Idealize.ShloMosaic.Pipeline

variable {F : FTy → Type} [FloatOps F]

/-- The operations of @main's statements 121 … 180 of 380, in order; a call's operations stand at the call, over that call's buffers. -/
abbrev ops_part2 : List (HloOp τ sig (Elt F)) :=
  [ binary main_v101 main_arg7 main_v102 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    binary main_arg1 main_v102 main_v103 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v97 main_v104 (broadcastInDim S4096x512 ![] bcast_S_S4096x512 : (⟨S_, .f32⟩ : BufTy).Contents (Elt F) → (⟨S4096x512, .f32⟩ : BufTy).Contents (Elt F)),
    binary main_v104 main_v103 main_v105 (mulf : (⟨S4096x512, .f32⟩ : BufTy).Contents (Elt F) → (⟨S4096x512, .f32⟩ : BufTy).Contents (Elt F) → (⟨S4096x512, .f32⟩ : BufTy).Contents (Elt F)),
    binary main_v94 main_v105 main_v106 (addf : (⟨S4096x512, .f32⟩ : BufTy).Contents (Elt F) → (⟨S4096x512, .f32⟩ : BufTy).Contents (Elt F) → (⟨S4096x512, .f32⟩ : BufTy).Contents (Elt F)),
    nullary main_cst_17 (constant S_ .f32 0xBF800000#32),
    unary main_cst_17 main_v107 (broadcastInDim S4096x512 ![] bcast_S_S4096x512 : (⟨S_, .f32⟩ : BufTy).Contents (Elt F) → (⟨S4096x512, .f32⟩ : BufTy).Contents (Elt F)),
    binary main_v107 main_v106 main_v108 (mulf : (⟨S4096x512, .f32⟩ : BufTy).Contents (Elt F) → (⟨S4096x512, .f32⟩ : BufTy).Contents (Elt F) → (⟨S4096x512, .f32⟩ : BufTy).Contents (Elt F)),
    nullary main_cst_18 (constant S_ .f32 0x3F000000#32),
    unary main_cst_18 main_v109 (broadcastInDim S4096x512 ![] bcast_S_S4096x512 : (⟨S_, .f32⟩ : BufTy).Contents (Elt F) → (⟨S4096x512, .f32⟩ : BufTy).Contents (Elt F)),
    binary main_v109 main_v96 main_v110 (mulf : (⟨S4096x512, .f32⟩ : BufTy).Contents (Elt F) → (⟨S4096x512, .f32⟩ : BufTy).Contents (Elt F) → (⟨S4096x512, .f32⟩ : BufTy).Contents (Elt F)),
    nullary main_cst_19 (constant S_ .f32 0x3F000000#32),
    unary main_cst_19 main_v111 (broadcastInDim S4096x512 ![] bcast_S_S4096x512 : (⟨S_, .f32⟩ : BufTy).Contents (Elt F) → (⟨S4096x512, .f32⟩ : BufTy).Contents (Elt F)),
    binary main_v111 main_v108 main_v112 (mulf : (⟨S4096x512, .f32⟩ : BufTy).Contents (Elt F) → (⟨S4096x512, .f32⟩ : BufTy).Contents (Elt F) → (⟨S4096x512, .f32⟩ : BufTy).Contents (Elt F)),
    binary main_v110 main_v112 main_v113 (addf : (⟨S4096x512, .f32⟩ : BufTy).Contents (Elt F) → (⟨S4096x512, .f32⟩ : BufTy).Contents (Elt F) → (⟨S4096x512, .f32⟩ : BufTy).Contents (Elt F)),
    unary main_v0 main_v114 (broadcastInDim S4096x512 ![] bcast_S_S4096x512 : (⟨S_, .f32⟩ : BufTy).Contents (Elt F) → (⟨S4096x512, .f32⟩ : BufTy).Contents (Elt F)),
    binary main_v114 main_v113 main_v115 (mulf : (⟨S4096x512, .f32⟩ : BufTy).Contents (Elt F) → (⟨S4096x512, .f32⟩ : BufTy).Contents (Elt F) → (⟨S4096x512, .f32⟩ : BufTy).Contents (Elt F)),
    binary main_v81 main_v115 main_v116 (addf : (⟨S4096x512, .f32⟩ : BufTy).Contents (Elt F) → (⟨S4096x512, .f32⟩ : BufTy).Contents (Elt F) → (⟨S4096x512, .f32⟩ : BufTy).Contents (Elt F)),
    TRef.binary (.of main_v116 : TRef sig ⟨S4096x512, .f32⟩) (.of main_v116 : TRef sig ⟨S4096x512, .f32⟩) main_call3.v0 mulf,
    TRef.nullary main_call3.cst (constant S_ .f32 0x00000000#32),
    TRef.binary main_call3.v0 main_call3.cst main_call3.v1 (fun x v => Host.reduceAdd x v reducesTo_S4096x512_S_d0_1 h_S_),
    TRef.unary main_call3.v1 main_call3.v2 Host.sqrt,
    unary main_v117 main_v118 (broadcastInDim S4096x512 ![] bcast_S_S4096x512 : (⟨S_, .f32⟩ : BufTy).Contents (Elt F) → (⟨S4096x512, .f32⟩ : BufTy).Contents (Elt F)),
    binary main_v116 main_v118 main_v119 (Host.divf : (⟨S4096x512, .f32⟩ : BufTy).Contents (Elt F) → (⟨S4096x512, .f32⟩ : BufTy).Contents (Elt F) → (⟨S4096x512, .f32⟩ : BufTy).Contents (Elt F)),
    binary main_arg4 main_v119 main_v120 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v120 main_v119 main_v121 (mulf : (⟨S4096x512, .f32⟩ : BufTy).Contents (Elt F) → (⟨S4096x512, .f32⟩ : BufTy).Contents (Elt F) → (⟨S4096x512, .f32⟩ : BufTy).Contents (Elt F)),
    nullary main_cst_20 (constant S_ .f32 0x00000000#32),
    binary main_v121 main_cst_20 main_v122 ((fun x v => Host.reduceAdd x v reducesTo_S4096x512_S_d0_1 h_S_) : (⟨S4096x512, .f32⟩ : BufTy).Contents (Elt F) → (⟨S_, .f32⟩ : BufTy).Contents (Elt F) → (⟨S_, .f32⟩ : BufTy).Contents (Elt F)),
    nullary main_cst_21 (constant S_ .f32 0x3F000000#32),
    binary main_cst_21 main_v122 main_v123 (mulf : (⟨S_, .f32⟩ : BufTy).Contents (Elt F) → (⟨S_, .f32⟩ : BufTy).Contents (Elt F) → (⟨S_, .f32⟩ : BufTy).Contents (Elt F)),
    unary main_v6 main_v124 (broadcastInDim S4096x1 ![0] bcast_S4096_S4096x1_0 : (⟨S4096, .f32⟩ : BufTy).Contents (Elt F) → (⟨S4096x1, .f32⟩ : BufTy).Contents (Elt F)),
    binary main_arg3 main_v116 main_v125 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v124 main_v126 (broadcastInDim S4096x512 ![0, 1] bcast_S4096x1_S4096x512_0_1 : (⟨S4096x1, .f32⟩ : BufTy).Contents (Elt F) → (⟨S4096x512, .f32⟩ : BufTy).Contents (Elt F)),
    binary main_v126 main_v125 main_v127 (mulf : (⟨S4096x512, .f32⟩ : BufTy).Contents (Elt F) → (⟨S4096x512, .f32⟩ : BufTy).Contents (Elt F) → (⟨S4096x512, .f32⟩ : BufTy).Contents (Elt F)),
    binary main_v127 main_arg7 main_v128 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    binary main_arg1 main_v128 main_v129 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    nullary main_cst_22 (constant S_ .f32 0xBF800000#32),
    unary main_cst_22 main_v130 (broadcastInDim S4096x512 ![] bcast_S_S4096x512 : (⟨S_, .f32⟩ : BufTy).Contents (Elt F) → (⟨S4096x512, .f32⟩ : BufTy).Contents (Elt F)),
    binary main_v130 main_v129 main_v131 (mulf : (⟨S4096x512, .f32⟩ : BufTy).Contents (Elt F) → (⟨S4096x512, .f32⟩ : BufTy).Contents (Elt F) → (⟨S4096x512, .f32⟩ : BufTy).Contents (Elt F)),
    nullary main_cst_23 (constant S_ .f32 0x3F800000#32),
    binary main_v0 main_cst_23 main_v132 (mulf : (⟨S_, .f32⟩ : BufTy).Contents (Elt F) → (⟨S_, .f32⟩ : BufTy).Contents (Elt F) → (⟨S_, .f32⟩ : BufTy).Contents (Elt F)),
    unary main_v6 main_v133 (broadcastInDim S4096x1 ![0] bcast_S4096_S4096x1_0 : (⟨S4096, .f32⟩ : BufTy).Contents (Elt F) → (⟨S4096x1, .f32⟩ : BufTy).Contents (Elt F)),
    binary main_arg3 main_v131 main_v134 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v133 main_v135 (broadcastInDim S4096x512 ![0, 1] bcast_S4096x1_S4096x512_0_1 : (⟨S4096x1, .f32⟩ : BufTy).Contents (Elt F) → (⟨S4096x512, .f32⟩ : BufTy).Contents (Elt F)),
    binary main_v135 main_v134 main_v136 (mulf : (⟨S4096x512, .f32⟩ : BufTy).Contents (Elt F) → (⟨S4096x512, .f32⟩ : BufTy).Contents (Elt F) → (⟨S4096x512, .f32⟩ : BufTy).Contents (Elt F)),
    binary main_v136 main_arg7 main_v137 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    binary main_arg1 main_v137 main_v138 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v132 main_v139 (broadcastInDim S4096x512 ![] bcast_S_S4096x512 : (⟨S_, .f32⟩ : BufTy).Contents (Elt F) → (⟨S4096x512, .f32⟩ : BufTy).Contents (Elt F)),
    binary main_v139 main_v138 main_v140 (mulf : (⟨S4096x512, .f32⟩ : BufTy).Contents (Elt F) → (⟨S4096x512, .f32⟩ : BufTy).Contents (Elt F) → (⟨S4096x512, .f32⟩ : BufTy).Contents (Elt F)),
    binary main_v129 main_v140 main_v141 (addf : (⟨S4096x512, .f32⟩ : BufTy).Contents (Elt F) → (⟨S4096x512, .f32⟩ : BufTy).Contents (Elt F) → (⟨S4096x512, .f32⟩ : BufTy).Contents (Elt F)),
    nullary main_cst_24 (constant S_ .f32 0xBF800000#32),
    unary main_cst_24 main_v142 (broadcastInDim S4096x512 ![] bcast_S_S4096x512 : (⟨S_, .f32⟩ : BufTy).Contents (Elt F) → (⟨S4096x512, .f32⟩ : BufTy).Contents (Elt F)),
    binary main_v142 main_v141 main_v143 (mulf : (⟨S4096x512, .f32⟩ : BufTy).Contents (Elt F) → (⟨S4096x512, .f32⟩ : BufTy).Contents (Elt F) → (⟨S4096x512, .f32⟩ : BufTy).Contents (Elt F)),
    nullary main_cst_25 (constant S_ .f32 0x3F000000#32),
    unary main_cst_25 main_v144 (broadcastInDim S4096x512 ![] bcast_S_S4096x512 : (⟨S_, .f32⟩ : BufTy).Contents (Elt F) → (⟨S4096x512, .f32⟩ : BufTy).Contents (Elt F)),
    binary main_v144 main_v131 main_v145 (mulf : (⟨S4096x512, .f32⟩ : BufTy).Contents (Elt F) → (⟨S4096x512, .f32⟩ : BufTy).Contents (Elt F) → (⟨S4096x512, .f32⟩ : BufTy).Contents (Elt F)),
    nullary main_cst_26 (constant S_ .f32 0x3F000000#32),
    unary main_cst_26 main_v146 (broadcastInDim S4096x512 ![] bcast_S_S4096x512 : (⟨S_, .f32⟩ : BufTy).Contents (Elt F) → (⟨S4096x512, .f32⟩ : BufTy).Contents (Elt F)),
    binary main_v146 main_v143 main_v147 (mulf : (⟨S4096x512, .f32⟩ : BufTy).Contents (Elt F) → (⟨S4096x512, .f32⟩ : BufTy).Contents (Elt F) → (⟨S4096x512, .f32⟩ : BufTy).Contents (Elt F)),
    binary main_v145 main_v147 main_v148 (addf : (⟨S4096x512, .f32⟩ : BufTy).Contents (Elt F) → (⟨S4096x512, .f32⟩ : BufTy).Contents (Elt F) → (⟨S4096x512, .f32⟩ : BufTy).Contents (Elt F)),
    unary main_v0 main_v149 (broadcastInDim S4096x512 ![] bcast_S_S4096x512 : (⟨S_, .f32⟩ : BufTy).Contents (Elt F) → (⟨S4096x512, .f32⟩ : BufTy).Contents (Elt F)),
    binary main_v149 main_v148 main_v150 (mulf : (⟨S4096x512, .f32⟩ : BufTy).Contents (Elt F) → (⟨S4096x512, .f32⟩ : BufTy).Contents (Elt F) → (⟨S4096x512, .f32⟩ : BufTy).Contents (Elt F)),
    binary main_v116 main_v150 main_v151 (addf : (⟨S4096x512, .f32⟩ : BufTy).Contents (Elt F) → (⟨S4096x512, .f32⟩ : BufTy).Contents (Elt F) → (⟨S4096x512, .f32⟩ : BufTy).Contents (Elt F)) ]

/-- The references those operations write, in order. -/
abbrev ops_part2_W : List (Ref sig .tc) :=
  [main_v102, main_v103, main_v104, main_v105, main_v106, main_cst_17, main_v107, main_v108, main_cst_18, main_v109, main_v110, main_cst_19, main_v111, main_v112, main_v113, main_v114, main_v115, main_v116, main_call3_v0, main_call3_cst, main_call3_v1, main_v117, main_v118, main_v119, main_v120, main_v121, main_cst_20, main_v122, main_cst_21, main_v123, main_v124, main_v125, main_v126, main_v127, main_v128, main_v129, main_cst_22, main_v130, main_v131, main_cst_23, main_v132, main_v133, main_v134, main_v135, main_v136, main_v137, main_v138, main_v139, main_v140, main_v141, main_cst_24, main_v142, main_v143, main_cst_25, main_v144, main_v145, main_cst_26, main_v146, main_v147, main_v148, main_v149, main_v150, main_v151]

/-- The window is that line of operations: both sides unfold to one chain of steps. -/
theorem main_part2_eq (c : Dev nD) : main_part2 (F := F) c = seq ops_part2 := by chain_rfl

theorem ops_part2_sub : (ops_part2 : List (HloOp τ sig (Elt F))).Forall fun op => op.bufs ⊆ tcRefs τ sig :=
  ⟨binary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., unary_bufs_sub .., unary_bufs_sub .., binary_bufs_sub .., binary_bufs_sub .., binary_bufs_sub .., nullary_bufs_sub .., binary_bufs_sub .., nullary_bufs_sub .., binary_bufs_sub .., unary_bufs_sub .., binary_bufs_sub .., unary_bufs_sub .., binary_bufs_sub .., binary_bufs_sub .., binary_bufs_sub .., nullary_bufs_sub .., unary_bufs_sub .., binary_bufs_sub .., nullary_bufs_sub .., binary_bufs_sub .., unary_bufs_sub .., binary_bufs_sub .., unary_bufs_sub .., binary_bufs_sub .., binary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., binary_bufs_sub ..⟩

theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_part2_writes : (ops_part2 : List (HloOp τ sig (Elt F))).Forall fun op => op.writes ⊆ (ops_part2_W.map (Proc.devRef (τ := τ) .tc)).toFinset :=
  ⟨writes_sub_of_mem (y := main_v102) rfl (by decide),
   writes_sub_of_mem (y := main_v103) rfl (by decide),
   writes_sub_of_mem (y := main_v104) rfl (by decide),
   writes_sub_of_mem (y := main_v105) rfl (by decide),
   writes_sub_of_mem (y := main_v106) rfl (by decide),
   writes_sub_of_mem (y := main_cst_17) rfl (by decide),
   writes_sub_of_mem (y := main_v107) rfl (by decide),
   writes_sub_of_mem (y := main_v108) rfl (by decide),
   writes_sub_of_mem (y := main_cst_18) rfl (by decide),
   writes_sub_of_mem (y := main_v109) rfl (by decide),
   writes_sub_of_mem (y := main_v110) rfl (by decide),
   writes_sub_of_mem (y := main_cst_19) rfl (by decide),
   writes_sub_of_mem (y := main_v111) rfl (by decide),
   writes_sub_of_mem (y := main_v112) rfl (by decide),
   writes_sub_of_mem (y := main_v113) rfl (by decide),
   writes_sub_of_mem (y := main_v114) rfl (by decide),
   writes_sub_of_mem (y := main_v115) rfl (by decide),
   writes_sub_of_mem (y := main_v116) rfl (by decide),
   writes_sub_of_mem (y := main_call3_v0) rfl (by decide),
   writes_sub_of_mem (y := main_call3_cst) rfl (by decide),
   writes_sub_of_mem (y := main_call3_v1) rfl (by decide),
   writes_sub_of_mem (y := main_v117) rfl (by decide),
   writes_sub_of_mem (y := main_v118) rfl (by decide),
   writes_sub_of_mem (y := main_v119) rfl (by decide),
   writes_sub_of_mem (y := main_v120) rfl (by decide),
   writes_sub_of_mem (y := main_v121) rfl (by decide),
   writes_sub_of_mem (y := main_cst_20) rfl (by decide),
   writes_sub_of_mem (y := main_v122) rfl (by decide),
   writes_sub_of_mem (y := main_cst_21) rfl (by decide),
   writes_sub_of_mem (y := main_v123) rfl (by decide),
   writes_sub_of_mem (y := main_v124) rfl (by decide),
   writes_sub_of_mem (y := main_v125) rfl (by decide),
   writes_sub_of_mem (y := main_v126) rfl (by decide),
   writes_sub_of_mem (y := main_v127) rfl (by decide),
   writes_sub_of_mem (y := main_v128) rfl (by decide),
   writes_sub_of_mem (y := main_v129) rfl (by decide),
   writes_sub_of_mem (y := main_cst_22) rfl (by decide),
   writes_sub_of_mem (y := main_v130) rfl (by decide),
   writes_sub_of_mem (y := main_v131) rfl (by decide),
   writes_sub_of_mem (y := main_cst_23) rfl (by decide),
   writes_sub_of_mem (y := main_v132) rfl (by decide),
   writes_sub_of_mem (y := main_v133) rfl (by decide),
   writes_sub_of_mem (y := main_v134) rfl (by decide),
   writes_sub_of_mem (y := main_v135) rfl (by decide),
   writes_sub_of_mem (y := main_v136) rfl (by decide),
   writes_sub_of_mem (y := main_v137) rfl (by decide),
   writes_sub_of_mem (y := main_v138) rfl (by decide),
   writes_sub_of_mem (y := main_v139) rfl (by decide),
   writes_sub_of_mem (y := main_v140) rfl (by decide),
   writes_sub_of_mem (y := main_v141) rfl (by decide),
   writes_sub_of_mem (y := main_cst_24) rfl (by decide),
   writes_sub_of_mem (y := main_v142) rfl (by decide),
   writes_sub_of_mem (y := main_v143) rfl (by decide),
   writes_sub_of_mem (y := main_cst_25) rfl (by decide),
   writes_sub_of_mem (y := main_v144) rfl (by decide),
   writes_sub_of_mem (y := main_v145) rfl (by decide),
   writes_sub_of_mem (y := main_cst_26) rfl (by decide),
   writes_sub_of_mem (y := main_v146) rfl (by decide),
   writes_sub_of_mem (y := main_v147) rfl (by decide),
   writes_sub_of_mem (y := main_v148) rfl (by decide),
   writes_sub_of_mem (y := main_v149) rfl (by decide),
   writes_sub_of_mem (y := main_v150) rfl (by decide),
   writes_sub_of_mem (y := main_v151) rfl (by decide)⟩

end Cert.RefRun

end
-- ==== Proof.RefRun3.lean ====
import proofs.«158944_j64613488001249_1_alg».proof.Proof.Gen.ReferenceIdeal
import proofs.«158944_j64613488001249_1_alg».proof.Proof.RefRunLib
import Idealize.ShloMosaic.Lib.Pipeline.Regions

noncomputable section

namespace Cert.RefRun

open Cert.ReferenceIdeal Cert.ReferenceIdeal.Gen Idealize.ShloMosaic Idealize.ShloMosaic.TcCoe Idealize.SL.Sem Idealize.ShloMosaic.StableHlo Idealize.ShloMosaic.Pipeline

variable {F : FTy → Type} [FloatOps F]

/-- The operations of @main's statements 181 … 240 of 380, in order; a call's operations stand at the call, over that call's buffers. -/
abbrev ops_part3 : List (HloOp τ sig (Elt F)) :=
  [ TRef.binary (.of main_v151 : TRef sig ⟨S4096x512, .f32⟩) (.of main_v151 : TRef sig ⟨S4096x512, .f32⟩) main_call4.v0 mulf,
    TRef.nullary main_call4.cst (constant S_ .f32 0x00000000#32),
    TRef.binary main_call4.v0 main_call4.cst main_call4.v1 (fun x v => Host.reduceAdd x v reducesTo_S4096x512_S_d0_1 h_S_),
    TRef.unary main_call4.v1 main_call4.v2 Host.sqrt,
    unary main_v152 main_v153 (broadcastInDim S4096x512 ![] bcast_S_S4096x512 : (⟨S_, .f32⟩ : BufTy).Contents (Elt F) → (⟨S4096x512, .f32⟩ : BufTy).Contents (Elt F)),
    binary main_v151 main_v153 main_v154 (Host.divf : (⟨S4096x512, .f32⟩ : BufTy).Contents (Elt F) → (⟨S4096x512, .f32⟩ : BufTy).Contents (Elt F) → (⟨S4096x512, .f32⟩ : BufTy).Contents (Elt F)),
    binary main_arg4 main_v154 main_v155 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v155 main_v154 main_v156 (mulf : (⟨S4096x512, .f32⟩ : BufTy).Contents (Elt F) → (⟨S4096x512, .f32⟩ : BufTy).Contents (Elt F) → (⟨S4096x512, .f32⟩ : BufTy).Contents (Elt F)),
    nullary main_cst_27 (constant S_ .f32 0x00000000#32),
    binary main_v156 main_cst_27 main_v157 ((fun x v => Host.reduceAdd x v reducesTo_S4096x512_S_d0_1 h_S_) : (⟨S4096x512, .f32⟩ : BufTy).Contents (Elt F) → (⟨S_, .f32⟩ : BufTy).Contents (Elt F) → (⟨S_, .f32⟩ : BufTy).Contents (Elt F)),
    nullary main_cst_28 (constant S_ .f32 0x3F000000#32),
    binary main_cst_28 main_v157 main_v158 (mulf : (⟨S_, .f32⟩ : BufTy).Contents (Elt F) → (⟨S_, .f32⟩ : BufTy).Contents (Elt F) → (⟨S_, .f32⟩ : BufTy).Contents (Elt F)),
    unary main_v6 main_v159 (broadcastInDim S4096x1 ![0] bcast_S4096_S4096x1_0 : (⟨S4096, .f32⟩ : BufTy).Contents (Elt F) → (⟨S4096x1, .f32⟩ : BufTy).Contents (Elt F)),
    binary main_arg3 main_v151 main_v160 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v159 main_v161 (broadcastInDim S4096x512 ![0, 1] bcast_S4096x1_S4096x512_0_1 : (⟨S4096x1, .f32⟩ : BufTy).Contents (Elt F) → (⟨S4096x512, .f32⟩ : BufTy).Contents (Elt F)),
    binary main_v161 main_v160 main_v162 (mulf : (⟨S4096x512, .f32⟩ : BufTy).Contents (Elt F) → (⟨S4096x512, .f32⟩ : BufTy).Contents (Elt F) → (⟨S4096x512, .f32⟩ : BufTy).Contents (Elt F)),
    binary main_v162 main_arg7 main_v163 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    binary main_arg1 main_v163 main_v164 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    nullary main_cst_29 (constant S_ .f32 0xBF800000#32),
    unary main_cst_29 main_v165 (broadcastInDim S4096x512 ![] bcast_S_S4096x512 : (⟨S_, .f32⟩ : BufTy).Contents (Elt F) → (⟨S4096x512, .f32⟩ : BufTy).Contents (Elt F)),
    binary main_v165 main_v164 main_v166 (mulf : (⟨S4096x512, .f32⟩ : BufTy).Contents (Elt F) → (⟨S4096x512, .f32⟩ : BufTy).Contents (Elt F) → (⟨S4096x512, .f32⟩ : BufTy).Contents (Elt F)),
    nullary main_cst_30 (constant S_ .f32 0x3F800000#32),
    binary main_v0 main_cst_30 main_v167 (mulf : (⟨S_, .f32⟩ : BufTy).Contents (Elt F) → (⟨S_, .f32⟩ : BufTy).Contents (Elt F) → (⟨S_, .f32⟩ : BufTy).Contents (Elt F)),
    unary main_v6 main_v168 (broadcastInDim S4096x1 ![0] bcast_S4096_S4096x1_0 : (⟨S4096, .f32⟩ : BufTy).Contents (Elt F) → (⟨S4096x1, .f32⟩ : BufTy).Contents (Elt F)),
    binary main_arg3 main_v166 main_v169 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v168 main_v170 (broadcastInDim S4096x512 ![0, 1] bcast_S4096x1_S4096x512_0_1 : (⟨S4096x1, .f32⟩ : BufTy).Contents (Elt F) → (⟨S4096x512, .f32⟩ : BufTy).Contents (Elt F)),
    binary main_v170 main_v169 main_v171 (mulf : (⟨S4096x512, .f32⟩ : BufTy).Contents (Elt F) → (⟨S4096x512, .f32⟩ : BufTy).Contents (Elt F) → (⟨S4096x512, .f32⟩ : BufTy).Contents (Elt F)),
    binary main_v171 main_arg7 main_v172 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    binary main_arg1 main_v172 main_v173 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v167 main_v174 (broadcastInDim S4096x512 ![] bcast_S_S4096x512 : (⟨S_, .f32⟩ : BufTy).Contents (Elt F) → (⟨S4096x512, .f32⟩ : BufTy).Contents (Elt F)),
    binary main_v174 main_v173 main_v175 (mulf : (⟨S4096x512, .f32⟩ : BufTy).Contents (Elt F) → (⟨S4096x512, .f32⟩ : BufTy).Contents (Elt F) → (⟨S4096x512, .f32⟩ : BufTy).Contents (Elt F)),
    binary main_v164 main_v175 main_v176 (addf : (⟨S4096x512, .f32⟩ : BufTy).Contents (Elt F) → (⟨S4096x512, .f32⟩ : BufTy).Contents (Elt F) → (⟨S4096x512, .f32⟩ : BufTy).Contents (Elt F)),
    nullary main_cst_31 (constant S_ .f32 0xBF800000#32),
    unary main_cst_31 main_v177 (broadcastInDim S4096x512 ![] bcast_S_S4096x512 : (⟨S_, .f32⟩ : BufTy).Contents (Elt F) → (⟨S4096x512, .f32⟩ : BufTy).Contents (Elt F)),
    binary main_v177 main_v176 main_v178 (mulf : (⟨S4096x512, .f32⟩ : BufTy).Contents (Elt F) → (⟨S4096x512, .f32⟩ : BufTy).Contents (Elt F) → (⟨S4096x512, .f32⟩ : BufTy).Contents (Elt F)),
    nullary main_cst_32 (constant S_ .f32 0x3F000000#32),
    unary main_cst_32 main_v179 (broadcastInDim S4096x512 ![] bcast_S_S4096x512 : (⟨S_, .f32⟩ : BufTy).Contents (Elt F) → (⟨S4096x512, .f32⟩ : BufTy).Contents (Elt F)),
    binary main_v179 main_v166 main_v180 (mulf : (⟨S4096x512, .f32⟩ : BufTy).Contents (Elt F) → (⟨S4096x512, .f32⟩ : BufTy).Contents (Elt F) → (⟨S4096x512, .f32⟩ : BufTy).Contents (Elt F)),
    nullary main_cst_33 (constant S_ .f32 0x3F000000#32),
    unary main_cst_33 main_v181 (broadcastInDim S4096x512 ![] bcast_S_S4096x512 : (⟨S_, .f32⟩ : BufTy).Contents (Elt F) → (⟨S4096x512, .f32⟩ : BufTy).Contents (Elt F)),
    binary main_v181 main_v178 main_v182 (mulf : (⟨S4096x512, .f32⟩ : BufTy).Contents (Elt F) → (⟨S4096x512, .f32⟩ : BufTy).Contents (Elt F) → (⟨S4096x512, .f32⟩ : BufTy).Contents (Elt F)),
    binary main_v180 main_v182 main_v183 (addf : (⟨S4096x512, .f32⟩ : BufTy).Contents (Elt F) → (⟨S4096x512, .f32⟩ : BufTy).Contents (Elt F) → (⟨S4096x512, .f32⟩ : BufTy).Contents (Elt F)),
    unary main_v0 main_v184 (broadcastInDim S4096x512 ![] bcast_S_S4096x512 : (⟨S_, .f32⟩ : BufTy).Contents (Elt F) → (⟨S4096x512, .f32⟩ : BufTy).Contents (Elt F)),
    binary main_v184 main_v183 main_v185 (mulf : (⟨S4096x512, .f32⟩ : BufTy).Contents (Elt F) → (⟨S4096x512, .f32⟩ : BufTy).Contents (Elt F) → (⟨S4096x512, .f32⟩ : BufTy).Contents (Elt F)),
    binary main_v151 main_v185 main_v186 (addf : (⟨S4096x512, .f32⟩ : BufTy).Contents (Elt F) → (⟨S4096x512, .f32⟩ : BufTy).Contents (Elt F) → (⟨S4096x512, .f32⟩ : BufTy).Contents (Elt F)),
    TRef.binary (.of main_v186 : TRef sig ⟨S4096x512, .f32⟩) (.of main_v186 : TRef sig ⟨S4096x512, .f32⟩) main_call5.v0 mulf,
    TRef.nullary main_call5.cst (constant S_ .f32 0x00000000#32),
    TRef.binary main_call5.v0 main_call5.cst main_call5.v1 (fun x v => Host.reduceAdd x v reducesTo_S4096x512_S_d0_1 h_S_),
    TRef.unary main_call5.v1 main_call5.v2 Host.sqrt,
    unary main_v187 main_v188 (broadcastInDim S4096x512 ![] bcast_S_S4096x512 : (⟨S_, .f32⟩ : BufTy).Contents (Elt F) → (⟨S4096x512, .f32⟩ : BufTy).Contents (Elt F)),
    binary main_v186 main_v188 main_v189 (Host.divf : (⟨S4096x512, .f32⟩ : BufTy).Contents (Elt F) → (⟨S4096x512, .f32⟩ : BufTy).Contents (Elt F) → (⟨S4096x512, .f32⟩ : BufTy).Contents (Elt F)),
    binary main_arg4 main_v189 main_v190 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v190 main_v189 main_v191 (mulf : (⟨S4096x512, .f32⟩ : BufTy).Contents (Elt F) → (⟨S4096x512, .f32⟩ : BufTy).Contents (Elt F) → (⟨S4096x512, .f32⟩ : BufTy).Contents (Elt F)),
    nullary main_cst_34 (constant S_ .f32 0x00000000#32),
    binary main_v191 main_cst_34 main_v192 ((fun x v => Host.reduceAdd x v reducesTo_S4096x512_S_d0_1 h_S_) : (⟨S4096x512, .f32⟩ : BufTy).Contents (Elt F) → (⟨S_, .f32⟩ : BufTy).Contents (Elt F) → (⟨S_, .f32⟩ : BufTy).Contents (Elt F)),
    nullary main_cst_35 (constant S_ .f32 0x3F000000#32),
    binary main_cst_35 main_v192 main_v193 (mulf : (⟨S_, .f32⟩ : BufTy).Contents (Elt F) → (⟨S_, .f32⟩ : BufTy).Contents (Elt F) → (⟨S_, .f32⟩ : BufTy).Contents (Elt F)),
    unary main_v6 main_v194 (broadcastInDim S4096x1 ![0] bcast_S4096_S4096x1_0 : (⟨S4096, .f32⟩ : BufTy).Contents (Elt F) → (⟨S4096x1, .f32⟩ : BufTy).Contents (Elt F)),
    binary main_arg3 main_v186 main_v195 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v194 main_v196 (broadcastInDim S4096x512 ![0, 1] bcast_S4096x1_S4096x512_0_1 : (⟨S4096x1, .f32⟩ : BufTy).Contents (Elt F) → (⟨S4096x512, .f32⟩ : BufTy).Contents (Elt F)),
    binary main_v196 main_v195 main_v197 (mulf : (⟨S4096x512, .f32⟩ : BufTy).Contents (Elt F) → (⟨S4096x512, .f32⟩ : BufTy).Contents (Elt F) → (⟨S4096x512, .f32⟩ : BufTy).Contents (Elt F)),
    binary main_v197 main_arg7 main_v198 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    binary main_arg1 main_v198 main_v199 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    nullary main_cst_36 (constant S_ .f32 0xBF800000#32),
    unary main_cst_36 main_v200 (broadcastInDim S4096x512 ![] bcast_S_S4096x512 : (⟨S_, .f32⟩ : BufTy).Contents (Elt F) → (⟨S4096x512, .f32⟩ : BufTy).Contents (Elt F)),
    binary main_v200 main_v199 main_v201 (mulf : (⟨S4096x512, .f32⟩ : BufTy).Contents (Elt F) → (⟨S4096x512, .f32⟩ : BufTy).Contents (Elt F) → (⟨S4096x512, .f32⟩ : BufTy).Contents (Elt F)) ]

/-- The references those operations write, in order. -/
abbrev ops_part3_W : List (Ref sig .tc) :=
  [main_call4_v0, main_call4_cst, main_call4_v1, main_v152, main_v153, main_v154, main_v155, main_v156, main_cst_27, main_v157, main_cst_28, main_v158, main_v159, main_v160, main_v161, main_v162, main_v163, main_v164, main_cst_29, main_v165, main_v166, main_cst_30, main_v167, main_v168, main_v169, main_v170, main_v171, main_v172, main_v173, main_v174, main_v175, main_v176, main_cst_31, main_v177, main_v178, main_cst_32, main_v179, main_v180, main_cst_33, main_v181, main_v182, main_v183, main_v184, main_v185, main_v186, main_call5_v0, main_call5_cst, main_call5_v1, main_v187, main_v188, main_v189, main_v190, main_v191, main_cst_34, main_v192, main_cst_35, main_v193, main_v194, main_v195, main_v196, main_v197, main_v198, main_v199, main_cst_36, main_v200, main_v201]

/-- The window is that line of operations: both sides unfold to one chain of steps. -/
theorem main_part3_eq (c : Dev nD) : main_part3 (F := F) c = seq ops_part3 := by chain_rfl

theorem ops_part3_sub : (ops_part3 : List (HloOp τ sig (Elt F))).Forall fun op => op.bufs ⊆ tcRefs τ sig :=
  ⟨binary_bufs_sub .., nullary_bufs_sub .., binary_bufs_sub .., unary_bufs_sub .., unary_bufs_sub .., binary_bufs_sub .., binary_bufs_sub .., binary_bufs_sub .., nullary_bufs_sub .., binary_bufs_sub .., nullary_bufs_sub .., binary_bufs_sub .., unary_bufs_sub .., binary_bufs_sub .., unary_bufs_sub .., binary_bufs_sub .., binary_bufs_sub .., binary_bufs_sub .., nullary_bufs_sub .., unary_bufs_sub .., binary_bufs_sub .., nullary_bufs_sub .., binary_bufs_sub .., unary_bufs_sub .., binary_bufs_sub .., unary_bufs_sub .., binary_bufs_sub .., binary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., unary_bufs_sub .., unary_bufs_sub .., binary_bufs_sub .., binary_bufs_sub .., binary_bufs_sub .., nullary_bufs_sub .., binary_bufs_sub .., nullary_bufs_sub .., binary_bufs_sub .., unary_bufs_sub .., binary_bufs_sub .., unary_bufs_sub .., binary_bufs_sub .., binary_bufs_sub .., binary_bufs_sub .., nullary_bufs_sub .., unary_bufs_sub .., binary_bufs_sub ..⟩

theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_part3_writes : (ops_part3 : List (HloOp τ sig (Elt F))).Forall fun op => op.writes ⊆ (ops_part3_W.map (Proc.devRef (τ := τ) .tc)).toFinset :=
  ⟨writes_sub_of_mem (y := main_call4_v0) rfl (by decide),
   writes_sub_of_mem (y := main_call4_cst) rfl (by decide),
   writes_sub_of_mem (y := main_call4_v1) rfl (by decide),
   writes_sub_of_mem (y := main_v152) rfl (by decide),
   writes_sub_of_mem (y := main_v153) rfl (by decide),
   writes_sub_of_mem (y := main_v154) rfl (by decide),
   writes_sub_of_mem (y := main_v155) rfl (by decide),
   writes_sub_of_mem (y := main_v156) rfl (by decide),
   writes_sub_of_mem (y := main_cst_27) rfl (by decide),
   writes_sub_of_mem (y := main_v157) rfl (by decide),
   writes_sub_of_mem (y := main_cst_28) rfl (by decide),
   writes_sub_of_mem (y := main_v158) rfl (by decide),
   writes_sub_of_mem (y := main_v159) rfl (by decide),
   writes_sub_of_mem (y := main_v160) rfl (by decide),
   writes_sub_of_mem (y := main_v161) rfl (by decide),
   writes_sub_of_mem (y := main_v162) rfl (by decide),
   writes_sub_of_mem (y := main_v163) rfl (by decide),
   writes_sub_of_mem (y := main_v164) rfl (by decide),
   writes_sub_of_mem (y := main_cst_29) rfl (by decide),
   writes_sub_of_mem (y := main_v165) rfl (by decide),
   writes_sub_of_mem (y := main_v166) rfl (by decide),
   writes_sub_of_mem (y := main_cst_30) rfl (by decide),
   writes_sub_of_mem (y := main_v167) rfl (by decide),
   writes_sub_of_mem (y := main_v168) rfl (by decide),
   writes_sub_of_mem (y := main_v169) rfl (by decide),
   writes_sub_of_mem (y := main_v170) rfl (by decide),
   writes_sub_of_mem (y := main_v171) rfl (by decide),
   writes_sub_of_mem (y := main_v172) rfl (by decide),
   writes_sub_of_mem (y := main_v173) rfl (by decide),
   writes_sub_of_mem (y := main_v174) rfl (by decide),
   writes_sub_of_mem (y := main_v175) rfl (by decide),
   writes_sub_of_mem (y := main_v176) rfl (by decide),
   writes_sub_of_mem (y := main_cst_31) rfl (by decide),
   writes_sub_of_mem (y := main_v177) rfl (by decide),
   writes_sub_of_mem (y := main_v178) rfl (by decide),
   writes_sub_of_mem (y := main_cst_32) rfl (by decide),
   writes_sub_of_mem (y := main_v179) rfl (by decide),
   writes_sub_of_mem (y := main_v180) rfl (by decide),
   writes_sub_of_mem (y := main_cst_33) rfl (by decide),
   writes_sub_of_mem (y := main_v181) rfl (by decide),
   writes_sub_of_mem (y := main_v182) rfl (by decide),
   writes_sub_of_mem (y := main_v183) rfl (by decide),
   writes_sub_of_mem (y := main_v184) rfl (by decide),
   writes_sub_of_mem (y := main_v185) rfl (by decide),
   writes_sub_of_mem (y := main_v186) rfl (by decide),
   writes_sub_of_mem (y := main_call5_v0) rfl (by decide),
   writes_sub_of_mem (y := main_call5_cst) rfl (by decide),
   writes_sub_of_mem (y := main_call5_v1) rfl (by decide),
   writes_sub_of_mem (y := main_v187) rfl (by decide),
   writes_sub_of_mem (y := main_v188) rfl (by decide),
   writes_sub_of_mem (y := main_v189) rfl (by decide),
   writes_sub_of_mem (y := main_v190) rfl (by decide),
   writes_sub_of_mem (y := main_v191) rfl (by decide),
   writes_sub_of_mem (y := main_cst_34) rfl (by decide),
   writes_sub_of_mem (y := main_v192) rfl (by decide),
   writes_sub_of_mem (y := main_cst_35) rfl (by decide),
   writes_sub_of_mem (y := main_v193) rfl (by decide),
   writes_sub_of_mem (y := main_v194) rfl (by decide),
   writes_sub_of_mem (y := main_v195) rfl (by decide),
   writes_sub_of_mem (y := main_v196) rfl (by decide),
   writes_sub_of_mem (y := main_v197) rfl (by decide),
   writes_sub_of_mem (y := main_v198) rfl (by decide),
   writes_sub_of_mem (y := main_v199) rfl (by decide),
   writes_sub_of_mem (y := main_cst_36) rfl (by decide),
   writes_sub_of_mem (y := main_v200) rfl (by decide),
   writes_sub_of_mem (y := main_v201) rfl (by decide)⟩

end Cert.RefRun

end
-- ==== Proof.RefRun4.lean ====
import proofs.«158944_j64613488001249_1_alg».proof.Proof.Gen.ReferenceIdeal
import proofs.«158944_j64613488001249_1_alg».proof.Proof.RefRunLib
import Idealize.ShloMosaic.Lib.Pipeline.Regions

noncomputable section

namespace Cert.RefRun

open Cert.ReferenceIdeal Cert.ReferenceIdeal.Gen Idealize.ShloMosaic Idealize.ShloMosaic.TcCoe Idealize.SL.Sem Idealize.ShloMosaic.StableHlo Idealize.ShloMosaic.Pipeline

variable {F : FTy → Type} [FloatOps F]

/-- The operations of @main's statements 241 … 300 of 380, in order; a call's operations stand at the call, over that call's buffers. -/
abbrev ops_part4 : List (HloOp τ sig (Elt F)) :=
  [ nullary main_cst_37 (constant S_ .f32 0x3F800000#32),
    binary main_v0 main_cst_37 main_v202 (mulf : (⟨S_, .f32⟩ : BufTy).Contents (Elt F) → (⟨S_, .f32⟩ : BufTy).Contents (Elt F) → (⟨S_, .f32⟩ : BufTy).Contents (Elt F)),
    unary main_v6 main_v203 (broadcastInDim S4096x1 ![0] bcast_S4096_S4096x1_0 : (⟨S4096, .f32⟩ : BufTy).Contents (Elt F) → (⟨S4096x1, .f32⟩ : BufTy).Contents (Elt F)),
    binary main_arg3 main_v201 main_v204 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v203 main_v205 (broadcastInDim S4096x512 ![0, 1] bcast_S4096x1_S4096x512_0_1 : (⟨S4096x1, .f32⟩ : BufTy).Contents (Elt F) → (⟨S4096x512, .f32⟩ : BufTy).Contents (Elt F)),
    binary main_v205 main_v204 main_v206 (mulf : (⟨S4096x512, .f32⟩ : BufTy).Contents (Elt F) → (⟨S4096x512, .f32⟩ : BufTy).Contents (Elt F) → (⟨S4096x512, .f32⟩ : BufTy).Contents (Elt F)),
    binary main_v206 main_arg7 main_v207 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    binary main_arg1 main_v207 main_v208 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v202 main_v209 (broadcastInDim S4096x512 ![] bcast_S_S4096x512 : (⟨S_, .f32⟩ : BufTy).Contents (Elt F) → (⟨S4096x512, .f32⟩ : BufTy).Contents (Elt F)),
    binary main_v209 main_v208 main_v210 (mulf : (⟨S4096x512, .f32⟩ : BufTy).Contents (Elt F) → (⟨S4096x512, .f32⟩ : BufTy).Contents (Elt F) → (⟨S4096x512, .f32⟩ : BufTy).Contents (Elt F)),
    binary main_v199 main_v210 main_v211 (addf : (⟨S4096x512, .f32⟩ : BufTy).Contents (Elt F) → (⟨S4096x512, .f32⟩ : BufTy).Contents (Elt F) → (⟨S4096x512, .f32⟩ : BufTy).Contents (Elt F)),
    nullary main_cst_38 (constant S_ .f32 0xBF800000#32),
    unary main_cst_38 main_v212 (broadcastInDim S4096x512 ![] bcast_S_S4096x512 : (⟨S_, .f32⟩ : BufTy).Contents (Elt F) → (⟨S4096x512, .f32⟩ : BufTy).Contents (Elt F)),
    binary main_v212 main_v211 main_v213 (mulf : (⟨S4096x512, .f32⟩ : BufTy).Contents (Elt F) → (⟨S4096x512, .f32⟩ : BufTy).Contents (Elt F) → (⟨S4096x512, .f32⟩ : BufTy).Contents (Elt F)),
    nullary main_cst_39 (constant S_ .f32 0x3F000000#32),
    unary main_cst_39 main_v214 (broadcastInDim S4096x512 ![] bcast_S_S4096x512 : (⟨S_, .f32⟩ : BufTy).Contents (Elt F) → (⟨S4096x512, .f32⟩ : BufTy).Contents (Elt F)),
    binary main_v214 main_v201 main_v215 (mulf : (⟨S4096x512, .f32⟩ : BufTy).Contents (Elt F) → (⟨S4096x512, .f32⟩ : BufTy).Contents (Elt F) → (⟨S4096x512, .f32⟩ : BufTy).Contents (Elt F)),
    nullary main_cst_40 (constant S_ .f32 0x3F000000#32),
    unary main_cst_40 main_v216 (broadcastInDim S4096x512 ![] bcast_S_S4096x512 : (⟨S_, .f32⟩ : BufTy).Contents (Elt F) → (⟨S4096x512, .f32⟩ : BufTy).Contents (Elt F)),
    binary main_v216 main_v213 main_v217 (mulf : (⟨S4096x512, .f32⟩ : BufTy).Contents (Elt F) → (⟨S4096x512, .f32⟩ : BufTy).Contents (Elt F) → (⟨S4096x512, .f32⟩ : BufTy).Contents (Elt F)),
    binary main_v215 main_v217 main_v218 (addf : (⟨S4096x512, .f32⟩ : BufTy).Contents (Elt F) → (⟨S4096x512, .f32⟩ : BufTy).Contents (Elt F) → (⟨S4096x512, .f32⟩ : BufTy).Contents (Elt F)),
    unary main_v0 main_v219 (broadcastInDim S4096x512 ![] bcast_S_S4096x512 : (⟨S_, .f32⟩ : BufTy).Contents (Elt F) → (⟨S4096x512, .f32⟩ : BufTy).Contents (Elt F)),
    binary main_v219 main_v218 main_v220 (mulf : (⟨S4096x512, .f32⟩ : BufTy).Contents (Elt F) → (⟨S4096x512, .f32⟩ : BufTy).Contents (Elt F) → (⟨S4096x512, .f32⟩ : BufTy).Contents (Elt F)),
    binary main_v186 main_v220 main_v221 (addf : (⟨S4096x512, .f32⟩ : BufTy).Contents (Elt F) → (⟨S4096x512, .f32⟩ : BufTy).Contents (Elt F) → (⟨S4096x512, .f32⟩ : BufTy).Contents (Elt F)),
    TRef.binary (.of main_v221 : TRef sig ⟨S4096x512, .f32⟩) (.of main_v221 : TRef sig ⟨S4096x512, .f32⟩) main_call6.v0 mulf,
    TRef.nullary main_call6.cst (constant S_ .f32 0x00000000#32),
    TRef.binary main_call6.v0 main_call6.cst main_call6.v1 (fun x v => Host.reduceAdd x v reducesTo_S4096x512_S_d0_1 h_S_),
    TRef.unary main_call6.v1 main_call6.v2 Host.sqrt,
    unary main_v222 main_v223 (broadcastInDim S4096x512 ![] bcast_S_S4096x512 : (⟨S_, .f32⟩ : BufTy).Contents (Elt F) → (⟨S4096x512, .f32⟩ : BufTy).Contents (Elt F)),
    binary main_v221 main_v223 main_v224 (Host.divf : (⟨S4096x512, .f32⟩ : BufTy).Contents (Elt F) → (⟨S4096x512, .f32⟩ : BufTy).Contents (Elt F) → (⟨S4096x512, .f32⟩ : BufTy).Contents (Elt F)),
    binary main_arg4 main_v224 main_v225 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v225 main_v224 main_v226 (mulf : (⟨S4096x512, .f32⟩ : BufTy).Contents (Elt F) → (⟨S4096x512, .f32⟩ : BufTy).Contents (Elt F) → (⟨S4096x512, .f32⟩ : BufTy).Contents (Elt F)),
    nullary main_cst_41 (constant S_ .f32 0x00000000#32),
    binary main_v226 main_cst_41 main_v227 ((fun x v => Host.reduceAdd x v reducesTo_S4096x512_S_d0_1 h_S_) : (⟨S4096x512, .f32⟩ : BufTy).Contents (Elt F) → (⟨S_, .f32⟩ : BufTy).Contents (Elt F) → (⟨S_, .f32⟩ : BufTy).Contents (Elt F)),
    nullary main_cst_42 (constant S_ .f32 0x3F000000#32),
    binary main_cst_42 main_v227 main_v228 (mulf : (⟨S_, .f32⟩ : BufTy).Contents (Elt F) → (⟨S_, .f32⟩ : BufTy).Contents (Elt F) → (⟨S_, .f32⟩ : BufTy).Contents (Elt F)),
    unary main_v6 main_v229 (broadcastInDim S4096x1 ![0] bcast_S4096_S4096x1_0 : (⟨S4096, .f32⟩ : BufTy).Contents (Elt F) → (⟨S4096x1, .f32⟩ : BufTy).Contents (Elt F)),
    binary main_arg3 main_v221 main_v230 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v229 main_v231 (broadcastInDim S4096x512 ![0, 1] bcast_S4096x1_S4096x512_0_1 : (⟨S4096x1, .f32⟩ : BufTy).Contents (Elt F) → (⟨S4096x512, .f32⟩ : BufTy).Contents (Elt F)),
    binary main_v231 main_v230 main_v232 (mulf : (⟨S4096x512, .f32⟩ : BufTy).Contents (Elt F) → (⟨S4096x512, .f32⟩ : BufTy).Contents (Elt F) → (⟨S4096x512, .f32⟩ : BufTy).Contents (Elt F)),
    binary main_v232 main_arg7 main_v233 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    binary main_arg1 main_v233 main_v234 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    nullary main_cst_43 (constant S_ .f32 0xBF800000#32),
    unary main_cst_43 main_v235 (broadcastInDim S4096x512 ![] bcast_S_S4096x512 : (⟨S_, .f32⟩ : BufTy).Contents (Elt F) → (⟨S4096x512, .f32⟩ : BufTy).Contents (Elt F)),
    binary main_v235 main_v234 main_v236 (mulf : (⟨S4096x512, .f32⟩ : BufTy).Contents (Elt F) → (⟨S4096x512, .f32⟩ : BufTy).Contents (Elt F) → (⟨S4096x512, .f32⟩ : BufTy).Contents (Elt F)),
    nullary main_cst_44 (constant S_ .f32 0x3F800000#32),
    binary main_v0 main_cst_44 main_v237 (mulf : (⟨S_, .f32⟩ : BufTy).Contents (Elt F) → (⟨S_, .f32⟩ : BufTy).Contents (Elt F) → (⟨S_, .f32⟩ : BufTy).Contents (Elt F)),
    unary main_v6 main_v238 (broadcastInDim S4096x1 ![0] bcast_S4096_S4096x1_0 : (⟨S4096, .f32⟩ : BufTy).Contents (Elt F) → (⟨S4096x1, .f32⟩ : BufTy).Contents (Elt F)),
    binary main_arg3 main_v236 main_v239 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v238 main_v240 (broadcastInDim S4096x512 ![0, 1] bcast_S4096x1_S4096x512_0_1 : (⟨S4096x1, .f32⟩ : BufTy).Contents (Elt F) → (⟨S4096x512, .f32⟩ : BufTy).Contents (Elt F)),
    binary main_v240 main_v239 main_v241 (mulf : (⟨S4096x512, .f32⟩ : BufTy).Contents (Elt F) → (⟨S4096x512, .f32⟩ : BufTy).Contents (Elt F) → (⟨S4096x512, .f32⟩ : BufTy).Contents (Elt F)),
    binary main_v241 main_arg7 main_v242 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    binary main_arg1 main_v242 main_v243 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v237 main_v244 (broadcastInDim S4096x512 ![] bcast_S_S4096x512 : (⟨S_, .f32⟩ : BufTy).Contents (Elt F) → (⟨S4096x512, .f32⟩ : BufTy).Contents (Elt F)),
    binary main_v244 main_v243 main_v245 (mulf : (⟨S4096x512, .f32⟩ : BufTy).Contents (Elt F) → (⟨S4096x512, .f32⟩ : BufTy).Contents (Elt F) → (⟨S4096x512, .f32⟩ : BufTy).Contents (Elt F)),
    binary main_v234 main_v245 main_v246 (addf : (⟨S4096x512, .f32⟩ : BufTy).Contents (Elt F) → (⟨S4096x512, .f32⟩ : BufTy).Contents (Elt F) → (⟨S4096x512, .f32⟩ : BufTy).Contents (Elt F)),
    nullary main_cst_45 (constant S_ .f32 0xBF800000#32),
    unary main_cst_45 main_v247 (broadcastInDim S4096x512 ![] bcast_S_S4096x512 : (⟨S_, .f32⟩ : BufTy).Contents (Elt F) → (⟨S4096x512, .f32⟩ : BufTy).Contents (Elt F)),
    binary main_v247 main_v246 main_v248 (mulf : (⟨S4096x512, .f32⟩ : BufTy).Contents (Elt F) → (⟨S4096x512, .f32⟩ : BufTy).Contents (Elt F) → (⟨S4096x512, .f32⟩ : BufTy).Contents (Elt F)),
    nullary main_cst_46 (constant S_ .f32 0x3F000000#32),
    unary main_cst_46 main_v249 (broadcastInDim S4096x512 ![] bcast_S_S4096x512 : (⟨S_, .f32⟩ : BufTy).Contents (Elt F) → (⟨S4096x512, .f32⟩ : BufTy).Contents (Elt F)),
    binary main_v249 main_v236 main_v250 (mulf : (⟨S4096x512, .f32⟩ : BufTy).Contents (Elt F) → (⟨S4096x512, .f32⟩ : BufTy).Contents (Elt F) → (⟨S4096x512, .f32⟩ : BufTy).Contents (Elt F)),
    nullary main_cst_47 (constant S_ .f32 0x3F000000#32) ]

/-- The references those operations write, in order. -/
abbrev ops_part4_W : List (Ref sig .tc) :=
  [main_cst_37, main_v202, main_v203, main_v204, main_v205, main_v206, main_v207, main_v208, main_v209, main_v210, main_v211, main_cst_38, main_v212, main_v213, main_cst_39, main_v214, main_v215, main_cst_40, main_v216, main_v217, main_v218, main_v219, main_v220, main_v221, main_call6_v0, main_call6_cst, main_call6_v1, main_v222, main_v223, main_v224, main_v225, main_v226, main_cst_41, main_v227, main_cst_42, main_v228, main_v229, main_v230, main_v231, main_v232, main_v233, main_v234, main_cst_43, main_v235, main_v236, main_cst_44, main_v237, main_v238, main_v239, main_v240, main_v241, main_v242, main_v243, main_v244, main_v245, main_v246, main_cst_45, main_v247, main_v248, main_cst_46, main_v249, main_v250, main_cst_47]

/-- The window is that line of operations: both sides unfold to one chain of steps. -/
theorem main_part4_eq (c : Dev nD) : main_part4 (F := F) c = seq ops_part4 := by chain_rfl

theorem ops_part4_sub : (ops_part4 : List (HloOp τ sig (Elt F))).Forall fun op => op.bufs ⊆ tcRefs τ sig :=
  ⟨nullary_bufs_sub .., binary_bufs_sub .., unary_bufs_sub .., binary_bufs_sub .., unary_bufs_sub .., binary_bufs_sub .., binary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., unary_bufs_sub .., unary_bufs_sub .., binary_bufs_sub .., binary_bufs_sub .., binary_bufs_sub .., nullary_bufs_sub .., binary_bufs_sub .., nullary_bufs_sub .., binary_bufs_sub .., unary_bufs_sub .., binary_bufs_sub .., unary_bufs_sub .., binary_bufs_sub .., binary_bufs_sub .., binary_bufs_sub .., nullary_bufs_sub .., unary_bufs_sub .., binary_bufs_sub .., nullary_bufs_sub .., binary_bufs_sub .., unary_bufs_sub .., binary_bufs_sub .., unary_bufs_sub .., binary_bufs_sub .., binary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub ..⟩

theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_part4_writes : (ops_part4 : List (HloOp τ sig (Elt F))).Forall fun op => op.writes ⊆ (ops_part4_W.map (Proc.devRef (τ := τ) .tc)).toFinset :=
  ⟨writes_sub_of_mem (y := main_cst_37) rfl (by decide),
   writes_sub_of_mem (y := main_v202) rfl (by decide),
   writes_sub_of_mem (y := main_v203) rfl (by decide),
   writes_sub_of_mem (y := main_v204) rfl (by decide),
   writes_sub_of_mem (y := main_v205) rfl (by decide),
   writes_sub_of_mem (y := main_v206) rfl (by decide),
   writes_sub_of_mem (y := main_v207) rfl (by decide),
   writes_sub_of_mem (y := main_v208) rfl (by decide),
   writes_sub_of_mem (y := main_v209) rfl (by decide),
   writes_sub_of_mem (y := main_v210) rfl (by decide),
   writes_sub_of_mem (y := main_v211) rfl (by decide),
   writes_sub_of_mem (y := main_cst_38) rfl (by decide),
   writes_sub_of_mem (y := main_v212) rfl (by decide),
   writes_sub_of_mem (y := main_v213) rfl (by decide),
   writes_sub_of_mem (y := main_cst_39) rfl (by decide),
   writes_sub_of_mem (y := main_v214) rfl (by decide),
   writes_sub_of_mem (y := main_v215) rfl (by decide),
   writes_sub_of_mem (y := main_cst_40) rfl (by decide),
   writes_sub_of_mem (y := main_v216) rfl (by decide),
   writes_sub_of_mem (y := main_v217) rfl (by decide),
   writes_sub_of_mem (y := main_v218) rfl (by decide),
   writes_sub_of_mem (y := main_v219) rfl (by decide),
   writes_sub_of_mem (y := main_v220) rfl (by decide),
   writes_sub_of_mem (y := main_v221) rfl (by decide),
   writes_sub_of_mem (y := main_call6_v0) rfl (by decide),
   writes_sub_of_mem (y := main_call6_cst) rfl (by decide),
   writes_sub_of_mem (y := main_call6_v1) rfl (by decide),
   writes_sub_of_mem (y := main_v222) rfl (by decide),
   writes_sub_of_mem (y := main_v223) rfl (by decide),
   writes_sub_of_mem (y := main_v224) rfl (by decide),
   writes_sub_of_mem (y := main_v225) rfl (by decide),
   writes_sub_of_mem (y := main_v226) rfl (by decide),
   writes_sub_of_mem (y := main_cst_41) rfl (by decide),
   writes_sub_of_mem (y := main_v227) rfl (by decide),
   writes_sub_of_mem (y := main_cst_42) rfl (by decide),
   writes_sub_of_mem (y := main_v228) rfl (by decide),
   writes_sub_of_mem (y := main_v229) rfl (by decide),
   writes_sub_of_mem (y := main_v230) rfl (by decide),
   writes_sub_of_mem (y := main_v231) rfl (by decide),
   writes_sub_of_mem (y := main_v232) rfl (by decide),
   writes_sub_of_mem (y := main_v233) rfl (by decide),
   writes_sub_of_mem (y := main_v234) rfl (by decide),
   writes_sub_of_mem (y := main_cst_43) rfl (by decide),
   writes_sub_of_mem (y := main_v235) rfl (by decide),
   writes_sub_of_mem (y := main_v236) rfl (by decide),
   writes_sub_of_mem (y := main_cst_44) rfl (by decide),
   writes_sub_of_mem (y := main_v237) rfl (by decide),
   writes_sub_of_mem (y := main_v238) rfl (by decide),
   writes_sub_of_mem (y := main_v239) rfl (by decide),
   writes_sub_of_mem (y := main_v240) rfl (by decide),
   writes_sub_of_mem (y := main_v241) rfl (by decide),
   writes_sub_of_mem (y := main_v242) rfl (by decide),
   writes_sub_of_mem (y := main_v243) rfl (by decide),
   writes_sub_of_mem (y := main_v244) rfl (by decide),
   writes_sub_of_mem (y := main_v245) rfl (by decide),
   writes_sub_of_mem (y := main_v246) rfl (by decide),
   writes_sub_of_mem (y := main_cst_45) rfl (by decide),
   writes_sub_of_mem (y := main_v247) rfl (by decide),
   writes_sub_of_mem (y := main_v248) rfl (by decide),
   writes_sub_of_mem (y := main_cst_46) rfl (by decide),
   writes_sub_of_mem (y := main_v249) rfl (by decide),
   writes_sub_of_mem (y := main_v250) rfl (by decide),
   writes_sub_of_mem (y := main_cst_47) rfl (by decide)⟩

end Cert.RefRun

end
-- ==== Proof.RefRun5.lean ====
import proofs.«158944_j64613488001249_1_alg».proof.Proof.Gen.ReferenceIdeal
import proofs.«158944_j64613488001249_1_alg».proof.Proof.RefRunLib
import Idealize.ShloMosaic.Lib.Pipeline.Regions

noncomputable section

namespace Cert.RefRun

open Cert.ReferenceIdeal Cert.ReferenceIdeal.Gen Idealize.ShloMosaic Idealize.ShloMosaic.TcCoe Idealize.SL.Sem Idealize.ShloMosaic.StableHlo Idealize.ShloMosaic.Pipeline

variable {F : FTy → Type} [FloatOps F]

/-- The operations of @main's statements 301 … 360 of 380, in order; a call's operations stand at the call, over that call's buffers. -/
abbrev ops_part5 : List (HloOp τ sig (Elt F)) :=
  [ unary main_cst_47 main_v251 (broadcastInDim S4096x512 ![] bcast_S_S4096x512 : (⟨S_, .f32⟩ : BufTy).Contents (Elt F) → (⟨S4096x512, .f32⟩ : BufTy).Contents (Elt F)),
    binary main_v251 main_v248 main_v252 (mulf : (⟨S4096x512, .f32⟩ : BufTy).Contents (Elt F) → (⟨S4096x512, .f32⟩ : BufTy).Contents (Elt F) → (⟨S4096x512, .f32⟩ : BufTy).Contents (Elt F)),
    binary main_v250 main_v252 main_v253 (addf : (⟨S4096x512, .f32⟩ : BufTy).Contents (Elt F) → (⟨S4096x512, .f32⟩ : BufTy).Contents (Elt F) → (⟨S4096x512, .f32⟩ : BufTy).Contents (Elt F)),
    unary main_v0 main_v254 (broadcastInDim S4096x512 ![] bcast_S_S4096x512 : (⟨S_, .f32⟩ : BufTy).Contents (Elt F) → (⟨S4096x512, .f32⟩ : BufTy).Contents (Elt F)),
    binary main_v254 main_v253 main_v255 (mulf : (⟨S4096x512, .f32⟩ : BufTy).Contents (Elt F) → (⟨S4096x512, .f32⟩ : BufTy).Contents (Elt F) → (⟨S4096x512, .f32⟩ : BufTy).Contents (Elt F)),
    binary main_v221 main_v255 main_v256 (addf : (⟨S4096x512, .f32⟩ : BufTy).Contents (Elt F) → (⟨S4096x512, .f32⟩ : BufTy).Contents (Elt F) → (⟨S4096x512, .f32⟩ : BufTy).Contents (Elt F)),
    TRef.binary (.of main_v256 : TRef sig ⟨S4096x512, .f32⟩) (.of main_v256 : TRef sig ⟨S4096x512, .f32⟩) main_call7.v0 mulf,
    TRef.nullary main_call7.cst (constant S_ .f32 0x00000000#32),
    TRef.binary main_call7.v0 main_call7.cst main_call7.v1 (fun x v => Host.reduceAdd x v reducesTo_S4096x512_S_d0_1 h_S_),
    TRef.unary main_call7.v1 main_call7.v2 Host.sqrt,
    unary main_v257 main_v258 (broadcastInDim S4096x512 ![] bcast_S_S4096x512 : (⟨S_, .f32⟩ : BufTy).Contents (Elt F) → (⟨S4096x512, .f32⟩ : BufTy).Contents (Elt F)),
    binary main_v256 main_v258 main_v259 (Host.divf : (⟨S4096x512, .f32⟩ : BufTy).Contents (Elt F) → (⟨S4096x512, .f32⟩ : BufTy).Contents (Elt F) → (⟨S4096x512, .f32⟩ : BufTy).Contents (Elt F)),
    binary main_arg4 main_v259 main_v260 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v260 main_v259 main_v261 (mulf : (⟨S4096x512, .f32⟩ : BufTy).Contents (Elt F) → (⟨S4096x512, .f32⟩ : BufTy).Contents (Elt F) → (⟨S4096x512, .f32⟩ : BufTy).Contents (Elt F)),
    nullary main_cst_48 (constant S_ .f32 0x00000000#32),
    binary main_v261 main_cst_48 main_v262 ((fun x v => Host.reduceAdd x v reducesTo_S4096x512_S_d0_1 h_S_) : (⟨S4096x512, .f32⟩ : BufTy).Contents (Elt F) → (⟨S_, .f32⟩ : BufTy).Contents (Elt F) → (⟨S_, .f32⟩ : BufTy).Contents (Elt F)),
    nullary main_cst_49 (constant S_ .f32 0x3F000000#32),
    binary main_cst_49 main_v262 main_v263 (mulf : (⟨S_, .f32⟩ : BufTy).Contents (Elt F) → (⟨S_, .f32⟩ : BufTy).Contents (Elt F) → (⟨S_, .f32⟩ : BufTy).Contents (Elt F)),
    unary main_v6 main_v264 (broadcastInDim S4096x1 ![0] bcast_S4096_S4096x1_0 : (⟨S4096, .f32⟩ : BufTy).Contents (Elt F) → (⟨S4096x1, .f32⟩ : BufTy).Contents (Elt F)),
    binary main_arg3 main_v256 main_v265 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v264 main_v266 (broadcastInDim S4096x512 ![0, 1] bcast_S4096x1_S4096x512_0_1 : (⟨S4096x1, .f32⟩ : BufTy).Contents (Elt F) → (⟨S4096x512, .f32⟩ : BufTy).Contents (Elt F)),
    binary main_v266 main_v265 main_v267 (mulf : (⟨S4096x512, .f32⟩ : BufTy).Contents (Elt F) → (⟨S4096x512, .f32⟩ : BufTy).Contents (Elt F) → (⟨S4096x512, .f32⟩ : BufTy).Contents (Elt F)),
    binary main_v267 main_arg7 main_v268 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    binary main_arg1 main_v268 main_v269 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    nullary main_cst_50 (constant S_ .f32 0xBF800000#32),
    unary main_cst_50 main_v270 (broadcastInDim S4096x512 ![] bcast_S_S4096x512 : (⟨S_, .f32⟩ : BufTy).Contents (Elt F) → (⟨S4096x512, .f32⟩ : BufTy).Contents (Elt F)),
    binary main_v270 main_v269 main_v271 (mulf : (⟨S4096x512, .f32⟩ : BufTy).Contents (Elt F) → (⟨S4096x512, .f32⟩ : BufTy).Contents (Elt F) → (⟨S4096x512, .f32⟩ : BufTy).Contents (Elt F)),
    nullary main_cst_51 (constant S_ .f32 0x3F800000#32),
    binary main_v0 main_cst_51 main_v272 (mulf : (⟨S_, .f32⟩ : BufTy).Contents (Elt F) → (⟨S_, .f32⟩ : BufTy).Contents (Elt F) → (⟨S_, .f32⟩ : BufTy).Contents (Elt F)),
    unary main_v6 main_v273 (broadcastInDim S4096x1 ![0] bcast_S4096_S4096x1_0 : (⟨S4096, .f32⟩ : BufTy).Contents (Elt F) → (⟨S4096x1, .f32⟩ : BufTy).Contents (Elt F)),
    binary main_arg3 main_v271 main_v274 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v273 main_v275 (broadcastInDim S4096x512 ![0, 1] bcast_S4096x1_S4096x512_0_1 : (⟨S4096x1, .f32⟩ : BufTy).Contents (Elt F) → (⟨S4096x512, .f32⟩ : BufTy).Contents (Elt F)),
    binary main_v275 main_v274 main_v276 (mulf : (⟨S4096x512, .f32⟩ : BufTy).Contents (Elt F) → (⟨S4096x512, .f32⟩ : BufTy).Contents (Elt F) → (⟨S4096x512, .f32⟩ : BufTy).Contents (Elt F)),
    binary main_v276 main_arg7 main_v277 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    binary main_arg1 main_v277 main_v278 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_v272 main_v279 (broadcastInDim S4096x512 ![] bcast_S_S4096x512 : (⟨S_, .f32⟩ : BufTy).Contents (Elt F) → (⟨S4096x512, .f32⟩ : BufTy).Contents (Elt F)),
    binary main_v279 main_v278 main_v280 (mulf : (⟨S4096x512, .f32⟩ : BufTy).Contents (Elt F) → (⟨S4096x512, .f32⟩ : BufTy).Contents (Elt F) → (⟨S4096x512, .f32⟩ : BufTy).Contents (Elt F)),
    binary main_v269 main_v280 main_v281 (addf : (⟨S4096x512, .f32⟩ : BufTy).Contents (Elt F) → (⟨S4096x512, .f32⟩ : BufTy).Contents (Elt F) → (⟨S4096x512, .f32⟩ : BufTy).Contents (Elt F)),
    nullary main_cst_52 (constant S_ .f32 0xBF800000#32),
    unary main_cst_52 main_v282 (broadcastInDim S4096x512 ![] bcast_S_S4096x512 : (⟨S_, .f32⟩ : BufTy).Contents (Elt F) → (⟨S4096x512, .f32⟩ : BufTy).Contents (Elt F)),
    binary main_v282 main_v281 main_v283 (mulf : (⟨S4096x512, .f32⟩ : BufTy).Contents (Elt F) → (⟨S4096x512, .f32⟩ : BufTy).Contents (Elt F) → (⟨S4096x512, .f32⟩ : BufTy).Contents (Elt F)),
    nullary main_cst_53 (constant S_ .f32 0x3F000000#32),
    unary main_cst_53 main_v284 (broadcastInDim S4096x512 ![] bcast_S_S4096x512 : (⟨S_, .f32⟩ : BufTy).Contents (Elt F) → (⟨S4096x512, .f32⟩ : BufTy).Contents (Elt F)),
    binary main_v284 main_v271 main_v285 (mulf : (⟨S4096x512, .f32⟩ : BufTy).Contents (Elt F) → (⟨S4096x512, .f32⟩ : BufTy).Contents (Elt F) → (⟨S4096x512, .f32⟩ : BufTy).Contents (Elt F)),
    nullary main_cst_54 (constant S_ .f32 0x3F000000#32),
    unary main_cst_54 main_v286 (broadcastInDim S4096x512 ![] bcast_S_S4096x512 : (⟨S_, .f32⟩ : BufTy).Contents (Elt F) → (⟨S4096x512, .f32⟩ : BufTy).Contents (Elt F)),
    binary main_v286 main_v283 main_v287 (mulf : (⟨S4096x512, .f32⟩ : BufTy).Contents (Elt F) → (⟨S4096x512, .f32⟩ : BufTy).Contents (Elt F) → (⟨S4096x512, .f32⟩ : BufTy).Contents (Elt F)),
    binary main_v285 main_v287 main_v288 (addf : (⟨S4096x512, .f32⟩ : BufTy).Contents (Elt F) → (⟨S4096x512, .f32⟩ : BufTy).Contents (Elt F) → (⟨S4096x512, .f32⟩ : BufTy).Contents (Elt F)),
    unary main_v0 main_v289 (broadcastInDim S4096x512 ![] bcast_S_S4096x512 : (⟨S_, .f32⟩ : BufTy).Contents (Elt F) → (⟨S4096x512, .f32⟩ : BufTy).Contents (Elt F)),
    binary main_v289 main_v288 main_v290 (mulf : (⟨S4096x512, .f32⟩ : BufTy).Contents (Elt F) → (⟨S4096x512, .f32⟩ : BufTy).Contents (Elt F) → (⟨S4096x512, .f32⟩ : BufTy).Contents (Elt F)),
    binary main_v256 main_v290 main_v291 (addf : (⟨S4096x512, .f32⟩ : BufTy).Contents (Elt F) → (⟨S4096x512, .f32⟩ : BufTy).Contents (Elt F) → (⟨S4096x512, .f32⟩ : BufTy).Contents (Elt F)),
    TRef.binary (.of main_v291 : TRef sig ⟨S4096x512, .f32⟩) (.of main_v291 : TRef sig ⟨S4096x512, .f32⟩) main_call8.v0 mulf,
    TRef.nullary main_call8.cst (constant S_ .f32 0x00000000#32),
    TRef.binary main_call8.v0 main_call8.cst main_call8.v1 (fun x v => Host.reduceAdd x v reducesTo_S4096x512_S_d0_1 h_S_),
    TRef.unary main_call8.v1 main_call8.v2 Host.sqrt,
    unary main_v292 main_v293 (broadcastInDim S4096x512 ![] bcast_S_S4096x512 : (⟨S_, .f32⟩ : BufTy).Contents (Elt F) → (⟨S4096x512, .f32⟩ : BufTy).Contents (Elt F)),
    binary main_v291 main_v293 main_v294 (Host.divf : (⟨S4096x512, .f32⟩ : BufTy).Contents (Elt F) → (⟨S4096x512, .f32⟩ : BufTy).Contents (Elt F) → (⟨S4096x512, .f32⟩ : BufTy).Contents (Elt F)),
    binary main_arg4 main_v294 main_v295 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v295 main_v294 main_v296 (mulf : (⟨S4096x512, .f32⟩ : BufTy).Contents (Elt F) → (⟨S4096x512, .f32⟩ : BufTy).Contents (Elt F) → (⟨S4096x512, .f32⟩ : BufTy).Contents (Elt F)),
    nullary main_cst_55 (constant S_ .f32 0x00000000#32),
    binary main_v296 main_cst_55 main_v297 ((fun x v => Host.reduceAdd x v reducesTo_S4096x512_S_d0_1 h_S_) : (⟨S4096x512, .f32⟩ : BufTy).Contents (Elt F) → (⟨S_, .f32⟩ : BufTy).Contents (Elt F) → (⟨S_, .f32⟩ : BufTy).Contents (Elt F)),
    nullary main_cst_56 (constant S_ .f32 0x3F000000#32),
    binary main_cst_56 main_v297 main_v298 (mulf : (⟨S_, .f32⟩ : BufTy).Contents (Elt F) → (⟨S_, .f32⟩ : BufTy).Contents (Elt F) → (⟨S_, .f32⟩ : BufTy).Contents (Elt F)),
    unary main_arg8 main_v299 ((transpose S512x512 [1, 0] · transposes_S512x512_S512x512_1_0) : (⟨S512x512, .f32⟩ : BufTy).Contents (Elt F) → (⟨S512x512, .f32⟩ : BufTy).Contents (Elt F)),
    binary main_v291 main_v299 main_v300 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    unary main_arg9 main_v301 (broadcastInDim S1x512 ![1] bcast_S512_S1x512_1 : (⟨S512, .f32⟩ : BufTy).Contents (Elt F) → (⟨S1x512, .f32⟩ : BufTy).Contents (Elt F)) ]

/-- The references those operations write, in order. -/
abbrev ops_part5_W : List (Ref sig .tc) :=
  [main_v251, main_v252, main_v253, main_v254, main_v255, main_v256, main_call7_v0, main_call7_cst, main_call7_v1, main_v257, main_v258, main_v259, main_v260, main_v261, main_cst_48, main_v262, main_cst_49, main_v263, main_v264, main_v265, main_v266, main_v267, main_v268, main_v269, main_cst_50, main_v270, main_v271, main_cst_51, main_v272, main_v273, main_v274, main_v275, main_v276, main_v277, main_v278, main_v279, main_v280, main_v281, main_cst_52, main_v282, main_v283, main_cst_53, main_v284, main_v285, main_cst_54, main_v286, main_v287, main_v288, main_v289, main_v290, main_v291, main_call8_v0, main_call8_cst, main_call8_v1, main_v292, main_v293, main_v294, main_v295, main_v296, main_cst_55, main_v297, main_cst_56, main_v298, main_v299, main_v300, main_v301]

/-- The window is that line of operations: both sides unfold to one chain of steps. -/
theorem main_part5_eq (c : Dev nD) : main_part5 (F := F) c = seq ops_part5 := by chain_rfl

theorem ops_part5_sub : (ops_part5 : List (HloOp τ sig (Elt F))).Forall fun op => op.bufs ⊆ tcRefs τ sig :=
  ⟨unary_bufs_sub .., binary_bufs_sub .., binary_bufs_sub .., unary_bufs_sub .., binary_bufs_sub .., binary_bufs_sub .., binary_bufs_sub .., nullary_bufs_sub .., binary_bufs_sub .., unary_bufs_sub .., unary_bufs_sub .., binary_bufs_sub .., binary_bufs_sub .., binary_bufs_sub .., nullary_bufs_sub .., binary_bufs_sub .., nullary_bufs_sub .., binary_bufs_sub .., unary_bufs_sub .., binary_bufs_sub .., unary_bufs_sub .., binary_bufs_sub .., binary_bufs_sub .., binary_bufs_sub .., nullary_bufs_sub .., unary_bufs_sub .., binary_bufs_sub .., nullary_bufs_sub .., binary_bufs_sub .., unary_bufs_sub .., binary_bufs_sub .., unary_bufs_sub .., binary_bufs_sub .., binary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., unary_bufs_sub .., unary_bufs_sub .., binary_bufs_sub .., binary_bufs_sub .., binary_bufs_sub .., nullary_bufs_sub .., binary_bufs_sub .., nullary_bufs_sub .., binary_bufs_sub .., unary_bufs_sub .., binary_bufs_sub .., unary_bufs_sub ..⟩

theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_part5_writes : (ops_part5 : List (HloOp τ sig (Elt F))).Forall fun op => op.writes ⊆ (ops_part5_W.map (Proc.devRef (τ := τ) .tc)).toFinset :=
  ⟨writes_sub_of_mem (y := main_v251) rfl (by decide),
   writes_sub_of_mem (y := main_v252) rfl (by decide),
   writes_sub_of_mem (y := main_v253) rfl (by decide),
   writes_sub_of_mem (y := main_v254) rfl (by decide),
   writes_sub_of_mem (y := main_v255) rfl (by decide),
   writes_sub_of_mem (y := main_v256) rfl (by decide),
   writes_sub_of_mem (y := main_call7_v0) rfl (by decide),
   writes_sub_of_mem (y := main_call7_cst) rfl (by decide),
   writes_sub_of_mem (y := main_call7_v1) rfl (by decide),
   writes_sub_of_mem (y := main_v257) rfl (by decide),
   writes_sub_of_mem (y := main_v258) rfl (by decide),
   writes_sub_of_mem (y := main_v259) rfl (by decide),
   writes_sub_of_mem (y := main_v260) rfl (by decide),
   writes_sub_of_mem (y := main_v261) rfl (by decide),
   writes_sub_of_mem (y := main_cst_48) rfl (by decide),
   writes_sub_of_mem (y := main_v262) rfl (by decide),
   writes_sub_of_mem (y := main_cst_49) rfl (by decide),
   writes_sub_of_mem (y := main_v263) rfl (by decide),
   writes_sub_of_mem (y := main_v264) rfl (by decide),
   writes_sub_of_mem (y := main_v265) rfl (by decide),
   writes_sub_of_mem (y := main_v266) rfl (by decide),
   writes_sub_of_mem (y := main_v267) rfl (by decide),
   writes_sub_of_mem (y := main_v268) rfl (by decide),
   writes_sub_of_mem (y := main_v269) rfl (by decide),
   writes_sub_of_mem (y := main_cst_50) rfl (by decide),
   writes_sub_of_mem (y := main_v270) rfl (by decide),
   writes_sub_of_mem (y := main_v271) rfl (by decide),
   writes_sub_of_mem (y := main_cst_51) rfl (by decide),
   writes_sub_of_mem (y := main_v272) rfl (by decide),
   writes_sub_of_mem (y := main_v273) rfl (by decide),
   writes_sub_of_mem (y := main_v274) rfl (by decide),
   writes_sub_of_mem (y := main_v275) rfl (by decide),
   writes_sub_of_mem (y := main_v276) rfl (by decide),
   writes_sub_of_mem (y := main_v277) rfl (by decide),
   writes_sub_of_mem (y := main_v278) rfl (by decide),
   writes_sub_of_mem (y := main_v279) rfl (by decide),
   writes_sub_of_mem (y := main_v280) rfl (by decide),
   writes_sub_of_mem (y := main_v281) rfl (by decide),
   writes_sub_of_mem (y := main_cst_52) rfl (by decide),
   writes_sub_of_mem (y := main_v282) rfl (by decide),
   writes_sub_of_mem (y := main_v283) rfl (by decide),
   writes_sub_of_mem (y := main_cst_53) rfl (by decide),
   writes_sub_of_mem (y := main_v284) rfl (by decide),
   writes_sub_of_mem (y := main_v285) rfl (by decide),
   writes_sub_of_mem (y := main_cst_54) rfl (by decide),
   writes_sub_of_mem (y := main_v286) rfl (by decide),
   writes_sub_of_mem (y := main_v287) rfl (by decide),
   writes_sub_of_mem (y := main_v288) rfl (by decide),
   writes_sub_of_mem (y := main_v289) rfl (by decide),
   writes_sub_of_mem (y := main_v290) rfl (by decide),
   writes_sub_of_mem (y := main_v291) rfl (by decide),
   writes_sub_of_mem (y := main_call8_v0) rfl (by decide),
   writes_sub_of_mem (y := main_call8_cst) rfl (by decide),
   writes_sub_of_mem (y := main_call8_v1) rfl (by decide),
   writes_sub_of_mem (y := main_v292) rfl (by decide),
   writes_sub_of_mem (y := main_v293) rfl (by decide),
   writes_sub_of_mem (y := main_v294) rfl (by decide),
   writes_sub_of_mem (y := main_v295) rfl (by decide),
   writes_sub_of_mem (y := main_v296) rfl (by decide),
   writes_sub_of_mem (y := main_cst_55) rfl (by decide),
   writes_sub_of_mem (y := main_v297) rfl (by decide),
   writes_sub_of_mem (y := main_cst_56) rfl (by decide),
   writes_sub_of_mem (y := main_v298) rfl (by decide),
   writes_sub_of_mem (y := main_v299) rfl (by decide),
   writes_sub_of_mem (y := main_v300) rfl (by decide),
   writes_sub_of_mem (y := main_v301) rfl (by decide)⟩

end Cert.RefRun

end
-- ==== Proof.RefRun6.lean ====
import proofs.«158944_j64613488001249_1_alg».proof.Proof.Gen.ReferenceIdeal
import proofs.«158944_j64613488001249_1_alg».proof.Proof.RefRunLib
import Idealize.ShloMosaic.Lib.Pipeline.Regions

noncomputable section

namespace Cert.RefRun

open Cert.ReferenceIdeal Cert.ReferenceIdeal.Gen Idealize.ShloMosaic Idealize.ShloMosaic.TcCoe Idealize.SL.Sem Idealize.ShloMosaic.StableHlo Idealize.ShloMosaic.Pipeline

variable {F : FTy → Type} [FloatOps F]

/-- The operations of @main's statements 361 … 380 of 380, up to the concatenate, in order; a call's operations stand at the call, over that call's buffers. -/
abbrev ops_part6 : List (HloOp τ sig (Elt F)) :=
  [ unary main_v301 main_v302 (broadcastInDim S4096x512 ![0, 1] bcast_S1x512_S4096x512_0_1 : (⟨S1x512, .f32⟩ : BufTy).Contents (Elt F) → (⟨S4096x512, .f32⟩ : BufTy).Contents (Elt F)),
    binary main_v300 main_v302 main_v303 (addf : (⟨S4096x512, .f32⟩ : BufTy).Contents (Elt F) → (⟨S4096x512, .f32⟩ : BufTy).Contents (Elt F) → (⟨S4096x512, .f32⟩ : BufTy).Contents (Elt F)),
    nullary main_cst_57 (constant S_ .f32 0x3C23D70A#32),
    TRef.nullary main_call9.cst (constant S_ .f32 0x00000000#32),
    TRef.unary main_call9.cst main_call9.v0 (broadcastInDim S4096x512 ![] bcast_S_S4096x512),
    TRef.binary (.of main_v303 : TRef sig ⟨S4096x512, .f32⟩) main_call9.v0 main_call9.v1 (cmpf .oge),
    TRef.unary (.of main_cst_57 : TRef sig ⟨S_, .f32⟩) main_call9.v2 id,
    TRef.unary main_call9.v2 main_call9.v3 (broadcastInDim S4096x512 ![] bcast_S_S4096x512),
    TRef.binary main_call9.v3 (.of main_v303 : TRef sig ⟨S4096x512, .f32⟩) main_call9.v4 mulf,
    TRef.ternary main_call9.v1 (.of main_v303 : TRef sig ⟨S4096x512, .f32⟩) main_call9.v4 main_call9.call0.v0 select,
    unary main_arg10 main_v305 ((transpose S512x64 [1, 0] · transposes_S64x512_S512x64_1_0) : (⟨S64x512, .f32⟩ : BufTy).Contents (Elt F) → (⟨S512x64, .f32⟩ : BufTy).Contents (Elt F)),
    binary main_v304 main_v305 main_v306 ((fun l r => Host.dotGeneral dot_S4096x512_S512x64_S4096x64_1_0_0_1_n_n none l r) : (⟨S4096x512, .f32⟩ : BufTy).Contents (Elt F) → (⟨S512x64, .f32⟩ : BufTy).Contents (Elt F) → (⟨S4096x64, .f32⟩ : BufTy).Contents (Elt F)),
    unary main_arg11 main_v307 (broadcastInDim S1x64 ![1] bcast_S64_S1x64_1 : (⟨S64, .f32⟩ : BufTy).Contents (Elt F) → (⟨S1x64, .f32⟩ : BufTy).Contents (Elt F)),
    unary main_v307 main_v308 (broadcastInDim S4096x64 ![0, 1] bcast_S1x64_S4096x64_0_1 : (⟨S1x64, .f32⟩ : BufTy).Contents (Elt F) → (⟨S4096x64, .f32⟩ : BufTy).Contents (Elt F)),
    binary main_v306 main_v308 main_v309 (addf : (⟨S4096x64, .f32⟩ : BufTy).Contents (Elt F) → (⟨S4096x64, .f32⟩ : BufTy).Contents (Elt F) → (⟨S4096x64, .f32⟩ : BufTy).Contents (Elt F)),
    unary main_v18 main_v310 (broadcastInDim S1 ![] bcast_S_S1 : (⟨S_, .f32⟩ : BufTy).Contents (Elt F) → (⟨S1, .f32⟩ : BufTy).Contents (Elt F)),
    unary main_v53 main_v311 (broadcastInDim S1 ![] bcast_S_S1 : (⟨S_, .f32⟩ : BufTy).Contents (Elt F) → (⟨S1, .f32⟩ : BufTy).Contents (Elt F)),
    unary main_v88 main_v312 (broadcastInDim S1 ![] bcast_S_S1 : (⟨S_, .f32⟩ : BufTy).Contents (Elt F) → (⟨S1, .f32⟩ : BufTy).Contents (Elt F)),
    unary main_v123 main_v313 (broadcastInDim S1 ![] bcast_S_S1 : (⟨S_, .f32⟩ : BufTy).Contents (Elt F) → (⟨S1, .f32⟩ : BufTy).Contents (Elt F)),
    unary main_v158 main_v314 (broadcastInDim S1 ![] bcast_S_S1 : (⟨S_, .f32⟩ : BufTy).Contents (Elt F) → (⟨S1, .f32⟩ : BufTy).Contents (Elt F)),
    unary main_v193 main_v315 (broadcastInDim S1 ![] bcast_S_S1 : (⟨S_, .f32⟩ : BufTy).Contents (Elt F) → (⟨S1, .f32⟩ : BufTy).Contents (Elt F)),
    unary main_v228 main_v316 (broadcastInDim S1 ![] bcast_S_S1 : (⟨S_, .f32⟩ : BufTy).Contents (Elt F) → (⟨S1, .f32⟩ : BufTy).Contents (Elt F)),
    unary main_v263 main_v317 (broadcastInDim S1 ![] bcast_S_S1 : (⟨S_, .f32⟩ : BufTy).Contents (Elt F) → (⟨S1, .f32⟩ : BufTy).Contents (Elt F)),
    unary main_v298 main_v318 (broadcastInDim S1 ![] bcast_S_S1 : (⟨S_, .f32⟩ : BufTy).Contents (Elt F) → (⟨S1, .f32⟩ : BufTy).Contents (Elt F)) ]

/-- The references those operations write, in order. -/
abbrev ops_part6_W : List (Ref sig .tc) :=
  [main_v302, main_v303, main_cst_57, main_call9_cst, main_call9_v0, main_call9_v1, main_call9_v2, main_call9_v3, main_call9_v4, main_v304, main_v305, main_v306, main_v307, main_v308, main_v309, main_v310, main_v311, main_v312, main_v313, main_v314, main_v315, main_v316, main_v317, main_v318]

/-- The operations of @main's statements 361 … 380 of 380: the concatenate, in order; a call's operations stand at the call, over that call's buffers. -/
abbrev ops_part7 : List (HloOp τ sig (Elt F)) :=
  [ nary ![main_v310, main_v311, main_v312, main_v313, main_v314, main_v315, main_v316, main_v317, main_v318] main_v319 (fun u => concatenate S9 0 [⟨S1, u 0⟩, ⟨S1, u 1⟩, ⟨S1, u 2⟩, ⟨S1, u 3⟩, ⟨S1, u 4⟩, ⟨S1, u 5⟩, ⟨S1, u 6⟩, ⟨S1, u 7⟩, ⟨S1, u 8⟩] concatenates_S1_S1_S1_S1_S1_S1_S1_S1_S1_S9_d0) ]

/-- The references those operations write, in order. -/
abbrev ops_part7_W : List (Ref sig .tc) :=
  [main_v319]

/-- The window is that line of operations: both sides unfold to one chain of steps. -/
theorem main_part6_eq (c : Dev nD) : main_part6 (F := F) c = seq (ops_part6 ++ ops_part7) := by chain_rfl

theorem ops_part6_sub : (ops_part6 : List (HloOp τ sig (Elt F))).Forall fun op => op.bufs ⊆ tcRefs τ sig :=
  ⟨unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub ..⟩

theorem ops_part6_fresh : (ops_part6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

theorem ops_part6_writes : (ops_part6 : List (HloOp τ sig (Elt F))).Forall fun op => op.writes ⊆ (ops_part6_W.map (Proc.devRef (τ := τ) .tc)).toFinset :=
  ⟨writes_sub_of_mem (y := main_v302) rfl (by decide),
   writes_sub_of_mem (y := main_v303) rfl (by decide),
   writes_sub_of_mem (y := main_cst_57) rfl (by decide),
   writes_sub_of_mem (y := main_call9_cst) rfl (by decide),
   writes_sub_of_mem (y := main_call9_v0) rfl (by decide),
   writes_sub_of_mem (y := main_call9_v1) rfl (by decide),
   writes_sub_of_mem (y := main_call9_v2) rfl (by decide),
   writes_sub_of_mem (y := main_call9_v3) rfl (by decide),
   writes_sub_of_mem (y := main_call9_v4) rfl (by decide),
   writes_sub_of_mem (y := main_v304) rfl (by decide),
   writes_sub_of_mem (y := main_v305) rfl (by decide),
   writes_sub_of_mem (y := main_v306) rfl (by decide),
   writes_sub_of_mem (y := main_v307) rfl (by decide),
   writes_sub_of_mem (y := main_v308) rfl (by decide),
   writes_sub_of_mem (y := main_v309) rfl (by decide),
   writes_sub_of_mem (y := main_v310) rfl (by decide),
   writes_sub_of_mem (y := main_v311) rfl (by decide),
   writes_sub_of_mem (y := main_v312) rfl (by decide),
   writes_sub_of_mem (y := main_v313) rfl (by decide),
   writes_sub_of_mem (y := main_v314) rfl (by decide),
   writes_sub_of_mem (y := main_v315) rfl (by decide),
   writes_sub_of_mem (y := main_v316) rfl (by decide),
   writes_sub_of_mem (y := main_v317) rfl (by decide),
   writes_sub_of_mem (y := main_v318) rfl (by decide)⟩

theorem ops_part7_sub : (ops_part7 : List (HloOp τ sig (Elt F))).Forall fun op => op.bufs ⊆ tcRefs τ sig :=
  nary_bufs_sub ..

theorem ops_part7_fresh : (ops_part7 : List (HloOp τ sig (Elt F))).Forall fun op => op.fresh = ∅ :=
  rfl

theorem ops_part7_writes : (ops_part7 : List (HloOp τ sig (Elt F))).Forall fun op => op.writes ⊆ (ops_part7_W.map (Proc.devRef (τ := τ) .tc)).toFinset :=
  writes_sub_of_mem (y := main_v319) rfl (by decide)

end Cert.RefRun

end
-- ==== Proof.RefRun.lean ====
import proofs.«158944_j64613488001249_1_alg».proof.Proof.RefRun0
import proofs.«158944_j64613488001249_1_alg».proof.Proof.RefRun1
import proofs.«158944_j64613488001249_1_alg».proof.Proof.RefRun2
import proofs.«158944_j64613488001249_1_alg».proof.Proof.RefRun3
import proofs.«158944_j64613488001249_1_alg».proof.Proof.RefRun4
import proofs.«158944_j64613488001249_1_alg».proof.Proof.RefRun5
import proofs.«158944_j64613488001249_1_alg».proof.Proof.RefRun6
import Idealize.ShloMosaic.Lib.Pipeline.Frame

/-! The reference's run. @main is seven windows of statements; each window is a line of host operations
(a call's operations standing at the call), so @main is the line of all of them, and its run leaves every
buffer at the fold of the operations' results over the launch contents. The fold is cut at the windows'
ends — and once more before the closing concatenate — into the valuations W0, …, W8: Wk+1 is the k-th
line's fold over Wk. No operation writes an argument, so each argument ends as it began. -/

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 412 operations, in order: the windows' lines one after the other. -/
abbrev ops : List (HloOp τ sig (Elt F)) :=
  ops_part0 ++ (ops_part1 ++ (ops_part2 ++ (ops_part3 ++ (ops_part4 ++ (ops_part5 ++ (ops_part6 ++ ops_part7))))))

/-- @main is that line: window by window, a concatenation run as one line is its parts run in order. -/
theorem main_eq (c : Dev nD) : main (F := F) c = seq ops := by
  have h6 : main_part6 (F := F) c = (seq ops_part6 >>= fun _ => seq ops_part7) := by
    rw [main_part6_eq, seq_append]
  simp only [ops, seq_append]
  rw [← main_part0_eq c, ← main_part1_eq c, ← main_part2_eq c, ← main_part3_eq c, ← main_part4_eq c,
    ← main_part5_eq c, ← h6]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  forall_append ops_part0_sub (forall_append ops_part1_sub (forall_append ops_part2_sub (forall_append ops_part3_sub
    (forall_append ops_part4_sub (forall_append ops_part5_sub (forall_append ops_part6_sub ops_part7_sub))))))

/-- Every operation determines its results. -/
theorem ops_fresh : ∀ op ∈ (ops : List (HloOp τ sig (Elt F))), op.fresh = ∅ :=
  List.forall_iff_forall_mem.mp
    (forall_append ops_part0_fresh (forall_append ops_part1_fresh (forall_append ops_part2_fresh (forall_append ops_part3_fresh
      (forall_append ops_part4_fresh (forall_append ops_part5_fresh (forall_append ops_part6_fresh ops_part7_fresh)))))))

/-! ## The valuations at the cuts -/

/-- The buffers' contents before the first window. -/
def W0 (V0 : Valuation τ sig (Elt F)) : Valuation τ sig (Elt F) := V0
/-- The buffers' contents after window 0. -/
def W1 (V0 : Valuation τ sig (Elt F)) : Valuation τ sig (Elt F) := after ops_part0 (W0 V0)
/-- The buffers' contents after window 1. -/
def W2 (V0 : Valuation τ sig (Elt F)) : Valuation τ sig (Elt F) := after ops_part1 (W1 V0)
/-- The buffers' contents after window 2. -/
def W3 (V0 : Valuation τ sig (Elt F)) : Valuation τ sig (Elt F) := after ops_part2 (W2 V0)
/-- The buffers' contents after window 3. -/
def W4 (V0 : Valuation τ sig (Elt F)) : Valuation τ sig (Elt F) := after ops_part3 (W3 V0)
/-- The buffers' contents after window 4. -/
def W5 (V0 : Valuation τ sig (Elt F)) : Valuation τ sig (Elt F) := after ops_part4 (W4 V0)
/-- The buffers' contents after window 5. -/
def W6 (V0 : Valuation τ sig (Elt F)) : Valuation τ sig (Elt F) := after ops_part5 (W5 V0)
/-- The buffers' contents after window 6's operations before the concatenate. -/
def W7 (V0 : Valuation τ sig (Elt F)) : Valuation τ sig (Elt F) := after ops_part6 (W6 V0)
/-- The buffers' contents after the concatenate: at @main's end. -/
def W8 (V0 : Valuation τ sig (Elt F)) : Valuation τ sig (Elt F) := after ops_part7 (W7 V0)
/-- The buffers' contents at @main's end. -/
abbrev W_end (V0 : Valuation τ sig (Elt F)) : Valuation τ sig (Elt F) := W8 V0

/-- The fold of the whole line is the folds of the windows' lines, each over the one before. -/
theorem after_ops (V0 : Valuation τ sig (Elt F)) : after ops V0 = W8 V0 := by
  simp only [ops, StableHlo.after_append]
  rfl

/-- A reference no window writes ends as it began. -/
theorem W8_keep (V0 : Valuation τ sig (Elt F)) {r : Ref sig .tc}
    (h0 : r ∉ ops_part0_W) (h1 : r ∉ ops_part1_W) (h2 : r ∉ ops_part2_W) (h3 : r ∉ ops_part3_W)
    (h4 : r ∉ ops_part4_W) (h5 : r ∉ ops_part5_W) (h6 : r ∉ ops_part6_W) (h7 : r ∉ ops_part7_W) :
    W8 V0 (Proc.devRef .tc r) = V0 (Proc.devRef .tc r) :=
  (after_of_writes_sub ops_part7 _ ops_part7_writes h7).trans <|
  (after_of_writes_sub ops_part6 _ ops_part6_writes h6).trans <|
  (after_of_writes_sub ops_part5 _ ops_part5_writes h5).trans <|
  (after_of_writes_sub ops_part4 _ ops_part4_writes h4).trans <|
  (after_of_writes_sub ops_part3 _ ops_part3_writes h3).trans <|
  (after_of_writes_sub ops_part2 _ ops_part2_writes h2).trans <|
  (after_of_writes_sub ops_part1 _ ops_part1_writes h1).trans <|
  (after_of_writes_sub ops_part0 _ ops_part0_writes h0)

theorem W8_main_arg0 (V0 : Valuation τ sig (Elt F)) : W8 V0 (Proc.devRef .tc main_arg0) = V0 (Proc.devRef .tc main_arg0) :=
  W8_keep V0 (by decide) (by decide) (by decide) (by decide) (by decide) (by decide) (by decide) (by decide)
theorem W8_main_arg1 (V0 : Valuation τ sig (Elt F)) : W8 V0 (Proc.devRef .tc main_arg1) = V0 (Proc.devRef .tc main_arg1) :=
  W8_keep V0 (by decide) (by decide) (by decide) (by decide) (by decide) (by decide) (by decide) (by decide)
theorem W8_main_arg2 (V0 : Valuation τ sig (Elt F)) : W8 V0 (Proc.devRef .tc main_arg2) = V0 (Proc.devRef .tc main_arg2) :=
  W8_keep V0 (by decide) (by decide) (by decide) (by decide) (by decide) (by decide) (by decide) (by decide)
theorem W8_main_arg3 (V0 : Valuation τ sig (Elt F)) : W8 V0 (Proc.devRef .tc main_arg3) = V0 (Proc.devRef .tc main_arg3) :=
  W8_keep V0 (by decide) (by decide) (by decide) (by decide) (by decide) (by decide) (by decide) (by decide)
theorem W8_main_arg4 (V0 : Valuation τ sig (Elt F)) : W8 V0 (Proc.devRef .tc main_arg4) = V0 (Proc.devRef .tc main_arg4) :=
  W8_keep V0 (by decide) (by decide) (by decide) (by decide) (by decide) (by decide) (by decide) (by decide)
theorem W8_main_arg5 (V0 : Valuation τ sig (Elt F)) : W8 V0 (Proc.devRef .tc main_arg5) = V0 (Proc.devRef .tc main_arg5) :=
  W8_keep V0 (by decide) (by decide) (by decide) (by decide) (by decide) (by decide) (by decide) (by decide)
theorem W8_main_arg6 (V0 : Valuation τ sig (Elt F)) : W8 V0 (Proc.devRef .tc main_arg6) = V0 (Proc.devRef .tc main_arg6) :=
  W8_keep V0 (by decide) (by decide) (by decide) (by decide) (by decide) (by decide) (by decide) (by decide)
theorem W8_main_arg7 (V0 : Valuation τ sig (Elt F)) : W8 V0 (Proc.devRef .tc main_arg7) = V0 (Proc.devRef .tc main_arg7) :=
  W8_keep V0 (by decide) (by decide) (by decide) (by decide) (by decide) (by decide) (by decide) (by decide)
theorem W8_main_arg8 (V0 : Valuation τ sig (Elt F)) : W8 V0 (Proc.devRef .tc main_arg8) = V0 (Proc.devRef .tc main_arg8) :=
  W8_keep V0 (by decide) (by decide) (by decide) (by decide) (by decide) (by decide) (by decide) (by decide)
theorem W8_main_arg9 (V0 : Valuation τ sig (Elt F)) : W8 V0 (Proc.devRef .tc main_arg9) = V0 (Proc.devRef .tc main_arg9) :=
  W8_keep V0 (by decide) (by decide) (by decide) (by decide) (by decide) (by decide) (by decide) (by decide)
theorem W8_main_arg10 (V0 : Valuation τ sig (Elt F)) : W8 V0 (Proc.devRef .tc main_arg10) = V0 (Proc.devRef .tc main_arg10) :=
  W8_keep V0 (by decide) (by decide) (by decide) (by decide) (by decide) (by decide) (by decide) (by decide)
theorem W8_main_arg11 (V0 : Valuation τ sig (Elt F)) : W8 V0 (Proc.devRef .tc main_arg11) = V0 (Proc.devRef .tc main_arg11) :=
  W8_keep V0 (by decide) (by decide) (by decide) (by decide) (by decide) (by decide) (by decide) (by decide)
theorem W8_main_arg12 (V0 : Valuation τ sig (Elt F)) : W8 V0 (Proc.devRef .tc main_arg12) = V0 (Proc.devRef .tc main_arg12) :=
  W8_keep V0 (by decide) (by decide) (by decide) (by decide) (by decide) (by decide) (by decide) (by decide)
theorem W8_main_arg13 (V0 : Valuation τ sig (Elt F)) : W8 V0 (Proc.devRef .tc main_arg13) = V0 (Proc.devRef .tc main_arg13) :=
  W8_keep V0 (by decide) (by decide) (by decide) (by decide) (by decide) (by decide) (by decide) (by decide)
theorem W8_main_arg14 (V0 : Valuation τ sig (Elt F)) : W8 V0 (Proc.devRef .tc main_arg14) = V0 (Proc.devRef .tc main_arg14) :=
  W8_keep V0 (by decide) (by decide) (by decide) (by decide) (by decide) (by decide) (by decide) (by decide)

/-- The unfolding equations of the lines and of the valuations at the cuts, stated here once for every text that
    unfolds one of them. -/
theorem unfoldings_stated : True := by
  have := @ops_part0.eq_1; have := @ops_part1.eq_1; have := @ops_part2.eq_1; have := @ops_part3.eq_1
  have := @ops_part4.eq_1; have := @ops_part5.eq_1; have := @ops_part6.eq_1; have := @ops_part7.eq_1
  have := @ops.eq_1
  have := @W0.eq_1; have := @W1.eq_1; have := @W2.eq_1; have := @W3.eq_1; have := @W4.eq_1
  have := @W5.eq_1; have := @W6.eq_1; have := @W7.eq_1; have := @W8.eq_1
  trivial

/-! ## The run -/

/-- On every device, for any float values, from any memory with zero counters: every weakly fair execution of
    @main terminates with the two results at the final valuation of the launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v309) = W8 (fun b => m (c, b)) (Proc.devRef .tc main_v309)
      ∧ r.2.mem ((c.tc : Thread nD τ).loc main_v319) = W8 (fun b => m (c, b)) (Proc.devRef .tc main_v319)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
      ⟨(h c main_v309).trans (congrFun (after_ops _) _), (h c main_v319).trans (congrFun (after_ops _) _),
       (h c main_arg0).trans ((congrFun (after_ops _) _).trans (W8_main_arg0 _)),
       (h c main_arg1).trans ((congrFun (after_ops _) _).trans (W8_main_arg1 _)),
       (h c main_arg2).trans ((congrFun (after_ops _) _).trans (W8_main_arg2 _)),
       (h c main_arg3).trans ((congrFun (after_ops _) _).trans (W8_main_arg3 _)),
       (h c main_arg4).trans ((congrFun (after_ops _) _).trans (W8_main_arg4 _)),
       (h c main_arg5).trans ((congrFun (after_ops _) _).trans (W8_main_arg5 _)),
       (h c main_arg6).trans ((congrFun (after_ops _) _).trans (W8_main_arg6 _)),
       (h c main_arg7).trans ((congrFun (after_ops _) _).trans (W8_main_arg7 _)),
       (h c main_arg8).trans ((congrFun (after_ops _) _).trans (W8_main_arg8 _)),
       (h c main_arg9).trans ((congrFun (after_ops _) _).trans (W8_main_arg9 _)),
       (h c main_arg10).trans ((congrFun (after_ops _) _).trans (W8_main_arg10 _)),
       (h c main_arg11).trans ((congrFun (after_ops _) _).trans (W8_main_arg11 _)),
       (h c main_arg12).trans ((congrFun (after_ops _) _).trans (W8_main_arg12 _)),
       (h c main_arg13).trans ((congrFun (after_ops _) _).trans (W8_main_arg13 _)),
       (h c main_arg14).trans ((congrFun (after_ops _) _).trans (W8_main_arg14 _))⟩)
    (run_seq scopedRefs_eq scopedSems_eq defs main (fun _ => ops) main_eq (fun _ => ops_sub) m ρ (fun _ => ops_fresh))

/-- The run with the results dropped: the arguments unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => (h c).2.2) (run m ρ)

end Cert.RefRun

end
-- ==== Proof.Glue.lean ====
import proofs.«158944_j64613488001249_1_alg».proof.Defs
import proofs.«158944_j64613488001249_1_alg».proof.Proof.Gen.Kernel
import proofs.«158944_j64613488001249_1_alg».proof.Proof.Gen.KernelIdeal
import proofs.«158944_j64613488001249_1_alg».proof.Proof.Gen.ReferenceIdeal
import proofs.«158944_j64613488001249_1_alg».proof.Proof.Gen.Pre_finite_inputs
import proofs.«158944_j64613488001249_1_alg».proof.Proof.Spec
import proofs.«158944_j64613488001249_1_alg».proof.Proof.RefRun
import Idealize.ShloMosaic.Lib.Pipeline.Frame

/-! The claim from its pieces. Each program's run is known in the form "every unscoped buffer ends at a
valuation": the kernel programs' from their chains of regions, the reference's from its line of operations.
Here the five conjuncts are read off such runs: an argument is unchanged because the last valuation holds it
as launched; the two results of the kernel program and of the reference are one pair of values because both
last valuations hold, at the result buffers, the same named functions of the arguments, and the two memories
agree on the arguments. -/

noncomputable section

namespace Cert.Glue

open Idealize.ShloMosaic Idealize.ShloMosaic.TcCoe Idealize.SL.Sem

/-! ## Cert.Kernel: the arguments unchanged, read off a run that leaves every unscoped buffer at a valuation -/

/-- The valuations hold each argument of Cert.Kernel as the memory launched it. -/
def KeptK (m : (ℓ : Loc Cert.Kernel.nD Cert.Kernel.τ Cert.Kernel.sig) → Buf (Elt Bits) ℓ)
    (U : Dev Cert.Kernel.nD → Valuation Cert.Kernel.τ Cert.Kernel.sig (Elt Bits)) : Prop :=
  ∀ c : Dev Cert.Kernel.nD,
    U c (Proc.devRef .tc Cert.Kernel.main_arg0) = m ((c.tc : Thread Cert.Kernel.nD Cert.Kernel.τ).loc Cert.Kernel.main_arg0)
    ∧ U c (Proc.devRef .tc Cert.Kernel.main_arg1) = m ((c.tc : Thread Cert.Kernel.nD Cert.Kernel.τ).loc Cert.Kernel.main_arg1)
    ∧ U c (Proc.devRef .tc Cert.Kernel.main_arg2) = m ((c.tc : Thread Cert.Kernel.nD Cert.Kernel.τ).loc Cert.Kernel.main_arg2)
    ∧ U c (Proc.devRef .tc Cert.Kernel.main_arg3) = m ((c.tc : Thread Cert.Kernel.nD Cert.Kernel.τ).loc Cert.Kernel.main_arg3)
    ∧ U c (Proc.devRef .tc Cert.Kernel.main_arg4) = m ((c.tc : Thread Cert.Kernel.nD Cert.Kernel.τ).loc Cert.Kernel.main_arg4)
    ∧ U c (Proc.devRef .tc Cert.Kernel.main_arg5) = m ((c.tc : Thread Cert.Kernel.nD Cert.Kernel.τ).loc Cert.Kernel.main_arg5)
    ∧ U c (Proc.devRef .tc Cert.Kernel.main_arg6) = m ((c.tc : Thread Cert.Kernel.nD Cert.Kernel.τ).loc Cert.Kernel.main_arg6)
    ∧ U c (Proc.devRef .tc Cert.Kernel.main_arg7) = m ((c.tc : Thread Cert.Kernel.nD Cert.Kernel.τ).loc Cert.Kernel.main_arg7)
    ∧ U c (Proc.devRef .tc Cert.Kernel.main_arg8) = m ((c.tc : Thread Cert.Kernel.nD Cert.Kernel.τ).loc Cert.Kernel.main_arg8)
    ∧ U c (Proc.devRef .tc Cert.Kernel.main_arg9) = m ((c.tc : Thread Cert.Kernel.nD Cert.Kernel.τ).loc Cert.Kernel.main_arg9)
    ∧ U c (Proc.devRef .tc Cert.Kernel.main_arg10) = m ((c.tc : Thread Cert.Kernel.nD Cert.Kernel.τ).loc Cert.Kernel.main_arg10)
    ∧ U c (Proc.devRef .tc Cert.Kernel.main_arg11) = m ((c.tc : Thread Cert.Kernel.nD Cert.Kernel.τ).loc Cert.Kernel.main_arg11)
    ∧ U c (Proc.devRef .tc Cert.Kernel.main_arg12) = m ((c.tc : Thread Cert.Kernel.nD Cert.Kernel.τ).loc Cert.Kernel.main_arg12)
    ∧ U c (Proc.devRef .tc Cert.Kernel.main_arg13) = m ((c.tc : Thread Cert.Kernel.nD Cert.Kernel.τ).loc Cert.Kernel.main_arg13)
    ∧ U c (Proc.devRef .tc Cert.Kernel.main_arg14) = m ((c.tc : Thread Cert.Kernel.nD Cert.Kernel.τ).loc Cert.Kernel.main_arg14)

/-- A run that ends with every unscoped buffer at valuations that keep the arguments is a run that leaves the
    arguments unchanged. -/
theorem frameK_of (m : (ℓ : Loc Cert.Kernel.nD Cert.Kernel.τ Cert.Kernel.sig) → Buf (Elt Bits) ℓ) (ρ : Dev Cert.Kernel.nD → PrngReg)
    (U : Dev Cert.Kernel.nD → Valuation Cert.Kernel.τ Cert.Kernel.sig (Elt Bits))
    (hrun : θ_run (Cert.Kernel.defs (F := Bits)) (onTc (τ := Cert.Kernel.τ) (Cert.Kernel.main (F := Bits))) ⟨m, fun _ => 0, ρ⟩
      (fun r => ∀ c : Dev Cert.Kernel.nD, ∀ b ∈ Pipeline.ucRefs Cert.Kernel.τ Cert.Kernel.sig, r.2.mem ((c : Thread Cert.Kernel.nD Cert.Kernel.τ).1, b) = U c b))
    (hk : KeptK m U) :
    θ_run (Cert.Kernel.defs (F := Bits)) (onTc (τ := Cert.Kernel.τ) (Cert.Kernel.main (F := Bits))) ⟨m, fun _ => 0, ρ⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)) :=
  (θ_run _ _ _).mono (fun _ h c =>
    ⟨(h c (Proc.devRef .tc Cert.Kernel.main_arg0) (Finset.mem_filter.mpr ⟨StableHlo.devRef_mem_tcRefs Cert.Kernel.main_arg0, by decide⟩)).trans (hk c).1,
     (h c (Proc.devRef .tc Cert.Kernel.main_arg1) (Finset.mem_filter.mpr ⟨StableHlo.devRef_mem_tcRefs Cert.Kernel.main_arg1, by decide⟩)).trans (hk c).2.1,
     (h c (Proc.devRef .tc Cert.Kernel.main_arg2) (Finset.mem_filter.mpr ⟨StableHlo.devRef_mem_tcRefs Cert.Kernel.main_arg2, by decide⟩)).trans (hk c).2.2.1,
     (h c (Proc.devRef .tc Cert.Kernel.main_arg3) (Finset.mem_filter.mpr ⟨StableHlo.devRef_mem_tcRefs Cert.Kernel.main_arg3, by decide⟩)).trans (hk c).2.2.2.1,
     (h c (Proc.devRef .tc Cert.Kernel.main_arg4) (Finset.mem_filter.mpr ⟨StableHlo.devRef_mem_tcRefs Cert.Kernel.main_arg4, by decide⟩)).trans (hk c).2.2.2.2.1,
     (h c (Proc.devRef .tc Cert.Kernel.main_arg5) (Finset.mem_filter.mpr ⟨StableHlo.devRef_mem_tcRefs Cert.Kernel.main_arg5, by decide⟩)).trans (hk c).2.2.2.2.2.1,
     (h c (Proc.devRef .tc Cert.Kernel.main_arg6) (Finset.mem_filter.mpr ⟨StableHlo.devRef_mem_tcRefs Cert.Kernel.main_arg6, by decide⟩)).trans (hk c).2.2.2.2.2.2.1,
     (h c (Proc.devRef .tc Cert.Kernel.main_arg7) (Finset.mem_filter.mpr ⟨StableHlo.devRef_mem_tcRefs Cert.Kernel.main_arg7, by decide⟩)).trans (hk c).2.2.2.2.2.2.2.1,
     (h c (Proc.devRef .tc Cert.Kernel.main_arg8) (Finset.mem_filter.mpr ⟨StableHlo.devRef_mem_tcRefs Cert.Kernel.main_arg8, by decide⟩)).trans (hk c).2.2.2.2.2.2.2.2.1,
     (h c (Proc.devRef .tc Cert.Kernel.main_arg9) (Finset.mem_filter.mpr ⟨StableHlo.devRef_mem_tcRefs Cert.Kernel.main_arg9, by decide⟩)).trans (hk c).2.2.2.2.2.2.2.2.2.1,
     (h c (Proc.devRef .tc Cert.Kernel.main_arg10) (Finset.mem_filter.mpr ⟨StableHlo.devRef_mem_tcRefs Cert.Kernel.main_arg10, by decide⟩)).trans (hk c).2.2.2.2.2.2.2.2.2.2.1,
     (h c (Proc.devRef .tc Cert.Kernel.main_arg11) (Finset.mem_filter.mpr ⟨StableHlo.devRef_mem_tcRefs Cert.Kernel.main_arg11, by decide⟩)).trans (hk c).2.2.2.2.2.2.2.2.2.2.2.1,
     (h c (Proc.devRef .tc Cert.Kernel.main_arg12) (Finset.mem_filter.mpr ⟨StableHlo.devRef_mem_tcRefs Cert.Kernel.main_arg12, by decide⟩)).trans (hk c).2.2.2.2.2.2.2.2.2.2.2.2.1,
     (h c (Proc.devRef .tc Cert.Kernel.main_arg13) (Finset.mem_filter.mpr ⟨StableHlo.devRef_mem_tcRefs Cert.Kernel.main_arg13, by decide⟩)).trans (hk c).2.2.2.2.2.2.2.2.2.2.2.2.2.1,
     (h c (Proc.devRef .tc Cert.Kernel.main_arg14) (Finset.mem_filter.mpr ⟨StableHlo.devRef_mem_tcRefs Cert.Kernel.main_arg14, by decide⟩)).trans (hk c).2.2.2.2.2.2.2.2.2.2.2.2.2.2⟩) hrun

/-! ## Cert.KernelIdeal: the arguments unchanged, read off a run that leaves every unscoped buffer at a valuation -/

/-- The valuations hold each argument of Cert.KernelIdeal as the memory launched it. -/
def KeptKI (m : (ℓ : Loc Cert.KernelIdeal.nD Cert.KernelIdeal.τ Cert.KernelIdeal.sig) → Buf (Elt Ideal) ℓ)
    (U : Dev Cert.KernelIdeal.nD → Valuation Cert.KernelIdeal.τ Cert.KernelIdeal.sig (Elt Ideal)) : Prop :=
  ∀ c : Dev Cert.KernelIdeal.nD,
    U c (Proc.devRef .tc Cert.KernelIdeal.main_arg0) = m ((c.tc : Thread Cert.KernelIdeal.nD Cert.KernelIdeal.τ).loc Cert.KernelIdeal.main_arg0)
    ∧ U c (Proc.devRef .tc Cert.KernelIdeal.main_arg1) = m ((c.tc : Thread Cert.KernelIdeal.nD Cert.KernelIdeal.τ).loc Cert.KernelIdeal.main_arg1)
    ∧ U c (Proc.devRef .tc Cert.KernelIdeal.main_arg2) = m ((c.tc : Thread Cert.KernelIdeal.nD Cert.KernelIdeal.τ).loc Cert.KernelIdeal.main_arg2)
    ∧ U c (Proc.devRef .tc Cert.KernelIdeal.main_arg3) = m ((c.tc : Thread Cert.KernelIdeal.nD Cert.KernelIdeal.τ).loc Cert.KernelIdeal.main_arg3)
    ∧ U c (Proc.devRef .tc Cert.KernelIdeal.main_arg4) = m ((c.tc : Thread Cert.KernelIdeal.nD Cert.KernelIdeal.τ).loc Cert.KernelIdeal.main_arg4)
    ∧ U c (Proc.devRef .tc Cert.KernelIdeal.main_arg5) = m ((c.tc : Thread Cert.KernelIdeal.nD Cert.KernelIdeal.τ).loc Cert.KernelIdeal.main_arg5)
    ∧ U c (Proc.devRef .tc Cert.KernelIdeal.main_arg6) = m ((c.tc : Thread Cert.KernelIdeal.nD Cert.KernelIdeal.τ).loc Cert.KernelIdeal.main_arg6)
    ∧ U c (Proc.devRef .tc Cert.KernelIdeal.main_arg7) = m ((c.tc : Thread Cert.KernelIdeal.nD Cert.KernelIdeal.τ).loc Cert.KernelIdeal.main_arg7)
    ∧ U c (Proc.devRef .tc Cert.KernelIdeal.main_arg8) = m ((c.tc : Thread Cert.KernelIdeal.nD Cert.KernelIdeal.τ).loc Cert.KernelIdeal.main_arg8)
    ∧ U c (Proc.devRef .tc Cert.KernelIdeal.main_arg9) = m ((c.tc : Thread Cert.KernelIdeal.nD Cert.KernelIdeal.τ).loc Cert.KernelIdeal.main_arg9)
    ∧ U c (Proc.devRef .tc Cert.KernelIdeal.main_arg10) = m ((c.tc : Thread Cert.KernelIdeal.nD Cert.KernelIdeal.τ).loc Cert.KernelIdeal.main_arg10)
    ∧ U c (Proc.devRef .tc Cert.KernelIdeal.main_arg11) = m ((c.tc : Thread Cert.KernelIdeal.nD Cert.KernelIdeal.τ).loc Cert.KernelIdeal.main_arg11)
    ∧ U c (Proc.devRef .tc Cert.KernelIdeal.main_arg12) = m ((c.tc : Thread Cert.KernelIdeal.nD Cert.KernelIdeal.τ).loc Cert.KernelIdeal.main_arg12)
    ∧ U c (Proc.devRef .tc Cert.KernelIdeal.main_arg13) = m ((c.tc : Thread Cert.KernelIdeal.nD Cert.KernelIdeal.τ).loc Cert.KernelIdeal.main_arg13)
    ∧ U c (Proc.devRef .tc Cert.KernelIdeal.main_arg14) = m ((c.tc : Thread Cert.KernelIdeal.nD Cert.KernelIdeal.τ).loc Cert.KernelIdeal.main_arg14)

/-- A run that ends with every unscoped buffer at valuations that keep the arguments is a run that leaves the
    arguments unchanged. -/
theorem frameKI_of (m : (ℓ : Loc Cert.KernelIdeal.nD Cert.KernelIdeal.τ Cert.KernelIdeal.sig) → Buf (Elt Ideal) ℓ) (ρ : Dev Cert.KernelIdeal.nD → PrngReg)
    (U : Dev Cert.KernelIdeal.nD → Valuation Cert.KernelIdeal.τ Cert.KernelIdeal.sig (Elt Ideal))
    (hrun : θ_run (Cert.KernelIdeal.defs (F := Ideal)) (onTc (τ := Cert.KernelIdeal.τ) (Cert.KernelIdeal.main (F := Ideal))) ⟨m, fun _ => 0, ρ⟩
      (fun r => ∀ c : Dev Cert.KernelIdeal.nD, ∀ b ∈ Pipeline.ucRefs Cert.KernelIdeal.τ Cert.KernelIdeal.sig, r.2.mem ((c : Thread Cert.KernelIdeal.nD Cert.KernelIdeal.τ).1, b) = U c b))
    (hk : KeptKI m U) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)) :=
  (θ_run _ _ _).mono (fun _ h c =>
    ⟨(h c (Proc.devRef .tc Cert.KernelIdeal.main_arg0) (Finset.mem_filter.mpr ⟨StableHlo.devRef_mem_tcRefs Cert.KernelIdeal.main_arg0, by decide⟩)).trans (hk c).1,
     (h c (Proc.devRef .tc Cert.KernelIdeal.main_arg1) (Finset.mem_filter.mpr ⟨StableHlo.devRef_mem_tcRefs Cert.KernelIdeal.main_arg1, by decide⟩)).trans (hk c).2.1,
     (h c (Proc.devRef .tc Cert.KernelIdeal.main_arg2) (Finset.mem_filter.mpr ⟨StableHlo.devRef_mem_tcRefs Cert.KernelIdeal.main_arg2, by decide⟩)).trans (hk c).2.2.1,
     (h c (Proc.devRef .tc Cert.KernelIdeal.main_arg3) (Finset.mem_filter.mpr ⟨StableHlo.devRef_mem_tcRefs Cert.KernelIdeal.main_arg3, by decide⟩)).trans (hk c).2.2.2.1,
     (h c (Proc.devRef .tc Cert.KernelIdeal.main_arg4) (Finset.mem_filter.mpr ⟨StableHlo.devRef_mem_tcRefs Cert.KernelIdeal.main_arg4, by decide⟩)).trans (hk c).2.2.2.2.1,
     (h c (Proc.devRef .tc Cert.KernelIdeal.main_arg5) (Finset.mem_filter.mpr ⟨StableHlo.devRef_mem_tcRefs Cert.KernelIdeal.main_arg5, by decide⟩)).trans (hk c).2.2.2.2.2.1,
     (h c (Proc.devRef .tc Cert.KernelIdeal.main_arg6) (Finset.mem_filter.mpr ⟨StableHlo.devRef_mem_tcRefs Cert.KernelIdeal.main_arg6, by decide⟩)).trans (hk c).2.2.2.2.2.2.1,
     (h c (Proc.devRef .tc Cert.KernelIdeal.main_arg7) (Finset.mem_filter.mpr ⟨StableHlo.devRef_mem_tcRefs Cert.KernelIdeal.main_arg7, by decide⟩)).trans (hk c).2.2.2.2.2.2.2.1,
     (h c (Proc.devRef .tc Cert.KernelIdeal.main_arg8) (Finset.mem_filter.mpr ⟨StableHlo.devRef_mem_tcRefs Cert.KernelIdeal.main_arg8, by decide⟩)).trans (hk c).2.2.2.2.2.2.2.2.1,
     (h c (Proc.devRef .tc Cert.KernelIdeal.main_arg9) (Finset.mem_filter.mpr ⟨StableHlo.devRef_mem_tcRefs Cert.KernelIdeal.main_arg9, by decide⟩)).trans (hk c).2.2.2.2.2.2.2.2.2.1,
     (h c (Proc.devRef .tc Cert.KernelIdeal.main_arg10) (Finset.mem_filter.mpr ⟨StableHlo.devRef_mem_tcRefs Cert.KernelIdeal.main_arg10, by decide⟩)).trans (hk c).2.2.2.2.2.2.2.2.2.2.1,
     (h c (Proc.devRef .tc Cert.KernelIdeal.main_arg11) (Finset.mem_filter.mpr ⟨StableHlo.devRef_mem_tcRefs Cert.KernelIdeal.main_arg11, by decide⟩)).trans (hk c).2.2.2.2.2.2.2.2.2.2.2.1,
     (h c (Proc.devRef .tc Cert.KernelIdeal.main_arg12) (Finset.mem_filter.mpr ⟨StableHlo.devRef_mem_tcRefs Cert.KernelIdeal.main_arg12, by decide⟩)).trans (hk c).2.2.2.2.2.2.2.2.2.2.2.2.1,
     (h c (Proc.devRef .tc Cert.KernelIdeal.main_arg13) (Finset.mem_filter.mpr ⟨StableHlo.devRef_mem_tcRefs Cert.KernelIdeal.main_arg13, by decide⟩)).trans (hk c).2.2.2.2.2.2.2.2.2.2.2.2.2.1,
     (h c (Proc.devRef .tc Cert.KernelIdeal.main_arg14) (Finset.mem_filter.mpr ⟨StableHlo.devRef_mem_tcRefs Cert.KernelIdeal.main_arg14, by decide⟩)).trans (hk c).2.2.2.2.2.2.2.2.2.2.2.2.2.2⟩) hrun

/-! ## The arguments as the specification takes them -/

/-- The fifteen argument arrays of the kernel program, as core `c`'s memory holds them. -/
def argsKI (m : (ℓ : Loc Cert.KernelIdeal.nD Cert.KernelIdeal.τ Cert.KernelIdeal.sig) → Buf (Elt Ideal) ℓ) (c : Dev Cert.KernelIdeal.nD) : Cert.Spec.Args Ideal where
  x := m ((c.tc : Thread Cert.KernelIdeal.nD Cert.KernelIdeal.τ).loc Cert.KernelIdeal.main_arg0)
  U := m ((c.tc : Thread Cert.KernelIdeal.nD Cert.KernelIdeal.τ).loc Cert.KernelIdeal.main_arg1)
  S := m ((c.tc : Thread Cert.KernelIdeal.nD Cert.KernelIdeal.τ).loc Cert.KernelIdeal.main_arg2)
  Vh := m ((c.tc : Thread Cert.KernelIdeal.nD Cert.KernelIdeal.τ).loc Cert.KernelIdeal.main_arg3)
  snl := m ((c.tc : Thread Cert.KernelIdeal.nD Cert.KernelIdeal.τ).loc Cert.KernelIdeal.main_arg4)
  enc_w := m ((c.tc : Thread Cert.KernelIdeal.nD Cert.KernelIdeal.τ).loc Cert.KernelIdeal.main_arg5)
  enc_b := m ((c.tc : Thread Cert.KernelIdeal.nD Cert.KernelIdeal.τ).loc Cert.KernelIdeal.main_arg6)
  W := m ((c.tc : Thread Cert.KernelIdeal.nD Cert.KernelIdeal.τ).loc Cert.KernelIdeal.main_arg7)
  dec_w0 := m ((c.tc : Thread Cert.KernelIdeal.nD Cert.KernelIdeal.τ).loc Cert.KernelIdeal.main_arg8)
  dec_b0 := m ((c.tc : Thread Cert.KernelIdeal.nD Cert.KernelIdeal.τ).loc Cert.KernelIdeal.main_arg9)
  dec_w1 := m ((c.tc : Thread Cert.KernelIdeal.nD Cert.KernelIdeal.τ).loc Cert.KernelIdeal.main_arg10)
  dec_b1 := m ((c.tc : Thread Cert.KernelIdeal.nD Cert.KernelIdeal.τ).loc Cert.KernelIdeal.main_arg11)
  shift := m ((c.tc : Thread Cert.KernelIdeal.nD Cert.KernelIdeal.τ).loc Cert.KernelIdeal.main_arg12)
  expo := m ((c.tc : Thread Cert.KernelIdeal.nD Cert.KernelIdeal.τ).loc Cert.KernelIdeal.main_arg13)
  step := m ((c.tc : Thread Cert.KernelIdeal.nD Cert.KernelIdeal.τ).loc Cert.KernelIdeal.main_arg14)

/-- The fifteen argument arrays of the reference, as core `c`'s memory holds them. -/
def argsR (m : (ℓ : Loc Cert.ReferenceIdeal.nD Cert.ReferenceIdeal.τ Cert.ReferenceIdeal.sig) → Buf (Elt Ideal) ℓ) (c : Dev Cert.ReferenceIdeal.nD) : Cert.Spec.Args Ideal where
  x := m ((c.tc : Thread Cert.ReferenceIdeal.nD Cert.ReferenceIdeal.τ).loc Cert.ReferenceIdeal.main_arg0)
  U := m ((c.tc : Thread Cert.ReferenceIdeal.nD Cert.ReferenceIdeal.τ).loc Cert.ReferenceIdeal.main_arg1)
  S := m ((c.tc : Thread Cert.ReferenceIdeal.nD Cert.ReferenceIdeal.τ).loc Cert.ReferenceIdeal.main_arg2)
  Vh := m ((c.tc : Thread Cert.ReferenceIdeal.nD Cert.ReferenceIdeal.τ).loc Cert.ReferenceIdeal.main_arg3)
  snl := m ((c.tc : Thread Cert.ReferenceIdeal.nD Cert.ReferenceIdeal.τ).loc Cert.ReferenceIdeal.main_arg4)
  enc_w := m ((c.tc : Thread Cert.ReferenceIdeal.nD Cert.ReferenceIdeal.τ).loc Cert.ReferenceIdeal.main_arg5)
  enc_b := m ((c.tc : Thread Cert.ReferenceIdeal.nD Cert.ReferenceIdeal.τ).loc Cert.ReferenceIdeal.main_arg6)
  W := m ((c.tc : Thread Cert.ReferenceIdeal.nD Cert.ReferenceIdeal.τ).loc Cert.ReferenceIdeal.main_arg7)
  dec_w0 := m ((c.tc : Thread Cert.ReferenceIdeal.nD Cert.ReferenceIdeal.τ).loc Cert.ReferenceIdeal.main_arg8)
  dec_b0 := m ((c.tc : Thread Cert.ReferenceIdeal.nD Cert.ReferenceIdeal.τ).loc Cert.ReferenceIdeal.main_arg9)
  dec_w1 := m ((c.tc : Thread Cert.ReferenceIdeal.nD Cert.ReferenceIdeal.τ).loc Cert.ReferenceIdeal.main_arg10)
  dec_b1 := m ((c.tc : Thread Cert.ReferenceIdeal.nD Cert.ReferenceIdeal.τ).loc Cert.ReferenceIdeal.main_arg11)
  shift := m ((c.tc : Thread Cert.ReferenceIdeal.nD Cert.ReferenceIdeal.τ).loc Cert.ReferenceIdeal.main_arg12)
  expo := m ((c.tc : Thread Cert.ReferenceIdeal.nD Cert.ReferenceIdeal.τ).loc Cert.ReferenceIdeal.main_arg13)
  step := m ((c.tc : Thread Cert.ReferenceIdeal.nD Cert.ReferenceIdeal.τ).loc Cert.ReferenceIdeal.main_arg14)

/-- Memories that agree on the arguments give the specification the same arrays. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    argsR m' c = argsKI m c := by
  obtain ⟨h0, h1, h2, h3, h4, h5, h6, h7, h8, h9, h10, h11, h12, h13, h14⟩ := h
  show Cert.Spec.Args.mk _ _ _ _ _ _ _ _ _ _ _ _ _ _ _ = Cert.Spec.Args.mk _ _ _ _ _ _ _ _ _ _ _ _ _ _ _
  rw [Cert.Spec.Args.mk.injEq]
  exact ⟨h0, h1, h2, h3, h4, h5, h6, h7, h8, h9, h10, h11, h12, h13, h14⟩

/-! ## The kernel program against the reference, at the ideal values -/

/-- Both programs end with their two results at the specification's functions of the arguments; on memories
    that agree on the arguments those are the same values. -/
theorem algebraic_of
    (U : ((ℓ : Loc Cert.KernelIdeal.nD Cert.KernelIdeal.τ Cert.KernelIdeal.sig) → Buf (Elt Ideal) ℓ) → Dev Cert.KernelIdeal.nD → Valuation Cert.KernelIdeal.τ Cert.KernelIdeal.sig (Elt Ideal))
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD, ∀ b ∈ Pipeline.ucRefs Cert.KernelIdeal.τ Cert.KernelIdeal.sig, r.2.mem ((c : Thread Cert.KernelIdeal.nD Cert.KernelIdeal.τ).1, b) = U m c b))
    (hk : ∀ m, KeptKI m (U m))
    (houtK : ∀ m c, U m c (Proc.devRef .tc Cert.KernelIdeal.main_v334) = Cert.Spec.outOf (argsKI m c))
    (hensK : ∀ m c, U m c (Proc.devRef .tc Cert.KernelIdeal.main_v344) = Cert.Spec.ensOf (argsKI m c))
    (hout : ∀ (m' : (ℓ : Loc Cert.ReferenceIdeal.nD Cert.ReferenceIdeal.τ Cert.ReferenceIdeal.sig) → Buf (Elt Ideal) ℓ) (c : Dev Cert.ReferenceIdeal.nD),
      Cert.RefRun.W_end (fun b => m' (c, b)) (Proc.devRef .tc Cert.ReferenceIdeal.main_v309) = Cert.Spec.outOf (argsR m' c))
    (hens : ∀ (m' : (ℓ : Loc Cert.ReferenceIdeal.nD Cert.ReferenceIdeal.τ Cert.ReferenceIdeal.sig) → Buf (Elt Ideal) ℓ) (c : Dev Cert.ReferenceIdeal.nD),
      Cert.RefRun.W_end (fun b => m' (c, b)) (Proc.devRef .tc Cert.ReferenceIdeal.main_v319) = Cert.Spec.ensOf (argsR m' c)) :
    Cert.algebraic_KernelIdeal_ReferenceIdeal := by
  intro m g m' g' _ hagree
  refine ⟨fun c => Cert.Spec.outOf (argsKI m c), fun c => Cert.Spec.ensOf (argsKI m c), ?_, ?_⟩
  · exact (θ_run _ _ _).mono (fun _ h c =>
      ⟨(h c (Proc.devRef .tc Cert.KernelIdeal.main_v334) (Finset.mem_filter.mpr ⟨StableHlo.devRef_mem_tcRefs Cert.KernelIdeal.main_v334, by decide⟩)).trans (houtK m c),
       (h c (Proc.devRef .tc Cert.KernelIdeal.main_v344) (Finset.mem_filter.mpr ⟨StableHlo.devRef_mem_tcRefs Cert.KernelIdeal.main_v344, by decide⟩)).trans (hensK m c),
       (h c (Proc.devRef .tc Cert.KernelIdeal.main_arg0) (Finset.mem_filter.mpr ⟨StableHlo.devRef_mem_tcRefs Cert.KernelIdeal.main_arg0, by decide⟩)).trans (hk m c).1,
       (h c (Proc.devRef .tc Cert.KernelIdeal.main_arg1) (Finset.mem_filter.mpr ⟨StableHlo.devRef_mem_tcRefs Cert.KernelIdeal.main_arg1, by decide⟩)).trans (hk m c).2.1,
       (h c (Proc.devRef .tc Cert.KernelIdeal.main_arg2) (Finset.mem_filter.mpr ⟨StableHlo.devRef_mem_tcRefs Cert.KernelIdeal.main_arg2, by decide⟩)).trans (hk m c).2.2.1,
       (h c (Proc.devRef .tc Cert.KernelIdeal.main_arg3) (Finset.mem_filter.mpr ⟨StableHlo.devRef_mem_tcRefs Cert.KernelIdeal.main_arg3, by decide⟩)).trans (hk m c).2.2.2.1,
       (h c (Proc.devRef .tc Cert.KernelIdeal.main_arg4) (Finset.mem_filter.mpr ⟨StableHlo.devRef_mem_tcRefs Cert.KernelIdeal.main_arg4, by decide⟩)).trans (hk m c).2.2.2.2.1,
       (h c (Proc.devRef .tc Cert.KernelIdeal.main_arg5) (Finset.mem_filter.mpr ⟨StableHlo.devRef_mem_tcRefs Cert.KernelIdeal.main_arg5, by decide⟩)).trans (hk m c).2.2.2.2.2.1,
       (h c (Proc.devRef .tc Cert.KernelIdeal.main_arg6) (Finset.mem_filter.mpr ⟨StableHlo.devRef_mem_tcRefs Cert.KernelIdeal.main_arg6, by decide⟩)).trans (hk m c).2.2.2.2.2.2.1,
       (h c (Proc.devRef .tc Cert.KernelIdeal.main_arg7) (Finset.mem_filter.mpr ⟨StableHlo.devRef_mem_tcRefs Cert.KernelIdeal.main_arg7, by decide⟩)).trans (hk m c).2.2.2.2.2.2.2.1,
       (h c (Proc.devRef .tc Cert.KernelIdeal.main_arg8) (Finset.mem_filter.mpr ⟨StableHlo.devRef_mem_tcRefs Cert.KernelIdeal.main_arg8, by decide⟩)).trans (hk m c).2.2.2.2.2.2.2.2.1,
       (h c (Proc.devRef .tc Cert.KernelIdeal.main_arg9) (Finset.mem_filter.mpr ⟨StableHlo.devRef_mem_tcRefs Cert.KernelIdeal.main_arg9, by decide⟩)).trans (hk m c).2.2.2.2.2.2.2.2.2.1,
       (h c (Proc.devRef .tc Cert.KernelIdeal.main_arg10) (Finset.mem_filter.mpr ⟨StableHlo.devRef_mem_tcRefs Cert.KernelIdeal.main_arg10, by decide⟩)).trans (hk m c).2.2.2.2.2.2.2.2.2.2.1,
       (h c (Proc.devRef .tc Cert.KernelIdeal.main_arg11) (Finset.mem_filter.mpr ⟨StableHlo.devRef_mem_tcRefs Cert.KernelIdeal.main_arg11, by decide⟩)).trans (hk m c).2.2.2.2.2.2.2.2.2.2.2.1,
       (h c (Proc.devRef .tc Cert.KernelIdeal.main_arg12) (Finset.mem_filter.mpr ⟨StableHlo.devRef_mem_tcRefs Cert.KernelIdeal.main_arg12, by decide⟩)).trans (hk m c).2.2.2.2.2.2.2.2.2.2.2.2.1,
       (h c (Proc.devRef .tc Cert.KernelIdeal.main_arg13) (Finset.mem_filter.mpr ⟨StableHlo.devRef_mem_tcRefs Cert.KernelIdeal.main_arg13, by decide⟩)).trans (hk m c).2.2.2.2.2.2.2.2.2.2.2.2.2.1,
       (h c (Proc.devRef .tc Cert.KernelIdeal.main_arg14) (Finset.mem_filter.mpr ⟨StableHlo.devRef_mem_tcRefs Cert.KernelIdeal.main_arg14, by decide⟩)).trans (hk m c).2.2.2.2.2.2.2.2.2.2.2.2.2.2⟩) (hrun m g)
  · exact (θ_run _ _ _).mono (fun _ h c =>
      ⟨(h c).1.trans ((hout m' c).trans (congrArg Cert.Spec.outOf (args_agree m m' c (hagree c)))),
       (h c).2.1.trans ((hens m' c).trans (congrArg Cert.Spec.ensOf (args_agree m m' c (hagree c)))),
       (h c).2.2⟩) (Cert.RefRun.run (F := Ideal) m' g')

/-! ## The claim -/

/-- The five conjuncts from the three programs' runs. -/
theorem claim_of
    (UK : ((ℓ : Loc Cert.Kernel.nD Cert.Kernel.τ Cert.Kernel.sig) → Buf (Elt Bits) ℓ) → Dev Cert.Kernel.nD → Valuation Cert.Kernel.τ Cert.Kernel.sig (Elt Bits))
    (hrunK : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩
        (fun r => ∀ c : Dev Cert.Kernel.nD, ∀ b ∈ Pipeline.ucRefs Cert.Kernel.τ Cert.Kernel.sig, r.2.mem ((c : Thread Cert.Kernel.nD Cert.Kernel.τ).1, b) = UK m c b))
    (hkK : ∀ m, KeptK m (UK m))
    (U : ((ℓ : Loc Cert.KernelIdeal.nD Cert.KernelIdeal.τ Cert.KernelIdeal.sig) → Buf (Elt Ideal) ℓ) → Dev Cert.KernelIdeal.nD → Valuation Cert.KernelIdeal.τ Cert.KernelIdeal.sig (Elt Ideal))
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD, ∀ b ∈ Pipeline.ucRefs Cert.KernelIdeal.τ Cert.KernelIdeal.sig, r.2.mem ((c : Thread Cert.KernelIdeal.nD Cert.KernelIdeal.τ).1, b) = U m c b))
    (hk : ∀ m, KeptKI m (U m))
    (houtK : ∀ m c, U m c (Proc.devRef .tc Cert.KernelIdeal.main_v334) = Cert.Spec.outOf (argsKI m c))
    (hensK : ∀ m c, U m c (Proc.devRef .tc Cert.KernelIdeal.main_v344) = Cert.Spec.ensOf (argsKI m c))
    (hout : ∀ (m' : (ℓ : Loc Cert.ReferenceIdeal.nD Cert.ReferenceIdeal.τ Cert.ReferenceIdeal.sig) → Buf (Elt Ideal) ℓ) (c : Dev Cert.ReferenceIdeal.nD),
      Cert.RefRun.W_end (fun b => m' (c, b)) (Proc.devRef .tc Cert.ReferenceIdeal.main_v309) = Cert.Spec.outOf (argsR m' c))
    (hens : ∀ (m' : (ℓ : Loc Cert.ReferenceIdeal.nD Cert.ReferenceIdeal.τ Cert.ReferenceIdeal.sig) → Buf (Elt Ideal) ℓ) (c : Dev Cert.ReferenceIdeal.nD),
      Cert.RefRun.W_end (fun b => m' (c, b)) (Proc.devRef .tc Cert.ReferenceIdeal.main_v319) = Cert.Spec.ensOf (argsR m' c)) :
    Cert.Claim :=
  ⟨Cert.Kernel.Gen.facts, Cert.KernelIdeal.Gen.facts, Cert.ReferenceIdeal.Gen.facts, Cert.Pre_finite_inputs.Gen.facts,
    fun m ρ _ => frameK_of m ρ (UK m) (hrunK m ρ) (hkK m),
    fun m ρ _ => frameKI_of m ρ (U m) (hrun m ρ) (hk m),
    fun m ρ _ => Cert.RefRun.frame (F := Ideal) m ρ,
    trivial,
    algebraic_of U hrun hk houtK hensK hout hens⟩

end Cert.Glue

end
-- ==== Proof.RegK0a.lean ====
/- Laid out by: python3 scratch/layout_grid41.py --template-region 0 --region 0 --program Kernel --parts a,
   from the hand-written text of region 0 (RegKI0a.lean): the same text, the region's number and the program's namespace substituted. -/
/- The region of Kernel's @main that runs `cc0__matmul_kernel` (pipeline `cfg0`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond0_0 (i : grid0.Coords) : Prop :=
  (Scalar.cmpi .ne (Scalar.extui (Scalar.cmpi .eq (BitVec.ofNat 32 (i 1).val) 0#32)) 0#32) = 1#1
/-- True at every point: the reduction axis has one step. -/
theorem hcond0_0 : ∀ t : Fin cfg0.N, cond0_0 (grid0.coords t) :=
  (by decide +kernel : ∀ t : Fin grid0.N, cond0_0 (grid0.coords t))

/-- "This is the last reduction step" (the guard of the copy to the output block). -/
abbrev cond0_1 (i : grid0.Coords) : Prop := k0_cond2 i = 1#1
/-- True at every point, for the same reason. -/
theorem hcond0_1 : ∀ t : Fin cfg0.N, cond0_1 (grid0.coords t) :=
  (by decide +kernel : ∀ t : Fin grid0.N, cond0_1 (grid0.coords t))

/-! ## No window is idle anywhere -/

theorem liveAt0_0 : ∀ t : Fin cfg0.N, cfg0.idle 0 (grid0.coords t) = false := by decide +kernel
theorem liveAt0_1 : ∀ t : Fin cfg0.N, cfg0.idle 1 (grid0.coords t) = false := by decide +kernel
/-- The output window is stored at every point (the copy's guard holds everywhere). -/
theorem liveAt0_2 : ∀ t : Fin cfg0.N, cfg0.idle 2 (grid0.coords t) = false := by decide +kernel

/-! ## The memrefs the body is called on -/

/-- One staging buffer of the output window, through which its contents are stated (any whole view of the shape reads the
    same pieces back the same way). -/
abbrev VO0_2 : View sig .tc .vmem S1024x512 .f32 := (Memref.whole cc0_stg2_0 : Memref sig .tc .vmem S1024x512 .f32).view
/-- Each window's current staging memref at point `t`, spelt as the pipeline passes it, with its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows. -/
abbrev scM0_0 : Memref sig .tc .vmem S1024x512 .f32 := Memref.whole cc0_scratch0
abbrev VS0_0 : View sig .tc .vmem S1024x512 .f32 := scM0_0.view

/-- The region invariant with the accumulator taken out of the scoped rest: the accumulator owned at some contents, every
    other scoped buffer unopened, and the generator register. -/
theorem PhiA0_eq (c : Dev nD) :
    (Pipeline.ΦA spec0 c : sProp 𝕄)
      = iprop(iprop(iprop((∃ d, owns (c : Thread nD τ) scM0_0 fullShare d))
            ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scM0_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun0 (c : Dev nD) (i : grid0.Coords)
    (arg2 : Memref sig .tc .vmem S1024x128 .f32) (harg2 : arg2.IsWhole) (arg3 : Memref sig .tc .vmem S128x512 .bf16) (harg3 : arg3.IsWhole)
    (arg4 : Memref sig .tc .vmem S1024x512 .f32) (harg4 : arg4.IsWhole) (arg5 : Memref sig .tc .vmem S1024x512 .f32) (harg5 : arg5.IsWhole)
    (hfirst : cond0_0 i) (hlast : cond0_1 i) (xa : Vec F S1024x128 .f32) (xb : Vec F S128x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.Kernel.Hand

end
-- ==== Proof.RegK0.lean ====
/- Laid out by: python3 scratch/layout_grid41.py --template-region 0 --region 0 --program Kernel --parts a,
   from the hand-written text of region 0 (RegKI0.lean): the same text, the region's number and the program's namespace substituted. -/
/- The region of Kernel's @main that runs `cc0__matmul_kernel` (pipeline `cfg0`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegK0a
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the case leaves, as pieces read back -/

/-- The output's pieces tile its block (one whole-block store). -/
theorem cover0_2 (c : Dev nD) (i : grid0.Coords)
    (arg2 : Memref sig .tc .vmem S1024x128 .f32) (harg2 : arg2.IsWhole) (arg3 : Memref sig .tc .vmem S128x512 .bf16) (harg3 : arg3.IsWhole)
    (arg4 : Memref sig .tc .vmem S1024x512 .f32) (harg4 : arg4.IsWhole) (arg5 : Memref sig .tc .vmem S1024x512 .f32) (harg5 : arg5.IsWhole)
    (hfirst : cond0_0 i) (hlast : cond0_1 i) (xa : Vec F S1024x128 .f32) (xb : Vec F S128x512 .bf16) (y : S1024x512.Idx) :
    ∃ pc ∈ (kernelRun0 c i arg2 harg2 arg3 harg3 arg4 harg4 arg5 harg5 hfirst hlast xa xb).1, y ∈ pc.1.set :=
  View.cover_of_tiledL (kernelRun0 c i arg2 harg2 arg3 harg3 arg4 harg4 arg5 harg5 hfirst hlast xa xb).1 S1024x512.size (by sl_kernel_rfl) y

/-- What the case leaves in the output's staging buffer: its pieces read back over junk. -/
noncomputable def out0_2 (c : Dev nD) (i : grid0.Coords)
    (arg2 : Memref sig .tc .vmem S1024x128 .f32) (harg2 : arg2.IsWhole) (arg3 : Memref sig .tc .vmem S128x512 .bf16) (harg3 : arg3.IsWhole)
    (arg4 : Memref sig .tc .vmem S1024x512 .f32) (harg4 : arg4.IsWhole) (arg5 : Memref sig .tc .vmem S1024x512 .f32) (harg5 : arg5.IsWhole)
    (hfirst : cond0_0 i) (hlast : cond0_1 i) (xa : Vec F S1024x128 .f32) (xb : Vec F S128x512 .bf16) : Vec F S1024x512 .f32 :=
  VO0_2.read (Elt F) (VO0_2.writes (Elt F) VO0_2.junk (kernelRun0 c i arg2 harg2 arg3 harg3 arg4 harg4 arg5 harg5 hfirst hlast xa xb).1)

/-- What the case leaves in the accumulator: its pieces read back over junk. -/
noncomputable def sout0_0 (c : Dev nD) (i : grid0.Coords)
    (arg2 : Memref sig .tc .vmem S1024x128 .f32) (harg2 : arg2.IsWhole) (arg3 : Memref sig .tc .vmem S128x512 .bf16) (harg3 : arg3.IsWhole)
    (arg4 : Memref sig .tc .vmem S1024x512 .f32) (harg4 : arg4.IsWhole) (arg5 : Memref sig .tc .vmem S1024x512 .f32) (harg5 : arg5.IsWhole)
    (hfirst : cond0_0 i) (hlast : cond0_1 i) (xa : Vec F S1024x128 .f32) (xb : Vec F S128x512 .bf16) : Vec F S1024x512 .f32 :=
  VS0_0.read (Elt F) (VS0_0.writes (Elt F) VS0_0.junk (kernelRun0 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout0_0_eq (c : Dev nD) (i : grid0.Coords)
    (arg2 : Memref sig .tc .vmem S1024x128 .f32) (harg2 : arg2.IsWhole) (arg3 : Memref sig .tc .vmem S128x512 .bf16) (harg3 : arg3.IsWhole)
    (arg4 : Memref sig .tc .vmem S1024x512 .f32) (harg4 : arg4.IsWhole) (arg5 : Memref sig .tc .vmem S1024x512 .f32) (harg5 : arg5.IsWhole)
    (hfirst : cond0_0 i) (hlast : cond0_1 i) (xa : Vec F S1024x128 .f32) (xb : Vec F S128x512 .bf16) :
    sout0_0 c i arg2 harg2 arg3 harg3 arg4 harg4 arg5 harg5 hfirst hlast xa xb = k0_pay2 xa xb (k0_pay1 (F := F)) := by
  unfold sout0_0
  rw [View.read_writes_junk_eq_canon]
  unfold kernelRun0
  dsimp only
  try sl_unfold_words
  rw [View.canon_cons_unit_zero zeros2, View.readCov_unit_zero _ zeros2]
  simp only [View.readAt_eq_ld, harg2.read_unread, harg3.read_unread, View.ld_unit_zero (S := S1024x128) zeros2, View.ld_unit_zero (S := S128x512) zeros2]

/-- The output block ends at what the accumulator ends at: the copy's payload is the accumulator read back whole. -/
theorem out0_2_eq (c : Dev nD) (i : grid0.Coords)
    (arg2 : Memref sig .tc .vmem S1024x128 .f32) (harg2 : arg2.IsWhole) (arg3 : Memref sig .tc .vmem S128x512 .bf16) (harg3 : arg3.IsWhole)
    (arg4 : Memref sig .tc .vmem S1024x512 .f32) (harg4 : arg4.IsWhole) (arg5 : Memref sig .tc .vmem S1024x512 .f32) (harg5 : arg5.IsWhole)
    (hfirst : cond0_0 i) (hlast : cond0_1 i) (xa : Vec F S1024x128 .f32) (xb : Vec F S128x512 .bf16) :
    out0_2 c i arg2 harg2 arg3 harg3 arg4 harg4 arg5 harg5 hfirst hlast xa xb = k0_pay2 xa xb (k0_pay1 (F := F)) := by
  unfold out0_2
  rw [View.read_writes_junk_eq_canon]
  unfold kernelRun0
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x128) zeros2, View.ld_unit_zero (S := S128x512) zeros2]

/-! ## What the output and the accumulator hold after each point -/

/-- After the body at position `n`: (the output window's staging buffer, the accumulator). One case, and nothing taken from
    the point before. -/
noncomputable def outsAt0 (c : Dev nD) (n : ℕ) (hn : n < cfg0.N) : Vec F S1024x512 .f32 × Vec F S1024x512 .f32 :=
  (out0_2 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _)
      (hcond0_0 ⟨n, hn⟩) (hcond0_1 ⟨n, hn⟩) (iblk0 V c 0 ⟨n, hn⟩) (iblk0 V c 1 ⟨n, hn⟩),
   sout0_0 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _)
      (hcond0_0 ⟨n, hn⟩) (hcond0_1 ⟨n, hn⟩) (iblk0 V c 0 ⟨n, hn⟩) (iblk0 V c 1 ⟨n, hn⟩))

/-- Every point is a first reduction step: the accumulator after it is one product onto zero. -/
theorem outsAt0_first (c : Dev nD) (t : Fin cfg0.N) :
    (outsAt0 V c t.val t.isLt).2 = k0_pay2 (iblk0 V c 0 t) (iblk0 V c 1 t) (k0_pay1 (F := F)) := by
  obtain ⟨n, hn⟩ := t
  unfold outsAt0
  dsimp only
  rw [sout0_0_eq]

/-- Every point is a last reduction step: the output block after it is the accumulator. -/
theorem outsAt0_last (c : Dev nD) (t : Fin cfg0.N) :
    (outsAt0 V c t.val t.isLt).1 = (outsAt0 V c t.val t.isLt).2 := by
  obtain ⟨n, hn⟩ := t
  unfold outsAt0
  dsimp only
  rw [out0_2_eq, sout0_0_eq]

/-! ## The pipeline's proof data -/

/-- The proof data of the pipeline on core `c`: the arrays as the region finds them; after the body at point `t` each input's
    buffer at its block and the output's at `outsAt0`'s first component; the invariant the same at every point; nothing owed;
    full shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- An input's current staging buffer holds its block at every point, fetched there or not: where it is not fetched its block
    index has not moved since the point before, and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
noncomputable def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
noncomputable def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = Pipeline.ΦA spec0 c from rfl, show (dat0 V c).Φ t.castSucc = Pipeline.ΦA spec0 c from rfl, PhiA0_eq]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  unfold outsAt0 out0_2; (try dsimp only)
  iintro ⟨⟨⟨Hacc, Hrest⟩, Hgen⟩, Howe, ⟨%da, Ha⟩, ⟨%db, Hb⟩, ⟨%dO, Hout⟩⟩
  iapply ((kernelRun0 c (grid0.coords t) _ _ _ _ _ _ _ _ (hcond0_0 t) (hcond0_1 t) (iblk0 V c 0 t) (iblk0 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover0_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := Idealize.SL.BI.Entails.refl _

/-- and the invariant after the last point is what the launch takes back. -/
theorem hout0 (c : Dev nD) : (dat0 V c).Φ (Fin.last cfg0.N) ⊢ Pipeline.ΦA spec0 c := Idealize.SL.BI.Entails.refl _

end Cert.Kernel.Hand

end
-- ==== Proof.RegK1a.lean ====
/- Laid out by: python3 scratch/layout_regions.py --template-region 1 --region 1 --program Kernel --parts a,b,c, --out-dir proof/Proof
   from the hand-written text of region 1 (RegKI1a.lean): the same text, the region's number and the program's namespace substituted. -/
/-
  Region 1 of @main (custom_call 1): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond1_0 (i : grid1.Coords) : Prop := (Scalar.cmpi .ne (Scalar.extui (Scalar.cmpi .eq (BitVec.ofNat 32 (i 1).val) 0#32)) 0#32) = 1#1
/-- It holds exactly at the points with t % 4 = 0. -/
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the second conditional's test. -/
abbrev cond1_1 (i : grid1.Coords) : Prop := k1_cond2 i = 1#1
/-- It holds exactly at the points with t % 4 = 3. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle, and where the output is written back -/

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where k ≠ 3 the output window is idle (the body stores nothing into it) and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where k = 3 it is live. -/
theorem liveAt1_2 : ∀ t : Fin cfg1.N, cond1_1 (grid1.coords t) → cfg1.idle 2 (grid1.coords t) = false := by decide +kernel

/-! ## The staging memrefs at a point, and the scratch -/

/-- One staging buffer of the output window, through which its contents are stated. -/
abbrev VO1_2 : View sig .tc .vmem S1024x512 .f32 := (Memref.whole cc1_stg2_0 : Memref sig .tc .vmem S1024x512 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S1024x512 .f32 := Memref.whole cc1_scratch0
abbrev VS1 : View sig .tc .vmem S1024x512 .f32 := scM1.view

/-- The other scoped buffers of the core, none of which this region touches. -/
abbrev restBut1 (c : Dev nD) : sProp 𝕄 :=
  Pipeline.scopedRestBut (Ix := Unit) (Name := ℕ) (U := UR sig nD τ) (Lvl := ℕ) (Val := Elt F) spec1 c [cc1_scratch0]

/-- The region's invariant before its first point: the accumulator at something, the other scoped buffers, the generator register. -/
theorem PhiA1_eq (c : Dev nD) :
    (Pipeline.ΦA spec1 c : sProp 𝕄)
      = iprop(iprop((∃ d, owns (c : Thread nD τ) scM1 fullShare d) ∗ restBut1 c) ∗ (∃ r, prngReg c r)) := by
  unfold Pipeline.ΦA; rw [scopedRest1_split]; simp only [scM1, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun1_A (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK1b.lean ====
/- Laid out by: python3 scratch/layout_regions.py --template-region 1 --region 1 --program Kernel --parts a,b,c, --out-dir proof/Proof
   from the hand-written text of region 1 (RegKI1b.lean): the same text, the region's number and the program's namespace substituted. -/
/-
  Region 1, case B (k = 1, 2): the body's run. Neither conditional is taken: the product of the two blocks is added to what
  the point before left in the accumulator; the output block is not touched.
-/
import proofs.«158944_j64613488001249_1_alg».proof.Proof.RegK1a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun1_B (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK1c.lean ====
/- Laid out by: python3 scratch/layout_regions.py --template-region 1 --region 1 --program Kernel --parts a,b,c, --out-dir proof/Proof
   from the hand-written text of region 1 (RegKI1c.lean): the same text, the region's number and the program's namespace substituted. -/
/-
  Region 1, case C (k = 3): the body's run. The product is added to the accumulator as in case B, and then the second
  conditional copies the accumulator over the whole output block.
-/
import proofs.«158944_j64613488001249_1_alg».proof.Proof.RegK1b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun1_C (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK1.lean ====
/- Laid out by: python3 scratch/layout_regions.py --template-region 1 --region 1 --program Kernel --parts a,b,c, --out-dir proof/Proof
   from the hand-written text of region 1 (RegKI1.lean): the same text, the region's number and the program's namespace substituted. -/
/-
  Region 1 of @main, entered from the buffer contents `V`: what its windows' blocks are, what each case of the body leaves in
  the accumulator and in the output block, the accumulator and the output block point by point (`outsAt1`: at k = 0 the
  accumulator restarts from zeros plus the product; at k = 1, 2, 3 it is the point before's plus the product; at k = 3 the
  output block is the accumulator), the region's invariant (the accumulator at `outsAt1`'s second component), the proof data,
  and the body's obligation at every point.
-/
import proofs.«158944_j64613488001249_1_alg».proof.Proof.RegK1c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Case A's stores into the accumulator cover it. -/
theorem scover1_A (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .bf16) (x1 : Vec F S1024x512 .f32) (y : S1024x512.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x512.size (by sl_kernel_rfl) y
/-- What case A leaves in the accumulator. -/
noncomputable def sout1_A (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .bf16) (x1 : Vec F S1024x512 .f32) : Vec F S1024x512 .f32 :=
  VS1.read (Elt F) (VS1.writes (Elt F) VS1.junk (kernelRun1_A c i arg2 harg2 arg3 harg3 arg4 harg4 arg5 harg5 hc0 hc1 x0 x1).2.1)

/-- Case B's store into the accumulator covers it. -/
theorem scover1_B (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .bf16) (x1 : Vec F S1024x512 .f32) (xs0 : Vec F S1024x512 .f32) (y : S1024x512.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x512.size (by sl_kernel_rfl) y
/-- What case B leaves in the accumulator, over what the point before left. -/
noncomputable def sout1_B (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .bf16) (x1 : Vec F S1024x512 .f32) (xs0 : Vec F S1024x512 .f32) : Vec F S1024x512 .f32 :=
  VS1.read (Elt F) (VS1.writes (Elt F) VS1.junk (kernelRun1_B c i arg2 harg2 arg3 harg3 arg4 harg4 arg5 harg5 hc0 hc1 x0 x1 xs0).2.1)

/-- Case C's store into the output block covers it, and so does its store into the accumulator. -/
theorem cover1_C (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .f32) (xs0 : Vec F S1024x512 .f32) (y : S1024x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x512.size (by sl_kernel_rfl) y
theorem scover1_C (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .f32) (xs0 : Vec F S1024x512 .f32) (y : S1024x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x512.size (by sl_kernel_rfl) y
/-- What case C leaves in the output block, and in the accumulator. -/
noncomputable def out1_C (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .f32) (xs0 : Vec F S1024x512 .f32) : Vec F S1024x512 .f32 :=
  VO1_2.read (Elt F) (VO1_2.writes (Elt F) VO1_2.junk (kernelRun1_C c i arg2 harg2 arg3 harg3 arg4 harg4 arg5 harg5 hc0 hc1 x0 x1 xs0).1)
noncomputable def sout1_C (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .f32) (xs0 : Vec F S1024x512 .f32) : Vec F S1024x512 .f32 :=
  VS1.read (Elt F) (VS1.writes (Elt F) VS1.junk (kernelRun1_C c i arg2 harg2 arg3 harg3 arg4 harg4 arg5 harg5 hc0 hc1 x0 x1 xs0).2.1)

/-- Where the output block is idle nothing consults what it holds: a placeholder. -/
noncomputable def outIdle1 : Vec F S1024x512 .f32 := VO1_2.read (Elt F) (VO1_2.writes (Elt F) VO1_2.junk [])

/-! ## The conditions at a point, from t % 4 -/

theorem isFirst1 (t : Fin cfg1.N) (h : t.val % 4 = 0) : cond1_0 (grid1.coords t) := (hcond1_0 t).mpr h
theorem notFirst1 (t : Fin cfg1.N) (h : ¬t.val % 4 = 0) : ¬cond1_0 (grid1.coords t) := fun hc => h ((hcond1_0 t).mp hc)
theorem isLast1 (t : Fin cfg1.N) (h : t.val % 4 = 3) : cond1_1 (grid1.coords t) := (hcond1_1 t).mpr h
theorem notLast1 (t : Fin cfg1.N) (h : ¬t.val % 4 = 3) : ¬cond1_1 (grid1.coords t) := fun hc => h ((hcond1_1 t).mp hc)

/-! ## The accumulator and the output block, point by point -/

/-- After the body at position `n`: (the output block's buffer, the accumulator). -/
noncomputable def outsAt1 (c : Dev nD) : (n : ℕ) → n < cfg1.N → Vec F S1024x512 .f32 × Vec F S1024x512 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) (isFirst1 ⟨0, hn⟩ (Nat.zero_mod _)) (notLast1 ⟨0, hn⟩ (by simp)) (iblk1 V c 0 ⟨0, hn⟩) (iblk1 V c 1 ⟨0, hn⟩))
  | n + 1, hn =>
    if h0 : (n + 1) % 4 = 0 then
      (outIdle1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (isFirst1 ⟨n + 1, hn⟩ h0) (notLast1 ⟨n + 1, hn⟩ (by show ¬(n + 1) % 4 = 3; omega)) (iblk1 V c 0 ⟨n + 1, hn⟩) (iblk1 V c 1 ⟨n + 1, hn⟩))
    else if h3 : (n + 1) % 4 = 3 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (notFirst1 ⟨n + 1, hn⟩ h0) (isLast1 ⟨n + 1, hn⟩ h3) (iblk1 V c 0 ⟨n + 1, hn⟩) (iblk1 V c 1 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (notFirst1 ⟨n + 1, hn⟩ h0) (isLast1 ⟨n + 1, hn⟩ h3) (iblk1 V c 0 ⟨n + 1, hn⟩) (iblk1 V c 1 ⟨n + 1, hn⟩) (outsAt1 c n (Nat.lt_of_succ_lt hn)).2)
    else
      (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (notFirst1 ⟨n + 1, hn⟩ h0) (notLast1 ⟨n + 1, hn⟩ h3) (iblk1 V c 0 ⟨n + 1, hn⟩) (iblk1 V c 1 ⟨n + 1, hn⟩) (outsAt1 c n (Nat.lt_of_succ_lt hn)).2)

/-- `outsAt1` at a point with k = 0. -/
theorem outsAt1_A (c : Dev nD) (t : Fin cfg1.N) (h0 : t.val % 4 = 0) :
    outsAt1 V c t.val t.isLt = (outIdle1, sout1_A c (grid1.coords t) (ms1_0 t) (hs1_0 t) (ms1_1 t) (hs1_1 t) (ms1_2 t) (hs1_2 t) scM1 (Memref.isWhole_whole _) (isFirst1 t h0) (notLast1 t (by omega)) (iblk1 V c 0 t) (iblk1 V c 1 t)) := by
  obtain ⟨n, hn⟩ := t
  cases n with
  | zero => rfl
  | succ n => exact (dif_pos h0).trans rfl

/-- `outsAt1` at a point with k = 1, 2: over what the point before left. -/
theorem outsAt1_B (c : Dev nD) (t : Fin cfg1.N) (h0 : ¬t.val % 4 = 0) (h3 : ¬t.val % 4 = 3) :
    outsAt1 V c t.val t.isLt = (outIdle1, sout1_B c (grid1.coords t) (ms1_0 t) (hs1_0 t) (ms1_1 t) (hs1_1 t) (ms1_2 t) (hs1_2 t) scM1 (Memref.isWhole_whole _) (notFirst1 t h0) (notLast1 t h3) (iblk1 V c 0 t) (iblk1 V c 1 t)
      (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt1` at a point with k = 3. -/
theorem outsAt1_C (c : Dev nD) (t : Fin cfg1.N) (h0 : ¬t.val % 4 = 0) (h3 : t.val % 4 = 3) :
    outsAt1 V c t.val t.isLt = (out1_C c (grid1.coords t) (ms1_0 t) (hs1_0 t) (ms1_1 t) (hs1_1 t) (ms1_2 t) (hs1_2 t) scM1 (Memref.isWhole_whole _) (notFirst1 t h0) (isLast1 t h3) (iblk1 V c 0 t) (iblk1 V c 1 t)
        (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (notFirst1 t h0) (isLast1 t h3) (iblk1 V c 0 t) (iblk1 V c 1 t)
        (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ restBut1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restBut1 c) ∗ (∃ r, prngReg c r)) := by
  cases n with
  | zero => exact absurd rfl hz
  | succ n => rfl

/-! ## The proof data -/

/-- The region's proof data on core `c`: the arrays as the region finds them; after the body at point `t` each input's
    buffer at its block and the output's at `outsAt1`'s first component; the invariant `PhiS1`; nothing owed; full shares. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's obligation -/

noncomputable def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

noncomputable def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h3 : ¬t.val % 4 = 3 := by omega
    rw [Dat.leavesExact_idle (dat1 V c) 2 t (idleAt1_2 t (notLast1 t h3)) (noFlush1_2 t (notLast1 t h3))]
    rw [outsAt1_A V c t h0]
    unfold sout1_A; (try dsimp only)
    by_cases hz : t.val = 0
    · rw [PhiS1_castSucc V c t, PhiS1_zero V c _ _ hz, PhiA1_eq]
      iintro ⟨⟨⟨HS0, Hrb⟩, Hg⟩, Ho, ⟨%d0, H0⟩, ⟨%d1, H1⟩, ⟨%d2, H2⟩⟩
      iapply ((kernelRun1_A c (grid1.coords t) _ _ _ _ _ _ _ _ (isFirst1 t h0) (notLast1 t (by omega)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_A c _ _ _ _ _ _ _ _ _ _ _ _ _)
          iexact Hrb
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hrb⟩, Hg⟩, Ho, ⟨%d0, H0⟩, ⟨%d1, H1⟩, ⟨%d2, H2⟩⟩
      iapply ((kernelRun1_A c (grid1.coords t) _ _ _ _ _ _ _ _ (isFirst1 t h0) (notLast1 t (by omega)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat1 V c).leavesExact 2 t = owns (c : Thread nD τ) (ms1_2 t) fullShare ((dat1 V c).after 2 t) from by
        unfold Dat.leavesExact; rw [liveAt1_2 t (isLast1 t h3)], after1_2]
      rw [outsAt1_C V c t h0 h3]
      unfold out1_C sout1_C; (try dsimp only)
      rw [PhiS1_castSucc V c t, PhiS1_pos V c _ _ hz]
      iintro ⟨⟨⟨HS0, Hrb⟩, Hg⟩, Ho, ⟨%d0, H0⟩, ⟨%d1, H1⟩, ⟨%d2, H2⟩⟩
      iapply ((kernelRun1_C c (grid1.coords t) _ _ _ _ _ _ _ _ (notFirst1 t h0) (isLast1 t h3) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (notLast1 t h3)) (noFlush1_2 t (notLast1 t h3))]
      rw [outsAt1_B V c t h0 h3]
      unfold sout1_B; (try dsimp only)
      rw [PhiS1_castSucc V c t, PhiS1_pos V c _ _ hz]
      iintro ⟨⟨⟨HS0, Hrb⟩, Hg⟩, Ho, ⟨%d0, H0⟩, ⟨%d1, H1⟩, ⟨%d2, H2⟩⟩
      iapply ((kernelRun1_B c (grid1.coords t) _ _ _ _ _ _ _ _ (notFirst1 t h0) (notLast1 t h3) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hN : cfg1.N = 16 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS0, Hrb⟩, Hg⟩
  isplitl [HS0 Hrb]
  · isplitl [HS0]
    · iexists _; iexact HS0
    iexact Hrb
  iexact Hg

end Cert.Kernel.Hand

end
-- ==== Proof.RegK2a.lean ====
/- Laid out by: python3 scratch/layout_regions.py --template-region 1 --region 2 --program Kernel --parts a,b,c, --out-dir proof/Proof
   from the hand-written text of region 1 (RegKI1a.lean): the same text, the region's number and the program's namespace substituted. -/
/-
  Region 2 of @main (custom_call 2): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond2_0 (i : grid2.Coords) : Prop := (Scalar.cmpi .ne (Scalar.extui (Scalar.cmpi .eq (BitVec.ofNat 32 (i 1).val) 0#32)) 0#32) = 1#1
/-- It holds exactly at the points with t % 4 = 0. -/
theorem hcond2_0 : ∀ t : Fin cfg2.N, cond2_0 (grid2.coords t) ↔ t.val % 4 = 0 :=
  (by decide +kernel : ∀ t : Fin grid2.N, cond2_0 (grid2.coords t) ↔ t.val % 4 = 0)

/-- "k = 3": the second conditional's test. -/
abbrev cond2_1 (i : grid2.Coords) : Prop := k2_cond2 i = 1#1
/-- It holds exactly at the points with t % 4 = 3. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle, and where the output is written back -/

/-- The two input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Where k ≠ 3 the output window is idle (the body stores nothing into it) and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- Where k = 3 it is live. -/
theorem liveAt2_2 : ∀ t : Fin cfg2.N, cond2_1 (grid2.coords t) → cfg2.idle 2 (grid2.coords t) = false := by decide +kernel

/-! ## The staging memrefs at a point, and the scratch -/

/-- One staging buffer of the output window, through which its contents are stated. -/
abbrev VO2_2 : View sig .tc .vmem S1024x512 .f32 := (Memref.whole cc2_stg2_0 : Memref sig .tc .vmem S1024x512 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x512 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2 : Memref sig .tc .vmem S1024x512 .f32 := Memref.whole cc2_scratch0
abbrev VS2 : View sig .tc .vmem S1024x512 .f32 := scM2.view

/-- The other scoped buffers of the core, none of which this region touches. -/
abbrev restBut2 (c : Dev nD) : sProp 𝕄 :=
  Pipeline.scopedRestBut (Ix := Unit) (Name := ℕ) (U := UR sig nD τ) (Lvl := ℕ) (Val := Elt F) spec2 c [cc2_scratch0]

/-- The region's invariant before its first point: the accumulator at something, the other scoped buffers, the generator register. -/
theorem PhiA2_eq (c : Dev nD) :
    (Pipeline.ΦA spec2 c : sProp 𝕄)
      = iprop(iprop((∃ d, owns (c : Thread nD τ) scM2 fullShare d) ∗ restBut2 c) ∗ (∃ r, prngReg c r)) := by
  unfold Pipeline.ΦA; rw [scopedRest2_split]; simp only [scM2, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun2_A (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond2_0 i) (hc1 : ¬cond2_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_kernel i arg2 harg2 arg3 harg3 arg4 harg4 arg5 harg5) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK2b.lean ====
/- Laid out by: python3 scratch/layout_regions.py --template-region 1 --region 2 --program Kernel --parts a,b,c, --out-dir proof/Proof
   from the hand-written text of region 1 (RegKI1b.lean): the same text, the region's number and the program's namespace substituted. -/
/-
  Region 2, case B (k = 1, 2): the body's run. Neither conditional is taken: the product of the two blocks is added to what
  the point before left in the accumulator; the output block is not touched.
-/
import proofs.«158944_j64613488001249_1_alg».proof.Proof.RegK2a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun2_B (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond2_0 i) (hc1 : ¬cond2_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_kernel i arg2 harg2 arg3 harg3 arg4 harg4 arg5 harg5) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK2c.lean ====
/- Laid out by: python3 scratch/layout_regions.py --template-region 1 --region 2 --program Kernel --parts a,b,c, --out-dir proof/Proof
   from the hand-written text of region 1 (RegKI1c.lean): the same text, the region's number and the program's namespace substituted. -/
/-
  Region 2, case C (k = 3): the body's run. The product is added to the accumulator as in case B, and then the second
  conditional copies the accumulator over the whole output block.
-/
import proofs.«158944_j64613488001249_1_alg».proof.Proof.RegK2b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun2_C (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond2_0 i) (hc1 : cond2_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_kernel i arg2 harg2 arg3 harg3 arg4 harg4 arg5 harg5) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK2.lean ====
/- Laid out by: python3 scratch/layout_regions.py --template-region 1 --region 2 --program Kernel --parts a,b,c, --out-dir proof/Proof
   from the hand-written text of region 1 (RegKI1.lean): the same text, the region's number and the program's namespace substituted. -/
/-
  Region 2 of @main, entered from the buffer contents `V`: what its windows' blocks are, what each case of the body leaves in
  the accumulator and in the output block, the accumulator and the output block point by point (`outsAt2`: at k = 0 the
  accumulator restarts from zeros plus the product; at k = 1, 2, 3 it is the point before's plus the product; at k = 3 the
  output block is the accumulator), the region's invariant (the accumulator at `outsAt2`'s second component), the proof data,
  and the body's obligation at every point.
-/
import proofs.«158944_j64613488001249_1_alg».proof.Proof.RegK2c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- Case A's stores into the accumulator cover it. -/
theorem scover2_A (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond2_0 i) (hc1 : ¬cond2_1 i)
    (x0 : Vec F S1024x1024 .bf16) (x1 : Vec F S1024x512 .f32) (y : S1024x512.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1024x512.size (by sl_kernel_rfl) y
/-- What case A leaves in the accumulator. -/
noncomputable def sout2_A (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond2_0 i) (hc1 : ¬cond2_1 i)
    (x0 : Vec F S1024x1024 .bf16) (x1 : Vec F S1024x512 .f32) : Vec F S1024x512 .f32 :=
  VS2.read (Elt F) (VS2.writes (Elt F) VS2.junk (kernelRun2_A c i arg2 harg2 arg3 harg3 arg4 harg4 arg5 harg5 hc0 hc1 x0 x1).2.1)

/-- Case B's store into the accumulator covers it. -/
theorem scover2_B (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond2_0 i) (hc1 : ¬cond2_1 i)
    (x0 : Vec F S1024x1024 .bf16) (x1 : Vec F S1024x512 .f32) (xs0 : Vec F S1024x512 .f32) (y : S1024x512.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1024x512.size (by sl_kernel_rfl) y
/-- What case B leaves in the accumulator, over what the point before left. -/
noncomputable def sout2_B (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond2_0 i) (hc1 : ¬cond2_1 i)
    (x0 : Vec F S1024x1024 .bf16) (x1 : Vec F S1024x512 .f32) (xs0 : Vec F S1024x512 .f32) : Vec F S1024x512 .f32 :=
  VS2.read (Elt F) (VS2.writes (Elt F) VS2.junk (kernelRun2_B c i arg2 harg2 arg3 harg3 arg4 harg4 arg5 harg5 hc0 hc1 x0 x1 xs0).2.1)

/-- Case C's store into the output block covers it, and so does its store into the accumulator. -/
theorem cover2_C (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond2_0 i) (hc1 : cond2_1 i)
    (x0 : Vec F S1024x1024 .bf16) (x1 : Vec F S1024x512 .f32) (xs0 : Vec F S1024x512 .f32) (y : S1024x512.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1024x512.size (by sl_kernel_rfl) y
theorem scover2_C (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond2_0 i) (hc1 : cond2_1 i)
    (x0 : Vec F S1024x1024 .bf16) (x1 : Vec F S1024x512 .f32) (xs0 : Vec F S1024x512 .f32) (y : S1024x512.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1024x512.size (by sl_kernel_rfl) y
/-- What case C leaves in the output block, and in the accumulator. -/
noncomputable def out2_C (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond2_0 i) (hc1 : cond2_1 i)
    (x0 : Vec F S1024x1024 .bf16) (x1 : Vec F S1024x512 .f32) (xs0 : Vec F S1024x512 .f32) : Vec F S1024x512 .f32 :=
  VO2_2.read (Elt F) (VO2_2.writes (Elt F) VO2_2.junk (kernelRun2_C c i arg2 harg2 arg3 harg3 arg4 harg4 arg5 harg5 hc0 hc1 x0 x1 xs0).1)
noncomputable def sout2_C (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond2_0 i) (hc1 : cond2_1 i)
    (x0 : Vec F S1024x1024 .bf16) (x1 : Vec F S1024x512 .f32) (xs0 : Vec F S1024x512 .f32) : Vec F S1024x512 .f32 :=
  VS2.read (Elt F) (VS2.writes (Elt F) VS2.junk (kernelRun2_C c i arg2 harg2 arg3 harg3 arg4 harg4 arg5 harg5 hc0 hc1 x0 x1 xs0).2.1)

/-- Where the output block is idle nothing consults what it holds: a placeholder. -/
noncomputable def outIdle2 : Vec F S1024x512 .f32 := VO2_2.read (Elt F) (VO2_2.writes (Elt F) VO2_2.junk [])

/-! ## The conditions at a point, from t % 4 -/

theorem isFirst2 (t : Fin cfg2.N) (h : t.val % 4 = 0) : cond2_0 (grid2.coords t) := (hcond2_0 t).mpr h
theorem notFirst2 (t : Fin cfg2.N) (h : ¬t.val % 4 = 0) : ¬cond2_0 (grid2.coords t) := fun hc => h ((hcond2_0 t).mp hc)
theorem isLast2 (t : Fin cfg2.N) (h : t.val % 4 = 3) : cond2_1 (grid2.coords t) := (hcond2_1 t).mpr h
theorem notLast2 (t : Fin cfg2.N) (h : ¬t.val % 4 = 3) : ¬cond2_1 (grid2.coords t) := fun hc => h ((hcond2_1 t).mp hc)

/-! ## The accumulator and the output block, point by point -/

/-- After the body at position `n`: (the output block's buffer, the accumulator). -/
noncomputable def outsAt2 (c : Dev nD) : (n : ℕ) → n < cfg2.N → Vec F S1024x512 .f32 × Vec F S1024x512 .f32
  | 0, hn => (outIdle2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) (isFirst2 ⟨0, hn⟩ (Nat.zero_mod _)) (notLast2 ⟨0, hn⟩ (by simp)) (iblk2 V c 0 ⟨0, hn⟩) (iblk2 V c 1 ⟨0, hn⟩))
  | n + 1, hn =>
    if h0 : (n + 1) % 4 = 0 then
      (outIdle2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (isFirst2 ⟨n + 1, hn⟩ h0) (notLast2 ⟨n + 1, hn⟩ (by show ¬(n + 1) % 4 = 3; omega)) (iblk2 V c 0 ⟨n + 1, hn⟩) (iblk2 V c 1 ⟨n + 1, hn⟩))
    else if h3 : (n + 1) % 4 = 3 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (notFirst2 ⟨n + 1, hn⟩ h0) (isLast2 ⟨n + 1, hn⟩ h3) (iblk2 V c 0 ⟨n + 1, hn⟩) (iblk2 V c 1 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (notFirst2 ⟨n + 1, hn⟩ h0) (isLast2 ⟨n + 1, hn⟩ h3) (iblk2 V c 0 ⟨n + 1, hn⟩) (iblk2 V c 1 ⟨n + 1, hn⟩) (outsAt2 c n (Nat.lt_of_succ_lt hn)).2)
    else
      (outIdle2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (notFirst2 ⟨n + 1, hn⟩ h0) (notLast2 ⟨n + 1, hn⟩ h3) (iblk2 V c 0 ⟨n + 1, hn⟩) (iblk2 V c 1 ⟨n + 1, hn⟩) (outsAt2 c n (Nat.lt_of_succ_lt hn)).2)

/-- `outsAt2` at a point with k = 0. -/
theorem outsAt2_A (c : Dev nD) (t : Fin cfg2.N) (h0 : t.val % 4 = 0) :
    outsAt2 V c t.val t.isLt = (outIdle2, sout2_A c (grid2.coords t) (ms2_0 t) (hs2_0 t) (ms2_1 t) (hs2_1 t) (ms2_2 t) (hs2_2 t) scM2 (Memref.isWhole_whole _) (isFirst2 t h0) (notLast2 t (by omega)) (iblk2 V c 0 t) (iblk2 V c 1 t)) := by
  obtain ⟨n, hn⟩ := t
  cases n with
  | zero => rfl
  | succ n => exact (dif_pos h0).trans rfl

/-- `outsAt2` at a point with k = 1, 2: over what the point before left. -/
theorem outsAt2_B (c : Dev nD) (t : Fin cfg2.N) (h0 : ¬t.val % 4 = 0) (h3 : ¬t.val % 4 = 3) :
    outsAt2 V c t.val t.isLt = (outIdle2, sout2_B c (grid2.coords t) (ms2_0 t) (hs2_0 t) (ms2_1 t) (hs2_1 t) (ms2_2 t) (hs2_2 t) scM2 (Memref.isWhole_whole _) (notFirst2 t h0) (notLast2 t h3) (iblk2 V c 0 t) (iblk2 V c 1 t)
      (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt2` at a point with k = 3. -/
theorem outsAt2_C (c : Dev nD) (t : Fin cfg2.N) (h0 : ¬t.val % 4 = 0) (h3 : t.val % 4 = 3) :
    outsAt2 V c t.val t.isLt = (out2_C c (grid2.coords t) (ms2_0 t) (hs2_0 t) (ms2_1 t) (hs2_1 t) (ms2_2 t) (hs2_2 t) scM2 (Memref.isWhole_whole _) (notFirst2 t h0) (isLast2 t h3) (iblk2 V c 0 t) (iblk2 V c 1 t)
        (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (notFirst2 t h0) (isLast2 t h3) (iblk2 V c 0 t) (iblk2 V c 1 t)
        (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ restBut2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ restBut2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ restBut2 c) ∗ (∃ r, prngReg c r)) := by
  cases n with
  | zero => exact absurd rfl hz
  | succ n => rfl

/-! ## The proof data -/

/-- The region's proof data on core `c`: the arrays as the region finds them; after the body at point `t` each input's
    buffer at its block and the output's at `outsAt2`'s first component; the invariant `PhiS2`; nothing owed; full shares. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body's obligation -/

noncomputable def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

noncomputable def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 4 = 0
  · have h3 : ¬t.val % 4 = 3 := by omega
    rw [Dat.leavesExact_idle (dat2 V c) 2 t (idleAt2_2 t (notLast2 t h3)) (noFlush2_2 t (notLast2 t h3))]
    rw [outsAt2_A V c t h0]
    unfold sout2_A; (try dsimp only)
    by_cases hz : t.val = 0
    · rw [PhiS2_castSucc V c t, PhiS2_zero V c _ _ hz, PhiA2_eq]
      iintro ⟨⟨⟨HS0, Hrb⟩, Hg⟩, Ho, ⟨%d0, H0⟩, ⟨%d1, H1⟩, ⟨%d2, H2⟩⟩
      iapply ((kernelRun2_A c (grid2.coords t) _ _ _ _ _ _ _ _ (isFirst2 t h0) (notLast2 t (by omega)) (iblk2 V c 0 t) (iblk2 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover2_A c _ _ _ _ _ _ _ _ _ _ _ _ _)
          iexact Hrb
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS0, Hrb⟩, Hg⟩, Ho, ⟨%d0, H0⟩, ⟨%d1, H1⟩, ⟨%d2, H2⟩⟩
      iapply ((kernelRun2_A c (grid2.coords t) _ _ _ _ _ _ _ _ (isFirst2 t h0) (notLast2 t (by omega)) (iblk2 V c 0 t) (iblk2 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover2_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat2 V c).leavesExact 2 t = owns (c : Thread nD τ) (ms2_2 t) fullShare ((dat2 V c).after 2 t) from by
        unfold Dat.leavesExact; rw [liveAt2_2 t (isLast2 t h3)], after2_2]
      rw [outsAt2_C V c t h0 h3]
      unfold out2_C sout2_C; (try dsimp only)
      rw [PhiS2_castSucc V c t, PhiS2_pos V c _ _ hz]
      iintro ⟨⟨⟨HS0, Hrb⟩, Hg⟩, Ho, ⟨%d0, H0⟩, ⟨%d1, H1⟩, ⟨%d2, H2⟩⟩
      iapply ((kernelRun2_C c (grid2.coords t) _ _ _ _ _ _ _ _ (notFirst2 t h0) (isLast2 t h3) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover2_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _)
    · rw [Dat.leavesExact_idle (dat2 V c) 2 t (idleAt2_2 t (notLast2 t h3)) (noFlush2_2 t (notLast2 t h3))]
      rw [outsAt2_B V c t h0 h3]
      unfold sout2_B; (try dsimp only)
      rw [PhiS2_castSucc V c t, PhiS2_pos V c _ _ hz]
      iintro ⟨⟨⟨HS0, Hrb⟩, Hg⟩, Ho, ⟨%d0, H0⟩, ⟨%d1, H1⟩, ⟨%d2, H2⟩⟩
      iapply ((kernelRun2_B c (grid2.coords t) _ _ _ _ _ _ _ _ (notFirst2 t h0) (notLast2 t h3) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover2_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  have hN : cfg2.N = 16 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨HS0, Hrb⟩, Hg⟩
  isplitl [HS0 Hrb]
  · isplitl [HS0]
    · iexists _; iexact HS0
    iexact Hrb
  iexact Hg

end Cert.Kernel.Hand

end
-- ==== Proof.RegK3a.lean ====
/- Laid out by: python3 scratch/layout_grid41.py --template-region 0 --region 3 --program Kernel --parts a, --shapes S1024x128=S1024x512,S128x512=S512x512
   from the hand-written text of region 0 (RegKI0a.lean): the same text, the region's number, block shapes and the program's namespace substituted. -/
/- The region of Kernel's @main that runs `cc3__matmul_kernel` (pipeline `cfg3`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond3_0 (i : grid3.Coords) : Prop :=
  (Scalar.cmpi .ne (Scalar.extui (Scalar.cmpi .eq (BitVec.ofNat 32 (i 1).val) 0#32)) 0#32) = 1#1
/-- True at every point: the reduction axis has one step. -/
theorem hcond3_0 : ∀ t : Fin cfg3.N, cond3_0 (grid3.coords t) :=
  (by decide +kernel : ∀ t : Fin grid3.N, cond3_0 (grid3.coords t))

/-- "This is the last reduction step" (the guard of the copy to the output block). -/
abbrev cond3_1 (i : grid3.Coords) : Prop := k3_cond2 i = 1#1
/-- True at every point, for the same reason. -/
theorem hcond3_1 : ∀ t : Fin cfg3.N, cond3_1 (grid3.coords t) :=
  (by decide +kernel : ∀ t : Fin grid3.N, cond3_1 (grid3.coords t))

/-! ## No window is idle anywhere -/

theorem liveAt3_0 : ∀ t : Fin cfg3.N, cfg3.idle 0 (grid3.coords t) = false := by decide +kernel
theorem liveAt3_1 : ∀ t : Fin cfg3.N, cfg3.idle 1 (grid3.coords t) = false := by decide +kernel
/-- The output window is stored at every point (the copy's guard holds everywhere). -/
theorem liveAt3_2 : ∀ t : Fin cfg3.N, cfg3.idle 2 (grid3.coords t) = false := by decide +kernel

/-! ## The memrefs the body is called on -/

/-- One staging buffer of the output window, through which its contents are stated (any whole view of the shape reads the
    same pieces back the same way). -/
abbrev VO3_2 : View sig .tc .vmem S1024x512 .f32 := (Memref.whole cc3_stg2_0 : Memref sig .tc .vmem S1024x512 .f32).view
/-- Each window's current staging memref at point `t`, spelt as the pipeline passes it, with its wholeness. -/
abbrev ms3_0 (t : Fin cfg3.N) : Memref sig .tc .vmem S1024x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x512 .f32 := win3_2.stage (cfg3.slots t 2)
abbrev hs3_2 (t : Fin cfg3.N) : (ms3_2 t).IsWhole := hstage3_2 ((cfg3.slots t 2).cast nbuf3_2)
/-- The accumulator: a whole scoped buffer of the kernel's own, passed beside the windows. -/
abbrev scM3_0 : Memref sig .tc .vmem S1024x512 .f32 := Memref.whole cc3_scratch0
abbrev VS3_0 : View sig .tc .vmem S1024x512 .f32 := scM3_0.view

/-- The region invariant with the accumulator taken out of the scoped rest: the accumulator owned at some contents, every
    other scoped buffer unopened, and the generator register. -/
theorem PhiA3_eq (c : Dev nD) :
    (Pipeline.ΦA spec3 c : sProp 𝕄)
      = iprop(iprop(iprop((∃ d, owns (c : Thread nD τ) scM3_0 fullShare d))
            ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun3 (c : Dev nD) (i : grid3.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond3_0 i) (hlast : cond3_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc3__matmul_kernel i arg2 harg2 arg3 harg3 arg4 harg4 arg5 harg5) K } := by
  refine ⟨?_, ?_, fun E K => ?run⟩
  case run =>
    simp only [cc3__matmul_kernel_eq_skeleton]; unfold cc3__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.Kernel.Hand

end
-- ==== Proof.RegK3.lean ====
/- Laid out by: python3 scratch/layout_grid41.py --template-region 0 --region 3 --program Kernel --parts a, --shapes S1024x128=S1024x512,S128x512=S512x512
   from the hand-written text of region 0 (RegKI0.lean): the same text, the region's number, block shapes and the program's namespace substituted. -/
/- The region of Kernel's @main that runs `cc3__matmul_kernel` (pipeline `cfg3`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegK3a
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What the case leaves, as pieces read back -/

/-- The output's pieces tile its block (one whole-block store). -/
theorem cover3_2 (c : Dev nD) (i : grid3.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond3_0 i) (hlast : cond3_1 i) (xa : Vec F S1024x512 .f32) (xb : Vec F S512x512 .bf16) (y : S1024x512.Idx) :
    ∃ pc ∈ (kernelRun3 c i arg2 harg2 arg3 harg3 arg4 harg4 arg5 harg5 hfirst hlast xa xb).1, y ∈ pc.1.set :=
  View.cover_of_tiledL (kernelRun3 c i arg2 harg2 arg3 harg3 arg4 harg4 arg5 harg5 hfirst hlast xa xb).1 S1024x512.size (by sl_kernel_rfl) y

/-- What the case leaves in the output's staging buffer: its pieces read back over junk. -/
noncomputable def out3_2 (c : Dev nD) (i : grid3.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond3_0 i) (hlast : cond3_1 i) (xa : Vec F S1024x512 .f32) (xb : Vec F S512x512 .bf16) : Vec F S1024x512 .f32 :=
  VO3_2.read (Elt F) (VO3_2.writes (Elt F) VO3_2.junk (kernelRun3 c i arg2 harg2 arg3 harg3 arg4 harg4 arg5 harg5 hfirst hlast xa xb).1)

/-- What the case leaves in the accumulator: its pieces read back over junk. -/
noncomputable def sout3_0 (c : Dev nD) (i : grid3.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond3_0 i) (hlast : cond3_1 i) (xa : Vec F S1024x512 .f32) (xb : Vec F S512x512 .bf16) : Vec F S1024x512 .f32 :=
  VS3_0.read (Elt F) (VS3_0.writes (Elt F) VS3_0.junk (kernelRun3 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout3_0_eq (c : Dev nD) (i : grid3.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond3_0 i) (hlast : cond3_1 i) (xa : Vec F S1024x512 .f32) (xb : Vec F S512x512 .bf16) :
    sout3_0 c i arg2 harg2 arg3 harg3 arg4 harg4 arg5 harg5 hfirst hlast xa xb = k3_pay2 xa xb (k3_pay1 (F := F)) := by
  unfold sout3_0
  rw [View.read_writes_junk_eq_canon]
  unfold kernelRun3
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out3_2_eq (c : Dev nD) (i : grid3.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond3_0 i) (hlast : cond3_1 i) (xa : Vec F S1024x512 .f32) (xb : Vec F S512x512 .bf16) :
    out3_2 c i arg2 harg2 arg3 harg3 arg4 harg4 arg5 harg5 hfirst hlast xa xb = k3_pay2 xa xb (k3_pay1 (F := F)) := by
  unfold out3_2
  rw [View.read_writes_junk_eq_canon]
  unfold kernelRun3
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt3 (c : Dev nD) (n : ℕ) (hn : n < cfg3.N) : Vec F S1024x512 .f32 × Vec F S1024x512 .f32 :=
  (out3_2 c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) scM3_0 (Memref.isWhole_whole _)
      (hcond3_0 ⟨n, hn⟩) (hcond3_1 ⟨n, hn⟩) (iblk3 V c 0 ⟨n, hn⟩) (iblk3 V c 1 ⟨n, hn⟩),
   sout3_0 c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) scM3_0 (Memref.isWhole_whole _)
      (hcond3_0 ⟨n, hn⟩) (hcond3_1 ⟨n, hn⟩) (iblk3 V c 0 ⟨n, hn⟩) (iblk3 V c 1 ⟨n, hn⟩))

/-- Every point is a first reduction step: the accumulator after it is one product onto zero. -/
theorem outsAt3_first (c : Dev nD) (t : Fin cfg3.N) :
    (outsAt3 V c t.val t.isLt).2 = k3_pay2 (iblk3 V c 0 t) (iblk3 V c 1 t) (k3_pay1 (F := F)) := by
  obtain ⟨n, hn⟩ := t
  unfold outsAt3
  dsimp only
  rw [sout3_0_eq]

/-- Every point is a last reduction step: the output block after it is the accumulator. -/
theorem outsAt3_last (c : Dev nD) (t : Fin cfg3.N) :
    (outsAt3 V c t.val t.isLt).1 = (outsAt3 V c t.val t.isLt).2 := by
  obtain ⟨n, hn⟩ := t
  unfold outsAt3
  dsimp only
  rw [out3_2_eq, sout3_0_eq]

/-! ## The pipeline's proof data -/

/-- The proof data of the pipeline on core `c`: the arrays as the region finds them; after the body at point `t` each input's
    buffer at its block and the output's at `outsAt3`'s first component; the invariant the same at every point; nothing owed;
    full shares. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- An input's current staging buffer holds its block at every point, fetched there or not: where it is not fetched its block
    index has not moved since the point before, and the body left the block in place. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

/-! ## The body obligation, at a generic point -/

/-- What the body is called with at point `t`, the windows one by one, -/
noncomputable def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
noncomputable def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    show (dat3 V c).Φ t.succ = Pipeline.ΦA spec3 c from rfl, show (dat3 V c).Φ t.castSucc = Pipeline.ΦA spec3 c from rfl, PhiA3_eq]
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  rw [show (dat3 V c).leavesExact 2 t = owns (c : Thread nD τ) (ms3_2 t) fullShare ((dat3 V c).after 2 t) from by
      unfold Dat.leavesExact; rw [liveAt3_2 t], after3_2]
  unfold outsAt3 out3_2; (try dsimp only)
  iintro ⟨⟨⟨Hacc, Hrest⟩, Hgen⟩, Howe, ⟨%da, Ha⟩, ⟨%db, Hb⟩, ⟨%dO, Hout⟩⟩
  iapply ((kernelRun3 c (grid3.coords t) _ _ _ _ _ _ _ _ (hcond3_0 t) (hcond3_1 t) (iblk3 V c 0 t) (iblk3 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover3_2 c _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point, -/
theorem hin3 (c : Dev nD) : Pipeline.ΦA spec3 c ⊢ (dat3 V c).Φ 0 := Idealize.SL.BI.Entails.refl _

/-- and the invariant after the last point is what the launch takes back. -/
theorem hout3 (c : Dev nD) : (dat3 V c).Φ (Fin.last cfg3.N) ⊢ Pipeline.ΦA spec3 c := Idealize.SL.BI.Entails.refl _

end Cert.Kernel.Hand

end
-- ==== Proof.RegK4a.lean ====
/- Laid out by: python3 scratch/layout_regions.py --template-region 1 --region 4 --program Kernel --parts a,b,c, --out-dir proof/Proof
   from the hand-written text of region 1 (RegKI1a.lean): the same text, the region's number and the program's namespace substituted. -/
/-
  Region 4 of @main (custom_call 4): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond4_0 (i : grid4.Coords) : Prop := (Scalar.cmpi .ne (Scalar.extui (Scalar.cmpi .eq (BitVec.ofNat 32 (i 1).val) 0#32)) 0#32) = 1#1
/-- It holds exactly at the points with t % 4 = 0. -/
theorem hcond4_0 : ∀ t : Fin cfg4.N, cond4_0 (grid4.coords t) ↔ t.val % 4 = 0 :=
  (by decide +kernel : ∀ t : Fin grid4.N, cond4_0 (grid4.coords t) ↔ t.val % 4 = 0)

/-- "k = 3": the second conditional's test. -/
abbrev cond4_1 (i : grid4.Coords) : Prop := k4_cond2 i = 1#1
/-- It holds exactly at the points with t % 4 = 3. -/
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle, and where the output is written back -/

/-- The two input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Where k ≠ 3 the output window is idle (the body stores nothing into it) and is not written back. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- Where k = 3 it is live. -/
theorem liveAt4_2 : ∀ t : Fin cfg4.N, cond4_1 (grid4.coords t) → cfg4.idle 2 (grid4.coords t) = false := by decide +kernel

/-! ## The staging memrefs at a point, and the scratch -/

/-- One staging buffer of the output window, through which its contents are stated. -/
abbrev VO4_2 : View sig .tc .vmem S1024x512 .f32 := (Memref.whole cc4_stg2_0 : Memref sig .tc .vmem S1024x512 .f32).view
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x512 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x512 .f32 := win4_2.stage (cfg4.slots t 2)
abbrev hs4_2 (t : Fin cfg4.N) : (ms4_2 t).IsWhole := hstage4_2 ((cfg4.slots t 2).cast nbuf4_2)
/-- The accumulator: a whole scoped buffer of the kernel's own. -/
abbrev scM4 : Memref sig .tc .vmem S1024x512 .f32 := Memref.whole cc4_scratch0
abbrev VS4 : View sig .tc .vmem S1024x512 .f32 := scM4.view

/-- The other scoped buffers of the core, none of which this region touches. -/
abbrev restBut4 (c : Dev nD) : sProp 𝕄 :=
  Pipeline.scopedRestBut (Ix := Unit) (Name := ℕ) (U := UR sig nD τ) (Lvl := ℕ) (Val := Elt F) spec4 c [cc4_scratch0]

/-- The region's invariant before its first point: the accumulator at something, the other scoped buffers, the generator register. -/
theorem PhiA4_eq (c : Dev nD) :
    (Pipeline.ΦA spec4 c : sProp 𝕄)
      = iprop(iprop((∃ d, owns (c : Thread nD τ) scM4 fullShare d) ∗ restBut4 c) ∗ (∃ r, prngReg c r)) := by
  unfold Pipeline.ΦA; rw [scopedRest4_split]; simp only [scM4, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun4_A (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond4_0 i) (hc1 : ¬cond4_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__matmul_kernel i arg2 harg2 arg3 harg3 arg4 harg4 arg5 harg5) K } := by
  refine ⟨[], ?_, fun xi2 E K => ?run⟩
  case run =>
    simp only [cc4__matmul_kernel_eq_skeleton]; unfold cc4__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK4b.lean ====
/- Laid out by: python3 scratch/layout_regions.py --template-region 1 --region 4 --program Kernel --parts a,b,c, --out-dir proof/Proof
   from the hand-written text of region 1 (RegKI1b.lean): the same text, the region's number and the program's namespace substituted. -/
/-
  Region 4, case B (k = 1, 2): the body's run. Neither conditional is taken: the product of the two blocks is added to what
  the point before left in the accumulator; the output block is not touched.
-/
import proofs.«158944_j64613488001249_1_alg».proof.Proof.RegK4a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun4_B (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond4_0 i) (hc1 : ¬cond4_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__matmul_kernel i arg2 harg2 arg3 harg3 arg4 harg4 arg5 harg5) K } := by
  refine ⟨[], ?_, fun xi2 E K => ?run⟩
  case run =>
    simp only [cc4__matmul_kernel_eq_skeleton]; unfold cc4__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK4c.lean ====
/- Laid out by: python3 scratch/layout_regions.py --template-region 1 --region 4 --program Kernel --parts a,b,c, --out-dir proof/Proof
   from the hand-written text of region 1 (RegKI1c.lean): the same text, the region's number and the program's namespace substituted. -/
/-
  Region 4, case C (k = 3): the body's run. The product is added to the accumulator as in case B, and then the second
  conditional copies the accumulator over the whole output block.
-/
import proofs.«158944_j64613488001249_1_alg».proof.Proof.RegK4b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun4_C (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond4_0 i) (hc1 : cond4_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__matmul_kernel i arg2 harg2 arg3 harg3 arg4 harg4 arg5 harg5) K } := by
  refine ⟨?_, ?_, fun E K => ?run⟩
  case run =>
    simp only [cc4__matmul_kernel_eq_skeleton]; unfold cc4__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK4.lean ====
/- Laid out by: python3 scratch/layout_regions.py --template-region 1 --region 4 --program Kernel --parts a,b,c, --out-dir proof/Proof
   from the hand-written text of region 1 (RegKI1.lean): the same text, the region's number and the program's namespace substituted. -/
/-
  Region 4 of @main, entered from the buffer contents `V`: what its windows' blocks are, what each case of the body leaves in
  the accumulator and in the output block, the accumulator and the output block point by point (`outsAt4`: at k = 0 the
  accumulator restarts from zeros plus the product; at k = 1, 2, 3 it is the point before's plus the product; at k = 3 the
  output block is the accumulator), the region's invariant (the accumulator at `outsAt4`'s second component), the proof data,
  and the body's obligation at every point.
-/
import proofs.«158944_j64613488001249_1_alg».proof.Proof.RegK4c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, for any proof data whose array is `V`'s and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## What each case leaves -/

/-- Case A's stores into the accumulator cover it. -/
theorem scover4_A (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond4_0 i) (hc1 : ¬cond4_1 i)
    (x0 : Vec F S1024x1024 .bf16) (x1 : Vec F S1024x512 .f32) (y : S1024x512.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S1024x512.size (by sl_kernel_rfl) y
/-- What case A leaves in the accumulator. -/
noncomputable def sout4_A (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond4_0 i) (hc1 : ¬cond4_1 i)
    (x0 : Vec F S1024x1024 .bf16) (x1 : Vec F S1024x512 .f32) : Vec F S1024x512 .f32 :=
  VS4.read (Elt F) (VS4.writes (Elt F) VS4.junk (kernelRun4_A c i arg2 harg2 arg3 harg3 arg4 harg4 arg5 harg5 hc0 hc1 x0 x1).2.1)

/-- Case B's store into the accumulator covers it. -/
theorem scover4_B (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond4_0 i) (hc1 : ¬cond4_1 i)
    (x0 : Vec F S1024x1024 .bf16) (x1 : Vec F S1024x512 .f32) (xs0 : Vec F S1024x512 .f32) (y : S1024x512.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S1024x512.size (by sl_kernel_rfl) y
/-- What case B leaves in the accumulator, over what the point before left. -/
noncomputable def sout4_B (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond4_0 i) (hc1 : ¬cond4_1 i)
    (x0 : Vec F S1024x1024 .bf16) (x1 : Vec F S1024x512 .f32) (xs0 : Vec F S1024x512 .f32) : Vec F S1024x512 .f32 :=
  VS4.read (Elt F) (VS4.writes (Elt F) VS4.junk (kernelRun4_B c i arg2 harg2 arg3 harg3 arg4 harg4 arg5 harg5 hc0 hc1 x0 x1 xs0).2.1)

/-- Case C's store into the output block covers it, and so does its store into the accumulator. -/
theorem cover4_C (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond4_0 i) (hc1 : cond4_1 i)
    (x0 : Vec F S1024x1024 .bf16) (x1 : Vec F S1024x512 .f32) (xs0 : Vec F S1024x512 .f32) (y : S1024x512.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S1024x512.size (by sl_kernel_rfl) y
theorem scover4_C (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond4_0 i) (hc1 : cond4_1 i)
    (x0 : Vec F S1024x1024 .bf16) (x1 : Vec F S1024x512 .f32) (xs0 : Vec F S1024x512 .f32) (y : S1024x512.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S1024x512.size (by sl_kernel_rfl) y
/-- What case C leaves in the output block, and in the accumulator. -/
noncomputable def out4_C (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond4_0 i) (hc1 : cond4_1 i)
    (x0 : Vec F S1024x1024 .bf16) (x1 : Vec F S1024x512 .f32) (xs0 : Vec F S1024x512 .f32) : Vec F S1024x512 .f32 :=
  VO4_2.read (Elt F) (VO4_2.writes (Elt F) VO4_2.junk (kernelRun4_C c i arg2 harg2 arg3 harg3 arg4 harg4 arg5 harg5 hc0 hc1 x0 x1 xs0).1)
noncomputable def sout4_C (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond4_0 i) (hc1 : cond4_1 i)
    (x0 : Vec F S1024x1024 .bf16) (x1 : Vec F S1024x512 .f32) (xs0 : Vec F S1024x512 .f32) : Vec F S1024x512 .f32 :=
  VS4.read (Elt F) (VS4.writes (Elt F) VS4.junk (kernelRun4_C c i arg2 harg2 arg3 harg3 arg4 harg4 arg5 harg5 hc0 hc1 x0 x1 xs0).2.1)

/-- Where the output block is idle nothing consults what it holds: a placeholder. -/
noncomputable def outIdle4 : Vec F S1024x512 .f32 := VO4_2.read (Elt F) (VO4_2.writes (Elt F) VO4_2.junk [])

/-! ## The conditions at a point, from t % 4 -/

theorem isFirst4 (t : Fin cfg4.N) (h : t.val % 4 = 0) : cond4_0 (grid4.coords t) := (hcond4_0 t).mpr h
theorem notFirst4 (t : Fin cfg4.N) (h : ¬t.val % 4 = 0) : ¬cond4_0 (grid4.coords t) := fun hc => h ((hcond4_0 t).mp hc)
theorem isLast4 (t : Fin cfg4.N) (h : t.val % 4 = 3) : cond4_1 (grid4.coords t) := (hcond4_1 t).mpr h
theorem notLast4 (t : Fin cfg4.N) (h : ¬t.val % 4 = 3) : ¬cond4_1 (grid4.coords t) := fun hc => h ((hcond4_1 t).mp hc)

/-! ## The accumulator and the output block, point by point -/

/-- After the body at position `n`: (the output block's buffer, the accumulator). -/
noncomputable def outsAt4 (c : Dev nD) : (n : ℕ) → n < cfg4.N → Vec F S1024x512 .f32 × Vec F S1024x512 .f32
  | 0, hn => (outIdle4, sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4 (Memref.isWhole_whole _) (isFirst4 ⟨0, hn⟩ (Nat.zero_mod _)) (notLast4 ⟨0, hn⟩ (by simp)) (iblk4 V c 0 ⟨0, hn⟩) (iblk4 V c 1 ⟨0, hn⟩))
  | n + 1, hn =>
    if h0 : (n + 1) % 4 = 0 then
      (outIdle4, sout4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (isFirst4 ⟨n + 1, hn⟩ h0) (notLast4 ⟨n + 1, hn⟩ (by show ¬(n + 1) % 4 = 3; omega)) (iblk4 V c 0 ⟨n + 1, hn⟩) (iblk4 V c 1 ⟨n + 1, hn⟩))
    else if h3 : (n + 1) % 4 = 3 then
      (out4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (notFirst4 ⟨n + 1, hn⟩ h0) (isLast4 ⟨n + 1, hn⟩ h3) (iblk4 V c 0 ⟨n + 1, hn⟩) (iblk4 V c 1 ⟨n + 1, hn⟩) (outsAt4 c n (Nat.lt_of_succ_lt hn)).2,
       sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (notFirst4 ⟨n + 1, hn⟩ h0) (isLast4 ⟨n + 1, hn⟩ h3) (iblk4 V c 0 ⟨n + 1, hn⟩) (iblk4 V c 1 ⟨n + 1, hn⟩) (outsAt4 c n (Nat.lt_of_succ_lt hn)).2)
    else
      (outIdle4, sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (notFirst4 ⟨n + 1, hn⟩ h0) (notLast4 ⟨n + 1, hn⟩ h3) (iblk4 V c 0 ⟨n + 1, hn⟩) (iblk4 V c 1 ⟨n + 1, hn⟩) (outsAt4 c n (Nat.lt_of_succ_lt hn)).2)

/-- `outsAt4` at a point with k = 0. -/
theorem outsAt4_A (c : Dev nD) (t : Fin cfg4.N) (h0 : t.val % 4 = 0) :
    outsAt4 V c t.val t.isLt = (outIdle4, sout4_A c (grid4.coords t) (ms4_0 t) (hs4_0 t) (ms4_1 t) (hs4_1 t) (ms4_2 t) (hs4_2 t) scM4 (Memref.isWhole_whole _) (isFirst4 t h0) (notLast4 t (by omega)) (iblk4 V c 0 t) (iblk4 V c 1 t)) := by
  obtain ⟨n, hn⟩ := t
  cases n with
  | zero => rfl
  | succ n => exact (dif_pos h0).trans rfl

/-- `outsAt4` at a point with k = 1, 2: over what the point before left. -/
theorem outsAt4_B (c : Dev nD) (t : Fin cfg4.N) (h0 : ¬t.val % 4 = 0) (h3 : ¬t.val % 4 = 3) :
    outsAt4 V c t.val t.isLt = (outIdle4, sout4_B c (grid4.coords t) (ms4_0 t) (hs4_0 t) (ms4_1 t) (hs4_1 t) (ms4_2 t) (hs4_2 t) scM4 (Memref.isWhole_whole _) (notFirst4 t h0) (notLast4 t h3) (iblk4 V c 0 t) (iblk4 V c 1 t)
      (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt4` at a point with k = 3. -/
theorem outsAt4_C (c : Dev nD) (t : Fin cfg4.N) (h0 : ¬t.val % 4 = 0) (h3 : t.val % 4 = 3) :
    outsAt4 V c t.val t.isLt = (out4_C c (grid4.coords t) (ms4_0 t) (hs4_0 t) (ms4_1 t) (hs4_1 t) (ms4_2 t) (hs4_2 t) scM4 (Memref.isWhole_whole _) (notFirst4 t h0) (isLast4 t h3) (iblk4 V c 0 t) (iblk4 V c 1 t)
        (outsAt4 V c (t.val - 1) (Nat.lt_of_le_of_lt (Nat.sub_le _ _) t.isLt)).2,
      sout4_C c (grid4.coords t) (ms4_0 t) (hs4_0 t) (ms4_1 t) (hs4_1 t) (ms4_2 t) (hs4_2 t) scM4 (Memref.isWhole_whole _) (notFirst4 t h0) (isLast4 t h3) (iblk4 V c 0 t) (iblk4 V c 1 t)
        (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2) ∗ restBut4 c) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4 fullShare ((outsAt4 V c n hn).2) ∗ restBut4 c) ∗ (∃ r, prngReg c r)) := rfl
theorem PhiS4_pos (c : Dev nD) (n : ℕ) (h : n ≤ cfg4.N) (hz : n ≠ 0) :
    PhiS4 V c n h = iprop(iprop(owns (c : Thread nD τ) scM4 fullShare ((outsAt4 V c (n - 1) (by omega)).2) ∗ restBut4 c) ∗ (∃ r, prngReg c r)) := by
  cases n with
  | zero => exact absurd rfl hz
  | succ n => rfl

/-! ## The proof data -/

/-- The region's proof data on core `c`: the arrays as the region finds them; after the body at point `t` each input's
    buffer at its block and the output's at `outsAt4`'s first component; the invariant `PhiS4`; nothing owed; full shares. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body's obligation -/

noncomputable def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

noncomputable def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 4 = 0
  · have h3 : ¬t.val % 4 = 3 := by omega
    rw [Dat.leavesExact_idle (dat4 V c) 2 t (idleAt4_2 t (notLast4 t h3)) (noFlush4_2 t (notLast4 t h3))]
    rw [outsAt4_A V c t h0]
    unfold sout4_A; (try dsimp only)
    by_cases hz : t.val = 0
    · rw [PhiS4_castSucc V c t, PhiS4_zero V c _ _ hz, PhiA4_eq]
      iintro ⟨⟨⟨HS0, Hrb⟩, Hg⟩, Ho, ⟨%d0, H0⟩, ⟨%d1, H1⟩, ⟨%d2, H2⟩⟩
      iapply ((kernelRun4_A c (grid4.coords t) _ _ _ _ _ _ _ _ (isFirst4 t h0) (notLast4 t (by omega)) (iblk4 V c 0 t) (iblk4 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover4_A c _ _ _ _ _ _ _ _ _ _ _ _ _)
          iexact Hrb
        iexact Hg
      isplitl [Ho]; · iexact Ho
      isplitl [H0]; · iexact H0
      isplitl [H1]; · iexact H1
      iexists _; iexact H2
    · rw [PhiS4_castSucc V c t, PhiS4_pos V c _ _ hz]
      iintro ⟨⟨⟨HS0, Hrb⟩, Hg⟩, Ho, ⟨%d0, H0⟩, ⟨%d1, H1⟩, ⟨%d2, H2⟩⟩
      iapply ((kernelRun4_A c (grid4.coords t) _ _ _ _ _ _ _ _ (isFirst4 t h0) (notLast4 t (by omega)) (iblk4 V c 0 t) (iblk4 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover4_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat4 V c).leavesExact 2 t = owns (c : Thread nD τ) (ms4_2 t) fullShare ((dat4 V c).after 2 t) from by
        unfold Dat.leavesExact; rw [liveAt4_2 t (isLast4 t h3)], after4_2]
      rw [outsAt4_C V c t h0 h3]
      unfold out4_C sout4_C; (try dsimp only)
      rw [PhiS4_castSucc V c t, PhiS4_pos V c _ _ hz]
      iintro ⟨⟨⟨HS0, Hrb⟩, Hg⟩, Ho, ⟨%d0, H0⟩, ⟨%d1, H1⟩, ⟨%d2, H2⟩⟩
      iapply ((kernelRun4_C c (grid4.coords t) _ _ _ _ _ _ _ _ (notFirst4 t h0) (isLast4 t h3) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover4_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C c _ _ _ _ _ _ _ _ _ _ _ _ _ _)
    · rw [Dat.leavesExact_idle (dat4 V c) 2 t (idleAt4_2 t (notLast4 t h3)) (noFlush4_2 t (notLast4 t h3))]
      rw [outsAt4_B V c t h0 h3]
      unfold sout4_B; (try dsimp only)
      rw [PhiS4_castSucc V c t, PhiS4_pos V c _ _ hz]
      iintro ⟨⟨⟨HS0, Hrb⟩, Hg⟩, Ho, ⟨%d0, H0⟩, ⟨%d1, H1⟩, ⟨%d2, H2⟩⟩
      iapply ((kernelRun4_B c (grid4.coords t) _ _ _ _ _ _ _ _ (notFirst4 t h0) (notLast4 t h3) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover4_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class's back: the accumulator's contents are forgotten. -/
theorem hout4 (c : Dev nD) : (dat4 V c).Φ (Fin.last cfg4.N) ⊢ Pipeline.ΦA spec4 c := by
  have hN : cfg4.N = 16 := N_4
  rw [show (dat4 V c).Φ (Fin.last cfg4.N) = PhiS4 V c (Fin.last cfg4.N).val (Nat.le_of_lt_succ (Fin.last cfg4.N).isLt) from rfl,
    PhiS4_pos V c _ _ (by rw [Fin.val_last]; omega), PhiA4_eq]
  iintro ⟨⟨HS0, Hrb⟩, Hg⟩
  isplitl [HS0 Hrb]
  · isplitl [HS0]
    · iexists _; iexact HS0
    iexact Hrb
  iexact Hg

end Cert.Kernel.Hand

end
-- ==== Proof.RegK5a.lean ====
/- Laid out by: python3 scratch/layout_regions.py --template-region 1 --region 5 --program Kernel --parts a,b,c, --out-dir proof/Proof
   from the hand-written text of region 1 (RegKI1a.lean): the same text, the region's number and the program's namespace substituted. -/
/-
  Region 5 of @main (custom_call 5): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond5_0 (i : grid5.Coords) : Prop := (Scalar.cmpi .ne (Scalar.extui (Scalar.cmpi .eq (BitVec.ofNat 32 (i 1).val) 0#32)) 0#32) = 1#1
/-- It holds exactly at the points with t % 4 = 0. -/
theorem hcond5_0 : ∀ t : Fin cfg5.N, cond5_0 (grid5.coords t) ↔ t.val % 4 = 0 :=
  (by decide +kernel : ∀ t : Fin grid5.N, cond5_0 (grid5.coords t) ↔ t.val % 4 = 0)

/-- "k = 3": the second conditional's test. -/
abbrev cond5_1 (i : grid5.Coords) : Prop := k5_cond2 i = 1#1
/-- It holds exactly at the points with t % 4 = 3. -/
theorem hcond5_1 : ∀ t : Fin cfg5.N, cond5_1 (grid5.coords t) ↔ t.val % 4 = 3 :=
  (by decide +kernel : ∀ t : Fin grid5.N, cond5_1 (grid5.coords t) ↔ t.val % 4 = 3)

/-! ## Where the windows are idle, and where the output is written back -/

/-- The two input windows are never idle. -/
theorem liveAt5_0 : ∀ t : Fin cfg5.N, cfg5.idle 0 (grid5.coords t) = false := by decide +kernel
theorem liveAt5_1 : ∀ t : Fin cfg5.N, cfg5.idle 1 (grid5.coords t) = false := by decide +kernel
/-- Where k ≠ 3 the output window is idle (the body stores nothing into it) and is not written back. -/
theorem idleAt5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel
/-- Where k = 3 it is live. -/
theorem liveAt5_2 : ∀ t : Fin cfg5.N, cond5_1 (grid5.coords t) → cfg5.idle 2 (grid5.coords t) = false := by decide +kernel

/-! ## The staging memrefs at a point, and the scratch -/

/-- One staging buffer of the output window, through which its contents are stated. -/
abbrev VO5_2 : View sig .tc .vmem S1024x512 .f32 := (Memref.whole cc5_stg2_0 : Memref sig .tc .vmem S1024x512 .f32).view
abbrev ms5_0 (t : Fin cfg5.N) : Memref sig .tc .vmem S1024x1024 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x512 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x512 .f32 := win5_2.stage (cfg5.slots t 2)
abbrev hs5_2 (t : Fin cfg5.N) : (ms5_2 t).IsWhole := hstage5_2 ((cfg5.slots t 2).cast nbuf5_2)
/-- The accumulator: a whole scoped buffer of the kernel's own. -/
abbrev scM5 : Memref sig .tc .vmem S1024x512 .f32 := Memref.whole cc5_scratch0
abbrev VS5 : View sig .tc .vmem S1024x512 .f32 := scM5.view

/-- The other scoped buffers of the core, none of which this region touches. -/
abbrev restBut5 (c : Dev nD) : sProp 𝕄 :=
  Pipeline.scopedRestBut (Ix := Unit) (Name := ℕ) (U := UR sig nD τ) (Lvl := ℕ) (Val := Elt F) spec5 c [cc5_scratch0]

/-- The region's invariant before its first point: the accumulator at something, the other scoped buffers, the generator register. -/
theorem PhiA5_eq (c : Dev nD) :
    (Pipeline.ΦA spec5 c : sProp 𝕄)
      = iprop(iprop((∃ d, owns (c : Thread nD τ) scM5 fullShare d) ∗ restBut5 c) ∗ (∃ r, prngReg c r)) := by
  unfold Pipeline.ΦA; rw [scopedRest5_split]; simp only [scM5, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun5_A (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond5_0 i) (hc1 : ¬cond5_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc5__matmul_kernel i arg2 harg2 arg3 harg3 arg4 harg4 arg5 harg5) K } := by
  refine ⟨[], ?_, fun xi2 E K => ?run⟩
  case run =>
    simp only [cc5__matmul_kernel_eq_skeleton]; unfold cc5__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK5b.lean ====
/- Laid out by: python3 scratch/layout_regions.py --template-region 1 --region 5 --program Kernel --parts a,b,c, --out-dir proof/Proof
   from the hand-written text of region 1 (RegKI1b.lean): the same text, the region's number and the program's namespace substituted. -/
/-
  Region 5, case B (k = 1, 2): the body's run. Neither conditional is taken: the product of the two blocks is added to what
  the point before left in the accumulator; the output block is not touched.
-/
import proofs.«158944_j64613488001249_1_alg».proof.Proof.RegK5a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun5_B (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond5_0 i) (hc1 : ¬cond5_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc5__matmul_kernel i arg2 harg2 arg3 harg3 arg4 harg4 arg5 harg5) K } := by
  refine ⟨[], ?_, fun xi2 E K => ?run⟩
  case run =>
    simp only [cc5__matmul_kernel_eq_skeleton]; unfold cc5__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK5c.lean ====
/- Laid out by: python3 scratch/layout_regions.py --template-region 1 --region 5 --program Kernel --parts a,b,c, --out-dir proof/Proof
   from the hand-written text of region 1 (RegKI1c.lean): the same text, the region's number and the program's namespace substituted. -/
/-
  Region 5, case C (k = 3): the body's run. The product is added to the accumulator as in case B, and then the second
  conditional copies the accumulator over the whole output block.
-/
import proofs.«158944_j64613488001249_1_alg».proof.Proof.RegK5b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun5_C (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond5_0 i) (hc1 : cond5_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc5__matmul_kernel i arg2 harg2 arg3 harg3 arg4 harg4 arg5 harg5) K } := by
  refine ⟨?_, ?_, fun E K => ?run⟩
  case run =>
    simp only [cc5__matmul_kernel_eq_skeleton]; unfold cc5__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK5.lean ====
/- Laid out by: python3 scratch/layout_regions.py --template-region 1 --region 5 --program Kernel --parts a,b,c, --out-dir proof/Proof
   from the hand-written text of region 1 (RegKI1.lean): the same text, the region's number and the program's namespace substituted. -/
/-
  Region 5 of @main, entered from the buffer contents `V`: what its windows' blocks are, what each case of the body leaves in
  the accumulator and in the output block, the accumulator and the output block point by point (`outsAt5`: at k = 0 the
  accumulator restarts from zeros plus the product; at k = 1, 2, 3 it is the point before's plus the product; at k = 3 the
  output block is the accumulator), the region's invariant (the accumulator at `outsAt5`'s second component), the proof data,
  and the body's obligation at every point.
-/
import proofs.«158944_j64613488001249_1_alg».proof.Proof.RegK5c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, for any proof data whose array is `V`'s and
    whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## What each case leaves -/

/-- Case A's stores into the accumulator cover it. -/
theorem scover5_A (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond5_0 i) (hc1 : ¬cond5_1 i)
    (x0 : Vec F S1024x1024 .bf16) (x1 : Vec F S1024x512 .f32) (y : S1024x512.Idx) :
    ∃ pc ∈ (kernelRun5_A c i arg2 harg2 arg3 harg3 arg4 harg4 arg5 harg5 hc0 hc1 x0 x1).2.1, y ∈ pc.1.set :=
  View.cover_of_tiledL (kernelRun5_A c i arg2 harg2 arg3 harg3 arg4 harg4 arg5 harg5 hc0 hc1 x0 x1).2.1 S1024x512.size (by sl_kernel_rfl) y
/-- What case A leaves in the accumulator. -/
noncomputable def sout5_A (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond5_0 i) (hc1 : ¬cond5_1 i)
    (x0 : Vec F S1024x1024 .bf16) (x1 : Vec F S1024x512 .f32) : Vec F S1024x512 .f32 :=
  VS5.read (Elt F) (VS5.writes (Elt F) VS5.junk (kernelRun5_A c i arg2 harg2 arg3 harg3 arg4 harg4 arg5 harg5 hc0 hc1 x0 x1).2.1)

/-- Case B's store into the accumulator covers it. -/
theorem scover5_B (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond5_0 i) (hc1 : ¬cond5_1 i)
    (x0 : Vec F S1024x1024 .bf16) (x1 : Vec F S1024x512 .f32) (xs0 : Vec F S1024x512 .f32) (y : S1024x512.Idx) :
    ∃ pc ∈ (kernelRun5_B c i arg2 harg2 arg3 harg3 arg4 harg4 arg5 harg5 hc0 hc1 x0 x1 xs0).2.1, y ∈ pc.1.set :=
  View.cover_of_tiledL (kernelRun5_B c i arg2 harg2 arg3 harg3 arg4 harg4 arg5 harg5 hc0 hc1 x0 x1 xs0).2.1 S1024x512.size (by sl_kernel_rfl) y
/-- What case B leaves in the accumulator, over what the point before left. -/
noncomputable def sout5_B (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond5_0 i) (hc1 : ¬cond5_1 i)
    (x0 : Vec F S1024x1024 .bf16) (x1 : Vec F S1024x512 .f32) (xs0 : Vec F S1024x512 .f32) : Vec F S1024x512 .f32 :=
  VS5.read (Elt F) (VS5.writes (Elt F) VS5.junk (kernelRun5_B c i arg2 harg2 arg3 harg3 arg4 harg4 arg5 harg5 hc0 hc1 x0 x1 xs0).2.1)

/-- Case C's store into the output block covers it, and so does its store into the accumulator. -/
theorem cover5_C (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond5_0 i) (hc1 : cond5_1 i)
    (x0 : Vec F S1024x1024 .bf16) (x1 : Vec F S1024x512 .f32) (xs0 : Vec F S1024x512 .f32) (y : S1024x512.Idx) :
    ∃ pc ∈ (kernelRun5_C c i arg2 harg2 arg3 harg3 arg4 harg4 arg5 harg5 hc0 hc1 x0 x1 xs0).1, y ∈ pc.1.set :=
  View.cover_of_tiledL (kernelRun5_C c i arg2 harg2 arg3 harg3 arg4 harg4 arg5 harg5 hc0 hc1 x0 x1 xs0).1 S1024x512.size (by sl_kernel_rfl) y
theorem scover5_C (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond5_0 i) (hc1 : cond5_1 i)
    (x0 : Vec F S1024x1024 .bf16) (x1 : Vec F S1024x512 .f32) (xs0 : Vec F S1024x512 .f32) (y : S1024x512.Idx) :
    ∃ pc ∈ (kernelRun5_C c i arg2 harg2 arg3 harg3 arg4 harg4 arg5 harg5 hc0 hc1 x0 x1 xs0).2.1, y ∈ pc.1.set :=
  View.cover_of_tiledL (kernelRun5_C c i arg2 harg2 arg3 harg3 arg4 harg4 arg5 harg5 hc0 hc1 x0 x1 xs0).2.1 S1024x512.size (by sl_kernel_rfl) y
/-- What case C leaves in the output block, and in the accumulator. -/
noncomputable def out5_C (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond5_0 i) (hc1 : cond5_1 i)
    (x0 : Vec F S1024x1024 .bf16) (x1 : Vec F S1024x512 .f32) (xs0 : Vec F S1024x512 .f32) : Vec F S1024x512 .f32 :=
  VO5_2.read (Elt F) (VO5_2.writes (Elt F) VO5_2.junk (kernelRun5_C c i arg2 harg2 arg3 harg3 arg4 harg4 arg5 harg5 hc0 hc1 x0 x1 xs0).1)
noncomputable def sout5_C (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond5_0 i) (hc1 : cond5_1 i)
    (x0 : Vec F S1024x1024 .bf16) (x1 : Vec F S1024x512 .f32) (xs0 : Vec F S1024x512 .f32) : Vec F S1024x512 .f32 :=
  VS5.read (Elt F) (VS5.writes (Elt F) VS5.junk (kernelRun5_C c i arg2 harg2 arg3 harg3 arg4 harg4 arg5 harg5 hc0 hc1 x0 x1 xs0).2.1)

/-- Where the output block is idle nothing consults what it holds: a placeholder. -/
noncomputable def outIdle5 : Vec F S1024x512 .f32 := VO5_2.read (Elt F) (VO5_2.writes (Elt F) VO5_2.junk [])

/-! ## The conditions at a point, from t % 4 -/

theorem isFirst5 (t : Fin cfg5.N) (h : t.val % 4 = 0) : cond5_0 (grid5.coords t) := (hcond5_0 t).mpr h
theorem notFirst5 (t : Fin cfg5.N) (h : ¬t.val % 4 = 0) : ¬cond5_0 (grid5.coords t) := fun hc => h ((hcond5_0 t).mp hc)
theorem isLast5 (t : Fin cfg5.N) (h : t.val % 4 = 3) : cond5_1 (grid5.coords t) := (hcond5_1 t).mpr h
theorem notLast5 (t : Fin cfg5.N) (h : ¬t.val % 4 = 3) : ¬cond5_1 (grid5.coords t) := fun hc => h ((hcond5_1 t).mp hc)

/-! ## The accumulator and the output block, point by point -/

/-- After the body at position `n`: (the output block's buffer, the accumulator). -/
noncomputable def outsAt5 (c : Dev nD) : (n : ℕ) → n < cfg5.N → Vec F S1024x512 .f32 × Vec F S1024x512 .f32
  | 0, hn => (outIdle5, sout5_A c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5 (Memref.isWhole_whole _) (isFirst5 ⟨0, hn⟩ (Nat.zero_mod _)) (notLast5 ⟨0, hn⟩ (by simp)) (iblk5 V c 0 ⟨0, hn⟩) (iblk5 V c 1 ⟨0, hn⟩))
  | n + 1, hn =>
    if h0 : (n + 1) % 4 = 0 then
      (outIdle5, sout5_A c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5 (Memref.isWhole_whole _) (isFirst5 ⟨n + 1, hn⟩ h0) (notLast5 ⟨n + 1, hn⟩ (by show ¬(n + 1) % 4 = 3; omega)) (iblk5 V c 0 ⟨n + 1, hn⟩) (iblk5 V c 1 ⟨n + 1, hn⟩))
    else if h3 : (n + 1) % 4 = 3 then
      (out5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5 (Memref.isWhole_whole _) (notFirst5 ⟨n + 1, hn⟩ h0) (isLast5 ⟨n + 1, hn⟩ h3) (iblk5 V c 0 ⟨n + 1, hn⟩) (iblk5 V c 1 ⟨n + 1, hn⟩) (outsAt5 c n (Nat.lt_of_succ_lt hn)).2,
       sout5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5 (Memref.isWhole_whole _) (notFirst5 ⟨n + 1, hn⟩ h0) (isLast5 ⟨n + 1, hn⟩ h3) (iblk5 V c 0 ⟨n + 1, hn⟩) (iblk5 V c 1 ⟨n + 1, hn⟩) (outsAt5 c n (Nat.lt_of_succ_lt hn)).2)
    else
      (outIdle5, sout5_B c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5 (Memref.isWhole_whole _) (notFirst5 ⟨n + 1, hn⟩ h0) (notLast5 ⟨n + 1, hn⟩ h3) (iblk5 V c 0 ⟨n + 1, hn⟩) (iblk5 V c 1 ⟨n + 1, hn⟩) (outsAt5 c n (Nat.lt_of_succ_lt hn)).2)

/-- `outsAt5` at a point with k = 0. -/
theorem outsAt5_A (c : Dev nD) (t : Fin cfg5.N) (h0 : t.val % 4 = 0) :
    outsAt5 V c t.val t.isLt = (outIdle5, sout5_A c (grid5.coords t) (ms5_0 t) (hs5_0 t) (ms5_1 t) (hs5_1 t) (ms5_2 t) (hs5_2 t) scM5 (Memref.isWhole_whole _) (isFirst5 t h0) (notLast5 t (by omega)) (iblk5 V c 0 t) (iblk5 V c 1 t)) := by
  obtain ⟨n, hn⟩ := t
  cases n with
  | zero => rfl
  | succ n => exact (dif_pos h0).trans rfl

/-- `outsAt5` at a point with k = 1, 2: over what the point before left. -/
theorem outsAt5_B (c : Dev nD) (t : Fin cfg5.N) (h0 : ¬t.val % 4 = 0) (h3 : ¬t.val % 4 = 3) :
    outsAt5 V c t.val t.isLt = (outIdle5, sout5_B c (grid5.coords t) (ms5_0 t) (hs5_0 t) (ms5_1 t) (hs5_1 t) (ms5_2 t) (hs5_2 t) scM5 (Memref.isWhole_whole _) (notFirst5 t h0) (notLast5 t h3) (iblk5 V c 0 t) (iblk5 V c 1 t)
      (outsAt5 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt5` at a point with k = 3. -/
theorem outsAt5_C (c : Dev nD) (t : Fin cfg5.N) (h0 : ¬t.val % 4 = 0) (h3 : t.val % 4 = 3) :
    outsAt5 V c t.val t.isLt = (out5_C c (grid5.coords t) (ms5_0 t) (hs5_0 t) (ms5_1 t) (hs5_1 t) (ms5_2 t) (hs5_2 t) scM5 (Memref.isWhole_whole _) (notFirst5 t h0) (isLast5 t h3) (iblk5 V c 0 t) (iblk5 V c 1 t)
        (outsAt5 V c (t.val - 1) (Nat.lt_of_le_of_lt (Nat.sub_le _ _) t.isLt)).2,
      sout5_C c (grid5.coords t) (ms5_0 t) (hs5_0 t) (ms5_1 t) (hs5_1 t) (ms5_2 t) (hs5_2 t) scM5 (Memref.isWhole_whole _) (notFirst5 t h0) (isLast5 t h3) (iblk5 V c 0 t) (iblk5 V c 1 t)
        (outsAt5 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS5 (c : Dev nD) : (n : ℕ) → n ≤ cfg5.N → sProp 𝕄
  | 0, _ => Pipeline.ΦA spec5 c
  | n + 1, hn => iprop(iprop(owns (c : Thread nD τ) scM5 fullShare ((outsAt5 V c n hn).2) ∗ restBut5 c) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(owns (c : Thread nD τ) scM5 fullShare ((outsAt5 V c n hn).2) ∗ restBut5 c) ∗ (∃ r, prngReg c r)) := rfl
theorem PhiS5_pos (c : Dev nD) (n : ℕ) (h : n ≤ cfg5.N) (hz : n ≠ 0) :
    PhiS5 V c n h = iprop(iprop(owns (c : Thread nD τ) scM5 fullShare ((outsAt5 V c (n - 1) (by omega)).2) ∗ restBut5 c) ∗ (∃ r, prngReg c r)) := by
  cases n with
  | zero => exact absurd rfl hz
  | succ n => rfl

/-! ## The proof data -/

/-- The region's proof data on core `c`: the arrays as the region finds them; after the body at point `t` each input's
    buffer at its block and the output's at `outsAt5`'s first component; the invariant `PhiS5`; nothing owed; full shares. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body's obligation -/

noncomputable def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

noncomputable def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  by_cases h0 : t.val % 4 = 0
  · have h3 : ¬t.val % 4 = 3 := by omega
    rw [Dat.leavesExact_idle (dat5 V c) 2 t (idleAt5_2 t (notLast5 t h3)) (noFlush5_2 t (notLast5 t h3))]
    rw [outsAt5_A V c t h0]
    unfold sout5_A; (try dsimp only)
    by_cases hz : t.val = 0
    · rw [PhiS5_castSucc V c t, PhiS5_zero V c _ _ hz, PhiA5_eq]
      iintro ⟨⟨⟨HS0, Hrb⟩, Hg⟩, Ho, ⟨%d0, H0⟩, ⟨%d1, H1⟩, ⟨%d2, H2⟩⟩
      iapply ((kernelRun5_A c (grid5.coords t) _ _ _ _ _ _ _ _ (isFirst5 t h0) (notLast5 t (by omega)) (iblk5 V c 0 t) (iblk5 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover5_A c _ _ _ _ _ _ _ _ _ _ _ _ _)
          iexact Hrb
        iexact Hg
      isplitl [Ho]; · iexact Ho
      isplitl [H0]; · iexact H0
      isplitl [H1]; · iexact H1
      iexists _; iexact H2
    · rw [PhiS5_castSucc V c t, PhiS5_pos V c _ _ hz]
      iintro ⟨⟨⟨HS0, Hrb⟩, Hg⟩, Ho, ⟨%d0, H0⟩, ⟨%d1, H1⟩, ⟨%d2, H2⟩⟩
      iapply ((kernelRun5_A c (grid5.coords t) _ _ _ _ _ _ _ _ (isFirst5 t h0) (notLast5 t (by omega)) (iblk5 V c 0 t) (iblk5 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover5_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat5 V c).leavesExact 2 t = owns (c : Thread nD τ) (ms5_2 t) fullShare ((dat5 V c).after 2 t) from by
        unfold Dat.leavesExact; rw [liveAt5_2 t (isLast5 t h3)], after5_2]
      rw [outsAt5_C V c t h0 h3]
      unfold out5_C sout5_C; (try dsimp only)
      rw [PhiS5_castSucc V c t, PhiS5_pos V c _ _ hz]
      iintro ⟨⟨⟨HS0, Hrb⟩, Hg⟩, Ho, ⟨%d0, H0⟩, ⟨%d1, H1⟩, ⟨%d2, H2⟩⟩
      iapply ((kernelRun5_C c (grid5.coords t) _ _ _ _ _ _ _ _ (notFirst5 t h0) (isLast5 t h3) (iblk5 V c 0 t) (iblk5 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover5_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover5_C c _ _ _ _ _ _ _ _ _ _ _ _ _ _)
    · rw [Dat.leavesExact_idle (dat5 V c) 2 t (idleAt5_2 t (notLast5 t h3)) (noFlush5_2 t (notLast5 t h3))]
      rw [outsAt5_B V c t h0 h3]
      unfold sout5_B; (try dsimp only)
      rw [PhiS5_castSucc V c t, PhiS5_pos V c _ _ hz]
      iintro ⟨⟨⟨HS0, Hrb⟩, Hg⟩, Ho, ⟨%d0, H0⟩, ⟨%d1, H1⟩, ⟨%d2, H2⟩⟩
      iapply ((kernelRun5_B c (grid5.coords t) _ _ _ _ _ _ _ _ (notFirst5 t h0) (notLast5 t h3) (iblk5 V c 0 t) (iblk5 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover5_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the region is entered with is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the class's back: the accumulator's contents are forgotten. -/
theorem hout5 (c : Dev nD) : (dat5 V c).Φ (Fin.last cfg5.N) ⊢ Pipeline.ΦA spec5 c := by
  have hN : cfg5.N = 16 := N_5
  rw [show (dat5 V c).Φ (Fin.last cfg5.N) = PhiS5 V c (Fin.last cfg5.N).val (Nat.le_of_lt_succ (Fin.last cfg5.N).isLt) from rfl,
    PhiS5_pos V c _ _ (by rw [Fin.val_last]; omega), PhiA5_eq]
  iintro ⟨⟨HS0, Hrb⟩, Hg⟩
  isplitl [HS0 Hrb]
  · isplitl [HS0]
    · iexists _; iexact HS0
    iexact Hrb
  iexact Hg

end Cert.Kernel.Hand

end
-- ==== Proof.RegK6a.lean ====
/- Laid out by: python3 scratch/layout_grid41.py --template-region 0 --region 6 --program Kernel --parts a, --shapes S1024x128=S1024x512,S128x512=S512x512
   from the hand-written text of region 0 (RegKI0a.lean): the same text, the region's number, block shapes and the program's namespace substituted. -/
/- The region of Kernel's @main that runs `cc6__matmul_kernel` (pipeline `cfg6`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond6_0 (i : grid6.Coords) : Prop :=
  (Scalar.cmpi .ne (Scalar.extui (Scalar.cmpi .eq (BitVec.ofNat 32 (i 1).val) 0#32)) 0#32) = 1#1
/-- True at every point: the reduction axis has one step. -/
theorem hcond6_0 : ∀ t : Fin cfg6.N, cond6_0 (grid6.coords t) :=
  (by decide +kernel : ∀ t : Fin grid6.N, cond6_0 (grid6.coords t))

/-- "This is the last reduction step" (the guard of the copy to the output block). -/
abbrev cond6_1 (i : grid6.Coords) : Prop := k6_cond2 i = 1#1
/-- True at every point, for the same reason. -/
theorem hcond6_1 : ∀ t : Fin cfg6.N, cond6_1 (grid6.coords t) :=
  (by decide +kernel : ∀ t : Fin grid6.N, cond6_1 (grid6.coords t))

/-! ## No window is idle anywhere -/

theorem liveAt6_0 : ∀ t : Fin cfg6.N, cfg6.idle 0 (grid6.coords t) = false := by decide +kernel
theorem liveAt6_1 : ∀ t : Fin cfg6.N, cfg6.idle 1 (grid6.coords t) = false := by decide +kernel
/-- The output window is stored at every point (the copy's guard holds everywhere). -/
theorem liveAt6_2 : ∀ t : Fin cfg6.N, cfg6.idle 2 (grid6.coords t) = false := by decide +kernel

/-! ## The memrefs the body is called on -/

/-- One staging buffer of the output window, through which its contents are stated (any whole view of the shape reads the
    same pieces back the same way). -/
abbrev VO6_2 : View sig .tc .vmem S1024x512 .f32 := (Memref.whole cc6_stg2_0 : Memref sig .tc .vmem S1024x512 .f32).view
/-- Each window's current staging memref at point `t`, spelt as the pipeline passes it, with its wholeness. -/
abbrev ms6_0 (t : Fin cfg6.N) : Memref sig .tc .vmem S1024x512 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S512x512 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x512 .f32 := win6_2.stage (cfg6.slots t 2)
abbrev hs6_2 (t : Fin cfg6.N) : (ms6_2 t).IsWhole := hstage6_2 ((cfg6.slots t 2).cast nbuf6_2)
/-- The accumulator: a whole scoped buffer of the kernel's own, passed beside the windows. -/
abbrev scM6_0 : Memref sig .tc .vmem S1024x512 .f32 := Memref.whole cc6_scratch0
abbrev VS6_0 : View sig .tc .vmem S1024x512 .f32 := scM6_0.view

/-- The region invariant with the accumulator taken out of the scoped rest: the accumulator owned at some contents, every
    other scoped buffer unopened, and the generator register. -/
theorem PhiA6_eq (c : Dev nD) :
    (Pipeline.ΦA spec6 c : sProp 𝕄)
      = iprop(iprop(iprop((∃ d, owns (c : Thread nD τ) scM6_0 fullShare d))
            ∗ Pipeline.scopedRestBut (Ix := Unit) (Name := ℕ) (U := UR sig nD τ) (Lvl := ℕ) (Val := Elt F) spec6 c [cc6_scratch0])
          ∗ (∃ r, prngReg c r)) := by
  unfold Pipeline.ΦA; rw [scopedRest6_split]; simp only [scM6_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun6 (c : Dev nD) (i : grid6.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond6_0 i) (hlast : cond6_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc6__matmul_kernel i arg2 harg2 arg3 harg3 arg4 harg4 arg5 harg5) K } := by
  refine ⟨?_, ?_, fun E K => ?run⟩
  case run =>
    simp only [cc6__matmul_kernel_eq_skeleton]; unfold cc6__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.Kernel.Hand

end
-- ==== Proof.RegK6.lean ====
/- Laid out by: python3 scratch/layout_grid41.py --template-region 0 --region 6 --program Kernel --parts a, --shapes S1024x128=S1024x512,S128x512=S512x512
   from the hand-written text of region 0 (RegKI0.lean): the same text, the region's number, block shapes and the program's namespace substituted. -/
/- The region of Kernel's @main that runs `cc6__matmul_kernel` (pipeline `cfg6`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegK6a
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## What the case leaves, as pieces read back -/

/-- The output's pieces tile its block (one whole-block store). -/
theorem cover6_2 (c : Dev nD) (i : grid6.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond6_0 i) (hlast : cond6_1 i) (xa : Vec F S1024x512 .f32) (xb : Vec F S512x512 .bf16) (y : S1024x512.Idx) :
    ∃ pc ∈ (kernelRun6 c i arg2 harg2 arg3 harg3 arg4 harg4 arg5 harg5 hfirst hlast xa xb).1, y ∈ pc.1.set :=
  View.cover_of_tiledL (kernelRun6 c i arg2 harg2 arg3 harg3 arg4 harg4 arg5 harg5 hfirst hlast xa xb).1 S1024x512.size (by sl_kernel_rfl) y

/-- What the case leaves in the output's staging buffer: its pieces read back over junk. -/
noncomputable def out6_2 (c : Dev nD) (i : grid6.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond6_0 i) (hlast : cond6_1 i) (xa : Vec F S1024x512 .f32) (xb : Vec F S512x512 .bf16) : Vec F S1024x512 .f32 :=
  VO6_2.read (Elt F) (VO6_2.writes (Elt F) VO6_2.junk (kernelRun6 c i arg2 harg2 arg3 harg3 arg4 harg4 arg5 harg5 hfirst hlast xa xb).1)

/-- What the case leaves in the accumulator: its pieces read back over junk. -/
noncomputable def sout6_0 (c : Dev nD) (i : grid6.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond6_0 i) (hlast : cond6_1 i) (xa : Vec F S1024x512 .f32) (xb : Vec F S512x512 .bf16) : Vec F S1024x512 .f32 :=
  VS6_0.read (Elt F) (VS6_0.writes (Elt F) VS6_0.junk (kernelRun6 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout6_0_eq (c : Dev nD) (i : grid6.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond6_0 i) (hlast : cond6_1 i) (xa : Vec F S1024x512 .f32) (xb : Vec F S512x512 .bf16) :
    sout6_0 c i arg2 harg2 arg3 harg3 arg4 harg4 arg5 harg5 hfirst hlast xa xb = k6_pay2 xa xb (k6_pay1 (F := F)) := by
  unfold sout6_0
  rw [View.read_writes_junk_eq_canon]
  unfold kernelRun6
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out6_2_eq (c : Dev nD) (i : grid6.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond6_0 i) (hlast : cond6_1 i) (xa : Vec F S1024x512 .f32) (xb : Vec F S512x512 .bf16) :
    out6_2 c i arg2 harg2 arg3 harg3 arg4 harg4 arg5 harg5 hfirst hlast xa xb = k6_pay2 xa xb (k6_pay1 (F := F)) := by
  unfold out6_2
  rw [View.read_writes_junk_eq_canon]
  unfold kernelRun6
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt6 (c : Dev nD) (n : ℕ) (hn : n < cfg6.N) : Vec F S1024x512 .f32 × Vec F S1024x512 .f32 :=
  (out6_2 c (grid6.coords ⟨n, hn⟩) (ms6_0 ⟨n, hn⟩) (hs6_0 ⟨n, hn⟩) (ms6_1 ⟨n, hn⟩) (hs6_1 ⟨n, hn⟩) (ms6_2 ⟨n, hn⟩) (hs6_2 ⟨n, hn⟩) scM6_0 (Memref.isWhole_whole _)
      (hcond6_0 ⟨n, hn⟩) (hcond6_1 ⟨n, hn⟩) (iblk6 V c 0 ⟨n, hn⟩) (iblk6 V c 1 ⟨n, hn⟩),
   sout6_0 c (grid6.coords ⟨n, hn⟩) (ms6_0 ⟨n, hn⟩) (hs6_0 ⟨n, hn⟩) (ms6_1 ⟨n, hn⟩) (hs6_1 ⟨n, hn⟩) (ms6_2 ⟨n, hn⟩) (hs6_2 ⟨n, hn⟩) scM6_0 (Memref.isWhole_whole _)
      (hcond6_0 ⟨n, hn⟩) (hcond6_1 ⟨n, hn⟩) (iblk6 V c 0 ⟨n, hn⟩) (iblk6 V c 1 ⟨n, hn⟩))

/-- Every point is a first reduction step: the accumulator after it is one product onto zero. -/
theorem outsAt6_first (c : Dev nD) (t : Fin cfg6.N) :
    (outsAt6 V c t.val t.isLt).2 = k6_pay2 (iblk6 V c 0 t) (iblk6 V c 1 t) (k6_pay1 (F := F)) := by
  obtain ⟨n, hn⟩ := t
  unfold outsAt6
  dsimp only
  rw [sout6_0_eq]

/-- Every point is a last reduction step: the output block after it is the accumulator. -/
theorem outsAt6_last (c : Dev nD) (t : Fin cfg6.N) :
    (outsAt6 V c t.val t.isLt).1 = (outsAt6 V c t.val t.isLt).2 := by
  obtain ⟨n, hn⟩ := t
  unfold outsAt6
  dsimp only
  rw [out6_2_eq, sout6_0_eq]

/-! ## The pipeline's proof data -/

/-- The proof data of the pipeline on core `c`: the arrays as the region finds them; after the body at point `t` each input's
    buffer at its block and the output's at `outsAt6`'s first component; the invariant the same at every point; nothing owed;
    full shares. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]

/-- An input's current staging buffer holds its block at every point, fetched there or not: where it is not fetched its block
    index has not moved since the point before, and the body left the block in place. -/
theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)

/-! ## The body obligation, at a generic point -/

/-- What the body is called with at point `t`, the windows one by one, -/
noncomputable def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns. -/
noncomputable def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl,
    show (dat6 V c).Φ t.succ = Pipeline.ΦA spec6 c from rfl, show (dat6 V c).Φ t.castSucc = Pipeline.ΦA spec6 c from rfl, PhiA6_eq]
  rw [show (dat6 V c).leavesExact 0 t = owns (c : Thread nD τ) (ms6_0 t) fullShare ((dat6 V c).after 0 t) from by
      unfold Dat.leavesExact; rw [liveAt6_0 t], after6_0]
  rw [show (dat6 V c).leavesExact 1 t = owns (c : Thread nD τ) (ms6_1 t) fullShare ((dat6 V c).after 1 t) from by
      unfold Dat.leavesExact; rw [liveAt6_1 t], after6_1]
  rw [show (dat6 V c).leavesExact 2 t = owns (c : Thread nD τ) (ms6_2 t) fullShare ((dat6 V c).after 2 t) from by
      unfold Dat.leavesExact; rw [liveAt6_2 t], after6_2]
  unfold outsAt6 out6_2; (try dsimp only)
  iintro ⟨⟨⟨Hacc, Hrest⟩, Hgen⟩, Howe, ⟨%da, Ha⟩, ⟨%db, Hb⟩, ⟨%dO, Hout⟩⟩
  iapply ((kernelRun6 c (grid6.coords t) _ _ _ _ _ _ _ _ (hcond6_0 t) (hcond6_1 t) (iblk6 V c 0 t) (iblk6 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover6_2 c _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point, -/
theorem hin6 (c : Dev nD) : Pipeline.ΦA spec6 c ⊢ (dat6 V c).Φ 0 := Idealize.SL.BI.Entails.refl _

/-- and the invariant after the last point is what the launch takes back. -/
theorem hout6 (c : Dev nD) : (dat6 V c).Φ (Fin.last cfg6.N) ⊢ Pipeline.ΦA spec6 c := Idealize.SL.BI.Entails.refl _

end Cert.Kernel.Hand

end
-- ==== Proof.RegK7a.lean ====
/- Laid out by: python3 scratch/layout_regions.py --template-region 1 --region 7 --program Kernel --parts a,b,c, --out-dir proof/Proof
   from the hand-written text of region 1 (RegKI1a.lean): the same text, the region's number and the program's namespace substituted. -/
/-
  Region 7 of @main (custom_call 7): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond7_0 (i : grid7.Coords) : Prop := (Scalar.cmpi .ne (Scalar.extui (Scalar.cmpi .eq (BitVec.ofNat 32 (i 1).val) 0#32)) 0#32) = 1#1
/-- It holds exactly at the points with t % 4 = 0. -/
theorem hcond7_0 : ∀ t : Fin cfg7.N, cond7_0 (grid7.coords t) ↔ t.val % 4 = 0 :=
  (by decide +kernel : ∀ t : Fin grid7.N, cond7_0 (grid7.coords t) ↔ t.val % 4 = 0)

/-- "k = 3": the second conditional's test. -/
abbrev cond7_1 (i : grid7.Coords) : Prop := k7_cond2 i = 1#1
/-- It holds exactly at the points with t % 4 = 3. -/
theorem hcond7_1 : ∀ t : Fin cfg7.N, cond7_1 (grid7.coords t) ↔ t.val % 4 = 3 :=
  (by decide +kernel : ∀ t : Fin grid7.N, cond7_1 (grid7.coords t) ↔ t.val % 4 = 3)

/-! ## Where the windows are idle, and where the output is written back -/

/-- The two input windows are never idle. -/
theorem liveAt7_0 : ∀ t : Fin cfg7.N, cfg7.idle 0 (grid7.coords t) = false := by decide +kernel
theorem liveAt7_1 : ∀ t : Fin cfg7.N, cfg7.idle 1 (grid7.coords t) = false := by decide +kernel
/-- Where k ≠ 3 the output window is idle (the body stores nothing into it) and is not written back. -/
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
/-- Where k = 3 it is live. -/
theorem liveAt7_2 : ∀ t : Fin cfg7.N, cond7_1 (grid7.coords t) → cfg7.idle 2 (grid7.coords t) = false := by decide +kernel

/-! ## The staging memrefs at a point, and the scratch -/

/-- One staging buffer of the output window, through which its contents are stated. -/
abbrev VO7_2 : View sig .tc .vmem S1024x512 .f32 := (Memref.whole cc7_stg2_0 : Memref sig .tc .vmem S1024x512 .f32).view
abbrev ms7_0 (t : Fin cfg7.N) : Memref sig .tc .vmem S1024x1024 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x512 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x512 .f32 := win7_2.stage (cfg7.slots t 2)
abbrev hs7_2 (t : Fin cfg7.N) : (ms7_2 t).IsWhole := hstage7_2 ((cfg7.slots t 2).cast nbuf7_2)
/-- The accumulator: a whole scoped buffer of the kernel's own. -/
abbrev scM7 : Memref sig .tc .vmem S1024x512 .f32 := Memref.whole cc7_scratch0
abbrev VS7 : View sig .tc .vmem S1024x512 .f32 := scM7.view

/-- The other scoped buffers of the core, none of which this region touches. -/
abbrev restBut7 (c : Dev nD) : sProp 𝕄 :=
  Pipeline.scopedRestBut (Ix := Unit) (Name := ℕ) (U := UR sig nD τ) (Lvl := ℕ) (Val := Elt F) spec7 c [cc7_scratch0]

/-- The region's invariant before its first point: the accumulator at something, the other scoped buffers, the generator register. -/
theorem PhiA7_eq (c : Dev nD) :
    (Pipeline.ΦA spec7 c : sProp 𝕄)
      = iprop(iprop((∃ d, owns (c : Thread nD τ) scM7 fullShare d) ∗ restBut7 c) ∗ (∃ r, prngReg c r)) := by
  unfold Pipeline.ΦA; rw [scopedRest7_split]; simp only [scM7, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun7_A (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond7_0 i) (hc1 : ¬cond7_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc7__matmul_kernel i arg2 harg2 arg3 harg3 arg4 harg4 arg5 harg5) K } := by
  refine ⟨[], ?_, fun xi2 E K => ?run⟩
  case run =>
    simp only [cc7__matmul_kernel_eq_skeleton]; unfold cc7__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK7b.lean ====
/- Laid out by: python3 scratch/layout_regions.py --template-region 1 --region 7 --program Kernel --parts a,b,c, --out-dir proof/Proof
   from the hand-written text of region 1 (RegKI1b.lean): the same text, the region's number and the program's namespace substituted. -/
/-
  Region 7, case B (k = 1, 2): the body's run. Neither conditional is taken: the product of the two blocks is added to what
  the point before left in the accumulator; the output block is not touched.
-/
import proofs.«158944_j64613488001249_1_alg».proof.Proof.RegK7a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun7_B (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond7_0 i) (hc1 : ¬cond7_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc7__matmul_kernel i arg2 harg2 arg3 harg3 arg4 harg4 arg5 harg5) K } := by
  refine ⟨[], ?_, fun xi2 E K => ?run⟩
  case run =>
    simp only [cc7__matmul_kernel_eq_skeleton]; unfold cc7__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK7c.lean ====
/- Laid out by: python3 scratch/layout_regions.py --template-region 1 --region 7 --program Kernel --parts a,b,c, --out-dir proof/Proof
   from the hand-written text of region 1 (RegKI1c.lean): the same text, the region's number and the program's namespace substituted. -/
/-
  Region 7, case C (k = 3): the body's run. The product is added to the accumulator as in case B, and then the second
  conditional copies the accumulator over the whole output block.
-/
import proofs.«158944_j64613488001249_1_alg».proof.Proof.RegK7b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun7_C (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond7_0 i) (hc1 : cond7_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc7__matmul_kernel i arg2 harg2 arg3 harg3 arg4 harg4 arg5 harg5) K } := by
  refine ⟨?_, ?_, fun E K => ?run⟩
  case run =>
    simp only [cc7__matmul_kernel_eq_skeleton]; unfold cc7__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK7.lean ====
/- Laid out by: python3 scratch/layout_regions.py --template-region 1 --region 7 --program Kernel --parts a,b,c, --out-dir proof/Proof
   from the hand-written text of region 1 (RegKI1.lean): the same text, the region's number and the program's namespace substituted. -/
/-
  Region 7 of @main, entered from the buffer contents `V`: what its windows' blocks are, what each case of the body leaves in
  the accumulator and in the output block, the accumulator and the output block point by point (`outsAt7`: at k = 0 the
  accumulator restarts from zeros plus the product; at k = 1, 2, 3 it is the point before's plus the product; at k = 3 the
  output block is the accumulator), the region's invariant (the accumulator at `outsAt7`'s second component), the proof data,
  and the body's obligation at every point.
-/
import proofs.«158944_j64613488001249_1_alg».proof.Proof.RegK7c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, for any proof data whose array is `V`'s and
    whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## What each case leaves -/

/-- Case A's stores into the accumulator cover it. -/
theorem scover7_A (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond7_0 i) (hc1 : ¬cond7_1 i)
    (x0 : Vec F S1024x1024 .bf16) (x1 : Vec F S1024x512 .f32) (y : S1024x512.Idx) :
    ∃ pc ∈ (kernelRun7_A c i arg2 harg2 arg3 harg3 arg4 harg4 arg5 harg5 hc0 hc1 x0 x1).2.1, y ∈ pc.1.set :=
  View.cover_of_tiledL (kernelRun7_A c i arg2 harg2 arg3 harg3 arg4 harg4 arg5 harg5 hc0 hc1 x0 x1).2.1 S1024x512.size (by sl_kernel_rfl) y
/-- What case A leaves in the accumulator. -/
noncomputable def sout7_A (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond7_0 i) (hc1 : ¬cond7_1 i)
    (x0 : Vec F S1024x1024 .bf16) (x1 : Vec F S1024x512 .f32) : Vec F S1024x512 .f32 :=
  VS7.read (Elt F) (VS7.writes (Elt F) VS7.junk (kernelRun7_A c i arg2 harg2 arg3 harg3 arg4 harg4 arg5 harg5 hc0 hc1 x0 x1).2.1)

/-- Case B's store into the accumulator covers it. -/
theorem scover7_B (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond7_0 i) (hc1 : ¬cond7_1 i)
    (x0 : Vec F S1024x1024 .bf16) (x1 : Vec F S1024x512 .f32) (xs0 : Vec F S1024x512 .f32) (y : S1024x512.Idx) :
    ∃ pc ∈ (kernelRun7_B c i arg2 harg2 arg3 harg3 arg4 harg4 arg5 harg5 hc0 hc1 x0 x1 xs0).2.1, y ∈ pc.1.set :=
  View.cover_of_tiledL (kernelRun7_B c i arg2 harg2 arg3 harg3 arg4 harg4 arg5 harg5 hc0 hc1 x0 x1 xs0).2.1 S1024x512.size (by sl_kernel_rfl) y
/-- What case B leaves in the accumulator, over what the point before left. -/
noncomputable def sout7_B (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond7_0 i) (hc1 : ¬cond7_1 i)
    (x0 : Vec F S1024x1024 .bf16) (x1 : Vec F S1024x512 .f32) (xs0 : Vec F S1024x512 .f32) : Vec F S1024x512 .f32 :=
  VS7.read (Elt F) (VS7.writes (Elt F) VS7.junk (kernelRun7_B c i arg2 harg2 arg3 harg3 arg4 harg4 arg5 harg5 hc0 hc1 x0 x1 xs0).2.1)

/-- Case C's store into the output block covers it, and so does its store into the accumulator. -/
theorem cover7_C (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond7_0 i) (hc1 : cond7_1 i)
    (x0 : Vec F S1024x1024 .bf16) (x1 : Vec F S1024x512 .f32) (xs0 : Vec F S1024x512 .f32) (y : S1024x512.Idx) :
    ∃ pc ∈ (kernelRun7_C c i arg2 harg2 arg3 harg3 arg4 harg4 arg5 harg5 hc0 hc1 x0 x1 xs0).1, y ∈ pc.1.set :=
  View.cover_of_tiledL (kernelRun7_C c i arg2 harg2 arg3 harg3 arg4 harg4 arg5 harg5 hc0 hc1 x0 x1 xs0).1 S1024x512.size (by sl_kernel_rfl) y
theorem scover7_C (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond7_0 i) (hc1 : cond7_1 i)
    (x0 : Vec F S1024x1024 .bf16) (x1 : Vec F S1024x512 .f32) (xs0 : Vec F S1024x512 .f32) (y : S1024x512.Idx) :
    ∃ pc ∈ (kernelRun7_C c i arg2 harg2 arg3 harg3 arg4 harg4 arg5 harg5 hc0 hc1 x0 x1 xs0).2.1, y ∈ pc.1.set :=
  View.cover_of_tiledL (kernelRun7_C c i arg2 harg2 arg3 harg3 arg4 harg4 arg5 harg5 hc0 hc1 x0 x1 xs0).2.1 S1024x512.size (by sl_kernel_rfl) y
/-- What case C leaves in the output block, and in the accumulator. -/
noncomputable def out7_C (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond7_0 i) (hc1 : cond7_1 i)
    (x0 : Vec F S1024x1024 .bf16) (x1 : Vec F S1024x512 .f32) (xs0 : Vec F S1024x512 .f32) : Vec F S1024x512 .f32 :=
  VO7_2.read (Elt F) (VO7_2.writes (Elt F) VO7_2.junk (kernelRun7_C c i arg2 harg2 arg3 harg3 arg4 harg4 arg5 harg5 hc0 hc1 x0 x1 xs0).1)
noncomputable def sout7_C (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond7_0 i) (hc1 : cond7_1 i)
    (x0 : Vec F S1024x1024 .bf16) (x1 : Vec F S1024x512 .f32) (xs0 : Vec F S1024x512 .f32) : Vec F S1024x512 .f32 :=
  VS7.read (Elt F) (VS7.writes (Elt F) VS7.junk (kernelRun7_C c i arg2 harg2 arg3 harg3 arg4 harg4 arg5 harg5 hc0 hc1 x0 x1 xs0).2.1)

/-- Where the output block is idle nothing consults what it holds: a placeholder. -/
noncomputable def outIdle7 : Vec F S1024x512 .f32 := VO7_2.read (Elt F) (VO7_2.writes (Elt F) VO7_2.junk [])

/-! ## The conditions at a point, from t % 4 -/

theorem isFirst7 (t : Fin cfg7.N) (h : t.val % 4 = 0) : cond7_0 (grid7.coords t) := (hcond7_0 t).mpr h
theorem notFirst7 (t : Fin cfg7.N) (h : ¬t.val % 4 = 0) : ¬cond7_0 (grid7.coords t) := fun hc => h ((hcond7_0 t).mp hc)
theorem isLast7 (t : Fin cfg7.N) (h : t.val % 4 = 3) : cond7_1 (grid7.coords t) := (hcond7_1 t).mpr h
theorem notLast7 (t : Fin cfg7.N) (h : ¬t.val % 4 = 3) : ¬cond7_1 (grid7.coords t) := fun hc => h ((hcond7_1 t).mp hc)

/-! ## The accumulator and the output block, point by point -/

/-- After the body at position `n`: (the output block's buffer, the accumulator). -/
noncomputable def outsAt7 (c : Dev nD) : (n : ℕ) → n < cfg7.N → Vec F S1024x512 .f32 × Vec F S1024x512 .f32
  | 0, hn => (outIdle7, sout7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7 (Memref.isWhole_whole _) (isFirst7 ⟨0, hn⟩ (Nat.zero_mod _)) (notLast7 ⟨0, hn⟩ (by simp)) (iblk7 V c 0 ⟨0, hn⟩) (iblk7 V c 1 ⟨0, hn⟩))
  | n + 1, hn =>
    if h0 : (n + 1) % 4 = 0 then
      (outIdle7, sout7_A c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7 (Memref.isWhole_whole _) (isFirst7 ⟨n + 1, hn⟩ h0) (notLast7 ⟨n + 1, hn⟩ (by show ¬(n + 1) % 4 = 3; omega)) (iblk7 V c 0 ⟨n + 1, hn⟩) (iblk7 V c 1 ⟨n + 1, hn⟩))
    else if h3 : (n + 1) % 4 = 3 then
      (out7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7 (Memref.isWhole_whole _) (notFirst7 ⟨n + 1, hn⟩ h0) (isLast7 ⟨n + 1, hn⟩ h3) (iblk7 V c 0 ⟨n + 1, hn⟩) (iblk7 V c 1 ⟨n + 1, hn⟩) (outsAt7 c n (Nat.lt_of_succ_lt hn)).2,
       sout7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7 (Memref.isWhole_whole _) (notFirst7 ⟨n + 1, hn⟩ h0) (isLast7 ⟨n + 1, hn⟩ h3) (iblk7 V c 0 ⟨n + 1, hn⟩) (iblk7 V c 1 ⟨n + 1, hn⟩) (outsAt7 c n (Nat.lt_of_succ_lt hn)).2)
    else
      (outIdle7, sout7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7 (Memref.isWhole_whole _) (notFirst7 ⟨n + 1, hn⟩ h0) (notLast7 ⟨n + 1, hn⟩ h3) (iblk7 V c 0 ⟨n + 1, hn⟩) (iblk7 V c 1 ⟨n + 1, hn⟩) (outsAt7 c n (Nat.lt_of_succ_lt hn)).2)

/-- `outsAt7` at a point with k = 0. -/
theorem outsAt7_A (c : Dev nD) (t : Fin cfg7.N) (h0 : t.val % 4 = 0) :
    outsAt7 V c t.val t.isLt = (outIdle7, sout7_A c (grid7.coords t) (ms7_0 t) (hs7_0 t) (ms7_1 t) (hs7_1 t) (ms7_2 t) (hs7_2 t) scM7 (Memref.isWhole_whole _) (isFirst7 t h0) (notLast7 t (by omega)) (iblk7 V c 0 t) (iblk7 V c 1 t)) := by
  obtain ⟨n, hn⟩ := t
  cases n with
  | zero => rfl
  | succ n => exact (dif_pos h0).trans rfl

/-- `outsAt7` at a point with k = 1, 2: over what the point before left. -/
theorem outsAt7_B (c : Dev nD) (t : Fin cfg7.N) (h0 : ¬t.val % 4 = 0) (h3 : ¬t.val % 4 = 3) :
    outsAt7 V c t.val t.isLt = (outIdle7, sout7_B c (grid7.coords t) (ms7_0 t) (hs7_0 t) (ms7_1 t) (hs7_1 t) (ms7_2 t) (hs7_2 t) scM7 (Memref.isWhole_whole _) (notFirst7 t h0) (notLast7 t h3) (iblk7 V c 0 t) (iblk7 V c 1 t)
      (outsAt7 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt7` at a point with k = 3. -/
theorem outsAt7_C (c : Dev nD) (t : Fin cfg7.N) (h0 : ¬t.val % 4 = 0) (h3 : t.val % 4 = 3) :
    outsAt7 V c t.val t.isLt = (out7_C c (grid7.coords t) (ms7_0 t) (hs7_0 t) (ms7_1 t) (hs7_1 t) (ms7_2 t) (hs7_2 t) scM7 (Memref.isWhole_whole _) (notFirst7 t h0) (isLast7 t h3) (iblk7 V c 0 t) (iblk7 V c 1 t)
        (outsAt7 V c (t.val - 1) (Nat.lt_of_le_of_lt (Nat.sub_le _ _) t.isLt)).2,
      sout7_C c (grid7.coords t) (ms7_0 t) (hs7_0 t) (ms7_1 t) (hs7_1 t) (ms7_2 t) (hs7_2 t) scM7 (Memref.isWhole_whole _) (notFirst7 t h0) (isLast7 t h3) (iblk7 V c 0 t) (iblk7 V c 1 t)
        (outsAt7 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS7 (c : Dev nD) : (n : ℕ) → n ≤ cfg7.N → sProp 𝕄
  | 0, _ => Pipeline.ΦA spec7 c
  | n + 1, hn => iprop(iprop(owns (c : Thread nD τ) scM7 fullShare ((outsAt7 V c n hn).2) ∗ restBut7 c) ∗ (∃ r, prngReg c r))

theorem PhiS7_zero (c : Dev nD) (n : ℕ) (h : n ≤ cfg7.N) (hz : n = 0) : PhiS7 V c n h = Pipeline.ΦA spec7 c := by
  subst hz; rfl
theorem PhiS7_succ (c : Dev nD) (n : ℕ) (hn : n < cfg7.N) :
    PhiS7 V c (n + 1) hn = iprop(iprop(owns (c : Thread nD τ) scM7 fullShare ((outsAt7 V c n hn).2) ∗ restBut7 c) ∗ (∃ r, prngReg c r)) := rfl
theorem PhiS7_pos (c : Dev nD) (n : ℕ) (h : n ≤ cfg7.N) (hz : n ≠ 0) :
    PhiS7 V c n h = iprop(iprop(owns (c : Thread nD τ) scM7 fullShare ((outsAt7 V c (n - 1) (by omega)).2) ∗ restBut7 c) ∗ (∃ r, prngReg c r)) := by
  cases n with
  | zero => exact absurd rfl hz
  | succ n => rfl

/-! ## The proof data -/

/-- The region's proof data on core `c`: the arrays as the region finds them; after the body at point `t` each input's
    buffer at its block and the output's at `outsAt7`'s first component; the invariant `PhiS7`; nothing owed; full shares. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem PhiS7_castSucc (c : Dev nD) (t : Fin cfg7.N) :
    (dat7 V c).Φ t.castSucc = PhiS7 V c t.val (Nat.le_of_lt t.isLt) := by
  dsimp only [dat7]; simp only [Fin.coe_castSucc]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (outsAt7 V c t.val t.isLt).1 := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body's obligation -/

noncomputable def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

noncomputable def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  by_cases h0 : t.val % 4 = 0
  · have h3 : ¬t.val % 4 = 3 := by omega
    rw [Dat.leavesExact_idle (dat7 V c) 2 t (idleAt7_2 t (notLast7 t h3)) (noFlush7_2 t (notLast7 t h3))]
    rw [outsAt7_A V c t h0]
    unfold sout7_A; (try dsimp only)
    by_cases hz : t.val = 0
    · rw [PhiS7_castSucc V c t, PhiS7_zero V c _ _ hz, PhiA7_eq]
      iintro ⟨⟨⟨HS0, Hrb⟩, Hg⟩, Ho, ⟨%d0, H0⟩, ⟨%d1, H1⟩, ⟨%d2, H2⟩⟩
      iapply ((kernelRun7_A c (grid7.coords t) _ _ _ _ _ _ _ _ (isFirst7 t h0) (notLast7 t (by omega)) (iblk7 V c 0 t) (iblk7 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover7_A c _ _ _ _ _ _ _ _ _ _ _ _ _)
          iexact Hrb
        iexact Hg
      isplitl [Ho]; · iexact Ho
      isplitl [H0]; · iexact H0
      isplitl [H1]; · iexact H1
      iexists _; iexact H2
    · rw [PhiS7_castSucc V c t, PhiS7_pos V c _ _ hz]
      iintro ⟨⟨⟨HS0, Hrb⟩, Hg⟩, Ho, ⟨%d0, H0⟩, ⟨%d1, H1⟩, ⟨%d2, H2⟩⟩
      iapply ((kernelRun7_A c (grid7.coords t) _ _ _ _ _ _ _ _ (isFirst7 t h0) (notLast7 t (by omega)) (iblk7 V c 0 t) (iblk7 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover7_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat7 V c).leavesExact 2 t = owns (c : Thread nD τ) (ms7_2 t) fullShare ((dat7 V c).after 2 t) from by
        unfold Dat.leavesExact; rw [liveAt7_2 t (isLast7 t h3)], after7_2]
      rw [outsAt7_C V c t h0 h3]
      unfold out7_C sout7_C; (try dsimp only)
      rw [PhiS7_castSucc V c t, PhiS7_pos V c _ _ hz]
      iintro ⟨⟨⟨HS0, Hrb⟩, Hg⟩, Ho, ⟨%d0, H0⟩, ⟨%d1, H1⟩, ⟨%d2, H2⟩⟩
      iapply ((kernelRun7_C c (grid7.coords t) _ _ _ _ _ _ _ _ (notFirst7 t h0) (isLast7 t h3) (iblk7 V c 0 t) (iblk7 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover7_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover7_C c _ _ _ _ _ _ _ _ _ _ _ _ _ _)
    · rw [Dat.leavesExact_idle (dat7 V c) 2 t (idleAt7_2 t (notLast7 t h3)) (noFlush7_2 t (notLast7 t h3))]
      rw [outsAt7_B V c t h0 h3]
      unfold sout7_B; (try dsimp only)
      rw [PhiS7_castSucc V c t, PhiS7_pos V c _ _ hz]
      iintro ⟨⟨⟨HS0, Hrb⟩, Hg⟩, Ho, ⟨%d0, H0⟩, ⟨%d1, H1⟩, ⟨%d2, H2⟩⟩
      iapply ((kernelRun7_B c (grid7.coords t) _ _ _ _ _ _ _ _ (notFirst7 t h0) (notLast7 t h3) (iblk7 V c 0 t) (iblk7 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover7_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the region is entered with is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After the last point the invariant gives the class's back: the accumulator's contents are forgotten. -/
theorem hout7 (c : Dev nD) : (dat7 V c).Φ (Fin.last cfg7.N) ⊢ Pipeline.ΦA spec7 c := by
  have hN : cfg7.N = 16 := N_7
  rw [show (dat7 V c).Φ (Fin.last cfg7.N) = PhiS7 V c (Fin.last cfg7.N).val (Nat.le_of_lt_succ (Fin.last cfg7.N).isLt) from rfl,
    PhiS7_pos V c _ _ (by rw [Fin.val_last]; omega), PhiA7_eq]
  iintro ⟨⟨HS0, Hrb⟩, Hg⟩
  isplitl [HS0 Hrb]
  · isplitl [HS0]
    · iexists _; iexact HS0
    iexact Hrb
  iexact Hg

end Cert.Kernel.Hand

end
-- ==== Proof.RegK8a.lean ====
/- Laid out by: python3 scratch/layout_regions.py --template-region 1 --region 8 --program Kernel --parts a,b,c, --out-dir proof/Proof
   from the hand-written text of region 1 (RegKI1a.lean): the same text, the region's number and the program's namespace substituted. -/
/-
  Region 8 of @main (custom_call 8): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond8_0 (i : grid8.Coords) : Prop := (Scalar.cmpi .ne (Scalar.extui (Scalar.cmpi .eq (BitVec.ofNat 32 (i 1).val) 0#32)) 0#32) = 1#1
/-- It holds exactly at the points with t % 4 = 0. -/
theorem hcond8_0 : ∀ t : Fin cfg8.N, cond8_0 (grid8.coords t) ↔ t.val % 4 = 0 :=
  (by decide +kernel : ∀ t : Fin grid8.N, cond8_0 (grid8.coords t) ↔ t.val % 4 = 0)

/-- "k = 3": the second conditional's test. -/
abbrev cond8_1 (i : grid8.Coords) : Prop := k8_cond2 i = 1#1
/-- It holds exactly at the points with t % 4 = 3. -/
theorem hcond8_1 : ∀ t : Fin cfg8.N, cond8_1 (grid8.coords t) ↔ t.val % 4 = 3 :=
  (by decide +kernel : ∀ t : Fin grid8.N, cond8_1 (grid8.coords t) ↔ t.val % 4 = 3)

/-! ## Where the windows are idle, and where the output is written back -/

/-- The two input windows are never idle. -/
theorem liveAt8_0 : ∀ t : Fin cfg8.N, cfg8.idle 0 (grid8.coords t) = false := by decide +kernel
theorem liveAt8_1 : ∀ t : Fin cfg8.N, cfg8.idle 1 (grid8.coords t) = false := by decide +kernel
/-- Where k ≠ 3 the output window is idle (the body stores nothing into it) and is not written back. -/
theorem idleAt8_2 : ∀ t : Fin cfg8.N, ¬cond8_1 (grid8.coords t) → cfg8.idle 2 (grid8.coords t) = true := by decide +kernel
theorem noFlush8_2 : ∀ t : Fin cfg8.N, ¬cond8_1 (grid8.coords t) → (cfg8.win 2).flush t = false := by decide +kernel
/-- Where k = 3 it is live. -/
theorem liveAt8_2 : ∀ t : Fin cfg8.N, cond8_1 (grid8.coords t) → cfg8.idle 2 (grid8.coords t) = false := by decide +kernel

/-! ## The staging memrefs at a point, and the scratch -/

/-- One staging buffer of the output window, through which its contents are stated. -/
abbrev VO8_2 : View sig .tc .vmem S1024x512 .f32 := (Memref.whole cc8_stg2_0 : Memref sig .tc .vmem S1024x512 .f32).view
abbrev ms8_0 (t : Fin cfg8.N) : Memref sig .tc .vmem S1024x1024 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1024x512 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1024x512 .f32 := win8_2.stage (cfg8.slots t 2)
abbrev hs8_2 (t : Fin cfg8.N) : (ms8_2 t).IsWhole := hstage8_2 ((cfg8.slots t 2).cast nbuf8_2)
/-- The accumulator: a whole scoped buffer of the kernel's own. -/
abbrev scM8 : Memref sig .tc .vmem S1024x512 .f32 := Memref.whole cc8_scratch0
abbrev VS8 : View sig .tc .vmem S1024x512 .f32 := scM8.view

/-- The other scoped buffers of the core, none of which this region touches. -/
abbrev restBut8 (c : Dev nD) : sProp 𝕄 :=
  Pipeline.scopedRestBut (Ix := Unit) (Name := ℕ) (U := UR sig nD τ) (Lvl := ℕ) (Val := Elt F) spec8 c [cc8_scratch0]

/-- The region's invariant before its first point: the accumulator at something, the other scoped buffers, the generator register. -/
theorem PhiA8_eq (c : Dev nD) :
    (Pipeline.ΦA spec8 c : sProp 𝕄)
      = iprop(iprop((∃ d, owns (c : Thread nD τ) scM8 fullShare d) ∗ restBut8 c) ∗ (∃ r, prngReg c r)) := by
  unfold Pipeline.ΦA; rw [scopedRest8_split]; simp only [scM8, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun8_A (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond8_0 i) (hc1 : ¬cond8_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc8__matmul_kernel i arg2 harg2 arg3 harg3 arg4 harg4 arg5 harg5) K } := by
  refine ⟨[], ?_, fun xi2 E K => ?run⟩
  case run =>
    simp only [cc8__matmul_kernel_eq_skeleton]; unfold cc8__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK8b.lean ====
/- Laid out by: python3 scratch/layout_regions.py --template-region 1 --region 8 --program Kernel --parts a,b,c, --out-dir proof/Proof
   from the hand-written text of region 1 (RegKI1b.lean): the same text, the region's number and the program's namespace substituted. -/
/-
  Region 8, case B (k = 1, 2): the body's run. Neither conditional is taken: the product of the two blocks is added to what
  the point before left in the accumulator; the output block is not touched.
-/
import proofs.«158944_j64613488001249_1_alg».proof.Proof.RegK8a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun8_B (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond8_0 i) (hc1 : ¬cond8_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc8__matmul_kernel i arg2 harg2 arg3 harg3 arg4 harg4 arg5 harg5) K } := by
  refine ⟨[], ?_, fun xi2 E K => ?run⟩
  case run =>
    simp only [cc8__matmul_kernel_eq_skeleton]; unfold cc8__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK8c.lean ====
/- Laid out by: python3 scratch/layout_regions.py --template-region 1 --region 8 --program Kernel --parts a,b,c, --out-dir proof/Proof
   from the hand-written text of region 1 (RegKI1c.lean): the same text, the region's number and the program's namespace substituted. -/
/-
  Region 8, case C (k = 3): the body's run. The product is added to the accumulator as in case B, and then the second
  conditional copies the accumulator over the whole output block.
-/
import proofs.«158944_j64613488001249_1_alg».proof.Proof.RegK8b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun8_C (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond8_0 i) (hc1 : cond8_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc8__matmul_kernel i arg2 harg2 arg3 harg3 arg4 harg4 arg5 harg5) K } := by
  refine ⟨?_, ?_, fun E K => ?run⟩
  case run =>
    simp only [cc8__matmul_kernel_eq_skeleton]; unfold cc8__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK8.lean ====
/- Laid out by: python3 scratch/layout_regions.py --template-region 1 --region 8 --program Kernel --parts a,b,c, --out-dir proof/Proof
   from the hand-written text of region 1 (RegKI1.lean): the same text, the region's number and the program's namespace substituted. -/
/-
  Region 8 of @main, entered from the buffer contents `V`: what its windows' blocks are, what each case of the body leaves in
  the accumulator and in the output block, the accumulator and the output block point by point (`outsAt8`: at k = 0 the
  accumulator restarts from zeros plus the product; at k = 1, 2, 3 it is the point before's plus the product; at k = 3 the
  output block is the accumulator), the region's invariant (the accumulator at `outsAt8`'s second component), the proof data,
  and the body's obligation at every point.
-/
import proofs.«158944_j64613488001249_1_alg».proof.Proof.RegK8c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, for any proof data whose array is `V`'s and
    whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## What each case leaves -/

/-- Case A's stores into the accumulator cover it. -/
theorem scover8_A (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond8_0 i) (hc1 : ¬cond8_1 i)
    (x0 : Vec F S1024x1024 .bf16) (x1 : Vec F S1024x512 .f32) (y : S1024x512.Idx) :
    ∃ pc ∈ (kernelRun8_A c i arg2 harg2 arg3 harg3 arg4 harg4 arg5 harg5 hc0 hc1 x0 x1).2.1, y ∈ pc.1.set :=
  View.cover_of_tiledL (kernelRun8_A c i arg2 harg2 arg3 harg3 arg4 harg4 arg5 harg5 hc0 hc1 x0 x1).2.1 S1024x512.size (by sl_kernel_rfl) y
/-- What case A leaves in the accumulator. -/
noncomputable def sout8_A (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond8_0 i) (hc1 : ¬cond8_1 i)
    (x0 : Vec F S1024x1024 .bf16) (x1 : Vec F S1024x512 .f32) : Vec F S1024x512 .f32 :=
  VS8.read (Elt F) (VS8.writes (Elt F) VS8.junk (kernelRun8_A c i arg2 harg2 arg3 harg3 arg4 harg4 arg5 harg5 hc0 hc1 x0 x1).2.1)

/-- Case B's store into the accumulator covers it. -/
theorem scover8_B (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond8_0 i) (hc1 : ¬cond8_1 i)
    (x0 : Vec F S1024x1024 .bf16) (x1 : Vec F S1024x512 .f32) (xs0 : Vec F S1024x512 .f32) (y : S1024x512.Idx) :
    ∃ pc ∈ (kernelRun8_B c i arg2 harg2 arg3 harg3 arg4 harg4 arg5 harg5 hc0 hc1 x0 x1 xs0).2.1, y ∈ pc.1.set :=
  View.cover_of_tiledL (kernelRun8_B c i arg2 harg2 arg3 harg3 arg4 harg4 arg5 harg5 hc0 hc1 x0 x1 xs0).2.1 S1024x512.size (by sl_kernel_rfl) y
/-- What case B leaves in the accumulator, over what the point before left. -/
noncomputable def sout8_B (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond8_0 i) (hc1 : ¬cond8_1 i)
    (x0 : Vec F S1024x1024 .bf16) (x1 : Vec F S1024x512 .f32) (xs0 : Vec F S1024x512 .f32) : Vec F S1024x512 .f32 :=
  VS8.read (Elt F) (VS8.writes (Elt F) VS8.junk (kernelRun8_B c i arg2 harg2 arg3 harg3 arg4 harg4 arg5 harg5 hc0 hc1 x0 x1 xs0).2.1)

/-- Case C's store into the output block covers it, and so does its store into the accumulator. -/
theorem cover8_C (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond8_0 i) (hc1 : cond8_1 i)
    (x0 : Vec F S1024x1024 .bf16) (x1 : Vec F S1024x512 .f32) (xs0 : Vec F S1024x512 .f32) (y : S1024x512.Idx) :
    ∃ pc ∈ (kernelRun8_C c i arg2 harg2 arg3 harg3 arg4 harg4 arg5 harg5 hc0 hc1 x0 x1 xs0).1, y ∈ pc.1.set :=
  View.cover_of_tiledL (kernelRun8_C c i arg2 harg2 arg3 harg3 arg4 harg4 arg5 harg5 hc0 hc1 x0 x1 xs0).1 S1024x512.size (by sl_kernel_rfl) y
theorem scover8_C (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond8_0 i) (hc1 : cond8_1 i)
    (x0 : Vec F S1024x1024 .bf16) (x1 : Vec F S1024x512 .f32) (xs0 : Vec F S1024x512 .f32) (y : S1024x512.Idx) :
    ∃ pc ∈ (kernelRun8_C c i arg2 harg2 arg3 harg3 arg4 harg4 arg5 harg5 hc0 hc1 x0 x1 xs0).2.1, y ∈ pc.1.set :=
  View.cover_of_tiledL (kernelRun8_C c i arg2 harg2 arg3 harg3 arg4 harg4 arg5 harg5 hc0 hc1 x0 x1 xs0).2.1 S1024x512.size (by sl_kernel_rfl) y
/-- What case C leaves in the output block, and in the accumulator. -/
noncomputable def out8_C (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond8_0 i) (hc1 : cond8_1 i)
    (x0 : Vec F S1024x1024 .bf16) (x1 : Vec F S1024x512 .f32) (xs0 : Vec F S1024x512 .f32) : Vec F S1024x512 .f32 :=
  VO8_2.read (Elt F) (VO8_2.writes (Elt F) VO8_2.junk (kernelRun8_C c i arg2 harg2 arg3 harg3 arg4 harg4 arg5 harg5 hc0 hc1 x0 x1 xs0).1)
noncomputable def sout8_C (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond8_0 i) (hc1 : cond8_1 i)
    (x0 : Vec F S1024x1024 .bf16) (x1 : Vec F S1024x512 .f32) (xs0 : Vec F S1024x512 .f32) : Vec F S1024x512 .f32 :=
  VS8.read (Elt F) (VS8.writes (Elt F) VS8.junk (kernelRun8_C c i arg2 harg2 arg3 harg3 arg4 harg4 arg5 harg5 hc0 hc1 x0 x1 xs0).2.1)

/-- Where the output block is idle nothing consults what it holds: a placeholder. -/
noncomputable def outIdle8 : Vec F S1024x512 .f32 := VO8_2.read (Elt F) (VO8_2.writes (Elt F) VO8_2.junk [])

/-! ## The conditions at a point, from t % 4 -/

theorem isFirst8 (t : Fin cfg8.N) (h : t.val % 4 = 0) : cond8_0 (grid8.coords t) := (hcond8_0 t).mpr h
theorem notFirst8 (t : Fin cfg8.N) (h : ¬t.val % 4 = 0) : ¬cond8_0 (grid8.coords t) := fun hc => h ((hcond8_0 t).mp hc)
theorem isLast8 (t : Fin cfg8.N) (h : t.val % 4 = 3) : cond8_1 (grid8.coords t) := (hcond8_1 t).mpr h
theorem notLast8 (t : Fin cfg8.N) (h : ¬t.val % 4 = 3) : ¬cond8_1 (grid8.coords t) := fun hc => h ((hcond8_1 t).mp hc)

/-! ## The accumulator and the output block, point by point -/

/-- After the body at position `n`: (the output block's buffer, the accumulator). -/
noncomputable def outsAt8 (c : Dev nD) : (n : ℕ) → n < cfg8.N → Vec F S1024x512 .f32 × Vec F S1024x512 .f32
  | 0, hn => (outIdle8, sout8_A c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) scM8 (Memref.isWhole_whole _) (isFirst8 ⟨0, hn⟩ (Nat.zero_mod _)) (notLast8 ⟨0, hn⟩ (by simp)) (iblk8 V c 0 ⟨0, hn⟩) (iblk8 V c 1 ⟨0, hn⟩))
  | n + 1, hn =>
    if h0 : (n + 1) % 4 = 0 then
      (outIdle8, sout8_A c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8 (Memref.isWhole_whole _) (isFirst8 ⟨n + 1, hn⟩ h0) (notLast8 ⟨n + 1, hn⟩ (by show ¬(n + 1) % 4 = 3; omega)) (iblk8 V c 0 ⟨n + 1, hn⟩) (iblk8 V c 1 ⟨n + 1, hn⟩))
    else if h3 : (n + 1) % 4 = 3 then
      (out8_C c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8 (Memref.isWhole_whole _) (notFirst8 ⟨n + 1, hn⟩ h0) (isLast8 ⟨n + 1, hn⟩ h3) (iblk8 V c 0 ⟨n + 1, hn⟩) (iblk8 V c 1 ⟨n + 1, hn⟩) (outsAt8 c n (Nat.lt_of_succ_lt hn)).2,
       sout8_C c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8 (Memref.isWhole_whole _) (notFirst8 ⟨n + 1, hn⟩ h0) (isLast8 ⟨n + 1, hn⟩ h3) (iblk8 V c 0 ⟨n + 1, hn⟩) (iblk8 V c 1 ⟨n + 1, hn⟩) (outsAt8 c n (Nat.lt_of_succ_lt hn)).2)
    else
      (outIdle8, sout8_B c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8 (Memref.isWhole_whole _) (notFirst8 ⟨n + 1, hn⟩ h0) (notLast8 ⟨n + 1, hn⟩ h3) (iblk8 V c 0 ⟨n + 1, hn⟩) (iblk8 V c 1 ⟨n + 1, hn⟩) (outsAt8 c n (Nat.lt_of_succ_lt hn)).2)

/-- `outsAt8` at a point with k = 0. -/
theorem outsAt8_A (c : Dev nD) (t : Fin cfg8.N) (h0 : t.val % 4 = 0) :
    outsAt8 V c t.val t.isLt = (outIdle8, sout8_A c (grid8.coords t) (ms8_0 t) (hs8_0 t) (ms8_1 t) (hs8_1 t) (ms8_2 t) (hs8_2 t) scM8 (Memref.isWhole_whole _) (isFirst8 t h0) (notLast8 t (by omega)) (iblk8 V c 0 t) (iblk8 V c 1 t)) := by
  obtain ⟨n, hn⟩ := t
  cases n with
  | zero => rfl
  | succ n => exact (dif_pos h0).trans rfl

/-- `outsAt8` at a point with k = 1, 2: over what the point before left. -/
theorem outsAt8_B (c : Dev nD) (t : Fin cfg8.N) (h0 : ¬t.val % 4 = 0) (h3 : ¬t.val % 4 = 3) :
    outsAt8 V c t.val t.isLt = (outIdle8, sout8_B c (grid8.coords t) (ms8_0 t) (hs8_0 t) (ms8_1 t) (hs8_1 t) (ms8_2 t) (hs8_2 t) scM8 (Memref.isWhole_whole _) (notFirst8 t h0) (notLast8 t h3) (iblk8 V c 0 t) (iblk8 V c 1 t)
      (outsAt8 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt8` at a point with k = 3. -/
theorem outsAt8_C (c : Dev nD) (t : Fin cfg8.N) (h0 : ¬t.val % 4 = 0) (h3 : t.val % 4 = 3) :
    outsAt8 V c t.val t.isLt = (out8_C c (grid8.coords t) (ms8_0 t) (hs8_0 t) (ms8_1 t) (hs8_1 t) (ms8_2 t) (hs8_2 t) scM8 (Memref.isWhole_whole _) (notFirst8 t h0) (isLast8 t h3) (iblk8 V c 0 t) (iblk8 V c 1 t)
        (outsAt8 V c (t.val - 1) (Nat.lt_of_le_of_lt (Nat.sub_le _ _) t.isLt)).2,
      sout8_C c (grid8.coords t) (ms8_0 t) (hs8_0 t) (ms8_1 t) (hs8_1 t) (ms8_2 t) (hs8_2 t) scM8 (Memref.isWhole_whole _) (notFirst8 t h0) (isLast8 t h3) (iblk8 V c 0 t) (iblk8 V c 1 t)
        (outsAt8 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS8 (c : Dev nD) : (n : ℕ) → n ≤ cfg8.N → sProp 𝕄
  | 0, _ => Pipeline.ΦA spec8 c
  | n + 1, hn => iprop(iprop(owns (c : Thread nD τ) scM8 fullShare ((outsAt8 V c n hn).2) ∗ restBut8 c) ∗ (∃ r, prngReg c r))

theorem PhiS8_zero (c : Dev nD) (n : ℕ) (h : n ≤ cfg8.N) (hz : n = 0) : PhiS8 V c n h = Pipeline.ΦA spec8 c := by
  subst hz; rfl
theorem PhiS8_succ (c : Dev nD) (n : ℕ) (hn : n < cfg8.N) :
    PhiS8 V c (n + 1) hn = iprop(iprop(owns (c : Thread nD τ) scM8 fullShare ((outsAt8 V c n hn).2) ∗ restBut8 c) ∗ (∃ r, prngReg c r)) := rfl
theorem PhiS8_pos (c : Dev nD) (n : ℕ) (h : n ≤ cfg8.N) (hz : n ≠ 0) :
    PhiS8 V c n h = iprop(iprop(owns (c : Thread nD τ) scM8 fullShare ((outsAt8 V c (n - 1) (by omega)).2) ∗ restBut8 c) ∗ (∃ r, prngReg c r)) := by
  cases n with
  | zero => exact absurd rfl hz
  | succ n => rfl

/-! ## The proof data -/

/-- The region's proof data on core `c`: the arrays as the region finds them; after the body at point `t` each input's
    buffer at its block and the output's at `outsAt8`'s first component; the invariant `PhiS8`; nothing owed; full shares. -/
noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]
theorem PhiS8_castSucc (c : Dev nD) (t : Fin cfg8.N) :
    (dat8 V c).Φ t.castSucc = PhiS8 V c t.val (Nat.le_of_lt t.isLt) := by
  dsimp only [dat8]; simp only [Fin.coe_castSucc]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = (outsAt8 V c t.val t.isLt).1 := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body's obligation -/

noncomputable def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

noncomputable def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  by_cases h0 : t.val % 4 = 0
  · have h3 : ¬t.val % 4 = 3 := by omega
    rw [Dat.leavesExact_idle (dat8 V c) 2 t (idleAt8_2 t (notLast8 t h3)) (noFlush8_2 t (notLast8 t h3))]
    rw [outsAt8_A V c t h0]
    unfold sout8_A; (try dsimp only)
    by_cases hz : t.val = 0
    · rw [PhiS8_castSucc V c t, PhiS8_zero V c _ _ hz, PhiA8_eq]
      iintro ⟨⟨⟨HS0, Hrb⟩, Hg⟩, Ho, ⟨%d0, H0⟩, ⟨%d1, H1⟩, ⟨%d2, H2⟩⟩
      iapply ((kernelRun8_A c (grid8.coords t) _ _ _ _ _ _ _ _ (isFirst8 t h0) (notLast8 t (by omega)) (iblk8 V c 0 t) (iblk8 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover8_A c _ _ _ _ _ _ _ _ _ _ _ _ _)
          iexact Hrb
        iexact Hg
      isplitl [Ho]; · iexact Ho
      isplitl [H0]; · iexact H0
      isplitl [H1]; · iexact H1
      iexists _; iexact H2
    · rw [PhiS8_castSucc V c t, PhiS8_pos V c _ _ hz]
      iintro ⟨⟨⟨HS0, Hrb⟩, Hg⟩, Ho, ⟨%d0, H0⟩, ⟨%d1, H1⟩, ⟨%d2, H2⟩⟩
      iapply ((kernelRun8_A c (grid8.coords t) _ _ _ _ _ _ _ _ (isFirst8 t h0) (notLast8 t (by omega)) (iblk8 V c 0 t) (iblk8 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover8_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat8 V c).leavesExact 2 t = owns (c : Thread nD τ) (ms8_2 t) fullShare ((dat8 V c).after 2 t) from by
        unfold Dat.leavesExact; rw [liveAt8_2 t (isLast8 t h3)], after8_2]
      rw [outsAt8_C V c t h0 h3]
      unfold out8_C sout8_C; (try dsimp only)
      rw [PhiS8_castSucc V c t, PhiS8_pos V c _ _ hz]
      iintro ⟨⟨⟨HS0, Hrb⟩, Hg⟩, Ho, ⟨%d0, H0⟩, ⟨%d1, H1⟩, ⟨%d2, H2⟩⟩
      iapply ((kernelRun8_C c (grid8.coords t) _ _ _ _ _ _ _ _ (notFirst8 t h0) (isLast8 t h3) (iblk8 V c 0 t) (iblk8 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover8_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover8_C c _ _ _ _ _ _ _ _ _ _ _ _ _ _)
    · rw [Dat.leavesExact_idle (dat8 V c) 2 t (idleAt8_2 t (notLast8 t h3)) (noFlush8_2 t (notLast8 t h3))]
      rw [outsAt8_B V c t h0 h3]
      unfold sout8_B; (try dsimp only)
      rw [PhiS8_castSucc V c t, PhiS8_pos V c _ _ hz]
      iintro ⟨⟨⟨HS0, Hrb⟩, Hg⟩, Ho, ⟨%d0, H0⟩, ⟨%d1, H1⟩, ⟨%d2, H2⟩⟩
      iapply ((kernelRun8_B c (grid8.coords t) _ _ _ _ _ _ _ _ (notFirst8 t h0) (notLast8 t h3) (iblk8 V c 0 t) (iblk8 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover8_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the region is entered with is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After the last point the invariant gives the class's back: the accumulator's contents are forgotten. -/
theorem hout8 (c : Dev nD) : (dat8 V c).Φ (Fin.last cfg8.N) ⊢ Pipeline.ΦA spec8 c := by
  have hN : cfg8.N = 16 := N_8
  rw [show (dat8 V c).Φ (Fin.last cfg8.N) = PhiS8 V c (Fin.last cfg8.N).val (Nat.le_of_lt_succ (Fin.last cfg8.N).isLt) from rfl,
    PhiS8_pos V c _ _ (by rw [Fin.val_last]; omega), PhiA8_eq]
  iintro ⟨⟨HS0, Hrb⟩, Hg⟩
  isplitl [HS0 Hrb]
  · isplitl [HS0]
    · iexists _; iexact HS0
    iexact Hrb
  iexact Hg

end Cert.Kernel.Hand

end
-- ==== Proof.RegK9a.lean ====
/- Laid out by: python3 scratch/layout_regions.py --template-region 1 --region 9 --program Kernel --parts a,b,c, --out-dir proof/Proof
   from the hand-written text of region 1 (RegKI1a.lean): the same text, the region's number and the program's namespace substituted. -/
/-
  Region 9 of @main (custom_call 9): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond9_0 (i : grid9.Coords) : Prop := (Scalar.cmpi .ne (Scalar.extui (Scalar.cmpi .eq (BitVec.ofNat 32 (i 1).val) 0#32)) 0#32) = 1#1
/-- It holds exactly at the points with t % 4 = 0. -/
theorem hcond9_0 : ∀ t : Fin cfg9.N, cond9_0 (grid9.coords t) ↔ t.val % 4 = 0 :=
  (by decide +kernel : ∀ t : Fin grid9.N, cond9_0 (grid9.coords t) ↔ t.val % 4 = 0)

/-- "k = 3": the second conditional's test. -/
abbrev cond9_1 (i : grid9.Coords) : Prop := k9_cond2 i = 1#1
/-- It holds exactly at the points with t % 4 = 3. -/
theorem hcond9_1 : ∀ t : Fin cfg9.N, cond9_1 (grid9.coords t) ↔ t.val % 4 = 3 :=
  (by decide +kernel : ∀ t : Fin grid9.N, cond9_1 (grid9.coords t) ↔ t.val % 4 = 3)

/-! ## Where the windows are idle, and where the output is written back -/

/-- The two input windows are never idle. -/
theorem liveAt9_0 : ∀ t : Fin cfg9.N, cfg9.idle 0 (grid9.coords t) = false := by decide +kernel
theorem liveAt9_1 : ∀ t : Fin cfg9.N, cfg9.idle 1 (grid9.coords t) = false := by decide +kernel
/-- Where k ≠ 3 the output window is idle (the body stores nothing into it) and is not written back. -/
theorem idleAt9_2 : ∀ t : Fin cfg9.N, ¬cond9_1 (grid9.coords t) → cfg9.idle 2 (grid9.coords t) = true := by decide +kernel
theorem noFlush9_2 : ∀ t : Fin cfg9.N, ¬cond9_1 (grid9.coords t) → (cfg9.win 2).flush t = false := by decide +kernel
/-- Where k = 3 it is live. -/
theorem liveAt9_2 : ∀ t : Fin cfg9.N, cond9_1 (grid9.coords t) → cfg9.idle 2 (grid9.coords t) = false := by decide +kernel

/-! ## The staging memrefs at a point, and the scratch -/

/-- One staging buffer of the output window, through which its contents are stated. -/
abbrev VO9_2 : View sig .tc .vmem S1024x512 .f32 := (Memref.whole cc9_stg2_0 : Memref sig .tc .vmem S1024x512 .f32).view
abbrev ms9_0 (t : Fin cfg9.N) : Memref sig .tc .vmem S1024x1024 .bf16 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1024x512 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1024x512 .f32 := win9_2.stage (cfg9.slots t 2)
abbrev hs9_2 (t : Fin cfg9.N) : (ms9_2 t).IsWhole := hstage9_2 ((cfg9.slots t 2).cast nbuf9_2)
/-- The accumulator: a whole scoped buffer of the kernel's own. -/
abbrev scM9 : Memref sig .tc .vmem S1024x512 .f32 := Memref.whole cc9_scratch0
abbrev VS9 : View sig .tc .vmem S1024x512 .f32 := scM9.view

/-- The other scoped buffers of the core, none of which this region touches. -/
abbrev restBut9 (c : Dev nD) : sProp 𝕄 :=
  Pipeline.scopedRestBut (Ix := Unit) (Name := ℕ) (U := UR sig nD τ) (Lvl := ℕ) (Val := Elt F) spec9 c [cc9_scratch0]

/-- The region's invariant before its first point: the accumulator at something, the other scoped buffers, the generator register. -/
theorem PhiA9_eq (c : Dev nD) :
    (Pipeline.ΦA spec9 c : sProp 𝕄)
      = iprop(iprop((∃ d, owns (c : Thread nD τ) scM9 fullShare d) ∗ restBut9 c) ∗ (∃ r, prngReg c r)) := by
  unfold Pipeline.ΦA; rw [scopedRest9_split]; simp only [scM9, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun9_A (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond9_0 i) (hc1 : ¬cond9_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc9__matmul_kernel i arg2 harg2 arg3 harg3 arg4 harg4 arg5 harg5) K } := by
  refine ⟨[], ?_, fun xi2 E K => ?run⟩
  case run =>
    simp only [cc9__matmul_kernel_eq_skeleton]; unfold cc9__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK9b.lean ====
/- Laid out by: python3 scratch/layout_regions.py --template-region 1 --region 9 --program Kernel --parts a,b,c, --out-dir proof/Proof
   from the hand-written text of region 1 (RegKI1b.lean): the same text, the region's number and the program's namespace substituted. -/
/-
  Region 9, case B (k = 1, 2): the body's run. Neither conditional is taken: the product of the two blocks is added to what
  the point before left in the accumulator; the output block is not touched.
-/
import proofs.«158944_j64613488001249_1_alg».proof.Proof.RegK9a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun9_B (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond9_0 i) (hc1 : ¬cond9_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc9__matmul_kernel i arg2 harg2 arg3 harg3 arg4 harg4 arg5 harg5) K } := by
  refine ⟨[], ?_, fun xi2 E K => ?run⟩
  case run =>
    simp only [cc9__matmul_kernel_eq_skeleton]; unfold cc9__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK9c.lean ====
/- Laid out by: python3 scratch/layout_regions.py --template-region 1 --region 9 --program Kernel --parts a,b,c, --out-dir proof/Proof
   from the hand-written text of region 1 (RegKI1c.lean): the same text, the region's number and the program's namespace substituted. -/
/-
  Region 9, case C (k = 3): the body's run. The product is added to the accumulator as in case B, and then the second
  conditional copies the accumulator over the whole output block.
-/
import proofs.«158944_j64613488001249_1_alg».proof.Proof.RegK9b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun9_C (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond9_0 i) (hc1 : cond9_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc9__matmul_kernel i arg2 harg2 arg3 harg3 arg4 harg4 arg5 harg5) K } := by
  refine ⟨?_, ?_, fun E K => ?run⟩
  case run =>
    simp only [cc9__matmul_kernel_eq_skeleton]; unfold cc9__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK9.lean ====
/- Laid out by: python3 scratch/layout_regions.py --template-region 1 --region 9 --program Kernel --parts a,b,c, --out-dir proof/Proof
   from the hand-written text of region 1 (RegKI1.lean): the same text, the region's number and the program's namespace substituted. -/
/-
  Region 9 of @main, entered from the buffer contents `V`: what its windows' blocks are, what each case of the body leaves in
  the accumulator and in the output block, the accumulator and the output block point by point (`outsAt9`: at k = 0 the
  accumulator restarts from zeros plus the product; at k = 1, 2, 3 it is the point before's plus the product; at k = 3 the
  output block is the accumulator), the region's invariant (the accumulator at `outsAt9`'s second component), the proof data,
  and the body's obligation at every point.
-/
import proofs.«158944_j64613488001249_1_alg».proof.Proof.RegK9c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, for any proof data whose array is `V`'s and
    whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## What each case leaves -/

/-- Case A's stores into the accumulator cover it. -/
theorem scover9_A (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond9_0 i) (hc1 : ¬cond9_1 i)
    (x0 : Vec F S1024x1024 .bf16) (x1 : Vec F S1024x512 .f32) (y : S1024x512.Idx) :
    ∃ pc ∈ (kernelRun9_A c i arg2 harg2 arg3 harg3 arg4 harg4 arg5 harg5 hc0 hc1 x0 x1).2.1, y ∈ pc.1.set :=
  View.cover_of_tiledL (kernelRun9_A c i arg2 harg2 arg3 harg3 arg4 harg4 arg5 harg5 hc0 hc1 x0 x1).2.1 S1024x512.size (by sl_kernel_rfl) y
/-- What case A leaves in the accumulator. -/
noncomputable def sout9_A (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond9_0 i) (hc1 : ¬cond9_1 i)
    (x0 : Vec F S1024x1024 .bf16) (x1 : Vec F S1024x512 .f32) : Vec F S1024x512 .f32 :=
  VS9.read (Elt F) (VS9.writes (Elt F) VS9.junk (kernelRun9_A c i arg2 harg2 arg3 harg3 arg4 harg4 arg5 harg5 hc0 hc1 x0 x1).2.1)

/-- Case B's store into the accumulator covers it. -/
theorem scover9_B (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond9_0 i) (hc1 : ¬cond9_1 i)
    (x0 : Vec F S1024x1024 .bf16) (x1 : Vec F S1024x512 .f32) (xs0 : Vec F S1024x512 .f32) (y : S1024x512.Idx) :
    ∃ pc ∈ (kernelRun9_B c i arg2 harg2 arg3 harg3 arg4 harg4 arg5 harg5 hc0 hc1 x0 x1 xs0).2.1, y ∈ pc.1.set :=
  View.cover_of_tiledL (kernelRun9_B c i arg2 harg2 arg3 harg3 arg4 harg4 arg5 harg5 hc0 hc1 x0 x1 xs0).2.1 S1024x512.size (by sl_kernel_rfl) y
/-- What case B leaves in the accumulator, over what the point before left. -/
noncomputable def sout9_B (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond9_0 i) (hc1 : ¬cond9_1 i)
    (x0 : Vec F S1024x1024 .bf16) (x1 : Vec F S1024x512 .f32) (xs0 : Vec F S1024x512 .f32) : Vec F S1024x512 .f32 :=
  VS9.read (Elt F) (VS9.writes (Elt F) VS9.junk (kernelRun9_B c i arg2 harg2 arg3 harg3 arg4 harg4 arg5 harg5 hc0 hc1 x0 x1 xs0).2.1)

/-- Case C's store into the output block covers it, and so does its store into the accumulator. -/
theorem cover9_C (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond9_0 i) (hc1 : cond9_1 i)
    (x0 : Vec F S1024x1024 .bf16) (x1 : Vec F S1024x512 .f32) (xs0 : Vec F S1024x512 .f32) (y : S1024x512.Idx) :
    ∃ pc ∈ (kernelRun9_C c i arg2 harg2 arg3 harg3 arg4 harg4 arg5 harg5 hc0 hc1 x0 x1 xs0).1, y ∈ pc.1.set :=
  View.cover_of_tiledL (kernelRun9_C c i arg2 harg2 arg3 harg3 arg4 harg4 arg5 harg5 hc0 hc1 x0 x1 xs0).1 S1024x512.size (by sl_kernel_rfl) y
theorem scover9_C (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond9_0 i) (hc1 : cond9_1 i)
    (x0 : Vec F S1024x1024 .bf16) (x1 : Vec F S1024x512 .f32) (xs0 : Vec F S1024x512 .f32) (y : S1024x512.Idx) :
    ∃ pc ∈ (kernelRun9_C c i arg2 harg2 arg3 harg3 arg4 harg4 arg5 harg5 hc0 hc1 x0 x1 xs0).2.1, y ∈ pc.1.set :=
  View.cover_of_tiledL (kernelRun9_C c i arg2 harg2 arg3 harg3 arg4 harg4 arg5 harg5 hc0 hc1 x0 x1 xs0).2.1 S1024x512.size (by sl_kernel_rfl) y
/-- What case C leaves in the output block, and in the accumulator. -/
noncomputable def out9_C (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond9_0 i) (hc1 : cond9_1 i)
    (x0 : Vec F S1024x1024 .bf16) (x1 : Vec F S1024x512 .f32) (xs0 : Vec F S1024x512 .f32) : Vec F S1024x512 .f32 :=
  VO9_2.read (Elt F) (VO9_2.writes (Elt F) VO9_2.junk (kernelRun9_C c i arg2 harg2 arg3 harg3 arg4 harg4 arg5 harg5 hc0 hc1 x0 x1 xs0).1)
noncomputable def sout9_C (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond9_0 i) (hc1 : cond9_1 i)
    (x0 : Vec F S1024x1024 .bf16) (x1 : Vec F S1024x512 .f32) (xs0 : Vec F S1024x512 .f32) : Vec F S1024x512 .f32 :=
  VS9.read (Elt F) (VS9.writes (Elt F) VS9.junk (kernelRun9_C c i arg2 harg2 arg3 harg3 arg4 harg4 arg5 harg5 hc0 hc1 x0 x1 xs0).2.1)

/-- Where the output block is idle nothing consults what it holds: a placeholder. -/
noncomputable def outIdle9 : Vec F S1024x512 .f32 := VO9_2.read (Elt F) (VO9_2.writes (Elt F) VO9_2.junk [])

/-! ## The conditions at a point, from t % 4 -/

theorem isFirst9 (t : Fin cfg9.N) (h : t.val % 4 = 0) : cond9_0 (grid9.coords t) := (hcond9_0 t).mpr h
theorem notFirst9 (t : Fin cfg9.N) (h : ¬t.val % 4 = 0) : ¬cond9_0 (grid9.coords t) := fun hc => h ((hcond9_0 t).mp hc)
theorem isLast9 (t : Fin cfg9.N) (h : t.val % 4 = 3) : cond9_1 (grid9.coords t) := (hcond9_1 t).mpr h
theorem notLast9 (t : Fin cfg9.N) (h : ¬t.val % 4 = 3) : ¬cond9_1 (grid9.coords t) := fun hc => h ((hcond9_1 t).mp hc)

/-! ## The accumulator and the output block, point by point -/

/-- After the body at position `n`: (the output block's buffer, the accumulator). -/
noncomputable def outsAt9 (c : Dev nD) : (n : ℕ) → n < cfg9.N → Vec F S1024x512 .f32 × Vec F S1024x512 .f32
  | 0, hn => (outIdle9, sout9_A c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) scM9 (Memref.isWhole_whole _) (isFirst9 ⟨0, hn⟩ (Nat.zero_mod _)) (notLast9 ⟨0, hn⟩ (by simp)) (iblk9 V c 0 ⟨0, hn⟩) (iblk9 V c 1 ⟨0, hn⟩))
  | n + 1, hn =>
    if h0 : (n + 1) % 4 = 0 then
      (outIdle9, sout9_A c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9 (Memref.isWhole_whole _) (isFirst9 ⟨n + 1, hn⟩ h0) (notLast9 ⟨n + 1, hn⟩ (by show ¬(n + 1) % 4 = 3; omega)) (iblk9 V c 0 ⟨n + 1, hn⟩) (iblk9 V c 1 ⟨n + 1, hn⟩))
    else if h3 : (n + 1) % 4 = 3 then
      (out9_C c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9 (Memref.isWhole_whole _) (notFirst9 ⟨n + 1, hn⟩ h0) (isLast9 ⟨n + 1, hn⟩ h3) (iblk9 V c 0 ⟨n + 1, hn⟩) (iblk9 V c 1 ⟨n + 1, hn⟩) (outsAt9 c n (Nat.lt_of_succ_lt hn)).2,
       sout9_C c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9 (Memref.isWhole_whole _) (notFirst9 ⟨n + 1, hn⟩ h0) (isLast9 ⟨n + 1, hn⟩ h3) (iblk9 V c 0 ⟨n + 1, hn⟩) (iblk9 V c 1 ⟨n + 1, hn⟩) (outsAt9 c n (Nat.lt_of_succ_lt hn)).2)
    else
      (outIdle9, sout9_B c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9 (Memref.isWhole_whole _) (notFirst9 ⟨n + 1, hn⟩ h0) (notLast9 ⟨n + 1, hn⟩ h3) (iblk9 V c 0 ⟨n + 1, hn⟩) (iblk9 V c 1 ⟨n + 1, hn⟩) (outsAt9 c n (Nat.lt_of_succ_lt hn)).2)

/-- `outsAt9` at a point with k = 0. -/
theorem outsAt9_A (c : Dev nD) (t : Fin cfg9.N) (h0 : t.val % 4 = 0) :
    outsAt9 V c t.val t.isLt = (outIdle9, sout9_A c (grid9.coords t) (ms9_0 t) (hs9_0 t) (ms9_1 t) (hs9_1 t) (ms9_2 t) (hs9_2 t) scM9 (Memref.isWhole_whole _) (isFirst9 t h0) (notLast9 t (by omega)) (iblk9 V c 0 t) (iblk9 V c 1 t)) := by
  obtain ⟨n, hn⟩ := t
  cases n with
  | zero => rfl
  | succ n => exact (dif_pos h0).trans rfl

/-- `outsAt9` at a point with k = 1, 2: over what the point before left. -/
theorem outsAt9_B (c : Dev nD) (t : Fin cfg9.N) (h0 : ¬t.val % 4 = 0) (h3 : ¬t.val % 4 = 3) :
    outsAt9 V c t.val t.isLt = (outIdle9, sout9_B c (grid9.coords t) (ms9_0 t) (hs9_0 t) (ms9_1 t) (hs9_1 t) (ms9_2 t) (hs9_2 t) scM9 (Memref.isWhole_whole _) (notFirst9 t h0) (notLast9 t h3) (iblk9 V c 0 t) (iblk9 V c 1 t)
      (outsAt9 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt9` at a point with k = 3. -/
theorem outsAt9_C (c : Dev nD) (t : Fin cfg9.N) (h0 : ¬t.val % 4 = 0) (h3 : t.val % 4 = 3) :
    outsAt9 V c t.val t.isLt = (out9_C c (grid9.coords t) (ms9_0 t) (hs9_0 t) (ms9_1 t) (hs9_1 t) (ms9_2 t) (hs9_2 t) scM9 (Memref.isWhole_whole _) (notFirst9 t h0) (isLast9 t h3) (iblk9 V c 0 t) (iblk9 V c 1 t)
        (outsAt9 V c (t.val - 1) (Nat.lt_of_le_of_lt (Nat.sub_le _ _) t.isLt)).2,
      sout9_C c (grid9.coords t) (ms9_0 t) (hs9_0 t) (ms9_1 t) (hs9_1 t) (ms9_2 t) (hs9_2 t) scM9 (Memref.isWhole_whole _) (notFirst9 t h0) (isLast9 t h3) (iblk9 V c 0 t) (iblk9 V c 1 t)
        (outsAt9 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS9 (c : Dev nD) : (n : ℕ) → n ≤ cfg9.N → sProp 𝕄
  | 0, _ => Pipeline.ΦA spec9 c
  | n + 1, hn => iprop(iprop(owns (c : Thread nD τ) scM9 fullShare ((outsAt9 V c n hn).2) ∗ restBut9 c) ∗ (∃ r, prngReg c r))

theorem PhiS9_zero (c : Dev nD) (n : ℕ) (h : n ≤ cfg9.N) (hz : n = 0) : PhiS9 V c n h = Pipeline.ΦA spec9 c := by
  subst hz; rfl
theorem PhiS9_succ (c : Dev nD) (n : ℕ) (hn : n < cfg9.N) :
    PhiS9 V c (n + 1) hn = iprop(iprop(owns (c : Thread nD τ) scM9 fullShare ((outsAt9 V c n hn).2) ∗ restBut9 c) ∗ (∃ r, prngReg c r)) := rfl
theorem PhiS9_pos (c : Dev nD) (n : ℕ) (h : n ≤ cfg9.N) (hz : n ≠ 0) :
    PhiS9 V c n h = iprop(iprop(owns (c : Thread nD τ) scM9 fullShare ((outsAt9 V c (n - 1) (by omega)).2) ∗ restBut9 c) ∗ (∃ r, prngReg c r)) := by
  cases n with
  | zero => exact absurd rfl hz
  | succ n => rfl

/-! ## The proof data -/

/-- The region's proof data on core `c`: the arrays as the region finds them; after the body at point `t` each input's
    buffer at its block and the output's at `outsAt9`'s first component; the invariant `PhiS9`; nothing owed; full shares. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]
theorem PhiS9_castSucc (c : Dev nD) (t : Fin cfg9.N) :
    (dat9 V c).Φ t.castSucc = PhiS9 V c t.val (Nat.le_of_lt t.isLt) := by
  dsimp only [dat9]; simp only [Fin.coe_castSucc]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = (outsAt9 V c t.val t.isLt).1 := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body's obligation -/

noncomputable def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d)))

noncomputable def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  by_cases h0 : t.val % 4 = 0
  · have h3 : ¬t.val % 4 = 3 := by omega
    rw [Dat.leavesExact_idle (dat9 V c) 2 t (idleAt9_2 t (notLast9 t h3)) (noFlush9_2 t (notLast9 t h3))]
    rw [outsAt9_A V c t h0]
    unfold sout9_A; (try dsimp only)
    by_cases hz : t.val = 0
    · rw [PhiS9_castSucc V c t, PhiS9_zero V c _ _ hz, PhiA9_eq]
      iintro ⟨⟨⟨HS0, Hrb⟩, Hg⟩, Ho, ⟨%d0, H0⟩, ⟨%d1, H1⟩, ⟨%d2, H2⟩⟩
      iapply ((kernelRun9_A c (grid9.coords t) _ _ _ _ _ _ _ _ (isFirst9 t h0) (notLast9 t (by omega)) (iblk9 V c 0 t) (iblk9 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover9_A c _ _ _ _ _ _ _ _ _ _ _ _ _)
          iexact Hrb
        iexact Hg
      isplitl [Ho]; · iexact Ho
      isplitl [H0]; · iexact H0
      isplitl [H1]; · iexact H1
      iexists _; iexact H2
    · rw [PhiS9_castSucc V c t, PhiS9_pos V c _ _ hz]
      iintro ⟨⟨⟨HS0, Hrb⟩, Hg⟩, Ho, ⟨%d0, H0⟩, ⟨%d1, H1⟩, ⟨%d2, H2⟩⟩
      iapply ((kernelRun9_A c (grid9.coords t) _ _ _ _ _ _ _ _ (isFirst9 t h0) (notLast9 t (by omega)) (iblk9 V c 0 t) (iblk9 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover9_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat9 V c).leavesExact 2 t = owns (c : Thread nD τ) (ms9_2 t) fullShare ((dat9 V c).after 2 t) from by
        unfold Dat.leavesExact; rw [liveAt9_2 t (isLast9 t h3)], after9_2]
      rw [outsAt9_C V c t h0 h3]
      unfold out9_C sout9_C; (try dsimp only)
      rw [PhiS9_castSucc V c t, PhiS9_pos V c _ _ hz]
      iintro ⟨⟨⟨HS0, Hrb⟩, Hg⟩, Ho, ⟨%d0, H0⟩, ⟨%d1, H1⟩, ⟨%d2, H2⟩⟩
      iapply ((kernelRun9_C c (grid9.coords t) _ _ _ _ _ _ _ _ (notFirst9 t h0) (isLast9 t h3) (iblk9 V c 0 t) (iblk9 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover9_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover9_C c _ _ _ _ _ _ _ _ _ _ _ _ _ _)
    · rw [Dat.leavesExact_idle (dat9 V c) 2 t (idleAt9_2 t (notLast9 t h3)) (noFlush9_2 t (notLast9 t h3))]
      rw [outsAt9_B V c t h0 h3]
      unfold sout9_B; (try dsimp only)
      rw [PhiS9_castSucc V c t, PhiS9_pos V c _ _ hz]
      iintro ⟨⟨⟨HS0, Hrb⟩, Hg⟩, Ho, ⟨%d0, H0⟩, ⟨%d1, H1⟩, ⟨%d2, H2⟩⟩
      iapply ((kernelRun9_B c (grid9.coords t) _ _ _ _ _ _ _ _ (notFirst9 t h0) (notLast9 t h3) (iblk9 V c 0 t) (iblk9 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover9_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the region is entered with is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After the last point the invariant gives the class's back: the accumulator's contents are forgotten. -/
theorem hout9 (c : Dev nD) : (dat9 V c).Φ (Fin.last cfg9.N) ⊢ Pipeline.ΦA spec9 c := by
  have hN : cfg9.N = 16 := N_9
  rw [show (dat9 V c).Φ (Fin.last cfg9.N) = PhiS9 V c (Fin.last cfg9.N).val (Nat.le_of_lt_succ (Fin.last cfg9.N).isLt) from rfl,
    PhiS9_pos V c _ _ (by rw [Fin.val_last]; omega), PhiA9_eq]
  iintro ⟨⟨HS0, Hrb⟩, Hg⟩
  isplitl [HS0 Hrb]
  · isplitl [HS0]
    · iexists _; iexact HS0
    iexact Hrb
  iexact Hg

end Cert.Kernel.Hand

end
-- ==== Proof.RegK10a.lean ====
/- Laid out by: python3 scratch/layout_grid41.py --template-region 0 --region 10 --program Kernel --parts a, --shapes S1024x128=S1024x512,S128x512=S512x512
   from the hand-written text of region 0 (RegKI0a.lean): the same text, the region's number, block shapes and the program's namespace substituted. -/
/- The region of Kernel's @main that runs `cc10__matmul_kernel` (pipeline `cfg10`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond10_0 (i : grid10.Coords) : Prop :=
  (Scalar.cmpi .ne (Scalar.extui (Scalar.cmpi .eq (BitVec.ofNat 32 (i 1).val) 0#32)) 0#32) = 1#1
/-- True at every point: the reduction axis has one step. -/
theorem hcond10_0 : ∀ t : Fin cfg10.N, cond10_0 (grid10.coords t) :=
  (by decide +kernel : ∀ t : Fin grid10.N, cond10_0 (grid10.coords t))

/-- "This is the last reduction step" (the guard of the copy to the output block). -/
abbrev cond10_1 (i : grid10.Coords) : Prop := k10_cond2 i = 1#1
/-- True at every point, for the same reason. -/
theorem hcond10_1 : ∀ t : Fin cfg10.N, cond10_1 (grid10.coords t) :=
  (by decide +kernel : ∀ t : Fin grid10.N, cond10_1 (grid10.coords t))

/-! ## No window is idle anywhere -/

theorem liveAt10_0 : ∀ t : Fin cfg10.N, cfg10.idle 0 (grid10.coords t) = false := by decide +kernel
theorem liveAt10_1 : ∀ t : Fin cfg10.N, cfg10.idle 1 (grid10.coords t) = false := by decide +kernel
/-- The output window is stored at every point (the copy's guard holds everywhere). -/
theorem liveAt10_2 : ∀ t : Fin cfg10.N, cfg10.idle 2 (grid10.coords t) = false := by decide +kernel

/-! ## The memrefs the body is called on -/

/-- One staging buffer of the output window, through which its contents are stated (any whole view of the shape reads the
    same pieces back the same way). -/
abbrev VO10_2 : View sig .tc .vmem S1024x512 .f32 := (Memref.whole cc10_stg2_0 : Memref sig .tc .vmem S1024x512 .f32).view
/-- Each window's current staging memref at point `t`, spelt as the pipeline passes it, with its wholeness. -/
abbrev ms10_0 (t : Fin cfg10.N) : Memref sig .tc .vmem S1024x512 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S512x512 .bf16 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1024x512 .f32 := win10_2.stage (cfg10.slots t 2)
abbrev hs10_2 (t : Fin cfg10.N) : (ms10_2 t).IsWhole := hstage10_2 ((cfg10.slots t 2).cast nbuf10_2)
/-- The accumulator: a whole scoped buffer of the kernel's own, passed beside the windows. -/
abbrev scM10_0 : Memref sig .tc .vmem S1024x512 .f32 := Memref.whole cc10_scratch0
abbrev VS10_0 : View sig .tc .vmem S1024x512 .f32 := scM10_0.view

/-- The region invariant with the accumulator taken out of the scoped rest: the accumulator owned at some contents, every
    other scoped buffer unopened, and the generator register. -/
theorem PhiA10_eq (c : Dev nD) :
    (Pipeline.ΦA spec10 c : sProp 𝕄)
      = iprop(iprop(iprop((∃ d, owns (c : Thread nD τ) scM10_0 fullShare d))
            ∗ Pipeline.scopedRestBut (Ix := Unit) (Name := ℕ) (U := UR sig nD τ) (Lvl := ℕ) (Val := Elt F) spec10 c [cc10_scratch0])
          ∗ (∃ r, prngReg c r)) := by
  unfold Pipeline.ΦA; rw [scopedRest10_split]; simp only [scM10_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun10 (c : Dev nD) (i : grid10.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond10_0 i) (hlast : cond10_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc10__matmul_kernel i arg2 harg2 arg3 harg3 arg4 harg4 arg5 harg5) K } := by
  refine ⟨?_, ?_, fun E K => ?run⟩
  case run =>
    simp only [cc10__matmul_kernel_eq_skeleton]; unfold cc10__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.Kernel.Hand

end
-- ==== Proof.RegK10.lean ====
/- Laid out by: python3 scratch/layout_grid41.py --template-region 0 --region 10 --program Kernel --parts a, --shapes S1024x128=S1024x512,S128x512=S512x512
   from the hand-written text of region 0 (RegKI0.lean): the same text, the region's number, block shapes and the program's namespace substituted. -/
/- The region of Kernel's @main that runs `cc10__matmul_kernel` (pipeline `cfg10`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegK10a
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## What the case leaves, as pieces read back -/

/-- The output's pieces tile its block (one whole-block store). -/
theorem cover10_2 (c : Dev nD) (i : grid10.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond10_0 i) (hlast : cond10_1 i) (xa : Vec F S1024x512 .f32) (xb : Vec F S512x512 .bf16) (y : S1024x512.Idx) :
    ∃ pc ∈ (kernelRun10 c i arg2 harg2 arg3 harg3 arg4 harg4 arg5 harg5 hfirst hlast xa xb).1, y ∈ pc.1.set :=
  View.cover_of_tiledL (kernelRun10 c i arg2 harg2 arg3 harg3 arg4 harg4 arg5 harg5 hfirst hlast xa xb).1 S1024x512.size (by sl_kernel_rfl) y

/-- What the case leaves in the output's staging buffer: its pieces read back over junk. -/
noncomputable def out10_2 (c : Dev nD) (i : grid10.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond10_0 i) (hlast : cond10_1 i) (xa : Vec F S1024x512 .f32) (xb : Vec F S512x512 .bf16) : Vec F S1024x512 .f32 :=
  VO10_2.read (Elt F) (VO10_2.writes (Elt F) VO10_2.junk (kernelRun10 c i arg2 harg2 arg3 harg3 arg4 harg4 arg5 harg5 hfirst hlast xa xb).1)

/-- What the case leaves in the accumulator: its pieces read back over junk. -/
noncomputable def sout10_0 (c : Dev nD) (i : grid10.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond10_0 i) (hlast : cond10_1 i) (xa : Vec F S1024x512 .f32) (xb : Vec F S512x512 .bf16) : Vec F S1024x512 .f32 :=
  VS10_0.read (Elt F) (VS10_0.writes (Elt F) VS10_0.junk (kernelRun10 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout10_0_eq (c : Dev nD) (i : grid10.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond10_0 i) (hlast : cond10_1 i) (xa : Vec F S1024x512 .f32) (xb : Vec F S512x512 .bf16) :
    sout10_0 c i arg2 harg2 arg3 harg3 arg4 harg4 arg5 harg5 hfirst hlast xa xb = k10_pay2 xa xb (k10_pay1 (F := F)) := by
  unfold sout10_0
  rw [View.read_writes_junk_eq_canon]
  unfold kernelRun10
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out10_2_eq (c : Dev nD) (i : grid10.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond10_0 i) (hlast : cond10_1 i) (xa : Vec F S1024x512 .f32) (xb : Vec F S512x512 .bf16) :
    out10_2 c i arg2 harg2 arg3 harg3 arg4 harg4 arg5 harg5 hfirst hlast xa xb = k10_pay2 xa xb (k10_pay1 (F := F)) := by
  unfold out10_2
  rw [View.read_writes_junk_eq_canon]
  unfold kernelRun10
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt10 (c : Dev nD) (n : ℕ) (hn : n < cfg10.N) : Vec F S1024x512 .f32 × Vec F S1024x512 .f32 :=
  (out10_2 c (grid10.coords ⟨n, hn⟩) (ms10_0 ⟨n, hn⟩) (hs10_0 ⟨n, hn⟩) (ms10_1 ⟨n, hn⟩) (hs10_1 ⟨n, hn⟩) (ms10_2 ⟨n, hn⟩) (hs10_2 ⟨n, hn⟩) scM10_0 (Memref.isWhole_whole _)
      (hcond10_0 ⟨n, hn⟩) (hcond10_1 ⟨n, hn⟩) (iblk10 V c 0 ⟨n, hn⟩) (iblk10 V c 1 ⟨n, hn⟩),
   sout10_0 c (grid10.coords ⟨n, hn⟩) (ms10_0 ⟨n, hn⟩) (hs10_0 ⟨n, hn⟩) (ms10_1 ⟨n, hn⟩) (hs10_1 ⟨n, hn⟩) (ms10_2 ⟨n, hn⟩) (hs10_2 ⟨n, hn⟩) scM10_0 (Memref.isWhole_whole _)
      (hcond10_0 ⟨n, hn⟩) (hcond10_1 ⟨n, hn⟩) (iblk10 V c 0 ⟨n, hn⟩) (iblk10 V c 1 ⟨n, hn⟩))

/-- Every point is a first reduction step: the accumulator after it is one product onto zero. -/
theorem outsAt10_first (c : Dev nD) (t : Fin cfg10.N) :
    (outsAt10 V c t.val t.isLt).2 = k10_pay2 (iblk10 V c 0 t) (iblk10 V c 1 t) (k10_pay1 (F := F)) := by
  obtain ⟨n, hn⟩ := t
  unfold outsAt10
  dsimp only
  rw [sout10_0_eq]

/-- Every point is a last reduction step: the output block after it is the accumulator. -/
theorem outsAt10_last (c : Dev nD) (t : Fin cfg10.N) :
    (outsAt10 V c t.val t.isLt).1 = (outsAt10 V c t.val t.isLt).2 := by
  obtain ⟨n, hn⟩ := t
  unfold outsAt10
  dsimp only
  rw [out10_2_eq, sout10_0_eq]

/-! ## The pipeline's proof data -/

/-- The proof data of the pipeline on core `c`: the arrays as the region finds them; after the body at point `t` each input's
    buffer at its block and the output's at `outsAt10`'s first component; the invariant the same at every point; nothing owed;
    full shares. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt).1
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (outsAt10 V c t.val t.isLt).1 := by dsimp only [dat10]

/-- An input's current staging buffer holds its block at every point, fetched there or not: where it is not fetched its block
    index has not moved since the point before, and the body left the block in place. -/
theorem before10_0 (c : Dev nD) (t : Fin cfg10.N) (d) : (dat10 V c).before 0 t d = iblk10 V c 0 t :=
  ((dat10 V c).before_in_eq_fetched 0 rfl (fun _ => rfl) (fun _ _ _ => rfl)
      (fun t => by rw [after10_0]; unfold Dat.blockOf iblk10; rw [A_eq10]; try rfl) t d).trans
    (by unfold Dat.fetched Dat.blockOf iblk10; rw [A_eq10]; try rfl)
theorem before10_1 (c : Dev nD) (t : Fin cfg10.N) (d) : (dat10 V c).before 1 t d = iblk10 V c 1 t :=
  ((dat10 V c).before_in_eq_fetched 1 rfl (fun _ => rfl) (fun _ _ _ => rfl)
      (fun t => by rw [after10_1]; unfold Dat.blockOf iblk10; rw [A_eq10]; try rfl) t d).trans
    (by unfold Dat.fetched Dat.blockOf iblk10; rw [A_eq10]; try rfl)

/-! ## The body obligation, at a generic point -/

/-- What the body is called with at point `t`, the windows one by one, -/
noncomputable def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

/-- and what it returns. -/
noncomputable def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl,
    show (dat10 V c).Φ t.succ = Pipeline.ΦA spec10 c from rfl, show (dat10 V c).Φ t.castSucc = Pipeline.ΦA spec10 c from rfl, PhiA10_eq]
  rw [show (dat10 V c).leavesExact 0 t = owns (c : Thread nD τ) (ms10_0 t) fullShare ((dat10 V c).after 0 t) from by
      unfold Dat.leavesExact; rw [liveAt10_0 t], after10_0]
  rw [show (dat10 V c).leavesExact 1 t = owns (c : Thread nD τ) (ms10_1 t) fullShare ((dat10 V c).after 1 t) from by
      unfold Dat.leavesExact; rw [liveAt10_1 t], after10_1]
  rw [show (dat10 V c).leavesExact 2 t = owns (c : Thread nD τ) (ms10_2 t) fullShare ((dat10 V c).after 2 t) from by
      unfold Dat.leavesExact; rw [liveAt10_2 t], after10_2]
  unfold outsAt10 out10_2; (try dsimp only)
  iintro ⟨⟨⟨Hacc, Hrest⟩, Hgen⟩, Howe, ⟨%da, Ha⟩, ⟨%db, Hb⟩, ⟨%dO, Hout⟩⟩
  iapply ((kernelRun10 c (grid10.coords t) _ _ _ _ _ _ _ _ (hcond10_0 t) (hcond10_1 t) (iblk10 V c 0 t) (iblk10 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover10_2 c _ _ _ _ _ _ _ _ _ _ _ _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point, -/
theorem hin10 (c : Dev nD) : Pipeline.ΦA spec10 c ⊢ (dat10 V c).Φ 0 := Idealize.SL.BI.Entails.refl _

/-- and the invariant after the last point is what the launch takes back. -/
theorem hout10 (c : Dev nD) : (dat10 V c).Φ (Fin.last cfg10.N) ⊢ Pipeline.ΦA spec10 c := Idealize.SL.BI.Entails.refl _

end Cert.Kernel.Hand

end
-- ==== Proof.RegK11a.lean ====
/- Laid out by: python3 scratch/layout_regions.py --template-region 1 --region 11 --program Kernel --parts a,b,c, --out-dir proof/Proof
   from the hand-written text of region 1 (RegKI1a.lean): the same text, the region's number and the program's namespace substituted. -/
/-
  Region 11 of @main (custom_call 11): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond11_0 (i : grid11.Coords) : Prop := (Scalar.cmpi .ne (Scalar.extui (Scalar.cmpi .eq (BitVec.ofNat 32 (i 1).val) 0#32)) 0#32) = 1#1
/-- It holds exactly at the points with t % 4 = 0. -/
theorem hcond11_0 : ∀ t : Fin cfg11.N, cond11_0 (grid11.coords t) ↔ t.val % 4 = 0 :=
  (by decide +kernel : ∀ t : Fin grid11.N, cond11_0 (grid11.coords t) ↔ t.val % 4 = 0)

/-- "k = 3": the second conditional's test. -/
abbrev cond11_1 (i : grid11.Coords) : Prop := k11_cond2 i = 1#1
/-- It holds exactly at the points with t % 4 = 3. -/
theorem hcond11_1 : ∀ t : Fin cfg11.N, cond11_1 (grid11.coords t) ↔ t.val % 4 = 3 :=
  (by decide +kernel : ∀ t : Fin grid11.N, cond11_1 (grid11.coords t) ↔ t.val % 4 = 3)

/-! ## Where the windows are idle, and where the output is written back -/

/-- The two input windows are never idle. -/
theorem liveAt11_0 : ∀ t : Fin cfg11.N, cfg11.idle 0 (grid11.coords t) = false := by decide +kernel
theorem liveAt11_1 : ∀ t : Fin cfg11.N, cfg11.idle 1 (grid11.coords t) = false := by decide +kernel
/-- Where k ≠ 3 the output window is idle (the body stores nothing into it) and is not written back. -/
theorem idleAt11_2 : ∀ t : Fin cfg11.N, ¬cond11_1 (grid11.coords t) → cfg11.idle 2 (grid11.coords t) = true := by decide +kernel
theorem noFlush11_2 : ∀ t : Fin cfg11.N, ¬cond11_1 (grid11.coords t) → (cfg11.win 2).flush t = false := by decide +kernel
/-- Where k = 3 it is live. -/
theorem liveAt11_2 : ∀ t : Fin cfg11.N, cond11_1 (grid11.coords t) → cfg11.idle 2 (grid11.coords t) = false := by decide +kernel

/-! ## The staging memrefs at a point, and the scratch -/

/-- One staging buffer of the output window, through which its contents are stated. -/
abbrev VO11_2 : View sig .tc .vmem S1024x512 .f32 := (Memref.whole cc11_stg2_0 : Memref sig .tc .vmem S1024x512 .f32).view
abbrev ms11_0 (t : Fin cfg11.N) : Memref sig .tc .vmem S1024x1024 .bf16 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S1024x512 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S1024x512 .f32 := win11_2.stage (cfg11.slots t 2)
abbrev hs11_2 (t : Fin cfg11.N) : (ms11_2 t).IsWhole := hstage11_2 ((cfg11.slots t 2).cast nbuf11_2)
/-- The accumulator: a whole scoped buffer of the kernel's own. -/
abbrev scM11 : Memref sig .tc .vmem S1024x512 .f32 := Memref.whole cc11_scratch0
abbrev VS11 : View sig .tc .vmem S1024x512 .f32 := scM11.view

/-- The other scoped buffers of the core, none of which this region touches. -/
abbrev restBut11 (c : Dev nD) : sProp 𝕄 :=
  Pipeline.scopedRestBut (Ix := Unit) (Name := ℕ) (U := UR sig nD τ) (Lvl := ℕ) (Val := Elt F) spec11 c [cc11_scratch0]

/-- The region's invariant before its first point: the accumulator at something, the other scoped buffers, the generator register. -/
theorem PhiA11_eq (c : Dev nD) :
    (Pipeline.ΦA spec11 c : sProp 𝕄)
      = iprop(iprop((∃ d, owns (c : Thread nD τ) scM11 fullShare d) ∗ restBut11 c) ∗ (∃ r, prngReg c r)) := by
  unfold Pipeline.ΦA; rw [scopedRest11_split]; simp only [scM11, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun11_A (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond11_0 i) (hc1 : ¬cond11_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc11__matmul_kernel i arg2 harg2 arg3 harg3 arg4 harg4 arg5 harg5) K } := by
  refine ⟨[], ?_, fun xi2 E K => ?run⟩
  case run =>
    simp only [cc11__matmul_kernel_eq_skeleton]; unfold cc11__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK11b.lean ====
/- Laid out by: python3 scratch/layout_regions.py --template-region 1 --region 11 --program Kernel --parts a,b,c, --out-dir proof/Proof
   from the hand-written text of region 1 (RegKI1b.lean): the same text, the region's number and the program's namespace substituted. -/
/-
  Region 11, case B (k = 1, 2): the body's run. Neither conditional is taken: the product of the two blocks is added to what
  the point before left in the accumulator; the output block is not touched.
-/
import proofs.«158944_j64613488001249_1_alg».proof.Proof.RegK11a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun11_B (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond11_0 i) (hc1 : ¬cond11_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc11__matmul_kernel i arg2 harg2 arg3 harg3 arg4 harg4 arg5 harg5) K } := by
  refine ⟨[], ?_, fun xi2 E K => ?run⟩
  case run =>
    simp only [cc11__matmul_kernel_eq_skeleton]; unfold cc11__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK11c.lean ====
/- Laid out by: python3 scratch/layout_regions.py --template-region 1 --region 11 --program Kernel --parts a,b,c, --out-dir proof/Proof
   from the hand-written text of region 1 (RegKI1c.lean): the same text, the region's number and the program's namespace substituted. -/
/-
  Region 11, case C (k = 3): the body's run. The product is added to the accumulator as in case B, and then the second
  conditional copies the accumulator over the whole output block.
-/
import proofs.«158944_j64613488001249_1_alg».proof.Proof.RegK11b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun11_C (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond11_0 i) (hc1 : cond11_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc11__matmul_kernel i arg2 harg2 arg3 harg3 arg4 harg4 arg5 harg5) K } := by
  refine ⟨?_, ?_, fun E K => ?run⟩
  case run =>
    simp only [cc11__matmul_kernel_eq_skeleton]; unfold cc11__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK11.lean ====
/- Laid out by: python3 scratch/layout_regions.py --template-region 1 --region 11 --program Kernel --parts a,b,c, --out-dir proof/Proof
   from the hand-written text of region 1 (RegKI1.lean): the same text, the region's number and the program's namespace substituted. -/
/-
  Region 11 of @main, entered from the buffer contents `V`: what its windows' blocks are, what each case of the body leaves in
  the accumulator and in the output block, the accumulator and the output block point by point (`outsAt11`: at k = 0 the
  accumulator restarts from zeros plus the product; at k = 1, 2, 3 it is the point before's plus the product; at k = 3 the
  output block is the accumulator), the region's invariant (the accumulator at `outsAt11`'s second component), the proof data,
  and the body's obligation at every point.
-/
import proofs.«158944_j64613488001249_1_alg».proof.Proof.RegK11c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, for any proof data whose array is `V`'s and
    whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## What each case leaves -/

/-- Case A's stores into the accumulator cover it. -/
theorem scover11_A (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond11_0 i) (hc1 : ¬cond11_1 i)
    (x0 : Vec F S1024x1024 .bf16) (x1 : Vec F S1024x512 .f32) (y : S1024x512.Idx) :
    ∃ pc ∈ (kernelRun11_A c i arg2 harg2 arg3 harg3 arg4 harg4 arg5 harg5 hc0 hc1 x0 x1).2.1, y ∈ pc.1.set :=
  View.cover_of_tiledL (kernelRun11_A c i arg2 harg2 arg3 harg3 arg4 harg4 arg5 harg5 hc0 hc1 x0 x1).2.1 S1024x512.size (by sl_kernel_rfl) y
/-- What case A leaves in the accumulator. -/
noncomputable def sout11_A (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond11_0 i) (hc1 : ¬cond11_1 i)
    (x0 : Vec F S1024x1024 .bf16) (x1 : Vec F S1024x512 .f32) : Vec F S1024x512 .f32 :=
  VS11.read (Elt F) (VS11.writes (Elt F) VS11.junk (kernelRun11_A c i arg2 harg2 arg3 harg3 arg4 harg4 arg5 harg5 hc0 hc1 x0 x1).2.1)

/-- Case B's store into the accumulator covers it. -/
theorem scover11_B (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond11_0 i) (hc1 : ¬cond11_1 i)
    (x0 : Vec F S1024x1024 .bf16) (x1 : Vec F S1024x512 .f32) (xs0 : Vec F S1024x512 .f32) (y : S1024x512.Idx) :
    ∃ pc ∈ (kernelRun11_B c i arg2 harg2 arg3 harg3 arg4 harg4 arg5 harg5 hc0 hc1 x0 x1 xs0).2.1, y ∈ pc.1.set :=
  View.cover_of_tiledL (kernelRun11_B c i arg2 harg2 arg3 harg3 arg4 harg4 arg5 harg5 hc0 hc1 x0 x1 xs0).2.1 S1024x512.size (by sl_kernel_rfl) y
/-- What case B leaves in the accumulator, over what the point before left. -/
noncomputable def sout11_B (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond11_0 i) (hc1 : ¬cond11_1 i)
    (x0 : Vec F S1024x1024 .bf16) (x1 : Vec F S1024x512 .f32) (xs0 : Vec F S1024x512 .f32) : Vec F S1024x512 .f32 :=
  VS11.read (Elt F) (VS11.writes (Elt F) VS11.junk (kernelRun11_B c i arg2 harg2 arg3 harg3 arg4 harg4 arg5 harg5 hc0 hc1 x0 x1 xs0).2.1)

/-- Case C's store into the output block covers it, and so does its store into the accumulator. -/
theorem cover11_C (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond11_0 i) (hc1 : cond11_1 i)
    (x0 : Vec F S1024x1024 .bf16) (x1 : Vec F S1024x512 .f32) (xs0 : Vec F S1024x512 .f32) (y : S1024x512.Idx) :
    ∃ pc ∈ (kernelRun11_C c i arg2 harg2 arg3 harg3 arg4 harg4 arg5 harg5 hc0 hc1 x0 x1 xs0).1, y ∈ pc.1.set :=
  View.cover_of_tiledL (kernelRun11_C c i arg2 harg2 arg3 harg3 arg4 harg4 arg5 harg5 hc0 hc1 x0 x1 xs0).1 S1024x512.size (by sl_kernel_rfl) y
theorem scover11_C (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond11_0 i) (hc1 : cond11_1 i)
    (x0 : Vec F S1024x1024 .bf16) (x1 : Vec F S1024x512 .f32) (xs0 : Vec F S1024x512 .f32) (y : S1024x512.Idx) :
    ∃ pc ∈ (kernelRun11_C c i arg2 harg2 arg3 harg3 arg4 harg4 arg5 harg5 hc0 hc1 x0 x1 xs0).2.1, y ∈ pc.1.set :=
  View.cover_of_tiledL (kernelRun11_C c i arg2 harg2 arg3 harg3 arg4 harg4 arg5 harg5 hc0 hc1 x0 x1 xs0).2.1 S1024x512.size (by sl_kernel_rfl) y
/-- What case C leaves in the output block, and in the accumulator. -/
noncomputable def out11_C (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond11_0 i) (hc1 : cond11_1 i)
    (x0 : Vec F S1024x1024 .bf16) (x1 : Vec F S1024x512 .f32) (xs0 : Vec F S1024x512 .f32) : Vec F S1024x512 .f32 :=
  VO11_2.read (Elt F) (VO11_2.writes (Elt F) VO11_2.junk (kernelRun11_C c i arg2 harg2 arg3 harg3 arg4 harg4 arg5 harg5 hc0 hc1 x0 x1 xs0).1)
noncomputable def sout11_C (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond11_0 i) (hc1 : cond11_1 i)
    (x0 : Vec F S1024x1024 .bf16) (x1 : Vec F S1024x512 .f32) (xs0 : Vec F S1024x512 .f32) : Vec F S1024x512 .f32 :=
  VS11.read (Elt F) (VS11.writes (Elt F) VS11.junk (kernelRun11_C c i arg2 harg2 arg3 harg3 arg4 harg4 arg5 harg5 hc0 hc1 x0 x1 xs0).2.1)

/-- Where the output block is idle nothing consults what it holds: a placeholder. -/
noncomputable def outIdle11 : Vec F S1024x512 .f32 := VO11_2.read (Elt F) (VO11_2.writes (Elt F) VO11_2.junk [])

/-! ## The conditions at a point, from t % 4 -/

theorem isFirst11 (t : Fin cfg11.N) (h : t.val % 4 = 0) : cond11_0 (grid11.coords t) := (hcond11_0 t).mpr h
theorem notFirst11 (t : Fin cfg11.N) (h : ¬t.val % 4 = 0) : ¬cond11_0 (grid11.coords t) := fun hc => h ((hcond11_0 t).mp hc)
theorem isLast11 (t : Fin cfg11.N) (h : t.val % 4 = 3) : cond11_1 (grid11.coords t) := (hcond11_1 t).mpr h
theorem notLast11 (t : Fin cfg11.N) (h : ¬t.val % 4 = 3) : ¬cond11_1 (grid11.coords t) := fun hc => h ((hcond11_1 t).mp hc)

/-! ## The accumulator and the output block, point by point -/

/-- After the body at position `n`: (the output block's buffer, the accumulator). -/
noncomputable def outsAt11 (c : Dev nD) : (n : ℕ) → n < cfg11.N → Vec F S1024x512 .f32 × Vec F S1024x512 .f32
  | 0, hn => (outIdle11, sout11_A c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) scM11 (Memref.isWhole_whole _) (isFirst11 ⟨0, hn⟩ (Nat.zero_mod _)) (notLast11 ⟨0, hn⟩ (by simp)) (iblk11 V c 0 ⟨0, hn⟩) (iblk11 V c 1 ⟨0, hn⟩))
  | n + 1, hn =>
    if h0 : (n + 1) % 4 = 0 then
      (outIdle11, sout11_A c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) scM11 (Memref.isWhole_whole _) (isFirst11 ⟨n + 1, hn⟩ h0) (notLast11 ⟨n + 1, hn⟩ (by show ¬(n + 1) % 4 = 3; omega)) (iblk11 V c 0 ⟨n + 1, hn⟩) (iblk11 V c 1 ⟨n + 1, hn⟩))
    else if h3 : (n + 1) % 4 = 3 then
      (out11_C c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) scM11 (Memref.isWhole_whole _) (notFirst11 ⟨n + 1, hn⟩ h0) (isLast11 ⟨n + 1, hn⟩ h3) (iblk11 V c 0 ⟨n + 1, hn⟩) (iblk11 V c 1 ⟨n + 1, hn⟩) (outsAt11 c n (Nat.lt_of_succ_lt hn)).2,
       sout11_C c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) scM11 (Memref.isWhole_whole _) (notFirst11 ⟨n + 1, hn⟩ h0) (isLast11 ⟨n + 1, hn⟩ h3) (iblk11 V c 0 ⟨n + 1, hn⟩) (iblk11 V c 1 ⟨n + 1, hn⟩) (outsAt11 c n (Nat.lt_of_succ_lt hn)).2)
    else
      (outIdle11, sout11_B c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) scM11 (Memref.isWhole_whole _) (notFirst11 ⟨n + 1, hn⟩ h0) (notLast11 ⟨n + 1, hn⟩ h3) (iblk11 V c 0 ⟨n + 1, hn⟩) (iblk11 V c 1 ⟨n + 1, hn⟩) (outsAt11 c n (Nat.lt_of_succ_lt hn)).2)

/-- `outsAt11` at a point with k = 0. -/
theorem outsAt11_A (c : Dev nD) (t : Fin cfg11.N) (h0 : t.val % 4 = 0) :
    outsAt11 V c t.val t.isLt = (outIdle11, sout11_A c (grid11.coords t) (ms11_0 t) (hs11_0 t) (ms11_1 t) (hs11_1 t) (ms11_2 t) (hs11_2 t) scM11 (Memref.isWhole_whole _) (isFirst11 t h0) (notLast11 t (by omega)) (iblk11 V c 0 t) (iblk11 V c 1 t)) := by
  obtain ⟨n, hn⟩ := t
  cases n with
  | zero => rfl
  | succ n => exact (dif_pos h0).trans rfl

/-- `outsAt11` at a point with k = 1, 2: over what the point before left. -/
theorem outsAt11_B (c : Dev nD) (t : Fin cfg11.N) (h0 : ¬t.val % 4 = 0) (h3 : ¬t.val % 4 = 3) :
    outsAt11 V c t.val t.isLt = (outIdle11, sout11_B c (grid11.coords t) (ms11_0 t) (hs11_0 t) (ms11_1 t) (hs11_1 t) (ms11_2 t) (hs11_2 t) scM11 (Memref.isWhole_whole _) (notFirst11 t h0) (notLast11 t h3) (iblk11 V c 0 t) (iblk11 V c 1 t)
      (outsAt11 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt11` at a point with k = 3. -/
theorem outsAt11_C (c : Dev nD) (t : Fin cfg11.N) (h0 : ¬t.val % 4 = 0) (h3 : t.val % 4 = 3) :
    outsAt11 V c t.val t.isLt = (out11_C c (grid11.coords t) (ms11_0 t) (hs11_0 t) (ms11_1 t) (hs11_1 t) (ms11_2 t) (hs11_2 t) scM11 (Memref.isWhole_whole _) (notFirst11 t h0) (isLast11 t h3) (iblk11 V c 0 t) (iblk11 V c 1 t)
        (outsAt11 V c (t.val - 1) (Nat.lt_of_le_of_lt (Nat.sub_le _ _) t.isLt)).2,
      sout11_C c (grid11.coords t) (ms11_0 t) (hs11_0 t) (ms11_1 t) (hs11_1 t) (ms11_2 t) (hs11_2 t) scM11 (Memref.isWhole_whole _) (notFirst11 t h0) (isLast11 t h3) (iblk11 V c 0 t) (iblk11 V c 1 t)
        (outsAt11 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS11 (c : Dev nD) : (n : ℕ) → n ≤ cfg11.N → sProp 𝕄
  | 0, _ => Pipeline.ΦA spec11 c
  | n + 1, hn => iprop(iprop(owns (c : Thread nD τ) scM11 fullShare ((outsAt11 V c n hn).2) ∗ restBut11 c) ∗ (∃ r, prngReg c r))

theorem PhiS11_zero (c : Dev nD) (n : ℕ) (h : n ≤ cfg11.N) (hz : n = 0) : PhiS11 V c n h = Pipeline.ΦA spec11 c := by
  subst hz; rfl
theorem PhiS11_succ (c : Dev nD) (n : ℕ) (hn : n < cfg11.N) :
    PhiS11 V c (n + 1) hn = iprop(iprop(owns (c : Thread nD τ) scM11 fullShare ((outsAt11 V c n hn).2) ∗ restBut11 c) ∗ (∃ r, prngReg c r)) := rfl
theorem PhiS11_pos (c : Dev nD) (n : ℕ) (h : n ≤ cfg11.N) (hz : n ≠ 0) :
    PhiS11 V c n h = iprop(iprop(owns (c : Thread nD τ) scM11 fullShare ((outsAt11 V c (n - 1) (by omega)).2) ∗ restBut11 c) ∗ (∃ r, prngReg c r)) := by
  cases n with
  | zero => exact absurd rfl hz
  | succ n => rfl

/-! ## The proof data -/

/-- The region's proof data on core `c`: the arrays as the region finds them; after the body at point `t` each input's
    buffer at its block and the output's at `outsAt11`'s first component; the invariant `PhiS11`; nothing owed; full shares. -/
noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => (outsAt11 V c t.val t.isLt).1
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]
theorem PhiS11_castSucc (c : Dev nD) (t : Fin cfg11.N) :
    (dat11 V c).Φ t.castSucc = PhiS11 V c t.val (Nat.le_of_lt t.isLt) := by
  dsimp only [dat11]; simp only [Fin.coe_castSucc]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = (outsAt11 V c t.val t.isLt).1 := by dsimp only [dat11]
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-! ## The body's obligation -/

noncomputable def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d)))

noncomputable def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).owesAt () t.succ = (dat11 V c).owesAt () t.castSucc from rfl]
  rw [show (dat11 V c).Φ t.succ = PhiS11 V c (t.val + 1) t.isLt from rfl, PhiS11_succ]
  rw [show (dat11 V c).leavesExact 0 t = owns (c : Thread nD τ) (ms11_0 t) fullShare ((dat11 V c).after 0 t) from by
    unfold Dat.leavesExact; rw [liveAt11_0 t], after11_0]
  rw [show (dat11 V c).leavesExact 1 t = owns (c : Thread nD τ) (ms11_1 t) fullShare ((dat11 V c).after 1 t) from by
    unfold Dat.leavesExact; rw [liveAt11_1 t], after11_1]
  by_cases h0 : t.val % 4 = 0
  · have h3 : ¬t.val % 4 = 3 := by omega
    rw [Dat.leavesExact_idle (dat11 V c) 2 t (idleAt11_2 t (notLast11 t h3)) (noFlush11_2 t (notLast11 t h3))]
    rw [outsAt11_A V c t h0]
    unfold sout11_A; (try dsimp only)
    by_cases hz : t.val = 0
    · rw [PhiS11_castSucc V c t, PhiS11_zero V c _ _ hz, PhiA11_eq]
      iintro ⟨⟨⟨HS0, Hrb⟩, Hg⟩, Ho, ⟨%d0, H0⟩, ⟨%d1, H1⟩, ⟨%d2, H2⟩⟩
      iapply ((kernelRun11_A c (grid11.coords t) _ _ _ _ _ _ _ _ (isFirst11 t h0) (notLast11 t (by omega)) (iblk11 V c 0 t) (iblk11 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover11_A c _ _ _ _ _ _ _ _ _ _ _ _ _)
          iexact Hrb
        iexact Hg
      isplitl [Ho]; · iexact Ho
      isplitl [H0]; · iexact H0
      isplitl [H1]; · iexact H1
      iexists _; iexact H2
    · rw [PhiS11_castSucc V c t, PhiS11_pos V c _ _ hz]
      iintro ⟨⟨⟨HS0, Hrb⟩, Hg⟩, Ho, ⟨%d0, H0⟩, ⟨%d1, H1⟩, ⟨%d2, H2⟩⟩
      iapply ((kernelRun11_A c (grid11.coords t) _ _ _ _ _ _ _ _ (isFirst11 t h0) (notLast11 t (by omega)) (iblk11 V c 0 t) (iblk11 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover11_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat11 V c).leavesExact 2 t = owns (c : Thread nD τ) (ms11_2 t) fullShare ((dat11 V c).after 2 t) from by
        unfold Dat.leavesExact; rw [liveAt11_2 t (isLast11 t h3)], after11_2]
      rw [outsAt11_C V c t h0 h3]
      unfold out11_C sout11_C; (try dsimp only)
      rw [PhiS11_castSucc V c t, PhiS11_pos V c _ _ hz]
      iintro ⟨⟨⟨HS0, Hrb⟩, Hg⟩, Ho, ⟨%d0, H0⟩, ⟨%d1, H1⟩, ⟨%d2, H2⟩⟩
      iapply ((kernelRun11_C c (grid11.coords t) _ _ _ _ _ _ _ _ (notFirst11 t h0) (isLast11 t h3) (iblk11 V c 0 t) (iblk11 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover11_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover11_C c _ _ _ _ _ _ _ _ _ _ _ _ _ _)
    · rw [Dat.leavesExact_idle (dat11 V c) 2 t (idleAt11_2 t (notLast11 t h3)) (noFlush11_2 t (notLast11 t h3))]
      rw [outsAt11_B V c t h0 h3]
      unfold sout11_B; (try dsimp only)
      rw [PhiS11_castSucc V c t, PhiS11_pos V c _ _ hz]
      iintro ⟨⟨⟨HS0, Hrb⟩, Hg⟩, Ho, ⟨%d0, H0⟩, ⟨%d1, H1⟩, ⟨%d2, H2⟩⟩
      iapply ((kernelRun11_B c (grid11.coords t) _ _ _ _ _ _ _ _ (notFirst11 t h0) (notLast11 t h3) (iblk11 V c 0 t) (iblk11 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover11_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- What the region is entered with is the invariant before the first point. -/
theorem hin11 (c : Dev nD) : Pipeline.ΦA spec11 c ⊢ (dat11 V c).Φ 0 := by
  rw [show (dat11 V c).Φ 0 = PhiS11 V c 0 (Nat.zero_le _) from rfl, PhiS11_zero V c 0 _ rfl]
  try exact Idealize.SL.BI.Entails.refl _

/-- After the last point the invariant gives the class's back: the accumulator's contents are forgotten. -/
theorem hout11 (c : Dev nD) : (dat11 V c).Φ (Fin.last cfg11.N) ⊢ Pipeline.ΦA spec11 c := by
  have hN : cfg11.N = 16 := N_11
  rw [show (dat11 V c).Φ (Fin.last cfg11.N) = PhiS11 V c (Fin.last cfg11.N).val (Nat.le_of_lt_succ (Fin.last cfg11.N).isLt) from rfl,
    PhiS11_pos V c _ _ (by rw [Fin.val_last]; omega), PhiA11_eq]
  iintro ⟨⟨HS0, Hrb⟩, Hg⟩
  isplitl [HS0 Hrb]
  · isplitl [HS0]
    · iexists _; iexact HS0
    iexact Hrb
  iexact Hg

end Cert.Kernel.Hand

end
-- ==== Proof.RegK12a.lean ====
/- Laid out by: python3 scratch/layout_regions.py --template-region 1 --region 12 --program Kernel --parts a,b,c, --out-dir proof/Proof
   from the hand-written text of region 1 (RegKI1a.lean): the same text, the region's number and the program's namespace substituted. -/
/-
  Region 12 of @main (custom_call 12): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond12_0 (i : grid12.Coords) : Prop := (Scalar.cmpi .ne (Scalar.extui (Scalar.cmpi .eq (BitVec.ofNat 32 (i 1).val) 0#32)) 0#32) = 1#1
/-- It holds exactly at the points with t % 4 = 0. -/
theorem hcond12_0 : ∀ t : Fin cfg12.N, cond12_0 (grid12.coords t) ↔ t.val % 4 = 0 :=
  (by decide +kernel : ∀ t : Fin grid12.N, cond12_0 (grid12.coords t) ↔ t.val % 4 = 0)

/-- "k = 3": the second conditional's test. -/
abbrev cond12_1 (i : grid12.Coords) : Prop := k12_cond2 i = 1#1
/-- It holds exactly at the points with t % 4 = 3. -/
theorem hcond12_1 : ∀ t : Fin cfg12.N, cond12_1 (grid12.coords t) ↔ t.val % 4 = 3 :=
  (by decide +kernel : ∀ t : Fin grid12.N, cond12_1 (grid12.coords t) ↔ t.val % 4 = 3)

/-! ## Where the windows are idle, and where the output is written back -/

/-- The two input windows are never idle. -/
theorem liveAt12_0 : ∀ t : Fin cfg12.N, cfg12.idle 0 (grid12.coords t) = false := by decide +kernel
theorem liveAt12_1 : ∀ t : Fin cfg12.N, cfg12.idle 1 (grid12.coords t) = false := by decide +kernel
/-- Where k ≠ 3 the output window is idle (the body stores nothing into it) and is not written back. -/
theorem idleAt12_2 : ∀ t : Fin cfg12.N, ¬cond12_1 (grid12.coords t) → cfg12.idle 2 (grid12.coords t) = true := by decide +kernel
theorem noFlush12_2 : ∀ t : Fin cfg12.N, ¬cond12_1 (grid12.coords t) → (cfg12.win 2).flush t = false := by decide +kernel
/-- Where k = 3 it is live. -/
theorem liveAt12_2 : ∀ t : Fin cfg12.N, cond12_1 (grid12.coords t) → cfg12.idle 2 (grid12.coords t) = false := by decide +kernel

/-! ## The staging memrefs at a point, and the scratch -/

/-- One staging buffer of the output window, through which its contents are stated. -/
abbrev VO12_2 : View sig .tc .vmem S1024x512 .f32 := (Memref.whole cc12_stg2_0 : Memref sig .tc .vmem S1024x512 .f32).view
abbrev ms12_0 (t : Fin cfg12.N) : Memref sig .tc .vmem S1024x1024 .bf16 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S1024x512 .f32 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S1024x512 .f32 := win12_2.stage (cfg12.slots t 2)
abbrev hs12_2 (t : Fin cfg12.N) : (ms12_2 t).IsWhole := hstage12_2 ((cfg12.slots t 2).cast nbuf12_2)
/-- The accumulator: a whole scoped buffer of the kernel's own. -/
abbrev scM12 : Memref sig .tc .vmem S1024x512 .f32 := Memref.whole cc12_scratch0
abbrev VS12 : View sig .tc .vmem S1024x512 .f32 := scM12.view

/-- The other scoped buffers of the core, none of which this region touches. -/
abbrev restBut12 (c : Dev nD) : sProp 𝕄 :=
  Pipeline.scopedRestBut (Ix := Unit) (Name := ℕ) (U := UR sig nD τ) (Lvl := ℕ) (Val := Elt F) spec12 c [cc12_scratch0]

/-- The region's invariant before its first point: the accumulator at something, the other scoped buffers, the generator register. -/
theorem PhiA12_eq (c : Dev nD) :
    (Pipeline.ΦA spec12 c : sProp 𝕄)
      = iprop(iprop((∃ d, owns (c : Thread nD τ) scM12 fullShare d) ∗ restBut12 c) ∗ (∃ r, prngReg c r)) := by
  unfold Pipeline.ΦA; rw [scopedRest12_split]; simp only [scM12, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun12_A (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond12_0 i) (hc1 : ¬cond12_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc12__matmul_kernel i arg2 harg2 arg3 harg3 arg4 harg4 arg5 harg5) K } := by
  refine ⟨[], ?_, fun xi2 E K => ?run⟩
  case run =>
    simp only [cc12__matmul_kernel_eq_skeleton]; unfold cc12__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK12b.lean ====
/- Laid out by: python3 scratch/layout_regions.py --template-region 1 --region 12 --program Kernel --parts a,b,c, --out-dir proof/Proof
   from the hand-written text of region 1 (RegKI1b.lean): the same text, the region's number and the program's namespace substituted. -/
/-
  Region 12, case B (k = 1, 2): the body's run. Neither conditional is taken: the product of the two blocks is added to what
  the point before left in the accumulator; the output block is not touched.
-/
import proofs.«158944_j64613488001249_1_alg».proof.Proof.RegK12a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun12_B (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond12_0 i) (hc1 : ¬cond12_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc12__matmul_kernel i arg2 harg2 arg3 harg3 arg4 harg4 arg5 harg5) K } := by
  refine ⟨[], ?_, fun xi2 E K => ?run⟩
  case run =>
    simp only [cc12__matmul_kernel_eq_skeleton]; unfold cc12__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK12c.lean ====
/- Laid out by: python3 scratch/layout_regions.py --template-region 1 --region 12 --program Kernel --parts a,b,c, --out-dir proof/Proof
   from the hand-written text of region 1 (RegKI1c.lean): the same text, the region's number and the program's namespace substituted. -/
/-
  Region 12, case C (k = 3): the body's run. The product is added to the accumulator as in case B, and then the second
  conditional copies the accumulator over the whole output block.
-/
import proofs.«158944_j64613488001249_1_alg».proof.Proof.RegK12b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun12_C (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond12_0 i) (hc1 : cond12_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc12__matmul_kernel i arg2 harg2 arg3 harg3 arg4 harg4 arg5 harg5) K } := by
  refine ⟨?_, ?_, fun E K => ?run⟩
  case run =>
    simp only [cc12__matmul_kernel_eq_skeleton]; unfold cc12__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK12.lean ====
/- Laid out by: python3 scratch/layout_regions.py --template-region 1 --region 12 --program Kernel --parts a,b,c, --out-dir proof/Proof
   from the hand-written text of region 1 (RegKI1.lean): the same text, the region's number and the program's namespace substituted. -/
/-
  Region 12 of @main, entered from the buffer contents `V`: what its windows' blocks are, what each case of the body leaves in
  the accumulator and in the output block, the accumulator and the output block point by point (`outsAt12`: at k = 0 the
  accumulator restarts from zeros plus the product; at k = 1, 2, 3 it is the point before's plus the product; at k = 3 the
  output block is the accumulator), the region's invariant (the accumulator at `outsAt12`'s second component), the proof data,
  and the body's obligation at every point.
-/
import proofs.«158944_j64613488001249_1_alg».proof.Proof.RegK12c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, for any proof data whose array is `V`'s and
    whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## What each case leaves -/

/-- Case A's stores into the accumulator cover it. -/
theorem scover12_A (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond12_0 i) (hc1 : ¬cond12_1 i)
    (x0 : Vec F S1024x1024 .bf16) (x1 : Vec F S1024x512 .f32) (y : S1024x512.Idx) :
    ∃ pc ∈ (kernelRun12_A c i arg2 harg2 arg3 harg3 arg4 harg4 arg5 harg5 hc0 hc1 x0 x1).2.1, y ∈ pc.1.set :=
  View.cover_of_tiledL (kernelRun12_A c i arg2 harg2 arg3 harg3 arg4 harg4 arg5 harg5 hc0 hc1 x0 x1).2.1 S1024x512.size (by sl_kernel_rfl) y
/-- What case A leaves in the accumulator. -/
noncomputable def sout12_A (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond12_0 i) (hc1 : ¬cond12_1 i)
    (x0 : Vec F S1024x1024 .bf16) (x1 : Vec F S1024x512 .f32) : Vec F S1024x512 .f32 :=
  VS12.read (Elt F) (VS12.writes (Elt F) VS12.junk (kernelRun12_A c i arg2 harg2 arg3 harg3 arg4 harg4 arg5 harg5 hc0 hc1 x0 x1).2.1)

/-- Case B's store into the accumulator covers it. -/
theorem scover12_B (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond12_0 i) (hc1 : ¬cond12_1 i)
    (x0 : Vec F S1024x1024 .bf16) (x1 : Vec F S1024x512 .f32) (xs0 : Vec F S1024x512 .f32) (y : S1024x512.Idx) :
    ∃ pc ∈ (kernelRun12_B c i arg2 harg2 arg3 harg3 arg4 harg4 arg5 harg5 hc0 hc1 x0 x1 xs0).2.1, y ∈ pc.1.set :=
  View.cover_of_tiledL (kernelRun12_B c i arg2 harg2 arg3 harg3 arg4 harg4 arg5 harg5 hc0 hc1 x0 x1 xs0).2.1 S1024x512.size (by sl_kernel_rfl) y
/-- What case B leaves in the accumulator, over what the point before left. -/
noncomputable def sout12_B (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond12_0 i) (hc1 : ¬cond12_1 i)
    (x0 : Vec F S1024x1024 .bf16) (x1 : Vec F S1024x512 .f32) (xs0 : Vec F S1024x512 .f32) : Vec F S1024x512 .f32 :=
  VS12.read (Elt F) (VS12.writes (Elt F) VS12.junk (kernelRun12_B c i arg2 harg2 arg3 harg3 arg4 harg4 arg5 harg5 hc0 hc1 x0 x1 xs0).2.1)

/-- Case C's store into the output block covers it, and so does its store into the accumulator. -/
theorem cover12_C (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond12_0 i) (hc1 : cond12_1 i)
    (x0 : Vec F S1024x1024 .bf16) (x1 : Vec F S1024x512 .f32) (xs0 : Vec F S1024x512 .f32) (y : S1024x512.Idx) :
    ∃ pc ∈ (kernelRun12_C c i arg2 harg2 arg3 harg3 arg4 harg4 arg5 harg5 hc0 hc1 x0 x1 xs0).1, y ∈ pc.1.set :=
  View.cover_of_tiledL (kernelRun12_C c i arg2 harg2 arg3 harg3 arg4 harg4 arg5 harg5 hc0 hc1 x0 x1 xs0).1 S1024x512.size (by sl_kernel_rfl) y
theorem scover12_C (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond12_0 i) (hc1 : cond12_1 i)
    (x0 : Vec F S1024x1024 .bf16) (x1 : Vec F S1024x512 .f32) (xs0 : Vec F S1024x512 .f32) (y : S1024x512.Idx) :
    ∃ pc ∈ (kernelRun12_C c i arg2 harg2 arg3 harg3 arg4 harg4 arg5 harg5 hc0 hc1 x0 x1 xs0).2.1, y ∈ pc.1.set :=
  View.cover_of_tiledL (kernelRun12_C c i arg2 harg2 arg3 harg3 arg4 harg4 arg5 harg5 hc0 hc1 x0 x1 xs0).2.1 S1024x512.size (by sl_kernel_rfl) y
/-- What case C leaves in the output block, and in the accumulator. -/
noncomputable def out12_C (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond12_0 i) (hc1 : cond12_1 i)
    (x0 : Vec F S1024x1024 .bf16) (x1 : Vec F S1024x512 .f32) (xs0 : Vec F S1024x512 .f32) : Vec F S1024x512 .f32 :=
  VO12_2.read (Elt F) (VO12_2.writes (Elt F) VO12_2.junk (kernelRun12_C c i arg2 harg2 arg3 harg3 arg4 harg4 arg5 harg5 hc0 hc1 x0 x1 xs0).1)
noncomputable def sout12_C (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond12_0 i) (hc1 : cond12_1 i)
    (x0 : Vec F S1024x1024 .bf16) (x1 : Vec F S1024x512 .f32) (xs0 : Vec F S1024x512 .f32) : Vec F S1024x512 .f32 :=
  VS12.read (Elt F) (VS12.writes (Elt F) VS12.junk (kernelRun12_C c i arg2 harg2 arg3 harg3 arg4 harg4 arg5 harg5 hc0 hc1 x0 x1 xs0).2.1)

/-- Where the output block is idle nothing consults what it holds: a placeholder. -/
noncomputable def outIdle12 : Vec F S1024x512 .f32 := VO12_2.read (Elt F) (VO12_2.writes (Elt F) VO12_2.junk [])

/-! ## The conditions at a point, from t % 4 -/

theorem isFirst12 (t : Fin cfg12.N) (h : t.val % 4 = 0) : cond12_0 (grid12.coords t) := (hcond12_0 t).mpr h
theorem notFirst12 (t : Fin cfg12.N) (h : ¬t.val % 4 = 0) : ¬cond12_0 (grid12.coords t) := fun hc => h ((hcond12_0 t).mp hc)
theorem isLast12 (t : Fin cfg12.N) (h : t.val % 4 = 3) : cond12_1 (grid12.coords t) := (hcond12_1 t).mpr h
theorem notLast12 (t : Fin cfg12.N) (h : ¬t.val % 4 = 3) : ¬cond12_1 (grid12.coords t) := fun hc => h ((hcond12_1 t).mp hc)

/-! ## The accumulator and the output block, point by point -/

/-- After the body at position `n`: (the output block's buffer, the accumulator). -/
noncomputable def outsAt12 (c : Dev nD) : (n : ℕ) → n < cfg12.N → Vec F S1024x512 .f32 × Vec F S1024x512 .f32
  | 0, hn => (outIdle12, sout12_A c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) scM12 (Memref.isWhole_whole _) (isFirst12 ⟨0, hn⟩ (Nat.zero_mod _)) (notLast12 ⟨0, hn⟩ (by simp)) (iblk12 V c 0 ⟨0, hn⟩) (iblk12 V c 1 ⟨0, hn⟩))
  | n + 1, hn =>
    if h0 : (n + 1) % 4 = 0 then
      (outIdle12, sout12_A c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12 (Memref.isWhole_whole _) (isFirst12 ⟨n + 1, hn⟩ h0) (notLast12 ⟨n + 1, hn⟩ (by show ¬(n + 1) % 4 = 3; omega)) (iblk12 V c 0 ⟨n + 1, hn⟩) (iblk12 V c 1 ⟨n + 1, hn⟩))
    else if h3 : (n + 1) % 4 = 3 then
      (out12_C c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12 (Memref.isWhole_whole _) (notFirst12 ⟨n + 1, hn⟩ h0) (isLast12 ⟨n + 1, hn⟩ h3) (iblk12 V c 0 ⟨n + 1, hn⟩) (iblk12 V c 1 ⟨n + 1, hn⟩) (outsAt12 c n (Nat.lt_of_succ_lt hn)).2,
       sout12_C c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12 (Memref.isWhole_whole _) (notFirst12 ⟨n + 1, hn⟩ h0) (isLast12 ⟨n + 1, hn⟩ h3) (iblk12 V c 0 ⟨n + 1, hn⟩) (iblk12 V c 1 ⟨n + 1, hn⟩) (outsAt12 c n (Nat.lt_of_succ_lt hn)).2)
    else
      (outIdle12, sout12_B c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12 (Memref.isWhole_whole _) (notFirst12 ⟨n + 1, hn⟩ h0) (notLast12 ⟨n + 1, hn⟩ h3) (iblk12 V c 0 ⟨n + 1, hn⟩) (iblk12 V c 1 ⟨n + 1, hn⟩) (outsAt12 c n (Nat.lt_of_succ_lt hn)).2)

/-- `outsAt12` at a point with k = 0. -/
theorem outsAt12_A (c : Dev nD) (t : Fin cfg12.N) (h0 : t.val % 4 = 0) :
    outsAt12 V c t.val t.isLt = (outIdle12, sout12_A c (grid12.coords t) (ms12_0 t) (hs12_0 t) (ms12_1 t) (hs12_1 t) (ms12_2 t) (hs12_2 t) scM12 (Memref.isWhole_whole _) (isFirst12 t h0) (notLast12 t (by omega)) (iblk12 V c 0 t) (iblk12 V c 1 t)) := by
  obtain ⟨n, hn⟩ := t
  cases n with
  | zero => rfl
  | succ n => exact (dif_pos h0).trans rfl

/-- `outsAt12` at a point with k = 1, 2: over what the point before left. -/
theorem outsAt12_B (c : Dev nD) (t : Fin cfg12.N) (h0 : ¬t.val % 4 = 0) (h3 : ¬t.val % 4 = 3) :
    outsAt12 V c t.val t.isLt = (outIdle12, sout12_B c (grid12.coords t) (ms12_0 t) (hs12_0 t) (ms12_1 t) (hs12_1 t) (ms12_2 t) (hs12_2 t) scM12 (Memref.isWhole_whole _) (notFirst12 t h0) (notLast12 t h3) (iblk12 V c 0 t) (iblk12 V c 1 t)
      (outsAt12 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt12` at a point with k = 3. -/
theorem outsAt12_C (c : Dev nD) (t : Fin cfg12.N) (h0 : ¬t.val % 4 = 0) (h3 : t.val % 4 = 3) :
    outsAt12 V c t.val t.isLt = (out12_C c (grid12.coords t) (ms12_0 t) (hs12_0 t) (ms12_1 t) (hs12_1 t) (ms12_2 t) (hs12_2 t) scM12 (Memref.isWhole_whole _) (notFirst12 t h0) (isLast12 t h3) (iblk12 V c 0 t) (iblk12 V c 1 t)
        (outsAt12 V c (t.val - 1) (Nat.lt_of_le_of_lt (Nat.sub_le _ _) t.isLt)).2,
      sout12_C c (grid12.coords t) (ms12_0 t) (hs12_0 t) (ms12_1 t) (hs12_1 t) (ms12_2 t) (hs12_2 t) scM12 (Memref.isWhole_whole _) (notFirst12 t h0) (isLast12 t h3) (iblk12 V c 0 t) (iblk12 V c 1 t)
        (outsAt12 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS12 (c : Dev nD) : (n : ℕ) → n ≤ cfg12.N → sProp 𝕄
  | 0, _ => Pipeline.ΦA spec12 c
  | n + 1, hn => iprop(iprop(owns (c : Thread nD τ) scM12 fullShare ((outsAt12 V c n hn).2) ∗ restBut12 c) ∗ (∃ r, prngReg c r))

theorem PhiS12_zero (c : Dev nD) (n : ℕ) (h : n ≤ cfg12.N) (hz : n = 0) : PhiS12 V c n h = Pipeline.ΦA spec12 c := by
  subst hz; rfl
theorem PhiS12_succ (c : Dev nD) (n : ℕ) (hn : n < cfg12.N) :
    PhiS12 V c (n + 1) hn = iprop(iprop(owns (c : Thread nD τ) scM12 fullShare ((outsAt12 V c n hn).2) ∗ restBut12 c) ∗ (∃ r, prngReg c r)) := rfl
theorem PhiS12_pos (c : Dev nD) (n : ℕ) (h : n ≤ cfg12.N) (hz : n ≠ 0) :
    PhiS12 V c n h = iprop(iprop(owns (c : Thread nD τ) scM12 fullShare ((outsAt12 V c (n - 1) (by omega)).2) ∗ restBut12 c) ∗ (∃ r, prngReg c r)) := by
  cases n with
  | zero => exact absurd rfl hz
  | succ n => rfl

/-! ## The proof data -/

/-- The region's proof data on core `c`: the arrays as the region finds them; after the body at point `t` each input's
    buffer at its block and the output's at `outsAt12`'s first component; the invariant `PhiS12`; nothing owed; full shares. -/
noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => (outsAt12 V c t.val t.isLt).1
  Φ t := PhiS12 V c t.val (Nat.le_of_lt_succ t.isLt)
  q _ := fullShare
  owed _ := 0

theorem A_eq12 (c : Dev nD) (w : Fin cfg12.W) : (dat12 V c).A w = V c (Pipeline.arrRef spec12 w) := by
  dsimp only [dat12]
theorem PhiS12_castSucc (c : Dev nD) (t : Fin cfg12.N) :
    (dat12 V c).Φ t.castSucc = PhiS12 V c t.val (Nat.le_of_lt t.isLt) := by
  dsimp only [dat12]; simp only [Fin.coe_castSucc]
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = (outsAt12 V c t.val t.isLt).1 := by dsimp only [dat12]
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body's obligation -/

noncomputable def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d)))

noncomputable def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).owesAt () t.succ = (dat12 V c).owesAt () t.castSucc from rfl]
  rw [show (dat12 V c).Φ t.succ = PhiS12 V c (t.val + 1) t.isLt from rfl, PhiS12_succ]
  rw [show (dat12 V c).leavesExact 0 t = owns (c : Thread nD τ) (ms12_0 t) fullShare ((dat12 V c).after 0 t) from by
    unfold Dat.leavesExact; rw [liveAt12_0 t], after12_0]
  rw [show (dat12 V c).leavesExact 1 t = owns (c : Thread nD τ) (ms12_1 t) fullShare ((dat12 V c).after 1 t) from by
    unfold Dat.leavesExact; rw [liveAt12_1 t], after12_1]
  by_cases h0 : t.val % 4 = 0
  · have h3 : ¬t.val % 4 = 3 := by omega
    rw [Dat.leavesExact_idle (dat12 V c) 2 t (idleAt12_2 t (notLast12 t h3)) (noFlush12_2 t (notLast12 t h3))]
    rw [outsAt12_A V c t h0]
    unfold sout12_A; (try dsimp only)
    by_cases hz : t.val = 0
    · rw [PhiS12_castSucc V c t, PhiS12_zero V c _ _ hz, PhiA12_eq]
      iintro ⟨⟨⟨HS0, Hrb⟩, Hg⟩, Ho, ⟨%d0, H0⟩, ⟨%d1, H1⟩, ⟨%d2, H2⟩⟩
      iapply ((kernelRun12_A c (grid12.coords t) _ _ _ _ _ _ _ _ (isFirst12 t h0) (notLast12 t (by omega)) (iblk12 V c 0 t) (iblk12 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover12_A c _ _ _ _ _ _ _ _ _ _ _ _ _)
          iexact Hrb
        iexact Hg
      isplitl [Ho]; · iexact Ho
      isplitl [H0]; · iexact H0
      isplitl [H1]; · iexact H1
      iexists _; iexact H2
    · rw [PhiS12_castSucc V c t, PhiS12_pos V c _ _ hz]
      iintro ⟨⟨⟨HS0, Hrb⟩, Hg⟩, Ho, ⟨%d0, H0⟩, ⟨%d1, H1⟩, ⟨%d2, H2⟩⟩
      iapply ((kernelRun12_A c (grid12.coords t) _ _ _ _ _ _ _ _ (isFirst12 t h0) (notLast12 t (by omega)) (iblk12 V c 0 t) (iblk12 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover12_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat12 V c).leavesExact 2 t = owns (c : Thread nD τ) (ms12_2 t) fullShare ((dat12 V c).after 2 t) from by
        unfold Dat.leavesExact; rw [liveAt12_2 t (isLast12 t h3)], after12_2]
      rw [outsAt12_C V c t h0 h3]
      unfold out12_C sout12_C; (try dsimp only)
      rw [PhiS12_castSucc V c t, PhiS12_pos V c _ _ hz]
      iintro ⟨⟨⟨HS0, Hrb⟩, Hg⟩, Ho, ⟨%d0, H0⟩, ⟨%d1, H1⟩, ⟨%d2, H2⟩⟩
      iapply ((kernelRun12_C c (grid12.coords t) _ _ _ _ _ _ _ _ (notFirst12 t h0) (isLast12 t h3) (iblk12 V c 0 t) (iblk12 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover12_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover12_C c _ _ _ _ _ _ _ _ _ _ _ _ _ _)
    · rw [Dat.leavesExact_idle (dat12 V c) 2 t (idleAt12_2 t (notLast12 t h3)) (noFlush12_2 t (notLast12 t h3))]
      rw [outsAt12_B V c t h0 h3]
      unfold sout12_B; (try dsimp only)
      rw [PhiS12_castSucc V c t, PhiS12_pos V c _ _ hz]
      iintro ⟨⟨⟨HS0, Hrb⟩, Hg⟩, Ho, ⟨%d0, H0⟩, ⟨%d1, H1⟩, ⟨%d2, H2⟩⟩
      iapply ((kernelRun12_B c (grid12.coords t) _ _ _ _ _ _ _ _ (notFirst12 t h0) (notLast12 t h3) (iblk12 V c 0 t) (iblk12 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover12_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

/-- What the region is entered with is the invariant before the first point. -/
theorem hin12 (c : Dev nD) : Pipeline.ΦA spec12 c ⊢ (dat12 V c).Φ 0 := by
  rw [show (dat12 V c).Φ 0 = PhiS12 V c 0 (Nat.zero_le _) from rfl, PhiS12_zero V c 0 _ rfl]
  try exact Idealize.SL.BI.Entails.refl _

/-- After the last point the invariant gives the class's back: the accumulator's contents are forgotten. -/
theorem hout12 (c : Dev nD) : (dat12 V c).Φ (Fin.last cfg12.N) ⊢ Pipeline.ΦA spec12 c := by
  have hN : cfg12.N = 16 := N_12
  rw [show (dat12 V c).Φ (Fin.last cfg12.N) = PhiS12 V c (Fin.last cfg12.N).val (Nat.le_of_lt_succ (Fin.last cfg12.N).isLt) from rfl,
    PhiS12_pos V c _ _ (by rw [Fin.val_last]; omega), PhiA12_eq]
  iintro ⟨⟨HS0, Hrb⟩, Hg⟩
  isplitl [HS0 Hrb]
  · isplitl [HS0]
    · iexists _; iexact HS0
    iexact Hrb
  iexact Hg

end Cert.Kernel.Hand

end
-- ==== Proof.RegK13a.lean ====
/- Laid out by: python3 scratch/layout_grid41.py --template-region 0 --region 13 --program Kernel --parts a, --shapes S1024x128=S1024x512,S128x512=S512x512
   from the hand-written text of region 0 (RegKI0a.lean): the same text, the region's number, block shapes and the program's namespace substituted. -/
/- The region of Kernel's @main that runs `cc13__matmul_kernel` (pipeline `cfg13`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond13_0 (i : grid13.Coords) : Prop :=
  (Scalar.cmpi .ne (Scalar.extui (Scalar.cmpi .eq (BitVec.ofNat 32 (i 1).val) 0#32)) 0#32) = 1#1
/-- True at every point: the reduction axis has one step. -/
theorem hcond13_0 : ∀ t : Fin cfg13.N, cond13_0 (grid13.coords t) :=
  (by decide +kernel : ∀ t : Fin grid13.N, cond13_0 (grid13.coords t))

/-- "This is the last reduction step" (the guard of the copy to the output block). -/
abbrev cond13_1 (i : grid13.Coords) : Prop := k13_cond2 i = 1#1
/-- True at every point, for the same reason. -/
theorem hcond13_1 : ∀ t : Fin cfg13.N, cond13_1 (grid13.coords t) :=
  (by decide +kernel : ∀ t : Fin grid13.N, cond13_1 (grid13.coords t))

/-! ## No window is idle anywhere -/

theorem liveAt13_0 : ∀ t : Fin cfg13.N, cfg13.idle 0 (grid13.coords t) = false := by decide +kernel
theorem liveAt13_1 : ∀ t : Fin cfg13.N, cfg13.idle 1 (grid13.coords t) = false := by decide +kernel
/-- The output window is stored at every point (the copy's guard holds everywhere). -/
theorem liveAt13_2 : ∀ t : Fin cfg13.N, cfg13.idle 2 (grid13.coords t) = false := by decide +kernel

/-! ## The memrefs the body is called on -/

/-- One staging buffer of the output window, through which its contents are stated (any whole view of the shape reads the
    same pieces back the same way). -/
abbrev VO13_2 : View sig .tc .vmem S1024x512 .f32 := (Memref.whole cc13_stg2_0 : Memref sig .tc .vmem S1024x512 .f32).view
/-- Each window's current staging memref at point `t`, spelt as the pipeline passes it, with its wholeness. -/
abbrev ms13_0 (t : Fin cfg13.N) : Memref sig .tc .vmem S1024x512 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S512x512 .bf16 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S1024x512 .f32 := win13_2.stage (cfg13.slots t 2)
abbrev hs13_2 (t : Fin cfg13.N) : (ms13_2 t).IsWhole := hstage13_2 ((cfg13.slots t 2).cast nbuf13_2)
/-- The accumulator: a whole scoped buffer of the kernel's own, passed beside the windows. -/
abbrev scM13_0 : Memref sig .tc .vmem S1024x512 .f32 := Memref.whole cc13_scratch0
abbrev VS13_0 : View sig .tc .vmem S1024x512 .f32 := scM13_0.view

/-- The region invariant with the accumulator taken out of the scoped rest: the accumulator owned at some contents, every
    other scoped buffer unopened, and the generator register. -/
theorem PhiA13_eq (c : Dev nD) :
    (Pipeline.ΦA spec13 c : sProp 𝕄)
      = iprop(iprop(iprop((∃ d, owns (c : Thread nD τ) scM13_0 fullShare d))
            ∗ Pipeline.scopedRestBut (Ix := Unit) (Name := ℕ) (U := UR sig nD τ) (Lvl := ℕ) (Val := Elt F) spec13 c [cc13_scratch0])
          ∗ (∃ r, prngReg c r)) := by
  unfold Pipeline.ΦA; rw [scopedRest13_split]; simp only [scM13_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun13 (c : Dev nD) (i : grid13.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond13_0 i) (hlast : cond13_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc13__matmul_kernel i arg2 harg2 arg3 harg3 arg4 harg4 arg5 harg5) K } := by
  refine ⟨?_, ?_, fun E K => ?run⟩
  case run =>
    simp only [cc13__matmul_kernel_eq_skeleton]; unfold cc13__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.Kernel.Hand

end
-- ==== Proof.RegK13.lean ====
/- Laid out by: python3 scratch/layout_grid41.py --template-region 0 --region 13 --program Kernel --parts a, --shapes S1024x128=S1024x512,S128x512=S512x512
   from the hand-written text of region 0 (RegKI0.lean): the same text, the region's number, block shapes and the program's namespace substituted. -/
/- The region of Kernel's @main that runs `cc13__matmul_kernel` (pipeline `cfg13`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegK13a
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! ## What the case leaves, as pieces read back -/

/-- The output's pieces tile its block (one whole-block store). -/
theorem cover13_2 (c : Dev nD) (i : grid13.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond13_0 i) (hlast : cond13_1 i) (xa : Vec F S1024x512 .f32) (xb : Vec F S512x512 .bf16) (y : S1024x512.Idx) :
    ∃ pc ∈ (kernelRun13 c i arg2 harg2 arg3 harg3 arg4 harg4 arg5 harg5 hfirst hlast xa xb).1, y ∈ pc.1.set :=
  View.cover_of_tiledL (kernelRun13 c i arg2 harg2 arg3 harg3 arg4 harg4 arg5 harg5 hfirst hlast xa xb).1 S1024x512.size (by sl_kernel_rfl) y

/-- What the case leaves in the output's staging buffer: its pieces read back over junk. -/
noncomputable def out13_2 (c : Dev nD) (i : grid13.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond13_0 i) (hlast : cond13_1 i) (xa : Vec F S1024x512 .f32) (xb : Vec F S512x512 .bf16) : Vec F S1024x512 .f32 :=
  VO13_2.read (Elt F) (VO13_2.writes (Elt F) VO13_2.junk (kernelRun13 c i arg2 harg2 arg3 harg3 arg4 harg4 arg5 harg5 hfirst hlast xa xb).1)

/-- What the case leaves in the accumulator: its pieces read back over junk. -/
noncomputable def sout13_0 (c : Dev nD) (i : grid13.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond13_0 i) (hlast : cond13_1 i) (xa : Vec F S1024x512 .f32) (xb : Vec F S512x512 .bf16) : Vec F S1024x512 .f32 :=
  VS13_0.read (Elt F) (VS13_0.writes (Elt F) VS13_0.junk (kernelRun13 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout13_0_eq (c : Dev nD) (i : grid13.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond13_0 i) (hlast : cond13_1 i) (xa : Vec F S1024x512 .f32) (xb : Vec F S512x512 .bf16) :
    sout13_0 c i arg2 harg2 arg3 harg3 arg4 harg4 arg5 harg5 hfirst hlast xa xb = k13_pay2 xa xb (k13_pay1 (F := F)) := by
  unfold sout13_0
  rw [View.read_writes_junk_eq_canon]
  unfold kernelRun13
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out13_2_eq (c : Dev nD) (i : grid13.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond13_0 i) (hlast : cond13_1 i) (xa : Vec F S1024x512 .f32) (xb : Vec F S512x512 .bf16) :
    out13_2 c i arg2 harg2 arg3 harg3 arg4 harg4 arg5 harg5 hfirst hlast xa xb = k13_pay2 xa xb (k13_pay1 (F := F)) := by
  unfold out13_2
  rw [View.read_writes_junk_eq_canon]
  unfold kernelRun13
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt13 (c : Dev nD) (n : ℕ) (hn : n < cfg13.N) : Vec F S1024x512 .f32 × Vec F S1024x512 .f32 :=
  (out13_2 c (grid13.coords ⟨n, hn⟩) (ms13_0 ⟨n, hn⟩) (hs13_0 ⟨n, hn⟩) (ms13_1 ⟨n, hn⟩) (hs13_1 ⟨n, hn⟩) (ms13_2 ⟨n, hn⟩) (hs13_2 ⟨n, hn⟩) scM13_0 (Memref.isWhole_whole _)
      (hcond13_0 ⟨n, hn⟩) (hcond13_1 ⟨n, hn⟩) (iblk13 V c 0 ⟨n, hn⟩) (iblk13 V c 1 ⟨n, hn⟩),
   sout13_0 c (grid13.coords ⟨n, hn⟩) (ms13_0 ⟨n, hn⟩) (hs13_0 ⟨n, hn⟩) (ms13_1 ⟨n, hn⟩) (hs13_1 ⟨n, hn⟩) (ms13_2 ⟨n, hn⟩) (hs13_2 ⟨n, hn⟩) scM13_0 (Memref.isWhole_whole _)
      (hcond13_0 ⟨n, hn⟩) (hcond13_1 ⟨n, hn⟩) (iblk13 V c 0 ⟨n, hn⟩) (iblk13 V c 1 ⟨n, hn⟩))

/-- Every point is a first reduction step: the accumulator after it is one product onto zero. -/
theorem outsAt13_first (c : Dev nD) (t : Fin cfg13.N) :
    (outsAt13 V c t.val t.isLt).2 = k13_pay2 (iblk13 V c 0 t) (iblk13 V c 1 t) (k13_pay1 (F := F)) := by
  obtain ⟨n, hn⟩ := t
  unfold outsAt13
  dsimp only
  rw [sout13_0_eq]

/-- Every point is a last reduction step: the output block after it is the accumulator. -/
theorem outsAt13_last (c : Dev nD) (t : Fin cfg13.N) :
    (outsAt13 V c t.val t.isLt).1 = (outsAt13 V c t.val t.isLt).2 := by
  obtain ⟨n, hn⟩ := t
  unfold outsAt13
  dsimp only
  rw [out13_2_eq, sout13_0_eq]

/-! ## The pipeline's proof data -/

/-- The proof data of the pipeline on core `c`: the arrays as the region finds them; after the body at point `t` each input's
    buffer at its block and the output's at `outsAt13`'s first component; the invariant the same at every point; nothing owed;
    full shares. -/
noncomputable def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => (outsAt13 V c t.val t.isLt).1
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = (outsAt13 V c t.val t.isLt).1 := by dsimp only [dat13]

/-- An input's current staging buffer holds its block at every point, fetched there or not: where it is not fetched its block
    index has not moved since the point before, and the body left the block in place. -/
theorem before13_0 (c : Dev nD) (t : Fin cfg13.N) (d) : (dat13 V c).before 0 t d = iblk13 V c 0 t :=
  ((dat13 V c).before_in_eq_fetched 0 rfl (fun _ => rfl) (fun _ _ _ => rfl)
      (fun t => by rw [after13_0]; unfold Dat.blockOf iblk13; rw [A_eq13]; try rfl) t d).trans
    (by unfold Dat.fetched Dat.blockOf iblk13; rw [A_eq13]; try rfl)
theorem before13_1 (c : Dev nD) (t : Fin cfg13.N) (d) : (dat13 V c).before 1 t d = iblk13 V c 1 t :=
  ((dat13 V c).before_in_eq_fetched 1 rfl (fun _ => rfl) (fun _ _ _ => rfl)
      (fun t => by rw [after13_1]; unfold Dat.blockOf iblk13; rw [A_eq13]; try rfl) t d).trans
    (by unfold Dat.fetched Dat.blockOf iblk13; rw [A_eq13]; try rfl)

/-! ## The body obligation, at a generic point -/

/-- What the body is called with at point `t`, the windows one by one, -/
noncomputable def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d)))

/-- and what it returns. -/
noncomputable def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl,
    show (dat13 V c).Φ t.succ = Pipeline.ΦA spec13 c from rfl, show (dat13 V c).Φ t.castSucc = Pipeline.ΦA spec13 c from rfl, PhiA13_eq]
  rw [show (dat13 V c).leavesExact 0 t = owns (c : Thread nD τ) (ms13_0 t) fullShare ((dat13 V c).after 0 t) from by
      unfold Dat.leavesExact; rw [liveAt13_0 t], after13_0]
  rw [show (dat13 V c).leavesExact 1 t = owns (c : Thread nD τ) (ms13_1 t) fullShare ((dat13 V c).after 1 t) from by
      unfold Dat.leavesExact; rw [liveAt13_1 t], after13_1]
  rw [show (dat13 V c).leavesExact 2 t = owns (c : Thread nD τ) (ms13_2 t) fullShare ((dat13 V c).after 2 t) from by
      unfold Dat.leavesExact; rw [liveAt13_2 t], after13_2]
  unfold outsAt13 out13_2; (try dsimp only)
  iintro ⟨⟨⟨Hacc, Hrest⟩, Hgen⟩, Howe, ⟨%da, Ha⟩, ⟨%db, Hb⟩, ⟨%dO, Hout⟩⟩
  iapply ((kernelRun13 c (grid13.coords t) _ _ _ _ _ _ _ _ (hcond13_0 t) (hcond13_1 t) (iblk13 V c 0 t) (iblk13 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover13_2 c _ _ _ _ _ _ _ _ _ _ _ _ _)

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- What the launch hands the region is the invariant before the first point, -/
theorem hin13 (c : Dev nD) : Pipeline.ΦA spec13 c ⊢ (dat13 V c).Φ 0 := Idealize.SL.BI.Entails.refl _

/-- and the invariant after the last point is what the launch takes back. -/
theorem hout13 (c : Dev nD) : (dat13 V c).Φ (Fin.last cfg13.N) ⊢ Pipeline.ΦA spec13 c := Idealize.SL.BI.Entails.refl _

end Cert.Kernel.Hand

end
-- ==== Proof.RegK14a.lean ====
/- Laid out by: python3 scratch/layout_regions.py --template-region 1 --region 14 --program Kernel --parts a,b,c, --out-dir proof/Proof
   from the hand-written text of region 1 (RegKI1a.lean): the same text, the region's number and the program's namespace substituted. -/
/-
  Region 14 of @main (custom_call 14): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond14_0 (i : grid14.Coords) : Prop := (Scalar.cmpi .ne (Scalar.extui (Scalar.cmpi .eq (BitVec.ofNat 32 (i 1).val) 0#32)) 0#32) = 1#1
/-- It holds exactly at the points with t % 4 = 0. -/
theorem hcond14_0 : ∀ t : Fin cfg14.N, cond14_0 (grid14.coords t) ↔ t.val % 4 = 0 :=
  (by decide +kernel : ∀ t : Fin grid14.N, cond14_0 (grid14.coords t) ↔ t.val % 4 = 0)

/-- "k = 3": the second conditional's test. -/
abbrev cond14_1 (i : grid14.Coords) : Prop := k14_cond2 i = 1#1
/-- It holds exactly at the points with t % 4 = 3. -/
theorem hcond14_1 : ∀ t : Fin cfg14.N, cond14_1 (grid14.coords t) ↔ t.val % 4 = 3 :=
  (by decide +kernel : ∀ t : Fin grid14.N, cond14_1 (grid14.coords t) ↔ t.val % 4 = 3)

/-! ## Where the windows are idle, and where the output is written back -/

/-- The two input windows are never idle. -/
theorem liveAt14_0 : ∀ t : Fin cfg14.N, cfg14.idle 0 (grid14.coords t) = false := by decide +kernel
theorem liveAt14_1 : ∀ t : Fin cfg14.N, cfg14.idle 1 (grid14.coords t) = false := by decide +kernel
/-- Where k ≠ 3 the output window is idle (the body stores nothing into it) and is not written back. -/
theorem idleAt14_2 : ∀ t : Fin cfg14.N, ¬cond14_1 (grid14.coords t) → cfg14.idle 2 (grid14.coords t) = true := by decide +kernel
theorem noFlush14_2 : ∀ t : Fin cfg14.N, ¬cond14_1 (grid14.coords t) → (cfg14.win 2).flush t = false := by decide +kernel
/-- Where k = 3 it is live. -/
theorem liveAt14_2 : ∀ t : Fin cfg14.N, cond14_1 (grid14.coords t) → cfg14.idle 2 (grid14.coords t) = false := by decide +kernel

/-! ## The staging memrefs at a point, and the scratch -/

/-- One staging buffer of the output window, through which its contents are stated. -/
abbrev VO14_2 : View sig .tc .vmem S1024x512 .f32 := (Memref.whole cc14_stg2_0 : Memref sig .tc .vmem S1024x512 .f32).view
abbrev ms14_0 (t : Fin cfg14.N) : Memref sig .tc .vmem S1024x1024 .bf16 := win14_0.stage (cfg14.slots t 0)
abbrev hs14_0 (t : Fin cfg14.N) : (ms14_0 t).IsWhole := hstage14_0 ((cfg14.slots t 0).cast nbuf14_0)
abbrev ms14_1 (t : Fin cfg14.N) : Memref sig .tc .vmem S1024x512 .f32 := win14_1.stage (cfg14.slots t 1)
abbrev hs14_1 (t : Fin cfg14.N) : (ms14_1 t).IsWhole := hstage14_1 ((cfg14.slots t 1).cast nbuf14_1)
abbrev ms14_2 (t : Fin cfg14.N) : Memref sig .tc .vmem S1024x512 .f32 := win14_2.stage (cfg14.slots t 2)
abbrev hs14_2 (t : Fin cfg14.N) : (ms14_2 t).IsWhole := hstage14_2 ((cfg14.slots t 2).cast nbuf14_2)
/-- The accumulator: a whole scoped buffer of the kernel's own. -/
abbrev scM14 : Memref sig .tc .vmem S1024x512 .f32 := Memref.whole cc14_scratch0
abbrev VS14 : View sig .tc .vmem S1024x512 .f32 := scM14.view

/-- The other scoped buffers of the core, none of which this region touches. -/
abbrev restBut14 (c : Dev nD) : sProp 𝕄 :=
  Pipeline.scopedRestBut (Ix := Unit) (Name := ℕ) (U := UR sig nD τ) (Lvl := ℕ) (Val := Elt F) spec14 c [cc14_scratch0]

/-- The region's invariant before its first point: the accumulator at something, the other scoped buffers, the generator register. -/
theorem PhiA14_eq (c : Dev nD) :
    (Pipeline.ΦA spec14 c : sProp 𝕄)
      = iprop(iprop((∃ d, owns (c : Thread nD τ) scM14 fullShare d) ∗ restBut14 c) ∗ (∃ r, prngReg c r)) := by
  unfold Pipeline.ΦA; rw [scopedRest14_split]; simp only [scM14, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun14_A (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond14_0 i) (hc1 : ¬cond14_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc14__matmul_kernel i arg2 harg2 arg3 harg3 arg4 harg4 arg5 harg5) K } := by
  refine ⟨[], ?_, fun xi2 E K => ?run⟩
  case run =>
    simp only [cc14__matmul_kernel_eq_skeleton]; unfold cc14__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK14b.lean ====
/- Laid out by: python3 scratch/layout_regions.py --template-region 1 --region 14 --program Kernel --parts a,b,c, --out-dir proof/Proof
   from the hand-written text of region 1 (RegKI1b.lean): the same text, the region's number and the program's namespace substituted. -/
/-
  Region 14, case B (k = 1, 2): the body's run. Neither conditional is taken: the product of the two blocks is added to what
  the point before left in the accumulator; the output block is not touched.
-/
import proofs.«158944_j64613488001249_1_alg».proof.Proof.RegK14a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun14_B (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond14_0 i) (hc1 : ¬cond14_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc14__matmul_kernel i arg2 harg2 arg3 harg3 arg4 harg4 arg5 harg5) K } := by
  refine ⟨[], ?_, fun xi2 E K => ?run⟩
  case run =>
    simp only [cc14__matmul_kernel_eq_skeleton]; unfold cc14__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK14c.lean ====
/- Laid out by: python3 scratch/layout_regions.py --template-region 1 --region 14 --program Kernel --parts a,b,c, --out-dir proof/Proof
   from the hand-written text of region 1 (RegKI1c.lean): the same text, the region's number and the program's namespace substituted. -/
/-
  Region 14, case C (k = 3): the body's run. The product is added to the accumulator as in case B, and then the second
  conditional copies the accumulator over the whole output block.
-/
import proofs.«158944_j64613488001249_1_alg».proof.Proof.RegK14b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun14_C (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond14_0 i) (hc1 : cond14_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc14__matmul_kernel i arg2 harg2 arg3 harg3 arg4 harg4 arg5 harg5) K } := by
  refine ⟨?_, ?_, fun E K => ?run⟩
  case run =>
    simp only [cc14__matmul_kernel_eq_skeleton]; unfold cc14__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK14.lean ====
/- Laid out by: python3 scratch/layout_regions.py --template-region 1 --region 14 --program Kernel --parts a,b,c, --out-dir proof/Proof
   from the hand-written text of region 1 (RegKI1.lean): the same text, the region's number and the program's namespace substituted. -/
/-
  Region 14 of @main, entered from the buffer contents `V`: what its windows' blocks are, what each case of the body leaves in
  the accumulator and in the output block, the accumulator and the output block point by point (`outsAt14`: at k = 0 the
  accumulator restarts from zeros plus the product; at k = 1, 2, 3 it is the point before's plus the product; at k = 3 the
  output block is the accumulator), the region's invariant (the accumulator at `outsAt14`'s second component), the proof data,
  and the body's obligation at every point.
-/
import proofs.«158944_j64613488001249_1_alg».proof.Proof.RegK14c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- An input window's current staging buffer holds its block at every point, for any proof data whose array is `V`'s and
    whose body leaves the block in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-! ## What each case leaves -/

/-- Case A's stores into the accumulator cover it. -/
theorem scover14_A (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond14_0 i) (hc1 : ¬cond14_1 i)
    (x0 : Vec F S1024x1024 .bf16) (x1 : Vec F S1024x512 .f32) (y : S1024x512.Idx) :
    ∃ pc ∈ (kernelRun14_A c i arg2 harg2 arg3 harg3 arg4 harg4 arg5 harg5 hc0 hc1 x0 x1).2.1, y ∈ pc.1.set :=
  View.cover_of_tiledL (kernelRun14_A c i arg2 harg2 arg3 harg3 arg4 harg4 arg5 harg5 hc0 hc1 x0 x1).2.1 S1024x512.size (by sl_kernel_rfl) y
/-- What case A leaves in the accumulator. -/
noncomputable def sout14_A (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond14_0 i) (hc1 : ¬cond14_1 i)
    (x0 : Vec F S1024x1024 .bf16) (x1 : Vec F S1024x512 .f32) : Vec F S1024x512 .f32 :=
  VS14.read (Elt F) (VS14.writes (Elt F) VS14.junk (kernelRun14_A c i arg2 harg2 arg3 harg3 arg4 harg4 arg5 harg5 hc0 hc1 x0 x1).2.1)

/-- Case B's store into the accumulator covers it. -/
theorem scover14_B (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond14_0 i) (hc1 : ¬cond14_1 i)
    (x0 : Vec F S1024x1024 .bf16) (x1 : Vec F S1024x512 .f32) (xs0 : Vec F S1024x512 .f32) (y : S1024x512.Idx) :
    ∃ pc ∈ (kernelRun14_B c i arg2 harg2 arg3 harg3 arg4 harg4 arg5 harg5 hc0 hc1 x0 x1 xs0).2.1, y ∈ pc.1.set :=
  View.cover_of_tiledL (kernelRun14_B c i arg2 harg2 arg3 harg3 arg4 harg4 arg5 harg5 hc0 hc1 x0 x1 xs0).2.1 S1024x512.size (by sl_kernel_rfl) y
/-- What case B leaves in the accumulator, over what the point before left. -/
noncomputable def sout14_B (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond14_0 i) (hc1 : ¬cond14_1 i)
    (x0 : Vec F S1024x1024 .bf16) (x1 : Vec F S1024x512 .f32) (xs0 : Vec F S1024x512 .f32) : Vec F S1024x512 .f32 :=
  VS14.read (Elt F) (VS14.writes (Elt F) VS14.junk (kernelRun14_B c i arg2 harg2 arg3 harg3 arg4 harg4 arg5 harg5 hc0 hc1 x0 x1 xs0).2.1)

/-- Case C's store into the output block covers it, and so does its store into the accumulator. -/
theorem cover14_C (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond14_0 i) (hc1 : cond14_1 i)
    (x0 : Vec F S1024x1024 .bf16) (x1 : Vec F S1024x512 .f32) (xs0 : Vec F S1024x512 .f32) (y : S1024x512.Idx) :
    ∃ pc ∈ (kernelRun14_C c i arg2 harg2 arg3 harg3 arg4 harg4 arg5 harg5 hc0 hc1 x0 x1 xs0).1, y ∈ pc.1.set :=
  View.cover_of_tiledL (kernelRun14_C c i arg2 harg2 arg3 harg3 arg4 harg4 arg5 harg5 hc0 hc1 x0 x1 xs0).1 S1024x512.size (by sl_kernel_rfl) y
theorem scover14_C (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond14_0 i) (hc1 : cond14_1 i)
    (x0 : Vec F S1024x1024 .bf16) (x1 : Vec F S1024x512 .f32) (xs0 : Vec F S1024x512 .f32) (y : S1024x512.Idx) :
    ∃ pc ∈ (kernelRun14_C c i arg2 harg2 arg3 harg3 arg4 harg4 arg5 harg5 hc0 hc1 x0 x1 xs0).2.1, y ∈ pc.1.set :=
  View.cover_of_tiledL (kernelRun14_C c i arg2 harg2 arg3 harg3 arg4 harg4 arg5 harg5 hc0 hc1 x0 x1 xs0).2.1 S1024x512.size (by sl_kernel_rfl) y
/-- What case C leaves in the output block, and in the accumulator. -/
noncomputable def out14_C (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond14_0 i) (hc1 : cond14_1 i)
    (x0 : Vec F S1024x1024 .bf16) (x1 : Vec F S1024x512 .f32) (xs0 : Vec F S1024x512 .f32) : Vec F S1024x512 .f32 :=
  VO14_2.read (Elt F) (VO14_2.writes (Elt F) VO14_2.junk (kernelRun14_C c i arg2 harg2 arg3 harg3 arg4 harg4 arg5 harg5 hc0 hc1 x0 x1 xs0).1)
noncomputable def sout14_C (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond14_0 i) (hc1 : cond14_1 i)
    (x0 : Vec F S1024x1024 .bf16) (x1 : Vec F S1024x512 .f32) (xs0 : Vec F S1024x512 .f32) : Vec F S1024x512 .f32 :=
  VS14.read (Elt F) (VS14.writes (Elt F) VS14.junk (kernelRun14_C c i arg2 harg2 arg3 harg3 arg4 harg4 arg5 harg5 hc0 hc1 x0 x1 xs0).2.1)

/-- Where the output block is idle nothing consults what it holds: a placeholder. -/
noncomputable def outIdle14 : Vec F S1024x512 .f32 := VO14_2.read (Elt F) (VO14_2.writes (Elt F) VO14_2.junk [])

/-! ## The conditions at a point, from t % 4 -/

theorem isFirst14 (t : Fin cfg14.N) (h : t.val % 4 = 0) : cond14_0 (grid14.coords t) := (hcond14_0 t).mpr h
theorem notFirst14 (t : Fin cfg14.N) (h : ¬t.val % 4 = 0) : ¬cond14_0 (grid14.coords t) := fun hc => h ((hcond14_0 t).mp hc)
theorem isLast14 (t : Fin cfg14.N) (h : t.val % 4 = 3) : cond14_1 (grid14.coords t) := (hcond14_1 t).mpr h
theorem notLast14 (t : Fin cfg14.N) (h : ¬t.val % 4 = 3) : ¬cond14_1 (grid14.coords t) := fun hc => h ((hcond14_1 t).mp hc)

/-! ## The accumulator and the output block, point by point -/

/-- After the body at position `n`: (the output block's buffer, the accumulator). -/
noncomputable def outsAt14 (c : Dev nD) : (n : ℕ) → n < cfg14.N → Vec F S1024x512 .f32 × Vec F S1024x512 .f32
  | 0, hn => (outIdle14, sout14_A c (grid14.coords ⟨0, hn⟩) (ms14_0 ⟨0, hn⟩) (hs14_0 ⟨0, hn⟩) (ms14_1 ⟨0, hn⟩) (hs14_1 ⟨0, hn⟩) (ms14_2 ⟨0, hn⟩) (hs14_2 ⟨0, hn⟩) scM14 (Memref.isWhole_whole _) (isFirst14 ⟨0, hn⟩ (Nat.zero_mod _)) (notLast14 ⟨0, hn⟩ (by simp)) (iblk14 V c 0 ⟨0, hn⟩) (iblk14 V c 1 ⟨0, hn⟩))
  | n + 1, hn =>
    if h0 : (n + 1) % 4 = 0 then
      (outIdle14, sout14_A c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14 (Memref.isWhole_whole _) (isFirst14 ⟨n + 1, hn⟩ h0) (notLast14 ⟨n + 1, hn⟩ (by show ¬(n + 1) % 4 = 3; omega)) (iblk14 V c 0 ⟨n + 1, hn⟩) (iblk14 V c 1 ⟨n + 1, hn⟩))
    else if h3 : (n + 1) % 4 = 3 then
      (out14_C c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14 (Memref.isWhole_whole _) (notFirst14 ⟨n + 1, hn⟩ h0) (isLast14 ⟨n + 1, hn⟩ h3) (iblk14 V c 0 ⟨n + 1, hn⟩) (iblk14 V c 1 ⟨n + 1, hn⟩) (outsAt14 c n (Nat.lt_of_succ_lt hn)).2,
       sout14_C c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14 (Memref.isWhole_whole _) (notFirst14 ⟨n + 1, hn⟩ h0) (isLast14 ⟨n + 1, hn⟩ h3) (iblk14 V c 0 ⟨n + 1, hn⟩) (iblk14 V c 1 ⟨n + 1, hn⟩) (outsAt14 c n (Nat.lt_of_succ_lt hn)).2)
    else
      (outIdle14, sout14_B c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14 (Memref.isWhole_whole _) (notFirst14 ⟨n + 1, hn⟩ h0) (notLast14 ⟨n + 1, hn⟩ h3) (iblk14 V c 0 ⟨n + 1, hn⟩) (iblk14 V c 1 ⟨n + 1, hn⟩) (outsAt14 c n (Nat.lt_of_succ_lt hn)).2)

/-- `outsAt14` at a point with k = 0. -/
theorem outsAt14_A (c : Dev nD) (t : Fin cfg14.N) (h0 : t.val % 4 = 0) :
    outsAt14 V c t.val t.isLt = (outIdle14, sout14_A c (grid14.coords t) (ms14_0 t) (hs14_0 t) (ms14_1 t) (hs14_1 t) (ms14_2 t) (hs14_2 t) scM14 (Memref.isWhole_whole _) (isFirst14 t h0) (notLast14 t (by omega)) (iblk14 V c 0 t) (iblk14 V c 1 t)) := by
  obtain ⟨n, hn⟩ := t
  cases n with
  | zero => rfl
  | succ n => exact (dif_pos h0).trans rfl

/-- `outsAt14` at a point with k = 1, 2: over what the point before left. -/
theorem outsAt14_B (c : Dev nD) (t : Fin cfg14.N) (h0 : ¬t.val % 4 = 0) (h3 : ¬t.val % 4 = 3) :
    outsAt14 V c t.val t.isLt = (outIdle14, sout14_B c (grid14.coords t) (ms14_0 t) (hs14_0 t) (ms14_1 t) (hs14_1 t) (ms14_2 t) (hs14_2 t) scM14 (Memref.isWhole_whole _) (notFirst14 t h0) (notLast14 t h3) (iblk14 V c 0 t) (iblk14 V c 1 t)
      (outsAt14 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt14` at a point with k = 3. -/
theorem outsAt14_C (c : Dev nD) (t : Fin cfg14.N) (h0 : ¬t.val % 4 = 0) (h3 : t.val % 4 = 3) :
    outsAt14 V c t.val t.isLt = (out14_C c (grid14.coords t) (ms14_0 t) (hs14_0 t) (ms14_1 t) (hs14_1 t) (ms14_2 t) (hs14_2 t) scM14 (Memref.isWhole_whole _) (notFirst14 t h0) (isLast14 t h3) (iblk14 V c 0 t) (iblk14 V c 1 t)
        (outsAt14 V c (t.val - 1) (Nat.lt_of_le_of_lt (Nat.sub_le _ _) t.isLt)).2,
      sout14_C c (grid14.coords t) (ms14_0 t) (hs14_0 t) (ms14_1 t) (hs14_1 t) (ms14_2 t) (hs14_2 t) scM14 (Memref.isWhole_whole _) (notFirst14 t h0) (isLast14 t h3) (iblk14 V c 0 t) (iblk14 V c 1 t)
        (outsAt14 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS14 (c : Dev nD) : (n : ℕ) → n ≤ cfg14.N → sProp 𝕄
  | 0, _ => Pipeline.ΦA spec14 c
  | n + 1, hn => iprop(iprop(owns (c : Thread nD τ) scM14 fullShare ((outsAt14 V c n hn).2) ∗ restBut14 c) ∗ (∃ r, prngReg c r))

theorem PhiS14_zero (c : Dev nD) (n : ℕ) (h : n ≤ cfg14.N) (hz : n = 0) : PhiS14 V c n h = Pipeline.ΦA spec14 c := by
  subst hz; rfl
theorem PhiS14_succ (c : Dev nD) (n : ℕ) (hn : n < cfg14.N) :
    PhiS14 V c (n + 1) hn = iprop(iprop(owns (c : Thread nD τ) scM14 fullShare ((outsAt14 V c n hn).2) ∗ restBut14 c) ∗ (∃ r, prngReg c r)) := rfl
theorem PhiS14_pos (c : Dev nD) (n : ℕ) (h : n ≤ cfg14.N) (hz : n ≠ 0) :
    PhiS14 V c n h = iprop(iprop(owns (c : Thread nD τ) scM14 fullShare ((outsAt14 V c (n - 1) (by omega)).2) ∗ restBut14 c) ∗ (∃ r, prngReg c r)) := by
  cases n with
  | zero => exact absurd rfl hz
  | succ n => rfl

/-! ## The proof data -/

/-- The region's proof data on core `c`: the arrays as the region finds them; after the body at point `t` each input's
    buffer at its block and the output's at `outsAt14`'s first component; the invariant `PhiS14`; nothing owed; full shares. -/
noncomputable def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => (outsAt14 V c t.val t.isLt).1
  Φ t := PhiS14 V c t.val (Nat.le_of_lt_succ t.isLt)
  q _ := fullShare
  owed _ := 0

theorem A_eq14 (c : Dev nD) (w : Fin cfg14.W) : (dat14 V c).A w = V c (Pipeline.arrRef spec14 w) := by
  dsimp only [dat14]
theorem PhiS14_castSucc (c : Dev nD) (t : Fin cfg14.N) :
    (dat14 V c).Φ t.castSucc = PhiS14 V c t.val (Nat.le_of_lt t.isLt) := by
  dsimp only [dat14]; simp only [Fin.coe_castSucc]
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = (outsAt14 V c t.val t.isLt).1 := by dsimp only [dat14]
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-! ## The body's obligation -/

noncomputable def bodyPre14 (c : Dev nD) (t : Fin cfg14.N) : sProp 𝕄 :=
  iprop((dat14 V c).Φ t.castSucc ∗ (dat14 V c).owesAt () t.castSucc
    ∗ (∃ d, owns (c : Thread nD τ) (ms14_0 t) fullShare ((dat14 V c).before 0 t d))
    ∗ (∃ d, owns (c : Thread nD τ) (ms14_1 t) fullShare ((dat14 V c).before 1 t d))
    ∗ (∃ d, owns (c : Thread nD τ) (ms14_2 t) fullShare ((dat14 V c).before 2 t d)))

noncomputable def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).owesAt () t.succ = (dat14 V c).owesAt () t.castSucc from rfl]
  rw [show (dat14 V c).Φ t.succ = PhiS14 V c (t.val + 1) t.isLt from rfl, PhiS14_succ]
  rw [show (dat14 V c).leavesExact 0 t = owns (c : Thread nD τ) (ms14_0 t) fullShare ((dat14 V c).after 0 t) from by
    unfold Dat.leavesExact; rw [liveAt14_0 t], after14_0]
  rw [show (dat14 V c).leavesExact 1 t = owns (c : Thread nD τ) (ms14_1 t) fullShare ((dat14 V c).after 1 t) from by
    unfold Dat.leavesExact; rw [liveAt14_1 t], after14_1]
  by_cases h0 : t.val % 4 = 0
  · have h3 : ¬t.val % 4 = 3 := by omega
    rw [Dat.leavesExact_idle (dat14 V c) 2 t (idleAt14_2 t (notLast14 t h3)) (noFlush14_2 t (notLast14 t h3))]
    rw [outsAt14_A V c t h0]
    unfold sout14_A; (try dsimp only)
    by_cases hz : t.val = 0
    · rw [PhiS14_castSucc V c t, PhiS14_zero V c _ _ hz, PhiA14_eq]
      iintro ⟨⟨⟨HS0, Hrb⟩, Hg⟩, Ho, ⟨%d0, H0⟩, ⟨%d1, H1⟩, ⟨%d2, H2⟩⟩
      iapply ((kernelRun14_A c (grid14.coords t) _ _ _ _ _ _ _ _ (isFirst14 t h0) (notLast14 t (by omega)) (iblk14 V c 0 t) (iblk14 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover14_A c _ _ _ _ _ _ _ _ _ _ _ _ _)
          iexact Hrb
        iexact Hg
      isplitl [Ho]; · iexact Ho
      isplitl [H0]; · iexact H0
      isplitl [H1]; · iexact H1
      iexists _; iexact H2
    · rw [PhiS14_castSucc V c t, PhiS14_pos V c _ _ hz]
      iintro ⟨⟨⟨HS0, Hrb⟩, Hg⟩, Ho, ⟨%d0, H0⟩, ⟨%d1, H1⟩, ⟨%d2, H2⟩⟩
      iapply ((kernelRun14_A c (grid14.coords t) _ _ _ _ _ _ _ _ (isFirst14 t h0) (notLast14 t (by omega)) (iblk14 V c 0 t) (iblk14 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover14_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat14 V c).leavesExact 2 t = owns (c : Thread nD τ) (ms14_2 t) fullShare ((dat14 V c).after 2 t) from by
        unfold Dat.leavesExact; rw [liveAt14_2 t (isLast14 t h3)], after14_2]
      rw [outsAt14_C V c t h0 h3]
      unfold out14_C sout14_C; (try dsimp only)
      rw [PhiS14_castSucc V c t, PhiS14_pos V c _ _ hz]
      iintro ⟨⟨⟨HS0, Hrb⟩, Hg⟩, Ho, ⟨%d0, H0⟩, ⟨%d1, H1⟩, ⟨%d2, H2⟩⟩
      iapply ((kernelRun14_C c (grid14.coords t) _ _ _ _ _ _ _ _ (notFirst14 t h0) (isLast14 t h3) (iblk14 V c 0 t) (iblk14 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover14_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover14_C c _ _ _ _ _ _ _ _ _ _ _ _ _ _)
    · rw [Dat.leavesExact_idle (dat14 V c) 2 t (idleAt14_2 t (notLast14 t h3)) (noFlush14_2 t (notLast14 t h3))]
      rw [outsAt14_B V c t h0 h3]
      unfold sout14_B; (try dsimp only)
      rw [PhiS14_castSucc V c t, PhiS14_pos V c _ _ hz]
      iintro ⟨⟨⟨HS0, Hrb⟩, Hg⟩, Ho, ⟨%d0, H0⟩, ⟨%d1, H1⟩, ⟨%d2, H2⟩⟩
      iapply ((kernelRun14_B c (grid14.coords t) _ _ _ _ _ _ _ _ (notFirst14 t h0) (notLast14 t h3) (iblk14 V c 0 t) (iblk14 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover14_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation14 (c : Dev nD) : BodyObligation (dat14 (F := F) V c) (defs₀ (F := F)) Variants.none () Set.univ := fun t => by
  rw [bigSep_W14, bigSep_W14]
  exact sound_body14 V c t

/-- What the region is entered with is the invariant before the first point. -/
theorem hin14 (c : Dev nD) : Pipeline.ΦA spec14 c ⊢ (dat14 V c).Φ 0 := by
  rw [show (dat14 V c).Φ 0 = PhiS14 V c 0 (Nat.zero_le _) from rfl, PhiS14_zero V c 0 _ rfl]
  try exact Idealize.SL.BI.Entails.refl _

/-- After the last point the invariant gives the class's back: the accumulator's contents are forgotten. -/
theorem hout14 (c : Dev nD) : (dat14 V c).Φ (Fin.last cfg14.N) ⊢ Pipeline.ΦA spec14 c := by
  have hN : cfg14.N = 16 := N_14
  rw [show (dat14 V c).Φ (Fin.last cfg14.N) = PhiS14 V c (Fin.last cfg14.N).val (Nat.le_of_lt_succ (Fin.last cfg14.N).isLt) from rfl,
    PhiS14_pos V c _ _ (by rw [Fin.val_last]; omega), PhiA14_eq]
  iintro ⟨⟨HS0, Hrb⟩, Hg⟩
  isplitl [HS0 Hrb]
  · isplitl [HS0]
    · iexists _; iexact HS0
    iexact Hrb
  iexact Hg

end Cert.Kernel.Hand

end
-- ==== Proof.RegK15a.lean ====
/- Laid out by: python3 scratch/layout_regions.py --template-region 1 --region 15 --program Kernel --parts a,b,c, --out-dir proof/Proof
   from the hand-written text of region 1 (RegKI1a.lean): the same text, the region's number and the program's namespace substituted. -/
/-
  Region 15 of @main (custom_call 15): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond15_0 (i : grid15.Coords) : Prop := (Scalar.cmpi .ne (Scalar.extui (Scalar.cmpi .eq (BitVec.ofNat 32 (i 1).val) 0#32)) 0#32) = 1#1
/-- It holds exactly at the points with t % 4 = 0. -/
theorem hcond15_0 : ∀ t : Fin cfg15.N, cond15_0 (grid15.coords t) ↔ t.val % 4 = 0 :=
  (by decide +kernel : ∀ t : Fin grid15.N, cond15_0 (grid15.coords t) ↔ t.val % 4 = 0)

/-- "k = 3": the second conditional's test. -/
abbrev cond15_1 (i : grid15.Coords) : Prop := k15_cond2 i = 1#1
/-- It holds exactly at the points with t % 4 = 3. -/
theorem hcond15_1 : ∀ t : Fin cfg15.N, cond15_1 (grid15.coords t) ↔ t.val % 4 = 3 :=
  (by decide +kernel : ∀ t : Fin grid15.N, cond15_1 (grid15.coords t) ↔ t.val % 4 = 3)

/-! ## Where the windows are idle, and where the output is written back -/

/-- The two input windows are never idle. -/
theorem liveAt15_0 : ∀ t : Fin cfg15.N, cfg15.idle 0 (grid15.coords t) = false := by decide +kernel
theorem liveAt15_1 : ∀ t : Fin cfg15.N, cfg15.idle 1 (grid15.coords t) = false := by decide +kernel
/-- Where k ≠ 3 the output window is idle (the body stores nothing into it) and is not written back. -/
theorem idleAt15_2 : ∀ t : Fin cfg15.N, ¬cond15_1 (grid15.coords t) → cfg15.idle 2 (grid15.coords t) = true := by decide +kernel
theorem noFlush15_2 : ∀ t : Fin cfg15.N, ¬cond15_1 (grid15.coords t) → (cfg15.win 2).flush t = false := by decide +kernel
/-- Where k = 3 it is live. -/
theorem liveAt15_2 : ∀ t : Fin cfg15.N, cond15_1 (grid15.coords t) → cfg15.idle 2 (grid15.coords t) = false := by decide +kernel

/-! ## The staging memrefs at a point, and the scratch -/

/-- One staging buffer of the output window, through which its contents are stated. -/
abbrev VO15_2 : View sig .tc .vmem S1024x512 .f32 := (Memref.whole cc15_stg2_0 : Memref sig .tc .vmem S1024x512 .f32).view
abbrev ms15_0 (t : Fin cfg15.N) : Memref sig .tc .vmem S1024x1024 .bf16 := win15_0.stage (cfg15.slots t 0)
abbrev hs15_0 (t : Fin cfg15.N) : (ms15_0 t).IsWhole := hstage15_0 ((cfg15.slots t 0).cast nbuf15_0)
abbrev ms15_1 (t : Fin cfg15.N) : Memref sig .tc .vmem S1024x512 .f32 := win15_1.stage (cfg15.slots t 1)
abbrev hs15_1 (t : Fin cfg15.N) : (ms15_1 t).IsWhole := hstage15_1 ((cfg15.slots t 1).cast nbuf15_1)
abbrev ms15_2 (t : Fin cfg15.N) : Memref sig .tc .vmem S1024x512 .f32 := win15_2.stage (cfg15.slots t 2)
abbrev hs15_2 (t : Fin cfg15.N) : (ms15_2 t).IsWhole := hstage15_2 ((cfg15.slots t 2).cast nbuf15_2)
/-- The accumulator: a whole scoped buffer of the kernel's own. -/
abbrev scM15 : Memref sig .tc .vmem S1024x512 .f32 := Memref.whole cc15_scratch0
abbrev VS15 : View sig .tc .vmem S1024x512 .f32 := scM15.view

/-- The other scoped buffers of the core, none of which this region touches. -/
abbrev restBut15 (c : Dev nD) : sProp 𝕄 :=
  Pipeline.scopedRestBut (Ix := Unit) (Name := ℕ) (U := UR sig nD τ) (Lvl := ℕ) (Val := Elt F) spec15 c [cc15_scratch0]

/-- The region's invariant before its first point: the accumulator at something, the other scoped buffers, the generator register. -/
theorem PhiA15_eq (c : Dev nD) :
    (Pipeline.ΦA spec15 c : sProp 𝕄)
      = iprop(iprop((∃ d, owns (c : Thread nD τ) scM15 fullShare d) ∗ restBut15 c) ∗ (∃ r, prngReg c r)) := by
  unfold Pipeline.ΦA; rw [scopedRest15_split]; simp only [scM15, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun15_A (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond15_0 i) (hc1 : ¬cond15_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc15__matmul_kernel i arg2 harg2 arg3 harg3 arg4 harg4 arg5 harg5) K } := by
  refine ⟨[], ?_, fun xi2 E K => ?run⟩
  case run =>
    simp only [cc15__matmul_kernel_eq_skeleton]; unfold cc15__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK15b.lean ====
/- Laid out by: python3 scratch/layout_regions.py --template-region 1 --region 15 --program Kernel --parts a,b,c, --out-dir proof/Proof
   from the hand-written text of region 1 (RegKI1b.lean): the same text, the region's number and the program's namespace substituted. -/
/-
  Region 15, case B (k = 1, 2): the body's run. Neither conditional is taken: the product of the two blocks is added to what
  the point before left in the accumulator; the output block is not touched.
-/
import proofs.«158944_j64613488001249_1_alg».proof.Proof.RegK15a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun15_B (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond15_0 i) (hc1 : ¬cond15_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc15__matmul_kernel i arg2 harg2 arg3 harg3 arg4 harg4 arg5 harg5) K } := by
  refine ⟨[], ?_, fun xi2 E K => ?run⟩
  case run =>
    simp only [cc15__matmul_kernel_eq_skeleton]; unfold cc15__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK15c.lean ====
/- Laid out by: python3 scratch/layout_regions.py --template-region 1 --region 15 --program Kernel --parts a,b,c, --out-dir proof/Proof
   from the hand-written text of region 1 (RegKI1c.lean): the same text, the region's number and the program's namespace substituted. -/
/-
  Region 15, case C (k = 3): the body's run. The product is added to the accumulator as in case B, and then the second
  conditional copies the accumulator over the whole output block.
-/
import proofs.«158944_j64613488001249_1_alg».proof.Proof.RegK15b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun15_C (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond15_0 i) (hc1 : cond15_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc15__matmul_kernel i arg2 harg2 arg3 harg3 arg4 harg4 arg5 harg5) K } := by
  refine ⟨?_, ?_, fun E K => ?run⟩
  case run =>
    simp only [cc15__matmul_kernel_eq_skeleton]; unfold cc15__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK15.lean ====
/- Laid out by: python3 scratch/layout_regions.py --template-region 1 --region 15 --program Kernel --parts a,b,c, --out-dir proof/Proof
   from the hand-written text of region 1 (RegKI1.lean): the same text, the region's number and the program's namespace substituted. -/
/-
  Region 15 of @main, entered from the buffer contents `V`: what its windows' blocks are, what each case of the body leaves in
  the accumulator and in the output block, the accumulator and the output block point by point (`outsAt15`: at k = 0 the
  accumulator restarts from zeros plus the product; at k = 1, 2, 3 it is the point before's plus the product; at k = 3 the
  output block is the accumulator), the region's invariant (the accumulator at `outsAt15`'s second component), the proof data,
  and the body's obligation at every point.
-/
import proofs.«158944_j64613488001249_1_alg».proof.Proof.RegK15c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- An input window's current staging buffer holds its block at every point, for any proof data whose array is `V`'s and
    whose body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-! ## What each case leaves -/

/-- Case A's stores into the accumulator cover it. -/
theorem scover15_A (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond15_0 i) (hc1 : ¬cond15_1 i)
    (x0 : Vec F S1024x1024 .bf16) (x1 : Vec F S1024x512 .f32) (y : S1024x512.Idx) :
    ∃ pc ∈ (kernelRun15_A c i arg2 harg2 arg3 harg3 arg4 harg4 arg5 harg5 hc0 hc1 x0 x1).2.1, y ∈ pc.1.set :=
  View.cover_of_tiledL (kernelRun15_A c i arg2 harg2 arg3 harg3 arg4 harg4 arg5 harg5 hc0 hc1 x0 x1).2.1 S1024x512.size (by sl_kernel_rfl) y
/-- What case A leaves in the accumulator. -/
noncomputable def sout15_A (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond15_0 i) (hc1 : ¬cond15_1 i)
    (x0 : Vec F S1024x1024 .bf16) (x1 : Vec F S1024x512 .f32) : Vec F S1024x512 .f32 :=
  VS15.read (Elt F) (VS15.writes (Elt F) VS15.junk (kernelRun15_A c i arg2 harg2 arg3 harg3 arg4 harg4 arg5 harg5 hc0 hc1 x0 x1).2.1)

/-- Case B's store into the accumulator covers it. -/
theorem scover15_B (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond15_0 i) (hc1 : ¬cond15_1 i)
    (x0 : Vec F S1024x1024 .bf16) (x1 : Vec F S1024x512 .f32) (xs0 : Vec F S1024x512 .f32) (y : S1024x512.Idx) :
    ∃ pc ∈ (kernelRun15_B c i arg2 harg2 arg3 harg3 arg4 harg4 arg5 harg5 hc0 hc1 x0 x1 xs0).2.1, y ∈ pc.1.set :=
  View.cover_of_tiledL (kernelRun15_B c i arg2 harg2 arg3 harg3 arg4 harg4 arg5 harg5 hc0 hc1 x0 x1 xs0).2.1 S1024x512.size (by sl_kernel_rfl) y
/-- What case B leaves in the accumulator, over what the point before left. -/
noncomputable def sout15_B (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond15_0 i) (hc1 : ¬cond15_1 i)
    (x0 : Vec F S1024x1024 .bf16) (x1 : Vec F S1024x512 .f32) (xs0 : Vec F S1024x512 .f32) : Vec F S1024x512 .f32 :=
  VS15.read (Elt F) (VS15.writes (Elt F) VS15.junk (kernelRun15_B c i arg2 harg2 arg3 harg3 arg4 harg4 arg5 harg5 hc0 hc1 x0 x1 xs0).2.1)

/-- Case C's store into the output block covers it, and so does its store into the accumulator. -/
theorem cover15_C (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond15_0 i) (hc1 : cond15_1 i)
    (x0 : Vec F S1024x1024 .bf16) (x1 : Vec F S1024x512 .f32) (xs0 : Vec F S1024x512 .f32) (y : S1024x512.Idx) :
    ∃ pc ∈ (kernelRun15_C c i arg2 harg2 arg3 harg3 arg4 harg4 arg5 harg5 hc0 hc1 x0 x1 xs0).1, y ∈ pc.1.set :=
  View.cover_of_tiledL (kernelRun15_C c i arg2 harg2 arg3 harg3 arg4 harg4 arg5 harg5 hc0 hc1 x0 x1 xs0).1 S1024x512.size (by sl_kernel_rfl) y
theorem scover15_C (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond15_0 i) (hc1 : cond15_1 i)
    (x0 : Vec F S1024x1024 .bf16) (x1 : Vec F S1024x512 .f32) (xs0 : Vec F S1024x512 .f32) (y : S1024x512.Idx) :
    ∃ pc ∈ (kernelRun15_C c i arg2 harg2 arg3 harg3 arg4 harg4 arg5 harg5 hc0 hc1 x0 x1 xs0).2.1, y ∈ pc.1.set :=
  View.cover_of_tiledL (kernelRun15_C c i arg2 harg2 arg3 harg3 arg4 harg4 arg5 harg5 hc0 hc1 x0 x1 xs0).2.1 S1024x512.size (by sl_kernel_rfl) y
/-- What case C leaves in the output block, and in the accumulator. -/
noncomputable def out15_C (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond15_0 i) (hc1 : cond15_1 i)
    (x0 : Vec F S1024x1024 .bf16) (x1 : Vec F S1024x512 .f32) (xs0 : Vec F S1024x512 .f32) : Vec F S1024x512 .f32 :=
  VO15_2.read (Elt F) (VO15_2.writes (Elt F) VO15_2.junk (kernelRun15_C c i arg2 harg2 arg3 harg3 arg4 harg4 arg5 harg5 hc0 hc1 x0 x1 xs0).1)
noncomputable def sout15_C (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond15_0 i) (hc1 : cond15_1 i)
    (x0 : Vec F S1024x1024 .bf16) (x1 : Vec F S1024x512 .f32) (xs0 : Vec F S1024x512 .f32) : Vec F S1024x512 .f32 :=
  VS15.read (Elt F) (VS15.writes (Elt F) VS15.junk (kernelRun15_C c i arg2 harg2 arg3 harg3 arg4 harg4 arg5 harg5 hc0 hc1 x0 x1 xs0).2.1)

/-- Where the output block is idle nothing consults what it holds: a placeholder. -/
noncomputable def outIdle15 : Vec F S1024x512 .f32 := VO15_2.read (Elt F) (VO15_2.writes (Elt F) VO15_2.junk [])

/-! ## The conditions at a point, from t % 4 -/

theorem isFirst15 (t : Fin cfg15.N) (h : t.val % 4 = 0) : cond15_0 (grid15.coords t) := (hcond15_0 t).mpr h
theorem notFirst15 (t : Fin cfg15.N) (h : ¬t.val % 4 = 0) : ¬cond15_0 (grid15.coords t) := fun hc => h ((hcond15_0 t).mp hc)
theorem isLast15 (t : Fin cfg15.N) (h : t.val % 4 = 3) : cond15_1 (grid15.coords t) := (hcond15_1 t).mpr h
theorem notLast15 (t : Fin cfg15.N) (h : ¬t.val % 4 = 3) : ¬cond15_1 (grid15.coords t) := fun hc => h ((hcond15_1 t).mp hc)

/-! ## The accumulator and the output block, point by point -/

/-- After the body at position `n`: (the output block's buffer, the accumulator). -/
noncomputable def outsAt15 (c : Dev nD) : (n : ℕ) → n < cfg15.N → Vec F S1024x512 .f32 × Vec F S1024x512 .f32
  | 0, hn => (outIdle15, sout15_A c (grid15.coords ⟨0, hn⟩) (ms15_0 ⟨0, hn⟩) (hs15_0 ⟨0, hn⟩) (ms15_1 ⟨0, hn⟩) (hs15_1 ⟨0, hn⟩) (ms15_2 ⟨0, hn⟩) (hs15_2 ⟨0, hn⟩) scM15 (Memref.isWhole_whole _) (isFirst15 ⟨0, hn⟩ (Nat.zero_mod _)) (notLast15 ⟨0, hn⟩ (by simp)) (iblk15 V c 0 ⟨0, hn⟩) (iblk15 V c 1 ⟨0, hn⟩))
  | n + 1, hn =>
    if h0 : (n + 1) % 4 = 0 then
      (outIdle15, sout15_A c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15 (Memref.isWhole_whole _) (isFirst15 ⟨n + 1, hn⟩ h0) (notLast15 ⟨n + 1, hn⟩ (by show ¬(n + 1) % 4 = 3; omega)) (iblk15 V c 0 ⟨n + 1, hn⟩) (iblk15 V c 1 ⟨n + 1, hn⟩))
    else if h3 : (n + 1) % 4 = 3 then
      (out15_C c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15 (Memref.isWhole_whole _) (notFirst15 ⟨n + 1, hn⟩ h0) (isLast15 ⟨n + 1, hn⟩ h3) (iblk15 V c 0 ⟨n + 1, hn⟩) (iblk15 V c 1 ⟨n + 1, hn⟩) (outsAt15 c n (Nat.lt_of_succ_lt hn)).2,
       sout15_C c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15 (Memref.isWhole_whole _) (notFirst15 ⟨n + 1, hn⟩ h0) (isLast15 ⟨n + 1, hn⟩ h3) (iblk15 V c 0 ⟨n + 1, hn⟩) (iblk15 V c 1 ⟨n + 1, hn⟩) (outsAt15 c n (Nat.lt_of_succ_lt hn)).2)
    else
      (outIdle15, sout15_B c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15 (Memref.isWhole_whole _) (notFirst15 ⟨n + 1, hn⟩ h0) (notLast15 ⟨n + 1, hn⟩ h3) (iblk15 V c 0 ⟨n + 1, hn⟩) (iblk15 V c 1 ⟨n + 1, hn⟩) (outsAt15 c n (Nat.lt_of_succ_lt hn)).2)

/-- `outsAt15` at a point with k = 0. -/
theorem outsAt15_A (c : Dev nD) (t : Fin cfg15.N) (h0 : t.val % 4 = 0) :
    outsAt15 V c t.val t.isLt = (outIdle15, sout15_A c (grid15.coords t) (ms15_0 t) (hs15_0 t) (ms15_1 t) (hs15_1 t) (ms15_2 t) (hs15_2 t) scM15 (Memref.isWhole_whole _) (isFirst15 t h0) (notLast15 t (by omega)) (iblk15 V c 0 t) (iblk15 V c 1 t)) := by
  obtain ⟨n, hn⟩ := t
  cases n with
  | zero => rfl
  | succ n => exact (dif_pos h0).trans rfl

/-- `outsAt15` at a point with k = 1, 2: over what the point before left. -/
theorem outsAt15_B (c : Dev nD) (t : Fin cfg15.N) (h0 : ¬t.val % 4 = 0) (h3 : ¬t.val % 4 = 3) :
    outsAt15 V c t.val t.isLt = (outIdle15, sout15_B c (grid15.coords t) (ms15_0 t) (hs15_0 t) (ms15_1 t) (hs15_1 t) (ms15_2 t) (hs15_2 t) scM15 (Memref.isWhole_whole _) (notFirst15 t h0) (notLast15 t h3) (iblk15 V c 0 t) (iblk15 V c 1 t)
      (outsAt15 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt15` at a point with k = 3. -/
theorem outsAt15_C (c : Dev nD) (t : Fin cfg15.N) (h0 : ¬t.val % 4 = 0) (h3 : t.val % 4 = 3) :
    outsAt15 V c t.val t.isLt = (out15_C c (grid15.coords t) (ms15_0 t) (hs15_0 t) (ms15_1 t) (hs15_1 t) (ms15_2 t) (hs15_2 t) scM15 (Memref.isWhole_whole _) (notFirst15 t h0) (isLast15 t h3) (iblk15 V c 0 t) (iblk15 V c 1 t)
        (outsAt15 V c (t.val - 1) (Nat.lt_of_le_of_lt (Nat.sub_le _ _) t.isLt)).2,
      sout15_C c (grid15.coords t) (ms15_0 t) (hs15_0 t) (ms15_1 t) (hs15_1 t) (ms15_2 t) (hs15_2 t) scM15 (Memref.isWhole_whole _) (notFirst15 t h0) (isLast15 t h3) (iblk15 V c 0 t) (iblk15 V c 1 t)
        (outsAt15 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS15 (c : Dev nD) : (n : ℕ) → n ≤ cfg15.N → sProp 𝕄
  | 0, _ => Pipeline.ΦA spec15 c
  | n + 1, hn => iprop(iprop(owns (c : Thread nD τ) scM15 fullShare ((outsAt15 V c n hn).2) ∗ restBut15 c) ∗ (∃ r, prngReg c r))

theorem PhiS15_zero (c : Dev nD) (n : ℕ) (h : n ≤ cfg15.N) (hz : n = 0) : PhiS15 V c n h = Pipeline.ΦA spec15 c := by
  subst hz; rfl
theorem PhiS15_succ (c : Dev nD) (n : ℕ) (hn : n < cfg15.N) :
    PhiS15 V c (n + 1) hn = iprop(iprop(owns (c : Thread nD τ) scM15 fullShare ((outsAt15 V c n hn).2) ∗ restBut15 c) ∗ (∃ r, prngReg c r)) := rfl
theorem PhiS15_pos (c : Dev nD) (n : ℕ) (h : n ≤ cfg15.N) (hz : n ≠ 0) :
    PhiS15 V c n h = iprop(iprop(owns (c : Thread nD τ) scM15 fullShare ((outsAt15 V c (n - 1) (by omega)).2) ∗ restBut15 c) ∗ (∃ r, prngReg c r)) := by
  cases n with
  | zero => exact absurd rfl hz
  | succ n => rfl

/-! ## The proof data -/

/-- The region's proof data on core `c`: the arrays as the region finds them; after the body at point `t` each input's
    buffer at its block and the output's at `outsAt15`'s first component; the invariant `PhiS15`; nothing owed; full shares. -/
noncomputable def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => (outsAt15 V c t.val t.isLt).1
  Φ t := PhiS15 V c t.val (Nat.le_of_lt_succ t.isLt)
  q _ := fullShare
  owed _ := 0

theorem A_eq15 (c : Dev nD) (w : Fin cfg15.W) : (dat15 V c).A w = V c (Pipeline.arrRef spec15 w) := by
  dsimp only [dat15]
theorem PhiS15_castSucc (c : Dev nD) (t : Fin cfg15.N) :
    (dat15 V c).Φ t.castSucc = PhiS15 V c t.val (Nat.le_of_lt t.isLt) := by
  dsimp only [dat15]; simp only [Fin.coe_castSucc]
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = (outsAt15 V c t.val t.isLt).1 := by dsimp only [dat15]
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

/-! ## The body's obligation -/

noncomputable def bodyPre15 (c : Dev nD) (t : Fin cfg15.N) : sProp 𝕄 :=
  iprop((dat15 V c).Φ t.castSucc ∗ (dat15 V c).owesAt () t.castSucc
    ∗ (∃ d, owns (c : Thread nD τ) (ms15_0 t) fullShare ((dat15 V c).before 0 t d))
    ∗ (∃ d, owns (c : Thread nD τ) (ms15_1 t) fullShare ((dat15 V c).before 1 t d))
    ∗ (∃ d, owns (c : Thread nD τ) (ms15_2 t) fullShare ((dat15 V c).before 2 t d)))

noncomputable def bodyPost15 (c : Dev nD) (t : Fin cfg15.N) : sProp 𝕄 :=
  iprop((dat15 V c).Φ t.succ ∗ (dat15 V c).owesAt () t.succ
    ∗ (dat15 V c).leavesExact 0 t
    ∗ (dat15 V c).leavesExact 1 t
    ∗ (dat15 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).owesAt () t.succ = (dat15 V c).owesAt () t.castSucc from rfl]
  rw [show (dat15 V c).Φ t.succ = PhiS15 V c (t.val + 1) t.isLt from rfl, PhiS15_succ]
  rw [show (dat15 V c).leavesExact 0 t = owns (c : Thread nD τ) (ms15_0 t) fullShare ((dat15 V c).after 0 t) from by
    unfold Dat.leavesExact; rw [liveAt15_0 t], after15_0]
  rw [show (dat15 V c).leavesExact 1 t = owns (c : Thread nD τ) (ms15_1 t) fullShare ((dat15 V c).after 1 t) from by
    unfold Dat.leavesExact; rw [liveAt15_1 t], after15_1]
  by_cases h0 : t.val % 4 = 0
  · have h3 : ¬t.val % 4 = 3 := by omega
    rw [Dat.leavesExact_idle (dat15 V c) 2 t (idleAt15_2 t (notLast15 t h3)) (noFlush15_2 t (notLast15 t h3))]
    rw [outsAt15_A V c t h0]
    unfold sout15_A; (try dsimp only)
    by_cases hz : t.val = 0
    · rw [PhiS15_castSucc V c t, PhiS15_zero V c _ _ hz, PhiA15_eq]
      iintro ⟨⟨⟨HS0, Hrb⟩, Hg⟩, Ho, ⟨%d0, H0⟩, ⟨%d1, H1⟩, ⟨%d2, H2⟩⟩
      iapply ((kernelRun15_A c (grid15.coords t) _ _ _ _ _ _ _ _ (isFirst15 t h0) (notLast15 t (by omega)) (iblk15 V c 0 t) (iblk15 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover15_A c _ _ _ _ _ _ _ _ _ _ _ _ _)
          iexact Hrb
        iexact Hg
      isplitl [Ho]; · iexact Ho
      isplitl [H0]; · iexact H0
      isplitl [H1]; · iexact H1
      iexists _; iexact H2
    · rw [PhiS15_castSucc V c t, PhiS15_pos V c _ _ hz]
      iintro ⟨⟨⟨HS0, Hrb⟩, Hg⟩, Ho, ⟨%d0, H0⟩, ⟨%d1, H1⟩, ⟨%d2, H2⟩⟩
      iapply ((kernelRun15_A c (grid15.coords t) _ _ _ _ _ _ _ _ (isFirst15 t h0) (notLast15 t (by omega)) (iblk15 V c 0 t) (iblk15 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover15_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat15 V c).leavesExact 2 t = owns (c : Thread nD τ) (ms15_2 t) fullShare ((dat15 V c).after 2 t) from by
        unfold Dat.leavesExact; rw [liveAt15_2 t (isLast15 t h3)], after15_2]
      rw [outsAt15_C V c t h0 h3]
      unfold out15_C sout15_C; (try dsimp only)
      rw [PhiS15_castSucc V c t, PhiS15_pos V c _ _ hz]
      iintro ⟨⟨⟨HS0, Hrb⟩, Hg⟩, Ho, ⟨%d0, H0⟩, ⟨%d1, H1⟩, ⟨%d2, H2⟩⟩
      iapply ((kernelRun15_C c (grid15.coords t) _ _ _ _ _ _ _ _ (notFirst15 t h0) (isLast15 t h3) (iblk15 V c 0 t) (iblk15 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover15_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover15_C c _ _ _ _ _ _ _ _ _ _ _ _ _ _)
    · rw [Dat.leavesExact_idle (dat15 V c) 2 t (idleAt15_2 t (notLast15 t h3)) (noFlush15_2 t (notLast15 t h3))]
      rw [outsAt15_B V c t h0 h3]
      unfold sout15_B; (try dsimp only)
      rw [PhiS15_castSucc V c t, PhiS15_pos V c _ _ hz]
      iintro ⟨⟨⟨HS0, Hrb⟩, Hg⟩, Ho, ⟨%d0, H0⟩, ⟨%d1, H1⟩, ⟨%d2, H2⟩⟩
      iapply ((kernelRun15_B c (grid15.coords t) _ _ _ _ _ _ _ _ (notFirst15 t h0) (notLast15 t h3) (iblk15 V c 0 t) (iblk15 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover15_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation15 (c : Dev nD) : BodyObligation (dat15 (F := F) V c) (defs₀ (F := F)) Variants.none () Set.univ := fun t => by
  rw [bigSep_W15, bigSep_W15]
  exact sound_body15 V c t

/-- What the region is entered with is the invariant before the first point. -/
theorem hin15 (c : Dev nD) : Pipeline.ΦA spec15 c ⊢ (dat15 V c).Φ 0 := by
  rw [show (dat15 V c).Φ 0 = PhiS15 V c 0 (Nat.zero_le _) from rfl, PhiS15_zero V c 0 _ rfl]
  try exact Idealize.SL.BI.Entails.refl _

/-- After the last point the invariant gives the class's back: the accumulator's contents are forgotten. -/
theorem hout15 (c : Dev nD) : (dat15 V c).Φ (Fin.last cfg15.N) ⊢ Pipeline.ΦA spec15 c := by
  have hN : cfg15.N = 16 := N_15
  rw [show (dat15 V c).Φ (Fin.last cfg15.N) = PhiS15 V c (Fin.last cfg15.N).val (Nat.le_of_lt_succ (Fin.last cfg15.N).isLt) from rfl,
    PhiS15_pos V c _ _ (by rw [Fin.val_last]; omega), PhiA15_eq]
  iintro ⟨⟨HS0, Hrb⟩, Hg⟩
  isplitl [HS0 Hrb]
  · isplitl [HS0]
    · iexists _; iexact HS0
    iexact Hrb
  iexact Hg

end Cert.Kernel.Hand

end
-- ==== Proof.RegK16a.lean ====
/- Laid out by: python3 scratch/layout_regions.py --template-region 1 --region 16 --program Kernel --parts a,b,c, --out-dir proof/Proof
   from the hand-written text of region 1 (RegKI1a.lean): the same text, the region's number and the program's namespace substituted. -/
/-
  Region 16 of @main (custom_call 16): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond16_0 (i : grid16.Coords) : Prop := (Scalar.cmpi .ne (Scalar.extui (Scalar.cmpi .eq (BitVec.ofNat 32 (i 1).val) 0#32)) 0#32) = 1#1
/-- It holds exactly at the points with t % 4 = 0. -/
theorem hcond16_0 : ∀ t : Fin cfg16.N, cond16_0 (grid16.coords t) ↔ t.val % 4 = 0 :=
  (by decide +kernel : ∀ t : Fin grid16.N, cond16_0 (grid16.coords t) ↔ t.val % 4 = 0)

/-- "k = 3": the second conditional's test. -/
abbrev cond16_1 (i : grid16.Coords) : Prop := k16_cond2 i = 1#1
/-- It holds exactly at the points with t % 4 = 3. -/
theorem hcond16_1 : ∀ t : Fin cfg16.N, cond16_1 (grid16.coords t) ↔ t.val % 4 = 3 :=
  (by decide +kernel : ∀ t : Fin grid16.N, cond16_1 (grid16.coords t) ↔ t.val % 4 = 3)

/-! ## Where the windows are idle, and where the output is written back -/

/-- The two input windows are never idle. -/
theorem liveAt16_0 : ∀ t : Fin cfg16.N, cfg16.idle 0 (grid16.coords t) = false := by decide +kernel
theorem liveAt16_1 : ∀ t : Fin cfg16.N, cfg16.idle 1 (grid16.coords t) = false := by decide +kernel
/-- Where k ≠ 3 the output window is idle (the body stores nothing into it) and is not written back. -/
theorem idleAt16_2 : ∀ t : Fin cfg16.N, ¬cond16_1 (grid16.coords t) → cfg16.idle 2 (grid16.coords t) = true := by decide +kernel
theorem noFlush16_2 : ∀ t : Fin cfg16.N, ¬cond16_1 (grid16.coords t) → (cfg16.win 2).flush t = false := by decide +kernel
/-- Where k = 3 it is live. -/
theorem liveAt16_2 : ∀ t : Fin cfg16.N, cond16_1 (grid16.coords t) → cfg16.idle 2 (grid16.coords t) = false := by decide +kernel

/-! ## The staging memrefs at a point, and the scratch -/

/-- One staging buffer of the output window, through which its contents are stated. -/
abbrev VO16_2 : View sig .tc .vmem S1024x512 .f32 := (Memref.whole cc16_stg2_0 : Memref sig .tc .vmem S1024x512 .f32).view
abbrev ms16_0 (t : Fin cfg16.N) : Memref sig .tc .vmem S1024x1024 .bf16 := win16_0.stage (cfg16.slots t 0)
abbrev hs16_0 (t : Fin cfg16.N) : (ms16_0 t).IsWhole := hstage16_0 ((cfg16.slots t 0).cast nbuf16_0)
abbrev ms16_1 (t : Fin cfg16.N) : Memref sig .tc .vmem S1024x512 .f32 := win16_1.stage (cfg16.slots t 1)
abbrev hs16_1 (t : Fin cfg16.N) : (ms16_1 t).IsWhole := hstage16_1 ((cfg16.slots t 1).cast nbuf16_1)
abbrev ms16_2 (t : Fin cfg16.N) : Memref sig .tc .vmem S1024x512 .f32 := win16_2.stage (cfg16.slots t 2)
abbrev hs16_2 (t : Fin cfg16.N) : (ms16_2 t).IsWhole := hstage16_2 ((cfg16.slots t 2).cast nbuf16_2)
/-- The accumulator: a whole scoped buffer of the kernel's own. -/
abbrev scM16 : Memref sig .tc .vmem S1024x512 .f32 := Memref.whole cc16_scratch0
abbrev VS16 : View sig .tc .vmem S1024x512 .f32 := scM16.view

/-- The other scoped buffers of the core, none of which this region touches. -/
abbrev restBut16 (c : Dev nD) : sProp 𝕄 :=
  Pipeline.scopedRestBut (Ix := Unit) (Name := ℕ) (U := UR sig nD τ) (Lvl := ℕ) (Val := Elt F) spec16 c [cc16_scratch0]

/-- The region's invariant before its first point: the accumulator at something, the other scoped buffers, the generator register. -/
theorem PhiA16_eq (c : Dev nD) :
    (Pipeline.ΦA spec16 c : sProp 𝕄)
      = iprop(iprop((∃ d, owns (c : Thread nD τ) scM16 fullShare d) ∗ restBut16 c) ∗ (∃ r, prngReg c r)) := by
  unfold Pipeline.ΦA; rw [scopedRest16_split]; simp only [scM16, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun16_A (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond16_0 i) (hc1 : ¬cond16_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc16__matmul_kernel i arg2 harg2 arg3 harg3 arg4 harg4 arg5 harg5) K } := by
  refine ⟨[], ?_, fun xi2 E K => ?run⟩
  case run =>
    simp only [cc16__matmul_kernel_eq_skeleton]; unfold cc16__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK16b.lean ====
/- Laid out by: python3 scratch/layout_regions.py --template-region 1 --region 16 --program Kernel --parts a,b,c, --out-dir proof/Proof
   from the hand-written text of region 1 (RegKI1b.lean): the same text, the region's number and the program's namespace substituted. -/
/-
  Region 16, case B (k = 1, 2): the body's run. Neither conditional is taken: the product of the two blocks is added to what
  the point before left in the accumulator; the output block is not touched.
-/
import proofs.«158944_j64613488001249_1_alg».proof.Proof.RegK16a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun16_B (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond16_0 i) (hc1 : ¬cond16_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc16__matmul_kernel i arg2 harg2 arg3 harg3 arg4 harg4 arg5 harg5) K } := by
  refine ⟨[], ?_, fun xi2 E K => ?run⟩
  case run =>
    simp only [cc16__matmul_kernel_eq_skeleton]; unfold cc16__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK16c.lean ====
/- Laid out by: python3 scratch/layout_regions.py --template-region 1 --region 16 --program Kernel --parts a,b,c, --out-dir proof/Proof
   from the hand-written text of region 1 (RegKI1c.lean): the same text, the region's number and the program's namespace substituted. -/
/-
  Region 16, case C (k = 3): the body's run. The product is added to the accumulator as in case B, and then the second
  conditional copies the accumulator over the whole output block.
-/
import proofs.«158944_j64613488001249_1_alg».proof.Proof.RegK16b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun16_C (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond16_0 i) (hc1 : cond16_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc16__matmul_kernel i arg2 harg2 arg3 harg3 arg4 harg4 arg5 harg5) K } := by
  refine ⟨?_, ?_, fun E K => ?run⟩
  case run =>
    simp only [cc16__matmul_kernel_eq_skeleton]; unfold cc16__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK16.lean ====
/- Laid out by: python3 scratch/layout_regions.py --template-region 1 --region 16 --program Kernel --parts a,b,c, --out-dir proof/Proof
   from the hand-written text of region 1 (RegKI1.lean): the same text, the region's number and the program's namespace substituted. -/
/-
  Region 16 of @main, entered from the buffer contents `V`: what its windows' blocks are, what each case of the body leaves in
  the accumulator and in the output block, the accumulator and the output block point by point (`outsAt16`: at k = 0 the
  accumulator restarts from zeros plus the product; at k = 1, 2, 3 it is the point before's plus the product; at k = 3 the
  output block is the accumulator), the region's invariant (the accumulator at `outsAt16`'s second component), the proof data,
  and the body's obligation at every point.
-/
import proofs.«158944_j64613488001249_1_alg».proof.Proof.RegK16c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- An input window's current staging buffer holds its block at every point, for any proof data whose array is `V`'s and
    whose body leaves the block in place. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-! ## What each case leaves -/

/-- Case A's stores into the accumulator cover it. -/
theorem scover16_A (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond16_0 i) (hc1 : ¬cond16_1 i)
    (x0 : Vec F S1024x1024 .bf16) (x1 : Vec F S1024x512 .f32) (y : S1024x512.Idx) :
    ∃ pc ∈ (kernelRun16_A c i arg2 harg2 arg3 harg3 arg4 harg4 arg5 harg5 hc0 hc1 x0 x1).2.1, y ∈ pc.1.set :=
  View.cover_of_tiledL (kernelRun16_A c i arg2 harg2 arg3 harg3 arg4 harg4 arg5 harg5 hc0 hc1 x0 x1).2.1 S1024x512.size (by sl_kernel_rfl) y
/-- What case A leaves in the accumulator. -/
noncomputable def sout16_A (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond16_0 i) (hc1 : ¬cond16_1 i)
    (x0 : Vec F S1024x1024 .bf16) (x1 : Vec F S1024x512 .f32) : Vec F S1024x512 .f32 :=
  VS16.read (Elt F) (VS16.writes (Elt F) VS16.junk (kernelRun16_A c i arg2 harg2 arg3 harg3 arg4 harg4 arg5 harg5 hc0 hc1 x0 x1).2.1)

/-- Case B's store into the accumulator covers it. -/
theorem scover16_B (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond16_0 i) (hc1 : ¬cond16_1 i)
    (x0 : Vec F S1024x1024 .bf16) (x1 : Vec F S1024x512 .f32) (xs0 : Vec F S1024x512 .f32) (y : S1024x512.Idx) :
    ∃ pc ∈ (kernelRun16_B c i arg2 harg2 arg3 harg3 arg4 harg4 arg5 harg5 hc0 hc1 x0 x1 xs0).2.1, y ∈ pc.1.set :=
  View.cover_of_tiledL (kernelRun16_B c i arg2 harg2 arg3 harg3 arg4 harg4 arg5 harg5 hc0 hc1 x0 x1 xs0).2.1 S1024x512.size (by sl_kernel_rfl) y
/-- What case B leaves in the accumulator, over what the point before left. -/
noncomputable def sout16_B (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond16_0 i) (hc1 : ¬cond16_1 i)
    (x0 : Vec F S1024x1024 .bf16) (x1 : Vec F S1024x512 .f32) (xs0 : Vec F S1024x512 .f32) : Vec F S1024x512 .f32 :=
  VS16.read (Elt F) (VS16.writes (Elt F) VS16.junk (kernelRun16_B c i arg2 harg2 arg3 harg3 arg4 harg4 arg5 harg5 hc0 hc1 x0 x1 xs0).2.1)

/-- Case C's store into the output block covers it, and so does its store into the accumulator. -/
theorem cover16_C (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond16_0 i) (hc1 : cond16_1 i)
    (x0 : Vec F S1024x1024 .bf16) (x1 : Vec F S1024x512 .f32) (xs0 : Vec F S1024x512 .f32) (y : S1024x512.Idx) :
    ∃ pc ∈ (kernelRun16_C c i arg2 harg2 arg3 harg3 arg4 harg4 arg5 harg5 hc0 hc1 x0 x1 xs0).1, y ∈ pc.1.set :=
  View.cover_of_tiledL (kernelRun16_C c i arg2 harg2 arg3 harg3 arg4 harg4 arg5 harg5 hc0 hc1 x0 x1 xs0).1 S1024x512.size (by sl_kernel_rfl) y
theorem scover16_C (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond16_0 i) (hc1 : cond16_1 i)
    (x0 : Vec F S1024x1024 .bf16) (x1 : Vec F S1024x512 .f32) (xs0 : Vec F S1024x512 .f32) (y : S1024x512.Idx) :
    ∃ pc ∈ (kernelRun16_C c i arg2 harg2 arg3 harg3 arg4 harg4 arg5 harg5 hc0 hc1 x0 x1 xs0).2.1, y ∈ pc.1.set :=
  View.cover_of_tiledL (kernelRun16_C c i arg2 harg2 arg3 harg3 arg4 harg4 arg5 harg5 hc0 hc1 x0 x1 xs0).2.1 S1024x512.size (by sl_kernel_rfl) y
/-- What case C leaves in the output block, and in the accumulator. -/
noncomputable def out16_C (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond16_0 i) (hc1 : cond16_1 i)
    (x0 : Vec F S1024x1024 .bf16) (x1 : Vec F S1024x512 .f32) (xs0 : Vec F S1024x512 .f32) : Vec F S1024x512 .f32 :=
  VO16_2.read (Elt F) (VO16_2.writes (Elt F) VO16_2.junk (kernelRun16_C c i arg2 harg2 arg3 harg3 arg4 harg4 arg5 harg5 hc0 hc1 x0 x1 xs0).1)
noncomputable def sout16_C (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond16_0 i) (hc1 : cond16_1 i)
    (x0 : Vec F S1024x1024 .bf16) (x1 : Vec F S1024x512 .f32) (xs0 : Vec F S1024x512 .f32) : Vec F S1024x512 .f32 :=
  VS16.read (Elt F) (VS16.writes (Elt F) VS16.junk (kernelRun16_C c i arg2 harg2 arg3 harg3 arg4 harg4 arg5 harg5 hc0 hc1 x0 x1 xs0).2.1)

/-- Where the output block is idle nothing consults what it holds: a placeholder. -/
noncomputable def outIdle16 : Vec F S1024x512 .f32 := VO16_2.read (Elt F) (VO16_2.writes (Elt F) VO16_2.junk [])

/-! ## The conditions at a point, from t % 4 -/

theorem isFirst16 (t : Fin cfg16.N) (h : t.val % 4 = 0) : cond16_0 (grid16.coords t) := (hcond16_0 t).mpr h
theorem notFirst16 (t : Fin cfg16.N) (h : ¬t.val % 4 = 0) : ¬cond16_0 (grid16.coords t) := fun hc => h ((hcond16_0 t).mp hc)
theorem isLast16 (t : Fin cfg16.N) (h : t.val % 4 = 3) : cond16_1 (grid16.coords t) := (hcond16_1 t).mpr h
theorem notLast16 (t : Fin cfg16.N) (h : ¬t.val % 4 = 3) : ¬cond16_1 (grid16.coords t) := fun hc => h ((hcond16_1 t).mp hc)

/-! ## The accumulator and the output block, point by point -/

/-- After the body at position `n`: (the output block's buffer, the accumulator). -/
noncomputable def outsAt16 (c : Dev nD) : (n : ℕ) → n < cfg16.N → Vec F S1024x512 .f32 × Vec F S1024x512 .f32
  | 0, hn => (outIdle16, sout16_A c (grid16.coords ⟨0, hn⟩) (ms16_0 ⟨0, hn⟩) (hs16_0 ⟨0, hn⟩) (ms16_1 ⟨0, hn⟩) (hs16_1 ⟨0, hn⟩) (ms16_2 ⟨0, hn⟩) (hs16_2 ⟨0, hn⟩) scM16 (Memref.isWhole_whole _) (isFirst16 ⟨0, hn⟩ (Nat.zero_mod _)) (notLast16 ⟨0, hn⟩ (by simp)) (iblk16 V c 0 ⟨0, hn⟩) (iblk16 V c 1 ⟨0, hn⟩))
  | n + 1, hn =>
    if h0 : (n + 1) % 4 = 0 then
      (outIdle16, sout16_A c (grid16.coords ⟨n + 1, hn⟩) (ms16_0 ⟨n + 1, hn⟩) (hs16_0 ⟨n + 1, hn⟩) (ms16_1 ⟨n + 1, hn⟩) (hs16_1 ⟨n + 1, hn⟩) (ms16_2 ⟨n + 1, hn⟩) (hs16_2 ⟨n + 1, hn⟩) scM16 (Memref.isWhole_whole _) (isFirst16 ⟨n + 1, hn⟩ h0) (notLast16 ⟨n + 1, hn⟩ (by show ¬(n + 1) % 4 = 3; omega)) (iblk16 V c 0 ⟨n + 1, hn⟩) (iblk16 V c 1 ⟨n + 1, hn⟩))
    else if h3 : (n + 1) % 4 = 3 then
      (out16_C c (grid16.coords ⟨n + 1, hn⟩) (ms16_0 ⟨n + 1, hn⟩) (hs16_0 ⟨n + 1, hn⟩) (ms16_1 ⟨n + 1, hn⟩) (hs16_1 ⟨n + 1, hn⟩) (ms16_2 ⟨n + 1, hn⟩) (hs16_2 ⟨n + 1, hn⟩) scM16 (Memref.isWhole_whole _) (notFirst16 ⟨n + 1, hn⟩ h0) (isLast16 ⟨n + 1, hn⟩ h3) (iblk16 V c 0 ⟨n + 1, hn⟩) (iblk16 V c 1 ⟨n + 1, hn⟩) (outsAt16 c n (Nat.lt_of_succ_lt hn)).2,
       sout16_C c (grid16.coords ⟨n + 1, hn⟩) (ms16_0 ⟨n + 1, hn⟩) (hs16_0 ⟨n + 1, hn⟩) (ms16_1 ⟨n + 1, hn⟩) (hs16_1 ⟨n + 1, hn⟩) (ms16_2 ⟨n + 1, hn⟩) (hs16_2 ⟨n + 1, hn⟩) scM16 (Memref.isWhole_whole _) (notFirst16 ⟨n + 1, hn⟩ h0) (isLast16 ⟨n + 1, hn⟩ h3) (iblk16 V c 0 ⟨n + 1, hn⟩) (iblk16 V c 1 ⟨n + 1, hn⟩) (outsAt16 c n (Nat.lt_of_succ_lt hn)).2)
    else
      (outIdle16, sout16_B c (grid16.coords ⟨n + 1, hn⟩) (ms16_0 ⟨n + 1, hn⟩) (hs16_0 ⟨n + 1, hn⟩) (ms16_1 ⟨n + 1, hn⟩) (hs16_1 ⟨n + 1, hn⟩) (ms16_2 ⟨n + 1, hn⟩) (hs16_2 ⟨n + 1, hn⟩) scM16 (Memref.isWhole_whole _) (notFirst16 ⟨n + 1, hn⟩ h0) (notLast16 ⟨n + 1, hn⟩ h3) (iblk16 V c 0 ⟨n + 1, hn⟩) (iblk16 V c 1 ⟨n + 1, hn⟩) (outsAt16 c n (Nat.lt_of_succ_lt hn)).2)

/-- `outsAt16` at a point with k = 0. -/
theorem outsAt16_A (c : Dev nD) (t : Fin cfg16.N) (h0 : t.val % 4 = 0) :
    outsAt16 V c t.val t.isLt = (outIdle16, sout16_A c (grid16.coords t) (ms16_0 t) (hs16_0 t) (ms16_1 t) (hs16_1 t) (ms16_2 t) (hs16_2 t) scM16 (Memref.isWhole_whole _) (isFirst16 t h0) (notLast16 t (by omega)) (iblk16 V c 0 t) (iblk16 V c 1 t)) := by
  obtain ⟨n, hn⟩ := t
  cases n with
  | zero => rfl
  | succ n => exact (dif_pos h0).trans rfl

/-- `outsAt16` at a point with k = 1, 2: over what the point before left. -/
theorem outsAt16_B (c : Dev nD) (t : Fin cfg16.N) (h0 : ¬t.val % 4 = 0) (h3 : ¬t.val % 4 = 3) :
    outsAt16 V c t.val t.isLt = (outIdle16, sout16_B c (grid16.coords t) (ms16_0 t) (hs16_0 t) (ms16_1 t) (hs16_1 t) (ms16_2 t) (hs16_2 t) scM16 (Memref.isWhole_whole _) (notFirst16 t h0) (notLast16 t h3) (iblk16 V c 0 t) (iblk16 V c 1 t)
      (outsAt16 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt16` at a point with k = 3. -/
theorem outsAt16_C (c : Dev nD) (t : Fin cfg16.N) (h0 : ¬t.val % 4 = 0) (h3 : t.val % 4 = 3) :
    outsAt16 V c t.val t.isLt = (out16_C c (grid16.coords t) (ms16_0 t) (hs16_0 t) (ms16_1 t) (hs16_1 t) (ms16_2 t) (hs16_2 t) scM16 (Memref.isWhole_whole _) (notFirst16 t h0) (isLast16 t h3) (iblk16 V c 0 t) (iblk16 V c 1 t)
        (outsAt16 V c (t.val - 1) (Nat.lt_of_le_of_lt (Nat.sub_le _ _) t.isLt)).2,
      sout16_C c (grid16.coords t) (ms16_0 t) (hs16_0 t) (ms16_1 t) (hs16_1 t) (ms16_2 t) (hs16_2 t) scM16 (Memref.isWhole_whole _) (notFirst16 t h0) (isLast16 t h3) (iblk16 V c 0 t) (iblk16 V c 1 t)
        (outsAt16 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS16 (c : Dev nD) : (n : ℕ) → n ≤ cfg16.N → sProp 𝕄
  | 0, _ => Pipeline.ΦA spec16 c
  | n + 1, hn => iprop(iprop(owns (c : Thread nD τ) scM16 fullShare ((outsAt16 V c n hn).2) ∗ restBut16 c) ∗ (∃ r, prngReg c r))

theorem PhiS16_zero (c : Dev nD) (n : ℕ) (h : n ≤ cfg16.N) (hz : n = 0) : PhiS16 V c n h = Pipeline.ΦA spec16 c := by
  subst hz; rfl
theorem PhiS16_succ (c : Dev nD) (n : ℕ) (hn : n < cfg16.N) :
    PhiS16 V c (n + 1) hn = iprop(iprop(owns (c : Thread nD τ) scM16 fullShare ((outsAt16 V c n hn).2) ∗ restBut16 c) ∗ (∃ r, prngReg c r)) := rfl
theorem PhiS16_pos (c : Dev nD) (n : ℕ) (h : n ≤ cfg16.N) (hz : n ≠ 0) :
    PhiS16 V c n h = iprop(iprop(owns (c : Thread nD τ) scM16 fullShare ((outsAt16 V c (n - 1) (by omega)).2) ∗ restBut16 c) ∗ (∃ r, prngReg c r)) := by
  cases n with
  | zero => exact absurd rfl hz
  | succ n => rfl

/-! ## The proof data -/

/-- The region's proof data on core `c`: the arrays as the region finds them; after the body at point `t` each input's
    buffer at its block and the output's at `outsAt16`'s first component; the invariant `PhiS16`; nothing owed; full shares. -/
noncomputable def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => (outsAt16 V c t.val t.isLt).1
  Φ t := PhiS16 V c t.val (Nat.le_of_lt_succ t.isLt)
  q _ := fullShare
  owed _ := 0

theorem A_eq16 (c : Dev nD) (w : Fin cfg16.W) : (dat16 V c).A w = V c (Pipeline.arrRef spec16 w) := by
  dsimp only [dat16]
theorem PhiS16_castSucc (c : Dev nD) (t : Fin cfg16.N) :
    (dat16 V c).Φ t.castSucc = PhiS16 V c t.val (Nat.le_of_lt t.isLt) := by
  dsimp only [dat16]; simp only [Fin.coe_castSucc]
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = (outsAt16 V c t.val t.isLt).1 := by dsimp only [dat16]
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d

/-! ## The body's obligation -/

noncomputable def bodyPre16 (c : Dev nD) (t : Fin cfg16.N) : sProp 𝕄 :=
  iprop((dat16 V c).Φ t.castSucc ∗ (dat16 V c).owesAt () t.castSucc
    ∗ (∃ d, owns (c : Thread nD τ) (ms16_0 t) fullShare ((dat16 V c).before 0 t d))
    ∗ (∃ d, owns (c : Thread nD τ) (ms16_1 t) fullShare ((dat16 V c).before 1 t d))
    ∗ (∃ d, owns (c : Thread nD τ) (ms16_2 t) fullShare ((dat16 V c).before 2 t d)))

noncomputable def bodyPost16 (c : Dev nD) (t : Fin cfg16.N) : sProp 𝕄 :=
  iprop((dat16 V c).Φ t.succ ∗ (dat16 V c).owesAt () t.succ
    ∗ (dat16 V c).leavesExact 0 t
    ∗ (dat16 V c).leavesExact 1 t
    ∗ (dat16 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1]
  rw [show (dat16 V c).owesAt () t.succ = (dat16 V c).owesAt () t.castSucc from rfl]
  rw [show (dat16 V c).Φ t.succ = PhiS16 V c (t.val + 1) t.isLt from rfl, PhiS16_succ]
  rw [show (dat16 V c).leavesExact 0 t = owns (c : Thread nD τ) (ms16_0 t) fullShare ((dat16 V c).after 0 t) from by
    unfold Dat.leavesExact; rw [liveAt16_0 t], after16_0]
  rw [show (dat16 V c).leavesExact 1 t = owns (c : Thread nD τ) (ms16_1 t) fullShare ((dat16 V c).after 1 t) from by
    unfold Dat.leavesExact; rw [liveAt16_1 t], after16_1]
  by_cases h0 : t.val % 4 = 0
  · have h3 : ¬t.val % 4 = 3 := by omega
    rw [Dat.leavesExact_idle (dat16 V c) 2 t (idleAt16_2 t (notLast16 t h3)) (noFlush16_2 t (notLast16 t h3))]
    rw [outsAt16_A V c t h0]
    unfold sout16_A; (try dsimp only)
    by_cases hz : t.val = 0
    · rw [PhiS16_castSucc V c t, PhiS16_zero V c _ _ hz, PhiA16_eq]
      iintro ⟨⟨⟨HS0, Hrb⟩, Hg⟩, Ho, ⟨%d0, H0⟩, ⟨%d1, H1⟩, ⟨%d2, H2⟩⟩
      iapply ((kernelRun16_A c (grid16.coords t) _ _ _ _ _ _ _ _ (isFirst16 t h0) (notLast16 t (by omega)) (iblk16 V c 0 t) (iblk16 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover16_A c _ _ _ _ _ _ _ _ _ _ _ _ _)
          iexact Hrb
        iexact Hg
      isplitl [Ho]; · iexact Ho
      isplitl [H0]; · iexact H0
      isplitl [H1]; · iexact H1
      iexists _; iexact H2
    · rw [PhiS16_castSucc V c t, PhiS16_pos V c _ _ hz]
      iintro ⟨⟨⟨HS0, Hrb⟩, Hg⟩, Ho, ⟨%d0, H0⟩, ⟨%d1, H1⟩, ⟨%d2, H2⟩⟩
      iapply ((kernelRun16_A c (grid16.coords t) _ _ _ _ _ _ _ _ (isFirst16 t h0) (notLast16 t (by omega)) (iblk16 V c 0 t) (iblk16 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover16_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat16 V c).leavesExact 2 t = owns (c : Thread nD τ) (ms16_2 t) fullShare ((dat16 V c).after 2 t) from by
        unfold Dat.leavesExact; rw [liveAt16_2 t (isLast16 t h3)], after16_2]
      rw [outsAt16_C V c t h0 h3]
      unfold out16_C sout16_C; (try dsimp only)
      rw [PhiS16_castSucc V c t, PhiS16_pos V c _ _ hz]
      iintro ⟨⟨⟨HS0, Hrb⟩, Hg⟩, Ho, ⟨%d0, H0⟩, ⟨%d1, H1⟩, ⟨%d2, H2⟩⟩
      iapply ((kernelRun16_C c (grid16.coords t) _ _ _ _ _ _ _ _ (notFirst16 t h0) (isLast16 t h3) (iblk16 V c 0 t) (iblk16 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover16_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover16_C c _ _ _ _ _ _ _ _ _ _ _ _ _ _)
    · rw [Dat.leavesExact_idle (dat16 V c) 2 t (idleAt16_2 t (notLast16 t h3)) (noFlush16_2 t (notLast16 t h3))]
      rw [outsAt16_B V c t h0 h3]
      unfold sout16_B; (try dsimp only)
      rw [PhiS16_castSucc V c t, PhiS16_pos V c _ _ hz]
      iintro ⟨⟨⟨HS0, Hrb⟩, Hg⟩, Ho, ⟨%d0, H0⟩, ⟨%d1, H1⟩, ⟨%d2, H2⟩⟩
      iapply ((kernelRun16_B c (grid16.coords t) _ _ _ _ _ _ _ _ (notFirst16 t h0) (notLast16 t h3) (iblk16 V c 0 t) (iblk16 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover16_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation16 (c : Dev nD) : BodyObligation (dat16 (F := F) V c) (defs₀ (F := F)) Variants.none () Set.univ := fun t => by
  rw [bigSep_W16, bigSep_W16]
  exact sound_body16 V c t

/-- What the region is entered with is the invariant before the first point. -/
theorem hin16 (c : Dev nD) : Pipeline.ΦA spec16 c ⊢ (dat16 V c).Φ 0 := by
  rw [show (dat16 V c).Φ 0 = PhiS16 V c 0 (Nat.zero_le _) from rfl, PhiS16_zero V c 0 _ rfl]
  try exact Idealize.SL.BI.Entails.refl _

/-- After the last point the invariant gives the class's back: the accumulator's contents are forgotten. -/
theorem hout16 (c : Dev nD) : (dat16 V c).Φ (Fin.last cfg16.N) ⊢ Pipeline.ΦA spec16 c := by
  have hN : cfg16.N = 16 := N_16
  rw [show (dat16 V c).Φ (Fin.last cfg16.N) = PhiS16 V c (Fin.last cfg16.N).val (Nat.le_of_lt_succ (Fin.last cfg16.N).isLt) from rfl,
    PhiS16_pos V c _ _ (by rw [Fin.val_last]; omega), PhiA16_eq]
  iintro ⟨⟨HS0, Hrb⟩, Hg⟩
  isplitl [HS0 Hrb]
  · isplitl [HS0]
    · iexists _; iexact HS0
    iexact Hrb
  iexact Hg

end Cert.Kernel.Hand

end
-- ==== Proof.RegK17a.lean ====
/- Laid out by: python3 scratch/layout_grid41.py --template-region 0 --region 17 --program Kernel --parts a, --shapes S1024x128=S1024x512,S128x512=S512x512
   from the hand-written text of region 0 (RegKI0a.lean): the same text, the region's number, block shapes and the program's namespace substituted. -/
/- The region of Kernel's @main that runs `cc17__matmul_kernel` (pipeline `cfg17`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond17_0 (i : grid17.Coords) : Prop :=
  (Scalar.cmpi .ne (Scalar.extui (Scalar.cmpi .eq (BitVec.ofNat 32 (i 1).val) 0#32)) 0#32) = 1#1
/-- True at every point: the reduction axis has one step. -/
theorem hcond17_0 : ∀ t : Fin cfg17.N, cond17_0 (grid17.coords t) :=
  (by decide +kernel : ∀ t : Fin grid17.N, cond17_0 (grid17.coords t))

/-- "This is the last reduction step" (the guard of the copy to the output block). -/
abbrev cond17_1 (i : grid17.Coords) : Prop := k17_cond2 i = 1#1
/-- True at every point, for the same reason. -/
theorem hcond17_1 : ∀ t : Fin cfg17.N, cond17_1 (grid17.coords t) :=
  (by decide +kernel : ∀ t : Fin grid17.N, cond17_1 (grid17.coords t))

/-! ## No window is idle anywhere -/

theorem liveAt17_0 : ∀ t : Fin cfg17.N, cfg17.idle 0 (grid17.coords t) = false := by decide +kernel
theorem liveAt17_1 : ∀ t : Fin cfg17.N, cfg17.idle 1 (grid17.coords t) = false := by decide +kernel
/-- The output window is stored at every point (the copy's guard holds everywhere). -/
theorem liveAt17_2 : ∀ t : Fin cfg17.N, cfg17.idle 2 (grid17.coords t) = false := by decide +kernel

/-! ## The memrefs the body is called on -/

/-- One staging buffer of the output window, through which its contents are stated (any whole view of the shape reads the
    same pieces back the same way). -/
abbrev VO17_2 : View sig .tc .vmem S1024x512 .f32 := (Memref.whole cc17_stg2_0 : Memref sig .tc .vmem S1024x512 .f32).view
/-- Each window's current staging memref at point `t`, spelt as the pipeline passes it, with its wholeness. -/
abbrev ms17_0 (t : Fin cfg17.N) : Memref sig .tc .vmem S1024x512 .f32 := win17_0.stage (cfg17.slots t 0)
abbrev hs17_0 (t : Fin cfg17.N) : (ms17_0 t).IsWhole := hstage17_0 ((cfg17.slots t 0).cast nbuf17_0)
abbrev ms17_1 (t : Fin cfg17.N) : Memref sig .tc .vmem S512x512 .bf16 := win17_1.stage (cfg17.slots t 1)
abbrev hs17_1 (t : Fin cfg17.N) : (ms17_1 t).IsWhole := hstage17_1 ((cfg17.slots t 1).cast nbuf17_1)
abbrev ms17_2 (t : Fin cfg17.N) : Memref sig .tc .vmem S1024x512 .f32 := win17_2.stage (cfg17.slots t 2)
abbrev hs17_2 (t : Fin cfg17.N) : (ms17_2 t).IsWhole := hstage17_2 ((cfg17.slots t 2).cast nbuf17_2)
/-- The accumulator: a whole scoped buffer of the kernel's own, passed beside the windows. -/
abbrev scM17_0 : Memref sig .tc .vmem S1024x512 .f32 := Memref.whole cc17_scratch0
abbrev VS17_0 : View sig .tc .vmem S1024x512 .f32 := scM17_0.view

/-- The region invariant with the accumulator taken out of the scoped rest: the accumulator owned at some contents, every
    other scoped buffer unopened, and the generator register. -/
theorem PhiA17_eq (c : Dev nD) :
    (Pipeline.ΦA spec17 c : sProp 𝕄)
      = iprop(iprop(iprop((∃ d, owns (c : Thread nD τ) scM17_0 fullShare d))
            ∗ Pipeline.scopedRestBut (Ix := Unit) (Name := ℕ) (U := UR sig nD τ) (Lvl := ℕ) (Val := Elt F) spec17 c [cc17_scratch0])
          ∗ (∃ r, prngReg c r)) := by
  unfold Pipeline.ΦA; rw [scopedRest17_split]; simp only [scM17_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun17 (c : Dev nD) (i : grid17.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond17_0 i) (hlast : cond17_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc17__matmul_kernel i arg2 harg2 arg3 harg3 arg4 harg4 arg5 harg5) K } := by
  refine ⟨?_, ?_, fun E K => ?run⟩
  case run =>
    simp only [cc17__matmul_kernel_eq_skeleton]; unfold cc17__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.Kernel.Hand

end
-- ==== Proof.RegK17.lean ====
/- Laid out by: python3 scratch/layout_grid41.py --template-region 0 --region 17 --program Kernel --parts a, --shapes S1024x128=S1024x512,S128x512=S512x512
   from the hand-written text of region 0 (RegKI0.lean): the same text, the region's number, block shapes and the program's namespace substituted. -/
/- The region of Kernel's @main that runs `cc17__matmul_kernel` (pipeline `cfg17`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegK17a
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-! ## What the case leaves, as pieces read back -/

/-- The output's pieces tile its block (one whole-block store). -/
theorem cover17_2 (c : Dev nD) (i : grid17.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond17_0 i) (hlast : cond17_1 i) (xa : Vec F S1024x512 .f32) (xb : Vec F S512x512 .bf16) (y : S1024x512.Idx) :
    ∃ pc ∈ (kernelRun17 c i arg2 harg2 arg3 harg3 arg4 harg4 arg5 harg5 hfirst hlast xa xb).1, y ∈ pc.1.set :=
  View.cover_of_tiledL (kernelRun17 c i arg2 harg2 arg3 harg3 arg4 harg4 arg5 harg5 hfirst hlast xa xb).1 S1024x512.size (by sl_kernel_rfl) y

/-- What the case leaves in the output's staging buffer: its pieces read back over junk. -/
noncomputable def out17_2 (c : Dev nD) (i : grid17.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond17_0 i) (hlast : cond17_1 i) (xa : Vec F S1024x512 .f32) (xb : Vec F S512x512 .bf16) : Vec F S1024x512 .f32 :=
  VO17_2.read (Elt F) (VO17_2.writes (Elt F) VO17_2.junk (kernelRun17 c i arg2 harg2 arg3 harg3 arg4 harg4 arg5 harg5 hfirst hlast xa xb).1)

/-- What the case leaves in the accumulator: its pieces read back over junk. -/
noncomputable def sout17_0 (c : Dev nD) (i : grid17.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond17_0 i) (hlast : cond17_1 i) (xa : Vec F S1024x512 .f32) (xb : Vec F S512x512 .bf16) : Vec F S1024x512 .f32 :=
  VS17_0.read (Elt F) (VS17_0.writes (Elt F) VS17_0.junk (kernelRun17 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout17_0_eq (c : Dev nD) (i : grid17.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond17_0 i) (hlast : cond17_1 i) (xa : Vec F S1024x512 .f32) (xb : Vec F S512x512 .bf16) :
    sout17_0 c i arg2 harg2 arg3 harg3 arg4 harg4 arg5 harg5 hfirst hlast xa xb = k17_pay2 xa xb (k17_pay1 (F := F)) := by
  unfold sout17_0
  rw [View.read_writes_junk_eq_canon]
  unfold kernelRun17
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out17_2_eq (c : Dev nD) (i : grid17.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond17_0 i) (hlast : cond17_1 i) (xa : Vec F S1024x512 .f32) (xb : Vec F S512x512 .bf16) :
    out17_2 c i arg2 harg2 arg3 harg3 arg4 harg4 arg5 harg5 hfirst hlast xa xb = k17_pay2 xa xb (k17_pay1 (F := F)) := by
  unfold out17_2
  rw [View.read_writes_junk_eq_canon]
  unfold kernelRun17
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt17 (c : Dev nD) (n : ℕ) (hn : n < cfg17.N) : Vec F S1024x512 .f32 × Vec F S1024x512 .f32 :=
  (out17_2 c (grid17.coords ⟨n, hn⟩) (ms17_0 ⟨n, hn⟩) (hs17_0 ⟨n, hn⟩) (ms17_1 ⟨n, hn⟩) (hs17_1 ⟨n, hn⟩) (ms17_2 ⟨n, hn⟩) (hs17_2 ⟨n, hn⟩) scM17_0 (Memref.isWhole_whole _)
      (hcond17_0 ⟨n, hn⟩) (hcond17_1 ⟨n, hn⟩) (iblk17 V c 0 ⟨n, hn⟩) (iblk17 V c 1 ⟨n, hn⟩),
   sout17_0 c (grid17.coords ⟨n, hn⟩) (ms17_0 ⟨n, hn⟩) (hs17_0 ⟨n, hn⟩) (ms17_1 ⟨n, hn⟩) (hs17_1 ⟨n, hn⟩) (ms17_2 ⟨n, hn⟩) (hs17_2 ⟨n, hn⟩) scM17_0 (Memref.isWhole_whole _)
      (hcond17_0 ⟨n, hn⟩) (hcond17_1 ⟨n, hn⟩) (iblk17 V c 0 ⟨n, hn⟩) (iblk17 V c 1 ⟨n, hn⟩))

/-- Every point is a first reduction step: the accumulator after it is one product onto zero. -/
theorem outsAt17_first (c : Dev nD) (t : Fin cfg17.N) :
    (outsAt17 V c t.val t.isLt).2 = k17_pay2 (iblk17 V c 0 t) (iblk17 V c 1 t) (k17_pay1 (F := F)) := by
  obtain ⟨n, hn⟩ := t
  unfold outsAt17
  dsimp only
  rw [sout17_0_eq]

/-- Every point is a last reduction step: the output block after it is the accumulator. -/
theorem outsAt17_last (c : Dev nD) (t : Fin cfg17.N) :
    (outsAt17 V c t.val t.isLt).1 = (outsAt17 V c t.val t.isLt).2 := by
  obtain ⟨n, hn⟩ := t
  unfold outsAt17
  dsimp only
  rw [out17_2_eq, sout17_0_eq]

/-! ## The pipeline's proof data -/

/-- The proof data of the pipeline on core `c`: the arrays as the region finds them; after the body at point `t` each input's
    buffer at its block and the output's at `outsAt17`'s first component; the invariant the same at every point; nothing owed;
    full shares. -/
noncomputable def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => (outsAt17 V c t.val t.isLt).1
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = (outsAt17 V c t.val t.isLt).1 := by dsimp only [dat17]

/-- An input's current staging buffer holds its block at every point, fetched there or not: where it is not fetched its block
    index has not moved since the point before, and the body left the block in place. -/
theorem before17_0 (c : Dev nD) (t : Fin cfg17.N) (d) : (dat17 V c).before 0 t d = iblk17 V c 0 t :=
  ((dat17 V c).before_in_eq_fetched 0 rfl (fun _ => rfl) (fun _ _ _ => rfl)
      (fun t => by rw [after17_0]; unfold Dat.blockOf iblk17; rw [A_eq17]; try rfl) t d).trans
    (by unfold Dat.fetched Dat.blockOf iblk17; rw [A_eq17]; try rfl)
theorem before17_1 (c : Dev nD) (t : Fin cfg17.N) (d) : (dat17 V c).before 1 t d = iblk17 V c 1 t :=
  ((dat17 V c).before_in_eq_fetched 1 rfl (fun _ => rfl) (fun _ _ _ => rfl)
      (fun t => by rw [after17_1]; unfold Dat.blockOf iblk17; rw [A_eq17]; try rfl) t d).trans
    (by unfold Dat.fetched Dat.blockOf iblk17; rw [A_eq17]; try rfl)

/-! ## The body obligation, at a generic point -/

/-- What the body is called with at point `t`, the windows one by one, -/
noncomputable def bodyPre17 (c : Dev nD) (t : Fin cfg17.N) : sProp 𝕄 :=
  iprop((dat17 V c).Φ t.castSucc ∗ (dat17 V c).owesAt () t.castSucc
    ∗ (∃ d, owns (c : Thread nD τ) (ms17_0 t) fullShare ((dat17 V c).before 0 t d))
    ∗ (∃ d, owns (c : Thread nD τ) (ms17_1 t) fullShare ((dat17 V c).before 1 t d))
    ∗ (∃ d, owns (c : Thread nD τ) (ms17_2 t) fullShare ((dat17 V c).before 2 t d)))

/-- and what it returns. -/
noncomputable def bodyPost17 (c : Dev nD) (t : Fin cfg17.N) : sProp 𝕄 :=
  iprop((dat17 V c).Φ t.succ ∗ (dat17 V c).owesAt () t.succ
    ∗ (dat17 V c).leavesExact 0 t
    ∗ (dat17 V c).leavesExact 1 t
    ∗ (dat17 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1]
  rw [show (dat17 V c).owesAt () t.succ = (dat17 V c).owesAt () t.castSucc from rfl,
    show (dat17 V c).Φ t.succ = Pipeline.ΦA spec17 c from rfl, show (dat17 V c).Φ t.castSucc = Pipeline.ΦA spec17 c from rfl, PhiA17_eq]
  rw [show (dat17 V c).leavesExact 0 t = owns (c : Thread nD τ) (ms17_0 t) fullShare ((dat17 V c).after 0 t) from by
      unfold Dat.leavesExact; rw [liveAt17_0 t], after17_0]
  rw [show (dat17 V c).leavesExact 1 t = owns (c : Thread nD τ) (ms17_1 t) fullShare ((dat17 V c).after 1 t) from by
      unfold Dat.leavesExact; rw [liveAt17_1 t], after17_1]
  rw [show (dat17 V c).leavesExact 2 t = owns (c : Thread nD τ) (ms17_2 t) fullShare ((dat17 V c).after 2 t) from by
      unfold Dat.leavesExact; rw [liveAt17_2 t], after17_2]
  unfold outsAt17 out17_2; (try dsimp only)
  iintro ⟨⟨⟨Hacc, Hrest⟩, Hgen⟩, Howe, ⟨%da, Ha⟩, ⟨%db, Hb⟩, ⟨%dO, Hout⟩⟩
  iapply ((kernelRun17 c (grid17.coords t) _ _ _ _ _ _ _ _ (hcond17_0 t) (hcond17_1 t) (iblk17 V c 0 t) (iblk17 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover17_2 c _ _ _ _ _ _ _ _ _ _ _ _ _)

/-- The library's body obligation, at every point. -/
theorem body_obligation17 (c : Dev nD) : BodyObligation (dat17 (F := F) V c) (defs₀ (F := F)) Variants.none () Set.univ := fun t => by
  rw [bigSep_W17, bigSep_W17]
  exact sound_body17 V c t

/-- What the launch hands the region is the invariant before the first point, -/
theorem hin17 (c : Dev nD) : Pipeline.ΦA spec17 c ⊢ (dat17 V c).Φ 0 := Idealize.SL.BI.Entails.refl _

/-- and the invariant after the last point is what the launch takes back. -/
theorem hout17 (c : Dev nD) : (dat17 V c).Φ (Fin.last cfg17.N) ⊢ Pipeline.ΦA spec17 c := Idealize.SL.BI.Entails.refl _

end Cert.Kernel.Hand

end
-- ==== Proof.RegK18a.lean ====
/- Laid out by: python3 scratch/layout_regions.py --template-region 1 --region 18 --program Kernel --parts a,b,c, --out-dir proof/Proof
   from the hand-written text of region 1 (RegKI1a.lean): the same text, the region's number and the program's namespace substituted. -/
/-
  Region 18 of @main (custom_call 18): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond18_0 (i : grid18.Coords) : Prop := (Scalar.cmpi .ne (Scalar.extui (Scalar.cmpi .eq (BitVec.ofNat 32 (i 1).val) 0#32)) 0#32) = 1#1
/-- It holds exactly at the points with t % 4 = 0. -/
theorem hcond18_0 : ∀ t : Fin cfg18.N, cond18_0 (grid18.coords t) ↔ t.val % 4 = 0 :=
  (by decide +kernel : ∀ t : Fin grid18.N, cond18_0 (grid18.coords t) ↔ t.val % 4 = 0)

/-- "k = 3": the second conditional's test. -/
abbrev cond18_1 (i : grid18.Coords) : Prop := k18_cond2 i = 1#1
/-- It holds exactly at the points with t % 4 = 3. -/
theorem hcond18_1 : ∀ t : Fin cfg18.N, cond18_1 (grid18.coords t) ↔ t.val % 4 = 3 :=
  (by decide +kernel : ∀ t : Fin grid18.N, cond18_1 (grid18.coords t) ↔ t.val % 4 = 3)

/-! ## Where the windows are idle, and where the output is written back -/

/-- The two input windows are never idle. -/
theorem liveAt18_0 : ∀ t : Fin cfg18.N, cfg18.idle 0 (grid18.coords t) = false := by decide +kernel
theorem liveAt18_1 : ∀ t : Fin cfg18.N, cfg18.idle 1 (grid18.coords t) = false := by decide +kernel
/-- Where k ≠ 3 the output window is idle (the body stores nothing into it) and is not written back. -/
theorem idleAt18_2 : ∀ t : Fin cfg18.N, ¬cond18_1 (grid18.coords t) → cfg18.idle 2 (grid18.coords t) = true := by decide +kernel
theorem noFlush18_2 : ∀ t : Fin cfg18.N, ¬cond18_1 (grid18.coords t) → (cfg18.win 2).flush t = false := by decide +kernel
/-- Where k = 3 it is live. -/
theorem liveAt18_2 : ∀ t : Fin cfg18.N, cond18_1 (grid18.coords t) → cfg18.idle 2 (grid18.coords t) = false := by decide +kernel

/-! ## The staging memrefs at a point, and the scratch -/

/-- One staging buffer of the output window, through which its contents are stated. -/
abbrev VO18_2 : View sig .tc .vmem S1024x512 .f32 := (Memref.whole cc18_stg2_0 : Memref sig .tc .vmem S1024x512 .f32).view
abbrev ms18_0 (t : Fin cfg18.N) : Memref sig .tc .vmem S1024x1024 .bf16 := win18_0.stage (cfg18.slots t 0)
abbrev hs18_0 (t : Fin cfg18.N) : (ms18_0 t).IsWhole := hstage18_0 ((cfg18.slots t 0).cast nbuf18_0)
abbrev ms18_1 (t : Fin cfg18.N) : Memref sig .tc .vmem S1024x512 .f32 := win18_1.stage (cfg18.slots t 1)
abbrev hs18_1 (t : Fin cfg18.N) : (ms18_1 t).IsWhole := hstage18_1 ((cfg18.slots t 1).cast nbuf18_1)
abbrev ms18_2 (t : Fin cfg18.N) : Memref sig .tc .vmem S1024x512 .f32 := win18_2.stage (cfg18.slots t 2)
abbrev hs18_2 (t : Fin cfg18.N) : (ms18_2 t).IsWhole := hstage18_2 ((cfg18.slots t 2).cast nbuf18_2)
/-- The accumulator: a whole scoped buffer of the kernel's own. -/
abbrev scM18 : Memref sig .tc .vmem S1024x512 .f32 := Memref.whole cc18_scratch0
abbrev VS18 : View sig .tc .vmem S1024x512 .f32 := scM18.view

/-- The other scoped buffers of the core, none of which this region touches. -/
abbrev restBut18 (c : Dev nD) : sProp 𝕄 :=
  Pipeline.scopedRestBut (Ix := Unit) (Name := ℕ) (U := UR sig nD τ) (Lvl := ℕ) (Val := Elt F) spec18 c [cc18_scratch0]

/-- The region's invariant before its first point: the accumulator at something, the other scoped buffers, the generator register. -/
theorem PhiA18_eq (c : Dev nD) :
    (Pipeline.ΦA spec18 c : sProp 𝕄)
      = iprop(iprop((∃ d, owns (c : Thread nD τ) scM18 fullShare d) ∗ restBut18 c) ∗ (∃ r, prngReg c r)) := by
  unfold Pipeline.ΦA; rw [scopedRest18_split]; simp only [scM18, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun18_A (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond18_0 i) (hc1 : ¬cond18_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc18__matmul_kernel i arg2 harg2 arg3 harg3 arg4 harg4 arg5 harg5) K } := by
  refine ⟨[], ?_, fun xi2 E K => ?run⟩
  case run =>
    simp only [cc18__matmul_kernel_eq_skeleton]; unfold cc18__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK18b.lean ====
/- Laid out by: python3 scratch/layout_regions.py --template-region 1 --region 18 --program Kernel --parts a,b,c, --out-dir proof/Proof
   from the hand-written text of region 1 (RegKI1b.lean): the same text, the region's number and the program's namespace substituted. -/
/-
  Region 18, case B (k = 1, 2): the body's run. Neither conditional is taken: the product of the two blocks is added to what
  the point before left in the accumulator; the output block is not touched.
-/
import proofs.«158944_j64613488001249_1_alg».proof.Proof.RegK18a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun18_B (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond18_0 i) (hc1 : ¬cond18_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc18__matmul_kernel i arg2 harg2 arg3 harg3 arg4 harg4 arg5 harg5) K } := by
  refine ⟨[], ?_, fun xi2 E K => ?run⟩
  case run =>
    simp only [cc18__matmul_kernel_eq_skeleton]; unfold cc18__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK18c.lean ====
/- Laid out by: python3 scratch/layout_regions.py --template-region 1 --region 18 --program Kernel --parts a,b,c, --out-dir proof/Proof
   from the hand-written text of region 1 (RegKI1c.lean): the same text, the region's number and the program's namespace substituted. -/
/-
  Region 18, case C (k = 3): the body's run. The product is added to the accumulator as in case B, and then the second
  conditional copies the accumulator over the whole output block.
-/
import proofs.«158944_j64613488001249_1_alg».proof.Proof.RegK18b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun18_C (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond18_0 i) (hc1 : cond18_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc18__matmul_kernel i arg2 harg2 arg3 harg3 arg4 harg4 arg5 harg5) K } := by
  refine ⟨?_, ?_, fun E K => ?run⟩
  case run =>
    simp only [cc18__matmul_kernel_eq_skeleton]; unfold cc18__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK18.lean ====
/- Laid out by: python3 scratch/layout_regions.py --template-region 1 --region 18 --program Kernel --parts a,b,c, --out-dir proof/Proof
   from the hand-written text of region 1 (RegKI1.lean): the same text, the region's number and the program's namespace substituted. -/
/-
  Region 18 of @main, entered from the buffer contents `V`: what its windows' blocks are, what each case of the body leaves in
  the accumulator and in the output block, the accumulator and the output block point by point (`outsAt18`: at k = 0 the
  accumulator restarts from zeros plus the product; at k = 1, 2, 3 it is the point before's plus the product; at k = 3 the
  output block is the accumulator), the region's invariant (the accumulator at `outsAt18`'s second component), the proof data,
  and the body's obligation at every point.
-/
import proofs.«158944_j64613488001249_1_alg».proof.Proof.RegK18c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- An input window's current staging buffer holds its block at every point, for any proof data whose array is `V`'s and
    whose body leaves the block in place. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-! ## What each case leaves -/

/-- Case A's stores into the accumulator cover it. -/
theorem scover18_A (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond18_0 i) (hc1 : ¬cond18_1 i)
    (x0 : Vec F S1024x1024 .bf16) (x1 : Vec F S1024x512 .f32) (y : S1024x512.Idx) :
    ∃ pc ∈ (kernelRun18_A c i arg2 harg2 arg3 harg3 arg4 harg4 arg5 harg5 hc0 hc1 x0 x1).2.1, y ∈ pc.1.set :=
  View.cover_of_tiledL (kernelRun18_A c i arg2 harg2 arg3 harg3 arg4 harg4 arg5 harg5 hc0 hc1 x0 x1).2.1 S1024x512.size (by sl_kernel_rfl) y
/-- What case A leaves in the accumulator. -/
noncomputable def sout18_A (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond18_0 i) (hc1 : ¬cond18_1 i)
    (x0 : Vec F S1024x1024 .bf16) (x1 : Vec F S1024x512 .f32) : Vec F S1024x512 .f32 :=
  VS18.read (Elt F) (VS18.writes (Elt F) VS18.junk (kernelRun18_A c i arg2 harg2 arg3 harg3 arg4 harg4 arg5 harg5 hc0 hc1 x0 x1).2.1)

/-- Case B's store into the accumulator covers it. -/
theorem scover18_B (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond18_0 i) (hc1 : ¬cond18_1 i)
    (x0 : Vec F S1024x1024 .bf16) (x1 : Vec F S1024x512 .f32) (xs0 : Vec F S1024x512 .f32) (y : S1024x512.Idx) :
    ∃ pc ∈ (kernelRun18_B c i arg2 harg2 arg3 harg3 arg4 harg4 arg5 harg5 hc0 hc1 x0 x1 xs0).2.1, y ∈ pc.1.set :=
  View.cover_of_tiledL (kernelRun18_B c i arg2 harg2 arg3 harg3 arg4 harg4 arg5 harg5 hc0 hc1 x0 x1 xs0).2.1 S1024x512.size (by sl_kernel_rfl) y
/-- What case B leaves in the accumulator, over what the point before left. -/
noncomputable def sout18_B (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond18_0 i) (hc1 : ¬cond18_1 i)
    (x0 : Vec F S1024x1024 .bf16) (x1 : Vec F S1024x512 .f32) (xs0 : Vec F S1024x512 .f32) : Vec F S1024x512 .f32 :=
  VS18.read (Elt F) (VS18.writes (Elt F) VS18.junk (kernelRun18_B c i arg2 harg2 arg3 harg3 arg4 harg4 arg5 harg5 hc0 hc1 x0 x1 xs0).2.1)

/-- Case C's store into the output block covers it, and so does its store into the accumulator. -/
theorem cover18_C (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond18_0 i) (hc1 : cond18_1 i)
    (x0 : Vec F S1024x1024 .bf16) (x1 : Vec F S1024x512 .f32) (xs0 : Vec F S1024x512 .f32) (y : S1024x512.Idx) :
    ∃ pc ∈ (kernelRun18_C c i arg2 harg2 arg3 harg3 arg4 harg4 arg5 harg5 hc0 hc1 x0 x1 xs0).1, y ∈ pc.1.set :=
  View.cover_of_tiledL (kernelRun18_C c i arg2 harg2 arg3 harg3 arg4 harg4 arg5 harg5 hc0 hc1 x0 x1 xs0).1 S1024x512.size (by sl_kernel_rfl) y
theorem scover18_C (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond18_0 i) (hc1 : cond18_1 i)
    (x0 : Vec F S1024x1024 .bf16) (x1 : Vec F S1024x512 .f32) (xs0 : Vec F S1024x512 .f32) (y : S1024x512.Idx) :
    ∃ pc ∈ (kernelRun18_C c i arg2 harg2 arg3 harg3 arg4 harg4 arg5 harg5 hc0 hc1 x0 x1 xs0).2.1, y ∈ pc.1.set :=
  View.cover_of_tiledL (kernelRun18_C c i arg2 harg2 arg3 harg3 arg4 harg4 arg5 harg5 hc0 hc1 x0 x1 xs0).2.1 S1024x512.size (by sl_kernel_rfl) y
/-- What case C leaves in the output block, and in the accumulator. -/
noncomputable def out18_C (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond18_0 i) (hc1 : cond18_1 i)
    (x0 : Vec F S1024x1024 .bf16) (x1 : Vec F S1024x512 .f32) (xs0 : Vec F S1024x512 .f32) : Vec F S1024x512 .f32 :=
  VO18_2.read (Elt F) (VO18_2.writes (Elt F) VO18_2.junk (kernelRun18_C c i arg2 harg2 arg3 harg3 arg4 harg4 arg5 harg5 hc0 hc1 x0 x1 xs0).1)
noncomputable def sout18_C (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond18_0 i) (hc1 : cond18_1 i)
    (x0 : Vec F S1024x1024 .bf16) (x1 : Vec F S1024x512 .f32) (xs0 : Vec F S1024x512 .f32) : Vec F S1024x512 .f32 :=
  VS18.read (Elt F) (VS18.writes (Elt F) VS18.junk (kernelRun18_C c i arg2 harg2 arg3 harg3 arg4 harg4 arg5 harg5 hc0 hc1 x0 x1 xs0).2.1)

/-- Where the output block is idle nothing consults what it holds: a placeholder. -/
noncomputable def outIdle18 : Vec F S1024x512 .f32 := VO18_2.read (Elt F) (VO18_2.writes (Elt F) VO18_2.junk [])

/-! ## The conditions at a point, from t % 4 -/

theorem isFirst18 (t : Fin cfg18.N) (h : t.val % 4 = 0) : cond18_0 (grid18.coords t) := (hcond18_0 t).mpr h
theorem notFirst18 (t : Fin cfg18.N) (h : ¬t.val % 4 = 0) : ¬cond18_0 (grid18.coords t) := fun hc => h ((hcond18_0 t).mp hc)
theorem isLast18 (t : Fin cfg18.N) (h : t.val % 4 = 3) : cond18_1 (grid18.coords t) := (hcond18_1 t).mpr h
theorem notLast18 (t : Fin cfg18.N) (h : ¬t.val % 4 = 3) : ¬cond18_1 (grid18.coords t) := fun hc => h ((hcond18_1 t).mp hc)

/-! ## The accumulator and the output block, point by point -/

/-- After the body at position `n`: (the output block's buffer, the accumulator). -/
noncomputable def outsAt18 (c : Dev nD) : (n : ℕ) → n < cfg18.N → Vec F S1024x512 .f32 × Vec F S1024x512 .f32
  | 0, hn => (outIdle18, sout18_A c (grid18.coords ⟨0, hn⟩) (ms18_0 ⟨0, hn⟩) (hs18_0 ⟨0, hn⟩) (ms18_1 ⟨0, hn⟩) (hs18_1 ⟨0, hn⟩) (ms18_2 ⟨0, hn⟩) (hs18_2 ⟨0, hn⟩) scM18 (Memref.isWhole_whole _) (isFirst18 ⟨0, hn⟩ (Nat.zero_mod _)) (notLast18 ⟨0, hn⟩ (by simp)) (iblk18 V c 0 ⟨0, hn⟩) (iblk18 V c 1 ⟨0, hn⟩))
  | n + 1, hn =>
    if h0 : (n + 1) % 4 = 0 then
      (outIdle18, sout18_A c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) scM18 (Memref.isWhole_whole _) (isFirst18 ⟨n + 1, hn⟩ h0) (notLast18 ⟨n + 1, hn⟩ (by show ¬(n + 1) % 4 = 3; omega)) (iblk18 V c 0 ⟨n + 1, hn⟩) (iblk18 V c 1 ⟨n + 1, hn⟩))
    else if h3 : (n + 1) % 4 = 3 then
      (out18_C c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) scM18 (Memref.isWhole_whole _) (notFirst18 ⟨n + 1, hn⟩ h0) (isLast18 ⟨n + 1, hn⟩ h3) (iblk18 V c 0 ⟨n + 1, hn⟩) (iblk18 V c 1 ⟨n + 1, hn⟩) (outsAt18 c n (Nat.lt_of_succ_lt hn)).2,
       sout18_C c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) scM18 (Memref.isWhole_whole _) (notFirst18 ⟨n + 1, hn⟩ h0) (isLast18 ⟨n + 1, hn⟩ h3) (iblk18 V c 0 ⟨n + 1, hn⟩) (iblk18 V c 1 ⟨n + 1, hn⟩) (outsAt18 c n (Nat.lt_of_succ_lt hn)).2)
    else
      (outIdle18, sout18_B c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) scM18 (Memref.isWhole_whole _) (notFirst18 ⟨n + 1, hn⟩ h0) (notLast18 ⟨n + 1, hn⟩ h3) (iblk18 V c 0 ⟨n + 1, hn⟩) (iblk18 V c 1 ⟨n + 1, hn⟩) (outsAt18 c n (Nat.lt_of_succ_lt hn)).2)

/-- `outsAt18` at a point with k = 0. -/
theorem outsAt18_A (c : Dev nD) (t : Fin cfg18.N) (h0 : t.val % 4 = 0) :
    outsAt18 V c t.val t.isLt = (outIdle18, sout18_A c (grid18.coords t) (ms18_0 t) (hs18_0 t) (ms18_1 t) (hs18_1 t) (ms18_2 t) (hs18_2 t) scM18 (Memref.isWhole_whole _) (isFirst18 t h0) (notLast18 t (by omega)) (iblk18 V c 0 t) (iblk18 V c 1 t)) := by
  obtain ⟨n, hn⟩ := t
  cases n with
  | zero => rfl
  | succ n => exact (dif_pos h0).trans rfl

/-- `outsAt18` at a point with k = 1, 2: over what the point before left. -/
theorem outsAt18_B (c : Dev nD) (t : Fin cfg18.N) (h0 : ¬t.val % 4 = 0) (h3 : ¬t.val % 4 = 3) :
    outsAt18 V c t.val t.isLt = (outIdle18, sout18_B c (grid18.coords t) (ms18_0 t) (hs18_0 t) (ms18_1 t) (hs18_1 t) (ms18_2 t) (hs18_2 t) scM18 (Memref.isWhole_whole _) (notFirst18 t h0) (notLast18 t h3) (iblk18 V c 0 t) (iblk18 V c 1 t)
      (outsAt18 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt18` at a point with k = 3. -/
theorem outsAt18_C (c : Dev nD) (t : Fin cfg18.N) (h0 : ¬t.val % 4 = 0) (h3 : t.val % 4 = 3) :
    outsAt18 V c t.val t.isLt = (out18_C c (grid18.coords t) (ms18_0 t) (hs18_0 t) (ms18_1 t) (hs18_1 t) (ms18_2 t) (hs18_2 t) scM18 (Memref.isWhole_whole _) (notFirst18 t h0) (isLast18 t h3) (iblk18 V c 0 t) (iblk18 V c 1 t)
        (outsAt18 V c (t.val - 1) (Nat.lt_of_le_of_lt (Nat.sub_le _ _) t.isLt)).2,
      sout18_C c (grid18.coords t) (ms18_0 t) (hs18_0 t) (ms18_1 t) (hs18_1 t) (ms18_2 t) (hs18_2 t) scM18 (Memref.isWhole_whole _) (notFirst18 t h0) (isLast18 t h3) (iblk18 V c 0 t) (iblk18 V c 1 t)
        (outsAt18 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS18 (c : Dev nD) : (n : ℕ) → n ≤ cfg18.N → sProp 𝕄
  | 0, _ => Pipeline.ΦA spec18 c
  | n + 1, hn => iprop(iprop(owns (c : Thread nD τ) scM18 fullShare ((outsAt18 V c n hn).2) ∗ restBut18 c) ∗ (∃ r, prngReg c r))

theorem PhiS18_zero (c : Dev nD) (n : ℕ) (h : n ≤ cfg18.N) (hz : n = 0) : PhiS18 V c n h = Pipeline.ΦA spec18 c := by
  subst hz; rfl
theorem PhiS18_succ (c : Dev nD) (n : ℕ) (hn : n < cfg18.N) :
    PhiS18 V c (n + 1) hn = iprop(iprop(owns (c : Thread nD τ) scM18 fullShare ((outsAt18 V c n hn).2) ∗ restBut18 c) ∗ (∃ r, prngReg c r)) := rfl
theorem PhiS18_pos (c : Dev nD) (n : ℕ) (h : n ≤ cfg18.N) (hz : n ≠ 0) :
    PhiS18 V c n h = iprop(iprop(owns (c : Thread nD τ) scM18 fullShare ((outsAt18 V c (n - 1) (by omega)).2) ∗ restBut18 c) ∗ (∃ r, prngReg c r)) := by
  cases n with
  | zero => exact absurd rfl hz
  | succ n => rfl

/-! ## The proof data -/

/-- The region's proof data on core `c`: the arrays as the region finds them; after the body at point `t` each input's
    buffer at its block and the output's at `outsAt18`'s first component; the invariant `PhiS18`; nothing owed; full shares. -/
noncomputable def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => (outsAt18 V c t.val t.isLt).1
  Φ t := PhiS18 V c t.val (Nat.le_of_lt_succ t.isLt)
  q _ := fullShare
  owed _ := 0

theorem A_eq18 (c : Dev nD) (w : Fin cfg18.W) : (dat18 V c).A w = V c (Pipeline.arrRef spec18 w) := by
  dsimp only [dat18]
theorem PhiS18_castSucc (c : Dev nD) (t : Fin cfg18.N) :
    (dat18 V c).Φ t.castSucc = PhiS18 V c t.val (Nat.le_of_lt t.isLt) := by
  dsimp only [dat18]; simp only [Fin.coe_castSucc]
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = (outsAt18 V c t.val t.isLt).1 := by dsimp only [dat18]
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d

/-! ## The body's obligation -/

noncomputable def bodyPre18 (c : Dev nD) (t : Fin cfg18.N) : sProp 𝕄 :=
  iprop((dat18 V c).Φ t.castSucc ∗ (dat18 V c).owesAt () t.castSucc
    ∗ (∃ d, owns (c : Thread nD τ) (ms18_0 t) fullShare ((dat18 V c).before 0 t d))
    ∗ (∃ d, owns (c : Thread nD τ) (ms18_1 t) fullShare ((dat18 V c).before 1 t d))
    ∗ (∃ d, owns (c : Thread nD τ) (ms18_2 t) fullShare ((dat18 V c).before 2 t d)))

noncomputable def bodyPost18 (c : Dev nD) (t : Fin cfg18.N) : sProp 𝕄 :=
  iprop((dat18 V c).Φ t.succ ∗ (dat18 V c).owesAt () t.succ
    ∗ (dat18 V c).leavesExact 0 t
    ∗ (dat18 V c).leavesExact 1 t
    ∗ (dat18 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1]
  rw [show (dat18 V c).owesAt () t.succ = (dat18 V c).owesAt () t.castSucc from rfl]
  rw [show (dat18 V c).Φ t.succ = PhiS18 V c (t.val + 1) t.isLt from rfl, PhiS18_succ]
  rw [show (dat18 V c).leavesExact 0 t = owns (c : Thread nD τ) (ms18_0 t) fullShare ((dat18 V c).after 0 t) from by
    unfold Dat.leavesExact; rw [liveAt18_0 t], after18_0]
  rw [show (dat18 V c).leavesExact 1 t = owns (c : Thread nD τ) (ms18_1 t) fullShare ((dat18 V c).after 1 t) from by
    unfold Dat.leavesExact; rw [liveAt18_1 t], after18_1]
  by_cases h0 : t.val % 4 = 0
  · have h3 : ¬t.val % 4 = 3 := by omega
    rw [Dat.leavesExact_idle (dat18 V c) 2 t (idleAt18_2 t (notLast18 t h3)) (noFlush18_2 t (notLast18 t h3))]
    rw [outsAt18_A V c t h0]
    unfold sout18_A; (try dsimp only)
    by_cases hz : t.val = 0
    · rw [PhiS18_castSucc V c t, PhiS18_zero V c _ _ hz, PhiA18_eq]
      iintro ⟨⟨⟨HS0, Hrb⟩, Hg⟩, Ho, ⟨%d0, H0⟩, ⟨%d1, H1⟩, ⟨%d2, H2⟩⟩
      iapply ((kernelRun18_A c (grid18.coords t) _ _ _ _ _ _ _ _ (isFirst18 t h0) (notLast18 t (by omega)) (iblk18 V c 0 t) (iblk18 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover18_A c _ _ _ _ _ _ _ _ _ _ _ _ _)
          iexact Hrb
        iexact Hg
      isplitl [Ho]; · iexact Ho
      isplitl [H0]; · iexact H0
      isplitl [H1]; · iexact H1
      iexists _; iexact H2
    · rw [PhiS18_castSucc V c t, PhiS18_pos V c _ _ hz]
      iintro ⟨⟨⟨HS0, Hrb⟩, Hg⟩, Ho, ⟨%d0, H0⟩, ⟨%d1, H1⟩, ⟨%d2, H2⟩⟩
      iapply ((kernelRun18_A c (grid18.coords t) _ _ _ _ _ _ _ _ (isFirst18 t h0) (notLast18 t (by omega)) (iblk18 V c 0 t) (iblk18 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover18_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat18 V c).leavesExact 2 t = owns (c : Thread nD τ) (ms18_2 t) fullShare ((dat18 V c).after 2 t) from by
        unfold Dat.leavesExact; rw [liveAt18_2 t (isLast18 t h3)], after18_2]
      rw [outsAt18_C V c t h0 h3]
      unfold out18_C sout18_C; (try dsimp only)
      rw [PhiS18_castSucc V c t, PhiS18_pos V c _ _ hz]
      iintro ⟨⟨⟨HS0, Hrb⟩, Hg⟩, Ho, ⟨%d0, H0⟩, ⟨%d1, H1⟩, ⟨%d2, H2⟩⟩
      iapply ((kernelRun18_C c (grid18.coords t) _ _ _ _ _ _ _ _ (notFirst18 t h0) (isLast18 t h3) (iblk18 V c 0 t) (iblk18 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover18_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover18_C c _ _ _ _ _ _ _ _ _ _ _ _ _ _)
    · rw [Dat.leavesExact_idle (dat18 V c) 2 t (idleAt18_2 t (notLast18 t h3)) (noFlush18_2 t (notLast18 t h3))]
      rw [outsAt18_B V c t h0 h3]
      unfold sout18_B; (try dsimp only)
      rw [PhiS18_castSucc V c t, PhiS18_pos V c _ _ hz]
      iintro ⟨⟨⟨HS0, Hrb⟩, Hg⟩, Ho, ⟨%d0, H0⟩, ⟨%d1, H1⟩, ⟨%d2, H2⟩⟩
      iapply ((kernelRun18_B c (grid18.coords t) _ _ _ _ _ _ _ _ (notFirst18 t h0) (notLast18 t h3) (iblk18 V c 0 t) (iblk18 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover18_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation18 (c : Dev nD) : BodyObligation (dat18 (F := F) V c) (defs₀ (F := F)) Variants.none () Set.univ := fun t => by
  rw [bigSep_W18, bigSep_W18]
  exact sound_body18 V c t

/-- What the region is entered with is the invariant before the first point. -/
theorem hin18 (c : Dev nD) : Pipeline.ΦA spec18 c ⊢ (dat18 V c).Φ 0 := by
  rw [show (dat18 V c).Φ 0 = PhiS18 V c 0 (Nat.zero_le _) from rfl, PhiS18_zero V c 0 _ rfl]
  try exact Idealize.SL.BI.Entails.refl _

/-- After the last point the invariant gives the class's back: the accumulator's contents are forgotten. -/
theorem hout18 (c : Dev nD) : (dat18 V c).Φ (Fin.last cfg18.N) ⊢ Pipeline.ΦA spec18 c := by
  have hN : cfg18.N = 16 := N_18
  rw [show (dat18 V c).Φ (Fin.last cfg18.N) = PhiS18 V c (Fin.last cfg18.N).val (Nat.le_of_lt_succ (Fin.last cfg18.N).isLt) from rfl,
    PhiS18_pos V c _ _ (by rw [Fin.val_last]; omega), PhiA18_eq]
  iintro ⟨⟨HS0, Hrb⟩, Hg⟩
  isplitl [HS0 Hrb]
  · isplitl [HS0]
    · iexists _; iexact HS0
    iexact Hrb
  iexact Hg

end Cert.Kernel.Hand

end
-- ==== Proof.RegK19a.lean ====
/- Laid out by: python3 scratch/layout_regions.py --template-region 1 --region 19 --program Kernel --parts a,b,c, --out-dir proof/Proof
   from the hand-written text of region 1 (RegKI1a.lean): the same text, the region's number and the program's namespace substituted. -/
/-
  Region 19 of @main (custom_call 19): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond19_0 (i : grid19.Coords) : Prop := (Scalar.cmpi .ne (Scalar.extui (Scalar.cmpi .eq (BitVec.ofNat 32 (i 1).val) 0#32)) 0#32) = 1#1
/-- It holds exactly at the points with t % 4 = 0. -/
theorem hcond19_0 : ∀ t : Fin cfg19.N, cond19_0 (grid19.coords t) ↔ t.val % 4 = 0 :=
  (by decide +kernel : ∀ t : Fin grid19.N, cond19_0 (grid19.coords t) ↔ t.val % 4 = 0)

/-- "k = 3": the second conditional's test. -/
abbrev cond19_1 (i : grid19.Coords) : Prop := k19_cond2 i = 1#1
/-- It holds exactly at the points with t % 4 = 3. -/
theorem hcond19_1 : ∀ t : Fin cfg19.N, cond19_1 (grid19.coords t) ↔ t.val % 4 = 3 :=
  (by decide +kernel : ∀ t : Fin grid19.N, cond19_1 (grid19.coords t) ↔ t.val % 4 = 3)

/-! ## Where the windows are idle, and where the output is written back -/

/-- The two input windows are never idle. -/
theorem liveAt19_0 : ∀ t : Fin cfg19.N, cfg19.idle 0 (grid19.coords t) = false := by decide +kernel
theorem liveAt19_1 : ∀ t : Fin cfg19.N, cfg19.idle 1 (grid19.coords t) = false := by decide +kernel
/-- Where k ≠ 3 the output window is idle (the body stores nothing into it) and is not written back. -/
theorem idleAt19_2 : ∀ t : Fin cfg19.N, ¬cond19_1 (grid19.coords t) → cfg19.idle 2 (grid19.coords t) = true := by decide +kernel
theorem noFlush19_2 : ∀ t : Fin cfg19.N, ¬cond19_1 (grid19.coords t) → (cfg19.win 2).flush t = false := by decide +kernel
/-- Where k = 3 it is live. -/
theorem liveAt19_2 : ∀ t : Fin cfg19.N, cond19_1 (grid19.coords t) → cfg19.idle 2 (grid19.coords t) = false := by decide +kernel

/-! ## The staging memrefs at a point, and the scratch -/

/-- One staging buffer of the output window, through which its contents are stated. -/
abbrev VO19_2 : View sig .tc .vmem S1024x512 .f32 := (Memref.whole cc19_stg2_0 : Memref sig .tc .vmem S1024x512 .f32).view
abbrev ms19_0 (t : Fin cfg19.N) : Memref sig .tc .vmem S1024x1024 .bf16 := win19_0.stage (cfg19.slots t 0)
abbrev hs19_0 (t : Fin cfg19.N) : (ms19_0 t).IsWhole := hstage19_0 ((cfg19.slots t 0).cast nbuf19_0)
abbrev ms19_1 (t : Fin cfg19.N) : Memref sig .tc .vmem S1024x512 .f32 := win19_1.stage (cfg19.slots t 1)
abbrev hs19_1 (t : Fin cfg19.N) : (ms19_1 t).IsWhole := hstage19_1 ((cfg19.slots t 1).cast nbuf19_1)
abbrev ms19_2 (t : Fin cfg19.N) : Memref sig .tc .vmem S1024x512 .f32 := win19_2.stage (cfg19.slots t 2)
abbrev hs19_2 (t : Fin cfg19.N) : (ms19_2 t).IsWhole := hstage19_2 ((cfg19.slots t 2).cast nbuf19_2)
/-- The accumulator: a whole scoped buffer of the kernel's own. -/
abbrev scM19 : Memref sig .tc .vmem S1024x512 .f32 := Memref.whole cc19_scratch0
abbrev VS19 : View sig .tc .vmem S1024x512 .f32 := scM19.view

/-- The other scoped buffers of the core, none of which this region touches. -/
abbrev restBut19 (c : Dev nD) : sProp 𝕄 :=
  Pipeline.scopedRestBut (Ix := Unit) (Name := ℕ) (U := UR sig nD τ) (Lvl := ℕ) (Val := Elt F) spec19 c [cc19_scratch0]

/-- The region's invariant before its first point: the accumulator at something, the other scoped buffers, the generator register. -/
theorem PhiA19_eq (c : Dev nD) :
    (Pipeline.ΦA spec19 c : sProp 𝕄)
      = iprop(iprop((∃ d, owns (c : Thread nD τ) scM19 fullShare d) ∗ restBut19 c) ∗ (∃ r, prngReg c r)) := by
  unfold Pipeline.ΦA; rw [scopedRest19_split]; simp only [scM19, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun19_A (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond19_0 i) (hc1 : ¬cond19_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc19__matmul_kernel i arg2 harg2 arg3 harg3 arg4 harg4 arg5 harg5) K } := by
  refine ⟨[], ?_, fun xi2 E K => ?run⟩
  case run =>
    simp only [cc19__matmul_kernel_eq_skeleton]; unfold cc19__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK19b.lean ====
/- Laid out by: python3 scratch/layout_regions.py --template-region 1 --region 19 --program Kernel --parts a,b,c, --out-dir proof/Proof
   from the hand-written text of region 1 (RegKI1b.lean): the same text, the region's number and the program's namespace substituted. -/
/-
  Region 19, case B (k = 1, 2): the body's run. Neither conditional is taken: the product of the two blocks is added to what
  the point before left in the accumulator; the output block is not touched.
-/
import proofs.«158944_j64613488001249_1_alg».proof.Proof.RegK19a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun19_B (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond19_0 i) (hc1 : ¬cond19_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc19__matmul_kernel i arg2 harg2 arg3 harg3 arg4 harg4 arg5 harg5) K } := by
  refine ⟨[], ?_, fun xi2 E K => ?run⟩
  case run =>
    simp only [cc19__matmul_kernel_eq_skeleton]; unfold cc19__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK19c.lean ====
/- Laid out by: python3 scratch/layout_regions.py --template-region 1 --region 19 --program Kernel --parts a,b,c, --out-dir proof/Proof
   from the hand-written text of region 1 (RegKI1c.lean): the same text, the region's number and the program's namespace substituted. -/
/-
  Region 19, case C (k = 3): the body's run. The product is added to the accumulator as in case B, and then the second
  conditional copies the accumulator over the whole output block.
-/
import proofs.«158944_j64613488001249_1_alg».proof.Proof.RegK19b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun19_C (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond19_0 i) (hc1 : cond19_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc19__matmul_kernel i arg2 harg2 arg3 harg3 arg4 harg4 arg5 harg5) K } := by
  refine ⟨?_, ?_, fun E K => ?run⟩
  case run =>
    simp only [cc19__matmul_kernel_eq_skeleton]; unfold cc19__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK19.lean ====
/- Laid out by: python3 scratch/layout_regions.py --template-region 1 --region 19 --program Kernel --parts a,b,c, --out-dir proof/Proof
   from the hand-written text of region 1 (RegKI1.lean): the same text, the region's number and the program's namespace substituted. -/
/-
  Region 19 of @main, entered from the buffer contents `V`: what its windows' blocks are, what each case of the body leaves in
  the accumulator and in the output block, the accumulator and the output block point by point (`outsAt19`: at k = 0 the
  accumulator restarts from zeros plus the product; at k = 1, 2, 3 it is the point before's plus the product; at k = 3 the
  output block is the accumulator), the region's invariant (the accumulator at `outsAt19`'s second component), the proof data,
  and the body's obligation at every point.
-/
import proofs.«158944_j64613488001249_1_alg».proof.Proof.RegK19c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- An input window's current staging buffer holds its block at every point, for any proof data whose array is `V`'s and
    whose body leaves the block in place. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-! ## What each case leaves -/

/-- Case A's stores into the accumulator cover it. -/
theorem scover19_A (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond19_0 i) (hc1 : ¬cond19_1 i)
    (x0 : Vec F S1024x1024 .bf16) (x1 : Vec F S1024x512 .f32) (y : S1024x512.Idx) :
    ∃ pc ∈ (kernelRun19_A c i arg2 harg2 arg3 harg3 arg4 harg4 arg5 harg5 hc0 hc1 x0 x1).2.1, y ∈ pc.1.set :=
  View.cover_of_tiledL (kernelRun19_A c i arg2 harg2 arg3 harg3 arg4 harg4 arg5 harg5 hc0 hc1 x0 x1).2.1 S1024x512.size (by sl_kernel_rfl) y
/-- What case A leaves in the accumulator. -/
noncomputable def sout19_A (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond19_0 i) (hc1 : ¬cond19_1 i)
    (x0 : Vec F S1024x1024 .bf16) (x1 : Vec F S1024x512 .f32) : Vec F S1024x512 .f32 :=
  VS19.read (Elt F) (VS19.writes (Elt F) VS19.junk (kernelRun19_A c i arg2 harg2 arg3 harg3 arg4 harg4 arg5 harg5 hc0 hc1 x0 x1).2.1)

/-- Case B's store into the accumulator covers it. -/
theorem scover19_B (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond19_0 i) (hc1 : ¬cond19_1 i)
    (x0 : Vec F S1024x1024 .bf16) (x1 : Vec F S1024x512 .f32) (xs0 : Vec F S1024x512 .f32) (y : S1024x512.Idx) :
    ∃ pc ∈ (kernelRun19_B c i arg2 harg2 arg3 harg3 arg4 harg4 arg5 harg5 hc0 hc1 x0 x1 xs0).2.1, y ∈ pc.1.set :=
  View.cover_of_tiledL (kernelRun19_B c i arg2 harg2 arg3 harg3 arg4 harg4 arg5 harg5 hc0 hc1 x0 x1 xs0).2.1 S1024x512.size (by sl_kernel_rfl) y
/-- What case B leaves in the accumulator, over what the point before left. -/
noncomputable def sout19_B (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond19_0 i) (hc1 : ¬cond19_1 i)
    (x0 : Vec F S1024x1024 .bf16) (x1 : Vec F S1024x512 .f32) (xs0 : Vec F S1024x512 .f32) : Vec F S1024x512 .f32 :=
  VS19.read (Elt F) (VS19.writes (Elt F) VS19.junk (kernelRun19_B c i arg2 harg2 arg3 harg3 arg4 harg4 arg5 harg5 hc0 hc1 x0 x1 xs0).2.1)

/-- Case C's store into the output block covers it, and so does its store into the accumulator. -/
theorem cover19_C (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond19_0 i) (hc1 : cond19_1 i)
    (x0 : Vec F S1024x1024 .bf16) (x1 : Vec F S1024x512 .f32) (xs0 : Vec F S1024x512 .f32) (y : S1024x512.Idx) :
    ∃ pc ∈ (kernelRun19_C c i arg2 harg2 arg3 harg3 arg4 harg4 arg5 harg5 hc0 hc1 x0 x1 xs0).1, y ∈ pc.1.set :=
  View.cover_of_tiledL (kernelRun19_C c i arg2 harg2 arg3 harg3 arg4 harg4 arg5 harg5 hc0 hc1 x0 x1 xs0).1 S1024x512.size (by sl_kernel_rfl) y
theorem scover19_C (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond19_0 i) (hc1 : cond19_1 i)
    (x0 : Vec F S1024x1024 .bf16) (x1 : Vec F S1024x512 .f32) (xs0 : Vec F S1024x512 .f32) (y : S1024x512.Idx) :
    ∃ pc ∈ (kernelRun19_C c i arg2 harg2 arg3 harg3 arg4 harg4 arg5 harg5 hc0 hc1 x0 x1 xs0).2.1, y ∈ pc.1.set :=
  View.cover_of_tiledL (kernelRun19_C c i arg2 harg2 arg3 harg3 arg4 harg4 arg5 harg5 hc0 hc1 x0 x1 xs0).2.1 S1024x512.size (by sl_kernel_rfl) y
/-- What case C leaves in the output block, and in the accumulator. -/
noncomputable def out19_C (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond19_0 i) (hc1 : cond19_1 i)
    (x0 : Vec F S1024x1024 .bf16) (x1 : Vec F S1024x512 .f32) (xs0 : Vec F S1024x512 .f32) : Vec F S1024x512 .f32 :=
  VO19_2.read (Elt F) (VO19_2.writes (Elt F) VO19_2.junk (kernelRun19_C c i arg2 harg2 arg3 harg3 arg4 harg4 arg5 harg5 hc0 hc1 x0 x1 xs0).1)
noncomputable def sout19_C (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond19_0 i) (hc1 : cond19_1 i)
    (x0 : Vec F S1024x1024 .bf16) (x1 : Vec F S1024x512 .f32) (xs0 : Vec F S1024x512 .f32) : Vec F S1024x512 .f32 :=
  VS19.read (Elt F) (VS19.writes (Elt F) VS19.junk (kernelRun19_C c i arg2 harg2 arg3 harg3 arg4 harg4 arg5 harg5 hc0 hc1 x0 x1 xs0).2.1)

/-- Where the output block is idle nothing consults what it holds: a placeholder. -/
noncomputable def outIdle19 : Vec F S1024x512 .f32 := VO19_2.read (Elt F) (VO19_2.writes (Elt F) VO19_2.junk [])

/-! ## The conditions at a point, from t % 4 -/

theorem isFirst19 (t : Fin cfg19.N) (h : t.val % 4 = 0) : cond19_0 (grid19.coords t) := (hcond19_0 t).mpr h
theorem notFirst19 (t : Fin cfg19.N) (h : ¬t.val % 4 = 0) : ¬cond19_0 (grid19.coords t) := fun hc => h ((hcond19_0 t).mp hc)
theorem isLast19 (t : Fin cfg19.N) (h : t.val % 4 = 3) : cond19_1 (grid19.coords t) := (hcond19_1 t).mpr h
theorem notLast19 (t : Fin cfg19.N) (h : ¬t.val % 4 = 3) : ¬cond19_1 (grid19.coords t) := fun hc => h ((hcond19_1 t).mp hc)

/-! ## The accumulator and the output block, point by point -/

/-- After the body at position `n`: (the output block's buffer, the accumulator). -/
noncomputable def outsAt19 (c : Dev nD) : (n : ℕ) → n < cfg19.N → Vec F S1024x512 .f32 × Vec F S1024x512 .f32
  | 0, hn => (outIdle19, sout19_A c (grid19.coords ⟨0, hn⟩) (ms19_0 ⟨0, hn⟩) (hs19_0 ⟨0, hn⟩) (ms19_1 ⟨0, hn⟩) (hs19_1 ⟨0, hn⟩) (ms19_2 ⟨0, hn⟩) (hs19_2 ⟨0, hn⟩) scM19 (Memref.isWhole_whole _) (isFirst19 ⟨0, hn⟩ (Nat.zero_mod _)) (notLast19 ⟨0, hn⟩ (by simp)) (iblk19 V c 0 ⟨0, hn⟩) (iblk19 V c 1 ⟨0, hn⟩))
  | n + 1, hn =>
    if h0 : (n + 1) % 4 = 0 then
      (outIdle19, sout19_A c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19 (Memref.isWhole_whole _) (isFirst19 ⟨n + 1, hn⟩ h0) (notLast19 ⟨n + 1, hn⟩ (by show ¬(n + 1) % 4 = 3; omega)) (iblk19 V c 0 ⟨n + 1, hn⟩) (iblk19 V c 1 ⟨n + 1, hn⟩))
    else if h3 : (n + 1) % 4 = 3 then
      (out19_C c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19 (Memref.isWhole_whole _) (notFirst19 ⟨n + 1, hn⟩ h0) (isLast19 ⟨n + 1, hn⟩ h3) (iblk19 V c 0 ⟨n + 1, hn⟩) (iblk19 V c 1 ⟨n + 1, hn⟩) (outsAt19 c n (Nat.lt_of_succ_lt hn)).2,
       sout19_C c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19 (Memref.isWhole_whole _) (notFirst19 ⟨n + 1, hn⟩ h0) (isLast19 ⟨n + 1, hn⟩ h3) (iblk19 V c 0 ⟨n + 1, hn⟩) (iblk19 V c 1 ⟨n + 1, hn⟩) (outsAt19 c n (Nat.lt_of_succ_lt hn)).2)
    else
      (outIdle19, sout19_B c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19 (Memref.isWhole_whole _) (notFirst19 ⟨n + 1, hn⟩ h0) (notLast19 ⟨n + 1, hn⟩ h3) (iblk19 V c 0 ⟨n + 1, hn⟩) (iblk19 V c 1 ⟨n + 1, hn⟩) (outsAt19 c n (Nat.lt_of_succ_lt hn)).2)

/-- `outsAt19` at a point with k = 0. -/
theorem outsAt19_A (c : Dev nD) (t : Fin cfg19.N) (h0 : t.val % 4 = 0) :
    outsAt19 V c t.val t.isLt = (outIdle19, sout19_A c (grid19.coords t) (ms19_0 t) (hs19_0 t) (ms19_1 t) (hs19_1 t) (ms19_2 t) (hs19_2 t) scM19 (Memref.isWhole_whole _) (isFirst19 t h0) (notLast19 t (by omega)) (iblk19 V c 0 t) (iblk19 V c 1 t)) := by
  obtain ⟨n, hn⟩ := t
  cases n with
  | zero => rfl
  | succ n => exact (dif_pos h0).trans rfl

/-- `outsAt19` at a point with k = 1, 2: over what the point before left. -/
theorem outsAt19_B (c : Dev nD) (t : Fin cfg19.N) (h0 : ¬t.val % 4 = 0) (h3 : ¬t.val % 4 = 3) :
    outsAt19 V c t.val t.isLt = (outIdle19, sout19_B c (grid19.coords t) (ms19_0 t) (hs19_0 t) (ms19_1 t) (hs19_1 t) (ms19_2 t) (hs19_2 t) scM19 (Memref.isWhole_whole _) (notFirst19 t h0) (notLast19 t h3) (iblk19 V c 0 t) (iblk19 V c 1 t)
      (outsAt19 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt19` at a point with k = 3. -/
theorem outsAt19_C (c : Dev nD) (t : Fin cfg19.N) (h0 : ¬t.val % 4 = 0) (h3 : t.val % 4 = 3) :
    outsAt19 V c t.val t.isLt = (out19_C c (grid19.coords t) (ms19_0 t) (hs19_0 t) (ms19_1 t) (hs19_1 t) (ms19_2 t) (hs19_2 t) scM19 (Memref.isWhole_whole _) (notFirst19 t h0) (isLast19 t h3) (iblk19 V c 0 t) (iblk19 V c 1 t)
        (outsAt19 V c (t.val - 1) (Nat.lt_of_le_of_lt (Nat.sub_le _ _) t.isLt)).2,
      sout19_C c (grid19.coords t) (ms19_0 t) (hs19_0 t) (ms19_1 t) (hs19_1 t) (ms19_2 t) (hs19_2 t) scM19 (Memref.isWhole_whole _) (notFirst19 t h0) (isLast19 t h3) (iblk19 V c 0 t) (iblk19 V c 1 t)
        (outsAt19 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS19 (c : Dev nD) : (n : ℕ) → n ≤ cfg19.N → sProp 𝕄
  | 0, _ => Pipeline.ΦA spec19 c
  | n + 1, hn => iprop(iprop(owns (c : Thread nD τ) scM19 fullShare ((outsAt19 V c n hn).2) ∗ restBut19 c) ∗ (∃ r, prngReg c r))

theorem PhiS19_zero (c : Dev nD) (n : ℕ) (h : n ≤ cfg19.N) (hz : n = 0) : PhiS19 V c n h = Pipeline.ΦA spec19 c := by
  subst hz; rfl
theorem PhiS19_succ (c : Dev nD) (n : ℕ) (hn : n < cfg19.N) :
    PhiS19 V c (n + 1) hn = iprop(iprop(owns (c : Thread nD τ) scM19 fullShare ((outsAt19 V c n hn).2) ∗ restBut19 c) ∗ (∃ r, prngReg c r)) := rfl
theorem PhiS19_pos (c : Dev nD) (n : ℕ) (h : n ≤ cfg19.N) (hz : n ≠ 0) :
    PhiS19 V c n h = iprop(iprop(owns (c : Thread nD τ) scM19 fullShare ((outsAt19 V c (n - 1) (by omega)).2) ∗ restBut19 c) ∗ (∃ r, prngReg c r)) := by
  cases n with
  | zero => exact absurd rfl hz
  | succ n => rfl

/-! ## The proof data -/

/-- The region's proof data on core `c`: the arrays as the region finds them; after the body at point `t` each input's
    buffer at its block and the output's at `outsAt19`'s first component; the invariant `PhiS19`; nothing owed; full shares. -/
noncomputable def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => (outsAt19 V c t.val t.isLt).1
  Φ t := PhiS19 V c t.val (Nat.le_of_lt_succ t.isLt)
  q _ := fullShare
  owed _ := 0

theorem A_eq19 (c : Dev nD) (w : Fin cfg19.W) : (dat19 V c).A w = V c (Pipeline.arrRef spec19 w) := by
  dsimp only [dat19]
theorem PhiS19_castSucc (c : Dev nD) (t : Fin cfg19.N) :
    (dat19 V c).Φ t.castSucc = PhiS19 V c t.val (Nat.le_of_lt t.isLt) := by
  dsimp only [dat19]; simp only [Fin.coe_castSucc]
theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = (outsAt19 V c t.val t.isLt).1 := by dsimp only [dat19]
theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d

/-! ## The body's obligation -/

noncomputable def bodyPre19 (c : Dev nD) (t : Fin cfg19.N) : sProp 𝕄 :=
  iprop((dat19 V c).Φ t.castSucc ∗ (dat19 V c).owesAt () t.castSucc
    ∗ (∃ d, owns (c : Thread nD τ) (ms19_0 t) fullShare ((dat19 V c).before 0 t d))
    ∗ (∃ d, owns (c : Thread nD τ) (ms19_1 t) fullShare ((dat19 V c).before 1 t d))
    ∗ (∃ d, owns (c : Thread nD τ) (ms19_2 t) fullShare ((dat19 V c).before 2 t d)))

noncomputable def bodyPost19 (c : Dev nD) (t : Fin cfg19.N) : sProp 𝕄 :=
  iprop((dat19 V c).Φ t.succ ∗ (dat19 V c).owesAt () t.succ
    ∗ (dat19 V c).leavesExact 0 t
    ∗ (dat19 V c).leavesExact 1 t
    ∗ (dat19 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1]
  rw [show (dat19 V c).owesAt () t.succ = (dat19 V c).owesAt () t.castSucc from rfl]
  rw [show (dat19 V c).Φ t.succ = PhiS19 V c (t.val + 1) t.isLt from rfl, PhiS19_succ]
  rw [show (dat19 V c).leavesExact 0 t = owns (c : Thread nD τ) (ms19_0 t) fullShare ((dat19 V c).after 0 t) from by
    unfold Dat.leavesExact; rw [liveAt19_0 t], after19_0]
  rw [show (dat19 V c).leavesExact 1 t = owns (c : Thread nD τ) (ms19_1 t) fullShare ((dat19 V c).after 1 t) from by
    unfold Dat.leavesExact; rw [liveAt19_1 t], after19_1]
  by_cases h0 : t.val % 4 = 0
  · have h3 : ¬t.val % 4 = 3 := by omega
    rw [Dat.leavesExact_idle (dat19 V c) 2 t (idleAt19_2 t (notLast19 t h3)) (noFlush19_2 t (notLast19 t h3))]
    rw [outsAt19_A V c t h0]
    unfold sout19_A; (try dsimp only)
    by_cases hz : t.val = 0
    · rw [PhiS19_castSucc V c t, PhiS19_zero V c _ _ hz, PhiA19_eq]
      iintro ⟨⟨⟨HS0, Hrb⟩, Hg⟩, Ho, ⟨%d0, H0⟩, ⟨%d1, H1⟩, ⟨%d2, H2⟩⟩
      iapply ((kernelRun19_A c (grid19.coords t) _ _ _ _ _ _ _ _ (isFirst19 t h0) (notLast19 t (by omega)) (iblk19 V c 0 t) (iblk19 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover19_A c _ _ _ _ _ _ _ _ _ _ _ _ _)
          iexact Hrb
        iexact Hg
      isplitl [Ho]; · iexact Ho
      isplitl [H0]; · iexact H0
      isplitl [H1]; · iexact H1
      iexists _; iexact H2
    · rw [PhiS19_castSucc V c t, PhiS19_pos V c _ _ hz]
      iintro ⟨⟨⟨HS0, Hrb⟩, Hg⟩, Ho, ⟨%d0, H0⟩, ⟨%d1, H1⟩, ⟨%d2, H2⟩⟩
      iapply ((kernelRun19_A c (grid19.coords t) _ _ _ _ _ _ _ _ (isFirst19 t h0) (notLast19 t (by omega)) (iblk19 V c 0 t) (iblk19 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover19_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat19 V c).leavesExact 2 t = owns (c : Thread nD τ) (ms19_2 t) fullShare ((dat19 V c).after 2 t) from by
        unfold Dat.leavesExact; rw [liveAt19_2 t (isLast19 t h3)], after19_2]
      rw [outsAt19_C V c t h0 h3]
      unfold out19_C sout19_C; (try dsimp only)
      rw [PhiS19_castSucc V c t, PhiS19_pos V c _ _ hz]
      iintro ⟨⟨⟨HS0, Hrb⟩, Hg⟩, Ho, ⟨%d0, H0⟩, ⟨%d1, H1⟩, ⟨%d2, H2⟩⟩
      iapply ((kernelRun19_C c (grid19.coords t) _ _ _ _ _ _ _ _ (notFirst19 t h0) (isLast19 t h3) (iblk19 V c 0 t) (iblk19 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover19_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover19_C c _ _ _ _ _ _ _ _ _ _ _ _ _ _)
    · rw [Dat.leavesExact_idle (dat19 V c) 2 t (idleAt19_2 t (notLast19 t h3)) (noFlush19_2 t (notLast19 t h3))]
      rw [outsAt19_B V c t h0 h3]
      unfold sout19_B; (try dsimp only)
      rw [PhiS19_castSucc V c t, PhiS19_pos V c _ _ hz]
      iintro ⟨⟨⟨HS0, Hrb⟩, Hg⟩, Ho, ⟨%d0, H0⟩, ⟨%d1, H1⟩, ⟨%d2, H2⟩⟩
      iapply ((kernelRun19_B c (grid19.coords t) _ _ _ _ _ _ _ _ (notFirst19 t h0) (notLast19 t h3) (iblk19 V c 0 t) (iblk19 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover19_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation19 (c : Dev nD) : BodyObligation (dat19 (F := F) V c) (defs₀ (F := F)) Variants.none () Set.univ := fun t => by
  rw [bigSep_W19, bigSep_W19]
  exact sound_body19 V c t

/-- What the region is entered with is the invariant before the first point. -/
theorem hin19 (c : Dev nD) : Pipeline.ΦA spec19 c ⊢ (dat19 V c).Φ 0 := by
  rw [show (dat19 V c).Φ 0 = PhiS19 V c 0 (Nat.zero_le _) from rfl, PhiS19_zero V c 0 _ rfl]
  try exact Idealize.SL.BI.Entails.refl _

/-- After the last point the invariant gives the class's back: the accumulator's contents are forgotten. -/
theorem hout19 (c : Dev nD) : (dat19 V c).Φ (Fin.last cfg19.N) ⊢ Pipeline.ΦA spec19 c := by
  have hN : cfg19.N = 16 := N_19
  rw [show (dat19 V c).Φ (Fin.last cfg19.N) = PhiS19 V c (Fin.last cfg19.N).val (Nat.le_of_lt_succ (Fin.last cfg19.N).isLt) from rfl,
    PhiS19_pos V c _ _ (by rw [Fin.val_last]; omega), PhiA19_eq]
  iintro ⟨⟨HS0, Hrb⟩, Hg⟩
  isplitl [HS0 Hrb]
  · isplitl [HS0]
    · iexists _; iexact HS0
    iexact Hrb
  iexact Hg

end Cert.Kernel.Hand

end
-- ==== Proof.RegK20a.lean ====
/- Laid out by: python3 scratch/layout_grid41.py --template-region 0 --region 20 --program Kernel --parts a, --shapes S1024x128=S1024x512,S128x512=S512x512
   from the hand-written text of region 0 (RegKI0a.lean): the same text, the region's number, block shapes and the program's namespace substituted. -/
/- The region of Kernel's @main that runs `cc20__matmul_kernel` (pipeline `cfg20`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond20_0 (i : grid20.Coords) : Prop :=
  (Scalar.cmpi .ne (Scalar.extui (Scalar.cmpi .eq (BitVec.ofNat 32 (i 1).val) 0#32)) 0#32) = 1#1
/-- True at every point: the reduction axis has one step. -/
theorem hcond20_0 : ∀ t : Fin cfg20.N, cond20_0 (grid20.coords t) :=
  (by decide +kernel : ∀ t : Fin grid20.N, cond20_0 (grid20.coords t))

/-- "This is the last reduction step" (the guard of the copy to the output block). -/
abbrev cond20_1 (i : grid20.Coords) : Prop := k20_cond2 i = 1#1
/-- True at every point, for the same reason. -/
theorem hcond20_1 : ∀ t : Fin cfg20.N, cond20_1 (grid20.coords t) :=
  (by decide +kernel : ∀ t : Fin grid20.N, cond20_1 (grid20.coords t))

/-! ## No window is idle anywhere -/

theorem liveAt20_0 : ∀ t : Fin cfg20.N, cfg20.idle 0 (grid20.coords t) = false := by decide +kernel
theorem liveAt20_1 : ∀ t : Fin cfg20.N, cfg20.idle 1 (grid20.coords t) = false := by decide +kernel
/-- The output window is stored at every point (the copy's guard holds everywhere). -/
theorem liveAt20_2 : ∀ t : Fin cfg20.N, cfg20.idle 2 (grid20.coords t) = false := by decide +kernel

/-! ## The memrefs the body is called on -/

/-- One staging buffer of the output window, through which its contents are stated (any whole view of the shape reads the
    same pieces back the same way). -/
abbrev VO20_2 : View sig .tc .vmem S1024x512 .f32 := (Memref.whole cc20_stg2_0 : Memref sig .tc .vmem S1024x512 .f32).view
/-- Each window's current staging memref at point `t`, spelt as the pipeline passes it, with its wholeness. -/
abbrev ms20_0 (t : Fin cfg20.N) : Memref sig .tc .vmem S1024x512 .f32 := win20_0.stage (cfg20.slots t 0)
abbrev hs20_0 (t : Fin cfg20.N) : (ms20_0 t).IsWhole := hstage20_0 ((cfg20.slots t 0).cast nbuf20_0)
abbrev ms20_1 (t : Fin cfg20.N) : Memref sig .tc .vmem S512x512 .bf16 := win20_1.stage (cfg20.slots t 1)
abbrev hs20_1 (t : Fin cfg20.N) : (ms20_1 t).IsWhole := hstage20_1 ((cfg20.slots t 1).cast nbuf20_1)
abbrev ms20_2 (t : Fin cfg20.N) : Memref sig .tc .vmem S1024x512 .f32 := win20_2.stage (cfg20.slots t 2)
abbrev hs20_2 (t : Fin cfg20.N) : (ms20_2 t).IsWhole := hstage20_2 ((cfg20.slots t 2).cast nbuf20_2)
/-- The accumulator: a whole scoped buffer of the kernel's own, passed beside the windows. -/
abbrev scM20_0 : Memref sig .tc .vmem S1024x512 .f32 := Memref.whole cc20_scratch0
abbrev VS20_0 : View sig .tc .vmem S1024x512 .f32 := scM20_0.view

/-- The region invariant with the accumulator taken out of the scoped rest: the accumulator owned at some contents, every
    other scoped buffer unopened, and the generator register. -/
theorem PhiA20_eq (c : Dev nD) :
    (Pipeline.ΦA spec20 c : sProp 𝕄)
      = iprop(iprop(iprop((∃ d, owns (c : Thread nD τ) scM20_0 fullShare d))
            ∗ Pipeline.scopedRestBut (Ix := Unit) (Name := ℕ) (U := UR sig nD τ) (Lvl := ℕ) (Val := Elt F) spec20 c [cc20_scratch0])
          ∗ (∃ r, prngReg c r)) := by
  unfold Pipeline.ΦA; rw [scopedRest20_split]; simp only [scM20_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun20 (c : Dev nD) (i : grid20.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond20_0 i) (hlast : cond20_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc20__matmul_kernel i arg2 harg2 arg3 harg3 arg4 harg4 arg5 harg5) K } := by
  refine ⟨?_, ?_, fun E K => ?run⟩
  case run =>
    simp only [cc20__matmul_kernel_eq_skeleton]; unfold cc20__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.Kernel.Hand

end
-- ==== Proof.RegK20.lean ====
/- Laid out by: python3 scratch/layout_grid41.py --template-region 0 --region 20 --program Kernel --parts a, --shapes S1024x128=S1024x512,S128x512=S512x512
   from the hand-written text of region 0 (RegKI0.lean): the same text, the region's number, block shapes and the program's namespace substituted. -/
/- The region of Kernel's @main that runs `cc20__matmul_kernel` (pipeline `cfg20`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegK20a
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-! ## What the case leaves, as pieces read back -/

/-- The output's pieces tile its block (one whole-block store). -/
theorem cover20_2 (c : Dev nD) (i : grid20.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond20_0 i) (hlast : cond20_1 i) (xa : Vec F S1024x512 .f32) (xb : Vec F S512x512 .bf16) (y : S1024x512.Idx) :
    ∃ pc ∈ (kernelRun20 c i arg2 harg2 arg3 harg3 arg4 harg4 arg5 harg5 hfirst hlast xa xb).1, y ∈ pc.1.set :=
  View.cover_of_tiledL (kernelRun20 c i arg2 harg2 arg3 harg3 arg4 harg4 arg5 harg5 hfirst hlast xa xb).1 S1024x512.size (by sl_kernel_rfl) y

/-- What the case leaves in the output's staging buffer: its pieces read back over junk. -/
noncomputable def out20_2 (c : Dev nD) (i : grid20.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond20_0 i) (hlast : cond20_1 i) (xa : Vec F S1024x512 .f32) (xb : Vec F S512x512 .bf16) : Vec F S1024x512 .f32 :=
  VO20_2.read (Elt F) (VO20_2.writes (Elt F) VO20_2.junk (kernelRun20 c i arg2 harg2 arg3 harg3 arg4 harg4 arg5 harg5 hfirst hlast xa xb).1)

/-- What the case leaves in the accumulator: its pieces read back over junk. -/
noncomputable def sout20_0 (c : Dev nD) (i : grid20.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond20_0 i) (hlast : cond20_1 i) (xa : Vec F S1024x512 .f32) (xb : Vec F S512x512 .bf16) : Vec F S1024x512 .f32 :=
  VS20_0.read (Elt F) (VS20_0.writes (Elt F) VS20_0.junk (kernelRun20 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout20_0_eq (c : Dev nD) (i : grid20.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond20_0 i) (hlast : cond20_1 i) (xa : Vec F S1024x512 .f32) (xb : Vec F S512x512 .bf16) :
    sout20_0 c i arg2 harg2 arg3 harg3 arg4 harg4 arg5 harg5 hfirst hlast xa xb = k20_pay2 xa xb (k20_pay1 (F := F)) := by
  unfold sout20_0
  rw [View.read_writes_junk_eq_canon]
  unfold kernelRun20
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out20_2_eq (c : Dev nD) (i : grid20.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond20_0 i) (hlast : cond20_1 i) (xa : Vec F S1024x512 .f32) (xb : Vec F S512x512 .bf16) :
    out20_2 c i arg2 harg2 arg3 harg3 arg4 harg4 arg5 harg5 hfirst hlast xa xb = k20_pay2 xa xb (k20_pay1 (F := F)) := by
  unfold out20_2
  rw [View.read_writes_junk_eq_canon]
  unfold kernelRun20
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt20 (c : Dev nD) (n : ℕ) (hn : n < cfg20.N) : Vec F S1024x512 .f32 × Vec F S1024x512 .f32 :=
  (out20_2 c (grid20.coords ⟨n, hn⟩) (ms20_0 ⟨n, hn⟩) (hs20_0 ⟨n, hn⟩) (ms20_1 ⟨n, hn⟩) (hs20_1 ⟨n, hn⟩) (ms20_2 ⟨n, hn⟩) (hs20_2 ⟨n, hn⟩) scM20_0 (Memref.isWhole_whole _)
      (hcond20_0 ⟨n, hn⟩) (hcond20_1 ⟨n, hn⟩) (iblk20 V c 0 ⟨n, hn⟩) (iblk20 V c 1 ⟨n, hn⟩),
   sout20_0 c (grid20.coords ⟨n, hn⟩) (ms20_0 ⟨n, hn⟩) (hs20_0 ⟨n, hn⟩) (ms20_1 ⟨n, hn⟩) (hs20_1 ⟨n, hn⟩) (ms20_2 ⟨n, hn⟩) (hs20_2 ⟨n, hn⟩) scM20_0 (Memref.isWhole_whole _)
      (hcond20_0 ⟨n, hn⟩) (hcond20_1 ⟨n, hn⟩) (iblk20 V c 0 ⟨n, hn⟩) (iblk20 V c 1 ⟨n, hn⟩))

/-- Every point is a first reduction step: the accumulator after it is one product onto zero. -/
theorem outsAt20_first (c : Dev nD) (t : Fin cfg20.N) :
    (outsAt20 V c t.val t.isLt).2 = k20_pay2 (iblk20 V c 0 t) (iblk20 V c 1 t) (k20_pay1 (F := F)) := by
  obtain ⟨n, hn⟩ := t
  unfold outsAt20
  dsimp only
  rw [sout20_0_eq]

/-- Every point is a last reduction step: the output block after it is the accumulator. -/
theorem outsAt20_last (c : Dev nD) (t : Fin cfg20.N) :
    (outsAt20 V c t.val t.isLt).1 = (outsAt20 V c t.val t.isLt).2 := by
  obtain ⟨n, hn⟩ := t
  unfold outsAt20
  dsimp only
  rw [out20_2_eq, sout20_0_eq]

/-! ## The pipeline's proof data -/

/-- The proof data of the pipeline on core `c`: the arrays as the region finds them; after the body at point `t` each input's
    buffer at its block and the output's at `outsAt20`'s first component; the invariant the same at every point; nothing owed;
    full shares. -/
noncomputable def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => (outsAt20 V c t.val t.isLt).1
  Φ _ := Pipeline.ΦA spec20 c
  q _ := fullShare
  owed _ := 0

theorem A_eq20 (c : Dev nD) (w : Fin cfg20.W) : (dat20 V c).A w = V c (Pipeline.arrRef spec20 w) := by
  dsimp only [dat20]

theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = (outsAt20 V c t.val t.isLt).1 := by dsimp only [dat20]

/-- An input's current staging buffer holds its block at every point, fetched there or not: where it is not fetched its block
    index has not moved since the point before, and the body left the block in place. -/
theorem before20_0 (c : Dev nD) (t : Fin cfg20.N) (d) : (dat20 V c).before 0 t d = iblk20 V c 0 t :=
  ((dat20 V c).before_in_eq_fetched 0 rfl (fun _ => rfl) (fun _ _ _ => rfl)
      (fun t => by rw [after20_0]; unfold Dat.blockOf iblk20; rw [A_eq20]; try rfl) t d).trans
    (by unfold Dat.fetched Dat.blockOf iblk20; rw [A_eq20]; try rfl)
theorem before20_1 (c : Dev nD) (t : Fin cfg20.N) (d) : (dat20 V c).before 1 t d = iblk20 V c 1 t :=
  ((dat20 V c).before_in_eq_fetched 1 rfl (fun _ => rfl) (fun _ _ _ => rfl)
      (fun t => by rw [after20_1]; unfold Dat.blockOf iblk20; rw [A_eq20]; try rfl) t d).trans
    (by unfold Dat.fetched Dat.blockOf iblk20; rw [A_eq20]; try rfl)

/-! ## The body obligation, at a generic point -/

/-- What the body is called with at point `t`, the windows one by one, -/
noncomputable def bodyPre20 (c : Dev nD) (t : Fin cfg20.N) : sProp 𝕄 :=
  iprop((dat20 V c).Φ t.castSucc ∗ (dat20 V c).owesAt () t.castSucc
    ∗ (∃ d, owns (c : Thread nD τ) (ms20_0 t) fullShare ((dat20 V c).before 0 t d))
    ∗ (∃ d, owns (c : Thread nD τ) (ms20_1 t) fullShare ((dat20 V c).before 1 t d))
    ∗ (∃ d, owns (c : Thread nD τ) (ms20_2 t) fullShare ((dat20 V c).before 2 t d)))

/-- and what it returns. -/
noncomputable def bodyPost20 (c : Dev nD) (t : Fin cfg20.N) : sProp 𝕄 :=
  iprop((dat20 V c).Φ t.succ ∗ (dat20 V c).owesAt () t.succ
    ∗ (dat20 V c).leavesExact 0 t
    ∗ (dat20 V c).leavesExact 1 t
    ∗ (dat20 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1]
  rw [show (dat20 V c).owesAt () t.succ = (dat20 V c).owesAt () t.castSucc from rfl,
    show (dat20 V c).Φ t.succ = Pipeline.ΦA spec20 c from rfl, show (dat20 V c).Φ t.castSucc = Pipeline.ΦA spec20 c from rfl, PhiA20_eq]
  rw [show (dat20 V c).leavesExact 0 t = owns (c : Thread nD τ) (ms20_0 t) fullShare ((dat20 V c).after 0 t) from by
      unfold Dat.leavesExact; rw [liveAt20_0 t], after20_0]
  rw [show (dat20 V c).leavesExact 1 t = owns (c : Thread nD τ) (ms20_1 t) fullShare ((dat20 V c).after 1 t) from by
      unfold Dat.leavesExact; rw [liveAt20_1 t], after20_1]
  rw [show (dat20 V c).leavesExact 2 t = owns (c : Thread nD τ) (ms20_2 t) fullShare ((dat20 V c).after 2 t) from by
      unfold Dat.leavesExact; rw [liveAt20_2 t], after20_2]
  unfold outsAt20 out20_2; (try dsimp only)
  iintro ⟨⟨⟨Hacc, Hrest⟩, Hgen⟩, Howe, ⟨%da, Ha⟩, ⟨%db, Hb⟩, ⟨%dO, Hout⟩⟩
  iapply ((kernelRun20 c (grid20.coords t) _ _ _ _ _ _ _ _ (hcond20_0 t) (hcond20_1 t) (iblk20 V c 0 t) (iblk20 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover20_2 c _ _ _ _ _ _ _ _ _ _ _ _ _)

/-- The library's body obligation, at every point. -/
theorem body_obligation20 (c : Dev nD) : BodyObligation (dat20 (F := F) V c) (defs₀ (F := F)) Variants.none () Set.univ := fun t => by
  rw [bigSep_W20, bigSep_W20]
  exact sound_body20 V c t

/-- What the launch hands the region is the invariant before the first point, -/
theorem hin20 (c : Dev nD) : Pipeline.ΦA spec20 c ⊢ (dat20 V c).Φ 0 := Idealize.SL.BI.Entails.refl _

/-- and the invariant after the last point is what the launch takes back. -/
theorem hout20 (c : Dev nD) : (dat20 V c).Φ (Fin.last cfg20.N) ⊢ Pipeline.ΦA spec20 c := Idealize.SL.BI.Entails.refl _

end Cert.Kernel.Hand

end
-- ==== Proof.RegK21a.lean ====
/- Laid out by: python3 scratch/layout_regions.py --template-region 1 --region 21 --program Kernel --parts a,b,c, --out-dir proof/Proof
   from the hand-written text of region 1 (RegKI1a.lean): the same text, the region's number and the program's namespace substituted. -/
/-
  Region 21 of @main (custom_call 21): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond21_0 (i : grid21.Coords) : Prop := (Scalar.cmpi .ne (Scalar.extui (Scalar.cmpi .eq (BitVec.ofNat 32 (i 1).val) 0#32)) 0#32) = 1#1
/-- It holds exactly at the points with t % 4 = 0. -/
theorem hcond21_0 : ∀ t : Fin cfg21.N, cond21_0 (grid21.coords t) ↔ t.val % 4 = 0 :=
  (by decide +kernel : ∀ t : Fin grid21.N, cond21_0 (grid21.coords t) ↔ t.val % 4 = 0)

/-- "k = 3": the second conditional's test. -/
abbrev cond21_1 (i : grid21.Coords) : Prop := k21_cond2 i = 1#1
/-- It holds exactly at the points with t % 4 = 3. -/
theorem hcond21_1 : ∀ t : Fin cfg21.N, cond21_1 (grid21.coords t) ↔ t.val % 4 = 3 :=
  (by decide +kernel : ∀ t : Fin grid21.N, cond21_1 (grid21.coords t) ↔ t.val % 4 = 3)

/-! ## Where the windows are idle, and where the output is written back -/

/-- The two input windows are never idle. -/
theorem liveAt21_0 : ∀ t : Fin cfg21.N, cfg21.idle 0 (grid21.coords t) = false := by decide +kernel
theorem liveAt21_1 : ∀ t : Fin cfg21.N, cfg21.idle 1 (grid21.coords t) = false := by decide +kernel
/-- Where k ≠ 3 the output window is idle (the body stores nothing into it) and is not written back. -/
theorem idleAt21_2 : ∀ t : Fin cfg21.N, ¬cond21_1 (grid21.coords t) → cfg21.idle 2 (grid21.coords t) = true := by decide +kernel
theorem noFlush21_2 : ∀ t : Fin cfg21.N, ¬cond21_1 (grid21.coords t) → (cfg21.win 2).flush t = false := by decide +kernel
/-- Where k = 3 it is live. -/
theorem liveAt21_2 : ∀ t : Fin cfg21.N, cond21_1 (grid21.coords t) → cfg21.idle 2 (grid21.coords t) = false := by decide +kernel

/-! ## The staging memrefs at a point, and the scratch -/

/-- One staging buffer of the output window, through which its contents are stated. -/
abbrev VO21_2 : View sig .tc .vmem S1024x512 .f32 := (Memref.whole cc21_stg2_0 : Memref sig .tc .vmem S1024x512 .f32).view
abbrev ms21_0 (t : Fin cfg21.N) : Memref sig .tc .vmem S1024x1024 .bf16 := win21_0.stage (cfg21.slots t 0)
abbrev hs21_0 (t : Fin cfg21.N) : (ms21_0 t).IsWhole := hstage21_0 ((cfg21.slots t 0).cast nbuf21_0)
abbrev ms21_1 (t : Fin cfg21.N) : Memref sig .tc .vmem S1024x512 .f32 := win21_1.stage (cfg21.slots t 1)
abbrev hs21_1 (t : Fin cfg21.N) : (ms21_1 t).IsWhole := hstage21_1 ((cfg21.slots t 1).cast nbuf21_1)
abbrev ms21_2 (t : Fin cfg21.N) : Memref sig .tc .vmem S1024x512 .f32 := win21_2.stage (cfg21.slots t 2)
abbrev hs21_2 (t : Fin cfg21.N) : (ms21_2 t).IsWhole := hstage21_2 ((cfg21.slots t 2).cast nbuf21_2)
/-- The accumulator: a whole scoped buffer of the kernel's own. -/
abbrev scM21 : Memref sig .tc .vmem S1024x512 .f32 := Memref.whole cc21_scratch0
abbrev VS21 : View sig .tc .vmem S1024x512 .f32 := scM21.view

/-- The other scoped buffers of the core, none of which this region touches. -/
abbrev restBut21 (c : Dev nD) : sProp 𝕄 :=
  Pipeline.scopedRestBut (Ix := Unit) (Name := ℕ) (U := UR sig nD τ) (Lvl := ℕ) (Val := Elt F) spec21 c [cc21_scratch0]

/-- The region's invariant before its first point: the accumulator at something, the other scoped buffers, the generator register. -/
theorem PhiA21_eq (c : Dev nD) :
    (Pipeline.ΦA spec21 c : sProp 𝕄)
      = iprop(iprop((∃ d, owns (c : Thread nD τ) scM21 fullShare d) ∗ restBut21 c) ∗ (∃ r, prngReg c r)) := by
  unfold Pipeline.ΦA; rw [scopedRest21_split]; simp only [scM21, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun21_A (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond21_0 i) (hc1 : ¬cond21_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc21__matmul_kernel i arg2 harg2 arg3 harg3 arg4 harg4 arg5 harg5) K } := by
  refine ⟨[], ?_, fun xi2 E K => ?run⟩
  case run =>
    simp only [cc21__matmul_kernel_eq_skeleton]; unfold cc21__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK21b.lean ====
/- Laid out by: python3 scratch/layout_regions.py --template-region 1 --region 21 --program Kernel --parts a,b,c, --out-dir proof/Proof
   from the hand-written text of region 1 (RegKI1b.lean): the same text, the region's number and the program's namespace substituted. -/
/-
  Region 21, case B (k = 1, 2): the body's run. Neither conditional is taken: the product of the two blocks is added to what
  the point before left in the accumulator; the output block is not touched.
-/
import proofs.«158944_j64613488001249_1_alg».proof.Proof.RegK21a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun21_B (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond21_0 i) (hc1 : ¬cond21_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc21__matmul_kernel i arg2 harg2 arg3 harg3 arg4 harg4 arg5 harg5) K } := by
  refine ⟨[], ?_, fun xi2 E K => ?run⟩
  case run =>
    simp only [cc21__matmul_kernel_eq_skeleton]; unfold cc21__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK21c.lean ====
/- Laid out by: python3 scratch/layout_regions.py --template-region 1 --region 21 --program Kernel --parts a,b,c, --out-dir proof/Proof
   from the hand-written text of region 1 (RegKI1c.lean): the same text, the region's number and the program's namespace substituted. -/
/-
  Region 21, case C (k = 3): the body's run. The product is added to the accumulator as in case B, and then the second
  conditional copies the accumulator over the whole output block.
-/
import proofs.«158944_j64613488001249_1_alg».proof.Proof.RegK21b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun21_C (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond21_0 i) (hc1 : cond21_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc21__matmul_kernel i arg2 harg2 arg3 harg3 arg4 harg4 arg5 harg5) K } := by
  refine ⟨?_, ?_, fun E K => ?run⟩
  case run =>
    simp only [cc21__matmul_kernel_eq_skeleton]; unfold cc21__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK21.lean ====
/- Laid out by: python3 scratch/layout_regions.py --template-region 1 --region 21 --program Kernel --parts a,b,c, --out-dir proof/Proof
   from the hand-written text of region 1 (RegKI1.lean): the same text, the region's number and the program's namespace substituted. -/
/-
  Region 21 of @main, entered from the buffer contents `V`: what its windows' blocks are, what each case of the body leaves in
  the accumulator and in the output block, the accumulator and the output block point by point (`outsAt21`: at k = 0 the
  accumulator restarts from zeros plus the product; at k = 1, 2, 3 it is the point before's plus the product; at k = 3 the
  output block is the accumulator), the region's invariant (the accumulator at `outsAt21`'s second component), the proof data,
  and the body's obligation at every point.
-/
import proofs.«158944_j64613488001249_1_alg».proof.Proof.RegK21c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- An input window's current staging buffer holds its block at every point, for any proof data whose array is `V`'s and
    whose body leaves the block in place. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)

/-! ## What each case leaves -/

/-- Case A's stores into the accumulator cover it. -/
theorem scover21_A (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond21_0 i) (hc1 : ¬cond21_1 i)
    (x0 : Vec F S1024x1024 .bf16) (x1 : Vec F S1024x512 .f32) (y : S1024x512.Idx) :
    ∃ pc ∈ (kernelRun21_A c i arg2 harg2 arg3 harg3 arg4 harg4 arg5 harg5 hc0 hc1 x0 x1).2.1, y ∈ pc.1.set :=
  View.cover_of_tiledL (kernelRun21_A c i arg2 harg2 arg3 harg3 arg4 harg4 arg5 harg5 hc0 hc1 x0 x1).2.1 S1024x512.size (by sl_kernel_rfl) y
/-- What case A leaves in the accumulator. -/
noncomputable def sout21_A (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond21_0 i) (hc1 : ¬cond21_1 i)
    (x0 : Vec F S1024x1024 .bf16) (x1 : Vec F S1024x512 .f32) : Vec F S1024x512 .f32 :=
  VS21.read (Elt F) (VS21.writes (Elt F) VS21.junk (kernelRun21_A c i arg2 harg2 arg3 harg3 arg4 harg4 arg5 harg5 hc0 hc1 x0 x1).2.1)

/-- Case B's store into the accumulator covers it. -/
theorem scover21_B (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond21_0 i) (hc1 : ¬cond21_1 i)
    (x0 : Vec F S1024x1024 .bf16) (x1 : Vec F S1024x512 .f32) (xs0 : Vec F S1024x512 .f32) (y : S1024x512.Idx) :
    ∃ pc ∈ (kernelRun21_B c i arg2 harg2 arg3 harg3 arg4 harg4 arg5 harg5 hc0 hc1 x0 x1 xs0).2.1, y ∈ pc.1.set :=
  View.cover_of_tiledL (kernelRun21_B c i arg2 harg2 arg3 harg3 arg4 harg4 arg5 harg5 hc0 hc1 x0 x1 xs0).2.1 S1024x512.size (by sl_kernel_rfl) y
/-- What case B leaves in the accumulator, over what the point before left. -/
noncomputable def sout21_B (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond21_0 i) (hc1 : ¬cond21_1 i)
    (x0 : Vec F S1024x1024 .bf16) (x1 : Vec F S1024x512 .f32) (xs0 : Vec F S1024x512 .f32) : Vec F S1024x512 .f32 :=
  VS21.read (Elt F) (VS21.writes (Elt F) VS21.junk (kernelRun21_B c i arg2 harg2 arg3 harg3 arg4 harg4 arg5 harg5 hc0 hc1 x0 x1 xs0).2.1)

/-- Case C's store into the output block covers it, and so does its store into the accumulator. -/
theorem cover21_C (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond21_0 i) (hc1 : cond21_1 i)
    (x0 : Vec F S1024x1024 .bf16) (x1 : Vec F S1024x512 .f32) (xs0 : Vec F S1024x512 .f32) (y : S1024x512.Idx) :
    ∃ pc ∈ (kernelRun21_C c i arg2 harg2 arg3 harg3 arg4 harg4 arg5 harg5 hc0 hc1 x0 x1 xs0).1, y ∈ pc.1.set :=
  View.cover_of_tiledL (kernelRun21_C c i arg2 harg2 arg3 harg3 arg4 harg4 arg5 harg5 hc0 hc1 x0 x1 xs0).1 S1024x512.size (by sl_kernel_rfl) y
theorem scover21_C (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond21_0 i) (hc1 : cond21_1 i)
    (x0 : Vec F S1024x1024 .bf16) (x1 : Vec F S1024x512 .f32) (xs0 : Vec F S1024x512 .f32) (y : S1024x512.Idx) :
    ∃ pc ∈ (kernelRun21_C c i arg2 harg2 arg3 harg3 arg4 harg4 arg5 harg5 hc0 hc1 x0 x1 xs0).2.1, y ∈ pc.1.set :=
  View.cover_of_tiledL (kernelRun21_C c i arg2 harg2 arg3 harg3 arg4 harg4 arg5 harg5 hc0 hc1 x0 x1 xs0).2.1 S1024x512.size (by sl_kernel_rfl) y
/-- What case C leaves in the output block, and in the accumulator. -/
noncomputable def out21_C (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond21_0 i) (hc1 : cond21_1 i)
    (x0 : Vec F S1024x1024 .bf16) (x1 : Vec F S1024x512 .f32) (xs0 : Vec F S1024x512 .f32) : Vec F S1024x512 .f32 :=
  VO21_2.read (Elt F) (VO21_2.writes (Elt F) VO21_2.junk (kernelRun21_C c i arg2 harg2 arg3 harg3 arg4 harg4 arg5 harg5 hc0 hc1 x0 x1 xs0).1)
noncomputable def sout21_C (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond21_0 i) (hc1 : cond21_1 i)
    (x0 : Vec F S1024x1024 .bf16) (x1 : Vec F S1024x512 .f32) (xs0 : Vec F S1024x512 .f32) : Vec F S1024x512 .f32 :=
  VS21.read (Elt F) (VS21.writes (Elt F) VS21.junk (kernelRun21_C c i arg2 harg2 arg3 harg3 arg4 harg4 arg5 harg5 hc0 hc1 x0 x1 xs0).2.1)

/-- Where the output block is idle nothing consults what it holds: a placeholder. -/
noncomputable def outIdle21 : Vec F S1024x512 .f32 := VO21_2.read (Elt F) (VO21_2.writes (Elt F) VO21_2.junk [])

/-! ## The conditions at a point, from t % 4 -/

theorem isFirst21 (t : Fin cfg21.N) (h : t.val % 4 = 0) : cond21_0 (grid21.coords t) := (hcond21_0 t).mpr h
theorem notFirst21 (t : Fin cfg21.N) (h : ¬t.val % 4 = 0) : ¬cond21_0 (grid21.coords t) := fun hc => h ((hcond21_0 t).mp hc)
theorem isLast21 (t : Fin cfg21.N) (h : t.val % 4 = 3) : cond21_1 (grid21.coords t) := (hcond21_1 t).mpr h
theorem notLast21 (t : Fin cfg21.N) (h : ¬t.val % 4 = 3) : ¬cond21_1 (grid21.coords t) := fun hc => h ((hcond21_1 t).mp hc)

/-! ## The accumulator and the output block, point by point -/

/-- After the body at position `n`: (the output block's buffer, the accumulator). -/
noncomputable def outsAt21 (c : Dev nD) : (n : ℕ) → n < cfg21.N → Vec F S1024x512 .f32 × Vec F S1024x512 .f32
  | 0, hn => (outIdle21, sout21_A c (grid21.coords ⟨0, hn⟩) (ms21_0 ⟨0, hn⟩) (hs21_0 ⟨0, hn⟩) (ms21_1 ⟨0, hn⟩) (hs21_1 ⟨0, hn⟩) (ms21_2 ⟨0, hn⟩) (hs21_2 ⟨0, hn⟩) scM21 (Memref.isWhole_whole _) (isFirst21 ⟨0, hn⟩ (Nat.zero_mod _)) (notLast21 ⟨0, hn⟩ (by simp)) (iblk21 V c 0 ⟨0, hn⟩) (iblk21 V c 1 ⟨0, hn⟩))
  | n + 1, hn =>
    if h0 : (n + 1) % 4 = 0 then
      (outIdle21, sout21_A c (grid21.coords ⟨n + 1, hn⟩) (ms21_0 ⟨n + 1, hn⟩) (hs21_0 ⟨n + 1, hn⟩) (ms21_1 ⟨n + 1, hn⟩) (hs21_1 ⟨n + 1, hn⟩) (ms21_2 ⟨n + 1, hn⟩) (hs21_2 ⟨n + 1, hn⟩) scM21 (Memref.isWhole_whole _) (isFirst21 ⟨n + 1, hn⟩ h0) (notLast21 ⟨n + 1, hn⟩ (by show ¬(n + 1) % 4 = 3; omega)) (iblk21 V c 0 ⟨n + 1, hn⟩) (iblk21 V c 1 ⟨n + 1, hn⟩))
    else if h3 : (n + 1) % 4 = 3 then
      (out21_C c (grid21.coords ⟨n + 1, hn⟩) (ms21_0 ⟨n + 1, hn⟩) (hs21_0 ⟨n + 1, hn⟩) (ms21_1 ⟨n + 1, hn⟩) (hs21_1 ⟨n + 1, hn⟩) (ms21_2 ⟨n + 1, hn⟩) (hs21_2 ⟨n + 1, hn⟩) scM21 (Memref.isWhole_whole _) (notFirst21 ⟨n + 1, hn⟩ h0) (isLast21 ⟨n + 1, hn⟩ h3) (iblk21 V c 0 ⟨n + 1, hn⟩) (iblk21 V c 1 ⟨n + 1, hn⟩) (outsAt21 c n (Nat.lt_of_succ_lt hn)).2,
       sout21_C c (grid21.coords ⟨n + 1, hn⟩) (ms21_0 ⟨n + 1, hn⟩) (hs21_0 ⟨n + 1, hn⟩) (ms21_1 ⟨n + 1, hn⟩) (hs21_1 ⟨n + 1, hn⟩) (ms21_2 ⟨n + 1, hn⟩) (hs21_2 ⟨n + 1, hn⟩) scM21 (Memref.isWhole_whole _) (notFirst21 ⟨n + 1, hn⟩ h0) (isLast21 ⟨n + 1, hn⟩ h3) (iblk21 V c 0 ⟨n + 1, hn⟩) (iblk21 V c 1 ⟨n + 1, hn⟩) (outsAt21 c n (Nat.lt_of_succ_lt hn)).2)
    else
      (outIdle21, sout21_B c (grid21.coords ⟨n + 1, hn⟩) (ms21_0 ⟨n + 1, hn⟩) (hs21_0 ⟨n + 1, hn⟩) (ms21_1 ⟨n + 1, hn⟩) (hs21_1 ⟨n + 1, hn⟩) (ms21_2 ⟨n + 1, hn⟩) (hs21_2 ⟨n + 1, hn⟩) scM21 (Memref.isWhole_whole _) (notFirst21 ⟨n + 1, hn⟩ h0) (notLast21 ⟨n + 1, hn⟩ h3) (iblk21 V c 0 ⟨n + 1, hn⟩) (iblk21 V c 1 ⟨n + 1, hn⟩) (outsAt21 c n (Nat.lt_of_succ_lt hn)).2)

/-- `outsAt21` at a point with k = 0. -/
theorem outsAt21_A (c : Dev nD) (t : Fin cfg21.N) (h0 : t.val % 4 = 0) :
    outsAt21 V c t.val t.isLt = (outIdle21, sout21_A c (grid21.coords t) (ms21_0 t) (hs21_0 t) (ms21_1 t) (hs21_1 t) (ms21_2 t) (hs21_2 t) scM21 (Memref.isWhole_whole _) (isFirst21 t h0) (notLast21 t (by omega)) (iblk21 V c 0 t) (iblk21 V c 1 t)) := by
  obtain ⟨n, hn⟩ := t
  cases n with
  | zero => rfl
  | succ n => exact (dif_pos h0).trans rfl

/-- `outsAt21` at a point with k = 1, 2: over what the point before left. -/
theorem outsAt21_B (c : Dev nD) (t : Fin cfg21.N) (h0 : ¬t.val % 4 = 0) (h3 : ¬t.val % 4 = 3) :
    outsAt21 V c t.val t.isLt = (outIdle21, sout21_B c (grid21.coords t) (ms21_0 t) (hs21_0 t) (ms21_1 t) (hs21_1 t) (ms21_2 t) (hs21_2 t) scM21 (Memref.isWhole_whole _) (notFirst21 t h0) (notLast21 t h3) (iblk21 V c 0 t) (iblk21 V c 1 t)
      (outsAt21 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt21` at a point with k = 3. -/
theorem outsAt21_C (c : Dev nD) (t : Fin cfg21.N) (h0 : ¬t.val % 4 = 0) (h3 : t.val % 4 = 3) :
    outsAt21 V c t.val t.isLt = (out21_C c (grid21.coords t) (ms21_0 t) (hs21_0 t) (ms21_1 t) (hs21_1 t) (ms21_2 t) (hs21_2 t) scM21 (Memref.isWhole_whole _) (notFirst21 t h0) (isLast21 t h3) (iblk21 V c 0 t) (iblk21 V c 1 t)
        (outsAt21 V c (t.val - 1) (Nat.lt_of_le_of_lt (Nat.sub_le _ _) t.isLt)).2,
      sout21_C c (grid21.coords t) (ms21_0 t) (hs21_0 t) (ms21_1 t) (hs21_1 t) (ms21_2 t) (hs21_2 t) scM21 (Memref.isWhole_whole _) (notFirst21 t h0) (isLast21 t h3) (iblk21 V c 0 t) (iblk21 V c 1 t)
        (outsAt21 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS21 (c : Dev nD) : (n : ℕ) → n ≤ cfg21.N → sProp 𝕄
  | 0, _ => Pipeline.ΦA spec21 c
  | n + 1, hn => iprop(iprop(owns (c : Thread nD τ) scM21 fullShare ((outsAt21 V c n hn).2) ∗ restBut21 c) ∗ (∃ r, prngReg c r))

theorem PhiS21_zero (c : Dev nD) (n : ℕ) (h : n ≤ cfg21.N) (hz : n = 0) : PhiS21 V c n h = Pipeline.ΦA spec21 c := by
  subst hz; rfl
theorem PhiS21_succ (c : Dev nD) (n : ℕ) (hn : n < cfg21.N) :
    PhiS21 V c (n + 1) hn = iprop(iprop(owns (c : Thread nD τ) scM21 fullShare ((outsAt21 V c n hn).2) ∗ restBut21 c) ∗ (∃ r, prngReg c r)) := rfl
theorem PhiS21_pos (c : Dev nD) (n : ℕ) (h : n ≤ cfg21.N) (hz : n ≠ 0) :
    PhiS21 V c n h = iprop(iprop(owns (c : Thread nD τ) scM21 fullShare ((outsAt21 V c (n - 1) (by omega)).2) ∗ restBut21 c) ∗ (∃ r, prngReg c r)) := by
  cases n with
  | zero => exact absurd rfl hz
  | succ n => rfl

/-! ## The proof data -/

/-- The region's proof data on core `c`: the arrays as the region finds them; after the body at point `t` each input's
    buffer at its block and the output's at `outsAt21`'s first component; the invariant `PhiS21`; nothing owed; full shares. -/
noncomputable def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => (outsAt21 V c t.val t.isLt).1
  Φ t := PhiS21 V c t.val (Nat.le_of_lt_succ t.isLt)
  q _ := fullShare
  owed _ := 0

theorem A_eq21 (c : Dev nD) (w : Fin cfg21.W) : (dat21 V c).A w = V c (Pipeline.arrRef spec21 w) := by
  dsimp only [dat21]
theorem PhiS21_castSucc (c : Dev nD) (t : Fin cfg21.N) :
    (dat21 V c).Φ t.castSucc = PhiS21 V c t.val (Nat.le_of_lt t.isLt) := by
  dsimp only [dat21]; simp only [Fin.coe_castSucc]
theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = (outsAt21 V c t.val t.isLt).1 := by dsimp only [dat21]
theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d

/-! ## The body's obligation -/

noncomputable def bodyPre21 (c : Dev nD) (t : Fin cfg21.N) : sProp 𝕄 :=
  iprop((dat21 V c).Φ t.castSucc ∗ (dat21 V c).owesAt () t.castSucc
    ∗ (∃ d, owns (c : Thread nD τ) (ms21_0 t) fullShare ((dat21 V c).before 0 t d))
    ∗ (∃ d, owns (c : Thread nD τ) (ms21_1 t) fullShare ((dat21 V c).before 1 t d))
    ∗ (∃ d, owns (c : Thread nD τ) (ms21_2 t) fullShare ((dat21 V c).before 2 t d)))

noncomputable def bodyPost21 (c : Dev nD) (t : Fin cfg21.N) : sProp 𝕄 :=
  iprop((dat21 V c).Φ t.succ ∗ (dat21 V c).owesAt () t.succ
    ∗ (dat21 V c).leavesExact 0 t
    ∗ (dat21 V c).leavesExact 1 t
    ∗ (dat21 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1]
  rw [show (dat21 V c).owesAt () t.succ = (dat21 V c).owesAt () t.castSucc from rfl]
  rw [show (dat21 V c).Φ t.succ = PhiS21 V c (t.val + 1) t.isLt from rfl, PhiS21_succ]
  rw [show (dat21 V c).leavesExact 0 t = owns (c : Thread nD τ) (ms21_0 t) fullShare ((dat21 V c).after 0 t) from by
    unfold Dat.leavesExact; rw [liveAt21_0 t], after21_0]
  rw [show (dat21 V c).leavesExact 1 t = owns (c : Thread nD τ) (ms21_1 t) fullShare ((dat21 V c).after 1 t) from by
    unfold Dat.leavesExact; rw [liveAt21_1 t], after21_1]
  by_cases h0 : t.val % 4 = 0
  · have h3 : ¬t.val % 4 = 3 := by omega
    rw [Dat.leavesExact_idle (dat21 V c) 2 t (idleAt21_2 t (notLast21 t h3)) (noFlush21_2 t (notLast21 t h3))]
    rw [outsAt21_A V c t h0]
    unfold sout21_A; (try dsimp only)
    by_cases hz : t.val = 0
    · rw [PhiS21_castSucc V c t, PhiS21_zero V c _ _ hz, PhiA21_eq]
      iintro ⟨⟨⟨HS0, Hrb⟩, Hg⟩, Ho, ⟨%d0, H0⟩, ⟨%d1, H1⟩, ⟨%d2, H2⟩⟩
      iapply ((kernelRun21_A c (grid21.coords t) _ _ _ _ _ _ _ _ (isFirst21 t h0) (notLast21 t (by omega)) (iblk21 V c 0 t) (iblk21 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover21_A c _ _ _ _ _ _ _ _ _ _ _ _ _)
          iexact Hrb
        iexact Hg
      isplitl [Ho]; · iexact Ho
      isplitl [H0]; · iexact H0
      isplitl [H1]; · iexact H1
      iexists _; iexact H2
    · rw [PhiS21_castSucc V c t, PhiS21_pos V c _ _ hz]
      iintro ⟨⟨⟨HS0, Hrb⟩, Hg⟩, Ho, ⟨%d0, H0⟩, ⟨%d1, H1⟩, ⟨%d2, H2⟩⟩
      iapply ((kernelRun21_A c (grid21.coords t) _ _ _ _ _ _ _ _ (isFirst21 t h0) (notLast21 t (by omega)) (iblk21 V c 0 t) (iblk21 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover21_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat21 V c).leavesExact 2 t = owns (c : Thread nD τ) (ms21_2 t) fullShare ((dat21 V c).after 2 t) from by
        unfold Dat.leavesExact; rw [liveAt21_2 t (isLast21 t h3)], after21_2]
      rw [outsAt21_C V c t h0 h3]
      unfold out21_C sout21_C; (try dsimp only)
      rw [PhiS21_castSucc V c t, PhiS21_pos V c _ _ hz]
      iintro ⟨⟨⟨HS0, Hrb⟩, Hg⟩, Ho, ⟨%d0, H0⟩, ⟨%d1, H1⟩, ⟨%d2, H2⟩⟩
      iapply ((kernelRun21_C c (grid21.coords t) _ _ _ _ _ _ _ _ (notFirst21 t h0) (isLast21 t h3) (iblk21 V c 0 t) (iblk21 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover21_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover21_C c _ _ _ _ _ _ _ _ _ _ _ _ _ _)
    · rw [Dat.leavesExact_idle (dat21 V c) 2 t (idleAt21_2 t (notLast21 t h3)) (noFlush21_2 t (notLast21 t h3))]
      rw [outsAt21_B V c t h0 h3]
      unfold sout21_B; (try dsimp only)
      rw [PhiS21_castSucc V c t, PhiS21_pos V c _ _ hz]
      iintro ⟨⟨⟨HS0, Hrb⟩, Hg⟩, Ho, ⟨%d0, H0⟩, ⟨%d1, H1⟩, ⟨%d2, H2⟩⟩
      iapply ((kernelRun21_B c (grid21.coords t) _ _ _ _ _ _ _ _ (notFirst21 t h0) (notLast21 t h3) (iblk21 V c 0 t) (iblk21 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover21_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation21 (c : Dev nD) : BodyObligation (dat21 (F := F) V c) (defs₀ (F := F)) Variants.none () Set.univ := fun t => by
  rw [bigSep_W21, bigSep_W21]
  exact sound_body21 V c t

/-- What the region is entered with is the invariant before the first point. -/
theorem hin21 (c : Dev nD) : Pipeline.ΦA spec21 c ⊢ (dat21 V c).Φ 0 := by
  rw [show (dat21 V c).Φ 0 = PhiS21 V c 0 (Nat.zero_le _) from rfl, PhiS21_zero V c 0 _ rfl]
  try exact Idealize.SL.BI.Entails.refl _

/-- After the last point the invariant gives the class's back: the accumulator's contents are forgotten. -/
theorem hout21 (c : Dev nD) : (dat21 V c).Φ (Fin.last cfg21.N) ⊢ Pipeline.ΦA spec21 c := by
  have hN : cfg21.N = 16 := N_21
  rw [show (dat21 V c).Φ (Fin.last cfg21.N) = PhiS21 V c (Fin.last cfg21.N).val (Nat.le_of_lt_succ (Fin.last cfg21.N).isLt) from rfl,
    PhiS21_pos V c _ _ (by rw [Fin.val_last]; omega), PhiA21_eq]
  iintro ⟨⟨HS0, Hrb⟩, Hg⟩
  isplitl [HS0 Hrb]
  · isplitl [HS0]
    · iexists _; iexact HS0
    iexact Hrb
  iexact Hg

end Cert.Kernel.Hand

end
-- ==== Proof.RegK22a.lean ====
/- Laid out by: python3 scratch/layout_regions.py --template-region 1 --region 22 --program Kernel --parts a,b,c, --out-dir proof/Proof
   from the hand-written text of region 1 (RegKI1a.lean): the same text, the region's number and the program's namespace substituted. -/
/-
  Region 22 of @main (custom_call 22): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond22_0 (i : grid22.Coords) : Prop := (Scalar.cmpi .ne (Scalar.extui (Scalar.cmpi .eq (BitVec.ofNat 32 (i 1).val) 0#32)) 0#32) = 1#1
/-- It holds exactly at the points with t % 4 = 0. -/
theorem hcond22_0 : ∀ t : Fin cfg22.N, cond22_0 (grid22.coords t) ↔ t.val % 4 = 0 :=
  (by decide +kernel : ∀ t : Fin grid22.N, cond22_0 (grid22.coords t) ↔ t.val % 4 = 0)

/-- "k = 3": the second conditional's test. -/
abbrev cond22_1 (i : grid22.Coords) : Prop := k22_cond2 i = 1#1
/-- It holds exactly at the points with t % 4 = 3. -/
theorem hcond22_1 : ∀ t : Fin cfg22.N, cond22_1 (grid22.coords t) ↔ t.val % 4 = 3 :=
  (by decide +kernel : ∀ t : Fin grid22.N, cond22_1 (grid22.coords t) ↔ t.val % 4 = 3)

/-! ## Where the windows are idle, and where the output is written back -/

/-- The two input windows are never idle. -/
theorem liveAt22_0 : ∀ t : Fin cfg22.N, cfg22.idle 0 (grid22.coords t) = false := by decide +kernel
theorem liveAt22_1 : ∀ t : Fin cfg22.N, cfg22.idle 1 (grid22.coords t) = false := by decide +kernel
/-- Where k ≠ 3 the output window is idle (the body stores nothing into it) and is not written back. -/
theorem idleAt22_2 : ∀ t : Fin cfg22.N, ¬cond22_1 (grid22.coords t) → cfg22.idle 2 (grid22.coords t) = true := by decide +kernel
theorem noFlush22_2 : ∀ t : Fin cfg22.N, ¬cond22_1 (grid22.coords t) → (cfg22.win 2).flush t = false := by decide +kernel
/-- Where k = 3 it is live. -/
theorem liveAt22_2 : ∀ t : Fin cfg22.N, cond22_1 (grid22.coords t) → cfg22.idle 2 (grid22.coords t) = false := by decide +kernel

/-! ## The staging memrefs at a point, and the scratch -/

/-- One staging buffer of the output window, through which its contents are stated. -/
abbrev VO22_2 : View sig .tc .vmem S1024x512 .f32 := (Memref.whole cc22_stg2_0 : Memref sig .tc .vmem S1024x512 .f32).view
abbrev ms22_0 (t : Fin cfg22.N) : Memref sig .tc .vmem S1024x1024 .bf16 := win22_0.stage (cfg22.slots t 0)
abbrev hs22_0 (t : Fin cfg22.N) : (ms22_0 t).IsWhole := hstage22_0 ((cfg22.slots t 0).cast nbuf22_0)
abbrev ms22_1 (t : Fin cfg22.N) : Memref sig .tc .vmem S1024x512 .f32 := win22_1.stage (cfg22.slots t 1)
abbrev hs22_1 (t : Fin cfg22.N) : (ms22_1 t).IsWhole := hstage22_1 ((cfg22.slots t 1).cast nbuf22_1)
abbrev ms22_2 (t : Fin cfg22.N) : Memref sig .tc .vmem S1024x512 .f32 := win22_2.stage (cfg22.slots t 2)
abbrev hs22_2 (t : Fin cfg22.N) : (ms22_2 t).IsWhole := hstage22_2 ((cfg22.slots t 2).cast nbuf22_2)
/-- The accumulator: a whole scoped buffer of the kernel's own. -/
abbrev scM22 : Memref sig .tc .vmem S1024x512 .f32 := Memref.whole cc22_scratch0
abbrev VS22 : View sig .tc .vmem S1024x512 .f32 := scM22.view

/-- The other scoped buffers of the core, none of which this region touches. -/
abbrev restBut22 (c : Dev nD) : sProp 𝕄 :=
  Pipeline.scopedRestBut (Ix := Unit) (Name := ℕ) (U := UR sig nD τ) (Lvl := ℕ) (Val := Elt F) spec22 c [cc22_scratch0]

/-- The region's invariant before its first point: the accumulator at something, the other scoped buffers, the generator register. -/
theorem PhiA22_eq (c : Dev nD) :
    (Pipeline.ΦA spec22 c : sProp 𝕄)
      = iprop(iprop((∃ d, owns (c : Thread nD τ) scM22 fullShare d) ∗ restBut22 c) ∗ (∃ r, prngReg c r)) := by
  unfold Pipeline.ΦA; rw [scopedRest22_split]; simp only [scM22, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun22_A (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond22_0 i) (hc1 : ¬cond22_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc22__matmul_kernel i arg2 harg2 arg3 harg3 arg4 harg4 arg5 harg5) K } := by
  refine ⟨[], ?_, fun xi2 E K => ?run⟩
  case run =>
    simp only [cc22__matmul_kernel_eq_skeleton]; unfold cc22__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK22b.lean ====
/- Laid out by: python3 scratch/layout_regions.py --template-region 1 --region 22 --program Kernel --parts a,b,c, --out-dir proof/Proof
   from the hand-written text of region 1 (RegKI1b.lean): the same text, the region's number and the program's namespace substituted. -/
/-
  Region 22, case B (k = 1, 2): the body's run. Neither conditional is taken: the product of the two blocks is added to what
  the point before left in the accumulator; the output block is not touched.
-/
import proofs.«158944_j64613488001249_1_alg».proof.Proof.RegK22a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun22_B (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond22_0 i) (hc1 : ¬cond22_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc22__matmul_kernel i arg2 harg2 arg3 harg3 arg4 harg4 arg5 harg5) K } := by
  refine ⟨[], ?_, fun xi2 E K => ?run⟩
  case run =>
    simp only [cc22__matmul_kernel_eq_skeleton]; unfold cc22__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK22c.lean ====
/- Laid out by: python3 scratch/layout_regions.py --template-region 1 --region 22 --program Kernel --parts a,b,c, --out-dir proof/Proof
   from the hand-written text of region 1 (RegKI1c.lean): the same text, the region's number and the program's namespace substituted. -/
/-
  Region 22, case C (k = 3): the body's run. The product is added to the accumulator as in case B, and then the second
  conditional copies the accumulator over the whole output block.
-/
import proofs.«158944_j64613488001249_1_alg».proof.Proof.RegK22b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun22_C (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond22_0 i) (hc1 : cond22_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc22__matmul_kernel i arg2 harg2 arg3 harg3 arg4 harg4 arg5 harg5) K } := by
  refine ⟨?_, ?_, fun E K => ?run⟩
  case run =>
    simp only [cc22__matmul_kernel_eq_skeleton]; unfold cc22__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK22.lean ====
/- Laid out by: python3 scratch/layout_regions.py --template-region 1 --region 22 --program Kernel --parts a,b,c, --out-dir proof/Proof
   from the hand-written text of region 1 (RegKI1.lean): the same text, the region's number and the program's namespace substituted. -/
/-
  Region 22 of @main, entered from the buffer contents `V`: what its windows' blocks are, what each case of the body leaves in
  the accumulator and in the output block, the accumulator and the output block point by point (`outsAt22`: at k = 0 the
  accumulator restarts from zeros plus the product; at k = 1, 2, 3 it is the point before's plus the product; at k = 3 the
  output block is the accumulator), the region's invariant (the accumulator at `outsAt22`'s second component), the proof data,
  and the body's obligation at every point.
-/
import proofs.«158944_j64613488001249_1_alg».proof.Proof.RegK22c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-- An input window's current staging buffer holds its block at every point, for any proof data whose array is `V`'s and
    whose body leaves the block in place. -/
theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)

/-! ## What each case leaves -/

/-- Case A's stores into the accumulator cover it. -/
theorem scover22_A (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond22_0 i) (hc1 : ¬cond22_1 i)
    (x0 : Vec F S1024x1024 .bf16) (x1 : Vec F S1024x512 .f32) (y : S1024x512.Idx) :
    ∃ pc ∈ (kernelRun22_A c i arg2 harg2 arg3 harg3 arg4 harg4 arg5 harg5 hc0 hc1 x0 x1).2.1, y ∈ pc.1.set :=
  View.cover_of_tiledL (kernelRun22_A c i arg2 harg2 arg3 harg3 arg4 harg4 arg5 harg5 hc0 hc1 x0 x1).2.1 S1024x512.size (by sl_kernel_rfl) y
/-- What case A leaves in the accumulator. -/
noncomputable def sout22_A (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond22_0 i) (hc1 : ¬cond22_1 i)
    (x0 : Vec F S1024x1024 .bf16) (x1 : Vec F S1024x512 .f32) : Vec F S1024x512 .f32 :=
  VS22.read (Elt F) (VS22.writes (Elt F) VS22.junk (kernelRun22_A c i arg2 harg2 arg3 harg3 arg4 harg4 arg5 harg5 hc0 hc1 x0 x1).2.1)

/-- Case B's store into the accumulator covers it. -/
theorem scover22_B (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond22_0 i) (hc1 : ¬cond22_1 i)
    (x0 : Vec F S1024x1024 .bf16) (x1 : Vec F S1024x512 .f32) (xs0 : Vec F S1024x512 .f32) (y : S1024x512.Idx) :
    ∃ pc ∈ (kernelRun22_B c i arg2 harg2 arg3 harg3 arg4 harg4 arg5 harg5 hc0 hc1 x0 x1 xs0).2.1, y ∈ pc.1.set :=
  View.cover_of_tiledL (kernelRun22_B c i arg2 harg2 arg3 harg3 arg4 harg4 arg5 harg5 hc0 hc1 x0 x1 xs0).2.1 S1024x512.size (by sl_kernel_rfl) y
/-- What case B leaves in the accumulator, over what the point before left. -/
noncomputable def sout22_B (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond22_0 i) (hc1 : ¬cond22_1 i)
    (x0 : Vec F S1024x1024 .bf16) (x1 : Vec F S1024x512 .f32) (xs0 : Vec F S1024x512 .f32) : Vec F S1024x512 .f32 :=
  VS22.read (Elt F) (VS22.writes (Elt F) VS22.junk (kernelRun22_B c i arg2 harg2 arg3 harg3 arg4 harg4 arg5 harg5 hc0 hc1 x0 x1 xs0).2.1)

/-- Case C's store into the output block covers it, and so does its store into the accumulator. -/
theorem cover22_C (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond22_0 i) (hc1 : cond22_1 i)
    (x0 : Vec F S1024x1024 .bf16) (x1 : Vec F S1024x512 .f32) (xs0 : Vec F S1024x512 .f32) (y : S1024x512.Idx) :
    ∃ pc ∈ (kernelRun22_C c i arg2 harg2 arg3 harg3 arg4 harg4 arg5 harg5 hc0 hc1 x0 x1 xs0).1, y ∈ pc.1.set :=
  View.cover_of_tiledL (kernelRun22_C c i arg2 harg2 arg3 harg3 arg4 harg4 arg5 harg5 hc0 hc1 x0 x1 xs0).1 S1024x512.size (by sl_kernel_rfl) y
theorem scover22_C (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond22_0 i) (hc1 : cond22_1 i)
    (x0 : Vec F S1024x1024 .bf16) (x1 : Vec F S1024x512 .f32) (xs0 : Vec F S1024x512 .f32) (y : S1024x512.Idx) :
    ∃ pc ∈ (kernelRun22_C c i arg2 harg2 arg3 harg3 arg4 harg4 arg5 harg5 hc0 hc1 x0 x1 xs0).2.1, y ∈ pc.1.set :=
  View.cover_of_tiledL (kernelRun22_C c i arg2 harg2 arg3 harg3 arg4 harg4 arg5 harg5 hc0 hc1 x0 x1 xs0).2.1 S1024x512.size (by sl_kernel_rfl) y
/-- What case C leaves in the output block, and in the accumulator. -/
noncomputable def out22_C (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond22_0 i) (hc1 : cond22_1 i)
    (x0 : Vec F S1024x1024 .bf16) (x1 : Vec F S1024x512 .f32) (xs0 : Vec F S1024x512 .f32) : Vec F S1024x512 .f32 :=
  VO22_2.read (Elt F) (VO22_2.writes (Elt F) VO22_2.junk (kernelRun22_C c i arg2 harg2 arg3 harg3 arg4 harg4 arg5 harg5 hc0 hc1 x0 x1 xs0).1)
noncomputable def sout22_C (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond22_0 i) (hc1 : cond22_1 i)
    (x0 : Vec F S1024x1024 .bf16) (x1 : Vec F S1024x512 .f32) (xs0 : Vec F S1024x512 .f32) : Vec F S1024x512 .f32 :=
  VS22.read (Elt F) (VS22.writes (Elt F) VS22.junk (kernelRun22_C c i arg2 harg2 arg3 harg3 arg4 harg4 arg5 harg5 hc0 hc1 x0 x1 xs0).2.1)

/-- Where the output block is idle nothing consults what it holds: a placeholder. -/
noncomputable def outIdle22 : Vec F S1024x512 .f32 := VO22_2.read (Elt F) (VO22_2.writes (Elt F) VO22_2.junk [])

/-! ## The conditions at a point, from t % 4 -/

theorem isFirst22 (t : Fin cfg22.N) (h : t.val % 4 = 0) : cond22_0 (grid22.coords t) := (hcond22_0 t).mpr h
theorem notFirst22 (t : Fin cfg22.N) (h : ¬t.val % 4 = 0) : ¬cond22_0 (grid22.coords t) := fun hc => h ((hcond22_0 t).mp hc)
theorem isLast22 (t : Fin cfg22.N) (h : t.val % 4 = 3) : cond22_1 (grid22.coords t) := (hcond22_1 t).mpr h
theorem notLast22 (t : Fin cfg22.N) (h : ¬t.val % 4 = 3) : ¬cond22_1 (grid22.coords t) := fun hc => h ((hcond22_1 t).mp hc)

/-! ## The accumulator and the output block, point by point -/

/-- After the body at position `n`: (the output block's buffer, the accumulator). -/
noncomputable def outsAt22 (c : Dev nD) : (n : ℕ) → n < cfg22.N → Vec F S1024x512 .f32 × Vec F S1024x512 .f32
  | 0, hn => (outIdle22, sout22_A c (grid22.coords ⟨0, hn⟩) (ms22_0 ⟨0, hn⟩) (hs22_0 ⟨0, hn⟩) (ms22_1 ⟨0, hn⟩) (hs22_1 ⟨0, hn⟩) (ms22_2 ⟨0, hn⟩) (hs22_2 ⟨0, hn⟩) scM22 (Memref.isWhole_whole _) (isFirst22 ⟨0, hn⟩ (Nat.zero_mod _)) (notLast22 ⟨0, hn⟩ (by simp)) (iblk22 V c 0 ⟨0, hn⟩) (iblk22 V c 1 ⟨0, hn⟩))
  | n + 1, hn =>
    if h0 : (n + 1) % 4 = 0 then
      (outIdle22, sout22_A c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) scM22 (Memref.isWhole_whole _) (isFirst22 ⟨n + 1, hn⟩ h0) (notLast22 ⟨n + 1, hn⟩ (by show ¬(n + 1) % 4 = 3; omega)) (iblk22 V c 0 ⟨n + 1, hn⟩) (iblk22 V c 1 ⟨n + 1, hn⟩))
    else if h3 : (n + 1) % 4 = 3 then
      (out22_C c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) scM22 (Memref.isWhole_whole _) (notFirst22 ⟨n + 1, hn⟩ h0) (isLast22 ⟨n + 1, hn⟩ h3) (iblk22 V c 0 ⟨n + 1, hn⟩) (iblk22 V c 1 ⟨n + 1, hn⟩) (outsAt22 c n (Nat.lt_of_succ_lt hn)).2,
       sout22_C c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) scM22 (Memref.isWhole_whole _) (notFirst22 ⟨n + 1, hn⟩ h0) (isLast22 ⟨n + 1, hn⟩ h3) (iblk22 V c 0 ⟨n + 1, hn⟩) (iblk22 V c 1 ⟨n + 1, hn⟩) (outsAt22 c n (Nat.lt_of_succ_lt hn)).2)
    else
      (outIdle22, sout22_B c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) scM22 (Memref.isWhole_whole _) (notFirst22 ⟨n + 1, hn⟩ h0) (notLast22 ⟨n + 1, hn⟩ h3) (iblk22 V c 0 ⟨n + 1, hn⟩) (iblk22 V c 1 ⟨n + 1, hn⟩) (outsAt22 c n (Nat.lt_of_succ_lt hn)).2)

/-- `outsAt22` at a point with k = 0. -/
theorem outsAt22_A (c : Dev nD) (t : Fin cfg22.N) (h0 : t.val % 4 = 0) :
    outsAt22 V c t.val t.isLt = (outIdle22, sout22_A c (grid22.coords t) (ms22_0 t) (hs22_0 t) (ms22_1 t) (hs22_1 t) (ms22_2 t) (hs22_2 t) scM22 (Memref.isWhole_whole _) (isFirst22 t h0) (notLast22 t (by omega)) (iblk22 V c 0 t) (iblk22 V c 1 t)) := by
  obtain ⟨n, hn⟩ := t
  cases n with
  | zero => rfl
  | succ n => exact (dif_pos h0).trans rfl

/-- `outsAt22` at a point with k = 1, 2: over what the point before left. -/
theorem outsAt22_B (c : Dev nD) (t : Fin cfg22.N) (h0 : ¬t.val % 4 = 0) (h3 : ¬t.val % 4 = 3) :
    outsAt22 V c t.val t.isLt = (outIdle22, sout22_B c (grid22.coords t) (ms22_0 t) (hs22_0 t) (ms22_1 t) (hs22_1 t) (ms22_2 t) (hs22_2 t) scM22 (Memref.isWhole_whole _) (notFirst22 t h0) (notLast22 t h3) (iblk22 V c 0 t) (iblk22 V c 1 t)
      (outsAt22 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt22` at a point with k = 3. -/
theorem outsAt22_C (c : Dev nD) (t : Fin cfg22.N) (h0 : ¬t.val % 4 = 0) (h3 : t.val % 4 = 3) :
    outsAt22 V c t.val t.isLt = (out22_C c (grid22.coords t) (ms22_0 t) (hs22_0 t) (ms22_1 t) (hs22_1 t) (ms22_2 t) (hs22_2 t) scM22 (Memref.isWhole_whole _) (notFirst22 t h0) (isLast22 t h3) (iblk22 V c 0 t) (iblk22 V c 1 t)
        (outsAt22 V c (t.val - 1) (Nat.lt_of_le_of_lt (Nat.sub_le _ _) t.isLt)).2,
      sout22_C c (grid22.coords t) (ms22_0 t) (hs22_0 t) (ms22_1 t) (hs22_1 t) (ms22_2 t) (hs22_2 t) scM22 (Memref.isWhole_whole _) (notFirst22 t h0) (isLast22 t h3) (iblk22 V c 0 t) (iblk22 V c 1 t)
        (outsAt22 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS22 (c : Dev nD) : (n : ℕ) → n ≤ cfg22.N → sProp 𝕄
  | 0, _ => Pipeline.ΦA spec22 c
  | n + 1, hn => iprop(iprop(owns (c : Thread nD τ) scM22 fullShare ((outsAt22 V c n hn).2) ∗ restBut22 c) ∗ (∃ r, prngReg c r))

theorem PhiS22_zero (c : Dev nD) (n : ℕ) (h : n ≤ cfg22.N) (hz : n = 0) : PhiS22 V c n h = Pipeline.ΦA spec22 c := by
  subst hz; rfl
theorem PhiS22_succ (c : Dev nD) (n : ℕ) (hn : n < cfg22.N) :
    PhiS22 V c (n + 1) hn = iprop(iprop(owns (c : Thread nD τ) scM22 fullShare ((outsAt22 V c n hn).2) ∗ restBut22 c) ∗ (∃ r, prngReg c r)) := rfl
theorem PhiS22_pos (c : Dev nD) (n : ℕ) (h : n ≤ cfg22.N) (hz : n ≠ 0) :
    PhiS22 V c n h = iprop(iprop(owns (c : Thread nD τ) scM22 fullShare ((outsAt22 V c (n - 1) (by omega)).2) ∗ restBut22 c) ∗ (∃ r, prngReg c r)) := by
  cases n with
  | zero => exact absurd rfl hz
  | succ n => rfl

/-! ## The proof data -/

/-- The region's proof data on core `c`: the arrays as the region finds them; after the body at point `t` each input's
    buffer at its block and the output's at `outsAt22`'s first component; the invariant `PhiS22`; nothing owed; full shares. -/
noncomputable def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => (outsAt22 V c t.val t.isLt).1
  Φ t := PhiS22 V c t.val (Nat.le_of_lt_succ t.isLt)
  q _ := fullShare
  owed _ := 0

theorem A_eq22 (c : Dev nD) (w : Fin cfg22.W) : (dat22 V c).A w = V c (Pipeline.arrRef spec22 w) := by
  dsimp only [dat22]
theorem PhiS22_castSucc (c : Dev nD) (t : Fin cfg22.N) :
    (dat22 V c).Φ t.castSucc = PhiS22 V c t.val (Nat.le_of_lt t.isLt) := by
  dsimp only [dat22]; simp only [Fin.coe_castSucc]
theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = (outsAt22 V c t.val t.isLt).1 := by dsimp only [dat22]
theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d

/-! ## The body's obligation -/

noncomputable def bodyPre22 (c : Dev nD) (t : Fin cfg22.N) : sProp 𝕄 :=
  iprop((dat22 V c).Φ t.castSucc ∗ (dat22 V c).owesAt () t.castSucc
    ∗ (∃ d, owns (c : Thread nD τ) (ms22_0 t) fullShare ((dat22 V c).before 0 t d))
    ∗ (∃ d, owns (c : Thread nD τ) (ms22_1 t) fullShare ((dat22 V c).before 1 t d))
    ∗ (∃ d, owns (c : Thread nD τ) (ms22_2 t) fullShare ((dat22 V c).before 2 t d)))

noncomputable def bodyPost22 (c : Dev nD) (t : Fin cfg22.N) : sProp 𝕄 :=
  iprop((dat22 V c).Φ t.succ ∗ (dat22 V c).owesAt () t.succ
    ∗ (dat22 V c).leavesExact 0 t
    ∗ (dat22 V c).leavesExact 1 t
    ∗ (dat22 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1]
  rw [show (dat22 V c).owesAt () t.succ = (dat22 V c).owesAt () t.castSucc from rfl]
  rw [show (dat22 V c).Φ t.succ = PhiS22 V c (t.val + 1) t.isLt from rfl, PhiS22_succ]
  rw [show (dat22 V c).leavesExact 0 t = owns (c : Thread nD τ) (ms22_0 t) fullShare ((dat22 V c).after 0 t) from by
    unfold Dat.leavesExact; rw [liveAt22_0 t], after22_0]
  rw [show (dat22 V c).leavesExact 1 t = owns (c : Thread nD τ) (ms22_1 t) fullShare ((dat22 V c).after 1 t) from by
    unfold Dat.leavesExact; rw [liveAt22_1 t], after22_1]
  by_cases h0 : t.val % 4 = 0
  · have h3 : ¬t.val % 4 = 3 := by omega
    rw [Dat.leavesExact_idle (dat22 V c) 2 t (idleAt22_2 t (notLast22 t h3)) (noFlush22_2 t (notLast22 t h3))]
    rw [outsAt22_A V c t h0]
    unfold sout22_A; (try dsimp only)
    by_cases hz : t.val = 0
    · rw [PhiS22_castSucc V c t, PhiS22_zero V c _ _ hz, PhiA22_eq]
      iintro ⟨⟨⟨HS0, Hrb⟩, Hg⟩, Ho, ⟨%d0, H0⟩, ⟨%d1, H1⟩, ⟨%d2, H2⟩⟩
      iapply ((kernelRun22_A c (grid22.coords t) _ _ _ _ _ _ _ _ (isFirst22 t h0) (notLast22 t (by omega)) (iblk22 V c 0 t) (iblk22 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover22_A c _ _ _ _ _ _ _ _ _ _ _ _ _)
          iexact Hrb
        iexact Hg
      isplitl [Ho]; · iexact Ho
      isplitl [H0]; · iexact H0
      isplitl [H1]; · iexact H1
      iexists _; iexact H2
    · rw [PhiS22_castSucc V c t, PhiS22_pos V c _ _ hz]
      iintro ⟨⟨⟨HS0, Hrb⟩, Hg⟩, Ho, ⟨%d0, H0⟩, ⟨%d1, H1⟩, ⟨%d2, H2⟩⟩
      iapply ((kernelRun22_A c (grid22.coords t) _ _ _ _ _ _ _ _ (isFirst22 t h0) (notLast22 t (by omega)) (iblk22 V c 0 t) (iblk22 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover22_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat22 V c).leavesExact 2 t = owns (c : Thread nD τ) (ms22_2 t) fullShare ((dat22 V c).after 2 t) from by
        unfold Dat.leavesExact; rw [liveAt22_2 t (isLast22 t h3)], after22_2]
      rw [outsAt22_C V c t h0 h3]
      unfold out22_C sout22_C; (try dsimp only)
      rw [PhiS22_castSucc V c t, PhiS22_pos V c _ _ hz]
      iintro ⟨⟨⟨HS0, Hrb⟩, Hg⟩, Ho, ⟨%d0, H0⟩, ⟨%d1, H1⟩, ⟨%d2, H2⟩⟩
      iapply ((kernelRun22_C c (grid22.coords t) _ _ _ _ _ _ _ _ (notFirst22 t h0) (isLast22 t h3) (iblk22 V c 0 t) (iblk22 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover22_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover22_C c _ _ _ _ _ _ _ _ _ _ _ _ _ _)
    · rw [Dat.leavesExact_idle (dat22 V c) 2 t (idleAt22_2 t (notLast22 t h3)) (noFlush22_2 t (notLast22 t h3))]
      rw [outsAt22_B V c t h0 h3]
      unfold sout22_B; (try dsimp only)
      rw [PhiS22_castSucc V c t, PhiS22_pos V c _ _ hz]
      iintro ⟨⟨⟨HS0, Hrb⟩, Hg⟩, Ho, ⟨%d0, H0⟩, ⟨%d1, H1⟩, ⟨%d2, H2⟩⟩
      iapply ((kernelRun22_B c (grid22.coords t) _ _ _ _ _ _ _ _ (notFirst22 t h0) (notLast22 t h3) (iblk22 V c 0 t) (iblk22 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover22_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation22 (c : Dev nD) : BodyObligation (dat22 (F := F) V c) (defs₀ (F := F)) Variants.none () Set.univ := fun t => by
  rw [bigSep_W22, bigSep_W22]
  exact sound_body22 V c t

/-- What the region is entered with is the invariant before the first point. -/
theorem hin22 (c : Dev nD) : Pipeline.ΦA spec22 c ⊢ (dat22 V c).Φ 0 := by
  rw [show (dat22 V c).Φ 0 = PhiS22 V c 0 (Nat.zero_le _) from rfl, PhiS22_zero V c 0 _ rfl]
  try exact Idealize.SL.BI.Entails.refl _

/-- After the last point the invariant gives the class's back: the accumulator's contents are forgotten. -/
theorem hout22 (c : Dev nD) : (dat22 V c).Φ (Fin.last cfg22.N) ⊢ Pipeline.ΦA spec22 c := by
  have hN : cfg22.N = 16 := N_22
  rw [show (dat22 V c).Φ (Fin.last cfg22.N) = PhiS22 V c (Fin.last cfg22.N).val (Nat.le_of_lt_succ (Fin.last cfg22.N).isLt) from rfl,
    PhiS22_pos V c _ _ (by rw [Fin.val_last]; omega), PhiA22_eq]
  iintro ⟨⟨HS0, Hrb⟩, Hg⟩
  isplitl [HS0 Hrb]
  · isplitl [HS0]
    · iexists _; iexact HS0
    iexact Hrb
  iexact Hg

end Cert.Kernel.Hand

end
-- ==== Proof.RegK23a.lean ====
/- Laid out by: python3 scratch/layout_regions.py --template-region 1 --region 23 --program Kernel --parts a,b,c, --out-dir proof/Proof
   from the hand-written text of region 1 (RegKI1a.lean): the same text, the region's number and the program's namespace substituted. -/
/-
  Region 23 of @main (custom_call 23): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond23_0 (i : grid23.Coords) : Prop := (Scalar.cmpi .ne (Scalar.extui (Scalar.cmpi .eq (BitVec.ofNat 32 (i 1).val) 0#32)) 0#32) = 1#1
/-- It holds exactly at the points with t % 4 = 0. -/
theorem hcond23_0 : ∀ t : Fin cfg23.N, cond23_0 (grid23.coords t) ↔ t.val % 4 = 0 :=
  (by decide +kernel : ∀ t : Fin grid23.N, cond23_0 (grid23.coords t) ↔ t.val % 4 = 0)

/-- "k = 3": the second conditional's test. -/
abbrev cond23_1 (i : grid23.Coords) : Prop := k23_cond2 i = 1#1
/-- It holds exactly at the points with t % 4 = 3. -/
theorem hcond23_1 : ∀ t : Fin cfg23.N, cond23_1 (grid23.coords t) ↔ t.val % 4 = 3 :=
  (by decide +kernel : ∀ t : Fin grid23.N, cond23_1 (grid23.coords t) ↔ t.val % 4 = 3)

/-! ## Where the windows are idle, and where the output is written back -/

/-- The two input windows are never idle. -/
theorem liveAt23_0 : ∀ t : Fin cfg23.N, cfg23.idle 0 (grid23.coords t) = false := by decide +kernel
theorem liveAt23_1 : ∀ t : Fin cfg23.N, cfg23.idle 1 (grid23.coords t) = false := by decide +kernel
/-- Where k ≠ 3 the output window is idle (the body stores nothing into it) and is not written back. -/
theorem idleAt23_2 : ∀ t : Fin cfg23.N, ¬cond23_1 (grid23.coords t) → cfg23.idle 2 (grid23.coords t) = true := by decide +kernel
theorem noFlush23_2 : ∀ t : Fin cfg23.N, ¬cond23_1 (grid23.coords t) → (cfg23.win 2).flush t = false := by decide +kernel
/-- Where k = 3 it is live. -/
theorem liveAt23_2 : ∀ t : Fin cfg23.N, cond23_1 (grid23.coords t) → cfg23.idle 2 (grid23.coords t) = false := by decide +kernel

/-! ## The staging memrefs at a point, and the scratch -/

/-- One staging buffer of the output window, through which its contents are stated. -/
abbrev VO23_2 : View sig .tc .vmem S1024x512 .f32 := (Memref.whole cc23_stg2_0 : Memref sig .tc .vmem S1024x512 .f32).view
abbrev ms23_0 (t : Fin cfg23.N) : Memref sig .tc .vmem S1024x1024 .bf16 := win23_0.stage (cfg23.slots t 0)
abbrev hs23_0 (t : Fin cfg23.N) : (ms23_0 t).IsWhole := hstage23_0 ((cfg23.slots t 0).cast nbuf23_0)
abbrev ms23_1 (t : Fin cfg23.N) : Memref sig .tc .vmem S1024x512 .f32 := win23_1.stage (cfg23.slots t 1)
abbrev hs23_1 (t : Fin cfg23.N) : (ms23_1 t).IsWhole := hstage23_1 ((cfg23.slots t 1).cast nbuf23_1)
abbrev ms23_2 (t : Fin cfg23.N) : Memref sig .tc .vmem S1024x512 .f32 := win23_2.stage (cfg23.slots t 2)
abbrev hs23_2 (t : Fin cfg23.N) : (ms23_2 t).IsWhole := hstage23_2 ((cfg23.slots t 2).cast nbuf23_2)
/-- The accumulator: a whole scoped buffer of the kernel's own. -/
abbrev scM23 : Memref sig .tc .vmem S1024x512 .f32 := Memref.whole cc23_scratch0
abbrev VS23 : View sig .tc .vmem S1024x512 .f32 := scM23.view

/-- The other scoped buffers of the core, none of which this region touches. -/
abbrev restBut23 (c : Dev nD) : sProp 𝕄 :=
  Pipeline.scopedRestBut (Ix := Unit) (Name := ℕ) (U := UR sig nD τ) (Lvl := ℕ) (Val := Elt F) spec23 c [cc23_scratch0]

/-- The region's invariant before its first point: the accumulator at something, the other scoped buffers, the generator register. -/
theorem PhiA23_eq (c : Dev nD) :
    (Pipeline.ΦA spec23 c : sProp 𝕄)
      = iprop(iprop((∃ d, owns (c : Thread nD τ) scM23 fullShare d) ∗ restBut23 c) ∗ (∃ r, prngReg c r)) := by
  unfold Pipeline.ΦA; rw [scopedRest23_split]; simp only [scM23, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun23_A (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond23_0 i) (hc1 : ¬cond23_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc23__matmul_kernel i arg2 harg2 arg3 harg3 arg4 harg4 arg5 harg5) K } := by
  refine ⟨[], ?_, fun xi2 E K => ?run⟩
  case run =>
    simp only [cc23__matmul_kernel_eq_skeleton]; unfold cc23__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK23b.lean ====
/- Laid out by: python3 scratch/layout_regions.py --template-region 1 --region 23 --program Kernel --parts a,b,c, --out-dir proof/Proof
   from the hand-written text of region 1 (RegKI1b.lean): the same text, the region's number and the program's namespace substituted. -/
/-
  Region 23, case B (k = 1, 2): the body's run. Neither conditional is taken: the product of the two blocks is added to what
  the point before left in the accumulator; the output block is not touched.
-/
import proofs.«158944_j64613488001249_1_alg».proof.Proof.RegK23a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun23_B (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond23_0 i) (hc1 : ¬cond23_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc23__matmul_kernel i arg2 harg2 arg3 harg3 arg4 harg4 arg5 harg5) K } := by
  refine ⟨[], ?_, fun xi2 E K => ?run⟩
  case run =>
    simp only [cc23__matmul_kernel_eq_skeleton]; unfold cc23__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK23c.lean ====
/- Laid out by: python3 scratch/layout_regions.py --template-region 1 --region 23 --program Kernel --parts a,b,c, --out-dir proof/Proof
   from the hand-written text of region 1 (RegKI1c.lean): the same text, the region's number and the program's namespace substituted. -/
/-
  Region 23, case C (k = 3): the body's run. The product is added to the accumulator as in case B, and then the second
  conditional copies the accumulator over the whole output block.
-/
import proofs.«158944_j64613488001249_1_alg».proof.Proof.RegK23b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun23_C (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond23_0 i) (hc1 : cond23_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc23__matmul_kernel i arg2 harg2 arg3 harg3 arg4 harg4 arg5 harg5) K } := by
  refine ⟨?_, ?_, fun E K => ?run⟩
  case run =>
    simp only [cc23__matmul_kernel_eq_skeleton]; unfold cc23__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK23.lean ====
/- Laid out by: python3 scratch/layout_regions.py --template-region 1 --region 23 --program Kernel --parts a,b,c, --out-dir proof/Proof
   from the hand-written text of region 1 (RegKI1.lean): the same text, the region's number and the program's namespace substituted. -/
/-
  Region 23 of @main, entered from the buffer contents `V`: what its windows' blocks are, what each case of the body leaves in
  the accumulator and in the output block, the accumulator and the output block point by point (`outsAt23`: at k = 0 the
  accumulator restarts from zeros plus the product; at k = 1, 2, 3 it is the point before's plus the product; at k = 3 the
  output block is the accumulator), the region's invariant (the accumulator at `outsAt23`'s second component), the proof data,
  and the body's obligation at every point.
-/
import proofs.«158944_j64613488001249_1_alg».proof.Proof.RegK23c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk23 (c : Dev nD) (w : Fin cfg23.W) (t : Fin cfg23.N) : ((cfg23.win w).xblock (cfg23.grid.coords t)).Idx → Elt F (cfg23.win w).elt :=
  ((cfg23.win w).blk t).view.read (Elt F) (V c (Pipeline.arrRef spec23 w))

/-- An input window's current staging buffer holds its block at every point, for any proof data whose array is `V`'s and
    whose body leaves the block in place. -/
theorem before23_0_of {c : Dev nD} (dat : Dat τ (Elt F) Unit ℕ (UR sig nD τ) ℕ cfg23 c) (hA : dat.A 0 = V c (Pipeline.arrRef spec23 0))
    (hafter : ∀ t, dat.after 0 t = iblk23 V c 0 t) (t : Fin cfg23.N) (d) : dat.before 0 t d = iblk23 V c 0 t :=
  (dat.before_in_eq_fetched 0 rfl (fun _ => rfl) (fun _ _ _ => rfl) (fun t => by rw [hafter]; unfold Dat.blockOf iblk23; rw [hA]; try rfl) t d).trans
    (by unfold Dat.fetched Dat.blockOf iblk23; rw [hA]; try rfl)
theorem before23_1_of {c : Dev nD} (dat : Dat τ (Elt F) Unit ℕ (UR sig nD τ) ℕ cfg23 c) (hA : dat.A 1 = V c (Pipeline.arrRef spec23 1))
    (hafter : ∀ t, dat.after 1 t = iblk23 V c 1 t) (t : Fin cfg23.N) (d) : dat.before 1 t d = iblk23 V c 1 t :=
  (dat.before_in_eq_fetched 1 rfl (fun _ => rfl) (fun _ _ _ => rfl) (fun t => by rw [hafter]; unfold Dat.blockOf iblk23; rw [hA]; try rfl) t d).trans
    (by unfold Dat.fetched Dat.blockOf iblk23; rw [hA]; try rfl)

/-! ## What each case leaves -/

/-- Case A's stores into the accumulator cover it. -/
theorem scover23_A (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond23_0 i) (hc1 : ¬cond23_1 i)
    (x0 : Vec F S1024x1024 .bf16) (x1 : Vec F S1024x512 .f32) (y : S1024x512.Idx) :
    ∃ pc ∈ (kernelRun23_A c i arg2 harg2 arg3 harg3 arg4 harg4 arg5 harg5 hc0 hc1 x0 x1).2.1, y ∈ pc.1.set :=
  View.cover_of_tiledL (kernelRun23_A c i arg2 harg2 arg3 harg3 arg4 harg4 arg5 harg5 hc0 hc1 x0 x1).2.1 S1024x512.size (by sl_kernel_rfl) y
/-- What case A leaves in the accumulator. -/
noncomputable def sout23_A (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond23_0 i) (hc1 : ¬cond23_1 i)
    (x0 : Vec F S1024x1024 .bf16) (x1 : Vec F S1024x512 .f32) : Vec F S1024x512 .f32 :=
  VS23.read (Elt F) (VS23.writes (Elt F) VS23.junk (kernelRun23_A c i arg2 harg2 arg3 harg3 arg4 harg4 arg5 harg5 hc0 hc1 x0 x1).2.1)

/-- Case B's store into the accumulator covers it. -/
theorem scover23_B (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond23_0 i) (hc1 : ¬cond23_1 i)
    (x0 : Vec F S1024x1024 .bf16) (x1 : Vec F S1024x512 .f32) (xs0 : Vec F S1024x512 .f32) (y : S1024x512.Idx) :
    ∃ pc ∈ (kernelRun23_B c i arg2 harg2 arg3 harg3 arg4 harg4 arg5 harg5 hc0 hc1 x0 x1 xs0).2.1, y ∈ pc.1.set :=
  View.cover_of_tiledL (kernelRun23_B c i arg2 harg2 arg3 harg3 arg4 harg4 arg5 harg5 hc0 hc1 x0 x1 xs0).2.1 S1024x512.size (by sl_kernel_rfl) y
/-- What case B leaves in the accumulator, over what the point before left. -/
noncomputable def sout23_B (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond23_0 i) (hc1 : ¬cond23_1 i)
    (x0 : Vec F S1024x1024 .bf16) (x1 : Vec F S1024x512 .f32) (xs0 : Vec F S1024x512 .f32) : Vec F S1024x512 .f32 :=
  VS23.read (Elt F) (VS23.writes (Elt F) VS23.junk (kernelRun23_B c i arg2 harg2 arg3 harg3 arg4 harg4 arg5 harg5 hc0 hc1 x0 x1 xs0).2.1)

/-- Case C's store into the output block covers it, and so does its store into the accumulator. -/
theorem cover23_C (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond23_0 i) (hc1 : cond23_1 i)
    (x0 : Vec F S1024x1024 .bf16) (x1 : Vec F S1024x512 .f32) (xs0 : Vec F S1024x512 .f32) (y : S1024x512.Idx) :
    ∃ pc ∈ (kernelRun23_C c i arg2 harg2 arg3 harg3 arg4 harg4 arg5 harg5 hc0 hc1 x0 x1 xs0).1, y ∈ pc.1.set :=
  View.cover_of_tiledL (kernelRun23_C c i arg2 harg2 arg3 harg3 arg4 harg4 arg5 harg5 hc0 hc1 x0 x1 xs0).1 S1024x512.size (by sl_kernel_rfl) y
theorem scover23_C (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond23_0 i) (hc1 : cond23_1 i)
    (x0 : Vec F S1024x1024 .bf16) (x1 : Vec F S1024x512 .f32) (xs0 : Vec F S1024x512 .f32) (y : S1024x512.Idx) :
    ∃ pc ∈ (kernelRun23_C c i arg2 harg2 arg3 harg3 arg4 harg4 arg5 harg5 hc0 hc1 x0 x1 xs0).2.1, y ∈ pc.1.set :=
  View.cover_of_tiledL (kernelRun23_C c i arg2 harg2 arg3 harg3 arg4 harg4 arg5 harg5 hc0 hc1 x0 x1 xs0).2.1 S1024x512.size (by sl_kernel_rfl) y
/-- What case C leaves in the output block, and in the accumulator. -/
noncomputable def out23_C (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond23_0 i) (hc1 : cond23_1 i)
    (x0 : Vec F S1024x1024 .bf16) (x1 : Vec F S1024x512 .f32) (xs0 : Vec F S1024x512 .f32) : Vec F S1024x512 .f32 :=
  VO23_2.read (Elt F) (VO23_2.writes (Elt F) VO23_2.junk (kernelRun23_C c i arg2 harg2 arg3 harg3 arg4 harg4 arg5 harg5 hc0 hc1 x0 x1 xs0).1)
noncomputable def sout23_C (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond23_0 i) (hc1 : cond23_1 i)
    (x0 : Vec F S1024x1024 .bf16) (x1 : Vec F S1024x512 .f32) (xs0 : Vec F S1024x512 .f32) : Vec F S1024x512 .f32 :=
  VS23.read (Elt F) (VS23.writes (Elt F) VS23.junk (kernelRun23_C c i arg2 harg2 arg3 harg3 arg4 harg4 arg5 harg5 hc0 hc1 x0 x1 xs0).2.1)

/-- Where the output block is idle nothing consults what it holds: a placeholder. -/
noncomputable def outIdle23 : Vec F S1024x512 .f32 := VO23_2.read (Elt F) (VO23_2.writes (Elt F) VO23_2.junk [])

/-! ## The conditions at a point, from t % 4 -/

theorem isFirst23 (t : Fin cfg23.N) (h : t.val % 4 = 0) : cond23_0 (grid23.coords t) := (hcond23_0 t).mpr h
theorem notFirst23 (t : Fin cfg23.N) (h : ¬t.val % 4 = 0) : ¬cond23_0 (grid23.coords t) := fun hc => h ((hcond23_0 t).mp hc)
theorem isLast23 (t : Fin cfg23.N) (h : t.val % 4 = 3) : cond23_1 (grid23.coords t) := (hcond23_1 t).mpr h
theorem notLast23 (t : Fin cfg23.N) (h : ¬t.val % 4 = 3) : ¬cond23_1 (grid23.coords t) := fun hc => h ((hcond23_1 t).mp hc)

/-! ## The accumulator and the output block, point by point -/

/-- After the body at position `n`: (the output block's buffer, the accumulator). -/
noncomputable def outsAt23 (c : Dev nD) : (n : ℕ) → n < cfg23.N → Vec F S1024x512 .f32 × Vec F S1024x512 .f32
  | 0, hn => (outIdle23, sout23_A c (grid23.coords ⟨0, hn⟩) (ms23_0 ⟨0, hn⟩) (hs23_0 ⟨0, hn⟩) (ms23_1 ⟨0, hn⟩) (hs23_1 ⟨0, hn⟩) (ms23_2 ⟨0, hn⟩) (hs23_2 ⟨0, hn⟩) scM23 (Memref.isWhole_whole _) (isFirst23 ⟨0, hn⟩ (Nat.zero_mod _)) (notLast23 ⟨0, hn⟩ (by simp)) (iblk23 V c 0 ⟨0, hn⟩) (iblk23 V c 1 ⟨0, hn⟩))
  | n + 1, hn =>
    if h0 : (n + 1) % 4 = 0 then
      (outIdle23, sout23_A c (grid23.coords ⟨n + 1, hn⟩) (ms23_0 ⟨n + 1, hn⟩) (hs23_0 ⟨n + 1, hn⟩) (ms23_1 ⟨n + 1, hn⟩) (hs23_1 ⟨n + 1, hn⟩) (ms23_2 ⟨n + 1, hn⟩) (hs23_2 ⟨n + 1, hn⟩) scM23 (Memref.isWhole_whole _) (isFirst23 ⟨n + 1, hn⟩ h0) (notLast23 ⟨n + 1, hn⟩ (by show ¬(n + 1) % 4 = 3; omega)) (iblk23 V c 0 ⟨n + 1, hn⟩) (iblk23 V c 1 ⟨n + 1, hn⟩))
    else if h3 : (n + 1) % 4 = 3 then
      (out23_C c (grid23.coords ⟨n + 1, hn⟩) (ms23_0 ⟨n + 1, hn⟩) (hs23_0 ⟨n + 1, hn⟩) (ms23_1 ⟨n + 1, hn⟩) (hs23_1 ⟨n + 1, hn⟩) (ms23_2 ⟨n + 1, hn⟩) (hs23_2 ⟨n + 1, hn⟩) scM23 (Memref.isWhole_whole _) (notFirst23 ⟨n + 1, hn⟩ h0) (isLast23 ⟨n + 1, hn⟩ h3) (iblk23 V c 0 ⟨n + 1, hn⟩) (iblk23 V c 1 ⟨n + 1, hn⟩) (outsAt23 c n (Nat.lt_of_succ_lt hn)).2,
       sout23_C c (grid23.coords ⟨n + 1, hn⟩) (ms23_0 ⟨n + 1, hn⟩) (hs23_0 ⟨n + 1, hn⟩) (ms23_1 ⟨n + 1, hn⟩) (hs23_1 ⟨n + 1, hn⟩) (ms23_2 ⟨n + 1, hn⟩) (hs23_2 ⟨n + 1, hn⟩) scM23 (Memref.isWhole_whole _) (notFirst23 ⟨n + 1, hn⟩ h0) (isLast23 ⟨n + 1, hn⟩ h3) (iblk23 V c 0 ⟨n + 1, hn⟩) (iblk23 V c 1 ⟨n + 1, hn⟩) (outsAt23 c n (Nat.lt_of_succ_lt hn)).2)
    else
      (outIdle23, sout23_B c (grid23.coords ⟨n + 1, hn⟩) (ms23_0 ⟨n + 1, hn⟩) (hs23_0 ⟨n + 1, hn⟩) (ms23_1 ⟨n + 1, hn⟩) (hs23_1 ⟨n + 1, hn⟩) (ms23_2 ⟨n + 1, hn⟩) (hs23_2 ⟨n + 1, hn⟩) scM23 (Memref.isWhole_whole _) (notFirst23 ⟨n + 1, hn⟩ h0) (notLast23 ⟨n + 1, hn⟩ h3) (iblk23 V c 0 ⟨n + 1, hn⟩) (iblk23 V c 1 ⟨n + 1, hn⟩) (outsAt23 c n (Nat.lt_of_succ_lt hn)).2)

/-- `outsAt23` at a point with k = 0. -/
theorem outsAt23_A (c : Dev nD) (t : Fin cfg23.N) (h0 : t.val % 4 = 0) :
    outsAt23 V c t.val t.isLt = (outIdle23, sout23_A c (grid23.coords t) (ms23_0 t) (hs23_0 t) (ms23_1 t) (hs23_1 t) (ms23_2 t) (hs23_2 t) scM23 (Memref.isWhole_whole _) (isFirst23 t h0) (notLast23 t (by omega)) (iblk23 V c 0 t) (iblk23 V c 1 t)) := by
  obtain ⟨n, hn⟩ := t
  cases n with
  | zero => rfl
  | succ n => exact (dif_pos h0).trans rfl

/-- `outsAt23` at a point with k = 1, 2: over what the point before left. -/
theorem outsAt23_B (c : Dev nD) (t : Fin cfg23.N) (h0 : ¬t.val % 4 = 0) (h3 : ¬t.val % 4 = 3) :
    outsAt23 V c t.val t.isLt = (outIdle23, sout23_B c (grid23.coords t) (ms23_0 t) (hs23_0 t) (ms23_1 t) (hs23_1 t) (ms23_2 t) (hs23_2 t) scM23 (Memref.isWhole_whole _) (notFirst23 t h0) (notLast23 t h3) (iblk23 V c 0 t) (iblk23 V c 1 t)
      (outsAt23 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt23` at a point with k = 3. -/
theorem outsAt23_C (c : Dev nD) (t : Fin cfg23.N) (h0 : ¬t.val % 4 = 0) (h3 : t.val % 4 = 3) :
    outsAt23 V c t.val t.isLt = (out23_C c (grid23.coords t) (ms23_0 t) (hs23_0 t) (ms23_1 t) (hs23_1 t) (ms23_2 t) (hs23_2 t) scM23 (Memref.isWhole_whole _) (notFirst23 t h0) (isLast23 t h3) (iblk23 V c 0 t) (iblk23 V c 1 t)
        (outsAt23 V c (t.val - 1) (Nat.lt_of_le_of_lt (Nat.sub_le _ _) t.isLt)).2,
      sout23_C c (grid23.coords t) (ms23_0 t) (hs23_0 t) (ms23_1 t) (hs23_1 t) (ms23_2 t) (hs23_2 t) scM23 (Memref.isWhole_whole _) (notFirst23 t h0) (isLast23 t h3) (iblk23 V c 0 t) (iblk23 V c 1 t)
        (outsAt23 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS23 (c : Dev nD) : (n : ℕ) → n ≤ cfg23.N → sProp 𝕄
  | 0, _ => Pipeline.ΦA spec23 c
  | n + 1, hn => iprop(iprop(owns (c : Thread nD τ) scM23 fullShare ((outsAt23 V c n hn).2) ∗ restBut23 c) ∗ (∃ r, prngReg c r))

theorem PhiS23_zero (c : Dev nD) (n : ℕ) (h : n ≤ cfg23.N) (hz : n = 0) : PhiS23 V c n h = Pipeline.ΦA spec23 c := by
  subst hz; rfl
theorem PhiS23_succ (c : Dev nD) (n : ℕ) (hn : n < cfg23.N) :
    PhiS23 V c (n + 1) hn = iprop(iprop(owns (c : Thread nD τ) scM23 fullShare ((outsAt23 V c n hn).2) ∗ restBut23 c) ∗ (∃ r, prngReg c r)) := rfl
theorem PhiS23_pos (c : Dev nD) (n : ℕ) (h : n ≤ cfg23.N) (hz : n ≠ 0) :
    PhiS23 V c n h = iprop(iprop(owns (c : Thread nD τ) scM23 fullShare ((outsAt23 V c (n - 1) (by omega)).2) ∗ restBut23 c) ∗ (∃ r, prngReg c r)) := by
  cases n with
  | zero => exact absurd rfl hz
  | succ n => rfl

/-! ## The proof data -/

/-- The region's proof data on core `c`: the arrays as the region finds them; after the body at point `t` each input's
    buffer at its block and the output's at `outsAt23`'s first component; the invariant `PhiS23`; nothing owed; full shares. -/
noncomputable def dat23 (c : Dev nD) : Dat τ (Elt F) Unit ℕ (UR sig nD τ) ℕ cfg23 c where
  A w := V c (Pipeline.arrRef spec23 w)
  after w t := match w with
    | ⟨0, _⟩ => iblk23 V c 0 t
    | ⟨1, _⟩ => iblk23 V c 1 t
    | ⟨2, _⟩ => (outsAt23 V c t.val t.isLt).1
  Φ t := PhiS23 V c t.val (Nat.le_of_lt_succ t.isLt)
  q _ := fullShare
  owed _ := 0

theorem A_eq23 (c : Dev nD) (w : Fin cfg23.W) : (dat23 V c).A w = V c (Pipeline.arrRef spec23 w) := by
  dsimp only [dat23]
theorem PhiS23_castSucc (c : Dev nD) (t : Fin cfg23.N) :
    (dat23 V c).Φ t.castSucc = PhiS23 V c t.val (Nat.le_of_lt t.isLt) := by
  dsimp only [dat23]; simp only [Fin.coe_castSucc]
theorem after23_0 (c : Dev nD) (t : Fin cfg23.N) : (dat23 V c).after 0 t = iblk23 V c 0 t := by dsimp only [dat23]
theorem after23_1 (c : Dev nD) (t : Fin cfg23.N) : (dat23 V c).after 1 t = iblk23 V c 1 t := by dsimp only [dat23]
theorem after23_2 (c : Dev nD) (t : Fin cfg23.N) : (dat23 V c).after 2 t = (outsAt23 V c t.val t.isLt).1 := by dsimp only [dat23]
theorem before23_0 (c : Dev nD) (t : Fin cfg23.N) (d) : (dat23 V c).before 0 t d = iblk23 V c 0 t :=
  before23_0_of V (dat23 V c) (A_eq23 V c 0) (after23_0 V c) t d
theorem before23_1 (c : Dev nD) (t : Fin cfg23.N) (d) : (dat23 V c).before 1 t d = iblk23 V c 1 t :=
  before23_1_of V (dat23 V c) (A_eq23 V c 1) (after23_1 V c) t d

/-! ## The body's obligation -/

noncomputable def bodyPre23 (c : Dev nD) (t : Fin cfg23.N) : sProp 𝕄 :=
  iprop((dat23 V c).Φ t.castSucc ∗ (dat23 V c).owesAt () t.castSucc
    ∗ (∃ d, owns (c : Thread nD τ) (ms23_0 t) fullShare ((dat23 V c).before 0 t d))
    ∗ (∃ d, owns (c : Thread nD τ) (ms23_1 t) fullShare ((dat23 V c).before 1 t d))
    ∗ (∃ d, owns (c : Thread nD τ) (ms23_2 t) fullShare ((dat23 V c).before 2 t d)))

noncomputable def bodyPost23 (c : Dev nD) (t : Fin cfg23.N) : sProp 𝕄 :=
  iprop((dat23 V c).Φ t.succ ∗ (dat23 V c).owesAt () t.succ
    ∗ (dat23 V c).leavesExact 0 t
    ∗ (dat23 V c).leavesExact 1 t
    ∗ (dat23 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body23 (c : Dev nD) (t : Fin cfg23.N) :
    bodyPre23 V c t ⊢ wp frame (wpE (defs₀ (F := F)) Variants.none c none) Set.univ (bodyAt23 t) (fun _ => bodyPost23 V c t) := by
  unfold bodyPre23 bodyPost23 bodyAt23
  simp only [before23_0, before23_1]
  rw [show (dat23 V c).owesAt () t.succ = (dat23 V c).owesAt () t.castSucc from rfl]
  rw [show (dat23 V c).Φ t.succ = PhiS23 V c (t.val + 1) t.isLt from rfl, PhiS23_succ]
  rw [show (dat23 V c).leavesExact 0 t = owns (c : Thread nD τ) (ms23_0 t) fullShare ((dat23 V c).after 0 t) from by
    unfold Dat.leavesExact; rw [liveAt23_0 t], after23_0]
  rw [show (dat23 V c).leavesExact 1 t = owns (c : Thread nD τ) (ms23_1 t) fullShare ((dat23 V c).after 1 t) from by
    unfold Dat.leavesExact; rw [liveAt23_1 t], after23_1]
  by_cases h0 : t.val % 4 = 0
  · have h3 : ¬t.val % 4 = 3 := by omega
    rw [Dat.leavesExact_idle (dat23 V c) 2 t (idleAt23_2 t (notLast23 t h3)) (noFlush23_2 t (notLast23 t h3))]
    rw [outsAt23_A V c t h0]
    unfold sout23_A; (try dsimp only)
    by_cases hz : t.val = 0
    · rw [PhiS23_castSucc V c t, PhiS23_zero V c _ _ hz, PhiA23_eq]
      iintro ⟨⟨⟨HS0, Hrb⟩, Hg⟩, Ho, ⟨%d0, H0⟩, ⟨%d1, H1⟩, ⟨%d2, H2⟩⟩
      iapply ((kernelRun23_A c (grid23.coords t) _ _ _ _ _ _ _ _ (isFirst23 t h0) (notLast23 t (by omega)) (iblk23 V c 0 t) (iblk23 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover23_A c _ _ _ _ _ _ _ _ _ _ _ _ _)
          iexact Hrb
        iexact Hg
      isplitl [Ho]; · iexact Ho
      isplitl [H0]; · iexact H0
      isplitl [H1]; · iexact H1
      iexists _; iexact H2
    · rw [PhiS23_castSucc V c t, PhiS23_pos V c _ _ hz]
      iintro ⟨⟨⟨HS0, Hrb⟩, Hg⟩, Ho, ⟨%d0, H0⟩, ⟨%d1, H1⟩, ⟨%d2, H2⟩⟩
      iapply ((kernelRun23_A c (grid23.coords t) _ _ _ _ _ _ _ _ (isFirst23 t h0) (notLast23 t (by omega)) (iblk23 V c 0 t) (iblk23 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover23_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat23 V c).leavesExact 2 t = owns (c : Thread nD τ) (ms23_2 t) fullShare ((dat23 V c).after 2 t) from by
        unfold Dat.leavesExact; rw [liveAt23_2 t (isLast23 t h3)], after23_2]
      rw [outsAt23_C V c t h0 h3]
      unfold out23_C sout23_C; (try dsimp only)
      rw [PhiS23_castSucc V c t, PhiS23_pos V c _ _ hz]
      iintro ⟨⟨⟨HS0, Hrb⟩, Hg⟩, Ho, ⟨%d0, H0⟩, ⟨%d1, H1⟩, ⟨%d2, H2⟩⟩
      iapply ((kernelRun23_C c (grid23.coords t) _ _ _ _ _ _ _ _ (notFirst23 t h0) (isLast23 t h3) (iblk23 V c 0 t) (iblk23 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover23_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover23_C c _ _ _ _ _ _ _ _ _ _ _ _ _ _)
    · rw [Dat.leavesExact_idle (dat23 V c) 2 t (idleAt23_2 t (notLast23 t h3)) (noFlush23_2 t (notLast23 t h3))]
      rw [outsAt23_B V c t h0 h3]
      unfold sout23_B; (try dsimp only)
      rw [PhiS23_castSucc V c t, PhiS23_pos V c _ _ hz]
      iintro ⟨⟨⟨HS0, Hrb⟩, Hg⟩, Ho, ⟨%d0, H0⟩, ⟨%d1, H1⟩, ⟨%d2, H2⟩⟩
      iapply ((kernelRun23_B c (grid23.coords t) _ _ _ _ _ _ _ _ (notFirst23 t h0) (notLast23 t h3) (iblk23 V c 0 t) (iblk23 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover23_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation23 (c : Dev nD) : BodyObligation (dat23 (F := F) V c) (defs₀ (F := F)) Variants.none () Set.univ := fun t => by
  rw [bigSep_W23, bigSep_W23]
  exact sound_body23 V c t

/-- What the region is entered with is the invariant before the first point. -/
theorem hin23 (c : Dev nD) : Pipeline.ΦA spec23 c ⊢ (dat23 V c).Φ 0 := by
  rw [show (dat23 V c).Φ 0 = PhiS23 V c 0 (Nat.zero_le _) from rfl, PhiS23_zero V c 0 _ rfl]
  try exact Idealize.SL.BI.Entails.refl _

/-- After the last point the invariant gives the class's back: the accumulator's contents are forgotten. -/
theorem hout23 (c : Dev nD) : (dat23 V c).Φ (Fin.last cfg23.N) ⊢ Pipeline.ΦA spec23 c := by
  have hN : cfg23.N = 16 := N_23
  rw [show (dat23 V c).Φ (Fin.last cfg23.N) = PhiS23 V c (Fin.last cfg23.N).val (Nat.le_of_lt_succ (Fin.last cfg23.N).isLt) from rfl,
    PhiS23_pos V c _ _ (by rw [Fin.val_last]; omega), PhiA23_eq]
  iintro ⟨⟨HS0, Hrb⟩, Hg⟩
  isplitl [HS0 Hrb]
  · isplitl [HS0]
    · iexists _; iexact HS0
    iexact Hrb
  iexact Hg

end Cert.Kernel.Hand

end
-- ==== Proof.RegK24a.lean ====
/- Laid out by: python3 scratch/layout_grid41.py --template-region 0 --region 24 --program Kernel --parts a, --shapes S1024x128=S1024x512,S128x512=S512x512
   from the hand-written text of region 0 (RegKI0a.lean): the same text, the region's number, block shapes and the program's namespace substituted. -/
/- The region of Kernel's @main that runs `cc24__matmul_kernel` (pipeline `cfg24`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond24_0 (i : grid24.Coords) : Prop :=
  (Scalar.cmpi .ne (Scalar.extui (Scalar.cmpi .eq (BitVec.ofNat 32 (i 1).val) 0#32)) 0#32) = 1#1
/-- True at every point: the reduction axis has one step. -/
theorem hcond24_0 : ∀ t : Fin cfg24.N, cond24_0 (grid24.coords t) :=
  (by decide +kernel : ∀ t : Fin grid24.N, cond24_0 (grid24.coords t))

/-- "This is the last reduction step" (the guard of the copy to the output block). -/
abbrev cond24_1 (i : grid24.Coords) : Prop := k24_cond2 i = 1#1
/-- True at every point, for the same reason. -/
theorem hcond24_1 : ∀ t : Fin cfg24.N, cond24_1 (grid24.coords t) :=
  (by decide +kernel : ∀ t : Fin grid24.N, cond24_1 (grid24.coords t))

/-! ## No window is idle anywhere -/

theorem liveAt24_0 : ∀ t : Fin cfg24.N, cfg24.idle 0 (grid24.coords t) = false := by decide +kernel
theorem liveAt24_1 : ∀ t : Fin cfg24.N, cfg24.idle 1 (grid24.coords t) = false := by decide +kernel
/-- The output window is stored at every point (the copy's guard holds everywhere). -/
theorem liveAt24_2 : ∀ t : Fin cfg24.N, cfg24.idle 2 (grid24.coords t) = false := by decide +kernel

/-! ## The memrefs the body is called on -/

/-- One staging buffer of the output window, through which its contents are stated (any whole view of the shape reads the
    same pieces back the same way). -/
abbrev VO24_2 : View sig .tc .vmem S1024x512 .f32 := (Memref.whole cc24_stg2_0 : Memref sig .tc .vmem S1024x512 .f32).view
/-- Each window's current staging memref at point `t`, spelt as the pipeline passes it, with its wholeness. -/
abbrev ms24_0 (t : Fin cfg24.N) : Memref sig .tc .vmem S1024x512 .f32 := win24_0.stage (cfg24.slots t 0)
abbrev hs24_0 (t : Fin cfg24.N) : (ms24_0 t).IsWhole := hstage24_0 ((cfg24.slots t 0).cast nbuf24_0)
abbrev ms24_1 (t : Fin cfg24.N) : Memref sig .tc .vmem S512x512 .bf16 := win24_1.stage (cfg24.slots t 1)
abbrev hs24_1 (t : Fin cfg24.N) : (ms24_1 t).IsWhole := hstage24_1 ((cfg24.slots t 1).cast nbuf24_1)
abbrev ms24_2 (t : Fin cfg24.N) : Memref sig .tc .vmem S1024x512 .f32 := win24_2.stage (cfg24.slots t 2)
abbrev hs24_2 (t : Fin cfg24.N) : (ms24_2 t).IsWhole := hstage24_2 ((cfg24.slots t 2).cast nbuf24_2)
/-- The accumulator: a whole scoped buffer of the kernel's own, passed beside the windows. -/
abbrev scM24_0 : Memref sig .tc .vmem S1024x512 .f32 := Memref.whole cc24_scratch0
abbrev VS24_0 : View sig .tc .vmem S1024x512 .f32 := scM24_0.view

/-- The region invariant with the accumulator taken out of the scoped rest: the accumulator owned at some contents, every
    other scoped buffer unopened, and the generator register. -/
theorem PhiA24_eq (c : Dev nD) :
    (Pipeline.ΦA spec24 c : sProp 𝕄)
      = iprop(iprop(iprop((∃ d, owns (c : Thread nD τ) scM24_0 fullShare d))
            ∗ Pipeline.scopedRestBut (Ix := Unit) (Name := ℕ) (U := UR sig nD τ) (Lvl := ℕ) (Val := Elt F) spec24 c [cc24_scratch0])
          ∗ (∃ r, prngReg c r)) := by
  unfold Pipeline.ΦA; rw [scopedRest24_split]; simp only [scM24_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun24 (c : Dev nD) (i : grid24.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond24_0 i) (hlast : cond24_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc24__matmul_kernel i arg2 harg2 arg3 harg3 arg4 harg4 arg5 harg5) K } := by
  refine ⟨?_, ?_, fun E K => ?run⟩
  case run =>
    simp only [cc24__matmul_kernel_eq_skeleton]; unfold cc24__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.Kernel.Hand

end
-- ==== Proof.RegK24.lean ====
/- Laid out by: python3 scratch/layout_grid41.py --template-region 0 --region 24 --program Kernel --parts a, --shapes S1024x128=S1024x512,S128x512=S512x512
   from the hand-written text of region 0 (RegKI0.lean): the same text, the region's number, block shapes and the program's namespace substituted. -/
/- The region of Kernel's @main that runs `cc24__matmul_kernel` (pipeline `cfg24`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegK24a
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk24 (c : Dev nD) (w : Fin cfg24.W) (t : Fin cfg24.N) : ((cfg24.win w).xblock (cfg24.grid.coords t)).Idx → Elt F (cfg24.win w).elt :=
  ((cfg24.win w).blk t).view.read (Elt F) (V c (Pipeline.arrRef spec24 w))

/-! ## What the case leaves, as pieces read back -/

/-- The output's pieces tile its block (one whole-block store). -/
theorem cover24_2 (c : Dev nD) (i : grid24.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond24_0 i) (hlast : cond24_1 i) (xa : Vec F S1024x512 .f32) (xb : Vec F S512x512 .bf16) (y : S1024x512.Idx) :
    ∃ pc ∈ (kernelRun24 c i arg2 harg2 arg3 harg3 arg4 harg4 arg5 harg5 hfirst hlast xa xb).1, y ∈ pc.1.set :=
  View.cover_of_tiledL (kernelRun24 c i arg2 harg2 arg3 harg3 arg4 harg4 arg5 harg5 hfirst hlast xa xb).1 S1024x512.size (by sl_kernel_rfl) y

/-- What the case leaves in the output's staging buffer: its pieces read back over junk. -/
noncomputable def out24_2 (c : Dev nD) (i : grid24.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond24_0 i) (hlast : cond24_1 i) (xa : Vec F S1024x512 .f32) (xb : Vec F S512x512 .bf16) : Vec F S1024x512 .f32 :=
  VO24_2.read (Elt F) (VO24_2.writes (Elt F) VO24_2.junk (kernelRun24 c i arg2 harg2 arg3 harg3 arg4 harg4 arg5 harg5 hfirst hlast xa xb).1)

/-- What the case leaves in the accumulator: its pieces read back over junk. -/
noncomputable def sout24_0 (c : Dev nD) (i : grid24.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond24_0 i) (hlast : cond24_1 i) (xa : Vec F S1024x512 .f32) (xb : Vec F S512x512 .bf16) : Vec F S1024x512 .f32 :=
  VS24_0.read (Elt F) (VS24_0.writes (Elt F) VS24_0.junk (kernelRun24 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout24_0_eq (c : Dev nD) (i : grid24.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond24_0 i) (hlast : cond24_1 i) (xa : Vec F S1024x512 .f32) (xb : Vec F S512x512 .bf16) :
    sout24_0 c i arg2 harg2 arg3 harg3 arg4 harg4 arg5 harg5 hfirst hlast xa xb = k24_pay2 xa xb (k24_pay1 (F := F)) := by
  unfold sout24_0
  rw [View.read_writes_junk_eq_canon]
  unfold kernelRun24
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out24_2_eq (c : Dev nD) (i : grid24.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond24_0 i) (hlast : cond24_1 i) (xa : Vec F S1024x512 .f32) (xb : Vec F S512x512 .bf16) :
    out24_2 c i arg2 harg2 arg3 harg3 arg4 harg4 arg5 harg5 hfirst hlast xa xb = k24_pay2 xa xb (k24_pay1 (F := F)) := by
  unfold out24_2
  rw [View.read_writes_junk_eq_canon]
  unfold kernelRun24
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt24 (c : Dev nD) (n : ℕ) (hn : n < cfg24.N) : Vec F S1024x512 .f32 × Vec F S1024x512 .f32 :=
  (out24_2 c (grid24.coords ⟨n, hn⟩) (ms24_0 ⟨n, hn⟩) (hs24_0 ⟨n, hn⟩) (ms24_1 ⟨n, hn⟩) (hs24_1 ⟨n, hn⟩) (ms24_2 ⟨n, hn⟩) (hs24_2 ⟨n, hn⟩) scM24_0 (Memref.isWhole_whole _)
      (hcond24_0 ⟨n, hn⟩) (hcond24_1 ⟨n, hn⟩) (iblk24 V c 0 ⟨n, hn⟩) (iblk24 V c 1 ⟨n, hn⟩),
   sout24_0 c (grid24.coords ⟨n, hn⟩) (ms24_0 ⟨n, hn⟩) (hs24_0 ⟨n, hn⟩) (ms24_1 ⟨n, hn⟩) (hs24_1 ⟨n, hn⟩) (ms24_2 ⟨n, hn⟩) (hs24_2 ⟨n, hn⟩) scM24_0 (Memref.isWhole_whole _)
      (hcond24_0 ⟨n, hn⟩) (hcond24_1 ⟨n, hn⟩) (iblk24 V c 0 ⟨n, hn⟩) (iblk24 V c 1 ⟨n, hn⟩))

/-- Every point is a first reduction step: the accumulator after it is one product onto zero. -/
theorem outsAt24_first (c : Dev nD) (t : Fin cfg24.N) :
    (outsAt24 V c t.val t.isLt).2 = k24_pay2 (iblk24 V c 0 t) (iblk24 V c 1 t) (k24_pay1 (F := F)) := by
  obtain ⟨n, hn⟩ := t
  unfold outsAt24
  dsimp only
  rw [sout24_0_eq]

/-- Every point is a last reduction step: the output block after it is the accumulator. -/
theorem outsAt24_last (c : Dev nD) (t : Fin cfg24.N) :
    (outsAt24 V c t.val t.isLt).1 = (outsAt24 V c t.val t.isLt).2 := by
  obtain ⟨n, hn⟩ := t
  unfold outsAt24
  dsimp only
  rw [out24_2_eq, sout24_0_eq]

/-! ## The pipeline's proof data -/

/-- The proof data of the pipeline on core `c`: the arrays as the region finds them; after the body at point `t` each input's
    buffer at its block and the output's at `outsAt24`'s first component; the invariant the same at every point; nothing owed;
    full shares. -/
noncomputable def dat24 (c : Dev nD) : Dat τ (Elt F) Unit ℕ (UR sig nD τ) ℕ cfg24 c where
  A w := V c (Pipeline.arrRef spec24 w)
  after w t := match w with
    | ⟨0, _⟩ => iblk24 V c 0 t
    | ⟨1, _⟩ => iblk24 V c 1 t
    | ⟨2, _⟩ => (outsAt24 V c t.val t.isLt).1
  Φ _ := Pipeline.ΦA spec24 c
  q _ := fullShare
  owed _ := 0

theorem A_eq24 (c : Dev nD) (w : Fin cfg24.W) : (dat24 V c).A w = V c (Pipeline.arrRef spec24 w) := by
  dsimp only [dat24]

theorem after24_0 (c : Dev nD) (t : Fin cfg24.N) : (dat24 V c).after 0 t = iblk24 V c 0 t := by dsimp only [dat24]
theorem after24_1 (c : Dev nD) (t : Fin cfg24.N) : (dat24 V c).after 1 t = iblk24 V c 1 t := by dsimp only [dat24]
theorem after24_2 (c : Dev nD) (t : Fin cfg24.N) : (dat24 V c).after 2 t = (outsAt24 V c t.val t.isLt).1 := by dsimp only [dat24]

/-- An input's current staging buffer holds its block at every point, fetched there or not: where it is not fetched its block
    index has not moved since the point before, and the body left the block in place. -/
theorem before24_0 (c : Dev nD) (t : Fin cfg24.N) (d) : (dat24 V c).before 0 t d = iblk24 V c 0 t :=
  ((dat24 V c).before_in_eq_fetched 0 rfl (fun _ => rfl) (fun _ _ _ => rfl)
      (fun t => by rw [after24_0]; unfold Dat.blockOf iblk24; rw [A_eq24]; try rfl) t d).trans
    (by unfold Dat.fetched Dat.blockOf iblk24; rw [A_eq24]; try rfl)
theorem before24_1 (c : Dev nD) (t : Fin cfg24.N) (d) : (dat24 V c).before 1 t d = iblk24 V c 1 t :=
  ((dat24 V c).before_in_eq_fetched 1 rfl (fun _ => rfl) (fun _ _ _ => rfl)
      (fun t => by rw [after24_1]; unfold Dat.blockOf iblk24; rw [A_eq24]; try rfl) t d).trans
    (by unfold Dat.fetched Dat.blockOf iblk24; rw [A_eq24]; try rfl)

/-! ## The body obligation, at a generic point -/

/-- What the body is called with at point `t`, the windows one by one, -/
noncomputable def bodyPre24 (c : Dev nD) (t : Fin cfg24.N) : sProp 𝕄 :=
  iprop((dat24 V c).Φ t.castSucc ∗ (dat24 V c).owesAt () t.castSucc
    ∗ (∃ d, owns (c : Thread nD τ) (ms24_0 t) fullShare ((dat24 V c).before 0 t d))
    ∗ (∃ d, owns (c : Thread nD τ) (ms24_1 t) fullShare ((dat24 V c).before 1 t d))
    ∗ (∃ d, owns (c : Thread nD τ) (ms24_2 t) fullShare ((dat24 V c).before 2 t d)))

/-- and what it returns. -/
noncomputable def bodyPost24 (c : Dev nD) (t : Fin cfg24.N) : sProp 𝕄 :=
  iprop((dat24 V c).Φ t.succ ∗ (dat24 V c).owesAt () t.succ
    ∗ (dat24 V c).leavesExact 0 t
    ∗ (dat24 V c).leavesExact 1 t
    ∗ (dat24 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body24 (c : Dev nD) (t : Fin cfg24.N) :
    bodyPre24 V c t ⊢ wp frame (wpE (defs₀ (F := F)) Variants.none c none) Set.univ (bodyAt24 t) (fun _ => bodyPost24 V c t) := by
  unfold bodyPre24 bodyPost24 bodyAt24
  simp only [before24_0, before24_1]
  rw [show (dat24 V c).owesAt () t.succ = (dat24 V c).owesAt () t.castSucc from rfl,
    show (dat24 V c).Φ t.succ = Pipeline.ΦA spec24 c from rfl, show (dat24 V c).Φ t.castSucc = Pipeline.ΦA spec24 c from rfl, PhiA24_eq]
  rw [show (dat24 V c).leavesExact 0 t = owns (c : Thread nD τ) (ms24_0 t) fullShare ((dat24 V c).after 0 t) from by
      unfold Dat.leavesExact; rw [liveAt24_0 t], after24_0]
  rw [show (dat24 V c).leavesExact 1 t = owns (c : Thread nD τ) (ms24_1 t) fullShare ((dat24 V c).after 1 t) from by
      unfold Dat.leavesExact; rw [liveAt24_1 t], after24_1]
  rw [show (dat24 V c).leavesExact 2 t = owns (c : Thread nD τ) (ms24_2 t) fullShare ((dat24 V c).after 2 t) from by
      unfold Dat.leavesExact; rw [liveAt24_2 t], after24_2]
  unfold outsAt24 out24_2; (try dsimp only)
  iintro ⟨⟨⟨Hacc, Hrest⟩, Hgen⟩, Howe, ⟨%da, Ha⟩, ⟨%db, Hb⟩, ⟨%dO, Hout⟩⟩
  iapply ((kernelRun24 c (grid24.coords t) _ _ _ _ _ _ _ _ (hcond24_0 t) (hcond24_1 t) (iblk24 V c 0 t) (iblk24 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover24_2 c _ _ _ _ _ _ _ _ _ _ _ _ _)

/-- The library's body obligation, at every point. -/
theorem body_obligation24 (c : Dev nD) : BodyObligation (dat24 (F := F) V c) (defs₀ (F := F)) Variants.none () Set.univ := fun t => by
  rw [bigSep_W24, bigSep_W24]
  exact sound_body24 V c t

/-- What the launch hands the region is the invariant before the first point, -/
theorem hin24 (c : Dev nD) : Pipeline.ΦA spec24 c ⊢ (dat24 V c).Φ 0 := Idealize.SL.BI.Entails.refl _

/-- and the invariant after the last point is what the launch takes back. -/
theorem hout24 (c : Dev nD) : (dat24 V c).Φ (Fin.last cfg24.N) ⊢ Pipeline.ΦA spec24 c := Idealize.SL.BI.Entails.refl _

end Cert.Kernel.Hand

end
-- ==== Proof.RegK25a.lean ====
/- Laid out by: python3 scratch/layout_regions.py --template-region 1 --region 25 --program Kernel --parts a,b,c, --out-dir proof/Proof
   from the hand-written text of region 1 (RegKI1a.lean): the same text, the region's number and the program's namespace substituted. -/
/-
  Region 25 of @main (custom_call 25): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond25_0 (i : grid25.Coords) : Prop := (Scalar.cmpi .ne (Scalar.extui (Scalar.cmpi .eq (BitVec.ofNat 32 (i 1).val) 0#32)) 0#32) = 1#1
/-- It holds exactly at the points with t % 4 = 0. -/
theorem hcond25_0 : ∀ t : Fin cfg25.N, cond25_0 (grid25.coords t) ↔ t.val % 4 = 0 :=
  (by decide +kernel : ∀ t : Fin grid25.N, cond25_0 (grid25.coords t) ↔ t.val % 4 = 0)

/-- "k = 3": the second conditional's test. -/
abbrev cond25_1 (i : grid25.Coords) : Prop := k25_cond2 i = 1#1
/-- It holds exactly at the points with t % 4 = 3. -/
theorem hcond25_1 : ∀ t : Fin cfg25.N, cond25_1 (grid25.coords t) ↔ t.val % 4 = 3 :=
  (by decide +kernel : ∀ t : Fin grid25.N, cond25_1 (grid25.coords t) ↔ t.val % 4 = 3)

/-! ## Where the windows are idle, and where the output is written back -/

/-- The two input windows are never idle. -/
theorem liveAt25_0 : ∀ t : Fin cfg25.N, cfg25.idle 0 (grid25.coords t) = false := by decide +kernel
theorem liveAt25_1 : ∀ t : Fin cfg25.N, cfg25.idle 1 (grid25.coords t) = false := by decide +kernel
/-- Where k ≠ 3 the output window is idle (the body stores nothing into it) and is not written back. -/
theorem idleAt25_2 : ∀ t : Fin cfg25.N, ¬cond25_1 (grid25.coords t) → cfg25.idle 2 (grid25.coords t) = true := by decide +kernel
theorem noFlush25_2 : ∀ t : Fin cfg25.N, ¬cond25_1 (grid25.coords t) → (cfg25.win 2).flush t = false := by decide +kernel
/-- Where k = 3 it is live. -/
theorem liveAt25_2 : ∀ t : Fin cfg25.N, cond25_1 (grid25.coords t) → cfg25.idle 2 (grid25.coords t) = false := by decide +kernel

/-! ## The staging memrefs at a point, and the scratch -/

/-- One staging buffer of the output window, through which its contents are stated. -/
abbrev VO25_2 : View sig .tc .vmem S1024x512 .f32 := (Memref.whole cc25_stg2_0 : Memref sig .tc .vmem S1024x512 .f32).view
abbrev ms25_0 (t : Fin cfg25.N) : Memref sig .tc .vmem S1024x1024 .bf16 := win25_0.stage (cfg25.slots t 0)
abbrev hs25_0 (t : Fin cfg25.N) : (ms25_0 t).IsWhole := hstage25_0 ((cfg25.slots t 0).cast nbuf25_0)
abbrev ms25_1 (t : Fin cfg25.N) : Memref sig .tc .vmem S1024x512 .f32 := win25_1.stage (cfg25.slots t 1)
abbrev hs25_1 (t : Fin cfg25.N) : (ms25_1 t).IsWhole := hstage25_1 ((cfg25.slots t 1).cast nbuf25_1)
abbrev ms25_2 (t : Fin cfg25.N) : Memref sig .tc .vmem S1024x512 .f32 := win25_2.stage (cfg25.slots t 2)
abbrev hs25_2 (t : Fin cfg25.N) : (ms25_2 t).IsWhole := hstage25_2 ((cfg25.slots t 2).cast nbuf25_2)
/-- The accumulator: a whole scoped buffer of the kernel's own. -/
abbrev scM25 : Memref sig .tc .vmem S1024x512 .f32 := Memref.whole cc25_scratch0
abbrev VS25 : View sig .tc .vmem S1024x512 .f32 := scM25.view

/-- The other scoped buffers of the core, none of which this region touches. -/
abbrev restBut25 (c : Dev nD) : sProp 𝕄 :=
  Pipeline.scopedRestBut (Ix := Unit) (Name := ℕ) (U := UR sig nD τ) (Lvl := ℕ) (Val := Elt F) spec25 c [cc25_scratch0]

/-- The region's invariant before its first point: the accumulator at something, the other scoped buffers, the generator register. -/
theorem PhiA25_eq (c : Dev nD) :
    (Pipeline.ΦA spec25 c : sProp 𝕄)
      = iprop(iprop((∃ d, owns (c : Thread nD τ) scM25 fullShare d) ∗ restBut25 c) ∗ (∃ r, prngReg c r)) := by
  unfold Pipeline.ΦA; rw [scopedRest25_split]; simp only [scM25, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun25_A (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond25_0 i) (hc1 : ¬cond25_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc25__matmul_kernel i arg2 harg2 arg3 harg3 arg4 harg4 arg5 harg5) K } := by
  refine ⟨[], ?_, fun xi2 E K => ?run⟩
  case run =>
    simp only [cc25__matmul_kernel_eq_skeleton]; unfold cc25__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK25b.lean ====
/- Laid out by: python3 scratch/layout_regions.py --template-region 1 --region 25 --program Kernel --parts a,b,c, --out-dir proof/Proof
   from the hand-written text of region 1 (RegKI1b.lean): the same text, the region's number and the program's namespace substituted. -/
/-
  Region 25, case B (k = 1, 2): the body's run. Neither conditional is taken: the product of the two blocks is added to what
  the point before left in the accumulator; the output block is not touched.
-/
import proofs.«158944_j64613488001249_1_alg».proof.Proof.RegK25a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun25_B (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond25_0 i) (hc1 : ¬cond25_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc25__matmul_kernel i arg2 harg2 arg3 harg3 arg4 harg4 arg5 harg5) K } := by
  refine ⟨[], ?_, fun xi2 E K => ?run⟩
  case run =>
    simp only [cc25__matmul_kernel_eq_skeleton]; unfold cc25__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK25c.lean ====
/- Laid out by: python3 scratch/layout_regions.py --template-region 1 --region 25 --program Kernel --parts a,b,c, --out-dir proof/Proof
   from the hand-written text of region 1 (RegKI1c.lean): the same text, the region's number and the program's namespace substituted. -/
/-
  Region 25, case C (k = 3): the body's run. The product is added to the accumulator as in case B, and then the second
  conditional copies the accumulator over the whole output block.
-/
import proofs.«158944_j64613488001249_1_alg».proof.Proof.RegK25b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun25_C (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond25_0 i) (hc1 : cond25_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc25__matmul_kernel i arg2 harg2 arg3 harg3 arg4 harg4 arg5 harg5) K } := by
  refine ⟨?_, ?_, fun E K => ?run⟩
  case run =>
    simp only [cc25__matmul_kernel_eq_skeleton]; unfold cc25__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK25.lean ====
/- Laid out by: python3 scratch/layout_regions.py --template-region 1 --region 25 --program Kernel --parts a,b,c, --out-dir proof/Proof
   from the hand-written text of region 1 (RegKI1.lean): the same text, the region's number and the program's namespace substituted. -/
/-
  Region 25 of @main, entered from the buffer contents `V`: what its windows' blocks are, what each case of the body leaves in
  the accumulator and in the output block, the accumulator and the output block point by point (`outsAt25`: at k = 0 the
  accumulator restarts from zeros plus the product; at k = 1, 2, 3 it is the point before's plus the product; at k = 3 the
  output block is the accumulator), the region's invariant (the accumulator at `outsAt25`'s second component), the proof data,
  and the body's obligation at every point.
-/
import proofs.«158944_j64613488001249_1_alg».proof.Proof.RegK25c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk25 (c : Dev nD) (w : Fin cfg25.W) (t : Fin cfg25.N) : ((cfg25.win w).xblock (cfg25.grid.coords t)).Idx → Elt F (cfg25.win w).elt :=
  ((cfg25.win w).blk t).view.read (Elt F) (V c (Pipeline.arrRef spec25 w))

/-- An input window's current staging buffer holds its block at every point, for any proof data whose array is `V`'s and
    whose body leaves the block in place. -/
theorem before25_0_of {c : Dev nD} (dat : Dat τ (Elt F) Unit ℕ (UR sig nD τ) ℕ cfg25 c) (hA : dat.A 0 = V c (Pipeline.arrRef spec25 0))
    (hafter : ∀ t, dat.after 0 t = iblk25 V c 0 t) (t : Fin cfg25.N) (d) : dat.before 0 t d = iblk25 V c 0 t :=
  (dat.before_in_eq_fetched 0 rfl (fun _ => rfl) (fun _ _ _ => rfl) (fun t => by rw [hafter]; unfold Dat.blockOf iblk25; rw [hA]; try rfl) t d).trans
    (by unfold Dat.fetched Dat.blockOf iblk25; rw [hA]; try rfl)
theorem before25_1_of {c : Dev nD} (dat : Dat τ (Elt F) Unit ℕ (UR sig nD τ) ℕ cfg25 c) (hA : dat.A 1 = V c (Pipeline.arrRef spec25 1))
    (hafter : ∀ t, dat.after 1 t = iblk25 V c 1 t) (t : Fin cfg25.N) (d) : dat.before 1 t d = iblk25 V c 1 t :=
  (dat.before_in_eq_fetched 1 rfl (fun _ => rfl) (fun _ _ _ => rfl) (fun t => by rw [hafter]; unfold Dat.blockOf iblk25; rw [hA]; try rfl) t d).trans
    (by unfold Dat.fetched Dat.blockOf iblk25; rw [hA]; try rfl)

/-! ## What each case leaves -/

/-- Case A's stores into the accumulator cover it. -/
theorem scover25_A (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond25_0 i) (hc1 : ¬cond25_1 i)
    (x0 : Vec F S1024x1024 .bf16) (x1 : Vec F S1024x512 .f32) (y : S1024x512.Idx) :
    ∃ pc ∈ (kernelRun25_A c i arg2 harg2 arg3 harg3 arg4 harg4 arg5 harg5 hc0 hc1 x0 x1).2.1, y ∈ pc.1.set :=
  View.cover_of_tiledL (kernelRun25_A c i arg2 harg2 arg3 harg3 arg4 harg4 arg5 harg5 hc0 hc1 x0 x1).2.1 S1024x512.size (by sl_kernel_rfl) y
/-- What case A leaves in the accumulator. -/
noncomputable def sout25_A (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond25_0 i) (hc1 : ¬cond25_1 i)
    (x0 : Vec F S1024x1024 .bf16) (x1 : Vec F S1024x512 .f32) : Vec F S1024x512 .f32 :=
  VS25.read (Elt F) (VS25.writes (Elt F) VS25.junk (kernelRun25_A c i arg2 harg2 arg3 harg3 arg4 harg4 arg5 harg5 hc0 hc1 x0 x1).2.1)

/-- Case B's store into the accumulator covers it. -/
theorem scover25_B (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond25_0 i) (hc1 : ¬cond25_1 i)
    (x0 : Vec F S1024x1024 .bf16) (x1 : Vec F S1024x512 .f32) (xs0 : Vec F S1024x512 .f32) (y : S1024x512.Idx) :
    ∃ pc ∈ (kernelRun25_B c i arg2 harg2 arg3 harg3 arg4 harg4 arg5 harg5 hc0 hc1 x0 x1 xs0).2.1, y ∈ pc.1.set :=
  View.cover_of_tiledL (kernelRun25_B c i arg2 harg2 arg3 harg3 arg4 harg4 arg5 harg5 hc0 hc1 x0 x1 xs0).2.1 S1024x512.size (by sl_kernel_rfl) y
/-- What case B leaves in the accumulator, over what the point before left. -/
noncomputable def sout25_B (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond25_0 i) (hc1 : ¬cond25_1 i)
    (x0 : Vec F S1024x1024 .bf16) (x1 : Vec F S1024x512 .f32) (xs0 : Vec F S1024x512 .f32) : Vec F S1024x512 .f32 :=
  VS25.read (Elt F) (VS25.writes (Elt F) VS25.junk (kernelRun25_B c i arg2 harg2 arg3 harg3 arg4 harg4 arg5 harg5 hc0 hc1 x0 x1 xs0).2.1)

/-- Case C's store into the output block covers it, and so does its store into the accumulator. -/
theorem cover25_C (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond25_0 i) (hc1 : cond25_1 i)
    (x0 : Vec F S1024x1024 .bf16) (x1 : Vec F S1024x512 .f32) (xs0 : Vec F S1024x512 .f32) (y : S1024x512.Idx) :
    ∃ pc ∈ (kernelRun25_C c i arg2 harg2 arg3 harg3 arg4 harg4 arg5 harg5 hc0 hc1 x0 x1 xs0).1, y ∈ pc.1.set :=
  View.cover_of_tiledL (kernelRun25_C c i arg2 harg2 arg3 harg3 arg4 harg4 arg5 harg5 hc0 hc1 x0 x1 xs0).1 S1024x512.size (by sl_kernel_rfl) y
theorem scover25_C (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond25_0 i) (hc1 : cond25_1 i)
    (x0 : Vec F S1024x1024 .bf16) (x1 : Vec F S1024x512 .f32) (xs0 : Vec F S1024x512 .f32) (y : S1024x512.Idx) :
    ∃ pc ∈ (kernelRun25_C c i arg2 harg2 arg3 harg3 arg4 harg4 arg5 harg5 hc0 hc1 x0 x1 xs0).2.1, y ∈ pc.1.set :=
  View.cover_of_tiledL (kernelRun25_C c i arg2 harg2 arg3 harg3 arg4 harg4 arg5 harg5 hc0 hc1 x0 x1 xs0).2.1 S1024x512.size (by sl_kernel_rfl) y
/-- What case C leaves in the output block, and in the accumulator. -/
noncomputable def out25_C (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond25_0 i) (hc1 : cond25_1 i)
    (x0 : Vec F S1024x1024 .bf16) (x1 : Vec F S1024x512 .f32) (xs0 : Vec F S1024x512 .f32) : Vec F S1024x512 .f32 :=
  VO25_2.read (Elt F) (VO25_2.writes (Elt F) VO25_2.junk (kernelRun25_C c i arg2 harg2 arg3 harg3 arg4 harg4 arg5 harg5 hc0 hc1 x0 x1 xs0).1)
noncomputable def sout25_C (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond25_0 i) (hc1 : cond25_1 i)
    (x0 : Vec F S1024x1024 .bf16) (x1 : Vec F S1024x512 .f32) (xs0 : Vec F S1024x512 .f32) : Vec F S1024x512 .f32 :=
  VS25.read (Elt F) (VS25.writes (Elt F) VS25.junk (kernelRun25_C c i arg2 harg2 arg3 harg3 arg4 harg4 arg5 harg5 hc0 hc1 x0 x1 xs0).2.1)

/-- Where the output block is idle nothing consults what it holds: a placeholder. -/
noncomputable def outIdle25 : Vec F S1024x512 .f32 := VO25_2.read (Elt F) (VO25_2.writes (Elt F) VO25_2.junk [])

/-! ## The conditions at a point, from t % 4 -/

theorem isFirst25 (t : Fin cfg25.N) (h : t.val % 4 = 0) : cond25_0 (grid25.coords t) := (hcond25_0 t).mpr h
theorem notFirst25 (t : Fin cfg25.N) (h : ¬t.val % 4 = 0) : ¬cond25_0 (grid25.coords t) := fun hc => h ((hcond25_0 t).mp hc)
theorem isLast25 (t : Fin cfg25.N) (h : t.val % 4 = 3) : cond25_1 (grid25.coords t) := (hcond25_1 t).mpr h
theorem notLast25 (t : Fin cfg25.N) (h : ¬t.val % 4 = 3) : ¬cond25_1 (grid25.coords t) := fun hc => h ((hcond25_1 t).mp hc)

/-! ## The accumulator and the output block, point by point -/

/-- After the body at position `n`: (the output block's buffer, the accumulator). -/
noncomputable def outsAt25 (c : Dev nD) : (n : ℕ) → n < cfg25.N → Vec F S1024x512 .f32 × Vec F S1024x512 .f32
  | 0, hn => (outIdle25, sout25_A c (grid25.coords ⟨0, hn⟩) (ms25_0 ⟨0, hn⟩) (hs25_0 ⟨0, hn⟩) (ms25_1 ⟨0, hn⟩) (hs25_1 ⟨0, hn⟩) (ms25_2 ⟨0, hn⟩) (hs25_2 ⟨0, hn⟩) scM25 (Memref.isWhole_whole _) (isFirst25 ⟨0, hn⟩ (Nat.zero_mod _)) (notLast25 ⟨0, hn⟩ (by simp)) (iblk25 V c 0 ⟨0, hn⟩) (iblk25 V c 1 ⟨0, hn⟩))
  | n + 1, hn =>
    if h0 : (n + 1) % 4 = 0 then
      (outIdle25, sout25_A c (grid25.coords ⟨n + 1, hn⟩) (ms25_0 ⟨n + 1, hn⟩) (hs25_0 ⟨n + 1, hn⟩) (ms25_1 ⟨n + 1, hn⟩) (hs25_1 ⟨n + 1, hn⟩) (ms25_2 ⟨n + 1, hn⟩) (hs25_2 ⟨n + 1, hn⟩) scM25 (Memref.isWhole_whole _) (isFirst25 ⟨n + 1, hn⟩ h0) (notLast25 ⟨n + 1, hn⟩ (by show ¬(n + 1) % 4 = 3; omega)) (iblk25 V c 0 ⟨n + 1, hn⟩) (iblk25 V c 1 ⟨n + 1, hn⟩))
    else if h3 : (n + 1) % 4 = 3 then
      (out25_C c (grid25.coords ⟨n + 1, hn⟩) (ms25_0 ⟨n + 1, hn⟩) (hs25_0 ⟨n + 1, hn⟩) (ms25_1 ⟨n + 1, hn⟩) (hs25_1 ⟨n + 1, hn⟩) (ms25_2 ⟨n + 1, hn⟩) (hs25_2 ⟨n + 1, hn⟩) scM25 (Memref.isWhole_whole _) (notFirst25 ⟨n + 1, hn⟩ h0) (isLast25 ⟨n + 1, hn⟩ h3) (iblk25 V c 0 ⟨n + 1, hn⟩) (iblk25 V c 1 ⟨n + 1, hn⟩) (outsAt25 c n (Nat.lt_of_succ_lt hn)).2,
       sout25_C c (grid25.coords ⟨n + 1, hn⟩) (ms25_0 ⟨n + 1, hn⟩) (hs25_0 ⟨n + 1, hn⟩) (ms25_1 ⟨n + 1, hn⟩) (hs25_1 ⟨n + 1, hn⟩) (ms25_2 ⟨n + 1, hn⟩) (hs25_2 ⟨n + 1, hn⟩) scM25 (Memref.isWhole_whole _) (notFirst25 ⟨n + 1, hn⟩ h0) (isLast25 ⟨n + 1, hn⟩ h3) (iblk25 V c 0 ⟨n + 1, hn⟩) (iblk25 V c 1 ⟨n + 1, hn⟩) (outsAt25 c n (Nat.lt_of_succ_lt hn)).2)
    else
      (outIdle25, sout25_B c (grid25.coords ⟨n + 1, hn⟩) (ms25_0 ⟨n + 1, hn⟩) (hs25_0 ⟨n + 1, hn⟩) (ms25_1 ⟨n + 1, hn⟩) (hs25_1 ⟨n + 1, hn⟩) (ms25_2 ⟨n + 1, hn⟩) (hs25_2 ⟨n + 1, hn⟩) scM25 (Memref.isWhole_whole _) (notFirst25 ⟨n + 1, hn⟩ h0) (notLast25 ⟨n + 1, hn⟩ h3) (iblk25 V c 0 ⟨n + 1, hn⟩) (iblk25 V c 1 ⟨n + 1, hn⟩) (outsAt25 c n (Nat.lt_of_succ_lt hn)).2)

/-- `outsAt25` at a point with k = 0. -/
theorem outsAt25_A (c : Dev nD) (t : Fin cfg25.N) (h0 : t.val % 4 = 0) :
    outsAt25 V c t.val t.isLt = (outIdle25, sout25_A c (grid25.coords t) (ms25_0 t) (hs25_0 t) (ms25_1 t) (hs25_1 t) (ms25_2 t) (hs25_2 t) scM25 (Memref.isWhole_whole _) (isFirst25 t h0) (notLast25 t (by omega)) (iblk25 V c 0 t) (iblk25 V c 1 t)) := by
  obtain ⟨n, hn⟩ := t
  cases n with
  | zero => rfl
  | succ n => exact (dif_pos h0).trans rfl

/-- `outsAt25` at a point with k = 1, 2: over what the point before left. -/
theorem outsAt25_B (c : Dev nD) (t : Fin cfg25.N) (h0 : ¬t.val % 4 = 0) (h3 : ¬t.val % 4 = 3) :
    outsAt25 V c t.val t.isLt = (outIdle25, sout25_B c (grid25.coords t) (ms25_0 t) (hs25_0 t) (ms25_1 t) (hs25_1 t) (ms25_2 t) (hs25_2 t) scM25 (Memref.isWhole_whole _) (notFirst25 t h0) (notLast25 t h3) (iblk25 V c 0 t) (iblk25 V c 1 t)
      (outsAt25 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt25` at a point with k = 3. -/
theorem outsAt25_C (c : Dev nD) (t : Fin cfg25.N) (h0 : ¬t.val % 4 = 0) (h3 : t.val % 4 = 3) :
    outsAt25 V c t.val t.isLt = (out25_C c (grid25.coords t) (ms25_0 t) (hs25_0 t) (ms25_1 t) (hs25_1 t) (ms25_2 t) (hs25_2 t) scM25 (Memref.isWhole_whole _) (notFirst25 t h0) (isLast25 t h3) (iblk25 V c 0 t) (iblk25 V c 1 t)
        (outsAt25 V c (t.val - 1) (Nat.lt_of_le_of_lt (Nat.sub_le _ _) t.isLt)).2,
      sout25_C c (grid25.coords t) (ms25_0 t) (hs25_0 t) (ms25_1 t) (hs25_1 t) (ms25_2 t) (hs25_2 t) scM25 (Memref.isWhole_whole _) (notFirst25 t h0) (isLast25 t h3) (iblk25 V c 0 t) (iblk25 V c 1 t)
        (outsAt25 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS25 (c : Dev nD) : (n : ℕ) → n ≤ cfg25.N → sProp 𝕄
  | 0, _ => Pipeline.ΦA spec25 c
  | n + 1, hn => iprop(iprop(owns (c : Thread nD τ) scM25 fullShare ((outsAt25 V c n hn).2) ∗ restBut25 c) ∗ (∃ r, prngReg c r))

theorem PhiS25_zero (c : Dev nD) (n : ℕ) (h : n ≤ cfg25.N) (hz : n = 0) : PhiS25 V c n h = Pipeline.ΦA spec25 c := by
  subst hz; rfl
theorem PhiS25_succ (c : Dev nD) (n : ℕ) (hn : n < cfg25.N) :
    PhiS25 V c (n + 1) hn = iprop(iprop(owns (c : Thread nD τ) scM25 fullShare ((outsAt25 V c n hn).2) ∗ restBut25 c) ∗ (∃ r, prngReg c r)) := rfl
theorem PhiS25_pos (c : Dev nD) (n : ℕ) (h : n ≤ cfg25.N) (hz : n ≠ 0) :
    PhiS25 V c n h = iprop(iprop(owns (c : Thread nD τ) scM25 fullShare ((outsAt25 V c (n - 1) (by omega)).2) ∗ restBut25 c) ∗ (∃ r, prngReg c r)) := by
  cases n with
  | zero => exact absurd rfl hz
  | succ n => rfl

/-! ## The proof data -/

/-- The region's proof data on core `c`: the arrays as the region finds them; after the body at point `t` each input's
    buffer at its block and the output's at `outsAt25`'s first component; the invariant `PhiS25`; nothing owed; full shares. -/
noncomputable def dat25 (c : Dev nD) : Dat τ (Elt F) Unit ℕ (UR sig nD τ) ℕ cfg25 c where
  A w := V c (Pipeline.arrRef spec25 w)
  after w t := match w with
    | ⟨0, _⟩ => iblk25 V c 0 t
    | ⟨1, _⟩ => iblk25 V c 1 t
    | ⟨2, _⟩ => (outsAt25 V c t.val t.isLt).1
  Φ t := PhiS25 V c t.val (Nat.le_of_lt_succ t.isLt)
  q _ := fullShare
  owed _ := 0

theorem A_eq25 (c : Dev nD) (w : Fin cfg25.W) : (dat25 V c).A w = V c (Pipeline.arrRef spec25 w) := by
  dsimp only [dat25]
theorem PhiS25_castSucc (c : Dev nD) (t : Fin cfg25.N) :
    (dat25 V c).Φ t.castSucc = PhiS25 V c t.val (Nat.le_of_lt t.isLt) := by
  dsimp only [dat25]; simp only [Fin.coe_castSucc]
theorem after25_0 (c : Dev nD) (t : Fin cfg25.N) : (dat25 V c).after 0 t = iblk25 V c 0 t := by dsimp only [dat25]
theorem after25_1 (c : Dev nD) (t : Fin cfg25.N) : (dat25 V c).after 1 t = iblk25 V c 1 t := by dsimp only [dat25]
theorem after25_2 (c : Dev nD) (t : Fin cfg25.N) : (dat25 V c).after 2 t = (outsAt25 V c t.val t.isLt).1 := by dsimp only [dat25]
theorem before25_0 (c : Dev nD) (t : Fin cfg25.N) (d) : (dat25 V c).before 0 t d = iblk25 V c 0 t :=
  before25_0_of V (dat25 V c) (A_eq25 V c 0) (after25_0 V c) t d
theorem before25_1 (c : Dev nD) (t : Fin cfg25.N) (d) : (dat25 V c).before 1 t d = iblk25 V c 1 t :=
  before25_1_of V (dat25 V c) (A_eq25 V c 1) (after25_1 V c) t d

/-! ## The body's obligation -/

noncomputable def bodyPre25 (c : Dev nD) (t : Fin cfg25.N) : sProp 𝕄 :=
  iprop((dat25 V c).Φ t.castSucc ∗ (dat25 V c).owesAt () t.castSucc
    ∗ (∃ d, owns (c : Thread nD τ) (ms25_0 t) fullShare ((dat25 V c).before 0 t d))
    ∗ (∃ d, owns (c : Thread nD τ) (ms25_1 t) fullShare ((dat25 V c).before 1 t d))
    ∗ (∃ d, owns (c : Thread nD τ) (ms25_2 t) fullShare ((dat25 V c).before 2 t d)))

noncomputable def bodyPost25 (c : Dev nD) (t : Fin cfg25.N) : sProp 𝕄 :=
  iprop((dat25 V c).Φ t.succ ∗ (dat25 V c).owesAt () t.succ
    ∗ (dat25 V c).leavesExact 0 t
    ∗ (dat25 V c).leavesExact 1 t
    ∗ (dat25 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body25 (c : Dev nD) (t : Fin cfg25.N) :
    bodyPre25 V c t ⊢ wp frame (wpE (defs₀ (F := F)) Variants.none c none) Set.univ (bodyAt25 t) (fun _ => bodyPost25 V c t) := by
  unfold bodyPre25 bodyPost25 bodyAt25
  simp only [before25_0, before25_1]
  rw [show (dat25 V c).owesAt () t.succ = (dat25 V c).owesAt () t.castSucc from rfl]
  rw [show (dat25 V c).Φ t.succ = PhiS25 V c (t.val + 1) t.isLt from rfl, PhiS25_succ]
  rw [show (dat25 V c).leavesExact 0 t = owns (c : Thread nD τ) (ms25_0 t) fullShare ((dat25 V c).after 0 t) from by
    unfold Dat.leavesExact; rw [liveAt25_0 t], after25_0]
  rw [show (dat25 V c).leavesExact 1 t = owns (c : Thread nD τ) (ms25_1 t) fullShare ((dat25 V c).after 1 t) from by
    unfold Dat.leavesExact; rw [liveAt25_1 t], after25_1]
  by_cases h0 : t.val % 4 = 0
  · have h3 : ¬t.val % 4 = 3 := by omega
    rw [Dat.leavesExact_idle (dat25 V c) 2 t (idleAt25_2 t (notLast25 t h3)) (noFlush25_2 t (notLast25 t h3))]
    rw [outsAt25_A V c t h0]
    unfold sout25_A; (try dsimp only)
    by_cases hz : t.val = 0
    · rw [PhiS25_castSucc V c t, PhiS25_zero V c _ _ hz, PhiA25_eq]
      iintro ⟨⟨⟨HS0, Hrb⟩, Hg⟩, Ho, ⟨%d0, H0⟩, ⟨%d1, H1⟩, ⟨%d2, H2⟩⟩
      iapply ((kernelRun25_A c (grid25.coords t) _ _ _ _ _ _ _ _ (isFirst25 t h0) (notLast25 t (by omega)) (iblk25 V c 0 t) (iblk25 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover25_A c _ _ _ _ _ _ _ _ _ _ _ _ _)
          iexact Hrb
        iexact Hg
      isplitl [Ho]; · iexact Ho
      isplitl [H0]; · iexact H0
      isplitl [H1]; · iexact H1
      iexists _; iexact H2
    · rw [PhiS25_castSucc V c t, PhiS25_pos V c _ _ hz]
      iintro ⟨⟨⟨HS0, Hrb⟩, Hg⟩, Ho, ⟨%d0, H0⟩, ⟨%d1, H1⟩, ⟨%d2, H2⟩⟩
      iapply ((kernelRun25_A c (grid25.coords t) _ _ _ _ _ _ _ _ (isFirst25 t h0) (notLast25 t (by omega)) (iblk25 V c 0 t) (iblk25 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover25_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat25 V c).leavesExact 2 t = owns (c : Thread nD τ) (ms25_2 t) fullShare ((dat25 V c).after 2 t) from by
        unfold Dat.leavesExact; rw [liveAt25_2 t (isLast25 t h3)], after25_2]
      rw [outsAt25_C V c t h0 h3]
      unfold out25_C sout25_C; (try dsimp only)
      rw [PhiS25_castSucc V c t, PhiS25_pos V c _ _ hz]
      iintro ⟨⟨⟨HS0, Hrb⟩, Hg⟩, Ho, ⟨%d0, H0⟩, ⟨%d1, H1⟩, ⟨%d2, H2⟩⟩
      iapply ((kernelRun25_C c (grid25.coords t) _ _ _ _ _ _ _ _ (notFirst25 t h0) (isLast25 t h3) (iblk25 V c 0 t) (iblk25 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover25_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover25_C c _ _ _ _ _ _ _ _ _ _ _ _ _ _)
    · rw [Dat.leavesExact_idle (dat25 V c) 2 t (idleAt25_2 t (notLast25 t h3)) (noFlush25_2 t (notLast25 t h3))]
      rw [outsAt25_B V c t h0 h3]
      unfold sout25_B; (try dsimp only)
      rw [PhiS25_castSucc V c t, PhiS25_pos V c _ _ hz]
      iintro ⟨⟨⟨HS0, Hrb⟩, Hg⟩, Ho, ⟨%d0, H0⟩, ⟨%d1, H1⟩, ⟨%d2, H2⟩⟩
      iapply ((kernelRun25_B c (grid25.coords t) _ _ _ _ _ _ _ _ (notFirst25 t h0) (notLast25 t h3) (iblk25 V c 0 t) (iblk25 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover25_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation25 (c : Dev nD) : BodyObligation (dat25 (F := F) V c) (defs₀ (F := F)) Variants.none () Set.univ := fun t => by
  rw [bigSep_W25, bigSep_W25]
  exact sound_body25 V c t

/-- What the region is entered with is the invariant before the first point. -/
theorem hin25 (c : Dev nD) : Pipeline.ΦA spec25 c ⊢ (dat25 V c).Φ 0 := by
  rw [show (dat25 V c).Φ 0 = PhiS25 V c 0 (Nat.zero_le _) from rfl, PhiS25_zero V c 0 _ rfl]
  try exact Idealize.SL.BI.Entails.refl _

/-- After the last point the invariant gives the class's back: the accumulator's contents are forgotten. -/
theorem hout25 (c : Dev nD) : (dat25 V c).Φ (Fin.last cfg25.N) ⊢ Pipeline.ΦA spec25 c := by
  have hN : cfg25.N = 16 := N_25
  rw [show (dat25 V c).Φ (Fin.last cfg25.N) = PhiS25 V c (Fin.last cfg25.N).val (Nat.le_of_lt_succ (Fin.last cfg25.N).isLt) from rfl,
    PhiS25_pos V c _ _ (by rw [Fin.val_last]; omega), PhiA25_eq]
  iintro ⟨⟨HS0, Hrb⟩, Hg⟩
  isplitl [HS0 Hrb]
  · isplitl [HS0]
    · iexists _; iexact HS0
    iexact Hrb
  iexact Hg

end Cert.Kernel.Hand

end
-- ==== Proof.RegK26a.lean ====
/- Laid out by: python3 scratch/layout_regions.py --template-region 1 --region 26 --program Kernel --parts a,b,c, --out-dir proof/Proof
   from the hand-written text of region 1 (RegKI1a.lean): the same text, the region's number and the program's namespace substituted. -/
/-
  Region 26 of @main (custom_call 26): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond26_0 (i : grid26.Coords) : Prop := (Scalar.cmpi .ne (Scalar.extui (Scalar.cmpi .eq (BitVec.ofNat 32 (i 1).val) 0#32)) 0#32) = 1#1
/-- It holds exactly at the points with t % 4 = 0. -/
theorem hcond26_0 : ∀ t : Fin cfg26.N, cond26_0 (grid26.coords t) ↔ t.val % 4 = 0 :=
  (by decide +kernel : ∀ t : Fin grid26.N, cond26_0 (grid26.coords t) ↔ t.val % 4 = 0)

/-- "k = 3": the second conditional's test. -/
abbrev cond26_1 (i : grid26.Coords) : Prop := k26_cond2 i = 1#1
/-- It holds exactly at the points with t % 4 = 3. -/
theorem hcond26_1 : ∀ t : Fin cfg26.N, cond26_1 (grid26.coords t) ↔ t.val % 4 = 3 :=
  (by decide +kernel : ∀ t : Fin grid26.N, cond26_1 (grid26.coords t) ↔ t.val % 4 = 3)

/-! ## Where the windows are idle, and where the output is written back -/

/-- The two input windows are never idle. -/
theorem liveAt26_0 : ∀ t : Fin cfg26.N, cfg26.idle 0 (grid26.coords t) = false := by decide +kernel
theorem liveAt26_1 : ∀ t : Fin cfg26.N, cfg26.idle 1 (grid26.coords t) = false := by decide +kernel
/-- Where k ≠ 3 the output window is idle (the body stores nothing into it) and is not written back. -/
theorem idleAt26_2 : ∀ t : Fin cfg26.N, ¬cond26_1 (grid26.coords t) → cfg26.idle 2 (grid26.coords t) = true := by decide +kernel
theorem noFlush26_2 : ∀ t : Fin cfg26.N, ¬cond26_1 (grid26.coords t) → (cfg26.win 2).flush t = false := by decide +kernel
/-- Where k = 3 it is live. -/
theorem liveAt26_2 : ∀ t : Fin cfg26.N, cond26_1 (grid26.coords t) → cfg26.idle 2 (grid26.coords t) = false := by decide +kernel

/-! ## The staging memrefs at a point, and the scratch -/

/-- One staging buffer of the output window, through which its contents are stated. -/
abbrev VO26_2 : View sig .tc .vmem S1024x512 .f32 := (Memref.whole cc26_stg2_0 : Memref sig .tc .vmem S1024x512 .f32).view
abbrev ms26_0 (t : Fin cfg26.N) : Memref sig .tc .vmem S1024x1024 .bf16 := win26_0.stage (cfg26.slots t 0)
abbrev hs26_0 (t : Fin cfg26.N) : (ms26_0 t).IsWhole := hstage26_0 ((cfg26.slots t 0).cast nbuf26_0)
abbrev ms26_1 (t : Fin cfg26.N) : Memref sig .tc .vmem S1024x512 .f32 := win26_1.stage (cfg26.slots t 1)
abbrev hs26_1 (t : Fin cfg26.N) : (ms26_1 t).IsWhole := hstage26_1 ((cfg26.slots t 1).cast nbuf26_1)
abbrev ms26_2 (t : Fin cfg26.N) : Memref sig .tc .vmem S1024x512 .f32 := win26_2.stage (cfg26.slots t 2)
abbrev hs26_2 (t : Fin cfg26.N) : (ms26_2 t).IsWhole := hstage26_2 ((cfg26.slots t 2).cast nbuf26_2)
/-- The accumulator: a whole scoped buffer of the kernel's own. -/
abbrev scM26 : Memref sig .tc .vmem S1024x512 .f32 := Memref.whole cc26_scratch0
abbrev VS26 : View sig .tc .vmem S1024x512 .f32 := scM26.view

/-- The other scoped buffers of the core, none of which this region touches. -/
abbrev restBut26 (c : Dev nD) : sProp 𝕄 :=
  Pipeline.scopedRestBut (Ix := Unit) (Name := ℕ) (U := UR sig nD τ) (Lvl := ℕ) (Val := Elt F) spec26 c [cc26_scratch0]

/-- The region's invariant before its first point: the accumulator at something, the other scoped buffers, the generator register. -/
theorem PhiA26_eq (c : Dev nD) :
    (Pipeline.ΦA spec26 c : sProp 𝕄)
      = iprop(iprop((∃ d, owns (c : Thread nD τ) scM26 fullShare d) ∗ restBut26 c) ∗ (∃ r, prngReg c r)) := by
  unfold Pipeline.ΦA; rw [scopedRest26_split]; simp only [scM26, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun26_A (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond26_0 i) (hc1 : ¬cond26_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc26__matmul_kernel i arg2 harg2 arg3 harg3 arg4 harg4 arg5 harg5) K } := by
  refine ⟨[], ?_, fun xi2 E K => ?run⟩
  case run =>
    simp only [cc26__matmul_kernel_eq_skeleton]; unfold cc26__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK26b.lean ====
/- Laid out by: python3 scratch/layout_regions.py --template-region 1 --region 26 --program Kernel --parts a,b,c, --out-dir proof/Proof
   from the hand-written text of region 1 (RegKI1b.lean): the same text, the region's number and the program's namespace substituted. -/
/-
  Region 26, case B (k = 1, 2): the body's run. Neither conditional is taken: the product of the two blocks is added to what
  the point before left in the accumulator; the output block is not touched.
-/
import proofs.«158944_j64613488001249_1_alg».proof.Proof.RegK26a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun26_B (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond26_0 i) (hc1 : ¬cond26_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc26__matmul_kernel i arg2 harg2 arg3 harg3 arg4 harg4 arg5 harg5) K } := by
  refine ⟨[], ?_, fun xi2 E K => ?run⟩
  case run =>
    simp only [cc26__matmul_kernel_eq_skeleton]; unfold cc26__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK26c.lean ====
/- Laid out by: python3 scratch/layout_regions.py --template-region 1 --region 26 --program Kernel --parts a,b,c, --out-dir proof/Proof
   from the hand-written text of region 1 (RegKI1c.lean): the same text, the region's number and the program's namespace substituted. -/
/-
  Region 26, case C (k = 3): the body's run. The product is added to the accumulator as in case B, and then the second
  conditional copies the accumulator over the whole output block.
-/
import proofs.«158944_j64613488001249_1_alg».proof.Proof.RegK26b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun26_C (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond26_0 i) (hc1 : cond26_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc26__matmul_kernel i arg2 harg2 arg3 harg3 arg4 harg4 arg5 harg5) K } := by
  refine ⟨?_, ?_, fun E K => ?run⟩
  case run =>
    simp only [cc26__matmul_kernel_eq_skeleton]; unfold cc26__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK26.lean ====
/- Laid out by: python3 scratch/layout_regions.py --template-region 1 --region 26 --program Kernel --parts a,b,c, --out-dir proof/Proof
   from the hand-written text of region 1 (RegKI1.lean): the same text, the region's number and the program's namespace substituted. -/
/-
  Region 26 of @main, entered from the buffer contents `V`: what its windows' blocks are, what each case of the body leaves in
  the accumulator and in the output block, the accumulator and the output block point by point (`outsAt26`: at k = 0 the
  accumulator restarts from zeros plus the product; at k = 1, 2, 3 it is the point before's plus the product; at k = 3 the
  output block is the accumulator), the region's invariant (the accumulator at `outsAt26`'s second component), the proof data,
  and the body's obligation at every point.
-/
import proofs.«158944_j64613488001249_1_alg».proof.Proof.RegK26c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk26 (c : Dev nD) (w : Fin cfg26.W) (t : Fin cfg26.N) : ((cfg26.win w).xblock (cfg26.grid.coords t)).Idx → Elt F (cfg26.win w).elt :=
  ((cfg26.win w).blk t).view.read (Elt F) (V c (Pipeline.arrRef spec26 w))

/-- An input window's current staging buffer holds its block at every point, for any proof data whose array is `V`'s and
    whose body leaves the block in place. -/
theorem before26_0_of {c : Dev nD} (dat : Dat τ (Elt F) Unit ℕ (UR sig nD τ) ℕ cfg26 c) (hA : dat.A 0 = V c (Pipeline.arrRef spec26 0))
    (hafter : ∀ t, dat.after 0 t = iblk26 V c 0 t) (t : Fin cfg26.N) (d) : dat.before 0 t d = iblk26 V c 0 t :=
  (dat.before_in_eq_fetched 0 rfl (fun _ => rfl) (fun _ _ _ => rfl) (fun t => by rw [hafter]; unfold Dat.blockOf iblk26; rw [hA]; try rfl) t d).trans
    (by unfold Dat.fetched Dat.blockOf iblk26; rw [hA]; try rfl)
theorem before26_1_of {c : Dev nD} (dat : Dat τ (Elt F) Unit ℕ (UR sig nD τ) ℕ cfg26 c) (hA : dat.A 1 = V c (Pipeline.arrRef spec26 1))
    (hafter : ∀ t, dat.after 1 t = iblk26 V c 1 t) (t : Fin cfg26.N) (d) : dat.before 1 t d = iblk26 V c 1 t :=
  (dat.before_in_eq_fetched 1 rfl (fun _ => rfl) (fun _ _ _ => rfl) (fun t => by rw [hafter]; unfold Dat.blockOf iblk26; rw [hA]; try rfl) t d).trans
    (by unfold Dat.fetched Dat.blockOf iblk26; rw [hA]; try rfl)

/-! ## What each case leaves -/

/-- Case A's stores into the accumulator cover it. -/
theorem scover26_A (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond26_0 i) (hc1 : ¬cond26_1 i)
    (x0 : Vec F S1024x1024 .bf16) (x1 : Vec F S1024x512 .f32) (y : S1024x512.Idx) :
    ∃ pc ∈ (kernelRun26_A c i arg2 harg2 arg3 harg3 arg4 harg4 arg5 harg5 hc0 hc1 x0 x1).2.1, y ∈ pc.1.set :=
  View.cover_of_tiledL (kernelRun26_A c i arg2 harg2 arg3 harg3 arg4 harg4 arg5 harg5 hc0 hc1 x0 x1).2.1 S1024x512.size (by sl_kernel_rfl) y
/-- What case A leaves in the accumulator. -/
noncomputable def sout26_A (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond26_0 i) (hc1 : ¬cond26_1 i)
    (x0 : Vec F S1024x1024 .bf16) (x1 : Vec F S1024x512 .f32) : Vec F S1024x512 .f32 :=
  VS26.read (Elt F) (VS26.writes (Elt F) VS26.junk (kernelRun26_A c i arg2 harg2 arg3 harg3 arg4 harg4 arg5 harg5 hc0 hc1 x0 x1).2.1)

/-- Case B's store into the accumulator covers it. -/
theorem scover26_B (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond26_0 i) (hc1 : ¬cond26_1 i)
    (x0 : Vec F S1024x1024 .bf16) (x1 : Vec F S1024x512 .f32) (xs0 : Vec F S1024x512 .f32) (y : S1024x512.Idx) :
    ∃ pc ∈ (kernelRun26_B c i arg2 harg2 arg3 harg3 arg4 harg4 arg5 harg5 hc0 hc1 x0 x1 xs0).2.1, y ∈ pc.1.set :=
  View.cover_of_tiledL (kernelRun26_B c i arg2 harg2 arg3 harg3 arg4 harg4 arg5 harg5 hc0 hc1 x0 x1 xs0).2.1 S1024x512.size (by sl_kernel_rfl) y
/-- What case B leaves in the accumulator, over what the point before left. -/
noncomputable def sout26_B (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond26_0 i) (hc1 : ¬cond26_1 i)
    (x0 : Vec F S1024x1024 .bf16) (x1 : Vec F S1024x512 .f32) (xs0 : Vec F S1024x512 .f32) : Vec F S1024x512 .f32 :=
  VS26.read (Elt F) (VS26.writes (Elt F) VS26.junk (kernelRun26_B c i arg2 harg2 arg3 harg3 arg4 harg4 arg5 harg5 hc0 hc1 x0 x1 xs0).2.1)

/-- Case C's store into the output block covers it, and so does its store into the accumulator. -/
theorem cover26_C (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond26_0 i) (hc1 : cond26_1 i)
    (x0 : Vec F S1024x1024 .bf16) (x1 : Vec F S1024x512 .f32) (xs0 : Vec F S1024x512 .f32) (y : S1024x512.Idx) :
    ∃ pc ∈ (kernelRun26_C c i arg2 harg2 arg3 harg3 arg4 harg4 arg5 harg5 hc0 hc1 x0 x1 xs0).1, y ∈ pc.1.set :=
  View.cover_of_tiledL (kernelRun26_C c i arg2 harg2 arg3 harg3 arg4 harg4 arg5 harg5 hc0 hc1 x0 x1 xs0).1 S1024x512.size (by sl_kernel_rfl) y
theorem scover26_C (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond26_0 i) (hc1 : cond26_1 i)
    (x0 : Vec F S1024x1024 .bf16) (x1 : Vec F S1024x512 .f32) (xs0 : Vec F S1024x512 .f32) (y : S1024x512.Idx) :
    ∃ pc ∈ (kernelRun26_C c i arg2 harg2 arg3 harg3 arg4 harg4 arg5 harg5 hc0 hc1 x0 x1 xs0).2.1, y ∈ pc.1.set :=
  View.cover_of_tiledL (kernelRun26_C c i arg2 harg2 arg3 harg3 arg4 harg4 arg5 harg5 hc0 hc1 x0 x1 xs0).2.1 S1024x512.size (by sl_kernel_rfl) y
/-- What case C leaves in the output block, and in the accumulator. -/
noncomputable def out26_C (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond26_0 i) (hc1 : cond26_1 i)
    (x0 : Vec F S1024x1024 .bf16) (x1 : Vec F S1024x512 .f32) (xs0 : Vec F S1024x512 .f32) : Vec F S1024x512 .f32 :=
  VO26_2.read (Elt F) (VO26_2.writes (Elt F) VO26_2.junk (kernelRun26_C c i arg2 harg2 arg3 harg3 arg4 harg4 arg5 harg5 hc0 hc1 x0 x1 xs0).1)
noncomputable def sout26_C (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond26_0 i) (hc1 : cond26_1 i)
    (x0 : Vec F S1024x1024 .bf16) (x1 : Vec F S1024x512 .f32) (xs0 : Vec F S1024x512 .f32) : Vec F S1024x512 .f32 :=
  VS26.read (Elt F) (VS26.writes (Elt F) VS26.junk (kernelRun26_C c i arg2 harg2 arg3 harg3 arg4 harg4 arg5 harg5 hc0 hc1 x0 x1 xs0).2.1)

/-- Where the output block is idle nothing consults what it holds: a placeholder. -/
noncomputable def outIdle26 : Vec F S1024x512 .f32 := VO26_2.read (Elt F) (VO26_2.writes (Elt F) VO26_2.junk [])

/-! ## The conditions at a point, from t % 4 -/

theorem isFirst26 (t : Fin cfg26.N) (h : t.val % 4 = 0) : cond26_0 (grid26.coords t) := (hcond26_0 t).mpr h
theorem notFirst26 (t : Fin cfg26.N) (h : ¬t.val % 4 = 0) : ¬cond26_0 (grid26.coords t) := fun hc => h ((hcond26_0 t).mp hc)
theorem isLast26 (t : Fin cfg26.N) (h : t.val % 4 = 3) : cond26_1 (grid26.coords t) := (hcond26_1 t).mpr h
theorem notLast26 (t : Fin cfg26.N) (h : ¬t.val % 4 = 3) : ¬cond26_1 (grid26.coords t) := fun hc => h ((hcond26_1 t).mp hc)

/-! ## The accumulator and the output block, point by point -/

/-- After the body at position `n`: (the output block's buffer, the accumulator). -/
noncomputable def outsAt26 (c : Dev nD) : (n : ℕ) → n < cfg26.N → Vec F S1024x512 .f32 × Vec F S1024x512 .f32
  | 0, hn => (outIdle26, sout26_A c (grid26.coords ⟨0, hn⟩) (ms26_0 ⟨0, hn⟩) (hs26_0 ⟨0, hn⟩) (ms26_1 ⟨0, hn⟩) (hs26_1 ⟨0, hn⟩) (ms26_2 ⟨0, hn⟩) (hs26_2 ⟨0, hn⟩) scM26 (Memref.isWhole_whole _) (isFirst26 ⟨0, hn⟩ (Nat.zero_mod _)) (notLast26 ⟨0, hn⟩ (by simp)) (iblk26 V c 0 ⟨0, hn⟩) (iblk26 V c 1 ⟨0, hn⟩))
  | n + 1, hn =>
    if h0 : (n + 1) % 4 = 0 then
      (outIdle26, sout26_A c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) scM26 (Memref.isWhole_whole _) (isFirst26 ⟨n + 1, hn⟩ h0) (notLast26 ⟨n + 1, hn⟩ (by show ¬(n + 1) % 4 = 3; omega)) (iblk26 V c 0 ⟨n + 1, hn⟩) (iblk26 V c 1 ⟨n + 1, hn⟩))
    else if h3 : (n + 1) % 4 = 3 then
      (out26_C c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) scM26 (Memref.isWhole_whole _) (notFirst26 ⟨n + 1, hn⟩ h0) (isLast26 ⟨n + 1, hn⟩ h3) (iblk26 V c 0 ⟨n + 1, hn⟩) (iblk26 V c 1 ⟨n + 1, hn⟩) (outsAt26 c n (Nat.lt_of_succ_lt hn)).2,
       sout26_C c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) scM26 (Memref.isWhole_whole _) (notFirst26 ⟨n + 1, hn⟩ h0) (isLast26 ⟨n + 1, hn⟩ h3) (iblk26 V c 0 ⟨n + 1, hn⟩) (iblk26 V c 1 ⟨n + 1, hn⟩) (outsAt26 c n (Nat.lt_of_succ_lt hn)).2)
    else
      (outIdle26, sout26_B c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) scM26 (Memref.isWhole_whole _) (notFirst26 ⟨n + 1, hn⟩ h0) (notLast26 ⟨n + 1, hn⟩ h3) (iblk26 V c 0 ⟨n + 1, hn⟩) (iblk26 V c 1 ⟨n + 1, hn⟩) (outsAt26 c n (Nat.lt_of_succ_lt hn)).2)

/-- `outsAt26` at a point with k = 0. -/
theorem outsAt26_A (c : Dev nD) (t : Fin cfg26.N) (h0 : t.val % 4 = 0) :
    outsAt26 V c t.val t.isLt = (outIdle26, sout26_A c (grid26.coords t) (ms26_0 t) (hs26_0 t) (ms26_1 t) (hs26_1 t) (ms26_2 t) (hs26_2 t) scM26 (Memref.isWhole_whole _) (isFirst26 t h0) (notLast26 t (by omega)) (iblk26 V c 0 t) (iblk26 V c 1 t)) := by
  obtain ⟨n, hn⟩ := t
  cases n with
  | zero => rfl
  | succ n => exact (dif_pos h0).trans rfl

/-- `outsAt26` at a point with k = 1, 2: over what the point before left. -/
theorem outsAt26_B (c : Dev nD) (t : Fin cfg26.N) (h0 : ¬t.val % 4 = 0) (h3 : ¬t.val % 4 = 3) :
    outsAt26 V c t.val t.isLt = (outIdle26, sout26_B c (grid26.coords t) (ms26_0 t) (hs26_0 t) (ms26_1 t) (hs26_1 t) (ms26_2 t) (hs26_2 t) scM26 (Memref.isWhole_whole _) (notFirst26 t h0) (notLast26 t h3) (iblk26 V c 0 t) (iblk26 V c 1 t)
      (outsAt26 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt26` at a point with k = 3. -/
theorem outsAt26_C (c : Dev nD) (t : Fin cfg26.N) (h0 : ¬t.val % 4 = 0) (h3 : t.val % 4 = 3) :
    outsAt26 V c t.val t.isLt = (out26_C c (grid26.coords t) (ms26_0 t) (hs26_0 t) (ms26_1 t) (hs26_1 t) (ms26_2 t) (hs26_2 t) scM26 (Memref.isWhole_whole _) (notFirst26 t h0) (isLast26 t h3) (iblk26 V c 0 t) (iblk26 V c 1 t)
        (outsAt26 V c (t.val - 1) (Nat.lt_of_le_of_lt (Nat.sub_le _ _) t.isLt)).2,
      sout26_C c (grid26.coords t) (ms26_0 t) (hs26_0 t) (ms26_1 t) (hs26_1 t) (ms26_2 t) (hs26_2 t) scM26 (Memref.isWhole_whole _) (notFirst26 t h0) (isLast26 t h3) (iblk26 V c 0 t) (iblk26 V c 1 t)
        (outsAt26 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS26 (c : Dev nD) : (n : ℕ) → n ≤ cfg26.N → sProp 𝕄
  | 0, _ => Pipeline.ΦA spec26 c
  | n + 1, hn => iprop(iprop(owns (c : Thread nD τ) scM26 fullShare ((outsAt26 V c n hn).2) ∗ restBut26 c) ∗ (∃ r, prngReg c r))

theorem PhiS26_zero (c : Dev nD) (n : ℕ) (h : n ≤ cfg26.N) (hz : n = 0) : PhiS26 V c n h = Pipeline.ΦA spec26 c := by
  subst hz; rfl
theorem PhiS26_succ (c : Dev nD) (n : ℕ) (hn : n < cfg26.N) :
    PhiS26 V c (n + 1) hn = iprop(iprop(owns (c : Thread nD τ) scM26 fullShare ((outsAt26 V c n hn).2) ∗ restBut26 c) ∗ (∃ r, prngReg c r)) := rfl
theorem PhiS26_pos (c : Dev nD) (n : ℕ) (h : n ≤ cfg26.N) (hz : n ≠ 0) :
    PhiS26 V c n h = iprop(iprop(owns (c : Thread nD τ) scM26 fullShare ((outsAt26 V c (n - 1) (by omega)).2) ∗ restBut26 c) ∗ (∃ r, prngReg c r)) := by
  cases n with
  | zero => exact absurd rfl hz
  | succ n => rfl

/-! ## The proof data -/

/-- The region's proof data on core `c`: the arrays as the region finds them; after the body at point `t` each input's
    buffer at its block and the output's at `outsAt26`'s first component; the invariant `PhiS26`; nothing owed; full shares. -/
noncomputable def dat26 (c : Dev nD) : Dat τ (Elt F) Unit ℕ (UR sig nD τ) ℕ cfg26 c where
  A w := V c (Pipeline.arrRef spec26 w)
  after w t := match w with
    | ⟨0, _⟩ => iblk26 V c 0 t
    | ⟨1, _⟩ => iblk26 V c 1 t
    | ⟨2, _⟩ => (outsAt26 V c t.val t.isLt).1
  Φ t := PhiS26 V c t.val (Nat.le_of_lt_succ t.isLt)
  q _ := fullShare
  owed _ := 0

theorem A_eq26 (c : Dev nD) (w : Fin cfg26.W) : (dat26 V c).A w = V c (Pipeline.arrRef spec26 w) := by
  dsimp only [dat26]
theorem PhiS26_castSucc (c : Dev nD) (t : Fin cfg26.N) :
    (dat26 V c).Φ t.castSucc = PhiS26 V c t.val (Nat.le_of_lt t.isLt) := by
  dsimp only [dat26]; simp only [Fin.coe_castSucc]
theorem after26_0 (c : Dev nD) (t : Fin cfg26.N) : (dat26 V c).after 0 t = iblk26 V c 0 t := by dsimp only [dat26]
theorem after26_1 (c : Dev nD) (t : Fin cfg26.N) : (dat26 V c).after 1 t = iblk26 V c 1 t := by dsimp only [dat26]
theorem after26_2 (c : Dev nD) (t : Fin cfg26.N) : (dat26 V c).after 2 t = (outsAt26 V c t.val t.isLt).1 := by dsimp only [dat26]
theorem before26_0 (c : Dev nD) (t : Fin cfg26.N) (d) : (dat26 V c).before 0 t d = iblk26 V c 0 t :=
  before26_0_of V (dat26 V c) (A_eq26 V c 0) (after26_0 V c) t d
theorem before26_1 (c : Dev nD) (t : Fin cfg26.N) (d) : (dat26 V c).before 1 t d = iblk26 V c 1 t :=
  before26_1_of V (dat26 V c) (A_eq26 V c 1) (after26_1 V c) t d

/-! ## The body's obligation -/

noncomputable def bodyPre26 (c : Dev nD) (t : Fin cfg26.N) : sProp 𝕄 :=
  iprop((dat26 V c).Φ t.castSucc ∗ (dat26 V c).owesAt () t.castSucc
    ∗ (∃ d, owns (c : Thread nD τ) (ms26_0 t) fullShare ((dat26 V c).before 0 t d))
    ∗ (∃ d, owns (c : Thread nD τ) (ms26_1 t) fullShare ((dat26 V c).before 1 t d))
    ∗ (∃ d, owns (c : Thread nD τ) (ms26_2 t) fullShare ((dat26 V c).before 2 t d)))

noncomputable def bodyPost26 (c : Dev nD) (t : Fin cfg26.N) : sProp 𝕄 :=
  iprop((dat26 V c).Φ t.succ ∗ (dat26 V c).owesAt () t.succ
    ∗ (dat26 V c).leavesExact 0 t
    ∗ (dat26 V c).leavesExact 1 t
    ∗ (dat26 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body26 (c : Dev nD) (t : Fin cfg26.N) :
    bodyPre26 V c t ⊢ wp frame (wpE (defs₀ (F := F)) Variants.none c none) Set.univ (bodyAt26 t) (fun _ => bodyPost26 V c t) := by
  unfold bodyPre26 bodyPost26 bodyAt26
  simp only [before26_0, before26_1]
  rw [show (dat26 V c).owesAt () t.succ = (dat26 V c).owesAt () t.castSucc from rfl]
  rw [show (dat26 V c).Φ t.succ = PhiS26 V c (t.val + 1) t.isLt from rfl, PhiS26_succ]
  rw [show (dat26 V c).leavesExact 0 t = owns (c : Thread nD τ) (ms26_0 t) fullShare ((dat26 V c).after 0 t) from by
    unfold Dat.leavesExact; rw [liveAt26_0 t], after26_0]
  rw [show (dat26 V c).leavesExact 1 t = owns (c : Thread nD τ) (ms26_1 t) fullShare ((dat26 V c).after 1 t) from by
    unfold Dat.leavesExact; rw [liveAt26_1 t], after26_1]
  by_cases h0 : t.val % 4 = 0
  · have h3 : ¬t.val % 4 = 3 := by omega
    rw [Dat.leavesExact_idle (dat26 V c) 2 t (idleAt26_2 t (notLast26 t h3)) (noFlush26_2 t (notLast26 t h3))]
    rw [outsAt26_A V c t h0]
    unfold sout26_A; (try dsimp only)
    by_cases hz : t.val = 0
    · rw [PhiS26_castSucc V c t, PhiS26_zero V c _ _ hz, PhiA26_eq]
      iintro ⟨⟨⟨HS0, Hrb⟩, Hg⟩, Ho, ⟨%d0, H0⟩, ⟨%d1, H1⟩, ⟨%d2, H2⟩⟩
      iapply ((kernelRun26_A c (grid26.coords t) _ _ _ _ _ _ _ _ (isFirst26 t h0) (notLast26 t (by omega)) (iblk26 V c 0 t) (iblk26 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover26_A c _ _ _ _ _ _ _ _ _ _ _ _ _)
          iexact Hrb
        iexact Hg
      isplitl [Ho]; · iexact Ho
      isplitl [H0]; · iexact H0
      isplitl [H1]; · iexact H1
      iexists _; iexact H2
    · rw [PhiS26_castSucc V c t, PhiS26_pos V c _ _ hz]
      iintro ⟨⟨⟨HS0, Hrb⟩, Hg⟩, Ho, ⟨%d0, H0⟩, ⟨%d1, H1⟩, ⟨%d2, H2⟩⟩
      iapply ((kernelRun26_A c (grid26.coords t) _ _ _ _ _ _ _ _ (isFirst26 t h0) (notLast26 t (by omega)) (iblk26 V c 0 t) (iblk26 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover26_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat26 V c).leavesExact 2 t = owns (c : Thread nD τ) (ms26_2 t) fullShare ((dat26 V c).after 2 t) from by
        unfold Dat.leavesExact; rw [liveAt26_2 t (isLast26 t h3)], after26_2]
      rw [outsAt26_C V c t h0 h3]
      unfold out26_C sout26_C; (try dsimp only)
      rw [PhiS26_castSucc V c t, PhiS26_pos V c _ _ hz]
      iintro ⟨⟨⟨HS0, Hrb⟩, Hg⟩, Ho, ⟨%d0, H0⟩, ⟨%d1, H1⟩, ⟨%d2, H2⟩⟩
      iapply ((kernelRun26_C c (grid26.coords t) _ _ _ _ _ _ _ _ (notFirst26 t h0) (isLast26 t h3) (iblk26 V c 0 t) (iblk26 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover26_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover26_C c _ _ _ _ _ _ _ _ _ _ _ _ _ _)
    · rw [Dat.leavesExact_idle (dat26 V c) 2 t (idleAt26_2 t (notLast26 t h3)) (noFlush26_2 t (notLast26 t h3))]
      rw [outsAt26_B V c t h0 h3]
      unfold sout26_B; (try dsimp only)
      rw [PhiS26_castSucc V c t, PhiS26_pos V c _ _ hz]
      iintro ⟨⟨⟨HS0, Hrb⟩, Hg⟩, Ho, ⟨%d0, H0⟩, ⟨%d1, H1⟩, ⟨%d2, H2⟩⟩
      iapply ((kernelRun26_B c (grid26.coords t) _ _ _ _ _ _ _ _ (notFirst26 t h0) (notLast26 t h3) (iblk26 V c 0 t) (iblk26 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover26_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation26 (c : Dev nD) : BodyObligation (dat26 (F := F) V c) (defs₀ (F := F)) Variants.none () Set.univ := fun t => by
  rw [bigSep_W26, bigSep_W26]
  exact sound_body26 V c t

/-- What the region is entered with is the invariant before the first point. -/
theorem hin26 (c : Dev nD) : Pipeline.ΦA spec26 c ⊢ (dat26 V c).Φ 0 := by
  rw [show (dat26 V c).Φ 0 = PhiS26 V c 0 (Nat.zero_le _) from rfl, PhiS26_zero V c 0 _ rfl]
  try exact Idealize.SL.BI.Entails.refl _

/-- After the last point the invariant gives the class's back: the accumulator's contents are forgotten. -/
theorem hout26 (c : Dev nD) : (dat26 V c).Φ (Fin.last cfg26.N) ⊢ Pipeline.ΦA spec26 c := by
  have hN : cfg26.N = 16 := N_26
  rw [show (dat26 V c).Φ (Fin.last cfg26.N) = PhiS26 V c (Fin.last cfg26.N).val (Nat.le_of_lt_succ (Fin.last cfg26.N).isLt) from rfl,
    PhiS26_pos V c _ _ (by rw [Fin.val_last]; omega), PhiA26_eq]
  iintro ⟨⟨HS0, Hrb⟩, Hg⟩
  isplitl [HS0 Hrb]
  · isplitl [HS0]
    · iexists _; iexact HS0
    iexact Hrb
  iexact Hg

end Cert.Kernel.Hand

end
-- ==== Proof.RegK27a.lean ====
/- Laid out by: python3 scratch/layout_grid41.py --template-region 0 --region 27 --program Kernel --parts a, --shapes S1024x128=S1024x512,S128x512=S512x512
   from the hand-written text of region 0 (RegKI0a.lean): the same text, the region's number, block shapes and the program's namespace substituted. -/
/- The region of Kernel's @main that runs `cc27__matmul_kernel` (pipeline `cfg27`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond27_0 (i : grid27.Coords) : Prop :=
  (Scalar.cmpi .ne (Scalar.extui (Scalar.cmpi .eq (BitVec.ofNat 32 (i 1).val) 0#32)) 0#32) = 1#1
/-- True at every point: the reduction axis has one step. -/
theorem hcond27_0 : ∀ t : Fin cfg27.N, cond27_0 (grid27.coords t) :=
  (by decide +kernel : ∀ t : Fin grid27.N, cond27_0 (grid27.coords t))

/-- "This is the last reduction step" (the guard of the copy to the output block). -/
abbrev cond27_1 (i : grid27.Coords) : Prop := k27_cond2 i = 1#1
/-- True at every point, for the same reason. -/
theorem hcond27_1 : ∀ t : Fin cfg27.N, cond27_1 (grid27.coords t) :=
  (by decide +kernel : ∀ t : Fin grid27.N, cond27_1 (grid27.coords t))

/-! ## No window is idle anywhere -/

theorem liveAt27_0 : ∀ t : Fin cfg27.N, cfg27.idle 0 (grid27.coords t) = false := by decide +kernel
theorem liveAt27_1 : ∀ t : Fin cfg27.N, cfg27.idle 1 (grid27.coords t) = false := by decide +kernel
/-- The output window is stored at every point (the copy's guard holds everywhere). -/
theorem liveAt27_2 : ∀ t : Fin cfg27.N, cfg27.idle 2 (grid27.coords t) = false := by decide +kernel

/-! ## The memrefs the body is called on -/

/-- One staging buffer of the output window, through which its contents are stated (any whole view of the shape reads the
    same pieces back the same way). -/
abbrev VO27_2 : View sig .tc .vmem S1024x512 .f32 := (Memref.whole cc27_stg2_0 : Memref sig .tc .vmem S1024x512 .f32).view
/-- Each window's current staging memref at point `t`, spelt as the pipeline passes it, with its wholeness. -/
abbrev ms27_0 (t : Fin cfg27.N) : Memref sig .tc .vmem S1024x512 .f32 := win27_0.stage (cfg27.slots t 0)
abbrev hs27_0 (t : Fin cfg27.N) : (ms27_0 t).IsWhole := hstage27_0 ((cfg27.slots t 0).cast nbuf27_0)
abbrev ms27_1 (t : Fin cfg27.N) : Memref sig .tc .vmem S512x512 .bf16 := win27_1.stage (cfg27.slots t 1)
abbrev hs27_1 (t : Fin cfg27.N) : (ms27_1 t).IsWhole := hstage27_1 ((cfg27.slots t 1).cast nbuf27_1)
abbrev ms27_2 (t : Fin cfg27.N) : Memref sig .tc .vmem S1024x512 .f32 := win27_2.stage (cfg27.slots t 2)
abbrev hs27_2 (t : Fin cfg27.N) : (ms27_2 t).IsWhole := hstage27_2 ((cfg27.slots t 2).cast nbuf27_2)
/-- The accumulator: a whole scoped buffer of the kernel's own, passed beside the windows. -/
abbrev scM27_0 : Memref sig .tc .vmem S1024x512 .f32 := Memref.whole cc27_scratch0
abbrev VS27_0 : View sig .tc .vmem S1024x512 .f32 := scM27_0.view

/-- The region invariant with the accumulator taken out of the scoped rest: the accumulator owned at some contents, every
    other scoped buffer unopened, and the generator register. -/
theorem PhiA27_eq (c : Dev nD) :
    (Pipeline.ΦA spec27 c : sProp 𝕄)
      = iprop(iprop(iprop((∃ d, owns (c : Thread nD τ) scM27_0 fullShare d))
            ∗ Pipeline.scopedRestBut (Ix := Unit) (Name := ℕ) (U := UR sig nD τ) (Lvl := ℕ) (Val := Elt F) spec27 c [cc27_scratch0])
          ∗ (∃ r, prngReg c r)) := by
  unfold Pipeline.ΦA; rw [scopedRest27_split]; simp only [scM27_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun27 (c : Dev nD) (i : grid27.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond27_0 i) (hlast : cond27_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc27__matmul_kernel i arg2 harg2 arg3 harg3 arg4 harg4 arg5 harg5) K } := by
  refine ⟨?_, ?_, fun E K => ?run⟩
  case run =>
    simp only [cc27__matmul_kernel_eq_skeleton]; unfold cc27__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.Kernel.Hand

end
-- ==== Proof.RegK27.lean ====
/- Laid out by: python3 scratch/layout_grid41.py --template-region 0 --region 27 --program Kernel --parts a, --shapes S1024x128=S1024x512,S128x512=S512x512
   from the hand-written text of region 0 (RegKI0.lean): the same text, the region's number, block shapes and the program's namespace substituted. -/
/- The region of Kernel's @main that runs `cc27__matmul_kernel` (pipeline `cfg27`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegK27a
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk27 (c : Dev nD) (w : Fin cfg27.W) (t : Fin cfg27.N) : ((cfg27.win w).xblock (cfg27.grid.coords t)).Idx → Elt F (cfg27.win w).elt :=
  ((cfg27.win w).blk t).view.read (Elt F) (V c (Pipeline.arrRef spec27 w))

/-! ## What the case leaves, as pieces read back -/

/-- The output's pieces tile its block (one whole-block store). -/
theorem cover27_2 (c : Dev nD) (i : grid27.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond27_0 i) (hlast : cond27_1 i) (xa : Vec F S1024x512 .f32) (xb : Vec F S512x512 .bf16) (y : S1024x512.Idx) :
    ∃ pc ∈ (kernelRun27 c i arg2 harg2 arg3 harg3 arg4 harg4 arg5 harg5 hfirst hlast xa xb).1, y ∈ pc.1.set :=
  View.cover_of_tiledL (kernelRun27 c i arg2 harg2 arg3 harg3 arg4 harg4 arg5 harg5 hfirst hlast xa xb).1 S1024x512.size (by sl_kernel_rfl) y

/-- What the case leaves in the output's staging buffer: its pieces read back over junk. -/
noncomputable def out27_2 (c : Dev nD) (i : grid27.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond27_0 i) (hlast : cond27_1 i) (xa : Vec F S1024x512 .f32) (xb : Vec F S512x512 .bf16) : Vec F S1024x512 .f32 :=
  VO27_2.read (Elt F) (VO27_2.writes (Elt F) VO27_2.junk (kernelRun27 c i arg2 harg2 arg3 harg3 arg4 harg4 arg5 harg5 hfirst hlast xa xb).1)

/-- What the case leaves in the accumulator: its pieces read back over junk. -/
noncomputable def sout27_0 (c : Dev nD) (i : grid27.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond27_0 i) (hlast : cond27_1 i) (xa : Vec F S1024x512 .f32) (xb : Vec F S512x512 .bf16) : Vec F S1024x512 .f32 :=
  VS27_0.read (Elt F) (VS27_0.writes (Elt F) VS27_0.junk (kernelRun27 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout27_0_eq (c : Dev nD) (i : grid27.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond27_0 i) (hlast : cond27_1 i) (xa : Vec F S1024x512 .f32) (xb : Vec F S512x512 .bf16) :
    sout27_0 c i arg2 harg2 arg3 harg3 arg4 harg4 arg5 harg5 hfirst hlast xa xb = k27_pay2 xa xb (k27_pay1 (F := F)) := by
  unfold sout27_0
  rw [View.read_writes_junk_eq_canon]
  unfold kernelRun27
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out27_2_eq (c : Dev nD) (i : grid27.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond27_0 i) (hlast : cond27_1 i) (xa : Vec F S1024x512 .f32) (xb : Vec F S512x512 .bf16) :
    out27_2 c i arg2 harg2 arg3 harg3 arg4 harg4 arg5 harg5 hfirst hlast xa xb = k27_pay2 xa xb (k27_pay1 (F := F)) := by
  unfold out27_2
  rw [View.read_writes_junk_eq_canon]
  unfold kernelRun27
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt27 (c : Dev nD) (n : ℕ) (hn : n < cfg27.N) : Vec F S1024x512 .f32 × Vec F S1024x512 .f32 :=
  (out27_2 c (grid27.coords ⟨n, hn⟩) (ms27_0 ⟨n, hn⟩) (hs27_0 ⟨n, hn⟩) (ms27_1 ⟨n, hn⟩) (hs27_1 ⟨n, hn⟩) (ms27_2 ⟨n, hn⟩) (hs27_2 ⟨n, hn⟩) scM27_0 (Memref.isWhole_whole _)
      (hcond27_0 ⟨n, hn⟩) (hcond27_1 ⟨n, hn⟩) (iblk27 V c 0 ⟨n, hn⟩) (iblk27 V c 1 ⟨n, hn⟩),
   sout27_0 c (grid27.coords ⟨n, hn⟩) (ms27_0 ⟨n, hn⟩) (hs27_0 ⟨n, hn⟩) (ms27_1 ⟨n, hn⟩) (hs27_1 ⟨n, hn⟩) (ms27_2 ⟨n, hn⟩) (hs27_2 ⟨n, hn⟩) scM27_0 (Memref.isWhole_whole _)
      (hcond27_0 ⟨n, hn⟩) (hcond27_1 ⟨n, hn⟩) (iblk27 V c 0 ⟨n, hn⟩) (iblk27 V c 1 ⟨n, hn⟩))

/-- Every point is a first reduction step: the accumulator after it is one product onto zero. -/
theorem outsAt27_first (c : Dev nD) (t : Fin cfg27.N) :
    (outsAt27 V c t.val t.isLt).2 = k27_pay2 (iblk27 V c 0 t) (iblk27 V c 1 t) (k27_pay1 (F := F)) := by
  obtain ⟨n, hn⟩ := t
  unfold outsAt27
  dsimp only
  rw [sout27_0_eq]

/-- Every point is a last reduction step: the output block after it is the accumulator. -/
theorem outsAt27_last (c : Dev nD) (t : Fin cfg27.N) :
    (outsAt27 V c t.val t.isLt).1 = (outsAt27 V c t.val t.isLt).2 := by
  obtain ⟨n, hn⟩ := t
  unfold outsAt27
  dsimp only
  rw [out27_2_eq, sout27_0_eq]

/-! ## The pipeline's proof data -/

/-- The proof data of the pipeline on core `c`: the arrays as the region finds them; after the body at point `t` each input's
    buffer at its block and the output's at `outsAt27`'s first component; the invariant the same at every point; nothing owed;
    full shares. -/
noncomputable def dat27 (c : Dev nD) : Dat τ (Elt F) Unit ℕ (UR sig nD τ) ℕ cfg27 c where
  A w := V c (Pipeline.arrRef spec27 w)
  after w t := match w with
    | ⟨0, _⟩ => iblk27 V c 0 t
    | ⟨1, _⟩ => iblk27 V c 1 t
    | ⟨2, _⟩ => (outsAt27 V c t.val t.isLt).1
  Φ _ := Pipeline.ΦA spec27 c
  q _ := fullShare
  owed _ := 0

theorem A_eq27 (c : Dev nD) (w : Fin cfg27.W) : (dat27 V c).A w = V c (Pipeline.arrRef spec27 w) := by
  dsimp only [dat27]

theorem after27_0 (c : Dev nD) (t : Fin cfg27.N) : (dat27 V c).after 0 t = iblk27 V c 0 t := by dsimp only [dat27]
theorem after27_1 (c : Dev nD) (t : Fin cfg27.N) : (dat27 V c).after 1 t = iblk27 V c 1 t := by dsimp only [dat27]
theorem after27_2 (c : Dev nD) (t : Fin cfg27.N) : (dat27 V c).after 2 t = (outsAt27 V c t.val t.isLt).1 := by dsimp only [dat27]

/-- An input's current staging buffer holds its block at every point, fetched there or not: where it is not fetched its block
    index has not moved since the point before, and the body left the block in place. -/
theorem before27_0 (c : Dev nD) (t : Fin cfg27.N) (d) : (dat27 V c).before 0 t d = iblk27 V c 0 t :=
  ((dat27 V c).before_in_eq_fetched 0 rfl (fun _ => rfl) (fun _ _ _ => rfl)
      (fun t => by rw [after27_0]; unfold Dat.blockOf iblk27; rw [A_eq27]; try rfl) t d).trans
    (by unfold Dat.fetched Dat.blockOf iblk27; rw [A_eq27]; try rfl)
theorem before27_1 (c : Dev nD) (t : Fin cfg27.N) (d) : (dat27 V c).before 1 t d = iblk27 V c 1 t :=
  ((dat27 V c).before_in_eq_fetched 1 rfl (fun _ => rfl) (fun _ _ _ => rfl)
      (fun t => by rw [after27_1]; unfold Dat.blockOf iblk27; rw [A_eq27]; try rfl) t d).trans
    (by unfold Dat.fetched Dat.blockOf iblk27; rw [A_eq27]; try rfl)

/-! ## The body obligation, at a generic point -/

/-- What the body is called with at point `t`, the windows one by one, -/
noncomputable def bodyPre27 (c : Dev nD) (t : Fin cfg27.N) : sProp 𝕄 :=
  iprop((dat27 V c).Φ t.castSucc ∗ (dat27 V c).owesAt () t.castSucc
    ∗ (∃ d, owns (c : Thread nD τ) (ms27_0 t) fullShare ((dat27 V c).before 0 t d))
    ∗ (∃ d, owns (c : Thread nD τ) (ms27_1 t) fullShare ((dat27 V c).before 1 t d))
    ∗ (∃ d, owns (c : Thread nD τ) (ms27_2 t) fullShare ((dat27 V c).before 2 t d)))

/-- and what it returns. -/
noncomputable def bodyPost27 (c : Dev nD) (t : Fin cfg27.N) : sProp 𝕄 :=
  iprop((dat27 V c).Φ t.succ ∗ (dat27 V c).owesAt () t.succ
    ∗ (dat27 V c).leavesExact 0 t
    ∗ (dat27 V c).leavesExact 1 t
    ∗ (dat27 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body27 (c : Dev nD) (t : Fin cfg27.N) :
    bodyPre27 V c t ⊢ wp frame (wpE (defs₀ (F := F)) Variants.none c none) Set.univ (bodyAt27 t) (fun _ => bodyPost27 V c t) := by
  unfold bodyPre27 bodyPost27 bodyAt27
  simp only [before27_0, before27_1]
  rw [show (dat27 V c).owesAt () t.succ = (dat27 V c).owesAt () t.castSucc from rfl,
    show (dat27 V c).Φ t.succ = Pipeline.ΦA spec27 c from rfl, show (dat27 V c).Φ t.castSucc = Pipeline.ΦA spec27 c from rfl, PhiA27_eq]
  rw [show (dat27 V c).leavesExact 0 t = owns (c : Thread nD τ) (ms27_0 t) fullShare ((dat27 V c).after 0 t) from by
      unfold Dat.leavesExact; rw [liveAt27_0 t], after27_0]
  rw [show (dat27 V c).leavesExact 1 t = owns (c : Thread nD τ) (ms27_1 t) fullShare ((dat27 V c).after 1 t) from by
      unfold Dat.leavesExact; rw [liveAt27_1 t], after27_1]
  rw [show (dat27 V c).leavesExact 2 t = owns (c : Thread nD τ) (ms27_2 t) fullShare ((dat27 V c).after 2 t) from by
      unfold Dat.leavesExact; rw [liveAt27_2 t], after27_2]
  unfold outsAt27 out27_2; (try dsimp only)
  iintro ⟨⟨⟨Hacc, Hrest⟩, Hgen⟩, Howe, ⟨%da, Ha⟩, ⟨%db, Hb⟩, ⟨%dO, Hout⟩⟩
  iapply ((kernelRun27 c (grid27.coords t) _ _ _ _ _ _ _ _ (hcond27_0 t) (hcond27_1 t) (iblk27 V c 0 t) (iblk27 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover27_2 c _ _ _ _ _ _ _ _ _ _ _ _ _)

/-- The library's body obligation, at every point. -/
theorem body_obligation27 (c : Dev nD) : BodyObligation (dat27 (F := F) V c) (defs₀ (F := F)) Variants.none () Set.univ := fun t => by
  rw [bigSep_W27, bigSep_W27]
  exact sound_body27 V c t

/-- What the launch hands the region is the invariant before the first point, -/
theorem hin27 (c : Dev nD) : Pipeline.ΦA spec27 c ⊢ (dat27 V c).Φ 0 := Idealize.SL.BI.Entails.refl _

/-- and the invariant after the last point is what the launch takes back. -/
theorem hout27 (c : Dev nD) : (dat27 V c).Φ (Fin.last cfg27.N) ⊢ Pipeline.ΦA spec27 c := Idealize.SL.BI.Entails.refl _

end Cert.Kernel.Hand

end
-- ==== Proof.RegK28a.lean ====
/- Laid out by: python3 scratch/layout_regions.py --template-region 1 --region 28 --program Kernel --parts a,b,c, --out-dir proof/Proof
   from the hand-written text of region 1 (RegKI1a.lean): the same text, the region's number and the program's namespace substituted. -/
/-
  Region 28 of @main (custom_call 28): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond28_0 (i : grid28.Coords) : Prop := (Scalar.cmpi .ne (Scalar.extui (Scalar.cmpi .eq (BitVec.ofNat 32 (i 1).val) 0#32)) 0#32) = 1#1
/-- It holds exactly at the points with t % 4 = 0. -/
theorem hcond28_0 : ∀ t : Fin cfg28.N, cond28_0 (grid28.coords t) ↔ t.val % 4 = 0 :=
  (by decide +kernel : ∀ t : Fin grid28.N, cond28_0 (grid28.coords t) ↔ t.val % 4 = 0)

/-- "k = 3": the second conditional's test. -/
abbrev cond28_1 (i : grid28.Coords) : Prop := k28_cond2 i = 1#1
/-- It holds exactly at the points with t % 4 = 3. -/
theorem hcond28_1 : ∀ t : Fin cfg28.N, cond28_1 (grid28.coords t) ↔ t.val % 4 = 3 :=
  (by decide +kernel : ∀ t : Fin grid28.N, cond28_1 (grid28.coords t) ↔ t.val % 4 = 3)

/-! ## Where the windows are idle, and where the output is written back -/

/-- The two input windows are never idle. -/
theorem liveAt28_0 : ∀ t : Fin cfg28.N, cfg28.idle 0 (grid28.coords t) = false := by decide +kernel
theorem liveAt28_1 : ∀ t : Fin cfg28.N, cfg28.idle 1 (grid28.coords t) = false := by decide +kernel
/-- Where k ≠ 3 the output window is idle (the body stores nothing into it) and is not written back. -/
theorem idleAt28_2 : ∀ t : Fin cfg28.N, ¬cond28_1 (grid28.coords t) → cfg28.idle 2 (grid28.coords t) = true := by decide +kernel
theorem noFlush28_2 : ∀ t : Fin cfg28.N, ¬cond28_1 (grid28.coords t) → (cfg28.win 2).flush t = false := by decide +kernel
/-- Where k = 3 it is live. -/
theorem liveAt28_2 : ∀ t : Fin cfg28.N, cond28_1 (grid28.coords t) → cfg28.idle 2 (grid28.coords t) = false := by decide +kernel

/-! ## The staging memrefs at a point, and the scratch -/

/-- One staging buffer of the output window, through which its contents are stated. -/
abbrev VO28_2 : View sig .tc .vmem S1024x512 .f32 := (Memref.whole cc28_stg2_0 : Memref sig .tc .vmem S1024x512 .f32).view
abbrev ms28_0 (t : Fin cfg28.N) : Memref sig .tc .vmem S1024x1024 .bf16 := win28_0.stage (cfg28.slots t 0)
abbrev hs28_0 (t : Fin cfg28.N) : (ms28_0 t).IsWhole := hstage28_0 ((cfg28.slots t 0).cast nbuf28_0)
abbrev ms28_1 (t : Fin cfg28.N) : Memref sig .tc .vmem S1024x512 .f32 := win28_1.stage (cfg28.slots t 1)
abbrev hs28_1 (t : Fin cfg28.N) : (ms28_1 t).IsWhole := hstage28_1 ((cfg28.slots t 1).cast nbuf28_1)
abbrev ms28_2 (t : Fin cfg28.N) : Memref sig .tc .vmem S1024x512 .f32 := win28_2.stage (cfg28.slots t 2)
abbrev hs28_2 (t : Fin cfg28.N) : (ms28_2 t).IsWhole := hstage28_2 ((cfg28.slots t 2).cast nbuf28_2)
/-- The accumulator: a whole scoped buffer of the kernel's own. -/
abbrev scM28 : Memref sig .tc .vmem S1024x512 .f32 := Memref.whole cc28_scratch0
abbrev VS28 : View sig .tc .vmem S1024x512 .f32 := scM28.view

/-- The other scoped buffers of the core, none of which this region touches. -/
abbrev restBut28 (c : Dev nD) : sProp 𝕄 :=
  Pipeline.scopedRestBut (Ix := Unit) (Name := ℕ) (U := UR sig nD τ) (Lvl := ℕ) (Val := Elt F) spec28 c [cc28_scratch0]

/-- The region's invariant before its first point: the accumulator at something, the other scoped buffers, the generator register. -/
theorem PhiA28_eq (c : Dev nD) :
    (Pipeline.ΦA spec28 c : sProp 𝕄)
      = iprop(iprop((∃ d, owns (c : Thread nD τ) scM28 fullShare d) ∗ restBut28 c) ∗ (∃ r, prngReg c r)) := by
  unfold Pipeline.ΦA; rw [scopedRest28_split]; simp only [scM28, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun28_A (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond28_0 i) (hc1 : ¬cond28_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc28__matmul_kernel i arg2 harg2 arg3 harg3 arg4 harg4 arg5 harg5) K } := by
  refine ⟨[], ?_, fun xi2 E K => ?run⟩
  case run =>
    simp only [cc28__matmul_kernel_eq_skeleton]; unfold cc28__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK28b.lean ====
/- Laid out by: python3 scratch/layout_regions.py --template-region 1 --region 28 --program Kernel --parts a,b,c, --out-dir proof/Proof
   from the hand-written text of region 1 (RegKI1b.lean): the same text, the region's number and the program's namespace substituted. -/
/-
  Region 28, case B (k = 1, 2): the body's run. Neither conditional is taken: the product of the two blocks is added to what
  the point before left in the accumulator; the output block is not touched.
-/
import proofs.«158944_j64613488001249_1_alg».proof.Proof.RegK28a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun28_B (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond28_0 i) (hc1 : ¬cond28_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc28__matmul_kernel i arg2 harg2 arg3 harg3 arg4 harg4 arg5 harg5) K } := by
  refine ⟨[], ?_, fun xi2 E K => ?run⟩
  case run =>
    simp only [cc28__matmul_kernel_eq_skeleton]; unfold cc28__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK28c.lean ====
/- Laid out by: python3 scratch/layout_regions.py --template-region 1 --region 28 --program Kernel --parts a,b,c, --out-dir proof/Proof
   from the hand-written text of region 1 (RegKI1c.lean): the same text, the region's number and the program's namespace substituted. -/
/-
  Region 28, case C (k = 3): the body's run. The product is added to the accumulator as in case B, and then the second
  conditional copies the accumulator over the whole output block.
-/
import proofs.«158944_j64613488001249_1_alg».proof.Proof.RegK28b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun28_C (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond28_0 i) (hc1 : cond28_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc28__matmul_kernel i arg2 harg2 arg3 harg3 arg4 harg4 arg5 harg5) K } := by
  refine ⟨?_, ?_, fun E K => ?run⟩
  case run =>
    simp only [cc28__matmul_kernel_eq_skeleton]; unfold cc28__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK28.lean ====
/- Laid out by: python3 scratch/layout_regions.py --template-region 1 --region 28 --program Kernel --parts a,b,c, --out-dir proof/Proof
   from the hand-written text of region 1 (RegKI1.lean): the same text, the region's number and the program's namespace substituted. -/
/-
  Region 28 of @main, entered from the buffer contents `V`: what its windows' blocks are, what each case of the body leaves in
  the accumulator and in the output block, the accumulator and the output block point by point (`outsAt28`: at k = 0 the
  accumulator restarts from zeros plus the product; at k = 1, 2, 3 it is the point before's plus the product; at k = 3 the
  output block is the accumulator), the region's invariant (the accumulator at `outsAt28`'s second component), the proof data,
  and the body's obligation at every point.
-/
import proofs.«158944_j64613488001249_1_alg».proof.Proof.RegK28c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk28 (c : Dev nD) (w : Fin cfg28.W) (t : Fin cfg28.N) : ((cfg28.win w).xblock (cfg28.grid.coords t)).Idx → Elt F (cfg28.win w).elt :=
  ((cfg28.win w).blk t).view.read (Elt F) (V c (Pipeline.arrRef spec28 w))

/-- An input window's current staging buffer holds its block at every point, for any proof data whose array is `V`'s and
    whose body leaves the block in place. -/
theorem before28_0_of {c : Dev nD} (dat : Dat τ (Elt F) Unit ℕ (UR sig nD τ) ℕ cfg28 c) (hA : dat.A 0 = V c (Pipeline.arrRef spec28 0))
    (hafter : ∀ t, dat.after 0 t = iblk28 V c 0 t) (t : Fin cfg28.N) (d) : dat.before 0 t d = iblk28 V c 0 t :=
  (dat.before_in_eq_fetched 0 rfl (fun _ => rfl) (fun _ _ _ => rfl) (fun t => by rw [hafter]; unfold Dat.blockOf iblk28; rw [hA]; try rfl) t d).trans
    (by unfold Dat.fetched Dat.blockOf iblk28; rw [hA]; try rfl)
theorem before28_1_of {c : Dev nD} (dat : Dat τ (Elt F) Unit ℕ (UR sig nD τ) ℕ cfg28 c) (hA : dat.A 1 = V c (Pipeline.arrRef spec28 1))
    (hafter : ∀ t, dat.after 1 t = iblk28 V c 1 t) (t : Fin cfg28.N) (d) : dat.before 1 t d = iblk28 V c 1 t :=
  (dat.before_in_eq_fetched 1 rfl (fun _ => rfl) (fun _ _ _ => rfl) (fun t => by rw [hafter]; unfold Dat.blockOf iblk28; rw [hA]; try rfl) t d).trans
    (by unfold Dat.fetched Dat.blockOf iblk28; rw [hA]; try rfl)

/-! ## What each case leaves -/

/-- Case A's stores into the accumulator cover it. -/
theorem scover28_A (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond28_0 i) (hc1 : ¬cond28_1 i)
    (x0 : Vec F S1024x1024 .bf16) (x1 : Vec F S1024x512 .f32) (y : S1024x512.Idx) :
    ∃ pc ∈ (kernelRun28_A c i arg2 harg2 arg3 harg3 arg4 harg4 arg5 harg5 hc0 hc1 x0 x1).2.1, y ∈ pc.1.set :=
  View.cover_of_tiledL (kernelRun28_A c i arg2 harg2 arg3 harg3 arg4 harg4 arg5 harg5 hc0 hc1 x0 x1).2.1 S1024x512.size (by sl_kernel_rfl) y
/-- What case A leaves in the accumulator. -/
noncomputable def sout28_A (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond28_0 i) (hc1 : ¬cond28_1 i)
    (x0 : Vec F S1024x1024 .bf16) (x1 : Vec F S1024x512 .f32) : Vec F S1024x512 .f32 :=
  VS28.read (Elt F) (VS28.writes (Elt F) VS28.junk (kernelRun28_A c i arg2 harg2 arg3 harg3 arg4 harg4 arg5 harg5 hc0 hc1 x0 x1).2.1)

/-- Case B's store into the accumulator covers it. -/
theorem scover28_B (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond28_0 i) (hc1 : ¬cond28_1 i)
    (x0 : Vec F S1024x1024 .bf16) (x1 : Vec F S1024x512 .f32) (xs0 : Vec F S1024x512 .f32) (y : S1024x512.Idx) :
    ∃ pc ∈ (kernelRun28_B c i arg2 harg2 arg3 harg3 arg4 harg4 arg5 harg5 hc0 hc1 x0 x1 xs0).2.1, y ∈ pc.1.set :=
  View.cover_of_tiledL (kernelRun28_B c i arg2 harg2 arg3 harg3 arg4 harg4 arg5 harg5 hc0 hc1 x0 x1 xs0).2.1 S1024x512.size (by sl_kernel_rfl) y
/-- What case B leaves in the accumulator, over what the point before left. -/
noncomputable def sout28_B (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond28_0 i) (hc1 : ¬cond28_1 i)
    (x0 : Vec F S1024x1024 .bf16) (x1 : Vec F S1024x512 .f32) (xs0 : Vec F S1024x512 .f32) : Vec F S1024x512 .f32 :=
  VS28.read (Elt F) (VS28.writes (Elt F) VS28.junk (kernelRun28_B c i arg2 harg2 arg3 harg3 arg4 harg4 arg5 harg5 hc0 hc1 x0 x1 xs0).2.1)

/-- Case C's store into the output block covers it, and so does its store into the accumulator. -/
theorem cover28_C (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond28_0 i) (hc1 : cond28_1 i)
    (x0 : Vec F S1024x1024 .bf16) (x1 : Vec F S1024x512 .f32) (xs0 : Vec F S1024x512 .f32) (y : S1024x512.Idx) :
    ∃ pc ∈ (kernelRun28_C c i arg2 harg2 arg3 harg3 arg4 harg4 arg5 harg5 hc0 hc1 x0 x1 xs0).1, y ∈ pc.1.set :=
  View.cover_of_tiledL (kernelRun28_C c i arg2 harg2 arg3 harg3 arg4 harg4 arg5 harg5 hc0 hc1 x0 x1 xs0).1 S1024x512.size (by sl_kernel_rfl) y
theorem scover28_C (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond28_0 i) (hc1 : cond28_1 i)
    (x0 : Vec F S1024x1024 .bf16) (x1 : Vec F S1024x512 .f32) (xs0 : Vec F S1024x512 .f32) (y : S1024x512.Idx) :
    ∃ pc ∈ (kernelRun28_C c i arg2 harg2 arg3 harg3 arg4 harg4 arg5 harg5 hc0 hc1 x0 x1 xs0).2.1, y ∈ pc.1.set :=
  View.cover_of_tiledL (kernelRun28_C c i arg2 harg2 arg3 harg3 arg4 harg4 arg5 harg5 hc0 hc1 x0 x1 xs0).2.1 S1024x512.size (by sl_kernel_rfl) y
/-- What case C leaves in the output block, and in the accumulator. -/
noncomputable def out28_C (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond28_0 i) (hc1 : cond28_1 i)
    (x0 : Vec F S1024x1024 .bf16) (x1 : Vec F S1024x512 .f32) (xs0 : Vec F S1024x512 .f32) : Vec F S1024x512 .f32 :=
  VO28_2.read (Elt F) (VO28_2.writes (Elt F) VO28_2.junk (kernelRun28_C c i arg2 harg2 arg3 harg3 arg4 harg4 arg5 harg5 hc0 hc1 x0 x1 xs0).1)
noncomputable def sout28_C (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond28_0 i) (hc1 : cond28_1 i)
    (x0 : Vec F S1024x1024 .bf16) (x1 : Vec F S1024x512 .f32) (xs0 : Vec F S1024x512 .f32) : Vec F S1024x512 .f32 :=
  VS28.read (Elt F) (VS28.writes (Elt F) VS28.junk (kernelRun28_C c i arg2 harg2 arg3 harg3 arg4 harg4 arg5 harg5 hc0 hc1 x0 x1 xs0).2.1)

/-- Where the output block is idle nothing consults what it holds: a placeholder. -/
noncomputable def outIdle28 : Vec F S1024x512 .f32 := VO28_2.read (Elt F) (VO28_2.writes (Elt F) VO28_2.junk [])

/-! ## The conditions at a point, from t % 4 -/

theorem isFirst28 (t : Fin cfg28.N) (h : t.val % 4 = 0) : cond28_0 (grid28.coords t) := (hcond28_0 t).mpr h
theorem notFirst28 (t : Fin cfg28.N) (h : ¬t.val % 4 = 0) : ¬cond28_0 (grid28.coords t) := fun hc => h ((hcond28_0 t).mp hc)
theorem isLast28 (t : Fin cfg28.N) (h : t.val % 4 = 3) : cond28_1 (grid28.coords t) := (hcond28_1 t).mpr h
theorem notLast28 (t : Fin cfg28.N) (h : ¬t.val % 4 = 3) : ¬cond28_1 (grid28.coords t) := fun hc => h ((hcond28_1 t).mp hc)

/-! ## The accumulator and the output block, point by point -/

/-- After the body at position `n`: (the output block's buffer, the accumulator). -/
noncomputable def outsAt28 (c : Dev nD) : (n : ℕ) → n < cfg28.N → Vec F S1024x512 .f32 × Vec F S1024x512 .f32
  | 0, hn => (outIdle28, sout28_A c (grid28.coords ⟨0, hn⟩) (ms28_0 ⟨0, hn⟩) (hs28_0 ⟨0, hn⟩) (ms28_1 ⟨0, hn⟩) (hs28_1 ⟨0, hn⟩) (ms28_2 ⟨0, hn⟩) (hs28_2 ⟨0, hn⟩) scM28 (Memref.isWhole_whole _) (isFirst28 ⟨0, hn⟩ (Nat.zero_mod _)) (notLast28 ⟨0, hn⟩ (by simp)) (iblk28 V c 0 ⟨0, hn⟩) (iblk28 V c 1 ⟨0, hn⟩))
  | n + 1, hn =>
    if h0 : (n + 1) % 4 = 0 then
      (outIdle28, sout28_A c (grid28.coords ⟨n + 1, hn⟩) (ms28_0 ⟨n + 1, hn⟩) (hs28_0 ⟨n + 1, hn⟩) (ms28_1 ⟨n + 1, hn⟩) (hs28_1 ⟨n + 1, hn⟩) (ms28_2 ⟨n + 1, hn⟩) (hs28_2 ⟨n + 1, hn⟩) scM28 (Memref.isWhole_whole _) (isFirst28 ⟨n + 1, hn⟩ h0) (notLast28 ⟨n + 1, hn⟩ (by show ¬(n + 1) % 4 = 3; omega)) (iblk28 V c 0 ⟨n + 1, hn⟩) (iblk28 V c 1 ⟨n + 1, hn⟩))
    else if h3 : (n + 1) % 4 = 3 then
      (out28_C c (grid28.coords ⟨n + 1, hn⟩) (ms28_0 ⟨n + 1, hn⟩) (hs28_0 ⟨n + 1, hn⟩) (ms28_1 ⟨n + 1, hn⟩) (hs28_1 ⟨n + 1, hn⟩) (ms28_2 ⟨n + 1, hn⟩) (hs28_2 ⟨n + 1, hn⟩) scM28 (Memref.isWhole_whole _) (notFirst28 ⟨n + 1, hn⟩ h0) (isLast28 ⟨n + 1, hn⟩ h3) (iblk28 V c 0 ⟨n + 1, hn⟩) (iblk28 V c 1 ⟨n + 1, hn⟩) (outsAt28 c n (Nat.lt_of_succ_lt hn)).2,
       sout28_C c (grid28.coords ⟨n + 1, hn⟩) (ms28_0 ⟨n + 1, hn⟩) (hs28_0 ⟨n + 1, hn⟩) (ms28_1 ⟨n + 1, hn⟩) (hs28_1 ⟨n + 1, hn⟩) (ms28_2 ⟨n + 1, hn⟩) (hs28_2 ⟨n + 1, hn⟩) scM28 (Memref.isWhole_whole _) (notFirst28 ⟨n + 1, hn⟩ h0) (isLast28 ⟨n + 1, hn⟩ h3) (iblk28 V c 0 ⟨n + 1, hn⟩) (iblk28 V c 1 ⟨n + 1, hn⟩) (outsAt28 c n (Nat.lt_of_succ_lt hn)).2)
    else
      (outIdle28, sout28_B c (grid28.coords ⟨n + 1, hn⟩) (ms28_0 ⟨n + 1, hn⟩) (hs28_0 ⟨n + 1, hn⟩) (ms28_1 ⟨n + 1, hn⟩) (hs28_1 ⟨n + 1, hn⟩) (ms28_2 ⟨n + 1, hn⟩) (hs28_2 ⟨n + 1, hn⟩) scM28 (Memref.isWhole_whole _) (notFirst28 ⟨n + 1, hn⟩ h0) (notLast28 ⟨n + 1, hn⟩ h3) (iblk28 V c 0 ⟨n + 1, hn⟩) (iblk28 V c 1 ⟨n + 1, hn⟩) (outsAt28 c n (Nat.lt_of_succ_lt hn)).2)

/-- `outsAt28` at a point with k = 0. -/
theorem outsAt28_A (c : Dev nD) (t : Fin cfg28.N) (h0 : t.val % 4 = 0) :
    outsAt28 V c t.val t.isLt = (outIdle28, sout28_A c (grid28.coords t) (ms28_0 t) (hs28_0 t) (ms28_1 t) (hs28_1 t) (ms28_2 t) (hs28_2 t) scM28 (Memref.isWhole_whole _) (isFirst28 t h0) (notLast28 t (by omega)) (iblk28 V c 0 t) (iblk28 V c 1 t)) := by
  obtain ⟨n, hn⟩ := t
  cases n with
  | zero => rfl
  | succ n => exact (dif_pos h0).trans rfl

/-- `outsAt28` at a point with k = 1, 2: over what the point before left. -/
theorem outsAt28_B (c : Dev nD) (t : Fin cfg28.N) (h0 : ¬t.val % 4 = 0) (h3 : ¬t.val % 4 = 3) :
    outsAt28 V c t.val t.isLt = (outIdle28, sout28_B c (grid28.coords t) (ms28_0 t) (hs28_0 t) (ms28_1 t) (hs28_1 t) (ms28_2 t) (hs28_2 t) scM28 (Memref.isWhole_whole _) (notFirst28 t h0) (notLast28 t h3) (iblk28 V c 0 t) (iblk28 V c 1 t)
      (outsAt28 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt28` at a point with k = 3. -/
theorem outsAt28_C (c : Dev nD) (t : Fin cfg28.N) (h0 : ¬t.val % 4 = 0) (h3 : t.val % 4 = 3) :
    outsAt28 V c t.val t.isLt = (out28_C c (grid28.coords t) (ms28_0 t) (hs28_0 t) (ms28_1 t) (hs28_1 t) (ms28_2 t) (hs28_2 t) scM28 (Memref.isWhole_whole _) (notFirst28 t h0) (isLast28 t h3) (iblk28 V c 0 t) (iblk28 V c 1 t)
        (outsAt28 V c (t.val - 1) (Nat.lt_of_le_of_lt (Nat.sub_le _ _) t.isLt)).2,
      sout28_C c (grid28.coords t) (ms28_0 t) (hs28_0 t) (ms28_1 t) (hs28_1 t) (ms28_2 t) (hs28_2 t) scM28 (Memref.isWhole_whole _) (notFirst28 t h0) (isLast28 t h3) (iblk28 V c 0 t) (iblk28 V c 1 t)
        (outsAt28 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS28 (c : Dev nD) : (n : ℕ) → n ≤ cfg28.N → sProp 𝕄
  | 0, _ => Pipeline.ΦA spec28 c
  | n + 1, hn => iprop(iprop(owns (c : Thread nD τ) scM28 fullShare ((outsAt28 V c n hn).2) ∗ restBut28 c) ∗ (∃ r, prngReg c r))

theorem PhiS28_zero (c : Dev nD) (n : ℕ) (h : n ≤ cfg28.N) (hz : n = 0) : PhiS28 V c n h = Pipeline.ΦA spec28 c := by
  subst hz; rfl
theorem PhiS28_succ (c : Dev nD) (n : ℕ) (hn : n < cfg28.N) :
    PhiS28 V c (n + 1) hn = iprop(iprop(owns (c : Thread nD τ) scM28 fullShare ((outsAt28 V c n hn).2) ∗ restBut28 c) ∗ (∃ r, prngReg c r)) := rfl
theorem PhiS28_pos (c : Dev nD) (n : ℕ) (h : n ≤ cfg28.N) (hz : n ≠ 0) :
    PhiS28 V c n h = iprop(iprop(owns (c : Thread nD τ) scM28 fullShare ((outsAt28 V c (n - 1) (by omega)).2) ∗ restBut28 c) ∗ (∃ r, prngReg c r)) := by
  cases n with
  | zero => exact absurd rfl hz
  | succ n => rfl

/-! ## The proof data -/

/-- The region's proof data on core `c`: the arrays as the region finds them; after the body at point `t` each input's
    buffer at its block and the output's at `outsAt28`'s first component; the invariant `PhiS28`; nothing owed; full shares. -/
noncomputable def dat28 (c : Dev nD) : Dat τ (Elt F) Unit ℕ (UR sig nD τ) ℕ cfg28 c where
  A w := V c (Pipeline.arrRef spec28 w)
  after w t := match w with
    | ⟨0, _⟩ => iblk28 V c 0 t
    | ⟨1, _⟩ => iblk28 V c 1 t
    | ⟨2, _⟩ => (outsAt28 V c t.val t.isLt).1
  Φ t := PhiS28 V c t.val (Nat.le_of_lt_succ t.isLt)
  q _ := fullShare
  owed _ := 0

theorem A_eq28 (c : Dev nD) (w : Fin cfg28.W) : (dat28 V c).A w = V c (Pipeline.arrRef spec28 w) := by
  dsimp only [dat28]
theorem PhiS28_castSucc (c : Dev nD) (t : Fin cfg28.N) :
    (dat28 V c).Φ t.castSucc = PhiS28 V c t.val (Nat.le_of_lt t.isLt) := by
  dsimp only [dat28]; simp only [Fin.coe_castSucc]
theorem after28_0 (c : Dev nD) (t : Fin cfg28.N) : (dat28 V c).after 0 t = iblk28 V c 0 t := by dsimp only [dat28]
theorem after28_1 (c : Dev nD) (t : Fin cfg28.N) : (dat28 V c).after 1 t = iblk28 V c 1 t := by dsimp only [dat28]
theorem after28_2 (c : Dev nD) (t : Fin cfg28.N) : (dat28 V c).after 2 t = (outsAt28 V c t.val t.isLt).1 := by dsimp only [dat28]
theorem before28_0 (c : Dev nD) (t : Fin cfg28.N) (d) : (dat28 V c).before 0 t d = iblk28 V c 0 t :=
  before28_0_of V (dat28 V c) (A_eq28 V c 0) (after28_0 V c) t d
theorem before28_1 (c : Dev nD) (t : Fin cfg28.N) (d) : (dat28 V c).before 1 t d = iblk28 V c 1 t :=
  before28_1_of V (dat28 V c) (A_eq28 V c 1) (after28_1 V c) t d

/-! ## The body's obligation -/

noncomputable def bodyPre28 (c : Dev nD) (t : Fin cfg28.N) : sProp 𝕄 :=
  iprop((dat28 V c).Φ t.castSucc ∗ (dat28 V c).owesAt () t.castSucc
    ∗ (∃ d, owns (c : Thread nD τ) (ms28_0 t) fullShare ((dat28 V c).before 0 t d))
    ∗ (∃ d, owns (c : Thread nD τ) (ms28_1 t) fullShare ((dat28 V c).before 1 t d))
    ∗ (∃ d, owns (c : Thread nD τ) (ms28_2 t) fullShare ((dat28 V c).before 2 t d)))

noncomputable def bodyPost28 (c : Dev nD) (t : Fin cfg28.N) : sProp 𝕄 :=
  iprop((dat28 V c).Φ t.succ ∗ (dat28 V c).owesAt () t.succ
    ∗ (dat28 V c).leavesExact 0 t
    ∗ (dat28 V c).leavesExact 1 t
    ∗ (dat28 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body28 (c : Dev nD) (t : Fin cfg28.N) :
    bodyPre28 V c t ⊢ wp frame (wpE (defs₀ (F := F)) Variants.none c none) Set.univ (bodyAt28 t) (fun _ => bodyPost28 V c t) := by
  unfold bodyPre28 bodyPost28 bodyAt28
  simp only [before28_0, before28_1]
  rw [show (dat28 V c).owesAt () t.succ = (dat28 V c).owesAt () t.castSucc from rfl]
  rw [show (dat28 V c).Φ t.succ = PhiS28 V c (t.val + 1) t.isLt from rfl, PhiS28_succ]
  rw [show (dat28 V c).leavesExact 0 t = owns (c : Thread nD τ) (ms28_0 t) fullShare ((dat28 V c).after 0 t) from by
    unfold Dat.leavesExact; rw [liveAt28_0 t], after28_0]
  rw [show (dat28 V c).leavesExact 1 t = owns (c : Thread nD τ) (ms28_1 t) fullShare ((dat28 V c).after 1 t) from by
    unfold Dat.leavesExact; rw [liveAt28_1 t], after28_1]
  by_cases h0 : t.val % 4 = 0
  · have h3 : ¬t.val % 4 = 3 := by omega
    rw [Dat.leavesExact_idle (dat28 V c) 2 t (idleAt28_2 t (notLast28 t h3)) (noFlush28_2 t (notLast28 t h3))]
    rw [outsAt28_A V c t h0]
    unfold sout28_A; (try dsimp only)
    by_cases hz : t.val = 0
    · rw [PhiS28_castSucc V c t, PhiS28_zero V c _ _ hz, PhiA28_eq]
      iintro ⟨⟨⟨HS0, Hrb⟩, Hg⟩, Ho, ⟨%d0, H0⟩, ⟨%d1, H1⟩, ⟨%d2, H2⟩⟩
      iapply ((kernelRun28_A c (grid28.coords t) _ _ _ _ _ _ _ _ (isFirst28 t h0) (notLast28 t (by omega)) (iblk28 V c 0 t) (iblk28 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover28_A c _ _ _ _ _ _ _ _ _ _ _ _ _)
          iexact Hrb
        iexact Hg
      isplitl [Ho]; · iexact Ho
      isplitl [H0]; · iexact H0
      isplitl [H1]; · iexact H1
      iexists _; iexact H2
    · rw [PhiS28_castSucc V c t, PhiS28_pos V c _ _ hz]
      iintro ⟨⟨⟨HS0, Hrb⟩, Hg⟩, Ho, ⟨%d0, H0⟩, ⟨%d1, H1⟩, ⟨%d2, H2⟩⟩
      iapply ((kernelRun28_A c (grid28.coords t) _ _ _ _ _ _ _ _ (isFirst28 t h0) (notLast28 t (by omega)) (iblk28 V c 0 t) (iblk28 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover28_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat28 V c).leavesExact 2 t = owns (c : Thread nD τ) (ms28_2 t) fullShare ((dat28 V c).after 2 t) from by
        unfold Dat.leavesExact; rw [liveAt28_2 t (isLast28 t h3)], after28_2]
      rw [outsAt28_C V c t h0 h3]
      unfold out28_C sout28_C; (try dsimp only)
      rw [PhiS28_castSucc V c t, PhiS28_pos V c _ _ hz]
      iintro ⟨⟨⟨HS0, Hrb⟩, Hg⟩, Ho, ⟨%d0, H0⟩, ⟨%d1, H1⟩, ⟨%d2, H2⟩⟩
      iapply ((kernelRun28_C c (grid28.coords t) _ _ _ _ _ _ _ _ (notFirst28 t h0) (isLast28 t h3) (iblk28 V c 0 t) (iblk28 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover28_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover28_C c _ _ _ _ _ _ _ _ _ _ _ _ _ _)
    · rw [Dat.leavesExact_idle (dat28 V c) 2 t (idleAt28_2 t (notLast28 t h3)) (noFlush28_2 t (notLast28 t h3))]
      rw [outsAt28_B V c t h0 h3]
      unfold sout28_B; (try dsimp only)
      rw [PhiS28_castSucc V c t, PhiS28_pos V c _ _ hz]
      iintro ⟨⟨⟨HS0, Hrb⟩, Hg⟩, Ho, ⟨%d0, H0⟩, ⟨%d1, H1⟩, ⟨%d2, H2⟩⟩
      iapply ((kernelRun28_B c (grid28.coords t) _ _ _ _ _ _ _ _ (notFirst28 t h0) (notLast28 t h3) (iblk28 V c 0 t) (iblk28 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover28_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation28 (c : Dev nD) : BodyObligation (dat28 (F := F) V c) (defs₀ (F := F)) Variants.none () Set.univ := fun t => by
  rw [bigSep_W28, bigSep_W28]
  exact sound_body28 V c t

/-- What the region is entered with is the invariant before the first point. -/
theorem hin28 (c : Dev nD) : Pipeline.ΦA spec28 c ⊢ (dat28 V c).Φ 0 := by
  rw [show (dat28 V c).Φ 0 = PhiS28 V c 0 (Nat.zero_le _) from rfl, PhiS28_zero V c 0 _ rfl]
  try exact Idealize.SL.BI.Entails.refl _

/-- After the last point the invariant gives the class's back: the accumulator's contents are forgotten. -/
theorem hout28 (c : Dev nD) : (dat28 V c).Φ (Fin.last cfg28.N) ⊢ Pipeline.ΦA spec28 c := by
  have hN : cfg28.N = 16 := N_28
  rw [show (dat28 V c).Φ (Fin.last cfg28.N) = PhiS28 V c (Fin.last cfg28.N).val (Nat.le_of_lt_succ (Fin.last cfg28.N).isLt) from rfl,
    PhiS28_pos V c _ _ (by rw [Fin.val_last]; omega), PhiA28_eq]
  iintro ⟨⟨HS0, Hrb⟩, Hg⟩
  isplitl [HS0 Hrb]
  · isplitl [HS0]
    · iexists _; iexact HS0
    iexact Hrb
  iexact Hg

end Cert.Kernel.Hand

end
-- ==== Proof.RegK29a.lean ====
/- Laid out by: python3 scratch/layout_regions.py --template-region 1 --region 29 --program Kernel --parts a,b,c, --out-dir proof/Proof
   from the hand-written text of region 1 (RegKI1a.lean): the same text, the region's number and the program's namespace substituted. -/
/-
  Region 29 of @main (custom_call 29): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond29_0 (i : grid29.Coords) : Prop := (Scalar.cmpi .ne (Scalar.extui (Scalar.cmpi .eq (BitVec.ofNat 32 (i 1).val) 0#32)) 0#32) = 1#1
/-- It holds exactly at the points with t % 4 = 0. -/
theorem hcond29_0 : ∀ t : Fin cfg29.N, cond29_0 (grid29.coords t) ↔ t.val % 4 = 0 :=
  (by decide +kernel : ∀ t : Fin grid29.N, cond29_0 (grid29.coords t) ↔ t.val % 4 = 0)

/-- "k = 3": the second conditional's test. -/
abbrev cond29_1 (i : grid29.Coords) : Prop := k29_cond2 i = 1#1
/-- It holds exactly at the points with t % 4 = 3. -/
theorem hcond29_1 : ∀ t : Fin cfg29.N, cond29_1 (grid29.coords t) ↔ t.val % 4 = 3 :=
  (by decide +kernel : ∀ t : Fin grid29.N, cond29_1 (grid29.coords t) ↔ t.val % 4 = 3)

/-! ## Where the windows are idle, and where the output is written back -/

/-- The two input windows are never idle. -/
theorem liveAt29_0 : ∀ t : Fin cfg29.N, cfg29.idle 0 (grid29.coords t) = false := by decide +kernel
theorem liveAt29_1 : ∀ t : Fin cfg29.N, cfg29.idle 1 (grid29.coords t) = false := by decide +kernel
/-- Where k ≠ 3 the output window is idle (the body stores nothing into it) and is not written back. -/
theorem idleAt29_2 : ∀ t : Fin cfg29.N, ¬cond29_1 (grid29.coords t) → cfg29.idle 2 (grid29.coords t) = true := by decide +kernel
theorem noFlush29_2 : ∀ t : Fin cfg29.N, ¬cond29_1 (grid29.coords t) → (cfg29.win 2).flush t = false := by decide +kernel
/-- Where k = 3 it is live. -/
theorem liveAt29_2 : ∀ t : Fin cfg29.N, cond29_1 (grid29.coords t) → cfg29.idle 2 (grid29.coords t) = false := by decide +kernel

/-! ## The staging memrefs at a point, and the scratch -/

/-- One staging buffer of the output window, through which its contents are stated. -/
abbrev VO29_2 : View sig .tc .vmem S1024x512 .f32 := (Memref.whole cc29_stg2_0 : Memref sig .tc .vmem S1024x512 .f32).view
abbrev ms29_0 (t : Fin cfg29.N) : Memref sig .tc .vmem S1024x1024 .bf16 := win29_0.stage (cfg29.slots t 0)
abbrev hs29_0 (t : Fin cfg29.N) : (ms29_0 t).IsWhole := hstage29_0 ((cfg29.slots t 0).cast nbuf29_0)
abbrev ms29_1 (t : Fin cfg29.N) : Memref sig .tc .vmem S1024x512 .f32 := win29_1.stage (cfg29.slots t 1)
abbrev hs29_1 (t : Fin cfg29.N) : (ms29_1 t).IsWhole := hstage29_1 ((cfg29.slots t 1).cast nbuf29_1)
abbrev ms29_2 (t : Fin cfg29.N) : Memref sig .tc .vmem S1024x512 .f32 := win29_2.stage (cfg29.slots t 2)
abbrev hs29_2 (t : Fin cfg29.N) : (ms29_2 t).IsWhole := hstage29_2 ((cfg29.slots t 2).cast nbuf29_2)
/-- The accumulator: a whole scoped buffer of the kernel's own. -/
abbrev scM29 : Memref sig .tc .vmem S1024x512 .f32 := Memref.whole cc29_scratch0
abbrev VS29 : View sig .tc .vmem S1024x512 .f32 := scM29.view

/-- The other scoped buffers of the core, none of which this region touches. -/
abbrev restBut29 (c : Dev nD) : sProp 𝕄 :=
  Pipeline.scopedRestBut (Ix := Unit) (Name := ℕ) (U := UR sig nD τ) (Lvl := ℕ) (Val := Elt F) spec29 c [cc29_scratch0]

/-- The region's invariant before its first point: the accumulator at something, the other scoped buffers, the generator register. -/
theorem PhiA29_eq (c : Dev nD) :
    (Pipeline.ΦA spec29 c : sProp 𝕄)
      = iprop(iprop((∃ d, owns (c : Thread nD τ) scM29 fullShare d) ∗ restBut29 c) ∗ (∃ r, prngReg c r)) := by
  unfold Pipeline.ΦA; rw [scopedRest29_split]; simp only [scM29, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun29_A (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond29_0 i) (hc1 : ¬cond29_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc29__matmul_kernel i arg2 harg2 arg3 harg3 arg4 harg4 arg5 harg5) K } := by
  refine ⟨[], ?_, fun xi2 E K => ?run⟩
  case run =>
    simp only [cc29__matmul_kernel_eq_skeleton]; unfold cc29__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK29b.lean ====
/- Laid out by: python3 scratch/layout_regions.py --template-region 1 --region 29 --program Kernel --parts a,b,c, --out-dir proof/Proof
   from the hand-written text of region 1 (RegKI1b.lean): the same text, the region's number and the program's namespace substituted. -/
/-
  Region 29, case B (k = 1, 2): the body's run. Neither conditional is taken: the product of the two blocks is added to what
  the point before left in the accumulator; the output block is not touched.
-/
import proofs.«158944_j64613488001249_1_alg».proof.Proof.RegK29a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun29_B (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond29_0 i) (hc1 : ¬cond29_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc29__matmul_kernel i arg2 harg2 arg3 harg3 arg4 harg4 arg5 harg5) K } := by
  refine ⟨[], ?_, fun xi2 E K => ?run⟩
  case run =>
    simp only [cc29__matmul_kernel_eq_skeleton]; unfold cc29__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK29c.lean ====
/- Laid out by: python3 scratch/layout_regions.py --template-region 1 --region 29 --program Kernel --parts a,b,c, --out-dir proof/Proof
   from the hand-written text of region 1 (RegKI1c.lean): the same text, the region's number and the program's namespace substituted. -/
/-
  Region 29, case C (k = 3): the body's run. The product is added to the accumulator as in case B, and then the second
  conditional copies the accumulator over the whole output block.
-/
import proofs.«158944_j64613488001249_1_alg».proof.Proof.RegK29b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun29_C (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond29_0 i) (hc1 : cond29_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc29__matmul_kernel i arg2 harg2 arg3 harg3 arg4 harg4 arg5 harg5) K } := by
  refine ⟨?_, ?_, fun E K => ?run⟩
  case run =>
    simp only [cc29__matmul_kernel_eq_skeleton]; unfold cc29__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK29.lean ====
/- Laid out by: python3 scratch/layout_regions.py --template-region 1 --region 29 --program Kernel --parts a,b,c, --out-dir proof/Proof
   from the hand-written text of region 1 (RegKI1.lean): the same text, the region's number and the program's namespace substituted. -/
/-
  Region 29 of @main, entered from the buffer contents `V`: what its windows' blocks are, what each case of the body leaves in
  the accumulator and in the output block, the accumulator and the output block point by point (`outsAt29`: at k = 0 the
  accumulator restarts from zeros plus the product; at k = 1, 2, 3 it is the point before's plus the product; at k = 3 the
  output block is the accumulator), the region's invariant (the accumulator at `outsAt29`'s second component), the proof data,
  and the body's obligation at every point.
-/
import proofs.«158944_j64613488001249_1_alg».proof.Proof.RegK29c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk29 (c : Dev nD) (w : Fin cfg29.W) (t : Fin cfg29.N) : ((cfg29.win w).xblock (cfg29.grid.coords t)).Idx → Elt F (cfg29.win w).elt :=
  ((cfg29.win w).blk t).view.read (Elt F) (V c (Pipeline.arrRef spec29 w))

/-- An input window's current staging buffer holds its block at every point, for any proof data whose array is `V`'s and
    whose body leaves the block in place. -/
theorem before29_0_of {c : Dev nD} (dat : Dat τ (Elt F) Unit ℕ (UR sig nD τ) ℕ cfg29 c) (hA : dat.A 0 = V c (Pipeline.arrRef spec29 0))
    (hafter : ∀ t, dat.after 0 t = iblk29 V c 0 t) (t : Fin cfg29.N) (d) : dat.before 0 t d = iblk29 V c 0 t :=
  (dat.before_in_eq_fetched 0 rfl (fun _ => rfl) (fun _ _ _ => rfl) (fun t => by rw [hafter]; unfold Dat.blockOf iblk29; rw [hA]; try rfl) t d).trans
    (by unfold Dat.fetched Dat.blockOf iblk29; rw [hA]; try rfl)
theorem before29_1_of {c : Dev nD} (dat : Dat τ (Elt F) Unit ℕ (UR sig nD τ) ℕ cfg29 c) (hA : dat.A 1 = V c (Pipeline.arrRef spec29 1))
    (hafter : ∀ t, dat.after 1 t = iblk29 V c 1 t) (t : Fin cfg29.N) (d) : dat.before 1 t d = iblk29 V c 1 t :=
  (dat.before_in_eq_fetched 1 rfl (fun _ => rfl) (fun _ _ _ => rfl) (fun t => by rw [hafter]; unfold Dat.blockOf iblk29; rw [hA]; try rfl) t d).trans
    (by unfold Dat.fetched Dat.blockOf iblk29; rw [hA]; try rfl)

/-! ## What each case leaves -/

/-- Case A's stores into the accumulator cover it. -/
theorem scover29_A (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond29_0 i) (hc1 : ¬cond29_1 i)
    (x0 : Vec F S1024x1024 .bf16) (x1 : Vec F S1024x512 .f32) (y : S1024x512.Idx) :
    ∃ pc ∈ (kernelRun29_A c i arg2 harg2 arg3 harg3 arg4 harg4 arg5 harg5 hc0 hc1 x0 x1).2.1, y ∈ pc.1.set :=
  View.cover_of_tiledL (kernelRun29_A c i arg2 harg2 arg3 harg3 arg4 harg4 arg5 harg5 hc0 hc1 x0 x1).2.1 S1024x512.size (by sl_kernel_rfl) y
/-- What case A leaves in the accumulator. -/
noncomputable def sout29_A (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond29_0 i) (hc1 : ¬cond29_1 i)
    (x0 : Vec F S1024x1024 .bf16) (x1 : Vec F S1024x512 .f32) : Vec F S1024x512 .f32 :=
  VS29.read (Elt F) (VS29.writes (Elt F) VS29.junk (kernelRun29_A c i arg2 harg2 arg3 harg3 arg4 harg4 arg5 harg5 hc0 hc1 x0 x1).2.1)

/-- Case B's store into the accumulator covers it. -/
theorem scover29_B (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond29_0 i) (hc1 : ¬cond29_1 i)
    (x0 : Vec F S1024x1024 .bf16) (x1 : Vec F S1024x512 .f32) (xs0 : Vec F S1024x512 .f32) (y : S1024x512.Idx) :
    ∃ pc ∈ (kernelRun29_B c i arg2 harg2 arg3 harg3 arg4 harg4 arg5 harg5 hc0 hc1 x0 x1 xs0).2.1, y ∈ pc.1.set :=
  View.cover_of_tiledL (kernelRun29_B c i arg2 harg2 arg3 harg3 arg4 harg4 arg5 harg5 hc0 hc1 x0 x1 xs0).2.1 S1024x512.size (by sl_kernel_rfl) y
/-- What case B leaves in the accumulator, over what the point before left. -/
noncomputable def sout29_B (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond29_0 i) (hc1 : ¬cond29_1 i)
    (x0 : Vec F S1024x1024 .bf16) (x1 : Vec F S1024x512 .f32) (xs0 : Vec F S1024x512 .f32) : Vec F S1024x512 .f32 :=
  VS29.read (Elt F) (VS29.writes (Elt F) VS29.junk (kernelRun29_B c i arg2 harg2 arg3 harg3 arg4 harg4 arg5 harg5 hc0 hc1 x0 x1 xs0).2.1)

/-- Case C's store into the output block covers it, and so does its store into the accumulator. -/
theorem cover29_C (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond29_0 i) (hc1 : cond29_1 i)
    (x0 : Vec F S1024x1024 .bf16) (x1 : Vec F S1024x512 .f32) (xs0 : Vec F S1024x512 .f32) (y : S1024x512.Idx) :
    ∃ pc ∈ (kernelRun29_C c i arg2 harg2 arg3 harg3 arg4 harg4 arg5 harg5 hc0 hc1 x0 x1 xs0).1, y ∈ pc.1.set :=
  View.cover_of_tiledL (kernelRun29_C c i arg2 harg2 arg3 harg3 arg4 harg4 arg5 harg5 hc0 hc1 x0 x1 xs0).1 S1024x512.size (by sl_kernel_rfl) y
theorem scover29_C (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond29_0 i) (hc1 : cond29_1 i)
    (x0 : Vec F S1024x1024 .bf16) (x1 : Vec F S1024x512 .f32) (xs0 : Vec F S1024x512 .f32) (y : S1024x512.Idx) :
    ∃ pc ∈ (kernelRun29_C c i arg2 harg2 arg3 harg3 arg4 harg4 arg5 harg5 hc0 hc1 x0 x1 xs0).2.1, y ∈ pc.1.set :=
  View.cover_of_tiledL (kernelRun29_C c i arg2 harg2 arg3 harg3 arg4 harg4 arg5 harg5 hc0 hc1 x0 x1 xs0).2.1 S1024x512.size (by sl_kernel_rfl) y
/-- What case C leaves in the output block, and in the accumulator. -/
noncomputable def out29_C (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond29_0 i) (hc1 : cond29_1 i)
    (x0 : Vec F S1024x1024 .bf16) (x1 : Vec F S1024x512 .f32) (xs0 : Vec F S1024x512 .f32) : Vec F S1024x512 .f32 :=
  VO29_2.read (Elt F) (VO29_2.writes (Elt F) VO29_2.junk (kernelRun29_C c i arg2 harg2 arg3 harg3 arg4 harg4 arg5 harg5 hc0 hc1 x0 x1 xs0).1)
noncomputable def sout29_C (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond29_0 i) (hc1 : cond29_1 i)
    (x0 : Vec F S1024x1024 .bf16) (x1 : Vec F S1024x512 .f32) (xs0 : Vec F S1024x512 .f32) : Vec F S1024x512 .f32 :=
  VS29.read (Elt F) (VS29.writes (Elt F) VS29.junk (kernelRun29_C c i arg2 harg2 arg3 harg3 arg4 harg4 arg5 harg5 hc0 hc1 x0 x1 xs0).2.1)

/-- Where the output block is idle nothing consults what it holds: a placeholder. -/
noncomputable def outIdle29 : Vec F S1024x512 .f32 := VO29_2.read (Elt F) (VO29_2.writes (Elt F) VO29_2.junk [])

/-! ## The conditions at a point, from t % 4 -/

theorem isFirst29 (t : Fin cfg29.N) (h : t.val % 4 = 0) : cond29_0 (grid29.coords t) := (hcond29_0 t).mpr h
theorem notFirst29 (t : Fin cfg29.N) (h : ¬t.val % 4 = 0) : ¬cond29_0 (grid29.coords t) := fun hc => h ((hcond29_0 t).mp hc)
theorem isLast29 (t : Fin cfg29.N) (h : t.val % 4 = 3) : cond29_1 (grid29.coords t) := (hcond29_1 t).mpr h
theorem notLast29 (t : Fin cfg29.N) (h : ¬t.val % 4 = 3) : ¬cond29_1 (grid29.coords t) := fun hc => h ((hcond29_1 t).mp hc)

/-! ## The accumulator and the output block, point by point -/

/-- After the body at position `n`: (the output block's buffer, the accumulator). -/
noncomputable def outsAt29 (c : Dev nD) : (n : ℕ) → n < cfg29.N → Vec F S1024x512 .f32 × Vec F S1024x512 .f32
  | 0, hn => (outIdle29, sout29_A c (grid29.coords ⟨0, hn⟩) (ms29_0 ⟨0, hn⟩) (hs29_0 ⟨0, hn⟩) (ms29_1 ⟨0, hn⟩) (hs29_1 ⟨0, hn⟩) (ms29_2 ⟨0, hn⟩) (hs29_2 ⟨0, hn⟩) scM29 (Memref.isWhole_whole _) (isFirst29 ⟨0, hn⟩ (Nat.zero_mod _)) (notLast29 ⟨0, hn⟩ (by simp)) (iblk29 V c 0 ⟨0, hn⟩) (iblk29 V c 1 ⟨0, hn⟩))
  | n + 1, hn =>
    if h0 : (n + 1) % 4 = 0 then
      (outIdle29, sout29_A c (grid29.coords ⟨n + 1, hn⟩) (ms29_0 ⟨n + 1, hn⟩) (hs29_0 ⟨n + 1, hn⟩) (ms29_1 ⟨n + 1, hn⟩) (hs29_1 ⟨n + 1, hn⟩) (ms29_2 ⟨n + 1, hn⟩) (hs29_2 ⟨n + 1, hn⟩) scM29 (Memref.isWhole_whole _) (isFirst29 ⟨n + 1, hn⟩ h0) (notLast29 ⟨n + 1, hn⟩ (by show ¬(n + 1) % 4 = 3; omega)) (iblk29 V c 0 ⟨n + 1, hn⟩) (iblk29 V c 1 ⟨n + 1, hn⟩))
    else if h3 : (n + 1) % 4 = 3 then
      (out29_C c (grid29.coords ⟨n + 1, hn⟩) (ms29_0 ⟨n + 1, hn⟩) (hs29_0 ⟨n + 1, hn⟩) (ms29_1 ⟨n + 1, hn⟩) (hs29_1 ⟨n + 1, hn⟩) (ms29_2 ⟨n + 1, hn⟩) (hs29_2 ⟨n + 1, hn⟩) scM29 (Memref.isWhole_whole _) (notFirst29 ⟨n + 1, hn⟩ h0) (isLast29 ⟨n + 1, hn⟩ h3) (iblk29 V c 0 ⟨n + 1, hn⟩) (iblk29 V c 1 ⟨n + 1, hn⟩) (outsAt29 c n (Nat.lt_of_succ_lt hn)).2,
       sout29_C c (grid29.coords ⟨n + 1, hn⟩) (ms29_0 ⟨n + 1, hn⟩) (hs29_0 ⟨n + 1, hn⟩) (ms29_1 ⟨n + 1, hn⟩) (hs29_1 ⟨n + 1, hn⟩) (ms29_2 ⟨n + 1, hn⟩) (hs29_2 ⟨n + 1, hn⟩) scM29 (Memref.isWhole_whole _) (notFirst29 ⟨n + 1, hn⟩ h0) (isLast29 ⟨n + 1, hn⟩ h3) (iblk29 V c 0 ⟨n + 1, hn⟩) (iblk29 V c 1 ⟨n + 1, hn⟩) (outsAt29 c n (Nat.lt_of_succ_lt hn)).2)
    else
      (outIdle29, sout29_B c (grid29.coords ⟨n + 1, hn⟩) (ms29_0 ⟨n + 1, hn⟩) (hs29_0 ⟨n + 1, hn⟩) (ms29_1 ⟨n + 1, hn⟩) (hs29_1 ⟨n + 1, hn⟩) (ms29_2 ⟨n + 1, hn⟩) (hs29_2 ⟨n + 1, hn⟩) scM29 (Memref.isWhole_whole _) (notFirst29 ⟨n + 1, hn⟩ h0) (notLast29 ⟨n + 1, hn⟩ h3) (iblk29 V c 0 ⟨n + 1, hn⟩) (iblk29 V c 1 ⟨n + 1, hn⟩) (outsAt29 c n (Nat.lt_of_succ_lt hn)).2)

/-- `outsAt29` at a point with k = 0. -/
theorem outsAt29_A (c : Dev nD) (t : Fin cfg29.N) (h0 : t.val % 4 = 0) :
    outsAt29 V c t.val t.isLt = (outIdle29, sout29_A c (grid29.coords t) (ms29_0 t) (hs29_0 t) (ms29_1 t) (hs29_1 t) (ms29_2 t) (hs29_2 t) scM29 (Memref.isWhole_whole _) (isFirst29 t h0) (notLast29 t (by omega)) (iblk29 V c 0 t) (iblk29 V c 1 t)) := by
  obtain ⟨n, hn⟩ := t
  cases n with
  | zero => rfl
  | succ n => exact (dif_pos h0).trans rfl

/-- `outsAt29` at a point with k = 1, 2: over what the point before left. -/
theorem outsAt29_B (c : Dev nD) (t : Fin cfg29.N) (h0 : ¬t.val % 4 = 0) (h3 : ¬t.val % 4 = 3) :
    outsAt29 V c t.val t.isLt = (outIdle29, sout29_B c (grid29.coords t) (ms29_0 t) (hs29_0 t) (ms29_1 t) (hs29_1 t) (ms29_2 t) (hs29_2 t) scM29 (Memref.isWhole_whole _) (notFirst29 t h0) (notLast29 t h3) (iblk29 V c 0 t) (iblk29 V c 1 t)
      (outsAt29 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt29` at a point with k = 3. -/
theorem outsAt29_C (c : Dev nD) (t : Fin cfg29.N) (h0 : ¬t.val % 4 = 0) (h3 : t.val % 4 = 3) :
    outsAt29 V c t.val t.isLt = (out29_C c (grid29.coords t) (ms29_0 t) (hs29_0 t) (ms29_1 t) (hs29_1 t) (ms29_2 t) (hs29_2 t) scM29 (Memref.isWhole_whole _) (notFirst29 t h0) (isLast29 t h3) (iblk29 V c 0 t) (iblk29 V c 1 t)
        (outsAt29 V c (t.val - 1) (Nat.lt_of_le_of_lt (Nat.sub_le _ _) t.isLt)).2,
      sout29_C c (grid29.coords t) (ms29_0 t) (hs29_0 t) (ms29_1 t) (hs29_1 t) (ms29_2 t) (hs29_2 t) scM29 (Memref.isWhole_whole _) (notFirst29 t h0) (isLast29 t h3) (iblk29 V c 0 t) (iblk29 V c 1 t)
        (outsAt29 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS29 (c : Dev nD) : (n : ℕ) → n ≤ cfg29.N → sProp 𝕄
  | 0, _ => Pipeline.ΦA spec29 c
  | n + 1, hn => iprop(iprop(owns (c : Thread nD τ) scM29 fullShare ((outsAt29 V c n hn).2) ∗ restBut29 c) ∗ (∃ r, prngReg c r))

theorem PhiS29_zero (c : Dev nD) (n : ℕ) (h : n ≤ cfg29.N) (hz : n = 0) : PhiS29 V c n h = Pipeline.ΦA spec29 c := by
  subst hz; rfl
theorem PhiS29_succ (c : Dev nD) (n : ℕ) (hn : n < cfg29.N) :
    PhiS29 V c (n + 1) hn = iprop(iprop(owns (c : Thread nD τ) scM29 fullShare ((outsAt29 V c n hn).2) ∗ restBut29 c) ∗ (∃ r, prngReg c r)) := rfl
theorem PhiS29_pos (c : Dev nD) (n : ℕ) (h : n ≤ cfg29.N) (hz : n ≠ 0) :
    PhiS29 V c n h = iprop(iprop(owns (c : Thread nD τ) scM29 fullShare ((outsAt29 V c (n - 1) (by omega)).2) ∗ restBut29 c) ∗ (∃ r, prngReg c r)) := by
  cases n with
  | zero => exact absurd rfl hz
  | succ n => rfl

/-! ## The proof data -/

/-- The region's proof data on core `c`: the arrays as the region finds them; after the body at point `t` each input's
    buffer at its block and the output's at `outsAt29`'s first component; the invariant `PhiS29`; nothing owed; full shares. -/
noncomputable def dat29 (c : Dev nD) : Dat τ (Elt F) Unit ℕ (UR sig nD τ) ℕ cfg29 c where
  A w := V c (Pipeline.arrRef spec29 w)
  after w t := match w with
    | ⟨0, _⟩ => iblk29 V c 0 t
    | ⟨1, _⟩ => iblk29 V c 1 t
    | ⟨2, _⟩ => (outsAt29 V c t.val t.isLt).1
  Φ t := PhiS29 V c t.val (Nat.le_of_lt_succ t.isLt)
  q _ := fullShare
  owed _ := 0

theorem A_eq29 (c : Dev nD) (w : Fin cfg29.W) : (dat29 V c).A w = V c (Pipeline.arrRef spec29 w) := by
  dsimp only [dat29]
theorem PhiS29_castSucc (c : Dev nD) (t : Fin cfg29.N) :
    (dat29 V c).Φ t.castSucc = PhiS29 V c t.val (Nat.le_of_lt t.isLt) := by
  dsimp only [dat29]; simp only [Fin.coe_castSucc]
theorem after29_0 (c : Dev nD) (t : Fin cfg29.N) : (dat29 V c).after 0 t = iblk29 V c 0 t := by dsimp only [dat29]
theorem after29_1 (c : Dev nD) (t : Fin cfg29.N) : (dat29 V c).after 1 t = iblk29 V c 1 t := by dsimp only [dat29]
theorem after29_2 (c : Dev nD) (t : Fin cfg29.N) : (dat29 V c).after 2 t = (outsAt29 V c t.val t.isLt).1 := by dsimp only [dat29]
theorem before29_0 (c : Dev nD) (t : Fin cfg29.N) (d) : (dat29 V c).before 0 t d = iblk29 V c 0 t :=
  before29_0_of V (dat29 V c) (A_eq29 V c 0) (after29_0 V c) t d
theorem before29_1 (c : Dev nD) (t : Fin cfg29.N) (d) : (dat29 V c).before 1 t d = iblk29 V c 1 t :=
  before29_1_of V (dat29 V c) (A_eq29 V c 1) (after29_1 V c) t d

/-! ## The body's obligation -/

noncomputable def bodyPre29 (c : Dev nD) (t : Fin cfg29.N) : sProp 𝕄 :=
  iprop((dat29 V c).Φ t.castSucc ∗ (dat29 V c).owesAt () t.castSucc
    ∗ (∃ d, owns (c : Thread nD τ) (ms29_0 t) fullShare ((dat29 V c).before 0 t d))
    ∗ (∃ d, owns (c : Thread nD τ) (ms29_1 t) fullShare ((dat29 V c).before 1 t d))
    ∗ (∃ d, owns (c : Thread nD τ) (ms29_2 t) fullShare ((dat29 V c).before 2 t d)))

noncomputable def bodyPost29 (c : Dev nD) (t : Fin cfg29.N) : sProp 𝕄 :=
  iprop((dat29 V c).Φ t.succ ∗ (dat29 V c).owesAt () t.succ
    ∗ (dat29 V c).leavesExact 0 t
    ∗ (dat29 V c).leavesExact 1 t
    ∗ (dat29 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body29 (c : Dev nD) (t : Fin cfg29.N) :
    bodyPre29 V c t ⊢ wp frame (wpE (defs₀ (F := F)) Variants.none c none) Set.univ (bodyAt29 t) (fun _ => bodyPost29 V c t) := by
  unfold bodyPre29 bodyPost29 bodyAt29
  simp only [before29_0, before29_1]
  rw [show (dat29 V c).owesAt () t.succ = (dat29 V c).owesAt () t.castSucc from rfl]
  rw [show (dat29 V c).Φ t.succ = PhiS29 V c (t.val + 1) t.isLt from rfl, PhiS29_succ]
  rw [show (dat29 V c).leavesExact 0 t = owns (c : Thread nD τ) (ms29_0 t) fullShare ((dat29 V c).after 0 t) from by
    unfold Dat.leavesExact; rw [liveAt29_0 t], after29_0]
  rw [show (dat29 V c).leavesExact 1 t = owns (c : Thread nD τ) (ms29_1 t) fullShare ((dat29 V c).after 1 t) from by
    unfold Dat.leavesExact; rw [liveAt29_1 t], after29_1]
  by_cases h0 : t.val % 4 = 0
  · have h3 : ¬t.val % 4 = 3 := by omega
    rw [Dat.leavesExact_idle (dat29 V c) 2 t (idleAt29_2 t (notLast29 t h3)) (noFlush29_2 t (notLast29 t h3))]
    rw [outsAt29_A V c t h0]
    unfold sout29_A; (try dsimp only)
    by_cases hz : t.val = 0
    · rw [PhiS29_castSucc V c t, PhiS29_zero V c _ _ hz, PhiA29_eq]
      iintro ⟨⟨⟨HS0, Hrb⟩, Hg⟩, Ho, ⟨%d0, H0⟩, ⟨%d1, H1⟩, ⟨%d2, H2⟩⟩
      iapply ((kernelRun29_A c (grid29.coords t) _ _ _ _ _ _ _ _ (isFirst29 t h0) (notLast29 t (by omega)) (iblk29 V c 0 t) (iblk29 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover29_A c _ _ _ _ _ _ _ _ _ _ _ _ _)
          iexact Hrb
        iexact Hg
      isplitl [Ho]; · iexact Ho
      isplitl [H0]; · iexact H0
      isplitl [H1]; · iexact H1
      iexists _; iexact H2
    · rw [PhiS29_castSucc V c t, PhiS29_pos V c _ _ hz]
      iintro ⟨⟨⟨HS0, Hrb⟩, Hg⟩, Ho, ⟨%d0, H0⟩, ⟨%d1, H1⟩, ⟨%d2, H2⟩⟩
      iapply ((kernelRun29_A c (grid29.coords t) _ _ _ _ _ _ _ _ (isFirst29 t h0) (notLast29 t (by omega)) (iblk29 V c 0 t) (iblk29 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover29_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat29 V c).leavesExact 2 t = owns (c : Thread nD τ) (ms29_2 t) fullShare ((dat29 V c).after 2 t) from by
        unfold Dat.leavesExact; rw [liveAt29_2 t (isLast29 t h3)], after29_2]
      rw [outsAt29_C V c t h0 h3]
      unfold out29_C sout29_C; (try dsimp only)
      rw [PhiS29_castSucc V c t, PhiS29_pos V c _ _ hz]
      iintro ⟨⟨⟨HS0, Hrb⟩, Hg⟩, Ho, ⟨%d0, H0⟩, ⟨%d1, H1⟩, ⟨%d2, H2⟩⟩
      iapply ((kernelRun29_C c (grid29.coords t) _ _ _ _ _ _ _ _ (notFirst29 t h0) (isLast29 t h3) (iblk29 V c 0 t) (iblk29 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover29_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover29_C c _ _ _ _ _ _ _ _ _ _ _ _ _ _)
    · rw [Dat.leavesExact_idle (dat29 V c) 2 t (idleAt29_2 t (notLast29 t h3)) (noFlush29_2 t (notLast29 t h3))]
      rw [outsAt29_B V c t h0 h3]
      unfold sout29_B; (try dsimp only)
      rw [PhiS29_castSucc V c t, PhiS29_pos V c _ _ hz]
      iintro ⟨⟨⟨HS0, Hrb⟩, Hg⟩, Ho, ⟨%d0, H0⟩, ⟨%d1, H1⟩, ⟨%d2, H2⟩⟩
      iapply ((kernelRun29_B c (grid29.coords t) _ _ _ _ _ _ _ _ (notFirst29 t h0) (notLast29 t h3) (iblk29 V c 0 t) (iblk29 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover29_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation29 (c : Dev nD) : BodyObligation (dat29 (F := F) V c) (defs₀ (F := F)) Variants.none () Set.univ := fun t => by
  rw [bigSep_W29, bigSep_W29]
  exact sound_body29 V c t

/-- What the region is entered with is the invariant before the first point. -/
theorem hin29 (c : Dev nD) : Pipeline.ΦA spec29 c ⊢ (dat29 V c).Φ 0 := by
  rw [show (dat29 V c).Φ 0 = PhiS29 V c 0 (Nat.zero_le _) from rfl, PhiS29_zero V c 0 _ rfl]
  try exact Idealize.SL.BI.Entails.refl _

/-- After the last point the invariant gives the class's back: the accumulator's contents are forgotten. -/
theorem hout29 (c : Dev nD) : (dat29 V c).Φ (Fin.last cfg29.N) ⊢ Pipeline.ΦA spec29 c := by
  have hN : cfg29.N = 16 := N_29
  rw [show (dat29 V c).Φ (Fin.last cfg29.N) = PhiS29 V c (Fin.last cfg29.N).val (Nat.le_of_lt_succ (Fin.last cfg29.N).isLt) from rfl,
    PhiS29_pos V c _ _ (by rw [Fin.val_last]; omega), PhiA29_eq]
  iintro ⟨⟨HS0, Hrb⟩, Hg⟩
  isplitl [HS0 Hrb]
  · isplitl [HS0]
    · iexists _; iexact HS0
    iexact Hrb
  iexact Hg

end Cert.Kernel.Hand

end
-- ==== Proof.RegK30a.lean ====
/- Laid out by: python3 scratch/layout_regions.py --template-region 1 --region 30 --program Kernel --parts a,b,c, --out-dir proof/Proof
   from the hand-written text of region 1 (RegKI1a.lean): the same text, the region's number and the program's namespace substituted. -/
/-
  Region 30 of @main (custom_call 30): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond30_0 (i : grid30.Coords) : Prop := (Scalar.cmpi .ne (Scalar.extui (Scalar.cmpi .eq (BitVec.ofNat 32 (i 1).val) 0#32)) 0#32) = 1#1
/-- It holds exactly at the points with t % 4 = 0. -/
theorem hcond30_0 : ∀ t : Fin cfg30.N, cond30_0 (grid30.coords t) ↔ t.val % 4 = 0 :=
  (by decide +kernel : ∀ t : Fin grid30.N, cond30_0 (grid30.coords t) ↔ t.val % 4 = 0)

/-- "k = 3": the second conditional's test. -/
abbrev cond30_1 (i : grid30.Coords) : Prop := k30_cond2 i = 1#1
/-- It holds exactly at the points with t % 4 = 3. -/
theorem hcond30_1 : ∀ t : Fin cfg30.N, cond30_1 (grid30.coords t) ↔ t.val % 4 = 3 :=
  (by decide +kernel : ∀ t : Fin grid30.N, cond30_1 (grid30.coords t) ↔ t.val % 4 = 3)

/-! ## Where the windows are idle, and where the output is written back -/

/-- The two input windows are never idle. -/
theorem liveAt30_0 : ∀ t : Fin cfg30.N, cfg30.idle 0 (grid30.coords t) = false := by decide +kernel
theorem liveAt30_1 : ∀ t : Fin cfg30.N, cfg30.idle 1 (grid30.coords t) = false := by decide +kernel
/-- Where k ≠ 3 the output window is idle (the body stores nothing into it) and is not written back. -/
theorem idleAt30_2 : ∀ t : Fin cfg30.N, ¬cond30_1 (grid30.coords t) → cfg30.idle 2 (grid30.coords t) = true := by decide +kernel
theorem noFlush30_2 : ∀ t : Fin cfg30.N, ¬cond30_1 (grid30.coords t) → (cfg30.win 2).flush t = false := by decide +kernel
/-- Where k = 3 it is live. -/
theorem liveAt30_2 : ∀ t : Fin cfg30.N, cond30_1 (grid30.coords t) → cfg30.idle 2 (grid30.coords t) = false := by decide +kernel

/-! ## The staging memrefs at a point, and the scratch -/

/-- One staging buffer of the output window, through which its contents are stated. -/
abbrev VO30_2 : View sig .tc .vmem S1024x512 .f32 := (Memref.whole cc30_stg2_0 : Memref sig .tc .vmem S1024x512 .f32).view
abbrev ms30_0 (t : Fin cfg30.N) : Memref sig .tc .vmem S1024x1024 .bf16 := win30_0.stage (cfg30.slots t 0)
abbrev hs30_0 (t : Fin cfg30.N) : (ms30_0 t).IsWhole := hstage30_0 ((cfg30.slots t 0).cast nbuf30_0)
abbrev ms30_1 (t : Fin cfg30.N) : Memref sig .tc .vmem S1024x512 .f32 := win30_1.stage (cfg30.slots t 1)
abbrev hs30_1 (t : Fin cfg30.N) : (ms30_1 t).IsWhole := hstage30_1 ((cfg30.slots t 1).cast nbuf30_1)
abbrev ms30_2 (t : Fin cfg30.N) : Memref sig .tc .vmem S1024x512 .f32 := win30_2.stage (cfg30.slots t 2)
abbrev hs30_2 (t : Fin cfg30.N) : (ms30_2 t).IsWhole := hstage30_2 ((cfg30.slots t 2).cast nbuf30_2)
/-- The accumulator: a whole scoped buffer of the kernel's own. -/
abbrev scM30 : Memref sig .tc .vmem S1024x512 .f32 := Memref.whole cc30_scratch0
abbrev VS30 : View sig .tc .vmem S1024x512 .f32 := scM30.view

/-- The other scoped buffers of the core, none of which this region touches. -/
abbrev restBut30 (c : Dev nD) : sProp 𝕄 :=
  Pipeline.scopedRestBut (Ix := Unit) (Name := ℕ) (U := UR sig nD τ) (Lvl := ℕ) (Val := Elt F) spec30 c [cc30_scratch0]

/-- The region's invariant before its first point: the accumulator at something, the other scoped buffers, the generator register. -/
theorem PhiA30_eq (c : Dev nD) :
    (Pipeline.ΦA spec30 c : sProp 𝕄)
      = iprop(iprop((∃ d, owns (c : Thread nD τ) scM30 fullShare d) ∗ restBut30 c) ∗ (∃ r, prngReg c r)) := by
  unfold Pipeline.ΦA; rw [scopedRest30_split]; simp only [scM30, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun30_A (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond30_0 i) (hc1 : ¬cond30_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc30__matmul_kernel i arg2 harg2 arg3 harg3 arg4 harg4 arg5 harg5) K } := by
  refine ⟨[], ?_, fun xi2 E K => ?run⟩
  case run =>
    simp only [cc30__matmul_kernel_eq_skeleton]; unfold cc30__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK30b.lean ====
/- Laid out by: python3 scratch/layout_regions.py --template-region 1 --region 30 --program Kernel --parts a,b,c, --out-dir proof/Proof
   from the hand-written text of region 1 (RegKI1b.lean): the same text, the region's number and the program's namespace substituted. -/
/-
  Region 30, case B (k = 1, 2): the body's run. Neither conditional is taken: the product of the two blocks is added to what
  the point before left in the accumulator; the output block is not touched.
-/
import proofs.«158944_j64613488001249_1_alg».proof.Proof.RegK30a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun30_B (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond30_0 i) (hc1 : ¬cond30_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc30__matmul_kernel i arg2 harg2 arg3 harg3 arg4 harg4 arg5 harg5) K } := by
  refine ⟨[], ?_, fun xi2 E K => ?run⟩
  case run =>
    simp only [cc30__matmul_kernel_eq_skeleton]; unfold cc30__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK30c.lean ====
/- Laid out by: python3 scratch/layout_regions.py --template-region 1 --region 30 --program Kernel --parts a,b,c, --out-dir proof/Proof
   from the hand-written text of region 1 (RegKI1c.lean): the same text, the region's number and the program's namespace substituted. -/
/-
  Region 30, case C (k = 3): the body's run. The product is added to the accumulator as in case B, and then the second
  conditional copies the accumulator over the whole output block.
-/
import proofs.«158944_j64613488001249_1_alg».proof.Proof.RegK30b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun30_C (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond30_0 i) (hc1 : cond30_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc30__matmul_kernel i arg2 harg2 arg3 harg3 arg4 harg4 arg5 harg5) K } := by
  refine ⟨?_, ?_, fun E K => ?run⟩
  case run =>
    simp only [cc30__matmul_kernel_eq_skeleton]; unfold cc30__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK30.lean ====
/- Laid out by: python3 scratch/layout_regions.py --template-region 1 --region 30 --program Kernel --parts a,b,c, --out-dir proof/Proof
   from the hand-written text of region 1 (RegKI1.lean): the same text, the region's number and the program's namespace substituted. -/
/-
  Region 30 of @main, entered from the buffer contents `V`: what its windows' blocks are, what each case of the body leaves in
  the accumulator and in the output block, the accumulator and the output block point by point (`outsAt30`: at k = 0 the
  accumulator restarts from zeros plus the product; at k = 1, 2, 3 it is the point before's plus the product; at k = 3 the
  output block is the accumulator), the region's invariant (the accumulator at `outsAt30`'s second component), the proof data,
  and the body's obligation at every point.
-/
import proofs.«158944_j64613488001249_1_alg».proof.Proof.RegK30c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk30 (c : Dev nD) (w : Fin cfg30.W) (t : Fin cfg30.N) : ((cfg30.win w).xblock (cfg30.grid.coords t)).Idx → Elt F (cfg30.win w).elt :=
  ((cfg30.win w).blk t).view.read (Elt F) (V c (Pipeline.arrRef spec30 w))

/-- An input window's current staging buffer holds its block at every point, for any proof data whose array is `V`'s and
    whose body leaves the block in place. -/
theorem before30_0_of {c : Dev nD} (dat : Dat τ (Elt F) Unit ℕ (UR sig nD τ) ℕ cfg30 c) (hA : dat.A 0 = V c (Pipeline.arrRef spec30 0))
    (hafter : ∀ t, dat.after 0 t = iblk30 V c 0 t) (t : Fin cfg30.N) (d) : dat.before 0 t d = iblk30 V c 0 t :=
  (dat.before_in_eq_fetched 0 rfl (fun _ => rfl) (fun _ _ _ => rfl) (fun t => by rw [hafter]; unfold Dat.blockOf iblk30; rw [hA]; try rfl) t d).trans
    (by unfold Dat.fetched Dat.blockOf iblk30; rw [hA]; try rfl)
theorem before30_1_of {c : Dev nD} (dat : Dat τ (Elt F) Unit ℕ (UR sig nD τ) ℕ cfg30 c) (hA : dat.A 1 = V c (Pipeline.arrRef spec30 1))
    (hafter : ∀ t, dat.after 1 t = iblk30 V c 1 t) (t : Fin cfg30.N) (d) : dat.before 1 t d = iblk30 V c 1 t :=
  (dat.before_in_eq_fetched 1 rfl (fun _ => rfl) (fun _ _ _ => rfl) (fun t => by rw [hafter]; unfold Dat.blockOf iblk30; rw [hA]; try rfl) t d).trans
    (by unfold Dat.fetched Dat.blockOf iblk30; rw [hA]; try rfl)

/-! ## What each case leaves -/

/-- Case A's stores into the accumulator cover it. -/
theorem scover30_A (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond30_0 i) (hc1 : ¬cond30_1 i)
    (x0 : Vec F S1024x1024 .bf16) (x1 : Vec F S1024x512 .f32) (y : S1024x512.Idx) :
    ∃ pc ∈ (kernelRun30_A c i arg2 harg2 arg3 harg3 arg4 harg4 arg5 harg5 hc0 hc1 x0 x1).2.1, y ∈ pc.1.set :=
  View.cover_of_tiledL (kernelRun30_A c i arg2 harg2 arg3 harg3 arg4 harg4 arg5 harg5 hc0 hc1 x0 x1).2.1 S1024x512.size (by sl_kernel_rfl) y
/-- What case A leaves in the accumulator. -/
noncomputable def sout30_A (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond30_0 i) (hc1 : ¬cond30_1 i)
    (x0 : Vec F S1024x1024 .bf16) (x1 : Vec F S1024x512 .f32) : Vec F S1024x512 .f32 :=
  VS30.read (Elt F) (VS30.writes (Elt F) VS30.junk (kernelRun30_A c i arg2 harg2 arg3 harg3 arg4 harg4 arg5 harg5 hc0 hc1 x0 x1).2.1)

/-- Case B's store into the accumulator covers it. -/
theorem scover30_B (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond30_0 i) (hc1 : ¬cond30_1 i)
    (x0 : Vec F S1024x1024 .bf16) (x1 : Vec F S1024x512 .f32) (xs0 : Vec F S1024x512 .f32) (y : S1024x512.Idx) :
    ∃ pc ∈ (kernelRun30_B c i arg2 harg2 arg3 harg3 arg4 harg4 arg5 harg5 hc0 hc1 x0 x1 xs0).2.1, y ∈ pc.1.set :=
  View.cover_of_tiledL (kernelRun30_B c i arg2 harg2 arg3 harg3 arg4 harg4 arg5 harg5 hc0 hc1 x0 x1 xs0).2.1 S1024x512.size (by sl_kernel_rfl) y
/-- What case B leaves in the accumulator, over what the point before left. -/
noncomputable def sout30_B (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond30_0 i) (hc1 : ¬cond30_1 i)
    (x0 : Vec F S1024x1024 .bf16) (x1 : Vec F S1024x512 .f32) (xs0 : Vec F S1024x512 .f32) : Vec F S1024x512 .f32 :=
  VS30.read (Elt F) (VS30.writes (Elt F) VS30.junk (kernelRun30_B c i arg2 harg2 arg3 harg3 arg4 harg4 arg5 harg5 hc0 hc1 x0 x1 xs0).2.1)

/-- Case C's store into the output block covers it, and so does its store into the accumulator. -/
theorem cover30_C (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond30_0 i) (hc1 : cond30_1 i)
    (x0 : Vec F S1024x1024 .bf16) (x1 : Vec F S1024x512 .f32) (xs0 : Vec F S1024x512 .f32) (y : S1024x512.Idx) :
    ∃ pc ∈ (kernelRun30_C c i arg2 harg2 arg3 harg3 arg4 harg4 arg5 harg5 hc0 hc1 x0 x1 xs0).1, y ∈ pc.1.set :=
  View.cover_of_tiledL (kernelRun30_C c i arg2 harg2 arg3 harg3 arg4 harg4 arg5 harg5 hc0 hc1 x0 x1 xs0).1 S1024x512.size (by sl_kernel_rfl) y
theorem scover30_C (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond30_0 i) (hc1 : cond30_1 i)
    (x0 : Vec F S1024x1024 .bf16) (x1 : Vec F S1024x512 .f32) (xs0 : Vec F S1024x512 .f32) (y : S1024x512.Idx) :
    ∃ pc ∈ (kernelRun30_C c i arg2 harg2 arg3 harg3 arg4 harg4 arg5 harg5 hc0 hc1 x0 x1 xs0).2.1, y ∈ pc.1.set :=
  View.cover_of_tiledL (kernelRun30_C c i arg2 harg2 arg3 harg3 arg4 harg4 arg5 harg5 hc0 hc1 x0 x1 xs0).2.1 S1024x512.size (by sl_kernel_rfl) y
/-- What case C leaves in the output block, and in the accumulator. -/
noncomputable def out30_C (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond30_0 i) (hc1 : cond30_1 i)
    (x0 : Vec F S1024x1024 .bf16) (x1 : Vec F S1024x512 .f32) (xs0 : Vec F S1024x512 .f32) : Vec F S1024x512 .f32 :=
  VO30_2.read (Elt F) (VO30_2.writes (Elt F) VO30_2.junk (kernelRun30_C c i arg2 harg2 arg3 harg3 arg4 harg4 arg5 harg5 hc0 hc1 x0 x1 xs0).1)
noncomputable def sout30_C (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond30_0 i) (hc1 : cond30_1 i)
    (x0 : Vec F S1024x1024 .bf16) (x1 : Vec F S1024x512 .f32) (xs0 : Vec F S1024x512 .f32) : Vec F S1024x512 .f32 :=
  VS30.read (Elt F) (VS30.writes (Elt F) VS30.junk (kernelRun30_C c i arg2 harg2 arg3 harg3 arg4 harg4 arg5 harg5 hc0 hc1 x0 x1 xs0).2.1)

/-- Where the output block is idle nothing consults what it holds: a placeholder. -/
noncomputable def outIdle30 : Vec F S1024x512 .f32 := VO30_2.read (Elt F) (VO30_2.writes (Elt F) VO30_2.junk [])

/-! ## The conditions at a point, from t % 4 -/

theorem isFirst30 (t : Fin cfg30.N) (h : t.val % 4 = 0) : cond30_0 (grid30.coords t) := (hcond30_0 t).mpr h
theorem notFirst30 (t : Fin cfg30.N) (h : ¬t.val % 4 = 0) : ¬cond30_0 (grid30.coords t) := fun hc => h ((hcond30_0 t).mp hc)
theorem isLast30 (t : Fin cfg30.N) (h : t.val % 4 = 3) : cond30_1 (grid30.coords t) := (hcond30_1 t).mpr h
theorem notLast30 (t : Fin cfg30.N) (h : ¬t.val % 4 = 3) : ¬cond30_1 (grid30.coords t) := fun hc => h ((hcond30_1 t).mp hc)

/-! ## The accumulator and the output block, point by point -/

/-- After the body at position `n`: (the output block's buffer, the accumulator). -/
noncomputable def outsAt30 (c : Dev nD) : (n : ℕ) → n < cfg30.N → Vec F S1024x512 .f32 × Vec F S1024x512 .f32
  | 0, hn => (outIdle30, sout30_A c (grid30.coords ⟨0, hn⟩) (ms30_0 ⟨0, hn⟩) (hs30_0 ⟨0, hn⟩) (ms30_1 ⟨0, hn⟩) (hs30_1 ⟨0, hn⟩) (ms30_2 ⟨0, hn⟩) (hs30_2 ⟨0, hn⟩) scM30 (Memref.isWhole_whole _) (isFirst30 ⟨0, hn⟩ (Nat.zero_mod _)) (notLast30 ⟨0, hn⟩ (by simp)) (iblk30 V c 0 ⟨0, hn⟩) (iblk30 V c 1 ⟨0, hn⟩))
  | n + 1, hn =>
    if h0 : (n + 1) % 4 = 0 then
      (outIdle30, sout30_A c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) scM30 (Memref.isWhole_whole _) (isFirst30 ⟨n + 1, hn⟩ h0) (notLast30 ⟨n + 1, hn⟩ (by show ¬(n + 1) % 4 = 3; omega)) (iblk30 V c 0 ⟨n + 1, hn⟩) (iblk30 V c 1 ⟨n + 1, hn⟩))
    else if h3 : (n + 1) % 4 = 3 then
      (out30_C c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) scM30 (Memref.isWhole_whole _) (notFirst30 ⟨n + 1, hn⟩ h0) (isLast30 ⟨n + 1, hn⟩ h3) (iblk30 V c 0 ⟨n + 1, hn⟩) (iblk30 V c 1 ⟨n + 1, hn⟩) (outsAt30 c n (Nat.lt_of_succ_lt hn)).2,
       sout30_C c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) scM30 (Memref.isWhole_whole _) (notFirst30 ⟨n + 1, hn⟩ h0) (isLast30 ⟨n + 1, hn⟩ h3) (iblk30 V c 0 ⟨n + 1, hn⟩) (iblk30 V c 1 ⟨n + 1, hn⟩) (outsAt30 c n (Nat.lt_of_succ_lt hn)).2)
    else
      (outIdle30, sout30_B c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) scM30 (Memref.isWhole_whole _) (notFirst30 ⟨n + 1, hn⟩ h0) (notLast30 ⟨n + 1, hn⟩ h3) (iblk30 V c 0 ⟨n + 1, hn⟩) (iblk30 V c 1 ⟨n + 1, hn⟩) (outsAt30 c n (Nat.lt_of_succ_lt hn)).2)

/-- `outsAt30` at a point with k = 0. -/
theorem outsAt30_A (c : Dev nD) (t : Fin cfg30.N) (h0 : t.val % 4 = 0) :
    outsAt30 V c t.val t.isLt = (outIdle30, sout30_A c (grid30.coords t) (ms30_0 t) (hs30_0 t) (ms30_1 t) (hs30_1 t) (ms30_2 t) (hs30_2 t) scM30 (Memref.isWhole_whole _) (isFirst30 t h0) (notLast30 t (by omega)) (iblk30 V c 0 t) (iblk30 V c 1 t)) := by
  obtain ⟨n, hn⟩ := t
  cases n with
  | zero => rfl
  | succ n => exact (dif_pos h0).trans rfl

/-- `outsAt30` at a point with k = 1, 2: over what the point before left. -/
theorem outsAt30_B (c : Dev nD) (t : Fin cfg30.N) (h0 : ¬t.val % 4 = 0) (h3 : ¬t.val % 4 = 3) :
    outsAt30 V c t.val t.isLt = (outIdle30, sout30_B c (grid30.coords t) (ms30_0 t) (hs30_0 t) (ms30_1 t) (hs30_1 t) (ms30_2 t) (hs30_2 t) scM30 (Memref.isWhole_whole _) (notFirst30 t h0) (notLast30 t h3) (iblk30 V c 0 t) (iblk30 V c 1 t)
      (outsAt30 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt30` at a point with k = 3. -/
theorem outsAt30_C (c : Dev nD) (t : Fin cfg30.N) (h0 : ¬t.val % 4 = 0) (h3 : t.val % 4 = 3) :
    outsAt30 V c t.val t.isLt = (out30_C c (grid30.coords t) (ms30_0 t) (hs30_0 t) (ms30_1 t) (hs30_1 t) (ms30_2 t) (hs30_2 t) scM30 (Memref.isWhole_whole _) (notFirst30 t h0) (isLast30 t h3) (iblk30 V c 0 t) (iblk30 V c 1 t)
        (outsAt30 V c (t.val - 1) (Nat.lt_of_le_of_lt (Nat.sub_le _ _) t.isLt)).2,
      sout30_C c (grid30.coords t) (ms30_0 t) (hs30_0 t) (ms30_1 t) (hs30_1 t) (ms30_2 t) (hs30_2 t) scM30 (Memref.isWhole_whole _) (notFirst30 t h0) (isLast30 t h3) (iblk30 V c 0 t) (iblk30 V c 1 t)
        (outsAt30 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS30 (c : Dev nD) : (n : ℕ) → n ≤ cfg30.N → sProp 𝕄
  | 0, _ => Pipeline.ΦA spec30 c
  | n + 1, hn => iprop(iprop(owns (c : Thread nD τ) scM30 fullShare ((outsAt30 V c n hn).2) ∗ restBut30 c) ∗ (∃ r, prngReg c r))

theorem PhiS30_zero (c : Dev nD) (n : ℕ) (h : n ≤ cfg30.N) (hz : n = 0) : PhiS30 V c n h = Pipeline.ΦA spec30 c := by
  subst hz; rfl
theorem PhiS30_succ (c : Dev nD) (n : ℕ) (hn : n < cfg30.N) :
    PhiS30 V c (n + 1) hn = iprop(iprop(owns (c : Thread nD τ) scM30 fullShare ((outsAt30 V c n hn).2) ∗ restBut30 c) ∗ (∃ r, prngReg c r)) := rfl
theorem PhiS30_pos (c : Dev nD) (n : ℕ) (h : n ≤ cfg30.N) (hz : n ≠ 0) :
    PhiS30 V c n h = iprop(iprop(owns (c : Thread nD τ) scM30 fullShare ((outsAt30 V c (n - 1) (by omega)).2) ∗ restBut30 c) ∗ (∃ r, prngReg c r)) := by
  cases n with
  | zero => exact absurd rfl hz
  | succ n => rfl

/-! ## The proof data -/

/-- The region's proof data on core `c`: the arrays as the region finds them; after the body at point `t` each input's
    buffer at its block and the output's at `outsAt30`'s first component; the invariant `PhiS30`; nothing owed; full shares. -/
noncomputable def dat30 (c : Dev nD) : Dat τ (Elt F) Unit ℕ (UR sig nD τ) ℕ cfg30 c where
  A w := V c (Pipeline.arrRef spec30 w)
  after w t := match w with
    | ⟨0, _⟩ => iblk30 V c 0 t
    | ⟨1, _⟩ => iblk30 V c 1 t
    | ⟨2, _⟩ => (outsAt30 V c t.val t.isLt).1
  Φ t := PhiS30 V c t.val (Nat.le_of_lt_succ t.isLt)
  q _ := fullShare
  owed _ := 0

theorem A_eq30 (c : Dev nD) (w : Fin cfg30.W) : (dat30 V c).A w = V c (Pipeline.arrRef spec30 w) := by
  dsimp only [dat30]
theorem PhiS30_castSucc (c : Dev nD) (t : Fin cfg30.N) :
    (dat30 V c).Φ t.castSucc = PhiS30 V c t.val (Nat.le_of_lt t.isLt) := by
  dsimp only [dat30]; simp only [Fin.coe_castSucc]
theorem after30_0 (c : Dev nD) (t : Fin cfg30.N) : (dat30 V c).after 0 t = iblk30 V c 0 t := by dsimp only [dat30]
theorem after30_1 (c : Dev nD) (t : Fin cfg30.N) : (dat30 V c).after 1 t = iblk30 V c 1 t := by dsimp only [dat30]
theorem after30_2 (c : Dev nD) (t : Fin cfg30.N) : (dat30 V c).after 2 t = (outsAt30 V c t.val t.isLt).1 := by dsimp only [dat30]
theorem before30_0 (c : Dev nD) (t : Fin cfg30.N) (d) : (dat30 V c).before 0 t d = iblk30 V c 0 t :=
  before30_0_of V (dat30 V c) (A_eq30 V c 0) (after30_0 V c) t d
theorem before30_1 (c : Dev nD) (t : Fin cfg30.N) (d) : (dat30 V c).before 1 t d = iblk30 V c 1 t :=
  before30_1_of V (dat30 V c) (A_eq30 V c 1) (after30_1 V c) t d

/-! ## The body's obligation -/

noncomputable def bodyPre30 (c : Dev nD) (t : Fin cfg30.N) : sProp 𝕄 :=
  iprop((dat30 V c).Φ t.castSucc ∗ (dat30 V c).owesAt () t.castSucc
    ∗ (∃ d, owns (c : Thread nD τ) (ms30_0 t) fullShare ((dat30 V c).before 0 t d))
    ∗ (∃ d, owns (c : Thread nD τ) (ms30_1 t) fullShare ((dat30 V c).before 1 t d))
    ∗ (∃ d, owns (c : Thread nD τ) (ms30_2 t) fullShare ((dat30 V c).before 2 t d)))

noncomputable def bodyPost30 (c : Dev nD) (t : Fin cfg30.N) : sProp 𝕄 :=
  iprop((dat30 V c).Φ t.succ ∗ (dat30 V c).owesAt () t.succ
    ∗ (dat30 V c).leavesExact 0 t
    ∗ (dat30 V c).leavesExact 1 t
    ∗ (dat30 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body30 (c : Dev nD) (t : Fin cfg30.N) :
    bodyPre30 V c t ⊢ wp frame (wpE (defs₀ (F := F)) Variants.none c none) Set.univ (bodyAt30 t) (fun _ => bodyPost30 V c t) := by
  unfold bodyPre30 bodyPost30 bodyAt30
  simp only [before30_0, before30_1]
  rw [show (dat30 V c).owesAt () t.succ = (dat30 V c).owesAt () t.castSucc from rfl]
  rw [show (dat30 V c).Φ t.succ = PhiS30 V c (t.val + 1) t.isLt from rfl, PhiS30_succ]
  rw [show (dat30 V c).leavesExact 0 t = owns (c : Thread nD τ) (ms30_0 t) fullShare ((dat30 V c).after 0 t) from by
    unfold Dat.leavesExact; rw [liveAt30_0 t], after30_0]
  rw [show (dat30 V c).leavesExact 1 t = owns (c : Thread nD τ) (ms30_1 t) fullShare ((dat30 V c).after 1 t) from by
    unfold Dat.leavesExact; rw [liveAt30_1 t], after30_1]
  by_cases h0 : t.val % 4 = 0
  · have h3 : ¬t.val % 4 = 3 := by omega
    rw [Dat.leavesExact_idle (dat30 V c) 2 t (idleAt30_2 t (notLast30 t h3)) (noFlush30_2 t (notLast30 t h3))]
    rw [outsAt30_A V c t h0]
    unfold sout30_A; (try dsimp only)
    by_cases hz : t.val = 0
    · rw [PhiS30_castSucc V c t, PhiS30_zero V c _ _ hz, PhiA30_eq]
      iintro ⟨⟨⟨HS0, Hrb⟩, Hg⟩, Ho, ⟨%d0, H0⟩, ⟨%d1, H1⟩, ⟨%d2, H2⟩⟩
      iapply ((kernelRun30_A c (grid30.coords t) _ _ _ _ _ _ _ _ (isFirst30 t h0) (notLast30 t (by omega)) (iblk30 V c 0 t) (iblk30 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover30_A c _ _ _ _ _ _ _ _ _ _ _ _ _)
          iexact Hrb
        iexact Hg
      isplitl [Ho]; · iexact Ho
      isplitl [H0]; · iexact H0
      isplitl [H1]; · iexact H1
      iexists _; iexact H2
    · rw [PhiS30_castSucc V c t, PhiS30_pos V c _ _ hz]
      iintro ⟨⟨⟨HS0, Hrb⟩, Hg⟩, Ho, ⟨%d0, H0⟩, ⟨%d1, H1⟩, ⟨%d2, H2⟩⟩
      iapply ((kernelRun30_A c (grid30.coords t) _ _ _ _ _ _ _ _ (isFirst30 t h0) (notLast30 t (by omega)) (iblk30 V c 0 t) (iblk30 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover30_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat30 V c).leavesExact 2 t = owns (c : Thread nD τ) (ms30_2 t) fullShare ((dat30 V c).after 2 t) from by
        unfold Dat.leavesExact; rw [liveAt30_2 t (isLast30 t h3)], after30_2]
      rw [outsAt30_C V c t h0 h3]
      unfold out30_C sout30_C; (try dsimp only)
      rw [PhiS30_castSucc V c t, PhiS30_pos V c _ _ hz]
      iintro ⟨⟨⟨HS0, Hrb⟩, Hg⟩, Ho, ⟨%d0, H0⟩, ⟨%d1, H1⟩, ⟨%d2, H2⟩⟩
      iapply ((kernelRun30_C c (grid30.coords t) _ _ _ _ _ _ _ _ (notFirst30 t h0) (isLast30 t h3) (iblk30 V c 0 t) (iblk30 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover30_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover30_C c _ _ _ _ _ _ _ _ _ _ _ _ _ _)
    · rw [Dat.leavesExact_idle (dat30 V c) 2 t (idleAt30_2 t (notLast30 t h3)) (noFlush30_2 t (notLast30 t h3))]
      rw [outsAt30_B V c t h0 h3]
      unfold sout30_B; (try dsimp only)
      rw [PhiS30_castSucc V c t, PhiS30_pos V c _ _ hz]
      iintro ⟨⟨⟨HS0, Hrb⟩, Hg⟩, Ho, ⟨%d0, H0⟩, ⟨%d1, H1⟩, ⟨%d2, H2⟩⟩
      iapply ((kernelRun30_B c (grid30.coords t) _ _ _ _ _ _ _ _ (notFirst30 t h0) (notLast30 t h3) (iblk30 V c 0 t) (iblk30 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover30_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation30 (c : Dev nD) : BodyObligation (dat30 (F := F) V c) (defs₀ (F := F)) Variants.none () Set.univ := fun t => by
  rw [bigSep_W30, bigSep_W30]
  exact sound_body30 V c t

/-- What the region is entered with is the invariant before the first point. -/
theorem hin30 (c : Dev nD) : Pipeline.ΦA spec30 c ⊢ (dat30 V c).Φ 0 := by
  rw [show (dat30 V c).Φ 0 = PhiS30 V c 0 (Nat.zero_le _) from rfl, PhiS30_zero V c 0 _ rfl]
  try exact Idealize.SL.BI.Entails.refl _

/-- After the last point the invariant gives the class's back: the accumulator's contents are forgotten. -/
theorem hout30 (c : Dev nD) : (dat30 V c).Φ (Fin.last cfg30.N) ⊢ Pipeline.ΦA spec30 c := by
  have hN : cfg30.N = 16 := N_30
  rw [show (dat30 V c).Φ (Fin.last cfg30.N) = PhiS30 V c (Fin.last cfg30.N).val (Nat.le_of_lt_succ (Fin.last cfg30.N).isLt) from rfl,
    PhiS30_pos V c _ _ (by rw [Fin.val_last]; omega), PhiA30_eq]
  iintro ⟨⟨HS0, Hrb⟩, Hg⟩
  isplitl [HS0 Hrb]
  · isplitl [HS0]
    · iexists _; iexact HS0
    iexact Hrb
  iexact Hg

end Cert.Kernel.Hand

end
-- ==== Proof.RegK31a.lean ====
/- Laid out by: python3 scratch/layout_grid41.py --template-region 0 --region 31 --program Kernel --parts a, --shapes S1024x128=S1024x512,S128x512=S512x512
   from the hand-written text of region 0 (RegKI0a.lean): the same text, the region's number, block shapes and the program's namespace substituted. -/
/- The region of Kernel's @main that runs `cc31__matmul_kernel` (pipeline `cfg31`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond31_0 (i : grid31.Coords) : Prop :=
  (Scalar.cmpi .ne (Scalar.extui (Scalar.cmpi .eq (BitVec.ofNat 32 (i 1).val) 0#32)) 0#32) = 1#1
/-- True at every point: the reduction axis has one step. -/
theorem hcond31_0 : ∀ t : Fin cfg31.N, cond31_0 (grid31.coords t) :=
  (by decide +kernel : ∀ t : Fin grid31.N, cond31_0 (grid31.coords t))

/-- "This is the last reduction step" (the guard of the copy to the output block). -/
abbrev cond31_1 (i : grid31.Coords) : Prop := k31_cond2 i = 1#1
/-- True at every point, for the same reason. -/
theorem hcond31_1 : ∀ t : Fin cfg31.N, cond31_1 (grid31.coords t) :=
  (by decide +kernel : ∀ t : Fin grid31.N, cond31_1 (grid31.coords t))

/-! ## No window is idle anywhere -/

theorem liveAt31_0 : ∀ t : Fin cfg31.N, cfg31.idle 0 (grid31.coords t) = false := by decide +kernel
theorem liveAt31_1 : ∀ t : Fin cfg31.N, cfg31.idle 1 (grid31.coords t) = false := by decide +kernel
/-- The output window is stored at every point (the copy's guard holds everywhere). -/
theorem liveAt31_2 : ∀ t : Fin cfg31.N, cfg31.idle 2 (grid31.coords t) = false := by decide +kernel

/-! ## The memrefs the body is called on -/

/-- One staging buffer of the output window, through which its contents are stated (any whole view of the shape reads the
    same pieces back the same way). -/
abbrev VO31_2 : View sig .tc .vmem S1024x512 .f32 := (Memref.whole cc31_stg2_0 : Memref sig .tc .vmem S1024x512 .f32).view
/-- Each window's current staging memref at point `t`, spelt as the pipeline passes it, with its wholeness. -/
abbrev ms31_0 (t : Fin cfg31.N) : Memref sig .tc .vmem S1024x512 .f32 := win31_0.stage (cfg31.slots t 0)
abbrev hs31_0 (t : Fin cfg31.N) : (ms31_0 t).IsWhole := hstage31_0 ((cfg31.slots t 0).cast nbuf31_0)
abbrev ms31_1 (t : Fin cfg31.N) : Memref sig .tc .vmem S512x512 .bf16 := win31_1.stage (cfg31.slots t 1)
abbrev hs31_1 (t : Fin cfg31.N) : (ms31_1 t).IsWhole := hstage31_1 ((cfg31.slots t 1).cast nbuf31_1)
abbrev ms31_2 (t : Fin cfg31.N) : Memref sig .tc .vmem S1024x512 .f32 := win31_2.stage (cfg31.slots t 2)
abbrev hs31_2 (t : Fin cfg31.N) : (ms31_2 t).IsWhole := hstage31_2 ((cfg31.slots t 2).cast nbuf31_2)
/-- The accumulator: a whole scoped buffer of the kernel's own, passed beside the windows. -/
abbrev scM31_0 : Memref sig .tc .vmem S1024x512 .f32 := Memref.whole cc31_scratch0
abbrev VS31_0 : View sig .tc .vmem S1024x512 .f32 := scM31_0.view

/-- The region invariant with the accumulator taken out of the scoped rest: the accumulator owned at some contents, every
    other scoped buffer unopened, and the generator register. -/
theorem PhiA31_eq (c : Dev nD) :
    (Pipeline.ΦA spec31 c : sProp 𝕄)
      = iprop(iprop(iprop((∃ d, owns (c : Thread nD τ) scM31_0 fullShare d))
            ∗ Pipeline.scopedRestBut (Ix := Unit) (Name := ℕ) (U := UR sig nD τ) (Lvl := ℕ) (Val := Elt F) spec31 c [cc31_scratch0])
          ∗ (∃ r, prngReg c r)) := by
  unfold Pipeline.ΦA; rw [scopedRest31_split]; simp only [scM31_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun31 (c : Dev nD) (i : grid31.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond31_0 i) (hlast : cond31_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc31__matmul_kernel i arg2 harg2 arg3 harg3 arg4 harg4 arg5 harg5) K } := by
  refine ⟨?_, ?_, fun E K => ?run⟩
  case run =>
    simp only [cc31__matmul_kernel_eq_skeleton]; unfold cc31__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.Kernel.Hand

end
-- ==== Proof.RegK31.lean ====
/- Laid out by: python3 scratch/layout_grid41.py --template-region 0 --region 31 --program Kernel --parts a, --shapes S1024x128=S1024x512,S128x512=S512x512
   from the hand-written text of region 0 (RegKI0.lean): the same text, the region's number, block shapes and the program's namespace substituted. -/
/- The region of Kernel's @main that runs `cc31__matmul_kernel` (pipeline `cfg31`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegK31a
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk31 (c : Dev nD) (w : Fin cfg31.W) (t : Fin cfg31.N) : ((cfg31.win w).xblock (cfg31.grid.coords t)).Idx → Elt F (cfg31.win w).elt :=
  ((cfg31.win w).blk t).view.read (Elt F) (V c (Pipeline.arrRef spec31 w))

/-! ## What the case leaves, as pieces read back -/

/-- The output's pieces tile its block (one whole-block store). -/
theorem cover31_2 (c : Dev nD) (i : grid31.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond31_0 i) (hlast : cond31_1 i) (xa : Vec F S1024x512 .f32) (xb : Vec F S512x512 .bf16) (y : S1024x512.Idx) :
    ∃ pc ∈ (kernelRun31 c i arg2 harg2 arg3 harg3 arg4 harg4 arg5 harg5 hfirst hlast xa xb).1, y ∈ pc.1.set :=
  View.cover_of_tiledL (kernelRun31 c i arg2 harg2 arg3 harg3 arg4 harg4 arg5 harg5 hfirst hlast xa xb).1 S1024x512.size (by sl_kernel_rfl) y

/-- What the case leaves in the output's staging buffer: its pieces read back over junk. -/
noncomputable def out31_2 (c : Dev nD) (i : grid31.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond31_0 i) (hlast : cond31_1 i) (xa : Vec F S1024x512 .f32) (xb : Vec F S512x512 .bf16) : Vec F S1024x512 .f32 :=
  VO31_2.read (Elt F) (VO31_2.writes (Elt F) VO31_2.junk (kernelRun31 c i arg2 harg2 arg3 harg3 arg4 harg4 arg5 harg5 hfirst hlast xa xb).1)

/-- What the case leaves in the accumulator: its pieces read back over junk. -/
noncomputable def sout31_0 (c : Dev nD) (i : grid31.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond31_0 i) (hlast : cond31_1 i) (xa : Vec F S1024x512 .f32) (xb : Vec F S512x512 .bf16) : Vec F S1024x512 .f32 :=
  VS31_0.read (Elt F) (VS31_0.writes (Elt F) VS31_0.junk (kernelRun31 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout31_0_eq (c : Dev nD) (i : grid31.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond31_0 i) (hlast : cond31_1 i) (xa : Vec F S1024x512 .f32) (xb : Vec F S512x512 .bf16) :
    sout31_0 c i arg2 harg2 arg3 harg3 arg4 harg4 arg5 harg5 hfirst hlast xa xb = k31_pay2 xa xb (k31_pay1 (F := F)) := by
  unfold sout31_0
  rw [View.read_writes_junk_eq_canon]
  unfold kernelRun31
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out31_2_eq (c : Dev nD) (i : grid31.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond31_0 i) (hlast : cond31_1 i) (xa : Vec F S1024x512 .f32) (xb : Vec F S512x512 .bf16) :
    out31_2 c i arg2 harg2 arg3 harg3 arg4 harg4 arg5 harg5 hfirst hlast xa xb = k31_pay2 xa xb (k31_pay1 (F := F)) := by
  unfold out31_2
  rw [View.read_writes_junk_eq_canon]
  unfold kernelRun31
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt31 (c : Dev nD) (n : ℕ) (hn : n < cfg31.N) : Vec F S1024x512 .f32 × Vec F S1024x512 .f32 :=
  (out31_2 c (grid31.coords ⟨n, hn⟩) (ms31_0 ⟨n, hn⟩) (hs31_0 ⟨n, hn⟩) (ms31_1 ⟨n, hn⟩) (hs31_1 ⟨n, hn⟩) (ms31_2 ⟨n, hn⟩) (hs31_2 ⟨n, hn⟩) scM31_0 (Memref.isWhole_whole _)
      (hcond31_0 ⟨n, hn⟩) (hcond31_1 ⟨n, hn⟩) (iblk31 V c 0 ⟨n, hn⟩) (iblk31 V c 1 ⟨n, hn⟩),
   sout31_0 c (grid31.coords ⟨n, hn⟩) (ms31_0 ⟨n, hn⟩) (hs31_0 ⟨n, hn⟩) (ms31_1 ⟨n, hn⟩) (hs31_1 ⟨n, hn⟩) (ms31_2 ⟨n, hn⟩) (hs31_2 ⟨n, hn⟩) scM31_0 (Memref.isWhole_whole _)
      (hcond31_0 ⟨n, hn⟩) (hcond31_1 ⟨n, hn⟩) (iblk31 V c 0 ⟨n, hn⟩) (iblk31 V c 1 ⟨n, hn⟩))

/-- Every point is a first reduction step: the accumulator after it is one product onto zero. -/
theorem outsAt31_first (c : Dev nD) (t : Fin cfg31.N) :
    (outsAt31 V c t.val t.isLt).2 = k31_pay2 (iblk31 V c 0 t) (iblk31 V c 1 t) (k31_pay1 (F := F)) := by
  obtain ⟨n, hn⟩ := t
  unfold outsAt31
  dsimp only
  rw [sout31_0_eq]

/-- Every point is a last reduction step: the output block after it is the accumulator. -/
theorem outsAt31_last (c : Dev nD) (t : Fin cfg31.N) :
    (outsAt31 V c t.val t.isLt).1 = (outsAt31 V c t.val t.isLt).2 := by
  obtain ⟨n, hn⟩ := t
  unfold outsAt31
  dsimp only
  rw [out31_2_eq, sout31_0_eq]

/-! ## The pipeline's proof data -/

/-- The proof data of the pipeline on core `c`: the arrays as the region finds them; after the body at point `t` each input's
    buffer at its block and the output's at `outsAt31`'s first component; the invariant the same at every point; nothing owed;
    full shares. -/
noncomputable def dat31 (c : Dev nD) : Dat τ (Elt F) Unit ℕ (UR sig nD τ) ℕ cfg31 c where
  A w := V c (Pipeline.arrRef spec31 w)
  after w t := match w with
    | ⟨0, _⟩ => iblk31 V c 0 t
    | ⟨1, _⟩ => iblk31 V c 1 t
    | ⟨2, _⟩ => (outsAt31 V c t.val t.isLt).1
  Φ _ := Pipeline.ΦA spec31 c
  q _ := fullShare
  owed _ := 0

theorem A_eq31 (c : Dev nD) (w : Fin cfg31.W) : (dat31 V c).A w = V c (Pipeline.arrRef spec31 w) := by
  dsimp only [dat31]

theorem after31_0 (c : Dev nD) (t : Fin cfg31.N) : (dat31 V c).after 0 t = iblk31 V c 0 t := by dsimp only [dat31]
theorem after31_1 (c : Dev nD) (t : Fin cfg31.N) : (dat31 V c).after 1 t = iblk31 V c 1 t := by dsimp only [dat31]
theorem after31_2 (c : Dev nD) (t : Fin cfg31.N) : (dat31 V c).after 2 t = (outsAt31 V c t.val t.isLt).1 := by dsimp only [dat31]

/-- An input's current staging buffer holds its block at every point, fetched there or not: where it is not fetched its block
    index has not moved since the point before, and the body left the block in place. -/
theorem before31_0 (c : Dev nD) (t : Fin cfg31.N) (d) : (dat31 V c).before 0 t d = iblk31 V c 0 t :=
  ((dat31 V c).before_in_eq_fetched 0 rfl (fun _ => rfl) (fun _ _ _ => rfl)
      (fun t => by rw [after31_0]; unfold Dat.blockOf iblk31; rw [A_eq31]; try rfl) t d).trans
    (by unfold Dat.fetched Dat.blockOf iblk31; rw [A_eq31]; try rfl)
theorem before31_1 (c : Dev nD) (t : Fin cfg31.N) (d) : (dat31 V c).before 1 t d = iblk31 V c 1 t :=
  ((dat31 V c).before_in_eq_fetched 1 rfl (fun _ => rfl) (fun _ _ _ => rfl)
      (fun t => by rw [after31_1]; unfold Dat.blockOf iblk31; rw [A_eq31]; try rfl) t d).trans
    (by unfold Dat.fetched Dat.blockOf iblk31; rw [A_eq31]; try rfl)

/-! ## The body obligation, at a generic point -/

/-- What the body is called with at point `t`, the windows one by one, -/
noncomputable def bodyPre31 (c : Dev nD) (t : Fin cfg31.N) : sProp 𝕄 :=
  iprop((dat31 V c).Φ t.castSucc ∗ (dat31 V c).owesAt () t.castSucc
    ∗ (∃ d, owns (c : Thread nD τ) (ms31_0 t) fullShare ((dat31 V c).before 0 t d))
    ∗ (∃ d, owns (c : Thread nD τ) (ms31_1 t) fullShare ((dat31 V c).before 1 t d))
    ∗ (∃ d, owns (c : Thread nD τ) (ms31_2 t) fullShare ((dat31 V c).before 2 t d)))

/-- and what it returns. -/
noncomputable def bodyPost31 (c : Dev nD) (t : Fin cfg31.N) : sProp 𝕄 :=
  iprop((dat31 V c).Φ t.succ ∗ (dat31 V c).owesAt () t.succ
    ∗ (dat31 V c).leavesExact 0 t
    ∗ (dat31 V c).leavesExact 1 t
    ∗ (dat31 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body31 (c : Dev nD) (t : Fin cfg31.N) :
    bodyPre31 V c t ⊢ wp frame (wpE (defs₀ (F := F)) Variants.none c none) Set.univ (bodyAt31 t) (fun _ => bodyPost31 V c t) := by
  unfold bodyPre31 bodyPost31 bodyAt31
  simp only [before31_0, before31_1]
  rw [show (dat31 V c).owesAt () t.succ = (dat31 V c).owesAt () t.castSucc from rfl,
    show (dat31 V c).Φ t.succ = Pipeline.ΦA spec31 c from rfl, show (dat31 V c).Φ t.castSucc = Pipeline.ΦA spec31 c from rfl, PhiA31_eq]
  rw [show (dat31 V c).leavesExact 0 t = owns (c : Thread nD τ) (ms31_0 t) fullShare ((dat31 V c).after 0 t) from by
      unfold Dat.leavesExact; rw [liveAt31_0 t], after31_0]
  rw [show (dat31 V c).leavesExact 1 t = owns (c : Thread nD τ) (ms31_1 t) fullShare ((dat31 V c).after 1 t) from by
      unfold Dat.leavesExact; rw [liveAt31_1 t], after31_1]
  rw [show (dat31 V c).leavesExact 2 t = owns (c : Thread nD τ) (ms31_2 t) fullShare ((dat31 V c).after 2 t) from by
      unfold Dat.leavesExact; rw [liveAt31_2 t], after31_2]
  unfold outsAt31 out31_2; (try dsimp only)
  iintro ⟨⟨⟨Hacc, Hrest⟩, Hgen⟩, Howe, ⟨%da, Ha⟩, ⟨%db, Hb⟩, ⟨%dO, Hout⟩⟩
  iapply ((kernelRun31 c (grid31.coords t) _ _ _ _ _ _ _ _ (hcond31_0 t) (hcond31_1 t) (iblk31 V c 0 t) (iblk31 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover31_2 c _ _ _ _ _ _ _ _ _ _ _ _ _)

/-- The library's body obligation, at every point. -/
theorem body_obligation31 (c : Dev nD) : BodyObligation (dat31 (F := F) V c) (defs₀ (F := F)) Variants.none () Set.univ := fun t => by
  rw [bigSep_W31, bigSep_W31]
  exact sound_body31 V c t

/-- What the launch hands the region is the invariant before the first point, -/
theorem hin31 (c : Dev nD) : Pipeline.ΦA spec31 c ⊢ (dat31 V c).Φ 0 := Idealize.SL.BI.Entails.refl _

/-- and the invariant after the last point is what the launch takes back. -/
theorem hout31 (c : Dev nD) : (dat31 V c).Φ (Fin.last cfg31.N) ⊢ Pipeline.ΦA spec31 c := Idealize.SL.BI.Entails.refl _

end Cert.Kernel.Hand

end
-- ==== Proof.RegK32a.lean ====
/- Laid out by: python3 scratch/layout_regions.py --template-region 1 --region 32 --program Kernel --parts a,b,c, --out-dir proof/Proof
   from the hand-written text of region 1 (RegKI1a.lean): the same text, the region's number and the program's namespace substituted. -/
/-
  Region 32 of @main (custom_call 32): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond32_0 (i : grid32.Coords) : Prop := (Scalar.cmpi .ne (Scalar.extui (Scalar.cmpi .eq (BitVec.ofNat 32 (i 1).val) 0#32)) 0#32) = 1#1
/-- It holds exactly at the points with t % 4 = 0. -/
theorem hcond32_0 : ∀ t : Fin cfg32.N, cond32_0 (grid32.coords t) ↔ t.val % 4 = 0 :=
  (by decide +kernel : ∀ t : Fin grid32.N, cond32_0 (grid32.coords t) ↔ t.val % 4 = 0)

/-- "k = 3": the second conditional's test. -/
abbrev cond32_1 (i : grid32.Coords) : Prop := k32_cond2 i = 1#1
/-- It holds exactly at the points with t % 4 = 3. -/
theorem hcond32_1 : ∀ t : Fin cfg32.N, cond32_1 (grid32.coords t) ↔ t.val % 4 = 3 :=
  (by decide +kernel : ∀ t : Fin grid32.N, cond32_1 (grid32.coords t) ↔ t.val % 4 = 3)

/-! ## Where the windows are idle, and where the output is written back -/

/-- The two input windows are never idle. -/
theorem liveAt32_0 : ∀ t : Fin cfg32.N, cfg32.idle 0 (grid32.coords t) = false := by decide +kernel
theorem liveAt32_1 : ∀ t : Fin cfg32.N, cfg32.idle 1 (grid32.coords t) = false := by decide +kernel
/-- Where k ≠ 3 the output window is idle (the body stores nothing into it) and is not written back. -/
theorem idleAt32_2 : ∀ t : Fin cfg32.N, ¬cond32_1 (grid32.coords t) → cfg32.idle 2 (grid32.coords t) = true := by decide +kernel
theorem noFlush32_2 : ∀ t : Fin cfg32.N, ¬cond32_1 (grid32.coords t) → (cfg32.win 2).flush t = false := by decide +kernel
/-- Where k = 3 it is live. -/
theorem liveAt32_2 : ∀ t : Fin cfg32.N, cond32_1 (grid32.coords t) → cfg32.idle 2 (grid32.coords t) = false := by decide +kernel

/-! ## The staging memrefs at a point, and the scratch -/

/-- One staging buffer of the output window, through which its contents are stated. -/
abbrev VO32_2 : View sig .tc .vmem S1024x512 .f32 := (Memref.whole cc32_stg2_0 : Memref sig .tc .vmem S1024x512 .f32).view
abbrev ms32_0 (t : Fin cfg32.N) : Memref sig .tc .vmem S1024x1024 .bf16 := win32_0.stage (cfg32.slots t 0)
abbrev hs32_0 (t : Fin cfg32.N) : (ms32_0 t).IsWhole := hstage32_0 ((cfg32.slots t 0).cast nbuf32_0)
abbrev ms32_1 (t : Fin cfg32.N) : Memref sig .tc .vmem S1024x512 .f32 := win32_1.stage (cfg32.slots t 1)
abbrev hs32_1 (t : Fin cfg32.N) : (ms32_1 t).IsWhole := hstage32_1 ((cfg32.slots t 1).cast nbuf32_1)
abbrev ms32_2 (t : Fin cfg32.N) : Memref sig .tc .vmem S1024x512 .f32 := win32_2.stage (cfg32.slots t 2)
abbrev hs32_2 (t : Fin cfg32.N) : (ms32_2 t).IsWhole := hstage32_2 ((cfg32.slots t 2).cast nbuf32_2)
/-- The accumulator: a whole scoped buffer of the kernel's own. -/
abbrev scM32 : Memref sig .tc .vmem S1024x512 .f32 := Memref.whole cc32_scratch0
abbrev VS32 : View sig .tc .vmem S1024x512 .f32 := scM32.view

/-- The other scoped buffers of the core, none of which this region touches. -/
abbrev restBut32 (c : Dev nD) : sProp 𝕄 :=
  Pipeline.scopedRestBut (Ix := Unit) (Name := ℕ) (U := UR sig nD τ) (Lvl := ℕ) (Val := Elt F) spec32 c [cc32_scratch0]

/-- The region's invariant before its first point: the accumulator at something, the other scoped buffers, the generator register. -/
theorem PhiA32_eq (c : Dev nD) :
    (Pipeline.ΦA spec32 c : sProp 𝕄)
      = iprop(iprop((∃ d, owns (c : Thread nD τ) scM32 fullShare d) ∗ restBut32 c) ∗ (∃ r, prngReg c r)) := by
  unfold Pipeline.ΦA; rw [scopedRest32_split]; simp only [scM32, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun32_A (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond32_0 i) (hc1 : ¬cond32_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc32__matmul_kernel i arg2 harg2 arg3 harg3 arg4 harg4 arg5 harg5) K } := by
  refine ⟨[], ?_, fun xi2 E K => ?run⟩
  case run =>
    simp only [cc32__matmul_kernel_eq_skeleton]; unfold cc32__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK32b.lean ====
/- Laid out by: python3 scratch/layout_regions.py --template-region 1 --region 32 --program Kernel --parts a,b,c, --out-dir proof/Proof
   from the hand-written text of region 1 (RegKI1b.lean): the same text, the region's number and the program's namespace substituted. -/
/-
  Region 32, case B (k = 1, 2): the body's run. Neither conditional is taken: the product of the two blocks is added to what
  the point before left in the accumulator; the output block is not touched.
-/
import proofs.«158944_j64613488001249_1_alg».proof.Proof.RegK32a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun32_B (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond32_0 i) (hc1 : ¬cond32_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc32__matmul_kernel i arg2 harg2 arg3 harg3 arg4 harg4 arg5 harg5) K } := by
  refine ⟨[], ?_, fun xi2 E K => ?run⟩
  case run =>
    simp only [cc32__matmul_kernel_eq_skeleton]; unfold cc32__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK32c.lean ====
/- Laid out by: python3 scratch/layout_regions.py --template-region 1 --region 32 --program Kernel --parts a,b,c, --out-dir proof/Proof
   from the hand-written text of region 1 (RegKI1c.lean): the same text, the region's number and the program's namespace substituted. -/
/-
  Region 32, case C (k = 3): the body's run. The product is added to the accumulator as in case B, and then the second
  conditional copies the accumulator over the whole output block.
-/
import proofs.«158944_j64613488001249_1_alg».proof.Proof.RegK32b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun32_C (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond32_0 i) (hc1 : cond32_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc32__matmul_kernel i arg2 harg2 arg3 harg3 arg4 harg4 arg5 harg5) K } := by
  refine ⟨?_, ?_, fun E K => ?run⟩
  case run =>
    simp only [cc32__matmul_kernel_eq_skeleton]; unfold cc32__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK32.lean ====
/- Laid out by: python3 scratch/layout_regions.py --template-region 1 --region 32 --program Kernel --parts a,b,c, --out-dir proof/Proof
   from the hand-written text of region 1 (RegKI1.lean): the same text, the region's number and the program's namespace substituted. -/
/-
  Region 32 of @main, entered from the buffer contents `V`: what its windows' blocks are, what each case of the body leaves in
  the accumulator and in the output block, the accumulator and the output block point by point (`outsAt32`: at k = 0 the
  accumulator restarts from zeros plus the product; at k = 1, 2, 3 it is the point before's plus the product; at k = 3 the
  output block is the accumulator), the region's invariant (the accumulator at `outsAt32`'s second component), the proof data,
  and the body's obligation at every point.
-/
import proofs.«158944_j64613488001249_1_alg».proof.Proof.RegK32c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk32 (c : Dev nD) (w : Fin cfg32.W) (t : Fin cfg32.N) : ((cfg32.win w).xblock (cfg32.grid.coords t)).Idx → Elt F (cfg32.win w).elt :=
  ((cfg32.win w).blk t).view.read (Elt F) (V c (Pipeline.arrRef spec32 w))

/-- An input window's current staging buffer holds its block at every point, for any proof data whose array is `V`'s and
    whose body leaves the block in place. -/
theorem before32_0_of {c : Dev nD} (dat : Dat τ (Elt F) Unit ℕ (UR sig nD τ) ℕ cfg32 c) (hA : dat.A 0 = V c (Pipeline.arrRef spec32 0))
    (hafter : ∀ t, dat.after 0 t = iblk32 V c 0 t) (t : Fin cfg32.N) (d) : dat.before 0 t d = iblk32 V c 0 t :=
  (dat.before_in_eq_fetched 0 rfl (fun _ => rfl) (fun _ _ _ => rfl) (fun t => by rw [hafter]; unfold Dat.blockOf iblk32; rw [hA]; try rfl) t d).trans
    (by unfold Dat.fetched Dat.blockOf iblk32; rw [hA]; try rfl)
theorem before32_1_of {c : Dev nD} (dat : Dat τ (Elt F) Unit ℕ (UR sig nD τ) ℕ cfg32 c) (hA : dat.A 1 = V c (Pipeline.arrRef spec32 1))
    (hafter : ∀ t, dat.after 1 t = iblk32 V c 1 t) (t : Fin cfg32.N) (d) : dat.before 1 t d = iblk32 V c 1 t :=
  (dat.before_in_eq_fetched 1 rfl (fun _ => rfl) (fun _ _ _ => rfl) (fun t => by rw [hafter]; unfold Dat.blockOf iblk32; rw [hA]; try rfl) t d).trans
    (by unfold Dat.fetched Dat.blockOf iblk32; rw [hA]; try rfl)

/-! ## What each case leaves -/

/-- Case A's stores into the accumulator cover it. -/
theorem scover32_A (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond32_0 i) (hc1 : ¬cond32_1 i)
    (x0 : Vec F S1024x1024 .bf16) (x1 : Vec F S1024x512 .f32) (y : S1024x512.Idx) :
    ∃ pc ∈ (kernelRun32_A c i arg2 harg2 arg3 harg3 arg4 harg4 arg5 harg5 hc0 hc1 x0 x1).2.1, y ∈ pc.1.set :=
  View.cover_of_tiledL (kernelRun32_A c i arg2 harg2 arg3 harg3 arg4 harg4 arg5 harg5 hc0 hc1 x0 x1).2.1 S1024x512.size (by sl_kernel_rfl) y
/-- What case A leaves in the accumulator. -/
noncomputable def sout32_A (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond32_0 i) (hc1 : ¬cond32_1 i)
    (x0 : Vec F S1024x1024 .bf16) (x1 : Vec F S1024x512 .f32) : Vec F S1024x512 .f32 :=
  VS32.read (Elt F) (VS32.writes (Elt F) VS32.junk (kernelRun32_A c i arg2 harg2 arg3 harg3 arg4 harg4 arg5 harg5 hc0 hc1 x0 x1).2.1)

/-- Case B's store into the accumulator covers it. -/
theorem scover32_B (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond32_0 i) (hc1 : ¬cond32_1 i)
    (x0 : Vec F S1024x1024 .bf16) (x1 : Vec F S1024x512 .f32) (xs0 : Vec F S1024x512 .f32) (y : S1024x512.Idx) :
    ∃ pc ∈ (kernelRun32_B c i arg2 harg2 arg3 harg3 arg4 harg4 arg5 harg5 hc0 hc1 x0 x1 xs0).2.1, y ∈ pc.1.set :=
  View.cover_of_tiledL (kernelRun32_B c i arg2 harg2 arg3 harg3 arg4 harg4 arg5 harg5 hc0 hc1 x0 x1 xs0).2.1 S1024x512.size (by sl_kernel_rfl) y
/-- What case B leaves in the accumulator, over what the point before left. -/
noncomputable def sout32_B (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond32_0 i) (hc1 : ¬cond32_1 i)
    (x0 : Vec F S1024x1024 .bf16) (x1 : Vec F S1024x512 .f32) (xs0 : Vec F S1024x512 .f32) : Vec F S1024x512 .f32 :=
  VS32.read (Elt F) (VS32.writes (Elt F) VS32.junk (kernelRun32_B c i arg2 harg2 arg3 harg3 arg4 harg4 arg5 harg5 hc0 hc1 x0 x1 xs0).2.1)

/-- Case C's store into the output block covers it, and so does its store into the accumulator. -/
theorem cover32_C (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond32_0 i) (hc1 : cond32_1 i)
    (x0 : Vec F S1024x1024 .bf16) (x1 : Vec F S1024x512 .f32) (xs0 : Vec F S1024x512 .f32) (y : S1024x512.Idx) :
    ∃ pc ∈ (kernelRun32_C c i arg2 harg2 arg3 harg3 arg4 harg4 arg5 harg5 hc0 hc1 x0 x1 xs0).1, y ∈ pc.1.set :=
  View.cover_of_tiledL (kernelRun32_C c i arg2 harg2 arg3 harg3 arg4 harg4 arg5 harg5 hc0 hc1 x0 x1 xs0).1 S1024x512.size (by sl_kernel_rfl) y
theorem scover32_C (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond32_0 i) (hc1 : cond32_1 i)
    (x0 : Vec F S1024x1024 .bf16) (x1 : Vec F S1024x512 .f32) (xs0 : Vec F S1024x512 .f32) (y : S1024x512.Idx) :
    ∃ pc ∈ (kernelRun32_C c i arg2 harg2 arg3 harg3 arg4 harg4 arg5 harg5 hc0 hc1 x0 x1 xs0).2.1, y ∈ pc.1.set :=
  View.cover_of_tiledL (kernelRun32_C c i arg2 harg2 arg3 harg3 arg4 harg4 arg5 harg5 hc0 hc1 x0 x1 xs0).2.1 S1024x512.size (by sl_kernel_rfl) y
/-- What case C leaves in the output block, and in the accumulator. -/
noncomputable def out32_C (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond32_0 i) (hc1 : cond32_1 i)
    (x0 : Vec F S1024x1024 .bf16) (x1 : Vec F S1024x512 .f32) (xs0 : Vec F S1024x512 .f32) : Vec F S1024x512 .f32 :=
  VO32_2.read (Elt F) (VO32_2.writes (Elt F) VO32_2.junk (kernelRun32_C c i arg2 harg2 arg3 harg3 arg4 harg4 arg5 harg5 hc0 hc1 x0 x1 xs0).1)
noncomputable def sout32_C (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond32_0 i) (hc1 : cond32_1 i)
    (x0 : Vec F S1024x1024 .bf16) (x1 : Vec F S1024x512 .f32) (xs0 : Vec F S1024x512 .f32) : Vec F S1024x512 .f32 :=
  VS32.read (Elt F) (VS32.writes (Elt F) VS32.junk (kernelRun32_C c i arg2 harg2 arg3 harg3 arg4 harg4 arg5 harg5 hc0 hc1 x0 x1 xs0).2.1)

/-- Where the output block is idle nothing consults what it holds: a placeholder. -/
noncomputable def outIdle32 : Vec F S1024x512 .f32 := VO32_2.read (Elt F) (VO32_2.writes (Elt F) VO32_2.junk [])

/-! ## The conditions at a point, from t % 4 -/

theorem isFirst32 (t : Fin cfg32.N) (h : t.val % 4 = 0) : cond32_0 (grid32.coords t) := (hcond32_0 t).mpr h
theorem notFirst32 (t : Fin cfg32.N) (h : ¬t.val % 4 = 0) : ¬cond32_0 (grid32.coords t) := fun hc => h ((hcond32_0 t).mp hc)
theorem isLast32 (t : Fin cfg32.N) (h : t.val % 4 = 3) : cond32_1 (grid32.coords t) := (hcond32_1 t).mpr h
theorem notLast32 (t : Fin cfg32.N) (h : ¬t.val % 4 = 3) : ¬cond32_1 (grid32.coords t) := fun hc => h ((hcond32_1 t).mp hc)

/-! ## The accumulator and the output block, point by point -/

/-- After the body at position `n`: (the output block's buffer, the accumulator). -/
noncomputable def outsAt32 (c : Dev nD) : (n : ℕ) → n < cfg32.N → Vec F S1024x512 .f32 × Vec F S1024x512 .f32
  | 0, hn => (outIdle32, sout32_A c (grid32.coords ⟨0, hn⟩) (ms32_0 ⟨0, hn⟩) (hs32_0 ⟨0, hn⟩) (ms32_1 ⟨0, hn⟩) (hs32_1 ⟨0, hn⟩) (ms32_2 ⟨0, hn⟩) (hs32_2 ⟨0, hn⟩) scM32 (Memref.isWhole_whole _) (isFirst32 ⟨0, hn⟩ (Nat.zero_mod _)) (notLast32 ⟨0, hn⟩ (by simp)) (iblk32 V c 0 ⟨0, hn⟩) (iblk32 V c 1 ⟨0, hn⟩))
  | n + 1, hn =>
    if h0 : (n + 1) % 4 = 0 then
      (outIdle32, sout32_A c (grid32.coords ⟨n + 1, hn⟩) (ms32_0 ⟨n + 1, hn⟩) (hs32_0 ⟨n + 1, hn⟩) (ms32_1 ⟨n + 1, hn⟩) (hs32_1 ⟨n + 1, hn⟩) (ms32_2 ⟨n + 1, hn⟩) (hs32_2 ⟨n + 1, hn⟩) scM32 (Memref.isWhole_whole _) (isFirst32 ⟨n + 1, hn⟩ h0) (notLast32 ⟨n + 1, hn⟩ (by show ¬(n + 1) % 4 = 3; omega)) (iblk32 V c 0 ⟨n + 1, hn⟩) (iblk32 V c 1 ⟨n + 1, hn⟩))
    else if h3 : (n + 1) % 4 = 3 then
      (out32_C c (grid32.coords ⟨n + 1, hn⟩) (ms32_0 ⟨n + 1, hn⟩) (hs32_0 ⟨n + 1, hn⟩) (ms32_1 ⟨n + 1, hn⟩) (hs32_1 ⟨n + 1, hn⟩) (ms32_2 ⟨n + 1, hn⟩) (hs32_2 ⟨n + 1, hn⟩) scM32 (Memref.isWhole_whole _) (notFirst32 ⟨n + 1, hn⟩ h0) (isLast32 ⟨n + 1, hn⟩ h3) (iblk32 V c 0 ⟨n + 1, hn⟩) (iblk32 V c 1 ⟨n + 1, hn⟩) (outsAt32 c n (Nat.lt_of_succ_lt hn)).2,
       sout32_C c (grid32.coords ⟨n + 1, hn⟩) (ms32_0 ⟨n + 1, hn⟩) (hs32_0 ⟨n + 1, hn⟩) (ms32_1 ⟨n + 1, hn⟩) (hs32_1 ⟨n + 1, hn⟩) (ms32_2 ⟨n + 1, hn⟩) (hs32_2 ⟨n + 1, hn⟩) scM32 (Memref.isWhole_whole _) (notFirst32 ⟨n + 1, hn⟩ h0) (isLast32 ⟨n + 1, hn⟩ h3) (iblk32 V c 0 ⟨n + 1, hn⟩) (iblk32 V c 1 ⟨n + 1, hn⟩) (outsAt32 c n (Nat.lt_of_succ_lt hn)).2)
    else
      (outIdle32, sout32_B c (grid32.coords ⟨n + 1, hn⟩) (ms32_0 ⟨n + 1, hn⟩) (hs32_0 ⟨n + 1, hn⟩) (ms32_1 ⟨n + 1, hn⟩) (hs32_1 ⟨n + 1, hn⟩) (ms32_2 ⟨n + 1, hn⟩) (hs32_2 ⟨n + 1, hn⟩) scM32 (Memref.isWhole_whole _) (notFirst32 ⟨n + 1, hn⟩ h0) (notLast32 ⟨n + 1, hn⟩ h3) (iblk32 V c 0 ⟨n + 1, hn⟩) (iblk32 V c 1 ⟨n + 1, hn⟩) (outsAt32 c n (Nat.lt_of_succ_lt hn)).2)

/-- `outsAt32` at a point with k = 0. -/
theorem outsAt32_A (c : Dev nD) (t : Fin cfg32.N) (h0 : t.val % 4 = 0) :
    outsAt32 V c t.val t.isLt = (outIdle32, sout32_A c (grid32.coords t) (ms32_0 t) (hs32_0 t) (ms32_1 t) (hs32_1 t) (ms32_2 t) (hs32_2 t) scM32 (Memref.isWhole_whole _) (isFirst32 t h0) (notLast32 t (by omega)) (iblk32 V c 0 t) (iblk32 V c 1 t)) := by
  obtain ⟨n, hn⟩ := t
  cases n with
  | zero => rfl
  | succ n => exact (dif_pos h0).trans rfl

/-- `outsAt32` at a point with k = 1, 2: over what the point before left. -/
theorem outsAt32_B (c : Dev nD) (t : Fin cfg32.N) (h0 : ¬t.val % 4 = 0) (h3 : ¬t.val % 4 = 3) :
    outsAt32 V c t.val t.isLt = (outIdle32, sout32_B c (grid32.coords t) (ms32_0 t) (hs32_0 t) (ms32_1 t) (hs32_1 t) (ms32_2 t) (hs32_2 t) scM32 (Memref.isWhole_whole _) (notFirst32 t h0) (notLast32 t h3) (iblk32 V c 0 t) (iblk32 V c 1 t)
      (outsAt32 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt32` at a point with k = 3. -/
theorem outsAt32_C (c : Dev nD) (t : Fin cfg32.N) (h0 : ¬t.val % 4 = 0) (h3 : t.val % 4 = 3) :
    outsAt32 V c t.val t.isLt = (out32_C c (grid32.coords t) (ms32_0 t) (hs32_0 t) (ms32_1 t) (hs32_1 t) (ms32_2 t) (hs32_2 t) scM32 (Memref.isWhole_whole _) (notFirst32 t h0) (isLast32 t h3) (iblk32 V c 0 t) (iblk32 V c 1 t)
        (outsAt32 V c (t.val - 1) (Nat.lt_of_le_of_lt (Nat.sub_le _ _) t.isLt)).2,
      sout32_C c (grid32.coords t) (ms32_0 t) (hs32_0 t) (ms32_1 t) (hs32_1 t) (ms32_2 t) (hs32_2 t) scM32 (Memref.isWhole_whole _) (notFirst32 t h0) (isLast32 t h3) (iblk32 V c 0 t) (iblk32 V c 1 t)
        (outsAt32 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS32 (c : Dev nD) : (n : ℕ) → n ≤ cfg32.N → sProp 𝕄
  | 0, _ => Pipeline.ΦA spec32 c
  | n + 1, hn => iprop(iprop(owns (c : Thread nD τ) scM32 fullShare ((outsAt32 V c n hn).2) ∗ restBut32 c) ∗ (∃ r, prngReg c r))

theorem PhiS32_zero (c : Dev nD) (n : ℕ) (h : n ≤ cfg32.N) (hz : n = 0) : PhiS32 V c n h = Pipeline.ΦA spec32 c := by
  subst hz; rfl
theorem PhiS32_succ (c : Dev nD) (n : ℕ) (hn : n < cfg32.N) :
    PhiS32 V c (n + 1) hn = iprop(iprop(owns (c : Thread nD τ) scM32 fullShare ((outsAt32 V c n hn).2) ∗ restBut32 c) ∗ (∃ r, prngReg c r)) := rfl
theorem PhiS32_pos (c : Dev nD) (n : ℕ) (h : n ≤ cfg32.N) (hz : n ≠ 0) :
    PhiS32 V c n h = iprop(iprop(owns (c : Thread nD τ) scM32 fullShare ((outsAt32 V c (n - 1) (by omega)).2) ∗ restBut32 c) ∗ (∃ r, prngReg c r)) := by
  cases n with
  | zero => exact absurd rfl hz
  | succ n => rfl

/-! ## The proof data -/

/-- The region's proof data on core `c`: the arrays as the region finds them; after the body at point `t` each input's
    buffer at its block and the output's at `outsAt32`'s first component; the invariant `PhiS32`; nothing owed; full shares. -/
noncomputable def dat32 (c : Dev nD) : Dat τ (Elt F) Unit ℕ (UR sig nD τ) ℕ cfg32 c where
  A w := V c (Pipeline.arrRef spec32 w)
  after w t := match w with
    | ⟨0, _⟩ => iblk32 V c 0 t
    | ⟨1, _⟩ => iblk32 V c 1 t
    | ⟨2, _⟩ => (outsAt32 V c t.val t.isLt).1
  Φ t := PhiS32 V c t.val (Nat.le_of_lt_succ t.isLt)
  q _ := fullShare
  owed _ := 0

theorem A_eq32 (c : Dev nD) (w : Fin cfg32.W) : (dat32 V c).A w = V c (Pipeline.arrRef spec32 w) := by
  dsimp only [dat32]
theorem PhiS32_castSucc (c : Dev nD) (t : Fin cfg32.N) :
    (dat32 V c).Φ t.castSucc = PhiS32 V c t.val (Nat.le_of_lt t.isLt) := by
  dsimp only [dat32]; simp only [Fin.coe_castSucc]
theorem after32_0 (c : Dev nD) (t : Fin cfg32.N) : (dat32 V c).after 0 t = iblk32 V c 0 t := by dsimp only [dat32]
theorem after32_1 (c : Dev nD) (t : Fin cfg32.N) : (dat32 V c).after 1 t = iblk32 V c 1 t := by dsimp only [dat32]
theorem after32_2 (c : Dev nD) (t : Fin cfg32.N) : (dat32 V c).after 2 t = (outsAt32 V c t.val t.isLt).1 := by dsimp only [dat32]
theorem before32_0 (c : Dev nD) (t : Fin cfg32.N) (d) : (dat32 V c).before 0 t d = iblk32 V c 0 t :=
  before32_0_of V (dat32 V c) (A_eq32 V c 0) (after32_0 V c) t d
theorem before32_1 (c : Dev nD) (t : Fin cfg32.N) (d) : (dat32 V c).before 1 t d = iblk32 V c 1 t :=
  before32_1_of V (dat32 V c) (A_eq32 V c 1) (after32_1 V c) t d

/-! ## The body's obligation -/

noncomputable def bodyPre32 (c : Dev nD) (t : Fin cfg32.N) : sProp 𝕄 :=
  iprop((dat32 V c).Φ t.castSucc ∗ (dat32 V c).owesAt () t.castSucc
    ∗ (∃ d, owns (c : Thread nD τ) (ms32_0 t) fullShare ((dat32 V c).before 0 t d))
    ∗ (∃ d, owns (c : Thread nD τ) (ms32_1 t) fullShare ((dat32 V c).before 1 t d))
    ∗ (∃ d, owns (c : Thread nD τ) (ms32_2 t) fullShare ((dat32 V c).before 2 t d)))

noncomputable def bodyPost32 (c : Dev nD) (t : Fin cfg32.N) : sProp 𝕄 :=
  iprop((dat32 V c).Φ t.succ ∗ (dat32 V c).owesAt () t.succ
    ∗ (dat32 V c).leavesExact 0 t
    ∗ (dat32 V c).leavesExact 1 t
    ∗ (dat32 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body32 (c : Dev nD) (t : Fin cfg32.N) :
    bodyPre32 V c t ⊢ wp frame (wpE (defs₀ (F := F)) Variants.none c none) Set.univ (bodyAt32 t) (fun _ => bodyPost32 V c t) := by
  unfold bodyPre32 bodyPost32 bodyAt32
  simp only [before32_0, before32_1]
  rw [show (dat32 V c).owesAt () t.succ = (dat32 V c).owesAt () t.castSucc from rfl]
  rw [show (dat32 V c).Φ t.succ = PhiS32 V c (t.val + 1) t.isLt from rfl, PhiS32_succ]
  rw [show (dat32 V c).leavesExact 0 t = owns (c : Thread nD τ) (ms32_0 t) fullShare ((dat32 V c).after 0 t) from by
    unfold Dat.leavesExact; rw [liveAt32_0 t], after32_0]
  rw [show (dat32 V c).leavesExact 1 t = owns (c : Thread nD τ) (ms32_1 t) fullShare ((dat32 V c).after 1 t) from by
    unfold Dat.leavesExact; rw [liveAt32_1 t], after32_1]
  by_cases h0 : t.val % 4 = 0
  · have h3 : ¬t.val % 4 = 3 := by omega
    rw [Dat.leavesExact_idle (dat32 V c) 2 t (idleAt32_2 t (notLast32 t h3)) (noFlush32_2 t (notLast32 t h3))]
    rw [outsAt32_A V c t h0]
    unfold sout32_A; (try dsimp only)
    by_cases hz : t.val = 0
    · rw [PhiS32_castSucc V c t, PhiS32_zero V c _ _ hz, PhiA32_eq]
      iintro ⟨⟨⟨HS0, Hrb⟩, Hg⟩, Ho, ⟨%d0, H0⟩, ⟨%d1, H1⟩, ⟨%d2, H2⟩⟩
      iapply ((kernelRun32_A c (grid32.coords t) _ _ _ _ _ _ _ _ (isFirst32 t h0) (notLast32 t (by omega)) (iblk32 V c 0 t) (iblk32 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover32_A c _ _ _ _ _ _ _ _ _ _ _ _ _)
          iexact Hrb
        iexact Hg
      isplitl [Ho]; · iexact Ho
      isplitl [H0]; · iexact H0
      isplitl [H1]; · iexact H1
      iexists _; iexact H2
    · rw [PhiS32_castSucc V c t, PhiS32_pos V c _ _ hz]
      iintro ⟨⟨⟨HS0, Hrb⟩, Hg⟩, Ho, ⟨%d0, H0⟩, ⟨%d1, H1⟩, ⟨%d2, H2⟩⟩
      iapply ((kernelRun32_A c (grid32.coords t) _ _ _ _ _ _ _ _ (isFirst32 t h0) (notLast32 t (by omega)) (iblk32 V c 0 t) (iblk32 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover32_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat32 V c).leavesExact 2 t = owns (c : Thread nD τ) (ms32_2 t) fullShare ((dat32 V c).after 2 t) from by
        unfold Dat.leavesExact; rw [liveAt32_2 t (isLast32 t h3)], after32_2]
      rw [outsAt32_C V c t h0 h3]
      unfold out32_C sout32_C; (try dsimp only)
      rw [PhiS32_castSucc V c t, PhiS32_pos V c _ _ hz]
      iintro ⟨⟨⟨HS0, Hrb⟩, Hg⟩, Ho, ⟨%d0, H0⟩, ⟨%d1, H1⟩, ⟨%d2, H2⟩⟩
      iapply ((kernelRun32_C c (grid32.coords t) _ _ _ _ _ _ _ _ (notFirst32 t h0) (isLast32 t h3) (iblk32 V c 0 t) (iblk32 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover32_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover32_C c _ _ _ _ _ _ _ _ _ _ _ _ _ _)
    · rw [Dat.leavesExact_idle (dat32 V c) 2 t (idleAt32_2 t (notLast32 t h3)) (noFlush32_2 t (notLast32 t h3))]
      rw [outsAt32_B V c t h0 h3]
      unfold sout32_B; (try dsimp only)
      rw [PhiS32_castSucc V c t, PhiS32_pos V c _ _ hz]
      iintro ⟨⟨⟨HS0, Hrb⟩, Hg⟩, Ho, ⟨%d0, H0⟩, ⟨%d1, H1⟩, ⟨%d2, H2⟩⟩
      iapply ((kernelRun32_B c (grid32.coords t) _ _ _ _ _ _ _ _ (notFirst32 t h0) (notLast32 t h3) (iblk32 V c 0 t) (iblk32 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover32_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation32 (c : Dev nD) : BodyObligation (dat32 (F := F) V c) (defs₀ (F := F)) Variants.none () Set.univ := fun t => by
  rw [bigSep_W32, bigSep_W32]
  exact sound_body32 V c t

/-- What the region is entered with is the invariant before the first point. -/
theorem hin32 (c : Dev nD) : Pipeline.ΦA spec32 c ⊢ (dat32 V c).Φ 0 := by
  rw [show (dat32 V c).Φ 0 = PhiS32 V c 0 (Nat.zero_le _) from rfl, PhiS32_zero V c 0 _ rfl]
  try exact Idealize.SL.BI.Entails.refl _

/-- After the last point the invariant gives the class's back: the accumulator's contents are forgotten. -/
theorem hout32 (c : Dev nD) : (dat32 V c).Φ (Fin.last cfg32.N) ⊢ Pipeline.ΦA spec32 c := by
  have hN : cfg32.N = 16 := N_32
  rw [show (dat32 V c).Φ (Fin.last cfg32.N) = PhiS32 V c (Fin.last cfg32.N).val (Nat.le_of_lt_succ (Fin.last cfg32.N).isLt) from rfl,
    PhiS32_pos V c _ _ (by rw [Fin.val_last]; omega), PhiA32_eq]
  iintro ⟨⟨HS0, Hrb⟩, Hg⟩
  isplitl [HS0 Hrb]
  · isplitl [HS0]
    · iexists _; iexact HS0
    iexact Hrb
  iexact Hg

end Cert.Kernel.Hand

end
-- ==== Proof.RegK33a.lean ====
/- Laid out by: python3 scratch/layout_regions.py --template-region 1 --region 33 --program Kernel --parts a,b,c, --out-dir proof/Proof
   from the hand-written text of region 1 (RegKI1a.lean): the same text, the region's number and the program's namespace substituted. -/
/-
  Region 33 of @main (custom_call 33): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond33_0 (i : grid33.Coords) : Prop := (Scalar.cmpi .ne (Scalar.extui (Scalar.cmpi .eq (BitVec.ofNat 32 (i 1).val) 0#32)) 0#32) = 1#1
/-- It holds exactly at the points with t % 4 = 0. -/
theorem hcond33_0 : ∀ t : Fin cfg33.N, cond33_0 (grid33.coords t) ↔ t.val % 4 = 0 :=
  (by decide +kernel : ∀ t : Fin grid33.N, cond33_0 (grid33.coords t) ↔ t.val % 4 = 0)

/-- "k = 3": the second conditional's test. -/
abbrev cond33_1 (i : grid33.Coords) : Prop := k33_cond2 i = 1#1
/-- It holds exactly at the points with t % 4 = 3. -/
theorem hcond33_1 : ∀ t : Fin cfg33.N, cond33_1 (grid33.coords t) ↔ t.val % 4 = 3 :=
  (by decide +kernel : ∀ t : Fin grid33.N, cond33_1 (grid33.coords t) ↔ t.val % 4 = 3)

/-! ## Where the windows are idle, and where the output is written back -/

/-- The two input windows are never idle. -/
theorem liveAt33_0 : ∀ t : Fin cfg33.N, cfg33.idle 0 (grid33.coords t) = false := by decide +kernel
theorem liveAt33_1 : ∀ t : Fin cfg33.N, cfg33.idle 1 (grid33.coords t) = false := by decide +kernel
/-- Where k ≠ 3 the output window is idle (the body stores nothing into it) and is not written back. -/
theorem idleAt33_2 : ∀ t : Fin cfg33.N, ¬cond33_1 (grid33.coords t) → cfg33.idle 2 (grid33.coords t) = true := by decide +kernel
theorem noFlush33_2 : ∀ t : Fin cfg33.N, ¬cond33_1 (grid33.coords t) → (cfg33.win 2).flush t = false := by decide +kernel
/-- Where k = 3 it is live. -/
theorem liveAt33_2 : ∀ t : Fin cfg33.N, cond33_1 (grid33.coords t) → cfg33.idle 2 (grid33.coords t) = false := by decide +kernel

/-! ## The staging memrefs at a point, and the scratch -/

/-- One staging buffer of the output window, through which its contents are stated. -/
abbrev VO33_2 : View sig .tc .vmem S1024x512 .f32 := (Memref.whole cc33_stg2_0 : Memref sig .tc .vmem S1024x512 .f32).view
abbrev ms33_0 (t : Fin cfg33.N) : Memref sig .tc .vmem S1024x1024 .bf16 := win33_0.stage (cfg33.slots t 0)
abbrev hs33_0 (t : Fin cfg33.N) : (ms33_0 t).IsWhole := hstage33_0 ((cfg33.slots t 0).cast nbuf33_0)
abbrev ms33_1 (t : Fin cfg33.N) : Memref sig .tc .vmem S1024x512 .f32 := win33_1.stage (cfg33.slots t 1)
abbrev hs33_1 (t : Fin cfg33.N) : (ms33_1 t).IsWhole := hstage33_1 ((cfg33.slots t 1).cast nbuf33_1)
abbrev ms33_2 (t : Fin cfg33.N) : Memref sig .tc .vmem S1024x512 .f32 := win33_2.stage (cfg33.slots t 2)
abbrev hs33_2 (t : Fin cfg33.N) : (ms33_2 t).IsWhole := hstage33_2 ((cfg33.slots t 2).cast nbuf33_2)
/-- The accumulator: a whole scoped buffer of the kernel's own. -/
abbrev scM33 : Memref sig .tc .vmem S1024x512 .f32 := Memref.whole cc33_scratch0
abbrev VS33 : View sig .tc .vmem S1024x512 .f32 := scM33.view

/-- The other scoped buffers of the core, none of which this region touches. -/
abbrev restBut33 (c : Dev nD) : sProp 𝕄 :=
  Pipeline.scopedRestBut (Ix := Unit) (Name := ℕ) (U := UR sig nD τ) (Lvl := ℕ) (Val := Elt F) spec33 c [cc33_scratch0]

/-- The region's invariant before its first point: the accumulator at something, the other scoped buffers, the generator register. -/
theorem PhiA33_eq (c : Dev nD) :
    (Pipeline.ΦA spec33 c : sProp 𝕄)
      = iprop(iprop((∃ d, owns (c : Thread nD τ) scM33 fullShare d) ∗ restBut33 c) ∗ (∃ r, prngReg c r)) := by
  unfold Pipeline.ΦA; rw [scopedRest33_split]; simp only [scM33, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun33_A (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond33_0 i) (hc1 : ¬cond33_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc33__matmul_kernel i arg2 harg2 arg3 harg3 arg4 harg4 arg5 harg5) K } := by
  refine ⟨[], ?_, fun xi2 E K => ?run⟩
  case run =>
    simp only [cc33__matmul_kernel_eq_skeleton]; unfold cc33__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK33b.lean ====
/- Laid out by: python3 scratch/layout_regions.py --template-region 1 --region 33 --program Kernel --parts a,b,c, --out-dir proof/Proof
   from the hand-written text of region 1 (RegKI1b.lean): the same text, the region's number and the program's namespace substituted. -/
/-
  Region 33, case B (k = 1, 2): the body's run. Neither conditional is taken: the product of the two blocks is added to what
  the point before left in the accumulator; the output block is not touched.
-/
import proofs.«158944_j64613488001249_1_alg».proof.Proof.RegK33a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun33_B (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond33_0 i) (hc1 : ¬cond33_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc33__matmul_kernel i arg2 harg2 arg3 harg3 arg4 harg4 arg5 harg5) K } := by
  refine ⟨[], ?_, fun xi2 E K => ?run⟩
  case run =>
    simp only [cc33__matmul_kernel_eq_skeleton]; unfold cc33__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK33c.lean ====
/- Laid out by: python3 scratch/layout_regions.py --template-region 1 --region 33 --program Kernel --parts a,b,c, --out-dir proof/Proof
   from the hand-written text of region 1 (RegKI1c.lean): the same text, the region's number and the program's namespace substituted. -/
/-
  Region 33, case C (k = 3): the body's run. The product is added to the accumulator as in case B, and then the second
  conditional copies the accumulator over the whole output block.
-/
import proofs.«158944_j64613488001249_1_alg».proof.Proof.RegK33b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun33_C (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond33_0 i) (hc1 : cond33_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc33__matmul_kernel i arg2 harg2 arg3 harg3 arg4 harg4 arg5 harg5) K } := by
  refine ⟨?_, ?_, fun E K => ?run⟩
  case run =>
    simp only [cc33__matmul_kernel_eq_skeleton]; unfold cc33__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK33.lean ====
/- Laid out by: python3 scratch/layout_regions.py --template-region 1 --region 33 --program Kernel --parts a,b,c, --out-dir proof/Proof
   from the hand-written text of region 1 (RegKI1.lean): the same text, the region's number and the program's namespace substituted. -/
/-
  Region 33 of @main, entered from the buffer contents `V`: what its windows' blocks are, what each case of the body leaves in
  the accumulator and in the output block, the accumulator and the output block point by point (`outsAt33`: at k = 0 the
  accumulator restarts from zeros plus the product; at k = 1, 2, 3 it is the point before's plus the product; at k = 3 the
  output block is the accumulator), the region's invariant (the accumulator at `outsAt33`'s second component), the proof data,
  and the body's obligation at every point.
-/
import proofs.«158944_j64613488001249_1_alg».proof.Proof.RegK33c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk33 (c : Dev nD) (w : Fin cfg33.W) (t : Fin cfg33.N) : ((cfg33.win w).xblock (cfg33.grid.coords t)).Idx → Elt F (cfg33.win w).elt :=
  ((cfg33.win w).blk t).view.read (Elt F) (V c (Pipeline.arrRef spec33 w))

/-- An input window's current staging buffer holds its block at every point, for any proof data whose array is `V`'s and
    whose body leaves the block in place. -/
theorem before33_0_of {c : Dev nD} (dat : Dat τ (Elt F) Unit ℕ (UR sig nD τ) ℕ cfg33 c) (hA : dat.A 0 = V c (Pipeline.arrRef spec33 0))
    (hafter : ∀ t, dat.after 0 t = iblk33 V c 0 t) (t : Fin cfg33.N) (d) : dat.before 0 t d = iblk33 V c 0 t :=
  (dat.before_in_eq_fetched 0 rfl (fun _ => rfl) (fun _ _ _ => rfl) (fun t => by rw [hafter]; unfold Dat.blockOf iblk33; rw [hA]; try rfl) t d).trans
    (by unfold Dat.fetched Dat.blockOf iblk33; rw [hA]; try rfl)
theorem before33_1_of {c : Dev nD} (dat : Dat τ (Elt F) Unit ℕ (UR sig nD τ) ℕ cfg33 c) (hA : dat.A 1 = V c (Pipeline.arrRef spec33 1))
    (hafter : ∀ t, dat.after 1 t = iblk33 V c 1 t) (t : Fin cfg33.N) (d) : dat.before 1 t d = iblk33 V c 1 t :=
  (dat.before_in_eq_fetched 1 rfl (fun _ => rfl) (fun _ _ _ => rfl) (fun t => by rw [hafter]; unfold Dat.blockOf iblk33; rw [hA]; try rfl) t d).trans
    (by unfold Dat.fetched Dat.blockOf iblk33; rw [hA]; try rfl)

/-! ## What each case leaves -/

/-- Case A's stores into the accumulator cover it. -/
theorem scover33_A (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond33_0 i) (hc1 : ¬cond33_1 i)
    (x0 : Vec F S1024x1024 .bf16) (x1 : Vec F S1024x512 .f32) (y : S1024x512.Idx) :
    ∃ pc ∈ (kernelRun33_A c i arg2 harg2 arg3 harg3 arg4 harg4 arg5 harg5 hc0 hc1 x0 x1).2.1, y ∈ pc.1.set :=
  View.cover_of_tiledL (kernelRun33_A c i arg2 harg2 arg3 harg3 arg4 harg4 arg5 harg5 hc0 hc1 x0 x1).2.1 S1024x512.size (by sl_kernel_rfl) y
/-- What case A leaves in the accumulator. -/
noncomputable def sout33_A (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond33_0 i) (hc1 : ¬cond33_1 i)
    (x0 : Vec F S1024x1024 .bf16) (x1 : Vec F S1024x512 .f32) : Vec F S1024x512 .f32 :=
  VS33.read (Elt F) (VS33.writes (Elt F) VS33.junk (kernelRun33_A c i arg2 harg2 arg3 harg3 arg4 harg4 arg5 harg5 hc0 hc1 x0 x1).2.1)

/-- Case B's store into the accumulator covers it. -/
theorem scover33_B (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond33_0 i) (hc1 : ¬cond33_1 i)
    (x0 : Vec F S1024x1024 .bf16) (x1 : Vec F S1024x512 .f32) (xs0 : Vec F S1024x512 .f32) (y : S1024x512.Idx) :
    ∃ pc ∈ (kernelRun33_B c i arg2 harg2 arg3 harg3 arg4 harg4 arg5 harg5 hc0 hc1 x0 x1 xs0).2.1, y ∈ pc.1.set :=
  View.cover_of_tiledL (kernelRun33_B c i arg2 harg2 arg3 harg3 arg4 harg4 arg5 harg5 hc0 hc1 x0 x1 xs0).2.1 S1024x512.size (by sl_kernel_rfl) y
/-- What case B leaves in the accumulator, over what the point before left. -/
noncomputable def sout33_B (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond33_0 i) (hc1 : ¬cond33_1 i)
    (x0 : Vec F S1024x1024 .bf16) (x1 : Vec F S1024x512 .f32) (xs0 : Vec F S1024x512 .f32) : Vec F S1024x512 .f32 :=
  VS33.read (Elt F) (VS33.writes (Elt F) VS33.junk (kernelRun33_B c i arg2 harg2 arg3 harg3 arg4 harg4 arg5 harg5 hc0 hc1 x0 x1 xs0).2.1)

/-- Case C's store into the output block covers it, and so does its store into the accumulator. -/
theorem cover33_C (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond33_0 i) (hc1 : cond33_1 i)
    (x0 : Vec F S1024x1024 .bf16) (x1 : Vec F S1024x512 .f32) (xs0 : Vec F S1024x512 .f32) (y : S1024x512.Idx) :
    ∃ pc ∈ (kernelRun33_C c i arg2 harg2 arg3 harg3 arg4 harg4 arg5 harg5 hc0 hc1 x0 x1 xs0).1, y ∈ pc.1.set :=
  View.cover_of_tiledL (kernelRun33_C c i arg2 harg2 arg3 harg3 arg4 harg4 arg5 harg5 hc0 hc1 x0 x1 xs0).1 S1024x512.size (by sl_kernel_rfl) y
theorem scover33_C (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond33_0 i) (hc1 : cond33_1 i)
    (x0 : Vec F S1024x1024 .bf16) (x1 : Vec F S1024x512 .f32) (xs0 : Vec F S1024x512 .f32) (y : S1024x512.Idx) :
    ∃ pc ∈ (kernelRun33_C c i arg2 harg2 arg3 harg3 arg4 harg4 arg5 harg5 hc0 hc1 x0 x1 xs0).2.1, y ∈ pc.1.set :=
  View.cover_of_tiledL (kernelRun33_C c i arg2 harg2 arg3 harg3 arg4 harg4 arg5 harg5 hc0 hc1 x0 x1 xs0).2.1 S1024x512.size (by sl_kernel_rfl) y
/-- What case C leaves in the output block, and in the accumulator. -/
noncomputable def out33_C (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond33_0 i) (hc1 : cond33_1 i)
    (x0 : Vec F S1024x1024 .bf16) (x1 : Vec F S1024x512 .f32) (xs0 : Vec F S1024x512 .f32) : Vec F S1024x512 .f32 :=
  VO33_2.read (Elt F) (VO33_2.writes (Elt F) VO33_2.junk (kernelRun33_C c i arg2 harg2 arg3 harg3 arg4 harg4 arg5 harg5 hc0 hc1 x0 x1 xs0).1)
noncomputable def sout33_C (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond33_0 i) (hc1 : cond33_1 i)
    (x0 : Vec F S1024x1024 .bf16) (x1 : Vec F S1024x512 .f32) (xs0 : Vec F S1024x512 .f32) : Vec F S1024x512 .f32 :=
  VS33.read (Elt F) (VS33.writes (Elt F) VS33.junk (kernelRun33_C c i arg2 harg2 arg3 harg3 arg4 harg4 arg5 harg5 hc0 hc1 x0 x1 xs0).2.1)

/-- Where the output block is idle nothing consults what it holds: a placeholder. -/
noncomputable def outIdle33 : Vec F S1024x512 .f32 := VO33_2.read (Elt F) (VO33_2.writes (Elt F) VO33_2.junk [])

/-! ## The conditions at a point, from t % 4 -/

theorem isFirst33 (t : Fin cfg33.N) (h : t.val % 4 = 0) : cond33_0 (grid33.coords t) := (hcond33_0 t).mpr h
theorem notFirst33 (t : Fin cfg33.N) (h : ¬t.val % 4 = 0) : ¬cond33_0 (grid33.coords t) := fun hc => h ((hcond33_0 t).mp hc)
theorem isLast33 (t : Fin cfg33.N) (h : t.val % 4 = 3) : cond33_1 (grid33.coords t) := (hcond33_1 t).mpr h
theorem notLast33 (t : Fin cfg33.N) (h : ¬t.val % 4 = 3) : ¬cond33_1 (grid33.coords t) := fun hc => h ((hcond33_1 t).mp hc)

/-! ## The accumulator and the output block, point by point -/

/-- After the body at position `n`: (the output block's buffer, the accumulator). -/
noncomputable def outsAt33 (c : Dev nD) : (n : ℕ) → n < cfg33.N → Vec F S1024x512 .f32 × Vec F S1024x512 .f32
  | 0, hn => (outIdle33, sout33_A c (grid33.coords ⟨0, hn⟩) (ms33_0 ⟨0, hn⟩) (hs33_0 ⟨0, hn⟩) (ms33_1 ⟨0, hn⟩) (hs33_1 ⟨0, hn⟩) (ms33_2 ⟨0, hn⟩) (hs33_2 ⟨0, hn⟩) scM33 (Memref.isWhole_whole _) (isFirst33 ⟨0, hn⟩ (Nat.zero_mod _)) (notLast33 ⟨0, hn⟩ (by simp)) (iblk33 V c 0 ⟨0, hn⟩) (iblk33 V c 1 ⟨0, hn⟩))
  | n + 1, hn =>
    if h0 : (n + 1) % 4 = 0 then
      (outIdle33, sout33_A c (grid33.coords ⟨n + 1, hn⟩) (ms33_0 ⟨n + 1, hn⟩) (hs33_0 ⟨n + 1, hn⟩) (ms33_1 ⟨n + 1, hn⟩) (hs33_1 ⟨n + 1, hn⟩) (ms33_2 ⟨n + 1, hn⟩) (hs33_2 ⟨n + 1, hn⟩) scM33 (Memref.isWhole_whole _) (isFirst33 ⟨n + 1, hn⟩ h0) (notLast33 ⟨n + 1, hn⟩ (by show ¬(n + 1) % 4 = 3; omega)) (iblk33 V c 0 ⟨n + 1, hn⟩) (iblk33 V c 1 ⟨n + 1, hn⟩))
    else if h3 : (n + 1) % 4 = 3 then
      (out33_C c (grid33.coords ⟨n + 1, hn⟩) (ms33_0 ⟨n + 1, hn⟩) (hs33_0 ⟨n + 1, hn⟩) (ms33_1 ⟨n + 1, hn⟩) (hs33_1 ⟨n + 1, hn⟩) (ms33_2 ⟨n + 1, hn⟩) (hs33_2 ⟨n + 1, hn⟩) scM33 (Memref.isWhole_whole _) (notFirst33 ⟨n + 1, hn⟩ h0) (isLast33 ⟨n + 1, hn⟩ h3) (iblk33 V c 0 ⟨n + 1, hn⟩) (iblk33 V c 1 ⟨n + 1, hn⟩) (outsAt33 c n (Nat.lt_of_succ_lt hn)).2,
       sout33_C c (grid33.coords ⟨n + 1, hn⟩) (ms33_0 ⟨n + 1, hn⟩) (hs33_0 ⟨n + 1, hn⟩) (ms33_1 ⟨n + 1, hn⟩) (hs33_1 ⟨n + 1, hn⟩) (ms33_2 ⟨n + 1, hn⟩) (hs33_2 ⟨n + 1, hn⟩) scM33 (Memref.isWhole_whole _) (notFirst33 ⟨n + 1, hn⟩ h0) (isLast33 ⟨n + 1, hn⟩ h3) (iblk33 V c 0 ⟨n + 1, hn⟩) (iblk33 V c 1 ⟨n + 1, hn⟩) (outsAt33 c n (Nat.lt_of_succ_lt hn)).2)
    else
      (outIdle33, sout33_B c (grid33.coords ⟨n + 1, hn⟩) (ms33_0 ⟨n + 1, hn⟩) (hs33_0 ⟨n + 1, hn⟩) (ms33_1 ⟨n + 1, hn⟩) (hs33_1 ⟨n + 1, hn⟩) (ms33_2 ⟨n + 1, hn⟩) (hs33_2 ⟨n + 1, hn⟩) scM33 (Memref.isWhole_whole _) (notFirst33 ⟨n + 1, hn⟩ h0) (notLast33 ⟨n + 1, hn⟩ h3) (iblk33 V c 0 ⟨n + 1, hn⟩) (iblk33 V c 1 ⟨n + 1, hn⟩) (outsAt33 c n (Nat.lt_of_succ_lt hn)).2)

/-- `outsAt33` at a point with k = 0. -/
theorem outsAt33_A (c : Dev nD) (t : Fin cfg33.N) (h0 : t.val % 4 = 0) :
    outsAt33 V c t.val t.isLt = (outIdle33, sout33_A c (grid33.coords t) (ms33_0 t) (hs33_0 t) (ms33_1 t) (hs33_1 t) (ms33_2 t) (hs33_2 t) scM33 (Memref.isWhole_whole _) (isFirst33 t h0) (notLast33 t (by omega)) (iblk33 V c 0 t) (iblk33 V c 1 t)) := by
  obtain ⟨n, hn⟩ := t
  cases n with
  | zero => rfl
  | succ n => exact (dif_pos h0).trans rfl

/-- `outsAt33` at a point with k = 1, 2: over what the point before left. -/
theorem outsAt33_B (c : Dev nD) (t : Fin cfg33.N) (h0 : ¬t.val % 4 = 0) (h3 : ¬t.val % 4 = 3) :
    outsAt33 V c t.val t.isLt = (outIdle33, sout33_B c (grid33.coords t) (ms33_0 t) (hs33_0 t) (ms33_1 t) (hs33_1 t) (ms33_2 t) (hs33_2 t) scM33 (Memref.isWhole_whole _) (notFirst33 t h0) (notLast33 t h3) (iblk33 V c 0 t) (iblk33 V c 1 t)
      (outsAt33 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt33` at a point with k = 3. -/
theorem outsAt33_C (c : Dev nD) (t : Fin cfg33.N) (h0 : ¬t.val % 4 = 0) (h3 : t.val % 4 = 3) :
    outsAt33 V c t.val t.isLt = (out33_C c (grid33.coords t) (ms33_0 t) (hs33_0 t) (ms33_1 t) (hs33_1 t) (ms33_2 t) (hs33_2 t) scM33 (Memref.isWhole_whole _) (notFirst33 t h0) (isLast33 t h3) (iblk33 V c 0 t) (iblk33 V c 1 t)
        (outsAt33 V c (t.val - 1) (Nat.lt_of_le_of_lt (Nat.sub_le _ _) t.isLt)).2,
      sout33_C c (grid33.coords t) (ms33_0 t) (hs33_0 t) (ms33_1 t) (hs33_1 t) (ms33_2 t) (hs33_2 t) scM33 (Memref.isWhole_whole _) (notFirst33 t h0) (isLast33 t h3) (iblk33 V c 0 t) (iblk33 V c 1 t)
        (outsAt33 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS33 (c : Dev nD) : (n : ℕ) → n ≤ cfg33.N → sProp 𝕄
  | 0, _ => Pipeline.ΦA spec33 c
  | n + 1, hn => iprop(iprop(owns (c : Thread nD τ) scM33 fullShare ((outsAt33 V c n hn).2) ∗ restBut33 c) ∗ (∃ r, prngReg c r))

theorem PhiS33_zero (c : Dev nD) (n : ℕ) (h : n ≤ cfg33.N) (hz : n = 0) : PhiS33 V c n h = Pipeline.ΦA spec33 c := by
  subst hz; rfl
theorem PhiS33_succ (c : Dev nD) (n : ℕ) (hn : n < cfg33.N) :
    PhiS33 V c (n + 1) hn = iprop(iprop(owns (c : Thread nD τ) scM33 fullShare ((outsAt33 V c n hn).2) ∗ restBut33 c) ∗ (∃ r, prngReg c r)) := rfl
theorem PhiS33_pos (c : Dev nD) (n : ℕ) (h : n ≤ cfg33.N) (hz : n ≠ 0) :
    PhiS33 V c n h = iprop(iprop(owns (c : Thread nD τ) scM33 fullShare ((outsAt33 V c (n - 1) (by omega)).2) ∗ restBut33 c) ∗ (∃ r, prngReg c r)) := by
  cases n with
  | zero => exact absurd rfl hz
  | succ n => rfl

/-! ## The proof data -/

/-- The region's proof data on core `c`: the arrays as the region finds them; after the body at point `t` each input's
    buffer at its block and the output's at `outsAt33`'s first component; the invariant `PhiS33`; nothing owed; full shares. -/
noncomputable def dat33 (c : Dev nD) : Dat τ (Elt F) Unit ℕ (UR sig nD τ) ℕ cfg33 c where
  A w := V c (Pipeline.arrRef spec33 w)
  after w t := match w with
    | ⟨0, _⟩ => iblk33 V c 0 t
    | ⟨1, _⟩ => iblk33 V c 1 t
    | ⟨2, _⟩ => (outsAt33 V c t.val t.isLt).1
  Φ t := PhiS33 V c t.val (Nat.le_of_lt_succ t.isLt)
  q _ := fullShare
  owed _ := 0

theorem A_eq33 (c : Dev nD) (w : Fin cfg33.W) : (dat33 V c).A w = V c (Pipeline.arrRef spec33 w) := by
  dsimp only [dat33]
theorem PhiS33_castSucc (c : Dev nD) (t : Fin cfg33.N) :
    (dat33 V c).Φ t.castSucc = PhiS33 V c t.val (Nat.le_of_lt t.isLt) := by
  dsimp only [dat33]; simp only [Fin.coe_castSucc]
theorem after33_0 (c : Dev nD) (t : Fin cfg33.N) : (dat33 V c).after 0 t = iblk33 V c 0 t := by dsimp only [dat33]
theorem after33_1 (c : Dev nD) (t : Fin cfg33.N) : (dat33 V c).after 1 t = iblk33 V c 1 t := by dsimp only [dat33]
theorem after33_2 (c : Dev nD) (t : Fin cfg33.N) : (dat33 V c).after 2 t = (outsAt33 V c t.val t.isLt).1 := by dsimp only [dat33]
theorem before33_0 (c : Dev nD) (t : Fin cfg33.N) (d) : (dat33 V c).before 0 t d = iblk33 V c 0 t :=
  before33_0_of V (dat33 V c) (A_eq33 V c 0) (after33_0 V c) t d
theorem before33_1 (c : Dev nD) (t : Fin cfg33.N) (d) : (dat33 V c).before 1 t d = iblk33 V c 1 t :=
  before33_1_of V (dat33 V c) (A_eq33 V c 1) (after33_1 V c) t d

/-! ## The body's obligation -/

noncomputable def bodyPre33 (c : Dev nD) (t : Fin cfg33.N) : sProp 𝕄 :=
  iprop((dat33 V c).Φ t.castSucc ∗ (dat33 V c).owesAt () t.castSucc
    ∗ (∃ d, owns (c : Thread nD τ) (ms33_0 t) fullShare ((dat33 V c).before 0 t d))
    ∗ (∃ d, owns (c : Thread nD τ) (ms33_1 t) fullShare ((dat33 V c).before 1 t d))
    ∗ (∃ d, owns (c : Thread nD τ) (ms33_2 t) fullShare ((dat33 V c).before 2 t d)))

noncomputable def bodyPost33 (c : Dev nD) (t : Fin cfg33.N) : sProp 𝕄 :=
  iprop((dat33 V c).Φ t.succ ∗ (dat33 V c).owesAt () t.succ
    ∗ (dat33 V c).leavesExact 0 t
    ∗ (dat33 V c).leavesExact 1 t
    ∗ (dat33 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body33 (c : Dev nD) (t : Fin cfg33.N) :
    bodyPre33 V c t ⊢ wp frame (wpE (defs₀ (F := F)) Variants.none c none) Set.univ (bodyAt33 t) (fun _ => bodyPost33 V c t) := by
  unfold bodyPre33 bodyPost33 bodyAt33
  simp only [before33_0, before33_1]
  rw [show (dat33 V c).owesAt () t.succ = (dat33 V c).owesAt () t.castSucc from rfl]
  rw [show (dat33 V c).Φ t.succ = PhiS33 V c (t.val + 1) t.isLt from rfl, PhiS33_succ]
  rw [show (dat33 V c).leavesExact 0 t = owns (c : Thread nD τ) (ms33_0 t) fullShare ((dat33 V c).after 0 t) from by
    unfold Dat.leavesExact; rw [liveAt33_0 t], after33_0]
  rw [show (dat33 V c).leavesExact 1 t = owns (c : Thread nD τ) (ms33_1 t) fullShare ((dat33 V c).after 1 t) from by
    unfold Dat.leavesExact; rw [liveAt33_1 t], after33_1]
  by_cases h0 : t.val % 4 = 0
  · have h3 : ¬t.val % 4 = 3 := by omega
    rw [Dat.leavesExact_idle (dat33 V c) 2 t (idleAt33_2 t (notLast33 t h3)) (noFlush33_2 t (notLast33 t h3))]
    rw [outsAt33_A V c t h0]
    unfold sout33_A; (try dsimp only)
    by_cases hz : t.val = 0
    · rw [PhiS33_castSucc V c t, PhiS33_zero V c _ _ hz, PhiA33_eq]
      iintro ⟨⟨⟨HS0, Hrb⟩, Hg⟩, Ho, ⟨%d0, H0⟩, ⟨%d1, H1⟩, ⟨%d2, H2⟩⟩
      iapply ((kernelRun33_A c (grid33.coords t) _ _ _ _ _ _ _ _ (isFirst33 t h0) (notLast33 t (by omega)) (iblk33 V c 0 t) (iblk33 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover33_A c _ _ _ _ _ _ _ _ _ _ _ _ _)
          iexact Hrb
        iexact Hg
      isplitl [Ho]; · iexact Ho
      isplitl [H0]; · iexact H0
      isplitl [H1]; · iexact H1
      iexists _; iexact H2
    · rw [PhiS33_castSucc V c t, PhiS33_pos V c _ _ hz]
      iintro ⟨⟨⟨HS0, Hrb⟩, Hg⟩, Ho, ⟨%d0, H0⟩, ⟨%d1, H1⟩, ⟨%d2, H2⟩⟩
      iapply ((kernelRun33_A c (grid33.coords t) _ _ _ _ _ _ _ _ (isFirst33 t h0) (notLast33 t (by omega)) (iblk33 V c 0 t) (iblk33 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover33_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat33 V c).leavesExact 2 t = owns (c : Thread nD τ) (ms33_2 t) fullShare ((dat33 V c).after 2 t) from by
        unfold Dat.leavesExact; rw [liveAt33_2 t (isLast33 t h3)], after33_2]
      rw [outsAt33_C V c t h0 h3]
      unfold out33_C sout33_C; (try dsimp only)
      rw [PhiS33_castSucc V c t, PhiS33_pos V c _ _ hz]
      iintro ⟨⟨⟨HS0, Hrb⟩, Hg⟩, Ho, ⟨%d0, H0⟩, ⟨%d1, H1⟩, ⟨%d2, H2⟩⟩
      iapply ((kernelRun33_C c (grid33.coords t) _ _ _ _ _ _ _ _ (notFirst33 t h0) (isLast33 t h3) (iblk33 V c 0 t) (iblk33 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover33_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover33_C c _ _ _ _ _ _ _ _ _ _ _ _ _ _)
    · rw [Dat.leavesExact_idle (dat33 V c) 2 t (idleAt33_2 t (notLast33 t h3)) (noFlush33_2 t (notLast33 t h3))]
      rw [outsAt33_B V c t h0 h3]
      unfold sout33_B; (try dsimp only)
      rw [PhiS33_castSucc V c t, PhiS33_pos V c _ _ hz]
      iintro ⟨⟨⟨HS0, Hrb⟩, Hg⟩, Ho, ⟨%d0, H0⟩, ⟨%d1, H1⟩, ⟨%d2, H2⟩⟩
      iapply ((kernelRun33_B c (grid33.coords t) _ _ _ _ _ _ _ _ (notFirst33 t h0) (notLast33 t h3) (iblk33 V c 0 t) (iblk33 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover33_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation33 (c : Dev nD) : BodyObligation (dat33 (F := F) V c) (defs₀ (F := F)) Variants.none () Set.univ := fun t => by
  rw [bigSep_W33, bigSep_W33]
  exact sound_body33 V c t

/-- What the region is entered with is the invariant before the first point. -/
theorem hin33 (c : Dev nD) : Pipeline.ΦA spec33 c ⊢ (dat33 V c).Φ 0 := by
  rw [show (dat33 V c).Φ 0 = PhiS33 V c 0 (Nat.zero_le _) from rfl, PhiS33_zero V c 0 _ rfl]
  try exact Idealize.SL.BI.Entails.refl _

/-- After the last point the invariant gives the class's back: the accumulator's contents are forgotten. -/
theorem hout33 (c : Dev nD) : (dat33 V c).Φ (Fin.last cfg33.N) ⊢ Pipeline.ΦA spec33 c := by
  have hN : cfg33.N = 16 := N_33
  rw [show (dat33 V c).Φ (Fin.last cfg33.N) = PhiS33 V c (Fin.last cfg33.N).val (Nat.le_of_lt_succ (Fin.last cfg33.N).isLt) from rfl,
    PhiS33_pos V c _ _ (by rw [Fin.val_last]; omega), PhiA33_eq]
  iintro ⟨⟨HS0, Hrb⟩, Hg⟩
  isplitl [HS0 Hrb]
  · isplitl [HS0]
    · iexists _; iexact HS0
    iexact Hrb
  iexact Hg

end Cert.Kernel.Hand

end
-- ==== Proof.RegK34a.lean ====
/- Laid out by: python3 scratch/layout_grid41.py --template-region 0 --region 34 --program Kernel --parts a, --shapes S1024x128=S1024x512,S128x512=S512x512
   from the hand-written text of region 0 (RegKI0a.lean): the same text, the region's number, block shapes and the program's namespace substituted. -/
/- The region of Kernel's @main that runs `cc34__matmul_kernel` (pipeline `cfg34`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond34_0 (i : grid34.Coords) : Prop :=
  (Scalar.cmpi .ne (Scalar.extui (Scalar.cmpi .eq (BitVec.ofNat 32 (i 1).val) 0#32)) 0#32) = 1#1
/-- True at every point: the reduction axis has one step. -/
theorem hcond34_0 : ∀ t : Fin cfg34.N, cond34_0 (grid34.coords t) :=
  (by decide +kernel : ∀ t : Fin grid34.N, cond34_0 (grid34.coords t))

/-- "This is the last reduction step" (the guard of the copy to the output block). -/
abbrev cond34_1 (i : grid34.Coords) : Prop := k34_cond2 i = 1#1
/-- True at every point, for the same reason. -/
theorem hcond34_1 : ∀ t : Fin cfg34.N, cond34_1 (grid34.coords t) :=
  (by decide +kernel : ∀ t : Fin grid34.N, cond34_1 (grid34.coords t))

/-! ## No window is idle anywhere -/

theorem liveAt34_0 : ∀ t : Fin cfg34.N, cfg34.idle 0 (grid34.coords t) = false := by decide +kernel
theorem liveAt34_1 : ∀ t : Fin cfg34.N, cfg34.idle 1 (grid34.coords t) = false := by decide +kernel
/-- The output window is stored at every point (the copy's guard holds everywhere). -/
theorem liveAt34_2 : ∀ t : Fin cfg34.N, cfg34.idle 2 (grid34.coords t) = false := by decide +kernel

/-! ## The memrefs the body is called on -/

/-- One staging buffer of the output window, through which its contents are stated (any whole view of the shape reads the
    same pieces back the same way). -/
abbrev VO34_2 : View sig .tc .vmem S1024x512 .f32 := (Memref.whole cc34_stg2_0 : Memref sig .tc .vmem S1024x512 .f32).view
/-- Each window's current staging memref at point `t`, spelt as the pipeline passes it, with its wholeness. -/
abbrev ms34_0 (t : Fin cfg34.N) : Memref sig .tc .vmem S1024x512 .f32 := win34_0.stage (cfg34.slots t 0)
abbrev hs34_0 (t : Fin cfg34.N) : (ms34_0 t).IsWhole := hstage34_0 ((cfg34.slots t 0).cast nbuf34_0)
abbrev ms34_1 (t : Fin cfg34.N) : Memref sig .tc .vmem S512x512 .bf16 := win34_1.stage (cfg34.slots t 1)
abbrev hs34_1 (t : Fin cfg34.N) : (ms34_1 t).IsWhole := hstage34_1 ((cfg34.slots t 1).cast nbuf34_1)
abbrev ms34_2 (t : Fin cfg34.N) : Memref sig .tc .vmem S1024x512 .f32 := win34_2.stage (cfg34.slots t 2)
abbrev hs34_2 (t : Fin cfg34.N) : (ms34_2 t).IsWhole := hstage34_2 ((cfg34.slots t 2).cast nbuf34_2)
/-- The accumulator: a whole scoped buffer of the kernel's own, passed beside the windows. -/
abbrev scM34_0 : Memref sig .tc .vmem S1024x512 .f32 := Memref.whole cc34_scratch0
abbrev VS34_0 : View sig .tc .vmem S1024x512 .f32 := scM34_0.view

/-- The region invariant with the accumulator taken out of the scoped rest: the accumulator owned at some contents, every
    other scoped buffer unopened, and the generator register. -/
theorem PhiA34_eq (c : Dev nD) :
    (Pipeline.ΦA spec34 c : sProp 𝕄)
      = iprop(iprop(iprop((∃ d, owns (c : Thread nD τ) scM34_0 fullShare d))
            ∗ Pipeline.scopedRestBut (Ix := Unit) (Name := ℕ) (U := UR sig nD τ) (Lvl := ℕ) (Val := Elt F) spec34 c [cc34_scratch0])
          ∗ (∃ r, prngReg c r)) := by
  unfold Pipeline.ΦA; rw [scopedRest34_split]; simp only [scM34_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun34 (c : Dev nD) (i : grid34.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond34_0 i) (hlast : cond34_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc34__matmul_kernel i arg2 harg2 arg3 harg3 arg4 harg4 arg5 harg5) K } := by
  refine ⟨?_, ?_, fun E K => ?run⟩
  case run =>
    simp only [cc34__matmul_kernel_eq_skeleton]; unfold cc34__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.Kernel.Hand

end
-- ==== Proof.RegK34.lean ====
/- Laid out by: python3 scratch/layout_grid41.py --template-region 0 --region 34 --program Kernel --parts a, --shapes S1024x128=S1024x512,S128x512=S512x512
   from the hand-written text of region 0 (RegKI0.lean): the same text, the region's number, block shapes and the program's namespace substituted. -/
/- The region of Kernel's @main that runs `cc34__matmul_kernel` (pipeline `cfg34`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegK34a
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk34 (c : Dev nD) (w : Fin cfg34.W) (t : Fin cfg34.N) : ((cfg34.win w).xblock (cfg34.grid.coords t)).Idx → Elt F (cfg34.win w).elt :=
  ((cfg34.win w).blk t).view.read (Elt F) (V c (Pipeline.arrRef spec34 w))

/-! ## What the case leaves, as pieces read back -/

/-- The output's pieces tile its block (one whole-block store). -/
theorem cover34_2 (c : Dev nD) (i : grid34.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond34_0 i) (hlast : cond34_1 i) (xa : Vec F S1024x512 .f32) (xb : Vec F S512x512 .bf16) (y : S1024x512.Idx) :
    ∃ pc ∈ (kernelRun34 c i arg2 harg2 arg3 harg3 arg4 harg4 arg5 harg5 hfirst hlast xa xb).1, y ∈ pc.1.set :=
  View.cover_of_tiledL (kernelRun34 c i arg2 harg2 arg3 harg3 arg4 harg4 arg5 harg5 hfirst hlast xa xb).1 S1024x512.size (by sl_kernel_rfl) y

/-- What the case leaves in the output's staging buffer: its pieces read back over junk. -/
noncomputable def out34_2 (c : Dev nD) (i : grid34.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond34_0 i) (hlast : cond34_1 i) (xa : Vec F S1024x512 .f32) (xb : Vec F S512x512 .bf16) : Vec F S1024x512 .f32 :=
  VO34_2.read (Elt F) (VO34_2.writes (Elt F) VO34_2.junk (kernelRun34 c i arg2 harg2 arg3 harg3 arg4 harg4 arg5 harg5 hfirst hlast xa xb).1)

/-- What the case leaves in the accumulator: its pieces read back over junk. -/
noncomputable def sout34_0 (c : Dev nD) (i : grid34.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond34_0 i) (hlast : cond34_1 i) (xa : Vec F S1024x512 .f32) (xb : Vec F S512x512 .bf16) : Vec F S1024x512 .f32 :=
  VS34_0.read (Elt F) (VS34_0.writes (Elt F) VS34_0.junk (kernelRun34 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout34_0_eq (c : Dev nD) (i : grid34.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond34_0 i) (hlast : cond34_1 i) (xa : Vec F S1024x512 .f32) (xb : Vec F S512x512 .bf16) :
    sout34_0 c i arg2 harg2 arg3 harg3 arg4 harg4 arg5 harg5 hfirst hlast xa xb = k34_pay2 xa xb (k34_pay1 (F := F)) := by
  unfold sout34_0
  rw [View.read_writes_junk_eq_canon]
  unfold kernelRun34
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out34_2_eq (c : Dev nD) (i : grid34.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond34_0 i) (hlast : cond34_1 i) (xa : Vec F S1024x512 .f32) (xb : Vec F S512x512 .bf16) :
    out34_2 c i arg2 harg2 arg3 harg3 arg4 harg4 arg5 harg5 hfirst hlast xa xb = k34_pay2 xa xb (k34_pay1 (F := F)) := by
  unfold out34_2
  rw [View.read_writes_junk_eq_canon]
  unfold kernelRun34
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt34 (c : Dev nD) (n : ℕ) (hn : n < cfg34.N) : Vec F S1024x512 .f32 × Vec F S1024x512 .f32 :=
  (out34_2 c (grid34.coords ⟨n, hn⟩) (ms34_0 ⟨n, hn⟩) (hs34_0 ⟨n, hn⟩) (ms34_1 ⟨n, hn⟩) (hs34_1 ⟨n, hn⟩) (ms34_2 ⟨n, hn⟩) (hs34_2 ⟨n, hn⟩) scM34_0 (Memref.isWhole_whole _)
      (hcond34_0 ⟨n, hn⟩) (hcond34_1 ⟨n, hn⟩) (iblk34 V c 0 ⟨n, hn⟩) (iblk34 V c 1 ⟨n, hn⟩),
   sout34_0 c (grid34.coords ⟨n, hn⟩) (ms34_0 ⟨n, hn⟩) (hs34_0 ⟨n, hn⟩) (ms34_1 ⟨n, hn⟩) (hs34_1 ⟨n, hn⟩) (ms34_2 ⟨n, hn⟩) (hs34_2 ⟨n, hn⟩) scM34_0 (Memref.isWhole_whole _)
      (hcond34_0 ⟨n, hn⟩) (hcond34_1 ⟨n, hn⟩) (iblk34 V c 0 ⟨n, hn⟩) (iblk34 V c 1 ⟨n, hn⟩))

/-- Every point is a first reduction step: the accumulator after it is one product onto zero. -/
theorem outsAt34_first (c : Dev nD) (t : Fin cfg34.N) :
    (outsAt34 V c t.val t.isLt).2 = k34_pay2 (iblk34 V c 0 t) (iblk34 V c 1 t) (k34_pay1 (F := F)) := by
  obtain ⟨n, hn⟩ := t
  unfold outsAt34
  dsimp only
  rw [sout34_0_eq]

/-- Every point is a last reduction step: the output block after it is the accumulator. -/
theorem outsAt34_last (c : Dev nD) (t : Fin cfg34.N) :
    (outsAt34 V c t.val t.isLt).1 = (outsAt34 V c t.val t.isLt).2 := by
  obtain ⟨n, hn⟩ := t
  unfold outsAt34
  dsimp only
  rw [out34_2_eq, sout34_0_eq]

/-! ## The pipeline's proof data -/

/-- The proof data of the pipeline on core `c`: the arrays as the region finds them; after the body at point `t` each input's
    buffer at its block and the output's at `outsAt34`'s first component; the invariant the same at every point; nothing owed;
    full shares. -/
noncomputable def dat34 (c : Dev nD) : Dat τ (Elt F) Unit ℕ (UR sig nD τ) ℕ cfg34 c where
  A w := V c (Pipeline.arrRef spec34 w)
  after w t := match w with
    | ⟨0, _⟩ => iblk34 V c 0 t
    | ⟨1, _⟩ => iblk34 V c 1 t
    | ⟨2, _⟩ => (outsAt34 V c t.val t.isLt).1
  Φ _ := Pipeline.ΦA spec34 c
  q _ := fullShare
  owed _ := 0

theorem A_eq34 (c : Dev nD) (w : Fin cfg34.W) : (dat34 V c).A w = V c (Pipeline.arrRef spec34 w) := by
  dsimp only [dat34]

theorem after34_0 (c : Dev nD) (t : Fin cfg34.N) : (dat34 V c).after 0 t = iblk34 V c 0 t := by dsimp only [dat34]
theorem after34_1 (c : Dev nD) (t : Fin cfg34.N) : (dat34 V c).after 1 t = iblk34 V c 1 t := by dsimp only [dat34]
theorem after34_2 (c : Dev nD) (t : Fin cfg34.N) : (dat34 V c).after 2 t = (outsAt34 V c t.val t.isLt).1 := by dsimp only [dat34]

/-- An input's current staging buffer holds its block at every point, fetched there or not: where it is not fetched its block
    index has not moved since the point before, and the body left the block in place. -/
theorem before34_0 (c : Dev nD) (t : Fin cfg34.N) (d) : (dat34 V c).before 0 t d = iblk34 V c 0 t :=
  ((dat34 V c).before_in_eq_fetched 0 rfl (fun _ => rfl) (fun _ _ _ => rfl)
      (fun t => by rw [after34_0]; unfold Dat.blockOf iblk34; rw [A_eq34]; try rfl) t d).trans
    (by unfold Dat.fetched Dat.blockOf iblk34; rw [A_eq34]; try rfl)
theorem before34_1 (c : Dev nD) (t : Fin cfg34.N) (d) : (dat34 V c).before 1 t d = iblk34 V c 1 t :=
  ((dat34 V c).before_in_eq_fetched 1 rfl (fun _ => rfl) (fun _ _ _ => rfl)
      (fun t => by rw [after34_1]; unfold Dat.blockOf iblk34; rw [A_eq34]; try rfl) t d).trans
    (by unfold Dat.fetched Dat.blockOf iblk34; rw [A_eq34]; try rfl)

/-! ## The body obligation, at a generic point -/

/-- What the body is called with at point `t`, the windows one by one, -/
noncomputable def bodyPre34 (c : Dev nD) (t : Fin cfg34.N) : sProp 𝕄 :=
  iprop((dat34 V c).Φ t.castSucc ∗ (dat34 V c).owesAt () t.castSucc
    ∗ (∃ d, owns (c : Thread nD τ) (ms34_0 t) fullShare ((dat34 V c).before 0 t d))
    ∗ (∃ d, owns (c : Thread nD τ) (ms34_1 t) fullShare ((dat34 V c).before 1 t d))
    ∗ (∃ d, owns (c : Thread nD τ) (ms34_2 t) fullShare ((dat34 V c).before 2 t d)))

/-- and what it returns. -/
noncomputable def bodyPost34 (c : Dev nD) (t : Fin cfg34.N) : sProp 𝕄 :=
  iprop((dat34 V c).Φ t.succ ∗ (dat34 V c).owesAt () t.succ
    ∗ (dat34 V c).leavesExact 0 t
    ∗ (dat34 V c).leavesExact 1 t
    ∗ (dat34 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body34 (c : Dev nD) (t : Fin cfg34.N) :
    bodyPre34 V c t ⊢ wp frame (wpE (defs₀ (F := F)) Variants.none c none) Set.univ (bodyAt34 t) (fun _ => bodyPost34 V c t) := by
  unfold bodyPre34 bodyPost34 bodyAt34
  simp only [before34_0, before34_1]
  rw [show (dat34 V c).owesAt () t.succ = (dat34 V c).owesAt () t.castSucc from rfl,
    show (dat34 V c).Φ t.succ = Pipeline.ΦA spec34 c from rfl, show (dat34 V c).Φ t.castSucc = Pipeline.ΦA spec34 c from rfl, PhiA34_eq]
  rw [show (dat34 V c).leavesExact 0 t = owns (c : Thread nD τ) (ms34_0 t) fullShare ((dat34 V c).after 0 t) from by
      unfold Dat.leavesExact; rw [liveAt34_0 t], after34_0]
  rw [show (dat34 V c).leavesExact 1 t = owns (c : Thread nD τ) (ms34_1 t) fullShare ((dat34 V c).after 1 t) from by
      unfold Dat.leavesExact; rw [liveAt34_1 t], after34_1]
  rw [show (dat34 V c).leavesExact 2 t = owns (c : Thread nD τ) (ms34_2 t) fullShare ((dat34 V c).after 2 t) from by
      unfold Dat.leavesExact; rw [liveAt34_2 t], after34_2]
  unfold outsAt34 out34_2; (try dsimp only)
  iintro ⟨⟨⟨Hacc, Hrest⟩, Hgen⟩, Howe, ⟨%da, Ha⟩, ⟨%db, Hb⟩, ⟨%dO, Hout⟩⟩
  iapply ((kernelRun34 c (grid34.coords t) _ _ _ _ _ _ _ _ (hcond34_0 t) (hcond34_1 t) (iblk34 V c 0 t) (iblk34 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover34_2 c _ _ _ _ _ _ _ _ _ _ _ _ _)

/-- The library's body obligation, at every point. -/
theorem body_obligation34 (c : Dev nD) : BodyObligation (dat34 (F := F) V c) (defs₀ (F := F)) Variants.none () Set.univ := fun t => by
  rw [bigSep_W34, bigSep_W34]
  exact sound_body34 V c t

/-- What the launch hands the region is the invariant before the first point, -/
theorem hin34 (c : Dev nD) : Pipeline.ΦA spec34 c ⊢ (dat34 V c).Φ 0 := Idealize.SL.BI.Entails.refl _

/-- and the invariant after the last point is what the launch takes back. -/
theorem hout34 (c : Dev nD) : (dat34 V c).Φ (Fin.last cfg34.N) ⊢ Pipeline.ΦA spec34 c := Idealize.SL.BI.Entails.refl _

end Cert.Kernel.Hand

end
-- ==== Proof.RegK35a.lean ====
/- Laid out by: python3 scratch/layout_regions.py --template-region 1 --region 35 --program Kernel --parts a,b,c, --out-dir proof/Proof
   from the hand-written text of region 1 (RegKI1a.lean): the same text, the region's number and the program's namespace substituted. -/
/-
  Region 35 of @main (custom_call 35): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond35_0 (i : grid35.Coords) : Prop := (Scalar.cmpi .ne (Scalar.extui (Scalar.cmpi .eq (BitVec.ofNat 32 (i 1).val) 0#32)) 0#32) = 1#1
/-- It holds exactly at the points with t % 4 = 0. -/
theorem hcond35_0 : ∀ t : Fin cfg35.N, cond35_0 (grid35.coords t) ↔ t.val % 4 = 0 :=
  (by decide +kernel : ∀ t : Fin grid35.N, cond35_0 (grid35.coords t) ↔ t.val % 4 = 0)

/-- "k = 3": the second conditional's test. -/
abbrev cond35_1 (i : grid35.Coords) : Prop := k35_cond2 i = 1#1
/-- It holds exactly at the points with t % 4 = 3. -/
theorem hcond35_1 : ∀ t : Fin cfg35.N, cond35_1 (grid35.coords t) ↔ t.val % 4 = 3 :=
  (by decide +kernel : ∀ t : Fin grid35.N, cond35_1 (grid35.coords t) ↔ t.val % 4 = 3)

/-! ## Where the windows are idle, and where the output is written back -/

/-- The two input windows are never idle. -/
theorem liveAt35_0 : ∀ t : Fin cfg35.N, cfg35.idle 0 (grid35.coords t) = false := by decide +kernel
theorem liveAt35_1 : ∀ t : Fin cfg35.N, cfg35.idle 1 (grid35.coords t) = false := by decide +kernel
/-- Where k ≠ 3 the output window is idle (the body stores nothing into it) and is not written back. -/
theorem idleAt35_2 : ∀ t : Fin cfg35.N, ¬cond35_1 (grid35.coords t) → cfg35.idle 2 (grid35.coords t) = true := by decide +kernel
theorem noFlush35_2 : ∀ t : Fin cfg35.N, ¬cond35_1 (grid35.coords t) → (cfg35.win 2).flush t = false := by decide +kernel
/-- Where k = 3 it is live. -/
theorem liveAt35_2 : ∀ t : Fin cfg35.N, cond35_1 (grid35.coords t) → cfg35.idle 2 (grid35.coords t) = false := by decide +kernel

/-! ## The staging memrefs at a point, and the scratch -/

/-- One staging buffer of the output window, through which its contents are stated. -/
abbrev VO35_2 : View sig .tc .vmem S1024x512 .f32 := (Memref.whole cc35_stg2_0 : Memref sig .tc .vmem S1024x512 .f32).view
abbrev ms35_0 (t : Fin cfg35.N) : Memref sig .tc .vmem S1024x1024 .bf16 := win35_0.stage (cfg35.slots t 0)
abbrev hs35_0 (t : Fin cfg35.N) : (ms35_0 t).IsWhole := hstage35_0 ((cfg35.slots t 0).cast nbuf35_0)
abbrev ms35_1 (t : Fin cfg35.N) : Memref sig .tc .vmem S1024x512 .f32 := win35_1.stage (cfg35.slots t 1)
abbrev hs35_1 (t : Fin cfg35.N) : (ms35_1 t).IsWhole := hstage35_1 ((cfg35.slots t 1).cast nbuf35_1)
abbrev ms35_2 (t : Fin cfg35.N) : Memref sig .tc .vmem S1024x512 .f32 := win35_2.stage (cfg35.slots t 2)
abbrev hs35_2 (t : Fin cfg35.N) : (ms35_2 t).IsWhole := hstage35_2 ((cfg35.slots t 2).cast nbuf35_2)
/-- The accumulator: a whole scoped buffer of the kernel's own. -/
abbrev scM35 : Memref sig .tc .vmem S1024x512 .f32 := Memref.whole cc35_scratch0
abbrev VS35 : View sig .tc .vmem S1024x512 .f32 := scM35.view

/-- The other scoped buffers of the core, none of which this region touches. -/
abbrev restBut35 (c : Dev nD) : sProp 𝕄 :=
  Pipeline.scopedRestBut (Ix := Unit) (Name := ℕ) (U := UR sig nD τ) (Lvl := ℕ) (Val := Elt F) spec35 c [cc35_scratch0]

/-- The region's invariant before its first point: the accumulator at something, the other scoped buffers, the generator register. -/
theorem PhiA35_eq (c : Dev nD) :
    (Pipeline.ΦA spec35 c : sProp 𝕄)
      = iprop(iprop((∃ d, owns (c : Thread nD τ) scM35 fullShare d) ∗ restBut35 c) ∗ (∃ r, prngReg c r)) := by
  unfold Pipeline.ΦA; rw [scopedRest35_split]; simp only [scM35, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun35_A (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond35_0 i) (hc1 : ¬cond35_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc35__matmul_kernel i arg2 harg2 arg3 harg3 arg4 harg4 arg5 harg5) K } := by
  refine ⟨[], ?_, fun xi2 E K => ?run⟩
  case run =>
    simp only [cc35__matmul_kernel_eq_skeleton]; unfold cc35__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK35b.lean ====
/- Laid out by: python3 scratch/layout_regions.py --template-region 1 --region 35 --program Kernel --parts a,b,c, --out-dir proof/Proof
   from the hand-written text of region 1 (RegKI1b.lean): the same text, the region's number and the program's namespace substituted. -/
/-
  Region 35, case B (k = 1, 2): the body's run. Neither conditional is taken: the product of the two blocks is added to what
  the point before left in the accumulator; the output block is not touched.
-/
import proofs.«158944_j64613488001249_1_alg».proof.Proof.RegK35a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun35_B (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond35_0 i) (hc1 : ¬cond35_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc35__matmul_kernel i arg2 harg2 arg3 harg3 arg4 harg4 arg5 harg5) K } := by
  refine ⟨[], ?_, fun xi2 E K => ?run⟩
  case run =>
    simp only [cc35__matmul_kernel_eq_skeleton]; unfold cc35__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK35c.lean ====
/- Laid out by: python3 scratch/layout_regions.py --template-region 1 --region 35 --program Kernel --parts a,b,c, --out-dir proof/Proof
   from the hand-written text of region 1 (RegKI1c.lean): the same text, the region's number and the program's namespace substituted. -/
/-
  Region 35, case C (k = 3): the body's run. The product is added to the accumulator as in case B, and then the second
  conditional copies the accumulator over the whole output block.
-/
import proofs.«158944_j64613488001249_1_alg».proof.Proof.RegK35b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun35_C (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond35_0 i) (hc1 : cond35_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc35__matmul_kernel i arg2 harg2 arg3 harg3 arg4 harg4 arg5 harg5) K } := by
  refine ⟨?_, ?_, fun E K => ?run⟩
  case run =>
    simp only [cc35__matmul_kernel_eq_skeleton]; unfold cc35__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK35.lean ====
/- Laid out by: python3 scratch/layout_regions.py --template-region 1 --region 35 --program Kernel --parts a,b,c, --out-dir proof/Proof
   from the hand-written text of region 1 (RegKI1.lean): the same text, the region's number and the program's namespace substituted. -/
/-
  Region 35 of @main, entered from the buffer contents `V`: what its windows' blocks are, what each case of the body leaves in
  the accumulator and in the output block, the accumulator and the output block point by point (`outsAt35`: at k = 0 the
  accumulator restarts from zeros plus the product; at k = 1, 2, 3 it is the point before's plus the product; at k = 3 the
  output block is the accumulator), the region's invariant (the accumulator at `outsAt35`'s second component), the proof data,
  and the body's obligation at every point.
-/
import proofs.«158944_j64613488001249_1_alg».proof.Proof.RegK35c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk35 (c : Dev nD) (w : Fin cfg35.W) (t : Fin cfg35.N) : ((cfg35.win w).xblock (cfg35.grid.coords t)).Idx → Elt F (cfg35.win w).elt :=
  ((cfg35.win w).blk t).view.read (Elt F) (V c (Pipeline.arrRef spec35 w))

/-- An input window's current staging buffer holds its block at every point, for any proof data whose array is `V`'s and
    whose body leaves the block in place. -/
theorem before35_0_of {c : Dev nD} (dat : Dat τ (Elt F) Unit ℕ (UR sig nD τ) ℕ cfg35 c) (hA : dat.A 0 = V c (Pipeline.arrRef spec35 0))
    (hafter : ∀ t, dat.after 0 t = iblk35 V c 0 t) (t : Fin cfg35.N) (d) : dat.before 0 t d = iblk35 V c 0 t :=
  (dat.before_in_eq_fetched 0 rfl (fun _ => rfl) (fun _ _ _ => rfl) (fun t => by rw [hafter]; unfold Dat.blockOf iblk35; rw [hA]; try rfl) t d).trans
    (by unfold Dat.fetched Dat.blockOf iblk35; rw [hA]; try rfl)
theorem before35_1_of {c : Dev nD} (dat : Dat τ (Elt F) Unit ℕ (UR sig nD τ) ℕ cfg35 c) (hA : dat.A 1 = V c (Pipeline.arrRef spec35 1))
    (hafter : ∀ t, dat.after 1 t = iblk35 V c 1 t) (t : Fin cfg35.N) (d) : dat.before 1 t d = iblk35 V c 1 t :=
  (dat.before_in_eq_fetched 1 rfl (fun _ => rfl) (fun _ _ _ => rfl) (fun t => by rw [hafter]; unfold Dat.blockOf iblk35; rw [hA]; try rfl) t d).trans
    (by unfold Dat.fetched Dat.blockOf iblk35; rw [hA]; try rfl)

/-! ## What each case leaves -/

/-- Case A's stores into the accumulator cover it. -/
theorem scover35_A (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond35_0 i) (hc1 : ¬cond35_1 i)
    (x0 : Vec F S1024x1024 .bf16) (x1 : Vec F S1024x512 .f32) (y : S1024x512.Idx) :
    ∃ pc ∈ (kernelRun35_A c i arg2 harg2 arg3 harg3 arg4 harg4 arg5 harg5 hc0 hc1 x0 x1).2.1, y ∈ pc.1.set :=
  View.cover_of_tiledL (kernelRun35_A c i arg2 harg2 arg3 harg3 arg4 harg4 arg5 harg5 hc0 hc1 x0 x1).2.1 S1024x512.size (by sl_kernel_rfl) y
/-- What case A leaves in the accumulator. -/
noncomputable def sout35_A (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond35_0 i) (hc1 : ¬cond35_1 i)
    (x0 : Vec F S1024x1024 .bf16) (x1 : Vec F S1024x512 .f32) : Vec F S1024x512 .f32 :=
  VS35.read (Elt F) (VS35.writes (Elt F) VS35.junk (kernelRun35_A c i arg2 harg2 arg3 harg3 arg4 harg4 arg5 harg5 hc0 hc1 x0 x1).2.1)

/-- Case B's store into the accumulator covers it. -/
theorem scover35_B (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond35_0 i) (hc1 : ¬cond35_1 i)
    (x0 : Vec F S1024x1024 .bf16) (x1 : Vec F S1024x512 .f32) (xs0 : Vec F S1024x512 .f32) (y : S1024x512.Idx) :
    ∃ pc ∈ (kernelRun35_B c i arg2 harg2 arg3 harg3 arg4 harg4 arg5 harg5 hc0 hc1 x0 x1 xs0).2.1, y ∈ pc.1.set :=
  View.cover_of_tiledL (kernelRun35_B c i arg2 harg2 arg3 harg3 arg4 harg4 arg5 harg5 hc0 hc1 x0 x1 xs0).2.1 S1024x512.size (by sl_kernel_rfl) y
/-- What case B leaves in the accumulator, over what the point before left. -/
noncomputable def sout35_B (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond35_0 i) (hc1 : ¬cond35_1 i)
    (x0 : Vec F S1024x1024 .bf16) (x1 : Vec F S1024x512 .f32) (xs0 : Vec F S1024x512 .f32) : Vec F S1024x512 .f32 :=
  VS35.read (Elt F) (VS35.writes (Elt F) VS35.junk (kernelRun35_B c i arg2 harg2 arg3 harg3 arg4 harg4 arg5 harg5 hc0 hc1 x0 x1 xs0).2.1)

/-- Case C's store into the output block covers it, and so does its store into the accumulator. -/
theorem cover35_C (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond35_0 i) (hc1 : cond35_1 i)
    (x0 : Vec F S1024x1024 .bf16) (x1 : Vec F S1024x512 .f32) (xs0 : Vec F S1024x512 .f32) (y : S1024x512.Idx) :
    ∃ pc ∈ (kernelRun35_C c i arg2 harg2 arg3 harg3 arg4 harg4 arg5 harg5 hc0 hc1 x0 x1 xs0).1, y ∈ pc.1.set :=
  View.cover_of_tiledL (kernelRun35_C c i arg2 harg2 arg3 harg3 arg4 harg4 arg5 harg5 hc0 hc1 x0 x1 xs0).1 S1024x512.size (by sl_kernel_rfl) y
theorem scover35_C (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond35_0 i) (hc1 : cond35_1 i)
    (x0 : Vec F S1024x1024 .bf16) (x1 : Vec F S1024x512 .f32) (xs0 : Vec F S1024x512 .f32) (y : S1024x512.Idx) :
    ∃ pc ∈ (kernelRun35_C c i arg2 harg2 arg3 harg3 arg4 harg4 arg5 harg5 hc0 hc1 x0 x1 xs0).2.1, y ∈ pc.1.set :=
  View.cover_of_tiledL (kernelRun35_C c i arg2 harg2 arg3 harg3 arg4 harg4 arg5 harg5 hc0 hc1 x0 x1 xs0).2.1 S1024x512.size (by sl_kernel_rfl) y
/-- What case C leaves in the output block, and in the accumulator. -/
noncomputable def out35_C (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond35_0 i) (hc1 : cond35_1 i)
    (x0 : Vec F S1024x1024 .bf16) (x1 : Vec F S1024x512 .f32) (xs0 : Vec F S1024x512 .f32) : Vec F S1024x512 .f32 :=
  VO35_2.read (Elt F) (VO35_2.writes (Elt F) VO35_2.junk (kernelRun35_C c i arg2 harg2 arg3 harg3 arg4 harg4 arg5 harg5 hc0 hc1 x0 x1 xs0).1)
noncomputable def sout35_C (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond35_0 i) (hc1 : cond35_1 i)
    (x0 : Vec F S1024x1024 .bf16) (x1 : Vec F S1024x512 .f32) (xs0 : Vec F S1024x512 .f32) : Vec F S1024x512 .f32 :=
  VS35.read (Elt F) (VS35.writes (Elt F) VS35.junk (kernelRun35_C c i arg2 harg2 arg3 harg3 arg4 harg4 arg5 harg5 hc0 hc1 x0 x1 xs0).2.1)

/-- Where the output block is idle nothing consults what it holds: a placeholder. -/
noncomputable def outIdle35 : Vec F S1024x512 .f32 := VO35_2.read (Elt F) (VO35_2.writes (Elt F) VO35_2.junk [])

/-! ## The conditions at a point, from t % 4 -/

theorem isFirst35 (t : Fin cfg35.N) (h : t.val % 4 = 0) : cond35_0 (grid35.coords t) := (hcond35_0 t).mpr h
theorem notFirst35 (t : Fin cfg35.N) (h : ¬t.val % 4 = 0) : ¬cond35_0 (grid35.coords t) := fun hc => h ((hcond35_0 t).mp hc)
theorem isLast35 (t : Fin cfg35.N) (h : t.val % 4 = 3) : cond35_1 (grid35.coords t) := (hcond35_1 t).mpr h
theorem notLast35 (t : Fin cfg35.N) (h : ¬t.val % 4 = 3) : ¬cond35_1 (grid35.coords t) := fun hc => h ((hcond35_1 t).mp hc)

/-! ## The accumulator and the output block, point by point -/

/-- After the body at position `n`: (the output block's buffer, the accumulator). -/
noncomputable def outsAt35 (c : Dev nD) : (n : ℕ) → n < cfg35.N → Vec F S1024x512 .f32 × Vec F S1024x512 .f32
  | 0, hn => (outIdle35, sout35_A c (grid35.coords ⟨0, hn⟩) (ms35_0 ⟨0, hn⟩) (hs35_0 ⟨0, hn⟩) (ms35_1 ⟨0, hn⟩) (hs35_1 ⟨0, hn⟩) (ms35_2 ⟨0, hn⟩) (hs35_2 ⟨0, hn⟩) scM35 (Memref.isWhole_whole _) (isFirst35 ⟨0, hn⟩ (Nat.zero_mod _)) (notLast35 ⟨0, hn⟩ (by simp)) (iblk35 V c 0 ⟨0, hn⟩) (iblk35 V c 1 ⟨0, hn⟩))
  | n + 1, hn =>
    if h0 : (n + 1) % 4 = 0 then
      (outIdle35, sout35_A c (grid35.coords ⟨n + 1, hn⟩) (ms35_0 ⟨n + 1, hn⟩) (hs35_0 ⟨n + 1, hn⟩) (ms35_1 ⟨n + 1, hn⟩) (hs35_1 ⟨n + 1, hn⟩) (ms35_2 ⟨n + 1, hn⟩) (hs35_2 ⟨n + 1, hn⟩) scM35 (Memref.isWhole_whole _) (isFirst35 ⟨n + 1, hn⟩ h0) (notLast35 ⟨n + 1, hn⟩ (by show ¬(n + 1) % 4 = 3; omega)) (iblk35 V c 0 ⟨n + 1, hn⟩) (iblk35 V c 1 ⟨n + 1, hn⟩))
    else if h3 : (n + 1) % 4 = 3 then
      (out35_C c (grid35.coords ⟨n + 1, hn⟩) (ms35_0 ⟨n + 1, hn⟩) (hs35_0 ⟨n + 1, hn⟩) (ms35_1 ⟨n + 1, hn⟩) (hs35_1 ⟨n + 1, hn⟩) (ms35_2 ⟨n + 1, hn⟩) (hs35_2 ⟨n + 1, hn⟩) scM35 (Memref.isWhole_whole _) (notFirst35 ⟨n + 1, hn⟩ h0) (isLast35 ⟨n + 1, hn⟩ h3) (iblk35 V c 0 ⟨n + 1, hn⟩) (iblk35 V c 1 ⟨n + 1, hn⟩) (outsAt35 c n (Nat.lt_of_succ_lt hn)).2,
       sout35_C c (grid35.coords ⟨n + 1, hn⟩) (ms35_0 ⟨n + 1, hn⟩) (hs35_0 ⟨n + 1, hn⟩) (ms35_1 ⟨n + 1, hn⟩) (hs35_1 ⟨n + 1, hn⟩) (ms35_2 ⟨n + 1, hn⟩) (hs35_2 ⟨n + 1, hn⟩) scM35 (Memref.isWhole_whole _) (notFirst35 ⟨n + 1, hn⟩ h0) (isLast35 ⟨n + 1, hn⟩ h3) (iblk35 V c 0 ⟨n + 1, hn⟩) (iblk35 V c 1 ⟨n + 1, hn⟩) (outsAt35 c n (Nat.lt_of_succ_lt hn)).2)
    else
      (outIdle35, sout35_B c (grid35.coords ⟨n + 1, hn⟩) (ms35_0 ⟨n + 1, hn⟩) (hs35_0 ⟨n + 1, hn⟩) (ms35_1 ⟨n + 1, hn⟩) (hs35_1 ⟨n + 1, hn⟩) (ms35_2 ⟨n + 1, hn⟩) (hs35_2 ⟨n + 1, hn⟩) scM35 (Memref.isWhole_whole _) (notFirst35 ⟨n + 1, hn⟩ h0) (notLast35 ⟨n + 1, hn⟩ h3) (iblk35 V c 0 ⟨n + 1, hn⟩) (iblk35 V c 1 ⟨n + 1, hn⟩) (outsAt35 c n (Nat.lt_of_succ_lt hn)).2)

/-- `outsAt35` at a point with k = 0. -/
theorem outsAt35_A (c : Dev nD) (t : Fin cfg35.N) (h0 : t.val % 4 = 0) :
    outsAt35 V c t.val t.isLt = (outIdle35, sout35_A c (grid35.coords t) (ms35_0 t) (hs35_0 t) (ms35_1 t) (hs35_1 t) (ms35_2 t) (hs35_2 t) scM35 (Memref.isWhole_whole _) (isFirst35 t h0) (notLast35 t (by omega)) (iblk35 V c 0 t) (iblk35 V c 1 t)) := by
  obtain ⟨n, hn⟩ := t
  cases n with
  | zero => rfl
  | succ n => exact (dif_pos h0).trans rfl

/-- `outsAt35` at a point with k = 1, 2: over what the point before left. -/
theorem outsAt35_B (c : Dev nD) (t : Fin cfg35.N) (h0 : ¬t.val % 4 = 0) (h3 : ¬t.val % 4 = 3) :
    outsAt35 V c t.val t.isLt = (outIdle35, sout35_B c (grid35.coords t) (ms35_0 t) (hs35_0 t) (ms35_1 t) (hs35_1 t) (ms35_2 t) (hs35_2 t) scM35 (Memref.isWhole_whole _) (notFirst35 t h0) (notLast35 t h3) (iblk35 V c 0 t) (iblk35 V c 1 t)
      (outsAt35 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt35` at a point with k = 3. -/
theorem outsAt35_C (c : Dev nD) (t : Fin cfg35.N) (h0 : ¬t.val % 4 = 0) (h3 : t.val % 4 = 3) :
    outsAt35 V c t.val t.isLt = (out35_C c (grid35.coords t) (ms35_0 t) (hs35_0 t) (ms35_1 t) (hs35_1 t) (ms35_2 t) (hs35_2 t) scM35 (Memref.isWhole_whole _) (notFirst35 t h0) (isLast35 t h3) (iblk35 V c 0 t) (iblk35 V c 1 t)
        (outsAt35 V c (t.val - 1) (Nat.lt_of_le_of_lt (Nat.sub_le _ _) t.isLt)).2,
      sout35_C c (grid35.coords t) (ms35_0 t) (hs35_0 t) (ms35_1 t) (hs35_1 t) (ms35_2 t) (hs35_2 t) scM35 (Memref.isWhole_whole _) (notFirst35 t h0) (isLast35 t h3) (iblk35 V c 0 t) (iblk35 V c 1 t)
        (outsAt35 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS35 (c : Dev nD) : (n : ℕ) → n ≤ cfg35.N → sProp 𝕄
  | 0, _ => Pipeline.ΦA spec35 c
  | n + 1, hn => iprop(iprop(owns (c : Thread nD τ) scM35 fullShare ((outsAt35 V c n hn).2) ∗ restBut35 c) ∗ (∃ r, prngReg c r))

theorem PhiS35_zero (c : Dev nD) (n : ℕ) (h : n ≤ cfg35.N) (hz : n = 0) : PhiS35 V c n h = Pipeline.ΦA spec35 c := by
  subst hz; rfl
theorem PhiS35_succ (c : Dev nD) (n : ℕ) (hn : n < cfg35.N) :
    PhiS35 V c (n + 1) hn = iprop(iprop(owns (c : Thread nD τ) scM35 fullShare ((outsAt35 V c n hn).2) ∗ restBut35 c) ∗ (∃ r, prngReg c r)) := rfl
theorem PhiS35_pos (c : Dev nD) (n : ℕ) (h : n ≤ cfg35.N) (hz : n ≠ 0) :
    PhiS35 V c n h = iprop(iprop(owns (c : Thread nD τ) scM35 fullShare ((outsAt35 V c (n - 1) (by omega)).2) ∗ restBut35 c) ∗ (∃ r, prngReg c r)) := by
  cases n with
  | zero => exact absurd rfl hz
  | succ n => rfl

/-! ## The proof data -/

/-- The region's proof data on core `c`: the arrays as the region finds them; after the body at point `t` each input's
    buffer at its block and the output's at `outsAt35`'s first component; the invariant `PhiS35`; nothing owed; full shares. -/
noncomputable def dat35 (c : Dev nD) : Dat τ (Elt F) Unit ℕ (UR sig nD τ) ℕ cfg35 c where
  A w := V c (Pipeline.arrRef spec35 w)
  after w t := match w with
    | ⟨0, _⟩ => iblk35 V c 0 t
    | ⟨1, _⟩ => iblk35 V c 1 t
    | ⟨2, _⟩ => (outsAt35 V c t.val t.isLt).1
  Φ t := PhiS35 V c t.val (Nat.le_of_lt_succ t.isLt)
  q _ := fullShare
  owed _ := 0

theorem A_eq35 (c : Dev nD) (w : Fin cfg35.W) : (dat35 V c).A w = V c (Pipeline.arrRef spec35 w) := by
  dsimp only [dat35]
theorem PhiS35_castSucc (c : Dev nD) (t : Fin cfg35.N) :
    (dat35 V c).Φ t.castSucc = PhiS35 V c t.val (Nat.le_of_lt t.isLt) := by
  dsimp only [dat35]; simp only [Fin.coe_castSucc]
theorem after35_0 (c : Dev nD) (t : Fin cfg35.N) : (dat35 V c).after 0 t = iblk35 V c 0 t := by dsimp only [dat35]
theorem after35_1 (c : Dev nD) (t : Fin cfg35.N) : (dat35 V c).after 1 t = iblk35 V c 1 t := by dsimp only [dat35]
theorem after35_2 (c : Dev nD) (t : Fin cfg35.N) : (dat35 V c).after 2 t = (outsAt35 V c t.val t.isLt).1 := by dsimp only [dat35]
theorem before35_0 (c : Dev nD) (t : Fin cfg35.N) (d) : (dat35 V c).before 0 t d = iblk35 V c 0 t :=
  before35_0_of V (dat35 V c) (A_eq35 V c 0) (after35_0 V c) t d
theorem before35_1 (c : Dev nD) (t : Fin cfg35.N) (d) : (dat35 V c).before 1 t d = iblk35 V c 1 t :=
  before35_1_of V (dat35 V c) (A_eq35 V c 1) (after35_1 V c) t d

/-! ## The body's obligation -/

noncomputable def bodyPre35 (c : Dev nD) (t : Fin cfg35.N) : sProp 𝕄 :=
  iprop((dat35 V c).Φ t.castSucc ∗ (dat35 V c).owesAt () t.castSucc
    ∗ (∃ d, owns (c : Thread nD τ) (ms35_0 t) fullShare ((dat35 V c).before 0 t d))
    ∗ (∃ d, owns (c : Thread nD τ) (ms35_1 t) fullShare ((dat35 V c).before 1 t d))
    ∗ (∃ d, owns (c : Thread nD τ) (ms35_2 t) fullShare ((dat35 V c).before 2 t d)))

noncomputable def bodyPost35 (c : Dev nD) (t : Fin cfg35.N) : sProp 𝕄 :=
  iprop((dat35 V c).Φ t.succ ∗ (dat35 V c).owesAt () t.succ
    ∗ (dat35 V c).leavesExact 0 t
    ∗ (dat35 V c).leavesExact 1 t
    ∗ (dat35 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body35 (c : Dev nD) (t : Fin cfg35.N) :
    bodyPre35 V c t ⊢ wp frame (wpE (defs₀ (F := F)) Variants.none c none) Set.univ (bodyAt35 t) (fun _ => bodyPost35 V c t) := by
  unfold bodyPre35 bodyPost35 bodyAt35
  simp only [before35_0, before35_1]
  rw [show (dat35 V c).owesAt () t.succ = (dat35 V c).owesAt () t.castSucc from rfl]
  rw [show (dat35 V c).Φ t.succ = PhiS35 V c (t.val + 1) t.isLt from rfl, PhiS35_succ]
  rw [show (dat35 V c).leavesExact 0 t = owns (c : Thread nD τ) (ms35_0 t) fullShare ((dat35 V c).after 0 t) from by
    unfold Dat.leavesExact; rw [liveAt35_0 t], after35_0]
  rw [show (dat35 V c).leavesExact 1 t = owns (c : Thread nD τ) (ms35_1 t) fullShare ((dat35 V c).after 1 t) from by
    unfold Dat.leavesExact; rw [liveAt35_1 t], after35_1]
  by_cases h0 : t.val % 4 = 0
  · have h3 : ¬t.val % 4 = 3 := by omega
    rw [Dat.leavesExact_idle (dat35 V c) 2 t (idleAt35_2 t (notLast35 t h3)) (noFlush35_2 t (notLast35 t h3))]
    rw [outsAt35_A V c t h0]
    unfold sout35_A; (try dsimp only)
    by_cases hz : t.val = 0
    · rw [PhiS35_castSucc V c t, PhiS35_zero V c _ _ hz, PhiA35_eq]
      iintro ⟨⟨⟨HS0, Hrb⟩, Hg⟩, Ho, ⟨%d0, H0⟩, ⟨%d1, H1⟩, ⟨%d2, H2⟩⟩
      iapply ((kernelRun35_A c (grid35.coords t) _ _ _ _ _ _ _ _ (isFirst35 t h0) (notLast35 t (by omega)) (iblk35 V c 0 t) (iblk35 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover35_A c _ _ _ _ _ _ _ _ _ _ _ _ _)
          iexact Hrb
        iexact Hg
      isplitl [Ho]; · iexact Ho
      isplitl [H0]; · iexact H0
      isplitl [H1]; · iexact H1
      iexists _; iexact H2
    · rw [PhiS35_castSucc V c t, PhiS35_pos V c _ _ hz]
      iintro ⟨⟨⟨HS0, Hrb⟩, Hg⟩, Ho, ⟨%d0, H0⟩, ⟨%d1, H1⟩, ⟨%d2, H2⟩⟩
      iapply ((kernelRun35_A c (grid35.coords t) _ _ _ _ _ _ _ _ (isFirst35 t h0) (notLast35 t (by omega)) (iblk35 V c 0 t) (iblk35 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover35_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat35 V c).leavesExact 2 t = owns (c : Thread nD τ) (ms35_2 t) fullShare ((dat35 V c).after 2 t) from by
        unfold Dat.leavesExact; rw [liveAt35_2 t (isLast35 t h3)], after35_2]
      rw [outsAt35_C V c t h0 h3]
      unfold out35_C sout35_C; (try dsimp only)
      rw [PhiS35_castSucc V c t, PhiS35_pos V c _ _ hz]
      iintro ⟨⟨⟨HS0, Hrb⟩, Hg⟩, Ho, ⟨%d0, H0⟩, ⟨%d1, H1⟩, ⟨%d2, H2⟩⟩
      iapply ((kernelRun35_C c (grid35.coords t) _ _ _ _ _ _ _ _ (notFirst35 t h0) (isLast35 t h3) (iblk35 V c 0 t) (iblk35 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover35_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover35_C c _ _ _ _ _ _ _ _ _ _ _ _ _ _)
    · rw [Dat.leavesExact_idle (dat35 V c) 2 t (idleAt35_2 t (notLast35 t h3)) (noFlush35_2 t (notLast35 t h3))]
      rw [outsAt35_B V c t h0 h3]
      unfold sout35_B; (try dsimp only)
      rw [PhiS35_castSucc V c t, PhiS35_pos V c _ _ hz]
      iintro ⟨⟨⟨HS0, Hrb⟩, Hg⟩, Ho, ⟨%d0, H0⟩, ⟨%d1, H1⟩, ⟨%d2, H2⟩⟩
      iapply ((kernelRun35_B c (grid35.coords t) _ _ _ _ _ _ _ _ (notFirst35 t h0) (notLast35 t h3) (iblk35 V c 0 t) (iblk35 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover35_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation35 (c : Dev nD) : BodyObligation (dat35 (F := F) V c) (defs₀ (F := F)) Variants.none () Set.univ := fun t => by
  rw [bigSep_W35, bigSep_W35]
  exact sound_body35 V c t

/-- What the region is entered with is the invariant before the first point. -/
theorem hin35 (c : Dev nD) : Pipeline.ΦA spec35 c ⊢ (dat35 V c).Φ 0 := by
  rw [show (dat35 V c).Φ 0 = PhiS35 V c 0 (Nat.zero_le _) from rfl, PhiS35_zero V c 0 _ rfl]
  try exact Idealize.SL.BI.Entails.refl _

/-- After the last point the invariant gives the class's back: the accumulator's contents are forgotten. -/
theorem hout35 (c : Dev nD) : (dat35 V c).Φ (Fin.last cfg35.N) ⊢ Pipeline.ΦA spec35 c := by
  have hN : cfg35.N = 16 := N_35
  rw [show (dat35 V c).Φ (Fin.last cfg35.N) = PhiS35 V c (Fin.last cfg35.N).val (Nat.le_of_lt_succ (Fin.last cfg35.N).isLt) from rfl,
    PhiS35_pos V c _ _ (by rw [Fin.val_last]; omega), PhiA35_eq]
  iintro ⟨⟨HS0, Hrb⟩, Hg⟩
  isplitl [HS0 Hrb]
  · isplitl [HS0]
    · iexists _; iexact HS0
    iexact Hrb
  iexact Hg

end Cert.Kernel.Hand

end
-- ==== Proof.RegK36a.lean ====
/- Laid out by: python3 scratch/layout_regions.py --template-region 1 --region 36 --program Kernel --parts a,b,c, --out-dir proof/Proof
   from the hand-written text of region 1 (RegKI1a.lean): the same text, the region's number and the program's namespace substituted. -/
/-
  Region 36 of @main (custom_call 36): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond36_0 (i : grid36.Coords) : Prop := (Scalar.cmpi .ne (Scalar.extui (Scalar.cmpi .eq (BitVec.ofNat 32 (i 1).val) 0#32)) 0#32) = 1#1
/-- It holds exactly at the points with t % 4 = 0. -/
theorem hcond36_0 : ∀ t : Fin cfg36.N, cond36_0 (grid36.coords t) ↔ t.val % 4 = 0 :=
  (by decide +kernel : ∀ t : Fin grid36.N, cond36_0 (grid36.coords t) ↔ t.val % 4 = 0)

/-- "k = 3": the second conditional's test. -/
abbrev cond36_1 (i : grid36.Coords) : Prop := k36_cond2 i = 1#1
/-- It holds exactly at the points with t % 4 = 3. -/
theorem hcond36_1 : ∀ t : Fin cfg36.N, cond36_1 (grid36.coords t) ↔ t.val % 4 = 3 :=
  (by decide +kernel : ∀ t : Fin grid36.N, cond36_1 (grid36.coords t) ↔ t.val % 4 = 3)

/-! ## Where the windows are idle, and where the output is written back -/

/-- The two input windows are never idle. -/
theorem liveAt36_0 : ∀ t : Fin cfg36.N, cfg36.idle 0 (grid36.coords t) = false := by decide +kernel
theorem liveAt36_1 : ∀ t : Fin cfg36.N, cfg36.idle 1 (grid36.coords t) = false := by decide +kernel
/-- Where k ≠ 3 the output window is idle (the body stores nothing into it) and is not written back. -/
theorem idleAt36_2 : ∀ t : Fin cfg36.N, ¬cond36_1 (grid36.coords t) → cfg36.idle 2 (grid36.coords t) = true := by decide +kernel
theorem noFlush36_2 : ∀ t : Fin cfg36.N, ¬cond36_1 (grid36.coords t) → (cfg36.win 2).flush t = false := by decide +kernel
/-- Where k = 3 it is live. -/
theorem liveAt36_2 : ∀ t : Fin cfg36.N, cond36_1 (grid36.coords t) → cfg36.idle 2 (grid36.coords t) = false := by decide +kernel

/-! ## The staging memrefs at a point, and the scratch -/

/-- One staging buffer of the output window, through which its contents are stated. -/
abbrev VO36_2 : View sig .tc .vmem S1024x512 .f32 := (Memref.whole cc36_stg2_0 : Memref sig .tc .vmem S1024x512 .f32).view
abbrev ms36_0 (t : Fin cfg36.N) : Memref sig .tc .vmem S1024x1024 .bf16 := win36_0.stage (cfg36.slots t 0)
abbrev hs36_0 (t : Fin cfg36.N) : (ms36_0 t).IsWhole := hstage36_0 ((cfg36.slots t 0).cast nbuf36_0)
abbrev ms36_1 (t : Fin cfg36.N) : Memref sig .tc .vmem S1024x512 .f32 := win36_1.stage (cfg36.slots t 1)
abbrev hs36_1 (t : Fin cfg36.N) : (ms36_1 t).IsWhole := hstage36_1 ((cfg36.slots t 1).cast nbuf36_1)
abbrev ms36_2 (t : Fin cfg36.N) : Memref sig .tc .vmem S1024x512 .f32 := win36_2.stage (cfg36.slots t 2)
abbrev hs36_2 (t : Fin cfg36.N) : (ms36_2 t).IsWhole := hstage36_2 ((cfg36.slots t 2).cast nbuf36_2)
/-- The accumulator: a whole scoped buffer of the kernel's own. -/
abbrev scM36 : Memref sig .tc .vmem S1024x512 .f32 := Memref.whole cc36_scratch0
abbrev VS36 : View sig .tc .vmem S1024x512 .f32 := scM36.view

/-- The other scoped buffers of the core, none of which this region touches. -/
abbrev restBut36 (c : Dev nD) : sProp 𝕄 :=
  Pipeline.scopedRestBut (Ix := Unit) (Name := ℕ) (U := UR sig nD τ) (Lvl := ℕ) (Val := Elt F) spec36 c [cc36_scratch0]

/-- The region's invariant before its first point: the accumulator at something, the other scoped buffers, the generator register. -/
theorem PhiA36_eq (c : Dev nD) :
    (Pipeline.ΦA spec36 c : sProp 𝕄)
      = iprop(iprop((∃ d, owns (c : Thread nD τ) scM36 fullShare d) ∗ restBut36 c) ∗ (∃ r, prngReg c r)) := by
  unfold Pipeline.ΦA; rw [scopedRest36_split]; simp only [scM36, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun36_A (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond36_0 i) (hc1 : ¬cond36_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc36__matmul_kernel i arg2 harg2 arg3 harg3 arg4 harg4 arg5 harg5) K } := by
  refine ⟨[], ?_, fun xi2 E K => ?run⟩
  case run =>
    simp only [cc36__matmul_kernel_eq_skeleton]; unfold cc36__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK36b.lean ====
/- Laid out by: python3 scratch/layout_regions.py --template-region 1 --region 36 --program Kernel --parts a,b,c, --out-dir proof/Proof
   from the hand-written text of region 1 (RegKI1b.lean): the same text, the region's number and the program's namespace substituted. -/
/-
  Region 36, case B (k = 1, 2): the body's run. Neither conditional is taken: the product of the two blocks is added to what
  the point before left in the accumulator; the output block is not touched.
-/
import proofs.«158944_j64613488001249_1_alg».proof.Proof.RegK36a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun36_B (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond36_0 i) (hc1 : ¬cond36_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc36__matmul_kernel i arg2 harg2 arg3 harg3 arg4 harg4 arg5 harg5) K } := by
  refine ⟨[], ?_, fun xi2 E K => ?run⟩
  case run =>
    simp only [cc36__matmul_kernel_eq_skeleton]; unfold cc36__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK36c.lean ====
/- Laid out by: python3 scratch/layout_regions.py --template-region 1 --region 36 --program Kernel --parts a,b,c, --out-dir proof/Proof
   from the hand-written text of region 1 (RegKI1c.lean): the same text, the region's number and the program's namespace substituted. -/
/-
  Region 36, case C (k = 3): the body's run. The product is added to the accumulator as in case B, and then the second
  conditional copies the accumulator over the whole output block.
-/
import proofs.«158944_j64613488001249_1_alg».proof.Proof.RegK36b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun36_C (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond36_0 i) (hc1 : cond36_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc36__matmul_kernel i arg2 harg2 arg3 harg3 arg4 harg4 arg5 harg5) K } := by
  refine ⟨?_, ?_, fun E K => ?run⟩
  case run =>
    simp only [cc36__matmul_kernel_eq_skeleton]; unfold cc36__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK36.lean ====
/- Laid out by: python3 scratch/layout_regions.py --template-region 1 --region 36 --program Kernel --parts a,b,c, --out-dir proof/Proof
   from the hand-written text of region 1 (RegKI1.lean): the same text, the region's number and the program's namespace substituted. -/
/-
  Region 36 of @main, entered from the buffer contents `V`: what its windows' blocks are, what each case of the body leaves in
  the accumulator and in the output block, the accumulator and the output block point by point (`outsAt36`: at k = 0 the
  accumulator restarts from zeros plus the product; at k = 1, 2, 3 it is the point before's plus the product; at k = 3 the
  output block is the accumulator), the region's invariant (the accumulator at `outsAt36`'s second component), the proof data,
  and the body's obligation at every point.
-/
import proofs.«158944_j64613488001249_1_alg».proof.Proof.RegK36c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk36 (c : Dev nD) (w : Fin cfg36.W) (t : Fin cfg36.N) : ((cfg36.win w).xblock (cfg36.grid.coords t)).Idx → Elt F (cfg36.win w).elt :=
  ((cfg36.win w).blk t).view.read (Elt F) (V c (Pipeline.arrRef spec36 w))

/-- An input window's current staging buffer holds its block at every point, for any proof data whose array is `V`'s and
    whose body leaves the block in place. -/
theorem before36_0_of {c : Dev nD} (dat : Dat τ (Elt F) Unit ℕ (UR sig nD τ) ℕ cfg36 c) (hA : dat.A 0 = V c (Pipeline.arrRef spec36 0))
    (hafter : ∀ t, dat.after 0 t = iblk36 V c 0 t) (t : Fin cfg36.N) (d) : dat.before 0 t d = iblk36 V c 0 t :=
  (dat.before_in_eq_fetched 0 rfl (fun _ => rfl) (fun _ _ _ => rfl) (fun t => by rw [hafter]; unfold Dat.blockOf iblk36; rw [hA]; try rfl) t d).trans
    (by unfold Dat.fetched Dat.blockOf iblk36; rw [hA]; try rfl)
theorem before36_1_of {c : Dev nD} (dat : Dat τ (Elt F) Unit ℕ (UR sig nD τ) ℕ cfg36 c) (hA : dat.A 1 = V c (Pipeline.arrRef spec36 1))
    (hafter : ∀ t, dat.after 1 t = iblk36 V c 1 t) (t : Fin cfg36.N) (d) : dat.before 1 t d = iblk36 V c 1 t :=
  (dat.before_in_eq_fetched 1 rfl (fun _ => rfl) (fun _ _ _ => rfl) (fun t => by rw [hafter]; unfold Dat.blockOf iblk36; rw [hA]; try rfl) t d).trans
    (by unfold Dat.fetched Dat.blockOf iblk36; rw [hA]; try rfl)

/-! ## What each case leaves -/

/-- Case A's stores into the accumulator cover it. -/
theorem scover36_A (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond36_0 i) (hc1 : ¬cond36_1 i)
    (x0 : Vec F S1024x1024 .bf16) (x1 : Vec F S1024x512 .f32) (y : S1024x512.Idx) :
    ∃ pc ∈ (kernelRun36_A c i arg2 harg2 arg3 harg3 arg4 harg4 arg5 harg5 hc0 hc1 x0 x1).2.1, y ∈ pc.1.set :=
  View.cover_of_tiledL (kernelRun36_A c i arg2 harg2 arg3 harg3 arg4 harg4 arg5 harg5 hc0 hc1 x0 x1).2.1 S1024x512.size (by sl_kernel_rfl) y
/-- What case A leaves in the accumulator. -/
noncomputable def sout36_A (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond36_0 i) (hc1 : ¬cond36_1 i)
    (x0 : Vec F S1024x1024 .bf16) (x1 : Vec F S1024x512 .f32) : Vec F S1024x512 .f32 :=
  VS36.read (Elt F) (VS36.writes (Elt F) VS36.junk (kernelRun36_A c i arg2 harg2 arg3 harg3 arg4 harg4 arg5 harg5 hc0 hc1 x0 x1).2.1)

/-- Case B's store into the accumulator covers it. -/
theorem scover36_B (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond36_0 i) (hc1 : ¬cond36_1 i)
    (x0 : Vec F S1024x1024 .bf16) (x1 : Vec F S1024x512 .f32) (xs0 : Vec F S1024x512 .f32) (y : S1024x512.Idx) :
    ∃ pc ∈ (kernelRun36_B c i arg2 harg2 arg3 harg3 arg4 harg4 arg5 harg5 hc0 hc1 x0 x1 xs0).2.1, y ∈ pc.1.set :=
  View.cover_of_tiledL (kernelRun36_B c i arg2 harg2 arg3 harg3 arg4 harg4 arg5 harg5 hc0 hc1 x0 x1 xs0).2.1 S1024x512.size (by sl_kernel_rfl) y
/-- What case B leaves in the accumulator, over what the point before left. -/
noncomputable def sout36_B (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond36_0 i) (hc1 : ¬cond36_1 i)
    (x0 : Vec F S1024x1024 .bf16) (x1 : Vec F S1024x512 .f32) (xs0 : Vec F S1024x512 .f32) : Vec F S1024x512 .f32 :=
  VS36.read (Elt F) (VS36.writes (Elt F) VS36.junk (kernelRun36_B c i arg2 harg2 arg3 harg3 arg4 harg4 arg5 harg5 hc0 hc1 x0 x1 xs0).2.1)

/-- Case C's store into the output block covers it, and so does its store into the accumulator. -/
theorem cover36_C (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond36_0 i) (hc1 : cond36_1 i)
    (x0 : Vec F S1024x1024 .bf16) (x1 : Vec F S1024x512 .f32) (xs0 : Vec F S1024x512 .f32) (y : S1024x512.Idx) :
    ∃ pc ∈ (kernelRun36_C c i arg2 harg2 arg3 harg3 arg4 harg4 arg5 harg5 hc0 hc1 x0 x1 xs0).1, y ∈ pc.1.set :=
  View.cover_of_tiledL (kernelRun36_C c i arg2 harg2 arg3 harg3 arg4 harg4 arg5 harg5 hc0 hc1 x0 x1 xs0).1 S1024x512.size (by sl_kernel_rfl) y
theorem scover36_C (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond36_0 i) (hc1 : cond36_1 i)
    (x0 : Vec F S1024x1024 .bf16) (x1 : Vec F S1024x512 .f32) (xs0 : Vec F S1024x512 .f32) (y : S1024x512.Idx) :
    ∃ pc ∈ (kernelRun36_C c i arg2 harg2 arg3 harg3 arg4 harg4 arg5 harg5 hc0 hc1 x0 x1 xs0).2.1, y ∈ pc.1.set :=
  View.cover_of_tiledL (kernelRun36_C c i arg2 harg2 arg3 harg3 arg4 harg4 arg5 harg5 hc0 hc1 x0 x1 xs0).2.1 S1024x512.size (by sl_kernel_rfl) y
/-- What case C leaves in the output block, and in the accumulator. -/
noncomputable def out36_C (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond36_0 i) (hc1 : cond36_1 i)
    (x0 : Vec F S1024x1024 .bf16) (x1 : Vec F S1024x512 .f32) (xs0 : Vec F S1024x512 .f32) : Vec F S1024x512 .f32 :=
  VO36_2.read (Elt F) (VO36_2.writes (Elt F) VO36_2.junk (kernelRun36_C c i arg2 harg2 arg3 harg3 arg4 harg4 arg5 harg5 hc0 hc1 x0 x1 xs0).1)
noncomputable def sout36_C (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond36_0 i) (hc1 : cond36_1 i)
    (x0 : Vec F S1024x1024 .bf16) (x1 : Vec F S1024x512 .f32) (xs0 : Vec F S1024x512 .f32) : Vec F S1024x512 .f32 :=
  VS36.read (Elt F) (VS36.writes (Elt F) VS36.junk (kernelRun36_C c i arg2 harg2 arg3 harg3 arg4 harg4 arg5 harg5 hc0 hc1 x0 x1 xs0).2.1)

/-- Where the output block is idle nothing consults what it holds: a placeholder. -/
noncomputable def outIdle36 : Vec F S1024x512 .f32 := VO36_2.read (Elt F) (VO36_2.writes (Elt F) VO36_2.junk [])

/-! ## The conditions at a point, from t % 4 -/

theorem isFirst36 (t : Fin cfg36.N) (h : t.val % 4 = 0) : cond36_0 (grid36.coords t) := (hcond36_0 t).mpr h
theorem notFirst36 (t : Fin cfg36.N) (h : ¬t.val % 4 = 0) : ¬cond36_0 (grid36.coords t) := fun hc => h ((hcond36_0 t).mp hc)
theorem isLast36 (t : Fin cfg36.N) (h : t.val % 4 = 3) : cond36_1 (grid36.coords t) := (hcond36_1 t).mpr h
theorem notLast36 (t : Fin cfg36.N) (h : ¬t.val % 4 = 3) : ¬cond36_1 (grid36.coords t) := fun hc => h ((hcond36_1 t).mp hc)

/-! ## The accumulator and the output block, point by point -/

/-- After the body at position `n`: (the output block's buffer, the accumulator). -/
noncomputable def outsAt36 (c : Dev nD) : (n : ℕ) → n < cfg36.N → Vec F S1024x512 .f32 × Vec F S1024x512 .f32
  | 0, hn => (outIdle36, sout36_A c (grid36.coords ⟨0, hn⟩) (ms36_0 ⟨0, hn⟩) (hs36_0 ⟨0, hn⟩) (ms36_1 ⟨0, hn⟩) (hs36_1 ⟨0, hn⟩) (ms36_2 ⟨0, hn⟩) (hs36_2 ⟨0, hn⟩) scM36 (Memref.isWhole_whole _) (isFirst36 ⟨0, hn⟩ (Nat.zero_mod _)) (notLast36 ⟨0, hn⟩ (by simp)) (iblk36 V c 0 ⟨0, hn⟩) (iblk36 V c 1 ⟨0, hn⟩))
  | n + 1, hn =>
    if h0 : (n + 1) % 4 = 0 then
      (outIdle36, sout36_A c (grid36.coords ⟨n + 1, hn⟩) (ms36_0 ⟨n + 1, hn⟩) (hs36_0 ⟨n + 1, hn⟩) (ms36_1 ⟨n + 1, hn⟩) (hs36_1 ⟨n + 1, hn⟩) (ms36_2 ⟨n + 1, hn⟩) (hs36_2 ⟨n + 1, hn⟩) scM36 (Memref.isWhole_whole _) (isFirst36 ⟨n + 1, hn⟩ h0) (notLast36 ⟨n + 1, hn⟩ (by show ¬(n + 1) % 4 = 3; omega)) (iblk36 V c 0 ⟨n + 1, hn⟩) (iblk36 V c 1 ⟨n + 1, hn⟩))
    else if h3 : (n + 1) % 4 = 3 then
      (out36_C c (grid36.coords ⟨n + 1, hn⟩) (ms36_0 ⟨n + 1, hn⟩) (hs36_0 ⟨n + 1, hn⟩) (ms36_1 ⟨n + 1, hn⟩) (hs36_1 ⟨n + 1, hn⟩) (ms36_2 ⟨n + 1, hn⟩) (hs36_2 ⟨n + 1, hn⟩) scM36 (Memref.isWhole_whole _) (notFirst36 ⟨n + 1, hn⟩ h0) (isLast36 ⟨n + 1, hn⟩ h3) (iblk36 V c 0 ⟨n + 1, hn⟩) (iblk36 V c 1 ⟨n + 1, hn⟩) (outsAt36 c n (Nat.lt_of_succ_lt hn)).2,
       sout36_C c (grid36.coords ⟨n + 1, hn⟩) (ms36_0 ⟨n + 1, hn⟩) (hs36_0 ⟨n + 1, hn⟩) (ms36_1 ⟨n + 1, hn⟩) (hs36_1 ⟨n + 1, hn⟩) (ms36_2 ⟨n + 1, hn⟩) (hs36_2 ⟨n + 1, hn⟩) scM36 (Memref.isWhole_whole _) (notFirst36 ⟨n + 1, hn⟩ h0) (isLast36 ⟨n + 1, hn⟩ h3) (iblk36 V c 0 ⟨n + 1, hn⟩) (iblk36 V c 1 ⟨n + 1, hn⟩) (outsAt36 c n (Nat.lt_of_succ_lt hn)).2)
    else
      (outIdle36, sout36_B c (grid36.coords ⟨n + 1, hn⟩) (ms36_0 ⟨n + 1, hn⟩) (hs36_0 ⟨n + 1, hn⟩) (ms36_1 ⟨n + 1, hn⟩) (hs36_1 ⟨n + 1, hn⟩) (ms36_2 ⟨n + 1, hn⟩) (hs36_2 ⟨n + 1, hn⟩) scM36 (Memref.isWhole_whole _) (notFirst36 ⟨n + 1, hn⟩ h0) (notLast36 ⟨n + 1, hn⟩ h3) (iblk36 V c 0 ⟨n + 1, hn⟩) (iblk36 V c 1 ⟨n + 1, hn⟩) (outsAt36 c n (Nat.lt_of_succ_lt hn)).2)

/-- `outsAt36` at a point with k = 0. -/
theorem outsAt36_A (c : Dev nD) (t : Fin cfg36.N) (h0 : t.val % 4 = 0) :
    outsAt36 V c t.val t.isLt = (outIdle36, sout36_A c (grid36.coords t) (ms36_0 t) (hs36_0 t) (ms36_1 t) (hs36_1 t) (ms36_2 t) (hs36_2 t) scM36 (Memref.isWhole_whole _) (isFirst36 t h0) (notLast36 t (by omega)) (iblk36 V c 0 t) (iblk36 V c 1 t)) := by
  obtain ⟨n, hn⟩ := t
  cases n with
  | zero => rfl
  | succ n => exact (dif_pos h0).trans rfl

/-- `outsAt36` at a point with k = 1, 2: over what the point before left. -/
theorem outsAt36_B (c : Dev nD) (t : Fin cfg36.N) (h0 : ¬t.val % 4 = 0) (h3 : ¬t.val % 4 = 3) :
    outsAt36 V c t.val t.isLt = (outIdle36, sout36_B c (grid36.coords t) (ms36_0 t) (hs36_0 t) (ms36_1 t) (hs36_1 t) (ms36_2 t) (hs36_2 t) scM36 (Memref.isWhole_whole _) (notFirst36 t h0) (notLast36 t h3) (iblk36 V c 0 t) (iblk36 V c 1 t)
      (outsAt36 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt36` at a point with k = 3. -/
theorem outsAt36_C (c : Dev nD) (t : Fin cfg36.N) (h0 : ¬t.val % 4 = 0) (h3 : t.val % 4 = 3) :
    outsAt36 V c t.val t.isLt = (out36_C c (grid36.coords t) (ms36_0 t) (hs36_0 t) (ms36_1 t) (hs36_1 t) (ms36_2 t) (hs36_2 t) scM36 (Memref.isWhole_whole _) (notFirst36 t h0) (isLast36 t h3) (iblk36 V c 0 t) (iblk36 V c 1 t)
        (outsAt36 V c (t.val - 1) (Nat.lt_of_le_of_lt (Nat.sub_le _ _) t.isLt)).2,
      sout36_C c (grid36.coords t) (ms36_0 t) (hs36_0 t) (ms36_1 t) (hs36_1 t) (ms36_2 t) (hs36_2 t) scM36 (Memref.isWhole_whole _) (notFirst36 t h0) (isLast36 t h3) (iblk36 V c 0 t) (iblk36 V c 1 t)
        (outsAt36 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS36 (c : Dev nD) : (n : ℕ) → n ≤ cfg36.N → sProp 𝕄
  | 0, _ => Pipeline.ΦA spec36 c
  | n + 1, hn => iprop(iprop(owns (c : Thread nD τ) scM36 fullShare ((outsAt36 V c n hn).2) ∗ restBut36 c) ∗ (∃ r, prngReg c r))

theorem PhiS36_zero (c : Dev nD) (n : ℕ) (h : n ≤ cfg36.N) (hz : n = 0) : PhiS36 V c n h = Pipeline.ΦA spec36 c := by
  subst hz; rfl
theorem PhiS36_succ (c : Dev nD) (n : ℕ) (hn : n < cfg36.N) :
    PhiS36 V c (n + 1) hn = iprop(iprop(owns (c : Thread nD τ) scM36 fullShare ((outsAt36 V c n hn).2) ∗ restBut36 c) ∗ (∃ r, prngReg c r)) := rfl
theorem PhiS36_pos (c : Dev nD) (n : ℕ) (h : n ≤ cfg36.N) (hz : n ≠ 0) :
    PhiS36 V c n h = iprop(iprop(owns (c : Thread nD τ) scM36 fullShare ((outsAt36 V c (n - 1) (by omega)).2) ∗ restBut36 c) ∗ (∃ r, prngReg c r)) := by
  cases n with
  | zero => exact absurd rfl hz
  | succ n => rfl

/-! ## The proof data -/

/-- The region's proof data on core `c`: the arrays as the region finds them; after the body at point `t` each input's
    buffer at its block and the output's at `outsAt36`'s first component; the invariant `PhiS36`; nothing owed; full shares. -/
noncomputable def dat36 (c : Dev nD) : Dat τ (Elt F) Unit ℕ (UR sig nD τ) ℕ cfg36 c where
  A w := V c (Pipeline.arrRef spec36 w)
  after w t := match w with
    | ⟨0, _⟩ => iblk36 V c 0 t
    | ⟨1, _⟩ => iblk36 V c 1 t
    | ⟨2, _⟩ => (outsAt36 V c t.val t.isLt).1
  Φ t := PhiS36 V c t.val (Nat.le_of_lt_succ t.isLt)
  q _ := fullShare
  owed _ := 0

theorem A_eq36 (c : Dev nD) (w : Fin cfg36.W) : (dat36 V c).A w = V c (Pipeline.arrRef spec36 w) := by
  dsimp only [dat36]
theorem PhiS36_castSucc (c : Dev nD) (t : Fin cfg36.N) :
    (dat36 V c).Φ t.castSucc = PhiS36 V c t.val (Nat.le_of_lt t.isLt) := by
  dsimp only [dat36]; simp only [Fin.coe_castSucc]
theorem after36_0 (c : Dev nD) (t : Fin cfg36.N) : (dat36 V c).after 0 t = iblk36 V c 0 t := by dsimp only [dat36]
theorem after36_1 (c : Dev nD) (t : Fin cfg36.N) : (dat36 V c).after 1 t = iblk36 V c 1 t := by dsimp only [dat36]
theorem after36_2 (c : Dev nD) (t : Fin cfg36.N) : (dat36 V c).after 2 t = (outsAt36 V c t.val t.isLt).1 := by dsimp only [dat36]
theorem before36_0 (c : Dev nD) (t : Fin cfg36.N) (d) : (dat36 V c).before 0 t d = iblk36 V c 0 t :=
  before36_0_of V (dat36 V c) (A_eq36 V c 0) (after36_0 V c) t d
theorem before36_1 (c : Dev nD) (t : Fin cfg36.N) (d) : (dat36 V c).before 1 t d = iblk36 V c 1 t :=
  before36_1_of V (dat36 V c) (A_eq36 V c 1) (after36_1 V c) t d

/-! ## The body's obligation -/

noncomputable def bodyPre36 (c : Dev nD) (t : Fin cfg36.N) : sProp 𝕄 :=
  iprop((dat36 V c).Φ t.castSucc ∗ (dat36 V c).owesAt () t.castSucc
    ∗ (∃ d, owns (c : Thread nD τ) (ms36_0 t) fullShare ((dat36 V c).before 0 t d))
    ∗ (∃ d, owns (c : Thread nD τ) (ms36_1 t) fullShare ((dat36 V c).before 1 t d))
    ∗ (∃ d, owns (c : Thread nD τ) (ms36_2 t) fullShare ((dat36 V c).before 2 t d)))

noncomputable def bodyPost36 (c : Dev nD) (t : Fin cfg36.N) : sProp 𝕄 :=
  iprop((dat36 V c).Φ t.succ ∗ (dat36 V c).owesAt () t.succ
    ∗ (dat36 V c).leavesExact 0 t
    ∗ (dat36 V c).leavesExact 1 t
    ∗ (dat36 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body36 (c : Dev nD) (t : Fin cfg36.N) :
    bodyPre36 V c t ⊢ wp frame (wpE (defs₀ (F := F)) Variants.none c none) Set.univ (bodyAt36 t) (fun _ => bodyPost36 V c t) := by
  unfold bodyPre36 bodyPost36 bodyAt36
  simp only [before36_0, before36_1]
  rw [show (dat36 V c).owesAt () t.succ = (dat36 V c).owesAt () t.castSucc from rfl]
  rw [show (dat36 V c).Φ t.succ = PhiS36 V c (t.val + 1) t.isLt from rfl, PhiS36_succ]
  rw [show (dat36 V c).leavesExact 0 t = owns (c : Thread nD τ) (ms36_0 t) fullShare ((dat36 V c).after 0 t) from by
    unfold Dat.leavesExact; rw [liveAt36_0 t], after36_0]
  rw [show (dat36 V c).leavesExact 1 t = owns (c : Thread nD τ) (ms36_1 t) fullShare ((dat36 V c).after 1 t) from by
    unfold Dat.leavesExact; rw [liveAt36_1 t], after36_1]
  by_cases h0 : t.val % 4 = 0
  · have h3 : ¬t.val % 4 = 3 := by omega
    rw [Dat.leavesExact_idle (dat36 V c) 2 t (idleAt36_2 t (notLast36 t h3)) (noFlush36_2 t (notLast36 t h3))]
    rw [outsAt36_A V c t h0]
    unfold sout36_A; (try dsimp only)
    by_cases hz : t.val = 0
    · rw [PhiS36_castSucc V c t, PhiS36_zero V c _ _ hz, PhiA36_eq]
      iintro ⟨⟨⟨HS0, Hrb⟩, Hg⟩, Ho, ⟨%d0, H0⟩, ⟨%d1, H1⟩, ⟨%d2, H2⟩⟩
      iapply ((kernelRun36_A c (grid36.coords t) _ _ _ _ _ _ _ _ (isFirst36 t h0) (notLast36 t (by omega)) (iblk36 V c 0 t) (iblk36 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover36_A c _ _ _ _ _ _ _ _ _ _ _ _ _)
          iexact Hrb
        iexact Hg
      isplitl [Ho]; · iexact Ho
      isplitl [H0]; · iexact H0
      isplitl [H1]; · iexact H1
      iexists _; iexact H2
    · rw [PhiS36_castSucc V c t, PhiS36_pos V c _ _ hz]
      iintro ⟨⟨⟨HS0, Hrb⟩, Hg⟩, Ho, ⟨%d0, H0⟩, ⟨%d1, H1⟩, ⟨%d2, H2⟩⟩
      iapply ((kernelRun36_A c (grid36.coords t) _ _ _ _ _ _ _ _ (isFirst36 t h0) (notLast36 t (by omega)) (iblk36 V c 0 t) (iblk36 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover36_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat36 V c).leavesExact 2 t = owns (c : Thread nD τ) (ms36_2 t) fullShare ((dat36 V c).after 2 t) from by
        unfold Dat.leavesExact; rw [liveAt36_2 t (isLast36 t h3)], after36_2]
      rw [outsAt36_C V c t h0 h3]
      unfold out36_C sout36_C; (try dsimp only)
      rw [PhiS36_castSucc V c t, PhiS36_pos V c _ _ hz]
      iintro ⟨⟨⟨HS0, Hrb⟩, Hg⟩, Ho, ⟨%d0, H0⟩, ⟨%d1, H1⟩, ⟨%d2, H2⟩⟩
      iapply ((kernelRun36_C c (grid36.coords t) _ _ _ _ _ _ _ _ (notFirst36 t h0) (isLast36 t h3) (iblk36 V c 0 t) (iblk36 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover36_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover36_C c _ _ _ _ _ _ _ _ _ _ _ _ _ _)
    · rw [Dat.leavesExact_idle (dat36 V c) 2 t (idleAt36_2 t (notLast36 t h3)) (noFlush36_2 t (notLast36 t h3))]
      rw [outsAt36_B V c t h0 h3]
      unfold sout36_B; (try dsimp only)
      rw [PhiS36_castSucc V c t, PhiS36_pos V c _ _ hz]
      iintro ⟨⟨⟨HS0, Hrb⟩, Hg⟩, Ho, ⟨%d0, H0⟩, ⟨%d1, H1⟩, ⟨%d2, H2⟩⟩
      iapply ((kernelRun36_B c (grid36.coords t) _ _ _ _ _ _ _ _ (notFirst36 t h0) (notLast36 t h3) (iblk36 V c 0 t) (iblk36 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover36_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation36 (c : Dev nD) : BodyObligation (dat36 (F := F) V c) (defs₀ (F := F)) Variants.none () Set.univ := fun t => by
  rw [bigSep_W36, bigSep_W36]
  exact sound_body36 V c t

/-- What the region is entered with is the invariant before the first point. -/
theorem hin36 (c : Dev nD) : Pipeline.ΦA spec36 c ⊢ (dat36 V c).Φ 0 := by
  rw [show (dat36 V c).Φ 0 = PhiS36 V c 0 (Nat.zero_le _) from rfl, PhiS36_zero V c 0 _ rfl]
  try exact Idealize.SL.BI.Entails.refl _

/-- After the last point the invariant gives the class's back: the accumulator's contents are forgotten. -/
theorem hout36 (c : Dev nD) : (dat36 V c).Φ (Fin.last cfg36.N) ⊢ Pipeline.ΦA spec36 c := by
  have hN : cfg36.N = 16 := N_36
  rw [show (dat36 V c).Φ (Fin.last cfg36.N) = PhiS36 V c (Fin.last cfg36.N).val (Nat.le_of_lt_succ (Fin.last cfg36.N).isLt) from rfl,
    PhiS36_pos V c _ _ (by rw [Fin.val_last]; omega), PhiA36_eq]
  iintro ⟨⟨HS0, Hrb⟩, Hg⟩
  isplitl [HS0 Hrb]
  · isplitl [HS0]
    · iexists _; iexact HS0
    iexact Hrb
  iexact Hg

end Cert.Kernel.Hand

end
-- ==== Proof.RegK37a.lean ====
/- Laid out by: python3 scratch/layout_regions.py --template-region 1 --region 37 --program Kernel --parts a,b,c, --out-dir proof/Proof
   from the hand-written text of region 1 (RegKI1a.lean): the same text, the region's number and the program's namespace substituted. -/
/-
  Region 37 of @main (custom_call 37): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond37_0 (i : grid37.Coords) : Prop := (Scalar.cmpi .ne (Scalar.extui (Scalar.cmpi .eq (BitVec.ofNat 32 (i 1).val) 0#32)) 0#32) = 1#1
/-- It holds exactly at the points with t % 4 = 0. -/
theorem hcond37_0 : ∀ t : Fin cfg37.N, cond37_0 (grid37.coords t) ↔ t.val % 4 = 0 :=
  (by decide +kernel : ∀ t : Fin grid37.N, cond37_0 (grid37.coords t) ↔ t.val % 4 = 0)

/-- "k = 3": the second conditional's test. -/
abbrev cond37_1 (i : grid37.Coords) : Prop := k37_cond2 i = 1#1
/-- It holds exactly at the points with t % 4 = 3. -/
theorem hcond37_1 : ∀ t : Fin cfg37.N, cond37_1 (grid37.coords t) ↔ t.val % 4 = 3 :=
  (by decide +kernel : ∀ t : Fin grid37.N, cond37_1 (grid37.coords t) ↔ t.val % 4 = 3)

/-! ## Where the windows are idle, and where the output is written back -/

/-- The two input windows are never idle. -/
theorem liveAt37_0 : ∀ t : Fin cfg37.N, cfg37.idle 0 (grid37.coords t) = false := by decide +kernel
theorem liveAt37_1 : ∀ t : Fin cfg37.N, cfg37.idle 1 (grid37.coords t) = false := by decide +kernel
/-- Where k ≠ 3 the output window is idle (the body stores nothing into it) and is not written back. -/
theorem idleAt37_2 : ∀ t : Fin cfg37.N, ¬cond37_1 (grid37.coords t) → cfg37.idle 2 (grid37.coords t) = true := by decide +kernel
theorem noFlush37_2 : ∀ t : Fin cfg37.N, ¬cond37_1 (grid37.coords t) → (cfg37.win 2).flush t = false := by decide +kernel
/-- Where k = 3 it is live. -/
theorem liveAt37_2 : ∀ t : Fin cfg37.N, cond37_1 (grid37.coords t) → cfg37.idle 2 (grid37.coords t) = false := by decide +kernel

/-! ## The staging memrefs at a point, and the scratch -/

/-- One staging buffer of the output window, through which its contents are stated. -/
abbrev VO37_2 : View sig .tc .vmem S1024x512 .f32 := (Memref.whole cc37_stg2_0 : Memref sig .tc .vmem S1024x512 .f32).view
abbrev ms37_0 (t : Fin cfg37.N) : Memref sig .tc .vmem S1024x1024 .bf16 := win37_0.stage (cfg37.slots t 0)
abbrev hs37_0 (t : Fin cfg37.N) : (ms37_0 t).IsWhole := hstage37_0 ((cfg37.slots t 0).cast nbuf37_0)
abbrev ms37_1 (t : Fin cfg37.N) : Memref sig .tc .vmem S1024x512 .f32 := win37_1.stage (cfg37.slots t 1)
abbrev hs37_1 (t : Fin cfg37.N) : (ms37_1 t).IsWhole := hstage37_1 ((cfg37.slots t 1).cast nbuf37_1)
abbrev ms37_2 (t : Fin cfg37.N) : Memref sig .tc .vmem S1024x512 .f32 := win37_2.stage (cfg37.slots t 2)
abbrev hs37_2 (t : Fin cfg37.N) : (ms37_2 t).IsWhole := hstage37_2 ((cfg37.slots t 2).cast nbuf37_2)
/-- The accumulator: a whole scoped buffer of the kernel's own. -/
abbrev scM37 : Memref sig .tc .vmem S1024x512 .f32 := Memref.whole cc37_scratch0
abbrev VS37 : View sig .tc .vmem S1024x512 .f32 := scM37.view

/-- The other scoped buffers of the core, none of which this region touches. -/
abbrev restBut37 (c : Dev nD) : sProp 𝕄 :=
  Pipeline.scopedRestBut (Ix := Unit) (Name := ℕ) (U := UR sig nD τ) (Lvl := ℕ) (Val := Elt F) spec37 c [cc37_scratch0]

/-- The region's invariant before its first point: the accumulator at something, the other scoped buffers, the generator register. -/
theorem PhiA37_eq (c : Dev nD) :
    (Pipeline.ΦA spec37 c : sProp 𝕄)
      = iprop(iprop((∃ d, owns (c : Thread nD τ) scM37 fullShare d) ∗ restBut37 c) ∗ (∃ r, prngReg c r)) := by
  unfold Pipeline.ΦA; rw [scopedRest37_split]; simp only [scM37, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun37_A (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond37_0 i) (hc1 : ¬cond37_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc37__matmul_kernel i arg2 harg2 arg3 harg3 arg4 harg4 arg5 harg5) K } := by
  refine ⟨[], ?_, fun xi2 E K => ?run⟩
  case run =>
    simp only [cc37__matmul_kernel_eq_skeleton]; unfold cc37__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK37b.lean ====
/- Laid out by: python3 scratch/layout_regions.py --template-region 1 --region 37 --program Kernel --parts a,b,c, --out-dir proof/Proof
   from the hand-written text of region 1 (RegKI1b.lean): the same text, the region's number and the program's namespace substituted. -/
/-
  Region 37, case B (k = 1, 2): the body's run. Neither conditional is taken: the product of the two blocks is added to what
  the point before left in the accumulator; the output block is not touched.
-/
import proofs.«158944_j64613488001249_1_alg».proof.Proof.RegK37a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun37_B (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond37_0 i) (hc1 : ¬cond37_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc37__matmul_kernel i arg2 harg2 arg3 harg3 arg4 harg4 arg5 harg5) K } := by
  refine ⟨[], ?_, fun xi2 E K => ?run⟩
  case run =>
    simp only [cc37__matmul_kernel_eq_skeleton]; unfold cc37__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK37c.lean ====
/- Laid out by: python3 scratch/layout_regions.py --template-region 1 --region 37 --program Kernel --parts a,b,c, --out-dir proof/Proof
   from the hand-written text of region 1 (RegKI1c.lean): the same text, the region's number and the program's namespace substituted. -/
/-
  Region 37, case C (k = 3): the body's run. The product is added to the accumulator as in case B, and then the second
  conditional copies the accumulator over the whole output block.
-/
import proofs.«158944_j64613488001249_1_alg».proof.Proof.RegK37b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun37_C (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond37_0 i) (hc1 : cond37_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc37__matmul_kernel i arg2 harg2 arg3 harg3 arg4 harg4 arg5 harg5) K } := by
  refine ⟨?_, ?_, fun E K => ?run⟩
  case run =>
    simp only [cc37__matmul_kernel_eq_skeleton]; unfold cc37__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK37.lean ====
/- Laid out by: python3 scratch/layout_regions.py --template-region 1 --region 37 --program Kernel --parts a,b,c, --out-dir proof/Proof
   from the hand-written text of region 1 (RegKI1.lean): the same text, the region's number and the program's namespace substituted. -/
/-
  Region 37 of @main, entered from the buffer contents `V`: what its windows' blocks are, what each case of the body leaves in
  the accumulator and in the output block, the accumulator and the output block point by point (`outsAt37`: at k = 0 the
  accumulator restarts from zeros plus the product; at k = 1, 2, 3 it is the point before's plus the product; at k = 3 the
  output block is the accumulator), the region's invariant (the accumulator at `outsAt37`'s second component), the proof data,
  and the body's obligation at every point.
-/
import proofs.«158944_j64613488001249_1_alg».proof.Proof.RegK37c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk37 (c : Dev nD) (w : Fin cfg37.W) (t : Fin cfg37.N) : ((cfg37.win w).xblock (cfg37.grid.coords t)).Idx → Elt F (cfg37.win w).elt :=
  ((cfg37.win w).blk t).view.read (Elt F) (V c (Pipeline.arrRef spec37 w))

/-- An input window's current staging buffer holds its block at every point, for any proof data whose array is `V`'s and
    whose body leaves the block in place. -/
theorem before37_0_of {c : Dev nD} (dat : Dat τ (Elt F) Unit ℕ (UR sig nD τ) ℕ cfg37 c) (hA : dat.A 0 = V c (Pipeline.arrRef spec37 0))
    (hafter : ∀ t, dat.after 0 t = iblk37 V c 0 t) (t : Fin cfg37.N) (d) : dat.before 0 t d = iblk37 V c 0 t :=
  (dat.before_in_eq_fetched 0 rfl (fun _ => rfl) (fun _ _ _ => rfl) (fun t => by rw [hafter]; unfold Dat.blockOf iblk37; rw [hA]; try rfl) t d).trans
    (by unfold Dat.fetched Dat.blockOf iblk37; rw [hA]; try rfl)
theorem before37_1_of {c : Dev nD} (dat : Dat τ (Elt F) Unit ℕ (UR sig nD τ) ℕ cfg37 c) (hA : dat.A 1 = V c (Pipeline.arrRef spec37 1))
    (hafter : ∀ t, dat.after 1 t = iblk37 V c 1 t) (t : Fin cfg37.N) (d) : dat.before 1 t d = iblk37 V c 1 t :=
  (dat.before_in_eq_fetched 1 rfl (fun _ => rfl) (fun _ _ _ => rfl) (fun t => by rw [hafter]; unfold Dat.blockOf iblk37; rw [hA]; try rfl) t d).trans
    (by unfold Dat.fetched Dat.blockOf iblk37; rw [hA]; try rfl)

/-! ## What each case leaves -/

/-- Case A's stores into the accumulator cover it. -/
theorem scover37_A (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond37_0 i) (hc1 : ¬cond37_1 i)
    (x0 : Vec F S1024x1024 .bf16) (x1 : Vec F S1024x512 .f32) (y : S1024x512.Idx) :
    ∃ pc ∈ (kernelRun37_A c i arg2 harg2 arg3 harg3 arg4 harg4 arg5 harg5 hc0 hc1 x0 x1).2.1, y ∈ pc.1.set :=
  View.cover_of_tiledL (kernelRun37_A c i arg2 harg2 arg3 harg3 arg4 harg4 arg5 harg5 hc0 hc1 x0 x1).2.1 S1024x512.size (by sl_kernel_rfl) y
/-- What case A leaves in the accumulator. -/
noncomputable def sout37_A (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond37_0 i) (hc1 : ¬cond37_1 i)
    (x0 : Vec F S1024x1024 .bf16) (x1 : Vec F S1024x512 .f32) : Vec F S1024x512 .f32 :=
  VS37.read (Elt F) (VS37.writes (Elt F) VS37.junk (kernelRun37_A c i arg2 harg2 arg3 harg3 arg4 harg4 arg5 harg5 hc0 hc1 x0 x1).2.1)

/-- Case B's store into the accumulator covers it. -/
theorem scover37_B (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond37_0 i) (hc1 : ¬cond37_1 i)
    (x0 : Vec F S1024x1024 .bf16) (x1 : Vec F S1024x512 .f32) (xs0 : Vec F S1024x512 .f32) (y : S1024x512.Idx) :
    ∃ pc ∈ (kernelRun37_B c i arg2 harg2 arg3 harg3 arg4 harg4 arg5 harg5 hc0 hc1 x0 x1 xs0).2.1, y ∈ pc.1.set :=
  View.cover_of_tiledL (kernelRun37_B c i arg2 harg2 arg3 harg3 arg4 harg4 arg5 harg5 hc0 hc1 x0 x1 xs0).2.1 S1024x512.size (by sl_kernel_rfl) y
/-- What case B leaves in the accumulator, over what the point before left. -/
noncomputable def sout37_B (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond37_0 i) (hc1 : ¬cond37_1 i)
    (x0 : Vec F S1024x1024 .bf16) (x1 : Vec F S1024x512 .f32) (xs0 : Vec F S1024x512 .f32) : Vec F S1024x512 .f32 :=
  VS37.read (Elt F) (VS37.writes (Elt F) VS37.junk (kernelRun37_B c i arg2 harg2 arg3 harg3 arg4 harg4 arg5 harg5 hc0 hc1 x0 x1 xs0).2.1)

/-- Case C's store into the output block covers it, and so does its store into the accumulator. -/
theorem cover37_C (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond37_0 i) (hc1 : cond37_1 i)
    (x0 : Vec F S1024x1024 .bf16) (x1 : Vec F S1024x512 .f32) (xs0 : Vec F S1024x512 .f32) (y : S1024x512.Idx) :
    ∃ pc ∈ (kernelRun37_C c i arg2 harg2 arg3 harg3 arg4 harg4 arg5 harg5 hc0 hc1 x0 x1 xs0).1, y ∈ pc.1.set :=
  View.cover_of_tiledL (kernelRun37_C c i arg2 harg2 arg3 harg3 arg4 harg4 arg5 harg5 hc0 hc1 x0 x1 xs0).1 S1024x512.size (by sl_kernel_rfl) y
theorem scover37_C (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond37_0 i) (hc1 : cond37_1 i)
    (x0 : Vec F S1024x1024 .bf16) (x1 : Vec F S1024x512 .f32) (xs0 : Vec F S1024x512 .f32) (y : S1024x512.Idx) :
    ∃ pc ∈ (kernelRun37_C c i arg2 harg2 arg3 harg3 arg4 harg4 arg5 harg5 hc0 hc1 x0 x1 xs0).2.1, y ∈ pc.1.set :=
  View.cover_of_tiledL (kernelRun37_C c i arg2 harg2 arg3 harg3 arg4 harg4 arg5 harg5 hc0 hc1 x0 x1 xs0).2.1 S1024x512.size (by sl_kernel_rfl) y
/-- What case C leaves in the output block, and in the accumulator. -/
noncomputable def out37_C (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond37_0 i) (hc1 : cond37_1 i)
    (x0 : Vec F S1024x1024 .bf16) (x1 : Vec F S1024x512 .f32) (xs0 : Vec F S1024x512 .f32) : Vec F S1024x512 .f32 :=
  VO37_2.read (Elt F) (VO37_2.writes (Elt F) VO37_2.junk (kernelRun37_C c i arg2 harg2 arg3 harg3 arg4 harg4 arg5 harg5 hc0 hc1 x0 x1 xs0).1)
noncomputable def sout37_C (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond37_0 i) (hc1 : cond37_1 i)
    (x0 : Vec F S1024x1024 .bf16) (x1 : Vec F S1024x512 .f32) (xs0 : Vec F S1024x512 .f32) : Vec F S1024x512 .f32 :=
  VS37.read (Elt F) (VS37.writes (Elt F) VS37.junk (kernelRun37_C c i arg2 harg2 arg3 harg3 arg4 harg4 arg5 harg5 hc0 hc1 x0 x1 xs0).2.1)

/-- Where the output block is idle nothing consults what it holds: a placeholder. -/
noncomputable def outIdle37 : Vec F S1024x512 .f32 := VO37_2.read (Elt F) (VO37_2.writes (Elt F) VO37_2.junk [])

/-! ## The conditions at a point, from t % 4 -/

theorem isFirst37 (t : Fin cfg37.N) (h : t.val % 4 = 0) : cond37_0 (grid37.coords t) := (hcond37_0 t).mpr h
theorem notFirst37 (t : Fin cfg37.N) (h : ¬t.val % 4 = 0) : ¬cond37_0 (grid37.coords t) := fun hc => h ((hcond37_0 t).mp hc)
theorem isLast37 (t : Fin cfg37.N) (h : t.val % 4 = 3) : cond37_1 (grid37.coords t) := (hcond37_1 t).mpr h
theorem notLast37 (t : Fin cfg37.N) (h : ¬t.val % 4 = 3) : ¬cond37_1 (grid37.coords t) := fun hc => h ((hcond37_1 t).mp hc)

/-! ## The accumulator and the output block, point by point -/

/-- After the body at position `n`: (the output block's buffer, the accumulator). -/
noncomputable def outsAt37 (c : Dev nD) : (n : ℕ) → n < cfg37.N → Vec F S1024x512 .f32 × Vec F S1024x512 .f32
  | 0, hn => (outIdle37, sout37_A c (grid37.coords ⟨0, hn⟩) (ms37_0 ⟨0, hn⟩) (hs37_0 ⟨0, hn⟩) (ms37_1 ⟨0, hn⟩) (hs37_1 ⟨0, hn⟩) (ms37_2 ⟨0, hn⟩) (hs37_2 ⟨0, hn⟩) scM37 (Memref.isWhole_whole _) (isFirst37 ⟨0, hn⟩ (Nat.zero_mod _)) (notLast37 ⟨0, hn⟩ (by simp)) (iblk37 V c 0 ⟨0, hn⟩) (iblk37 V c 1 ⟨0, hn⟩))
  | n + 1, hn =>
    if h0 : (n + 1) % 4 = 0 then
      (outIdle37, sout37_A c (grid37.coords ⟨n + 1, hn⟩) (ms37_0 ⟨n + 1, hn⟩) (hs37_0 ⟨n + 1, hn⟩) (ms37_1 ⟨n + 1, hn⟩) (hs37_1 ⟨n + 1, hn⟩) (ms37_2 ⟨n + 1, hn⟩) (hs37_2 ⟨n + 1, hn⟩) scM37 (Memref.isWhole_whole _) (isFirst37 ⟨n + 1, hn⟩ h0) (notLast37 ⟨n + 1, hn⟩ (by show ¬(n + 1) % 4 = 3; omega)) (iblk37 V c 0 ⟨n + 1, hn⟩) (iblk37 V c 1 ⟨n + 1, hn⟩))
    else if h3 : (n + 1) % 4 = 3 then
      (out37_C c (grid37.coords ⟨n + 1, hn⟩) (ms37_0 ⟨n + 1, hn⟩) (hs37_0 ⟨n + 1, hn⟩) (ms37_1 ⟨n + 1, hn⟩) (hs37_1 ⟨n + 1, hn⟩) (ms37_2 ⟨n + 1, hn⟩) (hs37_2 ⟨n + 1, hn⟩) scM37 (Memref.isWhole_whole _) (notFirst37 ⟨n + 1, hn⟩ h0) (isLast37 ⟨n + 1, hn⟩ h3) (iblk37 V c 0 ⟨n + 1, hn⟩) (iblk37 V c 1 ⟨n + 1, hn⟩) (outsAt37 c n (Nat.lt_of_succ_lt hn)).2,
       sout37_C c (grid37.coords ⟨n + 1, hn⟩) (ms37_0 ⟨n + 1, hn⟩) (hs37_0 ⟨n + 1, hn⟩) (ms37_1 ⟨n + 1, hn⟩) (hs37_1 ⟨n + 1, hn⟩) (ms37_2 ⟨n + 1, hn⟩) (hs37_2 ⟨n + 1, hn⟩) scM37 (Memref.isWhole_whole _) (notFirst37 ⟨n + 1, hn⟩ h0) (isLast37 ⟨n + 1, hn⟩ h3) (iblk37 V c 0 ⟨n + 1, hn⟩) (iblk37 V c 1 ⟨n + 1, hn⟩) (outsAt37 c n (Nat.lt_of_succ_lt hn)).2)
    else
      (outIdle37, sout37_B c (grid37.coords ⟨n + 1, hn⟩) (ms37_0 ⟨n + 1, hn⟩) (hs37_0 ⟨n + 1, hn⟩) (ms37_1 ⟨n + 1, hn⟩) (hs37_1 ⟨n + 1, hn⟩) (ms37_2 ⟨n + 1, hn⟩) (hs37_2 ⟨n + 1, hn⟩) scM37 (Memref.isWhole_whole _) (notFirst37 ⟨n + 1, hn⟩ h0) (notLast37 ⟨n + 1, hn⟩ h3) (iblk37 V c 0 ⟨n + 1, hn⟩) (iblk37 V c 1 ⟨n + 1, hn⟩) (outsAt37 c n (Nat.lt_of_succ_lt hn)).2)

/-- `outsAt37` at a point with k = 0. -/
theorem outsAt37_A (c : Dev nD) (t : Fin cfg37.N) (h0 : t.val % 4 = 0) :
    outsAt37 V c t.val t.isLt = (outIdle37, sout37_A c (grid37.coords t) (ms37_0 t) (hs37_0 t) (ms37_1 t) (hs37_1 t) (ms37_2 t) (hs37_2 t) scM37 (Memref.isWhole_whole _) (isFirst37 t h0) (notLast37 t (by omega)) (iblk37 V c 0 t) (iblk37 V c 1 t)) := by
  obtain ⟨n, hn⟩ := t
  cases n with
  | zero => rfl
  | succ n => exact (dif_pos h0).trans rfl

/-- `outsAt37` at a point with k = 1, 2: over what the point before left. -/
theorem outsAt37_B (c : Dev nD) (t : Fin cfg37.N) (h0 : ¬t.val % 4 = 0) (h3 : ¬t.val % 4 = 3) :
    outsAt37 V c t.val t.isLt = (outIdle37, sout37_B c (grid37.coords t) (ms37_0 t) (hs37_0 t) (ms37_1 t) (hs37_1 t) (ms37_2 t) (hs37_2 t) scM37 (Memref.isWhole_whole _) (notFirst37 t h0) (notLast37 t h3) (iblk37 V c 0 t) (iblk37 V c 1 t)
      (outsAt37 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt37` at a point with k = 3. -/
theorem outsAt37_C (c : Dev nD) (t : Fin cfg37.N) (h0 : ¬t.val % 4 = 0) (h3 : t.val % 4 = 3) :
    outsAt37 V c t.val t.isLt = (out37_C c (grid37.coords t) (ms37_0 t) (hs37_0 t) (ms37_1 t) (hs37_1 t) (ms37_2 t) (hs37_2 t) scM37 (Memref.isWhole_whole _) (notFirst37 t h0) (isLast37 t h3) (iblk37 V c 0 t) (iblk37 V c 1 t)
        (outsAt37 V c (t.val - 1) (Nat.lt_of_le_of_lt (Nat.sub_le _ _) t.isLt)).2,
      sout37_C c (grid37.coords t) (ms37_0 t) (hs37_0 t) (ms37_1 t) (hs37_1 t) (ms37_2 t) (hs37_2 t) scM37 (Memref.isWhole_whole _) (notFirst37 t h0) (isLast37 t h3) (iblk37 V c 0 t) (iblk37 V c 1 t)
        (outsAt37 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS37 (c : Dev nD) : (n : ℕ) → n ≤ cfg37.N → sProp 𝕄
  | 0, _ => Pipeline.ΦA spec37 c
  | n + 1, hn => iprop(iprop(owns (c : Thread nD τ) scM37 fullShare ((outsAt37 V c n hn).2) ∗ restBut37 c) ∗ (∃ r, prngReg c r))

theorem PhiS37_zero (c : Dev nD) (n : ℕ) (h : n ≤ cfg37.N) (hz : n = 0) : PhiS37 V c n h = Pipeline.ΦA spec37 c := by
  subst hz; rfl
theorem PhiS37_succ (c : Dev nD) (n : ℕ) (hn : n < cfg37.N) :
    PhiS37 V c (n + 1) hn = iprop(iprop(owns (c : Thread nD τ) scM37 fullShare ((outsAt37 V c n hn).2) ∗ restBut37 c) ∗ (∃ r, prngReg c r)) := rfl
theorem PhiS37_pos (c : Dev nD) (n : ℕ) (h : n ≤ cfg37.N) (hz : n ≠ 0) :
    PhiS37 V c n h = iprop(iprop(owns (c : Thread nD τ) scM37 fullShare ((outsAt37 V c (n - 1) (by omega)).2) ∗ restBut37 c) ∗ (∃ r, prngReg c r)) := by
  cases n with
  | zero => exact absurd rfl hz
  | succ n => rfl

/-! ## The proof data -/

/-- The region's proof data on core `c`: the arrays as the region finds them; after the body at point `t` each input's
    buffer at its block and the output's at `outsAt37`'s first component; the invariant `PhiS37`; nothing owed; full shares. -/
noncomputable def dat37 (c : Dev nD) : Dat τ (Elt F) Unit ℕ (UR sig nD τ) ℕ cfg37 c where
  A w := V c (Pipeline.arrRef spec37 w)
  after w t := match w with
    | ⟨0, _⟩ => iblk37 V c 0 t
    | ⟨1, _⟩ => iblk37 V c 1 t
    | ⟨2, _⟩ => (outsAt37 V c t.val t.isLt).1
  Φ t := PhiS37 V c t.val (Nat.le_of_lt_succ t.isLt)
  q _ := fullShare
  owed _ := 0

theorem A_eq37 (c : Dev nD) (w : Fin cfg37.W) : (dat37 V c).A w = V c (Pipeline.arrRef spec37 w) := by
  dsimp only [dat37]
theorem PhiS37_castSucc (c : Dev nD) (t : Fin cfg37.N) :
    (dat37 V c).Φ t.castSucc = PhiS37 V c t.val (Nat.le_of_lt t.isLt) := by
  dsimp only [dat37]; simp only [Fin.coe_castSucc]
theorem after37_0 (c : Dev nD) (t : Fin cfg37.N) : (dat37 V c).after 0 t = iblk37 V c 0 t := by dsimp only [dat37]
theorem after37_1 (c : Dev nD) (t : Fin cfg37.N) : (dat37 V c).after 1 t = iblk37 V c 1 t := by dsimp only [dat37]
theorem after37_2 (c : Dev nD) (t : Fin cfg37.N) : (dat37 V c).after 2 t = (outsAt37 V c t.val t.isLt).1 := by dsimp only [dat37]
theorem before37_0 (c : Dev nD) (t : Fin cfg37.N) (d) : (dat37 V c).before 0 t d = iblk37 V c 0 t :=
  before37_0_of V (dat37 V c) (A_eq37 V c 0) (after37_0 V c) t d
theorem before37_1 (c : Dev nD) (t : Fin cfg37.N) (d) : (dat37 V c).before 1 t d = iblk37 V c 1 t :=
  before37_1_of V (dat37 V c) (A_eq37 V c 1) (after37_1 V c) t d

/-! ## The body's obligation -/

noncomputable def bodyPre37 (c : Dev nD) (t : Fin cfg37.N) : sProp 𝕄 :=
  iprop((dat37 V c).Φ t.castSucc ∗ (dat37 V c).owesAt () t.castSucc
    ∗ (∃ d, owns (c : Thread nD τ) (ms37_0 t) fullShare ((dat37 V c).before 0 t d))
    ∗ (∃ d, owns (c : Thread nD τ) (ms37_1 t) fullShare ((dat37 V c).before 1 t d))
    ∗ (∃ d, owns (c : Thread nD τ) (ms37_2 t) fullShare ((dat37 V c).before 2 t d)))

noncomputable def bodyPost37 (c : Dev nD) (t : Fin cfg37.N) : sProp 𝕄 :=
  iprop((dat37 V c).Φ t.succ ∗ (dat37 V c).owesAt () t.succ
    ∗ (dat37 V c).leavesExact 0 t
    ∗ (dat37 V c).leavesExact 1 t
    ∗ (dat37 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body37 (c : Dev nD) (t : Fin cfg37.N) :
    bodyPre37 V c t ⊢ wp frame (wpE (defs₀ (F := F)) Variants.none c none) Set.univ (bodyAt37 t) (fun _ => bodyPost37 V c t) := by
  unfold bodyPre37 bodyPost37 bodyAt37
  simp only [before37_0, before37_1]
  rw [show (dat37 V c).owesAt () t.succ = (dat37 V c).owesAt () t.castSucc from rfl]
  rw [show (dat37 V c).Φ t.succ = PhiS37 V c (t.val + 1) t.isLt from rfl, PhiS37_succ]
  rw [show (dat37 V c).leavesExact 0 t = owns (c : Thread nD τ) (ms37_0 t) fullShare ((dat37 V c).after 0 t) from by
    unfold Dat.leavesExact; rw [liveAt37_0 t], after37_0]
  rw [show (dat37 V c).leavesExact 1 t = owns (c : Thread nD τ) (ms37_1 t) fullShare ((dat37 V c).after 1 t) from by
    unfold Dat.leavesExact; rw [liveAt37_1 t], after37_1]
  by_cases h0 : t.val % 4 = 0
  · have h3 : ¬t.val % 4 = 3 := by omega
    rw [Dat.leavesExact_idle (dat37 V c) 2 t (idleAt37_2 t (notLast37 t h3)) (noFlush37_2 t (notLast37 t h3))]
    rw [outsAt37_A V c t h0]
    unfold sout37_A; (try dsimp only)
    by_cases hz : t.val = 0
    · rw [PhiS37_castSucc V c t, PhiS37_zero V c _ _ hz, PhiA37_eq]
      iintro ⟨⟨⟨HS0, Hrb⟩, Hg⟩, Ho, ⟨%d0, H0⟩, ⟨%d1, H1⟩, ⟨%d2, H2⟩⟩
      iapply ((kernelRun37_A c (grid37.coords t) _ _ _ _ _ _ _ _ (isFirst37 t h0) (notLast37 t (by omega)) (iblk37 V c 0 t) (iblk37 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover37_A c _ _ _ _ _ _ _ _ _ _ _ _ _)
          iexact Hrb
        iexact Hg
      isplitl [Ho]; · iexact Ho
      isplitl [H0]; · iexact H0
      isplitl [H1]; · iexact H1
      iexists _; iexact H2
    · rw [PhiS37_castSucc V c t, PhiS37_pos V c _ _ hz]
      iintro ⟨⟨⟨HS0, Hrb⟩, Hg⟩, Ho, ⟨%d0, H0⟩, ⟨%d1, H1⟩, ⟨%d2, H2⟩⟩
      iapply ((kernelRun37_A c (grid37.coords t) _ _ _ _ _ _ _ _ (isFirst37 t h0) (notLast37 t (by omega)) (iblk37 V c 0 t) (iblk37 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover37_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat37 V c).leavesExact 2 t = owns (c : Thread nD τ) (ms37_2 t) fullShare ((dat37 V c).after 2 t) from by
        unfold Dat.leavesExact; rw [liveAt37_2 t (isLast37 t h3)], after37_2]
      rw [outsAt37_C V c t h0 h3]
      unfold out37_C sout37_C; (try dsimp only)
      rw [PhiS37_castSucc V c t, PhiS37_pos V c _ _ hz]
      iintro ⟨⟨⟨HS0, Hrb⟩, Hg⟩, Ho, ⟨%d0, H0⟩, ⟨%d1, H1⟩, ⟨%d2, H2⟩⟩
      iapply ((kernelRun37_C c (grid37.coords t) _ _ _ _ _ _ _ _ (notFirst37 t h0) (isLast37 t h3) (iblk37 V c 0 t) (iblk37 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover37_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover37_C c _ _ _ _ _ _ _ _ _ _ _ _ _ _)
    · rw [Dat.leavesExact_idle (dat37 V c) 2 t (idleAt37_2 t (notLast37 t h3)) (noFlush37_2 t (notLast37 t h3))]
      rw [outsAt37_B V c t h0 h3]
      unfold sout37_B; (try dsimp only)
      rw [PhiS37_castSucc V c t, PhiS37_pos V c _ _ hz]
      iintro ⟨⟨⟨HS0, Hrb⟩, Hg⟩, Ho, ⟨%d0, H0⟩, ⟨%d1, H1⟩, ⟨%d2, H2⟩⟩
      iapply ((kernelRun37_B c (grid37.coords t) _ _ _ _ _ _ _ _ (notFirst37 t h0) (notLast37 t h3) (iblk37 V c 0 t) (iblk37 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover37_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation37 (c : Dev nD) : BodyObligation (dat37 (F := F) V c) (defs₀ (F := F)) Variants.none () Set.univ := fun t => by
  rw [bigSep_W37, bigSep_W37]
  exact sound_body37 V c t

/-- What the region is entered with is the invariant before the first point. -/
theorem hin37 (c : Dev nD) : Pipeline.ΦA spec37 c ⊢ (dat37 V c).Φ 0 := by
  rw [show (dat37 V c).Φ 0 = PhiS37 V c 0 (Nat.zero_le _) from rfl, PhiS37_zero V c 0 _ rfl]
  try exact Idealize.SL.BI.Entails.refl _

/-- After the last point the invariant gives the class's back: the accumulator's contents are forgotten. -/
theorem hout37 (c : Dev nD) : (dat37 V c).Φ (Fin.last cfg37.N) ⊢ Pipeline.ΦA spec37 c := by
  have hN : cfg37.N = 16 := N_37
  rw [show (dat37 V c).Φ (Fin.last cfg37.N) = PhiS37 V c (Fin.last cfg37.N).val (Nat.le_of_lt_succ (Fin.last cfg37.N).isLt) from rfl,
    PhiS37_pos V c _ _ (by rw [Fin.val_last]; omega), PhiA37_eq]
  iintro ⟨⟨HS0, Hrb⟩, Hg⟩
  isplitl [HS0 Hrb]
  · isplitl [HS0]
    · iexists _; iexact HS0
    iexact Hrb
  iexact Hg

end Cert.Kernel.Hand

end
-- ==== Proof.RegK38a.lean ====
/- Laid out by: python3 scratch/layout_grid41.py --template-region 0 --region 38 --program Kernel --parts a, --shapes S1024x128=S1024x512,S128x512=S512x512
   from the hand-written text of region 0 (RegKI0a.lean): the same text, the region's number, block shapes and the program's namespace substituted. -/
/- The region of Kernel's @main that runs `cc38__matmul_kernel` (pipeline `cfg38`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond38_0 (i : grid38.Coords) : Prop :=
  (Scalar.cmpi .ne (Scalar.extui (Scalar.cmpi .eq (BitVec.ofNat 32 (i 1).val) 0#32)) 0#32) = 1#1
/-- True at every point: the reduction axis has one step. -/
theorem hcond38_0 : ∀ t : Fin cfg38.N, cond38_0 (grid38.coords t) :=
  (by decide +kernel : ∀ t : Fin grid38.N, cond38_0 (grid38.coords t))

/-- "This is the last reduction step" (the guard of the copy to the output block). -/
abbrev cond38_1 (i : grid38.Coords) : Prop := k38_cond2 i = 1#1
/-- True at every point, for the same reason. -/
theorem hcond38_1 : ∀ t : Fin cfg38.N, cond38_1 (grid38.coords t) :=
  (by decide +kernel : ∀ t : Fin grid38.N, cond38_1 (grid38.coords t))

/-! ## No window is idle anywhere -/

theorem liveAt38_0 : ∀ t : Fin cfg38.N, cfg38.idle 0 (grid38.coords t) = false := by decide +kernel
theorem liveAt38_1 : ∀ t : Fin cfg38.N, cfg38.idle 1 (grid38.coords t) = false := by decide +kernel
/-- The output window is stored at every point (the copy's guard holds everywhere). -/
theorem liveAt38_2 : ∀ t : Fin cfg38.N, cfg38.idle 2 (grid38.coords t) = false := by decide +kernel

/-! ## The memrefs the body is called on -/

/-- One staging buffer of the output window, through which its contents are stated (any whole view of the shape reads the
    same pieces back the same way). -/
abbrev VO38_2 : View sig .tc .vmem S1024x512 .f32 := (Memref.whole cc38_stg2_0 : Memref sig .tc .vmem S1024x512 .f32).view
/-- Each window's current staging memref at point `t`, spelt as the pipeline passes it, with its wholeness. -/
abbrev ms38_0 (t : Fin cfg38.N) : Memref sig .tc .vmem S1024x512 .f32 := win38_0.stage (cfg38.slots t 0)
abbrev hs38_0 (t : Fin cfg38.N) : (ms38_0 t).IsWhole := hstage38_0 ((cfg38.slots t 0).cast nbuf38_0)
abbrev ms38_1 (t : Fin cfg38.N) : Memref sig .tc .vmem S512x512 .bf16 := win38_1.stage (cfg38.slots t 1)
abbrev hs38_1 (t : Fin cfg38.N) : (ms38_1 t).IsWhole := hstage38_1 ((cfg38.slots t 1).cast nbuf38_1)
abbrev ms38_2 (t : Fin cfg38.N) : Memref sig .tc .vmem S1024x512 .f32 := win38_2.stage (cfg38.slots t 2)
abbrev hs38_2 (t : Fin cfg38.N) : (ms38_2 t).IsWhole := hstage38_2 ((cfg38.slots t 2).cast nbuf38_2)
/-- The accumulator: a whole scoped buffer of the kernel's own, passed beside the windows. -/
abbrev scM38_0 : Memref sig .tc .vmem S1024x512 .f32 := Memref.whole cc38_scratch0
abbrev VS38_0 : View sig .tc .vmem S1024x512 .f32 := scM38_0.view

/-- The region invariant with the accumulator taken out of the scoped rest: the accumulator owned at some contents, every
    other scoped buffer unopened, and the generator register. -/
theorem PhiA38_eq (c : Dev nD) :
    (Pipeline.ΦA spec38 c : sProp 𝕄)
      = iprop(iprop(iprop((∃ d, owns (c : Thread nD τ) scM38_0 fullShare d))
            ∗ Pipeline.scopedRestBut (Ix := Unit) (Name := ℕ) (U := UR sig nD τ) (Lvl := ℕ) (Val := Elt F) spec38 c [cc38_scratch0])
          ∗ (∃ r, prngReg c r)) := by
  unfold Pipeline.ΦA; rw [scopedRest38_split]; simp only [scM38_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun38 (c : Dev nD) (i : grid38.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond38_0 i) (hlast : cond38_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc38__matmul_kernel i arg2 harg2 arg3 harg3 arg4 harg4 arg5 harg5) K } := by
  refine ⟨?_, ?_, fun E K => ?run⟩
  case run =>
    simp only [cc38__matmul_kernel_eq_skeleton]; unfold cc38__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.Kernel.Hand

end
-- ==== Proof.RegK38.lean ====
/- Laid out by: python3 scratch/layout_grid41.py --template-region 0 --region 38 --program Kernel --parts a, --shapes S1024x128=S1024x512,S128x512=S512x512
   from the hand-written text of region 0 (RegKI0.lean): the same text, the region's number, block shapes and the program's namespace substituted. -/
/- The region of Kernel's @main that runs `cc38__matmul_kernel` (pipeline `cfg38`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegK38a
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk38 (c : Dev nD) (w : Fin cfg38.W) (t : Fin cfg38.N) : ((cfg38.win w).xblock (cfg38.grid.coords t)).Idx → Elt F (cfg38.win w).elt :=
  ((cfg38.win w).blk t).view.read (Elt F) (V c (Pipeline.arrRef spec38 w))

/-! ## What the case leaves, as pieces read back -/

/-- The output's pieces tile its block (one whole-block store). -/
theorem cover38_2 (c : Dev nD) (i : grid38.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond38_0 i) (hlast : cond38_1 i) (xa : Vec F S1024x512 .f32) (xb : Vec F S512x512 .bf16) (y : S1024x512.Idx) :
    ∃ pc ∈ (kernelRun38 c i arg2 harg2 arg3 harg3 arg4 harg4 arg5 harg5 hfirst hlast xa xb).1, y ∈ pc.1.set :=
  View.cover_of_tiledL (kernelRun38 c i arg2 harg2 arg3 harg3 arg4 harg4 arg5 harg5 hfirst hlast xa xb).1 S1024x512.size (by sl_kernel_rfl) y

/-- What the case leaves in the output's staging buffer: its pieces read back over junk. -/
noncomputable def out38_2 (c : Dev nD) (i : grid38.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond38_0 i) (hlast : cond38_1 i) (xa : Vec F S1024x512 .f32) (xb : Vec F S512x512 .bf16) : Vec F S1024x512 .f32 :=
  VO38_2.read (Elt F) (VO38_2.writes (Elt F) VO38_2.junk (kernelRun38 c i arg2 harg2 arg3 harg3 arg4 harg4 arg5 harg5 hfirst hlast xa xb).1)

/-- What the case leaves in the accumulator: its pieces read back over junk. -/
noncomputable def sout38_0 (c : Dev nD) (i : grid38.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond38_0 i) (hlast : cond38_1 i) (xa : Vec F S1024x512 .f32) (xb : Vec F S512x512 .bf16) : Vec F S1024x512 .f32 :=
  VS38_0.read (Elt F) (VS38_0.writes (Elt F) VS38_0.junk (kernelRun38 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout38_0_eq (c : Dev nD) (i : grid38.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond38_0 i) (hlast : cond38_1 i) (xa : Vec F S1024x512 .f32) (xb : Vec F S512x512 .bf16) :
    sout38_0 c i arg2 harg2 arg3 harg3 arg4 harg4 arg5 harg5 hfirst hlast xa xb = k38_pay2 xa xb (k38_pay1 (F := F)) := by
  unfold sout38_0
  rw [View.read_writes_junk_eq_canon]
  unfold kernelRun38
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out38_2_eq (c : Dev nD) (i : grid38.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond38_0 i) (hlast : cond38_1 i) (xa : Vec F S1024x512 .f32) (xb : Vec F S512x512 .bf16) :
    out38_2 c i arg2 harg2 arg3 harg3 arg4 harg4 arg5 harg5 hfirst hlast xa xb = k38_pay2 xa xb (k38_pay1 (F := F)) := by
  unfold out38_2
  rw [View.read_writes_junk_eq_canon]
  unfold kernelRun38
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt38 (c : Dev nD) (n : ℕ) (hn : n < cfg38.N) : Vec F S1024x512 .f32 × Vec F S1024x512 .f32 :=
  (out38_2 c (grid38.coords ⟨n, hn⟩) (ms38_0 ⟨n, hn⟩) (hs38_0 ⟨n, hn⟩) (ms38_1 ⟨n, hn⟩) (hs38_1 ⟨n, hn⟩) (ms38_2 ⟨n, hn⟩) (hs38_2 ⟨n, hn⟩) scM38_0 (Memref.isWhole_whole _)
      (hcond38_0 ⟨n, hn⟩) (hcond38_1 ⟨n, hn⟩) (iblk38 V c 0 ⟨n, hn⟩) (iblk38 V c 1 ⟨n, hn⟩),
   sout38_0 c (grid38.coords ⟨n, hn⟩) (ms38_0 ⟨n, hn⟩) (hs38_0 ⟨n, hn⟩) (ms38_1 ⟨n, hn⟩) (hs38_1 ⟨n, hn⟩) (ms38_2 ⟨n, hn⟩) (hs38_2 ⟨n, hn⟩) scM38_0 (Memref.isWhole_whole _)
      (hcond38_0 ⟨n, hn⟩) (hcond38_1 ⟨n, hn⟩) (iblk38 V c 0 ⟨n, hn⟩) (iblk38 V c 1 ⟨n, hn⟩))

/-- Every point is a first reduction step: the accumulator after it is one product onto zero. -/
theorem outsAt38_first (c : Dev nD) (t : Fin cfg38.N) :
    (outsAt38 V c t.val t.isLt).2 = k38_pay2 (iblk38 V c 0 t) (iblk38 V c 1 t) (k38_pay1 (F := F)) := by
  obtain ⟨n, hn⟩ := t
  unfold outsAt38
  dsimp only
  rw [sout38_0_eq]

/-- Every point is a last reduction step: the output block after it is the accumulator. -/
theorem outsAt38_last (c : Dev nD) (t : Fin cfg38.N) :
    (outsAt38 V c t.val t.isLt).1 = (outsAt38 V c t.val t.isLt).2 := by
  obtain ⟨n, hn⟩ := t
  unfold outsAt38
  dsimp only
  rw [out38_2_eq, sout38_0_eq]

/-! ## The pipeline's proof data -/

/-- The proof data of the pipeline on core `c`: the arrays as the region finds them; after the body at point `t` each input's
    buffer at its block and the output's at `outsAt38`'s first component; the invariant the same at every point; nothing owed;
    full shares. -/
noncomputable def dat38 (c : Dev nD) : Dat τ (Elt F) Unit ℕ (UR sig nD τ) ℕ cfg38 c where
  A w := V c (Pipeline.arrRef spec38 w)
  after w t := match w with
    | ⟨0, _⟩ => iblk38 V c 0 t
    | ⟨1, _⟩ => iblk38 V c 1 t
    | ⟨2, _⟩ => (outsAt38 V c t.val t.isLt).1
  Φ _ := Pipeline.ΦA spec38 c
  q _ := fullShare
  owed _ := 0

theorem A_eq38 (c : Dev nD) (w : Fin cfg38.W) : (dat38 V c).A w = V c (Pipeline.arrRef spec38 w) := by
  dsimp only [dat38]

theorem after38_0 (c : Dev nD) (t : Fin cfg38.N) : (dat38 V c).after 0 t = iblk38 V c 0 t := by dsimp only [dat38]
theorem after38_1 (c : Dev nD) (t : Fin cfg38.N) : (dat38 V c).after 1 t = iblk38 V c 1 t := by dsimp only [dat38]
theorem after38_2 (c : Dev nD) (t : Fin cfg38.N) : (dat38 V c).after 2 t = (outsAt38 V c t.val t.isLt).1 := by dsimp only [dat38]

/-- An input's current staging buffer holds its block at every point, fetched there or not: where it is not fetched its block
    index has not moved since the point before, and the body left the block in place. -/
theorem before38_0 (c : Dev nD) (t : Fin cfg38.N) (d) : (dat38 V c).before 0 t d = iblk38 V c 0 t :=
  ((dat38 V c).before_in_eq_fetched 0 rfl (fun _ => rfl) (fun _ _ _ => rfl)
      (fun t => by rw [after38_0]; unfold Dat.blockOf iblk38; rw [A_eq38]; try rfl) t d).trans
    (by unfold Dat.fetched Dat.blockOf iblk38; rw [A_eq38]; try rfl)
theorem before38_1 (c : Dev nD) (t : Fin cfg38.N) (d) : (dat38 V c).before 1 t d = iblk38 V c 1 t :=
  ((dat38 V c).before_in_eq_fetched 1 rfl (fun _ => rfl) (fun _ _ _ => rfl)
      (fun t => by rw [after38_1]; unfold Dat.blockOf iblk38; rw [A_eq38]; try rfl) t d).trans
    (by unfold Dat.fetched Dat.blockOf iblk38; rw [A_eq38]; try rfl)

/-! ## The body obligation, at a generic point -/

/-- What the body is called with at point `t`, the windows one by one, -/
noncomputable def bodyPre38 (c : Dev nD) (t : Fin cfg38.N) : sProp 𝕄 :=
  iprop((dat38 V c).Φ t.castSucc ∗ (dat38 V c).owesAt () t.castSucc
    ∗ (∃ d, owns (c : Thread nD τ) (ms38_0 t) fullShare ((dat38 V c).before 0 t d))
    ∗ (∃ d, owns (c : Thread nD τ) (ms38_1 t) fullShare ((dat38 V c).before 1 t d))
    ∗ (∃ d, owns (c : Thread nD τ) (ms38_2 t) fullShare ((dat38 V c).before 2 t d)))

/-- and what it returns. -/
noncomputable def bodyPost38 (c : Dev nD) (t : Fin cfg38.N) : sProp 𝕄 :=
  iprop((dat38 V c).Φ t.succ ∗ (dat38 V c).owesAt () t.succ
    ∗ (dat38 V c).leavesExact 0 t
    ∗ (dat38 V c).leavesExact 1 t
    ∗ (dat38 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body38 (c : Dev nD) (t : Fin cfg38.N) :
    bodyPre38 V c t ⊢ wp frame (wpE (defs₀ (F := F)) Variants.none c none) Set.univ (bodyAt38 t) (fun _ => bodyPost38 V c t) := by
  unfold bodyPre38 bodyPost38 bodyAt38
  simp only [before38_0, before38_1]
  rw [show (dat38 V c).owesAt () t.succ = (dat38 V c).owesAt () t.castSucc from rfl,
    show (dat38 V c).Φ t.succ = Pipeline.ΦA spec38 c from rfl, show (dat38 V c).Φ t.castSucc = Pipeline.ΦA spec38 c from rfl, PhiA38_eq]
  rw [show (dat38 V c).leavesExact 0 t = owns (c : Thread nD τ) (ms38_0 t) fullShare ((dat38 V c).after 0 t) from by
      unfold Dat.leavesExact; rw [liveAt38_0 t], after38_0]
  rw [show (dat38 V c).leavesExact 1 t = owns (c : Thread nD τ) (ms38_1 t) fullShare ((dat38 V c).after 1 t) from by
      unfold Dat.leavesExact; rw [liveAt38_1 t], after38_1]
  rw [show (dat38 V c).leavesExact 2 t = owns (c : Thread nD τ) (ms38_2 t) fullShare ((dat38 V c).after 2 t) from by
      unfold Dat.leavesExact; rw [liveAt38_2 t], after38_2]
  unfold outsAt38 out38_2; (try dsimp only)
  iintro ⟨⟨⟨Hacc, Hrest⟩, Hgen⟩, Howe, ⟨%da, Ha⟩, ⟨%db, Hb⟩, ⟨%dO, Hout⟩⟩
  iapply ((kernelRun38 c (grid38.coords t) _ _ _ _ _ _ _ _ (hcond38_0 t) (hcond38_1 t) (iblk38 V c 0 t) (iblk38 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover38_2 c _ _ _ _ _ _ _ _ _ _ _ _ _)

/-- The library's body obligation, at every point. -/
theorem body_obligation38 (c : Dev nD) : BodyObligation (dat38 (F := F) V c) (defs₀ (F := F)) Variants.none () Set.univ := fun t => by
  rw [bigSep_W38, bigSep_W38]
  exact sound_body38 V c t

/-- What the launch hands the region is the invariant before the first point, -/
theorem hin38 (c : Dev nD) : Pipeline.ΦA spec38 c ⊢ (dat38 V c).Φ 0 := Idealize.SL.BI.Entails.refl _

/-- and the invariant after the last point is what the launch takes back. -/
theorem hout38 (c : Dev nD) : (dat38 V c).Φ (Fin.last cfg38.N) ⊢ Pipeline.ΦA spec38 c := Idealize.SL.BI.Entails.refl _

end Cert.Kernel.Hand

end
-- ==== Proof.RegK39a.lean ====
/- Laid out by: python3 scratch/layout_regions.py --template-region 1 --region 39 --program Kernel --parts a,b,c, --out-dir proof/Proof
   from the hand-written text of region 1 (RegKI1a.lean): the same text, the region's number and the program's namespace substituted. -/
/-
  Region 39 of @main (custom_call 39): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond39_0 (i : grid39.Coords) : Prop := (Scalar.cmpi .ne (Scalar.extui (Scalar.cmpi .eq (BitVec.ofNat 32 (i 1).val) 0#32)) 0#32) = 1#1
/-- It holds exactly at the points with t % 4 = 0. -/
theorem hcond39_0 : ∀ t : Fin cfg39.N, cond39_0 (grid39.coords t) ↔ t.val % 4 = 0 :=
  (by decide +kernel : ∀ t : Fin grid39.N, cond39_0 (grid39.coords t) ↔ t.val % 4 = 0)

/-- "k = 3": the second conditional's test. -/
abbrev cond39_1 (i : grid39.Coords) : Prop := k39_cond2 i = 1#1
/-- It holds exactly at the points with t % 4 = 3. -/
theorem hcond39_1 : ∀ t : Fin cfg39.N, cond39_1 (grid39.coords t) ↔ t.val % 4 = 3 :=
  (by decide +kernel : ∀ t : Fin grid39.N, cond39_1 (grid39.coords t) ↔ t.val % 4 = 3)

/-! ## Where the windows are idle, and where the output is written back -/

/-- The two input windows are never idle. -/
theorem liveAt39_0 : ∀ t : Fin cfg39.N, cfg39.idle 0 (grid39.coords t) = false := by decide +kernel
theorem liveAt39_1 : ∀ t : Fin cfg39.N, cfg39.idle 1 (grid39.coords t) = false := by decide +kernel
/-- Where k ≠ 3 the output window is idle (the body stores nothing into it) and is not written back. -/
theorem idleAt39_2 : ∀ t : Fin cfg39.N, ¬cond39_1 (grid39.coords t) → cfg39.idle 2 (grid39.coords t) = true := by decide +kernel
theorem noFlush39_2 : ∀ t : Fin cfg39.N, ¬cond39_1 (grid39.coords t) → (cfg39.win 2).flush t = false := by decide +kernel
/-- Where k = 3 it is live. -/
theorem liveAt39_2 : ∀ t : Fin cfg39.N, cond39_1 (grid39.coords t) → cfg39.idle 2 (grid39.coords t) = false := by decide +kernel

/-! ## The staging memrefs at a point, and the scratch -/

/-- One staging buffer of the output window, through which its contents are stated. -/
abbrev VO39_2 : View sig .tc .vmem S1024x512 .f32 := (Memref.whole cc39_stg2_0 : Memref sig .tc .vmem S1024x512 .f32).view
abbrev ms39_0 (t : Fin cfg39.N) : Memref sig .tc .vmem S1024x1024 .bf16 := win39_0.stage (cfg39.slots t 0)
abbrev hs39_0 (t : Fin cfg39.N) : (ms39_0 t).IsWhole := hstage39_0 ((cfg39.slots t 0).cast nbuf39_0)
abbrev ms39_1 (t : Fin cfg39.N) : Memref sig .tc .vmem S1024x512 .f32 := win39_1.stage (cfg39.slots t 1)
abbrev hs39_1 (t : Fin cfg39.N) : (ms39_1 t).IsWhole := hstage39_1 ((cfg39.slots t 1).cast nbuf39_1)
abbrev ms39_2 (t : Fin cfg39.N) : Memref sig .tc .vmem S1024x512 .f32 := win39_2.stage (cfg39.slots t 2)
abbrev hs39_2 (t : Fin cfg39.N) : (ms39_2 t).IsWhole := hstage39_2 ((cfg39.slots t 2).cast nbuf39_2)
/-- The accumulator: a whole scoped buffer of the kernel's own. -/
abbrev scM39 : Memref sig .tc .vmem S1024x512 .f32 := Memref.whole cc39_scratch0
abbrev VS39 : View sig .tc .vmem S1024x512 .f32 := scM39.view

/-- The other scoped buffers of the core, none of which this region touches. -/
abbrev restBut39 (c : Dev nD) : sProp 𝕄 :=
  Pipeline.scopedRestBut (Ix := Unit) (Name := ℕ) (U := UR sig nD τ) (Lvl := ℕ) (Val := Elt F) spec39 c [cc39_scratch0]

/-- The region's invariant before its first point: the accumulator at something, the other scoped buffers, the generator register. -/
theorem PhiA39_eq (c : Dev nD) :
    (Pipeline.ΦA spec39 c : sProp 𝕄)
      = iprop(iprop((∃ d, owns (c : Thread nD τ) scM39 fullShare d) ∗ restBut39 c) ∗ (∃ r, prngReg c r)) := by
  unfold Pipeline.ΦA; rw [scopedRest39_split]; simp only [scM39, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun39_A (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond39_0 i) (hc1 : ¬cond39_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc39__matmul_kernel i arg2 harg2 arg3 harg3 arg4 harg4 arg5 harg5) K } := by
  refine ⟨[], ?_, fun xi2 E K => ?run⟩
  case run =>
    simp only [cc39__matmul_kernel_eq_skeleton]; unfold cc39__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK39b.lean ====
/- Laid out by: python3 scratch/layout_regions.py --template-region 1 --region 39 --program Kernel --parts a,b,c, --out-dir proof/Proof
   from the hand-written text of region 1 (RegKI1b.lean): the same text, the region's number and the program's namespace substituted. -/
/-
  Region 39, case B (k = 1, 2): the body's run. Neither conditional is taken: the product of the two blocks is added to what
  the point before left in the accumulator; the output block is not touched.
-/
import proofs.«158944_j64613488001249_1_alg».proof.Proof.RegK39a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun39_B (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond39_0 i) (hc1 : ¬cond39_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc39__matmul_kernel i arg2 harg2 arg3 harg3 arg4 harg4 arg5 harg5) K } := by
  refine ⟨[], ?_, fun xi2 E K => ?run⟩
  case run =>
    simp only [cc39__matmul_kernel_eq_skeleton]; unfold cc39__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK39c.lean ====
/- Laid out by: python3 scratch/layout_regions.py --template-region 1 --region 39 --program Kernel --parts a,b,c, --out-dir proof/Proof
   from the hand-written text of region 1 (RegKI1c.lean): the same text, the region's number and the program's namespace substituted. -/
/-
  Region 39, case C (k = 3): the body's run. The product is added to the accumulator as in case B, and then the second
  conditional copies the accumulator over the whole output block.
-/
import proofs.«158944_j64613488001249_1_alg».proof.Proof.RegK39b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun39_C (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond39_0 i) (hc1 : cond39_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc39__matmul_kernel i arg2 harg2 arg3 harg3 arg4 harg4 arg5 harg5) K } := by
  refine ⟨?_, ?_, fun E K => ?run⟩
  case run =>
    simp only [cc39__matmul_kernel_eq_skeleton]; unfold cc39__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK39.lean ====
/- Laid out by: python3 scratch/layout_regions.py --template-region 1 --region 39 --program Kernel --parts a,b,c, --out-dir proof/Proof
   from the hand-written text of region 1 (RegKI1.lean): the same text, the region's number and the program's namespace substituted. -/
/-
  Region 39 of @main, entered from the buffer contents `V`: what its windows' blocks are, what each case of the body leaves in
  the accumulator and in the output block, the accumulator and the output block point by point (`outsAt39`: at k = 0 the
  accumulator restarts from zeros plus the product; at k = 1, 2, 3 it is the point before's plus the product; at k = 3 the
  output block is the accumulator), the region's invariant (the accumulator at `outsAt39`'s second component), the proof data,
  and the body's obligation at every point.
-/
import proofs.«158944_j64613488001249_1_alg».proof.Proof.RegK39c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk39 (c : Dev nD) (w : Fin cfg39.W) (t : Fin cfg39.N) : ((cfg39.win w).xblock (cfg39.grid.coords t)).Idx → Elt F (cfg39.win w).elt :=
  ((cfg39.win w).blk t).view.read (Elt F) (V c (Pipeline.arrRef spec39 w))

/-- An input window's current staging buffer holds its block at every point, for any proof data whose array is `V`'s and
    whose body leaves the block in place. -/
theorem before39_0_of {c : Dev nD} (dat : Dat τ (Elt F) Unit ℕ (UR sig nD τ) ℕ cfg39 c) (hA : dat.A 0 = V c (Pipeline.arrRef spec39 0))
    (hafter : ∀ t, dat.after 0 t = iblk39 V c 0 t) (t : Fin cfg39.N) (d) : dat.before 0 t d = iblk39 V c 0 t :=
  (dat.before_in_eq_fetched 0 rfl (fun _ => rfl) (fun _ _ _ => rfl) (fun t => by rw [hafter]; unfold Dat.blockOf iblk39; rw [hA]; try rfl) t d).trans
    (by unfold Dat.fetched Dat.blockOf iblk39; rw [hA]; try rfl)
theorem before39_1_of {c : Dev nD} (dat : Dat τ (Elt F) Unit ℕ (UR sig nD τ) ℕ cfg39 c) (hA : dat.A 1 = V c (Pipeline.arrRef spec39 1))
    (hafter : ∀ t, dat.after 1 t = iblk39 V c 1 t) (t : Fin cfg39.N) (d) : dat.before 1 t d = iblk39 V c 1 t :=
  (dat.before_in_eq_fetched 1 rfl (fun _ => rfl) (fun _ _ _ => rfl) (fun t => by rw [hafter]; unfold Dat.blockOf iblk39; rw [hA]; try rfl) t d).trans
    (by unfold Dat.fetched Dat.blockOf iblk39; rw [hA]; try rfl)

/-! ## What each case leaves -/

/-- Case A's stores into the accumulator cover it. -/
theorem scover39_A (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond39_0 i) (hc1 : ¬cond39_1 i)
    (x0 : Vec F S1024x1024 .bf16) (x1 : Vec F S1024x512 .f32) (y : S1024x512.Idx) :
    ∃ pc ∈ (kernelRun39_A c i arg2 harg2 arg3 harg3 arg4 harg4 arg5 harg5 hc0 hc1 x0 x1).2.1, y ∈ pc.1.set :=
  View.cover_of_tiledL (kernelRun39_A c i arg2 harg2 arg3 harg3 arg4 harg4 arg5 harg5 hc0 hc1 x0 x1).2.1 S1024x512.size (by sl_kernel_rfl) y
/-- What case A leaves in the accumulator. -/
noncomputable def sout39_A (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond39_0 i) (hc1 : ¬cond39_1 i)
    (x0 : Vec F S1024x1024 .bf16) (x1 : Vec F S1024x512 .f32) : Vec F S1024x512 .f32 :=
  VS39.read (Elt F) (VS39.writes (Elt F) VS39.junk (kernelRun39_A c i arg2 harg2 arg3 harg3 arg4 harg4 arg5 harg5 hc0 hc1 x0 x1).2.1)

/-- Case B's store into the accumulator covers it. -/
theorem scover39_B (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond39_0 i) (hc1 : ¬cond39_1 i)
    (x0 : Vec F S1024x1024 .bf16) (x1 : Vec F S1024x512 .f32) (xs0 : Vec F S1024x512 .f32) (y : S1024x512.Idx) :
    ∃ pc ∈ (kernelRun39_B c i arg2 harg2 arg3 harg3 arg4 harg4 arg5 harg5 hc0 hc1 x0 x1 xs0).2.1, y ∈ pc.1.set :=
  View.cover_of_tiledL (kernelRun39_B c i arg2 harg2 arg3 harg3 arg4 harg4 arg5 harg5 hc0 hc1 x0 x1 xs0).2.1 S1024x512.size (by sl_kernel_rfl) y
/-- What case B leaves in the accumulator, over what the point before left. -/
noncomputable def sout39_B (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond39_0 i) (hc1 : ¬cond39_1 i)
    (x0 : Vec F S1024x1024 .bf16) (x1 : Vec F S1024x512 .f32) (xs0 : Vec F S1024x512 .f32) : Vec F S1024x512 .f32 :=
  VS39.read (Elt F) (VS39.writes (Elt F) VS39.junk (kernelRun39_B c i arg2 harg2 arg3 harg3 arg4 harg4 arg5 harg5 hc0 hc1 x0 x1 xs0).2.1)

/-- Case C's store into the output block covers it, and so does its store into the accumulator. -/
theorem cover39_C (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond39_0 i) (hc1 : cond39_1 i)
    (x0 : Vec F S1024x1024 .bf16) (x1 : Vec F S1024x512 .f32) (xs0 : Vec F S1024x512 .f32) (y : S1024x512.Idx) :
    ∃ pc ∈ (kernelRun39_C c i arg2 harg2 arg3 harg3 arg4 harg4 arg5 harg5 hc0 hc1 x0 x1 xs0).1, y ∈ pc.1.set :=
  View.cover_of_tiledL (kernelRun39_C c i arg2 harg2 arg3 harg3 arg4 harg4 arg5 harg5 hc0 hc1 x0 x1 xs0).1 S1024x512.size (by sl_kernel_rfl) y
theorem scover39_C (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond39_0 i) (hc1 : cond39_1 i)
    (x0 : Vec F S1024x1024 .bf16) (x1 : Vec F S1024x512 .f32) (xs0 : Vec F S1024x512 .f32) (y : S1024x512.Idx) :
    ∃ pc ∈ (kernelRun39_C c i arg2 harg2 arg3 harg3 arg4 harg4 arg5 harg5 hc0 hc1 x0 x1 xs0).2.1, y ∈ pc.1.set :=
  View.cover_of_tiledL (kernelRun39_C c i arg2 harg2 arg3 harg3 arg4 harg4 arg5 harg5 hc0 hc1 x0 x1 xs0).2.1 S1024x512.size (by sl_kernel_rfl) y
/-- What case C leaves in the output block, and in the accumulator. -/
noncomputable def out39_C (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond39_0 i) (hc1 : cond39_1 i)
    (x0 : Vec F S1024x1024 .bf16) (x1 : Vec F S1024x512 .f32) (xs0 : Vec F S1024x512 .f32) : Vec F S1024x512 .f32 :=
  VO39_2.read (Elt F) (VO39_2.writes (Elt F) VO39_2.junk (kernelRun39_C c i arg2 harg2 arg3 harg3 arg4 harg4 arg5 harg5 hc0 hc1 x0 x1 xs0).1)
noncomputable def sout39_C (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond39_0 i) (hc1 : cond39_1 i)
    (x0 : Vec F S1024x1024 .bf16) (x1 : Vec F S1024x512 .f32) (xs0 : Vec F S1024x512 .f32) : Vec F S1024x512 .f32 :=
  VS39.read (Elt F) (VS39.writes (Elt F) VS39.junk (kernelRun39_C c i arg2 harg2 arg3 harg3 arg4 harg4 arg5 harg5 hc0 hc1 x0 x1 xs0).2.1)

/-- Where the output block is idle nothing consults what it holds: a placeholder. -/
noncomputable def outIdle39 : Vec F S1024x512 .f32 := VO39_2.read (Elt F) (VO39_2.writes (Elt F) VO39_2.junk [])

/-! ## The conditions at a point, from t % 4 -/

theorem isFirst39 (t : Fin cfg39.N) (h : t.val % 4 = 0) : cond39_0 (grid39.coords t) := (hcond39_0 t).mpr h
theorem notFirst39 (t : Fin cfg39.N) (h : ¬t.val % 4 = 0) : ¬cond39_0 (grid39.coords t) := fun hc => h ((hcond39_0 t).mp hc)
theorem isLast39 (t : Fin cfg39.N) (h : t.val % 4 = 3) : cond39_1 (grid39.coords t) := (hcond39_1 t).mpr h
theorem notLast39 (t : Fin cfg39.N) (h : ¬t.val % 4 = 3) : ¬cond39_1 (grid39.coords t) := fun hc => h ((hcond39_1 t).mp hc)

/-! ## The accumulator and the output block, point by point -/

/-- After the body at position `n`: (the output block's buffer, the accumulator). -/
noncomputable def outsAt39 (c : Dev nD) : (n : ℕ) → n < cfg39.N → Vec F S1024x512 .f32 × Vec F S1024x512 .f32
  | 0, hn => (outIdle39, sout39_A c (grid39.coords ⟨0, hn⟩) (ms39_0 ⟨0, hn⟩) (hs39_0 ⟨0, hn⟩) (ms39_1 ⟨0, hn⟩) (hs39_1 ⟨0, hn⟩) (ms39_2 ⟨0, hn⟩) (hs39_2 ⟨0, hn⟩) scM39 (Memref.isWhole_whole _) (isFirst39 ⟨0, hn⟩ (Nat.zero_mod _)) (notLast39 ⟨0, hn⟩ (by simp)) (iblk39 V c 0 ⟨0, hn⟩) (iblk39 V c 1 ⟨0, hn⟩))
  | n + 1, hn =>
    if h0 : (n + 1) % 4 = 0 then
      (outIdle39, sout39_A c (grid39.coords ⟨n + 1, hn⟩) (ms39_0 ⟨n + 1, hn⟩) (hs39_0 ⟨n + 1, hn⟩) (ms39_1 ⟨n + 1, hn⟩) (hs39_1 ⟨n + 1, hn⟩) (ms39_2 ⟨n + 1, hn⟩) (hs39_2 ⟨n + 1, hn⟩) scM39 (Memref.isWhole_whole _) (isFirst39 ⟨n + 1, hn⟩ h0) (notLast39 ⟨n + 1, hn⟩ (by show ¬(n + 1) % 4 = 3; omega)) (iblk39 V c 0 ⟨n + 1, hn⟩) (iblk39 V c 1 ⟨n + 1, hn⟩))
    else if h3 : (n + 1) % 4 = 3 then
      (out39_C c (grid39.coords ⟨n + 1, hn⟩) (ms39_0 ⟨n + 1, hn⟩) (hs39_0 ⟨n + 1, hn⟩) (ms39_1 ⟨n + 1, hn⟩) (hs39_1 ⟨n + 1, hn⟩) (ms39_2 ⟨n + 1, hn⟩) (hs39_2 ⟨n + 1, hn⟩) scM39 (Memref.isWhole_whole _) (notFirst39 ⟨n + 1, hn⟩ h0) (isLast39 ⟨n + 1, hn⟩ h3) (iblk39 V c 0 ⟨n + 1, hn⟩) (iblk39 V c 1 ⟨n + 1, hn⟩) (outsAt39 c n (Nat.lt_of_succ_lt hn)).2,
       sout39_C c (grid39.coords ⟨n + 1, hn⟩) (ms39_0 ⟨n + 1, hn⟩) (hs39_0 ⟨n + 1, hn⟩) (ms39_1 ⟨n + 1, hn⟩) (hs39_1 ⟨n + 1, hn⟩) (ms39_2 ⟨n + 1, hn⟩) (hs39_2 ⟨n + 1, hn⟩) scM39 (Memref.isWhole_whole _) (notFirst39 ⟨n + 1, hn⟩ h0) (isLast39 ⟨n + 1, hn⟩ h3) (iblk39 V c 0 ⟨n + 1, hn⟩) (iblk39 V c 1 ⟨n + 1, hn⟩) (outsAt39 c n (Nat.lt_of_succ_lt hn)).2)
    else
      (outIdle39, sout39_B c (grid39.coords ⟨n + 1, hn⟩) (ms39_0 ⟨n + 1, hn⟩) (hs39_0 ⟨n + 1, hn⟩) (ms39_1 ⟨n + 1, hn⟩) (hs39_1 ⟨n + 1, hn⟩) (ms39_2 ⟨n + 1, hn⟩) (hs39_2 ⟨n + 1, hn⟩) scM39 (Memref.isWhole_whole _) (notFirst39 ⟨n + 1, hn⟩ h0) (notLast39 ⟨n + 1, hn⟩ h3) (iblk39 V c 0 ⟨n + 1, hn⟩) (iblk39 V c 1 ⟨n + 1, hn⟩) (outsAt39 c n (Nat.lt_of_succ_lt hn)).2)

/-- `outsAt39` at a point with k = 0. -/
theorem outsAt39_A (c : Dev nD) (t : Fin cfg39.N) (h0 : t.val % 4 = 0) :
    outsAt39 V c t.val t.isLt = (outIdle39, sout39_A c (grid39.coords t) (ms39_0 t) (hs39_0 t) (ms39_1 t) (hs39_1 t) (ms39_2 t) (hs39_2 t) scM39 (Memref.isWhole_whole _) (isFirst39 t h0) (notLast39 t (by omega)) (iblk39 V c 0 t) (iblk39 V c 1 t)) := by
  obtain ⟨n, hn⟩ := t
  cases n with
  | zero => rfl
  | succ n => exact (dif_pos h0).trans rfl

/-- `outsAt39` at a point with k = 1, 2: over what the point before left. -/
theorem outsAt39_B (c : Dev nD) (t : Fin cfg39.N) (h0 : ¬t.val % 4 = 0) (h3 : ¬t.val % 4 = 3) :
    outsAt39 V c t.val t.isLt = (outIdle39, sout39_B c (grid39.coords t) (ms39_0 t) (hs39_0 t) (ms39_1 t) (hs39_1 t) (ms39_2 t) (hs39_2 t) scM39 (Memref.isWhole_whole _) (notFirst39 t h0) (notLast39 t h3) (iblk39 V c 0 t) (iblk39 V c 1 t)
      (outsAt39 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt39` at a point with k = 3. -/
theorem outsAt39_C (c : Dev nD) (t : Fin cfg39.N) (h0 : ¬t.val % 4 = 0) (h3 : t.val % 4 = 3) :
    outsAt39 V c t.val t.isLt = (out39_C c (grid39.coords t) (ms39_0 t) (hs39_0 t) (ms39_1 t) (hs39_1 t) (ms39_2 t) (hs39_2 t) scM39 (Memref.isWhole_whole _) (notFirst39 t h0) (isLast39 t h3) (iblk39 V c 0 t) (iblk39 V c 1 t)
        (outsAt39 V c (t.val - 1) (Nat.lt_of_le_of_lt (Nat.sub_le _ _) t.isLt)).2,
      sout39_C c (grid39.coords t) (ms39_0 t) (hs39_0 t) (ms39_1 t) (hs39_1 t) (ms39_2 t) (hs39_2 t) scM39 (Memref.isWhole_whole _) (notFirst39 t h0) (isLast39 t h3) (iblk39 V c 0 t) (iblk39 V c 1 t)
        (outsAt39 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS39 (c : Dev nD) : (n : ℕ) → n ≤ cfg39.N → sProp 𝕄
  | 0, _ => Pipeline.ΦA spec39 c
  | n + 1, hn => iprop(iprop(owns (c : Thread nD τ) scM39 fullShare ((outsAt39 V c n hn).2) ∗ restBut39 c) ∗ (∃ r, prngReg c r))

theorem PhiS39_zero (c : Dev nD) (n : ℕ) (h : n ≤ cfg39.N) (hz : n = 0) : PhiS39 V c n h = Pipeline.ΦA spec39 c := by
  subst hz; rfl
theorem PhiS39_succ (c : Dev nD) (n : ℕ) (hn : n < cfg39.N) :
    PhiS39 V c (n + 1) hn = iprop(iprop(owns (c : Thread nD τ) scM39 fullShare ((outsAt39 V c n hn).2) ∗ restBut39 c) ∗ (∃ r, prngReg c r)) := rfl
theorem PhiS39_pos (c : Dev nD) (n : ℕ) (h : n ≤ cfg39.N) (hz : n ≠ 0) :
    PhiS39 V c n h = iprop(iprop(owns (c : Thread nD τ) scM39 fullShare ((outsAt39 V c (n - 1) (by omega)).2) ∗ restBut39 c) ∗ (∃ r, prngReg c r)) := by
  cases n with
  | zero => exact absurd rfl hz
  | succ n => rfl

/-! ## The proof data -/

/-- The region's proof data on core `c`: the arrays as the region finds them; after the body at point `t` each input's
    buffer at its block and the output's at `outsAt39`'s first component; the invariant `PhiS39`; nothing owed; full shares. -/
noncomputable def dat39 (c : Dev nD) : Dat τ (Elt F) Unit ℕ (UR sig nD τ) ℕ cfg39 c where
  A w := V c (Pipeline.arrRef spec39 w)
  after w t := match w with
    | ⟨0, _⟩ => iblk39 V c 0 t
    | ⟨1, _⟩ => iblk39 V c 1 t
    | ⟨2, _⟩ => (outsAt39 V c t.val t.isLt).1
  Φ t := PhiS39 V c t.val (Nat.le_of_lt_succ t.isLt)
  q _ := fullShare
  owed _ := 0

theorem A_eq39 (c : Dev nD) (w : Fin cfg39.W) : (dat39 V c).A w = V c (Pipeline.arrRef spec39 w) := by
  dsimp only [dat39]
theorem PhiS39_castSucc (c : Dev nD) (t : Fin cfg39.N) :
    (dat39 V c).Φ t.castSucc = PhiS39 V c t.val (Nat.le_of_lt t.isLt) := by
  dsimp only [dat39]; simp only [Fin.coe_castSucc]
theorem after39_0 (c : Dev nD) (t : Fin cfg39.N) : (dat39 V c).after 0 t = iblk39 V c 0 t := by dsimp only [dat39]
theorem after39_1 (c : Dev nD) (t : Fin cfg39.N) : (dat39 V c).after 1 t = iblk39 V c 1 t := by dsimp only [dat39]
theorem after39_2 (c : Dev nD) (t : Fin cfg39.N) : (dat39 V c).after 2 t = (outsAt39 V c t.val t.isLt).1 := by dsimp only [dat39]
theorem before39_0 (c : Dev nD) (t : Fin cfg39.N) (d) : (dat39 V c).before 0 t d = iblk39 V c 0 t :=
  before39_0_of V (dat39 V c) (A_eq39 V c 0) (after39_0 V c) t d
theorem before39_1 (c : Dev nD) (t : Fin cfg39.N) (d) : (dat39 V c).before 1 t d = iblk39 V c 1 t :=
  before39_1_of V (dat39 V c) (A_eq39 V c 1) (after39_1 V c) t d

/-! ## The body's obligation -/

noncomputable def bodyPre39 (c : Dev nD) (t : Fin cfg39.N) : sProp 𝕄 :=
  iprop((dat39 V c).Φ t.castSucc ∗ (dat39 V c).owesAt () t.castSucc
    ∗ (∃ d, owns (c : Thread nD τ) (ms39_0 t) fullShare ((dat39 V c).before 0 t d))
    ∗ (∃ d, owns (c : Thread nD τ) (ms39_1 t) fullShare ((dat39 V c).before 1 t d))
    ∗ (∃ d, owns (c : Thread nD τ) (ms39_2 t) fullShare ((dat39 V c).before 2 t d)))

noncomputable def bodyPost39 (c : Dev nD) (t : Fin cfg39.N) : sProp 𝕄 :=
  iprop((dat39 V c).Φ t.succ ∗ (dat39 V c).owesAt () t.succ
    ∗ (dat39 V c).leavesExact 0 t
    ∗ (dat39 V c).leavesExact 1 t
    ∗ (dat39 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body39 (c : Dev nD) (t : Fin cfg39.N) :
    bodyPre39 V c t ⊢ wp frame (wpE (defs₀ (F := F)) Variants.none c none) Set.univ (bodyAt39 t) (fun _ => bodyPost39 V c t) := by
  unfold bodyPre39 bodyPost39 bodyAt39
  simp only [before39_0, before39_1]
  rw [show (dat39 V c).owesAt () t.succ = (dat39 V c).owesAt () t.castSucc from rfl]
  rw [show (dat39 V c).Φ t.succ = PhiS39 V c (t.val + 1) t.isLt from rfl, PhiS39_succ]
  rw [show (dat39 V c).leavesExact 0 t = owns (c : Thread nD τ) (ms39_0 t) fullShare ((dat39 V c).after 0 t) from by
    unfold Dat.leavesExact; rw [liveAt39_0 t], after39_0]
  rw [show (dat39 V c).leavesExact 1 t = owns (c : Thread nD τ) (ms39_1 t) fullShare ((dat39 V c).after 1 t) from by
    unfold Dat.leavesExact; rw [liveAt39_1 t], after39_1]
  by_cases h0 : t.val % 4 = 0
  · have h3 : ¬t.val % 4 = 3 := by omega
    rw [Dat.leavesExact_idle (dat39 V c) 2 t (idleAt39_2 t (notLast39 t h3)) (noFlush39_2 t (notLast39 t h3))]
    rw [outsAt39_A V c t h0]
    unfold sout39_A; (try dsimp only)
    by_cases hz : t.val = 0
    · rw [PhiS39_castSucc V c t, PhiS39_zero V c _ _ hz, PhiA39_eq]
      iintro ⟨⟨⟨HS0, Hrb⟩, Hg⟩, Ho, ⟨%d0, H0⟩, ⟨%d1, H1⟩, ⟨%d2, H2⟩⟩
      iapply ((kernelRun39_A c (grid39.coords t) _ _ _ _ _ _ _ _ (isFirst39 t h0) (notLast39 t (by omega)) (iblk39 V c 0 t) (iblk39 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover39_A c _ _ _ _ _ _ _ _ _ _ _ _ _)
          iexact Hrb
        iexact Hg
      isplitl [Ho]; · iexact Ho
      isplitl [H0]; · iexact H0
      isplitl [H1]; · iexact H1
      iexists _; iexact H2
    · rw [PhiS39_castSucc V c t, PhiS39_pos V c _ _ hz]
      iintro ⟨⟨⟨HS0, Hrb⟩, Hg⟩, Ho, ⟨%d0, H0⟩, ⟨%d1, H1⟩, ⟨%d2, H2⟩⟩
      iapply ((kernelRun39_A c (grid39.coords t) _ _ _ _ _ _ _ _ (isFirst39 t h0) (notLast39 t (by omega)) (iblk39 V c 0 t) (iblk39 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover39_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat39 V c).leavesExact 2 t = owns (c : Thread nD τ) (ms39_2 t) fullShare ((dat39 V c).after 2 t) from by
        unfold Dat.leavesExact; rw [liveAt39_2 t (isLast39 t h3)], after39_2]
      rw [outsAt39_C V c t h0 h3]
      unfold out39_C sout39_C; (try dsimp only)
      rw [PhiS39_castSucc V c t, PhiS39_pos V c _ _ hz]
      iintro ⟨⟨⟨HS0, Hrb⟩, Hg⟩, Ho, ⟨%d0, H0⟩, ⟨%d1, H1⟩, ⟨%d2, H2⟩⟩
      iapply ((kernelRun39_C c (grid39.coords t) _ _ _ _ _ _ _ _ (notFirst39 t h0) (isLast39 t h3) (iblk39 V c 0 t) (iblk39 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover39_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover39_C c _ _ _ _ _ _ _ _ _ _ _ _ _ _)
    · rw [Dat.leavesExact_idle (dat39 V c) 2 t (idleAt39_2 t (notLast39 t h3)) (noFlush39_2 t (notLast39 t h3))]
      rw [outsAt39_B V c t h0 h3]
      unfold sout39_B; (try dsimp only)
      rw [PhiS39_castSucc V c t, PhiS39_pos V c _ _ hz]
      iintro ⟨⟨⟨HS0, Hrb⟩, Hg⟩, Ho, ⟨%d0, H0⟩, ⟨%d1, H1⟩, ⟨%d2, H2⟩⟩
      iapply ((kernelRun39_B c (grid39.coords t) _ _ _ _ _ _ _ _ (notFirst39 t h0) (notLast39 t h3) (iblk39 V c 0 t) (iblk39 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover39_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation39 (c : Dev nD) : BodyObligation (dat39 (F := F) V c) (defs₀ (F := F)) Variants.none () Set.univ := fun t => by
  rw [bigSep_W39, bigSep_W39]
  exact sound_body39 V c t

/-- What the region is entered with is the invariant before the first point. -/
theorem hin39 (c : Dev nD) : Pipeline.ΦA spec39 c ⊢ (dat39 V c).Φ 0 := by
  rw [show (dat39 V c).Φ 0 = PhiS39 V c 0 (Nat.zero_le _) from rfl, PhiS39_zero V c 0 _ rfl]
  try exact Idealize.SL.BI.Entails.refl _

/-- After the last point the invariant gives the class's back: the accumulator's contents are forgotten. -/
theorem hout39 (c : Dev nD) : (dat39 V c).Φ (Fin.last cfg39.N) ⊢ Pipeline.ΦA spec39 c := by
  have hN : cfg39.N = 16 := N_39
  rw [show (dat39 V c).Φ (Fin.last cfg39.N) = PhiS39 V c (Fin.last cfg39.N).val (Nat.le_of_lt_succ (Fin.last cfg39.N).isLt) from rfl,
    PhiS39_pos V c _ _ (by rw [Fin.val_last]; omega), PhiA39_eq]
  iintro ⟨⟨HS0, Hrb⟩, Hg⟩
  isplitl [HS0 Hrb]
  · isplitl [HS0]
    · iexists _; iexact HS0
    iexact Hrb
  iexact Hg

end Cert.Kernel.Hand

end
-- ==== Proof.RegK40a.lean ====
/- Laid out by: python3 scratch/layout_regions.py --template-region 1 --region 40 --program Kernel --parts a,b,c, --out-dir proof/Proof
   from the hand-written text of region 1 (RegKI1a.lean): the same text, the region's number and the program's namespace substituted. -/
/-
  Region 40 of @main (custom_call 40): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond40_0 (i : grid40.Coords) : Prop := (Scalar.cmpi .ne (Scalar.extui (Scalar.cmpi .eq (BitVec.ofNat 32 (i 1).val) 0#32)) 0#32) = 1#1
/-- It holds exactly at the points with t % 4 = 0. -/
theorem hcond40_0 : ∀ t : Fin cfg40.N, cond40_0 (grid40.coords t) ↔ t.val % 4 = 0 :=
  (by decide +kernel : ∀ t : Fin grid40.N, cond40_0 (grid40.coords t) ↔ t.val % 4 = 0)

/-- "k = 3": the second conditional's test. -/
abbrev cond40_1 (i : grid40.Coords) : Prop := k40_cond2 i = 1#1
/-- It holds exactly at the points with t % 4 = 3. -/
theorem hcond40_1 : ∀ t : Fin cfg40.N, cond40_1 (grid40.coords t) ↔ t.val % 4 = 3 :=
  (by decide +kernel : ∀ t : Fin grid40.N, cond40_1 (grid40.coords t) ↔ t.val % 4 = 3)

/-! ## Where the windows are idle, and where the output is written back -/

/-- The two input windows are never idle. -/
theorem liveAt40_0 : ∀ t : Fin cfg40.N, cfg40.idle 0 (grid40.coords t) = false := by decide +kernel
theorem liveAt40_1 : ∀ t : Fin cfg40.N, cfg40.idle 1 (grid40.coords t) = false := by decide +kernel
/-- Where k ≠ 3 the output window is idle (the body stores nothing into it) and is not written back. -/
theorem idleAt40_2 : ∀ t : Fin cfg40.N, ¬cond40_1 (grid40.coords t) → cfg40.idle 2 (grid40.coords t) = true := by decide +kernel
theorem noFlush40_2 : ∀ t : Fin cfg40.N, ¬cond40_1 (grid40.coords t) → (cfg40.win 2).flush t = false := by decide +kernel
/-- Where k = 3 it is live. -/
theorem liveAt40_2 : ∀ t : Fin cfg40.N, cond40_1 (grid40.coords t) → cfg40.idle 2 (grid40.coords t) = false := by decide +kernel

/-! ## The staging memrefs at a point, and the scratch -/

/-- One staging buffer of the output window, through which its contents are stated. -/
abbrev VO40_2 : View sig .tc .vmem S1024x512 .f32 := (Memref.whole cc40_stg2_0 : Memref sig .tc .vmem S1024x512 .f32).view
abbrev ms40_0 (t : Fin cfg40.N) : Memref sig .tc .vmem S1024x1024 .bf16 := win40_0.stage (cfg40.slots t 0)
abbrev hs40_0 (t : Fin cfg40.N) : (ms40_0 t).IsWhole := hstage40_0 ((cfg40.slots t 0).cast nbuf40_0)
abbrev ms40_1 (t : Fin cfg40.N) : Memref sig .tc .vmem S1024x512 .f32 := win40_1.stage (cfg40.slots t 1)
abbrev hs40_1 (t : Fin cfg40.N) : (ms40_1 t).IsWhole := hstage40_1 ((cfg40.slots t 1).cast nbuf40_1)
abbrev ms40_2 (t : Fin cfg40.N) : Memref sig .tc .vmem S1024x512 .f32 := win40_2.stage (cfg40.slots t 2)
abbrev hs40_2 (t : Fin cfg40.N) : (ms40_2 t).IsWhole := hstage40_2 ((cfg40.slots t 2).cast nbuf40_2)
/-- The accumulator: a whole scoped buffer of the kernel's own. -/
abbrev scM40 : Memref sig .tc .vmem S1024x512 .f32 := Memref.whole cc40_scratch0
abbrev VS40 : View sig .tc .vmem S1024x512 .f32 := scM40.view

/-- The other scoped buffers of the core, none of which this region touches. -/
abbrev restBut40 (c : Dev nD) : sProp 𝕄 :=
  Pipeline.scopedRestBut (Ix := Unit) (Name := ℕ) (U := UR sig nD τ) (Lvl := ℕ) (Val := Elt F) spec40 c [cc40_scratch0]

/-- The region's invariant before its first point: the accumulator at something, the other scoped buffers, the generator register. -/
theorem PhiA40_eq (c : Dev nD) :
    (Pipeline.ΦA spec40 c : sProp 𝕄)
      = iprop(iprop((∃ d, owns (c : Thread nD τ) scM40 fullShare d) ∗ restBut40 c) ∗ (∃ r, prngReg c r)) := by
  unfold Pipeline.ΦA; rw [scopedRest40_split]; simp only [scM40, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun40_A (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond40_0 i) (hc1 : ¬cond40_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc40__matmul_kernel i arg2 harg2 arg3 harg3 arg4 harg4 arg5 harg5) K } := by
  refine ⟨[], ?_, fun xi2 E K => ?run⟩
  case run =>
    simp only [cc40__matmul_kernel_eq_skeleton]; unfold cc40__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK40b.lean ====
/- Laid out by: python3 scratch/layout_regions.py --template-region 1 --region 40 --program Kernel --parts a,b,c, --out-dir proof/Proof
   from the hand-written text of region 1 (RegKI1b.lean): the same text, the region's number and the program's namespace substituted. -/
/-
  Region 40, case B (k = 1, 2): the body's run. Neither conditional is taken: the product of the two blocks is added to what
  the point before left in the accumulator; the output block is not touched.
-/
import proofs.«158944_j64613488001249_1_alg».proof.Proof.RegK40a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun40_B (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond40_0 i) (hc1 : ¬cond40_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc40__matmul_kernel i arg2 harg2 arg3 harg3 arg4 harg4 arg5 harg5) K } := by
  refine ⟨[], ?_, fun xi2 E K => ?run⟩
  case run =>
    simp only [cc40__matmul_kernel_eq_skeleton]; unfold cc40__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK40c.lean ====
/- Laid out by: python3 scratch/layout_regions.py --template-region 1 --region 40 --program Kernel --parts a,b,c, --out-dir proof/Proof
   from the hand-written text of region 1 (RegKI1c.lean): the same text, the region's number and the program's namespace substituted. -/
/-
  Region 40, case C (k = 3): the body's run. The product is added to the accumulator as in case B, and then the second
  conditional copies the accumulator over the whole output block.
-/
import proofs.«158944_j64613488001249_1_alg».proof.Proof.RegK40b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun40_C (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond40_0 i) (hc1 : cond40_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc40__matmul_kernel i arg2 harg2 arg3 harg3 arg4 harg4 arg5 harg5) K } := by
  refine ⟨?_, ?_, fun E K => ?run⟩
  case run =>
    simp only [cc40__matmul_kernel_eq_skeleton]; unfold cc40__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK40.lean ====
/- Laid out by: python3 scratch/layout_regions.py --template-region 1 --region 40 --program Kernel --parts a,b,c, --out-dir proof/Proof
   from the hand-written text of region 1 (RegKI1.lean): the same text, the region's number and the program's namespace substituted. -/
/-
  Region 40 of @main, entered from the buffer contents `V`: what its windows' blocks are, what each case of the body leaves in
  the accumulator and in the output block, the accumulator and the output block point by point (`outsAt40`: at k = 0 the
  accumulator restarts from zeros plus the product; at k = 1, 2, 3 it is the point before's plus the product; at k = 3 the
  output block is the accumulator), the region's invariant (the accumulator at `outsAt40`'s second component), the proof data,
  and the body's obligation at every point.
-/
import proofs.«158944_j64613488001249_1_alg».proof.Proof.RegK40c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk40 (c : Dev nD) (w : Fin cfg40.W) (t : Fin cfg40.N) : ((cfg40.win w).xblock (cfg40.grid.coords t)).Idx → Elt F (cfg40.win w).elt :=
  ((cfg40.win w).blk t).view.read (Elt F) (V c (Pipeline.arrRef spec40 w))

/-- An input window's current staging buffer holds its block at every point, for any proof data whose array is `V`'s and
    whose body leaves the block in place. -/
theorem before40_0_of {c : Dev nD} (dat : Dat τ (Elt F) Unit ℕ (UR sig nD τ) ℕ cfg40 c) (hA : dat.A 0 = V c (Pipeline.arrRef spec40 0))
    (hafter : ∀ t, dat.after 0 t = iblk40 V c 0 t) (t : Fin cfg40.N) (d) : dat.before 0 t d = iblk40 V c 0 t :=
  (dat.before_in_eq_fetched 0 rfl (fun _ => rfl) (fun _ _ _ => rfl) (fun t => by rw [hafter]; unfold Dat.blockOf iblk40; rw [hA]; try rfl) t d).trans
    (by unfold Dat.fetched Dat.blockOf iblk40; rw [hA]; try rfl)
theorem before40_1_of {c : Dev nD} (dat : Dat τ (Elt F) Unit ℕ (UR sig nD τ) ℕ cfg40 c) (hA : dat.A 1 = V c (Pipeline.arrRef spec40 1))
    (hafter : ∀ t, dat.after 1 t = iblk40 V c 1 t) (t : Fin cfg40.N) (d) : dat.before 1 t d = iblk40 V c 1 t :=
  (dat.before_in_eq_fetched 1 rfl (fun _ => rfl) (fun _ _ _ => rfl) (fun t => by rw [hafter]; unfold Dat.blockOf iblk40; rw [hA]; try rfl) t d).trans
    (by unfold Dat.fetched Dat.blockOf iblk40; rw [hA]; try rfl)

/-! ## What each case leaves -/

/-- Case A's stores into the accumulator cover it. -/
theorem scover40_A (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond40_0 i) (hc1 : ¬cond40_1 i)
    (x0 : Vec F S1024x1024 .bf16) (x1 : Vec F S1024x512 .f32) (y : S1024x512.Idx) :
    ∃ pc ∈ (kernelRun40_A c i arg2 harg2 arg3 harg3 arg4 harg4 arg5 harg5 hc0 hc1 x0 x1).2.1, y ∈ pc.1.set :=
  View.cover_of_tiledL (kernelRun40_A c i arg2 harg2 arg3 harg3 arg4 harg4 arg5 harg5 hc0 hc1 x0 x1).2.1 S1024x512.size (by sl_kernel_rfl) y
/-- What case A leaves in the accumulator. -/
noncomputable def sout40_A (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond40_0 i) (hc1 : ¬cond40_1 i)
    (x0 : Vec F S1024x1024 .bf16) (x1 : Vec F S1024x512 .f32) : Vec F S1024x512 .f32 :=
  VS40.read (Elt F) (VS40.writes (Elt F) VS40.junk (kernelRun40_A c i arg2 harg2 arg3 harg3 arg4 harg4 arg5 harg5 hc0 hc1 x0 x1).2.1)

/-- Case B's store into the accumulator covers it. -/
theorem scover40_B (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond40_0 i) (hc1 : ¬cond40_1 i)
    (x0 : Vec F S1024x1024 .bf16) (x1 : Vec F S1024x512 .f32) (xs0 : Vec F S1024x512 .f32) (y : S1024x512.Idx) :
    ∃ pc ∈ (kernelRun40_B c i arg2 harg2 arg3 harg3 arg4 harg4 arg5 harg5 hc0 hc1 x0 x1 xs0).2.1, y ∈ pc.1.set :=
  View.cover_of_tiledL (kernelRun40_B c i arg2 harg2 arg3 harg3 arg4 harg4 arg5 harg5 hc0 hc1 x0 x1 xs0).2.1 S1024x512.size (by sl_kernel_rfl) y
/-- What case B leaves in the accumulator, over what the point before left. -/
noncomputable def sout40_B (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond40_0 i) (hc1 : ¬cond40_1 i)
    (x0 : Vec F S1024x1024 .bf16) (x1 : Vec F S1024x512 .f32) (xs0 : Vec F S1024x512 .f32) : Vec F S1024x512 .f32 :=
  VS40.read (Elt F) (VS40.writes (Elt F) VS40.junk (kernelRun40_B c i arg2 harg2 arg3 harg3 arg4 harg4 arg5 harg5 hc0 hc1 x0 x1 xs0).2.1)

/-- Case C's store into the output block covers it, and so does its store into the accumulator. -/
theorem cover40_C (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond40_0 i) (hc1 : cond40_1 i)
    (x0 : Vec F S1024x1024 .bf16) (x1 : Vec F S1024x512 .f32) (xs0 : Vec F S1024x512 .f32) (y : S1024x512.Idx) :
    ∃ pc ∈ (kernelRun40_C c i arg2 harg2 arg3 harg3 arg4 harg4 arg5 harg5 hc0 hc1 x0 x1 xs0).1, y ∈ pc.1.set :=
  View.cover_of_tiledL (kernelRun40_C c i arg2 harg2 arg3 harg3 arg4 harg4 arg5 harg5 hc0 hc1 x0 x1 xs0).1 S1024x512.size (by sl_kernel_rfl) y
theorem scover40_C (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond40_0 i) (hc1 : cond40_1 i)
    (x0 : Vec F S1024x1024 .bf16) (x1 : Vec F S1024x512 .f32) (xs0 : Vec F S1024x512 .f32) (y : S1024x512.Idx) :
    ∃ pc ∈ (kernelRun40_C c i arg2 harg2 arg3 harg3 arg4 harg4 arg5 harg5 hc0 hc1 x0 x1 xs0).2.1, y ∈ pc.1.set :=
  View.cover_of_tiledL (kernelRun40_C c i arg2 harg2 arg3 harg3 arg4 harg4 arg5 harg5 hc0 hc1 x0 x1 xs0).2.1 S1024x512.size (by sl_kernel_rfl) y
/-- What case C leaves in the output block, and in the accumulator. -/
noncomputable def out40_C (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond40_0 i) (hc1 : cond40_1 i)
    (x0 : Vec F S1024x1024 .bf16) (x1 : Vec F S1024x512 .f32) (xs0 : Vec F S1024x512 .f32) : Vec F S1024x512 .f32 :=
  VO40_2.read (Elt F) (VO40_2.writes (Elt F) VO40_2.junk (kernelRun40_C c i arg2 harg2 arg3 harg3 arg4 harg4 arg5 harg5 hc0 hc1 x0 x1 xs0).1)
noncomputable def sout40_C (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond40_0 i) (hc1 : cond40_1 i)
    (x0 : Vec F S1024x1024 .bf16) (x1 : Vec F S1024x512 .f32) (xs0 : Vec F S1024x512 .f32) : Vec F S1024x512 .f32 :=
  VS40.read (Elt F) (VS40.writes (Elt F) VS40.junk (kernelRun40_C c i arg2 harg2 arg3 harg3 arg4 harg4 arg5 harg5 hc0 hc1 x0 x1 xs0).2.1)

/-- Where the output block is idle nothing consults what it holds: a placeholder. -/
noncomputable def outIdle40 : Vec F S1024x512 .f32 := VO40_2.read (Elt F) (VO40_2.writes (Elt F) VO40_2.junk [])

/-! ## The conditions at a point, from t % 4 -/

theorem isFirst40 (t : Fin cfg40.N) (h : t.val % 4 = 0) : cond40_0 (grid40.coords t) := (hcond40_0 t).mpr h
theorem notFirst40 (t : Fin cfg40.N) (h : ¬t.val % 4 = 0) : ¬cond40_0 (grid40.coords t) := fun hc => h ((hcond40_0 t).mp hc)
theorem isLast40 (t : Fin cfg40.N) (h : t.val % 4 = 3) : cond40_1 (grid40.coords t) := (hcond40_1 t).mpr h
theorem notLast40 (t : Fin cfg40.N) (h : ¬t.val % 4 = 3) : ¬cond40_1 (grid40.coords t) := fun hc => h ((hcond40_1 t).mp hc)

/-! ## The accumulator and the output block, point by point -/

/-- After the body at position `n`: (the output block's buffer, the accumulator). -/
noncomputable def outsAt40 (c : Dev nD) : (n : ℕ) → n < cfg40.N → Vec F S1024x512 .f32 × Vec F S1024x512 .f32
  | 0, hn => (outIdle40, sout40_A c (grid40.coords ⟨0, hn⟩) (ms40_0 ⟨0, hn⟩) (hs40_0 ⟨0, hn⟩) (ms40_1 ⟨0, hn⟩) (hs40_1 ⟨0, hn⟩) (ms40_2 ⟨0, hn⟩) (hs40_2 ⟨0, hn⟩) scM40 (Memref.isWhole_whole _) (isFirst40 ⟨0, hn⟩ (Nat.zero_mod _)) (notLast40 ⟨0, hn⟩ (by simp)) (iblk40 V c 0 ⟨0, hn⟩) (iblk40 V c 1 ⟨0, hn⟩))
  | n + 1, hn =>
    if h0 : (n + 1) % 4 = 0 then
      (outIdle40, sout40_A c (grid40.coords ⟨n + 1, hn⟩) (ms40_0 ⟨n + 1, hn⟩) (hs40_0 ⟨n + 1, hn⟩) (ms40_1 ⟨n + 1, hn⟩) (hs40_1 ⟨n + 1, hn⟩) (ms40_2 ⟨n + 1, hn⟩) (hs40_2 ⟨n + 1, hn⟩) scM40 (Memref.isWhole_whole _) (isFirst40 ⟨n + 1, hn⟩ h0) (notLast40 ⟨n + 1, hn⟩ (by show ¬(n + 1) % 4 = 3; omega)) (iblk40 V c 0 ⟨n + 1, hn⟩) (iblk40 V c 1 ⟨n + 1, hn⟩))
    else if h3 : (n + 1) % 4 = 3 then
      (out40_C c (grid40.coords ⟨n + 1, hn⟩) (ms40_0 ⟨n + 1, hn⟩) (hs40_0 ⟨n + 1, hn⟩) (ms40_1 ⟨n + 1, hn⟩) (hs40_1 ⟨n + 1, hn⟩) (ms40_2 ⟨n + 1, hn⟩) (hs40_2 ⟨n + 1, hn⟩) scM40 (Memref.isWhole_whole _) (notFirst40 ⟨n + 1, hn⟩ h0) (isLast40 ⟨n + 1, hn⟩ h3) (iblk40 V c 0 ⟨n + 1, hn⟩) (iblk40 V c 1 ⟨n + 1, hn⟩) (outsAt40 c n (Nat.lt_of_succ_lt hn)).2,
       sout40_C c (grid40.coords ⟨n + 1, hn⟩) (ms40_0 ⟨n + 1, hn⟩) (hs40_0 ⟨n + 1, hn⟩) (ms40_1 ⟨n + 1, hn⟩) (hs40_1 ⟨n + 1, hn⟩) (ms40_2 ⟨n + 1, hn⟩) (hs40_2 ⟨n + 1, hn⟩) scM40 (Memref.isWhole_whole _) (notFirst40 ⟨n + 1, hn⟩ h0) (isLast40 ⟨n + 1, hn⟩ h3) (iblk40 V c 0 ⟨n + 1, hn⟩) (iblk40 V c 1 ⟨n + 1, hn⟩) (outsAt40 c n (Nat.lt_of_succ_lt hn)).2)
    else
      (outIdle40, sout40_B c (grid40.coords ⟨n + 1, hn⟩) (ms40_0 ⟨n + 1, hn⟩) (hs40_0 ⟨n + 1, hn⟩) (ms40_1 ⟨n + 1, hn⟩) (hs40_1 ⟨n + 1, hn⟩) (ms40_2 ⟨n + 1, hn⟩) (hs40_2 ⟨n + 1, hn⟩) scM40 (Memref.isWhole_whole _) (notFirst40 ⟨n + 1, hn⟩ h0) (notLast40 ⟨n + 1, hn⟩ h3) (iblk40 V c 0 ⟨n + 1, hn⟩) (iblk40 V c 1 ⟨n + 1, hn⟩) (outsAt40 c n (Nat.lt_of_succ_lt hn)).2)

/-- `outsAt40` at a point with k = 0. -/
theorem outsAt40_A (c : Dev nD) (t : Fin cfg40.N) (h0 : t.val % 4 = 0) :
    outsAt40 V c t.val t.isLt = (outIdle40, sout40_A c (grid40.coords t) (ms40_0 t) (hs40_0 t) (ms40_1 t) (hs40_1 t) (ms40_2 t) (hs40_2 t) scM40 (Memref.isWhole_whole _) (isFirst40 t h0) (notLast40 t (by omega)) (iblk40 V c 0 t) (iblk40 V c 1 t)) := by
  obtain ⟨n, hn⟩ := t
  cases n with
  | zero => rfl
  | succ n => exact (dif_pos h0).trans rfl

/-- `outsAt40` at a point with k = 1, 2: over what the point before left. -/
theorem outsAt40_B (c : Dev nD) (t : Fin cfg40.N) (h0 : ¬t.val % 4 = 0) (h3 : ¬t.val % 4 = 3) :
    outsAt40 V c t.val t.isLt = (outIdle40, sout40_B c (grid40.coords t) (ms40_0 t) (hs40_0 t) (ms40_1 t) (hs40_1 t) (ms40_2 t) (hs40_2 t) scM40 (Memref.isWhole_whole _) (notFirst40 t h0) (notLast40 t h3) (iblk40 V c 0 t) (iblk40 V c 1 t)
      (outsAt40 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt40` at a point with k = 3. -/
theorem outsAt40_C (c : Dev nD) (t : Fin cfg40.N) (h0 : ¬t.val % 4 = 0) (h3 : t.val % 4 = 3) :
    outsAt40 V c t.val t.isLt = (out40_C c (grid40.coords t) (ms40_0 t) (hs40_0 t) (ms40_1 t) (hs40_1 t) (ms40_2 t) (hs40_2 t) scM40 (Memref.isWhole_whole _) (notFirst40 t h0) (isLast40 t h3) (iblk40 V c 0 t) (iblk40 V c 1 t)
        (outsAt40 V c (t.val - 1) (Nat.lt_of_le_of_lt (Nat.sub_le _ _) t.isLt)).2,
      sout40_C c (grid40.coords t) (ms40_0 t) (hs40_0 t) (ms40_1 t) (hs40_1 t) (ms40_2 t) (hs40_2 t) scM40 (Memref.isWhole_whole _) (notFirst40 t h0) (isLast40 t h3) (iblk40 V c 0 t) (iblk40 V c 1 t)
        (outsAt40 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS40 (c : Dev nD) : (n : ℕ) → n ≤ cfg40.N → sProp 𝕄
  | 0, _ => Pipeline.ΦA spec40 c
  | n + 1, hn => iprop(iprop(owns (c : Thread nD τ) scM40 fullShare ((outsAt40 V c n hn).2) ∗ restBut40 c) ∗ (∃ r, prngReg c r))

theorem PhiS40_zero (c : Dev nD) (n : ℕ) (h : n ≤ cfg40.N) (hz : n = 0) : PhiS40 V c n h = Pipeline.ΦA spec40 c := by
  subst hz; rfl
theorem PhiS40_succ (c : Dev nD) (n : ℕ) (hn : n < cfg40.N) :
    PhiS40 V c (n + 1) hn = iprop(iprop(owns (c : Thread nD τ) scM40 fullShare ((outsAt40 V c n hn).2) ∗ restBut40 c) ∗ (∃ r, prngReg c r)) := rfl
theorem PhiS40_pos (c : Dev nD) (n : ℕ) (h : n ≤ cfg40.N) (hz : n ≠ 0) :
    PhiS40 V c n h = iprop(iprop(owns (c : Thread nD τ) scM40 fullShare ((outsAt40 V c (n - 1) (by omega)).2) ∗ restBut40 c) ∗ (∃ r, prngReg c r)) := by
  cases n with
  | zero => exact absurd rfl hz
  | succ n => rfl

/-! ## The proof data -/

/-- The region's proof data on core `c`: the arrays as the region finds them; after the body at point `t` each input's
    buffer at its block and the output's at `outsAt40`'s first component; the invariant `PhiS40`; nothing owed; full shares. -/
noncomputable def dat40 (c : Dev nD) : Dat τ (Elt F) Unit ℕ (UR sig nD τ) ℕ cfg40 c where
  A w := V c (Pipeline.arrRef spec40 w)
  after w t := match w with
    | ⟨0, _⟩ => iblk40 V c 0 t
    | ⟨1, _⟩ => iblk40 V c 1 t
    | ⟨2, _⟩ => (outsAt40 V c t.val t.isLt).1
  Φ t := PhiS40 V c t.val (Nat.le_of_lt_succ t.isLt)
  q _ := fullShare
  owed _ := 0

theorem A_eq40 (c : Dev nD) (w : Fin cfg40.W) : (dat40 V c).A w = V c (Pipeline.arrRef spec40 w) := by
  dsimp only [dat40]
theorem PhiS40_castSucc (c : Dev nD) (t : Fin cfg40.N) :
    (dat40 V c).Φ t.castSucc = PhiS40 V c t.val (Nat.le_of_lt t.isLt) := by
  dsimp only [dat40]; simp only [Fin.coe_castSucc]
theorem after40_0 (c : Dev nD) (t : Fin cfg40.N) : (dat40 V c).after 0 t = iblk40 V c 0 t := by dsimp only [dat40]
theorem after40_1 (c : Dev nD) (t : Fin cfg40.N) : (dat40 V c).after 1 t = iblk40 V c 1 t := by dsimp only [dat40]
theorem after40_2 (c : Dev nD) (t : Fin cfg40.N) : (dat40 V c).after 2 t = (outsAt40 V c t.val t.isLt).1 := by dsimp only [dat40]
theorem before40_0 (c : Dev nD) (t : Fin cfg40.N) (d) : (dat40 V c).before 0 t d = iblk40 V c 0 t :=
  before40_0_of V (dat40 V c) (A_eq40 V c 0) (after40_0 V c) t d
theorem before40_1 (c : Dev nD) (t : Fin cfg40.N) (d) : (dat40 V c).before 1 t d = iblk40 V c 1 t :=
  before40_1_of V (dat40 V c) (A_eq40 V c 1) (after40_1 V c) t d

/-! ## The body's obligation -/

noncomputable def bodyPre40 (c : Dev nD) (t : Fin cfg40.N) : sProp 𝕄 :=
  iprop((dat40 V c).Φ t.castSucc ∗ (dat40 V c).owesAt () t.castSucc
    ∗ (∃ d, owns (c : Thread nD τ) (ms40_0 t) fullShare ((dat40 V c).before 0 t d))
    ∗ (∃ d, owns (c : Thread nD τ) (ms40_1 t) fullShare ((dat40 V c).before 1 t d))
    ∗ (∃ d, owns (c : Thread nD τ) (ms40_2 t) fullShare ((dat40 V c).before 2 t d)))

noncomputable def bodyPost40 (c : Dev nD) (t : Fin cfg40.N) : sProp 𝕄 :=
  iprop((dat40 V c).Φ t.succ ∗ (dat40 V c).owesAt () t.succ
    ∗ (dat40 V c).leavesExact 0 t
    ∗ (dat40 V c).leavesExact 1 t
    ∗ (dat40 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body40 (c : Dev nD) (t : Fin cfg40.N) :
    bodyPre40 V c t ⊢ wp frame (wpE (defs₀ (F := F)) Variants.none c none) Set.univ (bodyAt40 t) (fun _ => bodyPost40 V c t) := by
  unfold bodyPre40 bodyPost40 bodyAt40
  simp only [before40_0, before40_1]
  rw [show (dat40 V c).owesAt () t.succ = (dat40 V c).owesAt () t.castSucc from rfl]
  rw [show (dat40 V c).Φ t.succ = PhiS40 V c (t.val + 1) t.isLt from rfl, PhiS40_succ]
  rw [show (dat40 V c).leavesExact 0 t = owns (c : Thread nD τ) (ms40_0 t) fullShare ((dat40 V c).after 0 t) from by
    unfold Dat.leavesExact; rw [liveAt40_0 t], after40_0]
  rw [show (dat40 V c).leavesExact 1 t = owns (c : Thread nD τ) (ms40_1 t) fullShare ((dat40 V c).after 1 t) from by
    unfold Dat.leavesExact; rw [liveAt40_1 t], after40_1]
  by_cases h0 : t.val % 4 = 0
  · have h3 : ¬t.val % 4 = 3 := by omega
    rw [Dat.leavesExact_idle (dat40 V c) 2 t (idleAt40_2 t (notLast40 t h3)) (noFlush40_2 t (notLast40 t h3))]
    rw [outsAt40_A V c t h0]
    unfold sout40_A; (try dsimp only)
    by_cases hz : t.val = 0
    · rw [PhiS40_castSucc V c t, PhiS40_zero V c _ _ hz, PhiA40_eq]
      iintro ⟨⟨⟨HS0, Hrb⟩, Hg⟩, Ho, ⟨%d0, H0⟩, ⟨%d1, H1⟩, ⟨%d2, H2⟩⟩
      iapply ((kernelRun40_A c (grid40.coords t) _ _ _ _ _ _ _ _ (isFirst40 t h0) (notLast40 t (by omega)) (iblk40 V c 0 t) (iblk40 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover40_A c _ _ _ _ _ _ _ _ _ _ _ _ _)
          iexact Hrb
        iexact Hg
      isplitl [Ho]; · iexact Ho
      isplitl [H0]; · iexact H0
      isplitl [H1]; · iexact H1
      iexists _; iexact H2
    · rw [PhiS40_castSucc V c t, PhiS40_pos V c _ _ hz]
      iintro ⟨⟨⟨HS0, Hrb⟩, Hg⟩, Ho, ⟨%d0, H0⟩, ⟨%d1, H1⟩, ⟨%d2, H2⟩⟩
      iapply ((kernelRun40_A c (grid40.coords t) _ _ _ _ _ _ _ _ (isFirst40 t h0) (notLast40 t (by omega)) (iblk40 V c 0 t) (iblk40 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover40_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat40 V c).leavesExact 2 t = owns (c : Thread nD τ) (ms40_2 t) fullShare ((dat40 V c).after 2 t) from by
        unfold Dat.leavesExact; rw [liveAt40_2 t (isLast40 t h3)], after40_2]
      rw [outsAt40_C V c t h0 h3]
      unfold out40_C sout40_C; (try dsimp only)
      rw [PhiS40_castSucc V c t, PhiS40_pos V c _ _ hz]
      iintro ⟨⟨⟨HS0, Hrb⟩, Hg⟩, Ho, ⟨%d0, H0⟩, ⟨%d1, H1⟩, ⟨%d2, H2⟩⟩
      iapply ((kernelRun40_C c (grid40.coords t) _ _ _ _ _ _ _ _ (notFirst40 t h0) (isLast40 t h3) (iblk40 V c 0 t) (iblk40 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover40_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover40_C c _ _ _ _ _ _ _ _ _ _ _ _ _ _)
    · rw [Dat.leavesExact_idle (dat40 V c) 2 t (idleAt40_2 t (notLast40 t h3)) (noFlush40_2 t (notLast40 t h3))]
      rw [outsAt40_B V c t h0 h3]
      unfold sout40_B; (try dsimp only)
      rw [PhiS40_castSucc V c t, PhiS40_pos V c _ _ hz]
      iintro ⟨⟨⟨HS0, Hrb⟩, Hg⟩, Ho, ⟨%d0, H0⟩, ⟨%d1, H1⟩, ⟨%d2, H2⟩⟩
      iapply ((kernelRun40_B c (grid40.coords t) _ _ _ _ _ _ _ _ (notFirst40 t h0) (notLast40 t h3) (iblk40 V c 0 t) (iblk40 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover40_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation40 (c : Dev nD) : BodyObligation (dat40 (F := F) V c) (defs₀ (F := F)) Variants.none () Set.univ := fun t => by
  rw [bigSep_W40, bigSep_W40]
  exact sound_body40 V c t

/-- What the region is entered with is the invariant before the first point. -/
theorem hin40 (c : Dev nD) : Pipeline.ΦA spec40 c ⊢ (dat40 V c).Φ 0 := by
  rw [show (dat40 V c).Φ 0 = PhiS40 V c 0 (Nat.zero_le _) from rfl, PhiS40_zero V c 0 _ rfl]
  try exact Idealize.SL.BI.Entails.refl _

/-- After the last point the invariant gives the class's back: the accumulator's contents are forgotten. -/
theorem hout40 (c : Dev nD) : (dat40 V c).Φ (Fin.last cfg40.N) ⊢ Pipeline.ΦA spec40 c := by
  have hN : cfg40.N = 16 := N_40
  rw [show (dat40 V c).Φ (Fin.last cfg40.N) = PhiS40 V c (Fin.last cfg40.N).val (Nat.le_of_lt_succ (Fin.last cfg40.N).isLt) from rfl,
    PhiS40_pos V c _ _ (by rw [Fin.val_last]; omega), PhiA40_eq]
  iintro ⟨⟨HS0, Hrb⟩, Hg⟩
  isplitl [HS0 Hrb]
  · isplitl [HS0]
    · iexists _; iexact HS0
    iexact Hrb
  iexact Hg

end Cert.Kernel.Hand

end
-- ==== Proof.RegK41a.lean ====
/- Laid out by: python3 scratch/layout_grid41.py --template-region 0 --region 41 --program Kernel --parts a, --shapes S1024x128=S1024x512,S128x512=S512x512
   from the hand-written text of region 0 (RegKI0a.lean): the same text, the region's number, block shapes and the program's namespace substituted. -/
/- The region of Kernel's @main that runs `cc41__matmul_kernel` (pipeline `cfg41`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond41_0 (i : grid41.Coords) : Prop :=
  (Scalar.cmpi .ne (Scalar.extui (Scalar.cmpi .eq (BitVec.ofNat 32 (i 1).val) 0#32)) 0#32) = 1#1
/-- True at every point: the reduction axis has one step. -/
theorem hcond41_0 : ∀ t : Fin cfg41.N, cond41_0 (grid41.coords t) :=
  (by decide +kernel : ∀ t : Fin grid41.N, cond41_0 (grid41.coords t))

/-- "This is the last reduction step" (the guard of the copy to the output block). -/
abbrev cond41_1 (i : grid41.Coords) : Prop := k41_cond2 i = 1#1
/-- True at every point, for the same reason. -/
theorem hcond41_1 : ∀ t : Fin cfg41.N, cond41_1 (grid41.coords t) :=
  (by decide +kernel : ∀ t : Fin grid41.N, cond41_1 (grid41.coords t))

/-! ## No window is idle anywhere -/

theorem liveAt41_0 : ∀ t : Fin cfg41.N, cfg41.idle 0 (grid41.coords t) = false := by decide +kernel
theorem liveAt41_1 : ∀ t : Fin cfg41.N, cfg41.idle 1 (grid41.coords t) = false := by decide +kernel
/-- The output window is stored at every point (the copy's guard holds everywhere). -/
theorem liveAt41_2 : ∀ t : Fin cfg41.N, cfg41.idle 2 (grid41.coords t) = false := by decide +kernel

/-! ## The memrefs the body is called on -/

/-- One staging buffer of the output window, through which its contents are stated (any whole view of the shape reads the
    same pieces back the same way). -/
abbrev VO41_2 : View sig .tc .vmem S1024x512 .f32 := (Memref.whole cc41_stg2_0 : Memref sig .tc .vmem S1024x512 .f32).view
/-- Each window's current staging memref at point `t`, spelt as the pipeline passes it, with its wholeness. -/
abbrev ms41_0 (t : Fin cfg41.N) : Memref sig .tc .vmem S1024x512 .f32 := win41_0.stage (cfg41.slots t 0)
abbrev hs41_0 (t : Fin cfg41.N) : (ms41_0 t).IsWhole := hstage41_0 ((cfg41.slots t 0).cast nbuf41_0)
abbrev ms41_1 (t : Fin cfg41.N) : Memref sig .tc .vmem S512x512 .bf16 := win41_1.stage (cfg41.slots t 1)
abbrev hs41_1 (t : Fin cfg41.N) : (ms41_1 t).IsWhole := hstage41_1 ((cfg41.slots t 1).cast nbuf41_1)
abbrev ms41_2 (t : Fin cfg41.N) : Memref sig .tc .vmem S1024x512 .f32 := win41_2.stage (cfg41.slots t 2)
abbrev hs41_2 (t : Fin cfg41.N) : (ms41_2 t).IsWhole := hstage41_2 ((cfg41.slots t 2).cast nbuf41_2)
/-- The accumulator: a whole scoped buffer of the kernel's own, passed beside the windows. -/
abbrev scM41_0 : Memref sig .tc .vmem S1024x512 .f32 := Memref.whole cc41_scratch0
abbrev VS41_0 : View sig .tc .vmem S1024x512 .f32 := scM41_0.view

/-- The region invariant with the accumulator taken out of the scoped rest: the accumulator owned at some contents, every
    other scoped buffer unopened, and the generator register. -/
theorem PhiA41_eq (c : Dev nD) :
    (Pipeline.ΦA spec41 c : sProp 𝕄)
      = iprop(iprop(iprop((∃ d, owns (c : Thread nD τ) scM41_0 fullShare d))
            ∗ Pipeline.scopedRestBut (Ix := Unit) (Name := ℕ) (U := UR sig nD τ) (Lvl := ℕ) (Val := Elt F) spec41 c [cc41_scratch0])
          ∗ (∃ r, prngReg c r)) := by
  unfold Pipeline.ΦA; rw [scopedRest41_split]; simp only [scM41_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun41 (c : Dev nD) (i : grid41.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond41_0 i) (hlast : cond41_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc41__matmul_kernel i arg2 harg2 arg3 harg3 arg4 harg4 arg5 harg5) K } := by
  refine ⟨?_, ?_, fun E K => ?run⟩
  case run =>
    simp only [cc41__matmul_kernel_eq_skeleton]; unfold cc41__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.Kernel.Hand

end
-- ==== Proof.RegK41.lean ====
/- Laid out by: python3 scratch/layout_grid41.py --template-region 0 --region 41 --program Kernel --parts a, --shapes S1024x128=S1024x512,S128x512=S512x512
   from the hand-written text of region 0 (RegKI0.lean): the same text, the region's number, block shapes and the program's namespace substituted. -/
/- The region of Kernel's @main that runs `cc41__matmul_kernel` (pipeline `cfg41`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegK41a
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk41 (c : Dev nD) (w : Fin cfg41.W) (t : Fin cfg41.N) : ((cfg41.win w).xblock (cfg41.grid.coords t)).Idx → Elt F (cfg41.win w).elt :=
  ((cfg41.win w).blk t).view.read (Elt F) (V c (Pipeline.arrRef spec41 w))

/-! ## What the case leaves, as pieces read back -/

/-- The output's pieces tile its block (one whole-block store). -/
theorem cover41_2 (c : Dev nD) (i : grid41.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond41_0 i) (hlast : cond41_1 i) (xa : Vec F S1024x512 .f32) (xb : Vec F S512x512 .bf16) (y : S1024x512.Idx) :
    ∃ pc ∈ (kernelRun41 c i arg2 harg2 arg3 harg3 arg4 harg4 arg5 harg5 hfirst hlast xa xb).1, y ∈ pc.1.set :=
  View.cover_of_tiledL (kernelRun41 c i arg2 harg2 arg3 harg3 arg4 harg4 arg5 harg5 hfirst hlast xa xb).1 S1024x512.size (by sl_kernel_rfl) y

/-- What the case leaves in the output's staging buffer: its pieces read back over junk. -/
noncomputable def out41_2 (c : Dev nD) (i : grid41.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond41_0 i) (hlast : cond41_1 i) (xa : Vec F S1024x512 .f32) (xb : Vec F S512x512 .bf16) : Vec F S1024x512 .f32 :=
  VO41_2.read (Elt F) (VO41_2.writes (Elt F) VO41_2.junk (kernelRun41 c i arg2 harg2 arg3 harg3 arg4 harg4 arg5 harg5 hfirst hlast xa xb).1)

/-- What the case leaves in the accumulator: its pieces read back over junk. -/
noncomputable def sout41_0 (c : Dev nD) (i : grid41.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond41_0 i) (hlast : cond41_1 i) (xa : Vec F S1024x512 .f32) (xb : Vec F S512x512 .bf16) : Vec F S1024x512 .f32 :=
  VS41_0.read (Elt F) (VS41_0.writes (Elt F) VS41_0.junk (kernelRun41 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout41_0_eq (c : Dev nD) (i : grid41.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond41_0 i) (hlast : cond41_1 i) (xa : Vec F S1024x512 .f32) (xb : Vec F S512x512 .bf16) :
    sout41_0 c i arg2 harg2 arg3 harg3 arg4 harg4 arg5 harg5 hfirst hlast xa xb = k41_pay2 xa xb (k41_pay1 (F := F)) := by
  unfold sout41_0
  rw [View.read_writes_junk_eq_canon]
  unfold kernelRun41
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out41_2_eq (c : Dev nD) (i : grid41.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond41_0 i) (hlast : cond41_1 i) (xa : Vec F S1024x512 .f32) (xb : Vec F S512x512 .bf16) :
    out41_2 c i arg2 harg2 arg3 harg3 arg4 harg4 arg5 harg5 hfirst hlast xa xb = k41_pay2 xa xb (k41_pay1 (F := F)) := by
  unfold out41_2
  rw [View.read_writes_junk_eq_canon]
  unfold kernelRun41
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt41 (c : Dev nD) (n : ℕ) (hn : n < cfg41.N) : Vec F S1024x512 .f32 × Vec F S1024x512 .f32 :=
  (out41_2 c (grid41.coords ⟨n, hn⟩) (ms41_0 ⟨n, hn⟩) (hs41_0 ⟨n, hn⟩) (ms41_1 ⟨n, hn⟩) (hs41_1 ⟨n, hn⟩) (ms41_2 ⟨n, hn⟩) (hs41_2 ⟨n, hn⟩) scM41_0 (Memref.isWhole_whole _)
      (hcond41_0 ⟨n, hn⟩) (hcond41_1 ⟨n, hn⟩) (iblk41 V c 0 ⟨n, hn⟩) (iblk41 V c 1 ⟨n, hn⟩),
   sout41_0 c (grid41.coords ⟨n, hn⟩) (ms41_0 ⟨n, hn⟩) (hs41_0 ⟨n, hn⟩) (ms41_1 ⟨n, hn⟩) (hs41_1 ⟨n, hn⟩) (ms41_2 ⟨n, hn⟩) (hs41_2 ⟨n, hn⟩) scM41_0 (Memref.isWhole_whole _)
      (hcond41_0 ⟨n, hn⟩) (hcond41_1 ⟨n, hn⟩) (iblk41 V c 0 ⟨n, hn⟩) (iblk41 V c 1 ⟨n, hn⟩))

/-- Every point is a first reduction step: the accumulator after it is one product onto zero. -/
theorem outsAt41_first (c : Dev nD) (t : Fin cfg41.N) :
    (outsAt41 V c t.val t.isLt).2 = k41_pay2 (iblk41 V c 0 t) (iblk41 V c 1 t) (k41_pay1 (F := F)) := by
  obtain ⟨n, hn⟩ := t
  unfold outsAt41
  dsimp only
  rw [sout41_0_eq]

/-- Every point is a last reduction step: the output block after it is the accumulator. -/
theorem outsAt41_last (c : Dev nD) (t : Fin cfg41.N) :
    (outsAt41 V c t.val t.isLt).1 = (outsAt41 V c t.val t.isLt).2 := by
  obtain ⟨n, hn⟩ := t
  unfold outsAt41
  dsimp only
  rw [out41_2_eq, sout41_0_eq]

/-! ## The pipeline's proof data -/

/-- The proof data of the pipeline on core `c`: the arrays as the region finds them; after the body at point `t` each input's
    buffer at its block and the output's at `outsAt41`'s first component; the invariant the same at every point; nothing owed;
    full shares. -/
noncomputable def dat41 (c : Dev nD) : Dat τ (Elt F) Unit ℕ (UR sig nD τ) ℕ cfg41 c where
  A w := V c (Pipeline.arrRef spec41 w)
  after w t := match w with
    | ⟨0, _⟩ => iblk41 V c 0 t
    | ⟨1, _⟩ => iblk41 V c 1 t
    | ⟨2, _⟩ => (outsAt41 V c t.val t.isLt).1
  Φ _ := Pipeline.ΦA spec41 c
  q _ := fullShare
  owed _ := 0

theorem A_eq41 (c : Dev nD) (w : Fin cfg41.W) : (dat41 V c).A w = V c (Pipeline.arrRef spec41 w) := by
  dsimp only [dat41]

theorem after41_0 (c : Dev nD) (t : Fin cfg41.N) : (dat41 V c).after 0 t = iblk41 V c 0 t := by dsimp only [dat41]
theorem after41_1 (c : Dev nD) (t : Fin cfg41.N) : (dat41 V c).after 1 t = iblk41 V c 1 t := by dsimp only [dat41]
theorem after41_2 (c : Dev nD) (t : Fin cfg41.N) : (dat41 V c).after 2 t = (outsAt41 V c t.val t.isLt).1 := by dsimp only [dat41]

/-- An input's current staging buffer holds its block at every point, fetched there or not: where it is not fetched its block
    index has not moved since the point before, and the body left the block in place. -/
theorem before41_0 (c : Dev nD) (t : Fin cfg41.N) (d) : (dat41 V c).before 0 t d = iblk41 V c 0 t :=
  ((dat41 V c).before_in_eq_fetched 0 rfl (fun _ => rfl) (fun _ _ _ => rfl)
      (fun t => by rw [after41_0]; unfold Dat.blockOf iblk41; rw [A_eq41]; try rfl) t d).trans
    (by unfold Dat.fetched Dat.blockOf iblk41; rw [A_eq41]; try rfl)
theorem before41_1 (c : Dev nD) (t : Fin cfg41.N) (d) : (dat41 V c).before 1 t d = iblk41 V c 1 t :=
  ((dat41 V c).before_in_eq_fetched 1 rfl (fun _ => rfl) (fun _ _ _ => rfl)
      (fun t => by rw [after41_1]; unfold Dat.blockOf iblk41; rw [A_eq41]; try rfl) t d).trans
    (by unfold Dat.fetched Dat.blockOf iblk41; rw [A_eq41]; try rfl)

/-! ## The body obligation, at a generic point -/

/-- What the body is called with at point `t`, the windows one by one, -/
noncomputable def bodyPre41 (c : Dev nD) (t : Fin cfg41.N) : sProp 𝕄 :=
  iprop((dat41 V c).Φ t.castSucc ∗ (dat41 V c).owesAt () t.castSucc
    ∗ (∃ d, owns (c : Thread nD τ) (ms41_0 t) fullShare ((dat41 V c).before 0 t d))
    ∗ (∃ d, owns (c : Thread nD τ) (ms41_1 t) fullShare ((dat41 V c).before 1 t d))
    ∗ (∃ d, owns (c : Thread nD τ) (ms41_2 t) fullShare ((dat41 V c).before 2 t d)))

/-- and what it returns. -/
noncomputable def bodyPost41 (c : Dev nD) (t : Fin cfg41.N) : sProp 𝕄 :=
  iprop((dat41 V c).Φ t.succ ∗ (dat41 V c).owesAt () t.succ
    ∗ (dat41 V c).leavesExact 0 t
    ∗ (dat41 V c).leavesExact 1 t
    ∗ (dat41 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body41 (c : Dev nD) (t : Fin cfg41.N) :
    bodyPre41 V c t ⊢ wp frame (wpE (defs₀ (F := F)) Variants.none c none) Set.univ (bodyAt41 t) (fun _ => bodyPost41 V c t) := by
  unfold bodyPre41 bodyPost41 bodyAt41
  simp only [before41_0, before41_1]
  rw [show (dat41 V c).owesAt () t.succ = (dat41 V c).owesAt () t.castSucc from rfl,
    show (dat41 V c).Φ t.succ = Pipeline.ΦA spec41 c from rfl, show (dat41 V c).Φ t.castSucc = Pipeline.ΦA spec41 c from rfl, PhiA41_eq]
  rw [show (dat41 V c).leavesExact 0 t = owns (c : Thread nD τ) (ms41_0 t) fullShare ((dat41 V c).after 0 t) from by
      unfold Dat.leavesExact; rw [liveAt41_0 t], after41_0]
  rw [show (dat41 V c).leavesExact 1 t = owns (c : Thread nD τ) (ms41_1 t) fullShare ((dat41 V c).after 1 t) from by
      unfold Dat.leavesExact; rw [liveAt41_1 t], after41_1]
  rw [show (dat41 V c).leavesExact 2 t = owns (c : Thread nD τ) (ms41_2 t) fullShare ((dat41 V c).after 2 t) from by
      unfold Dat.leavesExact; rw [liveAt41_2 t], after41_2]
  unfold outsAt41 out41_2; (try dsimp only)
  iintro ⟨⟨⟨Hacc, Hrest⟩, Hgen⟩, Howe, ⟨%da, Ha⟩, ⟨%db, Hb⟩, ⟨%dO, Hout⟩⟩
  iapply ((kernelRun41 c (grid41.coords t) _ _ _ _ _ _ _ _ (hcond41_0 t) (hcond41_1 t) (iblk41 V c 0 t) (iblk41 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover41_2 c _ _ _ _ _ _ _ _ _ _ _ _ _)

/-- The library's body obligation, at every point. -/
theorem body_obligation41 (c : Dev nD) : BodyObligation (dat41 (F := F) V c) (defs₀ (F := F)) Variants.none () Set.univ := fun t => by
  rw [bigSep_W41, bigSep_W41]
  exact sound_body41 V c t

/-- What the launch hands the region is the invariant before the first point, -/
theorem hin41 (c : Dev nD) : Pipeline.ΦA spec41 c ⊢ (dat41 V c).Φ 0 := Idealize.SL.BI.Entails.refl _

/-- and the invariant after the last point is what the launch takes back. -/
theorem hout41 (c : Dev nD) : (dat41 V c).Φ (Fin.last cfg41.N) ⊢ Pipeline.ΦA spec41 c := Idealize.SL.BI.Entails.refl _

end Cert.Kernel.Hand

end
-- ==== Proof.RegK42a.lean ====
/- Laid out by: python3 scratch/layout_regions.py --template-region 1 --region 42 --program Kernel --parts a,b,c, --out-dir proof/Proof
   from the hand-written text of region 1 (RegKI1a.lean): the same text, the region's number and the program's namespace substituted. -/
/-
  Region 42 of @main (custom_call 42): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond42_0 (i : grid42.Coords) : Prop := (Scalar.cmpi .ne (Scalar.extui (Scalar.cmpi .eq (BitVec.ofNat 32 (i 1).val) 0#32)) 0#32) = 1#1
/-- It holds exactly at the points with t % 4 = 0. -/
theorem hcond42_0 : ∀ t : Fin cfg42.N, cond42_0 (grid42.coords t) ↔ t.val % 4 = 0 :=
  (by decide +kernel : ∀ t : Fin grid42.N, cond42_0 (grid42.coords t) ↔ t.val % 4 = 0)

/-- "k = 3": the second conditional's test. -/
abbrev cond42_1 (i : grid42.Coords) : Prop := k42_cond2 i = 1#1
/-- It holds exactly at the points with t % 4 = 3. -/
theorem hcond42_1 : ∀ t : Fin cfg42.N, cond42_1 (grid42.coords t) ↔ t.val % 4 = 3 :=
  (by decide +kernel : ∀ t : Fin grid42.N, cond42_1 (grid42.coords t) ↔ t.val % 4 = 3)

/-! ## Where the windows are idle, and where the output is written back -/

/-- The two input windows are never idle. -/
theorem liveAt42_0 : ∀ t : Fin cfg42.N, cfg42.idle 0 (grid42.coords t) = false := by decide +kernel
theorem liveAt42_1 : ∀ t : Fin cfg42.N, cfg42.idle 1 (grid42.coords t) = false := by decide +kernel
/-- Where k ≠ 3 the output window is idle (the body stores nothing into it) and is not written back. -/
theorem idleAt42_2 : ∀ t : Fin cfg42.N, ¬cond42_1 (grid42.coords t) → cfg42.idle 2 (grid42.coords t) = true := by decide +kernel
theorem noFlush42_2 : ∀ t : Fin cfg42.N, ¬cond42_1 (grid42.coords t) → (cfg42.win 2).flush t = false := by decide +kernel
/-- Where k = 3 it is live. -/
theorem liveAt42_2 : ∀ t : Fin cfg42.N, cond42_1 (grid42.coords t) → cfg42.idle 2 (grid42.coords t) = false := by decide +kernel

/-! ## The staging memrefs at a point, and the scratch -/

/-- One staging buffer of the output window, through which its contents are stated. -/
abbrev VO42_2 : View sig .tc .vmem S1024x512 .f32 := (Memref.whole cc42_stg2_0 : Memref sig .tc .vmem S1024x512 .f32).view
abbrev ms42_0 (t : Fin cfg42.N) : Memref sig .tc .vmem S1024x1024 .bf16 := win42_0.stage (cfg42.slots t 0)
abbrev hs42_0 (t : Fin cfg42.N) : (ms42_0 t).IsWhole := hstage42_0 ((cfg42.slots t 0).cast nbuf42_0)
abbrev ms42_1 (t : Fin cfg42.N) : Memref sig .tc .vmem S1024x512 .f32 := win42_1.stage (cfg42.slots t 1)
abbrev hs42_1 (t : Fin cfg42.N) : (ms42_1 t).IsWhole := hstage42_1 ((cfg42.slots t 1).cast nbuf42_1)
abbrev ms42_2 (t : Fin cfg42.N) : Memref sig .tc .vmem S1024x512 .f32 := win42_2.stage (cfg42.slots t 2)
abbrev hs42_2 (t : Fin cfg42.N) : (ms42_2 t).IsWhole := hstage42_2 ((cfg42.slots t 2).cast nbuf42_2)
/-- The accumulator: a whole scoped buffer of the kernel's own. -/
abbrev scM42 : Memref sig .tc .vmem S1024x512 .f32 := Memref.whole cc42_scratch0
abbrev VS42 : View sig .tc .vmem S1024x512 .f32 := scM42.view

/-- The other scoped buffers of the core, none of which this region touches. -/
abbrev restBut42 (c : Dev nD) : sProp 𝕄 :=
  Pipeline.scopedRestBut (Ix := Unit) (Name := ℕ) (U := UR sig nD τ) (Lvl := ℕ) (Val := Elt F) spec42 c [cc42_scratch0]

/-- The region's invariant before its first point: the accumulator at something, the other scoped buffers, the generator register. -/
theorem PhiA42_eq (c : Dev nD) :
    (Pipeline.ΦA spec42 c : sProp 𝕄)
      = iprop(iprop((∃ d, owns (c : Thread nD τ) scM42 fullShare d) ∗ restBut42 c) ∗ (∃ r, prngReg c r)) := by
  unfold Pipeline.ΦA; rw [scopedRest42_split]; simp only [scM42, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun42_A (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond42_0 i) (hc1 : ¬cond42_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc42__matmul_kernel i arg2 harg2 arg3 harg3 arg4 harg4 arg5 harg5) K } := by
  refine ⟨[], ?_, fun xi2 E K => ?run⟩
  case run =>
    simp only [cc42__matmul_kernel_eq_skeleton]; unfold cc42__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK42b.lean ====
/- Laid out by: python3 scratch/layout_regions.py --template-region 1 --region 42 --program Kernel --parts a,b,c, --out-dir proof/Proof
   from the hand-written text of region 1 (RegKI1b.lean): the same text, the region's number and the program's namespace substituted. -/
/-
  Region 42, case B (k = 1, 2): the body's run. Neither conditional is taken: the product of the two blocks is added to what
  the point before left in the accumulator; the output block is not touched.
-/
import proofs.«158944_j64613488001249_1_alg».proof.Proof.RegK42a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun42_B (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond42_0 i) (hc1 : ¬cond42_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc42__matmul_kernel i arg2 harg2 arg3 harg3 arg4 harg4 arg5 harg5) K } := by
  refine ⟨[], ?_, fun xi2 E K => ?run⟩
  case run =>
    simp only [cc42__matmul_kernel_eq_skeleton]; unfold cc42__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK42c.lean ====
/- Laid out by: python3 scratch/layout_regions.py --template-region 1 --region 42 --program Kernel --parts a,b,c, --out-dir proof/Proof
   from the hand-written text of region 1 (RegKI1c.lean): the same text, the region's number and the program's namespace substituted. -/
/-
  Region 42, case C (k = 3): the body's run. The product is added to the accumulator as in case B, and then the second
  conditional copies the accumulator over the whole output block.
-/
import proofs.«158944_j64613488001249_1_alg».proof.Proof.RegK42b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun42_C (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond42_0 i) (hc1 : cond42_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc42__matmul_kernel i arg2 harg2 arg3 harg3 arg4 harg4 arg5 harg5) K } := by
  refine ⟨?_, ?_, fun E K => ?run⟩
  case run =>
    simp only [cc42__matmul_kernel_eq_skeleton]; unfold cc42__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK42.lean ====
/- Laid out by: python3 scratch/layout_regions.py --template-region 1 --region 42 --program Kernel --parts a,b,c, --out-dir proof/Proof
   from the hand-written text of region 1 (RegKI1.lean): the same text, the region's number and the program's namespace substituted. -/
/-
  Region 42 of @main, entered from the buffer contents `V`: what its windows' blocks are, what each case of the body leaves in
  the accumulator and in the output block, the accumulator and the output block point by point (`outsAt42`: at k = 0 the
  accumulator restarts from zeros plus the product; at k = 1, 2, 3 it is the point before's plus the product; at k = 3 the
  output block is the accumulator), the region's invariant (the accumulator at `outsAt42`'s second component), the proof data,
  and the body's obligation at every point.
-/
import proofs.«158944_j64613488001249_1_alg».proof.Proof.RegK42c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk42 (c : Dev nD) (w : Fin cfg42.W) (t : Fin cfg42.N) : ((cfg42.win w).xblock (cfg42.grid.coords t)).Idx → Elt F (cfg42.win w).elt :=
  ((cfg42.win w).blk t).view.read (Elt F) (V c (Pipeline.arrRef spec42 w))

/-- An input window's current staging buffer holds its block at every point, for any proof data whose array is `V`'s and
    whose body leaves the block in place. -/
theorem before42_0_of {c : Dev nD} (dat : Dat τ (Elt F) Unit ℕ (UR sig nD τ) ℕ cfg42 c) (hA : dat.A 0 = V c (Pipeline.arrRef spec42 0))
    (hafter : ∀ t, dat.after 0 t = iblk42 V c 0 t) (t : Fin cfg42.N) (d) : dat.before 0 t d = iblk42 V c 0 t :=
  (dat.before_in_eq_fetched 0 rfl (fun _ => rfl) (fun _ _ _ => rfl) (fun t => by rw [hafter]; unfold Dat.blockOf iblk42; rw [hA]; try rfl) t d).trans
    (by unfold Dat.fetched Dat.blockOf iblk42; rw [hA]; try rfl)
theorem before42_1_of {c : Dev nD} (dat : Dat τ (Elt F) Unit ℕ (UR sig nD τ) ℕ cfg42 c) (hA : dat.A 1 = V c (Pipeline.arrRef spec42 1))
    (hafter : ∀ t, dat.after 1 t = iblk42 V c 1 t) (t : Fin cfg42.N) (d) : dat.before 1 t d = iblk42 V c 1 t :=
  (dat.before_in_eq_fetched 1 rfl (fun _ => rfl) (fun _ _ _ => rfl) (fun t => by rw [hafter]; unfold Dat.blockOf iblk42; rw [hA]; try rfl) t d).trans
    (by unfold Dat.fetched Dat.blockOf iblk42; rw [hA]; try rfl)

/-! ## What each case leaves -/

/-- Case A's stores into the accumulator cover it. -/
theorem scover42_A (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond42_0 i) (hc1 : ¬cond42_1 i)
    (x0 : Vec F S1024x1024 .bf16) (x1 : Vec F S1024x512 .f32) (y : S1024x512.Idx) :
    ∃ pc ∈ (kernelRun42_A c i arg2 harg2 arg3 harg3 arg4 harg4 arg5 harg5 hc0 hc1 x0 x1).2.1, y ∈ pc.1.set :=
  View.cover_of_tiledL (kernelRun42_A c i arg2 harg2 arg3 harg3 arg4 harg4 arg5 harg5 hc0 hc1 x0 x1).2.1 S1024x512.size (by sl_kernel_rfl) y
/-- What case A leaves in the accumulator. -/
noncomputable def sout42_A (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond42_0 i) (hc1 : ¬cond42_1 i)
    (x0 : Vec F S1024x1024 .bf16) (x1 : Vec F S1024x512 .f32) : Vec F S1024x512 .f32 :=
  VS42.read (Elt F) (VS42.writes (Elt F) VS42.junk (kernelRun42_A c i arg2 harg2 arg3 harg3 arg4 harg4 arg5 harg5 hc0 hc1 x0 x1).2.1)

/-- Case B's store into the accumulator covers it. -/
theorem scover42_B (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond42_0 i) (hc1 : ¬cond42_1 i)
    (x0 : Vec F S1024x1024 .bf16) (x1 : Vec F S1024x512 .f32) (xs0 : Vec F S1024x512 .f32) (y : S1024x512.Idx) :
    ∃ pc ∈ (kernelRun42_B c i arg2 harg2 arg3 harg3 arg4 harg4 arg5 harg5 hc0 hc1 x0 x1 xs0).2.1, y ∈ pc.1.set :=
  View.cover_of_tiledL (kernelRun42_B c i arg2 harg2 arg3 harg3 arg4 harg4 arg5 harg5 hc0 hc1 x0 x1 xs0).2.1 S1024x512.size (by sl_kernel_rfl) y
/-- What case B leaves in the accumulator, over what the point before left. -/
noncomputable def sout42_B (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond42_0 i) (hc1 : ¬cond42_1 i)
    (x0 : Vec F S1024x1024 .bf16) (x1 : Vec F S1024x512 .f32) (xs0 : Vec F S1024x512 .f32) : Vec F S1024x512 .f32 :=
  VS42.read (Elt F) (VS42.writes (Elt F) VS42.junk (kernelRun42_B c i arg2 harg2 arg3 harg3 arg4 harg4 arg5 harg5 hc0 hc1 x0 x1 xs0).2.1)

/-- Case C's store into the output block covers it, and so does its store into the accumulator. -/
theorem cover42_C (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond42_0 i) (hc1 : cond42_1 i)
    (x0 : Vec F S1024x1024 .bf16) (x1 : Vec F S1024x512 .f32) (xs0 : Vec F S1024x512 .f32) (y : S1024x512.Idx) :
    ∃ pc ∈ (kernelRun42_C c i arg2 harg2 arg3 harg3 arg4 harg4 arg5 harg5 hc0 hc1 x0 x1 xs0).1, y ∈ pc.1.set :=
  View.cover_of_tiledL (kernelRun42_C c i arg2 harg2 arg3 harg3 arg4 harg4 arg5 harg5 hc0 hc1 x0 x1 xs0).1 S1024x512.size (by sl_kernel_rfl) y
theorem scover42_C (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond42_0 i) (hc1 : cond42_1 i)
    (x0 : Vec F S1024x1024 .bf16) (x1 : Vec F S1024x512 .f32) (xs0 : Vec F S1024x512 .f32) (y : S1024x512.Idx) :
    ∃ pc ∈ (kernelRun42_C c i arg2 harg2 arg3 harg3 arg4 harg4 arg5 harg5 hc0 hc1 x0 x1 xs0).2.1, y ∈ pc.1.set :=
  View.cover_of_tiledL (kernelRun42_C c i arg2 harg2 arg3 harg3 arg4 harg4 arg5 harg5 hc0 hc1 x0 x1 xs0).2.1 S1024x512.size (by sl_kernel_rfl) y
/-- What case C leaves in the output block, and in the accumulator. -/
noncomputable def out42_C (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond42_0 i) (hc1 : cond42_1 i)
    (x0 : Vec F S1024x1024 .bf16) (x1 : Vec F S1024x512 .f32) (xs0 : Vec F S1024x512 .f32) : Vec F S1024x512 .f32 :=
  VO42_2.read (Elt F) (VO42_2.writes (Elt F) VO42_2.junk (kernelRun42_C c i arg2 harg2 arg3 harg3 arg4 harg4 arg5 harg5 hc0 hc1 x0 x1 xs0).1)
noncomputable def sout42_C (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond42_0 i) (hc1 : cond42_1 i)
    (x0 : Vec F S1024x1024 .bf16) (x1 : Vec F S1024x512 .f32) (xs0 : Vec F S1024x512 .f32) : Vec F S1024x512 .f32 :=
  VS42.read (Elt F) (VS42.writes (Elt F) VS42.junk (kernelRun42_C c i arg2 harg2 arg3 harg3 arg4 harg4 arg5 harg5 hc0 hc1 x0 x1 xs0).2.1)

/-- Where the output block is idle nothing consults what it holds: a placeholder. -/
noncomputable def outIdle42 : Vec F S1024x512 .f32 := VO42_2.read (Elt F) (VO42_2.writes (Elt F) VO42_2.junk [])

/-! ## The conditions at a point, from t % 4 -/

theorem isFirst42 (t : Fin cfg42.N) (h : t.val % 4 = 0) : cond42_0 (grid42.coords t) := (hcond42_0 t).mpr h
theorem notFirst42 (t : Fin cfg42.N) (h : ¬t.val % 4 = 0) : ¬cond42_0 (grid42.coords t) := fun hc => h ((hcond42_0 t).mp hc)
theorem isLast42 (t : Fin cfg42.N) (h : t.val % 4 = 3) : cond42_1 (grid42.coords t) := (hcond42_1 t).mpr h
theorem notLast42 (t : Fin cfg42.N) (h : ¬t.val % 4 = 3) : ¬cond42_1 (grid42.coords t) := fun hc => h ((hcond42_1 t).mp hc)

/-! ## The accumulator and the output block, point by point -/

/-- After the body at position `n`: (the output block's buffer, the accumulator). -/
noncomputable def outsAt42 (c : Dev nD) : (n : ℕ) → n < cfg42.N → Vec F S1024x512 .f32 × Vec F S1024x512 .f32
  | 0, hn => (outIdle42, sout42_A c (grid42.coords ⟨0, hn⟩) (ms42_0 ⟨0, hn⟩) (hs42_0 ⟨0, hn⟩) (ms42_1 ⟨0, hn⟩) (hs42_1 ⟨0, hn⟩) (ms42_2 ⟨0, hn⟩) (hs42_2 ⟨0, hn⟩) scM42 (Memref.isWhole_whole _) (isFirst42 ⟨0, hn⟩ (Nat.zero_mod _)) (notLast42 ⟨0, hn⟩ (by simp)) (iblk42 V c 0 ⟨0, hn⟩) (iblk42 V c 1 ⟨0, hn⟩))
  | n + 1, hn =>
    if h0 : (n + 1) % 4 = 0 then
      (outIdle42, sout42_A c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) scM42 (Memref.isWhole_whole _) (isFirst42 ⟨n + 1, hn⟩ h0) (notLast42 ⟨n + 1, hn⟩ (by show ¬(n + 1) % 4 = 3; omega)) (iblk42 V c 0 ⟨n + 1, hn⟩) (iblk42 V c 1 ⟨n + 1, hn⟩))
    else if h3 : (n + 1) % 4 = 3 then
      (out42_C c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) scM42 (Memref.isWhole_whole _) (notFirst42 ⟨n + 1, hn⟩ h0) (isLast42 ⟨n + 1, hn⟩ h3) (iblk42 V c 0 ⟨n + 1, hn⟩) (iblk42 V c 1 ⟨n + 1, hn⟩) (outsAt42 c n (Nat.lt_of_succ_lt hn)).2,
       sout42_C c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) scM42 (Memref.isWhole_whole _) (notFirst42 ⟨n + 1, hn⟩ h0) (isLast42 ⟨n + 1, hn⟩ h3) (iblk42 V c 0 ⟨n + 1, hn⟩) (iblk42 V c 1 ⟨n + 1, hn⟩) (outsAt42 c n (Nat.lt_of_succ_lt hn)).2)
    else
      (outIdle42, sout42_B c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) scM42 (Memref.isWhole_whole _) (notFirst42 ⟨n + 1, hn⟩ h0) (notLast42 ⟨n + 1, hn⟩ h3) (iblk42 V c 0 ⟨n + 1, hn⟩) (iblk42 V c 1 ⟨n + 1, hn⟩) (outsAt42 c n (Nat.lt_of_succ_lt hn)).2)

/-- `outsAt42` at a point with k = 0. -/
theorem outsAt42_A (c : Dev nD) (t : Fin cfg42.N) (h0 : t.val % 4 = 0) :
    outsAt42 V c t.val t.isLt = (outIdle42, sout42_A c (grid42.coords t) (ms42_0 t) (hs42_0 t) (ms42_1 t) (hs42_1 t) (ms42_2 t) (hs42_2 t) scM42 (Memref.isWhole_whole _) (isFirst42 t h0) (notLast42 t (by omega)) (iblk42 V c 0 t) (iblk42 V c 1 t)) := by
  obtain ⟨n, hn⟩ := t
  cases n with
  | zero => rfl
  | succ n => exact (dif_pos h0).trans rfl

/-- `outsAt42` at a point with k = 1, 2: over what the point before left. -/
theorem outsAt42_B (c : Dev nD) (t : Fin cfg42.N) (h0 : ¬t.val % 4 = 0) (h3 : ¬t.val % 4 = 3) :
    outsAt42 V c t.val t.isLt = (outIdle42, sout42_B c (grid42.coords t) (ms42_0 t) (hs42_0 t) (ms42_1 t) (hs42_1 t) (ms42_2 t) (hs42_2 t) scM42 (Memref.isWhole_whole _) (notFirst42 t h0) (notLast42 t h3) (iblk42 V c 0 t) (iblk42 V c 1 t)
      (outsAt42 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt42` at a point with k = 3. -/
theorem outsAt42_C (c : Dev nD) (t : Fin cfg42.N) (h0 : ¬t.val % 4 = 0) (h3 : t.val % 4 = 3) :
    outsAt42 V c t.val t.isLt = (out42_C c (grid42.coords t) (ms42_0 t) (hs42_0 t) (ms42_1 t) (hs42_1 t) (ms42_2 t) (hs42_2 t) scM42 (Memref.isWhole_whole _) (notFirst42 t h0) (isLast42 t h3) (iblk42 V c 0 t) (iblk42 V c 1 t)
        (outsAt42 V c (t.val - 1) (Nat.lt_of_le_of_lt (Nat.sub_le _ _) t.isLt)).2,
      sout42_C c (grid42.coords t) (ms42_0 t) (hs42_0 t) (ms42_1 t) (hs42_1 t) (ms42_2 t) (hs42_2 t) scM42 (Memref.isWhole_whole _) (notFirst42 t h0) (isLast42 t h3) (iblk42 V c 0 t) (iblk42 V c 1 t)
        (outsAt42 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS42 (c : Dev nD) : (n : ℕ) → n ≤ cfg42.N → sProp 𝕄
  | 0, _ => Pipeline.ΦA spec42 c
  | n + 1, hn => iprop(iprop(owns (c : Thread nD τ) scM42 fullShare ((outsAt42 V c n hn).2) ∗ restBut42 c) ∗ (∃ r, prngReg c r))

theorem PhiS42_zero (c : Dev nD) (n : ℕ) (h : n ≤ cfg42.N) (hz : n = 0) : PhiS42 V c n h = Pipeline.ΦA spec42 c := by
  subst hz; rfl
theorem PhiS42_succ (c : Dev nD) (n : ℕ) (hn : n < cfg42.N) :
    PhiS42 V c (n + 1) hn = iprop(iprop(owns (c : Thread nD τ) scM42 fullShare ((outsAt42 V c n hn).2) ∗ restBut42 c) ∗ (∃ r, prngReg c r)) := rfl
theorem PhiS42_pos (c : Dev nD) (n : ℕ) (h : n ≤ cfg42.N) (hz : n ≠ 0) :
    PhiS42 V c n h = iprop(iprop(owns (c : Thread nD τ) scM42 fullShare ((outsAt42 V c (n - 1) (by omega)).2) ∗ restBut42 c) ∗ (∃ r, prngReg c r)) := by
  cases n with
  | zero => exact absurd rfl hz
  | succ n => rfl

/-! ## The proof data -/

/-- The region's proof data on core `c`: the arrays as the region finds them; after the body at point `t` each input's
    buffer at its block and the output's at `outsAt42`'s first component; the invariant `PhiS42`; nothing owed; full shares. -/
noncomputable def dat42 (c : Dev nD) : Dat τ (Elt F) Unit ℕ (UR sig nD τ) ℕ cfg42 c where
  A w := V c (Pipeline.arrRef spec42 w)
  after w t := match w with
    | ⟨0, _⟩ => iblk42 V c 0 t
    | ⟨1, _⟩ => iblk42 V c 1 t
    | ⟨2, _⟩ => (outsAt42 V c t.val t.isLt).1
  Φ t := PhiS42 V c t.val (Nat.le_of_lt_succ t.isLt)
  q _ := fullShare
  owed _ := 0

theorem A_eq42 (c : Dev nD) (w : Fin cfg42.W) : (dat42 V c).A w = V c (Pipeline.arrRef spec42 w) := by
  dsimp only [dat42]
theorem PhiS42_castSucc (c : Dev nD) (t : Fin cfg42.N) :
    (dat42 V c).Φ t.castSucc = PhiS42 V c t.val (Nat.le_of_lt t.isLt) := by
  dsimp only [dat42]; simp only [Fin.coe_castSucc]
theorem after42_0 (c : Dev nD) (t : Fin cfg42.N) : (dat42 V c).after 0 t = iblk42 V c 0 t := by dsimp only [dat42]
theorem after42_1 (c : Dev nD) (t : Fin cfg42.N) : (dat42 V c).after 1 t = iblk42 V c 1 t := by dsimp only [dat42]
theorem after42_2 (c : Dev nD) (t : Fin cfg42.N) : (dat42 V c).after 2 t = (outsAt42 V c t.val t.isLt).1 := by dsimp only [dat42]
theorem before42_0 (c : Dev nD) (t : Fin cfg42.N) (d) : (dat42 V c).before 0 t d = iblk42 V c 0 t :=
  before42_0_of V (dat42 V c) (A_eq42 V c 0) (after42_0 V c) t d
theorem before42_1 (c : Dev nD) (t : Fin cfg42.N) (d) : (dat42 V c).before 1 t d = iblk42 V c 1 t :=
  before42_1_of V (dat42 V c) (A_eq42 V c 1) (after42_1 V c) t d

/-! ## The body's obligation -/

noncomputable def bodyPre42 (c : Dev nD) (t : Fin cfg42.N) : sProp 𝕄 :=
  iprop((dat42 V c).Φ t.castSucc ∗ (dat42 V c).owesAt () t.castSucc
    ∗ (∃ d, owns (c : Thread nD τ) (ms42_0 t) fullShare ((dat42 V c).before 0 t d))
    ∗ (∃ d, owns (c : Thread nD τ) (ms42_1 t) fullShare ((dat42 V c).before 1 t d))
    ∗ (∃ d, owns (c : Thread nD τ) (ms42_2 t) fullShare ((dat42 V c).before 2 t d)))

noncomputable def bodyPost42 (c : Dev nD) (t : Fin cfg42.N) : sProp 𝕄 :=
  iprop((dat42 V c).Φ t.succ ∗ (dat42 V c).owesAt () t.succ
    ∗ (dat42 V c).leavesExact 0 t
    ∗ (dat42 V c).leavesExact 1 t
    ∗ (dat42 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body42 (c : Dev nD) (t : Fin cfg42.N) :
    bodyPre42 V c t ⊢ wp frame (wpE (defs₀ (F := F)) Variants.none c none) Set.univ (bodyAt42 t) (fun _ => bodyPost42 V c t) := by
  unfold bodyPre42 bodyPost42 bodyAt42
  simp only [before42_0, before42_1]
  rw [show (dat42 V c).owesAt () t.succ = (dat42 V c).owesAt () t.castSucc from rfl]
  rw [show (dat42 V c).Φ t.succ = PhiS42 V c (t.val + 1) t.isLt from rfl, PhiS42_succ]
  rw [show (dat42 V c).leavesExact 0 t = owns (c : Thread nD τ) (ms42_0 t) fullShare ((dat42 V c).after 0 t) from by
    unfold Dat.leavesExact; rw [liveAt42_0 t], after42_0]
  rw [show (dat42 V c).leavesExact 1 t = owns (c : Thread nD τ) (ms42_1 t) fullShare ((dat42 V c).after 1 t) from by
    unfold Dat.leavesExact; rw [liveAt42_1 t], after42_1]
  by_cases h0 : t.val % 4 = 0
  · have h3 : ¬t.val % 4 = 3 := by omega
    rw [Dat.leavesExact_idle (dat42 V c) 2 t (idleAt42_2 t (notLast42 t h3)) (noFlush42_2 t (notLast42 t h3))]
    rw [outsAt42_A V c t h0]
    unfold sout42_A; (try dsimp only)
    by_cases hz : t.val = 0
    · rw [PhiS42_castSucc V c t, PhiS42_zero V c _ _ hz, PhiA42_eq]
      iintro ⟨⟨⟨HS0, Hrb⟩, Hg⟩, Ho, ⟨%d0, H0⟩, ⟨%d1, H1⟩, ⟨%d2, H2⟩⟩
      iapply ((kernelRun42_A c (grid42.coords t) _ _ _ _ _ _ _ _ (isFirst42 t h0) (notLast42 t (by omega)) (iblk42 V c 0 t) (iblk42 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover42_A c _ _ _ _ _ _ _ _ _ _ _ _ _)
          iexact Hrb
        iexact Hg
      isplitl [Ho]; · iexact Ho
      isplitl [H0]; · iexact H0
      isplitl [H1]; · iexact H1
      iexists _; iexact H2
    · rw [PhiS42_castSucc V c t, PhiS42_pos V c _ _ hz]
      iintro ⟨⟨⟨HS0, Hrb⟩, Hg⟩, Ho, ⟨%d0, H0⟩, ⟨%d1, H1⟩, ⟨%d2, H2⟩⟩
      iapply ((kernelRun42_A c (grid42.coords t) _ _ _ _ _ _ _ _ (isFirst42 t h0) (notLast42 t (by omega)) (iblk42 V c 0 t) (iblk42 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover42_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat42 V c).leavesExact 2 t = owns (c : Thread nD τ) (ms42_2 t) fullShare ((dat42 V c).after 2 t) from by
        unfold Dat.leavesExact; rw [liveAt42_2 t (isLast42 t h3)], after42_2]
      rw [outsAt42_C V c t h0 h3]
      unfold out42_C sout42_C; (try dsimp only)
      rw [PhiS42_castSucc V c t, PhiS42_pos V c _ _ hz]
      iintro ⟨⟨⟨HS0, Hrb⟩, Hg⟩, Ho, ⟨%d0, H0⟩, ⟨%d1, H1⟩, ⟨%d2, H2⟩⟩
      iapply ((kernelRun42_C c (grid42.coords t) _ _ _ _ _ _ _ _ (notFirst42 t h0) (isLast42 t h3) (iblk42 V c 0 t) (iblk42 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover42_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover42_C c _ _ _ _ _ _ _ _ _ _ _ _ _ _)
    · rw [Dat.leavesExact_idle (dat42 V c) 2 t (idleAt42_2 t (notLast42 t h3)) (noFlush42_2 t (notLast42 t h3))]
      rw [outsAt42_B V c t h0 h3]
      unfold sout42_B; (try dsimp only)
      rw [PhiS42_castSucc V c t, PhiS42_pos V c _ _ hz]
      iintro ⟨⟨⟨HS0, Hrb⟩, Hg⟩, Ho, ⟨%d0, H0⟩, ⟨%d1, H1⟩, ⟨%d2, H2⟩⟩
      iapply ((kernelRun42_B c (grid42.coords t) _ _ _ _ _ _ _ _ (notFirst42 t h0) (notLast42 t h3) (iblk42 V c 0 t) (iblk42 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover42_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation42 (c : Dev nD) : BodyObligation (dat42 (F := F) V c) (defs₀ (F := F)) Variants.none () Set.univ := fun t => by
  rw [bigSep_W42, bigSep_W42]
  exact sound_body42 V c t

/-- What the region is entered with is the invariant before the first point. -/
theorem hin42 (c : Dev nD) : Pipeline.ΦA spec42 c ⊢ (dat42 V c).Φ 0 := by
  rw [show (dat42 V c).Φ 0 = PhiS42 V c 0 (Nat.zero_le _) from rfl, PhiS42_zero V c 0 _ rfl]
  try exact Idealize.SL.BI.Entails.refl _

/-- After the last point the invariant gives the class's back: the accumulator's contents are forgotten. -/
theorem hout42 (c : Dev nD) : (dat42 V c).Φ (Fin.last cfg42.N) ⊢ Pipeline.ΦA spec42 c := by
  have hN : cfg42.N = 16 := N_42
  rw [show (dat42 V c).Φ (Fin.last cfg42.N) = PhiS42 V c (Fin.last cfg42.N).val (Nat.le_of_lt_succ (Fin.last cfg42.N).isLt) from rfl,
    PhiS42_pos V c _ _ (by rw [Fin.val_last]; omega), PhiA42_eq]
  iintro ⟨⟨HS0, Hrb⟩, Hg⟩
  isplitl [HS0 Hrb]
  · isplitl [HS0]
    · iexists _; iexact HS0
    iexact Hrb
  iexact Hg

end Cert.Kernel.Hand

end
-- ==== Proof.RegK43a.lean ====
/- Laid out by: python3 scratch/layout_regions.py --template-region 1 --region 43 --program Kernel --parts a,b,c, --out-dir proof/Proof
   from the hand-written text of region 1 (RegKI1a.lean): the same text, the region's number and the program's namespace substituted. -/
/-
  Region 43 of @main (custom_call 43): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond43_0 (i : grid43.Coords) : Prop := (Scalar.cmpi .ne (Scalar.extui (Scalar.cmpi .eq (BitVec.ofNat 32 (i 1).val) 0#32)) 0#32) = 1#1
/-- It holds exactly at the points with t % 4 = 0. -/
theorem hcond43_0 : ∀ t : Fin cfg43.N, cond43_0 (grid43.coords t) ↔ t.val % 4 = 0 :=
  (by decide +kernel : ∀ t : Fin grid43.N, cond43_0 (grid43.coords t) ↔ t.val % 4 = 0)

/-- "k = 3": the second conditional's test. -/
abbrev cond43_1 (i : grid43.Coords) : Prop := k43_cond2 i = 1#1
/-- It holds exactly at the points with t % 4 = 3. -/
theorem hcond43_1 : ∀ t : Fin cfg43.N, cond43_1 (grid43.coords t) ↔ t.val % 4 = 3 :=
  (by decide +kernel : ∀ t : Fin grid43.N, cond43_1 (grid43.coords t) ↔ t.val % 4 = 3)

/-! ## Where the windows are idle, and where the output is written back -/

/-- The two input windows are never idle. -/
theorem liveAt43_0 : ∀ t : Fin cfg43.N, cfg43.idle 0 (grid43.coords t) = false := by decide +kernel
theorem liveAt43_1 : ∀ t : Fin cfg43.N, cfg43.idle 1 (grid43.coords t) = false := by decide +kernel
/-- Where k ≠ 3 the output window is idle (the body stores nothing into it) and is not written back. -/
theorem idleAt43_2 : ∀ t : Fin cfg43.N, ¬cond43_1 (grid43.coords t) → cfg43.idle 2 (grid43.coords t) = true := by decide +kernel
theorem noFlush43_2 : ∀ t : Fin cfg43.N, ¬cond43_1 (grid43.coords t) → (cfg43.win 2).flush t = false := by decide +kernel
/-- Where k = 3 it is live. -/
theorem liveAt43_2 : ∀ t : Fin cfg43.N, cond43_1 (grid43.coords t) → cfg43.idle 2 (grid43.coords t) = false := by decide +kernel

/-! ## The staging memrefs at a point, and the scratch -/

/-- One staging buffer of the output window, through which its contents are stated. -/
abbrev VO43_2 : View sig .tc .vmem S1024x512 .f32 := (Memref.whole cc43_stg2_0 : Memref sig .tc .vmem S1024x512 .f32).view
abbrev ms43_0 (t : Fin cfg43.N) : Memref sig .tc .vmem S1024x1024 .bf16 := win43_0.stage (cfg43.slots t 0)
abbrev hs43_0 (t : Fin cfg43.N) : (ms43_0 t).IsWhole := hstage43_0 ((cfg43.slots t 0).cast nbuf43_0)
abbrev ms43_1 (t : Fin cfg43.N) : Memref sig .tc .vmem S1024x512 .f32 := win43_1.stage (cfg43.slots t 1)
abbrev hs43_1 (t : Fin cfg43.N) : (ms43_1 t).IsWhole := hstage43_1 ((cfg43.slots t 1).cast nbuf43_1)
abbrev ms43_2 (t : Fin cfg43.N) : Memref sig .tc .vmem S1024x512 .f32 := win43_2.stage (cfg43.slots t 2)
abbrev hs43_2 (t : Fin cfg43.N) : (ms43_2 t).IsWhole := hstage43_2 ((cfg43.slots t 2).cast nbuf43_2)
/-- The accumulator: a whole scoped buffer of the kernel's own. -/
abbrev scM43 : Memref sig .tc .vmem S1024x512 .f32 := Memref.whole cc43_scratch0
abbrev VS43 : View sig .tc .vmem S1024x512 .f32 := scM43.view

/-- The other scoped buffers of the core, none of which this region touches. -/
abbrev restBut43 (c : Dev nD) : sProp 𝕄 :=
  Pipeline.scopedRestBut (Ix := Unit) (Name := ℕ) (U := UR sig nD τ) (Lvl := ℕ) (Val := Elt F) spec43 c [cc43_scratch0]

/-- The region's invariant before its first point: the accumulator at something, the other scoped buffers, the generator register. -/
theorem PhiA43_eq (c : Dev nD) :
    (Pipeline.ΦA spec43 c : sProp 𝕄)
      = iprop(iprop((∃ d, owns (c : Thread nD τ) scM43 fullShare d) ∗ restBut43 c) ∗ (∃ r, prngReg c r)) := by
  unfold Pipeline.ΦA; rw [scopedRest43_split]; simp only [scM43, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun43_A (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond43_0 i) (hc1 : ¬cond43_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc43__matmul_kernel i arg2 harg2 arg3 harg3 arg4 harg4 arg5 harg5) K } := by
  refine ⟨[], ?_, fun xi2 E K => ?run⟩
  case run =>
    simp only [cc43__matmul_kernel_eq_skeleton]; unfold cc43__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK43b.lean ====
/- Laid out by: python3 scratch/layout_regions.py --template-region 1 --region 43 --program Kernel --parts a,b,c, --out-dir proof/Proof
   from the hand-written text of region 1 (RegKI1b.lean): the same text, the region's number and the program's namespace substituted. -/
/-
  Region 43, case B (k = 1, 2): the body's run. Neither conditional is taken: the product of the two blocks is added to what
  the point before left in the accumulator; the output block is not touched.
-/
import proofs.«158944_j64613488001249_1_alg».proof.Proof.RegK43a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun43_B (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond43_0 i) (hc1 : ¬cond43_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc43__matmul_kernel i arg2 harg2 arg3 harg3 arg4 harg4 arg5 harg5) K } := by
  refine ⟨[], ?_, fun xi2 E K => ?run⟩
  case run =>
    simp only [cc43__matmul_kernel_eq_skeleton]; unfold cc43__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK43c.lean ====
/- Laid out by: python3 scratch/layout_regions.py --template-region 1 --region 43 --program Kernel --parts a,b,c, --out-dir proof/Proof
   from the hand-written text of region 1 (RegKI1c.lean): the same text, the region's number and the program's namespace substituted. -/
/-
  Region 43, case C (k = 3): the body's run. The product is added to the accumulator as in case B, and then the second
  conditional copies the accumulator over the whole output block.
-/
import proofs.«158944_j64613488001249_1_alg».proof.Proof.RegK43b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun43_C (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond43_0 i) (hc1 : cond43_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc43__matmul_kernel i arg2 harg2 arg3 harg3 arg4 harg4 arg5 harg5) K } := by
  refine ⟨?_, ?_, fun E K => ?run⟩
  case run =>
    simp only [cc43__matmul_kernel_eq_skeleton]; unfold cc43__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK43.lean ====
/- Laid out by: python3 scratch/layout_regions.py --template-region 1 --region 43 --program Kernel --parts a,b,c, --out-dir proof/Proof
   from the hand-written text of region 1 (RegKI1.lean): the same text, the region's number and the program's namespace substituted. -/
/-
  Region 43 of @main, entered from the buffer contents `V`: what its windows' blocks are, what each case of the body leaves in
  the accumulator and in the output block, the accumulator and the output block point by point (`outsAt43`: at k = 0 the
  accumulator restarts from zeros plus the product; at k = 1, 2, 3 it is the point before's plus the product; at k = 3 the
  output block is the accumulator), the region's invariant (the accumulator at `outsAt43`'s second component), the proof data,
  and the body's obligation at every point.
-/
import proofs.«158944_j64613488001249_1_alg».proof.Proof.RegK43c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk43 (c : Dev nD) (w : Fin cfg43.W) (t : Fin cfg43.N) : ((cfg43.win w).xblock (cfg43.grid.coords t)).Idx → Elt F (cfg43.win w).elt :=
  ((cfg43.win w).blk t).view.read (Elt F) (V c (Pipeline.arrRef spec43 w))

/-- An input window's current staging buffer holds its block at every point, for any proof data whose array is `V`'s and
    whose body leaves the block in place. -/
theorem before43_0_of {c : Dev nD} (dat : Dat τ (Elt F) Unit ℕ (UR sig nD τ) ℕ cfg43 c) (hA : dat.A 0 = V c (Pipeline.arrRef spec43 0))
    (hafter : ∀ t, dat.after 0 t = iblk43 V c 0 t) (t : Fin cfg43.N) (d) : dat.before 0 t d = iblk43 V c 0 t :=
  (dat.before_in_eq_fetched 0 rfl (fun _ => rfl) (fun _ _ _ => rfl) (fun t => by rw [hafter]; unfold Dat.blockOf iblk43; rw [hA]; try rfl) t d).trans
    (by unfold Dat.fetched Dat.blockOf iblk43; rw [hA]; try rfl)
theorem before43_1_of {c : Dev nD} (dat : Dat τ (Elt F) Unit ℕ (UR sig nD τ) ℕ cfg43 c) (hA : dat.A 1 = V c (Pipeline.arrRef spec43 1))
    (hafter : ∀ t, dat.after 1 t = iblk43 V c 1 t) (t : Fin cfg43.N) (d) : dat.before 1 t d = iblk43 V c 1 t :=
  (dat.before_in_eq_fetched 1 rfl (fun _ => rfl) (fun _ _ _ => rfl) (fun t => by rw [hafter]; unfold Dat.blockOf iblk43; rw [hA]; try rfl) t d).trans
    (by unfold Dat.fetched Dat.blockOf iblk43; rw [hA]; try rfl)

/-! ## What each case leaves -/

/-- Case A's stores into the accumulator cover it. -/
theorem scover43_A (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond43_0 i) (hc1 : ¬cond43_1 i)
    (x0 : Vec F S1024x1024 .bf16) (x1 : Vec F S1024x512 .f32) (y : S1024x512.Idx) :
    ∃ pc ∈ (kernelRun43_A c i arg2 harg2 arg3 harg3 arg4 harg4 arg5 harg5 hc0 hc1 x0 x1).2.1, y ∈ pc.1.set :=
  View.cover_of_tiledL (kernelRun43_A c i arg2 harg2 arg3 harg3 arg4 harg4 arg5 harg5 hc0 hc1 x0 x1).2.1 S1024x512.size (by sl_kernel_rfl) y
/-- What case A leaves in the accumulator. -/
noncomputable def sout43_A (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond43_0 i) (hc1 : ¬cond43_1 i)
    (x0 : Vec F S1024x1024 .bf16) (x1 : Vec F S1024x512 .f32) : Vec F S1024x512 .f32 :=
  VS43.read (Elt F) (VS43.writes (Elt F) VS43.junk (kernelRun43_A c i arg2 harg2 arg3 harg3 arg4 harg4 arg5 harg5 hc0 hc1 x0 x1).2.1)

/-- Case B's store into the accumulator covers it. -/
theorem scover43_B (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond43_0 i) (hc1 : ¬cond43_1 i)
    (x0 : Vec F S1024x1024 .bf16) (x1 : Vec F S1024x512 .f32) (xs0 : Vec F S1024x512 .f32) (y : S1024x512.Idx) :
    ∃ pc ∈ (kernelRun43_B c i arg2 harg2 arg3 harg3 arg4 harg4 arg5 harg5 hc0 hc1 x0 x1 xs0).2.1, y ∈ pc.1.set :=
  View.cover_of_tiledL (kernelRun43_B c i arg2 harg2 arg3 harg3 arg4 harg4 arg5 harg5 hc0 hc1 x0 x1 xs0).2.1 S1024x512.size (by sl_kernel_rfl) y
/-- What case B leaves in the accumulator, over what the point before left. -/
noncomputable def sout43_B (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond43_0 i) (hc1 : ¬cond43_1 i)
    (x0 : Vec F S1024x1024 .bf16) (x1 : Vec F S1024x512 .f32) (xs0 : Vec F S1024x512 .f32) : Vec F S1024x512 .f32 :=
  VS43.read (Elt F) (VS43.writes (Elt F) VS43.junk (kernelRun43_B c i arg2 harg2 arg3 harg3 arg4 harg4 arg5 harg5 hc0 hc1 x0 x1 xs0).2.1)

/-- Case C's store into the output block covers it, and so does its store into the accumulator. -/
theorem cover43_C (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond43_0 i) (hc1 : cond43_1 i)
    (x0 : Vec F S1024x1024 .bf16) (x1 : Vec F S1024x512 .f32) (xs0 : Vec F S1024x512 .f32) (y : S1024x512.Idx) :
    ∃ pc ∈ (kernelRun43_C c i arg2 harg2 arg3 harg3 arg4 harg4 arg5 harg5 hc0 hc1 x0 x1 xs0).1, y ∈ pc.1.set :=
  View.cover_of_tiledL (kernelRun43_C c i arg2 harg2 arg3 harg3 arg4 harg4 arg5 harg5 hc0 hc1 x0 x1 xs0).1 S1024x512.size (by sl_kernel_rfl) y
theorem scover43_C (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond43_0 i) (hc1 : cond43_1 i)
    (x0 : Vec F S1024x1024 .bf16) (x1 : Vec F S1024x512 .f32) (xs0 : Vec F S1024x512 .f32) (y : S1024x512.Idx) :
    ∃ pc ∈ (kernelRun43_C c i arg2 harg2 arg3 harg3 arg4 harg4 arg5 harg5 hc0 hc1 x0 x1 xs0).2.1, y ∈ pc.1.set :=
  View.cover_of_tiledL (kernelRun43_C c i arg2 harg2 arg3 harg3 arg4 harg4 arg5 harg5 hc0 hc1 x0 x1 xs0).2.1 S1024x512.size (by sl_kernel_rfl) y
/-- What case C leaves in the output block, and in the accumulator. -/
noncomputable def out43_C (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond43_0 i) (hc1 : cond43_1 i)
    (x0 : Vec F S1024x1024 .bf16) (x1 : Vec F S1024x512 .f32) (xs0 : Vec F S1024x512 .f32) : Vec F S1024x512 .f32 :=
  VO43_2.read (Elt F) (VO43_2.writes (Elt F) VO43_2.junk (kernelRun43_C c i arg2 harg2 arg3 harg3 arg4 harg4 arg5 harg5 hc0 hc1 x0 x1 xs0).1)
noncomputable def sout43_C (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond43_0 i) (hc1 : cond43_1 i)
    (x0 : Vec F S1024x1024 .bf16) (x1 : Vec F S1024x512 .f32) (xs0 : Vec F S1024x512 .f32) : Vec F S1024x512 .f32 :=
  VS43.read (Elt F) (VS43.writes (Elt F) VS43.junk (kernelRun43_C c i arg2 harg2 arg3 harg3 arg4 harg4 arg5 harg5 hc0 hc1 x0 x1 xs0).2.1)

/-- Where the output block is idle nothing consults what it holds: a placeholder. -/
noncomputable def outIdle43 : Vec F S1024x512 .f32 := VO43_2.read (Elt F) (VO43_2.writes (Elt F) VO43_2.junk [])

/-! ## The conditions at a point, from t % 4 -/

theorem isFirst43 (t : Fin cfg43.N) (h : t.val % 4 = 0) : cond43_0 (grid43.coords t) := (hcond43_0 t).mpr h
theorem notFirst43 (t : Fin cfg43.N) (h : ¬t.val % 4 = 0) : ¬cond43_0 (grid43.coords t) := fun hc => h ((hcond43_0 t).mp hc)
theorem isLast43 (t : Fin cfg43.N) (h : t.val % 4 = 3) : cond43_1 (grid43.coords t) := (hcond43_1 t).mpr h
theorem notLast43 (t : Fin cfg43.N) (h : ¬t.val % 4 = 3) : ¬cond43_1 (grid43.coords t) := fun hc => h ((hcond43_1 t).mp hc)

/-! ## The accumulator and the output block, point by point -/

/-- After the body at position `n`: (the output block's buffer, the accumulator). -/
noncomputable def outsAt43 (c : Dev nD) : (n : ℕ) → n < cfg43.N → Vec F S1024x512 .f32 × Vec F S1024x512 .f32
  | 0, hn => (outIdle43, sout43_A c (grid43.coords ⟨0, hn⟩) (ms43_0 ⟨0, hn⟩) (hs43_0 ⟨0, hn⟩) (ms43_1 ⟨0, hn⟩) (hs43_1 ⟨0, hn⟩) (ms43_2 ⟨0, hn⟩) (hs43_2 ⟨0, hn⟩) scM43 (Memref.isWhole_whole _) (isFirst43 ⟨0, hn⟩ (Nat.zero_mod _)) (notLast43 ⟨0, hn⟩ (by simp)) (iblk43 V c 0 ⟨0, hn⟩) (iblk43 V c 1 ⟨0, hn⟩))
  | n + 1, hn =>
    if h0 : (n + 1) % 4 = 0 then
      (outIdle43, sout43_A c (grid43.coords ⟨n + 1, hn⟩) (ms43_0 ⟨n + 1, hn⟩) (hs43_0 ⟨n + 1, hn⟩) (ms43_1 ⟨n + 1, hn⟩) (hs43_1 ⟨n + 1, hn⟩) (ms43_2 ⟨n + 1, hn⟩) (hs43_2 ⟨n + 1, hn⟩) scM43 (Memref.isWhole_whole _) (isFirst43 ⟨n + 1, hn⟩ h0) (notLast43 ⟨n + 1, hn⟩ (by show ¬(n + 1) % 4 = 3; omega)) (iblk43 V c 0 ⟨n + 1, hn⟩) (iblk43 V c 1 ⟨n + 1, hn⟩))
    else if h3 : (n + 1) % 4 = 3 then
      (out43_C c (grid43.coords ⟨n + 1, hn⟩) (ms43_0 ⟨n + 1, hn⟩) (hs43_0 ⟨n + 1, hn⟩) (ms43_1 ⟨n + 1, hn⟩) (hs43_1 ⟨n + 1, hn⟩) (ms43_2 ⟨n + 1, hn⟩) (hs43_2 ⟨n + 1, hn⟩) scM43 (Memref.isWhole_whole _) (notFirst43 ⟨n + 1, hn⟩ h0) (isLast43 ⟨n + 1, hn⟩ h3) (iblk43 V c 0 ⟨n + 1, hn⟩) (iblk43 V c 1 ⟨n + 1, hn⟩) (outsAt43 c n (Nat.lt_of_succ_lt hn)).2,
       sout43_C c (grid43.coords ⟨n + 1, hn⟩) (ms43_0 ⟨n + 1, hn⟩) (hs43_0 ⟨n + 1, hn⟩) (ms43_1 ⟨n + 1, hn⟩) (hs43_1 ⟨n + 1, hn⟩) (ms43_2 ⟨n + 1, hn⟩) (hs43_2 ⟨n + 1, hn⟩) scM43 (Memref.isWhole_whole _) (notFirst43 ⟨n + 1, hn⟩ h0) (isLast43 ⟨n + 1, hn⟩ h3) (iblk43 V c 0 ⟨n + 1, hn⟩) (iblk43 V c 1 ⟨n + 1, hn⟩) (outsAt43 c n (Nat.lt_of_succ_lt hn)).2)
    else
      (outIdle43, sout43_B c (grid43.coords ⟨n + 1, hn⟩) (ms43_0 ⟨n + 1, hn⟩) (hs43_0 ⟨n + 1, hn⟩) (ms43_1 ⟨n + 1, hn⟩) (hs43_1 ⟨n + 1, hn⟩) (ms43_2 ⟨n + 1, hn⟩) (hs43_2 ⟨n + 1, hn⟩) scM43 (Memref.isWhole_whole _) (notFirst43 ⟨n + 1, hn⟩ h0) (notLast43 ⟨n + 1, hn⟩ h3) (iblk43 V c 0 ⟨n + 1, hn⟩) (iblk43 V c 1 ⟨n + 1, hn⟩) (outsAt43 c n (Nat.lt_of_succ_lt hn)).2)

/-- `outsAt43` at a point with k = 0. -/
theorem outsAt43_A (c : Dev nD) (t : Fin cfg43.N) (h0 : t.val % 4 = 0) :
    outsAt43 V c t.val t.isLt = (outIdle43, sout43_A c (grid43.coords t) (ms43_0 t) (hs43_0 t) (ms43_1 t) (hs43_1 t) (ms43_2 t) (hs43_2 t) scM43 (Memref.isWhole_whole _) (isFirst43 t h0) (notLast43 t (by omega)) (iblk43 V c 0 t) (iblk43 V c 1 t)) := by
  obtain ⟨n, hn⟩ := t
  cases n with
  | zero => rfl
  | succ n => exact (dif_pos h0).trans rfl

/-- `outsAt43` at a point with k = 1, 2: over what the point before left. -/
theorem outsAt43_B (c : Dev nD) (t : Fin cfg43.N) (h0 : ¬t.val % 4 = 0) (h3 : ¬t.val % 4 = 3) :
    outsAt43 V c t.val t.isLt = (outIdle43, sout43_B c (grid43.coords t) (ms43_0 t) (hs43_0 t) (ms43_1 t) (hs43_1 t) (ms43_2 t) (hs43_2 t) scM43 (Memref.isWhole_whole _) (notFirst43 t h0) (notLast43 t h3) (iblk43 V c 0 t) (iblk43 V c 1 t)
      (outsAt43 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt43` at a point with k = 3. -/
theorem outsAt43_C (c : Dev nD) (t : Fin cfg43.N) (h0 : ¬t.val % 4 = 0) (h3 : t.val % 4 = 3) :
    outsAt43 V c t.val t.isLt = (out43_C c (grid43.coords t) (ms43_0 t) (hs43_0 t) (ms43_1 t) (hs43_1 t) (ms43_2 t) (hs43_2 t) scM43 (Memref.isWhole_whole _) (notFirst43 t h0) (isLast43 t h3) (iblk43 V c 0 t) (iblk43 V c 1 t)
        (outsAt43 V c (t.val - 1) (Nat.lt_of_le_of_lt (Nat.sub_le _ _) t.isLt)).2,
      sout43_C c (grid43.coords t) (ms43_0 t) (hs43_0 t) (ms43_1 t) (hs43_1 t) (ms43_2 t) (hs43_2 t) scM43 (Memref.isWhole_whole _) (notFirst43 t h0) (isLast43 t h3) (iblk43 V c 0 t) (iblk43 V c 1 t)
        (outsAt43 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS43 (c : Dev nD) : (n : ℕ) → n ≤ cfg43.N → sProp 𝕄
  | 0, _ => Pipeline.ΦA spec43 c
  | n + 1, hn => iprop(iprop(owns (c : Thread nD τ) scM43 fullShare ((outsAt43 V c n hn).2) ∗ restBut43 c) ∗ (∃ r, prngReg c r))

theorem PhiS43_zero (c : Dev nD) (n : ℕ) (h : n ≤ cfg43.N) (hz : n = 0) : PhiS43 V c n h = Pipeline.ΦA spec43 c := by
  subst hz; rfl
theorem PhiS43_succ (c : Dev nD) (n : ℕ) (hn : n < cfg43.N) :
    PhiS43 V c (n + 1) hn = iprop(iprop(owns (c : Thread nD τ) scM43 fullShare ((outsAt43 V c n hn).2) ∗ restBut43 c) ∗ (∃ r, prngReg c r)) := rfl
theorem PhiS43_pos (c : Dev nD) (n : ℕ) (h : n ≤ cfg43.N) (hz : n ≠ 0) :
    PhiS43 V c n h = iprop(iprop(owns (c : Thread nD τ) scM43 fullShare ((outsAt43 V c (n - 1) (by omega)).2) ∗ restBut43 c) ∗ (∃ r, prngReg c r)) := by
  cases n with
  | zero => exact absurd rfl hz
  | succ n => rfl

/-! ## The proof data -/

/-- The region's proof data on core `c`: the arrays as the region finds them; after the body at point `t` each input's
    buffer at its block and the output's at `outsAt43`'s first component; the invariant `PhiS43`; nothing owed; full shares. -/
noncomputable def dat43 (c : Dev nD) : Dat τ (Elt F) Unit ℕ (UR sig nD τ) ℕ cfg43 c where
  A w := V c (Pipeline.arrRef spec43 w)
  after w t := match w with
    | ⟨0, _⟩ => iblk43 V c 0 t
    | ⟨1, _⟩ => iblk43 V c 1 t
    | ⟨2, _⟩ => (outsAt43 V c t.val t.isLt).1
  Φ t := PhiS43 V c t.val (Nat.le_of_lt_succ t.isLt)
  q _ := fullShare
  owed _ := 0

theorem A_eq43 (c : Dev nD) (w : Fin cfg43.W) : (dat43 V c).A w = V c (Pipeline.arrRef spec43 w) := by
  dsimp only [dat43]
theorem PhiS43_castSucc (c : Dev nD) (t : Fin cfg43.N) :
    (dat43 V c).Φ t.castSucc = PhiS43 V c t.val (Nat.le_of_lt t.isLt) := by
  dsimp only [dat43]; simp only [Fin.coe_castSucc]
theorem after43_0 (c : Dev nD) (t : Fin cfg43.N) : (dat43 V c).after 0 t = iblk43 V c 0 t := by dsimp only [dat43]
theorem after43_1 (c : Dev nD) (t : Fin cfg43.N) : (dat43 V c).after 1 t = iblk43 V c 1 t := by dsimp only [dat43]
theorem after43_2 (c : Dev nD) (t : Fin cfg43.N) : (dat43 V c).after 2 t = (outsAt43 V c t.val t.isLt).1 := by dsimp only [dat43]
theorem before43_0 (c : Dev nD) (t : Fin cfg43.N) (d) : (dat43 V c).before 0 t d = iblk43 V c 0 t :=
  before43_0_of V (dat43 V c) (A_eq43 V c 0) (after43_0 V c) t d
theorem before43_1 (c : Dev nD) (t : Fin cfg43.N) (d) : (dat43 V c).before 1 t d = iblk43 V c 1 t :=
  before43_1_of V (dat43 V c) (A_eq43 V c 1) (after43_1 V c) t d

/-! ## The body's obligation -/

noncomputable def bodyPre43 (c : Dev nD) (t : Fin cfg43.N) : sProp 𝕄 :=
  iprop((dat43 V c).Φ t.castSucc ∗ (dat43 V c).owesAt () t.castSucc
    ∗ (∃ d, owns (c : Thread nD τ) (ms43_0 t) fullShare ((dat43 V c).before 0 t d))
    ∗ (∃ d, owns (c : Thread nD τ) (ms43_1 t) fullShare ((dat43 V c).before 1 t d))
    ∗ (∃ d, owns (c : Thread nD τ) (ms43_2 t) fullShare ((dat43 V c).before 2 t d)))

noncomputable def bodyPost43 (c : Dev nD) (t : Fin cfg43.N) : sProp 𝕄 :=
  iprop((dat43 V c).Φ t.succ ∗ (dat43 V c).owesAt () t.succ
    ∗ (dat43 V c).leavesExact 0 t
    ∗ (dat43 V c).leavesExact 1 t
    ∗ (dat43 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body43 (c : Dev nD) (t : Fin cfg43.N) :
    bodyPre43 V c t ⊢ wp frame (wpE (defs₀ (F := F)) Variants.none c none) Set.univ (bodyAt43 t) (fun _ => bodyPost43 V c t) := by
  unfold bodyPre43 bodyPost43 bodyAt43
  simp only [before43_0, before43_1]
  rw [show (dat43 V c).owesAt () t.succ = (dat43 V c).owesAt () t.castSucc from rfl]
  rw [show (dat43 V c).Φ t.succ = PhiS43 V c (t.val + 1) t.isLt from rfl, PhiS43_succ]
  rw [show (dat43 V c).leavesExact 0 t = owns (c : Thread nD τ) (ms43_0 t) fullShare ((dat43 V c).after 0 t) from by
    unfold Dat.leavesExact; rw [liveAt43_0 t], after43_0]
  rw [show (dat43 V c).leavesExact 1 t = owns (c : Thread nD τ) (ms43_1 t) fullShare ((dat43 V c).after 1 t) from by
    unfold Dat.leavesExact; rw [liveAt43_1 t], after43_1]
  by_cases h0 : t.val % 4 = 0
  · have h3 : ¬t.val % 4 = 3 := by omega
    rw [Dat.leavesExact_idle (dat43 V c) 2 t (idleAt43_2 t (notLast43 t h3)) (noFlush43_2 t (notLast43 t h3))]
    rw [outsAt43_A V c t h0]
    unfold sout43_A; (try dsimp only)
    by_cases hz : t.val = 0
    · rw [PhiS43_castSucc V c t, PhiS43_zero V c _ _ hz, PhiA43_eq]
      iintro ⟨⟨⟨HS0, Hrb⟩, Hg⟩, Ho, ⟨%d0, H0⟩, ⟨%d1, H1⟩, ⟨%d2, H2⟩⟩
      iapply ((kernelRun43_A c (grid43.coords t) _ _ _ _ _ _ _ _ (isFirst43 t h0) (notLast43 t (by omega)) (iblk43 V c 0 t) (iblk43 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover43_A c _ _ _ _ _ _ _ _ _ _ _ _ _)
          iexact Hrb
        iexact Hg
      isplitl [Ho]; · iexact Ho
      isplitl [H0]; · iexact H0
      isplitl [H1]; · iexact H1
      iexists _; iexact H2
    · rw [PhiS43_castSucc V c t, PhiS43_pos V c _ _ hz]
      iintro ⟨⟨⟨HS0, Hrb⟩, Hg⟩, Ho, ⟨%d0, H0⟩, ⟨%d1, H1⟩, ⟨%d2, H2⟩⟩
      iapply ((kernelRun43_A c (grid43.coords t) _ _ _ _ _ _ _ _ (isFirst43 t h0) (notLast43 t (by omega)) (iblk43 V c 0 t) (iblk43 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover43_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat43 V c).leavesExact 2 t = owns (c : Thread nD τ) (ms43_2 t) fullShare ((dat43 V c).after 2 t) from by
        unfold Dat.leavesExact; rw [liveAt43_2 t (isLast43 t h3)], after43_2]
      rw [outsAt43_C V c t h0 h3]
      unfold out43_C sout43_C; (try dsimp only)
      rw [PhiS43_castSucc V c t, PhiS43_pos V c _ _ hz]
      iintro ⟨⟨⟨HS0, Hrb⟩, Hg⟩, Ho, ⟨%d0, H0⟩, ⟨%d1, H1⟩, ⟨%d2, H2⟩⟩
      iapply ((kernelRun43_C c (grid43.coords t) _ _ _ _ _ _ _ _ (notFirst43 t h0) (isLast43 t h3) (iblk43 V c 0 t) (iblk43 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover43_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover43_C c _ _ _ _ _ _ _ _ _ _ _ _ _ _)
    · rw [Dat.leavesExact_idle (dat43 V c) 2 t (idleAt43_2 t (notLast43 t h3)) (noFlush43_2 t (notLast43 t h3))]
      rw [outsAt43_B V c t h0 h3]
      unfold sout43_B; (try dsimp only)
      rw [PhiS43_castSucc V c t, PhiS43_pos V c _ _ hz]
      iintro ⟨⟨⟨HS0, Hrb⟩, Hg⟩, Ho, ⟨%d0, H0⟩, ⟨%d1, H1⟩, ⟨%d2, H2⟩⟩
      iapply ((kernelRun43_B c (grid43.coords t) _ _ _ _ _ _ _ _ (notFirst43 t h0) (notLast43 t h3) (iblk43 V c 0 t) (iblk43 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover43_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation43 (c : Dev nD) : BodyObligation (dat43 (F := F) V c) (defs₀ (F := F)) Variants.none () Set.univ := fun t => by
  rw [bigSep_W43, bigSep_W43]
  exact sound_body43 V c t

/-- What the region is entered with is the invariant before the first point. -/
theorem hin43 (c : Dev nD) : Pipeline.ΦA spec43 c ⊢ (dat43 V c).Φ 0 := by
  rw [show (dat43 V c).Φ 0 = PhiS43 V c 0 (Nat.zero_le _) from rfl, PhiS43_zero V c 0 _ rfl]
  try exact Idealize.SL.BI.Entails.refl _

/-- After the last point the invariant gives the class's back: the accumulator's contents are forgotten. -/
theorem hout43 (c : Dev nD) : (dat43 V c).Φ (Fin.last cfg43.N) ⊢ Pipeline.ΦA spec43 c := by
  have hN : cfg43.N = 16 := N_43
  rw [show (dat43 V c).Φ (Fin.last cfg43.N) = PhiS43 V c (Fin.last cfg43.N).val (Nat.le_of_lt_succ (Fin.last cfg43.N).isLt) from rfl,
    PhiS43_pos V c _ _ (by rw [Fin.val_last]; omega), PhiA43_eq]
  iintro ⟨⟨HS0, Hrb⟩, Hg⟩
  isplitl [HS0 Hrb]
  · isplitl [HS0]
    · iexists _; iexact HS0
    iexact Hrb
  iexact Hg

end Cert.Kernel.Hand

end
-- ==== Proof.RegK44a.lean ====
/- Laid out by: python3 scratch/layout_regions.py --template-region 1 --region 44 --program Kernel --parts a,b,c, --out-dir proof/Proof
   from the hand-written text of region 1 (RegKI1a.lean): the same text, the region's number and the program's namespace substituted. -/
/-
  Region 44 of @main (custom_call 44): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond44_0 (i : grid44.Coords) : Prop := (Scalar.cmpi .ne (Scalar.extui (Scalar.cmpi .eq (BitVec.ofNat 32 (i 1).val) 0#32)) 0#32) = 1#1
/-- It holds exactly at the points with t % 4 = 0. -/
theorem hcond44_0 : ∀ t : Fin cfg44.N, cond44_0 (grid44.coords t) ↔ t.val % 4 = 0 :=
  (by decide +kernel : ∀ t : Fin grid44.N, cond44_0 (grid44.coords t) ↔ t.val % 4 = 0)

/-- "k = 3": the second conditional's test. -/
abbrev cond44_1 (i : grid44.Coords) : Prop := k44_cond2 i = 1#1
/-- It holds exactly at the points with t % 4 = 3. -/
theorem hcond44_1 : ∀ t : Fin cfg44.N, cond44_1 (grid44.coords t) ↔ t.val % 4 = 3 :=
  (by decide +kernel : ∀ t : Fin grid44.N, cond44_1 (grid44.coords t) ↔ t.val % 4 = 3)

/-! ## Where the windows are idle, and where the output is written back -/

/-- The two input windows are never idle. -/
theorem liveAt44_0 : ∀ t : Fin cfg44.N, cfg44.idle 0 (grid44.coords t) = false := by decide +kernel
theorem liveAt44_1 : ∀ t : Fin cfg44.N, cfg44.idle 1 (grid44.coords t) = false := by decide +kernel
/-- Where k ≠ 3 the output window is idle (the body stores nothing into it) and is not written back. -/
theorem idleAt44_2 : ∀ t : Fin cfg44.N, ¬cond44_1 (grid44.coords t) → cfg44.idle 2 (grid44.coords t) = true := by decide +kernel
theorem noFlush44_2 : ∀ t : Fin cfg44.N, ¬cond44_1 (grid44.coords t) → (cfg44.win 2).flush t = false := by decide +kernel
/-- Where k = 3 it is live. -/
theorem liveAt44_2 : ∀ t : Fin cfg44.N, cond44_1 (grid44.coords t) → cfg44.idle 2 (grid44.coords t) = false := by decide +kernel

/-! ## The staging memrefs at a point, and the scratch -/

/-- One staging buffer of the output window, through which its contents are stated. -/
abbrev VO44_2 : View sig .tc .vmem S1024x512 .f32 := (Memref.whole cc44_stg2_0 : Memref sig .tc .vmem S1024x512 .f32).view
abbrev ms44_0 (t : Fin cfg44.N) : Memref sig .tc .vmem S1024x1024 .bf16 := win44_0.stage (cfg44.slots t 0)
abbrev hs44_0 (t : Fin cfg44.N) : (ms44_0 t).IsWhole := hstage44_0 ((cfg44.slots t 0).cast nbuf44_0)
abbrev ms44_1 (t : Fin cfg44.N) : Memref sig .tc .vmem S1024x512 .f32 := win44_1.stage (cfg44.slots t 1)
abbrev hs44_1 (t : Fin cfg44.N) : (ms44_1 t).IsWhole := hstage44_1 ((cfg44.slots t 1).cast nbuf44_1)
abbrev ms44_2 (t : Fin cfg44.N) : Memref sig .tc .vmem S1024x512 .f32 := win44_2.stage (cfg44.slots t 2)
abbrev hs44_2 (t : Fin cfg44.N) : (ms44_2 t).IsWhole := hstage44_2 ((cfg44.slots t 2).cast nbuf44_2)
/-- The accumulator: a whole scoped buffer of the kernel's own. -/
abbrev scM44 : Memref sig .tc .vmem S1024x512 .f32 := Memref.whole cc44_scratch0
abbrev VS44 : View sig .tc .vmem S1024x512 .f32 := scM44.view

/-- The other scoped buffers of the core, none of which this region touches. -/
abbrev restBut44 (c : Dev nD) : sProp 𝕄 :=
  Pipeline.scopedRestBut (Ix := Unit) (Name := ℕ) (U := UR sig nD τ) (Lvl := ℕ) (Val := Elt F) spec44 c [cc44_scratch0]

/-- The region's invariant before its first point: the accumulator at something, the other scoped buffers, the generator register. -/
theorem PhiA44_eq (c : Dev nD) :
    (Pipeline.ΦA spec44 c : sProp 𝕄)
      = iprop(iprop((∃ d, owns (c : Thread nD τ) scM44 fullShare d) ∗ restBut44 c) ∗ (∃ r, prngReg c r)) := by
  unfold Pipeline.ΦA; rw [scopedRest44_split]; simp only [scM44, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun44_A (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond44_0 i) (hc1 : ¬cond44_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc44__matmul_kernel i arg2 harg2 arg3 harg3 arg4 harg4 arg5 harg5) K } := by
  refine ⟨[], ?_, fun xi2 E K => ?run⟩
  case run =>
    simp only [cc44__matmul_kernel_eq_skeleton]; unfold cc44__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK44b.lean ====
/- Laid out by: python3 scratch/layout_regions.py --template-region 1 --region 44 --program Kernel --parts a,b,c, --out-dir proof/Proof
   from the hand-written text of region 1 (RegKI1b.lean): the same text, the region's number and the program's namespace substituted. -/
/-
  Region 44, case B (k = 1, 2): the body's run. Neither conditional is taken: the product of the two blocks is added to what
  the point before left in the accumulator; the output block is not touched.
-/
import proofs.«158944_j64613488001249_1_alg».proof.Proof.RegK44a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun44_B (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond44_0 i) (hc1 : ¬cond44_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc44__matmul_kernel i arg2 harg2 arg3 harg3 arg4 harg4 arg5 harg5) K } := by
  refine ⟨[], ?_, fun xi2 E K => ?run⟩
  case run =>
    simp only [cc44__matmul_kernel_eq_skeleton]; unfold cc44__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK44c.lean ====
/- Laid out by: python3 scratch/layout_regions.py --template-region 1 --region 44 --program Kernel --parts a,b,c, --out-dir proof/Proof
   from the hand-written text of region 1 (RegKI1c.lean): the same text, the region's number and the program's namespace substituted. -/
/-
  Region 44, case C (k = 3): the body's run. The product is added to the accumulator as in case B, and then the second
  conditional copies the accumulator over the whole output block.
-/
import proofs.«158944_j64613488001249_1_alg».proof.Proof.RegK44b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun44_C (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond44_0 i) (hc1 : cond44_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc44__matmul_kernel i arg2 harg2 arg3 harg3 arg4 harg4 arg5 harg5) K } := by
  refine ⟨?_, ?_, fun E K => ?run⟩
  case run =>
    simp only [cc44__matmul_kernel_eq_skeleton]; unfold cc44__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK44.lean ====
/- Laid out by: python3 scratch/layout_regions.py --template-region 1 --region 44 --program Kernel --parts a,b,c, --out-dir proof/Proof
   from the hand-written text of region 1 (RegKI1.lean): the same text, the region's number and the program's namespace substituted. -/
/-
  Region 44 of @main, entered from the buffer contents `V`: what its windows' blocks are, what each case of the body leaves in
  the accumulator and in the output block, the accumulator and the output block point by point (`outsAt44`: at k = 0 the
  accumulator restarts from zeros plus the product; at k = 1, 2, 3 it is the point before's plus the product; at k = 3 the
  output block is the accumulator), the region's invariant (the accumulator at `outsAt44`'s second component), the proof data,
  and the body's obligation at every point.
-/
import proofs.«158944_j64613488001249_1_alg».proof.Proof.RegK44c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk44 (c : Dev nD) (w : Fin cfg44.W) (t : Fin cfg44.N) : ((cfg44.win w).xblock (cfg44.grid.coords t)).Idx → Elt F (cfg44.win w).elt :=
  ((cfg44.win w).blk t).view.read (Elt F) (V c (Pipeline.arrRef spec44 w))

/-- An input window's current staging buffer holds its block at every point, for any proof data whose array is `V`'s and
    whose body leaves the block in place. -/
theorem before44_0_of {c : Dev nD} (dat : Dat τ (Elt F) Unit ℕ (UR sig nD τ) ℕ cfg44 c) (hA : dat.A 0 = V c (Pipeline.arrRef spec44 0))
    (hafter : ∀ t, dat.after 0 t = iblk44 V c 0 t) (t : Fin cfg44.N) (d) : dat.before 0 t d = iblk44 V c 0 t :=
  (dat.before_in_eq_fetched 0 rfl (fun _ => rfl) (fun _ _ _ => rfl) (fun t => by rw [hafter]; unfold Dat.blockOf iblk44; rw [hA]; try rfl) t d).trans
    (by unfold Dat.fetched Dat.blockOf iblk44; rw [hA]; try rfl)
theorem before44_1_of {c : Dev nD} (dat : Dat τ (Elt F) Unit ℕ (UR sig nD τ) ℕ cfg44 c) (hA : dat.A 1 = V c (Pipeline.arrRef spec44 1))
    (hafter : ∀ t, dat.after 1 t = iblk44 V c 1 t) (t : Fin cfg44.N) (d) : dat.before 1 t d = iblk44 V c 1 t :=
  (dat.before_in_eq_fetched 1 rfl (fun _ => rfl) (fun _ _ _ => rfl) (fun t => by rw [hafter]; unfold Dat.blockOf iblk44; rw [hA]; try rfl) t d).trans
    (by unfold Dat.fetched Dat.blockOf iblk44; rw [hA]; try rfl)

/-! ## What each case leaves -/

/-- Case A's stores into the accumulator cover it. -/
theorem scover44_A (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond44_0 i) (hc1 : ¬cond44_1 i)
    (x0 : Vec F S1024x1024 .bf16) (x1 : Vec F S1024x512 .f32) (y : S1024x512.Idx) :
    ∃ pc ∈ (kernelRun44_A c i arg2 harg2 arg3 harg3 arg4 harg4 arg5 harg5 hc0 hc1 x0 x1).2.1, y ∈ pc.1.set :=
  View.cover_of_tiledL (kernelRun44_A c i arg2 harg2 arg3 harg3 arg4 harg4 arg5 harg5 hc0 hc1 x0 x1).2.1 S1024x512.size (by sl_kernel_rfl) y
/-- What case A leaves in the accumulator. -/
noncomputable def sout44_A (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond44_0 i) (hc1 : ¬cond44_1 i)
    (x0 : Vec F S1024x1024 .bf16) (x1 : Vec F S1024x512 .f32) : Vec F S1024x512 .f32 :=
  VS44.read (Elt F) (VS44.writes (Elt F) VS44.junk (kernelRun44_A c i arg2 harg2 arg3 harg3 arg4 harg4 arg5 harg5 hc0 hc1 x0 x1).2.1)

/-- Case B's store into the accumulator covers it. -/
theorem scover44_B (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond44_0 i) (hc1 : ¬cond44_1 i)
    (x0 : Vec F S1024x1024 .bf16) (x1 : Vec F S1024x512 .f32) (xs0 : Vec F S1024x512 .f32) (y : S1024x512.Idx) :
    ∃ pc ∈ (kernelRun44_B c i arg2 harg2 arg3 harg3 arg4 harg4 arg5 harg5 hc0 hc1 x0 x1 xs0).2.1, y ∈ pc.1.set :=
  View.cover_of_tiledL (kernelRun44_B c i arg2 harg2 arg3 harg3 arg4 harg4 arg5 harg5 hc0 hc1 x0 x1 xs0).2.1 S1024x512.size (by sl_kernel_rfl) y
/-- What case B leaves in the accumulator, over what the point before left. -/
noncomputable def sout44_B (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond44_0 i) (hc1 : ¬cond44_1 i)
    (x0 : Vec F S1024x1024 .bf16) (x1 : Vec F S1024x512 .f32) (xs0 : Vec F S1024x512 .f32) : Vec F S1024x512 .f32 :=
  VS44.read (Elt F) (VS44.writes (Elt F) VS44.junk (kernelRun44_B c i arg2 harg2 arg3 harg3 arg4 harg4 arg5 harg5 hc0 hc1 x0 x1 xs0).2.1)

/-- Case C's store into the output block covers it, and so does its store into the accumulator. -/
theorem cover44_C (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond44_0 i) (hc1 : cond44_1 i)
    (x0 : Vec F S1024x1024 .bf16) (x1 : Vec F S1024x512 .f32) (xs0 : Vec F S1024x512 .f32) (y : S1024x512.Idx) :
    ∃ pc ∈ (kernelRun44_C c i arg2 harg2 arg3 harg3 arg4 harg4 arg5 harg5 hc0 hc1 x0 x1 xs0).1, y ∈ pc.1.set :=
  View.cover_of_tiledL (kernelRun44_C c i arg2 harg2 arg3 harg3 arg4 harg4 arg5 harg5 hc0 hc1 x0 x1 xs0).1 S1024x512.size (by sl_kernel_rfl) y
theorem scover44_C (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond44_0 i) (hc1 : cond44_1 i)
    (x0 : Vec F S1024x1024 .bf16) (x1 : Vec F S1024x512 .f32) (xs0 : Vec F S1024x512 .f32) (y : S1024x512.Idx) :
    ∃ pc ∈ (kernelRun44_C c i arg2 harg2 arg3 harg3 arg4 harg4 arg5 harg5 hc0 hc1 x0 x1 xs0).2.1, y ∈ pc.1.set :=
  View.cover_of_tiledL (kernelRun44_C c i arg2 harg2 arg3 harg3 arg4 harg4 arg5 harg5 hc0 hc1 x0 x1 xs0).2.1 S1024x512.size (by sl_kernel_rfl) y
/-- What case C leaves in the output block, and in the accumulator. -/
noncomputable def out44_C (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond44_0 i) (hc1 : cond44_1 i)
    (x0 : Vec F S1024x1024 .bf16) (x1 : Vec F S1024x512 .f32) (xs0 : Vec F S1024x512 .f32) : Vec F S1024x512 .f32 :=
  VO44_2.read (Elt F) (VO44_2.writes (Elt F) VO44_2.junk (kernelRun44_C c i arg2 harg2 arg3 harg3 arg4 harg4 arg5 harg5 hc0 hc1 x0 x1 xs0).1)
noncomputable def sout44_C (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond44_0 i) (hc1 : cond44_1 i)
    (x0 : Vec F S1024x1024 .bf16) (x1 : Vec F S1024x512 .f32) (xs0 : Vec F S1024x512 .f32) : Vec F S1024x512 .f32 :=
  VS44.read (Elt F) (VS44.writes (Elt F) VS44.junk (kernelRun44_C c i arg2 harg2 arg3 harg3 arg4 harg4 arg5 harg5 hc0 hc1 x0 x1 xs0).2.1)

/-- Where the output block is idle nothing consults what it holds: a placeholder. -/
noncomputable def outIdle44 : Vec F S1024x512 .f32 := VO44_2.read (Elt F) (VO44_2.writes (Elt F) VO44_2.junk [])

/-! ## The conditions at a point, from t % 4 -/

theorem isFirst44 (t : Fin cfg44.N) (h : t.val % 4 = 0) : cond44_0 (grid44.coords t) := (hcond44_0 t).mpr h
theorem notFirst44 (t : Fin cfg44.N) (h : ¬t.val % 4 = 0) : ¬cond44_0 (grid44.coords t) := fun hc => h ((hcond44_0 t).mp hc)
theorem isLast44 (t : Fin cfg44.N) (h : t.val % 4 = 3) : cond44_1 (grid44.coords t) := (hcond44_1 t).mpr h
theorem notLast44 (t : Fin cfg44.N) (h : ¬t.val % 4 = 3) : ¬cond44_1 (grid44.coords t) := fun hc => h ((hcond44_1 t).mp hc)

/-! ## The accumulator and the output block, point by point -/

/-- After the body at position `n`: (the output block's buffer, the accumulator). -/
noncomputable def outsAt44 (c : Dev nD) : (n : ℕ) → n < cfg44.N → Vec F S1024x512 .f32 × Vec F S1024x512 .f32
  | 0, hn => (outIdle44, sout44_A c (grid44.coords ⟨0, hn⟩) (ms44_0 ⟨0, hn⟩) (hs44_0 ⟨0, hn⟩) (ms44_1 ⟨0, hn⟩) (hs44_1 ⟨0, hn⟩) (ms44_2 ⟨0, hn⟩) (hs44_2 ⟨0, hn⟩) scM44 (Memref.isWhole_whole _) (isFirst44 ⟨0, hn⟩ (Nat.zero_mod _)) (notLast44 ⟨0, hn⟩ (by simp)) (iblk44 V c 0 ⟨0, hn⟩) (iblk44 V c 1 ⟨0, hn⟩))
  | n + 1, hn =>
    if h0 : (n + 1) % 4 = 0 then
      (outIdle44, sout44_A c (grid44.coords ⟨n + 1, hn⟩) (ms44_0 ⟨n + 1, hn⟩) (hs44_0 ⟨n + 1, hn⟩) (ms44_1 ⟨n + 1, hn⟩) (hs44_1 ⟨n + 1, hn⟩) (ms44_2 ⟨n + 1, hn⟩) (hs44_2 ⟨n + 1, hn⟩) scM44 (Memref.isWhole_whole _) (isFirst44 ⟨n + 1, hn⟩ h0) (notLast44 ⟨n + 1, hn⟩ (by show ¬(n + 1) % 4 = 3; omega)) (iblk44 V c 0 ⟨n + 1, hn⟩) (iblk44 V c 1 ⟨n + 1, hn⟩))
    else if h3 : (n + 1) % 4 = 3 then
      (out44_C c (grid44.coords ⟨n + 1, hn⟩) (ms44_0 ⟨n + 1, hn⟩) (hs44_0 ⟨n + 1, hn⟩) (ms44_1 ⟨n + 1, hn⟩) (hs44_1 ⟨n + 1, hn⟩) (ms44_2 ⟨n + 1, hn⟩) (hs44_2 ⟨n + 1, hn⟩) scM44 (Memref.isWhole_whole _) (notFirst44 ⟨n + 1, hn⟩ h0) (isLast44 ⟨n + 1, hn⟩ h3) (iblk44 V c 0 ⟨n + 1, hn⟩) (iblk44 V c 1 ⟨n + 1, hn⟩) (outsAt44 c n (Nat.lt_of_succ_lt hn)).2,
       sout44_C c (grid44.coords ⟨n + 1, hn⟩) (ms44_0 ⟨n + 1, hn⟩) (hs44_0 ⟨n + 1, hn⟩) (ms44_1 ⟨n + 1, hn⟩) (hs44_1 ⟨n + 1, hn⟩) (ms44_2 ⟨n + 1, hn⟩) (hs44_2 ⟨n + 1, hn⟩) scM44 (Memref.isWhole_whole _) (notFirst44 ⟨n + 1, hn⟩ h0) (isLast44 ⟨n + 1, hn⟩ h3) (iblk44 V c 0 ⟨n + 1, hn⟩) (iblk44 V c 1 ⟨n + 1, hn⟩) (outsAt44 c n (Nat.lt_of_succ_lt hn)).2)
    else
      (outIdle44, sout44_B c (grid44.coords ⟨n + 1, hn⟩) (ms44_0 ⟨n + 1, hn⟩) (hs44_0 ⟨n + 1, hn⟩) (ms44_1 ⟨n + 1, hn⟩) (hs44_1 ⟨n + 1, hn⟩) (ms44_2 ⟨n + 1, hn⟩) (hs44_2 ⟨n + 1, hn⟩) scM44 (Memref.isWhole_whole _) (notFirst44 ⟨n + 1, hn⟩ h0) (notLast44 ⟨n + 1, hn⟩ h3) (iblk44 V c 0 ⟨n + 1, hn⟩) (iblk44 V c 1 ⟨n + 1, hn⟩) (outsAt44 c n (Nat.lt_of_succ_lt hn)).2)

/-- `outsAt44` at a point with k = 0. -/
theorem outsAt44_A (c : Dev nD) (t : Fin cfg44.N) (h0 : t.val % 4 = 0) :
    outsAt44 V c t.val t.isLt = (outIdle44, sout44_A c (grid44.coords t) (ms44_0 t) (hs44_0 t) (ms44_1 t) (hs44_1 t) (ms44_2 t) (hs44_2 t) scM44 (Memref.isWhole_whole _) (isFirst44 t h0) (notLast44 t (by omega)) (iblk44 V c 0 t) (iblk44 V c 1 t)) := by
  obtain ⟨n, hn⟩ := t
  cases n with
  | zero => rfl
  | succ n => exact (dif_pos h0).trans rfl

/-- `outsAt44` at a point with k = 1, 2: over what the point before left. -/
theorem outsAt44_B (c : Dev nD) (t : Fin cfg44.N) (h0 : ¬t.val % 4 = 0) (h3 : ¬t.val % 4 = 3) :
    outsAt44 V c t.val t.isLt = (outIdle44, sout44_B c (grid44.coords t) (ms44_0 t) (hs44_0 t) (ms44_1 t) (hs44_1 t) (ms44_2 t) (hs44_2 t) scM44 (Memref.isWhole_whole _) (notFirst44 t h0) (notLast44 t h3) (iblk44 V c 0 t) (iblk44 V c 1 t)
      (outsAt44 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt44` at a point with k = 3. -/
theorem outsAt44_C (c : Dev nD) (t : Fin cfg44.N) (h0 : ¬t.val % 4 = 0) (h3 : t.val % 4 = 3) :
    outsAt44 V c t.val t.isLt = (out44_C c (grid44.coords t) (ms44_0 t) (hs44_0 t) (ms44_1 t) (hs44_1 t) (ms44_2 t) (hs44_2 t) scM44 (Memref.isWhole_whole _) (notFirst44 t h0) (isLast44 t h3) (iblk44 V c 0 t) (iblk44 V c 1 t)
        (outsAt44 V c (t.val - 1) (Nat.lt_of_le_of_lt (Nat.sub_le _ _) t.isLt)).2,
      sout44_C c (grid44.coords t) (ms44_0 t) (hs44_0 t) (ms44_1 t) (hs44_1 t) (ms44_2 t) (hs44_2 t) scM44 (Memref.isWhole_whole _) (notFirst44 t h0) (isLast44 t h3) (iblk44 V c 0 t) (iblk44 V c 1 t)
        (outsAt44 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS44 (c : Dev nD) : (n : ℕ) → n ≤ cfg44.N → sProp 𝕄
  | 0, _ => Pipeline.ΦA spec44 c
  | n + 1, hn => iprop(iprop(owns (c : Thread nD τ) scM44 fullShare ((outsAt44 V c n hn).2) ∗ restBut44 c) ∗ (∃ r, prngReg c r))

theorem PhiS44_zero (c : Dev nD) (n : ℕ) (h : n ≤ cfg44.N) (hz : n = 0) : PhiS44 V c n h = Pipeline.ΦA spec44 c := by
  subst hz; rfl
theorem PhiS44_succ (c : Dev nD) (n : ℕ) (hn : n < cfg44.N) :
    PhiS44 V c (n + 1) hn = iprop(iprop(owns (c : Thread nD τ) scM44 fullShare ((outsAt44 V c n hn).2) ∗ restBut44 c) ∗ (∃ r, prngReg c r)) := rfl
theorem PhiS44_pos (c : Dev nD) (n : ℕ) (h : n ≤ cfg44.N) (hz : n ≠ 0) :
    PhiS44 V c n h = iprop(iprop(owns (c : Thread nD τ) scM44 fullShare ((outsAt44 V c (n - 1) (by omega)).2) ∗ restBut44 c) ∗ (∃ r, prngReg c r)) := by
  cases n with
  | zero => exact absurd rfl hz
  | succ n => rfl

/-! ## The proof data -/

/-- The region's proof data on core `c`: the arrays as the region finds them; after the body at point `t` each input's
    buffer at its block and the output's at `outsAt44`'s first component; the invariant `PhiS44`; nothing owed; full shares. -/
noncomputable def dat44 (c : Dev nD) : Dat τ (Elt F) Unit ℕ (UR sig nD τ) ℕ cfg44 c where
  A w := V c (Pipeline.arrRef spec44 w)
  after w t := match w with
    | ⟨0, _⟩ => iblk44 V c 0 t
    | ⟨1, _⟩ => iblk44 V c 1 t
    | ⟨2, _⟩ => (outsAt44 V c t.val t.isLt).1
  Φ t := PhiS44 V c t.val (Nat.le_of_lt_succ t.isLt)
  q _ := fullShare
  owed _ := 0

theorem A_eq44 (c : Dev nD) (w : Fin cfg44.W) : (dat44 V c).A w = V c (Pipeline.arrRef spec44 w) := by
  dsimp only [dat44]
theorem PhiS44_castSucc (c : Dev nD) (t : Fin cfg44.N) :
    (dat44 V c).Φ t.castSucc = PhiS44 V c t.val (Nat.le_of_lt t.isLt) := by
  dsimp only [dat44]; simp only [Fin.coe_castSucc]
theorem after44_0 (c : Dev nD) (t : Fin cfg44.N) : (dat44 V c).after 0 t = iblk44 V c 0 t := by dsimp only [dat44]
theorem after44_1 (c : Dev nD) (t : Fin cfg44.N) : (dat44 V c).after 1 t = iblk44 V c 1 t := by dsimp only [dat44]
theorem after44_2 (c : Dev nD) (t : Fin cfg44.N) : (dat44 V c).after 2 t = (outsAt44 V c t.val t.isLt).1 := by dsimp only [dat44]
theorem before44_0 (c : Dev nD) (t : Fin cfg44.N) (d) : (dat44 V c).before 0 t d = iblk44 V c 0 t :=
  before44_0_of V (dat44 V c) (A_eq44 V c 0) (after44_0 V c) t d
theorem before44_1 (c : Dev nD) (t : Fin cfg44.N) (d) : (dat44 V c).before 1 t d = iblk44 V c 1 t :=
  before44_1_of V (dat44 V c) (A_eq44 V c 1) (after44_1 V c) t d

/-! ## The body's obligation -/

noncomputable def bodyPre44 (c : Dev nD) (t : Fin cfg44.N) : sProp 𝕄 :=
  iprop((dat44 V c).Φ t.castSucc ∗ (dat44 V c).owesAt () t.castSucc
    ∗ (∃ d, owns (c : Thread nD τ) (ms44_0 t) fullShare ((dat44 V c).before 0 t d))
    ∗ (∃ d, owns (c : Thread nD τ) (ms44_1 t) fullShare ((dat44 V c).before 1 t d))
    ∗ (∃ d, owns (c : Thread nD τ) (ms44_2 t) fullShare ((dat44 V c).before 2 t d)))

noncomputable def bodyPost44 (c : Dev nD) (t : Fin cfg44.N) : sProp 𝕄 :=
  iprop((dat44 V c).Φ t.succ ∗ (dat44 V c).owesAt () t.succ
    ∗ (dat44 V c).leavesExact 0 t
    ∗ (dat44 V c).leavesExact 1 t
    ∗ (dat44 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body44 (c : Dev nD) (t : Fin cfg44.N) :
    bodyPre44 V c t ⊢ wp frame (wpE (defs₀ (F := F)) Variants.none c none) Set.univ (bodyAt44 t) (fun _ => bodyPost44 V c t) := by
  unfold bodyPre44 bodyPost44 bodyAt44
  simp only [before44_0, before44_1]
  rw [show (dat44 V c).owesAt () t.succ = (dat44 V c).owesAt () t.castSucc from rfl]
  rw [show (dat44 V c).Φ t.succ = PhiS44 V c (t.val + 1) t.isLt from rfl, PhiS44_succ]
  rw [show (dat44 V c).leavesExact 0 t = owns (c : Thread nD τ) (ms44_0 t) fullShare ((dat44 V c).after 0 t) from by
    unfold Dat.leavesExact; rw [liveAt44_0 t], after44_0]
  rw [show (dat44 V c).leavesExact 1 t = owns (c : Thread nD τ) (ms44_1 t) fullShare ((dat44 V c).after 1 t) from by
    unfold Dat.leavesExact; rw [liveAt44_1 t], after44_1]
  by_cases h0 : t.val % 4 = 0
  · have h3 : ¬t.val % 4 = 3 := by omega
    rw [Dat.leavesExact_idle (dat44 V c) 2 t (idleAt44_2 t (notLast44 t h3)) (noFlush44_2 t (notLast44 t h3))]
    rw [outsAt44_A V c t h0]
    unfold sout44_A; (try dsimp only)
    by_cases hz : t.val = 0
    · rw [PhiS44_castSucc V c t, PhiS44_zero V c _ _ hz, PhiA44_eq]
      iintro ⟨⟨⟨HS0, Hrb⟩, Hg⟩, Ho, ⟨%d0, H0⟩, ⟨%d1, H1⟩, ⟨%d2, H2⟩⟩
      iapply ((kernelRun44_A c (grid44.coords t) _ _ _ _ _ _ _ _ (isFirst44 t h0) (notLast44 t (by omega)) (iblk44 V c 0 t) (iblk44 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover44_A c _ _ _ _ _ _ _ _ _ _ _ _ _)
          iexact Hrb
        iexact Hg
      isplitl [Ho]; · iexact Ho
      isplitl [H0]; · iexact H0
      isplitl [H1]; · iexact H1
      iexists _; iexact H2
    · rw [PhiS44_castSucc V c t, PhiS44_pos V c _ _ hz]
      iintro ⟨⟨⟨HS0, Hrb⟩, Hg⟩, Ho, ⟨%d0, H0⟩, ⟨%d1, H1⟩, ⟨%d2, H2⟩⟩
      iapply ((kernelRun44_A c (grid44.coords t) _ _ _ _ _ _ _ _ (isFirst44 t h0) (notLast44 t (by omega)) (iblk44 V c 0 t) (iblk44 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover44_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat44 V c).leavesExact 2 t = owns (c : Thread nD τ) (ms44_2 t) fullShare ((dat44 V c).after 2 t) from by
        unfold Dat.leavesExact; rw [liveAt44_2 t (isLast44 t h3)], after44_2]
      rw [outsAt44_C V c t h0 h3]
      unfold out44_C sout44_C; (try dsimp only)
      rw [PhiS44_castSucc V c t, PhiS44_pos V c _ _ hz]
      iintro ⟨⟨⟨HS0, Hrb⟩, Hg⟩, Ho, ⟨%d0, H0⟩, ⟨%d1, H1⟩, ⟨%d2, H2⟩⟩
      iapply ((kernelRun44_C c (grid44.coords t) _ _ _ _ _ _ _ _ (notFirst44 t h0) (isLast44 t h3) (iblk44 V c 0 t) (iblk44 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover44_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover44_C c _ _ _ _ _ _ _ _ _ _ _ _ _ _)
    · rw [Dat.leavesExact_idle (dat44 V c) 2 t (idleAt44_2 t (notLast44 t h3)) (noFlush44_2 t (notLast44 t h3))]
      rw [outsAt44_B V c t h0 h3]
      unfold sout44_B; (try dsimp only)
      rw [PhiS44_castSucc V c t, PhiS44_pos V c _ _ hz]
      iintro ⟨⟨⟨HS0, Hrb⟩, Hg⟩, Ho, ⟨%d0, H0⟩, ⟨%d1, H1⟩, ⟨%d2, H2⟩⟩
      iapply ((kernelRun44_B c (grid44.coords t) _ _ _ _ _ _ _ _ (notFirst44 t h0) (notLast44 t h3) (iblk44 V c 0 t) (iblk44 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover44_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation44 (c : Dev nD) : BodyObligation (dat44 (F := F) V c) (defs₀ (F := F)) Variants.none () Set.univ := fun t => by
  rw [bigSep_W44, bigSep_W44]
  exact sound_body44 V c t

/-- What the region is entered with is the invariant before the first point. -/
theorem hin44 (c : Dev nD) : Pipeline.ΦA spec44 c ⊢ (dat44 V c).Φ 0 := by
  rw [show (dat44 V c).Φ 0 = PhiS44 V c 0 (Nat.zero_le _) from rfl, PhiS44_zero V c 0 _ rfl]
  try exact Idealize.SL.BI.Entails.refl _

/-- After the last point the invariant gives the class's back: the accumulator's contents are forgotten. -/
theorem hout44 (c : Dev nD) : (dat44 V c).Φ (Fin.last cfg44.N) ⊢ Pipeline.ΦA spec44 c := by
  have hN : cfg44.N = 16 := N_44
  rw [show (dat44 V c).Φ (Fin.last cfg44.N) = PhiS44 V c (Fin.last cfg44.N).val (Nat.le_of_lt_succ (Fin.last cfg44.N).isLt) from rfl,
    PhiS44_pos V c _ _ (by rw [Fin.val_last]; omega), PhiA44_eq]
  iintro ⟨⟨HS0, Hrb⟩, Hg⟩
  isplitl [HS0 Hrb]
  · isplitl [HS0]
    · iexists _; iexact HS0
    iexact Hrb
  iexact Hg

end Cert.Kernel.Hand

end
-- ==== Proof.RegK45a.lean ====
/- Laid out by: python3 scratch/layout_grid41.py --template-region 0 --region 45 --program Kernel --parts a, --shapes S1024x128=S1024x512,S128x512=S512x512
   from the hand-written text of region 0 (RegKI0a.lean): the same text, the region's number, block shapes and the program's namespace substituted. -/
/- The region of Kernel's @main that runs `cc45__matmul_kernel` (pipeline `cfg45`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond45_0 (i : grid45.Coords) : Prop :=
  (Scalar.cmpi .ne (Scalar.extui (Scalar.cmpi .eq (BitVec.ofNat 32 (i 1).val) 0#32)) 0#32) = 1#1
/-- True at every point: the reduction axis has one step. -/
theorem hcond45_0 : ∀ t : Fin cfg45.N, cond45_0 (grid45.coords t) :=
  (by decide +kernel : ∀ t : Fin grid45.N, cond45_0 (grid45.coords t))

/-- "This is the last reduction step" (the guard of the copy to the output block). -/
abbrev cond45_1 (i : grid45.Coords) : Prop := k45_cond2 i = 1#1
/-- True at every point, for the same reason. -/
theorem hcond45_1 : ∀ t : Fin cfg45.N, cond45_1 (grid45.coords t) :=
  (by decide +kernel : ∀ t : Fin grid45.N, cond45_1 (grid45.coords t))

/-! ## No window is idle anywhere -/

theorem liveAt45_0 : ∀ t : Fin cfg45.N, cfg45.idle 0 (grid45.coords t) = false := by decide +kernel
theorem liveAt45_1 : ∀ t : Fin cfg45.N, cfg45.idle 1 (grid45.coords t) = false := by decide +kernel
/-- The output window is stored at every point (the copy's guard holds everywhere). -/
theorem liveAt45_2 : ∀ t : Fin cfg45.N, cfg45.idle 2 (grid45.coords t) = false := by decide +kernel

/-! ## The memrefs the body is called on -/

/-- One staging buffer of the output window, through which its contents are stated (any whole view of the shape reads the
    same pieces back the same way). -/
abbrev VO45_2 : View sig .tc .vmem S1024x512 .f32 := (Memref.whole cc45_stg2_0 : Memref sig .tc .vmem S1024x512 .f32).view
/-- Each window's current staging memref at point `t`, spelt as the pipeline passes it, with its wholeness. -/
abbrev ms45_0 (t : Fin cfg45.N) : Memref sig .tc .vmem S1024x512 .f32 := win45_0.stage (cfg45.slots t 0)
abbrev hs45_0 (t : Fin cfg45.N) : (ms45_0 t).IsWhole := hstage45_0 ((cfg45.slots t 0).cast nbuf45_0)
abbrev ms45_1 (t : Fin cfg45.N) : Memref sig .tc .vmem S512x512 .bf16 := win45_1.stage (cfg45.slots t 1)
abbrev hs45_1 (t : Fin cfg45.N) : (ms45_1 t).IsWhole := hstage45_1 ((cfg45.slots t 1).cast nbuf45_1)
abbrev ms45_2 (t : Fin cfg45.N) : Memref sig .tc .vmem S1024x512 .f32 := win45_2.stage (cfg45.slots t 2)
abbrev hs45_2 (t : Fin cfg45.N) : (ms45_2 t).IsWhole := hstage45_2 ((cfg45.slots t 2).cast nbuf45_2)
/-- The accumulator: a whole scoped buffer of the kernel's own, passed beside the windows. -/
abbrev scM45_0 : Memref sig .tc .vmem S1024x512 .f32 := Memref.whole cc45_scratch0
abbrev VS45_0 : View sig .tc .vmem S1024x512 .f32 := scM45_0.view

/-- The region invariant with the accumulator taken out of the scoped rest: the accumulator owned at some contents, every
    other scoped buffer unopened, and the generator register. -/
theorem PhiA45_eq (c : Dev nD) :
    (Pipeline.ΦA spec45 c : sProp 𝕄)
      = iprop(iprop(iprop((∃ d, owns (c : Thread nD τ) scM45_0 fullShare d))
            ∗ Pipeline.scopedRestBut (Ix := Unit) (Name := ℕ) (U := UR sig nD τ) (Lvl := ℕ) (Val := Elt F) spec45 c [cc45_scratch0])
          ∗ (∃ r, prngReg c r)) := by
  unfold Pipeline.ΦA; rw [scopedRest45_split]; simp only [scM45_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun45 (c : Dev nD) (i : grid45.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond45_0 i) (hlast : cond45_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc45__matmul_kernel i arg2 harg2 arg3 harg3 arg4 harg4 arg5 harg5) K } := by
  refine ⟨?_, ?_, fun E K => ?run⟩
  case run =>
    simp only [cc45__matmul_kernel_eq_skeleton]; unfold cc45__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.Kernel.Hand

end
-- ==== Proof.RegK45.lean ====
/- Laid out by: python3 scratch/layout_grid41.py --template-region 0 --region 45 --program Kernel --parts a, --shapes S1024x128=S1024x512,S128x512=S512x512
   from the hand-written text of region 0 (RegKI0.lean): the same text, the region's number, block shapes and the program's namespace substituted. -/
/- The region of Kernel's @main that runs `cc45__matmul_kernel` (pipeline `cfg45`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegK45a
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk45 (c : Dev nD) (w : Fin cfg45.W) (t : Fin cfg45.N) : ((cfg45.win w).xblock (cfg45.grid.coords t)).Idx → Elt F (cfg45.win w).elt :=
  ((cfg45.win w).blk t).view.read (Elt F) (V c (Pipeline.arrRef spec45 w))

/-! ## What the case leaves, as pieces read back -/

/-- The output's pieces tile its block (one whole-block store). -/
theorem cover45_2 (c : Dev nD) (i : grid45.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond45_0 i) (hlast : cond45_1 i) (xa : Vec F S1024x512 .f32) (xb : Vec F S512x512 .bf16) (y : S1024x512.Idx) :
    ∃ pc ∈ (kernelRun45 c i arg2 harg2 arg3 harg3 arg4 harg4 arg5 harg5 hfirst hlast xa xb).1, y ∈ pc.1.set :=
  View.cover_of_tiledL (kernelRun45 c i arg2 harg2 arg3 harg3 arg4 harg4 arg5 harg5 hfirst hlast xa xb).1 S1024x512.size (by sl_kernel_rfl) y

/-- What the case leaves in the output's staging buffer: its pieces read back over junk. -/
noncomputable def out45_2 (c : Dev nD) (i : grid45.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond45_0 i) (hlast : cond45_1 i) (xa : Vec F S1024x512 .f32) (xb : Vec F S512x512 .bf16) : Vec F S1024x512 .f32 :=
  VO45_2.read (Elt F) (VO45_2.writes (Elt F) VO45_2.junk (kernelRun45 c i arg2 harg2 arg3 harg3 arg4 harg4 arg5 harg5 hfirst hlast xa xb).1)

/-- What the case leaves in the accumulator: its pieces read back over junk. -/
noncomputable def sout45_0 (c : Dev nD) (i : grid45.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond45_0 i) (hlast : cond45_1 i) (xa : Vec F S1024x512 .f32) (xb : Vec F S512x512 .bf16) : Vec F S1024x512 .f32 :=
  VS45_0.read (Elt F) (VS45_0.writes (Elt F) VS45_0.junk (kernelRun45 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout45_0_eq (c : Dev nD) (i : grid45.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond45_0 i) (hlast : cond45_1 i) (xa : Vec F S1024x512 .f32) (xb : Vec F S512x512 .bf16) :
    sout45_0 c i arg2 harg2 arg3 harg3 arg4 harg4 arg5 harg5 hfirst hlast xa xb = k45_pay2 xa xb (k45_pay1 (F := F)) := by
  unfold sout45_0
  rw [View.read_writes_junk_eq_canon]
  unfold kernelRun45
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out45_2_eq (c : Dev nD) (i : grid45.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond45_0 i) (hlast : cond45_1 i) (xa : Vec F S1024x512 .f32) (xb : Vec F S512x512 .bf16) :
    out45_2 c i arg2 harg2 arg3 harg3 arg4 harg4 arg5 harg5 hfirst hlast xa xb = k45_pay2 xa xb (k45_pay1 (F := F)) := by
  unfold out45_2
  rw [View.read_writes_junk_eq_canon]
  unfold kernelRun45
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt45 (c : Dev nD) (n : ℕ) (hn : n < cfg45.N) : Vec F S1024x512 .f32 × Vec F S1024x512 .f32 :=
  (out45_2 c (grid45.coords ⟨n, hn⟩) (ms45_0 ⟨n, hn⟩) (hs45_0 ⟨n, hn⟩) (ms45_1 ⟨n, hn⟩) (hs45_1 ⟨n, hn⟩) (ms45_2 ⟨n, hn⟩) (hs45_2 ⟨n, hn⟩) scM45_0 (Memref.isWhole_whole _)
      (hcond45_0 ⟨n, hn⟩) (hcond45_1 ⟨n, hn⟩) (iblk45 V c 0 ⟨n, hn⟩) (iblk45 V c 1 ⟨n, hn⟩),
   sout45_0 c (grid45.coords ⟨n, hn⟩) (ms45_0 ⟨n, hn⟩) (hs45_0 ⟨n, hn⟩) (ms45_1 ⟨n, hn⟩) (hs45_1 ⟨n, hn⟩) (ms45_2 ⟨n, hn⟩) (hs45_2 ⟨n, hn⟩) scM45_0 (Memref.isWhole_whole _)
      (hcond45_0 ⟨n, hn⟩) (hcond45_1 ⟨n, hn⟩) (iblk45 V c 0 ⟨n, hn⟩) (iblk45 V c 1 ⟨n, hn⟩))

/-- Every point is a first reduction step: the accumulator after it is one product onto zero. -/
theorem outsAt45_first (c : Dev nD) (t : Fin cfg45.N) :
    (outsAt45 V c t.val t.isLt).2 = k45_pay2 (iblk45 V c 0 t) (iblk45 V c 1 t) (k45_pay1 (F := F)) := by
  obtain ⟨n, hn⟩ := t
  unfold outsAt45
  dsimp only
  rw [sout45_0_eq]

/-- Every point is a last reduction step: the output block after it is the accumulator. -/
theorem outsAt45_last (c : Dev nD) (t : Fin cfg45.N) :
    (outsAt45 V c t.val t.isLt).1 = (outsAt45 V c t.val t.isLt).2 := by
  obtain ⟨n, hn⟩ := t
  unfold outsAt45
  dsimp only
  rw [out45_2_eq, sout45_0_eq]

/-! ## The pipeline's proof data -/

/-- The proof data of the pipeline on core `c`: the arrays as the region finds them; after the body at point `t` each input's
    buffer at its block and the output's at `outsAt45`'s first component; the invariant the same at every point; nothing owed;
    full shares. -/
noncomputable def dat45 (c : Dev nD) : Dat τ (Elt F) Unit ℕ (UR sig nD τ) ℕ cfg45 c where
  A w := V c (Pipeline.arrRef spec45 w)
  after w t := match w with
    | ⟨0, _⟩ => iblk45 V c 0 t
    | ⟨1, _⟩ => iblk45 V c 1 t
    | ⟨2, _⟩ => (outsAt45 V c t.val t.isLt).1
  Φ _ := Pipeline.ΦA spec45 c
  q _ := fullShare
  owed _ := 0

theorem A_eq45 (c : Dev nD) (w : Fin cfg45.W) : (dat45 V c).A w = V c (Pipeline.arrRef spec45 w) := by
  dsimp only [dat45]

theorem after45_0 (c : Dev nD) (t : Fin cfg45.N) : (dat45 V c).after 0 t = iblk45 V c 0 t := by dsimp only [dat45]
theorem after45_1 (c : Dev nD) (t : Fin cfg45.N) : (dat45 V c).after 1 t = iblk45 V c 1 t := by dsimp only [dat45]
theorem after45_2 (c : Dev nD) (t : Fin cfg45.N) : (dat45 V c).after 2 t = (outsAt45 V c t.val t.isLt).1 := by dsimp only [dat45]

/-- An input's current staging buffer holds its block at every point, fetched there or not: where it is not fetched its block
    index has not moved since the point before, and the body left the block in place. -/
theorem before45_0 (c : Dev nD) (t : Fin cfg45.N) (d) : (dat45 V c).before 0 t d = iblk45 V c 0 t :=
  ((dat45 V c).before_in_eq_fetched 0 rfl (fun _ => rfl) (fun _ _ _ => rfl)
      (fun t => by rw [after45_0]; unfold Dat.blockOf iblk45; rw [A_eq45]; try rfl) t d).trans
    (by unfold Dat.fetched Dat.blockOf iblk45; rw [A_eq45]; try rfl)
theorem before45_1 (c : Dev nD) (t : Fin cfg45.N) (d) : (dat45 V c).before 1 t d = iblk45 V c 1 t :=
  ((dat45 V c).before_in_eq_fetched 1 rfl (fun _ => rfl) (fun _ _ _ => rfl)
      (fun t => by rw [after45_1]; unfold Dat.blockOf iblk45; rw [A_eq45]; try rfl) t d).trans
    (by unfold Dat.fetched Dat.blockOf iblk45; rw [A_eq45]; try rfl)

/-! ## The body obligation, at a generic point -/

/-- What the body is called with at point `t`, the windows one by one, -/
noncomputable def bodyPre45 (c : Dev nD) (t : Fin cfg45.N) : sProp 𝕄 :=
  iprop((dat45 V c).Φ t.castSucc ∗ (dat45 V c).owesAt () t.castSucc
    ∗ (∃ d, owns (c : Thread nD τ) (ms45_0 t) fullShare ((dat45 V c).before 0 t d))
    ∗ (∃ d, owns (c : Thread nD τ) (ms45_1 t) fullShare ((dat45 V c).before 1 t d))
    ∗ (∃ d, owns (c : Thread nD τ) (ms45_2 t) fullShare ((dat45 V c).before 2 t d)))

/-- and what it returns. -/
noncomputable def bodyPost45 (c : Dev nD) (t : Fin cfg45.N) : sProp 𝕄 :=
  iprop((dat45 V c).Φ t.succ ∗ (dat45 V c).owesAt () t.succ
    ∗ (dat45 V c).leavesExact 0 t
    ∗ (dat45 V c).leavesExact 1 t
    ∗ (dat45 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body45 (c : Dev nD) (t : Fin cfg45.N) :
    bodyPre45 V c t ⊢ wp frame (wpE (defs₀ (F := F)) Variants.none c none) Set.univ (bodyAt45 t) (fun _ => bodyPost45 V c t) := by
  unfold bodyPre45 bodyPost45 bodyAt45
  simp only [before45_0, before45_1]
  rw [show (dat45 V c).owesAt () t.succ = (dat45 V c).owesAt () t.castSucc from rfl,
    show (dat45 V c).Φ t.succ = Pipeline.ΦA spec45 c from rfl, show (dat45 V c).Φ t.castSucc = Pipeline.ΦA spec45 c from rfl, PhiA45_eq]
  rw [show (dat45 V c).leavesExact 0 t = owns (c : Thread nD τ) (ms45_0 t) fullShare ((dat45 V c).after 0 t) from by
      unfold Dat.leavesExact; rw [liveAt45_0 t], after45_0]
  rw [show (dat45 V c).leavesExact 1 t = owns (c : Thread nD τ) (ms45_1 t) fullShare ((dat45 V c).after 1 t) from by
      unfold Dat.leavesExact; rw [liveAt45_1 t], after45_1]
  rw [show (dat45 V c).leavesExact 2 t = owns (c : Thread nD τ) (ms45_2 t) fullShare ((dat45 V c).after 2 t) from by
      unfold Dat.leavesExact; rw [liveAt45_2 t], after45_2]
  unfold outsAt45 out45_2; (try dsimp only)
  iintro ⟨⟨⟨Hacc, Hrest⟩, Hgen⟩, Howe, ⟨%da, Ha⟩, ⟨%db, Hb⟩, ⟨%dO, Hout⟩⟩
  iapply ((kernelRun45 c (grid45.coords t) _ _ _ _ _ _ _ _ (hcond45_0 t) (hcond45_1 t) (iblk45 V c 0 t) (iblk45 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover45_2 c _ _ _ _ _ _ _ _ _ _ _ _ _)

/-- The library's body obligation, at every point. -/
theorem body_obligation45 (c : Dev nD) : BodyObligation (dat45 (F := F) V c) (defs₀ (F := F)) Variants.none () Set.univ := fun t => by
  rw [bigSep_W45, bigSep_W45]
  exact sound_body45 V c t

/-- What the launch hands the region is the invariant before the first point, -/
theorem hin45 (c : Dev nD) : Pipeline.ΦA spec45 c ⊢ (dat45 V c).Φ 0 := Idealize.SL.BI.Entails.refl _

/-- and the invariant after the last point is what the launch takes back. -/
theorem hout45 (c : Dev nD) : (dat45 V c).Φ (Fin.last cfg45.N) ⊢ Pipeline.ΦA spec45 c := Idealize.SL.BI.Entails.refl _

end Cert.Kernel.Hand

end
-- ==== Proof.RegK46a.lean ====
/- Laid out by: python3 scratch/layout_regions.py --template-region 1 --region 46 --program Kernel --parts a,b,c, --out-dir proof/Proof
   from the hand-written text of region 1 (RegKI1a.lean): the same text, the region's number and the program's namespace substituted. -/
/-
  Region 46 of @main (custom_call 46): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond46_0 (i : grid46.Coords) : Prop := (Scalar.cmpi .ne (Scalar.extui (Scalar.cmpi .eq (BitVec.ofNat 32 (i 1).val) 0#32)) 0#32) = 1#1
/-- It holds exactly at the points with t % 4 = 0. -/
theorem hcond46_0 : ∀ t : Fin cfg46.N, cond46_0 (grid46.coords t) ↔ t.val % 4 = 0 :=
  (by decide +kernel : ∀ t : Fin grid46.N, cond46_0 (grid46.coords t) ↔ t.val % 4 = 0)

/-- "k = 3": the second conditional's test. -/
abbrev cond46_1 (i : grid46.Coords) : Prop := k46_cond2 i = 1#1
/-- It holds exactly at the points with t % 4 = 3. -/
theorem hcond46_1 : ∀ t : Fin cfg46.N, cond46_1 (grid46.coords t) ↔ t.val % 4 = 3 :=
  (by decide +kernel : ∀ t : Fin grid46.N, cond46_1 (grid46.coords t) ↔ t.val % 4 = 3)

/-! ## Where the windows are idle, and where the output is written back -/

/-- The two input windows are never idle. -/
theorem liveAt46_0 : ∀ t : Fin cfg46.N, cfg46.idle 0 (grid46.coords t) = false := by decide +kernel
theorem liveAt46_1 : ∀ t : Fin cfg46.N, cfg46.idle 1 (grid46.coords t) = false := by decide +kernel
/-- Where k ≠ 3 the output window is idle (the body stores nothing into it) and is not written back. -/
theorem idleAt46_2 : ∀ t : Fin cfg46.N, ¬cond46_1 (grid46.coords t) → cfg46.idle 2 (grid46.coords t) = true := by decide +kernel
theorem noFlush46_2 : ∀ t : Fin cfg46.N, ¬cond46_1 (grid46.coords t) → (cfg46.win 2).flush t = false := by decide +kernel
/-- Where k = 3 it is live. -/
theorem liveAt46_2 : ∀ t : Fin cfg46.N, cond46_1 (grid46.coords t) → cfg46.idle 2 (grid46.coords t) = false := by decide +kernel

/-! ## The staging memrefs at a point, and the scratch -/

/-- One staging buffer of the output window, through which its contents are stated. -/
abbrev VO46_2 : View sig .tc .vmem S1024x512 .f32 := (Memref.whole cc46_stg2_0 : Memref sig .tc .vmem S1024x512 .f32).view
abbrev ms46_0 (t : Fin cfg46.N) : Memref sig .tc .vmem S1024x1024 .bf16 := win46_0.stage (cfg46.slots t 0)
abbrev hs46_0 (t : Fin cfg46.N) : (ms46_0 t).IsWhole := hstage46_0 ((cfg46.slots t 0).cast nbuf46_0)
abbrev ms46_1 (t : Fin cfg46.N) : Memref sig .tc .vmem S1024x512 .f32 := win46_1.stage (cfg46.slots t 1)
abbrev hs46_1 (t : Fin cfg46.N) : (ms46_1 t).IsWhole := hstage46_1 ((cfg46.slots t 1).cast nbuf46_1)
abbrev ms46_2 (t : Fin cfg46.N) : Memref sig .tc .vmem S1024x512 .f32 := win46_2.stage (cfg46.slots t 2)
abbrev hs46_2 (t : Fin cfg46.N) : (ms46_2 t).IsWhole := hstage46_2 ((cfg46.slots t 2).cast nbuf46_2)
/-- The accumulator: a whole scoped buffer of the kernel's own. -/
abbrev scM46 : Memref sig .tc .vmem S1024x512 .f32 := Memref.whole cc46_scratch0
abbrev VS46 : View sig .tc .vmem S1024x512 .f32 := scM46.view

/-- The other scoped buffers of the core, none of which this region touches. -/
abbrev restBut46 (c : Dev nD) : sProp 𝕄 :=
  Pipeline.scopedRestBut (Ix := Unit) (Name := ℕ) (U := UR sig nD τ) (Lvl := ℕ) (Val := Elt F) spec46 c [cc46_scratch0]

/-- The region's invariant before its first point: the accumulator at something, the other scoped buffers, the generator register. -/
theorem PhiA46_eq (c : Dev nD) :
    (Pipeline.ΦA spec46 c : sProp 𝕄)
      = iprop(iprop((∃ d, owns (c : Thread nD τ) scM46 fullShare d) ∗ restBut46 c) ∗ (∃ r, prngReg c r)) := by
  unfold Pipeline.ΦA; rw [scopedRest46_split]; simp only [scM46, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun46_A (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond46_0 i) (hc1 : ¬cond46_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc46__matmul_kernel i arg2 harg2 arg3 harg3 arg4 harg4 arg5 harg5) K } := by
  refine ⟨[], ?_, fun xi2 E K => ?run⟩
  case run =>
    simp only [cc46__matmul_kernel_eq_skeleton]; unfold cc46__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK46b.lean ====
/- Laid out by: python3 scratch/layout_regions.py --template-region 1 --region 46 --program Kernel --parts a,b,c, --out-dir proof/Proof
   from the hand-written text of region 1 (RegKI1b.lean): the same text, the region's number and the program's namespace substituted. -/
/-
  Region 46, case B (k = 1, 2): the body's run. Neither conditional is taken: the product of the two blocks is added to what
  the point before left in the accumulator; the output block is not touched.
-/
import proofs.«158944_j64613488001249_1_alg».proof.Proof.RegK46a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun46_B (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond46_0 i) (hc1 : ¬cond46_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc46__matmul_kernel i arg2 harg2 arg3 harg3 arg4 harg4 arg5 harg5) K } := by
  refine ⟨[], ?_, fun xi2 E K => ?run⟩
  case run =>
    simp only [cc46__matmul_kernel_eq_skeleton]; unfold cc46__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK46c.lean ====
/- Laid out by: python3 scratch/layout_regions.py --template-region 1 --region 46 --program Kernel --parts a,b,c, --out-dir proof/Proof
   from the hand-written text of region 1 (RegKI1c.lean): the same text, the region's number and the program's namespace substituted. -/
/-
  Region 46, case C (k = 3): the body's run. The product is added to the accumulator as in case B, and then the second
  conditional copies the accumulator over the whole output block.
-/
import proofs.«158944_j64613488001249_1_alg».proof.Proof.RegK46b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun46_C (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond46_0 i) (hc1 : cond46_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc46__matmul_kernel i arg2 harg2 arg3 harg3 arg4 harg4 arg5 harg5) K } := by
  refine ⟨?_, ?_, fun E K => ?run⟩
  case run =>
    simp only [cc46__matmul_kernel_eq_skeleton]; unfold cc46__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK46.lean ====
/- Laid out by: python3 scratch/layout_regions.py --template-region 1 --region 46 --program Kernel --parts a,b,c, --out-dir proof/Proof
   from the hand-written text of region 1 (RegKI1.lean): the same text, the region's number and the program's namespace substituted. -/
/-
  Region 46 of @main, entered from the buffer contents `V`: what its windows' blocks are, what each case of the body leaves in
  the accumulator and in the output block, the accumulator and the output block point by point (`outsAt46`: at k = 0 the
  accumulator restarts from zeros plus the product; at k = 1, 2, 3 it is the point before's plus the product; at k = 3 the
  output block is the accumulator), the region's invariant (the accumulator at `outsAt46`'s second component), the proof data,
  and the body's obligation at every point.
-/
import proofs.«158944_j64613488001249_1_alg».proof.Proof.RegK46c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk46 (c : Dev nD) (w : Fin cfg46.W) (t : Fin cfg46.N) : ((cfg46.win w).xblock (cfg46.grid.coords t)).Idx → Elt F (cfg46.win w).elt :=
  ((cfg46.win w).blk t).view.read (Elt F) (V c (Pipeline.arrRef spec46 w))

/-- An input window's current staging buffer holds its block at every point, for any proof data whose array is `V`'s and
    whose body leaves the block in place. -/
theorem before46_0_of {c : Dev nD} (dat : Dat τ (Elt F) Unit ℕ (UR sig nD τ) ℕ cfg46 c) (hA : dat.A 0 = V c (Pipeline.arrRef spec46 0))
    (hafter : ∀ t, dat.after 0 t = iblk46 V c 0 t) (t : Fin cfg46.N) (d) : dat.before 0 t d = iblk46 V c 0 t :=
  (dat.before_in_eq_fetched 0 rfl (fun _ => rfl) (fun _ _ _ => rfl) (fun t => by rw [hafter]; unfold Dat.blockOf iblk46; rw [hA]; try rfl) t d).trans
    (by unfold Dat.fetched Dat.blockOf iblk46; rw [hA]; try rfl)
theorem before46_1_of {c : Dev nD} (dat : Dat τ (Elt F) Unit ℕ (UR sig nD τ) ℕ cfg46 c) (hA : dat.A 1 = V c (Pipeline.arrRef spec46 1))
    (hafter : ∀ t, dat.after 1 t = iblk46 V c 1 t) (t : Fin cfg46.N) (d) : dat.before 1 t d = iblk46 V c 1 t :=
  (dat.before_in_eq_fetched 1 rfl (fun _ => rfl) (fun _ _ _ => rfl) (fun t => by rw [hafter]; unfold Dat.blockOf iblk46; rw [hA]; try rfl) t d).trans
    (by unfold Dat.fetched Dat.blockOf iblk46; rw [hA]; try rfl)

/-! ## What each case leaves -/

/-- Case A's stores into the accumulator cover it. -/
theorem scover46_A (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond46_0 i) (hc1 : ¬cond46_1 i)
    (x0 : Vec F S1024x1024 .bf16) (x1 : Vec F S1024x512 .f32) (y : S1024x512.Idx) :
    ∃ pc ∈ (kernelRun46_A c i arg2 harg2 arg3 harg3 arg4 harg4 arg5 harg5 hc0 hc1 x0 x1).2.1, y ∈ pc.1.set :=
  View.cover_of_tiledL (kernelRun46_A c i arg2 harg2 arg3 harg3 arg4 harg4 arg5 harg5 hc0 hc1 x0 x1).2.1 S1024x512.size (by sl_kernel_rfl) y
/-- What case A leaves in the accumulator. -/
noncomputable def sout46_A (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond46_0 i) (hc1 : ¬cond46_1 i)
    (x0 : Vec F S1024x1024 .bf16) (x1 : Vec F S1024x512 .f32) : Vec F S1024x512 .f32 :=
  VS46.read (Elt F) (VS46.writes (Elt F) VS46.junk (kernelRun46_A c i arg2 harg2 arg3 harg3 arg4 harg4 arg5 harg5 hc0 hc1 x0 x1).2.1)

/-- Case B's store into the accumulator covers it. -/
theorem scover46_B (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond46_0 i) (hc1 : ¬cond46_1 i)
    (x0 : Vec F S1024x1024 .bf16) (x1 : Vec F S1024x512 .f32) (xs0 : Vec F S1024x512 .f32) (y : S1024x512.Idx) :
    ∃ pc ∈ (kernelRun46_B c i arg2 harg2 arg3 harg3 arg4 harg4 arg5 harg5 hc0 hc1 x0 x1 xs0).2.1, y ∈ pc.1.set :=
  View.cover_of_tiledL (kernelRun46_B c i arg2 harg2 arg3 harg3 arg4 harg4 arg5 harg5 hc0 hc1 x0 x1 xs0).2.1 S1024x512.size (by sl_kernel_rfl) y
/-- What case B leaves in the accumulator, over what the point before left. -/
noncomputable def sout46_B (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond46_0 i) (hc1 : ¬cond46_1 i)
    (x0 : Vec F S1024x1024 .bf16) (x1 : Vec F S1024x512 .f32) (xs0 : Vec F S1024x512 .f32) : Vec F S1024x512 .f32 :=
  VS46.read (Elt F) (VS46.writes (Elt F) VS46.junk (kernelRun46_B c i arg2 harg2 arg3 harg3 arg4 harg4 arg5 harg5 hc0 hc1 x0 x1 xs0).2.1)

/-- Case C's store into the output block covers it, and so does its store into the accumulator. -/
theorem cover46_C (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond46_0 i) (hc1 : cond46_1 i)
    (x0 : Vec F S1024x1024 .bf16) (x1 : Vec F S1024x512 .f32) (xs0 : Vec F S1024x512 .f32) (y : S1024x512.Idx) :
    ∃ pc ∈ (kernelRun46_C c i arg2 harg2 arg3 harg3 arg4 harg4 arg5 harg5 hc0 hc1 x0 x1 xs0).1, y ∈ pc.1.set :=
  View.cover_of_tiledL (kernelRun46_C c i arg2 harg2 arg3 harg3 arg4 harg4 arg5 harg5 hc0 hc1 x0 x1 xs0).1 S1024x512.size (by sl_kernel_rfl) y
theorem scover46_C (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond46_0 i) (hc1 : cond46_1 i)
    (x0 : Vec F S1024x1024 .bf16) (x1 : Vec F S1024x512 .f32) (xs0 : Vec F S1024x512 .f32) (y : S1024x512.Idx) :
    ∃ pc ∈ (kernelRun46_C c i arg2 harg2 arg3 harg3 arg4 harg4 arg5 harg5 hc0 hc1 x0 x1 xs0).2.1, y ∈ pc.1.set :=
  View.cover_of_tiledL (kernelRun46_C c i arg2 harg2 arg3 harg3 arg4 harg4 arg5 harg5 hc0 hc1 x0 x1 xs0).2.1 S1024x512.size (by sl_kernel_rfl) y
/-- What case C leaves in the output block, and in the accumulator. -/
noncomputable def out46_C (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond46_0 i) (hc1 : cond46_1 i)
    (x0 : Vec F S1024x1024 .bf16) (x1 : Vec F S1024x512 .f32) (xs0 : Vec F S1024x512 .f32) : Vec F S1024x512 .f32 :=
  VO46_2.read (Elt F) (VO46_2.writes (Elt F) VO46_2.junk (kernelRun46_C c i arg2 harg2 arg3 harg3 arg4 harg4 arg5 harg5 hc0 hc1 x0 x1 xs0).1)
noncomputable def sout46_C (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond46_0 i) (hc1 : cond46_1 i)
    (x0 : Vec F S1024x1024 .bf16) (x1 : Vec F S1024x512 .f32) (xs0 : Vec F S1024x512 .f32) : Vec F S1024x512 .f32 :=
  VS46.read (Elt F) (VS46.writes (Elt F) VS46.junk (kernelRun46_C c i arg2 harg2 arg3 harg3 arg4 harg4 arg5 harg5 hc0 hc1 x0 x1 xs0).2.1)

/-- Where the output block is idle nothing consults what it holds: a placeholder. -/
noncomputable def outIdle46 : Vec F S1024x512 .f32 := VO46_2.read (Elt F) (VO46_2.writes (Elt F) VO46_2.junk [])

/-! ## The conditions at a point, from t % 4 -/

theorem isFirst46 (t : Fin cfg46.N) (h : t.val % 4 = 0) : cond46_0 (grid46.coords t) := (hcond46_0 t).mpr h
theorem notFirst46 (t : Fin cfg46.N) (h : ¬t.val % 4 = 0) : ¬cond46_0 (grid46.coords t) := fun hc => h ((hcond46_0 t).mp hc)
theorem isLast46 (t : Fin cfg46.N) (h : t.val % 4 = 3) : cond46_1 (grid46.coords t) := (hcond46_1 t).mpr h
theorem notLast46 (t : Fin cfg46.N) (h : ¬t.val % 4 = 3) : ¬cond46_1 (grid46.coords t) := fun hc => h ((hcond46_1 t).mp hc)

/-! ## The accumulator and the output block, point by point -/

/-- After the body at position `n`: (the output block's buffer, the accumulator). -/
noncomputable def outsAt46 (c : Dev nD) : (n : ℕ) → n < cfg46.N → Vec F S1024x512 .f32 × Vec F S1024x512 .f32
  | 0, hn => (outIdle46, sout46_A c (grid46.coords ⟨0, hn⟩) (ms46_0 ⟨0, hn⟩) (hs46_0 ⟨0, hn⟩) (ms46_1 ⟨0, hn⟩) (hs46_1 ⟨0, hn⟩) (ms46_2 ⟨0, hn⟩) (hs46_2 ⟨0, hn⟩) scM46 (Memref.isWhole_whole _) (isFirst46 ⟨0, hn⟩ (Nat.zero_mod _)) (notLast46 ⟨0, hn⟩ (by simp)) (iblk46 V c 0 ⟨0, hn⟩) (iblk46 V c 1 ⟨0, hn⟩))
  | n + 1, hn =>
    if h0 : (n + 1) % 4 = 0 then
      (outIdle46, sout46_A c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) scM46 (Memref.isWhole_whole _) (isFirst46 ⟨n + 1, hn⟩ h0) (notLast46 ⟨n + 1, hn⟩ (by show ¬(n + 1) % 4 = 3; omega)) (iblk46 V c 0 ⟨n + 1, hn⟩) (iblk46 V c 1 ⟨n + 1, hn⟩))
    else if h3 : (n + 1) % 4 = 3 then
      (out46_C c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) scM46 (Memref.isWhole_whole _) (notFirst46 ⟨n + 1, hn⟩ h0) (isLast46 ⟨n + 1, hn⟩ h3) (iblk46 V c 0 ⟨n + 1, hn⟩) (iblk46 V c 1 ⟨n + 1, hn⟩) (outsAt46 c n (Nat.lt_of_succ_lt hn)).2,
       sout46_C c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) scM46 (Memref.isWhole_whole _) (notFirst46 ⟨n + 1, hn⟩ h0) (isLast46 ⟨n + 1, hn⟩ h3) (iblk46 V c 0 ⟨n + 1, hn⟩) (iblk46 V c 1 ⟨n + 1, hn⟩) (outsAt46 c n (Nat.lt_of_succ_lt hn)).2)
    else
      (outIdle46, sout46_B c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) scM46 (Memref.isWhole_whole _) (notFirst46 ⟨n + 1, hn⟩ h0) (notLast46 ⟨n + 1, hn⟩ h3) (iblk46 V c 0 ⟨n + 1, hn⟩) (iblk46 V c 1 ⟨n + 1, hn⟩) (outsAt46 c n (Nat.lt_of_succ_lt hn)).2)

/-- `outsAt46` at a point with k = 0. -/
theorem outsAt46_A (c : Dev nD) (t : Fin cfg46.N) (h0 : t.val % 4 = 0) :
    outsAt46 V c t.val t.isLt = (outIdle46, sout46_A c (grid46.coords t) (ms46_0 t) (hs46_0 t) (ms46_1 t) (hs46_1 t) (ms46_2 t) (hs46_2 t) scM46 (Memref.isWhole_whole _) (isFirst46 t h0) (notLast46 t (by omega)) (iblk46 V c 0 t) (iblk46 V c 1 t)) := by
  obtain ⟨n, hn⟩ := t
  cases n with
  | zero => rfl
  | succ n => exact (dif_pos h0).trans rfl

/-- `outsAt46` at a point with k = 1, 2: over what the point before left. -/
theorem outsAt46_B (c : Dev nD) (t : Fin cfg46.N) (h0 : ¬t.val % 4 = 0) (h3 : ¬t.val % 4 = 3) :
    outsAt46 V c t.val t.isLt = (outIdle46, sout46_B c (grid46.coords t) (ms46_0 t) (hs46_0 t) (ms46_1 t) (hs46_1 t) (ms46_2 t) (hs46_2 t) scM46 (Memref.isWhole_whole _) (notFirst46 t h0) (notLast46 t h3) (iblk46 V c 0 t) (iblk46 V c 1 t)
      (outsAt46 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt46` at a point with k = 3. -/
theorem outsAt46_C (c : Dev nD) (t : Fin cfg46.N) (h0 : ¬t.val % 4 = 0) (h3 : t.val % 4 = 3) :
    outsAt46 V c t.val t.isLt = (out46_C c (grid46.coords t) (ms46_0 t) (hs46_0 t) (ms46_1 t) (hs46_1 t) (ms46_2 t) (hs46_2 t) scM46 (Memref.isWhole_whole _) (notFirst46 t h0) (isLast46 t h3) (iblk46 V c 0 t) (iblk46 V c 1 t)
        (outsAt46 V c (t.val - 1) (Nat.lt_of_le_of_lt (Nat.sub_le _ _) t.isLt)).2,
      sout46_C c (grid46.coords t) (ms46_0 t) (hs46_0 t) (ms46_1 t) (hs46_1 t) (ms46_2 t) (hs46_2 t) scM46 (Memref.isWhole_whole _) (notFirst46 t h0) (isLast46 t h3) (iblk46 V c 0 t) (iblk46 V c 1 t)
        (outsAt46 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS46 (c : Dev nD) : (n : ℕ) → n ≤ cfg46.N → sProp 𝕄
  | 0, _ => Pipeline.ΦA spec46 c
  | n + 1, hn => iprop(iprop(owns (c : Thread nD τ) scM46 fullShare ((outsAt46 V c n hn).2) ∗ restBut46 c) ∗ (∃ r, prngReg c r))

theorem PhiS46_zero (c : Dev nD) (n : ℕ) (h : n ≤ cfg46.N) (hz : n = 0) : PhiS46 V c n h = Pipeline.ΦA spec46 c := by
  subst hz; rfl
theorem PhiS46_succ (c : Dev nD) (n : ℕ) (hn : n < cfg46.N) :
    PhiS46 V c (n + 1) hn = iprop(iprop(owns (c : Thread nD τ) scM46 fullShare ((outsAt46 V c n hn).2) ∗ restBut46 c) ∗ (∃ r, prngReg c r)) := rfl
theorem PhiS46_pos (c : Dev nD) (n : ℕ) (h : n ≤ cfg46.N) (hz : n ≠ 0) :
    PhiS46 V c n h = iprop(iprop(owns (c : Thread nD τ) scM46 fullShare ((outsAt46 V c (n - 1) (by omega)).2) ∗ restBut46 c) ∗ (∃ r, prngReg c r)) := by
  cases n with
  | zero => exact absurd rfl hz
  | succ n => rfl

/-! ## The proof data -/

/-- The region's proof data on core `c`: the arrays as the region finds them; after the body at point `t` each input's
    buffer at its block and the output's at `outsAt46`'s first component; the invariant `PhiS46`; nothing owed; full shares. -/
noncomputable def dat46 (c : Dev nD) : Dat τ (Elt F) Unit ℕ (UR sig nD τ) ℕ cfg46 c where
  A w := V c (Pipeline.arrRef spec46 w)
  after w t := match w with
    | ⟨0, _⟩ => iblk46 V c 0 t
    | ⟨1, _⟩ => iblk46 V c 1 t
    | ⟨2, _⟩ => (outsAt46 V c t.val t.isLt).1
  Φ t := PhiS46 V c t.val (Nat.le_of_lt_succ t.isLt)
  q _ := fullShare
  owed _ := 0

theorem A_eq46 (c : Dev nD) (w : Fin cfg46.W) : (dat46 V c).A w = V c (Pipeline.arrRef spec46 w) := by
  dsimp only [dat46]
theorem PhiS46_castSucc (c : Dev nD) (t : Fin cfg46.N) :
    (dat46 V c).Φ t.castSucc = PhiS46 V c t.val (Nat.le_of_lt t.isLt) := by
  dsimp only [dat46]; simp only [Fin.coe_castSucc]
theorem after46_0 (c : Dev nD) (t : Fin cfg46.N) : (dat46 V c).after 0 t = iblk46 V c 0 t := by dsimp only [dat46]
theorem after46_1 (c : Dev nD) (t : Fin cfg46.N) : (dat46 V c).after 1 t = iblk46 V c 1 t := by dsimp only [dat46]
theorem after46_2 (c : Dev nD) (t : Fin cfg46.N) : (dat46 V c).after 2 t = (outsAt46 V c t.val t.isLt).1 := by dsimp only [dat46]
theorem before46_0 (c : Dev nD) (t : Fin cfg46.N) (d) : (dat46 V c).before 0 t d = iblk46 V c 0 t :=
  before46_0_of V (dat46 V c) (A_eq46 V c 0) (after46_0 V c) t d
theorem before46_1 (c : Dev nD) (t : Fin cfg46.N) (d) : (dat46 V c).before 1 t d = iblk46 V c 1 t :=
  before46_1_of V (dat46 V c) (A_eq46 V c 1) (after46_1 V c) t d

/-! ## The body's obligation -/

noncomputable def bodyPre46 (c : Dev nD) (t : Fin cfg46.N) : sProp 𝕄 :=
  iprop((dat46 V c).Φ t.castSucc ∗ (dat46 V c).owesAt () t.castSucc
    ∗ (∃ d, owns (c : Thread nD τ) (ms46_0 t) fullShare ((dat46 V c).before 0 t d))
    ∗ (∃ d, owns (c : Thread nD τ) (ms46_1 t) fullShare ((dat46 V c).before 1 t d))
    ∗ (∃ d, owns (c : Thread nD τ) (ms46_2 t) fullShare ((dat46 V c).before 2 t d)))

noncomputable def bodyPost46 (c : Dev nD) (t : Fin cfg46.N) : sProp 𝕄 :=
  iprop((dat46 V c).Φ t.succ ∗ (dat46 V c).owesAt () t.succ
    ∗ (dat46 V c).leavesExact 0 t
    ∗ (dat46 V c).leavesExact 1 t
    ∗ (dat46 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body46 (c : Dev nD) (t : Fin cfg46.N) :
    bodyPre46 V c t ⊢ wp frame (wpE (defs₀ (F := F)) Variants.none c none) Set.univ (bodyAt46 t) (fun _ => bodyPost46 V c t) := by
  unfold bodyPre46 bodyPost46 bodyAt46
  simp only [before46_0, before46_1]
  rw [show (dat46 V c).owesAt () t.succ = (dat46 V c).owesAt () t.castSucc from rfl]
  rw [show (dat46 V c).Φ t.succ = PhiS46 V c (t.val + 1) t.isLt from rfl, PhiS46_succ]
  rw [show (dat46 V c).leavesExact 0 t = owns (c : Thread nD τ) (ms46_0 t) fullShare ((dat46 V c).after 0 t) from by
    unfold Dat.leavesExact; rw [liveAt46_0 t], after46_0]
  rw [show (dat46 V c).leavesExact 1 t = owns (c : Thread nD τ) (ms46_1 t) fullShare ((dat46 V c).after 1 t) from by
    unfold Dat.leavesExact; rw [liveAt46_1 t], after46_1]
  by_cases h0 : t.val % 4 = 0
  · have h3 : ¬t.val % 4 = 3 := by omega
    rw [Dat.leavesExact_idle (dat46 V c) 2 t (idleAt46_2 t (notLast46 t h3)) (noFlush46_2 t (notLast46 t h3))]
    rw [outsAt46_A V c t h0]
    unfold sout46_A; (try dsimp only)
    by_cases hz : t.val = 0
    · rw [PhiS46_castSucc V c t, PhiS46_zero V c _ _ hz, PhiA46_eq]
      iintro ⟨⟨⟨HS0, Hrb⟩, Hg⟩, Ho, ⟨%d0, H0⟩, ⟨%d1, H1⟩, ⟨%d2, H2⟩⟩
      iapply ((kernelRun46_A c (grid46.coords t) _ _ _ _ _ _ _ _ (isFirst46 t h0) (notLast46 t (by omega)) (iblk46 V c 0 t) (iblk46 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover46_A c _ _ _ _ _ _ _ _ _ _ _ _ _)
          iexact Hrb
        iexact Hg
      isplitl [Ho]; · iexact Ho
      isplitl [H0]; · iexact H0
      isplitl [H1]; · iexact H1
      iexists _; iexact H2
    · rw [PhiS46_castSucc V c t, PhiS46_pos V c _ _ hz]
      iintro ⟨⟨⟨HS0, Hrb⟩, Hg⟩, Ho, ⟨%d0, H0⟩, ⟨%d1, H1⟩, ⟨%d2, H2⟩⟩
      iapply ((kernelRun46_A c (grid46.coords t) _ _ _ _ _ _ _ _ (isFirst46 t h0) (notLast46 t (by omega)) (iblk46 V c 0 t) (iblk46 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover46_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat46 V c).leavesExact 2 t = owns (c : Thread nD τ) (ms46_2 t) fullShare ((dat46 V c).after 2 t) from by
        unfold Dat.leavesExact; rw [liveAt46_2 t (isLast46 t h3)], after46_2]
      rw [outsAt46_C V c t h0 h3]
      unfold out46_C sout46_C; (try dsimp only)
      rw [PhiS46_castSucc V c t, PhiS46_pos V c _ _ hz]
      iintro ⟨⟨⟨HS0, Hrb⟩, Hg⟩, Ho, ⟨%d0, H0⟩, ⟨%d1, H1⟩, ⟨%d2, H2⟩⟩
      iapply ((kernelRun46_C c (grid46.coords t) _ _ _ _ _ _ _ _ (notFirst46 t h0) (isLast46 t h3) (iblk46 V c 0 t) (iblk46 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover46_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover46_C c _ _ _ _ _ _ _ _ _ _ _ _ _ _)
    · rw [Dat.leavesExact_idle (dat46 V c) 2 t (idleAt46_2 t (notLast46 t h3)) (noFlush46_2 t (notLast46 t h3))]
      rw [outsAt46_B V c t h0 h3]
      unfold sout46_B; (try dsimp only)
      rw [PhiS46_castSucc V c t, PhiS46_pos V c _ _ hz]
      iintro ⟨⟨⟨HS0, Hrb⟩, Hg⟩, Ho, ⟨%d0, H0⟩, ⟨%d1, H1⟩, ⟨%d2, H2⟩⟩
      iapply ((kernelRun46_B c (grid46.coords t) _ _ _ _ _ _ _ _ (notFirst46 t h0) (notLast46 t h3) (iblk46 V c 0 t) (iblk46 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover46_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation46 (c : Dev nD) : BodyObligation (dat46 (F := F) V c) (defs₀ (F := F)) Variants.none () Set.univ := fun t => by
  rw [bigSep_W46, bigSep_W46]
  exact sound_body46 V c t

/-- What the region is entered with is the invariant before the first point. -/
theorem hin46 (c : Dev nD) : Pipeline.ΦA spec46 c ⊢ (dat46 V c).Φ 0 := by
  rw [show (dat46 V c).Φ 0 = PhiS46 V c 0 (Nat.zero_le _) from rfl, PhiS46_zero V c 0 _ rfl]
  try exact Idealize.SL.BI.Entails.refl _

/-- After the last point the invariant gives the class's back: the accumulator's contents are forgotten. -/
theorem hout46 (c : Dev nD) : (dat46 V c).Φ (Fin.last cfg46.N) ⊢ Pipeline.ΦA spec46 c := by
  have hN : cfg46.N = 16 := N_46
  rw [show (dat46 V c).Φ (Fin.last cfg46.N) = PhiS46 V c (Fin.last cfg46.N).val (Nat.le_of_lt_succ (Fin.last cfg46.N).isLt) from rfl,
    PhiS46_pos V c _ _ (by rw [Fin.val_last]; omega), PhiA46_eq]
  iintro ⟨⟨HS0, Hrb⟩, Hg⟩
  isplitl [HS0 Hrb]
  · isplitl [HS0]
    · iexists _; iexact HS0
    iexact Hrb
  iexact Hg

end Cert.Kernel.Hand

end
-- ==== Proof.RegK47a.lean ====
/- Laid out by: python3 scratch/layout_regions.py --template-region 1 --region 47 --program Kernel --parts a,b,c, --out-dir proof/Proof
   from the hand-written text of region 1 (RegKI1a.lean): the same text, the region's number and the program's namespace substituted. -/
/-
  Region 47 of @main (custom_call 47): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond47_0 (i : grid47.Coords) : Prop := (Scalar.cmpi .ne (Scalar.extui (Scalar.cmpi .eq (BitVec.ofNat 32 (i 1).val) 0#32)) 0#32) = 1#1
/-- It holds exactly at the points with t % 4 = 0. -/
theorem hcond47_0 : ∀ t : Fin cfg47.N, cond47_0 (grid47.coords t) ↔ t.val % 4 = 0 :=
  (by decide +kernel : ∀ t : Fin grid47.N, cond47_0 (grid47.coords t) ↔ t.val % 4 = 0)

/-- "k = 3": the second conditional's test. -/
abbrev cond47_1 (i : grid47.Coords) : Prop := k47_cond2 i = 1#1
/-- It holds exactly at the points with t % 4 = 3. -/
theorem hcond47_1 : ∀ t : Fin cfg47.N, cond47_1 (grid47.coords t) ↔ t.val % 4 = 3 :=
  (by decide +kernel : ∀ t : Fin grid47.N, cond47_1 (grid47.coords t) ↔ t.val % 4 = 3)

/-! ## Where the windows are idle, and where the output is written back -/

/-- The two input windows are never idle. -/
theorem liveAt47_0 : ∀ t : Fin cfg47.N, cfg47.idle 0 (grid47.coords t) = false := by decide +kernel
theorem liveAt47_1 : ∀ t : Fin cfg47.N, cfg47.idle 1 (grid47.coords t) = false := by decide +kernel
/-- Where k ≠ 3 the output window is idle (the body stores nothing into it) and is not written back. -/
theorem idleAt47_2 : ∀ t : Fin cfg47.N, ¬cond47_1 (grid47.coords t) → cfg47.idle 2 (grid47.coords t) = true := by decide +kernel
theorem noFlush47_2 : ∀ t : Fin cfg47.N, ¬cond47_1 (grid47.coords t) → (cfg47.win 2).flush t = false := by decide +kernel
/-- Where k = 3 it is live. -/
theorem liveAt47_2 : ∀ t : Fin cfg47.N, cond47_1 (grid47.coords t) → cfg47.idle 2 (grid47.coords t) = false := by decide +kernel

/-! ## The staging memrefs at a point, and the scratch -/

/-- One staging buffer of the output window, through which its contents are stated. -/
abbrev VO47_2 : View sig .tc .vmem S1024x512 .f32 := (Memref.whole cc47_stg2_0 : Memref sig .tc .vmem S1024x512 .f32).view
abbrev ms47_0 (t : Fin cfg47.N) : Memref sig .tc .vmem S1024x1024 .bf16 := win47_0.stage (cfg47.slots t 0)
abbrev hs47_0 (t : Fin cfg47.N) : (ms47_0 t).IsWhole := hstage47_0 ((cfg47.slots t 0).cast nbuf47_0)
abbrev ms47_1 (t : Fin cfg47.N) : Memref sig .tc .vmem S1024x512 .f32 := win47_1.stage (cfg47.slots t 1)
abbrev hs47_1 (t : Fin cfg47.N) : (ms47_1 t).IsWhole := hstage47_1 ((cfg47.slots t 1).cast nbuf47_1)
abbrev ms47_2 (t : Fin cfg47.N) : Memref sig .tc .vmem S1024x512 .f32 := win47_2.stage (cfg47.slots t 2)
abbrev hs47_2 (t : Fin cfg47.N) : (ms47_2 t).IsWhole := hstage47_2 ((cfg47.slots t 2).cast nbuf47_2)
/-- The accumulator: a whole scoped buffer of the kernel's own. -/
abbrev scM47 : Memref sig .tc .vmem S1024x512 .f32 := Memref.whole cc47_scratch0
abbrev VS47 : View sig .tc .vmem S1024x512 .f32 := scM47.view

/-- The other scoped buffers of the core, none of which this region touches. -/
abbrev restBut47 (c : Dev nD) : sProp 𝕄 :=
  Pipeline.scopedRestBut (Ix := Unit) (Name := ℕ) (U := UR sig nD τ) (Lvl := ℕ) (Val := Elt F) spec47 c [cc47_scratch0]

/-- The region's invariant before its first point: the accumulator at something, the other scoped buffers, the generator register. -/
theorem PhiA47_eq (c : Dev nD) :
    (Pipeline.ΦA spec47 c : sProp 𝕄)
      = iprop(iprop((∃ d, owns (c : Thread nD τ) scM47 fullShare d) ∗ restBut47 c) ∗ (∃ r, prngReg c r)) := by
  unfold Pipeline.ΦA; rw [scopedRest47_split]; simp only [scM47, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun47_A (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond47_0 i) (hc1 : ¬cond47_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc47__matmul_kernel i arg2 harg2 arg3 harg3 arg4 harg4 arg5 harg5) K } := by
  refine ⟨[], ?_, fun xi2 E K => ?run⟩
  case run =>
    simp only [cc47__matmul_kernel_eq_skeleton]; unfold cc47__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK47b.lean ====
/- Laid out by: python3 scratch/layout_regions.py --template-region 1 --region 47 --program Kernel --parts a,b,c, --out-dir proof/Proof
   from the hand-written text of region 1 (RegKI1b.lean): the same text, the region's number and the program's namespace substituted. -/
/-
  Region 47, case B (k = 1, 2): the body's run. Neither conditional is taken: the product of the two blocks is added to what
  the point before left in the accumulator; the output block is not touched.
-/
import proofs.«158944_j64613488001249_1_alg».proof.Proof.RegK47a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun47_B (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond47_0 i) (hc1 : ¬cond47_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc47__matmul_kernel i arg2 harg2 arg3 harg3 arg4 harg4 arg5 harg5) K } := by
  refine ⟨[], ?_, fun xi2 E K => ?run⟩
  case run =>
    simp only [cc47__matmul_kernel_eq_skeleton]; unfold cc47__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK47c.lean ====
/- Laid out by: python3 scratch/layout_regions.py --template-region 1 --region 47 --program Kernel --parts a,b,c, --out-dir proof/Proof
   from the hand-written text of region 1 (RegKI1c.lean): the same text, the region's number and the program's namespace substituted. -/
/-
  Region 47, case C (k = 3): the body's run. The product is added to the accumulator as in case B, and then the second
  conditional copies the accumulator over the whole output block.
-/
import proofs.«158944_j64613488001249_1_alg».proof.Proof.RegK47b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun47_C (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond47_0 i) (hc1 : cond47_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc47__matmul_kernel i arg2 harg2 arg3 harg3 arg4 harg4 arg5 harg5) K } := by
  refine ⟨?_, ?_, fun E K => ?run⟩
  case run =>
    simp only [cc47__matmul_kernel_eq_skeleton]; unfold cc47__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK47.lean ====
/- Laid out by: python3 scratch/layout_regions.py --template-region 1 --region 47 --program Kernel --parts a,b,c, --out-dir proof/Proof
   from the hand-written text of region 1 (RegKI1.lean): the same text, the region's number and the program's namespace substituted. -/
/-
  Region 47 of @main, entered from the buffer contents `V`: what its windows' blocks are, what each case of the body leaves in
  the accumulator and in the output block, the accumulator and the output block point by point (`outsAt47`: at k = 0 the
  accumulator restarts from zeros plus the product; at k = 1, 2, 3 it is the point before's plus the product; at k = 3 the
  output block is the accumulator), the region's invariant (the accumulator at `outsAt47`'s second component), the proof data,
  and the body's obligation at every point.
-/
import proofs.«158944_j64613488001249_1_alg».proof.Proof.RegK47c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk47 (c : Dev nD) (w : Fin cfg47.W) (t : Fin cfg47.N) : ((cfg47.win w).xblock (cfg47.grid.coords t)).Idx → Elt F (cfg47.win w).elt :=
  ((cfg47.win w).blk t).view.read (Elt F) (V c (Pipeline.arrRef spec47 w))

/-- An input window's current staging buffer holds its block at every point, for any proof data whose array is `V`'s and
    whose body leaves the block in place. -/
theorem before47_0_of {c : Dev nD} (dat : Dat τ (Elt F) Unit ℕ (UR sig nD τ) ℕ cfg47 c) (hA : dat.A 0 = V c (Pipeline.arrRef spec47 0))
    (hafter : ∀ t, dat.after 0 t = iblk47 V c 0 t) (t : Fin cfg47.N) (d) : dat.before 0 t d = iblk47 V c 0 t :=
  (dat.before_in_eq_fetched 0 rfl (fun _ => rfl) (fun _ _ _ => rfl) (fun t => by rw [hafter]; unfold Dat.blockOf iblk47; rw [hA]; try rfl) t d).trans
    (by unfold Dat.fetched Dat.blockOf iblk47; rw [hA]; try rfl)
theorem before47_1_of {c : Dev nD} (dat : Dat τ (Elt F) Unit ℕ (UR sig nD τ) ℕ cfg47 c) (hA : dat.A 1 = V c (Pipeline.arrRef spec47 1))
    (hafter : ∀ t, dat.after 1 t = iblk47 V c 1 t) (t : Fin cfg47.N) (d) : dat.before 1 t d = iblk47 V c 1 t :=
  (dat.before_in_eq_fetched 1 rfl (fun _ => rfl) (fun _ _ _ => rfl) (fun t => by rw [hafter]; unfold Dat.blockOf iblk47; rw [hA]; try rfl) t d).trans
    (by unfold Dat.fetched Dat.blockOf iblk47; rw [hA]; try rfl)

/-! ## What each case leaves -/

/-- Case A's stores into the accumulator cover it. -/
theorem scover47_A (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond47_0 i) (hc1 : ¬cond47_1 i)
    (x0 : Vec F S1024x1024 .bf16) (x1 : Vec F S1024x512 .f32) (y : S1024x512.Idx) :
    ∃ pc ∈ (kernelRun47_A c i arg2 harg2 arg3 harg3 arg4 harg4 arg5 harg5 hc0 hc1 x0 x1).2.1, y ∈ pc.1.set :=
  View.cover_of_tiledL (kernelRun47_A c i arg2 harg2 arg3 harg3 arg4 harg4 arg5 harg5 hc0 hc1 x0 x1).2.1 S1024x512.size (by sl_kernel_rfl) y
/-- What case A leaves in the accumulator. -/
noncomputable def sout47_A (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond47_0 i) (hc1 : ¬cond47_1 i)
    (x0 : Vec F S1024x1024 .bf16) (x1 : Vec F S1024x512 .f32) : Vec F S1024x512 .f32 :=
  VS47.read (Elt F) (VS47.writes (Elt F) VS47.junk (kernelRun47_A c i arg2 harg2 arg3 harg3 arg4 harg4 arg5 harg5 hc0 hc1 x0 x1).2.1)

/-- Case B's store into the accumulator covers it. -/
theorem scover47_B (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond47_0 i) (hc1 : ¬cond47_1 i)
    (x0 : Vec F S1024x1024 .bf16) (x1 : Vec F S1024x512 .f32) (xs0 : Vec F S1024x512 .f32) (y : S1024x512.Idx) :
    ∃ pc ∈ (kernelRun47_B c i arg2 harg2 arg3 harg3 arg4 harg4 arg5 harg5 hc0 hc1 x0 x1 xs0).2.1, y ∈ pc.1.set :=
  View.cover_of_tiledL (kernelRun47_B c i arg2 harg2 arg3 harg3 arg4 harg4 arg5 harg5 hc0 hc1 x0 x1 xs0).2.1 S1024x512.size (by sl_kernel_rfl) y
/-- What case B leaves in the accumulator, over what the point before left. -/
noncomputable def sout47_B (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond47_0 i) (hc1 : ¬cond47_1 i)
    (x0 : Vec F S1024x1024 .bf16) (x1 : Vec F S1024x512 .f32) (xs0 : Vec F S1024x512 .f32) : Vec F S1024x512 .f32 :=
  VS47.read (Elt F) (VS47.writes (Elt F) VS47.junk (kernelRun47_B c i arg2 harg2 arg3 harg3 arg4 harg4 arg5 harg5 hc0 hc1 x0 x1 xs0).2.1)

/-- Case C's store into the output block covers it, and so does its store into the accumulator. -/
theorem cover47_C (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond47_0 i) (hc1 : cond47_1 i)
    (x0 : Vec F S1024x1024 .bf16) (x1 : Vec F S1024x512 .f32) (xs0 : Vec F S1024x512 .f32) (y : S1024x512.Idx) :
    ∃ pc ∈ (kernelRun47_C c i arg2 harg2 arg3 harg3 arg4 harg4 arg5 harg5 hc0 hc1 x0 x1 xs0).1, y ∈ pc.1.set :=
  View.cover_of_tiledL (kernelRun47_C c i arg2 harg2 arg3 harg3 arg4 harg4 arg5 harg5 hc0 hc1 x0 x1 xs0).1 S1024x512.size (by sl_kernel_rfl) y
theorem scover47_C (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond47_0 i) (hc1 : cond47_1 i)
    (x0 : Vec F S1024x1024 .bf16) (x1 : Vec F S1024x512 .f32) (xs0 : Vec F S1024x512 .f32) (y : S1024x512.Idx) :
    ∃ pc ∈ (kernelRun47_C c i arg2 harg2 arg3 harg3 arg4 harg4 arg5 harg5 hc0 hc1 x0 x1 xs0).2.1, y ∈ pc.1.set :=
  View.cover_of_tiledL (kernelRun47_C c i arg2 harg2 arg3 harg3 arg4 harg4 arg5 harg5 hc0 hc1 x0 x1 xs0).2.1 S1024x512.size (by sl_kernel_rfl) y
/-- What case C leaves in the output block, and in the accumulator. -/
noncomputable def out47_C (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond47_0 i) (hc1 : cond47_1 i)
    (x0 : Vec F S1024x1024 .bf16) (x1 : Vec F S1024x512 .f32) (xs0 : Vec F S1024x512 .f32) : Vec F S1024x512 .f32 :=
  VO47_2.read (Elt F) (VO47_2.writes (Elt F) VO47_2.junk (kernelRun47_C c i arg2 harg2 arg3 harg3 arg4 harg4 arg5 harg5 hc0 hc1 x0 x1 xs0).1)
noncomputable def sout47_C (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond47_0 i) (hc1 : cond47_1 i)
    (x0 : Vec F S1024x1024 .bf16) (x1 : Vec F S1024x512 .f32) (xs0 : Vec F S1024x512 .f32) : Vec F S1024x512 .f32 :=
  VS47.read (Elt F) (VS47.writes (Elt F) VS47.junk (kernelRun47_C c i arg2 harg2 arg3 harg3 arg4 harg4 arg5 harg5 hc0 hc1 x0 x1 xs0).2.1)

/-- Where the output block is idle nothing consults what it holds: a placeholder. -/
noncomputable def outIdle47 : Vec F S1024x512 .f32 := VO47_2.read (Elt F) (VO47_2.writes (Elt F) VO47_2.junk [])

/-! ## The conditions at a point, from t % 4 -/

theorem isFirst47 (t : Fin cfg47.N) (h : t.val % 4 = 0) : cond47_0 (grid47.coords t) := (hcond47_0 t).mpr h
theorem notFirst47 (t : Fin cfg47.N) (h : ¬t.val % 4 = 0) : ¬cond47_0 (grid47.coords t) := fun hc => h ((hcond47_0 t).mp hc)
theorem isLast47 (t : Fin cfg47.N) (h : t.val % 4 = 3) : cond47_1 (grid47.coords t) := (hcond47_1 t).mpr h
theorem notLast47 (t : Fin cfg47.N) (h : ¬t.val % 4 = 3) : ¬cond47_1 (grid47.coords t) := fun hc => h ((hcond47_1 t).mp hc)

/-! ## The accumulator and the output block, point by point -/

/-- After the body at position `n`: (the output block's buffer, the accumulator). -/
noncomputable def outsAt47 (c : Dev nD) : (n : ℕ) → n < cfg47.N → Vec F S1024x512 .f32 × Vec F S1024x512 .f32
  | 0, hn => (outIdle47, sout47_A c (grid47.coords ⟨0, hn⟩) (ms47_0 ⟨0, hn⟩) (hs47_0 ⟨0, hn⟩) (ms47_1 ⟨0, hn⟩) (hs47_1 ⟨0, hn⟩) (ms47_2 ⟨0, hn⟩) (hs47_2 ⟨0, hn⟩) scM47 (Memref.isWhole_whole _) (isFirst47 ⟨0, hn⟩ (Nat.zero_mod _)) (notLast47 ⟨0, hn⟩ (by simp)) (iblk47 V c 0 ⟨0, hn⟩) (iblk47 V c 1 ⟨0, hn⟩))
  | n + 1, hn =>
    if h0 : (n + 1) % 4 = 0 then
      (outIdle47, sout47_A c (grid47.coords ⟨n + 1, hn⟩) (ms47_0 ⟨n + 1, hn⟩) (hs47_0 ⟨n + 1, hn⟩) (ms47_1 ⟨n + 1, hn⟩) (hs47_1 ⟨n + 1, hn⟩) (ms47_2 ⟨n + 1, hn⟩) (hs47_2 ⟨n + 1, hn⟩) scM47 (Memref.isWhole_whole _) (isFirst47 ⟨n + 1, hn⟩ h0) (notLast47 ⟨n + 1, hn⟩ (by show ¬(n + 1) % 4 = 3; omega)) (iblk47 V c 0 ⟨n + 1, hn⟩) (iblk47 V c 1 ⟨n + 1, hn⟩))
    else if h3 : (n + 1) % 4 = 3 then
      (out47_C c (grid47.coords ⟨n + 1, hn⟩) (ms47_0 ⟨n + 1, hn⟩) (hs47_0 ⟨n + 1, hn⟩) (ms47_1 ⟨n + 1, hn⟩) (hs47_1 ⟨n + 1, hn⟩) (ms47_2 ⟨n + 1, hn⟩) (hs47_2 ⟨n + 1, hn⟩) scM47 (Memref.isWhole_whole _) (notFirst47 ⟨n + 1, hn⟩ h0) (isLast47 ⟨n + 1, hn⟩ h3) (iblk47 V c 0 ⟨n + 1, hn⟩) (iblk47 V c 1 ⟨n + 1, hn⟩) (outsAt47 c n (Nat.lt_of_succ_lt hn)).2,
       sout47_C c (grid47.coords ⟨n + 1, hn⟩) (ms47_0 ⟨n + 1, hn⟩) (hs47_0 ⟨n + 1, hn⟩) (ms47_1 ⟨n + 1, hn⟩) (hs47_1 ⟨n + 1, hn⟩) (ms47_2 ⟨n + 1, hn⟩) (hs47_2 ⟨n + 1, hn⟩) scM47 (Memref.isWhole_whole _) (notFirst47 ⟨n + 1, hn⟩ h0) (isLast47 ⟨n + 1, hn⟩ h3) (iblk47 V c 0 ⟨n + 1, hn⟩) (iblk47 V c 1 ⟨n + 1, hn⟩) (outsAt47 c n (Nat.lt_of_succ_lt hn)).2)
    else
      (outIdle47, sout47_B c (grid47.coords ⟨n + 1, hn⟩) (ms47_0 ⟨n + 1, hn⟩) (hs47_0 ⟨n + 1, hn⟩) (ms47_1 ⟨n + 1, hn⟩) (hs47_1 ⟨n + 1, hn⟩) (ms47_2 ⟨n + 1, hn⟩) (hs47_2 ⟨n + 1, hn⟩) scM47 (Memref.isWhole_whole _) (notFirst47 ⟨n + 1, hn⟩ h0) (notLast47 ⟨n + 1, hn⟩ h3) (iblk47 V c 0 ⟨n + 1, hn⟩) (iblk47 V c 1 ⟨n + 1, hn⟩) (outsAt47 c n (Nat.lt_of_succ_lt hn)).2)

/-- `outsAt47` at a point with k = 0. -/
theorem outsAt47_A (c : Dev nD) (t : Fin cfg47.N) (h0 : t.val % 4 = 0) :
    outsAt47 V c t.val t.isLt = (outIdle47, sout47_A c (grid47.coords t) (ms47_0 t) (hs47_0 t) (ms47_1 t) (hs47_1 t) (ms47_2 t) (hs47_2 t) scM47 (Memref.isWhole_whole _) (isFirst47 t h0) (notLast47 t (by omega)) (iblk47 V c 0 t) (iblk47 V c 1 t)) := by
  obtain ⟨n, hn⟩ := t
  cases n with
  | zero => rfl
  | succ n => exact (dif_pos h0).trans rfl

/-- `outsAt47` at a point with k = 1, 2: over what the point before left. -/
theorem outsAt47_B (c : Dev nD) (t : Fin cfg47.N) (h0 : ¬t.val % 4 = 0) (h3 : ¬t.val % 4 = 3) :
    outsAt47 V c t.val t.isLt = (outIdle47, sout47_B c (grid47.coords t) (ms47_0 t) (hs47_0 t) (ms47_1 t) (hs47_1 t) (ms47_2 t) (hs47_2 t) scM47 (Memref.isWhole_whole _) (notFirst47 t h0) (notLast47 t h3) (iblk47 V c 0 t) (iblk47 V c 1 t)
      (outsAt47 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt47` at a point with k = 3. -/
theorem outsAt47_C (c : Dev nD) (t : Fin cfg47.N) (h0 : ¬t.val % 4 = 0) (h3 : t.val % 4 = 3) :
    outsAt47 V c t.val t.isLt = (out47_C c (grid47.coords t) (ms47_0 t) (hs47_0 t) (ms47_1 t) (hs47_1 t) (ms47_2 t) (hs47_2 t) scM47 (Memref.isWhole_whole _) (notFirst47 t h0) (isLast47 t h3) (iblk47 V c 0 t) (iblk47 V c 1 t)
        (outsAt47 V c (t.val - 1) (Nat.lt_of_le_of_lt (Nat.sub_le _ _) t.isLt)).2,
      sout47_C c (grid47.coords t) (ms47_0 t) (hs47_0 t) (ms47_1 t) (hs47_1 t) (ms47_2 t) (hs47_2 t) scM47 (Memref.isWhole_whole _) (notFirst47 t h0) (isLast47 t h3) (iblk47 V c 0 t) (iblk47 V c 1 t)
        (outsAt47 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS47 (c : Dev nD) : (n : ℕ) → n ≤ cfg47.N → sProp 𝕄
  | 0, _ => Pipeline.ΦA spec47 c
  | n + 1, hn => iprop(iprop(owns (c : Thread nD τ) scM47 fullShare ((outsAt47 V c n hn).2) ∗ restBut47 c) ∗ (∃ r, prngReg c r))

theorem PhiS47_zero (c : Dev nD) (n : ℕ) (h : n ≤ cfg47.N) (hz : n = 0) : PhiS47 V c n h = Pipeline.ΦA spec47 c := by
  subst hz; rfl
theorem PhiS47_succ (c : Dev nD) (n : ℕ) (hn : n < cfg47.N) :
    PhiS47 V c (n + 1) hn = iprop(iprop(owns (c : Thread nD τ) scM47 fullShare ((outsAt47 V c n hn).2) ∗ restBut47 c) ∗ (∃ r, prngReg c r)) := rfl
theorem PhiS47_pos (c : Dev nD) (n : ℕ) (h : n ≤ cfg47.N) (hz : n ≠ 0) :
    PhiS47 V c n h = iprop(iprop(owns (c : Thread nD τ) scM47 fullShare ((outsAt47 V c (n - 1) (by omega)).2) ∗ restBut47 c) ∗ (∃ r, prngReg c r)) := by
  cases n with
  | zero => exact absurd rfl hz
  | succ n => rfl

/-! ## The proof data -/

/-- The region's proof data on core `c`: the arrays as the region finds them; after the body at point `t` each input's
    buffer at its block and the output's at `outsAt47`'s first component; the invariant `PhiS47`; nothing owed; full shares. -/
noncomputable def dat47 (c : Dev nD) : Dat τ (Elt F) Unit ℕ (UR sig nD τ) ℕ cfg47 c where
  A w := V c (Pipeline.arrRef spec47 w)
  after w t := match w with
    | ⟨0, _⟩ => iblk47 V c 0 t
    | ⟨1, _⟩ => iblk47 V c 1 t
    | ⟨2, _⟩ => (outsAt47 V c t.val t.isLt).1
  Φ t := PhiS47 V c t.val (Nat.le_of_lt_succ t.isLt)
  q _ := fullShare
  owed _ := 0

theorem A_eq47 (c : Dev nD) (w : Fin cfg47.W) : (dat47 V c).A w = V c (Pipeline.arrRef spec47 w) := by
  dsimp only [dat47]
theorem PhiS47_castSucc (c : Dev nD) (t : Fin cfg47.N) :
    (dat47 V c).Φ t.castSucc = PhiS47 V c t.val (Nat.le_of_lt t.isLt) := by
  dsimp only [dat47]; simp only [Fin.coe_castSucc]
theorem after47_0 (c : Dev nD) (t : Fin cfg47.N) : (dat47 V c).after 0 t = iblk47 V c 0 t := by dsimp only [dat47]
theorem after47_1 (c : Dev nD) (t : Fin cfg47.N) : (dat47 V c).after 1 t = iblk47 V c 1 t := by dsimp only [dat47]
theorem after47_2 (c : Dev nD) (t : Fin cfg47.N) : (dat47 V c).after 2 t = (outsAt47 V c t.val t.isLt).1 := by dsimp only [dat47]
theorem before47_0 (c : Dev nD) (t : Fin cfg47.N) (d) : (dat47 V c).before 0 t d = iblk47 V c 0 t :=
  before47_0_of V (dat47 V c) (A_eq47 V c 0) (after47_0 V c) t d
theorem before47_1 (c : Dev nD) (t : Fin cfg47.N) (d) : (dat47 V c).before 1 t d = iblk47 V c 1 t :=
  before47_1_of V (dat47 V c) (A_eq47 V c 1) (after47_1 V c) t d

/-! ## The body's obligation -/

noncomputable def bodyPre47 (c : Dev nD) (t : Fin cfg47.N) : sProp 𝕄 :=
  iprop((dat47 V c).Φ t.castSucc ∗ (dat47 V c).owesAt () t.castSucc
    ∗ (∃ d, owns (c : Thread nD τ) (ms47_0 t) fullShare ((dat47 V c).before 0 t d))
    ∗ (∃ d, owns (c : Thread nD τ) (ms47_1 t) fullShare ((dat47 V c).before 1 t d))
    ∗ (∃ d, owns (c : Thread nD τ) (ms47_2 t) fullShare ((dat47 V c).before 2 t d)))

noncomputable def bodyPost47 (c : Dev nD) (t : Fin cfg47.N) : sProp 𝕄 :=
  iprop((dat47 V c).Φ t.succ ∗ (dat47 V c).owesAt () t.succ
    ∗ (dat47 V c).leavesExact 0 t
    ∗ (dat47 V c).leavesExact 1 t
    ∗ (dat47 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body47 (c : Dev nD) (t : Fin cfg47.N) :
    bodyPre47 V c t ⊢ wp frame (wpE (defs₀ (F := F)) Variants.none c none) Set.univ (bodyAt47 t) (fun _ => bodyPost47 V c t) := by
  unfold bodyPre47 bodyPost47 bodyAt47
  simp only [before47_0, before47_1]
  rw [show (dat47 V c).owesAt () t.succ = (dat47 V c).owesAt () t.castSucc from rfl]
  rw [show (dat47 V c).Φ t.succ = PhiS47 V c (t.val + 1) t.isLt from rfl, PhiS47_succ]
  rw [show (dat47 V c).leavesExact 0 t = owns (c : Thread nD τ) (ms47_0 t) fullShare ((dat47 V c).after 0 t) from by
    unfold Dat.leavesExact; rw [liveAt47_0 t], after47_0]
  rw [show (dat47 V c).leavesExact 1 t = owns (c : Thread nD τ) (ms47_1 t) fullShare ((dat47 V c).after 1 t) from by
    unfold Dat.leavesExact; rw [liveAt47_1 t], after47_1]
  by_cases h0 : t.val % 4 = 0
  · have h3 : ¬t.val % 4 = 3 := by omega
    rw [Dat.leavesExact_idle (dat47 V c) 2 t (idleAt47_2 t (notLast47 t h3)) (noFlush47_2 t (notLast47 t h3))]
    rw [outsAt47_A V c t h0]
    unfold sout47_A; (try dsimp only)
    by_cases hz : t.val = 0
    · rw [PhiS47_castSucc V c t, PhiS47_zero V c _ _ hz, PhiA47_eq]
      iintro ⟨⟨⟨HS0, Hrb⟩, Hg⟩, Ho, ⟨%d0, H0⟩, ⟨%d1, H1⟩, ⟨%d2, H2⟩⟩
      iapply ((kernelRun47_A c (grid47.coords t) _ _ _ _ _ _ _ _ (isFirst47 t h0) (notLast47 t (by omega)) (iblk47 V c 0 t) (iblk47 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover47_A c _ _ _ _ _ _ _ _ _ _ _ _ _)
          iexact Hrb
        iexact Hg
      isplitl [Ho]; · iexact Ho
      isplitl [H0]; · iexact H0
      isplitl [H1]; · iexact H1
      iexists _; iexact H2
    · rw [PhiS47_castSucc V c t, PhiS47_pos V c _ _ hz]
      iintro ⟨⟨⟨HS0, Hrb⟩, Hg⟩, Ho, ⟨%d0, H0⟩, ⟨%d1, H1⟩, ⟨%d2, H2⟩⟩
      iapply ((kernelRun47_A c (grid47.coords t) _ _ _ _ _ _ _ _ (isFirst47 t h0) (notLast47 t (by omega)) (iblk47 V c 0 t) (iblk47 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover47_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat47 V c).leavesExact 2 t = owns (c : Thread nD τ) (ms47_2 t) fullShare ((dat47 V c).after 2 t) from by
        unfold Dat.leavesExact; rw [liveAt47_2 t (isLast47 t h3)], after47_2]
      rw [outsAt47_C V c t h0 h3]
      unfold out47_C sout47_C; (try dsimp only)
      rw [PhiS47_castSucc V c t, PhiS47_pos V c _ _ hz]
      iintro ⟨⟨⟨HS0, Hrb⟩, Hg⟩, Ho, ⟨%d0, H0⟩, ⟨%d1, H1⟩, ⟨%d2, H2⟩⟩
      iapply ((kernelRun47_C c (grid47.coords t) _ _ _ _ _ _ _ _ (notFirst47 t h0) (isLast47 t h3) (iblk47 V c 0 t) (iblk47 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover47_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover47_C c _ _ _ _ _ _ _ _ _ _ _ _ _ _)
    · rw [Dat.leavesExact_idle (dat47 V c) 2 t (idleAt47_2 t (notLast47 t h3)) (noFlush47_2 t (notLast47 t h3))]
      rw [outsAt47_B V c t h0 h3]
      unfold sout47_B; (try dsimp only)
      rw [PhiS47_castSucc V c t, PhiS47_pos V c _ _ hz]
      iintro ⟨⟨⟨HS0, Hrb⟩, Hg⟩, Ho, ⟨%d0, H0⟩, ⟨%d1, H1⟩, ⟨%d2, H2⟩⟩
      iapply ((kernelRun47_B c (grid47.coords t) _ _ _ _ _ _ _ _ (notFirst47 t h0) (notLast47 t h3) (iblk47 V c 0 t) (iblk47 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover47_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation47 (c : Dev nD) : BodyObligation (dat47 (F := F) V c) (defs₀ (F := F)) Variants.none () Set.univ := fun t => by
  rw [bigSep_W47, bigSep_W47]
  exact sound_body47 V c t

/-- What the region is entered with is the invariant before the first point. -/
theorem hin47 (c : Dev nD) : Pipeline.ΦA spec47 c ⊢ (dat47 V c).Φ 0 := by
  rw [show (dat47 V c).Φ 0 = PhiS47 V c 0 (Nat.zero_le _) from rfl, PhiS47_zero V c 0 _ rfl]
  try exact Idealize.SL.BI.Entails.refl _

/-- After the last point the invariant gives the class's back: the accumulator's contents are forgotten. -/
theorem hout47 (c : Dev nD) : (dat47 V c).Φ (Fin.last cfg47.N) ⊢ Pipeline.ΦA spec47 c := by
  have hN : cfg47.N = 16 := N_47
  rw [show (dat47 V c).Φ (Fin.last cfg47.N) = PhiS47 V c (Fin.last cfg47.N).val (Nat.le_of_lt_succ (Fin.last cfg47.N).isLt) from rfl,
    PhiS47_pos V c _ _ (by rw [Fin.val_last]; omega), PhiA47_eq]
  iintro ⟨⟨HS0, Hrb⟩, Hg⟩
  isplitl [HS0 Hrb]
  · isplitl [HS0]
    · iexists _; iexact HS0
    iexact Hrb
  iexact Hg

end Cert.Kernel.Hand

end
-- ==== Proof.RegK48a.lean ====
/- Laid out by: python3 scratch/layout_grid41.py --template-region 0 --region 48 --program Kernel --parts a, --shapes S1024x128=S1024x512,S128x512=S512x512
   from the hand-written text of region 0 (RegKI0a.lean): the same text, the region's number, block shapes and the program's namespace substituted. -/
/- The region of Kernel's @main that runs `cc48__matmul_kernel` (pipeline `cfg48`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond48_0 (i : grid48.Coords) : Prop :=
  (Scalar.cmpi .ne (Scalar.extui (Scalar.cmpi .eq (BitVec.ofNat 32 (i 1).val) 0#32)) 0#32) = 1#1
/-- True at every point: the reduction axis has one step. -/
theorem hcond48_0 : ∀ t : Fin cfg48.N, cond48_0 (grid48.coords t) :=
  (by decide +kernel : ∀ t : Fin grid48.N, cond48_0 (grid48.coords t))

/-- "This is the last reduction step" (the guard of the copy to the output block). -/
abbrev cond48_1 (i : grid48.Coords) : Prop := k48_cond2 i = 1#1
/-- True at every point, for the same reason. -/
theorem hcond48_1 : ∀ t : Fin cfg48.N, cond48_1 (grid48.coords t) :=
  (by decide +kernel : ∀ t : Fin grid48.N, cond48_1 (grid48.coords t))

/-! ## No window is idle anywhere -/

theorem liveAt48_0 : ∀ t : Fin cfg48.N, cfg48.idle 0 (grid48.coords t) = false := by decide +kernel
theorem liveAt48_1 : ∀ t : Fin cfg48.N, cfg48.idle 1 (grid48.coords t) = false := by decide +kernel
/-- The output window is stored at every point (the copy's guard holds everywhere). -/
theorem liveAt48_2 : ∀ t : Fin cfg48.N, cfg48.idle 2 (grid48.coords t) = false := by decide +kernel

/-! ## The memrefs the body is called on -/

/-- One staging buffer of the output window, through which its contents are stated (any whole view of the shape reads the
    same pieces back the same way). -/
abbrev VO48_2 : View sig .tc .vmem S1024x512 .f32 := (Memref.whole cc48_stg2_0 : Memref sig .tc .vmem S1024x512 .f32).view
/-- Each window's current staging memref at point `t`, spelt as the pipeline passes it, with its wholeness. -/
abbrev ms48_0 (t : Fin cfg48.N) : Memref sig .tc .vmem S1024x512 .f32 := win48_0.stage (cfg48.slots t 0)
abbrev hs48_0 (t : Fin cfg48.N) : (ms48_0 t).IsWhole := hstage48_0 ((cfg48.slots t 0).cast nbuf48_0)
abbrev ms48_1 (t : Fin cfg48.N) : Memref sig .tc .vmem S512x512 .bf16 := win48_1.stage (cfg48.slots t 1)
abbrev hs48_1 (t : Fin cfg48.N) : (ms48_1 t).IsWhole := hstage48_1 ((cfg48.slots t 1).cast nbuf48_1)
abbrev ms48_2 (t : Fin cfg48.N) : Memref sig .tc .vmem S1024x512 .f32 := win48_2.stage (cfg48.slots t 2)
abbrev hs48_2 (t : Fin cfg48.N) : (ms48_2 t).IsWhole := hstage48_2 ((cfg48.slots t 2).cast nbuf48_2)
/-- The accumulator: a whole scoped buffer of the kernel's own, passed beside the windows. -/
abbrev scM48_0 : Memref sig .tc .vmem S1024x512 .f32 := Memref.whole cc48_scratch0
abbrev VS48_0 : View sig .tc .vmem S1024x512 .f32 := scM48_0.view

/-- The region invariant with the accumulator taken out of the scoped rest: the accumulator owned at some contents, every
    other scoped buffer unopened, and the generator register. -/
theorem PhiA48_eq (c : Dev nD) :
    (Pipeline.ΦA spec48 c : sProp 𝕄)
      = iprop(iprop(iprop((∃ d, owns (c : Thread nD τ) scM48_0 fullShare d))
            ∗ Pipeline.scopedRestBut (Ix := Unit) (Name := ℕ) (U := UR sig nD τ) (Lvl := ℕ) (Val := Elt F) spec48 c [cc48_scratch0])
          ∗ (∃ r, prngReg c r)) := by
  unfold Pipeline.ΦA; rw [scopedRest48_split]; simp only [scM48_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun48 (c : Dev nD) (i : grid48.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond48_0 i) (hlast : cond48_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc48__matmul_kernel i arg2 harg2 arg3 harg3 arg4 harg4 arg5 harg5) K } := by
  refine ⟨?_, ?_, fun E K => ?run⟩
  case run =>
    simp only [cc48__matmul_kernel_eq_skeleton]; unfold cc48__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.Kernel.Hand

end
-- ==== Proof.RegK48.lean ====
/- Laid out by: python3 scratch/layout_grid41.py --template-region 0 --region 48 --program Kernel --parts a, --shapes S1024x128=S1024x512,S128x512=S512x512
   from the hand-written text of region 0 (RegKI0.lean): the same text, the region's number, block shapes and the program's namespace substituted. -/
/- The region of Kernel's @main that runs `cc48__matmul_kernel` (pipeline `cfg48`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegK48a
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk48 (c : Dev nD) (w : Fin cfg48.W) (t : Fin cfg48.N) : ((cfg48.win w).xblock (cfg48.grid.coords t)).Idx → Elt F (cfg48.win w).elt :=
  ((cfg48.win w).blk t).view.read (Elt F) (V c (Pipeline.arrRef spec48 w))

/-! ## What the case leaves, as pieces read back -/

/-- The output's pieces tile its block (one whole-block store). -/
theorem cover48_2 (c : Dev nD) (i : grid48.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond48_0 i) (hlast : cond48_1 i) (xa : Vec F S1024x512 .f32) (xb : Vec F S512x512 .bf16) (y : S1024x512.Idx) :
    ∃ pc ∈ (kernelRun48 c i arg2 harg2 arg3 harg3 arg4 harg4 arg5 harg5 hfirst hlast xa xb).1, y ∈ pc.1.set :=
  View.cover_of_tiledL (kernelRun48 c i arg2 harg2 arg3 harg3 arg4 harg4 arg5 harg5 hfirst hlast xa xb).1 S1024x512.size (by sl_kernel_rfl) y

/-- What the case leaves in the output's staging buffer: its pieces read back over junk. -/
noncomputable def out48_2 (c : Dev nD) (i : grid48.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond48_0 i) (hlast : cond48_1 i) (xa : Vec F S1024x512 .f32) (xb : Vec F S512x512 .bf16) : Vec F S1024x512 .f32 :=
  VO48_2.read (Elt F) (VO48_2.writes (Elt F) VO48_2.junk (kernelRun48 c i arg2 harg2 arg3 harg3 arg4 harg4 arg5 harg5 hfirst hlast xa xb).1)

/-- What the case leaves in the accumulator: its pieces read back over junk. -/
noncomputable def sout48_0 (c : Dev nD) (i : grid48.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond48_0 i) (hlast : cond48_1 i) (xa : Vec F S1024x512 .f32) (xb : Vec F S512x512 .bf16) : Vec F S1024x512 .f32 :=
  VS48_0.read (Elt F) (VS48_0.writes (Elt F) VS48_0.junk (kernelRun48 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout48_0_eq (c : Dev nD) (i : grid48.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond48_0 i) (hlast : cond48_1 i) (xa : Vec F S1024x512 .f32) (xb : Vec F S512x512 .bf16) :
    sout48_0 c i arg2 harg2 arg3 harg3 arg4 harg4 arg5 harg5 hfirst hlast xa xb = k48_pay2 xa xb (k48_pay1 (F := F)) := by
  unfold sout48_0
  rw [View.read_writes_junk_eq_canon]
  unfold kernelRun48
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out48_2_eq (c : Dev nD) (i : grid48.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond48_0 i) (hlast : cond48_1 i) (xa : Vec F S1024x512 .f32) (xb : Vec F S512x512 .bf16) :
    out48_2 c i arg2 harg2 arg3 harg3 arg4 harg4 arg5 harg5 hfirst hlast xa xb = k48_pay2 xa xb (k48_pay1 (F := F)) := by
  unfold out48_2
  rw [View.read_writes_junk_eq_canon]
  unfold kernelRun48
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt48 (c : Dev nD) (n : ℕ) (hn : n < cfg48.N) : Vec F S1024x512 .f32 × Vec F S1024x512 .f32 :=
  (out48_2 c (grid48.coords ⟨n, hn⟩) (ms48_0 ⟨n, hn⟩) (hs48_0 ⟨n, hn⟩) (ms48_1 ⟨n, hn⟩) (hs48_1 ⟨n, hn⟩) (ms48_2 ⟨n, hn⟩) (hs48_2 ⟨n, hn⟩) scM48_0 (Memref.isWhole_whole _)
      (hcond48_0 ⟨n, hn⟩) (hcond48_1 ⟨n, hn⟩) (iblk48 V c 0 ⟨n, hn⟩) (iblk48 V c 1 ⟨n, hn⟩),
   sout48_0 c (grid48.coords ⟨n, hn⟩) (ms48_0 ⟨n, hn⟩) (hs48_0 ⟨n, hn⟩) (ms48_1 ⟨n, hn⟩) (hs48_1 ⟨n, hn⟩) (ms48_2 ⟨n, hn⟩) (hs48_2 ⟨n, hn⟩) scM48_0 (Memref.isWhole_whole _)
      (hcond48_0 ⟨n, hn⟩) (hcond48_1 ⟨n, hn⟩) (iblk48 V c 0 ⟨n, hn⟩) (iblk48 V c 1 ⟨n, hn⟩))

/-- Every point is a first reduction step: the accumulator after it is one product onto zero. -/
theorem outsAt48_first (c : Dev nD) (t : Fin cfg48.N) :
    (outsAt48 V c t.val t.isLt).2 = k48_pay2 (iblk48 V c 0 t) (iblk48 V c 1 t) (k48_pay1 (F := F)) := by
  obtain ⟨n, hn⟩ := t
  unfold outsAt48
  dsimp only
  rw [sout48_0_eq]

/-- Every point is a last reduction step: the output block after it is the accumulator. -/
theorem outsAt48_last (c : Dev nD) (t : Fin cfg48.N) :
    (outsAt48 V c t.val t.isLt).1 = (outsAt48 V c t.val t.isLt).2 := by
  obtain ⟨n, hn⟩ := t
  unfold outsAt48
  dsimp only
  rw [out48_2_eq, sout48_0_eq]

/-! ## The pipeline's proof data -/

/-- The proof data of the pipeline on core `c`: the arrays as the region finds them; after the body at point `t` each input's
    buffer at its block and the output's at `outsAt48`'s first component; the invariant the same at every point; nothing owed;
    full shares. -/
noncomputable def dat48 (c : Dev nD) : Dat τ (Elt F) Unit ℕ (UR sig nD τ) ℕ cfg48 c where
  A w := V c (Pipeline.arrRef spec48 w)
  after w t := match w with
    | ⟨0, _⟩ => iblk48 V c 0 t
    | ⟨1, _⟩ => iblk48 V c 1 t
    | ⟨2, _⟩ => (outsAt48 V c t.val t.isLt).1
  Φ _ := Pipeline.ΦA spec48 c
  q _ := fullShare
  owed _ := 0

theorem A_eq48 (c : Dev nD) (w : Fin cfg48.W) : (dat48 V c).A w = V c (Pipeline.arrRef spec48 w) := by
  dsimp only [dat48]

theorem after48_0 (c : Dev nD) (t : Fin cfg48.N) : (dat48 V c).after 0 t = iblk48 V c 0 t := by dsimp only [dat48]
theorem after48_1 (c : Dev nD) (t : Fin cfg48.N) : (dat48 V c).after 1 t = iblk48 V c 1 t := by dsimp only [dat48]
theorem after48_2 (c : Dev nD) (t : Fin cfg48.N) : (dat48 V c).after 2 t = (outsAt48 V c t.val t.isLt).1 := by dsimp only [dat48]

/-- An input's current staging buffer holds its block at every point, fetched there or not: where it is not fetched its block
    index has not moved since the point before, and the body left the block in place. -/
theorem before48_0 (c : Dev nD) (t : Fin cfg48.N) (d) : (dat48 V c).before 0 t d = iblk48 V c 0 t :=
  ((dat48 V c).before_in_eq_fetched 0 rfl (fun _ => rfl) (fun _ _ _ => rfl)
      (fun t => by rw [after48_0]; unfold Dat.blockOf iblk48; rw [A_eq48]; try rfl) t d).trans
    (by unfold Dat.fetched Dat.blockOf iblk48; rw [A_eq48]; try rfl)
theorem before48_1 (c : Dev nD) (t : Fin cfg48.N) (d) : (dat48 V c).before 1 t d = iblk48 V c 1 t :=
  ((dat48 V c).before_in_eq_fetched 1 rfl (fun _ => rfl) (fun _ _ _ => rfl)
      (fun t => by rw [after48_1]; unfold Dat.blockOf iblk48; rw [A_eq48]; try rfl) t d).trans
    (by unfold Dat.fetched Dat.blockOf iblk48; rw [A_eq48]; try rfl)

/-! ## The body obligation, at a generic point -/

/-- What the body is called with at point `t`, the windows one by one, -/
noncomputable def bodyPre48 (c : Dev nD) (t : Fin cfg48.N) : sProp 𝕄 :=
  iprop((dat48 V c).Φ t.castSucc ∗ (dat48 V c).owesAt () t.castSucc
    ∗ (∃ d, owns (c : Thread nD τ) (ms48_0 t) fullShare ((dat48 V c).before 0 t d))
    ∗ (∃ d, owns (c : Thread nD τ) (ms48_1 t) fullShare ((dat48 V c).before 1 t d))
    ∗ (∃ d, owns (c : Thread nD τ) (ms48_2 t) fullShare ((dat48 V c).before 2 t d)))

/-- and what it returns. -/
noncomputable def bodyPost48 (c : Dev nD) (t : Fin cfg48.N) : sProp 𝕄 :=
  iprop((dat48 V c).Φ t.succ ∗ (dat48 V c).owesAt () t.succ
    ∗ (dat48 V c).leavesExact 0 t
    ∗ (dat48 V c).leavesExact 1 t
    ∗ (dat48 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body48 (c : Dev nD) (t : Fin cfg48.N) :
    bodyPre48 V c t ⊢ wp frame (wpE (defs₀ (F := F)) Variants.none c none) Set.univ (bodyAt48 t) (fun _ => bodyPost48 V c t) := by
  unfold bodyPre48 bodyPost48 bodyAt48
  simp only [before48_0, before48_1]
  rw [show (dat48 V c).owesAt () t.succ = (dat48 V c).owesAt () t.castSucc from rfl,
    show (dat48 V c).Φ t.succ = Pipeline.ΦA spec48 c from rfl, show (dat48 V c).Φ t.castSucc = Pipeline.ΦA spec48 c from rfl, PhiA48_eq]
  rw [show (dat48 V c).leavesExact 0 t = owns (c : Thread nD τ) (ms48_0 t) fullShare ((dat48 V c).after 0 t) from by
      unfold Dat.leavesExact; rw [liveAt48_0 t], after48_0]
  rw [show (dat48 V c).leavesExact 1 t = owns (c : Thread nD τ) (ms48_1 t) fullShare ((dat48 V c).after 1 t) from by
      unfold Dat.leavesExact; rw [liveAt48_1 t], after48_1]
  rw [show (dat48 V c).leavesExact 2 t = owns (c : Thread nD τ) (ms48_2 t) fullShare ((dat48 V c).after 2 t) from by
      unfold Dat.leavesExact; rw [liveAt48_2 t], after48_2]
  unfold outsAt48 out48_2; (try dsimp only)
  iintro ⟨⟨⟨Hacc, Hrest⟩, Hgen⟩, Howe, ⟨%da, Ha⟩, ⟨%db, Hb⟩, ⟨%dO, Hout⟩⟩
  iapply ((kernelRun48 c (grid48.coords t) _ _ _ _ _ _ _ _ (hcond48_0 t) (hcond48_1 t) (iblk48 V c 0 t) (iblk48 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover48_2 c _ _ _ _ _ _ _ _ _ _ _ _ _)

/-- The library's body obligation, at every point. -/
theorem body_obligation48 (c : Dev nD) : BodyObligation (dat48 (F := F) V c) (defs₀ (F := F)) Variants.none () Set.univ := fun t => by
  rw [bigSep_W48, bigSep_W48]
  exact sound_body48 V c t

/-- What the launch hands the region is the invariant before the first point, -/
theorem hin48 (c : Dev nD) : Pipeline.ΦA spec48 c ⊢ (dat48 V c).Φ 0 := Idealize.SL.BI.Entails.refl _

/-- and the invariant after the last point is what the launch takes back. -/
theorem hout48 (c : Dev nD) : (dat48 V c).Φ (Fin.last cfg48.N) ⊢ Pipeline.ΦA spec48 c := Idealize.SL.BI.Entails.refl _

end Cert.Kernel.Hand

end
-- ==== Proof.RegK49a.lean ====
/- Laid out by: python3 scratch/layout_regions.py --template-region 1 --region 49 --program Kernel --parts a,b,c, --out-dir proof/Proof
   from the hand-written text of region 1 (RegKI1a.lean): the same text, the region's number and the program's namespace substituted. -/
/-
  Region 49 of @main (custom_call 49): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond49_0 (i : grid49.Coords) : Prop := (Scalar.cmpi .ne (Scalar.extui (Scalar.cmpi .eq (BitVec.ofNat 32 (i 1).val) 0#32)) 0#32) = 1#1
/-- It holds exactly at the points with t % 4 = 0. -/
theorem hcond49_0 : ∀ t : Fin cfg49.N, cond49_0 (grid49.coords t) ↔ t.val % 4 = 0 :=
  (by decide +kernel : ∀ t : Fin grid49.N, cond49_0 (grid49.coords t) ↔ t.val % 4 = 0)

/-- "k = 3": the second conditional's test. -/
abbrev cond49_1 (i : grid49.Coords) : Prop := k49_cond2 i = 1#1
/-- It holds exactly at the points with t % 4 = 3. -/
theorem hcond49_1 : ∀ t : Fin cfg49.N, cond49_1 (grid49.coords t) ↔ t.val % 4 = 3 :=
  (by decide +kernel : ∀ t : Fin grid49.N, cond49_1 (grid49.coords t) ↔ t.val % 4 = 3)

/-! ## Where the windows are idle, and where the output is written back -/

/-- The two input windows are never idle. -/
theorem liveAt49_0 : ∀ t : Fin cfg49.N, cfg49.idle 0 (grid49.coords t) = false := by decide +kernel
theorem liveAt49_1 : ∀ t : Fin cfg49.N, cfg49.idle 1 (grid49.coords t) = false := by decide +kernel
/-- Where k ≠ 3 the output window is idle (the body stores nothing into it) and is not written back. -/
theorem idleAt49_2 : ∀ t : Fin cfg49.N, ¬cond49_1 (grid49.coords t) → cfg49.idle 2 (grid49.coords t) = true := by decide +kernel
theorem noFlush49_2 : ∀ t : Fin cfg49.N, ¬cond49_1 (grid49.coords t) → (cfg49.win 2).flush t = false := by decide +kernel
/-- Where k = 3 it is live. -/
theorem liveAt49_2 : ∀ t : Fin cfg49.N, cond49_1 (grid49.coords t) → cfg49.idle 2 (grid49.coords t) = false := by decide +kernel

/-! ## The staging memrefs at a point, and the scratch -/

/-- One staging buffer of the output window, through which its contents are stated. -/
abbrev VO49_2 : View sig .tc .vmem S1024x512 .f32 := (Memref.whole cc49_stg2_0 : Memref sig .tc .vmem S1024x512 .f32).view
abbrev ms49_0 (t : Fin cfg49.N) : Memref sig .tc .vmem S1024x1024 .bf16 := win49_0.stage (cfg49.slots t 0)
abbrev hs49_0 (t : Fin cfg49.N) : (ms49_0 t).IsWhole := hstage49_0 ((cfg49.slots t 0).cast nbuf49_0)
abbrev ms49_1 (t : Fin cfg49.N) : Memref sig .tc .vmem S1024x512 .f32 := win49_1.stage (cfg49.slots t 1)
abbrev hs49_1 (t : Fin cfg49.N) : (ms49_1 t).IsWhole := hstage49_1 ((cfg49.slots t 1).cast nbuf49_1)
abbrev ms49_2 (t : Fin cfg49.N) : Memref sig .tc .vmem S1024x512 .f32 := win49_2.stage (cfg49.slots t 2)
abbrev hs49_2 (t : Fin cfg49.N) : (ms49_2 t).IsWhole := hstage49_2 ((cfg49.slots t 2).cast nbuf49_2)
/-- The accumulator: a whole scoped buffer of the kernel's own. -/
abbrev scM49 : Memref sig .tc .vmem S1024x512 .f32 := Memref.whole cc49_scratch0
abbrev VS49 : View sig .tc .vmem S1024x512 .f32 := scM49.view

/-- The other scoped buffers of the core, none of which this region touches. -/
abbrev restBut49 (c : Dev nD) : sProp 𝕄 :=
  Pipeline.scopedRestBut (Ix := Unit) (Name := ℕ) (U := UR sig nD τ) (Lvl := ℕ) (Val := Elt F) spec49 c [cc49_scratch0]

/-- The region's invariant before its first point: the accumulator at something, the other scoped buffers, the generator register. -/
theorem PhiA49_eq (c : Dev nD) :
    (Pipeline.ΦA spec49 c : sProp 𝕄)
      = iprop(iprop((∃ d, owns (c : Thread nD τ) scM49 fullShare d) ∗ restBut49 c) ∗ (∃ r, prngReg c r)) := by
  unfold Pipeline.ΦA; rw [scopedRest49_split]; simp only [scM49, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun49_A (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond49_0 i) (hc1 : ¬cond49_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc49__matmul_kernel i arg2 harg2 arg3 harg3 arg4 harg4 arg5 harg5) K } := by
  refine ⟨[], ?_, fun xi2 E K => ?run⟩
  case run =>
    simp only [cc49__matmul_kernel_eq_skeleton]; unfold cc49__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK49b.lean ====
/- Laid out by: python3 scratch/layout_regions.py --template-region 1 --region 49 --program Kernel --parts a,b,c, --out-dir proof/Proof
   from the hand-written text of region 1 (RegKI1b.lean): the same text, the region's number and the program's namespace substituted. -/
/-
  Region 49, case B (k = 1, 2): the body's run. Neither conditional is taken: the product of the two blocks is added to what
  the point before left in the accumulator; the output block is not touched.
-/
import proofs.«158944_j64613488001249_1_alg».proof.Proof.RegK49a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun49_B (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond49_0 i) (hc1 : ¬cond49_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc49__matmul_kernel i arg2 harg2 arg3 harg3 arg4 harg4 arg5 harg5) K } := by
  refine ⟨[], ?_, fun xi2 E K => ?run⟩
  case run =>
    simp only [cc49__matmul_kernel_eq_skeleton]; unfold cc49__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK49c.lean ====
/- Laid out by: python3 scratch/layout_regions.py --template-region 1 --region 49 --program Kernel --parts a,b,c, --out-dir proof/Proof
   from the hand-written text of region 1 (RegKI1c.lean): the same text, the region's number and the program's namespace substituted. -/
/-
  Region 49, case C (k = 3): the body's run. The product is added to the accumulator as in case B, and then the second
  conditional copies the accumulator over the whole output block.
-/
import proofs.«158944_j64613488001249_1_alg».proof.Proof.RegK49b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun49_C (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond49_0 i) (hc1 : cond49_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc49__matmul_kernel i arg2 harg2 arg3 harg3 arg4 harg4 arg5 harg5) K } := by
  refine ⟨?_, ?_, fun E K => ?run⟩
  case run =>
    simp only [cc49__matmul_kernel_eq_skeleton]; unfold cc49__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK49.lean ====
/- Laid out by: python3 scratch/layout_regions.py --template-region 1 --region 49 --program Kernel --parts a,b,c, --out-dir proof/Proof
   from the hand-written text of region 1 (RegKI1.lean): the same text, the region's number and the program's namespace substituted. -/
/-
  Region 49 of @main, entered from the buffer contents `V`: what its windows' blocks are, what each case of the body leaves in
  the accumulator and in the output block, the accumulator and the output block point by point (`outsAt49`: at k = 0 the
  accumulator restarts from zeros plus the product; at k = 1, 2, 3 it is the point before's plus the product; at k = 3 the
  output block is the accumulator), the region's invariant (the accumulator at `outsAt49`'s second component), the proof data,
  and the body's obligation at every point.
-/
import proofs.«158944_j64613488001249_1_alg».proof.Proof.RegK49c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk49 (c : Dev nD) (w : Fin cfg49.W) (t : Fin cfg49.N) : ((cfg49.win w).xblock (cfg49.grid.coords t)).Idx → Elt F (cfg49.win w).elt :=
  ((cfg49.win w).blk t).view.read (Elt F) (V c (Pipeline.arrRef spec49 w))

/-- An input window's current staging buffer holds its block at every point, for any proof data whose array is `V`'s and
    whose body leaves the block in place. -/
theorem before49_0_of {c : Dev nD} (dat : Dat τ (Elt F) Unit ℕ (UR sig nD τ) ℕ cfg49 c) (hA : dat.A 0 = V c (Pipeline.arrRef spec49 0))
    (hafter : ∀ t, dat.after 0 t = iblk49 V c 0 t) (t : Fin cfg49.N) (d) : dat.before 0 t d = iblk49 V c 0 t :=
  (dat.before_in_eq_fetched 0 rfl (fun _ => rfl) (fun _ _ _ => rfl) (fun t => by rw [hafter]; unfold Dat.blockOf iblk49; rw [hA]; try rfl) t d).trans
    (by unfold Dat.fetched Dat.blockOf iblk49; rw [hA]; try rfl)
theorem before49_1_of {c : Dev nD} (dat : Dat τ (Elt F) Unit ℕ (UR sig nD τ) ℕ cfg49 c) (hA : dat.A 1 = V c (Pipeline.arrRef spec49 1))
    (hafter : ∀ t, dat.after 1 t = iblk49 V c 1 t) (t : Fin cfg49.N) (d) : dat.before 1 t d = iblk49 V c 1 t :=
  (dat.before_in_eq_fetched 1 rfl (fun _ => rfl) (fun _ _ _ => rfl) (fun t => by rw [hafter]; unfold Dat.blockOf iblk49; rw [hA]; try rfl) t d).trans
    (by unfold Dat.fetched Dat.blockOf iblk49; rw [hA]; try rfl)

/-! ## What each case leaves -/

/-- Case A's stores into the accumulator cover it. -/
theorem scover49_A (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond49_0 i) (hc1 : ¬cond49_1 i)
    (x0 : Vec F S1024x1024 .bf16) (x1 : Vec F S1024x512 .f32) (y : S1024x512.Idx) :
    ∃ pc ∈ (kernelRun49_A c i arg2 harg2 arg3 harg3 arg4 harg4 arg5 harg5 hc0 hc1 x0 x1).2.1, y ∈ pc.1.set :=
  View.cover_of_tiledL (kernelRun49_A c i arg2 harg2 arg3 harg3 arg4 harg4 arg5 harg5 hc0 hc1 x0 x1).2.1 S1024x512.size (by sl_kernel_rfl) y
/-- What case A leaves in the accumulator. -/
noncomputable def sout49_A (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond49_0 i) (hc1 : ¬cond49_1 i)
    (x0 : Vec F S1024x1024 .bf16) (x1 : Vec F S1024x512 .f32) : Vec F S1024x512 .f32 :=
  VS49.read (Elt F) (VS49.writes (Elt F) VS49.junk (kernelRun49_A c i arg2 harg2 arg3 harg3 arg4 harg4 arg5 harg5 hc0 hc1 x0 x1).2.1)

/-- Case B's store into the accumulator covers it. -/
theorem scover49_B (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond49_0 i) (hc1 : ¬cond49_1 i)
    (x0 : Vec F S1024x1024 .bf16) (x1 : Vec F S1024x512 .f32) (xs0 : Vec F S1024x512 .f32) (y : S1024x512.Idx) :
    ∃ pc ∈ (kernelRun49_B c i arg2 harg2 arg3 harg3 arg4 harg4 arg5 harg5 hc0 hc1 x0 x1 xs0).2.1, y ∈ pc.1.set :=
  View.cover_of_tiledL (kernelRun49_B c i arg2 harg2 arg3 harg3 arg4 harg4 arg5 harg5 hc0 hc1 x0 x1 xs0).2.1 S1024x512.size (by sl_kernel_rfl) y
/-- What case B leaves in the accumulator, over what the point before left. -/
noncomputable def sout49_B (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond49_0 i) (hc1 : ¬cond49_1 i)
    (x0 : Vec F S1024x1024 .bf16) (x1 : Vec F S1024x512 .f32) (xs0 : Vec F S1024x512 .f32) : Vec F S1024x512 .f32 :=
  VS49.read (Elt F) (VS49.writes (Elt F) VS49.junk (kernelRun49_B c i arg2 harg2 arg3 harg3 arg4 harg4 arg5 harg5 hc0 hc1 x0 x1 xs0).2.1)

/-- Case C's store into the output block covers it, and so does its store into the accumulator. -/
theorem cover49_C (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond49_0 i) (hc1 : cond49_1 i)
    (x0 : Vec F S1024x1024 .bf16) (x1 : Vec F S1024x512 .f32) (xs0 : Vec F S1024x512 .f32) (y : S1024x512.Idx) :
    ∃ pc ∈ (kernelRun49_C c i arg2 harg2 arg3 harg3 arg4 harg4 arg5 harg5 hc0 hc1 x0 x1 xs0).1, y ∈ pc.1.set :=
  View.cover_of_tiledL (kernelRun49_C c i arg2 harg2 arg3 harg3 arg4 harg4 arg5 harg5 hc0 hc1 x0 x1 xs0).1 S1024x512.size (by sl_kernel_rfl) y
theorem scover49_C (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond49_0 i) (hc1 : cond49_1 i)
    (x0 : Vec F S1024x1024 .bf16) (x1 : Vec F S1024x512 .f32) (xs0 : Vec F S1024x512 .f32) (y : S1024x512.Idx) :
    ∃ pc ∈ (kernelRun49_C c i arg2 harg2 arg3 harg3 arg4 harg4 arg5 harg5 hc0 hc1 x0 x1 xs0).2.1, y ∈ pc.1.set :=
  View.cover_of_tiledL (kernelRun49_C c i arg2 harg2 arg3 harg3 arg4 harg4 arg5 harg5 hc0 hc1 x0 x1 xs0).2.1 S1024x512.size (by sl_kernel_rfl) y
/-- What case C leaves in the output block, and in the accumulator. -/
noncomputable def out49_C (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond49_0 i) (hc1 : cond49_1 i)
    (x0 : Vec F S1024x1024 .bf16) (x1 : Vec F S1024x512 .f32) (xs0 : Vec F S1024x512 .f32) : Vec F S1024x512 .f32 :=
  VO49_2.read (Elt F) (VO49_2.writes (Elt F) VO49_2.junk (kernelRun49_C c i arg2 harg2 arg3 harg3 arg4 harg4 arg5 harg5 hc0 hc1 x0 x1 xs0).1)
noncomputable def sout49_C (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond49_0 i) (hc1 : cond49_1 i)
    (x0 : Vec F S1024x1024 .bf16) (x1 : Vec F S1024x512 .f32) (xs0 : Vec F S1024x512 .f32) : Vec F S1024x512 .f32 :=
  VS49.read (Elt F) (VS49.writes (Elt F) VS49.junk (kernelRun49_C c i arg2 harg2 arg3 harg3 arg4 harg4 arg5 harg5 hc0 hc1 x0 x1 xs0).2.1)

/-- Where the output block is idle nothing consults what it holds: a placeholder. -/
noncomputable def outIdle49 : Vec F S1024x512 .f32 := VO49_2.read (Elt F) (VO49_2.writes (Elt F) VO49_2.junk [])

/-! ## The conditions at a point, from t % 4 -/

theorem isFirst49 (t : Fin cfg49.N) (h : t.val % 4 = 0) : cond49_0 (grid49.coords t) := (hcond49_0 t).mpr h
theorem notFirst49 (t : Fin cfg49.N) (h : ¬t.val % 4 = 0) : ¬cond49_0 (grid49.coords t) := fun hc => h ((hcond49_0 t).mp hc)
theorem isLast49 (t : Fin cfg49.N) (h : t.val % 4 = 3) : cond49_1 (grid49.coords t) := (hcond49_1 t).mpr h
theorem notLast49 (t : Fin cfg49.N) (h : ¬t.val % 4 = 3) : ¬cond49_1 (grid49.coords t) := fun hc => h ((hcond49_1 t).mp hc)

/-! ## The accumulator and the output block, point by point -/

/-- After the body at position `n`: (the output block's buffer, the accumulator). -/
noncomputable def outsAt49 (c : Dev nD) : (n : ℕ) → n < cfg49.N → Vec F S1024x512 .f32 × Vec F S1024x512 .f32
  | 0, hn => (outIdle49, sout49_A c (grid49.coords ⟨0, hn⟩) (ms49_0 ⟨0, hn⟩) (hs49_0 ⟨0, hn⟩) (ms49_1 ⟨0, hn⟩) (hs49_1 ⟨0, hn⟩) (ms49_2 ⟨0, hn⟩) (hs49_2 ⟨0, hn⟩) scM49 (Memref.isWhole_whole _) (isFirst49 ⟨0, hn⟩ (Nat.zero_mod _)) (notLast49 ⟨0, hn⟩ (by simp)) (iblk49 V c 0 ⟨0, hn⟩) (iblk49 V c 1 ⟨0, hn⟩))
  | n + 1, hn =>
    if h0 : (n + 1) % 4 = 0 then
      (outIdle49, sout49_A c (grid49.coords ⟨n + 1, hn⟩) (ms49_0 ⟨n + 1, hn⟩) (hs49_0 ⟨n + 1, hn⟩) (ms49_1 ⟨n + 1, hn⟩) (hs49_1 ⟨n + 1, hn⟩) (ms49_2 ⟨n + 1, hn⟩) (hs49_2 ⟨n + 1, hn⟩) scM49 (Memref.isWhole_whole _) (isFirst49 ⟨n + 1, hn⟩ h0) (notLast49 ⟨n + 1, hn⟩ (by show ¬(n + 1) % 4 = 3; omega)) (iblk49 V c 0 ⟨n + 1, hn⟩) (iblk49 V c 1 ⟨n + 1, hn⟩))
    else if h3 : (n + 1) % 4 = 3 then
      (out49_C c (grid49.coords ⟨n + 1, hn⟩) (ms49_0 ⟨n + 1, hn⟩) (hs49_0 ⟨n + 1, hn⟩) (ms49_1 ⟨n + 1, hn⟩) (hs49_1 ⟨n + 1, hn⟩) (ms49_2 ⟨n + 1, hn⟩) (hs49_2 ⟨n + 1, hn⟩) scM49 (Memref.isWhole_whole _) (notFirst49 ⟨n + 1, hn⟩ h0) (isLast49 ⟨n + 1, hn⟩ h3) (iblk49 V c 0 ⟨n + 1, hn⟩) (iblk49 V c 1 ⟨n + 1, hn⟩) (outsAt49 c n (Nat.lt_of_succ_lt hn)).2,
       sout49_C c (grid49.coords ⟨n + 1, hn⟩) (ms49_0 ⟨n + 1, hn⟩) (hs49_0 ⟨n + 1, hn⟩) (ms49_1 ⟨n + 1, hn⟩) (hs49_1 ⟨n + 1, hn⟩) (ms49_2 ⟨n + 1, hn⟩) (hs49_2 ⟨n + 1, hn⟩) scM49 (Memref.isWhole_whole _) (notFirst49 ⟨n + 1, hn⟩ h0) (isLast49 ⟨n + 1, hn⟩ h3) (iblk49 V c 0 ⟨n + 1, hn⟩) (iblk49 V c 1 ⟨n + 1, hn⟩) (outsAt49 c n (Nat.lt_of_succ_lt hn)).2)
    else
      (outIdle49, sout49_B c (grid49.coords ⟨n + 1, hn⟩) (ms49_0 ⟨n + 1, hn⟩) (hs49_0 ⟨n + 1, hn⟩) (ms49_1 ⟨n + 1, hn⟩) (hs49_1 ⟨n + 1, hn⟩) (ms49_2 ⟨n + 1, hn⟩) (hs49_2 ⟨n + 1, hn⟩) scM49 (Memref.isWhole_whole _) (notFirst49 ⟨n + 1, hn⟩ h0) (notLast49 ⟨n + 1, hn⟩ h3) (iblk49 V c 0 ⟨n + 1, hn⟩) (iblk49 V c 1 ⟨n + 1, hn⟩) (outsAt49 c n (Nat.lt_of_succ_lt hn)).2)

/-- `outsAt49` at a point with k = 0. -/
theorem outsAt49_A (c : Dev nD) (t : Fin cfg49.N) (h0 : t.val % 4 = 0) :
    outsAt49 V c t.val t.isLt = (outIdle49, sout49_A c (grid49.coords t) (ms49_0 t) (hs49_0 t) (ms49_1 t) (hs49_1 t) (ms49_2 t) (hs49_2 t) scM49 (Memref.isWhole_whole _) (isFirst49 t h0) (notLast49 t (by omega)) (iblk49 V c 0 t) (iblk49 V c 1 t)) := by
  obtain ⟨n, hn⟩ := t
  cases n with
  | zero => rfl
  | succ n => exact (dif_pos h0).trans rfl

/-- `outsAt49` at a point with k = 1, 2: over what the point before left. -/
theorem outsAt49_B (c : Dev nD) (t : Fin cfg49.N) (h0 : ¬t.val % 4 = 0) (h3 : ¬t.val % 4 = 3) :
    outsAt49 V c t.val t.isLt = (outIdle49, sout49_B c (grid49.coords t) (ms49_0 t) (hs49_0 t) (ms49_1 t) (hs49_1 t) (ms49_2 t) (hs49_2 t) scM49 (Memref.isWhole_whole _) (notFirst49 t h0) (notLast49 t h3) (iblk49 V c 0 t) (iblk49 V c 1 t)
      (outsAt49 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt49` at a point with k = 3. -/
theorem outsAt49_C (c : Dev nD) (t : Fin cfg49.N) (h0 : ¬t.val % 4 = 0) (h3 : t.val % 4 = 3) :
    outsAt49 V c t.val t.isLt = (out49_C c (grid49.coords t) (ms49_0 t) (hs49_0 t) (ms49_1 t) (hs49_1 t) (ms49_2 t) (hs49_2 t) scM49 (Memref.isWhole_whole _) (notFirst49 t h0) (isLast49 t h3) (iblk49 V c 0 t) (iblk49 V c 1 t)
        (outsAt49 V c (t.val - 1) (Nat.lt_of_le_of_lt (Nat.sub_le _ _) t.isLt)).2,
      sout49_C c (grid49.coords t) (ms49_0 t) (hs49_0 t) (ms49_1 t) (hs49_1 t) (ms49_2 t) (hs49_2 t) scM49 (Memref.isWhole_whole _) (notFirst49 t h0) (isLast49 t h3) (iblk49 V c 0 t) (iblk49 V c 1 t)
        (outsAt49 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS49 (c : Dev nD) : (n : ℕ) → n ≤ cfg49.N → sProp 𝕄
  | 0, _ => Pipeline.ΦA spec49 c
  | n + 1, hn => iprop(iprop(owns (c : Thread nD τ) scM49 fullShare ((outsAt49 V c n hn).2) ∗ restBut49 c) ∗ (∃ r, prngReg c r))

theorem PhiS49_zero (c : Dev nD) (n : ℕ) (h : n ≤ cfg49.N) (hz : n = 0) : PhiS49 V c n h = Pipeline.ΦA spec49 c := by
  subst hz; rfl
theorem PhiS49_succ (c : Dev nD) (n : ℕ) (hn : n < cfg49.N) :
    PhiS49 V c (n + 1) hn = iprop(iprop(owns (c : Thread nD τ) scM49 fullShare ((outsAt49 V c n hn).2) ∗ restBut49 c) ∗ (∃ r, prngReg c r)) := rfl
theorem PhiS49_pos (c : Dev nD) (n : ℕ) (h : n ≤ cfg49.N) (hz : n ≠ 0) :
    PhiS49 V c n h = iprop(iprop(owns (c : Thread nD τ) scM49 fullShare ((outsAt49 V c (n - 1) (by omega)).2) ∗ restBut49 c) ∗ (∃ r, prngReg c r)) := by
  cases n with
  | zero => exact absurd rfl hz
  | succ n => rfl

/-! ## The proof data -/

/-- The region's proof data on core `c`: the arrays as the region finds them; after the body at point `t` each input's
    buffer at its block and the output's at `outsAt49`'s first component; the invariant `PhiS49`; nothing owed; full shares. -/
noncomputable def dat49 (c : Dev nD) : Dat τ (Elt F) Unit ℕ (UR sig nD τ) ℕ cfg49 c where
  A w := V c (Pipeline.arrRef spec49 w)
  after w t := match w with
    | ⟨0, _⟩ => iblk49 V c 0 t
    | ⟨1, _⟩ => iblk49 V c 1 t
    | ⟨2, _⟩ => (outsAt49 V c t.val t.isLt).1
  Φ t := PhiS49 V c t.val (Nat.le_of_lt_succ t.isLt)
  q _ := fullShare
  owed _ := 0

theorem A_eq49 (c : Dev nD) (w : Fin cfg49.W) : (dat49 V c).A w = V c (Pipeline.arrRef spec49 w) := by
  dsimp only [dat49]
theorem PhiS49_castSucc (c : Dev nD) (t : Fin cfg49.N) :
    (dat49 V c).Φ t.castSucc = PhiS49 V c t.val (Nat.le_of_lt t.isLt) := by
  dsimp only [dat49]; simp only [Fin.coe_castSucc]
theorem after49_0 (c : Dev nD) (t : Fin cfg49.N) : (dat49 V c).after 0 t = iblk49 V c 0 t := by dsimp only [dat49]
theorem after49_1 (c : Dev nD) (t : Fin cfg49.N) : (dat49 V c).after 1 t = iblk49 V c 1 t := by dsimp only [dat49]
theorem after49_2 (c : Dev nD) (t : Fin cfg49.N) : (dat49 V c).after 2 t = (outsAt49 V c t.val t.isLt).1 := by dsimp only [dat49]
theorem before49_0 (c : Dev nD) (t : Fin cfg49.N) (d) : (dat49 V c).before 0 t d = iblk49 V c 0 t :=
  before49_0_of V (dat49 V c) (A_eq49 V c 0) (after49_0 V c) t d
theorem before49_1 (c : Dev nD) (t : Fin cfg49.N) (d) : (dat49 V c).before 1 t d = iblk49 V c 1 t :=
  before49_1_of V (dat49 V c) (A_eq49 V c 1) (after49_1 V c) t d

/-! ## The body's obligation -/

noncomputable def bodyPre49 (c : Dev nD) (t : Fin cfg49.N) : sProp 𝕄 :=
  iprop((dat49 V c).Φ t.castSucc ∗ (dat49 V c).owesAt () t.castSucc
    ∗ (∃ d, owns (c : Thread nD τ) (ms49_0 t) fullShare ((dat49 V c).before 0 t d))
    ∗ (∃ d, owns (c : Thread nD τ) (ms49_1 t) fullShare ((dat49 V c).before 1 t d))
    ∗ (∃ d, owns (c : Thread nD τ) (ms49_2 t) fullShare ((dat49 V c).before 2 t d)))

noncomputable def bodyPost49 (c : Dev nD) (t : Fin cfg49.N) : sProp 𝕄 :=
  iprop((dat49 V c).Φ t.succ ∗ (dat49 V c).owesAt () t.succ
    ∗ (dat49 V c).leavesExact 0 t
    ∗ (dat49 V c).leavesExact 1 t
    ∗ (dat49 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body49 (c : Dev nD) (t : Fin cfg49.N) :
    bodyPre49 V c t ⊢ wp frame (wpE (defs₀ (F := F)) Variants.none c none) Set.univ (bodyAt49 t) (fun _ => bodyPost49 V c t) := by
  unfold bodyPre49 bodyPost49 bodyAt49
  simp only [before49_0, before49_1]
  rw [show (dat49 V c).owesAt () t.succ = (dat49 V c).owesAt () t.castSucc from rfl]
  rw [show (dat49 V c).Φ t.succ = PhiS49 V c (t.val + 1) t.isLt from rfl, PhiS49_succ]
  rw [show (dat49 V c).leavesExact 0 t = owns (c : Thread nD τ) (ms49_0 t) fullShare ((dat49 V c).after 0 t) from by
    unfold Dat.leavesExact; rw [liveAt49_0 t], after49_0]
  rw [show (dat49 V c).leavesExact 1 t = owns (c : Thread nD τ) (ms49_1 t) fullShare ((dat49 V c).after 1 t) from by
    unfold Dat.leavesExact; rw [liveAt49_1 t], after49_1]
  by_cases h0 : t.val % 4 = 0
  · have h3 : ¬t.val % 4 = 3 := by omega
    rw [Dat.leavesExact_idle (dat49 V c) 2 t (idleAt49_2 t (notLast49 t h3)) (noFlush49_2 t (notLast49 t h3))]
    rw [outsAt49_A V c t h0]
    unfold sout49_A; (try dsimp only)
    by_cases hz : t.val = 0
    · rw [PhiS49_castSucc V c t, PhiS49_zero V c _ _ hz, PhiA49_eq]
      iintro ⟨⟨⟨HS0, Hrb⟩, Hg⟩, Ho, ⟨%d0, H0⟩, ⟨%d1, H1⟩, ⟨%d2, H2⟩⟩
      iapply ((kernelRun49_A c (grid49.coords t) _ _ _ _ _ _ _ _ (isFirst49 t h0) (notLast49 t (by omega)) (iblk49 V c 0 t) (iblk49 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover49_A c _ _ _ _ _ _ _ _ _ _ _ _ _)
          iexact Hrb
        iexact Hg
      isplitl [Ho]; · iexact Ho
      isplitl [H0]; · iexact H0
      isplitl [H1]; · iexact H1
      iexists _; iexact H2
    · rw [PhiS49_castSucc V c t, PhiS49_pos V c _ _ hz]
      iintro ⟨⟨⟨HS0, Hrb⟩, Hg⟩, Ho, ⟨%d0, H0⟩, ⟨%d1, H1⟩, ⟨%d2, H2⟩⟩
      iapply ((kernelRun49_A c (grid49.coords t) _ _ _ _ _ _ _ _ (isFirst49 t h0) (notLast49 t (by omega)) (iblk49 V c 0 t) (iblk49 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover49_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat49 V c).leavesExact 2 t = owns (c : Thread nD τ) (ms49_2 t) fullShare ((dat49 V c).after 2 t) from by
        unfold Dat.leavesExact; rw [liveAt49_2 t (isLast49 t h3)], after49_2]
      rw [outsAt49_C V c t h0 h3]
      unfold out49_C sout49_C; (try dsimp only)
      rw [PhiS49_castSucc V c t, PhiS49_pos V c _ _ hz]
      iintro ⟨⟨⟨HS0, Hrb⟩, Hg⟩, Ho, ⟨%d0, H0⟩, ⟨%d1, H1⟩, ⟨%d2, H2⟩⟩
      iapply ((kernelRun49_C c (grid49.coords t) _ _ _ _ _ _ _ _ (notFirst49 t h0) (isLast49 t h3) (iblk49 V c 0 t) (iblk49 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover49_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover49_C c _ _ _ _ _ _ _ _ _ _ _ _ _ _)
    · rw [Dat.leavesExact_idle (dat49 V c) 2 t (idleAt49_2 t (notLast49 t h3)) (noFlush49_2 t (notLast49 t h3))]
      rw [outsAt49_B V c t h0 h3]
      unfold sout49_B; (try dsimp only)
      rw [PhiS49_castSucc V c t, PhiS49_pos V c _ _ hz]
      iintro ⟨⟨⟨HS0, Hrb⟩, Hg⟩, Ho, ⟨%d0, H0⟩, ⟨%d1, H1⟩, ⟨%d2, H2⟩⟩
      iapply ((kernelRun49_B c (grid49.coords t) _ _ _ _ _ _ _ _ (notFirst49 t h0) (notLast49 t h3) (iblk49 V c 0 t) (iblk49 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover49_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation49 (c : Dev nD) : BodyObligation (dat49 (F := F) V c) (defs₀ (F := F)) Variants.none () Set.univ := fun t => by
  rw [bigSep_W49, bigSep_W49]
  exact sound_body49 V c t

/-- What the region is entered with is the invariant before the first point. -/
theorem hin49 (c : Dev nD) : Pipeline.ΦA spec49 c ⊢ (dat49 V c).Φ 0 := by
  rw [show (dat49 V c).Φ 0 = PhiS49 V c 0 (Nat.zero_le _) from rfl, PhiS49_zero V c 0 _ rfl]
  try exact Idealize.SL.BI.Entails.refl _

/-- After the last point the invariant gives the class's back: the accumulator's contents are forgotten. -/
theorem hout49 (c : Dev nD) : (dat49 V c).Φ (Fin.last cfg49.N) ⊢ Pipeline.ΦA spec49 c := by
  have hN : cfg49.N = 16 := N_49
  rw [show (dat49 V c).Φ (Fin.last cfg49.N) = PhiS49 V c (Fin.last cfg49.N).val (Nat.le_of_lt_succ (Fin.last cfg49.N).isLt) from rfl,
    PhiS49_pos V c _ _ (by rw [Fin.val_last]; omega), PhiA49_eq]
  iintro ⟨⟨HS0, Hrb⟩, Hg⟩
  isplitl [HS0 Hrb]
  · isplitl [HS0]
    · iexists _; iexact HS0
    iexact Hrb
  iexact Hg

end Cert.Kernel.Hand

end
-- ==== Proof.RegK50a.lean ====
/- Laid out by: python3 scratch/layout_regions.py --template-region 1 --region 50 --program Kernel --parts a,b,c, --out-dir proof/Proof
   from the hand-written text of region 1 (RegKI1a.lean): the same text, the region's number and the program's namespace substituted. -/
/-
  Region 50 of @main (custom_call 50): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond50_0 (i : grid50.Coords) : Prop := (Scalar.cmpi .ne (Scalar.extui (Scalar.cmpi .eq (BitVec.ofNat 32 (i 1).val) 0#32)) 0#32) = 1#1
/-- It holds exactly at the points with t % 4 = 0. -/
theorem hcond50_0 : ∀ t : Fin cfg50.N, cond50_0 (grid50.coords t) ↔ t.val % 4 = 0 :=
  (by decide +kernel : ∀ t : Fin grid50.N, cond50_0 (grid50.coords t) ↔ t.val % 4 = 0)

/-- "k = 3": the second conditional's test. -/
abbrev cond50_1 (i : grid50.Coords) : Prop := k50_cond2 i = 1#1
/-- It holds exactly at the points with t % 4 = 3. -/
theorem hcond50_1 : ∀ t : Fin cfg50.N, cond50_1 (grid50.coords t) ↔ t.val % 4 = 3 :=
  (by decide +kernel : ∀ t : Fin grid50.N, cond50_1 (grid50.coords t) ↔ t.val % 4 = 3)

/-! ## Where the windows are idle, and where the output is written back -/

/-- The two input windows are never idle. -/
theorem liveAt50_0 : ∀ t : Fin cfg50.N, cfg50.idle 0 (grid50.coords t) = false := by decide +kernel
theorem liveAt50_1 : ∀ t : Fin cfg50.N, cfg50.idle 1 (grid50.coords t) = false := by decide +kernel
/-- Where k ≠ 3 the output window is idle (the body stores nothing into it) and is not written back. -/
theorem idleAt50_2 : ∀ t : Fin cfg50.N, ¬cond50_1 (grid50.coords t) → cfg50.idle 2 (grid50.coords t) = true := by decide +kernel
theorem noFlush50_2 : ∀ t : Fin cfg50.N, ¬cond50_1 (grid50.coords t) → (cfg50.win 2).flush t = false := by decide +kernel
/-- Where k = 3 it is live. -/
theorem liveAt50_2 : ∀ t : Fin cfg50.N, cond50_1 (grid50.coords t) → cfg50.idle 2 (grid50.coords t) = false := by decide +kernel

/-! ## The staging memrefs at a point, and the scratch -/

/-- One staging buffer of the output window, through which its contents are stated. -/
abbrev VO50_2 : View sig .tc .vmem S1024x512 .f32 := (Memref.whole cc50_stg2_0 : Memref sig .tc .vmem S1024x512 .f32).view
abbrev ms50_0 (t : Fin cfg50.N) : Memref sig .tc .vmem S1024x1024 .bf16 := win50_0.stage (cfg50.slots t 0)
abbrev hs50_0 (t : Fin cfg50.N) : (ms50_0 t).IsWhole := hstage50_0 ((cfg50.slots t 0).cast nbuf50_0)
abbrev ms50_1 (t : Fin cfg50.N) : Memref sig .tc .vmem S1024x512 .f32 := win50_1.stage (cfg50.slots t 1)
abbrev hs50_1 (t : Fin cfg50.N) : (ms50_1 t).IsWhole := hstage50_1 ((cfg50.slots t 1).cast nbuf50_1)
abbrev ms50_2 (t : Fin cfg50.N) : Memref sig .tc .vmem S1024x512 .f32 := win50_2.stage (cfg50.slots t 2)
abbrev hs50_2 (t : Fin cfg50.N) : (ms50_2 t).IsWhole := hstage50_2 ((cfg50.slots t 2).cast nbuf50_2)
/-- The accumulator: a whole scoped buffer of the kernel's own. -/
abbrev scM50 : Memref sig .tc .vmem S1024x512 .f32 := Memref.whole cc50_scratch0
abbrev VS50 : View sig .tc .vmem S1024x512 .f32 := scM50.view

/-- The other scoped buffers of the core, none of which this region touches. -/
abbrev restBut50 (c : Dev nD) : sProp 𝕄 :=
  Pipeline.scopedRestBut (Ix := Unit) (Name := ℕ) (U := UR sig nD τ) (Lvl := ℕ) (Val := Elt F) spec50 c [cc50_scratch0]

/-- The region's invariant before its first point: the accumulator at something, the other scoped buffers, the generator register. -/
theorem PhiA50_eq (c : Dev nD) :
    (Pipeline.ΦA spec50 c : sProp 𝕄)
      = iprop(iprop((∃ d, owns (c : Thread nD τ) scM50 fullShare d) ∗ restBut50 c) ∗ (∃ r, prngReg c r)) := by
  unfold Pipeline.ΦA; rw [scopedRest50_split]; simp only [scM50, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun50_A (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond50_0 i) (hc1 : ¬cond50_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc50__matmul_kernel i arg2 harg2 arg3 harg3 arg4 harg4 arg5 harg5) K } := by
  refine ⟨[], ?_, fun xi2 E K => ?run⟩
  case run =>
    simp only [cc50__matmul_kernel_eq_skeleton]; unfold cc50__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK50b.lean ====
/- Laid out by: python3 scratch/layout_regions.py --template-region 1 --region 50 --program Kernel --parts a,b,c, --out-dir proof/Proof
   from the hand-written text of region 1 (RegKI1b.lean): the same text, the region's number and the program's namespace substituted. -/
/-
  Region 50, case B (k = 1, 2): the body's run. Neither conditional is taken: the product of the two blocks is added to what
  the point before left in the accumulator; the output block is not touched.
-/
import proofs.«158944_j64613488001249_1_alg».proof.Proof.RegK50a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun50_B (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond50_0 i) (hc1 : ¬cond50_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc50__matmul_kernel i arg2 harg2 arg3 harg3 arg4 harg4 arg5 harg5) K } := by
  refine ⟨[], ?_, fun xi2 E K => ?run⟩
  case run =>
    simp only [cc50__matmul_kernel_eq_skeleton]; unfold cc50__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK50c.lean ====
/- Laid out by: python3 scratch/layout_regions.py --template-region 1 --region 50 --program Kernel --parts a,b,c, --out-dir proof/Proof
   from the hand-written text of region 1 (RegKI1c.lean): the same text, the region's number and the program's namespace substituted. -/
/-
  Region 50, case C (k = 3): the body's run. The product is added to the accumulator as in case B, and then the second
  conditional copies the accumulator over the whole output block.
-/
import proofs.«158944_j64613488001249_1_alg».proof.Proof.RegK50b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun50_C (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond50_0 i) (hc1 : cond50_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc50__matmul_kernel i arg2 harg2 arg3 harg3 arg4 harg4 arg5 harg5) K } := by
  refine ⟨?_, ?_, fun E K => ?run⟩
  case run =>
    simp only [cc50__matmul_kernel_eq_skeleton]; unfold cc50__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK50.lean ====
/- Laid out by: python3 scratch/layout_regions.py --template-region 1 --region 50 --program Kernel --parts a,b,c, --out-dir proof/Proof
   from the hand-written text of region 1 (RegKI1.lean): the same text, the region's number and the program's namespace substituted. -/
/-
  Region 50 of @main, entered from the buffer contents `V`: what its windows' blocks are, what each case of the body leaves in
  the accumulator and in the output block, the accumulator and the output block point by point (`outsAt50`: at k = 0 the
  accumulator restarts from zeros plus the product; at k = 1, 2, 3 it is the point before's plus the product; at k = 3 the
  output block is the accumulator), the region's invariant (the accumulator at `outsAt50`'s second component), the proof data,
  and the body's obligation at every point.
-/
import proofs.«158944_j64613488001249_1_alg».proof.Proof.RegK50c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk50 (c : Dev nD) (w : Fin cfg50.W) (t : Fin cfg50.N) : ((cfg50.win w).xblock (cfg50.grid.coords t)).Idx → Elt F (cfg50.win w).elt :=
  ((cfg50.win w).blk t).view.read (Elt F) (V c (Pipeline.arrRef spec50 w))

/-- An input window's current staging buffer holds its block at every point, for any proof data whose array is `V`'s and
    whose body leaves the block in place. -/
theorem before50_0_of {c : Dev nD} (dat : Dat τ (Elt F) Unit ℕ (UR sig nD τ) ℕ cfg50 c) (hA : dat.A 0 = V c (Pipeline.arrRef spec50 0))
    (hafter : ∀ t, dat.after 0 t = iblk50 V c 0 t) (t : Fin cfg50.N) (d) : dat.before 0 t d = iblk50 V c 0 t :=
  (dat.before_in_eq_fetched 0 rfl (fun _ => rfl) (fun _ _ _ => rfl) (fun t => by rw [hafter]; unfold Dat.blockOf iblk50; rw [hA]; try rfl) t d).trans
    (by unfold Dat.fetched Dat.blockOf iblk50; rw [hA]; try rfl)
theorem before50_1_of {c : Dev nD} (dat : Dat τ (Elt F) Unit ℕ (UR sig nD τ) ℕ cfg50 c) (hA : dat.A 1 = V c (Pipeline.arrRef spec50 1))
    (hafter : ∀ t, dat.after 1 t = iblk50 V c 1 t) (t : Fin cfg50.N) (d) : dat.before 1 t d = iblk50 V c 1 t :=
  (dat.before_in_eq_fetched 1 rfl (fun _ => rfl) (fun _ _ _ => rfl) (fun t => by rw [hafter]; unfold Dat.blockOf iblk50; rw [hA]; try rfl) t d).trans
    (by unfold Dat.fetched Dat.blockOf iblk50; rw [hA]; try rfl)

/-! ## What each case leaves -/

/-- Case A's stores into the accumulator cover it. -/
theorem scover50_A (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond50_0 i) (hc1 : ¬cond50_1 i)
    (x0 : Vec F S1024x1024 .bf16) (x1 : Vec F S1024x512 .f32) (y : S1024x512.Idx) :
    ∃ pc ∈ (kernelRun50_A c i arg2 harg2 arg3 harg3 arg4 harg4 arg5 harg5 hc0 hc1 x0 x1).2.1, y ∈ pc.1.set :=
  View.cover_of_tiledL (kernelRun50_A c i arg2 harg2 arg3 harg3 arg4 harg4 arg5 harg5 hc0 hc1 x0 x1).2.1 S1024x512.size (by sl_kernel_rfl) y
/-- What case A leaves in the accumulator. -/
noncomputable def sout50_A (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond50_0 i) (hc1 : ¬cond50_1 i)
    (x0 : Vec F S1024x1024 .bf16) (x1 : Vec F S1024x512 .f32) : Vec F S1024x512 .f32 :=
  VS50.read (Elt F) (VS50.writes (Elt F) VS50.junk (kernelRun50_A c i arg2 harg2 arg3 harg3 arg4 harg4 arg5 harg5 hc0 hc1 x0 x1).2.1)

/-- Case B's store into the accumulator covers it. -/
theorem scover50_B (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond50_0 i) (hc1 : ¬cond50_1 i)
    (x0 : Vec F S1024x1024 .bf16) (x1 : Vec F S1024x512 .f32) (xs0 : Vec F S1024x512 .f32) (y : S1024x512.Idx) :
    ∃ pc ∈ (kernelRun50_B c i arg2 harg2 arg3 harg3 arg4 harg4 arg5 harg5 hc0 hc1 x0 x1 xs0).2.1, y ∈ pc.1.set :=
  View.cover_of_tiledL (kernelRun50_B c i arg2 harg2 arg3 harg3 arg4 harg4 arg5 harg5 hc0 hc1 x0 x1 xs0).2.1 S1024x512.size (by sl_kernel_rfl) y
/-- What case B leaves in the accumulator, over what the point before left. -/
noncomputable def sout50_B (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond50_0 i) (hc1 : ¬cond50_1 i)
    (x0 : Vec F S1024x1024 .bf16) (x1 : Vec F S1024x512 .f32) (xs0 : Vec F S1024x512 .f32) : Vec F S1024x512 .f32 :=
  VS50.read (Elt F) (VS50.writes (Elt F) VS50.junk (kernelRun50_B c i arg2 harg2 arg3 harg3 arg4 harg4 arg5 harg5 hc0 hc1 x0 x1 xs0).2.1)

/-- Case C's store into the output block covers it, and so does its store into the accumulator. -/
theorem cover50_C (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond50_0 i) (hc1 : cond50_1 i)
    (x0 : Vec F S1024x1024 .bf16) (x1 : Vec F S1024x512 .f32) (xs0 : Vec F S1024x512 .f32) (y : S1024x512.Idx) :
    ∃ pc ∈ (kernelRun50_C c i arg2 harg2 arg3 harg3 arg4 harg4 arg5 harg5 hc0 hc1 x0 x1 xs0).1, y ∈ pc.1.set :=
  View.cover_of_tiledL (kernelRun50_C c i arg2 harg2 arg3 harg3 arg4 harg4 arg5 harg5 hc0 hc1 x0 x1 xs0).1 S1024x512.size (by sl_kernel_rfl) y
theorem scover50_C (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond50_0 i) (hc1 : cond50_1 i)
    (x0 : Vec F S1024x1024 .bf16) (x1 : Vec F S1024x512 .f32) (xs0 : Vec F S1024x512 .f32) (y : S1024x512.Idx) :
    ∃ pc ∈ (kernelRun50_C c i arg2 harg2 arg3 harg3 arg4 harg4 arg5 harg5 hc0 hc1 x0 x1 xs0).2.1, y ∈ pc.1.set :=
  View.cover_of_tiledL (kernelRun50_C c i arg2 harg2 arg3 harg3 arg4 harg4 arg5 harg5 hc0 hc1 x0 x1 xs0).2.1 S1024x512.size (by sl_kernel_rfl) y
/-- What case C leaves in the output block, and in the accumulator. -/
noncomputable def out50_C (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond50_0 i) (hc1 : cond50_1 i)
    (x0 : Vec F S1024x1024 .bf16) (x1 : Vec F S1024x512 .f32) (xs0 : Vec F S1024x512 .f32) : Vec F S1024x512 .f32 :=
  VO50_2.read (Elt F) (VO50_2.writes (Elt F) VO50_2.junk (kernelRun50_C c i arg2 harg2 arg3 harg3 arg4 harg4 arg5 harg5 hc0 hc1 x0 x1 xs0).1)
noncomputable def sout50_C (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond50_0 i) (hc1 : cond50_1 i)
    (x0 : Vec F S1024x1024 .bf16) (x1 : Vec F S1024x512 .f32) (xs0 : Vec F S1024x512 .f32) : Vec F S1024x512 .f32 :=
  VS50.read (Elt F) (VS50.writes (Elt F) VS50.junk (kernelRun50_C c i arg2 harg2 arg3 harg3 arg4 harg4 arg5 harg5 hc0 hc1 x0 x1 xs0).2.1)

/-- Where the output block is idle nothing consults what it holds: a placeholder. -/
noncomputable def outIdle50 : Vec F S1024x512 .f32 := VO50_2.read (Elt F) (VO50_2.writes (Elt F) VO50_2.junk [])

/-! ## The conditions at a point, from t % 4 -/

theorem isFirst50 (t : Fin cfg50.N) (h : t.val % 4 = 0) : cond50_0 (grid50.coords t) := (hcond50_0 t).mpr h
theorem notFirst50 (t : Fin cfg50.N) (h : ¬t.val % 4 = 0) : ¬cond50_0 (grid50.coords t) := fun hc => h ((hcond50_0 t).mp hc)
theorem isLast50 (t : Fin cfg50.N) (h : t.val % 4 = 3) : cond50_1 (grid50.coords t) := (hcond50_1 t).mpr h
theorem notLast50 (t : Fin cfg50.N) (h : ¬t.val % 4 = 3) : ¬cond50_1 (grid50.coords t) := fun hc => h ((hcond50_1 t).mp hc)

/-! ## The accumulator and the output block, point by point -/

/-- After the body at position `n`: (the output block's buffer, the accumulator). -/
noncomputable def outsAt50 (c : Dev nD) : (n : ℕ) → n < cfg50.N → Vec F S1024x512 .f32 × Vec F S1024x512 .f32
  | 0, hn => (outIdle50, sout50_A c (grid50.coords ⟨0, hn⟩) (ms50_0 ⟨0, hn⟩) (hs50_0 ⟨0, hn⟩) (ms50_1 ⟨0, hn⟩) (hs50_1 ⟨0, hn⟩) (ms50_2 ⟨0, hn⟩) (hs50_2 ⟨0, hn⟩) scM50 (Memref.isWhole_whole _) (isFirst50 ⟨0, hn⟩ (Nat.zero_mod _)) (notLast50 ⟨0, hn⟩ (by simp)) (iblk50 V c 0 ⟨0, hn⟩) (iblk50 V c 1 ⟨0, hn⟩))
  | n + 1, hn =>
    if h0 : (n + 1) % 4 = 0 then
      (outIdle50, sout50_A c (grid50.coords ⟨n + 1, hn⟩) (ms50_0 ⟨n + 1, hn⟩) (hs50_0 ⟨n + 1, hn⟩) (ms50_1 ⟨n + 1, hn⟩) (hs50_1 ⟨n + 1, hn⟩) (ms50_2 ⟨n + 1, hn⟩) (hs50_2 ⟨n + 1, hn⟩) scM50 (Memref.isWhole_whole _) (isFirst50 ⟨n + 1, hn⟩ h0) (notLast50 ⟨n + 1, hn⟩ (by show ¬(n + 1) % 4 = 3; omega)) (iblk50 V c 0 ⟨n + 1, hn⟩) (iblk50 V c 1 ⟨n + 1, hn⟩))
    else if h3 : (n + 1) % 4 = 3 then
      (out50_C c (grid50.coords ⟨n + 1, hn⟩) (ms50_0 ⟨n + 1, hn⟩) (hs50_0 ⟨n + 1, hn⟩) (ms50_1 ⟨n + 1, hn⟩) (hs50_1 ⟨n + 1, hn⟩) (ms50_2 ⟨n + 1, hn⟩) (hs50_2 ⟨n + 1, hn⟩) scM50 (Memref.isWhole_whole _) (notFirst50 ⟨n + 1, hn⟩ h0) (isLast50 ⟨n + 1, hn⟩ h3) (iblk50 V c 0 ⟨n + 1, hn⟩) (iblk50 V c 1 ⟨n + 1, hn⟩) (outsAt50 c n (Nat.lt_of_succ_lt hn)).2,
       sout50_C c (grid50.coords ⟨n + 1, hn⟩) (ms50_0 ⟨n + 1, hn⟩) (hs50_0 ⟨n + 1, hn⟩) (ms50_1 ⟨n + 1, hn⟩) (hs50_1 ⟨n + 1, hn⟩) (ms50_2 ⟨n + 1, hn⟩) (hs50_2 ⟨n + 1, hn⟩) scM50 (Memref.isWhole_whole _) (notFirst50 ⟨n + 1, hn⟩ h0) (isLast50 ⟨n + 1, hn⟩ h3) (iblk50 V c 0 ⟨n + 1, hn⟩) (iblk50 V c 1 ⟨n + 1, hn⟩) (outsAt50 c n (Nat.lt_of_succ_lt hn)).2)
    else
      (outIdle50, sout50_B c (grid50.coords ⟨n + 1, hn⟩) (ms50_0 ⟨n + 1, hn⟩) (hs50_0 ⟨n + 1, hn⟩) (ms50_1 ⟨n + 1, hn⟩) (hs50_1 ⟨n + 1, hn⟩) (ms50_2 ⟨n + 1, hn⟩) (hs50_2 ⟨n + 1, hn⟩) scM50 (Memref.isWhole_whole _) (notFirst50 ⟨n + 1, hn⟩ h0) (notLast50 ⟨n + 1, hn⟩ h3) (iblk50 V c 0 ⟨n + 1, hn⟩) (iblk50 V c 1 ⟨n + 1, hn⟩) (outsAt50 c n (Nat.lt_of_succ_lt hn)).2)

/-- `outsAt50` at a point with k = 0. -/
theorem outsAt50_A (c : Dev nD) (t : Fin cfg50.N) (h0 : t.val % 4 = 0) :
    outsAt50 V c t.val t.isLt = (outIdle50, sout50_A c (grid50.coords t) (ms50_0 t) (hs50_0 t) (ms50_1 t) (hs50_1 t) (ms50_2 t) (hs50_2 t) scM50 (Memref.isWhole_whole _) (isFirst50 t h0) (notLast50 t (by omega)) (iblk50 V c 0 t) (iblk50 V c 1 t)) := by
  obtain ⟨n, hn⟩ := t
  cases n with
  | zero => rfl
  | succ n => exact (dif_pos h0).trans rfl

/-- `outsAt50` at a point with k = 1, 2: over what the point before left. -/
theorem outsAt50_B (c : Dev nD) (t : Fin cfg50.N) (h0 : ¬t.val % 4 = 0) (h3 : ¬t.val % 4 = 3) :
    outsAt50 V c t.val t.isLt = (outIdle50, sout50_B c (grid50.coords t) (ms50_0 t) (hs50_0 t) (ms50_1 t) (hs50_1 t) (ms50_2 t) (hs50_2 t) scM50 (Memref.isWhole_whole _) (notFirst50 t h0) (notLast50 t h3) (iblk50 V c 0 t) (iblk50 V c 1 t)
      (outsAt50 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt50` at a point with k = 3. -/
theorem outsAt50_C (c : Dev nD) (t : Fin cfg50.N) (h0 : ¬t.val % 4 = 0) (h3 : t.val % 4 = 3) :
    outsAt50 V c t.val t.isLt = (out50_C c (grid50.coords t) (ms50_0 t) (hs50_0 t) (ms50_1 t) (hs50_1 t) (ms50_2 t) (hs50_2 t) scM50 (Memref.isWhole_whole _) (notFirst50 t h0) (isLast50 t h3) (iblk50 V c 0 t) (iblk50 V c 1 t)
        (outsAt50 V c (t.val - 1) (Nat.lt_of_le_of_lt (Nat.sub_le _ _) t.isLt)).2,
      sout50_C c (grid50.coords t) (ms50_0 t) (hs50_0 t) (ms50_1 t) (hs50_1 t) (ms50_2 t) (hs50_2 t) scM50 (Memref.isWhole_whole _) (notFirst50 t h0) (isLast50 t h3) (iblk50 V c 0 t) (iblk50 V c 1 t)
        (outsAt50 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS50 (c : Dev nD) : (n : ℕ) → n ≤ cfg50.N → sProp 𝕄
  | 0, _ => Pipeline.ΦA spec50 c
  | n + 1, hn => iprop(iprop(owns (c : Thread nD τ) scM50 fullShare ((outsAt50 V c n hn).2) ∗ restBut50 c) ∗ (∃ r, prngReg c r))

theorem PhiS50_zero (c : Dev nD) (n : ℕ) (h : n ≤ cfg50.N) (hz : n = 0) : PhiS50 V c n h = Pipeline.ΦA spec50 c := by
  subst hz; rfl
theorem PhiS50_succ (c : Dev nD) (n : ℕ) (hn : n < cfg50.N) :
    PhiS50 V c (n + 1) hn = iprop(iprop(owns (c : Thread nD τ) scM50 fullShare ((outsAt50 V c n hn).2) ∗ restBut50 c) ∗ (∃ r, prngReg c r)) := rfl
theorem PhiS50_pos (c : Dev nD) (n : ℕ) (h : n ≤ cfg50.N) (hz : n ≠ 0) :
    PhiS50 V c n h = iprop(iprop(owns (c : Thread nD τ) scM50 fullShare ((outsAt50 V c (n - 1) (by omega)).2) ∗ restBut50 c) ∗ (∃ r, prngReg c r)) := by
  cases n with
  | zero => exact absurd rfl hz
  | succ n => rfl

/-! ## The proof data -/

/-- The region's proof data on core `c`: the arrays as the region finds them; after the body at point `t` each input's
    buffer at its block and the output's at `outsAt50`'s first component; the invariant `PhiS50`; nothing owed; full shares. -/
noncomputable def dat50 (c : Dev nD) : Dat τ (Elt F) Unit ℕ (UR sig nD τ) ℕ cfg50 c where
  A w := V c (Pipeline.arrRef spec50 w)
  after w t := match w with
    | ⟨0, _⟩ => iblk50 V c 0 t
    | ⟨1, _⟩ => iblk50 V c 1 t
    | ⟨2, _⟩ => (outsAt50 V c t.val t.isLt).1
  Φ t := PhiS50 V c t.val (Nat.le_of_lt_succ t.isLt)
  q _ := fullShare
  owed _ := 0

theorem A_eq50 (c : Dev nD) (w : Fin cfg50.W) : (dat50 V c).A w = V c (Pipeline.arrRef spec50 w) := by
  dsimp only [dat50]
theorem PhiS50_castSucc (c : Dev nD) (t : Fin cfg50.N) :
    (dat50 V c).Φ t.castSucc = PhiS50 V c t.val (Nat.le_of_lt t.isLt) := by
  dsimp only [dat50]; simp only [Fin.coe_castSucc]
theorem after50_0 (c : Dev nD) (t : Fin cfg50.N) : (dat50 V c).after 0 t = iblk50 V c 0 t := by dsimp only [dat50]
theorem after50_1 (c : Dev nD) (t : Fin cfg50.N) : (dat50 V c).after 1 t = iblk50 V c 1 t := by dsimp only [dat50]
theorem after50_2 (c : Dev nD) (t : Fin cfg50.N) : (dat50 V c).after 2 t = (outsAt50 V c t.val t.isLt).1 := by dsimp only [dat50]
theorem before50_0 (c : Dev nD) (t : Fin cfg50.N) (d) : (dat50 V c).before 0 t d = iblk50 V c 0 t :=
  before50_0_of V (dat50 V c) (A_eq50 V c 0) (after50_0 V c) t d
theorem before50_1 (c : Dev nD) (t : Fin cfg50.N) (d) : (dat50 V c).before 1 t d = iblk50 V c 1 t :=
  before50_1_of V (dat50 V c) (A_eq50 V c 1) (after50_1 V c) t d

/-! ## The body's obligation -/

noncomputable def bodyPre50 (c : Dev nD) (t : Fin cfg50.N) : sProp 𝕄 :=
  iprop((dat50 V c).Φ t.castSucc ∗ (dat50 V c).owesAt () t.castSucc
    ∗ (∃ d, owns (c : Thread nD τ) (ms50_0 t) fullShare ((dat50 V c).before 0 t d))
    ∗ (∃ d, owns (c : Thread nD τ) (ms50_1 t) fullShare ((dat50 V c).before 1 t d))
    ∗ (∃ d, owns (c : Thread nD τ) (ms50_2 t) fullShare ((dat50 V c).before 2 t d)))

noncomputable def bodyPost50 (c : Dev nD) (t : Fin cfg50.N) : sProp 𝕄 :=
  iprop((dat50 V c).Φ t.succ ∗ (dat50 V c).owesAt () t.succ
    ∗ (dat50 V c).leavesExact 0 t
    ∗ (dat50 V c).leavesExact 1 t
    ∗ (dat50 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body50 (c : Dev nD) (t : Fin cfg50.N) :
    bodyPre50 V c t ⊢ wp frame (wpE (defs₀ (F := F)) Variants.none c none) Set.univ (bodyAt50 t) (fun _ => bodyPost50 V c t) := by
  unfold bodyPre50 bodyPost50 bodyAt50
  simp only [before50_0, before50_1]
  rw [show (dat50 V c).owesAt () t.succ = (dat50 V c).owesAt () t.castSucc from rfl]
  rw [show (dat50 V c).Φ t.succ = PhiS50 V c (t.val + 1) t.isLt from rfl, PhiS50_succ]
  rw [show (dat50 V c).leavesExact 0 t = owns (c : Thread nD τ) (ms50_0 t) fullShare ((dat50 V c).after 0 t) from by
    unfold Dat.leavesExact; rw [liveAt50_0 t], after50_0]
  rw [show (dat50 V c).leavesExact 1 t = owns (c : Thread nD τ) (ms50_1 t) fullShare ((dat50 V c).after 1 t) from by
    unfold Dat.leavesExact; rw [liveAt50_1 t], after50_1]
  by_cases h0 : t.val % 4 = 0
  · have h3 : ¬t.val % 4 = 3 := by omega
    rw [Dat.leavesExact_idle (dat50 V c) 2 t (idleAt50_2 t (notLast50 t h3)) (noFlush50_2 t (notLast50 t h3))]
    rw [outsAt50_A V c t h0]
    unfold sout50_A; (try dsimp only)
    by_cases hz : t.val = 0
    · rw [PhiS50_castSucc V c t, PhiS50_zero V c _ _ hz, PhiA50_eq]
      iintro ⟨⟨⟨HS0, Hrb⟩, Hg⟩, Ho, ⟨%d0, H0⟩, ⟨%d1, H1⟩, ⟨%d2, H2⟩⟩
      iapply ((kernelRun50_A c (grid50.coords t) _ _ _ _ _ _ _ _ (isFirst50 t h0) (notLast50 t (by omega)) (iblk50 V c 0 t) (iblk50 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover50_A c _ _ _ _ _ _ _ _ _ _ _ _ _)
          iexact Hrb
        iexact Hg
      isplitl [Ho]; · iexact Ho
      isplitl [H0]; · iexact H0
      isplitl [H1]; · iexact H1
      iexists _; iexact H2
    · rw [PhiS50_castSucc V c t, PhiS50_pos V c _ _ hz]
      iintro ⟨⟨⟨HS0, Hrb⟩, Hg⟩, Ho, ⟨%d0, H0⟩, ⟨%d1, H1⟩, ⟨%d2, H2⟩⟩
      iapply ((kernelRun50_A c (grid50.coords t) _ _ _ _ _ _ _ _ (isFirst50 t h0) (notLast50 t (by omega)) (iblk50 V c 0 t) (iblk50 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover50_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat50 V c).leavesExact 2 t = owns (c : Thread nD τ) (ms50_2 t) fullShare ((dat50 V c).after 2 t) from by
        unfold Dat.leavesExact; rw [liveAt50_2 t (isLast50 t h3)], after50_2]
      rw [outsAt50_C V c t h0 h3]
      unfold out50_C sout50_C; (try dsimp only)
      rw [PhiS50_castSucc V c t, PhiS50_pos V c _ _ hz]
      iintro ⟨⟨⟨HS0, Hrb⟩, Hg⟩, Ho, ⟨%d0, H0⟩, ⟨%d1, H1⟩, ⟨%d2, H2⟩⟩
      iapply ((kernelRun50_C c (grid50.coords t) _ _ _ _ _ _ _ _ (notFirst50 t h0) (isLast50 t h3) (iblk50 V c 0 t) (iblk50 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover50_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover50_C c _ _ _ _ _ _ _ _ _ _ _ _ _ _)
    · rw [Dat.leavesExact_idle (dat50 V c) 2 t (idleAt50_2 t (notLast50 t h3)) (noFlush50_2 t (notLast50 t h3))]
      rw [outsAt50_B V c t h0 h3]
      unfold sout50_B; (try dsimp only)
      rw [PhiS50_castSucc V c t, PhiS50_pos V c _ _ hz]
      iintro ⟨⟨⟨HS0, Hrb⟩, Hg⟩, Ho, ⟨%d0, H0⟩, ⟨%d1, H1⟩, ⟨%d2, H2⟩⟩
      iapply ((kernelRun50_B c (grid50.coords t) _ _ _ _ _ _ _ _ (notFirst50 t h0) (notLast50 t h3) (iblk50 V c 0 t) (iblk50 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover50_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation50 (c : Dev nD) : BodyObligation (dat50 (F := F) V c) (defs₀ (F := F)) Variants.none () Set.univ := fun t => by
  rw [bigSep_W50, bigSep_W50]
  exact sound_body50 V c t

/-- What the region is entered with is the invariant before the first point. -/
theorem hin50 (c : Dev nD) : Pipeline.ΦA spec50 c ⊢ (dat50 V c).Φ 0 := by
  rw [show (dat50 V c).Φ 0 = PhiS50 V c 0 (Nat.zero_le _) from rfl, PhiS50_zero V c 0 _ rfl]
  try exact Idealize.SL.BI.Entails.refl _

/-- After the last point the invariant gives the class's back: the accumulator's contents are forgotten. -/
theorem hout50 (c : Dev nD) : (dat50 V c).Φ (Fin.last cfg50.N) ⊢ Pipeline.ΦA spec50 c := by
  have hN : cfg50.N = 16 := N_50
  rw [show (dat50 V c).Φ (Fin.last cfg50.N) = PhiS50 V c (Fin.last cfg50.N).val (Nat.le_of_lt_succ (Fin.last cfg50.N).isLt) from rfl,
    PhiS50_pos V c _ _ (by rw [Fin.val_last]; omega), PhiA50_eq]
  iintro ⟨⟨HS0, Hrb⟩, Hg⟩
  isplitl [HS0 Hrb]
  · isplitl [HS0]
    · iexists _; iexact HS0
    iexact Hrb
  iexact Hg

end Cert.Kernel.Hand

end
-- ==== Proof.RegK51a.lean ====
/- Laid out by: python3 scratch/layout_regions.py --template-region 1 --region 51 --program Kernel --parts a,b,c, --out-dir proof/Proof
   from the hand-written text of region 1 (RegKI1a.lean): the same text, the region's number and the program's namespace substituted. -/
/-
  Region 51 of @main (custom_call 51): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond51_0 (i : grid51.Coords) : Prop := (Scalar.cmpi .ne (Scalar.extui (Scalar.cmpi .eq (BitVec.ofNat 32 (i 1).val) 0#32)) 0#32) = 1#1
/-- It holds exactly at the points with t % 4 = 0. -/
theorem hcond51_0 : ∀ t : Fin cfg51.N, cond51_0 (grid51.coords t) ↔ t.val % 4 = 0 :=
  (by decide +kernel : ∀ t : Fin grid51.N, cond51_0 (grid51.coords t) ↔ t.val % 4 = 0)

/-- "k = 3": the second conditional's test. -/
abbrev cond51_1 (i : grid51.Coords) : Prop := k51_cond2 i = 1#1
/-- It holds exactly at the points with t % 4 = 3. -/
theorem hcond51_1 : ∀ t : Fin cfg51.N, cond51_1 (grid51.coords t) ↔ t.val % 4 = 3 :=
  (by decide +kernel : ∀ t : Fin grid51.N, cond51_1 (grid51.coords t) ↔ t.val % 4 = 3)

/-! ## Where the windows are idle, and where the output is written back -/

/-- The two input windows are never idle. -/
theorem liveAt51_0 : ∀ t : Fin cfg51.N, cfg51.idle 0 (grid51.coords t) = false := by decide +kernel
theorem liveAt51_1 : ∀ t : Fin cfg51.N, cfg51.idle 1 (grid51.coords t) = false := by decide +kernel
/-- Where k ≠ 3 the output window is idle (the body stores nothing into it) and is not written back. -/
theorem idleAt51_2 : ∀ t : Fin cfg51.N, ¬cond51_1 (grid51.coords t) → cfg51.idle 2 (grid51.coords t) = true := by decide +kernel
theorem noFlush51_2 : ∀ t : Fin cfg51.N, ¬cond51_1 (grid51.coords t) → (cfg51.win 2).flush t = false := by decide +kernel
/-- Where k = 3 it is live. -/
theorem liveAt51_2 : ∀ t : Fin cfg51.N, cond51_1 (grid51.coords t) → cfg51.idle 2 (grid51.coords t) = false := by decide +kernel

/-! ## The staging memrefs at a point, and the scratch -/

/-- One staging buffer of the output window, through which its contents are stated. -/
abbrev VO51_2 : View sig .tc .vmem S1024x512 .f32 := (Memref.whole cc51_stg2_0 : Memref sig .tc .vmem S1024x512 .f32).view
abbrev ms51_0 (t : Fin cfg51.N) : Memref sig .tc .vmem S1024x1024 .bf16 := win51_0.stage (cfg51.slots t 0)
abbrev hs51_0 (t : Fin cfg51.N) : (ms51_0 t).IsWhole := hstage51_0 ((cfg51.slots t 0).cast nbuf51_0)
abbrev ms51_1 (t : Fin cfg51.N) : Memref sig .tc .vmem S1024x512 .f32 := win51_1.stage (cfg51.slots t 1)
abbrev hs51_1 (t : Fin cfg51.N) : (ms51_1 t).IsWhole := hstage51_1 ((cfg51.slots t 1).cast nbuf51_1)
abbrev ms51_2 (t : Fin cfg51.N) : Memref sig .tc .vmem S1024x512 .f32 := win51_2.stage (cfg51.slots t 2)
abbrev hs51_2 (t : Fin cfg51.N) : (ms51_2 t).IsWhole := hstage51_2 ((cfg51.slots t 2).cast nbuf51_2)
/-- The accumulator: a whole scoped buffer of the kernel's own. -/
abbrev scM51 : Memref sig .tc .vmem S1024x512 .f32 := Memref.whole cc51_scratch0
abbrev VS51 : View sig .tc .vmem S1024x512 .f32 := scM51.view

/-- The other scoped buffers of the core, none of which this region touches. -/
abbrev restBut51 (c : Dev nD) : sProp 𝕄 :=
  Pipeline.scopedRestBut (Ix := Unit) (Name := ℕ) (U := UR sig nD τ) (Lvl := ℕ) (Val := Elt F) spec51 c [cc51_scratch0]

/-- The region's invariant before its first point: the accumulator at something, the other scoped buffers, the generator register. -/
theorem PhiA51_eq (c : Dev nD) :
    (Pipeline.ΦA spec51 c : sProp 𝕄)
      = iprop(iprop((∃ d, owns (c : Thread nD τ) scM51 fullShare d) ∗ restBut51 c) ∗ (∃ r, prngReg c r)) := by
  unfold Pipeline.ΦA; rw [scopedRest51_split]; simp only [scM51, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun51_A (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond51_0 i) (hc1 : ¬cond51_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc51__matmul_kernel i arg2 harg2 arg3 harg3 arg4 harg4 arg5 harg5) K } := by
  refine ⟨[], ?_, fun xi2 E K => ?run⟩
  case run =>
    simp only [cc51__matmul_kernel_eq_skeleton]; unfold cc51__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK51b.lean ====
/- Laid out by: python3 scratch/layout_regions.py --template-region 1 --region 51 --program Kernel --parts a,b,c, --out-dir proof/Proof
   from the hand-written text of region 1 (RegKI1b.lean): the same text, the region's number and the program's namespace substituted. -/
/-
  Region 51, case B (k = 1, 2): the body's run. Neither conditional is taken: the product of the two blocks is added to what
  the point before left in the accumulator; the output block is not touched.
-/
import proofs.«158944_j64613488001249_1_alg».proof.Proof.RegK51a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun51_B (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond51_0 i) (hc1 : ¬cond51_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc51__matmul_kernel i arg2 harg2 arg3 harg3 arg4 harg4 arg5 harg5) K } := by
  refine ⟨[], ?_, fun xi2 E K => ?run⟩
  case run =>
    simp only [cc51__matmul_kernel_eq_skeleton]; unfold cc51__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK51c.lean ====
/- Laid out by: python3 scratch/layout_regions.py --template-region 1 --region 51 --program Kernel --parts a,b,c, --out-dir proof/Proof
   from the hand-written text of region 1 (RegKI1c.lean): the same text, the region's number and the program's namespace substituted. -/
/-
  Region 51, case C (k = 3): the body's run. The product is added to the accumulator as in case B, and then the second
  conditional copies the accumulator over the whole output block.
-/
import proofs.«158944_j64613488001249_1_alg».proof.Proof.RegK51b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun51_C (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond51_0 i) (hc1 : cond51_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc51__matmul_kernel i arg2 harg2 arg3 harg3 arg4 harg4 arg5 harg5) K } := by
  refine ⟨?_, ?_, fun E K => ?run⟩
  case run =>
    simp only [cc51__matmul_kernel_eq_skeleton]; unfold cc51__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK51.lean ====
/- Laid out by: python3 scratch/layout_regions.py --template-region 1 --region 51 --program Kernel --parts a,b,c, --out-dir proof/Proof
   from the hand-written text of region 1 (RegKI1.lean): the same text, the region's number and the program's namespace substituted. -/
/-
  Region 51 of @main, entered from the buffer contents `V`: what its windows' blocks are, what each case of the body leaves in
  the accumulator and in the output block, the accumulator and the output block point by point (`outsAt51`: at k = 0 the
  accumulator restarts from zeros plus the product; at k = 1, 2, 3 it is the point before's plus the product; at k = 3 the
  output block is the accumulator), the region's invariant (the accumulator at `outsAt51`'s second component), the proof data,
  and the body's obligation at every point.
-/
import proofs.«158944_j64613488001249_1_alg».proof.Proof.RegK51c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk51 (c : Dev nD) (w : Fin cfg51.W) (t : Fin cfg51.N) : ((cfg51.win w).xblock (cfg51.grid.coords t)).Idx → Elt F (cfg51.win w).elt :=
  ((cfg51.win w).blk t).view.read (Elt F) (V c (Pipeline.arrRef spec51 w))

/-- An input window's current staging buffer holds its block at every point, for any proof data whose array is `V`'s and
    whose body leaves the block in place. -/
theorem before51_0_of {c : Dev nD} (dat : Dat τ (Elt F) Unit ℕ (UR sig nD τ) ℕ cfg51 c) (hA : dat.A 0 = V c (Pipeline.arrRef spec51 0))
    (hafter : ∀ t, dat.after 0 t = iblk51 V c 0 t) (t : Fin cfg51.N) (d) : dat.before 0 t d = iblk51 V c 0 t :=
  (dat.before_in_eq_fetched 0 rfl (fun _ => rfl) (fun _ _ _ => rfl) (fun t => by rw [hafter]; unfold Dat.blockOf iblk51; rw [hA]; try rfl) t d).trans
    (by unfold Dat.fetched Dat.blockOf iblk51; rw [hA]; try rfl)
theorem before51_1_of {c : Dev nD} (dat : Dat τ (Elt F) Unit ℕ (UR sig nD τ) ℕ cfg51 c) (hA : dat.A 1 = V c (Pipeline.arrRef spec51 1))
    (hafter : ∀ t, dat.after 1 t = iblk51 V c 1 t) (t : Fin cfg51.N) (d) : dat.before 1 t d = iblk51 V c 1 t :=
  (dat.before_in_eq_fetched 1 rfl (fun _ => rfl) (fun _ _ _ => rfl) (fun t => by rw [hafter]; unfold Dat.blockOf iblk51; rw [hA]; try rfl) t d).trans
    (by unfold Dat.fetched Dat.blockOf iblk51; rw [hA]; try rfl)

/-! ## What each case leaves -/

/-- Case A's stores into the accumulator cover it. -/
theorem scover51_A (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond51_0 i) (hc1 : ¬cond51_1 i)
    (x0 : Vec F S1024x1024 .bf16) (x1 : Vec F S1024x512 .f32) (y : S1024x512.Idx) :
    ∃ pc ∈ (kernelRun51_A c i arg2 harg2 arg3 harg3 arg4 harg4 arg5 harg5 hc0 hc1 x0 x1).2.1, y ∈ pc.1.set :=
  View.cover_of_tiledL (kernelRun51_A c i arg2 harg2 arg3 harg3 arg4 harg4 arg5 harg5 hc0 hc1 x0 x1).2.1 S1024x512.size (by sl_kernel_rfl) y
/-- What case A leaves in the accumulator. -/
noncomputable def sout51_A (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond51_0 i) (hc1 : ¬cond51_1 i)
    (x0 : Vec F S1024x1024 .bf16) (x1 : Vec F S1024x512 .f32) : Vec F S1024x512 .f32 :=
  VS51.read (Elt F) (VS51.writes (Elt F) VS51.junk (kernelRun51_A c i arg2 harg2 arg3 harg3 arg4 harg4 arg5 harg5 hc0 hc1 x0 x1).2.1)

/-- Case B's store into the accumulator covers it. -/
theorem scover51_B (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond51_0 i) (hc1 : ¬cond51_1 i)
    (x0 : Vec F S1024x1024 .bf16) (x1 : Vec F S1024x512 .f32) (xs0 : Vec F S1024x512 .f32) (y : S1024x512.Idx) :
    ∃ pc ∈ (kernelRun51_B c i arg2 harg2 arg3 harg3 arg4 harg4 arg5 harg5 hc0 hc1 x0 x1 xs0).2.1, y ∈ pc.1.set :=
  View.cover_of_tiledL (kernelRun51_B c i arg2 harg2 arg3 harg3 arg4 harg4 arg5 harg5 hc0 hc1 x0 x1 xs0).2.1 S1024x512.size (by sl_kernel_rfl) y
/-- What case B leaves in the accumulator, over what the point before left. -/
noncomputable def sout51_B (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond51_0 i) (hc1 : ¬cond51_1 i)
    (x0 : Vec F S1024x1024 .bf16) (x1 : Vec F S1024x512 .f32) (xs0 : Vec F S1024x512 .f32) : Vec F S1024x512 .f32 :=
  VS51.read (Elt F) (VS51.writes (Elt F) VS51.junk (kernelRun51_B c i arg2 harg2 arg3 harg3 arg4 harg4 arg5 harg5 hc0 hc1 x0 x1 xs0).2.1)

/-- Case C's store into the output block covers it, and so does its store into the accumulator. -/
theorem cover51_C (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond51_0 i) (hc1 : cond51_1 i)
    (x0 : Vec F S1024x1024 .bf16) (x1 : Vec F S1024x512 .f32) (xs0 : Vec F S1024x512 .f32) (y : S1024x512.Idx) :
    ∃ pc ∈ (kernelRun51_C c i arg2 harg2 arg3 harg3 arg4 harg4 arg5 harg5 hc0 hc1 x0 x1 xs0).1, y ∈ pc.1.set :=
  View.cover_of_tiledL (kernelRun51_C c i arg2 harg2 arg3 harg3 arg4 harg4 arg5 harg5 hc0 hc1 x0 x1 xs0).1 S1024x512.size (by sl_kernel_rfl) y
theorem scover51_C (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond51_0 i) (hc1 : cond51_1 i)
    (x0 : Vec F S1024x1024 .bf16) (x1 : Vec F S1024x512 .f32) (xs0 : Vec F S1024x512 .f32) (y : S1024x512.Idx) :
    ∃ pc ∈ (kernelRun51_C c i arg2 harg2 arg3 harg3 arg4 harg4 arg5 harg5 hc0 hc1 x0 x1 xs0).2.1, y ∈ pc.1.set :=
  View.cover_of_tiledL (kernelRun51_C c i arg2 harg2 arg3 harg3 arg4 harg4 arg5 harg5 hc0 hc1 x0 x1 xs0).2.1 S1024x512.size (by sl_kernel_rfl) y
/-- What case C leaves in the output block, and in the accumulator. -/
noncomputable def out51_C (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond51_0 i) (hc1 : cond51_1 i)
    (x0 : Vec F S1024x1024 .bf16) (x1 : Vec F S1024x512 .f32) (xs0 : Vec F S1024x512 .f32) : Vec F S1024x512 .f32 :=
  VO51_2.read (Elt F) (VO51_2.writes (Elt F) VO51_2.junk (kernelRun51_C c i arg2 harg2 arg3 harg3 arg4 harg4 arg5 harg5 hc0 hc1 x0 x1 xs0).1)
noncomputable def sout51_C (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond51_0 i) (hc1 : cond51_1 i)
    (x0 : Vec F S1024x1024 .bf16) (x1 : Vec F S1024x512 .f32) (xs0 : Vec F S1024x512 .f32) : Vec F S1024x512 .f32 :=
  VS51.read (Elt F) (VS51.writes (Elt F) VS51.junk (kernelRun51_C c i arg2 harg2 arg3 harg3 arg4 harg4 arg5 harg5 hc0 hc1 x0 x1 xs0).2.1)

/-- Where the output block is idle nothing consults what it holds: a placeholder. -/
noncomputable def outIdle51 : Vec F S1024x512 .f32 := VO51_2.read (Elt F) (VO51_2.writes (Elt F) VO51_2.junk [])

/-! ## The conditions at a point, from t % 4 -/

theorem isFirst51 (t : Fin cfg51.N) (h : t.val % 4 = 0) : cond51_0 (grid51.coords t) := (hcond51_0 t).mpr h
theorem notFirst51 (t : Fin cfg51.N) (h : ¬t.val % 4 = 0) : ¬cond51_0 (grid51.coords t) := fun hc => h ((hcond51_0 t).mp hc)
theorem isLast51 (t : Fin cfg51.N) (h : t.val % 4 = 3) : cond51_1 (grid51.coords t) := (hcond51_1 t).mpr h
theorem notLast51 (t : Fin cfg51.N) (h : ¬t.val % 4 = 3) : ¬cond51_1 (grid51.coords t) := fun hc => h ((hcond51_1 t).mp hc)

/-! ## The accumulator and the output block, point by point -/

/-- After the body at position `n`: (the output block's buffer, the accumulator). -/
noncomputable def outsAt51 (c : Dev nD) : (n : ℕ) → n < cfg51.N → Vec F S1024x512 .f32 × Vec F S1024x512 .f32
  | 0, hn => (outIdle51, sout51_A c (grid51.coords ⟨0, hn⟩) (ms51_0 ⟨0, hn⟩) (hs51_0 ⟨0, hn⟩) (ms51_1 ⟨0, hn⟩) (hs51_1 ⟨0, hn⟩) (ms51_2 ⟨0, hn⟩) (hs51_2 ⟨0, hn⟩) scM51 (Memref.isWhole_whole _) (isFirst51 ⟨0, hn⟩ (Nat.zero_mod _)) (notLast51 ⟨0, hn⟩ (by simp)) (iblk51 V c 0 ⟨0, hn⟩) (iblk51 V c 1 ⟨0, hn⟩))
  | n + 1, hn =>
    if h0 : (n + 1) % 4 = 0 then
      (outIdle51, sout51_A c (grid51.coords ⟨n + 1, hn⟩) (ms51_0 ⟨n + 1, hn⟩) (hs51_0 ⟨n + 1, hn⟩) (ms51_1 ⟨n + 1, hn⟩) (hs51_1 ⟨n + 1, hn⟩) (ms51_2 ⟨n + 1, hn⟩) (hs51_2 ⟨n + 1, hn⟩) scM51 (Memref.isWhole_whole _) (isFirst51 ⟨n + 1, hn⟩ h0) (notLast51 ⟨n + 1, hn⟩ (by show ¬(n + 1) % 4 = 3; omega)) (iblk51 V c 0 ⟨n + 1, hn⟩) (iblk51 V c 1 ⟨n + 1, hn⟩))
    else if h3 : (n + 1) % 4 = 3 then
      (out51_C c (grid51.coords ⟨n + 1, hn⟩) (ms51_0 ⟨n + 1, hn⟩) (hs51_0 ⟨n + 1, hn⟩) (ms51_1 ⟨n + 1, hn⟩) (hs51_1 ⟨n + 1, hn⟩) (ms51_2 ⟨n + 1, hn⟩) (hs51_2 ⟨n + 1, hn⟩) scM51 (Memref.isWhole_whole _) (notFirst51 ⟨n + 1, hn⟩ h0) (isLast51 ⟨n + 1, hn⟩ h3) (iblk51 V c 0 ⟨n + 1, hn⟩) (iblk51 V c 1 ⟨n + 1, hn⟩) (outsAt51 c n (Nat.lt_of_succ_lt hn)).2,
       sout51_C c (grid51.coords ⟨n + 1, hn⟩) (ms51_0 ⟨n + 1, hn⟩) (hs51_0 ⟨n + 1, hn⟩) (ms51_1 ⟨n + 1, hn⟩) (hs51_1 ⟨n + 1, hn⟩) (ms51_2 ⟨n + 1, hn⟩) (hs51_2 ⟨n + 1, hn⟩) scM51 (Memref.isWhole_whole _) (notFirst51 ⟨n + 1, hn⟩ h0) (isLast51 ⟨n + 1, hn⟩ h3) (iblk51 V c 0 ⟨n + 1, hn⟩) (iblk51 V c 1 ⟨n + 1, hn⟩) (outsAt51 c n (Nat.lt_of_succ_lt hn)).2)
    else
      (outIdle51, sout51_B c (grid51.coords ⟨n + 1, hn⟩) (ms51_0 ⟨n + 1, hn⟩) (hs51_0 ⟨n + 1, hn⟩) (ms51_1 ⟨n + 1, hn⟩) (hs51_1 ⟨n + 1, hn⟩) (ms51_2 ⟨n + 1, hn⟩) (hs51_2 ⟨n + 1, hn⟩) scM51 (Memref.isWhole_whole _) (notFirst51 ⟨n + 1, hn⟩ h0) (notLast51 ⟨n + 1, hn⟩ h3) (iblk51 V c 0 ⟨n + 1, hn⟩) (iblk51 V c 1 ⟨n + 1, hn⟩) (outsAt51 c n (Nat.lt_of_succ_lt hn)).2)

/-- `outsAt51` at a point with k = 0. -/
theorem outsAt51_A (c : Dev nD) (t : Fin cfg51.N) (h0 : t.val % 4 = 0) :
    outsAt51 V c t.val t.isLt = (outIdle51, sout51_A c (grid51.coords t) (ms51_0 t) (hs51_0 t) (ms51_1 t) (hs51_1 t) (ms51_2 t) (hs51_2 t) scM51 (Memref.isWhole_whole _) (isFirst51 t h0) (notLast51 t (by omega)) (iblk51 V c 0 t) (iblk51 V c 1 t)) := by
  obtain ⟨n, hn⟩ := t
  cases n with
  | zero => rfl
  | succ n => exact (dif_pos h0).trans rfl

/-- `outsAt51` at a point with k = 1, 2: over what the point before left. -/
theorem outsAt51_B (c : Dev nD) (t : Fin cfg51.N) (h0 : ¬t.val % 4 = 0) (h3 : ¬t.val % 4 = 3) :
    outsAt51 V c t.val t.isLt = (outIdle51, sout51_B c (grid51.coords t) (ms51_0 t) (hs51_0 t) (ms51_1 t) (hs51_1 t) (ms51_2 t) (hs51_2 t) scM51 (Memref.isWhole_whole _) (notFirst51 t h0) (notLast51 t h3) (iblk51 V c 0 t) (iblk51 V c 1 t)
      (outsAt51 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt51` at a point with k = 3. -/
theorem outsAt51_C (c : Dev nD) (t : Fin cfg51.N) (h0 : ¬t.val % 4 = 0) (h3 : t.val % 4 = 3) :
    outsAt51 V c t.val t.isLt = (out51_C c (grid51.coords t) (ms51_0 t) (hs51_0 t) (ms51_1 t) (hs51_1 t) (ms51_2 t) (hs51_2 t) scM51 (Memref.isWhole_whole _) (notFirst51 t h0) (isLast51 t h3) (iblk51 V c 0 t) (iblk51 V c 1 t)
        (outsAt51 V c (t.val - 1) (Nat.lt_of_le_of_lt (Nat.sub_le _ _) t.isLt)).2,
      sout51_C c (grid51.coords t) (ms51_0 t) (hs51_0 t) (ms51_1 t) (hs51_1 t) (ms51_2 t) (hs51_2 t) scM51 (Memref.isWhole_whole _) (notFirst51 t h0) (isLast51 t h3) (iblk51 V c 0 t) (iblk51 V c 1 t)
        (outsAt51 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS51 (c : Dev nD) : (n : ℕ) → n ≤ cfg51.N → sProp 𝕄
  | 0, _ => Pipeline.ΦA spec51 c
  | n + 1, hn => iprop(iprop(owns (c : Thread nD τ) scM51 fullShare ((outsAt51 V c n hn).2) ∗ restBut51 c) ∗ (∃ r, prngReg c r))

theorem PhiS51_zero (c : Dev nD) (n : ℕ) (h : n ≤ cfg51.N) (hz : n = 0) : PhiS51 V c n h = Pipeline.ΦA spec51 c := by
  subst hz; rfl
theorem PhiS51_succ (c : Dev nD) (n : ℕ) (hn : n < cfg51.N) :
    PhiS51 V c (n + 1) hn = iprop(iprop(owns (c : Thread nD τ) scM51 fullShare ((outsAt51 V c n hn).2) ∗ restBut51 c) ∗ (∃ r, prngReg c r)) := rfl
theorem PhiS51_pos (c : Dev nD) (n : ℕ) (h : n ≤ cfg51.N) (hz : n ≠ 0) :
    PhiS51 V c n h = iprop(iprop(owns (c : Thread nD τ) scM51 fullShare ((outsAt51 V c (n - 1) (by omega)).2) ∗ restBut51 c) ∗ (∃ r, prngReg c r)) := by
  cases n with
  | zero => exact absurd rfl hz
  | succ n => rfl

/-! ## The proof data -/

/-- The region's proof data on core `c`: the arrays as the region finds them; after the body at point `t` each input's
    buffer at its block and the output's at `outsAt51`'s first component; the invariant `PhiS51`; nothing owed; full shares. -/
noncomputable def dat51 (c : Dev nD) : Dat τ (Elt F) Unit ℕ (UR sig nD τ) ℕ cfg51 c where
  A w := V c (Pipeline.arrRef spec51 w)
  after w t := match w with
    | ⟨0, _⟩ => iblk51 V c 0 t
    | ⟨1, _⟩ => iblk51 V c 1 t
    | ⟨2, _⟩ => (outsAt51 V c t.val t.isLt).1
  Φ t := PhiS51 V c t.val (Nat.le_of_lt_succ t.isLt)
  q _ := fullShare
  owed _ := 0

theorem A_eq51 (c : Dev nD) (w : Fin cfg51.W) : (dat51 V c).A w = V c (Pipeline.arrRef spec51 w) := by
  dsimp only [dat51]
theorem PhiS51_castSucc (c : Dev nD) (t : Fin cfg51.N) :
    (dat51 V c).Φ t.castSucc = PhiS51 V c t.val (Nat.le_of_lt t.isLt) := by
  dsimp only [dat51]; simp only [Fin.coe_castSucc]
theorem after51_0 (c : Dev nD) (t : Fin cfg51.N) : (dat51 V c).after 0 t = iblk51 V c 0 t := by dsimp only [dat51]
theorem after51_1 (c : Dev nD) (t : Fin cfg51.N) : (dat51 V c).after 1 t = iblk51 V c 1 t := by dsimp only [dat51]
theorem after51_2 (c : Dev nD) (t : Fin cfg51.N) : (dat51 V c).after 2 t = (outsAt51 V c t.val t.isLt).1 := by dsimp only [dat51]
theorem before51_0 (c : Dev nD) (t : Fin cfg51.N) (d) : (dat51 V c).before 0 t d = iblk51 V c 0 t :=
  before51_0_of V (dat51 V c) (A_eq51 V c 0) (after51_0 V c) t d
theorem before51_1 (c : Dev nD) (t : Fin cfg51.N) (d) : (dat51 V c).before 1 t d = iblk51 V c 1 t :=
  before51_1_of V (dat51 V c) (A_eq51 V c 1) (after51_1 V c) t d

/-! ## The body's obligation -/

noncomputable def bodyPre51 (c : Dev nD) (t : Fin cfg51.N) : sProp 𝕄 :=
  iprop((dat51 V c).Φ t.castSucc ∗ (dat51 V c).owesAt () t.castSucc
    ∗ (∃ d, owns (c : Thread nD τ) (ms51_0 t) fullShare ((dat51 V c).before 0 t d))
    ∗ (∃ d, owns (c : Thread nD τ) (ms51_1 t) fullShare ((dat51 V c).before 1 t d))
    ∗ (∃ d, owns (c : Thread nD τ) (ms51_2 t) fullShare ((dat51 V c).before 2 t d)))

noncomputable def bodyPost51 (c : Dev nD) (t : Fin cfg51.N) : sProp 𝕄 :=
  iprop((dat51 V c).Φ t.succ ∗ (dat51 V c).owesAt () t.succ
    ∗ (dat51 V c).leavesExact 0 t
    ∗ (dat51 V c).leavesExact 1 t
    ∗ (dat51 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body51 (c : Dev nD) (t : Fin cfg51.N) :
    bodyPre51 V c t ⊢ wp frame (wpE (defs₀ (F := F)) Variants.none c none) Set.univ (bodyAt51 t) (fun _ => bodyPost51 V c t) := by
  unfold bodyPre51 bodyPost51 bodyAt51
  simp only [before51_0, before51_1]
  rw [show (dat51 V c).owesAt () t.succ = (dat51 V c).owesAt () t.castSucc from rfl]
  rw [show (dat51 V c).Φ t.succ = PhiS51 V c (t.val + 1) t.isLt from rfl, PhiS51_succ]
  rw [show (dat51 V c).leavesExact 0 t = owns (c : Thread nD τ) (ms51_0 t) fullShare ((dat51 V c).after 0 t) from by
    unfold Dat.leavesExact; rw [liveAt51_0 t], after51_0]
  rw [show (dat51 V c).leavesExact 1 t = owns (c : Thread nD τ) (ms51_1 t) fullShare ((dat51 V c).after 1 t) from by
    unfold Dat.leavesExact; rw [liveAt51_1 t], after51_1]
  by_cases h0 : t.val % 4 = 0
  · have h3 : ¬t.val % 4 = 3 := by omega
    rw [Dat.leavesExact_idle (dat51 V c) 2 t (idleAt51_2 t (notLast51 t h3)) (noFlush51_2 t (notLast51 t h3))]
    rw [outsAt51_A V c t h0]
    unfold sout51_A; (try dsimp only)
    by_cases hz : t.val = 0
    · rw [PhiS51_castSucc V c t, PhiS51_zero V c _ _ hz, PhiA51_eq]
      iintro ⟨⟨⟨HS0, Hrb⟩, Hg⟩, Ho, ⟨%d0, H0⟩, ⟨%d1, H1⟩, ⟨%d2, H2⟩⟩
      iapply ((kernelRun51_A c (grid51.coords t) _ _ _ _ _ _ _ _ (isFirst51 t h0) (notLast51 t (by omega)) (iblk51 V c 0 t) (iblk51 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover51_A c _ _ _ _ _ _ _ _ _ _ _ _ _)
          iexact Hrb
        iexact Hg
      isplitl [Ho]; · iexact Ho
      isplitl [H0]; · iexact H0
      isplitl [H1]; · iexact H1
      iexists _; iexact H2
    · rw [PhiS51_castSucc V c t, PhiS51_pos V c _ _ hz]
      iintro ⟨⟨⟨HS0, Hrb⟩, Hg⟩, Ho, ⟨%d0, H0⟩, ⟨%d1, H1⟩, ⟨%d2, H2⟩⟩
      iapply ((kernelRun51_A c (grid51.coords t) _ _ _ _ _ _ _ _ (isFirst51 t h0) (notLast51 t (by omega)) (iblk51 V c 0 t) (iblk51 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover51_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat51 V c).leavesExact 2 t = owns (c : Thread nD τ) (ms51_2 t) fullShare ((dat51 V c).after 2 t) from by
        unfold Dat.leavesExact; rw [liveAt51_2 t (isLast51 t h3)], after51_2]
      rw [outsAt51_C V c t h0 h3]
      unfold out51_C sout51_C; (try dsimp only)
      rw [PhiS51_castSucc V c t, PhiS51_pos V c _ _ hz]
      iintro ⟨⟨⟨HS0, Hrb⟩, Hg⟩, Ho, ⟨%d0, H0⟩, ⟨%d1, H1⟩, ⟨%d2, H2⟩⟩
      iapply ((kernelRun51_C c (grid51.coords t) _ _ _ _ _ _ _ _ (notFirst51 t h0) (isLast51 t h3) (iblk51 V c 0 t) (iblk51 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover51_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover51_C c _ _ _ _ _ _ _ _ _ _ _ _ _ _)
    · rw [Dat.leavesExact_idle (dat51 V c) 2 t (idleAt51_2 t (notLast51 t h3)) (noFlush51_2 t (notLast51 t h3))]
      rw [outsAt51_B V c t h0 h3]
      unfold sout51_B; (try dsimp only)
      rw [PhiS51_castSucc V c t, PhiS51_pos V c _ _ hz]
      iintro ⟨⟨⟨HS0, Hrb⟩, Hg⟩, Ho, ⟨%d0, H0⟩, ⟨%d1, H1⟩, ⟨%d2, H2⟩⟩
      iapply ((kernelRun51_B c (grid51.coords t) _ _ _ _ _ _ _ _ (notFirst51 t h0) (notLast51 t h3) (iblk51 V c 0 t) (iblk51 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover51_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation51 (c : Dev nD) : BodyObligation (dat51 (F := F) V c) (defs₀ (F := F)) Variants.none () Set.univ := fun t => by
  rw [bigSep_W51, bigSep_W51]
  exact sound_body51 V c t

/-- What the region is entered with is the invariant before the first point. -/
theorem hin51 (c : Dev nD) : Pipeline.ΦA spec51 c ⊢ (dat51 V c).Φ 0 := by
  rw [show (dat51 V c).Φ 0 = PhiS51 V c 0 (Nat.zero_le _) from rfl, PhiS51_zero V c 0 _ rfl]
  try exact Idealize.SL.BI.Entails.refl _

/-- After the last point the invariant gives the class's back: the accumulator's contents are forgotten. -/
theorem hout51 (c : Dev nD) : (dat51 V c).Φ (Fin.last cfg51.N) ⊢ Pipeline.ΦA spec51 c := by
  have hN : cfg51.N = 16 := N_51
  rw [show (dat51 V c).Φ (Fin.last cfg51.N) = PhiS51 V c (Fin.last cfg51.N).val (Nat.le_of_lt_succ (Fin.last cfg51.N).isLt) from rfl,
    PhiS51_pos V c _ _ (by rw [Fin.val_last]; omega), PhiA51_eq]
  iintro ⟨⟨HS0, Hrb⟩, Hg⟩
  isplitl [HS0 Hrb]
  · isplitl [HS0]
    · iexists _; iexact HS0
    iexact Hrb
  iexact Hg

end Cert.Kernel.Hand

end
-- ==== Proof.RegK52a.lean ====
/- Laid out by: python3 scratch/layout_grid41.py --template-region 0 --region 52 --program Kernel --parts a, --shapes S1024x128=S1024x512,S128x512=S512x512
   from the hand-written text of region 0 (RegKI0a.lean): the same text, the region's number, block shapes and the program's namespace substituted. -/
/- The region of Kernel's @main that runs `cc52__matmul_kernel` (pipeline `cfg52`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond52_0 (i : grid52.Coords) : Prop :=
  (Scalar.cmpi .ne (Scalar.extui (Scalar.cmpi .eq (BitVec.ofNat 32 (i 1).val) 0#32)) 0#32) = 1#1
/-- True at every point: the reduction axis has one step. -/
theorem hcond52_0 : ∀ t : Fin cfg52.N, cond52_0 (grid52.coords t) :=
  (by decide +kernel : ∀ t : Fin grid52.N, cond52_0 (grid52.coords t))

/-- "This is the last reduction step" (the guard of the copy to the output block). -/
abbrev cond52_1 (i : grid52.Coords) : Prop := k52_cond2 i = 1#1
/-- True at every point, for the same reason. -/
theorem hcond52_1 : ∀ t : Fin cfg52.N, cond52_1 (grid52.coords t) :=
  (by decide +kernel : ∀ t : Fin grid52.N, cond52_1 (grid52.coords t))

/-! ## No window is idle anywhere -/

theorem liveAt52_0 : ∀ t : Fin cfg52.N, cfg52.idle 0 (grid52.coords t) = false := by decide +kernel
theorem liveAt52_1 : ∀ t : Fin cfg52.N, cfg52.idle 1 (grid52.coords t) = false := by decide +kernel
/-- The output window is stored at every point (the copy's guard holds everywhere). -/
theorem liveAt52_2 : ∀ t : Fin cfg52.N, cfg52.idle 2 (grid52.coords t) = false := by decide +kernel

/-! ## The memrefs the body is called on -/

/-- One staging buffer of the output window, through which its contents are stated (any whole view of the shape reads the
    same pieces back the same way). -/
abbrev VO52_2 : View sig .tc .vmem S1024x512 .f32 := (Memref.whole cc52_stg2_0 : Memref sig .tc .vmem S1024x512 .f32).view
/-- Each window's current staging memref at point `t`, spelt as the pipeline passes it, with its wholeness. -/
abbrev ms52_0 (t : Fin cfg52.N) : Memref sig .tc .vmem S1024x512 .f32 := win52_0.stage (cfg52.slots t 0)
abbrev hs52_0 (t : Fin cfg52.N) : (ms52_0 t).IsWhole := hstage52_0 ((cfg52.slots t 0).cast nbuf52_0)
abbrev ms52_1 (t : Fin cfg52.N) : Memref sig .tc .vmem S512x512 .bf16 := win52_1.stage (cfg52.slots t 1)
abbrev hs52_1 (t : Fin cfg52.N) : (ms52_1 t).IsWhole := hstage52_1 ((cfg52.slots t 1).cast nbuf52_1)
abbrev ms52_2 (t : Fin cfg52.N) : Memref sig .tc .vmem S1024x512 .f32 := win52_2.stage (cfg52.slots t 2)
abbrev hs52_2 (t : Fin cfg52.N) : (ms52_2 t).IsWhole := hstage52_2 ((cfg52.slots t 2).cast nbuf52_2)
/-- The accumulator: a whole scoped buffer of the kernel's own, passed beside the windows. -/
abbrev scM52_0 : Memref sig .tc .vmem S1024x512 .f32 := Memref.whole cc52_scratch0
abbrev VS52_0 : View sig .tc .vmem S1024x512 .f32 := scM52_0.view

/-- The region invariant with the accumulator taken out of the scoped rest: the accumulator owned at some contents, every
    other scoped buffer unopened, and the generator register. -/
theorem PhiA52_eq (c : Dev nD) :
    (Pipeline.ΦA spec52 c : sProp 𝕄)
      = iprop(iprop(iprop((∃ d, owns (c : Thread nD τ) scM52_0 fullShare d))
            ∗ Pipeline.scopedRestBut (Ix := Unit) (Name := ℕ) (U := UR sig nD τ) (Lvl := ℕ) (Val := Elt F) spec52 c [cc52_scratch0])
          ∗ (∃ r, prngReg c r)) := by
  unfold Pipeline.ΦA; rw [scopedRest52_split]; simp only [scM52_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun52 (c : Dev nD) (i : grid52.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond52_0 i) (hlast : cond52_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc52__matmul_kernel i arg2 harg2 arg3 harg3 arg4 harg4 arg5 harg5) K } := by
  refine ⟨?_, ?_, fun E K => ?run⟩
  case run =>
    simp only [cc52__matmul_kernel_eq_skeleton]; unfold cc52__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.Kernel.Hand

end
-- ==== Proof.RegK52.lean ====
/- Laid out by: python3 scratch/layout_grid41.py --template-region 0 --region 52 --program Kernel --parts a, --shapes S1024x128=S1024x512,S128x512=S512x512
   from the hand-written text of region 0 (RegKI0.lean): the same text, the region's number, block shapes and the program's namespace substituted. -/
/- The region of Kernel's @main that runs `cc52__matmul_kernel` (pipeline `cfg52`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegK52a
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk52 (c : Dev nD) (w : Fin cfg52.W) (t : Fin cfg52.N) : ((cfg52.win w).xblock (cfg52.grid.coords t)).Idx → Elt F (cfg52.win w).elt :=
  ((cfg52.win w).blk t).view.read (Elt F) (V c (Pipeline.arrRef spec52 w))

/-! ## What the case leaves, as pieces read back -/

/-- The output's pieces tile its block (one whole-block store). -/
theorem cover52_2 (c : Dev nD) (i : grid52.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond52_0 i) (hlast : cond52_1 i) (xa : Vec F S1024x512 .f32) (xb : Vec F S512x512 .bf16) (y : S1024x512.Idx) :
    ∃ pc ∈ (kernelRun52 c i arg2 harg2 arg3 harg3 arg4 harg4 arg5 harg5 hfirst hlast xa xb).1, y ∈ pc.1.set :=
  View.cover_of_tiledL (kernelRun52 c i arg2 harg2 arg3 harg3 arg4 harg4 arg5 harg5 hfirst hlast xa xb).1 S1024x512.size (by sl_kernel_rfl) y

/-- What the case leaves in the output's staging buffer: its pieces read back over junk. -/
noncomputable def out52_2 (c : Dev nD) (i : grid52.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond52_0 i) (hlast : cond52_1 i) (xa : Vec F S1024x512 .f32) (xb : Vec F S512x512 .bf16) : Vec F S1024x512 .f32 :=
  VO52_2.read (Elt F) (VO52_2.writes (Elt F) VO52_2.junk (kernelRun52 c i arg2 harg2 arg3 harg3 arg4 harg4 arg5 harg5 hfirst hlast xa xb).1)

/-- What the case leaves in the accumulator: its pieces read back over junk. -/
noncomputable def sout52_0 (c : Dev nD) (i : grid52.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond52_0 i) (hlast : cond52_1 i) (xa : Vec F S1024x512 .f32) (xb : Vec F S512x512 .bf16) : Vec F S1024x512 .f32 :=
  VS52_0.read (Elt F) (VS52_0.writes (Elt F) VS52_0.junk (kernelRun52 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout52_0_eq (c : Dev nD) (i : grid52.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond52_0 i) (hlast : cond52_1 i) (xa : Vec F S1024x512 .f32) (xb : Vec F S512x512 .bf16) :
    sout52_0 c i arg2 harg2 arg3 harg3 arg4 harg4 arg5 harg5 hfirst hlast xa xb = k52_pay2 xa xb (k52_pay1 (F := F)) := by
  unfold sout52_0
  rw [View.read_writes_junk_eq_canon]
  unfold kernelRun52
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out52_2_eq (c : Dev nD) (i : grid52.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond52_0 i) (hlast : cond52_1 i) (xa : Vec F S1024x512 .f32) (xb : Vec F S512x512 .bf16) :
    out52_2 c i arg2 harg2 arg3 harg3 arg4 harg4 arg5 harg5 hfirst hlast xa xb = k52_pay2 xa xb (k52_pay1 (F := F)) := by
  unfold out52_2
  rw [View.read_writes_junk_eq_canon]
  unfold kernelRun52
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt52 (c : Dev nD) (n : ℕ) (hn : n < cfg52.N) : Vec F S1024x512 .f32 × Vec F S1024x512 .f32 :=
  (out52_2 c (grid52.coords ⟨n, hn⟩) (ms52_0 ⟨n, hn⟩) (hs52_0 ⟨n, hn⟩) (ms52_1 ⟨n, hn⟩) (hs52_1 ⟨n, hn⟩) (ms52_2 ⟨n, hn⟩) (hs52_2 ⟨n, hn⟩) scM52_0 (Memref.isWhole_whole _)
      (hcond52_0 ⟨n, hn⟩) (hcond52_1 ⟨n, hn⟩) (iblk52 V c 0 ⟨n, hn⟩) (iblk52 V c 1 ⟨n, hn⟩),
   sout52_0 c (grid52.coords ⟨n, hn⟩) (ms52_0 ⟨n, hn⟩) (hs52_0 ⟨n, hn⟩) (ms52_1 ⟨n, hn⟩) (hs52_1 ⟨n, hn⟩) (ms52_2 ⟨n, hn⟩) (hs52_2 ⟨n, hn⟩) scM52_0 (Memref.isWhole_whole _)
      (hcond52_0 ⟨n, hn⟩) (hcond52_1 ⟨n, hn⟩) (iblk52 V c 0 ⟨n, hn⟩) (iblk52 V c 1 ⟨n, hn⟩))

/-- Every point is a first reduction step: the accumulator after it is one product onto zero. -/
theorem outsAt52_first (c : Dev nD) (t : Fin cfg52.N) :
    (outsAt52 V c t.val t.isLt).2 = k52_pay2 (iblk52 V c 0 t) (iblk52 V c 1 t) (k52_pay1 (F := F)) := by
  obtain ⟨n, hn⟩ := t
  unfold outsAt52
  dsimp only
  rw [sout52_0_eq]

/-- Every point is a last reduction step: the output block after it is the accumulator. -/
theorem outsAt52_last (c : Dev nD) (t : Fin cfg52.N) :
    (outsAt52 V c t.val t.isLt).1 = (outsAt52 V c t.val t.isLt).2 := by
  obtain ⟨n, hn⟩ := t
  unfold outsAt52
  dsimp only
  rw [out52_2_eq, sout52_0_eq]

/-! ## The pipeline's proof data -/

/-- The proof data of the pipeline on core `c`: the arrays as the region finds them; after the body at point `t` each input's
    buffer at its block and the output's at `outsAt52`'s first component; the invariant the same at every point; nothing owed;
    full shares. -/
noncomputable def dat52 (c : Dev nD) : Dat τ (Elt F) Unit ℕ (UR sig nD τ) ℕ cfg52 c where
  A w := V c (Pipeline.arrRef spec52 w)
  after w t := match w with
    | ⟨0, _⟩ => iblk52 V c 0 t
    | ⟨1, _⟩ => iblk52 V c 1 t
    | ⟨2, _⟩ => (outsAt52 V c t.val t.isLt).1
  Φ _ := Pipeline.ΦA spec52 c
  q _ := fullShare
  owed _ := 0

theorem A_eq52 (c : Dev nD) (w : Fin cfg52.W) : (dat52 V c).A w = V c (Pipeline.arrRef spec52 w) := by
  dsimp only [dat52]

theorem after52_0 (c : Dev nD) (t : Fin cfg52.N) : (dat52 V c).after 0 t = iblk52 V c 0 t := by dsimp only [dat52]
theorem after52_1 (c : Dev nD) (t : Fin cfg52.N) : (dat52 V c).after 1 t = iblk52 V c 1 t := by dsimp only [dat52]
theorem after52_2 (c : Dev nD) (t : Fin cfg52.N) : (dat52 V c).after 2 t = (outsAt52 V c t.val t.isLt).1 := by dsimp only [dat52]

/-- An input's current staging buffer holds its block at every point, fetched there or not: where it is not fetched its block
    index has not moved since the point before, and the body left the block in place. -/
theorem before52_0 (c : Dev nD) (t : Fin cfg52.N) (d) : (dat52 V c).before 0 t d = iblk52 V c 0 t :=
  ((dat52 V c).before_in_eq_fetched 0 rfl (fun _ => rfl) (fun _ _ _ => rfl)
      (fun t => by rw [after52_0]; unfold Dat.blockOf iblk52; rw [A_eq52]; try rfl) t d).trans
    (by unfold Dat.fetched Dat.blockOf iblk52; rw [A_eq52]; try rfl)
theorem before52_1 (c : Dev nD) (t : Fin cfg52.N) (d) : (dat52 V c).before 1 t d = iblk52 V c 1 t :=
  ((dat52 V c).before_in_eq_fetched 1 rfl (fun _ => rfl) (fun _ _ _ => rfl)
      (fun t => by rw [after52_1]; unfold Dat.blockOf iblk52; rw [A_eq52]; try rfl) t d).trans
    (by unfold Dat.fetched Dat.blockOf iblk52; rw [A_eq52]; try rfl)

/-! ## The body obligation, at a generic point -/

/-- What the body is called with at point `t`, the windows one by one, -/
noncomputable def bodyPre52 (c : Dev nD) (t : Fin cfg52.N) : sProp 𝕄 :=
  iprop((dat52 V c).Φ t.castSucc ∗ (dat52 V c).owesAt () t.castSucc
    ∗ (∃ d, owns (c : Thread nD τ) (ms52_0 t) fullShare ((dat52 V c).before 0 t d))
    ∗ (∃ d, owns (c : Thread nD τ) (ms52_1 t) fullShare ((dat52 V c).before 1 t d))
    ∗ (∃ d, owns (c : Thread nD τ) (ms52_2 t) fullShare ((dat52 V c).before 2 t d)))

/-- and what it returns. -/
noncomputable def bodyPost52 (c : Dev nD) (t : Fin cfg52.N) : sProp 𝕄 :=
  iprop((dat52 V c).Φ t.succ ∗ (dat52 V c).owesAt () t.succ
    ∗ (dat52 V c).leavesExact 0 t
    ∗ (dat52 V c).leavesExact 1 t
    ∗ (dat52 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body52 (c : Dev nD) (t : Fin cfg52.N) :
    bodyPre52 V c t ⊢ wp frame (wpE (defs₀ (F := F)) Variants.none c none) Set.univ (bodyAt52 t) (fun _ => bodyPost52 V c t) := by
  unfold bodyPre52 bodyPost52 bodyAt52
  simp only [before52_0, before52_1]
  rw [show (dat52 V c).owesAt () t.succ = (dat52 V c).owesAt () t.castSucc from rfl,
    show (dat52 V c).Φ t.succ = Pipeline.ΦA spec52 c from rfl, show (dat52 V c).Φ t.castSucc = Pipeline.ΦA spec52 c from rfl, PhiA52_eq]
  rw [show (dat52 V c).leavesExact 0 t = owns (c : Thread nD τ) (ms52_0 t) fullShare ((dat52 V c).after 0 t) from by
      unfold Dat.leavesExact; rw [liveAt52_0 t], after52_0]
  rw [show (dat52 V c).leavesExact 1 t = owns (c : Thread nD τ) (ms52_1 t) fullShare ((dat52 V c).after 1 t) from by
      unfold Dat.leavesExact; rw [liveAt52_1 t], after52_1]
  rw [show (dat52 V c).leavesExact 2 t = owns (c : Thread nD τ) (ms52_2 t) fullShare ((dat52 V c).after 2 t) from by
      unfold Dat.leavesExact; rw [liveAt52_2 t], after52_2]
  unfold outsAt52 out52_2; (try dsimp only)
  iintro ⟨⟨⟨Hacc, Hrest⟩, Hgen⟩, Howe, ⟨%da, Ha⟩, ⟨%db, Hb⟩, ⟨%dO, Hout⟩⟩
  iapply ((kernelRun52 c (grid52.coords t) _ _ _ _ _ _ _ _ (hcond52_0 t) (hcond52_1 t) (iblk52 V c 0 t) (iblk52 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover52_2 c _ _ _ _ _ _ _ _ _ _ _ _ _)

/-- The library's body obligation, at every point. -/
theorem body_obligation52 (c : Dev nD) : BodyObligation (dat52 (F := F) V c) (defs₀ (F := F)) Variants.none () Set.univ := fun t => by
  rw [bigSep_W52, bigSep_W52]
  exact sound_body52 V c t

/-- What the launch hands the region is the invariant before the first point, -/
theorem hin52 (c : Dev nD) : Pipeline.ΦA spec52 c ⊢ (dat52 V c).Φ 0 := Idealize.SL.BI.Entails.refl _

/-- and the invariant after the last point is what the launch takes back. -/
theorem hout52 (c : Dev nD) : (dat52 V c).Φ (Fin.last cfg52.N) ⊢ Pipeline.ΦA spec52 c := Idealize.SL.BI.Entails.refl _

end Cert.Kernel.Hand

end
-- ==== Proof.RegK53a.lean ====
/- Laid out by: python3 scratch/layout_regions.py --template-region 1 --region 53 --program Kernel --parts a,b,c, --out-dir proof/Proof
   from the hand-written text of region 1 (RegKI1a.lean): the same text, the region's number and the program's namespace substituted. -/
/-
  Region 53 of @main (custom_call 53): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond53_0 (i : grid53.Coords) : Prop := (Scalar.cmpi .ne (Scalar.extui (Scalar.cmpi .eq (BitVec.ofNat 32 (i 1).val) 0#32)) 0#32) = 1#1
/-- It holds exactly at the points with t % 4 = 0. -/
theorem hcond53_0 : ∀ t : Fin cfg53.N, cond53_0 (grid53.coords t) ↔ t.val % 4 = 0 :=
  (by decide +kernel : ∀ t : Fin grid53.N, cond53_0 (grid53.coords t) ↔ t.val % 4 = 0)

/-- "k = 3": the second conditional's test. -/
abbrev cond53_1 (i : grid53.Coords) : Prop := k53_cond2 i = 1#1
/-- It holds exactly at the points with t % 4 = 3. -/
theorem hcond53_1 : ∀ t : Fin cfg53.N, cond53_1 (grid53.coords t) ↔ t.val % 4 = 3 :=
  (by decide +kernel : ∀ t : Fin grid53.N, cond53_1 (grid53.coords t) ↔ t.val % 4 = 3)

/-! ## Where the windows are idle, and where the output is written back -/

/-- The two input windows are never idle. -/
theorem liveAt53_0 : ∀ t : Fin cfg53.N, cfg53.idle 0 (grid53.coords t) = false := by decide +kernel
theorem liveAt53_1 : ∀ t : Fin cfg53.N, cfg53.idle 1 (grid53.coords t) = false := by decide +kernel
/-- Where k ≠ 3 the output window is idle (the body stores nothing into it) and is not written back. -/
theorem idleAt53_2 : ∀ t : Fin cfg53.N, ¬cond53_1 (grid53.coords t) → cfg53.idle 2 (grid53.coords t) = true := by decide +kernel
theorem noFlush53_2 : ∀ t : Fin cfg53.N, ¬cond53_1 (grid53.coords t) → (cfg53.win 2).flush t = false := by decide +kernel
/-- Where k = 3 it is live. -/
theorem liveAt53_2 : ∀ t : Fin cfg53.N, cond53_1 (grid53.coords t) → cfg53.idle 2 (grid53.coords t) = false := by decide +kernel

/-! ## The staging memrefs at a point, and the scratch -/

/-- One staging buffer of the output window, through which its contents are stated. -/
abbrev VO53_2 : View sig .tc .vmem S1024x512 .f32 := (Memref.whole cc53_stg2_0 : Memref sig .tc .vmem S1024x512 .f32).view
abbrev ms53_0 (t : Fin cfg53.N) : Memref sig .tc .vmem S1024x1024 .bf16 := win53_0.stage (cfg53.slots t 0)
abbrev hs53_0 (t : Fin cfg53.N) : (ms53_0 t).IsWhole := hstage53_0 ((cfg53.slots t 0).cast nbuf53_0)
abbrev ms53_1 (t : Fin cfg53.N) : Memref sig .tc .vmem S1024x512 .f32 := win53_1.stage (cfg53.slots t 1)
abbrev hs53_1 (t : Fin cfg53.N) : (ms53_1 t).IsWhole := hstage53_1 ((cfg53.slots t 1).cast nbuf53_1)
abbrev ms53_2 (t : Fin cfg53.N) : Memref sig .tc .vmem S1024x512 .f32 := win53_2.stage (cfg53.slots t 2)
abbrev hs53_2 (t : Fin cfg53.N) : (ms53_2 t).IsWhole := hstage53_2 ((cfg53.slots t 2).cast nbuf53_2)
/-- The accumulator: a whole scoped buffer of the kernel's own. -/
abbrev scM53 : Memref sig .tc .vmem S1024x512 .f32 := Memref.whole cc53_scratch0
abbrev VS53 : View sig .tc .vmem S1024x512 .f32 := scM53.view

/-- The other scoped buffers of the core, none of which this region touches. -/
abbrev restBut53 (c : Dev nD) : sProp 𝕄 :=
  Pipeline.scopedRestBut (Ix := Unit) (Name := ℕ) (U := UR sig nD τ) (Lvl := ℕ) (Val := Elt F) spec53 c [cc53_scratch0]

/-- The region's invariant before its first point: the accumulator at something, the other scoped buffers, the generator register. -/
theorem PhiA53_eq (c : Dev nD) :
    (Pipeline.ΦA spec53 c : sProp 𝕄)
      = iprop(iprop((∃ d, owns (c : Thread nD τ) scM53 fullShare d) ∗ restBut53 c) ∗ (∃ r, prngReg c r)) := by
  unfold Pipeline.ΦA; rw [scopedRest53_split]; simp only [scM53, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun53_A (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond53_0 i) (hc1 : ¬cond53_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc53__matmul_kernel i arg2 harg2 arg3 harg3 arg4 harg4 arg5 harg5) K } := by
  refine ⟨[], ?_, fun xi2 E K => ?run⟩
  case run =>
    simp only [cc53__matmul_kernel_eq_skeleton]; unfold cc53__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK53b.lean ====
/- Laid out by: python3 scratch/layout_regions.py --template-region 1 --region 53 --program Kernel --parts a,b,c, --out-dir proof/Proof
   from the hand-written text of region 1 (RegKI1b.lean): the same text, the region's number and the program's namespace substituted. -/
/-
  Region 53, case B (k = 1, 2): the body's run. Neither conditional is taken: the product of the two blocks is added to what
  the point before left in the accumulator; the output block is not touched.
-/
import proofs.«158944_j64613488001249_1_alg».proof.Proof.RegK53a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun53_B (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond53_0 i) (hc1 : ¬cond53_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc53__matmul_kernel i arg2 harg2 arg3 harg3 arg4 harg4 arg5 harg5) K } := by
  refine ⟨[], ?_, fun xi2 E K => ?run⟩
  case run =>
    simp only [cc53__matmul_kernel_eq_skeleton]; unfold cc53__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK53c.lean ====
/- Laid out by: python3 scratch/layout_regions.py --template-region 1 --region 53 --program Kernel --parts a,b,c, --out-dir proof/Proof
   from the hand-written text of region 1 (RegKI1c.lean): the same text, the region's number and the program's namespace substituted. -/
/-
  Region 53, case C (k = 3): the body's run. The product is added to the accumulator as in case B, and then the second
  conditional copies the accumulator over the whole output block.
-/
import proofs.«158944_j64613488001249_1_alg».proof.Proof.RegK53b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun53_C (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond53_0 i) (hc1 : cond53_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc53__matmul_kernel i arg2 harg2 arg3 harg3 arg4 harg4 arg5 harg5) K } := by
  refine ⟨?_, ?_, fun E K => ?run⟩
  case run =>
    simp only [cc53__matmul_kernel_eq_skeleton]; unfold cc53__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK53.lean ====
/- Laid out by: python3 scratch/layout_regions.py --template-region 1 --region 53 --program Kernel --parts a,b,c, --out-dir proof/Proof
   from the hand-written text of region 1 (RegKI1.lean): the same text, the region's number and the program's namespace substituted. -/
/-
  Region 53 of @main, entered from the buffer contents `V`: what its windows' blocks are, what each case of the body leaves in
  the accumulator and in the output block, the accumulator and the output block point by point (`outsAt53`: at k = 0 the
  accumulator restarts from zeros plus the product; at k = 1, 2, 3 it is the point before's plus the product; at k = 3 the
  output block is the accumulator), the region's invariant (the accumulator at `outsAt53`'s second component), the proof data,
  and the body's obligation at every point.
-/
import proofs.«158944_j64613488001249_1_alg».proof.Proof.RegK53c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk53 (c : Dev nD) (w : Fin cfg53.W) (t : Fin cfg53.N) : ((cfg53.win w).xblock (cfg53.grid.coords t)).Idx → Elt F (cfg53.win w).elt :=
  ((cfg53.win w).blk t).view.read (Elt F) (V c (Pipeline.arrRef spec53 w))

/-- An input window's current staging buffer holds its block at every point, for any proof data whose array is `V`'s and
    whose body leaves the block in place. -/
theorem before53_0_of {c : Dev nD} (dat : Dat τ (Elt F) Unit ℕ (UR sig nD τ) ℕ cfg53 c) (hA : dat.A 0 = V c (Pipeline.arrRef spec53 0))
    (hafter : ∀ t, dat.after 0 t = iblk53 V c 0 t) (t : Fin cfg53.N) (d) : dat.before 0 t d = iblk53 V c 0 t :=
  (dat.before_in_eq_fetched 0 rfl (fun _ => rfl) (fun _ _ _ => rfl) (fun t => by rw [hafter]; unfold Dat.blockOf iblk53; rw [hA]; try rfl) t d).trans
    (by unfold Dat.fetched Dat.blockOf iblk53; rw [hA]; try rfl)
theorem before53_1_of {c : Dev nD} (dat : Dat τ (Elt F) Unit ℕ (UR sig nD τ) ℕ cfg53 c) (hA : dat.A 1 = V c (Pipeline.arrRef spec53 1))
    (hafter : ∀ t, dat.after 1 t = iblk53 V c 1 t) (t : Fin cfg53.N) (d) : dat.before 1 t d = iblk53 V c 1 t :=
  (dat.before_in_eq_fetched 1 rfl (fun _ => rfl) (fun _ _ _ => rfl) (fun t => by rw [hafter]; unfold Dat.blockOf iblk53; rw [hA]; try rfl) t d).trans
    (by unfold Dat.fetched Dat.blockOf iblk53; rw [hA]; try rfl)

/-! ## What each case leaves -/

/-- Case A's stores into the accumulator cover it. -/
theorem scover53_A (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond53_0 i) (hc1 : ¬cond53_1 i)
    (x0 : Vec F S1024x1024 .bf16) (x1 : Vec F S1024x512 .f32) (y : S1024x512.Idx) :
    ∃ pc ∈ (kernelRun53_A c i arg2 harg2 arg3 harg3 arg4 harg4 arg5 harg5 hc0 hc1 x0 x1).2.1, y ∈ pc.1.set :=
  View.cover_of_tiledL (kernelRun53_A c i arg2 harg2 arg3 harg3 arg4 harg4 arg5 harg5 hc0 hc1 x0 x1).2.1 S1024x512.size (by sl_kernel_rfl) y
/-- What case A leaves in the accumulator. -/
noncomputable def sout53_A (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond53_0 i) (hc1 : ¬cond53_1 i)
    (x0 : Vec F S1024x1024 .bf16) (x1 : Vec F S1024x512 .f32) : Vec F S1024x512 .f32 :=
  VS53.read (Elt F) (VS53.writes (Elt F) VS53.junk (kernelRun53_A c i arg2 harg2 arg3 harg3 arg4 harg4 arg5 harg5 hc0 hc1 x0 x1).2.1)

/-- Case B's store into the accumulator covers it. -/
theorem scover53_B (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond53_0 i) (hc1 : ¬cond53_1 i)
    (x0 : Vec F S1024x1024 .bf16) (x1 : Vec F S1024x512 .f32) (xs0 : Vec F S1024x512 .f32) (y : S1024x512.Idx) :
    ∃ pc ∈ (kernelRun53_B c i arg2 harg2 arg3 harg3 arg4 harg4 arg5 harg5 hc0 hc1 x0 x1 xs0).2.1, y ∈ pc.1.set :=
  View.cover_of_tiledL (kernelRun53_B c i arg2 harg2 arg3 harg3 arg4 harg4 arg5 harg5 hc0 hc1 x0 x1 xs0).2.1 S1024x512.size (by sl_kernel_rfl) y
/-- What case B leaves in the accumulator, over what the point before left. -/
noncomputable def sout53_B (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond53_0 i) (hc1 : ¬cond53_1 i)
    (x0 : Vec F S1024x1024 .bf16) (x1 : Vec F S1024x512 .f32) (xs0 : Vec F S1024x512 .f32) : Vec F S1024x512 .f32 :=
  VS53.read (Elt F) (VS53.writes (Elt F) VS53.junk (kernelRun53_B c i arg2 harg2 arg3 harg3 arg4 harg4 arg5 harg5 hc0 hc1 x0 x1 xs0).2.1)

/-- Case C's store into the output block covers it, and so does its store into the accumulator. -/
theorem cover53_C (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond53_0 i) (hc1 : cond53_1 i)
    (x0 : Vec F S1024x1024 .bf16) (x1 : Vec F S1024x512 .f32) (xs0 : Vec F S1024x512 .f32) (y : S1024x512.Idx) :
    ∃ pc ∈ (kernelRun53_C c i arg2 harg2 arg3 harg3 arg4 harg4 arg5 harg5 hc0 hc1 x0 x1 xs0).1, y ∈ pc.1.set :=
  View.cover_of_tiledL (kernelRun53_C c i arg2 harg2 arg3 harg3 arg4 harg4 arg5 harg5 hc0 hc1 x0 x1 xs0).1 S1024x512.size (by sl_kernel_rfl) y
theorem scover53_C (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond53_0 i) (hc1 : cond53_1 i)
    (x0 : Vec F S1024x1024 .bf16) (x1 : Vec F S1024x512 .f32) (xs0 : Vec F S1024x512 .f32) (y : S1024x512.Idx) :
    ∃ pc ∈ (kernelRun53_C c i arg2 harg2 arg3 harg3 arg4 harg4 arg5 harg5 hc0 hc1 x0 x1 xs0).2.1, y ∈ pc.1.set :=
  View.cover_of_tiledL (kernelRun53_C c i arg2 harg2 arg3 harg3 arg4 harg4 arg5 harg5 hc0 hc1 x0 x1 xs0).2.1 S1024x512.size (by sl_kernel_rfl) y
/-- What case C leaves in the output block, and in the accumulator. -/
noncomputable def out53_C (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond53_0 i) (hc1 : cond53_1 i)
    (x0 : Vec F S1024x1024 .bf16) (x1 : Vec F S1024x512 .f32) (xs0 : Vec F S1024x512 .f32) : Vec F S1024x512 .f32 :=
  VO53_2.read (Elt F) (VO53_2.writes (Elt F) VO53_2.junk (kernelRun53_C c i arg2 harg2 arg3 harg3 arg4 harg4 arg5 harg5 hc0 hc1 x0 x1 xs0).1)
noncomputable def sout53_C (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond53_0 i) (hc1 : cond53_1 i)
    (x0 : Vec F S1024x1024 .bf16) (x1 : Vec F S1024x512 .f32) (xs0 : Vec F S1024x512 .f32) : Vec F S1024x512 .f32 :=
  VS53.read (Elt F) (VS53.writes (Elt F) VS53.junk (kernelRun53_C c i arg2 harg2 arg3 harg3 arg4 harg4 arg5 harg5 hc0 hc1 x0 x1 xs0).2.1)

/-- Where the output block is idle nothing consults what it holds: a placeholder. -/
noncomputable def outIdle53 : Vec F S1024x512 .f32 := VO53_2.read (Elt F) (VO53_2.writes (Elt F) VO53_2.junk [])

/-! ## The conditions at a point, from t % 4 -/

theorem isFirst53 (t : Fin cfg53.N) (h : t.val % 4 = 0) : cond53_0 (grid53.coords t) := (hcond53_0 t).mpr h
theorem notFirst53 (t : Fin cfg53.N) (h : ¬t.val % 4 = 0) : ¬cond53_0 (grid53.coords t) := fun hc => h ((hcond53_0 t).mp hc)
theorem isLast53 (t : Fin cfg53.N) (h : t.val % 4 = 3) : cond53_1 (grid53.coords t) := (hcond53_1 t).mpr h
theorem notLast53 (t : Fin cfg53.N) (h : ¬t.val % 4 = 3) : ¬cond53_1 (grid53.coords t) := fun hc => h ((hcond53_1 t).mp hc)

/-! ## The accumulator and the output block, point by point -/

/-- After the body at position `n`: (the output block's buffer, the accumulator). -/
noncomputable def outsAt53 (c : Dev nD) : (n : ℕ) → n < cfg53.N → Vec F S1024x512 .f32 × Vec F S1024x512 .f32
  | 0, hn => (outIdle53, sout53_A c (grid53.coords ⟨0, hn⟩) (ms53_0 ⟨0, hn⟩) (hs53_0 ⟨0, hn⟩) (ms53_1 ⟨0, hn⟩) (hs53_1 ⟨0, hn⟩) (ms53_2 ⟨0, hn⟩) (hs53_2 ⟨0, hn⟩) scM53 (Memref.isWhole_whole _) (isFirst53 ⟨0, hn⟩ (Nat.zero_mod _)) (notLast53 ⟨0, hn⟩ (by simp)) (iblk53 V c 0 ⟨0, hn⟩) (iblk53 V c 1 ⟨0, hn⟩))
  | n + 1, hn =>
    if h0 : (n + 1) % 4 = 0 then
      (outIdle53, sout53_A c (grid53.coords ⟨n + 1, hn⟩) (ms53_0 ⟨n + 1, hn⟩) (hs53_0 ⟨n + 1, hn⟩) (ms53_1 ⟨n + 1, hn⟩) (hs53_1 ⟨n + 1, hn⟩) (ms53_2 ⟨n + 1, hn⟩) (hs53_2 ⟨n + 1, hn⟩) scM53 (Memref.isWhole_whole _) (isFirst53 ⟨n + 1, hn⟩ h0) (notLast53 ⟨n + 1, hn⟩ (by show ¬(n + 1) % 4 = 3; omega)) (iblk53 V c 0 ⟨n + 1, hn⟩) (iblk53 V c 1 ⟨n + 1, hn⟩))
    else if h3 : (n + 1) % 4 = 3 then
      (out53_C c (grid53.coords ⟨n + 1, hn⟩) (ms53_0 ⟨n + 1, hn⟩) (hs53_0 ⟨n + 1, hn⟩) (ms53_1 ⟨n + 1, hn⟩) (hs53_1 ⟨n + 1, hn⟩) (ms53_2 ⟨n + 1, hn⟩) (hs53_2 ⟨n + 1, hn⟩) scM53 (Memref.isWhole_whole _) (notFirst53 ⟨n + 1, hn⟩ h0) (isLast53 ⟨n + 1, hn⟩ h3) (iblk53 V c 0 ⟨n + 1, hn⟩) (iblk53 V c 1 ⟨n + 1, hn⟩) (outsAt53 c n (Nat.lt_of_succ_lt hn)).2,
       sout53_C c (grid53.coords ⟨n + 1, hn⟩) (ms53_0 ⟨n + 1, hn⟩) (hs53_0 ⟨n + 1, hn⟩) (ms53_1 ⟨n + 1, hn⟩) (hs53_1 ⟨n + 1, hn⟩) (ms53_2 ⟨n + 1, hn⟩) (hs53_2 ⟨n + 1, hn⟩) scM53 (Memref.isWhole_whole _) (notFirst53 ⟨n + 1, hn⟩ h0) (isLast53 ⟨n + 1, hn⟩ h3) (iblk53 V c 0 ⟨n + 1, hn⟩) (iblk53 V c 1 ⟨n + 1, hn⟩) (outsAt53 c n (Nat.lt_of_succ_lt hn)).2)
    else
      (outIdle53, sout53_B c (grid53.coords ⟨n + 1, hn⟩) (ms53_0 ⟨n + 1, hn⟩) (hs53_0 ⟨n + 1, hn⟩) (ms53_1 ⟨n + 1, hn⟩) (hs53_1 ⟨n + 1, hn⟩) (ms53_2 ⟨n + 1, hn⟩) (hs53_2 ⟨n + 1, hn⟩) scM53 (Memref.isWhole_whole _) (notFirst53 ⟨n + 1, hn⟩ h0) (notLast53 ⟨n + 1, hn⟩ h3) (iblk53 V c 0 ⟨n + 1, hn⟩) (iblk53 V c 1 ⟨n + 1, hn⟩) (outsAt53 c n (Nat.lt_of_succ_lt hn)).2)

/-- `outsAt53` at a point with k = 0. -/
theorem outsAt53_A (c : Dev nD) (t : Fin cfg53.N) (h0 : t.val % 4 = 0) :
    outsAt53 V c t.val t.isLt = (outIdle53, sout53_A c (grid53.coords t) (ms53_0 t) (hs53_0 t) (ms53_1 t) (hs53_1 t) (ms53_2 t) (hs53_2 t) scM53 (Memref.isWhole_whole _) (isFirst53 t h0) (notLast53 t (by omega)) (iblk53 V c 0 t) (iblk53 V c 1 t)) := by
  obtain ⟨n, hn⟩ := t
  cases n with
  | zero => rfl
  | succ n => exact (dif_pos h0).trans rfl

/-- `outsAt53` at a point with k = 1, 2: over what the point before left. -/
theorem outsAt53_B (c : Dev nD) (t : Fin cfg53.N) (h0 : ¬t.val % 4 = 0) (h3 : ¬t.val % 4 = 3) :
    outsAt53 V c t.val t.isLt = (outIdle53, sout53_B c (grid53.coords t) (ms53_0 t) (hs53_0 t) (ms53_1 t) (hs53_1 t) (ms53_2 t) (hs53_2 t) scM53 (Memref.isWhole_whole _) (notFirst53 t h0) (notLast53 t h3) (iblk53 V c 0 t) (iblk53 V c 1 t)
      (outsAt53 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt53` at a point with k = 3. -/
theorem outsAt53_C (c : Dev nD) (t : Fin cfg53.N) (h0 : ¬t.val % 4 = 0) (h3 : t.val % 4 = 3) :
    outsAt53 V c t.val t.isLt = (out53_C c (grid53.coords t) (ms53_0 t) (hs53_0 t) (ms53_1 t) (hs53_1 t) (ms53_2 t) (hs53_2 t) scM53 (Memref.isWhole_whole _) (notFirst53 t h0) (isLast53 t h3) (iblk53 V c 0 t) (iblk53 V c 1 t)
        (outsAt53 V c (t.val - 1) (Nat.lt_of_le_of_lt (Nat.sub_le _ _) t.isLt)).2,
      sout53_C c (grid53.coords t) (ms53_0 t) (hs53_0 t) (ms53_1 t) (hs53_1 t) (ms53_2 t) (hs53_2 t) scM53 (Memref.isWhole_whole _) (notFirst53 t h0) (isLast53 t h3) (iblk53 V c 0 t) (iblk53 V c 1 t)
        (outsAt53 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS53 (c : Dev nD) : (n : ℕ) → n ≤ cfg53.N → sProp 𝕄
  | 0, _ => Pipeline.ΦA spec53 c
  | n + 1, hn => iprop(iprop(owns (c : Thread nD τ) scM53 fullShare ((outsAt53 V c n hn).2) ∗ restBut53 c) ∗ (∃ r, prngReg c r))

theorem PhiS53_zero (c : Dev nD) (n : ℕ) (h : n ≤ cfg53.N) (hz : n = 0) : PhiS53 V c n h = Pipeline.ΦA spec53 c := by
  subst hz; rfl
theorem PhiS53_succ (c : Dev nD) (n : ℕ) (hn : n < cfg53.N) :
    PhiS53 V c (n + 1) hn = iprop(iprop(owns (c : Thread nD τ) scM53 fullShare ((outsAt53 V c n hn).2) ∗ restBut53 c) ∗ (∃ r, prngReg c r)) := rfl
theorem PhiS53_pos (c : Dev nD) (n : ℕ) (h : n ≤ cfg53.N) (hz : n ≠ 0) :
    PhiS53 V c n h = iprop(iprop(owns (c : Thread nD τ) scM53 fullShare ((outsAt53 V c (n - 1) (by omega)).2) ∗ restBut53 c) ∗ (∃ r, prngReg c r)) := by
  cases n with
  | zero => exact absurd rfl hz
  | succ n => rfl

/-! ## The proof data -/

/-- The region's proof data on core `c`: the arrays as the region finds them; after the body at point `t` each input's
    buffer at its block and the output's at `outsAt53`'s first component; the invariant `PhiS53`; nothing owed; full shares. -/
noncomputable def dat53 (c : Dev nD) : Dat τ (Elt F) Unit ℕ (UR sig nD τ) ℕ cfg53 c where
  A w := V c (Pipeline.arrRef spec53 w)
  after w t := match w with
    | ⟨0, _⟩ => iblk53 V c 0 t
    | ⟨1, _⟩ => iblk53 V c 1 t
    | ⟨2, _⟩ => (outsAt53 V c t.val t.isLt).1
  Φ t := PhiS53 V c t.val (Nat.le_of_lt_succ t.isLt)
  q _ := fullShare
  owed _ := 0

theorem A_eq53 (c : Dev nD) (w : Fin cfg53.W) : (dat53 V c).A w = V c (Pipeline.arrRef spec53 w) := by
  dsimp only [dat53]
theorem PhiS53_castSucc (c : Dev nD) (t : Fin cfg53.N) :
    (dat53 V c).Φ t.castSucc = PhiS53 V c t.val (Nat.le_of_lt t.isLt) := by
  dsimp only [dat53]; simp only [Fin.coe_castSucc]
theorem after53_0 (c : Dev nD) (t : Fin cfg53.N) : (dat53 V c).after 0 t = iblk53 V c 0 t := by dsimp only [dat53]
theorem after53_1 (c : Dev nD) (t : Fin cfg53.N) : (dat53 V c).after 1 t = iblk53 V c 1 t := by dsimp only [dat53]
theorem after53_2 (c : Dev nD) (t : Fin cfg53.N) : (dat53 V c).after 2 t = (outsAt53 V c t.val t.isLt).1 := by dsimp only [dat53]
theorem before53_0 (c : Dev nD) (t : Fin cfg53.N) (d) : (dat53 V c).before 0 t d = iblk53 V c 0 t :=
  before53_0_of V (dat53 V c) (A_eq53 V c 0) (after53_0 V c) t d
theorem before53_1 (c : Dev nD) (t : Fin cfg53.N) (d) : (dat53 V c).before 1 t d = iblk53 V c 1 t :=
  before53_1_of V (dat53 V c) (A_eq53 V c 1) (after53_1 V c) t d

/-! ## The body's obligation -/

noncomputable def bodyPre53 (c : Dev nD) (t : Fin cfg53.N) : sProp 𝕄 :=
  iprop((dat53 V c).Φ t.castSucc ∗ (dat53 V c).owesAt () t.castSucc
    ∗ (∃ d, owns (c : Thread nD τ) (ms53_0 t) fullShare ((dat53 V c).before 0 t d))
    ∗ (∃ d, owns (c : Thread nD τ) (ms53_1 t) fullShare ((dat53 V c).before 1 t d))
    ∗ (∃ d, owns (c : Thread nD τ) (ms53_2 t) fullShare ((dat53 V c).before 2 t d)))

noncomputable def bodyPost53 (c : Dev nD) (t : Fin cfg53.N) : sProp 𝕄 :=
  iprop((dat53 V c).Φ t.succ ∗ (dat53 V c).owesAt () t.succ
    ∗ (dat53 V c).leavesExact 0 t
    ∗ (dat53 V c).leavesExact 1 t
    ∗ (dat53 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body53 (c : Dev nD) (t : Fin cfg53.N) :
    bodyPre53 V c t ⊢ wp frame (wpE (defs₀ (F := F)) Variants.none c none) Set.univ (bodyAt53 t) (fun _ => bodyPost53 V c t) := by
  unfold bodyPre53 bodyPost53 bodyAt53
  simp only [before53_0, before53_1]
  rw [show (dat53 V c).owesAt () t.succ = (dat53 V c).owesAt () t.castSucc from rfl]
  rw [show (dat53 V c).Φ t.succ = PhiS53 V c (t.val + 1) t.isLt from rfl, PhiS53_succ]
  rw [show (dat53 V c).leavesExact 0 t = owns (c : Thread nD τ) (ms53_0 t) fullShare ((dat53 V c).after 0 t) from by
    unfold Dat.leavesExact; rw [liveAt53_0 t], after53_0]
  rw [show (dat53 V c).leavesExact 1 t = owns (c : Thread nD τ) (ms53_1 t) fullShare ((dat53 V c).after 1 t) from by
    unfold Dat.leavesExact; rw [liveAt53_1 t], after53_1]
  by_cases h0 : t.val % 4 = 0
  · have h3 : ¬t.val % 4 = 3 := by omega
    rw [Dat.leavesExact_idle (dat53 V c) 2 t (idleAt53_2 t (notLast53 t h3)) (noFlush53_2 t (notLast53 t h3))]
    rw [outsAt53_A V c t h0]
    unfold sout53_A; (try dsimp only)
    by_cases hz : t.val = 0
    · rw [PhiS53_castSucc V c t, PhiS53_zero V c _ _ hz, PhiA53_eq]
      iintro ⟨⟨⟨HS0, Hrb⟩, Hg⟩, Ho, ⟨%d0, H0⟩, ⟨%d1, H1⟩, ⟨%d2, H2⟩⟩
      iapply ((kernelRun53_A c (grid53.coords t) _ _ _ _ _ _ _ _ (isFirst53 t h0) (notLast53 t (by omega)) (iblk53 V c 0 t) (iblk53 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover53_A c _ _ _ _ _ _ _ _ _ _ _ _ _)
          iexact Hrb
        iexact Hg
      isplitl [Ho]; · iexact Ho
      isplitl [H0]; · iexact H0
      isplitl [H1]; · iexact H1
      iexists _; iexact H2
    · rw [PhiS53_castSucc V c t, PhiS53_pos V c _ _ hz]
      iintro ⟨⟨⟨HS0, Hrb⟩, Hg⟩, Ho, ⟨%d0, H0⟩, ⟨%d1, H1⟩, ⟨%d2, H2⟩⟩
      iapply ((kernelRun53_A c (grid53.coords t) _ _ _ _ _ _ _ _ (isFirst53 t h0) (notLast53 t (by omega)) (iblk53 V c 0 t) (iblk53 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover53_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat53 V c).leavesExact 2 t = owns (c : Thread nD τ) (ms53_2 t) fullShare ((dat53 V c).after 2 t) from by
        unfold Dat.leavesExact; rw [liveAt53_2 t (isLast53 t h3)], after53_2]
      rw [outsAt53_C V c t h0 h3]
      unfold out53_C sout53_C; (try dsimp only)
      rw [PhiS53_castSucc V c t, PhiS53_pos V c _ _ hz]
      iintro ⟨⟨⟨HS0, Hrb⟩, Hg⟩, Ho, ⟨%d0, H0⟩, ⟨%d1, H1⟩, ⟨%d2, H2⟩⟩
      iapply ((kernelRun53_C c (grid53.coords t) _ _ _ _ _ _ _ _ (notFirst53 t h0) (isLast53 t h3) (iblk53 V c 0 t) (iblk53 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover53_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover53_C c _ _ _ _ _ _ _ _ _ _ _ _ _ _)
    · rw [Dat.leavesExact_idle (dat53 V c) 2 t (idleAt53_2 t (notLast53 t h3)) (noFlush53_2 t (notLast53 t h3))]
      rw [outsAt53_B V c t h0 h3]
      unfold sout53_B; (try dsimp only)
      rw [PhiS53_castSucc V c t, PhiS53_pos V c _ _ hz]
      iintro ⟨⟨⟨HS0, Hrb⟩, Hg⟩, Ho, ⟨%d0, H0⟩, ⟨%d1, H1⟩, ⟨%d2, H2⟩⟩
      iapply ((kernelRun53_B c (grid53.coords t) _ _ _ _ _ _ _ _ (notFirst53 t h0) (notLast53 t h3) (iblk53 V c 0 t) (iblk53 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover53_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation53 (c : Dev nD) : BodyObligation (dat53 (F := F) V c) (defs₀ (F := F)) Variants.none () Set.univ := fun t => by
  rw [bigSep_W53, bigSep_W53]
  exact sound_body53 V c t

/-- What the region is entered with is the invariant before the first point. -/
theorem hin53 (c : Dev nD) : Pipeline.ΦA spec53 c ⊢ (dat53 V c).Φ 0 := by
  rw [show (dat53 V c).Φ 0 = PhiS53 V c 0 (Nat.zero_le _) from rfl, PhiS53_zero V c 0 _ rfl]
  try exact Idealize.SL.BI.Entails.refl _

/-- After the last point the invariant gives the class's back: the accumulator's contents are forgotten. -/
theorem hout53 (c : Dev nD) : (dat53 V c).Φ (Fin.last cfg53.N) ⊢ Pipeline.ΦA spec53 c := by
  have hN : cfg53.N = 16 := N_53
  rw [show (dat53 V c).Φ (Fin.last cfg53.N) = PhiS53 V c (Fin.last cfg53.N).val (Nat.le_of_lt_succ (Fin.last cfg53.N).isLt) from rfl,
    PhiS53_pos V c _ _ (by rw [Fin.val_last]; omega), PhiA53_eq]
  iintro ⟨⟨HS0, Hrb⟩, Hg⟩
  isplitl [HS0 Hrb]
  · isplitl [HS0]
    · iexists _; iexact HS0
    iexact Hrb
  iexact Hg

end Cert.Kernel.Hand

end
-- ==== Proof.RegK54a.lean ====
/- Laid out by: python3 scratch/layout_regions.py --template-region 1 --region 54 --program Kernel --parts a,b,c, --out-dir proof/Proof
   from the hand-written text of region 1 (RegKI1a.lean): the same text, the region's number and the program's namespace substituted. -/
/-
  Region 54 of @main (custom_call 54): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond54_0 (i : grid54.Coords) : Prop := (Scalar.cmpi .ne (Scalar.extui (Scalar.cmpi .eq (BitVec.ofNat 32 (i 1).val) 0#32)) 0#32) = 1#1
/-- It holds exactly at the points with t % 4 = 0. -/
theorem hcond54_0 : ∀ t : Fin cfg54.N, cond54_0 (grid54.coords t) ↔ t.val % 4 = 0 :=
  (by decide +kernel : ∀ t : Fin grid54.N, cond54_0 (grid54.coords t) ↔ t.val % 4 = 0)

/-- "k = 3": the second conditional's test. -/
abbrev cond54_1 (i : grid54.Coords) : Prop := k54_cond2 i = 1#1
/-- It holds exactly at the points with t % 4 = 3. -/
theorem hcond54_1 : ∀ t : Fin cfg54.N, cond54_1 (grid54.coords t) ↔ t.val % 4 = 3 :=
  (by decide +kernel : ∀ t : Fin grid54.N, cond54_1 (grid54.coords t) ↔ t.val % 4 = 3)

/-! ## Where the windows are idle, and where the output is written back -/

/-- The two input windows are never idle. -/
theorem liveAt54_0 : ∀ t : Fin cfg54.N, cfg54.idle 0 (grid54.coords t) = false := by decide +kernel
theorem liveAt54_1 : ∀ t : Fin cfg54.N, cfg54.idle 1 (grid54.coords t) = false := by decide +kernel
/-- Where k ≠ 3 the output window is idle (the body stores nothing into it) and is not written back. -/
theorem idleAt54_2 : ∀ t : Fin cfg54.N, ¬cond54_1 (grid54.coords t) → cfg54.idle 2 (grid54.coords t) = true := by decide +kernel
theorem noFlush54_2 : ∀ t : Fin cfg54.N, ¬cond54_1 (grid54.coords t) → (cfg54.win 2).flush t = false := by decide +kernel
/-- Where k = 3 it is live. -/
theorem liveAt54_2 : ∀ t : Fin cfg54.N, cond54_1 (grid54.coords t) → cfg54.idle 2 (grid54.coords t) = false := by decide +kernel

/-! ## The staging memrefs at a point, and the scratch -/

/-- One staging buffer of the output window, through which its contents are stated. -/
abbrev VO54_2 : View sig .tc .vmem S1024x512 .f32 := (Memref.whole cc54_stg2_0 : Memref sig .tc .vmem S1024x512 .f32).view
abbrev ms54_0 (t : Fin cfg54.N) : Memref sig .tc .vmem S1024x1024 .bf16 := win54_0.stage (cfg54.slots t 0)
abbrev hs54_0 (t : Fin cfg54.N) : (ms54_0 t).IsWhole := hstage54_0 ((cfg54.slots t 0).cast nbuf54_0)
abbrev ms54_1 (t : Fin cfg54.N) : Memref sig .tc .vmem S1024x512 .f32 := win54_1.stage (cfg54.slots t 1)
abbrev hs54_1 (t : Fin cfg54.N) : (ms54_1 t).IsWhole := hstage54_1 ((cfg54.slots t 1).cast nbuf54_1)
abbrev ms54_2 (t : Fin cfg54.N) : Memref sig .tc .vmem S1024x512 .f32 := win54_2.stage (cfg54.slots t 2)
abbrev hs54_2 (t : Fin cfg54.N) : (ms54_2 t).IsWhole := hstage54_2 ((cfg54.slots t 2).cast nbuf54_2)
/-- The accumulator: a whole scoped buffer of the kernel's own. -/
abbrev scM54 : Memref sig .tc .vmem S1024x512 .f32 := Memref.whole cc54_scratch0
abbrev VS54 : View sig .tc .vmem S1024x512 .f32 := scM54.view

/-- The other scoped buffers of the core, none of which this region touches. -/
abbrev restBut54 (c : Dev nD) : sProp 𝕄 :=
  Pipeline.scopedRestBut (Ix := Unit) (Name := ℕ) (U := UR sig nD τ) (Lvl := ℕ) (Val := Elt F) spec54 c [cc54_scratch0]

/-- The region's invariant before its first point: the accumulator at something, the other scoped buffers, the generator register. -/
theorem PhiA54_eq (c : Dev nD) :
    (Pipeline.ΦA spec54 c : sProp 𝕄)
      = iprop(iprop((∃ d, owns (c : Thread nD τ) scM54 fullShare d) ∗ restBut54 c) ∗ (∃ r, prngReg c r)) := by
  unfold Pipeline.ΦA; rw [scopedRest54_split]; simp only [scM54, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun54_A (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond54_0 i) (hc1 : ¬cond54_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc54__matmul_kernel i arg2 harg2 arg3 harg3 arg4 harg4 arg5 harg5) K } := by
  refine ⟨[], ?_, fun xi2 E K => ?run⟩
  case run =>
    simp only [cc54__matmul_kernel_eq_skeleton]; unfold cc54__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK54b.lean ====
/- Laid out by: python3 scratch/layout_regions.py --template-region 1 --region 54 --program Kernel --parts a,b,c, --out-dir proof/Proof
   from the hand-written text of region 1 (RegKI1b.lean): the same text, the region's number and the program's namespace substituted. -/
/-
  Region 54, case B (k = 1, 2): the body's run. Neither conditional is taken: the product of the two blocks is added to what
  the point before left in the accumulator; the output block is not touched.
-/
import proofs.«158944_j64613488001249_1_alg».proof.Proof.RegK54a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun54_B (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond54_0 i) (hc1 : ¬cond54_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc54__matmul_kernel i arg2 harg2 arg3 harg3 arg4 harg4 arg5 harg5) K } := by
  refine ⟨[], ?_, fun xi2 E K => ?run⟩
  case run =>
    simp only [cc54__matmul_kernel_eq_skeleton]; unfold cc54__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK54c.lean ====
/- Laid out by: python3 scratch/layout_regions.py --template-region 1 --region 54 --program Kernel --parts a,b,c, --out-dir proof/Proof
   from the hand-written text of region 1 (RegKI1c.lean): the same text, the region's number and the program's namespace substituted. -/
/-
  Region 54, case C (k = 3): the body's run. The product is added to the accumulator as in case B, and then the second
  conditional copies the accumulator over the whole output block.
-/
import proofs.«158944_j64613488001249_1_alg».proof.Proof.RegK54b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun54_C (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond54_0 i) (hc1 : cond54_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc54__matmul_kernel i arg2 harg2 arg3 harg3 arg4 harg4 arg5 harg5) K } := by
  refine ⟨?_, ?_, fun E K => ?run⟩
  case run =>
    simp only [cc54__matmul_kernel_eq_skeleton]; unfold cc54__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK54.lean ====
/- Laid out by: python3 scratch/layout_regions.py --template-region 1 --region 54 --program Kernel --parts a,b,c, --out-dir proof/Proof
   from the hand-written text of region 1 (RegKI1.lean): the same text, the region's number and the program's namespace substituted. -/
/-
  Region 54 of @main, entered from the buffer contents `V`: what its windows' blocks are, what each case of the body leaves in
  the accumulator and in the output block, the accumulator and the output block point by point (`outsAt54`: at k = 0 the
  accumulator restarts from zeros plus the product; at k = 1, 2, 3 it is the point before's plus the product; at k = 3 the
  output block is the accumulator), the region's invariant (the accumulator at `outsAt54`'s second component), the proof data,
  and the body's obligation at every point.
-/
import proofs.«158944_j64613488001249_1_alg».proof.Proof.RegK54c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk54 (c : Dev nD) (w : Fin cfg54.W) (t : Fin cfg54.N) : ((cfg54.win w).xblock (cfg54.grid.coords t)).Idx → Elt F (cfg54.win w).elt :=
  ((cfg54.win w).blk t).view.read (Elt F) (V c (Pipeline.arrRef spec54 w))

/-- An input window's current staging buffer holds its block at every point, for any proof data whose array is `V`'s and
    whose body leaves the block in place. -/
theorem before54_0_of {c : Dev nD} (dat : Dat τ (Elt F) Unit ℕ (UR sig nD τ) ℕ cfg54 c) (hA : dat.A 0 = V c (Pipeline.arrRef spec54 0))
    (hafter : ∀ t, dat.after 0 t = iblk54 V c 0 t) (t : Fin cfg54.N) (d) : dat.before 0 t d = iblk54 V c 0 t :=
  (dat.before_in_eq_fetched 0 rfl (fun _ => rfl) (fun _ _ _ => rfl) (fun t => by rw [hafter]; unfold Dat.blockOf iblk54; rw [hA]; try rfl) t d).trans
    (by unfold Dat.fetched Dat.blockOf iblk54; rw [hA]; try rfl)
theorem before54_1_of {c : Dev nD} (dat : Dat τ (Elt F) Unit ℕ (UR sig nD τ) ℕ cfg54 c) (hA : dat.A 1 = V c (Pipeline.arrRef spec54 1))
    (hafter : ∀ t, dat.after 1 t = iblk54 V c 1 t) (t : Fin cfg54.N) (d) : dat.before 1 t d = iblk54 V c 1 t :=
  (dat.before_in_eq_fetched 1 rfl (fun _ => rfl) (fun _ _ _ => rfl) (fun t => by rw [hafter]; unfold Dat.blockOf iblk54; rw [hA]; try rfl) t d).trans
    (by unfold Dat.fetched Dat.blockOf iblk54; rw [hA]; try rfl)

/-! ## What each case leaves -/

/-- Case A's stores into the accumulator cover it. -/
theorem scover54_A (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond54_0 i) (hc1 : ¬cond54_1 i)
    (x0 : Vec F S1024x1024 .bf16) (x1 : Vec F S1024x512 .f32) (y : S1024x512.Idx) :
    ∃ pc ∈ (kernelRun54_A c i arg2 harg2 arg3 harg3 arg4 harg4 arg5 harg5 hc0 hc1 x0 x1).2.1, y ∈ pc.1.set :=
  View.cover_of_tiledL (kernelRun54_A c i arg2 harg2 arg3 harg3 arg4 harg4 arg5 harg5 hc0 hc1 x0 x1).2.1 S1024x512.size (by sl_kernel_rfl) y
/-- What case A leaves in the accumulator. -/
noncomputable def sout54_A (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond54_0 i) (hc1 : ¬cond54_1 i)
    (x0 : Vec F S1024x1024 .bf16) (x1 : Vec F S1024x512 .f32) : Vec F S1024x512 .f32 :=
  VS54.read (Elt F) (VS54.writes (Elt F) VS54.junk (kernelRun54_A c i arg2 harg2 arg3 harg3 arg4 harg4 arg5 harg5 hc0 hc1 x0 x1).2.1)

/-- Case B's store into the accumulator covers it. -/
theorem scover54_B (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond54_0 i) (hc1 : ¬cond54_1 i)
    (x0 : Vec F S1024x1024 .bf16) (x1 : Vec F S1024x512 .f32) (xs0 : Vec F S1024x512 .f32) (y : S1024x512.Idx) :
    ∃ pc ∈ (kernelRun54_B c i arg2 harg2 arg3 harg3 arg4 harg4 arg5 harg5 hc0 hc1 x0 x1 xs0).2.1, y ∈ pc.1.set :=
  View.cover_of_tiledL (kernelRun54_B c i arg2 harg2 arg3 harg3 arg4 harg4 arg5 harg5 hc0 hc1 x0 x1 xs0).2.1 S1024x512.size (by sl_kernel_rfl) y
/-- What case B leaves in the accumulator, over what the point before left. -/
noncomputable def sout54_B (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond54_0 i) (hc1 : ¬cond54_1 i)
    (x0 : Vec F S1024x1024 .bf16) (x1 : Vec F S1024x512 .f32) (xs0 : Vec F S1024x512 .f32) : Vec F S1024x512 .f32 :=
  VS54.read (Elt F) (VS54.writes (Elt F) VS54.junk (kernelRun54_B c i arg2 harg2 arg3 harg3 arg4 harg4 arg5 harg5 hc0 hc1 x0 x1 xs0).2.1)

/-- Case C's store into the output block covers it, and so does its store into the accumulator. -/
theorem cover54_C (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond54_0 i) (hc1 : cond54_1 i)
    (x0 : Vec F S1024x1024 .bf16) (x1 : Vec F S1024x512 .f32) (xs0 : Vec F S1024x512 .f32) (y : S1024x512.Idx) :
    ∃ pc ∈ (kernelRun54_C c i arg2 harg2 arg3 harg3 arg4 harg4 arg5 harg5 hc0 hc1 x0 x1 xs0).1, y ∈ pc.1.set :=
  View.cover_of_tiledL (kernelRun54_C c i arg2 harg2 arg3 harg3 arg4 harg4 arg5 harg5 hc0 hc1 x0 x1 xs0).1 S1024x512.size (by sl_kernel_rfl) y
theorem scover54_C (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond54_0 i) (hc1 : cond54_1 i)
    (x0 : Vec F S1024x1024 .bf16) (x1 : Vec F S1024x512 .f32) (xs0 : Vec F S1024x512 .f32) (y : S1024x512.Idx) :
    ∃ pc ∈ (kernelRun54_C c i arg2 harg2 arg3 harg3 arg4 harg4 arg5 harg5 hc0 hc1 x0 x1 xs0).2.1, y ∈ pc.1.set :=
  View.cover_of_tiledL (kernelRun54_C c i arg2 harg2 arg3 harg3 arg4 harg4 arg5 harg5 hc0 hc1 x0 x1 xs0).2.1 S1024x512.size (by sl_kernel_rfl) y
/-- What case C leaves in the output block, and in the accumulator. -/
noncomputable def out54_C (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond54_0 i) (hc1 : cond54_1 i)
    (x0 : Vec F S1024x1024 .bf16) (x1 : Vec F S1024x512 .f32) (xs0 : Vec F S1024x512 .f32) : Vec F S1024x512 .f32 :=
  VO54_2.read (Elt F) (VO54_2.writes (Elt F) VO54_2.junk (kernelRun54_C c i arg2 harg2 arg3 harg3 arg4 harg4 arg5 harg5 hc0 hc1 x0 x1 xs0).1)
noncomputable def sout54_C (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond54_0 i) (hc1 : cond54_1 i)
    (x0 : Vec F S1024x1024 .bf16) (x1 : Vec F S1024x512 .f32) (xs0 : Vec F S1024x512 .f32) : Vec F S1024x512 .f32 :=
  VS54.read (Elt F) (VS54.writes (Elt F) VS54.junk (kernelRun54_C c i arg2 harg2 arg3 harg3 arg4 harg4 arg5 harg5 hc0 hc1 x0 x1 xs0).2.1)

/-- Where the output block is idle nothing consults what it holds: a placeholder. -/
noncomputable def outIdle54 : Vec F S1024x512 .f32 := VO54_2.read (Elt F) (VO54_2.writes (Elt F) VO54_2.junk [])

/-! ## The conditions at a point, from t % 4 -/

theorem isFirst54 (t : Fin cfg54.N) (h : t.val % 4 = 0) : cond54_0 (grid54.coords t) := (hcond54_0 t).mpr h
theorem notFirst54 (t : Fin cfg54.N) (h : ¬t.val % 4 = 0) : ¬cond54_0 (grid54.coords t) := fun hc => h ((hcond54_0 t).mp hc)
theorem isLast54 (t : Fin cfg54.N) (h : t.val % 4 = 3) : cond54_1 (grid54.coords t) := (hcond54_1 t).mpr h
theorem notLast54 (t : Fin cfg54.N) (h : ¬t.val % 4 = 3) : ¬cond54_1 (grid54.coords t) := fun hc => h ((hcond54_1 t).mp hc)

/-! ## The accumulator and the output block, point by point -/

/-- After the body at position `n`: (the output block's buffer, the accumulator). -/
noncomputable def outsAt54 (c : Dev nD) : (n : ℕ) → n < cfg54.N → Vec F S1024x512 .f32 × Vec F S1024x512 .f32
  | 0, hn => (outIdle54, sout54_A c (grid54.coords ⟨0, hn⟩) (ms54_0 ⟨0, hn⟩) (hs54_0 ⟨0, hn⟩) (ms54_1 ⟨0, hn⟩) (hs54_1 ⟨0, hn⟩) (ms54_2 ⟨0, hn⟩) (hs54_2 ⟨0, hn⟩) scM54 (Memref.isWhole_whole _) (isFirst54 ⟨0, hn⟩ (Nat.zero_mod _)) (notLast54 ⟨0, hn⟩ (by simp)) (iblk54 V c 0 ⟨0, hn⟩) (iblk54 V c 1 ⟨0, hn⟩))
  | n + 1, hn =>
    if h0 : (n + 1) % 4 = 0 then
      (outIdle54, sout54_A c (grid54.coords ⟨n + 1, hn⟩) (ms54_0 ⟨n + 1, hn⟩) (hs54_0 ⟨n + 1, hn⟩) (ms54_1 ⟨n + 1, hn⟩) (hs54_1 ⟨n + 1, hn⟩) (ms54_2 ⟨n + 1, hn⟩) (hs54_2 ⟨n + 1, hn⟩) scM54 (Memref.isWhole_whole _) (isFirst54 ⟨n + 1, hn⟩ h0) (notLast54 ⟨n + 1, hn⟩ (by show ¬(n + 1) % 4 = 3; omega)) (iblk54 V c 0 ⟨n + 1, hn⟩) (iblk54 V c 1 ⟨n + 1, hn⟩))
    else if h3 : (n + 1) % 4 = 3 then
      (out54_C c (grid54.coords ⟨n + 1, hn⟩) (ms54_0 ⟨n + 1, hn⟩) (hs54_0 ⟨n + 1, hn⟩) (ms54_1 ⟨n + 1, hn⟩) (hs54_1 ⟨n + 1, hn⟩) (ms54_2 ⟨n + 1, hn⟩) (hs54_2 ⟨n + 1, hn⟩) scM54 (Memref.isWhole_whole _) (notFirst54 ⟨n + 1, hn⟩ h0) (isLast54 ⟨n + 1, hn⟩ h3) (iblk54 V c 0 ⟨n + 1, hn⟩) (iblk54 V c 1 ⟨n + 1, hn⟩) (outsAt54 c n (Nat.lt_of_succ_lt hn)).2,
       sout54_C c (grid54.coords ⟨n + 1, hn⟩) (ms54_0 ⟨n + 1, hn⟩) (hs54_0 ⟨n + 1, hn⟩) (ms54_1 ⟨n + 1, hn⟩) (hs54_1 ⟨n + 1, hn⟩) (ms54_2 ⟨n + 1, hn⟩) (hs54_2 ⟨n + 1, hn⟩) scM54 (Memref.isWhole_whole _) (notFirst54 ⟨n + 1, hn⟩ h0) (isLast54 ⟨n + 1, hn⟩ h3) (iblk54 V c 0 ⟨n + 1, hn⟩) (iblk54 V c 1 ⟨n + 1, hn⟩) (outsAt54 c n (Nat.lt_of_succ_lt hn)).2)
    else
      (outIdle54, sout54_B c (grid54.coords ⟨n + 1, hn⟩) (ms54_0 ⟨n + 1, hn⟩) (hs54_0 ⟨n + 1, hn⟩) (ms54_1 ⟨n + 1, hn⟩) (hs54_1 ⟨n + 1, hn⟩) (ms54_2 ⟨n + 1, hn⟩) (hs54_2 ⟨n + 1, hn⟩) scM54 (Memref.isWhole_whole _) (notFirst54 ⟨n + 1, hn⟩ h0) (notLast54 ⟨n + 1, hn⟩ h3) (iblk54 V c 0 ⟨n + 1, hn⟩) (iblk54 V c 1 ⟨n + 1, hn⟩) (outsAt54 c n (Nat.lt_of_succ_lt hn)).2)

/-- `outsAt54` at a point with k = 0. -/
theorem outsAt54_A (c : Dev nD) (t : Fin cfg54.N) (h0 : t.val % 4 = 0) :
    outsAt54 V c t.val t.isLt = (outIdle54, sout54_A c (grid54.coords t) (ms54_0 t) (hs54_0 t) (ms54_1 t) (hs54_1 t) (ms54_2 t) (hs54_2 t) scM54 (Memref.isWhole_whole _) (isFirst54 t h0) (notLast54 t (by omega)) (iblk54 V c 0 t) (iblk54 V c 1 t)) := by
  obtain ⟨n, hn⟩ := t
  cases n with
  | zero => rfl
  | succ n => exact (dif_pos h0).trans rfl

/-- `outsAt54` at a point with k = 1, 2: over what the point before left. -/
theorem outsAt54_B (c : Dev nD) (t : Fin cfg54.N) (h0 : ¬t.val % 4 = 0) (h3 : ¬t.val % 4 = 3) :
    outsAt54 V c t.val t.isLt = (outIdle54, sout54_B c (grid54.coords t) (ms54_0 t) (hs54_0 t) (ms54_1 t) (hs54_1 t) (ms54_2 t) (hs54_2 t) scM54 (Memref.isWhole_whole _) (notFirst54 t h0) (notLast54 t h3) (iblk54 V c 0 t) (iblk54 V c 1 t)
      (outsAt54 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt54` at a point with k = 3. -/
theorem outsAt54_C (c : Dev nD) (t : Fin cfg54.N) (h0 : ¬t.val % 4 = 0) (h3 : t.val % 4 = 3) :
    outsAt54 V c t.val t.isLt = (out54_C c (grid54.coords t) (ms54_0 t) (hs54_0 t) (ms54_1 t) (hs54_1 t) (ms54_2 t) (hs54_2 t) scM54 (Memref.isWhole_whole _) (notFirst54 t h0) (isLast54 t h3) (iblk54 V c 0 t) (iblk54 V c 1 t)
        (outsAt54 V c (t.val - 1) (Nat.lt_of_le_of_lt (Nat.sub_le _ _) t.isLt)).2,
      sout54_C c (grid54.coords t) (ms54_0 t) (hs54_0 t) (ms54_1 t) (hs54_1 t) (ms54_2 t) (hs54_2 t) scM54 (Memref.isWhole_whole _) (notFirst54 t h0) (isLast54 t h3) (iblk54 V c 0 t) (iblk54 V c 1 t)
        (outsAt54 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS54 (c : Dev nD) : (n : ℕ) → n ≤ cfg54.N → sProp 𝕄
  | 0, _ => Pipeline.ΦA spec54 c
  | n + 1, hn => iprop(iprop(owns (c : Thread nD τ) scM54 fullShare ((outsAt54 V c n hn).2) ∗ restBut54 c) ∗ (∃ r, prngReg c r))

theorem PhiS54_zero (c : Dev nD) (n : ℕ) (h : n ≤ cfg54.N) (hz : n = 0) : PhiS54 V c n h = Pipeline.ΦA spec54 c := by
  subst hz; rfl
theorem PhiS54_succ (c : Dev nD) (n : ℕ) (hn : n < cfg54.N) :
    PhiS54 V c (n + 1) hn = iprop(iprop(owns (c : Thread nD τ) scM54 fullShare ((outsAt54 V c n hn).2) ∗ restBut54 c) ∗ (∃ r, prngReg c r)) := rfl
theorem PhiS54_pos (c : Dev nD) (n : ℕ) (h : n ≤ cfg54.N) (hz : n ≠ 0) :
    PhiS54 V c n h = iprop(iprop(owns (c : Thread nD τ) scM54 fullShare ((outsAt54 V c (n - 1) (by omega)).2) ∗ restBut54 c) ∗ (∃ r, prngReg c r)) := by
  cases n with
  | zero => exact absurd rfl hz
  | succ n => rfl

/-! ## The proof data -/

/-- The region's proof data on core `c`: the arrays as the region finds them; after the body at point `t` each input's
    buffer at its block and the output's at `outsAt54`'s first component; the invariant `PhiS54`; nothing owed; full shares. -/
noncomputable def dat54 (c : Dev nD) : Dat τ (Elt F) Unit ℕ (UR sig nD τ) ℕ cfg54 c where
  A w := V c (Pipeline.arrRef spec54 w)
  after w t := match w with
    | ⟨0, _⟩ => iblk54 V c 0 t
    | ⟨1, _⟩ => iblk54 V c 1 t
    | ⟨2, _⟩ => (outsAt54 V c t.val t.isLt).1
  Φ t := PhiS54 V c t.val (Nat.le_of_lt_succ t.isLt)
  q _ := fullShare
  owed _ := 0

theorem A_eq54 (c : Dev nD) (w : Fin cfg54.W) : (dat54 V c).A w = V c (Pipeline.arrRef spec54 w) := by
  dsimp only [dat54]
theorem PhiS54_castSucc (c : Dev nD) (t : Fin cfg54.N) :
    (dat54 V c).Φ t.castSucc = PhiS54 V c t.val (Nat.le_of_lt t.isLt) := by
  dsimp only [dat54]; simp only [Fin.coe_castSucc]
theorem after54_0 (c : Dev nD) (t : Fin cfg54.N) : (dat54 V c).after 0 t = iblk54 V c 0 t := by dsimp only [dat54]
theorem after54_1 (c : Dev nD) (t : Fin cfg54.N) : (dat54 V c).after 1 t = iblk54 V c 1 t := by dsimp only [dat54]
theorem after54_2 (c : Dev nD) (t : Fin cfg54.N) : (dat54 V c).after 2 t = (outsAt54 V c t.val t.isLt).1 := by dsimp only [dat54]
theorem before54_0 (c : Dev nD) (t : Fin cfg54.N) (d) : (dat54 V c).before 0 t d = iblk54 V c 0 t :=
  before54_0_of V (dat54 V c) (A_eq54 V c 0) (after54_0 V c) t d
theorem before54_1 (c : Dev nD) (t : Fin cfg54.N) (d) : (dat54 V c).before 1 t d = iblk54 V c 1 t :=
  before54_1_of V (dat54 V c) (A_eq54 V c 1) (after54_1 V c) t d

/-! ## The body's obligation -/

noncomputable def bodyPre54 (c : Dev nD) (t : Fin cfg54.N) : sProp 𝕄 :=
  iprop((dat54 V c).Φ t.castSucc ∗ (dat54 V c).owesAt () t.castSucc
    ∗ (∃ d, owns (c : Thread nD τ) (ms54_0 t) fullShare ((dat54 V c).before 0 t d))
    ∗ (∃ d, owns (c : Thread nD τ) (ms54_1 t) fullShare ((dat54 V c).before 1 t d))
    ∗ (∃ d, owns (c : Thread nD τ) (ms54_2 t) fullShare ((dat54 V c).before 2 t d)))

noncomputable def bodyPost54 (c : Dev nD) (t : Fin cfg54.N) : sProp 𝕄 :=
  iprop((dat54 V c).Φ t.succ ∗ (dat54 V c).owesAt () t.succ
    ∗ (dat54 V c).leavesExact 0 t
    ∗ (dat54 V c).leavesExact 1 t
    ∗ (dat54 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body54 (c : Dev nD) (t : Fin cfg54.N) :
    bodyPre54 V c t ⊢ wp frame (wpE (defs₀ (F := F)) Variants.none c none) Set.univ (bodyAt54 t) (fun _ => bodyPost54 V c t) := by
  unfold bodyPre54 bodyPost54 bodyAt54
  simp only [before54_0, before54_1]
  rw [show (dat54 V c).owesAt () t.succ = (dat54 V c).owesAt () t.castSucc from rfl]
  rw [show (dat54 V c).Φ t.succ = PhiS54 V c (t.val + 1) t.isLt from rfl, PhiS54_succ]
  rw [show (dat54 V c).leavesExact 0 t = owns (c : Thread nD τ) (ms54_0 t) fullShare ((dat54 V c).after 0 t) from by
    unfold Dat.leavesExact; rw [liveAt54_0 t], after54_0]
  rw [show (dat54 V c).leavesExact 1 t = owns (c : Thread nD τ) (ms54_1 t) fullShare ((dat54 V c).after 1 t) from by
    unfold Dat.leavesExact; rw [liveAt54_1 t], after54_1]
  by_cases h0 : t.val % 4 = 0
  · have h3 : ¬t.val % 4 = 3 := by omega
    rw [Dat.leavesExact_idle (dat54 V c) 2 t (idleAt54_2 t (notLast54 t h3)) (noFlush54_2 t (notLast54 t h3))]
    rw [outsAt54_A V c t h0]
    unfold sout54_A; (try dsimp only)
    by_cases hz : t.val = 0
    · rw [PhiS54_castSucc V c t, PhiS54_zero V c _ _ hz, PhiA54_eq]
      iintro ⟨⟨⟨HS0, Hrb⟩, Hg⟩, Ho, ⟨%d0, H0⟩, ⟨%d1, H1⟩, ⟨%d2, H2⟩⟩
      iapply ((kernelRun54_A c (grid54.coords t) _ _ _ _ _ _ _ _ (isFirst54 t h0) (notLast54 t (by omega)) (iblk54 V c 0 t) (iblk54 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover54_A c _ _ _ _ _ _ _ _ _ _ _ _ _)
          iexact Hrb
        iexact Hg
      isplitl [Ho]; · iexact Ho
      isplitl [H0]; · iexact H0
      isplitl [H1]; · iexact H1
      iexists _; iexact H2
    · rw [PhiS54_castSucc V c t, PhiS54_pos V c _ _ hz]
      iintro ⟨⟨⟨HS0, Hrb⟩, Hg⟩, Ho, ⟨%d0, H0⟩, ⟨%d1, H1⟩, ⟨%d2, H2⟩⟩
      iapply ((kernelRun54_A c (grid54.coords t) _ _ _ _ _ _ _ _ (isFirst54 t h0) (notLast54 t (by omega)) (iblk54 V c 0 t) (iblk54 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover54_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat54 V c).leavesExact 2 t = owns (c : Thread nD τ) (ms54_2 t) fullShare ((dat54 V c).after 2 t) from by
        unfold Dat.leavesExact; rw [liveAt54_2 t (isLast54 t h3)], after54_2]
      rw [outsAt54_C V c t h0 h3]
      unfold out54_C sout54_C; (try dsimp only)
      rw [PhiS54_castSucc V c t, PhiS54_pos V c _ _ hz]
      iintro ⟨⟨⟨HS0, Hrb⟩, Hg⟩, Ho, ⟨%d0, H0⟩, ⟨%d1, H1⟩, ⟨%d2, H2⟩⟩
      iapply ((kernelRun54_C c (grid54.coords t) _ _ _ _ _ _ _ _ (notFirst54 t h0) (isLast54 t h3) (iblk54 V c 0 t) (iblk54 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover54_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover54_C c _ _ _ _ _ _ _ _ _ _ _ _ _ _)
    · rw [Dat.leavesExact_idle (dat54 V c) 2 t (idleAt54_2 t (notLast54 t h3)) (noFlush54_2 t (notLast54 t h3))]
      rw [outsAt54_B V c t h0 h3]
      unfold sout54_B; (try dsimp only)
      rw [PhiS54_castSucc V c t, PhiS54_pos V c _ _ hz]
      iintro ⟨⟨⟨HS0, Hrb⟩, Hg⟩, Ho, ⟨%d0, H0⟩, ⟨%d1, H1⟩, ⟨%d2, H2⟩⟩
      iapply ((kernelRun54_B c (grid54.coords t) _ _ _ _ _ _ _ _ (notFirst54 t h0) (notLast54 t h3) (iblk54 V c 0 t) (iblk54 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover54_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation54 (c : Dev nD) : BodyObligation (dat54 (F := F) V c) (defs₀ (F := F)) Variants.none () Set.univ := fun t => by
  rw [bigSep_W54, bigSep_W54]
  exact sound_body54 V c t

/-- What the region is entered with is the invariant before the first point. -/
theorem hin54 (c : Dev nD) : Pipeline.ΦA spec54 c ⊢ (dat54 V c).Φ 0 := by
  rw [show (dat54 V c).Φ 0 = PhiS54 V c 0 (Nat.zero_le _) from rfl, PhiS54_zero V c 0 _ rfl]
  try exact Idealize.SL.BI.Entails.refl _

/-- After the last point the invariant gives the class's back: the accumulator's contents are forgotten. -/
theorem hout54 (c : Dev nD) : (dat54 V c).Φ (Fin.last cfg54.N) ⊢ Pipeline.ΦA spec54 c := by
  have hN : cfg54.N = 16 := N_54
  rw [show (dat54 V c).Φ (Fin.last cfg54.N) = PhiS54 V c (Fin.last cfg54.N).val (Nat.le_of_lt_succ (Fin.last cfg54.N).isLt) from rfl,
    PhiS54_pos V c _ _ (by rw [Fin.val_last]; omega), PhiA54_eq]
  iintro ⟨⟨HS0, Hrb⟩, Hg⟩
  isplitl [HS0 Hrb]
  · isplitl [HS0]
    · iexists _; iexact HS0
    iexact Hrb
  iexact Hg

end Cert.Kernel.Hand

end
-- ==== Proof.RegK55a.lean ====
/- Laid out by: python3 scratch/layout_grid41.py --template-region 0 --region 55 --program Kernel --parts a, --shapes S1024x128=S1024x512,S128x512=S512x512
   from the hand-written text of region 0 (RegKI0a.lean): the same text, the region's number, block shapes and the program's namespace substituted. -/
/- The region of Kernel's @main that runs `cc55__matmul_kernel` (pipeline `cfg55`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond55_0 (i : grid55.Coords) : Prop :=
  (Scalar.cmpi .ne (Scalar.extui (Scalar.cmpi .eq (BitVec.ofNat 32 (i 1).val) 0#32)) 0#32) = 1#1
/-- True at every point: the reduction axis has one step. -/
theorem hcond55_0 : ∀ t : Fin cfg55.N, cond55_0 (grid55.coords t) :=
  (by decide +kernel : ∀ t : Fin grid55.N, cond55_0 (grid55.coords t))

/-- "This is the last reduction step" (the guard of the copy to the output block). -/
abbrev cond55_1 (i : grid55.Coords) : Prop := k55_cond2 i = 1#1
/-- True at every point, for the same reason. -/
theorem hcond55_1 : ∀ t : Fin cfg55.N, cond55_1 (grid55.coords t) :=
  (by decide +kernel : ∀ t : Fin grid55.N, cond55_1 (grid55.coords t))

/-! ## No window is idle anywhere -/

theorem liveAt55_0 : ∀ t : Fin cfg55.N, cfg55.idle 0 (grid55.coords t) = false := by decide +kernel
theorem liveAt55_1 : ∀ t : Fin cfg55.N, cfg55.idle 1 (grid55.coords t) = false := by decide +kernel
/-- The output window is stored at every point (the copy's guard holds everywhere). -/
theorem liveAt55_2 : ∀ t : Fin cfg55.N, cfg55.idle 2 (grid55.coords t) = false := by decide +kernel

/-! ## The memrefs the body is called on -/

/-- One staging buffer of the output window, through which its contents are stated (any whole view of the shape reads the
    same pieces back the same way). -/
abbrev VO55_2 : View sig .tc .vmem S1024x512 .f32 := (Memref.whole cc55_stg2_0 : Memref sig .tc .vmem S1024x512 .f32).view
/-- Each window's current staging memref at point `t`, spelt as the pipeline passes it, with its wholeness. -/
abbrev ms55_0 (t : Fin cfg55.N) : Memref sig .tc .vmem S1024x512 .f32 := win55_0.stage (cfg55.slots t 0)
abbrev hs55_0 (t : Fin cfg55.N) : (ms55_0 t).IsWhole := hstage55_0 ((cfg55.slots t 0).cast nbuf55_0)
abbrev ms55_1 (t : Fin cfg55.N) : Memref sig .tc .vmem S512x512 .bf16 := win55_1.stage (cfg55.slots t 1)
abbrev hs55_1 (t : Fin cfg55.N) : (ms55_1 t).IsWhole := hstage55_1 ((cfg55.slots t 1).cast nbuf55_1)
abbrev ms55_2 (t : Fin cfg55.N) : Memref sig .tc .vmem S1024x512 .f32 := win55_2.stage (cfg55.slots t 2)
abbrev hs55_2 (t : Fin cfg55.N) : (ms55_2 t).IsWhole := hstage55_2 ((cfg55.slots t 2).cast nbuf55_2)
/-- The accumulator: a whole scoped buffer of the kernel's own, passed beside the windows. -/
abbrev scM55_0 : Memref sig .tc .vmem S1024x512 .f32 := Memref.whole cc55_scratch0
abbrev VS55_0 : View sig .tc .vmem S1024x512 .f32 := scM55_0.view

/-- The region invariant with the accumulator taken out of the scoped rest: the accumulator owned at some contents, every
    other scoped buffer unopened, and the generator register. -/
theorem PhiA55_eq (c : Dev nD) :
    (Pipeline.ΦA spec55 c : sProp 𝕄)
      = iprop(iprop(iprop((∃ d, owns (c : Thread nD τ) scM55_0 fullShare d))
            ∗ Pipeline.scopedRestBut (Ix := Unit) (Name := ℕ) (U := UR sig nD τ) (Lvl := ℕ) (Val := Elt F) spec55 c [cc55_scratch0])
          ∗ (∃ r, prngReg c r)) := by
  unfold Pipeline.ΦA; rw [scopedRest55_split]; simp only [scM55_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun55 (c : Dev nD) (i : grid55.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond55_0 i) (hlast : cond55_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc55__matmul_kernel i arg2 harg2 arg3 harg3 arg4 harg4 arg5 harg5) K } := by
  refine ⟨?_, ?_, fun E K => ?run⟩
  case run =>
    simp only [cc55__matmul_kernel_eq_skeleton]; unfold cc55__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.Kernel.Hand

end
-- ==== Proof.RegK55.lean ====
/- Laid out by: python3 scratch/layout_grid41.py --template-region 0 --region 55 --program Kernel --parts a, --shapes S1024x128=S1024x512,S128x512=S512x512
   from the hand-written text of region 0 (RegKI0.lean): the same text, the region's number, block shapes and the program's namespace substituted. -/
/- The region of Kernel's @main that runs `cc55__matmul_kernel` (pipeline `cfg55`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegK55a
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk55 (c : Dev nD) (w : Fin cfg55.W) (t : Fin cfg55.N) : ((cfg55.win w).xblock (cfg55.grid.coords t)).Idx → Elt F (cfg55.win w).elt :=
  ((cfg55.win w).blk t).view.read (Elt F) (V c (Pipeline.arrRef spec55 w))

/-! ## What the case leaves, as pieces read back -/

/-- The output's pieces tile its block (one whole-block store). -/
theorem cover55_2 (c : Dev nD) (i : grid55.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond55_0 i) (hlast : cond55_1 i) (xa : Vec F S1024x512 .f32) (xb : Vec F S512x512 .bf16) (y : S1024x512.Idx) :
    ∃ pc ∈ (kernelRun55 c i arg2 harg2 arg3 harg3 arg4 harg4 arg5 harg5 hfirst hlast xa xb).1, y ∈ pc.1.set :=
  View.cover_of_tiledL (kernelRun55 c i arg2 harg2 arg3 harg3 arg4 harg4 arg5 harg5 hfirst hlast xa xb).1 S1024x512.size (by sl_kernel_rfl) y

/-- What the case leaves in the output's staging buffer: its pieces read back over junk. -/
noncomputable def out55_2 (c : Dev nD) (i : grid55.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond55_0 i) (hlast : cond55_1 i) (xa : Vec F S1024x512 .f32) (xb : Vec F S512x512 .bf16) : Vec F S1024x512 .f32 :=
  VO55_2.read (Elt F) (VO55_2.writes (Elt F) VO55_2.junk (kernelRun55 c i arg2 harg2 arg3 harg3 arg4 harg4 arg5 harg5 hfirst hlast xa xb).1)

/-- What the case leaves in the accumulator: its pieces read back over junk. -/
noncomputable def sout55_0 (c : Dev nD) (i : grid55.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond55_0 i) (hlast : cond55_1 i) (xa : Vec F S1024x512 .f32) (xb : Vec F S512x512 .bf16) : Vec F S1024x512 .f32 :=
  VS55_0.read (Elt F) (VS55_0.writes (Elt F) VS55_0.junk (kernelRun55 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout55_0_eq (c : Dev nD) (i : grid55.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond55_0 i) (hlast : cond55_1 i) (xa : Vec F S1024x512 .f32) (xb : Vec F S512x512 .bf16) :
    sout55_0 c i arg2 harg2 arg3 harg3 arg4 harg4 arg5 harg5 hfirst hlast xa xb = k55_pay2 xa xb (k55_pay1 (F := F)) := by
  unfold sout55_0
  rw [View.read_writes_junk_eq_canon]
  unfold kernelRun55
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out55_2_eq (c : Dev nD) (i : grid55.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond55_0 i) (hlast : cond55_1 i) (xa : Vec F S1024x512 .f32) (xb : Vec F S512x512 .bf16) :
    out55_2 c i arg2 harg2 arg3 harg3 arg4 harg4 arg5 harg5 hfirst hlast xa xb = k55_pay2 xa xb (k55_pay1 (F := F)) := by
  unfold out55_2
  rw [View.read_writes_junk_eq_canon]
  unfold kernelRun55
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt55 (c : Dev nD) (n : ℕ) (hn : n < cfg55.N) : Vec F S1024x512 .f32 × Vec F S1024x512 .f32 :=
  (out55_2 c (grid55.coords ⟨n, hn⟩) (ms55_0 ⟨n, hn⟩) (hs55_0 ⟨n, hn⟩) (ms55_1 ⟨n, hn⟩) (hs55_1 ⟨n, hn⟩) (ms55_2 ⟨n, hn⟩) (hs55_2 ⟨n, hn⟩) scM55_0 (Memref.isWhole_whole _)
      (hcond55_0 ⟨n, hn⟩) (hcond55_1 ⟨n, hn⟩) (iblk55 V c 0 ⟨n, hn⟩) (iblk55 V c 1 ⟨n, hn⟩),
   sout55_0 c (grid55.coords ⟨n, hn⟩) (ms55_0 ⟨n, hn⟩) (hs55_0 ⟨n, hn⟩) (ms55_1 ⟨n, hn⟩) (hs55_1 ⟨n, hn⟩) (ms55_2 ⟨n, hn⟩) (hs55_2 ⟨n, hn⟩) scM55_0 (Memref.isWhole_whole _)
      (hcond55_0 ⟨n, hn⟩) (hcond55_1 ⟨n, hn⟩) (iblk55 V c 0 ⟨n, hn⟩) (iblk55 V c 1 ⟨n, hn⟩))

/-- Every point is a first reduction step: the accumulator after it is one product onto zero. -/
theorem outsAt55_first (c : Dev nD) (t : Fin cfg55.N) :
    (outsAt55 V c t.val t.isLt).2 = k55_pay2 (iblk55 V c 0 t) (iblk55 V c 1 t) (k55_pay1 (F := F)) := by
  obtain ⟨n, hn⟩ := t
  unfold outsAt55
  dsimp only
  rw [sout55_0_eq]

/-- Every point is a last reduction step: the output block after it is the accumulator. -/
theorem outsAt55_last (c : Dev nD) (t : Fin cfg55.N) :
    (outsAt55 V c t.val t.isLt).1 = (outsAt55 V c t.val t.isLt).2 := by
  obtain ⟨n, hn⟩ := t
  unfold outsAt55
  dsimp only
  rw [out55_2_eq, sout55_0_eq]

/-! ## The pipeline's proof data -/

/-- The proof data of the pipeline on core `c`: the arrays as the region finds them; after the body at point `t` each input's
    buffer at its block and the output's at `outsAt55`'s first component; the invariant the same at every point; nothing owed;
    full shares. -/
noncomputable def dat55 (c : Dev nD) : Dat τ (Elt F) Unit ℕ (UR sig nD τ) ℕ cfg55 c where
  A w := V c (Pipeline.arrRef spec55 w)
  after w t := match w with
    | ⟨0, _⟩ => iblk55 V c 0 t
    | ⟨1, _⟩ => iblk55 V c 1 t
    | ⟨2, _⟩ => (outsAt55 V c t.val t.isLt).1
  Φ _ := Pipeline.ΦA spec55 c
  q _ := fullShare
  owed _ := 0

theorem A_eq55 (c : Dev nD) (w : Fin cfg55.W) : (dat55 V c).A w = V c (Pipeline.arrRef spec55 w) := by
  dsimp only [dat55]

theorem after55_0 (c : Dev nD) (t : Fin cfg55.N) : (dat55 V c).after 0 t = iblk55 V c 0 t := by dsimp only [dat55]
theorem after55_1 (c : Dev nD) (t : Fin cfg55.N) : (dat55 V c).after 1 t = iblk55 V c 1 t := by dsimp only [dat55]
theorem after55_2 (c : Dev nD) (t : Fin cfg55.N) : (dat55 V c).after 2 t = (outsAt55 V c t.val t.isLt).1 := by dsimp only [dat55]

/-- An input's current staging buffer holds its block at every point, fetched there or not: where it is not fetched its block
    index has not moved since the point before, and the body left the block in place. -/
theorem before55_0 (c : Dev nD) (t : Fin cfg55.N) (d) : (dat55 V c).before 0 t d = iblk55 V c 0 t :=
  ((dat55 V c).before_in_eq_fetched 0 rfl (fun _ => rfl) (fun _ _ _ => rfl)
      (fun t => by rw [after55_0]; unfold Dat.blockOf iblk55; rw [A_eq55]; try rfl) t d).trans
    (by unfold Dat.fetched Dat.blockOf iblk55; rw [A_eq55]; try rfl)
theorem before55_1 (c : Dev nD) (t : Fin cfg55.N) (d) : (dat55 V c).before 1 t d = iblk55 V c 1 t :=
  ((dat55 V c).before_in_eq_fetched 1 rfl (fun _ => rfl) (fun _ _ _ => rfl)
      (fun t => by rw [after55_1]; unfold Dat.blockOf iblk55; rw [A_eq55]; try rfl) t d).trans
    (by unfold Dat.fetched Dat.blockOf iblk55; rw [A_eq55]; try rfl)

/-! ## The body obligation, at a generic point -/

/-- What the body is called with at point `t`, the windows one by one, -/
noncomputable def bodyPre55 (c : Dev nD) (t : Fin cfg55.N) : sProp 𝕄 :=
  iprop((dat55 V c).Φ t.castSucc ∗ (dat55 V c).owesAt () t.castSucc
    ∗ (∃ d, owns (c : Thread nD τ) (ms55_0 t) fullShare ((dat55 V c).before 0 t d))
    ∗ (∃ d, owns (c : Thread nD τ) (ms55_1 t) fullShare ((dat55 V c).before 1 t d))
    ∗ (∃ d, owns (c : Thread nD τ) (ms55_2 t) fullShare ((dat55 V c).before 2 t d)))

/-- and what it returns. -/
noncomputable def bodyPost55 (c : Dev nD) (t : Fin cfg55.N) : sProp 𝕄 :=
  iprop((dat55 V c).Φ t.succ ∗ (dat55 V c).owesAt () t.succ
    ∗ (dat55 V c).leavesExact 0 t
    ∗ (dat55 V c).leavesExact 1 t
    ∗ (dat55 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body55 (c : Dev nD) (t : Fin cfg55.N) :
    bodyPre55 V c t ⊢ wp frame (wpE (defs₀ (F := F)) Variants.none c none) Set.univ (bodyAt55 t) (fun _ => bodyPost55 V c t) := by
  unfold bodyPre55 bodyPost55 bodyAt55
  simp only [before55_0, before55_1]
  rw [show (dat55 V c).owesAt () t.succ = (dat55 V c).owesAt () t.castSucc from rfl,
    show (dat55 V c).Φ t.succ = Pipeline.ΦA spec55 c from rfl, show (dat55 V c).Φ t.castSucc = Pipeline.ΦA spec55 c from rfl, PhiA55_eq]
  rw [show (dat55 V c).leavesExact 0 t = owns (c : Thread nD τ) (ms55_0 t) fullShare ((dat55 V c).after 0 t) from by
      unfold Dat.leavesExact; rw [liveAt55_0 t], after55_0]
  rw [show (dat55 V c).leavesExact 1 t = owns (c : Thread nD τ) (ms55_1 t) fullShare ((dat55 V c).after 1 t) from by
      unfold Dat.leavesExact; rw [liveAt55_1 t], after55_1]
  rw [show (dat55 V c).leavesExact 2 t = owns (c : Thread nD τ) (ms55_2 t) fullShare ((dat55 V c).after 2 t) from by
      unfold Dat.leavesExact; rw [liveAt55_2 t], after55_2]
  unfold outsAt55 out55_2; (try dsimp only)
  iintro ⟨⟨⟨Hacc, Hrest⟩, Hgen⟩, Howe, ⟨%da, Ha⟩, ⟨%db, Hb⟩, ⟨%dO, Hout⟩⟩
  iapply ((kernelRun55 c (grid55.coords t) _ _ _ _ _ _ _ _ (hcond55_0 t) (hcond55_1 t) (iblk55 V c 0 t) (iblk55 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover55_2 c _ _ _ _ _ _ _ _ _ _ _ _ _)

/-- The library's body obligation, at every point. -/
theorem body_obligation55 (c : Dev nD) : BodyObligation (dat55 (F := F) V c) (defs₀ (F := F)) Variants.none () Set.univ := fun t => by
  rw [bigSep_W55, bigSep_W55]
  exact sound_body55 V c t

/-- What the launch hands the region is the invariant before the first point, -/
theorem hin55 (c : Dev nD) : Pipeline.ΦA spec55 c ⊢ (dat55 V c).Φ 0 := Idealize.SL.BI.Entails.refl _

/-- and the invariant after the last point is what the launch takes back. -/
theorem hout55 (c : Dev nD) : (dat55 V c).Φ (Fin.last cfg55.N) ⊢ Pipeline.ΦA spec55 c := Idealize.SL.BI.Entails.refl _

end Cert.Kernel.Hand

end
-- ==== Proof.RegK56a.lean ====
/- Laid out by: python3 scratch/layout_regions.py --template-region 1 --region 56 --program Kernel --parts a,b,c, --out-dir proof/Proof
   from the hand-written text of region 1 (RegKI1a.lean): the same text, the region's number and the program's namespace substituted. -/
/-
  Region 56 of @main (custom_call 56): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond56_0 (i : grid56.Coords) : Prop := (Scalar.cmpi .ne (Scalar.extui (Scalar.cmpi .eq (BitVec.ofNat 32 (i 1).val) 0#32)) 0#32) = 1#1
/-- It holds exactly at the points with t % 4 = 0. -/
theorem hcond56_0 : ∀ t : Fin cfg56.N, cond56_0 (grid56.coords t) ↔ t.val % 4 = 0 :=
  (by decide +kernel : ∀ t : Fin grid56.N, cond56_0 (grid56.coords t) ↔ t.val % 4 = 0)

/-- "k = 3": the second conditional's test. -/
abbrev cond56_1 (i : grid56.Coords) : Prop := k56_cond2 i = 1#1
/-- It holds exactly at the points with t % 4 = 3. -/
theorem hcond56_1 : ∀ t : Fin cfg56.N, cond56_1 (grid56.coords t) ↔ t.val % 4 = 3 :=
  (by decide +kernel : ∀ t : Fin grid56.N, cond56_1 (grid56.coords t) ↔ t.val % 4 = 3)

/-! ## Where the windows are idle, and where the output is written back -/

/-- The two input windows are never idle. -/
theorem liveAt56_0 : ∀ t : Fin cfg56.N, cfg56.idle 0 (grid56.coords t) = false := by decide +kernel
theorem liveAt56_1 : ∀ t : Fin cfg56.N, cfg56.idle 1 (grid56.coords t) = false := by decide +kernel
/-- Where k ≠ 3 the output window is idle (the body stores nothing into it) and is not written back. -/
theorem idleAt56_2 : ∀ t : Fin cfg56.N, ¬cond56_1 (grid56.coords t) → cfg56.idle 2 (grid56.coords t) = true := by decide +kernel
theorem noFlush56_2 : ∀ t : Fin cfg56.N, ¬cond56_1 (grid56.coords t) → (cfg56.win 2).flush t = false := by decide +kernel
/-- Where k = 3 it is live. -/
theorem liveAt56_2 : ∀ t : Fin cfg56.N, cond56_1 (grid56.coords t) → cfg56.idle 2 (grid56.coords t) = false := by decide +kernel

/-! ## The staging memrefs at a point, and the scratch -/

/-- One staging buffer of the output window, through which its contents are stated. -/
abbrev VO56_2 : View sig .tc .vmem S1024x512 .f32 := (Memref.whole cc56_stg2_0 : Memref sig .tc .vmem S1024x512 .f32).view
abbrev ms56_0 (t : Fin cfg56.N) : Memref sig .tc .vmem S1024x1024 .bf16 := win56_0.stage (cfg56.slots t 0)
abbrev hs56_0 (t : Fin cfg56.N) : (ms56_0 t).IsWhole := hstage56_0 ((cfg56.slots t 0).cast nbuf56_0)
abbrev ms56_1 (t : Fin cfg56.N) : Memref sig .tc .vmem S1024x512 .f32 := win56_1.stage (cfg56.slots t 1)
abbrev hs56_1 (t : Fin cfg56.N) : (ms56_1 t).IsWhole := hstage56_1 ((cfg56.slots t 1).cast nbuf56_1)
abbrev ms56_2 (t : Fin cfg56.N) : Memref sig .tc .vmem S1024x512 .f32 := win56_2.stage (cfg56.slots t 2)
abbrev hs56_2 (t : Fin cfg56.N) : (ms56_2 t).IsWhole := hstage56_2 ((cfg56.slots t 2).cast nbuf56_2)
/-- The accumulator: a whole scoped buffer of the kernel's own. -/
abbrev scM56 : Memref sig .tc .vmem S1024x512 .f32 := Memref.whole cc56_scratch0
abbrev VS56 : View sig .tc .vmem S1024x512 .f32 := scM56.view

/-- The other scoped buffers of the core, none of which this region touches. -/
abbrev restBut56 (c : Dev nD) : sProp 𝕄 :=
  Pipeline.scopedRestBut (Ix := Unit) (Name := ℕ) (U := UR sig nD τ) (Lvl := ℕ) (Val := Elt F) spec56 c [cc56_scratch0]

/-- The region's invariant before its first point: the accumulator at something, the other scoped buffers, the generator register. -/
theorem PhiA56_eq (c : Dev nD) :
    (Pipeline.ΦA spec56 c : sProp 𝕄)
      = iprop(iprop((∃ d, owns (c : Thread nD τ) scM56 fullShare d) ∗ restBut56 c) ∗ (∃ r, prngReg c r)) := by
  unfold Pipeline.ΦA; rw [scopedRest56_split]; simp only [scM56, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun56_A (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond56_0 i) (hc1 : ¬cond56_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc56__matmul_kernel i arg2 harg2 arg3 harg3 arg4 harg4 arg5 harg5) K } := by
  refine ⟨[], ?_, fun xi2 E K => ?run⟩
  case run =>
    simp only [cc56__matmul_kernel_eq_skeleton]; unfold cc56__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK56b.lean ====
/- Laid out by: python3 scratch/layout_regions.py --template-region 1 --region 56 --program Kernel --parts a,b,c, --out-dir proof/Proof
   from the hand-written text of region 1 (RegKI1b.lean): the same text, the region's number and the program's namespace substituted. -/
/-
  Region 56, case B (k = 1, 2): the body's run. Neither conditional is taken: the product of the two blocks is added to what
  the point before left in the accumulator; the output block is not touched.
-/
import proofs.«158944_j64613488001249_1_alg».proof.Proof.RegK56a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun56_B (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond56_0 i) (hc1 : ¬cond56_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc56__matmul_kernel i arg2 harg2 arg3 harg3 arg4 harg4 arg5 harg5) K } := by
  refine ⟨[], ?_, fun xi2 E K => ?run⟩
  case run =>
    simp only [cc56__matmul_kernel_eq_skeleton]; unfold cc56__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK56c.lean ====
/- Laid out by: python3 scratch/layout_regions.py --template-region 1 --region 56 --program Kernel --parts a,b,c, --out-dir proof/Proof
   from the hand-written text of region 1 (RegKI1c.lean): the same text, the region's number and the program's namespace substituted. -/
/-
  Region 56, case C (k = 3): the body's run. The product is added to the accumulator as in case B, and then the second
  conditional copies the accumulator over the whole output block.
-/
import proofs.«158944_j64613488001249_1_alg».proof.Proof.RegK56b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun56_C (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond56_0 i) (hc1 : cond56_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc56__matmul_kernel i arg2 harg2 arg3 harg3 arg4 harg4 arg5 harg5) K } := by
  refine ⟨?_, ?_, fun E K => ?run⟩
  case run =>
    simp only [cc56__matmul_kernel_eq_skeleton]; unfold cc56__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK56.lean ====
/- Laid out by: python3 scratch/layout_regions.py --template-region 1 --region 56 --program Kernel --parts a,b,c, --out-dir proof/Proof
   from the hand-written text of region 1 (RegKI1.lean): the same text, the region's number and the program's namespace substituted. -/
/-
  Region 56 of @main, entered from the buffer contents `V`: what its windows' blocks are, what each case of the body leaves in
  the accumulator and in the output block, the accumulator and the output block point by point (`outsAt56`: at k = 0 the
  accumulator restarts from zeros plus the product; at k = 1, 2, 3 it is the point before's plus the product; at k = 3 the
  output block is the accumulator), the region's invariant (the accumulator at `outsAt56`'s second component), the proof data,
  and the body's obligation at every point.
-/
import proofs.«158944_j64613488001249_1_alg».proof.Proof.RegK56c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk56 (c : Dev nD) (w : Fin cfg56.W) (t : Fin cfg56.N) : ((cfg56.win w).xblock (cfg56.grid.coords t)).Idx → Elt F (cfg56.win w).elt :=
  ((cfg56.win w).blk t).view.read (Elt F) (V c (Pipeline.arrRef spec56 w))

/-- An input window's current staging buffer holds its block at every point, for any proof data whose array is `V`'s and
    whose body leaves the block in place. -/
theorem before56_0_of {c : Dev nD} (dat : Dat τ (Elt F) Unit ℕ (UR sig nD τ) ℕ cfg56 c) (hA : dat.A 0 = V c (Pipeline.arrRef spec56 0))
    (hafter : ∀ t, dat.after 0 t = iblk56 V c 0 t) (t : Fin cfg56.N) (d) : dat.before 0 t d = iblk56 V c 0 t :=
  (dat.before_in_eq_fetched 0 rfl (fun _ => rfl) (fun _ _ _ => rfl) (fun t => by rw [hafter]; unfold Dat.blockOf iblk56; rw [hA]; try rfl) t d).trans
    (by unfold Dat.fetched Dat.blockOf iblk56; rw [hA]; try rfl)
theorem before56_1_of {c : Dev nD} (dat : Dat τ (Elt F) Unit ℕ (UR sig nD τ) ℕ cfg56 c) (hA : dat.A 1 = V c (Pipeline.arrRef spec56 1))
    (hafter : ∀ t, dat.after 1 t = iblk56 V c 1 t) (t : Fin cfg56.N) (d) : dat.before 1 t d = iblk56 V c 1 t :=
  (dat.before_in_eq_fetched 1 rfl (fun _ => rfl) (fun _ _ _ => rfl) (fun t => by rw [hafter]; unfold Dat.blockOf iblk56; rw [hA]; try rfl) t d).trans
    (by unfold Dat.fetched Dat.blockOf iblk56; rw [hA]; try rfl)

/-! ## What each case leaves -/

/-- Case A's stores into the accumulator cover it. -/
theorem scover56_A (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond56_0 i) (hc1 : ¬cond56_1 i)
    (x0 : Vec F S1024x1024 .bf16) (x1 : Vec F S1024x512 .f32) (y : S1024x512.Idx) :
    ∃ pc ∈ (kernelRun56_A c i arg2 harg2 arg3 harg3 arg4 harg4 arg5 harg5 hc0 hc1 x0 x1).2.1, y ∈ pc.1.set :=
  View.cover_of_tiledL (kernelRun56_A c i arg2 harg2 arg3 harg3 arg4 harg4 arg5 harg5 hc0 hc1 x0 x1).2.1 S1024x512.size (by sl_kernel_rfl) y
/-- What case A leaves in the accumulator. -/
noncomputable def sout56_A (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond56_0 i) (hc1 : ¬cond56_1 i)
    (x0 : Vec F S1024x1024 .bf16) (x1 : Vec F S1024x512 .f32) : Vec F S1024x512 .f32 :=
  VS56.read (Elt F) (VS56.writes (Elt F) VS56.junk (kernelRun56_A c i arg2 harg2 arg3 harg3 arg4 harg4 arg5 harg5 hc0 hc1 x0 x1).2.1)

/-- Case B's store into the accumulator covers it. -/
theorem scover56_B (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond56_0 i) (hc1 : ¬cond56_1 i)
    (x0 : Vec F S1024x1024 .bf16) (x1 : Vec F S1024x512 .f32) (xs0 : Vec F S1024x512 .f32) (y : S1024x512.Idx) :
    ∃ pc ∈ (kernelRun56_B c i arg2 harg2 arg3 harg3 arg4 harg4 arg5 harg5 hc0 hc1 x0 x1 xs0).2.1, y ∈ pc.1.set :=
  View.cover_of_tiledL (kernelRun56_B c i arg2 harg2 arg3 harg3 arg4 harg4 arg5 harg5 hc0 hc1 x0 x1 xs0).2.1 S1024x512.size (by sl_kernel_rfl) y
/-- What case B leaves in the accumulator, over what the point before left. -/
noncomputable def sout56_B (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond56_0 i) (hc1 : ¬cond56_1 i)
    (x0 : Vec F S1024x1024 .bf16) (x1 : Vec F S1024x512 .f32) (xs0 : Vec F S1024x512 .f32) : Vec F S1024x512 .f32 :=
  VS56.read (Elt F) (VS56.writes (Elt F) VS56.junk (kernelRun56_B c i arg2 harg2 arg3 harg3 arg4 harg4 arg5 harg5 hc0 hc1 x0 x1 xs0).2.1)

/-- Case C's store into the output block covers it, and so does its store into the accumulator. -/
theorem cover56_C (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond56_0 i) (hc1 : cond56_1 i)
    (x0 : Vec F S1024x1024 .bf16) (x1 : Vec F S1024x512 .f32) (xs0 : Vec F S1024x512 .f32) (y : S1024x512.Idx) :
    ∃ pc ∈ (kernelRun56_C c i arg2 harg2 arg3 harg3 arg4 harg4 arg5 harg5 hc0 hc1 x0 x1 xs0).1, y ∈ pc.1.set :=
  View.cover_of_tiledL (kernelRun56_C c i arg2 harg2 arg3 harg3 arg4 harg4 arg5 harg5 hc0 hc1 x0 x1 xs0).1 S1024x512.size (by sl_kernel_rfl) y
theorem scover56_C (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond56_0 i) (hc1 : cond56_1 i)
    (x0 : Vec F S1024x1024 .bf16) (x1 : Vec F S1024x512 .f32) (xs0 : Vec F S1024x512 .f32) (y : S1024x512.Idx) :
    ∃ pc ∈ (kernelRun56_C c i arg2 harg2 arg3 harg3 arg4 harg4 arg5 harg5 hc0 hc1 x0 x1 xs0).2.1, y ∈ pc.1.set :=
  View.cover_of_tiledL (kernelRun56_C c i arg2 harg2 arg3 harg3 arg4 harg4 arg5 harg5 hc0 hc1 x0 x1 xs0).2.1 S1024x512.size (by sl_kernel_rfl) y
/-- What case C leaves in the output block, and in the accumulator. -/
noncomputable def out56_C (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond56_0 i) (hc1 : cond56_1 i)
    (x0 : Vec F S1024x1024 .bf16) (x1 : Vec F S1024x512 .f32) (xs0 : Vec F S1024x512 .f32) : Vec F S1024x512 .f32 :=
  VO56_2.read (Elt F) (VO56_2.writes (Elt F) VO56_2.junk (kernelRun56_C c i arg2 harg2 arg3 harg3 arg4 harg4 arg5 harg5 hc0 hc1 x0 x1 xs0).1)
noncomputable def sout56_C (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond56_0 i) (hc1 : cond56_1 i)
    (x0 : Vec F S1024x1024 .bf16) (x1 : Vec F S1024x512 .f32) (xs0 : Vec F S1024x512 .f32) : Vec F S1024x512 .f32 :=
  VS56.read (Elt F) (VS56.writes (Elt F) VS56.junk (kernelRun56_C c i arg2 harg2 arg3 harg3 arg4 harg4 arg5 harg5 hc0 hc1 x0 x1 xs0).2.1)

/-- Where the output block is idle nothing consults what it holds: a placeholder. -/
noncomputable def outIdle56 : Vec F S1024x512 .f32 := VO56_2.read (Elt F) (VO56_2.writes (Elt F) VO56_2.junk [])

/-! ## The conditions at a point, from t % 4 -/

theorem isFirst56 (t : Fin cfg56.N) (h : t.val % 4 = 0) : cond56_0 (grid56.coords t) := (hcond56_0 t).mpr h
theorem notFirst56 (t : Fin cfg56.N) (h : ¬t.val % 4 = 0) : ¬cond56_0 (grid56.coords t) := fun hc => h ((hcond56_0 t).mp hc)
theorem isLast56 (t : Fin cfg56.N) (h : t.val % 4 = 3) : cond56_1 (grid56.coords t) := (hcond56_1 t).mpr h
theorem notLast56 (t : Fin cfg56.N) (h : ¬t.val % 4 = 3) : ¬cond56_1 (grid56.coords t) := fun hc => h ((hcond56_1 t).mp hc)

/-! ## The accumulator and the output block, point by point -/

/-- After the body at position `n`: (the output block's buffer, the accumulator). -/
noncomputable def outsAt56 (c : Dev nD) : (n : ℕ) → n < cfg56.N → Vec F S1024x512 .f32 × Vec F S1024x512 .f32
  | 0, hn => (outIdle56, sout56_A c (grid56.coords ⟨0, hn⟩) (ms56_0 ⟨0, hn⟩) (hs56_0 ⟨0, hn⟩) (ms56_1 ⟨0, hn⟩) (hs56_1 ⟨0, hn⟩) (ms56_2 ⟨0, hn⟩) (hs56_2 ⟨0, hn⟩) scM56 (Memref.isWhole_whole _) (isFirst56 ⟨0, hn⟩ (Nat.zero_mod _)) (notLast56 ⟨0, hn⟩ (by simp)) (iblk56 V c 0 ⟨0, hn⟩) (iblk56 V c 1 ⟨0, hn⟩))
  | n + 1, hn =>
    if h0 : (n + 1) % 4 = 0 then
      (outIdle56, sout56_A c (grid56.coords ⟨n + 1, hn⟩) (ms56_0 ⟨n + 1, hn⟩) (hs56_0 ⟨n + 1, hn⟩) (ms56_1 ⟨n + 1, hn⟩) (hs56_1 ⟨n + 1, hn⟩) (ms56_2 ⟨n + 1, hn⟩) (hs56_2 ⟨n + 1, hn⟩) scM56 (Memref.isWhole_whole _) (isFirst56 ⟨n + 1, hn⟩ h0) (notLast56 ⟨n + 1, hn⟩ (by show ¬(n + 1) % 4 = 3; omega)) (iblk56 V c 0 ⟨n + 1, hn⟩) (iblk56 V c 1 ⟨n + 1, hn⟩))
    else if h3 : (n + 1) % 4 = 3 then
      (out56_C c (grid56.coords ⟨n + 1, hn⟩) (ms56_0 ⟨n + 1, hn⟩) (hs56_0 ⟨n + 1, hn⟩) (ms56_1 ⟨n + 1, hn⟩) (hs56_1 ⟨n + 1, hn⟩) (ms56_2 ⟨n + 1, hn⟩) (hs56_2 ⟨n + 1, hn⟩) scM56 (Memref.isWhole_whole _) (notFirst56 ⟨n + 1, hn⟩ h0) (isLast56 ⟨n + 1, hn⟩ h3) (iblk56 V c 0 ⟨n + 1, hn⟩) (iblk56 V c 1 ⟨n + 1, hn⟩) (outsAt56 c n (Nat.lt_of_succ_lt hn)).2,
       sout56_C c (grid56.coords ⟨n + 1, hn⟩) (ms56_0 ⟨n + 1, hn⟩) (hs56_0 ⟨n + 1, hn⟩) (ms56_1 ⟨n + 1, hn⟩) (hs56_1 ⟨n + 1, hn⟩) (ms56_2 ⟨n + 1, hn⟩) (hs56_2 ⟨n + 1, hn⟩) scM56 (Memref.isWhole_whole _) (notFirst56 ⟨n + 1, hn⟩ h0) (isLast56 ⟨n + 1, hn⟩ h3) (iblk56 V c 0 ⟨n + 1, hn⟩) (iblk56 V c 1 ⟨n + 1, hn⟩) (outsAt56 c n (Nat.lt_of_succ_lt hn)).2)
    else
      (outIdle56, sout56_B c (grid56.coords ⟨n + 1, hn⟩) (ms56_0 ⟨n + 1, hn⟩) (hs56_0 ⟨n + 1, hn⟩) (ms56_1 ⟨n + 1, hn⟩) (hs56_1 ⟨n + 1, hn⟩) (ms56_2 ⟨n + 1, hn⟩) (hs56_2 ⟨n + 1, hn⟩) scM56 (Memref.isWhole_whole _) (notFirst56 ⟨n + 1, hn⟩ h0) (notLast56 ⟨n + 1, hn⟩ h3) (iblk56 V c 0 ⟨n + 1, hn⟩) (iblk56 V c 1 ⟨n + 1, hn⟩) (outsAt56 c n (Nat.lt_of_succ_lt hn)).2)

/-- `outsAt56` at a point with k = 0. -/
theorem outsAt56_A (c : Dev nD) (t : Fin cfg56.N) (h0 : t.val % 4 = 0) :
    outsAt56 V c t.val t.isLt = (outIdle56, sout56_A c (grid56.coords t) (ms56_0 t) (hs56_0 t) (ms56_1 t) (hs56_1 t) (ms56_2 t) (hs56_2 t) scM56 (Memref.isWhole_whole _) (isFirst56 t h0) (notLast56 t (by omega)) (iblk56 V c 0 t) (iblk56 V c 1 t)) := by
  obtain ⟨n, hn⟩ := t
  cases n with
  | zero => rfl
  | succ n => exact (dif_pos h0).trans rfl

/-- `outsAt56` at a point with k = 1, 2: over what the point before left. -/
theorem outsAt56_B (c : Dev nD) (t : Fin cfg56.N) (h0 : ¬t.val % 4 = 0) (h3 : ¬t.val % 4 = 3) :
    outsAt56 V c t.val t.isLt = (outIdle56, sout56_B c (grid56.coords t) (ms56_0 t) (hs56_0 t) (ms56_1 t) (hs56_1 t) (ms56_2 t) (hs56_2 t) scM56 (Memref.isWhole_whole _) (notFirst56 t h0) (notLast56 t h3) (iblk56 V c 0 t) (iblk56 V c 1 t)
      (outsAt56 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt56` at a point with k = 3. -/
theorem outsAt56_C (c : Dev nD) (t : Fin cfg56.N) (h0 : ¬t.val % 4 = 0) (h3 : t.val % 4 = 3) :
    outsAt56 V c t.val t.isLt = (out56_C c (grid56.coords t) (ms56_0 t) (hs56_0 t) (ms56_1 t) (hs56_1 t) (ms56_2 t) (hs56_2 t) scM56 (Memref.isWhole_whole _) (notFirst56 t h0) (isLast56 t h3) (iblk56 V c 0 t) (iblk56 V c 1 t)
        (outsAt56 V c (t.val - 1) (Nat.lt_of_le_of_lt (Nat.sub_le _ _) t.isLt)).2,
      sout56_C c (grid56.coords t) (ms56_0 t) (hs56_0 t) (ms56_1 t) (hs56_1 t) (ms56_2 t) (hs56_2 t) scM56 (Memref.isWhole_whole _) (notFirst56 t h0) (isLast56 t h3) (iblk56 V c 0 t) (iblk56 V c 1 t)
        (outsAt56 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS56 (c : Dev nD) : (n : ℕ) → n ≤ cfg56.N → sProp 𝕄
  | 0, _ => Pipeline.ΦA spec56 c
  | n + 1, hn => iprop(iprop(owns (c : Thread nD τ) scM56 fullShare ((outsAt56 V c n hn).2) ∗ restBut56 c) ∗ (∃ r, prngReg c r))

theorem PhiS56_zero (c : Dev nD) (n : ℕ) (h : n ≤ cfg56.N) (hz : n = 0) : PhiS56 V c n h = Pipeline.ΦA spec56 c := by
  subst hz; rfl
theorem PhiS56_succ (c : Dev nD) (n : ℕ) (hn : n < cfg56.N) :
    PhiS56 V c (n + 1) hn = iprop(iprop(owns (c : Thread nD τ) scM56 fullShare ((outsAt56 V c n hn).2) ∗ restBut56 c) ∗ (∃ r, prngReg c r)) := rfl
theorem PhiS56_pos (c : Dev nD) (n : ℕ) (h : n ≤ cfg56.N) (hz : n ≠ 0) :
    PhiS56 V c n h = iprop(iprop(owns (c : Thread nD τ) scM56 fullShare ((outsAt56 V c (n - 1) (by omega)).2) ∗ restBut56 c) ∗ (∃ r, prngReg c r)) := by
  cases n with
  | zero => exact absurd rfl hz
  | succ n => rfl

/-! ## The proof data -/

/-- The region's proof data on core `c`: the arrays as the region finds them; after the body at point `t` each input's
    buffer at its block and the output's at `outsAt56`'s first component; the invariant `PhiS56`; nothing owed; full shares. -/
noncomputable def dat56 (c : Dev nD) : Dat τ (Elt F) Unit ℕ (UR sig nD τ) ℕ cfg56 c where
  A w := V c (Pipeline.arrRef spec56 w)
  after w t := match w with
    | ⟨0, _⟩ => iblk56 V c 0 t
    | ⟨1, _⟩ => iblk56 V c 1 t
    | ⟨2, _⟩ => (outsAt56 V c t.val t.isLt).1
  Φ t := PhiS56 V c t.val (Nat.le_of_lt_succ t.isLt)
  q _ := fullShare
  owed _ := 0

theorem A_eq56 (c : Dev nD) (w : Fin cfg56.W) : (dat56 V c).A w = V c (Pipeline.arrRef spec56 w) := by
  dsimp only [dat56]
theorem PhiS56_castSucc (c : Dev nD) (t : Fin cfg56.N) :
    (dat56 V c).Φ t.castSucc = PhiS56 V c t.val (Nat.le_of_lt t.isLt) := by
  dsimp only [dat56]; simp only [Fin.coe_castSucc]
theorem after56_0 (c : Dev nD) (t : Fin cfg56.N) : (dat56 V c).after 0 t = iblk56 V c 0 t := by dsimp only [dat56]
theorem after56_1 (c : Dev nD) (t : Fin cfg56.N) : (dat56 V c).after 1 t = iblk56 V c 1 t := by dsimp only [dat56]
theorem after56_2 (c : Dev nD) (t : Fin cfg56.N) : (dat56 V c).after 2 t = (outsAt56 V c t.val t.isLt).1 := by dsimp only [dat56]
theorem before56_0 (c : Dev nD) (t : Fin cfg56.N) (d) : (dat56 V c).before 0 t d = iblk56 V c 0 t :=
  before56_0_of V (dat56 V c) (A_eq56 V c 0) (after56_0 V c) t d
theorem before56_1 (c : Dev nD) (t : Fin cfg56.N) (d) : (dat56 V c).before 1 t d = iblk56 V c 1 t :=
  before56_1_of V (dat56 V c) (A_eq56 V c 1) (after56_1 V c) t d

/-! ## The body's obligation -/

noncomputable def bodyPre56 (c : Dev nD) (t : Fin cfg56.N) : sProp 𝕄 :=
  iprop((dat56 V c).Φ t.castSucc ∗ (dat56 V c).owesAt () t.castSucc
    ∗ (∃ d, owns (c : Thread nD τ) (ms56_0 t) fullShare ((dat56 V c).before 0 t d))
    ∗ (∃ d, owns (c : Thread nD τ) (ms56_1 t) fullShare ((dat56 V c).before 1 t d))
    ∗ (∃ d, owns (c : Thread nD τ) (ms56_2 t) fullShare ((dat56 V c).before 2 t d)))

noncomputable def bodyPost56 (c : Dev nD) (t : Fin cfg56.N) : sProp 𝕄 :=
  iprop((dat56 V c).Φ t.succ ∗ (dat56 V c).owesAt () t.succ
    ∗ (dat56 V c).leavesExact 0 t
    ∗ (dat56 V c).leavesExact 1 t
    ∗ (dat56 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body56 (c : Dev nD) (t : Fin cfg56.N) :
    bodyPre56 V c t ⊢ wp frame (wpE (defs₀ (F := F)) Variants.none c none) Set.univ (bodyAt56 t) (fun _ => bodyPost56 V c t) := by
  unfold bodyPre56 bodyPost56 bodyAt56
  simp only [before56_0, before56_1]
  rw [show (dat56 V c).owesAt () t.succ = (dat56 V c).owesAt () t.castSucc from rfl]
  rw [show (dat56 V c).Φ t.succ = PhiS56 V c (t.val + 1) t.isLt from rfl, PhiS56_succ]
  rw [show (dat56 V c).leavesExact 0 t = owns (c : Thread nD τ) (ms56_0 t) fullShare ((dat56 V c).after 0 t) from by
    unfold Dat.leavesExact; rw [liveAt56_0 t], after56_0]
  rw [show (dat56 V c).leavesExact 1 t = owns (c : Thread nD τ) (ms56_1 t) fullShare ((dat56 V c).after 1 t) from by
    unfold Dat.leavesExact; rw [liveAt56_1 t], after56_1]
  by_cases h0 : t.val % 4 = 0
  · have h3 : ¬t.val % 4 = 3 := by omega
    rw [Dat.leavesExact_idle (dat56 V c) 2 t (idleAt56_2 t (notLast56 t h3)) (noFlush56_2 t (notLast56 t h3))]
    rw [outsAt56_A V c t h0]
    unfold sout56_A; (try dsimp only)
    by_cases hz : t.val = 0
    · rw [PhiS56_castSucc V c t, PhiS56_zero V c _ _ hz, PhiA56_eq]
      iintro ⟨⟨⟨HS0, Hrb⟩, Hg⟩, Ho, ⟨%d0, H0⟩, ⟨%d1, H1⟩, ⟨%d2, H2⟩⟩
      iapply ((kernelRun56_A c (grid56.coords t) _ _ _ _ _ _ _ _ (isFirst56 t h0) (notLast56 t (by omega)) (iblk56 V c 0 t) (iblk56 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover56_A c _ _ _ _ _ _ _ _ _ _ _ _ _)
          iexact Hrb
        iexact Hg
      isplitl [Ho]; · iexact Ho
      isplitl [H0]; · iexact H0
      isplitl [H1]; · iexact H1
      iexists _; iexact H2
    · rw [PhiS56_castSucc V c t, PhiS56_pos V c _ _ hz]
      iintro ⟨⟨⟨HS0, Hrb⟩, Hg⟩, Ho, ⟨%d0, H0⟩, ⟨%d1, H1⟩, ⟨%d2, H2⟩⟩
      iapply ((kernelRun56_A c (grid56.coords t) _ _ _ _ _ _ _ _ (isFirst56 t h0) (notLast56 t (by omega)) (iblk56 V c 0 t) (iblk56 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover56_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat56 V c).leavesExact 2 t = owns (c : Thread nD τ) (ms56_2 t) fullShare ((dat56 V c).after 2 t) from by
        unfold Dat.leavesExact; rw [liveAt56_2 t (isLast56 t h3)], after56_2]
      rw [outsAt56_C V c t h0 h3]
      unfold out56_C sout56_C; (try dsimp only)
      rw [PhiS56_castSucc V c t, PhiS56_pos V c _ _ hz]
      iintro ⟨⟨⟨HS0, Hrb⟩, Hg⟩, Ho, ⟨%d0, H0⟩, ⟨%d1, H1⟩, ⟨%d2, H2⟩⟩
      iapply ((kernelRun56_C c (grid56.coords t) _ _ _ _ _ _ _ _ (notFirst56 t h0) (isLast56 t h3) (iblk56 V c 0 t) (iblk56 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover56_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover56_C c _ _ _ _ _ _ _ _ _ _ _ _ _ _)
    · rw [Dat.leavesExact_idle (dat56 V c) 2 t (idleAt56_2 t (notLast56 t h3)) (noFlush56_2 t (notLast56 t h3))]
      rw [outsAt56_B V c t h0 h3]
      unfold sout56_B; (try dsimp only)
      rw [PhiS56_castSucc V c t, PhiS56_pos V c _ _ hz]
      iintro ⟨⟨⟨HS0, Hrb⟩, Hg⟩, Ho, ⟨%d0, H0⟩, ⟨%d1, H1⟩, ⟨%d2, H2⟩⟩
      iapply ((kernelRun56_B c (grid56.coords t) _ _ _ _ _ _ _ _ (notFirst56 t h0) (notLast56 t h3) (iblk56 V c 0 t) (iblk56 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover56_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation56 (c : Dev nD) : BodyObligation (dat56 (F := F) V c) (defs₀ (F := F)) Variants.none () Set.univ := fun t => by
  rw [bigSep_W56, bigSep_W56]
  exact sound_body56 V c t

/-- What the region is entered with is the invariant before the first point. -/
theorem hin56 (c : Dev nD) : Pipeline.ΦA spec56 c ⊢ (dat56 V c).Φ 0 := by
  rw [show (dat56 V c).Φ 0 = PhiS56 V c 0 (Nat.zero_le _) from rfl, PhiS56_zero V c 0 _ rfl]
  try exact Idealize.SL.BI.Entails.refl _

/-- After the last point the invariant gives the class's back: the accumulator's contents are forgotten. -/
theorem hout56 (c : Dev nD) : (dat56 V c).Φ (Fin.last cfg56.N) ⊢ Pipeline.ΦA spec56 c := by
  have hN : cfg56.N = 16 := N_56
  rw [show (dat56 V c).Φ (Fin.last cfg56.N) = PhiS56 V c (Fin.last cfg56.N).val (Nat.le_of_lt_succ (Fin.last cfg56.N).isLt) from rfl,
    PhiS56_pos V c _ _ (by rw [Fin.val_last]; omega), PhiA56_eq]
  iintro ⟨⟨HS0, Hrb⟩, Hg⟩
  isplitl [HS0 Hrb]
  · isplitl [HS0]
    · iexists _; iexact HS0
    iexact Hrb
  iexact Hg

end Cert.Kernel.Hand

end
-- ==== Proof.RegK57a.lean ====
/- Laid out by: python3 scratch/layout_regions.py --template-region 1 --region 57 --program Kernel --parts a,b,c, --out-dir proof/Proof
   from the hand-written text of region 1 (RegKI1a.lean): the same text, the region's number and the program's namespace substituted. -/
/-
  Region 57 of @main (custom_call 57): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond57_0 (i : grid57.Coords) : Prop := (Scalar.cmpi .ne (Scalar.extui (Scalar.cmpi .eq (BitVec.ofNat 32 (i 1).val) 0#32)) 0#32) = 1#1
/-- It holds exactly at the points with t % 4 = 0. -/
theorem hcond57_0 : ∀ t : Fin cfg57.N, cond57_0 (grid57.coords t) ↔ t.val % 4 = 0 :=
  (by decide +kernel : ∀ t : Fin grid57.N, cond57_0 (grid57.coords t) ↔ t.val % 4 = 0)

/-- "k = 3": the second conditional's test. -/
abbrev cond57_1 (i : grid57.Coords) : Prop := k57_cond2 i = 1#1
/-- It holds exactly at the points with t % 4 = 3. -/
theorem hcond57_1 : ∀ t : Fin cfg57.N, cond57_1 (grid57.coords t) ↔ t.val % 4 = 3 :=
  (by decide +kernel : ∀ t : Fin grid57.N, cond57_1 (grid57.coords t) ↔ t.val % 4 = 3)

/-! ## Where the windows are idle, and where the output is written back -/

/-- The two input windows are never idle. -/
theorem liveAt57_0 : ∀ t : Fin cfg57.N, cfg57.idle 0 (grid57.coords t) = false := by decide +kernel
theorem liveAt57_1 : ∀ t : Fin cfg57.N, cfg57.idle 1 (grid57.coords t) = false := by decide +kernel
/-- Where k ≠ 3 the output window is idle (the body stores nothing into it) and is not written back. -/
theorem idleAt57_2 : ∀ t : Fin cfg57.N, ¬cond57_1 (grid57.coords t) → cfg57.idle 2 (grid57.coords t) = true := by decide +kernel
theorem noFlush57_2 : ∀ t : Fin cfg57.N, ¬cond57_1 (grid57.coords t) → (cfg57.win 2).flush t = false := by decide +kernel
/-- Where k = 3 it is live. -/
theorem liveAt57_2 : ∀ t : Fin cfg57.N, cond57_1 (grid57.coords t) → cfg57.idle 2 (grid57.coords t) = false := by decide +kernel

/-! ## The staging memrefs at a point, and the scratch -/

/-- One staging buffer of the output window, through which its contents are stated. -/
abbrev VO57_2 : View sig .tc .vmem S1024x512 .f32 := (Memref.whole cc57_stg2_0 : Memref sig .tc .vmem S1024x512 .f32).view
abbrev ms57_0 (t : Fin cfg57.N) : Memref sig .tc .vmem S1024x1024 .bf16 := win57_0.stage (cfg57.slots t 0)
abbrev hs57_0 (t : Fin cfg57.N) : (ms57_0 t).IsWhole := hstage57_0 ((cfg57.slots t 0).cast nbuf57_0)
abbrev ms57_1 (t : Fin cfg57.N) : Memref sig .tc .vmem S1024x512 .f32 := win57_1.stage (cfg57.slots t 1)
abbrev hs57_1 (t : Fin cfg57.N) : (ms57_1 t).IsWhole := hstage57_1 ((cfg57.slots t 1).cast nbuf57_1)
abbrev ms57_2 (t : Fin cfg57.N) : Memref sig .tc .vmem S1024x512 .f32 := win57_2.stage (cfg57.slots t 2)
abbrev hs57_2 (t : Fin cfg57.N) : (ms57_2 t).IsWhole := hstage57_2 ((cfg57.slots t 2).cast nbuf57_2)
/-- The accumulator: a whole scoped buffer of the kernel's own. -/
abbrev scM57 : Memref sig .tc .vmem S1024x512 .f32 := Memref.whole cc57_scratch0
abbrev VS57 : View sig .tc .vmem S1024x512 .f32 := scM57.view

/-- The other scoped buffers of the core, none of which this region touches. -/
abbrev restBut57 (c : Dev nD) : sProp 𝕄 :=
  Pipeline.scopedRestBut (Ix := Unit) (Name := ℕ) (U := UR sig nD τ) (Lvl := ℕ) (Val := Elt F) spec57 c [cc57_scratch0]

/-- The region's invariant before its first point: the accumulator at something, the other scoped buffers, the generator register. -/
theorem PhiA57_eq (c : Dev nD) :
    (Pipeline.ΦA spec57 c : sProp 𝕄)
      = iprop(iprop((∃ d, owns (c : Thread nD τ) scM57 fullShare d) ∗ restBut57 c) ∗ (∃ r, prngReg c r)) := by
  unfold Pipeline.ΦA; rw [scopedRest57_split]; simp only [scM57, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun57_A (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond57_0 i) (hc1 : ¬cond57_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc57__matmul_kernel i arg2 harg2 arg3 harg3 arg4 harg4 arg5 harg5) K } := by
  refine ⟨[], ?_, fun xi2 E K => ?run⟩
  case run =>
    simp only [cc57__matmul_kernel_eq_skeleton]; unfold cc57__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK57b.lean ====
/- Laid out by: python3 scratch/layout_regions.py --template-region 1 --region 57 --program Kernel --parts a,b,c, --out-dir proof/Proof
   from the hand-written text of region 1 (RegKI1b.lean): the same text, the region's number and the program's namespace substituted. -/
/-
  Region 57, case B (k = 1, 2): the body's run. Neither conditional is taken: the product of the two blocks is added to what
  the point before left in the accumulator; the output block is not touched.
-/
import proofs.«158944_j64613488001249_1_alg».proof.Proof.RegK57a

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun57_B (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond57_0 i) (hc1 : ¬cond57_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc57__matmul_kernel i arg2 harg2 arg3 harg3 arg4 harg4 arg5 harg5) K } := by
  refine ⟨[], ?_, fun xi2 E K => ?run⟩
  case run =>
    simp only [cc57__matmul_kernel_eq_skeleton]; unfold cc57__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RegK57c.lean ====
/- Laid out by: python3 scratch/layout_regions.py --template-region 1 --region 57 --program Kernel --parts a,b,c, --out-dir proof/Proof
   from the hand-written text of region 1 (RegKI1c.lean): the same text, the region's number and the program's namespace substituted. -/
/-
  Region 57, case C (k = 3): the body's run. The product is added to the accumulator as in case B, and then the second
  conditional copies the accumulator over the whole output block.
-/
import proofs.«158944_j64613488001249_1_alg».proof.Proof.RegK57b

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun57_C (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond57_0 i) (hc1 : cond57_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc57__matmul_kernel i arg2 harg2 arg3 harg3 arg4 harg4 arg5 harg5) K } := by
  refine ⟨?_, ?_, fun E K => ?run⟩
  case run =>
    simp only [cc57__matmul_kernel_eq_skeleton]; unfold cc57__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RegK57.lean ====
/- Laid out by: python3 scratch/layout_regions.py --template-region 1 --region 57 --program Kernel --parts a,b,c, --out-dir proof/Proof
   from the hand-written text of region 1 (RegKI1.lean): the same text, the region's number and the program's namespace substituted. -/
/-
  Region 57 of @main, entered from the buffer contents `V`: what its windows' blocks are, what each case of the body leaves in
  the accumulator and in the output block, the accumulator and the output block point by point (`outsAt57`: at k = 0 the
  accumulator restarts from zeros plus the product; at k = 1, 2, 3 it is the point before's plus the product; at k = 3 the
  output block is the accumulator), the region's invariant (the accumulator at `outsAt57`'s second component), the proof data,
  and the body's obligation at every point.
-/
import proofs.«158944_j64613488001249_1_alg».proof.Proof.RegK57c

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk57 (c : Dev nD) (w : Fin cfg57.W) (t : Fin cfg57.N) : ((cfg57.win w).xblock (cfg57.grid.coords t)).Idx → Elt F (cfg57.win w).elt :=
  ((cfg57.win w).blk t).view.read (Elt F) (V c (Pipeline.arrRef spec57 w))

/-- An input window's current staging buffer holds its block at every point, for any proof data whose array is `V`'s and
    whose body leaves the block in place. -/
theorem before57_0_of {c : Dev nD} (dat : Dat τ (Elt F) Unit ℕ (UR sig nD τ) ℕ cfg57 c) (hA : dat.A 0 = V c (Pipeline.arrRef spec57 0))
    (hafter : ∀ t, dat.after 0 t = iblk57 V c 0 t) (t : Fin cfg57.N) (d) : dat.before 0 t d = iblk57 V c 0 t :=
  (dat.before_in_eq_fetched 0 rfl (fun _ => rfl) (fun _ _ _ => rfl) (fun t => by rw [hafter]; unfold Dat.blockOf iblk57; rw [hA]; try rfl) t d).trans
    (by unfold Dat.fetched Dat.blockOf iblk57; rw [hA]; try rfl)
theorem before57_1_of {c : Dev nD} (dat : Dat τ (Elt F) Unit ℕ (UR sig nD τ) ℕ cfg57 c) (hA : dat.A 1 = V c (Pipeline.arrRef spec57 1))
    (hafter : ∀ t, dat.after 1 t = iblk57 V c 1 t) (t : Fin cfg57.N) (d) : dat.before 1 t d = iblk57 V c 1 t :=
  (dat.before_in_eq_fetched 1 rfl (fun _ => rfl) (fun _ _ _ => rfl) (fun t => by rw [hafter]; unfold Dat.blockOf iblk57; rw [hA]; try rfl) t d).trans
    (by unfold Dat.fetched Dat.blockOf iblk57; rw [hA]; try rfl)

/-! ## What each case leaves -/

/-- Case A's stores into the accumulator cover it. -/
theorem scover57_A (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond57_0 i) (hc1 : ¬cond57_1 i)
    (x0 : Vec F S1024x1024 .bf16) (x1 : Vec F S1024x512 .f32) (y : S1024x512.Idx) :
    ∃ pc ∈ (kernelRun57_A c i arg2 harg2 arg3 harg3 arg4 harg4 arg5 harg5 hc0 hc1 x0 x1).2.1, y ∈ pc.1.set :=
  View.cover_of_tiledL (kernelRun57_A c i arg2 harg2 arg3 harg3 arg4 harg4 arg5 harg5 hc0 hc1 x0 x1).2.1 S1024x512.size (by sl_kernel_rfl) y
/-- What case A leaves in the accumulator. -/
noncomputable def sout57_A (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond57_0 i) (hc1 : ¬cond57_1 i)
    (x0 : Vec F S1024x1024 .bf16) (x1 : Vec F S1024x512 .f32) : Vec F S1024x512 .f32 :=
  VS57.read (Elt F) (VS57.writes (Elt F) VS57.junk (kernelRun57_A c i arg2 harg2 arg3 harg3 arg4 harg4 arg5 harg5 hc0 hc1 x0 x1).2.1)

/-- Case B's store into the accumulator covers it. -/
theorem scover57_B (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond57_0 i) (hc1 : ¬cond57_1 i)
    (x0 : Vec F S1024x1024 .bf16) (x1 : Vec F S1024x512 .f32) (xs0 : Vec F S1024x512 .f32) (y : S1024x512.Idx) :
    ∃ pc ∈ (kernelRun57_B c i arg2 harg2 arg3 harg3 arg4 harg4 arg5 harg5 hc0 hc1 x0 x1 xs0).2.1, y ∈ pc.1.set :=
  View.cover_of_tiledL (kernelRun57_B c i arg2 harg2 arg3 harg3 arg4 harg4 arg5 harg5 hc0 hc1 x0 x1 xs0).2.1 S1024x512.size (by sl_kernel_rfl) y
/-- What case B leaves in the accumulator, over what the point before left. -/
noncomputable def sout57_B (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond57_0 i) (hc1 : ¬cond57_1 i)
    (x0 : Vec F S1024x1024 .bf16) (x1 : Vec F S1024x512 .f32) (xs0 : Vec F S1024x512 .f32) : Vec F S1024x512 .f32 :=
  VS57.read (Elt F) (VS57.writes (Elt F) VS57.junk (kernelRun57_B c i arg2 harg2 arg3 harg3 arg4 harg4 arg5 harg5 hc0 hc1 x0 x1 xs0).2.1)

/-- Case C's store into the output block covers it, and so does its store into the accumulator. -/
theorem cover57_C (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond57_0 i) (hc1 : cond57_1 i)
    (x0 : Vec F S1024x1024 .bf16) (x1 : Vec F S1024x512 .f32) (xs0 : Vec F S1024x512 .f32) (y : S1024x512.Idx) :
    ∃ pc ∈ (kernelRun57_C c i arg2 harg2 arg3 harg3 arg4 harg4 arg5 harg5 hc0 hc1 x0 x1 xs0).1, y ∈ pc.1.set :=
  View.cover_of_tiledL (kernelRun57_C c i arg2 harg2 arg3 harg3 arg4 harg4 arg5 harg5 hc0 hc1 x0 x1 xs0).1 S1024x512.size (by sl_kernel_rfl) y
theorem scover57_C (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond57_0 i) (hc1 : cond57_1 i)
    (x0 : Vec F S1024x1024 .bf16) (x1 : Vec F S1024x512 .f32) (xs0 : Vec F S1024x512 .f32) (y : S1024x512.Idx) :
    ∃ pc ∈ (kernelRun57_C c i arg2 harg2 arg3 harg3 arg4 harg4 arg5 harg5 hc0 hc1 x0 x1 xs0).2.1, y ∈ pc.1.set :=
  View.cover_of_tiledL (kernelRun57_C c i arg2 harg2 arg3 harg3 arg4 harg4 arg5 harg5 hc0 hc1 x0 x1 xs0).2.1 S1024x512.size (by sl_kernel_rfl) y
/-- What case C leaves in the output block, and in the accumulator. -/
noncomputable def out57_C (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond57_0 i) (hc1 : cond57_1 i)
    (x0 : Vec F S1024x1024 .bf16) (x1 : Vec F S1024x512 .f32) (xs0 : Vec F S1024x512 .f32) : Vec F S1024x512 .f32 :=
  VO57_2.read (Elt F) (VO57_2.writes (Elt F) VO57_2.junk (kernelRun57_C c i arg2 harg2 arg3 harg3 arg4 harg4 arg5 harg5 hc0 hc1 x0 x1 xs0).1)
noncomputable def sout57_C (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond57_0 i) (hc1 : cond57_1 i)
    (x0 : Vec F S1024x1024 .bf16) (x1 : Vec F S1024x512 .f32) (xs0 : Vec F S1024x512 .f32) : Vec F S1024x512 .f32 :=
  VS57.read (Elt F) (VS57.writes (Elt F) VS57.junk (kernelRun57_C c i arg2 harg2 arg3 harg3 arg4 harg4 arg5 harg5 hc0 hc1 x0 x1 xs0).2.1)

/-- Where the output block is idle nothing consults what it holds: a placeholder. -/
noncomputable def outIdle57 : Vec F S1024x512 .f32 := VO57_2.read (Elt F) (VO57_2.writes (Elt F) VO57_2.junk [])

/-! ## The conditions at a point, from t % 4 -/

theorem isFirst57 (t : Fin cfg57.N) (h : t.val % 4 = 0) : cond57_0 (grid57.coords t) := (hcond57_0 t).mpr h
theorem notFirst57 (t : Fin cfg57.N) (h : ¬t.val % 4 = 0) : ¬cond57_0 (grid57.coords t) := fun hc => h ((hcond57_0 t).mp hc)
theorem isLast57 (t : Fin cfg57.N) (h : t.val % 4 = 3) : cond57_1 (grid57.coords t) := (hcond57_1 t).mpr h
theorem notLast57 (t : Fin cfg57.N) (h : ¬t.val % 4 = 3) : ¬cond57_1 (grid57.coords t) := fun hc => h ((hcond57_1 t).mp hc)

/-! ## The accumulator and the output block, point by point -/

/-- After the body at position `n`: (the output block's buffer, the accumulator). -/
noncomputable def outsAt57 (c : Dev nD) : (n : ℕ) → n < cfg57.N → Vec F S1024x512 .f32 × Vec F S1024x512 .f32
  | 0, hn => (outIdle57, sout57_A c (grid57.coords ⟨0, hn⟩) (ms57_0 ⟨0, hn⟩) (hs57_0 ⟨0, hn⟩) (ms57_1 ⟨0, hn⟩) (hs57_1 ⟨0, hn⟩) (ms57_2 ⟨0, hn⟩) (hs57_2 ⟨0, hn⟩) scM57 (Memref.isWhole_whole _) (isFirst57 ⟨0, hn⟩ (Nat.zero_mod _)) (notLast57 ⟨0, hn⟩ (by simp)) (iblk57 V c 0 ⟨0, hn⟩) (iblk57 V c 1 ⟨0, hn⟩))
  | n + 1, hn =>
    if h0 : (n + 1) % 4 = 0 then
      (outIdle57, sout57_A c (grid57.coords ⟨n + 1, hn⟩) (ms57_0 ⟨n + 1, hn⟩) (hs57_0 ⟨n + 1, hn⟩) (ms57_1 ⟨n + 1, hn⟩) (hs57_1 ⟨n + 1, hn⟩) (ms57_2 ⟨n + 1, hn⟩) (hs57_2 ⟨n + 1, hn⟩) scM57 (Memref.isWhole_whole _) (isFirst57 ⟨n + 1, hn⟩ h0) (notLast57 ⟨n + 1, hn⟩ (by show ¬(n + 1) % 4 = 3; omega)) (iblk57 V c 0 ⟨n + 1, hn⟩) (iblk57 V c 1 ⟨n + 1, hn⟩))
    else if h3 : (n + 1) % 4 = 3 then
      (out57_C c (grid57.coords ⟨n + 1, hn⟩) (ms57_0 ⟨n + 1, hn⟩) (hs57_0 ⟨n + 1, hn⟩) (ms57_1 ⟨n + 1, hn⟩) (hs57_1 ⟨n + 1, hn⟩) (ms57_2 ⟨n + 1, hn⟩) (hs57_2 ⟨n + 1, hn⟩) scM57 (Memref.isWhole_whole _) (notFirst57 ⟨n + 1, hn⟩ h0) (isLast57 ⟨n + 1, hn⟩ h3) (iblk57 V c 0 ⟨n + 1, hn⟩) (iblk57 V c 1 ⟨n + 1, hn⟩) (outsAt57 c n (Nat.lt_of_succ_lt hn)).2,
       sout57_C c (grid57.coords ⟨n + 1, hn⟩) (ms57_0 ⟨n + 1, hn⟩) (hs57_0 ⟨n + 1, hn⟩) (ms57_1 ⟨n + 1, hn⟩) (hs57_1 ⟨n + 1, hn⟩) (ms57_2 ⟨n + 1, hn⟩) (hs57_2 ⟨n + 1, hn⟩) scM57 (Memref.isWhole_whole _) (notFirst57 ⟨n + 1, hn⟩ h0) (isLast57 ⟨n + 1, hn⟩ h3) (iblk57 V c 0 ⟨n + 1, hn⟩) (iblk57 V c 1 ⟨n + 1, hn⟩) (outsAt57 c n (Nat.lt_of_succ_lt hn)).2)
    else
      (outIdle57, sout57_B c (grid57.coords ⟨n + 1, hn⟩) (ms57_0 ⟨n + 1, hn⟩) (hs57_0 ⟨n + 1, hn⟩) (ms57_1 ⟨n + 1, hn⟩) (hs57_1 ⟨n + 1, hn⟩) (ms57_2 ⟨n + 1, hn⟩) (hs57_2 ⟨n + 1, hn⟩) scM57 (Memref.isWhole_whole _) (notFirst57 ⟨n + 1, hn⟩ h0) (notLast57 ⟨n + 1, hn⟩ h3) (iblk57 V c 0 ⟨n + 1, hn⟩) (iblk57 V c 1 ⟨n + 1, hn⟩) (outsAt57 c n (Nat.lt_of_succ_lt hn)).2)

/-- `outsAt57` at a point with k = 0. -/
theorem outsAt57_A (c : Dev nD) (t : Fin cfg57.N) (h0 : t.val % 4 = 0) :
    outsAt57 V c t.val t.isLt = (outIdle57, sout57_A c (grid57.coords t) (ms57_0 t) (hs57_0 t) (ms57_1 t) (hs57_1 t) (ms57_2 t) (hs57_2 t) scM57 (Memref.isWhole_whole _) (isFirst57 t h0) (notLast57 t (by omega)) (iblk57 V c 0 t) (iblk57 V c 1 t)) := by
  obtain ⟨n, hn⟩ := t
  cases n with
  | zero => rfl
  | succ n => exact (dif_pos h0).trans rfl

/-- `outsAt57` at a point with k = 1, 2: over what the point before left. -/
theorem outsAt57_B (c : Dev nD) (t : Fin cfg57.N) (h0 : ¬t.val % 4 = 0) (h3 : ¬t.val % 4 = 3) :
    outsAt57 V c t.val t.isLt = (outIdle57, sout57_B c (grid57.coords t) (ms57_0 t) (hs57_0 t) (ms57_1 t) (hs57_1 t) (ms57_2 t) (hs57_2 t) scM57 (Memref.isWhole_whole _) (notFirst57 t h0) (notLast57 t h3) (iblk57 V c 0 t) (iblk57 V c 1 t)
      (outsAt57 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt57` at a point with k = 3. -/
theorem outsAt57_C (c : Dev nD) (t : Fin cfg57.N) (h0 : ¬t.val % 4 = 0) (h3 : t.val % 4 = 3) :
    outsAt57 V c t.val t.isLt = (out57_C c (grid57.coords t) (ms57_0 t) (hs57_0 t) (ms57_1 t) (hs57_1 t) (ms57_2 t) (hs57_2 t) scM57 (Memref.isWhole_whole _) (notFirst57 t h0) (isLast57 t h3) (iblk57 V c 0 t) (iblk57 V c 1 t)
        (outsAt57 V c (t.val - 1) (Nat.lt_of_le_of_lt (Nat.sub_le _ _) t.isLt)).2,
      sout57_C c (grid57.coords t) (ms57_0 t) (hs57_0 t) (ms57_1 t) (hs57_1 t) (ms57_2 t) (hs57_2 t) scM57 (Memref.isWhole_whole _) (notFirst57 t h0) (isLast57 t h3) (iblk57 V c 0 t) (iblk57 V c 1 t)
        (outsAt57 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS57 (c : Dev nD) : (n : ℕ) → n ≤ cfg57.N → sProp 𝕄
  | 0, _ => Pipeline.ΦA spec57 c
  | n + 1, hn => iprop(iprop(owns (c : Thread nD τ) scM57 fullShare ((outsAt57 V c n hn).2) ∗ restBut57 c) ∗ (∃ r, prngReg c r))

theorem PhiS57_zero (c : Dev nD) (n : ℕ) (h : n ≤ cfg57.N) (hz : n = 0) : PhiS57 V c n h = Pipeline.ΦA spec57 c := by
  subst hz; rfl
theorem PhiS57_succ (c : Dev nD) (n : ℕ) (hn : n < cfg57.N) :
    PhiS57 V c (n + 1) hn = iprop(iprop(owns (c : Thread nD τ) scM57 fullShare ((outsAt57 V c n hn).2) ∗ restBut57 c) ∗ (∃ r, prngReg c r)) := rfl
theorem PhiS57_pos (c : Dev nD) (n : ℕ) (h : n ≤ cfg57.N) (hz : n ≠ 0) :
    PhiS57 V c n h = iprop(iprop(owns (c : Thread nD τ) scM57 fullShare ((outsAt57 V c (n - 1) (by omega)).2) ∗ restBut57 c) ∗ (∃ r, prngReg c r)) := by
  cases n with
  | zero => exact absurd rfl hz
  | succ n => rfl

/-! ## The proof data -/

/-- The region's proof data on core `c`: the arrays as the region finds them; after the body at point `t` each input's
    buffer at its block and the output's at `outsAt57`'s first component; the invariant `PhiS57`; nothing owed; full shares. -/
noncomputable def dat57 (c : Dev nD) : Dat τ (Elt F) Unit ℕ (UR sig nD τ) ℕ cfg57 c where
  A w := V c (Pipeline.arrRef spec57 w)
  after w t := match w with
    | ⟨0, _⟩ => iblk57 V c 0 t
    | ⟨1, _⟩ => iblk57 V c 1 t
    | ⟨2, _⟩ => (outsAt57 V c t.val t.isLt).1
  Φ t := PhiS57 V c t.val (Nat.le_of_lt_succ t.isLt)
  q _ := fullShare
  owed _ := 0

theorem A_eq57 (c : Dev nD) (w : Fin cfg57.W) : (dat57 V c).A w = V c (Pipeline.arrRef spec57 w) := by
  dsimp only [dat57]
theorem PhiS57_castSucc (c : Dev nD) (t : Fin cfg57.N) :
    (dat57 V c).Φ t.castSucc = PhiS57 V c t.val (Nat.le_of_lt t.isLt) := by
  dsimp only [dat57]; simp only [Fin.coe_castSucc]
theorem after57_0 (c : Dev nD) (t : Fin cfg57.N) : (dat57 V c).after 0 t = iblk57 V c 0 t := by dsimp only [dat57]
theorem after57_1 (c : Dev nD) (t : Fin cfg57.N) : (dat57 V c).after 1 t = iblk57 V c 1 t := by dsimp only [dat57]
theorem after57_2 (c : Dev nD) (t : Fin cfg57.N) : (dat57 V c).after 2 t = (outsAt57 V c t.val t.isLt).1 := by dsimp only [dat57]
theorem before57_0 (c : Dev nD) (t : Fin cfg57.N) (d) : (dat57 V c).before 0 t d = iblk57 V c 0 t :=
  before57_0_of V (dat57 V c) (A_eq57 V c 0) (after57_0 V c) t d
theorem before57_1 (c : Dev nD) (t : Fin cfg57.N) (d) : (dat57 V c).before 1 t d = iblk57 V c 1 t :=
  before57_1_of V (dat57 V c) (A_eq57 V c 1) (after57_1 V c) t d

/-! ## The body's obligation -/

noncomputable def bodyPre57 (c : Dev nD) (t : Fin cfg57.N) : sProp 𝕄 :=
  iprop((dat57 V c).Φ t.castSucc ∗ (dat57 V c).owesAt () t.castSucc
    ∗ (∃ d, owns (c : Thread nD τ) (ms57_0 t) fullShare ((dat57 V c).before 0 t d))
    ∗ (∃ d, owns (c : Thread nD τ) (ms57_1 t) fullShare ((dat57 V c).before 1 t d))
    ∗ (∃ d, owns (c : Thread nD τ) (ms57_2 t) fullShare ((dat57 V c).before 2 t d)))

noncomputable def bodyPost57 (c : Dev nD) (t : Fin cfg57.N) : sProp 𝕄 :=
  iprop((dat57 V c).Φ t.succ ∗ (dat57 V c).owesAt () t.succ
    ∗ (dat57 V c).leavesExact 0 t
    ∗ (dat57 V c).leavesExact 1 t
    ∗ (dat57 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body57 (c : Dev nD) (t : Fin cfg57.N) :
    bodyPre57 V c t ⊢ wp frame (wpE (defs₀ (F := F)) Variants.none c none) Set.univ (bodyAt57 t) (fun _ => bodyPost57 V c t) := by
  unfold bodyPre57 bodyPost57 bodyAt57
  simp only [before57_0, before57_1]
  rw [show (dat57 V c).owesAt () t.succ = (dat57 V c).owesAt () t.castSucc from rfl]
  rw [show (dat57 V c).Φ t.succ = PhiS57 V c (t.val + 1) t.isLt from rfl, PhiS57_succ]
  rw [show (dat57 V c).leavesExact 0 t = owns (c : Thread nD τ) (ms57_0 t) fullShare ((dat57 V c).after 0 t) from by
    unfold Dat.leavesExact; rw [liveAt57_0 t], after57_0]
  rw [show (dat57 V c).leavesExact 1 t = owns (c : Thread nD τ) (ms57_1 t) fullShare ((dat57 V c).after 1 t) from by
    unfold Dat.leavesExact; rw [liveAt57_1 t], after57_1]
  by_cases h0 : t.val % 4 = 0
  · have h3 : ¬t.val % 4 = 3 := by omega
    rw [Dat.leavesExact_idle (dat57 V c) 2 t (idleAt57_2 t (notLast57 t h3)) (noFlush57_2 t (notLast57 t h3))]
    rw [outsAt57_A V c t h0]
    unfold sout57_A; (try dsimp only)
    by_cases hz : t.val = 0
    · rw [PhiS57_castSucc V c t, PhiS57_zero V c _ _ hz, PhiA57_eq]
      iintro ⟨⟨⟨HS0, Hrb⟩, Hg⟩, Ho, ⟨%d0, H0⟩, ⟨%d1, H1⟩, ⟨%d2, H2⟩⟩
      iapply ((kernelRun57_A c (grid57.coords t) _ _ _ _ _ _ _ _ (isFirst57 t h0) (notLast57 t (by omega)) (iblk57 V c 0 t) (iblk57 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover57_A c _ _ _ _ _ _ _ _ _ _ _ _ _)
          iexact Hrb
        iexact Hg
      isplitl [Ho]; · iexact Ho
      isplitl [H0]; · iexact H0
      isplitl [H1]; · iexact H1
      iexists _; iexact H2
    · rw [PhiS57_castSucc V c t, PhiS57_pos V c _ _ hz]
      iintro ⟨⟨⟨HS0, Hrb⟩, Hg⟩, Ho, ⟨%d0, H0⟩, ⟨%d1, H1⟩, ⟨%d2, H2⟩⟩
      iapply ((kernelRun57_A c (grid57.coords t) _ _ _ _ _ _ _ _ (isFirst57 t h0) (notLast57 t (by omega)) (iblk57 V c 0 t) (iblk57 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover57_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat57 V c).leavesExact 2 t = owns (c : Thread nD τ) (ms57_2 t) fullShare ((dat57 V c).after 2 t) from by
        unfold Dat.leavesExact; rw [liveAt57_2 t (isLast57 t h3)], after57_2]
      rw [outsAt57_C V c t h0 h3]
      unfold out57_C sout57_C; (try dsimp only)
      rw [PhiS57_castSucc V c t, PhiS57_pos V c _ _ hz]
      iintro ⟨⟨⟨HS0, Hrb⟩, Hg⟩, Ho, ⟨%d0, H0⟩, ⟨%d1, H1⟩, ⟨%d2, H2⟩⟩
      iapply ((kernelRun57_C c (grid57.coords t) _ _ _ _ _ _ _ _ (notFirst57 t h0) (isLast57 t h3) (iblk57 V c 0 t) (iblk57 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover57_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover57_C c _ _ _ _ _ _ _ _ _ _ _ _ _ _)
    · rw [Dat.leavesExact_idle (dat57 V c) 2 t (idleAt57_2 t (notLast57 t h3)) (noFlush57_2 t (notLast57 t h3))]
      rw [outsAt57_B V c t h0 h3]
      unfold sout57_B; (try dsimp only)
      rw [PhiS57_castSucc V c t, PhiS57_pos V c _ _ hz]
      iintro ⟨⟨⟨HS0, Hrb⟩, Hg⟩, Ho, ⟨%d0, H0⟩, ⟨%d1, H1⟩, ⟨%d2, H2⟩⟩
      iapply ((kernelRun57_B c (grid57.coords t) _ _ _ _ _ _ _ _ (notFirst57 t h0) (notLast57 t h3) (iblk57 V c 0 t) (iblk57 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover57_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation57 (c : Dev nD) : BodyObligation (dat57 (F := F) V c) (defs₀ (F := F)) Variants.none () Set.univ := fun t => by
  rw [bigSep_W57, bigSep_W57]
  exact sound_body57 V c t

/-- What the region is entered with is the invariant before the first point. -/
theorem hin57 (c : Dev nD) : Pipeline.ΦA spec57 c ⊢ (dat57 V c).Φ 0 := by
  rw [show (dat57 V c).Φ 0 = PhiS57 V c 0 (Nat.zero_le _) from rfl, PhiS57_zero V c 0 _ rfl]
  try exact Idealize.SL.BI.Entails.refl _

/-- After the last point the invariant gives the class's back: the accumulator's contents are forgotten. -/
theorem hout57 (c : Dev nD) : (dat57 V c).Φ (Fin.last cfg57.N) ⊢ Pipeline.ΦA spec57 c := by
  have hN : cfg57.N = 16 := N_57
  rw [show (dat57 V c).Φ (Fin.last cfg57.N) = PhiS57 V c (Fin.last cfg57.N).val (Nat.le_of_lt_succ (Fin.last cfg57.N).isLt) from rfl,
    PhiS57_pos V c _ _ (by rw [Fin.val_last]; omega), PhiA57_eq]
  iintro ⟨⟨HS0, Hrb⟩, Hg⟩
  isplitl [HS0 Hrb]
  · isplitl [HS0]
    · iexists _; iexact HS0
    iexact Hrb
  iexact Hg

end Cert.Kernel.Hand

end
-- ==== Proof.RegK58a.lean ====
/- Laid out by: python3 scratch/layout_grid41.py --template-region 0 --region 58 --program Kernel --parts a, --shapes S1024x128=S1024x512,S128x512=S512x512
   from the hand-written text of region 0 (RegKI0a.lean): the same text, the region's number, block shapes and the program's namespace substituted. -/
/- The region of Kernel's @main that runs `cc58__matmul_kernel` (pipeline `cfg58`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond58_0 (i : grid58.Coords) : Prop :=
  (Scalar.cmpi .ne (Scalar.extui (Scalar.cmpi .eq (BitVec.ofNat 32 (i 1).val) 0#32)) 0#32) = 1#1
/-- True at every point: the reduction axis has one step. -/
theorem hcond58_0 : ∀ t : Fin cfg58.N, cond58_0 (grid58.coords t) :=
  (by decide +kernel : ∀ t : Fin grid58.N, cond58_0 (grid58.coords t))

/-- "This is the last reduction step" (the guard of the copy to the output block). -/
abbrev cond58_1 (i : grid58.Coords) : Prop := k58_cond2 i = 1#1
/-- True at every point, for the same reason. -/
theorem hcond58_1 : ∀ t : Fin cfg58.N, cond58_1 (grid58.coords t) :=
  (by decide +kernel : ∀ t : Fin grid58.N, cond58_1 (grid58.coords t))

/-! ## No window is idle anywhere -/

theorem liveAt58_0 : ∀ t : Fin cfg58.N, cfg58.idle 0 (grid58.coords t) = false := by decide +kernel
theorem liveAt58_1 : ∀ t : Fin cfg58.N, cfg58.idle 1 (grid58.coords t) = false := by decide +kernel
/-- The output window is stored at every point (the copy's guard holds everywhere). -/
theorem liveAt58_2 : ∀ t : Fin cfg58.N, cfg58.idle 2 (grid58.coords t) = false := by decide +kernel

/-! ## The memrefs the body is called on -/

/-- One staging buffer of the output window, through which its contents are stated (any whole view of the shape reads the
    same pieces back the same way). -/
abbrev VO58_2 : View sig .tc .vmem S1024x512 .f32 := (Memref.whole cc58_stg2_0 : Memref sig .tc .vmem S1024x512 .f32).view
/-- Each window's current staging memref at point `t`, spelt as the pipeline passes it, with its wholeness. -/
abbrev ms58_0 (t : Fin cfg58.N) : Memref sig .tc .vmem S1024x512 .f32 := win58_0.stage (cfg58.slots t 0)
abbrev hs58_0 (t : Fin cfg58.N) : (ms58_0 t).IsWhole := hstage58_0 ((cfg58.slots t 0).cast nbuf58_0)
abbrev ms58_1 (t : Fin cfg58.N) : Memref sig .tc .vmem S512x512 .bf16 := win58_1.stage (cfg58.slots t 1)
abbrev hs58_1 (t : Fin cfg58.N) : (ms58_1 t).IsWhole := hstage58_1 ((cfg58.slots t 1).cast nbuf58_1)
abbrev ms58_2 (t : Fin cfg58.N) : Memref sig .tc .vmem S1024x512 .f32 := win58_2.stage (cfg58.slots t 2)
abbrev hs58_2 (t : Fin cfg58.N) : (ms58_2 t).IsWhole := hstage58_2 ((cfg58.slots t 2).cast nbuf58_2)
/-- The accumulator: a whole scoped buffer of the kernel's own, passed beside the windows. -/
abbrev scM58_0 : Memref sig .tc .vmem S1024x512 .f32 := Memref.whole cc58_scratch0
abbrev VS58_0 : View sig .tc .vmem S1024x512 .f32 := scM58_0.view

/-- The region invariant with the accumulator taken out of the scoped rest: the accumulator owned at some contents, every
    other scoped buffer unopened, and the generator register. -/
theorem PhiA58_eq (c : Dev nD) :
    (Pipeline.ΦA spec58 c : sProp 𝕄)
      = iprop(iprop(iprop((∃ d, owns (c : Thread nD τ) scM58_0 fullShare d))
            ∗ Pipeline.scopedRestBut (Ix := Unit) (Name := ℕ) (U := UR sig nD τ) (Lvl := ℕ) (Val := Elt F) spec58 c [cc58_scratch0])
          ∗ (∃ r, prngReg c r)) := by
  unfold Pipeline.ΦA; rw [scopedRest58_split]; simp only [scM58_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun58 (c : Dev nD) (i : grid58.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond58_0 i) (hlast : cond58_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc58__matmul_kernel i arg2 harg2 arg3 harg3 arg4 harg4 arg5 harg5) K } := by
  refine ⟨?_, ?_, fun E K => ?run⟩
  case run =>
    simp only [cc58__matmul_kernel_eq_skeleton]; unfold cc58__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.Kernel.Hand

end
-- ==== Proof.RegK58.lean ====
/- Laid out by: python3 scratch/layout_grid41.py --template-region 0 --region 58 --program Kernel --parts a, --shapes S1024x128=S1024x512,S128x512=S512x512
   from the hand-written text of region 0 (RegKI0.lean): the same text, the region's number, block shapes and the program's namespace substituted. -/
/- The region of Kernel's @main that runs `cc58__matmul_kernel` (pipeline `cfg58`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegK58a
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk58 (c : Dev nD) (w : Fin cfg58.W) (t : Fin cfg58.N) : ((cfg58.win w).xblock (cfg58.grid.coords t)).Idx → Elt F (cfg58.win w).elt :=
  ((cfg58.win w).blk t).view.read (Elt F) (V c (Pipeline.arrRef spec58 w))

/-! ## What the case leaves, as pieces read back -/

/-- The output's pieces tile its block (one whole-block store). -/
theorem cover58_2 (c : Dev nD) (i : grid58.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond58_0 i) (hlast : cond58_1 i) (xa : Vec F S1024x512 .f32) (xb : Vec F S512x512 .bf16) (y : S1024x512.Idx) :
    ∃ pc ∈ (kernelRun58 c i arg2 harg2 arg3 harg3 arg4 harg4 arg5 harg5 hfirst hlast xa xb).1, y ∈ pc.1.set :=
  View.cover_of_tiledL (kernelRun58 c i arg2 harg2 arg3 harg3 arg4 harg4 arg5 harg5 hfirst hlast xa xb).1 S1024x512.size (by sl_kernel_rfl) y

/-- What the case leaves in the output's staging buffer: its pieces read back over junk. -/
noncomputable def out58_2 (c : Dev nD) (i : grid58.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond58_0 i) (hlast : cond58_1 i) (xa : Vec F S1024x512 .f32) (xb : Vec F S512x512 .bf16) : Vec F S1024x512 .f32 :=
  VO58_2.read (Elt F) (VO58_2.writes (Elt F) VO58_2.junk (kernelRun58 c i arg2 harg2 arg3 harg3 arg4 harg4 arg5 harg5 hfirst hlast xa xb).1)

/-- What the case leaves in the accumulator: its pieces read back over junk. -/
noncomputable def sout58_0 (c : Dev nD) (i : grid58.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond58_0 i) (hlast : cond58_1 i) (xa : Vec F S1024x512 .f32) (xb : Vec F S512x512 .bf16) : Vec F S1024x512 .f32 :=
  VS58_0.read (Elt F) (VS58_0.writes (Elt F) VS58_0.junk (kernelRun58 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout58_0_eq (c : Dev nD) (i : grid58.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond58_0 i) (hlast : cond58_1 i) (xa : Vec F S1024x512 .f32) (xb : Vec F S512x512 .bf16) :
    sout58_0 c i arg2 harg2 arg3 harg3 arg4 harg4 arg5 harg5 hfirst hlast xa xb = k58_pay2 xa xb (k58_pay1 (F := F)) := by
  unfold sout58_0
  rw [View.read_writes_junk_eq_canon]
  unfold kernelRun58
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out58_2_eq (c : Dev nD) (i : grid58.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond58_0 i) (hlast : cond58_1 i) (xa : Vec F S1024x512 .f32) (xb : Vec F S512x512 .bf16) :
    out58_2 c i arg2 harg2 arg3 harg3 arg4 harg4 arg5 harg5 hfirst hlast xa xb = k58_pay2 xa xb (k58_pay1 (F := F)) := by
  unfold out58_2
  rw [View.read_writes_junk_eq_canon]
  unfold kernelRun58
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt58 (c : Dev nD) (n : ℕ) (hn : n < cfg58.N) : Vec F S1024x512 .f32 × Vec F S1024x512 .f32 :=
  (out58_2 c (grid58.coords ⟨n, hn⟩) (ms58_0 ⟨n, hn⟩) (hs58_0 ⟨n, hn⟩) (ms58_1 ⟨n, hn⟩) (hs58_1 ⟨n, hn⟩) (ms58_2 ⟨n, hn⟩) (hs58_2 ⟨n, hn⟩) scM58_0 (Memref.isWhole_whole _)
      (hcond58_0 ⟨n, hn⟩) (hcond58_1 ⟨n, hn⟩) (iblk58 V c 0 ⟨n, hn⟩) (iblk58 V c 1 ⟨n, hn⟩),
   sout58_0 c (grid58.coords ⟨n, hn⟩) (ms58_0 ⟨n, hn⟩) (hs58_0 ⟨n, hn⟩) (ms58_1 ⟨n, hn⟩) (hs58_1 ⟨n, hn⟩) (ms58_2 ⟨n, hn⟩) (hs58_2 ⟨n, hn⟩) scM58_0 (Memref.isWhole_whole _)
      (hcond58_0 ⟨n, hn⟩) (hcond58_1 ⟨n, hn⟩) (iblk58 V c 0 ⟨n, hn⟩) (iblk58 V c 1 ⟨n, hn⟩))

/-- Every point is a first reduction step: the accumulator after it is one product onto zero. -/
theorem outsAt58_first (c : Dev nD) (t : Fin cfg58.N) :
    (outsAt58 V c t.val t.isLt).2 = k58_pay2 (iblk58 V c 0 t) (iblk58 V c 1 t) (k58_pay1 (F := F)) := by
  obtain ⟨n, hn⟩ := t
  unfold outsAt58
  dsimp only
  rw [sout58_0_eq]

/-- Every point is a last reduction step: the output block after it is the accumulator. -/
theorem outsAt58_last (c : Dev nD) (t : Fin cfg58.N) :
    (outsAt58 V c t.val t.isLt).1 = (outsAt58 V c t.val t.isLt).2 := by
  obtain ⟨n, hn⟩ := t
  unfold outsAt58
  dsimp only
  rw [out58_2_eq, sout58_0_eq]

/-! ## The pipeline's proof data -/

/-- The proof data of the pipeline on core `c`: the arrays as the region finds them; after the body at point `t` each input's
    buffer at its block and the output's at `outsAt58`'s first component; the invariant the same at every point; nothing owed;
    full shares. -/
noncomputable def dat58 (c : Dev nD) : Dat τ (Elt F) Unit ℕ (UR sig nD τ) ℕ cfg58 c where
  A w := V c (Pipeline.arrRef spec58 w)
  after w t := match w with
    | ⟨0, _⟩ => iblk58 V c 0 t
    | ⟨1, _⟩ => iblk58 V c 1 t
    | ⟨2, _⟩ => (outsAt58 V c t.val t.isLt).1
  Φ _ := Pipeline.ΦA spec58 c
  q _ := fullShare
  owed _ := 0

theorem A_eq58 (c : Dev nD) (w : Fin cfg58.W) : (dat58 V c).A w = V c (Pipeline.arrRef spec58 w) := by
  dsimp only [dat58]

theorem after58_0 (c : Dev nD) (t : Fin cfg58.N) : (dat58 V c).after 0 t = iblk58 V c 0 t := by dsimp only [dat58]
theorem after58_1 (c : Dev nD) (t : Fin cfg58.N) : (dat58 V c).after 1 t = iblk58 V c 1 t := by dsimp only [dat58]
theorem after58_2 (c : Dev nD) (t : Fin cfg58.N) : (dat58 V c).after 2 t = (outsAt58 V c t.val t.isLt).1 := by dsimp only [dat58]

/-- An input's current staging buffer holds its block at every point, fetched there or not: where it is not fetched its block
    index has not moved since the point before, and the body left the block in place. -/
theorem before58_0 (c : Dev nD) (t : Fin cfg58.N) (d) : (dat58 V c).before 0 t d = iblk58 V c 0 t :=
  ((dat58 V c).before_in_eq_fetched 0 rfl (fun _ => rfl) (fun _ _ _ => rfl)
      (fun t => by rw [after58_0]; unfold Dat.blockOf iblk58; rw [A_eq58]; try rfl) t d).trans
    (by unfold Dat.fetched Dat.blockOf iblk58; rw [A_eq58]; try rfl)
theorem before58_1 (c : Dev nD) (t : Fin cfg58.N) (d) : (dat58 V c).before 1 t d = iblk58 V c 1 t :=
  ((dat58 V c).before_in_eq_fetched 1 rfl (fun _ => rfl) (fun _ _ _ => rfl)
      (fun t => by rw [after58_1]; unfold Dat.blockOf iblk58; rw [A_eq58]; try rfl) t d).trans
    (by unfold Dat.fetched Dat.blockOf iblk58; rw [A_eq58]; try rfl)

/-! ## The body obligation, at a generic point -/

/-- What the body is called with at point `t`, the windows one by one, -/
noncomputable def bodyPre58 (c : Dev nD) (t : Fin cfg58.N) : sProp 𝕄 :=
  iprop((dat58 V c).Φ t.castSucc ∗ (dat58 V c).owesAt () t.castSucc
    ∗ (∃ d, owns (c : Thread nD τ) (ms58_0 t) fullShare ((dat58 V c).before 0 t d))
    ∗ (∃ d, owns (c : Thread nD τ) (ms58_1 t) fullShare ((dat58 V c).before 1 t d))
    ∗ (∃ d, owns (c : Thread nD τ) (ms58_2 t) fullShare ((dat58 V c).before 2 t d)))

/-- and what it returns. -/
noncomputable def bodyPost58 (c : Dev nD) (t : Fin cfg58.N) : sProp 𝕄 :=
  iprop((dat58 V c).Φ t.succ ∗ (dat58 V c).owesAt () t.succ
    ∗ (dat58 V c).leavesExact 0 t
    ∗ (dat58 V c).leavesExact 1 t
    ∗ (dat58 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body58 (c : Dev nD) (t : Fin cfg58.N) :
    bodyPre58 V c t ⊢ wp frame (wpE (defs₀ (F := F)) Variants.none c none) Set.univ (bodyAt58 t) (fun _ => bodyPost58 V c t) := by
  unfold bodyPre58 bodyPost58 bodyAt58
  simp only [before58_0, before58_1]
  rw [show (dat58 V c).owesAt () t.succ = (dat58 V c).owesAt () t.castSucc from rfl,
    show (dat58 V c).Φ t.succ = Pipeline.ΦA spec58 c from rfl, show (dat58 V c).Φ t.castSucc = Pipeline.ΦA spec58 c from rfl, PhiA58_eq]
  rw [show (dat58 V c).leavesExact 0 t = owns (c : Thread nD τ) (ms58_0 t) fullShare ((dat58 V c).after 0 t) from by
      unfold Dat.leavesExact; rw [liveAt58_0 t], after58_0]
  rw [show (dat58 V c).leavesExact 1 t = owns (c : Thread nD τ) (ms58_1 t) fullShare ((dat58 V c).after 1 t) from by
      unfold Dat.leavesExact; rw [liveAt58_1 t], after58_1]
  rw [show (dat58 V c).leavesExact 2 t = owns (c : Thread nD τ) (ms58_2 t) fullShare ((dat58 V c).after 2 t) from by
      unfold Dat.leavesExact; rw [liveAt58_2 t], after58_2]
  unfold outsAt58 out58_2; (try dsimp only)
  iintro ⟨⟨⟨Hacc, Hrest⟩, Hgen⟩, Howe, ⟨%da, Ha⟩, ⟨%db, Hb⟩, ⟨%dO, Hout⟩⟩
  iapply ((kernelRun58 c (grid58.coords t) _ _ _ _ _ _ _ _ (hcond58_0 t) (hcond58_1 t) (iblk58 V c 0 t) (iblk58 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover58_2 c _ _ _ _ _ _ _ _ _ _ _ _ _)

/-- The library's body obligation, at every point. -/
theorem body_obligation58 (c : Dev nD) : BodyObligation (dat58 (F := F) V c) (defs₀ (F := F)) Variants.none () Set.univ := fun t => by
  rw [bigSep_W58, bigSep_W58]
  exact sound_body58 V c t

/-- What the launch hands the region is the invariant before the first point, -/
theorem hin58 (c : Dev nD) : Pipeline.ΦA spec58 c ⊢ (dat58 V c).Φ 0 := Idealize.SL.BI.Entails.refl _

/-- and the invariant after the last point is what the launch takes back. -/
theorem hout58 (c : Dev nD) : (dat58 V c).Φ (Fin.last cfg58.N) ⊢ Pipeline.ΦA spec58 c := Idealize.SL.BI.Entails.refl _

end Cert.Kernel.Hand

end
-- ==== Proof.RegK59a.lean ====
/- Laid out by: python3 scratch/layout_grid41.py --template-region 0 --region 59 --program Kernel --parts a, --shapes S1024x128=S1024x512,S128x512=S512x64,S1024x512=S1024x64
   from the hand-written text of region 0 (RegKI0a.lean): the same text, the region's number, block shapes and the program's namespace substituted. -/
/- The region of Kernel's @main that runs `cc59__matmul_kernel` (pipeline `cfg59`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchK
import proofs.«158944_j64613488001249_1_alg».proof.Proof.Gen.Kernel.Skeleton
import proofs.«158944_j64613488001249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond59_0 (i : grid59.Coords) : Prop :=
  (Scalar.cmpi .ne (Scalar.extui (Scalar.cmpi .eq (BitVec.ofNat 32 (i 1).val) 0#32)) 0#32) = 1#1
/-- True at every point: the reduction axis has one step. -/
theorem hcond59_0 : ∀ t : Fin cfg59.N, cond59_0 (grid59.coords t) :=
  (by decide +kernel : ∀ t : Fin grid59.N, cond59_0 (grid59.coords t))

/-- "This is the last reduction step" (the guard of the copy to the output block). -/
abbrev cond59_1 (i : grid59.Coords) : Prop := k59_cond2 i = 1#1
/-- True at every point, for the same reason. -/
theorem hcond59_1 : ∀ t : Fin cfg59.N, cond59_1 (grid59.coords t) :=
  (by decide +kernel : ∀ t : Fin grid59.N, cond59_1 (grid59.coords t))

/-! ## No window is idle anywhere -/

theorem liveAt59_0 : ∀ t : Fin cfg59.N, cfg59.idle 0 (grid59.coords t) = false := by decide +kernel
theorem liveAt59_1 : ∀ t : Fin cfg59.N, cfg59.idle 1 (grid59.coords t) = false := by decide +kernel
/-- The output window is stored at every point (the copy's guard holds everywhere). -/
theorem liveAt59_2 : ∀ t : Fin cfg59.N, cfg59.idle 2 (grid59.coords t) = false := by decide +kernel

/-! ## The memrefs the body is called on -/

/-- One staging buffer of the output window, through which its contents are stated (any whole view of the shape reads the
    same pieces back the same way). -/
abbrev VO59_2 : View sig .tc .vmem S1024x64 .f32 := (Memref.whole cc59_stg2_0 : Memref sig .tc .vmem S1024x64 .f32).view
/-- Each window's current staging memref at point `t`, spelt as the pipeline passes it, with its wholeness. -/
abbrev ms59_0 (t : Fin cfg59.N) : Memref sig .tc .vmem S1024x512 .f32 := win59_0.stage (cfg59.slots t 0)
abbrev hs59_0 (t : Fin cfg59.N) : (ms59_0 t).IsWhole := hstage59_0 ((cfg59.slots t 0).cast nbuf59_0)
abbrev ms59_1 (t : Fin cfg59.N) : Memref sig .tc .vmem S512x64 .bf16 := win59_1.stage (cfg59.slots t 1)
abbrev hs59_1 (t : Fin cfg59.N) : (ms59_1 t).IsWhole := hstage59_1 ((cfg59.slots t 1).cast nbuf59_1)
abbrev ms59_2 (t : Fin cfg59.N) : Memref sig .tc .vmem S1024x64 .f32 := win59_2.stage (cfg59.slots t 2)
abbrev hs59_2 (t : Fin cfg59.N) : (ms59_2 t).IsWhole := hstage59_2 ((cfg59.slots t 2).cast nbuf59_2)
/-- The accumulator: a whole scoped buffer of the kernel's own, passed beside the windows. -/
abbrev scM59_0 : Memref sig .tc .vmem S1024x64 .f32 := Memref.whole cc59_scratch0
abbrev VS59_0 : View sig .tc .vmem S1024x64 .f32 := scM59_0.view

/-- The region invariant with the accumulator taken out of the scoped rest: the accumulator owned at some contents, every
    other scoped buffer unopened, and the generator register. -/
theorem PhiA59_eq (c : Dev nD) :
    (Pipeline.ΦA spec59 c : sProp 𝕄)
      = iprop(iprop(iprop((∃ d, owns (c : Thread nD τ) scM59_0 fullShare d))
            ∗ Pipeline.scopedRestBut (Ix := Unit) (Name := ℕ) (U := UR sig nD τ) (Lvl := ℕ) (Val := Elt F) spec59 c [cc59_scratch0])
          ∗ (∃ r, prngReg c r)) := by
  unfold Pipeline.ΦA; rw [scopedRest59_split]; simp only [scM59_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun59 (c : Dev nD) (i : grid59.Coords)
    (arg2 : Memref sig .tc .vmem S1024x512 .f32) (harg2 : arg2.IsWhole) (arg3 : Memref sig .tc .vmem S512x64 .bf16) (harg3 : arg3.IsWhole)
    (arg4 : Memref sig .tc .vmem S1024x64 .f32) (harg4 : arg4.IsWhole) (arg5 : Memref sig .tc .vmem S1024x64 .f32) (harg5 : arg5.IsWhole)
    (hfirst : cond59_0 i) (hlast : cond59_1 i) (xa : Vec F S1024x512 .f32) (xb : Vec F S512x64 .bf16) :
    Σ' (LO : List (View.Piece (Elt F) S1024x64 .f32)), { LS : List (View.Piece (Elt F) S1024x64 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc59__matmul_kernel i arg2 harg2 arg3 harg3 arg4 harg4 arg5 harg5) K } := by
  refine ⟨?_, ?_, fun E K => ?run⟩
  case run =>
    simp only [cc59__matmul_kernel_eq_skeleton]; unfold cc59__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.Kernel.Hand

end
-- ==== Proof.RegK59.lean ====
/- Laid out by: python3 scratch/layout_grid41.py --template-region 0 --region 59 --program Kernel --parts a, --shapes S1024x128=S1024x512,S128x512=S512x64,S1024x512=S1024x64
   from the hand-written text of region 0 (RegKI0.lean): the same text, the region's number, block shapes and the program's namespace substituted. -/
/- The region of Kernel's @main that runs `cc59__matmul_kernel` (pipeline `cfg59`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegK59a
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk59 (c : Dev nD) (w : Fin cfg59.W) (t : Fin cfg59.N) : ((cfg59.win w).xblock (cfg59.grid.coords t)).Idx → Elt F (cfg59.win w).elt :=
  ((cfg59.win w).blk t).view.read (Elt F) (V c (Pipeline.arrRef spec59 w))

/-! ## What the case leaves, as pieces read back -/

/-- The output's pieces tile its block (one whole-block store). -/
theorem cover59_2 (c : Dev nD) (i : grid59.Coords)
    (arg2 : Memref sig .tc .vmem S1024x512 .f32) (harg2 : arg2.IsWhole) (arg3 : Memref sig .tc .vmem S512x64 .bf16) (harg3 : arg3.IsWhole)
    (arg4 : Memref sig .tc .vmem S1024x64 .f32) (harg4 : arg4.IsWhole) (arg5 : Memref sig .tc .vmem S1024x64 .f32) (harg5 : arg5.IsWhole)
    (hfirst : cond59_0 i) (hlast : cond59_1 i) (xa : Vec F S1024x512 .f32) (xb : Vec F S512x64 .bf16) (y : S1024x64.Idx) :
    ∃ pc ∈ (kernelRun59 c i arg2 harg2 arg3 harg3 arg4 harg4 arg5 harg5 hfirst hlast xa xb).1, y ∈ pc.1.set :=
  View.cover_of_tiledL (kernelRun59 c i arg2 harg2 arg3 harg3 arg4 harg4 arg5 harg5 hfirst hlast xa xb).1 S1024x64.size (by sl_kernel_rfl) y

/-- What the case leaves in the output's staging buffer: its pieces read back over junk. -/
noncomputable def out59_2 (c : Dev nD) (i : grid59.Coords)
    (arg2 : Memref sig .tc .vmem S1024x512 .f32) (harg2 : arg2.IsWhole) (arg3 : Memref sig .tc .vmem S512x64 .bf16) (harg3 : arg3.IsWhole)
    (arg4 : Memref sig .tc .vmem S1024x64 .f32) (harg4 : arg4.IsWhole) (arg5 : Memref sig .tc .vmem S1024x64 .f32) (harg5 : arg5.IsWhole)
    (hfirst : cond59_0 i) (hlast : cond59_1 i) (xa : Vec F S1024x512 .f32) (xb : Vec F S512x64 .bf16) : Vec F S1024x64 .f32 :=
  VO59_2.read (Elt F) (VO59_2.writes (Elt F) VO59_2.junk (kernelRun59 c i arg2 harg2 arg3 harg3 arg4 harg4 arg5 harg5 hfirst hlast xa xb).1)

/-- What the case leaves in the accumulator: its pieces read back over junk. -/
noncomputable def sout59_0 (c : Dev nD) (i : grid59.Coords)
    (arg2 : Memref sig .tc .vmem S1024x512 .f32) (harg2 : arg2.IsWhole) (arg3 : Memref sig .tc .vmem S512x64 .bf16) (harg3 : arg3.IsWhole)
    (arg4 : Memref sig .tc .vmem S1024x64 .f32) (harg4 : arg4.IsWhole) (arg5 : Memref sig .tc .vmem S1024x64 .f32) (harg5 : arg5.IsWhole)
    (hfirst : cond59_0 i) (hlast : cond59_1 i) (xa : Vec F S1024x512 .f32) (xb : Vec F S512x64 .bf16) : Vec F S1024x64 .f32 :=
  VS59_0.read (Elt F) (VS59_0.writes (Elt F) VS59_0.junk (kernelRun59 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout59_0_eq (c : Dev nD) (i : grid59.Coords)
    (arg2 : Memref sig .tc .vmem S1024x512 .f32) (harg2 : arg2.IsWhole) (arg3 : Memref sig .tc .vmem S512x64 .bf16) (harg3 : arg3.IsWhole)
    (arg4 : Memref sig .tc .vmem S1024x64 .f32) (harg4 : arg4.IsWhole) (arg5 : Memref sig .tc .vmem S1024x64 .f32) (harg5 : arg5.IsWhole)
    (hfirst : cond59_0 i) (hlast : cond59_1 i) (xa : Vec F S1024x512 .f32) (xb : Vec F S512x64 .bf16) :
    sout59_0 c i arg2 harg2 arg3 harg3 arg4 harg4 arg5 harg5 hfirst hlast xa xb = k59_pay2 xa xb (k59_pay1 (F := F)) := by
  unfold sout59_0
  rw [View.read_writes_junk_eq_canon]
  unfold kernelRun59
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x64) zeros2]

/-- The output block ends at what the accumulator ends at: the copy's payload is the accumulator read back whole. -/
theorem out59_2_eq (c : Dev nD) (i : grid59.Coords)
    (arg2 : Memref sig .tc .vmem S1024x512 .f32) (harg2 : arg2.IsWhole) (arg3 : Memref sig .tc .vmem S512x64 .bf16) (harg3 : arg3.IsWhole)
    (arg4 : Memref sig .tc .vmem S1024x64 .f32) (harg4 : arg4.IsWhole) (arg5 : Memref sig .tc .vmem S1024x64 .f32) (harg5 : arg5.IsWhole)
    (hfirst : cond59_0 i) (hlast : cond59_1 i) (xa : Vec F S1024x512 .f32) (xb : Vec F S512x64 .bf16) :
    out59_2 c i arg2 harg2 arg3 harg3 arg4 harg4 arg5 harg5 hfirst hlast xa xb = k59_pay2 xa xb (k59_pay1 (F := F)) := by
  unfold out59_2
  rw [View.read_writes_junk_eq_canon]
  unfold kernelRun59
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x64) zeros2]

/-! ## What the output and the accumulator hold after each point -/

/-- After the body at position `n`: (the output window's staging buffer, the accumulator). One case, and nothing taken from
    the point before. -/
noncomputable def outsAt59 (c : Dev nD) (n : ℕ) (hn : n < cfg59.N) : Vec F S1024x64 .f32 × Vec F S1024x64 .f32 :=
  (out59_2 c (grid59.coords ⟨n, hn⟩) (ms59_0 ⟨n, hn⟩) (hs59_0 ⟨n, hn⟩) (ms59_1 ⟨n, hn⟩) (hs59_1 ⟨n, hn⟩) (ms59_2 ⟨n, hn⟩) (hs59_2 ⟨n, hn⟩) scM59_0 (Memref.isWhole_whole _)
      (hcond59_0 ⟨n, hn⟩) (hcond59_1 ⟨n, hn⟩) (iblk59 V c 0 ⟨n, hn⟩) (iblk59 V c 1 ⟨n, hn⟩),
   sout59_0 c (grid59.coords ⟨n, hn⟩) (ms59_0 ⟨n, hn⟩) (hs59_0 ⟨n, hn⟩) (ms59_1 ⟨n, hn⟩) (hs59_1 ⟨n, hn⟩) (ms59_2 ⟨n, hn⟩) (hs59_2 ⟨n, hn⟩) scM59_0 (Memref.isWhole_whole _)
      (hcond59_0 ⟨n, hn⟩) (hcond59_1 ⟨n, hn⟩) (iblk59 V c 0 ⟨n, hn⟩) (iblk59 V c 1 ⟨n, hn⟩))

/-- Every point is a first reduction step: the accumulator after it is one product onto zero. -/
theorem outsAt59_first (c : Dev nD) (t : Fin cfg59.N) :
    (outsAt59 V c t.val t.isLt).2 = k59_pay2 (iblk59 V c 0 t) (iblk59 V c 1 t) (k59_pay1 (F := F)) := by
  obtain ⟨n, hn⟩ := t
  unfold outsAt59
  dsimp only
  rw [sout59_0_eq]

/-- Every point is a last reduction step: the output block after it is the accumulator. -/
theorem outsAt59_last (c : Dev nD) (t : Fin cfg59.N) :
    (outsAt59 V c t.val t.isLt).1 = (outsAt59 V c t.val t.isLt).2 := by
  obtain ⟨n, hn⟩ := t
  unfold outsAt59
  dsimp only
  rw [out59_2_eq, sout59_0_eq]

/-! ## The pipeline's proof data -/

/-- The proof data of the pipeline on core `c`: the arrays as the region finds them; after the body at point `t` each input's
    buffer at its block and the output's at `outsAt59`'s first component; the invariant the same at every point; nothing owed;
    full shares. -/
noncomputable def dat59 (c : Dev nD) : Dat τ (Elt F) Unit ℕ (UR sig nD τ) ℕ cfg59 c where
  A w := V c (Pipeline.arrRef spec59 w)
  after w t := match w with
    | ⟨0, _⟩ => iblk59 V c 0 t
    | ⟨1, _⟩ => iblk59 V c 1 t
    | ⟨2, _⟩ => (outsAt59 V c t.val t.isLt).1
  Φ _ := Pipeline.ΦA spec59 c
  q _ := fullShare
  owed _ := 0

theorem A_eq59 (c : Dev nD) (w : Fin cfg59.W) : (dat59 V c).A w = V c (Pipeline.arrRef spec59 w) := by
  dsimp only [dat59]

theorem after59_0 (c : Dev nD) (t : Fin cfg59.N) : (dat59 V c).after 0 t = iblk59 V c 0 t := by dsimp only [dat59]
theorem after59_1 (c : Dev nD) (t : Fin cfg59.N) : (dat59 V c).after 1 t = iblk59 V c 1 t := by dsimp only [dat59]
theorem after59_2 (c : Dev nD) (t : Fin cfg59.N) : (dat59 V c).after 2 t = (outsAt59 V c t.val t.isLt).1 := by dsimp only [dat59]

/-- An input's current staging buffer holds its block at every point, fetched there or not: where it is not fetched its block
    index has not moved since the point before, and the body left the block in place. -/
theorem before59_0 (c : Dev nD) (t : Fin cfg59.N) (d) : (dat59 V c).before 0 t d = iblk59 V c 0 t :=
  ((dat59 V c).before_in_eq_fetched 0 rfl (fun _ => rfl) (fun _ _ _ => rfl)
      (fun t => by rw [after59_0]; unfold Dat.blockOf iblk59; rw [A_eq59]; try rfl) t d).trans
    (by unfold Dat.fetched Dat.blockOf iblk59; rw [A_eq59]; try rfl)
theorem before59_1 (c : Dev nD) (t : Fin cfg59.N) (d) : (dat59 V c).before 1 t d = iblk59 V c 1 t :=
  ((dat59 V c).before_in_eq_fetched 1 rfl (fun _ => rfl) (fun _ _ _ => rfl)
      (fun t => by rw [after59_1]; unfold Dat.blockOf iblk59; rw [A_eq59]; try rfl) t d).trans
    (by unfold Dat.fetched Dat.blockOf iblk59; rw [A_eq59]; try rfl)

/-! ## The body obligation, at a generic point -/

/-- What the body is called with at point `t`, the windows one by one, -/
noncomputable def bodyPre59 (c : Dev nD) (t : Fin cfg59.N) : sProp 𝕄 :=
  iprop((dat59 V c).Φ t.castSucc ∗ (dat59 V c).owesAt () t.castSucc
    ∗ (∃ d, owns (c : Thread nD τ) (ms59_0 t) fullShare ((dat59 V c).before 0 t d))
    ∗ (∃ d, owns (c : Thread nD τ) (ms59_1 t) fullShare ((dat59 V c).before 1 t d))
    ∗ (∃ d, owns (c : Thread nD τ) (ms59_2 t) fullShare ((dat59 V c).before 2 t d)))

/-- and what it returns. -/
noncomputable def bodyPost59 (c : Dev nD) (t : Fin cfg59.N) : sProp 𝕄 :=
  iprop((dat59 V c).Φ t.succ ∗ (dat59 V c).owesAt () t.succ
    ∗ (dat59 V c).leavesExact 0 t
    ∗ (dat59 V c).leavesExact 1 t
    ∗ (dat59 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body59 (c : Dev nD) (t : Fin cfg59.N) :
    bodyPre59 V c t ⊢ wp frame (wpE (defs₀ (F := F)) Variants.none c none) Set.univ (bodyAt59 t) (fun _ => bodyPost59 V c t) := by
  unfold bodyPre59 bodyPost59 bodyAt59
  simp only [before59_0, before59_1]
  rw [show (dat59 V c).owesAt () t.succ = (dat59 V c).owesAt () t.castSucc from rfl,
    show (dat59 V c).Φ t.succ = Pipeline.ΦA spec59 c from rfl, show (dat59 V c).Φ t.castSucc = Pipeline.ΦA spec59 c from rfl, PhiA59_eq]
  rw [show (dat59 V c).leavesExact 0 t = owns (c : Thread nD τ) (ms59_0 t) fullShare ((dat59 V c).after 0 t) from by
      unfold Dat.leavesExact; rw [liveAt59_0 t], after59_0]
  rw [show (dat59 V c).leavesExact 1 t = owns (c : Thread nD τ) (ms59_1 t) fullShare ((dat59 V c).after 1 t) from by
      unfold Dat.leavesExact; rw [liveAt59_1 t], after59_1]
  rw [show (dat59 V c).leavesExact 2 t = owns (c : Thread nD τ) (ms59_2 t) fullShare ((dat59 V c).after 2 t) from by
      unfold Dat.leavesExact; rw [liveAt59_2 t], after59_2]
  unfold outsAt59 out59_2; (try dsimp only)
  iintro ⟨⟨⟨Hacc, Hrest⟩, Hgen⟩, Howe, ⟨%da, Ha⟩, ⟨%db, Hb⟩, ⟨%dO, Hout⟩⟩
  iapply ((kernelRun59 c (grid59.coords t) _ _ _ _ _ _ _ _ (hcond59_0 t) (hcond59_1 t) (iblk59 V c 0 t) (iblk59 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover59_2 c _ _ _ _ _ _ _ _ _ _ _ _ _)

/-- The library's body obligation, at every point. -/
theorem body_obligation59 (c : Dev nD) : BodyObligation (dat59 (F := F) V c) (defs₀ (F := F)) Variants.none () Set.univ := fun t => by
  rw [bigSep_W59, bigSep_W59]
  exact sound_body59 V c t

/-- What the launch hands the region is the invariant before the first point, -/
theorem hin59 (c : Dev nD) : Pipeline.ΦA spec59 c ⊢ (dat59 V c).Φ 0 := Idealize.SL.BI.Entails.refl _

/-- and the invariant after the last point is what the launch takes back. -/
theorem hout59 (c : Dev nD) : (dat59 V c).Φ (Fin.last cfg59.N) ⊢ Pipeline.ΦA spec59 c := Idealize.SL.BI.Entails.refl _

end Cert.Kernel.Hand

end
-- ==== Proof.ChainValsK.lean ====
import proofs.«158944_j64613488001249_1_alg».proof.Proof.RegK0
import proofs.«158944_j64613488001249_1_alg».proof.Proof.RegK1
import proofs.«158944_j64613488001249_1_alg».proof.Proof.RegK2
import proofs.«158944_j64613488001249_1_alg».proof.Proof.RegK3
import proofs.«158944_j64613488001249_1_alg».proof.Proof.RegK4
import proofs.«158944_j64613488001249_1_alg».proof.Proof.RegK5
import proofs.«158944_j64613488001249_1_alg».proof.Proof.RegK6
import proofs.«158944_j64613488001249_1_alg».proof.Proof.RegK7
import proofs.«158944_j64613488001249_1_alg».proof.Proof.RegK8
import proofs.«158944_j64613488001249_1_alg».proof.Proof.RegK9
import proofs.«158944_j64613488001249_1_alg».proof.Proof.RegK10
import proofs.«158944_j64613488001249_1_alg».proof.Proof.RegK11
import proofs.«158944_j64613488001249_1_alg».proof.Proof.RegK12
import proofs.«158944_j64613488001249_1_alg».proof.Proof.RegK13
import proofs.«158944_j64613488001249_1_alg».proof.Proof.RegK14
import proofs.«158944_j64613488001249_1_alg».proof.Proof.RegK15
import proofs.«158944_j64613488001249_1_alg».proof.Proof.RegK16
import proofs.«158944_j64613488001249_1_alg».proof.Proof.RegK17
import proofs.«158944_j64613488001249_1_alg».proof.Proof.RegK18
import proofs.«158944_j64613488001249_1_alg».proof.Proof.RegK19
import proofs.«158944_j64613488001249_1_alg».proof.Proof.RegK20
import proofs.«158944_j64613488001249_1_alg».proof.Proof.RegK21
import proofs.«158944_j64613488001249_1_alg».proof.Proof.RegK22
import proofs.«158944_j64613488001249_1_alg».proof.Proof.RegK23
import proofs.«158944_j64613488001249_1_alg».proof.Proof.RegK24
import proofs.«158944_j64613488001249_1_alg».proof.Proof.RegK25
import proofs.«158944_j64613488001249_1_alg».proof.Proof.RegK26
import proofs.«158944_j64613488001249_1_alg».proof.Proof.RegK27
import proofs.«158944_j64613488001249_1_alg».proof.Proof.RegK28
import proofs.«158944_j64613488001249_1_alg».proof.Proof.RegK29
import proofs.«158944_j64613488001249_1_alg».proof.Proof.RegK30
import proofs.«158944_j64613488001249_1_alg».proof.Proof.RegK31
import proofs.«158944_j64613488001249_1_alg».proof.Proof.RegK32
import proofs.«158944_j64613488001249_1_alg».proof.Proof.RegK33
import proofs.«158944_j64613488001249_1_alg».proof.Proof.RegK34
import proofs.«158944_j64613488001249_1_alg».proof.Proof.RegK35
import proofs.«158944_j64613488001249_1_alg».proof.Proof.RegK36
import proofs.«158944_j64613488001249_1_alg».proof.Proof.RegK37
import proofs.«158944_j64613488001249_1_alg».proof.Proof.RegK38
import proofs.«158944_j64613488001249_1_alg».proof.Proof.RegK39
import proofs.«158944_j64613488001249_1_alg».proof.Proof.RegK40
import proofs.«158944_j64613488001249_1_alg».proof.Proof.RegK41
import proofs.«158944_j64613488001249_1_alg».proof.Proof.RegK42
import proofs.«158944_j64613488001249_1_alg».proof.Proof.RegK43
import proofs.«158944_j64613488001249_1_alg».proof.Proof.RegK44
import proofs.«158944_j64613488001249_1_alg».proof.Proof.RegK45
import proofs.«158944_j64613488001249_1_alg».proof.Proof.RegK46
import proofs.«158944_j64613488001249_1_alg».proof.Proof.RegK47
import proofs.«158944_j64613488001249_1_alg».proof.Proof.RegK48
import proofs.«158944_j64613488001249_1_alg».proof.Proof.RegK49
import proofs.«158944_j64613488001249_1_alg».proof.Proof.RegK50
import proofs.«158944_j64613488001249_1_alg».proof.Proof.RegK51
import proofs.«158944_j64613488001249_1_alg».proof.Proof.RegK52
import proofs.«158944_j64613488001249_1_alg».proof.Proof.RegK53
import proofs.«158944_j64613488001249_1_alg».proof.Proof.RegK54
import proofs.«158944_j64613488001249_1_alg».proof.Proof.RegK55
import proofs.«158944_j64613488001249_1_alg».proof.Proof.RegK56
import proofs.«158944_j64613488001249_1_alg».proof.Proof.RegK57
import proofs.«158944_j64613488001249_1_alg».proof.Proof.RegK58
import proofs.«158944_j64613488001249_1_alg».proof.Proof.RegK59
import proofs.«158944_j64613488001249_1_alg».proof.Proof.RegionsK
import Idealize.ShloMosaic.Lib.Pipeline.Frame
import Idealize.ShloMosaic.Lib.Pipeline.Regions
import Idealize.ShloMosaic.Lib.Pipeline.RegionsLoop

/-! # The unscoped buffers' contents between @main's items, concretely

    `U<j> m c` is what core `c`'s unscoped buffers hold after item j-1 of @main, from the launch memory `m`: a host stretch
    acts by `StableHlo.after`, a kernel region rewrites its output window's array to what its write-backs leave
    (`Dat.arrAt 2 N` of the region's proof data at the contents it is entered from). These are the generated valuations
    `GenP.V<j>` at the unknowns `outs` chosen to be the regions' own results (`V<j>_eq`). -/

set_option maxRecDepth 16384

noncomputable section

namespace Cert.Kernel.Hand

open Cert.Kernel Cert.Kernel.Gen Cert.Kernel.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

variable (m : (ℓ : Loc nD τ sig) → Buf (Elt F) ℓ)

/-- Core `c`'s unscoped buffers at launch. -/
abbrev U0 (c : Dev nD) : Valuation τ sig (Elt F) := fun b => m (c, b)
/-- Core `c`'s unscoped buffers after item 0, the host stretch `hostOps0`. -/
abbrev U1 (c : Dev nD) : Valuation τ sig (Elt F) := StableHlo.after hostOps0 (U0 m c)
/-- Core `c`'s unscoped buffers after item 1, region 0: `main_v17` at what the region's write-backs leave. -/
abbrev U2 (c : Dev nD) : Valuation τ sig (Elt F) :=
  Function.update (U1 m c) main_v17 ((dat0 (fun c b => U1 m c b) c).arrAt 2 cfg0.N)
/-- Core `c`'s unscoped buffers after item 2, the host stretch `hostOps1`. -/
abbrev U3 (c : Dev nD) : Valuation τ sig (Elt F) := StableHlo.after hostOps1 (U2 m c)
/-- Core `c`'s unscoped buffers after item 3, region 1: `main_v26` at what the region's write-backs leave. -/
abbrev U4 (c : Dev nD) : Valuation τ sig (Elt F) :=
  Function.update (U3 m c) main_v26 ((dat1 (fun c b => U3 m c b) c).arrAt 2 cfg1.N)
/-- Core `c`'s unscoped buffers after item 4, the host stretch `hostOps2`. -/
abbrev U5 (c : Dev nD) : Valuation τ sig (Elt F) := StableHlo.after hostOps2 (U4 m c)
/-- Core `c`'s unscoped buffers after item 5, region 2: `main_v30` at what the region's write-backs leave. -/
abbrev U6 (c : Dev nD) : Valuation τ sig (Elt F) :=
  Function.update (U5 m c) main_v30 ((dat2 (fun c b => U5 m c b) c).arrAt 2 cfg2.N)
/-- Core `c`'s unscoped buffers after item 6, the host stretch `hostOps3`. -/
abbrev U7 (c : Dev nD) : Valuation τ sig (Elt F) := StableHlo.after hostOps3 (U6 m c)
/-- Core `c`'s unscoped buffers after item 7, region 3: `main_v34` at what the region's write-backs leave. -/
abbrev U8 (c : Dev nD) : Valuation τ sig (Elt F) :=
  Function.update (U7 m c) main_v34 ((dat3 (fun c b => U7 m c b) c).arrAt 2 cfg3.N)
/-- Core `c`'s unscoped buffers after item 8, region 4: `main_v35` at what the region's write-backs leave. -/
abbrev U9 (c : Dev nD) : Valuation τ sig (Elt F) :=
  Function.update (U8 m c) main_v35 ((dat4 (fun c b => U8 m c b) c).arrAt 2 cfg4.N)
/-- Core `c`'s unscoped buffers after item 9, the host stretch `hostOps5`. -/
abbrev U10 (c : Dev nD) : Valuation τ sig (Elt F) := StableHlo.after hostOps5 (U9 m c)
/-- Core `c`'s unscoped buffers after item 10, region 5: `main_v39` at what the region's write-backs leave. -/
abbrev U11 (c : Dev nD) : Valuation τ sig (Elt F) :=
  Function.update (U10 m c) main_v39 ((dat5 (fun c b => U10 m c b) c).arrAt 2 cfg5.N)
/-- Core `c`'s unscoped buffers after item 11, the host stretch `hostOps6`. -/
abbrev U12 (c : Dev nD) : Valuation τ sig (Elt F) := StableHlo.after hostOps6 (U11 m c)
/-- Core `c`'s unscoped buffers after item 12, region 6: `main_v43` at what the region's write-backs leave. -/
abbrev U13 (c : Dev nD) : Valuation τ sig (Elt F) :=
  Function.update (U12 m c) main_v43 ((dat6 (fun c b => U12 m c b) c).arrAt 2 cfg6.N)
/-- Core `c`'s unscoped buffers after item 13, region 7: `main_v44` at what the region's write-backs leave. -/
abbrev U14 (c : Dev nD) : Valuation τ sig (Elt F) :=
  Function.update (U13 m c) main_v44 ((dat7 (fun c b => U13 m c b) c).arrAt 2 cfg7.N)
/-- Core `c`'s unscoped buffers after item 14, the host stretch `hostOps8`. -/
abbrev U15 (c : Dev nD) : Valuation τ sig (Elt F) := StableHlo.after hostOps8 (U14 m c)
/-- Core `c`'s unscoped buffers after item 15, region 8: `main_v63` at what the region's write-backs leave. -/
abbrev U16 (c : Dev nD) : Valuation τ sig (Elt F) :=
  Function.update (U15 m c) main_v63 ((dat8 (fun c b => U15 m c b) c).arrAt 2 cfg8.N)
/-- Core `c`'s unscoped buffers after item 16, the host stretch `hostOps9`. -/
abbrev U17 (c : Dev nD) : Valuation τ sig (Elt F) := StableHlo.after hostOps9 (U16 m c)
/-- Core `c`'s unscoped buffers after item 17, region 9: `main_v67` at what the region's write-backs leave. -/
abbrev U18 (c : Dev nD) : Valuation τ sig (Elt F) :=
  Function.update (U17 m c) main_v67 ((dat9 (fun c b => U17 m c b) c).arrAt 2 cfg9.N)
/-- Core `c`'s unscoped buffers after item 18, the host stretch `hostOps10`. -/
abbrev U19 (c : Dev nD) : Valuation τ sig (Elt F) := StableHlo.after hostOps10 (U18 m c)
/-- Core `c`'s unscoped buffers after item 19, region 10: `main_v71` at what the region's write-backs leave. -/
abbrev U20 (c : Dev nD) : Valuation τ sig (Elt F) :=
  Function.update (U19 m c) main_v71 ((dat10 (fun c b => U19 m c b) c).arrAt 2 cfg10.N)
/-- Core `c`'s unscoped buffers after item 20, region 11: `main_v72` at what the region's write-backs leave. -/
abbrev U21 (c : Dev nD) : Valuation τ sig (Elt F) :=
  Function.update (U20 m c) main_v72 ((dat11 (fun c b => U20 m c b) c).arrAt 2 cfg11.N)
/-- Core `c`'s unscoped buffers after item 21, the host stretch `hostOps12`. -/
abbrev U22 (c : Dev nD) : Valuation τ sig (Elt F) := StableHlo.after hostOps12 (U21 m c)
/-- Core `c`'s unscoped buffers after item 22, region 12: `main_v76` at what the region's write-backs leave. -/
abbrev U23 (c : Dev nD) : Valuation τ sig (Elt F) :=
  Function.update (U22 m c) main_v76 ((dat12 (fun c b => U22 m c b) c).arrAt 2 cfg12.N)
/-- Core `c`'s unscoped buffers after item 23, the host stretch `hostOps13`. -/
abbrev U24 (c : Dev nD) : Valuation τ sig (Elt F) := StableHlo.after hostOps13 (U23 m c)
/-- Core `c`'s unscoped buffers after item 24, region 13: `main_v80` at what the region's write-backs leave. -/
abbrev U25 (c : Dev nD) : Valuation τ sig (Elt F) :=
  Function.update (U24 m c) main_v80 ((dat13 (fun c b => U24 m c b) c).arrAt 2 cfg13.N)
/-- Core `c`'s unscoped buffers after item 25, region 14: `main_v81` at what the region's write-backs leave. -/
abbrev U26 (c : Dev nD) : Valuation τ sig (Elt F) :=
  Function.update (U25 m c) main_v81 ((dat14 (fun c b => U25 m c b) c).arrAt 2 cfg14.N)
/-- Core `c`'s unscoped buffers after item 26, the host stretch `hostOps15`. -/
abbrev U27 (c : Dev nD) : Valuation τ sig (Elt F) := StableHlo.after hostOps15 (U26 m c)
/-- Core `c`'s unscoped buffers after item 27, region 15: `main_v100` at what the region's write-backs leave. -/
abbrev U28 (c : Dev nD) : Valuation τ sig (Elt F) :=
  Function.update (U27 m c) main_v100 ((dat15 (fun c b => U27 m c b) c).arrAt 2 cfg15.N)
/-- Core `c`'s unscoped buffers after item 28, the host stretch `hostOps16`. -/
abbrev U29 (c : Dev nD) : Valuation τ sig (Elt F) := StableHlo.after hostOps16 (U28 m c)
/-- Core `c`'s unscoped buffers after item 29, region 16: `main_v104` at what the region's write-backs leave. -/
abbrev U30 (c : Dev nD) : Valuation τ sig (Elt F) :=
  Function.update (U29 m c) main_v104 ((dat16 (fun c b => U29 m c b) c).arrAt 2 cfg16.N)
/-- Core `c`'s unscoped buffers after item 30, the host stretch `hostOps17`. -/
abbrev U31 (c : Dev nD) : Valuation τ sig (Elt F) := StableHlo.after hostOps17 (U30 m c)
/-- Core `c`'s unscoped buffers after item 31, region 17: `main_v108` at what the region's write-backs leave. -/
abbrev U32 (c : Dev nD) : Valuation τ sig (Elt F) :=
  Function.update (U31 m c) main_v108 ((dat17 (fun c b => U31 m c b) c).arrAt 2 cfg17.N)
/-- Core `c`'s unscoped buffers after item 32, region 18: `main_v109` at what the region's write-backs leave. -/
abbrev U33 (c : Dev nD) : Valuation τ sig (Elt F) :=
  Function.update (U32 m c) main_v109 ((dat18 (fun c b => U32 m c b) c).arrAt 2 cfg18.N)
/-- Core `c`'s unscoped buffers after item 33, the host stretch `hostOps19`. -/
abbrev U34 (c : Dev nD) : Valuation τ sig (Elt F) := StableHlo.after hostOps19 (U33 m c)
/-- Core `c`'s unscoped buffers after item 34, region 19: `main_v113` at what the region's write-backs leave. -/
abbrev U35 (c : Dev nD) : Valuation τ sig (Elt F) :=
  Function.update (U34 m c) main_v113 ((dat19 (fun c b => U34 m c b) c).arrAt 2 cfg19.N)
/-- Core `c`'s unscoped buffers after item 35, the host stretch `hostOps20`. -/
abbrev U36 (c : Dev nD) : Valuation τ sig (Elt F) := StableHlo.after hostOps20 (U35 m c)
/-- Core `c`'s unscoped buffers after item 36, region 20: `main_v117` at what the region's write-backs leave. -/
abbrev U37 (c : Dev nD) : Valuation τ sig (Elt F) :=
  Function.update (U36 m c) main_v117 ((dat20 (fun c b => U36 m c b) c).arrAt 2 cfg20.N)
/-- Core `c`'s unscoped buffers after item 37, region 21: `main_v118` at what the region's write-backs leave. -/
abbrev U38 (c : Dev nD) : Valuation τ sig (Elt F) :=
  Function.update (U37 m c) main_v118 ((dat21 (fun c b => U37 m c b) c).arrAt 2 cfg21.N)
/-- Core `c`'s unscoped buffers after item 38, the host stretch `hostOps22`. -/
abbrev U39 (c : Dev nD) : Valuation τ sig (Elt F) := StableHlo.after hostOps22 (U38 m c)
/-- Core `c`'s unscoped buffers after item 39, region 22: `main_v137` at what the region's write-backs leave. -/
abbrev U40 (c : Dev nD) : Valuation τ sig (Elt F) :=
  Function.update (U39 m c) main_v137 ((dat22 (fun c b => U39 m c b) c).arrAt 2 cfg22.N)
/-- Core `c`'s unscoped buffers after item 40, the host stretch `hostOps23`. -/
abbrev U41 (c : Dev nD) : Valuation τ sig (Elt F) := StableHlo.after hostOps23 (U40 m c)
/-- Core `c`'s unscoped buffers after item 41, region 23: `main_v141` at what the region's write-backs leave. -/
abbrev U42 (c : Dev nD) : Valuation τ sig (Elt F) :=
  Function.update (U41 m c) main_v141 ((dat23 (fun c b => U41 m c b) c).arrAt 2 cfg23.N)
/-- Core `c`'s unscoped buffers after item 42, the host stretch `hostOps24`. -/
abbrev U43 (c : Dev nD) : Valuation τ sig (Elt F) := StableHlo.after hostOps24 (U42 m c)
/-- Core `c`'s unscoped buffers after item 43, region 24: `main_v145` at what the region's write-backs leave. -/
abbrev U44 (c : Dev nD) : Valuation τ sig (Elt F) :=
  Function.update (U43 m c) main_v145 ((dat24 (fun c b => U43 m c b) c).arrAt 2 cfg24.N)
/-- Core `c`'s unscoped buffers after item 44, region 25: `main_v146` at what the region's write-backs leave. -/
abbrev U45 (c : Dev nD) : Valuation τ sig (Elt F) :=
  Function.update (U44 m c) main_v146 ((dat25 (fun c b => U44 m c b) c).arrAt 2 cfg25.N)
/-- Core `c`'s unscoped buffers after item 45, the host stretch `hostOps26`. -/
abbrev U46 (c : Dev nD) : Valuation τ sig (Elt F) := StableHlo.after hostOps26 (U45 m c)
/-- Core `c`'s unscoped buffers after item 46, region 26: `main_v150` at what the region's write-backs leave. -/
abbrev U47 (c : Dev nD) : Valuation τ sig (Elt F) :=
  Function.update (U46 m c) main_v150 ((dat26 (fun c b => U46 m c b) c).arrAt 2 cfg26.N)
/-- Core `c`'s unscoped buffers after item 47, the host stretch `hostOps27`. -/
abbrev U48 (c : Dev nD) : Valuation τ sig (Elt F) := StableHlo.after hostOps27 (U47 m c)
/-- Core `c`'s unscoped buffers after item 48, region 27: `main_v154` at what the region's write-backs leave. -/
abbrev U49 (c : Dev nD) : Valuation τ sig (Elt F) :=
  Function.update (U48 m c) main_v154 ((dat27 (fun c b => U48 m c b) c).arrAt 2 cfg27.N)
/-- Core `c`'s unscoped buffers after item 49, region 28: `main_v155` at what the region's write-backs leave. -/
abbrev U50 (c : Dev nD) : Valuation τ sig (Elt F) :=
  Function.update (U49 m c) main_v155 ((dat28 (fun c b => U49 m c b) c).arrAt 2 cfg28.N)
/-- Core `c`'s unscoped buffers after item 50, the host stretch `hostOps29`. -/
abbrev U51 (c : Dev nD) : Valuation τ sig (Elt F) := StableHlo.after hostOps29 (U50 m c)
/-- Core `c`'s unscoped buffers after item 51, region 29: `main_v174` at what the region's write-backs leave. -/
abbrev U52 (c : Dev nD) : Valuation τ sig (Elt F) :=
  Function.update (U51 m c) main_v174 ((dat29 (fun c b => U51 m c b) c).arrAt 2 cfg29.N)
/-- Core `c`'s unscoped buffers after item 52, the host stretch `hostOps30`. -/
abbrev U53 (c : Dev nD) : Valuation τ sig (Elt F) := StableHlo.after hostOps30 (U52 m c)
/-- Core `c`'s unscoped buffers after item 53, region 30: `main_v178` at what the region's write-backs leave. -/
abbrev U54 (c : Dev nD) : Valuation τ sig (Elt F) :=
  Function.update (U53 m c) main_v178 ((dat30 (fun c b => U53 m c b) c).arrAt 2 cfg30.N)
/-- Core `c`'s unscoped buffers after item 54, the host stretch `hostOps31`. -/
abbrev U55 (c : Dev nD) : Valuation τ sig (Elt F) := StableHlo.after hostOps31 (U54 m c)
/-- Core `c`'s unscoped buffers after item 55, region 31: `main_v182` at what the region's write-backs leave. -/
abbrev U56 (c : Dev nD) : Valuation τ sig (Elt F) :=
  Function.update (U55 m c) main_v182 ((dat31 (fun c b => U55 m c b) c).arrAt 2 cfg31.N)
/-- Core `c`'s unscoped buffers after item 56, region 32: `main_v183` at what the region's write-backs leave. -/
abbrev U57 (c : Dev nD) : Valuation τ sig (Elt F) :=
  Function.update (U56 m c) main_v183 ((dat32 (fun c b => U56 m c b) c).arrAt 2 cfg32.N)
/-- Core `c`'s unscoped buffers after item 57, the host stretch `hostOps33`. -/
abbrev U58 (c : Dev nD) : Valuation τ sig (Elt F) := StableHlo.after hostOps33 (U57 m c)
/-- Core `c`'s unscoped buffers after item 58, region 33: `main_v187` at what the region's write-backs leave. -/
abbrev U59 (c : Dev nD) : Valuation τ sig (Elt F) :=
  Function.update (U58 m c) main_v187 ((dat33 (fun c b => U58 m c b) c).arrAt 2 cfg33.N)
/-- Core `c`'s unscoped buffers after item 59, the host stretch `hostOps34`. -/
abbrev U60 (c : Dev nD) : Valuation τ sig (Elt F) := StableHlo.after hostOps34 (U59 m c)
/-- Core `c`'s unscoped buffers after item 60, region 34: `main_v191` at what the region's write-backs leave. -/
abbrev U61 (c : Dev nD) : Valuation τ sig (Elt F) :=
  Function.update (U60 m c) main_v191 ((dat34 (fun c b => U60 m c b) c).arrAt 2 cfg34.N)
/-- Core `c`'s unscoped buffers after item 61, region 35: `main_v192` at what the region's write-backs leave. -/
abbrev U62 (c : Dev nD) : Valuation τ sig (Elt F) :=
  Function.update (U61 m c) main_v192 ((dat35 (fun c b => U61 m c b) c).arrAt 2 cfg35.N)
/-- Core `c`'s unscoped buffers after item 62, the host stretch `hostOps36`. -/
abbrev U63 (c : Dev nD) : Valuation τ sig (Elt F) := StableHlo.after hostOps36 (U62 m c)
/-- Core `c`'s unscoped buffers after item 63, region 36: `main_v211` at what the region's write-backs leave. -/
abbrev U64 (c : Dev nD) : Valuation τ sig (Elt F) :=
  Function.update (U63 m c) main_v211 ((dat36 (fun c b => U63 m c b) c).arrAt 2 cfg36.N)
/-- Core `c`'s unscoped buffers after item 64, the host stretch `hostOps37`. -/
abbrev U65 (c : Dev nD) : Valuation τ sig (Elt F) := StableHlo.after hostOps37 (U64 m c)
/-- Core `c`'s unscoped buffers after item 65, region 37: `main_v215` at what the region's write-backs leave. -/
abbrev U66 (c : Dev nD) : Valuation τ sig (Elt F) :=
  Function.update (U65 m c) main_v215 ((dat37 (fun c b => U65 m c b) c).arrAt 2 cfg37.N)
/-- Core `c`'s unscoped buffers after item 66, the host stretch `hostOps38`. -/
abbrev U67 (c : Dev nD) : Valuation τ sig (Elt F) := StableHlo.after hostOps38 (U66 m c)
/-- Core `c`'s unscoped buffers after item 67, region 38: `main_v219` at what the region's write-backs leave. -/
abbrev U68 (c : Dev nD) : Valuation τ sig (Elt F) :=
  Function.update (U67 m c) main_v219 ((dat38 (fun c b => U67 m c b) c).arrAt 2 cfg38.N)
/-- Core `c`'s unscoped buffers after item 68, region 39: `main_v220` at what the region's write-backs leave. -/
abbrev U69 (c : Dev nD) : Valuation τ sig (Elt F) :=
  Function.update (U68 m c) main_v220 ((dat39 (fun c b => U68 m c b) c).arrAt 2 cfg39.N)
/-- Core `c`'s unscoped buffers after item 69, the host stretch `hostOps40`. -/
abbrev U70 (c : Dev nD) : Valuation τ sig (Elt F) := StableHlo.after hostOps40 (U69 m c)
/-- Core `c`'s unscoped buffers after item 70, region 40: `main_v224` at what the region's write-backs leave. -/
abbrev U71 (c : Dev nD) : Valuation τ sig (Elt F) :=
  Function.update (U70 m c) main_v224 ((dat40 (fun c b => U70 m c b) c).arrAt 2 cfg40.N)
/-- Core `c`'s unscoped buffers after item 71, the host stretch `hostOps41`. -/
abbrev U72 (c : Dev nD) : Valuation τ sig (Elt F) := StableHlo.after hostOps41 (U71 m c)
/-- Core `c`'s unscoped buffers after item 72, region 41: `main_v228` at what the region's write-backs leave. -/
abbrev U73 (c : Dev nD) : Valuation τ sig (Elt F) :=
  Function.update (U72 m c) main_v228 ((dat41 (fun c b => U72 m c b) c).arrAt 2 cfg41.N)
/-- Core `c`'s unscoped buffers after item 73, region 42: `main_v229` at what the region's write-backs leave. -/
abbrev U74 (c : Dev nD) : Valuation τ sig (Elt F) :=
  Function.update (U73 m c) main_v229 ((dat42 (fun c b => U73 m c b) c).arrAt 2 cfg42.N)
/-- Core `c`'s unscoped buffers after item 74, the host stretch `hostOps43`. -/
abbrev U75 (c : Dev nD) : Valuation τ sig (Elt F) := StableHlo.after hostOps43 (U74 m c)
/-- Core `c`'s unscoped buffers after item 75, region 43: `main_v248` at what the region's write-backs leave. -/
abbrev U76 (c : Dev nD) : Valuation τ sig (Elt F) :=
  Function.update (U75 m c) main_v248 ((dat43 (fun c b => U75 m c b) c).arrAt 2 cfg43.N)
/-- Core `c`'s unscoped buffers after item 76, the host stretch `hostOps44`. -/
abbrev U77 (c : Dev nD) : Valuation τ sig (Elt F) := StableHlo.after hostOps44 (U76 m c)
/-- Core `c`'s unscoped buffers after item 77, region 44: `main_v252` at what the region's write-backs leave. -/
abbrev U78 (c : Dev nD) : Valuation τ sig (Elt F) :=
  Function.update (U77 m c) main_v252 ((dat44 (fun c b => U77 m c b) c).arrAt 2 cfg44.N)
/-- Core `c`'s unscoped buffers after item 78, the host stretch `hostOps45`. -/
abbrev U79 (c : Dev nD) : Valuation τ sig (Elt F) := StableHlo.after hostOps45 (U78 m c)
/-- Core `c`'s unscoped buffers after item 79, region 45: `main_v256` at what the region's write-backs leave. -/
abbrev U80 (c : Dev nD) : Valuation τ sig (Elt F) :=
  Function.update (U79 m c) main_v256 ((dat45 (fun c b => U79 m c b) c).arrAt 2 cfg45.N)
/-- Core `c`'s unscoped buffers after item 80, region 46: `main_v257` at what the region's write-backs leave. -/
abbrev U81 (c : Dev nD) : Valuation τ sig (Elt F) :=
  Function.update (U80 m c) main_v257 ((dat46 (fun c b => U80 m c b) c).arrAt 2 cfg46.N)
/-- Core `c`'s unscoped buffers after item 81, the host stretch `hostOps47`. -/
abbrev U82 (c : Dev nD) : Valuation τ sig (Elt F) := StableHlo.after hostOps47 (U81 m c)
/-- Core `c`'s unscoped buffers after item 82, region 47: `main_v261` at what the region's write-backs leave. -/
abbrev U83 (c : Dev nD) : Valuation τ sig (Elt F) :=
  Function.update (U82 m c) main_v261 ((dat47 (fun c b => U82 m c b) c).arrAt 2 cfg47.N)
/-- Core `c`'s unscoped buffers after item 83, the host stretch `hostOps48`. -/
abbrev U84 (c : Dev nD) : Valuation τ sig (Elt F) := StableHlo.after hostOps48 (U83 m c)
/-- Core `c`'s unscoped buffers after item 84, region 48: `main_v265` at what the region's write-backs leave. -/
abbrev U85 (c : Dev nD) : Valuation τ sig (Elt F) :=
  Function.update (U84 m c) main_v265 ((dat48 (fun c b => U84 m c b) c).arrAt 2 cfg48.N)
/-- Core `c`'s unscoped buffers after item 85, region 49: `main_v266` at what the region's write-backs leave. -/
abbrev U86 (c : Dev nD) : Valuation τ sig (Elt F) :=
  Function.update (U85 m c) main_v266 ((dat49 (fun c b => U85 m c b) c).arrAt 2 cfg49.N)
/-- Core `c`'s unscoped buffers after item 86, the host stretch `hostOps50`. -/
abbrev U87 (c : Dev nD) : Valuation τ sig (Elt F) := StableHlo.after hostOps50 (U86 m c)
/-- Core `c`'s unscoped buffers after item 87, region 50: `main_v285` at what the region's write-backs leave. -/
abbrev U88 (c : Dev nD) : Valuation τ sig (Elt F) :=
  Function.update (U87 m c) main_v285 ((dat50 (fun c b => U87 m c b) c).arrAt 2 cfg50.N)
/-- Core `c`'s unscoped buffers after item 88, the host stretch `hostOps51`. -/
abbrev U89 (c : Dev nD) : Valuation τ sig (Elt F) := StableHlo.after hostOps51 (U88 m c)
/-- Core `c`'s unscoped buffers after item 89, region 51: `main_v289` at what the region's write-backs leave. -/
abbrev U90 (c : Dev nD) : Valuation τ sig (Elt F) :=
  Function.update (U89 m c) main_v289 ((dat51 (fun c b => U89 m c b) c).arrAt 2 cfg51.N)
/-- Core `c`'s unscoped buffers after item 90, the host stretch `hostOps52`. -/
abbrev U91 (c : Dev nD) : Valuation τ sig (Elt F) := StableHlo.after hostOps52 (U90 m c)
/-- Core `c`'s unscoped buffers after item 91, region 52: `main_v293` at what the region's write-backs leave. -/
abbrev U92 (c : Dev nD) : Valuation τ sig (Elt F) :=
  Function.update (U91 m c) main_v293 ((dat52 (fun c b => U91 m c b) c).arrAt 2 cfg52.N)
/-- Core `c`'s unscoped buffers after item 92, region 53: `main_v294` at what the region's write-backs leave. -/
abbrev U93 (c : Dev nD) : Valuation τ sig (Elt F) :=
  Function.update (U92 m c) main_v294 ((dat53 (fun c b => U92 m c b) c).arrAt 2 cfg53.N)
/-- Core `c`'s unscoped buffers after item 93, the host stretch `hostOps54`. -/
abbrev U94 (c : Dev nD) : Valuation τ sig (Elt F) := StableHlo.after hostOps54 (U93 m c)
/-- Core `c`'s unscoped buffers after item 94, region 54: `main_v298` at what the region's write-backs leave. -/
abbrev U95 (c : Dev nD) : Valuation τ sig (Elt F) :=
  Function.update (U94 m c) main_v298 ((dat54 (fun c b => U94 m c b) c).arrAt 2 cfg54.N)
/-- Core `c`'s unscoped buffers after item 95, the host stretch `hostOps55`. -/
abbrev U96 (c : Dev nD) : Valuation τ sig (Elt F) := StableHlo.after hostOps55 (U95 m c)
/-- Core `c`'s unscoped buffers after item 96, region 55: `main_v302` at what the region's write-backs leave. -/
abbrev U97 (c : Dev nD) : Valuation τ sig (Elt F) :=
  Function.update (U96 m c) main_v302 ((dat55 (fun c b => U96 m c b) c).arrAt 2 cfg55.N)
/-- Core `c`'s unscoped buffers after item 97, region 56: `main_v303` at what the region's write-backs leave. -/
abbrev U98 (c : Dev nD) : Valuation τ sig (Elt F) :=
  Function.update (U97 m c) main_v303 ((dat56 (fun c b => U97 m c b) c).arrAt 2 cfg56.N)
/-- Core `c`'s unscoped buffers after item 98, the host stretch `hostOps57`. -/
abbrev U99 (c : Dev nD) : Valuation τ sig (Elt F) := StableHlo.after hostOps57 (U98 m c)
/-- Core `c`'s unscoped buffers after item 99, region 57: `main_v322` at what the region's write-backs leave. -/
abbrev U100 (c : Dev nD) : Valuation τ sig (Elt F) :=
  Function.update (U99 m c) main_v322 ((dat57 (fun c b => U99 m c b) c).arrAt 2 cfg57.N)
/-- Core `c`'s unscoped buffers after item 100, the host stretch `hostOps58`. -/
abbrev U101 (c : Dev nD) : Valuation τ sig (Elt F) := StableHlo.after hostOps58 (U100 m c)
/-- Core `c`'s unscoped buffers after item 101, region 58: `main_v326` at what the region's write-backs leave. -/
abbrev U102 (c : Dev nD) : Valuation τ sig (Elt F) :=
  Function.update (U101 m c) main_v326 ((dat58 (fun c b => U101 m c b) c).arrAt 2 cfg58.N)
/-- Core `c`'s unscoped buffers after item 102, the host stretch `hostOps59`. -/
abbrev U103 (c : Dev nD) : Valuation τ sig (Elt F) := StableHlo.after hostOps59 (U102 m c)
/-- Core `c`'s unscoped buffers after item 103, the host stretch `hostOps59_1`. -/
abbrev U104 (c : Dev nD) : Valuation τ sig (Elt F) := StableHlo.after hostOps59_1 (U103 m c)
/-- Core `c`'s unscoped buffers after item 104, region 59: `main_v331` at what the region's write-backs leave. -/
abbrev U105 (c : Dev nD) : Valuation τ sig (Elt F) :=
  Function.update (U104 m c) main_v331 ((dat59 (fun c b => U104 m c b) c).arrAt 2 cfg59.N)
/-- Core `c`'s unscoped buffers after item 105, the host stretch `hostOps60`. -/
abbrev U106 (c : Dev nD) : Valuation τ sig (Elt F) := StableHlo.after hostOps60 (U105 m c)

/-- What the regions leave, as the generated valuations' unknowns: region K's output array after its item. -/
def outs : GenP.Outs (F := F) := fun J r c =>
  (match J with
   | 2 => U2 m
   | 4 => U4 m
   | 6 => U6 m
   | 8 => U8 m
   | 9 => U9 m
   | 11 => U11 m
   | 13 => U13 m
   | 14 => U14 m
   | 16 => U16 m
   | 18 => U18 m
   | 20 => U20 m
   | 21 => U21 m
   | 23 => U23 m
   | 25 => U25 m
   | 26 => U26 m
   | 28 => U28 m
   | 30 => U30 m
   | 32 => U32 m
   | 33 => U33 m
   | 35 => U35 m
   | 37 => U37 m
   | 38 => U38 m
   | 40 => U40 m
   | 42 => U42 m
   | 44 => U44 m
   | 45 => U45 m
   | 47 => U47 m
   | 49 => U49 m
   | 50 => U50 m
   | 52 => U52 m
   | 54 => U54 m
   | 56 => U56 m
   | 57 => U57 m
   | 59 => U59 m
   | 61 => U61 m
   | 62 => U62 m
   | 64 => U64 m
   | 66 => U66 m
   | 68 => U68 m
   | 69 => U69 m
   | 71 => U71 m
   | 73 => U73 m
   | 74 => U74 m
   | 76 => U76 m
   | 78 => U78 m
   | 80 => U80 m
   | 81 => U81 m
   | 83 => U83 m
   | 85 => U85 m
   | 86 => U86 m
   | 88 => U88 m
   | 90 => U90 m
   | 92 => U92 m
   | 93 => U93 m
   | 95 => U95 m
   | 97 => U97 m
   | 98 => U98 m
   | 100 => U100 m
   | 102 => U102 m
   | 105 => U105 m
   | _ => U0 m) c (Proc.devRef .tc r)

/-- Writing a function's own updated value back at the same point changes nothing more. -/
theorem update_update_self {α : Type} [DecidableEq α] {β : α → Type} (f g : (a : α) → β a) (a : α) (v : β a) (h : g = f) :
    Function.update g a (Function.update f a v a) = Function.update f a v := by
  rw [h, Function.update_self]

theorem V0_eq (c : Dev nD) : GenP.V0 m c = U0 m c := rfl
theorem V1_eq (c : Dev nD) : GenP.V1 m c = U1 m c := congrArg (StableHlo.after hostOps0) (V0_eq m c)
theorem V2_eq (c : Dev nD) : GenP.V2 m (outs m) c = U2 m c := update_update_self _ _ _ _ (V1_eq m c)
theorem V3_eq (c : Dev nD) : GenP.V3 m (outs m) c = U3 m c := congrArg (StableHlo.after hostOps1) (V2_eq m c)
theorem V4_eq (c : Dev nD) : GenP.V4 m (outs m) c = U4 m c := update_update_self _ _ _ _ (V3_eq m c)
theorem V5_eq (c : Dev nD) : GenP.V5 m (outs m) c = U5 m c := congrArg (StableHlo.after hostOps2) (V4_eq m c)
theorem V6_eq (c : Dev nD) : GenP.V6 m (outs m) c = U6 m c := update_update_self _ _ _ _ (V5_eq m c)
theorem V7_eq (c : Dev nD) : GenP.V7 m (outs m) c = U7 m c := congrArg (StableHlo.after hostOps3) (V6_eq m c)
theorem V8_eq (c : Dev nD) : GenP.V8 m (outs m) c = U8 m c := update_update_self _ _ _ _ (V7_eq m c)
theorem V9_eq (c : Dev nD) : GenP.V9 m (outs m) c = U9 m c := update_update_self _ _ _ _ (V8_eq m c)
theorem V10_eq (c : Dev nD) : GenP.V10 m (outs m) c = U10 m c := congrArg (StableHlo.after hostOps5) (V9_eq m c)
theorem V11_eq (c : Dev nD) : GenP.V11 m (outs m) c = U11 m c := update_update_self _ _ _ _ (V10_eq m c)
theorem V12_eq (c : Dev nD) : GenP.V12 m (outs m) c = U12 m c := congrArg (StableHlo.after hostOps6) (V11_eq m c)
theorem V13_eq (c : Dev nD) : GenP.V13 m (outs m) c = U13 m c := update_update_self _ _ _ _ (V12_eq m c)
theorem V14_eq (c : Dev nD) : GenP.V14 m (outs m) c = U14 m c := update_update_self _ _ _ _ (V13_eq m c)
theorem V15_eq (c : Dev nD) : GenP.V15 m (outs m) c = U15 m c := congrArg (StableHlo.after hostOps8) (V14_eq m c)
theorem V16_eq (c : Dev nD) : GenP.V16 m (outs m) c = U16 m c := update_update_self _ _ _ _ (V15_eq m c)
theorem V17_eq (c : Dev nD) : GenP.V17 m (outs m) c = U17 m c := congrArg (StableHlo.after hostOps9) (V16_eq m c)
theorem V18_eq (c : Dev nD) : GenP.V18 m (outs m) c = U18 m c := update_update_self _ _ _ _ (V17_eq m c)
theorem V19_eq (c : Dev nD) : GenP.V19 m (outs m) c = U19 m c := congrArg (StableHlo.after hostOps10) (V18_eq m c)
theorem V20_eq (c : Dev nD) : GenP.V20 m (outs m) c = U20 m c := update_update_self _ _ _ _ (V19_eq m c)
theorem V21_eq (c : Dev nD) : GenP.V21 m (outs m) c = U21 m c := update_update_self _ _ _ _ (V20_eq m c)
theorem V22_eq (c : Dev nD) : GenP.V22 m (outs m) c = U22 m c := congrArg (StableHlo.after hostOps12) (V21_eq m c)
theorem V23_eq (c : Dev nD) : GenP.V23 m (outs m) c = U23 m c := update_update_self _ _ _ _ (V22_eq m c)
theorem V24_eq (c : Dev nD) : GenP.V24 m (outs m) c = U24 m c := congrArg (StableHlo.after hostOps13) (V23_eq m c)
theorem V25_eq (c : Dev nD) : GenP.V25 m (outs m) c = U25 m c := update_update_self _ _ _ _ (V24_eq m c)
theorem V26_eq (c : Dev nD) : GenP.V26 m (outs m) c = U26 m c := update_update_self _ _ _ _ (V25_eq m c)
theorem V27_eq (c : Dev nD) : GenP.V27 m (outs m) c = U27 m c := congrArg (StableHlo.after hostOps15) (V26_eq m c)
theorem V28_eq (c : Dev nD) : GenP.V28 m (outs m) c = U28 m c := update_update_self _ _ _ _ (V27_eq m c)
theorem V29_eq (c : Dev nD) : GenP.V29 m (outs m) c = U29 m c := congrArg (StableHlo.after hostOps16) (V28_eq m c)
theorem V30_eq (c : Dev nD) : GenP.V30 m (outs m) c = U30 m c := update_update_self _ _ _ _ (V29_eq m c)
theorem V31_eq (c : Dev nD) : GenP.V31 m (outs m) c = U31 m c := congrArg (StableHlo.after hostOps17) (V30_eq m c)
theorem V32_eq (c : Dev nD) : GenP.V32 m (outs m) c = U32 m c := update_update_self _ _ _ _ (V31_eq m c)
theorem V33_eq (c : Dev nD) : GenP.V33 m (outs m) c = U33 m c := update_update_self _ _ _ _ (V32_eq m c)
theorem V34_eq (c : Dev nD) : GenP.V34 m (outs m) c = U34 m c := congrArg (StableHlo.after hostOps19) (V33_eq m c)
theorem V35_eq (c : Dev nD) : GenP.V35 m (outs m) c = U35 m c := update_update_self _ _ _ _ (V34_eq m c)
theorem V36_eq (c : Dev nD) : GenP.V36 m (outs m) c = U36 m c := congrArg (StableHlo.after hostOps20) (V35_eq m c)
theorem V37_eq (c : Dev nD) : GenP.V37 m (outs m) c = U37 m c := update_update_self _ _ _ _ (V36_eq m c)
theorem V38_eq (c : Dev nD) : GenP.V38 m (outs m) c = U38 m c := update_update_self _ _ _ _ (V37_eq m c)
theorem V39_eq (c : Dev nD) : GenP.V39 m (outs m) c = U39 m c := congrArg (StableHlo.after hostOps22) (V38_eq m c)
theorem V40_eq (c : Dev nD) : GenP.V40 m (outs m) c = U40 m c := update_update_self _ _ _ _ (V39_eq m c)
theorem V41_eq (c : Dev nD) : GenP.V41 m (outs m) c = U41 m c := congrArg (StableHlo.after hostOps23) (V40_eq m c)
theorem V42_eq (c : Dev nD) : GenP.V42 m (outs m) c = U42 m c := update_update_self _ _ _ _ (V41_eq m c)
theorem V43_eq (c : Dev nD) : GenP.V43 m (outs m) c = U43 m c := congrArg (StableHlo.after hostOps24) (V42_eq m c)
theorem V44_eq (c : Dev nD) : GenP.V44 m (outs m) c = U44 m c := update_update_self _ _ _ _ (V43_eq m c)
theorem V45_eq (c : Dev nD) : GenP.V45 m (outs m) c = U45 m c := update_update_self _ _ _ _ (V44_eq m c)
theorem V46_eq (c : Dev nD) : GenP.V46 m (outs m) c = U46 m c := congrArg (StableHlo.after hostOps26) (V45_eq m c)
theorem V47_eq (c : Dev nD) : GenP.V47 m (outs m) c = U47 m c := update_update_self _ _ _ _ (V46_eq m c)
theorem V48_eq (c : Dev nD) : GenP.V48 m (outs m) c = U48 m c := congrArg (StableHlo.after hostOps27) (V47_eq m c)
theorem V49_eq (c : Dev nD) : GenP.V49 m (outs m) c = U49 m c := update_update_self _ _ _ _ (V48_eq m c)
theorem V50_eq (c : Dev nD) : GenP.V50 m (outs m) c = U50 m c := update_update_self _ _ _ _ (V49_eq m c)
theorem V51_eq (c : Dev nD) : GenP.V51 m (outs m) c = U51 m c := congrArg (StableHlo.after hostOps29) (V50_eq m c)
theorem V52_eq (c : Dev nD) : GenP.V52 m (outs m) c = U52 m c := update_update_self _ _ _ _ (V51_eq m c)
theorem V53_eq (c : Dev nD) : GenP.V53 m (outs m) c = U53 m c := congrArg (StableHlo.after hostOps30) (V52_eq m c)
theorem V54_eq (c : Dev nD) : GenP.V54 m (outs m) c = U54 m c := update_update_self _ _ _ _ (V53_eq m c)
theorem V55_eq (c : Dev nD) : GenP.V55 m (outs m) c = U55 m c := congrArg (StableHlo.after hostOps31) (V54_eq m c)
theorem V56_eq (c : Dev nD) : GenP.V56 m (outs m) c = U56 m c := update_update_self _ _ _ _ (V55_eq m c)
theorem V57_eq (c : Dev nD) : GenP.V57 m (outs m) c = U57 m c := update_update_self _ _ _ _ (V56_eq m c)
theorem V58_eq (c : Dev nD) : GenP.V58 m (outs m) c = U58 m c := congrArg (StableHlo.after hostOps33) (V57_eq m c)
theorem V59_eq (c : Dev nD) : GenP.V59 m (outs m) c = U59 m c := update_update_self _ _ _ _ (V58_eq m c)
theorem V60_eq (c : Dev nD) : GenP.V60 m (outs m) c = U60 m c := congrArg (StableHlo.after hostOps34) (V59_eq m c)
theorem V61_eq (c : Dev nD) : GenP.V61 m (outs m) c = U61 m c := update_update_self _ _ _ _ (V60_eq m c)
theorem V62_eq (c : Dev nD) : GenP.V62 m (outs m) c = U62 m c := update_update_self _ _ _ _ (V61_eq m c)
theorem V63_eq (c : Dev nD) : GenP.V63 m (outs m) c = U63 m c := congrArg (StableHlo.after hostOps36) (V62_eq m c)
theorem V64_eq (c : Dev nD) : GenP.V64 m (outs m) c = U64 m c := update_update_self _ _ _ _ (V63_eq m c)
theorem V65_eq (c : Dev nD) : GenP.V65 m (outs m) c = U65 m c := congrArg (StableHlo.after hostOps37) (V64_eq m c)
theorem V66_eq (c : Dev nD) : GenP.V66 m (outs m) c = U66 m c := update_update_self _ _ _ _ (V65_eq m c)
theorem V67_eq (c : Dev nD) : GenP.V67 m (outs m) c = U67 m c := congrArg (StableHlo.after hostOps38) (V66_eq m c)
theorem V68_eq (c : Dev nD) : GenP.V68 m (outs m) c = U68 m c := update_update_self _ _ _ _ (V67_eq m c)
theorem V69_eq (c : Dev nD) : GenP.V69 m (outs m) c = U69 m c := update_update_self _ _ _ _ (V68_eq m c)
theorem V70_eq (c : Dev nD) : GenP.V70 m (outs m) c = U70 m c := congrArg (StableHlo.after hostOps40) (V69_eq m c)
theorem V71_eq (c : Dev nD) : GenP.V71 m (outs m) c = U71 m c := update_update_self _ _ _ _ (V70_eq m c)
theorem V72_eq (c : Dev nD) : GenP.V72 m (outs m) c = U72 m c := congrArg (StableHlo.after hostOps41) (V71_eq m c)
theorem V73_eq (c : Dev nD) : GenP.V73 m (outs m) c = U73 m c := update_update_self _ _ _ _ (V72_eq m c)
theorem V74_eq (c : Dev nD) : GenP.V74 m (outs m) c = U74 m c := update_update_self _ _ _ _ (V73_eq m c)
theorem V75_eq (c : Dev nD) : GenP.V75 m (outs m) c = U75 m c := congrArg (StableHlo.after hostOps43) (V74_eq m c)
theorem V76_eq (c : Dev nD) : GenP.V76 m (outs m) c = U76 m c := update_update_self _ _ _ _ (V75_eq m c)
theorem V77_eq (c : Dev nD) : GenP.V77 m (outs m) c = U77 m c := congrArg (StableHlo.after hostOps44) (V76_eq m c)
theorem V78_eq (c : Dev nD) : GenP.V78 m (outs m) c = U78 m c := update_update_self _ _ _ _ (V77_eq m c)
theorem V79_eq (c : Dev nD) : GenP.V79 m (outs m) c = U79 m c := congrArg (StableHlo.after hostOps45) (V78_eq m c)
theorem V80_eq (c : Dev nD) : GenP.V80 m (outs m) c = U80 m c := update_update_self _ _ _ _ (V79_eq m c)
theorem V81_eq (c : Dev nD) : GenP.V81 m (outs m) c = U81 m c := update_update_self _ _ _ _ (V80_eq m c)
theorem V82_eq (c : Dev nD) : GenP.V82 m (outs m) c = U82 m c := congrArg (StableHlo.after hostOps47) (V81_eq m c)
theorem V83_eq (c : Dev nD) : GenP.V83 m (outs m) c = U83 m c := update_update_self _ _ _ _ (V82_eq m c)
theorem V84_eq (c : Dev nD) : GenP.V84 m (outs m) c = U84 m c := congrArg (StableHlo.after hostOps48) (V83_eq m c)
theorem V85_eq (c : Dev nD) : GenP.V85 m (outs m) c = U85 m c := update_update_self _ _ _ _ (V84_eq m c)
theorem V86_eq (c : Dev nD) : GenP.V86 m (outs m) c = U86 m c := update_update_self _ _ _ _ (V85_eq m c)
theorem V87_eq (c : Dev nD) : GenP.V87 m (outs m) c = U87 m c := congrArg (StableHlo.after hostOps50) (V86_eq m c)
theorem V88_eq (c : Dev nD) : GenP.V88 m (outs m) c = U88 m c := update_update_self _ _ _ _ (V87_eq m c)
theorem V89_eq (c : Dev nD) : GenP.V89 m (outs m) c = U89 m c := congrArg (StableHlo.after hostOps51) (V88_eq m c)
theorem V90_eq (c : Dev nD) : GenP.V90 m (outs m) c = U90 m c := update_update_self _ _ _ _ (V89_eq m c)
theorem V91_eq (c : Dev nD) : GenP.V91 m (outs m) c = U91 m c := congrArg (StableHlo.after hostOps52) (V90_eq m c)
theorem V92_eq (c : Dev nD) : GenP.V92 m (outs m) c = U92 m c := update_update_self _ _ _ _ (V91_eq m c)
theorem V93_eq (c : Dev nD) : GenP.V93 m (outs m) c = U93 m c := update_update_self _ _ _ _ (V92_eq m c)
theorem V94_eq (c : Dev nD) : GenP.V94 m (outs m) c = U94 m c := congrArg (StableHlo.after hostOps54) (V93_eq m c)
theorem V95_eq (c : Dev nD) : GenP.V95 m (outs m) c = U95 m c := update_update_self _ _ _ _ (V94_eq m c)
theorem V96_eq (c : Dev nD) : GenP.V96 m (outs m) c = U96 m c := congrArg (StableHlo.after hostOps55) (V95_eq m c)
theorem V97_eq (c : Dev nD) : GenP.V97 m (outs m) c = U97 m c := update_update_self _ _ _ _ (V96_eq m c)
theorem V98_eq (c : Dev nD) : GenP.V98 m (outs m) c = U98 m c := update_update_self _ _ _ _ (V97_eq m c)
theorem V99_eq (c : Dev nD) : GenP.V99 m (outs m) c = U99 m c := congrArg (StableHlo.after hostOps57) (V98_eq m c)
theorem V100_eq (c : Dev nD) : GenP.V100 m (outs m) c = U100 m c := update_update_self _ _ _ _ (V99_eq m c)
theorem V101_eq (c : Dev nD) : GenP.V101 m (outs m) c = U101 m c := congrArg (StableHlo.after hostOps58) (V100_eq m c)
theorem V102_eq (c : Dev nD) : GenP.V102 m (outs m) c = U102 m c := update_update_self _ _ _ _ (V101_eq m c)
theorem V103_eq (c : Dev nD) : GenP.V103 m (outs m) c = U103 m c := congrArg (StableHlo.after hostOps59) (V102_eq m c)
theorem V104_eq (c : Dev nD) : GenP.V104 m (outs m) c = U104 m c := congrArg (StableHlo.after hostOps59_1) (V103_eq m c)
theorem V105_eq (c : Dev nD) : GenP.V105 m (outs m) c = U105 m c := update_update_self _ _ _ _ (V104_eq m c)
theorem V106_eq (c : Dev nD) : GenP.V106 m (outs m) c = U106 m c := congrArg (StableHlo.after hostOps60) (V105_eq m c)

/-- Every pipeline's proof data, each at the contents its region is entered from: a literal match on the pipeline. -/
def pdats : (p : Fin 60) → (c : Dev nD) → Dat τ (Elt F) Unit ℕ (UR sig nD τ) ℕ (cfgs p) c
  | ⟨0, _⟩ => fun c => dat0 (fun c b => U1 m c b) c
  | ⟨1, _⟩ => fun c => dat1 (fun c b => U3 m c b) c
  | ⟨2, _⟩ => fun c => dat2 (fun c b => U5 m c b) c
  | ⟨3, _⟩ => fun c => dat3 (fun c b => U7 m c b) c
  | ⟨4, _⟩ => fun c => dat4 (fun c b => U8 m c b) c
  | ⟨5, _⟩ => fun c => dat5 (fun c b => U10 m c b) c
  | ⟨6, _⟩ => fun c => dat6 (fun c b => U12 m c b) c
  | ⟨7, _⟩ => fun c => dat7 (fun c b => U13 m c b) c
  | ⟨8, _⟩ => fun c => dat8 (fun c b => U15 m c b) c
  | ⟨9, _⟩ => fun c => dat9 (fun c b => U17 m c b) c
  | ⟨10, _⟩ => fun c => dat10 (fun c b => U19 m c b) c
  | ⟨11, _⟩ => fun c => dat11 (fun c b => U20 m c b) c
  | ⟨12, _⟩ => fun c => dat12 (fun c b => U22 m c b) c
  | ⟨13, _⟩ => fun c => dat13 (fun c b => U24 m c b) c
  | ⟨14, _⟩ => fun c => dat14 (fun c b => U25 m c b) c
  | ⟨15, _⟩ => fun c => dat15 (fun c b => U27 m c b) c
  | ⟨16, _⟩ => fun c => dat16 (fun c b => U29 m c b) c
  | ⟨17, _⟩ => fun c => dat17 (fun c b => U31 m c b) c
  | ⟨18, _⟩ => fun c => dat18 (fun c b => U32 m c b) c
  | ⟨19, _⟩ => fun c => dat19 (fun c b => U34 m c b) c
  | ⟨20, _⟩ => fun c => dat20 (fun c b => U36 m c b) c
  | ⟨21, _⟩ => fun c => dat21 (fun c b => U37 m c b) c
  | ⟨22, _⟩ => fun c => dat22 (fun c b => U39 m c b) c
  | ⟨23, _⟩ => fun c => dat23 (fun c b => U41 m c b) c
  | ⟨24, _⟩ => fun c => dat24 (fun c b => U43 m c b) c
  | ⟨25, _⟩ => fun c => dat25 (fun c b => U44 m c b) c
  | ⟨26, _⟩ => fun c => dat26 (fun c b => U46 m c b) c
  | ⟨27, _⟩ => fun c => dat27 (fun c b => U48 m c b) c
  | ⟨28, _⟩ => fun c => dat28 (fun c b => U49 m c b) c
  | ⟨29, _⟩ => fun c => dat29 (fun c b => U51 m c b) c
  | ⟨30, _⟩ => fun c => dat30 (fun c b => U53 m c b) c
  | ⟨31, _⟩ => fun c => dat31 (fun c b => U55 m c b) c
  | ⟨32, _⟩ => fun c => dat32 (fun c b => U56 m c b) c
  | ⟨33, _⟩ => fun c => dat33 (fun c b => U58 m c b) c
  | ⟨34, _⟩ => fun c => dat34 (fun c b => U60 m c b) c
  | ⟨35, _⟩ => fun c => dat35 (fun c b => U61 m c b) c
  | ⟨36, _⟩ => fun c => dat36 (fun c b => U63 m c b) c
  | ⟨37, _⟩ => fun c => dat37 (fun c b => U65 m c b) c
  | ⟨38, _⟩ => fun c => dat38 (fun c b => U67 m c b) c
  | ⟨39, _⟩ => fun c => dat39 (fun c b => U68 m c b) c
  | ⟨40, _⟩ => fun c => dat40 (fun c b => U70 m c b) c
  | ⟨41, _⟩ => fun c => dat41 (fun c b => U72 m c b) c
  | ⟨42, _⟩ => fun c => dat42 (fun c b => U73 m c b) c
  | ⟨43, _⟩ => fun c => dat43 (fun c b => U75 m c b) c
  | ⟨44, _⟩ => fun c => dat44 (fun c b => U77 m c b) c
  | ⟨45, _⟩ => fun c => dat45 (fun c b => U79 m c b) c
  | ⟨46, _⟩ => fun c => dat46 (fun c b => U80 m c b) c
  | ⟨47, _⟩ => fun c => dat47 (fun c b => U82 m c b) c
  | ⟨48, _⟩ => fun c => dat48 (fun c b => U84 m c b) c
  | ⟨49, _⟩ => fun c => dat49 (fun c b => U85 m c b) c
  | ⟨50, _⟩ => fun c => dat50 (fun c b => U87 m c b) c
  | ⟨51, _⟩ => fun c => dat51 (fun c b => U89 m c b) c
  | ⟨52, _⟩ => fun c => dat52 (fun c b => U91 m c b) c
  | ⟨53, _⟩ => fun c => dat53 (fun c b => U92 m c b) c
  | ⟨54, _⟩ => fun c => dat54 (fun c b => U94 m c b) c
  | ⟨55, _⟩ => fun c => dat55 (fun c b => U96 m c b) c
  | ⟨56, _⟩ => fun c => dat56 (fun c b => U97 m c b) c
  | ⟨57, _⟩ => fun c => dat57 (fun c b => U99 m c b) c
  | ⟨58, _⟩ => fun c => dat58 (fun c b => U101 m c b) c
  | ⟨59, _⟩ => fun c => dat59 (fun c b => U104 m c b) c
  | ⟨_ + 60, h⟩ => absurd h (Nat.not_lt.2 (Nat.le_add_left _ _))

/-! ## The arguments end as launched -/

theorem U106_arg0 (c : Dev nD) : U106 m c (Proc.devRef .tc main_arg0) = m ((c : Thread nD τ).loc main_arg0) :=
  (congrFun (V106_eq m c).symm _).trans (GenP.V106_main_arg0 m (outs m) c)
theorem U106_arg1 (c : Dev nD) : U106 m c (Proc.devRef .tc main_arg1) = m ((c : Thread nD τ).loc main_arg1) :=
  (congrFun (V106_eq m c).symm _).trans (GenP.V106_main_arg1 m (outs m) c)
theorem U106_arg2 (c : Dev nD) : U106 m c (Proc.devRef .tc main_arg2) = m ((c : Thread nD τ).loc main_arg2) :=
  (congrFun (V106_eq m c).symm _).trans (GenP.V106_main_arg2 m (outs m) c)
theorem U106_arg3 (c : Dev nD) : U106 m c (Proc.devRef .tc main_arg3) = m ((c : Thread nD τ).loc main_arg3) :=
  (congrFun (V106_eq m c).symm _).trans (GenP.V106_main_arg3 m (outs m) c)
theorem U106_arg4 (c : Dev nD) : U106 m c (Proc.devRef .tc main_arg4) = m ((c : Thread nD τ).loc main_arg4) :=
  (congrFun (V106_eq m c).symm _).trans (GenP.V106_main_arg4 m (outs m) c)
theorem U106_arg5 (c : Dev nD) : U106 m c (Proc.devRef .tc main_arg5) = m ((c : Thread nD τ).loc main_arg5) :=
  (congrFun (V106_eq m c).symm _).trans (GenP.V106_main_arg5 m (outs m) c)
theorem U106_arg6 (c : Dev nD) : U106 m c (Proc.devRef .tc main_arg6) = m ((c : Thread nD τ).loc main_arg6) :=
  (congrFun (V106_eq m c).symm _).trans (GenP.V106_main_arg6 m (outs m) c)
theorem U106_arg7 (c : Dev nD) : U106 m c (Proc.devRef .tc main_arg7) = m ((c : Thread nD τ).loc main_arg7) :=
  (congrFun (V106_eq m c).symm _).trans (GenP.V106_main_arg7 m (outs m) c)
theorem U106_arg8 (c : Dev nD) : U106 m c (Proc.devRef .tc main_arg8) = m ((c : Thread nD τ).loc main_arg8) :=
  (congrFun (V106_eq m c).symm _).trans (GenP.V106_main_arg8 m (outs m) c)
theorem U106_arg9 (c : Dev nD) : U106 m c (Proc.devRef .tc main_arg9) = m ((c : Thread nD τ).loc main_arg9) :=
  (congrFun (V106_eq m c).symm _).trans (GenP.V106_main_arg9 m (outs m) c)
theorem U106_arg10 (c : Dev nD) : U106 m c (Proc.devRef .tc main_arg10) = m ((c : Thread nD τ).loc main_arg10) :=
  (congrFun (V106_eq m c).symm _).trans (GenP.V106_main_arg10 m (outs m) c)
theorem U106_arg11 (c : Dev nD) : U106 m c (Proc.devRef .tc main_arg11) = m ((c : Thread nD τ).loc main_arg11) :=
  (congrFun (V106_eq m c).symm _).trans (GenP.V106_main_arg11 m (outs m) c)
theorem U106_arg12 (c : Dev nD) : U106 m c (Proc.devRef .tc main_arg12) = m ((c : Thread nD τ).loc main_arg12) :=
  (congrFun (V106_eq m c).symm _).trans (GenP.V106_main_arg12 m (outs m) c)
theorem U106_arg13 (c : Dev nD) : U106 m c (Proc.devRef .tc main_arg13) = m ((c : Thread nD τ).loc main_arg13) :=
  (congrFun (V106_eq m c).symm _).trans (GenP.V106_main_arg13 m (outs m) c)
theorem U106_arg14 (c : Dev nD) : U106 m c (Proc.devRef .tc main_arg14) = m ((c : Thread nD τ).loc main_arg14) :=
  (congrFun (V106_eq m c).symm _).trans (GenP.V106_main_arg14 m (outs m) c)

end Cert.Kernel.Hand

end
-- ==== Proof.ChainRegK.lean ====
/-
  A kernel region of @main as a segment over the thread state "every unscoped buffer at a valuation, the generator register at
  some state, nothing owed": the record, once, for any pipeline of the program, from the pipeline's launch facts, the valuations
  the region is entered from and left at, and what a region module proves of its proof data (its entry arrays are the
  valuation's, full shares, nothing owed, the body obligation, the class invariant at the two ends). The arrays split out of the
  unscoped buffers at entry and are put back at exit at the valuation updated at the output window's array.
-/
import proofs.«158944_j64613488001249_1_alg».proof.Proof.RegionsK
import Idealize.ShloMosaic.Lib.Pipeline.Frame
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

/-- No core owes another anything: no level is assigned. -/
abbrev L : GSem nD τ sig → Finset Unit := fun _ => ∅
abbrev lv : GSem nD τ sig → Unit → ℕ := fun _ _ => 0

/-- What rides beside the buffers through every segment: the core's generator register at some state and its owes, at
    nothing. -/
abbrev Ride (c : Dev nD) : sProp 𝕄 := iprop((∃ r, prngReg c r) ∗ ∃ W, owes (c : Thread nD τ) (0 : CellTallies nD τ sig Unit) W)

/-! ## The exit valuation: the entry valuation updated at the output window's array -/

/-- At the exit every array of the pipeline holds what the write-backs leave: the output window's by the update, an input
    window's (never written: its array is as entered, and is another buffer than the output's) by the entry valuation. -/
theorem hF_of {cfg : Pipeline.Cfg sig Λ₀} {c : Dev nD} (dat : Dat τ (Elt F) Unit ℕ (UR sig nD τ) ℕ cfg c)
    (W : Valuation τ sig (Elt F)) (w₂ : Fin cfg.W)
    (hA : ∀ w, dat.A w = W (Proc.devRef .tc (Pipeline.arrRef cfg.spec w)))
    (hio : ∀ w, w ≠ w₂ → (cfg.win w).isOut = false ∧ Pipeline.arrRef cfg.spec w ≠ Pipeline.arrRef cfg.spec w₂) (w : Fin cfg.W) :
    dat.arrAt w cfg.N
      = Function.update W (Proc.devRef .tc (Pipeline.arrRef cfg.spec w₂)) (dat.arrAt w₂ cfg.N) (Proc.devRef .tc (Pipeline.arrRef cfg.spec w)) := by
  by_cases h : w = w₂
  · subst h; rw [Function.update_self]
  · rw [Function.update_of_ne (StableHlo.devRef_ne_of_ne (hio w h).2), dat.arrAt_in w (hio w h).1, hA]

/-- Off the pipeline's arrays the exit valuation is the entry valuation. -/
theorem hrest_of {cfg : Pipeline.Cfg sig Λ₀} {c : Dev nD} (W : Valuation τ sig (Elt F)) (w₂ : Fin cfg.W)
    (x : Buf (Elt F) ((cfg.win w₂).arr.view.loc (c : Thread nD τ))) (b : Ref sig .tc)
    (hb : b ∉ Finset.univ.image (Pipeline.arrRef cfg.spec)) :
    Function.update W (Proc.devRef .tc (Pipeline.arrRef cfg.spec w₂)) x (Proc.devRef .tc b) = W (Proc.devRef .tc b) :=
  Function.update_of_ne (StableHlo.devRef_ne_of_ne fun e => hb (Finset.mem_image.mpr ⟨w₂, Finset.mem_univ _, e.symm⟩)) _ _

/-! ## The record -/

-- the pipeline's configuration as the library states it and as the program prints it are the same after unfolding definitions
set_option maxHeartbeats 4000000 in
set_option backward.isDefEq.respectTransparency.types false in
/-- Region `p` over the thread state: entered from every unscoped buffer at `V`, left at `V'`. Its arrays split out of the
    unscoped buffers at entry and are put back at the exit contents; the generator register goes into the class invariant and
    comes back; nothing is owed; the kernel has no semaphore of its own. -/
noncomputable def regOf (pd : (p : Fin 60) → (c : Dev nD) → Dat τ (Elt F) Unit ℕ (UR sig nD τ) ℕ (cfgs p) c) (p : Fin 60)
    (lf : Pipeline.LaunchFacts (nD := nD) (τ := τ) cfgs p) (V V' : Dev nD → Valuation τ sig (Elt F))
    (hq : ∀ c w, (pd p c).q w = fullShare) (howed : ∀ c t, (pd p c).owed t = 0) (hrec : ∀ c t, (pd p c).recorded t = Set.univ)
    (hA : ∀ c w, (pd p c).A w = V c (Proc.devRef .tc (Pipeline.arrRef (cfgs p).spec w)))
    (hbody : ∀ c, BodyObligation (pd p c) (defs₀ (F := F)) Variants.none () Set.univ)
    (hin : ∀ c, Pipeline.ΦA (cfgs p).spec c ⊢ (pd p c).Φ 0)
    (hout : ∀ c, (pd p c).Φ (Fin.last (cfgs p).N) ⊢ Pipeline.ΦA (cfgs p).spec c)
    (hF : ∀ c w, (pd p c).arrAt w (cfgs p).N = V' c (Proc.devRef .tc (Pipeline.arrRef (cfgs p).spec w)))
    (hrest : ∀ c (b : Ref sig .tc), b ∉ Finset.univ.image (Pipeline.arrRef (cfgs p).spec) → V' c (Proc.devRef .tc b) = V c (Proc.devRef .tc b)) :
    RegionSeg (pcfgs (F := F)) GenP.adm pd () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ Ride c)
  post c := iprop(StableHlo.held (c : Thread nD τ) (Pipeline.ucRefs τ sig) (V' c) ∗ Ride c)
  X c := iprop(∃ r, prngReg c r)
  Y c := iprop(∃ r, prngReg c r)
  Z c := Pipeline.unscopedRest (Ix := Unit) (Name := ℕ) (U := UR sig nD τ) (Lvl := ℕ) (cfgs p).spec c (fun b => V c (Proc.devRef .tc b))
  hentry c := by
    rw [Pipeline.ownSems0_none]
    have hsplit := Pipeline.arrays_of_unscopedBufs (p := p) (pcfgs (F := F)) GenP.adm pd lf.win lf.arr_whole c
      ((pd p c).share_full (hq c)) (fun b => V c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) GenP.adm (Ix := Unit) (Name := ℕ) (U := UR sig nD τ) (Lvl := ℕ)
      lf.win lf.arr_whole c pd ((pd p c).share_full (hq c))
      (fun b => V c (Proc.devRef .tc b)) (fun b => V' c (Proc.devRef .tc b)) ((pd p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

/-! ## Chaining -/

/-- The thread state at one valuation is the thread state at an equal one. -/
theorem chain_eq (c : Dev nD) {W W' : Valuation τ sig (Elt F)} (h : W = W') :
    (iprop(StableHlo.held (c : Thread nD τ) (Pipeline.ucRefs τ sig) W ∗ Ride c) : sProp 𝕄)
      ⊢ iprop(StableHlo.held (c : Thread nD τ) (Pipeline.ucRefs τ sig) W' ∗ Ride c) := by
  subst h; exact .rfl

/-- The last thread state: the buffers and the generator register, beside the core owing nothing. -/
theorem chain_end (c : Dev nD) {W W' : Valuation τ sig (Elt F)} (h : W = W') :
    (iprop(StableHlo.held (c : Thread nD τ) (Pipeline.ucRefs τ sig) W ∗ Ride c) : sProp 𝕄)
      ⊢ iprop((StableHlo.held (c : Thread nD τ) (Pipeline.ucRefs τ sig) W' ∗ ∃ r, prngReg c r)
          ∗ ∃ Wo, owes (c : Thread nD τ) (0 : CellTallies nD τ sig Unit) Wo) := by
  subst h
  iintro ⟨Hh, Hp, HO⟩
  isplitl [Hh Hp]
  · isplitl [Hh]; · iexact Hh
    iexact Hp
  iexact HO

end Cert.Kernel.Hand

end
-- ==== Proof.ChainRegsK0.lean ====
import proofs.«158944_j64613488001249_1_alg».proof.Proof.ChainValsK
import proofs.«158944_j64613488001249_1_alg».proof.Proof.ChainRegK

/-! # The regions of @main as segments: one record per region: the record `regOf`, stated once for any pipeline of the
    program, at the region's pipeline, its launch facts, the valuations it is entered from and left at, and the region
    module's facts. -/

set_option maxRecDepth 16384

noncomputable section

namespace Cert.Kernel.Hand

open Cert.Kernel Cert.Kernel.Gen Cert.Kernel.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

variable (m : (ℓ : Loc nD τ sig) → Buf (Elt F) ℓ)

/-- Region 0 (item 1): entered from `U1`, left at `U2`, which differs at `main_v17` only. -/
noncomputable def reg0 : RegionSeg (pcfgs (F := F)) GenP.adm (pdats m) () defs₀ Variants.none L lv 0 :=
  regOf (pdats m) 0 launch0 (U1 m) (U2 m) (fun _ _ => rfl) (fun _ _ => rfl) (fun _ _ => rfl)
    (fun c w => A_eq0 (fun c b => U1 m c b) c w) (fun c => body_obligation0 (fun c b => U1 m c b) c) (fun c => hin0 (fun c b => U1 m c b) c) (fun c => hout0 (fun c b => U1 m c b) c)
    (fun c => hF_of (pdats m 0 c) (U1 m c) (2 : Fin cfg0.W) (fun w => A_eq0 (fun c b => U1 m c b) c w) (by decide))
    (fun c => hrest_of (U1 m c) (2 : Fin cfg0.W) _)

/-- Region 1 (item 3): entered from `U3`, left at `U4`, which differs at `main_v26` only. -/
noncomputable def reg1 : RegionSeg (pcfgs (F := F)) GenP.adm (pdats m) () defs₀ Variants.none L lv 1 :=
  regOf (pdats m) 1 launch1 (U3 m) (U4 m) (fun _ _ => rfl) (fun _ _ => rfl) (fun _ _ => rfl)
    (fun c w => A_eq1 (fun c b => U3 m c b) c w) (fun c => body_obligation1 (fun c b => U3 m c b) c) (fun c => hin1 (fun c b => U3 m c b) c) (fun c => hout1 (fun c b => U3 m c b) c)
    (fun c => hF_of (pdats m 1 c) (U3 m c) (2 : Fin cfg1.W) (fun w => A_eq1 (fun c b => U3 m c b) c w) (by decide))
    (fun c => hrest_of (U3 m c) (2 : Fin cfg1.W) _)

/-- Region 2 (item 5): entered from `U5`, left at `U6`, which differs at `main_v30` only. -/
noncomputable def reg2 : RegionSeg (pcfgs (F := F)) GenP.adm (pdats m) () defs₀ Variants.none L lv 2 :=
  regOf (pdats m) 2 launch2 (U5 m) (U6 m) (fun _ _ => rfl) (fun _ _ => rfl) (fun _ _ => rfl)
    (fun c w => A_eq2 (fun c b => U5 m c b) c w) (fun c => body_obligation2 (fun c b => U5 m c b) c) (fun c => hin2 (fun c b => U5 m c b) c) (fun c => hout2 (fun c b => U5 m c b) c)
    (fun c => hF_of (pdats m 2 c) (U5 m c) (2 : Fin cfg2.W) (fun w => A_eq2 (fun c b => U5 m c b) c w) (by decide))
    (fun c => hrest_of (U5 m c) (2 : Fin cfg2.W) _)

/-- Region 3 (item 7): entered from `U7`, left at `U8`, which differs at `main_v34` only. -/
noncomputable def reg3 : RegionSeg (pcfgs (F := F)) GenP.adm (pdats m) () defs₀ Variants.none L lv 3 :=
  regOf (pdats m) 3 launch3 (U7 m) (U8 m) (fun _ _ => rfl) (fun _ _ => rfl) (fun _ _ => rfl)
    (fun c w => A_eq3 (fun c b => U7 m c b) c w) (fun c => body_obligation3 (fun c b => U7 m c b) c) (fun c => hin3 (fun c b => U7 m c b) c) (fun c => hout3 (fun c b => U7 m c b) c)
    (fun c => hF_of (pdats m 3 c) (U7 m c) (2 : Fin cfg3.W) (fun w => A_eq3 (fun c b => U7 m c b) c w) (by decide))
    (fun c => hrest_of (U7 m c) (2 : Fin cfg3.W) _)

/-- Region 4 (item 8): entered from `U8`, left at `U9`, which differs at `main_v35` only. -/
noncomputable def reg4 : RegionSeg (pcfgs (F := F)) GenP.adm (pdats m) () defs₀ Variants.none L lv 4 :=
  regOf (pdats m) 4 launch4 (U8 m) (U9 m) (fun _ _ => rfl) (fun _ _ => rfl) (fun _ _ => rfl)
    (fun c w => A_eq4 (fun c b => U8 m c b) c w) (fun c => body_obligation4 (fun c b => U8 m c b) c) (fun c => hin4 (fun c b => U8 m c b) c) (fun c => hout4 (fun c b => U8 m c b) c)
    (fun c => hF_of (pdats m 4 c) (U8 m c) (2 : Fin cfg4.W) (fun w => A_eq4 (fun c b => U8 m c b) c w) (by decide))
    (fun c => hrest_of (U8 m c) (2 : Fin cfg4.W) _)

/-- Region 5 (item 10): entered from `U10`, left at `U11`, which differs at `main_v39` only. -/
noncomputable def reg5 : RegionSeg (pcfgs (F := F)) GenP.adm (pdats m) () defs₀ Variants.none L lv 5 :=
  regOf (pdats m) 5 launch5 (U10 m) (U11 m) (fun _ _ => rfl) (fun _ _ => rfl) (fun _ _ => rfl)
    (fun c w => A_eq5 (fun c b => U10 m c b) c w) (fun c => body_obligation5 (fun c b => U10 m c b) c) (fun c => hin5 (fun c b => U10 m c b) c) (fun c => hout5 (fun c b => U10 m c b) c)
    (fun c => hF_of (pdats m 5 c) (U10 m c) (2 : Fin cfg5.W) (fun w => A_eq5 (fun c b => U10 m c b) c w) (by decide))
    (fun c => hrest_of (U10 m c) (2 : Fin cfg5.W) _)

/-- Region 6 (item 12): entered from `U12`, left at `U13`, which differs at `main_v43` only. -/
noncomputable def reg6 : RegionSeg (pcfgs (F := F)) GenP.adm (pdats m) () defs₀ Variants.none L lv 6 :=
  regOf (pdats m) 6 launch6 (U12 m) (U13 m) (fun _ _ => rfl) (fun _ _ => rfl) (fun _ _ => rfl)
    (fun c w => A_eq6 (fun c b => U12 m c b) c w) (fun c => body_obligation6 (fun c b => U12 m c b) c) (fun c => hin6 (fun c b => U12 m c b) c) (fun c => hout6 (fun c b => U12 m c b) c)
    (fun c => hF_of (pdats m 6 c) (U12 m c) (2 : Fin cfg6.W) (fun w => A_eq6 (fun c b => U12 m c b) c w) (by decide))
    (fun c => hrest_of (U12 m c) (2 : Fin cfg6.W) _)

/-- Region 7 (item 13): entered from `U13`, left at `U14`, which differs at `main_v44` only. -/
noncomputable def reg7 : RegionSeg (pcfgs (F := F)) GenP.adm (pdats m) () defs₀ Variants.none L lv 7 :=
  regOf (pdats m) 7 launch7 (U13 m) (U14 m) (fun _ _ => rfl) (fun _ _ => rfl) (fun _ _ => rfl)
    (fun c w => A_eq7 (fun c b => U13 m c b) c w) (fun c => body_obligation7 (fun c b => U13 m c b) c) (fun c => hin7 (fun c b => U13 m c b) c) (fun c => hout7 (fun c b => U13 m c b) c)
    (fun c => hF_of (pdats m 7 c) (U13 m c) (2 : Fin cfg7.W) (fun w => A_eq7 (fun c b => U13 m c b) c w) (by decide))
    (fun c => hrest_of (U13 m c) (2 : Fin cfg7.W) _)

/-- Region 8 (item 15): entered from `U15`, left at `U16`, which differs at `main_v63` only. -/
noncomputable def reg8 : RegionSeg (pcfgs (F := F)) GenP.adm (pdats m) () defs₀ Variants.none L lv 8 :=
  regOf (pdats m) 8 launch8 (U15 m) (U16 m) (fun _ _ => rfl) (fun _ _ => rfl) (fun _ _ => rfl)
    (fun c w => A_eq8 (fun c b => U15 m c b) c w) (fun c => body_obligation8 (fun c b => U15 m c b) c) (fun c => hin8 (fun c b => U15 m c b) c) (fun c => hout8 (fun c b => U15 m c b) c)
    (fun c => hF_of (pdats m 8 c) (U15 m c) (2 : Fin cfg8.W) (fun w => A_eq8 (fun c b => U15 m c b) c w) (by decide))
    (fun c => hrest_of (U15 m c) (2 : Fin cfg8.W) _)

/-- Region 9 (item 17): entered from `U17`, left at `U18`, which differs at `main_v67` only. -/
noncomputable def reg9 : RegionSeg (pcfgs (F := F)) GenP.adm (pdats m) () defs₀ Variants.none L lv 9 :=
  regOf (pdats m) 9 launch9 (U17 m) (U18 m) (fun _ _ => rfl) (fun _ _ => rfl) (fun _ _ => rfl)
    (fun c w => A_eq9 (fun c b => U17 m c b) c w) (fun c => body_obligation9 (fun c b => U17 m c b) c) (fun c => hin9 (fun c b => U17 m c b) c) (fun c => hout9 (fun c b => U17 m c b) c)
    (fun c => hF_of (pdats m 9 c) (U17 m c) (2 : Fin cfg9.W) (fun w => A_eq9 (fun c b => U17 m c b) c w) (by decide))
    (fun c => hrest_of (U17 m c) (2 : Fin cfg9.W) _)

/-- Region 10 (item 19): entered from `U19`, left at `U20`, which differs at `main_v71` only. -/
noncomputable def reg10 : RegionSeg (pcfgs (F := F)) GenP.adm (pdats m) () defs₀ Variants.none L lv 10 :=
  regOf (pdats m) 10 launch10 (U19 m) (U20 m) (fun _ _ => rfl) (fun _ _ => rfl) (fun _ _ => rfl)
    (fun c w => A_eq10 (fun c b => U19 m c b) c w) (fun c => body_obligation10 (fun c b => U19 m c b) c) (fun c => hin10 (fun c b => U19 m c b) c) (fun c => hout10 (fun c b => U19 m c b) c)
    (fun c => hF_of (pdats m 10 c) (U19 m c) (2 : Fin cfg10.W) (fun w => A_eq10 (fun c b => U19 m c b) c w) (by decide))
    (fun c => hrest_of (U19 m c) (2 : Fin cfg10.W) _)

/-- Region 11 (item 20): entered from `U20`, left at `U21`, which differs at `main_v72` only. -/
noncomputable def reg11 : RegionSeg (pcfgs (F := F)) GenP.adm (pdats m) () defs₀ Variants.none L lv 11 :=
  regOf (pdats m) 11 launch11 (U20 m) (U21 m) (fun _ _ => rfl) (fun _ _ => rfl) (fun _ _ => rfl)
    (fun c w => A_eq11 (fun c b => U20 m c b) c w) (fun c => body_obligation11 (fun c b => U20 m c b) c) (fun c => hin11 (fun c b => U20 m c b) c) (fun c => hout11 (fun c b => U20 m c b) c)
    (fun c => hF_of (pdats m 11 c) (U20 m c) (2 : Fin cfg11.W) (fun w => A_eq11 (fun c b => U20 m c b) c w) (by decide))
    (fun c => hrest_of (U20 m c) (2 : Fin cfg11.W) _)

/-- Region 12 (item 22): entered from `U22`, left at `U23`, which differs at `main_v76` only. -/
noncomputable def reg12 : RegionSeg (pcfgs (F := F)) GenP.adm (pdats m) () defs₀ Variants.none L lv 12 :=
  regOf (pdats m) 12 launch12 (U22 m) (U23 m) (fun _ _ => rfl) (fun _ _ => rfl) (fun _ _ => rfl)
    (fun c w => A_eq12 (fun c b => U22 m c b) c w) (fun c => body_obligation12 (fun c b => U22 m c b) c) (fun c => hin12 (fun c b => U22 m c b) c) (fun c => hout12 (fun c b => U22 m c b) c)
    (fun c => hF_of (pdats m 12 c) (U22 m c) (2 : Fin cfg12.W) (fun w => A_eq12 (fun c b => U22 m c b) c w) (by decide))
    (fun c => hrest_of (U22 m c) (2 : Fin cfg12.W) _)

/-- Region 13 (item 24): entered from `U24`, left at `U25`, which differs at `main_v80` only. -/
noncomputable def reg13 : RegionSeg (pcfgs (F := F)) GenP.adm (pdats m) () defs₀ Variants.none L lv 13 :=
  regOf (pdats m) 13 launch13 (U24 m) (U25 m) (fun _ _ => rfl) (fun _ _ => rfl) (fun _ _ => rfl)
    (fun c w => A_eq13 (fun c b => U24 m c b) c w) (fun c => body_obligation13 (fun c b => U24 m c b) c) (fun c => hin13 (fun c b => U24 m c b) c) (fun c => hout13 (fun c b => U24 m c b) c)
    (fun c => hF_of (pdats m 13 c) (U24 m c) (2 : Fin cfg13.W) (fun w => A_eq13 (fun c b => U24 m c b) c w) (by decide))
    (fun c => hrest_of (U24 m c) (2 : Fin cfg13.W) _)

/-- Region 14 (item 25): entered from `U25`, left at `U26`, which differs at `main_v81` only. -/
noncomputable def reg14 : RegionSeg (pcfgs (F := F)) GenP.adm (pdats m) () defs₀ Variants.none L lv 14 :=
  regOf (pdats m) 14 launch14 (U25 m) (U26 m) (fun _ _ => rfl) (fun _ _ => rfl) (fun _ _ => rfl)
    (fun c w => A_eq14 (fun c b => U25 m c b) c w) (fun c => body_obligation14 (fun c b => U25 m c b) c) (fun c => hin14 (fun c b => U25 m c b) c) (fun c => hout14 (fun c b => U25 m c b) c)
    (fun c => hF_of (pdats m 14 c) (U25 m c) (2 : Fin cfg14.W) (fun w => A_eq14 (fun c b => U25 m c b) c w) (by decide))
    (fun c => hrest_of (U25 m c) (2 : Fin cfg14.W) _)

/-- Region 15 (item 27): entered from `U27`, left at `U28`, which differs at `main_v100` only. -/
noncomputable def reg15 : RegionSeg (pcfgs (F := F)) GenP.adm (pdats m) () defs₀ Variants.none L lv 15 :=
  regOf (pdats m) 15 launch15 (U27 m) (U28 m) (fun _ _ => rfl) (fun _ _ => rfl) (fun _ _ => rfl)
    (fun c w => A_eq15 (fun c b => U27 m c b) c w) (fun c => body_obligation15 (fun c b => U27 m c b) c) (fun c => hin15 (fun c b => U27 m c b) c) (fun c => hout15 (fun c b => U27 m c b) c)
    (fun c => hF_of (pdats m 15 c) (U27 m c) (2 : Fin cfg15.W) (fun w => A_eq15 (fun c b => U27 m c b) c w) (by decide))
    (fun c => hrest_of (U27 m c) (2 : Fin cfg15.W) _)

/-- Region 16 (item 29): entered from `U29`, left at `U30`, which differs at `main_v104` only. -/
noncomputable def reg16 : RegionSeg (pcfgs (F := F)) GenP.adm (pdats m) () defs₀ Variants.none L lv 16 :=
  regOf (pdats m) 16 launch16 (U29 m) (U30 m) (fun _ _ => rfl) (fun _ _ => rfl) (fun _ _ => rfl)
    (fun c w => A_eq16 (fun c b => U29 m c b) c w) (fun c => body_obligation16 (fun c b => U29 m c b) c) (fun c => hin16 (fun c b => U29 m c b) c) (fun c => hout16 (fun c b => U29 m c b) c)
    (fun c => hF_of (pdats m 16 c) (U29 m c) (2 : Fin cfg16.W) (fun w => A_eq16 (fun c b => U29 m c b) c w) (by decide))
    (fun c => hrest_of (U29 m c) (2 : Fin cfg16.W) _)

/-- Region 17 (item 31): entered from `U31`, left at `U32`, which differs at `main_v108` only. -/
noncomputable def reg17 : RegionSeg (pcfgs (F := F)) GenP.adm (pdats m) () defs₀ Variants.none L lv 17 :=
  regOf (pdats m) 17 launch17 (U31 m) (U32 m) (fun _ _ => rfl) (fun _ _ => rfl) (fun _ _ => rfl)
    (fun c w => A_eq17 (fun c b => U31 m c b) c w) (fun c => body_obligation17 (fun c b => U31 m c b) c) (fun c => hin17 (fun c b => U31 m c b) c) (fun c => hout17 (fun c b => U31 m c b) c)
    (fun c => hF_of (pdats m 17 c) (U31 m c) (2 : Fin cfg17.W) (fun w => A_eq17 (fun c b => U31 m c b) c w) (by decide))
    (fun c => hrest_of (U31 m c) (2 : Fin cfg17.W) _)

/-- Region 18 (item 32): entered from `U32`, left at `U33`, which differs at `main_v109` only. -/
noncomputable def reg18 : RegionSeg (pcfgs (F := F)) GenP.adm (pdats m) () defs₀ Variants.none L lv 18 :=
  regOf (pdats m) 18 launch18 (U32 m) (U33 m) (fun _ _ => rfl) (fun _ _ => rfl) (fun _ _ => rfl)
    (fun c w => A_eq18 (fun c b => U32 m c b) c w) (fun c => body_obligation18 (fun c b => U32 m c b) c) (fun c => hin18 (fun c b => U32 m c b) c) (fun c => hout18 (fun c b => U32 m c b) c)
    (fun c => hF_of (pdats m 18 c) (U32 m c) (2 : Fin cfg18.W) (fun w => A_eq18 (fun c b => U32 m c b) c w) (by decide))
    (fun c => hrest_of (U32 m c) (2 : Fin cfg18.W) _)

/-- Region 19 (item 34): entered from `U34`, left at `U35`, which differs at `main_v113` only. -/
noncomputable def reg19 : RegionSeg (pcfgs (F := F)) GenP.adm (pdats m) () defs₀ Variants.none L lv 19 :=
  regOf (pdats m) 19 launch19 (U34 m) (U35 m) (fun _ _ => rfl) (fun _ _ => rfl) (fun _ _ => rfl)
    (fun c w => A_eq19 (fun c b => U34 m c b) c w) (fun c => body_obligation19 (fun c b => U34 m c b) c) (fun c => hin19 (fun c b => U34 m c b) c) (fun c => hout19 (fun c b => U34 m c b) c)
    (fun c => hF_of (pdats m 19 c) (U34 m c) (2 : Fin cfg19.W) (fun w => A_eq19 (fun c b => U34 m c b) c w) (by decide))
    (fun c => hrest_of (U34 m c) (2 : Fin cfg19.W) _)

end Cert.Kernel.Hand

end
-- ==== Proof.ChainRegsK1.lean ====
import proofs.«158944_j64613488001249_1_alg».proof.Proof.ChainValsK
import proofs.«158944_j64613488001249_1_alg».proof.Proof.ChainRegK

/-! # The regions of @main as segments: one record per region: the record `regOf`, stated once for any pipeline of the
    program, at the region's pipeline, its launch facts, the valuations it is entered from and left at, and the region
    module's facts. -/

set_option maxRecDepth 16384

noncomputable section

namespace Cert.Kernel.Hand

open Cert.Kernel Cert.Kernel.Gen Cert.Kernel.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

variable (m : (ℓ : Loc nD τ sig) → Buf (Elt F) ℓ)

/-- Region 20 (item 36): entered from `U36`, left at `U37`, which differs at `main_v117` only. -/
noncomputable def reg20 : RegionSeg (pcfgs (F := F)) GenP.adm (pdats m) () defs₀ Variants.none L lv 20 :=
  regOf (pdats m) 20 launch20 (U36 m) (U37 m) (fun _ _ => rfl) (fun _ _ => rfl) (fun _ _ => rfl)
    (fun c w => A_eq20 (fun c b => U36 m c b) c w) (fun c => body_obligation20 (fun c b => U36 m c b) c) (fun c => hin20 (fun c b => U36 m c b) c) (fun c => hout20 (fun c b => U36 m c b) c)
    (fun c => hF_of (pdats m 20 c) (U36 m c) (2 : Fin cfg20.W) (fun w => A_eq20 (fun c b => U36 m c b) c w) (by decide))
    (fun c => hrest_of (U36 m c) (2 : Fin cfg20.W) _)

/-- Region 21 (item 37): entered from `U37`, left at `U38`, which differs at `main_v118` only. -/
noncomputable def reg21 : RegionSeg (pcfgs (F := F)) GenP.adm (pdats m) () defs₀ Variants.none L lv 21 :=
  regOf (pdats m) 21 launch21 (U37 m) (U38 m) (fun _ _ => rfl) (fun _ _ => rfl) (fun _ _ => rfl)
    (fun c w => A_eq21 (fun c b => U37 m c b) c w) (fun c => body_obligation21 (fun c b => U37 m c b) c) (fun c => hin21 (fun c b => U37 m c b) c) (fun c => hout21 (fun c b => U37 m c b) c)
    (fun c => hF_of (pdats m 21 c) (U37 m c) (2 : Fin cfg21.W) (fun w => A_eq21 (fun c b => U37 m c b) c w) (by decide))
    (fun c => hrest_of (U37 m c) (2 : Fin cfg21.W) _)

/-- Region 22 (item 39): entered from `U39`, left at `U40`, which differs at `main_v137` only. -/
noncomputable def reg22 : RegionSeg (pcfgs (F := F)) GenP.adm (pdats m) () defs₀ Variants.none L lv 22 :=
  regOf (pdats m) 22 launch22 (U39 m) (U40 m) (fun _ _ => rfl) (fun _ _ => rfl) (fun _ _ => rfl)
    (fun c w => A_eq22 (fun c b => U39 m c b) c w) (fun c => body_obligation22 (fun c b => U39 m c b) c) (fun c => hin22 (fun c b => U39 m c b) c) (fun c => hout22 (fun c b => U39 m c b) c)
    (fun c => hF_of (pdats m 22 c) (U39 m c) (2 : Fin cfg22.W) (fun w => A_eq22 (fun c b => U39 m c b) c w) (by decide))
    (fun c => hrest_of (U39 m c) (2 : Fin cfg22.W) _)

/-- Region 23 (item 41): entered from `U41`, left at `U42`, which differs at `main_v141` only. -/
noncomputable def reg23 : RegionSeg (pcfgs (F := F)) GenP.adm (pdats m) () defs₀ Variants.none L lv 23 :=
  regOf (pdats m) 23 launch23 (U41 m) (U42 m) (fun _ _ => rfl) (fun _ _ => rfl) (fun _ _ => rfl)
    (fun c w => A_eq23 (fun c b => U41 m c b) c w) (fun c => body_obligation23 (fun c b => U41 m c b) c) (fun c => hin23 (fun c b => U41 m c b) c) (fun c => hout23 (fun c b => U41 m c b) c)
    (fun c => hF_of (pdats m 23 c) (U41 m c) (2 : Fin cfg23.W) (fun w => A_eq23 (fun c b => U41 m c b) c w) (by decide))
    (fun c => hrest_of (U41 m c) (2 : Fin cfg23.W) _)

/-- Region 24 (item 43): entered from `U43`, left at `U44`, which differs at `main_v145` only. -/
noncomputable def reg24 : RegionSeg (pcfgs (F := F)) GenP.adm (pdats m) () defs₀ Variants.none L lv 24 :=
  regOf (pdats m) 24 launch24 (U43 m) (U44 m) (fun _ _ => rfl) (fun _ _ => rfl) (fun _ _ => rfl)
    (fun c w => A_eq24 (fun c b => U43 m c b) c w) (fun c => body_obligation24 (fun c b => U43 m c b) c) (fun c => hin24 (fun c b => U43 m c b) c) (fun c => hout24 (fun c b => U43 m c b) c)
    (fun c => hF_of (pdats m 24 c) (U43 m c) (2 : Fin cfg24.W) (fun w => A_eq24 (fun c b => U43 m c b) c w) (by decide))
    (fun c => hrest_of (U43 m c) (2 : Fin cfg24.W) _)

/-- Region 25 (item 44): entered from `U44`, left at `U45`, which differs at `main_v146` only. -/
noncomputable def reg25 : RegionSeg (pcfgs (F := F)) GenP.adm (pdats m) () defs₀ Variants.none L lv 25 :=
  regOf (pdats m) 25 launch25 (U44 m) (U45 m) (fun _ _ => rfl) (fun _ _ => rfl) (fun _ _ => rfl)
    (fun c w => A_eq25 (fun c b => U44 m c b) c w) (fun c => body_obligation25 (fun c b => U44 m c b) c) (fun c => hin25 (fun c b => U44 m c b) c) (fun c => hout25 (fun c b => U44 m c b) c)
    (fun c => hF_of (pdats m 25 c) (U44 m c) (2 : Fin cfg25.W) (fun w => A_eq25 (fun c b => U44 m c b) c w) (by decide))
    (fun c => hrest_of (U44 m c) (2 : Fin cfg25.W) _)

/-- Region 26 (item 46): entered from `U46`, left at `U47`, which differs at `main_v150` only. -/
noncomputable def reg26 : RegionSeg (pcfgs (F := F)) GenP.adm (pdats m) () defs₀ Variants.none L lv 26 :=
  regOf (pdats m) 26 launch26 (U46 m) (U47 m) (fun _ _ => rfl) (fun _ _ => rfl) (fun _ _ => rfl)
    (fun c w => A_eq26 (fun c b => U46 m c b) c w) (fun c => body_obligation26 (fun c b => U46 m c b) c) (fun c => hin26 (fun c b => U46 m c b) c) (fun c => hout26 (fun c b => U46 m c b) c)
    (fun c => hF_of (pdats m 26 c) (U46 m c) (2 : Fin cfg26.W) (fun w => A_eq26 (fun c b => U46 m c b) c w) (by decide))
    (fun c => hrest_of (U46 m c) (2 : Fin cfg26.W) _)

/-- Region 27 (item 48): entered from `U48`, left at `U49`, which differs at `main_v154` only. -/
noncomputable def reg27 : RegionSeg (pcfgs (F := F)) GenP.adm (pdats m) () defs₀ Variants.none L lv 27 :=
  regOf (pdats m) 27 launch27 (U48 m) (U49 m) (fun _ _ => rfl) (fun _ _ => rfl) (fun _ _ => rfl)
    (fun c w => A_eq27 (fun c b => U48 m c b) c w) (fun c => body_obligation27 (fun c b => U48 m c b) c) (fun c => hin27 (fun c b => U48 m c b) c) (fun c => hout27 (fun c b => U48 m c b) c)
    (fun c => hF_of (pdats m 27 c) (U48 m c) (2 : Fin cfg27.W) (fun w => A_eq27 (fun c b => U48 m c b) c w) (by decide))
    (fun c => hrest_of (U48 m c) (2 : Fin cfg27.W) _)

/-- Region 28 (item 49): entered from `U49`, left at `U50`, which differs at `main_v155` only. -/
noncomputable def reg28 : RegionSeg (pcfgs (F := F)) GenP.adm (pdats m) () defs₀ Variants.none L lv 28 :=
  regOf (pdats m) 28 launch28 (U49 m) (U50 m) (fun _ _ => rfl) (fun _ _ => rfl) (fun _ _ => rfl)
    (fun c w => A_eq28 (fun c b => U49 m c b) c w) (fun c => body_obligation28 (fun c b => U49 m c b) c) (fun c => hin28 (fun c b => U49 m c b) c) (fun c => hout28 (fun c b => U49 m c b) c)
    (fun c => hF_of (pdats m 28 c) (U49 m c) (2 : Fin cfg28.W) (fun w => A_eq28 (fun c b => U49 m c b) c w) (by decide))
    (fun c => hrest_of (U49 m c) (2 : Fin cfg28.W) _)

/-- Region 29 (item 51): entered from `U51`, left at `U52`, which differs at `main_v174` only. -/
noncomputable def reg29 : RegionSeg (pcfgs (F := F)) GenP.adm (pdats m) () defs₀ Variants.none L lv 29 :=
  regOf (pdats m) 29 launch29 (U51 m) (U52 m) (fun _ _ => rfl) (fun _ _ => rfl) (fun _ _ => rfl)
    (fun c w => A_eq29 (fun c b => U51 m c b) c w) (fun c => body_obligation29 (fun c b => U51 m c b) c) (fun c => hin29 (fun c b => U51 m c b) c) (fun c => hout29 (fun c b => U51 m c b) c)
    (fun c => hF_of (pdats m 29 c) (U51 m c) (2 : Fin cfg29.W) (fun w => A_eq29 (fun c b => U51 m c b) c w) (by decide))
    (fun c => hrest_of (U51 m c) (2 : Fin cfg29.W) _)

/-- Region 30 (item 53): entered from `U53`, left at `U54`, which differs at `main_v178` only. -/
noncomputable def reg30 : RegionSeg (pcfgs (F := F)) GenP.adm (pdats m) () defs₀ Variants.none L lv 30 :=
  regOf (pdats m) 30 launch30 (U53 m) (U54 m) (fun _ _ => rfl) (fun _ _ => rfl) (fun _ _ => rfl)
    (fun c w => A_eq30 (fun c b => U53 m c b) c w) (fun c => body_obligation30 (fun c b => U53 m c b) c) (fun c => hin30 (fun c b => U53 m c b) c) (fun c => hout30 (fun c b => U53 m c b) c)
    (fun c => hF_of (pdats m 30 c) (U53 m c) (2 : Fin cfg30.W) (fun w => A_eq30 (fun c b => U53 m c b) c w) (by decide))
    (fun c => hrest_of (U53 m c) (2 : Fin cfg30.W) _)

/-- Region 31 (item 55): entered from `U55`, left at `U56`, which differs at `main_v182` only. -/
noncomputable def reg31 : RegionSeg (pcfgs (F := F)) GenP.adm (pdats m) () defs₀ Variants.none L lv 31 :=
  regOf (pdats m) 31 launch31 (U55 m) (U56 m) (fun _ _ => rfl) (fun _ _ => rfl) (fun _ _ => rfl)
    (fun c w => A_eq31 (fun c b => U55 m c b) c w) (fun c => body_obligation31 (fun c b => U55 m c b) c) (fun c => hin31 (fun c b => U55 m c b) c) (fun c => hout31 (fun c b => U55 m c b) c)
    (fun c => hF_of (pdats m 31 c) (U55 m c) (2 : Fin cfg31.W) (fun w => A_eq31 (fun c b => U55 m c b) c w) (by decide))
    (fun c => hrest_of (U55 m c) (2 : Fin cfg31.W) _)

/-- Region 32 (item 56): entered from `U56`, left at `U57`, which differs at `main_v183` only. -/
noncomputable def reg32 : RegionSeg (pcfgs (F := F)) GenP.adm (pdats m) () defs₀ Variants.none L lv 32 :=
  regOf (pdats m) 32 launch32 (U56 m) (U57 m) (fun _ _ => rfl) (fun _ _ => rfl) (fun _ _ => rfl)
    (fun c w => A_eq32 (fun c b => U56 m c b) c w) (fun c => body_obligation32 (fun c b => U56 m c b) c) (fun c => hin32 (fun c b => U56 m c b) c) (fun c => hout32 (fun c b => U56 m c b) c)
    (fun c => hF_of (pdats m 32 c) (U56 m c) (2 : Fin cfg32.W) (fun w => A_eq32 (fun c b => U56 m c b) c w) (by decide))
    (fun c => hrest_of (U56 m c) (2 : Fin cfg32.W) _)

/-- Region 33 (item 58): entered from `U58`, left at `U59`, which differs at `main_v187` only. -/
noncomputable def reg33 : RegionSeg (pcfgs (F := F)) GenP.adm (pdats m) () defs₀ Variants.none L lv 33 :=
  regOf (pdats m) 33 launch33 (U58 m) (U59 m) (fun _ _ => rfl) (fun _ _ => rfl) (fun _ _ => rfl)
    (fun c w => A_eq33 (fun c b => U58 m c b) c w) (fun c => body_obligation33 (fun c b => U58 m c b) c) (fun c => hin33 (fun c b => U58 m c b) c) (fun c => hout33 (fun c b => U58 m c b) c)
    (fun c => hF_of (pdats m 33 c) (U58 m c) (2 : Fin cfg33.W) (fun w => A_eq33 (fun c b => U58 m c b) c w) (by decide))
    (fun c => hrest_of (U58 m c) (2 : Fin cfg33.W) _)

/-- Region 34 (item 60): entered from `U60`, left at `U61`, which differs at `main_v191` only. -/
noncomputable def reg34 : RegionSeg (pcfgs (F := F)) GenP.adm (pdats m) () defs₀ Variants.none L lv 34 :=
  regOf (pdats m) 34 launch34 (U60 m) (U61 m) (fun _ _ => rfl) (fun _ _ => rfl) (fun _ _ => rfl)
    (fun c w => A_eq34 (fun c b => U60 m c b) c w) (fun c => body_obligation34 (fun c b => U60 m c b) c) (fun c => hin34 (fun c b => U60 m c b) c) (fun c => hout34 (fun c b => U60 m c b) c)
    (fun c => hF_of (pdats m 34 c) (U60 m c) (2 : Fin cfg34.W) (fun w => A_eq34 (fun c b => U60 m c b) c w) (by decide))
    (fun c => hrest_of (U60 m c) (2 : Fin cfg34.W) _)

/-- Region 35 (item 61): entered from `U61`, left at `U62`, which differs at `main_v192` only. -/
noncomputable def reg35 : RegionSeg (pcfgs (F := F)) GenP.adm (pdats m) () defs₀ Variants.none L lv 35 :=
  regOf (pdats m) 35 launch35 (U61 m) (U62 m) (fun _ _ => rfl) (fun _ _ => rfl) (fun _ _ => rfl)
    (fun c w => A_eq35 (fun c b => U61 m c b) c w) (fun c => body_obligation35 (fun c b => U61 m c b) c) (fun c => hin35 (fun c b => U61 m c b) c) (fun c => hout35 (fun c b => U61 m c b) c)
    (fun c => hF_of (pdats m 35 c) (U61 m c) (2 : Fin cfg35.W) (fun w => A_eq35 (fun c b => U61 m c b) c w) (by decide))
    (fun c => hrest_of (U61 m c) (2 : Fin cfg35.W) _)

/-- Region 36 (item 63): entered from `U63`, left at `U64`, which differs at `main_v211` only. -/
noncomputable def reg36 : RegionSeg (pcfgs (F := F)) GenP.adm (pdats m) () defs₀ Variants.none L lv 36 :=
  regOf (pdats m) 36 launch36 (U63 m) (U64 m) (fun _ _ => rfl) (fun _ _ => rfl) (fun _ _ => rfl)
    (fun c w => A_eq36 (fun c b => U63 m c b) c w) (fun c => body_obligation36 (fun c b => U63 m c b) c) (fun c => hin36 (fun c b => U63 m c b) c) (fun c => hout36 (fun c b => U63 m c b) c)
    (fun c => hF_of (pdats m 36 c) (U63 m c) (2 : Fin cfg36.W) (fun w => A_eq36 (fun c b => U63 m c b) c w) (by decide))
    (fun c => hrest_of (U63 m c) (2 : Fin cfg36.W) _)

/-- Region 37 (item 65): entered from `U65`, left at `U66`, which differs at `main_v215` only. -/
noncomputable def reg37 : RegionSeg (pcfgs (F := F)) GenP.adm (pdats m) () defs₀ Variants.none L lv 37 :=
  regOf (pdats m) 37 launch37 (U65 m) (U66 m) (fun _ _ => rfl) (fun _ _ => rfl) (fun _ _ => rfl)
    (fun c w => A_eq37 (fun c b => U65 m c b) c w) (fun c => body_obligation37 (fun c b => U65 m c b) c) (fun c => hin37 (fun c b => U65 m c b) c) (fun c => hout37 (fun c b => U65 m c b) c)
    (fun c => hF_of (pdats m 37 c) (U65 m c) (2 : Fin cfg37.W) (fun w => A_eq37 (fun c b => U65 m c b) c w) (by decide))
    (fun c => hrest_of (U65 m c) (2 : Fin cfg37.W) _)

/-- Region 38 (item 67): entered from `U67`, left at `U68`, which differs at `main_v219` only. -/
noncomputable def reg38 : RegionSeg (pcfgs (F := F)) GenP.adm (pdats m) () defs₀ Variants.none L lv 38 :=
  regOf (pdats m) 38 launch38 (U67 m) (U68 m) (fun _ _ => rfl) (fun _ _ => rfl) (fun _ _ => rfl)
    (fun c w => A_eq38 (fun c b => U67 m c b) c w) (fun c => body_obligation38 (fun c b => U67 m c b) c) (fun c => hin38 (fun c b => U67 m c b) c) (fun c => hout38 (fun c b => U67 m c b) c)
    (fun c => hF_of (pdats m 38 c) (U67 m c) (2 : Fin cfg38.W) (fun w => A_eq38 (fun c b => U67 m c b) c w) (by decide))
    (fun c => hrest_of (U67 m c) (2 : Fin cfg38.W) _)

/-- Region 39 (item 68): entered from `U68`, left at `U69`, which differs at `main_v220` only. -/
noncomputable def reg39 : RegionSeg (pcfgs (F := F)) GenP.adm (pdats m) () defs₀ Variants.none L lv 39 :=
  regOf (pdats m) 39 launch39 (U68 m) (U69 m) (fun _ _ => rfl) (fun _ _ => rfl) (fun _ _ => rfl)
    (fun c w => A_eq39 (fun c b => U68 m c b) c w) (fun c => body_obligation39 (fun c b => U68 m c b) c) (fun c => hin39 (fun c b => U68 m c b) c) (fun c => hout39 (fun c b => U68 m c b) c)
    (fun c => hF_of (pdats m 39 c) (U68 m c) (2 : Fin cfg39.W) (fun w => A_eq39 (fun c b => U68 m c b) c w) (by decide))
    (fun c => hrest_of (U68 m c) (2 : Fin cfg39.W) _)

end Cert.Kernel.Hand

end
-- ==== Proof.ChainRegsK2.lean ====
import proofs.«158944_j64613488001249_1_alg».proof.Proof.ChainValsK
import proofs.«158944_j64613488001249_1_alg».proof.Proof.ChainRegK

/-! # The regions of @main as segments: one record per region: the record `regOf`, stated once for any pipeline of the
    program, at the region's pipeline, its launch facts, the valuations it is entered from and left at, and the region
    module's facts. -/

set_option maxRecDepth 16384

noncomputable section

namespace Cert.Kernel.Hand

open Cert.Kernel Cert.Kernel.Gen Cert.Kernel.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

variable (m : (ℓ : Loc nD τ sig) → Buf (Elt F) ℓ)

/-- Region 40 (item 70): entered from `U70`, left at `U71`, which differs at `main_v224` only. -/
noncomputable def reg40 : RegionSeg (pcfgs (F := F)) GenP.adm (pdats m) () defs₀ Variants.none L lv 40 :=
  regOf (pdats m) 40 launch40 (U70 m) (U71 m) (fun _ _ => rfl) (fun _ _ => rfl) (fun _ _ => rfl)
    (fun c w => A_eq40 (fun c b => U70 m c b) c w) (fun c => body_obligation40 (fun c b => U70 m c b) c) (fun c => hin40 (fun c b => U70 m c b) c) (fun c => hout40 (fun c b => U70 m c b) c)
    (fun c => hF_of (pdats m 40 c) (U70 m c) (2 : Fin cfg40.W) (fun w => A_eq40 (fun c b => U70 m c b) c w) (by decide))
    (fun c => hrest_of (U70 m c) (2 : Fin cfg40.W) _)

/-- Region 41 (item 72): entered from `U72`, left at `U73`, which differs at `main_v228` only. -/
noncomputable def reg41 : RegionSeg (pcfgs (F := F)) GenP.adm (pdats m) () defs₀ Variants.none L lv 41 :=
  regOf (pdats m) 41 launch41 (U72 m) (U73 m) (fun _ _ => rfl) (fun _ _ => rfl) (fun _ _ => rfl)
    (fun c w => A_eq41 (fun c b => U72 m c b) c w) (fun c => body_obligation41 (fun c b => U72 m c b) c) (fun c => hin41 (fun c b => U72 m c b) c) (fun c => hout41 (fun c b => U72 m c b) c)
    (fun c => hF_of (pdats m 41 c) (U72 m c) (2 : Fin cfg41.W) (fun w => A_eq41 (fun c b => U72 m c b) c w) (by decide))
    (fun c => hrest_of (U72 m c) (2 : Fin cfg41.W) _)

/-- Region 42 (item 73): entered from `U73`, left at `U74`, which differs at `main_v229` only. -/
noncomputable def reg42 : RegionSeg (pcfgs (F := F)) GenP.adm (pdats m) () defs₀ Variants.none L lv 42 :=
  regOf (pdats m) 42 launch42 (U73 m) (U74 m) (fun _ _ => rfl) (fun _ _ => rfl) (fun _ _ => rfl)
    (fun c w => A_eq42 (fun c b => U73 m c b) c w) (fun c => body_obligation42 (fun c b => U73 m c b) c) (fun c => hin42 (fun c b => U73 m c b) c) (fun c => hout42 (fun c b => U73 m c b) c)
    (fun c => hF_of (pdats m 42 c) (U73 m c) (2 : Fin cfg42.W) (fun w => A_eq42 (fun c b => U73 m c b) c w) (by decide))
    (fun c => hrest_of (U73 m c) (2 : Fin cfg42.W) _)

/-- Region 43 (item 75): entered from `U75`, left at `U76`, which differs at `main_v248` only. -/
noncomputable def reg43 : RegionSeg (pcfgs (F := F)) GenP.adm (pdats m) () defs₀ Variants.none L lv 43 :=
  regOf (pdats m) 43 launch43 (U75 m) (U76 m) (fun _ _ => rfl) (fun _ _ => rfl) (fun _ _ => rfl)
    (fun c w => A_eq43 (fun c b => U75 m c b) c w) (fun c => body_obligation43 (fun c b => U75 m c b) c) (fun c => hin43 (fun c b => U75 m c b) c) (fun c => hout43 (fun c b => U75 m c b) c)
    (fun c => hF_of (pdats m 43 c) (U75 m c) (2 : Fin cfg43.W) (fun w => A_eq43 (fun c b => U75 m c b) c w) (by decide))
    (fun c => hrest_of (U75 m c) (2 : Fin cfg43.W) _)

/-- Region 44 (item 77): entered from `U77`, left at `U78`, which differs at `main_v252` only. -/
noncomputable def reg44 : RegionSeg (pcfgs (F := F)) GenP.adm (pdats m) () defs₀ Variants.none L lv 44 :=
  regOf (pdats m) 44 launch44 (U77 m) (U78 m) (fun _ _ => rfl) (fun _ _ => rfl) (fun _ _ => rfl)
    (fun c w => A_eq44 (fun c b => U77 m c b) c w) (fun c => body_obligation44 (fun c b => U77 m c b) c) (fun c => hin44 (fun c b => U77 m c b) c) (fun c => hout44 (fun c b => U77 m c b) c)
    (fun c => hF_of (pdats m 44 c) (U77 m c) (2 : Fin cfg44.W) (fun w => A_eq44 (fun c b => U77 m c b) c w) (by decide))
    (fun c => hrest_of (U77 m c) (2 : Fin cfg44.W) _)

/-- Region 45 (item 79): entered from `U79`, left at `U80`, which differs at `main_v256` only. -/
noncomputable def reg45 : RegionSeg (pcfgs (F := F)) GenP.adm (pdats m) () defs₀ Variants.none L lv 45 :=
  regOf (pdats m) 45 launch45 (U79 m) (U80 m) (fun _ _ => rfl) (fun _ _ => rfl) (fun _ _ => rfl)
    (fun c w => A_eq45 (fun c b => U79 m c b) c w) (fun c => body_obligation45 (fun c b => U79 m c b) c) (fun c => hin45 (fun c b => U79 m c b) c) (fun c => hout45 (fun c b => U79 m c b) c)
    (fun c => hF_of (pdats m 45 c) (U79 m c) (2 : Fin cfg45.W) (fun w => A_eq45 (fun c b => U79 m c b) c w) (by decide))
    (fun c => hrest_of (U79 m c) (2 : Fin cfg45.W) _)

/-- Region 46 (item 80): entered from `U80`, left at `U81`, which differs at `main_v257` only. -/
noncomputable def reg46 : RegionSeg (pcfgs (F := F)) GenP.adm (pdats m) () defs₀ Variants.none L lv 46 :=
  regOf (pdats m) 46 launch46 (U80 m) (U81 m) (fun _ _ => rfl) (fun _ _ => rfl) (fun _ _ => rfl)
    (fun c w => A_eq46 (fun c b => U80 m c b) c w) (fun c => body_obligation46 (fun c b => U80 m c b) c) (fun c => hin46 (fun c b => U80 m c b) c) (fun c => hout46 (fun c b => U80 m c b) c)
    (fun c => hF_of (pdats m 46 c) (U80 m c) (2 : Fin cfg46.W) (fun w => A_eq46 (fun c b => U80 m c b) c w) (by decide))
    (fun c => hrest_of (U80 m c) (2 : Fin cfg46.W) _)

/-- Region 47 (item 82): entered from `U82`, left at `U83`, which differs at `main_v261` only. -/
noncomputable def reg47 : RegionSeg (pcfgs (F := F)) GenP.adm (pdats m) () defs₀ Variants.none L lv 47 :=
  regOf (pdats m) 47 launch47 (U82 m) (U83 m) (fun _ _ => rfl) (fun _ _ => rfl) (fun _ _ => rfl)
    (fun c w => A_eq47 (fun c b => U82 m c b) c w) (fun c => body_obligation47 (fun c b => U82 m c b) c) (fun c => hin47 (fun c b => U82 m c b) c) (fun c => hout47 (fun c b => U82 m c b) c)
    (fun c => hF_of (pdats m 47 c) (U82 m c) (2 : Fin cfg47.W) (fun w => A_eq47 (fun c b => U82 m c b) c w) (by decide))
    (fun c => hrest_of (U82 m c) (2 : Fin cfg47.W) _)

/-- Region 48 (item 84): entered from `U84`, left at `U85`, which differs at `main_v265` only. -/
noncomputable def reg48 : RegionSeg (pcfgs (F := F)) GenP.adm (pdats m) () defs₀ Variants.none L lv 48 :=
  regOf (pdats m) 48 launch48 (U84 m) (U85 m) (fun _ _ => rfl) (fun _ _ => rfl) (fun _ _ => rfl)
    (fun c w => A_eq48 (fun c b => U84 m c b) c w) (fun c => body_obligation48 (fun c b => U84 m c b) c) (fun c => hin48 (fun c b => U84 m c b) c) (fun c => hout48 (fun c b => U84 m c b) c)
    (fun c => hF_of (pdats m 48 c) (U84 m c) (2 : Fin cfg48.W) (fun w => A_eq48 (fun c b => U84 m c b) c w) (by decide))
    (fun c => hrest_of (U84 m c) (2 : Fin cfg48.W) _)

/-- Region 49 (item 85): entered from `U85`, left at `U86`, which differs at `main_v266` only. -/
noncomputable def reg49 : RegionSeg (pcfgs (F := F)) GenP.adm (pdats m) () defs₀ Variants.none L lv 49 :=
  regOf (pdats m) 49 launch49 (U85 m) (U86 m) (fun _ _ => rfl) (fun _ _ => rfl) (fun _ _ => rfl)
    (fun c w => A_eq49 (fun c b => U85 m c b) c w) (fun c => body_obligation49 (fun c b => U85 m c b) c) (fun c => hin49 (fun c b => U85 m c b) c) (fun c => hout49 (fun c b => U85 m c b) c)
    (fun c => hF_of (pdats m 49 c) (U85 m c) (2 : Fin cfg49.W) (fun w => A_eq49 (fun c b => U85 m c b) c w) (by decide))
    (fun c => hrest_of (U85 m c) (2 : Fin cfg49.W) _)

/-- Region 50 (item 87): entered from `U87`, left at `U88`, which differs at `main_v285` only. -/
noncomputable def reg50 : RegionSeg (pcfgs (F := F)) GenP.adm (pdats m) () defs₀ Variants.none L lv 50 :=
  regOf (pdats m) 50 launch50 (U87 m) (U88 m) (fun _ _ => rfl) (fun _ _ => rfl) (fun _ _ => rfl)
    (fun c w => A_eq50 (fun c b => U87 m c b) c w) (fun c => body_obligation50 (fun c b => U87 m c b) c) (fun c => hin50 (fun c b => U87 m c b) c) (fun c => hout50 (fun c b => U87 m c b) c)
    (fun c => hF_of (pdats m 50 c) (U87 m c) (2 : Fin cfg50.W) (fun w => A_eq50 (fun c b => U87 m c b) c w) (by decide))
    (fun c => hrest_of (U87 m c) (2 : Fin cfg50.W) _)

/-- Region 51 (item 89): entered from `U89`, left at `U90`, which differs at `main_v289` only. -/
noncomputable def reg51 : RegionSeg (pcfgs (F := F)) GenP.adm (pdats m) () defs₀ Variants.none L lv 51 :=
  regOf (pdats m) 51 launch51 (U89 m) (U90 m) (fun _ _ => rfl) (fun _ _ => rfl) (fun _ _ => rfl)
    (fun c w => A_eq51 (fun c b => U89 m c b) c w) (fun c => body_obligation51 (fun c b => U89 m c b) c) (fun c => hin51 (fun c b => U89 m c b) c) (fun c => hout51 (fun c b => U89 m c b) c)
    (fun c => hF_of (pdats m 51 c) (U89 m c) (2 : Fin cfg51.W) (fun w => A_eq51 (fun c b => U89 m c b) c w) (by decide))
    (fun c => hrest_of (U89 m c) (2 : Fin cfg51.W) _)

/-- Region 52 (item 91): entered from `U91`, left at `U92`, which differs at `main_v293` only. -/
noncomputable def reg52 : RegionSeg (pcfgs (F := F)) GenP.adm (pdats m) () defs₀ Variants.none L lv 52 :=
  regOf (pdats m) 52 launch52 (U91 m) (U92 m) (fun _ _ => rfl) (fun _ _ => rfl) (fun _ _ => rfl)
    (fun c w => A_eq52 (fun c b => U91 m c b) c w) (fun c => body_obligation52 (fun c b => U91 m c b) c) (fun c => hin52 (fun c b => U91 m c b) c) (fun c => hout52 (fun c b => U91 m c b) c)
    (fun c => hF_of (pdats m 52 c) (U91 m c) (2 : Fin cfg52.W) (fun w => A_eq52 (fun c b => U91 m c b) c w) (by decide))
    (fun c => hrest_of (U91 m c) (2 : Fin cfg52.W) _)

/-- Region 53 (item 92): entered from `U92`, left at `U93`, which differs at `main_v294` only. -/
noncomputable def reg53 : RegionSeg (pcfgs (F := F)) GenP.adm (pdats m) () defs₀ Variants.none L lv 53 :=
  regOf (pdats m) 53 launch53 (U92 m) (U93 m) (fun _ _ => rfl) (fun _ _ => rfl) (fun _ _ => rfl)
    (fun c w => A_eq53 (fun c b => U92 m c b) c w) (fun c => body_obligation53 (fun c b => U92 m c b) c) (fun c => hin53 (fun c b => U92 m c b) c) (fun c => hout53 (fun c b => U92 m c b) c)
    (fun c => hF_of (pdats m 53 c) (U92 m c) (2 : Fin cfg53.W) (fun w => A_eq53 (fun c b => U92 m c b) c w) (by decide))
    (fun c => hrest_of (U92 m c) (2 : Fin cfg53.W) _)

/-- Region 54 (item 94): entered from `U94`, left at `U95`, which differs at `main_v298` only. -/
noncomputable def reg54 : RegionSeg (pcfgs (F := F)) GenP.adm (pdats m) () defs₀ Variants.none L lv 54 :=
  regOf (pdats m) 54 launch54 (U94 m) (U95 m) (fun _ _ => rfl) (fun _ _ => rfl) (fun _ _ => rfl)
    (fun c w => A_eq54 (fun c b => U94 m c b) c w) (fun c => body_obligation54 (fun c b => U94 m c b) c) (fun c => hin54 (fun c b => U94 m c b) c) (fun c => hout54 (fun c b => U94 m c b) c)
    (fun c => hF_of (pdats m 54 c) (U94 m c) (2 : Fin cfg54.W) (fun w => A_eq54 (fun c b => U94 m c b) c w) (by decide))
    (fun c => hrest_of (U94 m c) (2 : Fin cfg54.W) _)

/-- Region 55 (item 96): entered from `U96`, left at `U97`, which differs at `main_v302` only. -/
noncomputable def reg55 : RegionSeg (pcfgs (F := F)) GenP.adm (pdats m) () defs₀ Variants.none L lv 55 :=
  regOf (pdats m) 55 launch55 (U96 m) (U97 m) (fun _ _ => rfl) (fun _ _ => rfl) (fun _ _ => rfl)
    (fun c w => A_eq55 (fun c b => U96 m c b) c w) (fun c => body_obligation55 (fun c b => U96 m c b) c) (fun c => hin55 (fun c b => U96 m c b) c) (fun c => hout55 (fun c b => U96 m c b) c)
    (fun c => hF_of (pdats m 55 c) (U96 m c) (2 : Fin cfg55.W) (fun w => A_eq55 (fun c b => U96 m c b) c w) (by decide))
    (fun c => hrest_of (U96 m c) (2 : Fin cfg55.W) _)

/-- Region 56 (item 97): entered from `U97`, left at `U98`, which differs at `main_v303` only. -/
noncomputable def reg56 : RegionSeg (pcfgs (F := F)) GenP.adm (pdats m) () defs₀ Variants.none L lv 56 :=
  regOf (pdats m) 56 launch56 (U97 m) (U98 m) (fun _ _ => rfl) (fun _ _ => rfl) (fun _ _ => rfl)
    (fun c w => A_eq56 (fun c b => U97 m c b) c w) (fun c => body_obligation56 (fun c b => U97 m c b) c) (fun c => hin56 (fun c b => U97 m c b) c) (fun c => hout56 (fun c b => U97 m c b) c)
    (fun c => hF_of (pdats m 56 c) (U97 m c) (2 : Fin cfg56.W) (fun w => A_eq56 (fun c b => U97 m c b) c w) (by decide))
    (fun c => hrest_of (U97 m c) (2 : Fin cfg56.W) _)

/-- Region 57 (item 99): entered from `U99`, left at `U100`, which differs at `main_v322` only. -/
noncomputable def reg57 : RegionSeg (pcfgs (F := F)) GenP.adm (pdats m) () defs₀ Variants.none L lv 57 :=
  regOf (pdats m) 57 launch57 (U99 m) (U100 m) (fun _ _ => rfl) (fun _ _ => rfl) (fun _ _ => rfl)
    (fun c w => A_eq57 (fun c b => U99 m c b) c w) (fun c => body_obligation57 (fun c b => U99 m c b) c) (fun c => hin57 (fun c b => U99 m c b) c) (fun c => hout57 (fun c b => U99 m c b) c)
    (fun c => hF_of (pdats m 57 c) (U99 m c) (2 : Fin cfg57.W) (fun w => A_eq57 (fun c b => U99 m c b) c w) (by decide))
    (fun c => hrest_of (U99 m c) (2 : Fin cfg57.W) _)

/-- Region 58 (item 101): entered from `U101`, left at `U102`, which differs at `main_v326` only. -/
noncomputable def reg58 : RegionSeg (pcfgs (F := F)) GenP.adm (pdats m) () defs₀ Variants.none L lv 58 :=
  regOf (pdats m) 58 launch58 (U101 m) (U102 m) (fun _ _ => rfl) (fun _ _ => rfl) (fun _ _ => rfl)
    (fun c w => A_eq58 (fun c b => U101 m c b) c w) (fun c => body_obligation58 (fun c b => U101 m c b) c) (fun c => hin58 (fun c b => U101 m c b) c) (fun c => hout58 (fun c b => U101 m c b) c)
    (fun c => hF_of (pdats m 58 c) (U101 m c) (2 : Fin cfg58.W) (fun w => A_eq58 (fun c b => U101 m c b) c w) (by decide))
    (fun c => hrest_of (U101 m c) (2 : Fin cfg58.W) _)

/-- Region 59 (item 104): entered from `U104`, left at `U105`, which differs at `main_v331` only. -/
noncomputable def reg59 : RegionSeg (pcfgs (F := F)) GenP.adm (pdats m) () defs₀ Variants.none L lv 59 :=
  regOf (pdats m) 59 launch59 (U104 m) (U105 m) (fun _ _ => rfl) (fun _ _ => rfl) (fun _ _ => rfl)
    (fun c w => A_eq59 (fun c b => U104 m c b) c w) (fun c => body_obligation59 (fun c b => U104 m c b) c) (fun c => hin59 (fun c b => U104 m c b) c) (fun c => hout59 (fun c b => U104 m c b) c)
    (fun c => hF_of (pdats m 59 c) (U104 m c) (2 : Fin cfg59.W) (fun w => A_eq59 (fun c b => U104 m c b) c w) (by decide))
    (fun c => hrest_of (U104 m c) (2 : Fin cfg59.W) _)

end Cert.Kernel.Hand

end
-- ==== Proof.ChainSegsK.lean ====
import proofs.«158944_j64613488001249_1_alg».proof.Proof.ChainRegsK0
import proofs.«158944_j64613488001249_1_alg».proof.Proof.ChainRegsK1
import proofs.«158944_j64613488001249_1_alg».proof.Proof.ChainRegsK2

/-! # @main as the launch theorem's segments: the generated host segments at the valuations `GenP.V<j>` with the unknowns `outs`, the
    regions' records between them; the items' programs; each pipeline entered once; the thread states chaining. -/

set_option maxRecDepth 16384

noncomputable section

namespace Cert.Kernel.Hand

open Cert.Kernel Cert.Kernel.Gen Cert.Kernel.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

set_option maxHeartbeats 16000000 in
/-- @main's items as segments on core `c`: the generated list at this module's regions, `Ride` beside the buffers throughout. -/
abbrev segsU (c : Dev nD) : List (Seg (pcfgs (F := F)) GenP.adm (pdats m) () defs₀ Variants.none L lv) :=
  GenP.segs m (outs m) Variants.none L lv (fun _ => Ride) () (pdats m) (reg0 m) (reg1 m) (reg2 m) (reg3 m) (reg4 m) (reg5 m) (reg6 m) (reg7 m) (reg8 m) (reg9 m) (reg10 m) (reg11 m) (reg12 m) (reg13 m) (reg14 m) (reg15 m) (reg16 m) (reg17 m) (reg18 m) (reg19 m) (reg20 m) (reg21 m) (reg22 m) (reg23 m) (reg24 m) (reg25 m) (reg26 m) (reg27 m) (reg28 m) (reg29 m) (reg30 m) (reg31 m) (reg32 m) (reg33 m) (reg34 m) (reg35 m) (reg36 m) (reg37 m) (reg38 m) (reg39 m) (reg40 m) (reg41 m) (reg42 m) (reg43 m) (reg44 m) (reg45 m) (reg46 m) (reg47 m) (reg48 m) (reg49 m) (reg50 m) (reg51 m) (reg52 m) (reg53 m) (reg54 m) (reg55 m) (reg56 m) (reg57 m) (reg58 m) (reg59 m) c

/-- @main's items as programs, in order: a host stretch's operations in sequence, a region's call. -/
abbrev itemProgs : List (Prog (TpuEff nD τ sig (Elt F) (Pipeline.Sig Λ₀ (Fin 60) fun p => (pcfgs (F := F) p).Adm) .tc) PUnit) := [
  StableHlo.seq hostOps0,
  Prog.lift (.customCall (Pipeline.entry 0) ()),
  StableHlo.seq hostOps1,
  Prog.lift (.customCall (Pipeline.entry 1) ()),
  StableHlo.seq hostOps2,
  Prog.lift (.customCall (Pipeline.entry 2) ()),
  StableHlo.seq hostOps3,
  Prog.lift (.customCall (Pipeline.entry 3) ()),
  Prog.lift (.customCall (Pipeline.entry 4) ()),
  StableHlo.seq hostOps5,
  Prog.lift (.customCall (Pipeline.entry 5) ()),
  StableHlo.seq hostOps6,
  Prog.lift (.customCall (Pipeline.entry 6) ()),
  Prog.lift (.customCall (Pipeline.entry 7) ()),
  StableHlo.seq hostOps8,
  Prog.lift (.customCall (Pipeline.entry 8) ()),
  StableHlo.seq hostOps9,
  Prog.lift (.customCall (Pipeline.entry 9) ()),
  StableHlo.seq hostOps10,
  Prog.lift (.customCall (Pipeline.entry 10) ()),
  Prog.lift (.customCall (Pipeline.entry 11) ()),
  StableHlo.seq hostOps12,
  Prog.lift (.customCall (Pipeline.entry 12) ()),
  StableHlo.seq hostOps13,
  Prog.lift (.customCall (Pipeline.entry 13) ()),
  Prog.lift (.customCall (Pipeline.entry 14) ()),
  StableHlo.seq hostOps15,
  Prog.lift (.customCall (Pipeline.entry 15) ()),
  StableHlo.seq hostOps16,
  Prog.lift (.customCall (Pipeline.entry 16) ()),
  StableHlo.seq hostOps17,
  Prog.lift (.customCall (Pipeline.entry 17) ()),
  Prog.lift (.customCall (Pipeline.entry 18) ()),
  StableHlo.seq hostOps19,
  Prog.lift (.customCall (Pipeline.entry 19) ()),
  StableHlo.seq hostOps20,
  Prog.lift (.customCall (Pipeline.entry 20) ()),
  Prog.lift (.customCall (Pipeline.entry 21) ()),
  StableHlo.seq hostOps22,
  Prog.lift (.customCall (Pipeline.entry 22) ()),
  StableHlo.seq hostOps23,
  Prog.lift (.customCall (Pipeline.entry 23) ()),
  StableHlo.seq hostOps24,
  Prog.lift (.customCall (Pipeline.entry 24) ()),
  Prog.lift (.customCall (Pipeline.entry 25) ()),
  StableHlo.seq hostOps26,
  Prog.lift (.customCall (Pipeline.entry 26) ()),
  StableHlo.seq hostOps27,
  Prog.lift (.customCall (Pipeline.entry 27) ()),
  Prog.lift (.customCall (Pipeline.entry 28) ()),
  StableHlo.seq hostOps29,
  Prog.lift (.customCall (Pipeline.entry 29) ()),
  StableHlo.seq hostOps30,
  Prog.lift (.customCall (Pipeline.entry 30) ()),
  StableHlo.seq hostOps31,
  Prog.lift (.customCall (Pipeline.entry 31) ()),
  Prog.lift (.customCall (Pipeline.entry 32) ()),
  StableHlo.seq hostOps33,
  Prog.lift (.customCall (Pipeline.entry 33) ()),
  StableHlo.seq hostOps34,
  Prog.lift (.customCall (Pipeline.entry 34) ()),
  Prog.lift (.customCall (Pipeline.entry 35) ()),
  StableHlo.seq hostOps36,
  Prog.lift (.customCall (Pipeline.entry 36) ()),
  StableHlo.seq hostOps37,
  Prog.lift (.customCall (Pipeline.entry 37) ()),
  StableHlo.seq hostOps38,
  Prog.lift (.customCall (Pipeline.entry 38) ()),
  Prog.lift (.customCall (Pipeline.entry 39) ()),
  StableHlo.seq hostOps40,
  Prog.lift (.customCall (Pipeline.entry 40) ()),
  StableHlo.seq hostOps41,
  Prog.lift (.customCall (Pipeline.entry 41) ()),
  Prog.lift (.customCall (Pipeline.entry 42) ()),
  StableHlo.seq hostOps43,
  Prog.lift (.customCall (Pipeline.entry 43) ()),
  StableHlo.seq hostOps44,
  Prog.lift (.customCall (Pipeline.entry 44) ()),
  StableHlo.seq hostOps45,
  Prog.lift (.customCall (Pipeline.entry 45) ()),
  Prog.lift (.customCall (Pipeline.entry 46) ()),
  StableHlo.seq hostOps47,
  Prog.lift (.customCall (Pipeline.entry 47) ()),
  StableHlo.seq hostOps48,
  Prog.lift (.customCall (Pipeline.entry 48) ()),
  Prog.lift (.customCall (Pipeline.entry 49) ()),
  StableHlo.seq hostOps50,
  Prog.lift (.customCall (Pipeline.entry 50) ()),
  StableHlo.seq hostOps51,
  Prog.lift (.customCall (Pipeline.entry 51) ()),
  StableHlo.seq hostOps52,
  Prog.lift (.customCall (Pipeline.entry 52) ()),
  Prog.lift (.customCall (Pipeline.entry 53) ()),
  StableHlo.seq hostOps54,
  Prog.lift (.customCall (Pipeline.entry 54) ()),
  StableHlo.seq hostOps55,
  Prog.lift (.customCall (Pipeline.entry 55) ()),
  Prog.lift (.customCall (Pipeline.entry 56) ()),
  StableHlo.seq hostOps57,
  Prog.lift (.customCall (Pipeline.entry 57) ()),
  StableHlo.seq hostOps58,
  Prog.lift (.customCall (Pipeline.entry 58) ()),
  StableHlo.seq hostOps59,
  StableHlo.seq hostOps59_1,
  Prog.lift (.customCall (Pipeline.entry 59) ()),
  StableHlo.seq hostOps60 ]

set_option maxHeartbeats 16000000 in
theorem segsU_progs (c : Dev nD) : (segsU m c).map Seg.prog = itemProgs (F := F) := rfl

theorem main_items (c : Dev nD) : main (F := F) c = Pipeline.chain (itemProgs (F := F)) := main_chain c

set_option maxHeartbeats 16000000 in
theorem segsU_nodup (c : Dev nD) : (Seg.pipes (segsU m c)).Nodup := by
  simp only [segsU, GenP.segs, Seg.pipes_host, Seg.pipes_region, Seg.pipes_nil]; decide

set_option maxHeartbeats 16000000 in
/-- The thread states chain: a host segment's state is the buffers at `GenP.V<j>`, a region's at `U<j>`, equal by `V<j>_eq`. -/
theorem segsU_chains (c : Dev nD) : Seg.ChainsAt c
    (fun c => (iprop(StableHlo.held (c : Thread nD τ) (Pipeline.ucRefs τ sig) (U0 m c) ∗ Ride c) : sProp 𝕄)) (segsU m c)
    (fun c => iprop((StableHlo.held (c : Thread nD τ) (Pipeline.ucRefs τ sig) (U106 m c) ∗ ∃ r, prngReg c r)
      ∗ ∃ W, owes (c : Thread nD τ) (0 : CellTallies nD τ sig Unit) W)) :=
  ⟨.rfl,
   chain_eq c (V1_eq m c),
   chain_eq c (V2_eq m c).symm,
   chain_eq c (V3_eq m c),
   chain_eq c (V4_eq m c).symm,
   chain_eq c (V5_eq m c),
   chain_eq c (V6_eq m c).symm,
   chain_eq c (V7_eq m c),
   .rfl,
   chain_eq c (V9_eq m c).symm,
   chain_eq c (V10_eq m c),
   chain_eq c (V11_eq m c).symm,
   chain_eq c (V12_eq m c),
   .rfl,
   chain_eq c (V14_eq m c).symm,
   chain_eq c (V15_eq m c),
   chain_eq c (V16_eq m c).symm,
   chain_eq c (V17_eq m c),
   chain_eq c (V18_eq m c).symm,
   chain_eq c (V19_eq m c),
   .rfl,
   chain_eq c (V21_eq m c).symm,
   chain_eq c (V22_eq m c),
   chain_eq c (V23_eq m c).symm,
   chain_eq c (V24_eq m c),
   .rfl,
   chain_eq c (V26_eq m c).symm,
   chain_eq c (V27_eq m c),
   chain_eq c (V28_eq m c).symm,
   chain_eq c (V29_eq m c),
   chain_eq c (V30_eq m c).symm,
   chain_eq c (V31_eq m c),
   .rfl,
   chain_eq c (V33_eq m c).symm,
   chain_eq c (V34_eq m c),
   chain_eq c (V35_eq m c).symm,
   chain_eq c (V36_eq m c),
   .rfl,
   chain_eq c (V38_eq m c).symm,
   chain_eq c (V39_eq m c),
   chain_eq c (V40_eq m c).symm,
   chain_eq c (V41_eq m c),
   chain_eq c (V42_eq m c).symm,
   chain_eq c (V43_eq m c),
   .rfl,
   chain_eq c (V45_eq m c).symm,
   chain_eq c (V46_eq m c),
   chain_eq c (V47_eq m c).symm,
   chain_eq c (V48_eq m c),
   .rfl,
   chain_eq c (V50_eq m c).symm,
   chain_eq c (V51_eq m c),
   chain_eq c (V52_eq m c).symm,
   chain_eq c (V53_eq m c),
   chain_eq c (V54_eq m c).symm,
   chain_eq c (V55_eq m c),
   .rfl,
   chain_eq c (V57_eq m c).symm,
   chain_eq c (V58_eq m c),
   chain_eq c (V59_eq m c).symm,
   chain_eq c (V60_eq m c),
   .rfl,
   chain_eq c (V62_eq m c).symm,
   chain_eq c (V63_eq m c),
   chain_eq c (V64_eq m c).symm,
   chain_eq c (V65_eq m c),
   chain_eq c (V66_eq m c).symm,
   chain_eq c (V67_eq m c),
   .rfl,
   chain_eq c (V69_eq m c).symm,
   chain_eq c (V70_eq m c),
   chain_eq c (V71_eq m c).symm,
   chain_eq c (V72_eq m c),
   .rfl,
   chain_eq c (V74_eq m c).symm,
   chain_eq c (V75_eq m c),
   chain_eq c (V76_eq m c).symm,
   chain_eq c (V77_eq m c),
   chain_eq c (V78_eq m c).symm,
   chain_eq c (V79_eq m c),
   .rfl,
   chain_eq c (V81_eq m c).symm,
   chain_eq c (V82_eq m c),
   chain_eq c (V83_eq m c).symm,
   chain_eq c (V84_eq m c),
   .rfl,
   chain_eq c (V86_eq m c).symm,
   chain_eq c (V87_eq m c),
   chain_eq c (V88_eq m c).symm,
   chain_eq c (V89_eq m c),
   chain_eq c (V90_eq m c).symm,
   chain_eq c (V91_eq m c),
   .rfl,
   chain_eq c (V93_eq m c).symm,
   chain_eq c (V94_eq m c),
   chain_eq c (V95_eq m c).symm,
   chain_eq c (V96_eq m c),
   .rfl,
   chain_eq c (V98_eq m c).symm,
   chain_eq c (V99_eq m c),
   chain_eq c (V100_eq m c).symm,
   chain_eq c (V101_eq m c),
   chain_eq c (V102_eq m c).symm,
   .rfl,
   chain_eq c (V104_eq m c),
   chain_eq c (V105_eq m c).symm,
   chain_end c (V106_eq m c)⟩

end Cert.Kernel.Hand

end
-- ==== Proof.ChainK.lean ====
/-
  The run of @main from the launch to the return: at the compiled mesh, from any memory with zero counters, every weakly fair
  execution terminates and every final memory holds, in each unscoped buffer of each core, what the chain of valuations `U106`
  says: the launch memory taken through every host stretch and every kernel region in @main's order. The library's launch theorem over the
  segments (the generated host segments, the regions' records), @main as the chain of the items' programs, the thread states
  chaining by `V<j>_eq`, the first thread state from what the launch deals, the last read against the final state.
-/
import proofs.«158944_j64613488001249_1_alg».proof.Proof.ChainSegsK
import Idealize.ShloMosaic.Lib.Pipeline.Kit

set_option maxRecDepth 16384

noncomputable section

namespace Cert.Kernel.Hand

open Cert.Kernel Cert.Kernel.Gen Cert.Kernel.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

set_option maxHeartbeats 16000000 in
-- the launch theorem's conclusion is this statement after unfolding definitions
set_option backward.isDefEq.respectTransparency.types false in
/-- THE RUN: every unscoped buffer of every core ends at `U106 m c`. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = U106 m c b) :=
  Pipeline.θ_run_regions_kit_dev (pcfgs (F := F)) GenP.adm (pdats m) () cellOf_inj emb₁ defs₀ Variants.none L lv m ρ main (segsU m)
    (fun c Q => by rewrite [main_items c, Seg.run_eq_chain, segsU_progs m c]; exact .rfl)
    (segsU_nodup m)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Ride c))
    (Tₙ := fun c => iprop(StableHlo.held (c : Thread nD τ) (Pipeline.ucRefs τ sig) (U106 m c) ∗ ∃ r, prngReg c r))
    (hch := segsU_chains m)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = U106 m c b)
    (hfin := fun c s' => by
      iintro ⟨⟨Hh, -⟩, HSI⟩
      unfold StableHlo.held
      imodintro
      iapply (pointsTo_read_all (Pipeline.ucRefs τ sig) (fun b => ((c : Thread nD τ).1, b)) (U106 m c) s')
      isplitl [Hh] <;> iassumption)
    (hQ := fun s h c => h c)

/-- info: 'Cert.Kernel.Hand.run_all' depends on axioms: [propext, Classical.choice, Quot.sound] -/
#guard_msgs in #print axioms run_all

end Cert.Kernel.Hand

end
-- ==== Proof.RegKI0a.lean ====
/- The region of KernelIdeal's @main that runs `cc0__matmul_kernel` (pipeline `cfg0`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond0_0 (i : grid0.Coords) : Prop :=
  (Scalar.cmpi .ne (Scalar.extui (Scalar.cmpi .eq (BitVec.ofNat 32 (i 1).val) 0#32)) 0#32) = 1#1
/-- True at every point: the reduction axis has one step. -/
theorem hcond0_0 : ∀ t : Fin cfg0.N, cond0_0 (grid0.coords t) :=
  (by decide +kernel : ∀ t : Fin grid0.N, cond0_0 (grid0.coords t))

/-- "This is the last reduction step" (the guard of the copy to the output block). -/
abbrev cond0_1 (i : grid0.Coords) : Prop := k0_cond2 i = 1#1
/-- True at every point, for the same reason. -/
theorem hcond0_1 : ∀ t : Fin cfg0.N, cond0_1 (grid0.coords t) :=
  (by decide +kernel : ∀ t : Fin grid0.N, cond0_1 (grid0.coords t))

/-! ## No window is idle anywhere -/

theorem liveAt0_0 : ∀ t : Fin cfg0.N, cfg0.idle 0 (grid0.coords t) = false := by decide +kernel
theorem liveAt0_1 : ∀ t : Fin cfg0.N, cfg0.idle 1 (grid0.coords t) = false := by decide +kernel
/-- The output window is stored at every point (the copy's guard holds everywhere). -/
theorem liveAt0_2 : ∀ t : Fin cfg0.N, cfg0.idle 2 (grid0.coords t) = false := by decide +kernel

/-! ## The memrefs the body is called on -/

/-- One staging buffer of the output window, through which its contents are stated (any whole view of the shape reads the
    same pieces back the same way). -/
abbrev VO0_2 : View sig .tc .vmem S1024x512 .f32 := (Memref.whole cc0_stg2_0 : Memref sig .tc .vmem S1024x512 .f32).view
/-- Each window's current staging memref at point `t`, spelt as the pipeline passes it, with its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows. -/
abbrev scM0_0 : Memref sig .tc .vmem S1024x512 .f32 := Memref.whole cc0_scratch0
abbrev VS0_0 : View sig .tc .vmem S1024x512 .f32 := scM0_0.view

/-- The region invariant with the accumulator taken out of the scoped rest: the accumulator owned at some contents, every
    other scoped buffer unopened, and the generator register. -/
theorem PhiA0_eq (c : Dev nD) :
    (Pipeline.ΦA spec0 c : sProp 𝕄)
      = iprop(iprop(iprop((∃ d, owns (c : Thread nD τ) scM0_0 fullShare d))
            ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scM0_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun0 (c : Dev nD) (i : grid0.Coords)
    (arg2 : Memref sig .tc .vmem S1024x128 .f32) (harg2 : arg2.IsWhole) (arg3 : Memref sig .tc .vmem S128x512 .bf16) (harg3 : arg3.IsWhole)
    (arg4 : Memref sig .tc .vmem S1024x512 .f32) (harg4 : arg4.IsWhole) (arg5 : Memref sig .tc .vmem S1024x512 .f32) (harg5 : arg5.IsWhole)
    (hfirst : cond0_0 i) (hlast : cond0_1 i) (xa : Vec F S1024x128 .f32) (xb : Vec F S128x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.KernelIdeal.Hand

end
-- ==== Proof.RegKI0.lean ====
/- The region of KernelIdeal's @main that runs `cc0__matmul_kernel` (pipeline `cfg0`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegKI0a
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the case leaves, as pieces read back -/

/-- The output's pieces tile its block (one whole-block store). -/
theorem cover0_2 (c : Dev nD) (i : grid0.Coords)
    (arg2 : Memref sig .tc .vmem S1024x128 .f32) (harg2 : arg2.IsWhole) (arg3 : Memref sig .tc .vmem S128x512 .bf16) (harg3 : arg3.IsWhole)
    (arg4 : Memref sig .tc .vmem S1024x512 .f32) (harg4 : arg4.IsWhole) (arg5 : Memref sig .tc .vmem S1024x512 .f32) (harg5 : arg5.IsWhole)
    (hfirst : cond0_0 i) (hlast : cond0_1 i) (xa : Vec F S1024x128 .f32) (xb : Vec F S128x512 .bf16) (y : S1024x512.Idx) :
    ∃ pc ∈ (kernelRun0 c i arg2 harg2 arg3 harg3 arg4 harg4 arg5 harg5 hfirst hlast xa xb).1, y ∈ pc.1.set :=
  View.cover_of_tiledL (kernelRun0 c i arg2 harg2 arg3 harg3 arg4 harg4 arg5 harg5 hfirst hlast xa xb).1 S1024x512.size (by sl_kernel_rfl) y

/-- What the case leaves in the output's staging buffer: its pieces read back over junk. -/
noncomputable def out0_2 (c : Dev nD) (i : grid0.Coords)
    (arg2 : Memref sig .tc .vmem S1024x128 .f32) (harg2 : arg2.IsWhole) (arg3 : Memref sig .tc .vmem S128x512 .bf16) (harg3 : arg3.IsWhole)
    (arg4 : Memref sig .tc .vmem S1024x512 .f32) (harg4 : arg4.IsWhole) (arg5 : Memref sig .tc .vmem S1024x512 .f32) (harg5 : arg5.IsWhole)
    (hfirst : cond0_0 i) (hlast : cond0_1 i) (xa : Vec F S1024x128 .f32) (xb : Vec F S128x512 .bf16) : Vec F S1024x512 .f32 :=
  VO0_2.read (Elt F) (VO0_2.writes (Elt F) VO0_2.junk (kernelRun0 c i arg2 harg2 arg3 harg3 arg4 harg4 arg5 harg5 hfirst hlast xa xb).1)

/-- What the case leaves in the accumulator: its pieces read back over junk. -/
noncomputable def sout0_0 (c : Dev nD) (i : grid0.Coords)
    (arg2 : Memref sig .tc .vmem S1024x128 .f32) (harg2 : arg2.IsWhole) (arg3 : Memref sig .tc .vmem S128x512 .bf16) (harg3 : arg3.IsWhole)
    (arg4 : Memref sig .tc .vmem S1024x512 .f32) (harg4 : arg4.IsWhole) (arg5 : Memref sig .tc .vmem S1024x512 .f32) (harg5 : arg5.IsWhole)
    (hfirst : cond0_0 i) (hlast : cond0_1 i) (xa : Vec F S1024x128 .f32) (xb : Vec F S128x512 .bf16) : Vec F S1024x512 .f32 :=
  VS0_0.read (Elt F) (VS0_0.writes (Elt F) VS0_0.junk (kernelRun0 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout0_0_eq (c : Dev nD) (i : grid0.Coords)
    (arg2 : Memref sig .tc .vmem S1024x128 .f32) (harg2 : arg2.IsWhole) (arg3 : Memref sig .tc .vmem S128x512 .bf16) (harg3 : arg3.IsWhole)
    (arg4 : Memref sig .tc .vmem S1024x512 .f32) (harg4 : arg4.IsWhole) (arg5 : Memref sig .tc .vmem S1024x512 .f32) (harg5 : arg5.IsWhole)
    (hfirst : cond0_0 i) (hlast : cond0_1 i) (xa : Vec F S1024x128 .f32) (xb : Vec F S128x512 .bf16) :
    sout0_0 c i arg2 harg2 arg3 harg3 arg4 harg4 arg5 harg5 hfirst hlast xa xb = k0_pay2 xa xb (k0_pay1 (F := F)) := by
  unfold sout0_0
  rw [View.read_writes_junk_eq_canon]
  unfold kernelRun0
  dsimp only
  try sl_unfold_words
  rw [View.canon_cons_unit_zero zeros2, View.readCov_unit_zero _ zeros2]
  simp only [View.readAt_eq_ld, harg2.read_unread, harg3.read_unread, View.ld_unit_zero (S := S1024x128) zeros2, View.ld_unit_zero (S := S128x512) zeros2]

/-- The output block ends at what the accumulator ends at: the copy's payload is the accumulator read back whole. -/
theorem out0_2_eq (c : Dev nD) (i : grid0.Coords)
    (arg2 : Memref sig .tc .vmem S1024x128 .f32) (harg2 : arg2.IsWhole) (arg3 : Memref sig .tc .vmem S128x512 .bf16) (harg3 : arg3.IsWhole)
    (arg4 : Memref sig .tc .vmem S1024x512 .f32) (harg4 : arg4.IsWhole) (arg5 : Memref sig .tc .vmem S1024x512 .f32) (harg5 : arg5.IsWhole)
    (hfirst : cond0_0 i) (hlast : cond0_1 i) (xa : Vec F S1024x128 .f32) (xb : Vec F S128x512 .bf16) :
    out0_2 c i arg2 harg2 arg3 harg3 arg4 harg4 arg5 harg5 hfirst hlast xa xb = k0_pay2 xa xb (k0_pay1 (F := F)) := by
  unfold out0_2
  rw [View.read_writes_junk_eq_canon]
  unfold kernelRun0
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x128) zeros2, View.ld_unit_zero (S := S128x512) zeros2]

/-! ## What the output and the accumulator hold after each point -/

/-- After the body at position `n`: (the output window's staging buffer, the accumulator). One case, and nothing taken from
    the point before. -/
noncomputable def outsAt0 (c : Dev nD) (n : ℕ) (hn : n < cfg0.N) : Vec F S1024x512 .f32 × Vec F S1024x512 .f32 :=
  (out0_2 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _)
      (hcond0_0 ⟨n, hn⟩) (hcond0_1 ⟨n, hn⟩) (iblk0 V c 0 ⟨n, hn⟩) (iblk0 V c 1 ⟨n, hn⟩),
   sout0_0 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _)
      (hcond0_0 ⟨n, hn⟩) (hcond0_1 ⟨n, hn⟩) (iblk0 V c 0 ⟨n, hn⟩) (iblk0 V c 1 ⟨n, hn⟩))

/-- Every point is a first reduction step: the accumulator after it is one product onto zero. -/
theorem outsAt0_first (c : Dev nD) (t : Fin cfg0.N) :
    (outsAt0 V c t.val t.isLt).2 = k0_pay2 (iblk0 V c 0 t) (iblk0 V c 1 t) (k0_pay1 (F := F)) := by
  obtain ⟨n, hn⟩ := t
  unfold outsAt0
  dsimp only
  rw [sout0_0_eq]

/-- Every point is a last reduction step: the output block after it is the accumulator. -/
theorem outsAt0_last (c : Dev nD) (t : Fin cfg0.N) :
    (outsAt0 V c t.val t.isLt).1 = (outsAt0 V c t.val t.isLt).2 := by
  obtain ⟨n, hn⟩ := t
  unfold outsAt0
  dsimp only
  rw [out0_2_eq, sout0_0_eq]

/-! ## The pipeline's proof data -/

/-- The proof data of the pipeline on core `c`: the arrays as the region finds them; after the body at point `t` each input's
    buffer at its block and the output's at `outsAt0`'s first component; the invariant the same at every point; nothing owed;
    full shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- An input's current staging buffer holds its block at every point, fetched there or not: where it is not fetched its block
    index has not moved since the point before, and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
noncomputable def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
noncomputable def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = Pipeline.ΦA spec0 c from rfl, show (dat0 V c).Φ t.castSucc = Pipeline.ΦA spec0 c from rfl, PhiA0_eq]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  unfold outsAt0 out0_2; (try dsimp only)
  iintro ⟨⟨⟨Hacc, Hrest⟩, Hgen⟩, Howe, ⟨%da, Ha⟩, ⟨%db, Hb⟩, ⟨%dO, Hout⟩⟩
  iapply ((kernelRun0 c (grid0.coords t) _ _ _ _ _ _ _ _ (hcond0_0 t) (hcond0_1 t) (iblk0 V c 0 t) (iblk0 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover0_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := Idealize.SL.BI.Entails.refl _

/-- and the invariant after the last point is what the launch takes back. -/
theorem hout0 (c : Dev nD) : (dat0 V c).Φ (Fin.last cfg0.N) ⊢ Pipeline.ΦA spec0 c := Idealize.SL.BI.Entails.refl _

end Cert.KernelIdeal.Hand

end
-- ==== Proof.RegKI1a.lean ====
/-
  Region 1 of @main (custom_call 1): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond1_0 (i : grid1.Coords) : Prop := (Scalar.cmpi .ne (Scalar.extui (Scalar.cmpi .eq (BitVec.ofNat 32 (i 1).val) 0#32)) 0#32) = 1#1
/-- It holds exactly at the points with t % 4 = 0. -/
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the second conditional's test. -/
abbrev cond1_1 (i : grid1.Coords) : Prop := k1_cond2 i = 1#1
/-- It holds exactly at the points with t % 4 = 3. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle, and where the output is written back -/

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where k ≠ 3 the output window is idle (the body stores nothing into it) and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where k = 3 it is live. -/
theorem liveAt1_2 : ∀ t : Fin cfg1.N, cond1_1 (grid1.coords t) → cfg1.idle 2 (grid1.coords t) = false := by decide +kernel

/-! ## The staging memrefs at a point, and the scratch -/

/-- One staging buffer of the output window, through which its contents are stated. -/
abbrev VO1_2 : View sig .tc .vmem S1024x512 .f32 := (Memref.whole cc1_stg2_0 : Memref sig .tc .vmem S1024x512 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S1024x512 .f32 := Memref.whole cc1_scratch0
abbrev VS1 : View sig .tc .vmem S1024x512 .f32 := scM1.view

/-- The other scoped buffers of the core, none of which this region touches. -/
abbrev restBut1 (c : Dev nD) : sProp 𝕄 :=
  Pipeline.scopedRestBut (Ix := Unit) (Name := ℕ) (U := UR sig nD τ) (Lvl := ℕ) (Val := Elt F) spec1 c [cc1_scratch0]

/-- The region's invariant before its first point: the accumulator at something, the other scoped buffers, the generator register. -/
theorem PhiA1_eq (c : Dev nD) :
    (Pipeline.ΦA spec1 c : sProp 𝕄)
      = iprop(iprop((∃ d, owns (c : Thread nD τ) scM1 fullShare d) ∗ restBut1 c) ∗ (∃ r, prngReg c r)) := by
  unfold Pipeline.ΦA; rw [scopedRest1_split]; simp only [scM1, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun1_A (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI1b.lean ====
/-
  Region 1, case B (k = 1, 2): the body's run. Neither conditional is taken: the product of the two blocks is added to what
  the point before left in the accumulator; the output block is not touched.
-/
import proofs.«158944_j64613488001249_1_alg».proof.Proof.RegKI1a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun1_B (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI1c.lean ====
/-
  Region 1, case C (k = 3): the body's run. The product is added to the accumulator as in case B, and then the second
  conditional copies the accumulator over the whole output block.
-/
import proofs.«158944_j64613488001249_1_alg».proof.Proof.RegKI1b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun1_C (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI1.lean ====
/-
  Region 1 of @main, entered from the buffer contents `V`: what its windows' blocks are, what each case of the body leaves in
  the accumulator and in the output block, the accumulator and the output block point by point (`outsAt1`: at k = 0 the
  accumulator restarts from zeros plus the product; at k = 1, 2, 3 it is the point before's plus the product; at k = 3 the
  output block is the accumulator), the region's invariant (the accumulator at `outsAt1`'s second component), the proof data,
  and the body's obligation at every point.
-/
import proofs.«158944_j64613488001249_1_alg».proof.Proof.RegKI1c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Case A's stores into the accumulator cover it. -/
theorem scover1_A (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .bf16) (x1 : Vec F S1024x512 .f32) (y : S1024x512.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x512.size (by sl_kernel_rfl) y
/-- What case A leaves in the accumulator. -/
noncomputable def sout1_A (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .bf16) (x1 : Vec F S1024x512 .f32) : Vec F S1024x512 .f32 :=
  VS1.read (Elt F) (VS1.writes (Elt F) VS1.junk (kernelRun1_A c i arg2 harg2 arg3 harg3 arg4 harg4 arg5 harg5 hc0 hc1 x0 x1).2.1)

/-- Case B's store into the accumulator covers it. -/
theorem scover1_B (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .bf16) (x1 : Vec F S1024x512 .f32) (xs0 : Vec F S1024x512 .f32) (y : S1024x512.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x512.size (by sl_kernel_rfl) y
/-- What case B leaves in the accumulator, over what the point before left. -/
noncomputable def sout1_B (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .bf16) (x1 : Vec F S1024x512 .f32) (xs0 : Vec F S1024x512 .f32) : Vec F S1024x512 .f32 :=
  VS1.read (Elt F) (VS1.writes (Elt F) VS1.junk (kernelRun1_B c i arg2 harg2 arg3 harg3 arg4 harg4 arg5 harg5 hc0 hc1 x0 x1 xs0).2.1)

/-- Case C's store into the output block covers it, and so does its store into the accumulator. -/
theorem cover1_C (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .f32) (xs0 : Vec F S1024x512 .f32) (y : S1024x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x512.size (by sl_kernel_rfl) y
theorem scover1_C (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .f32) (xs0 : Vec F S1024x512 .f32) (y : S1024x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x512.size (by sl_kernel_rfl) y
/-- What case C leaves in the output block, and in the accumulator. -/
noncomputable def out1_C (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .f32) (xs0 : Vec F S1024x512 .f32) : Vec F S1024x512 .f32 :=
  VO1_2.read (Elt F) (VO1_2.writes (Elt F) VO1_2.junk (kernelRun1_C c i arg2 harg2 arg3 harg3 arg4 harg4 arg5 harg5 hc0 hc1 x0 x1 xs0).1)
noncomputable def sout1_C (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .f32) (xs0 : Vec F S1024x512 .f32) : Vec F S1024x512 .f32 :=
  VS1.read (Elt F) (VS1.writes (Elt F) VS1.junk (kernelRun1_C c i arg2 harg2 arg3 harg3 arg4 harg4 arg5 harg5 hc0 hc1 x0 x1 xs0).2.1)

/-- Where the output block is idle nothing consults what it holds: a placeholder. -/
noncomputable def outIdle1 : Vec F S1024x512 .f32 := VO1_2.read (Elt F) (VO1_2.writes (Elt F) VO1_2.junk [])

/-! ## The conditions at a point, from t % 4 -/

theorem isFirst1 (t : Fin cfg1.N) (h : t.val % 4 = 0) : cond1_0 (grid1.coords t) := (hcond1_0 t).mpr h
theorem notFirst1 (t : Fin cfg1.N) (h : ¬t.val % 4 = 0) : ¬cond1_0 (grid1.coords t) := fun hc => h ((hcond1_0 t).mp hc)
theorem isLast1 (t : Fin cfg1.N) (h : t.val % 4 = 3) : cond1_1 (grid1.coords t) := (hcond1_1 t).mpr h
theorem notLast1 (t : Fin cfg1.N) (h : ¬t.val % 4 = 3) : ¬cond1_1 (grid1.coords t) := fun hc => h ((hcond1_1 t).mp hc)

/-! ## The accumulator and the output block, point by point -/

/-- After the body at position `n`: (the output block's buffer, the accumulator). -/
noncomputable def outsAt1 (c : Dev nD) : (n : ℕ) → n < cfg1.N → Vec F S1024x512 .f32 × Vec F S1024x512 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) (isFirst1 ⟨0, hn⟩ (Nat.zero_mod _)) (notLast1 ⟨0, hn⟩ (by simp)) (iblk1 V c 0 ⟨0, hn⟩) (iblk1 V c 1 ⟨0, hn⟩))
  | n + 1, hn =>
    if h0 : (n + 1) % 4 = 0 then
      (outIdle1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (isFirst1 ⟨n + 1, hn⟩ h0) (notLast1 ⟨n + 1, hn⟩ (by show ¬(n + 1) % 4 = 3; omega)) (iblk1 V c 0 ⟨n + 1, hn⟩) (iblk1 V c 1 ⟨n + 1, hn⟩))
    else if h3 : (n + 1) % 4 = 3 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (notFirst1 ⟨n + 1, hn⟩ h0) (isLast1 ⟨n + 1, hn⟩ h3) (iblk1 V c 0 ⟨n + 1, hn⟩) (iblk1 V c 1 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (notFirst1 ⟨n + 1, hn⟩ h0) (isLast1 ⟨n + 1, hn⟩ h3) (iblk1 V c 0 ⟨n + 1, hn⟩) (iblk1 V c 1 ⟨n + 1, hn⟩) (outsAt1 c n (Nat.lt_of_succ_lt hn)).2)
    else
      (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (notFirst1 ⟨n + 1, hn⟩ h0) (notLast1 ⟨n + 1, hn⟩ h3) (iblk1 V c 0 ⟨n + 1, hn⟩) (iblk1 V c 1 ⟨n + 1, hn⟩) (outsAt1 c n (Nat.lt_of_succ_lt hn)).2)

/-- `outsAt1` at a point with k = 0. -/
theorem outsAt1_A (c : Dev nD) (t : Fin cfg1.N) (h0 : t.val % 4 = 0) :
    outsAt1 V c t.val t.isLt = (outIdle1, sout1_A c (grid1.coords t) (ms1_0 t) (hs1_0 t) (ms1_1 t) (hs1_1 t) (ms1_2 t) (hs1_2 t) scM1 (Memref.isWhole_whole _) (isFirst1 t h0) (notLast1 t (by omega)) (iblk1 V c 0 t) (iblk1 V c 1 t)) := by
  obtain ⟨n, hn⟩ := t
  cases n with
  | zero => rfl
  | succ n => exact (dif_pos h0).trans rfl

/-- `outsAt1` at a point with k = 1, 2: over what the point before left. -/
theorem outsAt1_B (c : Dev nD) (t : Fin cfg1.N) (h0 : ¬t.val % 4 = 0) (h3 : ¬t.val % 4 = 3) :
    outsAt1 V c t.val t.isLt = (outIdle1, sout1_B c (grid1.coords t) (ms1_0 t) (hs1_0 t) (ms1_1 t) (hs1_1 t) (ms1_2 t) (hs1_2 t) scM1 (Memref.isWhole_whole _) (notFirst1 t h0) (notLast1 t h3) (iblk1 V c 0 t) (iblk1 V c 1 t)
      (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt1` at a point with k = 3. -/
theorem outsAt1_C (c : Dev nD) (t : Fin cfg1.N) (h0 : ¬t.val % 4 = 0) (h3 : t.val % 4 = 3) :
    outsAt1 V c t.val t.isLt = (out1_C c (grid1.coords t) (ms1_0 t) (hs1_0 t) (ms1_1 t) (hs1_1 t) (ms1_2 t) (hs1_2 t) scM1 (Memref.isWhole_whole _) (notFirst1 t h0) (isLast1 t h3) (iblk1 V c 0 t) (iblk1 V c 1 t)
        (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (notFirst1 t h0) (isLast1 t h3) (iblk1 V c 0 t) (iblk1 V c 1 t)
        (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ restBut1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restBut1 c) ∗ (∃ r, prngReg c r)) := by
  cases n with
  | zero => exact absurd rfl hz
  | succ n => rfl

/-! ## The proof data -/

/-- The region's proof data on core `c`: the arrays as the region finds them; after the body at point `t` each input's
    buffer at its block and the output's at `outsAt1`'s first component; the invariant `PhiS1`; nothing owed; full shares. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's obligation -/

noncomputable def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

noncomputable def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h3 : ¬t.val % 4 = 3 := by omega
    rw [Dat.leavesExact_idle (dat1 V c) 2 t (idleAt1_2 t (notLast1 t h3)) (noFlush1_2 t (notLast1 t h3))]
    rw [outsAt1_A V c t h0]
    unfold sout1_A; (try dsimp only)
    by_cases hz : t.val = 0
    · rw [PhiS1_castSucc V c t, PhiS1_zero V c _ _ hz, PhiA1_eq]
      iintro ⟨⟨⟨HS0, Hrb⟩, Hg⟩, Ho, ⟨%d0, H0⟩, ⟨%d1, H1⟩, ⟨%d2, H2⟩⟩
      iapply ((kernelRun1_A c (grid1.coords t) _ _ _ _ _ _ _ _ (isFirst1 t h0) (notLast1 t (by omega)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_A c _ _ _ _ _ _ _ _ _ _ _ _ _)
          iexact Hrb
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hrb⟩, Hg⟩, Ho, ⟨%d0, H0⟩, ⟨%d1, H1⟩, ⟨%d2, H2⟩⟩
      iapply ((kernelRun1_A c (grid1.coords t) _ _ _ _ _ _ _ _ (isFirst1 t h0) (notLast1 t (by omega)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat1 V c).leavesExact 2 t = owns (c : Thread nD τ) (ms1_2 t) fullShare ((dat1 V c).after 2 t) from by
        unfold Dat.leavesExact; rw [liveAt1_2 t (isLast1 t h3)], after1_2]
      rw [outsAt1_C V c t h0 h3]
      unfold out1_C sout1_C; (try dsimp only)
      rw [PhiS1_castSucc V c t, PhiS1_pos V c _ _ hz]
      iintro ⟨⟨⟨HS0, Hrb⟩, Hg⟩, Ho, ⟨%d0, H0⟩, ⟨%d1, H1⟩, ⟨%d2, H2⟩⟩
      iapply ((kernelRun1_C c (grid1.coords t) _ _ _ _ _ _ _ _ (notFirst1 t h0) (isLast1 t h3) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (notLast1 t h3)) (noFlush1_2 t (notLast1 t h3))]
      rw [outsAt1_B V c t h0 h3]
      unfold sout1_B; (try dsimp only)
      rw [PhiS1_castSucc V c t, PhiS1_pos V c _ _ hz]
      iintro ⟨⟨⟨HS0, Hrb⟩, Hg⟩, Ho, ⟨%d0, H0⟩, ⟨%d1, H1⟩, ⟨%d2, H2⟩⟩
      iapply ((kernelRun1_B c (grid1.coords t) _ _ _ _ _ _ _ _ (notFirst1 t h0) (notLast1 t h3) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hN : cfg1.N = 16 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI2a.lean ====
/- Laid out by: python3 scratch/layout_regions.py --template-region 1 --region 2 --program KernelIdeal --parts a,b,c, --out-dir proof/Proof
   from the hand-written text of region 1 (RegKI1a.lean): the same text, the region's number substituted. -/
/-
  Region 2 of @main (custom_call 2): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond2_0 (i : grid2.Coords) : Prop := (Scalar.cmpi .ne (Scalar.extui (Scalar.cmpi .eq (BitVec.ofNat 32 (i 1).val) 0#32)) 0#32) = 1#1
/-- It holds exactly at the points with t % 4 = 0. -/
theorem hcond2_0 : ∀ t : Fin cfg2.N, cond2_0 (grid2.coords t) ↔ t.val % 4 = 0 :=
  (by decide +kernel : ∀ t : Fin grid2.N, cond2_0 (grid2.coords t) ↔ t.val % 4 = 0)

/-- "k = 3": the second conditional's test. -/
abbrev cond2_1 (i : grid2.Coords) : Prop := k2_cond2 i = 1#1
/-- It holds exactly at the points with t % 4 = 3. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle, and where the output is written back -/

/-- The two input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Where k ≠ 3 the output window is idle (the body stores nothing into it) and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- Where k = 3 it is live. -/
theorem liveAt2_2 : ∀ t : Fin cfg2.N, cond2_1 (grid2.coords t) → cfg2.idle 2 (grid2.coords t) = false := by decide +kernel

/-! ## The staging memrefs at a point, and the scratch -/

/-- One staging buffer of the output window, through which its contents are stated. -/
abbrev VO2_2 : View sig .tc .vmem S1024x512 .f32 := (Memref.whole cc2_stg2_0 : Memref sig .tc .vmem S1024x512 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x512 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2 : Memref sig .tc .vmem S1024x512 .f32 := Memref.whole cc2_scratch0
abbrev VS2 : View sig .tc .vmem S1024x512 .f32 := scM2.view

/-- The other scoped buffers of the core, none of which this region touches. -/
abbrev restBut2 (c : Dev nD) : sProp 𝕄 :=
  Pipeline.scopedRestBut (Ix := Unit) (Name := ℕ) (U := UR sig nD τ) (Lvl := ℕ) (Val := Elt F) spec2 c [cc2_scratch0]

/-- The region's invariant before its first point: the accumulator at something, the other scoped buffers, the generator register. -/
theorem PhiA2_eq (c : Dev nD) :
    (Pipeline.ΦA spec2 c : sProp 𝕄)
      = iprop(iprop((∃ d, owns (c : Thread nD τ) scM2 fullShare d) ∗ restBut2 c) ∗ (∃ r, prngReg c r)) := by
  unfold Pipeline.ΦA; rw [scopedRest2_split]; simp only [scM2, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun2_A (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond2_0 i) (hc1 : ¬cond2_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_kernel i arg2 harg2 arg3 harg3 arg4 harg4 arg5 harg5) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI2b.lean ====
/- Laid out by: python3 scratch/layout_regions.py --template-region 1 --region 2 --program KernelIdeal --parts a,b,c, --out-dir proof/Proof
   from the hand-written text of region 1 (RegKI1b.lean): the same text, the region's number substituted. -/
/-
  Region 2, case B (k = 1, 2): the body's run. Neither conditional is taken: the product of the two blocks is added to what
  the point before left in the accumulator; the output block is not touched.
-/
import proofs.«158944_j64613488001249_1_alg».proof.Proof.RegKI2a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun2_B (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond2_0 i) (hc1 : ¬cond2_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_kernel i arg2 harg2 arg3 harg3 arg4 harg4 arg5 harg5) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI2c.lean ====
/- Laid out by: python3 scratch/layout_regions.py --template-region 1 --region 2 --program KernelIdeal --parts a,b,c, --out-dir proof/Proof
   from the hand-written text of region 1 (RegKI1c.lean): the same text, the region's number substituted. -/
/-
  Region 2, case C (k = 3): the body's run. The product is added to the accumulator as in case B, and then the second
  conditional copies the accumulator over the whole output block.
-/
import proofs.«158944_j64613488001249_1_alg».proof.Proof.RegKI2b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun2_C (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond2_0 i) (hc1 : cond2_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_kernel i arg2 harg2 arg3 harg3 arg4 harg4 arg5 harg5) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI2.lean ====
/- Laid out by: python3 scratch/layout_regions.py --template-region 1 --region 2 --program KernelIdeal --parts a,b,c, --out-dir proof/Proof
   from the hand-written text of region 1 (RegKI1.lean): the same text, the region's number substituted. -/
/-
  Region 2 of @main, entered from the buffer contents `V`: what its windows' blocks are, what each case of the body leaves in
  the accumulator and in the output block, the accumulator and the output block point by point (`outsAt2`: at k = 0 the
  accumulator restarts from zeros plus the product; at k = 1, 2, 3 it is the point before's plus the product; at k = 3 the
  output block is the accumulator), the region's invariant (the accumulator at `outsAt2`'s second component), the proof data,
  and the body's obligation at every point.
-/
import proofs.«158944_j64613488001249_1_alg».proof.Proof.RegKI2c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- Case A's stores into the accumulator cover it. -/
theorem scover2_A (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond2_0 i) (hc1 : ¬cond2_1 i)
    (x0 : Vec F S1024x1024 .bf16) (x1 : Vec F S1024x512 .f32) (y : S1024x512.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1024x512.size (by sl_kernel_rfl) y
/-- What case A leaves in the accumulator. -/
noncomputable def sout2_A (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond2_0 i) (hc1 : ¬cond2_1 i)
    (x0 : Vec F S1024x1024 .bf16) (x1 : Vec F S1024x512 .f32) : Vec F S1024x512 .f32 :=
  VS2.read (Elt F) (VS2.writes (Elt F) VS2.junk (kernelRun2_A c i arg2 harg2 arg3 harg3 arg4 harg4 arg5 harg5 hc0 hc1 x0 x1).2.1)

/-- Case B's store into the accumulator covers it. -/
theorem scover2_B (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond2_0 i) (hc1 : ¬cond2_1 i)
    (x0 : Vec F S1024x1024 .bf16) (x1 : Vec F S1024x512 .f32) (xs0 : Vec F S1024x512 .f32) (y : S1024x512.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1024x512.size (by sl_kernel_rfl) y
/-- What case B leaves in the accumulator, over what the point before left. -/
noncomputable def sout2_B (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond2_0 i) (hc1 : ¬cond2_1 i)
    (x0 : Vec F S1024x1024 .bf16) (x1 : Vec F S1024x512 .f32) (xs0 : Vec F S1024x512 .f32) : Vec F S1024x512 .f32 :=
  VS2.read (Elt F) (VS2.writes (Elt F) VS2.junk (kernelRun2_B c i arg2 harg2 arg3 harg3 arg4 harg4 arg5 harg5 hc0 hc1 x0 x1 xs0).2.1)

/-- Case C's store into the output block covers it, and so does its store into the accumulator. -/
theorem cover2_C (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond2_0 i) (hc1 : cond2_1 i)
    (x0 : Vec F S1024x1024 .bf16) (x1 : Vec F S1024x512 .f32) (xs0 : Vec F S1024x512 .f32) (y : S1024x512.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1024x512.size (by sl_kernel_rfl) y
theorem scover2_C (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond2_0 i) (hc1 : cond2_1 i)
    (x0 : Vec F S1024x1024 .bf16) (x1 : Vec F S1024x512 .f32) (xs0 : Vec F S1024x512 .f32) (y : S1024x512.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1024x512.size (by sl_kernel_rfl) y
/-- What case C leaves in the output block, and in the accumulator. -/
noncomputable def out2_C (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond2_0 i) (hc1 : cond2_1 i)
    (x0 : Vec F S1024x1024 .bf16) (x1 : Vec F S1024x512 .f32) (xs0 : Vec F S1024x512 .f32) : Vec F S1024x512 .f32 :=
  VO2_2.read (Elt F) (VO2_2.writes (Elt F) VO2_2.junk (kernelRun2_C c i arg2 harg2 arg3 harg3 arg4 harg4 arg5 harg5 hc0 hc1 x0 x1 xs0).1)
noncomputable def sout2_C (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond2_0 i) (hc1 : cond2_1 i)
    (x0 : Vec F S1024x1024 .bf16) (x1 : Vec F S1024x512 .f32) (xs0 : Vec F S1024x512 .f32) : Vec F S1024x512 .f32 :=
  VS2.read (Elt F) (VS2.writes (Elt F) VS2.junk (kernelRun2_C c i arg2 harg2 arg3 harg3 arg4 harg4 arg5 harg5 hc0 hc1 x0 x1 xs0).2.1)

/-- Where the output block is idle nothing consults what it holds: a placeholder. -/
noncomputable def outIdle2 : Vec F S1024x512 .f32 := VO2_2.read (Elt F) (VO2_2.writes (Elt F) VO2_2.junk [])

/-! ## The conditions at a point, from t % 4 -/

theorem isFirst2 (t : Fin cfg2.N) (h : t.val % 4 = 0) : cond2_0 (grid2.coords t) := (hcond2_0 t).mpr h
theorem notFirst2 (t : Fin cfg2.N) (h : ¬t.val % 4 = 0) : ¬cond2_0 (grid2.coords t) := fun hc => h ((hcond2_0 t).mp hc)
theorem isLast2 (t : Fin cfg2.N) (h : t.val % 4 = 3) : cond2_1 (grid2.coords t) := (hcond2_1 t).mpr h
theorem notLast2 (t : Fin cfg2.N) (h : ¬t.val % 4 = 3) : ¬cond2_1 (grid2.coords t) := fun hc => h ((hcond2_1 t).mp hc)

/-! ## The accumulator and the output block, point by point -/

/-- After the body at position `n`: (the output block's buffer, the accumulator). -/
noncomputable def outsAt2 (c : Dev nD) : (n : ℕ) → n < cfg2.N → Vec F S1024x512 .f32 × Vec F S1024x512 .f32
  | 0, hn => (outIdle2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) (isFirst2 ⟨0, hn⟩ (Nat.zero_mod _)) (notLast2 ⟨0, hn⟩ (by simp)) (iblk2 V c 0 ⟨0, hn⟩) (iblk2 V c 1 ⟨0, hn⟩))
  | n + 1, hn =>
    if h0 : (n + 1) % 4 = 0 then
      (outIdle2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (isFirst2 ⟨n + 1, hn⟩ h0) (notLast2 ⟨n + 1, hn⟩ (by show ¬(n + 1) % 4 = 3; omega)) (iblk2 V c 0 ⟨n + 1, hn⟩) (iblk2 V c 1 ⟨n + 1, hn⟩))
    else if h3 : (n + 1) % 4 = 3 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (notFirst2 ⟨n + 1, hn⟩ h0) (isLast2 ⟨n + 1, hn⟩ h3) (iblk2 V c 0 ⟨n + 1, hn⟩) (iblk2 V c 1 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (notFirst2 ⟨n + 1, hn⟩ h0) (isLast2 ⟨n + 1, hn⟩ h3) (iblk2 V c 0 ⟨n + 1, hn⟩) (iblk2 V c 1 ⟨n + 1, hn⟩) (outsAt2 c n (Nat.lt_of_succ_lt hn)).2)
    else
      (outIdle2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (notFirst2 ⟨n + 1, hn⟩ h0) (notLast2 ⟨n + 1, hn⟩ h3) (iblk2 V c 0 ⟨n + 1, hn⟩) (iblk2 V c 1 ⟨n + 1, hn⟩) (outsAt2 c n (Nat.lt_of_succ_lt hn)).2)

/-- `outsAt2` at a point with k = 0. -/
theorem outsAt2_A (c : Dev nD) (t : Fin cfg2.N) (h0 : t.val % 4 = 0) :
    outsAt2 V c t.val t.isLt = (outIdle2, sout2_A c (grid2.coords t) (ms2_0 t) (hs2_0 t) (ms2_1 t) (hs2_1 t) (ms2_2 t) (hs2_2 t) scM2 (Memref.isWhole_whole _) (isFirst2 t h0) (notLast2 t (by omega)) (iblk2 V c 0 t) (iblk2 V c 1 t)) := by
  obtain ⟨n, hn⟩ := t
  cases n with
  | zero => rfl
  | succ n => exact (dif_pos h0).trans rfl

/-- `outsAt2` at a point with k = 1, 2: over what the point before left. -/
theorem outsAt2_B (c : Dev nD) (t : Fin cfg2.N) (h0 : ¬t.val % 4 = 0) (h3 : ¬t.val % 4 = 3) :
    outsAt2 V c t.val t.isLt = (outIdle2, sout2_B c (grid2.coords t) (ms2_0 t) (hs2_0 t) (ms2_1 t) (hs2_1 t) (ms2_2 t) (hs2_2 t) scM2 (Memref.isWhole_whole _) (notFirst2 t h0) (notLast2 t h3) (iblk2 V c 0 t) (iblk2 V c 1 t)
      (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt2` at a point with k = 3. -/
theorem outsAt2_C (c : Dev nD) (t : Fin cfg2.N) (h0 : ¬t.val % 4 = 0) (h3 : t.val % 4 = 3) :
    outsAt2 V c t.val t.isLt = (out2_C c (grid2.coords t) (ms2_0 t) (hs2_0 t) (ms2_1 t) (hs2_1 t) (ms2_2 t) (hs2_2 t) scM2 (Memref.isWhole_whole _) (notFirst2 t h0) (isLast2 t h3) (iblk2 V c 0 t) (iblk2 V c 1 t)
        (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (notFirst2 t h0) (isLast2 t h3) (iblk2 V c 0 t) (iblk2 V c 1 t)
        (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ restBut2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ restBut2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ restBut2 c) ∗ (∃ r, prngReg c r)) := by
  cases n with
  | zero => exact absurd rfl hz
  | succ n => rfl

/-! ## The proof data -/

/-- The region's proof data on core `c`: the arrays as the region finds them; after the body at point `t` each input's
    buffer at its block and the output's at `outsAt2`'s first component; the invariant `PhiS2`; nothing owed; full shares. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body's obligation -/

noncomputable def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

noncomputable def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 4 = 0
  · have h3 : ¬t.val % 4 = 3 := by omega
    rw [Dat.leavesExact_idle (dat2 V c) 2 t (idleAt2_2 t (notLast2 t h3)) (noFlush2_2 t (notLast2 t h3))]
    rw [outsAt2_A V c t h0]
    unfold sout2_A; (try dsimp only)
    by_cases hz : t.val = 0
    · rw [PhiS2_castSucc V c t, PhiS2_zero V c _ _ hz, PhiA2_eq]
      iintro ⟨⟨⟨HS0, Hrb⟩, Hg⟩, Ho, ⟨%d0, H0⟩, ⟨%d1, H1⟩, ⟨%d2, H2⟩⟩
      iapply ((kernelRun2_A c (grid2.coords t) _ _ _ _ _ _ _ _ (isFirst2 t h0) (notLast2 t (by omega)) (iblk2 V c 0 t) (iblk2 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover2_A c _ _ _ _ _ _ _ _ _ _ _ _ _)
          iexact Hrb
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS0, Hrb⟩, Hg⟩, Ho, ⟨%d0, H0⟩, ⟨%d1, H1⟩, ⟨%d2, H2⟩⟩
      iapply ((kernelRun2_A c (grid2.coords t) _ _ _ _ _ _ _ _ (isFirst2 t h0) (notLast2 t (by omega)) (iblk2 V c 0 t) (iblk2 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover2_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat2 V c).leavesExact 2 t = owns (c : Thread nD τ) (ms2_2 t) fullShare ((dat2 V c).after 2 t) from by
        unfold Dat.leavesExact; rw [liveAt2_2 t (isLast2 t h3)], after2_2]
      rw [outsAt2_C V c t h0 h3]
      unfold out2_C sout2_C; (try dsimp only)
      rw [PhiS2_castSucc V c t, PhiS2_pos V c _ _ hz]
      iintro ⟨⟨⟨HS0, Hrb⟩, Hg⟩, Ho, ⟨%d0, H0⟩, ⟨%d1, H1⟩, ⟨%d2, H2⟩⟩
      iapply ((kernelRun2_C c (grid2.coords t) _ _ _ _ _ _ _ _ (notFirst2 t h0) (isLast2 t h3) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover2_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _)
    · rw [Dat.leavesExact_idle (dat2 V c) 2 t (idleAt2_2 t (notLast2 t h3)) (noFlush2_2 t (notLast2 t h3))]
      rw [outsAt2_B V c t h0 h3]
      unfold sout2_B; (try dsimp only)
      rw [PhiS2_castSucc V c t, PhiS2_pos V c _ _ hz]
      iintro ⟨⟨⟨HS0, Hrb⟩, Hg⟩, Ho, ⟨%d0, H0⟩, ⟨%d1, H1⟩, ⟨%d2, H2⟩⟩
      iapply ((kernelRun2_B c (grid2.coords t) _ _ _ _ _ _ _ _ (notFirst2 t h0) (notLast2 t h3) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover2_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  have hN : cfg2.N = 16 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI3a.lean ====
/- Laid out by: python3 scratch/layout_grid41.py --template-region 0 --region 3 --program KernelIdeal --parts a, --shapes S1024x128=S1024x512,S128x512=S512x512
   from the hand-written text of region 0 (RegKI0a.lean): the same text, the region's number, block shapes substituted. -/
/- The region of KernelIdeal's @main that runs `cc3__matmul_kernel` (pipeline `cfg3`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond3_0 (i : grid3.Coords) : Prop :=
  (Scalar.cmpi .ne (Scalar.extui (Scalar.cmpi .eq (BitVec.ofNat 32 (i 1).val) 0#32)) 0#32) = 1#1
/-- True at every point: the reduction axis has one step. -/
theorem hcond3_0 : ∀ t : Fin cfg3.N, cond3_0 (grid3.coords t) :=
  (by decide +kernel : ∀ t : Fin grid3.N, cond3_0 (grid3.coords t))

/-- "This is the last reduction step" (the guard of the copy to the output block). -/
abbrev cond3_1 (i : grid3.Coords) : Prop := k3_cond2 i = 1#1
/-- True at every point, for the same reason. -/
theorem hcond3_1 : ∀ t : Fin cfg3.N, cond3_1 (grid3.coords t) :=
  (by decide +kernel : ∀ t : Fin grid3.N, cond3_1 (grid3.coords t))

/-! ## No window is idle anywhere -/

theorem liveAt3_0 : ∀ t : Fin cfg3.N, cfg3.idle 0 (grid3.coords t) = false := by decide +kernel
theorem liveAt3_1 : ∀ t : Fin cfg3.N, cfg3.idle 1 (grid3.coords t) = false := by decide +kernel
/-- The output window is stored at every point (the copy's guard holds everywhere). -/
theorem liveAt3_2 : ∀ t : Fin cfg3.N, cfg3.idle 2 (grid3.coords t) = false := by decide +kernel

/-! ## The memrefs the body is called on -/

/-- One staging buffer of the output window, through which its contents are stated (any whole view of the shape reads the
    same pieces back the same way). -/
abbrev VO3_2 : View sig .tc .vmem S1024x512 .f32 := (Memref.whole cc3_stg2_0 : Memref sig .tc .vmem S1024x512 .f32).view
/-- Each window's current staging memref at point `t`, spelt as the pipeline passes it, with its wholeness. -/
abbrev ms3_0 (t : Fin cfg3.N) : Memref sig .tc .vmem S1024x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x512 .f32 := win3_2.stage (cfg3.slots t 2)
abbrev hs3_2 (t : Fin cfg3.N) : (ms3_2 t).IsWhole := hstage3_2 ((cfg3.slots t 2).cast nbuf3_2)
/-- The accumulator: a whole scoped buffer of the kernel's own, passed beside the windows. -/
abbrev scM3_0 : Memref sig .tc .vmem S1024x512 .f32 := Memref.whole cc3_scratch0
abbrev VS3_0 : View sig .tc .vmem S1024x512 .f32 := scM3_0.view

/-- The region invariant with the accumulator taken out of the scoped rest: the accumulator owned at some contents, every
    other scoped buffer unopened, and the generator register. -/
theorem PhiA3_eq (c : Dev nD) :
    (Pipeline.ΦA spec3 c : sProp 𝕄)
      = iprop(iprop(iprop((∃ d, owns (c : Thread nD τ) scM3_0 fullShare d))
            ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun3 (c : Dev nD) (i : grid3.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond3_0 i) (hlast : cond3_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc3__matmul_kernel i arg2 harg2 arg3 harg3 arg4 harg4 arg5 harg5) K } := by
  refine ⟨?_, ?_, fun E K => ?run⟩
  case run =>
    simp only [cc3__matmul_kernel_eq_skeleton]; unfold cc3__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.KernelIdeal.Hand

end
-- ==== Proof.RegKI3.lean ====
/- Laid out by: python3 scratch/layout_grid41.py --template-region 0 --region 3 --program KernelIdeal --parts a, --shapes S1024x128=S1024x512,S128x512=S512x512
   from the hand-written text of region 0 (RegKI0.lean): the same text, the region's number, block shapes substituted. -/
/- The region of KernelIdeal's @main that runs `cc3__matmul_kernel` (pipeline `cfg3`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegKI3a
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What the case leaves, as pieces read back -/

/-- The output's pieces tile its block (one whole-block store). -/
theorem cover3_2 (c : Dev nD) (i : grid3.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond3_0 i) (hlast : cond3_1 i) (xa : Vec F S1024x512 .f32) (xb : Vec F S512x512 .bf16) (y : S1024x512.Idx) :
    ∃ pc ∈ (kernelRun3 c i arg2 harg2 arg3 harg3 arg4 harg4 arg5 harg5 hfirst hlast xa xb).1, y ∈ pc.1.set :=
  View.cover_of_tiledL (kernelRun3 c i arg2 harg2 arg3 harg3 arg4 harg4 arg5 harg5 hfirst hlast xa xb).1 S1024x512.size (by sl_kernel_rfl) y

/-- What the case leaves in the output's staging buffer: its pieces read back over junk. -/
noncomputable def out3_2 (c : Dev nD) (i : grid3.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond3_0 i) (hlast : cond3_1 i) (xa : Vec F S1024x512 .f32) (xb : Vec F S512x512 .bf16) : Vec F S1024x512 .f32 :=
  VO3_2.read (Elt F) (VO3_2.writes (Elt F) VO3_2.junk (kernelRun3 c i arg2 harg2 arg3 harg3 arg4 harg4 arg5 harg5 hfirst hlast xa xb).1)

/-- What the case leaves in the accumulator: its pieces read back over junk. -/
noncomputable def sout3_0 (c : Dev nD) (i : grid3.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond3_0 i) (hlast : cond3_1 i) (xa : Vec F S1024x512 .f32) (xb : Vec F S512x512 .bf16) : Vec F S1024x512 .f32 :=
  VS3_0.read (Elt F) (VS3_0.writes (Elt F) VS3_0.junk (kernelRun3 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout3_0_eq (c : Dev nD) (i : grid3.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond3_0 i) (hlast : cond3_1 i) (xa : Vec F S1024x512 .f32) (xb : Vec F S512x512 .bf16) :
    sout3_0 c i arg2 harg2 arg3 harg3 arg4 harg4 arg5 harg5 hfirst hlast xa xb = k3_pay2 xa xb (k3_pay1 (F := F)) := by
  unfold sout3_0
  rw [View.read_writes_junk_eq_canon]
  unfold kernelRun3
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out3_2_eq (c : Dev nD) (i : grid3.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond3_0 i) (hlast : cond3_1 i) (xa : Vec F S1024x512 .f32) (xb : Vec F S512x512 .bf16) :
    out3_2 c i arg2 harg2 arg3 harg3 arg4 harg4 arg5 harg5 hfirst hlast xa xb = k3_pay2 xa xb (k3_pay1 (F := F)) := by
  unfold out3_2
  rw [View.read_writes_junk_eq_canon]
  unfold kernelRun3
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt3 (c : Dev nD) (n : ℕ) (hn : n < cfg3.N) : Vec F S1024x512 .f32 × Vec F S1024x512 .f32 :=
  (out3_2 c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) scM3_0 (Memref.isWhole_whole _)
      (hcond3_0 ⟨n, hn⟩) (hcond3_1 ⟨n, hn⟩) (iblk3 V c 0 ⟨n, hn⟩) (iblk3 V c 1 ⟨n, hn⟩),
   sout3_0 c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) scM3_0 (Memref.isWhole_whole _)
      (hcond3_0 ⟨n, hn⟩) (hcond3_1 ⟨n, hn⟩) (iblk3 V c 0 ⟨n, hn⟩) (iblk3 V c 1 ⟨n, hn⟩))

/-- Every point is a first reduction step: the accumulator after it is one product onto zero. -/
theorem outsAt3_first (c : Dev nD) (t : Fin cfg3.N) :
    (outsAt3 V c t.val t.isLt).2 = k3_pay2 (iblk3 V c 0 t) (iblk3 V c 1 t) (k3_pay1 (F := F)) := by
  obtain ⟨n, hn⟩ := t
  unfold outsAt3
  dsimp only
  rw [sout3_0_eq]

/-- Every point is a last reduction step: the output block after it is the accumulator. -/
theorem outsAt3_last (c : Dev nD) (t : Fin cfg3.N) :
    (outsAt3 V c t.val t.isLt).1 = (outsAt3 V c t.val t.isLt).2 := by
  obtain ⟨n, hn⟩ := t
  unfold outsAt3
  dsimp only
  rw [out3_2_eq, sout3_0_eq]

/-! ## The pipeline's proof data -/

/-- The proof data of the pipeline on core `c`: the arrays as the region finds them; after the body at point `t` each input's
    buffer at its block and the output's at `outsAt3`'s first component; the invariant the same at every point; nothing owed;
    full shares. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- An input's current staging buffer holds its block at every point, fetched there or not: where it is not fetched its block
    index has not moved since the point before, and the body left the block in place. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

/-! ## The body obligation, at a generic point -/

/-- What the body is called with at point `t`, the windows one by one, -/
noncomputable def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
noncomputable def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    show (dat3 V c).Φ t.succ = Pipeline.ΦA spec3 c from rfl, show (dat3 V c).Φ t.castSucc = Pipeline.ΦA spec3 c from rfl, PhiA3_eq]
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  rw [show (dat3 V c).leavesExact 2 t = owns (c : Thread nD τ) (ms3_2 t) fullShare ((dat3 V c).after 2 t) from by
      unfold Dat.leavesExact; rw [liveAt3_2 t], after3_2]
  unfold outsAt3 out3_2; (try dsimp only)
  iintro ⟨⟨⟨Hacc, Hrest⟩, Hgen⟩, Howe, ⟨%da, Ha⟩, ⟨%db, Hb⟩, ⟨%dO, Hout⟩⟩
  iapply ((kernelRun3 c (grid3.coords t) _ _ _ _ _ _ _ _ (hcond3_0 t) (hcond3_1 t) (iblk3 V c 0 t) (iblk3 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover3_2 c _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point, -/
theorem hin3 (c : Dev nD) : Pipeline.ΦA spec3 c ⊢ (dat3 V c).Φ 0 := Idealize.SL.BI.Entails.refl _

/-- and the invariant after the last point is what the launch takes back. -/
theorem hout3 (c : Dev nD) : (dat3 V c).Φ (Fin.last cfg3.N) ⊢ Pipeline.ΦA spec3 c := Idealize.SL.BI.Entails.refl _

end Cert.KernelIdeal.Hand

end
-- ==== Proof.RegKI4a.lean ====
/- Laid out by: python3 scratch/layout_regions.py --template-region 1 --region 4 --program KernelIdeal --parts a,b,c, --out-dir proof/Proof
   from the hand-written text of region 1 (RegKI1a.lean): the same text, the region's number substituted. -/
/-
  Region 4 of @main (custom_call 4): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond4_0 (i : grid4.Coords) : Prop := (Scalar.cmpi .ne (Scalar.extui (Scalar.cmpi .eq (BitVec.ofNat 32 (i 1).val) 0#32)) 0#32) = 1#1
/-- It holds exactly at the points with t % 4 = 0. -/
theorem hcond4_0 : ∀ t : Fin cfg4.N, cond4_0 (grid4.coords t) ↔ t.val % 4 = 0 :=
  (by decide +kernel : ∀ t : Fin grid4.N, cond4_0 (grid4.coords t) ↔ t.val % 4 = 0)

/-- "k = 3": the second conditional's test. -/
abbrev cond4_1 (i : grid4.Coords) : Prop := k4_cond2 i = 1#1
/-- It holds exactly at the points with t % 4 = 3. -/
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle, and where the output is written back -/

/-- The two input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Where k ≠ 3 the output window is idle (the body stores nothing into it) and is not written back. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- Where k = 3 it is live. -/
theorem liveAt4_2 : ∀ t : Fin cfg4.N, cond4_1 (grid4.coords t) → cfg4.idle 2 (grid4.coords t) = false := by decide +kernel

/-! ## The staging memrefs at a point, and the scratch -/

/-- One staging buffer of the output window, through which its contents are stated. -/
abbrev VO4_2 : View sig .tc .vmem S1024x512 .f32 := (Memref.whole cc4_stg2_0 : Memref sig .tc .vmem S1024x512 .f32).view
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x512 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x512 .f32 := win4_2.stage (cfg4.slots t 2)
abbrev hs4_2 (t : Fin cfg4.N) : (ms4_2 t).IsWhole := hstage4_2 ((cfg4.slots t 2).cast nbuf4_2)
/-- The accumulator: a whole scoped buffer of the kernel's own. -/
abbrev scM4 : Memref sig .tc .vmem S1024x512 .f32 := Memref.whole cc4_scratch0
abbrev VS4 : View sig .tc .vmem S1024x512 .f32 := scM4.view

/-- The other scoped buffers of the core, none of which this region touches. -/
abbrev restBut4 (c : Dev nD) : sProp 𝕄 :=
  Pipeline.scopedRestBut (Ix := Unit) (Name := ℕ) (U := UR sig nD τ) (Lvl := ℕ) (Val := Elt F) spec4 c [cc4_scratch0]

/-- The region's invariant before its first point: the accumulator at something, the other scoped buffers, the generator register. -/
theorem PhiA4_eq (c : Dev nD) :
    (Pipeline.ΦA spec4 c : sProp 𝕄)
      = iprop(iprop((∃ d, owns (c : Thread nD τ) scM4 fullShare d) ∗ restBut4 c) ∗ (∃ r, prngReg c r)) := by
  unfold Pipeline.ΦA; rw [scopedRest4_split]; simp only [scM4, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun4_A (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond4_0 i) (hc1 : ¬cond4_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__matmul_kernel i arg2 harg2 arg3 harg3 arg4 harg4 arg5 harg5) K } := by
  refine ⟨[], ?_, fun xi2 E K => ?run⟩
  case run =>
    simp only [cc4__matmul_kernel_eq_skeleton]; unfold cc4__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI4b.lean ====
/- Laid out by: python3 scratch/layout_regions.py --template-region 1 --region 4 --program KernelIdeal --parts a,b,c, --out-dir proof/Proof
   from the hand-written text of region 1 (RegKI1b.lean): the same text, the region's number substituted. -/
/-
  Region 4, case B (k = 1, 2): the body's run. Neither conditional is taken: the product of the two blocks is added to what
  the point before left in the accumulator; the output block is not touched.
-/
import proofs.«158944_j64613488001249_1_alg».proof.Proof.RegKI4a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun4_B (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond4_0 i) (hc1 : ¬cond4_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__matmul_kernel i arg2 harg2 arg3 harg3 arg4 harg4 arg5 harg5) K } := by
  refine ⟨[], ?_, fun xi2 E K => ?run⟩
  case run =>
    simp only [cc4__matmul_kernel_eq_skeleton]; unfold cc4__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI4c.lean ====
/- Laid out by: python3 scratch/layout_regions.py --template-region 1 --region 4 --program KernelIdeal --parts a,b,c, --out-dir proof/Proof
   from the hand-written text of region 1 (RegKI1c.lean): the same text, the region's number substituted. -/
/-
  Region 4, case C (k = 3): the body's run. The product is added to the accumulator as in case B, and then the second
  conditional copies the accumulator over the whole output block.
-/
import proofs.«158944_j64613488001249_1_alg».proof.Proof.RegKI4b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun4_C (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond4_0 i) (hc1 : cond4_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__matmul_kernel i arg2 harg2 arg3 harg3 arg4 harg4 arg5 harg5) K } := by
  refine ⟨?_, ?_, fun E K => ?run⟩
  case run =>
    simp only [cc4__matmul_kernel_eq_skeleton]; unfold cc4__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI4.lean ====
/- Laid out by: python3 scratch/layout_regions.py --template-region 1 --region 4 --program KernelIdeal --parts a,b,c, --out-dir proof/Proof
   from the hand-written text of region 1 (RegKI1.lean): the same text, the region's number substituted. -/
/-
  Region 4 of @main, entered from the buffer contents `V`: what its windows' blocks are, what each case of the body leaves in
  the accumulator and in the output block, the accumulator and the output block point by point (`outsAt4`: at k = 0 the
  accumulator restarts from zeros plus the product; at k = 1, 2, 3 it is the point before's plus the product; at k = 3 the
  output block is the accumulator), the region's invariant (the accumulator at `outsAt4`'s second component), the proof data,
  and the body's obligation at every point.
-/
import proofs.«158944_j64613488001249_1_alg».proof.Proof.RegKI4c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, for any proof data whose array is `V`'s and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## What each case leaves -/

/-- Case A's stores into the accumulator cover it. -/
theorem scover4_A (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond4_0 i) (hc1 : ¬cond4_1 i)
    (x0 : Vec F S1024x1024 .bf16) (x1 : Vec F S1024x512 .f32) (y : S1024x512.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S1024x512.size (by sl_kernel_rfl) y
/-- What case A leaves in the accumulator. -/
noncomputable def sout4_A (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond4_0 i) (hc1 : ¬cond4_1 i)
    (x0 : Vec F S1024x1024 .bf16) (x1 : Vec F S1024x512 .f32) : Vec F S1024x512 .f32 :=
  VS4.read (Elt F) (VS4.writes (Elt F) VS4.junk (kernelRun4_A c i arg2 harg2 arg3 harg3 arg4 harg4 arg5 harg5 hc0 hc1 x0 x1).2.1)

/-- Case B's store into the accumulator covers it. -/
theorem scover4_B (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond4_0 i) (hc1 : ¬cond4_1 i)
    (x0 : Vec F S1024x1024 .bf16) (x1 : Vec F S1024x512 .f32) (xs0 : Vec F S1024x512 .f32) (y : S1024x512.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S1024x512.size (by sl_kernel_rfl) y
/-- What case B leaves in the accumulator, over what the point before left. -/
noncomputable def sout4_B (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond4_0 i) (hc1 : ¬cond4_1 i)
    (x0 : Vec F S1024x1024 .bf16) (x1 : Vec F S1024x512 .f32) (xs0 : Vec F S1024x512 .f32) : Vec F S1024x512 .f32 :=
  VS4.read (Elt F) (VS4.writes (Elt F) VS4.junk (kernelRun4_B c i arg2 harg2 arg3 harg3 arg4 harg4 arg5 harg5 hc0 hc1 x0 x1 xs0).2.1)

/-- Case C's store into the output block covers it, and so does its store into the accumulator. -/
theorem cover4_C (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond4_0 i) (hc1 : cond4_1 i)
    (x0 : Vec F S1024x1024 .bf16) (x1 : Vec F S1024x512 .f32) (xs0 : Vec F S1024x512 .f32) (y : S1024x512.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S1024x512.size (by sl_kernel_rfl) y
theorem scover4_C (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond4_0 i) (hc1 : cond4_1 i)
    (x0 : Vec F S1024x1024 .bf16) (x1 : Vec F S1024x512 .f32) (xs0 : Vec F S1024x512 .f32) (y : S1024x512.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S1024x512.size (by sl_kernel_rfl) y
/-- What case C leaves in the output block, and in the accumulator. -/
noncomputable def out4_C (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond4_0 i) (hc1 : cond4_1 i)
    (x0 : Vec F S1024x1024 .bf16) (x1 : Vec F S1024x512 .f32) (xs0 : Vec F S1024x512 .f32) : Vec F S1024x512 .f32 :=
  VO4_2.read (Elt F) (VO4_2.writes (Elt F) VO4_2.junk (kernelRun4_C c i arg2 harg2 arg3 harg3 arg4 harg4 arg5 harg5 hc0 hc1 x0 x1 xs0).1)
noncomputable def sout4_C (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond4_0 i) (hc1 : cond4_1 i)
    (x0 : Vec F S1024x1024 .bf16) (x1 : Vec F S1024x512 .f32) (xs0 : Vec F S1024x512 .f32) : Vec F S1024x512 .f32 :=
  VS4.read (Elt F) (VS4.writes (Elt F) VS4.junk (kernelRun4_C c i arg2 harg2 arg3 harg3 arg4 harg4 arg5 harg5 hc0 hc1 x0 x1 xs0).2.1)

/-- Where the output block is idle nothing consults what it holds: a placeholder. -/
noncomputable def outIdle4 : Vec F S1024x512 .f32 := VO4_2.read (Elt F) (VO4_2.writes (Elt F) VO4_2.junk [])

/-! ## The conditions at a point, from t % 4 -/

theorem isFirst4 (t : Fin cfg4.N) (h : t.val % 4 = 0) : cond4_0 (grid4.coords t) := (hcond4_0 t).mpr h
theorem notFirst4 (t : Fin cfg4.N) (h : ¬t.val % 4 = 0) : ¬cond4_0 (grid4.coords t) := fun hc => h ((hcond4_0 t).mp hc)
theorem isLast4 (t : Fin cfg4.N) (h : t.val % 4 = 3) : cond4_1 (grid4.coords t) := (hcond4_1 t).mpr h
theorem notLast4 (t : Fin cfg4.N) (h : ¬t.val % 4 = 3) : ¬cond4_1 (grid4.coords t) := fun hc => h ((hcond4_1 t).mp hc)

/-! ## The accumulator and the output block, point by point -/

/-- After the body at position `n`: (the output block's buffer, the accumulator). -/
noncomputable def outsAt4 (c : Dev nD) : (n : ℕ) → n < cfg4.N → Vec F S1024x512 .f32 × Vec F S1024x512 .f32
  | 0, hn => (outIdle4, sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4 (Memref.isWhole_whole _) (isFirst4 ⟨0, hn⟩ (Nat.zero_mod _)) (notLast4 ⟨0, hn⟩ (by simp)) (iblk4 V c 0 ⟨0, hn⟩) (iblk4 V c 1 ⟨0, hn⟩))
  | n + 1, hn =>
    if h0 : (n + 1) % 4 = 0 then
      (outIdle4, sout4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (isFirst4 ⟨n + 1, hn⟩ h0) (notLast4 ⟨n + 1, hn⟩ (by show ¬(n + 1) % 4 = 3; omega)) (iblk4 V c 0 ⟨n + 1, hn⟩) (iblk4 V c 1 ⟨n + 1, hn⟩))
    else if h3 : (n + 1) % 4 = 3 then
      (out4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (notFirst4 ⟨n + 1, hn⟩ h0) (isLast4 ⟨n + 1, hn⟩ h3) (iblk4 V c 0 ⟨n + 1, hn⟩) (iblk4 V c 1 ⟨n + 1, hn⟩) (outsAt4 c n (Nat.lt_of_succ_lt hn)).2,
       sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (notFirst4 ⟨n + 1, hn⟩ h0) (isLast4 ⟨n + 1, hn⟩ h3) (iblk4 V c 0 ⟨n + 1, hn⟩) (iblk4 V c 1 ⟨n + 1, hn⟩) (outsAt4 c n (Nat.lt_of_succ_lt hn)).2)
    else
      (outIdle4, sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (notFirst4 ⟨n + 1, hn⟩ h0) (notLast4 ⟨n + 1, hn⟩ h3) (iblk4 V c 0 ⟨n + 1, hn⟩) (iblk4 V c 1 ⟨n + 1, hn⟩) (outsAt4 c n (Nat.lt_of_succ_lt hn)).2)

/-- `outsAt4` at a point with k = 0. -/
theorem outsAt4_A (c : Dev nD) (t : Fin cfg4.N) (h0 : t.val % 4 = 0) :
    outsAt4 V c t.val t.isLt = (outIdle4, sout4_A c (grid4.coords t) (ms4_0 t) (hs4_0 t) (ms4_1 t) (hs4_1 t) (ms4_2 t) (hs4_2 t) scM4 (Memref.isWhole_whole _) (isFirst4 t h0) (notLast4 t (by omega)) (iblk4 V c 0 t) (iblk4 V c 1 t)) := by
  obtain ⟨n, hn⟩ := t
  cases n with
  | zero => rfl
  | succ n => exact (dif_pos h0).trans rfl

/-- `outsAt4` at a point with k = 1, 2: over what the point before left. -/
theorem outsAt4_B (c : Dev nD) (t : Fin cfg4.N) (h0 : ¬t.val % 4 = 0) (h3 : ¬t.val % 4 = 3) :
    outsAt4 V c t.val t.isLt = (outIdle4, sout4_B c (grid4.coords t) (ms4_0 t) (hs4_0 t) (ms4_1 t) (hs4_1 t) (ms4_2 t) (hs4_2 t) scM4 (Memref.isWhole_whole _) (notFirst4 t h0) (notLast4 t h3) (iblk4 V c 0 t) (iblk4 V c 1 t)
      (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt4` at a point with k = 3. -/
theorem outsAt4_C (c : Dev nD) (t : Fin cfg4.N) (h0 : ¬t.val % 4 = 0) (h3 : t.val % 4 = 3) :
    outsAt4 V c t.val t.isLt = (out4_C c (grid4.coords t) (ms4_0 t) (hs4_0 t) (ms4_1 t) (hs4_1 t) (ms4_2 t) (hs4_2 t) scM4 (Memref.isWhole_whole _) (notFirst4 t h0) (isLast4 t h3) (iblk4 V c 0 t) (iblk4 V c 1 t)
        (outsAt4 V c (t.val - 1) (Nat.lt_of_le_of_lt (Nat.sub_le _ _) t.isLt)).2,
      sout4_C c (grid4.coords t) (ms4_0 t) (hs4_0 t) (ms4_1 t) (hs4_1 t) (ms4_2 t) (hs4_2 t) scM4 (Memref.isWhole_whole _) (notFirst4 t h0) (isLast4 t h3) (iblk4 V c 0 t) (iblk4 V c 1 t)
        (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2) ∗ restBut4 c) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4 fullShare ((outsAt4 V c n hn).2) ∗ restBut4 c) ∗ (∃ r, prngReg c r)) := rfl
theorem PhiS4_pos (c : Dev nD) (n : ℕ) (h : n ≤ cfg4.N) (hz : n ≠ 0) :
    PhiS4 V c n h = iprop(iprop(owns (c : Thread nD τ) scM4 fullShare ((outsAt4 V c (n - 1) (by omega)).2) ∗ restBut4 c) ∗ (∃ r, prngReg c r)) := by
  cases n with
  | zero => exact absurd rfl hz
  | succ n => rfl

/-! ## The proof data -/

/-- The region's proof data on core `c`: the arrays as the region finds them; after the body at point `t` each input's
    buffer at its block and the output's at `outsAt4`'s first component; the invariant `PhiS4`; nothing owed; full shares. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body's obligation -/

noncomputable def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

noncomputable def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 4 = 0
  · have h3 : ¬t.val % 4 = 3 := by omega
    rw [Dat.leavesExact_idle (dat4 V c) 2 t (idleAt4_2 t (notLast4 t h3)) (noFlush4_2 t (notLast4 t h3))]
    rw [outsAt4_A V c t h0]
    unfold sout4_A; (try dsimp only)
    by_cases hz : t.val = 0
    · rw [PhiS4_castSucc V c t, PhiS4_zero V c _ _ hz, PhiA4_eq]
      iintro ⟨⟨⟨HS0, Hrb⟩, Hg⟩, Ho, ⟨%d0, H0⟩, ⟨%d1, H1⟩, ⟨%d2, H2⟩⟩
      iapply ((kernelRun4_A c (grid4.coords t) _ _ _ _ _ _ _ _ (isFirst4 t h0) (notLast4 t (by omega)) (iblk4 V c 0 t) (iblk4 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover4_A c _ _ _ _ _ _ _ _ _ _ _ _ _)
          iexact Hrb
        iexact Hg
      isplitl [Ho]; · iexact Ho
      isplitl [H0]; · iexact H0
      isplitl [H1]; · iexact H1
      iexists _; iexact H2
    · rw [PhiS4_castSucc V c t, PhiS4_pos V c _ _ hz]
      iintro ⟨⟨⟨HS0, Hrb⟩, Hg⟩, Ho, ⟨%d0, H0⟩, ⟨%d1, H1⟩, ⟨%d2, H2⟩⟩
      iapply ((kernelRun4_A c (grid4.coords t) _ _ _ _ _ _ _ _ (isFirst4 t h0) (notLast4 t (by omega)) (iblk4 V c 0 t) (iblk4 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover4_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat4 V c).leavesExact 2 t = owns (c : Thread nD τ) (ms4_2 t) fullShare ((dat4 V c).after 2 t) from by
        unfold Dat.leavesExact; rw [liveAt4_2 t (isLast4 t h3)], after4_2]
      rw [outsAt4_C V c t h0 h3]
      unfold out4_C sout4_C; (try dsimp only)
      rw [PhiS4_castSucc V c t, PhiS4_pos V c _ _ hz]
      iintro ⟨⟨⟨HS0, Hrb⟩, Hg⟩, Ho, ⟨%d0, H0⟩, ⟨%d1, H1⟩, ⟨%d2, H2⟩⟩
      iapply ((kernelRun4_C c (grid4.coords t) _ _ _ _ _ _ _ _ (notFirst4 t h0) (isLast4 t h3) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover4_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C c _ _ _ _ _ _ _ _ _ _ _ _ _ _)
    · rw [Dat.leavesExact_idle (dat4 V c) 2 t (idleAt4_2 t (notLast4 t h3)) (noFlush4_2 t (notLast4 t h3))]
      rw [outsAt4_B V c t h0 h3]
      unfold sout4_B; (try dsimp only)
      rw [PhiS4_castSucc V c t, PhiS4_pos V c _ _ hz]
      iintro ⟨⟨⟨HS0, Hrb⟩, Hg⟩, Ho, ⟨%d0, H0⟩, ⟨%d1, H1⟩, ⟨%d2, H2⟩⟩
      iapply ((kernelRun4_B c (grid4.coords t) _ _ _ _ _ _ _ _ (notFirst4 t h0) (notLast4 t h3) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover4_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class's back: the accumulator's contents are forgotten. -/
theorem hout4 (c : Dev nD) : (dat4 V c).Φ (Fin.last cfg4.N) ⊢ Pipeline.ΦA spec4 c := by
  have hN : cfg4.N = 16 := N_4
  rw [show (dat4 V c).Φ (Fin.last cfg4.N) = PhiS4 V c (Fin.last cfg4.N).val (Nat.le_of_lt_succ (Fin.last cfg4.N).isLt) from rfl,
    PhiS4_pos V c _ _ (by rw [Fin.val_last]; omega), PhiA4_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI5a.lean ====
/- Laid out by: python3 scratch/layout_regions.py --template-region 1 --region 5 --program KernelIdeal --parts a,b,c, --out-dir proof/Proof
   from the hand-written text of region 1 (RegKI1a.lean): the same text, the region's number substituted. -/
/-
  Region 5 of @main (custom_call 5): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond5_0 (i : grid5.Coords) : Prop := (Scalar.cmpi .ne (Scalar.extui (Scalar.cmpi .eq (BitVec.ofNat 32 (i 1).val) 0#32)) 0#32) = 1#1
/-- It holds exactly at the points with t % 4 = 0. -/
theorem hcond5_0 : ∀ t : Fin cfg5.N, cond5_0 (grid5.coords t) ↔ t.val % 4 = 0 :=
  (by decide +kernel : ∀ t : Fin grid5.N, cond5_0 (grid5.coords t) ↔ t.val % 4 = 0)

/-- "k = 3": the second conditional's test. -/
abbrev cond5_1 (i : grid5.Coords) : Prop := k5_cond2 i = 1#1
/-- It holds exactly at the points with t % 4 = 3. -/
theorem hcond5_1 : ∀ t : Fin cfg5.N, cond5_1 (grid5.coords t) ↔ t.val % 4 = 3 :=
  (by decide +kernel : ∀ t : Fin grid5.N, cond5_1 (grid5.coords t) ↔ t.val % 4 = 3)

/-! ## Where the windows are idle, and where the output is written back -/

/-- The two input windows are never idle. -/
theorem liveAt5_0 : ∀ t : Fin cfg5.N, cfg5.idle 0 (grid5.coords t) = false := by decide +kernel
theorem liveAt5_1 : ∀ t : Fin cfg5.N, cfg5.idle 1 (grid5.coords t) = false := by decide +kernel
/-- Where k ≠ 3 the output window is idle (the body stores nothing into it) and is not written back. -/
theorem idleAt5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel
/-- Where k = 3 it is live. -/
theorem liveAt5_2 : ∀ t : Fin cfg5.N, cond5_1 (grid5.coords t) → cfg5.idle 2 (grid5.coords t) = false := by decide +kernel

/-! ## The staging memrefs at a point, and the scratch -/

/-- One staging buffer of the output window, through which its contents are stated. -/
abbrev VO5_2 : View sig .tc .vmem S1024x512 .f32 := (Memref.whole cc5_stg2_0 : Memref sig .tc .vmem S1024x512 .f32).view
abbrev ms5_0 (t : Fin cfg5.N) : Memref sig .tc .vmem S1024x1024 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x512 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x512 .f32 := win5_2.stage (cfg5.slots t 2)
abbrev hs5_2 (t : Fin cfg5.N) : (ms5_2 t).IsWhole := hstage5_2 ((cfg5.slots t 2).cast nbuf5_2)
/-- The accumulator: a whole scoped buffer of the kernel's own. -/
abbrev scM5 : Memref sig .tc .vmem S1024x512 .f32 := Memref.whole cc5_scratch0
abbrev VS5 : View sig .tc .vmem S1024x512 .f32 := scM5.view

/-- The other scoped buffers of the core, none of which this region touches. -/
abbrev restBut5 (c : Dev nD) : sProp 𝕄 :=
  Pipeline.scopedRestBut (Ix := Unit) (Name := ℕ) (U := UR sig nD τ) (Lvl := ℕ) (Val := Elt F) spec5 c [cc5_scratch0]

/-- The region's invariant before its first point: the accumulator at something, the other scoped buffers, the generator register. -/
theorem PhiA5_eq (c : Dev nD) :
    (Pipeline.ΦA spec5 c : sProp 𝕄)
      = iprop(iprop((∃ d, owns (c : Thread nD τ) scM5 fullShare d) ∗ restBut5 c) ∗ (∃ r, prngReg c r)) := by
  unfold Pipeline.ΦA; rw [scopedRest5_split]; simp only [scM5, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun5_A (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond5_0 i) (hc1 : ¬cond5_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc5__matmul_kernel i arg2 harg2 arg3 harg3 arg4 harg4 arg5 harg5) K } := by
  refine ⟨[], ?_, fun xi2 E K => ?run⟩
  case run =>
    simp only [cc5__matmul_kernel_eq_skeleton]; unfold cc5__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI5b.lean ====
/- Laid out by: python3 scratch/layout_regions.py --template-region 1 --region 5 --program KernelIdeal --parts a,b,c, --out-dir proof/Proof
   from the hand-written text of region 1 (RegKI1b.lean): the same text, the region's number substituted. -/
/-
  Region 5, case B (k = 1, 2): the body's run. Neither conditional is taken: the product of the two blocks is added to what
  the point before left in the accumulator; the output block is not touched.
-/
import proofs.«158944_j64613488001249_1_alg».proof.Proof.RegKI5a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun5_B (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond5_0 i) (hc1 : ¬cond5_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc5__matmul_kernel i arg2 harg2 arg3 harg3 arg4 harg4 arg5 harg5) K } := by
  refine ⟨[], ?_, fun xi2 E K => ?run⟩
  case run =>
    simp only [cc5__matmul_kernel_eq_skeleton]; unfold cc5__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI5c.lean ====
/- Laid out by: python3 scratch/layout_regions.py --template-region 1 --region 5 --program KernelIdeal --parts a,b,c, --out-dir proof/Proof
   from the hand-written text of region 1 (RegKI1c.lean): the same text, the region's number substituted. -/
/-
  Region 5, case C (k = 3): the body's run. The product is added to the accumulator as in case B, and then the second
  conditional copies the accumulator over the whole output block.
-/
import proofs.«158944_j64613488001249_1_alg».proof.Proof.RegKI5b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun5_C (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond5_0 i) (hc1 : cond5_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc5__matmul_kernel i arg2 harg2 arg3 harg3 arg4 harg4 arg5 harg5) K } := by
  refine ⟨?_, ?_, fun E K => ?run⟩
  case run =>
    simp only [cc5__matmul_kernel_eq_skeleton]; unfold cc5__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI5.lean ====
/- Laid out by: python3 scratch/layout_regions.py --template-region 1 --region 5 --program KernelIdeal --parts a,b,c, --out-dir proof/Proof
   from the hand-written text of region 1 (RegKI1.lean): the same text, the region's number substituted. -/
/-
  Region 5 of @main, entered from the buffer contents `V`: what its windows' blocks are, what each case of the body leaves in
  the accumulator and in the output block, the accumulator and the output block point by point (`outsAt5`: at k = 0 the
  accumulator restarts from zeros plus the product; at k = 1, 2, 3 it is the point before's plus the product; at k = 3 the
  output block is the accumulator), the region's invariant (the accumulator at `outsAt5`'s second component), the proof data,
  and the body's obligation at every point.
-/
import proofs.«158944_j64613488001249_1_alg».proof.Proof.RegKI5c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, for any proof data whose array is `V`'s and
    whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## What each case leaves -/

/-- Case A's stores into the accumulator cover it. -/
theorem scover5_A (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond5_0 i) (hc1 : ¬cond5_1 i)
    (x0 : Vec F S1024x1024 .bf16) (x1 : Vec F S1024x512 .f32) (y : S1024x512.Idx) :
    ∃ pc ∈ (kernelRun5_A c i arg2 harg2 arg3 harg3 arg4 harg4 arg5 harg5 hc0 hc1 x0 x1).2.1, y ∈ pc.1.set :=
  View.cover_of_tiledL (kernelRun5_A c i arg2 harg2 arg3 harg3 arg4 harg4 arg5 harg5 hc0 hc1 x0 x1).2.1 S1024x512.size (by sl_kernel_rfl) y
/-- What case A leaves in the accumulator. -/
noncomputable def sout5_A (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond5_0 i) (hc1 : ¬cond5_1 i)
    (x0 : Vec F S1024x1024 .bf16) (x1 : Vec F S1024x512 .f32) : Vec F S1024x512 .f32 :=
  VS5.read (Elt F) (VS5.writes (Elt F) VS5.junk (kernelRun5_A c i arg2 harg2 arg3 harg3 arg4 harg4 arg5 harg5 hc0 hc1 x0 x1).2.1)

/-- Case B's store into the accumulator covers it. -/
theorem scover5_B (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond5_0 i) (hc1 : ¬cond5_1 i)
    (x0 : Vec F S1024x1024 .bf16) (x1 : Vec F S1024x512 .f32) (xs0 : Vec F S1024x512 .f32) (y : S1024x512.Idx) :
    ∃ pc ∈ (kernelRun5_B c i arg2 harg2 arg3 harg3 arg4 harg4 arg5 harg5 hc0 hc1 x0 x1 xs0).2.1, y ∈ pc.1.set :=
  View.cover_of_tiledL (kernelRun5_B c i arg2 harg2 arg3 harg3 arg4 harg4 arg5 harg5 hc0 hc1 x0 x1 xs0).2.1 S1024x512.size (by sl_kernel_rfl) y
/-- What case B leaves in the accumulator, over what the point before left. -/
noncomputable def sout5_B (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond5_0 i) (hc1 : ¬cond5_1 i)
    (x0 : Vec F S1024x1024 .bf16) (x1 : Vec F S1024x512 .f32) (xs0 : Vec F S1024x512 .f32) : Vec F S1024x512 .f32 :=
  VS5.read (Elt F) (VS5.writes (Elt F) VS5.junk (kernelRun5_B c i arg2 harg2 arg3 harg3 arg4 harg4 arg5 harg5 hc0 hc1 x0 x1 xs0).2.1)

/-- Case C's store into the output block covers it, and so does its store into the accumulator. -/
theorem cover5_C (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond5_0 i) (hc1 : cond5_1 i)
    (x0 : Vec F S1024x1024 .bf16) (x1 : Vec F S1024x512 .f32) (xs0 : Vec F S1024x512 .f32) (y : S1024x512.Idx) :
    ∃ pc ∈ (kernelRun5_C c i arg2 harg2 arg3 harg3 arg4 harg4 arg5 harg5 hc0 hc1 x0 x1 xs0).1, y ∈ pc.1.set :=
  View.cover_of_tiledL (kernelRun5_C c i arg2 harg2 arg3 harg3 arg4 harg4 arg5 harg5 hc0 hc1 x0 x1 xs0).1 S1024x512.size (by sl_kernel_rfl) y
theorem scover5_C (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond5_0 i) (hc1 : cond5_1 i)
    (x0 : Vec F S1024x1024 .bf16) (x1 : Vec F S1024x512 .f32) (xs0 : Vec F S1024x512 .f32) (y : S1024x512.Idx) :
    ∃ pc ∈ (kernelRun5_C c i arg2 harg2 arg3 harg3 arg4 harg4 arg5 harg5 hc0 hc1 x0 x1 xs0).2.1, y ∈ pc.1.set :=
  View.cover_of_tiledL (kernelRun5_C c i arg2 harg2 arg3 harg3 arg4 harg4 arg5 harg5 hc0 hc1 x0 x1 xs0).2.1 S1024x512.size (by sl_kernel_rfl) y
/-- What case C leaves in the output block, and in the accumulator. -/
noncomputable def out5_C (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond5_0 i) (hc1 : cond5_1 i)
    (x0 : Vec F S1024x1024 .bf16) (x1 : Vec F S1024x512 .f32) (xs0 : Vec F S1024x512 .f32) : Vec F S1024x512 .f32 :=
  VO5_2.read (Elt F) (VO5_2.writes (Elt F) VO5_2.junk (kernelRun5_C c i arg2 harg2 arg3 harg3 arg4 harg4 arg5 harg5 hc0 hc1 x0 x1 xs0).1)
noncomputable def sout5_C (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond5_0 i) (hc1 : cond5_1 i)
    (x0 : Vec F S1024x1024 .bf16) (x1 : Vec F S1024x512 .f32) (xs0 : Vec F S1024x512 .f32) : Vec F S1024x512 .f32 :=
  VS5.read (Elt F) (VS5.writes (Elt F) VS5.junk (kernelRun5_C c i arg2 harg2 arg3 harg3 arg4 harg4 arg5 harg5 hc0 hc1 x0 x1 xs0).2.1)

/-- Where the output block is idle nothing consults what it holds: a placeholder. -/
noncomputable def outIdle5 : Vec F S1024x512 .f32 := VO5_2.read (Elt F) (VO5_2.writes (Elt F) VO5_2.junk [])

/-! ## The conditions at a point, from t % 4 -/

theorem isFirst5 (t : Fin cfg5.N) (h : t.val % 4 = 0) : cond5_0 (grid5.coords t) := (hcond5_0 t).mpr h
theorem notFirst5 (t : Fin cfg5.N) (h : ¬t.val % 4 = 0) : ¬cond5_0 (grid5.coords t) := fun hc => h ((hcond5_0 t).mp hc)
theorem isLast5 (t : Fin cfg5.N) (h : t.val % 4 = 3) : cond5_1 (grid5.coords t) := (hcond5_1 t).mpr h
theorem notLast5 (t : Fin cfg5.N) (h : ¬t.val % 4 = 3) : ¬cond5_1 (grid5.coords t) := fun hc => h ((hcond5_1 t).mp hc)

/-! ## The accumulator and the output block, point by point -/

/-- After the body at position `n`: (the output block's buffer, the accumulator). -/
noncomputable def outsAt5 (c : Dev nD) : (n : ℕ) → n < cfg5.N → Vec F S1024x512 .f32 × Vec F S1024x512 .f32
  | 0, hn => (outIdle5, sout5_A c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5 (Memref.isWhole_whole _) (isFirst5 ⟨0, hn⟩ (Nat.zero_mod _)) (notLast5 ⟨0, hn⟩ (by simp)) (iblk5 V c 0 ⟨0, hn⟩) (iblk5 V c 1 ⟨0, hn⟩))
  | n + 1, hn =>
    if h0 : (n + 1) % 4 = 0 then
      (outIdle5, sout5_A c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5 (Memref.isWhole_whole _) (isFirst5 ⟨n + 1, hn⟩ h0) (notLast5 ⟨n + 1, hn⟩ (by show ¬(n + 1) % 4 = 3; omega)) (iblk5 V c 0 ⟨n + 1, hn⟩) (iblk5 V c 1 ⟨n + 1, hn⟩))
    else if h3 : (n + 1) % 4 = 3 then
      (out5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5 (Memref.isWhole_whole _) (notFirst5 ⟨n + 1, hn⟩ h0) (isLast5 ⟨n + 1, hn⟩ h3) (iblk5 V c 0 ⟨n + 1, hn⟩) (iblk5 V c 1 ⟨n + 1, hn⟩) (outsAt5 c n (Nat.lt_of_succ_lt hn)).2,
       sout5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5 (Memref.isWhole_whole _) (notFirst5 ⟨n + 1, hn⟩ h0) (isLast5 ⟨n + 1, hn⟩ h3) (iblk5 V c 0 ⟨n + 1, hn⟩) (iblk5 V c 1 ⟨n + 1, hn⟩) (outsAt5 c n (Nat.lt_of_succ_lt hn)).2)
    else
      (outIdle5, sout5_B c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5 (Memref.isWhole_whole _) (notFirst5 ⟨n + 1, hn⟩ h0) (notLast5 ⟨n + 1, hn⟩ h3) (iblk5 V c 0 ⟨n + 1, hn⟩) (iblk5 V c 1 ⟨n + 1, hn⟩) (outsAt5 c n (Nat.lt_of_succ_lt hn)).2)

/-- `outsAt5` at a point with k = 0. -/
theorem outsAt5_A (c : Dev nD) (t : Fin cfg5.N) (h0 : t.val % 4 = 0) :
    outsAt5 V c t.val t.isLt = (outIdle5, sout5_A c (grid5.coords t) (ms5_0 t) (hs5_0 t) (ms5_1 t) (hs5_1 t) (ms5_2 t) (hs5_2 t) scM5 (Memref.isWhole_whole _) (isFirst5 t h0) (notLast5 t (by omega)) (iblk5 V c 0 t) (iblk5 V c 1 t)) := by
  obtain ⟨n, hn⟩ := t
  cases n with
  | zero => rfl
  | succ n => exact (dif_pos h0).trans rfl

/-- `outsAt5` at a point with k = 1, 2: over what the point before left. -/
theorem outsAt5_B (c : Dev nD) (t : Fin cfg5.N) (h0 : ¬t.val % 4 = 0) (h3 : ¬t.val % 4 = 3) :
    outsAt5 V c t.val t.isLt = (outIdle5, sout5_B c (grid5.coords t) (ms5_0 t) (hs5_0 t) (ms5_1 t) (hs5_1 t) (ms5_2 t) (hs5_2 t) scM5 (Memref.isWhole_whole _) (notFirst5 t h0) (notLast5 t h3) (iblk5 V c 0 t) (iblk5 V c 1 t)
      (outsAt5 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt5` at a point with k = 3. -/
theorem outsAt5_C (c : Dev nD) (t : Fin cfg5.N) (h0 : ¬t.val % 4 = 0) (h3 : t.val % 4 = 3) :
    outsAt5 V c t.val t.isLt = (out5_C c (grid5.coords t) (ms5_0 t) (hs5_0 t) (ms5_1 t) (hs5_1 t) (ms5_2 t) (hs5_2 t) scM5 (Memref.isWhole_whole _) (notFirst5 t h0) (isLast5 t h3) (iblk5 V c 0 t) (iblk5 V c 1 t)
        (outsAt5 V c (t.val - 1) (Nat.lt_of_le_of_lt (Nat.sub_le _ _) t.isLt)).2,
      sout5_C c (grid5.coords t) (ms5_0 t) (hs5_0 t) (ms5_1 t) (hs5_1 t) (ms5_2 t) (hs5_2 t) scM5 (Memref.isWhole_whole _) (notFirst5 t h0) (isLast5 t h3) (iblk5 V c 0 t) (iblk5 V c 1 t)
        (outsAt5 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS5 (c : Dev nD) : (n : ℕ) → n ≤ cfg5.N → sProp 𝕄
  | 0, _ => Pipeline.ΦA spec5 c
  | n + 1, hn => iprop(iprop(owns (c : Thread nD τ) scM5 fullShare ((outsAt5 V c n hn).2) ∗ restBut5 c) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(owns (c : Thread nD τ) scM5 fullShare ((outsAt5 V c n hn).2) ∗ restBut5 c) ∗ (∃ r, prngReg c r)) := rfl
theorem PhiS5_pos (c : Dev nD) (n : ℕ) (h : n ≤ cfg5.N) (hz : n ≠ 0) :
    PhiS5 V c n h = iprop(iprop(owns (c : Thread nD τ) scM5 fullShare ((outsAt5 V c (n - 1) (by omega)).2) ∗ restBut5 c) ∗ (∃ r, prngReg c r)) := by
  cases n with
  | zero => exact absurd rfl hz
  | succ n => rfl

/-! ## The proof data -/

/-- The region's proof data on core `c`: the arrays as the region finds them; after the body at point `t` each input's
    buffer at its block and the output's at `outsAt5`'s first component; the invariant `PhiS5`; nothing owed; full shares. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body's obligation -/

noncomputable def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

noncomputable def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  by_cases h0 : t.val % 4 = 0
  · have h3 : ¬t.val % 4 = 3 := by omega
    rw [Dat.leavesExact_idle (dat5 V c) 2 t (idleAt5_2 t (notLast5 t h3)) (noFlush5_2 t (notLast5 t h3))]
    rw [outsAt5_A V c t h0]
    unfold sout5_A; (try dsimp only)
    by_cases hz : t.val = 0
    · rw [PhiS5_castSucc V c t, PhiS5_zero V c _ _ hz, PhiA5_eq]
      iintro ⟨⟨⟨HS0, Hrb⟩, Hg⟩, Ho, ⟨%d0, H0⟩, ⟨%d1, H1⟩, ⟨%d2, H2⟩⟩
      iapply ((kernelRun5_A c (grid5.coords t) _ _ _ _ _ _ _ _ (isFirst5 t h0) (notLast5 t (by omega)) (iblk5 V c 0 t) (iblk5 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover5_A c _ _ _ _ _ _ _ _ _ _ _ _ _)
          iexact Hrb
        iexact Hg
      isplitl [Ho]; · iexact Ho
      isplitl [H0]; · iexact H0
      isplitl [H1]; · iexact H1
      iexists _; iexact H2
    · rw [PhiS5_castSucc V c t, PhiS5_pos V c _ _ hz]
      iintro ⟨⟨⟨HS0, Hrb⟩, Hg⟩, Ho, ⟨%d0, H0⟩, ⟨%d1, H1⟩, ⟨%d2, H2⟩⟩
      iapply ((kernelRun5_A c (grid5.coords t) _ _ _ _ _ _ _ _ (isFirst5 t h0) (notLast5 t (by omega)) (iblk5 V c 0 t) (iblk5 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover5_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat5 V c).leavesExact 2 t = owns (c : Thread nD τ) (ms5_2 t) fullShare ((dat5 V c).after 2 t) from by
        unfold Dat.leavesExact; rw [liveAt5_2 t (isLast5 t h3)], after5_2]
      rw [outsAt5_C V c t h0 h3]
      unfold out5_C sout5_C; (try dsimp only)
      rw [PhiS5_castSucc V c t, PhiS5_pos V c _ _ hz]
      iintro ⟨⟨⟨HS0, Hrb⟩, Hg⟩, Ho, ⟨%d0, H0⟩, ⟨%d1, H1⟩, ⟨%d2, H2⟩⟩
      iapply ((kernelRun5_C c (grid5.coords t) _ _ _ _ _ _ _ _ (notFirst5 t h0) (isLast5 t h3) (iblk5 V c 0 t) (iblk5 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover5_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover5_C c _ _ _ _ _ _ _ _ _ _ _ _ _ _)
    · rw [Dat.leavesExact_idle (dat5 V c) 2 t (idleAt5_2 t (notLast5 t h3)) (noFlush5_2 t (notLast5 t h3))]
      rw [outsAt5_B V c t h0 h3]
      unfold sout5_B; (try dsimp only)
      rw [PhiS5_castSucc V c t, PhiS5_pos V c _ _ hz]
      iintro ⟨⟨⟨HS0, Hrb⟩, Hg⟩, Ho, ⟨%d0, H0⟩, ⟨%d1, H1⟩, ⟨%d2, H2⟩⟩
      iapply ((kernelRun5_B c (grid5.coords t) _ _ _ _ _ _ _ _ (notFirst5 t h0) (notLast5 t h3) (iblk5 V c 0 t) (iblk5 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover5_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the region is entered with is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the class's back: the accumulator's contents are forgotten. -/
theorem hout5 (c : Dev nD) : (dat5 V c).Φ (Fin.last cfg5.N) ⊢ Pipeline.ΦA spec5 c := by
  have hN : cfg5.N = 16 := N_5
  rw [show (dat5 V c).Φ (Fin.last cfg5.N) = PhiS5 V c (Fin.last cfg5.N).val (Nat.le_of_lt_succ (Fin.last cfg5.N).isLt) from rfl,
    PhiS5_pos V c _ _ (by rw [Fin.val_last]; omega), PhiA5_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI6a.lean ====
/- Laid out by: python3 scratch/layout_grid41.py --template-region 0 --region 6 --program KernelIdeal --parts a, --shapes S1024x128=S1024x512,S128x512=S512x512
   from the hand-written text of region 0 (RegKI0a.lean): the same text, the region's number, block shapes substituted. -/
/- The region of KernelIdeal's @main that runs `cc6__matmul_kernel` (pipeline `cfg6`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond6_0 (i : grid6.Coords) : Prop :=
  (Scalar.cmpi .ne (Scalar.extui (Scalar.cmpi .eq (BitVec.ofNat 32 (i 1).val) 0#32)) 0#32) = 1#1
/-- True at every point: the reduction axis has one step. -/
theorem hcond6_0 : ∀ t : Fin cfg6.N, cond6_0 (grid6.coords t) :=
  (by decide +kernel : ∀ t : Fin grid6.N, cond6_0 (grid6.coords t))

/-- "This is the last reduction step" (the guard of the copy to the output block). -/
abbrev cond6_1 (i : grid6.Coords) : Prop := k6_cond2 i = 1#1
/-- True at every point, for the same reason. -/
theorem hcond6_1 : ∀ t : Fin cfg6.N, cond6_1 (grid6.coords t) :=
  (by decide +kernel : ∀ t : Fin grid6.N, cond6_1 (grid6.coords t))

/-! ## No window is idle anywhere -/

theorem liveAt6_0 : ∀ t : Fin cfg6.N, cfg6.idle 0 (grid6.coords t) = false := by decide +kernel
theorem liveAt6_1 : ∀ t : Fin cfg6.N, cfg6.idle 1 (grid6.coords t) = false := by decide +kernel
/-- The output window is stored at every point (the copy's guard holds everywhere). -/
theorem liveAt6_2 : ∀ t : Fin cfg6.N, cfg6.idle 2 (grid6.coords t) = false := by decide +kernel

/-! ## The memrefs the body is called on -/

/-- One staging buffer of the output window, through which its contents are stated (any whole view of the shape reads the
    same pieces back the same way). -/
abbrev VO6_2 : View sig .tc .vmem S1024x512 .f32 := (Memref.whole cc6_stg2_0 : Memref sig .tc .vmem S1024x512 .f32).view
/-- Each window's current staging memref at point `t`, spelt as the pipeline passes it, with its wholeness. -/
abbrev ms6_0 (t : Fin cfg6.N) : Memref sig .tc .vmem S1024x512 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S512x512 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x512 .f32 := win6_2.stage (cfg6.slots t 2)
abbrev hs6_2 (t : Fin cfg6.N) : (ms6_2 t).IsWhole := hstage6_2 ((cfg6.slots t 2).cast nbuf6_2)
/-- The accumulator: a whole scoped buffer of the kernel's own, passed beside the windows. -/
abbrev scM6_0 : Memref sig .tc .vmem S1024x512 .f32 := Memref.whole cc6_scratch0
abbrev VS6_0 : View sig .tc .vmem S1024x512 .f32 := scM6_0.view

/-- The region invariant with the accumulator taken out of the scoped rest: the accumulator owned at some contents, every
    other scoped buffer unopened, and the generator register. -/
theorem PhiA6_eq (c : Dev nD) :
    (Pipeline.ΦA spec6 c : sProp 𝕄)
      = iprop(iprop(iprop((∃ d, owns (c : Thread nD τ) scM6_0 fullShare d))
            ∗ Pipeline.scopedRestBut (Ix := Unit) (Name := ℕ) (U := UR sig nD τ) (Lvl := ℕ) (Val := Elt F) spec6 c [cc6_scratch0])
          ∗ (∃ r, prngReg c r)) := by
  unfold Pipeline.ΦA; rw [scopedRest6_split]; simp only [scM6_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun6 (c : Dev nD) (i : grid6.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond6_0 i) (hlast : cond6_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc6__matmul_kernel i arg2 harg2 arg3 harg3 arg4 harg4 arg5 harg5) K } := by
  refine ⟨?_, ?_, fun E K => ?run⟩
  case run =>
    simp only [cc6__matmul_kernel_eq_skeleton]; unfold cc6__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.KernelIdeal.Hand

end
-- ==== Proof.RegKI6.lean ====
/- Laid out by: python3 scratch/layout_grid41.py --template-region 0 --region 6 --program KernelIdeal --parts a, --shapes S1024x128=S1024x512,S128x512=S512x512
   from the hand-written text of region 0 (RegKI0.lean): the same text, the region's number, block shapes substituted. -/
/- The region of KernelIdeal's @main that runs `cc6__matmul_kernel` (pipeline `cfg6`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegKI6a
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## What the case leaves, as pieces read back -/

/-- The output's pieces tile its block (one whole-block store). -/
theorem cover6_2 (c : Dev nD) (i : grid6.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond6_0 i) (hlast : cond6_1 i) (xa : Vec F S1024x512 .f32) (xb : Vec F S512x512 .bf16) (y : S1024x512.Idx) :
    ∃ pc ∈ (kernelRun6 c i arg2 harg2 arg3 harg3 arg4 harg4 arg5 harg5 hfirst hlast xa xb).1, y ∈ pc.1.set :=
  View.cover_of_tiledL (kernelRun6 c i arg2 harg2 arg3 harg3 arg4 harg4 arg5 harg5 hfirst hlast xa xb).1 S1024x512.size (by sl_kernel_rfl) y

/-- What the case leaves in the output's staging buffer: its pieces read back over junk. -/
noncomputable def out6_2 (c : Dev nD) (i : grid6.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond6_0 i) (hlast : cond6_1 i) (xa : Vec F S1024x512 .f32) (xb : Vec F S512x512 .bf16) : Vec F S1024x512 .f32 :=
  VO6_2.read (Elt F) (VO6_2.writes (Elt F) VO6_2.junk (kernelRun6 c i arg2 harg2 arg3 harg3 arg4 harg4 arg5 harg5 hfirst hlast xa xb).1)

/-- What the case leaves in the accumulator: its pieces read back over junk. -/
noncomputable def sout6_0 (c : Dev nD) (i : grid6.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond6_0 i) (hlast : cond6_1 i) (xa : Vec F S1024x512 .f32) (xb : Vec F S512x512 .bf16) : Vec F S1024x512 .f32 :=
  VS6_0.read (Elt F) (VS6_0.writes (Elt F) VS6_0.junk (kernelRun6 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout6_0_eq (c : Dev nD) (i : grid6.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond6_0 i) (hlast : cond6_1 i) (xa : Vec F S1024x512 .f32) (xb : Vec F S512x512 .bf16) :
    sout6_0 c i arg2 harg2 arg3 harg3 arg4 harg4 arg5 harg5 hfirst hlast xa xb = k6_pay2 xa xb (k6_pay1 (F := F)) := by
  unfold sout6_0
  rw [View.read_writes_junk_eq_canon]
  unfold kernelRun6
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out6_2_eq (c : Dev nD) (i : grid6.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond6_0 i) (hlast : cond6_1 i) (xa : Vec F S1024x512 .f32) (xb : Vec F S512x512 .bf16) :
    out6_2 c i arg2 harg2 arg3 harg3 arg4 harg4 arg5 harg5 hfirst hlast xa xb = k6_pay2 xa xb (k6_pay1 (F := F)) := by
  unfold out6_2
  rw [View.read_writes_junk_eq_canon]
  unfold kernelRun6
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt6 (c : Dev nD) (n : ℕ) (hn : n < cfg6.N) : Vec F S1024x512 .f32 × Vec F S1024x512 .f32 :=
  (out6_2 c (grid6.coords ⟨n, hn⟩) (ms6_0 ⟨n, hn⟩) (hs6_0 ⟨n, hn⟩) (ms6_1 ⟨n, hn⟩) (hs6_1 ⟨n, hn⟩) (ms6_2 ⟨n, hn⟩) (hs6_2 ⟨n, hn⟩) scM6_0 (Memref.isWhole_whole _)
      (hcond6_0 ⟨n, hn⟩) (hcond6_1 ⟨n, hn⟩) (iblk6 V c 0 ⟨n, hn⟩) (iblk6 V c 1 ⟨n, hn⟩),
   sout6_0 c (grid6.coords ⟨n, hn⟩) (ms6_0 ⟨n, hn⟩) (hs6_0 ⟨n, hn⟩) (ms6_1 ⟨n, hn⟩) (hs6_1 ⟨n, hn⟩) (ms6_2 ⟨n, hn⟩) (hs6_2 ⟨n, hn⟩) scM6_0 (Memref.isWhole_whole _)
      (hcond6_0 ⟨n, hn⟩) (hcond6_1 ⟨n, hn⟩) (iblk6 V c 0 ⟨n, hn⟩) (iblk6 V c 1 ⟨n, hn⟩))

/-- Every point is a first reduction step: the accumulator after it is one product onto zero. -/
theorem outsAt6_first (c : Dev nD) (t : Fin cfg6.N) :
    (outsAt6 V c t.val t.isLt).2 = k6_pay2 (iblk6 V c 0 t) (iblk6 V c 1 t) (k6_pay1 (F := F)) := by
  obtain ⟨n, hn⟩ := t
  unfold outsAt6
  dsimp only
  rw [sout6_0_eq]

/-- Every point is a last reduction step: the output block after it is the accumulator. -/
theorem outsAt6_last (c : Dev nD) (t : Fin cfg6.N) :
    (outsAt6 V c t.val t.isLt).1 = (outsAt6 V c t.val t.isLt).2 := by
  obtain ⟨n, hn⟩ := t
  unfold outsAt6
  dsimp only
  rw [out6_2_eq, sout6_0_eq]

/-! ## The pipeline's proof data -/

/-- The proof data of the pipeline on core `c`: the arrays as the region finds them; after the body at point `t` each input's
    buffer at its block and the output's at `outsAt6`'s first component; the invariant the same at every point; nothing owed;
    full shares. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]

/-- An input's current staging buffer holds its block at every point, fetched there or not: where it is not fetched its block
    index has not moved since the point before, and the body left the block in place. -/
theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)

/-! ## The body obligation, at a generic point -/

/-- What the body is called with at point `t`, the windows one by one, -/
noncomputable def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns. -/
noncomputable def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl,
    show (dat6 V c).Φ t.succ = Pipeline.ΦA spec6 c from rfl, show (dat6 V c).Φ t.castSucc = Pipeline.ΦA spec6 c from rfl, PhiA6_eq]
  rw [show (dat6 V c).leavesExact 0 t = owns (c : Thread nD τ) (ms6_0 t) fullShare ((dat6 V c).after 0 t) from by
      unfold Dat.leavesExact; rw [liveAt6_0 t], after6_0]
  rw [show (dat6 V c).leavesExact 1 t = owns (c : Thread nD τ) (ms6_1 t) fullShare ((dat6 V c).after 1 t) from by
      unfold Dat.leavesExact; rw [liveAt6_1 t], after6_1]
  rw [show (dat6 V c).leavesExact 2 t = owns (c : Thread nD τ) (ms6_2 t) fullShare ((dat6 V c).after 2 t) from by
      unfold Dat.leavesExact; rw [liveAt6_2 t], after6_2]
  unfold outsAt6 out6_2; (try dsimp only)
  iintro ⟨⟨⟨Hacc, Hrest⟩, Hgen⟩, Howe, ⟨%da, Ha⟩, ⟨%db, Hb⟩, ⟨%dO, Hout⟩⟩
  iapply ((kernelRun6 c (grid6.coords t) _ _ _ _ _ _ _ _ (hcond6_0 t) (hcond6_1 t) (iblk6 V c 0 t) (iblk6 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover6_2 c _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point, -/
theorem hin6 (c : Dev nD) : Pipeline.ΦA spec6 c ⊢ (dat6 V c).Φ 0 := Idealize.SL.BI.Entails.refl _

/-- and the invariant after the last point is what the launch takes back. -/
theorem hout6 (c : Dev nD) : (dat6 V c).Φ (Fin.last cfg6.N) ⊢ Pipeline.ΦA spec6 c := Idealize.SL.BI.Entails.refl _

end Cert.KernelIdeal.Hand

end
-- ==== Proof.RegKI7a.lean ====
/- Laid out by: python3 scratch/layout_regions.py --template-region 1 --region 7 --program KernelIdeal --parts a,b,c, --out-dir proof/Proof
   from the hand-written text of region 1 (RegKI1a.lean): the same text, the region's number substituted. -/
/-
  Region 7 of @main (custom_call 7): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond7_0 (i : grid7.Coords) : Prop := (Scalar.cmpi .ne (Scalar.extui (Scalar.cmpi .eq (BitVec.ofNat 32 (i 1).val) 0#32)) 0#32) = 1#1
/-- It holds exactly at the points with t % 4 = 0. -/
theorem hcond7_0 : ∀ t : Fin cfg7.N, cond7_0 (grid7.coords t) ↔ t.val % 4 = 0 :=
  (by decide +kernel : ∀ t : Fin grid7.N, cond7_0 (grid7.coords t) ↔ t.val % 4 = 0)

/-- "k = 3": the second conditional's test. -/
abbrev cond7_1 (i : grid7.Coords) : Prop := k7_cond2 i = 1#1
/-- It holds exactly at the points with t % 4 = 3. -/
theorem hcond7_1 : ∀ t : Fin cfg7.N, cond7_1 (grid7.coords t) ↔ t.val % 4 = 3 :=
  (by decide +kernel : ∀ t : Fin grid7.N, cond7_1 (grid7.coords t) ↔ t.val % 4 = 3)

/-! ## Where the windows are idle, and where the output is written back -/

/-- The two input windows are never idle. -/
theorem liveAt7_0 : ∀ t : Fin cfg7.N, cfg7.idle 0 (grid7.coords t) = false := by decide +kernel
theorem liveAt7_1 : ∀ t : Fin cfg7.N, cfg7.idle 1 (grid7.coords t) = false := by decide +kernel
/-- Where k ≠ 3 the output window is idle (the body stores nothing into it) and is not written back. -/
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
/-- Where k = 3 it is live. -/
theorem liveAt7_2 : ∀ t : Fin cfg7.N, cond7_1 (grid7.coords t) → cfg7.idle 2 (grid7.coords t) = false := by decide +kernel

/-! ## The staging memrefs at a point, and the scratch -/

/-- One staging buffer of the output window, through which its contents are stated. -/
abbrev VO7_2 : View sig .tc .vmem S1024x512 .f32 := (Memref.whole cc7_stg2_0 : Memref sig .tc .vmem S1024x512 .f32).view
abbrev ms7_0 (t : Fin cfg7.N) : Memref sig .tc .vmem S1024x1024 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x512 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x512 .f32 := win7_2.stage (cfg7.slots t 2)
abbrev hs7_2 (t : Fin cfg7.N) : (ms7_2 t).IsWhole := hstage7_2 ((cfg7.slots t 2).cast nbuf7_2)
/-- The accumulator: a whole scoped buffer of the kernel's own. -/
abbrev scM7 : Memref sig .tc .vmem S1024x512 .f32 := Memref.whole cc7_scratch0
abbrev VS7 : View sig .tc .vmem S1024x512 .f32 := scM7.view

/-- The other scoped buffers of the core, none of which this region touches. -/
abbrev restBut7 (c : Dev nD) : sProp 𝕄 :=
  Pipeline.scopedRestBut (Ix := Unit) (Name := ℕ) (U := UR sig nD τ) (Lvl := ℕ) (Val := Elt F) spec7 c [cc7_scratch0]

/-- The region's invariant before its first point: the accumulator at something, the other scoped buffers, the generator register. -/
theorem PhiA7_eq (c : Dev nD) :
    (Pipeline.ΦA spec7 c : sProp 𝕄)
      = iprop(iprop((∃ d, owns (c : Thread nD τ) scM7 fullShare d) ∗ restBut7 c) ∗ (∃ r, prngReg c r)) := by
  unfold Pipeline.ΦA; rw [scopedRest7_split]; simp only [scM7, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun7_A (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond7_0 i) (hc1 : ¬cond7_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc7__matmul_kernel i arg2 harg2 arg3 harg3 arg4 harg4 arg5 harg5) K } := by
  refine ⟨[], ?_, fun xi2 E K => ?run⟩
  case run =>
    simp only [cc7__matmul_kernel_eq_skeleton]; unfold cc7__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI7b.lean ====
/- Laid out by: python3 scratch/layout_regions.py --template-region 1 --region 7 --program KernelIdeal --parts a,b,c, --out-dir proof/Proof
   from the hand-written text of region 1 (RegKI1b.lean): the same text, the region's number substituted. -/
/-
  Region 7, case B (k = 1, 2): the body's run. Neither conditional is taken: the product of the two blocks is added to what
  the point before left in the accumulator; the output block is not touched.
-/
import proofs.«158944_j64613488001249_1_alg».proof.Proof.RegKI7a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun7_B (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond7_0 i) (hc1 : ¬cond7_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc7__matmul_kernel i arg2 harg2 arg3 harg3 arg4 harg4 arg5 harg5) K } := by
  refine ⟨[], ?_, fun xi2 E K => ?run⟩
  case run =>
    simp only [cc7__matmul_kernel_eq_skeleton]; unfold cc7__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI7c.lean ====
/- Laid out by: python3 scratch/layout_regions.py --template-region 1 --region 7 --program KernelIdeal --parts a,b,c, --out-dir proof/Proof
   from the hand-written text of region 1 (RegKI1c.lean): the same text, the region's number substituted. -/
/-
  Region 7, case C (k = 3): the body's run. The product is added to the accumulator as in case B, and then the second
  conditional copies the accumulator over the whole output block.
-/
import proofs.«158944_j64613488001249_1_alg».proof.Proof.RegKI7b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun7_C (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond7_0 i) (hc1 : cond7_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc7__matmul_kernel i arg2 harg2 arg3 harg3 arg4 harg4 arg5 harg5) K } := by
  refine ⟨?_, ?_, fun E K => ?run⟩
  case run =>
    simp only [cc7__matmul_kernel_eq_skeleton]; unfold cc7__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI7.lean ====
/- Laid out by: python3 scratch/layout_regions.py --template-region 1 --region 7 --program KernelIdeal --parts a,b,c, --out-dir proof/Proof
   from the hand-written text of region 1 (RegKI1.lean): the same text, the region's number substituted. -/
/-
  Region 7 of @main, entered from the buffer contents `V`: what its windows' blocks are, what each case of the body leaves in
  the accumulator and in the output block, the accumulator and the output block point by point (`outsAt7`: at k = 0 the
  accumulator restarts from zeros plus the product; at k = 1, 2, 3 it is the point before's plus the product; at k = 3 the
  output block is the accumulator), the region's invariant (the accumulator at `outsAt7`'s second component), the proof data,
  and the body's obligation at every point.
-/
import proofs.«158944_j64613488001249_1_alg».proof.Proof.RegKI7c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, for any proof data whose array is `V`'s and
    whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## What each case leaves -/

/-- Case A's stores into the accumulator cover it. -/
theorem scover7_A (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond7_0 i) (hc1 : ¬cond7_1 i)
    (x0 : Vec F S1024x1024 .bf16) (x1 : Vec F S1024x512 .f32) (y : S1024x512.Idx) :
    ∃ pc ∈ (kernelRun7_A c i arg2 harg2 arg3 harg3 arg4 harg4 arg5 harg5 hc0 hc1 x0 x1).2.1, y ∈ pc.1.set :=
  View.cover_of_tiledL (kernelRun7_A c i arg2 harg2 arg3 harg3 arg4 harg4 arg5 harg5 hc0 hc1 x0 x1).2.1 S1024x512.size (by sl_kernel_rfl) y
/-- What case A leaves in the accumulator. -/
noncomputable def sout7_A (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond7_0 i) (hc1 : ¬cond7_1 i)
    (x0 : Vec F S1024x1024 .bf16) (x1 : Vec F S1024x512 .f32) : Vec F S1024x512 .f32 :=
  VS7.read (Elt F) (VS7.writes (Elt F) VS7.junk (kernelRun7_A c i arg2 harg2 arg3 harg3 arg4 harg4 arg5 harg5 hc0 hc1 x0 x1).2.1)

/-- Case B's store into the accumulator covers it. -/
theorem scover7_B (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond7_0 i) (hc1 : ¬cond7_1 i)
    (x0 : Vec F S1024x1024 .bf16) (x1 : Vec F S1024x512 .f32) (xs0 : Vec F S1024x512 .f32) (y : S1024x512.Idx) :
    ∃ pc ∈ (kernelRun7_B c i arg2 harg2 arg3 harg3 arg4 harg4 arg5 harg5 hc0 hc1 x0 x1 xs0).2.1, y ∈ pc.1.set :=
  View.cover_of_tiledL (kernelRun7_B c i arg2 harg2 arg3 harg3 arg4 harg4 arg5 harg5 hc0 hc1 x0 x1 xs0).2.1 S1024x512.size (by sl_kernel_rfl) y
/-- What case B leaves in the accumulator, over what the point before left. -/
noncomputable def sout7_B (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond7_0 i) (hc1 : ¬cond7_1 i)
    (x0 : Vec F S1024x1024 .bf16) (x1 : Vec F S1024x512 .f32) (xs0 : Vec F S1024x512 .f32) : Vec F S1024x512 .f32 :=
  VS7.read (Elt F) (VS7.writes (Elt F) VS7.junk (kernelRun7_B c i arg2 harg2 arg3 harg3 arg4 harg4 arg5 harg5 hc0 hc1 x0 x1 xs0).2.1)

/-- Case C's store into the output block covers it, and so does its store into the accumulator. -/
theorem cover7_C (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond7_0 i) (hc1 : cond7_1 i)
    (x0 : Vec F S1024x1024 .bf16) (x1 : Vec F S1024x512 .f32) (xs0 : Vec F S1024x512 .f32) (y : S1024x512.Idx) :
    ∃ pc ∈ (kernelRun7_C c i arg2 harg2 arg3 harg3 arg4 harg4 arg5 harg5 hc0 hc1 x0 x1 xs0).1, y ∈ pc.1.set :=
  View.cover_of_tiledL (kernelRun7_C c i arg2 harg2 arg3 harg3 arg4 harg4 arg5 harg5 hc0 hc1 x0 x1 xs0).1 S1024x512.size (by sl_kernel_rfl) y
theorem scover7_C (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond7_0 i) (hc1 : cond7_1 i)
    (x0 : Vec F S1024x1024 .bf16) (x1 : Vec F S1024x512 .f32) (xs0 : Vec F S1024x512 .f32) (y : S1024x512.Idx) :
    ∃ pc ∈ (kernelRun7_C c i arg2 harg2 arg3 harg3 arg4 harg4 arg5 harg5 hc0 hc1 x0 x1 xs0).2.1, y ∈ pc.1.set :=
  View.cover_of_tiledL (kernelRun7_C c i arg2 harg2 arg3 harg3 arg4 harg4 arg5 harg5 hc0 hc1 x0 x1 xs0).2.1 S1024x512.size (by sl_kernel_rfl) y
/-- What case C leaves in the output block, and in the accumulator. -/
noncomputable def out7_C (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond7_0 i) (hc1 : cond7_1 i)
    (x0 : Vec F S1024x1024 .bf16) (x1 : Vec F S1024x512 .f32) (xs0 : Vec F S1024x512 .f32) : Vec F S1024x512 .f32 :=
  VO7_2.read (Elt F) (VO7_2.writes (Elt F) VO7_2.junk (kernelRun7_C c i arg2 harg2 arg3 harg3 arg4 harg4 arg5 harg5 hc0 hc1 x0 x1 xs0).1)
noncomputable def sout7_C (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond7_0 i) (hc1 : cond7_1 i)
    (x0 : Vec F S1024x1024 .bf16) (x1 : Vec F S1024x512 .f32) (xs0 : Vec F S1024x512 .f32) : Vec F S1024x512 .f32 :=
  VS7.read (Elt F) (VS7.writes (Elt F) VS7.junk (kernelRun7_C c i arg2 harg2 arg3 harg3 arg4 harg4 arg5 harg5 hc0 hc1 x0 x1 xs0).2.1)

/-- Where the output block is idle nothing consults what it holds: a placeholder. -/
noncomputable def outIdle7 : Vec F S1024x512 .f32 := VO7_2.read (Elt F) (VO7_2.writes (Elt F) VO7_2.junk [])

/-! ## The conditions at a point, from t % 4 -/

theorem isFirst7 (t : Fin cfg7.N) (h : t.val % 4 = 0) : cond7_0 (grid7.coords t) := (hcond7_0 t).mpr h
theorem notFirst7 (t : Fin cfg7.N) (h : ¬t.val % 4 = 0) : ¬cond7_0 (grid7.coords t) := fun hc => h ((hcond7_0 t).mp hc)
theorem isLast7 (t : Fin cfg7.N) (h : t.val % 4 = 3) : cond7_1 (grid7.coords t) := (hcond7_1 t).mpr h
theorem notLast7 (t : Fin cfg7.N) (h : ¬t.val % 4 = 3) : ¬cond7_1 (grid7.coords t) := fun hc => h ((hcond7_1 t).mp hc)

/-! ## The accumulator and the output block, point by point -/

/-- After the body at position `n`: (the output block's buffer, the accumulator). -/
noncomputable def outsAt7 (c : Dev nD) : (n : ℕ) → n < cfg7.N → Vec F S1024x512 .f32 × Vec F S1024x512 .f32
  | 0, hn => (outIdle7, sout7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7 (Memref.isWhole_whole _) (isFirst7 ⟨0, hn⟩ (Nat.zero_mod _)) (notLast7 ⟨0, hn⟩ (by simp)) (iblk7 V c 0 ⟨0, hn⟩) (iblk7 V c 1 ⟨0, hn⟩))
  | n + 1, hn =>
    if h0 : (n + 1) % 4 = 0 then
      (outIdle7, sout7_A c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7 (Memref.isWhole_whole _) (isFirst7 ⟨n + 1, hn⟩ h0) (notLast7 ⟨n + 1, hn⟩ (by show ¬(n + 1) % 4 = 3; omega)) (iblk7 V c 0 ⟨n + 1, hn⟩) (iblk7 V c 1 ⟨n + 1, hn⟩))
    else if h3 : (n + 1) % 4 = 3 then
      (out7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7 (Memref.isWhole_whole _) (notFirst7 ⟨n + 1, hn⟩ h0) (isLast7 ⟨n + 1, hn⟩ h3) (iblk7 V c 0 ⟨n + 1, hn⟩) (iblk7 V c 1 ⟨n + 1, hn⟩) (outsAt7 c n (Nat.lt_of_succ_lt hn)).2,
       sout7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7 (Memref.isWhole_whole _) (notFirst7 ⟨n + 1, hn⟩ h0) (isLast7 ⟨n + 1, hn⟩ h3) (iblk7 V c 0 ⟨n + 1, hn⟩) (iblk7 V c 1 ⟨n + 1, hn⟩) (outsAt7 c n (Nat.lt_of_succ_lt hn)).2)
    else
      (outIdle7, sout7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7 (Memref.isWhole_whole _) (notFirst7 ⟨n + 1, hn⟩ h0) (notLast7 ⟨n + 1, hn⟩ h3) (iblk7 V c 0 ⟨n + 1, hn⟩) (iblk7 V c 1 ⟨n + 1, hn⟩) (outsAt7 c n (Nat.lt_of_succ_lt hn)).2)

/-- `outsAt7` at a point with k = 0. -/
theorem outsAt7_A (c : Dev nD) (t : Fin cfg7.N) (h0 : t.val % 4 = 0) :
    outsAt7 V c t.val t.isLt = (outIdle7, sout7_A c (grid7.coords t) (ms7_0 t) (hs7_0 t) (ms7_1 t) (hs7_1 t) (ms7_2 t) (hs7_2 t) scM7 (Memref.isWhole_whole _) (isFirst7 t h0) (notLast7 t (by omega)) (iblk7 V c 0 t) (iblk7 V c 1 t)) := by
  obtain ⟨n, hn⟩ := t
  cases n with
  | zero => rfl
  | succ n => exact (dif_pos h0).trans rfl

/-- `outsAt7` at a point with k = 1, 2: over what the point before left. -/
theorem outsAt7_B (c : Dev nD) (t : Fin cfg7.N) (h0 : ¬t.val % 4 = 0) (h3 : ¬t.val % 4 = 3) :
    outsAt7 V c t.val t.isLt = (outIdle7, sout7_B c (grid7.coords t) (ms7_0 t) (hs7_0 t) (ms7_1 t) (hs7_1 t) (ms7_2 t) (hs7_2 t) scM7 (Memref.isWhole_whole _) (notFirst7 t h0) (notLast7 t h3) (iblk7 V c 0 t) (iblk7 V c 1 t)
      (outsAt7 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt7` at a point with k = 3. -/
theorem outsAt7_C (c : Dev nD) (t : Fin cfg7.N) (h0 : ¬t.val % 4 = 0) (h3 : t.val % 4 = 3) :
    outsAt7 V c t.val t.isLt = (out7_C c (grid7.coords t) (ms7_0 t) (hs7_0 t) (ms7_1 t) (hs7_1 t) (ms7_2 t) (hs7_2 t) scM7 (Memref.isWhole_whole _) (notFirst7 t h0) (isLast7 t h3) (iblk7 V c 0 t) (iblk7 V c 1 t)
        (outsAt7 V c (t.val - 1) (Nat.lt_of_le_of_lt (Nat.sub_le _ _) t.isLt)).2,
      sout7_C c (grid7.coords t) (ms7_0 t) (hs7_0 t) (ms7_1 t) (hs7_1 t) (ms7_2 t) (hs7_2 t) scM7 (Memref.isWhole_whole _) (notFirst7 t h0) (isLast7 t h3) (iblk7 V c 0 t) (iblk7 V c 1 t)
        (outsAt7 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS7 (c : Dev nD) : (n : ℕ) → n ≤ cfg7.N → sProp 𝕄
  | 0, _ => Pipeline.ΦA spec7 c
  | n + 1, hn => iprop(iprop(owns (c : Thread nD τ) scM7 fullShare ((outsAt7 V c n hn).2) ∗ restBut7 c) ∗ (∃ r, prngReg c r))

theorem PhiS7_zero (c : Dev nD) (n : ℕ) (h : n ≤ cfg7.N) (hz : n = 0) : PhiS7 V c n h = Pipeline.ΦA spec7 c := by
  subst hz; rfl
theorem PhiS7_succ (c : Dev nD) (n : ℕ) (hn : n < cfg7.N) :
    PhiS7 V c (n + 1) hn = iprop(iprop(owns (c : Thread nD τ) scM7 fullShare ((outsAt7 V c n hn).2) ∗ restBut7 c) ∗ (∃ r, prngReg c r)) := rfl
theorem PhiS7_pos (c : Dev nD) (n : ℕ) (h : n ≤ cfg7.N) (hz : n ≠ 0) :
    PhiS7 V c n h = iprop(iprop(owns (c : Thread nD τ) scM7 fullShare ((outsAt7 V c (n - 1) (by omega)).2) ∗ restBut7 c) ∗ (∃ r, prngReg c r)) := by
  cases n with
  | zero => exact absurd rfl hz
  | succ n => rfl

/-! ## The proof data -/

/-- The region's proof data on core `c`: the arrays as the region finds them; after the body at point `t` each input's
    buffer at its block and the output's at `outsAt7`'s first component; the invariant `PhiS7`; nothing owed; full shares. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem PhiS7_castSucc (c : Dev nD) (t : Fin cfg7.N) :
    (dat7 V c).Φ t.castSucc = PhiS7 V c t.val (Nat.le_of_lt t.isLt) := by
  dsimp only [dat7]; simp only [Fin.coe_castSucc]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (outsAt7 V c t.val t.isLt).1 := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body's obligation -/

noncomputable def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

noncomputable def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  by_cases h0 : t.val % 4 = 0
  · have h3 : ¬t.val % 4 = 3 := by omega
    rw [Dat.leavesExact_idle (dat7 V c) 2 t (idleAt7_2 t (notLast7 t h3)) (noFlush7_2 t (notLast7 t h3))]
    rw [outsAt7_A V c t h0]
    unfold sout7_A; (try dsimp only)
    by_cases hz : t.val = 0
    · rw [PhiS7_castSucc V c t, PhiS7_zero V c _ _ hz, PhiA7_eq]
      iintro ⟨⟨⟨HS0, Hrb⟩, Hg⟩, Ho, ⟨%d0, H0⟩, ⟨%d1, H1⟩, ⟨%d2, H2⟩⟩
      iapply ((kernelRun7_A c (grid7.coords t) _ _ _ _ _ _ _ _ (isFirst7 t h0) (notLast7 t (by omega)) (iblk7 V c 0 t) (iblk7 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover7_A c _ _ _ _ _ _ _ _ _ _ _ _ _)
          iexact Hrb
        iexact Hg
      isplitl [Ho]; · iexact Ho
      isplitl [H0]; · iexact H0
      isplitl [H1]; · iexact H1
      iexists _; iexact H2
    · rw [PhiS7_castSucc V c t, PhiS7_pos V c _ _ hz]
      iintro ⟨⟨⟨HS0, Hrb⟩, Hg⟩, Ho, ⟨%d0, H0⟩, ⟨%d1, H1⟩, ⟨%d2, H2⟩⟩
      iapply ((kernelRun7_A c (grid7.coords t) _ _ _ _ _ _ _ _ (isFirst7 t h0) (notLast7 t (by omega)) (iblk7 V c 0 t) (iblk7 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover7_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat7 V c).leavesExact 2 t = owns (c : Thread nD τ) (ms7_2 t) fullShare ((dat7 V c).after 2 t) from by
        unfold Dat.leavesExact; rw [liveAt7_2 t (isLast7 t h3)], after7_2]
      rw [outsAt7_C V c t h0 h3]
      unfold out7_C sout7_C; (try dsimp only)
      rw [PhiS7_castSucc V c t, PhiS7_pos V c _ _ hz]
      iintro ⟨⟨⟨HS0, Hrb⟩, Hg⟩, Ho, ⟨%d0, H0⟩, ⟨%d1, H1⟩, ⟨%d2, H2⟩⟩
      iapply ((kernelRun7_C c (grid7.coords t) _ _ _ _ _ _ _ _ (notFirst7 t h0) (isLast7 t h3) (iblk7 V c 0 t) (iblk7 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover7_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover7_C c _ _ _ _ _ _ _ _ _ _ _ _ _ _)
    · rw [Dat.leavesExact_idle (dat7 V c) 2 t (idleAt7_2 t (notLast7 t h3)) (noFlush7_2 t (notLast7 t h3))]
      rw [outsAt7_B V c t h0 h3]
      unfold sout7_B; (try dsimp only)
      rw [PhiS7_castSucc V c t, PhiS7_pos V c _ _ hz]
      iintro ⟨⟨⟨HS0, Hrb⟩, Hg⟩, Ho, ⟨%d0, H0⟩, ⟨%d1, H1⟩, ⟨%d2, H2⟩⟩
      iapply ((kernelRun7_B c (grid7.coords t) _ _ _ _ _ _ _ _ (notFirst7 t h0) (notLast7 t h3) (iblk7 V c 0 t) (iblk7 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover7_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the region is entered with is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After the last point the invariant gives the class's back: the accumulator's contents are forgotten. -/
theorem hout7 (c : Dev nD) : (dat7 V c).Φ (Fin.last cfg7.N) ⊢ Pipeline.ΦA spec7 c := by
  have hN : cfg7.N = 16 := N_7
  rw [show (dat7 V c).Φ (Fin.last cfg7.N) = PhiS7 V c (Fin.last cfg7.N).val (Nat.le_of_lt_succ (Fin.last cfg7.N).isLt) from rfl,
    PhiS7_pos V c _ _ (by rw [Fin.val_last]; omega), PhiA7_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI8a.lean ====
/- Laid out by: python3 scratch/layout_regions.py --template-region 1 --region 8 --program KernelIdeal --parts a,b,c, --out-dir proof/Proof
   from the hand-written text of region 1 (RegKI1a.lean): the same text, the region's number substituted. -/
/-
  Region 8 of @main (custom_call 8): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond8_0 (i : grid8.Coords) : Prop := (Scalar.cmpi .ne (Scalar.extui (Scalar.cmpi .eq (BitVec.ofNat 32 (i 1).val) 0#32)) 0#32) = 1#1
/-- It holds exactly at the points with t % 4 = 0. -/
theorem hcond8_0 : ∀ t : Fin cfg8.N, cond8_0 (grid8.coords t) ↔ t.val % 4 = 0 :=
  (by decide +kernel : ∀ t : Fin grid8.N, cond8_0 (grid8.coords t) ↔ t.val % 4 = 0)

/-- "k = 3": the second conditional's test. -/
abbrev cond8_1 (i : grid8.Coords) : Prop := k8_cond2 i = 1#1
/-- It holds exactly at the points with t % 4 = 3. -/
theorem hcond8_1 : ∀ t : Fin cfg8.N, cond8_1 (grid8.coords t) ↔ t.val % 4 = 3 :=
  (by decide +kernel : ∀ t : Fin grid8.N, cond8_1 (grid8.coords t) ↔ t.val % 4 = 3)

/-! ## Where the windows are idle, and where the output is written back -/

/-- The two input windows are never idle. -/
theorem liveAt8_0 : ∀ t : Fin cfg8.N, cfg8.idle 0 (grid8.coords t) = false := by decide +kernel
theorem liveAt8_1 : ∀ t : Fin cfg8.N, cfg8.idle 1 (grid8.coords t) = false := by decide +kernel
/-- Where k ≠ 3 the output window is idle (the body stores nothing into it) and is not written back. -/
theorem idleAt8_2 : ∀ t : Fin cfg8.N, ¬cond8_1 (grid8.coords t) → cfg8.idle 2 (grid8.coords t) = true := by decide +kernel
theorem noFlush8_2 : ∀ t : Fin cfg8.N, ¬cond8_1 (grid8.coords t) → (cfg8.win 2).flush t = false := by decide +kernel
/-- Where k = 3 it is live. -/
theorem liveAt8_2 : ∀ t : Fin cfg8.N, cond8_1 (grid8.coords t) → cfg8.idle 2 (grid8.coords t) = false := by decide +kernel

/-! ## The staging memrefs at a point, and the scratch -/

/-- One staging buffer of the output window, through which its contents are stated. -/
abbrev VO8_2 : View sig .tc .vmem S1024x512 .f32 := (Memref.whole cc8_stg2_0 : Memref sig .tc .vmem S1024x512 .f32).view
abbrev ms8_0 (t : Fin cfg8.N) : Memref sig .tc .vmem S1024x1024 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1024x512 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1024x512 .f32 := win8_2.stage (cfg8.slots t 2)
abbrev hs8_2 (t : Fin cfg8.N) : (ms8_2 t).IsWhole := hstage8_2 ((cfg8.slots t 2).cast nbuf8_2)
/-- The accumulator: a whole scoped buffer of the kernel's own. -/
abbrev scM8 : Memref sig .tc .vmem S1024x512 .f32 := Memref.whole cc8_scratch0
abbrev VS8 : View sig .tc .vmem S1024x512 .f32 := scM8.view

/-- The other scoped buffers of the core, none of which this region touches. -/
abbrev restBut8 (c : Dev nD) : sProp 𝕄 :=
  Pipeline.scopedRestBut (Ix := Unit) (Name := ℕ) (U := UR sig nD τ) (Lvl := ℕ) (Val := Elt F) spec8 c [cc8_scratch0]

/-- The region's invariant before its first point: the accumulator at something, the other scoped buffers, the generator register. -/
theorem PhiA8_eq (c : Dev nD) :
    (Pipeline.ΦA spec8 c : sProp 𝕄)
      = iprop(iprop((∃ d, owns (c : Thread nD τ) scM8 fullShare d) ∗ restBut8 c) ∗ (∃ r, prngReg c r)) := by
  unfold Pipeline.ΦA; rw [scopedRest8_split]; simp only [scM8, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun8_A (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond8_0 i) (hc1 : ¬cond8_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc8__matmul_kernel i arg2 harg2 arg3 harg3 arg4 harg4 arg5 harg5) K } := by
  refine ⟨[], ?_, fun xi2 E K => ?run⟩
  case run =>
    simp only [cc8__matmul_kernel_eq_skeleton]; unfold cc8__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI8b.lean ====
/- Laid out by: python3 scratch/layout_regions.py --template-region 1 --region 8 --program KernelIdeal --parts a,b,c, --out-dir proof/Proof
   from the hand-written text of region 1 (RegKI1b.lean): the same text, the region's number substituted. -/
/-
  Region 8, case B (k = 1, 2): the body's run. Neither conditional is taken: the product of the two blocks is added to what
  the point before left in the accumulator; the output block is not touched.
-/
import proofs.«158944_j64613488001249_1_alg».proof.Proof.RegKI8a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun8_B (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond8_0 i) (hc1 : ¬cond8_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc8__matmul_kernel i arg2 harg2 arg3 harg3 arg4 harg4 arg5 harg5) K } := by
  refine ⟨[], ?_, fun xi2 E K => ?run⟩
  case run =>
    simp only [cc8__matmul_kernel_eq_skeleton]; unfold cc8__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI8c.lean ====
/- Laid out by: python3 scratch/layout_regions.py --template-region 1 --region 8 --program KernelIdeal --parts a,b,c, --out-dir proof/Proof
   from the hand-written text of region 1 (RegKI1c.lean): the same text, the region's number substituted. -/
/-
  Region 8, case C (k = 3): the body's run. The product is added to the accumulator as in case B, and then the second
  conditional copies the accumulator over the whole output block.
-/
import proofs.«158944_j64613488001249_1_alg».proof.Proof.RegKI8b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun8_C (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond8_0 i) (hc1 : cond8_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc8__matmul_kernel i arg2 harg2 arg3 harg3 arg4 harg4 arg5 harg5) K } := by
  refine ⟨?_, ?_, fun E K => ?run⟩
  case run =>
    simp only [cc8__matmul_kernel_eq_skeleton]; unfold cc8__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI8.lean ====
/- Laid out by: python3 scratch/layout_regions.py --template-region 1 --region 8 --program KernelIdeal --parts a,b,c, --out-dir proof/Proof
   from the hand-written text of region 1 (RegKI1.lean): the same text, the region's number substituted. -/
/-
  Region 8 of @main, entered from the buffer contents `V`: what its windows' blocks are, what each case of the body leaves in
  the accumulator and in the output block, the accumulator and the output block point by point (`outsAt8`: at k = 0 the
  accumulator restarts from zeros plus the product; at k = 1, 2, 3 it is the point before's plus the product; at k = 3 the
  output block is the accumulator), the region's invariant (the accumulator at `outsAt8`'s second component), the proof data,
  and the body's obligation at every point.
-/
import proofs.«158944_j64613488001249_1_alg».proof.Proof.RegKI8c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, for any proof data whose array is `V`'s and
    whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## What each case leaves -/

/-- Case A's stores into the accumulator cover it. -/
theorem scover8_A (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond8_0 i) (hc1 : ¬cond8_1 i)
    (x0 : Vec F S1024x1024 .bf16) (x1 : Vec F S1024x512 .f32) (y : S1024x512.Idx) :
    ∃ pc ∈ (kernelRun8_A c i arg2 harg2 arg3 harg3 arg4 harg4 arg5 harg5 hc0 hc1 x0 x1).2.1, y ∈ pc.1.set :=
  View.cover_of_tiledL (kernelRun8_A c i arg2 harg2 arg3 harg3 arg4 harg4 arg5 harg5 hc0 hc1 x0 x1).2.1 S1024x512.size (by sl_kernel_rfl) y
/-- What case A leaves in the accumulator. -/
noncomputable def sout8_A (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond8_0 i) (hc1 : ¬cond8_1 i)
    (x0 : Vec F S1024x1024 .bf16) (x1 : Vec F S1024x512 .f32) : Vec F S1024x512 .f32 :=
  VS8.read (Elt F) (VS8.writes (Elt F) VS8.junk (kernelRun8_A c i arg2 harg2 arg3 harg3 arg4 harg4 arg5 harg5 hc0 hc1 x0 x1).2.1)

/-- Case B's store into the accumulator covers it. -/
theorem scover8_B (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond8_0 i) (hc1 : ¬cond8_1 i)
    (x0 : Vec F S1024x1024 .bf16) (x1 : Vec F S1024x512 .f32) (xs0 : Vec F S1024x512 .f32) (y : S1024x512.Idx) :
    ∃ pc ∈ (kernelRun8_B c i arg2 harg2 arg3 harg3 arg4 harg4 arg5 harg5 hc0 hc1 x0 x1 xs0).2.1, y ∈ pc.1.set :=
  View.cover_of_tiledL (kernelRun8_B c i arg2 harg2 arg3 harg3 arg4 harg4 arg5 harg5 hc0 hc1 x0 x1 xs0).2.1 S1024x512.size (by sl_kernel_rfl) y
/-- What case B leaves in the accumulator, over what the point before left. -/
noncomputable def sout8_B (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond8_0 i) (hc1 : ¬cond8_1 i)
    (x0 : Vec F S1024x1024 .bf16) (x1 : Vec F S1024x512 .f32) (xs0 : Vec F S1024x512 .f32) : Vec F S1024x512 .f32 :=
  VS8.read (Elt F) (VS8.writes (Elt F) VS8.junk (kernelRun8_B c i arg2 harg2 arg3 harg3 arg4 harg4 arg5 harg5 hc0 hc1 x0 x1 xs0).2.1)

/-- Case C's store into the output block covers it, and so does its store into the accumulator. -/
theorem cover8_C (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond8_0 i) (hc1 : cond8_1 i)
    (x0 : Vec F S1024x1024 .bf16) (x1 : Vec F S1024x512 .f32) (xs0 : Vec F S1024x512 .f32) (y : S1024x512.Idx) :
    ∃ pc ∈ (kernelRun8_C c i arg2 harg2 arg3 harg3 arg4 harg4 arg5 harg5 hc0 hc1 x0 x1 xs0).1, y ∈ pc.1.set :=
  View.cover_of_tiledL (kernelRun8_C c i arg2 harg2 arg3 harg3 arg4 harg4 arg5 harg5 hc0 hc1 x0 x1 xs0).1 S1024x512.size (by sl_kernel_rfl) y
theorem scover8_C (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond8_0 i) (hc1 : cond8_1 i)
    (x0 : Vec F S1024x1024 .bf16) (x1 : Vec F S1024x512 .f32) (xs0 : Vec F S1024x512 .f32) (y : S1024x512.Idx) :
    ∃ pc ∈ (kernelRun8_C c i arg2 harg2 arg3 harg3 arg4 harg4 arg5 harg5 hc0 hc1 x0 x1 xs0).2.1, y ∈ pc.1.set :=
  View.cover_of_tiledL (kernelRun8_C c i arg2 harg2 arg3 harg3 arg4 harg4 arg5 harg5 hc0 hc1 x0 x1 xs0).2.1 S1024x512.size (by sl_kernel_rfl) y
/-- What case C leaves in the output block, and in the accumulator. -/
noncomputable def out8_C (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond8_0 i) (hc1 : cond8_1 i)
    (x0 : Vec F S1024x1024 .bf16) (x1 : Vec F S1024x512 .f32) (xs0 : Vec F S1024x512 .f32) : Vec F S1024x512 .f32 :=
  VO8_2.read (Elt F) (VO8_2.writes (Elt F) VO8_2.junk (kernelRun8_C c i arg2 harg2 arg3 harg3 arg4 harg4 arg5 harg5 hc0 hc1 x0 x1 xs0).1)
noncomputable def sout8_C (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond8_0 i) (hc1 : cond8_1 i)
    (x0 : Vec F S1024x1024 .bf16) (x1 : Vec F S1024x512 .f32) (xs0 : Vec F S1024x512 .f32) : Vec F S1024x512 .f32 :=
  VS8.read (Elt F) (VS8.writes (Elt F) VS8.junk (kernelRun8_C c i arg2 harg2 arg3 harg3 arg4 harg4 arg5 harg5 hc0 hc1 x0 x1 xs0).2.1)

/-- Where the output block is idle nothing consults what it holds: a placeholder. -/
noncomputable def outIdle8 : Vec F S1024x512 .f32 := VO8_2.read (Elt F) (VO8_2.writes (Elt F) VO8_2.junk [])

/-! ## The conditions at a point, from t % 4 -/

theorem isFirst8 (t : Fin cfg8.N) (h : t.val % 4 = 0) : cond8_0 (grid8.coords t) := (hcond8_0 t).mpr h
theorem notFirst8 (t : Fin cfg8.N) (h : ¬t.val % 4 = 0) : ¬cond8_0 (grid8.coords t) := fun hc => h ((hcond8_0 t).mp hc)
theorem isLast8 (t : Fin cfg8.N) (h : t.val % 4 = 3) : cond8_1 (grid8.coords t) := (hcond8_1 t).mpr h
theorem notLast8 (t : Fin cfg8.N) (h : ¬t.val % 4 = 3) : ¬cond8_1 (grid8.coords t) := fun hc => h ((hcond8_1 t).mp hc)

/-! ## The accumulator and the output block, point by point -/

/-- After the body at position `n`: (the output block's buffer, the accumulator). -/
noncomputable def outsAt8 (c : Dev nD) : (n : ℕ) → n < cfg8.N → Vec F S1024x512 .f32 × Vec F S1024x512 .f32
  | 0, hn => (outIdle8, sout8_A c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) scM8 (Memref.isWhole_whole _) (isFirst8 ⟨0, hn⟩ (Nat.zero_mod _)) (notLast8 ⟨0, hn⟩ (by simp)) (iblk8 V c 0 ⟨0, hn⟩) (iblk8 V c 1 ⟨0, hn⟩))
  | n + 1, hn =>
    if h0 : (n + 1) % 4 = 0 then
      (outIdle8, sout8_A c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8 (Memref.isWhole_whole _) (isFirst8 ⟨n + 1, hn⟩ h0) (notLast8 ⟨n + 1, hn⟩ (by show ¬(n + 1) % 4 = 3; omega)) (iblk8 V c 0 ⟨n + 1, hn⟩) (iblk8 V c 1 ⟨n + 1, hn⟩))
    else if h3 : (n + 1) % 4 = 3 then
      (out8_C c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8 (Memref.isWhole_whole _) (notFirst8 ⟨n + 1, hn⟩ h0) (isLast8 ⟨n + 1, hn⟩ h3) (iblk8 V c 0 ⟨n + 1, hn⟩) (iblk8 V c 1 ⟨n + 1, hn⟩) (outsAt8 c n (Nat.lt_of_succ_lt hn)).2,
       sout8_C c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8 (Memref.isWhole_whole _) (notFirst8 ⟨n + 1, hn⟩ h0) (isLast8 ⟨n + 1, hn⟩ h3) (iblk8 V c 0 ⟨n + 1, hn⟩) (iblk8 V c 1 ⟨n + 1, hn⟩) (outsAt8 c n (Nat.lt_of_succ_lt hn)).2)
    else
      (outIdle8, sout8_B c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8 (Memref.isWhole_whole _) (notFirst8 ⟨n + 1, hn⟩ h0) (notLast8 ⟨n + 1, hn⟩ h3) (iblk8 V c 0 ⟨n + 1, hn⟩) (iblk8 V c 1 ⟨n + 1, hn⟩) (outsAt8 c n (Nat.lt_of_succ_lt hn)).2)

/-- `outsAt8` at a point with k = 0. -/
theorem outsAt8_A (c : Dev nD) (t : Fin cfg8.N) (h0 : t.val % 4 = 0) :
    outsAt8 V c t.val t.isLt = (outIdle8, sout8_A c (grid8.coords t) (ms8_0 t) (hs8_0 t) (ms8_1 t) (hs8_1 t) (ms8_2 t) (hs8_2 t) scM8 (Memref.isWhole_whole _) (isFirst8 t h0) (notLast8 t (by omega)) (iblk8 V c 0 t) (iblk8 V c 1 t)) := by
  obtain ⟨n, hn⟩ := t
  cases n with
  | zero => rfl
  | succ n => exact (dif_pos h0).trans rfl

/-- `outsAt8` at a point with k = 1, 2: over what the point before left. -/
theorem outsAt8_B (c : Dev nD) (t : Fin cfg8.N) (h0 : ¬t.val % 4 = 0) (h3 : ¬t.val % 4 = 3) :
    outsAt8 V c t.val t.isLt = (outIdle8, sout8_B c (grid8.coords t) (ms8_0 t) (hs8_0 t) (ms8_1 t) (hs8_1 t) (ms8_2 t) (hs8_2 t) scM8 (Memref.isWhole_whole _) (notFirst8 t h0) (notLast8 t h3) (iblk8 V c 0 t) (iblk8 V c 1 t)
      (outsAt8 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt8` at a point with k = 3. -/
theorem outsAt8_C (c : Dev nD) (t : Fin cfg8.N) (h0 : ¬t.val % 4 = 0) (h3 : t.val % 4 = 3) :
    outsAt8 V c t.val t.isLt = (out8_C c (grid8.coords t) (ms8_0 t) (hs8_0 t) (ms8_1 t) (hs8_1 t) (ms8_2 t) (hs8_2 t) scM8 (Memref.isWhole_whole _) (notFirst8 t h0) (isLast8 t h3) (iblk8 V c 0 t) (iblk8 V c 1 t)
        (outsAt8 V c (t.val - 1) (Nat.lt_of_le_of_lt (Nat.sub_le _ _) t.isLt)).2,
      sout8_C c (grid8.coords t) (ms8_0 t) (hs8_0 t) (ms8_1 t) (hs8_1 t) (ms8_2 t) (hs8_2 t) scM8 (Memref.isWhole_whole _) (notFirst8 t h0) (isLast8 t h3) (iblk8 V c 0 t) (iblk8 V c 1 t)
        (outsAt8 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS8 (c : Dev nD) : (n : ℕ) → n ≤ cfg8.N → sProp 𝕄
  | 0, _ => Pipeline.ΦA spec8 c
  | n + 1, hn => iprop(iprop(owns (c : Thread nD τ) scM8 fullShare ((outsAt8 V c n hn).2) ∗ restBut8 c) ∗ (∃ r, prngReg c r))

theorem PhiS8_zero (c : Dev nD) (n : ℕ) (h : n ≤ cfg8.N) (hz : n = 0) : PhiS8 V c n h = Pipeline.ΦA spec8 c := by
  subst hz; rfl
theorem PhiS8_succ (c : Dev nD) (n : ℕ) (hn : n < cfg8.N) :
    PhiS8 V c (n + 1) hn = iprop(iprop(owns (c : Thread nD τ) scM8 fullShare ((outsAt8 V c n hn).2) ∗ restBut8 c) ∗ (∃ r, prngReg c r)) := rfl
theorem PhiS8_pos (c : Dev nD) (n : ℕ) (h : n ≤ cfg8.N) (hz : n ≠ 0) :
    PhiS8 V c n h = iprop(iprop(owns (c : Thread nD τ) scM8 fullShare ((outsAt8 V c (n - 1) (by omega)).2) ∗ restBut8 c) ∗ (∃ r, prngReg c r)) := by
  cases n with
  | zero => exact absurd rfl hz
  | succ n => rfl

/-! ## The proof data -/

/-- The region's proof data on core `c`: the arrays as the region finds them; after the body at point `t` each input's
    buffer at its block and the output's at `outsAt8`'s first component; the invariant `PhiS8`; nothing owed; full shares. -/
noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]
theorem PhiS8_castSucc (c : Dev nD) (t : Fin cfg8.N) :
    (dat8 V c).Φ t.castSucc = PhiS8 V c t.val (Nat.le_of_lt t.isLt) := by
  dsimp only [dat8]; simp only [Fin.coe_castSucc]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = (outsAt8 V c t.val t.isLt).1 := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body's obligation -/

noncomputable def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

noncomputable def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  by_cases h0 : t.val % 4 = 0
  · have h3 : ¬t.val % 4 = 3 := by omega
    rw [Dat.leavesExact_idle (dat8 V c) 2 t (idleAt8_2 t (notLast8 t h3)) (noFlush8_2 t (notLast8 t h3))]
    rw [outsAt8_A V c t h0]
    unfold sout8_A; (try dsimp only)
    by_cases hz : t.val = 0
    · rw [PhiS8_castSucc V c t, PhiS8_zero V c _ _ hz, PhiA8_eq]
      iintro ⟨⟨⟨HS0, Hrb⟩, Hg⟩, Ho, ⟨%d0, H0⟩, ⟨%d1, H1⟩, ⟨%d2, H2⟩⟩
      iapply ((kernelRun8_A c (grid8.coords t) _ _ _ _ _ _ _ _ (isFirst8 t h0) (notLast8 t (by omega)) (iblk8 V c 0 t) (iblk8 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover8_A c _ _ _ _ _ _ _ _ _ _ _ _ _)
          iexact Hrb
        iexact Hg
      isplitl [Ho]; · iexact Ho
      isplitl [H0]; · iexact H0
      isplitl [H1]; · iexact H1
      iexists _; iexact H2
    · rw [PhiS8_castSucc V c t, PhiS8_pos V c _ _ hz]
      iintro ⟨⟨⟨HS0, Hrb⟩, Hg⟩, Ho, ⟨%d0, H0⟩, ⟨%d1, H1⟩, ⟨%d2, H2⟩⟩
      iapply ((kernelRun8_A c (grid8.coords t) _ _ _ _ _ _ _ _ (isFirst8 t h0) (notLast8 t (by omega)) (iblk8 V c 0 t) (iblk8 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover8_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat8 V c).leavesExact 2 t = owns (c : Thread nD τ) (ms8_2 t) fullShare ((dat8 V c).after 2 t) from by
        unfold Dat.leavesExact; rw [liveAt8_2 t (isLast8 t h3)], after8_2]
      rw [outsAt8_C V c t h0 h3]
      unfold out8_C sout8_C; (try dsimp only)
      rw [PhiS8_castSucc V c t, PhiS8_pos V c _ _ hz]
      iintro ⟨⟨⟨HS0, Hrb⟩, Hg⟩, Ho, ⟨%d0, H0⟩, ⟨%d1, H1⟩, ⟨%d2, H2⟩⟩
      iapply ((kernelRun8_C c (grid8.coords t) _ _ _ _ _ _ _ _ (notFirst8 t h0) (isLast8 t h3) (iblk8 V c 0 t) (iblk8 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover8_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover8_C c _ _ _ _ _ _ _ _ _ _ _ _ _ _)
    · rw [Dat.leavesExact_idle (dat8 V c) 2 t (idleAt8_2 t (notLast8 t h3)) (noFlush8_2 t (notLast8 t h3))]
      rw [outsAt8_B V c t h0 h3]
      unfold sout8_B; (try dsimp only)
      rw [PhiS8_castSucc V c t, PhiS8_pos V c _ _ hz]
      iintro ⟨⟨⟨HS0, Hrb⟩, Hg⟩, Ho, ⟨%d0, H0⟩, ⟨%d1, H1⟩, ⟨%d2, H2⟩⟩
      iapply ((kernelRun8_B c (grid8.coords t) _ _ _ _ _ _ _ _ (notFirst8 t h0) (notLast8 t h3) (iblk8 V c 0 t) (iblk8 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover8_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the region is entered with is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After the last point the invariant gives the class's back: the accumulator's contents are forgotten. -/
theorem hout8 (c : Dev nD) : (dat8 V c).Φ (Fin.last cfg8.N) ⊢ Pipeline.ΦA spec8 c := by
  have hN : cfg8.N = 16 := N_8
  rw [show (dat8 V c).Φ (Fin.last cfg8.N) = PhiS8 V c (Fin.last cfg8.N).val (Nat.le_of_lt_succ (Fin.last cfg8.N).isLt) from rfl,
    PhiS8_pos V c _ _ (by rw [Fin.val_last]; omega), PhiA8_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI9a.lean ====
/- Laid out by: python3 scratch/layout_regions.py --template-region 1 --region 9 --program KernelIdeal --parts a,b,c, --out-dir proof/Proof
   from the hand-written text of region 1 (RegKI1a.lean): the same text, the region's number substituted. -/
/-
  Region 9 of @main (custom_call 9): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond9_0 (i : grid9.Coords) : Prop := (Scalar.cmpi .ne (Scalar.extui (Scalar.cmpi .eq (BitVec.ofNat 32 (i 1).val) 0#32)) 0#32) = 1#1
/-- It holds exactly at the points with t % 4 = 0. -/
theorem hcond9_0 : ∀ t : Fin cfg9.N, cond9_0 (grid9.coords t) ↔ t.val % 4 = 0 :=
  (by decide +kernel : ∀ t : Fin grid9.N, cond9_0 (grid9.coords t) ↔ t.val % 4 = 0)

/-- "k = 3": the second conditional's test. -/
abbrev cond9_1 (i : grid9.Coords) : Prop := k9_cond2 i = 1#1
/-- It holds exactly at the points with t % 4 = 3. -/
theorem hcond9_1 : ∀ t : Fin cfg9.N, cond9_1 (grid9.coords t) ↔ t.val % 4 = 3 :=
  (by decide +kernel : ∀ t : Fin grid9.N, cond9_1 (grid9.coords t) ↔ t.val % 4 = 3)

/-! ## Where the windows are idle, and where the output is written back -/

/-- The two input windows are never idle. -/
theorem liveAt9_0 : ∀ t : Fin cfg9.N, cfg9.idle 0 (grid9.coords t) = false := by decide +kernel
theorem liveAt9_1 : ∀ t : Fin cfg9.N, cfg9.idle 1 (grid9.coords t) = false := by decide +kernel
/-- Where k ≠ 3 the output window is idle (the body stores nothing into it) and is not written back. -/
theorem idleAt9_2 : ∀ t : Fin cfg9.N, ¬cond9_1 (grid9.coords t) → cfg9.idle 2 (grid9.coords t) = true := by decide +kernel
theorem noFlush9_2 : ∀ t : Fin cfg9.N, ¬cond9_1 (grid9.coords t) → (cfg9.win 2).flush t = false := by decide +kernel
/-- Where k = 3 it is live. -/
theorem liveAt9_2 : ∀ t : Fin cfg9.N, cond9_1 (grid9.coords t) → cfg9.idle 2 (grid9.coords t) = false := by decide +kernel

/-! ## The staging memrefs at a point, and the scratch -/

/-- One staging buffer of the output window, through which its contents are stated. -/
abbrev VO9_2 : View sig .tc .vmem S1024x512 .f32 := (Memref.whole cc9_stg2_0 : Memref sig .tc .vmem S1024x512 .f32).view
abbrev ms9_0 (t : Fin cfg9.N) : Memref sig .tc .vmem S1024x1024 .bf16 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1024x512 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1024x512 .f32 := win9_2.stage (cfg9.slots t 2)
abbrev hs9_2 (t : Fin cfg9.N) : (ms9_2 t).IsWhole := hstage9_2 ((cfg9.slots t 2).cast nbuf9_2)
/-- The accumulator: a whole scoped buffer of the kernel's own. -/
abbrev scM9 : Memref sig .tc .vmem S1024x512 .f32 := Memref.whole cc9_scratch0
abbrev VS9 : View sig .tc .vmem S1024x512 .f32 := scM9.view

/-- The other scoped buffers of the core, none of which this region touches. -/
abbrev restBut9 (c : Dev nD) : sProp 𝕄 :=
  Pipeline.scopedRestBut (Ix := Unit) (Name := ℕ) (U := UR sig nD τ) (Lvl := ℕ) (Val := Elt F) spec9 c [cc9_scratch0]

/-- The region's invariant before its first point: the accumulator at something, the other scoped buffers, the generator register. -/
theorem PhiA9_eq (c : Dev nD) :
    (Pipeline.ΦA spec9 c : sProp 𝕄)
      = iprop(iprop((∃ d, owns (c : Thread nD τ) scM9 fullShare d) ∗ restBut9 c) ∗ (∃ r, prngReg c r)) := by
  unfold Pipeline.ΦA; rw [scopedRest9_split]; simp only [scM9, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun9_A (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond9_0 i) (hc1 : ¬cond9_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc9__matmul_kernel i arg2 harg2 arg3 harg3 arg4 harg4 arg5 harg5) K } := by
  refine ⟨[], ?_, fun xi2 E K => ?run⟩
  case run =>
    simp only [cc9__matmul_kernel_eq_skeleton]; unfold cc9__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI9b.lean ====
/- Laid out by: python3 scratch/layout_regions.py --template-region 1 --region 9 --program KernelIdeal --parts a,b,c, --out-dir proof/Proof
   from the hand-written text of region 1 (RegKI1b.lean): the same text, the region's number substituted. -/
/-
  Region 9, case B (k = 1, 2): the body's run. Neither conditional is taken: the product of the two blocks is added to what
  the point before left in the accumulator; the output block is not touched.
-/
import proofs.«158944_j64613488001249_1_alg».proof.Proof.RegKI9a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun9_B (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond9_0 i) (hc1 : ¬cond9_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc9__matmul_kernel i arg2 harg2 arg3 harg3 arg4 harg4 arg5 harg5) K } := by
  refine ⟨[], ?_, fun xi2 E K => ?run⟩
  case run =>
    simp only [cc9__matmul_kernel_eq_skeleton]; unfold cc9__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI9c.lean ====
/- Laid out by: python3 scratch/layout_regions.py --template-region 1 --region 9 --program KernelIdeal --parts a,b,c, --out-dir proof/Proof
   from the hand-written text of region 1 (RegKI1c.lean): the same text, the region's number substituted. -/
/-
  Region 9, case C (k = 3): the body's run. The product is added to the accumulator as in case B, and then the second
  conditional copies the accumulator over the whole output block.
-/
import proofs.«158944_j64613488001249_1_alg».proof.Proof.RegKI9b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun9_C (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond9_0 i) (hc1 : cond9_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc9__matmul_kernel i arg2 harg2 arg3 harg3 arg4 harg4 arg5 harg5) K } := by
  refine ⟨?_, ?_, fun E K => ?run⟩
  case run =>
    simp only [cc9__matmul_kernel_eq_skeleton]; unfold cc9__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI9.lean ====
/- Laid out by: python3 scratch/layout_regions.py --template-region 1 --region 9 --program KernelIdeal --parts a,b,c, --out-dir proof/Proof
   from the hand-written text of region 1 (RegKI1.lean): the same text, the region's number substituted. -/
/-
  Region 9 of @main, entered from the buffer contents `V`: what its windows' blocks are, what each case of the body leaves in
  the accumulator and in the output block, the accumulator and the output block point by point (`outsAt9`: at k = 0 the
  accumulator restarts from zeros plus the product; at k = 1, 2, 3 it is the point before's plus the product; at k = 3 the
  output block is the accumulator), the region's invariant (the accumulator at `outsAt9`'s second component), the proof data,
  and the body's obligation at every point.
-/
import proofs.«158944_j64613488001249_1_alg».proof.Proof.RegKI9c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, for any proof data whose array is `V`'s and
    whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## What each case leaves -/

/-- Case A's stores into the accumulator cover it. -/
theorem scover9_A (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond9_0 i) (hc1 : ¬cond9_1 i)
    (x0 : Vec F S1024x1024 .bf16) (x1 : Vec F S1024x512 .f32) (y : S1024x512.Idx) :
    ∃ pc ∈ (kernelRun9_A c i arg2 harg2 arg3 harg3 arg4 harg4 arg5 harg5 hc0 hc1 x0 x1).2.1, y ∈ pc.1.set :=
  View.cover_of_tiledL (kernelRun9_A c i arg2 harg2 arg3 harg3 arg4 harg4 arg5 harg5 hc0 hc1 x0 x1).2.1 S1024x512.size (by sl_kernel_rfl) y
/-- What case A leaves in the accumulator. -/
noncomputable def sout9_A (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond9_0 i) (hc1 : ¬cond9_1 i)
    (x0 : Vec F S1024x1024 .bf16) (x1 : Vec F S1024x512 .f32) : Vec F S1024x512 .f32 :=
  VS9.read (Elt F) (VS9.writes (Elt F) VS9.junk (kernelRun9_A c i arg2 harg2 arg3 harg3 arg4 harg4 arg5 harg5 hc0 hc1 x0 x1).2.1)

/-- Case B's store into the accumulator covers it. -/
theorem scover9_B (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond9_0 i) (hc1 : ¬cond9_1 i)
    (x0 : Vec F S1024x1024 .bf16) (x1 : Vec F S1024x512 .f32) (xs0 : Vec F S1024x512 .f32) (y : S1024x512.Idx) :
    ∃ pc ∈ (kernelRun9_B c i arg2 harg2 arg3 harg3 arg4 harg4 arg5 harg5 hc0 hc1 x0 x1 xs0).2.1, y ∈ pc.1.set :=
  View.cover_of_tiledL (kernelRun9_B c i arg2 harg2 arg3 harg3 arg4 harg4 arg5 harg5 hc0 hc1 x0 x1 xs0).2.1 S1024x512.size (by sl_kernel_rfl) y
/-- What case B leaves in the accumulator, over what the point before left. -/
noncomputable def sout9_B (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond9_0 i) (hc1 : ¬cond9_1 i)
    (x0 : Vec F S1024x1024 .bf16) (x1 : Vec F S1024x512 .f32) (xs0 : Vec F S1024x512 .f32) : Vec F S1024x512 .f32 :=
  VS9.read (Elt F) (VS9.writes (Elt F) VS9.junk (kernelRun9_B c i arg2 harg2 arg3 harg3 arg4 harg4 arg5 harg5 hc0 hc1 x0 x1 xs0).2.1)

/-- Case C's store into the output block covers it, and so does its store into the accumulator. -/
theorem cover9_C (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond9_0 i) (hc1 : cond9_1 i)
    (x0 : Vec F S1024x1024 .bf16) (x1 : Vec F S1024x512 .f32) (xs0 : Vec F S1024x512 .f32) (y : S1024x512.Idx) :
    ∃ pc ∈ (kernelRun9_C c i arg2 harg2 arg3 harg3 arg4 harg4 arg5 harg5 hc0 hc1 x0 x1 xs0).1, y ∈ pc.1.set :=
  View.cover_of_tiledL (kernelRun9_C c i arg2 harg2 arg3 harg3 arg4 harg4 arg5 harg5 hc0 hc1 x0 x1 xs0).1 S1024x512.size (by sl_kernel_rfl) y
theorem scover9_C (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond9_0 i) (hc1 : cond9_1 i)
    (x0 : Vec F S1024x1024 .bf16) (x1 : Vec F S1024x512 .f32) (xs0 : Vec F S1024x512 .f32) (y : S1024x512.Idx) :
    ∃ pc ∈ (kernelRun9_C c i arg2 harg2 arg3 harg3 arg4 harg4 arg5 harg5 hc0 hc1 x0 x1 xs0).2.1, y ∈ pc.1.set :=
  View.cover_of_tiledL (kernelRun9_C c i arg2 harg2 arg3 harg3 arg4 harg4 arg5 harg5 hc0 hc1 x0 x1 xs0).2.1 S1024x512.size (by sl_kernel_rfl) y
/-- What case C leaves in the output block, and in the accumulator. -/
noncomputable def out9_C (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond9_0 i) (hc1 : cond9_1 i)
    (x0 : Vec F S1024x1024 .bf16) (x1 : Vec F S1024x512 .f32) (xs0 : Vec F S1024x512 .f32) : Vec F S1024x512 .f32 :=
  VO9_2.read (Elt F) (VO9_2.writes (Elt F) VO9_2.junk (kernelRun9_C c i arg2 harg2 arg3 harg3 arg4 harg4 arg5 harg5 hc0 hc1 x0 x1 xs0).1)
noncomputable def sout9_C (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond9_0 i) (hc1 : cond9_1 i)
    (x0 : Vec F S1024x1024 .bf16) (x1 : Vec F S1024x512 .f32) (xs0 : Vec F S1024x512 .f32) : Vec F S1024x512 .f32 :=
  VS9.read (Elt F) (VS9.writes (Elt F) VS9.junk (kernelRun9_C c i arg2 harg2 arg3 harg3 arg4 harg4 arg5 harg5 hc0 hc1 x0 x1 xs0).2.1)

/-- Where the output block is idle nothing consults what it holds: a placeholder. -/
noncomputable def outIdle9 : Vec F S1024x512 .f32 := VO9_2.read (Elt F) (VO9_2.writes (Elt F) VO9_2.junk [])

/-! ## The conditions at a point, from t % 4 -/

theorem isFirst9 (t : Fin cfg9.N) (h : t.val % 4 = 0) : cond9_0 (grid9.coords t) := (hcond9_0 t).mpr h
theorem notFirst9 (t : Fin cfg9.N) (h : ¬t.val % 4 = 0) : ¬cond9_0 (grid9.coords t) := fun hc => h ((hcond9_0 t).mp hc)
theorem isLast9 (t : Fin cfg9.N) (h : t.val % 4 = 3) : cond9_1 (grid9.coords t) := (hcond9_1 t).mpr h
theorem notLast9 (t : Fin cfg9.N) (h : ¬t.val % 4 = 3) : ¬cond9_1 (grid9.coords t) := fun hc => h ((hcond9_1 t).mp hc)

/-! ## The accumulator and the output block, point by point -/

/-- After the body at position `n`: (the output block's buffer, the accumulator). -/
noncomputable def outsAt9 (c : Dev nD) : (n : ℕ) → n < cfg9.N → Vec F S1024x512 .f32 × Vec F S1024x512 .f32
  | 0, hn => (outIdle9, sout9_A c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) scM9 (Memref.isWhole_whole _) (isFirst9 ⟨0, hn⟩ (Nat.zero_mod _)) (notLast9 ⟨0, hn⟩ (by simp)) (iblk9 V c 0 ⟨0, hn⟩) (iblk9 V c 1 ⟨0, hn⟩))
  | n + 1, hn =>
    if h0 : (n + 1) % 4 = 0 then
      (outIdle9, sout9_A c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9 (Memref.isWhole_whole _) (isFirst9 ⟨n + 1, hn⟩ h0) (notLast9 ⟨n + 1, hn⟩ (by show ¬(n + 1) % 4 = 3; omega)) (iblk9 V c 0 ⟨n + 1, hn⟩) (iblk9 V c 1 ⟨n + 1, hn⟩))
    else if h3 : (n + 1) % 4 = 3 then
      (out9_C c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9 (Memref.isWhole_whole _) (notFirst9 ⟨n + 1, hn⟩ h0) (isLast9 ⟨n + 1, hn⟩ h3) (iblk9 V c 0 ⟨n + 1, hn⟩) (iblk9 V c 1 ⟨n + 1, hn⟩) (outsAt9 c n (Nat.lt_of_succ_lt hn)).2,
       sout9_C c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9 (Memref.isWhole_whole _) (notFirst9 ⟨n + 1, hn⟩ h0) (isLast9 ⟨n + 1, hn⟩ h3) (iblk9 V c 0 ⟨n + 1, hn⟩) (iblk9 V c 1 ⟨n + 1, hn⟩) (outsAt9 c n (Nat.lt_of_succ_lt hn)).2)
    else
      (outIdle9, sout9_B c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9 (Memref.isWhole_whole _) (notFirst9 ⟨n + 1, hn⟩ h0) (notLast9 ⟨n + 1, hn⟩ h3) (iblk9 V c 0 ⟨n + 1, hn⟩) (iblk9 V c 1 ⟨n + 1, hn⟩) (outsAt9 c n (Nat.lt_of_succ_lt hn)).2)

/-- `outsAt9` at a point with k = 0. -/
theorem outsAt9_A (c : Dev nD) (t : Fin cfg9.N) (h0 : t.val % 4 = 0) :
    outsAt9 V c t.val t.isLt = (outIdle9, sout9_A c (grid9.coords t) (ms9_0 t) (hs9_0 t) (ms9_1 t) (hs9_1 t) (ms9_2 t) (hs9_2 t) scM9 (Memref.isWhole_whole _) (isFirst9 t h0) (notLast9 t (by omega)) (iblk9 V c 0 t) (iblk9 V c 1 t)) := by
  obtain ⟨n, hn⟩ := t
  cases n with
  | zero => rfl
  | succ n => exact (dif_pos h0).trans rfl

/-- `outsAt9` at a point with k = 1, 2: over what the point before left. -/
theorem outsAt9_B (c : Dev nD) (t : Fin cfg9.N) (h0 : ¬t.val % 4 = 0) (h3 : ¬t.val % 4 = 3) :
    outsAt9 V c t.val t.isLt = (outIdle9, sout9_B c (grid9.coords t) (ms9_0 t) (hs9_0 t) (ms9_1 t) (hs9_1 t) (ms9_2 t) (hs9_2 t) scM9 (Memref.isWhole_whole _) (notFirst9 t h0) (notLast9 t h3) (iblk9 V c 0 t) (iblk9 V c 1 t)
      (outsAt9 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt9` at a point with k = 3. -/
theorem outsAt9_C (c : Dev nD) (t : Fin cfg9.N) (h0 : ¬t.val % 4 = 0) (h3 : t.val % 4 = 3) :
    outsAt9 V c t.val t.isLt = (out9_C c (grid9.coords t) (ms9_0 t) (hs9_0 t) (ms9_1 t) (hs9_1 t) (ms9_2 t) (hs9_2 t) scM9 (Memref.isWhole_whole _) (notFirst9 t h0) (isLast9 t h3) (iblk9 V c 0 t) (iblk9 V c 1 t)
        (outsAt9 V c (t.val - 1) (Nat.lt_of_le_of_lt (Nat.sub_le _ _) t.isLt)).2,
      sout9_C c (grid9.coords t) (ms9_0 t) (hs9_0 t) (ms9_1 t) (hs9_1 t) (ms9_2 t) (hs9_2 t) scM9 (Memref.isWhole_whole _) (notFirst9 t h0) (isLast9 t h3) (iblk9 V c 0 t) (iblk9 V c 1 t)
        (outsAt9 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS9 (c : Dev nD) : (n : ℕ) → n ≤ cfg9.N → sProp 𝕄
  | 0, _ => Pipeline.ΦA spec9 c
  | n + 1, hn => iprop(iprop(owns (c : Thread nD τ) scM9 fullShare ((outsAt9 V c n hn).2) ∗ restBut9 c) ∗ (∃ r, prngReg c r))

theorem PhiS9_zero (c : Dev nD) (n : ℕ) (h : n ≤ cfg9.N) (hz : n = 0) : PhiS9 V c n h = Pipeline.ΦA spec9 c := by
  subst hz; rfl
theorem PhiS9_succ (c : Dev nD) (n : ℕ) (hn : n < cfg9.N) :
    PhiS9 V c (n + 1) hn = iprop(iprop(owns (c : Thread nD τ) scM9 fullShare ((outsAt9 V c n hn).2) ∗ restBut9 c) ∗ (∃ r, prngReg c r)) := rfl
theorem PhiS9_pos (c : Dev nD) (n : ℕ) (h : n ≤ cfg9.N) (hz : n ≠ 0) :
    PhiS9 V c n h = iprop(iprop(owns (c : Thread nD τ) scM9 fullShare ((outsAt9 V c (n - 1) (by omega)).2) ∗ restBut9 c) ∗ (∃ r, prngReg c r)) := by
  cases n with
  | zero => exact absurd rfl hz
  | succ n => rfl

/-! ## The proof data -/

/-- The region's proof data on core `c`: the arrays as the region finds them; after the body at point `t` each input's
    buffer at its block and the output's at `outsAt9`'s first component; the invariant `PhiS9`; nothing owed; full shares. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]
theorem PhiS9_castSucc (c : Dev nD) (t : Fin cfg9.N) :
    (dat9 V c).Φ t.castSucc = PhiS9 V c t.val (Nat.le_of_lt t.isLt) := by
  dsimp only [dat9]; simp only [Fin.coe_castSucc]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = (outsAt9 V c t.val t.isLt).1 := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body's obligation -/

noncomputable def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d)))

noncomputable def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  by_cases h0 : t.val % 4 = 0
  · have h3 : ¬t.val % 4 = 3 := by omega
    rw [Dat.leavesExact_idle (dat9 V c) 2 t (idleAt9_2 t (notLast9 t h3)) (noFlush9_2 t (notLast9 t h3))]
    rw [outsAt9_A V c t h0]
    unfold sout9_A; (try dsimp only)
    by_cases hz : t.val = 0
    · rw [PhiS9_castSucc V c t, PhiS9_zero V c _ _ hz, PhiA9_eq]
      iintro ⟨⟨⟨HS0, Hrb⟩, Hg⟩, Ho, ⟨%d0, H0⟩, ⟨%d1, H1⟩, ⟨%d2, H2⟩⟩
      iapply ((kernelRun9_A c (grid9.coords t) _ _ _ _ _ _ _ _ (isFirst9 t h0) (notLast9 t (by omega)) (iblk9 V c 0 t) (iblk9 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover9_A c _ _ _ _ _ _ _ _ _ _ _ _ _)
          iexact Hrb
        iexact Hg
      isplitl [Ho]; · iexact Ho
      isplitl [H0]; · iexact H0
      isplitl [H1]; · iexact H1
      iexists _; iexact H2
    · rw [PhiS9_castSucc V c t, PhiS9_pos V c _ _ hz]
      iintro ⟨⟨⟨HS0, Hrb⟩, Hg⟩, Ho, ⟨%d0, H0⟩, ⟨%d1, H1⟩, ⟨%d2, H2⟩⟩
      iapply ((kernelRun9_A c (grid9.coords t) _ _ _ _ _ _ _ _ (isFirst9 t h0) (notLast9 t (by omega)) (iblk9 V c 0 t) (iblk9 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover9_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat9 V c).leavesExact 2 t = owns (c : Thread nD τ) (ms9_2 t) fullShare ((dat9 V c).after 2 t) from by
        unfold Dat.leavesExact; rw [liveAt9_2 t (isLast9 t h3)], after9_2]
      rw [outsAt9_C V c t h0 h3]
      unfold out9_C sout9_C; (try dsimp only)
      rw [PhiS9_castSucc V c t, PhiS9_pos V c _ _ hz]
      iintro ⟨⟨⟨HS0, Hrb⟩, Hg⟩, Ho, ⟨%d0, H0⟩, ⟨%d1, H1⟩, ⟨%d2, H2⟩⟩
      iapply ((kernelRun9_C c (grid9.coords t) _ _ _ _ _ _ _ _ (notFirst9 t h0) (isLast9 t h3) (iblk9 V c 0 t) (iblk9 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover9_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover9_C c _ _ _ _ _ _ _ _ _ _ _ _ _ _)
    · rw [Dat.leavesExact_idle (dat9 V c) 2 t (idleAt9_2 t (notLast9 t h3)) (noFlush9_2 t (notLast9 t h3))]
      rw [outsAt9_B V c t h0 h3]
      unfold sout9_B; (try dsimp only)
      rw [PhiS9_castSucc V c t, PhiS9_pos V c _ _ hz]
      iintro ⟨⟨⟨HS0, Hrb⟩, Hg⟩, Ho, ⟨%d0, H0⟩, ⟨%d1, H1⟩, ⟨%d2, H2⟩⟩
      iapply ((kernelRun9_B c (grid9.coords t) _ _ _ _ _ _ _ _ (notFirst9 t h0) (notLast9 t h3) (iblk9 V c 0 t) (iblk9 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover9_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the region is entered with is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After the last point the invariant gives the class's back: the accumulator's contents are forgotten. -/
theorem hout9 (c : Dev nD) : (dat9 V c).Φ (Fin.last cfg9.N) ⊢ Pipeline.ΦA spec9 c := by
  have hN : cfg9.N = 16 := N_9
  rw [show (dat9 V c).Φ (Fin.last cfg9.N) = PhiS9 V c (Fin.last cfg9.N).val (Nat.le_of_lt_succ (Fin.last cfg9.N).isLt) from rfl,
    PhiS9_pos V c _ _ (by rw [Fin.val_last]; omega), PhiA9_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI10a.lean ====
/- Laid out by: python3 scratch/layout_grid41.py --template-region 0 --region 10 --program KernelIdeal --parts a, --shapes S1024x128=S1024x512,S128x512=S512x512
   from the hand-written text of region 0 (RegKI0a.lean): the same text, the region's number, block shapes substituted. -/
/- The region of KernelIdeal's @main that runs `cc10__matmul_kernel` (pipeline `cfg10`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond10_0 (i : grid10.Coords) : Prop :=
  (Scalar.cmpi .ne (Scalar.extui (Scalar.cmpi .eq (BitVec.ofNat 32 (i 1).val) 0#32)) 0#32) = 1#1
/-- True at every point: the reduction axis has one step. -/
theorem hcond10_0 : ∀ t : Fin cfg10.N, cond10_0 (grid10.coords t) :=
  (by decide +kernel : ∀ t : Fin grid10.N, cond10_0 (grid10.coords t))

/-- "This is the last reduction step" (the guard of the copy to the output block). -/
abbrev cond10_1 (i : grid10.Coords) : Prop := k10_cond2 i = 1#1
/-- True at every point, for the same reason. -/
theorem hcond10_1 : ∀ t : Fin cfg10.N, cond10_1 (grid10.coords t) :=
  (by decide +kernel : ∀ t : Fin grid10.N, cond10_1 (grid10.coords t))

/-! ## No window is idle anywhere -/

theorem liveAt10_0 : ∀ t : Fin cfg10.N, cfg10.idle 0 (grid10.coords t) = false := by decide +kernel
theorem liveAt10_1 : ∀ t : Fin cfg10.N, cfg10.idle 1 (grid10.coords t) = false := by decide +kernel
/-- The output window is stored at every point (the copy's guard holds everywhere). -/
theorem liveAt10_2 : ∀ t : Fin cfg10.N, cfg10.idle 2 (grid10.coords t) = false := by decide +kernel

/-! ## The memrefs the body is called on -/

/-- One staging buffer of the output window, through which its contents are stated (any whole view of the shape reads the
    same pieces back the same way). -/
abbrev VO10_2 : View sig .tc .vmem S1024x512 .f32 := (Memref.whole cc10_stg2_0 : Memref sig .tc .vmem S1024x512 .f32).view
/-- Each window's current staging memref at point `t`, spelt as the pipeline passes it, with its wholeness. -/
abbrev ms10_0 (t : Fin cfg10.N) : Memref sig .tc .vmem S1024x512 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S512x512 .bf16 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1024x512 .f32 := win10_2.stage (cfg10.slots t 2)
abbrev hs10_2 (t : Fin cfg10.N) : (ms10_2 t).IsWhole := hstage10_2 ((cfg10.slots t 2).cast nbuf10_2)
/-- The accumulator: a whole scoped buffer of the kernel's own, passed beside the windows. -/
abbrev scM10_0 : Memref sig .tc .vmem S1024x512 .f32 := Memref.whole cc10_scratch0
abbrev VS10_0 : View sig .tc .vmem S1024x512 .f32 := scM10_0.view

/-- The region invariant with the accumulator taken out of the scoped rest: the accumulator owned at some contents, every
    other scoped buffer unopened, and the generator register. -/
theorem PhiA10_eq (c : Dev nD) :
    (Pipeline.ΦA spec10 c : sProp 𝕄)
      = iprop(iprop(iprop((∃ d, owns (c : Thread nD τ) scM10_0 fullShare d))
            ∗ Pipeline.scopedRestBut (Ix := Unit) (Name := ℕ) (U := UR sig nD τ) (Lvl := ℕ) (Val := Elt F) spec10 c [cc10_scratch0])
          ∗ (∃ r, prngReg c r)) := by
  unfold Pipeline.ΦA; rw [scopedRest10_split]; simp only [scM10_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun10 (c : Dev nD) (i : grid10.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond10_0 i) (hlast : cond10_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc10__matmul_kernel i arg2 harg2 arg3 harg3 arg4 harg4 arg5 harg5) K } := by
  refine ⟨?_, ?_, fun E K => ?run⟩
  case run =>
    simp only [cc10__matmul_kernel_eq_skeleton]; unfold cc10__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.KernelIdeal.Hand

end
-- ==== Proof.RegKI10.lean ====
/- Laid out by: python3 scratch/layout_grid41.py --template-region 0 --region 10 --program KernelIdeal --parts a, --shapes S1024x128=S1024x512,S128x512=S512x512
   from the hand-written text of region 0 (RegKI0.lean): the same text, the region's number, block shapes substituted. -/
/- The region of KernelIdeal's @main that runs `cc10__matmul_kernel` (pipeline `cfg10`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegKI10a
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## What the case leaves, as pieces read back -/

/-- The output's pieces tile its block (one whole-block store). -/
theorem cover10_2 (c : Dev nD) (i : grid10.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond10_0 i) (hlast : cond10_1 i) (xa : Vec F S1024x512 .f32) (xb : Vec F S512x512 .bf16) (y : S1024x512.Idx) :
    ∃ pc ∈ (kernelRun10 c i arg2 harg2 arg3 harg3 arg4 harg4 arg5 harg5 hfirst hlast xa xb).1, y ∈ pc.1.set :=
  View.cover_of_tiledL (kernelRun10 c i arg2 harg2 arg3 harg3 arg4 harg4 arg5 harg5 hfirst hlast xa xb).1 S1024x512.size (by sl_kernel_rfl) y

/-- What the case leaves in the output's staging buffer: its pieces read back over junk. -/
noncomputable def out10_2 (c : Dev nD) (i : grid10.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond10_0 i) (hlast : cond10_1 i) (xa : Vec F S1024x512 .f32) (xb : Vec F S512x512 .bf16) : Vec F S1024x512 .f32 :=
  VO10_2.read (Elt F) (VO10_2.writes (Elt F) VO10_2.junk (kernelRun10 c i arg2 harg2 arg3 harg3 arg4 harg4 arg5 harg5 hfirst hlast xa xb).1)

/-- What the case leaves in the accumulator: its pieces read back over junk. -/
noncomputable def sout10_0 (c : Dev nD) (i : grid10.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond10_0 i) (hlast : cond10_1 i) (xa : Vec F S1024x512 .f32) (xb : Vec F S512x512 .bf16) : Vec F S1024x512 .f32 :=
  VS10_0.read (Elt F) (VS10_0.writes (Elt F) VS10_0.junk (kernelRun10 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout10_0_eq (c : Dev nD) (i : grid10.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond10_0 i) (hlast : cond10_1 i) (xa : Vec F S1024x512 .f32) (xb : Vec F S512x512 .bf16) :
    sout10_0 c i arg2 harg2 arg3 harg3 arg4 harg4 arg5 harg5 hfirst hlast xa xb = k10_pay2 xa xb (k10_pay1 (F := F)) := by
  unfold sout10_0
  rw [View.read_writes_junk_eq_canon]
  unfold kernelRun10
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out10_2_eq (c : Dev nD) (i : grid10.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond10_0 i) (hlast : cond10_1 i) (xa : Vec F S1024x512 .f32) (xb : Vec F S512x512 .bf16) :
    out10_2 c i arg2 harg2 arg3 harg3 arg4 harg4 arg5 harg5 hfirst hlast xa xb = k10_pay2 xa xb (k10_pay1 (F := F)) := by
  unfold out10_2
  rw [View.read_writes_junk_eq_canon]
  unfold kernelRun10
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt10 (c : Dev nD) (n : ℕ) (hn : n < cfg10.N) : Vec F S1024x512 .f32 × Vec F S1024x512 .f32 :=
  (out10_2 c (grid10.coords ⟨n, hn⟩) (ms10_0 ⟨n, hn⟩) (hs10_0 ⟨n, hn⟩) (ms10_1 ⟨n, hn⟩) (hs10_1 ⟨n, hn⟩) (ms10_2 ⟨n, hn⟩) (hs10_2 ⟨n, hn⟩) scM10_0 (Memref.isWhole_whole _)
      (hcond10_0 ⟨n, hn⟩) (hcond10_1 ⟨n, hn⟩) (iblk10 V c 0 ⟨n, hn⟩) (iblk10 V c 1 ⟨n, hn⟩),
   sout10_0 c (grid10.coords ⟨n, hn⟩) (ms10_0 ⟨n, hn⟩) (hs10_0 ⟨n, hn⟩) (ms10_1 ⟨n, hn⟩) (hs10_1 ⟨n, hn⟩) (ms10_2 ⟨n, hn⟩) (hs10_2 ⟨n, hn⟩) scM10_0 (Memref.isWhole_whole _)
      (hcond10_0 ⟨n, hn⟩) (hcond10_1 ⟨n, hn⟩) (iblk10 V c 0 ⟨n, hn⟩) (iblk10 V c 1 ⟨n, hn⟩))

/-- Every point is a first reduction step: the accumulator after it is one product onto zero. -/
theorem outsAt10_first (c : Dev nD) (t : Fin cfg10.N) :
    (outsAt10 V c t.val t.isLt).2 = k10_pay2 (iblk10 V c 0 t) (iblk10 V c 1 t) (k10_pay1 (F := F)) := by
  obtain ⟨n, hn⟩ := t
  unfold outsAt10
  dsimp only
  rw [sout10_0_eq]

/-- Every point is a last reduction step: the output block after it is the accumulator. -/
theorem outsAt10_last (c : Dev nD) (t : Fin cfg10.N) :
    (outsAt10 V c t.val t.isLt).1 = (outsAt10 V c t.val t.isLt).2 := by
  obtain ⟨n, hn⟩ := t
  unfold outsAt10
  dsimp only
  rw [out10_2_eq, sout10_0_eq]

/-! ## The pipeline's proof data -/

/-- The proof data of the pipeline on core `c`: the arrays as the region finds them; after the body at point `t` each input's
    buffer at its block and the output's at `outsAt10`'s first component; the invariant the same at every point; nothing owed;
    full shares. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt).1
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (outsAt10 V c t.val t.isLt).1 := by dsimp only [dat10]

/-- An input's current staging buffer holds its block at every point, fetched there or not: where it is not fetched its block
    index has not moved since the point before, and the body left the block in place. -/
theorem before10_0 (c : Dev nD) (t : Fin cfg10.N) (d) : (dat10 V c).before 0 t d = iblk10 V c 0 t :=
  ((dat10 V c).before_in_eq_fetched 0 rfl (fun _ => rfl) (fun _ _ _ => rfl)
      (fun t => by rw [after10_0]; unfold Dat.blockOf iblk10; rw [A_eq10]; try rfl) t d).trans
    (by unfold Dat.fetched Dat.blockOf iblk10; rw [A_eq10]; try rfl)
theorem before10_1 (c : Dev nD) (t : Fin cfg10.N) (d) : (dat10 V c).before 1 t d = iblk10 V c 1 t :=
  ((dat10 V c).before_in_eq_fetched 1 rfl (fun _ => rfl) (fun _ _ _ => rfl)
      (fun t => by rw [after10_1]; unfold Dat.blockOf iblk10; rw [A_eq10]; try rfl) t d).trans
    (by unfold Dat.fetched Dat.blockOf iblk10; rw [A_eq10]; try rfl)

/-! ## The body obligation, at a generic point -/

/-- What the body is called with at point `t`, the windows one by one, -/
noncomputable def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

/-- and what it returns. -/
noncomputable def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl,
    show (dat10 V c).Φ t.succ = Pipeline.ΦA spec10 c from rfl, show (dat10 V c).Φ t.castSucc = Pipeline.ΦA spec10 c from rfl, PhiA10_eq]
  rw [show (dat10 V c).leavesExact 0 t = owns (c : Thread nD τ) (ms10_0 t) fullShare ((dat10 V c).after 0 t) from by
      unfold Dat.leavesExact; rw [liveAt10_0 t], after10_0]
  rw [show (dat10 V c).leavesExact 1 t = owns (c : Thread nD τ) (ms10_1 t) fullShare ((dat10 V c).after 1 t) from by
      unfold Dat.leavesExact; rw [liveAt10_1 t], after10_1]
  rw [show (dat10 V c).leavesExact 2 t = owns (c : Thread nD τ) (ms10_2 t) fullShare ((dat10 V c).after 2 t) from by
      unfold Dat.leavesExact; rw [liveAt10_2 t], after10_2]
  unfold outsAt10 out10_2; (try dsimp only)
  iintro ⟨⟨⟨Hacc, Hrest⟩, Hgen⟩, Howe, ⟨%da, Ha⟩, ⟨%db, Hb⟩, ⟨%dO, Hout⟩⟩
  iapply ((kernelRun10 c (grid10.coords t) _ _ _ _ _ _ _ _ (hcond10_0 t) (hcond10_1 t) (iblk10 V c 0 t) (iblk10 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover10_2 c _ _ _ _ _ _ _ _ _ _ _ _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point, -/
theorem hin10 (c : Dev nD) : Pipeline.ΦA spec10 c ⊢ (dat10 V c).Φ 0 := Idealize.SL.BI.Entails.refl _

/-- and the invariant after the last point is what the launch takes back. -/
theorem hout10 (c : Dev nD) : (dat10 V c).Φ (Fin.last cfg10.N) ⊢ Pipeline.ΦA spec10 c := Idealize.SL.BI.Entails.refl _

end Cert.KernelIdeal.Hand

end
-- ==== Proof.RegKI11a.lean ====
/- Laid out by: python3 scratch/layout_regions.py --template-region 1 --region 11 --program KernelIdeal --parts a,b,c, --out-dir proof/Proof
   from the hand-written text of region 1 (RegKI1a.lean): the same text, the region's number substituted. -/
/-
  Region 11 of @main (custom_call 11): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond11_0 (i : grid11.Coords) : Prop := (Scalar.cmpi .ne (Scalar.extui (Scalar.cmpi .eq (BitVec.ofNat 32 (i 1).val) 0#32)) 0#32) = 1#1
/-- It holds exactly at the points with t % 4 = 0. -/
theorem hcond11_0 : ∀ t : Fin cfg11.N, cond11_0 (grid11.coords t) ↔ t.val % 4 = 0 :=
  (by decide +kernel : ∀ t : Fin grid11.N, cond11_0 (grid11.coords t) ↔ t.val % 4 = 0)

/-- "k = 3": the second conditional's test. -/
abbrev cond11_1 (i : grid11.Coords) : Prop := k11_cond2 i = 1#1
/-- It holds exactly at the points with t % 4 = 3. -/
theorem hcond11_1 : ∀ t : Fin cfg11.N, cond11_1 (grid11.coords t) ↔ t.val % 4 = 3 :=
  (by decide +kernel : ∀ t : Fin grid11.N, cond11_1 (grid11.coords t) ↔ t.val % 4 = 3)

/-! ## Where the windows are idle, and where the output is written back -/

/-- The two input windows are never idle. -/
theorem liveAt11_0 : ∀ t : Fin cfg11.N, cfg11.idle 0 (grid11.coords t) = false := by decide +kernel
theorem liveAt11_1 : ∀ t : Fin cfg11.N, cfg11.idle 1 (grid11.coords t) = false := by decide +kernel
/-- Where k ≠ 3 the output window is idle (the body stores nothing into it) and is not written back. -/
theorem idleAt11_2 : ∀ t : Fin cfg11.N, ¬cond11_1 (grid11.coords t) → cfg11.idle 2 (grid11.coords t) = true := by decide +kernel
theorem noFlush11_2 : ∀ t : Fin cfg11.N, ¬cond11_1 (grid11.coords t) → (cfg11.win 2).flush t = false := by decide +kernel
/-- Where k = 3 it is live. -/
theorem liveAt11_2 : ∀ t : Fin cfg11.N, cond11_1 (grid11.coords t) → cfg11.idle 2 (grid11.coords t) = false := by decide +kernel

/-! ## The staging memrefs at a point, and the scratch -/

/-- One staging buffer of the output window, through which its contents are stated. -/
abbrev VO11_2 : View sig .tc .vmem S1024x512 .f32 := (Memref.whole cc11_stg2_0 : Memref sig .tc .vmem S1024x512 .f32).view
abbrev ms11_0 (t : Fin cfg11.N) : Memref sig .tc .vmem S1024x1024 .bf16 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S1024x512 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S1024x512 .f32 := win11_2.stage (cfg11.slots t 2)
abbrev hs11_2 (t : Fin cfg11.N) : (ms11_2 t).IsWhole := hstage11_2 ((cfg11.slots t 2).cast nbuf11_2)
/-- The accumulator: a whole scoped buffer of the kernel's own. -/
abbrev scM11 : Memref sig .tc .vmem S1024x512 .f32 := Memref.whole cc11_scratch0
abbrev VS11 : View sig .tc .vmem S1024x512 .f32 := scM11.view

/-- The other scoped buffers of the core, none of which this region touches. -/
abbrev restBut11 (c : Dev nD) : sProp 𝕄 :=
  Pipeline.scopedRestBut (Ix := Unit) (Name := ℕ) (U := UR sig nD τ) (Lvl := ℕ) (Val := Elt F) spec11 c [cc11_scratch0]

/-- The region's invariant before its first point: the accumulator at something, the other scoped buffers, the generator register. -/
theorem PhiA11_eq (c : Dev nD) :
    (Pipeline.ΦA spec11 c : sProp 𝕄)
      = iprop(iprop((∃ d, owns (c : Thread nD τ) scM11 fullShare d) ∗ restBut11 c) ∗ (∃ r, prngReg c r)) := by
  unfold Pipeline.ΦA; rw [scopedRest11_split]; simp only [scM11, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun11_A (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond11_0 i) (hc1 : ¬cond11_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc11__matmul_kernel i arg2 harg2 arg3 harg3 arg4 harg4 arg5 harg5) K } := by
  refine ⟨[], ?_, fun xi2 E K => ?run⟩
  case run =>
    simp only [cc11__matmul_kernel_eq_skeleton]; unfold cc11__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI11b.lean ====
/- Laid out by: python3 scratch/layout_regions.py --template-region 1 --region 11 --program KernelIdeal --parts a,b,c, --out-dir proof/Proof
   from the hand-written text of region 1 (RegKI1b.lean): the same text, the region's number substituted. -/
/-
  Region 11, case B (k = 1, 2): the body's run. Neither conditional is taken: the product of the two blocks is added to what
  the point before left in the accumulator; the output block is not touched.
-/
import proofs.«158944_j64613488001249_1_alg».proof.Proof.RegKI11a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun11_B (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond11_0 i) (hc1 : ¬cond11_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc11__matmul_kernel i arg2 harg2 arg3 harg3 arg4 harg4 arg5 harg5) K } := by
  refine ⟨[], ?_, fun xi2 E K => ?run⟩
  case run =>
    simp only [cc11__matmul_kernel_eq_skeleton]; unfold cc11__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI11c.lean ====
/- Laid out by: python3 scratch/layout_regions.py --template-region 1 --region 11 --program KernelIdeal --parts a,b,c, --out-dir proof/Proof
   from the hand-written text of region 1 (RegKI1c.lean): the same text, the region's number substituted. -/
/-
  Region 11, case C (k = 3): the body's run. The product is added to the accumulator as in case B, and then the second
  conditional copies the accumulator over the whole output block.
-/
import proofs.«158944_j64613488001249_1_alg».proof.Proof.RegKI11b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun11_C (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond11_0 i) (hc1 : cond11_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc11__matmul_kernel i arg2 harg2 arg3 harg3 arg4 harg4 arg5 harg5) K } := by
  refine ⟨?_, ?_, fun E K => ?run⟩
  case run =>
    simp only [cc11__matmul_kernel_eq_skeleton]; unfold cc11__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI11.lean ====
/- Laid out by: python3 scratch/layout_regions.py --template-region 1 --region 11 --program KernelIdeal --parts a,b,c, --out-dir proof/Proof
   from the hand-written text of region 1 (RegKI1.lean): the same text, the region's number substituted. -/
/-
  Region 11 of @main, entered from the buffer contents `V`: what its windows' blocks are, what each case of the body leaves in
  the accumulator and in the output block, the accumulator and the output block point by point (`outsAt11`: at k = 0 the
  accumulator restarts from zeros plus the product; at k = 1, 2, 3 it is the point before's plus the product; at k = 3 the
  output block is the accumulator), the region's invariant (the accumulator at `outsAt11`'s second component), the proof data,
  and the body's obligation at every point.
-/
import proofs.«158944_j64613488001249_1_alg».proof.Proof.RegKI11c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, for any proof data whose array is `V`'s and
    whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## What each case leaves -/

/-- Case A's stores into the accumulator cover it. -/
theorem scover11_A (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond11_0 i) (hc1 : ¬cond11_1 i)
    (x0 : Vec F S1024x1024 .bf16) (x1 : Vec F S1024x512 .f32) (y : S1024x512.Idx) :
    ∃ pc ∈ (kernelRun11_A c i arg2 harg2 arg3 harg3 arg4 harg4 arg5 harg5 hc0 hc1 x0 x1).2.1, y ∈ pc.1.set :=
  View.cover_of_tiledL (kernelRun11_A c i arg2 harg2 arg3 harg3 arg4 harg4 arg5 harg5 hc0 hc1 x0 x1).2.1 S1024x512.size (by sl_kernel_rfl) y
/-- What case A leaves in the accumulator. -/
noncomputable def sout11_A (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond11_0 i) (hc1 : ¬cond11_1 i)
    (x0 : Vec F S1024x1024 .bf16) (x1 : Vec F S1024x512 .f32) : Vec F S1024x512 .f32 :=
  VS11.read (Elt F) (VS11.writes (Elt F) VS11.junk (kernelRun11_A c i arg2 harg2 arg3 harg3 arg4 harg4 arg5 harg5 hc0 hc1 x0 x1).2.1)

/-- Case B's store into the accumulator covers it. -/
theorem scover11_B (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond11_0 i) (hc1 : ¬cond11_1 i)
    (x0 : Vec F S1024x1024 .bf16) (x1 : Vec F S1024x512 .f32) (xs0 : Vec F S1024x512 .f32) (y : S1024x512.Idx) :
    ∃ pc ∈ (kernelRun11_B c i arg2 harg2 arg3 harg3 arg4 harg4 arg5 harg5 hc0 hc1 x0 x1 xs0).2.1, y ∈ pc.1.set :=
  View.cover_of_tiledL (kernelRun11_B c i arg2 harg2 arg3 harg3 arg4 harg4 arg5 harg5 hc0 hc1 x0 x1 xs0).2.1 S1024x512.size (by sl_kernel_rfl) y
/-- What case B leaves in the accumulator, over what the point before left. -/
noncomputable def sout11_B (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond11_0 i) (hc1 : ¬cond11_1 i)
    (x0 : Vec F S1024x1024 .bf16) (x1 : Vec F S1024x512 .f32) (xs0 : Vec F S1024x512 .f32) : Vec F S1024x512 .f32 :=
  VS11.read (Elt F) (VS11.writes (Elt F) VS11.junk (kernelRun11_B c i arg2 harg2 arg3 harg3 arg4 harg4 arg5 harg5 hc0 hc1 x0 x1 xs0).2.1)

/-- Case C's store into the output block covers it, and so does its store into the accumulator. -/
theorem cover11_C (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond11_0 i) (hc1 : cond11_1 i)
    (x0 : Vec F S1024x1024 .bf16) (x1 : Vec F S1024x512 .f32) (xs0 : Vec F S1024x512 .f32) (y : S1024x512.Idx) :
    ∃ pc ∈ (kernelRun11_C c i arg2 harg2 arg3 harg3 arg4 harg4 arg5 harg5 hc0 hc1 x0 x1 xs0).1, y ∈ pc.1.set :=
  View.cover_of_tiledL (kernelRun11_C c i arg2 harg2 arg3 harg3 arg4 harg4 arg5 harg5 hc0 hc1 x0 x1 xs0).1 S1024x512.size (by sl_kernel_rfl) y
theorem scover11_C (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond11_0 i) (hc1 : cond11_1 i)
    (x0 : Vec F S1024x1024 .bf16) (x1 : Vec F S1024x512 .f32) (xs0 : Vec F S1024x512 .f32) (y : S1024x512.Idx) :
    ∃ pc ∈ (kernelRun11_C c i arg2 harg2 arg3 harg3 arg4 harg4 arg5 harg5 hc0 hc1 x0 x1 xs0).2.1, y ∈ pc.1.set :=
  View.cover_of_tiledL (kernelRun11_C c i arg2 harg2 arg3 harg3 arg4 harg4 arg5 harg5 hc0 hc1 x0 x1 xs0).2.1 S1024x512.size (by sl_kernel_rfl) y
/-- What case C leaves in the output block, and in the accumulator. -/
noncomputable def out11_C (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond11_0 i) (hc1 : cond11_1 i)
    (x0 : Vec F S1024x1024 .bf16) (x1 : Vec F S1024x512 .f32) (xs0 : Vec F S1024x512 .f32) : Vec F S1024x512 .f32 :=
  VO11_2.read (Elt F) (VO11_2.writes (Elt F) VO11_2.junk (kernelRun11_C c i arg2 harg2 arg3 harg3 arg4 harg4 arg5 harg5 hc0 hc1 x0 x1 xs0).1)
noncomputable def sout11_C (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond11_0 i) (hc1 : cond11_1 i)
    (x0 : Vec F S1024x1024 .bf16) (x1 : Vec F S1024x512 .f32) (xs0 : Vec F S1024x512 .f32) : Vec F S1024x512 .f32 :=
  VS11.read (Elt F) (VS11.writes (Elt F) VS11.junk (kernelRun11_C c i arg2 harg2 arg3 harg3 arg4 harg4 arg5 harg5 hc0 hc1 x0 x1 xs0).2.1)

/-- Where the output block is idle nothing consults what it holds: a placeholder. -/
noncomputable def outIdle11 : Vec F S1024x512 .f32 := VO11_2.read (Elt F) (VO11_2.writes (Elt F) VO11_2.junk [])

/-! ## The conditions at a point, from t % 4 -/

theorem isFirst11 (t : Fin cfg11.N) (h : t.val % 4 = 0) : cond11_0 (grid11.coords t) := (hcond11_0 t).mpr h
theorem notFirst11 (t : Fin cfg11.N) (h : ¬t.val % 4 = 0) : ¬cond11_0 (grid11.coords t) := fun hc => h ((hcond11_0 t).mp hc)
theorem isLast11 (t : Fin cfg11.N) (h : t.val % 4 = 3) : cond11_1 (grid11.coords t) := (hcond11_1 t).mpr h
theorem notLast11 (t : Fin cfg11.N) (h : ¬t.val % 4 = 3) : ¬cond11_1 (grid11.coords t) := fun hc => h ((hcond11_1 t).mp hc)

/-! ## The accumulator and the output block, point by point -/

/-- After the body at position `n`: (the output block's buffer, the accumulator). -/
noncomputable def outsAt11 (c : Dev nD) : (n : ℕ) → n < cfg11.N → Vec F S1024x512 .f32 × Vec F S1024x512 .f32
  | 0, hn => (outIdle11, sout11_A c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) scM11 (Memref.isWhole_whole _) (isFirst11 ⟨0, hn⟩ (Nat.zero_mod _)) (notLast11 ⟨0, hn⟩ (by simp)) (iblk11 V c 0 ⟨0, hn⟩) (iblk11 V c 1 ⟨0, hn⟩))
  | n + 1, hn =>
    if h0 : (n + 1) % 4 = 0 then
      (outIdle11, sout11_A c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) scM11 (Memref.isWhole_whole _) (isFirst11 ⟨n + 1, hn⟩ h0) (notLast11 ⟨n + 1, hn⟩ (by show ¬(n + 1) % 4 = 3; omega)) (iblk11 V c 0 ⟨n + 1, hn⟩) (iblk11 V c 1 ⟨n + 1, hn⟩))
    else if h3 : (n + 1) % 4 = 3 then
      (out11_C c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) scM11 (Memref.isWhole_whole _) (notFirst11 ⟨n + 1, hn⟩ h0) (isLast11 ⟨n + 1, hn⟩ h3) (iblk11 V c 0 ⟨n + 1, hn⟩) (iblk11 V c 1 ⟨n + 1, hn⟩) (outsAt11 c n (Nat.lt_of_succ_lt hn)).2,
       sout11_C c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) scM11 (Memref.isWhole_whole _) (notFirst11 ⟨n + 1, hn⟩ h0) (isLast11 ⟨n + 1, hn⟩ h3) (iblk11 V c 0 ⟨n + 1, hn⟩) (iblk11 V c 1 ⟨n + 1, hn⟩) (outsAt11 c n (Nat.lt_of_succ_lt hn)).2)
    else
      (outIdle11, sout11_B c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) scM11 (Memref.isWhole_whole _) (notFirst11 ⟨n + 1, hn⟩ h0) (notLast11 ⟨n + 1, hn⟩ h3) (iblk11 V c 0 ⟨n + 1, hn⟩) (iblk11 V c 1 ⟨n + 1, hn⟩) (outsAt11 c n (Nat.lt_of_succ_lt hn)).2)

/-- `outsAt11` at a point with k = 0. -/
theorem outsAt11_A (c : Dev nD) (t : Fin cfg11.N) (h0 : t.val % 4 = 0) :
    outsAt11 V c t.val t.isLt = (outIdle11, sout11_A c (grid11.coords t) (ms11_0 t) (hs11_0 t) (ms11_1 t) (hs11_1 t) (ms11_2 t) (hs11_2 t) scM11 (Memref.isWhole_whole _) (isFirst11 t h0) (notLast11 t (by omega)) (iblk11 V c 0 t) (iblk11 V c 1 t)) := by
  obtain ⟨n, hn⟩ := t
  cases n with
  | zero => rfl
  | succ n => exact (dif_pos h0).trans rfl

/-- `outsAt11` at a point with k = 1, 2: over what the point before left. -/
theorem outsAt11_B (c : Dev nD) (t : Fin cfg11.N) (h0 : ¬t.val % 4 = 0) (h3 : ¬t.val % 4 = 3) :
    outsAt11 V c t.val t.isLt = (outIdle11, sout11_B c (grid11.coords t) (ms11_0 t) (hs11_0 t) (ms11_1 t) (hs11_1 t) (ms11_2 t) (hs11_2 t) scM11 (Memref.isWhole_whole _) (notFirst11 t h0) (notLast11 t h3) (iblk11 V c 0 t) (iblk11 V c 1 t)
      (outsAt11 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt11` at a point with k = 3. -/
theorem outsAt11_C (c : Dev nD) (t : Fin cfg11.N) (h0 : ¬t.val % 4 = 0) (h3 : t.val % 4 = 3) :
    outsAt11 V c t.val t.isLt = (out11_C c (grid11.coords t) (ms11_0 t) (hs11_0 t) (ms11_1 t) (hs11_1 t) (ms11_2 t) (hs11_2 t) scM11 (Memref.isWhole_whole _) (notFirst11 t h0) (isLast11 t h3) (iblk11 V c 0 t) (iblk11 V c 1 t)
        (outsAt11 V c (t.val - 1) (Nat.lt_of_le_of_lt (Nat.sub_le _ _) t.isLt)).2,
      sout11_C c (grid11.coords t) (ms11_0 t) (hs11_0 t) (ms11_1 t) (hs11_1 t) (ms11_2 t) (hs11_2 t) scM11 (Memref.isWhole_whole _) (notFirst11 t h0) (isLast11 t h3) (iblk11 V c 0 t) (iblk11 V c 1 t)
        (outsAt11 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS11 (c : Dev nD) : (n : ℕ) → n ≤ cfg11.N → sProp 𝕄
  | 0, _ => Pipeline.ΦA spec11 c
  | n + 1, hn => iprop(iprop(owns (c : Thread nD τ) scM11 fullShare ((outsAt11 V c n hn).2) ∗ restBut11 c) ∗ (∃ r, prngReg c r))

theorem PhiS11_zero (c : Dev nD) (n : ℕ) (h : n ≤ cfg11.N) (hz : n = 0) : PhiS11 V c n h = Pipeline.ΦA spec11 c := by
  subst hz; rfl
theorem PhiS11_succ (c : Dev nD) (n : ℕ) (hn : n < cfg11.N) :
    PhiS11 V c (n + 1) hn = iprop(iprop(owns (c : Thread nD τ) scM11 fullShare ((outsAt11 V c n hn).2) ∗ restBut11 c) ∗ (∃ r, prngReg c r)) := rfl
theorem PhiS11_pos (c : Dev nD) (n : ℕ) (h : n ≤ cfg11.N) (hz : n ≠ 0) :
    PhiS11 V c n h = iprop(iprop(owns (c : Thread nD τ) scM11 fullShare ((outsAt11 V c (n - 1) (by omega)).2) ∗ restBut11 c) ∗ (∃ r, prngReg c r)) := by
  cases n with
  | zero => exact absurd rfl hz
  | succ n => rfl

/-! ## The proof data -/

/-- The region's proof data on core `c`: the arrays as the region finds them; after the body at point `t` each input's
    buffer at its block and the output's at `outsAt11`'s first component; the invariant `PhiS11`; nothing owed; full shares. -/
noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => (outsAt11 V c t.val t.isLt).1
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]
theorem PhiS11_castSucc (c : Dev nD) (t : Fin cfg11.N) :
    (dat11 V c).Φ t.castSucc = PhiS11 V c t.val (Nat.le_of_lt t.isLt) := by
  dsimp only [dat11]; simp only [Fin.coe_castSucc]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = (outsAt11 V c t.val t.isLt).1 := by dsimp only [dat11]
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-! ## The body's obligation -/

noncomputable def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d)))

noncomputable def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).owesAt () t.succ = (dat11 V c).owesAt () t.castSucc from rfl]
  rw [show (dat11 V c).Φ t.succ = PhiS11 V c (t.val + 1) t.isLt from rfl, PhiS11_succ]
  rw [show (dat11 V c).leavesExact 0 t = owns (c : Thread nD τ) (ms11_0 t) fullShare ((dat11 V c).after 0 t) from by
    unfold Dat.leavesExact; rw [liveAt11_0 t], after11_0]
  rw [show (dat11 V c).leavesExact 1 t = owns (c : Thread nD τ) (ms11_1 t) fullShare ((dat11 V c).after 1 t) from by
    unfold Dat.leavesExact; rw [liveAt11_1 t], after11_1]
  by_cases h0 : t.val % 4 = 0
  · have h3 : ¬t.val % 4 = 3 := by omega
    rw [Dat.leavesExact_idle (dat11 V c) 2 t (idleAt11_2 t (notLast11 t h3)) (noFlush11_2 t (notLast11 t h3))]
    rw [outsAt11_A V c t h0]
    unfold sout11_A; (try dsimp only)
    by_cases hz : t.val = 0
    · rw [PhiS11_castSucc V c t, PhiS11_zero V c _ _ hz, PhiA11_eq]
      iintro ⟨⟨⟨HS0, Hrb⟩, Hg⟩, Ho, ⟨%d0, H0⟩, ⟨%d1, H1⟩, ⟨%d2, H2⟩⟩
      iapply ((kernelRun11_A c (grid11.coords t) _ _ _ _ _ _ _ _ (isFirst11 t h0) (notLast11 t (by omega)) (iblk11 V c 0 t) (iblk11 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover11_A c _ _ _ _ _ _ _ _ _ _ _ _ _)
          iexact Hrb
        iexact Hg
      isplitl [Ho]; · iexact Ho
      isplitl [H0]; · iexact H0
      isplitl [H1]; · iexact H1
      iexists _; iexact H2
    · rw [PhiS11_castSucc V c t, PhiS11_pos V c _ _ hz]
      iintro ⟨⟨⟨HS0, Hrb⟩, Hg⟩, Ho, ⟨%d0, H0⟩, ⟨%d1, H1⟩, ⟨%d2, H2⟩⟩
      iapply ((kernelRun11_A c (grid11.coords t) _ _ _ _ _ _ _ _ (isFirst11 t h0) (notLast11 t (by omega)) (iblk11 V c 0 t) (iblk11 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover11_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat11 V c).leavesExact 2 t = owns (c : Thread nD τ) (ms11_2 t) fullShare ((dat11 V c).after 2 t) from by
        unfold Dat.leavesExact; rw [liveAt11_2 t (isLast11 t h3)], after11_2]
      rw [outsAt11_C V c t h0 h3]
      unfold out11_C sout11_C; (try dsimp only)
      rw [PhiS11_castSucc V c t, PhiS11_pos V c _ _ hz]
      iintro ⟨⟨⟨HS0, Hrb⟩, Hg⟩, Ho, ⟨%d0, H0⟩, ⟨%d1, H1⟩, ⟨%d2, H2⟩⟩
      iapply ((kernelRun11_C c (grid11.coords t) _ _ _ _ _ _ _ _ (notFirst11 t h0) (isLast11 t h3) (iblk11 V c 0 t) (iblk11 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover11_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover11_C c _ _ _ _ _ _ _ _ _ _ _ _ _ _)
    · rw [Dat.leavesExact_idle (dat11 V c) 2 t (idleAt11_2 t (notLast11 t h3)) (noFlush11_2 t (notLast11 t h3))]
      rw [outsAt11_B V c t h0 h3]
      unfold sout11_B; (try dsimp only)
      rw [PhiS11_castSucc V c t, PhiS11_pos V c _ _ hz]
      iintro ⟨⟨⟨HS0, Hrb⟩, Hg⟩, Ho, ⟨%d0, H0⟩, ⟨%d1, H1⟩, ⟨%d2, H2⟩⟩
      iapply ((kernelRun11_B c (grid11.coords t) _ _ _ _ _ _ _ _ (notFirst11 t h0) (notLast11 t h3) (iblk11 V c 0 t) (iblk11 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover11_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- What the region is entered with is the invariant before the first point. -/
theorem hin11 (c : Dev nD) : Pipeline.ΦA spec11 c ⊢ (dat11 V c).Φ 0 := by
  rw [show (dat11 V c).Φ 0 = PhiS11 V c 0 (Nat.zero_le _) from rfl, PhiS11_zero V c 0 _ rfl]
  try exact Idealize.SL.BI.Entails.refl _

/-- After the last point the invariant gives the class's back: the accumulator's contents are forgotten. -/
theorem hout11 (c : Dev nD) : (dat11 V c).Φ (Fin.last cfg11.N) ⊢ Pipeline.ΦA spec11 c := by
  have hN : cfg11.N = 16 := N_11
  rw [show (dat11 V c).Φ (Fin.last cfg11.N) = PhiS11 V c (Fin.last cfg11.N).val (Nat.le_of_lt_succ (Fin.last cfg11.N).isLt) from rfl,
    PhiS11_pos V c _ _ (by rw [Fin.val_last]; omega), PhiA11_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI12a.lean ====
/- Laid out by: python3 scratch/layout_regions.py --template-region 1 --region 12 --program KernelIdeal --parts a,b,c, --out-dir proof/Proof
   from the hand-written text of region 1 (RegKI1a.lean): the same text, the region's number substituted. -/
/-
  Region 12 of @main (custom_call 12): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond12_0 (i : grid12.Coords) : Prop := (Scalar.cmpi .ne (Scalar.extui (Scalar.cmpi .eq (BitVec.ofNat 32 (i 1).val) 0#32)) 0#32) = 1#1
/-- It holds exactly at the points with t % 4 = 0. -/
theorem hcond12_0 : ∀ t : Fin cfg12.N, cond12_0 (grid12.coords t) ↔ t.val % 4 = 0 :=
  (by decide +kernel : ∀ t : Fin grid12.N, cond12_0 (grid12.coords t) ↔ t.val % 4 = 0)

/-- "k = 3": the second conditional's test. -/
abbrev cond12_1 (i : grid12.Coords) : Prop := k12_cond2 i = 1#1
/-- It holds exactly at the points with t % 4 = 3. -/
theorem hcond12_1 : ∀ t : Fin cfg12.N, cond12_1 (grid12.coords t) ↔ t.val % 4 = 3 :=
  (by decide +kernel : ∀ t : Fin grid12.N, cond12_1 (grid12.coords t) ↔ t.val % 4 = 3)

/-! ## Where the windows are idle, and where the output is written back -/

/-- The two input windows are never idle. -/
theorem liveAt12_0 : ∀ t : Fin cfg12.N, cfg12.idle 0 (grid12.coords t) = false := by decide +kernel
theorem liveAt12_1 : ∀ t : Fin cfg12.N, cfg12.idle 1 (grid12.coords t) = false := by decide +kernel
/-- Where k ≠ 3 the output window is idle (the body stores nothing into it) and is not written back. -/
theorem idleAt12_2 : ∀ t : Fin cfg12.N, ¬cond12_1 (grid12.coords t) → cfg12.idle 2 (grid12.coords t) = true := by decide +kernel
theorem noFlush12_2 : ∀ t : Fin cfg12.N, ¬cond12_1 (grid12.coords t) → (cfg12.win 2).flush t = false := by decide +kernel
/-- Where k = 3 it is live. -/
theorem liveAt12_2 : ∀ t : Fin cfg12.N, cond12_1 (grid12.coords t) → cfg12.idle 2 (grid12.coords t) = false := by decide +kernel

/-! ## The staging memrefs at a point, and the scratch -/

/-- One staging buffer of the output window, through which its contents are stated. -/
abbrev VO12_2 : View sig .tc .vmem S1024x512 .f32 := (Memref.whole cc12_stg2_0 : Memref sig .tc .vmem S1024x512 .f32).view
abbrev ms12_0 (t : Fin cfg12.N) : Memref sig .tc .vmem S1024x1024 .bf16 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S1024x512 .f32 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S1024x512 .f32 := win12_2.stage (cfg12.slots t 2)
abbrev hs12_2 (t : Fin cfg12.N) : (ms12_2 t).IsWhole := hstage12_2 ((cfg12.slots t 2).cast nbuf12_2)
/-- The accumulator: a whole scoped buffer of the kernel's own. -/
abbrev scM12 : Memref sig .tc .vmem S1024x512 .f32 := Memref.whole cc12_scratch0
abbrev VS12 : View sig .tc .vmem S1024x512 .f32 := scM12.view

/-- The other scoped buffers of the core, none of which this region touches. -/
abbrev restBut12 (c : Dev nD) : sProp 𝕄 :=
  Pipeline.scopedRestBut (Ix := Unit) (Name := ℕ) (U := UR sig nD τ) (Lvl := ℕ) (Val := Elt F) spec12 c [cc12_scratch0]

/-- The region's invariant before its first point: the accumulator at something, the other scoped buffers, the generator register. -/
theorem PhiA12_eq (c : Dev nD) :
    (Pipeline.ΦA spec12 c : sProp 𝕄)
      = iprop(iprop((∃ d, owns (c : Thread nD τ) scM12 fullShare d) ∗ restBut12 c) ∗ (∃ r, prngReg c r)) := by
  unfold Pipeline.ΦA; rw [scopedRest12_split]; simp only [scM12, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun12_A (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond12_0 i) (hc1 : ¬cond12_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc12__matmul_kernel i arg2 harg2 arg3 harg3 arg4 harg4 arg5 harg5) K } := by
  refine ⟨[], ?_, fun xi2 E K => ?run⟩
  case run =>
    simp only [cc12__matmul_kernel_eq_skeleton]; unfold cc12__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI12b.lean ====
/- Laid out by: python3 scratch/layout_regions.py --template-region 1 --region 12 --program KernelIdeal --parts a,b,c, --out-dir proof/Proof
   from the hand-written text of region 1 (RegKI1b.lean): the same text, the region's number substituted. -/
/-
  Region 12, case B (k = 1, 2): the body's run. Neither conditional is taken: the product of the two blocks is added to what
  the point before left in the accumulator; the output block is not touched.
-/
import proofs.«158944_j64613488001249_1_alg».proof.Proof.RegKI12a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun12_B (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond12_0 i) (hc1 : ¬cond12_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc12__matmul_kernel i arg2 harg2 arg3 harg3 arg4 harg4 arg5 harg5) K } := by
  refine ⟨[], ?_, fun xi2 E K => ?run⟩
  case run =>
    simp only [cc12__matmul_kernel_eq_skeleton]; unfold cc12__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI12c.lean ====
/- Laid out by: python3 scratch/layout_regions.py --template-region 1 --region 12 --program KernelIdeal --parts a,b,c, --out-dir proof/Proof
   from the hand-written text of region 1 (RegKI1c.lean): the same text, the region's number substituted. -/
/-
  Region 12, case C (k = 3): the body's run. The product is added to the accumulator as in case B, and then the second
  conditional copies the accumulator over the whole output block.
-/
import proofs.«158944_j64613488001249_1_alg».proof.Proof.RegKI12b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun12_C (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond12_0 i) (hc1 : cond12_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc12__matmul_kernel i arg2 harg2 arg3 harg3 arg4 harg4 arg5 harg5) K } := by
  refine ⟨?_, ?_, fun E K => ?run⟩
  case run =>
    simp only [cc12__matmul_kernel_eq_skeleton]; unfold cc12__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI12.lean ====
/- Laid out by: python3 scratch/layout_regions.py --template-region 1 --region 12 --program KernelIdeal --parts a,b,c, --out-dir proof/Proof
   from the hand-written text of region 1 (RegKI1.lean): the same text, the region's number substituted. -/
/-
  Region 12 of @main, entered from the buffer contents `V`: what its windows' blocks are, what each case of the body leaves in
  the accumulator and in the output block, the accumulator and the output block point by point (`outsAt12`: at k = 0 the
  accumulator restarts from zeros plus the product; at k = 1, 2, 3 it is the point before's plus the product; at k = 3 the
  output block is the accumulator), the region's invariant (the accumulator at `outsAt12`'s second component), the proof data,
  and the body's obligation at every point.
-/
import proofs.«158944_j64613488001249_1_alg».proof.Proof.RegKI12c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, for any proof data whose array is `V`'s and
    whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## What each case leaves -/

/-- Case A's stores into the accumulator cover it. -/
theorem scover12_A (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond12_0 i) (hc1 : ¬cond12_1 i)
    (x0 : Vec F S1024x1024 .bf16) (x1 : Vec F S1024x512 .f32) (y : S1024x512.Idx) :
    ∃ pc ∈ (kernelRun12_A c i arg2 harg2 arg3 harg3 arg4 harg4 arg5 harg5 hc0 hc1 x0 x1).2.1, y ∈ pc.1.set :=
  View.cover_of_tiledL (kernelRun12_A c i arg2 harg2 arg3 harg3 arg4 harg4 arg5 harg5 hc0 hc1 x0 x1).2.1 S1024x512.size (by sl_kernel_rfl) y
/-- What case A leaves in the accumulator. -/
noncomputable def sout12_A (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond12_0 i) (hc1 : ¬cond12_1 i)
    (x0 : Vec F S1024x1024 .bf16) (x1 : Vec F S1024x512 .f32) : Vec F S1024x512 .f32 :=
  VS12.read (Elt F) (VS12.writes (Elt F) VS12.junk (kernelRun12_A c i arg2 harg2 arg3 harg3 arg4 harg4 arg5 harg5 hc0 hc1 x0 x1).2.1)

/-- Case B's store into the accumulator covers it. -/
theorem scover12_B (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond12_0 i) (hc1 : ¬cond12_1 i)
    (x0 : Vec F S1024x1024 .bf16) (x1 : Vec F S1024x512 .f32) (xs0 : Vec F S1024x512 .f32) (y : S1024x512.Idx) :
    ∃ pc ∈ (kernelRun12_B c i arg2 harg2 arg3 harg3 arg4 harg4 arg5 harg5 hc0 hc1 x0 x1 xs0).2.1, y ∈ pc.1.set :=
  View.cover_of_tiledL (kernelRun12_B c i arg2 harg2 arg3 harg3 arg4 harg4 arg5 harg5 hc0 hc1 x0 x1 xs0).2.1 S1024x512.size (by sl_kernel_rfl) y
/-- What case B leaves in the accumulator, over what the point before left. -/
noncomputable def sout12_B (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond12_0 i) (hc1 : ¬cond12_1 i)
    (x0 : Vec F S1024x1024 .bf16) (x1 : Vec F S1024x512 .f32) (xs0 : Vec F S1024x512 .f32) : Vec F S1024x512 .f32 :=
  VS12.read (Elt F) (VS12.writes (Elt F) VS12.junk (kernelRun12_B c i arg2 harg2 arg3 harg3 arg4 harg4 arg5 harg5 hc0 hc1 x0 x1 xs0).2.1)

/-- Case C's store into the output block covers it, and so does its store into the accumulator. -/
theorem cover12_C (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond12_0 i) (hc1 : cond12_1 i)
    (x0 : Vec F S1024x1024 .bf16) (x1 : Vec F S1024x512 .f32) (xs0 : Vec F S1024x512 .f32) (y : S1024x512.Idx) :
    ∃ pc ∈ (kernelRun12_C c i arg2 harg2 arg3 harg3 arg4 harg4 arg5 harg5 hc0 hc1 x0 x1 xs0).1, y ∈ pc.1.set :=
  View.cover_of_tiledL (kernelRun12_C c i arg2 harg2 arg3 harg3 arg4 harg4 arg5 harg5 hc0 hc1 x0 x1 xs0).1 S1024x512.size (by sl_kernel_rfl) y
theorem scover12_C (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond12_0 i) (hc1 : cond12_1 i)
    (x0 : Vec F S1024x1024 .bf16) (x1 : Vec F S1024x512 .f32) (xs0 : Vec F S1024x512 .f32) (y : S1024x512.Idx) :
    ∃ pc ∈ (kernelRun12_C c i arg2 harg2 arg3 harg3 arg4 harg4 arg5 harg5 hc0 hc1 x0 x1 xs0).2.1, y ∈ pc.1.set :=
  View.cover_of_tiledL (kernelRun12_C c i arg2 harg2 arg3 harg3 arg4 harg4 arg5 harg5 hc0 hc1 x0 x1 xs0).2.1 S1024x512.size (by sl_kernel_rfl) y
/-- What case C leaves in the output block, and in the accumulator. -/
noncomputable def out12_C (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond12_0 i) (hc1 : cond12_1 i)
    (x0 : Vec F S1024x1024 .bf16) (x1 : Vec F S1024x512 .f32) (xs0 : Vec F S1024x512 .f32) : Vec F S1024x512 .f32 :=
  VO12_2.read (Elt F) (VO12_2.writes (Elt F) VO12_2.junk (kernelRun12_C c i arg2 harg2 arg3 harg3 arg4 harg4 arg5 harg5 hc0 hc1 x0 x1 xs0).1)
noncomputable def sout12_C (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond12_0 i) (hc1 : cond12_1 i)
    (x0 : Vec F S1024x1024 .bf16) (x1 : Vec F S1024x512 .f32) (xs0 : Vec F S1024x512 .f32) : Vec F S1024x512 .f32 :=
  VS12.read (Elt F) (VS12.writes (Elt F) VS12.junk (kernelRun12_C c i arg2 harg2 arg3 harg3 arg4 harg4 arg5 harg5 hc0 hc1 x0 x1 xs0).2.1)

/-- Where the output block is idle nothing consults what it holds: a placeholder. -/
noncomputable def outIdle12 : Vec F S1024x512 .f32 := VO12_2.read (Elt F) (VO12_2.writes (Elt F) VO12_2.junk [])

/-! ## The conditions at a point, from t % 4 -/

theorem isFirst12 (t : Fin cfg12.N) (h : t.val % 4 = 0) : cond12_0 (grid12.coords t) := (hcond12_0 t).mpr h
theorem notFirst12 (t : Fin cfg12.N) (h : ¬t.val % 4 = 0) : ¬cond12_0 (grid12.coords t) := fun hc => h ((hcond12_0 t).mp hc)
theorem isLast12 (t : Fin cfg12.N) (h : t.val % 4 = 3) : cond12_1 (grid12.coords t) := (hcond12_1 t).mpr h
theorem notLast12 (t : Fin cfg12.N) (h : ¬t.val % 4 = 3) : ¬cond12_1 (grid12.coords t) := fun hc => h ((hcond12_1 t).mp hc)

/-! ## The accumulator and the output block, point by point -/

/-- After the body at position `n`: (the output block's buffer, the accumulator). -/
noncomputable def outsAt12 (c : Dev nD) : (n : ℕ) → n < cfg12.N → Vec F S1024x512 .f32 × Vec F S1024x512 .f32
  | 0, hn => (outIdle12, sout12_A c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) scM12 (Memref.isWhole_whole _) (isFirst12 ⟨0, hn⟩ (Nat.zero_mod _)) (notLast12 ⟨0, hn⟩ (by simp)) (iblk12 V c 0 ⟨0, hn⟩) (iblk12 V c 1 ⟨0, hn⟩))
  | n + 1, hn =>
    if h0 : (n + 1) % 4 = 0 then
      (outIdle12, sout12_A c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12 (Memref.isWhole_whole _) (isFirst12 ⟨n + 1, hn⟩ h0) (notLast12 ⟨n + 1, hn⟩ (by show ¬(n + 1) % 4 = 3; omega)) (iblk12 V c 0 ⟨n + 1, hn⟩) (iblk12 V c 1 ⟨n + 1, hn⟩))
    else if h3 : (n + 1) % 4 = 3 then
      (out12_C c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12 (Memref.isWhole_whole _) (notFirst12 ⟨n + 1, hn⟩ h0) (isLast12 ⟨n + 1, hn⟩ h3) (iblk12 V c 0 ⟨n + 1, hn⟩) (iblk12 V c 1 ⟨n + 1, hn⟩) (outsAt12 c n (Nat.lt_of_succ_lt hn)).2,
       sout12_C c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12 (Memref.isWhole_whole _) (notFirst12 ⟨n + 1, hn⟩ h0) (isLast12 ⟨n + 1, hn⟩ h3) (iblk12 V c 0 ⟨n + 1, hn⟩) (iblk12 V c 1 ⟨n + 1, hn⟩) (outsAt12 c n (Nat.lt_of_succ_lt hn)).2)
    else
      (outIdle12, sout12_B c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12 (Memref.isWhole_whole _) (notFirst12 ⟨n + 1, hn⟩ h0) (notLast12 ⟨n + 1, hn⟩ h3) (iblk12 V c 0 ⟨n + 1, hn⟩) (iblk12 V c 1 ⟨n + 1, hn⟩) (outsAt12 c n (Nat.lt_of_succ_lt hn)).2)

/-- `outsAt12` at a point with k = 0. -/
theorem outsAt12_A (c : Dev nD) (t : Fin cfg12.N) (h0 : t.val % 4 = 0) :
    outsAt12 V c t.val t.isLt = (outIdle12, sout12_A c (grid12.coords t) (ms12_0 t) (hs12_0 t) (ms12_1 t) (hs12_1 t) (ms12_2 t) (hs12_2 t) scM12 (Memref.isWhole_whole _) (isFirst12 t h0) (notLast12 t (by omega)) (iblk12 V c 0 t) (iblk12 V c 1 t)) := by
  obtain ⟨n, hn⟩ := t
  cases n with
  | zero => rfl
  | succ n => exact (dif_pos h0).trans rfl

/-- `outsAt12` at a point with k = 1, 2: over what the point before left. -/
theorem outsAt12_B (c : Dev nD) (t : Fin cfg12.N) (h0 : ¬t.val % 4 = 0) (h3 : ¬t.val % 4 = 3) :
    outsAt12 V c t.val t.isLt = (outIdle12, sout12_B c (grid12.coords t) (ms12_0 t) (hs12_0 t) (ms12_1 t) (hs12_1 t) (ms12_2 t) (hs12_2 t) scM12 (Memref.isWhole_whole _) (notFirst12 t h0) (notLast12 t h3) (iblk12 V c 0 t) (iblk12 V c 1 t)
      (outsAt12 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt12` at a point with k = 3. -/
theorem outsAt12_C (c : Dev nD) (t : Fin cfg12.N) (h0 : ¬t.val % 4 = 0) (h3 : t.val % 4 = 3) :
    outsAt12 V c t.val t.isLt = (out12_C c (grid12.coords t) (ms12_0 t) (hs12_0 t) (ms12_1 t) (hs12_1 t) (ms12_2 t) (hs12_2 t) scM12 (Memref.isWhole_whole _) (notFirst12 t h0) (isLast12 t h3) (iblk12 V c 0 t) (iblk12 V c 1 t)
        (outsAt12 V c (t.val - 1) (Nat.lt_of_le_of_lt (Nat.sub_le _ _) t.isLt)).2,
      sout12_C c (grid12.coords t) (ms12_0 t) (hs12_0 t) (ms12_1 t) (hs12_1 t) (ms12_2 t) (hs12_2 t) scM12 (Memref.isWhole_whole _) (notFirst12 t h0) (isLast12 t h3) (iblk12 V c 0 t) (iblk12 V c 1 t)
        (outsAt12 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS12 (c : Dev nD) : (n : ℕ) → n ≤ cfg12.N → sProp 𝕄
  | 0, _ => Pipeline.ΦA spec12 c
  | n + 1, hn => iprop(iprop(owns (c : Thread nD τ) scM12 fullShare ((outsAt12 V c n hn).2) ∗ restBut12 c) ∗ (∃ r, prngReg c r))

theorem PhiS12_zero (c : Dev nD) (n : ℕ) (h : n ≤ cfg12.N) (hz : n = 0) : PhiS12 V c n h = Pipeline.ΦA spec12 c := by
  subst hz; rfl
theorem PhiS12_succ (c : Dev nD) (n : ℕ) (hn : n < cfg12.N) :
    PhiS12 V c (n + 1) hn = iprop(iprop(owns (c : Thread nD τ) scM12 fullShare ((outsAt12 V c n hn).2) ∗ restBut12 c) ∗ (∃ r, prngReg c r)) := rfl
theorem PhiS12_pos (c : Dev nD) (n : ℕ) (h : n ≤ cfg12.N) (hz : n ≠ 0) :
    PhiS12 V c n h = iprop(iprop(owns (c : Thread nD τ) scM12 fullShare ((outsAt12 V c (n - 1) (by omega)).2) ∗ restBut12 c) ∗ (∃ r, prngReg c r)) := by
  cases n with
  | zero => exact absurd rfl hz
  | succ n => rfl

/-! ## The proof data -/

/-- The region's proof data on core `c`: the arrays as the region finds them; after the body at point `t` each input's
    buffer at its block and the output's at `outsAt12`'s first component; the invariant `PhiS12`; nothing owed; full shares. -/
noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => (outsAt12 V c t.val t.isLt).1
  Φ t := PhiS12 V c t.val (Nat.le_of_lt_succ t.isLt)
  q _ := fullShare
  owed _ := 0

theorem A_eq12 (c : Dev nD) (w : Fin cfg12.W) : (dat12 V c).A w = V c (Pipeline.arrRef spec12 w) := by
  dsimp only [dat12]
theorem PhiS12_castSucc (c : Dev nD) (t : Fin cfg12.N) :
    (dat12 V c).Φ t.castSucc = PhiS12 V c t.val (Nat.le_of_lt t.isLt) := by
  dsimp only [dat12]; simp only [Fin.coe_castSucc]
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = (outsAt12 V c t.val t.isLt).1 := by dsimp only [dat12]
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body's obligation -/

noncomputable def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d)))

noncomputable def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).owesAt () t.succ = (dat12 V c).owesAt () t.castSucc from rfl]
  rw [show (dat12 V c).Φ t.succ = PhiS12 V c (t.val + 1) t.isLt from rfl, PhiS12_succ]
  rw [show (dat12 V c).leavesExact 0 t = owns (c : Thread nD τ) (ms12_0 t) fullShare ((dat12 V c).after 0 t) from by
    unfold Dat.leavesExact; rw [liveAt12_0 t], after12_0]
  rw [show (dat12 V c).leavesExact 1 t = owns (c : Thread nD τ) (ms12_1 t) fullShare ((dat12 V c).after 1 t) from by
    unfold Dat.leavesExact; rw [liveAt12_1 t], after12_1]
  by_cases h0 : t.val % 4 = 0
  · have h3 : ¬t.val % 4 = 3 := by omega
    rw [Dat.leavesExact_idle (dat12 V c) 2 t (idleAt12_2 t (notLast12 t h3)) (noFlush12_2 t (notLast12 t h3))]
    rw [outsAt12_A V c t h0]
    unfold sout12_A; (try dsimp only)
    by_cases hz : t.val = 0
    · rw [PhiS12_castSucc V c t, PhiS12_zero V c _ _ hz, PhiA12_eq]
      iintro ⟨⟨⟨HS0, Hrb⟩, Hg⟩, Ho, ⟨%d0, H0⟩, ⟨%d1, H1⟩, ⟨%d2, H2⟩⟩
      iapply ((kernelRun12_A c (grid12.coords t) _ _ _ _ _ _ _ _ (isFirst12 t h0) (notLast12 t (by omega)) (iblk12 V c 0 t) (iblk12 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover12_A c _ _ _ _ _ _ _ _ _ _ _ _ _)
          iexact Hrb
        iexact Hg
      isplitl [Ho]; · iexact Ho
      isplitl [H0]; · iexact H0
      isplitl [H1]; · iexact H1
      iexists _; iexact H2
    · rw [PhiS12_castSucc V c t, PhiS12_pos V c _ _ hz]
      iintro ⟨⟨⟨HS0, Hrb⟩, Hg⟩, Ho, ⟨%d0, H0⟩, ⟨%d1, H1⟩, ⟨%d2, H2⟩⟩
      iapply ((kernelRun12_A c (grid12.coords t) _ _ _ _ _ _ _ _ (isFirst12 t h0) (notLast12 t (by omega)) (iblk12 V c 0 t) (iblk12 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover12_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat12 V c).leavesExact 2 t = owns (c : Thread nD τ) (ms12_2 t) fullShare ((dat12 V c).after 2 t) from by
        unfold Dat.leavesExact; rw [liveAt12_2 t (isLast12 t h3)], after12_2]
      rw [outsAt12_C V c t h0 h3]
      unfold out12_C sout12_C; (try dsimp only)
      rw [PhiS12_castSucc V c t, PhiS12_pos V c _ _ hz]
      iintro ⟨⟨⟨HS0, Hrb⟩, Hg⟩, Ho, ⟨%d0, H0⟩, ⟨%d1, H1⟩, ⟨%d2, H2⟩⟩
      iapply ((kernelRun12_C c (grid12.coords t) _ _ _ _ _ _ _ _ (notFirst12 t h0) (isLast12 t h3) (iblk12 V c 0 t) (iblk12 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover12_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover12_C c _ _ _ _ _ _ _ _ _ _ _ _ _ _)
    · rw [Dat.leavesExact_idle (dat12 V c) 2 t (idleAt12_2 t (notLast12 t h3)) (noFlush12_2 t (notLast12 t h3))]
      rw [outsAt12_B V c t h0 h3]
      unfold sout12_B; (try dsimp only)
      rw [PhiS12_castSucc V c t, PhiS12_pos V c _ _ hz]
      iintro ⟨⟨⟨HS0, Hrb⟩, Hg⟩, Ho, ⟨%d0, H0⟩, ⟨%d1, H1⟩, ⟨%d2, H2⟩⟩
      iapply ((kernelRun12_B c (grid12.coords t) _ _ _ _ _ _ _ _ (notFirst12 t h0) (notLast12 t h3) (iblk12 V c 0 t) (iblk12 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover12_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

/-- What the region is entered with is the invariant before the first point. -/
theorem hin12 (c : Dev nD) : Pipeline.ΦA spec12 c ⊢ (dat12 V c).Φ 0 := by
  rw [show (dat12 V c).Φ 0 = PhiS12 V c 0 (Nat.zero_le _) from rfl, PhiS12_zero V c 0 _ rfl]
  try exact Idealize.SL.BI.Entails.refl _

/-- After the last point the invariant gives the class's back: the accumulator's contents are forgotten. -/
theorem hout12 (c : Dev nD) : (dat12 V c).Φ (Fin.last cfg12.N) ⊢ Pipeline.ΦA spec12 c := by
  have hN : cfg12.N = 16 := N_12
  rw [show (dat12 V c).Φ (Fin.last cfg12.N) = PhiS12 V c (Fin.last cfg12.N).val (Nat.le_of_lt_succ (Fin.last cfg12.N).isLt) from rfl,
    PhiS12_pos V c _ _ (by rw [Fin.val_last]; omega), PhiA12_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI13a.lean ====
/- Laid out by: python3 scratch/layout_grid41.py --template-region 0 --region 13 --program KernelIdeal --parts a, --shapes S1024x128=S1024x512,S128x512=S512x512
   from the hand-written text of region 0 (RegKI0a.lean): the same text, the region's number, block shapes substituted. -/
/- The region of KernelIdeal's @main that runs `cc13__matmul_kernel` (pipeline `cfg13`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond13_0 (i : grid13.Coords) : Prop :=
  (Scalar.cmpi .ne (Scalar.extui (Scalar.cmpi .eq (BitVec.ofNat 32 (i 1).val) 0#32)) 0#32) = 1#1
/-- True at every point: the reduction axis has one step. -/
theorem hcond13_0 : ∀ t : Fin cfg13.N, cond13_0 (grid13.coords t) :=
  (by decide +kernel : ∀ t : Fin grid13.N, cond13_0 (grid13.coords t))

/-- "This is the last reduction step" (the guard of the copy to the output block). -/
abbrev cond13_1 (i : grid13.Coords) : Prop := k13_cond2 i = 1#1
/-- True at every point, for the same reason. -/
theorem hcond13_1 : ∀ t : Fin cfg13.N, cond13_1 (grid13.coords t) :=
  (by decide +kernel : ∀ t : Fin grid13.N, cond13_1 (grid13.coords t))

/-! ## No window is idle anywhere -/

theorem liveAt13_0 : ∀ t : Fin cfg13.N, cfg13.idle 0 (grid13.coords t) = false := by decide +kernel
theorem liveAt13_1 : ∀ t : Fin cfg13.N, cfg13.idle 1 (grid13.coords t) = false := by decide +kernel
/-- The output window is stored at every point (the copy's guard holds everywhere). -/
theorem liveAt13_2 : ∀ t : Fin cfg13.N, cfg13.idle 2 (grid13.coords t) = false := by decide +kernel

/-! ## The memrefs the body is called on -/

/-- One staging buffer of the output window, through which its contents are stated (any whole view of the shape reads the
    same pieces back the same way). -/
abbrev VO13_2 : View sig .tc .vmem S1024x512 .f32 := (Memref.whole cc13_stg2_0 : Memref sig .tc .vmem S1024x512 .f32).view
/-- Each window's current staging memref at point `t`, spelt as the pipeline passes it, with its wholeness. -/
abbrev ms13_0 (t : Fin cfg13.N) : Memref sig .tc .vmem S1024x512 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S512x512 .bf16 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S1024x512 .f32 := win13_2.stage (cfg13.slots t 2)
abbrev hs13_2 (t : Fin cfg13.N) : (ms13_2 t).IsWhole := hstage13_2 ((cfg13.slots t 2).cast nbuf13_2)
/-- The accumulator: a whole scoped buffer of the kernel's own, passed beside the windows. -/
abbrev scM13_0 : Memref sig .tc .vmem S1024x512 .f32 := Memref.whole cc13_scratch0
abbrev VS13_0 : View sig .tc .vmem S1024x512 .f32 := scM13_0.view

/-- The region invariant with the accumulator taken out of the scoped rest: the accumulator owned at some contents, every
    other scoped buffer unopened, and the generator register. -/
theorem PhiA13_eq (c : Dev nD) :
    (Pipeline.ΦA spec13 c : sProp 𝕄)
      = iprop(iprop(iprop((∃ d, owns (c : Thread nD τ) scM13_0 fullShare d))
            ∗ Pipeline.scopedRestBut (Ix := Unit) (Name := ℕ) (U := UR sig nD τ) (Lvl := ℕ) (Val := Elt F) spec13 c [cc13_scratch0])
          ∗ (∃ r, prngReg c r)) := by
  unfold Pipeline.ΦA; rw [scopedRest13_split]; simp only [scM13_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun13 (c : Dev nD) (i : grid13.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond13_0 i) (hlast : cond13_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc13__matmul_kernel i arg2 harg2 arg3 harg3 arg4 harg4 arg5 harg5) K } := by
  refine ⟨?_, ?_, fun E K => ?run⟩
  case run =>
    simp only [cc13__matmul_kernel_eq_skeleton]; unfold cc13__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.KernelIdeal.Hand

end
-- ==== Proof.RegKI13.lean ====
/- Laid out by: python3 scratch/layout_grid41.py --template-region 0 --region 13 --program KernelIdeal --parts a, --shapes S1024x128=S1024x512,S128x512=S512x512
   from the hand-written text of region 0 (RegKI0.lean): the same text, the region's number, block shapes substituted. -/
/- The region of KernelIdeal's @main that runs `cc13__matmul_kernel` (pipeline `cfg13`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegKI13a
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! ## What the case leaves, as pieces read back -/

/-- The output's pieces tile its block (one whole-block store). -/
theorem cover13_2 (c : Dev nD) (i : grid13.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond13_0 i) (hlast : cond13_1 i) (xa : Vec F S1024x512 .f32) (xb : Vec F S512x512 .bf16) (y : S1024x512.Idx) :
    ∃ pc ∈ (kernelRun13 c i arg2 harg2 arg3 harg3 arg4 harg4 arg5 harg5 hfirst hlast xa xb).1, y ∈ pc.1.set :=
  View.cover_of_tiledL (kernelRun13 c i arg2 harg2 arg3 harg3 arg4 harg4 arg5 harg5 hfirst hlast xa xb).1 S1024x512.size (by sl_kernel_rfl) y

/-- What the case leaves in the output's staging buffer: its pieces read back over junk. -/
noncomputable def out13_2 (c : Dev nD) (i : grid13.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond13_0 i) (hlast : cond13_1 i) (xa : Vec F S1024x512 .f32) (xb : Vec F S512x512 .bf16) : Vec F S1024x512 .f32 :=
  VO13_2.read (Elt F) (VO13_2.writes (Elt F) VO13_2.junk (kernelRun13 c i arg2 harg2 arg3 harg3 arg4 harg4 arg5 harg5 hfirst hlast xa xb).1)

/-- What the case leaves in the accumulator: its pieces read back over junk. -/
noncomputable def sout13_0 (c : Dev nD) (i : grid13.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond13_0 i) (hlast : cond13_1 i) (xa : Vec F S1024x512 .f32) (xb : Vec F S512x512 .bf16) : Vec F S1024x512 .f32 :=
  VS13_0.read (Elt F) (VS13_0.writes (Elt F) VS13_0.junk (kernelRun13 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout13_0_eq (c : Dev nD) (i : grid13.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond13_0 i) (hlast : cond13_1 i) (xa : Vec F S1024x512 .f32) (xb : Vec F S512x512 .bf16) :
    sout13_0 c i arg2 harg2 arg3 harg3 arg4 harg4 arg5 harg5 hfirst hlast xa xb = k13_pay2 xa xb (k13_pay1 (F := F)) := by
  unfold sout13_0
  rw [View.read_writes_junk_eq_canon]
  unfold kernelRun13
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out13_2_eq (c : Dev nD) (i : grid13.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond13_0 i) (hlast : cond13_1 i) (xa : Vec F S1024x512 .f32) (xb : Vec F S512x512 .bf16) :
    out13_2 c i arg2 harg2 arg3 harg3 arg4 harg4 arg5 harg5 hfirst hlast xa xb = k13_pay2 xa xb (k13_pay1 (F := F)) := by
  unfold out13_2
  rw [View.read_writes_junk_eq_canon]
  unfold kernelRun13
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt13 (c : Dev nD) (n : ℕ) (hn : n < cfg13.N) : Vec F S1024x512 .f32 × Vec F S1024x512 .f32 :=
  (out13_2 c (grid13.coords ⟨n, hn⟩) (ms13_0 ⟨n, hn⟩) (hs13_0 ⟨n, hn⟩) (ms13_1 ⟨n, hn⟩) (hs13_1 ⟨n, hn⟩) (ms13_2 ⟨n, hn⟩) (hs13_2 ⟨n, hn⟩) scM13_0 (Memref.isWhole_whole _)
      (hcond13_0 ⟨n, hn⟩) (hcond13_1 ⟨n, hn⟩) (iblk13 V c 0 ⟨n, hn⟩) (iblk13 V c 1 ⟨n, hn⟩),
   sout13_0 c (grid13.coords ⟨n, hn⟩) (ms13_0 ⟨n, hn⟩) (hs13_0 ⟨n, hn⟩) (ms13_1 ⟨n, hn⟩) (hs13_1 ⟨n, hn⟩) (ms13_2 ⟨n, hn⟩) (hs13_2 ⟨n, hn⟩) scM13_0 (Memref.isWhole_whole _)
      (hcond13_0 ⟨n, hn⟩) (hcond13_1 ⟨n, hn⟩) (iblk13 V c 0 ⟨n, hn⟩) (iblk13 V c 1 ⟨n, hn⟩))

/-- Every point is a first reduction step: the accumulator after it is one product onto zero. -/
theorem outsAt13_first (c : Dev nD) (t : Fin cfg13.N) :
    (outsAt13 V c t.val t.isLt).2 = k13_pay2 (iblk13 V c 0 t) (iblk13 V c 1 t) (k13_pay1 (F := F)) := by
  obtain ⟨n, hn⟩ := t
  unfold outsAt13
  dsimp only
  rw [sout13_0_eq]

/-- Every point is a last reduction step: the output block after it is the accumulator. -/
theorem outsAt13_last (c : Dev nD) (t : Fin cfg13.N) :
    (outsAt13 V c t.val t.isLt).1 = (outsAt13 V c t.val t.isLt).2 := by
  obtain ⟨n, hn⟩ := t
  unfold outsAt13
  dsimp only
  rw [out13_2_eq, sout13_0_eq]

/-! ## The pipeline's proof data -/

/-- The proof data of the pipeline on core `c`: the arrays as the region finds them; after the body at point `t` each input's
    buffer at its block and the output's at `outsAt13`'s first component; the invariant the same at every point; nothing owed;
    full shares. -/
noncomputable def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => (outsAt13 V c t.val t.isLt).1
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = (outsAt13 V c t.val t.isLt).1 := by dsimp only [dat13]

/-- An input's current staging buffer holds its block at every point, fetched there or not: where it is not fetched its block
    index has not moved since the point before, and the body left the block in place. -/
theorem before13_0 (c : Dev nD) (t : Fin cfg13.N) (d) : (dat13 V c).before 0 t d = iblk13 V c 0 t :=
  ((dat13 V c).before_in_eq_fetched 0 rfl (fun _ => rfl) (fun _ _ _ => rfl)
      (fun t => by rw [after13_0]; unfold Dat.blockOf iblk13; rw [A_eq13]; try rfl) t d).trans
    (by unfold Dat.fetched Dat.blockOf iblk13; rw [A_eq13]; try rfl)
theorem before13_1 (c : Dev nD) (t : Fin cfg13.N) (d) : (dat13 V c).before 1 t d = iblk13 V c 1 t :=
  ((dat13 V c).before_in_eq_fetched 1 rfl (fun _ => rfl) (fun _ _ _ => rfl)
      (fun t => by rw [after13_1]; unfold Dat.blockOf iblk13; rw [A_eq13]; try rfl) t d).trans
    (by unfold Dat.fetched Dat.blockOf iblk13; rw [A_eq13]; try rfl)

/-! ## The body obligation, at a generic point -/

/-- What the body is called with at point `t`, the windows one by one, -/
noncomputable def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d)))

/-- and what it returns. -/
noncomputable def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl,
    show (dat13 V c).Φ t.succ = Pipeline.ΦA spec13 c from rfl, show (dat13 V c).Φ t.castSucc = Pipeline.ΦA spec13 c from rfl, PhiA13_eq]
  rw [show (dat13 V c).leavesExact 0 t = owns (c : Thread nD τ) (ms13_0 t) fullShare ((dat13 V c).after 0 t) from by
      unfold Dat.leavesExact; rw [liveAt13_0 t], after13_0]
  rw [show (dat13 V c).leavesExact 1 t = owns (c : Thread nD τ) (ms13_1 t) fullShare ((dat13 V c).after 1 t) from by
      unfold Dat.leavesExact; rw [liveAt13_1 t], after13_1]
  rw [show (dat13 V c).leavesExact 2 t = owns (c : Thread nD τ) (ms13_2 t) fullShare ((dat13 V c).after 2 t) from by
      unfold Dat.leavesExact; rw [liveAt13_2 t], after13_2]
  unfold outsAt13 out13_2; (try dsimp only)
  iintro ⟨⟨⟨Hacc, Hrest⟩, Hgen⟩, Howe, ⟨%da, Ha⟩, ⟨%db, Hb⟩, ⟨%dO, Hout⟩⟩
  iapply ((kernelRun13 c (grid13.coords t) _ _ _ _ _ _ _ _ (hcond13_0 t) (hcond13_1 t) (iblk13 V c 0 t) (iblk13 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover13_2 c _ _ _ _ _ _ _ _ _ _ _ _ _)

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- What the launch hands the region is the invariant before the first point, -/
theorem hin13 (c : Dev nD) : Pipeline.ΦA spec13 c ⊢ (dat13 V c).Φ 0 := Idealize.SL.BI.Entails.refl _

/-- and the invariant after the last point is what the launch takes back. -/
theorem hout13 (c : Dev nD) : (dat13 V c).Φ (Fin.last cfg13.N) ⊢ Pipeline.ΦA spec13 c := Idealize.SL.BI.Entails.refl _

end Cert.KernelIdeal.Hand

end
-- ==== Proof.RegKI14a.lean ====
/- Laid out by: python3 scratch/layout_regions.py --template-region 1 --region 14 --program KernelIdeal --parts a,b,c, --out-dir proof/Proof
   from the hand-written text of region 1 (RegKI1a.lean): the same text, the region's number substituted. -/
/-
  Region 14 of @main (custom_call 14): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond14_0 (i : grid14.Coords) : Prop := (Scalar.cmpi .ne (Scalar.extui (Scalar.cmpi .eq (BitVec.ofNat 32 (i 1).val) 0#32)) 0#32) = 1#1
/-- It holds exactly at the points with t % 4 = 0. -/
theorem hcond14_0 : ∀ t : Fin cfg14.N, cond14_0 (grid14.coords t) ↔ t.val % 4 = 0 :=
  (by decide +kernel : ∀ t : Fin grid14.N, cond14_0 (grid14.coords t) ↔ t.val % 4 = 0)

/-- "k = 3": the second conditional's test. -/
abbrev cond14_1 (i : grid14.Coords) : Prop := k14_cond2 i = 1#1
/-- It holds exactly at the points with t % 4 = 3. -/
theorem hcond14_1 : ∀ t : Fin cfg14.N, cond14_1 (grid14.coords t) ↔ t.val % 4 = 3 :=
  (by decide +kernel : ∀ t : Fin grid14.N, cond14_1 (grid14.coords t) ↔ t.val % 4 = 3)

/-! ## Where the windows are idle, and where the output is written back -/

/-- The two input windows are never idle. -/
theorem liveAt14_0 : ∀ t : Fin cfg14.N, cfg14.idle 0 (grid14.coords t) = false := by decide +kernel
theorem liveAt14_1 : ∀ t : Fin cfg14.N, cfg14.idle 1 (grid14.coords t) = false := by decide +kernel
/-- Where k ≠ 3 the output window is idle (the body stores nothing into it) and is not written back. -/
theorem idleAt14_2 : ∀ t : Fin cfg14.N, ¬cond14_1 (grid14.coords t) → cfg14.idle 2 (grid14.coords t) = true := by decide +kernel
theorem noFlush14_2 : ∀ t : Fin cfg14.N, ¬cond14_1 (grid14.coords t) → (cfg14.win 2).flush t = false := by decide +kernel
/-- Where k = 3 it is live. -/
theorem liveAt14_2 : ∀ t : Fin cfg14.N, cond14_1 (grid14.coords t) → cfg14.idle 2 (grid14.coords t) = false := by decide +kernel

/-! ## The staging memrefs at a point, and the scratch -/

/-- One staging buffer of the output window, through which its contents are stated. -/
abbrev VO14_2 : View sig .tc .vmem S1024x512 .f32 := (Memref.whole cc14_stg2_0 : Memref sig .tc .vmem S1024x512 .f32).view
abbrev ms14_0 (t : Fin cfg14.N) : Memref sig .tc .vmem S1024x1024 .bf16 := win14_0.stage (cfg14.slots t 0)
abbrev hs14_0 (t : Fin cfg14.N) : (ms14_0 t).IsWhole := hstage14_0 ((cfg14.slots t 0).cast nbuf14_0)
abbrev ms14_1 (t : Fin cfg14.N) : Memref sig .tc .vmem S1024x512 .f32 := win14_1.stage (cfg14.slots t 1)
abbrev hs14_1 (t : Fin cfg14.N) : (ms14_1 t).IsWhole := hstage14_1 ((cfg14.slots t 1).cast nbuf14_1)
abbrev ms14_2 (t : Fin cfg14.N) : Memref sig .tc .vmem S1024x512 .f32 := win14_2.stage (cfg14.slots t 2)
abbrev hs14_2 (t : Fin cfg14.N) : (ms14_2 t).IsWhole := hstage14_2 ((cfg14.slots t 2).cast nbuf14_2)
/-- The accumulator: a whole scoped buffer of the kernel's own. -/
abbrev scM14 : Memref sig .tc .vmem S1024x512 .f32 := Memref.whole cc14_scratch0
abbrev VS14 : View sig .tc .vmem S1024x512 .f32 := scM14.view

/-- The other scoped buffers of the core, none of which this region touches. -/
abbrev restBut14 (c : Dev nD) : sProp 𝕄 :=
  Pipeline.scopedRestBut (Ix := Unit) (Name := ℕ) (U := UR sig nD τ) (Lvl := ℕ) (Val := Elt F) spec14 c [cc14_scratch0]

/-- The region's invariant before its first point: the accumulator at something, the other scoped buffers, the generator register. -/
theorem PhiA14_eq (c : Dev nD) :
    (Pipeline.ΦA spec14 c : sProp 𝕄)
      = iprop(iprop((∃ d, owns (c : Thread nD τ) scM14 fullShare d) ∗ restBut14 c) ∗ (∃ r, prngReg c r)) := by
  unfold Pipeline.ΦA; rw [scopedRest14_split]; simp only [scM14, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun14_A (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond14_0 i) (hc1 : ¬cond14_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc14__matmul_kernel i arg2 harg2 arg3 harg3 arg4 harg4 arg5 harg5) K } := by
  refine ⟨[], ?_, fun xi2 E K => ?run⟩
  case run =>
    simp only [cc14__matmul_kernel_eq_skeleton]; unfold cc14__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI14b.lean ====
/- Laid out by: python3 scratch/layout_regions.py --template-region 1 --region 14 --program KernelIdeal --parts a,b,c, --out-dir proof/Proof
   from the hand-written text of region 1 (RegKI1b.lean): the same text, the region's number substituted. -/
/-
  Region 14, case B (k = 1, 2): the body's run. Neither conditional is taken: the product of the two blocks is added to what
  the point before left in the accumulator; the output block is not touched.
-/
import proofs.«158944_j64613488001249_1_alg».proof.Proof.RegKI14a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun14_B (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond14_0 i) (hc1 : ¬cond14_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc14__matmul_kernel i arg2 harg2 arg3 harg3 arg4 harg4 arg5 harg5) K } := by
  refine ⟨[], ?_, fun xi2 E K => ?run⟩
  case run =>
    simp only [cc14__matmul_kernel_eq_skeleton]; unfold cc14__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI14c.lean ====
/- Laid out by: python3 scratch/layout_regions.py --template-region 1 --region 14 --program KernelIdeal --parts a,b,c, --out-dir proof/Proof
   from the hand-written text of region 1 (RegKI1c.lean): the same text, the region's number substituted. -/
/-
  Region 14, case C (k = 3): the body's run. The product is added to the accumulator as in case B, and then the second
  conditional copies the accumulator over the whole output block.
-/
import proofs.«158944_j64613488001249_1_alg».proof.Proof.RegKI14b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun14_C (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond14_0 i) (hc1 : cond14_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc14__matmul_kernel i arg2 harg2 arg3 harg3 arg4 harg4 arg5 harg5) K } := by
  refine ⟨?_, ?_, fun E K => ?run⟩
  case run =>
    simp only [cc14__matmul_kernel_eq_skeleton]; unfold cc14__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI14.lean ====
/- Laid out by: python3 scratch/layout_regions.py --template-region 1 --region 14 --program KernelIdeal --parts a,b,c, --out-dir proof/Proof
   from the hand-written text of region 1 (RegKI1.lean): the same text, the region's number substituted. -/
/-
  Region 14 of @main, entered from the buffer contents `V`: what its windows' blocks are, what each case of the body leaves in
  the accumulator and in the output block, the accumulator and the output block point by point (`outsAt14`: at k = 0 the
  accumulator restarts from zeros plus the product; at k = 1, 2, 3 it is the point before's plus the product; at k = 3 the
  output block is the accumulator), the region's invariant (the accumulator at `outsAt14`'s second component), the proof data,
  and the body's obligation at every point.
-/
import proofs.«158944_j64613488001249_1_alg».proof.Proof.RegKI14c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- An input window's current staging buffer holds its block at every point, for any proof data whose array is `V`'s and
    whose body leaves the block in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-! ## What each case leaves -/

/-- Case A's stores into the accumulator cover it. -/
theorem scover14_A (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond14_0 i) (hc1 : ¬cond14_1 i)
    (x0 : Vec F S1024x1024 .bf16) (x1 : Vec F S1024x512 .f32) (y : S1024x512.Idx) :
    ∃ pc ∈ (kernelRun14_A c i arg2 harg2 arg3 harg3 arg4 harg4 arg5 harg5 hc0 hc1 x0 x1).2.1, y ∈ pc.1.set :=
  View.cover_of_tiledL (kernelRun14_A c i arg2 harg2 arg3 harg3 arg4 harg4 arg5 harg5 hc0 hc1 x0 x1).2.1 S1024x512.size (by sl_kernel_rfl) y
/-- What case A leaves in the accumulator. -/
noncomputable def sout14_A (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond14_0 i) (hc1 : ¬cond14_1 i)
    (x0 : Vec F S1024x1024 .bf16) (x1 : Vec F S1024x512 .f32) : Vec F S1024x512 .f32 :=
  VS14.read (Elt F) (VS14.writes (Elt F) VS14.junk (kernelRun14_A c i arg2 harg2 arg3 harg3 arg4 harg4 arg5 harg5 hc0 hc1 x0 x1).2.1)

/-- Case B's store into the accumulator covers it. -/
theorem scover14_B (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond14_0 i) (hc1 : ¬cond14_1 i)
    (x0 : Vec F S1024x1024 .bf16) (x1 : Vec F S1024x512 .f32) (xs0 : Vec F S1024x512 .f32) (y : S1024x512.Idx) :
    ∃ pc ∈ (kernelRun14_B c i arg2 harg2 arg3 harg3 arg4 harg4 arg5 harg5 hc0 hc1 x0 x1 xs0).2.1, y ∈ pc.1.set :=
  View.cover_of_tiledL (kernelRun14_B c i arg2 harg2 arg3 harg3 arg4 harg4 arg5 harg5 hc0 hc1 x0 x1 xs0).2.1 S1024x512.size (by sl_kernel_rfl) y
/-- What case B leaves in the accumulator, over what the point before left. -/
noncomputable def sout14_B (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond14_0 i) (hc1 : ¬cond14_1 i)
    (x0 : Vec F S1024x1024 .bf16) (x1 : Vec F S1024x512 .f32) (xs0 : Vec F S1024x512 .f32) : Vec F S1024x512 .f32 :=
  VS14.read (Elt F) (VS14.writes (Elt F) VS14.junk (kernelRun14_B c i arg2 harg2 arg3 harg3 arg4 harg4 arg5 harg5 hc0 hc1 x0 x1 xs0).2.1)

/-- Case C's store into the output block covers it, and so does its store into the accumulator. -/
theorem cover14_C (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond14_0 i) (hc1 : cond14_1 i)
    (x0 : Vec F S1024x1024 .bf16) (x1 : Vec F S1024x512 .f32) (xs0 : Vec F S1024x512 .f32) (y : S1024x512.Idx) :
    ∃ pc ∈ (kernelRun14_C c i arg2 harg2 arg3 harg3 arg4 harg4 arg5 harg5 hc0 hc1 x0 x1 xs0).1, y ∈ pc.1.set :=
  View.cover_of_tiledL (kernelRun14_C c i arg2 harg2 arg3 harg3 arg4 harg4 arg5 harg5 hc0 hc1 x0 x1 xs0).1 S1024x512.size (by sl_kernel_rfl) y
theorem scover14_C (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond14_0 i) (hc1 : cond14_1 i)
    (x0 : Vec F S1024x1024 .bf16) (x1 : Vec F S1024x512 .f32) (xs0 : Vec F S1024x512 .f32) (y : S1024x512.Idx) :
    ∃ pc ∈ (kernelRun14_C c i arg2 harg2 arg3 harg3 arg4 harg4 arg5 harg5 hc0 hc1 x0 x1 xs0).2.1, y ∈ pc.1.set :=
  View.cover_of_tiledL (kernelRun14_C c i arg2 harg2 arg3 harg3 arg4 harg4 arg5 harg5 hc0 hc1 x0 x1 xs0).2.1 S1024x512.size (by sl_kernel_rfl) y
/-- What case C leaves in the output block, and in the accumulator. -/
noncomputable def out14_C (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond14_0 i) (hc1 : cond14_1 i)
    (x0 : Vec F S1024x1024 .bf16) (x1 : Vec F S1024x512 .f32) (xs0 : Vec F S1024x512 .f32) : Vec F S1024x512 .f32 :=
  VO14_2.read (Elt F) (VO14_2.writes (Elt F) VO14_2.junk (kernelRun14_C c i arg2 harg2 arg3 harg3 arg4 harg4 arg5 harg5 hc0 hc1 x0 x1 xs0).1)
noncomputable def sout14_C (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond14_0 i) (hc1 : cond14_1 i)
    (x0 : Vec F S1024x1024 .bf16) (x1 : Vec F S1024x512 .f32) (xs0 : Vec F S1024x512 .f32) : Vec F S1024x512 .f32 :=
  VS14.read (Elt F) (VS14.writes (Elt F) VS14.junk (kernelRun14_C c i arg2 harg2 arg3 harg3 arg4 harg4 arg5 harg5 hc0 hc1 x0 x1 xs0).2.1)

/-- Where the output block is idle nothing consults what it holds: a placeholder. -/
noncomputable def outIdle14 : Vec F S1024x512 .f32 := VO14_2.read (Elt F) (VO14_2.writes (Elt F) VO14_2.junk [])

/-! ## The conditions at a point, from t % 4 -/

theorem isFirst14 (t : Fin cfg14.N) (h : t.val % 4 = 0) : cond14_0 (grid14.coords t) := (hcond14_0 t).mpr h
theorem notFirst14 (t : Fin cfg14.N) (h : ¬t.val % 4 = 0) : ¬cond14_0 (grid14.coords t) := fun hc => h ((hcond14_0 t).mp hc)
theorem isLast14 (t : Fin cfg14.N) (h : t.val % 4 = 3) : cond14_1 (grid14.coords t) := (hcond14_1 t).mpr h
theorem notLast14 (t : Fin cfg14.N) (h : ¬t.val % 4 = 3) : ¬cond14_1 (grid14.coords t) := fun hc => h ((hcond14_1 t).mp hc)

/-! ## The accumulator and the output block, point by point -/

/-- After the body at position `n`: (the output block's buffer, the accumulator). -/
noncomputable def outsAt14 (c : Dev nD) : (n : ℕ) → n < cfg14.N → Vec F S1024x512 .f32 × Vec F S1024x512 .f32
  | 0, hn => (outIdle14, sout14_A c (grid14.coords ⟨0, hn⟩) (ms14_0 ⟨0, hn⟩) (hs14_0 ⟨0, hn⟩) (ms14_1 ⟨0, hn⟩) (hs14_1 ⟨0, hn⟩) (ms14_2 ⟨0, hn⟩) (hs14_2 ⟨0, hn⟩) scM14 (Memref.isWhole_whole _) (isFirst14 ⟨0, hn⟩ (Nat.zero_mod _)) (notLast14 ⟨0, hn⟩ (by simp)) (iblk14 V c 0 ⟨0, hn⟩) (iblk14 V c 1 ⟨0, hn⟩))
  | n + 1, hn =>
    if h0 : (n + 1) % 4 = 0 then
      (outIdle14, sout14_A c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14 (Memref.isWhole_whole _) (isFirst14 ⟨n + 1, hn⟩ h0) (notLast14 ⟨n + 1, hn⟩ (by show ¬(n + 1) % 4 = 3; omega)) (iblk14 V c 0 ⟨n + 1, hn⟩) (iblk14 V c 1 ⟨n + 1, hn⟩))
    else if h3 : (n + 1) % 4 = 3 then
      (out14_C c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14 (Memref.isWhole_whole _) (notFirst14 ⟨n + 1, hn⟩ h0) (isLast14 ⟨n + 1, hn⟩ h3) (iblk14 V c 0 ⟨n + 1, hn⟩) (iblk14 V c 1 ⟨n + 1, hn⟩) (outsAt14 c n (Nat.lt_of_succ_lt hn)).2,
       sout14_C c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14 (Memref.isWhole_whole _) (notFirst14 ⟨n + 1, hn⟩ h0) (isLast14 ⟨n + 1, hn⟩ h3) (iblk14 V c 0 ⟨n + 1, hn⟩) (iblk14 V c 1 ⟨n + 1, hn⟩) (outsAt14 c n (Nat.lt_of_succ_lt hn)).2)
    else
      (outIdle14, sout14_B c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14 (Memref.isWhole_whole _) (notFirst14 ⟨n + 1, hn⟩ h0) (notLast14 ⟨n + 1, hn⟩ h3) (iblk14 V c 0 ⟨n + 1, hn⟩) (iblk14 V c 1 ⟨n + 1, hn⟩) (outsAt14 c n (Nat.lt_of_succ_lt hn)).2)

/-- `outsAt14` at a point with k = 0. -/
theorem outsAt14_A (c : Dev nD) (t : Fin cfg14.N) (h0 : t.val % 4 = 0) :
    outsAt14 V c t.val t.isLt = (outIdle14, sout14_A c (grid14.coords t) (ms14_0 t) (hs14_0 t) (ms14_1 t) (hs14_1 t) (ms14_2 t) (hs14_2 t) scM14 (Memref.isWhole_whole _) (isFirst14 t h0) (notLast14 t (by omega)) (iblk14 V c 0 t) (iblk14 V c 1 t)) := by
  obtain ⟨n, hn⟩ := t
  cases n with
  | zero => rfl
  | succ n => exact (dif_pos h0).trans rfl

/-- `outsAt14` at a point with k = 1, 2: over what the point before left. -/
theorem outsAt14_B (c : Dev nD) (t : Fin cfg14.N) (h0 : ¬t.val % 4 = 0) (h3 : ¬t.val % 4 = 3) :
    outsAt14 V c t.val t.isLt = (outIdle14, sout14_B c (grid14.coords t) (ms14_0 t) (hs14_0 t) (ms14_1 t) (hs14_1 t) (ms14_2 t) (hs14_2 t) scM14 (Memref.isWhole_whole _) (notFirst14 t h0) (notLast14 t h3) (iblk14 V c 0 t) (iblk14 V c 1 t)
      (outsAt14 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt14` at a point with k = 3. -/
theorem outsAt14_C (c : Dev nD) (t : Fin cfg14.N) (h0 : ¬t.val % 4 = 0) (h3 : t.val % 4 = 3) :
    outsAt14 V c t.val t.isLt = (out14_C c (grid14.coords t) (ms14_0 t) (hs14_0 t) (ms14_1 t) (hs14_1 t) (ms14_2 t) (hs14_2 t) scM14 (Memref.isWhole_whole _) (notFirst14 t h0) (isLast14 t h3) (iblk14 V c 0 t) (iblk14 V c 1 t)
        (outsAt14 V c (t.val - 1) (Nat.lt_of_le_of_lt (Nat.sub_le _ _) t.isLt)).2,
      sout14_C c (grid14.coords t) (ms14_0 t) (hs14_0 t) (ms14_1 t) (hs14_1 t) (ms14_2 t) (hs14_2 t) scM14 (Memref.isWhole_whole _) (notFirst14 t h0) (isLast14 t h3) (iblk14 V c 0 t) (iblk14 V c 1 t)
        (outsAt14 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS14 (c : Dev nD) : (n : ℕ) → n ≤ cfg14.N → sProp 𝕄
  | 0, _ => Pipeline.ΦA spec14 c
  | n + 1, hn => iprop(iprop(owns (c : Thread nD τ) scM14 fullShare ((outsAt14 V c n hn).2) ∗ restBut14 c) ∗ (∃ r, prngReg c r))

theorem PhiS14_zero (c : Dev nD) (n : ℕ) (h : n ≤ cfg14.N) (hz : n = 0) : PhiS14 V c n h = Pipeline.ΦA spec14 c := by
  subst hz; rfl
theorem PhiS14_succ (c : Dev nD) (n : ℕ) (hn : n < cfg14.N) :
    PhiS14 V c (n + 1) hn = iprop(iprop(owns (c : Thread nD τ) scM14 fullShare ((outsAt14 V c n hn).2) ∗ restBut14 c) ∗ (∃ r, prngReg c r)) := rfl
theorem PhiS14_pos (c : Dev nD) (n : ℕ) (h : n ≤ cfg14.N) (hz : n ≠ 0) :
    PhiS14 V c n h = iprop(iprop(owns (c : Thread nD τ) scM14 fullShare ((outsAt14 V c (n - 1) (by omega)).2) ∗ restBut14 c) ∗ (∃ r, prngReg c r)) := by
  cases n with
  | zero => exact absurd rfl hz
  | succ n => rfl

/-! ## The proof data -/

/-- The region's proof data on core `c`: the arrays as the region finds them; after the body at point `t` each input's
    buffer at its block and the output's at `outsAt14`'s first component; the invariant `PhiS14`; nothing owed; full shares. -/
noncomputable def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => (outsAt14 V c t.val t.isLt).1
  Φ t := PhiS14 V c t.val (Nat.le_of_lt_succ t.isLt)
  q _ := fullShare
  owed _ := 0

theorem A_eq14 (c : Dev nD) (w : Fin cfg14.W) : (dat14 V c).A w = V c (Pipeline.arrRef spec14 w) := by
  dsimp only [dat14]
theorem PhiS14_castSucc (c : Dev nD) (t : Fin cfg14.N) :
    (dat14 V c).Φ t.castSucc = PhiS14 V c t.val (Nat.le_of_lt t.isLt) := by
  dsimp only [dat14]; simp only [Fin.coe_castSucc]
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = (outsAt14 V c t.val t.isLt).1 := by dsimp only [dat14]
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-! ## The body's obligation -/

noncomputable def bodyPre14 (c : Dev nD) (t : Fin cfg14.N) : sProp 𝕄 :=
  iprop((dat14 V c).Φ t.castSucc ∗ (dat14 V c).owesAt () t.castSucc
    ∗ (∃ d, owns (c : Thread nD τ) (ms14_0 t) fullShare ((dat14 V c).before 0 t d))
    ∗ (∃ d, owns (c : Thread nD τ) (ms14_1 t) fullShare ((dat14 V c).before 1 t d))
    ∗ (∃ d, owns (c : Thread nD τ) (ms14_2 t) fullShare ((dat14 V c).before 2 t d)))

noncomputable def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).owesAt () t.succ = (dat14 V c).owesAt () t.castSucc from rfl]
  rw [show (dat14 V c).Φ t.succ = PhiS14 V c (t.val + 1) t.isLt from rfl, PhiS14_succ]
  rw [show (dat14 V c).leavesExact 0 t = owns (c : Thread nD τ) (ms14_0 t) fullShare ((dat14 V c).after 0 t) from by
    unfold Dat.leavesExact; rw [liveAt14_0 t], after14_0]
  rw [show (dat14 V c).leavesExact 1 t = owns (c : Thread nD τ) (ms14_1 t) fullShare ((dat14 V c).after 1 t) from by
    unfold Dat.leavesExact; rw [liveAt14_1 t], after14_1]
  by_cases h0 : t.val % 4 = 0
  · have h3 : ¬t.val % 4 = 3 := by omega
    rw [Dat.leavesExact_idle (dat14 V c) 2 t (idleAt14_2 t (notLast14 t h3)) (noFlush14_2 t (notLast14 t h3))]
    rw [outsAt14_A V c t h0]
    unfold sout14_A; (try dsimp only)
    by_cases hz : t.val = 0
    · rw [PhiS14_castSucc V c t, PhiS14_zero V c _ _ hz, PhiA14_eq]
      iintro ⟨⟨⟨HS0, Hrb⟩, Hg⟩, Ho, ⟨%d0, H0⟩, ⟨%d1, H1⟩, ⟨%d2, H2⟩⟩
      iapply ((kernelRun14_A c (grid14.coords t) _ _ _ _ _ _ _ _ (isFirst14 t h0) (notLast14 t (by omega)) (iblk14 V c 0 t) (iblk14 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover14_A c _ _ _ _ _ _ _ _ _ _ _ _ _)
          iexact Hrb
        iexact Hg
      isplitl [Ho]; · iexact Ho
      isplitl [H0]; · iexact H0
      isplitl [H1]; · iexact H1
      iexists _; iexact H2
    · rw [PhiS14_castSucc V c t, PhiS14_pos V c _ _ hz]
      iintro ⟨⟨⟨HS0, Hrb⟩, Hg⟩, Ho, ⟨%d0, H0⟩, ⟨%d1, H1⟩, ⟨%d2, H2⟩⟩
      iapply ((kernelRun14_A c (grid14.coords t) _ _ _ _ _ _ _ _ (isFirst14 t h0) (notLast14 t (by omega)) (iblk14 V c 0 t) (iblk14 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover14_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat14 V c).leavesExact 2 t = owns (c : Thread nD τ) (ms14_2 t) fullShare ((dat14 V c).after 2 t) from by
        unfold Dat.leavesExact; rw [liveAt14_2 t (isLast14 t h3)], after14_2]
      rw [outsAt14_C V c t h0 h3]
      unfold out14_C sout14_C; (try dsimp only)
      rw [PhiS14_castSucc V c t, PhiS14_pos V c _ _ hz]
      iintro ⟨⟨⟨HS0, Hrb⟩, Hg⟩, Ho, ⟨%d0, H0⟩, ⟨%d1, H1⟩, ⟨%d2, H2⟩⟩
      iapply ((kernelRun14_C c (grid14.coords t) _ _ _ _ _ _ _ _ (notFirst14 t h0) (isLast14 t h3) (iblk14 V c 0 t) (iblk14 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover14_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover14_C c _ _ _ _ _ _ _ _ _ _ _ _ _ _)
    · rw [Dat.leavesExact_idle (dat14 V c) 2 t (idleAt14_2 t (notLast14 t h3)) (noFlush14_2 t (notLast14 t h3))]
      rw [outsAt14_B V c t h0 h3]
      unfold sout14_B; (try dsimp only)
      rw [PhiS14_castSucc V c t, PhiS14_pos V c _ _ hz]
      iintro ⟨⟨⟨HS0, Hrb⟩, Hg⟩, Ho, ⟨%d0, H0⟩, ⟨%d1, H1⟩, ⟨%d2, H2⟩⟩
      iapply ((kernelRun14_B c (grid14.coords t) _ _ _ _ _ _ _ _ (notFirst14 t h0) (notLast14 t h3) (iblk14 V c 0 t) (iblk14 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover14_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation14 (c : Dev nD) : BodyObligation (dat14 (F := F) V c) (defs₀ (F := F)) Variants.none () Set.univ := fun t => by
  rw [bigSep_W14, bigSep_W14]
  exact sound_body14 V c t

/-- What the region is entered with is the invariant before the first point. -/
theorem hin14 (c : Dev nD) : Pipeline.ΦA spec14 c ⊢ (dat14 V c).Φ 0 := by
  rw [show (dat14 V c).Φ 0 = PhiS14 V c 0 (Nat.zero_le _) from rfl, PhiS14_zero V c 0 _ rfl]
  try exact Idealize.SL.BI.Entails.refl _

/-- After the last point the invariant gives the class's back: the accumulator's contents are forgotten. -/
theorem hout14 (c : Dev nD) : (dat14 V c).Φ (Fin.last cfg14.N) ⊢ Pipeline.ΦA spec14 c := by
  have hN : cfg14.N = 16 := N_14
  rw [show (dat14 V c).Φ (Fin.last cfg14.N) = PhiS14 V c (Fin.last cfg14.N).val (Nat.le_of_lt_succ (Fin.last cfg14.N).isLt) from rfl,
    PhiS14_pos V c _ _ (by rw [Fin.val_last]; omega), PhiA14_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI15a.lean ====
/- Laid out by: python3 scratch/layout_regions.py --template-region 1 --region 15 --program KernelIdeal --parts a,b,c, --out-dir proof/Proof
   from the hand-written text of region 1 (RegKI1a.lean): the same text, the region's number substituted. -/
/-
  Region 15 of @main (custom_call 15): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond15_0 (i : grid15.Coords) : Prop := (Scalar.cmpi .ne (Scalar.extui (Scalar.cmpi .eq (BitVec.ofNat 32 (i 1).val) 0#32)) 0#32) = 1#1
/-- It holds exactly at the points with t % 4 = 0. -/
theorem hcond15_0 : ∀ t : Fin cfg15.N, cond15_0 (grid15.coords t) ↔ t.val % 4 = 0 :=
  (by decide +kernel : ∀ t : Fin grid15.N, cond15_0 (grid15.coords t) ↔ t.val % 4 = 0)

/-- "k = 3": the second conditional's test. -/
abbrev cond15_1 (i : grid15.Coords) : Prop := k15_cond2 i = 1#1
/-- It holds exactly at the points with t % 4 = 3. -/
theorem hcond15_1 : ∀ t : Fin cfg15.N, cond15_1 (grid15.coords t) ↔ t.val % 4 = 3 :=
  (by decide +kernel : ∀ t : Fin grid15.N, cond15_1 (grid15.coords t) ↔ t.val % 4 = 3)

/-! ## Where the windows are idle, and where the output is written back -/

/-- The two input windows are never idle. -/
theorem liveAt15_0 : ∀ t : Fin cfg15.N, cfg15.idle 0 (grid15.coords t) = false := by decide +kernel
theorem liveAt15_1 : ∀ t : Fin cfg15.N, cfg15.idle 1 (grid15.coords t) = false := by decide +kernel
/-- Where k ≠ 3 the output window is idle (the body stores nothing into it) and is not written back. -/
theorem idleAt15_2 : ∀ t : Fin cfg15.N, ¬cond15_1 (grid15.coords t) → cfg15.idle 2 (grid15.coords t) = true := by decide +kernel
theorem noFlush15_2 : ∀ t : Fin cfg15.N, ¬cond15_1 (grid15.coords t) → (cfg15.win 2).flush t = false := by decide +kernel
/-- Where k = 3 it is live. -/
theorem liveAt15_2 : ∀ t : Fin cfg15.N, cond15_1 (grid15.coords t) → cfg15.idle 2 (grid15.coords t) = false := by decide +kernel

/-! ## The staging memrefs at a point, and the scratch -/

/-- One staging buffer of the output window, through which its contents are stated. -/
abbrev VO15_2 : View sig .tc .vmem S1024x512 .f32 := (Memref.whole cc15_stg2_0 : Memref sig .tc .vmem S1024x512 .f32).view
abbrev ms15_0 (t : Fin cfg15.N) : Memref sig .tc .vmem S1024x1024 .bf16 := win15_0.stage (cfg15.slots t 0)
abbrev hs15_0 (t : Fin cfg15.N) : (ms15_0 t).IsWhole := hstage15_0 ((cfg15.slots t 0).cast nbuf15_0)
abbrev ms15_1 (t : Fin cfg15.N) : Memref sig .tc .vmem S1024x512 .f32 := win15_1.stage (cfg15.slots t 1)
abbrev hs15_1 (t : Fin cfg15.N) : (ms15_1 t).IsWhole := hstage15_1 ((cfg15.slots t 1).cast nbuf15_1)
abbrev ms15_2 (t : Fin cfg15.N) : Memref sig .tc .vmem S1024x512 .f32 := win15_2.stage (cfg15.slots t 2)
abbrev hs15_2 (t : Fin cfg15.N) : (ms15_2 t).IsWhole := hstage15_2 ((cfg15.slots t 2).cast nbuf15_2)
/-- The accumulator: a whole scoped buffer of the kernel's own. -/
abbrev scM15 : Memref sig .tc .vmem S1024x512 .f32 := Memref.whole cc15_scratch0
abbrev VS15 : View sig .tc .vmem S1024x512 .f32 := scM15.view

/-- The other scoped buffers of the core, none of which this region touches. -/
abbrev restBut15 (c : Dev nD) : sProp 𝕄 :=
  Pipeline.scopedRestBut (Ix := Unit) (Name := ℕ) (U := UR sig nD τ) (Lvl := ℕ) (Val := Elt F) spec15 c [cc15_scratch0]

/-- The region's invariant before its first point: the accumulator at something, the other scoped buffers, the generator register. -/
theorem PhiA15_eq (c : Dev nD) :
    (Pipeline.ΦA spec15 c : sProp 𝕄)
      = iprop(iprop((∃ d, owns (c : Thread nD τ) scM15 fullShare d) ∗ restBut15 c) ∗ (∃ r, prngReg c r)) := by
  unfold Pipeline.ΦA; rw [scopedRest15_split]; simp only [scM15, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun15_A (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond15_0 i) (hc1 : ¬cond15_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc15__matmul_kernel i arg2 harg2 arg3 harg3 arg4 harg4 arg5 harg5) K } := by
  refine ⟨[], ?_, fun xi2 E K => ?run⟩
  case run =>
    simp only [cc15__matmul_kernel_eq_skeleton]; unfold cc15__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI15b.lean ====
/- Laid out by: python3 scratch/layout_regions.py --template-region 1 --region 15 --program KernelIdeal --parts a,b,c, --out-dir proof/Proof
   from the hand-written text of region 1 (RegKI1b.lean): the same text, the region's number substituted. -/
/-
  Region 15, case B (k = 1, 2): the body's run. Neither conditional is taken: the product of the two blocks is added to what
  the point before left in the accumulator; the output block is not touched.
-/
import proofs.«158944_j64613488001249_1_alg».proof.Proof.RegKI15a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun15_B (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond15_0 i) (hc1 : ¬cond15_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc15__matmul_kernel i arg2 harg2 arg3 harg3 arg4 harg4 arg5 harg5) K } := by
  refine ⟨[], ?_, fun xi2 E K => ?run⟩
  case run =>
    simp only [cc15__matmul_kernel_eq_skeleton]; unfold cc15__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI15c.lean ====
/- Laid out by: python3 scratch/layout_regions.py --template-region 1 --region 15 --program KernelIdeal --parts a,b,c, --out-dir proof/Proof
   from the hand-written text of region 1 (RegKI1c.lean): the same text, the region's number substituted. -/
/-
  Region 15, case C (k = 3): the body's run. The product is added to the accumulator as in case B, and then the second
  conditional copies the accumulator over the whole output block.
-/
import proofs.«158944_j64613488001249_1_alg».proof.Proof.RegKI15b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun15_C (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond15_0 i) (hc1 : cond15_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc15__matmul_kernel i arg2 harg2 arg3 harg3 arg4 harg4 arg5 harg5) K } := by
  refine ⟨?_, ?_, fun E K => ?run⟩
  case run =>
    simp only [cc15__matmul_kernel_eq_skeleton]; unfold cc15__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI15.lean ====
/- Laid out by: python3 scratch/layout_regions.py --template-region 1 --region 15 --program KernelIdeal --parts a,b,c, --out-dir proof/Proof
   from the hand-written text of region 1 (RegKI1.lean): the same text, the region's number substituted. -/
/-
  Region 15 of @main, entered from the buffer contents `V`: what its windows' blocks are, what each case of the body leaves in
  the accumulator and in the output block, the accumulator and the output block point by point (`outsAt15`: at k = 0 the
  accumulator restarts from zeros plus the product; at k = 1, 2, 3 it is the point before's plus the product; at k = 3 the
  output block is the accumulator), the region's invariant (the accumulator at `outsAt15`'s second component), the proof data,
  and the body's obligation at every point.
-/
import proofs.«158944_j64613488001249_1_alg».proof.Proof.RegKI15c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- An input window's current staging buffer holds its block at every point, for any proof data whose array is `V`'s and
    whose body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-! ## What each case leaves -/

/-- Case A's stores into the accumulator cover it. -/
theorem scover15_A (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond15_0 i) (hc1 : ¬cond15_1 i)
    (x0 : Vec F S1024x1024 .bf16) (x1 : Vec F S1024x512 .f32) (y : S1024x512.Idx) :
    ∃ pc ∈ (kernelRun15_A c i arg2 harg2 arg3 harg3 arg4 harg4 arg5 harg5 hc0 hc1 x0 x1).2.1, y ∈ pc.1.set :=
  View.cover_of_tiledL (kernelRun15_A c i arg2 harg2 arg3 harg3 arg4 harg4 arg5 harg5 hc0 hc1 x0 x1).2.1 S1024x512.size (by sl_kernel_rfl) y
/-- What case A leaves in the accumulator. -/
noncomputable def sout15_A (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond15_0 i) (hc1 : ¬cond15_1 i)
    (x0 : Vec F S1024x1024 .bf16) (x1 : Vec F S1024x512 .f32) : Vec F S1024x512 .f32 :=
  VS15.read (Elt F) (VS15.writes (Elt F) VS15.junk (kernelRun15_A c i arg2 harg2 arg3 harg3 arg4 harg4 arg5 harg5 hc0 hc1 x0 x1).2.1)

/-- Case B's store into the accumulator covers it. -/
theorem scover15_B (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond15_0 i) (hc1 : ¬cond15_1 i)
    (x0 : Vec F S1024x1024 .bf16) (x1 : Vec F S1024x512 .f32) (xs0 : Vec F S1024x512 .f32) (y : S1024x512.Idx) :
    ∃ pc ∈ (kernelRun15_B c i arg2 harg2 arg3 harg3 arg4 harg4 arg5 harg5 hc0 hc1 x0 x1 xs0).2.1, y ∈ pc.1.set :=
  View.cover_of_tiledL (kernelRun15_B c i arg2 harg2 arg3 harg3 arg4 harg4 arg5 harg5 hc0 hc1 x0 x1 xs0).2.1 S1024x512.size (by sl_kernel_rfl) y
/-- What case B leaves in the accumulator, over what the point before left. -/
noncomputable def sout15_B (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond15_0 i) (hc1 : ¬cond15_1 i)
    (x0 : Vec F S1024x1024 .bf16) (x1 : Vec F S1024x512 .f32) (xs0 : Vec F S1024x512 .f32) : Vec F S1024x512 .f32 :=
  VS15.read (Elt F) (VS15.writes (Elt F) VS15.junk (kernelRun15_B c i arg2 harg2 arg3 harg3 arg4 harg4 arg5 harg5 hc0 hc1 x0 x1 xs0).2.1)

/-- Case C's store into the output block covers it, and so does its store into the accumulator. -/
theorem cover15_C (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond15_0 i) (hc1 : cond15_1 i)
    (x0 : Vec F S1024x1024 .bf16) (x1 : Vec F S1024x512 .f32) (xs0 : Vec F S1024x512 .f32) (y : S1024x512.Idx) :
    ∃ pc ∈ (kernelRun15_C c i arg2 harg2 arg3 harg3 arg4 harg4 arg5 harg5 hc0 hc1 x0 x1 xs0).1, y ∈ pc.1.set :=
  View.cover_of_tiledL (kernelRun15_C c i arg2 harg2 arg3 harg3 arg4 harg4 arg5 harg5 hc0 hc1 x0 x1 xs0).1 S1024x512.size (by sl_kernel_rfl) y
theorem scover15_C (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond15_0 i) (hc1 : cond15_1 i)
    (x0 : Vec F S1024x1024 .bf16) (x1 : Vec F S1024x512 .f32) (xs0 : Vec F S1024x512 .f32) (y : S1024x512.Idx) :
    ∃ pc ∈ (kernelRun15_C c i arg2 harg2 arg3 harg3 arg4 harg4 arg5 harg5 hc0 hc1 x0 x1 xs0).2.1, y ∈ pc.1.set :=
  View.cover_of_tiledL (kernelRun15_C c i arg2 harg2 arg3 harg3 arg4 harg4 arg5 harg5 hc0 hc1 x0 x1 xs0).2.1 S1024x512.size (by sl_kernel_rfl) y
/-- What case C leaves in the output block, and in the accumulator. -/
noncomputable def out15_C (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond15_0 i) (hc1 : cond15_1 i)
    (x0 : Vec F S1024x1024 .bf16) (x1 : Vec F S1024x512 .f32) (xs0 : Vec F S1024x512 .f32) : Vec F S1024x512 .f32 :=
  VO15_2.read (Elt F) (VO15_2.writes (Elt F) VO15_2.junk (kernelRun15_C c i arg2 harg2 arg3 harg3 arg4 harg4 arg5 harg5 hc0 hc1 x0 x1 xs0).1)
noncomputable def sout15_C (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond15_0 i) (hc1 : cond15_1 i)
    (x0 : Vec F S1024x1024 .bf16) (x1 : Vec F S1024x512 .f32) (xs0 : Vec F S1024x512 .f32) : Vec F S1024x512 .f32 :=
  VS15.read (Elt F) (VS15.writes (Elt F) VS15.junk (kernelRun15_C c i arg2 harg2 arg3 harg3 arg4 harg4 arg5 harg5 hc0 hc1 x0 x1 xs0).2.1)

/-- Where the output block is idle nothing consults what it holds: a placeholder. -/
noncomputable def outIdle15 : Vec F S1024x512 .f32 := VO15_2.read (Elt F) (VO15_2.writes (Elt F) VO15_2.junk [])

/-! ## The conditions at a point, from t % 4 -/

theorem isFirst15 (t : Fin cfg15.N) (h : t.val % 4 = 0) : cond15_0 (grid15.coords t) := (hcond15_0 t).mpr h
theorem notFirst15 (t : Fin cfg15.N) (h : ¬t.val % 4 = 0) : ¬cond15_0 (grid15.coords t) := fun hc => h ((hcond15_0 t).mp hc)
theorem isLast15 (t : Fin cfg15.N) (h : t.val % 4 = 3) : cond15_1 (grid15.coords t) := (hcond15_1 t).mpr h
theorem notLast15 (t : Fin cfg15.N) (h : ¬t.val % 4 = 3) : ¬cond15_1 (grid15.coords t) := fun hc => h ((hcond15_1 t).mp hc)

/-! ## The accumulator and the output block, point by point -/

/-- After the body at position `n`: (the output block's buffer, the accumulator). -/
noncomputable def outsAt15 (c : Dev nD) : (n : ℕ) → n < cfg15.N → Vec F S1024x512 .f32 × Vec F S1024x512 .f32
  | 0, hn => (outIdle15, sout15_A c (grid15.coords ⟨0, hn⟩) (ms15_0 ⟨0, hn⟩) (hs15_0 ⟨0, hn⟩) (ms15_1 ⟨0, hn⟩) (hs15_1 ⟨0, hn⟩) (ms15_2 ⟨0, hn⟩) (hs15_2 ⟨0, hn⟩) scM15 (Memref.isWhole_whole _) (isFirst15 ⟨0, hn⟩ (Nat.zero_mod _)) (notLast15 ⟨0, hn⟩ (by simp)) (iblk15 V c 0 ⟨0, hn⟩) (iblk15 V c 1 ⟨0, hn⟩))
  | n + 1, hn =>
    if h0 : (n + 1) % 4 = 0 then
      (outIdle15, sout15_A c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15 (Memref.isWhole_whole _) (isFirst15 ⟨n + 1, hn⟩ h0) (notLast15 ⟨n + 1, hn⟩ (by show ¬(n + 1) % 4 = 3; omega)) (iblk15 V c 0 ⟨n + 1, hn⟩) (iblk15 V c 1 ⟨n + 1, hn⟩))
    else if h3 : (n + 1) % 4 = 3 then
      (out15_C c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15 (Memref.isWhole_whole _) (notFirst15 ⟨n + 1, hn⟩ h0) (isLast15 ⟨n + 1, hn⟩ h3) (iblk15 V c 0 ⟨n + 1, hn⟩) (iblk15 V c 1 ⟨n + 1, hn⟩) (outsAt15 c n (Nat.lt_of_succ_lt hn)).2,
       sout15_C c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15 (Memref.isWhole_whole _) (notFirst15 ⟨n + 1, hn⟩ h0) (isLast15 ⟨n + 1, hn⟩ h3) (iblk15 V c 0 ⟨n + 1, hn⟩) (iblk15 V c 1 ⟨n + 1, hn⟩) (outsAt15 c n (Nat.lt_of_succ_lt hn)).2)
    else
      (outIdle15, sout15_B c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15 (Memref.isWhole_whole _) (notFirst15 ⟨n + 1, hn⟩ h0) (notLast15 ⟨n + 1, hn⟩ h3) (iblk15 V c 0 ⟨n + 1, hn⟩) (iblk15 V c 1 ⟨n + 1, hn⟩) (outsAt15 c n (Nat.lt_of_succ_lt hn)).2)

/-- `outsAt15` at a point with k = 0. -/
theorem outsAt15_A (c : Dev nD) (t : Fin cfg15.N) (h0 : t.val % 4 = 0) :
    outsAt15 V c t.val t.isLt = (outIdle15, sout15_A c (grid15.coords t) (ms15_0 t) (hs15_0 t) (ms15_1 t) (hs15_1 t) (ms15_2 t) (hs15_2 t) scM15 (Memref.isWhole_whole _) (isFirst15 t h0) (notLast15 t (by omega)) (iblk15 V c 0 t) (iblk15 V c 1 t)) := by
  obtain ⟨n, hn⟩ := t
  cases n with
  | zero => rfl
  | succ n => exact (dif_pos h0).trans rfl

/-- `outsAt15` at a point with k = 1, 2: over what the point before left. -/
theorem outsAt15_B (c : Dev nD) (t : Fin cfg15.N) (h0 : ¬t.val % 4 = 0) (h3 : ¬t.val % 4 = 3) :
    outsAt15 V c t.val t.isLt = (outIdle15, sout15_B c (grid15.coords t) (ms15_0 t) (hs15_0 t) (ms15_1 t) (hs15_1 t) (ms15_2 t) (hs15_2 t) scM15 (Memref.isWhole_whole _) (notFirst15 t h0) (notLast15 t h3) (iblk15 V c 0 t) (iblk15 V c 1 t)
      (outsAt15 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt15` at a point with k = 3. -/
theorem outsAt15_C (c : Dev nD) (t : Fin cfg15.N) (h0 : ¬t.val % 4 = 0) (h3 : t.val % 4 = 3) :
    outsAt15 V c t.val t.isLt = (out15_C c (grid15.coords t) (ms15_0 t) (hs15_0 t) (ms15_1 t) (hs15_1 t) (ms15_2 t) (hs15_2 t) scM15 (Memref.isWhole_whole _) (notFirst15 t h0) (isLast15 t h3) (iblk15 V c 0 t) (iblk15 V c 1 t)
        (outsAt15 V c (t.val - 1) (Nat.lt_of_le_of_lt (Nat.sub_le _ _) t.isLt)).2,
      sout15_C c (grid15.coords t) (ms15_0 t) (hs15_0 t) (ms15_1 t) (hs15_1 t) (ms15_2 t) (hs15_2 t) scM15 (Memref.isWhole_whole _) (notFirst15 t h0) (isLast15 t h3) (iblk15 V c 0 t) (iblk15 V c 1 t)
        (outsAt15 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS15 (c : Dev nD) : (n : ℕ) → n ≤ cfg15.N → sProp 𝕄
  | 0, _ => Pipeline.ΦA spec15 c
  | n + 1, hn => iprop(iprop(owns (c : Thread nD τ) scM15 fullShare ((outsAt15 V c n hn).2) ∗ restBut15 c) ∗ (∃ r, prngReg c r))

theorem PhiS15_zero (c : Dev nD) (n : ℕ) (h : n ≤ cfg15.N) (hz : n = 0) : PhiS15 V c n h = Pipeline.ΦA spec15 c := by
  subst hz; rfl
theorem PhiS15_succ (c : Dev nD) (n : ℕ) (hn : n < cfg15.N) :
    PhiS15 V c (n + 1) hn = iprop(iprop(owns (c : Thread nD τ) scM15 fullShare ((outsAt15 V c n hn).2) ∗ restBut15 c) ∗ (∃ r, prngReg c r)) := rfl
theorem PhiS15_pos (c : Dev nD) (n : ℕ) (h : n ≤ cfg15.N) (hz : n ≠ 0) :
    PhiS15 V c n h = iprop(iprop(owns (c : Thread nD τ) scM15 fullShare ((outsAt15 V c (n - 1) (by omega)).2) ∗ restBut15 c) ∗ (∃ r, prngReg c r)) := by
  cases n with
  | zero => exact absurd rfl hz
  | succ n => rfl

/-! ## The proof data -/

/-- The region's proof data on core `c`: the arrays as the region finds them; after the body at point `t` each input's
    buffer at its block and the output's at `outsAt15`'s first component; the invariant `PhiS15`; nothing owed; full shares. -/
noncomputable def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => (outsAt15 V c t.val t.isLt).1
  Φ t := PhiS15 V c t.val (Nat.le_of_lt_succ t.isLt)
  q _ := fullShare
  owed _ := 0

theorem A_eq15 (c : Dev nD) (w : Fin cfg15.W) : (dat15 V c).A w = V c (Pipeline.arrRef spec15 w) := by
  dsimp only [dat15]
theorem PhiS15_castSucc (c : Dev nD) (t : Fin cfg15.N) :
    (dat15 V c).Φ t.castSucc = PhiS15 V c t.val (Nat.le_of_lt t.isLt) := by
  dsimp only [dat15]; simp only [Fin.coe_castSucc]
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = (outsAt15 V c t.val t.isLt).1 := by dsimp only [dat15]
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

/-! ## The body's obligation -/

noncomputable def bodyPre15 (c : Dev nD) (t : Fin cfg15.N) : sProp 𝕄 :=
  iprop((dat15 V c).Φ t.castSucc ∗ (dat15 V c).owesAt () t.castSucc
    ∗ (∃ d, owns (c : Thread nD τ) (ms15_0 t) fullShare ((dat15 V c).before 0 t d))
    ∗ (∃ d, owns (c : Thread nD τ) (ms15_1 t) fullShare ((dat15 V c).before 1 t d))
    ∗ (∃ d, owns (c : Thread nD τ) (ms15_2 t) fullShare ((dat15 V c).before 2 t d)))

noncomputable def bodyPost15 (c : Dev nD) (t : Fin cfg15.N) : sProp 𝕄 :=
  iprop((dat15 V c).Φ t.succ ∗ (dat15 V c).owesAt () t.succ
    ∗ (dat15 V c).leavesExact 0 t
    ∗ (dat15 V c).leavesExact 1 t
    ∗ (dat15 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).owesAt () t.succ = (dat15 V c).owesAt () t.castSucc from rfl]
  rw [show (dat15 V c).Φ t.succ = PhiS15 V c (t.val + 1) t.isLt from rfl, PhiS15_succ]
  rw [show (dat15 V c).leavesExact 0 t = owns (c : Thread nD τ) (ms15_0 t) fullShare ((dat15 V c).after 0 t) from by
    unfold Dat.leavesExact; rw [liveAt15_0 t], after15_0]
  rw [show (dat15 V c).leavesExact 1 t = owns (c : Thread nD τ) (ms15_1 t) fullShare ((dat15 V c).after 1 t) from by
    unfold Dat.leavesExact; rw [liveAt15_1 t], after15_1]
  by_cases h0 : t.val % 4 = 0
  · have h3 : ¬t.val % 4 = 3 := by omega
    rw [Dat.leavesExact_idle (dat15 V c) 2 t (idleAt15_2 t (notLast15 t h3)) (noFlush15_2 t (notLast15 t h3))]
    rw [outsAt15_A V c t h0]
    unfold sout15_A; (try dsimp only)
    by_cases hz : t.val = 0
    · rw [PhiS15_castSucc V c t, PhiS15_zero V c _ _ hz, PhiA15_eq]
      iintro ⟨⟨⟨HS0, Hrb⟩, Hg⟩, Ho, ⟨%d0, H0⟩, ⟨%d1, H1⟩, ⟨%d2, H2⟩⟩
      iapply ((kernelRun15_A c (grid15.coords t) _ _ _ _ _ _ _ _ (isFirst15 t h0) (notLast15 t (by omega)) (iblk15 V c 0 t) (iblk15 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover15_A c _ _ _ _ _ _ _ _ _ _ _ _ _)
          iexact Hrb
        iexact Hg
      isplitl [Ho]; · iexact Ho
      isplitl [H0]; · iexact H0
      isplitl [H1]; · iexact H1
      iexists _; iexact H2
    · rw [PhiS15_castSucc V c t, PhiS15_pos V c _ _ hz]
      iintro ⟨⟨⟨HS0, Hrb⟩, Hg⟩, Ho, ⟨%d0, H0⟩, ⟨%d1, H1⟩, ⟨%d2, H2⟩⟩
      iapply ((kernelRun15_A c (grid15.coords t) _ _ _ _ _ _ _ _ (isFirst15 t h0) (notLast15 t (by omega)) (iblk15 V c 0 t) (iblk15 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover15_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat15 V c).leavesExact 2 t = owns (c : Thread nD τ) (ms15_2 t) fullShare ((dat15 V c).after 2 t) from by
        unfold Dat.leavesExact; rw [liveAt15_2 t (isLast15 t h3)], after15_2]
      rw [outsAt15_C V c t h0 h3]
      unfold out15_C sout15_C; (try dsimp only)
      rw [PhiS15_castSucc V c t, PhiS15_pos V c _ _ hz]
      iintro ⟨⟨⟨HS0, Hrb⟩, Hg⟩, Ho, ⟨%d0, H0⟩, ⟨%d1, H1⟩, ⟨%d2, H2⟩⟩
      iapply ((kernelRun15_C c (grid15.coords t) _ _ _ _ _ _ _ _ (notFirst15 t h0) (isLast15 t h3) (iblk15 V c 0 t) (iblk15 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover15_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover15_C c _ _ _ _ _ _ _ _ _ _ _ _ _ _)
    · rw [Dat.leavesExact_idle (dat15 V c) 2 t (idleAt15_2 t (notLast15 t h3)) (noFlush15_2 t (notLast15 t h3))]
      rw [outsAt15_B V c t h0 h3]
      unfold sout15_B; (try dsimp only)
      rw [PhiS15_castSucc V c t, PhiS15_pos V c _ _ hz]
      iintro ⟨⟨⟨HS0, Hrb⟩, Hg⟩, Ho, ⟨%d0, H0⟩, ⟨%d1, H1⟩, ⟨%d2, H2⟩⟩
      iapply ((kernelRun15_B c (grid15.coords t) _ _ _ _ _ _ _ _ (notFirst15 t h0) (notLast15 t h3) (iblk15 V c 0 t) (iblk15 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover15_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation15 (c : Dev nD) : BodyObligation (dat15 (F := F) V c) (defs₀ (F := F)) Variants.none () Set.univ := fun t => by
  rw [bigSep_W15, bigSep_W15]
  exact sound_body15 V c t

/-- What the region is entered with is the invariant before the first point. -/
theorem hin15 (c : Dev nD) : Pipeline.ΦA spec15 c ⊢ (dat15 V c).Φ 0 := by
  rw [show (dat15 V c).Φ 0 = PhiS15 V c 0 (Nat.zero_le _) from rfl, PhiS15_zero V c 0 _ rfl]
  try exact Idealize.SL.BI.Entails.refl _

/-- After the last point the invariant gives the class's back: the accumulator's contents are forgotten. -/
theorem hout15 (c : Dev nD) : (dat15 V c).Φ (Fin.last cfg15.N) ⊢ Pipeline.ΦA spec15 c := by
  have hN : cfg15.N = 16 := N_15
  rw [show (dat15 V c).Φ (Fin.last cfg15.N) = PhiS15 V c (Fin.last cfg15.N).val (Nat.le_of_lt_succ (Fin.last cfg15.N).isLt) from rfl,
    PhiS15_pos V c _ _ (by rw [Fin.val_last]; omega), PhiA15_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI16a.lean ====
/- Laid out by: python3 scratch/layout_regions.py --template-region 1 --region 16 --program KernelIdeal --parts a,b,c, --out-dir proof/Proof
   from the hand-written text of region 1 (RegKI1a.lean): the same text, the region's number substituted. -/
/-
  Region 16 of @main (custom_call 16): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond16_0 (i : grid16.Coords) : Prop := (Scalar.cmpi .ne (Scalar.extui (Scalar.cmpi .eq (BitVec.ofNat 32 (i 1).val) 0#32)) 0#32) = 1#1
/-- It holds exactly at the points with t % 4 = 0. -/
theorem hcond16_0 : ∀ t : Fin cfg16.N, cond16_0 (grid16.coords t) ↔ t.val % 4 = 0 :=
  (by decide +kernel : ∀ t : Fin grid16.N, cond16_0 (grid16.coords t) ↔ t.val % 4 = 0)

/-- "k = 3": the second conditional's test. -/
abbrev cond16_1 (i : grid16.Coords) : Prop := k16_cond2 i = 1#1
/-- It holds exactly at the points with t % 4 = 3. -/
theorem hcond16_1 : ∀ t : Fin cfg16.N, cond16_1 (grid16.coords t) ↔ t.val % 4 = 3 :=
  (by decide +kernel : ∀ t : Fin grid16.N, cond16_1 (grid16.coords t) ↔ t.val % 4 = 3)

/-! ## Where the windows are idle, and where the output is written back -/

/-- The two input windows are never idle. -/
theorem liveAt16_0 : ∀ t : Fin cfg16.N, cfg16.idle 0 (grid16.coords t) = false := by decide +kernel
theorem liveAt16_1 : ∀ t : Fin cfg16.N, cfg16.idle 1 (grid16.coords t) = false := by decide +kernel
/-- Where k ≠ 3 the output window is idle (the body stores nothing into it) and is not written back. -/
theorem idleAt16_2 : ∀ t : Fin cfg16.N, ¬cond16_1 (grid16.coords t) → cfg16.idle 2 (grid16.coords t) = true := by decide +kernel
theorem noFlush16_2 : ∀ t : Fin cfg16.N, ¬cond16_1 (grid16.coords t) → (cfg16.win 2).flush t = false := by decide +kernel
/-- Where k = 3 it is live. -/
theorem liveAt16_2 : ∀ t : Fin cfg16.N, cond16_1 (grid16.coords t) → cfg16.idle 2 (grid16.coords t) = false := by decide +kernel

/-! ## The staging memrefs at a point, and the scratch -/

/-- One staging buffer of the output window, through which its contents are stated. -/
abbrev VO16_2 : View sig .tc .vmem S1024x512 .f32 := (Memref.whole cc16_stg2_0 : Memref sig .tc .vmem S1024x512 .f32).view
abbrev ms16_0 (t : Fin cfg16.N) : Memref sig .tc .vmem S1024x1024 .bf16 := win16_0.stage (cfg16.slots t 0)
abbrev hs16_0 (t : Fin cfg16.N) : (ms16_0 t).IsWhole := hstage16_0 ((cfg16.slots t 0).cast nbuf16_0)
abbrev ms16_1 (t : Fin cfg16.N) : Memref sig .tc .vmem S1024x512 .f32 := win16_1.stage (cfg16.slots t 1)
abbrev hs16_1 (t : Fin cfg16.N) : (ms16_1 t).IsWhole := hstage16_1 ((cfg16.slots t 1).cast nbuf16_1)
abbrev ms16_2 (t : Fin cfg16.N) : Memref sig .tc .vmem S1024x512 .f32 := win16_2.stage (cfg16.slots t 2)
abbrev hs16_2 (t : Fin cfg16.N) : (ms16_2 t).IsWhole := hstage16_2 ((cfg16.slots t 2).cast nbuf16_2)
/-- The accumulator: a whole scoped buffer of the kernel's own. -/
abbrev scM16 : Memref sig .tc .vmem S1024x512 .f32 := Memref.whole cc16_scratch0
abbrev VS16 : View sig .tc .vmem S1024x512 .f32 := scM16.view

/-- The other scoped buffers of the core, none of which this region touches. -/
abbrev restBut16 (c : Dev nD) : sProp 𝕄 :=
  Pipeline.scopedRestBut (Ix := Unit) (Name := ℕ) (U := UR sig nD τ) (Lvl := ℕ) (Val := Elt F) spec16 c [cc16_scratch0]

/-- The region's invariant before its first point: the accumulator at something, the other scoped buffers, the generator register. -/
theorem PhiA16_eq (c : Dev nD) :
    (Pipeline.ΦA spec16 c : sProp 𝕄)
      = iprop(iprop((∃ d, owns (c : Thread nD τ) scM16 fullShare d) ∗ restBut16 c) ∗ (∃ r, prngReg c r)) := by
  unfold Pipeline.ΦA; rw [scopedRest16_split]; simp only [scM16, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun16_A (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond16_0 i) (hc1 : ¬cond16_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc16__matmul_kernel i arg2 harg2 arg3 harg3 arg4 harg4 arg5 harg5) K } := by
  refine ⟨[], ?_, fun xi2 E K => ?run⟩
  case run =>
    simp only [cc16__matmul_kernel_eq_skeleton]; unfold cc16__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI16b.lean ====
/- Laid out by: python3 scratch/layout_regions.py --template-region 1 --region 16 --program KernelIdeal --parts a,b,c, --out-dir proof/Proof
   from the hand-written text of region 1 (RegKI1b.lean): the same text, the region's number substituted. -/
/-
  Region 16, case B (k = 1, 2): the body's run. Neither conditional is taken: the product of the two blocks is added to what
  the point before left in the accumulator; the output block is not touched.
-/
import proofs.«158944_j64613488001249_1_alg».proof.Proof.RegKI16a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun16_B (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond16_0 i) (hc1 : ¬cond16_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc16__matmul_kernel i arg2 harg2 arg3 harg3 arg4 harg4 arg5 harg5) K } := by
  refine ⟨[], ?_, fun xi2 E K => ?run⟩
  case run =>
    simp only [cc16__matmul_kernel_eq_skeleton]; unfold cc16__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI16c.lean ====
/- Laid out by: python3 scratch/layout_regions.py --template-region 1 --region 16 --program KernelIdeal --parts a,b,c, --out-dir proof/Proof
   from the hand-written text of region 1 (RegKI1c.lean): the same text, the region's number substituted. -/
/-
  Region 16, case C (k = 3): the body's run. The product is added to the accumulator as in case B, and then the second
  conditional copies the accumulator over the whole output block.
-/
import proofs.«158944_j64613488001249_1_alg».proof.Proof.RegKI16b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun16_C (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond16_0 i) (hc1 : cond16_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc16__matmul_kernel i arg2 harg2 arg3 harg3 arg4 harg4 arg5 harg5) K } := by
  refine ⟨?_, ?_, fun E K => ?run⟩
  case run =>
    simp only [cc16__matmul_kernel_eq_skeleton]; unfold cc16__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI16.lean ====
/- Laid out by: python3 scratch/layout_regions.py --template-region 1 --region 16 --program KernelIdeal --parts a,b,c, --out-dir proof/Proof
   from the hand-written text of region 1 (RegKI1.lean): the same text, the region's number substituted. -/
/-
  Region 16 of @main, entered from the buffer contents `V`: what its windows' blocks are, what each case of the body leaves in
  the accumulator and in the output block, the accumulator and the output block point by point (`outsAt16`: at k = 0 the
  accumulator restarts from zeros plus the product; at k = 1, 2, 3 it is the point before's plus the product; at k = 3 the
  output block is the accumulator), the region's invariant (the accumulator at `outsAt16`'s second component), the proof data,
  and the body's obligation at every point.
-/
import proofs.«158944_j64613488001249_1_alg».proof.Proof.RegKI16c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- An input window's current staging buffer holds its block at every point, for any proof data whose array is `V`'s and
    whose body leaves the block in place. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-! ## What each case leaves -/

/-- Case A's stores into the accumulator cover it. -/
theorem scover16_A (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond16_0 i) (hc1 : ¬cond16_1 i)
    (x0 : Vec F S1024x1024 .bf16) (x1 : Vec F S1024x512 .f32) (y : S1024x512.Idx) :
    ∃ pc ∈ (kernelRun16_A c i arg2 harg2 arg3 harg3 arg4 harg4 arg5 harg5 hc0 hc1 x0 x1).2.1, y ∈ pc.1.set :=
  View.cover_of_tiledL (kernelRun16_A c i arg2 harg2 arg3 harg3 arg4 harg4 arg5 harg5 hc0 hc1 x0 x1).2.1 S1024x512.size (by sl_kernel_rfl) y
/-- What case A leaves in the accumulator. -/
noncomputable def sout16_A (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond16_0 i) (hc1 : ¬cond16_1 i)
    (x0 : Vec F S1024x1024 .bf16) (x1 : Vec F S1024x512 .f32) : Vec F S1024x512 .f32 :=
  VS16.read (Elt F) (VS16.writes (Elt F) VS16.junk (kernelRun16_A c i arg2 harg2 arg3 harg3 arg4 harg4 arg5 harg5 hc0 hc1 x0 x1).2.1)

/-- Case B's store into the accumulator covers it. -/
theorem scover16_B (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond16_0 i) (hc1 : ¬cond16_1 i)
    (x0 : Vec F S1024x1024 .bf16) (x1 : Vec F S1024x512 .f32) (xs0 : Vec F S1024x512 .f32) (y : S1024x512.Idx) :
    ∃ pc ∈ (kernelRun16_B c i arg2 harg2 arg3 harg3 arg4 harg4 arg5 harg5 hc0 hc1 x0 x1 xs0).2.1, y ∈ pc.1.set :=
  View.cover_of_tiledL (kernelRun16_B c i arg2 harg2 arg3 harg3 arg4 harg4 arg5 harg5 hc0 hc1 x0 x1 xs0).2.1 S1024x512.size (by sl_kernel_rfl) y
/-- What case B leaves in the accumulator, over what the point before left. -/
noncomputable def sout16_B (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond16_0 i) (hc1 : ¬cond16_1 i)
    (x0 : Vec F S1024x1024 .bf16) (x1 : Vec F S1024x512 .f32) (xs0 : Vec F S1024x512 .f32) : Vec F S1024x512 .f32 :=
  VS16.read (Elt F) (VS16.writes (Elt F) VS16.junk (kernelRun16_B c i arg2 harg2 arg3 harg3 arg4 harg4 arg5 harg5 hc0 hc1 x0 x1 xs0).2.1)

/-- Case C's store into the output block covers it, and so does its store into the accumulator. -/
theorem cover16_C (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond16_0 i) (hc1 : cond16_1 i)
    (x0 : Vec F S1024x1024 .bf16) (x1 : Vec F S1024x512 .f32) (xs0 : Vec F S1024x512 .f32) (y : S1024x512.Idx) :
    ∃ pc ∈ (kernelRun16_C c i arg2 harg2 arg3 harg3 arg4 harg4 arg5 harg5 hc0 hc1 x0 x1 xs0).1, y ∈ pc.1.set :=
  View.cover_of_tiledL (kernelRun16_C c i arg2 harg2 arg3 harg3 arg4 harg4 arg5 harg5 hc0 hc1 x0 x1 xs0).1 S1024x512.size (by sl_kernel_rfl) y
theorem scover16_C (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond16_0 i) (hc1 : cond16_1 i)
    (x0 : Vec F S1024x1024 .bf16) (x1 : Vec F S1024x512 .f32) (xs0 : Vec F S1024x512 .f32) (y : S1024x512.Idx) :
    ∃ pc ∈ (kernelRun16_C c i arg2 harg2 arg3 harg3 arg4 harg4 arg5 harg5 hc0 hc1 x0 x1 xs0).2.1, y ∈ pc.1.set :=
  View.cover_of_tiledL (kernelRun16_C c i arg2 harg2 arg3 harg3 arg4 harg4 arg5 harg5 hc0 hc1 x0 x1 xs0).2.1 S1024x512.size (by sl_kernel_rfl) y
/-- What case C leaves in the output block, and in the accumulator. -/
noncomputable def out16_C (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond16_0 i) (hc1 : cond16_1 i)
    (x0 : Vec F S1024x1024 .bf16) (x1 : Vec F S1024x512 .f32) (xs0 : Vec F S1024x512 .f32) : Vec F S1024x512 .f32 :=
  VO16_2.read (Elt F) (VO16_2.writes (Elt F) VO16_2.junk (kernelRun16_C c i arg2 harg2 arg3 harg3 arg4 harg4 arg5 harg5 hc0 hc1 x0 x1 xs0).1)
noncomputable def sout16_C (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond16_0 i) (hc1 : cond16_1 i)
    (x0 : Vec F S1024x1024 .bf16) (x1 : Vec F S1024x512 .f32) (xs0 : Vec F S1024x512 .f32) : Vec F S1024x512 .f32 :=
  VS16.read (Elt F) (VS16.writes (Elt F) VS16.junk (kernelRun16_C c i arg2 harg2 arg3 harg3 arg4 harg4 arg5 harg5 hc0 hc1 x0 x1 xs0).2.1)

/-- Where the output block is idle nothing consults what it holds: a placeholder. -/
noncomputable def outIdle16 : Vec F S1024x512 .f32 := VO16_2.read (Elt F) (VO16_2.writes (Elt F) VO16_2.junk [])

/-! ## The conditions at a point, from t % 4 -/

theorem isFirst16 (t : Fin cfg16.N) (h : t.val % 4 = 0) : cond16_0 (grid16.coords t) := (hcond16_0 t).mpr h
theorem notFirst16 (t : Fin cfg16.N) (h : ¬t.val % 4 = 0) : ¬cond16_0 (grid16.coords t) := fun hc => h ((hcond16_0 t).mp hc)
theorem isLast16 (t : Fin cfg16.N) (h : t.val % 4 = 3) : cond16_1 (grid16.coords t) := (hcond16_1 t).mpr h
theorem notLast16 (t : Fin cfg16.N) (h : ¬t.val % 4 = 3) : ¬cond16_1 (grid16.coords t) := fun hc => h ((hcond16_1 t).mp hc)

/-! ## The accumulator and the output block, point by point -/

/-- After the body at position `n`: (the output block's buffer, the accumulator). -/
noncomputable def outsAt16 (c : Dev nD) : (n : ℕ) → n < cfg16.N → Vec F S1024x512 .f32 × Vec F S1024x512 .f32
  | 0, hn => (outIdle16, sout16_A c (grid16.coords ⟨0, hn⟩) (ms16_0 ⟨0, hn⟩) (hs16_0 ⟨0, hn⟩) (ms16_1 ⟨0, hn⟩) (hs16_1 ⟨0, hn⟩) (ms16_2 ⟨0, hn⟩) (hs16_2 ⟨0, hn⟩) scM16 (Memref.isWhole_whole _) (isFirst16 ⟨0, hn⟩ (Nat.zero_mod _)) (notLast16 ⟨0, hn⟩ (by simp)) (iblk16 V c 0 ⟨0, hn⟩) (iblk16 V c 1 ⟨0, hn⟩))
  | n + 1, hn =>
    if h0 : (n + 1) % 4 = 0 then
      (outIdle16, sout16_A c (grid16.coords ⟨n + 1, hn⟩) (ms16_0 ⟨n + 1, hn⟩) (hs16_0 ⟨n + 1, hn⟩) (ms16_1 ⟨n + 1, hn⟩) (hs16_1 ⟨n + 1, hn⟩) (ms16_2 ⟨n + 1, hn⟩) (hs16_2 ⟨n + 1, hn⟩) scM16 (Memref.isWhole_whole _) (isFirst16 ⟨n + 1, hn⟩ h0) (notLast16 ⟨n + 1, hn⟩ (by show ¬(n + 1) % 4 = 3; omega)) (iblk16 V c 0 ⟨n + 1, hn⟩) (iblk16 V c 1 ⟨n + 1, hn⟩))
    else if h3 : (n + 1) % 4 = 3 then
      (out16_C c (grid16.coords ⟨n + 1, hn⟩) (ms16_0 ⟨n + 1, hn⟩) (hs16_0 ⟨n + 1, hn⟩) (ms16_1 ⟨n + 1, hn⟩) (hs16_1 ⟨n + 1, hn⟩) (ms16_2 ⟨n + 1, hn⟩) (hs16_2 ⟨n + 1, hn⟩) scM16 (Memref.isWhole_whole _) (notFirst16 ⟨n + 1, hn⟩ h0) (isLast16 ⟨n + 1, hn⟩ h3) (iblk16 V c 0 ⟨n + 1, hn⟩) (iblk16 V c 1 ⟨n + 1, hn⟩) (outsAt16 c n (Nat.lt_of_succ_lt hn)).2,
       sout16_C c (grid16.coords ⟨n + 1, hn⟩) (ms16_0 ⟨n + 1, hn⟩) (hs16_0 ⟨n + 1, hn⟩) (ms16_1 ⟨n + 1, hn⟩) (hs16_1 ⟨n + 1, hn⟩) (ms16_2 ⟨n + 1, hn⟩) (hs16_2 ⟨n + 1, hn⟩) scM16 (Memref.isWhole_whole _) (notFirst16 ⟨n + 1, hn⟩ h0) (isLast16 ⟨n + 1, hn⟩ h3) (iblk16 V c 0 ⟨n + 1, hn⟩) (iblk16 V c 1 ⟨n + 1, hn⟩) (outsAt16 c n (Nat.lt_of_succ_lt hn)).2)
    else
      (outIdle16, sout16_B c (grid16.coords ⟨n + 1, hn⟩) (ms16_0 ⟨n + 1, hn⟩) (hs16_0 ⟨n + 1, hn⟩) (ms16_1 ⟨n + 1, hn⟩) (hs16_1 ⟨n + 1, hn⟩) (ms16_2 ⟨n + 1, hn⟩) (hs16_2 ⟨n + 1, hn⟩) scM16 (Memref.isWhole_whole _) (notFirst16 ⟨n + 1, hn⟩ h0) (notLast16 ⟨n + 1, hn⟩ h3) (iblk16 V c 0 ⟨n + 1, hn⟩) (iblk16 V c 1 ⟨n + 1, hn⟩) (outsAt16 c n (Nat.lt_of_succ_lt hn)).2)

/-- `outsAt16` at a point with k = 0. -/
theorem outsAt16_A (c : Dev nD) (t : Fin cfg16.N) (h0 : t.val % 4 = 0) :
    outsAt16 V c t.val t.isLt = (outIdle16, sout16_A c (grid16.coords t) (ms16_0 t) (hs16_0 t) (ms16_1 t) (hs16_1 t) (ms16_2 t) (hs16_2 t) scM16 (Memref.isWhole_whole _) (isFirst16 t h0) (notLast16 t (by omega)) (iblk16 V c 0 t) (iblk16 V c 1 t)) := by
  obtain ⟨n, hn⟩ := t
  cases n with
  | zero => rfl
  | succ n => exact (dif_pos h0).trans rfl

/-- `outsAt16` at a point with k = 1, 2: over what the point before left. -/
theorem outsAt16_B (c : Dev nD) (t : Fin cfg16.N) (h0 : ¬t.val % 4 = 0) (h3 : ¬t.val % 4 = 3) :
    outsAt16 V c t.val t.isLt = (outIdle16, sout16_B c (grid16.coords t) (ms16_0 t) (hs16_0 t) (ms16_1 t) (hs16_1 t) (ms16_2 t) (hs16_2 t) scM16 (Memref.isWhole_whole _) (notFirst16 t h0) (notLast16 t h3) (iblk16 V c 0 t) (iblk16 V c 1 t)
      (outsAt16 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt16` at a point with k = 3. -/
theorem outsAt16_C (c : Dev nD) (t : Fin cfg16.N) (h0 : ¬t.val % 4 = 0) (h3 : t.val % 4 = 3) :
    outsAt16 V c t.val t.isLt = (out16_C c (grid16.coords t) (ms16_0 t) (hs16_0 t) (ms16_1 t) (hs16_1 t) (ms16_2 t) (hs16_2 t) scM16 (Memref.isWhole_whole _) (notFirst16 t h0) (isLast16 t h3) (iblk16 V c 0 t) (iblk16 V c 1 t)
        (outsAt16 V c (t.val - 1) (Nat.lt_of_le_of_lt (Nat.sub_le _ _) t.isLt)).2,
      sout16_C c (grid16.coords t) (ms16_0 t) (hs16_0 t) (ms16_1 t) (hs16_1 t) (ms16_2 t) (hs16_2 t) scM16 (Memref.isWhole_whole _) (notFirst16 t h0) (isLast16 t h3) (iblk16 V c 0 t) (iblk16 V c 1 t)
        (outsAt16 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS16 (c : Dev nD) : (n : ℕ) → n ≤ cfg16.N → sProp 𝕄
  | 0, _ => Pipeline.ΦA spec16 c
  | n + 1, hn => iprop(iprop(owns (c : Thread nD τ) scM16 fullShare ((outsAt16 V c n hn).2) ∗ restBut16 c) ∗ (∃ r, prngReg c r))

theorem PhiS16_zero (c : Dev nD) (n : ℕ) (h : n ≤ cfg16.N) (hz : n = 0) : PhiS16 V c n h = Pipeline.ΦA spec16 c := by
  subst hz; rfl
theorem PhiS16_succ (c : Dev nD) (n : ℕ) (hn : n < cfg16.N) :
    PhiS16 V c (n + 1) hn = iprop(iprop(owns (c : Thread nD τ) scM16 fullShare ((outsAt16 V c n hn).2) ∗ restBut16 c) ∗ (∃ r, prngReg c r)) := rfl
theorem PhiS16_pos (c : Dev nD) (n : ℕ) (h : n ≤ cfg16.N) (hz : n ≠ 0) :
    PhiS16 V c n h = iprop(iprop(owns (c : Thread nD τ) scM16 fullShare ((outsAt16 V c (n - 1) (by omega)).2) ∗ restBut16 c) ∗ (∃ r, prngReg c r)) := by
  cases n with
  | zero => exact absurd rfl hz
  | succ n => rfl

/-! ## The proof data -/

/-- The region's proof data on core `c`: the arrays as the region finds them; after the body at point `t` each input's
    buffer at its block and the output's at `outsAt16`'s first component; the invariant `PhiS16`; nothing owed; full shares. -/
noncomputable def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => (outsAt16 V c t.val t.isLt).1
  Φ t := PhiS16 V c t.val (Nat.le_of_lt_succ t.isLt)
  q _ := fullShare
  owed _ := 0

theorem A_eq16 (c : Dev nD) (w : Fin cfg16.W) : (dat16 V c).A w = V c (Pipeline.arrRef spec16 w) := by
  dsimp only [dat16]
theorem PhiS16_castSucc (c : Dev nD) (t : Fin cfg16.N) :
    (dat16 V c).Φ t.castSucc = PhiS16 V c t.val (Nat.le_of_lt t.isLt) := by
  dsimp only [dat16]; simp only [Fin.coe_castSucc]
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = (outsAt16 V c t.val t.isLt).1 := by dsimp only [dat16]
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d

/-! ## The body's obligation -/

noncomputable def bodyPre16 (c : Dev nD) (t : Fin cfg16.N) : sProp 𝕄 :=
  iprop((dat16 V c).Φ t.castSucc ∗ (dat16 V c).owesAt () t.castSucc
    ∗ (∃ d, owns (c : Thread nD τ) (ms16_0 t) fullShare ((dat16 V c).before 0 t d))
    ∗ (∃ d, owns (c : Thread nD τ) (ms16_1 t) fullShare ((dat16 V c).before 1 t d))
    ∗ (∃ d, owns (c : Thread nD τ) (ms16_2 t) fullShare ((dat16 V c).before 2 t d)))

noncomputable def bodyPost16 (c : Dev nD) (t : Fin cfg16.N) : sProp 𝕄 :=
  iprop((dat16 V c).Φ t.succ ∗ (dat16 V c).owesAt () t.succ
    ∗ (dat16 V c).leavesExact 0 t
    ∗ (dat16 V c).leavesExact 1 t
    ∗ (dat16 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1]
  rw [show (dat16 V c).owesAt () t.succ = (dat16 V c).owesAt () t.castSucc from rfl]
  rw [show (dat16 V c).Φ t.succ = PhiS16 V c (t.val + 1) t.isLt from rfl, PhiS16_succ]
  rw [show (dat16 V c).leavesExact 0 t = owns (c : Thread nD τ) (ms16_0 t) fullShare ((dat16 V c).after 0 t) from by
    unfold Dat.leavesExact; rw [liveAt16_0 t], after16_0]
  rw [show (dat16 V c).leavesExact 1 t = owns (c : Thread nD τ) (ms16_1 t) fullShare ((dat16 V c).after 1 t) from by
    unfold Dat.leavesExact; rw [liveAt16_1 t], after16_1]
  by_cases h0 : t.val % 4 = 0
  · have h3 : ¬t.val % 4 = 3 := by omega
    rw [Dat.leavesExact_idle (dat16 V c) 2 t (idleAt16_2 t (notLast16 t h3)) (noFlush16_2 t (notLast16 t h3))]
    rw [outsAt16_A V c t h0]
    unfold sout16_A; (try dsimp only)
    by_cases hz : t.val = 0
    · rw [PhiS16_castSucc V c t, PhiS16_zero V c _ _ hz, PhiA16_eq]
      iintro ⟨⟨⟨HS0, Hrb⟩, Hg⟩, Ho, ⟨%d0, H0⟩, ⟨%d1, H1⟩, ⟨%d2, H2⟩⟩
      iapply ((kernelRun16_A c (grid16.coords t) _ _ _ _ _ _ _ _ (isFirst16 t h0) (notLast16 t (by omega)) (iblk16 V c 0 t) (iblk16 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover16_A c _ _ _ _ _ _ _ _ _ _ _ _ _)
          iexact Hrb
        iexact Hg
      isplitl [Ho]; · iexact Ho
      isplitl [H0]; · iexact H0
      isplitl [H1]; · iexact H1
      iexists _; iexact H2
    · rw [PhiS16_castSucc V c t, PhiS16_pos V c _ _ hz]
      iintro ⟨⟨⟨HS0, Hrb⟩, Hg⟩, Ho, ⟨%d0, H0⟩, ⟨%d1, H1⟩, ⟨%d2, H2⟩⟩
      iapply ((kernelRun16_A c (grid16.coords t) _ _ _ _ _ _ _ _ (isFirst16 t h0) (notLast16 t (by omega)) (iblk16 V c 0 t) (iblk16 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover16_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat16 V c).leavesExact 2 t = owns (c : Thread nD τ) (ms16_2 t) fullShare ((dat16 V c).after 2 t) from by
        unfold Dat.leavesExact; rw [liveAt16_2 t (isLast16 t h3)], after16_2]
      rw [outsAt16_C V c t h0 h3]
      unfold out16_C sout16_C; (try dsimp only)
      rw [PhiS16_castSucc V c t, PhiS16_pos V c _ _ hz]
      iintro ⟨⟨⟨HS0, Hrb⟩, Hg⟩, Ho, ⟨%d0, H0⟩, ⟨%d1, H1⟩, ⟨%d2, H2⟩⟩
      iapply ((kernelRun16_C c (grid16.coords t) _ _ _ _ _ _ _ _ (notFirst16 t h0) (isLast16 t h3) (iblk16 V c 0 t) (iblk16 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover16_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover16_C c _ _ _ _ _ _ _ _ _ _ _ _ _ _)
    · rw [Dat.leavesExact_idle (dat16 V c) 2 t (idleAt16_2 t (notLast16 t h3)) (noFlush16_2 t (notLast16 t h3))]
      rw [outsAt16_B V c t h0 h3]
      unfold sout16_B; (try dsimp only)
      rw [PhiS16_castSucc V c t, PhiS16_pos V c _ _ hz]
      iintro ⟨⟨⟨HS0, Hrb⟩, Hg⟩, Ho, ⟨%d0, H0⟩, ⟨%d1, H1⟩, ⟨%d2, H2⟩⟩
      iapply ((kernelRun16_B c (grid16.coords t) _ _ _ _ _ _ _ _ (notFirst16 t h0) (notLast16 t h3) (iblk16 V c 0 t) (iblk16 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover16_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation16 (c : Dev nD) : BodyObligation (dat16 (F := F) V c) (defs₀ (F := F)) Variants.none () Set.univ := fun t => by
  rw [bigSep_W16, bigSep_W16]
  exact sound_body16 V c t

/-- What the region is entered with is the invariant before the first point. -/
theorem hin16 (c : Dev nD) : Pipeline.ΦA spec16 c ⊢ (dat16 V c).Φ 0 := by
  rw [show (dat16 V c).Φ 0 = PhiS16 V c 0 (Nat.zero_le _) from rfl, PhiS16_zero V c 0 _ rfl]
  try exact Idealize.SL.BI.Entails.refl _

/-- After the last point the invariant gives the class's back: the accumulator's contents are forgotten. -/
theorem hout16 (c : Dev nD) : (dat16 V c).Φ (Fin.last cfg16.N) ⊢ Pipeline.ΦA spec16 c := by
  have hN : cfg16.N = 16 := N_16
  rw [show (dat16 V c).Φ (Fin.last cfg16.N) = PhiS16 V c (Fin.last cfg16.N).val (Nat.le_of_lt_succ (Fin.last cfg16.N).isLt) from rfl,
    PhiS16_pos V c _ _ (by rw [Fin.val_last]; omega), PhiA16_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI17a.lean ====
/- Laid out by: python3 scratch/layout_grid41.py --template-region 0 --region 17 --program KernelIdeal --parts a, --shapes S1024x128=S1024x512,S128x512=S512x512
   from the hand-written text of region 0 (RegKI0a.lean): the same text, the region's number, block shapes substituted. -/
/- The region of KernelIdeal's @main that runs `cc17__matmul_kernel` (pipeline `cfg17`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond17_0 (i : grid17.Coords) : Prop :=
  (Scalar.cmpi .ne (Scalar.extui (Scalar.cmpi .eq (BitVec.ofNat 32 (i 1).val) 0#32)) 0#32) = 1#1
/-- True at every point: the reduction axis has one step. -/
theorem hcond17_0 : ∀ t : Fin cfg17.N, cond17_0 (grid17.coords t) :=
  (by decide +kernel : ∀ t : Fin grid17.N, cond17_0 (grid17.coords t))

/-- "This is the last reduction step" (the guard of the copy to the output block). -/
abbrev cond17_1 (i : grid17.Coords) : Prop := k17_cond2 i = 1#1
/-- True at every point, for the same reason. -/
theorem hcond17_1 : ∀ t : Fin cfg17.N, cond17_1 (grid17.coords t) :=
  (by decide +kernel : ∀ t : Fin grid17.N, cond17_1 (grid17.coords t))

/-! ## No window is idle anywhere -/

theorem liveAt17_0 : ∀ t : Fin cfg17.N, cfg17.idle 0 (grid17.coords t) = false := by decide +kernel
theorem liveAt17_1 : ∀ t : Fin cfg17.N, cfg17.idle 1 (grid17.coords t) = false := by decide +kernel
/-- The output window is stored at every point (the copy's guard holds everywhere). -/
theorem liveAt17_2 : ∀ t : Fin cfg17.N, cfg17.idle 2 (grid17.coords t) = false := by decide +kernel

/-! ## The memrefs the body is called on -/

/-- One staging buffer of the output window, through which its contents are stated (any whole view of the shape reads the
    same pieces back the same way). -/
abbrev VO17_2 : View sig .tc .vmem S1024x512 .f32 := (Memref.whole cc17_stg2_0 : Memref sig .tc .vmem S1024x512 .f32).view
/-- Each window's current staging memref at point `t`, spelt as the pipeline passes it, with its wholeness. -/
abbrev ms17_0 (t : Fin cfg17.N) : Memref sig .tc .vmem S1024x512 .f32 := win17_0.stage (cfg17.slots t 0)
abbrev hs17_0 (t : Fin cfg17.N) : (ms17_0 t).IsWhole := hstage17_0 ((cfg17.slots t 0).cast nbuf17_0)
abbrev ms17_1 (t : Fin cfg17.N) : Memref sig .tc .vmem S512x512 .bf16 := win17_1.stage (cfg17.slots t 1)
abbrev hs17_1 (t : Fin cfg17.N) : (ms17_1 t).IsWhole := hstage17_1 ((cfg17.slots t 1).cast nbuf17_1)
abbrev ms17_2 (t : Fin cfg17.N) : Memref sig .tc .vmem S1024x512 .f32 := win17_2.stage (cfg17.slots t 2)
abbrev hs17_2 (t : Fin cfg17.N) : (ms17_2 t).IsWhole := hstage17_2 ((cfg17.slots t 2).cast nbuf17_2)
/-- The accumulator: a whole scoped buffer of the kernel's own, passed beside the windows. -/
abbrev scM17_0 : Memref sig .tc .vmem S1024x512 .f32 := Memref.whole cc17_scratch0
abbrev VS17_0 : View sig .tc .vmem S1024x512 .f32 := scM17_0.view

/-- The region invariant with the accumulator taken out of the scoped rest: the accumulator owned at some contents, every
    other scoped buffer unopened, and the generator register. -/
theorem PhiA17_eq (c : Dev nD) :
    (Pipeline.ΦA spec17 c : sProp 𝕄)
      = iprop(iprop(iprop((∃ d, owns (c : Thread nD τ) scM17_0 fullShare d))
            ∗ Pipeline.scopedRestBut (Ix := Unit) (Name := ℕ) (U := UR sig nD τ) (Lvl := ℕ) (Val := Elt F) spec17 c [cc17_scratch0])
          ∗ (∃ r, prngReg c r)) := by
  unfold Pipeline.ΦA; rw [scopedRest17_split]; simp only [scM17_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun17 (c : Dev nD) (i : grid17.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond17_0 i) (hlast : cond17_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc17__matmul_kernel i arg2 harg2 arg3 harg3 arg4 harg4 arg5 harg5) K } := by
  refine ⟨?_, ?_, fun E K => ?run⟩
  case run =>
    simp only [cc17__matmul_kernel_eq_skeleton]; unfold cc17__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.KernelIdeal.Hand

end
-- ==== Proof.RegKI17.lean ====
/- Laid out by: python3 scratch/layout_grid41.py --template-region 0 --region 17 --program KernelIdeal --parts a, --shapes S1024x128=S1024x512,S128x512=S512x512
   from the hand-written text of region 0 (RegKI0.lean): the same text, the region's number, block shapes substituted. -/
/- The region of KernelIdeal's @main that runs `cc17__matmul_kernel` (pipeline `cfg17`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegKI17a
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-! ## What the case leaves, as pieces read back -/

/-- The output's pieces tile its block (one whole-block store). -/
theorem cover17_2 (c : Dev nD) (i : grid17.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond17_0 i) (hlast : cond17_1 i) (xa : Vec F S1024x512 .f32) (xb : Vec F S512x512 .bf16) (y : S1024x512.Idx) :
    ∃ pc ∈ (kernelRun17 c i arg2 harg2 arg3 harg3 arg4 harg4 arg5 harg5 hfirst hlast xa xb).1, y ∈ pc.1.set :=
  View.cover_of_tiledL (kernelRun17 c i arg2 harg2 arg3 harg3 arg4 harg4 arg5 harg5 hfirst hlast xa xb).1 S1024x512.size (by sl_kernel_rfl) y

/-- What the case leaves in the output's staging buffer: its pieces read back over junk. -/
noncomputable def out17_2 (c : Dev nD) (i : grid17.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond17_0 i) (hlast : cond17_1 i) (xa : Vec F S1024x512 .f32) (xb : Vec F S512x512 .bf16) : Vec F S1024x512 .f32 :=
  VO17_2.read (Elt F) (VO17_2.writes (Elt F) VO17_2.junk (kernelRun17 c i arg2 harg2 arg3 harg3 arg4 harg4 arg5 harg5 hfirst hlast xa xb).1)

/-- What the case leaves in the accumulator: its pieces read back over junk. -/
noncomputable def sout17_0 (c : Dev nD) (i : grid17.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond17_0 i) (hlast : cond17_1 i) (xa : Vec F S1024x512 .f32) (xb : Vec F S512x512 .bf16) : Vec F S1024x512 .f32 :=
  VS17_0.read (Elt F) (VS17_0.writes (Elt F) VS17_0.junk (kernelRun17 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout17_0_eq (c : Dev nD) (i : grid17.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond17_0 i) (hlast : cond17_1 i) (xa : Vec F S1024x512 .f32) (xb : Vec F S512x512 .bf16) :
    sout17_0 c i arg2 harg2 arg3 harg3 arg4 harg4 arg5 harg5 hfirst hlast xa xb = k17_pay2 xa xb (k17_pay1 (F := F)) := by
  unfold sout17_0
  rw [View.read_writes_junk_eq_canon]
  unfold kernelRun17
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out17_2_eq (c : Dev nD) (i : grid17.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond17_0 i) (hlast : cond17_1 i) (xa : Vec F S1024x512 .f32) (xb : Vec F S512x512 .bf16) :
    out17_2 c i arg2 harg2 arg3 harg3 arg4 harg4 arg5 harg5 hfirst hlast xa xb = k17_pay2 xa xb (k17_pay1 (F := F)) := by
  unfold out17_2
  rw [View.read_writes_junk_eq_canon]
  unfold kernelRun17
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt17 (c : Dev nD) (n : ℕ) (hn : n < cfg17.N) : Vec F S1024x512 .f32 × Vec F S1024x512 .f32 :=
  (out17_2 c (grid17.coords ⟨n, hn⟩) (ms17_0 ⟨n, hn⟩) (hs17_0 ⟨n, hn⟩) (ms17_1 ⟨n, hn⟩) (hs17_1 ⟨n, hn⟩) (ms17_2 ⟨n, hn⟩) (hs17_2 ⟨n, hn⟩) scM17_0 (Memref.isWhole_whole _)
      (hcond17_0 ⟨n, hn⟩) (hcond17_1 ⟨n, hn⟩) (iblk17 V c 0 ⟨n, hn⟩) (iblk17 V c 1 ⟨n, hn⟩),
   sout17_0 c (grid17.coords ⟨n, hn⟩) (ms17_0 ⟨n, hn⟩) (hs17_0 ⟨n, hn⟩) (ms17_1 ⟨n, hn⟩) (hs17_1 ⟨n, hn⟩) (ms17_2 ⟨n, hn⟩) (hs17_2 ⟨n, hn⟩) scM17_0 (Memref.isWhole_whole _)
      (hcond17_0 ⟨n, hn⟩) (hcond17_1 ⟨n, hn⟩) (iblk17 V c 0 ⟨n, hn⟩) (iblk17 V c 1 ⟨n, hn⟩))

/-- Every point is a first reduction step: the accumulator after it is one product onto zero. -/
theorem outsAt17_first (c : Dev nD) (t : Fin cfg17.N) :
    (outsAt17 V c t.val t.isLt).2 = k17_pay2 (iblk17 V c 0 t) (iblk17 V c 1 t) (k17_pay1 (F := F)) := by
  obtain ⟨n, hn⟩ := t
  unfold outsAt17
  dsimp only
  rw [sout17_0_eq]

/-- Every point is a last reduction step: the output block after it is the accumulator. -/
theorem outsAt17_last (c : Dev nD) (t : Fin cfg17.N) :
    (outsAt17 V c t.val t.isLt).1 = (outsAt17 V c t.val t.isLt).2 := by
  obtain ⟨n, hn⟩ := t
  unfold outsAt17
  dsimp only
  rw [out17_2_eq, sout17_0_eq]

/-! ## The pipeline's proof data -/

/-- The proof data of the pipeline on core `c`: the arrays as the region finds them; after the body at point `t` each input's
    buffer at its block and the output's at `outsAt17`'s first component; the invariant the same at every point; nothing owed;
    full shares. -/
noncomputable def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => (outsAt17 V c t.val t.isLt).1
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = (outsAt17 V c t.val t.isLt).1 := by dsimp only [dat17]

/-- An input's current staging buffer holds its block at every point, fetched there or not: where it is not fetched its block
    index has not moved since the point before, and the body left the block in place. -/
theorem before17_0 (c : Dev nD) (t : Fin cfg17.N) (d) : (dat17 V c).before 0 t d = iblk17 V c 0 t :=
  ((dat17 V c).before_in_eq_fetched 0 rfl (fun _ => rfl) (fun _ _ _ => rfl)
      (fun t => by rw [after17_0]; unfold Dat.blockOf iblk17; rw [A_eq17]; try rfl) t d).trans
    (by unfold Dat.fetched Dat.blockOf iblk17; rw [A_eq17]; try rfl)
theorem before17_1 (c : Dev nD) (t : Fin cfg17.N) (d) : (dat17 V c).before 1 t d = iblk17 V c 1 t :=
  ((dat17 V c).before_in_eq_fetched 1 rfl (fun _ => rfl) (fun _ _ _ => rfl)
      (fun t => by rw [after17_1]; unfold Dat.blockOf iblk17; rw [A_eq17]; try rfl) t d).trans
    (by unfold Dat.fetched Dat.blockOf iblk17; rw [A_eq17]; try rfl)

/-! ## The body obligation, at a generic point -/

/-- What the body is called with at point `t`, the windows one by one, -/
noncomputable def bodyPre17 (c : Dev nD) (t : Fin cfg17.N) : sProp 𝕄 :=
  iprop((dat17 V c).Φ t.castSucc ∗ (dat17 V c).owesAt () t.castSucc
    ∗ (∃ d, owns (c : Thread nD τ) (ms17_0 t) fullShare ((dat17 V c).before 0 t d))
    ∗ (∃ d, owns (c : Thread nD τ) (ms17_1 t) fullShare ((dat17 V c).before 1 t d))
    ∗ (∃ d, owns (c : Thread nD τ) (ms17_2 t) fullShare ((dat17 V c).before 2 t d)))

/-- and what it returns. -/
noncomputable def bodyPost17 (c : Dev nD) (t : Fin cfg17.N) : sProp 𝕄 :=
  iprop((dat17 V c).Φ t.succ ∗ (dat17 V c).owesAt () t.succ
    ∗ (dat17 V c).leavesExact 0 t
    ∗ (dat17 V c).leavesExact 1 t
    ∗ (dat17 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1]
  rw [show (dat17 V c).owesAt () t.succ = (dat17 V c).owesAt () t.castSucc from rfl,
    show (dat17 V c).Φ t.succ = Pipeline.ΦA spec17 c from rfl, show (dat17 V c).Φ t.castSucc = Pipeline.ΦA spec17 c from rfl, PhiA17_eq]
  rw [show (dat17 V c).leavesExact 0 t = owns (c : Thread nD τ) (ms17_0 t) fullShare ((dat17 V c).after 0 t) from by
      unfold Dat.leavesExact; rw [liveAt17_0 t], after17_0]
  rw [show (dat17 V c).leavesExact 1 t = owns (c : Thread nD τ) (ms17_1 t) fullShare ((dat17 V c).after 1 t) from by
      unfold Dat.leavesExact; rw [liveAt17_1 t], after17_1]
  rw [show (dat17 V c).leavesExact 2 t = owns (c : Thread nD τ) (ms17_2 t) fullShare ((dat17 V c).after 2 t) from by
      unfold Dat.leavesExact; rw [liveAt17_2 t], after17_2]
  unfold outsAt17 out17_2; (try dsimp only)
  iintro ⟨⟨⟨Hacc, Hrest⟩, Hgen⟩, Howe, ⟨%da, Ha⟩, ⟨%db, Hb⟩, ⟨%dO, Hout⟩⟩
  iapply ((kernelRun17 c (grid17.coords t) _ _ _ _ _ _ _ _ (hcond17_0 t) (hcond17_1 t) (iblk17 V c 0 t) (iblk17 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover17_2 c _ _ _ _ _ _ _ _ _ _ _ _ _)

/-- The library's body obligation, at every point. -/
theorem body_obligation17 (c : Dev nD) : BodyObligation (dat17 (F := F) V c) (defs₀ (F := F)) Variants.none () Set.univ := fun t => by
  rw [bigSep_W17, bigSep_W17]
  exact sound_body17 V c t

/-- What the launch hands the region is the invariant before the first point, -/
theorem hin17 (c : Dev nD) : Pipeline.ΦA spec17 c ⊢ (dat17 V c).Φ 0 := Idealize.SL.BI.Entails.refl _

/-- and the invariant after the last point is what the launch takes back. -/
theorem hout17 (c : Dev nD) : (dat17 V c).Φ (Fin.last cfg17.N) ⊢ Pipeline.ΦA spec17 c := Idealize.SL.BI.Entails.refl _

end Cert.KernelIdeal.Hand

end
-- ==== Proof.RegKI18a.lean ====
/- Laid out by: python3 scratch/layout_regions.py --template-region 1 --region 18 --program KernelIdeal --parts a,b,c, --out-dir proof/Proof
   from the hand-written text of region 1 (RegKI1a.lean): the same text, the region's number substituted. -/
/-
  Region 18 of @main (custom_call 18): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond18_0 (i : grid18.Coords) : Prop := (Scalar.cmpi .ne (Scalar.extui (Scalar.cmpi .eq (BitVec.ofNat 32 (i 1).val) 0#32)) 0#32) = 1#1
/-- It holds exactly at the points with t % 4 = 0. -/
theorem hcond18_0 : ∀ t : Fin cfg18.N, cond18_0 (grid18.coords t) ↔ t.val % 4 = 0 :=
  (by decide +kernel : ∀ t : Fin grid18.N, cond18_0 (grid18.coords t) ↔ t.val % 4 = 0)

/-- "k = 3": the second conditional's test. -/
abbrev cond18_1 (i : grid18.Coords) : Prop := k18_cond2 i = 1#1
/-- It holds exactly at the points with t % 4 = 3. -/
theorem hcond18_1 : ∀ t : Fin cfg18.N, cond18_1 (grid18.coords t) ↔ t.val % 4 = 3 :=
  (by decide +kernel : ∀ t : Fin grid18.N, cond18_1 (grid18.coords t) ↔ t.val % 4 = 3)

/-! ## Where the windows are idle, and where the output is written back -/

/-- The two input windows are never idle. -/
theorem liveAt18_0 : ∀ t : Fin cfg18.N, cfg18.idle 0 (grid18.coords t) = false := by decide +kernel
theorem liveAt18_1 : ∀ t : Fin cfg18.N, cfg18.idle 1 (grid18.coords t) = false := by decide +kernel
/-- Where k ≠ 3 the output window is idle (the body stores nothing into it) and is not written back. -/
theorem idleAt18_2 : ∀ t : Fin cfg18.N, ¬cond18_1 (grid18.coords t) → cfg18.idle 2 (grid18.coords t) = true := by decide +kernel
theorem noFlush18_2 : ∀ t : Fin cfg18.N, ¬cond18_1 (grid18.coords t) → (cfg18.win 2).flush t = false := by decide +kernel
/-- Where k = 3 it is live. -/
theorem liveAt18_2 : ∀ t : Fin cfg18.N, cond18_1 (grid18.coords t) → cfg18.idle 2 (grid18.coords t) = false := by decide +kernel

/-! ## The staging memrefs at a point, and the scratch -/

/-- One staging buffer of the output window, through which its contents are stated. -/
abbrev VO18_2 : View sig .tc .vmem S1024x512 .f32 := (Memref.whole cc18_stg2_0 : Memref sig .tc .vmem S1024x512 .f32).view
abbrev ms18_0 (t : Fin cfg18.N) : Memref sig .tc .vmem S1024x1024 .bf16 := win18_0.stage (cfg18.slots t 0)
abbrev hs18_0 (t : Fin cfg18.N) : (ms18_0 t).IsWhole := hstage18_0 ((cfg18.slots t 0).cast nbuf18_0)
abbrev ms18_1 (t : Fin cfg18.N) : Memref sig .tc .vmem S1024x512 .f32 := win18_1.stage (cfg18.slots t 1)
abbrev hs18_1 (t : Fin cfg18.N) : (ms18_1 t).IsWhole := hstage18_1 ((cfg18.slots t 1).cast nbuf18_1)
abbrev ms18_2 (t : Fin cfg18.N) : Memref sig .tc .vmem S1024x512 .f32 := win18_2.stage (cfg18.slots t 2)
abbrev hs18_2 (t : Fin cfg18.N) : (ms18_2 t).IsWhole := hstage18_2 ((cfg18.slots t 2).cast nbuf18_2)
/-- The accumulator: a whole scoped buffer of the kernel's own. -/
abbrev scM18 : Memref sig .tc .vmem S1024x512 .f32 := Memref.whole cc18_scratch0
abbrev VS18 : View sig .tc .vmem S1024x512 .f32 := scM18.view

/-- The other scoped buffers of the core, none of which this region touches. -/
abbrev restBut18 (c : Dev nD) : sProp 𝕄 :=
  Pipeline.scopedRestBut (Ix := Unit) (Name := ℕ) (U := UR sig nD τ) (Lvl := ℕ) (Val := Elt F) spec18 c [cc18_scratch0]

/-- The region's invariant before its first point: the accumulator at something, the other scoped buffers, the generator register. -/
theorem PhiA18_eq (c : Dev nD) :
    (Pipeline.ΦA spec18 c : sProp 𝕄)
      = iprop(iprop((∃ d, owns (c : Thread nD τ) scM18 fullShare d) ∗ restBut18 c) ∗ (∃ r, prngReg c r)) := by
  unfold Pipeline.ΦA; rw [scopedRest18_split]; simp only [scM18, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun18_A (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond18_0 i) (hc1 : ¬cond18_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc18__matmul_kernel i arg2 harg2 arg3 harg3 arg4 harg4 arg5 harg5) K } := by
  refine ⟨[], ?_, fun xi2 E K => ?run⟩
  case run =>
    simp only [cc18__matmul_kernel_eq_skeleton]; unfold cc18__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI18b.lean ====
/- Laid out by: python3 scratch/layout_regions.py --template-region 1 --region 18 --program KernelIdeal --parts a,b,c, --out-dir proof/Proof
   from the hand-written text of region 1 (RegKI1b.lean): the same text, the region's number substituted. -/
/-
  Region 18, case B (k = 1, 2): the body's run. Neither conditional is taken: the product of the two blocks is added to what
  the point before left in the accumulator; the output block is not touched.
-/
import proofs.«158944_j64613488001249_1_alg».proof.Proof.RegKI18a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun18_B (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond18_0 i) (hc1 : ¬cond18_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc18__matmul_kernel i arg2 harg2 arg3 harg3 arg4 harg4 arg5 harg5) K } := by
  refine ⟨[], ?_, fun xi2 E K => ?run⟩
  case run =>
    simp only [cc18__matmul_kernel_eq_skeleton]; unfold cc18__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI18c.lean ====
/- Laid out by: python3 scratch/layout_regions.py --template-region 1 --region 18 --program KernelIdeal --parts a,b,c, --out-dir proof/Proof
   from the hand-written text of region 1 (RegKI1c.lean): the same text, the region's number substituted. -/
/-
  Region 18, case C (k = 3): the body's run. The product is added to the accumulator as in case B, and then the second
  conditional copies the accumulator over the whole output block.
-/
import proofs.«158944_j64613488001249_1_alg».proof.Proof.RegKI18b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun18_C (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond18_0 i) (hc1 : cond18_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc18__matmul_kernel i arg2 harg2 arg3 harg3 arg4 harg4 arg5 harg5) K } := by
  refine ⟨?_, ?_, fun E K => ?run⟩
  case run =>
    simp only [cc18__matmul_kernel_eq_skeleton]; unfold cc18__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI18.lean ====
/- Laid out by: python3 scratch/layout_regions.py --template-region 1 --region 18 --program KernelIdeal --parts a,b,c, --out-dir proof/Proof
   from the hand-written text of region 1 (RegKI1.lean): the same text, the region's number substituted. -/
/-
  Region 18 of @main, entered from the buffer contents `V`: what its windows' blocks are, what each case of the body leaves in
  the accumulator and in the output block, the accumulator and the output block point by point (`outsAt18`: at k = 0 the
  accumulator restarts from zeros plus the product; at k = 1, 2, 3 it is the point before's plus the product; at k = 3 the
  output block is the accumulator), the region's invariant (the accumulator at `outsAt18`'s second component), the proof data,
  and the body's obligation at every point.
-/
import proofs.«158944_j64613488001249_1_alg».proof.Proof.RegKI18c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- An input window's current staging buffer holds its block at every point, for any proof data whose array is `V`'s and
    whose body leaves the block in place. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-! ## What each case leaves -/

/-- Case A's stores into the accumulator cover it. -/
theorem scover18_A (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond18_0 i) (hc1 : ¬cond18_1 i)
    (x0 : Vec F S1024x1024 .bf16) (x1 : Vec F S1024x512 .f32) (y : S1024x512.Idx) :
    ∃ pc ∈ (kernelRun18_A c i arg2 harg2 arg3 harg3 arg4 harg4 arg5 harg5 hc0 hc1 x0 x1).2.1, y ∈ pc.1.set :=
  View.cover_of_tiledL (kernelRun18_A c i arg2 harg2 arg3 harg3 arg4 harg4 arg5 harg5 hc0 hc1 x0 x1).2.1 S1024x512.size (by sl_kernel_rfl) y
/-- What case A leaves in the accumulator. -/
noncomputable def sout18_A (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond18_0 i) (hc1 : ¬cond18_1 i)
    (x0 : Vec F S1024x1024 .bf16) (x1 : Vec F S1024x512 .f32) : Vec F S1024x512 .f32 :=
  VS18.read (Elt F) (VS18.writes (Elt F) VS18.junk (kernelRun18_A c i arg2 harg2 arg3 harg3 arg4 harg4 arg5 harg5 hc0 hc1 x0 x1).2.1)

/-- Case B's store into the accumulator covers it. -/
theorem scover18_B (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond18_0 i) (hc1 : ¬cond18_1 i)
    (x0 : Vec F S1024x1024 .bf16) (x1 : Vec F S1024x512 .f32) (xs0 : Vec F S1024x512 .f32) (y : S1024x512.Idx) :
    ∃ pc ∈ (kernelRun18_B c i arg2 harg2 arg3 harg3 arg4 harg4 arg5 harg5 hc0 hc1 x0 x1 xs0).2.1, y ∈ pc.1.set :=
  View.cover_of_tiledL (kernelRun18_B c i arg2 harg2 arg3 harg3 arg4 harg4 arg5 harg5 hc0 hc1 x0 x1 xs0).2.1 S1024x512.size (by sl_kernel_rfl) y
/-- What case B leaves in the accumulator, over what the point before left. -/
noncomputable def sout18_B (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond18_0 i) (hc1 : ¬cond18_1 i)
    (x0 : Vec F S1024x1024 .bf16) (x1 : Vec F S1024x512 .f32) (xs0 : Vec F S1024x512 .f32) : Vec F S1024x512 .f32 :=
  VS18.read (Elt F) (VS18.writes (Elt F) VS18.junk (kernelRun18_B c i arg2 harg2 arg3 harg3 arg4 harg4 arg5 harg5 hc0 hc1 x0 x1 xs0).2.1)

/-- Case C's store into the output block covers it, and so does its store into the accumulator. -/
theorem cover18_C (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond18_0 i) (hc1 : cond18_1 i)
    (x0 : Vec F S1024x1024 .bf16) (x1 : Vec F S1024x512 .f32) (xs0 : Vec F S1024x512 .f32) (y : S1024x512.Idx) :
    ∃ pc ∈ (kernelRun18_C c i arg2 harg2 arg3 harg3 arg4 harg4 arg5 harg5 hc0 hc1 x0 x1 xs0).1, y ∈ pc.1.set :=
  View.cover_of_tiledL (kernelRun18_C c i arg2 harg2 arg3 harg3 arg4 harg4 arg5 harg5 hc0 hc1 x0 x1 xs0).1 S1024x512.size (by sl_kernel_rfl) y
theorem scover18_C (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond18_0 i) (hc1 : cond18_1 i)
    (x0 : Vec F S1024x1024 .bf16) (x1 : Vec F S1024x512 .f32) (xs0 : Vec F S1024x512 .f32) (y : S1024x512.Idx) :
    ∃ pc ∈ (kernelRun18_C c i arg2 harg2 arg3 harg3 arg4 harg4 arg5 harg5 hc0 hc1 x0 x1 xs0).2.1, y ∈ pc.1.set :=
  View.cover_of_tiledL (kernelRun18_C c i arg2 harg2 arg3 harg3 arg4 harg4 arg5 harg5 hc0 hc1 x0 x1 xs0).2.1 S1024x512.size (by sl_kernel_rfl) y
/-- What case C leaves in the output block, and in the accumulator. -/
noncomputable def out18_C (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond18_0 i) (hc1 : cond18_1 i)
    (x0 : Vec F S1024x1024 .bf16) (x1 : Vec F S1024x512 .f32) (xs0 : Vec F S1024x512 .f32) : Vec F S1024x512 .f32 :=
  VO18_2.read (Elt F) (VO18_2.writes (Elt F) VO18_2.junk (kernelRun18_C c i arg2 harg2 arg3 harg3 arg4 harg4 arg5 harg5 hc0 hc1 x0 x1 xs0).1)
noncomputable def sout18_C (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond18_0 i) (hc1 : cond18_1 i)
    (x0 : Vec F S1024x1024 .bf16) (x1 : Vec F S1024x512 .f32) (xs0 : Vec F S1024x512 .f32) : Vec F S1024x512 .f32 :=
  VS18.read (Elt F) (VS18.writes (Elt F) VS18.junk (kernelRun18_C c i arg2 harg2 arg3 harg3 arg4 harg4 arg5 harg5 hc0 hc1 x0 x1 xs0).2.1)

/-- Where the output block is idle nothing consults what it holds: a placeholder. -/
noncomputable def outIdle18 : Vec F S1024x512 .f32 := VO18_2.read (Elt F) (VO18_2.writes (Elt F) VO18_2.junk [])

/-! ## The conditions at a point, from t % 4 -/

theorem isFirst18 (t : Fin cfg18.N) (h : t.val % 4 = 0) : cond18_0 (grid18.coords t) := (hcond18_0 t).mpr h
theorem notFirst18 (t : Fin cfg18.N) (h : ¬t.val % 4 = 0) : ¬cond18_0 (grid18.coords t) := fun hc => h ((hcond18_0 t).mp hc)
theorem isLast18 (t : Fin cfg18.N) (h : t.val % 4 = 3) : cond18_1 (grid18.coords t) := (hcond18_1 t).mpr h
theorem notLast18 (t : Fin cfg18.N) (h : ¬t.val % 4 = 3) : ¬cond18_1 (grid18.coords t) := fun hc => h ((hcond18_1 t).mp hc)

/-! ## The accumulator and the output block, point by point -/

/-- After the body at position `n`: (the output block's buffer, the accumulator). -/
noncomputable def outsAt18 (c : Dev nD) : (n : ℕ) → n < cfg18.N → Vec F S1024x512 .f32 × Vec F S1024x512 .f32
  | 0, hn => (outIdle18, sout18_A c (grid18.coords ⟨0, hn⟩) (ms18_0 ⟨0, hn⟩) (hs18_0 ⟨0, hn⟩) (ms18_1 ⟨0, hn⟩) (hs18_1 ⟨0, hn⟩) (ms18_2 ⟨0, hn⟩) (hs18_2 ⟨0, hn⟩) scM18 (Memref.isWhole_whole _) (isFirst18 ⟨0, hn⟩ (Nat.zero_mod _)) (notLast18 ⟨0, hn⟩ (by simp)) (iblk18 V c 0 ⟨0, hn⟩) (iblk18 V c 1 ⟨0, hn⟩))
  | n + 1, hn =>
    if h0 : (n + 1) % 4 = 0 then
      (outIdle18, sout18_A c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) scM18 (Memref.isWhole_whole _) (isFirst18 ⟨n + 1, hn⟩ h0) (notLast18 ⟨n + 1, hn⟩ (by show ¬(n + 1) % 4 = 3; omega)) (iblk18 V c 0 ⟨n + 1, hn⟩) (iblk18 V c 1 ⟨n + 1, hn⟩))
    else if h3 : (n + 1) % 4 = 3 then
      (out18_C c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) scM18 (Memref.isWhole_whole _) (notFirst18 ⟨n + 1, hn⟩ h0) (isLast18 ⟨n + 1, hn⟩ h3) (iblk18 V c 0 ⟨n + 1, hn⟩) (iblk18 V c 1 ⟨n + 1, hn⟩) (outsAt18 c n (Nat.lt_of_succ_lt hn)).2,
       sout18_C c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) scM18 (Memref.isWhole_whole _) (notFirst18 ⟨n + 1, hn⟩ h0) (isLast18 ⟨n + 1, hn⟩ h3) (iblk18 V c 0 ⟨n + 1, hn⟩) (iblk18 V c 1 ⟨n + 1, hn⟩) (outsAt18 c n (Nat.lt_of_succ_lt hn)).2)
    else
      (outIdle18, sout18_B c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) scM18 (Memref.isWhole_whole _) (notFirst18 ⟨n + 1, hn⟩ h0) (notLast18 ⟨n + 1, hn⟩ h3) (iblk18 V c 0 ⟨n + 1, hn⟩) (iblk18 V c 1 ⟨n + 1, hn⟩) (outsAt18 c n (Nat.lt_of_succ_lt hn)).2)

/-- `outsAt18` at a point with k = 0. -/
theorem outsAt18_A (c : Dev nD) (t : Fin cfg18.N) (h0 : t.val % 4 = 0) :
    outsAt18 V c t.val t.isLt = (outIdle18, sout18_A c (grid18.coords t) (ms18_0 t) (hs18_0 t) (ms18_1 t) (hs18_1 t) (ms18_2 t) (hs18_2 t) scM18 (Memref.isWhole_whole _) (isFirst18 t h0) (notLast18 t (by omega)) (iblk18 V c 0 t) (iblk18 V c 1 t)) := by
  obtain ⟨n, hn⟩ := t
  cases n with
  | zero => rfl
  | succ n => exact (dif_pos h0).trans rfl

/-- `outsAt18` at a point with k = 1, 2: over what the point before left. -/
theorem outsAt18_B (c : Dev nD) (t : Fin cfg18.N) (h0 : ¬t.val % 4 = 0) (h3 : ¬t.val % 4 = 3) :
    outsAt18 V c t.val t.isLt = (outIdle18, sout18_B c (grid18.coords t) (ms18_0 t) (hs18_0 t) (ms18_1 t) (hs18_1 t) (ms18_2 t) (hs18_2 t) scM18 (Memref.isWhole_whole _) (notFirst18 t h0) (notLast18 t h3) (iblk18 V c 0 t) (iblk18 V c 1 t)
      (outsAt18 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt18` at a point with k = 3. -/
theorem outsAt18_C (c : Dev nD) (t : Fin cfg18.N) (h0 : ¬t.val % 4 = 0) (h3 : t.val % 4 = 3) :
    outsAt18 V c t.val t.isLt = (out18_C c (grid18.coords t) (ms18_0 t) (hs18_0 t) (ms18_1 t) (hs18_1 t) (ms18_2 t) (hs18_2 t) scM18 (Memref.isWhole_whole _) (notFirst18 t h0) (isLast18 t h3) (iblk18 V c 0 t) (iblk18 V c 1 t)
        (outsAt18 V c (t.val - 1) (Nat.lt_of_le_of_lt (Nat.sub_le _ _) t.isLt)).2,
      sout18_C c (grid18.coords t) (ms18_0 t) (hs18_0 t) (ms18_1 t) (hs18_1 t) (ms18_2 t) (hs18_2 t) scM18 (Memref.isWhole_whole _) (notFirst18 t h0) (isLast18 t h3) (iblk18 V c 0 t) (iblk18 V c 1 t)
        (outsAt18 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS18 (c : Dev nD) : (n : ℕ) → n ≤ cfg18.N → sProp 𝕄
  | 0, _ => Pipeline.ΦA spec18 c
  | n + 1, hn => iprop(iprop(owns (c : Thread nD τ) scM18 fullShare ((outsAt18 V c n hn).2) ∗ restBut18 c) ∗ (∃ r, prngReg c r))

theorem PhiS18_zero (c : Dev nD) (n : ℕ) (h : n ≤ cfg18.N) (hz : n = 0) : PhiS18 V c n h = Pipeline.ΦA spec18 c := by
  subst hz; rfl
theorem PhiS18_succ (c : Dev nD) (n : ℕ) (hn : n < cfg18.N) :
    PhiS18 V c (n + 1) hn = iprop(iprop(owns (c : Thread nD τ) scM18 fullShare ((outsAt18 V c n hn).2) ∗ restBut18 c) ∗ (∃ r, prngReg c r)) := rfl
theorem PhiS18_pos (c : Dev nD) (n : ℕ) (h : n ≤ cfg18.N) (hz : n ≠ 0) :
    PhiS18 V c n h = iprop(iprop(owns (c : Thread nD τ) scM18 fullShare ((outsAt18 V c (n - 1) (by omega)).2) ∗ restBut18 c) ∗ (∃ r, prngReg c r)) := by
  cases n with
  | zero => exact absurd rfl hz
  | succ n => rfl

/-! ## The proof data -/

/-- The region's proof data on core `c`: the arrays as the region finds them; after the body at point `t` each input's
    buffer at its block and the output's at `outsAt18`'s first component; the invariant `PhiS18`; nothing owed; full shares. -/
noncomputable def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => (outsAt18 V c t.val t.isLt).1
  Φ t := PhiS18 V c t.val (Nat.le_of_lt_succ t.isLt)
  q _ := fullShare
  owed _ := 0

theorem A_eq18 (c : Dev nD) (w : Fin cfg18.W) : (dat18 V c).A w = V c (Pipeline.arrRef spec18 w) := by
  dsimp only [dat18]
theorem PhiS18_castSucc (c : Dev nD) (t : Fin cfg18.N) :
    (dat18 V c).Φ t.castSucc = PhiS18 V c t.val (Nat.le_of_lt t.isLt) := by
  dsimp only [dat18]; simp only [Fin.coe_castSucc]
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = (outsAt18 V c t.val t.isLt).1 := by dsimp only [dat18]
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d

/-! ## The body's obligation -/

noncomputable def bodyPre18 (c : Dev nD) (t : Fin cfg18.N) : sProp 𝕄 :=
  iprop((dat18 V c).Φ t.castSucc ∗ (dat18 V c).owesAt () t.castSucc
    ∗ (∃ d, owns (c : Thread nD τ) (ms18_0 t) fullShare ((dat18 V c).before 0 t d))
    ∗ (∃ d, owns (c : Thread nD τ) (ms18_1 t) fullShare ((dat18 V c).before 1 t d))
    ∗ (∃ d, owns (c : Thread nD τ) (ms18_2 t) fullShare ((dat18 V c).before 2 t d)))

noncomputable def bodyPost18 (c : Dev nD) (t : Fin cfg18.N) : sProp 𝕄 :=
  iprop((dat18 V c).Φ t.succ ∗ (dat18 V c).owesAt () t.succ
    ∗ (dat18 V c).leavesExact 0 t
    ∗ (dat18 V c).leavesExact 1 t
    ∗ (dat18 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1]
  rw [show (dat18 V c).owesAt () t.succ = (dat18 V c).owesAt () t.castSucc from rfl]
  rw [show (dat18 V c).Φ t.succ = PhiS18 V c (t.val + 1) t.isLt from rfl, PhiS18_succ]
  rw [show (dat18 V c).leavesExact 0 t = owns (c : Thread nD τ) (ms18_0 t) fullShare ((dat18 V c).after 0 t) from by
    unfold Dat.leavesExact; rw [liveAt18_0 t], after18_0]
  rw [show (dat18 V c).leavesExact 1 t = owns (c : Thread nD τ) (ms18_1 t) fullShare ((dat18 V c).after 1 t) from by
    unfold Dat.leavesExact; rw [liveAt18_1 t], after18_1]
  by_cases h0 : t.val % 4 = 0
  · have h3 : ¬t.val % 4 = 3 := by omega
    rw [Dat.leavesExact_idle (dat18 V c) 2 t (idleAt18_2 t (notLast18 t h3)) (noFlush18_2 t (notLast18 t h3))]
    rw [outsAt18_A V c t h0]
    unfold sout18_A; (try dsimp only)
    by_cases hz : t.val = 0
    · rw [PhiS18_castSucc V c t, PhiS18_zero V c _ _ hz, PhiA18_eq]
      iintro ⟨⟨⟨HS0, Hrb⟩, Hg⟩, Ho, ⟨%d0, H0⟩, ⟨%d1, H1⟩, ⟨%d2, H2⟩⟩
      iapply ((kernelRun18_A c (grid18.coords t) _ _ _ _ _ _ _ _ (isFirst18 t h0) (notLast18 t (by omega)) (iblk18 V c 0 t) (iblk18 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover18_A c _ _ _ _ _ _ _ _ _ _ _ _ _)
          iexact Hrb
        iexact Hg
      isplitl [Ho]; · iexact Ho
      isplitl [H0]; · iexact H0
      isplitl [H1]; · iexact H1
      iexists _; iexact H2
    · rw [PhiS18_castSucc V c t, PhiS18_pos V c _ _ hz]
      iintro ⟨⟨⟨HS0, Hrb⟩, Hg⟩, Ho, ⟨%d0, H0⟩, ⟨%d1, H1⟩, ⟨%d2, H2⟩⟩
      iapply ((kernelRun18_A c (grid18.coords t) _ _ _ _ _ _ _ _ (isFirst18 t h0) (notLast18 t (by omega)) (iblk18 V c 0 t) (iblk18 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover18_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat18 V c).leavesExact 2 t = owns (c : Thread nD τ) (ms18_2 t) fullShare ((dat18 V c).after 2 t) from by
        unfold Dat.leavesExact; rw [liveAt18_2 t (isLast18 t h3)], after18_2]
      rw [outsAt18_C V c t h0 h3]
      unfold out18_C sout18_C; (try dsimp only)
      rw [PhiS18_castSucc V c t, PhiS18_pos V c _ _ hz]
      iintro ⟨⟨⟨HS0, Hrb⟩, Hg⟩, Ho, ⟨%d0, H0⟩, ⟨%d1, H1⟩, ⟨%d2, H2⟩⟩
      iapply ((kernelRun18_C c (grid18.coords t) _ _ _ _ _ _ _ _ (notFirst18 t h0) (isLast18 t h3) (iblk18 V c 0 t) (iblk18 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover18_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover18_C c _ _ _ _ _ _ _ _ _ _ _ _ _ _)
    · rw [Dat.leavesExact_idle (dat18 V c) 2 t (idleAt18_2 t (notLast18 t h3)) (noFlush18_2 t (notLast18 t h3))]
      rw [outsAt18_B V c t h0 h3]
      unfold sout18_B; (try dsimp only)
      rw [PhiS18_castSucc V c t, PhiS18_pos V c _ _ hz]
      iintro ⟨⟨⟨HS0, Hrb⟩, Hg⟩, Ho, ⟨%d0, H0⟩, ⟨%d1, H1⟩, ⟨%d2, H2⟩⟩
      iapply ((kernelRun18_B c (grid18.coords t) _ _ _ _ _ _ _ _ (notFirst18 t h0) (notLast18 t h3) (iblk18 V c 0 t) (iblk18 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover18_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation18 (c : Dev nD) : BodyObligation (dat18 (F := F) V c) (defs₀ (F := F)) Variants.none () Set.univ := fun t => by
  rw [bigSep_W18, bigSep_W18]
  exact sound_body18 V c t

/-- What the region is entered with is the invariant before the first point. -/
theorem hin18 (c : Dev nD) : Pipeline.ΦA spec18 c ⊢ (dat18 V c).Φ 0 := by
  rw [show (dat18 V c).Φ 0 = PhiS18 V c 0 (Nat.zero_le _) from rfl, PhiS18_zero V c 0 _ rfl]
  try exact Idealize.SL.BI.Entails.refl _

/-- After the last point the invariant gives the class's back: the accumulator's contents are forgotten. -/
theorem hout18 (c : Dev nD) : (dat18 V c).Φ (Fin.last cfg18.N) ⊢ Pipeline.ΦA spec18 c := by
  have hN : cfg18.N = 16 := N_18
  rw [show (dat18 V c).Φ (Fin.last cfg18.N) = PhiS18 V c (Fin.last cfg18.N).val (Nat.le_of_lt_succ (Fin.last cfg18.N).isLt) from rfl,
    PhiS18_pos V c _ _ (by rw [Fin.val_last]; omega), PhiA18_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI19a.lean ====
/- Laid out by: python3 scratch/layout_regions.py --template-region 1 --region 19 --program KernelIdeal --parts a,b,c, --out-dir proof/Proof
   from the hand-written text of region 1 (RegKI1a.lean): the same text, the region's number substituted. -/
/-
  Region 19 of @main (custom_call 19): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond19_0 (i : grid19.Coords) : Prop := (Scalar.cmpi .ne (Scalar.extui (Scalar.cmpi .eq (BitVec.ofNat 32 (i 1).val) 0#32)) 0#32) = 1#1
/-- It holds exactly at the points with t % 4 = 0. -/
theorem hcond19_0 : ∀ t : Fin cfg19.N, cond19_0 (grid19.coords t) ↔ t.val % 4 = 0 :=
  (by decide +kernel : ∀ t : Fin grid19.N, cond19_0 (grid19.coords t) ↔ t.val % 4 = 0)

/-- "k = 3": the second conditional's test. -/
abbrev cond19_1 (i : grid19.Coords) : Prop := k19_cond2 i = 1#1
/-- It holds exactly at the points with t % 4 = 3. -/
theorem hcond19_1 : ∀ t : Fin cfg19.N, cond19_1 (grid19.coords t) ↔ t.val % 4 = 3 :=
  (by decide +kernel : ∀ t : Fin grid19.N, cond19_1 (grid19.coords t) ↔ t.val % 4 = 3)

/-! ## Where the windows are idle, and where the output is written back -/

/-- The two input windows are never idle. -/
theorem liveAt19_0 : ∀ t : Fin cfg19.N, cfg19.idle 0 (grid19.coords t) = false := by decide +kernel
theorem liveAt19_1 : ∀ t : Fin cfg19.N, cfg19.idle 1 (grid19.coords t) = false := by decide +kernel
/-- Where k ≠ 3 the output window is idle (the body stores nothing into it) and is not written back. -/
theorem idleAt19_2 : ∀ t : Fin cfg19.N, ¬cond19_1 (grid19.coords t) → cfg19.idle 2 (grid19.coords t) = true := by decide +kernel
theorem noFlush19_2 : ∀ t : Fin cfg19.N, ¬cond19_1 (grid19.coords t) → (cfg19.win 2).flush t = false := by decide +kernel
/-- Where k = 3 it is live. -/
theorem liveAt19_2 : ∀ t : Fin cfg19.N, cond19_1 (grid19.coords t) → cfg19.idle 2 (grid19.coords t) = false := by decide +kernel

/-! ## The staging memrefs at a point, and the scratch -/

/-- One staging buffer of the output window, through which its contents are stated. -/
abbrev VO19_2 : View sig .tc .vmem S1024x512 .f32 := (Memref.whole cc19_stg2_0 : Memref sig .tc .vmem S1024x512 .f32).view
abbrev ms19_0 (t : Fin cfg19.N) : Memref sig .tc .vmem S1024x1024 .bf16 := win19_0.stage (cfg19.slots t 0)
abbrev hs19_0 (t : Fin cfg19.N) : (ms19_0 t).IsWhole := hstage19_0 ((cfg19.slots t 0).cast nbuf19_0)
abbrev ms19_1 (t : Fin cfg19.N) : Memref sig .tc .vmem S1024x512 .f32 := win19_1.stage (cfg19.slots t 1)
abbrev hs19_1 (t : Fin cfg19.N) : (ms19_1 t).IsWhole := hstage19_1 ((cfg19.slots t 1).cast nbuf19_1)
abbrev ms19_2 (t : Fin cfg19.N) : Memref sig .tc .vmem S1024x512 .f32 := win19_2.stage (cfg19.slots t 2)
abbrev hs19_2 (t : Fin cfg19.N) : (ms19_2 t).IsWhole := hstage19_2 ((cfg19.slots t 2).cast nbuf19_2)
/-- The accumulator: a whole scoped buffer of the kernel's own. -/
abbrev scM19 : Memref sig .tc .vmem S1024x512 .f32 := Memref.whole cc19_scratch0
abbrev VS19 : View sig .tc .vmem S1024x512 .f32 := scM19.view

/-- The other scoped buffers of the core, none of which this region touches. -/
abbrev restBut19 (c : Dev nD) : sProp 𝕄 :=
  Pipeline.scopedRestBut (Ix := Unit) (Name := ℕ) (U := UR sig nD τ) (Lvl := ℕ) (Val := Elt F) spec19 c [cc19_scratch0]

/-- The region's invariant before its first point: the accumulator at something, the other scoped buffers, the generator register. -/
theorem PhiA19_eq (c : Dev nD) :
    (Pipeline.ΦA spec19 c : sProp 𝕄)
      = iprop(iprop((∃ d, owns (c : Thread nD τ) scM19 fullShare d) ∗ restBut19 c) ∗ (∃ r, prngReg c r)) := by
  unfold Pipeline.ΦA; rw [scopedRest19_split]; simp only [scM19, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun19_A (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond19_0 i) (hc1 : ¬cond19_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc19__matmul_kernel i arg2 harg2 arg3 harg3 arg4 harg4 arg5 harg5) K } := by
  refine ⟨[], ?_, fun xi2 E K => ?run⟩
  case run =>
    simp only [cc19__matmul_kernel_eq_skeleton]; unfold cc19__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI19b.lean ====
/- Laid out by: python3 scratch/layout_regions.py --template-region 1 --region 19 --program KernelIdeal --parts a,b,c, --out-dir proof/Proof
   from the hand-written text of region 1 (RegKI1b.lean): the same text, the region's number substituted. -/
/-
  Region 19, case B (k = 1, 2): the body's run. Neither conditional is taken: the product of the two blocks is added to what
  the point before left in the accumulator; the output block is not touched.
-/
import proofs.«158944_j64613488001249_1_alg».proof.Proof.RegKI19a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun19_B (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond19_0 i) (hc1 : ¬cond19_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc19__matmul_kernel i arg2 harg2 arg3 harg3 arg4 harg4 arg5 harg5) K } := by
  refine ⟨[], ?_, fun xi2 E K => ?run⟩
  case run =>
    simp only [cc19__matmul_kernel_eq_skeleton]; unfold cc19__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI19c.lean ====
/- Laid out by: python3 scratch/layout_regions.py --template-region 1 --region 19 --program KernelIdeal --parts a,b,c, --out-dir proof/Proof
   from the hand-written text of region 1 (RegKI1c.lean): the same text, the region's number substituted. -/
/-
  Region 19, case C (k = 3): the body's run. The product is added to the accumulator as in case B, and then the second
  conditional copies the accumulator over the whole output block.
-/
import proofs.«158944_j64613488001249_1_alg».proof.Proof.RegKI19b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun19_C (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond19_0 i) (hc1 : cond19_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc19__matmul_kernel i arg2 harg2 arg3 harg3 arg4 harg4 arg5 harg5) K } := by
  refine ⟨?_, ?_, fun E K => ?run⟩
  case run =>
    simp only [cc19__matmul_kernel_eq_skeleton]; unfold cc19__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI19.lean ====
/- Laid out by: python3 scratch/layout_regions.py --template-region 1 --region 19 --program KernelIdeal --parts a,b,c, --out-dir proof/Proof
   from the hand-written text of region 1 (RegKI1.lean): the same text, the region's number substituted. -/
/-
  Region 19 of @main, entered from the buffer contents `V`: what its windows' blocks are, what each case of the body leaves in
  the accumulator and in the output block, the accumulator and the output block point by point (`outsAt19`: at k = 0 the
  accumulator restarts from zeros plus the product; at k = 1, 2, 3 it is the point before's plus the product; at k = 3 the
  output block is the accumulator), the region's invariant (the accumulator at `outsAt19`'s second component), the proof data,
  and the body's obligation at every point.
-/
import proofs.«158944_j64613488001249_1_alg».proof.Proof.RegKI19c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- An input window's current staging buffer holds its block at every point, for any proof data whose array is `V`'s and
    whose body leaves the block in place. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-! ## What each case leaves -/

/-- Case A's stores into the accumulator cover it. -/
theorem scover19_A (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond19_0 i) (hc1 : ¬cond19_1 i)
    (x0 : Vec F S1024x1024 .bf16) (x1 : Vec F S1024x512 .f32) (y : S1024x512.Idx) :
    ∃ pc ∈ (kernelRun19_A c i arg2 harg2 arg3 harg3 arg4 harg4 arg5 harg5 hc0 hc1 x0 x1).2.1, y ∈ pc.1.set :=
  View.cover_of_tiledL (kernelRun19_A c i arg2 harg2 arg3 harg3 arg4 harg4 arg5 harg5 hc0 hc1 x0 x1).2.1 S1024x512.size (by sl_kernel_rfl) y
/-- What case A leaves in the accumulator. -/
noncomputable def sout19_A (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond19_0 i) (hc1 : ¬cond19_1 i)
    (x0 : Vec F S1024x1024 .bf16) (x1 : Vec F S1024x512 .f32) : Vec F S1024x512 .f32 :=
  VS19.read (Elt F) (VS19.writes (Elt F) VS19.junk (kernelRun19_A c i arg2 harg2 arg3 harg3 arg4 harg4 arg5 harg5 hc0 hc1 x0 x1).2.1)

/-- Case B's store into the accumulator covers it. -/
theorem scover19_B (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond19_0 i) (hc1 : ¬cond19_1 i)
    (x0 : Vec F S1024x1024 .bf16) (x1 : Vec F S1024x512 .f32) (xs0 : Vec F S1024x512 .f32) (y : S1024x512.Idx) :
    ∃ pc ∈ (kernelRun19_B c i arg2 harg2 arg3 harg3 arg4 harg4 arg5 harg5 hc0 hc1 x0 x1 xs0).2.1, y ∈ pc.1.set :=
  View.cover_of_tiledL (kernelRun19_B c i arg2 harg2 arg3 harg3 arg4 harg4 arg5 harg5 hc0 hc1 x0 x1 xs0).2.1 S1024x512.size (by sl_kernel_rfl) y
/-- What case B leaves in the accumulator, over what the point before left. -/
noncomputable def sout19_B (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond19_0 i) (hc1 : ¬cond19_1 i)
    (x0 : Vec F S1024x1024 .bf16) (x1 : Vec F S1024x512 .f32) (xs0 : Vec F S1024x512 .f32) : Vec F S1024x512 .f32 :=
  VS19.read (Elt F) (VS19.writes (Elt F) VS19.junk (kernelRun19_B c i arg2 harg2 arg3 harg3 arg4 harg4 arg5 harg5 hc0 hc1 x0 x1 xs0).2.1)

/-- Case C's store into the output block covers it, and so does its store into the accumulator. -/
theorem cover19_C (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond19_0 i) (hc1 : cond19_1 i)
    (x0 : Vec F S1024x1024 .bf16) (x1 : Vec F S1024x512 .f32) (xs0 : Vec F S1024x512 .f32) (y : S1024x512.Idx) :
    ∃ pc ∈ (kernelRun19_C c i arg2 harg2 arg3 harg3 arg4 harg4 arg5 harg5 hc0 hc1 x0 x1 xs0).1, y ∈ pc.1.set :=
  View.cover_of_tiledL (kernelRun19_C c i arg2 harg2 arg3 harg3 arg4 harg4 arg5 harg5 hc0 hc1 x0 x1 xs0).1 S1024x512.size (by sl_kernel_rfl) y
theorem scover19_C (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond19_0 i) (hc1 : cond19_1 i)
    (x0 : Vec F S1024x1024 .bf16) (x1 : Vec F S1024x512 .f32) (xs0 : Vec F S1024x512 .f32) (y : S1024x512.Idx) :
    ∃ pc ∈ (kernelRun19_C c i arg2 harg2 arg3 harg3 arg4 harg4 arg5 harg5 hc0 hc1 x0 x1 xs0).2.1, y ∈ pc.1.set :=
  View.cover_of_tiledL (kernelRun19_C c i arg2 harg2 arg3 harg3 arg4 harg4 arg5 harg5 hc0 hc1 x0 x1 xs0).2.1 S1024x512.size (by sl_kernel_rfl) y
/-- What case C leaves in the output block, and in the accumulator. -/
noncomputable def out19_C (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond19_0 i) (hc1 : cond19_1 i)
    (x0 : Vec F S1024x1024 .bf16) (x1 : Vec F S1024x512 .f32) (xs0 : Vec F S1024x512 .f32) : Vec F S1024x512 .f32 :=
  VO19_2.read (Elt F) (VO19_2.writes (Elt F) VO19_2.junk (kernelRun19_C c i arg2 harg2 arg3 harg3 arg4 harg4 arg5 harg5 hc0 hc1 x0 x1 xs0).1)
noncomputable def sout19_C (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond19_0 i) (hc1 : cond19_1 i)
    (x0 : Vec F S1024x1024 .bf16) (x1 : Vec F S1024x512 .f32) (xs0 : Vec F S1024x512 .f32) : Vec F S1024x512 .f32 :=
  VS19.read (Elt F) (VS19.writes (Elt F) VS19.junk (kernelRun19_C c i arg2 harg2 arg3 harg3 arg4 harg4 arg5 harg5 hc0 hc1 x0 x1 xs0).2.1)

/-- Where the output block is idle nothing consults what it holds: a placeholder. -/
noncomputable def outIdle19 : Vec F S1024x512 .f32 := VO19_2.read (Elt F) (VO19_2.writes (Elt F) VO19_2.junk [])

/-! ## The conditions at a point, from t % 4 -/

theorem isFirst19 (t : Fin cfg19.N) (h : t.val % 4 = 0) : cond19_0 (grid19.coords t) := (hcond19_0 t).mpr h
theorem notFirst19 (t : Fin cfg19.N) (h : ¬t.val % 4 = 0) : ¬cond19_0 (grid19.coords t) := fun hc => h ((hcond19_0 t).mp hc)
theorem isLast19 (t : Fin cfg19.N) (h : t.val % 4 = 3) : cond19_1 (grid19.coords t) := (hcond19_1 t).mpr h
theorem notLast19 (t : Fin cfg19.N) (h : ¬t.val % 4 = 3) : ¬cond19_1 (grid19.coords t) := fun hc => h ((hcond19_1 t).mp hc)

/-! ## The accumulator and the output block, point by point -/

/-- After the body at position `n`: (the output block's buffer, the accumulator). -/
noncomputable def outsAt19 (c : Dev nD) : (n : ℕ) → n < cfg19.N → Vec F S1024x512 .f32 × Vec F S1024x512 .f32
  | 0, hn => (outIdle19, sout19_A c (grid19.coords ⟨0, hn⟩) (ms19_0 ⟨0, hn⟩) (hs19_0 ⟨0, hn⟩) (ms19_1 ⟨0, hn⟩) (hs19_1 ⟨0, hn⟩) (ms19_2 ⟨0, hn⟩) (hs19_2 ⟨0, hn⟩) scM19 (Memref.isWhole_whole _) (isFirst19 ⟨0, hn⟩ (Nat.zero_mod _)) (notLast19 ⟨0, hn⟩ (by simp)) (iblk19 V c 0 ⟨0, hn⟩) (iblk19 V c 1 ⟨0, hn⟩))
  | n + 1, hn =>
    if h0 : (n + 1) % 4 = 0 then
      (outIdle19, sout19_A c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19 (Memref.isWhole_whole _) (isFirst19 ⟨n + 1, hn⟩ h0) (notLast19 ⟨n + 1, hn⟩ (by show ¬(n + 1) % 4 = 3; omega)) (iblk19 V c 0 ⟨n + 1, hn⟩) (iblk19 V c 1 ⟨n + 1, hn⟩))
    else if h3 : (n + 1) % 4 = 3 then
      (out19_C c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19 (Memref.isWhole_whole _) (notFirst19 ⟨n + 1, hn⟩ h0) (isLast19 ⟨n + 1, hn⟩ h3) (iblk19 V c 0 ⟨n + 1, hn⟩) (iblk19 V c 1 ⟨n + 1, hn⟩) (outsAt19 c n (Nat.lt_of_succ_lt hn)).2,
       sout19_C c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19 (Memref.isWhole_whole _) (notFirst19 ⟨n + 1, hn⟩ h0) (isLast19 ⟨n + 1, hn⟩ h3) (iblk19 V c 0 ⟨n + 1, hn⟩) (iblk19 V c 1 ⟨n + 1, hn⟩) (outsAt19 c n (Nat.lt_of_succ_lt hn)).2)
    else
      (outIdle19, sout19_B c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19 (Memref.isWhole_whole _) (notFirst19 ⟨n + 1, hn⟩ h0) (notLast19 ⟨n + 1, hn⟩ h3) (iblk19 V c 0 ⟨n + 1, hn⟩) (iblk19 V c 1 ⟨n + 1, hn⟩) (outsAt19 c n (Nat.lt_of_succ_lt hn)).2)

/-- `outsAt19` at a point with k = 0. -/
theorem outsAt19_A (c : Dev nD) (t : Fin cfg19.N) (h0 : t.val % 4 = 0) :
    outsAt19 V c t.val t.isLt = (outIdle19, sout19_A c (grid19.coords t) (ms19_0 t) (hs19_0 t) (ms19_1 t) (hs19_1 t) (ms19_2 t) (hs19_2 t) scM19 (Memref.isWhole_whole _) (isFirst19 t h0) (notLast19 t (by omega)) (iblk19 V c 0 t) (iblk19 V c 1 t)) := by
  obtain ⟨n, hn⟩ := t
  cases n with
  | zero => rfl
  | succ n => exact (dif_pos h0).trans rfl

/-- `outsAt19` at a point with k = 1, 2: over what the point before left. -/
theorem outsAt19_B (c : Dev nD) (t : Fin cfg19.N) (h0 : ¬t.val % 4 = 0) (h3 : ¬t.val % 4 = 3) :
    outsAt19 V c t.val t.isLt = (outIdle19, sout19_B c (grid19.coords t) (ms19_0 t) (hs19_0 t) (ms19_1 t) (hs19_1 t) (ms19_2 t) (hs19_2 t) scM19 (Memref.isWhole_whole _) (notFirst19 t h0) (notLast19 t h3) (iblk19 V c 0 t) (iblk19 V c 1 t)
      (outsAt19 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt19` at a point with k = 3. -/
theorem outsAt19_C (c : Dev nD) (t : Fin cfg19.N) (h0 : ¬t.val % 4 = 0) (h3 : t.val % 4 = 3) :
    outsAt19 V c t.val t.isLt = (out19_C c (grid19.coords t) (ms19_0 t) (hs19_0 t) (ms19_1 t) (hs19_1 t) (ms19_2 t) (hs19_2 t) scM19 (Memref.isWhole_whole _) (notFirst19 t h0) (isLast19 t h3) (iblk19 V c 0 t) (iblk19 V c 1 t)
        (outsAt19 V c (t.val - 1) (Nat.lt_of_le_of_lt (Nat.sub_le _ _) t.isLt)).2,
      sout19_C c (grid19.coords t) (ms19_0 t) (hs19_0 t) (ms19_1 t) (hs19_1 t) (ms19_2 t) (hs19_2 t) scM19 (Memref.isWhole_whole _) (notFirst19 t h0) (isLast19 t h3) (iblk19 V c 0 t) (iblk19 V c 1 t)
        (outsAt19 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS19 (c : Dev nD) : (n : ℕ) → n ≤ cfg19.N → sProp 𝕄
  | 0, _ => Pipeline.ΦA spec19 c
  | n + 1, hn => iprop(iprop(owns (c : Thread nD τ) scM19 fullShare ((outsAt19 V c n hn).2) ∗ restBut19 c) ∗ (∃ r, prngReg c r))

theorem PhiS19_zero (c : Dev nD) (n : ℕ) (h : n ≤ cfg19.N) (hz : n = 0) : PhiS19 V c n h = Pipeline.ΦA spec19 c := by
  subst hz; rfl
theorem PhiS19_succ (c : Dev nD) (n : ℕ) (hn : n < cfg19.N) :
    PhiS19 V c (n + 1) hn = iprop(iprop(owns (c : Thread nD τ) scM19 fullShare ((outsAt19 V c n hn).2) ∗ restBut19 c) ∗ (∃ r, prngReg c r)) := rfl
theorem PhiS19_pos (c : Dev nD) (n : ℕ) (h : n ≤ cfg19.N) (hz : n ≠ 0) :
    PhiS19 V c n h = iprop(iprop(owns (c : Thread nD τ) scM19 fullShare ((outsAt19 V c (n - 1) (by omega)).2) ∗ restBut19 c) ∗ (∃ r, prngReg c r)) := by
  cases n with
  | zero => exact absurd rfl hz
  | succ n => rfl

/-! ## The proof data -/

/-- The region's proof data on core `c`: the arrays as the region finds them; after the body at point `t` each input's
    buffer at its block and the output's at `outsAt19`'s first component; the invariant `PhiS19`; nothing owed; full shares. -/
noncomputable def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => (outsAt19 V c t.val t.isLt).1
  Φ t := PhiS19 V c t.val (Nat.le_of_lt_succ t.isLt)
  q _ := fullShare
  owed _ := 0

theorem A_eq19 (c : Dev nD) (w : Fin cfg19.W) : (dat19 V c).A w = V c (Pipeline.arrRef spec19 w) := by
  dsimp only [dat19]
theorem PhiS19_castSucc (c : Dev nD) (t : Fin cfg19.N) :
    (dat19 V c).Φ t.castSucc = PhiS19 V c t.val (Nat.le_of_lt t.isLt) := by
  dsimp only [dat19]; simp only [Fin.coe_castSucc]
theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = (outsAt19 V c t.val t.isLt).1 := by dsimp only [dat19]
theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d

/-! ## The body's obligation -/

noncomputable def bodyPre19 (c : Dev nD) (t : Fin cfg19.N) : sProp 𝕄 :=
  iprop((dat19 V c).Φ t.castSucc ∗ (dat19 V c).owesAt () t.castSucc
    ∗ (∃ d, owns (c : Thread nD τ) (ms19_0 t) fullShare ((dat19 V c).before 0 t d))
    ∗ (∃ d, owns (c : Thread nD τ) (ms19_1 t) fullShare ((dat19 V c).before 1 t d))
    ∗ (∃ d, owns (c : Thread nD τ) (ms19_2 t) fullShare ((dat19 V c).before 2 t d)))

noncomputable def bodyPost19 (c : Dev nD) (t : Fin cfg19.N) : sProp 𝕄 :=
  iprop((dat19 V c).Φ t.succ ∗ (dat19 V c).owesAt () t.succ
    ∗ (dat19 V c).leavesExact 0 t
    ∗ (dat19 V c).leavesExact 1 t
    ∗ (dat19 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1]
  rw [show (dat19 V c).owesAt () t.succ = (dat19 V c).owesAt () t.castSucc from rfl]
  rw [show (dat19 V c).Φ t.succ = PhiS19 V c (t.val + 1) t.isLt from rfl, PhiS19_succ]
  rw [show (dat19 V c).leavesExact 0 t = owns (c : Thread nD τ) (ms19_0 t) fullShare ((dat19 V c).after 0 t) from by
    unfold Dat.leavesExact; rw [liveAt19_0 t], after19_0]
  rw [show (dat19 V c).leavesExact 1 t = owns (c : Thread nD τ) (ms19_1 t) fullShare ((dat19 V c).after 1 t) from by
    unfold Dat.leavesExact; rw [liveAt19_1 t], after19_1]
  by_cases h0 : t.val % 4 = 0
  · have h3 : ¬t.val % 4 = 3 := by omega
    rw [Dat.leavesExact_idle (dat19 V c) 2 t (idleAt19_2 t (notLast19 t h3)) (noFlush19_2 t (notLast19 t h3))]
    rw [outsAt19_A V c t h0]
    unfold sout19_A; (try dsimp only)
    by_cases hz : t.val = 0
    · rw [PhiS19_castSucc V c t, PhiS19_zero V c _ _ hz, PhiA19_eq]
      iintro ⟨⟨⟨HS0, Hrb⟩, Hg⟩, Ho, ⟨%d0, H0⟩, ⟨%d1, H1⟩, ⟨%d2, H2⟩⟩
      iapply ((kernelRun19_A c (grid19.coords t) _ _ _ _ _ _ _ _ (isFirst19 t h0) (notLast19 t (by omega)) (iblk19 V c 0 t) (iblk19 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover19_A c _ _ _ _ _ _ _ _ _ _ _ _ _)
          iexact Hrb
        iexact Hg
      isplitl [Ho]; · iexact Ho
      isplitl [H0]; · iexact H0
      isplitl [H1]; · iexact H1
      iexists _; iexact H2
    · rw [PhiS19_castSucc V c t, PhiS19_pos V c _ _ hz]
      iintro ⟨⟨⟨HS0, Hrb⟩, Hg⟩, Ho, ⟨%d0, H0⟩, ⟨%d1, H1⟩, ⟨%d2, H2⟩⟩
      iapply ((kernelRun19_A c (grid19.coords t) _ _ _ _ _ _ _ _ (isFirst19 t h0) (notLast19 t (by omega)) (iblk19 V c 0 t) (iblk19 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover19_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat19 V c).leavesExact 2 t = owns (c : Thread nD τ) (ms19_2 t) fullShare ((dat19 V c).after 2 t) from by
        unfold Dat.leavesExact; rw [liveAt19_2 t (isLast19 t h3)], after19_2]
      rw [outsAt19_C V c t h0 h3]
      unfold out19_C sout19_C; (try dsimp only)
      rw [PhiS19_castSucc V c t, PhiS19_pos V c _ _ hz]
      iintro ⟨⟨⟨HS0, Hrb⟩, Hg⟩, Ho, ⟨%d0, H0⟩, ⟨%d1, H1⟩, ⟨%d2, H2⟩⟩
      iapply ((kernelRun19_C c (grid19.coords t) _ _ _ _ _ _ _ _ (notFirst19 t h0) (isLast19 t h3) (iblk19 V c 0 t) (iblk19 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover19_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover19_C c _ _ _ _ _ _ _ _ _ _ _ _ _ _)
    · rw [Dat.leavesExact_idle (dat19 V c) 2 t (idleAt19_2 t (notLast19 t h3)) (noFlush19_2 t (notLast19 t h3))]
      rw [outsAt19_B V c t h0 h3]
      unfold sout19_B; (try dsimp only)
      rw [PhiS19_castSucc V c t, PhiS19_pos V c _ _ hz]
      iintro ⟨⟨⟨HS0, Hrb⟩, Hg⟩, Ho, ⟨%d0, H0⟩, ⟨%d1, H1⟩, ⟨%d2, H2⟩⟩
      iapply ((kernelRun19_B c (grid19.coords t) _ _ _ _ _ _ _ _ (notFirst19 t h0) (notLast19 t h3) (iblk19 V c 0 t) (iblk19 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover19_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation19 (c : Dev nD) : BodyObligation (dat19 (F := F) V c) (defs₀ (F := F)) Variants.none () Set.univ := fun t => by
  rw [bigSep_W19, bigSep_W19]
  exact sound_body19 V c t

/-- What the region is entered with is the invariant before the first point. -/
theorem hin19 (c : Dev nD) : Pipeline.ΦA spec19 c ⊢ (dat19 V c).Φ 0 := by
  rw [show (dat19 V c).Φ 0 = PhiS19 V c 0 (Nat.zero_le _) from rfl, PhiS19_zero V c 0 _ rfl]
  try exact Idealize.SL.BI.Entails.refl _

/-- After the last point the invariant gives the class's back: the accumulator's contents are forgotten. -/
theorem hout19 (c : Dev nD) : (dat19 V c).Φ (Fin.last cfg19.N) ⊢ Pipeline.ΦA spec19 c := by
  have hN : cfg19.N = 16 := N_19
  rw [show (dat19 V c).Φ (Fin.last cfg19.N) = PhiS19 V c (Fin.last cfg19.N).val (Nat.le_of_lt_succ (Fin.last cfg19.N).isLt) from rfl,
    PhiS19_pos V c _ _ (by rw [Fin.val_last]; omega), PhiA19_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI20a.lean ====
/- Laid out by: python3 scratch/layout_grid41.py --template-region 0 --region 20 --program KernelIdeal --parts a, --shapes S1024x128=S1024x512,S128x512=S512x512
   from the hand-written text of region 0 (RegKI0a.lean): the same text, the region's number, block shapes substituted. -/
/- The region of KernelIdeal's @main that runs `cc20__matmul_kernel` (pipeline `cfg20`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond20_0 (i : grid20.Coords) : Prop :=
  (Scalar.cmpi .ne (Scalar.extui (Scalar.cmpi .eq (BitVec.ofNat 32 (i 1).val) 0#32)) 0#32) = 1#1
/-- True at every point: the reduction axis has one step. -/
theorem hcond20_0 : ∀ t : Fin cfg20.N, cond20_0 (grid20.coords t) :=
  (by decide +kernel : ∀ t : Fin grid20.N, cond20_0 (grid20.coords t))

/-- "This is the last reduction step" (the guard of the copy to the output block). -/
abbrev cond20_1 (i : grid20.Coords) : Prop := k20_cond2 i = 1#1
/-- True at every point, for the same reason. -/
theorem hcond20_1 : ∀ t : Fin cfg20.N, cond20_1 (grid20.coords t) :=
  (by decide +kernel : ∀ t : Fin grid20.N, cond20_1 (grid20.coords t))

/-! ## No window is idle anywhere -/

theorem liveAt20_0 : ∀ t : Fin cfg20.N, cfg20.idle 0 (grid20.coords t) = false := by decide +kernel
theorem liveAt20_1 : ∀ t : Fin cfg20.N, cfg20.idle 1 (grid20.coords t) = false := by decide +kernel
/-- The output window is stored at every point (the copy's guard holds everywhere). -/
theorem liveAt20_2 : ∀ t : Fin cfg20.N, cfg20.idle 2 (grid20.coords t) = false := by decide +kernel

/-! ## The memrefs the body is called on -/

/-- One staging buffer of the output window, through which its contents are stated (any whole view of the shape reads the
    same pieces back the same way). -/
abbrev VO20_2 : View sig .tc .vmem S1024x512 .f32 := (Memref.whole cc20_stg2_0 : Memref sig .tc .vmem S1024x512 .f32).view
/-- Each window's current staging memref at point `t`, spelt as the pipeline passes it, with its wholeness. -/
abbrev ms20_0 (t : Fin cfg20.N) : Memref sig .tc .vmem S1024x512 .f32 := win20_0.stage (cfg20.slots t 0)
abbrev hs20_0 (t : Fin cfg20.N) : (ms20_0 t).IsWhole := hstage20_0 ((cfg20.slots t 0).cast nbuf20_0)
abbrev ms20_1 (t : Fin cfg20.N) : Memref sig .tc .vmem S512x512 .bf16 := win20_1.stage (cfg20.slots t 1)
abbrev hs20_1 (t : Fin cfg20.N) : (ms20_1 t).IsWhole := hstage20_1 ((cfg20.slots t 1).cast nbuf20_1)
abbrev ms20_2 (t : Fin cfg20.N) : Memref sig .tc .vmem S1024x512 .f32 := win20_2.stage (cfg20.slots t 2)
abbrev hs20_2 (t : Fin cfg20.N) : (ms20_2 t).IsWhole := hstage20_2 ((cfg20.slots t 2).cast nbuf20_2)
/-- The accumulator: a whole scoped buffer of the kernel's own, passed beside the windows. -/
abbrev scM20_0 : Memref sig .tc .vmem S1024x512 .f32 := Memref.whole cc20_scratch0
abbrev VS20_0 : View sig .tc .vmem S1024x512 .f32 := scM20_0.view

/-- The region invariant with the accumulator taken out of the scoped rest: the accumulator owned at some contents, every
    other scoped buffer unopened, and the generator register. -/
theorem PhiA20_eq (c : Dev nD) :
    (Pipeline.ΦA spec20 c : sProp 𝕄)
      = iprop(iprop(iprop((∃ d, owns (c : Thread nD τ) scM20_0 fullShare d))
            ∗ Pipeline.scopedRestBut (Ix := Unit) (Name := ℕ) (U := UR sig nD τ) (Lvl := ℕ) (Val := Elt F) spec20 c [cc20_scratch0])
          ∗ (∃ r, prngReg c r)) := by
  unfold Pipeline.ΦA; rw [scopedRest20_split]; simp only [scM20_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun20 (c : Dev nD) (i : grid20.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond20_0 i) (hlast : cond20_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc20__matmul_kernel i arg2 harg2 arg3 harg3 arg4 harg4 arg5 harg5) K } := by
  refine ⟨?_, ?_, fun E K => ?run⟩
  case run =>
    simp only [cc20__matmul_kernel_eq_skeleton]; unfold cc20__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.KernelIdeal.Hand

end
-- ==== Proof.RegKI20.lean ====
/- Laid out by: python3 scratch/layout_grid41.py --template-region 0 --region 20 --program KernelIdeal --parts a, --shapes S1024x128=S1024x512,S128x512=S512x512
   from the hand-written text of region 0 (RegKI0.lean): the same text, the region's number, block shapes substituted. -/
/- The region of KernelIdeal's @main that runs `cc20__matmul_kernel` (pipeline `cfg20`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegKI20a
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-! ## What the case leaves, as pieces read back -/

/-- The output's pieces tile its block (one whole-block store). -/
theorem cover20_2 (c : Dev nD) (i : grid20.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond20_0 i) (hlast : cond20_1 i) (xa : Vec F S1024x512 .f32) (xb : Vec F S512x512 .bf16) (y : S1024x512.Idx) :
    ∃ pc ∈ (kernelRun20 c i arg2 harg2 arg3 harg3 arg4 harg4 arg5 harg5 hfirst hlast xa xb).1, y ∈ pc.1.set :=
  View.cover_of_tiledL (kernelRun20 c i arg2 harg2 arg3 harg3 arg4 harg4 arg5 harg5 hfirst hlast xa xb).1 S1024x512.size (by sl_kernel_rfl) y

/-- What the case leaves in the output's staging buffer: its pieces read back over junk. -/
noncomputable def out20_2 (c : Dev nD) (i : grid20.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond20_0 i) (hlast : cond20_1 i) (xa : Vec F S1024x512 .f32) (xb : Vec F S512x512 .bf16) : Vec F S1024x512 .f32 :=
  VO20_2.read (Elt F) (VO20_2.writes (Elt F) VO20_2.junk (kernelRun20 c i arg2 harg2 arg3 harg3 arg4 harg4 arg5 harg5 hfirst hlast xa xb).1)

/-- What the case leaves in the accumulator: its pieces read back over junk. -/
noncomputable def sout20_0 (c : Dev nD) (i : grid20.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond20_0 i) (hlast : cond20_1 i) (xa : Vec F S1024x512 .f32) (xb : Vec F S512x512 .bf16) : Vec F S1024x512 .f32 :=
  VS20_0.read (Elt F) (VS20_0.writes (Elt F) VS20_0.junk (kernelRun20 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout20_0_eq (c : Dev nD) (i : grid20.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond20_0 i) (hlast : cond20_1 i) (xa : Vec F S1024x512 .f32) (xb : Vec F S512x512 .bf16) :
    sout20_0 c i arg2 harg2 arg3 harg3 arg4 harg4 arg5 harg5 hfirst hlast xa xb = k20_pay2 xa xb (k20_pay1 (F := F)) := by
  unfold sout20_0
  rw [View.read_writes_junk_eq_canon]
  unfold kernelRun20
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out20_2_eq (c : Dev nD) (i : grid20.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond20_0 i) (hlast : cond20_1 i) (xa : Vec F S1024x512 .f32) (xb : Vec F S512x512 .bf16) :
    out20_2 c i arg2 harg2 arg3 harg3 arg4 harg4 arg5 harg5 hfirst hlast xa xb = k20_pay2 xa xb (k20_pay1 (F := F)) := by
  unfold out20_2
  rw [View.read_writes_junk_eq_canon]
  unfold kernelRun20
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt20 (c : Dev nD) (n : ℕ) (hn : n < cfg20.N) : Vec F S1024x512 .f32 × Vec F S1024x512 .f32 :=
  (out20_2 c (grid20.coords ⟨n, hn⟩) (ms20_0 ⟨n, hn⟩) (hs20_0 ⟨n, hn⟩) (ms20_1 ⟨n, hn⟩) (hs20_1 ⟨n, hn⟩) (ms20_2 ⟨n, hn⟩) (hs20_2 ⟨n, hn⟩) scM20_0 (Memref.isWhole_whole _)
      (hcond20_0 ⟨n, hn⟩) (hcond20_1 ⟨n, hn⟩) (iblk20 V c 0 ⟨n, hn⟩) (iblk20 V c 1 ⟨n, hn⟩),
   sout20_0 c (grid20.coords ⟨n, hn⟩) (ms20_0 ⟨n, hn⟩) (hs20_0 ⟨n, hn⟩) (ms20_1 ⟨n, hn⟩) (hs20_1 ⟨n, hn⟩) (ms20_2 ⟨n, hn⟩) (hs20_2 ⟨n, hn⟩) scM20_0 (Memref.isWhole_whole _)
      (hcond20_0 ⟨n, hn⟩) (hcond20_1 ⟨n, hn⟩) (iblk20 V c 0 ⟨n, hn⟩) (iblk20 V c 1 ⟨n, hn⟩))

/-- Every point is a first reduction step: the accumulator after it is one product onto zero. -/
theorem outsAt20_first (c : Dev nD) (t : Fin cfg20.N) :
    (outsAt20 V c t.val t.isLt).2 = k20_pay2 (iblk20 V c 0 t) (iblk20 V c 1 t) (k20_pay1 (F := F)) := by
  obtain ⟨n, hn⟩ := t
  unfold outsAt20
  dsimp only
  rw [sout20_0_eq]

/-- Every point is a last reduction step: the output block after it is the accumulator. -/
theorem outsAt20_last (c : Dev nD) (t : Fin cfg20.N) :
    (outsAt20 V c t.val t.isLt).1 = (outsAt20 V c t.val t.isLt).2 := by
  obtain ⟨n, hn⟩ := t
  unfold outsAt20
  dsimp only
  rw [out20_2_eq, sout20_0_eq]

/-! ## The pipeline's proof data -/

/-- The proof data of the pipeline on core `c`: the arrays as the region finds them; after the body at point `t` each input's
    buffer at its block and the output's at `outsAt20`'s first component; the invariant the same at every point; nothing owed;
    full shares. -/
noncomputable def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => (outsAt20 V c t.val t.isLt).1
  Φ _ := Pipeline.ΦA spec20 c
  q _ := fullShare
  owed _ := 0

theorem A_eq20 (c : Dev nD) (w : Fin cfg20.W) : (dat20 V c).A w = V c (Pipeline.arrRef spec20 w) := by
  dsimp only [dat20]

theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = (outsAt20 V c t.val t.isLt).1 := by dsimp only [dat20]

/-- An input's current staging buffer holds its block at every point, fetched there or not: where it is not fetched its block
    index has not moved since the point before, and the body left the block in place. -/
theorem before20_0 (c : Dev nD) (t : Fin cfg20.N) (d) : (dat20 V c).before 0 t d = iblk20 V c 0 t :=
  ((dat20 V c).before_in_eq_fetched 0 rfl (fun _ => rfl) (fun _ _ _ => rfl)
      (fun t => by rw [after20_0]; unfold Dat.blockOf iblk20; rw [A_eq20]; try rfl) t d).trans
    (by unfold Dat.fetched Dat.blockOf iblk20; rw [A_eq20]; try rfl)
theorem before20_1 (c : Dev nD) (t : Fin cfg20.N) (d) : (dat20 V c).before 1 t d = iblk20 V c 1 t :=
  ((dat20 V c).before_in_eq_fetched 1 rfl (fun _ => rfl) (fun _ _ _ => rfl)
      (fun t => by rw [after20_1]; unfold Dat.blockOf iblk20; rw [A_eq20]; try rfl) t d).trans
    (by unfold Dat.fetched Dat.blockOf iblk20; rw [A_eq20]; try rfl)

/-! ## The body obligation, at a generic point -/

/-- What the body is called with at point `t`, the windows one by one, -/
noncomputable def bodyPre20 (c : Dev nD) (t : Fin cfg20.N) : sProp 𝕄 :=
  iprop((dat20 V c).Φ t.castSucc ∗ (dat20 V c).owesAt () t.castSucc
    ∗ (∃ d, owns (c : Thread nD τ) (ms20_0 t) fullShare ((dat20 V c).before 0 t d))
    ∗ (∃ d, owns (c : Thread nD τ) (ms20_1 t) fullShare ((dat20 V c).before 1 t d))
    ∗ (∃ d, owns (c : Thread nD τ) (ms20_2 t) fullShare ((dat20 V c).before 2 t d)))

/-- and what it returns. -/
noncomputable def bodyPost20 (c : Dev nD) (t : Fin cfg20.N) : sProp 𝕄 :=
  iprop((dat20 V c).Φ t.succ ∗ (dat20 V c).owesAt () t.succ
    ∗ (dat20 V c).leavesExact 0 t
    ∗ (dat20 V c).leavesExact 1 t
    ∗ (dat20 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1]
  rw [show (dat20 V c).owesAt () t.succ = (dat20 V c).owesAt () t.castSucc from rfl,
    show (dat20 V c).Φ t.succ = Pipeline.ΦA spec20 c from rfl, show (dat20 V c).Φ t.castSucc = Pipeline.ΦA spec20 c from rfl, PhiA20_eq]
  rw [show (dat20 V c).leavesExact 0 t = owns (c : Thread nD τ) (ms20_0 t) fullShare ((dat20 V c).after 0 t) from by
      unfold Dat.leavesExact; rw [liveAt20_0 t], after20_0]
  rw [show (dat20 V c).leavesExact 1 t = owns (c : Thread nD τ) (ms20_1 t) fullShare ((dat20 V c).after 1 t) from by
      unfold Dat.leavesExact; rw [liveAt20_1 t], after20_1]
  rw [show (dat20 V c).leavesExact 2 t = owns (c : Thread nD τ) (ms20_2 t) fullShare ((dat20 V c).after 2 t) from by
      unfold Dat.leavesExact; rw [liveAt20_2 t], after20_2]
  unfold outsAt20 out20_2; (try dsimp only)
  iintro ⟨⟨⟨Hacc, Hrest⟩, Hgen⟩, Howe, ⟨%da, Ha⟩, ⟨%db, Hb⟩, ⟨%dO, Hout⟩⟩
  iapply ((kernelRun20 c (grid20.coords t) _ _ _ _ _ _ _ _ (hcond20_0 t) (hcond20_1 t) (iblk20 V c 0 t) (iblk20 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover20_2 c _ _ _ _ _ _ _ _ _ _ _ _ _)

/-- The library's body obligation, at every point. -/
theorem body_obligation20 (c : Dev nD) : BodyObligation (dat20 (F := F) V c) (defs₀ (F := F)) Variants.none () Set.univ := fun t => by
  rw [bigSep_W20, bigSep_W20]
  exact sound_body20 V c t

/-- What the launch hands the region is the invariant before the first point, -/
theorem hin20 (c : Dev nD) : Pipeline.ΦA spec20 c ⊢ (dat20 V c).Φ 0 := Idealize.SL.BI.Entails.refl _

/-- and the invariant after the last point is what the launch takes back. -/
theorem hout20 (c : Dev nD) : (dat20 V c).Φ (Fin.last cfg20.N) ⊢ Pipeline.ΦA spec20 c := Idealize.SL.BI.Entails.refl _

end Cert.KernelIdeal.Hand

end
-- ==== Proof.RegKI21a.lean ====
/- Laid out by: python3 scratch/layout_regions.py --template-region 1 --region 21 --program KernelIdeal --parts a,b,c, --out-dir proof/Proof
   from the hand-written text of region 1 (RegKI1a.lean): the same text, the region's number substituted. -/
/-
  Region 21 of @main (custom_call 21): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond21_0 (i : grid21.Coords) : Prop := (Scalar.cmpi .ne (Scalar.extui (Scalar.cmpi .eq (BitVec.ofNat 32 (i 1).val) 0#32)) 0#32) = 1#1
/-- It holds exactly at the points with t % 4 = 0. -/
theorem hcond21_0 : ∀ t : Fin cfg21.N, cond21_0 (grid21.coords t) ↔ t.val % 4 = 0 :=
  (by decide +kernel : ∀ t : Fin grid21.N, cond21_0 (grid21.coords t) ↔ t.val % 4 = 0)

/-- "k = 3": the second conditional's test. -/
abbrev cond21_1 (i : grid21.Coords) : Prop := k21_cond2 i = 1#1
/-- It holds exactly at the points with t % 4 = 3. -/
theorem hcond21_1 : ∀ t : Fin cfg21.N, cond21_1 (grid21.coords t) ↔ t.val % 4 = 3 :=
  (by decide +kernel : ∀ t : Fin grid21.N, cond21_1 (grid21.coords t) ↔ t.val % 4 = 3)

/-! ## Where the windows are idle, and where the output is written back -/

/-- The two input windows are never idle. -/
theorem liveAt21_0 : ∀ t : Fin cfg21.N, cfg21.idle 0 (grid21.coords t) = false := by decide +kernel
theorem liveAt21_1 : ∀ t : Fin cfg21.N, cfg21.idle 1 (grid21.coords t) = false := by decide +kernel
/-- Where k ≠ 3 the output window is idle (the body stores nothing into it) and is not written back. -/
theorem idleAt21_2 : ∀ t : Fin cfg21.N, ¬cond21_1 (grid21.coords t) → cfg21.idle 2 (grid21.coords t) = true := by decide +kernel
theorem noFlush21_2 : ∀ t : Fin cfg21.N, ¬cond21_1 (grid21.coords t) → (cfg21.win 2).flush t = false := by decide +kernel
/-- Where k = 3 it is live. -/
theorem liveAt21_2 : ∀ t : Fin cfg21.N, cond21_1 (grid21.coords t) → cfg21.idle 2 (grid21.coords t) = false := by decide +kernel

/-! ## The staging memrefs at a point, and the scratch -/

/-- One staging buffer of the output window, through which its contents are stated. -/
abbrev VO21_2 : View sig .tc .vmem S1024x512 .f32 := (Memref.whole cc21_stg2_0 : Memref sig .tc .vmem S1024x512 .f32).view
abbrev ms21_0 (t : Fin cfg21.N) : Memref sig .tc .vmem S1024x1024 .bf16 := win21_0.stage (cfg21.slots t 0)
abbrev hs21_0 (t : Fin cfg21.N) : (ms21_0 t).IsWhole := hstage21_0 ((cfg21.slots t 0).cast nbuf21_0)
abbrev ms21_1 (t : Fin cfg21.N) : Memref sig .tc .vmem S1024x512 .f32 := win21_1.stage (cfg21.slots t 1)
abbrev hs21_1 (t : Fin cfg21.N) : (ms21_1 t).IsWhole := hstage21_1 ((cfg21.slots t 1).cast nbuf21_1)
abbrev ms21_2 (t : Fin cfg21.N) : Memref sig .tc .vmem S1024x512 .f32 := win21_2.stage (cfg21.slots t 2)
abbrev hs21_2 (t : Fin cfg21.N) : (ms21_2 t).IsWhole := hstage21_2 ((cfg21.slots t 2).cast nbuf21_2)
/-- The accumulator: a whole scoped buffer of the kernel's own. -/
abbrev scM21 : Memref sig .tc .vmem S1024x512 .f32 := Memref.whole cc21_scratch0
abbrev VS21 : View sig .tc .vmem S1024x512 .f32 := scM21.view

/-- The other scoped buffers of the core, none of which this region touches. -/
abbrev restBut21 (c : Dev nD) : sProp 𝕄 :=
  Pipeline.scopedRestBut (Ix := Unit) (Name := ℕ) (U := UR sig nD τ) (Lvl := ℕ) (Val := Elt F) spec21 c [cc21_scratch0]

/-- The region's invariant before its first point: the accumulator at something, the other scoped buffers, the generator register. -/
theorem PhiA21_eq (c : Dev nD) :
    (Pipeline.ΦA spec21 c : sProp 𝕄)
      = iprop(iprop((∃ d, owns (c : Thread nD τ) scM21 fullShare d) ∗ restBut21 c) ∗ (∃ r, prngReg c r)) := by
  unfold Pipeline.ΦA; rw [scopedRest21_split]; simp only [scM21, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun21_A (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond21_0 i) (hc1 : ¬cond21_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc21__matmul_kernel i arg2 harg2 arg3 harg3 arg4 harg4 arg5 harg5) K } := by
  refine ⟨[], ?_, fun xi2 E K => ?run⟩
  case run =>
    simp only [cc21__matmul_kernel_eq_skeleton]; unfold cc21__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI21b.lean ====
/- Laid out by: python3 scratch/layout_regions.py --template-region 1 --region 21 --program KernelIdeal --parts a,b,c, --out-dir proof/Proof
   from the hand-written text of region 1 (RegKI1b.lean): the same text, the region's number substituted. -/
/-
  Region 21, case B (k = 1, 2): the body's run. Neither conditional is taken: the product of the two blocks is added to what
  the point before left in the accumulator; the output block is not touched.
-/
import proofs.«158944_j64613488001249_1_alg».proof.Proof.RegKI21a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun21_B (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond21_0 i) (hc1 : ¬cond21_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc21__matmul_kernel i arg2 harg2 arg3 harg3 arg4 harg4 arg5 harg5) K } := by
  refine ⟨[], ?_, fun xi2 E K => ?run⟩
  case run =>
    simp only [cc21__matmul_kernel_eq_skeleton]; unfold cc21__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI21c.lean ====
/- Laid out by: python3 scratch/layout_regions.py --template-region 1 --region 21 --program KernelIdeal --parts a,b,c, --out-dir proof/Proof
   from the hand-written text of region 1 (RegKI1c.lean): the same text, the region's number substituted. -/
/-
  Region 21, case C (k = 3): the body's run. The product is added to the accumulator as in case B, and then the second
  conditional copies the accumulator over the whole output block.
-/
import proofs.«158944_j64613488001249_1_alg».proof.Proof.RegKI21b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun21_C (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond21_0 i) (hc1 : cond21_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc21__matmul_kernel i arg2 harg2 arg3 harg3 arg4 harg4 arg5 harg5) K } := by
  refine ⟨?_, ?_, fun E K => ?run⟩
  case run =>
    simp only [cc21__matmul_kernel_eq_skeleton]; unfold cc21__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI21.lean ====
/- Laid out by: python3 scratch/layout_regions.py --template-region 1 --region 21 --program KernelIdeal --parts a,b,c, --out-dir proof/Proof
   from the hand-written text of region 1 (RegKI1.lean): the same text, the region's number substituted. -/
/-
  Region 21 of @main, entered from the buffer contents `V`: what its windows' blocks are, what each case of the body leaves in
  the accumulator and in the output block, the accumulator and the output block point by point (`outsAt21`: at k = 0 the
  accumulator restarts from zeros plus the product; at k = 1, 2, 3 it is the point before's plus the product; at k = 3 the
  output block is the accumulator), the region's invariant (the accumulator at `outsAt21`'s second component), the proof data,
  and the body's obligation at every point.
-/
import proofs.«158944_j64613488001249_1_alg».proof.Proof.RegKI21c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- An input window's current staging buffer holds its block at every point, for any proof data whose array is `V`'s and
    whose body leaves the block in place. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)

/-! ## What each case leaves -/

/-- Case A's stores into the accumulator cover it. -/
theorem scover21_A (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond21_0 i) (hc1 : ¬cond21_1 i)
    (x0 : Vec F S1024x1024 .bf16) (x1 : Vec F S1024x512 .f32) (y : S1024x512.Idx) :
    ∃ pc ∈ (kernelRun21_A c i arg2 harg2 arg3 harg3 arg4 harg4 arg5 harg5 hc0 hc1 x0 x1).2.1, y ∈ pc.1.set :=
  View.cover_of_tiledL (kernelRun21_A c i arg2 harg2 arg3 harg3 arg4 harg4 arg5 harg5 hc0 hc1 x0 x1).2.1 S1024x512.size (by sl_kernel_rfl) y
/-- What case A leaves in the accumulator. -/
noncomputable def sout21_A (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond21_0 i) (hc1 : ¬cond21_1 i)
    (x0 : Vec F S1024x1024 .bf16) (x1 : Vec F S1024x512 .f32) : Vec F S1024x512 .f32 :=
  VS21.read (Elt F) (VS21.writes (Elt F) VS21.junk (kernelRun21_A c i arg2 harg2 arg3 harg3 arg4 harg4 arg5 harg5 hc0 hc1 x0 x1).2.1)

/-- Case B's store into the accumulator covers it. -/
theorem scover21_B (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond21_0 i) (hc1 : ¬cond21_1 i)
    (x0 : Vec F S1024x1024 .bf16) (x1 : Vec F S1024x512 .f32) (xs0 : Vec F S1024x512 .f32) (y : S1024x512.Idx) :
    ∃ pc ∈ (kernelRun21_B c i arg2 harg2 arg3 harg3 arg4 harg4 arg5 harg5 hc0 hc1 x0 x1 xs0).2.1, y ∈ pc.1.set :=
  View.cover_of_tiledL (kernelRun21_B c i arg2 harg2 arg3 harg3 arg4 harg4 arg5 harg5 hc0 hc1 x0 x1 xs0).2.1 S1024x512.size (by sl_kernel_rfl) y
/-- What case B leaves in the accumulator, over what the point before left. -/
noncomputable def sout21_B (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond21_0 i) (hc1 : ¬cond21_1 i)
    (x0 : Vec F S1024x1024 .bf16) (x1 : Vec F S1024x512 .f32) (xs0 : Vec F S1024x512 .f32) : Vec F S1024x512 .f32 :=
  VS21.read (Elt F) (VS21.writes (Elt F) VS21.junk (kernelRun21_B c i arg2 harg2 arg3 harg3 arg4 harg4 arg5 harg5 hc0 hc1 x0 x1 xs0).2.1)

/-- Case C's store into the output block covers it, and so does its store into the accumulator. -/
theorem cover21_C (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond21_0 i) (hc1 : cond21_1 i)
    (x0 : Vec F S1024x1024 .bf16) (x1 : Vec F S1024x512 .f32) (xs0 : Vec F S1024x512 .f32) (y : S1024x512.Idx) :
    ∃ pc ∈ (kernelRun21_C c i arg2 harg2 arg3 harg3 arg4 harg4 arg5 harg5 hc0 hc1 x0 x1 xs0).1, y ∈ pc.1.set :=
  View.cover_of_tiledL (kernelRun21_C c i arg2 harg2 arg3 harg3 arg4 harg4 arg5 harg5 hc0 hc1 x0 x1 xs0).1 S1024x512.size (by sl_kernel_rfl) y
theorem scover21_C (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond21_0 i) (hc1 : cond21_1 i)
    (x0 : Vec F S1024x1024 .bf16) (x1 : Vec F S1024x512 .f32) (xs0 : Vec F S1024x512 .f32) (y : S1024x512.Idx) :
    ∃ pc ∈ (kernelRun21_C c i arg2 harg2 arg3 harg3 arg4 harg4 arg5 harg5 hc0 hc1 x0 x1 xs0).2.1, y ∈ pc.1.set :=
  View.cover_of_tiledL (kernelRun21_C c i arg2 harg2 arg3 harg3 arg4 harg4 arg5 harg5 hc0 hc1 x0 x1 xs0).2.1 S1024x512.size (by sl_kernel_rfl) y
/-- What case C leaves in the output block, and in the accumulator. -/
noncomputable def out21_C (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond21_0 i) (hc1 : cond21_1 i)
    (x0 : Vec F S1024x1024 .bf16) (x1 : Vec F S1024x512 .f32) (xs0 : Vec F S1024x512 .f32) : Vec F S1024x512 .f32 :=
  VO21_2.read (Elt F) (VO21_2.writes (Elt F) VO21_2.junk (kernelRun21_C c i arg2 harg2 arg3 harg3 arg4 harg4 arg5 harg5 hc0 hc1 x0 x1 xs0).1)
noncomputable def sout21_C (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond21_0 i) (hc1 : cond21_1 i)
    (x0 : Vec F S1024x1024 .bf16) (x1 : Vec F S1024x512 .f32) (xs0 : Vec F S1024x512 .f32) : Vec F S1024x512 .f32 :=
  VS21.read (Elt F) (VS21.writes (Elt F) VS21.junk (kernelRun21_C c i arg2 harg2 arg3 harg3 arg4 harg4 arg5 harg5 hc0 hc1 x0 x1 xs0).2.1)

/-- Where the output block is idle nothing consults what it holds: a placeholder. -/
noncomputable def outIdle21 : Vec F S1024x512 .f32 := VO21_2.read (Elt F) (VO21_2.writes (Elt F) VO21_2.junk [])

/-! ## The conditions at a point, from t % 4 -/

theorem isFirst21 (t : Fin cfg21.N) (h : t.val % 4 = 0) : cond21_0 (grid21.coords t) := (hcond21_0 t).mpr h
theorem notFirst21 (t : Fin cfg21.N) (h : ¬t.val % 4 = 0) : ¬cond21_0 (grid21.coords t) := fun hc => h ((hcond21_0 t).mp hc)
theorem isLast21 (t : Fin cfg21.N) (h : t.val % 4 = 3) : cond21_1 (grid21.coords t) := (hcond21_1 t).mpr h
theorem notLast21 (t : Fin cfg21.N) (h : ¬t.val % 4 = 3) : ¬cond21_1 (grid21.coords t) := fun hc => h ((hcond21_1 t).mp hc)

/-! ## The accumulator and the output block, point by point -/

/-- After the body at position `n`: (the output block's buffer, the accumulator). -/
noncomputable def outsAt21 (c : Dev nD) : (n : ℕ) → n < cfg21.N → Vec F S1024x512 .f32 × Vec F S1024x512 .f32
  | 0, hn => (outIdle21, sout21_A c (grid21.coords ⟨0, hn⟩) (ms21_0 ⟨0, hn⟩) (hs21_0 ⟨0, hn⟩) (ms21_1 ⟨0, hn⟩) (hs21_1 ⟨0, hn⟩) (ms21_2 ⟨0, hn⟩) (hs21_2 ⟨0, hn⟩) scM21 (Memref.isWhole_whole _) (isFirst21 ⟨0, hn⟩ (Nat.zero_mod _)) (notLast21 ⟨0, hn⟩ (by simp)) (iblk21 V c 0 ⟨0, hn⟩) (iblk21 V c 1 ⟨0, hn⟩))
  | n + 1, hn =>
    if h0 : (n + 1) % 4 = 0 then
      (outIdle21, sout21_A c (grid21.coords ⟨n + 1, hn⟩) (ms21_0 ⟨n + 1, hn⟩) (hs21_0 ⟨n + 1, hn⟩) (ms21_1 ⟨n + 1, hn⟩) (hs21_1 ⟨n + 1, hn⟩) (ms21_2 ⟨n + 1, hn⟩) (hs21_2 ⟨n + 1, hn⟩) scM21 (Memref.isWhole_whole _) (isFirst21 ⟨n + 1, hn⟩ h0) (notLast21 ⟨n + 1, hn⟩ (by show ¬(n + 1) % 4 = 3; omega)) (iblk21 V c 0 ⟨n + 1, hn⟩) (iblk21 V c 1 ⟨n + 1, hn⟩))
    else if h3 : (n + 1) % 4 = 3 then
      (out21_C c (grid21.coords ⟨n + 1, hn⟩) (ms21_0 ⟨n + 1, hn⟩) (hs21_0 ⟨n + 1, hn⟩) (ms21_1 ⟨n + 1, hn⟩) (hs21_1 ⟨n + 1, hn⟩) (ms21_2 ⟨n + 1, hn⟩) (hs21_2 ⟨n + 1, hn⟩) scM21 (Memref.isWhole_whole _) (notFirst21 ⟨n + 1, hn⟩ h0) (isLast21 ⟨n + 1, hn⟩ h3) (iblk21 V c 0 ⟨n + 1, hn⟩) (iblk21 V c 1 ⟨n + 1, hn⟩) (outsAt21 c n (Nat.lt_of_succ_lt hn)).2,
       sout21_C c (grid21.coords ⟨n + 1, hn⟩) (ms21_0 ⟨n + 1, hn⟩) (hs21_0 ⟨n + 1, hn⟩) (ms21_1 ⟨n + 1, hn⟩) (hs21_1 ⟨n + 1, hn⟩) (ms21_2 ⟨n + 1, hn⟩) (hs21_2 ⟨n + 1, hn⟩) scM21 (Memref.isWhole_whole _) (notFirst21 ⟨n + 1, hn⟩ h0) (isLast21 ⟨n + 1, hn⟩ h3) (iblk21 V c 0 ⟨n + 1, hn⟩) (iblk21 V c 1 ⟨n + 1, hn⟩) (outsAt21 c n (Nat.lt_of_succ_lt hn)).2)
    else
      (outIdle21, sout21_B c (grid21.coords ⟨n + 1, hn⟩) (ms21_0 ⟨n + 1, hn⟩) (hs21_0 ⟨n + 1, hn⟩) (ms21_1 ⟨n + 1, hn⟩) (hs21_1 ⟨n + 1, hn⟩) (ms21_2 ⟨n + 1, hn⟩) (hs21_2 ⟨n + 1, hn⟩) scM21 (Memref.isWhole_whole _) (notFirst21 ⟨n + 1, hn⟩ h0) (notLast21 ⟨n + 1, hn⟩ h3) (iblk21 V c 0 ⟨n + 1, hn⟩) (iblk21 V c 1 ⟨n + 1, hn⟩) (outsAt21 c n (Nat.lt_of_succ_lt hn)).2)

/-- `outsAt21` at a point with k = 0. -/
theorem outsAt21_A (c : Dev nD) (t : Fin cfg21.N) (h0 : t.val % 4 = 0) :
    outsAt21 V c t.val t.isLt = (outIdle21, sout21_A c (grid21.coords t) (ms21_0 t) (hs21_0 t) (ms21_1 t) (hs21_1 t) (ms21_2 t) (hs21_2 t) scM21 (Memref.isWhole_whole _) (isFirst21 t h0) (notLast21 t (by omega)) (iblk21 V c 0 t) (iblk21 V c 1 t)) := by
  obtain ⟨n, hn⟩ := t
  cases n with
  | zero => rfl
  | succ n => exact (dif_pos h0).trans rfl

/-- `outsAt21` at a point with k = 1, 2: over what the point before left. -/
theorem outsAt21_B (c : Dev nD) (t : Fin cfg21.N) (h0 : ¬t.val % 4 = 0) (h3 : ¬t.val % 4 = 3) :
    outsAt21 V c t.val t.isLt = (outIdle21, sout21_B c (grid21.coords t) (ms21_0 t) (hs21_0 t) (ms21_1 t) (hs21_1 t) (ms21_2 t) (hs21_2 t) scM21 (Memref.isWhole_whole _) (notFirst21 t h0) (notLast21 t h3) (iblk21 V c 0 t) (iblk21 V c 1 t)
      (outsAt21 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt21` at a point with k = 3. -/
theorem outsAt21_C (c : Dev nD) (t : Fin cfg21.N) (h0 : ¬t.val % 4 = 0) (h3 : t.val % 4 = 3) :
    outsAt21 V c t.val t.isLt = (out21_C c (grid21.coords t) (ms21_0 t) (hs21_0 t) (ms21_1 t) (hs21_1 t) (ms21_2 t) (hs21_2 t) scM21 (Memref.isWhole_whole _) (notFirst21 t h0) (isLast21 t h3) (iblk21 V c 0 t) (iblk21 V c 1 t)
        (outsAt21 V c (t.val - 1) (Nat.lt_of_le_of_lt (Nat.sub_le _ _) t.isLt)).2,
      sout21_C c (grid21.coords t) (ms21_0 t) (hs21_0 t) (ms21_1 t) (hs21_1 t) (ms21_2 t) (hs21_2 t) scM21 (Memref.isWhole_whole _) (notFirst21 t h0) (isLast21 t h3) (iblk21 V c 0 t) (iblk21 V c 1 t)
        (outsAt21 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS21 (c : Dev nD) : (n : ℕ) → n ≤ cfg21.N → sProp 𝕄
  | 0, _ => Pipeline.ΦA spec21 c
  | n + 1, hn => iprop(iprop(owns (c : Thread nD τ) scM21 fullShare ((outsAt21 V c n hn).2) ∗ restBut21 c) ∗ (∃ r, prngReg c r))

theorem PhiS21_zero (c : Dev nD) (n : ℕ) (h : n ≤ cfg21.N) (hz : n = 0) : PhiS21 V c n h = Pipeline.ΦA spec21 c := by
  subst hz; rfl
theorem PhiS21_succ (c : Dev nD) (n : ℕ) (hn : n < cfg21.N) :
    PhiS21 V c (n + 1) hn = iprop(iprop(owns (c : Thread nD τ) scM21 fullShare ((outsAt21 V c n hn).2) ∗ restBut21 c) ∗ (∃ r, prngReg c r)) := rfl
theorem PhiS21_pos (c : Dev nD) (n : ℕ) (h : n ≤ cfg21.N) (hz : n ≠ 0) :
    PhiS21 V c n h = iprop(iprop(owns (c : Thread nD τ) scM21 fullShare ((outsAt21 V c (n - 1) (by omega)).2) ∗ restBut21 c) ∗ (∃ r, prngReg c r)) := by
  cases n with
  | zero => exact absurd rfl hz
  | succ n => rfl

/-! ## The proof data -/

/-- The region's proof data on core `c`: the arrays as the region finds them; after the body at point `t` each input's
    buffer at its block and the output's at `outsAt21`'s first component; the invariant `PhiS21`; nothing owed; full shares. -/
noncomputable def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => (outsAt21 V c t.val t.isLt).1
  Φ t := PhiS21 V c t.val (Nat.le_of_lt_succ t.isLt)
  q _ := fullShare
  owed _ := 0

theorem A_eq21 (c : Dev nD) (w : Fin cfg21.W) : (dat21 V c).A w = V c (Pipeline.arrRef spec21 w) := by
  dsimp only [dat21]
theorem PhiS21_castSucc (c : Dev nD) (t : Fin cfg21.N) :
    (dat21 V c).Φ t.castSucc = PhiS21 V c t.val (Nat.le_of_lt t.isLt) := by
  dsimp only [dat21]; simp only [Fin.coe_castSucc]
theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = (outsAt21 V c t.val t.isLt).1 := by dsimp only [dat21]
theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d

/-! ## The body's obligation -/

noncomputable def bodyPre21 (c : Dev nD) (t : Fin cfg21.N) : sProp 𝕄 :=
  iprop((dat21 V c).Φ t.castSucc ∗ (dat21 V c).owesAt () t.castSucc
    ∗ (∃ d, owns (c : Thread nD τ) (ms21_0 t) fullShare ((dat21 V c).before 0 t d))
    ∗ (∃ d, owns (c : Thread nD τ) (ms21_1 t) fullShare ((dat21 V c).before 1 t d))
    ∗ (∃ d, owns (c : Thread nD τ) (ms21_2 t) fullShare ((dat21 V c).before 2 t d)))

noncomputable def bodyPost21 (c : Dev nD) (t : Fin cfg21.N) : sProp 𝕄 :=
  iprop((dat21 V c).Φ t.succ ∗ (dat21 V c).owesAt () t.succ
    ∗ (dat21 V c).leavesExact 0 t
    ∗ (dat21 V c).leavesExact 1 t
    ∗ (dat21 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1]
  rw [show (dat21 V c).owesAt () t.succ = (dat21 V c).owesAt () t.castSucc from rfl]
  rw [show (dat21 V c).Φ t.succ = PhiS21 V c (t.val + 1) t.isLt from rfl, PhiS21_succ]
  rw [show (dat21 V c).leavesExact 0 t = owns (c : Thread nD τ) (ms21_0 t) fullShare ((dat21 V c).after 0 t) from by
    unfold Dat.leavesExact; rw [liveAt21_0 t], after21_0]
  rw [show (dat21 V c).leavesExact 1 t = owns (c : Thread nD τ) (ms21_1 t) fullShare ((dat21 V c).after 1 t) from by
    unfold Dat.leavesExact; rw [liveAt21_1 t], after21_1]
  by_cases h0 : t.val % 4 = 0
  · have h3 : ¬t.val % 4 = 3 := by omega
    rw [Dat.leavesExact_idle (dat21 V c) 2 t (idleAt21_2 t (notLast21 t h3)) (noFlush21_2 t (notLast21 t h3))]
    rw [outsAt21_A V c t h0]
    unfold sout21_A; (try dsimp only)
    by_cases hz : t.val = 0
    · rw [PhiS21_castSucc V c t, PhiS21_zero V c _ _ hz, PhiA21_eq]
      iintro ⟨⟨⟨HS0, Hrb⟩, Hg⟩, Ho, ⟨%d0, H0⟩, ⟨%d1, H1⟩, ⟨%d2, H2⟩⟩
      iapply ((kernelRun21_A c (grid21.coords t) _ _ _ _ _ _ _ _ (isFirst21 t h0) (notLast21 t (by omega)) (iblk21 V c 0 t) (iblk21 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover21_A c _ _ _ _ _ _ _ _ _ _ _ _ _)
          iexact Hrb
        iexact Hg
      isplitl [Ho]; · iexact Ho
      isplitl [H0]; · iexact H0
      isplitl [H1]; · iexact H1
      iexists _; iexact H2
    · rw [PhiS21_castSucc V c t, PhiS21_pos V c _ _ hz]
      iintro ⟨⟨⟨HS0, Hrb⟩, Hg⟩, Ho, ⟨%d0, H0⟩, ⟨%d1, H1⟩, ⟨%d2, H2⟩⟩
      iapply ((kernelRun21_A c (grid21.coords t) _ _ _ _ _ _ _ _ (isFirst21 t h0) (notLast21 t (by omega)) (iblk21 V c 0 t) (iblk21 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover21_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat21 V c).leavesExact 2 t = owns (c : Thread nD τ) (ms21_2 t) fullShare ((dat21 V c).after 2 t) from by
        unfold Dat.leavesExact; rw [liveAt21_2 t (isLast21 t h3)], after21_2]
      rw [outsAt21_C V c t h0 h3]
      unfold out21_C sout21_C; (try dsimp only)
      rw [PhiS21_castSucc V c t, PhiS21_pos V c _ _ hz]
      iintro ⟨⟨⟨HS0, Hrb⟩, Hg⟩, Ho, ⟨%d0, H0⟩, ⟨%d1, H1⟩, ⟨%d2, H2⟩⟩
      iapply ((kernelRun21_C c (grid21.coords t) _ _ _ _ _ _ _ _ (notFirst21 t h0) (isLast21 t h3) (iblk21 V c 0 t) (iblk21 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover21_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover21_C c _ _ _ _ _ _ _ _ _ _ _ _ _ _)
    · rw [Dat.leavesExact_idle (dat21 V c) 2 t (idleAt21_2 t (notLast21 t h3)) (noFlush21_2 t (notLast21 t h3))]
      rw [outsAt21_B V c t h0 h3]
      unfold sout21_B; (try dsimp only)
      rw [PhiS21_castSucc V c t, PhiS21_pos V c _ _ hz]
      iintro ⟨⟨⟨HS0, Hrb⟩, Hg⟩, Ho, ⟨%d0, H0⟩, ⟨%d1, H1⟩, ⟨%d2, H2⟩⟩
      iapply ((kernelRun21_B c (grid21.coords t) _ _ _ _ _ _ _ _ (notFirst21 t h0) (notLast21 t h3) (iblk21 V c 0 t) (iblk21 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover21_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation21 (c : Dev nD) : BodyObligation (dat21 (F := F) V c) (defs₀ (F := F)) Variants.none () Set.univ := fun t => by
  rw [bigSep_W21, bigSep_W21]
  exact sound_body21 V c t

/-- What the region is entered with is the invariant before the first point. -/
theorem hin21 (c : Dev nD) : Pipeline.ΦA spec21 c ⊢ (dat21 V c).Φ 0 := by
  rw [show (dat21 V c).Φ 0 = PhiS21 V c 0 (Nat.zero_le _) from rfl, PhiS21_zero V c 0 _ rfl]
  try exact Idealize.SL.BI.Entails.refl _

/-- After the last point the invariant gives the class's back: the accumulator's contents are forgotten. -/
theorem hout21 (c : Dev nD) : (dat21 V c).Φ (Fin.last cfg21.N) ⊢ Pipeline.ΦA spec21 c := by
  have hN : cfg21.N = 16 := N_21
  rw [show (dat21 V c).Φ (Fin.last cfg21.N) = PhiS21 V c (Fin.last cfg21.N).val (Nat.le_of_lt_succ (Fin.last cfg21.N).isLt) from rfl,
    PhiS21_pos V c _ _ (by rw [Fin.val_last]; omega), PhiA21_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI22a.lean ====
/- Laid out by: python3 scratch/layout_regions.py --template-region 1 --region 22 --program KernelIdeal --parts a,b,c, --out-dir proof/Proof
   from the hand-written text of region 1 (RegKI1a.lean): the same text, the region's number substituted. -/
/-
  Region 22 of @main (custom_call 22): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond22_0 (i : grid22.Coords) : Prop := (Scalar.cmpi .ne (Scalar.extui (Scalar.cmpi .eq (BitVec.ofNat 32 (i 1).val) 0#32)) 0#32) = 1#1
/-- It holds exactly at the points with t % 4 = 0. -/
theorem hcond22_0 : ∀ t : Fin cfg22.N, cond22_0 (grid22.coords t) ↔ t.val % 4 = 0 :=
  (by decide +kernel : ∀ t : Fin grid22.N, cond22_0 (grid22.coords t) ↔ t.val % 4 = 0)

/-- "k = 3": the second conditional's test. -/
abbrev cond22_1 (i : grid22.Coords) : Prop := k22_cond2 i = 1#1
/-- It holds exactly at the points with t % 4 = 3. -/
theorem hcond22_1 : ∀ t : Fin cfg22.N, cond22_1 (grid22.coords t) ↔ t.val % 4 = 3 :=
  (by decide +kernel : ∀ t : Fin grid22.N, cond22_1 (grid22.coords t) ↔ t.val % 4 = 3)

/-! ## Where the windows are idle, and where the output is written back -/

/-- The two input windows are never idle. -/
theorem liveAt22_0 : ∀ t : Fin cfg22.N, cfg22.idle 0 (grid22.coords t) = false := by decide +kernel
theorem liveAt22_1 : ∀ t : Fin cfg22.N, cfg22.idle 1 (grid22.coords t) = false := by decide +kernel
/-- Where k ≠ 3 the output window is idle (the body stores nothing into it) and is not written back. -/
theorem idleAt22_2 : ∀ t : Fin cfg22.N, ¬cond22_1 (grid22.coords t) → cfg22.idle 2 (grid22.coords t) = true := by decide +kernel
theorem noFlush22_2 : ∀ t : Fin cfg22.N, ¬cond22_1 (grid22.coords t) → (cfg22.win 2).flush t = false := by decide +kernel
/-- Where k = 3 it is live. -/
theorem liveAt22_2 : ∀ t : Fin cfg22.N, cond22_1 (grid22.coords t) → cfg22.idle 2 (grid22.coords t) = false := by decide +kernel

/-! ## The staging memrefs at a point, and the scratch -/

/-- One staging buffer of the output window, through which its contents are stated. -/
abbrev VO22_2 : View sig .tc .vmem S1024x512 .f32 := (Memref.whole cc22_stg2_0 : Memref sig .tc .vmem S1024x512 .f32).view
abbrev ms22_0 (t : Fin cfg22.N) : Memref sig .tc .vmem S1024x1024 .bf16 := win22_0.stage (cfg22.slots t 0)
abbrev hs22_0 (t : Fin cfg22.N) : (ms22_0 t).IsWhole := hstage22_0 ((cfg22.slots t 0).cast nbuf22_0)
abbrev ms22_1 (t : Fin cfg22.N) : Memref sig .tc .vmem S1024x512 .f32 := win22_1.stage (cfg22.slots t 1)
abbrev hs22_1 (t : Fin cfg22.N) : (ms22_1 t).IsWhole := hstage22_1 ((cfg22.slots t 1).cast nbuf22_1)
abbrev ms22_2 (t : Fin cfg22.N) : Memref sig .tc .vmem S1024x512 .f32 := win22_2.stage (cfg22.slots t 2)
abbrev hs22_2 (t : Fin cfg22.N) : (ms22_2 t).IsWhole := hstage22_2 ((cfg22.slots t 2).cast nbuf22_2)
/-- The accumulator: a whole scoped buffer of the kernel's own. -/
abbrev scM22 : Memref sig .tc .vmem S1024x512 .f32 := Memref.whole cc22_scratch0
abbrev VS22 : View sig .tc .vmem S1024x512 .f32 := scM22.view

/-- The other scoped buffers of the core, none of which this region touches. -/
abbrev restBut22 (c : Dev nD) : sProp 𝕄 :=
  Pipeline.scopedRestBut (Ix := Unit) (Name := ℕ) (U := UR sig nD τ) (Lvl := ℕ) (Val := Elt F) spec22 c [cc22_scratch0]

/-- The region's invariant before its first point: the accumulator at something, the other scoped buffers, the generator register. -/
theorem PhiA22_eq (c : Dev nD) :
    (Pipeline.ΦA spec22 c : sProp 𝕄)
      = iprop(iprop((∃ d, owns (c : Thread nD τ) scM22 fullShare d) ∗ restBut22 c) ∗ (∃ r, prngReg c r)) := by
  unfold Pipeline.ΦA; rw [scopedRest22_split]; simp only [scM22, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun22_A (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond22_0 i) (hc1 : ¬cond22_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc22__matmul_kernel i arg2 harg2 arg3 harg3 arg4 harg4 arg5 harg5) K } := by
  refine ⟨[], ?_, fun xi2 E K => ?run⟩
  case run =>
    simp only [cc22__matmul_kernel_eq_skeleton]; unfold cc22__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI22b.lean ====
/- Laid out by: python3 scratch/layout_regions.py --template-region 1 --region 22 --program KernelIdeal --parts a,b,c, --out-dir proof/Proof
   from the hand-written text of region 1 (RegKI1b.lean): the same text, the region's number substituted. -/
/-
  Region 22, case B (k = 1, 2): the body's run. Neither conditional is taken: the product of the two blocks is added to what
  the point before left in the accumulator; the output block is not touched.
-/
import proofs.«158944_j64613488001249_1_alg».proof.Proof.RegKI22a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun22_B (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond22_0 i) (hc1 : ¬cond22_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc22__matmul_kernel i arg2 harg2 arg3 harg3 arg4 harg4 arg5 harg5) K } := by
  refine ⟨[], ?_, fun xi2 E K => ?run⟩
  case run =>
    simp only [cc22__matmul_kernel_eq_skeleton]; unfold cc22__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI22c.lean ====
/- Laid out by: python3 scratch/layout_regions.py --template-region 1 --region 22 --program KernelIdeal --parts a,b,c, --out-dir proof/Proof
   from the hand-written text of region 1 (RegKI1c.lean): the same text, the region's number substituted. -/
/-
  Region 22, case C (k = 3): the body's run. The product is added to the accumulator as in case B, and then the second
  conditional copies the accumulator over the whole output block.
-/
import proofs.«158944_j64613488001249_1_alg».proof.Proof.RegKI22b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun22_C (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond22_0 i) (hc1 : cond22_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc22__matmul_kernel i arg2 harg2 arg3 harg3 arg4 harg4 arg5 harg5) K } := by
  refine ⟨?_, ?_, fun E K => ?run⟩
  case run =>
    simp only [cc22__matmul_kernel_eq_skeleton]; unfold cc22__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI22.lean ====
/- Laid out by: python3 scratch/layout_regions.py --template-region 1 --region 22 --program KernelIdeal --parts a,b,c, --out-dir proof/Proof
   from the hand-written text of region 1 (RegKI1.lean): the same text, the region's number substituted. -/
/-
  Region 22 of @main, entered from the buffer contents `V`: what its windows' blocks are, what each case of the body leaves in
  the accumulator and in the output block, the accumulator and the output block point by point (`outsAt22`: at k = 0 the
  accumulator restarts from zeros plus the product; at k = 1, 2, 3 it is the point before's plus the product; at k = 3 the
  output block is the accumulator), the region's invariant (the accumulator at `outsAt22`'s second component), the proof data,
  and the body's obligation at every point.
-/
import proofs.«158944_j64613488001249_1_alg».proof.Proof.RegKI22c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-- An input window's current staging buffer holds its block at every point, for any proof data whose array is `V`'s and
    whose body leaves the block in place. -/
theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)

/-! ## What each case leaves -/

/-- Case A's stores into the accumulator cover it. -/
theorem scover22_A (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond22_0 i) (hc1 : ¬cond22_1 i)
    (x0 : Vec F S1024x1024 .bf16) (x1 : Vec F S1024x512 .f32) (y : S1024x512.Idx) :
    ∃ pc ∈ (kernelRun22_A c i arg2 harg2 arg3 harg3 arg4 harg4 arg5 harg5 hc0 hc1 x0 x1).2.1, y ∈ pc.1.set :=
  View.cover_of_tiledL (kernelRun22_A c i arg2 harg2 arg3 harg3 arg4 harg4 arg5 harg5 hc0 hc1 x0 x1).2.1 S1024x512.size (by sl_kernel_rfl) y
/-- What case A leaves in the accumulator. -/
noncomputable def sout22_A (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond22_0 i) (hc1 : ¬cond22_1 i)
    (x0 : Vec F S1024x1024 .bf16) (x1 : Vec F S1024x512 .f32) : Vec F S1024x512 .f32 :=
  VS22.read (Elt F) (VS22.writes (Elt F) VS22.junk (kernelRun22_A c i arg2 harg2 arg3 harg3 arg4 harg4 arg5 harg5 hc0 hc1 x0 x1).2.1)

/-- Case B's store into the accumulator covers it. -/
theorem scover22_B (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond22_0 i) (hc1 : ¬cond22_1 i)
    (x0 : Vec F S1024x1024 .bf16) (x1 : Vec F S1024x512 .f32) (xs0 : Vec F S1024x512 .f32) (y : S1024x512.Idx) :
    ∃ pc ∈ (kernelRun22_B c i arg2 harg2 arg3 harg3 arg4 harg4 arg5 harg5 hc0 hc1 x0 x1 xs0).2.1, y ∈ pc.1.set :=
  View.cover_of_tiledL (kernelRun22_B c i arg2 harg2 arg3 harg3 arg4 harg4 arg5 harg5 hc0 hc1 x0 x1 xs0).2.1 S1024x512.size (by sl_kernel_rfl) y
/-- What case B leaves in the accumulator, over what the point before left. -/
noncomputable def sout22_B (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond22_0 i) (hc1 : ¬cond22_1 i)
    (x0 : Vec F S1024x1024 .bf16) (x1 : Vec F S1024x512 .f32) (xs0 : Vec F S1024x512 .f32) : Vec F S1024x512 .f32 :=
  VS22.read (Elt F) (VS22.writes (Elt F) VS22.junk (kernelRun22_B c i arg2 harg2 arg3 harg3 arg4 harg4 arg5 harg5 hc0 hc1 x0 x1 xs0).2.1)

/-- Case C's store into the output block covers it, and so does its store into the accumulator. -/
theorem cover22_C (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond22_0 i) (hc1 : cond22_1 i)
    (x0 : Vec F S1024x1024 .bf16) (x1 : Vec F S1024x512 .f32) (xs0 : Vec F S1024x512 .f32) (y : S1024x512.Idx) :
    ∃ pc ∈ (kernelRun22_C c i arg2 harg2 arg3 harg3 arg4 harg4 arg5 harg5 hc0 hc1 x0 x1 xs0).1, y ∈ pc.1.set :=
  View.cover_of_tiledL (kernelRun22_C c i arg2 harg2 arg3 harg3 arg4 harg4 arg5 harg5 hc0 hc1 x0 x1 xs0).1 S1024x512.size (by sl_kernel_rfl) y
theorem scover22_C (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond22_0 i) (hc1 : cond22_1 i)
    (x0 : Vec F S1024x1024 .bf16) (x1 : Vec F S1024x512 .f32) (xs0 : Vec F S1024x512 .f32) (y : S1024x512.Idx) :
    ∃ pc ∈ (kernelRun22_C c i arg2 harg2 arg3 harg3 arg4 harg4 arg5 harg5 hc0 hc1 x0 x1 xs0).2.1, y ∈ pc.1.set :=
  View.cover_of_tiledL (kernelRun22_C c i arg2 harg2 arg3 harg3 arg4 harg4 arg5 harg5 hc0 hc1 x0 x1 xs0).2.1 S1024x512.size (by sl_kernel_rfl) y
/-- What case C leaves in the output block, and in the accumulator. -/
noncomputable def out22_C (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond22_0 i) (hc1 : cond22_1 i)
    (x0 : Vec F S1024x1024 .bf16) (x1 : Vec F S1024x512 .f32) (xs0 : Vec F S1024x512 .f32) : Vec F S1024x512 .f32 :=
  VO22_2.read (Elt F) (VO22_2.writes (Elt F) VO22_2.junk (kernelRun22_C c i arg2 harg2 arg3 harg3 arg4 harg4 arg5 harg5 hc0 hc1 x0 x1 xs0).1)
noncomputable def sout22_C (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond22_0 i) (hc1 : cond22_1 i)
    (x0 : Vec F S1024x1024 .bf16) (x1 : Vec F S1024x512 .f32) (xs0 : Vec F S1024x512 .f32) : Vec F S1024x512 .f32 :=
  VS22.read (Elt F) (VS22.writes (Elt F) VS22.junk (kernelRun22_C c i arg2 harg2 arg3 harg3 arg4 harg4 arg5 harg5 hc0 hc1 x0 x1 xs0).2.1)

/-- Where the output block is idle nothing consults what it holds: a placeholder. -/
noncomputable def outIdle22 : Vec F S1024x512 .f32 := VO22_2.read (Elt F) (VO22_2.writes (Elt F) VO22_2.junk [])

/-! ## The conditions at a point, from t % 4 -/

theorem isFirst22 (t : Fin cfg22.N) (h : t.val % 4 = 0) : cond22_0 (grid22.coords t) := (hcond22_0 t).mpr h
theorem notFirst22 (t : Fin cfg22.N) (h : ¬t.val % 4 = 0) : ¬cond22_0 (grid22.coords t) := fun hc => h ((hcond22_0 t).mp hc)
theorem isLast22 (t : Fin cfg22.N) (h : t.val % 4 = 3) : cond22_1 (grid22.coords t) := (hcond22_1 t).mpr h
theorem notLast22 (t : Fin cfg22.N) (h : ¬t.val % 4 = 3) : ¬cond22_1 (grid22.coords t) := fun hc => h ((hcond22_1 t).mp hc)

/-! ## The accumulator and the output block, point by point -/

/-- After the body at position `n`: (the output block's buffer, the accumulator). -/
noncomputable def outsAt22 (c : Dev nD) : (n : ℕ) → n < cfg22.N → Vec F S1024x512 .f32 × Vec F S1024x512 .f32
  | 0, hn => (outIdle22, sout22_A c (grid22.coords ⟨0, hn⟩) (ms22_0 ⟨0, hn⟩) (hs22_0 ⟨0, hn⟩) (ms22_1 ⟨0, hn⟩) (hs22_1 ⟨0, hn⟩) (ms22_2 ⟨0, hn⟩) (hs22_2 ⟨0, hn⟩) scM22 (Memref.isWhole_whole _) (isFirst22 ⟨0, hn⟩ (Nat.zero_mod _)) (notLast22 ⟨0, hn⟩ (by simp)) (iblk22 V c 0 ⟨0, hn⟩) (iblk22 V c 1 ⟨0, hn⟩))
  | n + 1, hn =>
    if h0 : (n + 1) % 4 = 0 then
      (outIdle22, sout22_A c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) scM22 (Memref.isWhole_whole _) (isFirst22 ⟨n + 1, hn⟩ h0) (notLast22 ⟨n + 1, hn⟩ (by show ¬(n + 1) % 4 = 3; omega)) (iblk22 V c 0 ⟨n + 1, hn⟩) (iblk22 V c 1 ⟨n + 1, hn⟩))
    else if h3 : (n + 1) % 4 = 3 then
      (out22_C c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) scM22 (Memref.isWhole_whole _) (notFirst22 ⟨n + 1, hn⟩ h0) (isLast22 ⟨n + 1, hn⟩ h3) (iblk22 V c 0 ⟨n + 1, hn⟩) (iblk22 V c 1 ⟨n + 1, hn⟩) (outsAt22 c n (Nat.lt_of_succ_lt hn)).2,
       sout22_C c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) scM22 (Memref.isWhole_whole _) (notFirst22 ⟨n + 1, hn⟩ h0) (isLast22 ⟨n + 1, hn⟩ h3) (iblk22 V c 0 ⟨n + 1, hn⟩) (iblk22 V c 1 ⟨n + 1, hn⟩) (outsAt22 c n (Nat.lt_of_succ_lt hn)).2)
    else
      (outIdle22, sout22_B c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) scM22 (Memref.isWhole_whole _) (notFirst22 ⟨n + 1, hn⟩ h0) (notLast22 ⟨n + 1, hn⟩ h3) (iblk22 V c 0 ⟨n + 1, hn⟩) (iblk22 V c 1 ⟨n + 1, hn⟩) (outsAt22 c n (Nat.lt_of_succ_lt hn)).2)

/-- `outsAt22` at a point with k = 0. -/
theorem outsAt22_A (c : Dev nD) (t : Fin cfg22.N) (h0 : t.val % 4 = 0) :
    outsAt22 V c t.val t.isLt = (outIdle22, sout22_A c (grid22.coords t) (ms22_0 t) (hs22_0 t) (ms22_1 t) (hs22_1 t) (ms22_2 t) (hs22_2 t) scM22 (Memref.isWhole_whole _) (isFirst22 t h0) (notLast22 t (by omega)) (iblk22 V c 0 t) (iblk22 V c 1 t)) := by
  obtain ⟨n, hn⟩ := t
  cases n with
  | zero => rfl
  | succ n => exact (dif_pos h0).trans rfl

/-- `outsAt22` at a point with k = 1, 2: over what the point before left. -/
theorem outsAt22_B (c : Dev nD) (t : Fin cfg22.N) (h0 : ¬t.val % 4 = 0) (h3 : ¬t.val % 4 = 3) :
    outsAt22 V c t.val t.isLt = (outIdle22, sout22_B c (grid22.coords t) (ms22_0 t) (hs22_0 t) (ms22_1 t) (hs22_1 t) (ms22_2 t) (hs22_2 t) scM22 (Memref.isWhole_whole _) (notFirst22 t h0) (notLast22 t h3) (iblk22 V c 0 t) (iblk22 V c 1 t)
      (outsAt22 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt22` at a point with k = 3. -/
theorem outsAt22_C (c : Dev nD) (t : Fin cfg22.N) (h0 : ¬t.val % 4 = 0) (h3 : t.val % 4 = 3) :
    outsAt22 V c t.val t.isLt = (out22_C c (grid22.coords t) (ms22_0 t) (hs22_0 t) (ms22_1 t) (hs22_1 t) (ms22_2 t) (hs22_2 t) scM22 (Memref.isWhole_whole _) (notFirst22 t h0) (isLast22 t h3) (iblk22 V c 0 t) (iblk22 V c 1 t)
        (outsAt22 V c (t.val - 1) (Nat.lt_of_le_of_lt (Nat.sub_le _ _) t.isLt)).2,
      sout22_C c (grid22.coords t) (ms22_0 t) (hs22_0 t) (ms22_1 t) (hs22_1 t) (ms22_2 t) (hs22_2 t) scM22 (Memref.isWhole_whole _) (notFirst22 t h0) (isLast22 t h3) (iblk22 V c 0 t) (iblk22 V c 1 t)
        (outsAt22 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS22 (c : Dev nD) : (n : ℕ) → n ≤ cfg22.N → sProp 𝕄
  | 0, _ => Pipeline.ΦA spec22 c
  | n + 1, hn => iprop(iprop(owns (c : Thread nD τ) scM22 fullShare ((outsAt22 V c n hn).2) ∗ restBut22 c) ∗ (∃ r, prngReg c r))

theorem PhiS22_zero (c : Dev nD) (n : ℕ) (h : n ≤ cfg22.N) (hz : n = 0) : PhiS22 V c n h = Pipeline.ΦA spec22 c := by
  subst hz; rfl
theorem PhiS22_succ (c : Dev nD) (n : ℕ) (hn : n < cfg22.N) :
    PhiS22 V c (n + 1) hn = iprop(iprop(owns (c : Thread nD τ) scM22 fullShare ((outsAt22 V c n hn).2) ∗ restBut22 c) ∗ (∃ r, prngReg c r)) := rfl
theorem PhiS22_pos (c : Dev nD) (n : ℕ) (h : n ≤ cfg22.N) (hz : n ≠ 0) :
    PhiS22 V c n h = iprop(iprop(owns (c : Thread nD τ) scM22 fullShare ((outsAt22 V c (n - 1) (by omega)).2) ∗ restBut22 c) ∗ (∃ r, prngReg c r)) := by
  cases n with
  | zero => exact absurd rfl hz
  | succ n => rfl

/-! ## The proof data -/

/-- The region's proof data on core `c`: the arrays as the region finds them; after the body at point `t` each input's
    buffer at its block and the output's at `outsAt22`'s first component; the invariant `PhiS22`; nothing owed; full shares. -/
noncomputable def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => (outsAt22 V c t.val t.isLt).1
  Φ t := PhiS22 V c t.val (Nat.le_of_lt_succ t.isLt)
  q _ := fullShare
  owed _ := 0

theorem A_eq22 (c : Dev nD) (w : Fin cfg22.W) : (dat22 V c).A w = V c (Pipeline.arrRef spec22 w) := by
  dsimp only [dat22]
theorem PhiS22_castSucc (c : Dev nD) (t : Fin cfg22.N) :
    (dat22 V c).Φ t.castSucc = PhiS22 V c t.val (Nat.le_of_lt t.isLt) := by
  dsimp only [dat22]; simp only [Fin.coe_castSucc]
theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = (outsAt22 V c t.val t.isLt).1 := by dsimp only [dat22]
theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d

/-! ## The body's obligation -/

noncomputable def bodyPre22 (c : Dev nD) (t : Fin cfg22.N) : sProp 𝕄 :=
  iprop((dat22 V c).Φ t.castSucc ∗ (dat22 V c).owesAt () t.castSucc
    ∗ (∃ d, owns (c : Thread nD τ) (ms22_0 t) fullShare ((dat22 V c).before 0 t d))
    ∗ (∃ d, owns (c : Thread nD τ) (ms22_1 t) fullShare ((dat22 V c).before 1 t d))
    ∗ (∃ d, owns (c : Thread nD τ) (ms22_2 t) fullShare ((dat22 V c).before 2 t d)))

noncomputable def bodyPost22 (c : Dev nD) (t : Fin cfg22.N) : sProp 𝕄 :=
  iprop((dat22 V c).Φ t.succ ∗ (dat22 V c).owesAt () t.succ
    ∗ (dat22 V c).leavesExact 0 t
    ∗ (dat22 V c).leavesExact 1 t
    ∗ (dat22 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1]
  rw [show (dat22 V c).owesAt () t.succ = (dat22 V c).owesAt () t.castSucc from rfl]
  rw [show (dat22 V c).Φ t.succ = PhiS22 V c (t.val + 1) t.isLt from rfl, PhiS22_succ]
  rw [show (dat22 V c).leavesExact 0 t = owns (c : Thread nD τ) (ms22_0 t) fullShare ((dat22 V c).after 0 t) from by
    unfold Dat.leavesExact; rw [liveAt22_0 t], after22_0]
  rw [show (dat22 V c).leavesExact 1 t = owns (c : Thread nD τ) (ms22_1 t) fullShare ((dat22 V c).after 1 t) from by
    unfold Dat.leavesExact; rw [liveAt22_1 t], after22_1]
  by_cases h0 : t.val % 4 = 0
  · have h3 : ¬t.val % 4 = 3 := by omega
    rw [Dat.leavesExact_idle (dat22 V c) 2 t (idleAt22_2 t (notLast22 t h3)) (noFlush22_2 t (notLast22 t h3))]
    rw [outsAt22_A V c t h0]
    unfold sout22_A; (try dsimp only)
    by_cases hz : t.val = 0
    · rw [PhiS22_castSucc V c t, PhiS22_zero V c _ _ hz, PhiA22_eq]
      iintro ⟨⟨⟨HS0, Hrb⟩, Hg⟩, Ho, ⟨%d0, H0⟩, ⟨%d1, H1⟩, ⟨%d2, H2⟩⟩
      iapply ((kernelRun22_A c (grid22.coords t) _ _ _ _ _ _ _ _ (isFirst22 t h0) (notLast22 t (by omega)) (iblk22 V c 0 t) (iblk22 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover22_A c _ _ _ _ _ _ _ _ _ _ _ _ _)
          iexact Hrb
        iexact Hg
      isplitl [Ho]; · iexact Ho
      isplitl [H0]; · iexact H0
      isplitl [H1]; · iexact H1
      iexists _; iexact H2
    · rw [PhiS22_castSucc V c t, PhiS22_pos V c _ _ hz]
      iintro ⟨⟨⟨HS0, Hrb⟩, Hg⟩, Ho, ⟨%d0, H0⟩, ⟨%d1, H1⟩, ⟨%d2, H2⟩⟩
      iapply ((kernelRun22_A c (grid22.coords t) _ _ _ _ _ _ _ _ (isFirst22 t h0) (notLast22 t (by omega)) (iblk22 V c 0 t) (iblk22 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover22_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat22 V c).leavesExact 2 t = owns (c : Thread nD τ) (ms22_2 t) fullShare ((dat22 V c).after 2 t) from by
        unfold Dat.leavesExact; rw [liveAt22_2 t (isLast22 t h3)], after22_2]
      rw [outsAt22_C V c t h0 h3]
      unfold out22_C sout22_C; (try dsimp only)
      rw [PhiS22_castSucc V c t, PhiS22_pos V c _ _ hz]
      iintro ⟨⟨⟨HS0, Hrb⟩, Hg⟩, Ho, ⟨%d0, H0⟩, ⟨%d1, H1⟩, ⟨%d2, H2⟩⟩
      iapply ((kernelRun22_C c (grid22.coords t) _ _ _ _ _ _ _ _ (notFirst22 t h0) (isLast22 t h3) (iblk22 V c 0 t) (iblk22 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover22_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover22_C c _ _ _ _ _ _ _ _ _ _ _ _ _ _)
    · rw [Dat.leavesExact_idle (dat22 V c) 2 t (idleAt22_2 t (notLast22 t h3)) (noFlush22_2 t (notLast22 t h3))]
      rw [outsAt22_B V c t h0 h3]
      unfold sout22_B; (try dsimp only)
      rw [PhiS22_castSucc V c t, PhiS22_pos V c _ _ hz]
      iintro ⟨⟨⟨HS0, Hrb⟩, Hg⟩, Ho, ⟨%d0, H0⟩, ⟨%d1, H1⟩, ⟨%d2, H2⟩⟩
      iapply ((kernelRun22_B c (grid22.coords t) _ _ _ _ _ _ _ _ (notFirst22 t h0) (notLast22 t h3) (iblk22 V c 0 t) (iblk22 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover22_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation22 (c : Dev nD) : BodyObligation (dat22 (F := F) V c) (defs₀ (F := F)) Variants.none () Set.univ := fun t => by
  rw [bigSep_W22, bigSep_W22]
  exact sound_body22 V c t

/-- What the region is entered with is the invariant before the first point. -/
theorem hin22 (c : Dev nD) : Pipeline.ΦA spec22 c ⊢ (dat22 V c).Φ 0 := by
  rw [show (dat22 V c).Φ 0 = PhiS22 V c 0 (Nat.zero_le _) from rfl, PhiS22_zero V c 0 _ rfl]
  try exact Idealize.SL.BI.Entails.refl _

/-- After the last point the invariant gives the class's back: the accumulator's contents are forgotten. -/
theorem hout22 (c : Dev nD) : (dat22 V c).Φ (Fin.last cfg22.N) ⊢ Pipeline.ΦA spec22 c := by
  have hN : cfg22.N = 16 := N_22
  rw [show (dat22 V c).Φ (Fin.last cfg22.N) = PhiS22 V c (Fin.last cfg22.N).val (Nat.le_of_lt_succ (Fin.last cfg22.N).isLt) from rfl,
    PhiS22_pos V c _ _ (by rw [Fin.val_last]; omega), PhiA22_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI23a.lean ====
/- Laid out by: python3 scratch/layout_regions.py --template-region 1 --region 23 --program KernelIdeal --parts a,b,c, --out-dir proof/Proof
   from the hand-written text of region 1 (RegKI1a.lean): the same text, the region's number substituted. -/
/-
  Region 23 of @main (custom_call 23): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond23_0 (i : grid23.Coords) : Prop := (Scalar.cmpi .ne (Scalar.extui (Scalar.cmpi .eq (BitVec.ofNat 32 (i 1).val) 0#32)) 0#32) = 1#1
/-- It holds exactly at the points with t % 4 = 0. -/
theorem hcond23_0 : ∀ t : Fin cfg23.N, cond23_0 (grid23.coords t) ↔ t.val % 4 = 0 :=
  (by decide +kernel : ∀ t : Fin grid23.N, cond23_0 (grid23.coords t) ↔ t.val % 4 = 0)

/-- "k = 3": the second conditional's test. -/
abbrev cond23_1 (i : grid23.Coords) : Prop := k23_cond2 i = 1#1
/-- It holds exactly at the points with t % 4 = 3. -/
theorem hcond23_1 : ∀ t : Fin cfg23.N, cond23_1 (grid23.coords t) ↔ t.val % 4 = 3 :=
  (by decide +kernel : ∀ t : Fin grid23.N, cond23_1 (grid23.coords t) ↔ t.val % 4 = 3)

/-! ## Where the windows are idle, and where the output is written back -/

/-- The two input windows are never idle. -/
theorem liveAt23_0 : ∀ t : Fin cfg23.N, cfg23.idle 0 (grid23.coords t) = false := by decide +kernel
theorem liveAt23_1 : ∀ t : Fin cfg23.N, cfg23.idle 1 (grid23.coords t) = false := by decide +kernel
/-- Where k ≠ 3 the output window is idle (the body stores nothing into it) and is not written back. -/
theorem idleAt23_2 : ∀ t : Fin cfg23.N, ¬cond23_1 (grid23.coords t) → cfg23.idle 2 (grid23.coords t) = true := by decide +kernel
theorem noFlush23_2 : ∀ t : Fin cfg23.N, ¬cond23_1 (grid23.coords t) → (cfg23.win 2).flush t = false := by decide +kernel
/-- Where k = 3 it is live. -/
theorem liveAt23_2 : ∀ t : Fin cfg23.N, cond23_1 (grid23.coords t) → cfg23.idle 2 (grid23.coords t) = false := by decide +kernel

/-! ## The staging memrefs at a point, and the scratch -/

/-- One staging buffer of the output window, through which its contents are stated. -/
abbrev VO23_2 : View sig .tc .vmem S1024x512 .f32 := (Memref.whole cc23_stg2_0 : Memref sig .tc .vmem S1024x512 .f32).view
abbrev ms23_0 (t : Fin cfg23.N) : Memref sig .tc .vmem S1024x1024 .bf16 := win23_0.stage (cfg23.slots t 0)
abbrev hs23_0 (t : Fin cfg23.N) : (ms23_0 t).IsWhole := hstage23_0 ((cfg23.slots t 0).cast nbuf23_0)
abbrev ms23_1 (t : Fin cfg23.N) : Memref sig .tc .vmem S1024x512 .f32 := win23_1.stage (cfg23.slots t 1)
abbrev hs23_1 (t : Fin cfg23.N) : (ms23_1 t).IsWhole := hstage23_1 ((cfg23.slots t 1).cast nbuf23_1)
abbrev ms23_2 (t : Fin cfg23.N) : Memref sig .tc .vmem S1024x512 .f32 := win23_2.stage (cfg23.slots t 2)
abbrev hs23_2 (t : Fin cfg23.N) : (ms23_2 t).IsWhole := hstage23_2 ((cfg23.slots t 2).cast nbuf23_2)
/-- The accumulator: a whole scoped buffer of the kernel's own. -/
abbrev scM23 : Memref sig .tc .vmem S1024x512 .f32 := Memref.whole cc23_scratch0
abbrev VS23 : View sig .tc .vmem S1024x512 .f32 := scM23.view

/-- The other scoped buffers of the core, none of which this region touches. -/
abbrev restBut23 (c : Dev nD) : sProp 𝕄 :=
  Pipeline.scopedRestBut (Ix := Unit) (Name := ℕ) (U := UR sig nD τ) (Lvl := ℕ) (Val := Elt F) spec23 c [cc23_scratch0]

/-- The region's invariant before its first point: the accumulator at something, the other scoped buffers, the generator register. -/
theorem PhiA23_eq (c : Dev nD) :
    (Pipeline.ΦA spec23 c : sProp 𝕄)
      = iprop(iprop((∃ d, owns (c : Thread nD τ) scM23 fullShare d) ∗ restBut23 c) ∗ (∃ r, prngReg c r)) := by
  unfold Pipeline.ΦA; rw [scopedRest23_split]; simp only [scM23, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun23_A (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond23_0 i) (hc1 : ¬cond23_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc23__matmul_kernel i arg2 harg2 arg3 harg3 arg4 harg4 arg5 harg5) K } := by
  refine ⟨[], ?_, fun xi2 E K => ?run⟩
  case run =>
    simp only [cc23__matmul_kernel_eq_skeleton]; unfold cc23__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI23b.lean ====
/- Laid out by: python3 scratch/layout_regions.py --template-region 1 --region 23 --program KernelIdeal --parts a,b,c, --out-dir proof/Proof
   from the hand-written text of region 1 (RegKI1b.lean): the same text, the region's number substituted. -/
/-
  Region 23, case B (k = 1, 2): the body's run. Neither conditional is taken: the product of the two blocks is added to what
  the point before left in the accumulator; the output block is not touched.
-/
import proofs.«158944_j64613488001249_1_alg».proof.Proof.RegKI23a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun23_B (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond23_0 i) (hc1 : ¬cond23_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc23__matmul_kernel i arg2 harg2 arg3 harg3 arg4 harg4 arg5 harg5) K } := by
  refine ⟨[], ?_, fun xi2 E K => ?run⟩
  case run =>
    simp only [cc23__matmul_kernel_eq_skeleton]; unfold cc23__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI23c.lean ====
/- Laid out by: python3 scratch/layout_regions.py --template-region 1 --region 23 --program KernelIdeal --parts a,b,c, --out-dir proof/Proof
   from the hand-written text of region 1 (RegKI1c.lean): the same text, the region's number substituted. -/
/-
  Region 23, case C (k = 3): the body's run. The product is added to the accumulator as in case B, and then the second
  conditional copies the accumulator over the whole output block.
-/
import proofs.«158944_j64613488001249_1_alg».proof.Proof.RegKI23b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun23_C (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond23_0 i) (hc1 : cond23_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc23__matmul_kernel i arg2 harg2 arg3 harg3 arg4 harg4 arg5 harg5) K } := by
  refine ⟨?_, ?_, fun E K => ?run⟩
  case run =>
    simp only [cc23__matmul_kernel_eq_skeleton]; unfold cc23__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI23.lean ====
/- Laid out by: python3 scratch/layout_regions.py --template-region 1 --region 23 --program KernelIdeal --parts a,b,c, --out-dir proof/Proof
   from the hand-written text of region 1 (RegKI1.lean): the same text, the region's number substituted. -/
/-
  Region 23 of @main, entered from the buffer contents `V`: what its windows' blocks are, what each case of the body leaves in
  the accumulator and in the output block, the accumulator and the output block point by point (`outsAt23`: at k = 0 the
  accumulator restarts from zeros plus the product; at k = 1, 2, 3 it is the point before's plus the product; at k = 3 the
  output block is the accumulator), the region's invariant (the accumulator at `outsAt23`'s second component), the proof data,
  and the body's obligation at every point.
-/
import proofs.«158944_j64613488001249_1_alg».proof.Proof.RegKI23c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk23 (c : Dev nD) (w : Fin cfg23.W) (t : Fin cfg23.N) : ((cfg23.win w).xblock (cfg23.grid.coords t)).Idx → Elt F (cfg23.win w).elt :=
  ((cfg23.win w).blk t).view.read (Elt F) (V c (Pipeline.arrRef spec23 w))

/-- An input window's current staging buffer holds its block at every point, for any proof data whose array is `V`'s and
    whose body leaves the block in place. -/
theorem before23_0_of {c : Dev nD} (dat : Dat τ (Elt F) Unit ℕ (UR sig nD τ) ℕ cfg23 c) (hA : dat.A 0 = V c (Pipeline.arrRef spec23 0))
    (hafter : ∀ t, dat.after 0 t = iblk23 V c 0 t) (t : Fin cfg23.N) (d) : dat.before 0 t d = iblk23 V c 0 t :=
  (dat.before_in_eq_fetched 0 rfl (fun _ => rfl) (fun _ _ _ => rfl) (fun t => by rw [hafter]; unfold Dat.blockOf iblk23; rw [hA]; try rfl) t d).trans
    (by unfold Dat.fetched Dat.blockOf iblk23; rw [hA]; try rfl)
theorem before23_1_of {c : Dev nD} (dat : Dat τ (Elt F) Unit ℕ (UR sig nD τ) ℕ cfg23 c) (hA : dat.A 1 = V c (Pipeline.arrRef spec23 1))
    (hafter : ∀ t, dat.after 1 t = iblk23 V c 1 t) (t : Fin cfg23.N) (d) : dat.before 1 t d = iblk23 V c 1 t :=
  (dat.before_in_eq_fetched 1 rfl (fun _ => rfl) (fun _ _ _ => rfl) (fun t => by rw [hafter]; unfold Dat.blockOf iblk23; rw [hA]; try rfl) t d).trans
    (by unfold Dat.fetched Dat.blockOf iblk23; rw [hA]; try rfl)

/-! ## What each case leaves -/

/-- Case A's stores into the accumulator cover it. -/
theorem scover23_A (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond23_0 i) (hc1 : ¬cond23_1 i)
    (x0 : Vec F S1024x1024 .bf16) (x1 : Vec F S1024x512 .f32) (y : S1024x512.Idx) :
    ∃ pc ∈ (kernelRun23_A c i arg2 harg2 arg3 harg3 arg4 harg4 arg5 harg5 hc0 hc1 x0 x1).2.1, y ∈ pc.1.set :=
  View.cover_of_tiledL (kernelRun23_A c i arg2 harg2 arg3 harg3 arg4 harg4 arg5 harg5 hc0 hc1 x0 x1).2.1 S1024x512.size (by sl_kernel_rfl) y
/-- What case A leaves in the accumulator. -/
noncomputable def sout23_A (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond23_0 i) (hc1 : ¬cond23_1 i)
    (x0 : Vec F S1024x1024 .bf16) (x1 : Vec F S1024x512 .f32) : Vec F S1024x512 .f32 :=
  VS23.read (Elt F) (VS23.writes (Elt F) VS23.junk (kernelRun23_A c i arg2 harg2 arg3 harg3 arg4 harg4 arg5 harg5 hc0 hc1 x0 x1).2.1)

/-- Case B's store into the accumulator covers it. -/
theorem scover23_B (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond23_0 i) (hc1 : ¬cond23_1 i)
    (x0 : Vec F S1024x1024 .bf16) (x1 : Vec F S1024x512 .f32) (xs0 : Vec F S1024x512 .f32) (y : S1024x512.Idx) :
    ∃ pc ∈ (kernelRun23_B c i arg2 harg2 arg3 harg3 arg4 harg4 arg5 harg5 hc0 hc1 x0 x1 xs0).2.1, y ∈ pc.1.set :=
  View.cover_of_tiledL (kernelRun23_B c i arg2 harg2 arg3 harg3 arg4 harg4 arg5 harg5 hc0 hc1 x0 x1 xs0).2.1 S1024x512.size (by sl_kernel_rfl) y
/-- What case B leaves in the accumulator, over what the point before left. -/
noncomputable def sout23_B (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond23_0 i) (hc1 : ¬cond23_1 i)
    (x0 : Vec F S1024x1024 .bf16) (x1 : Vec F S1024x512 .f32) (xs0 : Vec F S1024x512 .f32) : Vec F S1024x512 .f32 :=
  VS23.read (Elt F) (VS23.writes (Elt F) VS23.junk (kernelRun23_B c i arg2 harg2 arg3 harg3 arg4 harg4 arg5 harg5 hc0 hc1 x0 x1 xs0).2.1)

/-- Case C's store into the output block covers it, and so does its store into the accumulator. -/
theorem cover23_C (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond23_0 i) (hc1 : cond23_1 i)
    (x0 : Vec F S1024x1024 .bf16) (x1 : Vec F S1024x512 .f32) (xs0 : Vec F S1024x512 .f32) (y : S1024x512.Idx) :
    ∃ pc ∈ (kernelRun23_C c i arg2 harg2 arg3 harg3 arg4 harg4 arg5 harg5 hc0 hc1 x0 x1 xs0).1, y ∈ pc.1.set :=
  View.cover_of_tiledL (kernelRun23_C c i arg2 harg2 arg3 harg3 arg4 harg4 arg5 harg5 hc0 hc1 x0 x1 xs0).1 S1024x512.size (by sl_kernel_rfl) y
theorem scover23_C (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond23_0 i) (hc1 : cond23_1 i)
    (x0 : Vec F S1024x1024 .bf16) (x1 : Vec F S1024x512 .f32) (xs0 : Vec F S1024x512 .f32) (y : S1024x512.Idx) :
    ∃ pc ∈ (kernelRun23_C c i arg2 harg2 arg3 harg3 arg4 harg4 arg5 harg5 hc0 hc1 x0 x1 xs0).2.1, y ∈ pc.1.set :=
  View.cover_of_tiledL (kernelRun23_C c i arg2 harg2 arg3 harg3 arg4 harg4 arg5 harg5 hc0 hc1 x0 x1 xs0).2.1 S1024x512.size (by sl_kernel_rfl) y
/-- What case C leaves in the output block, and in the accumulator. -/
noncomputable def out23_C (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond23_0 i) (hc1 : cond23_1 i)
    (x0 : Vec F S1024x1024 .bf16) (x1 : Vec F S1024x512 .f32) (xs0 : Vec F S1024x512 .f32) : Vec F S1024x512 .f32 :=
  VO23_2.read (Elt F) (VO23_2.writes (Elt F) VO23_2.junk (kernelRun23_C c i arg2 harg2 arg3 harg3 arg4 harg4 arg5 harg5 hc0 hc1 x0 x1 xs0).1)
noncomputable def sout23_C (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond23_0 i) (hc1 : cond23_1 i)
    (x0 : Vec F S1024x1024 .bf16) (x1 : Vec F S1024x512 .f32) (xs0 : Vec F S1024x512 .f32) : Vec F S1024x512 .f32 :=
  VS23.read (Elt F) (VS23.writes (Elt F) VS23.junk (kernelRun23_C c i arg2 harg2 arg3 harg3 arg4 harg4 arg5 harg5 hc0 hc1 x0 x1 xs0).2.1)

/-- Where the output block is idle nothing consults what it holds: a placeholder. -/
noncomputable def outIdle23 : Vec F S1024x512 .f32 := VO23_2.read (Elt F) (VO23_2.writes (Elt F) VO23_2.junk [])

/-! ## The conditions at a point, from t % 4 -/

theorem isFirst23 (t : Fin cfg23.N) (h : t.val % 4 = 0) : cond23_0 (grid23.coords t) := (hcond23_0 t).mpr h
theorem notFirst23 (t : Fin cfg23.N) (h : ¬t.val % 4 = 0) : ¬cond23_0 (grid23.coords t) := fun hc => h ((hcond23_0 t).mp hc)
theorem isLast23 (t : Fin cfg23.N) (h : t.val % 4 = 3) : cond23_1 (grid23.coords t) := (hcond23_1 t).mpr h
theorem notLast23 (t : Fin cfg23.N) (h : ¬t.val % 4 = 3) : ¬cond23_1 (grid23.coords t) := fun hc => h ((hcond23_1 t).mp hc)

/-! ## The accumulator and the output block, point by point -/

/-- After the body at position `n`: (the output block's buffer, the accumulator). -/
noncomputable def outsAt23 (c : Dev nD) : (n : ℕ) → n < cfg23.N → Vec F S1024x512 .f32 × Vec F S1024x512 .f32
  | 0, hn => (outIdle23, sout23_A c (grid23.coords ⟨0, hn⟩) (ms23_0 ⟨0, hn⟩) (hs23_0 ⟨0, hn⟩) (ms23_1 ⟨0, hn⟩) (hs23_1 ⟨0, hn⟩) (ms23_2 ⟨0, hn⟩) (hs23_2 ⟨0, hn⟩) scM23 (Memref.isWhole_whole _) (isFirst23 ⟨0, hn⟩ (Nat.zero_mod _)) (notLast23 ⟨0, hn⟩ (by simp)) (iblk23 V c 0 ⟨0, hn⟩) (iblk23 V c 1 ⟨0, hn⟩))
  | n + 1, hn =>
    if h0 : (n + 1) % 4 = 0 then
      (outIdle23, sout23_A c (grid23.coords ⟨n + 1, hn⟩) (ms23_0 ⟨n + 1, hn⟩) (hs23_0 ⟨n + 1, hn⟩) (ms23_1 ⟨n + 1, hn⟩) (hs23_1 ⟨n + 1, hn⟩) (ms23_2 ⟨n + 1, hn⟩) (hs23_2 ⟨n + 1, hn⟩) scM23 (Memref.isWhole_whole _) (isFirst23 ⟨n + 1, hn⟩ h0) (notLast23 ⟨n + 1, hn⟩ (by show ¬(n + 1) % 4 = 3; omega)) (iblk23 V c 0 ⟨n + 1, hn⟩) (iblk23 V c 1 ⟨n + 1, hn⟩))
    else if h3 : (n + 1) % 4 = 3 then
      (out23_C c (grid23.coords ⟨n + 1, hn⟩) (ms23_0 ⟨n + 1, hn⟩) (hs23_0 ⟨n + 1, hn⟩) (ms23_1 ⟨n + 1, hn⟩) (hs23_1 ⟨n + 1, hn⟩) (ms23_2 ⟨n + 1, hn⟩) (hs23_2 ⟨n + 1, hn⟩) scM23 (Memref.isWhole_whole _) (notFirst23 ⟨n + 1, hn⟩ h0) (isLast23 ⟨n + 1, hn⟩ h3) (iblk23 V c 0 ⟨n + 1, hn⟩) (iblk23 V c 1 ⟨n + 1, hn⟩) (outsAt23 c n (Nat.lt_of_succ_lt hn)).2,
       sout23_C c (grid23.coords ⟨n + 1, hn⟩) (ms23_0 ⟨n + 1, hn⟩) (hs23_0 ⟨n + 1, hn⟩) (ms23_1 ⟨n + 1, hn⟩) (hs23_1 ⟨n + 1, hn⟩) (ms23_2 ⟨n + 1, hn⟩) (hs23_2 ⟨n + 1, hn⟩) scM23 (Memref.isWhole_whole _) (notFirst23 ⟨n + 1, hn⟩ h0) (isLast23 ⟨n + 1, hn⟩ h3) (iblk23 V c 0 ⟨n + 1, hn⟩) (iblk23 V c 1 ⟨n + 1, hn⟩) (outsAt23 c n (Nat.lt_of_succ_lt hn)).2)
    else
      (outIdle23, sout23_B c (grid23.coords ⟨n + 1, hn⟩) (ms23_0 ⟨n + 1, hn⟩) (hs23_0 ⟨n + 1, hn⟩) (ms23_1 ⟨n + 1, hn⟩) (hs23_1 ⟨n + 1, hn⟩) (ms23_2 ⟨n + 1, hn⟩) (hs23_2 ⟨n + 1, hn⟩) scM23 (Memref.isWhole_whole _) (notFirst23 ⟨n + 1, hn⟩ h0) (notLast23 ⟨n + 1, hn⟩ h3) (iblk23 V c 0 ⟨n + 1, hn⟩) (iblk23 V c 1 ⟨n + 1, hn⟩) (outsAt23 c n (Nat.lt_of_succ_lt hn)).2)

/-- `outsAt23` at a point with k = 0. -/
theorem outsAt23_A (c : Dev nD) (t : Fin cfg23.N) (h0 : t.val % 4 = 0) :
    outsAt23 V c t.val t.isLt = (outIdle23, sout23_A c (grid23.coords t) (ms23_0 t) (hs23_0 t) (ms23_1 t) (hs23_1 t) (ms23_2 t) (hs23_2 t) scM23 (Memref.isWhole_whole _) (isFirst23 t h0) (notLast23 t (by omega)) (iblk23 V c 0 t) (iblk23 V c 1 t)) := by
  obtain ⟨n, hn⟩ := t
  cases n with
  | zero => rfl
  | succ n => exact (dif_pos h0).trans rfl

/-- `outsAt23` at a point with k = 1, 2: over what the point before left. -/
theorem outsAt23_B (c : Dev nD) (t : Fin cfg23.N) (h0 : ¬t.val % 4 = 0) (h3 : ¬t.val % 4 = 3) :
    outsAt23 V c t.val t.isLt = (outIdle23, sout23_B c (grid23.coords t) (ms23_0 t) (hs23_0 t) (ms23_1 t) (hs23_1 t) (ms23_2 t) (hs23_2 t) scM23 (Memref.isWhole_whole _) (notFirst23 t h0) (notLast23 t h3) (iblk23 V c 0 t) (iblk23 V c 1 t)
      (outsAt23 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt23` at a point with k = 3. -/
theorem outsAt23_C (c : Dev nD) (t : Fin cfg23.N) (h0 : ¬t.val % 4 = 0) (h3 : t.val % 4 = 3) :
    outsAt23 V c t.val t.isLt = (out23_C c (grid23.coords t) (ms23_0 t) (hs23_0 t) (ms23_1 t) (hs23_1 t) (ms23_2 t) (hs23_2 t) scM23 (Memref.isWhole_whole _) (notFirst23 t h0) (isLast23 t h3) (iblk23 V c 0 t) (iblk23 V c 1 t)
        (outsAt23 V c (t.val - 1) (Nat.lt_of_le_of_lt (Nat.sub_le _ _) t.isLt)).2,
      sout23_C c (grid23.coords t) (ms23_0 t) (hs23_0 t) (ms23_1 t) (hs23_1 t) (ms23_2 t) (hs23_2 t) scM23 (Memref.isWhole_whole _) (notFirst23 t h0) (isLast23 t h3) (iblk23 V c 0 t) (iblk23 V c 1 t)
        (outsAt23 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS23 (c : Dev nD) : (n : ℕ) → n ≤ cfg23.N → sProp 𝕄
  | 0, _ => Pipeline.ΦA spec23 c
  | n + 1, hn => iprop(iprop(owns (c : Thread nD τ) scM23 fullShare ((outsAt23 V c n hn).2) ∗ restBut23 c) ∗ (∃ r, prngReg c r))

theorem PhiS23_zero (c : Dev nD) (n : ℕ) (h : n ≤ cfg23.N) (hz : n = 0) : PhiS23 V c n h = Pipeline.ΦA spec23 c := by
  subst hz; rfl
theorem PhiS23_succ (c : Dev nD) (n : ℕ) (hn : n < cfg23.N) :
    PhiS23 V c (n + 1) hn = iprop(iprop(owns (c : Thread nD τ) scM23 fullShare ((outsAt23 V c n hn).2) ∗ restBut23 c) ∗ (∃ r, prngReg c r)) := rfl
theorem PhiS23_pos (c : Dev nD) (n : ℕ) (h : n ≤ cfg23.N) (hz : n ≠ 0) :
    PhiS23 V c n h = iprop(iprop(owns (c : Thread nD τ) scM23 fullShare ((outsAt23 V c (n - 1) (by omega)).2) ∗ restBut23 c) ∗ (∃ r, prngReg c r)) := by
  cases n with
  | zero => exact absurd rfl hz
  | succ n => rfl

/-! ## The proof data -/

/-- The region's proof data on core `c`: the arrays as the region finds them; after the body at point `t` each input's
    buffer at its block and the output's at `outsAt23`'s first component; the invariant `PhiS23`; nothing owed; full shares. -/
noncomputable def dat23 (c : Dev nD) : Dat τ (Elt F) Unit ℕ (UR sig nD τ) ℕ cfg23 c where
  A w := V c (Pipeline.arrRef spec23 w)
  after w t := match w with
    | ⟨0, _⟩ => iblk23 V c 0 t
    | ⟨1, _⟩ => iblk23 V c 1 t
    | ⟨2, _⟩ => (outsAt23 V c t.val t.isLt).1
  Φ t := PhiS23 V c t.val (Nat.le_of_lt_succ t.isLt)
  q _ := fullShare
  owed _ := 0

theorem A_eq23 (c : Dev nD) (w : Fin cfg23.W) : (dat23 V c).A w = V c (Pipeline.arrRef spec23 w) := by
  dsimp only [dat23]
theorem PhiS23_castSucc (c : Dev nD) (t : Fin cfg23.N) :
    (dat23 V c).Φ t.castSucc = PhiS23 V c t.val (Nat.le_of_lt t.isLt) := by
  dsimp only [dat23]; simp only [Fin.coe_castSucc]
theorem after23_0 (c : Dev nD) (t : Fin cfg23.N) : (dat23 V c).after 0 t = iblk23 V c 0 t := by dsimp only [dat23]
theorem after23_1 (c : Dev nD) (t : Fin cfg23.N) : (dat23 V c).after 1 t = iblk23 V c 1 t := by dsimp only [dat23]
theorem after23_2 (c : Dev nD) (t : Fin cfg23.N) : (dat23 V c).after 2 t = (outsAt23 V c t.val t.isLt).1 := by dsimp only [dat23]
theorem before23_0 (c : Dev nD) (t : Fin cfg23.N) (d) : (dat23 V c).before 0 t d = iblk23 V c 0 t :=
  before23_0_of V (dat23 V c) (A_eq23 V c 0) (after23_0 V c) t d
theorem before23_1 (c : Dev nD) (t : Fin cfg23.N) (d) : (dat23 V c).before 1 t d = iblk23 V c 1 t :=
  before23_1_of V (dat23 V c) (A_eq23 V c 1) (after23_1 V c) t d

/-! ## The body's obligation -/

noncomputable def bodyPre23 (c : Dev nD) (t : Fin cfg23.N) : sProp 𝕄 :=
  iprop((dat23 V c).Φ t.castSucc ∗ (dat23 V c).owesAt () t.castSucc
    ∗ (∃ d, owns (c : Thread nD τ) (ms23_0 t) fullShare ((dat23 V c).before 0 t d))
    ∗ (∃ d, owns (c : Thread nD τ) (ms23_1 t) fullShare ((dat23 V c).before 1 t d))
    ∗ (∃ d, owns (c : Thread nD τ) (ms23_2 t) fullShare ((dat23 V c).before 2 t d)))

noncomputable def bodyPost23 (c : Dev nD) (t : Fin cfg23.N) : sProp 𝕄 :=
  iprop((dat23 V c).Φ t.succ ∗ (dat23 V c).owesAt () t.succ
    ∗ (dat23 V c).leavesExact 0 t
    ∗ (dat23 V c).leavesExact 1 t
    ∗ (dat23 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body23 (c : Dev nD) (t : Fin cfg23.N) :
    bodyPre23 V c t ⊢ wp frame (wpE (defs₀ (F := F)) Variants.none c none) Set.univ (bodyAt23 t) (fun _ => bodyPost23 V c t) := by
  unfold bodyPre23 bodyPost23 bodyAt23
  simp only [before23_0, before23_1]
  rw [show (dat23 V c).owesAt () t.succ = (dat23 V c).owesAt () t.castSucc from rfl]
  rw [show (dat23 V c).Φ t.succ = PhiS23 V c (t.val + 1) t.isLt from rfl, PhiS23_succ]
  rw [show (dat23 V c).leavesExact 0 t = owns (c : Thread nD τ) (ms23_0 t) fullShare ((dat23 V c).after 0 t) from by
    unfold Dat.leavesExact; rw [liveAt23_0 t], after23_0]
  rw [show (dat23 V c).leavesExact 1 t = owns (c : Thread nD τ) (ms23_1 t) fullShare ((dat23 V c).after 1 t) from by
    unfold Dat.leavesExact; rw [liveAt23_1 t], after23_1]
  by_cases h0 : t.val % 4 = 0
  · have h3 : ¬t.val % 4 = 3 := by omega
    rw [Dat.leavesExact_idle (dat23 V c) 2 t (idleAt23_2 t (notLast23 t h3)) (noFlush23_2 t (notLast23 t h3))]
    rw [outsAt23_A V c t h0]
    unfold sout23_A; (try dsimp only)
    by_cases hz : t.val = 0
    · rw [PhiS23_castSucc V c t, PhiS23_zero V c _ _ hz, PhiA23_eq]
      iintro ⟨⟨⟨HS0, Hrb⟩, Hg⟩, Ho, ⟨%d0, H0⟩, ⟨%d1, H1⟩, ⟨%d2, H2⟩⟩
      iapply ((kernelRun23_A c (grid23.coords t) _ _ _ _ _ _ _ _ (isFirst23 t h0) (notLast23 t (by omega)) (iblk23 V c 0 t) (iblk23 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover23_A c _ _ _ _ _ _ _ _ _ _ _ _ _)
          iexact Hrb
        iexact Hg
      isplitl [Ho]; · iexact Ho
      isplitl [H0]; · iexact H0
      isplitl [H1]; · iexact H1
      iexists _; iexact H2
    · rw [PhiS23_castSucc V c t, PhiS23_pos V c _ _ hz]
      iintro ⟨⟨⟨HS0, Hrb⟩, Hg⟩, Ho, ⟨%d0, H0⟩, ⟨%d1, H1⟩, ⟨%d2, H2⟩⟩
      iapply ((kernelRun23_A c (grid23.coords t) _ _ _ _ _ _ _ _ (isFirst23 t h0) (notLast23 t (by omega)) (iblk23 V c 0 t) (iblk23 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover23_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat23 V c).leavesExact 2 t = owns (c : Thread nD τ) (ms23_2 t) fullShare ((dat23 V c).after 2 t) from by
        unfold Dat.leavesExact; rw [liveAt23_2 t (isLast23 t h3)], after23_2]
      rw [outsAt23_C V c t h0 h3]
      unfold out23_C sout23_C; (try dsimp only)
      rw [PhiS23_castSucc V c t, PhiS23_pos V c _ _ hz]
      iintro ⟨⟨⟨HS0, Hrb⟩, Hg⟩, Ho, ⟨%d0, H0⟩, ⟨%d1, H1⟩, ⟨%d2, H2⟩⟩
      iapply ((kernelRun23_C c (grid23.coords t) _ _ _ _ _ _ _ _ (notFirst23 t h0) (isLast23 t h3) (iblk23 V c 0 t) (iblk23 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover23_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover23_C c _ _ _ _ _ _ _ _ _ _ _ _ _ _)
    · rw [Dat.leavesExact_idle (dat23 V c) 2 t (idleAt23_2 t (notLast23 t h3)) (noFlush23_2 t (notLast23 t h3))]
      rw [outsAt23_B V c t h0 h3]
      unfold sout23_B; (try dsimp only)
      rw [PhiS23_castSucc V c t, PhiS23_pos V c _ _ hz]
      iintro ⟨⟨⟨HS0, Hrb⟩, Hg⟩, Ho, ⟨%d0, H0⟩, ⟨%d1, H1⟩, ⟨%d2, H2⟩⟩
      iapply ((kernelRun23_B c (grid23.coords t) _ _ _ _ _ _ _ _ (notFirst23 t h0) (notLast23 t h3) (iblk23 V c 0 t) (iblk23 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover23_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation23 (c : Dev nD) : BodyObligation (dat23 (F := F) V c) (defs₀ (F := F)) Variants.none () Set.univ := fun t => by
  rw [bigSep_W23, bigSep_W23]
  exact sound_body23 V c t

/-- What the region is entered with is the invariant before the first point. -/
theorem hin23 (c : Dev nD) : Pipeline.ΦA spec23 c ⊢ (dat23 V c).Φ 0 := by
  rw [show (dat23 V c).Φ 0 = PhiS23 V c 0 (Nat.zero_le _) from rfl, PhiS23_zero V c 0 _ rfl]
  try exact Idealize.SL.BI.Entails.refl _

/-- After the last point the invariant gives the class's back: the accumulator's contents are forgotten. -/
theorem hout23 (c : Dev nD) : (dat23 V c).Φ (Fin.last cfg23.N) ⊢ Pipeline.ΦA spec23 c := by
  have hN : cfg23.N = 16 := N_23
  rw [show (dat23 V c).Φ (Fin.last cfg23.N) = PhiS23 V c (Fin.last cfg23.N).val (Nat.le_of_lt_succ (Fin.last cfg23.N).isLt) from rfl,
    PhiS23_pos V c _ _ (by rw [Fin.val_last]; omega), PhiA23_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI24a.lean ====
/- Laid out by: python3 scratch/layout_grid41.py --template-region 0 --region 24 --program KernelIdeal --parts a, --shapes S1024x128=S1024x512,S128x512=S512x512
   from the hand-written text of region 0 (RegKI0a.lean): the same text, the region's number, block shapes substituted. -/
/- The region of KernelIdeal's @main that runs `cc24__matmul_kernel` (pipeline `cfg24`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond24_0 (i : grid24.Coords) : Prop :=
  (Scalar.cmpi .ne (Scalar.extui (Scalar.cmpi .eq (BitVec.ofNat 32 (i 1).val) 0#32)) 0#32) = 1#1
/-- True at every point: the reduction axis has one step. -/
theorem hcond24_0 : ∀ t : Fin cfg24.N, cond24_0 (grid24.coords t) :=
  (by decide +kernel : ∀ t : Fin grid24.N, cond24_0 (grid24.coords t))

/-- "This is the last reduction step" (the guard of the copy to the output block). -/
abbrev cond24_1 (i : grid24.Coords) : Prop := k24_cond2 i = 1#1
/-- True at every point, for the same reason. -/
theorem hcond24_1 : ∀ t : Fin cfg24.N, cond24_1 (grid24.coords t) :=
  (by decide +kernel : ∀ t : Fin grid24.N, cond24_1 (grid24.coords t))

/-! ## No window is idle anywhere -/

theorem liveAt24_0 : ∀ t : Fin cfg24.N, cfg24.idle 0 (grid24.coords t) = false := by decide +kernel
theorem liveAt24_1 : ∀ t : Fin cfg24.N, cfg24.idle 1 (grid24.coords t) = false := by decide +kernel
/-- The output window is stored at every point (the copy's guard holds everywhere). -/
theorem liveAt24_2 : ∀ t : Fin cfg24.N, cfg24.idle 2 (grid24.coords t) = false := by decide +kernel

/-! ## The memrefs the body is called on -/

/-- One staging buffer of the output window, through which its contents are stated (any whole view of the shape reads the
    same pieces back the same way). -/
abbrev VO24_2 : View sig .tc .vmem S1024x512 .f32 := (Memref.whole cc24_stg2_0 : Memref sig .tc .vmem S1024x512 .f32).view
/-- Each window's current staging memref at point `t`, spelt as the pipeline passes it, with its wholeness. -/
abbrev ms24_0 (t : Fin cfg24.N) : Memref sig .tc .vmem S1024x512 .f32 := win24_0.stage (cfg24.slots t 0)
abbrev hs24_0 (t : Fin cfg24.N) : (ms24_0 t).IsWhole := hstage24_0 ((cfg24.slots t 0).cast nbuf24_0)
abbrev ms24_1 (t : Fin cfg24.N) : Memref sig .tc .vmem S512x512 .bf16 := win24_1.stage (cfg24.slots t 1)
abbrev hs24_1 (t : Fin cfg24.N) : (ms24_1 t).IsWhole := hstage24_1 ((cfg24.slots t 1).cast nbuf24_1)
abbrev ms24_2 (t : Fin cfg24.N) : Memref sig .tc .vmem S1024x512 .f32 := win24_2.stage (cfg24.slots t 2)
abbrev hs24_2 (t : Fin cfg24.N) : (ms24_2 t).IsWhole := hstage24_2 ((cfg24.slots t 2).cast nbuf24_2)
/-- The accumulator: a whole scoped buffer of the kernel's own, passed beside the windows. -/
abbrev scM24_0 : Memref sig .tc .vmem S1024x512 .f32 := Memref.whole cc24_scratch0
abbrev VS24_0 : View sig .tc .vmem S1024x512 .f32 := scM24_0.view

/-- The region invariant with the accumulator taken out of the scoped rest: the accumulator owned at some contents, every
    other scoped buffer unopened, and the generator register. -/
theorem PhiA24_eq (c : Dev nD) :
    (Pipeline.ΦA spec24 c : sProp 𝕄)
      = iprop(iprop(iprop((∃ d, owns (c : Thread nD τ) scM24_0 fullShare d))
            ∗ Pipeline.scopedRestBut (Ix := Unit) (Name := ℕ) (U := UR sig nD τ) (Lvl := ℕ) (Val := Elt F) spec24 c [cc24_scratch0])
          ∗ (∃ r, prngReg c r)) := by
  unfold Pipeline.ΦA; rw [scopedRest24_split]; simp only [scM24_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun24 (c : Dev nD) (i : grid24.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond24_0 i) (hlast : cond24_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc24__matmul_kernel i arg2 harg2 arg3 harg3 arg4 harg4 arg5 harg5) K } := by
  refine ⟨?_, ?_, fun E K => ?run⟩
  case run =>
    simp only [cc24__matmul_kernel_eq_skeleton]; unfold cc24__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.KernelIdeal.Hand

end
-- ==== Proof.RegKI24.lean ====
/- Laid out by: python3 scratch/layout_grid41.py --template-region 0 --region 24 --program KernelIdeal --parts a, --shapes S1024x128=S1024x512,S128x512=S512x512
   from the hand-written text of region 0 (RegKI0.lean): the same text, the region's number, block shapes substituted. -/
/- The region of KernelIdeal's @main that runs `cc24__matmul_kernel` (pipeline `cfg24`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegKI24a
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk24 (c : Dev nD) (w : Fin cfg24.W) (t : Fin cfg24.N) : ((cfg24.win w).xblock (cfg24.grid.coords t)).Idx → Elt F (cfg24.win w).elt :=
  ((cfg24.win w).blk t).view.read (Elt F) (V c (Pipeline.arrRef spec24 w))

/-! ## What the case leaves, as pieces read back -/

/-- The output's pieces tile its block (one whole-block store). -/
theorem cover24_2 (c : Dev nD) (i : grid24.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond24_0 i) (hlast : cond24_1 i) (xa : Vec F S1024x512 .f32) (xb : Vec F S512x512 .bf16) (y : S1024x512.Idx) :
    ∃ pc ∈ (kernelRun24 c i arg2 harg2 arg3 harg3 arg4 harg4 arg5 harg5 hfirst hlast xa xb).1, y ∈ pc.1.set :=
  View.cover_of_tiledL (kernelRun24 c i arg2 harg2 arg3 harg3 arg4 harg4 arg5 harg5 hfirst hlast xa xb).1 S1024x512.size (by sl_kernel_rfl) y

/-- What the case leaves in the output's staging buffer: its pieces read back over junk. -/
noncomputable def out24_2 (c : Dev nD) (i : grid24.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond24_0 i) (hlast : cond24_1 i) (xa : Vec F S1024x512 .f32) (xb : Vec F S512x512 .bf16) : Vec F S1024x512 .f32 :=
  VO24_2.read (Elt F) (VO24_2.writes (Elt F) VO24_2.junk (kernelRun24 c i arg2 harg2 arg3 harg3 arg4 harg4 arg5 harg5 hfirst hlast xa xb).1)

/-- What the case leaves in the accumulator: its pieces read back over junk. -/
noncomputable def sout24_0 (c : Dev nD) (i : grid24.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond24_0 i) (hlast : cond24_1 i) (xa : Vec F S1024x512 .f32) (xb : Vec F S512x512 .bf16) : Vec F S1024x512 .f32 :=
  VS24_0.read (Elt F) (VS24_0.writes (Elt F) VS24_0.junk (kernelRun24 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout24_0_eq (c : Dev nD) (i : grid24.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond24_0 i) (hlast : cond24_1 i) (xa : Vec F S1024x512 .f32) (xb : Vec F S512x512 .bf16) :
    sout24_0 c i arg2 harg2 arg3 harg3 arg4 harg4 arg5 harg5 hfirst hlast xa xb = k24_pay2 xa xb (k24_pay1 (F := F)) := by
  unfold sout24_0
  rw [View.read_writes_junk_eq_canon]
  unfold kernelRun24
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out24_2_eq (c : Dev nD) (i : grid24.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond24_0 i) (hlast : cond24_1 i) (xa : Vec F S1024x512 .f32) (xb : Vec F S512x512 .bf16) :
    out24_2 c i arg2 harg2 arg3 harg3 arg4 harg4 arg5 harg5 hfirst hlast xa xb = k24_pay2 xa xb (k24_pay1 (F := F)) := by
  unfold out24_2
  rw [View.read_writes_junk_eq_canon]
  unfold kernelRun24
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt24 (c : Dev nD) (n : ℕ) (hn : n < cfg24.N) : Vec F S1024x512 .f32 × Vec F S1024x512 .f32 :=
  (out24_2 c (grid24.coords ⟨n, hn⟩) (ms24_0 ⟨n, hn⟩) (hs24_0 ⟨n, hn⟩) (ms24_1 ⟨n, hn⟩) (hs24_1 ⟨n, hn⟩) (ms24_2 ⟨n, hn⟩) (hs24_2 ⟨n, hn⟩) scM24_0 (Memref.isWhole_whole _)
      (hcond24_0 ⟨n, hn⟩) (hcond24_1 ⟨n, hn⟩) (iblk24 V c 0 ⟨n, hn⟩) (iblk24 V c 1 ⟨n, hn⟩),
   sout24_0 c (grid24.coords ⟨n, hn⟩) (ms24_0 ⟨n, hn⟩) (hs24_0 ⟨n, hn⟩) (ms24_1 ⟨n, hn⟩) (hs24_1 ⟨n, hn⟩) (ms24_2 ⟨n, hn⟩) (hs24_2 ⟨n, hn⟩) scM24_0 (Memref.isWhole_whole _)
      (hcond24_0 ⟨n, hn⟩) (hcond24_1 ⟨n, hn⟩) (iblk24 V c 0 ⟨n, hn⟩) (iblk24 V c 1 ⟨n, hn⟩))

/-- Every point is a first reduction step: the accumulator after it is one product onto zero. -/
theorem outsAt24_first (c : Dev nD) (t : Fin cfg24.N) :
    (outsAt24 V c t.val t.isLt).2 = k24_pay2 (iblk24 V c 0 t) (iblk24 V c 1 t) (k24_pay1 (F := F)) := by
  obtain ⟨n, hn⟩ := t
  unfold outsAt24
  dsimp only
  rw [sout24_0_eq]

/-- Every point is a last reduction step: the output block after it is the accumulator. -/
theorem outsAt24_last (c : Dev nD) (t : Fin cfg24.N) :
    (outsAt24 V c t.val t.isLt).1 = (outsAt24 V c t.val t.isLt).2 := by
  obtain ⟨n, hn⟩ := t
  unfold outsAt24
  dsimp only
  rw [out24_2_eq, sout24_0_eq]

/-! ## The pipeline's proof data -/

/-- The proof data of the pipeline on core `c`: the arrays as the region finds them; after the body at point `t` each input's
    buffer at its block and the output's at `outsAt24`'s first component; the invariant the same at every point; nothing owed;
    full shares. -/
noncomputable def dat24 (c : Dev nD) : Dat τ (Elt F) Unit ℕ (UR sig nD τ) ℕ cfg24 c where
  A w := V c (Pipeline.arrRef spec24 w)
  after w t := match w with
    | ⟨0, _⟩ => iblk24 V c 0 t
    | ⟨1, _⟩ => iblk24 V c 1 t
    | ⟨2, _⟩ => (outsAt24 V c t.val t.isLt).1
  Φ _ := Pipeline.ΦA spec24 c
  q _ := fullShare
  owed _ := 0

theorem A_eq24 (c : Dev nD) (w : Fin cfg24.W) : (dat24 V c).A w = V c (Pipeline.arrRef spec24 w) := by
  dsimp only [dat24]

theorem after24_0 (c : Dev nD) (t : Fin cfg24.N) : (dat24 V c).after 0 t = iblk24 V c 0 t := by dsimp only [dat24]
theorem after24_1 (c : Dev nD) (t : Fin cfg24.N) : (dat24 V c).after 1 t = iblk24 V c 1 t := by dsimp only [dat24]
theorem after24_2 (c : Dev nD) (t : Fin cfg24.N) : (dat24 V c).after 2 t = (outsAt24 V c t.val t.isLt).1 := by dsimp only [dat24]

/-- An input's current staging buffer holds its block at every point, fetched there or not: where it is not fetched its block
    index has not moved since the point before, and the body left the block in place. -/
theorem before24_0 (c : Dev nD) (t : Fin cfg24.N) (d) : (dat24 V c).before 0 t d = iblk24 V c 0 t :=
  ((dat24 V c).before_in_eq_fetched 0 rfl (fun _ => rfl) (fun _ _ _ => rfl)
      (fun t => by rw [after24_0]; unfold Dat.blockOf iblk24; rw [A_eq24]; try rfl) t d).trans
    (by unfold Dat.fetched Dat.blockOf iblk24; rw [A_eq24]; try rfl)
theorem before24_1 (c : Dev nD) (t : Fin cfg24.N) (d) : (dat24 V c).before 1 t d = iblk24 V c 1 t :=
  ((dat24 V c).before_in_eq_fetched 1 rfl (fun _ => rfl) (fun _ _ _ => rfl)
      (fun t => by rw [after24_1]; unfold Dat.blockOf iblk24; rw [A_eq24]; try rfl) t d).trans
    (by unfold Dat.fetched Dat.blockOf iblk24; rw [A_eq24]; try rfl)

/-! ## The body obligation, at a generic point -/

/-- What the body is called with at point `t`, the windows one by one, -/
noncomputable def bodyPre24 (c : Dev nD) (t : Fin cfg24.N) : sProp 𝕄 :=
  iprop((dat24 V c).Φ t.castSucc ∗ (dat24 V c).owesAt () t.castSucc
    ∗ (∃ d, owns (c : Thread nD τ) (ms24_0 t) fullShare ((dat24 V c).before 0 t d))
    ∗ (∃ d, owns (c : Thread nD τ) (ms24_1 t) fullShare ((dat24 V c).before 1 t d))
    ∗ (∃ d, owns (c : Thread nD τ) (ms24_2 t) fullShare ((dat24 V c).before 2 t d)))

/-- and what it returns. -/
noncomputable def bodyPost24 (c : Dev nD) (t : Fin cfg24.N) : sProp 𝕄 :=
  iprop((dat24 V c).Φ t.succ ∗ (dat24 V c).owesAt () t.succ
    ∗ (dat24 V c).leavesExact 0 t
    ∗ (dat24 V c).leavesExact 1 t
    ∗ (dat24 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body24 (c : Dev nD) (t : Fin cfg24.N) :
    bodyPre24 V c t ⊢ wp frame (wpE (defs₀ (F := F)) Variants.none c none) Set.univ (bodyAt24 t) (fun _ => bodyPost24 V c t) := by
  unfold bodyPre24 bodyPost24 bodyAt24
  simp only [before24_0, before24_1]
  rw [show (dat24 V c).owesAt () t.succ = (dat24 V c).owesAt () t.castSucc from rfl,
    show (dat24 V c).Φ t.succ = Pipeline.ΦA spec24 c from rfl, show (dat24 V c).Φ t.castSucc = Pipeline.ΦA spec24 c from rfl, PhiA24_eq]
  rw [show (dat24 V c).leavesExact 0 t = owns (c : Thread nD τ) (ms24_0 t) fullShare ((dat24 V c).after 0 t) from by
      unfold Dat.leavesExact; rw [liveAt24_0 t], after24_0]
  rw [show (dat24 V c).leavesExact 1 t = owns (c : Thread nD τ) (ms24_1 t) fullShare ((dat24 V c).after 1 t) from by
      unfold Dat.leavesExact; rw [liveAt24_1 t], after24_1]
  rw [show (dat24 V c).leavesExact 2 t = owns (c : Thread nD τ) (ms24_2 t) fullShare ((dat24 V c).after 2 t) from by
      unfold Dat.leavesExact; rw [liveAt24_2 t], after24_2]
  unfold outsAt24 out24_2; (try dsimp only)
  iintro ⟨⟨⟨Hacc, Hrest⟩, Hgen⟩, Howe, ⟨%da, Ha⟩, ⟨%db, Hb⟩, ⟨%dO, Hout⟩⟩
  iapply ((kernelRun24 c (grid24.coords t) _ _ _ _ _ _ _ _ (hcond24_0 t) (hcond24_1 t) (iblk24 V c 0 t) (iblk24 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover24_2 c _ _ _ _ _ _ _ _ _ _ _ _ _)

/-- The library's body obligation, at every point. -/
theorem body_obligation24 (c : Dev nD) : BodyObligation (dat24 (F := F) V c) (defs₀ (F := F)) Variants.none () Set.univ := fun t => by
  rw [bigSep_W24, bigSep_W24]
  exact sound_body24 V c t

/-- What the launch hands the region is the invariant before the first point, -/
theorem hin24 (c : Dev nD) : Pipeline.ΦA spec24 c ⊢ (dat24 V c).Φ 0 := Idealize.SL.BI.Entails.refl _

/-- and the invariant after the last point is what the launch takes back. -/
theorem hout24 (c : Dev nD) : (dat24 V c).Φ (Fin.last cfg24.N) ⊢ Pipeline.ΦA spec24 c := Idealize.SL.BI.Entails.refl _

end Cert.KernelIdeal.Hand

end
-- ==== Proof.RegKI25a.lean ====
/- Laid out by: python3 scratch/layout_regions.py --template-region 1 --region 25 --program KernelIdeal --parts a,b,c, --out-dir proof/Proof
   from the hand-written text of region 1 (RegKI1a.lean): the same text, the region's number substituted. -/
/-
  Region 25 of @main (custom_call 25): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond25_0 (i : grid25.Coords) : Prop := (Scalar.cmpi .ne (Scalar.extui (Scalar.cmpi .eq (BitVec.ofNat 32 (i 1).val) 0#32)) 0#32) = 1#1
/-- It holds exactly at the points with t % 4 = 0. -/
theorem hcond25_0 : ∀ t : Fin cfg25.N, cond25_0 (grid25.coords t) ↔ t.val % 4 = 0 :=
  (by decide +kernel : ∀ t : Fin grid25.N, cond25_0 (grid25.coords t) ↔ t.val % 4 = 0)

/-- "k = 3": the second conditional's test. -/
abbrev cond25_1 (i : grid25.Coords) : Prop := k25_cond2 i = 1#1
/-- It holds exactly at the points with t % 4 = 3. -/
theorem hcond25_1 : ∀ t : Fin cfg25.N, cond25_1 (grid25.coords t) ↔ t.val % 4 = 3 :=
  (by decide +kernel : ∀ t : Fin grid25.N, cond25_1 (grid25.coords t) ↔ t.val % 4 = 3)

/-! ## Where the windows are idle, and where the output is written back -/

/-- The two input windows are never idle. -/
theorem liveAt25_0 : ∀ t : Fin cfg25.N, cfg25.idle 0 (grid25.coords t) = false := by decide +kernel
theorem liveAt25_1 : ∀ t : Fin cfg25.N, cfg25.idle 1 (grid25.coords t) = false := by decide +kernel
/-- Where k ≠ 3 the output window is idle (the body stores nothing into it) and is not written back. -/
theorem idleAt25_2 : ∀ t : Fin cfg25.N, ¬cond25_1 (grid25.coords t) → cfg25.idle 2 (grid25.coords t) = true := by decide +kernel
theorem noFlush25_2 : ∀ t : Fin cfg25.N, ¬cond25_1 (grid25.coords t) → (cfg25.win 2).flush t = false := by decide +kernel
/-- Where k = 3 it is live. -/
theorem liveAt25_2 : ∀ t : Fin cfg25.N, cond25_1 (grid25.coords t) → cfg25.idle 2 (grid25.coords t) = false := by decide +kernel

/-! ## The staging memrefs at a point, and the scratch -/

/-- One staging buffer of the output window, through which its contents are stated. -/
abbrev VO25_2 : View sig .tc .vmem S1024x512 .f32 := (Memref.whole cc25_stg2_0 : Memref sig .tc .vmem S1024x512 .f32).view
abbrev ms25_0 (t : Fin cfg25.N) : Memref sig .tc .vmem S1024x1024 .bf16 := win25_0.stage (cfg25.slots t 0)
abbrev hs25_0 (t : Fin cfg25.N) : (ms25_0 t).IsWhole := hstage25_0 ((cfg25.slots t 0).cast nbuf25_0)
abbrev ms25_1 (t : Fin cfg25.N) : Memref sig .tc .vmem S1024x512 .f32 := win25_1.stage (cfg25.slots t 1)
abbrev hs25_1 (t : Fin cfg25.N) : (ms25_1 t).IsWhole := hstage25_1 ((cfg25.slots t 1).cast nbuf25_1)
abbrev ms25_2 (t : Fin cfg25.N) : Memref sig .tc .vmem S1024x512 .f32 := win25_2.stage (cfg25.slots t 2)
abbrev hs25_2 (t : Fin cfg25.N) : (ms25_2 t).IsWhole := hstage25_2 ((cfg25.slots t 2).cast nbuf25_2)
/-- The accumulator: a whole scoped buffer of the kernel's own. -/
abbrev scM25 : Memref sig .tc .vmem S1024x512 .f32 := Memref.whole cc25_scratch0
abbrev VS25 : View sig .tc .vmem S1024x512 .f32 := scM25.view

/-- The other scoped buffers of the core, none of which this region touches. -/
abbrev restBut25 (c : Dev nD) : sProp 𝕄 :=
  Pipeline.scopedRestBut (Ix := Unit) (Name := ℕ) (U := UR sig nD τ) (Lvl := ℕ) (Val := Elt F) spec25 c [cc25_scratch0]

/-- The region's invariant before its first point: the accumulator at something, the other scoped buffers, the generator register. -/
theorem PhiA25_eq (c : Dev nD) :
    (Pipeline.ΦA spec25 c : sProp 𝕄)
      = iprop(iprop((∃ d, owns (c : Thread nD τ) scM25 fullShare d) ∗ restBut25 c) ∗ (∃ r, prngReg c r)) := by
  unfold Pipeline.ΦA; rw [scopedRest25_split]; simp only [scM25, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun25_A (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond25_0 i) (hc1 : ¬cond25_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc25__matmul_kernel i arg2 harg2 arg3 harg3 arg4 harg4 arg5 harg5) K } := by
  refine ⟨[], ?_, fun xi2 E K => ?run⟩
  case run =>
    simp only [cc25__matmul_kernel_eq_skeleton]; unfold cc25__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI25b.lean ====
/- Laid out by: python3 scratch/layout_regions.py --template-region 1 --region 25 --program KernelIdeal --parts a,b,c, --out-dir proof/Proof
   from the hand-written text of region 1 (RegKI1b.lean): the same text, the region's number substituted. -/
/-
  Region 25, case B (k = 1, 2): the body's run. Neither conditional is taken: the product of the two blocks is added to what
  the point before left in the accumulator; the output block is not touched.
-/
import proofs.«158944_j64613488001249_1_alg».proof.Proof.RegKI25a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun25_B (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond25_0 i) (hc1 : ¬cond25_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc25__matmul_kernel i arg2 harg2 arg3 harg3 arg4 harg4 arg5 harg5) K } := by
  refine ⟨[], ?_, fun xi2 E K => ?run⟩
  case run =>
    simp only [cc25__matmul_kernel_eq_skeleton]; unfold cc25__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI25c.lean ====
/- Laid out by: python3 scratch/layout_regions.py --template-region 1 --region 25 --program KernelIdeal --parts a,b,c, --out-dir proof/Proof
   from the hand-written text of region 1 (RegKI1c.lean): the same text, the region's number substituted. -/
/-
  Region 25, case C (k = 3): the body's run. The product is added to the accumulator as in case B, and then the second
  conditional copies the accumulator over the whole output block.
-/
import proofs.«158944_j64613488001249_1_alg».proof.Proof.RegKI25b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun25_C (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond25_0 i) (hc1 : cond25_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc25__matmul_kernel i arg2 harg2 arg3 harg3 arg4 harg4 arg5 harg5) K } := by
  refine ⟨?_, ?_, fun E K => ?run⟩
  case run =>
    simp only [cc25__matmul_kernel_eq_skeleton]; unfold cc25__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI25.lean ====
/- Laid out by: python3 scratch/layout_regions.py --template-region 1 --region 25 --program KernelIdeal --parts a,b,c, --out-dir proof/Proof
   from the hand-written text of region 1 (RegKI1.lean): the same text, the region's number substituted. -/
/-
  Region 25 of @main, entered from the buffer contents `V`: what its windows' blocks are, what each case of the body leaves in
  the accumulator and in the output block, the accumulator and the output block point by point (`outsAt25`: at k = 0 the
  accumulator restarts from zeros plus the product; at k = 1, 2, 3 it is the point before's plus the product; at k = 3 the
  output block is the accumulator), the region's invariant (the accumulator at `outsAt25`'s second component), the proof data,
  and the body's obligation at every point.
-/
import proofs.«158944_j64613488001249_1_alg».proof.Proof.RegKI25c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk25 (c : Dev nD) (w : Fin cfg25.W) (t : Fin cfg25.N) : ((cfg25.win w).xblock (cfg25.grid.coords t)).Idx → Elt F (cfg25.win w).elt :=
  ((cfg25.win w).blk t).view.read (Elt F) (V c (Pipeline.arrRef spec25 w))

/-- An input window's current staging buffer holds its block at every point, for any proof data whose array is `V`'s and
    whose body leaves the block in place. -/
theorem before25_0_of {c : Dev nD} (dat : Dat τ (Elt F) Unit ℕ (UR sig nD τ) ℕ cfg25 c) (hA : dat.A 0 = V c (Pipeline.arrRef spec25 0))
    (hafter : ∀ t, dat.after 0 t = iblk25 V c 0 t) (t : Fin cfg25.N) (d) : dat.before 0 t d = iblk25 V c 0 t :=
  (dat.before_in_eq_fetched 0 rfl (fun _ => rfl) (fun _ _ _ => rfl) (fun t => by rw [hafter]; unfold Dat.blockOf iblk25; rw [hA]; try rfl) t d).trans
    (by unfold Dat.fetched Dat.blockOf iblk25; rw [hA]; try rfl)
theorem before25_1_of {c : Dev nD} (dat : Dat τ (Elt F) Unit ℕ (UR sig nD τ) ℕ cfg25 c) (hA : dat.A 1 = V c (Pipeline.arrRef spec25 1))
    (hafter : ∀ t, dat.after 1 t = iblk25 V c 1 t) (t : Fin cfg25.N) (d) : dat.before 1 t d = iblk25 V c 1 t :=
  (dat.before_in_eq_fetched 1 rfl (fun _ => rfl) (fun _ _ _ => rfl) (fun t => by rw [hafter]; unfold Dat.blockOf iblk25; rw [hA]; try rfl) t d).trans
    (by unfold Dat.fetched Dat.blockOf iblk25; rw [hA]; try rfl)

/-! ## What each case leaves -/

/-- Case A's stores into the accumulator cover it. -/
theorem scover25_A (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond25_0 i) (hc1 : ¬cond25_1 i)
    (x0 : Vec F S1024x1024 .bf16) (x1 : Vec F S1024x512 .f32) (y : S1024x512.Idx) :
    ∃ pc ∈ (kernelRun25_A c i arg2 harg2 arg3 harg3 arg4 harg4 arg5 harg5 hc0 hc1 x0 x1).2.1, y ∈ pc.1.set :=
  View.cover_of_tiledL (kernelRun25_A c i arg2 harg2 arg3 harg3 arg4 harg4 arg5 harg5 hc0 hc1 x0 x1).2.1 S1024x512.size (by sl_kernel_rfl) y
/-- What case A leaves in the accumulator. -/
noncomputable def sout25_A (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond25_0 i) (hc1 : ¬cond25_1 i)
    (x0 : Vec F S1024x1024 .bf16) (x1 : Vec F S1024x512 .f32) : Vec F S1024x512 .f32 :=
  VS25.read (Elt F) (VS25.writes (Elt F) VS25.junk (kernelRun25_A c i arg2 harg2 arg3 harg3 arg4 harg4 arg5 harg5 hc0 hc1 x0 x1).2.1)

/-- Case B's store into the accumulator covers it. -/
theorem scover25_B (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond25_0 i) (hc1 : ¬cond25_1 i)
    (x0 : Vec F S1024x1024 .bf16) (x1 : Vec F S1024x512 .f32) (xs0 : Vec F S1024x512 .f32) (y : S1024x512.Idx) :
    ∃ pc ∈ (kernelRun25_B c i arg2 harg2 arg3 harg3 arg4 harg4 arg5 harg5 hc0 hc1 x0 x1 xs0).2.1, y ∈ pc.1.set :=
  View.cover_of_tiledL (kernelRun25_B c i arg2 harg2 arg3 harg3 arg4 harg4 arg5 harg5 hc0 hc1 x0 x1 xs0).2.1 S1024x512.size (by sl_kernel_rfl) y
/-- What case B leaves in the accumulator, over what the point before left. -/
noncomputable def sout25_B (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond25_0 i) (hc1 : ¬cond25_1 i)
    (x0 : Vec F S1024x1024 .bf16) (x1 : Vec F S1024x512 .f32) (xs0 : Vec F S1024x512 .f32) : Vec F S1024x512 .f32 :=
  VS25.read (Elt F) (VS25.writes (Elt F) VS25.junk (kernelRun25_B c i arg2 harg2 arg3 harg3 arg4 harg4 arg5 harg5 hc0 hc1 x0 x1 xs0).2.1)

/-- Case C's store into the output block covers it, and so does its store into the accumulator. -/
theorem cover25_C (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond25_0 i) (hc1 : cond25_1 i)
    (x0 : Vec F S1024x1024 .bf16) (x1 : Vec F S1024x512 .f32) (xs0 : Vec F S1024x512 .f32) (y : S1024x512.Idx) :
    ∃ pc ∈ (kernelRun25_C c i arg2 harg2 arg3 harg3 arg4 harg4 arg5 harg5 hc0 hc1 x0 x1 xs0).1, y ∈ pc.1.set :=
  View.cover_of_tiledL (kernelRun25_C c i arg2 harg2 arg3 harg3 arg4 harg4 arg5 harg5 hc0 hc1 x0 x1 xs0).1 S1024x512.size (by sl_kernel_rfl) y
theorem scover25_C (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond25_0 i) (hc1 : cond25_1 i)
    (x0 : Vec F S1024x1024 .bf16) (x1 : Vec F S1024x512 .f32) (xs0 : Vec F S1024x512 .f32) (y : S1024x512.Idx) :
    ∃ pc ∈ (kernelRun25_C c i arg2 harg2 arg3 harg3 arg4 harg4 arg5 harg5 hc0 hc1 x0 x1 xs0).2.1, y ∈ pc.1.set :=
  View.cover_of_tiledL (kernelRun25_C c i arg2 harg2 arg3 harg3 arg4 harg4 arg5 harg5 hc0 hc1 x0 x1 xs0).2.1 S1024x512.size (by sl_kernel_rfl) y
/-- What case C leaves in the output block, and in the accumulator. -/
noncomputable def out25_C (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond25_0 i) (hc1 : cond25_1 i)
    (x0 : Vec F S1024x1024 .bf16) (x1 : Vec F S1024x512 .f32) (xs0 : Vec F S1024x512 .f32) : Vec F S1024x512 .f32 :=
  VO25_2.read (Elt F) (VO25_2.writes (Elt F) VO25_2.junk (kernelRun25_C c i arg2 harg2 arg3 harg3 arg4 harg4 arg5 harg5 hc0 hc1 x0 x1 xs0).1)
noncomputable def sout25_C (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond25_0 i) (hc1 : cond25_1 i)
    (x0 : Vec F S1024x1024 .bf16) (x1 : Vec F S1024x512 .f32) (xs0 : Vec F S1024x512 .f32) : Vec F S1024x512 .f32 :=
  VS25.read (Elt F) (VS25.writes (Elt F) VS25.junk (kernelRun25_C c i arg2 harg2 arg3 harg3 arg4 harg4 arg5 harg5 hc0 hc1 x0 x1 xs0).2.1)

/-- Where the output block is idle nothing consults what it holds: a placeholder. -/
noncomputable def outIdle25 : Vec F S1024x512 .f32 := VO25_2.read (Elt F) (VO25_2.writes (Elt F) VO25_2.junk [])

/-! ## The conditions at a point, from t % 4 -/

theorem isFirst25 (t : Fin cfg25.N) (h : t.val % 4 = 0) : cond25_0 (grid25.coords t) := (hcond25_0 t).mpr h
theorem notFirst25 (t : Fin cfg25.N) (h : ¬t.val % 4 = 0) : ¬cond25_0 (grid25.coords t) := fun hc => h ((hcond25_0 t).mp hc)
theorem isLast25 (t : Fin cfg25.N) (h : t.val % 4 = 3) : cond25_1 (grid25.coords t) := (hcond25_1 t).mpr h
theorem notLast25 (t : Fin cfg25.N) (h : ¬t.val % 4 = 3) : ¬cond25_1 (grid25.coords t) := fun hc => h ((hcond25_1 t).mp hc)

/-! ## The accumulator and the output block, point by point -/

/-- After the body at position `n`: (the output block's buffer, the accumulator). -/
noncomputable def outsAt25 (c : Dev nD) : (n : ℕ) → n < cfg25.N → Vec F S1024x512 .f32 × Vec F S1024x512 .f32
  | 0, hn => (outIdle25, sout25_A c (grid25.coords ⟨0, hn⟩) (ms25_0 ⟨0, hn⟩) (hs25_0 ⟨0, hn⟩) (ms25_1 ⟨0, hn⟩) (hs25_1 ⟨0, hn⟩) (ms25_2 ⟨0, hn⟩) (hs25_2 ⟨0, hn⟩) scM25 (Memref.isWhole_whole _) (isFirst25 ⟨0, hn⟩ (Nat.zero_mod _)) (notLast25 ⟨0, hn⟩ (by simp)) (iblk25 V c 0 ⟨0, hn⟩) (iblk25 V c 1 ⟨0, hn⟩))
  | n + 1, hn =>
    if h0 : (n + 1) % 4 = 0 then
      (outIdle25, sout25_A c (grid25.coords ⟨n + 1, hn⟩) (ms25_0 ⟨n + 1, hn⟩) (hs25_0 ⟨n + 1, hn⟩) (ms25_1 ⟨n + 1, hn⟩) (hs25_1 ⟨n + 1, hn⟩) (ms25_2 ⟨n + 1, hn⟩) (hs25_2 ⟨n + 1, hn⟩) scM25 (Memref.isWhole_whole _) (isFirst25 ⟨n + 1, hn⟩ h0) (notLast25 ⟨n + 1, hn⟩ (by show ¬(n + 1) % 4 = 3; omega)) (iblk25 V c 0 ⟨n + 1, hn⟩) (iblk25 V c 1 ⟨n + 1, hn⟩))
    else if h3 : (n + 1) % 4 = 3 then
      (out25_C c (grid25.coords ⟨n + 1, hn⟩) (ms25_0 ⟨n + 1, hn⟩) (hs25_0 ⟨n + 1, hn⟩) (ms25_1 ⟨n + 1, hn⟩) (hs25_1 ⟨n + 1, hn⟩) (ms25_2 ⟨n + 1, hn⟩) (hs25_2 ⟨n + 1, hn⟩) scM25 (Memref.isWhole_whole _) (notFirst25 ⟨n + 1, hn⟩ h0) (isLast25 ⟨n + 1, hn⟩ h3) (iblk25 V c 0 ⟨n + 1, hn⟩) (iblk25 V c 1 ⟨n + 1, hn⟩) (outsAt25 c n (Nat.lt_of_succ_lt hn)).2,
       sout25_C c (grid25.coords ⟨n + 1, hn⟩) (ms25_0 ⟨n + 1, hn⟩) (hs25_0 ⟨n + 1, hn⟩) (ms25_1 ⟨n + 1, hn⟩) (hs25_1 ⟨n + 1, hn⟩) (ms25_2 ⟨n + 1, hn⟩) (hs25_2 ⟨n + 1, hn⟩) scM25 (Memref.isWhole_whole _) (notFirst25 ⟨n + 1, hn⟩ h0) (isLast25 ⟨n + 1, hn⟩ h3) (iblk25 V c 0 ⟨n + 1, hn⟩) (iblk25 V c 1 ⟨n + 1, hn⟩) (outsAt25 c n (Nat.lt_of_succ_lt hn)).2)
    else
      (outIdle25, sout25_B c (grid25.coords ⟨n + 1, hn⟩) (ms25_0 ⟨n + 1, hn⟩) (hs25_0 ⟨n + 1, hn⟩) (ms25_1 ⟨n + 1, hn⟩) (hs25_1 ⟨n + 1, hn⟩) (ms25_2 ⟨n + 1, hn⟩) (hs25_2 ⟨n + 1, hn⟩) scM25 (Memref.isWhole_whole _) (notFirst25 ⟨n + 1, hn⟩ h0) (notLast25 ⟨n + 1, hn⟩ h3) (iblk25 V c 0 ⟨n + 1, hn⟩) (iblk25 V c 1 ⟨n + 1, hn⟩) (outsAt25 c n (Nat.lt_of_succ_lt hn)).2)

/-- `outsAt25` at a point with k = 0. -/
theorem outsAt25_A (c : Dev nD) (t : Fin cfg25.N) (h0 : t.val % 4 = 0) :
    outsAt25 V c t.val t.isLt = (outIdle25, sout25_A c (grid25.coords t) (ms25_0 t) (hs25_0 t) (ms25_1 t) (hs25_1 t) (ms25_2 t) (hs25_2 t) scM25 (Memref.isWhole_whole _) (isFirst25 t h0) (notLast25 t (by omega)) (iblk25 V c 0 t) (iblk25 V c 1 t)) := by
  obtain ⟨n, hn⟩ := t
  cases n with
  | zero => rfl
  | succ n => exact (dif_pos h0).trans rfl

/-- `outsAt25` at a point with k = 1, 2: over what the point before left. -/
theorem outsAt25_B (c : Dev nD) (t : Fin cfg25.N) (h0 : ¬t.val % 4 = 0) (h3 : ¬t.val % 4 = 3) :
    outsAt25 V c t.val t.isLt = (outIdle25, sout25_B c (grid25.coords t) (ms25_0 t) (hs25_0 t) (ms25_1 t) (hs25_1 t) (ms25_2 t) (hs25_2 t) scM25 (Memref.isWhole_whole _) (notFirst25 t h0) (notLast25 t h3) (iblk25 V c 0 t) (iblk25 V c 1 t)
      (outsAt25 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt25` at a point with k = 3. -/
theorem outsAt25_C (c : Dev nD) (t : Fin cfg25.N) (h0 : ¬t.val % 4 = 0) (h3 : t.val % 4 = 3) :
    outsAt25 V c t.val t.isLt = (out25_C c (grid25.coords t) (ms25_0 t) (hs25_0 t) (ms25_1 t) (hs25_1 t) (ms25_2 t) (hs25_2 t) scM25 (Memref.isWhole_whole _) (notFirst25 t h0) (isLast25 t h3) (iblk25 V c 0 t) (iblk25 V c 1 t)
        (outsAt25 V c (t.val - 1) (Nat.lt_of_le_of_lt (Nat.sub_le _ _) t.isLt)).2,
      sout25_C c (grid25.coords t) (ms25_0 t) (hs25_0 t) (ms25_1 t) (hs25_1 t) (ms25_2 t) (hs25_2 t) scM25 (Memref.isWhole_whole _) (notFirst25 t h0) (isLast25 t h3) (iblk25 V c 0 t) (iblk25 V c 1 t)
        (outsAt25 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS25 (c : Dev nD) : (n : ℕ) → n ≤ cfg25.N → sProp 𝕄
  | 0, _ => Pipeline.ΦA spec25 c
  | n + 1, hn => iprop(iprop(owns (c : Thread nD τ) scM25 fullShare ((outsAt25 V c n hn).2) ∗ restBut25 c) ∗ (∃ r, prngReg c r))

theorem PhiS25_zero (c : Dev nD) (n : ℕ) (h : n ≤ cfg25.N) (hz : n = 0) : PhiS25 V c n h = Pipeline.ΦA spec25 c := by
  subst hz; rfl
theorem PhiS25_succ (c : Dev nD) (n : ℕ) (hn : n < cfg25.N) :
    PhiS25 V c (n + 1) hn = iprop(iprop(owns (c : Thread nD τ) scM25 fullShare ((outsAt25 V c n hn).2) ∗ restBut25 c) ∗ (∃ r, prngReg c r)) := rfl
theorem PhiS25_pos (c : Dev nD) (n : ℕ) (h : n ≤ cfg25.N) (hz : n ≠ 0) :
    PhiS25 V c n h = iprop(iprop(owns (c : Thread nD τ) scM25 fullShare ((outsAt25 V c (n - 1) (by omega)).2) ∗ restBut25 c) ∗ (∃ r, prngReg c r)) := by
  cases n with
  | zero => exact absurd rfl hz
  | succ n => rfl

/-! ## The proof data -/

/-- The region's proof data on core `c`: the arrays as the region finds them; after the body at point `t` each input's
    buffer at its block and the output's at `outsAt25`'s first component; the invariant `PhiS25`; nothing owed; full shares. -/
noncomputable def dat25 (c : Dev nD) : Dat τ (Elt F) Unit ℕ (UR sig nD τ) ℕ cfg25 c where
  A w := V c (Pipeline.arrRef spec25 w)
  after w t := match w with
    | ⟨0, _⟩ => iblk25 V c 0 t
    | ⟨1, _⟩ => iblk25 V c 1 t
    | ⟨2, _⟩ => (outsAt25 V c t.val t.isLt).1
  Φ t := PhiS25 V c t.val (Nat.le_of_lt_succ t.isLt)
  q _ := fullShare
  owed _ := 0

theorem A_eq25 (c : Dev nD) (w : Fin cfg25.W) : (dat25 V c).A w = V c (Pipeline.arrRef spec25 w) := by
  dsimp only [dat25]
theorem PhiS25_castSucc (c : Dev nD) (t : Fin cfg25.N) :
    (dat25 V c).Φ t.castSucc = PhiS25 V c t.val (Nat.le_of_lt t.isLt) := by
  dsimp only [dat25]; simp only [Fin.coe_castSucc]
theorem after25_0 (c : Dev nD) (t : Fin cfg25.N) : (dat25 V c).after 0 t = iblk25 V c 0 t := by dsimp only [dat25]
theorem after25_1 (c : Dev nD) (t : Fin cfg25.N) : (dat25 V c).after 1 t = iblk25 V c 1 t := by dsimp only [dat25]
theorem after25_2 (c : Dev nD) (t : Fin cfg25.N) : (dat25 V c).after 2 t = (outsAt25 V c t.val t.isLt).1 := by dsimp only [dat25]
theorem before25_0 (c : Dev nD) (t : Fin cfg25.N) (d) : (dat25 V c).before 0 t d = iblk25 V c 0 t :=
  before25_0_of V (dat25 V c) (A_eq25 V c 0) (after25_0 V c) t d
theorem before25_1 (c : Dev nD) (t : Fin cfg25.N) (d) : (dat25 V c).before 1 t d = iblk25 V c 1 t :=
  before25_1_of V (dat25 V c) (A_eq25 V c 1) (after25_1 V c) t d

/-! ## The body's obligation -/

noncomputable def bodyPre25 (c : Dev nD) (t : Fin cfg25.N) : sProp 𝕄 :=
  iprop((dat25 V c).Φ t.castSucc ∗ (dat25 V c).owesAt () t.castSucc
    ∗ (∃ d, owns (c : Thread nD τ) (ms25_0 t) fullShare ((dat25 V c).before 0 t d))
    ∗ (∃ d, owns (c : Thread nD τ) (ms25_1 t) fullShare ((dat25 V c).before 1 t d))
    ∗ (∃ d, owns (c : Thread nD τ) (ms25_2 t) fullShare ((dat25 V c).before 2 t d)))

noncomputable def bodyPost25 (c : Dev nD) (t : Fin cfg25.N) : sProp 𝕄 :=
  iprop((dat25 V c).Φ t.succ ∗ (dat25 V c).owesAt () t.succ
    ∗ (dat25 V c).leavesExact 0 t
    ∗ (dat25 V c).leavesExact 1 t
    ∗ (dat25 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body25 (c : Dev nD) (t : Fin cfg25.N) :
    bodyPre25 V c t ⊢ wp frame (wpE (defs₀ (F := F)) Variants.none c none) Set.univ (bodyAt25 t) (fun _ => bodyPost25 V c t) := by
  unfold bodyPre25 bodyPost25 bodyAt25
  simp only [before25_0, before25_1]
  rw [show (dat25 V c).owesAt () t.succ = (dat25 V c).owesAt () t.castSucc from rfl]
  rw [show (dat25 V c).Φ t.succ = PhiS25 V c (t.val + 1) t.isLt from rfl, PhiS25_succ]
  rw [show (dat25 V c).leavesExact 0 t = owns (c : Thread nD τ) (ms25_0 t) fullShare ((dat25 V c).after 0 t) from by
    unfold Dat.leavesExact; rw [liveAt25_0 t], after25_0]
  rw [show (dat25 V c).leavesExact 1 t = owns (c : Thread nD τ) (ms25_1 t) fullShare ((dat25 V c).after 1 t) from by
    unfold Dat.leavesExact; rw [liveAt25_1 t], after25_1]
  by_cases h0 : t.val % 4 = 0
  · have h3 : ¬t.val % 4 = 3 := by omega
    rw [Dat.leavesExact_idle (dat25 V c) 2 t (idleAt25_2 t (notLast25 t h3)) (noFlush25_2 t (notLast25 t h3))]
    rw [outsAt25_A V c t h0]
    unfold sout25_A; (try dsimp only)
    by_cases hz : t.val = 0
    · rw [PhiS25_castSucc V c t, PhiS25_zero V c _ _ hz, PhiA25_eq]
      iintro ⟨⟨⟨HS0, Hrb⟩, Hg⟩, Ho, ⟨%d0, H0⟩, ⟨%d1, H1⟩, ⟨%d2, H2⟩⟩
      iapply ((kernelRun25_A c (grid25.coords t) _ _ _ _ _ _ _ _ (isFirst25 t h0) (notLast25 t (by omega)) (iblk25 V c 0 t) (iblk25 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover25_A c _ _ _ _ _ _ _ _ _ _ _ _ _)
          iexact Hrb
        iexact Hg
      isplitl [Ho]; · iexact Ho
      isplitl [H0]; · iexact H0
      isplitl [H1]; · iexact H1
      iexists _; iexact H2
    · rw [PhiS25_castSucc V c t, PhiS25_pos V c _ _ hz]
      iintro ⟨⟨⟨HS0, Hrb⟩, Hg⟩, Ho, ⟨%d0, H0⟩, ⟨%d1, H1⟩, ⟨%d2, H2⟩⟩
      iapply ((kernelRun25_A c (grid25.coords t) _ _ _ _ _ _ _ _ (isFirst25 t h0) (notLast25 t (by omega)) (iblk25 V c 0 t) (iblk25 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover25_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat25 V c).leavesExact 2 t = owns (c : Thread nD τ) (ms25_2 t) fullShare ((dat25 V c).after 2 t) from by
        unfold Dat.leavesExact; rw [liveAt25_2 t (isLast25 t h3)], after25_2]
      rw [outsAt25_C V c t h0 h3]
      unfold out25_C sout25_C; (try dsimp only)
      rw [PhiS25_castSucc V c t, PhiS25_pos V c _ _ hz]
      iintro ⟨⟨⟨HS0, Hrb⟩, Hg⟩, Ho, ⟨%d0, H0⟩, ⟨%d1, H1⟩, ⟨%d2, H2⟩⟩
      iapply ((kernelRun25_C c (grid25.coords t) _ _ _ _ _ _ _ _ (notFirst25 t h0) (isLast25 t h3) (iblk25 V c 0 t) (iblk25 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover25_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover25_C c _ _ _ _ _ _ _ _ _ _ _ _ _ _)
    · rw [Dat.leavesExact_idle (dat25 V c) 2 t (idleAt25_2 t (notLast25 t h3)) (noFlush25_2 t (notLast25 t h3))]
      rw [outsAt25_B V c t h0 h3]
      unfold sout25_B; (try dsimp only)
      rw [PhiS25_castSucc V c t, PhiS25_pos V c _ _ hz]
      iintro ⟨⟨⟨HS0, Hrb⟩, Hg⟩, Ho, ⟨%d0, H0⟩, ⟨%d1, H1⟩, ⟨%d2, H2⟩⟩
      iapply ((kernelRun25_B c (grid25.coords t) _ _ _ _ _ _ _ _ (notFirst25 t h0) (notLast25 t h3) (iblk25 V c 0 t) (iblk25 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover25_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation25 (c : Dev nD) : BodyObligation (dat25 (F := F) V c) (defs₀ (F := F)) Variants.none () Set.univ := fun t => by
  rw [bigSep_W25, bigSep_W25]
  exact sound_body25 V c t

/-- What the region is entered with is the invariant before the first point. -/
theorem hin25 (c : Dev nD) : Pipeline.ΦA spec25 c ⊢ (dat25 V c).Φ 0 := by
  rw [show (dat25 V c).Φ 0 = PhiS25 V c 0 (Nat.zero_le _) from rfl, PhiS25_zero V c 0 _ rfl]
  try exact Idealize.SL.BI.Entails.refl _

/-- After the last point the invariant gives the class's back: the accumulator's contents are forgotten. -/
theorem hout25 (c : Dev nD) : (dat25 V c).Φ (Fin.last cfg25.N) ⊢ Pipeline.ΦA spec25 c := by
  have hN : cfg25.N = 16 := N_25
  rw [show (dat25 V c).Φ (Fin.last cfg25.N) = PhiS25 V c (Fin.last cfg25.N).val (Nat.le_of_lt_succ (Fin.last cfg25.N).isLt) from rfl,
    PhiS25_pos V c _ _ (by rw [Fin.val_last]; omega), PhiA25_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI26a.lean ====
/- Laid out by: python3 scratch/layout_regions.py --template-region 1 --region 26 --program KernelIdeal --parts a,b,c, --out-dir proof/Proof
   from the hand-written text of region 1 (RegKI1a.lean): the same text, the region's number substituted. -/
/-
  Region 26 of @main (custom_call 26): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond26_0 (i : grid26.Coords) : Prop := (Scalar.cmpi .ne (Scalar.extui (Scalar.cmpi .eq (BitVec.ofNat 32 (i 1).val) 0#32)) 0#32) = 1#1
/-- It holds exactly at the points with t % 4 = 0. -/
theorem hcond26_0 : ∀ t : Fin cfg26.N, cond26_0 (grid26.coords t) ↔ t.val % 4 = 0 :=
  (by decide +kernel : ∀ t : Fin grid26.N, cond26_0 (grid26.coords t) ↔ t.val % 4 = 0)

/-- "k = 3": the second conditional's test. -/
abbrev cond26_1 (i : grid26.Coords) : Prop := k26_cond2 i = 1#1
/-- It holds exactly at the points with t % 4 = 3. -/
theorem hcond26_1 : ∀ t : Fin cfg26.N, cond26_1 (grid26.coords t) ↔ t.val % 4 = 3 :=
  (by decide +kernel : ∀ t : Fin grid26.N, cond26_1 (grid26.coords t) ↔ t.val % 4 = 3)

/-! ## Where the windows are idle, and where the output is written back -/

/-- The two input windows are never idle. -/
theorem liveAt26_0 : ∀ t : Fin cfg26.N, cfg26.idle 0 (grid26.coords t) = false := by decide +kernel
theorem liveAt26_1 : ∀ t : Fin cfg26.N, cfg26.idle 1 (grid26.coords t) = false := by decide +kernel
/-- Where k ≠ 3 the output window is idle (the body stores nothing into it) and is not written back. -/
theorem idleAt26_2 : ∀ t : Fin cfg26.N, ¬cond26_1 (grid26.coords t) → cfg26.idle 2 (grid26.coords t) = true := by decide +kernel
theorem noFlush26_2 : ∀ t : Fin cfg26.N, ¬cond26_1 (grid26.coords t) → (cfg26.win 2).flush t = false := by decide +kernel
/-- Where k = 3 it is live. -/
theorem liveAt26_2 : ∀ t : Fin cfg26.N, cond26_1 (grid26.coords t) → cfg26.idle 2 (grid26.coords t) = false := by decide +kernel

/-! ## The staging memrefs at a point, and the scratch -/

/-- One staging buffer of the output window, through which its contents are stated. -/
abbrev VO26_2 : View sig .tc .vmem S1024x512 .f32 := (Memref.whole cc26_stg2_0 : Memref sig .tc .vmem S1024x512 .f32).view
abbrev ms26_0 (t : Fin cfg26.N) : Memref sig .tc .vmem S1024x1024 .bf16 := win26_0.stage (cfg26.slots t 0)
abbrev hs26_0 (t : Fin cfg26.N) : (ms26_0 t).IsWhole := hstage26_0 ((cfg26.slots t 0).cast nbuf26_0)
abbrev ms26_1 (t : Fin cfg26.N) : Memref sig .tc .vmem S1024x512 .f32 := win26_1.stage (cfg26.slots t 1)
abbrev hs26_1 (t : Fin cfg26.N) : (ms26_1 t).IsWhole := hstage26_1 ((cfg26.slots t 1).cast nbuf26_1)
abbrev ms26_2 (t : Fin cfg26.N) : Memref sig .tc .vmem S1024x512 .f32 := win26_2.stage (cfg26.slots t 2)
abbrev hs26_2 (t : Fin cfg26.N) : (ms26_2 t).IsWhole := hstage26_2 ((cfg26.slots t 2).cast nbuf26_2)
/-- The accumulator: a whole scoped buffer of the kernel's own. -/
abbrev scM26 : Memref sig .tc .vmem S1024x512 .f32 := Memref.whole cc26_scratch0
abbrev VS26 : View sig .tc .vmem S1024x512 .f32 := scM26.view

/-- The other scoped buffers of the core, none of which this region touches. -/
abbrev restBut26 (c : Dev nD) : sProp 𝕄 :=
  Pipeline.scopedRestBut (Ix := Unit) (Name := ℕ) (U := UR sig nD τ) (Lvl := ℕ) (Val := Elt F) spec26 c [cc26_scratch0]

/-- The region's invariant before its first point: the accumulator at something, the other scoped buffers, the generator register. -/
theorem PhiA26_eq (c : Dev nD) :
    (Pipeline.ΦA spec26 c : sProp 𝕄)
      = iprop(iprop((∃ d, owns (c : Thread nD τ) scM26 fullShare d) ∗ restBut26 c) ∗ (∃ r, prngReg c r)) := by
  unfold Pipeline.ΦA; rw [scopedRest26_split]; simp only [scM26, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun26_A (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond26_0 i) (hc1 : ¬cond26_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc26__matmul_kernel i arg2 harg2 arg3 harg3 arg4 harg4 arg5 harg5) K } := by
  refine ⟨[], ?_, fun xi2 E K => ?run⟩
  case run =>
    simp only [cc26__matmul_kernel_eq_skeleton]; unfold cc26__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI26b.lean ====
/- Laid out by: python3 scratch/layout_regions.py --template-region 1 --region 26 --program KernelIdeal --parts a,b,c, --out-dir proof/Proof
   from the hand-written text of region 1 (RegKI1b.lean): the same text, the region's number substituted. -/
/-
  Region 26, case B (k = 1, 2): the body's run. Neither conditional is taken: the product of the two blocks is added to what
  the point before left in the accumulator; the output block is not touched.
-/
import proofs.«158944_j64613488001249_1_alg».proof.Proof.RegKI26a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun26_B (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond26_0 i) (hc1 : ¬cond26_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc26__matmul_kernel i arg2 harg2 arg3 harg3 arg4 harg4 arg5 harg5) K } := by
  refine ⟨[], ?_, fun xi2 E K => ?run⟩
  case run =>
    simp only [cc26__matmul_kernel_eq_skeleton]; unfold cc26__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI26c.lean ====
/- Laid out by: python3 scratch/layout_regions.py --template-region 1 --region 26 --program KernelIdeal --parts a,b,c, --out-dir proof/Proof
   from the hand-written text of region 1 (RegKI1c.lean): the same text, the region's number substituted. -/
/-
  Region 26, case C (k = 3): the body's run. The product is added to the accumulator as in case B, and then the second
  conditional copies the accumulator over the whole output block.
-/
import proofs.«158944_j64613488001249_1_alg».proof.Proof.RegKI26b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun26_C (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond26_0 i) (hc1 : cond26_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc26__matmul_kernel i arg2 harg2 arg3 harg3 arg4 harg4 arg5 harg5) K } := by
  refine ⟨?_, ?_, fun E K => ?run⟩
  case run =>
    simp only [cc26__matmul_kernel_eq_skeleton]; unfold cc26__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI26.lean ====
/- Laid out by: python3 scratch/layout_regions.py --template-region 1 --region 26 --program KernelIdeal --parts a,b,c, --out-dir proof/Proof
   from the hand-written text of region 1 (RegKI1.lean): the same text, the region's number substituted. -/
/-
  Region 26 of @main, entered from the buffer contents `V`: what its windows' blocks are, what each case of the body leaves in
  the accumulator and in the output block, the accumulator and the output block point by point (`outsAt26`: at k = 0 the
  accumulator restarts from zeros plus the product; at k = 1, 2, 3 it is the point before's plus the product; at k = 3 the
  output block is the accumulator), the region's invariant (the accumulator at `outsAt26`'s second component), the proof data,
  and the body's obligation at every point.
-/
import proofs.«158944_j64613488001249_1_alg».proof.Proof.RegKI26c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk26 (c : Dev nD) (w : Fin cfg26.W) (t : Fin cfg26.N) : ((cfg26.win w).xblock (cfg26.grid.coords t)).Idx → Elt F (cfg26.win w).elt :=
  ((cfg26.win w).blk t).view.read (Elt F) (V c (Pipeline.arrRef spec26 w))

/-- An input window's current staging buffer holds its block at every point, for any proof data whose array is `V`'s and
    whose body leaves the block in place. -/
theorem before26_0_of {c : Dev nD} (dat : Dat τ (Elt F) Unit ℕ (UR sig nD τ) ℕ cfg26 c) (hA : dat.A 0 = V c (Pipeline.arrRef spec26 0))
    (hafter : ∀ t, dat.after 0 t = iblk26 V c 0 t) (t : Fin cfg26.N) (d) : dat.before 0 t d = iblk26 V c 0 t :=
  (dat.before_in_eq_fetched 0 rfl (fun _ => rfl) (fun _ _ _ => rfl) (fun t => by rw [hafter]; unfold Dat.blockOf iblk26; rw [hA]; try rfl) t d).trans
    (by unfold Dat.fetched Dat.blockOf iblk26; rw [hA]; try rfl)
theorem before26_1_of {c : Dev nD} (dat : Dat τ (Elt F) Unit ℕ (UR sig nD τ) ℕ cfg26 c) (hA : dat.A 1 = V c (Pipeline.arrRef spec26 1))
    (hafter : ∀ t, dat.after 1 t = iblk26 V c 1 t) (t : Fin cfg26.N) (d) : dat.before 1 t d = iblk26 V c 1 t :=
  (dat.before_in_eq_fetched 1 rfl (fun _ => rfl) (fun _ _ _ => rfl) (fun t => by rw [hafter]; unfold Dat.blockOf iblk26; rw [hA]; try rfl) t d).trans
    (by unfold Dat.fetched Dat.blockOf iblk26; rw [hA]; try rfl)

/-! ## What each case leaves -/

/-- Case A's stores into the accumulator cover it. -/
theorem scover26_A (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond26_0 i) (hc1 : ¬cond26_1 i)
    (x0 : Vec F S1024x1024 .bf16) (x1 : Vec F S1024x512 .f32) (y : S1024x512.Idx) :
    ∃ pc ∈ (kernelRun26_A c i arg2 harg2 arg3 harg3 arg4 harg4 arg5 harg5 hc0 hc1 x0 x1).2.1, y ∈ pc.1.set :=
  View.cover_of_tiledL (kernelRun26_A c i arg2 harg2 arg3 harg3 arg4 harg4 arg5 harg5 hc0 hc1 x0 x1).2.1 S1024x512.size (by sl_kernel_rfl) y
/-- What case A leaves in the accumulator. -/
noncomputable def sout26_A (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond26_0 i) (hc1 : ¬cond26_1 i)
    (x0 : Vec F S1024x1024 .bf16) (x1 : Vec F S1024x512 .f32) : Vec F S1024x512 .f32 :=
  VS26.read (Elt F) (VS26.writes (Elt F) VS26.junk (kernelRun26_A c i arg2 harg2 arg3 harg3 arg4 harg4 arg5 harg5 hc0 hc1 x0 x1).2.1)

/-- Case B's store into the accumulator covers it. -/
theorem scover26_B (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond26_0 i) (hc1 : ¬cond26_1 i)
    (x0 : Vec F S1024x1024 .bf16) (x1 : Vec F S1024x512 .f32) (xs0 : Vec F S1024x512 .f32) (y : S1024x512.Idx) :
    ∃ pc ∈ (kernelRun26_B c i arg2 harg2 arg3 harg3 arg4 harg4 arg5 harg5 hc0 hc1 x0 x1 xs0).2.1, y ∈ pc.1.set :=
  View.cover_of_tiledL (kernelRun26_B c i arg2 harg2 arg3 harg3 arg4 harg4 arg5 harg5 hc0 hc1 x0 x1 xs0).2.1 S1024x512.size (by sl_kernel_rfl) y
/-- What case B leaves in the accumulator, over what the point before left. -/
noncomputable def sout26_B (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond26_0 i) (hc1 : ¬cond26_1 i)
    (x0 : Vec F S1024x1024 .bf16) (x1 : Vec F S1024x512 .f32) (xs0 : Vec F S1024x512 .f32) : Vec F S1024x512 .f32 :=
  VS26.read (Elt F) (VS26.writes (Elt F) VS26.junk (kernelRun26_B c i arg2 harg2 arg3 harg3 arg4 harg4 arg5 harg5 hc0 hc1 x0 x1 xs0).2.1)

/-- Case C's store into the output block covers it, and so does its store into the accumulator. -/
theorem cover26_C (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond26_0 i) (hc1 : cond26_1 i)
    (x0 : Vec F S1024x1024 .bf16) (x1 : Vec F S1024x512 .f32) (xs0 : Vec F S1024x512 .f32) (y : S1024x512.Idx) :
    ∃ pc ∈ (kernelRun26_C c i arg2 harg2 arg3 harg3 arg4 harg4 arg5 harg5 hc0 hc1 x0 x1 xs0).1, y ∈ pc.1.set :=
  View.cover_of_tiledL (kernelRun26_C c i arg2 harg2 arg3 harg3 arg4 harg4 arg5 harg5 hc0 hc1 x0 x1 xs0).1 S1024x512.size (by sl_kernel_rfl) y
theorem scover26_C (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond26_0 i) (hc1 : cond26_1 i)
    (x0 : Vec F S1024x1024 .bf16) (x1 : Vec F S1024x512 .f32) (xs0 : Vec F S1024x512 .f32) (y : S1024x512.Idx) :
    ∃ pc ∈ (kernelRun26_C c i arg2 harg2 arg3 harg3 arg4 harg4 arg5 harg5 hc0 hc1 x0 x1 xs0).2.1, y ∈ pc.1.set :=
  View.cover_of_tiledL (kernelRun26_C c i arg2 harg2 arg3 harg3 arg4 harg4 arg5 harg5 hc0 hc1 x0 x1 xs0).2.1 S1024x512.size (by sl_kernel_rfl) y
/-- What case C leaves in the output block, and in the accumulator. -/
noncomputable def out26_C (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond26_0 i) (hc1 : cond26_1 i)
    (x0 : Vec F S1024x1024 .bf16) (x1 : Vec F S1024x512 .f32) (xs0 : Vec F S1024x512 .f32) : Vec F S1024x512 .f32 :=
  VO26_2.read (Elt F) (VO26_2.writes (Elt F) VO26_2.junk (kernelRun26_C c i arg2 harg2 arg3 harg3 arg4 harg4 arg5 harg5 hc0 hc1 x0 x1 xs0).1)
noncomputable def sout26_C (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond26_0 i) (hc1 : cond26_1 i)
    (x0 : Vec F S1024x1024 .bf16) (x1 : Vec F S1024x512 .f32) (xs0 : Vec F S1024x512 .f32) : Vec F S1024x512 .f32 :=
  VS26.read (Elt F) (VS26.writes (Elt F) VS26.junk (kernelRun26_C c i arg2 harg2 arg3 harg3 arg4 harg4 arg5 harg5 hc0 hc1 x0 x1 xs0).2.1)

/-- Where the output block is idle nothing consults what it holds: a placeholder. -/
noncomputable def outIdle26 : Vec F S1024x512 .f32 := VO26_2.read (Elt F) (VO26_2.writes (Elt F) VO26_2.junk [])

/-! ## The conditions at a point, from t % 4 -/

theorem isFirst26 (t : Fin cfg26.N) (h : t.val % 4 = 0) : cond26_0 (grid26.coords t) := (hcond26_0 t).mpr h
theorem notFirst26 (t : Fin cfg26.N) (h : ¬t.val % 4 = 0) : ¬cond26_0 (grid26.coords t) := fun hc => h ((hcond26_0 t).mp hc)
theorem isLast26 (t : Fin cfg26.N) (h : t.val % 4 = 3) : cond26_1 (grid26.coords t) := (hcond26_1 t).mpr h
theorem notLast26 (t : Fin cfg26.N) (h : ¬t.val % 4 = 3) : ¬cond26_1 (grid26.coords t) := fun hc => h ((hcond26_1 t).mp hc)

/-! ## The accumulator and the output block, point by point -/

/-- After the body at position `n`: (the output block's buffer, the accumulator). -/
noncomputable def outsAt26 (c : Dev nD) : (n : ℕ) → n < cfg26.N → Vec F S1024x512 .f32 × Vec F S1024x512 .f32
  | 0, hn => (outIdle26, sout26_A c (grid26.coords ⟨0, hn⟩) (ms26_0 ⟨0, hn⟩) (hs26_0 ⟨0, hn⟩) (ms26_1 ⟨0, hn⟩) (hs26_1 ⟨0, hn⟩) (ms26_2 ⟨0, hn⟩) (hs26_2 ⟨0, hn⟩) scM26 (Memref.isWhole_whole _) (isFirst26 ⟨0, hn⟩ (Nat.zero_mod _)) (notLast26 ⟨0, hn⟩ (by simp)) (iblk26 V c 0 ⟨0, hn⟩) (iblk26 V c 1 ⟨0, hn⟩))
  | n + 1, hn =>
    if h0 : (n + 1) % 4 = 0 then
      (outIdle26, sout26_A c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) scM26 (Memref.isWhole_whole _) (isFirst26 ⟨n + 1, hn⟩ h0) (notLast26 ⟨n + 1, hn⟩ (by show ¬(n + 1) % 4 = 3; omega)) (iblk26 V c 0 ⟨n + 1, hn⟩) (iblk26 V c 1 ⟨n + 1, hn⟩))
    else if h3 : (n + 1) % 4 = 3 then
      (out26_C c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) scM26 (Memref.isWhole_whole _) (notFirst26 ⟨n + 1, hn⟩ h0) (isLast26 ⟨n + 1, hn⟩ h3) (iblk26 V c 0 ⟨n + 1, hn⟩) (iblk26 V c 1 ⟨n + 1, hn⟩) (outsAt26 c n (Nat.lt_of_succ_lt hn)).2,
       sout26_C c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) scM26 (Memref.isWhole_whole _) (notFirst26 ⟨n + 1, hn⟩ h0) (isLast26 ⟨n + 1, hn⟩ h3) (iblk26 V c 0 ⟨n + 1, hn⟩) (iblk26 V c 1 ⟨n + 1, hn⟩) (outsAt26 c n (Nat.lt_of_succ_lt hn)).2)
    else
      (outIdle26, sout26_B c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) scM26 (Memref.isWhole_whole _) (notFirst26 ⟨n + 1, hn⟩ h0) (notLast26 ⟨n + 1, hn⟩ h3) (iblk26 V c 0 ⟨n + 1, hn⟩) (iblk26 V c 1 ⟨n + 1, hn⟩) (outsAt26 c n (Nat.lt_of_succ_lt hn)).2)

/-- `outsAt26` at a point with k = 0. -/
theorem outsAt26_A (c : Dev nD) (t : Fin cfg26.N) (h0 : t.val % 4 = 0) :
    outsAt26 V c t.val t.isLt = (outIdle26, sout26_A c (grid26.coords t) (ms26_0 t) (hs26_0 t) (ms26_1 t) (hs26_1 t) (ms26_2 t) (hs26_2 t) scM26 (Memref.isWhole_whole _) (isFirst26 t h0) (notLast26 t (by omega)) (iblk26 V c 0 t) (iblk26 V c 1 t)) := by
  obtain ⟨n, hn⟩ := t
  cases n with
  | zero => rfl
  | succ n => exact (dif_pos h0).trans rfl

/-- `outsAt26` at a point with k = 1, 2: over what the point before left. -/
theorem outsAt26_B (c : Dev nD) (t : Fin cfg26.N) (h0 : ¬t.val % 4 = 0) (h3 : ¬t.val % 4 = 3) :
    outsAt26 V c t.val t.isLt = (outIdle26, sout26_B c (grid26.coords t) (ms26_0 t) (hs26_0 t) (ms26_1 t) (hs26_1 t) (ms26_2 t) (hs26_2 t) scM26 (Memref.isWhole_whole _) (notFirst26 t h0) (notLast26 t h3) (iblk26 V c 0 t) (iblk26 V c 1 t)
      (outsAt26 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt26` at a point with k = 3. -/
theorem outsAt26_C (c : Dev nD) (t : Fin cfg26.N) (h0 : ¬t.val % 4 = 0) (h3 : t.val % 4 = 3) :
    outsAt26 V c t.val t.isLt = (out26_C c (grid26.coords t) (ms26_0 t) (hs26_0 t) (ms26_1 t) (hs26_1 t) (ms26_2 t) (hs26_2 t) scM26 (Memref.isWhole_whole _) (notFirst26 t h0) (isLast26 t h3) (iblk26 V c 0 t) (iblk26 V c 1 t)
        (outsAt26 V c (t.val - 1) (Nat.lt_of_le_of_lt (Nat.sub_le _ _) t.isLt)).2,
      sout26_C c (grid26.coords t) (ms26_0 t) (hs26_0 t) (ms26_1 t) (hs26_1 t) (ms26_2 t) (hs26_2 t) scM26 (Memref.isWhole_whole _) (notFirst26 t h0) (isLast26 t h3) (iblk26 V c 0 t) (iblk26 V c 1 t)
        (outsAt26 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS26 (c : Dev nD) : (n : ℕ) → n ≤ cfg26.N → sProp 𝕄
  | 0, _ => Pipeline.ΦA spec26 c
  | n + 1, hn => iprop(iprop(owns (c : Thread nD τ) scM26 fullShare ((outsAt26 V c n hn).2) ∗ restBut26 c) ∗ (∃ r, prngReg c r))

theorem PhiS26_zero (c : Dev nD) (n : ℕ) (h : n ≤ cfg26.N) (hz : n = 0) : PhiS26 V c n h = Pipeline.ΦA spec26 c := by
  subst hz; rfl
theorem PhiS26_succ (c : Dev nD) (n : ℕ) (hn : n < cfg26.N) :
    PhiS26 V c (n + 1) hn = iprop(iprop(owns (c : Thread nD τ) scM26 fullShare ((outsAt26 V c n hn).2) ∗ restBut26 c) ∗ (∃ r, prngReg c r)) := rfl
theorem PhiS26_pos (c : Dev nD) (n : ℕ) (h : n ≤ cfg26.N) (hz : n ≠ 0) :
    PhiS26 V c n h = iprop(iprop(owns (c : Thread nD τ) scM26 fullShare ((outsAt26 V c (n - 1) (by omega)).2) ∗ restBut26 c) ∗ (∃ r, prngReg c r)) := by
  cases n with
  | zero => exact absurd rfl hz
  | succ n => rfl

/-! ## The proof data -/

/-- The region's proof data on core `c`: the arrays as the region finds them; after the body at point `t` each input's
    buffer at its block and the output's at `outsAt26`'s first component; the invariant `PhiS26`; nothing owed; full shares. -/
noncomputable def dat26 (c : Dev nD) : Dat τ (Elt F) Unit ℕ (UR sig nD τ) ℕ cfg26 c where
  A w := V c (Pipeline.arrRef spec26 w)
  after w t := match w with
    | ⟨0, _⟩ => iblk26 V c 0 t
    | ⟨1, _⟩ => iblk26 V c 1 t
    | ⟨2, _⟩ => (outsAt26 V c t.val t.isLt).1
  Φ t := PhiS26 V c t.val (Nat.le_of_lt_succ t.isLt)
  q _ := fullShare
  owed _ := 0

theorem A_eq26 (c : Dev nD) (w : Fin cfg26.W) : (dat26 V c).A w = V c (Pipeline.arrRef spec26 w) := by
  dsimp only [dat26]
theorem PhiS26_castSucc (c : Dev nD) (t : Fin cfg26.N) :
    (dat26 V c).Φ t.castSucc = PhiS26 V c t.val (Nat.le_of_lt t.isLt) := by
  dsimp only [dat26]; simp only [Fin.coe_castSucc]
theorem after26_0 (c : Dev nD) (t : Fin cfg26.N) : (dat26 V c).after 0 t = iblk26 V c 0 t := by dsimp only [dat26]
theorem after26_1 (c : Dev nD) (t : Fin cfg26.N) : (dat26 V c).after 1 t = iblk26 V c 1 t := by dsimp only [dat26]
theorem after26_2 (c : Dev nD) (t : Fin cfg26.N) : (dat26 V c).after 2 t = (outsAt26 V c t.val t.isLt).1 := by dsimp only [dat26]
theorem before26_0 (c : Dev nD) (t : Fin cfg26.N) (d) : (dat26 V c).before 0 t d = iblk26 V c 0 t :=
  before26_0_of V (dat26 V c) (A_eq26 V c 0) (after26_0 V c) t d
theorem before26_1 (c : Dev nD) (t : Fin cfg26.N) (d) : (dat26 V c).before 1 t d = iblk26 V c 1 t :=
  before26_1_of V (dat26 V c) (A_eq26 V c 1) (after26_1 V c) t d

/-! ## The body's obligation -/

noncomputable def bodyPre26 (c : Dev nD) (t : Fin cfg26.N) : sProp 𝕄 :=
  iprop((dat26 V c).Φ t.castSucc ∗ (dat26 V c).owesAt () t.castSucc
    ∗ (∃ d, owns (c : Thread nD τ) (ms26_0 t) fullShare ((dat26 V c).before 0 t d))
    ∗ (∃ d, owns (c : Thread nD τ) (ms26_1 t) fullShare ((dat26 V c).before 1 t d))
    ∗ (∃ d, owns (c : Thread nD τ) (ms26_2 t) fullShare ((dat26 V c).before 2 t d)))

noncomputable def bodyPost26 (c : Dev nD) (t : Fin cfg26.N) : sProp 𝕄 :=
  iprop((dat26 V c).Φ t.succ ∗ (dat26 V c).owesAt () t.succ
    ∗ (dat26 V c).leavesExact 0 t
    ∗ (dat26 V c).leavesExact 1 t
    ∗ (dat26 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body26 (c : Dev nD) (t : Fin cfg26.N) :
    bodyPre26 V c t ⊢ wp frame (wpE (defs₀ (F := F)) Variants.none c none) Set.univ (bodyAt26 t) (fun _ => bodyPost26 V c t) := by
  unfold bodyPre26 bodyPost26 bodyAt26
  simp only [before26_0, before26_1]
  rw [show (dat26 V c).owesAt () t.succ = (dat26 V c).owesAt () t.castSucc from rfl]
  rw [show (dat26 V c).Φ t.succ = PhiS26 V c (t.val + 1) t.isLt from rfl, PhiS26_succ]
  rw [show (dat26 V c).leavesExact 0 t = owns (c : Thread nD τ) (ms26_0 t) fullShare ((dat26 V c).after 0 t) from by
    unfold Dat.leavesExact; rw [liveAt26_0 t], after26_0]
  rw [show (dat26 V c).leavesExact 1 t = owns (c : Thread nD τ) (ms26_1 t) fullShare ((dat26 V c).after 1 t) from by
    unfold Dat.leavesExact; rw [liveAt26_1 t], after26_1]
  by_cases h0 : t.val % 4 = 0
  · have h3 : ¬t.val % 4 = 3 := by omega
    rw [Dat.leavesExact_idle (dat26 V c) 2 t (idleAt26_2 t (notLast26 t h3)) (noFlush26_2 t (notLast26 t h3))]
    rw [outsAt26_A V c t h0]
    unfold sout26_A; (try dsimp only)
    by_cases hz : t.val = 0
    · rw [PhiS26_castSucc V c t, PhiS26_zero V c _ _ hz, PhiA26_eq]
      iintro ⟨⟨⟨HS0, Hrb⟩, Hg⟩, Ho, ⟨%d0, H0⟩, ⟨%d1, H1⟩, ⟨%d2, H2⟩⟩
      iapply ((kernelRun26_A c (grid26.coords t) _ _ _ _ _ _ _ _ (isFirst26 t h0) (notLast26 t (by omega)) (iblk26 V c 0 t) (iblk26 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover26_A c _ _ _ _ _ _ _ _ _ _ _ _ _)
          iexact Hrb
        iexact Hg
      isplitl [Ho]; · iexact Ho
      isplitl [H0]; · iexact H0
      isplitl [H1]; · iexact H1
      iexists _; iexact H2
    · rw [PhiS26_castSucc V c t, PhiS26_pos V c _ _ hz]
      iintro ⟨⟨⟨HS0, Hrb⟩, Hg⟩, Ho, ⟨%d0, H0⟩, ⟨%d1, H1⟩, ⟨%d2, H2⟩⟩
      iapply ((kernelRun26_A c (grid26.coords t) _ _ _ _ _ _ _ _ (isFirst26 t h0) (notLast26 t (by omega)) (iblk26 V c 0 t) (iblk26 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover26_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat26 V c).leavesExact 2 t = owns (c : Thread nD τ) (ms26_2 t) fullShare ((dat26 V c).after 2 t) from by
        unfold Dat.leavesExact; rw [liveAt26_2 t (isLast26 t h3)], after26_2]
      rw [outsAt26_C V c t h0 h3]
      unfold out26_C sout26_C; (try dsimp only)
      rw [PhiS26_castSucc V c t, PhiS26_pos V c _ _ hz]
      iintro ⟨⟨⟨HS0, Hrb⟩, Hg⟩, Ho, ⟨%d0, H0⟩, ⟨%d1, H1⟩, ⟨%d2, H2⟩⟩
      iapply ((kernelRun26_C c (grid26.coords t) _ _ _ _ _ _ _ _ (notFirst26 t h0) (isLast26 t h3) (iblk26 V c 0 t) (iblk26 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover26_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover26_C c _ _ _ _ _ _ _ _ _ _ _ _ _ _)
    · rw [Dat.leavesExact_idle (dat26 V c) 2 t (idleAt26_2 t (notLast26 t h3)) (noFlush26_2 t (notLast26 t h3))]
      rw [outsAt26_B V c t h0 h3]
      unfold sout26_B; (try dsimp only)
      rw [PhiS26_castSucc V c t, PhiS26_pos V c _ _ hz]
      iintro ⟨⟨⟨HS0, Hrb⟩, Hg⟩, Ho, ⟨%d0, H0⟩, ⟨%d1, H1⟩, ⟨%d2, H2⟩⟩
      iapply ((kernelRun26_B c (grid26.coords t) _ _ _ _ _ _ _ _ (notFirst26 t h0) (notLast26 t h3) (iblk26 V c 0 t) (iblk26 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover26_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation26 (c : Dev nD) : BodyObligation (dat26 (F := F) V c) (defs₀ (F := F)) Variants.none () Set.univ := fun t => by
  rw [bigSep_W26, bigSep_W26]
  exact sound_body26 V c t

/-- What the region is entered with is the invariant before the first point. -/
theorem hin26 (c : Dev nD) : Pipeline.ΦA spec26 c ⊢ (dat26 V c).Φ 0 := by
  rw [show (dat26 V c).Φ 0 = PhiS26 V c 0 (Nat.zero_le _) from rfl, PhiS26_zero V c 0 _ rfl]
  try exact Idealize.SL.BI.Entails.refl _

/-- After the last point the invariant gives the class's back: the accumulator's contents are forgotten. -/
theorem hout26 (c : Dev nD) : (dat26 V c).Φ (Fin.last cfg26.N) ⊢ Pipeline.ΦA spec26 c := by
  have hN : cfg26.N = 16 := N_26
  rw [show (dat26 V c).Φ (Fin.last cfg26.N) = PhiS26 V c (Fin.last cfg26.N).val (Nat.le_of_lt_succ (Fin.last cfg26.N).isLt) from rfl,
    PhiS26_pos V c _ _ (by rw [Fin.val_last]; omega), PhiA26_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI27a.lean ====
/- Laid out by: python3 scratch/layout_grid41.py --template-region 0 --region 27 --program KernelIdeal --parts a, --shapes S1024x128=S1024x512,S128x512=S512x512
   from the hand-written text of region 0 (RegKI0a.lean): the same text, the region's number, block shapes substituted. -/
/- The region of KernelIdeal's @main that runs `cc27__matmul_kernel` (pipeline `cfg27`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond27_0 (i : grid27.Coords) : Prop :=
  (Scalar.cmpi .ne (Scalar.extui (Scalar.cmpi .eq (BitVec.ofNat 32 (i 1).val) 0#32)) 0#32) = 1#1
/-- True at every point: the reduction axis has one step. -/
theorem hcond27_0 : ∀ t : Fin cfg27.N, cond27_0 (grid27.coords t) :=
  (by decide +kernel : ∀ t : Fin grid27.N, cond27_0 (grid27.coords t))

/-- "This is the last reduction step" (the guard of the copy to the output block). -/
abbrev cond27_1 (i : grid27.Coords) : Prop := k27_cond2 i = 1#1
/-- True at every point, for the same reason. -/
theorem hcond27_1 : ∀ t : Fin cfg27.N, cond27_1 (grid27.coords t) :=
  (by decide +kernel : ∀ t : Fin grid27.N, cond27_1 (grid27.coords t))

/-! ## No window is idle anywhere -/

theorem liveAt27_0 : ∀ t : Fin cfg27.N, cfg27.idle 0 (grid27.coords t) = false := by decide +kernel
theorem liveAt27_1 : ∀ t : Fin cfg27.N, cfg27.idle 1 (grid27.coords t) = false := by decide +kernel
/-- The output window is stored at every point (the copy's guard holds everywhere). -/
theorem liveAt27_2 : ∀ t : Fin cfg27.N, cfg27.idle 2 (grid27.coords t) = false := by decide +kernel

/-! ## The memrefs the body is called on -/

/-- One staging buffer of the output window, through which its contents are stated (any whole view of the shape reads the
    same pieces back the same way). -/
abbrev VO27_2 : View sig .tc .vmem S1024x512 .f32 := (Memref.whole cc27_stg2_0 : Memref sig .tc .vmem S1024x512 .f32).view
/-- Each window's current staging memref at point `t`, spelt as the pipeline passes it, with its wholeness. -/
abbrev ms27_0 (t : Fin cfg27.N) : Memref sig .tc .vmem S1024x512 .f32 := win27_0.stage (cfg27.slots t 0)
abbrev hs27_0 (t : Fin cfg27.N) : (ms27_0 t).IsWhole := hstage27_0 ((cfg27.slots t 0).cast nbuf27_0)
abbrev ms27_1 (t : Fin cfg27.N) : Memref sig .tc .vmem S512x512 .bf16 := win27_1.stage (cfg27.slots t 1)
abbrev hs27_1 (t : Fin cfg27.N) : (ms27_1 t).IsWhole := hstage27_1 ((cfg27.slots t 1).cast nbuf27_1)
abbrev ms27_2 (t : Fin cfg27.N) : Memref sig .tc .vmem S1024x512 .f32 := win27_2.stage (cfg27.slots t 2)
abbrev hs27_2 (t : Fin cfg27.N) : (ms27_2 t).IsWhole := hstage27_2 ((cfg27.slots t 2).cast nbuf27_2)
/-- The accumulator: a whole scoped buffer of the kernel's own, passed beside the windows. -/
abbrev scM27_0 : Memref sig .tc .vmem S1024x512 .f32 := Memref.whole cc27_scratch0
abbrev VS27_0 : View sig .tc .vmem S1024x512 .f32 := scM27_0.view

/-- The region invariant with the accumulator taken out of the scoped rest: the accumulator owned at some contents, every
    other scoped buffer unopened, and the generator register. -/
theorem PhiA27_eq (c : Dev nD) :
    (Pipeline.ΦA spec27 c : sProp 𝕄)
      = iprop(iprop(iprop((∃ d, owns (c : Thread nD τ) scM27_0 fullShare d))
            ∗ Pipeline.scopedRestBut (Ix := Unit) (Name := ℕ) (U := UR sig nD τ) (Lvl := ℕ) (Val := Elt F) spec27 c [cc27_scratch0])
          ∗ (∃ r, prngReg c r)) := by
  unfold Pipeline.ΦA; rw [scopedRest27_split]; simp only [scM27_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun27 (c : Dev nD) (i : grid27.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond27_0 i) (hlast : cond27_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc27__matmul_kernel i arg2 harg2 arg3 harg3 arg4 harg4 arg5 harg5) K } := by
  refine ⟨?_, ?_, fun E K => ?run⟩
  case run =>
    simp only [cc27__matmul_kernel_eq_skeleton]; unfold cc27__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.KernelIdeal.Hand

end
-- ==== Proof.RegKI27.lean ====
/- Laid out by: python3 scratch/layout_grid41.py --template-region 0 --region 27 --program KernelIdeal --parts a, --shapes S1024x128=S1024x512,S128x512=S512x512
   from the hand-written text of region 0 (RegKI0.lean): the same text, the region's number, block shapes substituted. -/
/- The region of KernelIdeal's @main that runs `cc27__matmul_kernel` (pipeline `cfg27`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegKI27a
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk27 (c : Dev nD) (w : Fin cfg27.W) (t : Fin cfg27.N) : ((cfg27.win w).xblock (cfg27.grid.coords t)).Idx → Elt F (cfg27.win w).elt :=
  ((cfg27.win w).blk t).view.read (Elt F) (V c (Pipeline.arrRef spec27 w))

/-! ## What the case leaves, as pieces read back -/

/-- The output's pieces tile its block (one whole-block store). -/
theorem cover27_2 (c : Dev nD) (i : grid27.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond27_0 i) (hlast : cond27_1 i) (xa : Vec F S1024x512 .f32) (xb : Vec F S512x512 .bf16) (y : S1024x512.Idx) :
    ∃ pc ∈ (kernelRun27 c i arg2 harg2 arg3 harg3 arg4 harg4 arg5 harg5 hfirst hlast xa xb).1, y ∈ pc.1.set :=
  View.cover_of_tiledL (kernelRun27 c i arg2 harg2 arg3 harg3 arg4 harg4 arg5 harg5 hfirst hlast xa xb).1 S1024x512.size (by sl_kernel_rfl) y

/-- What the case leaves in the output's staging buffer: its pieces read back over junk. -/
noncomputable def out27_2 (c : Dev nD) (i : grid27.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond27_0 i) (hlast : cond27_1 i) (xa : Vec F S1024x512 .f32) (xb : Vec F S512x512 .bf16) : Vec F S1024x512 .f32 :=
  VO27_2.read (Elt F) (VO27_2.writes (Elt F) VO27_2.junk (kernelRun27 c i arg2 harg2 arg3 harg3 arg4 harg4 arg5 harg5 hfirst hlast xa xb).1)

/-- What the case leaves in the accumulator: its pieces read back over junk. -/
noncomputable def sout27_0 (c : Dev nD) (i : grid27.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond27_0 i) (hlast : cond27_1 i) (xa : Vec F S1024x512 .f32) (xb : Vec F S512x512 .bf16) : Vec F S1024x512 .f32 :=
  VS27_0.read (Elt F) (VS27_0.writes (Elt F) VS27_0.junk (kernelRun27 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout27_0_eq (c : Dev nD) (i : grid27.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond27_0 i) (hlast : cond27_1 i) (xa : Vec F S1024x512 .f32) (xb : Vec F S512x512 .bf16) :
    sout27_0 c i arg2 harg2 arg3 harg3 arg4 harg4 arg5 harg5 hfirst hlast xa xb = k27_pay2 xa xb (k27_pay1 (F := F)) := by
  unfold sout27_0
  rw [View.read_writes_junk_eq_canon]
  unfold kernelRun27
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out27_2_eq (c : Dev nD) (i : grid27.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond27_0 i) (hlast : cond27_1 i) (xa : Vec F S1024x512 .f32) (xb : Vec F S512x512 .bf16) :
    out27_2 c i arg2 harg2 arg3 harg3 arg4 harg4 arg5 harg5 hfirst hlast xa xb = k27_pay2 xa xb (k27_pay1 (F := F)) := by
  unfold out27_2
  rw [View.read_writes_junk_eq_canon]
  unfold kernelRun27
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt27 (c : Dev nD) (n : ℕ) (hn : n < cfg27.N) : Vec F S1024x512 .f32 × Vec F S1024x512 .f32 :=
  (out27_2 c (grid27.coords ⟨n, hn⟩) (ms27_0 ⟨n, hn⟩) (hs27_0 ⟨n, hn⟩) (ms27_1 ⟨n, hn⟩) (hs27_1 ⟨n, hn⟩) (ms27_2 ⟨n, hn⟩) (hs27_2 ⟨n, hn⟩) scM27_0 (Memref.isWhole_whole _)
      (hcond27_0 ⟨n, hn⟩) (hcond27_1 ⟨n, hn⟩) (iblk27 V c 0 ⟨n, hn⟩) (iblk27 V c 1 ⟨n, hn⟩),
   sout27_0 c (grid27.coords ⟨n, hn⟩) (ms27_0 ⟨n, hn⟩) (hs27_0 ⟨n, hn⟩) (ms27_1 ⟨n, hn⟩) (hs27_1 ⟨n, hn⟩) (ms27_2 ⟨n, hn⟩) (hs27_2 ⟨n, hn⟩) scM27_0 (Memref.isWhole_whole _)
      (hcond27_0 ⟨n, hn⟩) (hcond27_1 ⟨n, hn⟩) (iblk27 V c 0 ⟨n, hn⟩) (iblk27 V c 1 ⟨n, hn⟩))

/-- Every point is a first reduction step: the accumulator after it is one product onto zero. -/
theorem outsAt27_first (c : Dev nD) (t : Fin cfg27.N) :
    (outsAt27 V c t.val t.isLt).2 = k27_pay2 (iblk27 V c 0 t) (iblk27 V c 1 t) (k27_pay1 (F := F)) := by
  obtain ⟨n, hn⟩ := t
  unfold outsAt27
  dsimp only
  rw [sout27_0_eq]

/-- Every point is a last reduction step: the output block after it is the accumulator. -/
theorem outsAt27_last (c : Dev nD) (t : Fin cfg27.N) :
    (outsAt27 V c t.val t.isLt).1 = (outsAt27 V c t.val t.isLt).2 := by
  obtain ⟨n, hn⟩ := t
  unfold outsAt27
  dsimp only
  rw [out27_2_eq, sout27_0_eq]

/-! ## The pipeline's proof data -/

/-- The proof data of the pipeline on core `c`: the arrays as the region finds them; after the body at point `t` each input's
    buffer at its block and the output's at `outsAt27`'s first component; the invariant the same at every point; nothing owed;
    full shares. -/
noncomputable def dat27 (c : Dev nD) : Dat τ (Elt F) Unit ℕ (UR sig nD τ) ℕ cfg27 c where
  A w := V c (Pipeline.arrRef spec27 w)
  after w t := match w with
    | ⟨0, _⟩ => iblk27 V c 0 t
    | ⟨1, _⟩ => iblk27 V c 1 t
    | ⟨2, _⟩ => (outsAt27 V c t.val t.isLt).1
  Φ _ := Pipeline.ΦA spec27 c
  q _ := fullShare
  owed _ := 0

theorem A_eq27 (c : Dev nD) (w : Fin cfg27.W) : (dat27 V c).A w = V c (Pipeline.arrRef spec27 w) := by
  dsimp only [dat27]

theorem after27_0 (c : Dev nD) (t : Fin cfg27.N) : (dat27 V c).after 0 t = iblk27 V c 0 t := by dsimp only [dat27]
theorem after27_1 (c : Dev nD) (t : Fin cfg27.N) : (dat27 V c).after 1 t = iblk27 V c 1 t := by dsimp only [dat27]
theorem after27_2 (c : Dev nD) (t : Fin cfg27.N) : (dat27 V c).after 2 t = (outsAt27 V c t.val t.isLt).1 := by dsimp only [dat27]

/-- An input's current staging buffer holds its block at every point, fetched there or not: where it is not fetched its block
    index has not moved since the point before, and the body left the block in place. -/
theorem before27_0 (c : Dev nD) (t : Fin cfg27.N) (d) : (dat27 V c).before 0 t d = iblk27 V c 0 t :=
  ((dat27 V c).before_in_eq_fetched 0 rfl (fun _ => rfl) (fun _ _ _ => rfl)
      (fun t => by rw [after27_0]; unfold Dat.blockOf iblk27; rw [A_eq27]; try rfl) t d).trans
    (by unfold Dat.fetched Dat.blockOf iblk27; rw [A_eq27]; try rfl)
theorem before27_1 (c : Dev nD) (t : Fin cfg27.N) (d) : (dat27 V c).before 1 t d = iblk27 V c 1 t :=
  ((dat27 V c).before_in_eq_fetched 1 rfl (fun _ => rfl) (fun _ _ _ => rfl)
      (fun t => by rw [after27_1]; unfold Dat.blockOf iblk27; rw [A_eq27]; try rfl) t d).trans
    (by unfold Dat.fetched Dat.blockOf iblk27; rw [A_eq27]; try rfl)

/-! ## The body obligation, at a generic point -/

/-- What the body is called with at point `t`, the windows one by one, -/
noncomputable def bodyPre27 (c : Dev nD) (t : Fin cfg27.N) : sProp 𝕄 :=
  iprop((dat27 V c).Φ t.castSucc ∗ (dat27 V c).owesAt () t.castSucc
    ∗ (∃ d, owns (c : Thread nD τ) (ms27_0 t) fullShare ((dat27 V c).before 0 t d))
    ∗ (∃ d, owns (c : Thread nD τ) (ms27_1 t) fullShare ((dat27 V c).before 1 t d))
    ∗ (∃ d, owns (c : Thread nD τ) (ms27_2 t) fullShare ((dat27 V c).before 2 t d)))

/-- and what it returns. -/
noncomputable def bodyPost27 (c : Dev nD) (t : Fin cfg27.N) : sProp 𝕄 :=
  iprop((dat27 V c).Φ t.succ ∗ (dat27 V c).owesAt () t.succ
    ∗ (dat27 V c).leavesExact 0 t
    ∗ (dat27 V c).leavesExact 1 t
    ∗ (dat27 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body27 (c : Dev nD) (t : Fin cfg27.N) :
    bodyPre27 V c t ⊢ wp frame (wpE (defs₀ (F := F)) Variants.none c none) Set.univ (bodyAt27 t) (fun _ => bodyPost27 V c t) := by
  unfold bodyPre27 bodyPost27 bodyAt27
  simp only [before27_0, before27_1]
  rw [show (dat27 V c).owesAt () t.succ = (dat27 V c).owesAt () t.castSucc from rfl,
    show (dat27 V c).Φ t.succ = Pipeline.ΦA spec27 c from rfl, show (dat27 V c).Φ t.castSucc = Pipeline.ΦA spec27 c from rfl, PhiA27_eq]
  rw [show (dat27 V c).leavesExact 0 t = owns (c : Thread nD τ) (ms27_0 t) fullShare ((dat27 V c).after 0 t) from by
      unfold Dat.leavesExact; rw [liveAt27_0 t], after27_0]
  rw [show (dat27 V c).leavesExact 1 t = owns (c : Thread nD τ) (ms27_1 t) fullShare ((dat27 V c).after 1 t) from by
      unfold Dat.leavesExact; rw [liveAt27_1 t], after27_1]
  rw [show (dat27 V c).leavesExact 2 t = owns (c : Thread nD τ) (ms27_2 t) fullShare ((dat27 V c).after 2 t) from by
      unfold Dat.leavesExact; rw [liveAt27_2 t], after27_2]
  unfold outsAt27 out27_2; (try dsimp only)
  iintro ⟨⟨⟨Hacc, Hrest⟩, Hgen⟩, Howe, ⟨%da, Ha⟩, ⟨%db, Hb⟩, ⟨%dO, Hout⟩⟩
  iapply ((kernelRun27 c (grid27.coords t) _ _ _ _ _ _ _ _ (hcond27_0 t) (hcond27_1 t) (iblk27 V c 0 t) (iblk27 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover27_2 c _ _ _ _ _ _ _ _ _ _ _ _ _)

/-- The library's body obligation, at every point. -/
theorem body_obligation27 (c : Dev nD) : BodyObligation (dat27 (F := F) V c) (defs₀ (F := F)) Variants.none () Set.univ := fun t => by
  rw [bigSep_W27, bigSep_W27]
  exact sound_body27 V c t

/-- What the launch hands the region is the invariant before the first point, -/
theorem hin27 (c : Dev nD) : Pipeline.ΦA spec27 c ⊢ (dat27 V c).Φ 0 := Idealize.SL.BI.Entails.refl _

/-- and the invariant after the last point is what the launch takes back. -/
theorem hout27 (c : Dev nD) : (dat27 V c).Φ (Fin.last cfg27.N) ⊢ Pipeline.ΦA spec27 c := Idealize.SL.BI.Entails.refl _

end Cert.KernelIdeal.Hand

end
-- ==== Proof.RegKI28a.lean ====
/- Laid out by: python3 scratch/layout_regions.py --template-region 1 --region 28 --program KernelIdeal --parts a,b,c, --out-dir proof/Proof
   from the hand-written text of region 1 (RegKI1a.lean): the same text, the region's number substituted. -/
/-
  Region 28 of @main (custom_call 28): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond28_0 (i : grid28.Coords) : Prop := (Scalar.cmpi .ne (Scalar.extui (Scalar.cmpi .eq (BitVec.ofNat 32 (i 1).val) 0#32)) 0#32) = 1#1
/-- It holds exactly at the points with t % 4 = 0. -/
theorem hcond28_0 : ∀ t : Fin cfg28.N, cond28_0 (grid28.coords t) ↔ t.val % 4 = 0 :=
  (by decide +kernel : ∀ t : Fin grid28.N, cond28_0 (grid28.coords t) ↔ t.val % 4 = 0)

/-- "k = 3": the second conditional's test. -/
abbrev cond28_1 (i : grid28.Coords) : Prop := k28_cond2 i = 1#1
/-- It holds exactly at the points with t % 4 = 3. -/
theorem hcond28_1 : ∀ t : Fin cfg28.N, cond28_1 (grid28.coords t) ↔ t.val % 4 = 3 :=
  (by decide +kernel : ∀ t : Fin grid28.N, cond28_1 (grid28.coords t) ↔ t.val % 4 = 3)

/-! ## Where the windows are idle, and where the output is written back -/

/-- The two input windows are never idle. -/
theorem liveAt28_0 : ∀ t : Fin cfg28.N, cfg28.idle 0 (grid28.coords t) = false := by decide +kernel
theorem liveAt28_1 : ∀ t : Fin cfg28.N, cfg28.idle 1 (grid28.coords t) = false := by decide +kernel
/-- Where k ≠ 3 the output window is idle (the body stores nothing into it) and is not written back. -/
theorem idleAt28_2 : ∀ t : Fin cfg28.N, ¬cond28_1 (grid28.coords t) → cfg28.idle 2 (grid28.coords t) = true := by decide +kernel
theorem noFlush28_2 : ∀ t : Fin cfg28.N, ¬cond28_1 (grid28.coords t) → (cfg28.win 2).flush t = false := by decide +kernel
/-- Where k = 3 it is live. -/
theorem liveAt28_2 : ∀ t : Fin cfg28.N, cond28_1 (grid28.coords t) → cfg28.idle 2 (grid28.coords t) = false := by decide +kernel

/-! ## The staging memrefs at a point, and the scratch -/

/-- One staging buffer of the output window, through which its contents are stated. -/
abbrev VO28_2 : View sig .tc .vmem S1024x512 .f32 := (Memref.whole cc28_stg2_0 : Memref sig .tc .vmem S1024x512 .f32).view
abbrev ms28_0 (t : Fin cfg28.N) : Memref sig .tc .vmem S1024x1024 .bf16 := win28_0.stage (cfg28.slots t 0)
abbrev hs28_0 (t : Fin cfg28.N) : (ms28_0 t).IsWhole := hstage28_0 ((cfg28.slots t 0).cast nbuf28_0)
abbrev ms28_1 (t : Fin cfg28.N) : Memref sig .tc .vmem S1024x512 .f32 := win28_1.stage (cfg28.slots t 1)
abbrev hs28_1 (t : Fin cfg28.N) : (ms28_1 t).IsWhole := hstage28_1 ((cfg28.slots t 1).cast nbuf28_1)
abbrev ms28_2 (t : Fin cfg28.N) : Memref sig .tc .vmem S1024x512 .f32 := win28_2.stage (cfg28.slots t 2)
abbrev hs28_2 (t : Fin cfg28.N) : (ms28_2 t).IsWhole := hstage28_2 ((cfg28.slots t 2).cast nbuf28_2)
/-- The accumulator: a whole scoped buffer of the kernel's own. -/
abbrev scM28 : Memref sig .tc .vmem S1024x512 .f32 := Memref.whole cc28_scratch0
abbrev VS28 : View sig .tc .vmem S1024x512 .f32 := scM28.view

/-- The other scoped buffers of the core, none of which this region touches. -/
abbrev restBut28 (c : Dev nD) : sProp 𝕄 :=
  Pipeline.scopedRestBut (Ix := Unit) (Name := ℕ) (U := UR sig nD τ) (Lvl := ℕ) (Val := Elt F) spec28 c [cc28_scratch0]

/-- The region's invariant before its first point: the accumulator at something, the other scoped buffers, the generator register. -/
theorem PhiA28_eq (c : Dev nD) :
    (Pipeline.ΦA spec28 c : sProp 𝕄)
      = iprop(iprop((∃ d, owns (c : Thread nD τ) scM28 fullShare d) ∗ restBut28 c) ∗ (∃ r, prngReg c r)) := by
  unfold Pipeline.ΦA; rw [scopedRest28_split]; simp only [scM28, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun28_A (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond28_0 i) (hc1 : ¬cond28_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc28__matmul_kernel i arg2 harg2 arg3 harg3 arg4 harg4 arg5 harg5) K } := by
  refine ⟨[], ?_, fun xi2 E K => ?run⟩
  case run =>
    simp only [cc28__matmul_kernel_eq_skeleton]; unfold cc28__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI28b.lean ====
/- Laid out by: python3 scratch/layout_regions.py --template-region 1 --region 28 --program KernelIdeal --parts a,b,c, --out-dir proof/Proof
   from the hand-written text of region 1 (RegKI1b.lean): the same text, the region's number substituted. -/
/-
  Region 28, case B (k = 1, 2): the body's run. Neither conditional is taken: the product of the two blocks is added to what
  the point before left in the accumulator; the output block is not touched.
-/
import proofs.«158944_j64613488001249_1_alg».proof.Proof.RegKI28a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun28_B (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond28_0 i) (hc1 : ¬cond28_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc28__matmul_kernel i arg2 harg2 arg3 harg3 arg4 harg4 arg5 harg5) K } := by
  refine ⟨[], ?_, fun xi2 E K => ?run⟩
  case run =>
    simp only [cc28__matmul_kernel_eq_skeleton]; unfold cc28__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI28c.lean ====
/- Laid out by: python3 scratch/layout_regions.py --template-region 1 --region 28 --program KernelIdeal --parts a,b,c, --out-dir proof/Proof
   from the hand-written text of region 1 (RegKI1c.lean): the same text, the region's number substituted. -/
/-
  Region 28, case C (k = 3): the body's run. The product is added to the accumulator as in case B, and then the second
  conditional copies the accumulator over the whole output block.
-/
import proofs.«158944_j64613488001249_1_alg».proof.Proof.RegKI28b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun28_C (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond28_0 i) (hc1 : cond28_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc28__matmul_kernel i arg2 harg2 arg3 harg3 arg4 harg4 arg5 harg5) K } := by
  refine ⟨?_, ?_, fun E K => ?run⟩
  case run =>
    simp only [cc28__matmul_kernel_eq_skeleton]; unfold cc28__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI28.lean ====
/- Laid out by: python3 scratch/layout_regions.py --template-region 1 --region 28 --program KernelIdeal --parts a,b,c, --out-dir proof/Proof
   from the hand-written text of region 1 (RegKI1.lean): the same text, the region's number substituted. -/
/-
  Region 28 of @main, entered from the buffer contents `V`: what its windows' blocks are, what each case of the body leaves in
  the accumulator and in the output block, the accumulator and the output block point by point (`outsAt28`: at k = 0 the
  accumulator restarts from zeros plus the product; at k = 1, 2, 3 it is the point before's plus the product; at k = 3 the
  output block is the accumulator), the region's invariant (the accumulator at `outsAt28`'s second component), the proof data,
  and the body's obligation at every point.
-/
import proofs.«158944_j64613488001249_1_alg».proof.Proof.RegKI28c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk28 (c : Dev nD) (w : Fin cfg28.W) (t : Fin cfg28.N) : ((cfg28.win w).xblock (cfg28.grid.coords t)).Idx → Elt F (cfg28.win w).elt :=
  ((cfg28.win w).blk t).view.read (Elt F) (V c (Pipeline.arrRef spec28 w))

/-- An input window's current staging buffer holds its block at every point, for any proof data whose array is `V`'s and
    whose body leaves the block in place. -/
theorem before28_0_of {c : Dev nD} (dat : Dat τ (Elt F) Unit ℕ (UR sig nD τ) ℕ cfg28 c) (hA : dat.A 0 = V c (Pipeline.arrRef spec28 0))
    (hafter : ∀ t, dat.after 0 t = iblk28 V c 0 t) (t : Fin cfg28.N) (d) : dat.before 0 t d = iblk28 V c 0 t :=
  (dat.before_in_eq_fetched 0 rfl (fun _ => rfl) (fun _ _ _ => rfl) (fun t => by rw [hafter]; unfold Dat.blockOf iblk28; rw [hA]; try rfl) t d).trans
    (by unfold Dat.fetched Dat.blockOf iblk28; rw [hA]; try rfl)
theorem before28_1_of {c : Dev nD} (dat : Dat τ (Elt F) Unit ℕ (UR sig nD τ) ℕ cfg28 c) (hA : dat.A 1 = V c (Pipeline.arrRef spec28 1))
    (hafter : ∀ t, dat.after 1 t = iblk28 V c 1 t) (t : Fin cfg28.N) (d) : dat.before 1 t d = iblk28 V c 1 t :=
  (dat.before_in_eq_fetched 1 rfl (fun _ => rfl) (fun _ _ _ => rfl) (fun t => by rw [hafter]; unfold Dat.blockOf iblk28; rw [hA]; try rfl) t d).trans
    (by unfold Dat.fetched Dat.blockOf iblk28; rw [hA]; try rfl)

/-! ## What each case leaves -/

/-- Case A's stores into the accumulator cover it. -/
theorem scover28_A (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond28_0 i) (hc1 : ¬cond28_1 i)
    (x0 : Vec F S1024x1024 .bf16) (x1 : Vec F S1024x512 .f32) (y : S1024x512.Idx) :
    ∃ pc ∈ (kernelRun28_A c i arg2 harg2 arg3 harg3 arg4 harg4 arg5 harg5 hc0 hc1 x0 x1).2.1, y ∈ pc.1.set :=
  View.cover_of_tiledL (kernelRun28_A c i arg2 harg2 arg3 harg3 arg4 harg4 arg5 harg5 hc0 hc1 x0 x1).2.1 S1024x512.size (by sl_kernel_rfl) y
/-- What case A leaves in the accumulator. -/
noncomputable def sout28_A (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond28_0 i) (hc1 : ¬cond28_1 i)
    (x0 : Vec F S1024x1024 .bf16) (x1 : Vec F S1024x512 .f32) : Vec F S1024x512 .f32 :=
  VS28.read (Elt F) (VS28.writes (Elt F) VS28.junk (kernelRun28_A c i arg2 harg2 arg3 harg3 arg4 harg4 arg5 harg5 hc0 hc1 x0 x1).2.1)

/-- Case B's store into the accumulator covers it. -/
theorem scover28_B (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond28_0 i) (hc1 : ¬cond28_1 i)
    (x0 : Vec F S1024x1024 .bf16) (x1 : Vec F S1024x512 .f32) (xs0 : Vec F S1024x512 .f32) (y : S1024x512.Idx) :
    ∃ pc ∈ (kernelRun28_B c i arg2 harg2 arg3 harg3 arg4 harg4 arg5 harg5 hc0 hc1 x0 x1 xs0).2.1, y ∈ pc.1.set :=
  View.cover_of_tiledL (kernelRun28_B c i arg2 harg2 arg3 harg3 arg4 harg4 arg5 harg5 hc0 hc1 x0 x1 xs0).2.1 S1024x512.size (by sl_kernel_rfl) y
/-- What case B leaves in the accumulator, over what the point before left. -/
noncomputable def sout28_B (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond28_0 i) (hc1 : ¬cond28_1 i)
    (x0 : Vec F S1024x1024 .bf16) (x1 : Vec F S1024x512 .f32) (xs0 : Vec F S1024x512 .f32) : Vec F S1024x512 .f32 :=
  VS28.read (Elt F) (VS28.writes (Elt F) VS28.junk (kernelRun28_B c i arg2 harg2 arg3 harg3 arg4 harg4 arg5 harg5 hc0 hc1 x0 x1 xs0).2.1)

/-- Case C's store into the output block covers it, and so does its store into the accumulator. -/
theorem cover28_C (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond28_0 i) (hc1 : cond28_1 i)
    (x0 : Vec F S1024x1024 .bf16) (x1 : Vec F S1024x512 .f32) (xs0 : Vec F S1024x512 .f32) (y : S1024x512.Idx) :
    ∃ pc ∈ (kernelRun28_C c i arg2 harg2 arg3 harg3 arg4 harg4 arg5 harg5 hc0 hc1 x0 x1 xs0).1, y ∈ pc.1.set :=
  View.cover_of_tiledL (kernelRun28_C c i arg2 harg2 arg3 harg3 arg4 harg4 arg5 harg5 hc0 hc1 x0 x1 xs0).1 S1024x512.size (by sl_kernel_rfl) y
theorem scover28_C (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond28_0 i) (hc1 : cond28_1 i)
    (x0 : Vec F S1024x1024 .bf16) (x1 : Vec F S1024x512 .f32) (xs0 : Vec F S1024x512 .f32) (y : S1024x512.Idx) :
    ∃ pc ∈ (kernelRun28_C c i arg2 harg2 arg3 harg3 arg4 harg4 arg5 harg5 hc0 hc1 x0 x1 xs0).2.1, y ∈ pc.1.set :=
  View.cover_of_tiledL (kernelRun28_C c i arg2 harg2 arg3 harg3 arg4 harg4 arg5 harg5 hc0 hc1 x0 x1 xs0).2.1 S1024x512.size (by sl_kernel_rfl) y
/-- What case C leaves in the output block, and in the accumulator. -/
noncomputable def out28_C (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond28_0 i) (hc1 : cond28_1 i)
    (x0 : Vec F S1024x1024 .bf16) (x1 : Vec F S1024x512 .f32) (xs0 : Vec F S1024x512 .f32) : Vec F S1024x512 .f32 :=
  VO28_2.read (Elt F) (VO28_2.writes (Elt F) VO28_2.junk (kernelRun28_C c i arg2 harg2 arg3 harg3 arg4 harg4 arg5 harg5 hc0 hc1 x0 x1 xs0).1)
noncomputable def sout28_C (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond28_0 i) (hc1 : cond28_1 i)
    (x0 : Vec F S1024x1024 .bf16) (x1 : Vec F S1024x512 .f32) (xs0 : Vec F S1024x512 .f32) : Vec F S1024x512 .f32 :=
  VS28.read (Elt F) (VS28.writes (Elt F) VS28.junk (kernelRun28_C c i arg2 harg2 arg3 harg3 arg4 harg4 arg5 harg5 hc0 hc1 x0 x1 xs0).2.1)

/-- Where the output block is idle nothing consults what it holds: a placeholder. -/
noncomputable def outIdle28 : Vec F S1024x512 .f32 := VO28_2.read (Elt F) (VO28_2.writes (Elt F) VO28_2.junk [])

/-! ## The conditions at a point, from t % 4 -/

theorem isFirst28 (t : Fin cfg28.N) (h : t.val % 4 = 0) : cond28_0 (grid28.coords t) := (hcond28_0 t).mpr h
theorem notFirst28 (t : Fin cfg28.N) (h : ¬t.val % 4 = 0) : ¬cond28_0 (grid28.coords t) := fun hc => h ((hcond28_0 t).mp hc)
theorem isLast28 (t : Fin cfg28.N) (h : t.val % 4 = 3) : cond28_1 (grid28.coords t) := (hcond28_1 t).mpr h
theorem notLast28 (t : Fin cfg28.N) (h : ¬t.val % 4 = 3) : ¬cond28_1 (grid28.coords t) := fun hc => h ((hcond28_1 t).mp hc)

/-! ## The accumulator and the output block, point by point -/

/-- After the body at position `n`: (the output block's buffer, the accumulator). -/
noncomputable def outsAt28 (c : Dev nD) : (n : ℕ) → n < cfg28.N → Vec F S1024x512 .f32 × Vec F S1024x512 .f32
  | 0, hn => (outIdle28, sout28_A c (grid28.coords ⟨0, hn⟩) (ms28_0 ⟨0, hn⟩) (hs28_0 ⟨0, hn⟩) (ms28_1 ⟨0, hn⟩) (hs28_1 ⟨0, hn⟩) (ms28_2 ⟨0, hn⟩) (hs28_2 ⟨0, hn⟩) scM28 (Memref.isWhole_whole _) (isFirst28 ⟨0, hn⟩ (Nat.zero_mod _)) (notLast28 ⟨0, hn⟩ (by simp)) (iblk28 V c 0 ⟨0, hn⟩) (iblk28 V c 1 ⟨0, hn⟩))
  | n + 1, hn =>
    if h0 : (n + 1) % 4 = 0 then
      (outIdle28, sout28_A c (grid28.coords ⟨n + 1, hn⟩) (ms28_0 ⟨n + 1, hn⟩) (hs28_0 ⟨n + 1, hn⟩) (ms28_1 ⟨n + 1, hn⟩) (hs28_1 ⟨n + 1, hn⟩) (ms28_2 ⟨n + 1, hn⟩) (hs28_2 ⟨n + 1, hn⟩) scM28 (Memref.isWhole_whole _) (isFirst28 ⟨n + 1, hn⟩ h0) (notLast28 ⟨n + 1, hn⟩ (by show ¬(n + 1) % 4 = 3; omega)) (iblk28 V c 0 ⟨n + 1, hn⟩) (iblk28 V c 1 ⟨n + 1, hn⟩))
    else if h3 : (n + 1) % 4 = 3 then
      (out28_C c (grid28.coords ⟨n + 1, hn⟩) (ms28_0 ⟨n + 1, hn⟩) (hs28_0 ⟨n + 1, hn⟩) (ms28_1 ⟨n + 1, hn⟩) (hs28_1 ⟨n + 1, hn⟩) (ms28_2 ⟨n + 1, hn⟩) (hs28_2 ⟨n + 1, hn⟩) scM28 (Memref.isWhole_whole _) (notFirst28 ⟨n + 1, hn⟩ h0) (isLast28 ⟨n + 1, hn⟩ h3) (iblk28 V c 0 ⟨n + 1, hn⟩) (iblk28 V c 1 ⟨n + 1, hn⟩) (outsAt28 c n (Nat.lt_of_succ_lt hn)).2,
       sout28_C c (grid28.coords ⟨n + 1, hn⟩) (ms28_0 ⟨n + 1, hn⟩) (hs28_0 ⟨n + 1, hn⟩) (ms28_1 ⟨n + 1, hn⟩) (hs28_1 ⟨n + 1, hn⟩) (ms28_2 ⟨n + 1, hn⟩) (hs28_2 ⟨n + 1, hn⟩) scM28 (Memref.isWhole_whole _) (notFirst28 ⟨n + 1, hn⟩ h0) (isLast28 ⟨n + 1, hn⟩ h3) (iblk28 V c 0 ⟨n + 1, hn⟩) (iblk28 V c 1 ⟨n + 1, hn⟩) (outsAt28 c n (Nat.lt_of_succ_lt hn)).2)
    else
      (outIdle28, sout28_B c (grid28.coords ⟨n + 1, hn⟩) (ms28_0 ⟨n + 1, hn⟩) (hs28_0 ⟨n + 1, hn⟩) (ms28_1 ⟨n + 1, hn⟩) (hs28_1 ⟨n + 1, hn⟩) (ms28_2 ⟨n + 1, hn⟩) (hs28_2 ⟨n + 1, hn⟩) scM28 (Memref.isWhole_whole _) (notFirst28 ⟨n + 1, hn⟩ h0) (notLast28 ⟨n + 1, hn⟩ h3) (iblk28 V c 0 ⟨n + 1, hn⟩) (iblk28 V c 1 ⟨n + 1, hn⟩) (outsAt28 c n (Nat.lt_of_succ_lt hn)).2)

/-- `outsAt28` at a point with k = 0. -/
theorem outsAt28_A (c : Dev nD) (t : Fin cfg28.N) (h0 : t.val % 4 = 0) :
    outsAt28 V c t.val t.isLt = (outIdle28, sout28_A c (grid28.coords t) (ms28_0 t) (hs28_0 t) (ms28_1 t) (hs28_1 t) (ms28_2 t) (hs28_2 t) scM28 (Memref.isWhole_whole _) (isFirst28 t h0) (notLast28 t (by omega)) (iblk28 V c 0 t) (iblk28 V c 1 t)) := by
  obtain ⟨n, hn⟩ := t
  cases n with
  | zero => rfl
  | succ n => exact (dif_pos h0).trans rfl

/-- `outsAt28` at a point with k = 1, 2: over what the point before left. -/
theorem outsAt28_B (c : Dev nD) (t : Fin cfg28.N) (h0 : ¬t.val % 4 = 0) (h3 : ¬t.val % 4 = 3) :
    outsAt28 V c t.val t.isLt = (outIdle28, sout28_B c (grid28.coords t) (ms28_0 t) (hs28_0 t) (ms28_1 t) (hs28_1 t) (ms28_2 t) (hs28_2 t) scM28 (Memref.isWhole_whole _) (notFirst28 t h0) (notLast28 t h3) (iblk28 V c 0 t) (iblk28 V c 1 t)
      (outsAt28 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt28` at a point with k = 3. -/
theorem outsAt28_C (c : Dev nD) (t : Fin cfg28.N) (h0 : ¬t.val % 4 = 0) (h3 : t.val % 4 = 3) :
    outsAt28 V c t.val t.isLt = (out28_C c (grid28.coords t) (ms28_0 t) (hs28_0 t) (ms28_1 t) (hs28_1 t) (ms28_2 t) (hs28_2 t) scM28 (Memref.isWhole_whole _) (notFirst28 t h0) (isLast28 t h3) (iblk28 V c 0 t) (iblk28 V c 1 t)
        (outsAt28 V c (t.val - 1) (Nat.lt_of_le_of_lt (Nat.sub_le _ _) t.isLt)).2,
      sout28_C c (grid28.coords t) (ms28_0 t) (hs28_0 t) (ms28_1 t) (hs28_1 t) (ms28_2 t) (hs28_2 t) scM28 (Memref.isWhole_whole _) (notFirst28 t h0) (isLast28 t h3) (iblk28 V c 0 t) (iblk28 V c 1 t)
        (outsAt28 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS28 (c : Dev nD) : (n : ℕ) → n ≤ cfg28.N → sProp 𝕄
  | 0, _ => Pipeline.ΦA spec28 c
  | n + 1, hn => iprop(iprop(owns (c : Thread nD τ) scM28 fullShare ((outsAt28 V c n hn).2) ∗ restBut28 c) ∗ (∃ r, prngReg c r))

theorem PhiS28_zero (c : Dev nD) (n : ℕ) (h : n ≤ cfg28.N) (hz : n = 0) : PhiS28 V c n h = Pipeline.ΦA spec28 c := by
  subst hz; rfl
theorem PhiS28_succ (c : Dev nD) (n : ℕ) (hn : n < cfg28.N) :
    PhiS28 V c (n + 1) hn = iprop(iprop(owns (c : Thread nD τ) scM28 fullShare ((outsAt28 V c n hn).2) ∗ restBut28 c) ∗ (∃ r, prngReg c r)) := rfl
theorem PhiS28_pos (c : Dev nD) (n : ℕ) (h : n ≤ cfg28.N) (hz : n ≠ 0) :
    PhiS28 V c n h = iprop(iprop(owns (c : Thread nD τ) scM28 fullShare ((outsAt28 V c (n - 1) (by omega)).2) ∗ restBut28 c) ∗ (∃ r, prngReg c r)) := by
  cases n with
  | zero => exact absurd rfl hz
  | succ n => rfl

/-! ## The proof data -/

/-- The region's proof data on core `c`: the arrays as the region finds them; after the body at point `t` each input's
    buffer at its block and the output's at `outsAt28`'s first component; the invariant `PhiS28`; nothing owed; full shares. -/
noncomputable def dat28 (c : Dev nD) : Dat τ (Elt F) Unit ℕ (UR sig nD τ) ℕ cfg28 c where
  A w := V c (Pipeline.arrRef spec28 w)
  after w t := match w with
    | ⟨0, _⟩ => iblk28 V c 0 t
    | ⟨1, _⟩ => iblk28 V c 1 t
    | ⟨2, _⟩ => (outsAt28 V c t.val t.isLt).1
  Φ t := PhiS28 V c t.val (Nat.le_of_lt_succ t.isLt)
  q _ := fullShare
  owed _ := 0

theorem A_eq28 (c : Dev nD) (w : Fin cfg28.W) : (dat28 V c).A w = V c (Pipeline.arrRef spec28 w) := by
  dsimp only [dat28]
theorem PhiS28_castSucc (c : Dev nD) (t : Fin cfg28.N) :
    (dat28 V c).Φ t.castSucc = PhiS28 V c t.val (Nat.le_of_lt t.isLt) := by
  dsimp only [dat28]; simp only [Fin.coe_castSucc]
theorem after28_0 (c : Dev nD) (t : Fin cfg28.N) : (dat28 V c).after 0 t = iblk28 V c 0 t := by dsimp only [dat28]
theorem after28_1 (c : Dev nD) (t : Fin cfg28.N) : (dat28 V c).after 1 t = iblk28 V c 1 t := by dsimp only [dat28]
theorem after28_2 (c : Dev nD) (t : Fin cfg28.N) : (dat28 V c).after 2 t = (outsAt28 V c t.val t.isLt).1 := by dsimp only [dat28]
theorem before28_0 (c : Dev nD) (t : Fin cfg28.N) (d) : (dat28 V c).before 0 t d = iblk28 V c 0 t :=
  before28_0_of V (dat28 V c) (A_eq28 V c 0) (after28_0 V c) t d
theorem before28_1 (c : Dev nD) (t : Fin cfg28.N) (d) : (dat28 V c).before 1 t d = iblk28 V c 1 t :=
  before28_1_of V (dat28 V c) (A_eq28 V c 1) (after28_1 V c) t d

/-! ## The body's obligation -/

noncomputable def bodyPre28 (c : Dev nD) (t : Fin cfg28.N) : sProp 𝕄 :=
  iprop((dat28 V c).Φ t.castSucc ∗ (dat28 V c).owesAt () t.castSucc
    ∗ (∃ d, owns (c : Thread nD τ) (ms28_0 t) fullShare ((dat28 V c).before 0 t d))
    ∗ (∃ d, owns (c : Thread nD τ) (ms28_1 t) fullShare ((dat28 V c).before 1 t d))
    ∗ (∃ d, owns (c : Thread nD τ) (ms28_2 t) fullShare ((dat28 V c).before 2 t d)))

noncomputable def bodyPost28 (c : Dev nD) (t : Fin cfg28.N) : sProp 𝕄 :=
  iprop((dat28 V c).Φ t.succ ∗ (dat28 V c).owesAt () t.succ
    ∗ (dat28 V c).leavesExact 0 t
    ∗ (dat28 V c).leavesExact 1 t
    ∗ (dat28 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body28 (c : Dev nD) (t : Fin cfg28.N) :
    bodyPre28 V c t ⊢ wp frame (wpE (defs₀ (F := F)) Variants.none c none) Set.univ (bodyAt28 t) (fun _ => bodyPost28 V c t) := by
  unfold bodyPre28 bodyPost28 bodyAt28
  simp only [before28_0, before28_1]
  rw [show (dat28 V c).owesAt () t.succ = (dat28 V c).owesAt () t.castSucc from rfl]
  rw [show (dat28 V c).Φ t.succ = PhiS28 V c (t.val + 1) t.isLt from rfl, PhiS28_succ]
  rw [show (dat28 V c).leavesExact 0 t = owns (c : Thread nD τ) (ms28_0 t) fullShare ((dat28 V c).after 0 t) from by
    unfold Dat.leavesExact; rw [liveAt28_0 t], after28_0]
  rw [show (dat28 V c).leavesExact 1 t = owns (c : Thread nD τ) (ms28_1 t) fullShare ((dat28 V c).after 1 t) from by
    unfold Dat.leavesExact; rw [liveAt28_1 t], after28_1]
  by_cases h0 : t.val % 4 = 0
  · have h3 : ¬t.val % 4 = 3 := by omega
    rw [Dat.leavesExact_idle (dat28 V c) 2 t (idleAt28_2 t (notLast28 t h3)) (noFlush28_2 t (notLast28 t h3))]
    rw [outsAt28_A V c t h0]
    unfold sout28_A; (try dsimp only)
    by_cases hz : t.val = 0
    · rw [PhiS28_castSucc V c t, PhiS28_zero V c _ _ hz, PhiA28_eq]
      iintro ⟨⟨⟨HS0, Hrb⟩, Hg⟩, Ho, ⟨%d0, H0⟩, ⟨%d1, H1⟩, ⟨%d2, H2⟩⟩
      iapply ((kernelRun28_A c (grid28.coords t) _ _ _ _ _ _ _ _ (isFirst28 t h0) (notLast28 t (by omega)) (iblk28 V c 0 t) (iblk28 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover28_A c _ _ _ _ _ _ _ _ _ _ _ _ _)
          iexact Hrb
        iexact Hg
      isplitl [Ho]; · iexact Ho
      isplitl [H0]; · iexact H0
      isplitl [H1]; · iexact H1
      iexists _; iexact H2
    · rw [PhiS28_castSucc V c t, PhiS28_pos V c _ _ hz]
      iintro ⟨⟨⟨HS0, Hrb⟩, Hg⟩, Ho, ⟨%d0, H0⟩, ⟨%d1, H1⟩, ⟨%d2, H2⟩⟩
      iapply ((kernelRun28_A c (grid28.coords t) _ _ _ _ _ _ _ _ (isFirst28 t h0) (notLast28 t (by omega)) (iblk28 V c 0 t) (iblk28 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover28_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat28 V c).leavesExact 2 t = owns (c : Thread nD τ) (ms28_2 t) fullShare ((dat28 V c).after 2 t) from by
        unfold Dat.leavesExact; rw [liveAt28_2 t (isLast28 t h3)], after28_2]
      rw [outsAt28_C V c t h0 h3]
      unfold out28_C sout28_C; (try dsimp only)
      rw [PhiS28_castSucc V c t, PhiS28_pos V c _ _ hz]
      iintro ⟨⟨⟨HS0, Hrb⟩, Hg⟩, Ho, ⟨%d0, H0⟩, ⟨%d1, H1⟩, ⟨%d2, H2⟩⟩
      iapply ((kernelRun28_C c (grid28.coords t) _ _ _ _ _ _ _ _ (notFirst28 t h0) (isLast28 t h3) (iblk28 V c 0 t) (iblk28 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover28_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover28_C c _ _ _ _ _ _ _ _ _ _ _ _ _ _)
    · rw [Dat.leavesExact_idle (dat28 V c) 2 t (idleAt28_2 t (notLast28 t h3)) (noFlush28_2 t (notLast28 t h3))]
      rw [outsAt28_B V c t h0 h3]
      unfold sout28_B; (try dsimp only)
      rw [PhiS28_castSucc V c t, PhiS28_pos V c _ _ hz]
      iintro ⟨⟨⟨HS0, Hrb⟩, Hg⟩, Ho, ⟨%d0, H0⟩, ⟨%d1, H1⟩, ⟨%d2, H2⟩⟩
      iapply ((kernelRun28_B c (grid28.coords t) _ _ _ _ _ _ _ _ (notFirst28 t h0) (notLast28 t h3) (iblk28 V c 0 t) (iblk28 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover28_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation28 (c : Dev nD) : BodyObligation (dat28 (F := F) V c) (defs₀ (F := F)) Variants.none () Set.univ := fun t => by
  rw [bigSep_W28, bigSep_W28]
  exact sound_body28 V c t

/-- What the region is entered with is the invariant before the first point. -/
theorem hin28 (c : Dev nD) : Pipeline.ΦA spec28 c ⊢ (dat28 V c).Φ 0 := by
  rw [show (dat28 V c).Φ 0 = PhiS28 V c 0 (Nat.zero_le _) from rfl, PhiS28_zero V c 0 _ rfl]
  try exact Idealize.SL.BI.Entails.refl _

/-- After the last point the invariant gives the class's back: the accumulator's contents are forgotten. -/
theorem hout28 (c : Dev nD) : (dat28 V c).Φ (Fin.last cfg28.N) ⊢ Pipeline.ΦA spec28 c := by
  have hN : cfg28.N = 16 := N_28
  rw [show (dat28 V c).Φ (Fin.last cfg28.N) = PhiS28 V c (Fin.last cfg28.N).val (Nat.le_of_lt_succ (Fin.last cfg28.N).isLt) from rfl,
    PhiS28_pos V c _ _ (by rw [Fin.val_last]; omega), PhiA28_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI29a.lean ====
/- Laid out by: python3 scratch/layout_regions.py --template-region 1 --region 29 --program KernelIdeal --parts a,b,c, --out-dir proof/Proof
   from the hand-written text of region 1 (RegKI1a.lean): the same text, the region's number substituted. -/
/-
  Region 29 of @main (custom_call 29): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond29_0 (i : grid29.Coords) : Prop := (Scalar.cmpi .ne (Scalar.extui (Scalar.cmpi .eq (BitVec.ofNat 32 (i 1).val) 0#32)) 0#32) = 1#1
/-- It holds exactly at the points with t % 4 = 0. -/
theorem hcond29_0 : ∀ t : Fin cfg29.N, cond29_0 (grid29.coords t) ↔ t.val % 4 = 0 :=
  (by decide +kernel : ∀ t : Fin grid29.N, cond29_0 (grid29.coords t) ↔ t.val % 4 = 0)

/-- "k = 3": the second conditional's test. -/
abbrev cond29_1 (i : grid29.Coords) : Prop := k29_cond2 i = 1#1
/-- It holds exactly at the points with t % 4 = 3. -/
theorem hcond29_1 : ∀ t : Fin cfg29.N, cond29_1 (grid29.coords t) ↔ t.val % 4 = 3 :=
  (by decide +kernel : ∀ t : Fin grid29.N, cond29_1 (grid29.coords t) ↔ t.val % 4 = 3)

/-! ## Where the windows are idle, and where the output is written back -/

/-- The two input windows are never idle. -/
theorem liveAt29_0 : ∀ t : Fin cfg29.N, cfg29.idle 0 (grid29.coords t) = false := by decide +kernel
theorem liveAt29_1 : ∀ t : Fin cfg29.N, cfg29.idle 1 (grid29.coords t) = false := by decide +kernel
/-- Where k ≠ 3 the output window is idle (the body stores nothing into it) and is not written back. -/
theorem idleAt29_2 : ∀ t : Fin cfg29.N, ¬cond29_1 (grid29.coords t) → cfg29.idle 2 (grid29.coords t) = true := by decide +kernel
theorem noFlush29_2 : ∀ t : Fin cfg29.N, ¬cond29_1 (grid29.coords t) → (cfg29.win 2).flush t = false := by decide +kernel
/-- Where k = 3 it is live. -/
theorem liveAt29_2 : ∀ t : Fin cfg29.N, cond29_1 (grid29.coords t) → cfg29.idle 2 (grid29.coords t) = false := by decide +kernel

/-! ## The staging memrefs at a point, and the scratch -/

/-- One staging buffer of the output window, through which its contents are stated. -/
abbrev VO29_2 : View sig .tc .vmem S1024x512 .f32 := (Memref.whole cc29_stg2_0 : Memref sig .tc .vmem S1024x512 .f32).view
abbrev ms29_0 (t : Fin cfg29.N) : Memref sig .tc .vmem S1024x1024 .bf16 := win29_0.stage (cfg29.slots t 0)
abbrev hs29_0 (t : Fin cfg29.N) : (ms29_0 t).IsWhole := hstage29_0 ((cfg29.slots t 0).cast nbuf29_0)
abbrev ms29_1 (t : Fin cfg29.N) : Memref sig .tc .vmem S1024x512 .f32 := win29_1.stage (cfg29.slots t 1)
abbrev hs29_1 (t : Fin cfg29.N) : (ms29_1 t).IsWhole := hstage29_1 ((cfg29.slots t 1).cast nbuf29_1)
abbrev ms29_2 (t : Fin cfg29.N) : Memref sig .tc .vmem S1024x512 .f32 := win29_2.stage (cfg29.slots t 2)
abbrev hs29_2 (t : Fin cfg29.N) : (ms29_2 t).IsWhole := hstage29_2 ((cfg29.slots t 2).cast nbuf29_2)
/-- The accumulator: a whole scoped buffer of the kernel's own. -/
abbrev scM29 : Memref sig .tc .vmem S1024x512 .f32 := Memref.whole cc29_scratch0
abbrev VS29 : View sig .tc .vmem S1024x512 .f32 := scM29.view

/-- The other scoped buffers of the core, none of which this region touches. -/
abbrev restBut29 (c : Dev nD) : sProp 𝕄 :=
  Pipeline.scopedRestBut (Ix := Unit) (Name := ℕ) (U := UR sig nD τ) (Lvl := ℕ) (Val := Elt F) spec29 c [cc29_scratch0]

/-- The region's invariant before its first point: the accumulator at something, the other scoped buffers, the generator register. -/
theorem PhiA29_eq (c : Dev nD) :
    (Pipeline.ΦA spec29 c : sProp 𝕄)
      = iprop(iprop((∃ d, owns (c : Thread nD τ) scM29 fullShare d) ∗ restBut29 c) ∗ (∃ r, prngReg c r)) := by
  unfold Pipeline.ΦA; rw [scopedRest29_split]; simp only [scM29, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun29_A (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond29_0 i) (hc1 : ¬cond29_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc29__matmul_kernel i arg2 harg2 arg3 harg3 arg4 harg4 arg5 harg5) K } := by
  refine ⟨[], ?_, fun xi2 E K => ?run⟩
  case run =>
    simp only [cc29__matmul_kernel_eq_skeleton]; unfold cc29__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI29b.lean ====
/- Laid out by: python3 scratch/layout_regions.py --template-region 1 --region 29 --program KernelIdeal --parts a,b,c, --out-dir proof/Proof
   from the hand-written text of region 1 (RegKI1b.lean): the same text, the region's number substituted. -/
/-
  Region 29, case B (k = 1, 2): the body's run. Neither conditional is taken: the product of the two blocks is added to what
  the point before left in the accumulator; the output block is not touched.
-/
import proofs.«158944_j64613488001249_1_alg».proof.Proof.RegKI29a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun29_B (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond29_0 i) (hc1 : ¬cond29_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc29__matmul_kernel i arg2 harg2 arg3 harg3 arg4 harg4 arg5 harg5) K } := by
  refine ⟨[], ?_, fun xi2 E K => ?run⟩
  case run =>
    simp only [cc29__matmul_kernel_eq_skeleton]; unfold cc29__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI29c.lean ====
/- Laid out by: python3 scratch/layout_regions.py --template-region 1 --region 29 --program KernelIdeal --parts a,b,c, --out-dir proof/Proof
   from the hand-written text of region 1 (RegKI1c.lean): the same text, the region's number substituted. -/
/-
  Region 29, case C (k = 3): the body's run. The product is added to the accumulator as in case B, and then the second
  conditional copies the accumulator over the whole output block.
-/
import proofs.«158944_j64613488001249_1_alg».proof.Proof.RegKI29b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun29_C (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond29_0 i) (hc1 : cond29_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc29__matmul_kernel i arg2 harg2 arg3 harg3 arg4 harg4 arg5 harg5) K } := by
  refine ⟨?_, ?_, fun E K => ?run⟩
  case run =>
    simp only [cc29__matmul_kernel_eq_skeleton]; unfold cc29__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI29.lean ====
/- Laid out by: python3 scratch/layout_regions.py --template-region 1 --region 29 --program KernelIdeal --parts a,b,c, --out-dir proof/Proof
   from the hand-written text of region 1 (RegKI1.lean): the same text, the region's number substituted. -/
/-
  Region 29 of @main, entered from the buffer contents `V`: what its windows' blocks are, what each case of the body leaves in
  the accumulator and in the output block, the accumulator and the output block point by point (`outsAt29`: at k = 0 the
  accumulator restarts from zeros plus the product; at k = 1, 2, 3 it is the point before's plus the product; at k = 3 the
  output block is the accumulator), the region's invariant (the accumulator at `outsAt29`'s second component), the proof data,
  and the body's obligation at every point.
-/
import proofs.«158944_j64613488001249_1_alg».proof.Proof.RegKI29c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk29 (c : Dev nD) (w : Fin cfg29.W) (t : Fin cfg29.N) : ((cfg29.win w).xblock (cfg29.grid.coords t)).Idx → Elt F (cfg29.win w).elt :=
  ((cfg29.win w).blk t).view.read (Elt F) (V c (Pipeline.arrRef spec29 w))

/-- An input window's current staging buffer holds its block at every point, for any proof data whose array is `V`'s and
    whose body leaves the block in place. -/
theorem before29_0_of {c : Dev nD} (dat : Dat τ (Elt F) Unit ℕ (UR sig nD τ) ℕ cfg29 c) (hA : dat.A 0 = V c (Pipeline.arrRef spec29 0))
    (hafter : ∀ t, dat.after 0 t = iblk29 V c 0 t) (t : Fin cfg29.N) (d) : dat.before 0 t d = iblk29 V c 0 t :=
  (dat.before_in_eq_fetched 0 rfl (fun _ => rfl) (fun _ _ _ => rfl) (fun t => by rw [hafter]; unfold Dat.blockOf iblk29; rw [hA]; try rfl) t d).trans
    (by unfold Dat.fetched Dat.blockOf iblk29; rw [hA]; try rfl)
theorem before29_1_of {c : Dev nD} (dat : Dat τ (Elt F) Unit ℕ (UR sig nD τ) ℕ cfg29 c) (hA : dat.A 1 = V c (Pipeline.arrRef spec29 1))
    (hafter : ∀ t, dat.after 1 t = iblk29 V c 1 t) (t : Fin cfg29.N) (d) : dat.before 1 t d = iblk29 V c 1 t :=
  (dat.before_in_eq_fetched 1 rfl (fun _ => rfl) (fun _ _ _ => rfl) (fun t => by rw [hafter]; unfold Dat.blockOf iblk29; rw [hA]; try rfl) t d).trans
    (by unfold Dat.fetched Dat.blockOf iblk29; rw [hA]; try rfl)

/-! ## What each case leaves -/

/-- Case A's stores into the accumulator cover it. -/
theorem scover29_A (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond29_0 i) (hc1 : ¬cond29_1 i)
    (x0 : Vec F S1024x1024 .bf16) (x1 : Vec F S1024x512 .f32) (y : S1024x512.Idx) :
    ∃ pc ∈ (kernelRun29_A c i arg2 harg2 arg3 harg3 arg4 harg4 arg5 harg5 hc0 hc1 x0 x1).2.1, y ∈ pc.1.set :=
  View.cover_of_tiledL (kernelRun29_A c i arg2 harg2 arg3 harg3 arg4 harg4 arg5 harg5 hc0 hc1 x0 x1).2.1 S1024x512.size (by sl_kernel_rfl) y
/-- What case A leaves in the accumulator. -/
noncomputable def sout29_A (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond29_0 i) (hc1 : ¬cond29_1 i)
    (x0 : Vec F S1024x1024 .bf16) (x1 : Vec F S1024x512 .f32) : Vec F S1024x512 .f32 :=
  VS29.read (Elt F) (VS29.writes (Elt F) VS29.junk (kernelRun29_A c i arg2 harg2 arg3 harg3 arg4 harg4 arg5 harg5 hc0 hc1 x0 x1).2.1)

/-- Case B's store into the accumulator covers it. -/
theorem scover29_B (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond29_0 i) (hc1 : ¬cond29_1 i)
    (x0 : Vec F S1024x1024 .bf16) (x1 : Vec F S1024x512 .f32) (xs0 : Vec F S1024x512 .f32) (y : S1024x512.Idx) :
    ∃ pc ∈ (kernelRun29_B c i arg2 harg2 arg3 harg3 arg4 harg4 arg5 harg5 hc0 hc1 x0 x1 xs0).2.1, y ∈ pc.1.set :=
  View.cover_of_tiledL (kernelRun29_B c i arg2 harg2 arg3 harg3 arg4 harg4 arg5 harg5 hc0 hc1 x0 x1 xs0).2.1 S1024x512.size (by sl_kernel_rfl) y
/-- What case B leaves in the accumulator, over what the point before left. -/
noncomputable def sout29_B (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond29_0 i) (hc1 : ¬cond29_1 i)
    (x0 : Vec F S1024x1024 .bf16) (x1 : Vec F S1024x512 .f32) (xs0 : Vec F S1024x512 .f32) : Vec F S1024x512 .f32 :=
  VS29.read (Elt F) (VS29.writes (Elt F) VS29.junk (kernelRun29_B c i arg2 harg2 arg3 harg3 arg4 harg4 arg5 harg5 hc0 hc1 x0 x1 xs0).2.1)

/-- Case C's store into the output block covers it, and so does its store into the accumulator. -/
theorem cover29_C (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond29_0 i) (hc1 : cond29_1 i)
    (x0 : Vec F S1024x1024 .bf16) (x1 : Vec F S1024x512 .f32) (xs0 : Vec F S1024x512 .f32) (y : S1024x512.Idx) :
    ∃ pc ∈ (kernelRun29_C c i arg2 harg2 arg3 harg3 arg4 harg4 arg5 harg5 hc0 hc1 x0 x1 xs0).1, y ∈ pc.1.set :=
  View.cover_of_tiledL (kernelRun29_C c i arg2 harg2 arg3 harg3 arg4 harg4 arg5 harg5 hc0 hc1 x0 x1 xs0).1 S1024x512.size (by sl_kernel_rfl) y
theorem scover29_C (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond29_0 i) (hc1 : cond29_1 i)
    (x0 : Vec F S1024x1024 .bf16) (x1 : Vec F S1024x512 .f32) (xs0 : Vec F S1024x512 .f32) (y : S1024x512.Idx) :
    ∃ pc ∈ (kernelRun29_C c i arg2 harg2 arg3 harg3 arg4 harg4 arg5 harg5 hc0 hc1 x0 x1 xs0).2.1, y ∈ pc.1.set :=
  View.cover_of_tiledL (kernelRun29_C c i arg2 harg2 arg3 harg3 arg4 harg4 arg5 harg5 hc0 hc1 x0 x1 xs0).2.1 S1024x512.size (by sl_kernel_rfl) y
/-- What case C leaves in the output block, and in the accumulator. -/
noncomputable def out29_C (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond29_0 i) (hc1 : cond29_1 i)
    (x0 : Vec F S1024x1024 .bf16) (x1 : Vec F S1024x512 .f32) (xs0 : Vec F S1024x512 .f32) : Vec F S1024x512 .f32 :=
  VO29_2.read (Elt F) (VO29_2.writes (Elt F) VO29_2.junk (kernelRun29_C c i arg2 harg2 arg3 harg3 arg4 harg4 arg5 harg5 hc0 hc1 x0 x1 xs0).1)
noncomputable def sout29_C (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond29_0 i) (hc1 : cond29_1 i)
    (x0 : Vec F S1024x1024 .bf16) (x1 : Vec F S1024x512 .f32) (xs0 : Vec F S1024x512 .f32) : Vec F S1024x512 .f32 :=
  VS29.read (Elt F) (VS29.writes (Elt F) VS29.junk (kernelRun29_C c i arg2 harg2 arg3 harg3 arg4 harg4 arg5 harg5 hc0 hc1 x0 x1 xs0).2.1)

/-- Where the output block is idle nothing consults what it holds: a placeholder. -/
noncomputable def outIdle29 : Vec F S1024x512 .f32 := VO29_2.read (Elt F) (VO29_2.writes (Elt F) VO29_2.junk [])

/-! ## The conditions at a point, from t % 4 -/

theorem isFirst29 (t : Fin cfg29.N) (h : t.val % 4 = 0) : cond29_0 (grid29.coords t) := (hcond29_0 t).mpr h
theorem notFirst29 (t : Fin cfg29.N) (h : ¬t.val % 4 = 0) : ¬cond29_0 (grid29.coords t) := fun hc => h ((hcond29_0 t).mp hc)
theorem isLast29 (t : Fin cfg29.N) (h : t.val % 4 = 3) : cond29_1 (grid29.coords t) := (hcond29_1 t).mpr h
theorem notLast29 (t : Fin cfg29.N) (h : ¬t.val % 4 = 3) : ¬cond29_1 (grid29.coords t) := fun hc => h ((hcond29_1 t).mp hc)

/-! ## The accumulator and the output block, point by point -/

/-- After the body at position `n`: (the output block's buffer, the accumulator). -/
noncomputable def outsAt29 (c : Dev nD) : (n : ℕ) → n < cfg29.N → Vec F S1024x512 .f32 × Vec F S1024x512 .f32
  | 0, hn => (outIdle29, sout29_A c (grid29.coords ⟨0, hn⟩) (ms29_0 ⟨0, hn⟩) (hs29_0 ⟨0, hn⟩) (ms29_1 ⟨0, hn⟩) (hs29_1 ⟨0, hn⟩) (ms29_2 ⟨0, hn⟩) (hs29_2 ⟨0, hn⟩) scM29 (Memref.isWhole_whole _) (isFirst29 ⟨0, hn⟩ (Nat.zero_mod _)) (notLast29 ⟨0, hn⟩ (by simp)) (iblk29 V c 0 ⟨0, hn⟩) (iblk29 V c 1 ⟨0, hn⟩))
  | n + 1, hn =>
    if h0 : (n + 1) % 4 = 0 then
      (outIdle29, sout29_A c (grid29.coords ⟨n + 1, hn⟩) (ms29_0 ⟨n + 1, hn⟩) (hs29_0 ⟨n + 1, hn⟩) (ms29_1 ⟨n + 1, hn⟩) (hs29_1 ⟨n + 1, hn⟩) (ms29_2 ⟨n + 1, hn⟩) (hs29_2 ⟨n + 1, hn⟩) scM29 (Memref.isWhole_whole _) (isFirst29 ⟨n + 1, hn⟩ h0) (notLast29 ⟨n + 1, hn⟩ (by show ¬(n + 1) % 4 = 3; omega)) (iblk29 V c 0 ⟨n + 1, hn⟩) (iblk29 V c 1 ⟨n + 1, hn⟩))
    else if h3 : (n + 1) % 4 = 3 then
      (out29_C c (grid29.coords ⟨n + 1, hn⟩) (ms29_0 ⟨n + 1, hn⟩) (hs29_0 ⟨n + 1, hn⟩) (ms29_1 ⟨n + 1, hn⟩) (hs29_1 ⟨n + 1, hn⟩) (ms29_2 ⟨n + 1, hn⟩) (hs29_2 ⟨n + 1, hn⟩) scM29 (Memref.isWhole_whole _) (notFirst29 ⟨n + 1, hn⟩ h0) (isLast29 ⟨n + 1, hn⟩ h3) (iblk29 V c 0 ⟨n + 1, hn⟩) (iblk29 V c 1 ⟨n + 1, hn⟩) (outsAt29 c n (Nat.lt_of_succ_lt hn)).2,
       sout29_C c (grid29.coords ⟨n + 1, hn⟩) (ms29_0 ⟨n + 1, hn⟩) (hs29_0 ⟨n + 1, hn⟩) (ms29_1 ⟨n + 1, hn⟩) (hs29_1 ⟨n + 1, hn⟩) (ms29_2 ⟨n + 1, hn⟩) (hs29_2 ⟨n + 1, hn⟩) scM29 (Memref.isWhole_whole _) (notFirst29 ⟨n + 1, hn⟩ h0) (isLast29 ⟨n + 1, hn⟩ h3) (iblk29 V c 0 ⟨n + 1, hn⟩) (iblk29 V c 1 ⟨n + 1, hn⟩) (outsAt29 c n (Nat.lt_of_succ_lt hn)).2)
    else
      (outIdle29, sout29_B c (grid29.coords ⟨n + 1, hn⟩) (ms29_0 ⟨n + 1, hn⟩) (hs29_0 ⟨n + 1, hn⟩) (ms29_1 ⟨n + 1, hn⟩) (hs29_1 ⟨n + 1, hn⟩) (ms29_2 ⟨n + 1, hn⟩) (hs29_2 ⟨n + 1, hn⟩) scM29 (Memref.isWhole_whole _) (notFirst29 ⟨n + 1, hn⟩ h0) (notLast29 ⟨n + 1, hn⟩ h3) (iblk29 V c 0 ⟨n + 1, hn⟩) (iblk29 V c 1 ⟨n + 1, hn⟩) (outsAt29 c n (Nat.lt_of_succ_lt hn)).2)

/-- `outsAt29` at a point with k = 0. -/
theorem outsAt29_A (c : Dev nD) (t : Fin cfg29.N) (h0 : t.val % 4 = 0) :
    outsAt29 V c t.val t.isLt = (outIdle29, sout29_A c (grid29.coords t) (ms29_0 t) (hs29_0 t) (ms29_1 t) (hs29_1 t) (ms29_2 t) (hs29_2 t) scM29 (Memref.isWhole_whole _) (isFirst29 t h0) (notLast29 t (by omega)) (iblk29 V c 0 t) (iblk29 V c 1 t)) := by
  obtain ⟨n, hn⟩ := t
  cases n with
  | zero => rfl
  | succ n => exact (dif_pos h0).trans rfl

/-- `outsAt29` at a point with k = 1, 2: over what the point before left. -/
theorem outsAt29_B (c : Dev nD) (t : Fin cfg29.N) (h0 : ¬t.val % 4 = 0) (h3 : ¬t.val % 4 = 3) :
    outsAt29 V c t.val t.isLt = (outIdle29, sout29_B c (grid29.coords t) (ms29_0 t) (hs29_0 t) (ms29_1 t) (hs29_1 t) (ms29_2 t) (hs29_2 t) scM29 (Memref.isWhole_whole _) (notFirst29 t h0) (notLast29 t h3) (iblk29 V c 0 t) (iblk29 V c 1 t)
      (outsAt29 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt29` at a point with k = 3. -/
theorem outsAt29_C (c : Dev nD) (t : Fin cfg29.N) (h0 : ¬t.val % 4 = 0) (h3 : t.val % 4 = 3) :
    outsAt29 V c t.val t.isLt = (out29_C c (grid29.coords t) (ms29_0 t) (hs29_0 t) (ms29_1 t) (hs29_1 t) (ms29_2 t) (hs29_2 t) scM29 (Memref.isWhole_whole _) (notFirst29 t h0) (isLast29 t h3) (iblk29 V c 0 t) (iblk29 V c 1 t)
        (outsAt29 V c (t.val - 1) (Nat.lt_of_le_of_lt (Nat.sub_le _ _) t.isLt)).2,
      sout29_C c (grid29.coords t) (ms29_0 t) (hs29_0 t) (ms29_1 t) (hs29_1 t) (ms29_2 t) (hs29_2 t) scM29 (Memref.isWhole_whole _) (notFirst29 t h0) (isLast29 t h3) (iblk29 V c 0 t) (iblk29 V c 1 t)
        (outsAt29 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS29 (c : Dev nD) : (n : ℕ) → n ≤ cfg29.N → sProp 𝕄
  | 0, _ => Pipeline.ΦA spec29 c
  | n + 1, hn => iprop(iprop(owns (c : Thread nD τ) scM29 fullShare ((outsAt29 V c n hn).2) ∗ restBut29 c) ∗ (∃ r, prngReg c r))

theorem PhiS29_zero (c : Dev nD) (n : ℕ) (h : n ≤ cfg29.N) (hz : n = 0) : PhiS29 V c n h = Pipeline.ΦA spec29 c := by
  subst hz; rfl
theorem PhiS29_succ (c : Dev nD) (n : ℕ) (hn : n < cfg29.N) :
    PhiS29 V c (n + 1) hn = iprop(iprop(owns (c : Thread nD τ) scM29 fullShare ((outsAt29 V c n hn).2) ∗ restBut29 c) ∗ (∃ r, prngReg c r)) := rfl
theorem PhiS29_pos (c : Dev nD) (n : ℕ) (h : n ≤ cfg29.N) (hz : n ≠ 0) :
    PhiS29 V c n h = iprop(iprop(owns (c : Thread nD τ) scM29 fullShare ((outsAt29 V c (n - 1) (by omega)).2) ∗ restBut29 c) ∗ (∃ r, prngReg c r)) := by
  cases n with
  | zero => exact absurd rfl hz
  | succ n => rfl

/-! ## The proof data -/

/-- The region's proof data on core `c`: the arrays as the region finds them; after the body at point `t` each input's
    buffer at its block and the output's at `outsAt29`'s first component; the invariant `PhiS29`; nothing owed; full shares. -/
noncomputable def dat29 (c : Dev nD) : Dat τ (Elt F) Unit ℕ (UR sig nD τ) ℕ cfg29 c where
  A w := V c (Pipeline.arrRef spec29 w)
  after w t := match w with
    | ⟨0, _⟩ => iblk29 V c 0 t
    | ⟨1, _⟩ => iblk29 V c 1 t
    | ⟨2, _⟩ => (outsAt29 V c t.val t.isLt).1
  Φ t := PhiS29 V c t.val (Nat.le_of_lt_succ t.isLt)
  q _ := fullShare
  owed _ := 0

theorem A_eq29 (c : Dev nD) (w : Fin cfg29.W) : (dat29 V c).A w = V c (Pipeline.arrRef spec29 w) := by
  dsimp only [dat29]
theorem PhiS29_castSucc (c : Dev nD) (t : Fin cfg29.N) :
    (dat29 V c).Φ t.castSucc = PhiS29 V c t.val (Nat.le_of_lt t.isLt) := by
  dsimp only [dat29]; simp only [Fin.coe_castSucc]
theorem after29_0 (c : Dev nD) (t : Fin cfg29.N) : (dat29 V c).after 0 t = iblk29 V c 0 t := by dsimp only [dat29]
theorem after29_1 (c : Dev nD) (t : Fin cfg29.N) : (dat29 V c).after 1 t = iblk29 V c 1 t := by dsimp only [dat29]
theorem after29_2 (c : Dev nD) (t : Fin cfg29.N) : (dat29 V c).after 2 t = (outsAt29 V c t.val t.isLt).1 := by dsimp only [dat29]
theorem before29_0 (c : Dev nD) (t : Fin cfg29.N) (d) : (dat29 V c).before 0 t d = iblk29 V c 0 t :=
  before29_0_of V (dat29 V c) (A_eq29 V c 0) (after29_0 V c) t d
theorem before29_1 (c : Dev nD) (t : Fin cfg29.N) (d) : (dat29 V c).before 1 t d = iblk29 V c 1 t :=
  before29_1_of V (dat29 V c) (A_eq29 V c 1) (after29_1 V c) t d

/-! ## The body's obligation -/

noncomputable def bodyPre29 (c : Dev nD) (t : Fin cfg29.N) : sProp 𝕄 :=
  iprop((dat29 V c).Φ t.castSucc ∗ (dat29 V c).owesAt () t.castSucc
    ∗ (∃ d, owns (c : Thread nD τ) (ms29_0 t) fullShare ((dat29 V c).before 0 t d))
    ∗ (∃ d, owns (c : Thread nD τ) (ms29_1 t) fullShare ((dat29 V c).before 1 t d))
    ∗ (∃ d, owns (c : Thread nD τ) (ms29_2 t) fullShare ((dat29 V c).before 2 t d)))

noncomputable def bodyPost29 (c : Dev nD) (t : Fin cfg29.N) : sProp 𝕄 :=
  iprop((dat29 V c).Φ t.succ ∗ (dat29 V c).owesAt () t.succ
    ∗ (dat29 V c).leavesExact 0 t
    ∗ (dat29 V c).leavesExact 1 t
    ∗ (dat29 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body29 (c : Dev nD) (t : Fin cfg29.N) :
    bodyPre29 V c t ⊢ wp frame (wpE (defs₀ (F := F)) Variants.none c none) Set.univ (bodyAt29 t) (fun _ => bodyPost29 V c t) := by
  unfold bodyPre29 bodyPost29 bodyAt29
  simp only [before29_0, before29_1]
  rw [show (dat29 V c).owesAt () t.succ = (dat29 V c).owesAt () t.castSucc from rfl]
  rw [show (dat29 V c).Φ t.succ = PhiS29 V c (t.val + 1) t.isLt from rfl, PhiS29_succ]
  rw [show (dat29 V c).leavesExact 0 t = owns (c : Thread nD τ) (ms29_0 t) fullShare ((dat29 V c).after 0 t) from by
    unfold Dat.leavesExact; rw [liveAt29_0 t], after29_0]
  rw [show (dat29 V c).leavesExact 1 t = owns (c : Thread nD τ) (ms29_1 t) fullShare ((dat29 V c).after 1 t) from by
    unfold Dat.leavesExact; rw [liveAt29_1 t], after29_1]
  by_cases h0 : t.val % 4 = 0
  · have h3 : ¬t.val % 4 = 3 := by omega
    rw [Dat.leavesExact_idle (dat29 V c) 2 t (idleAt29_2 t (notLast29 t h3)) (noFlush29_2 t (notLast29 t h3))]
    rw [outsAt29_A V c t h0]
    unfold sout29_A; (try dsimp only)
    by_cases hz : t.val = 0
    · rw [PhiS29_castSucc V c t, PhiS29_zero V c _ _ hz, PhiA29_eq]
      iintro ⟨⟨⟨HS0, Hrb⟩, Hg⟩, Ho, ⟨%d0, H0⟩, ⟨%d1, H1⟩, ⟨%d2, H2⟩⟩
      iapply ((kernelRun29_A c (grid29.coords t) _ _ _ _ _ _ _ _ (isFirst29 t h0) (notLast29 t (by omega)) (iblk29 V c 0 t) (iblk29 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover29_A c _ _ _ _ _ _ _ _ _ _ _ _ _)
          iexact Hrb
        iexact Hg
      isplitl [Ho]; · iexact Ho
      isplitl [H0]; · iexact H0
      isplitl [H1]; · iexact H1
      iexists _; iexact H2
    · rw [PhiS29_castSucc V c t, PhiS29_pos V c _ _ hz]
      iintro ⟨⟨⟨HS0, Hrb⟩, Hg⟩, Ho, ⟨%d0, H0⟩, ⟨%d1, H1⟩, ⟨%d2, H2⟩⟩
      iapply ((kernelRun29_A c (grid29.coords t) _ _ _ _ _ _ _ _ (isFirst29 t h0) (notLast29 t (by omega)) (iblk29 V c 0 t) (iblk29 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover29_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat29 V c).leavesExact 2 t = owns (c : Thread nD τ) (ms29_2 t) fullShare ((dat29 V c).after 2 t) from by
        unfold Dat.leavesExact; rw [liveAt29_2 t (isLast29 t h3)], after29_2]
      rw [outsAt29_C V c t h0 h3]
      unfold out29_C sout29_C; (try dsimp only)
      rw [PhiS29_castSucc V c t, PhiS29_pos V c _ _ hz]
      iintro ⟨⟨⟨HS0, Hrb⟩, Hg⟩, Ho, ⟨%d0, H0⟩, ⟨%d1, H1⟩, ⟨%d2, H2⟩⟩
      iapply ((kernelRun29_C c (grid29.coords t) _ _ _ _ _ _ _ _ (notFirst29 t h0) (isLast29 t h3) (iblk29 V c 0 t) (iblk29 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover29_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover29_C c _ _ _ _ _ _ _ _ _ _ _ _ _ _)
    · rw [Dat.leavesExact_idle (dat29 V c) 2 t (idleAt29_2 t (notLast29 t h3)) (noFlush29_2 t (notLast29 t h3))]
      rw [outsAt29_B V c t h0 h3]
      unfold sout29_B; (try dsimp only)
      rw [PhiS29_castSucc V c t, PhiS29_pos V c _ _ hz]
      iintro ⟨⟨⟨HS0, Hrb⟩, Hg⟩, Ho, ⟨%d0, H0⟩, ⟨%d1, H1⟩, ⟨%d2, H2⟩⟩
      iapply ((kernelRun29_B c (grid29.coords t) _ _ _ _ _ _ _ _ (notFirst29 t h0) (notLast29 t h3) (iblk29 V c 0 t) (iblk29 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover29_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation29 (c : Dev nD) : BodyObligation (dat29 (F := F) V c) (defs₀ (F := F)) Variants.none () Set.univ := fun t => by
  rw [bigSep_W29, bigSep_W29]
  exact sound_body29 V c t

/-- What the region is entered with is the invariant before the first point. -/
theorem hin29 (c : Dev nD) : Pipeline.ΦA spec29 c ⊢ (dat29 V c).Φ 0 := by
  rw [show (dat29 V c).Φ 0 = PhiS29 V c 0 (Nat.zero_le _) from rfl, PhiS29_zero V c 0 _ rfl]
  try exact Idealize.SL.BI.Entails.refl _

/-- After the last point the invariant gives the class's back: the accumulator's contents are forgotten. -/
theorem hout29 (c : Dev nD) : (dat29 V c).Φ (Fin.last cfg29.N) ⊢ Pipeline.ΦA spec29 c := by
  have hN : cfg29.N = 16 := N_29
  rw [show (dat29 V c).Φ (Fin.last cfg29.N) = PhiS29 V c (Fin.last cfg29.N).val (Nat.le_of_lt_succ (Fin.last cfg29.N).isLt) from rfl,
    PhiS29_pos V c _ _ (by rw [Fin.val_last]; omega), PhiA29_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI30a.lean ====
/- Laid out by: python3 scratch/layout_regions.py --template-region 1 --region 30 --program KernelIdeal --parts a,b,c, --out-dir proof/Proof
   from the hand-written text of region 1 (RegKI1a.lean): the same text, the region's number substituted. -/
/-
  Region 30 of @main (custom_call 30): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond30_0 (i : grid30.Coords) : Prop := (Scalar.cmpi .ne (Scalar.extui (Scalar.cmpi .eq (BitVec.ofNat 32 (i 1).val) 0#32)) 0#32) = 1#1
/-- It holds exactly at the points with t % 4 = 0. -/
theorem hcond30_0 : ∀ t : Fin cfg30.N, cond30_0 (grid30.coords t) ↔ t.val % 4 = 0 :=
  (by decide +kernel : ∀ t : Fin grid30.N, cond30_0 (grid30.coords t) ↔ t.val % 4 = 0)

/-- "k = 3": the second conditional's test. -/
abbrev cond30_1 (i : grid30.Coords) : Prop := k30_cond2 i = 1#1
/-- It holds exactly at the points with t % 4 = 3. -/
theorem hcond30_1 : ∀ t : Fin cfg30.N, cond30_1 (grid30.coords t) ↔ t.val % 4 = 3 :=
  (by decide +kernel : ∀ t : Fin grid30.N, cond30_1 (grid30.coords t) ↔ t.val % 4 = 3)

/-! ## Where the windows are idle, and where the output is written back -/

/-- The two input windows are never idle. -/
theorem liveAt30_0 : ∀ t : Fin cfg30.N, cfg30.idle 0 (grid30.coords t) = false := by decide +kernel
theorem liveAt30_1 : ∀ t : Fin cfg30.N, cfg30.idle 1 (grid30.coords t) = false := by decide +kernel
/-- Where k ≠ 3 the output window is idle (the body stores nothing into it) and is not written back. -/
theorem idleAt30_2 : ∀ t : Fin cfg30.N, ¬cond30_1 (grid30.coords t) → cfg30.idle 2 (grid30.coords t) = true := by decide +kernel
theorem noFlush30_2 : ∀ t : Fin cfg30.N, ¬cond30_1 (grid30.coords t) → (cfg30.win 2).flush t = false := by decide +kernel
/-- Where k = 3 it is live. -/
theorem liveAt30_2 : ∀ t : Fin cfg30.N, cond30_1 (grid30.coords t) → cfg30.idle 2 (grid30.coords t) = false := by decide +kernel

/-! ## The staging memrefs at a point, and the scratch -/

/-- One staging buffer of the output window, through which its contents are stated. -/
abbrev VO30_2 : View sig .tc .vmem S1024x512 .f32 := (Memref.whole cc30_stg2_0 : Memref sig .tc .vmem S1024x512 .f32).view
abbrev ms30_0 (t : Fin cfg30.N) : Memref sig .tc .vmem S1024x1024 .bf16 := win30_0.stage (cfg30.slots t 0)
abbrev hs30_0 (t : Fin cfg30.N) : (ms30_0 t).IsWhole := hstage30_0 ((cfg30.slots t 0).cast nbuf30_0)
abbrev ms30_1 (t : Fin cfg30.N) : Memref sig .tc .vmem S1024x512 .f32 := win30_1.stage (cfg30.slots t 1)
abbrev hs30_1 (t : Fin cfg30.N) : (ms30_1 t).IsWhole := hstage30_1 ((cfg30.slots t 1).cast nbuf30_1)
abbrev ms30_2 (t : Fin cfg30.N) : Memref sig .tc .vmem S1024x512 .f32 := win30_2.stage (cfg30.slots t 2)
abbrev hs30_2 (t : Fin cfg30.N) : (ms30_2 t).IsWhole := hstage30_2 ((cfg30.slots t 2).cast nbuf30_2)
/-- The accumulator: a whole scoped buffer of the kernel's own. -/
abbrev scM30 : Memref sig .tc .vmem S1024x512 .f32 := Memref.whole cc30_scratch0
abbrev VS30 : View sig .tc .vmem S1024x512 .f32 := scM30.view

/-- The other scoped buffers of the core, none of which this region touches. -/
abbrev restBut30 (c : Dev nD) : sProp 𝕄 :=
  Pipeline.scopedRestBut (Ix := Unit) (Name := ℕ) (U := UR sig nD τ) (Lvl := ℕ) (Val := Elt F) spec30 c [cc30_scratch0]

/-- The region's invariant before its first point: the accumulator at something, the other scoped buffers, the generator register. -/
theorem PhiA30_eq (c : Dev nD) :
    (Pipeline.ΦA spec30 c : sProp 𝕄)
      = iprop(iprop((∃ d, owns (c : Thread nD τ) scM30 fullShare d) ∗ restBut30 c) ∗ (∃ r, prngReg c r)) := by
  unfold Pipeline.ΦA; rw [scopedRest30_split]; simp only [scM30, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun30_A (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond30_0 i) (hc1 : ¬cond30_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc30__matmul_kernel i arg2 harg2 arg3 harg3 arg4 harg4 arg5 harg5) K } := by
  refine ⟨[], ?_, fun xi2 E K => ?run⟩
  case run =>
    simp only [cc30__matmul_kernel_eq_skeleton]; unfold cc30__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI30b.lean ====
/- Laid out by: python3 scratch/layout_regions.py --template-region 1 --region 30 --program KernelIdeal --parts a,b,c, --out-dir proof/Proof
   from the hand-written text of region 1 (RegKI1b.lean): the same text, the region's number substituted. -/
/-
  Region 30, case B (k = 1, 2): the body's run. Neither conditional is taken: the product of the two blocks is added to what
  the point before left in the accumulator; the output block is not touched.
-/
import proofs.«158944_j64613488001249_1_alg».proof.Proof.RegKI30a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun30_B (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond30_0 i) (hc1 : ¬cond30_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc30__matmul_kernel i arg2 harg2 arg3 harg3 arg4 harg4 arg5 harg5) K } := by
  refine ⟨[], ?_, fun xi2 E K => ?run⟩
  case run =>
    simp only [cc30__matmul_kernel_eq_skeleton]; unfold cc30__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI30c.lean ====
/- Laid out by: python3 scratch/layout_regions.py --template-region 1 --region 30 --program KernelIdeal --parts a,b,c, --out-dir proof/Proof
   from the hand-written text of region 1 (RegKI1c.lean): the same text, the region's number substituted. -/
/-
  Region 30, case C (k = 3): the body's run. The product is added to the accumulator as in case B, and then the second
  conditional copies the accumulator over the whole output block.
-/
import proofs.«158944_j64613488001249_1_alg».proof.Proof.RegKI30b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun30_C (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond30_0 i) (hc1 : cond30_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc30__matmul_kernel i arg2 harg2 arg3 harg3 arg4 harg4 arg5 harg5) K } := by
  refine ⟨?_, ?_, fun E K => ?run⟩
  case run =>
    simp only [cc30__matmul_kernel_eq_skeleton]; unfold cc30__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI30.lean ====
/- Laid out by: python3 scratch/layout_regions.py --template-region 1 --region 30 --program KernelIdeal --parts a,b,c, --out-dir proof/Proof
   from the hand-written text of region 1 (RegKI1.lean): the same text, the region's number substituted. -/
/-
  Region 30 of @main, entered from the buffer contents `V`: what its windows' blocks are, what each case of the body leaves in
  the accumulator and in the output block, the accumulator and the output block point by point (`outsAt30`: at k = 0 the
  accumulator restarts from zeros plus the product; at k = 1, 2, 3 it is the point before's plus the product; at k = 3 the
  output block is the accumulator), the region's invariant (the accumulator at `outsAt30`'s second component), the proof data,
  and the body's obligation at every point.
-/
import proofs.«158944_j64613488001249_1_alg».proof.Proof.RegKI30c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk30 (c : Dev nD) (w : Fin cfg30.W) (t : Fin cfg30.N) : ((cfg30.win w).xblock (cfg30.grid.coords t)).Idx → Elt F (cfg30.win w).elt :=
  ((cfg30.win w).blk t).view.read (Elt F) (V c (Pipeline.arrRef spec30 w))

/-- An input window's current staging buffer holds its block at every point, for any proof data whose array is `V`'s and
    whose body leaves the block in place. -/
theorem before30_0_of {c : Dev nD} (dat : Dat τ (Elt F) Unit ℕ (UR sig nD τ) ℕ cfg30 c) (hA : dat.A 0 = V c (Pipeline.arrRef spec30 0))
    (hafter : ∀ t, dat.after 0 t = iblk30 V c 0 t) (t : Fin cfg30.N) (d) : dat.before 0 t d = iblk30 V c 0 t :=
  (dat.before_in_eq_fetched 0 rfl (fun _ => rfl) (fun _ _ _ => rfl) (fun t => by rw [hafter]; unfold Dat.blockOf iblk30; rw [hA]; try rfl) t d).trans
    (by unfold Dat.fetched Dat.blockOf iblk30; rw [hA]; try rfl)
theorem before30_1_of {c : Dev nD} (dat : Dat τ (Elt F) Unit ℕ (UR sig nD τ) ℕ cfg30 c) (hA : dat.A 1 = V c (Pipeline.arrRef spec30 1))
    (hafter : ∀ t, dat.after 1 t = iblk30 V c 1 t) (t : Fin cfg30.N) (d) : dat.before 1 t d = iblk30 V c 1 t :=
  (dat.before_in_eq_fetched 1 rfl (fun _ => rfl) (fun _ _ _ => rfl) (fun t => by rw [hafter]; unfold Dat.blockOf iblk30; rw [hA]; try rfl) t d).trans
    (by unfold Dat.fetched Dat.blockOf iblk30; rw [hA]; try rfl)

/-! ## What each case leaves -/

/-- Case A's stores into the accumulator cover it. -/
theorem scover30_A (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond30_0 i) (hc1 : ¬cond30_1 i)
    (x0 : Vec F S1024x1024 .bf16) (x1 : Vec F S1024x512 .f32) (y : S1024x512.Idx) :
    ∃ pc ∈ (kernelRun30_A c i arg2 harg2 arg3 harg3 arg4 harg4 arg5 harg5 hc0 hc1 x0 x1).2.1, y ∈ pc.1.set :=
  View.cover_of_tiledL (kernelRun30_A c i arg2 harg2 arg3 harg3 arg4 harg4 arg5 harg5 hc0 hc1 x0 x1).2.1 S1024x512.size (by sl_kernel_rfl) y
/-- What case A leaves in the accumulator. -/
noncomputable def sout30_A (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond30_0 i) (hc1 : ¬cond30_1 i)
    (x0 : Vec F S1024x1024 .bf16) (x1 : Vec F S1024x512 .f32) : Vec F S1024x512 .f32 :=
  VS30.read (Elt F) (VS30.writes (Elt F) VS30.junk (kernelRun30_A c i arg2 harg2 arg3 harg3 arg4 harg4 arg5 harg5 hc0 hc1 x0 x1).2.1)

/-- Case B's store into the accumulator covers it. -/
theorem scover30_B (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond30_0 i) (hc1 : ¬cond30_1 i)
    (x0 : Vec F S1024x1024 .bf16) (x1 : Vec F S1024x512 .f32) (xs0 : Vec F S1024x512 .f32) (y : S1024x512.Idx) :
    ∃ pc ∈ (kernelRun30_B c i arg2 harg2 arg3 harg3 arg4 harg4 arg5 harg5 hc0 hc1 x0 x1 xs0).2.1, y ∈ pc.1.set :=
  View.cover_of_tiledL (kernelRun30_B c i arg2 harg2 arg3 harg3 arg4 harg4 arg5 harg5 hc0 hc1 x0 x1 xs0).2.1 S1024x512.size (by sl_kernel_rfl) y
/-- What case B leaves in the accumulator, over what the point before left. -/
noncomputable def sout30_B (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond30_0 i) (hc1 : ¬cond30_1 i)
    (x0 : Vec F S1024x1024 .bf16) (x1 : Vec F S1024x512 .f32) (xs0 : Vec F S1024x512 .f32) : Vec F S1024x512 .f32 :=
  VS30.read (Elt F) (VS30.writes (Elt F) VS30.junk (kernelRun30_B c i arg2 harg2 arg3 harg3 arg4 harg4 arg5 harg5 hc0 hc1 x0 x1 xs0).2.1)

/-- Case C's store into the output block covers it, and so does its store into the accumulator. -/
theorem cover30_C (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond30_0 i) (hc1 : cond30_1 i)
    (x0 : Vec F S1024x1024 .bf16) (x1 : Vec F S1024x512 .f32) (xs0 : Vec F S1024x512 .f32) (y : S1024x512.Idx) :
    ∃ pc ∈ (kernelRun30_C c i arg2 harg2 arg3 harg3 arg4 harg4 arg5 harg5 hc0 hc1 x0 x1 xs0).1, y ∈ pc.1.set :=
  View.cover_of_tiledL (kernelRun30_C c i arg2 harg2 arg3 harg3 arg4 harg4 arg5 harg5 hc0 hc1 x0 x1 xs0).1 S1024x512.size (by sl_kernel_rfl) y
theorem scover30_C (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond30_0 i) (hc1 : cond30_1 i)
    (x0 : Vec F S1024x1024 .bf16) (x1 : Vec F S1024x512 .f32) (xs0 : Vec F S1024x512 .f32) (y : S1024x512.Idx) :
    ∃ pc ∈ (kernelRun30_C c i arg2 harg2 arg3 harg3 arg4 harg4 arg5 harg5 hc0 hc1 x0 x1 xs0).2.1, y ∈ pc.1.set :=
  View.cover_of_tiledL (kernelRun30_C c i arg2 harg2 arg3 harg3 arg4 harg4 arg5 harg5 hc0 hc1 x0 x1 xs0).2.1 S1024x512.size (by sl_kernel_rfl) y
/-- What case C leaves in the output block, and in the accumulator. -/
noncomputable def out30_C (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond30_0 i) (hc1 : cond30_1 i)
    (x0 : Vec F S1024x1024 .bf16) (x1 : Vec F S1024x512 .f32) (xs0 : Vec F S1024x512 .f32) : Vec F S1024x512 .f32 :=
  VO30_2.read (Elt F) (VO30_2.writes (Elt F) VO30_2.junk (kernelRun30_C c i arg2 harg2 arg3 harg3 arg4 harg4 arg5 harg5 hc0 hc1 x0 x1 xs0).1)
noncomputable def sout30_C (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond30_0 i) (hc1 : cond30_1 i)
    (x0 : Vec F S1024x1024 .bf16) (x1 : Vec F S1024x512 .f32) (xs0 : Vec F S1024x512 .f32) : Vec F S1024x512 .f32 :=
  VS30.read (Elt F) (VS30.writes (Elt F) VS30.junk (kernelRun30_C c i arg2 harg2 arg3 harg3 arg4 harg4 arg5 harg5 hc0 hc1 x0 x1 xs0).2.1)

/-- Where the output block is idle nothing consults what it holds: a placeholder. -/
noncomputable def outIdle30 : Vec F S1024x512 .f32 := VO30_2.read (Elt F) (VO30_2.writes (Elt F) VO30_2.junk [])

/-! ## The conditions at a point, from t % 4 -/

theorem isFirst30 (t : Fin cfg30.N) (h : t.val % 4 = 0) : cond30_0 (grid30.coords t) := (hcond30_0 t).mpr h
theorem notFirst30 (t : Fin cfg30.N) (h : ¬t.val % 4 = 0) : ¬cond30_0 (grid30.coords t) := fun hc => h ((hcond30_0 t).mp hc)
theorem isLast30 (t : Fin cfg30.N) (h : t.val % 4 = 3) : cond30_1 (grid30.coords t) := (hcond30_1 t).mpr h
theorem notLast30 (t : Fin cfg30.N) (h : ¬t.val % 4 = 3) : ¬cond30_1 (grid30.coords t) := fun hc => h ((hcond30_1 t).mp hc)

/-! ## The accumulator and the output block, point by point -/

/-- After the body at position `n`: (the output block's buffer, the accumulator). -/
noncomputable def outsAt30 (c : Dev nD) : (n : ℕ) → n < cfg30.N → Vec F S1024x512 .f32 × Vec F S1024x512 .f32
  | 0, hn => (outIdle30, sout30_A c (grid30.coords ⟨0, hn⟩) (ms30_0 ⟨0, hn⟩) (hs30_0 ⟨0, hn⟩) (ms30_1 ⟨0, hn⟩) (hs30_1 ⟨0, hn⟩) (ms30_2 ⟨0, hn⟩) (hs30_2 ⟨0, hn⟩) scM30 (Memref.isWhole_whole _) (isFirst30 ⟨0, hn⟩ (Nat.zero_mod _)) (notLast30 ⟨0, hn⟩ (by simp)) (iblk30 V c 0 ⟨0, hn⟩) (iblk30 V c 1 ⟨0, hn⟩))
  | n + 1, hn =>
    if h0 : (n + 1) % 4 = 0 then
      (outIdle30, sout30_A c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) scM30 (Memref.isWhole_whole _) (isFirst30 ⟨n + 1, hn⟩ h0) (notLast30 ⟨n + 1, hn⟩ (by show ¬(n + 1) % 4 = 3; omega)) (iblk30 V c 0 ⟨n + 1, hn⟩) (iblk30 V c 1 ⟨n + 1, hn⟩))
    else if h3 : (n + 1) % 4 = 3 then
      (out30_C c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) scM30 (Memref.isWhole_whole _) (notFirst30 ⟨n + 1, hn⟩ h0) (isLast30 ⟨n + 1, hn⟩ h3) (iblk30 V c 0 ⟨n + 1, hn⟩) (iblk30 V c 1 ⟨n + 1, hn⟩) (outsAt30 c n (Nat.lt_of_succ_lt hn)).2,
       sout30_C c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) scM30 (Memref.isWhole_whole _) (notFirst30 ⟨n + 1, hn⟩ h0) (isLast30 ⟨n + 1, hn⟩ h3) (iblk30 V c 0 ⟨n + 1, hn⟩) (iblk30 V c 1 ⟨n + 1, hn⟩) (outsAt30 c n (Nat.lt_of_succ_lt hn)).2)
    else
      (outIdle30, sout30_B c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) scM30 (Memref.isWhole_whole _) (notFirst30 ⟨n + 1, hn⟩ h0) (notLast30 ⟨n + 1, hn⟩ h3) (iblk30 V c 0 ⟨n + 1, hn⟩) (iblk30 V c 1 ⟨n + 1, hn⟩) (outsAt30 c n (Nat.lt_of_succ_lt hn)).2)

/-- `outsAt30` at a point with k = 0. -/
theorem outsAt30_A (c : Dev nD) (t : Fin cfg30.N) (h0 : t.val % 4 = 0) :
    outsAt30 V c t.val t.isLt = (outIdle30, sout30_A c (grid30.coords t) (ms30_0 t) (hs30_0 t) (ms30_1 t) (hs30_1 t) (ms30_2 t) (hs30_2 t) scM30 (Memref.isWhole_whole _) (isFirst30 t h0) (notLast30 t (by omega)) (iblk30 V c 0 t) (iblk30 V c 1 t)) := by
  obtain ⟨n, hn⟩ := t
  cases n with
  | zero => rfl
  | succ n => exact (dif_pos h0).trans rfl

/-- `outsAt30` at a point with k = 1, 2: over what the point before left. -/
theorem outsAt30_B (c : Dev nD) (t : Fin cfg30.N) (h0 : ¬t.val % 4 = 0) (h3 : ¬t.val % 4 = 3) :
    outsAt30 V c t.val t.isLt = (outIdle30, sout30_B c (grid30.coords t) (ms30_0 t) (hs30_0 t) (ms30_1 t) (hs30_1 t) (ms30_2 t) (hs30_2 t) scM30 (Memref.isWhole_whole _) (notFirst30 t h0) (notLast30 t h3) (iblk30 V c 0 t) (iblk30 V c 1 t)
      (outsAt30 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt30` at a point with k = 3. -/
theorem outsAt30_C (c : Dev nD) (t : Fin cfg30.N) (h0 : ¬t.val % 4 = 0) (h3 : t.val % 4 = 3) :
    outsAt30 V c t.val t.isLt = (out30_C c (grid30.coords t) (ms30_0 t) (hs30_0 t) (ms30_1 t) (hs30_1 t) (ms30_2 t) (hs30_2 t) scM30 (Memref.isWhole_whole _) (notFirst30 t h0) (isLast30 t h3) (iblk30 V c 0 t) (iblk30 V c 1 t)
        (outsAt30 V c (t.val - 1) (Nat.lt_of_le_of_lt (Nat.sub_le _ _) t.isLt)).2,
      sout30_C c (grid30.coords t) (ms30_0 t) (hs30_0 t) (ms30_1 t) (hs30_1 t) (ms30_2 t) (hs30_2 t) scM30 (Memref.isWhole_whole _) (notFirst30 t h0) (isLast30 t h3) (iblk30 V c 0 t) (iblk30 V c 1 t)
        (outsAt30 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS30 (c : Dev nD) : (n : ℕ) → n ≤ cfg30.N → sProp 𝕄
  | 0, _ => Pipeline.ΦA spec30 c
  | n + 1, hn => iprop(iprop(owns (c : Thread nD τ) scM30 fullShare ((outsAt30 V c n hn).2) ∗ restBut30 c) ∗ (∃ r, prngReg c r))

theorem PhiS30_zero (c : Dev nD) (n : ℕ) (h : n ≤ cfg30.N) (hz : n = 0) : PhiS30 V c n h = Pipeline.ΦA spec30 c := by
  subst hz; rfl
theorem PhiS30_succ (c : Dev nD) (n : ℕ) (hn : n < cfg30.N) :
    PhiS30 V c (n + 1) hn = iprop(iprop(owns (c : Thread nD τ) scM30 fullShare ((outsAt30 V c n hn).2) ∗ restBut30 c) ∗ (∃ r, prngReg c r)) := rfl
theorem PhiS30_pos (c : Dev nD) (n : ℕ) (h : n ≤ cfg30.N) (hz : n ≠ 0) :
    PhiS30 V c n h = iprop(iprop(owns (c : Thread nD τ) scM30 fullShare ((outsAt30 V c (n - 1) (by omega)).2) ∗ restBut30 c) ∗ (∃ r, prngReg c r)) := by
  cases n with
  | zero => exact absurd rfl hz
  | succ n => rfl

/-! ## The proof data -/

/-- The region's proof data on core `c`: the arrays as the region finds them; after the body at point `t` each input's
    buffer at its block and the output's at `outsAt30`'s first component; the invariant `PhiS30`; nothing owed; full shares. -/
noncomputable def dat30 (c : Dev nD) : Dat τ (Elt F) Unit ℕ (UR sig nD τ) ℕ cfg30 c where
  A w := V c (Pipeline.arrRef spec30 w)
  after w t := match w with
    | ⟨0, _⟩ => iblk30 V c 0 t
    | ⟨1, _⟩ => iblk30 V c 1 t
    | ⟨2, _⟩ => (outsAt30 V c t.val t.isLt).1
  Φ t := PhiS30 V c t.val (Nat.le_of_lt_succ t.isLt)
  q _ := fullShare
  owed _ := 0

theorem A_eq30 (c : Dev nD) (w : Fin cfg30.W) : (dat30 V c).A w = V c (Pipeline.arrRef spec30 w) := by
  dsimp only [dat30]
theorem PhiS30_castSucc (c : Dev nD) (t : Fin cfg30.N) :
    (dat30 V c).Φ t.castSucc = PhiS30 V c t.val (Nat.le_of_lt t.isLt) := by
  dsimp only [dat30]; simp only [Fin.coe_castSucc]
theorem after30_0 (c : Dev nD) (t : Fin cfg30.N) : (dat30 V c).after 0 t = iblk30 V c 0 t := by dsimp only [dat30]
theorem after30_1 (c : Dev nD) (t : Fin cfg30.N) : (dat30 V c).after 1 t = iblk30 V c 1 t := by dsimp only [dat30]
theorem after30_2 (c : Dev nD) (t : Fin cfg30.N) : (dat30 V c).after 2 t = (outsAt30 V c t.val t.isLt).1 := by dsimp only [dat30]
theorem before30_0 (c : Dev nD) (t : Fin cfg30.N) (d) : (dat30 V c).before 0 t d = iblk30 V c 0 t :=
  before30_0_of V (dat30 V c) (A_eq30 V c 0) (after30_0 V c) t d
theorem before30_1 (c : Dev nD) (t : Fin cfg30.N) (d) : (dat30 V c).before 1 t d = iblk30 V c 1 t :=
  before30_1_of V (dat30 V c) (A_eq30 V c 1) (after30_1 V c) t d

/-! ## The body's obligation -/

noncomputable def bodyPre30 (c : Dev nD) (t : Fin cfg30.N) : sProp 𝕄 :=
  iprop((dat30 V c).Φ t.castSucc ∗ (dat30 V c).owesAt () t.castSucc
    ∗ (∃ d, owns (c : Thread nD τ) (ms30_0 t) fullShare ((dat30 V c).before 0 t d))
    ∗ (∃ d, owns (c : Thread nD τ) (ms30_1 t) fullShare ((dat30 V c).before 1 t d))
    ∗ (∃ d, owns (c : Thread nD τ) (ms30_2 t) fullShare ((dat30 V c).before 2 t d)))

noncomputable def bodyPost30 (c : Dev nD) (t : Fin cfg30.N) : sProp 𝕄 :=
  iprop((dat30 V c).Φ t.succ ∗ (dat30 V c).owesAt () t.succ
    ∗ (dat30 V c).leavesExact 0 t
    ∗ (dat30 V c).leavesExact 1 t
    ∗ (dat30 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body30 (c : Dev nD) (t : Fin cfg30.N) :
    bodyPre30 V c t ⊢ wp frame (wpE (defs₀ (F := F)) Variants.none c none) Set.univ (bodyAt30 t) (fun _ => bodyPost30 V c t) := by
  unfold bodyPre30 bodyPost30 bodyAt30
  simp only [before30_0, before30_1]
  rw [show (dat30 V c).owesAt () t.succ = (dat30 V c).owesAt () t.castSucc from rfl]
  rw [show (dat30 V c).Φ t.succ = PhiS30 V c (t.val + 1) t.isLt from rfl, PhiS30_succ]
  rw [show (dat30 V c).leavesExact 0 t = owns (c : Thread nD τ) (ms30_0 t) fullShare ((dat30 V c).after 0 t) from by
    unfold Dat.leavesExact; rw [liveAt30_0 t], after30_0]
  rw [show (dat30 V c).leavesExact 1 t = owns (c : Thread nD τ) (ms30_1 t) fullShare ((dat30 V c).after 1 t) from by
    unfold Dat.leavesExact; rw [liveAt30_1 t], after30_1]
  by_cases h0 : t.val % 4 = 0
  · have h3 : ¬t.val % 4 = 3 := by omega
    rw [Dat.leavesExact_idle (dat30 V c) 2 t (idleAt30_2 t (notLast30 t h3)) (noFlush30_2 t (notLast30 t h3))]
    rw [outsAt30_A V c t h0]
    unfold sout30_A; (try dsimp only)
    by_cases hz : t.val = 0
    · rw [PhiS30_castSucc V c t, PhiS30_zero V c _ _ hz, PhiA30_eq]
      iintro ⟨⟨⟨HS0, Hrb⟩, Hg⟩, Ho, ⟨%d0, H0⟩, ⟨%d1, H1⟩, ⟨%d2, H2⟩⟩
      iapply ((kernelRun30_A c (grid30.coords t) _ _ _ _ _ _ _ _ (isFirst30 t h0) (notLast30 t (by omega)) (iblk30 V c 0 t) (iblk30 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover30_A c _ _ _ _ _ _ _ _ _ _ _ _ _)
          iexact Hrb
        iexact Hg
      isplitl [Ho]; · iexact Ho
      isplitl [H0]; · iexact H0
      isplitl [H1]; · iexact H1
      iexists _; iexact H2
    · rw [PhiS30_castSucc V c t, PhiS30_pos V c _ _ hz]
      iintro ⟨⟨⟨HS0, Hrb⟩, Hg⟩, Ho, ⟨%d0, H0⟩, ⟨%d1, H1⟩, ⟨%d2, H2⟩⟩
      iapply ((kernelRun30_A c (grid30.coords t) _ _ _ _ _ _ _ _ (isFirst30 t h0) (notLast30 t (by omega)) (iblk30 V c 0 t) (iblk30 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover30_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat30 V c).leavesExact 2 t = owns (c : Thread nD τ) (ms30_2 t) fullShare ((dat30 V c).after 2 t) from by
        unfold Dat.leavesExact; rw [liveAt30_2 t (isLast30 t h3)], after30_2]
      rw [outsAt30_C V c t h0 h3]
      unfold out30_C sout30_C; (try dsimp only)
      rw [PhiS30_castSucc V c t, PhiS30_pos V c _ _ hz]
      iintro ⟨⟨⟨HS0, Hrb⟩, Hg⟩, Ho, ⟨%d0, H0⟩, ⟨%d1, H1⟩, ⟨%d2, H2⟩⟩
      iapply ((kernelRun30_C c (grid30.coords t) _ _ _ _ _ _ _ _ (notFirst30 t h0) (isLast30 t h3) (iblk30 V c 0 t) (iblk30 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover30_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover30_C c _ _ _ _ _ _ _ _ _ _ _ _ _ _)
    · rw [Dat.leavesExact_idle (dat30 V c) 2 t (idleAt30_2 t (notLast30 t h3)) (noFlush30_2 t (notLast30 t h3))]
      rw [outsAt30_B V c t h0 h3]
      unfold sout30_B; (try dsimp only)
      rw [PhiS30_castSucc V c t, PhiS30_pos V c _ _ hz]
      iintro ⟨⟨⟨HS0, Hrb⟩, Hg⟩, Ho, ⟨%d0, H0⟩, ⟨%d1, H1⟩, ⟨%d2, H2⟩⟩
      iapply ((kernelRun30_B c (grid30.coords t) _ _ _ _ _ _ _ _ (notFirst30 t h0) (notLast30 t h3) (iblk30 V c 0 t) (iblk30 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover30_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation30 (c : Dev nD) : BodyObligation (dat30 (F := F) V c) (defs₀ (F := F)) Variants.none () Set.univ := fun t => by
  rw [bigSep_W30, bigSep_W30]
  exact sound_body30 V c t

/-- What the region is entered with is the invariant before the first point. -/
theorem hin30 (c : Dev nD) : Pipeline.ΦA spec30 c ⊢ (dat30 V c).Φ 0 := by
  rw [show (dat30 V c).Φ 0 = PhiS30 V c 0 (Nat.zero_le _) from rfl, PhiS30_zero V c 0 _ rfl]
  try exact Idealize.SL.BI.Entails.refl _

/-- After the last point the invariant gives the class's back: the accumulator's contents are forgotten. -/
theorem hout30 (c : Dev nD) : (dat30 V c).Φ (Fin.last cfg30.N) ⊢ Pipeline.ΦA spec30 c := by
  have hN : cfg30.N = 16 := N_30
  rw [show (dat30 V c).Φ (Fin.last cfg30.N) = PhiS30 V c (Fin.last cfg30.N).val (Nat.le_of_lt_succ (Fin.last cfg30.N).isLt) from rfl,
    PhiS30_pos V c _ _ (by rw [Fin.val_last]; omega), PhiA30_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI31a.lean ====
/- Laid out by: python3 scratch/layout_grid41.py --template-region 0 --region 31 --program KernelIdeal --parts a, --shapes S1024x128=S1024x512,S128x512=S512x512
   from the hand-written text of region 0 (RegKI0a.lean): the same text, the region's number, block shapes substituted. -/
/- The region of KernelIdeal's @main that runs `cc31__matmul_kernel` (pipeline `cfg31`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond31_0 (i : grid31.Coords) : Prop :=
  (Scalar.cmpi .ne (Scalar.extui (Scalar.cmpi .eq (BitVec.ofNat 32 (i 1).val) 0#32)) 0#32) = 1#1
/-- True at every point: the reduction axis has one step. -/
theorem hcond31_0 : ∀ t : Fin cfg31.N, cond31_0 (grid31.coords t) :=
  (by decide +kernel : ∀ t : Fin grid31.N, cond31_0 (grid31.coords t))

/-- "This is the last reduction step" (the guard of the copy to the output block). -/
abbrev cond31_1 (i : grid31.Coords) : Prop := k31_cond2 i = 1#1
/-- True at every point, for the same reason. -/
theorem hcond31_1 : ∀ t : Fin cfg31.N, cond31_1 (grid31.coords t) :=
  (by decide +kernel : ∀ t : Fin grid31.N, cond31_1 (grid31.coords t))

/-! ## No window is idle anywhere -/

theorem liveAt31_0 : ∀ t : Fin cfg31.N, cfg31.idle 0 (grid31.coords t) = false := by decide +kernel
theorem liveAt31_1 : ∀ t : Fin cfg31.N, cfg31.idle 1 (grid31.coords t) = false := by decide +kernel
/-- The output window is stored at every point (the copy's guard holds everywhere). -/
theorem liveAt31_2 : ∀ t : Fin cfg31.N, cfg31.idle 2 (grid31.coords t) = false := by decide +kernel

/-! ## The memrefs the body is called on -/

/-- One staging buffer of the output window, through which its contents are stated (any whole view of the shape reads the
    same pieces back the same way). -/
abbrev VO31_2 : View sig .tc .vmem S1024x512 .f32 := (Memref.whole cc31_stg2_0 : Memref sig .tc .vmem S1024x512 .f32).view
/-- Each window's current staging memref at point `t`, spelt as the pipeline passes it, with its wholeness. -/
abbrev ms31_0 (t : Fin cfg31.N) : Memref sig .tc .vmem S1024x512 .f32 := win31_0.stage (cfg31.slots t 0)
abbrev hs31_0 (t : Fin cfg31.N) : (ms31_0 t).IsWhole := hstage31_0 ((cfg31.slots t 0).cast nbuf31_0)
abbrev ms31_1 (t : Fin cfg31.N) : Memref sig .tc .vmem S512x512 .bf16 := win31_1.stage (cfg31.slots t 1)
abbrev hs31_1 (t : Fin cfg31.N) : (ms31_1 t).IsWhole := hstage31_1 ((cfg31.slots t 1).cast nbuf31_1)
abbrev ms31_2 (t : Fin cfg31.N) : Memref sig .tc .vmem S1024x512 .f32 := win31_2.stage (cfg31.slots t 2)
abbrev hs31_2 (t : Fin cfg31.N) : (ms31_2 t).IsWhole := hstage31_2 ((cfg31.slots t 2).cast nbuf31_2)
/-- The accumulator: a whole scoped buffer of the kernel's own, passed beside the windows. -/
abbrev scM31_0 : Memref sig .tc .vmem S1024x512 .f32 := Memref.whole cc31_scratch0
abbrev VS31_0 : View sig .tc .vmem S1024x512 .f32 := scM31_0.view

/-- The region invariant with the accumulator taken out of the scoped rest: the accumulator owned at some contents, every
    other scoped buffer unopened, and the generator register. -/
theorem PhiA31_eq (c : Dev nD) :
    (Pipeline.ΦA spec31 c : sProp 𝕄)
      = iprop(iprop(iprop((∃ d, owns (c : Thread nD τ) scM31_0 fullShare d))
            ∗ Pipeline.scopedRestBut (Ix := Unit) (Name := ℕ) (U := UR sig nD τ) (Lvl := ℕ) (Val := Elt F) spec31 c [cc31_scratch0])
          ∗ (∃ r, prngReg c r)) := by
  unfold Pipeline.ΦA; rw [scopedRest31_split]; simp only [scM31_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun31 (c : Dev nD) (i : grid31.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond31_0 i) (hlast : cond31_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc31__matmul_kernel i arg2 harg2 arg3 harg3 arg4 harg4 arg5 harg5) K } := by
  refine ⟨?_, ?_, fun E K => ?run⟩
  case run =>
    simp only [cc31__matmul_kernel_eq_skeleton]; unfold cc31__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.KernelIdeal.Hand

end
-- ==== Proof.RegKI31.lean ====
/- Laid out by: python3 scratch/layout_grid41.py --template-region 0 --region 31 --program KernelIdeal --parts a, --shapes S1024x128=S1024x512,S128x512=S512x512
   from the hand-written text of region 0 (RegKI0.lean): the same text, the region's number, block shapes substituted. -/
/- The region of KernelIdeal's @main that runs `cc31__matmul_kernel` (pipeline `cfg31`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegKI31a
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk31 (c : Dev nD) (w : Fin cfg31.W) (t : Fin cfg31.N) : ((cfg31.win w).xblock (cfg31.grid.coords t)).Idx → Elt F (cfg31.win w).elt :=
  ((cfg31.win w).blk t).view.read (Elt F) (V c (Pipeline.arrRef spec31 w))

/-! ## What the case leaves, as pieces read back -/

/-- The output's pieces tile its block (one whole-block store). -/
theorem cover31_2 (c : Dev nD) (i : grid31.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond31_0 i) (hlast : cond31_1 i) (xa : Vec F S1024x512 .f32) (xb : Vec F S512x512 .bf16) (y : S1024x512.Idx) :
    ∃ pc ∈ (kernelRun31 c i arg2 harg2 arg3 harg3 arg4 harg4 arg5 harg5 hfirst hlast xa xb).1, y ∈ pc.1.set :=
  View.cover_of_tiledL (kernelRun31 c i arg2 harg2 arg3 harg3 arg4 harg4 arg5 harg5 hfirst hlast xa xb).1 S1024x512.size (by sl_kernel_rfl) y

/-- What the case leaves in the output's staging buffer: its pieces read back over junk. -/
noncomputable def out31_2 (c : Dev nD) (i : grid31.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond31_0 i) (hlast : cond31_1 i) (xa : Vec F S1024x512 .f32) (xb : Vec F S512x512 .bf16) : Vec F S1024x512 .f32 :=
  VO31_2.read (Elt F) (VO31_2.writes (Elt F) VO31_2.junk (kernelRun31 c i arg2 harg2 arg3 harg3 arg4 harg4 arg5 harg5 hfirst hlast xa xb).1)

/-- What the case leaves in the accumulator: its pieces read back over junk. -/
noncomputable def sout31_0 (c : Dev nD) (i : grid31.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond31_0 i) (hlast : cond31_1 i) (xa : Vec F S1024x512 .f32) (xb : Vec F S512x512 .bf16) : Vec F S1024x512 .f32 :=
  VS31_0.read (Elt F) (VS31_0.writes (Elt F) VS31_0.junk (kernelRun31 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout31_0_eq (c : Dev nD) (i : grid31.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond31_0 i) (hlast : cond31_1 i) (xa : Vec F S1024x512 .f32) (xb : Vec F S512x512 .bf16) :
    sout31_0 c i arg2 harg2 arg3 harg3 arg4 harg4 arg5 harg5 hfirst hlast xa xb = k31_pay2 xa xb (k31_pay1 (F := F)) := by
  unfold sout31_0
  rw [View.read_writes_junk_eq_canon]
  unfold kernelRun31
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out31_2_eq (c : Dev nD) (i : grid31.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond31_0 i) (hlast : cond31_1 i) (xa : Vec F S1024x512 .f32) (xb : Vec F S512x512 .bf16) :
    out31_2 c i arg2 harg2 arg3 harg3 arg4 harg4 arg5 harg5 hfirst hlast xa xb = k31_pay2 xa xb (k31_pay1 (F := F)) := by
  unfold out31_2
  rw [View.read_writes_junk_eq_canon]
  unfold kernelRun31
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt31 (c : Dev nD) (n : ℕ) (hn : n < cfg31.N) : Vec F S1024x512 .f32 × Vec F S1024x512 .f32 :=
  (out31_2 c (grid31.coords ⟨n, hn⟩) (ms31_0 ⟨n, hn⟩) (hs31_0 ⟨n, hn⟩) (ms31_1 ⟨n, hn⟩) (hs31_1 ⟨n, hn⟩) (ms31_2 ⟨n, hn⟩) (hs31_2 ⟨n, hn⟩) scM31_0 (Memref.isWhole_whole _)
      (hcond31_0 ⟨n, hn⟩) (hcond31_1 ⟨n, hn⟩) (iblk31 V c 0 ⟨n, hn⟩) (iblk31 V c 1 ⟨n, hn⟩),
   sout31_0 c (grid31.coords ⟨n, hn⟩) (ms31_0 ⟨n, hn⟩) (hs31_0 ⟨n, hn⟩) (ms31_1 ⟨n, hn⟩) (hs31_1 ⟨n, hn⟩) (ms31_2 ⟨n, hn⟩) (hs31_2 ⟨n, hn⟩) scM31_0 (Memref.isWhole_whole _)
      (hcond31_0 ⟨n, hn⟩) (hcond31_1 ⟨n, hn⟩) (iblk31 V c 0 ⟨n, hn⟩) (iblk31 V c 1 ⟨n, hn⟩))

/-- Every point is a first reduction step: the accumulator after it is one product onto zero. -/
theorem outsAt31_first (c : Dev nD) (t : Fin cfg31.N) :
    (outsAt31 V c t.val t.isLt).2 = k31_pay2 (iblk31 V c 0 t) (iblk31 V c 1 t) (k31_pay1 (F := F)) := by
  obtain ⟨n, hn⟩ := t
  unfold outsAt31
  dsimp only
  rw [sout31_0_eq]

/-- Every point is a last reduction step: the output block after it is the accumulator. -/
theorem outsAt31_last (c : Dev nD) (t : Fin cfg31.N) :
    (outsAt31 V c t.val t.isLt).1 = (outsAt31 V c t.val t.isLt).2 := by
  obtain ⟨n, hn⟩ := t
  unfold outsAt31
  dsimp only
  rw [out31_2_eq, sout31_0_eq]

/-! ## The pipeline's proof data -/

/-- The proof data of the pipeline on core `c`: the arrays as the region finds them; after the body at point `t` each input's
    buffer at its block and the output's at `outsAt31`'s first component; the invariant the same at every point; nothing owed;
    full shares. -/
noncomputable def dat31 (c : Dev nD) : Dat τ (Elt F) Unit ℕ (UR sig nD τ) ℕ cfg31 c where
  A w := V c (Pipeline.arrRef spec31 w)
  after w t := match w with
    | ⟨0, _⟩ => iblk31 V c 0 t
    | ⟨1, _⟩ => iblk31 V c 1 t
    | ⟨2, _⟩ => (outsAt31 V c t.val t.isLt).1
  Φ _ := Pipeline.ΦA spec31 c
  q _ := fullShare
  owed _ := 0

theorem A_eq31 (c : Dev nD) (w : Fin cfg31.W) : (dat31 V c).A w = V c (Pipeline.arrRef spec31 w) := by
  dsimp only [dat31]

theorem after31_0 (c : Dev nD) (t : Fin cfg31.N) : (dat31 V c).after 0 t = iblk31 V c 0 t := by dsimp only [dat31]
theorem after31_1 (c : Dev nD) (t : Fin cfg31.N) : (dat31 V c).after 1 t = iblk31 V c 1 t := by dsimp only [dat31]
theorem after31_2 (c : Dev nD) (t : Fin cfg31.N) : (dat31 V c).after 2 t = (outsAt31 V c t.val t.isLt).1 := by dsimp only [dat31]

/-- An input's current staging buffer holds its block at every point, fetched there or not: where it is not fetched its block
    index has not moved since the point before, and the body left the block in place. -/
theorem before31_0 (c : Dev nD) (t : Fin cfg31.N) (d) : (dat31 V c).before 0 t d = iblk31 V c 0 t :=
  ((dat31 V c).before_in_eq_fetched 0 rfl (fun _ => rfl) (fun _ _ _ => rfl)
      (fun t => by rw [after31_0]; unfold Dat.blockOf iblk31; rw [A_eq31]; try rfl) t d).trans
    (by unfold Dat.fetched Dat.blockOf iblk31; rw [A_eq31]; try rfl)
theorem before31_1 (c : Dev nD) (t : Fin cfg31.N) (d) : (dat31 V c).before 1 t d = iblk31 V c 1 t :=
  ((dat31 V c).before_in_eq_fetched 1 rfl (fun _ => rfl) (fun _ _ _ => rfl)
      (fun t => by rw [after31_1]; unfold Dat.blockOf iblk31; rw [A_eq31]; try rfl) t d).trans
    (by unfold Dat.fetched Dat.blockOf iblk31; rw [A_eq31]; try rfl)

/-! ## The body obligation, at a generic point -/

/-- What the body is called with at point `t`, the windows one by one, -/
noncomputable def bodyPre31 (c : Dev nD) (t : Fin cfg31.N) : sProp 𝕄 :=
  iprop((dat31 V c).Φ t.castSucc ∗ (dat31 V c).owesAt () t.castSucc
    ∗ (∃ d, owns (c : Thread nD τ) (ms31_0 t) fullShare ((dat31 V c).before 0 t d))
    ∗ (∃ d, owns (c : Thread nD τ) (ms31_1 t) fullShare ((dat31 V c).before 1 t d))
    ∗ (∃ d, owns (c : Thread nD τ) (ms31_2 t) fullShare ((dat31 V c).before 2 t d)))

/-- and what it returns. -/
noncomputable def bodyPost31 (c : Dev nD) (t : Fin cfg31.N) : sProp 𝕄 :=
  iprop((dat31 V c).Φ t.succ ∗ (dat31 V c).owesAt () t.succ
    ∗ (dat31 V c).leavesExact 0 t
    ∗ (dat31 V c).leavesExact 1 t
    ∗ (dat31 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body31 (c : Dev nD) (t : Fin cfg31.N) :
    bodyPre31 V c t ⊢ wp frame (wpE (defs₀ (F := F)) Variants.none c none) Set.univ (bodyAt31 t) (fun _ => bodyPost31 V c t) := by
  unfold bodyPre31 bodyPost31 bodyAt31
  simp only [before31_0, before31_1]
  rw [show (dat31 V c).owesAt () t.succ = (dat31 V c).owesAt () t.castSucc from rfl,
    show (dat31 V c).Φ t.succ = Pipeline.ΦA spec31 c from rfl, show (dat31 V c).Φ t.castSucc = Pipeline.ΦA spec31 c from rfl, PhiA31_eq]
  rw [show (dat31 V c).leavesExact 0 t = owns (c : Thread nD τ) (ms31_0 t) fullShare ((dat31 V c).after 0 t) from by
      unfold Dat.leavesExact; rw [liveAt31_0 t], after31_0]
  rw [show (dat31 V c).leavesExact 1 t = owns (c : Thread nD τ) (ms31_1 t) fullShare ((dat31 V c).after 1 t) from by
      unfold Dat.leavesExact; rw [liveAt31_1 t], after31_1]
  rw [show (dat31 V c).leavesExact 2 t = owns (c : Thread nD τ) (ms31_2 t) fullShare ((dat31 V c).after 2 t) from by
      unfold Dat.leavesExact; rw [liveAt31_2 t], after31_2]
  unfold outsAt31 out31_2; (try dsimp only)
  iintro ⟨⟨⟨Hacc, Hrest⟩, Hgen⟩, Howe, ⟨%da, Ha⟩, ⟨%db, Hb⟩, ⟨%dO, Hout⟩⟩
  iapply ((kernelRun31 c (grid31.coords t) _ _ _ _ _ _ _ _ (hcond31_0 t) (hcond31_1 t) (iblk31 V c 0 t) (iblk31 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover31_2 c _ _ _ _ _ _ _ _ _ _ _ _ _)

/-- The library's body obligation, at every point. -/
theorem body_obligation31 (c : Dev nD) : BodyObligation (dat31 (F := F) V c) (defs₀ (F := F)) Variants.none () Set.univ := fun t => by
  rw [bigSep_W31, bigSep_W31]
  exact sound_body31 V c t

/-- What the launch hands the region is the invariant before the first point, -/
theorem hin31 (c : Dev nD) : Pipeline.ΦA spec31 c ⊢ (dat31 V c).Φ 0 := Idealize.SL.BI.Entails.refl _

/-- and the invariant after the last point is what the launch takes back. -/
theorem hout31 (c : Dev nD) : (dat31 V c).Φ (Fin.last cfg31.N) ⊢ Pipeline.ΦA spec31 c := Idealize.SL.BI.Entails.refl _

end Cert.KernelIdeal.Hand

end
-- ==== Proof.RegKI32a.lean ====
/- Laid out by: python3 scratch/layout_regions.py --template-region 1 --region 32 --program KernelIdeal --parts a,b,c, --out-dir proof/Proof
   from the hand-written text of region 1 (RegKI1a.lean): the same text, the region's number substituted. -/
/-
  Region 32 of @main (custom_call 32): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond32_0 (i : grid32.Coords) : Prop := (Scalar.cmpi .ne (Scalar.extui (Scalar.cmpi .eq (BitVec.ofNat 32 (i 1).val) 0#32)) 0#32) = 1#1
/-- It holds exactly at the points with t % 4 = 0. -/
theorem hcond32_0 : ∀ t : Fin cfg32.N, cond32_0 (grid32.coords t) ↔ t.val % 4 = 0 :=
  (by decide +kernel : ∀ t : Fin grid32.N, cond32_0 (grid32.coords t) ↔ t.val % 4 = 0)

/-- "k = 3": the second conditional's test. -/
abbrev cond32_1 (i : grid32.Coords) : Prop := k32_cond2 i = 1#1
/-- It holds exactly at the points with t % 4 = 3. -/
theorem hcond32_1 : ∀ t : Fin cfg32.N, cond32_1 (grid32.coords t) ↔ t.val % 4 = 3 :=
  (by decide +kernel : ∀ t : Fin grid32.N, cond32_1 (grid32.coords t) ↔ t.val % 4 = 3)

/-! ## Where the windows are idle, and where the output is written back -/

/-- The two input windows are never idle. -/
theorem liveAt32_0 : ∀ t : Fin cfg32.N, cfg32.idle 0 (grid32.coords t) = false := by decide +kernel
theorem liveAt32_1 : ∀ t : Fin cfg32.N, cfg32.idle 1 (grid32.coords t) = false := by decide +kernel
/-- Where k ≠ 3 the output window is idle (the body stores nothing into it) and is not written back. -/
theorem idleAt32_2 : ∀ t : Fin cfg32.N, ¬cond32_1 (grid32.coords t) → cfg32.idle 2 (grid32.coords t) = true := by decide +kernel
theorem noFlush32_2 : ∀ t : Fin cfg32.N, ¬cond32_1 (grid32.coords t) → (cfg32.win 2).flush t = false := by decide +kernel
/-- Where k = 3 it is live. -/
theorem liveAt32_2 : ∀ t : Fin cfg32.N, cond32_1 (grid32.coords t) → cfg32.idle 2 (grid32.coords t) = false := by decide +kernel

/-! ## The staging memrefs at a point, and the scratch -/

/-- One staging buffer of the output window, through which its contents are stated. -/
abbrev VO32_2 : View sig .tc .vmem S1024x512 .f32 := (Memref.whole cc32_stg2_0 : Memref sig .tc .vmem S1024x512 .f32).view
abbrev ms32_0 (t : Fin cfg32.N) : Memref sig .tc .vmem S1024x1024 .bf16 := win32_0.stage (cfg32.slots t 0)
abbrev hs32_0 (t : Fin cfg32.N) : (ms32_0 t).IsWhole := hstage32_0 ((cfg32.slots t 0).cast nbuf32_0)
abbrev ms32_1 (t : Fin cfg32.N) : Memref sig .tc .vmem S1024x512 .f32 := win32_1.stage (cfg32.slots t 1)
abbrev hs32_1 (t : Fin cfg32.N) : (ms32_1 t).IsWhole := hstage32_1 ((cfg32.slots t 1).cast nbuf32_1)
abbrev ms32_2 (t : Fin cfg32.N) : Memref sig .tc .vmem S1024x512 .f32 := win32_2.stage (cfg32.slots t 2)
abbrev hs32_2 (t : Fin cfg32.N) : (ms32_2 t).IsWhole := hstage32_2 ((cfg32.slots t 2).cast nbuf32_2)
/-- The accumulator: a whole scoped buffer of the kernel's own. -/
abbrev scM32 : Memref sig .tc .vmem S1024x512 .f32 := Memref.whole cc32_scratch0
abbrev VS32 : View sig .tc .vmem S1024x512 .f32 := scM32.view

/-- The other scoped buffers of the core, none of which this region touches. -/
abbrev restBut32 (c : Dev nD) : sProp 𝕄 :=
  Pipeline.scopedRestBut (Ix := Unit) (Name := ℕ) (U := UR sig nD τ) (Lvl := ℕ) (Val := Elt F) spec32 c [cc32_scratch0]

/-- The region's invariant before its first point: the accumulator at something, the other scoped buffers, the generator register. -/
theorem PhiA32_eq (c : Dev nD) :
    (Pipeline.ΦA spec32 c : sProp 𝕄)
      = iprop(iprop((∃ d, owns (c : Thread nD τ) scM32 fullShare d) ∗ restBut32 c) ∗ (∃ r, prngReg c r)) := by
  unfold Pipeline.ΦA; rw [scopedRest32_split]; simp only [scM32, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun32_A (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond32_0 i) (hc1 : ¬cond32_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc32__matmul_kernel i arg2 harg2 arg3 harg3 arg4 harg4 arg5 harg5) K } := by
  refine ⟨[], ?_, fun xi2 E K => ?run⟩
  case run =>
    simp only [cc32__matmul_kernel_eq_skeleton]; unfold cc32__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI32b.lean ====
/- Laid out by: python3 scratch/layout_regions.py --template-region 1 --region 32 --program KernelIdeal --parts a,b,c, --out-dir proof/Proof
   from the hand-written text of region 1 (RegKI1b.lean): the same text, the region's number substituted. -/
/-
  Region 32, case B (k = 1, 2): the body's run. Neither conditional is taken: the product of the two blocks is added to what
  the point before left in the accumulator; the output block is not touched.
-/
import proofs.«158944_j64613488001249_1_alg».proof.Proof.RegKI32a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun32_B (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond32_0 i) (hc1 : ¬cond32_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc32__matmul_kernel i arg2 harg2 arg3 harg3 arg4 harg4 arg5 harg5) K } := by
  refine ⟨[], ?_, fun xi2 E K => ?run⟩
  case run =>
    simp only [cc32__matmul_kernel_eq_skeleton]; unfold cc32__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI32c.lean ====
/- Laid out by: python3 scratch/layout_regions.py --template-region 1 --region 32 --program KernelIdeal --parts a,b,c, --out-dir proof/Proof
   from the hand-written text of region 1 (RegKI1c.lean): the same text, the region's number substituted. -/
/-
  Region 32, case C (k = 3): the body's run. The product is added to the accumulator as in case B, and then the second
  conditional copies the accumulator over the whole output block.
-/
import proofs.«158944_j64613488001249_1_alg».proof.Proof.RegKI32b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun32_C (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond32_0 i) (hc1 : cond32_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc32__matmul_kernel i arg2 harg2 arg3 harg3 arg4 harg4 arg5 harg5) K } := by
  refine ⟨?_, ?_, fun E K => ?run⟩
  case run =>
    simp only [cc32__matmul_kernel_eq_skeleton]; unfold cc32__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI32.lean ====
/- Laid out by: python3 scratch/layout_regions.py --template-region 1 --region 32 --program KernelIdeal --parts a,b,c, --out-dir proof/Proof
   from the hand-written text of region 1 (RegKI1.lean): the same text, the region's number substituted. -/
/-
  Region 32 of @main, entered from the buffer contents `V`: what its windows' blocks are, what each case of the body leaves in
  the accumulator and in the output block, the accumulator and the output block point by point (`outsAt32`: at k = 0 the
  accumulator restarts from zeros plus the product; at k = 1, 2, 3 it is the point before's plus the product; at k = 3 the
  output block is the accumulator), the region's invariant (the accumulator at `outsAt32`'s second component), the proof data,
  and the body's obligation at every point.
-/
import proofs.«158944_j64613488001249_1_alg».proof.Proof.RegKI32c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk32 (c : Dev nD) (w : Fin cfg32.W) (t : Fin cfg32.N) : ((cfg32.win w).xblock (cfg32.grid.coords t)).Idx → Elt F (cfg32.win w).elt :=
  ((cfg32.win w).blk t).view.read (Elt F) (V c (Pipeline.arrRef spec32 w))

/-- An input window's current staging buffer holds its block at every point, for any proof data whose array is `V`'s and
    whose body leaves the block in place. -/
theorem before32_0_of {c : Dev nD} (dat : Dat τ (Elt F) Unit ℕ (UR sig nD τ) ℕ cfg32 c) (hA : dat.A 0 = V c (Pipeline.arrRef spec32 0))
    (hafter : ∀ t, dat.after 0 t = iblk32 V c 0 t) (t : Fin cfg32.N) (d) : dat.before 0 t d = iblk32 V c 0 t :=
  (dat.before_in_eq_fetched 0 rfl (fun _ => rfl) (fun _ _ _ => rfl) (fun t => by rw [hafter]; unfold Dat.blockOf iblk32; rw [hA]; try rfl) t d).trans
    (by unfold Dat.fetched Dat.blockOf iblk32; rw [hA]; try rfl)
theorem before32_1_of {c : Dev nD} (dat : Dat τ (Elt F) Unit ℕ (UR sig nD τ) ℕ cfg32 c) (hA : dat.A 1 = V c (Pipeline.arrRef spec32 1))
    (hafter : ∀ t, dat.after 1 t = iblk32 V c 1 t) (t : Fin cfg32.N) (d) : dat.before 1 t d = iblk32 V c 1 t :=
  (dat.before_in_eq_fetched 1 rfl (fun _ => rfl) (fun _ _ _ => rfl) (fun t => by rw [hafter]; unfold Dat.blockOf iblk32; rw [hA]; try rfl) t d).trans
    (by unfold Dat.fetched Dat.blockOf iblk32; rw [hA]; try rfl)

/-! ## What each case leaves -/

/-- Case A's stores into the accumulator cover it. -/
theorem scover32_A (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond32_0 i) (hc1 : ¬cond32_1 i)
    (x0 : Vec F S1024x1024 .bf16) (x1 : Vec F S1024x512 .f32) (y : S1024x512.Idx) :
    ∃ pc ∈ (kernelRun32_A c i arg2 harg2 arg3 harg3 arg4 harg4 arg5 harg5 hc0 hc1 x0 x1).2.1, y ∈ pc.1.set :=
  View.cover_of_tiledL (kernelRun32_A c i arg2 harg2 arg3 harg3 arg4 harg4 arg5 harg5 hc0 hc1 x0 x1).2.1 S1024x512.size (by sl_kernel_rfl) y
/-- What case A leaves in the accumulator. -/
noncomputable def sout32_A (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond32_0 i) (hc1 : ¬cond32_1 i)
    (x0 : Vec F S1024x1024 .bf16) (x1 : Vec F S1024x512 .f32) : Vec F S1024x512 .f32 :=
  VS32.read (Elt F) (VS32.writes (Elt F) VS32.junk (kernelRun32_A c i arg2 harg2 arg3 harg3 arg4 harg4 arg5 harg5 hc0 hc1 x0 x1).2.1)

/-- Case B's store into the accumulator covers it. -/
theorem scover32_B (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond32_0 i) (hc1 : ¬cond32_1 i)
    (x0 : Vec F S1024x1024 .bf16) (x1 : Vec F S1024x512 .f32) (xs0 : Vec F S1024x512 .f32) (y : S1024x512.Idx) :
    ∃ pc ∈ (kernelRun32_B c i arg2 harg2 arg3 harg3 arg4 harg4 arg5 harg5 hc0 hc1 x0 x1 xs0).2.1, y ∈ pc.1.set :=
  View.cover_of_tiledL (kernelRun32_B c i arg2 harg2 arg3 harg3 arg4 harg4 arg5 harg5 hc0 hc1 x0 x1 xs0).2.1 S1024x512.size (by sl_kernel_rfl) y
/-- What case B leaves in the accumulator, over what the point before left. -/
noncomputable def sout32_B (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond32_0 i) (hc1 : ¬cond32_1 i)
    (x0 : Vec F S1024x1024 .bf16) (x1 : Vec F S1024x512 .f32) (xs0 : Vec F S1024x512 .f32) : Vec F S1024x512 .f32 :=
  VS32.read (Elt F) (VS32.writes (Elt F) VS32.junk (kernelRun32_B c i arg2 harg2 arg3 harg3 arg4 harg4 arg5 harg5 hc0 hc1 x0 x1 xs0).2.1)

/-- Case C's store into the output block covers it, and so does its store into the accumulator. -/
theorem cover32_C (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond32_0 i) (hc1 : cond32_1 i)
    (x0 : Vec F S1024x1024 .bf16) (x1 : Vec F S1024x512 .f32) (xs0 : Vec F S1024x512 .f32) (y : S1024x512.Idx) :
    ∃ pc ∈ (kernelRun32_C c i arg2 harg2 arg3 harg3 arg4 harg4 arg5 harg5 hc0 hc1 x0 x1 xs0).1, y ∈ pc.1.set :=
  View.cover_of_tiledL (kernelRun32_C c i arg2 harg2 arg3 harg3 arg4 harg4 arg5 harg5 hc0 hc1 x0 x1 xs0).1 S1024x512.size (by sl_kernel_rfl) y
theorem scover32_C (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond32_0 i) (hc1 : cond32_1 i)
    (x0 : Vec F S1024x1024 .bf16) (x1 : Vec F S1024x512 .f32) (xs0 : Vec F S1024x512 .f32) (y : S1024x512.Idx) :
    ∃ pc ∈ (kernelRun32_C c i arg2 harg2 arg3 harg3 arg4 harg4 arg5 harg5 hc0 hc1 x0 x1 xs0).2.1, y ∈ pc.1.set :=
  View.cover_of_tiledL (kernelRun32_C c i arg2 harg2 arg3 harg3 arg4 harg4 arg5 harg5 hc0 hc1 x0 x1 xs0).2.1 S1024x512.size (by sl_kernel_rfl) y
/-- What case C leaves in the output block, and in the accumulator. -/
noncomputable def out32_C (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond32_0 i) (hc1 : cond32_1 i)
    (x0 : Vec F S1024x1024 .bf16) (x1 : Vec F S1024x512 .f32) (xs0 : Vec F S1024x512 .f32) : Vec F S1024x512 .f32 :=
  VO32_2.read (Elt F) (VO32_2.writes (Elt F) VO32_2.junk (kernelRun32_C c i arg2 harg2 arg3 harg3 arg4 harg4 arg5 harg5 hc0 hc1 x0 x1 xs0).1)
noncomputable def sout32_C (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond32_0 i) (hc1 : cond32_1 i)
    (x0 : Vec F S1024x1024 .bf16) (x1 : Vec F S1024x512 .f32) (xs0 : Vec F S1024x512 .f32) : Vec F S1024x512 .f32 :=
  VS32.read (Elt F) (VS32.writes (Elt F) VS32.junk (kernelRun32_C c i arg2 harg2 arg3 harg3 arg4 harg4 arg5 harg5 hc0 hc1 x0 x1 xs0).2.1)

/-- Where the output block is idle nothing consults what it holds: a placeholder. -/
noncomputable def outIdle32 : Vec F S1024x512 .f32 := VO32_2.read (Elt F) (VO32_2.writes (Elt F) VO32_2.junk [])

/-! ## The conditions at a point, from t % 4 -/

theorem isFirst32 (t : Fin cfg32.N) (h : t.val % 4 = 0) : cond32_0 (grid32.coords t) := (hcond32_0 t).mpr h
theorem notFirst32 (t : Fin cfg32.N) (h : ¬t.val % 4 = 0) : ¬cond32_0 (grid32.coords t) := fun hc => h ((hcond32_0 t).mp hc)
theorem isLast32 (t : Fin cfg32.N) (h : t.val % 4 = 3) : cond32_1 (grid32.coords t) := (hcond32_1 t).mpr h
theorem notLast32 (t : Fin cfg32.N) (h : ¬t.val % 4 = 3) : ¬cond32_1 (grid32.coords t) := fun hc => h ((hcond32_1 t).mp hc)

/-! ## The accumulator and the output block, point by point -/

/-- After the body at position `n`: (the output block's buffer, the accumulator). -/
noncomputable def outsAt32 (c : Dev nD) : (n : ℕ) → n < cfg32.N → Vec F S1024x512 .f32 × Vec F S1024x512 .f32
  | 0, hn => (outIdle32, sout32_A c (grid32.coords ⟨0, hn⟩) (ms32_0 ⟨0, hn⟩) (hs32_0 ⟨0, hn⟩) (ms32_1 ⟨0, hn⟩) (hs32_1 ⟨0, hn⟩) (ms32_2 ⟨0, hn⟩) (hs32_2 ⟨0, hn⟩) scM32 (Memref.isWhole_whole _) (isFirst32 ⟨0, hn⟩ (Nat.zero_mod _)) (notLast32 ⟨0, hn⟩ (by simp)) (iblk32 V c 0 ⟨0, hn⟩) (iblk32 V c 1 ⟨0, hn⟩))
  | n + 1, hn =>
    if h0 : (n + 1) % 4 = 0 then
      (outIdle32, sout32_A c (grid32.coords ⟨n + 1, hn⟩) (ms32_0 ⟨n + 1, hn⟩) (hs32_0 ⟨n + 1, hn⟩) (ms32_1 ⟨n + 1, hn⟩) (hs32_1 ⟨n + 1, hn⟩) (ms32_2 ⟨n + 1, hn⟩) (hs32_2 ⟨n + 1, hn⟩) scM32 (Memref.isWhole_whole _) (isFirst32 ⟨n + 1, hn⟩ h0) (notLast32 ⟨n + 1, hn⟩ (by show ¬(n + 1) % 4 = 3; omega)) (iblk32 V c 0 ⟨n + 1, hn⟩) (iblk32 V c 1 ⟨n + 1, hn⟩))
    else if h3 : (n + 1) % 4 = 3 then
      (out32_C c (grid32.coords ⟨n + 1, hn⟩) (ms32_0 ⟨n + 1, hn⟩) (hs32_0 ⟨n + 1, hn⟩) (ms32_1 ⟨n + 1, hn⟩) (hs32_1 ⟨n + 1, hn⟩) (ms32_2 ⟨n + 1, hn⟩) (hs32_2 ⟨n + 1, hn⟩) scM32 (Memref.isWhole_whole _) (notFirst32 ⟨n + 1, hn⟩ h0) (isLast32 ⟨n + 1, hn⟩ h3) (iblk32 V c 0 ⟨n + 1, hn⟩) (iblk32 V c 1 ⟨n + 1, hn⟩) (outsAt32 c n (Nat.lt_of_succ_lt hn)).2,
       sout32_C c (grid32.coords ⟨n + 1, hn⟩) (ms32_0 ⟨n + 1, hn⟩) (hs32_0 ⟨n + 1, hn⟩) (ms32_1 ⟨n + 1, hn⟩) (hs32_1 ⟨n + 1, hn⟩) (ms32_2 ⟨n + 1, hn⟩) (hs32_2 ⟨n + 1, hn⟩) scM32 (Memref.isWhole_whole _) (notFirst32 ⟨n + 1, hn⟩ h0) (isLast32 ⟨n + 1, hn⟩ h3) (iblk32 V c 0 ⟨n + 1, hn⟩) (iblk32 V c 1 ⟨n + 1, hn⟩) (outsAt32 c n (Nat.lt_of_succ_lt hn)).2)
    else
      (outIdle32, sout32_B c (grid32.coords ⟨n + 1, hn⟩) (ms32_0 ⟨n + 1, hn⟩) (hs32_0 ⟨n + 1, hn⟩) (ms32_1 ⟨n + 1, hn⟩) (hs32_1 ⟨n + 1, hn⟩) (ms32_2 ⟨n + 1, hn⟩) (hs32_2 ⟨n + 1, hn⟩) scM32 (Memref.isWhole_whole _) (notFirst32 ⟨n + 1, hn⟩ h0) (notLast32 ⟨n + 1, hn⟩ h3) (iblk32 V c 0 ⟨n + 1, hn⟩) (iblk32 V c 1 ⟨n + 1, hn⟩) (outsAt32 c n (Nat.lt_of_succ_lt hn)).2)

/-- `outsAt32` at a point with k = 0. -/
theorem outsAt32_A (c : Dev nD) (t : Fin cfg32.N) (h0 : t.val % 4 = 0) :
    outsAt32 V c t.val t.isLt = (outIdle32, sout32_A c (grid32.coords t) (ms32_0 t) (hs32_0 t) (ms32_1 t) (hs32_1 t) (ms32_2 t) (hs32_2 t) scM32 (Memref.isWhole_whole _) (isFirst32 t h0) (notLast32 t (by omega)) (iblk32 V c 0 t) (iblk32 V c 1 t)) := by
  obtain ⟨n, hn⟩ := t
  cases n with
  | zero => rfl
  | succ n => exact (dif_pos h0).trans rfl

/-- `outsAt32` at a point with k = 1, 2: over what the point before left. -/
theorem outsAt32_B (c : Dev nD) (t : Fin cfg32.N) (h0 : ¬t.val % 4 = 0) (h3 : ¬t.val % 4 = 3) :
    outsAt32 V c t.val t.isLt = (outIdle32, sout32_B c (grid32.coords t) (ms32_0 t) (hs32_0 t) (ms32_1 t) (hs32_1 t) (ms32_2 t) (hs32_2 t) scM32 (Memref.isWhole_whole _) (notFirst32 t h0) (notLast32 t h3) (iblk32 V c 0 t) (iblk32 V c 1 t)
      (outsAt32 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt32` at a point with k = 3. -/
theorem outsAt32_C (c : Dev nD) (t : Fin cfg32.N) (h0 : ¬t.val % 4 = 0) (h3 : t.val % 4 = 3) :
    outsAt32 V c t.val t.isLt = (out32_C c (grid32.coords t) (ms32_0 t) (hs32_0 t) (ms32_1 t) (hs32_1 t) (ms32_2 t) (hs32_2 t) scM32 (Memref.isWhole_whole _) (notFirst32 t h0) (isLast32 t h3) (iblk32 V c 0 t) (iblk32 V c 1 t)
        (outsAt32 V c (t.val - 1) (Nat.lt_of_le_of_lt (Nat.sub_le _ _) t.isLt)).2,
      sout32_C c (grid32.coords t) (ms32_0 t) (hs32_0 t) (ms32_1 t) (hs32_1 t) (ms32_2 t) (hs32_2 t) scM32 (Memref.isWhole_whole _) (notFirst32 t h0) (isLast32 t h3) (iblk32 V c 0 t) (iblk32 V c 1 t)
        (outsAt32 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS32 (c : Dev nD) : (n : ℕ) → n ≤ cfg32.N → sProp 𝕄
  | 0, _ => Pipeline.ΦA spec32 c
  | n + 1, hn => iprop(iprop(owns (c : Thread nD τ) scM32 fullShare ((outsAt32 V c n hn).2) ∗ restBut32 c) ∗ (∃ r, prngReg c r))

theorem PhiS32_zero (c : Dev nD) (n : ℕ) (h : n ≤ cfg32.N) (hz : n = 0) : PhiS32 V c n h = Pipeline.ΦA spec32 c := by
  subst hz; rfl
theorem PhiS32_succ (c : Dev nD) (n : ℕ) (hn : n < cfg32.N) :
    PhiS32 V c (n + 1) hn = iprop(iprop(owns (c : Thread nD τ) scM32 fullShare ((outsAt32 V c n hn).2) ∗ restBut32 c) ∗ (∃ r, prngReg c r)) := rfl
theorem PhiS32_pos (c : Dev nD) (n : ℕ) (h : n ≤ cfg32.N) (hz : n ≠ 0) :
    PhiS32 V c n h = iprop(iprop(owns (c : Thread nD τ) scM32 fullShare ((outsAt32 V c (n - 1) (by omega)).2) ∗ restBut32 c) ∗ (∃ r, prngReg c r)) := by
  cases n with
  | zero => exact absurd rfl hz
  | succ n => rfl

/-! ## The proof data -/

/-- The region's proof data on core `c`: the arrays as the region finds them; after the body at point `t` each input's
    buffer at its block and the output's at `outsAt32`'s first component; the invariant `PhiS32`; nothing owed; full shares. -/
noncomputable def dat32 (c : Dev nD) : Dat τ (Elt F) Unit ℕ (UR sig nD τ) ℕ cfg32 c where
  A w := V c (Pipeline.arrRef spec32 w)
  after w t := match w with
    | ⟨0, _⟩ => iblk32 V c 0 t
    | ⟨1, _⟩ => iblk32 V c 1 t
    | ⟨2, _⟩ => (outsAt32 V c t.val t.isLt).1
  Φ t := PhiS32 V c t.val (Nat.le_of_lt_succ t.isLt)
  q _ := fullShare
  owed _ := 0

theorem A_eq32 (c : Dev nD) (w : Fin cfg32.W) : (dat32 V c).A w = V c (Pipeline.arrRef spec32 w) := by
  dsimp only [dat32]
theorem PhiS32_castSucc (c : Dev nD) (t : Fin cfg32.N) :
    (dat32 V c).Φ t.castSucc = PhiS32 V c t.val (Nat.le_of_lt t.isLt) := by
  dsimp only [dat32]; simp only [Fin.coe_castSucc]
theorem after32_0 (c : Dev nD) (t : Fin cfg32.N) : (dat32 V c).after 0 t = iblk32 V c 0 t := by dsimp only [dat32]
theorem after32_1 (c : Dev nD) (t : Fin cfg32.N) : (dat32 V c).after 1 t = iblk32 V c 1 t := by dsimp only [dat32]
theorem after32_2 (c : Dev nD) (t : Fin cfg32.N) : (dat32 V c).after 2 t = (outsAt32 V c t.val t.isLt).1 := by dsimp only [dat32]
theorem before32_0 (c : Dev nD) (t : Fin cfg32.N) (d) : (dat32 V c).before 0 t d = iblk32 V c 0 t :=
  before32_0_of V (dat32 V c) (A_eq32 V c 0) (after32_0 V c) t d
theorem before32_1 (c : Dev nD) (t : Fin cfg32.N) (d) : (dat32 V c).before 1 t d = iblk32 V c 1 t :=
  before32_1_of V (dat32 V c) (A_eq32 V c 1) (after32_1 V c) t d

/-! ## The body's obligation -/

noncomputable def bodyPre32 (c : Dev nD) (t : Fin cfg32.N) : sProp 𝕄 :=
  iprop((dat32 V c).Φ t.castSucc ∗ (dat32 V c).owesAt () t.castSucc
    ∗ (∃ d, owns (c : Thread nD τ) (ms32_0 t) fullShare ((dat32 V c).before 0 t d))
    ∗ (∃ d, owns (c : Thread nD τ) (ms32_1 t) fullShare ((dat32 V c).before 1 t d))
    ∗ (∃ d, owns (c : Thread nD τ) (ms32_2 t) fullShare ((dat32 V c).before 2 t d)))

noncomputable def bodyPost32 (c : Dev nD) (t : Fin cfg32.N) : sProp 𝕄 :=
  iprop((dat32 V c).Φ t.succ ∗ (dat32 V c).owesAt () t.succ
    ∗ (dat32 V c).leavesExact 0 t
    ∗ (dat32 V c).leavesExact 1 t
    ∗ (dat32 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body32 (c : Dev nD) (t : Fin cfg32.N) :
    bodyPre32 V c t ⊢ wp frame (wpE (defs₀ (F := F)) Variants.none c none) Set.univ (bodyAt32 t) (fun _ => bodyPost32 V c t) := by
  unfold bodyPre32 bodyPost32 bodyAt32
  simp only [before32_0, before32_1]
  rw [show (dat32 V c).owesAt () t.succ = (dat32 V c).owesAt () t.castSucc from rfl]
  rw [show (dat32 V c).Φ t.succ = PhiS32 V c (t.val + 1) t.isLt from rfl, PhiS32_succ]
  rw [show (dat32 V c).leavesExact 0 t = owns (c : Thread nD τ) (ms32_0 t) fullShare ((dat32 V c).after 0 t) from by
    unfold Dat.leavesExact; rw [liveAt32_0 t], after32_0]
  rw [show (dat32 V c).leavesExact 1 t = owns (c : Thread nD τ) (ms32_1 t) fullShare ((dat32 V c).after 1 t) from by
    unfold Dat.leavesExact; rw [liveAt32_1 t], after32_1]
  by_cases h0 : t.val % 4 = 0
  · have h3 : ¬t.val % 4 = 3 := by omega
    rw [Dat.leavesExact_idle (dat32 V c) 2 t (idleAt32_2 t (notLast32 t h3)) (noFlush32_2 t (notLast32 t h3))]
    rw [outsAt32_A V c t h0]
    unfold sout32_A; (try dsimp only)
    by_cases hz : t.val = 0
    · rw [PhiS32_castSucc V c t, PhiS32_zero V c _ _ hz, PhiA32_eq]
      iintro ⟨⟨⟨HS0, Hrb⟩, Hg⟩, Ho, ⟨%d0, H0⟩, ⟨%d1, H1⟩, ⟨%d2, H2⟩⟩
      iapply ((kernelRun32_A c (grid32.coords t) _ _ _ _ _ _ _ _ (isFirst32 t h0) (notLast32 t (by omega)) (iblk32 V c 0 t) (iblk32 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover32_A c _ _ _ _ _ _ _ _ _ _ _ _ _)
          iexact Hrb
        iexact Hg
      isplitl [Ho]; · iexact Ho
      isplitl [H0]; · iexact H0
      isplitl [H1]; · iexact H1
      iexists _; iexact H2
    · rw [PhiS32_castSucc V c t, PhiS32_pos V c _ _ hz]
      iintro ⟨⟨⟨HS0, Hrb⟩, Hg⟩, Ho, ⟨%d0, H0⟩, ⟨%d1, H1⟩, ⟨%d2, H2⟩⟩
      iapply ((kernelRun32_A c (grid32.coords t) _ _ _ _ _ _ _ _ (isFirst32 t h0) (notLast32 t (by omega)) (iblk32 V c 0 t) (iblk32 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover32_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat32 V c).leavesExact 2 t = owns (c : Thread nD τ) (ms32_2 t) fullShare ((dat32 V c).after 2 t) from by
        unfold Dat.leavesExact; rw [liveAt32_2 t (isLast32 t h3)], after32_2]
      rw [outsAt32_C V c t h0 h3]
      unfold out32_C sout32_C; (try dsimp only)
      rw [PhiS32_castSucc V c t, PhiS32_pos V c _ _ hz]
      iintro ⟨⟨⟨HS0, Hrb⟩, Hg⟩, Ho, ⟨%d0, H0⟩, ⟨%d1, H1⟩, ⟨%d2, H2⟩⟩
      iapply ((kernelRun32_C c (grid32.coords t) _ _ _ _ _ _ _ _ (notFirst32 t h0) (isLast32 t h3) (iblk32 V c 0 t) (iblk32 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover32_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover32_C c _ _ _ _ _ _ _ _ _ _ _ _ _ _)
    · rw [Dat.leavesExact_idle (dat32 V c) 2 t (idleAt32_2 t (notLast32 t h3)) (noFlush32_2 t (notLast32 t h3))]
      rw [outsAt32_B V c t h0 h3]
      unfold sout32_B; (try dsimp only)
      rw [PhiS32_castSucc V c t, PhiS32_pos V c _ _ hz]
      iintro ⟨⟨⟨HS0, Hrb⟩, Hg⟩, Ho, ⟨%d0, H0⟩, ⟨%d1, H1⟩, ⟨%d2, H2⟩⟩
      iapply ((kernelRun32_B c (grid32.coords t) _ _ _ _ _ _ _ _ (notFirst32 t h0) (notLast32 t h3) (iblk32 V c 0 t) (iblk32 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover32_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation32 (c : Dev nD) : BodyObligation (dat32 (F := F) V c) (defs₀ (F := F)) Variants.none () Set.univ := fun t => by
  rw [bigSep_W32, bigSep_W32]
  exact sound_body32 V c t

/-- What the region is entered with is the invariant before the first point. -/
theorem hin32 (c : Dev nD) : Pipeline.ΦA spec32 c ⊢ (dat32 V c).Φ 0 := by
  rw [show (dat32 V c).Φ 0 = PhiS32 V c 0 (Nat.zero_le _) from rfl, PhiS32_zero V c 0 _ rfl]
  try exact Idealize.SL.BI.Entails.refl _

/-- After the last point the invariant gives the class's back: the accumulator's contents are forgotten. -/
theorem hout32 (c : Dev nD) : (dat32 V c).Φ (Fin.last cfg32.N) ⊢ Pipeline.ΦA spec32 c := by
  have hN : cfg32.N = 16 := N_32
  rw [show (dat32 V c).Φ (Fin.last cfg32.N) = PhiS32 V c (Fin.last cfg32.N).val (Nat.le_of_lt_succ (Fin.last cfg32.N).isLt) from rfl,
    PhiS32_pos V c _ _ (by rw [Fin.val_last]; omega), PhiA32_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI33a.lean ====
/- Laid out by: python3 scratch/layout_regions.py --template-region 1 --region 33 --program KernelIdeal --parts a,b,c, --out-dir proof/Proof
   from the hand-written text of region 1 (RegKI1a.lean): the same text, the region's number substituted. -/
/-
  Region 33 of @main (custom_call 33): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond33_0 (i : grid33.Coords) : Prop := (Scalar.cmpi .ne (Scalar.extui (Scalar.cmpi .eq (BitVec.ofNat 32 (i 1).val) 0#32)) 0#32) = 1#1
/-- It holds exactly at the points with t % 4 = 0. -/
theorem hcond33_0 : ∀ t : Fin cfg33.N, cond33_0 (grid33.coords t) ↔ t.val % 4 = 0 :=
  (by decide +kernel : ∀ t : Fin grid33.N, cond33_0 (grid33.coords t) ↔ t.val % 4 = 0)

/-- "k = 3": the second conditional's test. -/
abbrev cond33_1 (i : grid33.Coords) : Prop := k33_cond2 i = 1#1
/-- It holds exactly at the points with t % 4 = 3. -/
theorem hcond33_1 : ∀ t : Fin cfg33.N, cond33_1 (grid33.coords t) ↔ t.val % 4 = 3 :=
  (by decide +kernel : ∀ t : Fin grid33.N, cond33_1 (grid33.coords t) ↔ t.val % 4 = 3)

/-! ## Where the windows are idle, and where the output is written back -/

/-- The two input windows are never idle. -/
theorem liveAt33_0 : ∀ t : Fin cfg33.N, cfg33.idle 0 (grid33.coords t) = false := by decide +kernel
theorem liveAt33_1 : ∀ t : Fin cfg33.N, cfg33.idle 1 (grid33.coords t) = false := by decide +kernel
/-- Where k ≠ 3 the output window is idle (the body stores nothing into it) and is not written back. -/
theorem idleAt33_2 : ∀ t : Fin cfg33.N, ¬cond33_1 (grid33.coords t) → cfg33.idle 2 (grid33.coords t) = true := by decide +kernel
theorem noFlush33_2 : ∀ t : Fin cfg33.N, ¬cond33_1 (grid33.coords t) → (cfg33.win 2).flush t = false := by decide +kernel
/-- Where k = 3 it is live. -/
theorem liveAt33_2 : ∀ t : Fin cfg33.N, cond33_1 (grid33.coords t) → cfg33.idle 2 (grid33.coords t) = false := by decide +kernel

/-! ## The staging memrefs at a point, and the scratch -/

/-- One staging buffer of the output window, through which its contents are stated. -/
abbrev VO33_2 : View sig .tc .vmem S1024x512 .f32 := (Memref.whole cc33_stg2_0 : Memref sig .tc .vmem S1024x512 .f32).view
abbrev ms33_0 (t : Fin cfg33.N) : Memref sig .tc .vmem S1024x1024 .bf16 := win33_0.stage (cfg33.slots t 0)
abbrev hs33_0 (t : Fin cfg33.N) : (ms33_0 t).IsWhole := hstage33_0 ((cfg33.slots t 0).cast nbuf33_0)
abbrev ms33_1 (t : Fin cfg33.N) : Memref sig .tc .vmem S1024x512 .f32 := win33_1.stage (cfg33.slots t 1)
abbrev hs33_1 (t : Fin cfg33.N) : (ms33_1 t).IsWhole := hstage33_1 ((cfg33.slots t 1).cast nbuf33_1)
abbrev ms33_2 (t : Fin cfg33.N) : Memref sig .tc .vmem S1024x512 .f32 := win33_2.stage (cfg33.slots t 2)
abbrev hs33_2 (t : Fin cfg33.N) : (ms33_2 t).IsWhole := hstage33_2 ((cfg33.slots t 2).cast nbuf33_2)
/-- The accumulator: a whole scoped buffer of the kernel's own. -/
abbrev scM33 : Memref sig .tc .vmem S1024x512 .f32 := Memref.whole cc33_scratch0
abbrev VS33 : View sig .tc .vmem S1024x512 .f32 := scM33.view

/-- The other scoped buffers of the core, none of which this region touches. -/
abbrev restBut33 (c : Dev nD) : sProp 𝕄 :=
  Pipeline.scopedRestBut (Ix := Unit) (Name := ℕ) (U := UR sig nD τ) (Lvl := ℕ) (Val := Elt F) spec33 c [cc33_scratch0]

/-- The region's invariant before its first point: the accumulator at something, the other scoped buffers, the generator register. -/
theorem PhiA33_eq (c : Dev nD) :
    (Pipeline.ΦA spec33 c : sProp 𝕄)
      = iprop(iprop((∃ d, owns (c : Thread nD τ) scM33 fullShare d) ∗ restBut33 c) ∗ (∃ r, prngReg c r)) := by
  unfold Pipeline.ΦA; rw [scopedRest33_split]; simp only [scM33, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun33_A (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond33_0 i) (hc1 : ¬cond33_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc33__matmul_kernel i arg2 harg2 arg3 harg3 arg4 harg4 arg5 harg5) K } := by
  refine ⟨[], ?_, fun xi2 E K => ?run⟩
  case run =>
    simp only [cc33__matmul_kernel_eq_skeleton]; unfold cc33__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI33b.lean ====
/- Laid out by: python3 scratch/layout_regions.py --template-region 1 --region 33 --program KernelIdeal --parts a,b,c, --out-dir proof/Proof
   from the hand-written text of region 1 (RegKI1b.lean): the same text, the region's number substituted. -/
/-
  Region 33, case B (k = 1, 2): the body's run. Neither conditional is taken: the product of the two blocks is added to what
  the point before left in the accumulator; the output block is not touched.
-/
import proofs.«158944_j64613488001249_1_alg».proof.Proof.RegKI33a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun33_B (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond33_0 i) (hc1 : ¬cond33_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc33__matmul_kernel i arg2 harg2 arg3 harg3 arg4 harg4 arg5 harg5) K } := by
  refine ⟨[], ?_, fun xi2 E K => ?run⟩
  case run =>
    simp only [cc33__matmul_kernel_eq_skeleton]; unfold cc33__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI33c.lean ====
/- Laid out by: python3 scratch/layout_regions.py --template-region 1 --region 33 --program KernelIdeal --parts a,b,c, --out-dir proof/Proof
   from the hand-written text of region 1 (RegKI1c.lean): the same text, the region's number substituted. -/
/-
  Region 33, case C (k = 3): the body's run. The product is added to the accumulator as in case B, and then the second
  conditional copies the accumulator over the whole output block.
-/
import proofs.«158944_j64613488001249_1_alg».proof.Proof.RegKI33b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun33_C (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond33_0 i) (hc1 : cond33_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc33__matmul_kernel i arg2 harg2 arg3 harg3 arg4 harg4 arg5 harg5) K } := by
  refine ⟨?_, ?_, fun E K => ?run⟩
  case run =>
    simp only [cc33__matmul_kernel_eq_skeleton]; unfold cc33__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI33.lean ====
/- Laid out by: python3 scratch/layout_regions.py --template-region 1 --region 33 --program KernelIdeal --parts a,b,c, --out-dir proof/Proof
   from the hand-written text of region 1 (RegKI1.lean): the same text, the region's number substituted. -/
/-
  Region 33 of @main, entered from the buffer contents `V`: what its windows' blocks are, what each case of the body leaves in
  the accumulator and in the output block, the accumulator and the output block point by point (`outsAt33`: at k = 0 the
  accumulator restarts from zeros plus the product; at k = 1, 2, 3 it is the point before's plus the product; at k = 3 the
  output block is the accumulator), the region's invariant (the accumulator at `outsAt33`'s second component), the proof data,
  and the body's obligation at every point.
-/
import proofs.«158944_j64613488001249_1_alg».proof.Proof.RegKI33c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk33 (c : Dev nD) (w : Fin cfg33.W) (t : Fin cfg33.N) : ((cfg33.win w).xblock (cfg33.grid.coords t)).Idx → Elt F (cfg33.win w).elt :=
  ((cfg33.win w).blk t).view.read (Elt F) (V c (Pipeline.arrRef spec33 w))

/-- An input window's current staging buffer holds its block at every point, for any proof data whose array is `V`'s and
    whose body leaves the block in place. -/
theorem before33_0_of {c : Dev nD} (dat : Dat τ (Elt F) Unit ℕ (UR sig nD τ) ℕ cfg33 c) (hA : dat.A 0 = V c (Pipeline.arrRef spec33 0))
    (hafter : ∀ t, dat.after 0 t = iblk33 V c 0 t) (t : Fin cfg33.N) (d) : dat.before 0 t d = iblk33 V c 0 t :=
  (dat.before_in_eq_fetched 0 rfl (fun _ => rfl) (fun _ _ _ => rfl) (fun t => by rw [hafter]; unfold Dat.blockOf iblk33; rw [hA]; try rfl) t d).trans
    (by unfold Dat.fetched Dat.blockOf iblk33; rw [hA]; try rfl)
theorem before33_1_of {c : Dev nD} (dat : Dat τ (Elt F) Unit ℕ (UR sig nD τ) ℕ cfg33 c) (hA : dat.A 1 = V c (Pipeline.arrRef spec33 1))
    (hafter : ∀ t, dat.after 1 t = iblk33 V c 1 t) (t : Fin cfg33.N) (d) : dat.before 1 t d = iblk33 V c 1 t :=
  (dat.before_in_eq_fetched 1 rfl (fun _ => rfl) (fun _ _ _ => rfl) (fun t => by rw [hafter]; unfold Dat.blockOf iblk33; rw [hA]; try rfl) t d).trans
    (by unfold Dat.fetched Dat.blockOf iblk33; rw [hA]; try rfl)

/-! ## What each case leaves -/

/-- Case A's stores into the accumulator cover it. -/
theorem scover33_A (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond33_0 i) (hc1 : ¬cond33_1 i)
    (x0 : Vec F S1024x1024 .bf16) (x1 : Vec F S1024x512 .f32) (y : S1024x512.Idx) :
    ∃ pc ∈ (kernelRun33_A c i arg2 harg2 arg3 harg3 arg4 harg4 arg5 harg5 hc0 hc1 x0 x1).2.1, y ∈ pc.1.set :=
  View.cover_of_tiledL (kernelRun33_A c i arg2 harg2 arg3 harg3 arg4 harg4 arg5 harg5 hc0 hc1 x0 x1).2.1 S1024x512.size (by sl_kernel_rfl) y
/-- What case A leaves in the accumulator. -/
noncomputable def sout33_A (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond33_0 i) (hc1 : ¬cond33_1 i)
    (x0 : Vec F S1024x1024 .bf16) (x1 : Vec F S1024x512 .f32) : Vec F S1024x512 .f32 :=
  VS33.read (Elt F) (VS33.writes (Elt F) VS33.junk (kernelRun33_A c i arg2 harg2 arg3 harg3 arg4 harg4 arg5 harg5 hc0 hc1 x0 x1).2.1)

/-- Case B's store into the accumulator covers it. -/
theorem scover33_B (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond33_0 i) (hc1 : ¬cond33_1 i)
    (x0 : Vec F S1024x1024 .bf16) (x1 : Vec F S1024x512 .f32) (xs0 : Vec F S1024x512 .f32) (y : S1024x512.Idx) :
    ∃ pc ∈ (kernelRun33_B c i arg2 harg2 arg3 harg3 arg4 harg4 arg5 harg5 hc0 hc1 x0 x1 xs0).2.1, y ∈ pc.1.set :=
  View.cover_of_tiledL (kernelRun33_B c i arg2 harg2 arg3 harg3 arg4 harg4 arg5 harg5 hc0 hc1 x0 x1 xs0).2.1 S1024x512.size (by sl_kernel_rfl) y
/-- What case B leaves in the accumulator, over what the point before left. -/
noncomputable def sout33_B (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond33_0 i) (hc1 : ¬cond33_1 i)
    (x0 : Vec F S1024x1024 .bf16) (x1 : Vec F S1024x512 .f32) (xs0 : Vec F S1024x512 .f32) : Vec F S1024x512 .f32 :=
  VS33.read (Elt F) (VS33.writes (Elt F) VS33.junk (kernelRun33_B c i arg2 harg2 arg3 harg3 arg4 harg4 arg5 harg5 hc0 hc1 x0 x1 xs0).2.1)

/-- Case C's store into the output block covers it, and so does its store into the accumulator. -/
theorem cover33_C (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond33_0 i) (hc1 : cond33_1 i)
    (x0 : Vec F S1024x1024 .bf16) (x1 : Vec F S1024x512 .f32) (xs0 : Vec F S1024x512 .f32) (y : S1024x512.Idx) :
    ∃ pc ∈ (kernelRun33_C c i arg2 harg2 arg3 harg3 arg4 harg4 arg5 harg5 hc0 hc1 x0 x1 xs0).1, y ∈ pc.1.set :=
  View.cover_of_tiledL (kernelRun33_C c i arg2 harg2 arg3 harg3 arg4 harg4 arg5 harg5 hc0 hc1 x0 x1 xs0).1 S1024x512.size (by sl_kernel_rfl) y
theorem scover33_C (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond33_0 i) (hc1 : cond33_1 i)
    (x0 : Vec F S1024x1024 .bf16) (x1 : Vec F S1024x512 .f32) (xs0 : Vec F S1024x512 .f32) (y : S1024x512.Idx) :
    ∃ pc ∈ (kernelRun33_C c i arg2 harg2 arg3 harg3 arg4 harg4 arg5 harg5 hc0 hc1 x0 x1 xs0).2.1, y ∈ pc.1.set :=
  View.cover_of_tiledL (kernelRun33_C c i arg2 harg2 arg3 harg3 arg4 harg4 arg5 harg5 hc0 hc1 x0 x1 xs0).2.1 S1024x512.size (by sl_kernel_rfl) y
/-- What case C leaves in the output block, and in the accumulator. -/
noncomputable def out33_C (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond33_0 i) (hc1 : cond33_1 i)
    (x0 : Vec F S1024x1024 .bf16) (x1 : Vec F S1024x512 .f32) (xs0 : Vec F S1024x512 .f32) : Vec F S1024x512 .f32 :=
  VO33_2.read (Elt F) (VO33_2.writes (Elt F) VO33_2.junk (kernelRun33_C c i arg2 harg2 arg3 harg3 arg4 harg4 arg5 harg5 hc0 hc1 x0 x1 xs0).1)
noncomputable def sout33_C (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond33_0 i) (hc1 : cond33_1 i)
    (x0 : Vec F S1024x1024 .bf16) (x1 : Vec F S1024x512 .f32) (xs0 : Vec F S1024x512 .f32) : Vec F S1024x512 .f32 :=
  VS33.read (Elt F) (VS33.writes (Elt F) VS33.junk (kernelRun33_C c i arg2 harg2 arg3 harg3 arg4 harg4 arg5 harg5 hc0 hc1 x0 x1 xs0).2.1)

/-- Where the output block is idle nothing consults what it holds: a placeholder. -/
noncomputable def outIdle33 : Vec F S1024x512 .f32 := VO33_2.read (Elt F) (VO33_2.writes (Elt F) VO33_2.junk [])

/-! ## The conditions at a point, from t % 4 -/

theorem isFirst33 (t : Fin cfg33.N) (h : t.val % 4 = 0) : cond33_0 (grid33.coords t) := (hcond33_0 t).mpr h
theorem notFirst33 (t : Fin cfg33.N) (h : ¬t.val % 4 = 0) : ¬cond33_0 (grid33.coords t) := fun hc => h ((hcond33_0 t).mp hc)
theorem isLast33 (t : Fin cfg33.N) (h : t.val % 4 = 3) : cond33_1 (grid33.coords t) := (hcond33_1 t).mpr h
theorem notLast33 (t : Fin cfg33.N) (h : ¬t.val % 4 = 3) : ¬cond33_1 (grid33.coords t) := fun hc => h ((hcond33_1 t).mp hc)

/-! ## The accumulator and the output block, point by point -/

/-- After the body at position `n`: (the output block's buffer, the accumulator). -/
noncomputable def outsAt33 (c : Dev nD) : (n : ℕ) → n < cfg33.N → Vec F S1024x512 .f32 × Vec F S1024x512 .f32
  | 0, hn => (outIdle33, sout33_A c (grid33.coords ⟨0, hn⟩) (ms33_0 ⟨0, hn⟩) (hs33_0 ⟨0, hn⟩) (ms33_1 ⟨0, hn⟩) (hs33_1 ⟨0, hn⟩) (ms33_2 ⟨0, hn⟩) (hs33_2 ⟨0, hn⟩) scM33 (Memref.isWhole_whole _) (isFirst33 ⟨0, hn⟩ (Nat.zero_mod _)) (notLast33 ⟨0, hn⟩ (by simp)) (iblk33 V c 0 ⟨0, hn⟩) (iblk33 V c 1 ⟨0, hn⟩))
  | n + 1, hn =>
    if h0 : (n + 1) % 4 = 0 then
      (outIdle33, sout33_A c (grid33.coords ⟨n + 1, hn⟩) (ms33_0 ⟨n + 1, hn⟩) (hs33_0 ⟨n + 1, hn⟩) (ms33_1 ⟨n + 1, hn⟩) (hs33_1 ⟨n + 1, hn⟩) (ms33_2 ⟨n + 1, hn⟩) (hs33_2 ⟨n + 1, hn⟩) scM33 (Memref.isWhole_whole _) (isFirst33 ⟨n + 1, hn⟩ h0) (notLast33 ⟨n + 1, hn⟩ (by show ¬(n + 1) % 4 = 3; omega)) (iblk33 V c 0 ⟨n + 1, hn⟩) (iblk33 V c 1 ⟨n + 1, hn⟩))
    else if h3 : (n + 1) % 4 = 3 then
      (out33_C c (grid33.coords ⟨n + 1, hn⟩) (ms33_0 ⟨n + 1, hn⟩) (hs33_0 ⟨n + 1, hn⟩) (ms33_1 ⟨n + 1, hn⟩) (hs33_1 ⟨n + 1, hn⟩) (ms33_2 ⟨n + 1, hn⟩) (hs33_2 ⟨n + 1, hn⟩) scM33 (Memref.isWhole_whole _) (notFirst33 ⟨n + 1, hn⟩ h0) (isLast33 ⟨n + 1, hn⟩ h3) (iblk33 V c 0 ⟨n + 1, hn⟩) (iblk33 V c 1 ⟨n + 1, hn⟩) (outsAt33 c n (Nat.lt_of_succ_lt hn)).2,
       sout33_C c (grid33.coords ⟨n + 1, hn⟩) (ms33_0 ⟨n + 1, hn⟩) (hs33_0 ⟨n + 1, hn⟩) (ms33_1 ⟨n + 1, hn⟩) (hs33_1 ⟨n + 1, hn⟩) (ms33_2 ⟨n + 1, hn⟩) (hs33_2 ⟨n + 1, hn⟩) scM33 (Memref.isWhole_whole _) (notFirst33 ⟨n + 1, hn⟩ h0) (isLast33 ⟨n + 1, hn⟩ h3) (iblk33 V c 0 ⟨n + 1, hn⟩) (iblk33 V c 1 ⟨n + 1, hn⟩) (outsAt33 c n (Nat.lt_of_succ_lt hn)).2)
    else
      (outIdle33, sout33_B c (grid33.coords ⟨n + 1, hn⟩) (ms33_0 ⟨n + 1, hn⟩) (hs33_0 ⟨n + 1, hn⟩) (ms33_1 ⟨n + 1, hn⟩) (hs33_1 ⟨n + 1, hn⟩) (ms33_2 ⟨n + 1, hn⟩) (hs33_2 ⟨n + 1, hn⟩) scM33 (Memref.isWhole_whole _) (notFirst33 ⟨n + 1, hn⟩ h0) (notLast33 ⟨n + 1, hn⟩ h3) (iblk33 V c 0 ⟨n + 1, hn⟩) (iblk33 V c 1 ⟨n + 1, hn⟩) (outsAt33 c n (Nat.lt_of_succ_lt hn)).2)

/-- `outsAt33` at a point with k = 0. -/
theorem outsAt33_A (c : Dev nD) (t : Fin cfg33.N) (h0 : t.val % 4 = 0) :
    outsAt33 V c t.val t.isLt = (outIdle33, sout33_A c (grid33.coords t) (ms33_0 t) (hs33_0 t) (ms33_1 t) (hs33_1 t) (ms33_2 t) (hs33_2 t) scM33 (Memref.isWhole_whole _) (isFirst33 t h0) (notLast33 t (by omega)) (iblk33 V c 0 t) (iblk33 V c 1 t)) := by
  obtain ⟨n, hn⟩ := t
  cases n with
  | zero => rfl
  | succ n => exact (dif_pos h0).trans rfl

/-- `outsAt33` at a point with k = 1, 2: over what the point before left. -/
theorem outsAt33_B (c : Dev nD) (t : Fin cfg33.N) (h0 : ¬t.val % 4 = 0) (h3 : ¬t.val % 4 = 3) :
    outsAt33 V c t.val t.isLt = (outIdle33, sout33_B c (grid33.coords t) (ms33_0 t) (hs33_0 t) (ms33_1 t) (hs33_1 t) (ms33_2 t) (hs33_2 t) scM33 (Memref.isWhole_whole _) (notFirst33 t h0) (notLast33 t h3) (iblk33 V c 0 t) (iblk33 V c 1 t)
      (outsAt33 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt33` at a point with k = 3. -/
theorem outsAt33_C (c : Dev nD) (t : Fin cfg33.N) (h0 : ¬t.val % 4 = 0) (h3 : t.val % 4 = 3) :
    outsAt33 V c t.val t.isLt = (out33_C c (grid33.coords t) (ms33_0 t) (hs33_0 t) (ms33_1 t) (hs33_1 t) (ms33_2 t) (hs33_2 t) scM33 (Memref.isWhole_whole _) (notFirst33 t h0) (isLast33 t h3) (iblk33 V c 0 t) (iblk33 V c 1 t)
        (outsAt33 V c (t.val - 1) (Nat.lt_of_le_of_lt (Nat.sub_le _ _) t.isLt)).2,
      sout33_C c (grid33.coords t) (ms33_0 t) (hs33_0 t) (ms33_1 t) (hs33_1 t) (ms33_2 t) (hs33_2 t) scM33 (Memref.isWhole_whole _) (notFirst33 t h0) (isLast33 t h3) (iblk33 V c 0 t) (iblk33 V c 1 t)
        (outsAt33 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS33 (c : Dev nD) : (n : ℕ) → n ≤ cfg33.N → sProp 𝕄
  | 0, _ => Pipeline.ΦA spec33 c
  | n + 1, hn => iprop(iprop(owns (c : Thread nD τ) scM33 fullShare ((outsAt33 V c n hn).2) ∗ restBut33 c) ∗ (∃ r, prngReg c r))

theorem PhiS33_zero (c : Dev nD) (n : ℕ) (h : n ≤ cfg33.N) (hz : n = 0) : PhiS33 V c n h = Pipeline.ΦA spec33 c := by
  subst hz; rfl
theorem PhiS33_succ (c : Dev nD) (n : ℕ) (hn : n < cfg33.N) :
    PhiS33 V c (n + 1) hn = iprop(iprop(owns (c : Thread nD τ) scM33 fullShare ((outsAt33 V c n hn).2) ∗ restBut33 c) ∗ (∃ r, prngReg c r)) := rfl
theorem PhiS33_pos (c : Dev nD) (n : ℕ) (h : n ≤ cfg33.N) (hz : n ≠ 0) :
    PhiS33 V c n h = iprop(iprop(owns (c : Thread nD τ) scM33 fullShare ((outsAt33 V c (n - 1) (by omega)).2) ∗ restBut33 c) ∗ (∃ r, prngReg c r)) := by
  cases n with
  | zero => exact absurd rfl hz
  | succ n => rfl

/-! ## The proof data -/

/-- The region's proof data on core `c`: the arrays as the region finds them; after the body at point `t` each input's
    buffer at its block and the output's at `outsAt33`'s first component; the invariant `PhiS33`; nothing owed; full shares. -/
noncomputable def dat33 (c : Dev nD) : Dat τ (Elt F) Unit ℕ (UR sig nD τ) ℕ cfg33 c where
  A w := V c (Pipeline.arrRef spec33 w)
  after w t := match w with
    | ⟨0, _⟩ => iblk33 V c 0 t
    | ⟨1, _⟩ => iblk33 V c 1 t
    | ⟨2, _⟩ => (outsAt33 V c t.val t.isLt).1
  Φ t := PhiS33 V c t.val (Nat.le_of_lt_succ t.isLt)
  q _ := fullShare
  owed _ := 0

theorem A_eq33 (c : Dev nD) (w : Fin cfg33.W) : (dat33 V c).A w = V c (Pipeline.arrRef spec33 w) := by
  dsimp only [dat33]
theorem PhiS33_castSucc (c : Dev nD) (t : Fin cfg33.N) :
    (dat33 V c).Φ t.castSucc = PhiS33 V c t.val (Nat.le_of_lt t.isLt) := by
  dsimp only [dat33]; simp only [Fin.coe_castSucc]
theorem after33_0 (c : Dev nD) (t : Fin cfg33.N) : (dat33 V c).after 0 t = iblk33 V c 0 t := by dsimp only [dat33]
theorem after33_1 (c : Dev nD) (t : Fin cfg33.N) : (dat33 V c).after 1 t = iblk33 V c 1 t := by dsimp only [dat33]
theorem after33_2 (c : Dev nD) (t : Fin cfg33.N) : (dat33 V c).after 2 t = (outsAt33 V c t.val t.isLt).1 := by dsimp only [dat33]
theorem before33_0 (c : Dev nD) (t : Fin cfg33.N) (d) : (dat33 V c).before 0 t d = iblk33 V c 0 t :=
  before33_0_of V (dat33 V c) (A_eq33 V c 0) (after33_0 V c) t d
theorem before33_1 (c : Dev nD) (t : Fin cfg33.N) (d) : (dat33 V c).before 1 t d = iblk33 V c 1 t :=
  before33_1_of V (dat33 V c) (A_eq33 V c 1) (after33_1 V c) t d

/-! ## The body's obligation -/

noncomputable def bodyPre33 (c : Dev nD) (t : Fin cfg33.N) : sProp 𝕄 :=
  iprop((dat33 V c).Φ t.castSucc ∗ (dat33 V c).owesAt () t.castSucc
    ∗ (∃ d, owns (c : Thread nD τ) (ms33_0 t) fullShare ((dat33 V c).before 0 t d))
    ∗ (∃ d, owns (c : Thread nD τ) (ms33_1 t) fullShare ((dat33 V c).before 1 t d))
    ∗ (∃ d, owns (c : Thread nD τ) (ms33_2 t) fullShare ((dat33 V c).before 2 t d)))

noncomputable def bodyPost33 (c : Dev nD) (t : Fin cfg33.N) : sProp 𝕄 :=
  iprop((dat33 V c).Φ t.succ ∗ (dat33 V c).owesAt () t.succ
    ∗ (dat33 V c).leavesExact 0 t
    ∗ (dat33 V c).leavesExact 1 t
    ∗ (dat33 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body33 (c : Dev nD) (t : Fin cfg33.N) :
    bodyPre33 V c t ⊢ wp frame (wpE (defs₀ (F := F)) Variants.none c none) Set.univ (bodyAt33 t) (fun _ => bodyPost33 V c t) := by
  unfold bodyPre33 bodyPost33 bodyAt33
  simp only [before33_0, before33_1]
  rw [show (dat33 V c).owesAt () t.succ = (dat33 V c).owesAt () t.castSucc from rfl]
  rw [show (dat33 V c).Φ t.succ = PhiS33 V c (t.val + 1) t.isLt from rfl, PhiS33_succ]
  rw [show (dat33 V c).leavesExact 0 t = owns (c : Thread nD τ) (ms33_0 t) fullShare ((dat33 V c).after 0 t) from by
    unfold Dat.leavesExact; rw [liveAt33_0 t], after33_0]
  rw [show (dat33 V c).leavesExact 1 t = owns (c : Thread nD τ) (ms33_1 t) fullShare ((dat33 V c).after 1 t) from by
    unfold Dat.leavesExact; rw [liveAt33_1 t], after33_1]
  by_cases h0 : t.val % 4 = 0
  · have h3 : ¬t.val % 4 = 3 := by omega
    rw [Dat.leavesExact_idle (dat33 V c) 2 t (idleAt33_2 t (notLast33 t h3)) (noFlush33_2 t (notLast33 t h3))]
    rw [outsAt33_A V c t h0]
    unfold sout33_A; (try dsimp only)
    by_cases hz : t.val = 0
    · rw [PhiS33_castSucc V c t, PhiS33_zero V c _ _ hz, PhiA33_eq]
      iintro ⟨⟨⟨HS0, Hrb⟩, Hg⟩, Ho, ⟨%d0, H0⟩, ⟨%d1, H1⟩, ⟨%d2, H2⟩⟩
      iapply ((kernelRun33_A c (grid33.coords t) _ _ _ _ _ _ _ _ (isFirst33 t h0) (notLast33 t (by omega)) (iblk33 V c 0 t) (iblk33 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover33_A c _ _ _ _ _ _ _ _ _ _ _ _ _)
          iexact Hrb
        iexact Hg
      isplitl [Ho]; · iexact Ho
      isplitl [H0]; · iexact H0
      isplitl [H1]; · iexact H1
      iexists _; iexact H2
    · rw [PhiS33_castSucc V c t, PhiS33_pos V c _ _ hz]
      iintro ⟨⟨⟨HS0, Hrb⟩, Hg⟩, Ho, ⟨%d0, H0⟩, ⟨%d1, H1⟩, ⟨%d2, H2⟩⟩
      iapply ((kernelRun33_A c (grid33.coords t) _ _ _ _ _ _ _ _ (isFirst33 t h0) (notLast33 t (by omega)) (iblk33 V c 0 t) (iblk33 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover33_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat33 V c).leavesExact 2 t = owns (c : Thread nD τ) (ms33_2 t) fullShare ((dat33 V c).after 2 t) from by
        unfold Dat.leavesExact; rw [liveAt33_2 t (isLast33 t h3)], after33_2]
      rw [outsAt33_C V c t h0 h3]
      unfold out33_C sout33_C; (try dsimp only)
      rw [PhiS33_castSucc V c t, PhiS33_pos V c _ _ hz]
      iintro ⟨⟨⟨HS0, Hrb⟩, Hg⟩, Ho, ⟨%d0, H0⟩, ⟨%d1, H1⟩, ⟨%d2, H2⟩⟩
      iapply ((kernelRun33_C c (grid33.coords t) _ _ _ _ _ _ _ _ (notFirst33 t h0) (isLast33 t h3) (iblk33 V c 0 t) (iblk33 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover33_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover33_C c _ _ _ _ _ _ _ _ _ _ _ _ _ _)
    · rw [Dat.leavesExact_idle (dat33 V c) 2 t (idleAt33_2 t (notLast33 t h3)) (noFlush33_2 t (notLast33 t h3))]
      rw [outsAt33_B V c t h0 h3]
      unfold sout33_B; (try dsimp only)
      rw [PhiS33_castSucc V c t, PhiS33_pos V c _ _ hz]
      iintro ⟨⟨⟨HS0, Hrb⟩, Hg⟩, Ho, ⟨%d0, H0⟩, ⟨%d1, H1⟩, ⟨%d2, H2⟩⟩
      iapply ((kernelRun33_B c (grid33.coords t) _ _ _ _ _ _ _ _ (notFirst33 t h0) (notLast33 t h3) (iblk33 V c 0 t) (iblk33 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover33_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation33 (c : Dev nD) : BodyObligation (dat33 (F := F) V c) (defs₀ (F := F)) Variants.none () Set.univ := fun t => by
  rw [bigSep_W33, bigSep_W33]
  exact sound_body33 V c t

/-- What the region is entered with is the invariant before the first point. -/
theorem hin33 (c : Dev nD) : Pipeline.ΦA spec33 c ⊢ (dat33 V c).Φ 0 := by
  rw [show (dat33 V c).Φ 0 = PhiS33 V c 0 (Nat.zero_le _) from rfl, PhiS33_zero V c 0 _ rfl]
  try exact Idealize.SL.BI.Entails.refl _

/-- After the last point the invariant gives the class's back: the accumulator's contents are forgotten. -/
theorem hout33 (c : Dev nD) : (dat33 V c).Φ (Fin.last cfg33.N) ⊢ Pipeline.ΦA spec33 c := by
  have hN : cfg33.N = 16 := N_33
  rw [show (dat33 V c).Φ (Fin.last cfg33.N) = PhiS33 V c (Fin.last cfg33.N).val (Nat.le_of_lt_succ (Fin.last cfg33.N).isLt) from rfl,
    PhiS33_pos V c _ _ (by rw [Fin.val_last]; omega), PhiA33_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI34a.lean ====
/- Laid out by: python3 scratch/layout_grid41.py --template-region 0 --region 34 --program KernelIdeal --parts a, --shapes S1024x128=S1024x512,S128x512=S512x512
   from the hand-written text of region 0 (RegKI0a.lean): the same text, the region's number, block shapes substituted. -/
/- The region of KernelIdeal's @main that runs `cc34__matmul_kernel` (pipeline `cfg34`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond34_0 (i : grid34.Coords) : Prop :=
  (Scalar.cmpi .ne (Scalar.extui (Scalar.cmpi .eq (BitVec.ofNat 32 (i 1).val) 0#32)) 0#32) = 1#1
/-- True at every point: the reduction axis has one step. -/
theorem hcond34_0 : ∀ t : Fin cfg34.N, cond34_0 (grid34.coords t) :=
  (by decide +kernel : ∀ t : Fin grid34.N, cond34_0 (grid34.coords t))

/-- "This is the last reduction step" (the guard of the copy to the output block). -/
abbrev cond34_1 (i : grid34.Coords) : Prop := k34_cond2 i = 1#1
/-- True at every point, for the same reason. -/
theorem hcond34_1 : ∀ t : Fin cfg34.N, cond34_1 (grid34.coords t) :=
  (by decide +kernel : ∀ t : Fin grid34.N, cond34_1 (grid34.coords t))

/-! ## No window is idle anywhere -/

theorem liveAt34_0 : ∀ t : Fin cfg34.N, cfg34.idle 0 (grid34.coords t) = false := by decide +kernel
theorem liveAt34_1 : ∀ t : Fin cfg34.N, cfg34.idle 1 (grid34.coords t) = false := by decide +kernel
/-- The output window is stored at every point (the copy's guard holds everywhere). -/
theorem liveAt34_2 : ∀ t : Fin cfg34.N, cfg34.idle 2 (grid34.coords t) = false := by decide +kernel

/-! ## The memrefs the body is called on -/

/-- One staging buffer of the output window, through which its contents are stated (any whole view of the shape reads the
    same pieces back the same way). -/
abbrev VO34_2 : View sig .tc .vmem S1024x512 .f32 := (Memref.whole cc34_stg2_0 : Memref sig .tc .vmem S1024x512 .f32).view
/-- Each window's current staging memref at point `t`, spelt as the pipeline passes it, with its wholeness. -/
abbrev ms34_0 (t : Fin cfg34.N) : Memref sig .tc .vmem S1024x512 .f32 := win34_0.stage (cfg34.slots t 0)
abbrev hs34_0 (t : Fin cfg34.N) : (ms34_0 t).IsWhole := hstage34_0 ((cfg34.slots t 0).cast nbuf34_0)
abbrev ms34_1 (t : Fin cfg34.N) : Memref sig .tc .vmem S512x512 .bf16 := win34_1.stage (cfg34.slots t 1)
abbrev hs34_1 (t : Fin cfg34.N) : (ms34_1 t).IsWhole := hstage34_1 ((cfg34.slots t 1).cast nbuf34_1)
abbrev ms34_2 (t : Fin cfg34.N) : Memref sig .tc .vmem S1024x512 .f32 := win34_2.stage (cfg34.slots t 2)
abbrev hs34_2 (t : Fin cfg34.N) : (ms34_2 t).IsWhole := hstage34_2 ((cfg34.slots t 2).cast nbuf34_2)
/-- The accumulator: a whole scoped buffer of the kernel's own, passed beside the windows. -/
abbrev scM34_0 : Memref sig .tc .vmem S1024x512 .f32 := Memref.whole cc34_scratch0
abbrev VS34_0 : View sig .tc .vmem S1024x512 .f32 := scM34_0.view

/-- The region invariant with the accumulator taken out of the scoped rest: the accumulator owned at some contents, every
    other scoped buffer unopened, and the generator register. -/
theorem PhiA34_eq (c : Dev nD) :
    (Pipeline.ΦA spec34 c : sProp 𝕄)
      = iprop(iprop(iprop((∃ d, owns (c : Thread nD τ) scM34_0 fullShare d))
            ∗ Pipeline.scopedRestBut (Ix := Unit) (Name := ℕ) (U := UR sig nD τ) (Lvl := ℕ) (Val := Elt F) spec34 c [cc34_scratch0])
          ∗ (∃ r, prngReg c r)) := by
  unfold Pipeline.ΦA; rw [scopedRest34_split]; simp only [scM34_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun34 (c : Dev nD) (i : grid34.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond34_0 i) (hlast : cond34_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc34__matmul_kernel i arg2 harg2 arg3 harg3 arg4 harg4 arg5 harg5) K } := by
  refine ⟨?_, ?_, fun E K => ?run⟩
  case run =>
    simp only [cc34__matmul_kernel_eq_skeleton]; unfold cc34__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.KernelIdeal.Hand

end
-- ==== Proof.RegKI34.lean ====
/- Laid out by: python3 scratch/layout_grid41.py --template-region 0 --region 34 --program KernelIdeal --parts a, --shapes S1024x128=S1024x512,S128x512=S512x512
   from the hand-written text of region 0 (RegKI0.lean): the same text, the region's number, block shapes substituted. -/
/- The region of KernelIdeal's @main that runs `cc34__matmul_kernel` (pipeline `cfg34`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegKI34a
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk34 (c : Dev nD) (w : Fin cfg34.W) (t : Fin cfg34.N) : ((cfg34.win w).xblock (cfg34.grid.coords t)).Idx → Elt F (cfg34.win w).elt :=
  ((cfg34.win w).blk t).view.read (Elt F) (V c (Pipeline.arrRef spec34 w))

/-! ## What the case leaves, as pieces read back -/

/-- The output's pieces tile its block (one whole-block store). -/
theorem cover34_2 (c : Dev nD) (i : grid34.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond34_0 i) (hlast : cond34_1 i) (xa : Vec F S1024x512 .f32) (xb : Vec F S512x512 .bf16) (y : S1024x512.Idx) :
    ∃ pc ∈ (kernelRun34 c i arg2 harg2 arg3 harg3 arg4 harg4 arg5 harg5 hfirst hlast xa xb).1, y ∈ pc.1.set :=
  View.cover_of_tiledL (kernelRun34 c i arg2 harg2 arg3 harg3 arg4 harg4 arg5 harg5 hfirst hlast xa xb).1 S1024x512.size (by sl_kernel_rfl) y

/-- What the case leaves in the output's staging buffer: its pieces read back over junk. -/
noncomputable def out34_2 (c : Dev nD) (i : grid34.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond34_0 i) (hlast : cond34_1 i) (xa : Vec F S1024x512 .f32) (xb : Vec F S512x512 .bf16) : Vec F S1024x512 .f32 :=
  VO34_2.read (Elt F) (VO34_2.writes (Elt F) VO34_2.junk (kernelRun34 c i arg2 harg2 arg3 harg3 arg4 harg4 arg5 harg5 hfirst hlast xa xb).1)

/-- What the case leaves in the accumulator: its pieces read back over junk. -/
noncomputable def sout34_0 (c : Dev nD) (i : grid34.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond34_0 i) (hlast : cond34_1 i) (xa : Vec F S1024x512 .f32) (xb : Vec F S512x512 .bf16) : Vec F S1024x512 .f32 :=
  VS34_0.read (Elt F) (VS34_0.writes (Elt F) VS34_0.junk (kernelRun34 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout34_0_eq (c : Dev nD) (i : grid34.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond34_0 i) (hlast : cond34_1 i) (xa : Vec F S1024x512 .f32) (xb : Vec F S512x512 .bf16) :
    sout34_0 c i arg2 harg2 arg3 harg3 arg4 harg4 arg5 harg5 hfirst hlast xa xb = k34_pay2 xa xb (k34_pay1 (F := F)) := by
  unfold sout34_0
  rw [View.read_writes_junk_eq_canon]
  unfold kernelRun34
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out34_2_eq (c : Dev nD) (i : grid34.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond34_0 i) (hlast : cond34_1 i) (xa : Vec F S1024x512 .f32) (xb : Vec F S512x512 .bf16) :
    out34_2 c i arg2 harg2 arg3 harg3 arg4 harg4 arg5 harg5 hfirst hlast xa xb = k34_pay2 xa xb (k34_pay1 (F := F)) := by
  unfold out34_2
  rw [View.read_writes_junk_eq_canon]
  unfold kernelRun34
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt34 (c : Dev nD) (n : ℕ) (hn : n < cfg34.N) : Vec F S1024x512 .f32 × Vec F S1024x512 .f32 :=
  (out34_2 c (grid34.coords ⟨n, hn⟩) (ms34_0 ⟨n, hn⟩) (hs34_0 ⟨n, hn⟩) (ms34_1 ⟨n, hn⟩) (hs34_1 ⟨n, hn⟩) (ms34_2 ⟨n, hn⟩) (hs34_2 ⟨n, hn⟩) scM34_0 (Memref.isWhole_whole _)
      (hcond34_0 ⟨n, hn⟩) (hcond34_1 ⟨n, hn⟩) (iblk34 V c 0 ⟨n, hn⟩) (iblk34 V c 1 ⟨n, hn⟩),
   sout34_0 c (grid34.coords ⟨n, hn⟩) (ms34_0 ⟨n, hn⟩) (hs34_0 ⟨n, hn⟩) (ms34_1 ⟨n, hn⟩) (hs34_1 ⟨n, hn⟩) (ms34_2 ⟨n, hn⟩) (hs34_2 ⟨n, hn⟩) scM34_0 (Memref.isWhole_whole _)
      (hcond34_0 ⟨n, hn⟩) (hcond34_1 ⟨n, hn⟩) (iblk34 V c 0 ⟨n, hn⟩) (iblk34 V c 1 ⟨n, hn⟩))

/-- Every point is a first reduction step: the accumulator after it is one product onto zero. -/
theorem outsAt34_first (c : Dev nD) (t : Fin cfg34.N) :
    (outsAt34 V c t.val t.isLt).2 = k34_pay2 (iblk34 V c 0 t) (iblk34 V c 1 t) (k34_pay1 (F := F)) := by
  obtain ⟨n, hn⟩ := t
  unfold outsAt34
  dsimp only
  rw [sout34_0_eq]

/-- Every point is a last reduction step: the output block after it is the accumulator. -/
theorem outsAt34_last (c : Dev nD) (t : Fin cfg34.N) :
    (outsAt34 V c t.val t.isLt).1 = (outsAt34 V c t.val t.isLt).2 := by
  obtain ⟨n, hn⟩ := t
  unfold outsAt34
  dsimp only
  rw [out34_2_eq, sout34_0_eq]

/-! ## The pipeline's proof data -/

/-- The proof data of the pipeline on core `c`: the arrays as the region finds them; after the body at point `t` each input's
    buffer at its block and the output's at `outsAt34`'s first component; the invariant the same at every point; nothing owed;
    full shares. -/
noncomputable def dat34 (c : Dev nD) : Dat τ (Elt F) Unit ℕ (UR sig nD τ) ℕ cfg34 c where
  A w := V c (Pipeline.arrRef spec34 w)
  after w t := match w with
    | ⟨0, _⟩ => iblk34 V c 0 t
    | ⟨1, _⟩ => iblk34 V c 1 t
    | ⟨2, _⟩ => (outsAt34 V c t.val t.isLt).1
  Φ _ := Pipeline.ΦA spec34 c
  q _ := fullShare
  owed _ := 0

theorem A_eq34 (c : Dev nD) (w : Fin cfg34.W) : (dat34 V c).A w = V c (Pipeline.arrRef spec34 w) := by
  dsimp only [dat34]

theorem after34_0 (c : Dev nD) (t : Fin cfg34.N) : (dat34 V c).after 0 t = iblk34 V c 0 t := by dsimp only [dat34]
theorem after34_1 (c : Dev nD) (t : Fin cfg34.N) : (dat34 V c).after 1 t = iblk34 V c 1 t := by dsimp only [dat34]
theorem after34_2 (c : Dev nD) (t : Fin cfg34.N) : (dat34 V c).after 2 t = (outsAt34 V c t.val t.isLt).1 := by dsimp only [dat34]

/-- An input's current staging buffer holds its block at every point, fetched there or not: where it is not fetched its block
    index has not moved since the point before, and the body left the block in place. -/
theorem before34_0 (c : Dev nD) (t : Fin cfg34.N) (d) : (dat34 V c).before 0 t d = iblk34 V c 0 t :=
  ((dat34 V c).before_in_eq_fetched 0 rfl (fun _ => rfl) (fun _ _ _ => rfl)
      (fun t => by rw [after34_0]; unfold Dat.blockOf iblk34; rw [A_eq34]; try rfl) t d).trans
    (by unfold Dat.fetched Dat.blockOf iblk34; rw [A_eq34]; try rfl)
theorem before34_1 (c : Dev nD) (t : Fin cfg34.N) (d) : (dat34 V c).before 1 t d = iblk34 V c 1 t :=
  ((dat34 V c).before_in_eq_fetched 1 rfl (fun _ => rfl) (fun _ _ _ => rfl)
      (fun t => by rw [after34_1]; unfold Dat.blockOf iblk34; rw [A_eq34]; try rfl) t d).trans
    (by unfold Dat.fetched Dat.blockOf iblk34; rw [A_eq34]; try rfl)

/-! ## The body obligation, at a generic point -/

/-- What the body is called with at point `t`, the windows one by one, -/
noncomputable def bodyPre34 (c : Dev nD) (t : Fin cfg34.N) : sProp 𝕄 :=
  iprop((dat34 V c).Φ t.castSucc ∗ (dat34 V c).owesAt () t.castSucc
    ∗ (∃ d, owns (c : Thread nD τ) (ms34_0 t) fullShare ((dat34 V c).before 0 t d))
    ∗ (∃ d, owns (c : Thread nD τ) (ms34_1 t) fullShare ((dat34 V c).before 1 t d))
    ∗ (∃ d, owns (c : Thread nD τ) (ms34_2 t) fullShare ((dat34 V c).before 2 t d)))

/-- and what it returns. -/
noncomputable def bodyPost34 (c : Dev nD) (t : Fin cfg34.N) : sProp 𝕄 :=
  iprop((dat34 V c).Φ t.succ ∗ (dat34 V c).owesAt () t.succ
    ∗ (dat34 V c).leavesExact 0 t
    ∗ (dat34 V c).leavesExact 1 t
    ∗ (dat34 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body34 (c : Dev nD) (t : Fin cfg34.N) :
    bodyPre34 V c t ⊢ wp frame (wpE (defs₀ (F := F)) Variants.none c none) Set.univ (bodyAt34 t) (fun _ => bodyPost34 V c t) := by
  unfold bodyPre34 bodyPost34 bodyAt34
  simp only [before34_0, before34_1]
  rw [show (dat34 V c).owesAt () t.succ = (dat34 V c).owesAt () t.castSucc from rfl,
    show (dat34 V c).Φ t.succ = Pipeline.ΦA spec34 c from rfl, show (dat34 V c).Φ t.castSucc = Pipeline.ΦA spec34 c from rfl, PhiA34_eq]
  rw [show (dat34 V c).leavesExact 0 t = owns (c : Thread nD τ) (ms34_0 t) fullShare ((dat34 V c).after 0 t) from by
      unfold Dat.leavesExact; rw [liveAt34_0 t], after34_0]
  rw [show (dat34 V c).leavesExact 1 t = owns (c : Thread nD τ) (ms34_1 t) fullShare ((dat34 V c).after 1 t) from by
      unfold Dat.leavesExact; rw [liveAt34_1 t], after34_1]
  rw [show (dat34 V c).leavesExact 2 t = owns (c : Thread nD τ) (ms34_2 t) fullShare ((dat34 V c).after 2 t) from by
      unfold Dat.leavesExact; rw [liveAt34_2 t], after34_2]
  unfold outsAt34 out34_2; (try dsimp only)
  iintro ⟨⟨⟨Hacc, Hrest⟩, Hgen⟩, Howe, ⟨%da, Ha⟩, ⟨%db, Hb⟩, ⟨%dO, Hout⟩⟩
  iapply ((kernelRun34 c (grid34.coords t) _ _ _ _ _ _ _ _ (hcond34_0 t) (hcond34_1 t) (iblk34 V c 0 t) (iblk34 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover34_2 c _ _ _ _ _ _ _ _ _ _ _ _ _)

/-- The library's body obligation, at every point. -/
theorem body_obligation34 (c : Dev nD) : BodyObligation (dat34 (F := F) V c) (defs₀ (F := F)) Variants.none () Set.univ := fun t => by
  rw [bigSep_W34, bigSep_W34]
  exact sound_body34 V c t

/-- What the launch hands the region is the invariant before the first point, -/
theorem hin34 (c : Dev nD) : Pipeline.ΦA spec34 c ⊢ (dat34 V c).Φ 0 := Idealize.SL.BI.Entails.refl _

/-- and the invariant after the last point is what the launch takes back. -/
theorem hout34 (c : Dev nD) : (dat34 V c).Φ (Fin.last cfg34.N) ⊢ Pipeline.ΦA spec34 c := Idealize.SL.BI.Entails.refl _

end Cert.KernelIdeal.Hand

end
-- ==== Proof.RegKI35a.lean ====
/- Laid out by: python3 scratch/layout_regions.py --template-region 1 --region 35 --program KernelIdeal --parts a,b,c, --out-dir proof/Proof
   from the hand-written text of region 1 (RegKI1a.lean): the same text, the region's number substituted. -/
/-
  Region 35 of @main (custom_call 35): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond35_0 (i : grid35.Coords) : Prop := (Scalar.cmpi .ne (Scalar.extui (Scalar.cmpi .eq (BitVec.ofNat 32 (i 1).val) 0#32)) 0#32) = 1#1
/-- It holds exactly at the points with t % 4 = 0. -/
theorem hcond35_0 : ∀ t : Fin cfg35.N, cond35_0 (grid35.coords t) ↔ t.val % 4 = 0 :=
  (by decide +kernel : ∀ t : Fin grid35.N, cond35_0 (grid35.coords t) ↔ t.val % 4 = 0)

/-- "k = 3": the second conditional's test. -/
abbrev cond35_1 (i : grid35.Coords) : Prop := k35_cond2 i = 1#1
/-- It holds exactly at the points with t % 4 = 3. -/
theorem hcond35_1 : ∀ t : Fin cfg35.N, cond35_1 (grid35.coords t) ↔ t.val % 4 = 3 :=
  (by decide +kernel : ∀ t : Fin grid35.N, cond35_1 (grid35.coords t) ↔ t.val % 4 = 3)

/-! ## Where the windows are idle, and where the output is written back -/

/-- The two input windows are never idle. -/
theorem liveAt35_0 : ∀ t : Fin cfg35.N, cfg35.idle 0 (grid35.coords t) = false := by decide +kernel
theorem liveAt35_1 : ∀ t : Fin cfg35.N, cfg35.idle 1 (grid35.coords t) = false := by decide +kernel
/-- Where k ≠ 3 the output window is idle (the body stores nothing into it) and is not written back. -/
theorem idleAt35_2 : ∀ t : Fin cfg35.N, ¬cond35_1 (grid35.coords t) → cfg35.idle 2 (grid35.coords t) = true := by decide +kernel
theorem noFlush35_2 : ∀ t : Fin cfg35.N, ¬cond35_1 (grid35.coords t) → (cfg35.win 2).flush t = false := by decide +kernel
/-- Where k = 3 it is live. -/
theorem liveAt35_2 : ∀ t : Fin cfg35.N, cond35_1 (grid35.coords t) → cfg35.idle 2 (grid35.coords t) = false := by decide +kernel

/-! ## The staging memrefs at a point, and the scratch -/

/-- One staging buffer of the output window, through which its contents are stated. -/
abbrev VO35_2 : View sig .tc .vmem S1024x512 .f32 := (Memref.whole cc35_stg2_0 : Memref sig .tc .vmem S1024x512 .f32).view
abbrev ms35_0 (t : Fin cfg35.N) : Memref sig .tc .vmem S1024x1024 .bf16 := win35_0.stage (cfg35.slots t 0)
abbrev hs35_0 (t : Fin cfg35.N) : (ms35_0 t).IsWhole := hstage35_0 ((cfg35.slots t 0).cast nbuf35_0)
abbrev ms35_1 (t : Fin cfg35.N) : Memref sig .tc .vmem S1024x512 .f32 := win35_1.stage (cfg35.slots t 1)
abbrev hs35_1 (t : Fin cfg35.N) : (ms35_1 t).IsWhole := hstage35_1 ((cfg35.slots t 1).cast nbuf35_1)
abbrev ms35_2 (t : Fin cfg35.N) : Memref sig .tc .vmem S1024x512 .f32 := win35_2.stage (cfg35.slots t 2)
abbrev hs35_2 (t : Fin cfg35.N) : (ms35_2 t).IsWhole := hstage35_2 ((cfg35.slots t 2).cast nbuf35_2)
/-- The accumulator: a whole scoped buffer of the kernel's own. -/
abbrev scM35 : Memref sig .tc .vmem S1024x512 .f32 := Memref.whole cc35_scratch0
abbrev VS35 : View sig .tc .vmem S1024x512 .f32 := scM35.view

/-- The other scoped buffers of the core, none of which this region touches. -/
abbrev restBut35 (c : Dev nD) : sProp 𝕄 :=
  Pipeline.scopedRestBut (Ix := Unit) (Name := ℕ) (U := UR sig nD τ) (Lvl := ℕ) (Val := Elt F) spec35 c [cc35_scratch0]

/-- The region's invariant before its first point: the accumulator at something, the other scoped buffers, the generator register. -/
theorem PhiA35_eq (c : Dev nD) :
    (Pipeline.ΦA spec35 c : sProp 𝕄)
      = iprop(iprop((∃ d, owns (c : Thread nD τ) scM35 fullShare d) ∗ restBut35 c) ∗ (∃ r, prngReg c r)) := by
  unfold Pipeline.ΦA; rw [scopedRest35_split]; simp only [scM35, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun35_A (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond35_0 i) (hc1 : ¬cond35_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc35__matmul_kernel i arg2 harg2 arg3 harg3 arg4 harg4 arg5 harg5) K } := by
  refine ⟨[], ?_, fun xi2 E K => ?run⟩
  case run =>
    simp only [cc35__matmul_kernel_eq_skeleton]; unfold cc35__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI35b.lean ====
/- Laid out by: python3 scratch/layout_regions.py --template-region 1 --region 35 --program KernelIdeal --parts a,b,c, --out-dir proof/Proof
   from the hand-written text of region 1 (RegKI1b.lean): the same text, the region's number substituted. -/
/-
  Region 35, case B (k = 1, 2): the body's run. Neither conditional is taken: the product of the two blocks is added to what
  the point before left in the accumulator; the output block is not touched.
-/
import proofs.«158944_j64613488001249_1_alg».proof.Proof.RegKI35a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun35_B (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond35_0 i) (hc1 : ¬cond35_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc35__matmul_kernel i arg2 harg2 arg3 harg3 arg4 harg4 arg5 harg5) K } := by
  refine ⟨[], ?_, fun xi2 E K => ?run⟩
  case run =>
    simp only [cc35__matmul_kernel_eq_skeleton]; unfold cc35__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI35c.lean ====
/- Laid out by: python3 scratch/layout_regions.py --template-region 1 --region 35 --program KernelIdeal --parts a,b,c, --out-dir proof/Proof
   from the hand-written text of region 1 (RegKI1c.lean): the same text, the region's number substituted. -/
/-
  Region 35, case C (k = 3): the body's run. The product is added to the accumulator as in case B, and then the second
  conditional copies the accumulator over the whole output block.
-/
import proofs.«158944_j64613488001249_1_alg».proof.Proof.RegKI35b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun35_C (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond35_0 i) (hc1 : cond35_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc35__matmul_kernel i arg2 harg2 arg3 harg3 arg4 harg4 arg5 harg5) K } := by
  refine ⟨?_, ?_, fun E K => ?run⟩
  case run =>
    simp only [cc35__matmul_kernel_eq_skeleton]; unfold cc35__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI35.lean ====
/- Laid out by: python3 scratch/layout_regions.py --template-region 1 --region 35 --program KernelIdeal --parts a,b,c, --out-dir proof/Proof
   from the hand-written text of region 1 (RegKI1.lean): the same text, the region's number substituted. -/
/-
  Region 35 of @main, entered from the buffer contents `V`: what its windows' blocks are, what each case of the body leaves in
  the accumulator and in the output block, the accumulator and the output block point by point (`outsAt35`: at k = 0 the
  accumulator restarts from zeros plus the product; at k = 1, 2, 3 it is the point before's plus the product; at k = 3 the
  output block is the accumulator), the region's invariant (the accumulator at `outsAt35`'s second component), the proof data,
  and the body's obligation at every point.
-/
import proofs.«158944_j64613488001249_1_alg».proof.Proof.RegKI35c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk35 (c : Dev nD) (w : Fin cfg35.W) (t : Fin cfg35.N) : ((cfg35.win w).xblock (cfg35.grid.coords t)).Idx → Elt F (cfg35.win w).elt :=
  ((cfg35.win w).blk t).view.read (Elt F) (V c (Pipeline.arrRef spec35 w))

/-- An input window's current staging buffer holds its block at every point, for any proof data whose array is `V`'s and
    whose body leaves the block in place. -/
theorem before35_0_of {c : Dev nD} (dat : Dat τ (Elt F) Unit ℕ (UR sig nD τ) ℕ cfg35 c) (hA : dat.A 0 = V c (Pipeline.arrRef spec35 0))
    (hafter : ∀ t, dat.after 0 t = iblk35 V c 0 t) (t : Fin cfg35.N) (d) : dat.before 0 t d = iblk35 V c 0 t :=
  (dat.before_in_eq_fetched 0 rfl (fun _ => rfl) (fun _ _ _ => rfl) (fun t => by rw [hafter]; unfold Dat.blockOf iblk35; rw [hA]; try rfl) t d).trans
    (by unfold Dat.fetched Dat.blockOf iblk35; rw [hA]; try rfl)
theorem before35_1_of {c : Dev nD} (dat : Dat τ (Elt F) Unit ℕ (UR sig nD τ) ℕ cfg35 c) (hA : dat.A 1 = V c (Pipeline.arrRef spec35 1))
    (hafter : ∀ t, dat.after 1 t = iblk35 V c 1 t) (t : Fin cfg35.N) (d) : dat.before 1 t d = iblk35 V c 1 t :=
  (dat.before_in_eq_fetched 1 rfl (fun _ => rfl) (fun _ _ _ => rfl) (fun t => by rw [hafter]; unfold Dat.blockOf iblk35; rw [hA]; try rfl) t d).trans
    (by unfold Dat.fetched Dat.blockOf iblk35; rw [hA]; try rfl)

/-! ## What each case leaves -/

/-- Case A's stores into the accumulator cover it. -/
theorem scover35_A (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond35_0 i) (hc1 : ¬cond35_1 i)
    (x0 : Vec F S1024x1024 .bf16) (x1 : Vec F S1024x512 .f32) (y : S1024x512.Idx) :
    ∃ pc ∈ (kernelRun35_A c i arg2 harg2 arg3 harg3 arg4 harg4 arg5 harg5 hc0 hc1 x0 x1).2.1, y ∈ pc.1.set :=
  View.cover_of_tiledL (kernelRun35_A c i arg2 harg2 arg3 harg3 arg4 harg4 arg5 harg5 hc0 hc1 x0 x1).2.1 S1024x512.size (by sl_kernel_rfl) y
/-- What case A leaves in the accumulator. -/
noncomputable def sout35_A (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond35_0 i) (hc1 : ¬cond35_1 i)
    (x0 : Vec F S1024x1024 .bf16) (x1 : Vec F S1024x512 .f32) : Vec F S1024x512 .f32 :=
  VS35.read (Elt F) (VS35.writes (Elt F) VS35.junk (kernelRun35_A c i arg2 harg2 arg3 harg3 arg4 harg4 arg5 harg5 hc0 hc1 x0 x1).2.1)

/-- Case B's store into the accumulator covers it. -/
theorem scover35_B (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond35_0 i) (hc1 : ¬cond35_1 i)
    (x0 : Vec F S1024x1024 .bf16) (x1 : Vec F S1024x512 .f32) (xs0 : Vec F S1024x512 .f32) (y : S1024x512.Idx) :
    ∃ pc ∈ (kernelRun35_B c i arg2 harg2 arg3 harg3 arg4 harg4 arg5 harg5 hc0 hc1 x0 x1 xs0).2.1, y ∈ pc.1.set :=
  View.cover_of_tiledL (kernelRun35_B c i arg2 harg2 arg3 harg3 arg4 harg4 arg5 harg5 hc0 hc1 x0 x1 xs0).2.1 S1024x512.size (by sl_kernel_rfl) y
/-- What case B leaves in the accumulator, over what the point before left. -/
noncomputable def sout35_B (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond35_0 i) (hc1 : ¬cond35_1 i)
    (x0 : Vec F S1024x1024 .bf16) (x1 : Vec F S1024x512 .f32) (xs0 : Vec F S1024x512 .f32) : Vec F S1024x512 .f32 :=
  VS35.read (Elt F) (VS35.writes (Elt F) VS35.junk (kernelRun35_B c i arg2 harg2 arg3 harg3 arg4 harg4 arg5 harg5 hc0 hc1 x0 x1 xs0).2.1)

/-- Case C's store into the output block covers it, and so does its store into the accumulator. -/
theorem cover35_C (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond35_0 i) (hc1 : cond35_1 i)
    (x0 : Vec F S1024x1024 .bf16) (x1 : Vec F S1024x512 .f32) (xs0 : Vec F S1024x512 .f32) (y : S1024x512.Idx) :
    ∃ pc ∈ (kernelRun35_C c i arg2 harg2 arg3 harg3 arg4 harg4 arg5 harg5 hc0 hc1 x0 x1 xs0).1, y ∈ pc.1.set :=
  View.cover_of_tiledL (kernelRun35_C c i arg2 harg2 arg3 harg3 arg4 harg4 arg5 harg5 hc0 hc1 x0 x1 xs0).1 S1024x512.size (by sl_kernel_rfl) y
theorem scover35_C (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond35_0 i) (hc1 : cond35_1 i)
    (x0 : Vec F S1024x1024 .bf16) (x1 : Vec F S1024x512 .f32) (xs0 : Vec F S1024x512 .f32) (y : S1024x512.Idx) :
    ∃ pc ∈ (kernelRun35_C c i arg2 harg2 arg3 harg3 arg4 harg4 arg5 harg5 hc0 hc1 x0 x1 xs0).2.1, y ∈ pc.1.set :=
  View.cover_of_tiledL (kernelRun35_C c i arg2 harg2 arg3 harg3 arg4 harg4 arg5 harg5 hc0 hc1 x0 x1 xs0).2.1 S1024x512.size (by sl_kernel_rfl) y
/-- What case C leaves in the output block, and in the accumulator. -/
noncomputable def out35_C (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond35_0 i) (hc1 : cond35_1 i)
    (x0 : Vec F S1024x1024 .bf16) (x1 : Vec F S1024x512 .f32) (xs0 : Vec F S1024x512 .f32) : Vec F S1024x512 .f32 :=
  VO35_2.read (Elt F) (VO35_2.writes (Elt F) VO35_2.junk (kernelRun35_C c i arg2 harg2 arg3 harg3 arg4 harg4 arg5 harg5 hc0 hc1 x0 x1 xs0).1)
noncomputable def sout35_C (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond35_0 i) (hc1 : cond35_1 i)
    (x0 : Vec F S1024x1024 .bf16) (x1 : Vec F S1024x512 .f32) (xs0 : Vec F S1024x512 .f32) : Vec F S1024x512 .f32 :=
  VS35.read (Elt F) (VS35.writes (Elt F) VS35.junk (kernelRun35_C c i arg2 harg2 arg3 harg3 arg4 harg4 arg5 harg5 hc0 hc1 x0 x1 xs0).2.1)

/-- Where the output block is idle nothing consults what it holds: a placeholder. -/
noncomputable def outIdle35 : Vec F S1024x512 .f32 := VO35_2.read (Elt F) (VO35_2.writes (Elt F) VO35_2.junk [])

/-! ## The conditions at a point, from t % 4 -/

theorem isFirst35 (t : Fin cfg35.N) (h : t.val % 4 = 0) : cond35_0 (grid35.coords t) := (hcond35_0 t).mpr h
theorem notFirst35 (t : Fin cfg35.N) (h : ¬t.val % 4 = 0) : ¬cond35_0 (grid35.coords t) := fun hc => h ((hcond35_0 t).mp hc)
theorem isLast35 (t : Fin cfg35.N) (h : t.val % 4 = 3) : cond35_1 (grid35.coords t) := (hcond35_1 t).mpr h
theorem notLast35 (t : Fin cfg35.N) (h : ¬t.val % 4 = 3) : ¬cond35_1 (grid35.coords t) := fun hc => h ((hcond35_1 t).mp hc)

/-! ## The accumulator and the output block, point by point -/

/-- After the body at position `n`: (the output block's buffer, the accumulator). -/
noncomputable def outsAt35 (c : Dev nD) : (n : ℕ) → n < cfg35.N → Vec F S1024x512 .f32 × Vec F S1024x512 .f32
  | 0, hn => (outIdle35, sout35_A c (grid35.coords ⟨0, hn⟩) (ms35_0 ⟨0, hn⟩) (hs35_0 ⟨0, hn⟩) (ms35_1 ⟨0, hn⟩) (hs35_1 ⟨0, hn⟩) (ms35_2 ⟨0, hn⟩) (hs35_2 ⟨0, hn⟩) scM35 (Memref.isWhole_whole _) (isFirst35 ⟨0, hn⟩ (Nat.zero_mod _)) (notLast35 ⟨0, hn⟩ (by simp)) (iblk35 V c 0 ⟨0, hn⟩) (iblk35 V c 1 ⟨0, hn⟩))
  | n + 1, hn =>
    if h0 : (n + 1) % 4 = 0 then
      (outIdle35, sout35_A c (grid35.coords ⟨n + 1, hn⟩) (ms35_0 ⟨n + 1, hn⟩) (hs35_0 ⟨n + 1, hn⟩) (ms35_1 ⟨n + 1, hn⟩) (hs35_1 ⟨n + 1, hn⟩) (ms35_2 ⟨n + 1, hn⟩) (hs35_2 ⟨n + 1, hn⟩) scM35 (Memref.isWhole_whole _) (isFirst35 ⟨n + 1, hn⟩ h0) (notLast35 ⟨n + 1, hn⟩ (by show ¬(n + 1) % 4 = 3; omega)) (iblk35 V c 0 ⟨n + 1, hn⟩) (iblk35 V c 1 ⟨n + 1, hn⟩))
    else if h3 : (n + 1) % 4 = 3 then
      (out35_C c (grid35.coords ⟨n + 1, hn⟩) (ms35_0 ⟨n + 1, hn⟩) (hs35_0 ⟨n + 1, hn⟩) (ms35_1 ⟨n + 1, hn⟩) (hs35_1 ⟨n + 1, hn⟩) (ms35_2 ⟨n + 1, hn⟩) (hs35_2 ⟨n + 1, hn⟩) scM35 (Memref.isWhole_whole _) (notFirst35 ⟨n + 1, hn⟩ h0) (isLast35 ⟨n + 1, hn⟩ h3) (iblk35 V c 0 ⟨n + 1, hn⟩) (iblk35 V c 1 ⟨n + 1, hn⟩) (outsAt35 c n (Nat.lt_of_succ_lt hn)).2,
       sout35_C c (grid35.coords ⟨n + 1, hn⟩) (ms35_0 ⟨n + 1, hn⟩) (hs35_0 ⟨n + 1, hn⟩) (ms35_1 ⟨n + 1, hn⟩) (hs35_1 ⟨n + 1, hn⟩) (ms35_2 ⟨n + 1, hn⟩) (hs35_2 ⟨n + 1, hn⟩) scM35 (Memref.isWhole_whole _) (notFirst35 ⟨n + 1, hn⟩ h0) (isLast35 ⟨n + 1, hn⟩ h3) (iblk35 V c 0 ⟨n + 1, hn⟩) (iblk35 V c 1 ⟨n + 1, hn⟩) (outsAt35 c n (Nat.lt_of_succ_lt hn)).2)
    else
      (outIdle35, sout35_B c (grid35.coords ⟨n + 1, hn⟩) (ms35_0 ⟨n + 1, hn⟩) (hs35_0 ⟨n + 1, hn⟩) (ms35_1 ⟨n + 1, hn⟩) (hs35_1 ⟨n + 1, hn⟩) (ms35_2 ⟨n + 1, hn⟩) (hs35_2 ⟨n + 1, hn⟩) scM35 (Memref.isWhole_whole _) (notFirst35 ⟨n + 1, hn⟩ h0) (notLast35 ⟨n + 1, hn⟩ h3) (iblk35 V c 0 ⟨n + 1, hn⟩) (iblk35 V c 1 ⟨n + 1, hn⟩) (outsAt35 c n (Nat.lt_of_succ_lt hn)).2)

/-- `outsAt35` at a point with k = 0. -/
theorem outsAt35_A (c : Dev nD) (t : Fin cfg35.N) (h0 : t.val % 4 = 0) :
    outsAt35 V c t.val t.isLt = (outIdle35, sout35_A c (grid35.coords t) (ms35_0 t) (hs35_0 t) (ms35_1 t) (hs35_1 t) (ms35_2 t) (hs35_2 t) scM35 (Memref.isWhole_whole _) (isFirst35 t h0) (notLast35 t (by omega)) (iblk35 V c 0 t) (iblk35 V c 1 t)) := by
  obtain ⟨n, hn⟩ := t
  cases n with
  | zero => rfl
  | succ n => exact (dif_pos h0).trans rfl

/-- `outsAt35` at a point with k = 1, 2: over what the point before left. -/
theorem outsAt35_B (c : Dev nD) (t : Fin cfg35.N) (h0 : ¬t.val % 4 = 0) (h3 : ¬t.val % 4 = 3) :
    outsAt35 V c t.val t.isLt = (outIdle35, sout35_B c (grid35.coords t) (ms35_0 t) (hs35_0 t) (ms35_1 t) (hs35_1 t) (ms35_2 t) (hs35_2 t) scM35 (Memref.isWhole_whole _) (notFirst35 t h0) (notLast35 t h3) (iblk35 V c 0 t) (iblk35 V c 1 t)
      (outsAt35 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt35` at a point with k = 3. -/
theorem outsAt35_C (c : Dev nD) (t : Fin cfg35.N) (h0 : ¬t.val % 4 = 0) (h3 : t.val % 4 = 3) :
    outsAt35 V c t.val t.isLt = (out35_C c (grid35.coords t) (ms35_0 t) (hs35_0 t) (ms35_1 t) (hs35_1 t) (ms35_2 t) (hs35_2 t) scM35 (Memref.isWhole_whole _) (notFirst35 t h0) (isLast35 t h3) (iblk35 V c 0 t) (iblk35 V c 1 t)
        (outsAt35 V c (t.val - 1) (Nat.lt_of_le_of_lt (Nat.sub_le _ _) t.isLt)).2,
      sout35_C c (grid35.coords t) (ms35_0 t) (hs35_0 t) (ms35_1 t) (hs35_1 t) (ms35_2 t) (hs35_2 t) scM35 (Memref.isWhole_whole _) (notFirst35 t h0) (isLast35 t h3) (iblk35 V c 0 t) (iblk35 V c 1 t)
        (outsAt35 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS35 (c : Dev nD) : (n : ℕ) → n ≤ cfg35.N → sProp 𝕄
  | 0, _ => Pipeline.ΦA spec35 c
  | n + 1, hn => iprop(iprop(owns (c : Thread nD τ) scM35 fullShare ((outsAt35 V c n hn).2) ∗ restBut35 c) ∗ (∃ r, prngReg c r))

theorem PhiS35_zero (c : Dev nD) (n : ℕ) (h : n ≤ cfg35.N) (hz : n = 0) : PhiS35 V c n h = Pipeline.ΦA spec35 c := by
  subst hz; rfl
theorem PhiS35_succ (c : Dev nD) (n : ℕ) (hn : n < cfg35.N) :
    PhiS35 V c (n + 1) hn = iprop(iprop(owns (c : Thread nD τ) scM35 fullShare ((outsAt35 V c n hn).2) ∗ restBut35 c) ∗ (∃ r, prngReg c r)) := rfl
theorem PhiS35_pos (c : Dev nD) (n : ℕ) (h : n ≤ cfg35.N) (hz : n ≠ 0) :
    PhiS35 V c n h = iprop(iprop(owns (c : Thread nD τ) scM35 fullShare ((outsAt35 V c (n - 1) (by omega)).2) ∗ restBut35 c) ∗ (∃ r, prngReg c r)) := by
  cases n with
  | zero => exact absurd rfl hz
  | succ n => rfl

/-! ## The proof data -/

/-- The region's proof data on core `c`: the arrays as the region finds them; after the body at point `t` each input's
    buffer at its block and the output's at `outsAt35`'s first component; the invariant `PhiS35`; nothing owed; full shares. -/
noncomputable def dat35 (c : Dev nD) : Dat τ (Elt F) Unit ℕ (UR sig nD τ) ℕ cfg35 c where
  A w := V c (Pipeline.arrRef spec35 w)
  after w t := match w with
    | ⟨0, _⟩ => iblk35 V c 0 t
    | ⟨1, _⟩ => iblk35 V c 1 t
    | ⟨2, _⟩ => (outsAt35 V c t.val t.isLt).1
  Φ t := PhiS35 V c t.val (Nat.le_of_lt_succ t.isLt)
  q _ := fullShare
  owed _ := 0

theorem A_eq35 (c : Dev nD) (w : Fin cfg35.W) : (dat35 V c).A w = V c (Pipeline.arrRef spec35 w) := by
  dsimp only [dat35]
theorem PhiS35_castSucc (c : Dev nD) (t : Fin cfg35.N) :
    (dat35 V c).Φ t.castSucc = PhiS35 V c t.val (Nat.le_of_lt t.isLt) := by
  dsimp only [dat35]; simp only [Fin.coe_castSucc]
theorem after35_0 (c : Dev nD) (t : Fin cfg35.N) : (dat35 V c).after 0 t = iblk35 V c 0 t := by dsimp only [dat35]
theorem after35_1 (c : Dev nD) (t : Fin cfg35.N) : (dat35 V c).after 1 t = iblk35 V c 1 t := by dsimp only [dat35]
theorem after35_2 (c : Dev nD) (t : Fin cfg35.N) : (dat35 V c).after 2 t = (outsAt35 V c t.val t.isLt).1 := by dsimp only [dat35]
theorem before35_0 (c : Dev nD) (t : Fin cfg35.N) (d) : (dat35 V c).before 0 t d = iblk35 V c 0 t :=
  before35_0_of V (dat35 V c) (A_eq35 V c 0) (after35_0 V c) t d
theorem before35_1 (c : Dev nD) (t : Fin cfg35.N) (d) : (dat35 V c).before 1 t d = iblk35 V c 1 t :=
  before35_1_of V (dat35 V c) (A_eq35 V c 1) (after35_1 V c) t d

/-! ## The body's obligation -/

noncomputable def bodyPre35 (c : Dev nD) (t : Fin cfg35.N) : sProp 𝕄 :=
  iprop((dat35 V c).Φ t.castSucc ∗ (dat35 V c).owesAt () t.castSucc
    ∗ (∃ d, owns (c : Thread nD τ) (ms35_0 t) fullShare ((dat35 V c).before 0 t d))
    ∗ (∃ d, owns (c : Thread nD τ) (ms35_1 t) fullShare ((dat35 V c).before 1 t d))
    ∗ (∃ d, owns (c : Thread nD τ) (ms35_2 t) fullShare ((dat35 V c).before 2 t d)))

noncomputable def bodyPost35 (c : Dev nD) (t : Fin cfg35.N) : sProp 𝕄 :=
  iprop((dat35 V c).Φ t.succ ∗ (dat35 V c).owesAt () t.succ
    ∗ (dat35 V c).leavesExact 0 t
    ∗ (dat35 V c).leavesExact 1 t
    ∗ (dat35 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body35 (c : Dev nD) (t : Fin cfg35.N) :
    bodyPre35 V c t ⊢ wp frame (wpE (defs₀ (F := F)) Variants.none c none) Set.univ (bodyAt35 t) (fun _ => bodyPost35 V c t) := by
  unfold bodyPre35 bodyPost35 bodyAt35
  simp only [before35_0, before35_1]
  rw [show (dat35 V c).owesAt () t.succ = (dat35 V c).owesAt () t.castSucc from rfl]
  rw [show (dat35 V c).Φ t.succ = PhiS35 V c (t.val + 1) t.isLt from rfl, PhiS35_succ]
  rw [show (dat35 V c).leavesExact 0 t = owns (c : Thread nD τ) (ms35_0 t) fullShare ((dat35 V c).after 0 t) from by
    unfold Dat.leavesExact; rw [liveAt35_0 t], after35_0]
  rw [show (dat35 V c).leavesExact 1 t = owns (c : Thread nD τ) (ms35_1 t) fullShare ((dat35 V c).after 1 t) from by
    unfold Dat.leavesExact; rw [liveAt35_1 t], after35_1]
  by_cases h0 : t.val % 4 = 0
  · have h3 : ¬t.val % 4 = 3 := by omega
    rw [Dat.leavesExact_idle (dat35 V c) 2 t (idleAt35_2 t (notLast35 t h3)) (noFlush35_2 t (notLast35 t h3))]
    rw [outsAt35_A V c t h0]
    unfold sout35_A; (try dsimp only)
    by_cases hz : t.val = 0
    · rw [PhiS35_castSucc V c t, PhiS35_zero V c _ _ hz, PhiA35_eq]
      iintro ⟨⟨⟨HS0, Hrb⟩, Hg⟩, Ho, ⟨%d0, H0⟩, ⟨%d1, H1⟩, ⟨%d2, H2⟩⟩
      iapply ((kernelRun35_A c (grid35.coords t) _ _ _ _ _ _ _ _ (isFirst35 t h0) (notLast35 t (by omega)) (iblk35 V c 0 t) (iblk35 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover35_A c _ _ _ _ _ _ _ _ _ _ _ _ _)
          iexact Hrb
        iexact Hg
      isplitl [Ho]; · iexact Ho
      isplitl [H0]; · iexact H0
      isplitl [H1]; · iexact H1
      iexists _; iexact H2
    · rw [PhiS35_castSucc V c t, PhiS35_pos V c _ _ hz]
      iintro ⟨⟨⟨HS0, Hrb⟩, Hg⟩, Ho, ⟨%d0, H0⟩, ⟨%d1, H1⟩, ⟨%d2, H2⟩⟩
      iapply ((kernelRun35_A c (grid35.coords t) _ _ _ _ _ _ _ _ (isFirst35 t h0) (notLast35 t (by omega)) (iblk35 V c 0 t) (iblk35 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover35_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat35 V c).leavesExact 2 t = owns (c : Thread nD τ) (ms35_2 t) fullShare ((dat35 V c).after 2 t) from by
        unfold Dat.leavesExact; rw [liveAt35_2 t (isLast35 t h3)], after35_2]
      rw [outsAt35_C V c t h0 h3]
      unfold out35_C sout35_C; (try dsimp only)
      rw [PhiS35_castSucc V c t, PhiS35_pos V c _ _ hz]
      iintro ⟨⟨⟨HS0, Hrb⟩, Hg⟩, Ho, ⟨%d0, H0⟩, ⟨%d1, H1⟩, ⟨%d2, H2⟩⟩
      iapply ((kernelRun35_C c (grid35.coords t) _ _ _ _ _ _ _ _ (notFirst35 t h0) (isLast35 t h3) (iblk35 V c 0 t) (iblk35 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover35_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover35_C c _ _ _ _ _ _ _ _ _ _ _ _ _ _)
    · rw [Dat.leavesExact_idle (dat35 V c) 2 t (idleAt35_2 t (notLast35 t h3)) (noFlush35_2 t (notLast35 t h3))]
      rw [outsAt35_B V c t h0 h3]
      unfold sout35_B; (try dsimp only)
      rw [PhiS35_castSucc V c t, PhiS35_pos V c _ _ hz]
      iintro ⟨⟨⟨HS0, Hrb⟩, Hg⟩, Ho, ⟨%d0, H0⟩, ⟨%d1, H1⟩, ⟨%d2, H2⟩⟩
      iapply ((kernelRun35_B c (grid35.coords t) _ _ _ _ _ _ _ _ (notFirst35 t h0) (notLast35 t h3) (iblk35 V c 0 t) (iblk35 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover35_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation35 (c : Dev nD) : BodyObligation (dat35 (F := F) V c) (defs₀ (F := F)) Variants.none () Set.univ := fun t => by
  rw [bigSep_W35, bigSep_W35]
  exact sound_body35 V c t

/-- What the region is entered with is the invariant before the first point. -/
theorem hin35 (c : Dev nD) : Pipeline.ΦA spec35 c ⊢ (dat35 V c).Φ 0 := by
  rw [show (dat35 V c).Φ 0 = PhiS35 V c 0 (Nat.zero_le _) from rfl, PhiS35_zero V c 0 _ rfl]
  try exact Idealize.SL.BI.Entails.refl _

/-- After the last point the invariant gives the class's back: the accumulator's contents are forgotten. -/
theorem hout35 (c : Dev nD) : (dat35 V c).Φ (Fin.last cfg35.N) ⊢ Pipeline.ΦA spec35 c := by
  have hN : cfg35.N = 16 := N_35
  rw [show (dat35 V c).Φ (Fin.last cfg35.N) = PhiS35 V c (Fin.last cfg35.N).val (Nat.le_of_lt_succ (Fin.last cfg35.N).isLt) from rfl,
    PhiS35_pos V c _ _ (by rw [Fin.val_last]; omega), PhiA35_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI36a.lean ====
/- Laid out by: python3 scratch/layout_regions.py --template-region 1 --region 36 --program KernelIdeal --parts a,b,c, --out-dir proof/Proof
   from the hand-written text of region 1 (RegKI1a.lean): the same text, the region's number substituted. -/
/-
  Region 36 of @main (custom_call 36): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond36_0 (i : grid36.Coords) : Prop := (Scalar.cmpi .ne (Scalar.extui (Scalar.cmpi .eq (BitVec.ofNat 32 (i 1).val) 0#32)) 0#32) = 1#1
/-- It holds exactly at the points with t % 4 = 0. -/
theorem hcond36_0 : ∀ t : Fin cfg36.N, cond36_0 (grid36.coords t) ↔ t.val % 4 = 0 :=
  (by decide +kernel : ∀ t : Fin grid36.N, cond36_0 (grid36.coords t) ↔ t.val % 4 = 0)

/-- "k = 3": the second conditional's test. -/
abbrev cond36_1 (i : grid36.Coords) : Prop := k36_cond2 i = 1#1
/-- It holds exactly at the points with t % 4 = 3. -/
theorem hcond36_1 : ∀ t : Fin cfg36.N, cond36_1 (grid36.coords t) ↔ t.val % 4 = 3 :=
  (by decide +kernel : ∀ t : Fin grid36.N, cond36_1 (grid36.coords t) ↔ t.val % 4 = 3)

/-! ## Where the windows are idle, and where the output is written back -/

/-- The two input windows are never idle. -/
theorem liveAt36_0 : ∀ t : Fin cfg36.N, cfg36.idle 0 (grid36.coords t) = false := by decide +kernel
theorem liveAt36_1 : ∀ t : Fin cfg36.N, cfg36.idle 1 (grid36.coords t) = false := by decide +kernel
/-- Where k ≠ 3 the output window is idle (the body stores nothing into it) and is not written back. -/
theorem idleAt36_2 : ∀ t : Fin cfg36.N, ¬cond36_1 (grid36.coords t) → cfg36.idle 2 (grid36.coords t) = true := by decide +kernel
theorem noFlush36_2 : ∀ t : Fin cfg36.N, ¬cond36_1 (grid36.coords t) → (cfg36.win 2).flush t = false := by decide +kernel
/-- Where k = 3 it is live. -/
theorem liveAt36_2 : ∀ t : Fin cfg36.N, cond36_1 (grid36.coords t) → cfg36.idle 2 (grid36.coords t) = false := by decide +kernel

/-! ## The staging memrefs at a point, and the scratch -/

/-- One staging buffer of the output window, through which its contents are stated. -/
abbrev VO36_2 : View sig .tc .vmem S1024x512 .f32 := (Memref.whole cc36_stg2_0 : Memref sig .tc .vmem S1024x512 .f32).view
abbrev ms36_0 (t : Fin cfg36.N) : Memref sig .tc .vmem S1024x1024 .bf16 := win36_0.stage (cfg36.slots t 0)
abbrev hs36_0 (t : Fin cfg36.N) : (ms36_0 t).IsWhole := hstage36_0 ((cfg36.slots t 0).cast nbuf36_0)
abbrev ms36_1 (t : Fin cfg36.N) : Memref sig .tc .vmem S1024x512 .f32 := win36_1.stage (cfg36.slots t 1)
abbrev hs36_1 (t : Fin cfg36.N) : (ms36_1 t).IsWhole := hstage36_1 ((cfg36.slots t 1).cast nbuf36_1)
abbrev ms36_2 (t : Fin cfg36.N) : Memref sig .tc .vmem S1024x512 .f32 := win36_2.stage (cfg36.slots t 2)
abbrev hs36_2 (t : Fin cfg36.N) : (ms36_2 t).IsWhole := hstage36_2 ((cfg36.slots t 2).cast nbuf36_2)
/-- The accumulator: a whole scoped buffer of the kernel's own. -/
abbrev scM36 : Memref sig .tc .vmem S1024x512 .f32 := Memref.whole cc36_scratch0
abbrev VS36 : View sig .tc .vmem S1024x512 .f32 := scM36.view

/-- The other scoped buffers of the core, none of which this region touches. -/
abbrev restBut36 (c : Dev nD) : sProp 𝕄 :=
  Pipeline.scopedRestBut (Ix := Unit) (Name := ℕ) (U := UR sig nD τ) (Lvl := ℕ) (Val := Elt F) spec36 c [cc36_scratch0]

/-- The region's invariant before its first point: the accumulator at something, the other scoped buffers, the generator register. -/
theorem PhiA36_eq (c : Dev nD) :
    (Pipeline.ΦA spec36 c : sProp 𝕄)
      = iprop(iprop((∃ d, owns (c : Thread nD τ) scM36 fullShare d) ∗ restBut36 c) ∗ (∃ r, prngReg c r)) := by
  unfold Pipeline.ΦA; rw [scopedRest36_split]; simp only [scM36, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun36_A (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond36_0 i) (hc1 : ¬cond36_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc36__matmul_kernel i arg2 harg2 arg3 harg3 arg4 harg4 arg5 harg5) K } := by
  refine ⟨[], ?_, fun xi2 E K => ?run⟩
  case run =>
    simp only [cc36__matmul_kernel_eq_skeleton]; unfold cc36__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI36b.lean ====
/- Laid out by: python3 scratch/layout_regions.py --template-region 1 --region 36 --program KernelIdeal --parts a,b,c, --out-dir proof/Proof
   from the hand-written text of region 1 (RegKI1b.lean): the same text, the region's number substituted. -/
/-
  Region 36, case B (k = 1, 2): the body's run. Neither conditional is taken: the product of the two blocks is added to what
  the point before left in the accumulator; the output block is not touched.
-/
import proofs.«158944_j64613488001249_1_alg».proof.Proof.RegKI36a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun36_B (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond36_0 i) (hc1 : ¬cond36_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc36__matmul_kernel i arg2 harg2 arg3 harg3 arg4 harg4 arg5 harg5) K } := by
  refine ⟨[], ?_, fun xi2 E K => ?run⟩
  case run =>
    simp only [cc36__matmul_kernel_eq_skeleton]; unfold cc36__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI36c.lean ====
/- Laid out by: python3 scratch/layout_regions.py --template-region 1 --region 36 --program KernelIdeal --parts a,b,c, --out-dir proof/Proof
   from the hand-written text of region 1 (RegKI1c.lean): the same text, the region's number substituted. -/
/-
  Region 36, case C (k = 3): the body's run. The product is added to the accumulator as in case B, and then the second
  conditional copies the accumulator over the whole output block.
-/
import proofs.«158944_j64613488001249_1_alg».proof.Proof.RegKI36b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun36_C (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond36_0 i) (hc1 : cond36_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc36__matmul_kernel i arg2 harg2 arg3 harg3 arg4 harg4 arg5 harg5) K } := by
  refine ⟨?_, ?_, fun E K => ?run⟩
  case run =>
    simp only [cc36__matmul_kernel_eq_skeleton]; unfold cc36__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI36.lean ====
/- Laid out by: python3 scratch/layout_regions.py --template-region 1 --region 36 --program KernelIdeal --parts a,b,c, --out-dir proof/Proof
   from the hand-written text of region 1 (RegKI1.lean): the same text, the region's number substituted. -/
/-
  Region 36 of @main, entered from the buffer contents `V`: what its windows' blocks are, what each case of the body leaves in
  the accumulator and in the output block, the accumulator and the output block point by point (`outsAt36`: at k = 0 the
  accumulator restarts from zeros plus the product; at k = 1, 2, 3 it is the point before's plus the product; at k = 3 the
  output block is the accumulator), the region's invariant (the accumulator at `outsAt36`'s second component), the proof data,
  and the body's obligation at every point.
-/
import proofs.«158944_j64613488001249_1_alg».proof.Proof.RegKI36c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk36 (c : Dev nD) (w : Fin cfg36.W) (t : Fin cfg36.N) : ((cfg36.win w).xblock (cfg36.grid.coords t)).Idx → Elt F (cfg36.win w).elt :=
  ((cfg36.win w).blk t).view.read (Elt F) (V c (Pipeline.arrRef spec36 w))

/-- An input window's current staging buffer holds its block at every point, for any proof data whose array is `V`'s and
    whose body leaves the block in place. -/
theorem before36_0_of {c : Dev nD} (dat : Dat τ (Elt F) Unit ℕ (UR sig nD τ) ℕ cfg36 c) (hA : dat.A 0 = V c (Pipeline.arrRef spec36 0))
    (hafter : ∀ t, dat.after 0 t = iblk36 V c 0 t) (t : Fin cfg36.N) (d) : dat.before 0 t d = iblk36 V c 0 t :=
  (dat.before_in_eq_fetched 0 rfl (fun _ => rfl) (fun _ _ _ => rfl) (fun t => by rw [hafter]; unfold Dat.blockOf iblk36; rw [hA]; try rfl) t d).trans
    (by unfold Dat.fetched Dat.blockOf iblk36; rw [hA]; try rfl)
theorem before36_1_of {c : Dev nD} (dat : Dat τ (Elt F) Unit ℕ (UR sig nD τ) ℕ cfg36 c) (hA : dat.A 1 = V c (Pipeline.arrRef spec36 1))
    (hafter : ∀ t, dat.after 1 t = iblk36 V c 1 t) (t : Fin cfg36.N) (d) : dat.before 1 t d = iblk36 V c 1 t :=
  (dat.before_in_eq_fetched 1 rfl (fun _ => rfl) (fun _ _ _ => rfl) (fun t => by rw [hafter]; unfold Dat.blockOf iblk36; rw [hA]; try rfl) t d).trans
    (by unfold Dat.fetched Dat.blockOf iblk36; rw [hA]; try rfl)

/-! ## What each case leaves -/

/-- Case A's stores into the accumulator cover it. -/
theorem scover36_A (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond36_0 i) (hc1 : ¬cond36_1 i)
    (x0 : Vec F S1024x1024 .bf16) (x1 : Vec F S1024x512 .f32) (y : S1024x512.Idx) :
    ∃ pc ∈ (kernelRun36_A c i arg2 harg2 arg3 harg3 arg4 harg4 arg5 harg5 hc0 hc1 x0 x1).2.1, y ∈ pc.1.set :=
  View.cover_of_tiledL (kernelRun36_A c i arg2 harg2 arg3 harg3 arg4 harg4 arg5 harg5 hc0 hc1 x0 x1).2.1 S1024x512.size (by sl_kernel_rfl) y
/-- What case A leaves in the accumulator. -/
noncomputable def sout36_A (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond36_0 i) (hc1 : ¬cond36_1 i)
    (x0 : Vec F S1024x1024 .bf16) (x1 : Vec F S1024x512 .f32) : Vec F S1024x512 .f32 :=
  VS36.read (Elt F) (VS36.writes (Elt F) VS36.junk (kernelRun36_A c i arg2 harg2 arg3 harg3 arg4 harg4 arg5 harg5 hc0 hc1 x0 x1).2.1)

/-- Case B's store into the accumulator covers it. -/
theorem scover36_B (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond36_0 i) (hc1 : ¬cond36_1 i)
    (x0 : Vec F S1024x1024 .bf16) (x1 : Vec F S1024x512 .f32) (xs0 : Vec F S1024x512 .f32) (y : S1024x512.Idx) :
    ∃ pc ∈ (kernelRun36_B c i arg2 harg2 arg3 harg3 arg4 harg4 arg5 harg5 hc0 hc1 x0 x1 xs0).2.1, y ∈ pc.1.set :=
  View.cover_of_tiledL (kernelRun36_B c i arg2 harg2 arg3 harg3 arg4 harg4 arg5 harg5 hc0 hc1 x0 x1 xs0).2.1 S1024x512.size (by sl_kernel_rfl) y
/-- What case B leaves in the accumulator, over what the point before left. -/
noncomputable def sout36_B (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond36_0 i) (hc1 : ¬cond36_1 i)
    (x0 : Vec F S1024x1024 .bf16) (x1 : Vec F S1024x512 .f32) (xs0 : Vec F S1024x512 .f32) : Vec F S1024x512 .f32 :=
  VS36.read (Elt F) (VS36.writes (Elt F) VS36.junk (kernelRun36_B c i arg2 harg2 arg3 harg3 arg4 harg4 arg5 harg5 hc0 hc1 x0 x1 xs0).2.1)

/-- Case C's store into the output block covers it, and so does its store into the accumulator. -/
theorem cover36_C (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond36_0 i) (hc1 : cond36_1 i)
    (x0 : Vec F S1024x1024 .bf16) (x1 : Vec F S1024x512 .f32) (xs0 : Vec F S1024x512 .f32) (y : S1024x512.Idx) :
    ∃ pc ∈ (kernelRun36_C c i arg2 harg2 arg3 harg3 arg4 harg4 arg5 harg5 hc0 hc1 x0 x1 xs0).1, y ∈ pc.1.set :=
  View.cover_of_tiledL (kernelRun36_C c i arg2 harg2 arg3 harg3 arg4 harg4 arg5 harg5 hc0 hc1 x0 x1 xs0).1 S1024x512.size (by sl_kernel_rfl) y
theorem scover36_C (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond36_0 i) (hc1 : cond36_1 i)
    (x0 : Vec F S1024x1024 .bf16) (x1 : Vec F S1024x512 .f32) (xs0 : Vec F S1024x512 .f32) (y : S1024x512.Idx) :
    ∃ pc ∈ (kernelRun36_C c i arg2 harg2 arg3 harg3 arg4 harg4 arg5 harg5 hc0 hc1 x0 x1 xs0).2.1, y ∈ pc.1.set :=
  View.cover_of_tiledL (kernelRun36_C c i arg2 harg2 arg3 harg3 arg4 harg4 arg5 harg5 hc0 hc1 x0 x1 xs0).2.1 S1024x512.size (by sl_kernel_rfl) y
/-- What case C leaves in the output block, and in the accumulator. -/
noncomputable def out36_C (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond36_0 i) (hc1 : cond36_1 i)
    (x0 : Vec F S1024x1024 .bf16) (x1 : Vec F S1024x512 .f32) (xs0 : Vec F S1024x512 .f32) : Vec F S1024x512 .f32 :=
  VO36_2.read (Elt F) (VO36_2.writes (Elt F) VO36_2.junk (kernelRun36_C c i arg2 harg2 arg3 harg3 arg4 harg4 arg5 harg5 hc0 hc1 x0 x1 xs0).1)
noncomputable def sout36_C (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond36_0 i) (hc1 : cond36_1 i)
    (x0 : Vec F S1024x1024 .bf16) (x1 : Vec F S1024x512 .f32) (xs0 : Vec F S1024x512 .f32) : Vec F S1024x512 .f32 :=
  VS36.read (Elt F) (VS36.writes (Elt F) VS36.junk (kernelRun36_C c i arg2 harg2 arg3 harg3 arg4 harg4 arg5 harg5 hc0 hc1 x0 x1 xs0).2.1)

/-- Where the output block is idle nothing consults what it holds: a placeholder. -/
noncomputable def outIdle36 : Vec F S1024x512 .f32 := VO36_2.read (Elt F) (VO36_2.writes (Elt F) VO36_2.junk [])

/-! ## The conditions at a point, from t % 4 -/

theorem isFirst36 (t : Fin cfg36.N) (h : t.val % 4 = 0) : cond36_0 (grid36.coords t) := (hcond36_0 t).mpr h
theorem notFirst36 (t : Fin cfg36.N) (h : ¬t.val % 4 = 0) : ¬cond36_0 (grid36.coords t) := fun hc => h ((hcond36_0 t).mp hc)
theorem isLast36 (t : Fin cfg36.N) (h : t.val % 4 = 3) : cond36_1 (grid36.coords t) := (hcond36_1 t).mpr h
theorem notLast36 (t : Fin cfg36.N) (h : ¬t.val % 4 = 3) : ¬cond36_1 (grid36.coords t) := fun hc => h ((hcond36_1 t).mp hc)

/-! ## The accumulator and the output block, point by point -/

/-- After the body at position `n`: (the output block's buffer, the accumulator). -/
noncomputable def outsAt36 (c : Dev nD) : (n : ℕ) → n < cfg36.N → Vec F S1024x512 .f32 × Vec F S1024x512 .f32
  | 0, hn => (outIdle36, sout36_A c (grid36.coords ⟨0, hn⟩) (ms36_0 ⟨0, hn⟩) (hs36_0 ⟨0, hn⟩) (ms36_1 ⟨0, hn⟩) (hs36_1 ⟨0, hn⟩) (ms36_2 ⟨0, hn⟩) (hs36_2 ⟨0, hn⟩) scM36 (Memref.isWhole_whole _) (isFirst36 ⟨0, hn⟩ (Nat.zero_mod _)) (notLast36 ⟨0, hn⟩ (by simp)) (iblk36 V c 0 ⟨0, hn⟩) (iblk36 V c 1 ⟨0, hn⟩))
  | n + 1, hn =>
    if h0 : (n + 1) % 4 = 0 then
      (outIdle36, sout36_A c (grid36.coords ⟨n + 1, hn⟩) (ms36_0 ⟨n + 1, hn⟩) (hs36_0 ⟨n + 1, hn⟩) (ms36_1 ⟨n + 1, hn⟩) (hs36_1 ⟨n + 1, hn⟩) (ms36_2 ⟨n + 1, hn⟩) (hs36_2 ⟨n + 1, hn⟩) scM36 (Memref.isWhole_whole _) (isFirst36 ⟨n + 1, hn⟩ h0) (notLast36 ⟨n + 1, hn⟩ (by show ¬(n + 1) % 4 = 3; omega)) (iblk36 V c 0 ⟨n + 1, hn⟩) (iblk36 V c 1 ⟨n + 1, hn⟩))
    else if h3 : (n + 1) % 4 = 3 then
      (out36_C c (grid36.coords ⟨n + 1, hn⟩) (ms36_0 ⟨n + 1, hn⟩) (hs36_0 ⟨n + 1, hn⟩) (ms36_1 ⟨n + 1, hn⟩) (hs36_1 ⟨n + 1, hn⟩) (ms36_2 ⟨n + 1, hn⟩) (hs36_2 ⟨n + 1, hn⟩) scM36 (Memref.isWhole_whole _) (notFirst36 ⟨n + 1, hn⟩ h0) (isLast36 ⟨n + 1, hn⟩ h3) (iblk36 V c 0 ⟨n + 1, hn⟩) (iblk36 V c 1 ⟨n + 1, hn⟩) (outsAt36 c n (Nat.lt_of_succ_lt hn)).2,
       sout36_C c (grid36.coords ⟨n + 1, hn⟩) (ms36_0 ⟨n + 1, hn⟩) (hs36_0 ⟨n + 1, hn⟩) (ms36_1 ⟨n + 1, hn⟩) (hs36_1 ⟨n + 1, hn⟩) (ms36_2 ⟨n + 1, hn⟩) (hs36_2 ⟨n + 1, hn⟩) scM36 (Memref.isWhole_whole _) (notFirst36 ⟨n + 1, hn⟩ h0) (isLast36 ⟨n + 1, hn⟩ h3) (iblk36 V c 0 ⟨n + 1, hn⟩) (iblk36 V c 1 ⟨n + 1, hn⟩) (outsAt36 c n (Nat.lt_of_succ_lt hn)).2)
    else
      (outIdle36, sout36_B c (grid36.coords ⟨n + 1, hn⟩) (ms36_0 ⟨n + 1, hn⟩) (hs36_0 ⟨n + 1, hn⟩) (ms36_1 ⟨n + 1, hn⟩) (hs36_1 ⟨n + 1, hn⟩) (ms36_2 ⟨n + 1, hn⟩) (hs36_2 ⟨n + 1, hn⟩) scM36 (Memref.isWhole_whole _) (notFirst36 ⟨n + 1, hn⟩ h0) (notLast36 ⟨n + 1, hn⟩ h3) (iblk36 V c 0 ⟨n + 1, hn⟩) (iblk36 V c 1 ⟨n + 1, hn⟩) (outsAt36 c n (Nat.lt_of_succ_lt hn)).2)

/-- `outsAt36` at a point with k = 0. -/
theorem outsAt36_A (c : Dev nD) (t : Fin cfg36.N) (h0 : t.val % 4 = 0) :
    outsAt36 V c t.val t.isLt = (outIdle36, sout36_A c (grid36.coords t) (ms36_0 t) (hs36_0 t) (ms36_1 t) (hs36_1 t) (ms36_2 t) (hs36_2 t) scM36 (Memref.isWhole_whole _) (isFirst36 t h0) (notLast36 t (by omega)) (iblk36 V c 0 t) (iblk36 V c 1 t)) := by
  obtain ⟨n, hn⟩ := t
  cases n with
  | zero => rfl
  | succ n => exact (dif_pos h0).trans rfl

/-- `outsAt36` at a point with k = 1, 2: over what the point before left. -/
theorem outsAt36_B (c : Dev nD) (t : Fin cfg36.N) (h0 : ¬t.val % 4 = 0) (h3 : ¬t.val % 4 = 3) :
    outsAt36 V c t.val t.isLt = (outIdle36, sout36_B c (grid36.coords t) (ms36_0 t) (hs36_0 t) (ms36_1 t) (hs36_1 t) (ms36_2 t) (hs36_2 t) scM36 (Memref.isWhole_whole _) (notFirst36 t h0) (notLast36 t h3) (iblk36 V c 0 t) (iblk36 V c 1 t)
      (outsAt36 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt36` at a point with k = 3. -/
theorem outsAt36_C (c : Dev nD) (t : Fin cfg36.N) (h0 : ¬t.val % 4 = 0) (h3 : t.val % 4 = 3) :
    outsAt36 V c t.val t.isLt = (out36_C c (grid36.coords t) (ms36_0 t) (hs36_0 t) (ms36_1 t) (hs36_1 t) (ms36_2 t) (hs36_2 t) scM36 (Memref.isWhole_whole _) (notFirst36 t h0) (isLast36 t h3) (iblk36 V c 0 t) (iblk36 V c 1 t)
        (outsAt36 V c (t.val - 1) (Nat.lt_of_le_of_lt (Nat.sub_le _ _) t.isLt)).2,
      sout36_C c (grid36.coords t) (ms36_0 t) (hs36_0 t) (ms36_1 t) (hs36_1 t) (ms36_2 t) (hs36_2 t) scM36 (Memref.isWhole_whole _) (notFirst36 t h0) (isLast36 t h3) (iblk36 V c 0 t) (iblk36 V c 1 t)
        (outsAt36 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS36 (c : Dev nD) : (n : ℕ) → n ≤ cfg36.N → sProp 𝕄
  | 0, _ => Pipeline.ΦA spec36 c
  | n + 1, hn => iprop(iprop(owns (c : Thread nD τ) scM36 fullShare ((outsAt36 V c n hn).2) ∗ restBut36 c) ∗ (∃ r, prngReg c r))

theorem PhiS36_zero (c : Dev nD) (n : ℕ) (h : n ≤ cfg36.N) (hz : n = 0) : PhiS36 V c n h = Pipeline.ΦA spec36 c := by
  subst hz; rfl
theorem PhiS36_succ (c : Dev nD) (n : ℕ) (hn : n < cfg36.N) :
    PhiS36 V c (n + 1) hn = iprop(iprop(owns (c : Thread nD τ) scM36 fullShare ((outsAt36 V c n hn).2) ∗ restBut36 c) ∗ (∃ r, prngReg c r)) := rfl
theorem PhiS36_pos (c : Dev nD) (n : ℕ) (h : n ≤ cfg36.N) (hz : n ≠ 0) :
    PhiS36 V c n h = iprop(iprop(owns (c : Thread nD τ) scM36 fullShare ((outsAt36 V c (n - 1) (by omega)).2) ∗ restBut36 c) ∗ (∃ r, prngReg c r)) := by
  cases n with
  | zero => exact absurd rfl hz
  | succ n => rfl

/-! ## The proof data -/

/-- The region's proof data on core `c`: the arrays as the region finds them; after the body at point `t` each input's
    buffer at its block and the output's at `outsAt36`'s first component; the invariant `PhiS36`; nothing owed; full shares. -/
noncomputable def dat36 (c : Dev nD) : Dat τ (Elt F) Unit ℕ (UR sig nD τ) ℕ cfg36 c where
  A w := V c (Pipeline.arrRef spec36 w)
  after w t := match w with
    | ⟨0, _⟩ => iblk36 V c 0 t
    | ⟨1, _⟩ => iblk36 V c 1 t
    | ⟨2, _⟩ => (outsAt36 V c t.val t.isLt).1
  Φ t := PhiS36 V c t.val (Nat.le_of_lt_succ t.isLt)
  q _ := fullShare
  owed _ := 0

theorem A_eq36 (c : Dev nD) (w : Fin cfg36.W) : (dat36 V c).A w = V c (Pipeline.arrRef spec36 w) := by
  dsimp only [dat36]
theorem PhiS36_castSucc (c : Dev nD) (t : Fin cfg36.N) :
    (dat36 V c).Φ t.castSucc = PhiS36 V c t.val (Nat.le_of_lt t.isLt) := by
  dsimp only [dat36]; simp only [Fin.coe_castSucc]
theorem after36_0 (c : Dev nD) (t : Fin cfg36.N) : (dat36 V c).after 0 t = iblk36 V c 0 t := by dsimp only [dat36]
theorem after36_1 (c : Dev nD) (t : Fin cfg36.N) : (dat36 V c).after 1 t = iblk36 V c 1 t := by dsimp only [dat36]
theorem after36_2 (c : Dev nD) (t : Fin cfg36.N) : (dat36 V c).after 2 t = (outsAt36 V c t.val t.isLt).1 := by dsimp only [dat36]
theorem before36_0 (c : Dev nD) (t : Fin cfg36.N) (d) : (dat36 V c).before 0 t d = iblk36 V c 0 t :=
  before36_0_of V (dat36 V c) (A_eq36 V c 0) (after36_0 V c) t d
theorem before36_1 (c : Dev nD) (t : Fin cfg36.N) (d) : (dat36 V c).before 1 t d = iblk36 V c 1 t :=
  before36_1_of V (dat36 V c) (A_eq36 V c 1) (after36_1 V c) t d

/-! ## The body's obligation -/

noncomputable def bodyPre36 (c : Dev nD) (t : Fin cfg36.N) : sProp 𝕄 :=
  iprop((dat36 V c).Φ t.castSucc ∗ (dat36 V c).owesAt () t.castSucc
    ∗ (∃ d, owns (c : Thread nD τ) (ms36_0 t) fullShare ((dat36 V c).before 0 t d))
    ∗ (∃ d, owns (c : Thread nD τ) (ms36_1 t) fullShare ((dat36 V c).before 1 t d))
    ∗ (∃ d, owns (c : Thread nD τ) (ms36_2 t) fullShare ((dat36 V c).before 2 t d)))

noncomputable def bodyPost36 (c : Dev nD) (t : Fin cfg36.N) : sProp 𝕄 :=
  iprop((dat36 V c).Φ t.succ ∗ (dat36 V c).owesAt () t.succ
    ∗ (dat36 V c).leavesExact 0 t
    ∗ (dat36 V c).leavesExact 1 t
    ∗ (dat36 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body36 (c : Dev nD) (t : Fin cfg36.N) :
    bodyPre36 V c t ⊢ wp frame (wpE (defs₀ (F := F)) Variants.none c none) Set.univ (bodyAt36 t) (fun _ => bodyPost36 V c t) := by
  unfold bodyPre36 bodyPost36 bodyAt36
  simp only [before36_0, before36_1]
  rw [show (dat36 V c).owesAt () t.succ = (dat36 V c).owesAt () t.castSucc from rfl]
  rw [show (dat36 V c).Φ t.succ = PhiS36 V c (t.val + 1) t.isLt from rfl, PhiS36_succ]
  rw [show (dat36 V c).leavesExact 0 t = owns (c : Thread nD τ) (ms36_0 t) fullShare ((dat36 V c).after 0 t) from by
    unfold Dat.leavesExact; rw [liveAt36_0 t], after36_0]
  rw [show (dat36 V c).leavesExact 1 t = owns (c : Thread nD τ) (ms36_1 t) fullShare ((dat36 V c).after 1 t) from by
    unfold Dat.leavesExact; rw [liveAt36_1 t], after36_1]
  by_cases h0 : t.val % 4 = 0
  · have h3 : ¬t.val % 4 = 3 := by omega
    rw [Dat.leavesExact_idle (dat36 V c) 2 t (idleAt36_2 t (notLast36 t h3)) (noFlush36_2 t (notLast36 t h3))]
    rw [outsAt36_A V c t h0]
    unfold sout36_A; (try dsimp only)
    by_cases hz : t.val = 0
    · rw [PhiS36_castSucc V c t, PhiS36_zero V c _ _ hz, PhiA36_eq]
      iintro ⟨⟨⟨HS0, Hrb⟩, Hg⟩, Ho, ⟨%d0, H0⟩, ⟨%d1, H1⟩, ⟨%d2, H2⟩⟩
      iapply ((kernelRun36_A c (grid36.coords t) _ _ _ _ _ _ _ _ (isFirst36 t h0) (notLast36 t (by omega)) (iblk36 V c 0 t) (iblk36 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover36_A c _ _ _ _ _ _ _ _ _ _ _ _ _)
          iexact Hrb
        iexact Hg
      isplitl [Ho]; · iexact Ho
      isplitl [H0]; · iexact H0
      isplitl [H1]; · iexact H1
      iexists _; iexact H2
    · rw [PhiS36_castSucc V c t, PhiS36_pos V c _ _ hz]
      iintro ⟨⟨⟨HS0, Hrb⟩, Hg⟩, Ho, ⟨%d0, H0⟩, ⟨%d1, H1⟩, ⟨%d2, H2⟩⟩
      iapply ((kernelRun36_A c (grid36.coords t) _ _ _ _ _ _ _ _ (isFirst36 t h0) (notLast36 t (by omega)) (iblk36 V c 0 t) (iblk36 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover36_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat36 V c).leavesExact 2 t = owns (c : Thread nD τ) (ms36_2 t) fullShare ((dat36 V c).after 2 t) from by
        unfold Dat.leavesExact; rw [liveAt36_2 t (isLast36 t h3)], after36_2]
      rw [outsAt36_C V c t h0 h3]
      unfold out36_C sout36_C; (try dsimp only)
      rw [PhiS36_castSucc V c t, PhiS36_pos V c _ _ hz]
      iintro ⟨⟨⟨HS0, Hrb⟩, Hg⟩, Ho, ⟨%d0, H0⟩, ⟨%d1, H1⟩, ⟨%d2, H2⟩⟩
      iapply ((kernelRun36_C c (grid36.coords t) _ _ _ _ _ _ _ _ (notFirst36 t h0) (isLast36 t h3) (iblk36 V c 0 t) (iblk36 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover36_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover36_C c _ _ _ _ _ _ _ _ _ _ _ _ _ _)
    · rw [Dat.leavesExact_idle (dat36 V c) 2 t (idleAt36_2 t (notLast36 t h3)) (noFlush36_2 t (notLast36 t h3))]
      rw [outsAt36_B V c t h0 h3]
      unfold sout36_B; (try dsimp only)
      rw [PhiS36_castSucc V c t, PhiS36_pos V c _ _ hz]
      iintro ⟨⟨⟨HS0, Hrb⟩, Hg⟩, Ho, ⟨%d0, H0⟩, ⟨%d1, H1⟩, ⟨%d2, H2⟩⟩
      iapply ((kernelRun36_B c (grid36.coords t) _ _ _ _ _ _ _ _ (notFirst36 t h0) (notLast36 t h3) (iblk36 V c 0 t) (iblk36 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover36_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation36 (c : Dev nD) : BodyObligation (dat36 (F := F) V c) (defs₀ (F := F)) Variants.none () Set.univ := fun t => by
  rw [bigSep_W36, bigSep_W36]
  exact sound_body36 V c t

/-- What the region is entered with is the invariant before the first point. -/
theorem hin36 (c : Dev nD) : Pipeline.ΦA spec36 c ⊢ (dat36 V c).Φ 0 := by
  rw [show (dat36 V c).Φ 0 = PhiS36 V c 0 (Nat.zero_le _) from rfl, PhiS36_zero V c 0 _ rfl]
  try exact Idealize.SL.BI.Entails.refl _

/-- After the last point the invariant gives the class's back: the accumulator's contents are forgotten. -/
theorem hout36 (c : Dev nD) : (dat36 V c).Φ (Fin.last cfg36.N) ⊢ Pipeline.ΦA spec36 c := by
  have hN : cfg36.N = 16 := N_36
  rw [show (dat36 V c).Φ (Fin.last cfg36.N) = PhiS36 V c (Fin.last cfg36.N).val (Nat.le_of_lt_succ (Fin.last cfg36.N).isLt) from rfl,
    PhiS36_pos V c _ _ (by rw [Fin.val_last]; omega), PhiA36_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI37a.lean ====
/- Laid out by: python3 scratch/layout_regions.py --template-region 1 --region 37 --program KernelIdeal --parts a,b,c, --out-dir proof/Proof
   from the hand-written text of region 1 (RegKI1a.lean): the same text, the region's number substituted. -/
/-
  Region 37 of @main (custom_call 37): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond37_0 (i : grid37.Coords) : Prop := (Scalar.cmpi .ne (Scalar.extui (Scalar.cmpi .eq (BitVec.ofNat 32 (i 1).val) 0#32)) 0#32) = 1#1
/-- It holds exactly at the points with t % 4 = 0. -/
theorem hcond37_0 : ∀ t : Fin cfg37.N, cond37_0 (grid37.coords t) ↔ t.val % 4 = 0 :=
  (by decide +kernel : ∀ t : Fin grid37.N, cond37_0 (grid37.coords t) ↔ t.val % 4 = 0)

/-- "k = 3": the second conditional's test. -/
abbrev cond37_1 (i : grid37.Coords) : Prop := k37_cond2 i = 1#1
/-- It holds exactly at the points with t % 4 = 3. -/
theorem hcond37_1 : ∀ t : Fin cfg37.N, cond37_1 (grid37.coords t) ↔ t.val % 4 = 3 :=
  (by decide +kernel : ∀ t : Fin grid37.N, cond37_1 (grid37.coords t) ↔ t.val % 4 = 3)

/-! ## Where the windows are idle, and where the output is written back -/

/-- The two input windows are never idle. -/
theorem liveAt37_0 : ∀ t : Fin cfg37.N, cfg37.idle 0 (grid37.coords t) = false := by decide +kernel
theorem liveAt37_1 : ∀ t : Fin cfg37.N, cfg37.idle 1 (grid37.coords t) = false := by decide +kernel
/-- Where k ≠ 3 the output window is idle (the body stores nothing into it) and is not written back. -/
theorem idleAt37_2 : ∀ t : Fin cfg37.N, ¬cond37_1 (grid37.coords t) → cfg37.idle 2 (grid37.coords t) = true := by decide +kernel
theorem noFlush37_2 : ∀ t : Fin cfg37.N, ¬cond37_1 (grid37.coords t) → (cfg37.win 2).flush t = false := by decide +kernel
/-- Where k = 3 it is live. -/
theorem liveAt37_2 : ∀ t : Fin cfg37.N, cond37_1 (grid37.coords t) → cfg37.idle 2 (grid37.coords t) = false := by decide +kernel

/-! ## The staging memrefs at a point, and the scratch -/

/-- One staging buffer of the output window, through which its contents are stated. -/
abbrev VO37_2 : View sig .tc .vmem S1024x512 .f32 := (Memref.whole cc37_stg2_0 : Memref sig .tc .vmem S1024x512 .f32).view
abbrev ms37_0 (t : Fin cfg37.N) : Memref sig .tc .vmem S1024x1024 .bf16 := win37_0.stage (cfg37.slots t 0)
abbrev hs37_0 (t : Fin cfg37.N) : (ms37_0 t).IsWhole := hstage37_0 ((cfg37.slots t 0).cast nbuf37_0)
abbrev ms37_1 (t : Fin cfg37.N) : Memref sig .tc .vmem S1024x512 .f32 := win37_1.stage (cfg37.slots t 1)
abbrev hs37_1 (t : Fin cfg37.N) : (ms37_1 t).IsWhole := hstage37_1 ((cfg37.slots t 1).cast nbuf37_1)
abbrev ms37_2 (t : Fin cfg37.N) : Memref sig .tc .vmem S1024x512 .f32 := win37_2.stage (cfg37.slots t 2)
abbrev hs37_2 (t : Fin cfg37.N) : (ms37_2 t).IsWhole := hstage37_2 ((cfg37.slots t 2).cast nbuf37_2)
/-- The accumulator: a whole scoped buffer of the kernel's own. -/
abbrev scM37 : Memref sig .tc .vmem S1024x512 .f32 := Memref.whole cc37_scratch0
abbrev VS37 : View sig .tc .vmem S1024x512 .f32 := scM37.view

/-- The other scoped buffers of the core, none of which this region touches. -/
abbrev restBut37 (c : Dev nD) : sProp 𝕄 :=
  Pipeline.scopedRestBut (Ix := Unit) (Name := ℕ) (U := UR sig nD τ) (Lvl := ℕ) (Val := Elt F) spec37 c [cc37_scratch0]

/-- The region's invariant before its first point: the accumulator at something, the other scoped buffers, the generator register. -/
theorem PhiA37_eq (c : Dev nD) :
    (Pipeline.ΦA spec37 c : sProp 𝕄)
      = iprop(iprop((∃ d, owns (c : Thread nD τ) scM37 fullShare d) ∗ restBut37 c) ∗ (∃ r, prngReg c r)) := by
  unfold Pipeline.ΦA; rw [scopedRest37_split]; simp only [scM37, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun37_A (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond37_0 i) (hc1 : ¬cond37_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc37__matmul_kernel i arg2 harg2 arg3 harg3 arg4 harg4 arg5 harg5) K } := by
  refine ⟨[], ?_, fun xi2 E K => ?run⟩
  case run =>
    simp only [cc37__matmul_kernel_eq_skeleton]; unfold cc37__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI37b.lean ====
/- Laid out by: python3 scratch/layout_regions.py --template-region 1 --region 37 --program KernelIdeal --parts a,b,c, --out-dir proof/Proof
   from the hand-written text of region 1 (RegKI1b.lean): the same text, the region's number substituted. -/
/-
  Region 37, case B (k = 1, 2): the body's run. Neither conditional is taken: the product of the two blocks is added to what
  the point before left in the accumulator; the output block is not touched.
-/
import proofs.«158944_j64613488001249_1_alg».proof.Proof.RegKI37a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun37_B (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond37_0 i) (hc1 : ¬cond37_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc37__matmul_kernel i arg2 harg2 arg3 harg3 arg4 harg4 arg5 harg5) K } := by
  refine ⟨[], ?_, fun xi2 E K => ?run⟩
  case run =>
    simp only [cc37__matmul_kernel_eq_skeleton]; unfold cc37__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI37c.lean ====
/- Laid out by: python3 scratch/layout_regions.py --template-region 1 --region 37 --program KernelIdeal --parts a,b,c, --out-dir proof/Proof
   from the hand-written text of region 1 (RegKI1c.lean): the same text, the region's number substituted. -/
/-
  Region 37, case C (k = 3): the body's run. The product is added to the accumulator as in case B, and then the second
  conditional copies the accumulator over the whole output block.
-/
import proofs.«158944_j64613488001249_1_alg».proof.Proof.RegKI37b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun37_C (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond37_0 i) (hc1 : cond37_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc37__matmul_kernel i arg2 harg2 arg3 harg3 arg4 harg4 arg5 harg5) K } := by
  refine ⟨?_, ?_, fun E K => ?run⟩
  case run =>
    simp only [cc37__matmul_kernel_eq_skeleton]; unfold cc37__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI37.lean ====
/- Laid out by: python3 scratch/layout_regions.py --template-region 1 --region 37 --program KernelIdeal --parts a,b,c, --out-dir proof/Proof
   from the hand-written text of region 1 (RegKI1.lean): the same text, the region's number substituted. -/
/-
  Region 37 of @main, entered from the buffer contents `V`: what its windows' blocks are, what each case of the body leaves in
  the accumulator and in the output block, the accumulator and the output block point by point (`outsAt37`: at k = 0 the
  accumulator restarts from zeros plus the product; at k = 1, 2, 3 it is the point before's plus the product; at k = 3 the
  output block is the accumulator), the region's invariant (the accumulator at `outsAt37`'s second component), the proof data,
  and the body's obligation at every point.
-/
import proofs.«158944_j64613488001249_1_alg».proof.Proof.RegKI37c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk37 (c : Dev nD) (w : Fin cfg37.W) (t : Fin cfg37.N) : ((cfg37.win w).xblock (cfg37.grid.coords t)).Idx → Elt F (cfg37.win w).elt :=
  ((cfg37.win w).blk t).view.read (Elt F) (V c (Pipeline.arrRef spec37 w))

/-- An input window's current staging buffer holds its block at every point, for any proof data whose array is `V`'s and
    whose body leaves the block in place. -/
theorem before37_0_of {c : Dev nD} (dat : Dat τ (Elt F) Unit ℕ (UR sig nD τ) ℕ cfg37 c) (hA : dat.A 0 = V c (Pipeline.arrRef spec37 0))
    (hafter : ∀ t, dat.after 0 t = iblk37 V c 0 t) (t : Fin cfg37.N) (d) : dat.before 0 t d = iblk37 V c 0 t :=
  (dat.before_in_eq_fetched 0 rfl (fun _ => rfl) (fun _ _ _ => rfl) (fun t => by rw [hafter]; unfold Dat.blockOf iblk37; rw [hA]; try rfl) t d).trans
    (by unfold Dat.fetched Dat.blockOf iblk37; rw [hA]; try rfl)
theorem before37_1_of {c : Dev nD} (dat : Dat τ (Elt F) Unit ℕ (UR sig nD τ) ℕ cfg37 c) (hA : dat.A 1 = V c (Pipeline.arrRef spec37 1))
    (hafter : ∀ t, dat.after 1 t = iblk37 V c 1 t) (t : Fin cfg37.N) (d) : dat.before 1 t d = iblk37 V c 1 t :=
  (dat.before_in_eq_fetched 1 rfl (fun _ => rfl) (fun _ _ _ => rfl) (fun t => by rw [hafter]; unfold Dat.blockOf iblk37; rw [hA]; try rfl) t d).trans
    (by unfold Dat.fetched Dat.blockOf iblk37; rw [hA]; try rfl)

/-! ## What each case leaves -/

/-- Case A's stores into the accumulator cover it. -/
theorem scover37_A (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond37_0 i) (hc1 : ¬cond37_1 i)
    (x0 : Vec F S1024x1024 .bf16) (x1 : Vec F S1024x512 .f32) (y : S1024x512.Idx) :
    ∃ pc ∈ (kernelRun37_A c i arg2 harg2 arg3 harg3 arg4 harg4 arg5 harg5 hc0 hc1 x0 x1).2.1, y ∈ pc.1.set :=
  View.cover_of_tiledL (kernelRun37_A c i arg2 harg2 arg3 harg3 arg4 harg4 arg5 harg5 hc0 hc1 x0 x1).2.1 S1024x512.size (by sl_kernel_rfl) y
/-- What case A leaves in the accumulator. -/
noncomputable def sout37_A (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond37_0 i) (hc1 : ¬cond37_1 i)
    (x0 : Vec F S1024x1024 .bf16) (x1 : Vec F S1024x512 .f32) : Vec F S1024x512 .f32 :=
  VS37.read (Elt F) (VS37.writes (Elt F) VS37.junk (kernelRun37_A c i arg2 harg2 arg3 harg3 arg4 harg4 arg5 harg5 hc0 hc1 x0 x1).2.1)

/-- Case B's store into the accumulator covers it. -/
theorem scover37_B (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond37_0 i) (hc1 : ¬cond37_1 i)
    (x0 : Vec F S1024x1024 .bf16) (x1 : Vec F S1024x512 .f32) (xs0 : Vec F S1024x512 .f32) (y : S1024x512.Idx) :
    ∃ pc ∈ (kernelRun37_B c i arg2 harg2 arg3 harg3 arg4 harg4 arg5 harg5 hc0 hc1 x0 x1 xs0).2.1, y ∈ pc.1.set :=
  View.cover_of_tiledL (kernelRun37_B c i arg2 harg2 arg3 harg3 arg4 harg4 arg5 harg5 hc0 hc1 x0 x1 xs0).2.1 S1024x512.size (by sl_kernel_rfl) y
/-- What case B leaves in the accumulator, over what the point before left. -/
noncomputable def sout37_B (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond37_0 i) (hc1 : ¬cond37_1 i)
    (x0 : Vec F S1024x1024 .bf16) (x1 : Vec F S1024x512 .f32) (xs0 : Vec F S1024x512 .f32) : Vec F S1024x512 .f32 :=
  VS37.read (Elt F) (VS37.writes (Elt F) VS37.junk (kernelRun37_B c i arg2 harg2 arg3 harg3 arg4 harg4 arg5 harg5 hc0 hc1 x0 x1 xs0).2.1)

/-- Case C's store into the output block covers it, and so does its store into the accumulator. -/
theorem cover37_C (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond37_0 i) (hc1 : cond37_1 i)
    (x0 : Vec F S1024x1024 .bf16) (x1 : Vec F S1024x512 .f32) (xs0 : Vec F S1024x512 .f32) (y : S1024x512.Idx) :
    ∃ pc ∈ (kernelRun37_C c i arg2 harg2 arg3 harg3 arg4 harg4 arg5 harg5 hc0 hc1 x0 x1 xs0).1, y ∈ pc.1.set :=
  View.cover_of_tiledL (kernelRun37_C c i arg2 harg2 arg3 harg3 arg4 harg4 arg5 harg5 hc0 hc1 x0 x1 xs0).1 S1024x512.size (by sl_kernel_rfl) y
theorem scover37_C (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond37_0 i) (hc1 : cond37_1 i)
    (x0 : Vec F S1024x1024 .bf16) (x1 : Vec F S1024x512 .f32) (xs0 : Vec F S1024x512 .f32) (y : S1024x512.Idx) :
    ∃ pc ∈ (kernelRun37_C c i arg2 harg2 arg3 harg3 arg4 harg4 arg5 harg5 hc0 hc1 x0 x1 xs0).2.1, y ∈ pc.1.set :=
  View.cover_of_tiledL (kernelRun37_C c i arg2 harg2 arg3 harg3 arg4 harg4 arg5 harg5 hc0 hc1 x0 x1 xs0).2.1 S1024x512.size (by sl_kernel_rfl) y
/-- What case C leaves in the output block, and in the accumulator. -/
noncomputable def out37_C (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond37_0 i) (hc1 : cond37_1 i)
    (x0 : Vec F S1024x1024 .bf16) (x1 : Vec F S1024x512 .f32) (xs0 : Vec F S1024x512 .f32) : Vec F S1024x512 .f32 :=
  VO37_2.read (Elt F) (VO37_2.writes (Elt F) VO37_2.junk (kernelRun37_C c i arg2 harg2 arg3 harg3 arg4 harg4 arg5 harg5 hc0 hc1 x0 x1 xs0).1)
noncomputable def sout37_C (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond37_0 i) (hc1 : cond37_1 i)
    (x0 : Vec F S1024x1024 .bf16) (x1 : Vec F S1024x512 .f32) (xs0 : Vec F S1024x512 .f32) : Vec F S1024x512 .f32 :=
  VS37.read (Elt F) (VS37.writes (Elt F) VS37.junk (kernelRun37_C c i arg2 harg2 arg3 harg3 arg4 harg4 arg5 harg5 hc0 hc1 x0 x1 xs0).2.1)

/-- Where the output block is idle nothing consults what it holds: a placeholder. -/
noncomputable def outIdle37 : Vec F S1024x512 .f32 := VO37_2.read (Elt F) (VO37_2.writes (Elt F) VO37_2.junk [])

/-! ## The conditions at a point, from t % 4 -/

theorem isFirst37 (t : Fin cfg37.N) (h : t.val % 4 = 0) : cond37_0 (grid37.coords t) := (hcond37_0 t).mpr h
theorem notFirst37 (t : Fin cfg37.N) (h : ¬t.val % 4 = 0) : ¬cond37_0 (grid37.coords t) := fun hc => h ((hcond37_0 t).mp hc)
theorem isLast37 (t : Fin cfg37.N) (h : t.val % 4 = 3) : cond37_1 (grid37.coords t) := (hcond37_1 t).mpr h
theorem notLast37 (t : Fin cfg37.N) (h : ¬t.val % 4 = 3) : ¬cond37_1 (grid37.coords t) := fun hc => h ((hcond37_1 t).mp hc)

/-! ## The accumulator and the output block, point by point -/

/-- After the body at position `n`: (the output block's buffer, the accumulator). -/
noncomputable def outsAt37 (c : Dev nD) : (n : ℕ) → n < cfg37.N → Vec F S1024x512 .f32 × Vec F S1024x512 .f32
  | 0, hn => (outIdle37, sout37_A c (grid37.coords ⟨0, hn⟩) (ms37_0 ⟨0, hn⟩) (hs37_0 ⟨0, hn⟩) (ms37_1 ⟨0, hn⟩) (hs37_1 ⟨0, hn⟩) (ms37_2 ⟨0, hn⟩) (hs37_2 ⟨0, hn⟩) scM37 (Memref.isWhole_whole _) (isFirst37 ⟨0, hn⟩ (Nat.zero_mod _)) (notLast37 ⟨0, hn⟩ (by simp)) (iblk37 V c 0 ⟨0, hn⟩) (iblk37 V c 1 ⟨0, hn⟩))
  | n + 1, hn =>
    if h0 : (n + 1) % 4 = 0 then
      (outIdle37, sout37_A c (grid37.coords ⟨n + 1, hn⟩) (ms37_0 ⟨n + 1, hn⟩) (hs37_0 ⟨n + 1, hn⟩) (ms37_1 ⟨n + 1, hn⟩) (hs37_1 ⟨n + 1, hn⟩) (ms37_2 ⟨n + 1, hn⟩) (hs37_2 ⟨n + 1, hn⟩) scM37 (Memref.isWhole_whole _) (isFirst37 ⟨n + 1, hn⟩ h0) (notLast37 ⟨n + 1, hn⟩ (by show ¬(n + 1) % 4 = 3; omega)) (iblk37 V c 0 ⟨n + 1, hn⟩) (iblk37 V c 1 ⟨n + 1, hn⟩))
    else if h3 : (n + 1) % 4 = 3 then
      (out37_C c (grid37.coords ⟨n + 1, hn⟩) (ms37_0 ⟨n + 1, hn⟩) (hs37_0 ⟨n + 1, hn⟩) (ms37_1 ⟨n + 1, hn⟩) (hs37_1 ⟨n + 1, hn⟩) (ms37_2 ⟨n + 1, hn⟩) (hs37_2 ⟨n + 1, hn⟩) scM37 (Memref.isWhole_whole _) (notFirst37 ⟨n + 1, hn⟩ h0) (isLast37 ⟨n + 1, hn⟩ h3) (iblk37 V c 0 ⟨n + 1, hn⟩) (iblk37 V c 1 ⟨n + 1, hn⟩) (outsAt37 c n (Nat.lt_of_succ_lt hn)).2,
       sout37_C c (grid37.coords ⟨n + 1, hn⟩) (ms37_0 ⟨n + 1, hn⟩) (hs37_0 ⟨n + 1, hn⟩) (ms37_1 ⟨n + 1, hn⟩) (hs37_1 ⟨n + 1, hn⟩) (ms37_2 ⟨n + 1, hn⟩) (hs37_2 ⟨n + 1, hn⟩) scM37 (Memref.isWhole_whole _) (notFirst37 ⟨n + 1, hn⟩ h0) (isLast37 ⟨n + 1, hn⟩ h3) (iblk37 V c 0 ⟨n + 1, hn⟩) (iblk37 V c 1 ⟨n + 1, hn⟩) (outsAt37 c n (Nat.lt_of_succ_lt hn)).2)
    else
      (outIdle37, sout37_B c (grid37.coords ⟨n + 1, hn⟩) (ms37_0 ⟨n + 1, hn⟩) (hs37_0 ⟨n + 1, hn⟩) (ms37_1 ⟨n + 1, hn⟩) (hs37_1 ⟨n + 1, hn⟩) (ms37_2 ⟨n + 1, hn⟩) (hs37_2 ⟨n + 1, hn⟩) scM37 (Memref.isWhole_whole _) (notFirst37 ⟨n + 1, hn⟩ h0) (notLast37 ⟨n + 1, hn⟩ h3) (iblk37 V c 0 ⟨n + 1, hn⟩) (iblk37 V c 1 ⟨n + 1, hn⟩) (outsAt37 c n (Nat.lt_of_succ_lt hn)).2)

/-- `outsAt37` at a point with k = 0. -/
theorem outsAt37_A (c : Dev nD) (t : Fin cfg37.N) (h0 : t.val % 4 = 0) :
    outsAt37 V c t.val t.isLt = (outIdle37, sout37_A c (grid37.coords t) (ms37_0 t) (hs37_0 t) (ms37_1 t) (hs37_1 t) (ms37_2 t) (hs37_2 t) scM37 (Memref.isWhole_whole _) (isFirst37 t h0) (notLast37 t (by omega)) (iblk37 V c 0 t) (iblk37 V c 1 t)) := by
  obtain ⟨n, hn⟩ := t
  cases n with
  | zero => rfl
  | succ n => exact (dif_pos h0).trans rfl

/-- `outsAt37` at a point with k = 1, 2: over what the point before left. -/
theorem outsAt37_B (c : Dev nD) (t : Fin cfg37.N) (h0 : ¬t.val % 4 = 0) (h3 : ¬t.val % 4 = 3) :
    outsAt37 V c t.val t.isLt = (outIdle37, sout37_B c (grid37.coords t) (ms37_0 t) (hs37_0 t) (ms37_1 t) (hs37_1 t) (ms37_2 t) (hs37_2 t) scM37 (Memref.isWhole_whole _) (notFirst37 t h0) (notLast37 t h3) (iblk37 V c 0 t) (iblk37 V c 1 t)
      (outsAt37 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt37` at a point with k = 3. -/
theorem outsAt37_C (c : Dev nD) (t : Fin cfg37.N) (h0 : ¬t.val % 4 = 0) (h3 : t.val % 4 = 3) :
    outsAt37 V c t.val t.isLt = (out37_C c (grid37.coords t) (ms37_0 t) (hs37_0 t) (ms37_1 t) (hs37_1 t) (ms37_2 t) (hs37_2 t) scM37 (Memref.isWhole_whole _) (notFirst37 t h0) (isLast37 t h3) (iblk37 V c 0 t) (iblk37 V c 1 t)
        (outsAt37 V c (t.val - 1) (Nat.lt_of_le_of_lt (Nat.sub_le _ _) t.isLt)).2,
      sout37_C c (grid37.coords t) (ms37_0 t) (hs37_0 t) (ms37_1 t) (hs37_1 t) (ms37_2 t) (hs37_2 t) scM37 (Memref.isWhole_whole _) (notFirst37 t h0) (isLast37 t h3) (iblk37 V c 0 t) (iblk37 V c 1 t)
        (outsAt37 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS37 (c : Dev nD) : (n : ℕ) → n ≤ cfg37.N → sProp 𝕄
  | 0, _ => Pipeline.ΦA spec37 c
  | n + 1, hn => iprop(iprop(owns (c : Thread nD τ) scM37 fullShare ((outsAt37 V c n hn).2) ∗ restBut37 c) ∗ (∃ r, prngReg c r))

theorem PhiS37_zero (c : Dev nD) (n : ℕ) (h : n ≤ cfg37.N) (hz : n = 0) : PhiS37 V c n h = Pipeline.ΦA spec37 c := by
  subst hz; rfl
theorem PhiS37_succ (c : Dev nD) (n : ℕ) (hn : n < cfg37.N) :
    PhiS37 V c (n + 1) hn = iprop(iprop(owns (c : Thread nD τ) scM37 fullShare ((outsAt37 V c n hn).2) ∗ restBut37 c) ∗ (∃ r, prngReg c r)) := rfl
theorem PhiS37_pos (c : Dev nD) (n : ℕ) (h : n ≤ cfg37.N) (hz : n ≠ 0) :
    PhiS37 V c n h = iprop(iprop(owns (c : Thread nD τ) scM37 fullShare ((outsAt37 V c (n - 1) (by omega)).2) ∗ restBut37 c) ∗ (∃ r, prngReg c r)) := by
  cases n with
  | zero => exact absurd rfl hz
  | succ n => rfl

/-! ## The proof data -/

/-- The region's proof data on core `c`: the arrays as the region finds them; after the body at point `t` each input's
    buffer at its block and the output's at `outsAt37`'s first component; the invariant `PhiS37`; nothing owed; full shares. -/
noncomputable def dat37 (c : Dev nD) : Dat τ (Elt F) Unit ℕ (UR sig nD τ) ℕ cfg37 c where
  A w := V c (Pipeline.arrRef spec37 w)
  after w t := match w with
    | ⟨0, _⟩ => iblk37 V c 0 t
    | ⟨1, _⟩ => iblk37 V c 1 t
    | ⟨2, _⟩ => (outsAt37 V c t.val t.isLt).1
  Φ t := PhiS37 V c t.val (Nat.le_of_lt_succ t.isLt)
  q _ := fullShare
  owed _ := 0

theorem A_eq37 (c : Dev nD) (w : Fin cfg37.W) : (dat37 V c).A w = V c (Pipeline.arrRef spec37 w) := by
  dsimp only [dat37]
theorem PhiS37_castSucc (c : Dev nD) (t : Fin cfg37.N) :
    (dat37 V c).Φ t.castSucc = PhiS37 V c t.val (Nat.le_of_lt t.isLt) := by
  dsimp only [dat37]; simp only [Fin.coe_castSucc]
theorem after37_0 (c : Dev nD) (t : Fin cfg37.N) : (dat37 V c).after 0 t = iblk37 V c 0 t := by dsimp only [dat37]
theorem after37_1 (c : Dev nD) (t : Fin cfg37.N) : (dat37 V c).after 1 t = iblk37 V c 1 t := by dsimp only [dat37]
theorem after37_2 (c : Dev nD) (t : Fin cfg37.N) : (dat37 V c).after 2 t = (outsAt37 V c t.val t.isLt).1 := by dsimp only [dat37]
theorem before37_0 (c : Dev nD) (t : Fin cfg37.N) (d) : (dat37 V c).before 0 t d = iblk37 V c 0 t :=
  before37_0_of V (dat37 V c) (A_eq37 V c 0) (after37_0 V c) t d
theorem before37_1 (c : Dev nD) (t : Fin cfg37.N) (d) : (dat37 V c).before 1 t d = iblk37 V c 1 t :=
  before37_1_of V (dat37 V c) (A_eq37 V c 1) (after37_1 V c) t d

/-! ## The body's obligation -/

noncomputable def bodyPre37 (c : Dev nD) (t : Fin cfg37.N) : sProp 𝕄 :=
  iprop((dat37 V c).Φ t.castSucc ∗ (dat37 V c).owesAt () t.castSucc
    ∗ (∃ d, owns (c : Thread nD τ) (ms37_0 t) fullShare ((dat37 V c).before 0 t d))
    ∗ (∃ d, owns (c : Thread nD τ) (ms37_1 t) fullShare ((dat37 V c).before 1 t d))
    ∗ (∃ d, owns (c : Thread nD τ) (ms37_2 t) fullShare ((dat37 V c).before 2 t d)))

noncomputable def bodyPost37 (c : Dev nD) (t : Fin cfg37.N) : sProp 𝕄 :=
  iprop((dat37 V c).Φ t.succ ∗ (dat37 V c).owesAt () t.succ
    ∗ (dat37 V c).leavesExact 0 t
    ∗ (dat37 V c).leavesExact 1 t
    ∗ (dat37 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body37 (c : Dev nD) (t : Fin cfg37.N) :
    bodyPre37 V c t ⊢ wp frame (wpE (defs₀ (F := F)) Variants.none c none) Set.univ (bodyAt37 t) (fun _ => bodyPost37 V c t) := by
  unfold bodyPre37 bodyPost37 bodyAt37
  simp only [before37_0, before37_1]
  rw [show (dat37 V c).owesAt () t.succ = (dat37 V c).owesAt () t.castSucc from rfl]
  rw [show (dat37 V c).Φ t.succ = PhiS37 V c (t.val + 1) t.isLt from rfl, PhiS37_succ]
  rw [show (dat37 V c).leavesExact 0 t = owns (c : Thread nD τ) (ms37_0 t) fullShare ((dat37 V c).after 0 t) from by
    unfold Dat.leavesExact; rw [liveAt37_0 t], after37_0]
  rw [show (dat37 V c).leavesExact 1 t = owns (c : Thread nD τ) (ms37_1 t) fullShare ((dat37 V c).after 1 t) from by
    unfold Dat.leavesExact; rw [liveAt37_1 t], after37_1]
  by_cases h0 : t.val % 4 = 0
  · have h3 : ¬t.val % 4 = 3 := by omega
    rw [Dat.leavesExact_idle (dat37 V c) 2 t (idleAt37_2 t (notLast37 t h3)) (noFlush37_2 t (notLast37 t h3))]
    rw [outsAt37_A V c t h0]
    unfold sout37_A; (try dsimp only)
    by_cases hz : t.val = 0
    · rw [PhiS37_castSucc V c t, PhiS37_zero V c _ _ hz, PhiA37_eq]
      iintro ⟨⟨⟨HS0, Hrb⟩, Hg⟩, Ho, ⟨%d0, H0⟩, ⟨%d1, H1⟩, ⟨%d2, H2⟩⟩
      iapply ((kernelRun37_A c (grid37.coords t) _ _ _ _ _ _ _ _ (isFirst37 t h0) (notLast37 t (by omega)) (iblk37 V c 0 t) (iblk37 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover37_A c _ _ _ _ _ _ _ _ _ _ _ _ _)
          iexact Hrb
        iexact Hg
      isplitl [Ho]; · iexact Ho
      isplitl [H0]; · iexact H0
      isplitl [H1]; · iexact H1
      iexists _; iexact H2
    · rw [PhiS37_castSucc V c t, PhiS37_pos V c _ _ hz]
      iintro ⟨⟨⟨HS0, Hrb⟩, Hg⟩, Ho, ⟨%d0, H0⟩, ⟨%d1, H1⟩, ⟨%d2, H2⟩⟩
      iapply ((kernelRun37_A c (grid37.coords t) _ _ _ _ _ _ _ _ (isFirst37 t h0) (notLast37 t (by omega)) (iblk37 V c 0 t) (iblk37 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover37_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat37 V c).leavesExact 2 t = owns (c : Thread nD τ) (ms37_2 t) fullShare ((dat37 V c).after 2 t) from by
        unfold Dat.leavesExact; rw [liveAt37_2 t (isLast37 t h3)], after37_2]
      rw [outsAt37_C V c t h0 h3]
      unfold out37_C sout37_C; (try dsimp only)
      rw [PhiS37_castSucc V c t, PhiS37_pos V c _ _ hz]
      iintro ⟨⟨⟨HS0, Hrb⟩, Hg⟩, Ho, ⟨%d0, H0⟩, ⟨%d1, H1⟩, ⟨%d2, H2⟩⟩
      iapply ((kernelRun37_C c (grid37.coords t) _ _ _ _ _ _ _ _ (notFirst37 t h0) (isLast37 t h3) (iblk37 V c 0 t) (iblk37 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover37_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover37_C c _ _ _ _ _ _ _ _ _ _ _ _ _ _)
    · rw [Dat.leavesExact_idle (dat37 V c) 2 t (idleAt37_2 t (notLast37 t h3)) (noFlush37_2 t (notLast37 t h3))]
      rw [outsAt37_B V c t h0 h3]
      unfold sout37_B; (try dsimp only)
      rw [PhiS37_castSucc V c t, PhiS37_pos V c _ _ hz]
      iintro ⟨⟨⟨HS0, Hrb⟩, Hg⟩, Ho, ⟨%d0, H0⟩, ⟨%d1, H1⟩, ⟨%d2, H2⟩⟩
      iapply ((kernelRun37_B c (grid37.coords t) _ _ _ _ _ _ _ _ (notFirst37 t h0) (notLast37 t h3) (iblk37 V c 0 t) (iblk37 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover37_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation37 (c : Dev nD) : BodyObligation (dat37 (F := F) V c) (defs₀ (F := F)) Variants.none () Set.univ := fun t => by
  rw [bigSep_W37, bigSep_W37]
  exact sound_body37 V c t

/-- What the region is entered with is the invariant before the first point. -/
theorem hin37 (c : Dev nD) : Pipeline.ΦA spec37 c ⊢ (dat37 V c).Φ 0 := by
  rw [show (dat37 V c).Φ 0 = PhiS37 V c 0 (Nat.zero_le _) from rfl, PhiS37_zero V c 0 _ rfl]
  try exact Idealize.SL.BI.Entails.refl _

/-- After the last point the invariant gives the class's back: the accumulator's contents are forgotten. -/
theorem hout37 (c : Dev nD) : (dat37 V c).Φ (Fin.last cfg37.N) ⊢ Pipeline.ΦA spec37 c := by
  have hN : cfg37.N = 16 := N_37
  rw [show (dat37 V c).Φ (Fin.last cfg37.N) = PhiS37 V c (Fin.last cfg37.N).val (Nat.le_of_lt_succ (Fin.last cfg37.N).isLt) from rfl,
    PhiS37_pos V c _ _ (by rw [Fin.val_last]; omega), PhiA37_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI38a.lean ====
/- Laid out by: python3 scratch/layout_grid41.py --template-region 0 --region 38 --program KernelIdeal --parts a, --shapes S1024x128=S1024x512,S128x512=S512x512
   from the hand-written text of region 0 (RegKI0a.lean): the same text, the region's number, block shapes substituted. -/
/- The region of KernelIdeal's @main that runs `cc38__matmul_kernel` (pipeline `cfg38`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond38_0 (i : grid38.Coords) : Prop :=
  (Scalar.cmpi .ne (Scalar.extui (Scalar.cmpi .eq (BitVec.ofNat 32 (i 1).val) 0#32)) 0#32) = 1#1
/-- True at every point: the reduction axis has one step. -/
theorem hcond38_0 : ∀ t : Fin cfg38.N, cond38_0 (grid38.coords t) :=
  (by decide +kernel : ∀ t : Fin grid38.N, cond38_0 (grid38.coords t))

/-- "This is the last reduction step" (the guard of the copy to the output block). -/
abbrev cond38_1 (i : grid38.Coords) : Prop := k38_cond2 i = 1#1
/-- True at every point, for the same reason. -/
theorem hcond38_1 : ∀ t : Fin cfg38.N, cond38_1 (grid38.coords t) :=
  (by decide +kernel : ∀ t : Fin grid38.N, cond38_1 (grid38.coords t))

/-! ## No window is idle anywhere -/

theorem liveAt38_0 : ∀ t : Fin cfg38.N, cfg38.idle 0 (grid38.coords t) = false := by decide +kernel
theorem liveAt38_1 : ∀ t : Fin cfg38.N, cfg38.idle 1 (grid38.coords t) = false := by decide +kernel
/-- The output window is stored at every point (the copy's guard holds everywhere). -/
theorem liveAt38_2 : ∀ t : Fin cfg38.N, cfg38.idle 2 (grid38.coords t) = false := by decide +kernel

/-! ## The memrefs the body is called on -/

/-- One staging buffer of the output window, through which its contents are stated (any whole view of the shape reads the
    same pieces back the same way). -/
abbrev VO38_2 : View sig .tc .vmem S1024x512 .f32 := (Memref.whole cc38_stg2_0 : Memref sig .tc .vmem S1024x512 .f32).view
/-- Each window's current staging memref at point `t`, spelt as the pipeline passes it, with its wholeness. -/
abbrev ms38_0 (t : Fin cfg38.N) : Memref sig .tc .vmem S1024x512 .f32 := win38_0.stage (cfg38.slots t 0)
abbrev hs38_0 (t : Fin cfg38.N) : (ms38_0 t).IsWhole := hstage38_0 ((cfg38.slots t 0).cast nbuf38_0)
abbrev ms38_1 (t : Fin cfg38.N) : Memref sig .tc .vmem S512x512 .bf16 := win38_1.stage (cfg38.slots t 1)
abbrev hs38_1 (t : Fin cfg38.N) : (ms38_1 t).IsWhole := hstage38_1 ((cfg38.slots t 1).cast nbuf38_1)
abbrev ms38_2 (t : Fin cfg38.N) : Memref sig .tc .vmem S1024x512 .f32 := win38_2.stage (cfg38.slots t 2)
abbrev hs38_2 (t : Fin cfg38.N) : (ms38_2 t).IsWhole := hstage38_2 ((cfg38.slots t 2).cast nbuf38_2)
/-- The accumulator: a whole scoped buffer of the kernel's own, passed beside the windows. -/
abbrev scM38_0 : Memref sig .tc .vmem S1024x512 .f32 := Memref.whole cc38_scratch0
abbrev VS38_0 : View sig .tc .vmem S1024x512 .f32 := scM38_0.view

/-- The region invariant with the accumulator taken out of the scoped rest: the accumulator owned at some contents, every
    other scoped buffer unopened, and the generator register. -/
theorem PhiA38_eq (c : Dev nD) :
    (Pipeline.ΦA spec38 c : sProp 𝕄)
      = iprop(iprop(iprop((∃ d, owns (c : Thread nD τ) scM38_0 fullShare d))
            ∗ Pipeline.scopedRestBut (Ix := Unit) (Name := ℕ) (U := UR sig nD τ) (Lvl := ℕ) (Val := Elt F) spec38 c [cc38_scratch0])
          ∗ (∃ r, prngReg c r)) := by
  unfold Pipeline.ΦA; rw [scopedRest38_split]; simp only [scM38_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun38 (c : Dev nD) (i : grid38.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond38_0 i) (hlast : cond38_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc38__matmul_kernel i arg2 harg2 arg3 harg3 arg4 harg4 arg5 harg5) K } := by
  refine ⟨?_, ?_, fun E K => ?run⟩
  case run =>
    simp only [cc38__matmul_kernel_eq_skeleton]; unfold cc38__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.KernelIdeal.Hand

end
-- ==== Proof.RegKI38.lean ====
/- Laid out by: python3 scratch/layout_grid41.py --template-region 0 --region 38 --program KernelIdeal --parts a, --shapes S1024x128=S1024x512,S128x512=S512x512
   from the hand-written text of region 0 (RegKI0.lean): the same text, the region's number, block shapes substituted. -/
/- The region of KernelIdeal's @main that runs `cc38__matmul_kernel` (pipeline `cfg38`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegKI38a
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk38 (c : Dev nD) (w : Fin cfg38.W) (t : Fin cfg38.N) : ((cfg38.win w).xblock (cfg38.grid.coords t)).Idx → Elt F (cfg38.win w).elt :=
  ((cfg38.win w).blk t).view.read (Elt F) (V c (Pipeline.arrRef spec38 w))

/-! ## What the case leaves, as pieces read back -/

/-- The output's pieces tile its block (one whole-block store). -/
theorem cover38_2 (c : Dev nD) (i : grid38.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond38_0 i) (hlast : cond38_1 i) (xa : Vec F S1024x512 .f32) (xb : Vec F S512x512 .bf16) (y : S1024x512.Idx) :
    ∃ pc ∈ (kernelRun38 c i arg2 harg2 arg3 harg3 arg4 harg4 arg5 harg5 hfirst hlast xa xb).1, y ∈ pc.1.set :=
  View.cover_of_tiledL (kernelRun38 c i arg2 harg2 arg3 harg3 arg4 harg4 arg5 harg5 hfirst hlast xa xb).1 S1024x512.size (by sl_kernel_rfl) y

/-- What the case leaves in the output's staging buffer: its pieces read back over junk. -/
noncomputable def out38_2 (c : Dev nD) (i : grid38.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond38_0 i) (hlast : cond38_1 i) (xa : Vec F S1024x512 .f32) (xb : Vec F S512x512 .bf16) : Vec F S1024x512 .f32 :=
  VO38_2.read (Elt F) (VO38_2.writes (Elt F) VO38_2.junk (kernelRun38 c i arg2 harg2 arg3 harg3 arg4 harg4 arg5 harg5 hfirst hlast xa xb).1)

/-- What the case leaves in the accumulator: its pieces read back over junk. -/
noncomputable def sout38_0 (c : Dev nD) (i : grid38.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond38_0 i) (hlast : cond38_1 i) (xa : Vec F S1024x512 .f32) (xb : Vec F S512x512 .bf16) : Vec F S1024x512 .f32 :=
  VS38_0.read (Elt F) (VS38_0.writes (Elt F) VS38_0.junk (kernelRun38 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout38_0_eq (c : Dev nD) (i : grid38.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond38_0 i) (hlast : cond38_1 i) (xa : Vec F S1024x512 .f32) (xb : Vec F S512x512 .bf16) :
    sout38_0 c i arg2 harg2 arg3 harg3 arg4 harg4 arg5 harg5 hfirst hlast xa xb = k38_pay2 xa xb (k38_pay1 (F := F)) := by
  unfold sout38_0
  rw [View.read_writes_junk_eq_canon]
  unfold kernelRun38
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out38_2_eq (c : Dev nD) (i : grid38.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond38_0 i) (hlast : cond38_1 i) (xa : Vec F S1024x512 .f32) (xb : Vec F S512x512 .bf16) :
    out38_2 c i arg2 harg2 arg3 harg3 arg4 harg4 arg5 harg5 hfirst hlast xa xb = k38_pay2 xa xb (k38_pay1 (F := F)) := by
  unfold out38_2
  rw [View.read_writes_junk_eq_canon]
  unfold kernelRun38
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt38 (c : Dev nD) (n : ℕ) (hn : n < cfg38.N) : Vec F S1024x512 .f32 × Vec F S1024x512 .f32 :=
  (out38_2 c (grid38.coords ⟨n, hn⟩) (ms38_0 ⟨n, hn⟩) (hs38_0 ⟨n, hn⟩) (ms38_1 ⟨n, hn⟩) (hs38_1 ⟨n, hn⟩) (ms38_2 ⟨n, hn⟩) (hs38_2 ⟨n, hn⟩) scM38_0 (Memref.isWhole_whole _)
      (hcond38_0 ⟨n, hn⟩) (hcond38_1 ⟨n, hn⟩) (iblk38 V c 0 ⟨n, hn⟩) (iblk38 V c 1 ⟨n, hn⟩),
   sout38_0 c (grid38.coords ⟨n, hn⟩) (ms38_0 ⟨n, hn⟩) (hs38_0 ⟨n, hn⟩) (ms38_1 ⟨n, hn⟩) (hs38_1 ⟨n, hn⟩) (ms38_2 ⟨n, hn⟩) (hs38_2 ⟨n, hn⟩) scM38_0 (Memref.isWhole_whole _)
      (hcond38_0 ⟨n, hn⟩) (hcond38_1 ⟨n, hn⟩) (iblk38 V c 0 ⟨n, hn⟩) (iblk38 V c 1 ⟨n, hn⟩))

/-- Every point is a first reduction step: the accumulator after it is one product onto zero. -/
theorem outsAt38_first (c : Dev nD) (t : Fin cfg38.N) :
    (outsAt38 V c t.val t.isLt).2 = k38_pay2 (iblk38 V c 0 t) (iblk38 V c 1 t) (k38_pay1 (F := F)) := by
  obtain ⟨n, hn⟩ := t
  unfold outsAt38
  dsimp only
  rw [sout38_0_eq]

/-- Every point is a last reduction step: the output block after it is the accumulator. -/
theorem outsAt38_last (c : Dev nD) (t : Fin cfg38.N) :
    (outsAt38 V c t.val t.isLt).1 = (outsAt38 V c t.val t.isLt).2 := by
  obtain ⟨n, hn⟩ := t
  unfold outsAt38
  dsimp only
  rw [out38_2_eq, sout38_0_eq]

/-! ## The pipeline's proof data -/

/-- The proof data of the pipeline on core `c`: the arrays as the region finds them; after the body at point `t` each input's
    buffer at its block and the output's at `outsAt38`'s first component; the invariant the same at every point; nothing owed;
    full shares. -/
noncomputable def dat38 (c : Dev nD) : Dat τ (Elt F) Unit ℕ (UR sig nD τ) ℕ cfg38 c where
  A w := V c (Pipeline.arrRef spec38 w)
  after w t := match w with
    | ⟨0, _⟩ => iblk38 V c 0 t
    | ⟨1, _⟩ => iblk38 V c 1 t
    | ⟨2, _⟩ => (outsAt38 V c t.val t.isLt).1
  Φ _ := Pipeline.ΦA spec38 c
  q _ := fullShare
  owed _ := 0

theorem A_eq38 (c : Dev nD) (w : Fin cfg38.W) : (dat38 V c).A w = V c (Pipeline.arrRef spec38 w) := by
  dsimp only [dat38]

theorem after38_0 (c : Dev nD) (t : Fin cfg38.N) : (dat38 V c).after 0 t = iblk38 V c 0 t := by dsimp only [dat38]
theorem after38_1 (c : Dev nD) (t : Fin cfg38.N) : (dat38 V c).after 1 t = iblk38 V c 1 t := by dsimp only [dat38]
theorem after38_2 (c : Dev nD) (t : Fin cfg38.N) : (dat38 V c).after 2 t = (outsAt38 V c t.val t.isLt).1 := by dsimp only [dat38]

/-- An input's current staging buffer holds its block at every point, fetched there or not: where it is not fetched its block
    index has not moved since the point before, and the body left the block in place. -/
theorem before38_0 (c : Dev nD) (t : Fin cfg38.N) (d) : (dat38 V c).before 0 t d = iblk38 V c 0 t :=
  ((dat38 V c).before_in_eq_fetched 0 rfl (fun _ => rfl) (fun _ _ _ => rfl)
      (fun t => by rw [after38_0]; unfold Dat.blockOf iblk38; rw [A_eq38]; try rfl) t d).trans
    (by unfold Dat.fetched Dat.blockOf iblk38; rw [A_eq38]; try rfl)
theorem before38_1 (c : Dev nD) (t : Fin cfg38.N) (d) : (dat38 V c).before 1 t d = iblk38 V c 1 t :=
  ((dat38 V c).before_in_eq_fetched 1 rfl (fun _ => rfl) (fun _ _ _ => rfl)
      (fun t => by rw [after38_1]; unfold Dat.blockOf iblk38; rw [A_eq38]; try rfl) t d).trans
    (by unfold Dat.fetched Dat.blockOf iblk38; rw [A_eq38]; try rfl)

/-! ## The body obligation, at a generic point -/

/-- What the body is called with at point `t`, the windows one by one, -/
noncomputable def bodyPre38 (c : Dev nD) (t : Fin cfg38.N) : sProp 𝕄 :=
  iprop((dat38 V c).Φ t.castSucc ∗ (dat38 V c).owesAt () t.castSucc
    ∗ (∃ d, owns (c : Thread nD τ) (ms38_0 t) fullShare ((dat38 V c).before 0 t d))
    ∗ (∃ d, owns (c : Thread nD τ) (ms38_1 t) fullShare ((dat38 V c).before 1 t d))
    ∗ (∃ d, owns (c : Thread nD τ) (ms38_2 t) fullShare ((dat38 V c).before 2 t d)))

/-- and what it returns. -/
noncomputable def bodyPost38 (c : Dev nD) (t : Fin cfg38.N) : sProp 𝕄 :=
  iprop((dat38 V c).Φ t.succ ∗ (dat38 V c).owesAt () t.succ
    ∗ (dat38 V c).leavesExact 0 t
    ∗ (dat38 V c).leavesExact 1 t
    ∗ (dat38 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body38 (c : Dev nD) (t : Fin cfg38.N) :
    bodyPre38 V c t ⊢ wp frame (wpE (defs₀ (F := F)) Variants.none c none) Set.univ (bodyAt38 t) (fun _ => bodyPost38 V c t) := by
  unfold bodyPre38 bodyPost38 bodyAt38
  simp only [before38_0, before38_1]
  rw [show (dat38 V c).owesAt () t.succ = (dat38 V c).owesAt () t.castSucc from rfl,
    show (dat38 V c).Φ t.succ = Pipeline.ΦA spec38 c from rfl, show (dat38 V c).Φ t.castSucc = Pipeline.ΦA spec38 c from rfl, PhiA38_eq]
  rw [show (dat38 V c).leavesExact 0 t = owns (c : Thread nD τ) (ms38_0 t) fullShare ((dat38 V c).after 0 t) from by
      unfold Dat.leavesExact; rw [liveAt38_0 t], after38_0]
  rw [show (dat38 V c).leavesExact 1 t = owns (c : Thread nD τ) (ms38_1 t) fullShare ((dat38 V c).after 1 t) from by
      unfold Dat.leavesExact; rw [liveAt38_1 t], after38_1]
  rw [show (dat38 V c).leavesExact 2 t = owns (c : Thread nD τ) (ms38_2 t) fullShare ((dat38 V c).after 2 t) from by
      unfold Dat.leavesExact; rw [liveAt38_2 t], after38_2]
  unfold outsAt38 out38_2; (try dsimp only)
  iintro ⟨⟨⟨Hacc, Hrest⟩, Hgen⟩, Howe, ⟨%da, Ha⟩, ⟨%db, Hb⟩, ⟨%dO, Hout⟩⟩
  iapply ((kernelRun38 c (grid38.coords t) _ _ _ _ _ _ _ _ (hcond38_0 t) (hcond38_1 t) (iblk38 V c 0 t) (iblk38 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover38_2 c _ _ _ _ _ _ _ _ _ _ _ _ _)

/-- The library's body obligation, at every point. -/
theorem body_obligation38 (c : Dev nD) : BodyObligation (dat38 (F := F) V c) (defs₀ (F := F)) Variants.none () Set.univ := fun t => by
  rw [bigSep_W38, bigSep_W38]
  exact sound_body38 V c t

/-- What the launch hands the region is the invariant before the first point, -/
theorem hin38 (c : Dev nD) : Pipeline.ΦA spec38 c ⊢ (dat38 V c).Φ 0 := Idealize.SL.BI.Entails.refl _

/-- and the invariant after the last point is what the launch takes back. -/
theorem hout38 (c : Dev nD) : (dat38 V c).Φ (Fin.last cfg38.N) ⊢ Pipeline.ΦA spec38 c := Idealize.SL.BI.Entails.refl _

end Cert.KernelIdeal.Hand

end
-- ==== Proof.RegKI39a.lean ====
/- Laid out by: python3 scratch/layout_regions.py --template-region 1 --region 39 --program KernelIdeal --parts a,b,c, --out-dir proof/Proof
   from the hand-written text of region 1 (RegKI1a.lean): the same text, the region's number substituted. -/
/-
  Region 39 of @main (custom_call 39): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond39_0 (i : grid39.Coords) : Prop := (Scalar.cmpi .ne (Scalar.extui (Scalar.cmpi .eq (BitVec.ofNat 32 (i 1).val) 0#32)) 0#32) = 1#1
/-- It holds exactly at the points with t % 4 = 0. -/
theorem hcond39_0 : ∀ t : Fin cfg39.N, cond39_0 (grid39.coords t) ↔ t.val % 4 = 0 :=
  (by decide +kernel : ∀ t : Fin grid39.N, cond39_0 (grid39.coords t) ↔ t.val % 4 = 0)

/-- "k = 3": the second conditional's test. -/
abbrev cond39_1 (i : grid39.Coords) : Prop := k39_cond2 i = 1#1
/-- It holds exactly at the points with t % 4 = 3. -/
theorem hcond39_1 : ∀ t : Fin cfg39.N, cond39_1 (grid39.coords t) ↔ t.val % 4 = 3 :=
  (by decide +kernel : ∀ t : Fin grid39.N, cond39_1 (grid39.coords t) ↔ t.val % 4 = 3)

/-! ## Where the windows are idle, and where the output is written back -/

/-- The two input windows are never idle. -/
theorem liveAt39_0 : ∀ t : Fin cfg39.N, cfg39.idle 0 (grid39.coords t) = false := by decide +kernel
theorem liveAt39_1 : ∀ t : Fin cfg39.N, cfg39.idle 1 (grid39.coords t) = false := by decide +kernel
/-- Where k ≠ 3 the output window is idle (the body stores nothing into it) and is not written back. -/
theorem idleAt39_2 : ∀ t : Fin cfg39.N, ¬cond39_1 (grid39.coords t) → cfg39.idle 2 (grid39.coords t) = true := by decide +kernel
theorem noFlush39_2 : ∀ t : Fin cfg39.N, ¬cond39_1 (grid39.coords t) → (cfg39.win 2).flush t = false := by decide +kernel
/-- Where k = 3 it is live. -/
theorem liveAt39_2 : ∀ t : Fin cfg39.N, cond39_1 (grid39.coords t) → cfg39.idle 2 (grid39.coords t) = false := by decide +kernel

/-! ## The staging memrefs at a point, and the scratch -/

/-- One staging buffer of the output window, through which its contents are stated. -/
abbrev VO39_2 : View sig .tc .vmem S1024x512 .f32 := (Memref.whole cc39_stg2_0 : Memref sig .tc .vmem S1024x512 .f32).view
abbrev ms39_0 (t : Fin cfg39.N) : Memref sig .tc .vmem S1024x1024 .bf16 := win39_0.stage (cfg39.slots t 0)
abbrev hs39_0 (t : Fin cfg39.N) : (ms39_0 t).IsWhole := hstage39_0 ((cfg39.slots t 0).cast nbuf39_0)
abbrev ms39_1 (t : Fin cfg39.N) : Memref sig .tc .vmem S1024x512 .f32 := win39_1.stage (cfg39.slots t 1)
abbrev hs39_1 (t : Fin cfg39.N) : (ms39_1 t).IsWhole := hstage39_1 ((cfg39.slots t 1).cast nbuf39_1)
abbrev ms39_2 (t : Fin cfg39.N) : Memref sig .tc .vmem S1024x512 .f32 := win39_2.stage (cfg39.slots t 2)
abbrev hs39_2 (t : Fin cfg39.N) : (ms39_2 t).IsWhole := hstage39_2 ((cfg39.slots t 2).cast nbuf39_2)
/-- The accumulator: a whole scoped buffer of the kernel's own. -/
abbrev scM39 : Memref sig .tc .vmem S1024x512 .f32 := Memref.whole cc39_scratch0
abbrev VS39 : View sig .tc .vmem S1024x512 .f32 := scM39.view

/-- The other scoped buffers of the core, none of which this region touches. -/
abbrev restBut39 (c : Dev nD) : sProp 𝕄 :=
  Pipeline.scopedRestBut (Ix := Unit) (Name := ℕ) (U := UR sig nD τ) (Lvl := ℕ) (Val := Elt F) spec39 c [cc39_scratch0]

/-- The region's invariant before its first point: the accumulator at something, the other scoped buffers, the generator register. -/
theorem PhiA39_eq (c : Dev nD) :
    (Pipeline.ΦA spec39 c : sProp 𝕄)
      = iprop(iprop((∃ d, owns (c : Thread nD τ) scM39 fullShare d) ∗ restBut39 c) ∗ (∃ r, prngReg c r)) := by
  unfold Pipeline.ΦA; rw [scopedRest39_split]; simp only [scM39, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun39_A (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond39_0 i) (hc1 : ¬cond39_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc39__matmul_kernel i arg2 harg2 arg3 harg3 arg4 harg4 arg5 harg5) K } := by
  refine ⟨[], ?_, fun xi2 E K => ?run⟩
  case run =>
    simp only [cc39__matmul_kernel_eq_skeleton]; unfold cc39__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI39b.lean ====
/- Laid out by: python3 scratch/layout_regions.py --template-region 1 --region 39 --program KernelIdeal --parts a,b,c, --out-dir proof/Proof
   from the hand-written text of region 1 (RegKI1b.lean): the same text, the region's number substituted. -/
/-
  Region 39, case B (k = 1, 2): the body's run. Neither conditional is taken: the product of the two blocks is added to what
  the point before left in the accumulator; the output block is not touched.
-/
import proofs.«158944_j64613488001249_1_alg».proof.Proof.RegKI39a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun39_B (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond39_0 i) (hc1 : ¬cond39_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc39__matmul_kernel i arg2 harg2 arg3 harg3 arg4 harg4 arg5 harg5) K } := by
  refine ⟨[], ?_, fun xi2 E K => ?run⟩
  case run =>
    simp only [cc39__matmul_kernel_eq_skeleton]; unfold cc39__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI39c.lean ====
/- Laid out by: python3 scratch/layout_regions.py --template-region 1 --region 39 --program KernelIdeal --parts a,b,c, --out-dir proof/Proof
   from the hand-written text of region 1 (RegKI1c.lean): the same text, the region's number substituted. -/
/-
  Region 39, case C (k = 3): the body's run. The product is added to the accumulator as in case B, and then the second
  conditional copies the accumulator over the whole output block.
-/
import proofs.«158944_j64613488001249_1_alg».proof.Proof.RegKI39b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun39_C (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond39_0 i) (hc1 : cond39_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc39__matmul_kernel i arg2 harg2 arg3 harg3 arg4 harg4 arg5 harg5) K } := by
  refine ⟨?_, ?_, fun E K => ?run⟩
  case run =>
    simp only [cc39__matmul_kernel_eq_skeleton]; unfold cc39__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI39.lean ====
/- Laid out by: python3 scratch/layout_regions.py --template-region 1 --region 39 --program KernelIdeal --parts a,b,c, --out-dir proof/Proof
   from the hand-written text of region 1 (RegKI1.lean): the same text, the region's number substituted. -/
/-
  Region 39 of @main, entered from the buffer contents `V`: what its windows' blocks are, what each case of the body leaves in
  the accumulator and in the output block, the accumulator and the output block point by point (`outsAt39`: at k = 0 the
  accumulator restarts from zeros plus the product; at k = 1, 2, 3 it is the point before's plus the product; at k = 3 the
  output block is the accumulator), the region's invariant (the accumulator at `outsAt39`'s second component), the proof data,
  and the body's obligation at every point.
-/
import proofs.«158944_j64613488001249_1_alg».proof.Proof.RegKI39c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk39 (c : Dev nD) (w : Fin cfg39.W) (t : Fin cfg39.N) : ((cfg39.win w).xblock (cfg39.grid.coords t)).Idx → Elt F (cfg39.win w).elt :=
  ((cfg39.win w).blk t).view.read (Elt F) (V c (Pipeline.arrRef spec39 w))

/-- An input window's current staging buffer holds its block at every point, for any proof data whose array is `V`'s and
    whose body leaves the block in place. -/
theorem before39_0_of {c : Dev nD} (dat : Dat τ (Elt F) Unit ℕ (UR sig nD τ) ℕ cfg39 c) (hA : dat.A 0 = V c (Pipeline.arrRef spec39 0))
    (hafter : ∀ t, dat.after 0 t = iblk39 V c 0 t) (t : Fin cfg39.N) (d) : dat.before 0 t d = iblk39 V c 0 t :=
  (dat.before_in_eq_fetched 0 rfl (fun _ => rfl) (fun _ _ _ => rfl) (fun t => by rw [hafter]; unfold Dat.blockOf iblk39; rw [hA]; try rfl) t d).trans
    (by unfold Dat.fetched Dat.blockOf iblk39; rw [hA]; try rfl)
theorem before39_1_of {c : Dev nD} (dat : Dat τ (Elt F) Unit ℕ (UR sig nD τ) ℕ cfg39 c) (hA : dat.A 1 = V c (Pipeline.arrRef spec39 1))
    (hafter : ∀ t, dat.after 1 t = iblk39 V c 1 t) (t : Fin cfg39.N) (d) : dat.before 1 t d = iblk39 V c 1 t :=
  (dat.before_in_eq_fetched 1 rfl (fun _ => rfl) (fun _ _ _ => rfl) (fun t => by rw [hafter]; unfold Dat.blockOf iblk39; rw [hA]; try rfl) t d).trans
    (by unfold Dat.fetched Dat.blockOf iblk39; rw [hA]; try rfl)

/-! ## What each case leaves -/

/-- Case A's stores into the accumulator cover it. -/
theorem scover39_A (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond39_0 i) (hc1 : ¬cond39_1 i)
    (x0 : Vec F S1024x1024 .bf16) (x1 : Vec F S1024x512 .f32) (y : S1024x512.Idx) :
    ∃ pc ∈ (kernelRun39_A c i arg2 harg2 arg3 harg3 arg4 harg4 arg5 harg5 hc0 hc1 x0 x1).2.1, y ∈ pc.1.set :=
  View.cover_of_tiledL (kernelRun39_A c i arg2 harg2 arg3 harg3 arg4 harg4 arg5 harg5 hc0 hc1 x0 x1).2.1 S1024x512.size (by sl_kernel_rfl) y
/-- What case A leaves in the accumulator. -/
noncomputable def sout39_A (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond39_0 i) (hc1 : ¬cond39_1 i)
    (x0 : Vec F S1024x1024 .bf16) (x1 : Vec F S1024x512 .f32) : Vec F S1024x512 .f32 :=
  VS39.read (Elt F) (VS39.writes (Elt F) VS39.junk (kernelRun39_A c i arg2 harg2 arg3 harg3 arg4 harg4 arg5 harg5 hc0 hc1 x0 x1).2.1)

/-- Case B's store into the accumulator covers it. -/
theorem scover39_B (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond39_0 i) (hc1 : ¬cond39_1 i)
    (x0 : Vec F S1024x1024 .bf16) (x1 : Vec F S1024x512 .f32) (xs0 : Vec F S1024x512 .f32) (y : S1024x512.Idx) :
    ∃ pc ∈ (kernelRun39_B c i arg2 harg2 arg3 harg3 arg4 harg4 arg5 harg5 hc0 hc1 x0 x1 xs0).2.1, y ∈ pc.1.set :=
  View.cover_of_tiledL (kernelRun39_B c i arg2 harg2 arg3 harg3 arg4 harg4 arg5 harg5 hc0 hc1 x0 x1 xs0).2.1 S1024x512.size (by sl_kernel_rfl) y
/-- What case B leaves in the accumulator, over what the point before left. -/
noncomputable def sout39_B (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond39_0 i) (hc1 : ¬cond39_1 i)
    (x0 : Vec F S1024x1024 .bf16) (x1 : Vec F S1024x512 .f32) (xs0 : Vec F S1024x512 .f32) : Vec F S1024x512 .f32 :=
  VS39.read (Elt F) (VS39.writes (Elt F) VS39.junk (kernelRun39_B c i arg2 harg2 arg3 harg3 arg4 harg4 arg5 harg5 hc0 hc1 x0 x1 xs0).2.1)

/-- Case C's store into the output block covers it, and so does its store into the accumulator. -/
theorem cover39_C (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond39_0 i) (hc1 : cond39_1 i)
    (x0 : Vec F S1024x1024 .bf16) (x1 : Vec F S1024x512 .f32) (xs0 : Vec F S1024x512 .f32) (y : S1024x512.Idx) :
    ∃ pc ∈ (kernelRun39_C c i arg2 harg2 arg3 harg3 arg4 harg4 arg5 harg5 hc0 hc1 x0 x1 xs0).1, y ∈ pc.1.set :=
  View.cover_of_tiledL (kernelRun39_C c i arg2 harg2 arg3 harg3 arg4 harg4 arg5 harg5 hc0 hc1 x0 x1 xs0).1 S1024x512.size (by sl_kernel_rfl) y
theorem scover39_C (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond39_0 i) (hc1 : cond39_1 i)
    (x0 : Vec F S1024x1024 .bf16) (x1 : Vec F S1024x512 .f32) (xs0 : Vec F S1024x512 .f32) (y : S1024x512.Idx) :
    ∃ pc ∈ (kernelRun39_C c i arg2 harg2 arg3 harg3 arg4 harg4 arg5 harg5 hc0 hc1 x0 x1 xs0).2.1, y ∈ pc.1.set :=
  View.cover_of_tiledL (kernelRun39_C c i arg2 harg2 arg3 harg3 arg4 harg4 arg5 harg5 hc0 hc1 x0 x1 xs0).2.1 S1024x512.size (by sl_kernel_rfl) y
/-- What case C leaves in the output block, and in the accumulator. -/
noncomputable def out39_C (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond39_0 i) (hc1 : cond39_1 i)
    (x0 : Vec F S1024x1024 .bf16) (x1 : Vec F S1024x512 .f32) (xs0 : Vec F S1024x512 .f32) : Vec F S1024x512 .f32 :=
  VO39_2.read (Elt F) (VO39_2.writes (Elt F) VO39_2.junk (kernelRun39_C c i arg2 harg2 arg3 harg3 arg4 harg4 arg5 harg5 hc0 hc1 x0 x1 xs0).1)
noncomputable def sout39_C (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond39_0 i) (hc1 : cond39_1 i)
    (x0 : Vec F S1024x1024 .bf16) (x1 : Vec F S1024x512 .f32) (xs0 : Vec F S1024x512 .f32) : Vec F S1024x512 .f32 :=
  VS39.read (Elt F) (VS39.writes (Elt F) VS39.junk (kernelRun39_C c i arg2 harg2 arg3 harg3 arg4 harg4 arg5 harg5 hc0 hc1 x0 x1 xs0).2.1)

/-- Where the output block is idle nothing consults what it holds: a placeholder. -/
noncomputable def outIdle39 : Vec F S1024x512 .f32 := VO39_2.read (Elt F) (VO39_2.writes (Elt F) VO39_2.junk [])

/-! ## The conditions at a point, from t % 4 -/

theorem isFirst39 (t : Fin cfg39.N) (h : t.val % 4 = 0) : cond39_0 (grid39.coords t) := (hcond39_0 t).mpr h
theorem notFirst39 (t : Fin cfg39.N) (h : ¬t.val % 4 = 0) : ¬cond39_0 (grid39.coords t) := fun hc => h ((hcond39_0 t).mp hc)
theorem isLast39 (t : Fin cfg39.N) (h : t.val % 4 = 3) : cond39_1 (grid39.coords t) := (hcond39_1 t).mpr h
theorem notLast39 (t : Fin cfg39.N) (h : ¬t.val % 4 = 3) : ¬cond39_1 (grid39.coords t) := fun hc => h ((hcond39_1 t).mp hc)

/-! ## The accumulator and the output block, point by point -/

/-- After the body at position `n`: (the output block's buffer, the accumulator). -/
noncomputable def outsAt39 (c : Dev nD) : (n : ℕ) → n < cfg39.N → Vec F S1024x512 .f32 × Vec F S1024x512 .f32
  | 0, hn => (outIdle39, sout39_A c (grid39.coords ⟨0, hn⟩) (ms39_0 ⟨0, hn⟩) (hs39_0 ⟨0, hn⟩) (ms39_1 ⟨0, hn⟩) (hs39_1 ⟨0, hn⟩) (ms39_2 ⟨0, hn⟩) (hs39_2 ⟨0, hn⟩) scM39 (Memref.isWhole_whole _) (isFirst39 ⟨0, hn⟩ (Nat.zero_mod _)) (notLast39 ⟨0, hn⟩ (by simp)) (iblk39 V c 0 ⟨0, hn⟩) (iblk39 V c 1 ⟨0, hn⟩))
  | n + 1, hn =>
    if h0 : (n + 1) % 4 = 0 then
      (outIdle39, sout39_A c (grid39.coords ⟨n + 1, hn⟩) (ms39_0 ⟨n + 1, hn⟩) (hs39_0 ⟨n + 1, hn⟩) (ms39_1 ⟨n + 1, hn⟩) (hs39_1 ⟨n + 1, hn⟩) (ms39_2 ⟨n + 1, hn⟩) (hs39_2 ⟨n + 1, hn⟩) scM39 (Memref.isWhole_whole _) (isFirst39 ⟨n + 1, hn⟩ h0) (notLast39 ⟨n + 1, hn⟩ (by show ¬(n + 1) % 4 = 3; omega)) (iblk39 V c 0 ⟨n + 1, hn⟩) (iblk39 V c 1 ⟨n + 1, hn⟩))
    else if h3 : (n + 1) % 4 = 3 then
      (out39_C c (grid39.coords ⟨n + 1, hn⟩) (ms39_0 ⟨n + 1, hn⟩) (hs39_0 ⟨n + 1, hn⟩) (ms39_1 ⟨n + 1, hn⟩) (hs39_1 ⟨n + 1, hn⟩) (ms39_2 ⟨n + 1, hn⟩) (hs39_2 ⟨n + 1, hn⟩) scM39 (Memref.isWhole_whole _) (notFirst39 ⟨n + 1, hn⟩ h0) (isLast39 ⟨n + 1, hn⟩ h3) (iblk39 V c 0 ⟨n + 1, hn⟩) (iblk39 V c 1 ⟨n + 1, hn⟩) (outsAt39 c n (Nat.lt_of_succ_lt hn)).2,
       sout39_C c (grid39.coords ⟨n + 1, hn⟩) (ms39_0 ⟨n + 1, hn⟩) (hs39_0 ⟨n + 1, hn⟩) (ms39_1 ⟨n + 1, hn⟩) (hs39_1 ⟨n + 1, hn⟩) (ms39_2 ⟨n + 1, hn⟩) (hs39_2 ⟨n + 1, hn⟩) scM39 (Memref.isWhole_whole _) (notFirst39 ⟨n + 1, hn⟩ h0) (isLast39 ⟨n + 1, hn⟩ h3) (iblk39 V c 0 ⟨n + 1, hn⟩) (iblk39 V c 1 ⟨n + 1, hn⟩) (outsAt39 c n (Nat.lt_of_succ_lt hn)).2)
    else
      (outIdle39, sout39_B c (grid39.coords ⟨n + 1, hn⟩) (ms39_0 ⟨n + 1, hn⟩) (hs39_0 ⟨n + 1, hn⟩) (ms39_1 ⟨n + 1, hn⟩) (hs39_1 ⟨n + 1, hn⟩) (ms39_2 ⟨n + 1, hn⟩) (hs39_2 ⟨n + 1, hn⟩) scM39 (Memref.isWhole_whole _) (notFirst39 ⟨n + 1, hn⟩ h0) (notLast39 ⟨n + 1, hn⟩ h3) (iblk39 V c 0 ⟨n + 1, hn⟩) (iblk39 V c 1 ⟨n + 1, hn⟩) (outsAt39 c n (Nat.lt_of_succ_lt hn)).2)

/-- `outsAt39` at a point with k = 0. -/
theorem outsAt39_A (c : Dev nD) (t : Fin cfg39.N) (h0 : t.val % 4 = 0) :
    outsAt39 V c t.val t.isLt = (outIdle39, sout39_A c (grid39.coords t) (ms39_0 t) (hs39_0 t) (ms39_1 t) (hs39_1 t) (ms39_2 t) (hs39_2 t) scM39 (Memref.isWhole_whole _) (isFirst39 t h0) (notLast39 t (by omega)) (iblk39 V c 0 t) (iblk39 V c 1 t)) := by
  obtain ⟨n, hn⟩ := t
  cases n with
  | zero => rfl
  | succ n => exact (dif_pos h0).trans rfl

/-- `outsAt39` at a point with k = 1, 2: over what the point before left. -/
theorem outsAt39_B (c : Dev nD) (t : Fin cfg39.N) (h0 : ¬t.val % 4 = 0) (h3 : ¬t.val % 4 = 3) :
    outsAt39 V c t.val t.isLt = (outIdle39, sout39_B c (grid39.coords t) (ms39_0 t) (hs39_0 t) (ms39_1 t) (hs39_1 t) (ms39_2 t) (hs39_2 t) scM39 (Memref.isWhole_whole _) (notFirst39 t h0) (notLast39 t h3) (iblk39 V c 0 t) (iblk39 V c 1 t)
      (outsAt39 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt39` at a point with k = 3. -/
theorem outsAt39_C (c : Dev nD) (t : Fin cfg39.N) (h0 : ¬t.val % 4 = 0) (h3 : t.val % 4 = 3) :
    outsAt39 V c t.val t.isLt = (out39_C c (grid39.coords t) (ms39_0 t) (hs39_0 t) (ms39_1 t) (hs39_1 t) (ms39_2 t) (hs39_2 t) scM39 (Memref.isWhole_whole _) (notFirst39 t h0) (isLast39 t h3) (iblk39 V c 0 t) (iblk39 V c 1 t)
        (outsAt39 V c (t.val - 1) (Nat.lt_of_le_of_lt (Nat.sub_le _ _) t.isLt)).2,
      sout39_C c (grid39.coords t) (ms39_0 t) (hs39_0 t) (ms39_1 t) (hs39_1 t) (ms39_2 t) (hs39_2 t) scM39 (Memref.isWhole_whole _) (notFirst39 t h0) (isLast39 t h3) (iblk39 V c 0 t) (iblk39 V c 1 t)
        (outsAt39 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS39 (c : Dev nD) : (n : ℕ) → n ≤ cfg39.N → sProp 𝕄
  | 0, _ => Pipeline.ΦA spec39 c
  | n + 1, hn => iprop(iprop(owns (c : Thread nD τ) scM39 fullShare ((outsAt39 V c n hn).2) ∗ restBut39 c) ∗ (∃ r, prngReg c r))

theorem PhiS39_zero (c : Dev nD) (n : ℕ) (h : n ≤ cfg39.N) (hz : n = 0) : PhiS39 V c n h = Pipeline.ΦA spec39 c := by
  subst hz; rfl
theorem PhiS39_succ (c : Dev nD) (n : ℕ) (hn : n < cfg39.N) :
    PhiS39 V c (n + 1) hn = iprop(iprop(owns (c : Thread nD τ) scM39 fullShare ((outsAt39 V c n hn).2) ∗ restBut39 c) ∗ (∃ r, prngReg c r)) := rfl
theorem PhiS39_pos (c : Dev nD) (n : ℕ) (h : n ≤ cfg39.N) (hz : n ≠ 0) :
    PhiS39 V c n h = iprop(iprop(owns (c : Thread nD τ) scM39 fullShare ((outsAt39 V c (n - 1) (by omega)).2) ∗ restBut39 c) ∗ (∃ r, prngReg c r)) := by
  cases n with
  | zero => exact absurd rfl hz
  | succ n => rfl

/-! ## The proof data -/

/-- The region's proof data on core `c`: the arrays as the region finds them; after the body at point `t` each input's
    buffer at its block and the output's at `outsAt39`'s first component; the invariant `PhiS39`; nothing owed; full shares. -/
noncomputable def dat39 (c : Dev nD) : Dat τ (Elt F) Unit ℕ (UR sig nD τ) ℕ cfg39 c where
  A w := V c (Pipeline.arrRef spec39 w)
  after w t := match w with
    | ⟨0, _⟩ => iblk39 V c 0 t
    | ⟨1, _⟩ => iblk39 V c 1 t
    | ⟨2, _⟩ => (outsAt39 V c t.val t.isLt).1
  Φ t := PhiS39 V c t.val (Nat.le_of_lt_succ t.isLt)
  q _ := fullShare
  owed _ := 0

theorem A_eq39 (c : Dev nD) (w : Fin cfg39.W) : (dat39 V c).A w = V c (Pipeline.arrRef spec39 w) := by
  dsimp only [dat39]
theorem PhiS39_castSucc (c : Dev nD) (t : Fin cfg39.N) :
    (dat39 V c).Φ t.castSucc = PhiS39 V c t.val (Nat.le_of_lt t.isLt) := by
  dsimp only [dat39]; simp only [Fin.coe_castSucc]
theorem after39_0 (c : Dev nD) (t : Fin cfg39.N) : (dat39 V c).after 0 t = iblk39 V c 0 t := by dsimp only [dat39]
theorem after39_1 (c : Dev nD) (t : Fin cfg39.N) : (dat39 V c).after 1 t = iblk39 V c 1 t := by dsimp only [dat39]
theorem after39_2 (c : Dev nD) (t : Fin cfg39.N) : (dat39 V c).after 2 t = (outsAt39 V c t.val t.isLt).1 := by dsimp only [dat39]
theorem before39_0 (c : Dev nD) (t : Fin cfg39.N) (d) : (dat39 V c).before 0 t d = iblk39 V c 0 t :=
  before39_0_of V (dat39 V c) (A_eq39 V c 0) (after39_0 V c) t d
theorem before39_1 (c : Dev nD) (t : Fin cfg39.N) (d) : (dat39 V c).before 1 t d = iblk39 V c 1 t :=
  before39_1_of V (dat39 V c) (A_eq39 V c 1) (after39_1 V c) t d

/-! ## The body's obligation -/

noncomputable def bodyPre39 (c : Dev nD) (t : Fin cfg39.N) : sProp 𝕄 :=
  iprop((dat39 V c).Φ t.castSucc ∗ (dat39 V c).owesAt () t.castSucc
    ∗ (∃ d, owns (c : Thread nD τ) (ms39_0 t) fullShare ((dat39 V c).before 0 t d))
    ∗ (∃ d, owns (c : Thread nD τ) (ms39_1 t) fullShare ((dat39 V c).before 1 t d))
    ∗ (∃ d, owns (c : Thread nD τ) (ms39_2 t) fullShare ((dat39 V c).before 2 t d)))

noncomputable def bodyPost39 (c : Dev nD) (t : Fin cfg39.N) : sProp 𝕄 :=
  iprop((dat39 V c).Φ t.succ ∗ (dat39 V c).owesAt () t.succ
    ∗ (dat39 V c).leavesExact 0 t
    ∗ (dat39 V c).leavesExact 1 t
    ∗ (dat39 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body39 (c : Dev nD) (t : Fin cfg39.N) :
    bodyPre39 V c t ⊢ wp frame (wpE (defs₀ (F := F)) Variants.none c none) Set.univ (bodyAt39 t) (fun _ => bodyPost39 V c t) := by
  unfold bodyPre39 bodyPost39 bodyAt39
  simp only [before39_0, before39_1]
  rw [show (dat39 V c).owesAt () t.succ = (dat39 V c).owesAt () t.castSucc from rfl]
  rw [show (dat39 V c).Φ t.succ = PhiS39 V c (t.val + 1) t.isLt from rfl, PhiS39_succ]
  rw [show (dat39 V c).leavesExact 0 t = owns (c : Thread nD τ) (ms39_0 t) fullShare ((dat39 V c).after 0 t) from by
    unfold Dat.leavesExact; rw [liveAt39_0 t], after39_0]
  rw [show (dat39 V c).leavesExact 1 t = owns (c : Thread nD τ) (ms39_1 t) fullShare ((dat39 V c).after 1 t) from by
    unfold Dat.leavesExact; rw [liveAt39_1 t], after39_1]
  by_cases h0 : t.val % 4 = 0
  · have h3 : ¬t.val % 4 = 3 := by omega
    rw [Dat.leavesExact_idle (dat39 V c) 2 t (idleAt39_2 t (notLast39 t h3)) (noFlush39_2 t (notLast39 t h3))]
    rw [outsAt39_A V c t h0]
    unfold sout39_A; (try dsimp only)
    by_cases hz : t.val = 0
    · rw [PhiS39_castSucc V c t, PhiS39_zero V c _ _ hz, PhiA39_eq]
      iintro ⟨⟨⟨HS0, Hrb⟩, Hg⟩, Ho, ⟨%d0, H0⟩, ⟨%d1, H1⟩, ⟨%d2, H2⟩⟩
      iapply ((kernelRun39_A c (grid39.coords t) _ _ _ _ _ _ _ _ (isFirst39 t h0) (notLast39 t (by omega)) (iblk39 V c 0 t) (iblk39 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover39_A c _ _ _ _ _ _ _ _ _ _ _ _ _)
          iexact Hrb
        iexact Hg
      isplitl [Ho]; · iexact Ho
      isplitl [H0]; · iexact H0
      isplitl [H1]; · iexact H1
      iexists _; iexact H2
    · rw [PhiS39_castSucc V c t, PhiS39_pos V c _ _ hz]
      iintro ⟨⟨⟨HS0, Hrb⟩, Hg⟩, Ho, ⟨%d0, H0⟩, ⟨%d1, H1⟩, ⟨%d2, H2⟩⟩
      iapply ((kernelRun39_A c (grid39.coords t) _ _ _ _ _ _ _ _ (isFirst39 t h0) (notLast39 t (by omega)) (iblk39 V c 0 t) (iblk39 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover39_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat39 V c).leavesExact 2 t = owns (c : Thread nD τ) (ms39_2 t) fullShare ((dat39 V c).after 2 t) from by
        unfold Dat.leavesExact; rw [liveAt39_2 t (isLast39 t h3)], after39_2]
      rw [outsAt39_C V c t h0 h3]
      unfold out39_C sout39_C; (try dsimp only)
      rw [PhiS39_castSucc V c t, PhiS39_pos V c _ _ hz]
      iintro ⟨⟨⟨HS0, Hrb⟩, Hg⟩, Ho, ⟨%d0, H0⟩, ⟨%d1, H1⟩, ⟨%d2, H2⟩⟩
      iapply ((kernelRun39_C c (grid39.coords t) _ _ _ _ _ _ _ _ (notFirst39 t h0) (isLast39 t h3) (iblk39 V c 0 t) (iblk39 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover39_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover39_C c _ _ _ _ _ _ _ _ _ _ _ _ _ _)
    · rw [Dat.leavesExact_idle (dat39 V c) 2 t (idleAt39_2 t (notLast39 t h3)) (noFlush39_2 t (notLast39 t h3))]
      rw [outsAt39_B V c t h0 h3]
      unfold sout39_B; (try dsimp only)
      rw [PhiS39_castSucc V c t, PhiS39_pos V c _ _ hz]
      iintro ⟨⟨⟨HS0, Hrb⟩, Hg⟩, Ho, ⟨%d0, H0⟩, ⟨%d1, H1⟩, ⟨%d2, H2⟩⟩
      iapply ((kernelRun39_B c (grid39.coords t) _ _ _ _ _ _ _ _ (notFirst39 t h0) (notLast39 t h3) (iblk39 V c 0 t) (iblk39 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover39_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation39 (c : Dev nD) : BodyObligation (dat39 (F := F) V c) (defs₀ (F := F)) Variants.none () Set.univ := fun t => by
  rw [bigSep_W39, bigSep_W39]
  exact sound_body39 V c t

/-- What the region is entered with is the invariant before the first point. -/
theorem hin39 (c : Dev nD) : Pipeline.ΦA spec39 c ⊢ (dat39 V c).Φ 0 := by
  rw [show (dat39 V c).Φ 0 = PhiS39 V c 0 (Nat.zero_le _) from rfl, PhiS39_zero V c 0 _ rfl]
  try exact Idealize.SL.BI.Entails.refl _

/-- After the last point the invariant gives the class's back: the accumulator's contents are forgotten. -/
theorem hout39 (c : Dev nD) : (dat39 V c).Φ (Fin.last cfg39.N) ⊢ Pipeline.ΦA spec39 c := by
  have hN : cfg39.N = 16 := N_39
  rw [show (dat39 V c).Φ (Fin.last cfg39.N) = PhiS39 V c (Fin.last cfg39.N).val (Nat.le_of_lt_succ (Fin.last cfg39.N).isLt) from rfl,
    PhiS39_pos V c _ _ (by rw [Fin.val_last]; omega), PhiA39_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI40a.lean ====
/- Laid out by: python3 scratch/layout_regions.py --template-region 1 --region 40 --program KernelIdeal --parts a,b,c, --out-dir proof/Proof
   from the hand-written text of region 1 (RegKI1a.lean): the same text, the region's number substituted. -/
/-
  Region 40 of @main (custom_call 40): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond40_0 (i : grid40.Coords) : Prop := (Scalar.cmpi .ne (Scalar.extui (Scalar.cmpi .eq (BitVec.ofNat 32 (i 1).val) 0#32)) 0#32) = 1#1
/-- It holds exactly at the points with t % 4 = 0. -/
theorem hcond40_0 : ∀ t : Fin cfg40.N, cond40_0 (grid40.coords t) ↔ t.val % 4 = 0 :=
  (by decide +kernel : ∀ t : Fin grid40.N, cond40_0 (grid40.coords t) ↔ t.val % 4 = 0)

/-- "k = 3": the second conditional's test. -/
abbrev cond40_1 (i : grid40.Coords) : Prop := k40_cond2 i = 1#1
/-- It holds exactly at the points with t % 4 = 3. -/
theorem hcond40_1 : ∀ t : Fin cfg40.N, cond40_1 (grid40.coords t) ↔ t.val % 4 = 3 :=
  (by decide +kernel : ∀ t : Fin grid40.N, cond40_1 (grid40.coords t) ↔ t.val % 4 = 3)

/-! ## Where the windows are idle, and where the output is written back -/

/-- The two input windows are never idle. -/
theorem liveAt40_0 : ∀ t : Fin cfg40.N, cfg40.idle 0 (grid40.coords t) = false := by decide +kernel
theorem liveAt40_1 : ∀ t : Fin cfg40.N, cfg40.idle 1 (grid40.coords t) = false := by decide +kernel
/-- Where k ≠ 3 the output window is idle (the body stores nothing into it) and is not written back. -/
theorem idleAt40_2 : ∀ t : Fin cfg40.N, ¬cond40_1 (grid40.coords t) → cfg40.idle 2 (grid40.coords t) = true := by decide +kernel
theorem noFlush40_2 : ∀ t : Fin cfg40.N, ¬cond40_1 (grid40.coords t) → (cfg40.win 2).flush t = false := by decide +kernel
/-- Where k = 3 it is live. -/
theorem liveAt40_2 : ∀ t : Fin cfg40.N, cond40_1 (grid40.coords t) → cfg40.idle 2 (grid40.coords t) = false := by decide +kernel

/-! ## The staging memrefs at a point, and the scratch -/

/-- One staging buffer of the output window, through which its contents are stated. -/
abbrev VO40_2 : View sig .tc .vmem S1024x512 .f32 := (Memref.whole cc40_stg2_0 : Memref sig .tc .vmem S1024x512 .f32).view
abbrev ms40_0 (t : Fin cfg40.N) : Memref sig .tc .vmem S1024x1024 .bf16 := win40_0.stage (cfg40.slots t 0)
abbrev hs40_0 (t : Fin cfg40.N) : (ms40_0 t).IsWhole := hstage40_0 ((cfg40.slots t 0).cast nbuf40_0)
abbrev ms40_1 (t : Fin cfg40.N) : Memref sig .tc .vmem S1024x512 .f32 := win40_1.stage (cfg40.slots t 1)
abbrev hs40_1 (t : Fin cfg40.N) : (ms40_1 t).IsWhole := hstage40_1 ((cfg40.slots t 1).cast nbuf40_1)
abbrev ms40_2 (t : Fin cfg40.N) : Memref sig .tc .vmem S1024x512 .f32 := win40_2.stage (cfg40.slots t 2)
abbrev hs40_2 (t : Fin cfg40.N) : (ms40_2 t).IsWhole := hstage40_2 ((cfg40.slots t 2).cast nbuf40_2)
/-- The accumulator: a whole scoped buffer of the kernel's own. -/
abbrev scM40 : Memref sig .tc .vmem S1024x512 .f32 := Memref.whole cc40_scratch0
abbrev VS40 : View sig .tc .vmem S1024x512 .f32 := scM40.view

/-- The other scoped buffers of the core, none of which this region touches. -/
abbrev restBut40 (c : Dev nD) : sProp 𝕄 :=
  Pipeline.scopedRestBut (Ix := Unit) (Name := ℕ) (U := UR sig nD τ) (Lvl := ℕ) (Val := Elt F) spec40 c [cc40_scratch0]

/-- The region's invariant before its first point: the accumulator at something, the other scoped buffers, the generator register. -/
theorem PhiA40_eq (c : Dev nD) :
    (Pipeline.ΦA spec40 c : sProp 𝕄)
      = iprop(iprop((∃ d, owns (c : Thread nD τ) scM40 fullShare d) ∗ restBut40 c) ∗ (∃ r, prngReg c r)) := by
  unfold Pipeline.ΦA; rw [scopedRest40_split]; simp only [scM40, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun40_A (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond40_0 i) (hc1 : ¬cond40_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc40__matmul_kernel i arg2 harg2 arg3 harg3 arg4 harg4 arg5 harg5) K } := by
  refine ⟨[], ?_, fun xi2 E K => ?run⟩
  case run =>
    simp only [cc40__matmul_kernel_eq_skeleton]; unfold cc40__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI40b.lean ====
/- Laid out by: python3 scratch/layout_regions.py --template-region 1 --region 40 --program KernelIdeal --parts a,b,c, --out-dir proof/Proof
   from the hand-written text of region 1 (RegKI1b.lean): the same text, the region's number substituted. -/
/-
  Region 40, case B (k = 1, 2): the body's run. Neither conditional is taken: the product of the two blocks is added to what
  the point before left in the accumulator; the output block is not touched.
-/
import proofs.«158944_j64613488001249_1_alg».proof.Proof.RegKI40a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun40_B (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond40_0 i) (hc1 : ¬cond40_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc40__matmul_kernel i arg2 harg2 arg3 harg3 arg4 harg4 arg5 harg5) K } := by
  refine ⟨[], ?_, fun xi2 E K => ?run⟩
  case run =>
    simp only [cc40__matmul_kernel_eq_skeleton]; unfold cc40__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI40c.lean ====
/- Laid out by: python3 scratch/layout_regions.py --template-region 1 --region 40 --program KernelIdeal --parts a,b,c, --out-dir proof/Proof
   from the hand-written text of region 1 (RegKI1c.lean): the same text, the region's number substituted. -/
/-
  Region 40, case C (k = 3): the body's run. The product is added to the accumulator as in case B, and then the second
  conditional copies the accumulator over the whole output block.
-/
import proofs.«158944_j64613488001249_1_alg».proof.Proof.RegKI40b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun40_C (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond40_0 i) (hc1 : cond40_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc40__matmul_kernel i arg2 harg2 arg3 harg3 arg4 harg4 arg5 harg5) K } := by
  refine ⟨?_, ?_, fun E K => ?run⟩
  case run =>
    simp only [cc40__matmul_kernel_eq_skeleton]; unfold cc40__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI40.lean ====
/- Laid out by: python3 scratch/layout_regions.py --template-region 1 --region 40 --program KernelIdeal --parts a,b,c, --out-dir proof/Proof
   from the hand-written text of region 1 (RegKI1.lean): the same text, the region's number substituted. -/
/-
  Region 40 of @main, entered from the buffer contents `V`: what its windows' blocks are, what each case of the body leaves in
  the accumulator and in the output block, the accumulator and the output block point by point (`outsAt40`: at k = 0 the
  accumulator restarts from zeros plus the product; at k = 1, 2, 3 it is the point before's plus the product; at k = 3 the
  output block is the accumulator), the region's invariant (the accumulator at `outsAt40`'s second component), the proof data,
  and the body's obligation at every point.
-/
import proofs.«158944_j64613488001249_1_alg».proof.Proof.RegKI40c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk40 (c : Dev nD) (w : Fin cfg40.W) (t : Fin cfg40.N) : ((cfg40.win w).xblock (cfg40.grid.coords t)).Idx → Elt F (cfg40.win w).elt :=
  ((cfg40.win w).blk t).view.read (Elt F) (V c (Pipeline.arrRef spec40 w))

/-- An input window's current staging buffer holds its block at every point, for any proof data whose array is `V`'s and
    whose body leaves the block in place. -/
theorem before40_0_of {c : Dev nD} (dat : Dat τ (Elt F) Unit ℕ (UR sig nD τ) ℕ cfg40 c) (hA : dat.A 0 = V c (Pipeline.arrRef spec40 0))
    (hafter : ∀ t, dat.after 0 t = iblk40 V c 0 t) (t : Fin cfg40.N) (d) : dat.before 0 t d = iblk40 V c 0 t :=
  (dat.before_in_eq_fetched 0 rfl (fun _ => rfl) (fun _ _ _ => rfl) (fun t => by rw [hafter]; unfold Dat.blockOf iblk40; rw [hA]; try rfl) t d).trans
    (by unfold Dat.fetched Dat.blockOf iblk40; rw [hA]; try rfl)
theorem before40_1_of {c : Dev nD} (dat : Dat τ (Elt F) Unit ℕ (UR sig nD τ) ℕ cfg40 c) (hA : dat.A 1 = V c (Pipeline.arrRef spec40 1))
    (hafter : ∀ t, dat.after 1 t = iblk40 V c 1 t) (t : Fin cfg40.N) (d) : dat.before 1 t d = iblk40 V c 1 t :=
  (dat.before_in_eq_fetched 1 rfl (fun _ => rfl) (fun _ _ _ => rfl) (fun t => by rw [hafter]; unfold Dat.blockOf iblk40; rw [hA]; try rfl) t d).trans
    (by unfold Dat.fetched Dat.blockOf iblk40; rw [hA]; try rfl)

/-! ## What each case leaves -/

/-- Case A's stores into the accumulator cover it. -/
theorem scover40_A (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond40_0 i) (hc1 : ¬cond40_1 i)
    (x0 : Vec F S1024x1024 .bf16) (x1 : Vec F S1024x512 .f32) (y : S1024x512.Idx) :
    ∃ pc ∈ (kernelRun40_A c i arg2 harg2 arg3 harg3 arg4 harg4 arg5 harg5 hc0 hc1 x0 x1).2.1, y ∈ pc.1.set :=
  View.cover_of_tiledL (kernelRun40_A c i arg2 harg2 arg3 harg3 arg4 harg4 arg5 harg5 hc0 hc1 x0 x1).2.1 S1024x512.size (by sl_kernel_rfl) y
/-- What case A leaves in the accumulator. -/
noncomputable def sout40_A (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond40_0 i) (hc1 : ¬cond40_1 i)
    (x0 : Vec F S1024x1024 .bf16) (x1 : Vec F S1024x512 .f32) : Vec F S1024x512 .f32 :=
  VS40.read (Elt F) (VS40.writes (Elt F) VS40.junk (kernelRun40_A c i arg2 harg2 arg3 harg3 arg4 harg4 arg5 harg5 hc0 hc1 x0 x1).2.1)

/-- Case B's store into the accumulator covers it. -/
theorem scover40_B (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond40_0 i) (hc1 : ¬cond40_1 i)
    (x0 : Vec F S1024x1024 .bf16) (x1 : Vec F S1024x512 .f32) (xs0 : Vec F S1024x512 .f32) (y : S1024x512.Idx) :
    ∃ pc ∈ (kernelRun40_B c i arg2 harg2 arg3 harg3 arg4 harg4 arg5 harg5 hc0 hc1 x0 x1 xs0).2.1, y ∈ pc.1.set :=
  View.cover_of_tiledL (kernelRun40_B c i arg2 harg2 arg3 harg3 arg4 harg4 arg5 harg5 hc0 hc1 x0 x1 xs0).2.1 S1024x512.size (by sl_kernel_rfl) y
/-- What case B leaves in the accumulator, over what the point before left. -/
noncomputable def sout40_B (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond40_0 i) (hc1 : ¬cond40_1 i)
    (x0 : Vec F S1024x1024 .bf16) (x1 : Vec F S1024x512 .f32) (xs0 : Vec F S1024x512 .f32) : Vec F S1024x512 .f32 :=
  VS40.read (Elt F) (VS40.writes (Elt F) VS40.junk (kernelRun40_B c i arg2 harg2 arg3 harg3 arg4 harg4 arg5 harg5 hc0 hc1 x0 x1 xs0).2.1)

/-- Case C's store into the output block covers it, and so does its store into the accumulator. -/
theorem cover40_C (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond40_0 i) (hc1 : cond40_1 i)
    (x0 : Vec F S1024x1024 .bf16) (x1 : Vec F S1024x512 .f32) (xs0 : Vec F S1024x512 .f32) (y : S1024x512.Idx) :
    ∃ pc ∈ (kernelRun40_C c i arg2 harg2 arg3 harg3 arg4 harg4 arg5 harg5 hc0 hc1 x0 x1 xs0).1, y ∈ pc.1.set :=
  View.cover_of_tiledL (kernelRun40_C c i arg2 harg2 arg3 harg3 arg4 harg4 arg5 harg5 hc0 hc1 x0 x1 xs0).1 S1024x512.size (by sl_kernel_rfl) y
theorem scover40_C (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond40_0 i) (hc1 : cond40_1 i)
    (x0 : Vec F S1024x1024 .bf16) (x1 : Vec F S1024x512 .f32) (xs0 : Vec F S1024x512 .f32) (y : S1024x512.Idx) :
    ∃ pc ∈ (kernelRun40_C c i arg2 harg2 arg3 harg3 arg4 harg4 arg5 harg5 hc0 hc1 x0 x1 xs0).2.1, y ∈ pc.1.set :=
  View.cover_of_tiledL (kernelRun40_C c i arg2 harg2 arg3 harg3 arg4 harg4 arg5 harg5 hc0 hc1 x0 x1 xs0).2.1 S1024x512.size (by sl_kernel_rfl) y
/-- What case C leaves in the output block, and in the accumulator. -/
noncomputable def out40_C (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond40_0 i) (hc1 : cond40_1 i)
    (x0 : Vec F S1024x1024 .bf16) (x1 : Vec F S1024x512 .f32) (xs0 : Vec F S1024x512 .f32) : Vec F S1024x512 .f32 :=
  VO40_2.read (Elt F) (VO40_2.writes (Elt F) VO40_2.junk (kernelRun40_C c i arg2 harg2 arg3 harg3 arg4 harg4 arg5 harg5 hc0 hc1 x0 x1 xs0).1)
noncomputable def sout40_C (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond40_0 i) (hc1 : cond40_1 i)
    (x0 : Vec F S1024x1024 .bf16) (x1 : Vec F S1024x512 .f32) (xs0 : Vec F S1024x512 .f32) : Vec F S1024x512 .f32 :=
  VS40.read (Elt F) (VS40.writes (Elt F) VS40.junk (kernelRun40_C c i arg2 harg2 arg3 harg3 arg4 harg4 arg5 harg5 hc0 hc1 x0 x1 xs0).2.1)

/-- Where the output block is idle nothing consults what it holds: a placeholder. -/
noncomputable def outIdle40 : Vec F S1024x512 .f32 := VO40_2.read (Elt F) (VO40_2.writes (Elt F) VO40_2.junk [])

/-! ## The conditions at a point, from t % 4 -/

theorem isFirst40 (t : Fin cfg40.N) (h : t.val % 4 = 0) : cond40_0 (grid40.coords t) := (hcond40_0 t).mpr h
theorem notFirst40 (t : Fin cfg40.N) (h : ¬t.val % 4 = 0) : ¬cond40_0 (grid40.coords t) := fun hc => h ((hcond40_0 t).mp hc)
theorem isLast40 (t : Fin cfg40.N) (h : t.val % 4 = 3) : cond40_1 (grid40.coords t) := (hcond40_1 t).mpr h
theorem notLast40 (t : Fin cfg40.N) (h : ¬t.val % 4 = 3) : ¬cond40_1 (grid40.coords t) := fun hc => h ((hcond40_1 t).mp hc)

/-! ## The accumulator and the output block, point by point -/

/-- After the body at position `n`: (the output block's buffer, the accumulator). -/
noncomputable def outsAt40 (c : Dev nD) : (n : ℕ) → n < cfg40.N → Vec F S1024x512 .f32 × Vec F S1024x512 .f32
  | 0, hn => (outIdle40, sout40_A c (grid40.coords ⟨0, hn⟩) (ms40_0 ⟨0, hn⟩) (hs40_0 ⟨0, hn⟩) (ms40_1 ⟨0, hn⟩) (hs40_1 ⟨0, hn⟩) (ms40_2 ⟨0, hn⟩) (hs40_2 ⟨0, hn⟩) scM40 (Memref.isWhole_whole _) (isFirst40 ⟨0, hn⟩ (Nat.zero_mod _)) (notLast40 ⟨0, hn⟩ (by simp)) (iblk40 V c 0 ⟨0, hn⟩) (iblk40 V c 1 ⟨0, hn⟩))
  | n + 1, hn =>
    if h0 : (n + 1) % 4 = 0 then
      (outIdle40, sout40_A c (grid40.coords ⟨n + 1, hn⟩) (ms40_0 ⟨n + 1, hn⟩) (hs40_0 ⟨n + 1, hn⟩) (ms40_1 ⟨n + 1, hn⟩) (hs40_1 ⟨n + 1, hn⟩) (ms40_2 ⟨n + 1, hn⟩) (hs40_2 ⟨n + 1, hn⟩) scM40 (Memref.isWhole_whole _) (isFirst40 ⟨n + 1, hn⟩ h0) (notLast40 ⟨n + 1, hn⟩ (by show ¬(n + 1) % 4 = 3; omega)) (iblk40 V c 0 ⟨n + 1, hn⟩) (iblk40 V c 1 ⟨n + 1, hn⟩))
    else if h3 : (n + 1) % 4 = 3 then
      (out40_C c (grid40.coords ⟨n + 1, hn⟩) (ms40_0 ⟨n + 1, hn⟩) (hs40_0 ⟨n + 1, hn⟩) (ms40_1 ⟨n + 1, hn⟩) (hs40_1 ⟨n + 1, hn⟩) (ms40_2 ⟨n + 1, hn⟩) (hs40_2 ⟨n + 1, hn⟩) scM40 (Memref.isWhole_whole _) (notFirst40 ⟨n + 1, hn⟩ h0) (isLast40 ⟨n + 1, hn⟩ h3) (iblk40 V c 0 ⟨n + 1, hn⟩) (iblk40 V c 1 ⟨n + 1, hn⟩) (outsAt40 c n (Nat.lt_of_succ_lt hn)).2,
       sout40_C c (grid40.coords ⟨n + 1, hn⟩) (ms40_0 ⟨n + 1, hn⟩) (hs40_0 ⟨n + 1, hn⟩) (ms40_1 ⟨n + 1, hn⟩) (hs40_1 ⟨n + 1, hn⟩) (ms40_2 ⟨n + 1, hn⟩) (hs40_2 ⟨n + 1, hn⟩) scM40 (Memref.isWhole_whole _) (notFirst40 ⟨n + 1, hn⟩ h0) (isLast40 ⟨n + 1, hn⟩ h3) (iblk40 V c 0 ⟨n + 1, hn⟩) (iblk40 V c 1 ⟨n + 1, hn⟩) (outsAt40 c n (Nat.lt_of_succ_lt hn)).2)
    else
      (outIdle40, sout40_B c (grid40.coords ⟨n + 1, hn⟩) (ms40_0 ⟨n + 1, hn⟩) (hs40_0 ⟨n + 1, hn⟩) (ms40_1 ⟨n + 1, hn⟩) (hs40_1 ⟨n + 1, hn⟩) (ms40_2 ⟨n + 1, hn⟩) (hs40_2 ⟨n + 1, hn⟩) scM40 (Memref.isWhole_whole _) (notFirst40 ⟨n + 1, hn⟩ h0) (notLast40 ⟨n + 1, hn⟩ h3) (iblk40 V c 0 ⟨n + 1, hn⟩) (iblk40 V c 1 ⟨n + 1, hn⟩) (outsAt40 c n (Nat.lt_of_succ_lt hn)).2)

/-- `outsAt40` at a point with k = 0. -/
theorem outsAt40_A (c : Dev nD) (t : Fin cfg40.N) (h0 : t.val % 4 = 0) :
    outsAt40 V c t.val t.isLt = (outIdle40, sout40_A c (grid40.coords t) (ms40_0 t) (hs40_0 t) (ms40_1 t) (hs40_1 t) (ms40_2 t) (hs40_2 t) scM40 (Memref.isWhole_whole _) (isFirst40 t h0) (notLast40 t (by omega)) (iblk40 V c 0 t) (iblk40 V c 1 t)) := by
  obtain ⟨n, hn⟩ := t
  cases n with
  | zero => rfl
  | succ n => exact (dif_pos h0).trans rfl

/-- `outsAt40` at a point with k = 1, 2: over what the point before left. -/
theorem outsAt40_B (c : Dev nD) (t : Fin cfg40.N) (h0 : ¬t.val % 4 = 0) (h3 : ¬t.val % 4 = 3) :
    outsAt40 V c t.val t.isLt = (outIdle40, sout40_B c (grid40.coords t) (ms40_0 t) (hs40_0 t) (ms40_1 t) (hs40_1 t) (ms40_2 t) (hs40_2 t) scM40 (Memref.isWhole_whole _) (notFirst40 t h0) (notLast40 t h3) (iblk40 V c 0 t) (iblk40 V c 1 t)
      (outsAt40 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt40` at a point with k = 3. -/
theorem outsAt40_C (c : Dev nD) (t : Fin cfg40.N) (h0 : ¬t.val % 4 = 0) (h3 : t.val % 4 = 3) :
    outsAt40 V c t.val t.isLt = (out40_C c (grid40.coords t) (ms40_0 t) (hs40_0 t) (ms40_1 t) (hs40_1 t) (ms40_2 t) (hs40_2 t) scM40 (Memref.isWhole_whole _) (notFirst40 t h0) (isLast40 t h3) (iblk40 V c 0 t) (iblk40 V c 1 t)
        (outsAt40 V c (t.val - 1) (Nat.lt_of_le_of_lt (Nat.sub_le _ _) t.isLt)).2,
      sout40_C c (grid40.coords t) (ms40_0 t) (hs40_0 t) (ms40_1 t) (hs40_1 t) (ms40_2 t) (hs40_2 t) scM40 (Memref.isWhole_whole _) (notFirst40 t h0) (isLast40 t h3) (iblk40 V c 0 t) (iblk40 V c 1 t)
        (outsAt40 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS40 (c : Dev nD) : (n : ℕ) → n ≤ cfg40.N → sProp 𝕄
  | 0, _ => Pipeline.ΦA spec40 c
  | n + 1, hn => iprop(iprop(owns (c : Thread nD τ) scM40 fullShare ((outsAt40 V c n hn).2) ∗ restBut40 c) ∗ (∃ r, prngReg c r))

theorem PhiS40_zero (c : Dev nD) (n : ℕ) (h : n ≤ cfg40.N) (hz : n = 0) : PhiS40 V c n h = Pipeline.ΦA spec40 c := by
  subst hz; rfl
theorem PhiS40_succ (c : Dev nD) (n : ℕ) (hn : n < cfg40.N) :
    PhiS40 V c (n + 1) hn = iprop(iprop(owns (c : Thread nD τ) scM40 fullShare ((outsAt40 V c n hn).2) ∗ restBut40 c) ∗ (∃ r, prngReg c r)) := rfl
theorem PhiS40_pos (c : Dev nD) (n : ℕ) (h : n ≤ cfg40.N) (hz : n ≠ 0) :
    PhiS40 V c n h = iprop(iprop(owns (c : Thread nD τ) scM40 fullShare ((outsAt40 V c (n - 1) (by omega)).2) ∗ restBut40 c) ∗ (∃ r, prngReg c r)) := by
  cases n with
  | zero => exact absurd rfl hz
  | succ n => rfl

/-! ## The proof data -/

/-- The region's proof data on core `c`: the arrays as the region finds them; after the body at point `t` each input's
    buffer at its block and the output's at `outsAt40`'s first component; the invariant `PhiS40`; nothing owed; full shares. -/
noncomputable def dat40 (c : Dev nD) : Dat τ (Elt F) Unit ℕ (UR sig nD τ) ℕ cfg40 c where
  A w := V c (Pipeline.arrRef spec40 w)
  after w t := match w with
    | ⟨0, _⟩ => iblk40 V c 0 t
    | ⟨1, _⟩ => iblk40 V c 1 t
    | ⟨2, _⟩ => (outsAt40 V c t.val t.isLt).1
  Φ t := PhiS40 V c t.val (Nat.le_of_lt_succ t.isLt)
  q _ := fullShare
  owed _ := 0

theorem A_eq40 (c : Dev nD) (w : Fin cfg40.W) : (dat40 V c).A w = V c (Pipeline.arrRef spec40 w) := by
  dsimp only [dat40]
theorem PhiS40_castSucc (c : Dev nD) (t : Fin cfg40.N) :
    (dat40 V c).Φ t.castSucc = PhiS40 V c t.val (Nat.le_of_lt t.isLt) := by
  dsimp only [dat40]; simp only [Fin.coe_castSucc]
theorem after40_0 (c : Dev nD) (t : Fin cfg40.N) : (dat40 V c).after 0 t = iblk40 V c 0 t := by dsimp only [dat40]
theorem after40_1 (c : Dev nD) (t : Fin cfg40.N) : (dat40 V c).after 1 t = iblk40 V c 1 t := by dsimp only [dat40]
theorem after40_2 (c : Dev nD) (t : Fin cfg40.N) : (dat40 V c).after 2 t = (outsAt40 V c t.val t.isLt).1 := by dsimp only [dat40]
theorem before40_0 (c : Dev nD) (t : Fin cfg40.N) (d) : (dat40 V c).before 0 t d = iblk40 V c 0 t :=
  before40_0_of V (dat40 V c) (A_eq40 V c 0) (after40_0 V c) t d
theorem before40_1 (c : Dev nD) (t : Fin cfg40.N) (d) : (dat40 V c).before 1 t d = iblk40 V c 1 t :=
  before40_1_of V (dat40 V c) (A_eq40 V c 1) (after40_1 V c) t d

/-! ## The body's obligation -/

noncomputable def bodyPre40 (c : Dev nD) (t : Fin cfg40.N) : sProp 𝕄 :=
  iprop((dat40 V c).Φ t.castSucc ∗ (dat40 V c).owesAt () t.castSucc
    ∗ (∃ d, owns (c : Thread nD τ) (ms40_0 t) fullShare ((dat40 V c).before 0 t d))
    ∗ (∃ d, owns (c : Thread nD τ) (ms40_1 t) fullShare ((dat40 V c).before 1 t d))
    ∗ (∃ d, owns (c : Thread nD τ) (ms40_2 t) fullShare ((dat40 V c).before 2 t d)))

noncomputable def bodyPost40 (c : Dev nD) (t : Fin cfg40.N) : sProp 𝕄 :=
  iprop((dat40 V c).Φ t.succ ∗ (dat40 V c).owesAt () t.succ
    ∗ (dat40 V c).leavesExact 0 t
    ∗ (dat40 V c).leavesExact 1 t
    ∗ (dat40 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body40 (c : Dev nD) (t : Fin cfg40.N) :
    bodyPre40 V c t ⊢ wp frame (wpE (defs₀ (F := F)) Variants.none c none) Set.univ (bodyAt40 t) (fun _ => bodyPost40 V c t) := by
  unfold bodyPre40 bodyPost40 bodyAt40
  simp only [before40_0, before40_1]
  rw [show (dat40 V c).owesAt () t.succ = (dat40 V c).owesAt () t.castSucc from rfl]
  rw [show (dat40 V c).Φ t.succ = PhiS40 V c (t.val + 1) t.isLt from rfl, PhiS40_succ]
  rw [show (dat40 V c).leavesExact 0 t = owns (c : Thread nD τ) (ms40_0 t) fullShare ((dat40 V c).after 0 t) from by
    unfold Dat.leavesExact; rw [liveAt40_0 t], after40_0]
  rw [show (dat40 V c).leavesExact 1 t = owns (c : Thread nD τ) (ms40_1 t) fullShare ((dat40 V c).after 1 t) from by
    unfold Dat.leavesExact; rw [liveAt40_1 t], after40_1]
  by_cases h0 : t.val % 4 = 0
  · have h3 : ¬t.val % 4 = 3 := by omega
    rw [Dat.leavesExact_idle (dat40 V c) 2 t (idleAt40_2 t (notLast40 t h3)) (noFlush40_2 t (notLast40 t h3))]
    rw [outsAt40_A V c t h0]
    unfold sout40_A; (try dsimp only)
    by_cases hz : t.val = 0
    · rw [PhiS40_castSucc V c t, PhiS40_zero V c _ _ hz, PhiA40_eq]
      iintro ⟨⟨⟨HS0, Hrb⟩, Hg⟩, Ho, ⟨%d0, H0⟩, ⟨%d1, H1⟩, ⟨%d2, H2⟩⟩
      iapply ((kernelRun40_A c (grid40.coords t) _ _ _ _ _ _ _ _ (isFirst40 t h0) (notLast40 t (by omega)) (iblk40 V c 0 t) (iblk40 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover40_A c _ _ _ _ _ _ _ _ _ _ _ _ _)
          iexact Hrb
        iexact Hg
      isplitl [Ho]; · iexact Ho
      isplitl [H0]; · iexact H0
      isplitl [H1]; · iexact H1
      iexists _; iexact H2
    · rw [PhiS40_castSucc V c t, PhiS40_pos V c _ _ hz]
      iintro ⟨⟨⟨HS0, Hrb⟩, Hg⟩, Ho, ⟨%d0, H0⟩, ⟨%d1, H1⟩, ⟨%d2, H2⟩⟩
      iapply ((kernelRun40_A c (grid40.coords t) _ _ _ _ _ _ _ _ (isFirst40 t h0) (notLast40 t (by omega)) (iblk40 V c 0 t) (iblk40 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover40_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat40 V c).leavesExact 2 t = owns (c : Thread nD τ) (ms40_2 t) fullShare ((dat40 V c).after 2 t) from by
        unfold Dat.leavesExact; rw [liveAt40_2 t (isLast40 t h3)], after40_2]
      rw [outsAt40_C V c t h0 h3]
      unfold out40_C sout40_C; (try dsimp only)
      rw [PhiS40_castSucc V c t, PhiS40_pos V c _ _ hz]
      iintro ⟨⟨⟨HS0, Hrb⟩, Hg⟩, Ho, ⟨%d0, H0⟩, ⟨%d1, H1⟩, ⟨%d2, H2⟩⟩
      iapply ((kernelRun40_C c (grid40.coords t) _ _ _ _ _ _ _ _ (notFirst40 t h0) (isLast40 t h3) (iblk40 V c 0 t) (iblk40 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover40_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover40_C c _ _ _ _ _ _ _ _ _ _ _ _ _ _)
    · rw [Dat.leavesExact_idle (dat40 V c) 2 t (idleAt40_2 t (notLast40 t h3)) (noFlush40_2 t (notLast40 t h3))]
      rw [outsAt40_B V c t h0 h3]
      unfold sout40_B; (try dsimp only)
      rw [PhiS40_castSucc V c t, PhiS40_pos V c _ _ hz]
      iintro ⟨⟨⟨HS0, Hrb⟩, Hg⟩, Ho, ⟨%d0, H0⟩, ⟨%d1, H1⟩, ⟨%d2, H2⟩⟩
      iapply ((kernelRun40_B c (grid40.coords t) _ _ _ _ _ _ _ _ (notFirst40 t h0) (notLast40 t h3) (iblk40 V c 0 t) (iblk40 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover40_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation40 (c : Dev nD) : BodyObligation (dat40 (F := F) V c) (defs₀ (F := F)) Variants.none () Set.univ := fun t => by
  rw [bigSep_W40, bigSep_W40]
  exact sound_body40 V c t

/-- What the region is entered with is the invariant before the first point. -/
theorem hin40 (c : Dev nD) : Pipeline.ΦA spec40 c ⊢ (dat40 V c).Φ 0 := by
  rw [show (dat40 V c).Φ 0 = PhiS40 V c 0 (Nat.zero_le _) from rfl, PhiS40_zero V c 0 _ rfl]
  try exact Idealize.SL.BI.Entails.refl _

/-- After the last point the invariant gives the class's back: the accumulator's contents are forgotten. -/
theorem hout40 (c : Dev nD) : (dat40 V c).Φ (Fin.last cfg40.N) ⊢ Pipeline.ΦA spec40 c := by
  have hN : cfg40.N = 16 := N_40
  rw [show (dat40 V c).Φ (Fin.last cfg40.N) = PhiS40 V c (Fin.last cfg40.N).val (Nat.le_of_lt_succ (Fin.last cfg40.N).isLt) from rfl,
    PhiS40_pos V c _ _ (by rw [Fin.val_last]; omega), PhiA40_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI41a.lean ====
/- Laid out by: python3 scratch/layout_grid41.py --template-region 0 --region 41 --program KernelIdeal --parts a, --shapes S1024x128=S1024x512,S128x512=S512x512
   from the hand-written text of region 0 (RegKI0a.lean): the same text, the region's number, block shapes substituted. -/
/- The region of KernelIdeal's @main that runs `cc41__matmul_kernel` (pipeline `cfg41`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond41_0 (i : grid41.Coords) : Prop :=
  (Scalar.cmpi .ne (Scalar.extui (Scalar.cmpi .eq (BitVec.ofNat 32 (i 1).val) 0#32)) 0#32) = 1#1
/-- True at every point: the reduction axis has one step. -/
theorem hcond41_0 : ∀ t : Fin cfg41.N, cond41_0 (grid41.coords t) :=
  (by decide +kernel : ∀ t : Fin grid41.N, cond41_0 (grid41.coords t))

/-- "This is the last reduction step" (the guard of the copy to the output block). -/
abbrev cond41_1 (i : grid41.Coords) : Prop := k41_cond2 i = 1#1
/-- True at every point, for the same reason. -/
theorem hcond41_1 : ∀ t : Fin cfg41.N, cond41_1 (grid41.coords t) :=
  (by decide +kernel : ∀ t : Fin grid41.N, cond41_1 (grid41.coords t))

/-! ## No window is idle anywhere -/

theorem liveAt41_0 : ∀ t : Fin cfg41.N, cfg41.idle 0 (grid41.coords t) = false := by decide +kernel
theorem liveAt41_1 : ∀ t : Fin cfg41.N, cfg41.idle 1 (grid41.coords t) = false := by decide +kernel
/-- The output window is stored at every point (the copy's guard holds everywhere). -/
theorem liveAt41_2 : ∀ t : Fin cfg41.N, cfg41.idle 2 (grid41.coords t) = false := by decide +kernel

/-! ## The memrefs the body is called on -/

/-- One staging buffer of the output window, through which its contents are stated (any whole view of the shape reads the
    same pieces back the same way). -/
abbrev VO41_2 : View sig .tc .vmem S1024x512 .f32 := (Memref.whole cc41_stg2_0 : Memref sig .tc .vmem S1024x512 .f32).view
/-- Each window's current staging memref at point `t`, spelt as the pipeline passes it, with its wholeness. -/
abbrev ms41_0 (t : Fin cfg41.N) : Memref sig .tc .vmem S1024x512 .f32 := win41_0.stage (cfg41.slots t 0)
abbrev hs41_0 (t : Fin cfg41.N) : (ms41_0 t).IsWhole := hstage41_0 ((cfg41.slots t 0).cast nbuf41_0)
abbrev ms41_1 (t : Fin cfg41.N) : Memref sig .tc .vmem S512x512 .bf16 := win41_1.stage (cfg41.slots t 1)
abbrev hs41_1 (t : Fin cfg41.N) : (ms41_1 t).IsWhole := hstage41_1 ((cfg41.slots t 1).cast nbuf41_1)
abbrev ms41_2 (t : Fin cfg41.N) : Memref sig .tc .vmem S1024x512 .f32 := win41_2.stage (cfg41.slots t 2)
abbrev hs41_2 (t : Fin cfg41.N) : (ms41_2 t).IsWhole := hstage41_2 ((cfg41.slots t 2).cast nbuf41_2)
/-- The accumulator: a whole scoped buffer of the kernel's own, passed beside the windows. -/
abbrev scM41_0 : Memref sig .tc .vmem S1024x512 .f32 := Memref.whole cc41_scratch0
abbrev VS41_0 : View sig .tc .vmem S1024x512 .f32 := scM41_0.view

/-- The region invariant with the accumulator taken out of the scoped rest: the accumulator owned at some contents, every
    other scoped buffer unopened, and the generator register. -/
theorem PhiA41_eq (c : Dev nD) :
    (Pipeline.ΦA spec41 c : sProp 𝕄)
      = iprop(iprop(iprop((∃ d, owns (c : Thread nD τ) scM41_0 fullShare d))
            ∗ Pipeline.scopedRestBut (Ix := Unit) (Name := ℕ) (U := UR sig nD τ) (Lvl := ℕ) (Val := Elt F) spec41 c [cc41_scratch0])
          ∗ (∃ r, prngReg c r)) := by
  unfold Pipeline.ΦA; rw [scopedRest41_split]; simp only [scM41_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun41 (c : Dev nD) (i : grid41.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond41_0 i) (hlast : cond41_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc41__matmul_kernel i arg2 harg2 arg3 harg3 arg4 harg4 arg5 harg5) K } := by
  refine ⟨?_, ?_, fun E K => ?run⟩
  case run =>
    simp only [cc41__matmul_kernel_eq_skeleton]; unfold cc41__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.KernelIdeal.Hand

end
-- ==== Proof.RegKI41.lean ====
/- Laid out by: python3 scratch/layout_grid41.py --template-region 0 --region 41 --program KernelIdeal --parts a, --shapes S1024x128=S1024x512,S128x512=S512x512
   from the hand-written text of region 0 (RegKI0.lean): the same text, the region's number, block shapes substituted. -/
/- The region of KernelIdeal's @main that runs `cc41__matmul_kernel` (pipeline `cfg41`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegKI41a
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk41 (c : Dev nD) (w : Fin cfg41.W) (t : Fin cfg41.N) : ((cfg41.win w).xblock (cfg41.grid.coords t)).Idx → Elt F (cfg41.win w).elt :=
  ((cfg41.win w).blk t).view.read (Elt F) (V c (Pipeline.arrRef spec41 w))

/-! ## What the case leaves, as pieces read back -/

/-- The output's pieces tile its block (one whole-block store). -/
theorem cover41_2 (c : Dev nD) (i : grid41.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond41_0 i) (hlast : cond41_1 i) (xa : Vec F S1024x512 .f32) (xb : Vec F S512x512 .bf16) (y : S1024x512.Idx) :
    ∃ pc ∈ (kernelRun41 c i arg2 harg2 arg3 harg3 arg4 harg4 arg5 harg5 hfirst hlast xa xb).1, y ∈ pc.1.set :=
  View.cover_of_tiledL (kernelRun41 c i arg2 harg2 arg3 harg3 arg4 harg4 arg5 harg5 hfirst hlast xa xb).1 S1024x512.size (by sl_kernel_rfl) y

/-- What the case leaves in the output's staging buffer: its pieces read back over junk. -/
noncomputable def out41_2 (c : Dev nD) (i : grid41.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond41_0 i) (hlast : cond41_1 i) (xa : Vec F S1024x512 .f32) (xb : Vec F S512x512 .bf16) : Vec F S1024x512 .f32 :=
  VO41_2.read (Elt F) (VO41_2.writes (Elt F) VO41_2.junk (kernelRun41 c i arg2 harg2 arg3 harg3 arg4 harg4 arg5 harg5 hfirst hlast xa xb).1)

/-- What the case leaves in the accumulator: its pieces read back over junk. -/
noncomputable def sout41_0 (c : Dev nD) (i : grid41.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond41_0 i) (hlast : cond41_1 i) (xa : Vec F S1024x512 .f32) (xb : Vec F S512x512 .bf16) : Vec F S1024x512 .f32 :=
  VS41_0.read (Elt F) (VS41_0.writes (Elt F) VS41_0.junk (kernelRun41 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout41_0_eq (c : Dev nD) (i : grid41.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond41_0 i) (hlast : cond41_1 i) (xa : Vec F S1024x512 .f32) (xb : Vec F S512x512 .bf16) :
    sout41_0 c i arg2 harg2 arg3 harg3 arg4 harg4 arg5 harg5 hfirst hlast xa xb = k41_pay2 xa xb (k41_pay1 (F := F)) := by
  unfold sout41_0
  rw [View.read_writes_junk_eq_canon]
  unfold kernelRun41
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out41_2_eq (c : Dev nD) (i : grid41.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond41_0 i) (hlast : cond41_1 i) (xa : Vec F S1024x512 .f32) (xb : Vec F S512x512 .bf16) :
    out41_2 c i arg2 harg2 arg3 harg3 arg4 harg4 arg5 harg5 hfirst hlast xa xb = k41_pay2 xa xb (k41_pay1 (F := F)) := by
  unfold out41_2
  rw [View.read_writes_junk_eq_canon]
  unfold kernelRun41
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt41 (c : Dev nD) (n : ℕ) (hn : n < cfg41.N) : Vec F S1024x512 .f32 × Vec F S1024x512 .f32 :=
  (out41_2 c (grid41.coords ⟨n, hn⟩) (ms41_0 ⟨n, hn⟩) (hs41_0 ⟨n, hn⟩) (ms41_1 ⟨n, hn⟩) (hs41_1 ⟨n, hn⟩) (ms41_2 ⟨n, hn⟩) (hs41_2 ⟨n, hn⟩) scM41_0 (Memref.isWhole_whole _)
      (hcond41_0 ⟨n, hn⟩) (hcond41_1 ⟨n, hn⟩) (iblk41 V c 0 ⟨n, hn⟩) (iblk41 V c 1 ⟨n, hn⟩),
   sout41_0 c (grid41.coords ⟨n, hn⟩) (ms41_0 ⟨n, hn⟩) (hs41_0 ⟨n, hn⟩) (ms41_1 ⟨n, hn⟩) (hs41_1 ⟨n, hn⟩) (ms41_2 ⟨n, hn⟩) (hs41_2 ⟨n, hn⟩) scM41_0 (Memref.isWhole_whole _)
      (hcond41_0 ⟨n, hn⟩) (hcond41_1 ⟨n, hn⟩) (iblk41 V c 0 ⟨n, hn⟩) (iblk41 V c 1 ⟨n, hn⟩))

/-- Every point is a first reduction step: the accumulator after it is one product onto zero. -/
theorem outsAt41_first (c : Dev nD) (t : Fin cfg41.N) :
    (outsAt41 V c t.val t.isLt).2 = k41_pay2 (iblk41 V c 0 t) (iblk41 V c 1 t) (k41_pay1 (F := F)) := by
  obtain ⟨n, hn⟩ := t
  unfold outsAt41
  dsimp only
  rw [sout41_0_eq]

/-- Every point is a last reduction step: the output block after it is the accumulator. -/
theorem outsAt41_last (c : Dev nD) (t : Fin cfg41.N) :
    (outsAt41 V c t.val t.isLt).1 = (outsAt41 V c t.val t.isLt).2 := by
  obtain ⟨n, hn⟩ := t
  unfold outsAt41
  dsimp only
  rw [out41_2_eq, sout41_0_eq]

/-! ## The pipeline's proof data -/

/-- The proof data of the pipeline on core `c`: the arrays as the region finds them; after the body at point `t` each input's
    buffer at its block and the output's at `outsAt41`'s first component; the invariant the same at every point; nothing owed;
    full shares. -/
noncomputable def dat41 (c : Dev nD) : Dat τ (Elt F) Unit ℕ (UR sig nD τ) ℕ cfg41 c where
  A w := V c (Pipeline.arrRef spec41 w)
  after w t := match w with
    | ⟨0, _⟩ => iblk41 V c 0 t
    | ⟨1, _⟩ => iblk41 V c 1 t
    | ⟨2, _⟩ => (outsAt41 V c t.val t.isLt).1
  Φ _ := Pipeline.ΦA spec41 c
  q _ := fullShare
  owed _ := 0

theorem A_eq41 (c : Dev nD) (w : Fin cfg41.W) : (dat41 V c).A w = V c (Pipeline.arrRef spec41 w) := by
  dsimp only [dat41]

theorem after41_0 (c : Dev nD) (t : Fin cfg41.N) : (dat41 V c).after 0 t = iblk41 V c 0 t := by dsimp only [dat41]
theorem after41_1 (c : Dev nD) (t : Fin cfg41.N) : (dat41 V c).after 1 t = iblk41 V c 1 t := by dsimp only [dat41]
theorem after41_2 (c : Dev nD) (t : Fin cfg41.N) : (dat41 V c).after 2 t = (outsAt41 V c t.val t.isLt).1 := by dsimp only [dat41]

/-- An input's current staging buffer holds its block at every point, fetched there or not: where it is not fetched its block
    index has not moved since the point before, and the body left the block in place. -/
theorem before41_0 (c : Dev nD) (t : Fin cfg41.N) (d) : (dat41 V c).before 0 t d = iblk41 V c 0 t :=
  ((dat41 V c).before_in_eq_fetched 0 rfl (fun _ => rfl) (fun _ _ _ => rfl)
      (fun t => by rw [after41_0]; unfold Dat.blockOf iblk41; rw [A_eq41]; try rfl) t d).trans
    (by unfold Dat.fetched Dat.blockOf iblk41; rw [A_eq41]; try rfl)
theorem before41_1 (c : Dev nD) (t : Fin cfg41.N) (d) : (dat41 V c).before 1 t d = iblk41 V c 1 t :=
  ((dat41 V c).before_in_eq_fetched 1 rfl (fun _ => rfl) (fun _ _ _ => rfl)
      (fun t => by rw [after41_1]; unfold Dat.blockOf iblk41; rw [A_eq41]; try rfl) t d).trans
    (by unfold Dat.fetched Dat.blockOf iblk41; rw [A_eq41]; try rfl)

/-! ## The body obligation, at a generic point -/

/-- What the body is called with at point `t`, the windows one by one, -/
noncomputable def bodyPre41 (c : Dev nD) (t : Fin cfg41.N) : sProp 𝕄 :=
  iprop((dat41 V c).Φ t.castSucc ∗ (dat41 V c).owesAt () t.castSucc
    ∗ (∃ d, owns (c : Thread nD τ) (ms41_0 t) fullShare ((dat41 V c).before 0 t d))
    ∗ (∃ d, owns (c : Thread nD τ) (ms41_1 t) fullShare ((dat41 V c).before 1 t d))
    ∗ (∃ d, owns (c : Thread nD τ) (ms41_2 t) fullShare ((dat41 V c).before 2 t d)))

/-- and what it returns. -/
noncomputable def bodyPost41 (c : Dev nD) (t : Fin cfg41.N) : sProp 𝕄 :=
  iprop((dat41 V c).Φ t.succ ∗ (dat41 V c).owesAt () t.succ
    ∗ (dat41 V c).leavesExact 0 t
    ∗ (dat41 V c).leavesExact 1 t
    ∗ (dat41 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body41 (c : Dev nD) (t : Fin cfg41.N) :
    bodyPre41 V c t ⊢ wp frame (wpE (defs₀ (F := F)) Variants.none c none) Set.univ (bodyAt41 t) (fun _ => bodyPost41 V c t) := by
  unfold bodyPre41 bodyPost41 bodyAt41
  simp only [before41_0, before41_1]
  rw [show (dat41 V c).owesAt () t.succ = (dat41 V c).owesAt () t.castSucc from rfl,
    show (dat41 V c).Φ t.succ = Pipeline.ΦA spec41 c from rfl, show (dat41 V c).Φ t.castSucc = Pipeline.ΦA spec41 c from rfl, PhiA41_eq]
  rw [show (dat41 V c).leavesExact 0 t = owns (c : Thread nD τ) (ms41_0 t) fullShare ((dat41 V c).after 0 t) from by
      unfold Dat.leavesExact; rw [liveAt41_0 t], after41_0]
  rw [show (dat41 V c).leavesExact 1 t = owns (c : Thread nD τ) (ms41_1 t) fullShare ((dat41 V c).after 1 t) from by
      unfold Dat.leavesExact; rw [liveAt41_1 t], after41_1]
  rw [show (dat41 V c).leavesExact 2 t = owns (c : Thread nD τ) (ms41_2 t) fullShare ((dat41 V c).after 2 t) from by
      unfold Dat.leavesExact; rw [liveAt41_2 t], after41_2]
  unfold outsAt41 out41_2; (try dsimp only)
  iintro ⟨⟨⟨Hacc, Hrest⟩, Hgen⟩, Howe, ⟨%da, Ha⟩, ⟨%db, Hb⟩, ⟨%dO, Hout⟩⟩
  iapply ((kernelRun41 c (grid41.coords t) _ _ _ _ _ _ _ _ (hcond41_0 t) (hcond41_1 t) (iblk41 V c 0 t) (iblk41 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover41_2 c _ _ _ _ _ _ _ _ _ _ _ _ _)

/-- The library's body obligation, at every point. -/
theorem body_obligation41 (c : Dev nD) : BodyObligation (dat41 (F := F) V c) (defs₀ (F := F)) Variants.none () Set.univ := fun t => by
  rw [bigSep_W41, bigSep_W41]
  exact sound_body41 V c t

/-- What the launch hands the region is the invariant before the first point, -/
theorem hin41 (c : Dev nD) : Pipeline.ΦA spec41 c ⊢ (dat41 V c).Φ 0 := Idealize.SL.BI.Entails.refl _

/-- and the invariant after the last point is what the launch takes back. -/
theorem hout41 (c : Dev nD) : (dat41 V c).Φ (Fin.last cfg41.N) ⊢ Pipeline.ΦA spec41 c := Idealize.SL.BI.Entails.refl _

end Cert.KernelIdeal.Hand

end
-- ==== Proof.RegKI42a.lean ====
/- Laid out by: python3 scratch/layout_regions.py --template-region 1 --region 42 --program KernelIdeal --parts a,b,c, --out-dir proof/Proof
   from the hand-written text of region 1 (RegKI1a.lean): the same text, the region's number substituted. -/
/-
  Region 42 of @main (custom_call 42): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond42_0 (i : grid42.Coords) : Prop := (Scalar.cmpi .ne (Scalar.extui (Scalar.cmpi .eq (BitVec.ofNat 32 (i 1).val) 0#32)) 0#32) = 1#1
/-- It holds exactly at the points with t % 4 = 0. -/
theorem hcond42_0 : ∀ t : Fin cfg42.N, cond42_0 (grid42.coords t) ↔ t.val % 4 = 0 :=
  (by decide +kernel : ∀ t : Fin grid42.N, cond42_0 (grid42.coords t) ↔ t.val % 4 = 0)

/-- "k = 3": the second conditional's test. -/
abbrev cond42_1 (i : grid42.Coords) : Prop := k42_cond2 i = 1#1
/-- It holds exactly at the points with t % 4 = 3. -/
theorem hcond42_1 : ∀ t : Fin cfg42.N, cond42_1 (grid42.coords t) ↔ t.val % 4 = 3 :=
  (by decide +kernel : ∀ t : Fin grid42.N, cond42_1 (grid42.coords t) ↔ t.val % 4 = 3)

/-! ## Where the windows are idle, and where the output is written back -/

/-- The two input windows are never idle. -/
theorem liveAt42_0 : ∀ t : Fin cfg42.N, cfg42.idle 0 (grid42.coords t) = false := by decide +kernel
theorem liveAt42_1 : ∀ t : Fin cfg42.N, cfg42.idle 1 (grid42.coords t) = false := by decide +kernel
/-- Where k ≠ 3 the output window is idle (the body stores nothing into it) and is not written back. -/
theorem idleAt42_2 : ∀ t : Fin cfg42.N, ¬cond42_1 (grid42.coords t) → cfg42.idle 2 (grid42.coords t) = true := by decide +kernel
theorem noFlush42_2 : ∀ t : Fin cfg42.N, ¬cond42_1 (grid42.coords t) → (cfg42.win 2).flush t = false := by decide +kernel
/-- Where k = 3 it is live. -/
theorem liveAt42_2 : ∀ t : Fin cfg42.N, cond42_1 (grid42.coords t) → cfg42.idle 2 (grid42.coords t) = false := by decide +kernel

/-! ## The staging memrefs at a point, and the scratch -/

/-- One staging buffer of the output window, through which its contents are stated. -/
abbrev VO42_2 : View sig .tc .vmem S1024x512 .f32 := (Memref.whole cc42_stg2_0 : Memref sig .tc .vmem S1024x512 .f32).view
abbrev ms42_0 (t : Fin cfg42.N) : Memref sig .tc .vmem S1024x1024 .bf16 := win42_0.stage (cfg42.slots t 0)
abbrev hs42_0 (t : Fin cfg42.N) : (ms42_0 t).IsWhole := hstage42_0 ((cfg42.slots t 0).cast nbuf42_0)
abbrev ms42_1 (t : Fin cfg42.N) : Memref sig .tc .vmem S1024x512 .f32 := win42_1.stage (cfg42.slots t 1)
abbrev hs42_1 (t : Fin cfg42.N) : (ms42_1 t).IsWhole := hstage42_1 ((cfg42.slots t 1).cast nbuf42_1)
abbrev ms42_2 (t : Fin cfg42.N) : Memref sig .tc .vmem S1024x512 .f32 := win42_2.stage (cfg42.slots t 2)
abbrev hs42_2 (t : Fin cfg42.N) : (ms42_2 t).IsWhole := hstage42_2 ((cfg42.slots t 2).cast nbuf42_2)
/-- The accumulator: a whole scoped buffer of the kernel's own. -/
abbrev scM42 : Memref sig .tc .vmem S1024x512 .f32 := Memref.whole cc42_scratch0
abbrev VS42 : View sig .tc .vmem S1024x512 .f32 := scM42.view

/-- The other scoped buffers of the core, none of which this region touches. -/
abbrev restBut42 (c : Dev nD) : sProp 𝕄 :=
  Pipeline.scopedRestBut (Ix := Unit) (Name := ℕ) (U := UR sig nD τ) (Lvl := ℕ) (Val := Elt F) spec42 c [cc42_scratch0]

/-- The region's invariant before its first point: the accumulator at something, the other scoped buffers, the generator register. -/
theorem PhiA42_eq (c : Dev nD) :
    (Pipeline.ΦA spec42 c : sProp 𝕄)
      = iprop(iprop((∃ d, owns (c : Thread nD τ) scM42 fullShare d) ∗ restBut42 c) ∗ (∃ r, prngReg c r)) := by
  unfold Pipeline.ΦA; rw [scopedRest42_split]; simp only [scM42, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun42_A (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond42_0 i) (hc1 : ¬cond42_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc42__matmul_kernel i arg2 harg2 arg3 harg3 arg4 harg4 arg5 harg5) K } := by
  refine ⟨[], ?_, fun xi2 E K => ?run⟩
  case run =>
    simp only [cc42__matmul_kernel_eq_skeleton]; unfold cc42__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI42b.lean ====
/- Laid out by: python3 scratch/layout_regions.py --template-region 1 --region 42 --program KernelIdeal --parts a,b,c, --out-dir proof/Proof
   from the hand-written text of region 1 (RegKI1b.lean): the same text, the region's number substituted. -/
/-
  Region 42, case B (k = 1, 2): the body's run. Neither conditional is taken: the product of the two blocks is added to what
  the point before left in the accumulator; the output block is not touched.
-/
import proofs.«158944_j64613488001249_1_alg».proof.Proof.RegKI42a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun42_B (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond42_0 i) (hc1 : ¬cond42_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc42__matmul_kernel i arg2 harg2 arg3 harg3 arg4 harg4 arg5 harg5) K } := by
  refine ⟨[], ?_, fun xi2 E K => ?run⟩
  case run =>
    simp only [cc42__matmul_kernel_eq_skeleton]; unfold cc42__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI42c.lean ====
/- Laid out by: python3 scratch/layout_regions.py --template-region 1 --region 42 --program KernelIdeal --parts a,b,c, --out-dir proof/Proof
   from the hand-written text of region 1 (RegKI1c.lean): the same text, the region's number substituted. -/
/-
  Region 42, case C (k = 3): the body's run. The product is added to the accumulator as in case B, and then the second
  conditional copies the accumulator over the whole output block.
-/
import proofs.«158944_j64613488001249_1_alg».proof.Proof.RegKI42b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun42_C (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond42_0 i) (hc1 : cond42_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc42__matmul_kernel i arg2 harg2 arg3 harg3 arg4 harg4 arg5 harg5) K } := by
  refine ⟨?_, ?_, fun E K => ?run⟩
  case run =>
    simp only [cc42__matmul_kernel_eq_skeleton]; unfold cc42__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI42.lean ====
/- Laid out by: python3 scratch/layout_regions.py --template-region 1 --region 42 --program KernelIdeal --parts a,b,c, --out-dir proof/Proof
   from the hand-written text of region 1 (RegKI1.lean): the same text, the region's number substituted. -/
/-
  Region 42 of @main, entered from the buffer contents `V`: what its windows' blocks are, what each case of the body leaves in
  the accumulator and in the output block, the accumulator and the output block point by point (`outsAt42`: at k = 0 the
  accumulator restarts from zeros plus the product; at k = 1, 2, 3 it is the point before's plus the product; at k = 3 the
  output block is the accumulator), the region's invariant (the accumulator at `outsAt42`'s second component), the proof data,
  and the body's obligation at every point.
-/
import proofs.«158944_j64613488001249_1_alg».proof.Proof.RegKI42c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk42 (c : Dev nD) (w : Fin cfg42.W) (t : Fin cfg42.N) : ((cfg42.win w).xblock (cfg42.grid.coords t)).Idx → Elt F (cfg42.win w).elt :=
  ((cfg42.win w).blk t).view.read (Elt F) (V c (Pipeline.arrRef spec42 w))

/-- An input window's current staging buffer holds its block at every point, for any proof data whose array is `V`'s and
    whose body leaves the block in place. -/
theorem before42_0_of {c : Dev nD} (dat : Dat τ (Elt F) Unit ℕ (UR sig nD τ) ℕ cfg42 c) (hA : dat.A 0 = V c (Pipeline.arrRef spec42 0))
    (hafter : ∀ t, dat.after 0 t = iblk42 V c 0 t) (t : Fin cfg42.N) (d) : dat.before 0 t d = iblk42 V c 0 t :=
  (dat.before_in_eq_fetched 0 rfl (fun _ => rfl) (fun _ _ _ => rfl) (fun t => by rw [hafter]; unfold Dat.blockOf iblk42; rw [hA]; try rfl) t d).trans
    (by unfold Dat.fetched Dat.blockOf iblk42; rw [hA]; try rfl)
theorem before42_1_of {c : Dev nD} (dat : Dat τ (Elt F) Unit ℕ (UR sig nD τ) ℕ cfg42 c) (hA : dat.A 1 = V c (Pipeline.arrRef spec42 1))
    (hafter : ∀ t, dat.after 1 t = iblk42 V c 1 t) (t : Fin cfg42.N) (d) : dat.before 1 t d = iblk42 V c 1 t :=
  (dat.before_in_eq_fetched 1 rfl (fun _ => rfl) (fun _ _ _ => rfl) (fun t => by rw [hafter]; unfold Dat.blockOf iblk42; rw [hA]; try rfl) t d).trans
    (by unfold Dat.fetched Dat.blockOf iblk42; rw [hA]; try rfl)

/-! ## What each case leaves -/

/-- Case A's stores into the accumulator cover it. -/
theorem scover42_A (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond42_0 i) (hc1 : ¬cond42_1 i)
    (x0 : Vec F S1024x1024 .bf16) (x1 : Vec F S1024x512 .f32) (y : S1024x512.Idx) :
    ∃ pc ∈ (kernelRun42_A c i arg2 harg2 arg3 harg3 arg4 harg4 arg5 harg5 hc0 hc1 x0 x1).2.1, y ∈ pc.1.set :=
  View.cover_of_tiledL (kernelRun42_A c i arg2 harg2 arg3 harg3 arg4 harg4 arg5 harg5 hc0 hc1 x0 x1).2.1 S1024x512.size (by sl_kernel_rfl) y
/-- What case A leaves in the accumulator. -/
noncomputable def sout42_A (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond42_0 i) (hc1 : ¬cond42_1 i)
    (x0 : Vec F S1024x1024 .bf16) (x1 : Vec F S1024x512 .f32) : Vec F S1024x512 .f32 :=
  VS42.read (Elt F) (VS42.writes (Elt F) VS42.junk (kernelRun42_A c i arg2 harg2 arg3 harg3 arg4 harg4 arg5 harg5 hc0 hc1 x0 x1).2.1)

/-- Case B's store into the accumulator covers it. -/
theorem scover42_B (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond42_0 i) (hc1 : ¬cond42_1 i)
    (x0 : Vec F S1024x1024 .bf16) (x1 : Vec F S1024x512 .f32) (xs0 : Vec F S1024x512 .f32) (y : S1024x512.Idx) :
    ∃ pc ∈ (kernelRun42_B c i arg2 harg2 arg3 harg3 arg4 harg4 arg5 harg5 hc0 hc1 x0 x1 xs0).2.1, y ∈ pc.1.set :=
  View.cover_of_tiledL (kernelRun42_B c i arg2 harg2 arg3 harg3 arg4 harg4 arg5 harg5 hc0 hc1 x0 x1 xs0).2.1 S1024x512.size (by sl_kernel_rfl) y
/-- What case B leaves in the accumulator, over what the point before left. -/
noncomputable def sout42_B (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond42_0 i) (hc1 : ¬cond42_1 i)
    (x0 : Vec F S1024x1024 .bf16) (x1 : Vec F S1024x512 .f32) (xs0 : Vec F S1024x512 .f32) : Vec F S1024x512 .f32 :=
  VS42.read (Elt F) (VS42.writes (Elt F) VS42.junk (kernelRun42_B c i arg2 harg2 arg3 harg3 arg4 harg4 arg5 harg5 hc0 hc1 x0 x1 xs0).2.1)

/-- Case C's store into the output block covers it, and so does its store into the accumulator. -/
theorem cover42_C (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond42_0 i) (hc1 : cond42_1 i)
    (x0 : Vec F S1024x1024 .bf16) (x1 : Vec F S1024x512 .f32) (xs0 : Vec F S1024x512 .f32) (y : S1024x512.Idx) :
    ∃ pc ∈ (kernelRun42_C c i arg2 harg2 arg3 harg3 arg4 harg4 arg5 harg5 hc0 hc1 x0 x1 xs0).1, y ∈ pc.1.set :=
  View.cover_of_tiledL (kernelRun42_C c i arg2 harg2 arg3 harg3 arg4 harg4 arg5 harg5 hc0 hc1 x0 x1 xs0).1 S1024x512.size (by sl_kernel_rfl) y
theorem scover42_C (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond42_0 i) (hc1 : cond42_1 i)
    (x0 : Vec F S1024x1024 .bf16) (x1 : Vec F S1024x512 .f32) (xs0 : Vec F S1024x512 .f32) (y : S1024x512.Idx) :
    ∃ pc ∈ (kernelRun42_C c i arg2 harg2 arg3 harg3 arg4 harg4 arg5 harg5 hc0 hc1 x0 x1 xs0).2.1, y ∈ pc.1.set :=
  View.cover_of_tiledL (kernelRun42_C c i arg2 harg2 arg3 harg3 arg4 harg4 arg5 harg5 hc0 hc1 x0 x1 xs0).2.1 S1024x512.size (by sl_kernel_rfl) y
/-- What case C leaves in the output block, and in the accumulator. -/
noncomputable def out42_C (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond42_0 i) (hc1 : cond42_1 i)
    (x0 : Vec F S1024x1024 .bf16) (x1 : Vec F S1024x512 .f32) (xs0 : Vec F S1024x512 .f32) : Vec F S1024x512 .f32 :=
  VO42_2.read (Elt F) (VO42_2.writes (Elt F) VO42_2.junk (kernelRun42_C c i arg2 harg2 arg3 harg3 arg4 harg4 arg5 harg5 hc0 hc1 x0 x1 xs0).1)
noncomputable def sout42_C (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond42_0 i) (hc1 : cond42_1 i)
    (x0 : Vec F S1024x1024 .bf16) (x1 : Vec F S1024x512 .f32) (xs0 : Vec F S1024x512 .f32) : Vec F S1024x512 .f32 :=
  VS42.read (Elt F) (VS42.writes (Elt F) VS42.junk (kernelRun42_C c i arg2 harg2 arg3 harg3 arg4 harg4 arg5 harg5 hc0 hc1 x0 x1 xs0).2.1)

/-- Where the output block is idle nothing consults what it holds: a placeholder. -/
noncomputable def outIdle42 : Vec F S1024x512 .f32 := VO42_2.read (Elt F) (VO42_2.writes (Elt F) VO42_2.junk [])

/-! ## The conditions at a point, from t % 4 -/

theorem isFirst42 (t : Fin cfg42.N) (h : t.val % 4 = 0) : cond42_0 (grid42.coords t) := (hcond42_0 t).mpr h
theorem notFirst42 (t : Fin cfg42.N) (h : ¬t.val % 4 = 0) : ¬cond42_0 (grid42.coords t) := fun hc => h ((hcond42_0 t).mp hc)
theorem isLast42 (t : Fin cfg42.N) (h : t.val % 4 = 3) : cond42_1 (grid42.coords t) := (hcond42_1 t).mpr h
theorem notLast42 (t : Fin cfg42.N) (h : ¬t.val % 4 = 3) : ¬cond42_1 (grid42.coords t) := fun hc => h ((hcond42_1 t).mp hc)

/-! ## The accumulator and the output block, point by point -/

/-- After the body at position `n`: (the output block's buffer, the accumulator). -/
noncomputable def outsAt42 (c : Dev nD) : (n : ℕ) → n < cfg42.N → Vec F S1024x512 .f32 × Vec F S1024x512 .f32
  | 0, hn => (outIdle42, sout42_A c (grid42.coords ⟨0, hn⟩) (ms42_0 ⟨0, hn⟩) (hs42_0 ⟨0, hn⟩) (ms42_1 ⟨0, hn⟩) (hs42_1 ⟨0, hn⟩) (ms42_2 ⟨0, hn⟩) (hs42_2 ⟨0, hn⟩) scM42 (Memref.isWhole_whole _) (isFirst42 ⟨0, hn⟩ (Nat.zero_mod _)) (notLast42 ⟨0, hn⟩ (by simp)) (iblk42 V c 0 ⟨0, hn⟩) (iblk42 V c 1 ⟨0, hn⟩))
  | n + 1, hn =>
    if h0 : (n + 1) % 4 = 0 then
      (outIdle42, sout42_A c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) scM42 (Memref.isWhole_whole _) (isFirst42 ⟨n + 1, hn⟩ h0) (notLast42 ⟨n + 1, hn⟩ (by show ¬(n + 1) % 4 = 3; omega)) (iblk42 V c 0 ⟨n + 1, hn⟩) (iblk42 V c 1 ⟨n + 1, hn⟩))
    else if h3 : (n + 1) % 4 = 3 then
      (out42_C c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) scM42 (Memref.isWhole_whole _) (notFirst42 ⟨n + 1, hn⟩ h0) (isLast42 ⟨n + 1, hn⟩ h3) (iblk42 V c 0 ⟨n + 1, hn⟩) (iblk42 V c 1 ⟨n + 1, hn⟩) (outsAt42 c n (Nat.lt_of_succ_lt hn)).2,
       sout42_C c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) scM42 (Memref.isWhole_whole _) (notFirst42 ⟨n + 1, hn⟩ h0) (isLast42 ⟨n + 1, hn⟩ h3) (iblk42 V c 0 ⟨n + 1, hn⟩) (iblk42 V c 1 ⟨n + 1, hn⟩) (outsAt42 c n (Nat.lt_of_succ_lt hn)).2)
    else
      (outIdle42, sout42_B c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) scM42 (Memref.isWhole_whole _) (notFirst42 ⟨n + 1, hn⟩ h0) (notLast42 ⟨n + 1, hn⟩ h3) (iblk42 V c 0 ⟨n + 1, hn⟩) (iblk42 V c 1 ⟨n + 1, hn⟩) (outsAt42 c n (Nat.lt_of_succ_lt hn)).2)

/-- `outsAt42` at a point with k = 0. -/
theorem outsAt42_A (c : Dev nD) (t : Fin cfg42.N) (h0 : t.val % 4 = 0) :
    outsAt42 V c t.val t.isLt = (outIdle42, sout42_A c (grid42.coords t) (ms42_0 t) (hs42_0 t) (ms42_1 t) (hs42_1 t) (ms42_2 t) (hs42_2 t) scM42 (Memref.isWhole_whole _) (isFirst42 t h0) (notLast42 t (by omega)) (iblk42 V c 0 t) (iblk42 V c 1 t)) := by
  obtain ⟨n, hn⟩ := t
  cases n with
  | zero => rfl
  | succ n => exact (dif_pos h0).trans rfl

/-- `outsAt42` at a point with k = 1, 2: over what the point before left. -/
theorem outsAt42_B (c : Dev nD) (t : Fin cfg42.N) (h0 : ¬t.val % 4 = 0) (h3 : ¬t.val % 4 = 3) :
    outsAt42 V c t.val t.isLt = (outIdle42, sout42_B c (grid42.coords t) (ms42_0 t) (hs42_0 t) (ms42_1 t) (hs42_1 t) (ms42_2 t) (hs42_2 t) scM42 (Memref.isWhole_whole _) (notFirst42 t h0) (notLast42 t h3) (iblk42 V c 0 t) (iblk42 V c 1 t)
      (outsAt42 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt42` at a point with k = 3. -/
theorem outsAt42_C (c : Dev nD) (t : Fin cfg42.N) (h0 : ¬t.val % 4 = 0) (h3 : t.val % 4 = 3) :
    outsAt42 V c t.val t.isLt = (out42_C c (grid42.coords t) (ms42_0 t) (hs42_0 t) (ms42_1 t) (hs42_1 t) (ms42_2 t) (hs42_2 t) scM42 (Memref.isWhole_whole _) (notFirst42 t h0) (isLast42 t h3) (iblk42 V c 0 t) (iblk42 V c 1 t)
        (outsAt42 V c (t.val - 1) (Nat.lt_of_le_of_lt (Nat.sub_le _ _) t.isLt)).2,
      sout42_C c (grid42.coords t) (ms42_0 t) (hs42_0 t) (ms42_1 t) (hs42_1 t) (ms42_2 t) (hs42_2 t) scM42 (Memref.isWhole_whole _) (notFirst42 t h0) (isLast42 t h3) (iblk42 V c 0 t) (iblk42 V c 1 t)
        (outsAt42 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS42 (c : Dev nD) : (n : ℕ) → n ≤ cfg42.N → sProp 𝕄
  | 0, _ => Pipeline.ΦA spec42 c
  | n + 1, hn => iprop(iprop(owns (c : Thread nD τ) scM42 fullShare ((outsAt42 V c n hn).2) ∗ restBut42 c) ∗ (∃ r, prngReg c r))

theorem PhiS42_zero (c : Dev nD) (n : ℕ) (h : n ≤ cfg42.N) (hz : n = 0) : PhiS42 V c n h = Pipeline.ΦA spec42 c := by
  subst hz; rfl
theorem PhiS42_succ (c : Dev nD) (n : ℕ) (hn : n < cfg42.N) :
    PhiS42 V c (n + 1) hn = iprop(iprop(owns (c : Thread nD τ) scM42 fullShare ((outsAt42 V c n hn).2) ∗ restBut42 c) ∗ (∃ r, prngReg c r)) := rfl
theorem PhiS42_pos (c : Dev nD) (n : ℕ) (h : n ≤ cfg42.N) (hz : n ≠ 0) :
    PhiS42 V c n h = iprop(iprop(owns (c : Thread nD τ) scM42 fullShare ((outsAt42 V c (n - 1) (by omega)).2) ∗ restBut42 c) ∗ (∃ r, prngReg c r)) := by
  cases n with
  | zero => exact absurd rfl hz
  | succ n => rfl

/-! ## The proof data -/

/-- The region's proof data on core `c`: the arrays as the region finds them; after the body at point `t` each input's
    buffer at its block and the output's at `outsAt42`'s first component; the invariant `PhiS42`; nothing owed; full shares. -/
noncomputable def dat42 (c : Dev nD) : Dat τ (Elt F) Unit ℕ (UR sig nD τ) ℕ cfg42 c where
  A w := V c (Pipeline.arrRef spec42 w)
  after w t := match w with
    | ⟨0, _⟩ => iblk42 V c 0 t
    | ⟨1, _⟩ => iblk42 V c 1 t
    | ⟨2, _⟩ => (outsAt42 V c t.val t.isLt).1
  Φ t := PhiS42 V c t.val (Nat.le_of_lt_succ t.isLt)
  q _ := fullShare
  owed _ := 0

theorem A_eq42 (c : Dev nD) (w : Fin cfg42.W) : (dat42 V c).A w = V c (Pipeline.arrRef spec42 w) := by
  dsimp only [dat42]
theorem PhiS42_castSucc (c : Dev nD) (t : Fin cfg42.N) :
    (dat42 V c).Φ t.castSucc = PhiS42 V c t.val (Nat.le_of_lt t.isLt) := by
  dsimp only [dat42]; simp only [Fin.coe_castSucc]
theorem after42_0 (c : Dev nD) (t : Fin cfg42.N) : (dat42 V c).after 0 t = iblk42 V c 0 t := by dsimp only [dat42]
theorem after42_1 (c : Dev nD) (t : Fin cfg42.N) : (dat42 V c).after 1 t = iblk42 V c 1 t := by dsimp only [dat42]
theorem after42_2 (c : Dev nD) (t : Fin cfg42.N) : (dat42 V c).after 2 t = (outsAt42 V c t.val t.isLt).1 := by dsimp only [dat42]
theorem before42_0 (c : Dev nD) (t : Fin cfg42.N) (d) : (dat42 V c).before 0 t d = iblk42 V c 0 t :=
  before42_0_of V (dat42 V c) (A_eq42 V c 0) (after42_0 V c) t d
theorem before42_1 (c : Dev nD) (t : Fin cfg42.N) (d) : (dat42 V c).before 1 t d = iblk42 V c 1 t :=
  before42_1_of V (dat42 V c) (A_eq42 V c 1) (after42_1 V c) t d

/-! ## The body's obligation -/

noncomputable def bodyPre42 (c : Dev nD) (t : Fin cfg42.N) : sProp 𝕄 :=
  iprop((dat42 V c).Φ t.castSucc ∗ (dat42 V c).owesAt () t.castSucc
    ∗ (∃ d, owns (c : Thread nD τ) (ms42_0 t) fullShare ((dat42 V c).before 0 t d))
    ∗ (∃ d, owns (c : Thread nD τ) (ms42_1 t) fullShare ((dat42 V c).before 1 t d))
    ∗ (∃ d, owns (c : Thread nD τ) (ms42_2 t) fullShare ((dat42 V c).before 2 t d)))

noncomputable def bodyPost42 (c : Dev nD) (t : Fin cfg42.N) : sProp 𝕄 :=
  iprop((dat42 V c).Φ t.succ ∗ (dat42 V c).owesAt () t.succ
    ∗ (dat42 V c).leavesExact 0 t
    ∗ (dat42 V c).leavesExact 1 t
    ∗ (dat42 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body42 (c : Dev nD) (t : Fin cfg42.N) :
    bodyPre42 V c t ⊢ wp frame (wpE (defs₀ (F := F)) Variants.none c none) Set.univ (bodyAt42 t) (fun _ => bodyPost42 V c t) := by
  unfold bodyPre42 bodyPost42 bodyAt42
  simp only [before42_0, before42_1]
  rw [show (dat42 V c).owesAt () t.succ = (dat42 V c).owesAt () t.castSucc from rfl]
  rw [show (dat42 V c).Φ t.succ = PhiS42 V c (t.val + 1) t.isLt from rfl, PhiS42_succ]
  rw [show (dat42 V c).leavesExact 0 t = owns (c : Thread nD τ) (ms42_0 t) fullShare ((dat42 V c).after 0 t) from by
    unfold Dat.leavesExact; rw [liveAt42_0 t], after42_0]
  rw [show (dat42 V c).leavesExact 1 t = owns (c : Thread nD τ) (ms42_1 t) fullShare ((dat42 V c).after 1 t) from by
    unfold Dat.leavesExact; rw [liveAt42_1 t], after42_1]
  by_cases h0 : t.val % 4 = 0
  · have h3 : ¬t.val % 4 = 3 := by omega
    rw [Dat.leavesExact_idle (dat42 V c) 2 t (idleAt42_2 t (notLast42 t h3)) (noFlush42_2 t (notLast42 t h3))]
    rw [outsAt42_A V c t h0]
    unfold sout42_A; (try dsimp only)
    by_cases hz : t.val = 0
    · rw [PhiS42_castSucc V c t, PhiS42_zero V c _ _ hz, PhiA42_eq]
      iintro ⟨⟨⟨HS0, Hrb⟩, Hg⟩, Ho, ⟨%d0, H0⟩, ⟨%d1, H1⟩, ⟨%d2, H2⟩⟩
      iapply ((kernelRun42_A c (grid42.coords t) _ _ _ _ _ _ _ _ (isFirst42 t h0) (notLast42 t (by omega)) (iblk42 V c 0 t) (iblk42 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover42_A c _ _ _ _ _ _ _ _ _ _ _ _ _)
          iexact Hrb
        iexact Hg
      isplitl [Ho]; · iexact Ho
      isplitl [H0]; · iexact H0
      isplitl [H1]; · iexact H1
      iexists _; iexact H2
    · rw [PhiS42_castSucc V c t, PhiS42_pos V c _ _ hz]
      iintro ⟨⟨⟨HS0, Hrb⟩, Hg⟩, Ho, ⟨%d0, H0⟩, ⟨%d1, H1⟩, ⟨%d2, H2⟩⟩
      iapply ((kernelRun42_A c (grid42.coords t) _ _ _ _ _ _ _ _ (isFirst42 t h0) (notLast42 t (by omega)) (iblk42 V c 0 t) (iblk42 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover42_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat42 V c).leavesExact 2 t = owns (c : Thread nD τ) (ms42_2 t) fullShare ((dat42 V c).after 2 t) from by
        unfold Dat.leavesExact; rw [liveAt42_2 t (isLast42 t h3)], after42_2]
      rw [outsAt42_C V c t h0 h3]
      unfold out42_C sout42_C; (try dsimp only)
      rw [PhiS42_castSucc V c t, PhiS42_pos V c _ _ hz]
      iintro ⟨⟨⟨HS0, Hrb⟩, Hg⟩, Ho, ⟨%d0, H0⟩, ⟨%d1, H1⟩, ⟨%d2, H2⟩⟩
      iapply ((kernelRun42_C c (grid42.coords t) _ _ _ _ _ _ _ _ (notFirst42 t h0) (isLast42 t h3) (iblk42 V c 0 t) (iblk42 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover42_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover42_C c _ _ _ _ _ _ _ _ _ _ _ _ _ _)
    · rw [Dat.leavesExact_idle (dat42 V c) 2 t (idleAt42_2 t (notLast42 t h3)) (noFlush42_2 t (notLast42 t h3))]
      rw [outsAt42_B V c t h0 h3]
      unfold sout42_B; (try dsimp only)
      rw [PhiS42_castSucc V c t, PhiS42_pos V c _ _ hz]
      iintro ⟨⟨⟨HS0, Hrb⟩, Hg⟩, Ho, ⟨%d0, H0⟩, ⟨%d1, H1⟩, ⟨%d2, H2⟩⟩
      iapply ((kernelRun42_B c (grid42.coords t) _ _ _ _ _ _ _ _ (notFirst42 t h0) (notLast42 t h3) (iblk42 V c 0 t) (iblk42 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover42_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation42 (c : Dev nD) : BodyObligation (dat42 (F := F) V c) (defs₀ (F := F)) Variants.none () Set.univ := fun t => by
  rw [bigSep_W42, bigSep_W42]
  exact sound_body42 V c t

/-- What the region is entered with is the invariant before the first point. -/
theorem hin42 (c : Dev nD) : Pipeline.ΦA spec42 c ⊢ (dat42 V c).Φ 0 := by
  rw [show (dat42 V c).Φ 0 = PhiS42 V c 0 (Nat.zero_le _) from rfl, PhiS42_zero V c 0 _ rfl]
  try exact Idealize.SL.BI.Entails.refl _

/-- After the last point the invariant gives the class's back: the accumulator's contents are forgotten. -/
theorem hout42 (c : Dev nD) : (dat42 V c).Φ (Fin.last cfg42.N) ⊢ Pipeline.ΦA spec42 c := by
  have hN : cfg42.N = 16 := N_42
  rw [show (dat42 V c).Φ (Fin.last cfg42.N) = PhiS42 V c (Fin.last cfg42.N).val (Nat.le_of_lt_succ (Fin.last cfg42.N).isLt) from rfl,
    PhiS42_pos V c _ _ (by rw [Fin.val_last]; omega), PhiA42_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI43a.lean ====
/- Laid out by: python3 scratch/layout_regions.py --template-region 1 --region 43 --program KernelIdeal --parts a,b,c, --out-dir proof/Proof
   from the hand-written text of region 1 (RegKI1a.lean): the same text, the region's number substituted. -/
/-
  Region 43 of @main (custom_call 43): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond43_0 (i : grid43.Coords) : Prop := (Scalar.cmpi .ne (Scalar.extui (Scalar.cmpi .eq (BitVec.ofNat 32 (i 1).val) 0#32)) 0#32) = 1#1
/-- It holds exactly at the points with t % 4 = 0. -/
theorem hcond43_0 : ∀ t : Fin cfg43.N, cond43_0 (grid43.coords t) ↔ t.val % 4 = 0 :=
  (by decide +kernel : ∀ t : Fin grid43.N, cond43_0 (grid43.coords t) ↔ t.val % 4 = 0)

/-- "k = 3": the second conditional's test. -/
abbrev cond43_1 (i : grid43.Coords) : Prop := k43_cond2 i = 1#1
/-- It holds exactly at the points with t % 4 = 3. -/
theorem hcond43_1 : ∀ t : Fin cfg43.N, cond43_1 (grid43.coords t) ↔ t.val % 4 = 3 :=
  (by decide +kernel : ∀ t : Fin grid43.N, cond43_1 (grid43.coords t) ↔ t.val % 4 = 3)

/-! ## Where the windows are idle, and where the output is written back -/

/-- The two input windows are never idle. -/
theorem liveAt43_0 : ∀ t : Fin cfg43.N, cfg43.idle 0 (grid43.coords t) = false := by decide +kernel
theorem liveAt43_1 : ∀ t : Fin cfg43.N, cfg43.idle 1 (grid43.coords t) = false := by decide +kernel
/-- Where k ≠ 3 the output window is idle (the body stores nothing into it) and is not written back. -/
theorem idleAt43_2 : ∀ t : Fin cfg43.N, ¬cond43_1 (grid43.coords t) → cfg43.idle 2 (grid43.coords t) = true := by decide +kernel
theorem noFlush43_2 : ∀ t : Fin cfg43.N, ¬cond43_1 (grid43.coords t) → (cfg43.win 2).flush t = false := by decide +kernel
/-- Where k = 3 it is live. -/
theorem liveAt43_2 : ∀ t : Fin cfg43.N, cond43_1 (grid43.coords t) → cfg43.idle 2 (grid43.coords t) = false := by decide +kernel

/-! ## The staging memrefs at a point, and the scratch -/

/-- One staging buffer of the output window, through which its contents are stated. -/
abbrev VO43_2 : View sig .tc .vmem S1024x512 .f32 := (Memref.whole cc43_stg2_0 : Memref sig .tc .vmem S1024x512 .f32).view
abbrev ms43_0 (t : Fin cfg43.N) : Memref sig .tc .vmem S1024x1024 .bf16 := win43_0.stage (cfg43.slots t 0)
abbrev hs43_0 (t : Fin cfg43.N) : (ms43_0 t).IsWhole := hstage43_0 ((cfg43.slots t 0).cast nbuf43_0)
abbrev ms43_1 (t : Fin cfg43.N) : Memref sig .tc .vmem S1024x512 .f32 := win43_1.stage (cfg43.slots t 1)
abbrev hs43_1 (t : Fin cfg43.N) : (ms43_1 t).IsWhole := hstage43_1 ((cfg43.slots t 1).cast nbuf43_1)
abbrev ms43_2 (t : Fin cfg43.N) : Memref sig .tc .vmem S1024x512 .f32 := win43_2.stage (cfg43.slots t 2)
abbrev hs43_2 (t : Fin cfg43.N) : (ms43_2 t).IsWhole := hstage43_2 ((cfg43.slots t 2).cast nbuf43_2)
/-- The accumulator: a whole scoped buffer of the kernel's own. -/
abbrev scM43 : Memref sig .tc .vmem S1024x512 .f32 := Memref.whole cc43_scratch0
abbrev VS43 : View sig .tc .vmem S1024x512 .f32 := scM43.view

/-- The other scoped buffers of the core, none of which this region touches. -/
abbrev restBut43 (c : Dev nD) : sProp 𝕄 :=
  Pipeline.scopedRestBut (Ix := Unit) (Name := ℕ) (U := UR sig nD τ) (Lvl := ℕ) (Val := Elt F) spec43 c [cc43_scratch0]

/-- The region's invariant before its first point: the accumulator at something, the other scoped buffers, the generator register. -/
theorem PhiA43_eq (c : Dev nD) :
    (Pipeline.ΦA spec43 c : sProp 𝕄)
      = iprop(iprop((∃ d, owns (c : Thread nD τ) scM43 fullShare d) ∗ restBut43 c) ∗ (∃ r, prngReg c r)) := by
  unfold Pipeline.ΦA; rw [scopedRest43_split]; simp only [scM43, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun43_A (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond43_0 i) (hc1 : ¬cond43_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc43__matmul_kernel i arg2 harg2 arg3 harg3 arg4 harg4 arg5 harg5) K } := by
  refine ⟨[], ?_, fun xi2 E K => ?run⟩
  case run =>
    simp only [cc43__matmul_kernel_eq_skeleton]; unfold cc43__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI43b.lean ====
/- Laid out by: python3 scratch/layout_regions.py --template-region 1 --region 43 --program KernelIdeal --parts a,b,c, --out-dir proof/Proof
   from the hand-written text of region 1 (RegKI1b.lean): the same text, the region's number substituted. -/
/-
  Region 43, case B (k = 1, 2): the body's run. Neither conditional is taken: the product of the two blocks is added to what
  the point before left in the accumulator; the output block is not touched.
-/
import proofs.«158944_j64613488001249_1_alg».proof.Proof.RegKI43a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun43_B (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond43_0 i) (hc1 : ¬cond43_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc43__matmul_kernel i arg2 harg2 arg3 harg3 arg4 harg4 arg5 harg5) K } := by
  refine ⟨[], ?_, fun xi2 E K => ?run⟩
  case run =>
    simp only [cc43__matmul_kernel_eq_skeleton]; unfold cc43__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI43c.lean ====
/- Laid out by: python3 scratch/layout_regions.py --template-region 1 --region 43 --program KernelIdeal --parts a,b,c, --out-dir proof/Proof
   from the hand-written text of region 1 (RegKI1c.lean): the same text, the region's number substituted. -/
/-
  Region 43, case C (k = 3): the body's run. The product is added to the accumulator as in case B, and then the second
  conditional copies the accumulator over the whole output block.
-/
import proofs.«158944_j64613488001249_1_alg».proof.Proof.RegKI43b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun43_C (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond43_0 i) (hc1 : cond43_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc43__matmul_kernel i arg2 harg2 arg3 harg3 arg4 harg4 arg5 harg5) K } := by
  refine ⟨?_, ?_, fun E K => ?run⟩
  case run =>
    simp only [cc43__matmul_kernel_eq_skeleton]; unfold cc43__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI43.lean ====
/- Laid out by: python3 scratch/layout_regions.py --template-region 1 --region 43 --program KernelIdeal --parts a,b,c, --out-dir proof/Proof
   from the hand-written text of region 1 (RegKI1.lean): the same text, the region's number substituted. -/
/-
  Region 43 of @main, entered from the buffer contents `V`: what its windows' blocks are, what each case of the body leaves in
  the accumulator and in the output block, the accumulator and the output block point by point (`outsAt43`: at k = 0 the
  accumulator restarts from zeros plus the product; at k = 1, 2, 3 it is the point before's plus the product; at k = 3 the
  output block is the accumulator), the region's invariant (the accumulator at `outsAt43`'s second component), the proof data,
  and the body's obligation at every point.
-/
import proofs.«158944_j64613488001249_1_alg».proof.Proof.RegKI43c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk43 (c : Dev nD) (w : Fin cfg43.W) (t : Fin cfg43.N) : ((cfg43.win w).xblock (cfg43.grid.coords t)).Idx → Elt F (cfg43.win w).elt :=
  ((cfg43.win w).blk t).view.read (Elt F) (V c (Pipeline.arrRef spec43 w))

/-- An input window's current staging buffer holds its block at every point, for any proof data whose array is `V`'s and
    whose body leaves the block in place. -/
theorem before43_0_of {c : Dev nD} (dat : Dat τ (Elt F) Unit ℕ (UR sig nD τ) ℕ cfg43 c) (hA : dat.A 0 = V c (Pipeline.arrRef spec43 0))
    (hafter : ∀ t, dat.after 0 t = iblk43 V c 0 t) (t : Fin cfg43.N) (d) : dat.before 0 t d = iblk43 V c 0 t :=
  (dat.before_in_eq_fetched 0 rfl (fun _ => rfl) (fun _ _ _ => rfl) (fun t => by rw [hafter]; unfold Dat.blockOf iblk43; rw [hA]; try rfl) t d).trans
    (by unfold Dat.fetched Dat.blockOf iblk43; rw [hA]; try rfl)
theorem before43_1_of {c : Dev nD} (dat : Dat τ (Elt F) Unit ℕ (UR sig nD τ) ℕ cfg43 c) (hA : dat.A 1 = V c (Pipeline.arrRef spec43 1))
    (hafter : ∀ t, dat.after 1 t = iblk43 V c 1 t) (t : Fin cfg43.N) (d) : dat.before 1 t d = iblk43 V c 1 t :=
  (dat.before_in_eq_fetched 1 rfl (fun _ => rfl) (fun _ _ _ => rfl) (fun t => by rw [hafter]; unfold Dat.blockOf iblk43; rw [hA]; try rfl) t d).trans
    (by unfold Dat.fetched Dat.blockOf iblk43; rw [hA]; try rfl)

/-! ## What each case leaves -/

/-- Case A's stores into the accumulator cover it. -/
theorem scover43_A (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond43_0 i) (hc1 : ¬cond43_1 i)
    (x0 : Vec F S1024x1024 .bf16) (x1 : Vec F S1024x512 .f32) (y : S1024x512.Idx) :
    ∃ pc ∈ (kernelRun43_A c i arg2 harg2 arg3 harg3 arg4 harg4 arg5 harg5 hc0 hc1 x0 x1).2.1, y ∈ pc.1.set :=
  View.cover_of_tiledL (kernelRun43_A c i arg2 harg2 arg3 harg3 arg4 harg4 arg5 harg5 hc0 hc1 x0 x1).2.1 S1024x512.size (by sl_kernel_rfl) y
/-- What case A leaves in the accumulator. -/
noncomputable def sout43_A (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond43_0 i) (hc1 : ¬cond43_1 i)
    (x0 : Vec F S1024x1024 .bf16) (x1 : Vec F S1024x512 .f32) : Vec F S1024x512 .f32 :=
  VS43.read (Elt F) (VS43.writes (Elt F) VS43.junk (kernelRun43_A c i arg2 harg2 arg3 harg3 arg4 harg4 arg5 harg5 hc0 hc1 x0 x1).2.1)

/-- Case B's store into the accumulator covers it. -/
theorem scover43_B (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond43_0 i) (hc1 : ¬cond43_1 i)
    (x0 : Vec F S1024x1024 .bf16) (x1 : Vec F S1024x512 .f32) (xs0 : Vec F S1024x512 .f32) (y : S1024x512.Idx) :
    ∃ pc ∈ (kernelRun43_B c i arg2 harg2 arg3 harg3 arg4 harg4 arg5 harg5 hc0 hc1 x0 x1 xs0).2.1, y ∈ pc.1.set :=
  View.cover_of_tiledL (kernelRun43_B c i arg2 harg2 arg3 harg3 arg4 harg4 arg5 harg5 hc0 hc1 x0 x1 xs0).2.1 S1024x512.size (by sl_kernel_rfl) y
/-- What case B leaves in the accumulator, over what the point before left. -/
noncomputable def sout43_B (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond43_0 i) (hc1 : ¬cond43_1 i)
    (x0 : Vec F S1024x1024 .bf16) (x1 : Vec F S1024x512 .f32) (xs0 : Vec F S1024x512 .f32) : Vec F S1024x512 .f32 :=
  VS43.read (Elt F) (VS43.writes (Elt F) VS43.junk (kernelRun43_B c i arg2 harg2 arg3 harg3 arg4 harg4 arg5 harg5 hc0 hc1 x0 x1 xs0).2.1)

/-- Case C's store into the output block covers it, and so does its store into the accumulator. -/
theorem cover43_C (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond43_0 i) (hc1 : cond43_1 i)
    (x0 : Vec F S1024x1024 .bf16) (x1 : Vec F S1024x512 .f32) (xs0 : Vec F S1024x512 .f32) (y : S1024x512.Idx) :
    ∃ pc ∈ (kernelRun43_C c i arg2 harg2 arg3 harg3 arg4 harg4 arg5 harg5 hc0 hc1 x0 x1 xs0).1, y ∈ pc.1.set :=
  View.cover_of_tiledL (kernelRun43_C c i arg2 harg2 arg3 harg3 arg4 harg4 arg5 harg5 hc0 hc1 x0 x1 xs0).1 S1024x512.size (by sl_kernel_rfl) y
theorem scover43_C (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond43_0 i) (hc1 : cond43_1 i)
    (x0 : Vec F S1024x1024 .bf16) (x1 : Vec F S1024x512 .f32) (xs0 : Vec F S1024x512 .f32) (y : S1024x512.Idx) :
    ∃ pc ∈ (kernelRun43_C c i arg2 harg2 arg3 harg3 arg4 harg4 arg5 harg5 hc0 hc1 x0 x1 xs0).2.1, y ∈ pc.1.set :=
  View.cover_of_tiledL (kernelRun43_C c i arg2 harg2 arg3 harg3 arg4 harg4 arg5 harg5 hc0 hc1 x0 x1 xs0).2.1 S1024x512.size (by sl_kernel_rfl) y
/-- What case C leaves in the output block, and in the accumulator. -/
noncomputable def out43_C (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond43_0 i) (hc1 : cond43_1 i)
    (x0 : Vec F S1024x1024 .bf16) (x1 : Vec F S1024x512 .f32) (xs0 : Vec F S1024x512 .f32) : Vec F S1024x512 .f32 :=
  VO43_2.read (Elt F) (VO43_2.writes (Elt F) VO43_2.junk (kernelRun43_C c i arg2 harg2 arg3 harg3 arg4 harg4 arg5 harg5 hc0 hc1 x0 x1 xs0).1)
noncomputable def sout43_C (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond43_0 i) (hc1 : cond43_1 i)
    (x0 : Vec F S1024x1024 .bf16) (x1 : Vec F S1024x512 .f32) (xs0 : Vec F S1024x512 .f32) : Vec F S1024x512 .f32 :=
  VS43.read (Elt F) (VS43.writes (Elt F) VS43.junk (kernelRun43_C c i arg2 harg2 arg3 harg3 arg4 harg4 arg5 harg5 hc0 hc1 x0 x1 xs0).2.1)

/-- Where the output block is idle nothing consults what it holds: a placeholder. -/
noncomputable def outIdle43 : Vec F S1024x512 .f32 := VO43_2.read (Elt F) (VO43_2.writes (Elt F) VO43_2.junk [])

/-! ## The conditions at a point, from t % 4 -/

theorem isFirst43 (t : Fin cfg43.N) (h : t.val % 4 = 0) : cond43_0 (grid43.coords t) := (hcond43_0 t).mpr h
theorem notFirst43 (t : Fin cfg43.N) (h : ¬t.val % 4 = 0) : ¬cond43_0 (grid43.coords t) := fun hc => h ((hcond43_0 t).mp hc)
theorem isLast43 (t : Fin cfg43.N) (h : t.val % 4 = 3) : cond43_1 (grid43.coords t) := (hcond43_1 t).mpr h
theorem notLast43 (t : Fin cfg43.N) (h : ¬t.val % 4 = 3) : ¬cond43_1 (grid43.coords t) := fun hc => h ((hcond43_1 t).mp hc)

/-! ## The accumulator and the output block, point by point -/

/-- After the body at position `n`: (the output block's buffer, the accumulator). -/
noncomputable def outsAt43 (c : Dev nD) : (n : ℕ) → n < cfg43.N → Vec F S1024x512 .f32 × Vec F S1024x512 .f32
  | 0, hn => (outIdle43, sout43_A c (grid43.coords ⟨0, hn⟩) (ms43_0 ⟨0, hn⟩) (hs43_0 ⟨0, hn⟩) (ms43_1 ⟨0, hn⟩) (hs43_1 ⟨0, hn⟩) (ms43_2 ⟨0, hn⟩) (hs43_2 ⟨0, hn⟩) scM43 (Memref.isWhole_whole _) (isFirst43 ⟨0, hn⟩ (Nat.zero_mod _)) (notLast43 ⟨0, hn⟩ (by simp)) (iblk43 V c 0 ⟨0, hn⟩) (iblk43 V c 1 ⟨0, hn⟩))
  | n + 1, hn =>
    if h0 : (n + 1) % 4 = 0 then
      (outIdle43, sout43_A c (grid43.coords ⟨n + 1, hn⟩) (ms43_0 ⟨n + 1, hn⟩) (hs43_0 ⟨n + 1, hn⟩) (ms43_1 ⟨n + 1, hn⟩) (hs43_1 ⟨n + 1, hn⟩) (ms43_2 ⟨n + 1, hn⟩) (hs43_2 ⟨n + 1, hn⟩) scM43 (Memref.isWhole_whole _) (isFirst43 ⟨n + 1, hn⟩ h0) (notLast43 ⟨n + 1, hn⟩ (by show ¬(n + 1) % 4 = 3; omega)) (iblk43 V c 0 ⟨n + 1, hn⟩) (iblk43 V c 1 ⟨n + 1, hn⟩))
    else if h3 : (n + 1) % 4 = 3 then
      (out43_C c (grid43.coords ⟨n + 1, hn⟩) (ms43_0 ⟨n + 1, hn⟩) (hs43_0 ⟨n + 1, hn⟩) (ms43_1 ⟨n + 1, hn⟩) (hs43_1 ⟨n + 1, hn⟩) (ms43_2 ⟨n + 1, hn⟩) (hs43_2 ⟨n + 1, hn⟩) scM43 (Memref.isWhole_whole _) (notFirst43 ⟨n + 1, hn⟩ h0) (isLast43 ⟨n + 1, hn⟩ h3) (iblk43 V c 0 ⟨n + 1, hn⟩) (iblk43 V c 1 ⟨n + 1, hn⟩) (outsAt43 c n (Nat.lt_of_succ_lt hn)).2,
       sout43_C c (grid43.coords ⟨n + 1, hn⟩) (ms43_0 ⟨n + 1, hn⟩) (hs43_0 ⟨n + 1, hn⟩) (ms43_1 ⟨n + 1, hn⟩) (hs43_1 ⟨n + 1, hn⟩) (ms43_2 ⟨n + 1, hn⟩) (hs43_2 ⟨n + 1, hn⟩) scM43 (Memref.isWhole_whole _) (notFirst43 ⟨n + 1, hn⟩ h0) (isLast43 ⟨n + 1, hn⟩ h3) (iblk43 V c 0 ⟨n + 1, hn⟩) (iblk43 V c 1 ⟨n + 1, hn⟩) (outsAt43 c n (Nat.lt_of_succ_lt hn)).2)
    else
      (outIdle43, sout43_B c (grid43.coords ⟨n + 1, hn⟩) (ms43_0 ⟨n + 1, hn⟩) (hs43_0 ⟨n + 1, hn⟩) (ms43_1 ⟨n + 1, hn⟩) (hs43_1 ⟨n + 1, hn⟩) (ms43_2 ⟨n + 1, hn⟩) (hs43_2 ⟨n + 1, hn⟩) scM43 (Memref.isWhole_whole _) (notFirst43 ⟨n + 1, hn⟩ h0) (notLast43 ⟨n + 1, hn⟩ h3) (iblk43 V c 0 ⟨n + 1, hn⟩) (iblk43 V c 1 ⟨n + 1, hn⟩) (outsAt43 c n (Nat.lt_of_succ_lt hn)).2)

/-- `outsAt43` at a point with k = 0. -/
theorem outsAt43_A (c : Dev nD) (t : Fin cfg43.N) (h0 : t.val % 4 = 0) :
    outsAt43 V c t.val t.isLt = (outIdle43, sout43_A c (grid43.coords t) (ms43_0 t) (hs43_0 t) (ms43_1 t) (hs43_1 t) (ms43_2 t) (hs43_2 t) scM43 (Memref.isWhole_whole _) (isFirst43 t h0) (notLast43 t (by omega)) (iblk43 V c 0 t) (iblk43 V c 1 t)) := by
  obtain ⟨n, hn⟩ := t
  cases n with
  | zero => rfl
  | succ n => exact (dif_pos h0).trans rfl

/-- `outsAt43` at a point with k = 1, 2: over what the point before left. -/
theorem outsAt43_B (c : Dev nD) (t : Fin cfg43.N) (h0 : ¬t.val % 4 = 0) (h3 : ¬t.val % 4 = 3) :
    outsAt43 V c t.val t.isLt = (outIdle43, sout43_B c (grid43.coords t) (ms43_0 t) (hs43_0 t) (ms43_1 t) (hs43_1 t) (ms43_2 t) (hs43_2 t) scM43 (Memref.isWhole_whole _) (notFirst43 t h0) (notLast43 t h3) (iblk43 V c 0 t) (iblk43 V c 1 t)
      (outsAt43 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt43` at a point with k = 3. -/
theorem outsAt43_C (c : Dev nD) (t : Fin cfg43.N) (h0 : ¬t.val % 4 = 0) (h3 : t.val % 4 = 3) :
    outsAt43 V c t.val t.isLt = (out43_C c (grid43.coords t) (ms43_0 t) (hs43_0 t) (ms43_1 t) (hs43_1 t) (ms43_2 t) (hs43_2 t) scM43 (Memref.isWhole_whole _) (notFirst43 t h0) (isLast43 t h3) (iblk43 V c 0 t) (iblk43 V c 1 t)
        (outsAt43 V c (t.val - 1) (Nat.lt_of_le_of_lt (Nat.sub_le _ _) t.isLt)).2,
      sout43_C c (grid43.coords t) (ms43_0 t) (hs43_0 t) (ms43_1 t) (hs43_1 t) (ms43_2 t) (hs43_2 t) scM43 (Memref.isWhole_whole _) (notFirst43 t h0) (isLast43 t h3) (iblk43 V c 0 t) (iblk43 V c 1 t)
        (outsAt43 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS43 (c : Dev nD) : (n : ℕ) → n ≤ cfg43.N → sProp 𝕄
  | 0, _ => Pipeline.ΦA spec43 c
  | n + 1, hn => iprop(iprop(owns (c : Thread nD τ) scM43 fullShare ((outsAt43 V c n hn).2) ∗ restBut43 c) ∗ (∃ r, prngReg c r))

theorem PhiS43_zero (c : Dev nD) (n : ℕ) (h : n ≤ cfg43.N) (hz : n = 0) : PhiS43 V c n h = Pipeline.ΦA spec43 c := by
  subst hz; rfl
theorem PhiS43_succ (c : Dev nD) (n : ℕ) (hn : n < cfg43.N) :
    PhiS43 V c (n + 1) hn = iprop(iprop(owns (c : Thread nD τ) scM43 fullShare ((outsAt43 V c n hn).2) ∗ restBut43 c) ∗ (∃ r, prngReg c r)) := rfl
theorem PhiS43_pos (c : Dev nD) (n : ℕ) (h : n ≤ cfg43.N) (hz : n ≠ 0) :
    PhiS43 V c n h = iprop(iprop(owns (c : Thread nD τ) scM43 fullShare ((outsAt43 V c (n - 1) (by omega)).2) ∗ restBut43 c) ∗ (∃ r, prngReg c r)) := by
  cases n with
  | zero => exact absurd rfl hz
  | succ n => rfl

/-! ## The proof data -/

/-- The region's proof data on core `c`: the arrays as the region finds them; after the body at point `t` each input's
    buffer at its block and the output's at `outsAt43`'s first component; the invariant `PhiS43`; nothing owed; full shares. -/
noncomputable def dat43 (c : Dev nD) : Dat τ (Elt F) Unit ℕ (UR sig nD τ) ℕ cfg43 c where
  A w := V c (Pipeline.arrRef spec43 w)
  after w t := match w with
    | ⟨0, _⟩ => iblk43 V c 0 t
    | ⟨1, _⟩ => iblk43 V c 1 t
    | ⟨2, _⟩ => (outsAt43 V c t.val t.isLt).1
  Φ t := PhiS43 V c t.val (Nat.le_of_lt_succ t.isLt)
  q _ := fullShare
  owed _ := 0

theorem A_eq43 (c : Dev nD) (w : Fin cfg43.W) : (dat43 V c).A w = V c (Pipeline.arrRef spec43 w) := by
  dsimp only [dat43]
theorem PhiS43_castSucc (c : Dev nD) (t : Fin cfg43.N) :
    (dat43 V c).Φ t.castSucc = PhiS43 V c t.val (Nat.le_of_lt t.isLt) := by
  dsimp only [dat43]; simp only [Fin.coe_castSucc]
theorem after43_0 (c : Dev nD) (t : Fin cfg43.N) : (dat43 V c).after 0 t = iblk43 V c 0 t := by dsimp only [dat43]
theorem after43_1 (c : Dev nD) (t : Fin cfg43.N) : (dat43 V c).after 1 t = iblk43 V c 1 t := by dsimp only [dat43]
theorem after43_2 (c : Dev nD) (t : Fin cfg43.N) : (dat43 V c).after 2 t = (outsAt43 V c t.val t.isLt).1 := by dsimp only [dat43]
theorem before43_0 (c : Dev nD) (t : Fin cfg43.N) (d) : (dat43 V c).before 0 t d = iblk43 V c 0 t :=
  before43_0_of V (dat43 V c) (A_eq43 V c 0) (after43_0 V c) t d
theorem before43_1 (c : Dev nD) (t : Fin cfg43.N) (d) : (dat43 V c).before 1 t d = iblk43 V c 1 t :=
  before43_1_of V (dat43 V c) (A_eq43 V c 1) (after43_1 V c) t d

/-! ## The body's obligation -/

noncomputable def bodyPre43 (c : Dev nD) (t : Fin cfg43.N) : sProp 𝕄 :=
  iprop((dat43 V c).Φ t.castSucc ∗ (dat43 V c).owesAt () t.castSucc
    ∗ (∃ d, owns (c : Thread nD τ) (ms43_0 t) fullShare ((dat43 V c).before 0 t d))
    ∗ (∃ d, owns (c : Thread nD τ) (ms43_1 t) fullShare ((dat43 V c).before 1 t d))
    ∗ (∃ d, owns (c : Thread nD τ) (ms43_2 t) fullShare ((dat43 V c).before 2 t d)))

noncomputable def bodyPost43 (c : Dev nD) (t : Fin cfg43.N) : sProp 𝕄 :=
  iprop((dat43 V c).Φ t.succ ∗ (dat43 V c).owesAt () t.succ
    ∗ (dat43 V c).leavesExact 0 t
    ∗ (dat43 V c).leavesExact 1 t
    ∗ (dat43 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body43 (c : Dev nD) (t : Fin cfg43.N) :
    bodyPre43 V c t ⊢ wp frame (wpE (defs₀ (F := F)) Variants.none c none) Set.univ (bodyAt43 t) (fun _ => bodyPost43 V c t) := by
  unfold bodyPre43 bodyPost43 bodyAt43
  simp only [before43_0, before43_1]
  rw [show (dat43 V c).owesAt () t.succ = (dat43 V c).owesAt () t.castSucc from rfl]
  rw [show (dat43 V c).Φ t.succ = PhiS43 V c (t.val + 1) t.isLt from rfl, PhiS43_succ]
  rw [show (dat43 V c).leavesExact 0 t = owns (c : Thread nD τ) (ms43_0 t) fullShare ((dat43 V c).after 0 t) from by
    unfold Dat.leavesExact; rw [liveAt43_0 t], after43_0]
  rw [show (dat43 V c).leavesExact 1 t = owns (c : Thread nD τ) (ms43_1 t) fullShare ((dat43 V c).after 1 t) from by
    unfold Dat.leavesExact; rw [liveAt43_1 t], after43_1]
  by_cases h0 : t.val % 4 = 0
  · have h3 : ¬t.val % 4 = 3 := by omega
    rw [Dat.leavesExact_idle (dat43 V c) 2 t (idleAt43_2 t (notLast43 t h3)) (noFlush43_2 t (notLast43 t h3))]
    rw [outsAt43_A V c t h0]
    unfold sout43_A; (try dsimp only)
    by_cases hz : t.val = 0
    · rw [PhiS43_castSucc V c t, PhiS43_zero V c _ _ hz, PhiA43_eq]
      iintro ⟨⟨⟨HS0, Hrb⟩, Hg⟩, Ho, ⟨%d0, H0⟩, ⟨%d1, H1⟩, ⟨%d2, H2⟩⟩
      iapply ((kernelRun43_A c (grid43.coords t) _ _ _ _ _ _ _ _ (isFirst43 t h0) (notLast43 t (by omega)) (iblk43 V c 0 t) (iblk43 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover43_A c _ _ _ _ _ _ _ _ _ _ _ _ _)
          iexact Hrb
        iexact Hg
      isplitl [Ho]; · iexact Ho
      isplitl [H0]; · iexact H0
      isplitl [H1]; · iexact H1
      iexists _; iexact H2
    · rw [PhiS43_castSucc V c t, PhiS43_pos V c _ _ hz]
      iintro ⟨⟨⟨HS0, Hrb⟩, Hg⟩, Ho, ⟨%d0, H0⟩, ⟨%d1, H1⟩, ⟨%d2, H2⟩⟩
      iapply ((kernelRun43_A c (grid43.coords t) _ _ _ _ _ _ _ _ (isFirst43 t h0) (notLast43 t (by omega)) (iblk43 V c 0 t) (iblk43 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover43_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat43 V c).leavesExact 2 t = owns (c : Thread nD τ) (ms43_2 t) fullShare ((dat43 V c).after 2 t) from by
        unfold Dat.leavesExact; rw [liveAt43_2 t (isLast43 t h3)], after43_2]
      rw [outsAt43_C V c t h0 h3]
      unfold out43_C sout43_C; (try dsimp only)
      rw [PhiS43_castSucc V c t, PhiS43_pos V c _ _ hz]
      iintro ⟨⟨⟨HS0, Hrb⟩, Hg⟩, Ho, ⟨%d0, H0⟩, ⟨%d1, H1⟩, ⟨%d2, H2⟩⟩
      iapply ((kernelRun43_C c (grid43.coords t) _ _ _ _ _ _ _ _ (notFirst43 t h0) (isLast43 t h3) (iblk43 V c 0 t) (iblk43 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover43_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover43_C c _ _ _ _ _ _ _ _ _ _ _ _ _ _)
    · rw [Dat.leavesExact_idle (dat43 V c) 2 t (idleAt43_2 t (notLast43 t h3)) (noFlush43_2 t (notLast43 t h3))]
      rw [outsAt43_B V c t h0 h3]
      unfold sout43_B; (try dsimp only)
      rw [PhiS43_castSucc V c t, PhiS43_pos V c _ _ hz]
      iintro ⟨⟨⟨HS0, Hrb⟩, Hg⟩, Ho, ⟨%d0, H0⟩, ⟨%d1, H1⟩, ⟨%d2, H2⟩⟩
      iapply ((kernelRun43_B c (grid43.coords t) _ _ _ _ _ _ _ _ (notFirst43 t h0) (notLast43 t h3) (iblk43 V c 0 t) (iblk43 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover43_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation43 (c : Dev nD) : BodyObligation (dat43 (F := F) V c) (defs₀ (F := F)) Variants.none () Set.univ := fun t => by
  rw [bigSep_W43, bigSep_W43]
  exact sound_body43 V c t

/-- What the region is entered with is the invariant before the first point. -/
theorem hin43 (c : Dev nD) : Pipeline.ΦA spec43 c ⊢ (dat43 V c).Φ 0 := by
  rw [show (dat43 V c).Φ 0 = PhiS43 V c 0 (Nat.zero_le _) from rfl, PhiS43_zero V c 0 _ rfl]
  try exact Idealize.SL.BI.Entails.refl _

/-- After the last point the invariant gives the class's back: the accumulator's contents are forgotten. -/
theorem hout43 (c : Dev nD) : (dat43 V c).Φ (Fin.last cfg43.N) ⊢ Pipeline.ΦA spec43 c := by
  have hN : cfg43.N = 16 := N_43
  rw [show (dat43 V c).Φ (Fin.last cfg43.N) = PhiS43 V c (Fin.last cfg43.N).val (Nat.le_of_lt_succ (Fin.last cfg43.N).isLt) from rfl,
    PhiS43_pos V c _ _ (by rw [Fin.val_last]; omega), PhiA43_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI44a.lean ====
/- Laid out by: python3 scratch/layout_regions.py --template-region 1 --region 44 --program KernelIdeal --parts a,b,c, --out-dir proof/Proof
   from the hand-written text of region 1 (RegKI1a.lean): the same text, the region's number substituted. -/
/-
  Region 44 of @main (custom_call 44): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond44_0 (i : grid44.Coords) : Prop := (Scalar.cmpi .ne (Scalar.extui (Scalar.cmpi .eq (BitVec.ofNat 32 (i 1).val) 0#32)) 0#32) = 1#1
/-- It holds exactly at the points with t % 4 = 0. -/
theorem hcond44_0 : ∀ t : Fin cfg44.N, cond44_0 (grid44.coords t) ↔ t.val % 4 = 0 :=
  (by decide +kernel : ∀ t : Fin grid44.N, cond44_0 (grid44.coords t) ↔ t.val % 4 = 0)

/-- "k = 3": the second conditional's test. -/
abbrev cond44_1 (i : grid44.Coords) : Prop := k44_cond2 i = 1#1
/-- It holds exactly at the points with t % 4 = 3. -/
theorem hcond44_1 : ∀ t : Fin cfg44.N, cond44_1 (grid44.coords t) ↔ t.val % 4 = 3 :=
  (by decide +kernel : ∀ t : Fin grid44.N, cond44_1 (grid44.coords t) ↔ t.val % 4 = 3)

/-! ## Where the windows are idle, and where the output is written back -/

/-- The two input windows are never idle. -/
theorem liveAt44_0 : ∀ t : Fin cfg44.N, cfg44.idle 0 (grid44.coords t) = false := by decide +kernel
theorem liveAt44_1 : ∀ t : Fin cfg44.N, cfg44.idle 1 (grid44.coords t) = false := by decide +kernel
/-- Where k ≠ 3 the output window is idle (the body stores nothing into it) and is not written back. -/
theorem idleAt44_2 : ∀ t : Fin cfg44.N, ¬cond44_1 (grid44.coords t) → cfg44.idle 2 (grid44.coords t) = true := by decide +kernel
theorem noFlush44_2 : ∀ t : Fin cfg44.N, ¬cond44_1 (grid44.coords t) → (cfg44.win 2).flush t = false := by decide +kernel
/-- Where k = 3 it is live. -/
theorem liveAt44_2 : ∀ t : Fin cfg44.N, cond44_1 (grid44.coords t) → cfg44.idle 2 (grid44.coords t) = false := by decide +kernel

/-! ## The staging memrefs at a point, and the scratch -/

/-- One staging buffer of the output window, through which its contents are stated. -/
abbrev VO44_2 : View sig .tc .vmem S1024x512 .f32 := (Memref.whole cc44_stg2_0 : Memref sig .tc .vmem S1024x512 .f32).view
abbrev ms44_0 (t : Fin cfg44.N) : Memref sig .tc .vmem S1024x1024 .bf16 := win44_0.stage (cfg44.slots t 0)
abbrev hs44_0 (t : Fin cfg44.N) : (ms44_0 t).IsWhole := hstage44_0 ((cfg44.slots t 0).cast nbuf44_0)
abbrev ms44_1 (t : Fin cfg44.N) : Memref sig .tc .vmem S1024x512 .f32 := win44_1.stage (cfg44.slots t 1)
abbrev hs44_1 (t : Fin cfg44.N) : (ms44_1 t).IsWhole := hstage44_1 ((cfg44.slots t 1).cast nbuf44_1)
abbrev ms44_2 (t : Fin cfg44.N) : Memref sig .tc .vmem S1024x512 .f32 := win44_2.stage (cfg44.slots t 2)
abbrev hs44_2 (t : Fin cfg44.N) : (ms44_2 t).IsWhole := hstage44_2 ((cfg44.slots t 2).cast nbuf44_2)
/-- The accumulator: a whole scoped buffer of the kernel's own. -/
abbrev scM44 : Memref sig .tc .vmem S1024x512 .f32 := Memref.whole cc44_scratch0
abbrev VS44 : View sig .tc .vmem S1024x512 .f32 := scM44.view

/-- The other scoped buffers of the core, none of which this region touches. -/
abbrev restBut44 (c : Dev nD) : sProp 𝕄 :=
  Pipeline.scopedRestBut (Ix := Unit) (Name := ℕ) (U := UR sig nD τ) (Lvl := ℕ) (Val := Elt F) spec44 c [cc44_scratch0]

/-- The region's invariant before its first point: the accumulator at something, the other scoped buffers, the generator register. -/
theorem PhiA44_eq (c : Dev nD) :
    (Pipeline.ΦA spec44 c : sProp 𝕄)
      = iprop(iprop((∃ d, owns (c : Thread nD τ) scM44 fullShare d) ∗ restBut44 c) ∗ (∃ r, prngReg c r)) := by
  unfold Pipeline.ΦA; rw [scopedRest44_split]; simp only [scM44, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun44_A (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond44_0 i) (hc1 : ¬cond44_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc44__matmul_kernel i arg2 harg2 arg3 harg3 arg4 harg4 arg5 harg5) K } := by
  refine ⟨[], ?_, fun xi2 E K => ?run⟩
  case run =>
    simp only [cc44__matmul_kernel_eq_skeleton]; unfold cc44__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI44b.lean ====
/- Laid out by: python3 scratch/layout_regions.py --template-region 1 --region 44 --program KernelIdeal --parts a,b,c, --out-dir proof/Proof
   from the hand-written text of region 1 (RegKI1b.lean): the same text, the region's number substituted. -/
/-
  Region 44, case B (k = 1, 2): the body's run. Neither conditional is taken: the product of the two blocks is added to what
  the point before left in the accumulator; the output block is not touched.
-/
import proofs.«158944_j64613488001249_1_alg».proof.Proof.RegKI44a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun44_B (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond44_0 i) (hc1 : ¬cond44_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc44__matmul_kernel i arg2 harg2 arg3 harg3 arg4 harg4 arg5 harg5) K } := by
  refine ⟨[], ?_, fun xi2 E K => ?run⟩
  case run =>
    simp only [cc44__matmul_kernel_eq_skeleton]; unfold cc44__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI44c.lean ====
/- Laid out by: python3 scratch/layout_regions.py --template-region 1 --region 44 --program KernelIdeal --parts a,b,c, --out-dir proof/Proof
   from the hand-written text of region 1 (RegKI1c.lean): the same text, the region's number substituted. -/
/-
  Region 44, case C (k = 3): the body's run. The product is added to the accumulator as in case B, and then the second
  conditional copies the accumulator over the whole output block.
-/
import proofs.«158944_j64613488001249_1_alg».proof.Proof.RegKI44b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun44_C (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond44_0 i) (hc1 : cond44_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc44__matmul_kernel i arg2 harg2 arg3 harg3 arg4 harg4 arg5 harg5) K } := by
  refine ⟨?_, ?_, fun E K => ?run⟩
  case run =>
    simp only [cc44__matmul_kernel_eq_skeleton]; unfold cc44__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI44.lean ====
/- Laid out by: python3 scratch/layout_regions.py --template-region 1 --region 44 --program KernelIdeal --parts a,b,c, --out-dir proof/Proof
   from the hand-written text of region 1 (RegKI1.lean): the same text, the region's number substituted. -/
/-
  Region 44 of @main, entered from the buffer contents `V`: what its windows' blocks are, what each case of the body leaves in
  the accumulator and in the output block, the accumulator and the output block point by point (`outsAt44`: at k = 0 the
  accumulator restarts from zeros plus the product; at k = 1, 2, 3 it is the point before's plus the product; at k = 3 the
  output block is the accumulator), the region's invariant (the accumulator at `outsAt44`'s second component), the proof data,
  and the body's obligation at every point.
-/
import proofs.«158944_j64613488001249_1_alg».proof.Proof.RegKI44c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk44 (c : Dev nD) (w : Fin cfg44.W) (t : Fin cfg44.N) : ((cfg44.win w).xblock (cfg44.grid.coords t)).Idx → Elt F (cfg44.win w).elt :=
  ((cfg44.win w).blk t).view.read (Elt F) (V c (Pipeline.arrRef spec44 w))

/-- An input window's current staging buffer holds its block at every point, for any proof data whose array is `V`'s and
    whose body leaves the block in place. -/
theorem before44_0_of {c : Dev nD} (dat : Dat τ (Elt F) Unit ℕ (UR sig nD τ) ℕ cfg44 c) (hA : dat.A 0 = V c (Pipeline.arrRef spec44 0))
    (hafter : ∀ t, dat.after 0 t = iblk44 V c 0 t) (t : Fin cfg44.N) (d) : dat.before 0 t d = iblk44 V c 0 t :=
  (dat.before_in_eq_fetched 0 rfl (fun _ => rfl) (fun _ _ _ => rfl) (fun t => by rw [hafter]; unfold Dat.blockOf iblk44; rw [hA]; try rfl) t d).trans
    (by unfold Dat.fetched Dat.blockOf iblk44; rw [hA]; try rfl)
theorem before44_1_of {c : Dev nD} (dat : Dat τ (Elt F) Unit ℕ (UR sig nD τ) ℕ cfg44 c) (hA : dat.A 1 = V c (Pipeline.arrRef spec44 1))
    (hafter : ∀ t, dat.after 1 t = iblk44 V c 1 t) (t : Fin cfg44.N) (d) : dat.before 1 t d = iblk44 V c 1 t :=
  (dat.before_in_eq_fetched 1 rfl (fun _ => rfl) (fun _ _ _ => rfl) (fun t => by rw [hafter]; unfold Dat.blockOf iblk44; rw [hA]; try rfl) t d).trans
    (by unfold Dat.fetched Dat.blockOf iblk44; rw [hA]; try rfl)

/-! ## What each case leaves -/

/-- Case A's stores into the accumulator cover it. -/
theorem scover44_A (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond44_0 i) (hc1 : ¬cond44_1 i)
    (x0 : Vec F S1024x1024 .bf16) (x1 : Vec F S1024x512 .f32) (y : S1024x512.Idx) :
    ∃ pc ∈ (kernelRun44_A c i arg2 harg2 arg3 harg3 arg4 harg4 arg5 harg5 hc0 hc1 x0 x1).2.1, y ∈ pc.1.set :=
  View.cover_of_tiledL (kernelRun44_A c i arg2 harg2 arg3 harg3 arg4 harg4 arg5 harg5 hc0 hc1 x0 x1).2.1 S1024x512.size (by sl_kernel_rfl) y
/-- What case A leaves in the accumulator. -/
noncomputable def sout44_A (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond44_0 i) (hc1 : ¬cond44_1 i)
    (x0 : Vec F S1024x1024 .bf16) (x1 : Vec F S1024x512 .f32) : Vec F S1024x512 .f32 :=
  VS44.read (Elt F) (VS44.writes (Elt F) VS44.junk (kernelRun44_A c i arg2 harg2 arg3 harg3 arg4 harg4 arg5 harg5 hc0 hc1 x0 x1).2.1)

/-- Case B's store into the accumulator covers it. -/
theorem scover44_B (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond44_0 i) (hc1 : ¬cond44_1 i)
    (x0 : Vec F S1024x1024 .bf16) (x1 : Vec F S1024x512 .f32) (xs0 : Vec F S1024x512 .f32) (y : S1024x512.Idx) :
    ∃ pc ∈ (kernelRun44_B c i arg2 harg2 arg3 harg3 arg4 harg4 arg5 harg5 hc0 hc1 x0 x1 xs0).2.1, y ∈ pc.1.set :=
  View.cover_of_tiledL (kernelRun44_B c i arg2 harg2 arg3 harg3 arg4 harg4 arg5 harg5 hc0 hc1 x0 x1 xs0).2.1 S1024x512.size (by sl_kernel_rfl) y
/-- What case B leaves in the accumulator, over what the point before left. -/
noncomputable def sout44_B (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond44_0 i) (hc1 : ¬cond44_1 i)
    (x0 : Vec F S1024x1024 .bf16) (x1 : Vec F S1024x512 .f32) (xs0 : Vec F S1024x512 .f32) : Vec F S1024x512 .f32 :=
  VS44.read (Elt F) (VS44.writes (Elt F) VS44.junk (kernelRun44_B c i arg2 harg2 arg3 harg3 arg4 harg4 arg5 harg5 hc0 hc1 x0 x1 xs0).2.1)

/-- Case C's store into the output block covers it, and so does its store into the accumulator. -/
theorem cover44_C (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond44_0 i) (hc1 : cond44_1 i)
    (x0 : Vec F S1024x1024 .bf16) (x1 : Vec F S1024x512 .f32) (xs0 : Vec F S1024x512 .f32) (y : S1024x512.Idx) :
    ∃ pc ∈ (kernelRun44_C c i arg2 harg2 arg3 harg3 arg4 harg4 arg5 harg5 hc0 hc1 x0 x1 xs0).1, y ∈ pc.1.set :=
  View.cover_of_tiledL (kernelRun44_C c i arg2 harg2 arg3 harg3 arg4 harg4 arg5 harg5 hc0 hc1 x0 x1 xs0).1 S1024x512.size (by sl_kernel_rfl) y
theorem scover44_C (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond44_0 i) (hc1 : cond44_1 i)
    (x0 : Vec F S1024x1024 .bf16) (x1 : Vec F S1024x512 .f32) (xs0 : Vec F S1024x512 .f32) (y : S1024x512.Idx) :
    ∃ pc ∈ (kernelRun44_C c i arg2 harg2 arg3 harg3 arg4 harg4 arg5 harg5 hc0 hc1 x0 x1 xs0).2.1, y ∈ pc.1.set :=
  View.cover_of_tiledL (kernelRun44_C c i arg2 harg2 arg3 harg3 arg4 harg4 arg5 harg5 hc0 hc1 x0 x1 xs0).2.1 S1024x512.size (by sl_kernel_rfl) y
/-- What case C leaves in the output block, and in the accumulator. -/
noncomputable def out44_C (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond44_0 i) (hc1 : cond44_1 i)
    (x0 : Vec F S1024x1024 .bf16) (x1 : Vec F S1024x512 .f32) (xs0 : Vec F S1024x512 .f32) : Vec F S1024x512 .f32 :=
  VO44_2.read (Elt F) (VO44_2.writes (Elt F) VO44_2.junk (kernelRun44_C c i arg2 harg2 arg3 harg3 arg4 harg4 arg5 harg5 hc0 hc1 x0 x1 xs0).1)
noncomputable def sout44_C (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond44_0 i) (hc1 : cond44_1 i)
    (x0 : Vec F S1024x1024 .bf16) (x1 : Vec F S1024x512 .f32) (xs0 : Vec F S1024x512 .f32) : Vec F S1024x512 .f32 :=
  VS44.read (Elt F) (VS44.writes (Elt F) VS44.junk (kernelRun44_C c i arg2 harg2 arg3 harg3 arg4 harg4 arg5 harg5 hc0 hc1 x0 x1 xs0).2.1)

/-- Where the output block is idle nothing consults what it holds: a placeholder. -/
noncomputable def outIdle44 : Vec F S1024x512 .f32 := VO44_2.read (Elt F) (VO44_2.writes (Elt F) VO44_2.junk [])

/-! ## The conditions at a point, from t % 4 -/

theorem isFirst44 (t : Fin cfg44.N) (h : t.val % 4 = 0) : cond44_0 (grid44.coords t) := (hcond44_0 t).mpr h
theorem notFirst44 (t : Fin cfg44.N) (h : ¬t.val % 4 = 0) : ¬cond44_0 (grid44.coords t) := fun hc => h ((hcond44_0 t).mp hc)
theorem isLast44 (t : Fin cfg44.N) (h : t.val % 4 = 3) : cond44_1 (grid44.coords t) := (hcond44_1 t).mpr h
theorem notLast44 (t : Fin cfg44.N) (h : ¬t.val % 4 = 3) : ¬cond44_1 (grid44.coords t) := fun hc => h ((hcond44_1 t).mp hc)

/-! ## The accumulator and the output block, point by point -/

/-- After the body at position `n`: (the output block's buffer, the accumulator). -/
noncomputable def outsAt44 (c : Dev nD) : (n : ℕ) → n < cfg44.N → Vec F S1024x512 .f32 × Vec F S1024x512 .f32
  | 0, hn => (outIdle44, sout44_A c (grid44.coords ⟨0, hn⟩) (ms44_0 ⟨0, hn⟩) (hs44_0 ⟨0, hn⟩) (ms44_1 ⟨0, hn⟩) (hs44_1 ⟨0, hn⟩) (ms44_2 ⟨0, hn⟩) (hs44_2 ⟨0, hn⟩) scM44 (Memref.isWhole_whole _) (isFirst44 ⟨0, hn⟩ (Nat.zero_mod _)) (notLast44 ⟨0, hn⟩ (by simp)) (iblk44 V c 0 ⟨0, hn⟩) (iblk44 V c 1 ⟨0, hn⟩))
  | n + 1, hn =>
    if h0 : (n + 1) % 4 = 0 then
      (outIdle44, sout44_A c (grid44.coords ⟨n + 1, hn⟩) (ms44_0 ⟨n + 1, hn⟩) (hs44_0 ⟨n + 1, hn⟩) (ms44_1 ⟨n + 1, hn⟩) (hs44_1 ⟨n + 1, hn⟩) (ms44_2 ⟨n + 1, hn⟩) (hs44_2 ⟨n + 1, hn⟩) scM44 (Memref.isWhole_whole _) (isFirst44 ⟨n + 1, hn⟩ h0) (notLast44 ⟨n + 1, hn⟩ (by show ¬(n + 1) % 4 = 3; omega)) (iblk44 V c 0 ⟨n + 1, hn⟩) (iblk44 V c 1 ⟨n + 1, hn⟩))
    else if h3 : (n + 1) % 4 = 3 then
      (out44_C c (grid44.coords ⟨n + 1, hn⟩) (ms44_0 ⟨n + 1, hn⟩) (hs44_0 ⟨n + 1, hn⟩) (ms44_1 ⟨n + 1, hn⟩) (hs44_1 ⟨n + 1, hn⟩) (ms44_2 ⟨n + 1, hn⟩) (hs44_2 ⟨n + 1, hn⟩) scM44 (Memref.isWhole_whole _) (notFirst44 ⟨n + 1, hn⟩ h0) (isLast44 ⟨n + 1, hn⟩ h3) (iblk44 V c 0 ⟨n + 1, hn⟩) (iblk44 V c 1 ⟨n + 1, hn⟩) (outsAt44 c n (Nat.lt_of_succ_lt hn)).2,
       sout44_C c (grid44.coords ⟨n + 1, hn⟩) (ms44_0 ⟨n + 1, hn⟩) (hs44_0 ⟨n + 1, hn⟩) (ms44_1 ⟨n + 1, hn⟩) (hs44_1 ⟨n + 1, hn⟩) (ms44_2 ⟨n + 1, hn⟩) (hs44_2 ⟨n + 1, hn⟩) scM44 (Memref.isWhole_whole _) (notFirst44 ⟨n + 1, hn⟩ h0) (isLast44 ⟨n + 1, hn⟩ h3) (iblk44 V c 0 ⟨n + 1, hn⟩) (iblk44 V c 1 ⟨n + 1, hn⟩) (outsAt44 c n (Nat.lt_of_succ_lt hn)).2)
    else
      (outIdle44, sout44_B c (grid44.coords ⟨n + 1, hn⟩) (ms44_0 ⟨n + 1, hn⟩) (hs44_0 ⟨n + 1, hn⟩) (ms44_1 ⟨n + 1, hn⟩) (hs44_1 ⟨n + 1, hn⟩) (ms44_2 ⟨n + 1, hn⟩) (hs44_2 ⟨n + 1, hn⟩) scM44 (Memref.isWhole_whole _) (notFirst44 ⟨n + 1, hn⟩ h0) (notLast44 ⟨n + 1, hn⟩ h3) (iblk44 V c 0 ⟨n + 1, hn⟩) (iblk44 V c 1 ⟨n + 1, hn⟩) (outsAt44 c n (Nat.lt_of_succ_lt hn)).2)

/-- `outsAt44` at a point with k = 0. -/
theorem outsAt44_A (c : Dev nD) (t : Fin cfg44.N) (h0 : t.val % 4 = 0) :
    outsAt44 V c t.val t.isLt = (outIdle44, sout44_A c (grid44.coords t) (ms44_0 t) (hs44_0 t) (ms44_1 t) (hs44_1 t) (ms44_2 t) (hs44_2 t) scM44 (Memref.isWhole_whole _) (isFirst44 t h0) (notLast44 t (by omega)) (iblk44 V c 0 t) (iblk44 V c 1 t)) := by
  obtain ⟨n, hn⟩ := t
  cases n with
  | zero => rfl
  | succ n => exact (dif_pos h0).trans rfl

/-- `outsAt44` at a point with k = 1, 2: over what the point before left. -/
theorem outsAt44_B (c : Dev nD) (t : Fin cfg44.N) (h0 : ¬t.val % 4 = 0) (h3 : ¬t.val % 4 = 3) :
    outsAt44 V c t.val t.isLt = (outIdle44, sout44_B c (grid44.coords t) (ms44_0 t) (hs44_0 t) (ms44_1 t) (hs44_1 t) (ms44_2 t) (hs44_2 t) scM44 (Memref.isWhole_whole _) (notFirst44 t h0) (notLast44 t h3) (iblk44 V c 0 t) (iblk44 V c 1 t)
      (outsAt44 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt44` at a point with k = 3. -/
theorem outsAt44_C (c : Dev nD) (t : Fin cfg44.N) (h0 : ¬t.val % 4 = 0) (h3 : t.val % 4 = 3) :
    outsAt44 V c t.val t.isLt = (out44_C c (grid44.coords t) (ms44_0 t) (hs44_0 t) (ms44_1 t) (hs44_1 t) (ms44_2 t) (hs44_2 t) scM44 (Memref.isWhole_whole _) (notFirst44 t h0) (isLast44 t h3) (iblk44 V c 0 t) (iblk44 V c 1 t)
        (outsAt44 V c (t.val - 1) (Nat.lt_of_le_of_lt (Nat.sub_le _ _) t.isLt)).2,
      sout44_C c (grid44.coords t) (ms44_0 t) (hs44_0 t) (ms44_1 t) (hs44_1 t) (ms44_2 t) (hs44_2 t) scM44 (Memref.isWhole_whole _) (notFirst44 t h0) (isLast44 t h3) (iblk44 V c 0 t) (iblk44 V c 1 t)
        (outsAt44 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS44 (c : Dev nD) : (n : ℕ) → n ≤ cfg44.N → sProp 𝕄
  | 0, _ => Pipeline.ΦA spec44 c
  | n + 1, hn => iprop(iprop(owns (c : Thread nD τ) scM44 fullShare ((outsAt44 V c n hn).2) ∗ restBut44 c) ∗ (∃ r, prngReg c r))

theorem PhiS44_zero (c : Dev nD) (n : ℕ) (h : n ≤ cfg44.N) (hz : n = 0) : PhiS44 V c n h = Pipeline.ΦA spec44 c := by
  subst hz; rfl
theorem PhiS44_succ (c : Dev nD) (n : ℕ) (hn : n < cfg44.N) :
    PhiS44 V c (n + 1) hn = iprop(iprop(owns (c : Thread nD τ) scM44 fullShare ((outsAt44 V c n hn).2) ∗ restBut44 c) ∗ (∃ r, prngReg c r)) := rfl
theorem PhiS44_pos (c : Dev nD) (n : ℕ) (h : n ≤ cfg44.N) (hz : n ≠ 0) :
    PhiS44 V c n h = iprop(iprop(owns (c : Thread nD τ) scM44 fullShare ((outsAt44 V c (n - 1) (by omega)).2) ∗ restBut44 c) ∗ (∃ r, prngReg c r)) := by
  cases n with
  | zero => exact absurd rfl hz
  | succ n => rfl

/-! ## The proof data -/

/-- The region's proof data on core `c`: the arrays as the region finds them; after the body at point `t` each input's
    buffer at its block and the output's at `outsAt44`'s first component; the invariant `PhiS44`; nothing owed; full shares. -/
noncomputable def dat44 (c : Dev nD) : Dat τ (Elt F) Unit ℕ (UR sig nD τ) ℕ cfg44 c where
  A w := V c (Pipeline.arrRef spec44 w)
  after w t := match w with
    | ⟨0, _⟩ => iblk44 V c 0 t
    | ⟨1, _⟩ => iblk44 V c 1 t
    | ⟨2, _⟩ => (outsAt44 V c t.val t.isLt).1
  Φ t := PhiS44 V c t.val (Nat.le_of_lt_succ t.isLt)
  q _ := fullShare
  owed _ := 0

theorem A_eq44 (c : Dev nD) (w : Fin cfg44.W) : (dat44 V c).A w = V c (Pipeline.arrRef spec44 w) := by
  dsimp only [dat44]
theorem PhiS44_castSucc (c : Dev nD) (t : Fin cfg44.N) :
    (dat44 V c).Φ t.castSucc = PhiS44 V c t.val (Nat.le_of_lt t.isLt) := by
  dsimp only [dat44]; simp only [Fin.coe_castSucc]
theorem after44_0 (c : Dev nD) (t : Fin cfg44.N) : (dat44 V c).after 0 t = iblk44 V c 0 t := by dsimp only [dat44]
theorem after44_1 (c : Dev nD) (t : Fin cfg44.N) : (dat44 V c).after 1 t = iblk44 V c 1 t := by dsimp only [dat44]
theorem after44_2 (c : Dev nD) (t : Fin cfg44.N) : (dat44 V c).after 2 t = (outsAt44 V c t.val t.isLt).1 := by dsimp only [dat44]
theorem before44_0 (c : Dev nD) (t : Fin cfg44.N) (d) : (dat44 V c).before 0 t d = iblk44 V c 0 t :=
  before44_0_of V (dat44 V c) (A_eq44 V c 0) (after44_0 V c) t d
theorem before44_1 (c : Dev nD) (t : Fin cfg44.N) (d) : (dat44 V c).before 1 t d = iblk44 V c 1 t :=
  before44_1_of V (dat44 V c) (A_eq44 V c 1) (after44_1 V c) t d

/-! ## The body's obligation -/

noncomputable def bodyPre44 (c : Dev nD) (t : Fin cfg44.N) : sProp 𝕄 :=
  iprop((dat44 V c).Φ t.castSucc ∗ (dat44 V c).owesAt () t.castSucc
    ∗ (∃ d, owns (c : Thread nD τ) (ms44_0 t) fullShare ((dat44 V c).before 0 t d))
    ∗ (∃ d, owns (c : Thread nD τ) (ms44_1 t) fullShare ((dat44 V c).before 1 t d))
    ∗ (∃ d, owns (c : Thread nD τ) (ms44_2 t) fullShare ((dat44 V c).before 2 t d)))

noncomputable def bodyPost44 (c : Dev nD) (t : Fin cfg44.N) : sProp 𝕄 :=
  iprop((dat44 V c).Φ t.succ ∗ (dat44 V c).owesAt () t.succ
    ∗ (dat44 V c).leavesExact 0 t
    ∗ (dat44 V c).leavesExact 1 t
    ∗ (dat44 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body44 (c : Dev nD) (t : Fin cfg44.N) :
    bodyPre44 V c t ⊢ wp frame (wpE (defs₀ (F := F)) Variants.none c none) Set.univ (bodyAt44 t) (fun _ => bodyPost44 V c t) := by
  unfold bodyPre44 bodyPost44 bodyAt44
  simp only [before44_0, before44_1]
  rw [show (dat44 V c).owesAt () t.succ = (dat44 V c).owesAt () t.castSucc from rfl]
  rw [show (dat44 V c).Φ t.succ = PhiS44 V c (t.val + 1) t.isLt from rfl, PhiS44_succ]
  rw [show (dat44 V c).leavesExact 0 t = owns (c : Thread nD τ) (ms44_0 t) fullShare ((dat44 V c).after 0 t) from by
    unfold Dat.leavesExact; rw [liveAt44_0 t], after44_0]
  rw [show (dat44 V c).leavesExact 1 t = owns (c : Thread nD τ) (ms44_1 t) fullShare ((dat44 V c).after 1 t) from by
    unfold Dat.leavesExact; rw [liveAt44_1 t], after44_1]
  by_cases h0 : t.val % 4 = 0
  · have h3 : ¬t.val % 4 = 3 := by omega
    rw [Dat.leavesExact_idle (dat44 V c) 2 t (idleAt44_2 t (notLast44 t h3)) (noFlush44_2 t (notLast44 t h3))]
    rw [outsAt44_A V c t h0]
    unfold sout44_A; (try dsimp only)
    by_cases hz : t.val = 0
    · rw [PhiS44_castSucc V c t, PhiS44_zero V c _ _ hz, PhiA44_eq]
      iintro ⟨⟨⟨HS0, Hrb⟩, Hg⟩, Ho, ⟨%d0, H0⟩, ⟨%d1, H1⟩, ⟨%d2, H2⟩⟩
      iapply ((kernelRun44_A c (grid44.coords t) _ _ _ _ _ _ _ _ (isFirst44 t h0) (notLast44 t (by omega)) (iblk44 V c 0 t) (iblk44 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover44_A c _ _ _ _ _ _ _ _ _ _ _ _ _)
          iexact Hrb
        iexact Hg
      isplitl [Ho]; · iexact Ho
      isplitl [H0]; · iexact H0
      isplitl [H1]; · iexact H1
      iexists _; iexact H2
    · rw [PhiS44_castSucc V c t, PhiS44_pos V c _ _ hz]
      iintro ⟨⟨⟨HS0, Hrb⟩, Hg⟩, Ho, ⟨%d0, H0⟩, ⟨%d1, H1⟩, ⟨%d2, H2⟩⟩
      iapply ((kernelRun44_A c (grid44.coords t) _ _ _ _ _ _ _ _ (isFirst44 t h0) (notLast44 t (by omega)) (iblk44 V c 0 t) (iblk44 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover44_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat44 V c).leavesExact 2 t = owns (c : Thread nD τ) (ms44_2 t) fullShare ((dat44 V c).after 2 t) from by
        unfold Dat.leavesExact; rw [liveAt44_2 t (isLast44 t h3)], after44_2]
      rw [outsAt44_C V c t h0 h3]
      unfold out44_C sout44_C; (try dsimp only)
      rw [PhiS44_castSucc V c t, PhiS44_pos V c _ _ hz]
      iintro ⟨⟨⟨HS0, Hrb⟩, Hg⟩, Ho, ⟨%d0, H0⟩, ⟨%d1, H1⟩, ⟨%d2, H2⟩⟩
      iapply ((kernelRun44_C c (grid44.coords t) _ _ _ _ _ _ _ _ (notFirst44 t h0) (isLast44 t h3) (iblk44 V c 0 t) (iblk44 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover44_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover44_C c _ _ _ _ _ _ _ _ _ _ _ _ _ _)
    · rw [Dat.leavesExact_idle (dat44 V c) 2 t (idleAt44_2 t (notLast44 t h3)) (noFlush44_2 t (notLast44 t h3))]
      rw [outsAt44_B V c t h0 h3]
      unfold sout44_B; (try dsimp only)
      rw [PhiS44_castSucc V c t, PhiS44_pos V c _ _ hz]
      iintro ⟨⟨⟨HS0, Hrb⟩, Hg⟩, Ho, ⟨%d0, H0⟩, ⟨%d1, H1⟩, ⟨%d2, H2⟩⟩
      iapply ((kernelRun44_B c (grid44.coords t) _ _ _ _ _ _ _ _ (notFirst44 t h0) (notLast44 t h3) (iblk44 V c 0 t) (iblk44 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover44_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation44 (c : Dev nD) : BodyObligation (dat44 (F := F) V c) (defs₀ (F := F)) Variants.none () Set.univ := fun t => by
  rw [bigSep_W44, bigSep_W44]
  exact sound_body44 V c t

/-- What the region is entered with is the invariant before the first point. -/
theorem hin44 (c : Dev nD) : Pipeline.ΦA spec44 c ⊢ (dat44 V c).Φ 0 := by
  rw [show (dat44 V c).Φ 0 = PhiS44 V c 0 (Nat.zero_le _) from rfl, PhiS44_zero V c 0 _ rfl]
  try exact Idealize.SL.BI.Entails.refl _

/-- After the last point the invariant gives the class's back: the accumulator's contents are forgotten. -/
theorem hout44 (c : Dev nD) : (dat44 V c).Φ (Fin.last cfg44.N) ⊢ Pipeline.ΦA spec44 c := by
  have hN : cfg44.N = 16 := N_44
  rw [show (dat44 V c).Φ (Fin.last cfg44.N) = PhiS44 V c (Fin.last cfg44.N).val (Nat.le_of_lt_succ (Fin.last cfg44.N).isLt) from rfl,
    PhiS44_pos V c _ _ (by rw [Fin.val_last]; omega), PhiA44_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI45a.lean ====
/- Laid out by: python3 scratch/layout_grid41.py --template-region 0 --region 45 --program KernelIdeal --parts a, --shapes S1024x128=S1024x512,S128x512=S512x512
   from the hand-written text of region 0 (RegKI0a.lean): the same text, the region's number, block shapes substituted. -/
/- The region of KernelIdeal's @main that runs `cc45__matmul_kernel` (pipeline `cfg45`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond45_0 (i : grid45.Coords) : Prop :=
  (Scalar.cmpi .ne (Scalar.extui (Scalar.cmpi .eq (BitVec.ofNat 32 (i 1).val) 0#32)) 0#32) = 1#1
/-- True at every point: the reduction axis has one step. -/
theorem hcond45_0 : ∀ t : Fin cfg45.N, cond45_0 (grid45.coords t) :=
  (by decide +kernel : ∀ t : Fin grid45.N, cond45_0 (grid45.coords t))

/-- "This is the last reduction step" (the guard of the copy to the output block). -/
abbrev cond45_1 (i : grid45.Coords) : Prop := k45_cond2 i = 1#1
/-- True at every point, for the same reason. -/
theorem hcond45_1 : ∀ t : Fin cfg45.N, cond45_1 (grid45.coords t) :=
  (by decide +kernel : ∀ t : Fin grid45.N, cond45_1 (grid45.coords t))

/-! ## No window is idle anywhere -/

theorem liveAt45_0 : ∀ t : Fin cfg45.N, cfg45.idle 0 (grid45.coords t) = false := by decide +kernel
theorem liveAt45_1 : ∀ t : Fin cfg45.N, cfg45.idle 1 (grid45.coords t) = false := by decide +kernel
/-- The output window is stored at every point (the copy's guard holds everywhere). -/
theorem liveAt45_2 : ∀ t : Fin cfg45.N, cfg45.idle 2 (grid45.coords t) = false := by decide +kernel

/-! ## The memrefs the body is called on -/

/-- One staging buffer of the output window, through which its contents are stated (any whole view of the shape reads the
    same pieces back the same way). -/
abbrev VO45_2 : View sig .tc .vmem S1024x512 .f32 := (Memref.whole cc45_stg2_0 : Memref sig .tc .vmem S1024x512 .f32).view
/-- Each window's current staging memref at point `t`, spelt as the pipeline passes it, with its wholeness. -/
abbrev ms45_0 (t : Fin cfg45.N) : Memref sig .tc .vmem S1024x512 .f32 := win45_0.stage (cfg45.slots t 0)
abbrev hs45_0 (t : Fin cfg45.N) : (ms45_0 t).IsWhole := hstage45_0 ((cfg45.slots t 0).cast nbuf45_0)
abbrev ms45_1 (t : Fin cfg45.N) : Memref sig .tc .vmem S512x512 .bf16 := win45_1.stage (cfg45.slots t 1)
abbrev hs45_1 (t : Fin cfg45.N) : (ms45_1 t).IsWhole := hstage45_1 ((cfg45.slots t 1).cast nbuf45_1)
abbrev ms45_2 (t : Fin cfg45.N) : Memref sig .tc .vmem S1024x512 .f32 := win45_2.stage (cfg45.slots t 2)
abbrev hs45_2 (t : Fin cfg45.N) : (ms45_2 t).IsWhole := hstage45_2 ((cfg45.slots t 2).cast nbuf45_2)
/-- The accumulator: a whole scoped buffer of the kernel's own, passed beside the windows. -/
abbrev scM45_0 : Memref sig .tc .vmem S1024x512 .f32 := Memref.whole cc45_scratch0
abbrev VS45_0 : View sig .tc .vmem S1024x512 .f32 := scM45_0.view

/-- The region invariant with the accumulator taken out of the scoped rest: the accumulator owned at some contents, every
    other scoped buffer unopened, and the generator register. -/
theorem PhiA45_eq (c : Dev nD) :
    (Pipeline.ΦA spec45 c : sProp 𝕄)
      = iprop(iprop(iprop((∃ d, owns (c : Thread nD τ) scM45_0 fullShare d))
            ∗ Pipeline.scopedRestBut (Ix := Unit) (Name := ℕ) (U := UR sig nD τ) (Lvl := ℕ) (Val := Elt F) spec45 c [cc45_scratch0])
          ∗ (∃ r, prngReg c r)) := by
  unfold Pipeline.ΦA; rw [scopedRest45_split]; simp only [scM45_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun45 (c : Dev nD) (i : grid45.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond45_0 i) (hlast : cond45_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc45__matmul_kernel i arg2 harg2 arg3 harg3 arg4 harg4 arg5 harg5) K } := by
  refine ⟨?_, ?_, fun E K => ?run⟩
  case run =>
    simp only [cc45__matmul_kernel_eq_skeleton]; unfold cc45__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.KernelIdeal.Hand

end
-- ==== Proof.RegKI45.lean ====
/- Laid out by: python3 scratch/layout_grid41.py --template-region 0 --region 45 --program KernelIdeal --parts a, --shapes S1024x128=S1024x512,S128x512=S512x512
   from the hand-written text of region 0 (RegKI0.lean): the same text, the region's number, block shapes substituted. -/
/- The region of KernelIdeal's @main that runs `cc45__matmul_kernel` (pipeline `cfg45`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegKI45a
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk45 (c : Dev nD) (w : Fin cfg45.W) (t : Fin cfg45.N) : ((cfg45.win w).xblock (cfg45.grid.coords t)).Idx → Elt F (cfg45.win w).elt :=
  ((cfg45.win w).blk t).view.read (Elt F) (V c (Pipeline.arrRef spec45 w))

/-! ## What the case leaves, as pieces read back -/

/-- The output's pieces tile its block (one whole-block store). -/
theorem cover45_2 (c : Dev nD) (i : grid45.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond45_0 i) (hlast : cond45_1 i) (xa : Vec F S1024x512 .f32) (xb : Vec F S512x512 .bf16) (y : S1024x512.Idx) :
    ∃ pc ∈ (kernelRun45 c i arg2 harg2 arg3 harg3 arg4 harg4 arg5 harg5 hfirst hlast xa xb).1, y ∈ pc.1.set :=
  View.cover_of_tiledL (kernelRun45 c i arg2 harg2 arg3 harg3 arg4 harg4 arg5 harg5 hfirst hlast xa xb).1 S1024x512.size (by sl_kernel_rfl) y

/-- What the case leaves in the output's staging buffer: its pieces read back over junk. -/
noncomputable def out45_2 (c : Dev nD) (i : grid45.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond45_0 i) (hlast : cond45_1 i) (xa : Vec F S1024x512 .f32) (xb : Vec F S512x512 .bf16) : Vec F S1024x512 .f32 :=
  VO45_2.read (Elt F) (VO45_2.writes (Elt F) VO45_2.junk (kernelRun45 c i arg2 harg2 arg3 harg3 arg4 harg4 arg5 harg5 hfirst hlast xa xb).1)

/-- What the case leaves in the accumulator: its pieces read back over junk. -/
noncomputable def sout45_0 (c : Dev nD) (i : grid45.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond45_0 i) (hlast : cond45_1 i) (xa : Vec F S1024x512 .f32) (xb : Vec F S512x512 .bf16) : Vec F S1024x512 .f32 :=
  VS45_0.read (Elt F) (VS45_0.writes (Elt F) VS45_0.junk (kernelRun45 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout45_0_eq (c : Dev nD) (i : grid45.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond45_0 i) (hlast : cond45_1 i) (xa : Vec F S1024x512 .f32) (xb : Vec F S512x512 .bf16) :
    sout45_0 c i arg2 harg2 arg3 harg3 arg4 harg4 arg5 harg5 hfirst hlast xa xb = k45_pay2 xa xb (k45_pay1 (F := F)) := by
  unfold sout45_0
  rw [View.read_writes_junk_eq_canon]
  unfold kernelRun45
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out45_2_eq (c : Dev nD) (i : grid45.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond45_0 i) (hlast : cond45_1 i) (xa : Vec F S1024x512 .f32) (xb : Vec F S512x512 .bf16) :
    out45_2 c i arg2 harg2 arg3 harg3 arg4 harg4 arg5 harg5 hfirst hlast xa xb = k45_pay2 xa xb (k45_pay1 (F := F)) := by
  unfold out45_2
  rw [View.read_writes_junk_eq_canon]
  unfold kernelRun45
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt45 (c : Dev nD) (n : ℕ) (hn : n < cfg45.N) : Vec F S1024x512 .f32 × Vec F S1024x512 .f32 :=
  (out45_2 c (grid45.coords ⟨n, hn⟩) (ms45_0 ⟨n, hn⟩) (hs45_0 ⟨n, hn⟩) (ms45_1 ⟨n, hn⟩) (hs45_1 ⟨n, hn⟩) (ms45_2 ⟨n, hn⟩) (hs45_2 ⟨n, hn⟩) scM45_0 (Memref.isWhole_whole _)
      (hcond45_0 ⟨n, hn⟩) (hcond45_1 ⟨n, hn⟩) (iblk45 V c 0 ⟨n, hn⟩) (iblk45 V c 1 ⟨n, hn⟩),
   sout45_0 c (grid45.coords ⟨n, hn⟩) (ms45_0 ⟨n, hn⟩) (hs45_0 ⟨n, hn⟩) (ms45_1 ⟨n, hn⟩) (hs45_1 ⟨n, hn⟩) (ms45_2 ⟨n, hn⟩) (hs45_2 ⟨n, hn⟩) scM45_0 (Memref.isWhole_whole _)
      (hcond45_0 ⟨n, hn⟩) (hcond45_1 ⟨n, hn⟩) (iblk45 V c 0 ⟨n, hn⟩) (iblk45 V c 1 ⟨n, hn⟩))

/-- Every point is a first reduction step: the accumulator after it is one product onto zero. -/
theorem outsAt45_first (c : Dev nD) (t : Fin cfg45.N) :
    (outsAt45 V c t.val t.isLt).2 = k45_pay2 (iblk45 V c 0 t) (iblk45 V c 1 t) (k45_pay1 (F := F)) := by
  obtain ⟨n, hn⟩ := t
  unfold outsAt45
  dsimp only
  rw [sout45_0_eq]

/-- Every point is a last reduction step: the output block after it is the accumulator. -/
theorem outsAt45_last (c : Dev nD) (t : Fin cfg45.N) :
    (outsAt45 V c t.val t.isLt).1 = (outsAt45 V c t.val t.isLt).2 := by
  obtain ⟨n, hn⟩ := t
  unfold outsAt45
  dsimp only
  rw [out45_2_eq, sout45_0_eq]

/-! ## The pipeline's proof data -/

/-- The proof data of the pipeline on core `c`: the arrays as the region finds them; after the body at point `t` each input's
    buffer at its block and the output's at `outsAt45`'s first component; the invariant the same at every point; nothing owed;
    full shares. -/
noncomputable def dat45 (c : Dev nD) : Dat τ (Elt F) Unit ℕ (UR sig nD τ) ℕ cfg45 c where
  A w := V c (Pipeline.arrRef spec45 w)
  after w t := match w with
    | ⟨0, _⟩ => iblk45 V c 0 t
    | ⟨1, _⟩ => iblk45 V c 1 t
    | ⟨2, _⟩ => (outsAt45 V c t.val t.isLt).1
  Φ _ := Pipeline.ΦA spec45 c
  q _ := fullShare
  owed _ := 0

theorem A_eq45 (c : Dev nD) (w : Fin cfg45.W) : (dat45 V c).A w = V c (Pipeline.arrRef spec45 w) := by
  dsimp only [dat45]

theorem after45_0 (c : Dev nD) (t : Fin cfg45.N) : (dat45 V c).after 0 t = iblk45 V c 0 t := by dsimp only [dat45]
theorem after45_1 (c : Dev nD) (t : Fin cfg45.N) : (dat45 V c).after 1 t = iblk45 V c 1 t := by dsimp only [dat45]
theorem after45_2 (c : Dev nD) (t : Fin cfg45.N) : (dat45 V c).after 2 t = (outsAt45 V c t.val t.isLt).1 := by dsimp only [dat45]

/-- An input's current staging buffer holds its block at every point, fetched there or not: where it is not fetched its block
    index has not moved since the point before, and the body left the block in place. -/
theorem before45_0 (c : Dev nD) (t : Fin cfg45.N) (d) : (dat45 V c).before 0 t d = iblk45 V c 0 t :=
  ((dat45 V c).before_in_eq_fetched 0 rfl (fun _ => rfl) (fun _ _ _ => rfl)
      (fun t => by rw [after45_0]; unfold Dat.blockOf iblk45; rw [A_eq45]; try rfl) t d).trans
    (by unfold Dat.fetched Dat.blockOf iblk45; rw [A_eq45]; try rfl)
theorem before45_1 (c : Dev nD) (t : Fin cfg45.N) (d) : (dat45 V c).before 1 t d = iblk45 V c 1 t :=
  ((dat45 V c).before_in_eq_fetched 1 rfl (fun _ => rfl) (fun _ _ _ => rfl)
      (fun t => by rw [after45_1]; unfold Dat.blockOf iblk45; rw [A_eq45]; try rfl) t d).trans
    (by unfold Dat.fetched Dat.blockOf iblk45; rw [A_eq45]; try rfl)

/-! ## The body obligation, at a generic point -/

/-- What the body is called with at point `t`, the windows one by one, -/
noncomputable def bodyPre45 (c : Dev nD) (t : Fin cfg45.N) : sProp 𝕄 :=
  iprop((dat45 V c).Φ t.castSucc ∗ (dat45 V c).owesAt () t.castSucc
    ∗ (∃ d, owns (c : Thread nD τ) (ms45_0 t) fullShare ((dat45 V c).before 0 t d))
    ∗ (∃ d, owns (c : Thread nD τ) (ms45_1 t) fullShare ((dat45 V c).before 1 t d))
    ∗ (∃ d, owns (c : Thread nD τ) (ms45_2 t) fullShare ((dat45 V c).before 2 t d)))

/-- and what it returns. -/
noncomputable def bodyPost45 (c : Dev nD) (t : Fin cfg45.N) : sProp 𝕄 :=
  iprop((dat45 V c).Φ t.succ ∗ (dat45 V c).owesAt () t.succ
    ∗ (dat45 V c).leavesExact 0 t
    ∗ (dat45 V c).leavesExact 1 t
    ∗ (dat45 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body45 (c : Dev nD) (t : Fin cfg45.N) :
    bodyPre45 V c t ⊢ wp frame (wpE (defs₀ (F := F)) Variants.none c none) Set.univ (bodyAt45 t) (fun _ => bodyPost45 V c t) := by
  unfold bodyPre45 bodyPost45 bodyAt45
  simp only [before45_0, before45_1]
  rw [show (dat45 V c).owesAt () t.succ = (dat45 V c).owesAt () t.castSucc from rfl,
    show (dat45 V c).Φ t.succ = Pipeline.ΦA spec45 c from rfl, show (dat45 V c).Φ t.castSucc = Pipeline.ΦA spec45 c from rfl, PhiA45_eq]
  rw [show (dat45 V c).leavesExact 0 t = owns (c : Thread nD τ) (ms45_0 t) fullShare ((dat45 V c).after 0 t) from by
      unfold Dat.leavesExact; rw [liveAt45_0 t], after45_0]
  rw [show (dat45 V c).leavesExact 1 t = owns (c : Thread nD τ) (ms45_1 t) fullShare ((dat45 V c).after 1 t) from by
      unfold Dat.leavesExact; rw [liveAt45_1 t], after45_1]
  rw [show (dat45 V c).leavesExact 2 t = owns (c : Thread nD τ) (ms45_2 t) fullShare ((dat45 V c).after 2 t) from by
      unfold Dat.leavesExact; rw [liveAt45_2 t], after45_2]
  unfold outsAt45 out45_2; (try dsimp only)
  iintro ⟨⟨⟨Hacc, Hrest⟩, Hgen⟩, Howe, ⟨%da, Ha⟩, ⟨%db, Hb⟩, ⟨%dO, Hout⟩⟩
  iapply ((kernelRun45 c (grid45.coords t) _ _ _ _ _ _ _ _ (hcond45_0 t) (hcond45_1 t) (iblk45 V c 0 t) (iblk45 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover45_2 c _ _ _ _ _ _ _ _ _ _ _ _ _)

/-- The library's body obligation, at every point. -/
theorem body_obligation45 (c : Dev nD) : BodyObligation (dat45 (F := F) V c) (defs₀ (F := F)) Variants.none () Set.univ := fun t => by
  rw [bigSep_W45, bigSep_W45]
  exact sound_body45 V c t

/-- What the launch hands the region is the invariant before the first point, -/
theorem hin45 (c : Dev nD) : Pipeline.ΦA spec45 c ⊢ (dat45 V c).Φ 0 := Idealize.SL.BI.Entails.refl _

/-- and the invariant after the last point is what the launch takes back. -/
theorem hout45 (c : Dev nD) : (dat45 V c).Φ (Fin.last cfg45.N) ⊢ Pipeline.ΦA spec45 c := Idealize.SL.BI.Entails.refl _

end Cert.KernelIdeal.Hand

end
-- ==== Proof.RegKI46a.lean ====
/- Laid out by: python3 scratch/layout_regions.py --template-region 1 --region 46 --program KernelIdeal --parts a,b,c, --out-dir proof/Proof
   from the hand-written text of region 1 (RegKI1a.lean): the same text, the region's number substituted. -/
/-
  Region 46 of @main (custom_call 46): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond46_0 (i : grid46.Coords) : Prop := (Scalar.cmpi .ne (Scalar.extui (Scalar.cmpi .eq (BitVec.ofNat 32 (i 1).val) 0#32)) 0#32) = 1#1
/-- It holds exactly at the points with t % 4 = 0. -/
theorem hcond46_0 : ∀ t : Fin cfg46.N, cond46_0 (grid46.coords t) ↔ t.val % 4 = 0 :=
  (by decide +kernel : ∀ t : Fin grid46.N, cond46_0 (grid46.coords t) ↔ t.val % 4 = 0)

/-- "k = 3": the second conditional's test. -/
abbrev cond46_1 (i : grid46.Coords) : Prop := k46_cond2 i = 1#1
/-- It holds exactly at the points with t % 4 = 3. -/
theorem hcond46_1 : ∀ t : Fin cfg46.N, cond46_1 (grid46.coords t) ↔ t.val % 4 = 3 :=
  (by decide +kernel : ∀ t : Fin grid46.N, cond46_1 (grid46.coords t) ↔ t.val % 4 = 3)

/-! ## Where the windows are idle, and where the output is written back -/

/-- The two input windows are never idle. -/
theorem liveAt46_0 : ∀ t : Fin cfg46.N, cfg46.idle 0 (grid46.coords t) = false := by decide +kernel
theorem liveAt46_1 : ∀ t : Fin cfg46.N, cfg46.idle 1 (grid46.coords t) = false := by decide +kernel
/-- Where k ≠ 3 the output window is idle (the body stores nothing into it) and is not written back. -/
theorem idleAt46_2 : ∀ t : Fin cfg46.N, ¬cond46_1 (grid46.coords t) → cfg46.idle 2 (grid46.coords t) = true := by decide +kernel
theorem noFlush46_2 : ∀ t : Fin cfg46.N, ¬cond46_1 (grid46.coords t) → (cfg46.win 2).flush t = false := by decide +kernel
/-- Where k = 3 it is live. -/
theorem liveAt46_2 : ∀ t : Fin cfg46.N, cond46_1 (grid46.coords t) → cfg46.idle 2 (grid46.coords t) = false := by decide +kernel

/-! ## The staging memrefs at a point, and the scratch -/

/-- One staging buffer of the output window, through which its contents are stated. -/
abbrev VO46_2 : View sig .tc .vmem S1024x512 .f32 := (Memref.whole cc46_stg2_0 : Memref sig .tc .vmem S1024x512 .f32).view
abbrev ms46_0 (t : Fin cfg46.N) : Memref sig .tc .vmem S1024x1024 .bf16 := win46_0.stage (cfg46.slots t 0)
abbrev hs46_0 (t : Fin cfg46.N) : (ms46_0 t).IsWhole := hstage46_0 ((cfg46.slots t 0).cast nbuf46_0)
abbrev ms46_1 (t : Fin cfg46.N) : Memref sig .tc .vmem S1024x512 .f32 := win46_1.stage (cfg46.slots t 1)
abbrev hs46_1 (t : Fin cfg46.N) : (ms46_1 t).IsWhole := hstage46_1 ((cfg46.slots t 1).cast nbuf46_1)
abbrev ms46_2 (t : Fin cfg46.N) : Memref sig .tc .vmem S1024x512 .f32 := win46_2.stage (cfg46.slots t 2)
abbrev hs46_2 (t : Fin cfg46.N) : (ms46_2 t).IsWhole := hstage46_2 ((cfg46.slots t 2).cast nbuf46_2)
/-- The accumulator: a whole scoped buffer of the kernel's own. -/
abbrev scM46 : Memref sig .tc .vmem S1024x512 .f32 := Memref.whole cc46_scratch0
abbrev VS46 : View sig .tc .vmem S1024x512 .f32 := scM46.view

/-- The other scoped buffers of the core, none of which this region touches. -/
abbrev restBut46 (c : Dev nD) : sProp 𝕄 :=
  Pipeline.scopedRestBut (Ix := Unit) (Name := ℕ) (U := UR sig nD τ) (Lvl := ℕ) (Val := Elt F) spec46 c [cc46_scratch0]

/-- The region's invariant before its first point: the accumulator at something, the other scoped buffers, the generator register. -/
theorem PhiA46_eq (c : Dev nD) :
    (Pipeline.ΦA spec46 c : sProp 𝕄)
      = iprop(iprop((∃ d, owns (c : Thread nD τ) scM46 fullShare d) ∗ restBut46 c) ∗ (∃ r, prngReg c r)) := by
  unfold Pipeline.ΦA; rw [scopedRest46_split]; simp only [scM46, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun46_A (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond46_0 i) (hc1 : ¬cond46_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc46__matmul_kernel i arg2 harg2 arg3 harg3 arg4 harg4 arg5 harg5) K } := by
  refine ⟨[], ?_, fun xi2 E K => ?run⟩
  case run =>
    simp only [cc46__matmul_kernel_eq_skeleton]; unfold cc46__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI46b.lean ====
/- Laid out by: python3 scratch/layout_regions.py --template-region 1 --region 46 --program KernelIdeal --parts a,b,c, --out-dir proof/Proof
   from the hand-written text of region 1 (RegKI1b.lean): the same text, the region's number substituted. -/
/-
  Region 46, case B (k = 1, 2): the body's run. Neither conditional is taken: the product of the two blocks is added to what
  the point before left in the accumulator; the output block is not touched.
-/
import proofs.«158944_j64613488001249_1_alg».proof.Proof.RegKI46a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun46_B (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond46_0 i) (hc1 : ¬cond46_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc46__matmul_kernel i arg2 harg2 arg3 harg3 arg4 harg4 arg5 harg5) K } := by
  refine ⟨[], ?_, fun xi2 E K => ?run⟩
  case run =>
    simp only [cc46__matmul_kernel_eq_skeleton]; unfold cc46__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI46c.lean ====
/- Laid out by: python3 scratch/layout_regions.py --template-region 1 --region 46 --program KernelIdeal --parts a,b,c, --out-dir proof/Proof
   from the hand-written text of region 1 (RegKI1c.lean): the same text, the region's number substituted. -/
/-
  Region 46, case C (k = 3): the body's run. The product is added to the accumulator as in case B, and then the second
  conditional copies the accumulator over the whole output block.
-/
import proofs.«158944_j64613488001249_1_alg».proof.Proof.RegKI46b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun46_C (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond46_0 i) (hc1 : cond46_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc46__matmul_kernel i arg2 harg2 arg3 harg3 arg4 harg4 arg5 harg5) K } := by
  refine ⟨?_, ?_, fun E K => ?run⟩
  case run =>
    simp only [cc46__matmul_kernel_eq_skeleton]; unfold cc46__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI46.lean ====
/- Laid out by: python3 scratch/layout_regions.py --template-region 1 --region 46 --program KernelIdeal --parts a,b,c, --out-dir proof/Proof
   from the hand-written text of region 1 (RegKI1.lean): the same text, the region's number substituted. -/
/-
  Region 46 of @main, entered from the buffer contents `V`: what its windows' blocks are, what each case of the body leaves in
  the accumulator and in the output block, the accumulator and the output block point by point (`outsAt46`: at k = 0 the
  accumulator restarts from zeros plus the product; at k = 1, 2, 3 it is the point before's plus the product; at k = 3 the
  output block is the accumulator), the region's invariant (the accumulator at `outsAt46`'s second component), the proof data,
  and the body's obligation at every point.
-/
import proofs.«158944_j64613488001249_1_alg».proof.Proof.RegKI46c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk46 (c : Dev nD) (w : Fin cfg46.W) (t : Fin cfg46.N) : ((cfg46.win w).xblock (cfg46.grid.coords t)).Idx → Elt F (cfg46.win w).elt :=
  ((cfg46.win w).blk t).view.read (Elt F) (V c (Pipeline.arrRef spec46 w))

/-- An input window's current staging buffer holds its block at every point, for any proof data whose array is `V`'s and
    whose body leaves the block in place. -/
theorem before46_0_of {c : Dev nD} (dat : Dat τ (Elt F) Unit ℕ (UR sig nD τ) ℕ cfg46 c) (hA : dat.A 0 = V c (Pipeline.arrRef spec46 0))
    (hafter : ∀ t, dat.after 0 t = iblk46 V c 0 t) (t : Fin cfg46.N) (d) : dat.before 0 t d = iblk46 V c 0 t :=
  (dat.before_in_eq_fetched 0 rfl (fun _ => rfl) (fun _ _ _ => rfl) (fun t => by rw [hafter]; unfold Dat.blockOf iblk46; rw [hA]; try rfl) t d).trans
    (by unfold Dat.fetched Dat.blockOf iblk46; rw [hA]; try rfl)
theorem before46_1_of {c : Dev nD} (dat : Dat τ (Elt F) Unit ℕ (UR sig nD τ) ℕ cfg46 c) (hA : dat.A 1 = V c (Pipeline.arrRef spec46 1))
    (hafter : ∀ t, dat.after 1 t = iblk46 V c 1 t) (t : Fin cfg46.N) (d) : dat.before 1 t d = iblk46 V c 1 t :=
  (dat.before_in_eq_fetched 1 rfl (fun _ => rfl) (fun _ _ _ => rfl) (fun t => by rw [hafter]; unfold Dat.blockOf iblk46; rw [hA]; try rfl) t d).trans
    (by unfold Dat.fetched Dat.blockOf iblk46; rw [hA]; try rfl)

/-! ## What each case leaves -/

/-- Case A's stores into the accumulator cover it. -/
theorem scover46_A (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond46_0 i) (hc1 : ¬cond46_1 i)
    (x0 : Vec F S1024x1024 .bf16) (x1 : Vec F S1024x512 .f32) (y : S1024x512.Idx) :
    ∃ pc ∈ (kernelRun46_A c i arg2 harg2 arg3 harg3 arg4 harg4 arg5 harg5 hc0 hc1 x0 x1).2.1, y ∈ pc.1.set :=
  View.cover_of_tiledL (kernelRun46_A c i arg2 harg2 arg3 harg3 arg4 harg4 arg5 harg5 hc0 hc1 x0 x1).2.1 S1024x512.size (by sl_kernel_rfl) y
/-- What case A leaves in the accumulator. -/
noncomputable def sout46_A (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond46_0 i) (hc1 : ¬cond46_1 i)
    (x0 : Vec F S1024x1024 .bf16) (x1 : Vec F S1024x512 .f32) : Vec F S1024x512 .f32 :=
  VS46.read (Elt F) (VS46.writes (Elt F) VS46.junk (kernelRun46_A c i arg2 harg2 arg3 harg3 arg4 harg4 arg5 harg5 hc0 hc1 x0 x1).2.1)

/-- Case B's store into the accumulator covers it. -/
theorem scover46_B (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond46_0 i) (hc1 : ¬cond46_1 i)
    (x0 : Vec F S1024x1024 .bf16) (x1 : Vec F S1024x512 .f32) (xs0 : Vec F S1024x512 .f32) (y : S1024x512.Idx) :
    ∃ pc ∈ (kernelRun46_B c i arg2 harg2 arg3 harg3 arg4 harg4 arg5 harg5 hc0 hc1 x0 x1 xs0).2.1, y ∈ pc.1.set :=
  View.cover_of_tiledL (kernelRun46_B c i arg2 harg2 arg3 harg3 arg4 harg4 arg5 harg5 hc0 hc1 x0 x1 xs0).2.1 S1024x512.size (by sl_kernel_rfl) y
/-- What case B leaves in the accumulator, over what the point before left. -/
noncomputable def sout46_B (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond46_0 i) (hc1 : ¬cond46_1 i)
    (x0 : Vec F S1024x1024 .bf16) (x1 : Vec F S1024x512 .f32) (xs0 : Vec F S1024x512 .f32) : Vec F S1024x512 .f32 :=
  VS46.read (Elt F) (VS46.writes (Elt F) VS46.junk (kernelRun46_B c i arg2 harg2 arg3 harg3 arg4 harg4 arg5 harg5 hc0 hc1 x0 x1 xs0).2.1)

/-- Case C's store into the output block covers it, and so does its store into the accumulator. -/
theorem cover46_C (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond46_0 i) (hc1 : cond46_1 i)
    (x0 : Vec F S1024x1024 .bf16) (x1 : Vec F S1024x512 .f32) (xs0 : Vec F S1024x512 .f32) (y : S1024x512.Idx) :
    ∃ pc ∈ (kernelRun46_C c i arg2 harg2 arg3 harg3 arg4 harg4 arg5 harg5 hc0 hc1 x0 x1 xs0).1, y ∈ pc.1.set :=
  View.cover_of_tiledL (kernelRun46_C c i arg2 harg2 arg3 harg3 arg4 harg4 arg5 harg5 hc0 hc1 x0 x1 xs0).1 S1024x512.size (by sl_kernel_rfl) y
theorem scover46_C (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond46_0 i) (hc1 : cond46_1 i)
    (x0 : Vec F S1024x1024 .bf16) (x1 : Vec F S1024x512 .f32) (xs0 : Vec F S1024x512 .f32) (y : S1024x512.Idx) :
    ∃ pc ∈ (kernelRun46_C c i arg2 harg2 arg3 harg3 arg4 harg4 arg5 harg5 hc0 hc1 x0 x1 xs0).2.1, y ∈ pc.1.set :=
  View.cover_of_tiledL (kernelRun46_C c i arg2 harg2 arg3 harg3 arg4 harg4 arg5 harg5 hc0 hc1 x0 x1 xs0).2.1 S1024x512.size (by sl_kernel_rfl) y
/-- What case C leaves in the output block, and in the accumulator. -/
noncomputable def out46_C (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond46_0 i) (hc1 : cond46_1 i)
    (x0 : Vec F S1024x1024 .bf16) (x1 : Vec F S1024x512 .f32) (xs0 : Vec F S1024x512 .f32) : Vec F S1024x512 .f32 :=
  VO46_2.read (Elt F) (VO46_2.writes (Elt F) VO46_2.junk (kernelRun46_C c i arg2 harg2 arg3 harg3 arg4 harg4 arg5 harg5 hc0 hc1 x0 x1 xs0).1)
noncomputable def sout46_C (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond46_0 i) (hc1 : cond46_1 i)
    (x0 : Vec F S1024x1024 .bf16) (x1 : Vec F S1024x512 .f32) (xs0 : Vec F S1024x512 .f32) : Vec F S1024x512 .f32 :=
  VS46.read (Elt F) (VS46.writes (Elt F) VS46.junk (kernelRun46_C c i arg2 harg2 arg3 harg3 arg4 harg4 arg5 harg5 hc0 hc1 x0 x1 xs0).2.1)

/-- Where the output block is idle nothing consults what it holds: a placeholder. -/
noncomputable def outIdle46 : Vec F S1024x512 .f32 := VO46_2.read (Elt F) (VO46_2.writes (Elt F) VO46_2.junk [])

/-! ## The conditions at a point, from t % 4 -/

theorem isFirst46 (t : Fin cfg46.N) (h : t.val % 4 = 0) : cond46_0 (grid46.coords t) := (hcond46_0 t).mpr h
theorem notFirst46 (t : Fin cfg46.N) (h : ¬t.val % 4 = 0) : ¬cond46_0 (grid46.coords t) := fun hc => h ((hcond46_0 t).mp hc)
theorem isLast46 (t : Fin cfg46.N) (h : t.val % 4 = 3) : cond46_1 (grid46.coords t) := (hcond46_1 t).mpr h
theorem notLast46 (t : Fin cfg46.N) (h : ¬t.val % 4 = 3) : ¬cond46_1 (grid46.coords t) := fun hc => h ((hcond46_1 t).mp hc)

/-! ## The accumulator and the output block, point by point -/

/-- After the body at position `n`: (the output block's buffer, the accumulator). -/
noncomputable def outsAt46 (c : Dev nD) : (n : ℕ) → n < cfg46.N → Vec F S1024x512 .f32 × Vec F S1024x512 .f32
  | 0, hn => (outIdle46, sout46_A c (grid46.coords ⟨0, hn⟩) (ms46_0 ⟨0, hn⟩) (hs46_0 ⟨0, hn⟩) (ms46_1 ⟨0, hn⟩) (hs46_1 ⟨0, hn⟩) (ms46_2 ⟨0, hn⟩) (hs46_2 ⟨0, hn⟩) scM46 (Memref.isWhole_whole _) (isFirst46 ⟨0, hn⟩ (Nat.zero_mod _)) (notLast46 ⟨0, hn⟩ (by simp)) (iblk46 V c 0 ⟨0, hn⟩) (iblk46 V c 1 ⟨0, hn⟩))
  | n + 1, hn =>
    if h0 : (n + 1) % 4 = 0 then
      (outIdle46, sout46_A c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) scM46 (Memref.isWhole_whole _) (isFirst46 ⟨n + 1, hn⟩ h0) (notLast46 ⟨n + 1, hn⟩ (by show ¬(n + 1) % 4 = 3; omega)) (iblk46 V c 0 ⟨n + 1, hn⟩) (iblk46 V c 1 ⟨n + 1, hn⟩))
    else if h3 : (n + 1) % 4 = 3 then
      (out46_C c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) scM46 (Memref.isWhole_whole _) (notFirst46 ⟨n + 1, hn⟩ h0) (isLast46 ⟨n + 1, hn⟩ h3) (iblk46 V c 0 ⟨n + 1, hn⟩) (iblk46 V c 1 ⟨n + 1, hn⟩) (outsAt46 c n (Nat.lt_of_succ_lt hn)).2,
       sout46_C c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) scM46 (Memref.isWhole_whole _) (notFirst46 ⟨n + 1, hn⟩ h0) (isLast46 ⟨n + 1, hn⟩ h3) (iblk46 V c 0 ⟨n + 1, hn⟩) (iblk46 V c 1 ⟨n + 1, hn⟩) (outsAt46 c n (Nat.lt_of_succ_lt hn)).2)
    else
      (outIdle46, sout46_B c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) scM46 (Memref.isWhole_whole _) (notFirst46 ⟨n + 1, hn⟩ h0) (notLast46 ⟨n + 1, hn⟩ h3) (iblk46 V c 0 ⟨n + 1, hn⟩) (iblk46 V c 1 ⟨n + 1, hn⟩) (outsAt46 c n (Nat.lt_of_succ_lt hn)).2)

/-- `outsAt46` at a point with k = 0. -/
theorem outsAt46_A (c : Dev nD) (t : Fin cfg46.N) (h0 : t.val % 4 = 0) :
    outsAt46 V c t.val t.isLt = (outIdle46, sout46_A c (grid46.coords t) (ms46_0 t) (hs46_0 t) (ms46_1 t) (hs46_1 t) (ms46_2 t) (hs46_2 t) scM46 (Memref.isWhole_whole _) (isFirst46 t h0) (notLast46 t (by omega)) (iblk46 V c 0 t) (iblk46 V c 1 t)) := by
  obtain ⟨n, hn⟩ := t
  cases n with
  | zero => rfl
  | succ n => exact (dif_pos h0).trans rfl

/-- `outsAt46` at a point with k = 1, 2: over what the point before left. -/
theorem outsAt46_B (c : Dev nD) (t : Fin cfg46.N) (h0 : ¬t.val % 4 = 0) (h3 : ¬t.val % 4 = 3) :
    outsAt46 V c t.val t.isLt = (outIdle46, sout46_B c (grid46.coords t) (ms46_0 t) (hs46_0 t) (ms46_1 t) (hs46_1 t) (ms46_2 t) (hs46_2 t) scM46 (Memref.isWhole_whole _) (notFirst46 t h0) (notLast46 t h3) (iblk46 V c 0 t) (iblk46 V c 1 t)
      (outsAt46 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt46` at a point with k = 3. -/
theorem outsAt46_C (c : Dev nD) (t : Fin cfg46.N) (h0 : ¬t.val % 4 = 0) (h3 : t.val % 4 = 3) :
    outsAt46 V c t.val t.isLt = (out46_C c (grid46.coords t) (ms46_0 t) (hs46_0 t) (ms46_1 t) (hs46_1 t) (ms46_2 t) (hs46_2 t) scM46 (Memref.isWhole_whole _) (notFirst46 t h0) (isLast46 t h3) (iblk46 V c 0 t) (iblk46 V c 1 t)
        (outsAt46 V c (t.val - 1) (Nat.lt_of_le_of_lt (Nat.sub_le _ _) t.isLt)).2,
      sout46_C c (grid46.coords t) (ms46_0 t) (hs46_0 t) (ms46_1 t) (hs46_1 t) (ms46_2 t) (hs46_2 t) scM46 (Memref.isWhole_whole _) (notFirst46 t h0) (isLast46 t h3) (iblk46 V c 0 t) (iblk46 V c 1 t)
        (outsAt46 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS46 (c : Dev nD) : (n : ℕ) → n ≤ cfg46.N → sProp 𝕄
  | 0, _ => Pipeline.ΦA spec46 c
  | n + 1, hn => iprop(iprop(owns (c : Thread nD τ) scM46 fullShare ((outsAt46 V c n hn).2) ∗ restBut46 c) ∗ (∃ r, prngReg c r))

theorem PhiS46_zero (c : Dev nD) (n : ℕ) (h : n ≤ cfg46.N) (hz : n = 0) : PhiS46 V c n h = Pipeline.ΦA spec46 c := by
  subst hz; rfl
theorem PhiS46_succ (c : Dev nD) (n : ℕ) (hn : n < cfg46.N) :
    PhiS46 V c (n + 1) hn = iprop(iprop(owns (c : Thread nD τ) scM46 fullShare ((outsAt46 V c n hn).2) ∗ restBut46 c) ∗ (∃ r, prngReg c r)) := rfl
theorem PhiS46_pos (c : Dev nD) (n : ℕ) (h : n ≤ cfg46.N) (hz : n ≠ 0) :
    PhiS46 V c n h = iprop(iprop(owns (c : Thread nD τ) scM46 fullShare ((outsAt46 V c (n - 1) (by omega)).2) ∗ restBut46 c) ∗ (∃ r, prngReg c r)) := by
  cases n with
  | zero => exact absurd rfl hz
  | succ n => rfl

/-! ## The proof data -/

/-- The region's proof data on core `c`: the arrays as the region finds them; after the body at point `t` each input's
    buffer at its block and the output's at `outsAt46`'s first component; the invariant `PhiS46`; nothing owed; full shares. -/
noncomputable def dat46 (c : Dev nD) : Dat τ (Elt F) Unit ℕ (UR sig nD τ) ℕ cfg46 c where
  A w := V c (Pipeline.arrRef spec46 w)
  after w t := match w with
    | ⟨0, _⟩ => iblk46 V c 0 t
    | ⟨1, _⟩ => iblk46 V c 1 t
    | ⟨2, _⟩ => (outsAt46 V c t.val t.isLt).1
  Φ t := PhiS46 V c t.val (Nat.le_of_lt_succ t.isLt)
  q _ := fullShare
  owed _ := 0

theorem A_eq46 (c : Dev nD) (w : Fin cfg46.W) : (dat46 V c).A w = V c (Pipeline.arrRef spec46 w) := by
  dsimp only [dat46]
theorem PhiS46_castSucc (c : Dev nD) (t : Fin cfg46.N) :
    (dat46 V c).Φ t.castSucc = PhiS46 V c t.val (Nat.le_of_lt t.isLt) := by
  dsimp only [dat46]; simp only [Fin.coe_castSucc]
theorem after46_0 (c : Dev nD) (t : Fin cfg46.N) : (dat46 V c).after 0 t = iblk46 V c 0 t := by dsimp only [dat46]
theorem after46_1 (c : Dev nD) (t : Fin cfg46.N) : (dat46 V c).after 1 t = iblk46 V c 1 t := by dsimp only [dat46]
theorem after46_2 (c : Dev nD) (t : Fin cfg46.N) : (dat46 V c).after 2 t = (outsAt46 V c t.val t.isLt).1 := by dsimp only [dat46]
theorem before46_0 (c : Dev nD) (t : Fin cfg46.N) (d) : (dat46 V c).before 0 t d = iblk46 V c 0 t :=
  before46_0_of V (dat46 V c) (A_eq46 V c 0) (after46_0 V c) t d
theorem before46_1 (c : Dev nD) (t : Fin cfg46.N) (d) : (dat46 V c).before 1 t d = iblk46 V c 1 t :=
  before46_1_of V (dat46 V c) (A_eq46 V c 1) (after46_1 V c) t d

/-! ## The body's obligation -/

noncomputable def bodyPre46 (c : Dev nD) (t : Fin cfg46.N) : sProp 𝕄 :=
  iprop((dat46 V c).Φ t.castSucc ∗ (dat46 V c).owesAt () t.castSucc
    ∗ (∃ d, owns (c : Thread nD τ) (ms46_0 t) fullShare ((dat46 V c).before 0 t d))
    ∗ (∃ d, owns (c : Thread nD τ) (ms46_1 t) fullShare ((dat46 V c).before 1 t d))
    ∗ (∃ d, owns (c : Thread nD τ) (ms46_2 t) fullShare ((dat46 V c).before 2 t d)))

noncomputable def bodyPost46 (c : Dev nD) (t : Fin cfg46.N) : sProp 𝕄 :=
  iprop((dat46 V c).Φ t.succ ∗ (dat46 V c).owesAt () t.succ
    ∗ (dat46 V c).leavesExact 0 t
    ∗ (dat46 V c).leavesExact 1 t
    ∗ (dat46 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body46 (c : Dev nD) (t : Fin cfg46.N) :
    bodyPre46 V c t ⊢ wp frame (wpE (defs₀ (F := F)) Variants.none c none) Set.univ (bodyAt46 t) (fun _ => bodyPost46 V c t) := by
  unfold bodyPre46 bodyPost46 bodyAt46
  simp only [before46_0, before46_1]
  rw [show (dat46 V c).owesAt () t.succ = (dat46 V c).owesAt () t.castSucc from rfl]
  rw [show (dat46 V c).Φ t.succ = PhiS46 V c (t.val + 1) t.isLt from rfl, PhiS46_succ]
  rw [show (dat46 V c).leavesExact 0 t = owns (c : Thread nD τ) (ms46_0 t) fullShare ((dat46 V c).after 0 t) from by
    unfold Dat.leavesExact; rw [liveAt46_0 t], after46_0]
  rw [show (dat46 V c).leavesExact 1 t = owns (c : Thread nD τ) (ms46_1 t) fullShare ((dat46 V c).after 1 t) from by
    unfold Dat.leavesExact; rw [liveAt46_1 t], after46_1]
  by_cases h0 : t.val % 4 = 0
  · have h3 : ¬t.val % 4 = 3 := by omega
    rw [Dat.leavesExact_idle (dat46 V c) 2 t (idleAt46_2 t (notLast46 t h3)) (noFlush46_2 t (notLast46 t h3))]
    rw [outsAt46_A V c t h0]
    unfold sout46_A; (try dsimp only)
    by_cases hz : t.val = 0
    · rw [PhiS46_castSucc V c t, PhiS46_zero V c _ _ hz, PhiA46_eq]
      iintro ⟨⟨⟨HS0, Hrb⟩, Hg⟩, Ho, ⟨%d0, H0⟩, ⟨%d1, H1⟩, ⟨%d2, H2⟩⟩
      iapply ((kernelRun46_A c (grid46.coords t) _ _ _ _ _ _ _ _ (isFirst46 t h0) (notLast46 t (by omega)) (iblk46 V c 0 t) (iblk46 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover46_A c _ _ _ _ _ _ _ _ _ _ _ _ _)
          iexact Hrb
        iexact Hg
      isplitl [Ho]; · iexact Ho
      isplitl [H0]; · iexact H0
      isplitl [H1]; · iexact H1
      iexists _; iexact H2
    · rw [PhiS46_castSucc V c t, PhiS46_pos V c _ _ hz]
      iintro ⟨⟨⟨HS0, Hrb⟩, Hg⟩, Ho, ⟨%d0, H0⟩, ⟨%d1, H1⟩, ⟨%d2, H2⟩⟩
      iapply ((kernelRun46_A c (grid46.coords t) _ _ _ _ _ _ _ _ (isFirst46 t h0) (notLast46 t (by omega)) (iblk46 V c 0 t) (iblk46 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover46_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat46 V c).leavesExact 2 t = owns (c : Thread nD τ) (ms46_2 t) fullShare ((dat46 V c).after 2 t) from by
        unfold Dat.leavesExact; rw [liveAt46_2 t (isLast46 t h3)], after46_2]
      rw [outsAt46_C V c t h0 h3]
      unfold out46_C sout46_C; (try dsimp only)
      rw [PhiS46_castSucc V c t, PhiS46_pos V c _ _ hz]
      iintro ⟨⟨⟨HS0, Hrb⟩, Hg⟩, Ho, ⟨%d0, H0⟩, ⟨%d1, H1⟩, ⟨%d2, H2⟩⟩
      iapply ((kernelRun46_C c (grid46.coords t) _ _ _ _ _ _ _ _ (notFirst46 t h0) (isLast46 t h3) (iblk46 V c 0 t) (iblk46 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover46_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover46_C c _ _ _ _ _ _ _ _ _ _ _ _ _ _)
    · rw [Dat.leavesExact_idle (dat46 V c) 2 t (idleAt46_2 t (notLast46 t h3)) (noFlush46_2 t (notLast46 t h3))]
      rw [outsAt46_B V c t h0 h3]
      unfold sout46_B; (try dsimp only)
      rw [PhiS46_castSucc V c t, PhiS46_pos V c _ _ hz]
      iintro ⟨⟨⟨HS0, Hrb⟩, Hg⟩, Ho, ⟨%d0, H0⟩, ⟨%d1, H1⟩, ⟨%d2, H2⟩⟩
      iapply ((kernelRun46_B c (grid46.coords t) _ _ _ _ _ _ _ _ (notFirst46 t h0) (notLast46 t h3) (iblk46 V c 0 t) (iblk46 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover46_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation46 (c : Dev nD) : BodyObligation (dat46 (F := F) V c) (defs₀ (F := F)) Variants.none () Set.univ := fun t => by
  rw [bigSep_W46, bigSep_W46]
  exact sound_body46 V c t

/-- What the region is entered with is the invariant before the first point. -/
theorem hin46 (c : Dev nD) : Pipeline.ΦA spec46 c ⊢ (dat46 V c).Φ 0 := by
  rw [show (dat46 V c).Φ 0 = PhiS46 V c 0 (Nat.zero_le _) from rfl, PhiS46_zero V c 0 _ rfl]
  try exact Idealize.SL.BI.Entails.refl _

/-- After the last point the invariant gives the class's back: the accumulator's contents are forgotten. -/
theorem hout46 (c : Dev nD) : (dat46 V c).Φ (Fin.last cfg46.N) ⊢ Pipeline.ΦA spec46 c := by
  have hN : cfg46.N = 16 := N_46
  rw [show (dat46 V c).Φ (Fin.last cfg46.N) = PhiS46 V c (Fin.last cfg46.N).val (Nat.le_of_lt_succ (Fin.last cfg46.N).isLt) from rfl,
    PhiS46_pos V c _ _ (by rw [Fin.val_last]; omega), PhiA46_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI47a.lean ====
/- Laid out by: python3 scratch/layout_regions.py --template-region 1 --region 47 --program KernelIdeal --parts a,b,c, --out-dir proof/Proof
   from the hand-written text of region 1 (RegKI1a.lean): the same text, the region's number substituted. -/
/-
  Region 47 of @main (custom_call 47): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond47_0 (i : grid47.Coords) : Prop := (Scalar.cmpi .ne (Scalar.extui (Scalar.cmpi .eq (BitVec.ofNat 32 (i 1).val) 0#32)) 0#32) = 1#1
/-- It holds exactly at the points with t % 4 = 0. -/
theorem hcond47_0 : ∀ t : Fin cfg47.N, cond47_0 (grid47.coords t) ↔ t.val % 4 = 0 :=
  (by decide +kernel : ∀ t : Fin grid47.N, cond47_0 (grid47.coords t) ↔ t.val % 4 = 0)

/-- "k = 3": the second conditional's test. -/
abbrev cond47_1 (i : grid47.Coords) : Prop := k47_cond2 i = 1#1
/-- It holds exactly at the points with t % 4 = 3. -/
theorem hcond47_1 : ∀ t : Fin cfg47.N, cond47_1 (grid47.coords t) ↔ t.val % 4 = 3 :=
  (by decide +kernel : ∀ t : Fin grid47.N, cond47_1 (grid47.coords t) ↔ t.val % 4 = 3)

/-! ## Where the windows are idle, and where the output is written back -/

/-- The two input windows are never idle. -/
theorem liveAt47_0 : ∀ t : Fin cfg47.N, cfg47.idle 0 (grid47.coords t) = false := by decide +kernel
theorem liveAt47_1 : ∀ t : Fin cfg47.N, cfg47.idle 1 (grid47.coords t) = false := by decide +kernel
/-- Where k ≠ 3 the output window is idle (the body stores nothing into it) and is not written back. -/
theorem idleAt47_2 : ∀ t : Fin cfg47.N, ¬cond47_1 (grid47.coords t) → cfg47.idle 2 (grid47.coords t) = true := by decide +kernel
theorem noFlush47_2 : ∀ t : Fin cfg47.N, ¬cond47_1 (grid47.coords t) → (cfg47.win 2).flush t = false := by decide +kernel
/-- Where k = 3 it is live. -/
theorem liveAt47_2 : ∀ t : Fin cfg47.N, cond47_1 (grid47.coords t) → cfg47.idle 2 (grid47.coords t) = false := by decide +kernel

/-! ## The staging memrefs at a point, and the scratch -/

/-- One staging buffer of the output window, through which its contents are stated. -/
abbrev VO47_2 : View sig .tc .vmem S1024x512 .f32 := (Memref.whole cc47_stg2_0 : Memref sig .tc .vmem S1024x512 .f32).view
abbrev ms47_0 (t : Fin cfg47.N) : Memref sig .tc .vmem S1024x1024 .bf16 := win47_0.stage (cfg47.slots t 0)
abbrev hs47_0 (t : Fin cfg47.N) : (ms47_0 t).IsWhole := hstage47_0 ((cfg47.slots t 0).cast nbuf47_0)
abbrev ms47_1 (t : Fin cfg47.N) : Memref sig .tc .vmem S1024x512 .f32 := win47_1.stage (cfg47.slots t 1)
abbrev hs47_1 (t : Fin cfg47.N) : (ms47_1 t).IsWhole := hstage47_1 ((cfg47.slots t 1).cast nbuf47_1)
abbrev ms47_2 (t : Fin cfg47.N) : Memref sig .tc .vmem S1024x512 .f32 := win47_2.stage (cfg47.slots t 2)
abbrev hs47_2 (t : Fin cfg47.N) : (ms47_2 t).IsWhole := hstage47_2 ((cfg47.slots t 2).cast nbuf47_2)
/-- The accumulator: a whole scoped buffer of the kernel's own. -/
abbrev scM47 : Memref sig .tc .vmem S1024x512 .f32 := Memref.whole cc47_scratch0
abbrev VS47 : View sig .tc .vmem S1024x512 .f32 := scM47.view

/-- The other scoped buffers of the core, none of which this region touches. -/
abbrev restBut47 (c : Dev nD) : sProp 𝕄 :=
  Pipeline.scopedRestBut (Ix := Unit) (Name := ℕ) (U := UR sig nD τ) (Lvl := ℕ) (Val := Elt F) spec47 c [cc47_scratch0]

/-- The region's invariant before its first point: the accumulator at something, the other scoped buffers, the generator register. -/
theorem PhiA47_eq (c : Dev nD) :
    (Pipeline.ΦA spec47 c : sProp 𝕄)
      = iprop(iprop((∃ d, owns (c : Thread nD τ) scM47 fullShare d) ∗ restBut47 c) ∗ (∃ r, prngReg c r)) := by
  unfold Pipeline.ΦA; rw [scopedRest47_split]; simp only [scM47, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun47_A (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond47_0 i) (hc1 : ¬cond47_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc47__matmul_kernel i arg2 harg2 arg3 harg3 arg4 harg4 arg5 harg5) K } := by
  refine ⟨[], ?_, fun xi2 E K => ?run⟩
  case run =>
    simp only [cc47__matmul_kernel_eq_skeleton]; unfold cc47__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI47b.lean ====
/- Laid out by: python3 scratch/layout_regions.py --template-region 1 --region 47 --program KernelIdeal --parts a,b,c, --out-dir proof/Proof
   from the hand-written text of region 1 (RegKI1b.lean): the same text, the region's number substituted. -/
/-
  Region 47, case B (k = 1, 2): the body's run. Neither conditional is taken: the product of the two blocks is added to what
  the point before left in the accumulator; the output block is not touched.
-/
import proofs.«158944_j64613488001249_1_alg».proof.Proof.RegKI47a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun47_B (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond47_0 i) (hc1 : ¬cond47_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc47__matmul_kernel i arg2 harg2 arg3 harg3 arg4 harg4 arg5 harg5) K } := by
  refine ⟨[], ?_, fun xi2 E K => ?run⟩
  case run =>
    simp only [cc47__matmul_kernel_eq_skeleton]; unfold cc47__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI47c.lean ====
/- Laid out by: python3 scratch/layout_regions.py --template-region 1 --region 47 --program KernelIdeal --parts a,b,c, --out-dir proof/Proof
   from the hand-written text of region 1 (RegKI1c.lean): the same text, the region's number substituted. -/
/-
  Region 47, case C (k = 3): the body's run. The product is added to the accumulator as in case B, and then the second
  conditional copies the accumulator over the whole output block.
-/
import proofs.«158944_j64613488001249_1_alg».proof.Proof.RegKI47b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun47_C (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond47_0 i) (hc1 : cond47_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc47__matmul_kernel i arg2 harg2 arg3 harg3 arg4 harg4 arg5 harg5) K } := by
  refine ⟨?_, ?_, fun E K => ?run⟩
  case run =>
    simp only [cc47__matmul_kernel_eq_skeleton]; unfold cc47__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI47.lean ====
/- Laid out by: python3 scratch/layout_regions.py --template-region 1 --region 47 --program KernelIdeal --parts a,b,c, --out-dir proof/Proof
   from the hand-written text of region 1 (RegKI1.lean): the same text, the region's number substituted. -/
/-
  Region 47 of @main, entered from the buffer contents `V`: what its windows' blocks are, what each case of the body leaves in
  the accumulator and in the output block, the accumulator and the output block point by point (`outsAt47`: at k = 0 the
  accumulator restarts from zeros plus the product; at k = 1, 2, 3 it is the point before's plus the product; at k = 3 the
  output block is the accumulator), the region's invariant (the accumulator at `outsAt47`'s second component), the proof data,
  and the body's obligation at every point.
-/
import proofs.«158944_j64613488001249_1_alg».proof.Proof.RegKI47c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk47 (c : Dev nD) (w : Fin cfg47.W) (t : Fin cfg47.N) : ((cfg47.win w).xblock (cfg47.grid.coords t)).Idx → Elt F (cfg47.win w).elt :=
  ((cfg47.win w).blk t).view.read (Elt F) (V c (Pipeline.arrRef spec47 w))

/-- An input window's current staging buffer holds its block at every point, for any proof data whose array is `V`'s and
    whose body leaves the block in place. -/
theorem before47_0_of {c : Dev nD} (dat : Dat τ (Elt F) Unit ℕ (UR sig nD τ) ℕ cfg47 c) (hA : dat.A 0 = V c (Pipeline.arrRef spec47 0))
    (hafter : ∀ t, dat.after 0 t = iblk47 V c 0 t) (t : Fin cfg47.N) (d) : dat.before 0 t d = iblk47 V c 0 t :=
  (dat.before_in_eq_fetched 0 rfl (fun _ => rfl) (fun _ _ _ => rfl) (fun t => by rw [hafter]; unfold Dat.blockOf iblk47; rw [hA]; try rfl) t d).trans
    (by unfold Dat.fetched Dat.blockOf iblk47; rw [hA]; try rfl)
theorem before47_1_of {c : Dev nD} (dat : Dat τ (Elt F) Unit ℕ (UR sig nD τ) ℕ cfg47 c) (hA : dat.A 1 = V c (Pipeline.arrRef spec47 1))
    (hafter : ∀ t, dat.after 1 t = iblk47 V c 1 t) (t : Fin cfg47.N) (d) : dat.before 1 t d = iblk47 V c 1 t :=
  (dat.before_in_eq_fetched 1 rfl (fun _ => rfl) (fun _ _ _ => rfl) (fun t => by rw [hafter]; unfold Dat.blockOf iblk47; rw [hA]; try rfl) t d).trans
    (by unfold Dat.fetched Dat.blockOf iblk47; rw [hA]; try rfl)

/-! ## What each case leaves -/

/-- Case A's stores into the accumulator cover it. -/
theorem scover47_A (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond47_0 i) (hc1 : ¬cond47_1 i)
    (x0 : Vec F S1024x1024 .bf16) (x1 : Vec F S1024x512 .f32) (y : S1024x512.Idx) :
    ∃ pc ∈ (kernelRun47_A c i arg2 harg2 arg3 harg3 arg4 harg4 arg5 harg5 hc0 hc1 x0 x1).2.1, y ∈ pc.1.set :=
  View.cover_of_tiledL (kernelRun47_A c i arg2 harg2 arg3 harg3 arg4 harg4 arg5 harg5 hc0 hc1 x0 x1).2.1 S1024x512.size (by sl_kernel_rfl) y
/-- What case A leaves in the accumulator. -/
noncomputable def sout47_A (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond47_0 i) (hc1 : ¬cond47_1 i)
    (x0 : Vec F S1024x1024 .bf16) (x1 : Vec F S1024x512 .f32) : Vec F S1024x512 .f32 :=
  VS47.read (Elt F) (VS47.writes (Elt F) VS47.junk (kernelRun47_A c i arg2 harg2 arg3 harg3 arg4 harg4 arg5 harg5 hc0 hc1 x0 x1).2.1)

/-- Case B's store into the accumulator covers it. -/
theorem scover47_B (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond47_0 i) (hc1 : ¬cond47_1 i)
    (x0 : Vec F S1024x1024 .bf16) (x1 : Vec F S1024x512 .f32) (xs0 : Vec F S1024x512 .f32) (y : S1024x512.Idx) :
    ∃ pc ∈ (kernelRun47_B c i arg2 harg2 arg3 harg3 arg4 harg4 arg5 harg5 hc0 hc1 x0 x1 xs0).2.1, y ∈ pc.1.set :=
  View.cover_of_tiledL (kernelRun47_B c i arg2 harg2 arg3 harg3 arg4 harg4 arg5 harg5 hc0 hc1 x0 x1 xs0).2.1 S1024x512.size (by sl_kernel_rfl) y
/-- What case B leaves in the accumulator, over what the point before left. -/
noncomputable def sout47_B (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond47_0 i) (hc1 : ¬cond47_1 i)
    (x0 : Vec F S1024x1024 .bf16) (x1 : Vec F S1024x512 .f32) (xs0 : Vec F S1024x512 .f32) : Vec F S1024x512 .f32 :=
  VS47.read (Elt F) (VS47.writes (Elt F) VS47.junk (kernelRun47_B c i arg2 harg2 arg3 harg3 arg4 harg4 arg5 harg5 hc0 hc1 x0 x1 xs0).2.1)

/-- Case C's store into the output block covers it, and so does its store into the accumulator. -/
theorem cover47_C (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond47_0 i) (hc1 : cond47_1 i)
    (x0 : Vec F S1024x1024 .bf16) (x1 : Vec F S1024x512 .f32) (xs0 : Vec F S1024x512 .f32) (y : S1024x512.Idx) :
    ∃ pc ∈ (kernelRun47_C c i arg2 harg2 arg3 harg3 arg4 harg4 arg5 harg5 hc0 hc1 x0 x1 xs0).1, y ∈ pc.1.set :=
  View.cover_of_tiledL (kernelRun47_C c i arg2 harg2 arg3 harg3 arg4 harg4 arg5 harg5 hc0 hc1 x0 x1 xs0).1 S1024x512.size (by sl_kernel_rfl) y
theorem scover47_C (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond47_0 i) (hc1 : cond47_1 i)
    (x0 : Vec F S1024x1024 .bf16) (x1 : Vec F S1024x512 .f32) (xs0 : Vec F S1024x512 .f32) (y : S1024x512.Idx) :
    ∃ pc ∈ (kernelRun47_C c i arg2 harg2 arg3 harg3 arg4 harg4 arg5 harg5 hc0 hc1 x0 x1 xs0).2.1, y ∈ pc.1.set :=
  View.cover_of_tiledL (kernelRun47_C c i arg2 harg2 arg3 harg3 arg4 harg4 arg5 harg5 hc0 hc1 x0 x1 xs0).2.1 S1024x512.size (by sl_kernel_rfl) y
/-- What case C leaves in the output block, and in the accumulator. -/
noncomputable def out47_C (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond47_0 i) (hc1 : cond47_1 i)
    (x0 : Vec F S1024x1024 .bf16) (x1 : Vec F S1024x512 .f32) (xs0 : Vec F S1024x512 .f32) : Vec F S1024x512 .f32 :=
  VO47_2.read (Elt F) (VO47_2.writes (Elt F) VO47_2.junk (kernelRun47_C c i arg2 harg2 arg3 harg3 arg4 harg4 arg5 harg5 hc0 hc1 x0 x1 xs0).1)
noncomputable def sout47_C (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond47_0 i) (hc1 : cond47_1 i)
    (x0 : Vec F S1024x1024 .bf16) (x1 : Vec F S1024x512 .f32) (xs0 : Vec F S1024x512 .f32) : Vec F S1024x512 .f32 :=
  VS47.read (Elt F) (VS47.writes (Elt F) VS47.junk (kernelRun47_C c i arg2 harg2 arg3 harg3 arg4 harg4 arg5 harg5 hc0 hc1 x0 x1 xs0).2.1)

/-- Where the output block is idle nothing consults what it holds: a placeholder. -/
noncomputable def outIdle47 : Vec F S1024x512 .f32 := VO47_2.read (Elt F) (VO47_2.writes (Elt F) VO47_2.junk [])

/-! ## The conditions at a point, from t % 4 -/

theorem isFirst47 (t : Fin cfg47.N) (h : t.val % 4 = 0) : cond47_0 (grid47.coords t) := (hcond47_0 t).mpr h
theorem notFirst47 (t : Fin cfg47.N) (h : ¬t.val % 4 = 0) : ¬cond47_0 (grid47.coords t) := fun hc => h ((hcond47_0 t).mp hc)
theorem isLast47 (t : Fin cfg47.N) (h : t.val % 4 = 3) : cond47_1 (grid47.coords t) := (hcond47_1 t).mpr h
theorem notLast47 (t : Fin cfg47.N) (h : ¬t.val % 4 = 3) : ¬cond47_1 (grid47.coords t) := fun hc => h ((hcond47_1 t).mp hc)

/-! ## The accumulator and the output block, point by point -/

/-- After the body at position `n`: (the output block's buffer, the accumulator). -/
noncomputable def outsAt47 (c : Dev nD) : (n : ℕ) → n < cfg47.N → Vec F S1024x512 .f32 × Vec F S1024x512 .f32
  | 0, hn => (outIdle47, sout47_A c (grid47.coords ⟨0, hn⟩) (ms47_0 ⟨0, hn⟩) (hs47_0 ⟨0, hn⟩) (ms47_1 ⟨0, hn⟩) (hs47_1 ⟨0, hn⟩) (ms47_2 ⟨0, hn⟩) (hs47_2 ⟨0, hn⟩) scM47 (Memref.isWhole_whole _) (isFirst47 ⟨0, hn⟩ (Nat.zero_mod _)) (notLast47 ⟨0, hn⟩ (by simp)) (iblk47 V c 0 ⟨0, hn⟩) (iblk47 V c 1 ⟨0, hn⟩))
  | n + 1, hn =>
    if h0 : (n + 1) % 4 = 0 then
      (outIdle47, sout47_A c (grid47.coords ⟨n + 1, hn⟩) (ms47_0 ⟨n + 1, hn⟩) (hs47_0 ⟨n + 1, hn⟩) (ms47_1 ⟨n + 1, hn⟩) (hs47_1 ⟨n + 1, hn⟩) (ms47_2 ⟨n + 1, hn⟩) (hs47_2 ⟨n + 1, hn⟩) scM47 (Memref.isWhole_whole _) (isFirst47 ⟨n + 1, hn⟩ h0) (notLast47 ⟨n + 1, hn⟩ (by show ¬(n + 1) % 4 = 3; omega)) (iblk47 V c 0 ⟨n + 1, hn⟩) (iblk47 V c 1 ⟨n + 1, hn⟩))
    else if h3 : (n + 1) % 4 = 3 then
      (out47_C c (grid47.coords ⟨n + 1, hn⟩) (ms47_0 ⟨n + 1, hn⟩) (hs47_0 ⟨n + 1, hn⟩) (ms47_1 ⟨n + 1, hn⟩) (hs47_1 ⟨n + 1, hn⟩) (ms47_2 ⟨n + 1, hn⟩) (hs47_2 ⟨n + 1, hn⟩) scM47 (Memref.isWhole_whole _) (notFirst47 ⟨n + 1, hn⟩ h0) (isLast47 ⟨n + 1, hn⟩ h3) (iblk47 V c 0 ⟨n + 1, hn⟩) (iblk47 V c 1 ⟨n + 1, hn⟩) (outsAt47 c n (Nat.lt_of_succ_lt hn)).2,
       sout47_C c (grid47.coords ⟨n + 1, hn⟩) (ms47_0 ⟨n + 1, hn⟩) (hs47_0 ⟨n + 1, hn⟩) (ms47_1 ⟨n + 1, hn⟩) (hs47_1 ⟨n + 1, hn⟩) (ms47_2 ⟨n + 1, hn⟩) (hs47_2 ⟨n + 1, hn⟩) scM47 (Memref.isWhole_whole _) (notFirst47 ⟨n + 1, hn⟩ h0) (isLast47 ⟨n + 1, hn⟩ h3) (iblk47 V c 0 ⟨n + 1, hn⟩) (iblk47 V c 1 ⟨n + 1, hn⟩) (outsAt47 c n (Nat.lt_of_succ_lt hn)).2)
    else
      (outIdle47, sout47_B c (grid47.coords ⟨n + 1, hn⟩) (ms47_0 ⟨n + 1, hn⟩) (hs47_0 ⟨n + 1, hn⟩) (ms47_1 ⟨n + 1, hn⟩) (hs47_1 ⟨n + 1, hn⟩) (ms47_2 ⟨n + 1, hn⟩) (hs47_2 ⟨n + 1, hn⟩) scM47 (Memref.isWhole_whole _) (notFirst47 ⟨n + 1, hn⟩ h0) (notLast47 ⟨n + 1, hn⟩ h3) (iblk47 V c 0 ⟨n + 1, hn⟩) (iblk47 V c 1 ⟨n + 1, hn⟩) (outsAt47 c n (Nat.lt_of_succ_lt hn)).2)

/-- `outsAt47` at a point with k = 0. -/
theorem outsAt47_A (c : Dev nD) (t : Fin cfg47.N) (h0 : t.val % 4 = 0) :
    outsAt47 V c t.val t.isLt = (outIdle47, sout47_A c (grid47.coords t) (ms47_0 t) (hs47_0 t) (ms47_1 t) (hs47_1 t) (ms47_2 t) (hs47_2 t) scM47 (Memref.isWhole_whole _) (isFirst47 t h0) (notLast47 t (by omega)) (iblk47 V c 0 t) (iblk47 V c 1 t)) := by
  obtain ⟨n, hn⟩ := t
  cases n with
  | zero => rfl
  | succ n => exact (dif_pos h0).trans rfl

/-- `outsAt47` at a point with k = 1, 2: over what the point before left. -/
theorem outsAt47_B (c : Dev nD) (t : Fin cfg47.N) (h0 : ¬t.val % 4 = 0) (h3 : ¬t.val % 4 = 3) :
    outsAt47 V c t.val t.isLt = (outIdle47, sout47_B c (grid47.coords t) (ms47_0 t) (hs47_0 t) (ms47_1 t) (hs47_1 t) (ms47_2 t) (hs47_2 t) scM47 (Memref.isWhole_whole _) (notFirst47 t h0) (notLast47 t h3) (iblk47 V c 0 t) (iblk47 V c 1 t)
      (outsAt47 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt47` at a point with k = 3. -/
theorem outsAt47_C (c : Dev nD) (t : Fin cfg47.N) (h0 : ¬t.val % 4 = 0) (h3 : t.val % 4 = 3) :
    outsAt47 V c t.val t.isLt = (out47_C c (grid47.coords t) (ms47_0 t) (hs47_0 t) (ms47_1 t) (hs47_1 t) (ms47_2 t) (hs47_2 t) scM47 (Memref.isWhole_whole _) (notFirst47 t h0) (isLast47 t h3) (iblk47 V c 0 t) (iblk47 V c 1 t)
        (outsAt47 V c (t.val - 1) (Nat.lt_of_le_of_lt (Nat.sub_le _ _) t.isLt)).2,
      sout47_C c (grid47.coords t) (ms47_0 t) (hs47_0 t) (ms47_1 t) (hs47_1 t) (ms47_2 t) (hs47_2 t) scM47 (Memref.isWhole_whole _) (notFirst47 t h0) (isLast47 t h3) (iblk47 V c 0 t) (iblk47 V c 1 t)
        (outsAt47 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS47 (c : Dev nD) : (n : ℕ) → n ≤ cfg47.N → sProp 𝕄
  | 0, _ => Pipeline.ΦA spec47 c
  | n + 1, hn => iprop(iprop(owns (c : Thread nD τ) scM47 fullShare ((outsAt47 V c n hn).2) ∗ restBut47 c) ∗ (∃ r, prngReg c r))

theorem PhiS47_zero (c : Dev nD) (n : ℕ) (h : n ≤ cfg47.N) (hz : n = 0) : PhiS47 V c n h = Pipeline.ΦA spec47 c := by
  subst hz; rfl
theorem PhiS47_succ (c : Dev nD) (n : ℕ) (hn : n < cfg47.N) :
    PhiS47 V c (n + 1) hn = iprop(iprop(owns (c : Thread nD τ) scM47 fullShare ((outsAt47 V c n hn).2) ∗ restBut47 c) ∗ (∃ r, prngReg c r)) := rfl
theorem PhiS47_pos (c : Dev nD) (n : ℕ) (h : n ≤ cfg47.N) (hz : n ≠ 0) :
    PhiS47 V c n h = iprop(iprop(owns (c : Thread nD τ) scM47 fullShare ((outsAt47 V c (n - 1) (by omega)).2) ∗ restBut47 c) ∗ (∃ r, prngReg c r)) := by
  cases n with
  | zero => exact absurd rfl hz
  | succ n => rfl

/-! ## The proof data -/

/-- The region's proof data on core `c`: the arrays as the region finds them; after the body at point `t` each input's
    buffer at its block and the output's at `outsAt47`'s first component; the invariant `PhiS47`; nothing owed; full shares. -/
noncomputable def dat47 (c : Dev nD) : Dat τ (Elt F) Unit ℕ (UR sig nD τ) ℕ cfg47 c where
  A w := V c (Pipeline.arrRef spec47 w)
  after w t := match w with
    | ⟨0, _⟩ => iblk47 V c 0 t
    | ⟨1, _⟩ => iblk47 V c 1 t
    | ⟨2, _⟩ => (outsAt47 V c t.val t.isLt).1
  Φ t := PhiS47 V c t.val (Nat.le_of_lt_succ t.isLt)
  q _ := fullShare
  owed _ := 0

theorem A_eq47 (c : Dev nD) (w : Fin cfg47.W) : (dat47 V c).A w = V c (Pipeline.arrRef spec47 w) := by
  dsimp only [dat47]
theorem PhiS47_castSucc (c : Dev nD) (t : Fin cfg47.N) :
    (dat47 V c).Φ t.castSucc = PhiS47 V c t.val (Nat.le_of_lt t.isLt) := by
  dsimp only [dat47]; simp only [Fin.coe_castSucc]
theorem after47_0 (c : Dev nD) (t : Fin cfg47.N) : (dat47 V c).after 0 t = iblk47 V c 0 t := by dsimp only [dat47]
theorem after47_1 (c : Dev nD) (t : Fin cfg47.N) : (dat47 V c).after 1 t = iblk47 V c 1 t := by dsimp only [dat47]
theorem after47_2 (c : Dev nD) (t : Fin cfg47.N) : (dat47 V c).after 2 t = (outsAt47 V c t.val t.isLt).1 := by dsimp only [dat47]
theorem before47_0 (c : Dev nD) (t : Fin cfg47.N) (d) : (dat47 V c).before 0 t d = iblk47 V c 0 t :=
  before47_0_of V (dat47 V c) (A_eq47 V c 0) (after47_0 V c) t d
theorem before47_1 (c : Dev nD) (t : Fin cfg47.N) (d) : (dat47 V c).before 1 t d = iblk47 V c 1 t :=
  before47_1_of V (dat47 V c) (A_eq47 V c 1) (after47_1 V c) t d

/-! ## The body's obligation -/

noncomputable def bodyPre47 (c : Dev nD) (t : Fin cfg47.N) : sProp 𝕄 :=
  iprop((dat47 V c).Φ t.castSucc ∗ (dat47 V c).owesAt () t.castSucc
    ∗ (∃ d, owns (c : Thread nD τ) (ms47_0 t) fullShare ((dat47 V c).before 0 t d))
    ∗ (∃ d, owns (c : Thread nD τ) (ms47_1 t) fullShare ((dat47 V c).before 1 t d))
    ∗ (∃ d, owns (c : Thread nD τ) (ms47_2 t) fullShare ((dat47 V c).before 2 t d)))

noncomputable def bodyPost47 (c : Dev nD) (t : Fin cfg47.N) : sProp 𝕄 :=
  iprop((dat47 V c).Φ t.succ ∗ (dat47 V c).owesAt () t.succ
    ∗ (dat47 V c).leavesExact 0 t
    ∗ (dat47 V c).leavesExact 1 t
    ∗ (dat47 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body47 (c : Dev nD) (t : Fin cfg47.N) :
    bodyPre47 V c t ⊢ wp frame (wpE (defs₀ (F := F)) Variants.none c none) Set.univ (bodyAt47 t) (fun _ => bodyPost47 V c t) := by
  unfold bodyPre47 bodyPost47 bodyAt47
  simp only [before47_0, before47_1]
  rw [show (dat47 V c).owesAt () t.succ = (dat47 V c).owesAt () t.castSucc from rfl]
  rw [show (dat47 V c).Φ t.succ = PhiS47 V c (t.val + 1) t.isLt from rfl, PhiS47_succ]
  rw [show (dat47 V c).leavesExact 0 t = owns (c : Thread nD τ) (ms47_0 t) fullShare ((dat47 V c).after 0 t) from by
    unfold Dat.leavesExact; rw [liveAt47_0 t], after47_0]
  rw [show (dat47 V c).leavesExact 1 t = owns (c : Thread nD τ) (ms47_1 t) fullShare ((dat47 V c).after 1 t) from by
    unfold Dat.leavesExact; rw [liveAt47_1 t], after47_1]
  by_cases h0 : t.val % 4 = 0
  · have h3 : ¬t.val % 4 = 3 := by omega
    rw [Dat.leavesExact_idle (dat47 V c) 2 t (idleAt47_2 t (notLast47 t h3)) (noFlush47_2 t (notLast47 t h3))]
    rw [outsAt47_A V c t h0]
    unfold sout47_A; (try dsimp only)
    by_cases hz : t.val = 0
    · rw [PhiS47_castSucc V c t, PhiS47_zero V c _ _ hz, PhiA47_eq]
      iintro ⟨⟨⟨HS0, Hrb⟩, Hg⟩, Ho, ⟨%d0, H0⟩, ⟨%d1, H1⟩, ⟨%d2, H2⟩⟩
      iapply ((kernelRun47_A c (grid47.coords t) _ _ _ _ _ _ _ _ (isFirst47 t h0) (notLast47 t (by omega)) (iblk47 V c 0 t) (iblk47 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover47_A c _ _ _ _ _ _ _ _ _ _ _ _ _)
          iexact Hrb
        iexact Hg
      isplitl [Ho]; · iexact Ho
      isplitl [H0]; · iexact H0
      isplitl [H1]; · iexact H1
      iexists _; iexact H2
    · rw [PhiS47_castSucc V c t, PhiS47_pos V c _ _ hz]
      iintro ⟨⟨⟨HS0, Hrb⟩, Hg⟩, Ho, ⟨%d0, H0⟩, ⟨%d1, H1⟩, ⟨%d2, H2⟩⟩
      iapply ((kernelRun47_A c (grid47.coords t) _ _ _ _ _ _ _ _ (isFirst47 t h0) (notLast47 t (by omega)) (iblk47 V c 0 t) (iblk47 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover47_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat47 V c).leavesExact 2 t = owns (c : Thread nD τ) (ms47_2 t) fullShare ((dat47 V c).after 2 t) from by
        unfold Dat.leavesExact; rw [liveAt47_2 t (isLast47 t h3)], after47_2]
      rw [outsAt47_C V c t h0 h3]
      unfold out47_C sout47_C; (try dsimp only)
      rw [PhiS47_castSucc V c t, PhiS47_pos V c _ _ hz]
      iintro ⟨⟨⟨HS0, Hrb⟩, Hg⟩, Ho, ⟨%d0, H0⟩, ⟨%d1, H1⟩, ⟨%d2, H2⟩⟩
      iapply ((kernelRun47_C c (grid47.coords t) _ _ _ _ _ _ _ _ (notFirst47 t h0) (isLast47 t h3) (iblk47 V c 0 t) (iblk47 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover47_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover47_C c _ _ _ _ _ _ _ _ _ _ _ _ _ _)
    · rw [Dat.leavesExact_idle (dat47 V c) 2 t (idleAt47_2 t (notLast47 t h3)) (noFlush47_2 t (notLast47 t h3))]
      rw [outsAt47_B V c t h0 h3]
      unfold sout47_B; (try dsimp only)
      rw [PhiS47_castSucc V c t, PhiS47_pos V c _ _ hz]
      iintro ⟨⟨⟨HS0, Hrb⟩, Hg⟩, Ho, ⟨%d0, H0⟩, ⟨%d1, H1⟩, ⟨%d2, H2⟩⟩
      iapply ((kernelRun47_B c (grid47.coords t) _ _ _ _ _ _ _ _ (notFirst47 t h0) (notLast47 t h3) (iblk47 V c 0 t) (iblk47 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover47_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation47 (c : Dev nD) : BodyObligation (dat47 (F := F) V c) (defs₀ (F := F)) Variants.none () Set.univ := fun t => by
  rw [bigSep_W47, bigSep_W47]
  exact sound_body47 V c t

/-- What the region is entered with is the invariant before the first point. -/
theorem hin47 (c : Dev nD) : Pipeline.ΦA spec47 c ⊢ (dat47 V c).Φ 0 := by
  rw [show (dat47 V c).Φ 0 = PhiS47 V c 0 (Nat.zero_le _) from rfl, PhiS47_zero V c 0 _ rfl]
  try exact Idealize.SL.BI.Entails.refl _

/-- After the last point the invariant gives the class's back: the accumulator's contents are forgotten. -/
theorem hout47 (c : Dev nD) : (dat47 V c).Φ (Fin.last cfg47.N) ⊢ Pipeline.ΦA spec47 c := by
  have hN : cfg47.N = 16 := N_47
  rw [show (dat47 V c).Φ (Fin.last cfg47.N) = PhiS47 V c (Fin.last cfg47.N).val (Nat.le_of_lt_succ (Fin.last cfg47.N).isLt) from rfl,
    PhiS47_pos V c _ _ (by rw [Fin.val_last]; omega), PhiA47_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI48a.lean ====
/- Laid out by: python3 scratch/layout_grid41.py --template-region 0 --region 48 --program KernelIdeal --parts a, --shapes S1024x128=S1024x512,S128x512=S512x512
   from the hand-written text of region 0 (RegKI0a.lean): the same text, the region's number, block shapes substituted. -/
/- The region of KernelIdeal's @main that runs `cc48__matmul_kernel` (pipeline `cfg48`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond48_0 (i : grid48.Coords) : Prop :=
  (Scalar.cmpi .ne (Scalar.extui (Scalar.cmpi .eq (BitVec.ofNat 32 (i 1).val) 0#32)) 0#32) = 1#1
/-- True at every point: the reduction axis has one step. -/
theorem hcond48_0 : ∀ t : Fin cfg48.N, cond48_0 (grid48.coords t) :=
  (by decide +kernel : ∀ t : Fin grid48.N, cond48_0 (grid48.coords t))

/-- "This is the last reduction step" (the guard of the copy to the output block). -/
abbrev cond48_1 (i : grid48.Coords) : Prop := k48_cond2 i = 1#1
/-- True at every point, for the same reason. -/
theorem hcond48_1 : ∀ t : Fin cfg48.N, cond48_1 (grid48.coords t) :=
  (by decide +kernel : ∀ t : Fin grid48.N, cond48_1 (grid48.coords t))

/-! ## No window is idle anywhere -/

theorem liveAt48_0 : ∀ t : Fin cfg48.N, cfg48.idle 0 (grid48.coords t) = false := by decide +kernel
theorem liveAt48_1 : ∀ t : Fin cfg48.N, cfg48.idle 1 (grid48.coords t) = false := by decide +kernel
/-- The output window is stored at every point (the copy's guard holds everywhere). -/
theorem liveAt48_2 : ∀ t : Fin cfg48.N, cfg48.idle 2 (grid48.coords t) = false := by decide +kernel

/-! ## The memrefs the body is called on -/

/-- One staging buffer of the output window, through which its contents are stated (any whole view of the shape reads the
    same pieces back the same way). -/
abbrev VO48_2 : View sig .tc .vmem S1024x512 .f32 := (Memref.whole cc48_stg2_0 : Memref sig .tc .vmem S1024x512 .f32).view
/-- Each window's current staging memref at point `t`, spelt as the pipeline passes it, with its wholeness. -/
abbrev ms48_0 (t : Fin cfg48.N) : Memref sig .tc .vmem S1024x512 .f32 := win48_0.stage (cfg48.slots t 0)
abbrev hs48_0 (t : Fin cfg48.N) : (ms48_0 t).IsWhole := hstage48_0 ((cfg48.slots t 0).cast nbuf48_0)
abbrev ms48_1 (t : Fin cfg48.N) : Memref sig .tc .vmem S512x512 .bf16 := win48_1.stage (cfg48.slots t 1)
abbrev hs48_1 (t : Fin cfg48.N) : (ms48_1 t).IsWhole := hstage48_1 ((cfg48.slots t 1).cast nbuf48_1)
abbrev ms48_2 (t : Fin cfg48.N) : Memref sig .tc .vmem S1024x512 .f32 := win48_2.stage (cfg48.slots t 2)
abbrev hs48_2 (t : Fin cfg48.N) : (ms48_2 t).IsWhole := hstage48_2 ((cfg48.slots t 2).cast nbuf48_2)
/-- The accumulator: a whole scoped buffer of the kernel's own, passed beside the windows. -/
abbrev scM48_0 : Memref sig .tc .vmem S1024x512 .f32 := Memref.whole cc48_scratch0
abbrev VS48_0 : View sig .tc .vmem S1024x512 .f32 := scM48_0.view

/-- The region invariant with the accumulator taken out of the scoped rest: the accumulator owned at some contents, every
    other scoped buffer unopened, and the generator register. -/
theorem PhiA48_eq (c : Dev nD) :
    (Pipeline.ΦA spec48 c : sProp 𝕄)
      = iprop(iprop(iprop((∃ d, owns (c : Thread nD τ) scM48_0 fullShare d))
            ∗ Pipeline.scopedRestBut (Ix := Unit) (Name := ℕ) (U := UR sig nD τ) (Lvl := ℕ) (Val := Elt F) spec48 c [cc48_scratch0])
          ∗ (∃ r, prngReg c r)) := by
  unfold Pipeline.ΦA; rw [scopedRest48_split]; simp only [scM48_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun48 (c : Dev nD) (i : grid48.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond48_0 i) (hlast : cond48_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc48__matmul_kernel i arg2 harg2 arg3 harg3 arg4 harg4 arg5 harg5) K } := by
  refine ⟨?_, ?_, fun E K => ?run⟩
  case run =>
    simp only [cc48__matmul_kernel_eq_skeleton]; unfold cc48__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.KernelIdeal.Hand

end
-- ==== Proof.RegKI48.lean ====
/- Laid out by: python3 scratch/layout_grid41.py --template-region 0 --region 48 --program KernelIdeal --parts a, --shapes S1024x128=S1024x512,S128x512=S512x512
   from the hand-written text of region 0 (RegKI0.lean): the same text, the region's number, block shapes substituted. -/
/- The region of KernelIdeal's @main that runs `cc48__matmul_kernel` (pipeline `cfg48`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegKI48a
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk48 (c : Dev nD) (w : Fin cfg48.W) (t : Fin cfg48.N) : ((cfg48.win w).xblock (cfg48.grid.coords t)).Idx → Elt F (cfg48.win w).elt :=
  ((cfg48.win w).blk t).view.read (Elt F) (V c (Pipeline.arrRef spec48 w))

/-! ## What the case leaves, as pieces read back -/

/-- The output's pieces tile its block (one whole-block store). -/
theorem cover48_2 (c : Dev nD) (i : grid48.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond48_0 i) (hlast : cond48_1 i) (xa : Vec F S1024x512 .f32) (xb : Vec F S512x512 .bf16) (y : S1024x512.Idx) :
    ∃ pc ∈ (kernelRun48 c i arg2 harg2 arg3 harg3 arg4 harg4 arg5 harg5 hfirst hlast xa xb).1, y ∈ pc.1.set :=
  View.cover_of_tiledL (kernelRun48 c i arg2 harg2 arg3 harg3 arg4 harg4 arg5 harg5 hfirst hlast xa xb).1 S1024x512.size (by sl_kernel_rfl) y

/-- What the case leaves in the output's staging buffer: its pieces read back over junk. -/
noncomputable def out48_2 (c : Dev nD) (i : grid48.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond48_0 i) (hlast : cond48_1 i) (xa : Vec F S1024x512 .f32) (xb : Vec F S512x512 .bf16) : Vec F S1024x512 .f32 :=
  VO48_2.read (Elt F) (VO48_2.writes (Elt F) VO48_2.junk (kernelRun48 c i arg2 harg2 arg3 harg3 arg4 harg4 arg5 harg5 hfirst hlast xa xb).1)

/-- What the case leaves in the accumulator: its pieces read back over junk. -/
noncomputable def sout48_0 (c : Dev nD) (i : grid48.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond48_0 i) (hlast : cond48_1 i) (xa : Vec F S1024x512 .f32) (xb : Vec F S512x512 .bf16) : Vec F S1024x512 .f32 :=
  VS48_0.read (Elt F) (VS48_0.writes (Elt F) VS48_0.junk (kernelRun48 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout48_0_eq (c : Dev nD) (i : grid48.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond48_0 i) (hlast : cond48_1 i) (xa : Vec F S1024x512 .f32) (xb : Vec F S512x512 .bf16) :
    sout48_0 c i arg2 harg2 arg3 harg3 arg4 harg4 arg5 harg5 hfirst hlast xa xb = k48_pay2 xa xb (k48_pay1 (F := F)) := by
  unfold sout48_0
  rw [View.read_writes_junk_eq_canon]
  unfold kernelRun48
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out48_2_eq (c : Dev nD) (i : grid48.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond48_0 i) (hlast : cond48_1 i) (xa : Vec F S1024x512 .f32) (xb : Vec F S512x512 .bf16) :
    out48_2 c i arg2 harg2 arg3 harg3 arg4 harg4 arg5 harg5 hfirst hlast xa xb = k48_pay2 xa xb (k48_pay1 (F := F)) := by
  unfold out48_2
  rw [View.read_writes_junk_eq_canon]
  unfold kernelRun48
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt48 (c : Dev nD) (n : ℕ) (hn : n < cfg48.N) : Vec F S1024x512 .f32 × Vec F S1024x512 .f32 :=
  (out48_2 c (grid48.coords ⟨n, hn⟩) (ms48_0 ⟨n, hn⟩) (hs48_0 ⟨n, hn⟩) (ms48_1 ⟨n, hn⟩) (hs48_1 ⟨n, hn⟩) (ms48_2 ⟨n, hn⟩) (hs48_2 ⟨n, hn⟩) scM48_0 (Memref.isWhole_whole _)
      (hcond48_0 ⟨n, hn⟩) (hcond48_1 ⟨n, hn⟩) (iblk48 V c 0 ⟨n, hn⟩) (iblk48 V c 1 ⟨n, hn⟩),
   sout48_0 c (grid48.coords ⟨n, hn⟩) (ms48_0 ⟨n, hn⟩) (hs48_0 ⟨n, hn⟩) (ms48_1 ⟨n, hn⟩) (hs48_1 ⟨n, hn⟩) (ms48_2 ⟨n, hn⟩) (hs48_2 ⟨n, hn⟩) scM48_0 (Memref.isWhole_whole _)
      (hcond48_0 ⟨n, hn⟩) (hcond48_1 ⟨n, hn⟩) (iblk48 V c 0 ⟨n, hn⟩) (iblk48 V c 1 ⟨n, hn⟩))

/-- Every point is a first reduction step: the accumulator after it is one product onto zero. -/
theorem outsAt48_first (c : Dev nD) (t : Fin cfg48.N) :
    (outsAt48 V c t.val t.isLt).2 = k48_pay2 (iblk48 V c 0 t) (iblk48 V c 1 t) (k48_pay1 (F := F)) := by
  obtain ⟨n, hn⟩ := t
  unfold outsAt48
  dsimp only
  rw [sout48_0_eq]

/-- Every point is a last reduction step: the output block after it is the accumulator. -/
theorem outsAt48_last (c : Dev nD) (t : Fin cfg48.N) :
    (outsAt48 V c t.val t.isLt).1 = (outsAt48 V c t.val t.isLt).2 := by
  obtain ⟨n, hn⟩ := t
  unfold outsAt48
  dsimp only
  rw [out48_2_eq, sout48_0_eq]

/-! ## The pipeline's proof data -/

/-- The proof data of the pipeline on core `c`: the arrays as the region finds them; after the body at point `t` each input's
    buffer at its block and the output's at `outsAt48`'s first component; the invariant the same at every point; nothing owed;
    full shares. -/
noncomputable def dat48 (c : Dev nD) : Dat τ (Elt F) Unit ℕ (UR sig nD τ) ℕ cfg48 c where
  A w := V c (Pipeline.arrRef spec48 w)
  after w t := match w with
    | ⟨0, _⟩ => iblk48 V c 0 t
    | ⟨1, _⟩ => iblk48 V c 1 t
    | ⟨2, _⟩ => (outsAt48 V c t.val t.isLt).1
  Φ _ := Pipeline.ΦA spec48 c
  q _ := fullShare
  owed _ := 0

theorem A_eq48 (c : Dev nD) (w : Fin cfg48.W) : (dat48 V c).A w = V c (Pipeline.arrRef spec48 w) := by
  dsimp only [dat48]

theorem after48_0 (c : Dev nD) (t : Fin cfg48.N) : (dat48 V c).after 0 t = iblk48 V c 0 t := by dsimp only [dat48]
theorem after48_1 (c : Dev nD) (t : Fin cfg48.N) : (dat48 V c).after 1 t = iblk48 V c 1 t := by dsimp only [dat48]
theorem after48_2 (c : Dev nD) (t : Fin cfg48.N) : (dat48 V c).after 2 t = (outsAt48 V c t.val t.isLt).1 := by dsimp only [dat48]

/-- An input's current staging buffer holds its block at every point, fetched there or not: where it is not fetched its block
    index has not moved since the point before, and the body left the block in place. -/
theorem before48_0 (c : Dev nD) (t : Fin cfg48.N) (d) : (dat48 V c).before 0 t d = iblk48 V c 0 t :=
  ((dat48 V c).before_in_eq_fetched 0 rfl (fun _ => rfl) (fun _ _ _ => rfl)
      (fun t => by rw [after48_0]; unfold Dat.blockOf iblk48; rw [A_eq48]; try rfl) t d).trans
    (by unfold Dat.fetched Dat.blockOf iblk48; rw [A_eq48]; try rfl)
theorem before48_1 (c : Dev nD) (t : Fin cfg48.N) (d) : (dat48 V c).before 1 t d = iblk48 V c 1 t :=
  ((dat48 V c).before_in_eq_fetched 1 rfl (fun _ => rfl) (fun _ _ _ => rfl)
      (fun t => by rw [after48_1]; unfold Dat.blockOf iblk48; rw [A_eq48]; try rfl) t d).trans
    (by unfold Dat.fetched Dat.blockOf iblk48; rw [A_eq48]; try rfl)

/-! ## The body obligation, at a generic point -/

/-- What the body is called with at point `t`, the windows one by one, -/
noncomputable def bodyPre48 (c : Dev nD) (t : Fin cfg48.N) : sProp 𝕄 :=
  iprop((dat48 V c).Φ t.castSucc ∗ (dat48 V c).owesAt () t.castSucc
    ∗ (∃ d, owns (c : Thread nD τ) (ms48_0 t) fullShare ((dat48 V c).before 0 t d))
    ∗ (∃ d, owns (c : Thread nD τ) (ms48_1 t) fullShare ((dat48 V c).before 1 t d))
    ∗ (∃ d, owns (c : Thread nD τ) (ms48_2 t) fullShare ((dat48 V c).before 2 t d)))

/-- and what it returns. -/
noncomputable def bodyPost48 (c : Dev nD) (t : Fin cfg48.N) : sProp 𝕄 :=
  iprop((dat48 V c).Φ t.succ ∗ (dat48 V c).owesAt () t.succ
    ∗ (dat48 V c).leavesExact 0 t
    ∗ (dat48 V c).leavesExact 1 t
    ∗ (dat48 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body48 (c : Dev nD) (t : Fin cfg48.N) :
    bodyPre48 V c t ⊢ wp frame (wpE (defs₀ (F := F)) Variants.none c none) Set.univ (bodyAt48 t) (fun _ => bodyPost48 V c t) := by
  unfold bodyPre48 bodyPost48 bodyAt48
  simp only [before48_0, before48_1]
  rw [show (dat48 V c).owesAt () t.succ = (dat48 V c).owesAt () t.castSucc from rfl,
    show (dat48 V c).Φ t.succ = Pipeline.ΦA spec48 c from rfl, show (dat48 V c).Φ t.castSucc = Pipeline.ΦA spec48 c from rfl, PhiA48_eq]
  rw [show (dat48 V c).leavesExact 0 t = owns (c : Thread nD τ) (ms48_0 t) fullShare ((dat48 V c).after 0 t) from by
      unfold Dat.leavesExact; rw [liveAt48_0 t], after48_0]
  rw [show (dat48 V c).leavesExact 1 t = owns (c : Thread nD τ) (ms48_1 t) fullShare ((dat48 V c).after 1 t) from by
      unfold Dat.leavesExact; rw [liveAt48_1 t], after48_1]
  rw [show (dat48 V c).leavesExact 2 t = owns (c : Thread nD τ) (ms48_2 t) fullShare ((dat48 V c).after 2 t) from by
      unfold Dat.leavesExact; rw [liveAt48_2 t], after48_2]
  unfold outsAt48 out48_2; (try dsimp only)
  iintro ⟨⟨⟨Hacc, Hrest⟩, Hgen⟩, Howe, ⟨%da, Ha⟩, ⟨%db, Hb⟩, ⟨%dO, Hout⟩⟩
  iapply ((kernelRun48 c (grid48.coords t) _ _ _ _ _ _ _ _ (hcond48_0 t) (hcond48_1 t) (iblk48 V c 0 t) (iblk48 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover48_2 c _ _ _ _ _ _ _ _ _ _ _ _ _)

/-- The library's body obligation, at every point. -/
theorem body_obligation48 (c : Dev nD) : BodyObligation (dat48 (F := F) V c) (defs₀ (F := F)) Variants.none () Set.univ := fun t => by
  rw [bigSep_W48, bigSep_W48]
  exact sound_body48 V c t

/-- What the launch hands the region is the invariant before the first point, -/
theorem hin48 (c : Dev nD) : Pipeline.ΦA spec48 c ⊢ (dat48 V c).Φ 0 := Idealize.SL.BI.Entails.refl _

/-- and the invariant after the last point is what the launch takes back. -/
theorem hout48 (c : Dev nD) : (dat48 V c).Φ (Fin.last cfg48.N) ⊢ Pipeline.ΦA spec48 c := Idealize.SL.BI.Entails.refl _

end Cert.KernelIdeal.Hand

end
-- ==== Proof.RegKI49a.lean ====
/- Laid out by: python3 scratch/layout_regions.py --template-region 1 --region 49 --program KernelIdeal --parts a,b,c, --out-dir proof/Proof
   from the hand-written text of region 1 (RegKI1a.lean): the same text, the region's number substituted. -/
/-
  Region 49 of @main (custom_call 49): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond49_0 (i : grid49.Coords) : Prop := (Scalar.cmpi .ne (Scalar.extui (Scalar.cmpi .eq (BitVec.ofNat 32 (i 1).val) 0#32)) 0#32) = 1#1
/-- It holds exactly at the points with t % 4 = 0. -/
theorem hcond49_0 : ∀ t : Fin cfg49.N, cond49_0 (grid49.coords t) ↔ t.val % 4 = 0 :=
  (by decide +kernel : ∀ t : Fin grid49.N, cond49_0 (grid49.coords t) ↔ t.val % 4 = 0)

/-- "k = 3": the second conditional's test. -/
abbrev cond49_1 (i : grid49.Coords) : Prop := k49_cond2 i = 1#1
/-- It holds exactly at the points with t % 4 = 3. -/
theorem hcond49_1 : ∀ t : Fin cfg49.N, cond49_1 (grid49.coords t) ↔ t.val % 4 = 3 :=
  (by decide +kernel : ∀ t : Fin grid49.N, cond49_1 (grid49.coords t) ↔ t.val % 4 = 3)

/-! ## Where the windows are idle, and where the output is written back -/

/-- The two input windows are never idle. -/
theorem liveAt49_0 : ∀ t : Fin cfg49.N, cfg49.idle 0 (grid49.coords t) = false := by decide +kernel
theorem liveAt49_1 : ∀ t : Fin cfg49.N, cfg49.idle 1 (grid49.coords t) = false := by decide +kernel
/-- Where k ≠ 3 the output window is idle (the body stores nothing into it) and is not written back. -/
theorem idleAt49_2 : ∀ t : Fin cfg49.N, ¬cond49_1 (grid49.coords t) → cfg49.idle 2 (grid49.coords t) = true := by decide +kernel
theorem noFlush49_2 : ∀ t : Fin cfg49.N, ¬cond49_1 (grid49.coords t) → (cfg49.win 2).flush t = false := by decide +kernel
/-- Where k = 3 it is live. -/
theorem liveAt49_2 : ∀ t : Fin cfg49.N, cond49_1 (grid49.coords t) → cfg49.idle 2 (grid49.coords t) = false := by decide +kernel

/-! ## The staging memrefs at a point, and the scratch -/

/-- One staging buffer of the output window, through which its contents are stated. -/
abbrev VO49_2 : View sig .tc .vmem S1024x512 .f32 := (Memref.whole cc49_stg2_0 : Memref sig .tc .vmem S1024x512 .f32).view
abbrev ms49_0 (t : Fin cfg49.N) : Memref sig .tc .vmem S1024x1024 .bf16 := win49_0.stage (cfg49.slots t 0)
abbrev hs49_0 (t : Fin cfg49.N) : (ms49_0 t).IsWhole := hstage49_0 ((cfg49.slots t 0).cast nbuf49_0)
abbrev ms49_1 (t : Fin cfg49.N) : Memref sig .tc .vmem S1024x512 .f32 := win49_1.stage (cfg49.slots t 1)
abbrev hs49_1 (t : Fin cfg49.N) : (ms49_1 t).IsWhole := hstage49_1 ((cfg49.slots t 1).cast nbuf49_1)
abbrev ms49_2 (t : Fin cfg49.N) : Memref sig .tc .vmem S1024x512 .f32 := win49_2.stage (cfg49.slots t 2)
abbrev hs49_2 (t : Fin cfg49.N) : (ms49_2 t).IsWhole := hstage49_2 ((cfg49.slots t 2).cast nbuf49_2)
/-- The accumulator: a whole scoped buffer of the kernel's own. -/
abbrev scM49 : Memref sig .tc .vmem S1024x512 .f32 := Memref.whole cc49_scratch0
abbrev VS49 : View sig .tc .vmem S1024x512 .f32 := scM49.view

/-- The other scoped buffers of the core, none of which this region touches. -/
abbrev restBut49 (c : Dev nD) : sProp 𝕄 :=
  Pipeline.scopedRestBut (Ix := Unit) (Name := ℕ) (U := UR sig nD τ) (Lvl := ℕ) (Val := Elt F) spec49 c [cc49_scratch0]

/-- The region's invariant before its first point: the accumulator at something, the other scoped buffers, the generator register. -/
theorem PhiA49_eq (c : Dev nD) :
    (Pipeline.ΦA spec49 c : sProp 𝕄)
      = iprop(iprop((∃ d, owns (c : Thread nD τ) scM49 fullShare d) ∗ restBut49 c) ∗ (∃ r, prngReg c r)) := by
  unfold Pipeline.ΦA; rw [scopedRest49_split]; simp only [scM49, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun49_A (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond49_0 i) (hc1 : ¬cond49_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc49__matmul_kernel i arg2 harg2 arg3 harg3 arg4 harg4 arg5 harg5) K } := by
  refine ⟨[], ?_, fun xi2 E K => ?run⟩
  case run =>
    simp only [cc49__matmul_kernel_eq_skeleton]; unfold cc49__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI49b.lean ====
/- Laid out by: python3 scratch/layout_regions.py --template-region 1 --region 49 --program KernelIdeal --parts a,b,c, --out-dir proof/Proof
   from the hand-written text of region 1 (RegKI1b.lean): the same text, the region's number substituted. -/
/-
  Region 49, case B (k = 1, 2): the body's run. Neither conditional is taken: the product of the two blocks is added to what
  the point before left in the accumulator; the output block is not touched.
-/
import proofs.«158944_j64613488001249_1_alg».proof.Proof.RegKI49a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun49_B (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond49_0 i) (hc1 : ¬cond49_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc49__matmul_kernel i arg2 harg2 arg3 harg3 arg4 harg4 arg5 harg5) K } := by
  refine ⟨[], ?_, fun xi2 E K => ?run⟩
  case run =>
    simp only [cc49__matmul_kernel_eq_skeleton]; unfold cc49__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI49c.lean ====
/- Laid out by: python3 scratch/layout_regions.py --template-region 1 --region 49 --program KernelIdeal --parts a,b,c, --out-dir proof/Proof
   from the hand-written text of region 1 (RegKI1c.lean): the same text, the region's number substituted. -/
/-
  Region 49, case C (k = 3): the body's run. The product is added to the accumulator as in case B, and then the second
  conditional copies the accumulator over the whole output block.
-/
import proofs.«158944_j64613488001249_1_alg».proof.Proof.RegKI49b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun49_C (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond49_0 i) (hc1 : cond49_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc49__matmul_kernel i arg2 harg2 arg3 harg3 arg4 harg4 arg5 harg5) K } := by
  refine ⟨?_, ?_, fun E K => ?run⟩
  case run =>
    simp only [cc49__matmul_kernel_eq_skeleton]; unfold cc49__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI49.lean ====
/- Laid out by: python3 scratch/layout_regions.py --template-region 1 --region 49 --program KernelIdeal --parts a,b,c, --out-dir proof/Proof
   from the hand-written text of region 1 (RegKI1.lean): the same text, the region's number substituted. -/
/-
  Region 49 of @main, entered from the buffer contents `V`: what its windows' blocks are, what each case of the body leaves in
  the accumulator and in the output block, the accumulator and the output block point by point (`outsAt49`: at k = 0 the
  accumulator restarts from zeros plus the product; at k = 1, 2, 3 it is the point before's plus the product; at k = 3 the
  output block is the accumulator), the region's invariant (the accumulator at `outsAt49`'s second component), the proof data,
  and the body's obligation at every point.
-/
import proofs.«158944_j64613488001249_1_alg».proof.Proof.RegKI49c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk49 (c : Dev nD) (w : Fin cfg49.W) (t : Fin cfg49.N) : ((cfg49.win w).xblock (cfg49.grid.coords t)).Idx → Elt F (cfg49.win w).elt :=
  ((cfg49.win w).blk t).view.read (Elt F) (V c (Pipeline.arrRef spec49 w))

/-- An input window's current staging buffer holds its block at every point, for any proof data whose array is `V`'s and
    whose body leaves the block in place. -/
theorem before49_0_of {c : Dev nD} (dat : Dat τ (Elt F) Unit ℕ (UR sig nD τ) ℕ cfg49 c) (hA : dat.A 0 = V c (Pipeline.arrRef spec49 0))
    (hafter : ∀ t, dat.after 0 t = iblk49 V c 0 t) (t : Fin cfg49.N) (d) : dat.before 0 t d = iblk49 V c 0 t :=
  (dat.before_in_eq_fetched 0 rfl (fun _ => rfl) (fun _ _ _ => rfl) (fun t => by rw [hafter]; unfold Dat.blockOf iblk49; rw [hA]; try rfl) t d).trans
    (by unfold Dat.fetched Dat.blockOf iblk49; rw [hA]; try rfl)
theorem before49_1_of {c : Dev nD} (dat : Dat τ (Elt F) Unit ℕ (UR sig nD τ) ℕ cfg49 c) (hA : dat.A 1 = V c (Pipeline.arrRef spec49 1))
    (hafter : ∀ t, dat.after 1 t = iblk49 V c 1 t) (t : Fin cfg49.N) (d) : dat.before 1 t d = iblk49 V c 1 t :=
  (dat.before_in_eq_fetched 1 rfl (fun _ => rfl) (fun _ _ _ => rfl) (fun t => by rw [hafter]; unfold Dat.blockOf iblk49; rw [hA]; try rfl) t d).trans
    (by unfold Dat.fetched Dat.blockOf iblk49; rw [hA]; try rfl)

/-! ## What each case leaves -/

/-- Case A's stores into the accumulator cover it. -/
theorem scover49_A (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond49_0 i) (hc1 : ¬cond49_1 i)
    (x0 : Vec F S1024x1024 .bf16) (x1 : Vec F S1024x512 .f32) (y : S1024x512.Idx) :
    ∃ pc ∈ (kernelRun49_A c i arg2 harg2 arg3 harg3 arg4 harg4 arg5 harg5 hc0 hc1 x0 x1).2.1, y ∈ pc.1.set :=
  View.cover_of_tiledL (kernelRun49_A c i arg2 harg2 arg3 harg3 arg4 harg4 arg5 harg5 hc0 hc1 x0 x1).2.1 S1024x512.size (by sl_kernel_rfl) y
/-- What case A leaves in the accumulator. -/
noncomputable def sout49_A (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond49_0 i) (hc1 : ¬cond49_1 i)
    (x0 : Vec F S1024x1024 .bf16) (x1 : Vec F S1024x512 .f32) : Vec F S1024x512 .f32 :=
  VS49.read (Elt F) (VS49.writes (Elt F) VS49.junk (kernelRun49_A c i arg2 harg2 arg3 harg3 arg4 harg4 arg5 harg5 hc0 hc1 x0 x1).2.1)

/-- Case B's store into the accumulator covers it. -/
theorem scover49_B (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond49_0 i) (hc1 : ¬cond49_1 i)
    (x0 : Vec F S1024x1024 .bf16) (x1 : Vec F S1024x512 .f32) (xs0 : Vec F S1024x512 .f32) (y : S1024x512.Idx) :
    ∃ pc ∈ (kernelRun49_B c i arg2 harg2 arg3 harg3 arg4 harg4 arg5 harg5 hc0 hc1 x0 x1 xs0).2.1, y ∈ pc.1.set :=
  View.cover_of_tiledL (kernelRun49_B c i arg2 harg2 arg3 harg3 arg4 harg4 arg5 harg5 hc0 hc1 x0 x1 xs0).2.1 S1024x512.size (by sl_kernel_rfl) y
/-- What case B leaves in the accumulator, over what the point before left. -/
noncomputable def sout49_B (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond49_0 i) (hc1 : ¬cond49_1 i)
    (x0 : Vec F S1024x1024 .bf16) (x1 : Vec F S1024x512 .f32) (xs0 : Vec F S1024x512 .f32) : Vec F S1024x512 .f32 :=
  VS49.read (Elt F) (VS49.writes (Elt F) VS49.junk (kernelRun49_B c i arg2 harg2 arg3 harg3 arg4 harg4 arg5 harg5 hc0 hc1 x0 x1 xs0).2.1)

/-- Case C's store into the output block covers it, and so does its store into the accumulator. -/
theorem cover49_C (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond49_0 i) (hc1 : cond49_1 i)
    (x0 : Vec F S1024x1024 .bf16) (x1 : Vec F S1024x512 .f32) (xs0 : Vec F S1024x512 .f32) (y : S1024x512.Idx) :
    ∃ pc ∈ (kernelRun49_C c i arg2 harg2 arg3 harg3 arg4 harg4 arg5 harg5 hc0 hc1 x0 x1 xs0).1, y ∈ pc.1.set :=
  View.cover_of_tiledL (kernelRun49_C c i arg2 harg2 arg3 harg3 arg4 harg4 arg5 harg5 hc0 hc1 x0 x1 xs0).1 S1024x512.size (by sl_kernel_rfl) y
theorem scover49_C (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond49_0 i) (hc1 : cond49_1 i)
    (x0 : Vec F S1024x1024 .bf16) (x1 : Vec F S1024x512 .f32) (xs0 : Vec F S1024x512 .f32) (y : S1024x512.Idx) :
    ∃ pc ∈ (kernelRun49_C c i arg2 harg2 arg3 harg3 arg4 harg4 arg5 harg5 hc0 hc1 x0 x1 xs0).2.1, y ∈ pc.1.set :=
  View.cover_of_tiledL (kernelRun49_C c i arg2 harg2 arg3 harg3 arg4 harg4 arg5 harg5 hc0 hc1 x0 x1 xs0).2.1 S1024x512.size (by sl_kernel_rfl) y
/-- What case C leaves in the output block, and in the accumulator. -/
noncomputable def out49_C (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond49_0 i) (hc1 : cond49_1 i)
    (x0 : Vec F S1024x1024 .bf16) (x1 : Vec F S1024x512 .f32) (xs0 : Vec F S1024x512 .f32) : Vec F S1024x512 .f32 :=
  VO49_2.read (Elt F) (VO49_2.writes (Elt F) VO49_2.junk (kernelRun49_C c i arg2 harg2 arg3 harg3 arg4 harg4 arg5 harg5 hc0 hc1 x0 x1 xs0).1)
noncomputable def sout49_C (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond49_0 i) (hc1 : cond49_1 i)
    (x0 : Vec F S1024x1024 .bf16) (x1 : Vec F S1024x512 .f32) (xs0 : Vec F S1024x512 .f32) : Vec F S1024x512 .f32 :=
  VS49.read (Elt F) (VS49.writes (Elt F) VS49.junk (kernelRun49_C c i arg2 harg2 arg3 harg3 arg4 harg4 arg5 harg5 hc0 hc1 x0 x1 xs0).2.1)

/-- Where the output block is idle nothing consults what it holds: a placeholder. -/
noncomputable def outIdle49 : Vec F S1024x512 .f32 := VO49_2.read (Elt F) (VO49_2.writes (Elt F) VO49_2.junk [])

/-! ## The conditions at a point, from t % 4 -/

theorem isFirst49 (t : Fin cfg49.N) (h : t.val % 4 = 0) : cond49_0 (grid49.coords t) := (hcond49_0 t).mpr h
theorem notFirst49 (t : Fin cfg49.N) (h : ¬t.val % 4 = 0) : ¬cond49_0 (grid49.coords t) := fun hc => h ((hcond49_0 t).mp hc)
theorem isLast49 (t : Fin cfg49.N) (h : t.val % 4 = 3) : cond49_1 (grid49.coords t) := (hcond49_1 t).mpr h
theorem notLast49 (t : Fin cfg49.N) (h : ¬t.val % 4 = 3) : ¬cond49_1 (grid49.coords t) := fun hc => h ((hcond49_1 t).mp hc)

/-! ## The accumulator and the output block, point by point -/

/-- After the body at position `n`: (the output block's buffer, the accumulator). -/
noncomputable def outsAt49 (c : Dev nD) : (n : ℕ) → n < cfg49.N → Vec F S1024x512 .f32 × Vec F S1024x512 .f32
  | 0, hn => (outIdle49, sout49_A c (grid49.coords ⟨0, hn⟩) (ms49_0 ⟨0, hn⟩) (hs49_0 ⟨0, hn⟩) (ms49_1 ⟨0, hn⟩) (hs49_1 ⟨0, hn⟩) (ms49_2 ⟨0, hn⟩) (hs49_2 ⟨0, hn⟩) scM49 (Memref.isWhole_whole _) (isFirst49 ⟨0, hn⟩ (Nat.zero_mod _)) (notLast49 ⟨0, hn⟩ (by simp)) (iblk49 V c 0 ⟨0, hn⟩) (iblk49 V c 1 ⟨0, hn⟩))
  | n + 1, hn =>
    if h0 : (n + 1) % 4 = 0 then
      (outIdle49, sout49_A c (grid49.coords ⟨n + 1, hn⟩) (ms49_0 ⟨n + 1, hn⟩) (hs49_0 ⟨n + 1, hn⟩) (ms49_1 ⟨n + 1, hn⟩) (hs49_1 ⟨n + 1, hn⟩) (ms49_2 ⟨n + 1, hn⟩) (hs49_2 ⟨n + 1, hn⟩) scM49 (Memref.isWhole_whole _) (isFirst49 ⟨n + 1, hn⟩ h0) (notLast49 ⟨n + 1, hn⟩ (by show ¬(n + 1) % 4 = 3; omega)) (iblk49 V c 0 ⟨n + 1, hn⟩) (iblk49 V c 1 ⟨n + 1, hn⟩))
    else if h3 : (n + 1) % 4 = 3 then
      (out49_C c (grid49.coords ⟨n + 1, hn⟩) (ms49_0 ⟨n + 1, hn⟩) (hs49_0 ⟨n + 1, hn⟩) (ms49_1 ⟨n + 1, hn⟩) (hs49_1 ⟨n + 1, hn⟩) (ms49_2 ⟨n + 1, hn⟩) (hs49_2 ⟨n + 1, hn⟩) scM49 (Memref.isWhole_whole _) (notFirst49 ⟨n + 1, hn⟩ h0) (isLast49 ⟨n + 1, hn⟩ h3) (iblk49 V c 0 ⟨n + 1, hn⟩) (iblk49 V c 1 ⟨n + 1, hn⟩) (outsAt49 c n (Nat.lt_of_succ_lt hn)).2,
       sout49_C c (grid49.coords ⟨n + 1, hn⟩) (ms49_0 ⟨n + 1, hn⟩) (hs49_0 ⟨n + 1, hn⟩) (ms49_1 ⟨n + 1, hn⟩) (hs49_1 ⟨n + 1, hn⟩) (ms49_2 ⟨n + 1, hn⟩) (hs49_2 ⟨n + 1, hn⟩) scM49 (Memref.isWhole_whole _) (notFirst49 ⟨n + 1, hn⟩ h0) (isLast49 ⟨n + 1, hn⟩ h3) (iblk49 V c 0 ⟨n + 1, hn⟩) (iblk49 V c 1 ⟨n + 1, hn⟩) (outsAt49 c n (Nat.lt_of_succ_lt hn)).2)
    else
      (outIdle49, sout49_B c (grid49.coords ⟨n + 1, hn⟩) (ms49_0 ⟨n + 1, hn⟩) (hs49_0 ⟨n + 1, hn⟩) (ms49_1 ⟨n + 1, hn⟩) (hs49_1 ⟨n + 1, hn⟩) (ms49_2 ⟨n + 1, hn⟩) (hs49_2 ⟨n + 1, hn⟩) scM49 (Memref.isWhole_whole _) (notFirst49 ⟨n + 1, hn⟩ h0) (notLast49 ⟨n + 1, hn⟩ h3) (iblk49 V c 0 ⟨n + 1, hn⟩) (iblk49 V c 1 ⟨n + 1, hn⟩) (outsAt49 c n (Nat.lt_of_succ_lt hn)).2)

/-- `outsAt49` at a point with k = 0. -/
theorem outsAt49_A (c : Dev nD) (t : Fin cfg49.N) (h0 : t.val % 4 = 0) :
    outsAt49 V c t.val t.isLt = (outIdle49, sout49_A c (grid49.coords t) (ms49_0 t) (hs49_0 t) (ms49_1 t) (hs49_1 t) (ms49_2 t) (hs49_2 t) scM49 (Memref.isWhole_whole _) (isFirst49 t h0) (notLast49 t (by omega)) (iblk49 V c 0 t) (iblk49 V c 1 t)) := by
  obtain ⟨n, hn⟩ := t
  cases n with
  | zero => rfl
  | succ n => exact (dif_pos h0).trans rfl

/-- `outsAt49` at a point with k = 1, 2: over what the point before left. -/
theorem outsAt49_B (c : Dev nD) (t : Fin cfg49.N) (h0 : ¬t.val % 4 = 0) (h3 : ¬t.val % 4 = 3) :
    outsAt49 V c t.val t.isLt = (outIdle49, sout49_B c (grid49.coords t) (ms49_0 t) (hs49_0 t) (ms49_1 t) (hs49_1 t) (ms49_2 t) (hs49_2 t) scM49 (Memref.isWhole_whole _) (notFirst49 t h0) (notLast49 t h3) (iblk49 V c 0 t) (iblk49 V c 1 t)
      (outsAt49 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt49` at a point with k = 3. -/
theorem outsAt49_C (c : Dev nD) (t : Fin cfg49.N) (h0 : ¬t.val % 4 = 0) (h3 : t.val % 4 = 3) :
    outsAt49 V c t.val t.isLt = (out49_C c (grid49.coords t) (ms49_0 t) (hs49_0 t) (ms49_1 t) (hs49_1 t) (ms49_2 t) (hs49_2 t) scM49 (Memref.isWhole_whole _) (notFirst49 t h0) (isLast49 t h3) (iblk49 V c 0 t) (iblk49 V c 1 t)
        (outsAt49 V c (t.val - 1) (Nat.lt_of_le_of_lt (Nat.sub_le _ _) t.isLt)).2,
      sout49_C c (grid49.coords t) (ms49_0 t) (hs49_0 t) (ms49_1 t) (hs49_1 t) (ms49_2 t) (hs49_2 t) scM49 (Memref.isWhole_whole _) (notFirst49 t h0) (isLast49 t h3) (iblk49 V c 0 t) (iblk49 V c 1 t)
        (outsAt49 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS49 (c : Dev nD) : (n : ℕ) → n ≤ cfg49.N → sProp 𝕄
  | 0, _ => Pipeline.ΦA spec49 c
  | n + 1, hn => iprop(iprop(owns (c : Thread nD τ) scM49 fullShare ((outsAt49 V c n hn).2) ∗ restBut49 c) ∗ (∃ r, prngReg c r))

theorem PhiS49_zero (c : Dev nD) (n : ℕ) (h : n ≤ cfg49.N) (hz : n = 0) : PhiS49 V c n h = Pipeline.ΦA spec49 c := by
  subst hz; rfl
theorem PhiS49_succ (c : Dev nD) (n : ℕ) (hn : n < cfg49.N) :
    PhiS49 V c (n + 1) hn = iprop(iprop(owns (c : Thread nD τ) scM49 fullShare ((outsAt49 V c n hn).2) ∗ restBut49 c) ∗ (∃ r, prngReg c r)) := rfl
theorem PhiS49_pos (c : Dev nD) (n : ℕ) (h : n ≤ cfg49.N) (hz : n ≠ 0) :
    PhiS49 V c n h = iprop(iprop(owns (c : Thread nD τ) scM49 fullShare ((outsAt49 V c (n - 1) (by omega)).2) ∗ restBut49 c) ∗ (∃ r, prngReg c r)) := by
  cases n with
  | zero => exact absurd rfl hz
  | succ n => rfl

/-! ## The proof data -/

/-- The region's proof data on core `c`: the arrays as the region finds them; after the body at point `t` each input's
    buffer at its block and the output's at `outsAt49`'s first component; the invariant `PhiS49`; nothing owed; full shares. -/
noncomputable def dat49 (c : Dev nD) : Dat τ (Elt F) Unit ℕ (UR sig nD τ) ℕ cfg49 c where
  A w := V c (Pipeline.arrRef spec49 w)
  after w t := match w with
    | ⟨0, _⟩ => iblk49 V c 0 t
    | ⟨1, _⟩ => iblk49 V c 1 t
    | ⟨2, _⟩ => (outsAt49 V c t.val t.isLt).1
  Φ t := PhiS49 V c t.val (Nat.le_of_lt_succ t.isLt)
  q _ := fullShare
  owed _ := 0

theorem A_eq49 (c : Dev nD) (w : Fin cfg49.W) : (dat49 V c).A w = V c (Pipeline.arrRef spec49 w) := by
  dsimp only [dat49]
theorem PhiS49_castSucc (c : Dev nD) (t : Fin cfg49.N) :
    (dat49 V c).Φ t.castSucc = PhiS49 V c t.val (Nat.le_of_lt t.isLt) := by
  dsimp only [dat49]; simp only [Fin.coe_castSucc]
theorem after49_0 (c : Dev nD) (t : Fin cfg49.N) : (dat49 V c).after 0 t = iblk49 V c 0 t := by dsimp only [dat49]
theorem after49_1 (c : Dev nD) (t : Fin cfg49.N) : (dat49 V c).after 1 t = iblk49 V c 1 t := by dsimp only [dat49]
theorem after49_2 (c : Dev nD) (t : Fin cfg49.N) : (dat49 V c).after 2 t = (outsAt49 V c t.val t.isLt).1 := by dsimp only [dat49]
theorem before49_0 (c : Dev nD) (t : Fin cfg49.N) (d) : (dat49 V c).before 0 t d = iblk49 V c 0 t :=
  before49_0_of V (dat49 V c) (A_eq49 V c 0) (after49_0 V c) t d
theorem before49_1 (c : Dev nD) (t : Fin cfg49.N) (d) : (dat49 V c).before 1 t d = iblk49 V c 1 t :=
  before49_1_of V (dat49 V c) (A_eq49 V c 1) (after49_1 V c) t d

/-! ## The body's obligation -/

noncomputable def bodyPre49 (c : Dev nD) (t : Fin cfg49.N) : sProp 𝕄 :=
  iprop((dat49 V c).Φ t.castSucc ∗ (dat49 V c).owesAt () t.castSucc
    ∗ (∃ d, owns (c : Thread nD τ) (ms49_0 t) fullShare ((dat49 V c).before 0 t d))
    ∗ (∃ d, owns (c : Thread nD τ) (ms49_1 t) fullShare ((dat49 V c).before 1 t d))
    ∗ (∃ d, owns (c : Thread nD τ) (ms49_2 t) fullShare ((dat49 V c).before 2 t d)))

noncomputable def bodyPost49 (c : Dev nD) (t : Fin cfg49.N) : sProp 𝕄 :=
  iprop((dat49 V c).Φ t.succ ∗ (dat49 V c).owesAt () t.succ
    ∗ (dat49 V c).leavesExact 0 t
    ∗ (dat49 V c).leavesExact 1 t
    ∗ (dat49 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body49 (c : Dev nD) (t : Fin cfg49.N) :
    bodyPre49 V c t ⊢ wp frame (wpE (defs₀ (F := F)) Variants.none c none) Set.univ (bodyAt49 t) (fun _ => bodyPost49 V c t) := by
  unfold bodyPre49 bodyPost49 bodyAt49
  simp only [before49_0, before49_1]
  rw [show (dat49 V c).owesAt () t.succ = (dat49 V c).owesAt () t.castSucc from rfl]
  rw [show (dat49 V c).Φ t.succ = PhiS49 V c (t.val + 1) t.isLt from rfl, PhiS49_succ]
  rw [show (dat49 V c).leavesExact 0 t = owns (c : Thread nD τ) (ms49_0 t) fullShare ((dat49 V c).after 0 t) from by
    unfold Dat.leavesExact; rw [liveAt49_0 t], after49_0]
  rw [show (dat49 V c).leavesExact 1 t = owns (c : Thread nD τ) (ms49_1 t) fullShare ((dat49 V c).after 1 t) from by
    unfold Dat.leavesExact; rw [liveAt49_1 t], after49_1]
  by_cases h0 : t.val % 4 = 0
  · have h3 : ¬t.val % 4 = 3 := by omega
    rw [Dat.leavesExact_idle (dat49 V c) 2 t (idleAt49_2 t (notLast49 t h3)) (noFlush49_2 t (notLast49 t h3))]
    rw [outsAt49_A V c t h0]
    unfold sout49_A; (try dsimp only)
    by_cases hz : t.val = 0
    · rw [PhiS49_castSucc V c t, PhiS49_zero V c _ _ hz, PhiA49_eq]
      iintro ⟨⟨⟨HS0, Hrb⟩, Hg⟩, Ho, ⟨%d0, H0⟩, ⟨%d1, H1⟩, ⟨%d2, H2⟩⟩
      iapply ((kernelRun49_A c (grid49.coords t) _ _ _ _ _ _ _ _ (isFirst49 t h0) (notLast49 t (by omega)) (iblk49 V c 0 t) (iblk49 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover49_A c _ _ _ _ _ _ _ _ _ _ _ _ _)
          iexact Hrb
        iexact Hg
      isplitl [Ho]; · iexact Ho
      isplitl [H0]; · iexact H0
      isplitl [H1]; · iexact H1
      iexists _; iexact H2
    · rw [PhiS49_castSucc V c t, PhiS49_pos V c _ _ hz]
      iintro ⟨⟨⟨HS0, Hrb⟩, Hg⟩, Ho, ⟨%d0, H0⟩, ⟨%d1, H1⟩, ⟨%d2, H2⟩⟩
      iapply ((kernelRun49_A c (grid49.coords t) _ _ _ _ _ _ _ _ (isFirst49 t h0) (notLast49 t (by omega)) (iblk49 V c 0 t) (iblk49 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover49_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat49 V c).leavesExact 2 t = owns (c : Thread nD τ) (ms49_2 t) fullShare ((dat49 V c).after 2 t) from by
        unfold Dat.leavesExact; rw [liveAt49_2 t (isLast49 t h3)], after49_2]
      rw [outsAt49_C V c t h0 h3]
      unfold out49_C sout49_C; (try dsimp only)
      rw [PhiS49_castSucc V c t, PhiS49_pos V c _ _ hz]
      iintro ⟨⟨⟨HS0, Hrb⟩, Hg⟩, Ho, ⟨%d0, H0⟩, ⟨%d1, H1⟩, ⟨%d2, H2⟩⟩
      iapply ((kernelRun49_C c (grid49.coords t) _ _ _ _ _ _ _ _ (notFirst49 t h0) (isLast49 t h3) (iblk49 V c 0 t) (iblk49 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover49_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover49_C c _ _ _ _ _ _ _ _ _ _ _ _ _ _)
    · rw [Dat.leavesExact_idle (dat49 V c) 2 t (idleAt49_2 t (notLast49 t h3)) (noFlush49_2 t (notLast49 t h3))]
      rw [outsAt49_B V c t h0 h3]
      unfold sout49_B; (try dsimp only)
      rw [PhiS49_castSucc V c t, PhiS49_pos V c _ _ hz]
      iintro ⟨⟨⟨HS0, Hrb⟩, Hg⟩, Ho, ⟨%d0, H0⟩, ⟨%d1, H1⟩, ⟨%d2, H2⟩⟩
      iapply ((kernelRun49_B c (grid49.coords t) _ _ _ _ _ _ _ _ (notFirst49 t h0) (notLast49 t h3) (iblk49 V c 0 t) (iblk49 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover49_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation49 (c : Dev nD) : BodyObligation (dat49 (F := F) V c) (defs₀ (F := F)) Variants.none () Set.univ := fun t => by
  rw [bigSep_W49, bigSep_W49]
  exact sound_body49 V c t

/-- What the region is entered with is the invariant before the first point. -/
theorem hin49 (c : Dev nD) : Pipeline.ΦA spec49 c ⊢ (dat49 V c).Φ 0 := by
  rw [show (dat49 V c).Φ 0 = PhiS49 V c 0 (Nat.zero_le _) from rfl, PhiS49_zero V c 0 _ rfl]
  try exact Idealize.SL.BI.Entails.refl _

/-- After the last point the invariant gives the class's back: the accumulator's contents are forgotten. -/
theorem hout49 (c : Dev nD) : (dat49 V c).Φ (Fin.last cfg49.N) ⊢ Pipeline.ΦA spec49 c := by
  have hN : cfg49.N = 16 := N_49
  rw [show (dat49 V c).Φ (Fin.last cfg49.N) = PhiS49 V c (Fin.last cfg49.N).val (Nat.le_of_lt_succ (Fin.last cfg49.N).isLt) from rfl,
    PhiS49_pos V c _ _ (by rw [Fin.val_last]; omega), PhiA49_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI50a.lean ====
/- Laid out by: python3 scratch/layout_regions.py --template-region 1 --region 50 --program KernelIdeal --parts a,b,c, --out-dir proof/Proof
   from the hand-written text of region 1 (RegKI1a.lean): the same text, the region's number substituted. -/
/-
  Region 50 of @main (custom_call 50): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond50_0 (i : grid50.Coords) : Prop := (Scalar.cmpi .ne (Scalar.extui (Scalar.cmpi .eq (BitVec.ofNat 32 (i 1).val) 0#32)) 0#32) = 1#1
/-- It holds exactly at the points with t % 4 = 0. -/
theorem hcond50_0 : ∀ t : Fin cfg50.N, cond50_0 (grid50.coords t) ↔ t.val % 4 = 0 :=
  (by decide +kernel : ∀ t : Fin grid50.N, cond50_0 (grid50.coords t) ↔ t.val % 4 = 0)

/-- "k = 3": the second conditional's test. -/
abbrev cond50_1 (i : grid50.Coords) : Prop := k50_cond2 i = 1#1
/-- It holds exactly at the points with t % 4 = 3. -/
theorem hcond50_1 : ∀ t : Fin cfg50.N, cond50_1 (grid50.coords t) ↔ t.val % 4 = 3 :=
  (by decide +kernel : ∀ t : Fin grid50.N, cond50_1 (grid50.coords t) ↔ t.val % 4 = 3)

/-! ## Where the windows are idle, and where the output is written back -/

/-- The two input windows are never idle. -/
theorem liveAt50_0 : ∀ t : Fin cfg50.N, cfg50.idle 0 (grid50.coords t) = false := by decide +kernel
theorem liveAt50_1 : ∀ t : Fin cfg50.N, cfg50.idle 1 (grid50.coords t) = false := by decide +kernel
/-- Where k ≠ 3 the output window is idle (the body stores nothing into it) and is not written back. -/
theorem idleAt50_2 : ∀ t : Fin cfg50.N, ¬cond50_1 (grid50.coords t) → cfg50.idle 2 (grid50.coords t) = true := by decide +kernel
theorem noFlush50_2 : ∀ t : Fin cfg50.N, ¬cond50_1 (grid50.coords t) → (cfg50.win 2).flush t = false := by decide +kernel
/-- Where k = 3 it is live. -/
theorem liveAt50_2 : ∀ t : Fin cfg50.N, cond50_1 (grid50.coords t) → cfg50.idle 2 (grid50.coords t) = false := by decide +kernel

/-! ## The staging memrefs at a point, and the scratch -/

/-- One staging buffer of the output window, through which its contents are stated. -/
abbrev VO50_2 : View sig .tc .vmem S1024x512 .f32 := (Memref.whole cc50_stg2_0 : Memref sig .tc .vmem S1024x512 .f32).view
abbrev ms50_0 (t : Fin cfg50.N) : Memref sig .tc .vmem S1024x1024 .bf16 := win50_0.stage (cfg50.slots t 0)
abbrev hs50_0 (t : Fin cfg50.N) : (ms50_0 t).IsWhole := hstage50_0 ((cfg50.slots t 0).cast nbuf50_0)
abbrev ms50_1 (t : Fin cfg50.N) : Memref sig .tc .vmem S1024x512 .f32 := win50_1.stage (cfg50.slots t 1)
abbrev hs50_1 (t : Fin cfg50.N) : (ms50_1 t).IsWhole := hstage50_1 ((cfg50.slots t 1).cast nbuf50_1)
abbrev ms50_2 (t : Fin cfg50.N) : Memref sig .tc .vmem S1024x512 .f32 := win50_2.stage (cfg50.slots t 2)
abbrev hs50_2 (t : Fin cfg50.N) : (ms50_2 t).IsWhole := hstage50_2 ((cfg50.slots t 2).cast nbuf50_2)
/-- The accumulator: a whole scoped buffer of the kernel's own. -/
abbrev scM50 : Memref sig .tc .vmem S1024x512 .f32 := Memref.whole cc50_scratch0
abbrev VS50 : View sig .tc .vmem S1024x512 .f32 := scM50.view

/-- The other scoped buffers of the core, none of which this region touches. -/
abbrev restBut50 (c : Dev nD) : sProp 𝕄 :=
  Pipeline.scopedRestBut (Ix := Unit) (Name := ℕ) (U := UR sig nD τ) (Lvl := ℕ) (Val := Elt F) spec50 c [cc50_scratch0]

/-- The region's invariant before its first point: the accumulator at something, the other scoped buffers, the generator register. -/
theorem PhiA50_eq (c : Dev nD) :
    (Pipeline.ΦA spec50 c : sProp 𝕄)
      = iprop(iprop((∃ d, owns (c : Thread nD τ) scM50 fullShare d) ∗ restBut50 c) ∗ (∃ r, prngReg c r)) := by
  unfold Pipeline.ΦA; rw [scopedRest50_split]; simp only [scM50, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun50_A (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond50_0 i) (hc1 : ¬cond50_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc50__matmul_kernel i arg2 harg2 arg3 harg3 arg4 harg4 arg5 harg5) K } := by
  refine ⟨[], ?_, fun xi2 E K => ?run⟩
  case run =>
    simp only [cc50__matmul_kernel_eq_skeleton]; unfold cc50__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI50b.lean ====
/- Laid out by: python3 scratch/layout_regions.py --template-region 1 --region 50 --program KernelIdeal --parts a,b,c, --out-dir proof/Proof
   from the hand-written text of region 1 (RegKI1b.lean): the same text, the region's number substituted. -/
/-
  Region 50, case B (k = 1, 2): the body's run. Neither conditional is taken: the product of the two blocks is added to what
  the point before left in the accumulator; the output block is not touched.
-/
import proofs.«158944_j64613488001249_1_alg».proof.Proof.RegKI50a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun50_B (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond50_0 i) (hc1 : ¬cond50_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc50__matmul_kernel i arg2 harg2 arg3 harg3 arg4 harg4 arg5 harg5) K } := by
  refine ⟨[], ?_, fun xi2 E K => ?run⟩
  case run =>
    simp only [cc50__matmul_kernel_eq_skeleton]; unfold cc50__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI50c.lean ====
/- Laid out by: python3 scratch/layout_regions.py --template-region 1 --region 50 --program KernelIdeal --parts a,b,c, --out-dir proof/Proof
   from the hand-written text of region 1 (RegKI1c.lean): the same text, the region's number substituted. -/
/-
  Region 50, case C (k = 3): the body's run. The product is added to the accumulator as in case B, and then the second
  conditional copies the accumulator over the whole output block.
-/
import proofs.«158944_j64613488001249_1_alg».proof.Proof.RegKI50b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun50_C (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond50_0 i) (hc1 : cond50_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc50__matmul_kernel i arg2 harg2 arg3 harg3 arg4 harg4 arg5 harg5) K } := by
  refine ⟨?_, ?_, fun E K => ?run⟩
  case run =>
    simp only [cc50__matmul_kernel_eq_skeleton]; unfold cc50__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI50.lean ====
/- Laid out by: python3 scratch/layout_regions.py --template-region 1 --region 50 --program KernelIdeal --parts a,b,c, --out-dir proof/Proof
   from the hand-written text of region 1 (RegKI1.lean): the same text, the region's number substituted. -/
/-
  Region 50 of @main, entered from the buffer contents `V`: what its windows' blocks are, what each case of the body leaves in
  the accumulator and in the output block, the accumulator and the output block point by point (`outsAt50`: at k = 0 the
  accumulator restarts from zeros plus the product; at k = 1, 2, 3 it is the point before's plus the product; at k = 3 the
  output block is the accumulator), the region's invariant (the accumulator at `outsAt50`'s second component), the proof data,
  and the body's obligation at every point.
-/
import proofs.«158944_j64613488001249_1_alg».proof.Proof.RegKI50c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk50 (c : Dev nD) (w : Fin cfg50.W) (t : Fin cfg50.N) : ((cfg50.win w).xblock (cfg50.grid.coords t)).Idx → Elt F (cfg50.win w).elt :=
  ((cfg50.win w).blk t).view.read (Elt F) (V c (Pipeline.arrRef spec50 w))

/-- An input window's current staging buffer holds its block at every point, for any proof data whose array is `V`'s and
    whose body leaves the block in place. -/
theorem before50_0_of {c : Dev nD} (dat : Dat τ (Elt F) Unit ℕ (UR sig nD τ) ℕ cfg50 c) (hA : dat.A 0 = V c (Pipeline.arrRef spec50 0))
    (hafter : ∀ t, dat.after 0 t = iblk50 V c 0 t) (t : Fin cfg50.N) (d) : dat.before 0 t d = iblk50 V c 0 t :=
  (dat.before_in_eq_fetched 0 rfl (fun _ => rfl) (fun _ _ _ => rfl) (fun t => by rw [hafter]; unfold Dat.blockOf iblk50; rw [hA]; try rfl) t d).trans
    (by unfold Dat.fetched Dat.blockOf iblk50; rw [hA]; try rfl)
theorem before50_1_of {c : Dev nD} (dat : Dat τ (Elt F) Unit ℕ (UR sig nD τ) ℕ cfg50 c) (hA : dat.A 1 = V c (Pipeline.arrRef spec50 1))
    (hafter : ∀ t, dat.after 1 t = iblk50 V c 1 t) (t : Fin cfg50.N) (d) : dat.before 1 t d = iblk50 V c 1 t :=
  (dat.before_in_eq_fetched 1 rfl (fun _ => rfl) (fun _ _ _ => rfl) (fun t => by rw [hafter]; unfold Dat.blockOf iblk50; rw [hA]; try rfl) t d).trans
    (by unfold Dat.fetched Dat.blockOf iblk50; rw [hA]; try rfl)

/-! ## What each case leaves -/

/-- Case A's stores into the accumulator cover it. -/
theorem scover50_A (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond50_0 i) (hc1 : ¬cond50_1 i)
    (x0 : Vec F S1024x1024 .bf16) (x1 : Vec F S1024x512 .f32) (y : S1024x512.Idx) :
    ∃ pc ∈ (kernelRun50_A c i arg2 harg2 arg3 harg3 arg4 harg4 arg5 harg5 hc0 hc1 x0 x1).2.1, y ∈ pc.1.set :=
  View.cover_of_tiledL (kernelRun50_A c i arg2 harg2 arg3 harg3 arg4 harg4 arg5 harg5 hc0 hc1 x0 x1).2.1 S1024x512.size (by sl_kernel_rfl) y
/-- What case A leaves in the accumulator. -/
noncomputable def sout50_A (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond50_0 i) (hc1 : ¬cond50_1 i)
    (x0 : Vec F S1024x1024 .bf16) (x1 : Vec F S1024x512 .f32) : Vec F S1024x512 .f32 :=
  VS50.read (Elt F) (VS50.writes (Elt F) VS50.junk (kernelRun50_A c i arg2 harg2 arg3 harg3 arg4 harg4 arg5 harg5 hc0 hc1 x0 x1).2.1)

/-- Case B's store into the accumulator covers it. -/
theorem scover50_B (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond50_0 i) (hc1 : ¬cond50_1 i)
    (x0 : Vec F S1024x1024 .bf16) (x1 : Vec F S1024x512 .f32) (xs0 : Vec F S1024x512 .f32) (y : S1024x512.Idx) :
    ∃ pc ∈ (kernelRun50_B c i arg2 harg2 arg3 harg3 arg4 harg4 arg5 harg5 hc0 hc1 x0 x1 xs0).2.1, y ∈ pc.1.set :=
  View.cover_of_tiledL (kernelRun50_B c i arg2 harg2 arg3 harg3 arg4 harg4 arg5 harg5 hc0 hc1 x0 x1 xs0).2.1 S1024x512.size (by sl_kernel_rfl) y
/-- What case B leaves in the accumulator, over what the point before left. -/
noncomputable def sout50_B (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond50_0 i) (hc1 : ¬cond50_1 i)
    (x0 : Vec F S1024x1024 .bf16) (x1 : Vec F S1024x512 .f32) (xs0 : Vec F S1024x512 .f32) : Vec F S1024x512 .f32 :=
  VS50.read (Elt F) (VS50.writes (Elt F) VS50.junk (kernelRun50_B c i arg2 harg2 arg3 harg3 arg4 harg4 arg5 harg5 hc0 hc1 x0 x1 xs0).2.1)

/-- Case C's store into the output block covers it, and so does its store into the accumulator. -/
theorem cover50_C (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond50_0 i) (hc1 : cond50_1 i)
    (x0 : Vec F S1024x1024 .bf16) (x1 : Vec F S1024x512 .f32) (xs0 : Vec F S1024x512 .f32) (y : S1024x512.Idx) :
    ∃ pc ∈ (kernelRun50_C c i arg2 harg2 arg3 harg3 arg4 harg4 arg5 harg5 hc0 hc1 x0 x1 xs0).1, y ∈ pc.1.set :=
  View.cover_of_tiledL (kernelRun50_C c i arg2 harg2 arg3 harg3 arg4 harg4 arg5 harg5 hc0 hc1 x0 x1 xs0).1 S1024x512.size (by sl_kernel_rfl) y
theorem scover50_C (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond50_0 i) (hc1 : cond50_1 i)
    (x0 : Vec F S1024x1024 .bf16) (x1 : Vec F S1024x512 .f32) (xs0 : Vec F S1024x512 .f32) (y : S1024x512.Idx) :
    ∃ pc ∈ (kernelRun50_C c i arg2 harg2 arg3 harg3 arg4 harg4 arg5 harg5 hc0 hc1 x0 x1 xs0).2.1, y ∈ pc.1.set :=
  View.cover_of_tiledL (kernelRun50_C c i arg2 harg2 arg3 harg3 arg4 harg4 arg5 harg5 hc0 hc1 x0 x1 xs0).2.1 S1024x512.size (by sl_kernel_rfl) y
/-- What case C leaves in the output block, and in the accumulator. -/
noncomputable def out50_C (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond50_0 i) (hc1 : cond50_1 i)
    (x0 : Vec F S1024x1024 .bf16) (x1 : Vec F S1024x512 .f32) (xs0 : Vec F S1024x512 .f32) : Vec F S1024x512 .f32 :=
  VO50_2.read (Elt F) (VO50_2.writes (Elt F) VO50_2.junk (kernelRun50_C c i arg2 harg2 arg3 harg3 arg4 harg4 arg5 harg5 hc0 hc1 x0 x1 xs0).1)
noncomputable def sout50_C (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond50_0 i) (hc1 : cond50_1 i)
    (x0 : Vec F S1024x1024 .bf16) (x1 : Vec F S1024x512 .f32) (xs0 : Vec F S1024x512 .f32) : Vec F S1024x512 .f32 :=
  VS50.read (Elt F) (VS50.writes (Elt F) VS50.junk (kernelRun50_C c i arg2 harg2 arg3 harg3 arg4 harg4 arg5 harg5 hc0 hc1 x0 x1 xs0).2.1)

/-- Where the output block is idle nothing consults what it holds: a placeholder. -/
noncomputable def outIdle50 : Vec F S1024x512 .f32 := VO50_2.read (Elt F) (VO50_2.writes (Elt F) VO50_2.junk [])

/-! ## The conditions at a point, from t % 4 -/

theorem isFirst50 (t : Fin cfg50.N) (h : t.val % 4 = 0) : cond50_0 (grid50.coords t) := (hcond50_0 t).mpr h
theorem notFirst50 (t : Fin cfg50.N) (h : ¬t.val % 4 = 0) : ¬cond50_0 (grid50.coords t) := fun hc => h ((hcond50_0 t).mp hc)
theorem isLast50 (t : Fin cfg50.N) (h : t.val % 4 = 3) : cond50_1 (grid50.coords t) := (hcond50_1 t).mpr h
theorem notLast50 (t : Fin cfg50.N) (h : ¬t.val % 4 = 3) : ¬cond50_1 (grid50.coords t) := fun hc => h ((hcond50_1 t).mp hc)

/-! ## The accumulator and the output block, point by point -/

/-- After the body at position `n`: (the output block's buffer, the accumulator). -/
noncomputable def outsAt50 (c : Dev nD) : (n : ℕ) → n < cfg50.N → Vec F S1024x512 .f32 × Vec F S1024x512 .f32
  | 0, hn => (outIdle50, sout50_A c (grid50.coords ⟨0, hn⟩) (ms50_0 ⟨0, hn⟩) (hs50_0 ⟨0, hn⟩) (ms50_1 ⟨0, hn⟩) (hs50_1 ⟨0, hn⟩) (ms50_2 ⟨0, hn⟩) (hs50_2 ⟨0, hn⟩) scM50 (Memref.isWhole_whole _) (isFirst50 ⟨0, hn⟩ (Nat.zero_mod _)) (notLast50 ⟨0, hn⟩ (by simp)) (iblk50 V c 0 ⟨0, hn⟩) (iblk50 V c 1 ⟨0, hn⟩))
  | n + 1, hn =>
    if h0 : (n + 1) % 4 = 0 then
      (outIdle50, sout50_A c (grid50.coords ⟨n + 1, hn⟩) (ms50_0 ⟨n + 1, hn⟩) (hs50_0 ⟨n + 1, hn⟩) (ms50_1 ⟨n + 1, hn⟩) (hs50_1 ⟨n + 1, hn⟩) (ms50_2 ⟨n + 1, hn⟩) (hs50_2 ⟨n + 1, hn⟩) scM50 (Memref.isWhole_whole _) (isFirst50 ⟨n + 1, hn⟩ h0) (notLast50 ⟨n + 1, hn⟩ (by show ¬(n + 1) % 4 = 3; omega)) (iblk50 V c 0 ⟨n + 1, hn⟩) (iblk50 V c 1 ⟨n + 1, hn⟩))
    else if h3 : (n + 1) % 4 = 3 then
      (out50_C c (grid50.coords ⟨n + 1, hn⟩) (ms50_0 ⟨n + 1, hn⟩) (hs50_0 ⟨n + 1, hn⟩) (ms50_1 ⟨n + 1, hn⟩) (hs50_1 ⟨n + 1, hn⟩) (ms50_2 ⟨n + 1, hn⟩) (hs50_2 ⟨n + 1, hn⟩) scM50 (Memref.isWhole_whole _) (notFirst50 ⟨n + 1, hn⟩ h0) (isLast50 ⟨n + 1, hn⟩ h3) (iblk50 V c 0 ⟨n + 1, hn⟩) (iblk50 V c 1 ⟨n + 1, hn⟩) (outsAt50 c n (Nat.lt_of_succ_lt hn)).2,
       sout50_C c (grid50.coords ⟨n + 1, hn⟩) (ms50_0 ⟨n + 1, hn⟩) (hs50_0 ⟨n + 1, hn⟩) (ms50_1 ⟨n + 1, hn⟩) (hs50_1 ⟨n + 1, hn⟩) (ms50_2 ⟨n + 1, hn⟩) (hs50_2 ⟨n + 1, hn⟩) scM50 (Memref.isWhole_whole _) (notFirst50 ⟨n + 1, hn⟩ h0) (isLast50 ⟨n + 1, hn⟩ h3) (iblk50 V c 0 ⟨n + 1, hn⟩) (iblk50 V c 1 ⟨n + 1, hn⟩) (outsAt50 c n (Nat.lt_of_succ_lt hn)).2)
    else
      (outIdle50, sout50_B c (grid50.coords ⟨n + 1, hn⟩) (ms50_0 ⟨n + 1, hn⟩) (hs50_0 ⟨n + 1, hn⟩) (ms50_1 ⟨n + 1, hn⟩) (hs50_1 ⟨n + 1, hn⟩) (ms50_2 ⟨n + 1, hn⟩) (hs50_2 ⟨n + 1, hn⟩) scM50 (Memref.isWhole_whole _) (notFirst50 ⟨n + 1, hn⟩ h0) (notLast50 ⟨n + 1, hn⟩ h3) (iblk50 V c 0 ⟨n + 1, hn⟩) (iblk50 V c 1 ⟨n + 1, hn⟩) (outsAt50 c n (Nat.lt_of_succ_lt hn)).2)

/-- `outsAt50` at a point with k = 0. -/
theorem outsAt50_A (c : Dev nD) (t : Fin cfg50.N) (h0 : t.val % 4 = 0) :
    outsAt50 V c t.val t.isLt = (outIdle50, sout50_A c (grid50.coords t) (ms50_0 t) (hs50_0 t) (ms50_1 t) (hs50_1 t) (ms50_2 t) (hs50_2 t) scM50 (Memref.isWhole_whole _) (isFirst50 t h0) (notLast50 t (by omega)) (iblk50 V c 0 t) (iblk50 V c 1 t)) := by
  obtain ⟨n, hn⟩ := t
  cases n with
  | zero => rfl
  | succ n => exact (dif_pos h0).trans rfl

/-- `outsAt50` at a point with k = 1, 2: over what the point before left. -/
theorem outsAt50_B (c : Dev nD) (t : Fin cfg50.N) (h0 : ¬t.val % 4 = 0) (h3 : ¬t.val % 4 = 3) :
    outsAt50 V c t.val t.isLt = (outIdle50, sout50_B c (grid50.coords t) (ms50_0 t) (hs50_0 t) (ms50_1 t) (hs50_1 t) (ms50_2 t) (hs50_2 t) scM50 (Memref.isWhole_whole _) (notFirst50 t h0) (notLast50 t h3) (iblk50 V c 0 t) (iblk50 V c 1 t)
      (outsAt50 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt50` at a point with k = 3. -/
theorem outsAt50_C (c : Dev nD) (t : Fin cfg50.N) (h0 : ¬t.val % 4 = 0) (h3 : t.val % 4 = 3) :
    outsAt50 V c t.val t.isLt = (out50_C c (grid50.coords t) (ms50_0 t) (hs50_0 t) (ms50_1 t) (hs50_1 t) (ms50_2 t) (hs50_2 t) scM50 (Memref.isWhole_whole _) (notFirst50 t h0) (isLast50 t h3) (iblk50 V c 0 t) (iblk50 V c 1 t)
        (outsAt50 V c (t.val - 1) (Nat.lt_of_le_of_lt (Nat.sub_le _ _) t.isLt)).2,
      sout50_C c (grid50.coords t) (ms50_0 t) (hs50_0 t) (ms50_1 t) (hs50_1 t) (ms50_2 t) (hs50_2 t) scM50 (Memref.isWhole_whole _) (notFirst50 t h0) (isLast50 t h3) (iblk50 V c 0 t) (iblk50 V c 1 t)
        (outsAt50 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS50 (c : Dev nD) : (n : ℕ) → n ≤ cfg50.N → sProp 𝕄
  | 0, _ => Pipeline.ΦA spec50 c
  | n + 1, hn => iprop(iprop(owns (c : Thread nD τ) scM50 fullShare ((outsAt50 V c n hn).2) ∗ restBut50 c) ∗ (∃ r, prngReg c r))

theorem PhiS50_zero (c : Dev nD) (n : ℕ) (h : n ≤ cfg50.N) (hz : n = 0) : PhiS50 V c n h = Pipeline.ΦA spec50 c := by
  subst hz; rfl
theorem PhiS50_succ (c : Dev nD) (n : ℕ) (hn : n < cfg50.N) :
    PhiS50 V c (n + 1) hn = iprop(iprop(owns (c : Thread nD τ) scM50 fullShare ((outsAt50 V c n hn).2) ∗ restBut50 c) ∗ (∃ r, prngReg c r)) := rfl
theorem PhiS50_pos (c : Dev nD) (n : ℕ) (h : n ≤ cfg50.N) (hz : n ≠ 0) :
    PhiS50 V c n h = iprop(iprop(owns (c : Thread nD τ) scM50 fullShare ((outsAt50 V c (n - 1) (by omega)).2) ∗ restBut50 c) ∗ (∃ r, prngReg c r)) := by
  cases n with
  | zero => exact absurd rfl hz
  | succ n => rfl

/-! ## The proof data -/

/-- The region's proof data on core `c`: the arrays as the region finds them; after the body at point `t` each input's
    buffer at its block and the output's at `outsAt50`'s first component; the invariant `PhiS50`; nothing owed; full shares. -/
noncomputable def dat50 (c : Dev nD) : Dat τ (Elt F) Unit ℕ (UR sig nD τ) ℕ cfg50 c where
  A w := V c (Pipeline.arrRef spec50 w)
  after w t := match w with
    | ⟨0, _⟩ => iblk50 V c 0 t
    | ⟨1, _⟩ => iblk50 V c 1 t
    | ⟨2, _⟩ => (outsAt50 V c t.val t.isLt).1
  Φ t := PhiS50 V c t.val (Nat.le_of_lt_succ t.isLt)
  q _ := fullShare
  owed _ := 0

theorem A_eq50 (c : Dev nD) (w : Fin cfg50.W) : (dat50 V c).A w = V c (Pipeline.arrRef spec50 w) := by
  dsimp only [dat50]
theorem PhiS50_castSucc (c : Dev nD) (t : Fin cfg50.N) :
    (dat50 V c).Φ t.castSucc = PhiS50 V c t.val (Nat.le_of_lt t.isLt) := by
  dsimp only [dat50]; simp only [Fin.coe_castSucc]
theorem after50_0 (c : Dev nD) (t : Fin cfg50.N) : (dat50 V c).after 0 t = iblk50 V c 0 t := by dsimp only [dat50]
theorem after50_1 (c : Dev nD) (t : Fin cfg50.N) : (dat50 V c).after 1 t = iblk50 V c 1 t := by dsimp only [dat50]
theorem after50_2 (c : Dev nD) (t : Fin cfg50.N) : (dat50 V c).after 2 t = (outsAt50 V c t.val t.isLt).1 := by dsimp only [dat50]
theorem before50_0 (c : Dev nD) (t : Fin cfg50.N) (d) : (dat50 V c).before 0 t d = iblk50 V c 0 t :=
  before50_0_of V (dat50 V c) (A_eq50 V c 0) (after50_0 V c) t d
theorem before50_1 (c : Dev nD) (t : Fin cfg50.N) (d) : (dat50 V c).before 1 t d = iblk50 V c 1 t :=
  before50_1_of V (dat50 V c) (A_eq50 V c 1) (after50_1 V c) t d

/-! ## The body's obligation -/

noncomputable def bodyPre50 (c : Dev nD) (t : Fin cfg50.N) : sProp 𝕄 :=
  iprop((dat50 V c).Φ t.castSucc ∗ (dat50 V c).owesAt () t.castSucc
    ∗ (∃ d, owns (c : Thread nD τ) (ms50_0 t) fullShare ((dat50 V c).before 0 t d))
    ∗ (∃ d, owns (c : Thread nD τ) (ms50_1 t) fullShare ((dat50 V c).before 1 t d))
    ∗ (∃ d, owns (c : Thread nD τ) (ms50_2 t) fullShare ((dat50 V c).before 2 t d)))

noncomputable def bodyPost50 (c : Dev nD) (t : Fin cfg50.N) : sProp 𝕄 :=
  iprop((dat50 V c).Φ t.succ ∗ (dat50 V c).owesAt () t.succ
    ∗ (dat50 V c).leavesExact 0 t
    ∗ (dat50 V c).leavesExact 1 t
    ∗ (dat50 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body50 (c : Dev nD) (t : Fin cfg50.N) :
    bodyPre50 V c t ⊢ wp frame (wpE (defs₀ (F := F)) Variants.none c none) Set.univ (bodyAt50 t) (fun _ => bodyPost50 V c t) := by
  unfold bodyPre50 bodyPost50 bodyAt50
  simp only [before50_0, before50_1]
  rw [show (dat50 V c).owesAt () t.succ = (dat50 V c).owesAt () t.castSucc from rfl]
  rw [show (dat50 V c).Φ t.succ = PhiS50 V c (t.val + 1) t.isLt from rfl, PhiS50_succ]
  rw [show (dat50 V c).leavesExact 0 t = owns (c : Thread nD τ) (ms50_0 t) fullShare ((dat50 V c).after 0 t) from by
    unfold Dat.leavesExact; rw [liveAt50_0 t], after50_0]
  rw [show (dat50 V c).leavesExact 1 t = owns (c : Thread nD τ) (ms50_1 t) fullShare ((dat50 V c).after 1 t) from by
    unfold Dat.leavesExact; rw [liveAt50_1 t], after50_1]
  by_cases h0 : t.val % 4 = 0
  · have h3 : ¬t.val % 4 = 3 := by omega
    rw [Dat.leavesExact_idle (dat50 V c) 2 t (idleAt50_2 t (notLast50 t h3)) (noFlush50_2 t (notLast50 t h3))]
    rw [outsAt50_A V c t h0]
    unfold sout50_A; (try dsimp only)
    by_cases hz : t.val = 0
    · rw [PhiS50_castSucc V c t, PhiS50_zero V c _ _ hz, PhiA50_eq]
      iintro ⟨⟨⟨HS0, Hrb⟩, Hg⟩, Ho, ⟨%d0, H0⟩, ⟨%d1, H1⟩, ⟨%d2, H2⟩⟩
      iapply ((kernelRun50_A c (grid50.coords t) _ _ _ _ _ _ _ _ (isFirst50 t h0) (notLast50 t (by omega)) (iblk50 V c 0 t) (iblk50 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover50_A c _ _ _ _ _ _ _ _ _ _ _ _ _)
          iexact Hrb
        iexact Hg
      isplitl [Ho]; · iexact Ho
      isplitl [H0]; · iexact H0
      isplitl [H1]; · iexact H1
      iexists _; iexact H2
    · rw [PhiS50_castSucc V c t, PhiS50_pos V c _ _ hz]
      iintro ⟨⟨⟨HS0, Hrb⟩, Hg⟩, Ho, ⟨%d0, H0⟩, ⟨%d1, H1⟩, ⟨%d2, H2⟩⟩
      iapply ((kernelRun50_A c (grid50.coords t) _ _ _ _ _ _ _ _ (isFirst50 t h0) (notLast50 t (by omega)) (iblk50 V c 0 t) (iblk50 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover50_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat50 V c).leavesExact 2 t = owns (c : Thread nD τ) (ms50_2 t) fullShare ((dat50 V c).after 2 t) from by
        unfold Dat.leavesExact; rw [liveAt50_2 t (isLast50 t h3)], after50_2]
      rw [outsAt50_C V c t h0 h3]
      unfold out50_C sout50_C; (try dsimp only)
      rw [PhiS50_castSucc V c t, PhiS50_pos V c _ _ hz]
      iintro ⟨⟨⟨HS0, Hrb⟩, Hg⟩, Ho, ⟨%d0, H0⟩, ⟨%d1, H1⟩, ⟨%d2, H2⟩⟩
      iapply ((kernelRun50_C c (grid50.coords t) _ _ _ _ _ _ _ _ (notFirst50 t h0) (isLast50 t h3) (iblk50 V c 0 t) (iblk50 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover50_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover50_C c _ _ _ _ _ _ _ _ _ _ _ _ _ _)
    · rw [Dat.leavesExact_idle (dat50 V c) 2 t (idleAt50_2 t (notLast50 t h3)) (noFlush50_2 t (notLast50 t h3))]
      rw [outsAt50_B V c t h0 h3]
      unfold sout50_B; (try dsimp only)
      rw [PhiS50_castSucc V c t, PhiS50_pos V c _ _ hz]
      iintro ⟨⟨⟨HS0, Hrb⟩, Hg⟩, Ho, ⟨%d0, H0⟩, ⟨%d1, H1⟩, ⟨%d2, H2⟩⟩
      iapply ((kernelRun50_B c (grid50.coords t) _ _ _ _ _ _ _ _ (notFirst50 t h0) (notLast50 t h3) (iblk50 V c 0 t) (iblk50 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover50_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation50 (c : Dev nD) : BodyObligation (dat50 (F := F) V c) (defs₀ (F := F)) Variants.none () Set.univ := fun t => by
  rw [bigSep_W50, bigSep_W50]
  exact sound_body50 V c t

/-- What the region is entered with is the invariant before the first point. -/
theorem hin50 (c : Dev nD) : Pipeline.ΦA spec50 c ⊢ (dat50 V c).Φ 0 := by
  rw [show (dat50 V c).Φ 0 = PhiS50 V c 0 (Nat.zero_le _) from rfl, PhiS50_zero V c 0 _ rfl]
  try exact Idealize.SL.BI.Entails.refl _

/-- After the last point the invariant gives the class's back: the accumulator's contents are forgotten. -/
theorem hout50 (c : Dev nD) : (dat50 V c).Φ (Fin.last cfg50.N) ⊢ Pipeline.ΦA spec50 c := by
  have hN : cfg50.N = 16 := N_50
  rw [show (dat50 V c).Φ (Fin.last cfg50.N) = PhiS50 V c (Fin.last cfg50.N).val (Nat.le_of_lt_succ (Fin.last cfg50.N).isLt) from rfl,
    PhiS50_pos V c _ _ (by rw [Fin.val_last]; omega), PhiA50_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI51a.lean ====
/- Laid out by: python3 scratch/layout_regions.py --template-region 1 --region 51 --program KernelIdeal --parts a,b,c, --out-dir proof/Proof
   from the hand-written text of region 1 (RegKI1a.lean): the same text, the region's number substituted. -/
/-
  Region 51 of @main (custom_call 51): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond51_0 (i : grid51.Coords) : Prop := (Scalar.cmpi .ne (Scalar.extui (Scalar.cmpi .eq (BitVec.ofNat 32 (i 1).val) 0#32)) 0#32) = 1#1
/-- It holds exactly at the points with t % 4 = 0. -/
theorem hcond51_0 : ∀ t : Fin cfg51.N, cond51_0 (grid51.coords t) ↔ t.val % 4 = 0 :=
  (by decide +kernel : ∀ t : Fin grid51.N, cond51_0 (grid51.coords t) ↔ t.val % 4 = 0)

/-- "k = 3": the second conditional's test. -/
abbrev cond51_1 (i : grid51.Coords) : Prop := k51_cond2 i = 1#1
/-- It holds exactly at the points with t % 4 = 3. -/
theorem hcond51_1 : ∀ t : Fin cfg51.N, cond51_1 (grid51.coords t) ↔ t.val % 4 = 3 :=
  (by decide +kernel : ∀ t : Fin grid51.N, cond51_1 (grid51.coords t) ↔ t.val % 4 = 3)

/-! ## Where the windows are idle, and where the output is written back -/

/-- The two input windows are never idle. -/
theorem liveAt51_0 : ∀ t : Fin cfg51.N, cfg51.idle 0 (grid51.coords t) = false := by decide +kernel
theorem liveAt51_1 : ∀ t : Fin cfg51.N, cfg51.idle 1 (grid51.coords t) = false := by decide +kernel
/-- Where k ≠ 3 the output window is idle (the body stores nothing into it) and is not written back. -/
theorem idleAt51_2 : ∀ t : Fin cfg51.N, ¬cond51_1 (grid51.coords t) → cfg51.idle 2 (grid51.coords t) = true := by decide +kernel
theorem noFlush51_2 : ∀ t : Fin cfg51.N, ¬cond51_1 (grid51.coords t) → (cfg51.win 2).flush t = false := by decide +kernel
/-- Where k = 3 it is live. -/
theorem liveAt51_2 : ∀ t : Fin cfg51.N, cond51_1 (grid51.coords t) → cfg51.idle 2 (grid51.coords t) = false := by decide +kernel

/-! ## The staging memrefs at a point, and the scratch -/

/-- One staging buffer of the output window, through which its contents are stated. -/
abbrev VO51_2 : View sig .tc .vmem S1024x512 .f32 := (Memref.whole cc51_stg2_0 : Memref sig .tc .vmem S1024x512 .f32).view
abbrev ms51_0 (t : Fin cfg51.N) : Memref sig .tc .vmem S1024x1024 .bf16 := win51_0.stage (cfg51.slots t 0)
abbrev hs51_0 (t : Fin cfg51.N) : (ms51_0 t).IsWhole := hstage51_0 ((cfg51.slots t 0).cast nbuf51_0)
abbrev ms51_1 (t : Fin cfg51.N) : Memref sig .tc .vmem S1024x512 .f32 := win51_1.stage (cfg51.slots t 1)
abbrev hs51_1 (t : Fin cfg51.N) : (ms51_1 t).IsWhole := hstage51_1 ((cfg51.slots t 1).cast nbuf51_1)
abbrev ms51_2 (t : Fin cfg51.N) : Memref sig .tc .vmem S1024x512 .f32 := win51_2.stage (cfg51.slots t 2)
abbrev hs51_2 (t : Fin cfg51.N) : (ms51_2 t).IsWhole := hstage51_2 ((cfg51.slots t 2).cast nbuf51_2)
/-- The accumulator: a whole scoped buffer of the kernel's own. -/
abbrev scM51 : Memref sig .tc .vmem S1024x512 .f32 := Memref.whole cc51_scratch0
abbrev VS51 : View sig .tc .vmem S1024x512 .f32 := scM51.view

/-- The other scoped buffers of the core, none of which this region touches. -/
abbrev restBut51 (c : Dev nD) : sProp 𝕄 :=
  Pipeline.scopedRestBut (Ix := Unit) (Name := ℕ) (U := UR sig nD τ) (Lvl := ℕ) (Val := Elt F) spec51 c [cc51_scratch0]

/-- The region's invariant before its first point: the accumulator at something, the other scoped buffers, the generator register. -/
theorem PhiA51_eq (c : Dev nD) :
    (Pipeline.ΦA spec51 c : sProp 𝕄)
      = iprop(iprop((∃ d, owns (c : Thread nD τ) scM51 fullShare d) ∗ restBut51 c) ∗ (∃ r, prngReg c r)) := by
  unfold Pipeline.ΦA; rw [scopedRest51_split]; simp only [scM51, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun51_A (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond51_0 i) (hc1 : ¬cond51_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc51__matmul_kernel i arg2 harg2 arg3 harg3 arg4 harg4 arg5 harg5) K } := by
  refine ⟨[], ?_, fun xi2 E K => ?run⟩
  case run =>
    simp only [cc51__matmul_kernel_eq_skeleton]; unfold cc51__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI51b.lean ====
/- Laid out by: python3 scratch/layout_regions.py --template-region 1 --region 51 --program KernelIdeal --parts a,b,c, --out-dir proof/Proof
   from the hand-written text of region 1 (RegKI1b.lean): the same text, the region's number substituted. -/
/-
  Region 51, case B (k = 1, 2): the body's run. Neither conditional is taken: the product of the two blocks is added to what
  the point before left in the accumulator; the output block is not touched.
-/
import proofs.«158944_j64613488001249_1_alg».proof.Proof.RegKI51a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun51_B (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond51_0 i) (hc1 : ¬cond51_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc51__matmul_kernel i arg2 harg2 arg3 harg3 arg4 harg4 arg5 harg5) K } := by
  refine ⟨[], ?_, fun xi2 E K => ?run⟩
  case run =>
    simp only [cc51__matmul_kernel_eq_skeleton]; unfold cc51__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI51c.lean ====
/- Laid out by: python3 scratch/layout_regions.py --template-region 1 --region 51 --program KernelIdeal --parts a,b,c, --out-dir proof/Proof
   from the hand-written text of region 1 (RegKI1c.lean): the same text, the region's number substituted. -/
/-
  Region 51, case C (k = 3): the body's run. The product is added to the accumulator as in case B, and then the second
  conditional copies the accumulator over the whole output block.
-/
import proofs.«158944_j64613488001249_1_alg».proof.Proof.RegKI51b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun51_C (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond51_0 i) (hc1 : cond51_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc51__matmul_kernel i arg2 harg2 arg3 harg3 arg4 harg4 arg5 harg5) K } := by
  refine ⟨?_, ?_, fun E K => ?run⟩
  case run =>
    simp only [cc51__matmul_kernel_eq_skeleton]; unfold cc51__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI51.lean ====
/- Laid out by: python3 scratch/layout_regions.py --template-region 1 --region 51 --program KernelIdeal --parts a,b,c, --out-dir proof/Proof
   from the hand-written text of region 1 (RegKI1.lean): the same text, the region's number substituted. -/
/-
  Region 51 of @main, entered from the buffer contents `V`: what its windows' blocks are, what each case of the body leaves in
  the accumulator and in the output block, the accumulator and the output block point by point (`outsAt51`: at k = 0 the
  accumulator restarts from zeros plus the product; at k = 1, 2, 3 it is the point before's plus the product; at k = 3 the
  output block is the accumulator), the region's invariant (the accumulator at `outsAt51`'s second component), the proof data,
  and the body's obligation at every point.
-/
import proofs.«158944_j64613488001249_1_alg».proof.Proof.RegKI51c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk51 (c : Dev nD) (w : Fin cfg51.W) (t : Fin cfg51.N) : ((cfg51.win w).xblock (cfg51.grid.coords t)).Idx → Elt F (cfg51.win w).elt :=
  ((cfg51.win w).blk t).view.read (Elt F) (V c (Pipeline.arrRef spec51 w))

/-- An input window's current staging buffer holds its block at every point, for any proof data whose array is `V`'s and
    whose body leaves the block in place. -/
theorem before51_0_of {c : Dev nD} (dat : Dat τ (Elt F) Unit ℕ (UR sig nD τ) ℕ cfg51 c) (hA : dat.A 0 = V c (Pipeline.arrRef spec51 0))
    (hafter : ∀ t, dat.after 0 t = iblk51 V c 0 t) (t : Fin cfg51.N) (d) : dat.before 0 t d = iblk51 V c 0 t :=
  (dat.before_in_eq_fetched 0 rfl (fun _ => rfl) (fun _ _ _ => rfl) (fun t => by rw [hafter]; unfold Dat.blockOf iblk51; rw [hA]; try rfl) t d).trans
    (by unfold Dat.fetched Dat.blockOf iblk51; rw [hA]; try rfl)
theorem before51_1_of {c : Dev nD} (dat : Dat τ (Elt F) Unit ℕ (UR sig nD τ) ℕ cfg51 c) (hA : dat.A 1 = V c (Pipeline.arrRef spec51 1))
    (hafter : ∀ t, dat.after 1 t = iblk51 V c 1 t) (t : Fin cfg51.N) (d) : dat.before 1 t d = iblk51 V c 1 t :=
  (dat.before_in_eq_fetched 1 rfl (fun _ => rfl) (fun _ _ _ => rfl) (fun t => by rw [hafter]; unfold Dat.blockOf iblk51; rw [hA]; try rfl) t d).trans
    (by unfold Dat.fetched Dat.blockOf iblk51; rw [hA]; try rfl)

/-! ## What each case leaves -/

/-- Case A's stores into the accumulator cover it. -/
theorem scover51_A (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond51_0 i) (hc1 : ¬cond51_1 i)
    (x0 : Vec F S1024x1024 .bf16) (x1 : Vec F S1024x512 .f32) (y : S1024x512.Idx) :
    ∃ pc ∈ (kernelRun51_A c i arg2 harg2 arg3 harg3 arg4 harg4 arg5 harg5 hc0 hc1 x0 x1).2.1, y ∈ pc.1.set :=
  View.cover_of_tiledL (kernelRun51_A c i arg2 harg2 arg3 harg3 arg4 harg4 arg5 harg5 hc0 hc1 x0 x1).2.1 S1024x512.size (by sl_kernel_rfl) y
/-- What case A leaves in the accumulator. -/
noncomputable def sout51_A (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond51_0 i) (hc1 : ¬cond51_1 i)
    (x0 : Vec F S1024x1024 .bf16) (x1 : Vec F S1024x512 .f32) : Vec F S1024x512 .f32 :=
  VS51.read (Elt F) (VS51.writes (Elt F) VS51.junk (kernelRun51_A c i arg2 harg2 arg3 harg3 arg4 harg4 arg5 harg5 hc0 hc1 x0 x1).2.1)

/-- Case B's store into the accumulator covers it. -/
theorem scover51_B (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond51_0 i) (hc1 : ¬cond51_1 i)
    (x0 : Vec F S1024x1024 .bf16) (x1 : Vec F S1024x512 .f32) (xs0 : Vec F S1024x512 .f32) (y : S1024x512.Idx) :
    ∃ pc ∈ (kernelRun51_B c i arg2 harg2 arg3 harg3 arg4 harg4 arg5 harg5 hc0 hc1 x0 x1 xs0).2.1, y ∈ pc.1.set :=
  View.cover_of_tiledL (kernelRun51_B c i arg2 harg2 arg3 harg3 arg4 harg4 arg5 harg5 hc0 hc1 x0 x1 xs0).2.1 S1024x512.size (by sl_kernel_rfl) y
/-- What case B leaves in the accumulator, over what the point before left. -/
noncomputable def sout51_B (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond51_0 i) (hc1 : ¬cond51_1 i)
    (x0 : Vec F S1024x1024 .bf16) (x1 : Vec F S1024x512 .f32) (xs0 : Vec F S1024x512 .f32) : Vec F S1024x512 .f32 :=
  VS51.read (Elt F) (VS51.writes (Elt F) VS51.junk (kernelRun51_B c i arg2 harg2 arg3 harg3 arg4 harg4 arg5 harg5 hc0 hc1 x0 x1 xs0).2.1)

/-- Case C's store into the output block covers it, and so does its store into the accumulator. -/
theorem cover51_C (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond51_0 i) (hc1 : cond51_1 i)
    (x0 : Vec F S1024x1024 .bf16) (x1 : Vec F S1024x512 .f32) (xs0 : Vec F S1024x512 .f32) (y : S1024x512.Idx) :
    ∃ pc ∈ (kernelRun51_C c i arg2 harg2 arg3 harg3 arg4 harg4 arg5 harg5 hc0 hc1 x0 x1 xs0).1, y ∈ pc.1.set :=
  View.cover_of_tiledL (kernelRun51_C c i arg2 harg2 arg3 harg3 arg4 harg4 arg5 harg5 hc0 hc1 x0 x1 xs0).1 S1024x512.size (by sl_kernel_rfl) y
theorem scover51_C (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond51_0 i) (hc1 : cond51_1 i)
    (x0 : Vec F S1024x1024 .bf16) (x1 : Vec F S1024x512 .f32) (xs0 : Vec F S1024x512 .f32) (y : S1024x512.Idx) :
    ∃ pc ∈ (kernelRun51_C c i arg2 harg2 arg3 harg3 arg4 harg4 arg5 harg5 hc0 hc1 x0 x1 xs0).2.1, y ∈ pc.1.set :=
  View.cover_of_tiledL (kernelRun51_C c i arg2 harg2 arg3 harg3 arg4 harg4 arg5 harg5 hc0 hc1 x0 x1 xs0).2.1 S1024x512.size (by sl_kernel_rfl) y
/-- What case C leaves in the output block, and in the accumulator. -/
noncomputable def out51_C (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond51_0 i) (hc1 : cond51_1 i)
    (x0 : Vec F S1024x1024 .bf16) (x1 : Vec F S1024x512 .f32) (xs0 : Vec F S1024x512 .f32) : Vec F S1024x512 .f32 :=
  VO51_2.read (Elt F) (VO51_2.writes (Elt F) VO51_2.junk (kernelRun51_C c i arg2 harg2 arg3 harg3 arg4 harg4 arg5 harg5 hc0 hc1 x0 x1 xs0).1)
noncomputable def sout51_C (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond51_0 i) (hc1 : cond51_1 i)
    (x0 : Vec F S1024x1024 .bf16) (x1 : Vec F S1024x512 .f32) (xs0 : Vec F S1024x512 .f32) : Vec F S1024x512 .f32 :=
  VS51.read (Elt F) (VS51.writes (Elt F) VS51.junk (kernelRun51_C c i arg2 harg2 arg3 harg3 arg4 harg4 arg5 harg5 hc0 hc1 x0 x1 xs0).2.1)

/-- Where the output block is idle nothing consults what it holds: a placeholder. -/
noncomputable def outIdle51 : Vec F S1024x512 .f32 := VO51_2.read (Elt F) (VO51_2.writes (Elt F) VO51_2.junk [])

/-! ## The conditions at a point, from t % 4 -/

theorem isFirst51 (t : Fin cfg51.N) (h : t.val % 4 = 0) : cond51_0 (grid51.coords t) := (hcond51_0 t).mpr h
theorem notFirst51 (t : Fin cfg51.N) (h : ¬t.val % 4 = 0) : ¬cond51_0 (grid51.coords t) := fun hc => h ((hcond51_0 t).mp hc)
theorem isLast51 (t : Fin cfg51.N) (h : t.val % 4 = 3) : cond51_1 (grid51.coords t) := (hcond51_1 t).mpr h
theorem notLast51 (t : Fin cfg51.N) (h : ¬t.val % 4 = 3) : ¬cond51_1 (grid51.coords t) := fun hc => h ((hcond51_1 t).mp hc)

/-! ## The accumulator and the output block, point by point -/

/-- After the body at position `n`: (the output block's buffer, the accumulator). -/
noncomputable def outsAt51 (c : Dev nD) : (n : ℕ) → n < cfg51.N → Vec F S1024x512 .f32 × Vec F S1024x512 .f32
  | 0, hn => (outIdle51, sout51_A c (grid51.coords ⟨0, hn⟩) (ms51_0 ⟨0, hn⟩) (hs51_0 ⟨0, hn⟩) (ms51_1 ⟨0, hn⟩) (hs51_1 ⟨0, hn⟩) (ms51_2 ⟨0, hn⟩) (hs51_2 ⟨0, hn⟩) scM51 (Memref.isWhole_whole _) (isFirst51 ⟨0, hn⟩ (Nat.zero_mod _)) (notLast51 ⟨0, hn⟩ (by simp)) (iblk51 V c 0 ⟨0, hn⟩) (iblk51 V c 1 ⟨0, hn⟩))
  | n + 1, hn =>
    if h0 : (n + 1) % 4 = 0 then
      (outIdle51, sout51_A c (grid51.coords ⟨n + 1, hn⟩) (ms51_0 ⟨n + 1, hn⟩) (hs51_0 ⟨n + 1, hn⟩) (ms51_1 ⟨n + 1, hn⟩) (hs51_1 ⟨n + 1, hn⟩) (ms51_2 ⟨n + 1, hn⟩) (hs51_2 ⟨n + 1, hn⟩) scM51 (Memref.isWhole_whole _) (isFirst51 ⟨n + 1, hn⟩ h0) (notLast51 ⟨n + 1, hn⟩ (by show ¬(n + 1) % 4 = 3; omega)) (iblk51 V c 0 ⟨n + 1, hn⟩) (iblk51 V c 1 ⟨n + 1, hn⟩))
    else if h3 : (n + 1) % 4 = 3 then
      (out51_C c (grid51.coords ⟨n + 1, hn⟩) (ms51_0 ⟨n + 1, hn⟩) (hs51_0 ⟨n + 1, hn⟩) (ms51_1 ⟨n + 1, hn⟩) (hs51_1 ⟨n + 1, hn⟩) (ms51_2 ⟨n + 1, hn⟩) (hs51_2 ⟨n + 1, hn⟩) scM51 (Memref.isWhole_whole _) (notFirst51 ⟨n + 1, hn⟩ h0) (isLast51 ⟨n + 1, hn⟩ h3) (iblk51 V c 0 ⟨n + 1, hn⟩) (iblk51 V c 1 ⟨n + 1, hn⟩) (outsAt51 c n (Nat.lt_of_succ_lt hn)).2,
       sout51_C c (grid51.coords ⟨n + 1, hn⟩) (ms51_0 ⟨n + 1, hn⟩) (hs51_0 ⟨n + 1, hn⟩) (ms51_1 ⟨n + 1, hn⟩) (hs51_1 ⟨n + 1, hn⟩) (ms51_2 ⟨n + 1, hn⟩) (hs51_2 ⟨n + 1, hn⟩) scM51 (Memref.isWhole_whole _) (notFirst51 ⟨n + 1, hn⟩ h0) (isLast51 ⟨n + 1, hn⟩ h3) (iblk51 V c 0 ⟨n + 1, hn⟩) (iblk51 V c 1 ⟨n + 1, hn⟩) (outsAt51 c n (Nat.lt_of_succ_lt hn)).2)
    else
      (outIdle51, sout51_B c (grid51.coords ⟨n + 1, hn⟩) (ms51_0 ⟨n + 1, hn⟩) (hs51_0 ⟨n + 1, hn⟩) (ms51_1 ⟨n + 1, hn⟩) (hs51_1 ⟨n + 1, hn⟩) (ms51_2 ⟨n + 1, hn⟩) (hs51_2 ⟨n + 1, hn⟩) scM51 (Memref.isWhole_whole _) (notFirst51 ⟨n + 1, hn⟩ h0) (notLast51 ⟨n + 1, hn⟩ h3) (iblk51 V c 0 ⟨n + 1, hn⟩) (iblk51 V c 1 ⟨n + 1, hn⟩) (outsAt51 c n (Nat.lt_of_succ_lt hn)).2)

/-- `outsAt51` at a point with k = 0. -/
theorem outsAt51_A (c : Dev nD) (t : Fin cfg51.N) (h0 : t.val % 4 = 0) :
    outsAt51 V c t.val t.isLt = (outIdle51, sout51_A c (grid51.coords t) (ms51_0 t) (hs51_0 t) (ms51_1 t) (hs51_1 t) (ms51_2 t) (hs51_2 t) scM51 (Memref.isWhole_whole _) (isFirst51 t h0) (notLast51 t (by omega)) (iblk51 V c 0 t) (iblk51 V c 1 t)) := by
  obtain ⟨n, hn⟩ := t
  cases n with
  | zero => rfl
  | succ n => exact (dif_pos h0).trans rfl

/-- `outsAt51` at a point with k = 1, 2: over what the point before left. -/
theorem outsAt51_B (c : Dev nD) (t : Fin cfg51.N) (h0 : ¬t.val % 4 = 0) (h3 : ¬t.val % 4 = 3) :
    outsAt51 V c t.val t.isLt = (outIdle51, sout51_B c (grid51.coords t) (ms51_0 t) (hs51_0 t) (ms51_1 t) (hs51_1 t) (ms51_2 t) (hs51_2 t) scM51 (Memref.isWhole_whole _) (notFirst51 t h0) (notLast51 t h3) (iblk51 V c 0 t) (iblk51 V c 1 t)
      (outsAt51 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt51` at a point with k = 3. -/
theorem outsAt51_C (c : Dev nD) (t : Fin cfg51.N) (h0 : ¬t.val % 4 = 0) (h3 : t.val % 4 = 3) :
    outsAt51 V c t.val t.isLt = (out51_C c (grid51.coords t) (ms51_0 t) (hs51_0 t) (ms51_1 t) (hs51_1 t) (ms51_2 t) (hs51_2 t) scM51 (Memref.isWhole_whole _) (notFirst51 t h0) (isLast51 t h3) (iblk51 V c 0 t) (iblk51 V c 1 t)
        (outsAt51 V c (t.val - 1) (Nat.lt_of_le_of_lt (Nat.sub_le _ _) t.isLt)).2,
      sout51_C c (grid51.coords t) (ms51_0 t) (hs51_0 t) (ms51_1 t) (hs51_1 t) (ms51_2 t) (hs51_2 t) scM51 (Memref.isWhole_whole _) (notFirst51 t h0) (isLast51 t h3) (iblk51 V c 0 t) (iblk51 V c 1 t)
        (outsAt51 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS51 (c : Dev nD) : (n : ℕ) → n ≤ cfg51.N → sProp 𝕄
  | 0, _ => Pipeline.ΦA spec51 c
  | n + 1, hn => iprop(iprop(owns (c : Thread nD τ) scM51 fullShare ((outsAt51 V c n hn).2) ∗ restBut51 c) ∗ (∃ r, prngReg c r))

theorem PhiS51_zero (c : Dev nD) (n : ℕ) (h : n ≤ cfg51.N) (hz : n = 0) : PhiS51 V c n h = Pipeline.ΦA spec51 c := by
  subst hz; rfl
theorem PhiS51_succ (c : Dev nD) (n : ℕ) (hn : n < cfg51.N) :
    PhiS51 V c (n + 1) hn = iprop(iprop(owns (c : Thread nD τ) scM51 fullShare ((outsAt51 V c n hn).2) ∗ restBut51 c) ∗ (∃ r, prngReg c r)) := rfl
theorem PhiS51_pos (c : Dev nD) (n : ℕ) (h : n ≤ cfg51.N) (hz : n ≠ 0) :
    PhiS51 V c n h = iprop(iprop(owns (c : Thread nD τ) scM51 fullShare ((outsAt51 V c (n - 1) (by omega)).2) ∗ restBut51 c) ∗ (∃ r, prngReg c r)) := by
  cases n with
  | zero => exact absurd rfl hz
  | succ n => rfl

/-! ## The proof data -/

/-- The region's proof data on core `c`: the arrays as the region finds them; after the body at point `t` each input's
    buffer at its block and the output's at `outsAt51`'s first component; the invariant `PhiS51`; nothing owed; full shares. -/
noncomputable def dat51 (c : Dev nD) : Dat τ (Elt F) Unit ℕ (UR sig nD τ) ℕ cfg51 c where
  A w := V c (Pipeline.arrRef spec51 w)
  after w t := match w with
    | ⟨0, _⟩ => iblk51 V c 0 t
    | ⟨1, _⟩ => iblk51 V c 1 t
    | ⟨2, _⟩ => (outsAt51 V c t.val t.isLt).1
  Φ t := PhiS51 V c t.val (Nat.le_of_lt_succ t.isLt)
  q _ := fullShare
  owed _ := 0

theorem A_eq51 (c : Dev nD) (w : Fin cfg51.W) : (dat51 V c).A w = V c (Pipeline.arrRef spec51 w) := by
  dsimp only [dat51]
theorem PhiS51_castSucc (c : Dev nD) (t : Fin cfg51.N) :
    (dat51 V c).Φ t.castSucc = PhiS51 V c t.val (Nat.le_of_lt t.isLt) := by
  dsimp only [dat51]; simp only [Fin.coe_castSucc]
theorem after51_0 (c : Dev nD) (t : Fin cfg51.N) : (dat51 V c).after 0 t = iblk51 V c 0 t := by dsimp only [dat51]
theorem after51_1 (c : Dev nD) (t : Fin cfg51.N) : (dat51 V c).after 1 t = iblk51 V c 1 t := by dsimp only [dat51]
theorem after51_2 (c : Dev nD) (t : Fin cfg51.N) : (dat51 V c).after 2 t = (outsAt51 V c t.val t.isLt).1 := by dsimp only [dat51]
theorem before51_0 (c : Dev nD) (t : Fin cfg51.N) (d) : (dat51 V c).before 0 t d = iblk51 V c 0 t :=
  before51_0_of V (dat51 V c) (A_eq51 V c 0) (after51_0 V c) t d
theorem before51_1 (c : Dev nD) (t : Fin cfg51.N) (d) : (dat51 V c).before 1 t d = iblk51 V c 1 t :=
  before51_1_of V (dat51 V c) (A_eq51 V c 1) (after51_1 V c) t d

/-! ## The body's obligation -/

noncomputable def bodyPre51 (c : Dev nD) (t : Fin cfg51.N) : sProp 𝕄 :=
  iprop((dat51 V c).Φ t.castSucc ∗ (dat51 V c).owesAt () t.castSucc
    ∗ (∃ d, owns (c : Thread nD τ) (ms51_0 t) fullShare ((dat51 V c).before 0 t d))
    ∗ (∃ d, owns (c : Thread nD τ) (ms51_1 t) fullShare ((dat51 V c).before 1 t d))
    ∗ (∃ d, owns (c : Thread nD τ) (ms51_2 t) fullShare ((dat51 V c).before 2 t d)))

noncomputable def bodyPost51 (c : Dev nD) (t : Fin cfg51.N) : sProp 𝕄 :=
  iprop((dat51 V c).Φ t.succ ∗ (dat51 V c).owesAt () t.succ
    ∗ (dat51 V c).leavesExact 0 t
    ∗ (dat51 V c).leavesExact 1 t
    ∗ (dat51 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body51 (c : Dev nD) (t : Fin cfg51.N) :
    bodyPre51 V c t ⊢ wp frame (wpE (defs₀ (F := F)) Variants.none c none) Set.univ (bodyAt51 t) (fun _ => bodyPost51 V c t) := by
  unfold bodyPre51 bodyPost51 bodyAt51
  simp only [before51_0, before51_1]
  rw [show (dat51 V c).owesAt () t.succ = (dat51 V c).owesAt () t.castSucc from rfl]
  rw [show (dat51 V c).Φ t.succ = PhiS51 V c (t.val + 1) t.isLt from rfl, PhiS51_succ]
  rw [show (dat51 V c).leavesExact 0 t = owns (c : Thread nD τ) (ms51_0 t) fullShare ((dat51 V c).after 0 t) from by
    unfold Dat.leavesExact; rw [liveAt51_0 t], after51_0]
  rw [show (dat51 V c).leavesExact 1 t = owns (c : Thread nD τ) (ms51_1 t) fullShare ((dat51 V c).after 1 t) from by
    unfold Dat.leavesExact; rw [liveAt51_1 t], after51_1]
  by_cases h0 : t.val % 4 = 0
  · have h3 : ¬t.val % 4 = 3 := by omega
    rw [Dat.leavesExact_idle (dat51 V c) 2 t (idleAt51_2 t (notLast51 t h3)) (noFlush51_2 t (notLast51 t h3))]
    rw [outsAt51_A V c t h0]
    unfold sout51_A; (try dsimp only)
    by_cases hz : t.val = 0
    · rw [PhiS51_castSucc V c t, PhiS51_zero V c _ _ hz, PhiA51_eq]
      iintro ⟨⟨⟨HS0, Hrb⟩, Hg⟩, Ho, ⟨%d0, H0⟩, ⟨%d1, H1⟩, ⟨%d2, H2⟩⟩
      iapply ((kernelRun51_A c (grid51.coords t) _ _ _ _ _ _ _ _ (isFirst51 t h0) (notLast51 t (by omega)) (iblk51 V c 0 t) (iblk51 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover51_A c _ _ _ _ _ _ _ _ _ _ _ _ _)
          iexact Hrb
        iexact Hg
      isplitl [Ho]; · iexact Ho
      isplitl [H0]; · iexact H0
      isplitl [H1]; · iexact H1
      iexists _; iexact H2
    · rw [PhiS51_castSucc V c t, PhiS51_pos V c _ _ hz]
      iintro ⟨⟨⟨HS0, Hrb⟩, Hg⟩, Ho, ⟨%d0, H0⟩, ⟨%d1, H1⟩, ⟨%d2, H2⟩⟩
      iapply ((kernelRun51_A c (grid51.coords t) _ _ _ _ _ _ _ _ (isFirst51 t h0) (notLast51 t (by omega)) (iblk51 V c 0 t) (iblk51 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover51_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat51 V c).leavesExact 2 t = owns (c : Thread nD τ) (ms51_2 t) fullShare ((dat51 V c).after 2 t) from by
        unfold Dat.leavesExact; rw [liveAt51_2 t (isLast51 t h3)], after51_2]
      rw [outsAt51_C V c t h0 h3]
      unfold out51_C sout51_C; (try dsimp only)
      rw [PhiS51_castSucc V c t, PhiS51_pos V c _ _ hz]
      iintro ⟨⟨⟨HS0, Hrb⟩, Hg⟩, Ho, ⟨%d0, H0⟩, ⟨%d1, H1⟩, ⟨%d2, H2⟩⟩
      iapply ((kernelRun51_C c (grid51.coords t) _ _ _ _ _ _ _ _ (notFirst51 t h0) (isLast51 t h3) (iblk51 V c 0 t) (iblk51 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover51_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover51_C c _ _ _ _ _ _ _ _ _ _ _ _ _ _)
    · rw [Dat.leavesExact_idle (dat51 V c) 2 t (idleAt51_2 t (notLast51 t h3)) (noFlush51_2 t (notLast51 t h3))]
      rw [outsAt51_B V c t h0 h3]
      unfold sout51_B; (try dsimp only)
      rw [PhiS51_castSucc V c t, PhiS51_pos V c _ _ hz]
      iintro ⟨⟨⟨HS0, Hrb⟩, Hg⟩, Ho, ⟨%d0, H0⟩, ⟨%d1, H1⟩, ⟨%d2, H2⟩⟩
      iapply ((kernelRun51_B c (grid51.coords t) _ _ _ _ _ _ _ _ (notFirst51 t h0) (notLast51 t h3) (iblk51 V c 0 t) (iblk51 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover51_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation51 (c : Dev nD) : BodyObligation (dat51 (F := F) V c) (defs₀ (F := F)) Variants.none () Set.univ := fun t => by
  rw [bigSep_W51, bigSep_W51]
  exact sound_body51 V c t

/-- What the region is entered with is the invariant before the first point. -/
theorem hin51 (c : Dev nD) : Pipeline.ΦA spec51 c ⊢ (dat51 V c).Φ 0 := by
  rw [show (dat51 V c).Φ 0 = PhiS51 V c 0 (Nat.zero_le _) from rfl, PhiS51_zero V c 0 _ rfl]
  try exact Idealize.SL.BI.Entails.refl _

/-- After the last point the invariant gives the class's back: the accumulator's contents are forgotten. -/
theorem hout51 (c : Dev nD) : (dat51 V c).Φ (Fin.last cfg51.N) ⊢ Pipeline.ΦA spec51 c := by
  have hN : cfg51.N = 16 := N_51
  rw [show (dat51 V c).Φ (Fin.last cfg51.N) = PhiS51 V c (Fin.last cfg51.N).val (Nat.le_of_lt_succ (Fin.last cfg51.N).isLt) from rfl,
    PhiS51_pos V c _ _ (by rw [Fin.val_last]; omega), PhiA51_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI52a.lean ====
/- Laid out by: python3 scratch/layout_grid41.py --template-region 0 --region 52 --program KernelIdeal --parts a, --shapes S1024x128=S1024x512,S128x512=S512x512
   from the hand-written text of region 0 (RegKI0a.lean): the same text, the region's number, block shapes substituted. -/
/- The region of KernelIdeal's @main that runs `cc52__matmul_kernel` (pipeline `cfg52`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond52_0 (i : grid52.Coords) : Prop :=
  (Scalar.cmpi .ne (Scalar.extui (Scalar.cmpi .eq (BitVec.ofNat 32 (i 1).val) 0#32)) 0#32) = 1#1
/-- True at every point: the reduction axis has one step. -/
theorem hcond52_0 : ∀ t : Fin cfg52.N, cond52_0 (grid52.coords t) :=
  (by decide +kernel : ∀ t : Fin grid52.N, cond52_0 (grid52.coords t))

/-- "This is the last reduction step" (the guard of the copy to the output block). -/
abbrev cond52_1 (i : grid52.Coords) : Prop := k52_cond2 i = 1#1
/-- True at every point, for the same reason. -/
theorem hcond52_1 : ∀ t : Fin cfg52.N, cond52_1 (grid52.coords t) :=
  (by decide +kernel : ∀ t : Fin grid52.N, cond52_1 (grid52.coords t))

/-! ## No window is idle anywhere -/

theorem liveAt52_0 : ∀ t : Fin cfg52.N, cfg52.idle 0 (grid52.coords t) = false := by decide +kernel
theorem liveAt52_1 : ∀ t : Fin cfg52.N, cfg52.idle 1 (grid52.coords t) = false := by decide +kernel
/-- The output window is stored at every point (the copy's guard holds everywhere). -/
theorem liveAt52_2 : ∀ t : Fin cfg52.N, cfg52.idle 2 (grid52.coords t) = false := by decide +kernel

/-! ## The memrefs the body is called on -/

/-- One staging buffer of the output window, through which its contents are stated (any whole view of the shape reads the
    same pieces back the same way). -/
abbrev VO52_2 : View sig .tc .vmem S1024x512 .f32 := (Memref.whole cc52_stg2_0 : Memref sig .tc .vmem S1024x512 .f32).view
/-- Each window's current staging memref at point `t`, spelt as the pipeline passes it, with its wholeness. -/
abbrev ms52_0 (t : Fin cfg52.N) : Memref sig .tc .vmem S1024x512 .f32 := win52_0.stage (cfg52.slots t 0)
abbrev hs52_0 (t : Fin cfg52.N) : (ms52_0 t).IsWhole := hstage52_0 ((cfg52.slots t 0).cast nbuf52_0)
abbrev ms52_1 (t : Fin cfg52.N) : Memref sig .tc .vmem S512x512 .bf16 := win52_1.stage (cfg52.slots t 1)
abbrev hs52_1 (t : Fin cfg52.N) : (ms52_1 t).IsWhole := hstage52_1 ((cfg52.slots t 1).cast nbuf52_1)
abbrev ms52_2 (t : Fin cfg52.N) : Memref sig .tc .vmem S1024x512 .f32 := win52_2.stage (cfg52.slots t 2)
abbrev hs52_2 (t : Fin cfg52.N) : (ms52_2 t).IsWhole := hstage52_2 ((cfg52.slots t 2).cast nbuf52_2)
/-- The accumulator: a whole scoped buffer of the kernel's own, passed beside the windows. -/
abbrev scM52_0 : Memref sig .tc .vmem S1024x512 .f32 := Memref.whole cc52_scratch0
abbrev VS52_0 : View sig .tc .vmem S1024x512 .f32 := scM52_0.view

/-- The region invariant with the accumulator taken out of the scoped rest: the accumulator owned at some contents, every
    other scoped buffer unopened, and the generator register. -/
theorem PhiA52_eq (c : Dev nD) :
    (Pipeline.ΦA spec52 c : sProp 𝕄)
      = iprop(iprop(iprop((∃ d, owns (c : Thread nD τ) scM52_0 fullShare d))
            ∗ Pipeline.scopedRestBut (Ix := Unit) (Name := ℕ) (U := UR sig nD τ) (Lvl := ℕ) (Val := Elt F) spec52 c [cc52_scratch0])
          ∗ (∃ r, prngReg c r)) := by
  unfold Pipeline.ΦA; rw [scopedRest52_split]; simp only [scM52_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun52 (c : Dev nD) (i : grid52.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond52_0 i) (hlast : cond52_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc52__matmul_kernel i arg2 harg2 arg3 harg3 arg4 harg4 arg5 harg5) K } := by
  refine ⟨?_, ?_, fun E K => ?run⟩
  case run =>
    simp only [cc52__matmul_kernel_eq_skeleton]; unfold cc52__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.KernelIdeal.Hand

end
-- ==== Proof.RegKI52.lean ====
/- Laid out by: python3 scratch/layout_grid41.py --template-region 0 --region 52 --program KernelIdeal --parts a, --shapes S1024x128=S1024x512,S128x512=S512x512
   from the hand-written text of region 0 (RegKI0.lean): the same text, the region's number, block shapes substituted. -/
/- The region of KernelIdeal's @main that runs `cc52__matmul_kernel` (pipeline `cfg52`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegKI52a
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk52 (c : Dev nD) (w : Fin cfg52.W) (t : Fin cfg52.N) : ((cfg52.win w).xblock (cfg52.grid.coords t)).Idx → Elt F (cfg52.win w).elt :=
  ((cfg52.win w).blk t).view.read (Elt F) (V c (Pipeline.arrRef spec52 w))

/-! ## What the case leaves, as pieces read back -/

/-- The output's pieces tile its block (one whole-block store). -/
theorem cover52_2 (c : Dev nD) (i : grid52.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond52_0 i) (hlast : cond52_1 i) (xa : Vec F S1024x512 .f32) (xb : Vec F S512x512 .bf16) (y : S1024x512.Idx) :
    ∃ pc ∈ (kernelRun52 c i arg2 harg2 arg3 harg3 arg4 harg4 arg5 harg5 hfirst hlast xa xb).1, y ∈ pc.1.set :=
  View.cover_of_tiledL (kernelRun52 c i arg2 harg2 arg3 harg3 arg4 harg4 arg5 harg5 hfirst hlast xa xb).1 S1024x512.size (by sl_kernel_rfl) y

/-- What the case leaves in the output's staging buffer: its pieces read back over junk. -/
noncomputable def out52_2 (c : Dev nD) (i : grid52.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond52_0 i) (hlast : cond52_1 i) (xa : Vec F S1024x512 .f32) (xb : Vec F S512x512 .bf16) : Vec F S1024x512 .f32 :=
  VO52_2.read (Elt F) (VO52_2.writes (Elt F) VO52_2.junk (kernelRun52 c i arg2 harg2 arg3 harg3 arg4 harg4 arg5 harg5 hfirst hlast xa xb).1)

/-- What the case leaves in the accumulator: its pieces read back over junk. -/
noncomputable def sout52_0 (c : Dev nD) (i : grid52.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond52_0 i) (hlast : cond52_1 i) (xa : Vec F S1024x512 .f32) (xb : Vec F S512x512 .bf16) : Vec F S1024x512 .f32 :=
  VS52_0.read (Elt F) (VS52_0.writes (Elt F) VS52_0.junk (kernelRun52 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout52_0_eq (c : Dev nD) (i : grid52.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond52_0 i) (hlast : cond52_1 i) (xa : Vec F S1024x512 .f32) (xb : Vec F S512x512 .bf16) :
    sout52_0 c i arg2 harg2 arg3 harg3 arg4 harg4 arg5 harg5 hfirst hlast xa xb = k52_pay2 xa xb (k52_pay1 (F := F)) := by
  unfold sout52_0
  rw [View.read_writes_junk_eq_canon]
  unfold kernelRun52
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out52_2_eq (c : Dev nD) (i : grid52.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond52_0 i) (hlast : cond52_1 i) (xa : Vec F S1024x512 .f32) (xb : Vec F S512x512 .bf16) :
    out52_2 c i arg2 harg2 arg3 harg3 arg4 harg4 arg5 harg5 hfirst hlast xa xb = k52_pay2 xa xb (k52_pay1 (F := F)) := by
  unfold out52_2
  rw [View.read_writes_junk_eq_canon]
  unfold kernelRun52
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt52 (c : Dev nD) (n : ℕ) (hn : n < cfg52.N) : Vec F S1024x512 .f32 × Vec F S1024x512 .f32 :=
  (out52_2 c (grid52.coords ⟨n, hn⟩) (ms52_0 ⟨n, hn⟩) (hs52_0 ⟨n, hn⟩) (ms52_1 ⟨n, hn⟩) (hs52_1 ⟨n, hn⟩) (ms52_2 ⟨n, hn⟩) (hs52_2 ⟨n, hn⟩) scM52_0 (Memref.isWhole_whole _)
      (hcond52_0 ⟨n, hn⟩) (hcond52_1 ⟨n, hn⟩) (iblk52 V c 0 ⟨n, hn⟩) (iblk52 V c 1 ⟨n, hn⟩),
   sout52_0 c (grid52.coords ⟨n, hn⟩) (ms52_0 ⟨n, hn⟩) (hs52_0 ⟨n, hn⟩) (ms52_1 ⟨n, hn⟩) (hs52_1 ⟨n, hn⟩) (ms52_2 ⟨n, hn⟩) (hs52_2 ⟨n, hn⟩) scM52_0 (Memref.isWhole_whole _)
      (hcond52_0 ⟨n, hn⟩) (hcond52_1 ⟨n, hn⟩) (iblk52 V c 0 ⟨n, hn⟩) (iblk52 V c 1 ⟨n, hn⟩))

/-- Every point is a first reduction step: the accumulator after it is one product onto zero. -/
theorem outsAt52_first (c : Dev nD) (t : Fin cfg52.N) :
    (outsAt52 V c t.val t.isLt).2 = k52_pay2 (iblk52 V c 0 t) (iblk52 V c 1 t) (k52_pay1 (F := F)) := by
  obtain ⟨n, hn⟩ := t
  unfold outsAt52
  dsimp only
  rw [sout52_0_eq]

/-- Every point is a last reduction step: the output block after it is the accumulator. -/
theorem outsAt52_last (c : Dev nD) (t : Fin cfg52.N) :
    (outsAt52 V c t.val t.isLt).1 = (outsAt52 V c t.val t.isLt).2 := by
  obtain ⟨n, hn⟩ := t
  unfold outsAt52
  dsimp only
  rw [out52_2_eq, sout52_0_eq]

/-! ## The pipeline's proof data -/

/-- The proof data of the pipeline on core `c`: the arrays as the region finds them; after the body at point `t` each input's
    buffer at its block and the output's at `outsAt52`'s first component; the invariant the same at every point; nothing owed;
    full shares. -/
noncomputable def dat52 (c : Dev nD) : Dat τ (Elt F) Unit ℕ (UR sig nD τ) ℕ cfg52 c where
  A w := V c (Pipeline.arrRef spec52 w)
  after w t := match w with
    | ⟨0, _⟩ => iblk52 V c 0 t
    | ⟨1, _⟩ => iblk52 V c 1 t
    | ⟨2, _⟩ => (outsAt52 V c t.val t.isLt).1
  Φ _ := Pipeline.ΦA spec52 c
  q _ := fullShare
  owed _ := 0

theorem A_eq52 (c : Dev nD) (w : Fin cfg52.W) : (dat52 V c).A w = V c (Pipeline.arrRef spec52 w) := by
  dsimp only [dat52]

theorem after52_0 (c : Dev nD) (t : Fin cfg52.N) : (dat52 V c).after 0 t = iblk52 V c 0 t := by dsimp only [dat52]
theorem after52_1 (c : Dev nD) (t : Fin cfg52.N) : (dat52 V c).after 1 t = iblk52 V c 1 t := by dsimp only [dat52]
theorem after52_2 (c : Dev nD) (t : Fin cfg52.N) : (dat52 V c).after 2 t = (outsAt52 V c t.val t.isLt).1 := by dsimp only [dat52]

/-- An input's current staging buffer holds its block at every point, fetched there or not: where it is not fetched its block
    index has not moved since the point before, and the body left the block in place. -/
theorem before52_0 (c : Dev nD) (t : Fin cfg52.N) (d) : (dat52 V c).before 0 t d = iblk52 V c 0 t :=
  ((dat52 V c).before_in_eq_fetched 0 rfl (fun _ => rfl) (fun _ _ _ => rfl)
      (fun t => by rw [after52_0]; unfold Dat.blockOf iblk52; rw [A_eq52]; try rfl) t d).trans
    (by unfold Dat.fetched Dat.blockOf iblk52; rw [A_eq52]; try rfl)
theorem before52_1 (c : Dev nD) (t : Fin cfg52.N) (d) : (dat52 V c).before 1 t d = iblk52 V c 1 t :=
  ((dat52 V c).before_in_eq_fetched 1 rfl (fun _ => rfl) (fun _ _ _ => rfl)
      (fun t => by rw [after52_1]; unfold Dat.blockOf iblk52; rw [A_eq52]; try rfl) t d).trans
    (by unfold Dat.fetched Dat.blockOf iblk52; rw [A_eq52]; try rfl)

/-! ## The body obligation, at a generic point -/

/-- What the body is called with at point `t`, the windows one by one, -/
noncomputable def bodyPre52 (c : Dev nD) (t : Fin cfg52.N) : sProp 𝕄 :=
  iprop((dat52 V c).Φ t.castSucc ∗ (dat52 V c).owesAt () t.castSucc
    ∗ (∃ d, owns (c : Thread nD τ) (ms52_0 t) fullShare ((dat52 V c).before 0 t d))
    ∗ (∃ d, owns (c : Thread nD τ) (ms52_1 t) fullShare ((dat52 V c).before 1 t d))
    ∗ (∃ d, owns (c : Thread nD τ) (ms52_2 t) fullShare ((dat52 V c).before 2 t d)))

/-- and what it returns. -/
noncomputable def bodyPost52 (c : Dev nD) (t : Fin cfg52.N) : sProp 𝕄 :=
  iprop((dat52 V c).Φ t.succ ∗ (dat52 V c).owesAt () t.succ
    ∗ (dat52 V c).leavesExact 0 t
    ∗ (dat52 V c).leavesExact 1 t
    ∗ (dat52 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body52 (c : Dev nD) (t : Fin cfg52.N) :
    bodyPre52 V c t ⊢ wp frame (wpE (defs₀ (F := F)) Variants.none c none) Set.univ (bodyAt52 t) (fun _ => bodyPost52 V c t) := by
  unfold bodyPre52 bodyPost52 bodyAt52
  simp only [before52_0, before52_1]
  rw [show (dat52 V c).owesAt () t.succ = (dat52 V c).owesAt () t.castSucc from rfl,
    show (dat52 V c).Φ t.succ = Pipeline.ΦA spec52 c from rfl, show (dat52 V c).Φ t.castSucc = Pipeline.ΦA spec52 c from rfl, PhiA52_eq]
  rw [show (dat52 V c).leavesExact 0 t = owns (c : Thread nD τ) (ms52_0 t) fullShare ((dat52 V c).after 0 t) from by
      unfold Dat.leavesExact; rw [liveAt52_0 t], after52_0]
  rw [show (dat52 V c).leavesExact 1 t = owns (c : Thread nD τ) (ms52_1 t) fullShare ((dat52 V c).after 1 t) from by
      unfold Dat.leavesExact; rw [liveAt52_1 t], after52_1]
  rw [show (dat52 V c).leavesExact 2 t = owns (c : Thread nD τ) (ms52_2 t) fullShare ((dat52 V c).after 2 t) from by
      unfold Dat.leavesExact; rw [liveAt52_2 t], after52_2]
  unfold outsAt52 out52_2; (try dsimp only)
  iintro ⟨⟨⟨Hacc, Hrest⟩, Hgen⟩, Howe, ⟨%da, Ha⟩, ⟨%db, Hb⟩, ⟨%dO, Hout⟩⟩
  iapply ((kernelRun52 c (grid52.coords t) _ _ _ _ _ _ _ _ (hcond52_0 t) (hcond52_1 t) (iblk52 V c 0 t) (iblk52 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover52_2 c _ _ _ _ _ _ _ _ _ _ _ _ _)

/-- The library's body obligation, at every point. -/
theorem body_obligation52 (c : Dev nD) : BodyObligation (dat52 (F := F) V c) (defs₀ (F := F)) Variants.none () Set.univ := fun t => by
  rw [bigSep_W52, bigSep_W52]
  exact sound_body52 V c t

/-- What the launch hands the region is the invariant before the first point, -/
theorem hin52 (c : Dev nD) : Pipeline.ΦA spec52 c ⊢ (dat52 V c).Φ 0 := Idealize.SL.BI.Entails.refl _

/-- and the invariant after the last point is what the launch takes back. -/
theorem hout52 (c : Dev nD) : (dat52 V c).Φ (Fin.last cfg52.N) ⊢ Pipeline.ΦA spec52 c := Idealize.SL.BI.Entails.refl _

end Cert.KernelIdeal.Hand

end
-- ==== Proof.RegKI53a.lean ====
/- Laid out by: python3 scratch/layout_regions.py --template-region 1 --region 53 --program KernelIdeal --parts a,b,c, --out-dir proof/Proof
   from the hand-written text of region 1 (RegKI1a.lean): the same text, the region's number substituted. -/
/-
  Region 53 of @main (custom_call 53): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond53_0 (i : grid53.Coords) : Prop := (Scalar.cmpi .ne (Scalar.extui (Scalar.cmpi .eq (BitVec.ofNat 32 (i 1).val) 0#32)) 0#32) = 1#1
/-- It holds exactly at the points with t % 4 = 0. -/
theorem hcond53_0 : ∀ t : Fin cfg53.N, cond53_0 (grid53.coords t) ↔ t.val % 4 = 0 :=
  (by decide +kernel : ∀ t : Fin grid53.N, cond53_0 (grid53.coords t) ↔ t.val % 4 = 0)

/-- "k = 3": the second conditional's test. -/
abbrev cond53_1 (i : grid53.Coords) : Prop := k53_cond2 i = 1#1
/-- It holds exactly at the points with t % 4 = 3. -/
theorem hcond53_1 : ∀ t : Fin cfg53.N, cond53_1 (grid53.coords t) ↔ t.val % 4 = 3 :=
  (by decide +kernel : ∀ t : Fin grid53.N, cond53_1 (grid53.coords t) ↔ t.val % 4 = 3)

/-! ## Where the windows are idle, and where the output is written back -/

/-- The two input windows are never idle. -/
theorem liveAt53_0 : ∀ t : Fin cfg53.N, cfg53.idle 0 (grid53.coords t) = false := by decide +kernel
theorem liveAt53_1 : ∀ t : Fin cfg53.N, cfg53.idle 1 (grid53.coords t) = false := by decide +kernel
/-- Where k ≠ 3 the output window is idle (the body stores nothing into it) and is not written back. -/
theorem idleAt53_2 : ∀ t : Fin cfg53.N, ¬cond53_1 (grid53.coords t) → cfg53.idle 2 (grid53.coords t) = true := by decide +kernel
theorem noFlush53_2 : ∀ t : Fin cfg53.N, ¬cond53_1 (grid53.coords t) → (cfg53.win 2).flush t = false := by decide +kernel
/-- Where k = 3 it is live. -/
theorem liveAt53_2 : ∀ t : Fin cfg53.N, cond53_1 (grid53.coords t) → cfg53.idle 2 (grid53.coords t) = false := by decide +kernel

/-! ## The staging memrefs at a point, and the scratch -/

/-- One staging buffer of the output window, through which its contents are stated. -/
abbrev VO53_2 : View sig .tc .vmem S1024x512 .f32 := (Memref.whole cc53_stg2_0 : Memref sig .tc .vmem S1024x512 .f32).view
abbrev ms53_0 (t : Fin cfg53.N) : Memref sig .tc .vmem S1024x1024 .bf16 := win53_0.stage (cfg53.slots t 0)
abbrev hs53_0 (t : Fin cfg53.N) : (ms53_0 t).IsWhole := hstage53_0 ((cfg53.slots t 0).cast nbuf53_0)
abbrev ms53_1 (t : Fin cfg53.N) : Memref sig .tc .vmem S1024x512 .f32 := win53_1.stage (cfg53.slots t 1)
abbrev hs53_1 (t : Fin cfg53.N) : (ms53_1 t).IsWhole := hstage53_1 ((cfg53.slots t 1).cast nbuf53_1)
abbrev ms53_2 (t : Fin cfg53.N) : Memref sig .tc .vmem S1024x512 .f32 := win53_2.stage (cfg53.slots t 2)
abbrev hs53_2 (t : Fin cfg53.N) : (ms53_2 t).IsWhole := hstage53_2 ((cfg53.slots t 2).cast nbuf53_2)
/-- The accumulator: a whole scoped buffer of the kernel's own. -/
abbrev scM53 : Memref sig .tc .vmem S1024x512 .f32 := Memref.whole cc53_scratch0
abbrev VS53 : View sig .tc .vmem S1024x512 .f32 := scM53.view

/-- The other scoped buffers of the core, none of which this region touches. -/
abbrev restBut53 (c : Dev nD) : sProp 𝕄 :=
  Pipeline.scopedRestBut (Ix := Unit) (Name := ℕ) (U := UR sig nD τ) (Lvl := ℕ) (Val := Elt F) spec53 c [cc53_scratch0]

/-- The region's invariant before its first point: the accumulator at something, the other scoped buffers, the generator register. -/
theorem PhiA53_eq (c : Dev nD) :
    (Pipeline.ΦA spec53 c : sProp 𝕄)
      = iprop(iprop((∃ d, owns (c : Thread nD τ) scM53 fullShare d) ∗ restBut53 c) ∗ (∃ r, prngReg c r)) := by
  unfold Pipeline.ΦA; rw [scopedRest53_split]; simp only [scM53, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun53_A (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond53_0 i) (hc1 : ¬cond53_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc53__matmul_kernel i arg2 harg2 arg3 harg3 arg4 harg4 arg5 harg5) K } := by
  refine ⟨[], ?_, fun xi2 E K => ?run⟩
  case run =>
    simp only [cc53__matmul_kernel_eq_skeleton]; unfold cc53__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI53b.lean ====
/- Laid out by: python3 scratch/layout_regions.py --template-region 1 --region 53 --program KernelIdeal --parts a,b,c, --out-dir proof/Proof
   from the hand-written text of region 1 (RegKI1b.lean): the same text, the region's number substituted. -/
/-
  Region 53, case B (k = 1, 2): the body's run. Neither conditional is taken: the product of the two blocks is added to what
  the point before left in the accumulator; the output block is not touched.
-/
import proofs.«158944_j64613488001249_1_alg».proof.Proof.RegKI53a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun53_B (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond53_0 i) (hc1 : ¬cond53_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc53__matmul_kernel i arg2 harg2 arg3 harg3 arg4 harg4 arg5 harg5) K } := by
  refine ⟨[], ?_, fun xi2 E K => ?run⟩
  case run =>
    simp only [cc53__matmul_kernel_eq_skeleton]; unfold cc53__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI53c.lean ====
/- Laid out by: python3 scratch/layout_regions.py --template-region 1 --region 53 --program KernelIdeal --parts a,b,c, --out-dir proof/Proof
   from the hand-written text of region 1 (RegKI1c.lean): the same text, the region's number substituted. -/
/-
  Region 53, case C (k = 3): the body's run. The product is added to the accumulator as in case B, and then the second
  conditional copies the accumulator over the whole output block.
-/
import proofs.«158944_j64613488001249_1_alg».proof.Proof.RegKI53b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun53_C (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond53_0 i) (hc1 : cond53_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc53__matmul_kernel i arg2 harg2 arg3 harg3 arg4 harg4 arg5 harg5) K } := by
  refine ⟨?_, ?_, fun E K => ?run⟩
  case run =>
    simp only [cc53__matmul_kernel_eq_skeleton]; unfold cc53__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI53.lean ====
/- Laid out by: python3 scratch/layout_regions.py --template-region 1 --region 53 --program KernelIdeal --parts a,b,c, --out-dir proof/Proof
   from the hand-written text of region 1 (RegKI1.lean): the same text, the region's number substituted. -/
/-
  Region 53 of @main, entered from the buffer contents `V`: what its windows' blocks are, what each case of the body leaves in
  the accumulator and in the output block, the accumulator and the output block point by point (`outsAt53`: at k = 0 the
  accumulator restarts from zeros plus the product; at k = 1, 2, 3 it is the point before's plus the product; at k = 3 the
  output block is the accumulator), the region's invariant (the accumulator at `outsAt53`'s second component), the proof data,
  and the body's obligation at every point.
-/
import proofs.«158944_j64613488001249_1_alg».proof.Proof.RegKI53c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk53 (c : Dev nD) (w : Fin cfg53.W) (t : Fin cfg53.N) : ((cfg53.win w).xblock (cfg53.grid.coords t)).Idx → Elt F (cfg53.win w).elt :=
  ((cfg53.win w).blk t).view.read (Elt F) (V c (Pipeline.arrRef spec53 w))

/-- An input window's current staging buffer holds its block at every point, for any proof data whose array is `V`'s and
    whose body leaves the block in place. -/
theorem before53_0_of {c : Dev nD} (dat : Dat τ (Elt F) Unit ℕ (UR sig nD τ) ℕ cfg53 c) (hA : dat.A 0 = V c (Pipeline.arrRef spec53 0))
    (hafter : ∀ t, dat.after 0 t = iblk53 V c 0 t) (t : Fin cfg53.N) (d) : dat.before 0 t d = iblk53 V c 0 t :=
  (dat.before_in_eq_fetched 0 rfl (fun _ => rfl) (fun _ _ _ => rfl) (fun t => by rw [hafter]; unfold Dat.blockOf iblk53; rw [hA]; try rfl) t d).trans
    (by unfold Dat.fetched Dat.blockOf iblk53; rw [hA]; try rfl)
theorem before53_1_of {c : Dev nD} (dat : Dat τ (Elt F) Unit ℕ (UR sig nD τ) ℕ cfg53 c) (hA : dat.A 1 = V c (Pipeline.arrRef spec53 1))
    (hafter : ∀ t, dat.after 1 t = iblk53 V c 1 t) (t : Fin cfg53.N) (d) : dat.before 1 t d = iblk53 V c 1 t :=
  (dat.before_in_eq_fetched 1 rfl (fun _ => rfl) (fun _ _ _ => rfl) (fun t => by rw [hafter]; unfold Dat.blockOf iblk53; rw [hA]; try rfl) t d).trans
    (by unfold Dat.fetched Dat.blockOf iblk53; rw [hA]; try rfl)

/-! ## What each case leaves -/

/-- Case A's stores into the accumulator cover it. -/
theorem scover53_A (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond53_0 i) (hc1 : ¬cond53_1 i)
    (x0 : Vec F S1024x1024 .bf16) (x1 : Vec F S1024x512 .f32) (y : S1024x512.Idx) :
    ∃ pc ∈ (kernelRun53_A c i arg2 harg2 arg3 harg3 arg4 harg4 arg5 harg5 hc0 hc1 x0 x1).2.1, y ∈ pc.1.set :=
  View.cover_of_tiledL (kernelRun53_A c i arg2 harg2 arg3 harg3 arg4 harg4 arg5 harg5 hc0 hc1 x0 x1).2.1 S1024x512.size (by sl_kernel_rfl) y
/-- What case A leaves in the accumulator. -/
noncomputable def sout53_A (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond53_0 i) (hc1 : ¬cond53_1 i)
    (x0 : Vec F S1024x1024 .bf16) (x1 : Vec F S1024x512 .f32) : Vec F S1024x512 .f32 :=
  VS53.read (Elt F) (VS53.writes (Elt F) VS53.junk (kernelRun53_A c i arg2 harg2 arg3 harg3 arg4 harg4 arg5 harg5 hc0 hc1 x0 x1).2.1)

/-- Case B's store into the accumulator covers it. -/
theorem scover53_B (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond53_0 i) (hc1 : ¬cond53_1 i)
    (x0 : Vec F S1024x1024 .bf16) (x1 : Vec F S1024x512 .f32) (xs0 : Vec F S1024x512 .f32) (y : S1024x512.Idx) :
    ∃ pc ∈ (kernelRun53_B c i arg2 harg2 arg3 harg3 arg4 harg4 arg5 harg5 hc0 hc1 x0 x1 xs0).2.1, y ∈ pc.1.set :=
  View.cover_of_tiledL (kernelRun53_B c i arg2 harg2 arg3 harg3 arg4 harg4 arg5 harg5 hc0 hc1 x0 x1 xs0).2.1 S1024x512.size (by sl_kernel_rfl) y
/-- What case B leaves in the accumulator, over what the point before left. -/
noncomputable def sout53_B (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond53_0 i) (hc1 : ¬cond53_1 i)
    (x0 : Vec F S1024x1024 .bf16) (x1 : Vec F S1024x512 .f32) (xs0 : Vec F S1024x512 .f32) : Vec F S1024x512 .f32 :=
  VS53.read (Elt F) (VS53.writes (Elt F) VS53.junk (kernelRun53_B c i arg2 harg2 arg3 harg3 arg4 harg4 arg5 harg5 hc0 hc1 x0 x1 xs0).2.1)

/-- Case C's store into the output block covers it, and so does its store into the accumulator. -/
theorem cover53_C (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond53_0 i) (hc1 : cond53_1 i)
    (x0 : Vec F S1024x1024 .bf16) (x1 : Vec F S1024x512 .f32) (xs0 : Vec F S1024x512 .f32) (y : S1024x512.Idx) :
    ∃ pc ∈ (kernelRun53_C c i arg2 harg2 arg3 harg3 arg4 harg4 arg5 harg5 hc0 hc1 x0 x1 xs0).1, y ∈ pc.1.set :=
  View.cover_of_tiledL (kernelRun53_C c i arg2 harg2 arg3 harg3 arg4 harg4 arg5 harg5 hc0 hc1 x0 x1 xs0).1 S1024x512.size (by sl_kernel_rfl) y
theorem scover53_C (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond53_0 i) (hc1 : cond53_1 i)
    (x0 : Vec F S1024x1024 .bf16) (x1 : Vec F S1024x512 .f32) (xs0 : Vec F S1024x512 .f32) (y : S1024x512.Idx) :
    ∃ pc ∈ (kernelRun53_C c i arg2 harg2 arg3 harg3 arg4 harg4 arg5 harg5 hc0 hc1 x0 x1 xs0).2.1, y ∈ pc.1.set :=
  View.cover_of_tiledL (kernelRun53_C c i arg2 harg2 arg3 harg3 arg4 harg4 arg5 harg5 hc0 hc1 x0 x1 xs0).2.1 S1024x512.size (by sl_kernel_rfl) y
/-- What case C leaves in the output block, and in the accumulator. -/
noncomputable def out53_C (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond53_0 i) (hc1 : cond53_1 i)
    (x0 : Vec F S1024x1024 .bf16) (x1 : Vec F S1024x512 .f32) (xs0 : Vec F S1024x512 .f32) : Vec F S1024x512 .f32 :=
  VO53_2.read (Elt F) (VO53_2.writes (Elt F) VO53_2.junk (kernelRun53_C c i arg2 harg2 arg3 harg3 arg4 harg4 arg5 harg5 hc0 hc1 x0 x1 xs0).1)
noncomputable def sout53_C (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond53_0 i) (hc1 : cond53_1 i)
    (x0 : Vec F S1024x1024 .bf16) (x1 : Vec F S1024x512 .f32) (xs0 : Vec F S1024x512 .f32) : Vec F S1024x512 .f32 :=
  VS53.read (Elt F) (VS53.writes (Elt F) VS53.junk (kernelRun53_C c i arg2 harg2 arg3 harg3 arg4 harg4 arg5 harg5 hc0 hc1 x0 x1 xs0).2.1)

/-- Where the output block is idle nothing consults what it holds: a placeholder. -/
noncomputable def outIdle53 : Vec F S1024x512 .f32 := VO53_2.read (Elt F) (VO53_2.writes (Elt F) VO53_2.junk [])

/-! ## The conditions at a point, from t % 4 -/

theorem isFirst53 (t : Fin cfg53.N) (h : t.val % 4 = 0) : cond53_0 (grid53.coords t) := (hcond53_0 t).mpr h
theorem notFirst53 (t : Fin cfg53.N) (h : ¬t.val % 4 = 0) : ¬cond53_0 (grid53.coords t) := fun hc => h ((hcond53_0 t).mp hc)
theorem isLast53 (t : Fin cfg53.N) (h : t.val % 4 = 3) : cond53_1 (grid53.coords t) := (hcond53_1 t).mpr h
theorem notLast53 (t : Fin cfg53.N) (h : ¬t.val % 4 = 3) : ¬cond53_1 (grid53.coords t) := fun hc => h ((hcond53_1 t).mp hc)

/-! ## The accumulator and the output block, point by point -/

/-- After the body at position `n`: (the output block's buffer, the accumulator). -/
noncomputable def outsAt53 (c : Dev nD) : (n : ℕ) → n < cfg53.N → Vec F S1024x512 .f32 × Vec F S1024x512 .f32
  | 0, hn => (outIdle53, sout53_A c (grid53.coords ⟨0, hn⟩) (ms53_0 ⟨0, hn⟩) (hs53_0 ⟨0, hn⟩) (ms53_1 ⟨0, hn⟩) (hs53_1 ⟨0, hn⟩) (ms53_2 ⟨0, hn⟩) (hs53_2 ⟨0, hn⟩) scM53 (Memref.isWhole_whole _) (isFirst53 ⟨0, hn⟩ (Nat.zero_mod _)) (notLast53 ⟨0, hn⟩ (by simp)) (iblk53 V c 0 ⟨0, hn⟩) (iblk53 V c 1 ⟨0, hn⟩))
  | n + 1, hn =>
    if h0 : (n + 1) % 4 = 0 then
      (outIdle53, sout53_A c (grid53.coords ⟨n + 1, hn⟩) (ms53_0 ⟨n + 1, hn⟩) (hs53_0 ⟨n + 1, hn⟩) (ms53_1 ⟨n + 1, hn⟩) (hs53_1 ⟨n + 1, hn⟩) (ms53_2 ⟨n + 1, hn⟩) (hs53_2 ⟨n + 1, hn⟩) scM53 (Memref.isWhole_whole _) (isFirst53 ⟨n + 1, hn⟩ h0) (notLast53 ⟨n + 1, hn⟩ (by show ¬(n + 1) % 4 = 3; omega)) (iblk53 V c 0 ⟨n + 1, hn⟩) (iblk53 V c 1 ⟨n + 1, hn⟩))
    else if h3 : (n + 1) % 4 = 3 then
      (out53_C c (grid53.coords ⟨n + 1, hn⟩) (ms53_0 ⟨n + 1, hn⟩) (hs53_0 ⟨n + 1, hn⟩) (ms53_1 ⟨n + 1, hn⟩) (hs53_1 ⟨n + 1, hn⟩) (ms53_2 ⟨n + 1, hn⟩) (hs53_2 ⟨n + 1, hn⟩) scM53 (Memref.isWhole_whole _) (notFirst53 ⟨n + 1, hn⟩ h0) (isLast53 ⟨n + 1, hn⟩ h3) (iblk53 V c 0 ⟨n + 1, hn⟩) (iblk53 V c 1 ⟨n + 1, hn⟩) (outsAt53 c n (Nat.lt_of_succ_lt hn)).2,
       sout53_C c (grid53.coords ⟨n + 1, hn⟩) (ms53_0 ⟨n + 1, hn⟩) (hs53_0 ⟨n + 1, hn⟩) (ms53_1 ⟨n + 1, hn⟩) (hs53_1 ⟨n + 1, hn⟩) (ms53_2 ⟨n + 1, hn⟩) (hs53_2 ⟨n + 1, hn⟩) scM53 (Memref.isWhole_whole _) (notFirst53 ⟨n + 1, hn⟩ h0) (isLast53 ⟨n + 1, hn⟩ h3) (iblk53 V c 0 ⟨n + 1, hn⟩) (iblk53 V c 1 ⟨n + 1, hn⟩) (outsAt53 c n (Nat.lt_of_succ_lt hn)).2)
    else
      (outIdle53, sout53_B c (grid53.coords ⟨n + 1, hn⟩) (ms53_0 ⟨n + 1, hn⟩) (hs53_0 ⟨n + 1, hn⟩) (ms53_1 ⟨n + 1, hn⟩) (hs53_1 ⟨n + 1, hn⟩) (ms53_2 ⟨n + 1, hn⟩) (hs53_2 ⟨n + 1, hn⟩) scM53 (Memref.isWhole_whole _) (notFirst53 ⟨n + 1, hn⟩ h0) (notLast53 ⟨n + 1, hn⟩ h3) (iblk53 V c 0 ⟨n + 1, hn⟩) (iblk53 V c 1 ⟨n + 1, hn⟩) (outsAt53 c n (Nat.lt_of_succ_lt hn)).2)

/-- `outsAt53` at a point with k = 0. -/
theorem outsAt53_A (c : Dev nD) (t : Fin cfg53.N) (h0 : t.val % 4 = 0) :
    outsAt53 V c t.val t.isLt = (outIdle53, sout53_A c (grid53.coords t) (ms53_0 t) (hs53_0 t) (ms53_1 t) (hs53_1 t) (ms53_2 t) (hs53_2 t) scM53 (Memref.isWhole_whole _) (isFirst53 t h0) (notLast53 t (by omega)) (iblk53 V c 0 t) (iblk53 V c 1 t)) := by
  obtain ⟨n, hn⟩ := t
  cases n with
  | zero => rfl
  | succ n => exact (dif_pos h0).trans rfl

/-- `outsAt53` at a point with k = 1, 2: over what the point before left. -/
theorem outsAt53_B (c : Dev nD) (t : Fin cfg53.N) (h0 : ¬t.val % 4 = 0) (h3 : ¬t.val % 4 = 3) :
    outsAt53 V c t.val t.isLt = (outIdle53, sout53_B c (grid53.coords t) (ms53_0 t) (hs53_0 t) (ms53_1 t) (hs53_1 t) (ms53_2 t) (hs53_2 t) scM53 (Memref.isWhole_whole _) (notFirst53 t h0) (notLast53 t h3) (iblk53 V c 0 t) (iblk53 V c 1 t)
      (outsAt53 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt53` at a point with k = 3. -/
theorem outsAt53_C (c : Dev nD) (t : Fin cfg53.N) (h0 : ¬t.val % 4 = 0) (h3 : t.val % 4 = 3) :
    outsAt53 V c t.val t.isLt = (out53_C c (grid53.coords t) (ms53_0 t) (hs53_0 t) (ms53_1 t) (hs53_1 t) (ms53_2 t) (hs53_2 t) scM53 (Memref.isWhole_whole _) (notFirst53 t h0) (isLast53 t h3) (iblk53 V c 0 t) (iblk53 V c 1 t)
        (outsAt53 V c (t.val - 1) (Nat.lt_of_le_of_lt (Nat.sub_le _ _) t.isLt)).2,
      sout53_C c (grid53.coords t) (ms53_0 t) (hs53_0 t) (ms53_1 t) (hs53_1 t) (ms53_2 t) (hs53_2 t) scM53 (Memref.isWhole_whole _) (notFirst53 t h0) (isLast53 t h3) (iblk53 V c 0 t) (iblk53 V c 1 t)
        (outsAt53 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS53 (c : Dev nD) : (n : ℕ) → n ≤ cfg53.N → sProp 𝕄
  | 0, _ => Pipeline.ΦA spec53 c
  | n + 1, hn => iprop(iprop(owns (c : Thread nD τ) scM53 fullShare ((outsAt53 V c n hn).2) ∗ restBut53 c) ∗ (∃ r, prngReg c r))

theorem PhiS53_zero (c : Dev nD) (n : ℕ) (h : n ≤ cfg53.N) (hz : n = 0) : PhiS53 V c n h = Pipeline.ΦA spec53 c := by
  subst hz; rfl
theorem PhiS53_succ (c : Dev nD) (n : ℕ) (hn : n < cfg53.N) :
    PhiS53 V c (n + 1) hn = iprop(iprop(owns (c : Thread nD τ) scM53 fullShare ((outsAt53 V c n hn).2) ∗ restBut53 c) ∗ (∃ r, prngReg c r)) := rfl
theorem PhiS53_pos (c : Dev nD) (n : ℕ) (h : n ≤ cfg53.N) (hz : n ≠ 0) :
    PhiS53 V c n h = iprop(iprop(owns (c : Thread nD τ) scM53 fullShare ((outsAt53 V c (n - 1) (by omega)).2) ∗ restBut53 c) ∗ (∃ r, prngReg c r)) := by
  cases n with
  | zero => exact absurd rfl hz
  | succ n => rfl

/-! ## The proof data -/

/-- The region's proof data on core `c`: the arrays as the region finds them; after the body at point `t` each input's
    buffer at its block and the output's at `outsAt53`'s first component; the invariant `PhiS53`; nothing owed; full shares. -/
noncomputable def dat53 (c : Dev nD) : Dat τ (Elt F) Unit ℕ (UR sig nD τ) ℕ cfg53 c where
  A w := V c (Pipeline.arrRef spec53 w)
  after w t := match w with
    | ⟨0, _⟩ => iblk53 V c 0 t
    | ⟨1, _⟩ => iblk53 V c 1 t
    | ⟨2, _⟩ => (outsAt53 V c t.val t.isLt).1
  Φ t := PhiS53 V c t.val (Nat.le_of_lt_succ t.isLt)
  q _ := fullShare
  owed _ := 0

theorem A_eq53 (c : Dev nD) (w : Fin cfg53.W) : (dat53 V c).A w = V c (Pipeline.arrRef spec53 w) := by
  dsimp only [dat53]
theorem PhiS53_castSucc (c : Dev nD) (t : Fin cfg53.N) :
    (dat53 V c).Φ t.castSucc = PhiS53 V c t.val (Nat.le_of_lt t.isLt) := by
  dsimp only [dat53]; simp only [Fin.coe_castSucc]
theorem after53_0 (c : Dev nD) (t : Fin cfg53.N) : (dat53 V c).after 0 t = iblk53 V c 0 t := by dsimp only [dat53]
theorem after53_1 (c : Dev nD) (t : Fin cfg53.N) : (dat53 V c).after 1 t = iblk53 V c 1 t := by dsimp only [dat53]
theorem after53_2 (c : Dev nD) (t : Fin cfg53.N) : (dat53 V c).after 2 t = (outsAt53 V c t.val t.isLt).1 := by dsimp only [dat53]
theorem before53_0 (c : Dev nD) (t : Fin cfg53.N) (d) : (dat53 V c).before 0 t d = iblk53 V c 0 t :=
  before53_0_of V (dat53 V c) (A_eq53 V c 0) (after53_0 V c) t d
theorem before53_1 (c : Dev nD) (t : Fin cfg53.N) (d) : (dat53 V c).before 1 t d = iblk53 V c 1 t :=
  before53_1_of V (dat53 V c) (A_eq53 V c 1) (after53_1 V c) t d

/-! ## The body's obligation -/

noncomputable def bodyPre53 (c : Dev nD) (t : Fin cfg53.N) : sProp 𝕄 :=
  iprop((dat53 V c).Φ t.castSucc ∗ (dat53 V c).owesAt () t.castSucc
    ∗ (∃ d, owns (c : Thread nD τ) (ms53_0 t) fullShare ((dat53 V c).before 0 t d))
    ∗ (∃ d, owns (c : Thread nD τ) (ms53_1 t) fullShare ((dat53 V c).before 1 t d))
    ∗ (∃ d, owns (c : Thread nD τ) (ms53_2 t) fullShare ((dat53 V c).before 2 t d)))

noncomputable def bodyPost53 (c : Dev nD) (t : Fin cfg53.N) : sProp 𝕄 :=
  iprop((dat53 V c).Φ t.succ ∗ (dat53 V c).owesAt () t.succ
    ∗ (dat53 V c).leavesExact 0 t
    ∗ (dat53 V c).leavesExact 1 t
    ∗ (dat53 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body53 (c : Dev nD) (t : Fin cfg53.N) :
    bodyPre53 V c t ⊢ wp frame (wpE (defs₀ (F := F)) Variants.none c none) Set.univ (bodyAt53 t) (fun _ => bodyPost53 V c t) := by
  unfold bodyPre53 bodyPost53 bodyAt53
  simp only [before53_0, before53_1]
  rw [show (dat53 V c).owesAt () t.succ = (dat53 V c).owesAt () t.castSucc from rfl]
  rw [show (dat53 V c).Φ t.succ = PhiS53 V c (t.val + 1) t.isLt from rfl, PhiS53_succ]
  rw [show (dat53 V c).leavesExact 0 t = owns (c : Thread nD τ) (ms53_0 t) fullShare ((dat53 V c).after 0 t) from by
    unfold Dat.leavesExact; rw [liveAt53_0 t], after53_0]
  rw [show (dat53 V c).leavesExact 1 t = owns (c : Thread nD τ) (ms53_1 t) fullShare ((dat53 V c).after 1 t) from by
    unfold Dat.leavesExact; rw [liveAt53_1 t], after53_1]
  by_cases h0 : t.val % 4 = 0
  · have h3 : ¬t.val % 4 = 3 := by omega
    rw [Dat.leavesExact_idle (dat53 V c) 2 t (idleAt53_2 t (notLast53 t h3)) (noFlush53_2 t (notLast53 t h3))]
    rw [outsAt53_A V c t h0]
    unfold sout53_A; (try dsimp only)
    by_cases hz : t.val = 0
    · rw [PhiS53_castSucc V c t, PhiS53_zero V c _ _ hz, PhiA53_eq]
      iintro ⟨⟨⟨HS0, Hrb⟩, Hg⟩, Ho, ⟨%d0, H0⟩, ⟨%d1, H1⟩, ⟨%d2, H2⟩⟩
      iapply ((kernelRun53_A c (grid53.coords t) _ _ _ _ _ _ _ _ (isFirst53 t h0) (notLast53 t (by omega)) (iblk53 V c 0 t) (iblk53 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover53_A c _ _ _ _ _ _ _ _ _ _ _ _ _)
          iexact Hrb
        iexact Hg
      isplitl [Ho]; · iexact Ho
      isplitl [H0]; · iexact H0
      isplitl [H1]; · iexact H1
      iexists _; iexact H2
    · rw [PhiS53_castSucc V c t, PhiS53_pos V c _ _ hz]
      iintro ⟨⟨⟨HS0, Hrb⟩, Hg⟩, Ho, ⟨%d0, H0⟩, ⟨%d1, H1⟩, ⟨%d2, H2⟩⟩
      iapply ((kernelRun53_A c (grid53.coords t) _ _ _ _ _ _ _ _ (isFirst53 t h0) (notLast53 t (by omega)) (iblk53 V c 0 t) (iblk53 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover53_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat53 V c).leavesExact 2 t = owns (c : Thread nD τ) (ms53_2 t) fullShare ((dat53 V c).after 2 t) from by
        unfold Dat.leavesExact; rw [liveAt53_2 t (isLast53 t h3)], after53_2]
      rw [outsAt53_C V c t h0 h3]
      unfold out53_C sout53_C; (try dsimp only)
      rw [PhiS53_castSucc V c t, PhiS53_pos V c _ _ hz]
      iintro ⟨⟨⟨HS0, Hrb⟩, Hg⟩, Ho, ⟨%d0, H0⟩, ⟨%d1, H1⟩, ⟨%d2, H2⟩⟩
      iapply ((kernelRun53_C c (grid53.coords t) _ _ _ _ _ _ _ _ (notFirst53 t h0) (isLast53 t h3) (iblk53 V c 0 t) (iblk53 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover53_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover53_C c _ _ _ _ _ _ _ _ _ _ _ _ _ _)
    · rw [Dat.leavesExact_idle (dat53 V c) 2 t (idleAt53_2 t (notLast53 t h3)) (noFlush53_2 t (notLast53 t h3))]
      rw [outsAt53_B V c t h0 h3]
      unfold sout53_B; (try dsimp only)
      rw [PhiS53_castSucc V c t, PhiS53_pos V c _ _ hz]
      iintro ⟨⟨⟨HS0, Hrb⟩, Hg⟩, Ho, ⟨%d0, H0⟩, ⟨%d1, H1⟩, ⟨%d2, H2⟩⟩
      iapply ((kernelRun53_B c (grid53.coords t) _ _ _ _ _ _ _ _ (notFirst53 t h0) (notLast53 t h3) (iblk53 V c 0 t) (iblk53 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover53_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation53 (c : Dev nD) : BodyObligation (dat53 (F := F) V c) (defs₀ (F := F)) Variants.none () Set.univ := fun t => by
  rw [bigSep_W53, bigSep_W53]
  exact sound_body53 V c t

/-- What the region is entered with is the invariant before the first point. -/
theorem hin53 (c : Dev nD) : Pipeline.ΦA spec53 c ⊢ (dat53 V c).Φ 0 := by
  rw [show (dat53 V c).Φ 0 = PhiS53 V c 0 (Nat.zero_le _) from rfl, PhiS53_zero V c 0 _ rfl]
  try exact Idealize.SL.BI.Entails.refl _

/-- After the last point the invariant gives the class's back: the accumulator's contents are forgotten. -/
theorem hout53 (c : Dev nD) : (dat53 V c).Φ (Fin.last cfg53.N) ⊢ Pipeline.ΦA spec53 c := by
  have hN : cfg53.N = 16 := N_53
  rw [show (dat53 V c).Φ (Fin.last cfg53.N) = PhiS53 V c (Fin.last cfg53.N).val (Nat.le_of_lt_succ (Fin.last cfg53.N).isLt) from rfl,
    PhiS53_pos V c _ _ (by rw [Fin.val_last]; omega), PhiA53_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI54a.lean ====
/- Laid out by: python3 scratch/layout_regions.py --template-region 1 --region 54 --program KernelIdeal --parts a,b,c, --out-dir proof/Proof
   from the hand-written text of region 1 (RegKI1a.lean): the same text, the region's number substituted. -/
/-
  Region 54 of @main (custom_call 54): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond54_0 (i : grid54.Coords) : Prop := (Scalar.cmpi .ne (Scalar.extui (Scalar.cmpi .eq (BitVec.ofNat 32 (i 1).val) 0#32)) 0#32) = 1#1
/-- It holds exactly at the points with t % 4 = 0. -/
theorem hcond54_0 : ∀ t : Fin cfg54.N, cond54_0 (grid54.coords t) ↔ t.val % 4 = 0 :=
  (by decide +kernel : ∀ t : Fin grid54.N, cond54_0 (grid54.coords t) ↔ t.val % 4 = 0)

/-- "k = 3": the second conditional's test. -/
abbrev cond54_1 (i : grid54.Coords) : Prop := k54_cond2 i = 1#1
/-- It holds exactly at the points with t % 4 = 3. -/
theorem hcond54_1 : ∀ t : Fin cfg54.N, cond54_1 (grid54.coords t) ↔ t.val % 4 = 3 :=
  (by decide +kernel : ∀ t : Fin grid54.N, cond54_1 (grid54.coords t) ↔ t.val % 4 = 3)

/-! ## Where the windows are idle, and where the output is written back -/

/-- The two input windows are never idle. -/
theorem liveAt54_0 : ∀ t : Fin cfg54.N, cfg54.idle 0 (grid54.coords t) = false := by decide +kernel
theorem liveAt54_1 : ∀ t : Fin cfg54.N, cfg54.idle 1 (grid54.coords t) = false := by decide +kernel
/-- Where k ≠ 3 the output window is idle (the body stores nothing into it) and is not written back. -/
theorem idleAt54_2 : ∀ t : Fin cfg54.N, ¬cond54_1 (grid54.coords t) → cfg54.idle 2 (grid54.coords t) = true := by decide +kernel
theorem noFlush54_2 : ∀ t : Fin cfg54.N, ¬cond54_1 (grid54.coords t) → (cfg54.win 2).flush t = false := by decide +kernel
/-- Where k = 3 it is live. -/
theorem liveAt54_2 : ∀ t : Fin cfg54.N, cond54_1 (grid54.coords t) → cfg54.idle 2 (grid54.coords t) = false := by decide +kernel

/-! ## The staging memrefs at a point, and the scratch -/

/-- One staging buffer of the output window, through which its contents are stated. -/
abbrev VO54_2 : View sig .tc .vmem S1024x512 .f32 := (Memref.whole cc54_stg2_0 : Memref sig .tc .vmem S1024x512 .f32).view
abbrev ms54_0 (t : Fin cfg54.N) : Memref sig .tc .vmem S1024x1024 .bf16 := win54_0.stage (cfg54.slots t 0)
abbrev hs54_0 (t : Fin cfg54.N) : (ms54_0 t).IsWhole := hstage54_0 ((cfg54.slots t 0).cast nbuf54_0)
abbrev ms54_1 (t : Fin cfg54.N) : Memref sig .tc .vmem S1024x512 .f32 := win54_1.stage (cfg54.slots t 1)
abbrev hs54_1 (t : Fin cfg54.N) : (ms54_1 t).IsWhole := hstage54_1 ((cfg54.slots t 1).cast nbuf54_1)
abbrev ms54_2 (t : Fin cfg54.N) : Memref sig .tc .vmem S1024x512 .f32 := win54_2.stage (cfg54.slots t 2)
abbrev hs54_2 (t : Fin cfg54.N) : (ms54_2 t).IsWhole := hstage54_2 ((cfg54.slots t 2).cast nbuf54_2)
/-- The accumulator: a whole scoped buffer of the kernel's own. -/
abbrev scM54 : Memref sig .tc .vmem S1024x512 .f32 := Memref.whole cc54_scratch0
abbrev VS54 : View sig .tc .vmem S1024x512 .f32 := scM54.view

/-- The other scoped buffers of the core, none of which this region touches. -/
abbrev restBut54 (c : Dev nD) : sProp 𝕄 :=
  Pipeline.scopedRestBut (Ix := Unit) (Name := ℕ) (U := UR sig nD τ) (Lvl := ℕ) (Val := Elt F) spec54 c [cc54_scratch0]

/-- The region's invariant before its first point: the accumulator at something, the other scoped buffers, the generator register. -/
theorem PhiA54_eq (c : Dev nD) :
    (Pipeline.ΦA spec54 c : sProp 𝕄)
      = iprop(iprop((∃ d, owns (c : Thread nD τ) scM54 fullShare d) ∗ restBut54 c) ∗ (∃ r, prngReg c r)) := by
  unfold Pipeline.ΦA; rw [scopedRest54_split]; simp only [scM54, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun54_A (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond54_0 i) (hc1 : ¬cond54_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc54__matmul_kernel i arg2 harg2 arg3 harg3 arg4 harg4 arg5 harg5) K } := by
  refine ⟨[], ?_, fun xi2 E K => ?run⟩
  case run =>
    simp only [cc54__matmul_kernel_eq_skeleton]; unfold cc54__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI54b.lean ====
/- Laid out by: python3 scratch/layout_regions.py --template-region 1 --region 54 --program KernelIdeal --parts a,b,c, --out-dir proof/Proof
   from the hand-written text of region 1 (RegKI1b.lean): the same text, the region's number substituted. -/
/-
  Region 54, case B (k = 1, 2): the body's run. Neither conditional is taken: the product of the two blocks is added to what
  the point before left in the accumulator; the output block is not touched.
-/
import proofs.«158944_j64613488001249_1_alg».proof.Proof.RegKI54a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun54_B (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond54_0 i) (hc1 : ¬cond54_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc54__matmul_kernel i arg2 harg2 arg3 harg3 arg4 harg4 arg5 harg5) K } := by
  refine ⟨[], ?_, fun xi2 E K => ?run⟩
  case run =>
    simp only [cc54__matmul_kernel_eq_skeleton]; unfold cc54__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI54c.lean ====
/- Laid out by: python3 scratch/layout_regions.py --template-region 1 --region 54 --program KernelIdeal --parts a,b,c, --out-dir proof/Proof
   from the hand-written text of region 1 (RegKI1c.lean): the same text, the region's number substituted. -/
/-
  Region 54, case C (k = 3): the body's run. The product is added to the accumulator as in case B, and then the second
  conditional copies the accumulator over the whole output block.
-/
import proofs.«158944_j64613488001249_1_alg».proof.Proof.RegKI54b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun54_C (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond54_0 i) (hc1 : cond54_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc54__matmul_kernel i arg2 harg2 arg3 harg3 arg4 harg4 arg5 harg5) K } := by
  refine ⟨?_, ?_, fun E K => ?run⟩
  case run =>
    simp only [cc54__matmul_kernel_eq_skeleton]; unfold cc54__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI54.lean ====
/- Laid out by: python3 scratch/layout_regions.py --template-region 1 --region 54 --program KernelIdeal --parts a,b,c, --out-dir proof/Proof
   from the hand-written text of region 1 (RegKI1.lean): the same text, the region's number substituted. -/
/-
  Region 54 of @main, entered from the buffer contents `V`: what its windows' blocks are, what each case of the body leaves in
  the accumulator and in the output block, the accumulator and the output block point by point (`outsAt54`: at k = 0 the
  accumulator restarts from zeros plus the product; at k = 1, 2, 3 it is the point before's plus the product; at k = 3 the
  output block is the accumulator), the region's invariant (the accumulator at `outsAt54`'s second component), the proof data,
  and the body's obligation at every point.
-/
import proofs.«158944_j64613488001249_1_alg».proof.Proof.RegKI54c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk54 (c : Dev nD) (w : Fin cfg54.W) (t : Fin cfg54.N) : ((cfg54.win w).xblock (cfg54.grid.coords t)).Idx → Elt F (cfg54.win w).elt :=
  ((cfg54.win w).blk t).view.read (Elt F) (V c (Pipeline.arrRef spec54 w))

/-- An input window's current staging buffer holds its block at every point, for any proof data whose array is `V`'s and
    whose body leaves the block in place. -/
theorem before54_0_of {c : Dev nD} (dat : Dat τ (Elt F) Unit ℕ (UR sig nD τ) ℕ cfg54 c) (hA : dat.A 0 = V c (Pipeline.arrRef spec54 0))
    (hafter : ∀ t, dat.after 0 t = iblk54 V c 0 t) (t : Fin cfg54.N) (d) : dat.before 0 t d = iblk54 V c 0 t :=
  (dat.before_in_eq_fetched 0 rfl (fun _ => rfl) (fun _ _ _ => rfl) (fun t => by rw [hafter]; unfold Dat.blockOf iblk54; rw [hA]; try rfl) t d).trans
    (by unfold Dat.fetched Dat.blockOf iblk54; rw [hA]; try rfl)
theorem before54_1_of {c : Dev nD} (dat : Dat τ (Elt F) Unit ℕ (UR sig nD τ) ℕ cfg54 c) (hA : dat.A 1 = V c (Pipeline.arrRef spec54 1))
    (hafter : ∀ t, dat.after 1 t = iblk54 V c 1 t) (t : Fin cfg54.N) (d) : dat.before 1 t d = iblk54 V c 1 t :=
  (dat.before_in_eq_fetched 1 rfl (fun _ => rfl) (fun _ _ _ => rfl) (fun t => by rw [hafter]; unfold Dat.blockOf iblk54; rw [hA]; try rfl) t d).trans
    (by unfold Dat.fetched Dat.blockOf iblk54; rw [hA]; try rfl)

/-! ## What each case leaves -/

/-- Case A's stores into the accumulator cover it. -/
theorem scover54_A (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond54_0 i) (hc1 : ¬cond54_1 i)
    (x0 : Vec F S1024x1024 .bf16) (x1 : Vec F S1024x512 .f32) (y : S1024x512.Idx) :
    ∃ pc ∈ (kernelRun54_A c i arg2 harg2 arg3 harg3 arg4 harg4 arg5 harg5 hc0 hc1 x0 x1).2.1, y ∈ pc.1.set :=
  View.cover_of_tiledL (kernelRun54_A c i arg2 harg2 arg3 harg3 arg4 harg4 arg5 harg5 hc0 hc1 x0 x1).2.1 S1024x512.size (by sl_kernel_rfl) y
/-- What case A leaves in the accumulator. -/
noncomputable def sout54_A (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond54_0 i) (hc1 : ¬cond54_1 i)
    (x0 : Vec F S1024x1024 .bf16) (x1 : Vec F S1024x512 .f32) : Vec F S1024x512 .f32 :=
  VS54.read (Elt F) (VS54.writes (Elt F) VS54.junk (kernelRun54_A c i arg2 harg2 arg3 harg3 arg4 harg4 arg5 harg5 hc0 hc1 x0 x1).2.1)

/-- Case B's store into the accumulator covers it. -/
theorem scover54_B (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond54_0 i) (hc1 : ¬cond54_1 i)
    (x0 : Vec F S1024x1024 .bf16) (x1 : Vec F S1024x512 .f32) (xs0 : Vec F S1024x512 .f32) (y : S1024x512.Idx) :
    ∃ pc ∈ (kernelRun54_B c i arg2 harg2 arg3 harg3 arg4 harg4 arg5 harg5 hc0 hc1 x0 x1 xs0).2.1, y ∈ pc.1.set :=
  View.cover_of_tiledL (kernelRun54_B c i arg2 harg2 arg3 harg3 arg4 harg4 arg5 harg5 hc0 hc1 x0 x1 xs0).2.1 S1024x512.size (by sl_kernel_rfl) y
/-- What case B leaves in the accumulator, over what the point before left. -/
noncomputable def sout54_B (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond54_0 i) (hc1 : ¬cond54_1 i)
    (x0 : Vec F S1024x1024 .bf16) (x1 : Vec F S1024x512 .f32) (xs0 : Vec F S1024x512 .f32) : Vec F S1024x512 .f32 :=
  VS54.read (Elt F) (VS54.writes (Elt F) VS54.junk (kernelRun54_B c i arg2 harg2 arg3 harg3 arg4 harg4 arg5 harg5 hc0 hc1 x0 x1 xs0).2.1)

/-- Case C's store into the output block covers it, and so does its store into the accumulator. -/
theorem cover54_C (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond54_0 i) (hc1 : cond54_1 i)
    (x0 : Vec F S1024x1024 .bf16) (x1 : Vec F S1024x512 .f32) (xs0 : Vec F S1024x512 .f32) (y : S1024x512.Idx) :
    ∃ pc ∈ (kernelRun54_C c i arg2 harg2 arg3 harg3 arg4 harg4 arg5 harg5 hc0 hc1 x0 x1 xs0).1, y ∈ pc.1.set :=
  View.cover_of_tiledL (kernelRun54_C c i arg2 harg2 arg3 harg3 arg4 harg4 arg5 harg5 hc0 hc1 x0 x1 xs0).1 S1024x512.size (by sl_kernel_rfl) y
theorem scover54_C (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond54_0 i) (hc1 : cond54_1 i)
    (x0 : Vec F S1024x1024 .bf16) (x1 : Vec F S1024x512 .f32) (xs0 : Vec F S1024x512 .f32) (y : S1024x512.Idx) :
    ∃ pc ∈ (kernelRun54_C c i arg2 harg2 arg3 harg3 arg4 harg4 arg5 harg5 hc0 hc1 x0 x1 xs0).2.1, y ∈ pc.1.set :=
  View.cover_of_tiledL (kernelRun54_C c i arg2 harg2 arg3 harg3 arg4 harg4 arg5 harg5 hc0 hc1 x0 x1 xs0).2.1 S1024x512.size (by sl_kernel_rfl) y
/-- What case C leaves in the output block, and in the accumulator. -/
noncomputable def out54_C (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond54_0 i) (hc1 : cond54_1 i)
    (x0 : Vec F S1024x1024 .bf16) (x1 : Vec F S1024x512 .f32) (xs0 : Vec F S1024x512 .f32) : Vec F S1024x512 .f32 :=
  VO54_2.read (Elt F) (VO54_2.writes (Elt F) VO54_2.junk (kernelRun54_C c i arg2 harg2 arg3 harg3 arg4 harg4 arg5 harg5 hc0 hc1 x0 x1 xs0).1)
noncomputable def sout54_C (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond54_0 i) (hc1 : cond54_1 i)
    (x0 : Vec F S1024x1024 .bf16) (x1 : Vec F S1024x512 .f32) (xs0 : Vec F S1024x512 .f32) : Vec F S1024x512 .f32 :=
  VS54.read (Elt F) (VS54.writes (Elt F) VS54.junk (kernelRun54_C c i arg2 harg2 arg3 harg3 arg4 harg4 arg5 harg5 hc0 hc1 x0 x1 xs0).2.1)

/-- Where the output block is idle nothing consults what it holds: a placeholder. -/
noncomputable def outIdle54 : Vec F S1024x512 .f32 := VO54_2.read (Elt F) (VO54_2.writes (Elt F) VO54_2.junk [])

/-! ## The conditions at a point, from t % 4 -/

theorem isFirst54 (t : Fin cfg54.N) (h : t.val % 4 = 0) : cond54_0 (grid54.coords t) := (hcond54_0 t).mpr h
theorem notFirst54 (t : Fin cfg54.N) (h : ¬t.val % 4 = 0) : ¬cond54_0 (grid54.coords t) := fun hc => h ((hcond54_0 t).mp hc)
theorem isLast54 (t : Fin cfg54.N) (h : t.val % 4 = 3) : cond54_1 (grid54.coords t) := (hcond54_1 t).mpr h
theorem notLast54 (t : Fin cfg54.N) (h : ¬t.val % 4 = 3) : ¬cond54_1 (grid54.coords t) := fun hc => h ((hcond54_1 t).mp hc)

/-! ## The accumulator and the output block, point by point -/

/-- After the body at position `n`: (the output block's buffer, the accumulator). -/
noncomputable def outsAt54 (c : Dev nD) : (n : ℕ) → n < cfg54.N → Vec F S1024x512 .f32 × Vec F S1024x512 .f32
  | 0, hn => (outIdle54, sout54_A c (grid54.coords ⟨0, hn⟩) (ms54_0 ⟨0, hn⟩) (hs54_0 ⟨0, hn⟩) (ms54_1 ⟨0, hn⟩) (hs54_1 ⟨0, hn⟩) (ms54_2 ⟨0, hn⟩) (hs54_2 ⟨0, hn⟩) scM54 (Memref.isWhole_whole _) (isFirst54 ⟨0, hn⟩ (Nat.zero_mod _)) (notLast54 ⟨0, hn⟩ (by simp)) (iblk54 V c 0 ⟨0, hn⟩) (iblk54 V c 1 ⟨0, hn⟩))
  | n + 1, hn =>
    if h0 : (n + 1) % 4 = 0 then
      (outIdle54, sout54_A c (grid54.coords ⟨n + 1, hn⟩) (ms54_0 ⟨n + 1, hn⟩) (hs54_0 ⟨n + 1, hn⟩) (ms54_1 ⟨n + 1, hn⟩) (hs54_1 ⟨n + 1, hn⟩) (ms54_2 ⟨n + 1, hn⟩) (hs54_2 ⟨n + 1, hn⟩) scM54 (Memref.isWhole_whole _) (isFirst54 ⟨n + 1, hn⟩ h0) (notLast54 ⟨n + 1, hn⟩ (by show ¬(n + 1) % 4 = 3; omega)) (iblk54 V c 0 ⟨n + 1, hn⟩) (iblk54 V c 1 ⟨n + 1, hn⟩))
    else if h3 : (n + 1) % 4 = 3 then
      (out54_C c (grid54.coords ⟨n + 1, hn⟩) (ms54_0 ⟨n + 1, hn⟩) (hs54_0 ⟨n + 1, hn⟩) (ms54_1 ⟨n + 1, hn⟩) (hs54_1 ⟨n + 1, hn⟩) (ms54_2 ⟨n + 1, hn⟩) (hs54_2 ⟨n + 1, hn⟩) scM54 (Memref.isWhole_whole _) (notFirst54 ⟨n + 1, hn⟩ h0) (isLast54 ⟨n + 1, hn⟩ h3) (iblk54 V c 0 ⟨n + 1, hn⟩) (iblk54 V c 1 ⟨n + 1, hn⟩) (outsAt54 c n (Nat.lt_of_succ_lt hn)).2,
       sout54_C c (grid54.coords ⟨n + 1, hn⟩) (ms54_0 ⟨n + 1, hn⟩) (hs54_0 ⟨n + 1, hn⟩) (ms54_1 ⟨n + 1, hn⟩) (hs54_1 ⟨n + 1, hn⟩) (ms54_2 ⟨n + 1, hn⟩) (hs54_2 ⟨n + 1, hn⟩) scM54 (Memref.isWhole_whole _) (notFirst54 ⟨n + 1, hn⟩ h0) (isLast54 ⟨n + 1, hn⟩ h3) (iblk54 V c 0 ⟨n + 1, hn⟩) (iblk54 V c 1 ⟨n + 1, hn⟩) (outsAt54 c n (Nat.lt_of_succ_lt hn)).2)
    else
      (outIdle54, sout54_B c (grid54.coords ⟨n + 1, hn⟩) (ms54_0 ⟨n + 1, hn⟩) (hs54_0 ⟨n + 1, hn⟩) (ms54_1 ⟨n + 1, hn⟩) (hs54_1 ⟨n + 1, hn⟩) (ms54_2 ⟨n + 1, hn⟩) (hs54_2 ⟨n + 1, hn⟩) scM54 (Memref.isWhole_whole _) (notFirst54 ⟨n + 1, hn⟩ h0) (notLast54 ⟨n + 1, hn⟩ h3) (iblk54 V c 0 ⟨n + 1, hn⟩) (iblk54 V c 1 ⟨n + 1, hn⟩) (outsAt54 c n (Nat.lt_of_succ_lt hn)).2)

/-- `outsAt54` at a point with k = 0. -/
theorem outsAt54_A (c : Dev nD) (t : Fin cfg54.N) (h0 : t.val % 4 = 0) :
    outsAt54 V c t.val t.isLt = (outIdle54, sout54_A c (grid54.coords t) (ms54_0 t) (hs54_0 t) (ms54_1 t) (hs54_1 t) (ms54_2 t) (hs54_2 t) scM54 (Memref.isWhole_whole _) (isFirst54 t h0) (notLast54 t (by omega)) (iblk54 V c 0 t) (iblk54 V c 1 t)) := by
  obtain ⟨n, hn⟩ := t
  cases n with
  | zero => rfl
  | succ n => exact (dif_pos h0).trans rfl

/-- `outsAt54` at a point with k = 1, 2: over what the point before left. -/
theorem outsAt54_B (c : Dev nD) (t : Fin cfg54.N) (h0 : ¬t.val % 4 = 0) (h3 : ¬t.val % 4 = 3) :
    outsAt54 V c t.val t.isLt = (outIdle54, sout54_B c (grid54.coords t) (ms54_0 t) (hs54_0 t) (ms54_1 t) (hs54_1 t) (ms54_2 t) (hs54_2 t) scM54 (Memref.isWhole_whole _) (notFirst54 t h0) (notLast54 t h3) (iblk54 V c 0 t) (iblk54 V c 1 t)
      (outsAt54 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt54` at a point with k = 3. -/
theorem outsAt54_C (c : Dev nD) (t : Fin cfg54.N) (h0 : ¬t.val % 4 = 0) (h3 : t.val % 4 = 3) :
    outsAt54 V c t.val t.isLt = (out54_C c (grid54.coords t) (ms54_0 t) (hs54_0 t) (ms54_1 t) (hs54_1 t) (ms54_2 t) (hs54_2 t) scM54 (Memref.isWhole_whole _) (notFirst54 t h0) (isLast54 t h3) (iblk54 V c 0 t) (iblk54 V c 1 t)
        (outsAt54 V c (t.val - 1) (Nat.lt_of_le_of_lt (Nat.sub_le _ _) t.isLt)).2,
      sout54_C c (grid54.coords t) (ms54_0 t) (hs54_0 t) (ms54_1 t) (hs54_1 t) (ms54_2 t) (hs54_2 t) scM54 (Memref.isWhole_whole _) (notFirst54 t h0) (isLast54 t h3) (iblk54 V c 0 t) (iblk54 V c 1 t)
        (outsAt54 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS54 (c : Dev nD) : (n : ℕ) → n ≤ cfg54.N → sProp 𝕄
  | 0, _ => Pipeline.ΦA spec54 c
  | n + 1, hn => iprop(iprop(owns (c : Thread nD τ) scM54 fullShare ((outsAt54 V c n hn).2) ∗ restBut54 c) ∗ (∃ r, prngReg c r))

theorem PhiS54_zero (c : Dev nD) (n : ℕ) (h : n ≤ cfg54.N) (hz : n = 0) : PhiS54 V c n h = Pipeline.ΦA spec54 c := by
  subst hz; rfl
theorem PhiS54_succ (c : Dev nD) (n : ℕ) (hn : n < cfg54.N) :
    PhiS54 V c (n + 1) hn = iprop(iprop(owns (c : Thread nD τ) scM54 fullShare ((outsAt54 V c n hn).2) ∗ restBut54 c) ∗ (∃ r, prngReg c r)) := rfl
theorem PhiS54_pos (c : Dev nD) (n : ℕ) (h : n ≤ cfg54.N) (hz : n ≠ 0) :
    PhiS54 V c n h = iprop(iprop(owns (c : Thread nD τ) scM54 fullShare ((outsAt54 V c (n - 1) (by omega)).2) ∗ restBut54 c) ∗ (∃ r, prngReg c r)) := by
  cases n with
  | zero => exact absurd rfl hz
  | succ n => rfl

/-! ## The proof data -/

/-- The region's proof data on core `c`: the arrays as the region finds them; after the body at point `t` each input's
    buffer at its block and the output's at `outsAt54`'s first component; the invariant `PhiS54`; nothing owed; full shares. -/
noncomputable def dat54 (c : Dev nD) : Dat τ (Elt F) Unit ℕ (UR sig nD τ) ℕ cfg54 c where
  A w := V c (Pipeline.arrRef spec54 w)
  after w t := match w with
    | ⟨0, _⟩ => iblk54 V c 0 t
    | ⟨1, _⟩ => iblk54 V c 1 t
    | ⟨2, _⟩ => (outsAt54 V c t.val t.isLt).1
  Φ t := PhiS54 V c t.val (Nat.le_of_lt_succ t.isLt)
  q _ := fullShare
  owed _ := 0

theorem A_eq54 (c : Dev nD) (w : Fin cfg54.W) : (dat54 V c).A w = V c (Pipeline.arrRef spec54 w) := by
  dsimp only [dat54]
theorem PhiS54_castSucc (c : Dev nD) (t : Fin cfg54.N) :
    (dat54 V c).Φ t.castSucc = PhiS54 V c t.val (Nat.le_of_lt t.isLt) := by
  dsimp only [dat54]; simp only [Fin.coe_castSucc]
theorem after54_0 (c : Dev nD) (t : Fin cfg54.N) : (dat54 V c).after 0 t = iblk54 V c 0 t := by dsimp only [dat54]
theorem after54_1 (c : Dev nD) (t : Fin cfg54.N) : (dat54 V c).after 1 t = iblk54 V c 1 t := by dsimp only [dat54]
theorem after54_2 (c : Dev nD) (t : Fin cfg54.N) : (dat54 V c).after 2 t = (outsAt54 V c t.val t.isLt).1 := by dsimp only [dat54]
theorem before54_0 (c : Dev nD) (t : Fin cfg54.N) (d) : (dat54 V c).before 0 t d = iblk54 V c 0 t :=
  before54_0_of V (dat54 V c) (A_eq54 V c 0) (after54_0 V c) t d
theorem before54_1 (c : Dev nD) (t : Fin cfg54.N) (d) : (dat54 V c).before 1 t d = iblk54 V c 1 t :=
  before54_1_of V (dat54 V c) (A_eq54 V c 1) (after54_1 V c) t d

/-! ## The body's obligation -/

noncomputable def bodyPre54 (c : Dev nD) (t : Fin cfg54.N) : sProp 𝕄 :=
  iprop((dat54 V c).Φ t.castSucc ∗ (dat54 V c).owesAt () t.castSucc
    ∗ (∃ d, owns (c : Thread nD τ) (ms54_0 t) fullShare ((dat54 V c).before 0 t d))
    ∗ (∃ d, owns (c : Thread nD τ) (ms54_1 t) fullShare ((dat54 V c).before 1 t d))
    ∗ (∃ d, owns (c : Thread nD τ) (ms54_2 t) fullShare ((dat54 V c).before 2 t d)))

noncomputable def bodyPost54 (c : Dev nD) (t : Fin cfg54.N) : sProp 𝕄 :=
  iprop((dat54 V c).Φ t.succ ∗ (dat54 V c).owesAt () t.succ
    ∗ (dat54 V c).leavesExact 0 t
    ∗ (dat54 V c).leavesExact 1 t
    ∗ (dat54 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body54 (c : Dev nD) (t : Fin cfg54.N) :
    bodyPre54 V c t ⊢ wp frame (wpE (defs₀ (F := F)) Variants.none c none) Set.univ (bodyAt54 t) (fun _ => bodyPost54 V c t) := by
  unfold bodyPre54 bodyPost54 bodyAt54
  simp only [before54_0, before54_1]
  rw [show (dat54 V c).owesAt () t.succ = (dat54 V c).owesAt () t.castSucc from rfl]
  rw [show (dat54 V c).Φ t.succ = PhiS54 V c (t.val + 1) t.isLt from rfl, PhiS54_succ]
  rw [show (dat54 V c).leavesExact 0 t = owns (c : Thread nD τ) (ms54_0 t) fullShare ((dat54 V c).after 0 t) from by
    unfold Dat.leavesExact; rw [liveAt54_0 t], after54_0]
  rw [show (dat54 V c).leavesExact 1 t = owns (c : Thread nD τ) (ms54_1 t) fullShare ((dat54 V c).after 1 t) from by
    unfold Dat.leavesExact; rw [liveAt54_1 t], after54_1]
  by_cases h0 : t.val % 4 = 0
  · have h3 : ¬t.val % 4 = 3 := by omega
    rw [Dat.leavesExact_idle (dat54 V c) 2 t (idleAt54_2 t (notLast54 t h3)) (noFlush54_2 t (notLast54 t h3))]
    rw [outsAt54_A V c t h0]
    unfold sout54_A; (try dsimp only)
    by_cases hz : t.val = 0
    · rw [PhiS54_castSucc V c t, PhiS54_zero V c _ _ hz, PhiA54_eq]
      iintro ⟨⟨⟨HS0, Hrb⟩, Hg⟩, Ho, ⟨%d0, H0⟩, ⟨%d1, H1⟩, ⟨%d2, H2⟩⟩
      iapply ((kernelRun54_A c (grid54.coords t) _ _ _ _ _ _ _ _ (isFirst54 t h0) (notLast54 t (by omega)) (iblk54 V c 0 t) (iblk54 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover54_A c _ _ _ _ _ _ _ _ _ _ _ _ _)
          iexact Hrb
        iexact Hg
      isplitl [Ho]; · iexact Ho
      isplitl [H0]; · iexact H0
      isplitl [H1]; · iexact H1
      iexists _; iexact H2
    · rw [PhiS54_castSucc V c t, PhiS54_pos V c _ _ hz]
      iintro ⟨⟨⟨HS0, Hrb⟩, Hg⟩, Ho, ⟨%d0, H0⟩, ⟨%d1, H1⟩, ⟨%d2, H2⟩⟩
      iapply ((kernelRun54_A c (grid54.coords t) _ _ _ _ _ _ _ _ (isFirst54 t h0) (notLast54 t (by omega)) (iblk54 V c 0 t) (iblk54 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover54_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat54 V c).leavesExact 2 t = owns (c : Thread nD τ) (ms54_2 t) fullShare ((dat54 V c).after 2 t) from by
        unfold Dat.leavesExact; rw [liveAt54_2 t (isLast54 t h3)], after54_2]
      rw [outsAt54_C V c t h0 h3]
      unfold out54_C sout54_C; (try dsimp only)
      rw [PhiS54_castSucc V c t, PhiS54_pos V c _ _ hz]
      iintro ⟨⟨⟨HS0, Hrb⟩, Hg⟩, Ho, ⟨%d0, H0⟩, ⟨%d1, H1⟩, ⟨%d2, H2⟩⟩
      iapply ((kernelRun54_C c (grid54.coords t) _ _ _ _ _ _ _ _ (notFirst54 t h0) (isLast54 t h3) (iblk54 V c 0 t) (iblk54 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover54_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover54_C c _ _ _ _ _ _ _ _ _ _ _ _ _ _)
    · rw [Dat.leavesExact_idle (dat54 V c) 2 t (idleAt54_2 t (notLast54 t h3)) (noFlush54_2 t (notLast54 t h3))]
      rw [outsAt54_B V c t h0 h3]
      unfold sout54_B; (try dsimp only)
      rw [PhiS54_castSucc V c t, PhiS54_pos V c _ _ hz]
      iintro ⟨⟨⟨HS0, Hrb⟩, Hg⟩, Ho, ⟨%d0, H0⟩, ⟨%d1, H1⟩, ⟨%d2, H2⟩⟩
      iapply ((kernelRun54_B c (grid54.coords t) _ _ _ _ _ _ _ _ (notFirst54 t h0) (notLast54 t h3) (iblk54 V c 0 t) (iblk54 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover54_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation54 (c : Dev nD) : BodyObligation (dat54 (F := F) V c) (defs₀ (F := F)) Variants.none () Set.univ := fun t => by
  rw [bigSep_W54, bigSep_W54]
  exact sound_body54 V c t

/-- What the region is entered with is the invariant before the first point. -/
theorem hin54 (c : Dev nD) : Pipeline.ΦA spec54 c ⊢ (dat54 V c).Φ 0 := by
  rw [show (dat54 V c).Φ 0 = PhiS54 V c 0 (Nat.zero_le _) from rfl, PhiS54_zero V c 0 _ rfl]
  try exact Idealize.SL.BI.Entails.refl _

/-- After the last point the invariant gives the class's back: the accumulator's contents are forgotten. -/
theorem hout54 (c : Dev nD) : (dat54 V c).Φ (Fin.last cfg54.N) ⊢ Pipeline.ΦA spec54 c := by
  have hN : cfg54.N = 16 := N_54
  rw [show (dat54 V c).Φ (Fin.last cfg54.N) = PhiS54 V c (Fin.last cfg54.N).val (Nat.le_of_lt_succ (Fin.last cfg54.N).isLt) from rfl,
    PhiS54_pos V c _ _ (by rw [Fin.val_last]; omega), PhiA54_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI55a.lean ====
/- Laid out by: python3 scratch/layout_grid41.py --template-region 0 --region 55 --program KernelIdeal --parts a, --shapes S1024x128=S1024x512,S128x512=S512x512
   from the hand-written text of region 0 (RegKI0a.lean): the same text, the region's number, block shapes substituted. -/
/- The region of KernelIdeal's @main that runs `cc55__matmul_kernel` (pipeline `cfg55`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond55_0 (i : grid55.Coords) : Prop :=
  (Scalar.cmpi .ne (Scalar.extui (Scalar.cmpi .eq (BitVec.ofNat 32 (i 1).val) 0#32)) 0#32) = 1#1
/-- True at every point: the reduction axis has one step. -/
theorem hcond55_0 : ∀ t : Fin cfg55.N, cond55_0 (grid55.coords t) :=
  (by decide +kernel : ∀ t : Fin grid55.N, cond55_0 (grid55.coords t))

/-- "This is the last reduction step" (the guard of the copy to the output block). -/
abbrev cond55_1 (i : grid55.Coords) : Prop := k55_cond2 i = 1#1
/-- True at every point, for the same reason. -/
theorem hcond55_1 : ∀ t : Fin cfg55.N, cond55_1 (grid55.coords t) :=
  (by decide +kernel : ∀ t : Fin grid55.N, cond55_1 (grid55.coords t))

/-! ## No window is idle anywhere -/

theorem liveAt55_0 : ∀ t : Fin cfg55.N, cfg55.idle 0 (grid55.coords t) = false := by decide +kernel
theorem liveAt55_1 : ∀ t : Fin cfg55.N, cfg55.idle 1 (grid55.coords t) = false := by decide +kernel
/-- The output window is stored at every point (the copy's guard holds everywhere). -/
theorem liveAt55_2 : ∀ t : Fin cfg55.N, cfg55.idle 2 (grid55.coords t) = false := by decide +kernel

/-! ## The memrefs the body is called on -/

/-- One staging buffer of the output window, through which its contents are stated (any whole view of the shape reads the
    same pieces back the same way). -/
abbrev VO55_2 : View sig .tc .vmem S1024x512 .f32 := (Memref.whole cc55_stg2_0 : Memref sig .tc .vmem S1024x512 .f32).view
/-- Each window's current staging memref at point `t`, spelt as the pipeline passes it, with its wholeness. -/
abbrev ms55_0 (t : Fin cfg55.N) : Memref sig .tc .vmem S1024x512 .f32 := win55_0.stage (cfg55.slots t 0)
abbrev hs55_0 (t : Fin cfg55.N) : (ms55_0 t).IsWhole := hstage55_0 ((cfg55.slots t 0).cast nbuf55_0)
abbrev ms55_1 (t : Fin cfg55.N) : Memref sig .tc .vmem S512x512 .bf16 := win55_1.stage (cfg55.slots t 1)
abbrev hs55_1 (t : Fin cfg55.N) : (ms55_1 t).IsWhole := hstage55_1 ((cfg55.slots t 1).cast nbuf55_1)
abbrev ms55_2 (t : Fin cfg55.N) : Memref sig .tc .vmem S1024x512 .f32 := win55_2.stage (cfg55.slots t 2)
abbrev hs55_2 (t : Fin cfg55.N) : (ms55_2 t).IsWhole := hstage55_2 ((cfg55.slots t 2).cast nbuf55_2)
/-- The accumulator: a whole scoped buffer of the kernel's own, passed beside the windows. -/
abbrev scM55_0 : Memref sig .tc .vmem S1024x512 .f32 := Memref.whole cc55_scratch0
abbrev VS55_0 : View sig .tc .vmem S1024x512 .f32 := scM55_0.view

/-- The region invariant with the accumulator taken out of the scoped rest: the accumulator owned at some contents, every
    other scoped buffer unopened, and the generator register. -/
theorem PhiA55_eq (c : Dev nD) :
    (Pipeline.ΦA spec55 c : sProp 𝕄)
      = iprop(iprop(iprop((∃ d, owns (c : Thread nD τ) scM55_0 fullShare d))
            ∗ Pipeline.scopedRestBut (Ix := Unit) (Name := ℕ) (U := UR sig nD τ) (Lvl := ℕ) (Val := Elt F) spec55 c [cc55_scratch0])
          ∗ (∃ r, prngReg c r)) := by
  unfold Pipeline.ΦA; rw [scopedRest55_split]; simp only [scM55_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun55 (c : Dev nD) (i : grid55.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond55_0 i) (hlast : cond55_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc55__matmul_kernel i arg2 harg2 arg3 harg3 arg4 harg4 arg5 harg5) K } := by
  refine ⟨?_, ?_, fun E K => ?run⟩
  case run =>
    simp only [cc55__matmul_kernel_eq_skeleton]; unfold cc55__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.KernelIdeal.Hand

end
-- ==== Proof.RegKI55.lean ====
/- Laid out by: python3 scratch/layout_grid41.py --template-region 0 --region 55 --program KernelIdeal --parts a, --shapes S1024x128=S1024x512,S128x512=S512x512
   from the hand-written text of region 0 (RegKI0.lean): the same text, the region's number, block shapes substituted. -/
/- The region of KernelIdeal's @main that runs `cc55__matmul_kernel` (pipeline `cfg55`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegKI55a
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk55 (c : Dev nD) (w : Fin cfg55.W) (t : Fin cfg55.N) : ((cfg55.win w).xblock (cfg55.grid.coords t)).Idx → Elt F (cfg55.win w).elt :=
  ((cfg55.win w).blk t).view.read (Elt F) (V c (Pipeline.arrRef spec55 w))

/-! ## What the case leaves, as pieces read back -/

/-- The output's pieces tile its block (one whole-block store). -/
theorem cover55_2 (c : Dev nD) (i : grid55.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond55_0 i) (hlast : cond55_1 i) (xa : Vec F S1024x512 .f32) (xb : Vec F S512x512 .bf16) (y : S1024x512.Idx) :
    ∃ pc ∈ (kernelRun55 c i arg2 harg2 arg3 harg3 arg4 harg4 arg5 harg5 hfirst hlast xa xb).1, y ∈ pc.1.set :=
  View.cover_of_tiledL (kernelRun55 c i arg2 harg2 arg3 harg3 arg4 harg4 arg5 harg5 hfirst hlast xa xb).1 S1024x512.size (by sl_kernel_rfl) y

/-- What the case leaves in the output's staging buffer: its pieces read back over junk. -/
noncomputable def out55_2 (c : Dev nD) (i : grid55.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond55_0 i) (hlast : cond55_1 i) (xa : Vec F S1024x512 .f32) (xb : Vec F S512x512 .bf16) : Vec F S1024x512 .f32 :=
  VO55_2.read (Elt F) (VO55_2.writes (Elt F) VO55_2.junk (kernelRun55 c i arg2 harg2 arg3 harg3 arg4 harg4 arg5 harg5 hfirst hlast xa xb).1)

/-- What the case leaves in the accumulator: its pieces read back over junk. -/
noncomputable def sout55_0 (c : Dev nD) (i : grid55.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond55_0 i) (hlast : cond55_1 i) (xa : Vec F S1024x512 .f32) (xb : Vec F S512x512 .bf16) : Vec F S1024x512 .f32 :=
  VS55_0.read (Elt F) (VS55_0.writes (Elt F) VS55_0.junk (kernelRun55 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout55_0_eq (c : Dev nD) (i : grid55.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond55_0 i) (hlast : cond55_1 i) (xa : Vec F S1024x512 .f32) (xb : Vec F S512x512 .bf16) :
    sout55_0 c i arg2 harg2 arg3 harg3 arg4 harg4 arg5 harg5 hfirst hlast xa xb = k55_pay2 xa xb (k55_pay1 (F := F)) := by
  unfold sout55_0
  rw [View.read_writes_junk_eq_canon]
  unfold kernelRun55
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out55_2_eq (c : Dev nD) (i : grid55.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond55_0 i) (hlast : cond55_1 i) (xa : Vec F S1024x512 .f32) (xb : Vec F S512x512 .bf16) :
    out55_2 c i arg2 harg2 arg3 harg3 arg4 harg4 arg5 harg5 hfirst hlast xa xb = k55_pay2 xa xb (k55_pay1 (F := F)) := by
  unfold out55_2
  rw [View.read_writes_junk_eq_canon]
  unfold kernelRun55
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt55 (c : Dev nD) (n : ℕ) (hn : n < cfg55.N) : Vec F S1024x512 .f32 × Vec F S1024x512 .f32 :=
  (out55_2 c (grid55.coords ⟨n, hn⟩) (ms55_0 ⟨n, hn⟩) (hs55_0 ⟨n, hn⟩) (ms55_1 ⟨n, hn⟩) (hs55_1 ⟨n, hn⟩) (ms55_2 ⟨n, hn⟩) (hs55_2 ⟨n, hn⟩) scM55_0 (Memref.isWhole_whole _)
      (hcond55_0 ⟨n, hn⟩) (hcond55_1 ⟨n, hn⟩) (iblk55 V c 0 ⟨n, hn⟩) (iblk55 V c 1 ⟨n, hn⟩),
   sout55_0 c (grid55.coords ⟨n, hn⟩) (ms55_0 ⟨n, hn⟩) (hs55_0 ⟨n, hn⟩) (ms55_1 ⟨n, hn⟩) (hs55_1 ⟨n, hn⟩) (ms55_2 ⟨n, hn⟩) (hs55_2 ⟨n, hn⟩) scM55_0 (Memref.isWhole_whole _)
      (hcond55_0 ⟨n, hn⟩) (hcond55_1 ⟨n, hn⟩) (iblk55 V c 0 ⟨n, hn⟩) (iblk55 V c 1 ⟨n, hn⟩))

/-- Every point is a first reduction step: the accumulator after it is one product onto zero. -/
theorem outsAt55_first (c : Dev nD) (t : Fin cfg55.N) :
    (outsAt55 V c t.val t.isLt).2 = k55_pay2 (iblk55 V c 0 t) (iblk55 V c 1 t) (k55_pay1 (F := F)) := by
  obtain ⟨n, hn⟩ := t
  unfold outsAt55
  dsimp only
  rw [sout55_0_eq]

/-- Every point is a last reduction step: the output block after it is the accumulator. -/
theorem outsAt55_last (c : Dev nD) (t : Fin cfg55.N) :
    (outsAt55 V c t.val t.isLt).1 = (outsAt55 V c t.val t.isLt).2 := by
  obtain ⟨n, hn⟩ := t
  unfold outsAt55
  dsimp only
  rw [out55_2_eq, sout55_0_eq]

/-! ## The pipeline's proof data -/

/-- The proof data of the pipeline on core `c`: the arrays as the region finds them; after the body at point `t` each input's
    buffer at its block and the output's at `outsAt55`'s first component; the invariant the same at every point; nothing owed;
    full shares. -/
noncomputable def dat55 (c : Dev nD) : Dat τ (Elt F) Unit ℕ (UR sig nD τ) ℕ cfg55 c where
  A w := V c (Pipeline.arrRef spec55 w)
  after w t := match w with
    | ⟨0, _⟩ => iblk55 V c 0 t
    | ⟨1, _⟩ => iblk55 V c 1 t
    | ⟨2, _⟩ => (outsAt55 V c t.val t.isLt).1
  Φ _ := Pipeline.ΦA spec55 c
  q _ := fullShare
  owed _ := 0

theorem A_eq55 (c : Dev nD) (w : Fin cfg55.W) : (dat55 V c).A w = V c (Pipeline.arrRef spec55 w) := by
  dsimp only [dat55]

theorem after55_0 (c : Dev nD) (t : Fin cfg55.N) : (dat55 V c).after 0 t = iblk55 V c 0 t := by dsimp only [dat55]
theorem after55_1 (c : Dev nD) (t : Fin cfg55.N) : (dat55 V c).after 1 t = iblk55 V c 1 t := by dsimp only [dat55]
theorem after55_2 (c : Dev nD) (t : Fin cfg55.N) : (dat55 V c).after 2 t = (outsAt55 V c t.val t.isLt).1 := by dsimp only [dat55]

/-- An input's current staging buffer holds its block at every point, fetched there or not: where it is not fetched its block
    index has not moved since the point before, and the body left the block in place. -/
theorem before55_0 (c : Dev nD) (t : Fin cfg55.N) (d) : (dat55 V c).before 0 t d = iblk55 V c 0 t :=
  ((dat55 V c).before_in_eq_fetched 0 rfl (fun _ => rfl) (fun _ _ _ => rfl)
      (fun t => by rw [after55_0]; unfold Dat.blockOf iblk55; rw [A_eq55]; try rfl) t d).trans
    (by unfold Dat.fetched Dat.blockOf iblk55; rw [A_eq55]; try rfl)
theorem before55_1 (c : Dev nD) (t : Fin cfg55.N) (d) : (dat55 V c).before 1 t d = iblk55 V c 1 t :=
  ((dat55 V c).before_in_eq_fetched 1 rfl (fun _ => rfl) (fun _ _ _ => rfl)
      (fun t => by rw [after55_1]; unfold Dat.blockOf iblk55; rw [A_eq55]; try rfl) t d).trans
    (by unfold Dat.fetched Dat.blockOf iblk55; rw [A_eq55]; try rfl)

/-! ## The body obligation, at a generic point -/

/-- What the body is called with at point `t`, the windows one by one, -/
noncomputable def bodyPre55 (c : Dev nD) (t : Fin cfg55.N) : sProp 𝕄 :=
  iprop((dat55 V c).Φ t.castSucc ∗ (dat55 V c).owesAt () t.castSucc
    ∗ (∃ d, owns (c : Thread nD τ) (ms55_0 t) fullShare ((dat55 V c).before 0 t d))
    ∗ (∃ d, owns (c : Thread nD τ) (ms55_1 t) fullShare ((dat55 V c).before 1 t d))
    ∗ (∃ d, owns (c : Thread nD τ) (ms55_2 t) fullShare ((dat55 V c).before 2 t d)))

/-- and what it returns. -/
noncomputable def bodyPost55 (c : Dev nD) (t : Fin cfg55.N) : sProp 𝕄 :=
  iprop((dat55 V c).Φ t.succ ∗ (dat55 V c).owesAt () t.succ
    ∗ (dat55 V c).leavesExact 0 t
    ∗ (dat55 V c).leavesExact 1 t
    ∗ (dat55 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body55 (c : Dev nD) (t : Fin cfg55.N) :
    bodyPre55 V c t ⊢ wp frame (wpE (defs₀ (F := F)) Variants.none c none) Set.univ (bodyAt55 t) (fun _ => bodyPost55 V c t) := by
  unfold bodyPre55 bodyPost55 bodyAt55
  simp only [before55_0, before55_1]
  rw [show (dat55 V c).owesAt () t.succ = (dat55 V c).owesAt () t.castSucc from rfl,
    show (dat55 V c).Φ t.succ = Pipeline.ΦA spec55 c from rfl, show (dat55 V c).Φ t.castSucc = Pipeline.ΦA spec55 c from rfl, PhiA55_eq]
  rw [show (dat55 V c).leavesExact 0 t = owns (c : Thread nD τ) (ms55_0 t) fullShare ((dat55 V c).after 0 t) from by
      unfold Dat.leavesExact; rw [liveAt55_0 t], after55_0]
  rw [show (dat55 V c).leavesExact 1 t = owns (c : Thread nD τ) (ms55_1 t) fullShare ((dat55 V c).after 1 t) from by
      unfold Dat.leavesExact; rw [liveAt55_1 t], after55_1]
  rw [show (dat55 V c).leavesExact 2 t = owns (c : Thread nD τ) (ms55_2 t) fullShare ((dat55 V c).after 2 t) from by
      unfold Dat.leavesExact; rw [liveAt55_2 t], after55_2]
  unfold outsAt55 out55_2; (try dsimp only)
  iintro ⟨⟨⟨Hacc, Hrest⟩, Hgen⟩, Howe, ⟨%da, Ha⟩, ⟨%db, Hb⟩, ⟨%dO, Hout⟩⟩
  iapply ((kernelRun55 c (grid55.coords t) _ _ _ _ _ _ _ _ (hcond55_0 t) (hcond55_1 t) (iblk55 V c 0 t) (iblk55 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover55_2 c _ _ _ _ _ _ _ _ _ _ _ _ _)

/-- The library's body obligation, at every point. -/
theorem body_obligation55 (c : Dev nD) : BodyObligation (dat55 (F := F) V c) (defs₀ (F := F)) Variants.none () Set.univ := fun t => by
  rw [bigSep_W55, bigSep_W55]
  exact sound_body55 V c t

/-- What the launch hands the region is the invariant before the first point, -/
theorem hin55 (c : Dev nD) : Pipeline.ΦA spec55 c ⊢ (dat55 V c).Φ 0 := Idealize.SL.BI.Entails.refl _

/-- and the invariant after the last point is what the launch takes back. -/
theorem hout55 (c : Dev nD) : (dat55 V c).Φ (Fin.last cfg55.N) ⊢ Pipeline.ΦA spec55 c := Idealize.SL.BI.Entails.refl _

end Cert.KernelIdeal.Hand

end
-- ==== Proof.RegKI56a.lean ====
/- Laid out by: python3 scratch/layout_regions.py --template-region 1 --region 56 --program KernelIdeal --parts a,b,c, --out-dir proof/Proof
   from the hand-written text of region 1 (RegKI1a.lean): the same text, the region's number substituted. -/
/-
  Region 56 of @main (custom_call 56): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond56_0 (i : grid56.Coords) : Prop := (Scalar.cmpi .ne (Scalar.extui (Scalar.cmpi .eq (BitVec.ofNat 32 (i 1).val) 0#32)) 0#32) = 1#1
/-- It holds exactly at the points with t % 4 = 0. -/
theorem hcond56_0 : ∀ t : Fin cfg56.N, cond56_0 (grid56.coords t) ↔ t.val % 4 = 0 :=
  (by decide +kernel : ∀ t : Fin grid56.N, cond56_0 (grid56.coords t) ↔ t.val % 4 = 0)

/-- "k = 3": the second conditional's test. -/
abbrev cond56_1 (i : grid56.Coords) : Prop := k56_cond2 i = 1#1
/-- It holds exactly at the points with t % 4 = 3. -/
theorem hcond56_1 : ∀ t : Fin cfg56.N, cond56_1 (grid56.coords t) ↔ t.val % 4 = 3 :=
  (by decide +kernel : ∀ t : Fin grid56.N, cond56_1 (grid56.coords t) ↔ t.val % 4 = 3)

/-! ## Where the windows are idle, and where the output is written back -/

/-- The two input windows are never idle. -/
theorem liveAt56_0 : ∀ t : Fin cfg56.N, cfg56.idle 0 (grid56.coords t) = false := by decide +kernel
theorem liveAt56_1 : ∀ t : Fin cfg56.N, cfg56.idle 1 (grid56.coords t) = false := by decide +kernel
/-- Where k ≠ 3 the output window is idle (the body stores nothing into it) and is not written back. -/
theorem idleAt56_2 : ∀ t : Fin cfg56.N, ¬cond56_1 (grid56.coords t) → cfg56.idle 2 (grid56.coords t) = true := by decide +kernel
theorem noFlush56_2 : ∀ t : Fin cfg56.N, ¬cond56_1 (grid56.coords t) → (cfg56.win 2).flush t = false := by decide +kernel
/-- Where k = 3 it is live. -/
theorem liveAt56_2 : ∀ t : Fin cfg56.N, cond56_1 (grid56.coords t) → cfg56.idle 2 (grid56.coords t) = false := by decide +kernel

/-! ## The staging memrefs at a point, and the scratch -/

/-- One staging buffer of the output window, through which its contents are stated. -/
abbrev VO56_2 : View sig .tc .vmem S1024x512 .f32 := (Memref.whole cc56_stg2_0 : Memref sig .tc .vmem S1024x512 .f32).view
abbrev ms56_0 (t : Fin cfg56.N) : Memref sig .tc .vmem S1024x1024 .bf16 := win56_0.stage (cfg56.slots t 0)
abbrev hs56_0 (t : Fin cfg56.N) : (ms56_0 t).IsWhole := hstage56_0 ((cfg56.slots t 0).cast nbuf56_0)
abbrev ms56_1 (t : Fin cfg56.N) : Memref sig .tc .vmem S1024x512 .f32 := win56_1.stage (cfg56.slots t 1)
abbrev hs56_1 (t : Fin cfg56.N) : (ms56_1 t).IsWhole := hstage56_1 ((cfg56.slots t 1).cast nbuf56_1)
abbrev ms56_2 (t : Fin cfg56.N) : Memref sig .tc .vmem S1024x512 .f32 := win56_2.stage (cfg56.slots t 2)
abbrev hs56_2 (t : Fin cfg56.N) : (ms56_2 t).IsWhole := hstage56_2 ((cfg56.slots t 2).cast nbuf56_2)
/-- The accumulator: a whole scoped buffer of the kernel's own. -/
abbrev scM56 : Memref sig .tc .vmem S1024x512 .f32 := Memref.whole cc56_scratch0
abbrev VS56 : View sig .tc .vmem S1024x512 .f32 := scM56.view

/-- The other scoped buffers of the core, none of which this region touches. -/
abbrev restBut56 (c : Dev nD) : sProp 𝕄 :=
  Pipeline.scopedRestBut (Ix := Unit) (Name := ℕ) (U := UR sig nD τ) (Lvl := ℕ) (Val := Elt F) spec56 c [cc56_scratch0]

/-- The region's invariant before its first point: the accumulator at something, the other scoped buffers, the generator register. -/
theorem PhiA56_eq (c : Dev nD) :
    (Pipeline.ΦA spec56 c : sProp 𝕄)
      = iprop(iprop((∃ d, owns (c : Thread nD τ) scM56 fullShare d) ∗ restBut56 c) ∗ (∃ r, prngReg c r)) := by
  unfold Pipeline.ΦA; rw [scopedRest56_split]; simp only [scM56, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun56_A (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond56_0 i) (hc1 : ¬cond56_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc56__matmul_kernel i arg2 harg2 arg3 harg3 arg4 harg4 arg5 harg5) K } := by
  refine ⟨[], ?_, fun xi2 E K => ?run⟩
  case run =>
    simp only [cc56__matmul_kernel_eq_skeleton]; unfold cc56__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI56b.lean ====
/- Laid out by: python3 scratch/layout_regions.py --template-region 1 --region 56 --program KernelIdeal --parts a,b,c, --out-dir proof/Proof
   from the hand-written text of region 1 (RegKI1b.lean): the same text, the region's number substituted. -/
/-
  Region 56, case B (k = 1, 2): the body's run. Neither conditional is taken: the product of the two blocks is added to what
  the point before left in the accumulator; the output block is not touched.
-/
import proofs.«158944_j64613488001249_1_alg».proof.Proof.RegKI56a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun56_B (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond56_0 i) (hc1 : ¬cond56_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc56__matmul_kernel i arg2 harg2 arg3 harg3 arg4 harg4 arg5 harg5) K } := by
  refine ⟨[], ?_, fun xi2 E K => ?run⟩
  case run =>
    simp only [cc56__matmul_kernel_eq_skeleton]; unfold cc56__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI56c.lean ====
/- Laid out by: python3 scratch/layout_regions.py --template-region 1 --region 56 --program KernelIdeal --parts a,b,c, --out-dir proof/Proof
   from the hand-written text of region 1 (RegKI1c.lean): the same text, the region's number substituted. -/
/-
  Region 56, case C (k = 3): the body's run. The product is added to the accumulator as in case B, and then the second
  conditional copies the accumulator over the whole output block.
-/
import proofs.«158944_j64613488001249_1_alg».proof.Proof.RegKI56b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun56_C (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond56_0 i) (hc1 : cond56_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc56__matmul_kernel i arg2 harg2 arg3 harg3 arg4 harg4 arg5 harg5) K } := by
  refine ⟨?_, ?_, fun E K => ?run⟩
  case run =>
    simp only [cc56__matmul_kernel_eq_skeleton]; unfold cc56__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI56.lean ====
/- Laid out by: python3 scratch/layout_regions.py --template-region 1 --region 56 --program KernelIdeal --parts a,b,c, --out-dir proof/Proof
   from the hand-written text of region 1 (RegKI1.lean): the same text, the region's number substituted. -/
/-
  Region 56 of @main, entered from the buffer contents `V`: what its windows' blocks are, what each case of the body leaves in
  the accumulator and in the output block, the accumulator and the output block point by point (`outsAt56`: at k = 0 the
  accumulator restarts from zeros plus the product; at k = 1, 2, 3 it is the point before's plus the product; at k = 3 the
  output block is the accumulator), the region's invariant (the accumulator at `outsAt56`'s second component), the proof data,
  and the body's obligation at every point.
-/
import proofs.«158944_j64613488001249_1_alg».proof.Proof.RegKI56c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk56 (c : Dev nD) (w : Fin cfg56.W) (t : Fin cfg56.N) : ((cfg56.win w).xblock (cfg56.grid.coords t)).Idx → Elt F (cfg56.win w).elt :=
  ((cfg56.win w).blk t).view.read (Elt F) (V c (Pipeline.arrRef spec56 w))

/-- An input window's current staging buffer holds its block at every point, for any proof data whose array is `V`'s and
    whose body leaves the block in place. -/
theorem before56_0_of {c : Dev nD} (dat : Dat τ (Elt F) Unit ℕ (UR sig nD τ) ℕ cfg56 c) (hA : dat.A 0 = V c (Pipeline.arrRef spec56 0))
    (hafter : ∀ t, dat.after 0 t = iblk56 V c 0 t) (t : Fin cfg56.N) (d) : dat.before 0 t d = iblk56 V c 0 t :=
  (dat.before_in_eq_fetched 0 rfl (fun _ => rfl) (fun _ _ _ => rfl) (fun t => by rw [hafter]; unfold Dat.blockOf iblk56; rw [hA]; try rfl) t d).trans
    (by unfold Dat.fetched Dat.blockOf iblk56; rw [hA]; try rfl)
theorem before56_1_of {c : Dev nD} (dat : Dat τ (Elt F) Unit ℕ (UR sig nD τ) ℕ cfg56 c) (hA : dat.A 1 = V c (Pipeline.arrRef spec56 1))
    (hafter : ∀ t, dat.after 1 t = iblk56 V c 1 t) (t : Fin cfg56.N) (d) : dat.before 1 t d = iblk56 V c 1 t :=
  (dat.before_in_eq_fetched 1 rfl (fun _ => rfl) (fun _ _ _ => rfl) (fun t => by rw [hafter]; unfold Dat.blockOf iblk56; rw [hA]; try rfl) t d).trans
    (by unfold Dat.fetched Dat.blockOf iblk56; rw [hA]; try rfl)

/-! ## What each case leaves -/

/-- Case A's stores into the accumulator cover it. -/
theorem scover56_A (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond56_0 i) (hc1 : ¬cond56_1 i)
    (x0 : Vec F S1024x1024 .bf16) (x1 : Vec F S1024x512 .f32) (y : S1024x512.Idx) :
    ∃ pc ∈ (kernelRun56_A c i arg2 harg2 arg3 harg3 arg4 harg4 arg5 harg5 hc0 hc1 x0 x1).2.1, y ∈ pc.1.set :=
  View.cover_of_tiledL (kernelRun56_A c i arg2 harg2 arg3 harg3 arg4 harg4 arg5 harg5 hc0 hc1 x0 x1).2.1 S1024x512.size (by sl_kernel_rfl) y
/-- What case A leaves in the accumulator. -/
noncomputable def sout56_A (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond56_0 i) (hc1 : ¬cond56_1 i)
    (x0 : Vec F S1024x1024 .bf16) (x1 : Vec F S1024x512 .f32) : Vec F S1024x512 .f32 :=
  VS56.read (Elt F) (VS56.writes (Elt F) VS56.junk (kernelRun56_A c i arg2 harg2 arg3 harg3 arg4 harg4 arg5 harg5 hc0 hc1 x0 x1).2.1)

/-- Case B's store into the accumulator covers it. -/
theorem scover56_B (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond56_0 i) (hc1 : ¬cond56_1 i)
    (x0 : Vec F S1024x1024 .bf16) (x1 : Vec F S1024x512 .f32) (xs0 : Vec F S1024x512 .f32) (y : S1024x512.Idx) :
    ∃ pc ∈ (kernelRun56_B c i arg2 harg2 arg3 harg3 arg4 harg4 arg5 harg5 hc0 hc1 x0 x1 xs0).2.1, y ∈ pc.1.set :=
  View.cover_of_tiledL (kernelRun56_B c i arg2 harg2 arg3 harg3 arg4 harg4 arg5 harg5 hc0 hc1 x0 x1 xs0).2.1 S1024x512.size (by sl_kernel_rfl) y
/-- What case B leaves in the accumulator, over what the point before left. -/
noncomputable def sout56_B (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond56_0 i) (hc1 : ¬cond56_1 i)
    (x0 : Vec F S1024x1024 .bf16) (x1 : Vec F S1024x512 .f32) (xs0 : Vec F S1024x512 .f32) : Vec F S1024x512 .f32 :=
  VS56.read (Elt F) (VS56.writes (Elt F) VS56.junk (kernelRun56_B c i arg2 harg2 arg3 harg3 arg4 harg4 arg5 harg5 hc0 hc1 x0 x1 xs0).2.1)

/-- Case C's store into the output block covers it, and so does its store into the accumulator. -/
theorem cover56_C (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond56_0 i) (hc1 : cond56_1 i)
    (x0 : Vec F S1024x1024 .bf16) (x1 : Vec F S1024x512 .f32) (xs0 : Vec F S1024x512 .f32) (y : S1024x512.Idx) :
    ∃ pc ∈ (kernelRun56_C c i arg2 harg2 arg3 harg3 arg4 harg4 arg5 harg5 hc0 hc1 x0 x1 xs0).1, y ∈ pc.1.set :=
  View.cover_of_tiledL (kernelRun56_C c i arg2 harg2 arg3 harg3 arg4 harg4 arg5 harg5 hc0 hc1 x0 x1 xs0).1 S1024x512.size (by sl_kernel_rfl) y
theorem scover56_C (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond56_0 i) (hc1 : cond56_1 i)
    (x0 : Vec F S1024x1024 .bf16) (x1 : Vec F S1024x512 .f32) (xs0 : Vec F S1024x512 .f32) (y : S1024x512.Idx) :
    ∃ pc ∈ (kernelRun56_C c i arg2 harg2 arg3 harg3 arg4 harg4 arg5 harg5 hc0 hc1 x0 x1 xs0).2.1, y ∈ pc.1.set :=
  View.cover_of_tiledL (kernelRun56_C c i arg2 harg2 arg3 harg3 arg4 harg4 arg5 harg5 hc0 hc1 x0 x1 xs0).2.1 S1024x512.size (by sl_kernel_rfl) y
/-- What case C leaves in the output block, and in the accumulator. -/
noncomputable def out56_C (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond56_0 i) (hc1 : cond56_1 i)
    (x0 : Vec F S1024x1024 .bf16) (x1 : Vec F S1024x512 .f32) (xs0 : Vec F S1024x512 .f32) : Vec F S1024x512 .f32 :=
  VO56_2.read (Elt F) (VO56_2.writes (Elt F) VO56_2.junk (kernelRun56_C c i arg2 harg2 arg3 harg3 arg4 harg4 arg5 harg5 hc0 hc1 x0 x1 xs0).1)
noncomputable def sout56_C (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond56_0 i) (hc1 : cond56_1 i)
    (x0 : Vec F S1024x1024 .bf16) (x1 : Vec F S1024x512 .f32) (xs0 : Vec F S1024x512 .f32) : Vec F S1024x512 .f32 :=
  VS56.read (Elt F) (VS56.writes (Elt F) VS56.junk (kernelRun56_C c i arg2 harg2 arg3 harg3 arg4 harg4 arg5 harg5 hc0 hc1 x0 x1 xs0).2.1)

/-- Where the output block is idle nothing consults what it holds: a placeholder. -/
noncomputable def outIdle56 : Vec F S1024x512 .f32 := VO56_2.read (Elt F) (VO56_2.writes (Elt F) VO56_2.junk [])

/-! ## The conditions at a point, from t % 4 -/

theorem isFirst56 (t : Fin cfg56.N) (h : t.val % 4 = 0) : cond56_0 (grid56.coords t) := (hcond56_0 t).mpr h
theorem notFirst56 (t : Fin cfg56.N) (h : ¬t.val % 4 = 0) : ¬cond56_0 (grid56.coords t) := fun hc => h ((hcond56_0 t).mp hc)
theorem isLast56 (t : Fin cfg56.N) (h : t.val % 4 = 3) : cond56_1 (grid56.coords t) := (hcond56_1 t).mpr h
theorem notLast56 (t : Fin cfg56.N) (h : ¬t.val % 4 = 3) : ¬cond56_1 (grid56.coords t) := fun hc => h ((hcond56_1 t).mp hc)

/-! ## The accumulator and the output block, point by point -/

/-- After the body at position `n`: (the output block's buffer, the accumulator). -/
noncomputable def outsAt56 (c : Dev nD) : (n : ℕ) → n < cfg56.N → Vec F S1024x512 .f32 × Vec F S1024x512 .f32
  | 0, hn => (outIdle56, sout56_A c (grid56.coords ⟨0, hn⟩) (ms56_0 ⟨0, hn⟩) (hs56_0 ⟨0, hn⟩) (ms56_1 ⟨0, hn⟩) (hs56_1 ⟨0, hn⟩) (ms56_2 ⟨0, hn⟩) (hs56_2 ⟨0, hn⟩) scM56 (Memref.isWhole_whole _) (isFirst56 ⟨0, hn⟩ (Nat.zero_mod _)) (notLast56 ⟨0, hn⟩ (by simp)) (iblk56 V c 0 ⟨0, hn⟩) (iblk56 V c 1 ⟨0, hn⟩))
  | n + 1, hn =>
    if h0 : (n + 1) % 4 = 0 then
      (outIdle56, sout56_A c (grid56.coords ⟨n + 1, hn⟩) (ms56_0 ⟨n + 1, hn⟩) (hs56_0 ⟨n + 1, hn⟩) (ms56_1 ⟨n + 1, hn⟩) (hs56_1 ⟨n + 1, hn⟩) (ms56_2 ⟨n + 1, hn⟩) (hs56_2 ⟨n + 1, hn⟩) scM56 (Memref.isWhole_whole _) (isFirst56 ⟨n + 1, hn⟩ h0) (notLast56 ⟨n + 1, hn⟩ (by show ¬(n + 1) % 4 = 3; omega)) (iblk56 V c 0 ⟨n + 1, hn⟩) (iblk56 V c 1 ⟨n + 1, hn⟩))
    else if h3 : (n + 1) % 4 = 3 then
      (out56_C c (grid56.coords ⟨n + 1, hn⟩) (ms56_0 ⟨n + 1, hn⟩) (hs56_0 ⟨n + 1, hn⟩) (ms56_1 ⟨n + 1, hn⟩) (hs56_1 ⟨n + 1, hn⟩) (ms56_2 ⟨n + 1, hn⟩) (hs56_2 ⟨n + 1, hn⟩) scM56 (Memref.isWhole_whole _) (notFirst56 ⟨n + 1, hn⟩ h0) (isLast56 ⟨n + 1, hn⟩ h3) (iblk56 V c 0 ⟨n + 1, hn⟩) (iblk56 V c 1 ⟨n + 1, hn⟩) (outsAt56 c n (Nat.lt_of_succ_lt hn)).2,
       sout56_C c (grid56.coords ⟨n + 1, hn⟩) (ms56_0 ⟨n + 1, hn⟩) (hs56_0 ⟨n + 1, hn⟩) (ms56_1 ⟨n + 1, hn⟩) (hs56_1 ⟨n + 1, hn⟩) (ms56_2 ⟨n + 1, hn⟩) (hs56_2 ⟨n + 1, hn⟩) scM56 (Memref.isWhole_whole _) (notFirst56 ⟨n + 1, hn⟩ h0) (isLast56 ⟨n + 1, hn⟩ h3) (iblk56 V c 0 ⟨n + 1, hn⟩) (iblk56 V c 1 ⟨n + 1, hn⟩) (outsAt56 c n (Nat.lt_of_succ_lt hn)).2)
    else
      (outIdle56, sout56_B c (grid56.coords ⟨n + 1, hn⟩) (ms56_0 ⟨n + 1, hn⟩) (hs56_0 ⟨n + 1, hn⟩) (ms56_1 ⟨n + 1, hn⟩) (hs56_1 ⟨n + 1, hn⟩) (ms56_2 ⟨n + 1, hn⟩) (hs56_2 ⟨n + 1, hn⟩) scM56 (Memref.isWhole_whole _) (notFirst56 ⟨n + 1, hn⟩ h0) (notLast56 ⟨n + 1, hn⟩ h3) (iblk56 V c 0 ⟨n + 1, hn⟩) (iblk56 V c 1 ⟨n + 1, hn⟩) (outsAt56 c n (Nat.lt_of_succ_lt hn)).2)

/-- `outsAt56` at a point with k = 0. -/
theorem outsAt56_A (c : Dev nD) (t : Fin cfg56.N) (h0 : t.val % 4 = 0) :
    outsAt56 V c t.val t.isLt = (outIdle56, sout56_A c (grid56.coords t) (ms56_0 t) (hs56_0 t) (ms56_1 t) (hs56_1 t) (ms56_2 t) (hs56_2 t) scM56 (Memref.isWhole_whole _) (isFirst56 t h0) (notLast56 t (by omega)) (iblk56 V c 0 t) (iblk56 V c 1 t)) := by
  obtain ⟨n, hn⟩ := t
  cases n with
  | zero => rfl
  | succ n => exact (dif_pos h0).trans rfl

/-- `outsAt56` at a point with k = 1, 2: over what the point before left. -/
theorem outsAt56_B (c : Dev nD) (t : Fin cfg56.N) (h0 : ¬t.val % 4 = 0) (h3 : ¬t.val % 4 = 3) :
    outsAt56 V c t.val t.isLt = (outIdle56, sout56_B c (grid56.coords t) (ms56_0 t) (hs56_0 t) (ms56_1 t) (hs56_1 t) (ms56_2 t) (hs56_2 t) scM56 (Memref.isWhole_whole _) (notFirst56 t h0) (notLast56 t h3) (iblk56 V c 0 t) (iblk56 V c 1 t)
      (outsAt56 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt56` at a point with k = 3. -/
theorem outsAt56_C (c : Dev nD) (t : Fin cfg56.N) (h0 : ¬t.val % 4 = 0) (h3 : t.val % 4 = 3) :
    outsAt56 V c t.val t.isLt = (out56_C c (grid56.coords t) (ms56_0 t) (hs56_0 t) (ms56_1 t) (hs56_1 t) (ms56_2 t) (hs56_2 t) scM56 (Memref.isWhole_whole _) (notFirst56 t h0) (isLast56 t h3) (iblk56 V c 0 t) (iblk56 V c 1 t)
        (outsAt56 V c (t.val - 1) (Nat.lt_of_le_of_lt (Nat.sub_le _ _) t.isLt)).2,
      sout56_C c (grid56.coords t) (ms56_0 t) (hs56_0 t) (ms56_1 t) (hs56_1 t) (ms56_2 t) (hs56_2 t) scM56 (Memref.isWhole_whole _) (notFirst56 t h0) (isLast56 t h3) (iblk56 V c 0 t) (iblk56 V c 1 t)
        (outsAt56 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS56 (c : Dev nD) : (n : ℕ) → n ≤ cfg56.N → sProp 𝕄
  | 0, _ => Pipeline.ΦA spec56 c
  | n + 1, hn => iprop(iprop(owns (c : Thread nD τ) scM56 fullShare ((outsAt56 V c n hn).2) ∗ restBut56 c) ∗ (∃ r, prngReg c r))

theorem PhiS56_zero (c : Dev nD) (n : ℕ) (h : n ≤ cfg56.N) (hz : n = 0) : PhiS56 V c n h = Pipeline.ΦA spec56 c := by
  subst hz; rfl
theorem PhiS56_succ (c : Dev nD) (n : ℕ) (hn : n < cfg56.N) :
    PhiS56 V c (n + 1) hn = iprop(iprop(owns (c : Thread nD τ) scM56 fullShare ((outsAt56 V c n hn).2) ∗ restBut56 c) ∗ (∃ r, prngReg c r)) := rfl
theorem PhiS56_pos (c : Dev nD) (n : ℕ) (h : n ≤ cfg56.N) (hz : n ≠ 0) :
    PhiS56 V c n h = iprop(iprop(owns (c : Thread nD τ) scM56 fullShare ((outsAt56 V c (n - 1) (by omega)).2) ∗ restBut56 c) ∗ (∃ r, prngReg c r)) := by
  cases n with
  | zero => exact absurd rfl hz
  | succ n => rfl

/-! ## The proof data -/

/-- The region's proof data on core `c`: the arrays as the region finds them; after the body at point `t` each input's
    buffer at its block and the output's at `outsAt56`'s first component; the invariant `PhiS56`; nothing owed; full shares. -/
noncomputable def dat56 (c : Dev nD) : Dat τ (Elt F) Unit ℕ (UR sig nD τ) ℕ cfg56 c where
  A w := V c (Pipeline.arrRef spec56 w)
  after w t := match w with
    | ⟨0, _⟩ => iblk56 V c 0 t
    | ⟨1, _⟩ => iblk56 V c 1 t
    | ⟨2, _⟩ => (outsAt56 V c t.val t.isLt).1
  Φ t := PhiS56 V c t.val (Nat.le_of_lt_succ t.isLt)
  q _ := fullShare
  owed _ := 0

theorem A_eq56 (c : Dev nD) (w : Fin cfg56.W) : (dat56 V c).A w = V c (Pipeline.arrRef spec56 w) := by
  dsimp only [dat56]
theorem PhiS56_castSucc (c : Dev nD) (t : Fin cfg56.N) :
    (dat56 V c).Φ t.castSucc = PhiS56 V c t.val (Nat.le_of_lt t.isLt) := by
  dsimp only [dat56]; simp only [Fin.coe_castSucc]
theorem after56_0 (c : Dev nD) (t : Fin cfg56.N) : (dat56 V c).after 0 t = iblk56 V c 0 t := by dsimp only [dat56]
theorem after56_1 (c : Dev nD) (t : Fin cfg56.N) : (dat56 V c).after 1 t = iblk56 V c 1 t := by dsimp only [dat56]
theorem after56_2 (c : Dev nD) (t : Fin cfg56.N) : (dat56 V c).after 2 t = (outsAt56 V c t.val t.isLt).1 := by dsimp only [dat56]
theorem before56_0 (c : Dev nD) (t : Fin cfg56.N) (d) : (dat56 V c).before 0 t d = iblk56 V c 0 t :=
  before56_0_of V (dat56 V c) (A_eq56 V c 0) (after56_0 V c) t d
theorem before56_1 (c : Dev nD) (t : Fin cfg56.N) (d) : (dat56 V c).before 1 t d = iblk56 V c 1 t :=
  before56_1_of V (dat56 V c) (A_eq56 V c 1) (after56_1 V c) t d

/-! ## The body's obligation -/

noncomputable def bodyPre56 (c : Dev nD) (t : Fin cfg56.N) : sProp 𝕄 :=
  iprop((dat56 V c).Φ t.castSucc ∗ (dat56 V c).owesAt () t.castSucc
    ∗ (∃ d, owns (c : Thread nD τ) (ms56_0 t) fullShare ((dat56 V c).before 0 t d))
    ∗ (∃ d, owns (c : Thread nD τ) (ms56_1 t) fullShare ((dat56 V c).before 1 t d))
    ∗ (∃ d, owns (c : Thread nD τ) (ms56_2 t) fullShare ((dat56 V c).before 2 t d)))

noncomputable def bodyPost56 (c : Dev nD) (t : Fin cfg56.N) : sProp 𝕄 :=
  iprop((dat56 V c).Φ t.succ ∗ (dat56 V c).owesAt () t.succ
    ∗ (dat56 V c).leavesExact 0 t
    ∗ (dat56 V c).leavesExact 1 t
    ∗ (dat56 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body56 (c : Dev nD) (t : Fin cfg56.N) :
    bodyPre56 V c t ⊢ wp frame (wpE (defs₀ (F := F)) Variants.none c none) Set.univ (bodyAt56 t) (fun _ => bodyPost56 V c t) := by
  unfold bodyPre56 bodyPost56 bodyAt56
  simp only [before56_0, before56_1]
  rw [show (dat56 V c).owesAt () t.succ = (dat56 V c).owesAt () t.castSucc from rfl]
  rw [show (dat56 V c).Φ t.succ = PhiS56 V c (t.val + 1) t.isLt from rfl, PhiS56_succ]
  rw [show (dat56 V c).leavesExact 0 t = owns (c : Thread nD τ) (ms56_0 t) fullShare ((dat56 V c).after 0 t) from by
    unfold Dat.leavesExact; rw [liveAt56_0 t], after56_0]
  rw [show (dat56 V c).leavesExact 1 t = owns (c : Thread nD τ) (ms56_1 t) fullShare ((dat56 V c).after 1 t) from by
    unfold Dat.leavesExact; rw [liveAt56_1 t], after56_1]
  by_cases h0 : t.val % 4 = 0
  · have h3 : ¬t.val % 4 = 3 := by omega
    rw [Dat.leavesExact_idle (dat56 V c) 2 t (idleAt56_2 t (notLast56 t h3)) (noFlush56_2 t (notLast56 t h3))]
    rw [outsAt56_A V c t h0]
    unfold sout56_A; (try dsimp only)
    by_cases hz : t.val = 0
    · rw [PhiS56_castSucc V c t, PhiS56_zero V c _ _ hz, PhiA56_eq]
      iintro ⟨⟨⟨HS0, Hrb⟩, Hg⟩, Ho, ⟨%d0, H0⟩, ⟨%d1, H1⟩, ⟨%d2, H2⟩⟩
      iapply ((kernelRun56_A c (grid56.coords t) _ _ _ _ _ _ _ _ (isFirst56 t h0) (notLast56 t (by omega)) (iblk56 V c 0 t) (iblk56 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover56_A c _ _ _ _ _ _ _ _ _ _ _ _ _)
          iexact Hrb
        iexact Hg
      isplitl [Ho]; · iexact Ho
      isplitl [H0]; · iexact H0
      isplitl [H1]; · iexact H1
      iexists _; iexact H2
    · rw [PhiS56_castSucc V c t, PhiS56_pos V c _ _ hz]
      iintro ⟨⟨⟨HS0, Hrb⟩, Hg⟩, Ho, ⟨%d0, H0⟩, ⟨%d1, H1⟩, ⟨%d2, H2⟩⟩
      iapply ((kernelRun56_A c (grid56.coords t) _ _ _ _ _ _ _ _ (isFirst56 t h0) (notLast56 t (by omega)) (iblk56 V c 0 t) (iblk56 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover56_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat56 V c).leavesExact 2 t = owns (c : Thread nD τ) (ms56_2 t) fullShare ((dat56 V c).after 2 t) from by
        unfold Dat.leavesExact; rw [liveAt56_2 t (isLast56 t h3)], after56_2]
      rw [outsAt56_C V c t h0 h3]
      unfold out56_C sout56_C; (try dsimp only)
      rw [PhiS56_castSucc V c t, PhiS56_pos V c _ _ hz]
      iintro ⟨⟨⟨HS0, Hrb⟩, Hg⟩, Ho, ⟨%d0, H0⟩, ⟨%d1, H1⟩, ⟨%d2, H2⟩⟩
      iapply ((kernelRun56_C c (grid56.coords t) _ _ _ _ _ _ _ _ (notFirst56 t h0) (isLast56 t h3) (iblk56 V c 0 t) (iblk56 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover56_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover56_C c _ _ _ _ _ _ _ _ _ _ _ _ _ _)
    · rw [Dat.leavesExact_idle (dat56 V c) 2 t (idleAt56_2 t (notLast56 t h3)) (noFlush56_2 t (notLast56 t h3))]
      rw [outsAt56_B V c t h0 h3]
      unfold sout56_B; (try dsimp only)
      rw [PhiS56_castSucc V c t, PhiS56_pos V c _ _ hz]
      iintro ⟨⟨⟨HS0, Hrb⟩, Hg⟩, Ho, ⟨%d0, H0⟩, ⟨%d1, H1⟩, ⟨%d2, H2⟩⟩
      iapply ((kernelRun56_B c (grid56.coords t) _ _ _ _ _ _ _ _ (notFirst56 t h0) (notLast56 t h3) (iblk56 V c 0 t) (iblk56 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover56_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation56 (c : Dev nD) : BodyObligation (dat56 (F := F) V c) (defs₀ (F := F)) Variants.none () Set.univ := fun t => by
  rw [bigSep_W56, bigSep_W56]
  exact sound_body56 V c t

/-- What the region is entered with is the invariant before the first point. -/
theorem hin56 (c : Dev nD) : Pipeline.ΦA spec56 c ⊢ (dat56 V c).Φ 0 := by
  rw [show (dat56 V c).Φ 0 = PhiS56 V c 0 (Nat.zero_le _) from rfl, PhiS56_zero V c 0 _ rfl]
  try exact Idealize.SL.BI.Entails.refl _

/-- After the last point the invariant gives the class's back: the accumulator's contents are forgotten. -/
theorem hout56 (c : Dev nD) : (dat56 V c).Φ (Fin.last cfg56.N) ⊢ Pipeline.ΦA spec56 c := by
  have hN : cfg56.N = 16 := N_56
  rw [show (dat56 V c).Φ (Fin.last cfg56.N) = PhiS56 V c (Fin.last cfg56.N).val (Nat.le_of_lt_succ (Fin.last cfg56.N).isLt) from rfl,
    PhiS56_pos V c _ _ (by rw [Fin.val_last]; omega), PhiA56_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI57a.lean ====
/- Laid out by: python3 scratch/layout_regions.py --template-region 1 --region 57 --program KernelIdeal --parts a,b,c, --out-dir proof/Proof
   from the hand-written text of region 1 (RegKI1a.lean): the same text, the region's number substituted. -/
/-
  Region 57 of @main (custom_call 57): one K-blocked matrix product, a[1024 r .. , 1024 k ..] (bf16) times b[1024 k .., :] (f32)
  accumulated over k = 0 … 3 into an f32 scratch of the output block's shape and copied to the output block at k = 3.
  The grid point t is (r, k) = (t / 4, t % 4). The body has two conditionals on k alone: "k = 0" (zero the scratch first)
  and "k = 3" (copy the scratch out last), so a point is in one of three cases:
    A  k = 0      the scratch is overwritten with zeros, then the product is added; nothing is stored to the output block
    B  k = 1, 2   the product is added to what the point before left in the scratch; nothing is stored to the output block
    C  k = 3      the product is added, and the output block is overwritten with the scratch
  This module: the two conditions in closed form over the grid, where the output window is idle and where it is written back,
  the scratch as a memref, the region's invariant split at the scratch, and case A's run of the whole body.
-/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- "k = 0": the first conditional's test, from the grid coordinates. -/
abbrev cond57_0 (i : grid57.Coords) : Prop := (Scalar.cmpi .ne (Scalar.extui (Scalar.cmpi .eq (BitVec.ofNat 32 (i 1).val) 0#32)) 0#32) = 1#1
/-- It holds exactly at the points with t % 4 = 0. -/
theorem hcond57_0 : ∀ t : Fin cfg57.N, cond57_0 (grid57.coords t) ↔ t.val % 4 = 0 :=
  (by decide +kernel : ∀ t : Fin grid57.N, cond57_0 (grid57.coords t) ↔ t.val % 4 = 0)

/-- "k = 3": the second conditional's test. -/
abbrev cond57_1 (i : grid57.Coords) : Prop := k57_cond2 i = 1#1
/-- It holds exactly at the points with t % 4 = 3. -/
theorem hcond57_1 : ∀ t : Fin cfg57.N, cond57_1 (grid57.coords t) ↔ t.val % 4 = 3 :=
  (by decide +kernel : ∀ t : Fin grid57.N, cond57_1 (grid57.coords t) ↔ t.val % 4 = 3)

/-! ## Where the windows are idle, and where the output is written back -/

/-- The two input windows are never idle. -/
theorem liveAt57_0 : ∀ t : Fin cfg57.N, cfg57.idle 0 (grid57.coords t) = false := by decide +kernel
theorem liveAt57_1 : ∀ t : Fin cfg57.N, cfg57.idle 1 (grid57.coords t) = false := by decide +kernel
/-- Where k ≠ 3 the output window is idle (the body stores nothing into it) and is not written back. -/
theorem idleAt57_2 : ∀ t : Fin cfg57.N, ¬cond57_1 (grid57.coords t) → cfg57.idle 2 (grid57.coords t) = true := by decide +kernel
theorem noFlush57_2 : ∀ t : Fin cfg57.N, ¬cond57_1 (grid57.coords t) → (cfg57.win 2).flush t = false := by decide +kernel
/-- Where k = 3 it is live. -/
theorem liveAt57_2 : ∀ t : Fin cfg57.N, cond57_1 (grid57.coords t) → cfg57.idle 2 (grid57.coords t) = false := by decide +kernel

/-! ## The staging memrefs at a point, and the scratch -/

/-- One staging buffer of the output window, through which its contents are stated. -/
abbrev VO57_2 : View sig .tc .vmem S1024x512 .f32 := (Memref.whole cc57_stg2_0 : Memref sig .tc .vmem S1024x512 .f32).view
abbrev ms57_0 (t : Fin cfg57.N) : Memref sig .tc .vmem S1024x1024 .bf16 := win57_0.stage (cfg57.slots t 0)
abbrev hs57_0 (t : Fin cfg57.N) : (ms57_0 t).IsWhole := hstage57_0 ((cfg57.slots t 0).cast nbuf57_0)
abbrev ms57_1 (t : Fin cfg57.N) : Memref sig .tc .vmem S1024x512 .f32 := win57_1.stage (cfg57.slots t 1)
abbrev hs57_1 (t : Fin cfg57.N) : (ms57_1 t).IsWhole := hstage57_1 ((cfg57.slots t 1).cast nbuf57_1)
abbrev ms57_2 (t : Fin cfg57.N) : Memref sig .tc .vmem S1024x512 .f32 := win57_2.stage (cfg57.slots t 2)
abbrev hs57_2 (t : Fin cfg57.N) : (ms57_2 t).IsWhole := hstage57_2 ((cfg57.slots t 2).cast nbuf57_2)
/-- The accumulator: a whole scoped buffer of the kernel's own. -/
abbrev scM57 : Memref sig .tc .vmem S1024x512 .f32 := Memref.whole cc57_scratch0
abbrev VS57 : View sig .tc .vmem S1024x512 .f32 := scM57.view

/-- The other scoped buffers of the core, none of which this region touches. -/
abbrev restBut57 (c : Dev nD) : sProp 𝕄 :=
  Pipeline.scopedRestBut (Ix := Unit) (Name := ℕ) (U := UR sig nD τ) (Lvl := ℕ) (Val := Elt F) spec57 c [cc57_scratch0]

/-- The region's invariant before its first point: the accumulator at something, the other scoped buffers, the generator register. -/
theorem PhiA57_eq (c : Dev nD) :
    (Pipeline.ΦA spec57 c : sProp 𝕄)
      = iprop(iprop((∃ d, owns (c : Thread nD τ) scM57 fullShare d) ∗ restBut57 c) ∗ (∃ r, prngReg c r)) := by
  unfold Pipeline.ΦA; rw [scopedRest57_split]; simp only [scM57, owns_whole]; try rfl

/-! ## Case A (k = 0): the body's run -/

set_option maxHeartbeats 1000000 in
/-- At a point with k = 0, on whole memrefs — the two inputs at their blocks, the output block at anything (handed back
    untouched), the accumulator at anything — the body runs to its end; the accumulator then holds the pieces its two
    stores wrote (zeros, then zeros plus the product). -/
noncomputable def kernelRun57_A (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond57_0 i) (hc1 : ¬cond57_1 i)
    (x0 : Vec F S1024x1024 .bf16) (x1 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc57__matmul_kernel i arg2 harg2 arg3 harg3 arg4 harg4 arg5 harg5) K } := by
  refine ⟨[], ?_, fun xi2 E K => ?run⟩
  case run =>
    simp only [cc57__matmul_kernel_eq_skeleton]; unfold cc57__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI57b.lean ====
/- Laid out by: python3 scratch/layout_regions.py --template-region 1 --region 57 --program KernelIdeal --parts a,b,c, --out-dir proof/Proof
   from the hand-written text of region 1 (RegKI1b.lean): the same text, the region's number substituted. -/
/-
  Region 57, case B (k = 1, 2): the body's run. Neither conditional is taken: the product of the two blocks is added to what
  the point before left in the accumulator; the output block is not touched.
-/
import proofs.«158944_j64613488001249_1_alg».proof.Proof.RegKI57a

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 or 2, on whole memrefs — the inputs at their blocks, the output block at anything (handed back
    untouched), the accumulator at what the point before left (`xs0`) — the body runs to its end; the accumulator then
    holds the piece its one store wrote. -/
noncomputable def kernelRun57_B (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond57_0 i) (hc1 : ¬cond57_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc57__matmul_kernel i arg2 harg2 arg3 harg3 arg4 harg4 arg5 harg5) K } := by
  refine ⟨[], ?_, fun xi2 E K => ?run⟩
  case run =>
    simp only [cc57__matmul_kernel_eq_skeleton]; unfold cc57__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RegKI57c.lean ====
/- Laid out by: python3 scratch/layout_regions.py --template-region 1 --region 57 --program KernelIdeal --parts a,b,c, --out-dir proof/Proof
   from the hand-written text of region 1 (RegKI1c.lean): the same text, the region's number substituted. -/
/-
  Region 57, case C (k = 3): the body's run. The product is added to the accumulator as in case B, and then the second
  conditional copies the accumulator over the whole output block.
-/
import proofs.«158944_j64613488001249_1_alg».proof.Proof.RegKI57b

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 3, on whole memrefs — the inputs at their blocks, the output block at anything, the accumulator at
    what the point before left (`xs0`) — the body runs to its end; the accumulator holds the piece its store wrote and the
    output block the piece copied from it. -/
noncomputable def kernelRun57_C (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond57_0 i) (hc1 : cond57_1 i)
    (x0 : Vec F S1024x1024 .bf16) (x1 : Vec F S1024x512 .f32) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc57__matmul_kernel i arg2 harg2 arg3 harg3 arg4 harg4 arg5 harg5) K } := by
  refine ⟨?_, ?_, fun E K => ?run⟩
  case run =>
    simp only [cc57__matmul_kernel_eq_skeleton]; unfold cc57__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RegKI57.lean ====
/- Laid out by: python3 scratch/layout_regions.py --template-region 1 --region 57 --program KernelIdeal --parts a,b,c, --out-dir proof/Proof
   from the hand-written text of region 1 (RegKI1.lean): the same text, the region's number substituted. -/
/-
  Region 57 of @main, entered from the buffer contents `V`: what its windows' blocks are, what each case of the body leaves in
  the accumulator and in the output block, the accumulator and the output block point by point (`outsAt57`: at k = 0 the
  accumulator restarts from zeros plus the product; at k = 1, 2, 3 it is the point before's plus the product; at k = 3 the
  output block is the accumulator), the region's invariant (the accumulator at `outsAt57`'s second component), the proof data,
  and the body's obligation at every point.
-/
import proofs.«158944_j64613488001249_1_alg».proof.Proof.RegKI57c

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk57 (c : Dev nD) (w : Fin cfg57.W) (t : Fin cfg57.N) : ((cfg57.win w).xblock (cfg57.grid.coords t)).Idx → Elt F (cfg57.win w).elt :=
  ((cfg57.win w).blk t).view.read (Elt F) (V c (Pipeline.arrRef spec57 w))

/-- An input window's current staging buffer holds its block at every point, for any proof data whose array is `V`'s and
    whose body leaves the block in place. -/
theorem before57_0_of {c : Dev nD} (dat : Dat τ (Elt F) Unit ℕ (UR sig nD τ) ℕ cfg57 c) (hA : dat.A 0 = V c (Pipeline.arrRef spec57 0))
    (hafter : ∀ t, dat.after 0 t = iblk57 V c 0 t) (t : Fin cfg57.N) (d) : dat.before 0 t d = iblk57 V c 0 t :=
  (dat.before_in_eq_fetched 0 rfl (fun _ => rfl) (fun _ _ _ => rfl) (fun t => by rw [hafter]; unfold Dat.blockOf iblk57; rw [hA]; try rfl) t d).trans
    (by unfold Dat.fetched Dat.blockOf iblk57; rw [hA]; try rfl)
theorem before57_1_of {c : Dev nD} (dat : Dat τ (Elt F) Unit ℕ (UR sig nD τ) ℕ cfg57 c) (hA : dat.A 1 = V c (Pipeline.arrRef spec57 1))
    (hafter : ∀ t, dat.after 1 t = iblk57 V c 1 t) (t : Fin cfg57.N) (d) : dat.before 1 t d = iblk57 V c 1 t :=
  (dat.before_in_eq_fetched 1 rfl (fun _ => rfl) (fun _ _ _ => rfl) (fun t => by rw [hafter]; unfold Dat.blockOf iblk57; rw [hA]; try rfl) t d).trans
    (by unfold Dat.fetched Dat.blockOf iblk57; rw [hA]; try rfl)

/-! ## What each case leaves -/

/-- Case A's stores into the accumulator cover it. -/
theorem scover57_A (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond57_0 i) (hc1 : ¬cond57_1 i)
    (x0 : Vec F S1024x1024 .bf16) (x1 : Vec F S1024x512 .f32) (y : S1024x512.Idx) :
    ∃ pc ∈ (kernelRun57_A c i arg2 harg2 arg3 harg3 arg4 harg4 arg5 harg5 hc0 hc1 x0 x1).2.1, y ∈ pc.1.set :=
  View.cover_of_tiledL (kernelRun57_A c i arg2 harg2 arg3 harg3 arg4 harg4 arg5 harg5 hc0 hc1 x0 x1).2.1 S1024x512.size (by sl_kernel_rfl) y
/-- What case A leaves in the accumulator. -/
noncomputable def sout57_A (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond57_0 i) (hc1 : ¬cond57_1 i)
    (x0 : Vec F S1024x1024 .bf16) (x1 : Vec F S1024x512 .f32) : Vec F S1024x512 .f32 :=
  VS57.read (Elt F) (VS57.writes (Elt F) VS57.junk (kernelRun57_A c i arg2 harg2 arg3 harg3 arg4 harg4 arg5 harg5 hc0 hc1 x0 x1).2.1)

/-- Case B's store into the accumulator covers it. -/
theorem scover57_B (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond57_0 i) (hc1 : ¬cond57_1 i)
    (x0 : Vec F S1024x1024 .bf16) (x1 : Vec F S1024x512 .f32) (xs0 : Vec F S1024x512 .f32) (y : S1024x512.Idx) :
    ∃ pc ∈ (kernelRun57_B c i arg2 harg2 arg3 harg3 arg4 harg4 arg5 harg5 hc0 hc1 x0 x1 xs0).2.1, y ∈ pc.1.set :=
  View.cover_of_tiledL (kernelRun57_B c i arg2 harg2 arg3 harg3 arg4 harg4 arg5 harg5 hc0 hc1 x0 x1 xs0).2.1 S1024x512.size (by sl_kernel_rfl) y
/-- What case B leaves in the accumulator, over what the point before left. -/
noncomputable def sout57_B (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond57_0 i) (hc1 : ¬cond57_1 i)
    (x0 : Vec F S1024x1024 .bf16) (x1 : Vec F S1024x512 .f32) (xs0 : Vec F S1024x512 .f32) : Vec F S1024x512 .f32 :=
  VS57.read (Elt F) (VS57.writes (Elt F) VS57.junk (kernelRun57_B c i arg2 harg2 arg3 harg3 arg4 harg4 arg5 harg5 hc0 hc1 x0 x1 xs0).2.1)

/-- Case C's store into the output block covers it, and so does its store into the accumulator. -/
theorem cover57_C (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond57_0 i) (hc1 : cond57_1 i)
    (x0 : Vec F S1024x1024 .bf16) (x1 : Vec F S1024x512 .f32) (xs0 : Vec F S1024x512 .f32) (y : S1024x512.Idx) :
    ∃ pc ∈ (kernelRun57_C c i arg2 harg2 arg3 harg3 arg4 harg4 arg5 harg5 hc0 hc1 x0 x1 xs0).1, y ∈ pc.1.set :=
  View.cover_of_tiledL (kernelRun57_C c i arg2 harg2 arg3 harg3 arg4 harg4 arg5 harg5 hc0 hc1 x0 x1 xs0).1 S1024x512.size (by sl_kernel_rfl) y
theorem scover57_C (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond57_0 i) (hc1 : cond57_1 i)
    (x0 : Vec F S1024x1024 .bf16) (x1 : Vec F S1024x512 .f32) (xs0 : Vec F S1024x512 .f32) (y : S1024x512.Idx) :
    ∃ pc ∈ (kernelRun57_C c i arg2 harg2 arg3 harg3 arg4 harg4 arg5 harg5 hc0 hc1 x0 x1 xs0).2.1, y ∈ pc.1.set :=
  View.cover_of_tiledL (kernelRun57_C c i arg2 harg2 arg3 harg3 arg4 harg4 arg5 harg5 hc0 hc1 x0 x1 xs0).2.1 S1024x512.size (by sl_kernel_rfl) y
/-- What case C leaves in the output block, and in the accumulator. -/
noncomputable def out57_C (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond57_0 i) (hc1 : cond57_1 i)
    (x0 : Vec F S1024x1024 .bf16) (x1 : Vec F S1024x512 .f32) (xs0 : Vec F S1024x512 .f32) : Vec F S1024x512 .f32 :=
  VO57_2.read (Elt F) (VO57_2.writes (Elt F) VO57_2.junk (kernelRun57_C c i arg2 harg2 arg3 harg3 arg4 harg4 arg5 harg5 hc0 hc1 x0 x1 xs0).1)
noncomputable def sout57_C (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond57_0 i) (hc1 : cond57_1 i)
    (x0 : Vec F S1024x1024 .bf16) (x1 : Vec F S1024x512 .f32) (xs0 : Vec F S1024x512 .f32) : Vec F S1024x512 .f32 :=
  VS57.read (Elt F) (VS57.writes (Elt F) VS57.junk (kernelRun57_C c i arg2 harg2 arg3 harg3 arg4 harg4 arg5 harg5 hc0 hc1 x0 x1 xs0).2.1)

/-- Where the output block is idle nothing consults what it holds: a placeholder. -/
noncomputable def outIdle57 : Vec F S1024x512 .f32 := VO57_2.read (Elt F) (VO57_2.writes (Elt F) VO57_2.junk [])

/-! ## The conditions at a point, from t % 4 -/

theorem isFirst57 (t : Fin cfg57.N) (h : t.val % 4 = 0) : cond57_0 (grid57.coords t) := (hcond57_0 t).mpr h
theorem notFirst57 (t : Fin cfg57.N) (h : ¬t.val % 4 = 0) : ¬cond57_0 (grid57.coords t) := fun hc => h ((hcond57_0 t).mp hc)
theorem isLast57 (t : Fin cfg57.N) (h : t.val % 4 = 3) : cond57_1 (grid57.coords t) := (hcond57_1 t).mpr h
theorem notLast57 (t : Fin cfg57.N) (h : ¬t.val % 4 = 3) : ¬cond57_1 (grid57.coords t) := fun hc => h ((hcond57_1 t).mp hc)

/-! ## The accumulator and the output block, point by point -/

/-- After the body at position `n`: (the output block's buffer, the accumulator). -/
noncomputable def outsAt57 (c : Dev nD) : (n : ℕ) → n < cfg57.N → Vec F S1024x512 .f32 × Vec F S1024x512 .f32
  | 0, hn => (outIdle57, sout57_A c (grid57.coords ⟨0, hn⟩) (ms57_0 ⟨0, hn⟩) (hs57_0 ⟨0, hn⟩) (ms57_1 ⟨0, hn⟩) (hs57_1 ⟨0, hn⟩) (ms57_2 ⟨0, hn⟩) (hs57_2 ⟨0, hn⟩) scM57 (Memref.isWhole_whole _) (isFirst57 ⟨0, hn⟩ (Nat.zero_mod _)) (notLast57 ⟨0, hn⟩ (by simp)) (iblk57 V c 0 ⟨0, hn⟩) (iblk57 V c 1 ⟨0, hn⟩))
  | n + 1, hn =>
    if h0 : (n + 1) % 4 = 0 then
      (outIdle57, sout57_A c (grid57.coords ⟨n + 1, hn⟩) (ms57_0 ⟨n + 1, hn⟩) (hs57_0 ⟨n + 1, hn⟩) (ms57_1 ⟨n + 1, hn⟩) (hs57_1 ⟨n + 1, hn⟩) (ms57_2 ⟨n + 1, hn⟩) (hs57_2 ⟨n + 1, hn⟩) scM57 (Memref.isWhole_whole _) (isFirst57 ⟨n + 1, hn⟩ h0) (notLast57 ⟨n + 1, hn⟩ (by show ¬(n + 1) % 4 = 3; omega)) (iblk57 V c 0 ⟨n + 1, hn⟩) (iblk57 V c 1 ⟨n + 1, hn⟩))
    else if h3 : (n + 1) % 4 = 3 then
      (out57_C c (grid57.coords ⟨n + 1, hn⟩) (ms57_0 ⟨n + 1, hn⟩) (hs57_0 ⟨n + 1, hn⟩) (ms57_1 ⟨n + 1, hn⟩) (hs57_1 ⟨n + 1, hn⟩) (ms57_2 ⟨n + 1, hn⟩) (hs57_2 ⟨n + 1, hn⟩) scM57 (Memref.isWhole_whole _) (notFirst57 ⟨n + 1, hn⟩ h0) (isLast57 ⟨n + 1, hn⟩ h3) (iblk57 V c 0 ⟨n + 1, hn⟩) (iblk57 V c 1 ⟨n + 1, hn⟩) (outsAt57 c n (Nat.lt_of_succ_lt hn)).2,
       sout57_C c (grid57.coords ⟨n + 1, hn⟩) (ms57_0 ⟨n + 1, hn⟩) (hs57_0 ⟨n + 1, hn⟩) (ms57_1 ⟨n + 1, hn⟩) (hs57_1 ⟨n + 1, hn⟩) (ms57_2 ⟨n + 1, hn⟩) (hs57_2 ⟨n + 1, hn⟩) scM57 (Memref.isWhole_whole _) (notFirst57 ⟨n + 1, hn⟩ h0) (isLast57 ⟨n + 1, hn⟩ h3) (iblk57 V c 0 ⟨n + 1, hn⟩) (iblk57 V c 1 ⟨n + 1, hn⟩) (outsAt57 c n (Nat.lt_of_succ_lt hn)).2)
    else
      (outIdle57, sout57_B c (grid57.coords ⟨n + 1, hn⟩) (ms57_0 ⟨n + 1, hn⟩) (hs57_0 ⟨n + 1, hn⟩) (ms57_1 ⟨n + 1, hn⟩) (hs57_1 ⟨n + 1, hn⟩) (ms57_2 ⟨n + 1, hn⟩) (hs57_2 ⟨n + 1, hn⟩) scM57 (Memref.isWhole_whole _) (notFirst57 ⟨n + 1, hn⟩ h0) (notLast57 ⟨n + 1, hn⟩ h3) (iblk57 V c 0 ⟨n + 1, hn⟩) (iblk57 V c 1 ⟨n + 1, hn⟩) (outsAt57 c n (Nat.lt_of_succ_lt hn)).2)

/-- `outsAt57` at a point with k = 0. -/
theorem outsAt57_A (c : Dev nD) (t : Fin cfg57.N) (h0 : t.val % 4 = 0) :
    outsAt57 V c t.val t.isLt = (outIdle57, sout57_A c (grid57.coords t) (ms57_0 t) (hs57_0 t) (ms57_1 t) (hs57_1 t) (ms57_2 t) (hs57_2 t) scM57 (Memref.isWhole_whole _) (isFirst57 t h0) (notLast57 t (by omega)) (iblk57 V c 0 t) (iblk57 V c 1 t)) := by
  obtain ⟨n, hn⟩ := t
  cases n with
  | zero => rfl
  | succ n => exact (dif_pos h0).trans rfl

/-- `outsAt57` at a point with k = 1, 2: over what the point before left. -/
theorem outsAt57_B (c : Dev nD) (t : Fin cfg57.N) (h0 : ¬t.val % 4 = 0) (h3 : ¬t.val % 4 = 3) :
    outsAt57 V c t.val t.isLt = (outIdle57, sout57_B c (grid57.coords t) (ms57_0 t) (hs57_0 t) (ms57_1 t) (hs57_1 t) (ms57_2 t) (hs57_2 t) scM57 (Memref.isWhole_whole _) (notFirst57 t h0) (notLast57 t h3) (iblk57 V c 0 t) (iblk57 V c 1 t)
      (outsAt57 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt57` at a point with k = 3. -/
theorem outsAt57_C (c : Dev nD) (t : Fin cfg57.N) (h0 : ¬t.val % 4 = 0) (h3 : t.val % 4 = 3) :
    outsAt57 V c t.val t.isLt = (out57_C c (grid57.coords t) (ms57_0 t) (hs57_0 t) (ms57_1 t) (hs57_1 t) (ms57_2 t) (hs57_2 t) scM57 (Memref.isWhole_whole _) (notFirst57 t h0) (isLast57 t h3) (iblk57 V c 0 t) (iblk57 V c 1 t)
        (outsAt57 V c (t.val - 1) (Nat.lt_of_le_of_lt (Nat.sub_le _ _) t.isLt)).2,
      sout57_C c (grid57.coords t) (ms57_0 t) (hs57_0 t) (ms57_1 t) (hs57_1 t) (ms57_2 t) (hs57_2 t) scM57 (Memref.isWhole_whole _) (notFirst57 t h0) (isLast57 t h3) (iblk57 V c 0 t) (iblk57 V c 1 t)
        (outsAt57 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region's invariant -/

/-- Before position `n`: at the region's entry the class's invariant; afterwards the accumulator at what the point before
    left, the other scoped buffers, the generator register. -/
noncomputable def PhiS57 (c : Dev nD) : (n : ℕ) → n ≤ cfg57.N → sProp 𝕄
  | 0, _ => Pipeline.ΦA spec57 c
  | n + 1, hn => iprop(iprop(owns (c : Thread nD τ) scM57 fullShare ((outsAt57 V c n hn).2) ∗ restBut57 c) ∗ (∃ r, prngReg c r))

theorem PhiS57_zero (c : Dev nD) (n : ℕ) (h : n ≤ cfg57.N) (hz : n = 0) : PhiS57 V c n h = Pipeline.ΦA spec57 c := by
  subst hz; rfl
theorem PhiS57_succ (c : Dev nD) (n : ℕ) (hn : n < cfg57.N) :
    PhiS57 V c (n + 1) hn = iprop(iprop(owns (c : Thread nD τ) scM57 fullShare ((outsAt57 V c n hn).2) ∗ restBut57 c) ∗ (∃ r, prngReg c r)) := rfl
theorem PhiS57_pos (c : Dev nD) (n : ℕ) (h : n ≤ cfg57.N) (hz : n ≠ 0) :
    PhiS57 V c n h = iprop(iprop(owns (c : Thread nD τ) scM57 fullShare ((outsAt57 V c (n - 1) (by omega)).2) ∗ restBut57 c) ∗ (∃ r, prngReg c r)) := by
  cases n with
  | zero => exact absurd rfl hz
  | succ n => rfl

/-! ## The proof data -/

/-- The region's proof data on core `c`: the arrays as the region finds them; after the body at point `t` each input's
    buffer at its block and the output's at `outsAt57`'s first component; the invariant `PhiS57`; nothing owed; full shares. -/
noncomputable def dat57 (c : Dev nD) : Dat τ (Elt F) Unit ℕ (UR sig nD τ) ℕ cfg57 c where
  A w := V c (Pipeline.arrRef spec57 w)
  after w t := match w with
    | ⟨0, _⟩ => iblk57 V c 0 t
    | ⟨1, _⟩ => iblk57 V c 1 t
    | ⟨2, _⟩ => (outsAt57 V c t.val t.isLt).1
  Φ t := PhiS57 V c t.val (Nat.le_of_lt_succ t.isLt)
  q _ := fullShare
  owed _ := 0

theorem A_eq57 (c : Dev nD) (w : Fin cfg57.W) : (dat57 V c).A w = V c (Pipeline.arrRef spec57 w) := by
  dsimp only [dat57]
theorem PhiS57_castSucc (c : Dev nD) (t : Fin cfg57.N) :
    (dat57 V c).Φ t.castSucc = PhiS57 V c t.val (Nat.le_of_lt t.isLt) := by
  dsimp only [dat57]; simp only [Fin.coe_castSucc]
theorem after57_0 (c : Dev nD) (t : Fin cfg57.N) : (dat57 V c).after 0 t = iblk57 V c 0 t := by dsimp only [dat57]
theorem after57_1 (c : Dev nD) (t : Fin cfg57.N) : (dat57 V c).after 1 t = iblk57 V c 1 t := by dsimp only [dat57]
theorem after57_2 (c : Dev nD) (t : Fin cfg57.N) : (dat57 V c).after 2 t = (outsAt57 V c t.val t.isLt).1 := by dsimp only [dat57]
theorem before57_0 (c : Dev nD) (t : Fin cfg57.N) (d) : (dat57 V c).before 0 t d = iblk57 V c 0 t :=
  before57_0_of V (dat57 V c) (A_eq57 V c 0) (after57_0 V c) t d
theorem before57_1 (c : Dev nD) (t : Fin cfg57.N) (d) : (dat57 V c).before 1 t d = iblk57 V c 1 t :=
  before57_1_of V (dat57 V c) (A_eq57 V c 1) (after57_1 V c) t d

/-! ## The body's obligation -/

noncomputable def bodyPre57 (c : Dev nD) (t : Fin cfg57.N) : sProp 𝕄 :=
  iprop((dat57 V c).Φ t.castSucc ∗ (dat57 V c).owesAt () t.castSucc
    ∗ (∃ d, owns (c : Thread nD τ) (ms57_0 t) fullShare ((dat57 V c).before 0 t d))
    ∗ (∃ d, owns (c : Thread nD τ) (ms57_1 t) fullShare ((dat57 V c).before 1 t d))
    ∗ (∃ d, owns (c : Thread nD τ) (ms57_2 t) fullShare ((dat57 V c).before 2 t d)))

noncomputable def bodyPost57 (c : Dev nD) (t : Fin cfg57.N) : sProp 𝕄 :=
  iprop((dat57 V c).Φ t.succ ∗ (dat57 V c).owesAt () t.succ
    ∗ (dat57 V c).leavesExact 0 t
    ∗ (dat57 V c).leavesExact 1 t
    ∗ (dat57 V c).leavesExact 2 t)

set_option maxHeartbeats 4800000 in
/-- The body at any point. The inputs' buffers hold their blocks; t % 4 says which case the point is in; the invariant hands
    the body the accumulator at what the point before left (at anything at the region's first point), and takes it back at
    this point's contents; where k ≠ 3 the output block's buffer goes back as it came; the core owes nothing throughout. -/
theorem sound_body57 (c : Dev nD) (t : Fin cfg57.N) :
    bodyPre57 V c t ⊢ wp frame (wpE (defs₀ (F := F)) Variants.none c none) Set.univ (bodyAt57 t) (fun _ => bodyPost57 V c t) := by
  unfold bodyPre57 bodyPost57 bodyAt57
  simp only [before57_0, before57_1]
  rw [show (dat57 V c).owesAt () t.succ = (dat57 V c).owesAt () t.castSucc from rfl]
  rw [show (dat57 V c).Φ t.succ = PhiS57 V c (t.val + 1) t.isLt from rfl, PhiS57_succ]
  rw [show (dat57 V c).leavesExact 0 t = owns (c : Thread nD τ) (ms57_0 t) fullShare ((dat57 V c).after 0 t) from by
    unfold Dat.leavesExact; rw [liveAt57_0 t], after57_0]
  rw [show (dat57 V c).leavesExact 1 t = owns (c : Thread nD τ) (ms57_1 t) fullShare ((dat57 V c).after 1 t) from by
    unfold Dat.leavesExact; rw [liveAt57_1 t], after57_1]
  by_cases h0 : t.val % 4 = 0
  · have h3 : ¬t.val % 4 = 3 := by omega
    rw [Dat.leavesExact_idle (dat57 V c) 2 t (idleAt57_2 t (notLast57 t h3)) (noFlush57_2 t (notLast57 t h3))]
    rw [outsAt57_A V c t h0]
    unfold sout57_A; (try dsimp only)
    by_cases hz : t.val = 0
    · rw [PhiS57_castSucc V c t, PhiS57_zero V c _ _ hz, PhiA57_eq]
      iintro ⟨⟨⟨HS0, Hrb⟩, Hg⟩, Ho, ⟨%d0, H0⟩, ⟨%d1, H1⟩, ⟨%d2, H2⟩⟩
      iapply ((kernelRun57_A c (grid57.coords t) _ _ _ _ _ _ _ _ (isFirst57 t h0) (notLast57 t (by omega)) (iblk57 V c 0 t) (iblk57 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover57_A c _ _ _ _ _ _ _ _ _ _ _ _ _)
          iexact Hrb
        iexact Hg
      isplitl [Ho]; · iexact Ho
      isplitl [H0]; · iexact H0
      isplitl [H1]; · iexact H1
      iexists _; iexact H2
    · rw [PhiS57_castSucc V c t, PhiS57_pos V c _ _ hz]
      iintro ⟨⟨⟨HS0, Hrb⟩, Hg⟩, Ho, ⟨%d0, H0⟩, ⟨%d1, H1⟩, ⟨%d2, H2⟩⟩
      iapply ((kernelRun57_A c (grid57.coords t) _ _ _ _ _ _ _ _ (isFirst57 t h0) (notLast57 t (by omega)) (iblk57 V c 0 t) (iblk57 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover57_A c _ _ _ _ _ _ _ _ _ _ _ _ _)
          iexact Hrb
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dat57 V c).leavesExact 2 t = owns (c : Thread nD τ) (ms57_2 t) fullShare ((dat57 V c).after 2 t) from by
        unfold Dat.leavesExact; rw [liveAt57_2 t (isLast57 t h3)], after57_2]
      rw [outsAt57_C V c t h0 h3]
      unfold out57_C sout57_C; (try dsimp only)
      rw [PhiS57_castSucc V c t, PhiS57_pos V c _ _ hz]
      iintro ⟨⟨⟨HS0, Hrb⟩, Hg⟩, Ho, ⟨%d0, H0⟩, ⟨%d1, H1⟩, ⟨%d2, H2⟩⟩
      iapply ((kernelRun57_C c (grid57.coords t) _ _ _ _ _ _ _ _ (notFirst57 t h0) (isLast57 t h3) (iblk57 V c 0 t) (iblk57 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover57_C c _ _ _ _ _ _ _ _ _ _ _ _ _ _)
          iexact Hrb
        iexact Hg
      isplitl [Ho]; · iexact Ho
      isplitl [H0]; · iexact H0
      isplitl [H1]; · iexact H1
      unfold owns; iexists _; isplitr
      swap; · iexact H2
      ipureintro; exact View.read_writes_of_cover _ _ _ _ _ (cover57_C c _ _ _ _ _ _ _ _ _ _ _ _ _ _)
    · rw [Dat.leavesExact_idle (dat57 V c) 2 t (idleAt57_2 t (notLast57 t h3)) (noFlush57_2 t (notLast57 t h3))]
      rw [outsAt57_B V c t h0 h3]
      unfold sout57_B; (try dsimp only)
      rw [PhiS57_castSucc V c t, PhiS57_pos V c _ _ hz]
      iintro ⟨⟨⟨HS0, Hrb⟩, Hg⟩, Ho, ⟨%d0, H0⟩, ⟨%d1, H1⟩, ⟨%d2, H2⟩⟩
      iapply ((kernelRun57_B c (grid57.coords t) _ _ _ _ _ _ _ _ (notFirst57 t h0) (notLast57 t h3) (iblk57 V c 0 t) (iblk57 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover57_B c _ _ _ _ _ _ _ _ _ _ _ _ _ _)
          iexact Hrb
        iexact Hg
      isplitl [Ho]; · iexact Ho
      isplitl [H0]; · iexact H0
      isplitl [H1]; · iexact H1
      iexists _; iexact H2

/-- The library's body obligation, at every point. -/
theorem body_obligation57 (c : Dev nD) : BodyObligation (dat57 (F := F) V c) (defs₀ (F := F)) Variants.none () Set.univ := fun t => by
  rw [bigSep_W57, bigSep_W57]
  exact sound_body57 V c t

/-- What the region is entered with is the invariant before the first point. -/
theorem hin57 (c : Dev nD) : Pipeline.ΦA spec57 c ⊢ (dat57 V c).Φ 0 := by
  rw [show (dat57 V c).Φ 0 = PhiS57 V c 0 (Nat.zero_le _) from rfl, PhiS57_zero V c 0 _ rfl]
  try exact Idealize.SL.BI.Entails.refl _

/-- After the last point the invariant gives the class's back: the accumulator's contents are forgotten. -/
theorem hout57 (c : Dev nD) : (dat57 V c).Φ (Fin.last cfg57.N) ⊢ Pipeline.ΦA spec57 c := by
  have hN : cfg57.N = 16 := N_57
  rw [show (dat57 V c).Φ (Fin.last cfg57.N) = PhiS57 V c (Fin.last cfg57.N).val (Nat.le_of_lt_succ (Fin.last cfg57.N).isLt) from rfl,
    PhiS57_pos V c _ _ (by rw [Fin.val_last]; omega), PhiA57_eq]
  iintro ⟨⟨HS0, Hrb⟩, Hg⟩
  isplitl [HS0 Hrb]
  · isplitl [HS0]
    · iexists _; iexact HS0
    iexact Hrb
  iexact Hg

end Cert.KernelIdeal.Hand

end
-- ==== Proof.RegKI58a.lean ====
/- Laid out by: python3 scratch/layout_grid41.py --template-region 0 --region 58 --program KernelIdeal --parts a, --shapes S1024x128=S1024x512,S128x512=S512x512
   from the hand-written text of region 0 (RegKI0a.lean): the same text, the region's number, block shapes substituted. -/
/- The region of KernelIdeal's @main that runs `cc58__matmul_kernel` (pipeline `cfg58`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond58_0 (i : grid58.Coords) : Prop :=
  (Scalar.cmpi .ne (Scalar.extui (Scalar.cmpi .eq (BitVec.ofNat 32 (i 1).val) 0#32)) 0#32) = 1#1
/-- True at every point: the reduction axis has one step. -/
theorem hcond58_0 : ∀ t : Fin cfg58.N, cond58_0 (grid58.coords t) :=
  (by decide +kernel : ∀ t : Fin grid58.N, cond58_0 (grid58.coords t))

/-- "This is the last reduction step" (the guard of the copy to the output block). -/
abbrev cond58_1 (i : grid58.Coords) : Prop := k58_cond2 i = 1#1
/-- True at every point, for the same reason. -/
theorem hcond58_1 : ∀ t : Fin cfg58.N, cond58_1 (grid58.coords t) :=
  (by decide +kernel : ∀ t : Fin grid58.N, cond58_1 (grid58.coords t))

/-! ## No window is idle anywhere -/

theorem liveAt58_0 : ∀ t : Fin cfg58.N, cfg58.idle 0 (grid58.coords t) = false := by decide +kernel
theorem liveAt58_1 : ∀ t : Fin cfg58.N, cfg58.idle 1 (grid58.coords t) = false := by decide +kernel
/-- The output window is stored at every point (the copy's guard holds everywhere). -/
theorem liveAt58_2 : ∀ t : Fin cfg58.N, cfg58.idle 2 (grid58.coords t) = false := by decide +kernel

/-! ## The memrefs the body is called on -/

/-- One staging buffer of the output window, through which its contents are stated (any whole view of the shape reads the
    same pieces back the same way). -/
abbrev VO58_2 : View sig .tc .vmem S1024x512 .f32 := (Memref.whole cc58_stg2_0 : Memref sig .tc .vmem S1024x512 .f32).view
/-- Each window's current staging memref at point `t`, spelt as the pipeline passes it, with its wholeness. -/
abbrev ms58_0 (t : Fin cfg58.N) : Memref sig .tc .vmem S1024x512 .f32 := win58_0.stage (cfg58.slots t 0)
abbrev hs58_0 (t : Fin cfg58.N) : (ms58_0 t).IsWhole := hstage58_0 ((cfg58.slots t 0).cast nbuf58_0)
abbrev ms58_1 (t : Fin cfg58.N) : Memref sig .tc .vmem S512x512 .bf16 := win58_1.stage (cfg58.slots t 1)
abbrev hs58_1 (t : Fin cfg58.N) : (ms58_1 t).IsWhole := hstage58_1 ((cfg58.slots t 1).cast nbuf58_1)
abbrev ms58_2 (t : Fin cfg58.N) : Memref sig .tc .vmem S1024x512 .f32 := win58_2.stage (cfg58.slots t 2)
abbrev hs58_2 (t : Fin cfg58.N) : (ms58_2 t).IsWhole := hstage58_2 ((cfg58.slots t 2).cast nbuf58_2)
/-- The accumulator: a whole scoped buffer of the kernel's own, passed beside the windows. -/
abbrev scM58_0 : Memref sig .tc .vmem S1024x512 .f32 := Memref.whole cc58_scratch0
abbrev VS58_0 : View sig .tc .vmem S1024x512 .f32 := scM58_0.view

/-- The region invariant with the accumulator taken out of the scoped rest: the accumulator owned at some contents, every
    other scoped buffer unopened, and the generator register. -/
theorem PhiA58_eq (c : Dev nD) :
    (Pipeline.ΦA spec58 c : sProp 𝕄)
      = iprop(iprop(iprop((∃ d, owns (c : Thread nD τ) scM58_0 fullShare d))
            ∗ Pipeline.scopedRestBut (Ix := Unit) (Name := ℕ) (U := UR sig nD τ) (Lvl := ℕ) (Val := Elt F) spec58 c [cc58_scratch0])
          ∗ (∃ r, prngReg c r)) := by
  unfold Pipeline.ΦA; rw [scopedRest58_split]; simp only [scM58_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun58 (c : Dev nD) (i : grid58.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond58_0 i) (hlast : cond58_1 i) (xa : Vec F S1024x512 .f32) (xb : Vec F S512x512 .bf16) :
    Σ' (LO : List (View.Piece (Elt F) S1024x512 .f32)), { LS : List (View.Piece (Elt F) S1024x512 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc58__matmul_kernel i arg2 harg2 arg3 harg3 arg4 harg4 arg5 harg5) K } := by
  refine ⟨?_, ?_, fun E K => ?run⟩
  case run =>
    simp only [cc58__matmul_kernel_eq_skeleton]; unfold cc58__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.KernelIdeal.Hand

end
-- ==== Proof.RegKI58.lean ====
/- Laid out by: python3 scratch/layout_grid41.py --template-region 0 --region 58 --program KernelIdeal --parts a, --shapes S1024x128=S1024x512,S128x512=S512x512
   from the hand-written text of region 0 (RegKI0.lean): the same text, the region's number, block shapes substituted. -/
/- The region of KernelIdeal's @main that runs `cc58__matmul_kernel` (pipeline `cfg58`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegKI58a
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk58 (c : Dev nD) (w : Fin cfg58.W) (t : Fin cfg58.N) : ((cfg58.win w).xblock (cfg58.grid.coords t)).Idx → Elt F (cfg58.win w).elt :=
  ((cfg58.win w).blk t).view.read (Elt F) (V c (Pipeline.arrRef spec58 w))

/-! ## What the case leaves, as pieces read back -/

/-- The output's pieces tile its block (one whole-block store). -/
theorem cover58_2 (c : Dev nD) (i : grid58.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond58_0 i) (hlast : cond58_1 i) (xa : Vec F S1024x512 .f32) (xb : Vec F S512x512 .bf16) (y : S1024x512.Idx) :
    ∃ pc ∈ (kernelRun58 c i arg2 harg2 arg3 harg3 arg4 harg4 arg5 harg5 hfirst hlast xa xb).1, y ∈ pc.1.set :=
  View.cover_of_tiledL (kernelRun58 c i arg2 harg2 arg3 harg3 arg4 harg4 arg5 harg5 hfirst hlast xa xb).1 S1024x512.size (by sl_kernel_rfl) y

/-- What the case leaves in the output's staging buffer: its pieces read back over junk. -/
noncomputable def out58_2 (c : Dev nD) (i : grid58.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond58_0 i) (hlast : cond58_1 i) (xa : Vec F S1024x512 .f32) (xb : Vec F S512x512 .bf16) : Vec F S1024x512 .f32 :=
  VO58_2.read (Elt F) (VO58_2.writes (Elt F) VO58_2.junk (kernelRun58 c i arg2 harg2 arg3 harg3 arg4 harg4 arg5 harg5 hfirst hlast xa xb).1)

/-- What the case leaves in the accumulator: its pieces read back over junk. -/
noncomputable def sout58_0 (c : Dev nD) (i : grid58.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond58_0 i) (hlast : cond58_1 i) (xa : Vec F S1024x512 .f32) (xb : Vec F S512x512 .bf16) : Vec F S1024x512 .f32 :=
  VS58_0.read (Elt F) (VS58_0.writes (Elt F) VS58_0.junk (kernelRun58 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout58_0_eq (c : Dev nD) (i : grid58.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond58_0 i) (hlast : cond58_1 i) (xa : Vec F S1024x512 .f32) (xb : Vec F S512x512 .bf16) :
    sout58_0 c i arg2 harg2 arg3 harg3 arg4 harg4 arg5 harg5 hfirst hlast xa xb = k58_pay2 xa xb (k58_pay1 (F := F)) := by
  unfold sout58_0
  rw [View.read_writes_junk_eq_canon]
  unfold kernelRun58
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x512) zeros2]

/-- The output block ends at what the accumulator ends at: the copy's payload is the accumulator read back whole. -/
theorem out58_2_eq (c : Dev nD) (i : grid58.Coords)
    (arg2 : Memref sig .tc .vmem S1024x512 .f32) (harg2 : arg2.IsWhole) (arg3 : Memref sig .tc .vmem S512x512 .bf16) (harg3 : arg3.IsWhole)
    (arg4 : Memref sig .tc .vmem S1024x512 .f32) (harg4 : arg4.IsWhole) (arg5 : Memref sig .tc .vmem S1024x512 .f32) (harg5 : arg5.IsWhole)
    (hfirst : cond58_0 i) (hlast : cond58_1 i) (xa : Vec F S1024x512 .f32) (xb : Vec F S512x512 .bf16) :
    out58_2 c i arg2 harg2 arg3 harg3 arg4 harg4 arg5 harg5 hfirst hlast xa xb = k58_pay2 xa xb (k58_pay1 (F := F)) := by
  unfold out58_2
  rw [View.read_writes_junk_eq_canon]
  unfold kernelRun58
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x512) zeros2]

/-! ## What the output and the accumulator hold after each point -/

/-- After the body at position `n`: (the output window's staging buffer, the accumulator). One case, and nothing taken from
    the point before. -/
noncomputable def outsAt58 (c : Dev nD) (n : ℕ) (hn : n < cfg58.N) : Vec F S1024x512 .f32 × Vec F S1024x512 .f32 :=
  (out58_2 c (grid58.coords ⟨n, hn⟩) (ms58_0 ⟨n, hn⟩) (hs58_0 ⟨n, hn⟩) (ms58_1 ⟨n, hn⟩) (hs58_1 ⟨n, hn⟩) (ms58_2 ⟨n, hn⟩) (hs58_2 ⟨n, hn⟩) scM58_0 (Memref.isWhole_whole _)
      (hcond58_0 ⟨n, hn⟩) (hcond58_1 ⟨n, hn⟩) (iblk58 V c 0 ⟨n, hn⟩) (iblk58 V c 1 ⟨n, hn⟩),
   sout58_0 c (grid58.coords ⟨n, hn⟩) (ms58_0 ⟨n, hn⟩) (hs58_0 ⟨n, hn⟩) (ms58_1 ⟨n, hn⟩) (hs58_1 ⟨n, hn⟩) (ms58_2 ⟨n, hn⟩) (hs58_2 ⟨n, hn⟩) scM58_0 (Memref.isWhole_whole _)
      (hcond58_0 ⟨n, hn⟩) (hcond58_1 ⟨n, hn⟩) (iblk58 V c 0 ⟨n, hn⟩) (iblk58 V c 1 ⟨n, hn⟩))

/-- Every point is a first reduction step: the accumulator after it is one product onto zero. -/
theorem outsAt58_first (c : Dev nD) (t : Fin cfg58.N) :
    (outsAt58 V c t.val t.isLt).2 = k58_pay2 (iblk58 V c 0 t) (iblk58 V c 1 t) (k58_pay1 (F := F)) := by
  obtain ⟨n, hn⟩ := t
  unfold outsAt58
  dsimp only
  rw [sout58_0_eq]

/-- Every point is a last reduction step: the output block after it is the accumulator. -/
theorem outsAt58_last (c : Dev nD) (t : Fin cfg58.N) :
    (outsAt58 V c t.val t.isLt).1 = (outsAt58 V c t.val t.isLt).2 := by
  obtain ⟨n, hn⟩ := t
  unfold outsAt58
  dsimp only
  rw [out58_2_eq, sout58_0_eq]

/-! ## The pipeline's proof data -/

/-- The proof data of the pipeline on core `c`: the arrays as the region finds them; after the body at point `t` each input's
    buffer at its block and the output's at `outsAt58`'s first component; the invariant the same at every point; nothing owed;
    full shares. -/
noncomputable def dat58 (c : Dev nD) : Dat τ (Elt F) Unit ℕ (UR sig nD τ) ℕ cfg58 c where
  A w := V c (Pipeline.arrRef spec58 w)
  after w t := match w with
    | ⟨0, _⟩ => iblk58 V c 0 t
    | ⟨1, _⟩ => iblk58 V c 1 t
    | ⟨2, _⟩ => (outsAt58 V c t.val t.isLt).1
  Φ _ := Pipeline.ΦA spec58 c
  q _ := fullShare
  owed _ := 0

theorem A_eq58 (c : Dev nD) (w : Fin cfg58.W) : (dat58 V c).A w = V c (Pipeline.arrRef spec58 w) := by
  dsimp only [dat58]

theorem after58_0 (c : Dev nD) (t : Fin cfg58.N) : (dat58 V c).after 0 t = iblk58 V c 0 t := by dsimp only [dat58]
theorem after58_1 (c : Dev nD) (t : Fin cfg58.N) : (dat58 V c).after 1 t = iblk58 V c 1 t := by dsimp only [dat58]
theorem after58_2 (c : Dev nD) (t : Fin cfg58.N) : (dat58 V c).after 2 t = (outsAt58 V c t.val t.isLt).1 := by dsimp only [dat58]

/-- An input's current staging buffer holds its block at every point, fetched there or not: where it is not fetched its block
    index has not moved since the point before, and the body left the block in place. -/
theorem before58_0 (c : Dev nD) (t : Fin cfg58.N) (d) : (dat58 V c).before 0 t d = iblk58 V c 0 t :=
  ((dat58 V c).before_in_eq_fetched 0 rfl (fun _ => rfl) (fun _ _ _ => rfl)
      (fun t => by rw [after58_0]; unfold Dat.blockOf iblk58; rw [A_eq58]; try rfl) t d).trans
    (by unfold Dat.fetched Dat.blockOf iblk58; rw [A_eq58]; try rfl)
theorem before58_1 (c : Dev nD) (t : Fin cfg58.N) (d) : (dat58 V c).before 1 t d = iblk58 V c 1 t :=
  ((dat58 V c).before_in_eq_fetched 1 rfl (fun _ => rfl) (fun _ _ _ => rfl)
      (fun t => by rw [after58_1]; unfold Dat.blockOf iblk58; rw [A_eq58]; try rfl) t d).trans
    (by unfold Dat.fetched Dat.blockOf iblk58; rw [A_eq58]; try rfl)

/-! ## The body obligation, at a generic point -/

/-- What the body is called with at point `t`, the windows one by one, -/
noncomputable def bodyPre58 (c : Dev nD) (t : Fin cfg58.N) : sProp 𝕄 :=
  iprop((dat58 V c).Φ t.castSucc ∗ (dat58 V c).owesAt () t.castSucc
    ∗ (∃ d, owns (c : Thread nD τ) (ms58_0 t) fullShare ((dat58 V c).before 0 t d))
    ∗ (∃ d, owns (c : Thread nD τ) (ms58_1 t) fullShare ((dat58 V c).before 1 t d))
    ∗ (∃ d, owns (c : Thread nD τ) (ms58_2 t) fullShare ((dat58 V c).before 2 t d)))

/-- and what it returns. -/
noncomputable def bodyPost58 (c : Dev nD) (t : Fin cfg58.N) : sProp 𝕄 :=
  iprop((dat58 V c).Φ t.succ ∗ (dat58 V c).owesAt () t.succ
    ∗ (dat58 V c).leavesExact 0 t
    ∗ (dat58 V c).leavesExact 1 t
    ∗ (dat58 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body58 (c : Dev nD) (t : Fin cfg58.N) :
    bodyPre58 V c t ⊢ wp frame (wpE (defs₀ (F := F)) Variants.none c none) Set.univ (bodyAt58 t) (fun _ => bodyPost58 V c t) := by
  unfold bodyPre58 bodyPost58 bodyAt58
  simp only [before58_0, before58_1]
  rw [show (dat58 V c).owesAt () t.succ = (dat58 V c).owesAt () t.castSucc from rfl,
    show (dat58 V c).Φ t.succ = Pipeline.ΦA spec58 c from rfl, show (dat58 V c).Φ t.castSucc = Pipeline.ΦA spec58 c from rfl, PhiA58_eq]
  rw [show (dat58 V c).leavesExact 0 t = owns (c : Thread nD τ) (ms58_0 t) fullShare ((dat58 V c).after 0 t) from by
      unfold Dat.leavesExact; rw [liveAt58_0 t], after58_0]
  rw [show (dat58 V c).leavesExact 1 t = owns (c : Thread nD τ) (ms58_1 t) fullShare ((dat58 V c).after 1 t) from by
      unfold Dat.leavesExact; rw [liveAt58_1 t], after58_1]
  rw [show (dat58 V c).leavesExact 2 t = owns (c : Thread nD τ) (ms58_2 t) fullShare ((dat58 V c).after 2 t) from by
      unfold Dat.leavesExact; rw [liveAt58_2 t], after58_2]
  unfold outsAt58 out58_2; (try dsimp only)
  iintro ⟨⟨⟨Hacc, Hrest⟩, Hgen⟩, Howe, ⟨%da, Ha⟩, ⟨%db, Hb⟩, ⟨%dO, Hout⟩⟩
  iapply ((kernelRun58 c (grid58.coords t) _ _ _ _ _ _ _ _ (hcond58_0 t) (hcond58_1 t) (iblk58 V c 0 t) (iblk58 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover58_2 c _ _ _ _ _ _ _ _ _ _ _ _ _)

/-- The library's body obligation, at every point. -/
theorem body_obligation58 (c : Dev nD) : BodyObligation (dat58 (F := F) V c) (defs₀ (F := F)) Variants.none () Set.univ := fun t => by
  rw [bigSep_W58, bigSep_W58]
  exact sound_body58 V c t

/-- What the launch hands the region is the invariant before the first point, -/
theorem hin58 (c : Dev nD) : Pipeline.ΦA spec58 c ⊢ (dat58 V c).Φ 0 := Idealize.SL.BI.Entails.refl _

/-- and the invariant after the last point is what the launch takes back. -/
theorem hout58 (c : Dev nD) : (dat58 V c).Φ (Fin.last cfg58.N) ⊢ Pipeline.ΦA spec58 c := Idealize.SL.BI.Entails.refl _

end Cert.KernelIdeal.Hand

end
-- ==== Proof.RegKI59a.lean ====
/- Laid out by: python3 scratch/layout_grid41.py --template-region 0 --region 59 --program KernelIdeal --parts a, --shapes S1024x128=S1024x512,S128x512=S512x64,S1024x512=S1024x64
   from the hand-written text of region 0 (RegKI0a.lean): the same text, the region's number, block shapes substituted. -/
/- The region of KernelIdeal's @main that runs `cc59__matmul_kernel` (pipeline `cfg59`, grid [4,1]), first half: the body's
   two branch conditions decided over the grid, where its windows are live, its staging and scratch memrefs, the region
   invariant opened at the scratch, and the whole-body run in the one control case the grid has.

   On a [4,1] grid the reduction coordinate is 0 at every point, and 0 is also the last reduction step: both `scf.if`s are
   taken everywhere. So at every point the body zeroes the accumulator, adds one product onto it and copies the sum to the
   output block; nothing a point leaves in the accumulator is read by the next. -/
import proofs.«158944_j64613488001249_1_alg».proof.Proof.LaunchKI
import proofs.«158944_j64613488001249_1_alg».proof.Proof.Gen.KernelIdeal.Skeleton
import proofs.«158944_j64613488001249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form -/

/-- "This is the first reduction step" (the guard of the zeroing store), as the skeleton computes it from the coordinates. -/
abbrev cond59_0 (i : grid59.Coords) : Prop :=
  (Scalar.cmpi .ne (Scalar.extui (Scalar.cmpi .eq (BitVec.ofNat 32 (i 1).val) 0#32)) 0#32) = 1#1
/-- True at every point: the reduction axis has one step. -/
theorem hcond59_0 : ∀ t : Fin cfg59.N, cond59_0 (grid59.coords t) :=
  (by decide +kernel : ∀ t : Fin grid59.N, cond59_0 (grid59.coords t))

/-- "This is the last reduction step" (the guard of the copy to the output block). -/
abbrev cond59_1 (i : grid59.Coords) : Prop := k59_cond2 i = 1#1
/-- True at every point, for the same reason. -/
theorem hcond59_1 : ∀ t : Fin cfg59.N, cond59_1 (grid59.coords t) :=
  (by decide +kernel : ∀ t : Fin grid59.N, cond59_1 (grid59.coords t))

/-! ## No window is idle anywhere -/

theorem liveAt59_0 : ∀ t : Fin cfg59.N, cfg59.idle 0 (grid59.coords t) = false := by decide +kernel
theorem liveAt59_1 : ∀ t : Fin cfg59.N, cfg59.idle 1 (grid59.coords t) = false := by decide +kernel
/-- The output window is stored at every point (the copy's guard holds everywhere). -/
theorem liveAt59_2 : ∀ t : Fin cfg59.N, cfg59.idle 2 (grid59.coords t) = false := by decide +kernel

/-! ## The memrefs the body is called on -/

/-- One staging buffer of the output window, through which its contents are stated (any whole view of the shape reads the
    same pieces back the same way). -/
abbrev VO59_2 : View sig .tc .vmem S1024x64 .f32 := (Memref.whole cc59_stg2_0 : Memref sig .tc .vmem S1024x64 .f32).view
/-- Each window's current staging memref at point `t`, spelt as the pipeline passes it, with its wholeness. -/
abbrev ms59_0 (t : Fin cfg59.N) : Memref sig .tc .vmem S1024x512 .f32 := win59_0.stage (cfg59.slots t 0)
abbrev hs59_0 (t : Fin cfg59.N) : (ms59_0 t).IsWhole := hstage59_0 ((cfg59.slots t 0).cast nbuf59_0)
abbrev ms59_1 (t : Fin cfg59.N) : Memref sig .tc .vmem S512x64 .bf16 := win59_1.stage (cfg59.slots t 1)
abbrev hs59_1 (t : Fin cfg59.N) : (ms59_1 t).IsWhole := hstage59_1 ((cfg59.slots t 1).cast nbuf59_1)
abbrev ms59_2 (t : Fin cfg59.N) : Memref sig .tc .vmem S1024x64 .f32 := win59_2.stage (cfg59.slots t 2)
abbrev hs59_2 (t : Fin cfg59.N) : (ms59_2 t).IsWhole := hstage59_2 ((cfg59.slots t 2).cast nbuf59_2)
/-- The accumulator: a whole scoped buffer of the kernel's own, passed beside the windows. -/
abbrev scM59_0 : Memref sig .tc .vmem S1024x64 .f32 := Memref.whole cc59_scratch0
abbrev VS59_0 : View sig .tc .vmem S1024x64 .f32 := scM59_0.view

/-- The region invariant with the accumulator taken out of the scoped rest: the accumulator owned at some contents, every
    other scoped buffer unopened, and the generator register. -/
theorem PhiA59_eq (c : Dev nD) :
    (Pipeline.ΦA spec59 c : sProp 𝕄)
      = iprop(iprop(iprop((∃ d, owns (c : Thread nD τ) scM59_0 fullShare d))
            ∗ Pipeline.scopedRestBut (Ix := Unit) (Name := ℕ) (U := UR sig nD τ) (Lvl := ℕ) (Val := Elt F) spec59 c [cc59_scratch0])
          ∗ (∃ r, prngReg c r)) := by
  unfold Pipeline.ΦA; rw [scopedRest59_split]; simp only [scM59_0, owns_whole]; try rfl

/-! ## The body, run once -/

set_option maxHeartbeats 1000000 in
/-- The pieces the body's stores leave in the output's staging memref (`LO`) and in the accumulator (`LS`), last first,
    TOGETHER WITH the proof that they are what a run leaves: on whole memrefs — the two inputs' at contents `xa`, `xb`, the
    output's and the accumulator's at anything — the body runs to any continuation that accepts the inputs unchanged and the
    other two buffers with those pieces written. The printed function is its skeleton; the skeleton is stepped through
    operation by operation, both guards discharged by `hfirst`, `hlast`; the piece lists are whatever the stepping has accumulated
    when the buffers are handed to the continuation. -/
noncomputable def kernelRun59 (c : Dev nD) (i : grid59.Coords)
    (arg2 : Memref sig .tc .vmem S1024x512 .f32) (harg2 : arg2.IsWhole) (arg3 : Memref sig .tc .vmem S512x64 .bf16) (harg3 : arg3.IsWhole)
    (arg4 : Memref sig .tc .vmem S1024x64 .f32) (harg4 : arg4.IsWhole) (arg5 : Memref sig .tc .vmem S1024x64 .f32) (harg5 : arg5.IsWhole)
    (hfirst : cond59_0 i) (hlast : cond59_1 i) (xa : Vec F S1024x512 .f32) (xb : Vec F S512x64 .bf16) :
    Σ' (LO : List (View.Piece (Elt F) S1024x64 .f32)), { LS : List (View.Piece (Elt F) S1024x64 .f32) //
      ∀ (E : Set ℕ) (K : PUnit → sProp 𝕄),
        iprop(owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg2 fullShare xa ∗ owns (c : Thread nD τ) arg3 fullShare xb
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc59__matmul_kernel i arg2 harg2 arg3 harg3 arg4 harg4 arg5 harg5) K } := by
  refine ⟨?_, ?_, fun E K => ?run⟩
  case run =>
    simp only [cc59__matmul_kernel_eq_skeleton]; unfold cc59__matmul_kernel_skel
    unfold owns
    iintro ⟨⟨%fa, %hfa, Ha⟩, ⟨%fb, %hfb, Hb⟩, ⟨%dO, %fO, -, Hout⟩, ⟨%dS, %fS, -, Hacc⟩, Hk⟩
    obtain rfl := harg2.eq_unread hfa; obtain rfl := harg3.eq_unread hfb
    sl_exec (disch := first | exact hfirst | exact hlast)
    sl_step
    iapply Hk
    isplitl [Ha]
    · iexists _; isplitr; · ipureintro; exact harg2.read_unread _
      iexact Ha
    isplitl [Hb]
    · iexists _; isplitr; · ipureintro; exact harg3.read_unread _
      iexact Hb
    isplitl [Hout]; · iexists _; iexact Hout
    iexists _; iexact Hacc

end Cert.KernelIdeal.Hand

end
-- ==== Proof.RegKI59.lean ====
/- Laid out by: python3 scratch/layout_grid41.py --template-region 0 --region 59 --program KernelIdeal --parts a, --shapes S1024x128=S1024x512,S128x512=S512x64,S1024x512=S1024x64
   from the hand-written text of region 0 (RegKI0.lean): the same text, the region's number, block shapes substituted. -/
/- The region of KernelIdeal's @main that runs `cc59__matmul_kernel` (pipeline `cfg59`, grid [4,1]), second half, stated at the
   contents `V` the region is entered from: each window's block at a point, what the one control case leaves in the output's staging
   buffer and in the accumulator (its pieces read back, and the same as a pure function of the two input blocks), the
   pipeline's proof data, the body obligation at every point, and the invariant at the region's two ends.

   The accumulator is zeroed before it is read at every point, so the invariant never has to remember what it holds: it is
   the same at every point (the scoped rest at anything, the generator register at anything). -/
import proofs.«158944_j64613488001249_1_alg».proof.Proof.RegKI59a
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk59 (c : Dev nD) (w : Fin cfg59.W) (t : Fin cfg59.N) : ((cfg59.win w).xblock (cfg59.grid.coords t)).Idx → Elt F (cfg59.win w).elt :=
  ((cfg59.win w).blk t).view.read (Elt F) (V c (Pipeline.arrRef spec59 w))

/-! ## What the case leaves, as pieces read back -/

/-- The output's pieces tile its block (one whole-block store). -/
theorem cover59_2 (c : Dev nD) (i : grid59.Coords)
    (arg2 : Memref sig .tc .vmem S1024x512 .f32) (harg2 : arg2.IsWhole) (arg3 : Memref sig .tc .vmem S512x64 .bf16) (harg3 : arg3.IsWhole)
    (arg4 : Memref sig .tc .vmem S1024x64 .f32) (harg4 : arg4.IsWhole) (arg5 : Memref sig .tc .vmem S1024x64 .f32) (harg5 : arg5.IsWhole)
    (hfirst : cond59_0 i) (hlast : cond59_1 i) (xa : Vec F S1024x512 .f32) (xb : Vec F S512x64 .bf16) (y : S1024x64.Idx) :
    ∃ pc ∈ (kernelRun59 c i arg2 harg2 arg3 harg3 arg4 harg4 arg5 harg5 hfirst hlast xa xb).1, y ∈ pc.1.set :=
  View.cover_of_tiledL (kernelRun59 c i arg2 harg2 arg3 harg3 arg4 harg4 arg5 harg5 hfirst hlast xa xb).1 S1024x64.size (by sl_kernel_rfl) y

/-- What the case leaves in the output's staging buffer: its pieces read back over junk. -/
noncomputable def out59_2 (c : Dev nD) (i : grid59.Coords)
    (arg2 : Memref sig .tc .vmem S1024x512 .f32) (harg2 : arg2.IsWhole) (arg3 : Memref sig .tc .vmem S512x64 .bf16) (harg3 : arg3.IsWhole)
    (arg4 : Memref sig .tc .vmem S1024x64 .f32) (harg4 : arg4.IsWhole) (arg5 : Memref sig .tc .vmem S1024x64 .f32) (harg5 : arg5.IsWhole)
    (hfirst : cond59_0 i) (hlast : cond59_1 i) (xa : Vec F S1024x512 .f32) (xb : Vec F S512x64 .bf16) : Vec F S1024x64 .f32 :=
  VO59_2.read (Elt F) (VO59_2.writes (Elt F) VO59_2.junk (kernelRun59 c i arg2 harg2 arg3 harg3 arg4 harg4 arg5 harg5 hfirst hlast xa xb).1)

/-- What the case leaves in the accumulator: its pieces read back over junk. -/
noncomputable def sout59_0 (c : Dev nD) (i : grid59.Coords)
    (arg2 : Memref sig .tc .vmem S1024x512 .f32) (harg2 : arg2.IsWhole) (arg3 : Memref sig .tc .vmem S512x64 .bf16) (harg3 : arg3.IsWhole)
    (arg4 : Memref sig .tc .vmem S1024x64 .f32) (harg4 : arg4.IsWhole) (arg5 : Memref sig .tc .vmem S1024x64 .f32) (harg5 : arg5.IsWhole)
    (hfirst : cond59_0 i) (hlast : cond59_1 i) (xa : Vec F S1024x512 .f32) (xb : Vec F S512x64 .bf16) : Vec F S1024x64 .f32 :=
  VS59_0.read (Elt F) (VS59_0.writes (Elt F) VS59_0.junk (kernelRun59 c i arg2 harg2 arg3 harg3 arg4 harg4 arg5 harg5 hfirst hlast xa xb).2.1)

/-! ## The same, as pure functions of the input blocks -/

/-- Zero offsets, however spelt. -/
private theorem zeros2 : (![0, 0] : Fin 2 → Nat) = fun _ => 0 := funext fun a => by fin_cases a <;> rfl

/-- The accumulator ends at one product added onto the zero block: the second store's payload, whose accumulator operand is
    the first store's payload read back. -/
theorem sout59_0_eq (c : Dev nD) (i : grid59.Coords)
    (arg2 : Memref sig .tc .vmem S1024x512 .f32) (harg2 : arg2.IsWhole) (arg3 : Memref sig .tc .vmem S512x64 .bf16) (harg3 : arg3.IsWhole)
    (arg4 : Memref sig .tc .vmem S1024x64 .f32) (harg4 : arg4.IsWhole) (arg5 : Memref sig .tc .vmem S1024x64 .f32) (harg5 : arg5.IsWhole)
    (hfirst : cond59_0 i) (hlast : cond59_1 i) (xa : Vec F S1024x512 .f32) (xb : Vec F S512x64 .bf16) :
    sout59_0 c i arg2 harg2 arg3 harg3 arg4 harg4 arg5 harg5 hfirst hlast xa xb = k59_pay2 xa xb (k59_pay1 (F := F)) := by
  unfold sout59_0
  rw [View.read_writes_junk_eq_canon]
  unfold kernelRun59
  dsimp only
  try sl_unfold_words
  rw [View.canon_cons_unit_zero zeros2, View.readCov_unit_zero _ zeros2]
  simp only [View.readAt_eq_ld, harg2.read_unread, harg3.read_unread, View.ld_unit_zero (S := S1024x512) zeros2, View.ld_unit_zero (S := S512x64) zeros2]

/-- The output block ends at what the accumulator ends at: the copy's payload is the accumulator read back whole. -/
theorem out59_2_eq (c : Dev nD) (i : grid59.Coords)
    (arg2 : Memref sig .tc .vmem S1024x512 .f32) (harg2 : arg2.IsWhole) (arg3 : Memref sig .tc .vmem S512x64 .bf16) (harg3 : arg3.IsWhole)
    (arg4 : Memref sig .tc .vmem S1024x64 .f32) (harg4 : arg4.IsWhole) (arg5 : Memref sig .tc .vmem S1024x64 .f32) (harg5 : arg5.IsWhole)
    (hfirst : cond59_0 i) (hlast : cond59_1 i) (xa : Vec F S1024x512 .f32) (xb : Vec F S512x64 .bf16) :
    out59_2 c i arg2 harg2 arg3 harg3 arg4 harg4 arg5 harg5 hfirst hlast xa xb = k59_pay2 xa xb (k59_pay1 (F := F)) := by
  unfold out59_2
  rw [View.read_writes_junk_eq_canon]
  unfold kernelRun59
  dsimp only
  try sl_unfold_words
  rw [View.canon_unit_zero zeros2, View.readCov_cons_toLoadRect, View.readCov_unit_zero _ zeros2]
  simp only [View.readAt_eq_ld, harg2.read_unread, harg3.read_unread, View.ld_unit_zero (S := S1024x512) zeros2, View.ld_unit_zero (S := S512x64) zeros2]

/-! ## What the output and the accumulator hold after each point -/

/-- After the body at position `n`: (the output window's staging buffer, the accumulator). One case, and nothing taken from
    the point before. -/
noncomputable def outsAt59 (c : Dev nD) (n : ℕ) (hn : n < cfg59.N) : Vec F S1024x64 .f32 × Vec F S1024x64 .f32 :=
  (out59_2 c (grid59.coords ⟨n, hn⟩) (ms59_0 ⟨n, hn⟩) (hs59_0 ⟨n, hn⟩) (ms59_1 ⟨n, hn⟩) (hs59_1 ⟨n, hn⟩) (ms59_2 ⟨n, hn⟩) (hs59_2 ⟨n, hn⟩) scM59_0 (Memref.isWhole_whole _)
      (hcond59_0 ⟨n, hn⟩) (hcond59_1 ⟨n, hn⟩) (iblk59 V c 0 ⟨n, hn⟩) (iblk59 V c 1 ⟨n, hn⟩),
   sout59_0 c (grid59.coords ⟨n, hn⟩) (ms59_0 ⟨n, hn⟩) (hs59_0 ⟨n, hn⟩) (ms59_1 ⟨n, hn⟩) (hs59_1 ⟨n, hn⟩) (ms59_2 ⟨n, hn⟩) (hs59_2 ⟨n, hn⟩) scM59_0 (Memref.isWhole_whole _)
      (hcond59_0 ⟨n, hn⟩) (hcond59_1 ⟨n, hn⟩) (iblk59 V c 0 ⟨n, hn⟩) (iblk59 V c 1 ⟨n, hn⟩))

/-- Every point is a first reduction step: the accumulator after it is one product onto zero. -/
theorem outsAt59_first (c : Dev nD) (t : Fin cfg59.N) :
    (outsAt59 V c t.val t.isLt).2 = k59_pay2 (iblk59 V c 0 t) (iblk59 V c 1 t) (k59_pay1 (F := F)) := by
  obtain ⟨n, hn⟩ := t
  unfold outsAt59
  dsimp only
  rw [sout59_0_eq]

/-- Every point is a last reduction step: the output block after it is the accumulator. -/
theorem outsAt59_last (c : Dev nD) (t : Fin cfg59.N) :
    (outsAt59 V c t.val t.isLt).1 = (outsAt59 V c t.val t.isLt).2 := by
  obtain ⟨n, hn⟩ := t
  unfold outsAt59
  dsimp only
  rw [out59_2_eq, sout59_0_eq]

/-! ## The pipeline's proof data -/

/-- The proof data of the pipeline on core `c`: the arrays as the region finds them; after the body at point `t` each input's
    buffer at its block and the output's at `outsAt59`'s first component; the invariant the same at every point; nothing owed;
    full shares. -/
noncomputable def dat59 (c : Dev nD) : Dat τ (Elt F) Unit ℕ (UR sig nD τ) ℕ cfg59 c where
  A w := V c (Pipeline.arrRef spec59 w)
  after w t := match w with
    | ⟨0, _⟩ => iblk59 V c 0 t
    | ⟨1, _⟩ => iblk59 V c 1 t
    | ⟨2, _⟩ => (outsAt59 V c t.val t.isLt).1
  Φ _ := Pipeline.ΦA spec59 c
  q _ := fullShare
  owed _ := 0

theorem A_eq59 (c : Dev nD) (w : Fin cfg59.W) : (dat59 V c).A w = V c (Pipeline.arrRef spec59 w) := by
  dsimp only [dat59]

theorem after59_0 (c : Dev nD) (t : Fin cfg59.N) : (dat59 V c).after 0 t = iblk59 V c 0 t := by dsimp only [dat59]
theorem after59_1 (c : Dev nD) (t : Fin cfg59.N) : (dat59 V c).after 1 t = iblk59 V c 1 t := by dsimp only [dat59]
theorem after59_2 (c : Dev nD) (t : Fin cfg59.N) : (dat59 V c).after 2 t = (outsAt59 V c t.val t.isLt).1 := by dsimp only [dat59]

/-- An input's current staging buffer holds its block at every point, fetched there or not: where it is not fetched its block
    index has not moved since the point before, and the body left the block in place. -/
theorem before59_0 (c : Dev nD) (t : Fin cfg59.N) (d) : (dat59 V c).before 0 t d = iblk59 V c 0 t :=
  ((dat59 V c).before_in_eq_fetched 0 rfl (fun _ => rfl) (fun _ _ _ => rfl)
      (fun t => by rw [after59_0]; unfold Dat.blockOf iblk59; rw [A_eq59]; try rfl) t d).trans
    (by unfold Dat.fetched Dat.blockOf iblk59; rw [A_eq59]; try rfl)
theorem before59_1 (c : Dev nD) (t : Fin cfg59.N) (d) : (dat59 V c).before 1 t d = iblk59 V c 1 t :=
  ((dat59 V c).before_in_eq_fetched 1 rfl (fun _ => rfl) (fun _ _ _ => rfl)
      (fun t => by rw [after59_1]; unfold Dat.blockOf iblk59; rw [A_eq59]; try rfl) t d).trans
    (by unfold Dat.fetched Dat.blockOf iblk59; rw [A_eq59]; try rfl)

/-! ## The body obligation, at a generic point -/

/-- What the body is called with at point `t`, the windows one by one, -/
noncomputable def bodyPre59 (c : Dev nD) (t : Fin cfg59.N) : sProp 𝕄 :=
  iprop((dat59 V c).Φ t.castSucc ∗ (dat59 V c).owesAt () t.castSucc
    ∗ (∃ d, owns (c : Thread nD τ) (ms59_0 t) fullShare ((dat59 V c).before 0 t d))
    ∗ (∃ d, owns (c : Thread nD τ) (ms59_1 t) fullShare ((dat59 V c).before 1 t d))
    ∗ (∃ d, owns (c : Thread nD τ) (ms59_2 t) fullShare ((dat59 V c).before 2 t d)))

/-- and what it returns. -/
noncomputable def bodyPost59 (c : Dev nD) (t : Fin cfg59.N) : sProp 𝕄 :=
  iprop((dat59 V c).Φ t.succ ∗ (dat59 V c).owesAt () t.succ
    ∗ (dat59 V c).leavesExact 0 t
    ∗ (dat59 V c).leavesExact 1 t
    ∗ (dat59 V c).leavesExact 2 t)

set_option maxHeartbeats 1600000 in
/-- The body at any point. The inputs' memrefs hold their blocks; both guards hold; so the run applies, with the accumulator
    taken out of the invariant at whatever it holds and the output's buffer at whatever it holds. Afterwards the accumulator
    goes back into the invariant with its contents forgotten, the inputs are as they were, and the output's buffer reads
    its pieces — through the point's own staging memref as through the reference view, since the pieces cover. -/
theorem sound_body59 (c : Dev nD) (t : Fin cfg59.N) :
    bodyPre59 V c t ⊢ wp frame (wpE (defs₀ (F := F)) Variants.none c none) Set.univ (bodyAt59 t) (fun _ => bodyPost59 V c t) := by
  unfold bodyPre59 bodyPost59 bodyAt59
  simp only [before59_0, before59_1]
  rw [show (dat59 V c).owesAt () t.succ = (dat59 V c).owesAt () t.castSucc from rfl,
    show (dat59 V c).Φ t.succ = Pipeline.ΦA spec59 c from rfl, show (dat59 V c).Φ t.castSucc = Pipeline.ΦA spec59 c from rfl, PhiA59_eq]
  rw [show (dat59 V c).leavesExact 0 t = owns (c : Thread nD τ) (ms59_0 t) fullShare ((dat59 V c).after 0 t) from by
      unfold Dat.leavesExact; rw [liveAt59_0 t], after59_0]
  rw [show (dat59 V c).leavesExact 1 t = owns (c : Thread nD τ) (ms59_1 t) fullShare ((dat59 V c).after 1 t) from by
      unfold Dat.leavesExact; rw [liveAt59_1 t], after59_1]
  rw [show (dat59 V c).leavesExact 2 t = owns (c : Thread nD τ) (ms59_2 t) fullShare ((dat59 V c).after 2 t) from by
      unfold Dat.leavesExact; rw [liveAt59_2 t], after59_2]
  unfold outsAt59 out59_2; (try dsimp only)
  iintro ⟨⟨⟨Hacc, Hrest⟩, Hgen⟩, Howe, ⟨%da, Ha⟩, ⟨%db, Hb⟩, ⟨%dO, Hout⟩⟩
  iapply ((kernelRun59 c (grid59.coords t) _ _ _ _ _ _ _ _ (hcond59_0 t) (hcond59_1 t) (iblk59 V c 0 t) (iblk59 V c 1 t)).2.2 Set.univ _)
  isplitl [Ha]; · iexact Ha
  isplitl [Hb]; · iexact Hb
  isplitl [Hout]; · iexists _; iexact Hout
  isplitl [Hacc]; · iexact Hacc
  iintro ⟨Ha, Hb, ⟨%eO, Hout⟩, ⟨%eS, Hacc⟩⟩
  isplitl [Hacc Hrest Hgen]
  · isplitl [Hacc Hrest]
    · isplitl [Hacc]
      · iexists _; unfold owns; iexists _; isplitr
        swap; · iexact Hacc
        ipureintro; rfl
      iexact Hrest
    iexact Hgen
  isplitl [Howe]; · iexact Howe
  isplitl [Ha]; · iexact Ha
  isplitl [Hb]; · iexact Hb
  unfold owns; iexists _; isplitr
  swap; · iexact Hout
  ipureintro; exact View.read_writes_of_cover _ _ _ _ _ (cover59_2 c _ _ _ _ _ _ _ _ _ _ _ _ _)

/-- The library's body obligation, at every point. -/
theorem body_obligation59 (c : Dev nD) : BodyObligation (dat59 (F := F) V c) (defs₀ (F := F)) Variants.none () Set.univ := fun t => by
  rw [bigSep_W59, bigSep_W59]
  exact sound_body59 V c t

/-- What the launch hands the region is the invariant before the first point, -/
theorem hin59 (c : Dev nD) : Pipeline.ΦA spec59 c ⊢ (dat59 V c).Φ 0 := Idealize.SL.BI.Entails.refl _

/-- and the invariant after the last point is what the launch takes back. -/
theorem hout59 (c : Dev nD) : (dat59 V c).Φ (Fin.last cfg59.N) ⊢ Pipeline.ΦA spec59 c := Idealize.SL.BI.Entails.refl _

end Cert.KernelIdeal.Hand

end
-- ==== Proof.ChainValsKI.lean ====
import proofs.«158944_j64613488001249_1_alg».proof.Proof.RegKI0
import proofs.«158944_j64613488001249_1_alg».proof.Proof.RegKI1
import proofs.«158944_j64613488001249_1_alg».proof.Proof.RegKI2
import proofs.«158944_j64613488001249_1_alg».proof.Proof.RegKI3
import proofs.«158944_j64613488001249_1_alg».proof.Proof.RegKI4
import proofs.«158944_j64613488001249_1_alg».proof.Proof.RegKI5
import proofs.«158944_j64613488001249_1_alg».proof.Proof.RegKI6
import proofs.«158944_j64613488001249_1_alg».proof.Proof.RegKI7
import proofs.«158944_j64613488001249_1_alg».proof.Proof.RegKI8
import proofs.«158944_j64613488001249_1_alg».proof.Proof.RegKI9
import proofs.«158944_j64613488001249_1_alg».proof.Proof.RegKI10
import proofs.«158944_j64613488001249_1_alg».proof.Proof.RegKI11
import proofs.«158944_j64613488001249_1_alg».proof.Proof.RegKI12
import proofs.«158944_j64613488001249_1_alg».proof.Proof.RegKI13
import proofs.«158944_j64613488001249_1_alg».proof.Proof.RegKI14
import proofs.«158944_j64613488001249_1_alg».proof.Proof.RegKI15
import proofs.«158944_j64613488001249_1_alg».proof.Proof.RegKI16
import proofs.«158944_j64613488001249_1_alg».proof.Proof.RegKI17
import proofs.«158944_j64613488001249_1_alg».proof.Proof.RegKI18
import proofs.«158944_j64613488001249_1_alg».proof.Proof.RegKI19
import proofs.«158944_j64613488001249_1_alg».proof.Proof.RegKI20
import proofs.«158944_j64613488001249_1_alg».proof.Proof.RegKI21
import proofs.«158944_j64613488001249_1_alg».proof.Proof.RegKI22
import proofs.«158944_j64613488001249_1_alg».proof.Proof.RegKI23
import proofs.«158944_j64613488001249_1_alg».proof.Proof.RegKI24
import proofs.«158944_j64613488001249_1_alg».proof.Proof.RegKI25
import proofs.«158944_j64613488001249_1_alg».proof.Proof.RegKI26
import proofs.«158944_j64613488001249_1_alg».proof.Proof.RegKI27
import proofs.«158944_j64613488001249_1_alg».proof.Proof.RegKI28
import proofs.«158944_j64613488001249_1_alg».proof.Proof.RegKI29
import proofs.«158944_j64613488001249_1_alg».proof.Proof.RegKI30
import proofs.«158944_j64613488001249_1_alg».proof.Proof.RegKI31
import proofs.«158944_j64613488001249_1_alg».proof.Proof.RegKI32
import proofs.«158944_j64613488001249_1_alg».proof.Proof.RegKI33
import proofs.«158944_j64613488001249_1_alg».proof.Proof.RegKI34
import proofs.«158944_j64613488001249_1_alg».proof.Proof.RegKI35
import proofs.«158944_j64613488001249_1_alg».proof.Proof.RegKI36
import proofs.«158944_j64613488001249_1_alg».proof.Proof.RegKI37
import proofs.«158944_j64613488001249_1_alg».proof.Proof.RegKI38
import proofs.«158944_j64613488001249_1_alg».proof.Proof.RegKI39
import proofs.«158944_j64613488001249_1_alg».proof.Proof.RegKI40
import proofs.«158944_j64613488001249_1_alg».proof.Proof.RegKI41
import proofs.«158944_j64613488001249_1_alg».proof.Proof.RegKI42
import proofs.«158944_j64613488001249_1_alg».proof.Proof.RegKI43
import proofs.«158944_j64613488001249_1_alg».proof.Proof.RegKI44
import proofs.«158944_j64613488001249_1_alg».proof.Proof.RegKI45
import proofs.«158944_j64613488001249_1_alg».proof.Proof.RegKI46
import proofs.«158944_j64613488001249_1_alg».proof.Proof.RegKI47
import proofs.«158944_j64613488001249_1_alg».proof.Proof.RegKI48
import proofs.«158944_j64613488001249_1_alg».proof.Proof.RegKI49
import proofs.«158944_j64613488001249_1_alg».proof.Proof.RegKI50
import proofs.«158944_j64613488001249_1_alg».proof.Proof.RegKI51
import proofs.«158944_j64613488001249_1_alg».proof.Proof.RegKI52
import proofs.«158944_j64613488001249_1_alg».proof.Proof.RegKI53
import proofs.«158944_j64613488001249_1_alg».proof.Proof.RegKI54
import proofs.«158944_j64613488001249_1_alg».proof.Proof.RegKI55
import proofs.«158944_j64613488001249_1_alg».proof.Proof.RegKI56
import proofs.«158944_j64613488001249_1_alg».proof.Proof.RegKI57
import proofs.«158944_j64613488001249_1_alg».proof.Proof.RegKI58
import proofs.«158944_j64613488001249_1_alg».proof.Proof.RegKI59
import proofs.«158944_j64613488001249_1_alg».proof.Proof.RegionsKI
import Idealize.ShloMosaic.Lib.Pipeline.Frame
import Idealize.ShloMosaic.Lib.Pipeline.Regions
import Idealize.ShloMosaic.Lib.Pipeline.RegionsLoop

/-! # The unscoped buffers' contents between @main's items, concretely

    `U<j> m c` is what core `c`'s unscoped buffers hold after item j-1 of @main, from the launch memory `m`: a host stretch
    acts by `StableHlo.after`, a kernel region rewrites its output window's array to what its write-backs leave
    (`Dat.arrAt 2 N` of the region's proof data at the contents it is entered from). These are the generated valuations
    `GenP.V<j>` at the unknowns `outs` chosen to be the regions' own results (`V<j>_eq`). -/

set_option maxRecDepth 16384

noncomputable section

namespace Cert.KernelIdeal.Hand

open Cert.KernelIdeal Cert.KernelIdeal.Gen Cert.KernelIdeal.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

variable (m : (ℓ : Loc nD τ sig) → Buf (Elt F) ℓ)

/-- Core `c`'s unscoped buffers at launch. -/
abbrev U0 (c : Dev nD) : Valuation τ sig (Elt F) := fun b => m (c, b)
/-- Core `c`'s unscoped buffers after item 0, the host stretch `hostOps0`. -/
abbrev U1 (c : Dev nD) : Valuation τ sig (Elt F) := StableHlo.after hostOps0 (U0 m c)
/-- Core `c`'s unscoped buffers after item 1, region 0: `main_v17` at what the region's write-backs leave. -/
abbrev U2 (c : Dev nD) : Valuation τ sig (Elt F) :=
  Function.update (U1 m c) main_v17 ((dat0 (fun c b => U1 m c b) c).arrAt 2 cfg0.N)
/-- Core `c`'s unscoped buffers after item 2, the host stretch `hostOps1`. -/
abbrev U3 (c : Dev nD) : Valuation τ sig (Elt F) := StableHlo.after hostOps1 (U2 m c)
/-- Core `c`'s unscoped buffers after item 3, region 1: `main_v26` at what the region's write-backs leave. -/
abbrev U4 (c : Dev nD) : Valuation τ sig (Elt F) :=
  Function.update (U3 m c) main_v26 ((dat1 (fun c b => U3 m c b) c).arrAt 2 cfg1.N)
/-- Core `c`'s unscoped buffers after item 4, the host stretch `hostOps2`. -/
abbrev U5 (c : Dev nD) : Valuation τ sig (Elt F) := StableHlo.after hostOps2 (U4 m c)
/-- Core `c`'s unscoped buffers after item 5, region 2: `main_v30` at what the region's write-backs leave. -/
abbrev U6 (c : Dev nD) : Valuation τ sig (Elt F) :=
  Function.update (U5 m c) main_v30 ((dat2 (fun c b => U5 m c b) c).arrAt 2 cfg2.N)
/-- Core `c`'s unscoped buffers after item 6, the host stretch `hostOps3`. -/
abbrev U7 (c : Dev nD) : Valuation τ sig (Elt F) := StableHlo.after hostOps3 (U6 m c)
/-- Core `c`'s unscoped buffers after item 7, region 3: `main_v34` at what the region's write-backs leave. -/
abbrev U8 (c : Dev nD) : Valuation τ sig (Elt F) :=
  Function.update (U7 m c) main_v34 ((dat3 (fun c b => U7 m c b) c).arrAt 2 cfg3.N)
/-- Core `c`'s unscoped buffers after item 8, region 4: `main_v35` at what the region's write-backs leave. -/
abbrev U9 (c : Dev nD) : Valuation τ sig (Elt F) :=
  Function.update (U8 m c) main_v35 ((dat4 (fun c b => U8 m c b) c).arrAt 2 cfg4.N)
/-- Core `c`'s unscoped buffers after item 9, the host stretch `hostOps5`. -/
abbrev U10 (c : Dev nD) : Valuation τ sig (Elt F) := StableHlo.after hostOps5 (U9 m c)
/-- Core `c`'s unscoped buffers after item 10, region 5: `main_v39` at what the region's write-backs leave. -/
abbrev U11 (c : Dev nD) : Valuation τ sig (Elt F) :=
  Function.update (U10 m c) main_v39 ((dat5 (fun c b => U10 m c b) c).arrAt 2 cfg5.N)
/-- Core `c`'s unscoped buffers after item 11, the host stretch `hostOps6`. -/
abbrev U12 (c : Dev nD) : Valuation τ sig (Elt F) := StableHlo.after hostOps6 (U11 m c)
/-- Core `c`'s unscoped buffers after item 12, region 6: `main_v43` at what the region's write-backs leave. -/
abbrev U13 (c : Dev nD) : Valuation τ sig (Elt F) :=
  Function.update (U12 m c) main_v43 ((dat6 (fun c b => U12 m c b) c).arrAt 2 cfg6.N)
/-- Core `c`'s unscoped buffers after item 13, region 7: `main_v44` at what the region's write-backs leave. -/
abbrev U14 (c : Dev nD) : Valuation τ sig (Elt F) :=
  Function.update (U13 m c) main_v44 ((dat7 (fun c b => U13 m c b) c).arrAt 2 cfg7.N)
/-- Core `c`'s unscoped buffers after item 14, the host stretch `hostOps8`. -/
abbrev U15 (c : Dev nD) : Valuation τ sig (Elt F) := StableHlo.after hostOps8 (U14 m c)
/-- Core `c`'s unscoped buffers after item 15, region 8: `main_v63` at what the region's write-backs leave. -/
abbrev U16 (c : Dev nD) : Valuation τ sig (Elt F) :=
  Function.update (U15 m c) main_v63 ((dat8 (fun c b => U15 m c b) c).arrAt 2 cfg8.N)
/-- Core `c`'s unscoped buffers after item 16, the host stretch `hostOps9`. -/
abbrev U17 (c : Dev nD) : Valuation τ sig (Elt F) := StableHlo.after hostOps9 (U16 m c)
/-- Core `c`'s unscoped buffers after item 17, region 9: `main_v67` at what the region's write-backs leave. -/
abbrev U18 (c : Dev nD) : Valuation τ sig (Elt F) :=
  Function.update (U17 m c) main_v67 ((dat9 (fun c b => U17 m c b) c).arrAt 2 cfg9.N)
/-- Core `c`'s unscoped buffers after item 18, the host stretch `hostOps10`. -/
abbrev U19 (c : Dev nD) : Valuation τ sig (Elt F) := StableHlo.after hostOps10 (U18 m c)
/-- Core `c`'s unscoped buffers after item 19, region 10: `main_v71` at what the region's write-backs leave. -/
abbrev U20 (c : Dev nD) : Valuation τ sig (Elt F) :=
  Function.update (U19 m c) main_v71 ((dat10 (fun c b => U19 m c b) c).arrAt 2 cfg10.N)
/-- Core `c`'s unscoped buffers after item 20, region 11: `main_v72` at what the region's write-backs leave. -/
abbrev U21 (c : Dev nD) : Valuation τ sig (Elt F) :=
  Function.update (U20 m c) main_v72 ((dat11 (fun c b => U20 m c b) c).arrAt 2 cfg11.N)
/-- Core `c`'s unscoped buffers after item 21, the host stretch `hostOps12`. -/
abbrev U22 (c : Dev nD) : Valuation τ sig (Elt F) := StableHlo.after hostOps12 (U21 m c)
/-- Core `c`'s unscoped buffers after item 22, region 12: `main_v76` at what the region's write-backs leave. -/
abbrev U23 (c : Dev nD) : Valuation τ sig (Elt F) :=
  Function.update (U22 m c) main_v76 ((dat12 (fun c b => U22 m c b) c).arrAt 2 cfg12.N)
/-- Core `c`'s unscoped buffers after item 23, the host stretch `hostOps13`. -/
abbrev U24 (c : Dev nD) : Valuation τ sig (Elt F) := StableHlo.after hostOps13 (U23 m c)
/-- Core `c`'s unscoped buffers after item 24, region 13: `main_v80` at what the region's write-backs leave. -/
abbrev U25 (c : Dev nD) : Valuation τ sig (Elt F) :=
  Function.update (U24 m c) main_v80 ((dat13 (fun c b => U24 m c b) c).arrAt 2 cfg13.N)
/-- Core `c`'s unscoped buffers after item 25, region 14: `main_v81` at what the region's write-backs leave. -/
abbrev U26 (c : Dev nD) : Valuation τ sig (Elt F) :=
  Function.update (U25 m c) main_v81 ((dat14 (fun c b => U25 m c b) c).arrAt 2 cfg14.N)
/-- Core `c`'s unscoped buffers after item 26, the host stretch `hostOps15`. -/
abbrev U27 (c : Dev nD) : Valuation τ sig (Elt F) := StableHlo.after hostOps15 (U26 m c)
/-- Core `c`'s unscoped buffers after item 27, region 15: `main_v100` at what the region's write-backs leave. -/
abbrev U28 (c : Dev nD) : Valuation τ sig (Elt F) :=
  Function.update (U27 m c) main_v100 ((dat15 (fun c b => U27 m c b) c).arrAt 2 cfg15.N)
/-- Core `c`'s unscoped buffers after item 28, the host stretch `hostOps16`. -/
abbrev U29 (c : Dev nD) : Valuation τ sig (Elt F) := StableHlo.after hostOps16 (U28 m c)
/-- Core `c`'s unscoped buffers after item 29, region 16: `main_v104` at what the region's write-backs leave. -/
abbrev U30 (c : Dev nD) : Valuation τ sig (Elt F) :=
  Function.update (U29 m c) main_v104 ((dat16 (fun c b => U29 m c b) c).arrAt 2 cfg16.N)
/-- Core `c`'s unscoped buffers after item 30, the host stretch `hostOps17`. -/
abbrev U31 (c : Dev nD) : Valuation τ sig (Elt F) := StableHlo.after hostOps17 (U30 m c)
/-- Core `c`'s unscoped buffers after item 31, region 17: `main_v108` at what the region's write-backs leave. -/
abbrev U32 (c : Dev nD) : Valuation τ sig (Elt F) :=
  Function.update (U31 m c) main_v108 ((dat17 (fun c b => U31 m c b) c).arrAt 2 cfg17.N)
/-- Core `c`'s unscoped buffers after item 32, region 18: `main_v109` at what the region's write-backs leave. -/
abbrev U33 (c : Dev nD) : Valuation τ sig (Elt F) :=
  Function.update (U32 m c) main_v109 ((dat18 (fun c b => U32 m c b) c).arrAt 2 cfg18.N)
/-- Core `c`'s unscoped buffers after item 33, the host stretch `hostOps19`. -/
abbrev U34 (c : Dev nD) : Valuation τ sig (Elt F) := StableHlo.after hostOps19 (U33 m c)
/-- Core `c`'s unscoped buffers after item 34, region 19: `main_v113` at what the region's write-backs leave. -/
abbrev U35 (c : Dev nD) : Valuation τ sig (Elt F) :=
  Function.update (U34 m c) main_v113 ((dat19 (fun c b => U34 m c b) c).arrAt 2 cfg19.N)
/-- Core `c`'s unscoped buffers after item 35, the host stretch `hostOps20`. -/
abbrev U36 (c : Dev nD) : Valuation τ sig (Elt F) := StableHlo.after hostOps20 (U35 m c)
/-- Core `c`'s unscoped buffers after item 36, region 20: `main_v117` at what the region's write-backs leave. -/
abbrev U37 (c : Dev nD) : Valuation τ sig (Elt F) :=
  Function.update (U36 m c) main_v117 ((dat20 (fun c b => U36 m c b) c).arrAt 2 cfg20.N)
/-- Core `c`'s unscoped buffers after item 37, region 21: `main_v118` at what the region's write-backs leave. -/
abbrev U38 (c : Dev nD) : Valuation τ sig (Elt F) :=
  Function.update (U37 m c) main_v118 ((dat21 (fun c b => U37 m c b) c).arrAt 2 cfg21.N)
/-- Core `c`'s unscoped buffers after item 38, the host stretch `hostOps22`. -/
abbrev U39 (c : Dev nD) : Valuation τ sig (Elt F) := StableHlo.after hostOps22 (U38 m c)
/-- Core `c`'s unscoped buffers after item 39, region 22: `main_v137` at what the region's write-backs leave. -/
abbrev U40 (c : Dev nD) : Valuation τ sig (Elt F) :=
  Function.update (U39 m c) main_v137 ((dat22 (fun c b => U39 m c b) c).arrAt 2 cfg22.N)
/-- Core `c`'s unscoped buffers after item 40, the host stretch `hostOps23`. -/
abbrev U41 (c : Dev nD) : Valuation τ sig (Elt F) := StableHlo.after hostOps23 (U40 m c)
/-- Core `c`'s unscoped buffers after item 41, region 23: `main_v141` at what the region's write-backs leave. -/
abbrev U42 (c : Dev nD) : Valuation τ sig (Elt F) :=
  Function.update (U41 m c) main_v141 ((dat23 (fun c b => U41 m c b) c).arrAt 2 cfg23.N)
/-- Core `c`'s unscoped buffers after item 42, the host stretch `hostOps24`. -/
abbrev U43 (c : Dev nD) : Valuation τ sig (Elt F) := StableHlo.after hostOps24 (U42 m c)
/-- Core `c`'s unscoped buffers after item 43, region 24: `main_v145` at what the region's write-backs leave. -/
abbrev U44 (c : Dev nD) : Valuation τ sig (Elt F) :=
  Function.update (U43 m c) main_v145 ((dat24 (fun c b => U43 m c b) c).arrAt 2 cfg24.N)
/-- Core `c`'s unscoped buffers after item 44, region 25: `main_v146` at what the region's write-backs leave. -/
abbrev U45 (c : Dev nD) : Valuation τ sig (Elt F) :=
  Function.update (U44 m c) main_v146 ((dat25 (fun c b => U44 m c b) c).arrAt 2 cfg25.N)
/-- Core `c`'s unscoped buffers after item 45, the host stretch `hostOps26`. -/
abbrev U46 (c : Dev nD) : Valuation τ sig (Elt F) := StableHlo.after hostOps26 (U45 m c)
/-- Core `c`'s unscoped buffers after item 46, region 26: `main_v150` at what the region's write-backs leave. -/
abbrev U47 (c : Dev nD) : Valuation τ sig (Elt F) :=
  Function.update (U46 m c) main_v150 ((dat26 (fun c b => U46 m c b) c).arrAt 2 cfg26.N)
/-- Core `c`'s unscoped buffers after item 47, the host stretch `hostOps27`. -/
abbrev U48 (c : Dev nD) : Valuation τ sig (Elt F) := StableHlo.after hostOps27 (U47 m c)
/-- Core `c`'s unscoped buffers after item 48, region 27: `main_v154` at what the region's write-backs leave. -/
abbrev U49 (c : Dev nD) : Valuation τ sig (Elt F) :=
  Function.update (U48 m c) main_v154 ((dat27 (fun c b => U48 m c b) c).arrAt 2 cfg27.N)
/-- Core `c`'s unscoped buffers after item 49, region 28: `main_v155` at what the region's write-backs leave. -/
abbrev U50 (c : Dev nD) : Valuation τ sig (Elt F) :=
  Function.update (U49 m c) main_v155 ((dat28 (fun c b => U49 m c b) c).arrAt 2 cfg28.N)
/-- Core `c`'s unscoped buffers after item 50, the host stretch `hostOps29`. -/
abbrev U51 (c : Dev nD) : Valuation τ sig (Elt F) := StableHlo.after hostOps29 (U50 m c)
/-- Core `c`'s unscoped buffers after item 51, region 29: `main_v174` at what the region's write-backs leave. -/
abbrev U52 (c : Dev nD) : Valuation τ sig (Elt F) :=
  Function.update (U51 m c) main_v174 ((dat29 (fun c b => U51 m c b) c).arrAt 2 cfg29.N)
/-- Core `c`'s unscoped buffers after item 52, the host stretch `hostOps30`. -/
abbrev U53 (c : Dev nD) : Valuation τ sig (Elt F) := StableHlo.after hostOps30 (U52 m c)
/-- Core `c`'s unscoped buffers after item 53, region 30: `main_v178` at what the region's write-backs leave. -/
abbrev U54 (c : Dev nD) : Valuation τ sig (Elt F) :=
  Function.update (U53 m c) main_v178 ((dat30 (fun c b => U53 m c b) c).arrAt 2 cfg30.N)
/-- Core `c`'s unscoped buffers after item 54, the host stretch `hostOps31`. -/
abbrev U55 (c : Dev nD) : Valuation τ sig (Elt F) := StableHlo.after hostOps31 (U54 m c)
/-- Core `c`'s unscoped buffers after item 55, region 31: `main_v182` at what the region's write-backs leave. -/
abbrev U56 (c : Dev nD) : Valuation τ sig (Elt F) :=
  Function.update (U55 m c) main_v182 ((dat31 (fun c b => U55 m c b) c).arrAt 2 cfg31.N)
/-- Core `c`'s unscoped buffers after item 56, region 32: `main_v183` at what the region's write-backs leave. -/
abbrev U57 (c : Dev nD) : Valuation τ sig (Elt F) :=
  Function.update (U56 m c) main_v183 ((dat32 (fun c b => U56 m c b) c).arrAt 2 cfg32.N)
/-- Core `c`'s unscoped buffers after item 57, the host stretch `hostOps33`. -/
abbrev U58 (c : Dev nD) : Valuation τ sig (Elt F) := StableHlo.after hostOps33 (U57 m c)
/-- Core `c`'s unscoped buffers after item 58, region 33: `main_v187` at what the region's write-backs leave. -/
abbrev U59 (c : Dev nD) : Valuation τ sig (Elt F) :=
  Function.update (U58 m c) main_v187 ((dat33 (fun c b => U58 m c b) c).arrAt 2 cfg33.N)
/-- Core `c`'s unscoped buffers after item 59, the host stretch `hostOps34`. -/
abbrev U60 (c : Dev nD) : Valuation τ sig (Elt F) := StableHlo.after hostOps34 (U59 m c)
/-- Core `c`'s unscoped buffers after item 60, region 34: `main_v191` at what the region's write-backs leave. -/
abbrev U61 (c : Dev nD) : Valuation τ sig (Elt F) :=
  Function.update (U60 m c) main_v191 ((dat34 (fun c b => U60 m c b) c).arrAt 2 cfg34.N)
/-- Core `c`'s unscoped buffers after item 61, region 35: `main_v192` at what the region's write-backs leave. -/
abbrev U62 (c : Dev nD) : Valuation τ sig (Elt F) :=
  Function.update (U61 m c) main_v192 ((dat35 (fun c b => U61 m c b) c).arrAt 2 cfg35.N)
/-- Core `c`'s unscoped buffers after item 62, the host stretch `hostOps36`. -/
abbrev U63 (c : Dev nD) : Valuation τ sig (Elt F) := StableHlo.after hostOps36 (U62 m c)
/-- Core `c`'s unscoped buffers after item 63, region 36: `main_v211` at what the region's write-backs leave. -/
abbrev U64 (c : Dev nD) : Valuation τ sig (Elt F) :=
  Function.update (U63 m c) main_v211 ((dat36 (fun c b => U63 m c b) c).arrAt 2 cfg36.N)
/-- Core `c`'s unscoped buffers after item 64, the host stretch `hostOps37`. -/
abbrev U65 (c : Dev nD) : Valuation τ sig (Elt F) := StableHlo.after hostOps37 (U64 m c)
/-- Core `c`'s unscoped buffers after item 65, region 37: `main_v215` at what the region's write-backs leave. -/
abbrev U66 (c : Dev nD) : Valuation τ sig (Elt F) :=
  Function.update (U65 m c) main_v215 ((dat37 (fun c b => U65 m c b) c).arrAt 2 cfg37.N)
/-- Core `c`'s unscoped buffers after item 66, the host stretch `hostOps38`. -/
abbrev U67 (c : Dev nD) : Valuation τ sig (Elt F) := StableHlo.after hostOps38 (U66 m c)
/-- Core `c`'s unscoped buffers after item 67, region 38: `main_v219` at what the region's write-backs leave. -/
abbrev U68 (c : Dev nD) : Valuation τ sig (Elt F) :=
  Function.update (U67 m c) main_v219 ((dat38 (fun c b => U67 m c b) c).arrAt 2 cfg38.N)
/-- Core `c`'s unscoped buffers after item 68, region 39: `main_v220` at what the region's write-backs leave. -/
abbrev U69 (c : Dev nD) : Valuation τ sig (Elt F) :=
  Function.update (U68 m c) main_v220 ((dat39 (fun c b => U68 m c b) c).arrAt 2 cfg39.N)
/-- Core `c`'s unscoped buffers after item 69, the host stretch `hostOps40`. -/
abbrev U70 (c : Dev nD) : Valuation τ sig (Elt F) := StableHlo.after hostOps40 (U69 m c)
/-- Core `c`'s unscoped buffers after item 70, region 40: `main_v224` at what the region's write-backs leave. -/
abbrev U71 (c : Dev nD) : Valuation τ sig (Elt F) :=
  Function.update (U70 m c) main_v224 ((dat40 (fun c b => U70 m c b) c).arrAt 2 cfg40.N)
/-- Core `c`'s unscoped buffers after item 71, the host stretch `hostOps41`. -/
abbrev U72 (c : Dev nD) : Valuation τ sig (Elt F) := StableHlo.after hostOps41 (U71 m c)
/-- Core `c`'s unscoped buffers after item 72, region 41: `main_v228` at what the region's write-backs leave. -/
abbrev U73 (c : Dev nD) : Valuation τ sig (Elt F) :=
  Function.update (U72 m c) main_v228 ((dat41 (fun c b => U72 m c b) c).arrAt 2 cfg41.N)
/-- Core `c`'s unscoped buffers after item 73, region 42: `main_v229` at what the region's write-backs leave. -/
abbrev U74 (c : Dev nD) : Valuation τ sig (Elt F) :=
  Function.update (U73 m c) main_v229 ((dat42 (fun c b => U73 m c b) c).arrAt 2 cfg42.N)
/-- Core `c`'s unscoped buffers after item 74, the host stretch `hostOps43`. -/
abbrev U75 (c : Dev nD) : Valuation τ sig (Elt F) := StableHlo.after hostOps43 (U74 m c)
/-- Core `c`'s unscoped buffers after item 75, region 43: `main_v248` at what the region's write-backs leave. -/
abbrev U76 (c : Dev nD) : Valuation τ sig (Elt F) :=
  Function.update (U75 m c) main_v248 ((dat43 (fun c b => U75 m c b) c).arrAt 2 cfg43.N)
/-- Core `c`'s unscoped buffers after item 76, the host stretch `hostOps44`. -/
abbrev U77 (c : Dev nD) : Valuation τ sig (Elt F) := StableHlo.after hostOps44 (U76 m c)
/-- Core `c`'s unscoped buffers after item 77, region 44: `main_v252` at what the region's write-backs leave. -/
abbrev U78 (c : Dev nD) : Valuation τ sig (Elt F) :=
  Function.update (U77 m c) main_v252 ((dat44 (fun c b => U77 m c b) c).arrAt 2 cfg44.N)
/-- Core `c`'s unscoped buffers after item 78, the host stretch `hostOps45`. -/
abbrev U79 (c : Dev nD) : Valuation τ sig (Elt F) := StableHlo.after hostOps45 (U78 m c)
/-- Core `c`'s unscoped buffers after item 79, region 45: `main_v256` at what the region's write-backs leave. -/
abbrev U80 (c : Dev nD) : Valuation τ sig (Elt F) :=
  Function.update (U79 m c) main_v256 ((dat45 (fun c b => U79 m c b) c).arrAt 2 cfg45.N)
/-- Core `c`'s unscoped buffers after item 80, region 46: `main_v257` at what the region's write-backs leave. -/
abbrev U81 (c : Dev nD) : Valuation τ sig (Elt F) :=
  Function.update (U80 m c) main_v257 ((dat46 (fun c b => U80 m c b) c).arrAt 2 cfg46.N)
/-- Core `c`'s unscoped buffers after item 81, the host stretch `hostOps47`. -/
abbrev U82 (c : Dev nD) : Valuation τ sig (Elt F) := StableHlo.after hostOps47 (U81 m c)
/-- Core `c`'s unscoped buffers after item 82, region 47: `main_v261` at what the region's write-backs leave. -/
abbrev U83 (c : Dev nD) : Valuation τ sig (Elt F) :=
  Function.update (U82 m c) main_v261 ((dat47 (fun c b => U82 m c b) c).arrAt 2 cfg47.N)
/-- Core `c`'s unscoped buffers after item 83, the host stretch `hostOps48`. -/
abbrev U84 (c : Dev nD) : Valuation τ sig (Elt F) := StableHlo.after hostOps48 (U83 m c)
/-- Core `c`'s unscoped buffers after item 84, region 48: `main_v265` at what the region's write-backs leave. -/
abbrev U85 (c : Dev nD) : Valuation τ sig (Elt F) :=
  Function.update (U84 m c) main_v265 ((dat48 (fun c b => U84 m c b) c).arrAt 2 cfg48.N)
/-- Core `c`'s unscoped buffers after item 85, region 49: `main_v266` at what the region's write-backs leave. -/
abbrev U86 (c : Dev nD) : Valuation τ sig (Elt F) :=
  Function.update (U85 m c) main_v266 ((dat49 (fun c b => U85 m c b) c).arrAt 2 cfg49.N)
/-- Core `c`'s unscoped buffers after item 86, the host stretch `hostOps50`. -/
abbrev U87 (c : Dev nD) : Valuation τ sig (Elt F) := StableHlo.after hostOps50 (U86 m c)
/-- Core `c`'s unscoped buffers after item 87, region 50: `main_v285` at what the region's write-backs leave. -/
abbrev U88 (c : Dev nD) : Valuation τ sig (Elt F) :=
  Function.update (U87 m c) main_v285 ((dat50 (fun c b => U87 m c b) c).arrAt 2 cfg50.N)
/-- Core `c`'s unscoped buffers after item 88, the host stretch `hostOps51`. -/
abbrev U89 (c : Dev nD) : Valuation τ sig (Elt F) := StableHlo.after hostOps51 (U88 m c)
/-- Core `c`'s unscoped buffers after item 89, region 51: `main_v289` at what the region's write-backs leave. -/
abbrev U90 (c : Dev nD) : Valuation τ sig (Elt F) :=
  Function.update (U89 m c) main_v289 ((dat51 (fun c b => U89 m c b) c).arrAt 2 cfg51.N)
/-- Core `c`'s unscoped buffers after item 90, the host stretch `hostOps52`. -/
abbrev U91 (c : Dev nD) : Valuation τ sig (Elt F) := StableHlo.after hostOps52 (U90 m c)
/-- Core `c`'s unscoped buffers after item 91, region 52: `main_v293` at what the region's write-backs leave. -/
abbrev U92 (c : Dev nD) : Valuation τ sig (Elt F) :=
  Function.update (U91 m c) main_v293 ((dat52 (fun c b => U91 m c b) c).arrAt 2 cfg52.N)
/-- Core `c`'s unscoped buffers after item 92, region 53: `main_v294` at what the region's write-backs leave. -/
abbrev U93 (c : Dev nD) : Valuation τ sig (Elt F) :=
  Function.update (U92 m c) main_v294 ((dat53 (fun c b => U92 m c b) c).arrAt 2 cfg53.N)
/-- Core `c`'s unscoped buffers after item 93, the host stretch `hostOps54`. -/
abbrev U94 (c : Dev nD) : Valuation τ sig (Elt F) := StableHlo.after hostOps54 (U93 m c)
/-- Core `c`'s unscoped buffers after item 94, region 54: `main_v298` at what the region's write-backs leave. -/
abbrev U95 (c : Dev nD) : Valuation τ sig (Elt F) :=
  Function.update (U94 m c) main_v298 ((dat54 (fun c b => U94 m c b) c).arrAt 2 cfg54.N)
/-- Core `c`'s unscoped buffers after item 95, the host stretch `hostOps55`. -/
abbrev U96 (c : Dev nD) : Valuation τ sig (Elt F) := StableHlo.after hostOps55 (U95 m c)
/-- Core `c`'s unscoped buffers after item 96, region 55: `main_v302` at what the region's write-backs leave. -/
abbrev U97 (c : Dev nD) : Valuation τ sig (Elt F) :=
  Function.update (U96 m c) main_v302 ((dat55 (fun c b => U96 m c b) c).arrAt 2 cfg55.N)
/-- Core `c`'s unscoped buffers after item 97, region 56: `main_v303` at what the region's write-backs leave. -/
abbrev U98 (c : Dev nD) : Valuation τ sig (Elt F) :=
  Function.update (U97 m c) main_v303 ((dat56 (fun c b => U97 m c b) c).arrAt 2 cfg56.N)
/-- Core `c`'s unscoped buffers after item 98, the host stretch `hostOps57`. -/
abbrev U99 (c : Dev nD) : Valuation τ sig (Elt F) := StableHlo.after hostOps57 (U98 m c)
/-- Core `c`'s unscoped buffers after item 99, region 57: `main_v322` at what the region's write-backs leave. -/
abbrev U100 (c : Dev nD) : Valuation τ sig (Elt F) :=
  Function.update (U99 m c) main_v322 ((dat57 (fun c b => U99 m c b) c).arrAt 2 cfg57.N)
/-- Core `c`'s unscoped buffers after item 100, the host stretch `hostOps58`. -/
abbrev U101 (c : Dev nD) : Valuation τ sig (Elt F) := StableHlo.after hostOps58 (U100 m c)
/-- Core `c`'s unscoped buffers after item 101, region 58: `main_v326` at what the region's write-backs leave. -/
abbrev U102 (c : Dev nD) : Valuation τ sig (Elt F) :=
  Function.update (U101 m c) main_v326 ((dat58 (fun c b => U101 m c b) c).arrAt 2 cfg58.N)
/-- Core `c`'s unscoped buffers after item 102, the host stretch `hostOps59`. -/
abbrev U103 (c : Dev nD) : Valuation τ sig (Elt F) := StableHlo.after hostOps59 (U102 m c)
/-- Core `c`'s unscoped buffers after item 103, the host stretch `hostOps59_1`. -/
abbrev U104 (c : Dev nD) : Valuation τ sig (Elt F) := StableHlo.after hostOps59_1 (U103 m c)
/-- Core `c`'s unscoped buffers after item 104, region 59: `main_v331` at what the region's write-backs leave. -/
abbrev U105 (c : Dev nD) : Valuation τ sig (Elt F) :=
  Function.update (U104 m c) main_v331 ((dat59 (fun c b => U104 m c b) c).arrAt 2 cfg59.N)
/-- Core `c`'s unscoped buffers after item 105, the host stretch `hostOps60`. -/
abbrev U106 (c : Dev nD) : Valuation τ sig (Elt F) := StableHlo.after hostOps60 (U105 m c)

/-- What the regions leave, as the generated valuations' unknowns: region K's output array after its item. -/
def outs : GenP.Outs (F := F) := fun J r c =>
  (match J with
   | 2 => U2 m
   | 4 => U4 m
   | 6 => U6 m
   | 8 => U8 m
   | 9 => U9 m
   | 11 => U11 m
   | 13 => U13 m
   | 14 => U14 m
   | 16 => U16 m
   | 18 => U18 m
   | 20 => U20 m
   | 21 => U21 m
   | 23 => U23 m
   | 25 => U25 m
   | 26 => U26 m
   | 28 => U28 m
   | 30 => U30 m
   | 32 => U32 m
   | 33 => U33 m
   | 35 => U35 m
   | 37 => U37 m
   | 38 => U38 m
   | 40 => U40 m
   | 42 => U42 m
   | 44 => U44 m
   | 45 => U45 m
   | 47 => U47 m
   | 49 => U49 m
   | 50 => U50 m
   | 52 => U52 m
   | 54 => U54 m
   | 56 => U56 m
   | 57 => U57 m
   | 59 => U59 m
   | 61 => U61 m
   | 62 => U62 m
   | 64 => U64 m
   | 66 => U66 m
   | 68 => U68 m
   | 69 => U69 m
   | 71 => U71 m
   | 73 => U73 m
   | 74 => U74 m
   | 76 => U76 m
   | 78 => U78 m
   | 80 => U80 m
   | 81 => U81 m
   | 83 => U83 m
   | 85 => U85 m
   | 86 => U86 m
   | 88 => U88 m
   | 90 => U90 m
   | 92 => U92 m
   | 93 => U93 m
   | 95 => U95 m
   | 97 => U97 m
   | 98 => U98 m
   | 100 => U100 m
   | 102 => U102 m
   | 105 => U105 m
   | _ => U0 m) c (Proc.devRef .tc r)

/-- Writing a function's own updated value back at the same point changes nothing more. -/
theorem update_update_self {α : Type} [DecidableEq α] {β : α → Type} (f g : (a : α) → β a) (a : α) (v : β a) (h : g = f) :
    Function.update g a (Function.update f a v a) = Function.update f a v := by
  rw [h, Function.update_self]

theorem V0_eq (c : Dev nD) : GenP.V0 m c = U0 m c := rfl
theorem V1_eq (c : Dev nD) : GenP.V1 m c = U1 m c := congrArg (StableHlo.after hostOps0) (V0_eq m c)
theorem V2_eq (c : Dev nD) : GenP.V2 m (outs m) c = U2 m c := update_update_self _ _ _ _ (V1_eq m c)
theorem V3_eq (c : Dev nD) : GenP.V3 m (outs m) c = U3 m c := congrArg (StableHlo.after hostOps1) (V2_eq m c)
theorem V4_eq (c : Dev nD) : GenP.V4 m (outs m) c = U4 m c := update_update_self _ _ _ _ (V3_eq m c)
theorem V5_eq (c : Dev nD) : GenP.V5 m (outs m) c = U5 m c := congrArg (StableHlo.after hostOps2) (V4_eq m c)
theorem V6_eq (c : Dev nD) : GenP.V6 m (outs m) c = U6 m c := update_update_self _ _ _ _ (V5_eq m c)
theorem V7_eq (c : Dev nD) : GenP.V7 m (outs m) c = U7 m c := congrArg (StableHlo.after hostOps3) (V6_eq m c)
theorem V8_eq (c : Dev nD) : GenP.V8 m (outs m) c = U8 m c := update_update_self _ _ _ _ (V7_eq m c)
theorem V9_eq (c : Dev nD) : GenP.V9 m (outs m) c = U9 m c := update_update_self _ _ _ _ (V8_eq m c)
theorem V10_eq (c : Dev nD) : GenP.V10 m (outs m) c = U10 m c := congrArg (StableHlo.after hostOps5) (V9_eq m c)
theorem V11_eq (c : Dev nD) : GenP.V11 m (outs m) c = U11 m c := update_update_self _ _ _ _ (V10_eq m c)
theorem V12_eq (c : Dev nD) : GenP.V12 m (outs m) c = U12 m c := congrArg (StableHlo.after hostOps6) (V11_eq m c)
theorem V13_eq (c : Dev nD) : GenP.V13 m (outs m) c = U13 m c := update_update_self _ _ _ _ (V12_eq m c)
theorem V14_eq (c : Dev nD) : GenP.V14 m (outs m) c = U14 m c := update_update_self _ _ _ _ (V13_eq m c)
theorem V15_eq (c : Dev nD) : GenP.V15 m (outs m) c = U15 m c := congrArg (StableHlo.after hostOps8) (V14_eq m c)
theorem V16_eq (c : Dev nD) : GenP.V16 m (outs m) c = U16 m c := update_update_self _ _ _ _ (V15_eq m c)
theorem V17_eq (c : Dev nD) : GenP.V17 m (outs m) c = U17 m c := congrArg (StableHlo.after hostOps9) (V16_eq m c)
theorem V18_eq (c : Dev nD) : GenP.V18 m (outs m) c = U18 m c := update_update_self _ _ _ _ (V17_eq m c)
theorem V19_eq (c : Dev nD) : GenP.V19 m (outs m) c = U19 m c := congrArg (StableHlo.after hostOps10) (V18_eq m c)
theorem V20_eq (c : Dev nD) : GenP.V20 m (outs m) c = U20 m c := update_update_self _ _ _ _ (V19_eq m c)
theorem V21_eq (c : Dev nD) : GenP.V21 m (outs m) c = U21 m c := update_update_self _ _ _ _ (V20_eq m c)
theorem V22_eq (c : Dev nD) : GenP.V22 m (outs m) c = U22 m c := congrArg (StableHlo.after hostOps12) (V21_eq m c)
theorem V23_eq (c : Dev nD) : GenP.V23 m (outs m) c = U23 m c := update_update_self _ _ _ _ (V22_eq m c)
theorem V24_eq (c : Dev nD) : GenP.V24 m (outs m) c = U24 m c := congrArg (StableHlo.after hostOps13) (V23_eq m c)
theorem V25_eq (c : Dev nD) : GenP.V25 m (outs m) c = U25 m c := update_update_self _ _ _ _ (V24_eq m c)
theorem V26_eq (c : Dev nD) : GenP.V26 m (outs m) c = U26 m c := update_update_self _ _ _ _ (V25_eq m c)
theorem V27_eq (c : Dev nD) : GenP.V27 m (outs m) c = U27 m c := congrArg (StableHlo.after hostOps15) (V26_eq m c)
theorem V28_eq (c : Dev nD) : GenP.V28 m (outs m) c = U28 m c := update_update_self _ _ _ _ (V27_eq m c)
theorem V29_eq (c : Dev nD) : GenP.V29 m (outs m) c = U29 m c := congrArg (StableHlo.after hostOps16) (V28_eq m c)
theorem V30_eq (c : Dev nD) : GenP.V30 m (outs m) c = U30 m c := update_update_self _ _ _ _ (V29_eq m c)
theorem V31_eq (c : Dev nD) : GenP.V31 m (outs m) c = U31 m c := congrArg (StableHlo.after hostOps17) (V30_eq m c)
theorem V32_eq (c : Dev nD) : GenP.V32 m (outs m) c = U32 m c := update_update_self _ _ _ _ (V31_eq m c)
theorem V33_eq (c : Dev nD) : GenP.V33 m (outs m) c = U33 m c := update_update_self _ _ _ _ (V32_eq m c)
theorem V34_eq (c : Dev nD) : GenP.V34 m (outs m) c = U34 m c := congrArg (StableHlo.after hostOps19) (V33_eq m c)
theorem V35_eq (c : Dev nD) : GenP.V35 m (outs m) c = U35 m c := update_update_self _ _ _ _ (V34_eq m c)
theorem V36_eq (c : Dev nD) : GenP.V36 m (outs m) c = U36 m c := congrArg (StableHlo.after hostOps20) (V35_eq m c)
theorem V37_eq (c : Dev nD) : GenP.V37 m (outs m) c = U37 m c := update_update_self _ _ _ _ (V36_eq m c)
theorem V38_eq (c : Dev nD) : GenP.V38 m (outs m) c = U38 m c := update_update_self _ _ _ _ (V37_eq m c)
theorem V39_eq (c : Dev nD) : GenP.V39 m (outs m) c = U39 m c := congrArg (StableHlo.after hostOps22) (V38_eq m c)
theorem V40_eq (c : Dev nD) : GenP.V40 m (outs m) c = U40 m c := update_update_self _ _ _ _ (V39_eq m c)
theorem V41_eq (c : Dev nD) : GenP.V41 m (outs m) c = U41 m c := congrArg (StableHlo.after hostOps23) (V40_eq m c)
theorem V42_eq (c : Dev nD) : GenP.V42 m (outs m) c = U42 m c := update_update_self _ _ _ _ (V41_eq m c)
theorem V43_eq (c : Dev nD) : GenP.V43 m (outs m) c = U43 m c := congrArg (StableHlo.after hostOps24) (V42_eq m c)
theorem V44_eq (c : Dev nD) : GenP.V44 m (outs m) c = U44 m c := update_update_self _ _ _ _ (V43_eq m c)
theorem V45_eq (c : Dev nD) : GenP.V45 m (outs m) c = U45 m c := update_update_self _ _ _ _ (V44_eq m c)
theorem V46_eq (c : Dev nD) : GenP.V46 m (outs m) c = U46 m c := congrArg (StableHlo.after hostOps26) (V45_eq m c)
theorem V47_eq (c : Dev nD) : GenP.V47 m (outs m) c = U47 m c := update_update_self _ _ _ _ (V46_eq m c)
theorem V48_eq (c : Dev nD) : GenP.V48 m (outs m) c = U48 m c := congrArg (StableHlo.after hostOps27) (V47_eq m c)
theorem V49_eq (c : Dev nD) : GenP.V49 m (outs m) c = U49 m c := update_update_self _ _ _ _ (V48_eq m c)
theorem V50_eq (c : Dev nD) : GenP.V50 m (outs m) c = U50 m c := update_update_self _ _ _ _ (V49_eq m c)
theorem V51_eq (c : Dev nD) : GenP.V51 m (outs m) c = U51 m c := congrArg (StableHlo.after hostOps29) (V50_eq m c)
theorem V52_eq (c : Dev nD) : GenP.V52 m (outs m) c = U52 m c := update_update_self _ _ _ _ (V51_eq m c)
theorem V53_eq (c : Dev nD) : GenP.V53 m (outs m) c = U53 m c := congrArg (StableHlo.after hostOps30) (V52_eq m c)
theorem V54_eq (c : Dev nD) : GenP.V54 m (outs m) c = U54 m c := update_update_self _ _ _ _ (V53_eq m c)
theorem V55_eq (c : Dev nD) : GenP.V55 m (outs m) c = U55 m c := congrArg (StableHlo.after hostOps31) (V54_eq m c)
theorem V56_eq (c : Dev nD) : GenP.V56 m (outs m) c = U56 m c := update_update_self _ _ _ _ (V55_eq m c)
theorem V57_eq (c : Dev nD) : GenP.V57 m (outs m) c = U57 m c := update_update_self _ _ _ _ (V56_eq m c)
theorem V58_eq (c : Dev nD) : GenP.V58 m (outs m) c = U58 m c := congrArg (StableHlo.after hostOps33) (V57_eq m c)
theorem V59_eq (c : Dev nD) : GenP.V59 m (outs m) c = U59 m c := update_update_self _ _ _ _ (V58_eq m c)
theorem V60_eq (c : Dev nD) : GenP.V60 m (outs m) c = U60 m c := congrArg (StableHlo.after hostOps34) (V59_eq m c)
theorem V61_eq (c : Dev nD) : GenP.V61 m (outs m) c = U61 m c := update_update_self _ _ _ _ (V60_eq m c)
theorem V62_eq (c : Dev nD) : GenP.V62 m (outs m) c = U62 m c := update_update_self _ _ _ _ (V61_eq m c)
theorem V63_eq (c : Dev nD) : GenP.V63 m (outs m) c = U63 m c := congrArg (StableHlo.after hostOps36) (V62_eq m c)
theorem V64_eq (c : Dev nD) : GenP.V64 m (outs m) c = U64 m c := update_update_self _ _ _ _ (V63_eq m c)
theorem V65_eq (c : Dev nD) : GenP.V65 m (outs m) c = U65 m c := congrArg (StableHlo.after hostOps37) (V64_eq m c)
theorem V66_eq (c : Dev nD) : GenP.V66 m (outs m) c = U66 m c := update_update_self _ _ _ _ (V65_eq m c)
theorem V67_eq (c : Dev nD) : GenP.V67 m (outs m) c = U67 m c := congrArg (StableHlo.after hostOps38) (V66_eq m c)
theorem V68_eq (c : Dev nD) : GenP.V68 m (outs m) c = U68 m c := update_update_self _ _ _ _ (V67_eq m c)
theorem V69_eq (c : Dev nD) : GenP.V69 m (outs m) c = U69 m c := update_update_self _ _ _ _ (V68_eq m c)
theorem V70_eq (c : Dev nD) : GenP.V70 m (outs m) c = U70 m c := congrArg (StableHlo.after hostOps40) (V69_eq m c)
theorem V71_eq (c : Dev nD) : GenP.V71 m (outs m) c = U71 m c := update_update_self _ _ _ _ (V70_eq m c)
theorem V72_eq (c : Dev nD) : GenP.V72 m (outs m) c = U72 m c := congrArg (StableHlo.after hostOps41) (V71_eq m c)
theorem V73_eq (c : Dev nD) : GenP.V73 m (outs m) c = U73 m c := update_update_self _ _ _ _ (V72_eq m c)
theorem V74_eq (c : Dev nD) : GenP.V74 m (outs m) c = U74 m c := update_update_self _ _ _ _ (V73_eq m c)
theorem V75_eq (c : Dev nD) : GenP.V75 m (outs m) c = U75 m c := congrArg (StableHlo.after hostOps43) (V74_eq m c)
theorem V76_eq (c : Dev nD) : GenP.V76 m (outs m) c = U76 m c := update_update_self _ _ _ _ (V75_eq m c)
theorem V77_eq (c : Dev nD) : GenP.V77 m (outs m) c = U77 m c := congrArg (StableHlo.after hostOps44) (V76_eq m c)
theorem V78_eq (c : Dev nD) : GenP.V78 m (outs m) c = U78 m c := update_update_self _ _ _ _ (V77_eq m c)
theorem V79_eq (c : Dev nD) : GenP.V79 m (outs m) c = U79 m c := congrArg (StableHlo.after hostOps45) (V78_eq m c)
theorem V80_eq (c : Dev nD) : GenP.V80 m (outs m) c = U80 m c := update_update_self _ _ _ _ (V79_eq m c)
theorem V81_eq (c : Dev nD) : GenP.V81 m (outs m) c = U81 m c := update_update_self _ _ _ _ (V80_eq m c)
theorem V82_eq (c : Dev nD) : GenP.V82 m (outs m) c = U82 m c := congrArg (StableHlo.after hostOps47) (V81_eq m c)
theorem V83_eq (c : Dev nD) : GenP.V83 m (outs m) c = U83 m c := update_update_self _ _ _ _ (V82_eq m c)
theorem V84_eq (c : Dev nD) : GenP.V84 m (outs m) c = U84 m c := congrArg (StableHlo.after hostOps48) (V83_eq m c)
theorem V85_eq (c : Dev nD) : GenP.V85 m (outs m) c = U85 m c := update_update_self _ _ _ _ (V84_eq m c)
theorem V86_eq (c : Dev nD) : GenP.V86 m (outs m) c = U86 m c := update_update_self _ _ _ _ (V85_eq m c)
theorem V87_eq (c : Dev nD) : GenP.V87 m (outs m) c = U87 m c := congrArg (StableHlo.after hostOps50) (V86_eq m c)
theorem V88_eq (c : Dev nD) : GenP.V88 m (outs m) c = U88 m c := update_update_self _ _ _ _ (V87_eq m c)
theorem V89_eq (c : Dev nD) : GenP.V89 m (outs m) c = U89 m c := congrArg (StableHlo.after hostOps51) (V88_eq m c)
theorem V90_eq (c : Dev nD) : GenP.V90 m (outs m) c = U90 m c := update_update_self _ _ _ _ (V89_eq m c)
theorem V91_eq (c : Dev nD) : GenP.V91 m (outs m) c = U91 m c := congrArg (StableHlo.after hostOps52) (V90_eq m c)
theorem V92_eq (c : Dev nD) : GenP.V92 m (outs m) c = U92 m c := update_update_self _ _ _ _ (V91_eq m c)
theorem V93_eq (c : Dev nD) : GenP.V93 m (outs m) c = U93 m c := update_update_self _ _ _ _ (V92_eq m c)
theorem V94_eq (c : Dev nD) : GenP.V94 m (outs m) c = U94 m c := congrArg (StableHlo.after hostOps54) (V93_eq m c)
theorem V95_eq (c : Dev nD) : GenP.V95 m (outs m) c = U95 m c := update_update_self _ _ _ _ (V94_eq m c)
theorem V96_eq (c : Dev nD) : GenP.V96 m (outs m) c = U96 m c := congrArg (StableHlo.after hostOps55) (V95_eq m c)
theorem V97_eq (c : Dev nD) : GenP.V97 m (outs m) c = U97 m c := update_update_self _ _ _ _ (V96_eq m c)
theorem V98_eq (c : Dev nD) : GenP.V98 m (outs m) c = U98 m c := update_update_self _ _ _ _ (V97_eq m c)
theorem V99_eq (c : Dev nD) : GenP.V99 m (outs m) c = U99 m c := congrArg (StableHlo.after hostOps57) (V98_eq m c)
theorem V100_eq (c : Dev nD) : GenP.V100 m (outs m) c = U100 m c := update_update_self _ _ _ _ (V99_eq m c)
theorem V101_eq (c : Dev nD) : GenP.V101 m (outs m) c = U101 m c := congrArg (StableHlo.after hostOps58) (V100_eq m c)
theorem V102_eq (c : Dev nD) : GenP.V102 m (outs m) c = U102 m c := update_update_self _ _ _ _ (V101_eq m c)
theorem V103_eq (c : Dev nD) : GenP.V103 m (outs m) c = U103 m c := congrArg (StableHlo.after hostOps59) (V102_eq m c)
theorem V104_eq (c : Dev nD) : GenP.V104 m (outs m) c = U104 m c := congrArg (StableHlo.after hostOps59_1) (V103_eq m c)
theorem V105_eq (c : Dev nD) : GenP.V105 m (outs m) c = U105 m c := update_update_self _ _ _ _ (V104_eq m c)
theorem V106_eq (c : Dev nD) : GenP.V106 m (outs m) c = U106 m c := congrArg (StableHlo.after hostOps60) (V105_eq m c)

/-- Every pipeline's proof data, each at the contents its region is entered from: a literal match on the pipeline. -/
def pdats : (p : Fin 60) → (c : Dev nD) → Dat τ (Elt F) Unit ℕ (UR sig nD τ) ℕ (cfgs p) c
  | ⟨0, _⟩ => fun c => dat0 (fun c b => U1 m c b) c
  | ⟨1, _⟩ => fun c => dat1 (fun c b => U3 m c b) c
  | ⟨2, _⟩ => fun c => dat2 (fun c b => U5 m c b) c
  | ⟨3, _⟩ => fun c => dat3 (fun c b => U7 m c b) c
  | ⟨4, _⟩ => fun c => dat4 (fun c b => U8 m c b) c
  | ⟨5, _⟩ => fun c => dat5 (fun c b => U10 m c b) c
  | ⟨6, _⟩ => fun c => dat6 (fun c b => U12 m c b) c
  | ⟨7, _⟩ => fun c => dat7 (fun c b => U13 m c b) c
  | ⟨8, _⟩ => fun c => dat8 (fun c b => U15 m c b) c
  | ⟨9, _⟩ => fun c => dat9 (fun c b => U17 m c b) c
  | ⟨10, _⟩ => fun c => dat10 (fun c b => U19 m c b) c
  | ⟨11, _⟩ => fun c => dat11 (fun c b => U20 m c b) c
  | ⟨12, _⟩ => fun c => dat12 (fun c b => U22 m c b) c
  | ⟨13, _⟩ => fun c => dat13 (fun c b => U24 m c b) c
  | ⟨14, _⟩ => fun c => dat14 (fun c b => U25 m c b) c
  | ⟨15, _⟩ => fun c => dat15 (fun c b => U27 m c b) c
  | ⟨16, _⟩ => fun c => dat16 (fun c b => U29 m c b) c
  | ⟨17, _⟩ => fun c => dat17 (fun c b => U31 m c b) c
  | ⟨18, _⟩ => fun c => dat18 (fun c b => U32 m c b) c
  | ⟨19, _⟩ => fun c => dat19 (fun c b => U34 m c b) c
  | ⟨20, _⟩ => fun c => dat20 (fun c b => U36 m c b) c
  | ⟨21, _⟩ => fun c => dat21 (fun c b => U37 m c b) c
  | ⟨22, _⟩ => fun c => dat22 (fun c b => U39 m c b) c
  | ⟨23, _⟩ => fun c => dat23 (fun c b => U41 m c b) c
  | ⟨24, _⟩ => fun c => dat24 (fun c b => U43 m c b) c
  | ⟨25, _⟩ => fun c => dat25 (fun c b => U44 m c b) c
  | ⟨26, _⟩ => fun c => dat26 (fun c b => U46 m c b) c
  | ⟨27, _⟩ => fun c => dat27 (fun c b => U48 m c b) c
  | ⟨28, _⟩ => fun c => dat28 (fun c b => U49 m c b) c
  | ⟨29, _⟩ => fun c => dat29 (fun c b => U51 m c b) c
  | ⟨30, _⟩ => fun c => dat30 (fun c b => U53 m c b) c
  | ⟨31, _⟩ => fun c => dat31 (fun c b => U55 m c b) c
  | ⟨32, _⟩ => fun c => dat32 (fun c b => U56 m c b) c
  | ⟨33, _⟩ => fun c => dat33 (fun c b => U58 m c b) c
  | ⟨34, _⟩ => fun c => dat34 (fun c b => U60 m c b) c
  | ⟨35, _⟩ => fun c => dat35 (fun c b => U61 m c b) c
  | ⟨36, _⟩ => fun c => dat36 (fun c b => U63 m c b) c
  | ⟨37, _⟩ => fun c => dat37 (fun c b => U65 m c b) c
  | ⟨38, _⟩ => fun c => dat38 (fun c b => U67 m c b) c
  | ⟨39, _⟩ => fun c => dat39 (fun c b => U68 m c b) c
  | ⟨40, _⟩ => fun c => dat40 (fun c b => U70 m c b) c
  | ⟨41, _⟩ => fun c => dat41 (fun c b => U72 m c b) c
  | ⟨42, _⟩ => fun c => dat42 (fun c b => U73 m c b) c
  | ⟨43, _⟩ => fun c => dat43 (fun c b => U75 m c b) c
  | ⟨44, _⟩ => fun c => dat44 (fun c b => U77 m c b) c
  | ⟨45, _⟩ => fun c => dat45 (fun c b => U79 m c b) c
  | ⟨46, _⟩ => fun c => dat46 (fun c b => U80 m c b) c
  | ⟨47, _⟩ => fun c => dat47 (fun c b => U82 m c b) c
  | ⟨48, _⟩ => fun c => dat48 (fun c b => U84 m c b) c
  | ⟨49, _⟩ => fun c => dat49 (fun c b => U85 m c b) c
  | ⟨50, _⟩ => fun c => dat50 (fun c b => U87 m c b) c
  | ⟨51, _⟩ => fun c => dat51 (fun c b => U89 m c b) c
  | ⟨52, _⟩ => fun c => dat52 (fun c b => U91 m c b) c
  | ⟨53, _⟩ => fun c => dat53 (fun c b => U92 m c b) c
  | ⟨54, _⟩ => fun c => dat54 (fun c b => U94 m c b) c
  | ⟨55, _⟩ => fun c => dat55 (fun c b => U96 m c b) c
  | ⟨56, _⟩ => fun c => dat56 (fun c b => U97 m c b) c
  | ⟨57, _⟩ => fun c => dat57 (fun c b => U99 m c b) c
  | ⟨58, _⟩ => fun c => dat58 (fun c b => U101 m c b) c
  | ⟨59, _⟩ => fun c => dat59 (fun c b => U104 m c b) c
  | ⟨_ + 60, h⟩ => absurd h (Nat.not_lt.2 (Nat.le_add_left _ _))

/-! ## The arguments end as launched -/

theorem U106_arg0 (c : Dev nD) : U106 m c (Proc.devRef .tc main_arg0) = m ((c : Thread nD τ).loc main_arg0) :=
  (congrFun (V106_eq m c).symm _).trans (GenP.V106_main_arg0 m (outs m) c)
theorem U106_arg1 (c : Dev nD) : U106 m c (Proc.devRef .tc main_arg1) = m ((c : Thread nD τ).loc main_arg1) :=
  (congrFun (V106_eq m c).symm _).trans (GenP.V106_main_arg1 m (outs m) c)
theorem U106_arg2 (c : Dev nD) : U106 m c (Proc.devRef .tc main_arg2) = m ((c : Thread nD τ).loc main_arg2) :=
  (congrFun (V106_eq m c).symm _).trans (GenP.V106_main_arg2 m (outs m) c)
theorem U106_arg3 (c : Dev nD) : U106 m c (Proc.devRef .tc main_arg3) = m ((c : Thread nD τ).loc main_arg3) :=
  (congrFun (V106_eq m c).symm _).trans (GenP.V106_main_arg3 m (outs m) c)
theorem U106_arg4 (c : Dev nD) : U106 m c (Proc.devRef .tc main_arg4) = m ((c : Thread nD τ).loc main_arg4) :=
  (congrFun (V106_eq m c).symm _).trans (GenP.V106_main_arg4 m (outs m) c)
theorem U106_arg5 (c : Dev nD) : U106 m c (Proc.devRef .tc main_arg5) = m ((c : Thread nD τ).loc main_arg5) :=
  (congrFun (V106_eq m c).symm _).trans (GenP.V106_main_arg5 m (outs m) c)
theorem U106_arg6 (c : Dev nD) : U106 m c (Proc.devRef .tc main_arg6) = m ((c : Thread nD τ).loc main_arg6) :=
  (congrFun (V106_eq m c).symm _).trans (GenP.V106_main_arg6 m (outs m) c)
theorem U106_arg7 (c : Dev nD) : U106 m c (Proc.devRef .tc main_arg7) = m ((c : Thread nD τ).loc main_arg7) :=
  (congrFun (V106_eq m c).symm _).trans (GenP.V106_main_arg7 m (outs m) c)
theorem U106_arg8 (c : Dev nD) : U106 m c (Proc.devRef .tc main_arg8) = m ((c : Thread nD τ).loc main_arg8) :=
  (congrFun (V106_eq m c).symm _).trans (GenP.V106_main_arg8 m (outs m) c)
theorem U106_arg9 (c : Dev nD) : U106 m c (Proc.devRef .tc main_arg9) = m ((c : Thread nD τ).loc main_arg9) :=
  (congrFun (V106_eq m c).symm _).trans (GenP.V106_main_arg9 m (outs m) c)
theorem U106_arg10 (c : Dev nD) : U106 m c (Proc.devRef .tc main_arg10) = m ((c : Thread nD τ).loc main_arg10) :=
  (congrFun (V106_eq m c).symm _).trans (GenP.V106_main_arg10 m (outs m) c)
theorem U106_arg11 (c : Dev nD) : U106 m c (Proc.devRef .tc main_arg11) = m ((c : Thread nD τ).loc main_arg11) :=
  (congrFun (V106_eq m c).symm _).trans (GenP.V106_main_arg11 m (outs m) c)
theorem U106_arg12 (c : Dev nD) : U106 m c (Proc.devRef .tc main_arg12) = m ((c : Thread nD τ).loc main_arg12) :=
  (congrFun (V106_eq m c).symm _).trans (GenP.V106_main_arg12 m (outs m) c)
theorem U106_arg13 (c : Dev nD) : U106 m c (Proc.devRef .tc main_arg13) = m ((c : Thread nD τ).loc main_arg13) :=
  (congrFun (V106_eq m c).symm _).trans (GenP.V106_main_arg13 m (outs m) c)
theorem U106_arg14 (c : Dev nD) : U106 m c (Proc.devRef .tc main_arg14) = m ((c : Thread nD τ).loc main_arg14) :=
  (congrFun (V106_eq m c).symm _).trans (GenP.V106_main_arg14 m (outs m) c)

end Cert.KernelIdeal.Hand

end
-- ==== Proof.ChainRegKI.lean ====
/-
  A kernel region of @main as a segment over the thread state "every unscoped buffer at a valuation, the generator register at
  some state, nothing owed": the record, once, for any pipeline of the program, from the pipeline's launch facts, the valuations
  the region is entered from and left at, and what a region module proves of its proof data (its entry arrays are the
  valuation's, full shares, nothing owed, the body obligation, the class invariant at the two ends). The arrays split out of the
  unscoped buffers at entry and are put back at exit at the valuation updated at the output window's array.
-/
import proofs.«158944_j64613488001249_1_alg».proof.Proof.RegionsKI
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

/-- No core owes another anything: no level is assigned. -/
abbrev L : GSem nD τ sig → Finset Unit := fun _ => ∅
abbrev lv : GSem nD τ sig → Unit → ℕ := fun _ _ => 0

/-- What rides beside the buffers through every segment: the core's generator register at some state and its owes, at
    nothing. -/
abbrev Ride (c : Dev nD) : sProp 𝕄 := iprop((∃ r, prngReg c r) ∗ ∃ W, owes (c : Thread nD τ) (0 : CellTallies nD τ sig Unit) W)

/-! ## The exit valuation: the entry valuation updated at the output window's array -/

/-- At the exit every array of the pipeline holds what the write-backs leave: the output window's by the update, an input
    window's (never written: its array is as entered, and is another buffer than the output's) by the entry valuation. -/
theorem hF_of {cfg : Pipeline.Cfg sig Λ₀} {c : Dev nD} (dat : Dat τ (Elt F) Unit ℕ (UR sig nD τ) ℕ cfg c)
    (W : Valuation τ sig (Elt F)) (w₂ : Fin cfg.W)
    (hA : ∀ w, dat.A w = W (Proc.devRef .tc (Pipeline.arrRef cfg.spec w)))
    (hio : ∀ w, w ≠ w₂ → (cfg.win w).isOut = false ∧ Pipeline.arrRef cfg.spec w ≠ Pipeline.arrRef cfg.spec w₂) (w : Fin cfg.W) :
    dat.arrAt w cfg.N
      = Function.update W (Proc.devRef .tc (Pipeline.arrRef cfg.spec w₂)) (dat.arrAt w₂ cfg.N) (Proc.devRef .tc (Pipeline.arrRef cfg.spec w)) := by
  by_cases h : w = w₂
  · subst h; rw [Function.update_self]
  · rw [Function.update_of_ne (StableHlo.devRef_ne_of_ne (hio w h).2), dat.arrAt_in w (hio w h).1, hA]

/-- Off the pipeline's arrays the exit valuation is the entry valuation. -/
theorem hrest_of {cfg : Pipeline.Cfg sig Λ₀} {c : Dev nD} (W : Valuation τ sig (Elt F)) (w₂ : Fin cfg.W)
    (x : Buf (Elt F) ((cfg.win w₂).arr.view.loc (c : Thread nD τ))) (b : Ref sig .tc)
    (hb : b ∉ Finset.univ.image (Pipeline.arrRef cfg.spec)) :
    Function.update W (Proc.devRef .tc (Pipeline.arrRef cfg.spec w₂)) x (Proc.devRef .tc b) = W (Proc.devRef .tc b) :=
  Function.update_of_ne (StableHlo.devRef_ne_of_ne fun e => hb (Finset.mem_image.mpr ⟨w₂, Finset.mem_univ _, e.symm⟩)) _ _

/-! ## The record -/

-- the pipeline's configuration as the library states it and as the program prints it are the same after unfolding definitions
set_option maxHeartbeats 4000000 in
set_option backward.isDefEq.respectTransparency.types false in
/-- Region `p` over the thread state: entered from every unscoped buffer at `V`, left at `V'`. Its arrays split out of the
    unscoped buffers at entry and are put back at the exit contents; the generator register goes into the class invariant and
    comes back; nothing is owed; the kernel has no semaphore of its own. -/
noncomputable def regOf (pd : (p : Fin 60) → (c : Dev nD) → Dat τ (Elt F) Unit ℕ (UR sig nD τ) ℕ (cfgs p) c) (p : Fin 60)
    (lf : Pipeline.LaunchFacts (nD := nD) (τ := τ) cfgs p) (V V' : Dev nD → Valuation τ sig (Elt F))
    (hq : ∀ c w, (pd p c).q w = fullShare) (howed : ∀ c t, (pd p c).owed t = 0) (hrec : ∀ c t, (pd p c).recorded t = Set.univ)
    (hA : ∀ c w, (pd p c).A w = V c (Proc.devRef .tc (Pipeline.arrRef (cfgs p).spec w)))
    (hbody : ∀ c, BodyObligation (pd p c) (defs₀ (F := F)) Variants.none () Set.univ)
    (hin : ∀ c, Pipeline.ΦA (cfgs p).spec c ⊢ (pd p c).Φ 0)
    (hout : ∀ c, (pd p c).Φ (Fin.last (cfgs p).N) ⊢ Pipeline.ΦA (cfgs p).spec c)
    (hF : ∀ c w, (pd p c).arrAt w (cfgs p).N = V' c (Proc.devRef .tc (Pipeline.arrRef (cfgs p).spec w)))
    (hrest : ∀ c (b : Ref sig .tc), b ∉ Finset.univ.image (Pipeline.arrRef (cfgs p).spec) → V' c (Proc.devRef .tc b) = V c (Proc.devRef .tc b)) :
    RegionSeg (pcfgs (F := F)) GenP.adm pd () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ Ride c)
  post c := iprop(StableHlo.held (c : Thread nD τ) (Pipeline.ucRefs τ sig) (V' c) ∗ Ride c)
  X c := iprop(∃ r, prngReg c r)
  Y c := iprop(∃ r, prngReg c r)
  Z c := Pipeline.unscopedRest (Ix := Unit) (Name := ℕ) (U := UR sig nD τ) (Lvl := ℕ) (cfgs p).spec c (fun b => V c (Proc.devRef .tc b))
  hentry c := by
    rw [Pipeline.ownSems0_none]
    have hsplit := Pipeline.arrays_of_unscopedBufs (p := p) (pcfgs (F := F)) GenP.adm pd lf.win lf.arr_whole c
      ((pd p c).share_full (hq c)) (fun b => V c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) GenP.adm (Ix := Unit) (Name := ℕ) (U := UR sig nD τ) (Lvl := ℕ)
      lf.win lf.arr_whole c pd ((pd p c).share_full (hq c))
      (fun b => V c (Proc.devRef .tc b)) (fun b => V' c (Proc.devRef .tc b)) ((pd p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

/-! ## Chaining -/

/-- The thread state at one valuation is the thread state at an equal one. -/
theorem chain_eq (c : Dev nD) {W W' : Valuation τ sig (Elt F)} (h : W = W') :
    (iprop(StableHlo.held (c : Thread nD τ) (Pipeline.ucRefs τ sig) W ∗ Ride c) : sProp 𝕄)
      ⊢ iprop(StableHlo.held (c : Thread nD τ) (Pipeline.ucRefs τ sig) W' ∗ Ride c) := by
  subst h; exact .rfl

/-- The last thread state: the buffers and the generator register, beside the core owing nothing. -/
theorem chain_end (c : Dev nD) {W W' : Valuation τ sig (Elt F)} (h : W = W') :
    (iprop(StableHlo.held (c : Thread nD τ) (Pipeline.ucRefs τ sig) W ∗ Ride c) : sProp 𝕄)
      ⊢ iprop((StableHlo.held (c : Thread nD τ) (Pipeline.ucRefs τ sig) W' ∗ ∃ r, prngReg c r)
          ∗ ∃ Wo, owes (c : Thread nD τ) (0 : CellTallies nD τ sig Unit) Wo) := by
  subst h
  iintro ⟨Hh, Hp, HO⟩
  isplitl [Hh Hp]
  · isplitl [Hh]; · iexact Hh
    iexact Hp
  iexact HO

end Cert.KernelIdeal.Hand

end
-- ==== Proof.ChainRegsKI0.lean ====
import proofs.«158944_j64613488001249_1_alg».proof.Proof.ChainValsKI
import proofs.«158944_j64613488001249_1_alg».proof.Proof.ChainRegKI

/-! # The regions of @main as segments: one record per region: the record `regOf`, stated once for any pipeline of the
    program, at the region's pipeline, its launch facts, the valuations it is entered from and left at, and the region
    module's facts. -/

set_option maxRecDepth 16384

noncomputable section

namespace Cert.KernelIdeal.Hand

open Cert.KernelIdeal Cert.KernelIdeal.Gen Cert.KernelIdeal.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

variable (m : (ℓ : Loc nD τ sig) → Buf (Elt F) ℓ)

/-- Region 0 (item 1): entered from `U1`, left at `U2`, which differs at `main_v17` only. -/
noncomputable def reg0 : RegionSeg (pcfgs (F := F)) GenP.adm (pdats m) () defs₀ Variants.none L lv 0 :=
  regOf (pdats m) 0 launch0 (U1 m) (U2 m) (fun _ _ => rfl) (fun _ _ => rfl) (fun _ _ => rfl)
    (fun c w => A_eq0 (fun c b => U1 m c b) c w) (fun c => body_obligation0 (fun c b => U1 m c b) c) (fun c => hin0 (fun c b => U1 m c b) c) (fun c => hout0 (fun c b => U1 m c b) c)
    (fun c => hF_of (pdats m 0 c) (U1 m c) (2 : Fin cfg0.W) (fun w => A_eq0 (fun c b => U1 m c b) c w) (by decide))
    (fun c => hrest_of (U1 m c) (2 : Fin cfg0.W) _)

/-- Region 1 (item 3): entered from `U3`, left at `U4`, which differs at `main_v26` only. -/
noncomputable def reg1 : RegionSeg (pcfgs (F := F)) GenP.adm (pdats m) () defs₀ Variants.none L lv 1 :=
  regOf (pdats m) 1 launch1 (U3 m) (U4 m) (fun _ _ => rfl) (fun _ _ => rfl) (fun _ _ => rfl)
    (fun c w => A_eq1 (fun c b => U3 m c b) c w) (fun c => body_obligation1 (fun c b => U3 m c b) c) (fun c => hin1 (fun c b => U3 m c b) c) (fun c => hout1 (fun c b => U3 m c b) c)
    (fun c => hF_of (pdats m 1 c) (U3 m c) (2 : Fin cfg1.W) (fun w => A_eq1 (fun c b => U3 m c b) c w) (by decide))
    (fun c => hrest_of (U3 m c) (2 : Fin cfg1.W) _)

/-- Region 2 (item 5): entered from `U5`, left at `U6`, which differs at `main_v30` only. -/
noncomputable def reg2 : RegionSeg (pcfgs (F := F)) GenP.adm (pdats m) () defs₀ Variants.none L lv 2 :=
  regOf (pdats m) 2 launch2 (U5 m) (U6 m) (fun _ _ => rfl) (fun _ _ => rfl) (fun _ _ => rfl)
    (fun c w => A_eq2 (fun c b => U5 m c b) c w) (fun c => body_obligation2 (fun c b => U5 m c b) c) (fun c => hin2 (fun c b => U5 m c b) c) (fun c => hout2 (fun c b => U5 m c b) c)
    (fun c => hF_of (pdats m 2 c) (U5 m c) (2 : Fin cfg2.W) (fun w => A_eq2 (fun c b => U5 m c b) c w) (by decide))
    (fun c => hrest_of (U5 m c) (2 : Fin cfg2.W) _)

/-- Region 3 (item 7): entered from `U7`, left at `U8`, which differs at `main_v34` only. -/
noncomputable def reg3 : RegionSeg (pcfgs (F := F)) GenP.adm (pdats m) () defs₀ Variants.none L lv 3 :=
  regOf (pdats m) 3 launch3 (U7 m) (U8 m) (fun _ _ => rfl) (fun _ _ => rfl) (fun _ _ => rfl)
    (fun c w => A_eq3 (fun c b => U7 m c b) c w) (fun c => body_obligation3 (fun c b => U7 m c b) c) (fun c => hin3 (fun c b => U7 m c b) c) (fun c => hout3 (fun c b => U7 m c b) c)
    (fun c => hF_of (pdats m 3 c) (U7 m c) (2 : Fin cfg3.W) (fun w => A_eq3 (fun c b => U7 m c b) c w) (by decide))
    (fun c => hrest_of (U7 m c) (2 : Fin cfg3.W) _)

/-- Region 4 (item 8): entered from `U8`, left at `U9`, which differs at `main_v35` only. -/
noncomputable def reg4 : RegionSeg (pcfgs (F := F)) GenP.adm (pdats m) () defs₀ Variants.none L lv 4 :=
  regOf (pdats m) 4 launch4 (U8 m) (U9 m) (fun _ _ => rfl) (fun _ _ => rfl) (fun _ _ => rfl)
    (fun c w => A_eq4 (fun c b => U8 m c b) c w) (fun c => body_obligation4 (fun c b => U8 m c b) c) (fun c => hin4 (fun c b => U8 m c b) c) (fun c => hout4 (fun c b => U8 m c b) c)
    (fun c => hF_of (pdats m 4 c) (U8 m c) (2 : Fin cfg4.W) (fun w => A_eq4 (fun c b => U8 m c b) c w) (by decide))
    (fun c => hrest_of (U8 m c) (2 : Fin cfg4.W) _)

/-- Region 5 (item 10): entered from `U10`, left at `U11`, which differs at `main_v39` only. -/
noncomputable def reg5 : RegionSeg (pcfgs (F := F)) GenP.adm (pdats m) () defs₀ Variants.none L lv 5 :=
  regOf (pdats m) 5 launch5 (U10 m) (U11 m) (fun _ _ => rfl) (fun _ _ => rfl) (fun _ _ => rfl)
    (fun c w => A_eq5 (fun c b => U10 m c b) c w) (fun c => body_obligation5 (fun c b => U10 m c b) c) (fun c => hin5 (fun c b => U10 m c b) c) (fun c => hout5 (fun c b => U10 m c b) c)
    (fun c => hF_of (pdats m 5 c) (U10 m c) (2 : Fin cfg5.W) (fun w => A_eq5 (fun c b => U10 m c b) c w) (by decide))
    (fun c => hrest_of (U10 m c) (2 : Fin cfg5.W) _)

/-- Region 6 (item 12): entered from `U12`, left at `U13`, which differs at `main_v43` only. -/
noncomputable def reg6 : RegionSeg (pcfgs (F := F)) GenP.adm (pdats m) () defs₀ Variants.none L lv 6 :=
  regOf (pdats m) 6 launch6 (U12 m) (U13 m) (fun _ _ => rfl) (fun _ _ => rfl) (fun _ _ => rfl)
    (fun c w => A_eq6 (fun c b => U12 m c b) c w) (fun c => body_obligation6 (fun c b => U12 m c b) c) (fun c => hin6 (fun c b => U12 m c b) c) (fun c => hout6 (fun c b => U12 m c b) c)
    (fun c => hF_of (pdats m 6 c) (U12 m c) (2 : Fin cfg6.W) (fun w => A_eq6 (fun c b => U12 m c b) c w) (by decide))
    (fun c => hrest_of (U12 m c) (2 : Fin cfg6.W) _)

/-- Region 7 (item 13): entered from `U13`, left at `U14`, which differs at `main_v44` only. -/
noncomputable def reg7 : RegionSeg (pcfgs (F := F)) GenP.adm (pdats m) () defs₀ Variants.none L lv 7 :=
  regOf (pdats m) 7 launch7 (U13 m) (U14 m) (fun _ _ => rfl) (fun _ _ => rfl) (fun _ _ => rfl)
    (fun c w => A_eq7 (fun c b => U13 m c b) c w) (fun c => body_obligation7 (fun c b => U13 m c b) c) (fun c => hin7 (fun c b => U13 m c b) c) (fun c => hout7 (fun c b => U13 m c b) c)
    (fun c => hF_of (pdats m 7 c) (U13 m c) (2 : Fin cfg7.W) (fun w => A_eq7 (fun c b => U13 m c b) c w) (by decide))
    (fun c => hrest_of (U13 m c) (2 : Fin cfg7.W) _)

/-- Region 8 (item 15): entered from `U15`, left at `U16`, which differs at `main_v63` only. -/
noncomputable def reg8 : RegionSeg (pcfgs (F := F)) GenP.adm (pdats m) () defs₀ Variants.none L lv 8 :=
  regOf (pdats m) 8 launch8 (U15 m) (U16 m) (fun _ _ => rfl) (fun _ _ => rfl) (fun _ _ => rfl)
    (fun c w => A_eq8 (fun c b => U15 m c b) c w) (fun c => body_obligation8 (fun c b => U15 m c b) c) (fun c => hin8 (fun c b => U15 m c b) c) (fun c => hout8 (fun c b => U15 m c b) c)
    (fun c => hF_of (pdats m 8 c) (U15 m c) (2 : Fin cfg8.W) (fun w => A_eq8 (fun c b => U15 m c b) c w) (by decide))
    (fun c => hrest_of (U15 m c) (2 : Fin cfg8.W) _)

/-- Region 9 (item 17): entered from `U17`, left at `U18`, which differs at `main_v67` only. -/
noncomputable def reg9 : RegionSeg (pcfgs (F := F)) GenP.adm (pdats m) () defs₀ Variants.none L lv 9 :=
  regOf (pdats m) 9 launch9 (U17 m) (U18 m) (fun _ _ => rfl) (fun _ _ => rfl) (fun _ _ => rfl)
    (fun c w => A_eq9 (fun c b => U17 m c b) c w) (fun c => body_obligation9 (fun c b => U17 m c b) c) (fun c => hin9 (fun c b => U17 m c b) c) (fun c => hout9 (fun c b => U17 m c b) c)
    (fun c => hF_of (pdats m 9 c) (U17 m c) (2 : Fin cfg9.W) (fun w => A_eq9 (fun c b => U17 m c b) c w) (by decide))
    (fun c => hrest_of (U17 m c) (2 : Fin cfg9.W) _)

/-- Region 10 (item 19): entered from `U19`, left at `U20`, which differs at `main_v71` only. -/
noncomputable def reg10 : RegionSeg (pcfgs (F := F)) GenP.adm (pdats m) () defs₀ Variants.none L lv 10 :=
  regOf (pdats m) 10 launch10 (U19 m) (U20 m) (fun _ _ => rfl) (fun _ _ => rfl) (fun _ _ => rfl)
    (fun c w => A_eq10 (fun c b => U19 m c b) c w) (fun c => body_obligation10 (fun c b => U19 m c b) c) (fun c => hin10 (fun c b => U19 m c b) c) (fun c => hout10 (fun c b => U19 m c b) c)
    (fun c => hF_of (pdats m 10 c) (U19 m c) (2 : Fin cfg10.W) (fun w => A_eq10 (fun c b => U19 m c b) c w) (by decide))
    (fun c => hrest_of (U19 m c) (2 : Fin cfg10.W) _)

/-- Region 11 (item 20): entered from `U20`, left at `U21`, which differs at `main_v72` only. -/
noncomputable def reg11 : RegionSeg (pcfgs (F := F)) GenP.adm (pdats m) () defs₀ Variants.none L lv 11 :=
  regOf (pdats m) 11 launch11 (U20 m) (U21 m) (fun _ _ => rfl) (fun _ _ => rfl) (fun _ _ => rfl)
    (fun c w => A_eq11 (fun c b => U20 m c b) c w) (fun c => body_obligation11 (fun c b => U20 m c b) c) (fun c => hin11 (fun c b => U20 m c b) c) (fun c => hout11 (fun c b => U20 m c b) c)
    (fun c => hF_of (pdats m 11 c) (U20 m c) (2 : Fin cfg11.W) (fun w => A_eq11 (fun c b => U20 m c b) c w) (by decide))
    (fun c => hrest_of (U20 m c) (2 : Fin cfg11.W) _)

/-- Region 12 (item 22): entered from `U22`, left at `U23`, which differs at `main_v76` only. -/
noncomputable def reg12 : RegionSeg (pcfgs (F := F)) GenP.adm (pdats m) () defs₀ Variants.none L lv 12 :=
  regOf (pdats m) 12 launch12 (U22 m) (U23 m) (fun _ _ => rfl) (fun _ _ => rfl) (fun _ _ => rfl)
    (fun c w => A_eq12 (fun c b => U22 m c b) c w) (fun c => body_obligation12 (fun c b => U22 m c b) c) (fun c => hin12 (fun c b => U22 m c b) c) (fun c => hout12 (fun c b => U22 m c b) c)
    (fun c => hF_of (pdats m 12 c) (U22 m c) (2 : Fin cfg12.W) (fun w => A_eq12 (fun c b => U22 m c b) c w) (by decide))
    (fun c => hrest_of (U22 m c) (2 : Fin cfg12.W) _)

/-- Region 13 (item 24): entered from `U24`, left at `U25`, which differs at `main_v80` only. -/
noncomputable def reg13 : RegionSeg (pcfgs (F := F)) GenP.adm (pdats m) () defs₀ Variants.none L lv 13 :=
  regOf (pdats m) 13 launch13 (U24 m) (U25 m) (fun _ _ => rfl) (fun _ _ => rfl) (fun _ _ => rfl)
    (fun c w => A_eq13 (fun c b => U24 m c b) c w) (fun c => body_obligation13 (fun c b => U24 m c b) c) (fun c => hin13 (fun c b => U24 m c b) c) (fun c => hout13 (fun c b => U24 m c b) c)
    (fun c => hF_of (pdats m 13 c) (U24 m c) (2 : Fin cfg13.W) (fun w => A_eq13 (fun c b => U24 m c b) c w) (by decide))
    (fun c => hrest_of (U24 m c) (2 : Fin cfg13.W) _)

/-- Region 14 (item 25): entered from `U25`, left at `U26`, which differs at `main_v81` only. -/
noncomputable def reg14 : RegionSeg (pcfgs (F := F)) GenP.adm (pdats m) () defs₀ Variants.none L lv 14 :=
  regOf (pdats m) 14 launch14 (U25 m) (U26 m) (fun _ _ => rfl) (fun _ _ => rfl) (fun _ _ => rfl)
    (fun c w => A_eq14 (fun c b => U25 m c b) c w) (fun c => body_obligation14 (fun c b => U25 m c b) c) (fun c => hin14 (fun c b => U25 m c b) c) (fun c => hout14 (fun c b => U25 m c b) c)
    (fun c => hF_of (pdats m 14 c) (U25 m c) (2 : Fin cfg14.W) (fun w => A_eq14 (fun c b => U25 m c b) c w) (by decide))
    (fun c => hrest_of (U25 m c) (2 : Fin cfg14.W) _)

/-- Region 15 (item 27): entered from `U27`, left at `U28`, which differs at `main_v100` only. -/
noncomputable def reg15 : RegionSeg (pcfgs (F := F)) GenP.adm (pdats m) () defs₀ Variants.none L lv 15 :=
  regOf (pdats m) 15 launch15 (U27 m) (U28 m) (fun _ _ => rfl) (fun _ _ => rfl) (fun _ _ => rfl)
    (fun c w => A_eq15 (fun c b => U27 m c b) c w) (fun c => body_obligation15 (fun c b => U27 m c b) c) (fun c => hin15 (fun c b => U27 m c b) c) (fun c => hout15 (fun c b => U27 m c b) c)
    (fun c => hF_of (pdats m 15 c) (U27 m c) (2 : Fin cfg15.W) (fun w => A_eq15 (fun c b => U27 m c b) c w) (by decide))
    (fun c => hrest_of (U27 m c) (2 : Fin cfg15.W) _)

/-- Region 16 (item 29): entered from `U29`, left at `U30`, which differs at `main_v104` only. -/
noncomputable def reg16 : RegionSeg (pcfgs (F := F)) GenP.adm (pdats m) () defs₀ Variants.none L lv 16 :=
  regOf (pdats m) 16 launch16 (U29 m) (U30 m) (fun _ _ => rfl) (fun _ _ => rfl) (fun _ _ => rfl)
    (fun c w => A_eq16 (fun c b => U29 m c b) c w) (fun c => body_obligation16 (fun c b => U29 m c b) c) (fun c => hin16 (fun c b => U29 m c b) c) (fun c => hout16 (fun c b => U29 m c b) c)
    (fun c => hF_of (pdats m 16 c) (U29 m c) (2 : Fin cfg16.W) (fun w => A_eq16 (fun c b => U29 m c b) c w) (by decide))
    (fun c => hrest_of (U29 m c) (2 : Fin cfg16.W) _)

/-- Region 17 (item 31): entered from `U31`, left at `U32`, which differs at `main_v108` only. -/
noncomputable def reg17 : RegionSeg (pcfgs (F := F)) GenP.adm (pdats m) () defs₀ Variants.none L lv 17 :=
  regOf (pdats m) 17 launch17 (U31 m) (U32 m) (fun _ _ => rfl) (fun _ _ => rfl) (fun _ _ => rfl)
    (fun c w => A_eq17 (fun c b => U31 m c b) c w) (fun c => body_obligation17 (fun c b => U31 m c b) c) (fun c => hin17 (fun c b => U31 m c b) c) (fun c => hout17 (fun c b => U31 m c b) c)
    (fun c => hF_of (pdats m 17 c) (U31 m c) (2 : Fin cfg17.W) (fun w => A_eq17 (fun c b => U31 m c b) c w) (by decide))
    (fun c => hrest_of (U31 m c) (2 : Fin cfg17.W) _)

/-- Region 18 (item 32): entered from `U32`, left at `U33`, which differs at `main_v109` only. -/
noncomputable def reg18 : RegionSeg (pcfgs (F := F)) GenP.adm (pdats m) () defs₀ Variants.none L lv 18 :=
  regOf (pdats m) 18 launch18 (U32 m) (U33 m) (fun _ _ => rfl) (fun _ _ => rfl) (fun _ _ => rfl)
    (fun c w => A_eq18 (fun c b => U32 m c b) c w) (fun c => body_obligation18 (fun c b => U32 m c b) c) (fun c => hin18 (fun c b => U32 m c b) c) (fun c => hout18 (fun c b => U32 m c b) c)
    (fun c => hF_of (pdats m 18 c) (U32 m c) (2 : Fin cfg18.W) (fun w => A_eq18 (fun c b => U32 m c b) c w) (by decide))
    (fun c => hrest_of (U32 m c) (2 : Fin cfg18.W) _)

/-- Region 19 (item 34): entered from `U34`, left at `U35`, which differs at `main_v113` only. -/
noncomputable def reg19 : RegionSeg (pcfgs (F := F)) GenP.adm (pdats m) () defs₀ Variants.none L lv 19 :=
  regOf (pdats m) 19 launch19 (U34 m) (U35 m) (fun _ _ => rfl) (fun _ _ => rfl) (fun _ _ => rfl)
    (fun c w => A_eq19 (fun c b => U34 m c b) c w) (fun c => body_obligation19 (fun c b => U34 m c b) c) (fun c => hin19 (fun c b => U34 m c b) c) (fun c => hout19 (fun c b => U34 m c b) c)
    (fun c => hF_of (pdats m 19 c) (U34 m c) (2 : Fin cfg19.W) (fun w => A_eq19 (fun c b => U34 m c b) c w) (by decide))
    (fun c => hrest_of (U34 m c) (2 : Fin cfg19.W) _)

end Cert.KernelIdeal.Hand

end
-- ==== Proof.ChainRegsKI1.lean ====
import proofs.«158944_j64613488001249_1_alg».proof.Proof.ChainValsKI
import proofs.«158944_j64613488001249_1_alg».proof.Proof.ChainRegKI

/-! # The regions of @main as segments: one record per region: the record `regOf`, stated once for any pipeline of the
    program, at the region's pipeline, its launch facts, the valuations it is entered from and left at, and the region
    module's facts. -/

set_option maxRecDepth 16384

noncomputable section

namespace Cert.KernelIdeal.Hand

open Cert.KernelIdeal Cert.KernelIdeal.Gen Cert.KernelIdeal.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

variable (m : (ℓ : Loc nD τ sig) → Buf (Elt F) ℓ)

/-- Region 20 (item 36): entered from `U36`, left at `U37`, which differs at `main_v117` only. -/
noncomputable def reg20 : RegionSeg (pcfgs (F := F)) GenP.adm (pdats m) () defs₀ Variants.none L lv 20 :=
  regOf (pdats m) 20 launch20 (U36 m) (U37 m) (fun _ _ => rfl) (fun _ _ => rfl) (fun _ _ => rfl)
    (fun c w => A_eq20 (fun c b => U36 m c b) c w) (fun c => body_obligation20 (fun c b => U36 m c b) c) (fun c => hin20 (fun c b => U36 m c b) c) (fun c => hout20 (fun c b => U36 m c b) c)
    (fun c => hF_of (pdats m 20 c) (U36 m c) (2 : Fin cfg20.W) (fun w => A_eq20 (fun c b => U36 m c b) c w) (by decide))
    (fun c => hrest_of (U36 m c) (2 : Fin cfg20.W) _)

/-- Region 21 (item 37): entered from `U37`, left at `U38`, which differs at `main_v118` only. -/
noncomputable def reg21 : RegionSeg (pcfgs (F := F)) GenP.adm (pdats m) () defs₀ Variants.none L lv 21 :=
  regOf (pdats m) 21 launch21 (U37 m) (U38 m) (fun _ _ => rfl) (fun _ _ => rfl) (fun _ _ => rfl)
    (fun c w => A_eq21 (fun c b => U37 m c b) c w) (fun c => body_obligation21 (fun c b => U37 m c b) c) (fun c => hin21 (fun c b => U37 m c b) c) (fun c => hout21 (fun c b => U37 m c b) c)
    (fun c => hF_of (pdats m 21 c) (U37 m c) (2 : Fin cfg21.W) (fun w => A_eq21 (fun c b => U37 m c b) c w) (by decide))
    (fun c => hrest_of (U37 m c) (2 : Fin cfg21.W) _)

/-- Region 22 (item 39): entered from `U39`, left at `U40`, which differs at `main_v137` only. -/
noncomputable def reg22 : RegionSeg (pcfgs (F := F)) GenP.adm (pdats m) () defs₀ Variants.none L lv 22 :=
  regOf (pdats m) 22 launch22 (U39 m) (U40 m) (fun _ _ => rfl) (fun _ _ => rfl) (fun _ _ => rfl)
    (fun c w => A_eq22 (fun c b => U39 m c b) c w) (fun c => body_obligation22 (fun c b => U39 m c b) c) (fun c => hin22 (fun c b => U39 m c b) c) (fun c => hout22 (fun c b => U39 m c b) c)
    (fun c => hF_of (pdats m 22 c) (U39 m c) (2 : Fin cfg22.W) (fun w => A_eq22 (fun c b => U39 m c b) c w) (by decide))
    (fun c => hrest_of (U39 m c) (2 : Fin cfg22.W) _)

/-- Region 23 (item 41): entered from `U41`, left at `U42`, which differs at `main_v141` only. -/
noncomputable def reg23 : RegionSeg (pcfgs (F := F)) GenP.adm (pdats m) () defs₀ Variants.none L lv 23 :=
  regOf (pdats m) 23 launch23 (U41 m) (U42 m) (fun _ _ => rfl) (fun _ _ => rfl) (fun _ _ => rfl)
    (fun c w => A_eq23 (fun c b => U41 m c b) c w) (fun c => body_obligation23 (fun c b => U41 m c b) c) (fun c => hin23 (fun c b => U41 m c b) c) (fun c => hout23 (fun c b => U41 m c b) c)
    (fun c => hF_of (pdats m 23 c) (U41 m c) (2 : Fin cfg23.W) (fun w => A_eq23 (fun c b => U41 m c b) c w) (by decide))
    (fun c => hrest_of (U41 m c) (2 : Fin cfg23.W) _)

/-- Region 24 (item 43): entered from `U43`, left at `U44`, which differs at `main_v145` only. -/
noncomputable def reg24 : RegionSeg (pcfgs (F := F)) GenP.adm (pdats m) () defs₀ Variants.none L lv 24 :=
  regOf (pdats m) 24 launch24 (U43 m) (U44 m) (fun _ _ => rfl) (fun _ _ => rfl) (fun _ _ => rfl)
    (fun c w => A_eq24 (fun c b => U43 m c b) c w) (fun c => body_obligation24 (fun c b => U43 m c b) c) (fun c => hin24 (fun c b => U43 m c b) c) (fun c => hout24 (fun c b => U43 m c b) c)
    (fun c => hF_of (pdats m 24 c) (U43 m c) (2 : Fin cfg24.W) (fun w => A_eq24 (fun c b => U43 m c b) c w) (by decide))
    (fun c => hrest_of (U43 m c) (2 : Fin cfg24.W) _)

/-- Region 25 (item 44): entered from `U44`, left at `U45`, which differs at `main_v146` only. -/
noncomputable def reg25 : RegionSeg (pcfgs (F := F)) GenP.adm (pdats m) () defs₀ Variants.none L lv 25 :=
  regOf (pdats m) 25 launch25 (U44 m) (U45 m) (fun _ _ => rfl) (fun _ _ => rfl) (fun _ _ => rfl)
    (fun c w => A_eq25 (fun c b => U44 m c b) c w) (fun c => body_obligation25 (fun c b => U44 m c b) c) (fun c => hin25 (fun c b => U44 m c b) c) (fun c => hout25 (fun c b => U44 m c b) c)
    (fun c => hF_of (pdats m 25 c) (U44 m c) (2 : Fin cfg25.W) (fun w => A_eq25 (fun c b => U44 m c b) c w) (by decide))
    (fun c => hrest_of (U44 m c) (2 : Fin cfg25.W) _)

/-- Region 26 (item 46): entered from `U46`, left at `U47`, which differs at `main_v150` only. -/
noncomputable def reg26 : RegionSeg (pcfgs (F := F)) GenP.adm (pdats m) () defs₀ Variants.none L lv 26 :=
  regOf (pdats m) 26 launch26 (U46 m) (U47 m) (fun _ _ => rfl) (fun _ _ => rfl) (fun _ _ => rfl)
    (fun c w => A_eq26 (fun c b => U46 m c b) c w) (fun c => body_obligation26 (fun c b => U46 m c b) c) (fun c => hin26 (fun c b => U46 m c b) c) (fun c => hout26 (fun c b => U46 m c b) c)
    (fun c => hF_of (pdats m 26 c) (U46 m c) (2 : Fin cfg26.W) (fun w => A_eq26 (fun c b => U46 m c b) c w) (by decide))
    (fun c => hrest_of (U46 m c) (2 : Fin cfg26.W) _)

/-- Region 27 (item 48): entered from `U48`, left at `U49`, which differs at `main_v154` only. -/
noncomputable def reg27 : RegionSeg (pcfgs (F := F)) GenP.adm (pdats m) () defs₀ Variants.none L lv 27 :=
  regOf (pdats m) 27 launch27 (U48 m) (U49 m) (fun _ _ => rfl) (fun _ _ => rfl) (fun _ _ => rfl)
    (fun c w => A_eq27 (fun c b => U48 m c b) c w) (fun c => body_obligation27 (fun c b => U48 m c b) c) (fun c => hin27 (fun c b => U48 m c b) c) (fun c => hout27 (fun c b => U48 m c b) c)
    (fun c => hF_of (pdats m 27 c) (U48 m c) (2 : Fin cfg27.W) (fun w => A_eq27 (fun c b => U48 m c b) c w) (by decide))
    (fun c => hrest_of (U48 m c) (2 : Fin cfg27.W) _)

/-- Region 28 (item 49): entered from `U49`, left at `U50`, which differs at `main_v155` only. -/
noncomputable def reg28 : RegionSeg (pcfgs (F := F)) GenP.adm (pdats m) () defs₀ Variants.none L lv 28 :=
  regOf (pdats m) 28 launch28 (U49 m) (U50 m) (fun _ _ => rfl) (fun _ _ => rfl) (fun _ _ => rfl)
    (fun c w => A_eq28 (fun c b => U49 m c b) c w) (fun c => body_obligation28 (fun c b => U49 m c b) c) (fun c => hin28 (fun c b => U49 m c b) c) (fun c => hout28 (fun c b => U49 m c b) c)
    (fun c => hF_of (pdats m 28 c) (U49 m c) (2 : Fin cfg28.W) (fun w => A_eq28 (fun c b => U49 m c b) c w) (by decide))
    (fun c => hrest_of (U49 m c) (2 : Fin cfg28.W) _)

/-- Region 29 (item 51): entered from `U51`, left at `U52`, which differs at `main_v174` only. -/
noncomputable def reg29 : RegionSeg (pcfgs (F := F)) GenP.adm (pdats m) () defs₀ Variants.none L lv 29 :=
  regOf (pdats m) 29 launch29 (U51 m) (U52 m) (fun _ _ => rfl) (fun _ _ => rfl) (fun _ _ => rfl)
    (fun c w => A_eq29 (fun c b => U51 m c b) c w) (fun c => body_obligation29 (fun c b => U51 m c b) c) (fun c => hin29 (fun c b => U51 m c b) c) (fun c => hout29 (fun c b => U51 m c b) c)
    (fun c => hF_of (pdats m 29 c) (U51 m c) (2 : Fin cfg29.W) (fun w => A_eq29 (fun c b => U51 m c b) c w) (by decide))
    (fun c => hrest_of (U51 m c) (2 : Fin cfg29.W) _)

/-- Region 30 (item 53): entered from `U53`, left at `U54`, which differs at `main_v178` only. -/
noncomputable def reg30 : RegionSeg (pcfgs (F := F)) GenP.adm (pdats m) () defs₀ Variants.none L lv 30 :=
  regOf (pdats m) 30 launch30 (U53 m) (U54 m) (fun _ _ => rfl) (fun _ _ => rfl) (fun _ _ => rfl)
    (fun c w => A_eq30 (fun c b => U53 m c b) c w) (fun c => body_obligation30 (fun c b => U53 m c b) c) (fun c => hin30 (fun c b => U53 m c b) c) (fun c => hout30 (fun c b => U53 m c b) c)
    (fun c => hF_of (pdats m 30 c) (U53 m c) (2 : Fin cfg30.W) (fun w => A_eq30 (fun c b => U53 m c b) c w) (by decide))
    (fun c => hrest_of (U53 m c) (2 : Fin cfg30.W) _)

/-- Region 31 (item 55): entered from `U55`, left at `U56`, which differs at `main_v182` only. -/
noncomputable def reg31 : RegionSeg (pcfgs (F := F)) GenP.adm (pdats m) () defs₀ Variants.none L lv 31 :=
  regOf (pdats m) 31 launch31 (U55 m) (U56 m) (fun _ _ => rfl) (fun _ _ => rfl) (fun _ _ => rfl)
    (fun c w => A_eq31 (fun c b => U55 m c b) c w) (fun c => body_obligation31 (fun c b => U55 m c b) c) (fun c => hin31 (fun c b => U55 m c b) c) (fun c => hout31 (fun c b => U55 m c b) c)
    (fun c => hF_of (pdats m 31 c) (U55 m c) (2 : Fin cfg31.W) (fun w => A_eq31 (fun c b => U55 m c b) c w) (by decide))
    (fun c => hrest_of (U55 m c) (2 : Fin cfg31.W) _)

/-- Region 32 (item 56): entered from `U56`, left at `U57`, which differs at `main_v183` only. -/
noncomputable def reg32 : RegionSeg (pcfgs (F := F)) GenP.adm (pdats m) () defs₀ Variants.none L lv 32 :=
  regOf (pdats m) 32 launch32 (U56 m) (U57 m) (fun _ _ => rfl) (fun _ _ => rfl) (fun _ _ => rfl)
    (fun c w => A_eq32 (fun c b => U56 m c b) c w) (fun c => body_obligation32 (fun c b => U56 m c b) c) (fun c => hin32 (fun c b => U56 m c b) c) (fun c => hout32 (fun c b => U56 m c b) c)
    (fun c => hF_of (pdats m 32 c) (U56 m c) (2 : Fin cfg32.W) (fun w => A_eq32 (fun c b => U56 m c b) c w) (by decide))
    (fun c => hrest_of (U56 m c) (2 : Fin cfg32.W) _)

/-- Region 33 (item 58): entered from `U58`, left at `U59`, which differs at `main_v187` only. -/
noncomputable def reg33 : RegionSeg (pcfgs (F := F)) GenP.adm (pdats m) () defs₀ Variants.none L lv 33 :=
  regOf (pdats m) 33 launch33 (U58 m) (U59 m) (fun _ _ => rfl) (fun _ _ => rfl) (fun _ _ => rfl)
    (fun c w => A_eq33 (fun c b => U58 m c b) c w) (fun c => body_obligation33 (fun c b => U58 m c b) c) (fun c => hin33 (fun c b => U58 m c b) c) (fun c => hout33 (fun c b => U58 m c b) c)
    (fun c => hF_of (pdats m 33 c) (U58 m c) (2 : Fin cfg33.W) (fun w => A_eq33 (fun c b => U58 m c b) c w) (by decide))
    (fun c => hrest_of (U58 m c) (2 : Fin cfg33.W) _)

/-- Region 34 (item 60): entered from `U60`, left at `U61`, which differs at `main_v191` only. -/
noncomputable def reg34 : RegionSeg (pcfgs (F := F)) GenP.adm (pdats m) () defs₀ Variants.none L lv 34 :=
  regOf (pdats m) 34 launch34 (U60 m) (U61 m) (fun _ _ => rfl) (fun _ _ => rfl) (fun _ _ => rfl)
    (fun c w => A_eq34 (fun c b => U60 m c b) c w) (fun c => body_obligation34 (fun c b => U60 m c b) c) (fun c => hin34 (fun c b => U60 m c b) c) (fun c => hout34 (fun c b => U60 m c b) c)
    (fun c => hF_of (pdats m 34 c) (U60 m c) (2 : Fin cfg34.W) (fun w => A_eq34 (fun c b => U60 m c b) c w) (by decide))
    (fun c => hrest_of (U60 m c) (2 : Fin cfg34.W) _)

/-- Region 35 (item 61): entered from `U61`, left at `U62`, which differs at `main_v192` only. -/
noncomputable def reg35 : RegionSeg (pcfgs (F := F)) GenP.adm (pdats m) () defs₀ Variants.none L lv 35 :=
  regOf (pdats m) 35 launch35 (U61 m) (U62 m) (fun _ _ => rfl) (fun _ _ => rfl) (fun _ _ => rfl)
    (fun c w => A_eq35 (fun c b => U61 m c b) c w) (fun c => body_obligation35 (fun c b => U61 m c b) c) (fun c => hin35 (fun c b => U61 m c b) c) (fun c => hout35 (fun c b => U61 m c b) c)
    (fun c => hF_of (pdats m 35 c) (U61 m c) (2 : Fin cfg35.W) (fun w => A_eq35 (fun c b => U61 m c b) c w) (by decide))
    (fun c => hrest_of (U61 m c) (2 : Fin cfg35.W) _)

/-- Region 36 (item 63): entered from `U63`, left at `U64`, which differs at `main_v211` only. -/
noncomputable def reg36 : RegionSeg (pcfgs (F := F)) GenP.adm (pdats m) () defs₀ Variants.none L lv 36 :=
  regOf (pdats m) 36 launch36 (U63 m) (U64 m) (fun _ _ => rfl) (fun _ _ => rfl) (fun _ _ => rfl)
    (fun c w => A_eq36 (fun c b => U63 m c b) c w) (fun c => body_obligation36 (fun c b => U63 m c b) c) (fun c => hin36 (fun c b => U63 m c b) c) (fun c => hout36 (fun c b => U63 m c b) c)
    (fun c => hF_of (pdats m 36 c) (U63 m c) (2 : Fin cfg36.W) (fun w => A_eq36 (fun c b => U63 m c b) c w) (by decide))
    (fun c => hrest_of (U63 m c) (2 : Fin cfg36.W) _)

/-- Region 37 (item 65): entered from `U65`, left at `U66`, which differs at `main_v215` only. -/
noncomputable def reg37 : RegionSeg (pcfgs (F := F)) GenP.adm (pdats m) () defs₀ Variants.none L lv 37 :=
  regOf (pdats m) 37 launch37 (U65 m) (U66 m) (fun _ _ => rfl) (fun _ _ => rfl) (fun _ _ => rfl)
    (fun c w => A_eq37 (fun c b => U65 m c b) c w) (fun c => body_obligation37 (fun c b => U65 m c b) c) (fun c => hin37 (fun c b => U65 m c b) c) (fun c => hout37 (fun c b => U65 m c b) c)
    (fun c => hF_of (pdats m 37 c) (U65 m c) (2 : Fin cfg37.W) (fun w => A_eq37 (fun c b => U65 m c b) c w) (by decide))
    (fun c => hrest_of (U65 m c) (2 : Fin cfg37.W) _)

/-- Region 38 (item 67): entered from `U67`, left at `U68`, which differs at `main_v219` only. -/
noncomputable def reg38 : RegionSeg (pcfgs (F := F)) GenP.adm (pdats m) () defs₀ Variants.none L lv 38 :=
  regOf (pdats m) 38 launch38 (U67 m) (U68 m) (fun _ _ => rfl) (fun _ _ => rfl) (fun _ _ => rfl)
    (fun c w => A_eq38 (fun c b => U67 m c b) c w) (fun c => body_obligation38 (fun c b => U67 m c b) c) (fun c => hin38 (fun c b => U67 m c b) c) (fun c => hout38 (fun c b => U67 m c b) c)
    (fun c => hF_of (pdats m 38 c) (U67 m c) (2 : Fin cfg38.W) (fun w => A_eq38 (fun c b => U67 m c b) c w) (by decide))
    (fun c => hrest_of (U67 m c) (2 : Fin cfg38.W) _)

/-- Region 39 (item 68): entered from `U68`, left at `U69`, which differs at `main_v220` only. -/
noncomputable def reg39 : RegionSeg (pcfgs (F := F)) GenP.adm (pdats m) () defs₀ Variants.none L lv 39 :=
  regOf (pdats m) 39 launch39 (U68 m) (U69 m) (fun _ _ => rfl) (fun _ _ => rfl) (fun _ _ => rfl)
    (fun c w => A_eq39 (fun c b => U68 m c b) c w) (fun c => body_obligation39 (fun c b => U68 m c b) c) (fun c => hin39 (fun c b => U68 m c b) c) (fun c => hout39 (fun c b => U68 m c b) c)
    (fun c => hF_of (pdats m 39 c) (U68 m c) (2 : Fin cfg39.W) (fun w => A_eq39 (fun c b => U68 m c b) c w) (by decide))
    (fun c => hrest_of (U68 m c) (2 : Fin cfg39.W) _)

end Cert.KernelIdeal.Hand

end
-- ==== Proof.ChainRegsKI2.lean ====
import proofs.«158944_j64613488001249_1_alg».proof.Proof.ChainValsKI
import proofs.«158944_j64613488001249_1_alg».proof.Proof.ChainRegKI

/-! # The regions of @main as segments: one record per region: the record `regOf`, stated once for any pipeline of the
    program, at the region's pipeline, its launch facts, the valuations it is entered from and left at, and the region
    module's facts. -/

set_option maxRecDepth 16384

noncomputable section

namespace Cert.KernelIdeal.Hand

open Cert.KernelIdeal Cert.KernelIdeal.Gen Cert.KernelIdeal.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

variable (m : (ℓ : Loc nD τ sig) → Buf (Elt F) ℓ)

/-- Region 40 (item 70): entered from `U70`, left at `U71`, which differs at `main_v224` only. -/
noncomputable def reg40 : RegionSeg (pcfgs (F := F)) GenP.adm (pdats m) () defs₀ Variants.none L lv 40 :=
  regOf (pdats m) 40 launch40 (U70 m) (U71 m) (fun _ _ => rfl) (fun _ _ => rfl) (fun _ _ => rfl)
    (fun c w => A_eq40 (fun c b => U70 m c b) c w) (fun c => body_obligation40 (fun c b => U70 m c b) c) (fun c => hin40 (fun c b => U70 m c b) c) (fun c => hout40 (fun c b => U70 m c b) c)
    (fun c => hF_of (pdats m 40 c) (U70 m c) (2 : Fin cfg40.W) (fun w => A_eq40 (fun c b => U70 m c b) c w) (by decide))
    (fun c => hrest_of (U70 m c) (2 : Fin cfg40.W) _)

/-- Region 41 (item 72): entered from `U72`, left at `U73`, which differs at `main_v228` only. -/
noncomputable def reg41 : RegionSeg (pcfgs (F := F)) GenP.adm (pdats m) () defs₀ Variants.none L lv 41 :=
  regOf (pdats m) 41 launch41 (U72 m) (U73 m) (fun _ _ => rfl) (fun _ _ => rfl) (fun _ _ => rfl)
    (fun c w => A_eq41 (fun c b => U72 m c b) c w) (fun c => body_obligation41 (fun c b => U72 m c b) c) (fun c => hin41 (fun c b => U72 m c b) c) (fun c => hout41 (fun c b => U72 m c b) c)
    (fun c => hF_of (pdats m 41 c) (U72 m c) (2 : Fin cfg41.W) (fun w => A_eq41 (fun c b => U72 m c b) c w) (by decide))
    (fun c => hrest_of (U72 m c) (2 : Fin cfg41.W) _)

/-- Region 42 (item 73): entered from `U73`, left at `U74`, which differs at `main_v229` only. -/
noncomputable def reg42 : RegionSeg (pcfgs (F := F)) GenP.adm (pdats m) () defs₀ Variants.none L lv 42 :=
  regOf (pdats m) 42 launch42 (U73 m) (U74 m) (fun _ _ => rfl) (fun _ _ => rfl) (fun _ _ => rfl)
    (fun c w => A_eq42 (fun c b => U73 m c b) c w) (fun c => body_obligation42 (fun c b => U73 m c b) c) (fun c => hin42 (fun c b => U73 m c b) c) (fun c => hout42 (fun c b => U73 m c b) c)
    (fun c => hF_of (pdats m 42 c) (U73 m c) (2 : Fin cfg42.W) (fun w => A_eq42 (fun c b => U73 m c b) c w) (by decide))
    (fun c => hrest_of (U73 m c) (2 : Fin cfg42.W) _)

/-- Region 43 (item 75): entered from `U75`, left at `U76`, which differs at `main_v248` only. -/
noncomputable def reg43 : RegionSeg (pcfgs (F := F)) GenP.adm (pdats m) () defs₀ Variants.none L lv 43 :=
  regOf (pdats m) 43 launch43 (U75 m) (U76 m) (fun _ _ => rfl) (fun _ _ => rfl) (fun _ _ => rfl)
    (fun c w => A_eq43 (fun c b => U75 m c b) c w) (fun c => body_obligation43 (fun c b => U75 m c b) c) (fun c => hin43 (fun c b => U75 m c b) c) (fun c => hout43 (fun c b => U75 m c b) c)
    (fun c => hF_of (pdats m 43 c) (U75 m c) (2 : Fin cfg43.W) (fun w => A_eq43 (fun c b => U75 m c b) c w) (by decide))
    (fun c => hrest_of (U75 m c) (2 : Fin cfg43.W) _)

/-- Region 44 (item 77): entered from `U77`, left at `U78`, which differs at `main_v252` only. -/
noncomputable def reg44 : RegionSeg (pcfgs (F := F)) GenP.adm (pdats m) () defs₀ Variants.none L lv 44 :=
  regOf (pdats m) 44 launch44 (U77 m) (U78 m) (fun _ _ => rfl) (fun _ _ => rfl) (fun _ _ => rfl)
    (fun c w => A_eq44 (fun c b => U77 m c b) c w) (fun c => body_obligation44 (fun c b => U77 m c b) c) (fun c => hin44 (fun c b => U77 m c b) c) (fun c => hout44 (fun c b => U77 m c b) c)
    (fun c => hF_of (pdats m 44 c) (U77 m c) (2 : Fin cfg44.W) (fun w => A_eq44 (fun c b => U77 m c b) c w) (by decide))
    (fun c => hrest_of (U77 m c) (2 : Fin cfg44.W) _)

/-- Region 45 (item 79): entered from `U79`, left at `U80`, which differs at `main_v256` only. -/
noncomputable def reg45 : RegionSeg (pcfgs (F := F)) GenP.adm (pdats m) () defs₀ Variants.none L lv 45 :=
  regOf (pdats m) 45 launch45 (U79 m) (U80 m) (fun _ _ => rfl) (fun _ _ => rfl) (fun _ _ => rfl)
    (fun c w => A_eq45 (fun c b => U79 m c b) c w) (fun c => body_obligation45 (fun c b => U79 m c b) c) (fun c => hin45 (fun c b => U79 m c b) c) (fun c => hout45 (fun c b => U79 m c b) c)
    (fun c => hF_of (pdats m 45 c) (U79 m c) (2 : Fin cfg45.W) (fun w => A_eq45 (fun c b => U79 m c b) c w) (by decide))
    (fun c => hrest_of (U79 m c) (2 : Fin cfg45.W) _)

/-- Region 46 (item 80): entered from `U80`, left at `U81`, which differs at `main_v257` only. -/
noncomputable def reg46 : RegionSeg (pcfgs (F := F)) GenP.adm (pdats m) () defs₀ Variants.none L lv 46 :=
  regOf (pdats m) 46 launch46 (U80 m) (U81 m) (fun _ _ => rfl) (fun _ _ => rfl) (fun _ _ => rfl)
    (fun c w => A_eq46 (fun c b => U80 m c b) c w) (fun c => body_obligation46 (fun c b => U80 m c b) c) (fun c => hin46 (fun c b => U80 m c b) c) (fun c => hout46 (fun c b => U80 m c b) c)
    (fun c => hF_of (pdats m 46 c) (U80 m c) (2 : Fin cfg46.W) (fun w => A_eq46 (fun c b => U80 m c b) c w) (by decide))
    (fun c => hrest_of (U80 m c) (2 : Fin cfg46.W) _)

/-- Region 47 (item 82): entered from `U82`, left at `U83`, which differs at `main_v261` only. -/
noncomputable def reg47 : RegionSeg (pcfgs (F := F)) GenP.adm (pdats m) () defs₀ Variants.none L lv 47 :=
  regOf (pdats m) 47 launch47 (U82 m) (U83 m) (fun _ _ => rfl) (fun _ _ => rfl) (fun _ _ => rfl)
    (fun c w => A_eq47 (fun c b => U82 m c b) c w) (fun c => body_obligation47 (fun c b => U82 m c b) c) (fun c => hin47 (fun c b => U82 m c b) c) (fun c => hout47 (fun c b => U82 m c b) c)
    (fun c => hF_of (pdats m 47 c) (U82 m c) (2 : Fin cfg47.W) (fun w => A_eq47 (fun c b => U82 m c b) c w) (by decide))
    (fun c => hrest_of (U82 m c) (2 : Fin cfg47.W) _)

/-- Region 48 (item 84): entered from `U84`, left at `U85`, which differs at `main_v265` only. -/
noncomputable def reg48 : RegionSeg (pcfgs (F := F)) GenP.adm (pdats m) () defs₀ Variants.none L lv 48 :=
  regOf (pdats m) 48 launch48 (U84 m) (U85 m) (fun _ _ => rfl) (fun _ _ => rfl) (fun _ _ => rfl)
    (fun c w => A_eq48 (fun c b => U84 m c b) c w) (fun c => body_obligation48 (fun c b => U84 m c b) c) (fun c => hin48 (fun c b => U84 m c b) c) (fun c => hout48 (fun c b => U84 m c b) c)
    (fun c => hF_of (pdats m 48 c) (U84 m c) (2 : Fin cfg48.W) (fun w => A_eq48 (fun c b => U84 m c b) c w) (by decide))
    (fun c => hrest_of (U84 m c) (2 : Fin cfg48.W) _)

/-- Region 49 (item 85): entered from `U85`, left at `U86`, which differs at `main_v266` only. -/
noncomputable def reg49 : RegionSeg (pcfgs (F := F)) GenP.adm (pdats m) () defs₀ Variants.none L lv 49 :=
  regOf (pdats m) 49 launch49 (U85 m) (U86 m) (fun _ _ => rfl) (fun _ _ => rfl) (fun _ _ => rfl)
    (fun c w => A_eq49 (fun c b => U85 m c b) c w) (fun c => body_obligation49 (fun c b => U85 m c b) c) (fun c => hin49 (fun c b => U85 m c b) c) (fun c => hout49 (fun c b => U85 m c b) c)
    (fun c => hF_of (pdats m 49 c) (U85 m c) (2 : Fin cfg49.W) (fun w => A_eq49 (fun c b => U85 m c b) c w) (by decide))
    (fun c => hrest_of (U85 m c) (2 : Fin cfg49.W) _)

/-- Region 50 (item 87): entered from `U87`, left at `U88`, which differs at `main_v285` only. -/
noncomputable def reg50 : RegionSeg (pcfgs (F := F)) GenP.adm (pdats m) () defs₀ Variants.none L lv 50 :=
  regOf (pdats m) 50 launch50 (U87 m) (U88 m) (fun _ _ => rfl) (fun _ _ => rfl) (fun _ _ => rfl)
    (fun c w => A_eq50 (fun c b => U87 m c b) c w) (fun c => body_obligation50 (fun c b => U87 m c b) c) (fun c => hin50 (fun c b => U87 m c b) c) (fun c => hout50 (fun c b => U87 m c b) c)
    (fun c => hF_of (pdats m 50 c) (U87 m c) (2 : Fin cfg50.W) (fun w => A_eq50 (fun c b => U87 m c b) c w) (by decide))
    (fun c => hrest_of (U87 m c) (2 : Fin cfg50.W) _)

/-- Region 51 (item 89): entered from `U89`, left at `U90`, which differs at `main_v289` only. -/
noncomputable def reg51 : RegionSeg (pcfgs (F := F)) GenP.adm (pdats m) () defs₀ Variants.none L lv 51 :=
  regOf (pdats m) 51 launch51 (U89 m) (U90 m) (fun _ _ => rfl) (fun _ _ => rfl) (fun _ _ => rfl)
    (fun c w => A_eq51 (fun c b => U89 m c b) c w) (fun c => body_obligation51 (fun c b => U89 m c b) c) (fun c => hin51 (fun c b => U89 m c b) c) (fun c => hout51 (fun c b => U89 m c b) c)
    (fun c => hF_of (pdats m 51 c) (U89 m c) (2 : Fin cfg51.W) (fun w => A_eq51 (fun c b => U89 m c b) c w) (by decide))
    (fun c => hrest_of (U89 m c) (2 : Fin cfg51.W) _)

/-- Region 52 (item 91): entered from `U91`, left at `U92`, which differs at `main_v293` only. -/
noncomputable def reg52 : RegionSeg (pcfgs (F := F)) GenP.adm (pdats m) () defs₀ Variants.none L lv 52 :=
  regOf (pdats m) 52 launch52 (U91 m) (U92 m) (fun _ _ => rfl) (fun _ _ => rfl) (fun _ _ => rfl)
    (fun c w => A_eq52 (fun c b => U91 m c b) c w) (fun c => body_obligation52 (fun c b => U91 m c b) c) (fun c => hin52 (fun c b => U91 m c b) c) (fun c => hout52 (fun c b => U91 m c b) c)
    (fun c => hF_of (pdats m 52 c) (U91 m c) (2 : Fin cfg52.W) (fun w => A_eq52 (fun c b => U91 m c b) c w) (by decide))
    (fun c => hrest_of (U91 m c) (2 : Fin cfg52.W) _)

/-- Region 53 (item 92): entered from `U92`, left at `U93`, which differs at `main_v294` only. -/
noncomputable def reg53 : RegionSeg (pcfgs (F := F)) GenP.adm (pdats m) () defs₀ Variants.none L lv 53 :=
  regOf (pdats m) 53 launch53 (U92 m) (U93 m) (fun _ _ => rfl) (fun _ _ => rfl) (fun _ _ => rfl)
    (fun c w => A_eq53 (fun c b => U92 m c b) c w) (fun c => body_obligation53 (fun c b => U92 m c b) c) (fun c => hin53 (fun c b => U92 m c b) c) (fun c => hout53 (fun c b => U92 m c b) c)
    (fun c => hF_of (pdats m 53 c) (U92 m c) (2 : Fin cfg53.W) (fun w => A_eq53 (fun c b => U92 m c b) c w) (by decide))
    (fun c => hrest_of (U92 m c) (2 : Fin cfg53.W) _)

/-- Region 54 (item 94): entered from `U94`, left at `U95`, which differs at `main_v298` only. -/
noncomputable def reg54 : RegionSeg (pcfgs (F := F)) GenP.adm (pdats m) () defs₀ Variants.none L lv 54 :=
  regOf (pdats m) 54 launch54 (U94 m) (U95 m) (fun _ _ => rfl) (fun _ _ => rfl) (fun _ _ => rfl)
    (fun c w => A_eq54 (fun c b => U94 m c b) c w) (fun c => body_obligation54 (fun c b => U94 m c b) c) (fun c => hin54 (fun c b => U94 m c b) c) (fun c => hout54 (fun c b => U94 m c b) c)
    (fun c => hF_of (pdats m 54 c) (U94 m c) (2 : Fin cfg54.W) (fun w => A_eq54 (fun c b => U94 m c b) c w) (by decide))
    (fun c => hrest_of (U94 m c) (2 : Fin cfg54.W) _)

/-- Region 55 (item 96): entered from `U96`, left at `U97`, which differs at `main_v302` only. -/
noncomputable def reg55 : RegionSeg (pcfgs (F := F)) GenP.adm (pdats m) () defs₀ Variants.none L lv 55 :=
  regOf (pdats m) 55 launch55 (U96 m) (U97 m) (fun _ _ => rfl) (fun _ _ => rfl) (fun _ _ => rfl)
    (fun c w => A_eq55 (fun c b => U96 m c b) c w) (fun c => body_obligation55 (fun c b => U96 m c b) c) (fun c => hin55 (fun c b => U96 m c b) c) (fun c => hout55 (fun c b => U96 m c b) c)
    (fun c => hF_of (pdats m 55 c) (U96 m c) (2 : Fin cfg55.W) (fun w => A_eq55 (fun c b => U96 m c b) c w) (by decide))
    (fun c => hrest_of (U96 m c) (2 : Fin cfg55.W) _)

/-- Region 56 (item 97): entered from `U97`, left at `U98`, which differs at `main_v303` only. -/
noncomputable def reg56 : RegionSeg (pcfgs (F := F)) GenP.adm (pdats m) () defs₀ Variants.none L lv 56 :=
  regOf (pdats m) 56 launch56 (U97 m) (U98 m) (fun _ _ => rfl) (fun _ _ => rfl) (fun _ _ => rfl)
    (fun c w => A_eq56 (fun c b => U97 m c b) c w) (fun c => body_obligation56 (fun c b => U97 m c b) c) (fun c => hin56 (fun c b => U97 m c b) c) (fun c => hout56 (fun c b => U97 m c b) c)
    (fun c => hF_of (pdats m 56 c) (U97 m c) (2 : Fin cfg56.W) (fun w => A_eq56 (fun c b => U97 m c b) c w) (by decide))
    (fun c => hrest_of (U97 m c) (2 : Fin cfg56.W) _)

/-- Region 57 (item 99): entered from `U99`, left at `U100`, which differs at `main_v322` only. -/
noncomputable def reg57 : RegionSeg (pcfgs (F := F)) GenP.adm (pdats m) () defs₀ Variants.none L lv 57 :=
  regOf (pdats m) 57 launch57 (U99 m) (U100 m) (fun _ _ => rfl) (fun _ _ => rfl) (fun _ _ => rfl)
    (fun c w => A_eq57 (fun c b => U99 m c b) c w) (fun c => body_obligation57 (fun c b => U99 m c b) c) (fun c => hin57 (fun c b => U99 m c b) c) (fun c => hout57 (fun c b => U99 m c b) c)
    (fun c => hF_of (pdats m 57 c) (U99 m c) (2 : Fin cfg57.W) (fun w => A_eq57 (fun c b => U99 m c b) c w) (by decide))
    (fun c => hrest_of (U99 m c) (2 : Fin cfg57.W) _)

/-- Region 58 (item 101): entered from `U101`, left at `U102`, which differs at `main_v326` only. -/
noncomputable def reg58 : RegionSeg (pcfgs (F := F)) GenP.adm (pdats m) () defs₀ Variants.none L lv 58 :=
  regOf (pdats m) 58 launch58 (U101 m) (U102 m) (fun _ _ => rfl) (fun _ _ => rfl) (fun _ _ => rfl)
    (fun c w => A_eq58 (fun c b => U101 m c b) c w) (fun c => body_obligation58 (fun c b => U101 m c b) c) (fun c => hin58 (fun c b => U101 m c b) c) (fun c => hout58 (fun c b => U101 m c b) c)
    (fun c => hF_of (pdats m 58 c) (U101 m c) (2 : Fin cfg58.W) (fun w => A_eq58 (fun c b => U101 m c b) c w) (by decide))
    (fun c => hrest_of (U101 m c) (2 : Fin cfg58.W) _)

/-- Region 59 (item 104): entered from `U104`, left at `U105`, which differs at `main_v331` only. -/
noncomputable def reg59 : RegionSeg (pcfgs (F := F)) GenP.adm (pdats m) () defs₀ Variants.none L lv 59 :=
  regOf (pdats m) 59 launch59 (U104 m) (U105 m) (fun _ _ => rfl) (fun _ _ => rfl) (fun _ _ => rfl)
    (fun c w => A_eq59 (fun c b => U104 m c b) c w) (fun c => body_obligation59 (fun c b => U104 m c b) c) (fun c => hin59 (fun c b => U104 m c b) c) (fun c => hout59 (fun c b => U104 m c b) c)
    (fun c => hF_of (pdats m 59 c) (U104 m c) (2 : Fin cfg59.W) (fun w => A_eq59 (fun c b => U104 m c b) c w) (by decide))
    (fun c => hrest_of (U104 m c) (2 : Fin cfg59.W) _)

end Cert.KernelIdeal.Hand

end
-- ==== Proof.ChainSegsKI.lean ====
import proofs.«158944_j64613488001249_1_alg».proof.Proof.ChainRegsKI0
import proofs.«158944_j64613488001249_1_alg».proof.Proof.ChainRegsKI1
import proofs.«158944_j64613488001249_1_alg».proof.Proof.ChainRegsKI2

/-! # @main as the launch theorem's segments: the generated host segments at the valuations `GenP.V<j>` with the unknowns `outs`, the
    regions' records between them; the items' programs; each pipeline entered once; the thread states chaining. -/

set_option maxRecDepth 16384

noncomputable section

namespace Cert.KernelIdeal.Hand

open Cert.KernelIdeal Cert.KernelIdeal.Gen Cert.KernelIdeal.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

set_option maxHeartbeats 16000000 in
/-- @main's items as segments on core `c`: the generated list at this module's regions, `Ride` beside the buffers throughout. -/
abbrev segsU (c : Dev nD) : List (Seg (pcfgs (F := F)) GenP.adm (pdats m) () defs₀ Variants.none L lv) :=
  GenP.segs m (outs m) Variants.none L lv (fun _ => Ride) () (pdats m) (reg0 m) (reg1 m) (reg2 m) (reg3 m) (reg4 m) (reg5 m) (reg6 m) (reg7 m) (reg8 m) (reg9 m) (reg10 m) (reg11 m) (reg12 m) (reg13 m) (reg14 m) (reg15 m) (reg16 m) (reg17 m) (reg18 m) (reg19 m) (reg20 m) (reg21 m) (reg22 m) (reg23 m) (reg24 m) (reg25 m) (reg26 m) (reg27 m) (reg28 m) (reg29 m) (reg30 m) (reg31 m) (reg32 m) (reg33 m) (reg34 m) (reg35 m) (reg36 m) (reg37 m) (reg38 m) (reg39 m) (reg40 m) (reg41 m) (reg42 m) (reg43 m) (reg44 m) (reg45 m) (reg46 m) (reg47 m) (reg48 m) (reg49 m) (reg50 m) (reg51 m) (reg52 m) (reg53 m) (reg54 m) (reg55 m) (reg56 m) (reg57 m) (reg58 m) (reg59 m) c

/-- @main's items as programs, in order: a host stretch's operations in sequence, a region's call. -/
abbrev itemProgs : List (Prog (TpuEff nD τ sig (Elt F) (Pipeline.Sig Λ₀ (Fin 60) fun p => (pcfgs (F := F) p).Adm) .tc) PUnit) := [
  StableHlo.seq hostOps0,
  Prog.lift (.customCall (Pipeline.entry 0) ()),
  StableHlo.seq hostOps1,
  Prog.lift (.customCall (Pipeline.entry 1) ()),
  StableHlo.seq hostOps2,
  Prog.lift (.customCall (Pipeline.entry 2) ()),
  StableHlo.seq hostOps3,
  Prog.lift (.customCall (Pipeline.entry 3) ()),
  Prog.lift (.customCall (Pipeline.entry 4) ()),
  StableHlo.seq hostOps5,
  Prog.lift (.customCall (Pipeline.entry 5) ()),
  StableHlo.seq hostOps6,
  Prog.lift (.customCall (Pipeline.entry 6) ()),
  Prog.lift (.customCall (Pipeline.entry 7) ()),
  StableHlo.seq hostOps8,
  Prog.lift (.customCall (Pipeline.entry 8) ()),
  StableHlo.seq hostOps9,
  Prog.lift (.customCall (Pipeline.entry 9) ()),
  StableHlo.seq hostOps10,
  Prog.lift (.customCall (Pipeline.entry 10) ()),
  Prog.lift (.customCall (Pipeline.entry 11) ()),
  StableHlo.seq hostOps12,
  Prog.lift (.customCall (Pipeline.entry 12) ()),
  StableHlo.seq hostOps13,
  Prog.lift (.customCall (Pipeline.entry 13) ()),
  Prog.lift (.customCall (Pipeline.entry 14) ()),
  StableHlo.seq hostOps15,
  Prog.lift (.customCall (Pipeline.entry 15) ()),
  StableHlo.seq hostOps16,
  Prog.lift (.customCall (Pipeline.entry 16) ()),
  StableHlo.seq hostOps17,
  Prog.lift (.customCall (Pipeline.entry 17) ()),
  Prog.lift (.customCall (Pipeline.entry 18) ()),
  StableHlo.seq hostOps19,
  Prog.lift (.customCall (Pipeline.entry 19) ()),
  StableHlo.seq hostOps20,
  Prog.lift (.customCall (Pipeline.entry 20) ()),
  Prog.lift (.customCall (Pipeline.entry 21) ()),
  StableHlo.seq hostOps22,
  Prog.lift (.customCall (Pipeline.entry 22) ()),
  StableHlo.seq hostOps23,
  Prog.lift (.customCall (Pipeline.entry 23) ()),
  StableHlo.seq hostOps24,
  Prog.lift (.customCall (Pipeline.entry 24) ()),
  Prog.lift (.customCall (Pipeline.entry 25) ()),
  StableHlo.seq hostOps26,
  Prog.lift (.customCall (Pipeline.entry 26) ()),
  StableHlo.seq hostOps27,
  Prog.lift (.customCall (Pipeline.entry 27) ()),
  Prog.lift (.customCall (Pipeline.entry 28) ()),
  StableHlo.seq hostOps29,
  Prog.lift (.customCall (Pipeline.entry 29) ()),
  StableHlo.seq hostOps30,
  Prog.lift (.customCall (Pipeline.entry 30) ()),
  StableHlo.seq hostOps31,
  Prog.lift (.customCall (Pipeline.entry 31) ()),
  Prog.lift (.customCall (Pipeline.entry 32) ()),
  StableHlo.seq hostOps33,
  Prog.lift (.customCall (Pipeline.entry 33) ()),
  StableHlo.seq hostOps34,
  Prog.lift (.customCall (Pipeline.entry 34) ()),
  Prog.lift (.customCall (Pipeline.entry 35) ()),
  StableHlo.seq hostOps36,
  Prog.lift (.customCall (Pipeline.entry 36) ()),
  StableHlo.seq hostOps37,
  Prog.lift (.customCall (Pipeline.entry 37) ()),
  StableHlo.seq hostOps38,
  Prog.lift (.customCall (Pipeline.entry 38) ()),
  Prog.lift (.customCall (Pipeline.entry 39) ()),
  StableHlo.seq hostOps40,
  Prog.lift (.customCall (Pipeline.entry 40) ()),
  StableHlo.seq hostOps41,
  Prog.lift (.customCall (Pipeline.entry 41) ()),
  Prog.lift (.customCall (Pipeline.entry 42) ()),
  StableHlo.seq hostOps43,
  Prog.lift (.customCall (Pipeline.entry 43) ()),
  StableHlo.seq hostOps44,
  Prog.lift (.customCall (Pipeline.entry 44) ()),
  StableHlo.seq hostOps45,
  Prog.lift (.customCall (Pipeline.entry 45) ()),
  Prog.lift (.customCall (Pipeline.entry 46) ()),
  StableHlo.seq hostOps47,
  Prog.lift (.customCall (Pipeline.entry 47) ()),
  StableHlo.seq hostOps48,
  Prog.lift (.customCall (Pipeline.entry 48) ()),
  Prog.lift (.customCall (Pipeline.entry 49) ()),
  StableHlo.seq hostOps50,
  Prog.lift (.customCall (Pipeline.entry 50) ()),
  StableHlo.seq hostOps51,
  Prog.lift (.customCall (Pipeline.entry 51) ()),
  StableHlo.seq hostOps52,
  Prog.lift (.customCall (Pipeline.entry 52) ()),
  Prog.lift (.customCall (Pipeline.entry 53) ()),
  StableHlo.seq hostOps54,
  Prog.lift (.customCall (Pipeline.entry 54) ()),
  StableHlo.seq hostOps55,
  Prog.lift (.customCall (Pipeline.entry 55) ()),
  Prog.lift (.customCall (Pipeline.entry 56) ()),
  StableHlo.seq hostOps57,
  Prog.lift (.customCall (Pipeline.entry 57) ()),
  StableHlo.seq hostOps58,
  Prog.lift (.customCall (Pipeline.entry 58) ()),
  StableHlo.seq hostOps59,
  StableHlo.seq hostOps59_1,
  Prog.lift (.customCall (Pipeline.entry 59) ()),
  StableHlo.seq hostOps60 ]

set_option maxHeartbeats 16000000 in
theorem segsU_progs (c : Dev nD) : (segsU m c).map Seg.prog = itemProgs (F := F) := rfl

theorem main_items (c : Dev nD) : main (F := F) c = Pipeline.chain (itemProgs (F := F)) := main_chain c

set_option maxHeartbeats 16000000 in
theorem segsU_nodup (c : Dev nD) : (Seg.pipes (segsU m c)).Nodup := by
  simp only [segsU, GenP.segs, Seg.pipes_host, Seg.pipes_region, Seg.pipes_nil]; decide

set_option maxHeartbeats 16000000 in
/-- The thread states chain: a host segment's state is the buffers at `GenP.V<j>`, a region's at `U<j>`, equal by `V<j>_eq`. -/
theorem segsU_chains (c : Dev nD) : Seg.ChainsAt c
    (fun c => (iprop(StableHlo.held (c : Thread nD τ) (Pipeline.ucRefs τ sig) (U0 m c) ∗ Ride c) : sProp 𝕄)) (segsU m c)
    (fun c => iprop((StableHlo.held (c : Thread nD τ) (Pipeline.ucRefs τ sig) (U106 m c) ∗ ∃ r, prngReg c r)
      ∗ ∃ W, owes (c : Thread nD τ) (0 : CellTallies nD τ sig Unit) W)) :=
  ⟨.rfl,
   chain_eq c (V1_eq m c),
   chain_eq c (V2_eq m c).symm,
   chain_eq c (V3_eq m c),
   chain_eq c (V4_eq m c).symm,
   chain_eq c (V5_eq m c),
   chain_eq c (V6_eq m c).symm,
   chain_eq c (V7_eq m c),
   .rfl,
   chain_eq c (V9_eq m c).symm,
   chain_eq c (V10_eq m c),
   chain_eq c (V11_eq m c).symm,
   chain_eq c (V12_eq m c),
   .rfl,
   chain_eq c (V14_eq m c).symm,
   chain_eq c (V15_eq m c),
   chain_eq c (V16_eq m c).symm,
   chain_eq c (V17_eq m c),
   chain_eq c (V18_eq m c).symm,
   chain_eq c (V19_eq m c),
   .rfl,
   chain_eq c (V21_eq m c).symm,
   chain_eq c (V22_eq m c),
   chain_eq c (V23_eq m c).symm,
   chain_eq c (V24_eq m c),
   .rfl,
   chain_eq c (V26_eq m c).symm,
   chain_eq c (V27_eq m c),
   chain_eq c (V28_eq m c).symm,
   chain_eq c (V29_eq m c),
   chain_eq c (V30_eq m c).symm,
   chain_eq c (V31_eq m c),
   .rfl,
   chain_eq c (V33_eq m c).symm,
   chain_eq c (V34_eq m c),
   chain_eq c (V35_eq m c).symm,
   chain_eq c (V36_eq m c),
   .rfl,
   chain_eq c (V38_eq m c).symm,
   chain_eq c (V39_eq m c),
   chain_eq c (V40_eq m c).symm,
   chain_eq c (V41_eq m c),
   chain_eq c (V42_eq m c).symm,
   chain_eq c (V43_eq m c),
   .rfl,
   chain_eq c (V45_eq m c).symm,
   chain_eq c (V46_eq m c),
   chain_eq c (V47_eq m c).symm,
   chain_eq c (V48_eq m c),
   .rfl,
   chain_eq c (V50_eq m c).symm,
   chain_eq c (V51_eq m c),
   chain_eq c (V52_eq m c).symm,
   chain_eq c (V53_eq m c),
   chain_eq c (V54_eq m c).symm,
   chain_eq c (V55_eq m c),
   .rfl,
   chain_eq c (V57_eq m c).symm,
   chain_eq c (V58_eq m c),
   chain_eq c (V59_eq m c).symm,
   chain_eq c (V60_eq m c),
   .rfl,
   chain_eq c (V62_eq m c).symm,
   chain_eq c (V63_eq m c),
   chain_eq c (V64_eq m c).symm,
   chain_eq c (V65_eq m c),
   chain_eq c (V66_eq m c).symm,
   chain_eq c (V67_eq m c),
   .rfl,
   chain_eq c (V69_eq m c).symm,
   chain_eq c (V70_eq m c),
   chain_eq c (V71_eq m c).symm,
   chain_eq c (V72_eq m c),
   .rfl,
   chain_eq c (V74_eq m c).symm,
   chain_eq c (V75_eq m c),
   chain_eq c (V76_eq m c).symm,
   chain_eq c (V77_eq m c),
   chain_eq c (V78_eq m c).symm,
   chain_eq c (V79_eq m c),
   .rfl,
   chain_eq c (V81_eq m c).symm,
   chain_eq c (V82_eq m c),
   chain_eq c (V83_eq m c).symm,
   chain_eq c (V84_eq m c),
   .rfl,
   chain_eq c (V86_eq m c).symm,
   chain_eq c (V87_eq m c),
   chain_eq c (V88_eq m c).symm,
   chain_eq c (V89_eq m c),
   chain_eq c (V90_eq m c).symm,
   chain_eq c (V91_eq m c),
   .rfl,
   chain_eq c (V93_eq m c).symm,
   chain_eq c (V94_eq m c),
   chain_eq c (V95_eq m c).symm,
   chain_eq c (V96_eq m c),
   .rfl,
   chain_eq c (V98_eq m c).symm,
   chain_eq c (V99_eq m c),
   chain_eq c (V100_eq m c).symm,
   chain_eq c (V101_eq m c),
   chain_eq c (V102_eq m c).symm,
   .rfl,
   chain_eq c (V104_eq m c),
   chain_eq c (V105_eq m c).symm,
   chain_end c (V106_eq m c)⟩

end Cert.KernelIdeal.Hand

end
-- ==== Proof.ChainKI.lean ====
/-
  The run of @main from the launch to the return: at the compiled mesh, from any memory with zero counters, every weakly fair
  execution terminates and every final memory holds, in each unscoped buffer of each core, what the chain of valuations `U106`
  says: the launch memory taken through every host stretch and every kernel region in @main's order. The library's launch theorem over the
  segments (the generated host segments, the regions' records), @main as the chain of the items' programs, the thread states
  chaining by `V<j>_eq`, the first thread state from what the launch deals, the last read against the final state.
-/
import proofs.«158944_j64613488001249_1_alg».proof.Proof.ChainSegsKI
import Idealize.ShloMosaic.Lib.Pipeline.Kit

set_option maxRecDepth 16384

noncomputable section

namespace Cert.KernelIdeal.Hand

open Cert.KernelIdeal Cert.KernelIdeal.Gen Cert.KernelIdeal.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

set_option maxHeartbeats 16000000 in
-- the launch theorem's conclusion is this statement after unfolding definitions
set_option backward.isDefEq.respectTransparency.types false in
/-- THE RUN: every unscoped buffer of every core ends at `U106 m c`. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = U106 m c b) :=
  Pipeline.θ_run_regions_kit_dev (pcfgs (F := F)) GenP.adm (pdats m) () cellOf_inj emb₁ defs₀ Variants.none L lv m ρ main (segsU m)
    (fun c Q => by rewrite [main_items c, Seg.run_eq_chain, segsU_progs m c]; exact .rfl)
    (segsU_nodup m)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Ride c))
    (Tₙ := fun c => iprop(StableHlo.held (c : Thread nD τ) (Pipeline.ucRefs τ sig) (U106 m c) ∗ ∃ r, prngReg c r))
    (hch := segsU_chains m)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = U106 m c b)
    (hfin := fun c s' => by
      iintro ⟨⟨Hh, -⟩, HSI⟩
      unfold StableHlo.held
      imodintro
      iapply (pointsTo_read_all (Pipeline.ucRefs τ sig) (fun b => ((c : Thread nD τ).1, b)) (U106 m c) s')
      isplitl [Hh] <;> iassumption)
    (hQ := fun s h c => h c)

/-- info: 'Cert.KernelIdeal.Hand.run_all' depends on axioms: [propext, Classical.choice, Quot.sound] -/
#guard_msgs in #print axioms run_all

end Cert.KernelIdeal.Hand

end
-- ==== Proof.KOps.lean ====
import proofs.«158944_j64613488001249_1_alg».proof.Proof.LaunchKI
import Idealize.ShloMosaic.Lib.StableHlo.Run

/-! The references each host stretch of the kernel program writes, in order, and what a reference a stretch does not
write keeps: its contents after the stretch are its contents before. -/

set_option maxRecDepth 16384

noncomputable section

namespace Cert.KValues

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]

/-- The operations of a list write only the references of W. -/
class WritesOnly (ops : List (HloOp τ sig (Elt F))) (W : outParam (List (Ref sig .tc))) : Prop where
  sub : ops.Forall fun op => op.writes ⊆ (W.map (Proc.devRef (τ := τ) .tc)).toFinset

/-- A reference the list does not write keeps its contents. -/
theorem keep (ops : List (HloOp τ sig (Elt F))) {W : List (Ref sig .tc)} [h : WritesOnly ops W]
    (V : Valuation τ sig (Elt F)) {r : Ref sig .tc} (hr : r ∉ W) :
    after ops V (no_index (Proc.devRef .tc r)) = V (Proc.devRef .tc r) :=
  after_of_writes_sub ops V h.sub hr

abbrev hostOps0_W : List (Ref sig .tc) := [main_v0, main_v1, main_v2, main_v3, main_v4, main_v5, main_v6, main_v7, main_v8, main_v9, main_v10, main_v11, main_v12, main_v13, main_v14, main_v15, main_v16]
instance hostOps0_writes : WritesOnly (hostOps0 (F := F)) hostOps0_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps1_W : List (Ref sig .tc) := [main_v18, main_v19, main_v20, main_v21, main_cst, main_v22, main_v23, main_v24, main_v25]
instance hostOps1_writes : WritesOnly (hostOps1 (F := F)) hostOps1_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps2_W : List (Ref sig .tc) := [main_v27, main_cst_0, main_v28, main_cst_1, main_v29]
instance hostOps2_writes : WritesOnly (hostOps2 (F := F)) hostOps2_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps3_W : List (Ref sig .tc) := [main_v31, main_v32, main_v33]
instance hostOps3_writes : WritesOnly (hostOps3 (F := F)) hostOps3_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps5_W : List (Ref sig .tc) := [main_cst_2, main_v36, main_v37, main_cst_3, main_v38]
instance hostOps5_writes : WritesOnly (hostOps5 (F := F)) hostOps5_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps6_W : List (Ref sig .tc) := [main_v40, main_v41, main_v42]
instance hostOps6_writes : WritesOnly (hostOps6 (F := F)) hostOps6_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps8_W : List (Ref sig .tc) := [main_v45, main_v46, main_v47, main_cst_4, main_v48, main_v49, main_cst_5, main_v50, main_v51, main_cst_6, main_v52, main_v53, main_v54, main_v55, main_v56, main_v57, main_v58, main_cst_7, main_v59, main_v60, main_v61, main_v62]
instance hostOps8_writes : WritesOnly (hostOps8 (F := F)) hostOps8_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps9_W : List (Ref sig .tc) := [main_v64, main_cst_8, main_v65, main_cst_9, main_v66]
instance hostOps9_writes : WritesOnly (hostOps9 (F := F)) hostOps9_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps10_W : List (Ref sig .tc) := [main_v68, main_v69, main_v70]
instance hostOps10_writes : WritesOnly (hostOps10 (F := F)) hostOps10_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps12_W : List (Ref sig .tc) := [main_cst_10, main_v73, main_v74, main_cst_11, main_v75]
instance hostOps12_writes : WritesOnly (hostOps12 (F := F)) hostOps12_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps13_W : List (Ref sig .tc) := [main_v77, main_v78, main_v79]
instance hostOps13_writes : WritesOnly (hostOps13 (F := F)) hostOps13_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps15_W : List (Ref sig .tc) := [main_v82, main_v83, main_v84, main_cst_12, main_v85, main_v86, main_cst_13, main_v87, main_v88, main_cst_14, main_v89, main_v90, main_v91, main_v92, main_v93, main_v94, main_v95, main_cst_15, main_v96, main_v97, main_v98, main_v99]
instance hostOps15_writes : WritesOnly (hostOps15 (F := F)) hostOps15_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps16_W : List (Ref sig .tc) := [main_v101, main_cst_16, main_v102, main_cst_17, main_v103]
instance hostOps16_writes : WritesOnly (hostOps16 (F := F)) hostOps16_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps17_W : List (Ref sig .tc) := [main_v105, main_v106, main_v107]
instance hostOps17_writes : WritesOnly (hostOps17 (F := F)) hostOps17_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps19_W : List (Ref sig .tc) := [main_cst_18, main_v110, main_v111, main_cst_19, main_v112]
instance hostOps19_writes : WritesOnly (hostOps19 (F := F)) hostOps19_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps20_W : List (Ref sig .tc) := [main_v114, main_v115, main_v116]
instance hostOps20_writes : WritesOnly (hostOps20 (F := F)) hostOps20_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps22_W : List (Ref sig .tc) := [main_v119, main_v120, main_v121, main_cst_20, main_v122, main_v123, main_cst_21, main_v124, main_v125, main_cst_22, main_v126, main_v127, main_v128, main_v129, main_v130, main_v131, main_v132, main_cst_23, main_v133, main_v134, main_v135, main_v136]
instance hostOps22_writes : WritesOnly (hostOps22 (F := F)) hostOps22_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps23_W : List (Ref sig .tc) := [main_v138, main_cst_24, main_v139, main_cst_25, main_v140]
instance hostOps23_writes : WritesOnly (hostOps23 (F := F)) hostOps23_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps24_W : List (Ref sig .tc) := [main_v142, main_v143, main_v144]
instance hostOps24_writes : WritesOnly (hostOps24 (F := F)) hostOps24_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps26_W : List (Ref sig .tc) := [main_cst_26, main_v147, main_v148, main_cst_27, main_v149]
instance hostOps26_writes : WritesOnly (hostOps26 (F := F)) hostOps26_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps27_W : List (Ref sig .tc) := [main_v151, main_v152, main_v153]
instance hostOps27_writes : WritesOnly (hostOps27 (F := F)) hostOps27_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps29_W : List (Ref sig .tc) := [main_v156, main_v157, main_v158, main_cst_28, main_v159, main_v160, main_cst_29, main_v161, main_v162, main_cst_30, main_v163, main_v164, main_v165, main_v166, main_v167, main_v168, main_v169, main_cst_31, main_v170, main_v171, main_v172, main_v173]
instance hostOps29_writes : WritesOnly (hostOps29 (F := F)) hostOps29_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps30_W : List (Ref sig .tc) := [main_v175, main_cst_32, main_v176, main_cst_33, main_v177]
instance hostOps30_writes : WritesOnly (hostOps30 (F := F)) hostOps30_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps31_W : List (Ref sig .tc) := [main_v179, main_v180, main_v181]
instance hostOps31_writes : WritesOnly (hostOps31 (F := F)) hostOps31_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps33_W : List (Ref sig .tc) := [main_cst_34, main_v184, main_v185, main_cst_35, main_v186]
instance hostOps33_writes : WritesOnly (hostOps33 (F := F)) hostOps33_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps34_W : List (Ref sig .tc) := [main_v188, main_v189, main_v190]
instance hostOps34_writes : WritesOnly (hostOps34 (F := F)) hostOps34_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps36_W : List (Ref sig .tc) := [main_v193, main_v194, main_v195, main_cst_36, main_v196, main_v197, main_cst_37, main_v198, main_v199, main_cst_38, main_v200, main_v201, main_v202, main_v203, main_v204, main_v205, main_v206, main_cst_39, main_v207, main_v208, main_v209, main_v210]
instance hostOps36_writes : WritesOnly (hostOps36 (F := F)) hostOps36_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps37_W : List (Ref sig .tc) := [main_v212, main_cst_40, main_v213, main_cst_41, main_v214]
instance hostOps37_writes : WritesOnly (hostOps37 (F := F)) hostOps37_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps38_W : List (Ref sig .tc) := [main_v216, main_v217, main_v218]
instance hostOps38_writes : WritesOnly (hostOps38 (F := F)) hostOps38_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps40_W : List (Ref sig .tc) := [main_cst_42, main_v221, main_v222, main_cst_43, main_v223]
instance hostOps40_writes : WritesOnly (hostOps40 (F := F)) hostOps40_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps41_W : List (Ref sig .tc) := [main_v225, main_v226, main_v227]
instance hostOps41_writes : WritesOnly (hostOps41 (F := F)) hostOps41_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps43_W : List (Ref sig .tc) := [main_v230, main_v231, main_v232, main_cst_44, main_v233, main_v234, main_cst_45, main_v235, main_v236, main_cst_46, main_v237, main_v238, main_v239, main_v240, main_v241, main_v242, main_v243, main_cst_47, main_v244, main_v245, main_v246, main_v247]
instance hostOps43_writes : WritesOnly (hostOps43 (F := F)) hostOps43_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps44_W : List (Ref sig .tc) := [main_v249, main_cst_48, main_v250, main_cst_49, main_v251]
instance hostOps44_writes : WritesOnly (hostOps44 (F := F)) hostOps44_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps45_W : List (Ref sig .tc) := [main_v253, main_v254, main_v255]
instance hostOps45_writes : WritesOnly (hostOps45 (F := F)) hostOps45_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps47_W : List (Ref sig .tc) := [main_cst_50, main_v258, main_v259, main_cst_51, main_v260]
instance hostOps47_writes : WritesOnly (hostOps47 (F := F)) hostOps47_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps48_W : List (Ref sig .tc) := [main_v262, main_v263, main_v264]
instance hostOps48_writes : WritesOnly (hostOps48 (F := F)) hostOps48_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps50_W : List (Ref sig .tc) := [main_v267, main_v268, main_v269, main_cst_52, main_v270, main_v271, main_cst_53, main_v272, main_v273, main_cst_54, main_v274, main_v275, main_v276, main_v277, main_v278, main_v279, main_v280, main_cst_55, main_v281, main_v282, main_v283, main_v284]
instance hostOps50_writes : WritesOnly (hostOps50 (F := F)) hostOps50_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps51_W : List (Ref sig .tc) := [main_v286, main_cst_56, main_v287, main_cst_57, main_v288]
instance hostOps51_writes : WritesOnly (hostOps51 (F := F)) hostOps51_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps52_W : List (Ref sig .tc) := [main_v290, main_v291, main_v292]
instance hostOps52_writes : WritesOnly (hostOps52 (F := F)) hostOps52_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps54_W : List (Ref sig .tc) := [main_cst_58, main_v295, main_v296, main_cst_59, main_v297]
instance hostOps54_writes : WritesOnly (hostOps54 (F := F)) hostOps54_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps55_W : List (Ref sig .tc) := [main_v299, main_v300, main_v301]
instance hostOps55_writes : WritesOnly (hostOps55 (F := F)) hostOps55_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps57_W : List (Ref sig .tc) := [main_v304, main_v305, main_v306, main_cst_60, main_v307, main_v308, main_cst_61, main_v309, main_v310, main_cst_62, main_v311, main_v312, main_v313, main_v314, main_v315, main_v316, main_v317, main_cst_63, main_v318, main_v319, main_v320, main_v321]
instance hostOps57_writes : WritesOnly (hostOps57 (F := F)) hostOps57_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps58_W : List (Ref sig .tc) := [main_v323, main_cst_64, main_v324, main_cst_65, main_v325]
instance hostOps58_writes : WritesOnly (hostOps58 (F := F)) hostOps58_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps59_W : List (Ref sig .tc) := [main_v327, main_v328, main_v329, main_cst_66]
instance hostOps59_writes : WritesOnly (hostOps59 (F := F)) hostOps59_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps59_1_W : List (Ref sig .tc) := [main_call0_cst, main_call0_v0, main_call0_v1, main_call0_v2, main_call0_v3, main_call0_v4, main_v330]
instance hostOps59_1_writes : WritesOnly (hostOps59_1 (F := F)) hostOps59_1_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev hostOps60_W : List (Ref sig .tc) := [main_v332, main_v333, main_v334, main_v335, main_v336, main_v337, main_v338, main_v339, main_v340, main_v341, main_v342, main_v343, main_v344]
instance hostOps60_writes : WritesOnly (hostOps60 (F := F)) hostOps60_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

end Cert.KValues

end
-- ==== Proof.MMLaw.lean ====
/-
  Block accumulation of a matrix product, at the extended reals.

  A rows-by-columns product A · B whose contraction axis is cut into nk consecutive blocks of kb
  is the sum, over the blocks, of the products of the corresponding blocks of A and B: the extended
  reals are an additive commutative monoid, so a finite sum may be regrouped freely and nothing about
  finiteness of the entries is used. Read index by index, the fold

      acc₀ = 0,   acc(k+1) = acc(k) + (block (r,k) of A) · (block (k,c) of B)

  ends, after the last block, at the entry (m r + p, n c + q) of the whole product. With one block
  (nk = 1) the single step 0 + a · b is already that entry. A change of float format is the
  identity at these values, so it does not matter in which format a block was stored.
-/
import Idealize.ShloMosaic.PureOps.Ideal
import Idealize.ShloMosaic.PureOps.Ideal.Laws
import Idealize.ShloMosaic.Lib.ValueIdx

noncomputable section

open scoped BigOperators

namespace Cert.MMLaw

open Idealize.ShloMosaic Idealize.ShloMosaic.ValueIdx

/-! ## Dimension numbers of a rows-by-columns product -/

/-- The dimension numbers contract the left operand's columns with the right operand's rows and have
    no batch axis: the six lists of an M × K by K × N product. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat}

/-- Dimension numbers are their six lists: such a record is the library's plain one. -/
theorem IsPlain.eq_plain {d : DotDims ⟨2, ![M, K]⟩ ⟨2, ![K, N]⟩ ⟨2, ![M, N]⟩} (h : IsPlain d) :
    d = DotDims.plain M K N := by
  obtain ⟨lc, rc, ln, rn, lb, rb, wf⟩ := d
  obtain ⟨h1, h2, h3, h4, h5, h6⟩ := h
  simp only at h1 h2 h3 h4 h5 h6
  subst h1 h2 h3 h4 h5 h6
  rfl

theorem plain_isPlain : IsPlain (DotDims.plain M K N) := ⟨rfl, rfl, rfl, rfl, rfl, rfl⟩

/-- The contraction index of such a product is its one coordinate, below K. -/
def plainContr (M K N : Nat) : (DotDims.plain M K N).contr.Idx ≃ Fin K :=
  contrEquiv1 (DotDims.plain M K N) K rfl rfl

/-- At result index j and contraction coordinate c the left operand is read at (j₀, c) … -/
theorem plain_lhsIdx (j : (⟨2, ![M, N]⟩ : Shape).Idx) (c : Fin K) :
    (DotDims.plain M K N).lhsIdx j ((plainContr M K N).symm c) = ix2 (n0 := M) (n1 := K) (j 0) c := by
  funext a
  match a with
  | ⟨0, _⟩ => exact Fin.ext rfl
  | ⟨1, _⟩ => exact Fin.ext rfl

/-- … and the right operand at (c, j₁). -/
theorem plain_rhsIdx (j : (⟨2, ![M, N]⟩ : Shape).Idx) (c : Fin K) :
    (DotDims.plain M K N).rhsIdx j ((plainContr M K N).symm c) = ix2 (n0 := K) (n1 := N) c (j 1) := by
  funext a
  match a with
  | ⟨0, _⟩ => exact Fin.ext rfl
  | ⟨1, _⟩ => exact Fin.ext rfl

/-- The contraction's sum, re-indexed by the one coordinate it runs over. -/
theorem sum_contr {φ₁ φ₂ : FTy} (d : DotDims ⟨2, ![M, K]⟩ ⟨2, ![K, N]⟩ ⟨2, ![M, N]⟩) (hd : IsPlain d)
    (a : FVec Ideal ⟨2, ![M, K]⟩ φ₁) (b : FVec Ideal ⟨2, ![K, N]⟩ φ₂) (j : (⟨2, ![M, N]⟩ : Shape).Idx) :
    ∑ k : d.contr.Idx, a (d.lhsIdx j k) * b (d.rhsIdx j k)
      = ∑ c : Fin K, a (ix2 (n0 := M) (n1 := K) (j 0) c) * b (ix2 (n0 := K) (n1 := N) c (j 1)) := by
  obtain rfl := hd.eq_plain
  rw [← Equiv.sum_comp (plainContr M K N).symm]
  exact Finset.sum_congr rfl fun c _ => by rw [plain_lhsIdx, plain_rhsIdx]

/-- The host's product at an index: the sum over the contraction coordinate of the operands' products. -/
theorem dotGeneral_plain_apply {φ₁ φ₂ : FTy} (d : DotDims ⟨2, ![M, K]⟩ ⟨2, ![K, N]⟩ ⟨2, ![M, N]⟩) (hd : IsPlain d)
    (prec : Option ContractPrecision) (a : FVec Ideal ⟨2, ![M, K]⟩ φ₁) (b : FVec Ideal ⟨2, ![K, N]⟩ φ₂)
    (j : (⟨2, ![M, N]⟩ : Shape).Idx) :
    Host.dotGeneral d prec a b j
      = ∑ c : Fin K, a (ix2 (n0 := M) (n1 := K) (j 0) c) * b (ix2 (n0 := K) (n1 := N) c (j 1)) :=
  (Ideal.dotGeneral_apply d prec .single a b j).trans (sum_contr d hd a b j)

/-- The matrix unit's product into the zero accumulator, at an index: the same sum. -/
theorem matmul_zero_plain_apply {φ₁ φ₂ : FTy} (d : DotDims ⟨2, ![M, K]⟩ ⟨2, ![K, N]⟩ ⟨2, ![M, N]⟩) (hd : IsPlain d)
    (prec : Option ContractPrecision) (a : FVec Ideal ⟨2, ![M, K]⟩ φ₁) (b : FVec Ideal ⟨2, ![K, N]⟩ φ₂)
    (j : (⟨2, ![M, N]⟩ : Shape).Idx) :
    matmul d prec a b (constant ⟨2, ![M, N]⟩ .f32 0x00000000#32) j
      = ∑ c : Fin K, a (ix2 (n0 := M) (n1 := K) (j 0) c) * b (ix2 (n0 := K) (n1 := N) c (j 1)) :=
  (Ideal.matmul_constant_zero_apply d prec a b j).trans (sum_contr d hd a b j)

/-! ## A change of format is the identity -/

/-- Narrowing a vector's format leaves every value as it was. -/
theorem truncf_eq {s : Shape} {φ ψ : FTy} (a : FVec Ideal s φ) (h : ψ.bits < φ.bits) :
    (truncf ψ a h : s.Idx → EReal) = a := rfl

/-- Widening it too. -/
theorem extf_eq {s : Shape} {φ ψ : FTy} (a : FVec Ideal s φ) (h : φ.bits < ψ.bits) :
    (extf ψ a h : s.Idx → EReal) = a := rfl

/-! ## Blocks of an array, and a sum cut into blocks -/

/-- Offset c inside block k of nb blocks of size n is a position below nb · n. -/
theorem blk_lt {nb n k c : Nat} (hk : k < nb) (hc : c < n) : n * k + c < nb * n :=
  calc n * k + c < n * k + n := Nat.add_lt_add_left hc _
    _ = n * (k + 1) := (Nat.mul_succ n k).symm
    _ ≤ n * nb := Nat.mul_le_mul_left n hk
    _ = nb * n := Nat.mul_comm n nb

/-- Block (r, k) of an array cut into nr × nc blocks of m rows and n columns: its entry (p, q) is the
    array's entry (m r + p, n k + q) — a coordinate is block index times block size plus offset. -/
def blk {α : Type} {nr nc : Nat} (m n : Nat) (hM : nr * m = M) (hN : nc * n = N)
    (A : (⟨2, ![M, N]⟩ : Shape).Idx → α) (r : Fin nr) (k : Fin nc) : (⟨2, ![m, n]⟩ : Shape).Idx → α :=
  fun i => A (ix2 (n0 := M) (n1 := N)
    ⟨m * r.val + (i 0).val, lt_of_lt_of_eq (blk_lt r.isLt (idx2_lt0 i)) hM⟩
    ⟨n * k.val + (i 1).val, lt_of_lt_of_eq (blk_lt k.isLt (idx2_lt1 i)) hN⟩)

theorem blk_apply {α : Type} {nr nc : Nat} (m n : Nat) (hM : nr * m = M) (hN : nc * n = N)
    (A : (⟨2, ![M, N]⟩ : Shape).Idx → α) (r : Fin nr) (k : Fin nc) (p : Fin m) (q : Fin n) :
    blk m n hM hN A r k (ix2 p q)
      = A (ix2 (n0 := M) (n1 := N) ⟨m * r.val + p.val, lt_of_lt_of_eq (blk_lt r.isLt p.isLt) hM⟩
          ⟨n * k.val + q.val, lt_of_lt_of_eq (blk_lt k.isLt q.isLt) hN⟩) := rfl

/-- A sum over nb · n positions is the sum over the blocks of the sums inside each block. -/
theorem sum_blocks {α : Type*} [AddCommMonoid α] (nb n : Nat) (f : Fin (nb * n) → α) :
    ∑ c : Fin (nb * n), f c = ∑ k : Fin nb, ∑ c : Fin n, f ⟨n * k.val + c.val, blk_lt k.isLt c.isLt⟩ := by
  rw [← Equiv.sum_comp finProdFinEquiv f, Fintype.sum_prod_type]
  refine Finset.sum_congr rfl fun k _ => Finset.sum_congr rfl fun c _ => congrArg f (Fin.ext ?_)
  simp only [finProdFinEquiv_apply_val]
  exact Nat.add_comm _ _

/-- The same when the length is given as a number equal to nb · n. -/
theorem sum_blocks_of_eq {α : Type*} [AddCommMonoid α] (nb n : Nat) {L : Nat} (hL : nb * n = L) (f : Fin L → α) :
    ∑ c : Fin L, f c
      = ∑ k : Fin nb, ∑ c : Fin n, f ⟨n * k.val + c.val, lt_of_lt_of_eq (blk_lt k.isLt c.isLt) hL⟩ := by
  subst hL
  exact sum_blocks nb n f

/-! ## One accumulation step

From here on arrays are plain functions into the extended reals: at these values a vector of any float
format is such a function, so a block may be handed over in whatever format it was stored in. The matrix
unit's operands are written at bf16 and the host's at f32, the formats the two programs use; the value
does not depend on them. -/

/-- A rank-2 array of extended reals. -/
abbrev Arr (M N : Nat) : Type := (⟨2, ![M, N]⟩ : Shape).Idx → EReal

variable {nr nk nc m kb n : Nat}

/-- One step of the accumulation: the accumulator plus the product of two blocks (into the zero splat). -/
def accStep (d : DotDims ⟨2, ![m, kb]⟩ ⟨2, ![kb, n]⟩ ⟨2, ![m, n]⟩) (prec : Option ContractPrecision)
    (a : Arr m kb) (b : Arr kb n) (acc : Arr m n) : Arr m n :=
  addf (F := Ideal) (φ := .f32) acc
    (matmul (F := Ideal) (φ₁ := .bf16) (φ₂ := .bf16) d prec a b (constant ⟨2, ![m, n]⟩ .f32 0x00000000#32))

theorem accStep_eq (d : DotDims ⟨2, ![m, kb]⟩ ⟨2, ![kb, n]⟩ ⟨2, ![m, n]⟩) (prec : Option ContractPrecision)
    (a : Arr m kb) (b : Arr kb n) (acc : Arr m n) :
    accStep d prec a b acc = addf (F := Ideal) (φ := .f32) acc
      (matmul (F := Ideal) (φ₁ := .bf16) (φ₂ := .bf16) d prec a b (constant ⟨2, ![m, n]⟩ .f32 0x00000000#32)) := rfl

/-- At an entry: the accumulator's entry plus the sum over the block's contraction coordinate. -/
theorem accStep_apply (d : DotDims ⟨2, ![m, kb]⟩ ⟨2, ![kb, n]⟩ ⟨2, ![m, n]⟩) (hd : IsPlain d)
    (prec : Option ContractPrecision) (a : Arr m kb) (b : Arr kb n) (acc : Arr m n) (j : (⟨2, ![m, n]⟩ : Shape).Idx) :
    accStep d prec a b acc j
      = acc j + ∑ c : Fin kb, a (ix2 (n0 := m) (n1 := kb) (j 0) c) * b (ix2 (n0 := kb) (n1 := n) c (j 1)) :=
  congrArg (acc j + ·) (matmul_zero_plain_apply (φ₁ := .bf16) (φ₂ := .bf16) d hd prec a b j)

/-! ## The whole product's entry, block by block; the folds -/

/-- The host's whole product of two arrays. -/
abbrev whole (D : DotDims ⟨2, ![M, K]⟩ ⟨2, ![K, N]⟩ ⟨2, ![M, N]⟩) (prec : Option ContractPrecision)
    (A : Arr M K) (B : Arr K N) : Arr M N :=
  Host.dotGeneral (F := Ideal) (φ₁ := .f32) (φ₂ := .f32) D prec A B

/-- Block (r, c) of the whole product, at an entry: the sum over the contraction blocks k of the entry of
    (block (r, k) of A) times (block (k, c) of B). -/
theorem whole_blk_apply (hM : nr * m = M) (hK : nk * kb = K) (hN : nc * n = N)
    (D : DotDims ⟨2, ![M, K]⟩ ⟨2, ![K, N]⟩ ⟨2, ![M, N]⟩) (hD : IsPlain D) (prec : Option ContractPrecision)
    (A : Arr M K) (B : Arr K N) (r : Fin nr) (c : Fin nc) (j : (⟨2, ![m, n]⟩ : Shape).Idx) :
    blk m n hM hN (whole D prec A B) r c j
      = ∑ k : Fin nk, ∑ x : Fin kb,
          blk m kb hM hK A r k (ix2 (n0 := m) (n1 := kb) (j 0) x)
            * blk kb n hK hN B k c (ix2 (n0 := kb) (n1 := n) x (j 1)) := by
  show Host.dotGeneral (F := Ideal) (φ₁ := .f32) (φ₂ := .f32) D prec A B (ix2 _ _) = _
  rw [dotGeneral_plain_apply D hD, sum_blocks_of_eq nk kb hK]
  rfl

/-- FOUR contraction blocks: the accumulation from zero through blocks 0, 1, 2, 3 is block (r, c) of the whole
    product. -/
theorem fold4_eq_whole (hM : nr * m = M) (hK : 4 * kb = K) (hN : nc * n = N)
    (d : DotDims ⟨2, ![m, kb]⟩ ⟨2, ![kb, n]⟩ ⟨2, ![m, n]⟩) (hd : IsPlain d)
    (D : DotDims ⟨2, ![M, K]⟩ ⟨2, ![K, N]⟩ ⟨2, ![M, N]⟩) (hD : IsPlain D) (prec prec' : Option ContractPrecision)
    (A : Arr M K) (B : Arr K N) (r : Fin nr) (c : Fin nc)
    (a : Fin 4 → Arr m kb) (b : Fin 4 → Arr kb n)
    (ha : ∀ k, a k = blk m kb hM hK A r k) (hb : ∀ k, b k = blk kb n hK hN B k c)
    (acc0 : Arr m n) (h0 : ∀ j, acc0 j = 0) :
    accStep d prec (a 3) (b 3) (accStep d prec (a 2) (b 2) (accStep d prec (a 1) (b 1) (accStep d prec (a 0) (b 0) acc0)))
      = blk m n hM hN (whole D prec' A B) r c := by
  funext j
  rw [whole_blk_apply hM hK hN D hD prec' A B r c j, Fin.sum_univ_four]
  simp only [accStep_apply d hd, h0 j, zero_add, ha, hb]

/-- ONE contraction block: the single step from zero is already block (r, c) of the whole product. -/
theorem fold1_eq_whole (hM : nr * m = M) (hN : nc * n = N)
    (d : DotDims ⟨2, ![m, K]⟩ ⟨2, ![K, n]⟩ ⟨2, ![m, n]⟩) (hd : IsPlain d)
    (D : DotDims ⟨2, ![M, K]⟩ ⟨2, ![K, N]⟩ ⟨2, ![M, N]⟩) (hD : IsPlain D) (prec prec' : Option ContractPrecision)
    (A : Arr M K) (B : Arr K N) (r : Fin nr) (c : Fin nc) (a : Arr m K) (b : Arr K n)
    (ha : a = blk m K hM (Nat.one_mul K) A r 0) (hb : b = blk K n (Nat.one_mul K) hN B 0 c)
    (acc0 : Arr m n) (h0 : ∀ j, acc0 j = 0) :
    accStep d prec a b acc0 = blk m n hM hN (whole D prec' A B) r c := by
  funext j
  rw [whole_blk_apply hM (Nat.one_mul K) hN D hD prec' A B r c j, Fin.sum_univ_one]
  simp only [accStep_apply d hd, h0 j, zero_add, ha, hb]

/-- A block of an array whose format was changed is the block of the array itself. -/
theorem blk_truncf {φ ψ : FTy} (hM : nr * m = M) (hN : nc * n = N) (A : FVec Ideal ⟨2, ![M, N]⟩ φ)
    (h : ψ.bits < φ.bits) (r : Fin nr) (k : Fin nc) :
    blk m n hM hN (truncf ψ A h : Arr M N) r k = blk m n hM hN (A : Arr M N) r k := rfl

/-! ## The program's literal shapes: 4096 rows in four blocks of 1024

The laws once more with every size a numeral, so that a use states no arithmetic: rows are cut in four
blocks of 1024; the contraction axis is either cut the same way (four steps) or left whole (one step);
columns are never cut. -/

/-- Row block r of an array with 4096 rows: entry (p, q) is the array's entry (1024 r + p, q). -/
def rowBlk {n : Nat} (X : Arr 4096 n) (r : Fin 4) : Arr 1024 n :=
  fun i => X (ix2 (n0 := 4096) (n1 := n)
    ⟨1024 * r.val + (i 0).val, by have := r.isLt; have := idx2_lt0 i; omega⟩ ⟨(i 1).val, idx2_lt1 i⟩)

theorem rowBlk_apply {n : Nat} (X : Arr 4096 n) (r : Fin 4) (p : Fin 1024) (q : Fin n) :
    rowBlk X r (ix2 p q) = X (ix2 (n0 := 4096) (n1 := n) ⟨1024 * r.val + p.val, by have := r.isLt; omega⟩ q) := rfl

/-- Block (r, k) of a [4096, 4096] array: entry (p, q) is the array's entry (1024 r + p, 1024 k + q). -/
def sqBlk (A : Arr 4096 4096) (r k : Fin 4) : Arr 1024 1024 :=
  fun i => A (ix2 (n0 := 4096) (n1 := 4096)
    ⟨1024 * r.val + (i 0).val, by have := r.isLt; have := idx2_lt0 i; omega⟩
    ⟨1024 * k.val + (i 1).val, by have := k.isLt; have := idx2_lt1 i; omega⟩)

theorem sqBlk_apply (A : Arr 4096 4096) (r k : Fin 4) (p q : Fin 1024) :
    sqBlk A r k (ix2 p q) = A (ix2 (n0 := 4096) (n1 := 4096) ⟨1024 * r.val + p.val, by have := r.isLt; omega⟩
      ⟨1024 * k.val + q.val, by have := k.isLt; omega⟩) := rfl

theorem sqBlk_eq_blk (A : Arr 4096 4096) (r k : Fin 4) :
    sqBlk A r k = blk (M := 4096) (N := 4096) (nr := 4) (nc := 4) 1024 1024 rfl rfl A r k := rfl

theorem rowBlk_eq_blk {n : Nat} (X : Arr 4096 n) (r : Fin 4) :
    rowBlk X r = blk (M := 4096) (N := n) (nr := 4) (nc := 1) 1024 n rfl (Nat.one_mul n) X r 0 := by
  funext i
  show X _ = X _
  congr 1
  funext a
  match a with
  | ⟨0, _⟩ => rfl
  | ⟨1, _⟩ => exact Fin.ext (by simp)

/-- An array is its one block when nothing is cut. -/
theorem eq_blk_one_one {K n : Nat} (B : Arr K n) :
    B = blk (M := K) (N := n) (nr := 1) (nc := 1) K n (Nat.one_mul K) (Nat.one_mul n) B 0 0 := by
  funext i
  show B _ = B _
  congr 1
  funext a
  match a with
  | ⟨0, _⟩ => exact Fin.ext (by simp)
  | ⟨1, _⟩ => exact Fin.ext (by simp)

/-- Row block r with the contraction axis whole is block (r, 0) of a 4 × 1 cutting. -/
theorem rowBlk_eq_blk_whole {K : Nat} (A : Arr 4096 K) (r : Fin 4) :
    rowBlk A r = blk (M := 4096) (N := K) (nr := 4) (nc := 1) 1024 K rfl (Nat.one_mul K) A r 0 :=
  rowBlk_eq_blk A r

/-- FOUR STEPS, [1024,1024] × [1024,512] blocks inside [4096,4096] × [4096,512]: the accumulation from zero over
    the contraction blocks k = 0, 1, 2, 3 of (block (r, k) of A) · (row block k of B) is row block r of A · B. -/
theorem law44 (d : DotDims ⟨2, ![1024, 1024]⟩ ⟨2, ![1024, 512]⟩ ⟨2, ![1024, 512]⟩) (hd : IsPlain d)
    (D : DotDims ⟨2, ![4096, 4096]⟩ ⟨2, ![4096, 512]⟩ ⟨2, ![4096, 512]⟩) (hD : IsPlain D)
    (prec prec' : Option ContractPrecision) (A : Arr 4096 4096) (B : Arr 4096 512) (r : Fin 4)
    (a : Fin 4 → Arr 1024 1024) (b : Fin 4 → Arr 1024 512)
    (ha : ∀ k, a k = sqBlk A r k) (hb : ∀ k, b k = rowBlk B k)
    (acc0 : Arr 1024 512) (h0 : ∀ j, acc0 j = 0) :
    accStep d prec (a 3) (b 3) (accStep d prec (a 2) (b 2) (accStep d prec (a 1) (b 1) (accStep d prec (a 0) (b 0) acc0)))
      = rowBlk (whole D prec' A B) r := by
  rw [rowBlk_eq_blk]
  exact fold4_eq_whole (nr := 4) (nc := 1) (m := 1024) (kb := 1024) (n := 512) (M := 4096) (K := 4096) (N := 512)
    rfl rfl (Nat.one_mul 512) d hd D hD prec prec' A B r 0 a b
    (fun k => (ha k).trans (sqBlk_eq_blk A r k)) (fun k => (hb k).trans (rowBlk_eq_blk B k)) acc0 h0

/-- ONE STEP, the contraction axis whole ([1024,K] × [K,n] inside [4096,K] × [K,n]): zero plus
    (row block r of A) · B is row block r of A · B. -/
theorem law41 {K n : Nat} (d : DotDims ⟨2, ![1024, K]⟩ ⟨2, ![K, n]⟩ ⟨2, ![1024, n]⟩) (hd : IsPlain d)
    (D : DotDims ⟨2, ![4096, K]⟩ ⟨2, ![K, n]⟩ ⟨2, ![4096, n]⟩) (hD : IsPlain D)
    (prec prec' : Option ContractPrecision) (A : Arr 4096 K) (B : Arr K n) (r : Fin 4)
    (a : Arr 1024 K) (b : Arr K n) (ha : a = rowBlk A r) (hb : b = B)
    (acc0 : Arr 1024 n) (h0 : ∀ j, acc0 j = 0) :
    accStep d prec a b acc0 = rowBlk (whole D prec' A B) r := by
  rw [rowBlk_eq_blk]
  exact fold1_eq_whole (nr := 4) (nc := 1) (m := 1024) (n := n) (M := 4096) (K := K) (N := n)
    rfl (Nat.one_mul n) d hd D hD prec prec' A B r 0 a b
    (ha.trans (rowBlk_eq_blk_whole A r)) (hb.trans (eq_blk_one_one B)) acc0 h0

/-- Entry (p, q) of row block r of the whole product: the sum over the contraction coordinate. -/
theorem rowBlk_whole_apply {K n : Nat} (D : DotDims ⟨2, ![4096, K]⟩ ⟨2, ![K, n]⟩ ⟨2, ![4096, n]⟩) (hD : IsPlain D)
    (prec : Option ContractPrecision) (A : Arr 4096 K) (B : Arr K n) (r : Fin 4) (p : Fin 1024) (q : Fin n) :
    rowBlk (whole D prec A B) r (ix2 p q)
      = ∑ j : Fin K, A (ix2 (n0 := 4096) (n1 := K) ⟨1024 * r.val + p.val, by have := r.isLt; omega⟩ j)
          * B (ix2 (n0 := K) (n1 := n) j q) := by
  rw [rowBlk_apply]
  exact dotGeneral_plain_apply (φ₁ := .f32) (φ₂ := .f32) D hD prec A B _

end Cert.MMLaw

end
-- ==== Proof.KStage.lean ====
import proofs.«158944_j64613488001249_1_alg».proof.Proof.LaunchKI
import proofs.«158944_j64613488001249_1_alg».proof.Proof.Spec
import proofs.«158944_j64613488001249_1_alg».proof.Proof.MMLaw

/-! The kernel program's host stretches read in the specification's terms, for any valuation a stretch starts from.

Between two kernel regions the program applies a short list of host operations. What one buffer holds after such
a list is the composition of the operations' functions over what the list read; read at the buffers a later item
reads, that composition is a function the specification names: the prelude leaves the scalar step size, the
shifted spectrum, and copies in a narrower float format of the operator arrays and of the transposed weight
arrays; the stretch after the encoder's product leaves the encoded state and its normalisation; a stretch after
a product with the normalised state leaves that state's energy; inside a step of Heun's method the stretches
scale a product by the spectrum, negate the operator's value, and combine the two slopes into the next state and
its normalisation. The evidence and dimension records the kernel program names are its own; they are equal to the
reference program's, which the specification cites, because the shapes are the same lists of numbers.

At the extended reals a change of float format is the identity, so the product of an array with a narrowed copy
of another is the product with the array itself. -/

set_option maxRecDepth 16384

noncomputable section

namespace Cert.KValues

open Cert.KernelIdeal Cert.KernelIdeal.Gen Cert.KernelIdeal.GenP
open Idealize.ShloMosaic Idealize.ShloMosaic.TcCoe Idealize.SL.Sem Idealize.ShloMosaic.StableHlo

variable {F : FTy → Type} [FloatOps F] [Cert.ReferenceIdeal.Facts]

/-! ## The dimension records of the four whole products -/

/-- [4096,128] by [128,512]. -/
abbrev DA := Cert.ReferenceIdeal.dot_S4096x128_S128x512_S4096x512_1_0_0_1_n_n
/-- [4096,4096] by [4096,512]. -/
abbrev DB := Cert.ReferenceIdeal.dot_S4096x4096_S4096x512_S4096x512_1_0_0_1_n_n
/-- [4096,512] by [512,512]. -/
abbrev DC := Cert.ReferenceIdeal.dot_S4096x512_S512x512_S4096x512_1_0_0_1_n_n
/-- [4096,512] by [512,64]. -/
abbrev DD := Cert.ReferenceIdeal.dot_S4096x512_S512x64_S4096x64_1_0_0_1_n_n

theorem DA_plain : Cert.MMLaw.IsPlain DA := ⟨rfl, rfl, rfl, rfl, rfl, rfl⟩
theorem DB_plain : Cert.MMLaw.IsPlain DB := ⟨rfl, rfl, rfl, rfl, rfl, rfl⟩
theorem DC_plain : Cert.MMLaw.IsPlain DC := ⟨rfl, rfl, rfl, rfl, rfl, rfl⟩
theorem DD_plain : Cert.MMLaw.IsPlain DD := ⟨rfl, rfl, rfl, rfl, rfl, rfl⟩

/-! ## The four whole products as functions of their operands -/

/-- [4096,128] by [128,512]. -/
def mmA (A : Vec F Cert.ReferenceIdeal.S4096x128 .f32) (B : Vec F Cert.ReferenceIdeal.S128x512 .f32) : Vec F Cert.ReferenceIdeal.S4096x512 .f32 :=
  Host.dotGeneral DA none A B
/-- [4096,4096] by [4096,512]. -/
def mmB (A : Vec F Cert.ReferenceIdeal.S4096x4096 .f32) (B : Vec F Cert.ReferenceIdeal.S4096x512 .f32) : Vec F Cert.ReferenceIdeal.S4096x512 .f32 :=
  Host.dotGeneral DB none A B
/-- [4096,512] by [512,512]. -/
def mmC (A : Vec F Cert.ReferenceIdeal.S4096x512 .f32) (B : Vec F Cert.ReferenceIdeal.S512x512 .f32) : Vec F Cert.ReferenceIdeal.S4096x512 .f32 :=
  Host.dotGeneral DC none A B
/-- [4096,512] by [512,64]. -/
def mmD (A : Vec F Cert.ReferenceIdeal.S4096x512 .f32) (B : Vec F Cert.ReferenceIdeal.S512x64 .f32) : Vec F Cert.ReferenceIdeal.S4096x64 .f32 :=
  Host.dotGeneral DD none A B

theorem mmA_eq (A : Vec F Cert.ReferenceIdeal.S4096x128 .f32) (B : Vec F Cert.ReferenceIdeal.S128x512 .f32) : mmA A B = Host.dotGeneral DA none A B := rfl
theorem mmB_eq (A : Vec F Cert.ReferenceIdeal.S4096x4096 .f32) (B : Vec F Cert.ReferenceIdeal.S4096x512 .f32) : mmB A B = Host.dotGeneral DB none A B := rfl
theorem mmC_eq (A : Vec F Cert.ReferenceIdeal.S4096x512 .f32) (B : Vec F Cert.ReferenceIdeal.S512x512 .f32) : mmC A B = Host.dotGeneral DC none A B := rfl
theorem mmD_eq (A : Vec F Cert.ReferenceIdeal.S4096x512 .f32) (B : Vec F Cert.ReferenceIdeal.S512x64 .f32) : mmD A B = Host.dotGeneral DD none A B := rfl

/-- The encoder is the first product plus the bias row. -/
theorem encOf_mm (x : Vec F Cert.ReferenceIdeal.S4096x128 .f32) (w : Vec F Cert.ReferenceIdeal.S512x128 .f32) (b : Vec F Cert.ReferenceIdeal.S512 .f32) :
    Cert.Spec.encOf x w b
      = addf (mmA x (transpose Cert.ReferenceIdeal.S128x512 [1, 0] w Cert.ReferenceIdeal.Facts₀.transposes_S512x128_S128x512_1_0)) (Cert.Spec.rowB b) := rfl

/-- The spectral operator is three products and one scaling. -/
theorem lxwOf_mm (U Vh : Vec F Cert.ReferenceIdeal.S4096x4096 .f32) (W : Vec F Cert.ReferenceIdeal.S512x512 .f32) (sp : Vec F Cert.ReferenceIdeal.S4096 .f32)
    (h : Vec F Cert.ReferenceIdeal.S4096x512 .f32) :
    Cert.Spec.lxwOf U Vh W sp h = mmB U (mmC (mulf (Cert.Spec.spB sp) (mmB Vh h)) W) := rfl

/-- The energy is half the sum of (snl times the normalised state) times the normalised state. -/
theorem energyOf_mm (snl : Vec F Cert.ReferenceIdeal.S4096x4096 .f32) (h : Vec F Cert.ReferenceIdeal.S4096x512 .f32) :
    Cert.Spec.energyOf snl h
      = mulf Cert.Spec.cHalf (Host.reduceAdd (mulf (mmB snl (Cert.Spec.hnOf h)) (Cert.Spec.hnOf h)) Cert.Spec.c0
          Cert.ReferenceIdeal.Facts₀.reducesTo_S4096x512_S_d0_1 Cert.ReferenceIdeal.Facts₀.h_S_) := rfl

/-- The decoder is two products, two bias rows and the rectifier between. -/
theorem decOf_mm (w0 : Vec F Cert.ReferenceIdeal.S512x512 .f32) (b0 : Vec F Cert.ReferenceIdeal.S512 .f32) (w1 : Vec F Cert.ReferenceIdeal.S64x512 .f32) (b1 : Vec F Cert.ReferenceIdeal.S64 .f32)
    (h : Vec F Cert.ReferenceIdeal.S4096x512 .f32) :
    Cert.Spec.decOf w0 b0 w1 b1 h
      = addf (mmD (Cert.Spec.leakyOf (addf (mmC h (transpose Cert.ReferenceIdeal.S512x512 [1, 0] w0 Cert.ReferenceIdeal.Facts₀.transposes_S512x512_S512x512_1_0)) (Cert.Spec.rowB b0)) Cert.Spec.cSlope)
          (transpose Cert.ReferenceIdeal.S512x64 [1, 0] w1 Cert.ReferenceIdeal.Facts₀.transposes_S64x512_S512x64_1_0)) (Cert.Spec.rowB64 b1) := rfl

/-! ## A product with a narrowed copy, at the extended reals -/

/-- The left operand narrowed: the product is the product with the array itself. -/
theorem whole_DB_left (A : Vec Ideal Cert.ReferenceIdeal.S4096x4096 .f32) (B : Vec Ideal Cert.ReferenceIdeal.S4096x512 .f32) :
    Cert.MMLaw.whole DB none (truncf (F := Ideal) .bf16 A bitsLt_bf16_f32) B = mmB A B := rfl

/-- The right operand narrowed, [128,512]. -/
theorem whole_DA_right (A : Vec Ideal Cert.ReferenceIdeal.S4096x128 .f32) (B : Vec Ideal Cert.ReferenceIdeal.S128x512 .f32) :
    Cert.MMLaw.whole DA none A (truncf (F := Ideal) .bf16 B bitsLt_bf16_f32) = mmA A B := rfl

/-- The right operand narrowed, [512,512]. -/
theorem whole_DC_right (A : Vec Ideal Cert.ReferenceIdeal.S4096x512 .f32) (B : Vec Ideal Cert.ReferenceIdeal.S512x512 .f32) :
    Cert.MMLaw.whole DC none A (truncf (F := Ideal) .bf16 B bitsLt_bf16_f32) = mmC A B := rfl

/-- The right operand narrowed, [512,64]. -/
theorem whole_DD_right (A : Vec Ideal Cert.ReferenceIdeal.S4096x512 .f32) (B : Vec Ideal Cert.ReferenceIdeal.S512x64 .f32) :
    Cert.MMLaw.whole DD none A (truncf (F := Ideal) .bf16 B bitsLt_bf16_f32) = mmD A B := rfl

/-! ## The prelude -/

/-- The step size as a scalar. -/
theorem pre_ss (V : Valuation τ sig (Elt F)) :
    after hostOps0 V (Proc.devRef .tc main_v0) = Cert.Spec.scal (V (Proc.devRef .tc main_arg14)) := by
  after_results_simp; rfl

/-- The shifted spectrum. -/
theorem pre_sp (V : Valuation τ sig (Elt F)) :
    after hostOps0 V (Proc.devRef .tc main_v6)
      = Cert.Spec.spOf (V (Proc.devRef .tc main_arg2)) (V (Proc.devRef .tc main_arg12)) (V (Proc.devRef .tc main_arg13)) := by
  after_results_simp; rfl

/-- The narrowed copy of U. -/
theorem pre_U (V : Valuation τ sig (Elt F)) :
    after hostOps0 V (Proc.devRef .tc main_v7) = truncf .bf16 (V (Proc.devRef .tc main_arg1)) bitsLt_bf16_f32 := by
  after_results_simp

/-- The narrowed copy of Vh. -/
theorem pre_Vh (V : Valuation τ sig (Elt F)) :
    after hostOps0 V (Proc.devRef .tc main_v8) = truncf .bf16 (V (Proc.devRef .tc main_arg3)) bitsLt_bf16_f32 := by
  after_results_simp

/-- The narrowed copy of snl. -/
theorem pre_snl (V : Valuation τ sig (Elt F)) :
    after hostOps0 V (Proc.devRef .tc main_v9) = truncf .bf16 (V (Proc.devRef .tc main_arg4)) bitsLt_bf16_f32 := by
  after_results_simp

/-- The narrowed copy of W. -/
theorem pre_W (V : Valuation τ sig (Elt F)) :
    after hostOps0 V (Proc.devRef .tc main_v10) = truncf .bf16 (V (Proc.devRef .tc main_arg7)) bitsLt_bf16_f32 := by
  after_results_simp

/-- The narrowed copy of the encoder's weights transposed. -/
theorem pre_encw (V : Valuation τ sig (Elt F)) :
    after hostOps0 V (Proc.devRef .tc main_v12)
      = truncf .bf16 (transpose Cert.ReferenceIdeal.S128x512 [1, 0] (V (Proc.devRef .tc main_arg5)) Cert.ReferenceIdeal.Facts₀.transposes_S512x128_S128x512_1_0) bitsLt_bf16_f32 := by
  after_results_simp

/-- The narrowed copy of the decoder's first weights transposed. -/
theorem pre_dw0 (V : Valuation τ sig (Elt F)) :
    after hostOps0 V (Proc.devRef .tc main_v14)
      = truncf .bf16 (transpose Cert.ReferenceIdeal.S512x512 [1, 0] (V (Proc.devRef .tc main_arg8)) Cert.ReferenceIdeal.Facts₀.transposes_S512x512_S512x512_1_0) bitsLt_bf16_f32 := by
  after_results_simp

/-- The narrowed copy of the decoder's second weights transposed. -/
theorem pre_dw1 (V : Valuation τ sig (Elt F)) :
    after hostOps0 V (Proc.devRef .tc main_v16)
      = truncf .bf16 (transpose Cert.ReferenceIdeal.S512x64 [1, 0] (V (Proc.devRef .tc main_arg10)) Cert.ReferenceIdeal.Facts₀.transposes_S64x512_S512x64_1_0) bitsLt_bf16_f32 := by
  after_results_simp

/-! ## After the encoder's product: the encoded state and its normalisation -/

/-- The product plus the bias row. -/
theorem enc_h (V : Valuation τ sig (Elt F)) :
    after hostOps1 V (Proc.devRef .tc main_v20) = addf (V (Proc.devRef .tc main_v17)) (Cert.Spec.rowB (V (Proc.devRef .tc main_arg6))) := by
  after_results_simp; rfl

/-- That state divided by its norm. -/
theorem enc_hn (V : Valuation τ sig (Elt F)) :
    after hostOps1 V (Proc.devRef .tc main_v25) = Cert.Spec.hnOf (after hostOps1 V (Proc.devRef .tc main_v20)) := by
  after_results_simp; rfl

/-! ## After the product of snl with a normalised state: the energy (the first of nine) -/

/-- Half the sum of the product times the normalised state. -/
theorem en0_e (V : Valuation τ sig (Elt F)) {snl : Vec F Cert.ReferenceIdeal.S4096x4096 .f32} {h : Vec F Cert.ReferenceIdeal.S4096x512 .f32}
    (hp : V (Proc.devRef .tc main_v26) = mmB snl (Cert.Spec.hnOf h))
    (hn : V (Proc.devRef .tc main_v25) = Cert.Spec.hnOf h) :
    after hostOps2 V (Proc.devRef .tc main_v29) = Cert.Spec.energyOf snl h := by
  after_results_simp
  rw [hp, hn]
  rfl

/-! ## Inside the first step of Heun's method (the other seven are the same text at shifted references) -/

/-- The spectrum spread across the columns times the product Vh · h. -/
theorem s1_mulA (V : Valuation τ sig (Elt F)) :
    after hostOps3 V (Proc.devRef .tc main_v33) = mulf (Cert.Spec.spB (V (Proc.devRef .tc main_v6))) (V (Proc.devRef .tc main_v30)) := by
  after_results_simp; rfl

/-- The first slope: minus the operator's value. -/
theorem s1_k0 (V : Valuation τ sig (Elt F)) :
    after hostOps5 V (Proc.devRef .tc main_v37) = Cert.Spec.k0Of (V (Proc.devRef .tc main_v35)) := by
  after_results_simp; rfl

/-- The step size times one. -/
theorem s1_ss1 (V : Valuation τ sig (Elt F)) :
    after hostOps5 V (Proc.devRef .tc main_v38) = mulf (V (Proc.devRef .tc main_v0)) Cert.Spec.c1 := by
  after_results_simp; rfl

/-- The spectrum spread across the columns times the product Vh · K0. -/
theorem s1_mulB (V : Valuation τ sig (Elt F)) :
    after hostOps6 V (Proc.devRef .tc main_v42) = mulf (Cert.Spec.spB (V (Proc.devRef .tc main_v6))) (V (Proc.devRef .tc main_v39)) := by
  after_results_simp; rfl

/-- The next state: the state plus the step size times the mean of the two slopes. -/
theorem s1_h (V : Valuation τ sig (Elt F)) {step : Vec F Cert.ReferenceIdeal.S1 .f32} {h L0 K0 LK : Vec F Cert.ReferenceIdeal.S4096x512 .f32}
    (hs : V (Proc.devRef .tc main_v0) = Cert.Spec.scal step) (hh : V (Proc.devRef .tc main_v20) = h)
    (hL : V (Proc.devRef .tc main_v35) = L0) (hK : V (Proc.devRef .tc main_v37) = K0)
    (h1 : V (Proc.devRef .tc main_v38) = mulf (Cert.Spec.scal step) Cert.Spec.c1) (hLK : V (Proc.devRef .tc main_v44) = LK) :
    after hostOps8 V (Proc.devRef .tc main_v57)
      = Cert.Spec.combOf step h K0
          (mulf (Cert.Spec.bc0 Cert.Spec.cNeg1) (addf L0 (mulf (Cert.Spec.bc0 (mulf (Cert.Spec.scal step) Cert.Spec.c1)) LK))) := by
  after_results_simp
  rw [hs, hh, hL, hK, h1, hLK]
  rfl

/-- The next state divided by its norm. -/
theorem s1_hn (V : Valuation τ sig (Elt F)) :
    after hostOps8 V (Proc.devRef .tc main_v62) = Cert.Spec.hnOf (after hostOps8 V (Proc.devRef .tc main_v57)) := by
  after_results_simp; rfl

/-- The energy of the next state. -/
theorem s1_e (V : Valuation τ sig (Elt F)) {snl : Vec F Cert.ReferenceIdeal.S4096x4096 .f32} {h : Vec F Cert.ReferenceIdeal.S4096x512 .f32}
    (hp : V (Proc.devRef .tc main_v63) = mmB snl (Cert.Spec.hnOf h))
    (hn : V (Proc.devRef .tc main_v62) = Cert.Spec.hnOf h) :
    after hostOps9 V (Proc.devRef .tc main_v66) = Cert.Spec.energyOf snl h := by
  after_results_simp
  rw [hp, hn]
  rfl

end Cert.KValues

end
-- ==== Proof.KInv.lean ====
import proofs.«158944_j64613488001249_1_alg».proof.Proof.KOps
import proofs.«158944_j64613488001249_1_alg».proof.Proof.KStage

/-! What every item of the kernel program after the prelude reads besides the running state, and that it stays.

Of the fifteen argument arrays the items after the prelude read four (the input of the encoder's product and the
three bias rows); of the prelude's results they read the scalar step size, the shifted spectrum and the seven
narrowed copies. No later item writes any of these thirteen buffers: a host stretch writes only its own results,
a kernel region only its output array. A valuation that holds them is called good. -/

set_option maxRecDepth 16384

noncomputable section

namespace Cert.KValues

open Cert.KernelIdeal Cert.KernelIdeal.Gen Cert.KernelIdeal.GenP
open Idealize.ShloMosaic Idealize.ShloMosaic.TcCoe Idealize.SL.Sem Idealize.ShloMosaic.StableHlo

variable [Cert.ReferenceIdeal.Facts]

/-- The fifteen argument arrays as a valuation holds them. -/
def argsAt (V : Valuation τ sig (Elt Ideal)) : Cert.Spec.Args Ideal where
  x := V (Proc.devRef .tc main_arg0)
  U := V (Proc.devRef .tc main_arg1)
  S := V (Proc.devRef .tc main_arg2)
  Vh := V (Proc.devRef .tc main_arg3)
  snl := V (Proc.devRef .tc main_arg4)
  enc_w := V (Proc.devRef .tc main_arg5)
  enc_b := V (Proc.devRef .tc main_arg6)
  W := V (Proc.devRef .tc main_arg7)
  dec_w0 := V (Proc.devRef .tc main_arg8)
  dec_b0 := V (Proc.devRef .tc main_arg9)
  dec_w1 := V (Proc.devRef .tc main_arg10)
  dec_b1 := V (Proc.devRef .tc main_arg11)
  shift := V (Proc.devRef .tc main_arg12)
  expo := V (Proc.devRef .tc main_arg13)
  step := V (Proc.devRef .tc main_arg14)

/-- An array narrowed to the 16-bit float format. -/
abbrev nar {s : Shape} (v : Vec Ideal s .f32) : Vec Ideal s .bf16 :=
  truncf (F := Ideal) (s := s) (φ := .f32) .bf16 v bitsLt_bf16_f32

/-- The thirteen references. -/
abbrev baseRefs : List (Ref sig .tc) :=
  [main_arg0, main_arg6, main_arg9, main_arg11, main_v0, main_v6, main_v7, main_v8, main_v9, main_v10, main_v12, main_v14, main_v16]

/-- A valuation that holds, at those references, the four arrays of `a` that are read late, the scalar step size, the
    shifted spectrum and the narrowed copies of U, Vh, snl, W and of the three transposed weight arrays. -/
structure KGood (a : Cert.Spec.Args Ideal) (V : Valuation τ sig (Elt Ideal)) : Prop where
  x : V (Proc.devRef .tc main_arg0) = a.x
  enc_b : V (Proc.devRef .tc main_arg6) = a.enc_b
  dec_b0 : V (Proc.devRef .tc main_arg9) = a.dec_b0
  dec_b1 : V (Proc.devRef .tc main_arg11) = a.dec_b1
  ss : V (Proc.devRef .tc main_v0) = Cert.Spec.scal a.step
  sp : V (Proc.devRef .tc main_v6) = Cert.Spec.spOf a.S a.shift a.expo
  bU : V (Proc.devRef .tc main_v7) = nar a.U
  bVh : V (Proc.devRef .tc main_v8) = nar a.Vh
  bsnl : V (Proc.devRef .tc main_v9) = nar a.snl
  bW : V (Proc.devRef .tc main_v10) = nar a.W
  bEw : V (Proc.devRef .tc main_v12) = nar (transpose Cert.ReferenceIdeal.S128x512 [1, 0] a.enc_w Cert.ReferenceIdeal.Facts₀.transposes_S512x128_S128x512_1_0)
  bD0 : V (Proc.devRef .tc main_v14) = nar (transpose Cert.ReferenceIdeal.S512x512 [1, 0] a.dec_w0 Cert.ReferenceIdeal.Facts₀.transposes_S512x512_S512x512_1_0)
  bD1 : V (Proc.devRef .tc main_v16) = nar (transpose Cert.ReferenceIdeal.S512x64 [1, 0] a.dec_w1 Cert.ReferenceIdeal.Facts₀.transposes_S64x512_S512x64_1_0)

/-- A valuation that holds at each of those references what a good one holds is good. -/
theorem KGood.of_keep {a : Cert.Spec.Args Ideal} {V V' : Valuation τ sig (Elt Ideal)} (g : KGood a V)
    (h_x : V' (Proc.devRef .tc main_arg0) = V (Proc.devRef .tc main_arg0))
    (h_enc_b : V' (Proc.devRef .tc main_arg6) = V (Proc.devRef .tc main_arg6))
    (h_dec_b0 : V' (Proc.devRef .tc main_arg9) = V (Proc.devRef .tc main_arg9))
    (h_dec_b1 : V' (Proc.devRef .tc main_arg11) = V (Proc.devRef .tc main_arg11))
    (h_ss : V' (Proc.devRef .tc main_v0) = V (Proc.devRef .tc main_v0))
    (h_sp : V' (Proc.devRef .tc main_v6) = V (Proc.devRef .tc main_v6))
    (h_bU : V' (Proc.devRef .tc main_v7) = V (Proc.devRef .tc main_v7))
    (h_bVh : V' (Proc.devRef .tc main_v8) = V (Proc.devRef .tc main_v8))
    (h_bsnl : V' (Proc.devRef .tc main_v9) = V (Proc.devRef .tc main_v9))
    (h_bW : V' (Proc.devRef .tc main_v10) = V (Proc.devRef .tc main_v10))
    (h_bEw : V' (Proc.devRef .tc main_v12) = V (Proc.devRef .tc main_v12))
    (h_bD0 : V' (Proc.devRef .tc main_v14) = V (Proc.devRef .tc main_v14))
    (h_bD1 : V' (Proc.devRef .tc main_v16) = V (Proc.devRef .tc main_v16)) : KGood a V' where
  x := h_x.trans g.x
  enc_b := h_enc_b.trans g.enc_b
  dec_b0 := h_dec_b0.trans g.dec_b0
  dec_b1 := h_dec_b1.trans g.dec_b1
  ss := h_ss.trans g.ss
  sp := h_sp.trans g.sp
  bU := h_bU.trans g.bU
  bVh := h_bVh.trans g.bVh
  bsnl := h_bsnl.trans g.bsnl
  bW := h_bW.trans g.bW
  bEw := h_bEw.trans g.bEw
  bD0 := h_bD0.trans g.bD0
  bD1 := h_bD1.trans g.bD1

/-- After the prelude the valuation is good for the arrays it started from. -/
theorem good_pre (V : Valuation τ sig (Elt Ideal)) : KGood (argsAt V) (after hostOps0 V) where
  x := keep hostOps0 V (by decide)
  enc_b := keep hostOps0 V (by decide)
  dec_b0 := keep hostOps0 V (by decide)
  dec_b1 := keep hostOps0 V (by decide)
  ss := pre_ss V
  sp := pre_sp V
  bU := pre_U V
  bVh := pre_Vh V
  bsnl := pre_snl V
  bW := pre_W V
  bEw := pre_encw V
  bD0 := pre_dw0 V
  bD1 := pre_dw1 V

end Cert.KValues

end
-- ==== Proof.KRun.lean ====
import proofs.«158944_j64613488001249_1_alg».proof.Proof.KInv

/-! The kernel program as a family of valuations: X 0 is what the buffers hold at launch, X (j+1) what they hold after
item j. A host stretch acts by its operations; a kernel region rewrites its output array to the whole product of its two
operand arrays. Per item: a buffer the item does not write keeps its contents, a region's output array holds the
product, and a good valuation stays good. -/

set_option maxRecDepth 16384

noncomputable section

namespace Cert.KValues

open Cert.KernelIdeal Cert.KernelIdeal.Gen Cert.KernelIdeal.GenP
open Idealize.ShloMosaic Idealize.ShloMosaic.TcCoe Idealize.SL.Sem Idealize.ShloMosaic.StableHlo

variable [Cert.ReferenceIdeal.Facts]

/-- The items of the program, one equation each. -/
structure KRun (X : ℕ → Valuation τ sig (Elt Ideal)) : Prop where
  i0 : X 1 = StableHlo.after hostOps0 (X 0)
  i1 : X 2 = Function.update (X 1) (Proc.devRef .tc main_v17) (Cert.MMLaw.whole DA none (X 1 (Proc.devRef .tc main_arg0)) (X 1 (Proc.devRef .tc main_v12)))
  i2 : X 3 = StableHlo.after hostOps1 (X 2)
  i3 : X 4 = Function.update (X 3) (Proc.devRef .tc main_v26) (Cert.MMLaw.whole DB none (X 3 (Proc.devRef .tc main_v9)) (X 3 (Proc.devRef .tc main_v25)))
  i4 : X 5 = StableHlo.after hostOps2 (X 4)
  i5 : X 6 = Function.update (X 5) (Proc.devRef .tc main_v30) (Cert.MMLaw.whole DB none (X 5 (Proc.devRef .tc main_v8)) (X 5 (Proc.devRef .tc main_v20)))
  i6 : X 7 = StableHlo.after hostOps3 (X 6)
  i7 : X 8 = Function.update (X 7) (Proc.devRef .tc main_v34) (Cert.MMLaw.whole DC none (X 7 (Proc.devRef .tc main_v33)) (X 7 (Proc.devRef .tc main_v10)))
  i8 : X 9 = Function.update (X 8) (Proc.devRef .tc main_v35) (Cert.MMLaw.whole DB none (X 8 (Proc.devRef .tc main_v7)) (X 8 (Proc.devRef .tc main_v34)))
  i9 : X 10 = StableHlo.after hostOps5 (X 9)
  i10 : X 11 = Function.update (X 10) (Proc.devRef .tc main_v39) (Cert.MMLaw.whole DB none (X 10 (Proc.devRef .tc main_v8)) (X 10 (Proc.devRef .tc main_v37)))
  i11 : X 12 = StableHlo.after hostOps6 (X 11)
  i12 : X 13 = Function.update (X 12) (Proc.devRef .tc main_v43) (Cert.MMLaw.whole DC none (X 12 (Proc.devRef .tc main_v42)) (X 12 (Proc.devRef .tc main_v10)))
  i13 : X 14 = Function.update (X 13) (Proc.devRef .tc main_v44) (Cert.MMLaw.whole DB none (X 13 (Proc.devRef .tc main_v7)) (X 13 (Proc.devRef .tc main_v43)))
  i14 : X 15 = StableHlo.after hostOps8 (X 14)
  i15 : X 16 = Function.update (X 15) (Proc.devRef .tc main_v63) (Cert.MMLaw.whole DB none (X 15 (Proc.devRef .tc main_v9)) (X 15 (Proc.devRef .tc main_v62)))
  i16 : X 17 = StableHlo.after hostOps9 (X 16)
  i17 : X 18 = Function.update (X 17) (Proc.devRef .tc main_v67) (Cert.MMLaw.whole DB none (X 17 (Proc.devRef .tc main_v8)) (X 17 (Proc.devRef .tc main_v57)))
  i18 : X 19 = StableHlo.after hostOps10 (X 18)
  i19 : X 20 = Function.update (X 19) (Proc.devRef .tc main_v71) (Cert.MMLaw.whole DC none (X 19 (Proc.devRef .tc main_v70)) (X 19 (Proc.devRef .tc main_v10)))
  i20 : X 21 = Function.update (X 20) (Proc.devRef .tc main_v72) (Cert.MMLaw.whole DB none (X 20 (Proc.devRef .tc main_v7)) (X 20 (Proc.devRef .tc main_v71)))
  i21 : X 22 = StableHlo.after hostOps12 (X 21)
  i22 : X 23 = Function.update (X 22) (Proc.devRef .tc main_v76) (Cert.MMLaw.whole DB none (X 22 (Proc.devRef .tc main_v8)) (X 22 (Proc.devRef .tc main_v74)))
  i23 : X 24 = StableHlo.after hostOps13 (X 23)
  i24 : X 25 = Function.update (X 24) (Proc.devRef .tc main_v80) (Cert.MMLaw.whole DC none (X 24 (Proc.devRef .tc main_v79)) (X 24 (Proc.devRef .tc main_v10)))
  i25 : X 26 = Function.update (X 25) (Proc.devRef .tc main_v81) (Cert.MMLaw.whole DB none (X 25 (Proc.devRef .tc main_v7)) (X 25 (Proc.devRef .tc main_v80)))
  i26 : X 27 = StableHlo.after hostOps15 (X 26)
  i27 : X 28 = Function.update (X 27) (Proc.devRef .tc main_v100) (Cert.MMLaw.whole DB none (X 27 (Proc.devRef .tc main_v9)) (X 27 (Proc.devRef .tc main_v99)))
  i28 : X 29 = StableHlo.after hostOps16 (X 28)
  i29 : X 30 = Function.update (X 29) (Proc.devRef .tc main_v104) (Cert.MMLaw.whole DB none (X 29 (Proc.devRef .tc main_v8)) (X 29 (Proc.devRef .tc main_v94)))
  i30 : X 31 = StableHlo.after hostOps17 (X 30)
  i31 : X 32 = Function.update (X 31) (Proc.devRef .tc main_v108) (Cert.MMLaw.whole DC none (X 31 (Proc.devRef .tc main_v107)) (X 31 (Proc.devRef .tc main_v10)))
  i32 : X 33 = Function.update (X 32) (Proc.devRef .tc main_v109) (Cert.MMLaw.whole DB none (X 32 (Proc.devRef .tc main_v7)) (X 32 (Proc.devRef .tc main_v108)))
  i33 : X 34 = StableHlo.after hostOps19 (X 33)
  i34 : X 35 = Function.update (X 34) (Proc.devRef .tc main_v113) (Cert.MMLaw.whole DB none (X 34 (Proc.devRef .tc main_v8)) (X 34 (Proc.devRef .tc main_v111)))
  i35 : X 36 = StableHlo.after hostOps20 (X 35)
  i36 : X 37 = Function.update (X 36) (Proc.devRef .tc main_v117) (Cert.MMLaw.whole DC none (X 36 (Proc.devRef .tc main_v116)) (X 36 (Proc.devRef .tc main_v10)))
  i37 : X 38 = Function.update (X 37) (Proc.devRef .tc main_v118) (Cert.MMLaw.whole DB none (X 37 (Proc.devRef .tc main_v7)) (X 37 (Proc.devRef .tc main_v117)))
  i38 : X 39 = StableHlo.after hostOps22 (X 38)
  i39 : X 40 = Function.update (X 39) (Proc.devRef .tc main_v137) (Cert.MMLaw.whole DB none (X 39 (Proc.devRef .tc main_v9)) (X 39 (Proc.devRef .tc main_v136)))
  i40 : X 41 = StableHlo.after hostOps23 (X 40)
  i41 : X 42 = Function.update (X 41) (Proc.devRef .tc main_v141) (Cert.MMLaw.whole DB none (X 41 (Proc.devRef .tc main_v8)) (X 41 (Proc.devRef .tc main_v131)))
  i42 : X 43 = StableHlo.after hostOps24 (X 42)
  i43 : X 44 = Function.update (X 43) (Proc.devRef .tc main_v145) (Cert.MMLaw.whole DC none (X 43 (Proc.devRef .tc main_v144)) (X 43 (Proc.devRef .tc main_v10)))
  i44 : X 45 = Function.update (X 44) (Proc.devRef .tc main_v146) (Cert.MMLaw.whole DB none (X 44 (Proc.devRef .tc main_v7)) (X 44 (Proc.devRef .tc main_v145)))
  i45 : X 46 = StableHlo.after hostOps26 (X 45)
  i46 : X 47 = Function.update (X 46) (Proc.devRef .tc main_v150) (Cert.MMLaw.whole DB none (X 46 (Proc.devRef .tc main_v8)) (X 46 (Proc.devRef .tc main_v148)))
  i47 : X 48 = StableHlo.after hostOps27 (X 47)
  i48 : X 49 = Function.update (X 48) (Proc.devRef .tc main_v154) (Cert.MMLaw.whole DC none (X 48 (Proc.devRef .tc main_v153)) (X 48 (Proc.devRef .tc main_v10)))
  i49 : X 50 = Function.update (X 49) (Proc.devRef .tc main_v155) (Cert.MMLaw.whole DB none (X 49 (Proc.devRef .tc main_v7)) (X 49 (Proc.devRef .tc main_v154)))
  i50 : X 51 = StableHlo.after hostOps29 (X 50)
  i51 : X 52 = Function.update (X 51) (Proc.devRef .tc main_v174) (Cert.MMLaw.whole DB none (X 51 (Proc.devRef .tc main_v9)) (X 51 (Proc.devRef .tc main_v173)))
  i52 : X 53 = StableHlo.after hostOps30 (X 52)
  i53 : X 54 = Function.update (X 53) (Proc.devRef .tc main_v178) (Cert.MMLaw.whole DB none (X 53 (Proc.devRef .tc main_v8)) (X 53 (Proc.devRef .tc main_v168)))
  i54 : X 55 = StableHlo.after hostOps31 (X 54)
  i55 : X 56 = Function.update (X 55) (Proc.devRef .tc main_v182) (Cert.MMLaw.whole DC none (X 55 (Proc.devRef .tc main_v181)) (X 55 (Proc.devRef .tc main_v10)))
  i56 : X 57 = Function.update (X 56) (Proc.devRef .tc main_v183) (Cert.MMLaw.whole DB none (X 56 (Proc.devRef .tc main_v7)) (X 56 (Proc.devRef .tc main_v182)))
  i57 : X 58 = StableHlo.after hostOps33 (X 57)
  i58 : X 59 = Function.update (X 58) (Proc.devRef .tc main_v187) (Cert.MMLaw.whole DB none (X 58 (Proc.devRef .tc main_v8)) (X 58 (Proc.devRef .tc main_v185)))
  i59 : X 60 = StableHlo.after hostOps34 (X 59)
  i60 : X 61 = Function.update (X 60) (Proc.devRef .tc main_v191) (Cert.MMLaw.whole DC none (X 60 (Proc.devRef .tc main_v190)) (X 60 (Proc.devRef .tc main_v10)))
  i61 : X 62 = Function.update (X 61) (Proc.devRef .tc main_v192) (Cert.MMLaw.whole DB none (X 61 (Proc.devRef .tc main_v7)) (X 61 (Proc.devRef .tc main_v191)))
  i62 : X 63 = StableHlo.after hostOps36 (X 62)
  i63 : X 64 = Function.update (X 63) (Proc.devRef .tc main_v211) (Cert.MMLaw.whole DB none (X 63 (Proc.devRef .tc main_v9)) (X 63 (Proc.devRef .tc main_v210)))
  i64 : X 65 = StableHlo.after hostOps37 (X 64)
  i65 : X 66 = Function.update (X 65) (Proc.devRef .tc main_v215) (Cert.MMLaw.whole DB none (X 65 (Proc.devRef .tc main_v8)) (X 65 (Proc.devRef .tc main_v205)))
  i66 : X 67 = StableHlo.after hostOps38 (X 66)
  i67 : X 68 = Function.update (X 67) (Proc.devRef .tc main_v219) (Cert.MMLaw.whole DC none (X 67 (Proc.devRef .tc main_v218)) (X 67 (Proc.devRef .tc main_v10)))
  i68 : X 69 = Function.update (X 68) (Proc.devRef .tc main_v220) (Cert.MMLaw.whole DB none (X 68 (Proc.devRef .tc main_v7)) (X 68 (Proc.devRef .tc main_v219)))
  i69 : X 70 = StableHlo.after hostOps40 (X 69)
  i70 : X 71 = Function.update (X 70) (Proc.devRef .tc main_v224) (Cert.MMLaw.whole DB none (X 70 (Proc.devRef .tc main_v8)) (X 70 (Proc.devRef .tc main_v222)))
  i71 : X 72 = StableHlo.after hostOps41 (X 71)
  i72 : X 73 = Function.update (X 72) (Proc.devRef .tc main_v228) (Cert.MMLaw.whole DC none (X 72 (Proc.devRef .tc main_v227)) (X 72 (Proc.devRef .tc main_v10)))
  i73 : X 74 = Function.update (X 73) (Proc.devRef .tc main_v229) (Cert.MMLaw.whole DB none (X 73 (Proc.devRef .tc main_v7)) (X 73 (Proc.devRef .tc main_v228)))
  i74 : X 75 = StableHlo.after hostOps43 (X 74)
  i75 : X 76 = Function.update (X 75) (Proc.devRef .tc main_v248) (Cert.MMLaw.whole DB none (X 75 (Proc.devRef .tc main_v9)) (X 75 (Proc.devRef .tc main_v247)))
  i76 : X 77 = StableHlo.after hostOps44 (X 76)
  i77 : X 78 = Function.update (X 77) (Proc.devRef .tc main_v252) (Cert.MMLaw.whole DB none (X 77 (Proc.devRef .tc main_v8)) (X 77 (Proc.devRef .tc main_v242)))
  i78 : X 79 = StableHlo.after hostOps45 (X 78)
  i79 : X 80 = Function.update (X 79) (Proc.devRef .tc main_v256) (Cert.MMLaw.whole DC none (X 79 (Proc.devRef .tc main_v255)) (X 79 (Proc.devRef .tc main_v10)))
  i80 : X 81 = Function.update (X 80) (Proc.devRef .tc main_v257) (Cert.MMLaw.whole DB none (X 80 (Proc.devRef .tc main_v7)) (X 80 (Proc.devRef .tc main_v256)))
  i81 : X 82 = StableHlo.after hostOps47 (X 81)
  i82 : X 83 = Function.update (X 82) (Proc.devRef .tc main_v261) (Cert.MMLaw.whole DB none (X 82 (Proc.devRef .tc main_v8)) (X 82 (Proc.devRef .tc main_v259)))
  i83 : X 84 = StableHlo.after hostOps48 (X 83)
  i84 : X 85 = Function.update (X 84) (Proc.devRef .tc main_v265) (Cert.MMLaw.whole DC none (X 84 (Proc.devRef .tc main_v264)) (X 84 (Proc.devRef .tc main_v10)))
  i85 : X 86 = Function.update (X 85) (Proc.devRef .tc main_v266) (Cert.MMLaw.whole DB none (X 85 (Proc.devRef .tc main_v7)) (X 85 (Proc.devRef .tc main_v265)))
  i86 : X 87 = StableHlo.after hostOps50 (X 86)
  i87 : X 88 = Function.update (X 87) (Proc.devRef .tc main_v285) (Cert.MMLaw.whole DB none (X 87 (Proc.devRef .tc main_v9)) (X 87 (Proc.devRef .tc main_v284)))
  i88 : X 89 = StableHlo.after hostOps51 (X 88)
  i89 : X 90 = Function.update (X 89) (Proc.devRef .tc main_v289) (Cert.MMLaw.whole DB none (X 89 (Proc.devRef .tc main_v8)) (X 89 (Proc.devRef .tc main_v279)))
  i90 : X 91 = StableHlo.after hostOps52 (X 90)
  i91 : X 92 = Function.update (X 91) (Proc.devRef .tc main_v293) (Cert.MMLaw.whole DC none (X 91 (Proc.devRef .tc main_v292)) (X 91 (Proc.devRef .tc main_v10)))
  i92 : X 93 = Function.update (X 92) (Proc.devRef .tc main_v294) (Cert.MMLaw.whole DB none (X 92 (Proc.devRef .tc main_v7)) (X 92 (Proc.devRef .tc main_v293)))
  i93 : X 94 = StableHlo.after hostOps54 (X 93)
  i94 : X 95 = Function.update (X 94) (Proc.devRef .tc main_v298) (Cert.MMLaw.whole DB none (X 94 (Proc.devRef .tc main_v8)) (X 94 (Proc.devRef .tc main_v296)))
  i95 : X 96 = StableHlo.after hostOps55 (X 95)
  i96 : X 97 = Function.update (X 96) (Proc.devRef .tc main_v302) (Cert.MMLaw.whole DC none (X 96 (Proc.devRef .tc main_v301)) (X 96 (Proc.devRef .tc main_v10)))
  i97 : X 98 = Function.update (X 97) (Proc.devRef .tc main_v303) (Cert.MMLaw.whole DB none (X 97 (Proc.devRef .tc main_v7)) (X 97 (Proc.devRef .tc main_v302)))
  i98 : X 99 = StableHlo.after hostOps57 (X 98)
  i99 : X 100 = Function.update (X 99) (Proc.devRef .tc main_v322) (Cert.MMLaw.whole DB none (X 99 (Proc.devRef .tc main_v9)) (X 99 (Proc.devRef .tc main_v321)))
  i100 : X 101 = StableHlo.after hostOps58 (X 100)
  i101 : X 102 = Function.update (X 101) (Proc.devRef .tc main_v326) (Cert.MMLaw.whole DC none (X 101 (Proc.devRef .tc main_v316)) (X 101 (Proc.devRef .tc main_v14)))
  i102 : X 103 = StableHlo.after hostOps59 (X 102)
  i103 : X 104 = StableHlo.after hostOps59_1 (X 103)
  i104 : X 105 = Function.update (X 104) (Proc.devRef .tc main_v331) (Cert.MMLaw.whole DD none (X 104 (Proc.devRef .tc main_v330)) (X 104 (Proc.devRef .tc main_v16)))
  i105 : X 106 = StableHlo.after hostOps60 (X 105)

variable {X : ℕ → Valuation τ sig (Elt Ideal)} (r : KRun X)
include r

/-! ## What an item keeps, and what a region leaves -/

theorem keep0 {ref : Ref sig .tc} (h : ref ∉ hostOps0_W) : X 1 (Proc.devRef .tc ref) = X 0 (Proc.devRef .tc ref) := by
  rw [r.i0]; exact keep hostOps0 (X 0) h
theorem keep1 {ref : Ref sig .tc} (h : ref ≠ main_v17) : X 2 (Proc.devRef .tc ref) = X 1 (Proc.devRef .tc ref) := by
  rw [r.i1]; exact Function.update_of_ne (devRef_ne_of_ne h) _ _
theorem val1 : X 2 (Proc.devRef .tc main_v17) = Cert.MMLaw.whole DA none (X 1 (Proc.devRef .tc main_arg0)) (X 1 (Proc.devRef .tc main_v12)) := by
  rw [r.i1]; exact Function.update_self _ _ _
theorem keep2 {ref : Ref sig .tc} (h : ref ∉ hostOps1_W) : X 3 (Proc.devRef .tc ref) = X 2 (Proc.devRef .tc ref) := by
  rw [r.i2]; exact keep hostOps1 (X 2) h
theorem keep3 {ref : Ref sig .tc} (h : ref ≠ main_v26) : X 4 (Proc.devRef .tc ref) = X 3 (Proc.devRef .tc ref) := by
  rw [r.i3]; exact Function.update_of_ne (devRef_ne_of_ne h) _ _
theorem val3 : X 4 (Proc.devRef .tc main_v26) = Cert.MMLaw.whole DB none (X 3 (Proc.devRef .tc main_v9)) (X 3 (Proc.devRef .tc main_v25)) := by
  rw [r.i3]; exact Function.update_self _ _ _
theorem keep4 {ref : Ref sig .tc} (h : ref ∉ hostOps2_W) : X 5 (Proc.devRef .tc ref) = X 4 (Proc.devRef .tc ref) := by
  rw [r.i4]; exact keep hostOps2 (X 4) h
theorem keep5 {ref : Ref sig .tc} (h : ref ≠ main_v30) : X 6 (Proc.devRef .tc ref) = X 5 (Proc.devRef .tc ref) := by
  rw [r.i5]; exact Function.update_of_ne (devRef_ne_of_ne h) _ _
theorem val5 : X 6 (Proc.devRef .tc main_v30) = Cert.MMLaw.whole DB none (X 5 (Proc.devRef .tc main_v8)) (X 5 (Proc.devRef .tc main_v20)) := by
  rw [r.i5]; exact Function.update_self _ _ _
theorem keep6 {ref : Ref sig .tc} (h : ref ∉ hostOps3_W) : X 7 (Proc.devRef .tc ref) = X 6 (Proc.devRef .tc ref) := by
  rw [r.i6]; exact keep hostOps3 (X 6) h
theorem keep7 {ref : Ref sig .tc} (h : ref ≠ main_v34) : X 8 (Proc.devRef .tc ref) = X 7 (Proc.devRef .tc ref) := by
  rw [r.i7]; exact Function.update_of_ne (devRef_ne_of_ne h) _ _
theorem val7 : X 8 (Proc.devRef .tc main_v34) = Cert.MMLaw.whole DC none (X 7 (Proc.devRef .tc main_v33)) (X 7 (Proc.devRef .tc main_v10)) := by
  rw [r.i7]; exact Function.update_self _ _ _
theorem keep8 {ref : Ref sig .tc} (h : ref ≠ main_v35) : X 9 (Proc.devRef .tc ref) = X 8 (Proc.devRef .tc ref) := by
  rw [r.i8]; exact Function.update_of_ne (devRef_ne_of_ne h) _ _
theorem val8 : X 9 (Proc.devRef .tc main_v35) = Cert.MMLaw.whole DB none (X 8 (Proc.devRef .tc main_v7)) (X 8 (Proc.devRef .tc main_v34)) := by
  rw [r.i8]; exact Function.update_self _ _ _
theorem keep9 {ref : Ref sig .tc} (h : ref ∉ hostOps5_W) : X 10 (Proc.devRef .tc ref) = X 9 (Proc.devRef .tc ref) := by
  rw [r.i9]; exact keep hostOps5 (X 9) h
theorem keep10 {ref : Ref sig .tc} (h : ref ≠ main_v39) : X 11 (Proc.devRef .tc ref) = X 10 (Proc.devRef .tc ref) := by
  rw [r.i10]; exact Function.update_of_ne (devRef_ne_of_ne h) _ _
theorem val10 : X 11 (Proc.devRef .tc main_v39) = Cert.MMLaw.whole DB none (X 10 (Proc.devRef .tc main_v8)) (X 10 (Proc.devRef .tc main_v37)) := by
  rw [r.i10]; exact Function.update_self _ _ _
theorem keep11 {ref : Ref sig .tc} (h : ref ∉ hostOps6_W) : X 12 (Proc.devRef .tc ref) = X 11 (Proc.devRef .tc ref) := by
  rw [r.i11]; exact keep hostOps6 (X 11) h
theorem keep12 {ref : Ref sig .tc} (h : ref ≠ main_v43) : X 13 (Proc.devRef .tc ref) = X 12 (Proc.devRef .tc ref) := by
  rw [r.i12]; exact Function.update_of_ne (devRef_ne_of_ne h) _ _
theorem val12 : X 13 (Proc.devRef .tc main_v43) = Cert.MMLaw.whole DC none (X 12 (Proc.devRef .tc main_v42)) (X 12 (Proc.devRef .tc main_v10)) := by
  rw [r.i12]; exact Function.update_self _ _ _
theorem keep13 {ref : Ref sig .tc} (h : ref ≠ main_v44) : X 14 (Proc.devRef .tc ref) = X 13 (Proc.devRef .tc ref) := by
  rw [r.i13]; exact Function.update_of_ne (devRef_ne_of_ne h) _ _
theorem val13 : X 14 (Proc.devRef .tc main_v44) = Cert.MMLaw.whole DB none (X 13 (Proc.devRef .tc main_v7)) (X 13 (Proc.devRef .tc main_v43)) := by
  rw [r.i13]; exact Function.update_self _ _ _
theorem keep14 {ref : Ref sig .tc} (h : ref ∉ hostOps8_W) : X 15 (Proc.devRef .tc ref) = X 14 (Proc.devRef .tc ref) := by
  rw [r.i14]; exact keep hostOps8 (X 14) h
theorem keep15 {ref : Ref sig .tc} (h : ref ≠ main_v63) : X 16 (Proc.devRef .tc ref) = X 15 (Proc.devRef .tc ref) := by
  rw [r.i15]; exact Function.update_of_ne (devRef_ne_of_ne h) _ _
theorem val15 : X 16 (Proc.devRef .tc main_v63) = Cert.MMLaw.whole DB none (X 15 (Proc.devRef .tc main_v9)) (X 15 (Proc.devRef .tc main_v62)) := by
  rw [r.i15]; exact Function.update_self _ _ _
theorem keep16 {ref : Ref sig .tc} (h : ref ∉ hostOps9_W) : X 17 (Proc.devRef .tc ref) = X 16 (Proc.devRef .tc ref) := by
  rw [r.i16]; exact keep hostOps9 (X 16) h
theorem keep17 {ref : Ref sig .tc} (h : ref ≠ main_v67) : X 18 (Proc.devRef .tc ref) = X 17 (Proc.devRef .tc ref) := by
  rw [r.i17]; exact Function.update_of_ne (devRef_ne_of_ne h) _ _
theorem val17 : X 18 (Proc.devRef .tc main_v67) = Cert.MMLaw.whole DB none (X 17 (Proc.devRef .tc main_v8)) (X 17 (Proc.devRef .tc main_v57)) := by
  rw [r.i17]; exact Function.update_self _ _ _
theorem keep18 {ref : Ref sig .tc} (h : ref ∉ hostOps10_W) : X 19 (Proc.devRef .tc ref) = X 18 (Proc.devRef .tc ref) := by
  rw [r.i18]; exact keep hostOps10 (X 18) h
theorem keep19 {ref : Ref sig .tc} (h : ref ≠ main_v71) : X 20 (Proc.devRef .tc ref) = X 19 (Proc.devRef .tc ref) := by
  rw [r.i19]; exact Function.update_of_ne (devRef_ne_of_ne h) _ _
theorem val19 : X 20 (Proc.devRef .tc main_v71) = Cert.MMLaw.whole DC none (X 19 (Proc.devRef .tc main_v70)) (X 19 (Proc.devRef .tc main_v10)) := by
  rw [r.i19]; exact Function.update_self _ _ _
theorem keep20 {ref : Ref sig .tc} (h : ref ≠ main_v72) : X 21 (Proc.devRef .tc ref) = X 20 (Proc.devRef .tc ref) := by
  rw [r.i20]; exact Function.update_of_ne (devRef_ne_of_ne h) _ _
theorem val20 : X 21 (Proc.devRef .tc main_v72) = Cert.MMLaw.whole DB none (X 20 (Proc.devRef .tc main_v7)) (X 20 (Proc.devRef .tc main_v71)) := by
  rw [r.i20]; exact Function.update_self _ _ _
theorem keep21 {ref : Ref sig .tc} (h : ref ∉ hostOps12_W) : X 22 (Proc.devRef .tc ref) = X 21 (Proc.devRef .tc ref) := by
  rw [r.i21]; exact keep hostOps12 (X 21) h
theorem keep22 {ref : Ref sig .tc} (h : ref ≠ main_v76) : X 23 (Proc.devRef .tc ref) = X 22 (Proc.devRef .tc ref) := by
  rw [r.i22]; exact Function.update_of_ne (devRef_ne_of_ne h) _ _
theorem val22 : X 23 (Proc.devRef .tc main_v76) = Cert.MMLaw.whole DB none (X 22 (Proc.devRef .tc main_v8)) (X 22 (Proc.devRef .tc main_v74)) := by
  rw [r.i22]; exact Function.update_self _ _ _
theorem keep23 {ref : Ref sig .tc} (h : ref ∉ hostOps13_W) : X 24 (Proc.devRef .tc ref) = X 23 (Proc.devRef .tc ref) := by
  rw [r.i23]; exact keep hostOps13 (X 23) h
theorem keep24 {ref : Ref sig .tc} (h : ref ≠ main_v80) : X 25 (Proc.devRef .tc ref) = X 24 (Proc.devRef .tc ref) := by
  rw [r.i24]; exact Function.update_of_ne (devRef_ne_of_ne h) _ _
theorem val24 : X 25 (Proc.devRef .tc main_v80) = Cert.MMLaw.whole DC none (X 24 (Proc.devRef .tc main_v79)) (X 24 (Proc.devRef .tc main_v10)) := by
  rw [r.i24]; exact Function.update_self _ _ _
theorem keep25 {ref : Ref sig .tc} (h : ref ≠ main_v81) : X 26 (Proc.devRef .tc ref) = X 25 (Proc.devRef .tc ref) := by
  rw [r.i25]; exact Function.update_of_ne (devRef_ne_of_ne h) _ _
theorem val25 : X 26 (Proc.devRef .tc main_v81) = Cert.MMLaw.whole DB none (X 25 (Proc.devRef .tc main_v7)) (X 25 (Proc.devRef .tc main_v80)) := by
  rw [r.i25]; exact Function.update_self _ _ _
theorem keep26 {ref : Ref sig .tc} (h : ref ∉ hostOps15_W) : X 27 (Proc.devRef .tc ref) = X 26 (Proc.devRef .tc ref) := by
  rw [r.i26]; exact keep hostOps15 (X 26) h
theorem keep27 {ref : Ref sig .tc} (h : ref ≠ main_v100) : X 28 (Proc.devRef .tc ref) = X 27 (Proc.devRef .tc ref) := by
  rw [r.i27]; exact Function.update_of_ne (devRef_ne_of_ne h) _ _
theorem val27 : X 28 (Proc.devRef .tc main_v100) = Cert.MMLaw.whole DB none (X 27 (Proc.devRef .tc main_v9)) (X 27 (Proc.devRef .tc main_v99)) := by
  rw [r.i27]; exact Function.update_self _ _ _
theorem keep28 {ref : Ref sig .tc} (h : ref ∉ hostOps16_W) : X 29 (Proc.devRef .tc ref) = X 28 (Proc.devRef .tc ref) := by
  rw [r.i28]; exact keep hostOps16 (X 28) h
theorem keep29 {ref : Ref sig .tc} (h : ref ≠ main_v104) : X 30 (Proc.devRef .tc ref) = X 29 (Proc.devRef .tc ref) := by
  rw [r.i29]; exact Function.update_of_ne (devRef_ne_of_ne h) _ _
theorem val29 : X 30 (Proc.devRef .tc main_v104) = Cert.MMLaw.whole DB none (X 29 (Proc.devRef .tc main_v8)) (X 29 (Proc.devRef .tc main_v94)) := by
  rw [r.i29]; exact Function.update_self _ _ _
theorem keep30 {ref : Ref sig .tc} (h : ref ∉ hostOps17_W) : X 31 (Proc.devRef .tc ref) = X 30 (Proc.devRef .tc ref) := by
  rw [r.i30]; exact keep hostOps17 (X 30) h
theorem keep31 {ref : Ref sig .tc} (h : ref ≠ main_v108) : X 32 (Proc.devRef .tc ref) = X 31 (Proc.devRef .tc ref) := by
  rw [r.i31]; exact Function.update_of_ne (devRef_ne_of_ne h) _ _
theorem val31 : X 32 (Proc.devRef .tc main_v108) = Cert.MMLaw.whole DC none (X 31 (Proc.devRef .tc main_v107)) (X 31 (Proc.devRef .tc main_v10)) := by
  rw [r.i31]; exact Function.update_self _ _ _
theorem keep32 {ref : Ref sig .tc} (h : ref ≠ main_v109) : X 33 (Proc.devRef .tc ref) = X 32 (Proc.devRef .tc ref) := by
  rw [r.i32]; exact Function.update_of_ne (devRef_ne_of_ne h) _ _
theorem val32 : X 33 (Proc.devRef .tc main_v109) = Cert.MMLaw.whole DB none (X 32 (Proc.devRef .tc main_v7)) (X 32 (Proc.devRef .tc main_v108)) := by
  rw [r.i32]; exact Function.update_self _ _ _
theorem keep33 {ref : Ref sig .tc} (h : ref ∉ hostOps19_W) : X 34 (Proc.devRef .tc ref) = X 33 (Proc.devRef .tc ref) := by
  rw [r.i33]; exact keep hostOps19 (X 33) h
theorem keep34 {ref : Ref sig .tc} (h : ref ≠ main_v113) : X 35 (Proc.devRef .tc ref) = X 34 (Proc.devRef .tc ref) := by
  rw [r.i34]; exact Function.update_of_ne (devRef_ne_of_ne h) _ _
theorem val34 : X 35 (Proc.devRef .tc main_v113) = Cert.MMLaw.whole DB none (X 34 (Proc.devRef .tc main_v8)) (X 34 (Proc.devRef .tc main_v111)) := by
  rw [r.i34]; exact Function.update_self _ _ _
theorem keep35 {ref : Ref sig .tc} (h : ref ∉ hostOps20_W) : X 36 (Proc.devRef .tc ref) = X 35 (Proc.devRef .tc ref) := by
  rw [r.i35]; exact keep hostOps20 (X 35) h
theorem keep36 {ref : Ref sig .tc} (h : ref ≠ main_v117) : X 37 (Proc.devRef .tc ref) = X 36 (Proc.devRef .tc ref) := by
  rw [r.i36]; exact Function.update_of_ne (devRef_ne_of_ne h) _ _
theorem val36 : X 37 (Proc.devRef .tc main_v117) = Cert.MMLaw.whole DC none (X 36 (Proc.devRef .tc main_v116)) (X 36 (Proc.devRef .tc main_v10)) := by
  rw [r.i36]; exact Function.update_self _ _ _
theorem keep37 {ref : Ref sig .tc} (h : ref ≠ main_v118) : X 38 (Proc.devRef .tc ref) = X 37 (Proc.devRef .tc ref) := by
  rw [r.i37]; exact Function.update_of_ne (devRef_ne_of_ne h) _ _
theorem val37 : X 38 (Proc.devRef .tc main_v118) = Cert.MMLaw.whole DB none (X 37 (Proc.devRef .tc main_v7)) (X 37 (Proc.devRef .tc main_v117)) := by
  rw [r.i37]; exact Function.update_self _ _ _
theorem keep38 {ref : Ref sig .tc} (h : ref ∉ hostOps22_W) : X 39 (Proc.devRef .tc ref) = X 38 (Proc.devRef .tc ref) := by
  rw [r.i38]; exact keep hostOps22 (X 38) h
theorem keep39 {ref : Ref sig .tc} (h : ref ≠ main_v137) : X 40 (Proc.devRef .tc ref) = X 39 (Proc.devRef .tc ref) := by
  rw [r.i39]; exact Function.update_of_ne (devRef_ne_of_ne h) _ _
theorem val39 : X 40 (Proc.devRef .tc main_v137) = Cert.MMLaw.whole DB none (X 39 (Proc.devRef .tc main_v9)) (X 39 (Proc.devRef .tc main_v136)) := by
  rw [r.i39]; exact Function.update_self _ _ _
theorem keep40 {ref : Ref sig .tc} (h : ref ∉ hostOps23_W) : X 41 (Proc.devRef .tc ref) = X 40 (Proc.devRef .tc ref) := by
  rw [r.i40]; exact keep hostOps23 (X 40) h
theorem keep41 {ref : Ref sig .tc} (h : ref ≠ main_v141) : X 42 (Proc.devRef .tc ref) = X 41 (Proc.devRef .tc ref) := by
  rw [r.i41]; exact Function.update_of_ne (devRef_ne_of_ne h) _ _
theorem val41 : X 42 (Proc.devRef .tc main_v141) = Cert.MMLaw.whole DB none (X 41 (Proc.devRef .tc main_v8)) (X 41 (Proc.devRef .tc main_v131)) := by
  rw [r.i41]; exact Function.update_self _ _ _
theorem keep42 {ref : Ref sig .tc} (h : ref ∉ hostOps24_W) : X 43 (Proc.devRef .tc ref) = X 42 (Proc.devRef .tc ref) := by
  rw [r.i42]; exact keep hostOps24 (X 42) h
theorem keep43 {ref : Ref sig .tc} (h : ref ≠ main_v145) : X 44 (Proc.devRef .tc ref) = X 43 (Proc.devRef .tc ref) := by
  rw [r.i43]; exact Function.update_of_ne (devRef_ne_of_ne h) _ _
theorem val43 : X 44 (Proc.devRef .tc main_v145) = Cert.MMLaw.whole DC none (X 43 (Proc.devRef .tc main_v144)) (X 43 (Proc.devRef .tc main_v10)) := by
  rw [r.i43]; exact Function.update_self _ _ _
theorem keep44 {ref : Ref sig .tc} (h : ref ≠ main_v146) : X 45 (Proc.devRef .tc ref) = X 44 (Proc.devRef .tc ref) := by
  rw [r.i44]; exact Function.update_of_ne (devRef_ne_of_ne h) _ _
theorem val44 : X 45 (Proc.devRef .tc main_v146) = Cert.MMLaw.whole DB none (X 44 (Proc.devRef .tc main_v7)) (X 44 (Proc.devRef .tc main_v145)) := by
  rw [r.i44]; exact Function.update_self _ _ _
theorem keep45 {ref : Ref sig .tc} (h : ref ∉ hostOps26_W) : X 46 (Proc.devRef .tc ref) = X 45 (Proc.devRef .tc ref) := by
  rw [r.i45]; exact keep hostOps26 (X 45) h
theorem keep46 {ref : Ref sig .tc} (h : ref ≠ main_v150) : X 47 (Proc.devRef .tc ref) = X 46 (Proc.devRef .tc ref) := by
  rw [r.i46]; exact Function.update_of_ne (devRef_ne_of_ne h) _ _
theorem val46 : X 47 (Proc.devRef .tc main_v150) = Cert.MMLaw.whole DB none (X 46 (Proc.devRef .tc main_v8)) (X 46 (Proc.devRef .tc main_v148)) := by
  rw [r.i46]; exact Function.update_self _ _ _
theorem keep47 {ref : Ref sig .tc} (h : ref ∉ hostOps27_W) : X 48 (Proc.devRef .tc ref) = X 47 (Proc.devRef .tc ref) := by
  rw [r.i47]; exact keep hostOps27 (X 47) h
theorem keep48 {ref : Ref sig .tc} (h : ref ≠ main_v154) : X 49 (Proc.devRef .tc ref) = X 48 (Proc.devRef .tc ref) := by
  rw [r.i48]; exact Function.update_of_ne (devRef_ne_of_ne h) _ _
theorem val48 : X 49 (Proc.devRef .tc main_v154) = Cert.MMLaw.whole DC none (X 48 (Proc.devRef .tc main_v153)) (X 48 (Proc.devRef .tc main_v10)) := by
  rw [r.i48]; exact Function.update_self _ _ _
theorem keep49 {ref : Ref sig .tc} (h : ref ≠ main_v155) : X 50 (Proc.devRef .tc ref) = X 49 (Proc.devRef .tc ref) := by
  rw [r.i49]; exact Function.update_of_ne (devRef_ne_of_ne h) _ _
theorem val49 : X 50 (Proc.devRef .tc main_v155) = Cert.MMLaw.whole DB none (X 49 (Proc.devRef .tc main_v7)) (X 49 (Proc.devRef .tc main_v154)) := by
  rw [r.i49]; exact Function.update_self _ _ _
theorem keep50 {ref : Ref sig .tc} (h : ref ∉ hostOps29_W) : X 51 (Proc.devRef .tc ref) = X 50 (Proc.devRef .tc ref) := by
  rw [r.i50]; exact keep hostOps29 (X 50) h
theorem keep51 {ref : Ref sig .tc} (h : ref ≠ main_v174) : X 52 (Proc.devRef .tc ref) = X 51 (Proc.devRef .tc ref) := by
  rw [r.i51]; exact Function.update_of_ne (devRef_ne_of_ne h) _ _
theorem val51 : X 52 (Proc.devRef .tc main_v174) = Cert.MMLaw.whole DB none (X 51 (Proc.devRef .tc main_v9)) (X 51 (Proc.devRef .tc main_v173)) := by
  rw [r.i51]; exact Function.update_self _ _ _
theorem keep52 {ref : Ref sig .tc} (h : ref ∉ hostOps30_W) : X 53 (Proc.devRef .tc ref) = X 52 (Proc.devRef .tc ref) := by
  rw [r.i52]; exact keep hostOps30 (X 52) h
theorem keep53 {ref : Ref sig .tc} (h : ref ≠ main_v178) : X 54 (Proc.devRef .tc ref) = X 53 (Proc.devRef .tc ref) := by
  rw [r.i53]; exact Function.update_of_ne (devRef_ne_of_ne h) _ _
theorem val53 : X 54 (Proc.devRef .tc main_v178) = Cert.MMLaw.whole DB none (X 53 (Proc.devRef .tc main_v8)) (X 53 (Proc.devRef .tc main_v168)) := by
  rw [r.i53]; exact Function.update_self _ _ _
theorem keep54 {ref : Ref sig .tc} (h : ref ∉ hostOps31_W) : X 55 (Proc.devRef .tc ref) = X 54 (Proc.devRef .tc ref) := by
  rw [r.i54]; exact keep hostOps31 (X 54) h
theorem keep55 {ref : Ref sig .tc} (h : ref ≠ main_v182) : X 56 (Proc.devRef .tc ref) = X 55 (Proc.devRef .tc ref) := by
  rw [r.i55]; exact Function.update_of_ne (devRef_ne_of_ne h) _ _
theorem val55 : X 56 (Proc.devRef .tc main_v182) = Cert.MMLaw.whole DC none (X 55 (Proc.devRef .tc main_v181)) (X 55 (Proc.devRef .tc main_v10)) := by
  rw [r.i55]; exact Function.update_self _ _ _
theorem keep56 {ref : Ref sig .tc} (h : ref ≠ main_v183) : X 57 (Proc.devRef .tc ref) = X 56 (Proc.devRef .tc ref) := by
  rw [r.i56]; exact Function.update_of_ne (devRef_ne_of_ne h) _ _
theorem val56 : X 57 (Proc.devRef .tc main_v183) = Cert.MMLaw.whole DB none (X 56 (Proc.devRef .tc main_v7)) (X 56 (Proc.devRef .tc main_v182)) := by
  rw [r.i56]; exact Function.update_self _ _ _
theorem keep57 {ref : Ref sig .tc} (h : ref ∉ hostOps33_W) : X 58 (Proc.devRef .tc ref) = X 57 (Proc.devRef .tc ref) := by
  rw [r.i57]; exact keep hostOps33 (X 57) h
theorem keep58 {ref : Ref sig .tc} (h : ref ≠ main_v187) : X 59 (Proc.devRef .tc ref) = X 58 (Proc.devRef .tc ref) := by
  rw [r.i58]; exact Function.update_of_ne (devRef_ne_of_ne h) _ _
theorem val58 : X 59 (Proc.devRef .tc main_v187) = Cert.MMLaw.whole DB none (X 58 (Proc.devRef .tc main_v8)) (X 58 (Proc.devRef .tc main_v185)) := by
  rw [r.i58]; exact Function.update_self _ _ _
theorem keep59 {ref : Ref sig .tc} (h : ref ∉ hostOps34_W) : X 60 (Proc.devRef .tc ref) = X 59 (Proc.devRef .tc ref) := by
  rw [r.i59]; exact keep hostOps34 (X 59) h
theorem keep60 {ref : Ref sig .tc} (h : ref ≠ main_v191) : X 61 (Proc.devRef .tc ref) = X 60 (Proc.devRef .tc ref) := by
  rw [r.i60]; exact Function.update_of_ne (devRef_ne_of_ne h) _ _
theorem val60 : X 61 (Proc.devRef .tc main_v191) = Cert.MMLaw.whole DC none (X 60 (Proc.devRef .tc main_v190)) (X 60 (Proc.devRef .tc main_v10)) := by
  rw [r.i60]; exact Function.update_self _ _ _
theorem keep61 {ref : Ref sig .tc} (h : ref ≠ main_v192) : X 62 (Proc.devRef .tc ref) = X 61 (Proc.devRef .tc ref) := by
  rw [r.i61]; exact Function.update_of_ne (devRef_ne_of_ne h) _ _
theorem val61 : X 62 (Proc.devRef .tc main_v192) = Cert.MMLaw.whole DB none (X 61 (Proc.devRef .tc main_v7)) (X 61 (Proc.devRef .tc main_v191)) := by
  rw [r.i61]; exact Function.update_self _ _ _
theorem keep62 {ref : Ref sig .tc} (h : ref ∉ hostOps36_W) : X 63 (Proc.devRef .tc ref) = X 62 (Proc.devRef .tc ref) := by
  rw [r.i62]; exact keep hostOps36 (X 62) h
theorem keep63 {ref : Ref sig .tc} (h : ref ≠ main_v211) : X 64 (Proc.devRef .tc ref) = X 63 (Proc.devRef .tc ref) := by
  rw [r.i63]; exact Function.update_of_ne (devRef_ne_of_ne h) _ _
theorem val63 : X 64 (Proc.devRef .tc main_v211) = Cert.MMLaw.whole DB none (X 63 (Proc.devRef .tc main_v9)) (X 63 (Proc.devRef .tc main_v210)) := by
  rw [r.i63]; exact Function.update_self _ _ _
theorem keep64 {ref : Ref sig .tc} (h : ref ∉ hostOps37_W) : X 65 (Proc.devRef .tc ref) = X 64 (Proc.devRef .tc ref) := by
  rw [r.i64]; exact keep hostOps37 (X 64) h
theorem keep65 {ref : Ref sig .tc} (h : ref ≠ main_v215) : X 66 (Proc.devRef .tc ref) = X 65 (Proc.devRef .tc ref) := by
  rw [r.i65]; exact Function.update_of_ne (devRef_ne_of_ne h) _ _
theorem val65 : X 66 (Proc.devRef .tc main_v215) = Cert.MMLaw.whole DB none (X 65 (Proc.devRef .tc main_v8)) (X 65 (Proc.devRef .tc main_v205)) := by
  rw [r.i65]; exact Function.update_self _ _ _
theorem keep66 {ref : Ref sig .tc} (h : ref ∉ hostOps38_W) : X 67 (Proc.devRef .tc ref) = X 66 (Proc.devRef .tc ref) := by
  rw [r.i66]; exact keep hostOps38 (X 66) h
theorem keep67 {ref : Ref sig .tc} (h : ref ≠ main_v219) : X 68 (Proc.devRef .tc ref) = X 67 (Proc.devRef .tc ref) := by
  rw [r.i67]; exact Function.update_of_ne (devRef_ne_of_ne h) _ _
theorem val67 : X 68 (Proc.devRef .tc main_v219) = Cert.MMLaw.whole DC none (X 67 (Proc.devRef .tc main_v218)) (X 67 (Proc.devRef .tc main_v10)) := by
  rw [r.i67]; exact Function.update_self _ _ _
theorem keep68 {ref : Ref sig .tc} (h : ref ≠ main_v220) : X 69 (Proc.devRef .tc ref) = X 68 (Proc.devRef .tc ref) := by
  rw [r.i68]; exact Function.update_of_ne (devRef_ne_of_ne h) _ _
theorem val68 : X 69 (Proc.devRef .tc main_v220) = Cert.MMLaw.whole DB none (X 68 (Proc.devRef .tc main_v7)) (X 68 (Proc.devRef .tc main_v219)) := by
  rw [r.i68]; exact Function.update_self _ _ _
theorem keep69 {ref : Ref sig .tc} (h : ref ∉ hostOps40_W) : X 70 (Proc.devRef .tc ref) = X 69 (Proc.devRef .tc ref) := by
  rw [r.i69]; exact keep hostOps40 (X 69) h
theorem keep70 {ref : Ref sig .tc} (h : ref ≠ main_v224) : X 71 (Proc.devRef .tc ref) = X 70 (Proc.devRef .tc ref) := by
  rw [r.i70]; exact Function.update_of_ne (devRef_ne_of_ne h) _ _
theorem val70 : X 71 (Proc.devRef .tc main_v224) = Cert.MMLaw.whole DB none (X 70 (Proc.devRef .tc main_v8)) (X 70 (Proc.devRef .tc main_v222)) := by
  rw [r.i70]; exact Function.update_self _ _ _
theorem keep71 {ref : Ref sig .tc} (h : ref ∉ hostOps41_W) : X 72 (Proc.devRef .tc ref) = X 71 (Proc.devRef .tc ref) := by
  rw [r.i71]; exact keep hostOps41 (X 71) h
theorem keep72 {ref : Ref sig .tc} (h : ref ≠ main_v228) : X 73 (Proc.devRef .tc ref) = X 72 (Proc.devRef .tc ref) := by
  rw [r.i72]; exact Function.update_of_ne (devRef_ne_of_ne h) _ _
theorem val72 : X 73 (Proc.devRef .tc main_v228) = Cert.MMLaw.whole DC none (X 72 (Proc.devRef .tc main_v227)) (X 72 (Proc.devRef .tc main_v10)) := by
  rw [r.i72]; exact Function.update_self _ _ _
theorem keep73 {ref : Ref sig .tc} (h : ref ≠ main_v229) : X 74 (Proc.devRef .tc ref) = X 73 (Proc.devRef .tc ref) := by
  rw [r.i73]; exact Function.update_of_ne (devRef_ne_of_ne h) _ _
theorem val73 : X 74 (Proc.devRef .tc main_v229) = Cert.MMLaw.whole DB none (X 73 (Proc.devRef .tc main_v7)) (X 73 (Proc.devRef .tc main_v228)) := by
  rw [r.i73]; exact Function.update_self _ _ _
theorem keep74 {ref : Ref sig .tc} (h : ref ∉ hostOps43_W) : X 75 (Proc.devRef .tc ref) = X 74 (Proc.devRef .tc ref) := by
  rw [r.i74]; exact keep hostOps43 (X 74) h
theorem keep75 {ref : Ref sig .tc} (h : ref ≠ main_v248) : X 76 (Proc.devRef .tc ref) = X 75 (Proc.devRef .tc ref) := by
  rw [r.i75]; exact Function.update_of_ne (devRef_ne_of_ne h) _ _
theorem val75 : X 76 (Proc.devRef .tc main_v248) = Cert.MMLaw.whole DB none (X 75 (Proc.devRef .tc main_v9)) (X 75 (Proc.devRef .tc main_v247)) := by
  rw [r.i75]; exact Function.update_self _ _ _
theorem keep76 {ref : Ref sig .tc} (h : ref ∉ hostOps44_W) : X 77 (Proc.devRef .tc ref) = X 76 (Proc.devRef .tc ref) := by
  rw [r.i76]; exact keep hostOps44 (X 76) h
theorem keep77 {ref : Ref sig .tc} (h : ref ≠ main_v252) : X 78 (Proc.devRef .tc ref) = X 77 (Proc.devRef .tc ref) := by
  rw [r.i77]; exact Function.update_of_ne (devRef_ne_of_ne h) _ _
theorem val77 : X 78 (Proc.devRef .tc main_v252) = Cert.MMLaw.whole DB none (X 77 (Proc.devRef .tc main_v8)) (X 77 (Proc.devRef .tc main_v242)) := by
  rw [r.i77]; exact Function.update_self _ _ _
theorem keep78 {ref : Ref sig .tc} (h : ref ∉ hostOps45_W) : X 79 (Proc.devRef .tc ref) = X 78 (Proc.devRef .tc ref) := by
  rw [r.i78]; exact keep hostOps45 (X 78) h
theorem keep79 {ref : Ref sig .tc} (h : ref ≠ main_v256) : X 80 (Proc.devRef .tc ref) = X 79 (Proc.devRef .tc ref) := by
  rw [r.i79]; exact Function.update_of_ne (devRef_ne_of_ne h) _ _
theorem val79 : X 80 (Proc.devRef .tc main_v256) = Cert.MMLaw.whole DC none (X 79 (Proc.devRef .tc main_v255)) (X 79 (Proc.devRef .tc main_v10)) := by
  rw [r.i79]; exact Function.update_self _ _ _
theorem keep80 {ref : Ref sig .tc} (h : ref ≠ main_v257) : X 81 (Proc.devRef .tc ref) = X 80 (Proc.devRef .tc ref) := by
  rw [r.i80]; exact Function.update_of_ne (devRef_ne_of_ne h) _ _
theorem val80 : X 81 (Proc.devRef .tc main_v257) = Cert.MMLaw.whole DB none (X 80 (Proc.devRef .tc main_v7)) (X 80 (Proc.devRef .tc main_v256)) := by
  rw [r.i80]; exact Function.update_self _ _ _
theorem keep81 {ref : Ref sig .tc} (h : ref ∉ hostOps47_W) : X 82 (Proc.devRef .tc ref) = X 81 (Proc.devRef .tc ref) := by
  rw [r.i81]; exact keep hostOps47 (X 81) h
theorem keep82 {ref : Ref sig .tc} (h : ref ≠ main_v261) : X 83 (Proc.devRef .tc ref) = X 82 (Proc.devRef .tc ref) := by
  rw [r.i82]; exact Function.update_of_ne (devRef_ne_of_ne h) _ _
theorem val82 : X 83 (Proc.devRef .tc main_v261) = Cert.MMLaw.whole DB none (X 82 (Proc.devRef .tc main_v8)) (X 82 (Proc.devRef .tc main_v259)) := by
  rw [r.i82]; exact Function.update_self _ _ _
theorem keep83 {ref : Ref sig .tc} (h : ref ∉ hostOps48_W) : X 84 (Proc.devRef .tc ref) = X 83 (Proc.devRef .tc ref) := by
  rw [r.i83]; exact keep hostOps48 (X 83) h
theorem keep84 {ref : Ref sig .tc} (h : ref ≠ main_v265) : X 85 (Proc.devRef .tc ref) = X 84 (Proc.devRef .tc ref) := by
  rw [r.i84]; exact Function.update_of_ne (devRef_ne_of_ne h) _ _
theorem val84 : X 85 (Proc.devRef .tc main_v265) = Cert.MMLaw.whole DC none (X 84 (Proc.devRef .tc main_v264)) (X 84 (Proc.devRef .tc main_v10)) := by
  rw [r.i84]; exact Function.update_self _ _ _
theorem keep85 {ref : Ref sig .tc} (h : ref ≠ main_v266) : X 86 (Proc.devRef .tc ref) = X 85 (Proc.devRef .tc ref) := by
  rw [r.i85]; exact Function.update_of_ne (devRef_ne_of_ne h) _ _
theorem val85 : X 86 (Proc.devRef .tc main_v266) = Cert.MMLaw.whole DB none (X 85 (Proc.devRef .tc main_v7)) (X 85 (Proc.devRef .tc main_v265)) := by
  rw [r.i85]; exact Function.update_self _ _ _
theorem keep86 {ref : Ref sig .tc} (h : ref ∉ hostOps50_W) : X 87 (Proc.devRef .tc ref) = X 86 (Proc.devRef .tc ref) := by
  rw [r.i86]; exact keep hostOps50 (X 86) h
theorem keep87 {ref : Ref sig .tc} (h : ref ≠ main_v285) : X 88 (Proc.devRef .tc ref) = X 87 (Proc.devRef .tc ref) := by
  rw [r.i87]; exact Function.update_of_ne (devRef_ne_of_ne h) _ _
theorem val87 : X 88 (Proc.devRef .tc main_v285) = Cert.MMLaw.whole DB none (X 87 (Proc.devRef .tc main_v9)) (X 87 (Proc.devRef .tc main_v284)) := by
  rw [r.i87]; exact Function.update_self _ _ _
theorem keep88 {ref : Ref sig .tc} (h : ref ∉ hostOps51_W) : X 89 (Proc.devRef .tc ref) = X 88 (Proc.devRef .tc ref) := by
  rw [r.i88]; exact keep hostOps51 (X 88) h
theorem keep89 {ref : Ref sig .tc} (h : ref ≠ main_v289) : X 90 (Proc.devRef .tc ref) = X 89 (Proc.devRef .tc ref) := by
  rw [r.i89]; exact Function.update_of_ne (devRef_ne_of_ne h) _ _
theorem val89 : X 90 (Proc.devRef .tc main_v289) = Cert.MMLaw.whole DB none (X 89 (Proc.devRef .tc main_v8)) (X 89 (Proc.devRef .tc main_v279)) := by
  rw [r.i89]; exact Function.update_self _ _ _
theorem keep90 {ref : Ref sig .tc} (h : ref ∉ hostOps52_W) : X 91 (Proc.devRef .tc ref) = X 90 (Proc.devRef .tc ref) := by
  rw [r.i90]; exact keep hostOps52 (X 90) h
theorem keep91 {ref : Ref sig .tc} (h : ref ≠ main_v293) : X 92 (Proc.devRef .tc ref) = X 91 (Proc.devRef .tc ref) := by
  rw [r.i91]; exact Function.update_of_ne (devRef_ne_of_ne h) _ _
theorem val91 : X 92 (Proc.devRef .tc main_v293) = Cert.MMLaw.whole DC none (X 91 (Proc.devRef .tc main_v292)) (X 91 (Proc.devRef .tc main_v10)) := by
  rw [r.i91]; exact Function.update_self _ _ _
theorem keep92 {ref : Ref sig .tc} (h : ref ≠ main_v294) : X 93 (Proc.devRef .tc ref) = X 92 (Proc.devRef .tc ref) := by
  rw [r.i92]; exact Function.update_of_ne (devRef_ne_of_ne h) _ _
theorem val92 : X 93 (Proc.devRef .tc main_v294) = Cert.MMLaw.whole DB none (X 92 (Proc.devRef .tc main_v7)) (X 92 (Proc.devRef .tc main_v293)) := by
  rw [r.i92]; exact Function.update_self _ _ _
theorem keep93 {ref : Ref sig .tc} (h : ref ∉ hostOps54_W) : X 94 (Proc.devRef .tc ref) = X 93 (Proc.devRef .tc ref) := by
  rw [r.i93]; exact keep hostOps54 (X 93) h
theorem keep94 {ref : Ref sig .tc} (h : ref ≠ main_v298) : X 95 (Proc.devRef .tc ref) = X 94 (Proc.devRef .tc ref) := by
  rw [r.i94]; exact Function.update_of_ne (devRef_ne_of_ne h) _ _
theorem val94 : X 95 (Proc.devRef .tc main_v298) = Cert.MMLaw.whole DB none (X 94 (Proc.devRef .tc main_v8)) (X 94 (Proc.devRef .tc main_v296)) := by
  rw [r.i94]; exact Function.update_self _ _ _
theorem keep95 {ref : Ref sig .tc} (h : ref ∉ hostOps55_W) : X 96 (Proc.devRef .tc ref) = X 95 (Proc.devRef .tc ref) := by
  rw [r.i95]; exact keep hostOps55 (X 95) h
theorem keep96 {ref : Ref sig .tc} (h : ref ≠ main_v302) : X 97 (Proc.devRef .tc ref) = X 96 (Proc.devRef .tc ref) := by
  rw [r.i96]; exact Function.update_of_ne (devRef_ne_of_ne h) _ _
theorem val96 : X 97 (Proc.devRef .tc main_v302) = Cert.MMLaw.whole DC none (X 96 (Proc.devRef .tc main_v301)) (X 96 (Proc.devRef .tc main_v10)) := by
  rw [r.i96]; exact Function.update_self _ _ _
theorem keep97 {ref : Ref sig .tc} (h : ref ≠ main_v303) : X 98 (Proc.devRef .tc ref) = X 97 (Proc.devRef .tc ref) := by
  rw [r.i97]; exact Function.update_of_ne (devRef_ne_of_ne h) _ _
theorem val97 : X 98 (Proc.devRef .tc main_v303) = Cert.MMLaw.whole DB none (X 97 (Proc.devRef .tc main_v7)) (X 97 (Proc.devRef .tc main_v302)) := by
  rw [r.i97]; exact Function.update_self _ _ _
theorem keep98 {ref : Ref sig .tc} (h : ref ∉ hostOps57_W) : X 99 (Proc.devRef .tc ref) = X 98 (Proc.devRef .tc ref) := by
  rw [r.i98]; exact keep hostOps57 (X 98) h
theorem keep99 {ref : Ref sig .tc} (h : ref ≠ main_v322) : X 100 (Proc.devRef .tc ref) = X 99 (Proc.devRef .tc ref) := by
  rw [r.i99]; exact Function.update_of_ne (devRef_ne_of_ne h) _ _
theorem val99 : X 100 (Proc.devRef .tc main_v322) = Cert.MMLaw.whole DB none (X 99 (Proc.devRef .tc main_v9)) (X 99 (Proc.devRef .tc main_v321)) := by
  rw [r.i99]; exact Function.update_self _ _ _
theorem keep100 {ref : Ref sig .tc} (h : ref ∉ hostOps58_W) : X 101 (Proc.devRef .tc ref) = X 100 (Proc.devRef .tc ref) := by
  rw [r.i100]; exact keep hostOps58 (X 100) h
theorem keep101 {ref : Ref sig .tc} (h : ref ≠ main_v326) : X 102 (Proc.devRef .tc ref) = X 101 (Proc.devRef .tc ref) := by
  rw [r.i101]; exact Function.update_of_ne (devRef_ne_of_ne h) _ _
theorem val101 : X 102 (Proc.devRef .tc main_v326) = Cert.MMLaw.whole DC none (X 101 (Proc.devRef .tc main_v316)) (X 101 (Proc.devRef .tc main_v14)) := by
  rw [r.i101]; exact Function.update_self _ _ _
theorem keep102 {ref : Ref sig .tc} (h : ref ∉ hostOps59_W) : X 103 (Proc.devRef .tc ref) = X 102 (Proc.devRef .tc ref) := by
  rw [r.i102]; exact keep hostOps59 (X 102) h
theorem keep103 {ref : Ref sig .tc} (h : ref ∉ hostOps59_1_W) : X 104 (Proc.devRef .tc ref) = X 103 (Proc.devRef .tc ref) := by
  rw [r.i103]; exact keep hostOps59_1 (X 103) h
theorem keep104 {ref : Ref sig .tc} (h : ref ≠ main_v331) : X 105 (Proc.devRef .tc ref) = X 104 (Proc.devRef .tc ref) := by
  rw [r.i104]; exact Function.update_of_ne (devRef_ne_of_ne h) _ _
theorem val104 : X 105 (Proc.devRef .tc main_v331) = Cert.MMLaw.whole DD none (X 104 (Proc.devRef .tc main_v330)) (X 104 (Proc.devRef .tc main_v16)) := by
  rw [r.i104]; exact Function.update_self _ _ _
theorem keep105 {ref : Ref sig .tc} (h : ref ∉ hostOps60_W) : X 106 (Proc.devRef .tc ref) = X 105 (Proc.devRef .tc ref) := by
  rw [r.i105]; exact keep hostOps60 (X 105) h

/-! ## Every valuation after the prelude is good -/

theorem good1 : KGood (argsAt (X 0)) (X 1) := by
  rw [r.i0]; exact good_pre (X 0)
theorem good2 : KGood (argsAt (X 0)) (X 2) :=
  (good1 r).of_keep (keep1 r (by decide)) (keep1 r (by decide)) (keep1 r (by decide)) (keep1 r (by decide)) (keep1 r (by decide)) (keep1 r (by decide)) (keep1 r (by decide)) (keep1 r (by decide)) (keep1 r (by decide)) (keep1 r (by decide)) (keep1 r (by decide)) (keep1 r (by decide)) (keep1 r (by decide))
theorem good3 : KGood (argsAt (X 0)) (X 3) :=
  (good2 r).of_keep (keep2 r (by decide)) (keep2 r (by decide)) (keep2 r (by decide)) (keep2 r (by decide)) (keep2 r (by decide)) (keep2 r (by decide)) (keep2 r (by decide)) (keep2 r (by decide)) (keep2 r (by decide)) (keep2 r (by decide)) (keep2 r (by decide)) (keep2 r (by decide)) (keep2 r (by decide))
theorem good4 : KGood (argsAt (X 0)) (X 4) :=
  (good3 r).of_keep (keep3 r (by decide)) (keep3 r (by decide)) (keep3 r (by decide)) (keep3 r (by decide)) (keep3 r (by decide)) (keep3 r (by decide)) (keep3 r (by decide)) (keep3 r (by decide)) (keep3 r (by decide)) (keep3 r (by decide)) (keep3 r (by decide)) (keep3 r (by decide)) (keep3 r (by decide))
theorem good5 : KGood (argsAt (X 0)) (X 5) :=
  (good4 r).of_keep (keep4 r (by decide)) (keep4 r (by decide)) (keep4 r (by decide)) (keep4 r (by decide)) (keep4 r (by decide)) (keep4 r (by decide)) (keep4 r (by decide)) (keep4 r (by decide)) (keep4 r (by decide)) (keep4 r (by decide)) (keep4 r (by decide)) (keep4 r (by decide)) (keep4 r (by decide))
theorem good6 : KGood (argsAt (X 0)) (X 6) :=
  (good5 r).of_keep (keep5 r (by decide)) (keep5 r (by decide)) (keep5 r (by decide)) (keep5 r (by decide)) (keep5 r (by decide)) (keep5 r (by decide)) (keep5 r (by decide)) (keep5 r (by decide)) (keep5 r (by decide)) (keep5 r (by decide)) (keep5 r (by decide)) (keep5 r (by decide)) (keep5 r (by decide))
theorem good7 : KGood (argsAt (X 0)) (X 7) :=
  (good6 r).of_keep (keep6 r (by decide)) (keep6 r (by decide)) (keep6 r (by decide)) (keep6 r (by decide)) (keep6 r (by decide)) (keep6 r (by decide)) (keep6 r (by decide)) (keep6 r (by decide)) (keep6 r (by decide)) (keep6 r (by decide)) (keep6 r (by decide)) (keep6 r (by decide)) (keep6 r (by decide))
theorem good8 : KGood (argsAt (X 0)) (X 8) :=
  (good7 r).of_keep (keep7 r (by decide)) (keep7 r (by decide)) (keep7 r (by decide)) (keep7 r (by decide)) (keep7 r (by decide)) (keep7 r (by decide)) (keep7 r (by decide)) (keep7 r (by decide)) (keep7 r (by decide)) (keep7 r (by decide)) (keep7 r (by decide)) (keep7 r (by decide)) (keep7 r (by decide))
theorem good9 : KGood (argsAt (X 0)) (X 9) :=
  (good8 r).of_keep (keep8 r (by decide)) (keep8 r (by decide)) (keep8 r (by decide)) (keep8 r (by decide)) (keep8 r (by decide)) (keep8 r (by decide)) (keep8 r (by decide)) (keep8 r (by decide)) (keep8 r (by decide)) (keep8 r (by decide)) (keep8 r (by decide)) (keep8 r (by decide)) (keep8 r (by decide))
theorem good10 : KGood (argsAt (X 0)) (X 10) :=
  (good9 r).of_keep (keep9 r (by decide)) (keep9 r (by decide)) (keep9 r (by decide)) (keep9 r (by decide)) (keep9 r (by decide)) (keep9 r (by decide)) (keep9 r (by decide)) (keep9 r (by decide)) (keep9 r (by decide)) (keep9 r (by decide)) (keep9 r (by decide)) (keep9 r (by decide)) (keep9 r (by decide))
theorem good11 : KGood (argsAt (X 0)) (X 11) :=
  (good10 r).of_keep (keep10 r (by decide)) (keep10 r (by decide)) (keep10 r (by decide)) (keep10 r (by decide)) (keep10 r (by decide)) (keep10 r (by decide)) (keep10 r (by decide)) (keep10 r (by decide)) (keep10 r (by decide)) (keep10 r (by decide)) (keep10 r (by decide)) (keep10 r (by decide)) (keep10 r (by decide))
theorem good12 : KGood (argsAt (X 0)) (X 12) :=
  (good11 r).of_keep (keep11 r (by decide)) (keep11 r (by decide)) (keep11 r (by decide)) (keep11 r (by decide)) (keep11 r (by decide)) (keep11 r (by decide)) (keep11 r (by decide)) (keep11 r (by decide)) (keep11 r (by decide)) (keep11 r (by decide)) (keep11 r (by decide)) (keep11 r (by decide)) (keep11 r (by decide))
theorem good13 : KGood (argsAt (X 0)) (X 13) :=
  (good12 r).of_keep (keep12 r (by decide)) (keep12 r (by decide)) (keep12 r (by decide)) (keep12 r (by decide)) (keep12 r (by decide)) (keep12 r (by decide)) (keep12 r (by decide)) (keep12 r (by decide)) (keep12 r (by decide)) (keep12 r (by decide)) (keep12 r (by decide)) (keep12 r (by decide)) (keep12 r (by decide))
theorem good14 : KGood (argsAt (X 0)) (X 14) :=
  (good13 r).of_keep (keep13 r (by decide)) (keep13 r (by decide)) (keep13 r (by decide)) (keep13 r (by decide)) (keep13 r (by decide)) (keep13 r (by decide)) (keep13 r (by decide)) (keep13 r (by decide)) (keep13 r (by decide)) (keep13 r (by decide)) (keep13 r (by decide)) (keep13 r (by decide)) (keep13 r (by decide))
theorem good15 : KGood (argsAt (X 0)) (X 15) :=
  (good14 r).of_keep (keep14 r (by decide)) (keep14 r (by decide)) (keep14 r (by decide)) (keep14 r (by decide)) (keep14 r (by decide)) (keep14 r (by decide)) (keep14 r (by decide)) (keep14 r (by decide)) (keep14 r (by decide)) (keep14 r (by decide)) (keep14 r (by decide)) (keep14 r (by decide)) (keep14 r (by decide))
theorem good16 : KGood (argsAt (X 0)) (X 16) :=
  (good15 r).of_keep (keep15 r (by decide)) (keep15 r (by decide)) (keep15 r (by decide)) (keep15 r (by decide)) (keep15 r (by decide)) (keep15 r (by decide)) (keep15 r (by decide)) (keep15 r (by decide)) (keep15 r (by decide)) (keep15 r (by decide)) (keep15 r (by decide)) (keep15 r (by decide)) (keep15 r (by decide))
theorem good17 : KGood (argsAt (X 0)) (X 17) :=
  (good16 r).of_keep (keep16 r (by decide)) (keep16 r (by decide)) (keep16 r (by decide)) (keep16 r (by decide)) (keep16 r (by decide)) (keep16 r (by decide)) (keep16 r (by decide)) (keep16 r (by decide)) (keep16 r (by decide)) (keep16 r (by decide)) (keep16 r (by decide)) (keep16 r (by decide)) (keep16 r (by decide))
theorem good18 : KGood (argsAt (X 0)) (X 18) :=
  (good17 r).of_keep (keep17 r (by decide)) (keep17 r (by decide)) (keep17 r (by decide)) (keep17 r (by decide)) (keep17 r (by decide)) (keep17 r (by decide)) (keep17 r (by decide)) (keep17 r (by decide)) (keep17 r (by decide)) (keep17 r (by decide)) (keep17 r (by decide)) (keep17 r (by decide)) (keep17 r (by decide))
theorem good19 : KGood (argsAt (X 0)) (X 19) :=
  (good18 r).of_keep (keep18 r (by decide)) (keep18 r (by decide)) (keep18 r (by decide)) (keep18 r (by decide)) (keep18 r (by decide)) (keep18 r (by decide)) (keep18 r (by decide)) (keep18 r (by decide)) (keep18 r (by decide)) (keep18 r (by decide)) (keep18 r (by decide)) (keep18 r (by decide)) (keep18 r (by decide))
theorem good20 : KGood (argsAt (X 0)) (X 20) :=
  (good19 r).of_keep (keep19 r (by decide)) (keep19 r (by decide)) (keep19 r (by decide)) (keep19 r (by decide)) (keep19 r (by decide)) (keep19 r (by decide)) (keep19 r (by decide)) (keep19 r (by decide)) (keep19 r (by decide)) (keep19 r (by decide)) (keep19 r (by decide)) (keep19 r (by decide)) (keep19 r (by decide))
theorem good21 : KGood (argsAt (X 0)) (X 21) :=
  (good20 r).of_keep (keep20 r (by decide)) (keep20 r (by decide)) (keep20 r (by decide)) (keep20 r (by decide)) (keep20 r (by decide)) (keep20 r (by decide)) (keep20 r (by decide)) (keep20 r (by decide)) (keep20 r (by decide)) (keep20 r (by decide)) (keep20 r (by decide)) (keep20 r (by decide)) (keep20 r (by decide))
theorem good22 : KGood (argsAt (X 0)) (X 22) :=
  (good21 r).of_keep (keep21 r (by decide)) (keep21 r (by decide)) (keep21 r (by decide)) (keep21 r (by decide)) (keep21 r (by decide)) (keep21 r (by decide)) (keep21 r (by decide)) (keep21 r (by decide)) (keep21 r (by decide)) (keep21 r (by decide)) (keep21 r (by decide)) (keep21 r (by decide)) (keep21 r (by decide))
theorem good23 : KGood (argsAt (X 0)) (X 23) :=
  (good22 r).of_keep (keep22 r (by decide)) (keep22 r (by decide)) (keep22 r (by decide)) (keep22 r (by decide)) (keep22 r (by decide)) (keep22 r (by decide)) (keep22 r (by decide)) (keep22 r (by decide)) (keep22 r (by decide)) (keep22 r (by decide)) (keep22 r (by decide)) (keep22 r (by decide)) (keep22 r (by decide))
theorem good24 : KGood (argsAt (X 0)) (X 24) :=
  (good23 r).of_keep (keep23 r (by decide)) (keep23 r (by decide)) (keep23 r (by decide)) (keep23 r (by decide)) (keep23 r (by decide)) (keep23 r (by decide)) (keep23 r (by decide)) (keep23 r (by decide)) (keep23 r (by decide)) (keep23 r (by decide)) (keep23 r (by decide)) (keep23 r (by decide)) (keep23 r (by decide))
theorem good25 : KGood (argsAt (X 0)) (X 25) :=
  (good24 r).of_keep (keep24 r (by decide)) (keep24 r (by decide)) (keep24 r (by decide)) (keep24 r (by decide)) (keep24 r (by decide)) (keep24 r (by decide)) (keep24 r (by decide)) (keep24 r (by decide)) (keep24 r (by decide)) (keep24 r (by decide)) (keep24 r (by decide)) (keep24 r (by decide)) (keep24 r (by decide))
theorem good26 : KGood (argsAt (X 0)) (X 26) :=
  (good25 r).of_keep (keep25 r (by decide)) (keep25 r (by decide)) (keep25 r (by decide)) (keep25 r (by decide)) (keep25 r (by decide)) (keep25 r (by decide)) (keep25 r (by decide)) (keep25 r (by decide)) (keep25 r (by decide)) (keep25 r (by decide)) (keep25 r (by decide)) (keep25 r (by decide)) (keep25 r (by decide))
theorem good27 : KGood (argsAt (X 0)) (X 27) :=
  (good26 r).of_keep (keep26 r (by decide)) (keep26 r (by decide)) (keep26 r (by decide)) (keep26 r (by decide)) (keep26 r (by decide)) (keep26 r (by decide)) (keep26 r (by decide)) (keep26 r (by decide)) (keep26 r (by decide)) (keep26 r (by decide)) (keep26 r (by decide)) (keep26 r (by decide)) (keep26 r (by decide))
theorem good28 : KGood (argsAt (X 0)) (X 28) :=
  (good27 r).of_keep (keep27 r (by decide)) (keep27 r (by decide)) (keep27 r (by decide)) (keep27 r (by decide)) (keep27 r (by decide)) (keep27 r (by decide)) (keep27 r (by decide)) (keep27 r (by decide)) (keep27 r (by decide)) (keep27 r (by decide)) (keep27 r (by decide)) (keep27 r (by decide)) (keep27 r (by decide))
theorem good29 : KGood (argsAt (X 0)) (X 29) :=
  (good28 r).of_keep (keep28 r (by decide)) (keep28 r (by decide)) (keep28 r (by decide)) (keep28 r (by decide)) (keep28 r (by decide)) (keep28 r (by decide)) (keep28 r (by decide)) (keep28 r (by decide)) (keep28 r (by decide)) (keep28 r (by decide)) (keep28 r (by decide)) (keep28 r (by decide)) (keep28 r (by decide))
theorem good30 : KGood (argsAt (X 0)) (X 30) :=
  (good29 r).of_keep (keep29 r (by decide)) (keep29 r (by decide)) (keep29 r (by decide)) (keep29 r (by decide)) (keep29 r (by decide)) (keep29 r (by decide)) (keep29 r (by decide)) (keep29 r (by decide)) (keep29 r (by decide)) (keep29 r (by decide)) (keep29 r (by decide)) (keep29 r (by decide)) (keep29 r (by decide))
theorem good31 : KGood (argsAt (X 0)) (X 31) :=
  (good30 r).of_keep (keep30 r (by decide)) (keep30 r (by decide)) (keep30 r (by decide)) (keep30 r (by decide)) (keep30 r (by decide)) (keep30 r (by decide)) (keep30 r (by decide)) (keep30 r (by decide)) (keep30 r (by decide)) (keep30 r (by decide)) (keep30 r (by decide)) (keep30 r (by decide)) (keep30 r (by decide))
theorem good32 : KGood (argsAt (X 0)) (X 32) :=
  (good31 r).of_keep (keep31 r (by decide)) (keep31 r (by decide)) (keep31 r (by decide)) (keep31 r (by decide)) (keep31 r (by decide)) (keep31 r (by decide)) (keep31 r (by decide)) (keep31 r (by decide)) (keep31 r (by decide)) (keep31 r (by decide)) (keep31 r (by decide)) (keep31 r (by decide)) (keep31 r (by decide))
theorem good33 : KGood (argsAt (X 0)) (X 33) :=
  (good32 r).of_keep (keep32 r (by decide)) (keep32 r (by decide)) (keep32 r (by decide)) (keep32 r (by decide)) (keep32 r (by decide)) (keep32 r (by decide)) (keep32 r (by decide)) (keep32 r (by decide)) (keep32 r (by decide)) (keep32 r (by decide)) (keep32 r (by decide)) (keep32 r (by decide)) (keep32 r (by decide))
theorem good34 : KGood (argsAt (X 0)) (X 34) :=
  (good33 r).of_keep (keep33 r (by decide)) (keep33 r (by decide)) (keep33 r (by decide)) (keep33 r (by decide)) (keep33 r (by decide)) (keep33 r (by decide)) (keep33 r (by decide)) (keep33 r (by decide)) (keep33 r (by decide)) (keep33 r (by decide)) (keep33 r (by decide)) (keep33 r (by decide)) (keep33 r (by decide))
theorem good35 : KGood (argsAt (X 0)) (X 35) :=
  (good34 r).of_keep (keep34 r (by decide)) (keep34 r (by decide)) (keep34 r (by decide)) (keep34 r (by decide)) (keep34 r (by decide)) (keep34 r (by decide)) (keep34 r (by decide)) (keep34 r (by decide)) (keep34 r (by decide)) (keep34 r (by decide)) (keep34 r (by decide)) (keep34 r (by decide)) (keep34 r (by decide))
theorem good36 : KGood (argsAt (X 0)) (X 36) :=
  (good35 r).of_keep (keep35 r (by decide)) (keep35 r (by decide)) (keep35 r (by decide)) (keep35 r (by decide)) (keep35 r (by decide)) (keep35 r (by decide)) (keep35 r (by decide)) (keep35 r (by decide)) (keep35 r (by decide)) (keep35 r (by decide)) (keep35 r (by decide)) (keep35 r (by decide)) (keep35 r (by decide))
theorem good37 : KGood (argsAt (X 0)) (X 37) :=
  (good36 r).of_keep (keep36 r (by decide)) (keep36 r (by decide)) (keep36 r (by decide)) (keep36 r (by decide)) (keep36 r (by decide)) (keep36 r (by decide)) (keep36 r (by decide)) (keep36 r (by decide)) (keep36 r (by decide)) (keep36 r (by decide)) (keep36 r (by decide)) (keep36 r (by decide)) (keep36 r (by decide))
theorem good38 : KGood (argsAt (X 0)) (X 38) :=
  (good37 r).of_keep (keep37 r (by decide)) (keep37 r (by decide)) (keep37 r (by decide)) (keep37 r (by decide)) (keep37 r (by decide)) (keep37 r (by decide)) (keep37 r (by decide)) (keep37 r (by decide)) (keep37 r (by decide)) (keep37 r (by decide)) (keep37 r (by decide)) (keep37 r (by decide)) (keep37 r (by decide))
theorem good39 : KGood (argsAt (X 0)) (X 39) :=
  (good38 r).of_keep (keep38 r (by decide)) (keep38 r (by decide)) (keep38 r (by decide)) (keep38 r (by decide)) (keep38 r (by decide)) (keep38 r (by decide)) (keep38 r (by decide)) (keep38 r (by decide)) (keep38 r (by decide)) (keep38 r (by decide)) (keep38 r (by decide)) (keep38 r (by decide)) (keep38 r (by decide))
theorem good40 : KGood (argsAt (X 0)) (X 40) :=
  (good39 r).of_keep (keep39 r (by decide)) (keep39 r (by decide)) (keep39 r (by decide)) (keep39 r (by decide)) (keep39 r (by decide)) (keep39 r (by decide)) (keep39 r (by decide)) (keep39 r (by decide)) (keep39 r (by decide)) (keep39 r (by decide)) (keep39 r (by decide)) (keep39 r (by decide)) (keep39 r (by decide))
theorem good41 : KGood (argsAt (X 0)) (X 41) :=
  (good40 r).of_keep (keep40 r (by decide)) (keep40 r (by decide)) (keep40 r (by decide)) (keep40 r (by decide)) (keep40 r (by decide)) (keep40 r (by decide)) (keep40 r (by decide)) (keep40 r (by decide)) (keep40 r (by decide)) (keep40 r (by decide)) (keep40 r (by decide)) (keep40 r (by decide)) (keep40 r (by decide))
theorem good42 : KGood (argsAt (X 0)) (X 42) :=
  (good41 r).of_keep (keep41 r (by decide)) (keep41 r (by decide)) (keep41 r (by decide)) (keep41 r (by decide)) (keep41 r (by decide)) (keep41 r (by decide)) (keep41 r (by decide)) (keep41 r (by decide)) (keep41 r (by decide)) (keep41 r (by decide)) (keep41 r (by decide)) (keep41 r (by decide)) (keep41 r (by decide))
theorem good43 : KGood (argsAt (X 0)) (X 43) :=
  (good42 r).of_keep (keep42 r (by decide)) (keep42 r (by decide)) (keep42 r (by decide)) (keep42 r (by decide)) (keep42 r (by decide)) (keep42 r (by decide)) (keep42 r (by decide)) (keep42 r (by decide)) (keep42 r (by decide)) (keep42 r (by decide)) (keep42 r (by decide)) (keep42 r (by decide)) (keep42 r (by decide))
theorem good44 : KGood (argsAt (X 0)) (X 44) :=
  (good43 r).of_keep (keep43 r (by decide)) (keep43 r (by decide)) (keep43 r (by decide)) (keep43 r (by decide)) (keep43 r (by decide)) (keep43 r (by decide)) (keep43 r (by decide)) (keep43 r (by decide)) (keep43 r (by decide)) (keep43 r (by decide)) (keep43 r (by decide)) (keep43 r (by decide)) (keep43 r (by decide))
theorem good45 : KGood (argsAt (X 0)) (X 45) :=
  (good44 r).of_keep (keep44 r (by decide)) (keep44 r (by decide)) (keep44 r (by decide)) (keep44 r (by decide)) (keep44 r (by decide)) (keep44 r (by decide)) (keep44 r (by decide)) (keep44 r (by decide)) (keep44 r (by decide)) (keep44 r (by decide)) (keep44 r (by decide)) (keep44 r (by decide)) (keep44 r (by decide))
theorem good46 : KGood (argsAt (X 0)) (X 46) :=
  (good45 r).of_keep (keep45 r (by decide)) (keep45 r (by decide)) (keep45 r (by decide)) (keep45 r (by decide)) (keep45 r (by decide)) (keep45 r (by decide)) (keep45 r (by decide)) (keep45 r (by decide)) (keep45 r (by decide)) (keep45 r (by decide)) (keep45 r (by decide)) (keep45 r (by decide)) (keep45 r (by decide))
theorem good47 : KGood (argsAt (X 0)) (X 47) :=
  (good46 r).of_keep (keep46 r (by decide)) (keep46 r (by decide)) (keep46 r (by decide)) (keep46 r (by decide)) (keep46 r (by decide)) (keep46 r (by decide)) (keep46 r (by decide)) (keep46 r (by decide)) (keep46 r (by decide)) (keep46 r (by decide)) (keep46 r (by decide)) (keep46 r (by decide)) (keep46 r (by decide))
theorem good48 : KGood (argsAt (X 0)) (X 48) :=
  (good47 r).of_keep (keep47 r (by decide)) (keep47 r (by decide)) (keep47 r (by decide)) (keep47 r (by decide)) (keep47 r (by decide)) (keep47 r (by decide)) (keep47 r (by decide)) (keep47 r (by decide)) (keep47 r (by decide)) (keep47 r (by decide)) (keep47 r (by decide)) (keep47 r (by decide)) (keep47 r (by decide))
theorem good49 : KGood (argsAt (X 0)) (X 49) :=
  (good48 r).of_keep (keep48 r (by decide)) (keep48 r (by decide)) (keep48 r (by decide)) (keep48 r (by decide)) (keep48 r (by decide)) (keep48 r (by decide)) (keep48 r (by decide)) (keep48 r (by decide)) (keep48 r (by decide)) (keep48 r (by decide)) (keep48 r (by decide)) (keep48 r (by decide)) (keep48 r (by decide))
theorem good50 : KGood (argsAt (X 0)) (X 50) :=
  (good49 r).of_keep (keep49 r (by decide)) (keep49 r (by decide)) (keep49 r (by decide)) (keep49 r (by decide)) (keep49 r (by decide)) (keep49 r (by decide)) (keep49 r (by decide)) (keep49 r (by decide)) (keep49 r (by decide)) (keep49 r (by decide)) (keep49 r (by decide)) (keep49 r (by decide)) (keep49 r (by decide))
theorem good51 : KGood (argsAt (X 0)) (X 51) :=
  (good50 r).of_keep (keep50 r (by decide)) (keep50 r (by decide)) (keep50 r (by decide)) (keep50 r (by decide)) (keep50 r (by decide)) (keep50 r (by decide)) (keep50 r (by decide)) (keep50 r (by decide)) (keep50 r (by decide)) (keep50 r (by decide)) (keep50 r (by decide)) (keep50 r (by decide)) (keep50 r (by decide))
theorem good52 : KGood (argsAt (X 0)) (X 52) :=
  (good51 r).of_keep (keep51 r (by decide)) (keep51 r (by decide)) (keep51 r (by decide)) (keep51 r (by decide)) (keep51 r (by decide)) (keep51 r (by decide)) (keep51 r (by decide)) (keep51 r (by decide)) (keep51 r (by decide)) (keep51 r (by decide)) (keep51 r (by decide)) (keep51 r (by decide)) (keep51 r (by decide))
theorem good53 : KGood (argsAt (X 0)) (X 53) :=
  (good52 r).of_keep (keep52 r (by decide)) (keep52 r (by decide)) (keep52 r (by decide)) (keep52 r (by decide)) (keep52 r (by decide)) (keep52 r (by decide)) (keep52 r (by decide)) (keep52 r (by decide)) (keep52 r (by decide)) (keep52 r (by decide)) (keep52 r (by decide)) (keep52 r (by decide)) (keep52 r (by decide))
theorem good54 : KGood (argsAt (X 0)) (X 54) :=
  (good53 r).of_keep (keep53 r (by decide)) (keep53 r (by decide)) (keep53 r (by decide)) (keep53 r (by decide)) (keep53 r (by decide)) (keep53 r (by decide)) (keep53 r (by decide)) (keep53 r (by decide)) (keep53 r (by decide)) (keep53 r (by decide)) (keep53 r (by decide)) (keep53 r (by decide)) (keep53 r (by decide))
theorem good55 : KGood (argsAt (X 0)) (X 55) :=
  (good54 r).of_keep (keep54 r (by decide)) (keep54 r (by decide)) (keep54 r (by decide)) (keep54 r (by decide)) (keep54 r (by decide)) (keep54 r (by decide)) (keep54 r (by decide)) (keep54 r (by decide)) (keep54 r (by decide)) (keep54 r (by decide)) (keep54 r (by decide)) (keep54 r (by decide)) (keep54 r (by decide))
theorem good56 : KGood (argsAt (X 0)) (X 56) :=
  (good55 r).of_keep (keep55 r (by decide)) (keep55 r (by decide)) (keep55 r (by decide)) (keep55 r (by decide)) (keep55 r (by decide)) (keep55 r (by decide)) (keep55 r (by decide)) (keep55 r (by decide)) (keep55 r (by decide)) (keep55 r (by decide)) (keep55 r (by decide)) (keep55 r (by decide)) (keep55 r (by decide))
theorem good57 : KGood (argsAt (X 0)) (X 57) :=
  (good56 r).of_keep (keep56 r (by decide)) (keep56 r (by decide)) (keep56 r (by decide)) (keep56 r (by decide)) (keep56 r (by decide)) (keep56 r (by decide)) (keep56 r (by decide)) (keep56 r (by decide)) (keep56 r (by decide)) (keep56 r (by decide)) (keep56 r (by decide)) (keep56 r (by decide)) (keep56 r (by decide))
theorem good58 : KGood (argsAt (X 0)) (X 58) :=
  (good57 r).of_keep (keep57 r (by decide)) (keep57 r (by decide)) (keep57 r (by decide)) (keep57 r (by decide)) (keep57 r (by decide)) (keep57 r (by decide)) (keep57 r (by decide)) (keep57 r (by decide)) (keep57 r (by decide)) (keep57 r (by decide)) (keep57 r (by decide)) (keep57 r (by decide)) (keep57 r (by decide))
theorem good59 : KGood (argsAt (X 0)) (X 59) :=
  (good58 r).of_keep (keep58 r (by decide)) (keep58 r (by decide)) (keep58 r (by decide)) (keep58 r (by decide)) (keep58 r (by decide)) (keep58 r (by decide)) (keep58 r (by decide)) (keep58 r (by decide)) (keep58 r (by decide)) (keep58 r (by decide)) (keep58 r (by decide)) (keep58 r (by decide)) (keep58 r (by decide))
theorem good60 : KGood (argsAt (X 0)) (X 60) :=
  (good59 r).of_keep (keep59 r (by decide)) (keep59 r (by decide)) (keep59 r (by decide)) (keep59 r (by decide)) (keep59 r (by decide)) (keep59 r (by decide)) (keep59 r (by decide)) (keep59 r (by decide)) (keep59 r (by decide)) (keep59 r (by decide)) (keep59 r (by decide)) (keep59 r (by decide)) (keep59 r (by decide))
theorem good61 : KGood (argsAt (X 0)) (X 61) :=
  (good60 r).of_keep (keep60 r (by decide)) (keep60 r (by decide)) (keep60 r (by decide)) (keep60 r (by decide)) (keep60 r (by decide)) (keep60 r (by decide)) (keep60 r (by decide)) (keep60 r (by decide)) (keep60 r (by decide)) (keep60 r (by decide)) (keep60 r (by decide)) (keep60 r (by decide)) (keep60 r (by decide))
theorem good62 : KGood (argsAt (X 0)) (X 62) :=
  (good61 r).of_keep (keep61 r (by decide)) (keep61 r (by decide)) (keep61 r (by decide)) (keep61 r (by decide)) (keep61 r (by decide)) (keep61 r (by decide)) (keep61 r (by decide)) (keep61 r (by decide)) (keep61 r (by decide)) (keep61 r (by decide)) (keep61 r (by decide)) (keep61 r (by decide)) (keep61 r (by decide))
theorem good63 : KGood (argsAt (X 0)) (X 63) :=
  (good62 r).of_keep (keep62 r (by decide)) (keep62 r (by decide)) (keep62 r (by decide)) (keep62 r (by decide)) (keep62 r (by decide)) (keep62 r (by decide)) (keep62 r (by decide)) (keep62 r (by decide)) (keep62 r (by decide)) (keep62 r (by decide)) (keep62 r (by decide)) (keep62 r (by decide)) (keep62 r (by decide))
theorem good64 : KGood (argsAt (X 0)) (X 64) :=
  (good63 r).of_keep (keep63 r (by decide)) (keep63 r (by decide)) (keep63 r (by decide)) (keep63 r (by decide)) (keep63 r (by decide)) (keep63 r (by decide)) (keep63 r (by decide)) (keep63 r (by decide)) (keep63 r (by decide)) (keep63 r (by decide)) (keep63 r (by decide)) (keep63 r (by decide)) (keep63 r (by decide))
theorem good65 : KGood (argsAt (X 0)) (X 65) :=
  (good64 r).of_keep (keep64 r (by decide)) (keep64 r (by decide)) (keep64 r (by decide)) (keep64 r (by decide)) (keep64 r (by decide)) (keep64 r (by decide)) (keep64 r (by decide)) (keep64 r (by decide)) (keep64 r (by decide)) (keep64 r (by decide)) (keep64 r (by decide)) (keep64 r (by decide)) (keep64 r (by decide))
theorem good66 : KGood (argsAt (X 0)) (X 66) :=
  (good65 r).of_keep (keep65 r (by decide)) (keep65 r (by decide)) (keep65 r (by decide)) (keep65 r (by decide)) (keep65 r (by decide)) (keep65 r (by decide)) (keep65 r (by decide)) (keep65 r (by decide)) (keep65 r (by decide)) (keep65 r (by decide)) (keep65 r (by decide)) (keep65 r (by decide)) (keep65 r (by decide))
theorem good67 : KGood (argsAt (X 0)) (X 67) :=
  (good66 r).of_keep (keep66 r (by decide)) (keep66 r (by decide)) (keep66 r (by decide)) (keep66 r (by decide)) (keep66 r (by decide)) (keep66 r (by decide)) (keep66 r (by decide)) (keep66 r (by decide)) (keep66 r (by decide)) (keep66 r (by decide)) (keep66 r (by decide)) (keep66 r (by decide)) (keep66 r (by decide))
theorem good68 : KGood (argsAt (X 0)) (X 68) :=
  (good67 r).of_keep (keep67 r (by decide)) (keep67 r (by decide)) (keep67 r (by decide)) (keep67 r (by decide)) (keep67 r (by decide)) (keep67 r (by decide)) (keep67 r (by decide)) (keep67 r (by decide)) (keep67 r (by decide)) (keep67 r (by decide)) (keep67 r (by decide)) (keep67 r (by decide)) (keep67 r (by decide))
theorem good69 : KGood (argsAt (X 0)) (X 69) :=
  (good68 r).of_keep (keep68 r (by decide)) (keep68 r (by decide)) (keep68 r (by decide)) (keep68 r (by decide)) (keep68 r (by decide)) (keep68 r (by decide)) (keep68 r (by decide)) (keep68 r (by decide)) (keep68 r (by decide)) (keep68 r (by decide)) (keep68 r (by decide)) (keep68 r (by decide)) (keep68 r (by decide))
theorem good70 : KGood (argsAt (X 0)) (X 70) :=
  (good69 r).of_keep (keep69 r (by decide)) (keep69 r (by decide)) (keep69 r (by decide)) (keep69 r (by decide)) (keep69 r (by decide)) (keep69 r (by decide)) (keep69 r (by decide)) (keep69 r (by decide)) (keep69 r (by decide)) (keep69 r (by decide)) (keep69 r (by decide)) (keep69 r (by decide)) (keep69 r (by decide))
theorem good71 : KGood (argsAt (X 0)) (X 71) :=
  (good70 r).of_keep (keep70 r (by decide)) (keep70 r (by decide)) (keep70 r (by decide)) (keep70 r (by decide)) (keep70 r (by decide)) (keep70 r (by decide)) (keep70 r (by decide)) (keep70 r (by decide)) (keep70 r (by decide)) (keep70 r (by decide)) (keep70 r (by decide)) (keep70 r (by decide)) (keep70 r (by decide))
theorem good72 : KGood (argsAt (X 0)) (X 72) :=
  (good71 r).of_keep (keep71 r (by decide)) (keep71 r (by decide)) (keep71 r (by decide)) (keep71 r (by decide)) (keep71 r (by decide)) (keep71 r (by decide)) (keep71 r (by decide)) (keep71 r (by decide)) (keep71 r (by decide)) (keep71 r (by decide)) (keep71 r (by decide)) (keep71 r (by decide)) (keep71 r (by decide))
theorem good73 : KGood (argsAt (X 0)) (X 73) :=
  (good72 r).of_keep (keep72 r (by decide)) (keep72 r (by decide)) (keep72 r (by decide)) (keep72 r (by decide)) (keep72 r (by decide)) (keep72 r (by decide)) (keep72 r (by decide)) (keep72 r (by decide)) (keep72 r (by decide)) (keep72 r (by decide)) (keep72 r (by decide)) (keep72 r (by decide)) (keep72 r (by decide))
theorem good74 : KGood (argsAt (X 0)) (X 74) :=
  (good73 r).of_keep (keep73 r (by decide)) (keep73 r (by decide)) (keep73 r (by decide)) (keep73 r (by decide)) (keep73 r (by decide)) (keep73 r (by decide)) (keep73 r (by decide)) (keep73 r (by decide)) (keep73 r (by decide)) (keep73 r (by decide)) (keep73 r (by decide)) (keep73 r (by decide)) (keep73 r (by decide))
theorem good75 : KGood (argsAt (X 0)) (X 75) :=
  (good74 r).of_keep (keep74 r (by decide)) (keep74 r (by decide)) (keep74 r (by decide)) (keep74 r (by decide)) (keep74 r (by decide)) (keep74 r (by decide)) (keep74 r (by decide)) (keep74 r (by decide)) (keep74 r (by decide)) (keep74 r (by decide)) (keep74 r (by decide)) (keep74 r (by decide)) (keep74 r (by decide))
theorem good76 : KGood (argsAt (X 0)) (X 76) :=
  (good75 r).of_keep (keep75 r (by decide)) (keep75 r (by decide)) (keep75 r (by decide)) (keep75 r (by decide)) (keep75 r (by decide)) (keep75 r (by decide)) (keep75 r (by decide)) (keep75 r (by decide)) (keep75 r (by decide)) (keep75 r (by decide)) (keep75 r (by decide)) (keep75 r (by decide)) (keep75 r (by decide))
theorem good77 : KGood (argsAt (X 0)) (X 77) :=
  (good76 r).of_keep (keep76 r (by decide)) (keep76 r (by decide)) (keep76 r (by decide)) (keep76 r (by decide)) (keep76 r (by decide)) (keep76 r (by decide)) (keep76 r (by decide)) (keep76 r (by decide)) (keep76 r (by decide)) (keep76 r (by decide)) (keep76 r (by decide)) (keep76 r (by decide)) (keep76 r (by decide))
theorem good78 : KGood (argsAt (X 0)) (X 78) :=
  (good77 r).of_keep (keep77 r (by decide)) (keep77 r (by decide)) (keep77 r (by decide)) (keep77 r (by decide)) (keep77 r (by decide)) (keep77 r (by decide)) (keep77 r (by decide)) (keep77 r (by decide)) (keep77 r (by decide)) (keep77 r (by decide)) (keep77 r (by decide)) (keep77 r (by decide)) (keep77 r (by decide))
theorem good79 : KGood (argsAt (X 0)) (X 79) :=
  (good78 r).of_keep (keep78 r (by decide)) (keep78 r (by decide)) (keep78 r (by decide)) (keep78 r (by decide)) (keep78 r (by decide)) (keep78 r (by decide)) (keep78 r (by decide)) (keep78 r (by decide)) (keep78 r (by decide)) (keep78 r (by decide)) (keep78 r (by decide)) (keep78 r (by decide)) (keep78 r (by decide))
theorem good80 : KGood (argsAt (X 0)) (X 80) :=
  (good79 r).of_keep (keep79 r (by decide)) (keep79 r (by decide)) (keep79 r (by decide)) (keep79 r (by decide)) (keep79 r (by decide)) (keep79 r (by decide)) (keep79 r (by decide)) (keep79 r (by decide)) (keep79 r (by decide)) (keep79 r (by decide)) (keep79 r (by decide)) (keep79 r (by decide)) (keep79 r (by decide))
theorem good81 : KGood (argsAt (X 0)) (X 81) :=
  (good80 r).of_keep (keep80 r (by decide)) (keep80 r (by decide)) (keep80 r (by decide)) (keep80 r (by decide)) (keep80 r (by decide)) (keep80 r (by decide)) (keep80 r (by decide)) (keep80 r (by decide)) (keep80 r (by decide)) (keep80 r (by decide)) (keep80 r (by decide)) (keep80 r (by decide)) (keep80 r (by decide))
theorem good82 : KGood (argsAt (X 0)) (X 82) :=
  (good81 r).of_keep (keep81 r (by decide)) (keep81 r (by decide)) (keep81 r (by decide)) (keep81 r (by decide)) (keep81 r (by decide)) (keep81 r (by decide)) (keep81 r (by decide)) (keep81 r (by decide)) (keep81 r (by decide)) (keep81 r (by decide)) (keep81 r (by decide)) (keep81 r (by decide)) (keep81 r (by decide))
theorem good83 : KGood (argsAt (X 0)) (X 83) :=
  (good82 r).of_keep (keep82 r (by decide)) (keep82 r (by decide)) (keep82 r (by decide)) (keep82 r (by decide)) (keep82 r (by decide)) (keep82 r (by decide)) (keep82 r (by decide)) (keep82 r (by decide)) (keep82 r (by decide)) (keep82 r (by decide)) (keep82 r (by decide)) (keep82 r (by decide)) (keep82 r (by decide))
theorem good84 : KGood (argsAt (X 0)) (X 84) :=
  (good83 r).of_keep (keep83 r (by decide)) (keep83 r (by decide)) (keep83 r (by decide)) (keep83 r (by decide)) (keep83 r (by decide)) (keep83 r (by decide)) (keep83 r (by decide)) (keep83 r (by decide)) (keep83 r (by decide)) (keep83 r (by decide)) (keep83 r (by decide)) (keep83 r (by decide)) (keep83 r (by decide))
theorem good85 : KGood (argsAt (X 0)) (X 85) :=
  (good84 r).of_keep (keep84 r (by decide)) (keep84 r (by decide)) (keep84 r (by decide)) (keep84 r (by decide)) (keep84 r (by decide)) (keep84 r (by decide)) (keep84 r (by decide)) (keep84 r (by decide)) (keep84 r (by decide)) (keep84 r (by decide)) (keep84 r (by decide)) (keep84 r (by decide)) (keep84 r (by decide))
theorem good86 : KGood (argsAt (X 0)) (X 86) :=
  (good85 r).of_keep (keep85 r (by decide)) (keep85 r (by decide)) (keep85 r (by decide)) (keep85 r (by decide)) (keep85 r (by decide)) (keep85 r (by decide)) (keep85 r (by decide)) (keep85 r (by decide)) (keep85 r (by decide)) (keep85 r (by decide)) (keep85 r (by decide)) (keep85 r (by decide)) (keep85 r (by decide))
theorem good87 : KGood (argsAt (X 0)) (X 87) :=
  (good86 r).of_keep (keep86 r (by decide)) (keep86 r (by decide)) (keep86 r (by decide)) (keep86 r (by decide)) (keep86 r (by decide)) (keep86 r (by decide)) (keep86 r (by decide)) (keep86 r (by decide)) (keep86 r (by decide)) (keep86 r (by decide)) (keep86 r (by decide)) (keep86 r (by decide)) (keep86 r (by decide))
theorem good88 : KGood (argsAt (X 0)) (X 88) :=
  (good87 r).of_keep (keep87 r (by decide)) (keep87 r (by decide)) (keep87 r (by decide)) (keep87 r (by decide)) (keep87 r (by decide)) (keep87 r (by decide)) (keep87 r (by decide)) (keep87 r (by decide)) (keep87 r (by decide)) (keep87 r (by decide)) (keep87 r (by decide)) (keep87 r (by decide)) (keep87 r (by decide))
theorem good89 : KGood (argsAt (X 0)) (X 89) :=
  (good88 r).of_keep (keep88 r (by decide)) (keep88 r (by decide)) (keep88 r (by decide)) (keep88 r (by decide)) (keep88 r (by decide)) (keep88 r (by decide)) (keep88 r (by decide)) (keep88 r (by decide)) (keep88 r (by decide)) (keep88 r (by decide)) (keep88 r (by decide)) (keep88 r (by decide)) (keep88 r (by decide))
theorem good90 : KGood (argsAt (X 0)) (X 90) :=
  (good89 r).of_keep (keep89 r (by decide)) (keep89 r (by decide)) (keep89 r (by decide)) (keep89 r (by decide)) (keep89 r (by decide)) (keep89 r (by decide)) (keep89 r (by decide)) (keep89 r (by decide)) (keep89 r (by decide)) (keep89 r (by decide)) (keep89 r (by decide)) (keep89 r (by decide)) (keep89 r (by decide))
theorem good91 : KGood (argsAt (X 0)) (X 91) :=
  (good90 r).of_keep (keep90 r (by decide)) (keep90 r (by decide)) (keep90 r (by decide)) (keep90 r (by decide)) (keep90 r (by decide)) (keep90 r (by decide)) (keep90 r (by decide)) (keep90 r (by decide)) (keep90 r (by decide)) (keep90 r (by decide)) (keep90 r (by decide)) (keep90 r (by decide)) (keep90 r (by decide))
theorem good92 : KGood (argsAt (X 0)) (X 92) :=
  (good91 r).of_keep (keep91 r (by decide)) (keep91 r (by decide)) (keep91 r (by decide)) (keep91 r (by decide)) (keep91 r (by decide)) (keep91 r (by decide)) (keep91 r (by decide)) (keep91 r (by decide)) (keep91 r (by decide)) (keep91 r (by decide)) (keep91 r (by decide)) (keep91 r (by decide)) (keep91 r (by decide))
theorem good93 : KGood (argsAt (X 0)) (X 93) :=
  (good92 r).of_keep (keep92 r (by decide)) (keep92 r (by decide)) (keep92 r (by decide)) (keep92 r (by decide)) (keep92 r (by decide)) (keep92 r (by decide)) (keep92 r (by decide)) (keep92 r (by decide)) (keep92 r (by decide)) (keep92 r (by decide)) (keep92 r (by decide)) (keep92 r (by decide)) (keep92 r (by decide))
theorem good94 : KGood (argsAt (X 0)) (X 94) :=
  (good93 r).of_keep (keep93 r (by decide)) (keep93 r (by decide)) (keep93 r (by decide)) (keep93 r (by decide)) (keep93 r (by decide)) (keep93 r (by decide)) (keep93 r (by decide)) (keep93 r (by decide)) (keep93 r (by decide)) (keep93 r (by decide)) (keep93 r (by decide)) (keep93 r (by decide)) (keep93 r (by decide))
theorem good95 : KGood (argsAt (X 0)) (X 95) :=
  (good94 r).of_keep (keep94 r (by decide)) (keep94 r (by decide)) (keep94 r (by decide)) (keep94 r (by decide)) (keep94 r (by decide)) (keep94 r (by decide)) (keep94 r (by decide)) (keep94 r (by decide)) (keep94 r (by decide)) (keep94 r (by decide)) (keep94 r (by decide)) (keep94 r (by decide)) (keep94 r (by decide))
theorem good96 : KGood (argsAt (X 0)) (X 96) :=
  (good95 r).of_keep (keep95 r (by decide)) (keep95 r (by decide)) (keep95 r (by decide)) (keep95 r (by decide)) (keep95 r (by decide)) (keep95 r (by decide)) (keep95 r (by decide)) (keep95 r (by decide)) (keep95 r (by decide)) (keep95 r (by decide)) (keep95 r (by decide)) (keep95 r (by decide)) (keep95 r (by decide))
theorem good97 : KGood (argsAt (X 0)) (X 97) :=
  (good96 r).of_keep (keep96 r (by decide)) (keep96 r (by decide)) (keep96 r (by decide)) (keep96 r (by decide)) (keep96 r (by decide)) (keep96 r (by decide)) (keep96 r (by decide)) (keep96 r (by decide)) (keep96 r (by decide)) (keep96 r (by decide)) (keep96 r (by decide)) (keep96 r (by decide)) (keep96 r (by decide))
theorem good98 : KGood (argsAt (X 0)) (X 98) :=
  (good97 r).of_keep (keep97 r (by decide)) (keep97 r (by decide)) (keep97 r (by decide)) (keep97 r (by decide)) (keep97 r (by decide)) (keep97 r (by decide)) (keep97 r (by decide)) (keep97 r (by decide)) (keep97 r (by decide)) (keep97 r (by decide)) (keep97 r (by decide)) (keep97 r (by decide)) (keep97 r (by decide))
theorem good99 : KGood (argsAt (X 0)) (X 99) :=
  (good98 r).of_keep (keep98 r (by decide)) (keep98 r (by decide)) (keep98 r (by decide)) (keep98 r (by decide)) (keep98 r (by decide)) (keep98 r (by decide)) (keep98 r (by decide)) (keep98 r (by decide)) (keep98 r (by decide)) (keep98 r (by decide)) (keep98 r (by decide)) (keep98 r (by decide)) (keep98 r (by decide))
theorem good100 : KGood (argsAt (X 0)) (X 100) :=
  (good99 r).of_keep (keep99 r (by decide)) (keep99 r (by decide)) (keep99 r (by decide)) (keep99 r (by decide)) (keep99 r (by decide)) (keep99 r (by decide)) (keep99 r (by decide)) (keep99 r (by decide)) (keep99 r (by decide)) (keep99 r (by decide)) (keep99 r (by decide)) (keep99 r (by decide)) (keep99 r (by decide))
theorem good101 : KGood (argsAt (X 0)) (X 101) :=
  (good100 r).of_keep (keep100 r (by decide)) (keep100 r (by decide)) (keep100 r (by decide)) (keep100 r (by decide)) (keep100 r (by decide)) (keep100 r (by decide)) (keep100 r (by decide)) (keep100 r (by decide)) (keep100 r (by decide)) (keep100 r (by decide)) (keep100 r (by decide)) (keep100 r (by decide)) (keep100 r (by decide))
theorem good102 : KGood (argsAt (X 0)) (X 102) :=
  (good101 r).of_keep (keep101 r (by decide)) (keep101 r (by decide)) (keep101 r (by decide)) (keep101 r (by decide)) (keep101 r (by decide)) (keep101 r (by decide)) (keep101 r (by decide)) (keep101 r (by decide)) (keep101 r (by decide)) (keep101 r (by decide)) (keep101 r (by decide)) (keep101 r (by decide)) (keep101 r (by decide))
theorem good103 : KGood (argsAt (X 0)) (X 103) :=
  (good102 r).of_keep (keep102 r (by decide)) (keep102 r (by decide)) (keep102 r (by decide)) (keep102 r (by decide)) (keep102 r (by decide)) (keep102 r (by decide)) (keep102 r (by decide)) (keep102 r (by decide)) (keep102 r (by decide)) (keep102 r (by decide)) (keep102 r (by decide)) (keep102 r (by decide)) (keep102 r (by decide))
theorem good104 : KGood (argsAt (X 0)) (X 104) :=
  (good103 r).of_keep (keep103 r (by decide)) (keep103 r (by decide)) (keep103 r (by decide)) (keep103 r (by decide)) (keep103 r (by decide)) (keep103 r (by decide)) (keep103 r (by decide)) (keep103 r (by decide)) (keep103 r (by decide)) (keep103 r (by decide)) (keep103 r (by decide)) (keep103 r (by decide)) (keep103 r (by decide))
theorem good105 : KGood (argsAt (X 0)) (X 105) :=
  (good104 r).of_keep (keep104 r (by decide)) (keep104 r (by decide)) (keep104 r (by decide)) (keep104 r (by decide)) (keep104 r (by decide)) (keep104 r (by decide)) (keep104 r (by decide)) (keep104 r (by decide)) (keep104 r (by decide)) (keep104 r (by decide)) (keep104 r (by decide)) (keep104 r (by decide)) (keep104 r (by decide))
theorem good106 : KGood (argsAt (X 0)) (X 106) :=
  (good105 r).of_keep (keep105 r (by decide)) (keep105 r (by decide)) (keep105 r (by decide)) (keep105 r (by decide)) (keep105 r (by decide)) (keep105 r (by decide)) (keep105 r (by decide)) (keep105 r (by decide)) (keep105 r (by decide)) (keep105 r (by decide)) (keep105 r (by decide)) (keep105 r (by decide)) (keep105 r (by decide))

end Cert.KValues

end
-- ==== Proof.KStageN.lean ====
import proofs.«158944_j64613488001249_1_alg».proof.Proof.KStage

/-! The host stretches inside Heun steps 2 to 8 and the energies of states 2 to 8: the text of step 1 at the
reference numbers of the others (37 further a step) and the stretch numbers of the others (7 further a step). -/

set_option maxRecDepth 16384

noncomputable section

namespace Cert.KValues

open Cert.KernelIdeal Cert.KernelIdeal.Gen Cert.KernelIdeal.GenP
open Idealize.ShloMosaic Idealize.ShloMosaic.TcCoe Idealize.SL.Sem Idealize.ShloMosaic.StableHlo

variable {F : FTy → Type} [FloatOps F] [Cert.ReferenceIdeal.Facts]

/-! ## Step 2 -/

/-- The spectrum spread across the columns times the product Vh · h. -/
theorem s2_mulA (V : Valuation τ sig (Elt F)) :
    after hostOps10 V (Proc.devRef .tc main_v70) = mulf (Cert.Spec.spB (V (Proc.devRef .tc main_v6))) (V (Proc.devRef .tc main_v67)) := by
  after_results_simp; rfl

/-- The first slope: minus the operator's value. -/
theorem s2_k0 (V : Valuation τ sig (Elt F)) :
    after hostOps12 V (Proc.devRef .tc main_v74) = Cert.Spec.k0Of (V (Proc.devRef .tc main_v72)) := by
  after_results_simp; rfl

/-- The step size times one. -/
theorem s2_ss1 (V : Valuation τ sig (Elt F)) :
    after hostOps12 V (Proc.devRef .tc main_v75) = mulf (V (Proc.devRef .tc main_v0)) Cert.Spec.c1 := by
  after_results_simp; rfl

/-- The spectrum spread across the columns times the product Vh · K0. -/
theorem s2_mulB (V : Valuation τ sig (Elt F)) :
    after hostOps13 V (Proc.devRef .tc main_v79) = mulf (Cert.Spec.spB (V (Proc.devRef .tc main_v6))) (V (Proc.devRef .tc main_v76)) := by
  after_results_simp; rfl

/-- The next state: the state plus the step size times the mean of the two slopes. -/
theorem s2_h (V : Valuation τ sig (Elt F)) {step : Vec F Cert.ReferenceIdeal.S1 .f32} {h L0 K0 LK : Vec F Cert.ReferenceIdeal.S4096x512 .f32}
    (hs : V (Proc.devRef .tc main_v0) = Cert.Spec.scal step) (hh : V (Proc.devRef .tc main_v57) = h)
    (hL : V (Proc.devRef .tc main_v72) = L0) (hK : V (Proc.devRef .tc main_v74) = K0)
    (h1 : V (Proc.devRef .tc main_v75) = mulf (Cert.Spec.scal step) Cert.Spec.c1) (hLK : V (Proc.devRef .tc main_v81) = LK) :
    after hostOps15 V (Proc.devRef .tc main_v94)
      = Cert.Spec.combOf step h K0
          (mulf (Cert.Spec.bc0 Cert.Spec.cNeg1) (addf L0 (mulf (Cert.Spec.bc0 (mulf (Cert.Spec.scal step) Cert.Spec.c1)) LK))) := by
  after_results_simp
  rw [hs, hh, hL, hK, h1, hLK]
  rfl

/-- The next state divided by its norm. -/
theorem s2_hn (V : Valuation τ sig (Elt F)) :
    after hostOps15 V (Proc.devRef .tc main_v99) = Cert.Spec.hnOf (after hostOps15 V (Proc.devRef .tc main_v94)) := by
  after_results_simp; rfl

/-- The energy of the next state. -/
theorem s2_e (V : Valuation τ sig (Elt F)) {snl : Vec F Cert.ReferenceIdeal.S4096x4096 .f32} {h : Vec F Cert.ReferenceIdeal.S4096x512 .f32}
    (hp : V (Proc.devRef .tc main_v100) = mmB snl (Cert.Spec.hnOf h))
    (hn : V (Proc.devRef .tc main_v99) = Cert.Spec.hnOf h) :
    after hostOps16 V (Proc.devRef .tc main_v103) = Cert.Spec.energyOf snl h := by
  after_results_simp
  rw [hp, hn]
  rfl

/-! ## Step 3 -/

/-- The spectrum spread across the columns times the product Vh · h. -/
theorem s3_mulA (V : Valuation τ sig (Elt F)) :
    after hostOps17 V (Proc.devRef .tc main_v107) = mulf (Cert.Spec.spB (V (Proc.devRef .tc main_v6))) (V (Proc.devRef .tc main_v104)) := by
  after_results_simp; rfl

/-- The first slope: minus the operator's value. -/
theorem s3_k0 (V : Valuation τ sig (Elt F)) :
    after hostOps19 V (Proc.devRef .tc main_v111) = Cert.Spec.k0Of (V (Proc.devRef .tc main_v109)) := by
  after_results_simp; rfl

/-- The step size times one. -/
theorem s3_ss1 (V : Valuation τ sig (Elt F)) :
    after hostOps19 V (Proc.devRef .tc main_v112) = mulf (V (Proc.devRef .tc main_v0)) Cert.Spec.c1 := by
  after_results_simp; rfl

/-- The spectrum spread across the columns times the product Vh · K0. -/
theorem s3_mulB (V : Valuation τ sig (Elt F)) :
    after hostOps20 V (Proc.devRef .tc main_v116) = mulf (Cert.Spec.spB (V (Proc.devRef .tc main_v6))) (V (Proc.devRef .tc main_v113)) := by
  after_results_simp; rfl

/-- The next state: the state plus the step size times the mean of the two slopes. -/
theorem s3_h (V : Valuation τ sig (Elt F)) {step : Vec F Cert.ReferenceIdeal.S1 .f32} {h L0 K0 LK : Vec F Cert.ReferenceIdeal.S4096x512 .f32}
    (hs : V (Proc.devRef .tc main_v0) = Cert.Spec.scal step) (hh : V (Proc.devRef .tc main_v94) = h)
    (hL : V (Proc.devRef .tc main_v109) = L0) (hK : V (Proc.devRef .tc main_v111) = K0)
    (h1 : V (Proc.devRef .tc main_v112) = mulf (Cert.Spec.scal step) Cert.Spec.c1) (hLK : V (Proc.devRef .tc main_v118) = LK) :
    after hostOps22 V (Proc.devRef .tc main_v131)
      = Cert.Spec.combOf step h K0
          (mulf (Cert.Spec.bc0 Cert.Spec.cNeg1) (addf L0 (mulf (Cert.Spec.bc0 (mulf (Cert.Spec.scal step) Cert.Spec.c1)) LK))) := by
  after_results_simp
  rw [hs, hh, hL, hK, h1, hLK]
  rfl

/-- The next state divided by its norm. -/
theorem s3_hn (V : Valuation τ sig (Elt F)) :
    after hostOps22 V (Proc.devRef .tc main_v136) = Cert.Spec.hnOf (after hostOps22 V (Proc.devRef .tc main_v131)) := by
  after_results_simp; rfl

/-- The energy of the next state. -/
theorem s3_e (V : Valuation τ sig (Elt F)) {snl : Vec F Cert.ReferenceIdeal.S4096x4096 .f32} {h : Vec F Cert.ReferenceIdeal.S4096x512 .f32}
    (hp : V (Proc.devRef .tc main_v137) = mmB snl (Cert.Spec.hnOf h))
    (hn : V (Proc.devRef .tc main_v136) = Cert.Spec.hnOf h) :
    after hostOps23 V (Proc.devRef .tc main_v140) = Cert.Spec.energyOf snl h := by
  after_results_simp
  rw [hp, hn]
  rfl

/-! ## Step 4 -/

/-- The spectrum spread across the columns times the product Vh · h. -/
theorem s4_mulA (V : Valuation τ sig (Elt F)) :
    after hostOps24 V (Proc.devRef .tc main_v144) = mulf (Cert.Spec.spB (V (Proc.devRef .tc main_v6))) (V (Proc.devRef .tc main_v141)) := by
  after_results_simp; rfl

/-- The first slope: minus the operator's value. -/
theorem s4_k0 (V : Valuation τ sig (Elt F)) :
    after hostOps26 V (Proc.devRef .tc main_v148) = Cert.Spec.k0Of (V (Proc.devRef .tc main_v146)) := by
  after_results_simp; rfl

/-- The step size times one. -/
theorem s4_ss1 (V : Valuation τ sig (Elt F)) :
    after hostOps26 V (Proc.devRef .tc main_v149) = mulf (V (Proc.devRef .tc main_v0)) Cert.Spec.c1 := by
  after_results_simp; rfl

/-- The spectrum spread across the columns times the product Vh · K0. -/
theorem s4_mulB (V : Valuation τ sig (Elt F)) :
    after hostOps27 V (Proc.devRef .tc main_v153) = mulf (Cert.Spec.spB (V (Proc.devRef .tc main_v6))) (V (Proc.devRef .tc main_v150)) := by
  after_results_simp; rfl

/-- The next state: the state plus the step size times the mean of the two slopes. -/
theorem s4_h (V : Valuation τ sig (Elt F)) {step : Vec F Cert.ReferenceIdeal.S1 .f32} {h L0 K0 LK : Vec F Cert.ReferenceIdeal.S4096x512 .f32}
    (hs : V (Proc.devRef .tc main_v0) = Cert.Spec.scal step) (hh : V (Proc.devRef .tc main_v131) = h)
    (hL : V (Proc.devRef .tc main_v146) = L0) (hK : V (Proc.devRef .tc main_v148) = K0)
    (h1 : V (Proc.devRef .tc main_v149) = mulf (Cert.Spec.scal step) Cert.Spec.c1) (hLK : V (Proc.devRef .tc main_v155) = LK) :
    after hostOps29 V (Proc.devRef .tc main_v168)
      = Cert.Spec.combOf step h K0
          (mulf (Cert.Spec.bc0 Cert.Spec.cNeg1) (addf L0 (mulf (Cert.Spec.bc0 (mulf (Cert.Spec.scal step) Cert.Spec.c1)) LK))) := by
  after_results_simp
  rw [hs, hh, hL, hK, h1, hLK]
  rfl

/-- The next state divided by its norm. -/
theorem s4_hn (V : Valuation τ sig (Elt F)) :
    after hostOps29 V (Proc.devRef .tc main_v173) = Cert.Spec.hnOf (after hostOps29 V (Proc.devRef .tc main_v168)) := by
  after_results_simp; rfl

/-- The energy of the next state. -/
theorem s4_e (V : Valuation τ sig (Elt F)) {snl : Vec F Cert.ReferenceIdeal.S4096x4096 .f32} {h : Vec F Cert.ReferenceIdeal.S4096x512 .f32}
    (hp : V (Proc.devRef .tc main_v174) = mmB snl (Cert.Spec.hnOf h))
    (hn : V (Proc.devRef .tc main_v173) = Cert.Spec.hnOf h) :
    after hostOps30 V (Proc.devRef .tc main_v177) = Cert.Spec.energyOf snl h := by
  after_results_simp
  rw [hp, hn]
  rfl

/-! ## Step 5 -/

/-- The spectrum spread across the columns times the product Vh · h. -/
theorem s5_mulA (V : Valuation τ sig (Elt F)) :
    after hostOps31 V (Proc.devRef .tc main_v181) = mulf (Cert.Spec.spB (V (Proc.devRef .tc main_v6))) (V (Proc.devRef .tc main_v178)) := by
  after_results_simp; rfl

/-- The first slope: minus the operator's value. -/
theorem s5_k0 (V : Valuation τ sig (Elt F)) :
    after hostOps33 V (Proc.devRef .tc main_v185) = Cert.Spec.k0Of (V (Proc.devRef .tc main_v183)) := by
  after_results_simp; rfl

/-- The step size times one. -/
theorem s5_ss1 (V : Valuation τ sig (Elt F)) :
    after hostOps33 V (Proc.devRef .tc main_v186) = mulf (V (Proc.devRef .tc main_v0)) Cert.Spec.c1 := by
  after_results_simp; rfl

/-- The spectrum spread across the columns times the product Vh · K0. -/
theorem s5_mulB (V : Valuation τ sig (Elt F)) :
    after hostOps34 V (Proc.devRef .tc main_v190) = mulf (Cert.Spec.spB (V (Proc.devRef .tc main_v6))) (V (Proc.devRef .tc main_v187)) := by
  after_results_simp; rfl

/-- The next state: the state plus the step size times the mean of the two slopes. -/
theorem s5_h (V : Valuation τ sig (Elt F)) {step : Vec F Cert.ReferenceIdeal.S1 .f32} {h L0 K0 LK : Vec F Cert.ReferenceIdeal.S4096x512 .f32}
    (hs : V (Proc.devRef .tc main_v0) = Cert.Spec.scal step) (hh : V (Proc.devRef .tc main_v168) = h)
    (hL : V (Proc.devRef .tc main_v183) = L0) (hK : V (Proc.devRef .tc main_v185) = K0)
    (h1 : V (Proc.devRef .tc main_v186) = mulf (Cert.Spec.scal step) Cert.Spec.c1) (hLK : V (Proc.devRef .tc main_v192) = LK) :
    after hostOps36 V (Proc.devRef .tc main_v205)
      = Cert.Spec.combOf step h K0
          (mulf (Cert.Spec.bc0 Cert.Spec.cNeg1) (addf L0 (mulf (Cert.Spec.bc0 (mulf (Cert.Spec.scal step) Cert.Spec.c1)) LK))) := by
  after_results_simp
  rw [hs, hh, hL, hK, h1, hLK]
  rfl

/-- The next state divided by its norm. -/
theorem s5_hn (V : Valuation τ sig (Elt F)) :
    after hostOps36 V (Proc.devRef .tc main_v210) = Cert.Spec.hnOf (after hostOps36 V (Proc.devRef .tc main_v205)) := by
  after_results_simp; rfl

/-- The energy of the next state. -/
theorem s5_e (V : Valuation τ sig (Elt F)) {snl : Vec F Cert.ReferenceIdeal.S4096x4096 .f32} {h : Vec F Cert.ReferenceIdeal.S4096x512 .f32}
    (hp : V (Proc.devRef .tc main_v211) = mmB snl (Cert.Spec.hnOf h))
    (hn : V (Proc.devRef .tc main_v210) = Cert.Spec.hnOf h) :
    after hostOps37 V (Proc.devRef .tc main_v214) = Cert.Spec.energyOf snl h := by
  after_results_simp
  rw [hp, hn]
  rfl

/-! ## Step 6 -/

/-- The spectrum spread across the columns times the product Vh · h. -/
theorem s6_mulA (V : Valuation τ sig (Elt F)) :
    after hostOps38 V (Proc.devRef .tc main_v218) = mulf (Cert.Spec.spB (V (Proc.devRef .tc main_v6))) (V (Proc.devRef .tc main_v215)) := by
  after_results_simp; rfl

/-- The first slope: minus the operator's value. -/
theorem s6_k0 (V : Valuation τ sig (Elt F)) :
    after hostOps40 V (Proc.devRef .tc main_v222) = Cert.Spec.k0Of (V (Proc.devRef .tc main_v220)) := by
  after_results_simp; rfl

/-- The step size times one. -/
theorem s6_ss1 (V : Valuation τ sig (Elt F)) :
    after hostOps40 V (Proc.devRef .tc main_v223) = mulf (V (Proc.devRef .tc main_v0)) Cert.Spec.c1 := by
  after_results_simp; rfl

/-- The spectrum spread across the columns times the product Vh · K0. -/
theorem s6_mulB (V : Valuation τ sig (Elt F)) :
    after hostOps41 V (Proc.devRef .tc main_v227) = mulf (Cert.Spec.spB (V (Proc.devRef .tc main_v6))) (V (Proc.devRef .tc main_v224)) := by
  after_results_simp; rfl

/-- The next state: the state plus the step size times the mean of the two slopes. -/
theorem s6_h (V : Valuation τ sig (Elt F)) {step : Vec F Cert.ReferenceIdeal.S1 .f32} {h L0 K0 LK : Vec F Cert.ReferenceIdeal.S4096x512 .f32}
    (hs : V (Proc.devRef .tc main_v0) = Cert.Spec.scal step) (hh : V (Proc.devRef .tc main_v205) = h)
    (hL : V (Proc.devRef .tc main_v220) = L0) (hK : V (Proc.devRef .tc main_v222) = K0)
    (h1 : V (Proc.devRef .tc main_v223) = mulf (Cert.Spec.scal step) Cert.Spec.c1) (hLK : V (Proc.devRef .tc main_v229) = LK) :
    after hostOps43 V (Proc.devRef .tc main_v242)
      = Cert.Spec.combOf step h K0
          (mulf (Cert.Spec.bc0 Cert.Spec.cNeg1) (addf L0 (mulf (Cert.Spec.bc0 (mulf (Cert.Spec.scal step) Cert.Spec.c1)) LK))) := by
  after_results_simp
  rw [hs, hh, hL, hK, h1, hLK]
  rfl

/-- The next state divided by its norm. -/
theorem s6_hn (V : Valuation τ sig (Elt F)) :
    after hostOps43 V (Proc.devRef .tc main_v247) = Cert.Spec.hnOf (after hostOps43 V (Proc.devRef .tc main_v242)) := by
  after_results_simp; rfl

/-- The energy of the next state. -/
theorem s6_e (V : Valuation τ sig (Elt F)) {snl : Vec F Cert.ReferenceIdeal.S4096x4096 .f32} {h : Vec F Cert.ReferenceIdeal.S4096x512 .f32}
    (hp : V (Proc.devRef .tc main_v248) = mmB snl (Cert.Spec.hnOf h))
    (hn : V (Proc.devRef .tc main_v247) = Cert.Spec.hnOf h) :
    after hostOps44 V (Proc.devRef .tc main_v251) = Cert.Spec.energyOf snl h := by
  after_results_simp
  rw [hp, hn]
  rfl

/-! ## Step 7 -/

/-- The spectrum spread across the columns times the product Vh · h. -/
theorem s7_mulA (V : Valuation τ sig (Elt F)) :
    after hostOps45 V (Proc.devRef .tc main_v255) = mulf (Cert.Spec.spB (V (Proc.devRef .tc main_v6))) (V (Proc.devRef .tc main_v252)) := by
  after_results_simp; rfl

/-- The first slope: minus the operator's value. -/
theorem s7_k0 (V : Valuation τ sig (Elt F)) :
    after hostOps47 V (Proc.devRef .tc main_v259) = Cert.Spec.k0Of (V (Proc.devRef .tc main_v257)) := by
  after_results_simp; rfl

/-- The step size times one. -/
theorem s7_ss1 (V : Valuation τ sig (Elt F)) :
    after hostOps47 V (Proc.devRef .tc main_v260) = mulf (V (Proc.devRef .tc main_v0)) Cert.Spec.c1 := by
  after_results_simp; rfl

/-- The spectrum spread across the columns times the product Vh · K0. -/
theorem s7_mulB (V : Valuation τ sig (Elt F)) :
    after hostOps48 V (Proc.devRef .tc main_v264) = mulf (Cert.Spec.spB (V (Proc.devRef .tc main_v6))) (V (Proc.devRef .tc main_v261)) := by
  after_results_simp; rfl

/-- The next state: the state plus the step size times the mean of the two slopes. -/
theorem s7_h (V : Valuation τ sig (Elt F)) {step : Vec F Cert.ReferenceIdeal.S1 .f32} {h L0 K0 LK : Vec F Cert.ReferenceIdeal.S4096x512 .f32}
    (hs : V (Proc.devRef .tc main_v0) = Cert.Spec.scal step) (hh : V (Proc.devRef .tc main_v242) = h)
    (hL : V (Proc.devRef .tc main_v257) = L0) (hK : V (Proc.devRef .tc main_v259) = K0)
    (h1 : V (Proc.devRef .tc main_v260) = mulf (Cert.Spec.scal step) Cert.Spec.c1) (hLK : V (Proc.devRef .tc main_v266) = LK) :
    after hostOps50 V (Proc.devRef .tc main_v279)
      = Cert.Spec.combOf step h K0
          (mulf (Cert.Spec.bc0 Cert.Spec.cNeg1) (addf L0 (mulf (Cert.Spec.bc0 (mulf (Cert.Spec.scal step) Cert.Spec.c1)) LK))) := by
  after_results_simp
  rw [hs, hh, hL, hK, h1, hLK]
  rfl

/-- The next state divided by its norm. -/
theorem s7_hn (V : Valuation τ sig (Elt F)) :
    after hostOps50 V (Proc.devRef .tc main_v284) = Cert.Spec.hnOf (after hostOps50 V (Proc.devRef .tc main_v279)) := by
  after_results_simp; rfl

/-- The energy of the next state. -/
theorem s7_e (V : Valuation τ sig (Elt F)) {snl : Vec F Cert.ReferenceIdeal.S4096x4096 .f32} {h : Vec F Cert.ReferenceIdeal.S4096x512 .f32}
    (hp : V (Proc.devRef .tc main_v285) = mmB snl (Cert.Spec.hnOf h))
    (hn : V (Proc.devRef .tc main_v284) = Cert.Spec.hnOf h) :
    after hostOps51 V (Proc.devRef .tc main_v288) = Cert.Spec.energyOf snl h := by
  after_results_simp
  rw [hp, hn]
  rfl

/-! ## Step 8 -/

/-- The spectrum spread across the columns times the product Vh · h. -/
theorem s8_mulA (V : Valuation τ sig (Elt F)) :
    after hostOps52 V (Proc.devRef .tc main_v292) = mulf (Cert.Spec.spB (V (Proc.devRef .tc main_v6))) (V (Proc.devRef .tc main_v289)) := by
  after_results_simp; rfl

/-- The first slope: minus the operator's value. -/
theorem s8_k0 (V : Valuation τ sig (Elt F)) :
    after hostOps54 V (Proc.devRef .tc main_v296) = Cert.Spec.k0Of (V (Proc.devRef .tc main_v294)) := by
  after_results_simp; rfl

/-- The step size times one. -/
theorem s8_ss1 (V : Valuation τ sig (Elt F)) :
    after hostOps54 V (Proc.devRef .tc main_v297) = mulf (V (Proc.devRef .tc main_v0)) Cert.Spec.c1 := by
  after_results_simp; rfl

/-- The spectrum spread across the columns times the product Vh · K0. -/
theorem s8_mulB (V : Valuation τ sig (Elt F)) :
    after hostOps55 V (Proc.devRef .tc main_v301) = mulf (Cert.Spec.spB (V (Proc.devRef .tc main_v6))) (V (Proc.devRef .tc main_v298)) := by
  after_results_simp; rfl

/-- The next state: the state plus the step size times the mean of the two slopes. -/
theorem s8_h (V : Valuation τ sig (Elt F)) {step : Vec F Cert.ReferenceIdeal.S1 .f32} {h L0 K0 LK : Vec F Cert.ReferenceIdeal.S4096x512 .f32}
    (hs : V (Proc.devRef .tc main_v0) = Cert.Spec.scal step) (hh : V (Proc.devRef .tc main_v279) = h)
    (hL : V (Proc.devRef .tc main_v294) = L0) (hK : V (Proc.devRef .tc main_v296) = K0)
    (h1 : V (Proc.devRef .tc main_v297) = mulf (Cert.Spec.scal step) Cert.Spec.c1) (hLK : V (Proc.devRef .tc main_v303) = LK) :
    after hostOps57 V (Proc.devRef .tc main_v316)
      = Cert.Spec.combOf step h K0
          (mulf (Cert.Spec.bc0 Cert.Spec.cNeg1) (addf L0 (mulf (Cert.Spec.bc0 (mulf (Cert.Spec.scal step) Cert.Spec.c1)) LK))) := by
  after_results_simp
  rw [hs, hh, hL, hK, h1, hLK]
  rfl

/-- The next state divided by its norm. -/
theorem s8_hn (V : Valuation τ sig (Elt F)) :
    after hostOps57 V (Proc.devRef .tc main_v321) = Cert.Spec.hnOf (after hostOps57 V (Proc.devRef .tc main_v316)) := by
  after_results_simp; rfl

/-- The energy of the next state. -/
theorem s8_e (V : Valuation τ sig (Elt F)) {snl : Vec F Cert.ReferenceIdeal.S4096x4096 .f32} {h : Vec F Cert.ReferenceIdeal.S4096x512 .f32}
    (hp : V (Proc.devRef .tc main_v322) = mmB snl (Cert.Spec.hnOf h))
    (hn : V (Proc.devRef .tc main_v321) = Cert.Spec.hnOf h) :
    after hostOps58 V (Proc.devRef .tc main_v325) = Cert.Spec.energyOf snl h := by
  after_results_simp
  rw [hp, hn]
  rfl

end Cert.KValues

end
-- ==== Proof.KStep1.lean ====
import proofs.«158944_j64613488001249_1_alg».proof.Proof.KRun
import proofs.«158944_j64613488001249_1_alg».proof.Proof.KStageN

/-! The kernel program's valuations up to the end of the first step of Heun's method, in the specification's terms.

After the prelude every valuation is good. Region 0 leaves the encoder's product; the stretch after it the encoded
state, which is state 0 of the specification, and its normalisation; region 1 the product of snl with the normalised
state; the stretch after it the energy of state 0. A step then runs through seven regions: three products give the
spectral operator's value L0 at the state, a stretch negates it into the first slope K0, three more products give
the operator's value at K0, a stretch combines the two slopes into the next state and normalises it, the seventh
region multiplies snl with the normalised state and the last stretch leaves the next state's energy. Between the
item that writes a buffer and the item that reads it the buffer keeps its contents, because no item between
writes it. -/

set_option maxRecDepth 16384

noncomputable section

namespace Cert.KValues

open Cert.KernelIdeal Cert.KernelIdeal.Gen Cert.KernelIdeal.GenP
open Idealize.ShloMosaic Idealize.ShloMosaic.TcCoe Idealize.SL.Sem Idealize.ShloMosaic.StableHlo

variable [Cert.ReferenceIdeal.Facts]

variable {X : ℕ → Valuation τ sig (Elt Ideal)} (r : KRun X)
include r

/-! ## The encoder and the energy of state 0 -/

/-- Region 0 leaves the encoder's product. -/
theorem c0_p2 : X 2 (Proc.devRef .tc main_v17) = mmA (argsAt (X 0)).x (transpose Cert.ReferenceIdeal.S128x512 [1, 0] (argsAt (X 0)).enc_w Cert.ReferenceIdeal.Facts₀.transposes_S512x128_S128x512_1_0) := by
  rw [val1 r, (good1 r).x, (good1 r).bEw]; exact whole_DA_right _ _

/-- The stretch after it leaves state 0. -/
theorem c0_h3 : X 3 (Proc.devRef .tc main_v20) = Cert.Spec.hN0 (argsAt (X 0)) := by
  rw [r.i2, enc_h, c0_p2 r, (good2 r).enc_b, Cert.Spec.hN0_eq, encOf_mm]

/-- And state 0 divided by its norm. -/
theorem c0_n3 : X 3 (Proc.devRef .tc main_v25) = Cert.Spec.hnOf (Cert.Spec.hN0 (argsAt (X 0))) := by
  rw [← c0_h3 r, r.i2]; exact enc_hn (X 2)

/-- Region 1 leaves snl times the normalised state. -/
theorem c0_p4 : X 4 (Proc.devRef .tc main_v26) = mmB (argsAt (X 0)).snl (Cert.Spec.hnOf (Cert.Spec.hN0 (argsAt (X 0)))) := by
  rw [val3 r, (good3 r).bsnl, c0_n3 r]; exact whole_DB_left _ _

theorem c0_n4 : X 4 (Proc.devRef .tc main_v25) = Cert.Spec.hnOf (Cert.Spec.hN0 (argsAt (X 0))) :=
  (keep3 r (by decide)).trans (c0_n3 r)

theorem c0_h4 : X 4 (Proc.devRef .tc main_v20) = Cert.Spec.hN0 (argsAt (X 0)) :=
  (keep3 r (by decide)).trans (c0_h3 r)

/-- The stretch after region 1 leaves the energy of state 0. -/
theorem c0_e5 : X 5 (Proc.devRef .tc main_v29) = Cert.Spec.energyOf (argsAt (X 0)).snl (Cert.Spec.hN0 (argsAt (X 0))) := by
  rw [r.i4]; exact en0_e (X 4) (c0_p4 r) (c0_n4 r)

theorem c0_h5 : X 5 (Proc.devRef .tc main_v20) = Cert.Spec.hN0 (argsAt (X 0)) :=
  (keep4 r (by decide)).trans (c0_h4 r)

/-! ## Step 1 (the other seven are the same text at shifted numbers) -/

/-- Vh times the state. -/
theorem c1_p6 : X 6 (Proc.devRef .tc main_v30) = mmB (argsAt (X 0)).Vh (Cert.Spec.hN0 (argsAt (X 0))) := by
  rw [val5 r, (good5 r).bVh, c0_h5 r]; exact whole_DB_left _ _

/-- Scaled by the spectrum. -/
theorem c1_q7 : X 7 (Proc.devRef .tc main_v33) = mulf (Cert.Spec.spB (Cert.Spec.spOf (argsAt (X 0)).S (argsAt (X 0)).shift (argsAt (X 0)).expo)) (mmB (argsAt (X 0)).Vh (Cert.Spec.hN0 (argsAt (X 0)))) := by
  rw [r.i6, s1_mulA, (good6 r).sp, c1_p6 r]

/-- Times W. -/
theorem c1_q8 : X 8 (Proc.devRef .tc main_v34) = mmC (mulf (Cert.Spec.spB (Cert.Spec.spOf (argsAt (X 0)).S (argsAt (X 0)).shift (argsAt (X 0)).expo)) (mmB (argsAt (X 0)).Vh (Cert.Spec.hN0 (argsAt (X 0))))) (argsAt (X 0)).W := by
  rw [val7 r, c1_q7 r, (good7 r).bW]; exact whole_DC_right _ _

/-- U times that: the operator's value L0 at the state. -/
theorem c1_l9 : X 9 (Proc.devRef .tc main_v35) = Cert.Spec.lxwOf (argsAt (X 0)).U (argsAt (X 0)).Vh (argsAt (X 0)).W (Cert.Spec.spOf (argsAt (X 0)).S (argsAt (X 0)).shift (argsAt (X 0)).expo) (Cert.Spec.hN0 (argsAt (X 0))) := by
  rw [val8 r, (good8 r).bU, c1_q8 r, lxwOf_mm]; exact whole_DB_left _ _

/-- The first slope K0. -/
theorem c1_k10 : X 10 (Proc.devRef .tc main_v37) = Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN0 (argsAt (X 0)))) := by
  rw [r.i9, s1_k0, c1_l9 r]

/-- The step size times one. -/
theorem c1_s10 : X 10 (Proc.devRef .tc main_v38) = mulf (Cert.Spec.scal (argsAt (X 0)).step) (Cert.Spec.c1 (F := Ideal)) := by
  rw [r.i9, s1_ss1, (good9 r).ss]

/-- Vh times K0. -/
theorem c1_p11 : X 11 (Proc.devRef .tc main_v39) = mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN0 (argsAt (X 0))))) := by
  rw [val10 r, (good10 r).bVh, c1_k10 r]; exact whole_DB_left _ _

/-- Scaled by the spectrum. -/
theorem c1_q12 : X 12 (Proc.devRef .tc main_v42) = mulf (Cert.Spec.spB (Cert.Spec.spOf (argsAt (X 0)).S (argsAt (X 0)).shift (argsAt (X 0)).expo)) (mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN0 (argsAt (X 0)))))) := by
  rw [r.i11, s1_mulB, (good11 r).sp, c1_p11 r]

/-- Times W. -/
theorem c1_q13 : X 13 (Proc.devRef .tc main_v43) = mmC (mulf (Cert.Spec.spB (Cert.Spec.spOf (argsAt (X 0)).S (argsAt (X 0)).shift (argsAt (X 0)).expo)) (mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN0 (argsAt (X 0))))))) (argsAt (X 0)).W := by
  rw [val12 r, c1_q12 r, (good12 r).bW]; exact whole_DC_right _ _

/-- U times that: the operator's value at K0. -/
theorem c1_m14 : X 14 (Proc.devRef .tc main_v44) = Cert.Spec.lxwOf (argsAt (X 0)).U (argsAt (X 0)).Vh (argsAt (X 0)).W (Cert.Spec.spOf (argsAt (X 0)).S (argsAt (X 0)).shift (argsAt (X 0)).expo) (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN0 (argsAt (X 0))))) := by
  rw [val13 r, (good13 r).bU, c1_q13 r, lxwOf_mm]; exact whole_DB_left _ _

/-- The state, L0, K0 and the step size times one are still where they were written. -/
theorem c1_h14 : X 14 (Proc.devRef .tc main_v20) = Cert.Spec.hN0 (argsAt (X 0)) :=
  (keep13 r (by decide)).trans ((keep12 r (by decide)).trans ((keep11 r (by decide)).trans ((keep10 r (by decide)).trans ((keep9 r (by decide)).trans ((keep8 r (by decide)).trans ((keep7 r (by decide)).trans ((keep6 r (by decide)).trans ((keep5 r (by decide)).trans (c0_h5 r)))))))))

theorem c1_l14 : X 14 (Proc.devRef .tc main_v35) = Cert.Spec.lxwOf (argsAt (X 0)).U (argsAt (X 0)).Vh (argsAt (X 0)).W (Cert.Spec.spOf (argsAt (X 0)).S (argsAt (X 0)).shift (argsAt (X 0)).expo) (Cert.Spec.hN0 (argsAt (X 0))) :=
  (keep13 r (by decide)).trans ((keep12 r (by decide)).trans ((keep11 r (by decide)).trans ((keep10 r (by decide)).trans ((keep9 r (by decide)).trans (c1_l9 r)))))

theorem c1_k14 : X 14 (Proc.devRef .tc main_v37) = Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN0 (argsAt (X 0)))) :=
  (keep13 r (by decide)).trans ((keep12 r (by decide)).trans ((keep11 r (by decide)).trans ((keep10 r (by decide)).trans (c1_k10 r))))

theorem c1_s14 : X 14 (Proc.devRef .tc main_v38) = mulf (Cert.Spec.scal (argsAt (X 0)).step) (Cert.Spec.c1 (F := Ideal)) :=
  (keep13 r (by decide)).trans ((keep12 r (by decide)).trans ((keep11 r (by decide)).trans ((keep10 r (by decide)).trans (c1_s10 r))))

/-- The stretch after the sixth region leaves the next state. -/
theorem c1_h15 : X 15 (Proc.devRef .tc main_v57) = Cert.Spec.hN1 (argsAt (X 0)) := by
  rw [r.i14, s1_h (X 14) (good14 r).ss (c1_h14 r) (c1_l14 r) (c1_k14 r) (c1_s14 r) (c1_m14 r), Cert.Spec.hN1_eq]
  rfl

/-- And the next state divided by its norm. -/
theorem c1_n15 : X 15 (Proc.devRef .tc main_v62) = Cert.Spec.hnOf (Cert.Spec.hN1 (argsAt (X 0))) := by
  rw [← c1_h15 r, r.i14]; exact s1_hn (X 14)

/-- The seventh region leaves snl times the normalised next state. -/
theorem c1_p16 : X 16 (Proc.devRef .tc main_v63) = mmB (argsAt (X 0)).snl (Cert.Spec.hnOf (Cert.Spec.hN1 (argsAt (X 0)))) := by
  rw [val15 r, (good15 r).bsnl, c1_n15 r]; exact whole_DB_left _ _

theorem c1_n16 : X 16 (Proc.devRef .tc main_v62) = Cert.Spec.hnOf (Cert.Spec.hN1 (argsAt (X 0))) :=
  (keep15 r (by decide)).trans (c1_n15 r)

theorem c1_h16 : X 16 (Proc.devRef .tc main_v57) = Cert.Spec.hN1 (argsAt (X 0)) :=
  (keep15 r (by decide)).trans (c1_h15 r)

/-- The last stretch leaves the next state's energy. -/
theorem c1_e17 : X 17 (Proc.devRef .tc main_v66) = Cert.Spec.energyOf (argsAt (X 0)).snl (Cert.Spec.hN1 (argsAt (X 0))) := by
  rw [r.i16]; exact s1_e (X 16) (c1_p16 r) (c1_n16 r)

theorem c1_h17 : X 17 (Proc.devRef .tc main_v57) = Cert.Spec.hN1 (argsAt (X 0)) :=
  (keep16 r (by decide)).trans (c1_h16 r)

end Cert.KValues

end
-- ==== Proof.KStepN.lean ====
import proofs.«158944_j64613488001249_1_alg».proof.Proof.KStep1

/-! Steps 2 to 8 of Heun's method in the kernel program's valuations: the text of step 1 at the numbers of the others
(12 items, 37 references a step). Then the nine energies and the last state, each still where it was written when
the item that reads it starts: no item between writes that buffer. -/

set_option maxRecDepth 16384

noncomputable section

namespace Cert.KValues

open Cert.KernelIdeal Cert.KernelIdeal.Gen Cert.KernelIdeal.GenP
open Idealize.ShloMosaic Idealize.ShloMosaic.TcCoe Idealize.SL.Sem Idealize.ShloMosaic.StableHlo

variable [Cert.ReferenceIdeal.Facts]

variable {X : ℕ → Valuation τ sig (Elt Ideal)} (r : KRun X)
include r

/-! ## Step 2 -/

/-- Vh times the state. -/
theorem c2_p18 : X 18 (Proc.devRef .tc main_v67) = mmB (argsAt (X 0)).Vh (Cert.Spec.hN1 (argsAt (X 0))) := by
  rw [val17 r, (good17 r).bVh, c1_h17 r]; exact whole_DB_left _ _

/-- Scaled by the spectrum. -/
theorem c2_q19 : X 19 (Proc.devRef .tc main_v70) = mulf (Cert.Spec.spB (Cert.Spec.spOf (argsAt (X 0)).S (argsAt (X 0)).shift (argsAt (X 0)).expo)) (mmB (argsAt (X 0)).Vh (Cert.Spec.hN1 (argsAt (X 0)))) := by
  rw [r.i18, s2_mulA, (good18 r).sp, c2_p18 r]

/-- Times W. -/
theorem c2_q20 : X 20 (Proc.devRef .tc main_v71) = mmC (mulf (Cert.Spec.spB (Cert.Spec.spOf (argsAt (X 0)).S (argsAt (X 0)).shift (argsAt (X 0)).expo)) (mmB (argsAt (X 0)).Vh (Cert.Spec.hN1 (argsAt (X 0))))) (argsAt (X 0)).W := by
  rw [val19 r, c2_q19 r, (good19 r).bW]; exact whole_DC_right _ _

/-- U times that: the operator's value L0 at the state. -/
theorem c2_l21 : X 21 (Proc.devRef .tc main_v72) = Cert.Spec.lxwOf (argsAt (X 0)).U (argsAt (X 0)).Vh (argsAt (X 0)).W (Cert.Spec.spOf (argsAt (X 0)).S (argsAt (X 0)).shift (argsAt (X 0)).expo) (Cert.Spec.hN1 (argsAt (X 0))) := by
  rw [val20 r, (good20 r).bU, c2_q20 r, lxwOf_mm]; exact whole_DB_left _ _

/-- The first slope K0. -/
theorem c2_k22 : X 22 (Proc.devRef .tc main_v74) = Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN1 (argsAt (X 0)))) := by
  rw [r.i21, s2_k0, c2_l21 r]

/-- The step size times one. -/
theorem c2_s22 : X 22 (Proc.devRef .tc main_v75) = mulf (Cert.Spec.scal (argsAt (X 0)).step) (Cert.Spec.c1 (F := Ideal)) := by
  rw [r.i21, s2_ss1, (good21 r).ss]

/-- Vh times K0. -/
theorem c2_p23 : X 23 (Proc.devRef .tc main_v76) = mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN1 (argsAt (X 0))))) := by
  rw [val22 r, (good22 r).bVh, c2_k22 r]; exact whole_DB_left _ _

/-- Scaled by the spectrum. -/
theorem c2_q24 : X 24 (Proc.devRef .tc main_v79) = mulf (Cert.Spec.spB (Cert.Spec.spOf (argsAt (X 0)).S (argsAt (X 0)).shift (argsAt (X 0)).expo)) (mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN1 (argsAt (X 0)))))) := by
  rw [r.i23, s2_mulB, (good23 r).sp, c2_p23 r]

/-- Times W. -/
theorem c2_q25 : X 25 (Proc.devRef .tc main_v80) = mmC (mulf (Cert.Spec.spB (Cert.Spec.spOf (argsAt (X 0)).S (argsAt (X 0)).shift (argsAt (X 0)).expo)) (mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN1 (argsAt (X 0))))))) (argsAt (X 0)).W := by
  rw [val24 r, c2_q24 r, (good24 r).bW]; exact whole_DC_right _ _

/-- U times that: the operator's value at K0. -/
theorem c2_m26 : X 26 (Proc.devRef .tc main_v81) = Cert.Spec.lxwOf (argsAt (X 0)).U (argsAt (X 0)).Vh (argsAt (X 0)).W (Cert.Spec.spOf (argsAt (X 0)).S (argsAt (X 0)).shift (argsAt (X 0)).expo) (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN1 (argsAt (X 0))))) := by
  rw [val25 r, (good25 r).bU, c2_q25 r, lxwOf_mm]; exact whole_DB_left _ _

/-- The state, L0, K0 and the step size times one are still where they were written. -/
theorem c2_h26 : X 26 (Proc.devRef .tc main_v57) = Cert.Spec.hN1 (argsAt (X 0)) :=
  (keep25 r (by decide)).trans ((keep24 r (by decide)).trans ((keep23 r (by decide)).trans ((keep22 r (by decide)).trans ((keep21 r (by decide)).trans ((keep20 r (by decide)).trans ((keep19 r (by decide)).trans ((keep18 r (by decide)).trans ((keep17 r (by decide)).trans (c1_h17 r)))))))))

theorem c2_l26 : X 26 (Proc.devRef .tc main_v72) = Cert.Spec.lxwOf (argsAt (X 0)).U (argsAt (X 0)).Vh (argsAt (X 0)).W (Cert.Spec.spOf (argsAt (X 0)).S (argsAt (X 0)).shift (argsAt (X 0)).expo) (Cert.Spec.hN1 (argsAt (X 0))) :=
  (keep25 r (by decide)).trans ((keep24 r (by decide)).trans ((keep23 r (by decide)).trans ((keep22 r (by decide)).trans ((keep21 r (by decide)).trans (c2_l21 r)))))

theorem c2_k26 : X 26 (Proc.devRef .tc main_v74) = Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN1 (argsAt (X 0)))) :=
  (keep25 r (by decide)).trans ((keep24 r (by decide)).trans ((keep23 r (by decide)).trans ((keep22 r (by decide)).trans (c2_k22 r))))

theorem c2_s26 : X 26 (Proc.devRef .tc main_v75) = mulf (Cert.Spec.scal (argsAt (X 0)).step) (Cert.Spec.c1 (F := Ideal)) :=
  (keep25 r (by decide)).trans ((keep24 r (by decide)).trans ((keep23 r (by decide)).trans ((keep22 r (by decide)).trans (c2_s22 r))))

/-- The stretch after the sixth region leaves the next state. -/
theorem c2_h27 : X 27 (Proc.devRef .tc main_v94) = Cert.Spec.hN2 (argsAt (X 0)) := by
  rw [r.i26, s2_h (X 26) (good26 r).ss (c2_h26 r) (c2_l26 r) (c2_k26 r) (c2_s26 r) (c2_m26 r), Cert.Spec.hN2_eq]
  rfl

/-- And the next state divided by its norm. -/
theorem c2_n27 : X 27 (Proc.devRef .tc main_v99) = Cert.Spec.hnOf (Cert.Spec.hN2 (argsAt (X 0))) := by
  rw [← c2_h27 r, r.i26]; exact s2_hn (X 26)

/-- The seventh region leaves snl times the normalised next state. -/
theorem c2_p28 : X 28 (Proc.devRef .tc main_v100) = mmB (argsAt (X 0)).snl (Cert.Spec.hnOf (Cert.Spec.hN2 (argsAt (X 0)))) := by
  rw [val27 r, (good27 r).bsnl, c2_n27 r]; exact whole_DB_left _ _

theorem c2_n28 : X 28 (Proc.devRef .tc main_v99) = Cert.Spec.hnOf (Cert.Spec.hN2 (argsAt (X 0))) :=
  (keep27 r (by decide)).trans (c2_n27 r)

theorem c2_h28 : X 28 (Proc.devRef .tc main_v94) = Cert.Spec.hN2 (argsAt (X 0)) :=
  (keep27 r (by decide)).trans (c2_h27 r)

/-- The last stretch leaves the next state's energy. -/
theorem c2_e29 : X 29 (Proc.devRef .tc main_v103) = Cert.Spec.energyOf (argsAt (X 0)).snl (Cert.Spec.hN2 (argsAt (X 0))) := by
  rw [r.i28]; exact s2_e (X 28) (c2_p28 r) (c2_n28 r)

theorem c2_h29 : X 29 (Proc.devRef .tc main_v94) = Cert.Spec.hN2 (argsAt (X 0)) :=
  (keep28 r (by decide)).trans (c2_h28 r)

/-! ## Step 3 -/

/-- Vh times the state. -/
theorem c3_p30 : X 30 (Proc.devRef .tc main_v104) = mmB (argsAt (X 0)).Vh (Cert.Spec.hN2 (argsAt (X 0))) := by
  rw [val29 r, (good29 r).bVh, c2_h29 r]; exact whole_DB_left _ _

/-- Scaled by the spectrum. -/
theorem c3_q31 : X 31 (Proc.devRef .tc main_v107) = mulf (Cert.Spec.spB (Cert.Spec.spOf (argsAt (X 0)).S (argsAt (X 0)).shift (argsAt (X 0)).expo)) (mmB (argsAt (X 0)).Vh (Cert.Spec.hN2 (argsAt (X 0)))) := by
  rw [r.i30, s3_mulA, (good30 r).sp, c3_p30 r]

/-- Times W. -/
theorem c3_q32 : X 32 (Proc.devRef .tc main_v108) = mmC (mulf (Cert.Spec.spB (Cert.Spec.spOf (argsAt (X 0)).S (argsAt (X 0)).shift (argsAt (X 0)).expo)) (mmB (argsAt (X 0)).Vh (Cert.Spec.hN2 (argsAt (X 0))))) (argsAt (X 0)).W := by
  rw [val31 r, c3_q31 r, (good31 r).bW]; exact whole_DC_right _ _

/-- U times that: the operator's value L0 at the state. -/
theorem c3_l33 : X 33 (Proc.devRef .tc main_v109) = Cert.Spec.lxwOf (argsAt (X 0)).U (argsAt (X 0)).Vh (argsAt (X 0)).W (Cert.Spec.spOf (argsAt (X 0)).S (argsAt (X 0)).shift (argsAt (X 0)).expo) (Cert.Spec.hN2 (argsAt (X 0))) := by
  rw [val32 r, (good32 r).bU, c3_q32 r, lxwOf_mm]; exact whole_DB_left _ _

/-- The first slope K0. -/
theorem c3_k34 : X 34 (Proc.devRef .tc main_v111) = Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN2 (argsAt (X 0)))) := by
  rw [r.i33, s3_k0, c3_l33 r]

/-- The step size times one. -/
theorem c3_s34 : X 34 (Proc.devRef .tc main_v112) = mulf (Cert.Spec.scal (argsAt (X 0)).step) (Cert.Spec.c1 (F := Ideal)) := by
  rw [r.i33, s3_ss1, (good33 r).ss]

/-- Vh times K0. -/
theorem c3_p35 : X 35 (Proc.devRef .tc main_v113) = mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN2 (argsAt (X 0))))) := by
  rw [val34 r, (good34 r).bVh, c3_k34 r]; exact whole_DB_left _ _

/-- Scaled by the spectrum. -/
theorem c3_q36 : X 36 (Proc.devRef .tc main_v116) = mulf (Cert.Spec.spB (Cert.Spec.spOf (argsAt (X 0)).S (argsAt (X 0)).shift (argsAt (X 0)).expo)) (mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN2 (argsAt (X 0)))))) := by
  rw [r.i35, s3_mulB, (good35 r).sp, c3_p35 r]

/-- Times W. -/
theorem c3_q37 : X 37 (Proc.devRef .tc main_v117) = mmC (mulf (Cert.Spec.spB (Cert.Spec.spOf (argsAt (X 0)).S (argsAt (X 0)).shift (argsAt (X 0)).expo)) (mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN2 (argsAt (X 0))))))) (argsAt (X 0)).W := by
  rw [val36 r, c3_q36 r, (good36 r).bW]; exact whole_DC_right _ _

/-- U times that: the operator's value at K0. -/
theorem c3_m38 : X 38 (Proc.devRef .tc main_v118) = Cert.Spec.lxwOf (argsAt (X 0)).U (argsAt (X 0)).Vh (argsAt (X 0)).W (Cert.Spec.spOf (argsAt (X 0)).S (argsAt (X 0)).shift (argsAt (X 0)).expo) (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN2 (argsAt (X 0))))) := by
  rw [val37 r, (good37 r).bU, c3_q37 r, lxwOf_mm]; exact whole_DB_left _ _

/-- The state, L0, K0 and the step size times one are still where they were written. -/
theorem c3_h38 : X 38 (Proc.devRef .tc main_v94) = Cert.Spec.hN2 (argsAt (X 0)) :=
  (keep37 r (by decide)).trans ((keep36 r (by decide)).trans ((keep35 r (by decide)).trans ((keep34 r (by decide)).trans ((keep33 r (by decide)).trans ((keep32 r (by decide)).trans ((keep31 r (by decide)).trans ((keep30 r (by decide)).trans ((keep29 r (by decide)).trans (c2_h29 r)))))))))

theorem c3_l38 : X 38 (Proc.devRef .tc main_v109) = Cert.Spec.lxwOf (argsAt (X 0)).U (argsAt (X 0)).Vh (argsAt (X 0)).W (Cert.Spec.spOf (argsAt (X 0)).S (argsAt (X 0)).shift (argsAt (X 0)).expo) (Cert.Spec.hN2 (argsAt (X 0))) :=
  (keep37 r (by decide)).trans ((keep36 r (by decide)).trans ((keep35 r (by decide)).trans ((keep34 r (by decide)).trans ((keep33 r (by decide)).trans (c3_l33 r)))))

theorem c3_k38 : X 38 (Proc.devRef .tc main_v111) = Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN2 (argsAt (X 0)))) :=
  (keep37 r (by decide)).trans ((keep36 r (by decide)).trans ((keep35 r (by decide)).trans ((keep34 r (by decide)).trans (c3_k34 r))))

theorem c3_s38 : X 38 (Proc.devRef .tc main_v112) = mulf (Cert.Spec.scal (argsAt (X 0)).step) (Cert.Spec.c1 (F := Ideal)) :=
  (keep37 r (by decide)).trans ((keep36 r (by decide)).trans ((keep35 r (by decide)).trans ((keep34 r (by decide)).trans (c3_s34 r))))

/-- The stretch after the sixth region leaves the next state. -/
theorem c3_h39 : X 39 (Proc.devRef .tc main_v131) = Cert.Spec.hN3 (argsAt (X 0)) := by
  rw [r.i38, s3_h (X 38) (good38 r).ss (c3_h38 r) (c3_l38 r) (c3_k38 r) (c3_s38 r) (c3_m38 r), Cert.Spec.hN3_eq]
  rfl

/-- And the next state divided by its norm. -/
theorem c3_n39 : X 39 (Proc.devRef .tc main_v136) = Cert.Spec.hnOf (Cert.Spec.hN3 (argsAt (X 0))) := by
  rw [← c3_h39 r, r.i38]; exact s3_hn (X 38)

/-- The seventh region leaves snl times the normalised next state. -/
theorem c3_p40 : X 40 (Proc.devRef .tc main_v137) = mmB (argsAt (X 0)).snl (Cert.Spec.hnOf (Cert.Spec.hN3 (argsAt (X 0)))) := by
  rw [val39 r, (good39 r).bsnl, c3_n39 r]; exact whole_DB_left _ _

theorem c3_n40 : X 40 (Proc.devRef .tc main_v136) = Cert.Spec.hnOf (Cert.Spec.hN3 (argsAt (X 0))) :=
  (keep39 r (by decide)).trans (c3_n39 r)

theorem c3_h40 : X 40 (Proc.devRef .tc main_v131) = Cert.Spec.hN3 (argsAt (X 0)) :=
  (keep39 r (by decide)).trans (c3_h39 r)

/-- The last stretch leaves the next state's energy. -/
theorem c3_e41 : X 41 (Proc.devRef .tc main_v140) = Cert.Spec.energyOf (argsAt (X 0)).snl (Cert.Spec.hN3 (argsAt (X 0))) := by
  rw [r.i40]; exact s3_e (X 40) (c3_p40 r) (c3_n40 r)

theorem c3_h41 : X 41 (Proc.devRef .tc main_v131) = Cert.Spec.hN3 (argsAt (X 0)) :=
  (keep40 r (by decide)).trans (c3_h40 r)

/-! ## Step 4 -/

/-- Vh times the state. -/
theorem c4_p42 : X 42 (Proc.devRef .tc main_v141) = mmB (argsAt (X 0)).Vh (Cert.Spec.hN3 (argsAt (X 0))) := by
  rw [val41 r, (good41 r).bVh, c3_h41 r]; exact whole_DB_left _ _

/-- Scaled by the spectrum. -/
theorem c4_q43 : X 43 (Proc.devRef .tc main_v144) = mulf (Cert.Spec.spB (Cert.Spec.spOf (argsAt (X 0)).S (argsAt (X 0)).shift (argsAt (X 0)).expo)) (mmB (argsAt (X 0)).Vh (Cert.Spec.hN3 (argsAt (X 0)))) := by
  rw [r.i42, s4_mulA, (good42 r).sp, c4_p42 r]

/-- Times W. -/
theorem c4_q44 : X 44 (Proc.devRef .tc main_v145) = mmC (mulf (Cert.Spec.spB (Cert.Spec.spOf (argsAt (X 0)).S (argsAt (X 0)).shift (argsAt (X 0)).expo)) (mmB (argsAt (X 0)).Vh (Cert.Spec.hN3 (argsAt (X 0))))) (argsAt (X 0)).W := by
  rw [val43 r, c4_q43 r, (good43 r).bW]; exact whole_DC_right _ _

/-- U times that: the operator's value L0 at the state. -/
theorem c4_l45 : X 45 (Proc.devRef .tc main_v146) = Cert.Spec.lxwOf (argsAt (X 0)).U (argsAt (X 0)).Vh (argsAt (X 0)).W (Cert.Spec.spOf (argsAt (X 0)).S (argsAt (X 0)).shift (argsAt (X 0)).expo) (Cert.Spec.hN3 (argsAt (X 0))) := by
  rw [val44 r, (good44 r).bU, c4_q44 r, lxwOf_mm]; exact whole_DB_left _ _

/-- The first slope K0. -/
theorem c4_k46 : X 46 (Proc.devRef .tc main_v148) = Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN3 (argsAt (X 0)))) := by
  rw [r.i45, s4_k0, c4_l45 r]

/-- The step size times one. -/
theorem c4_s46 : X 46 (Proc.devRef .tc main_v149) = mulf (Cert.Spec.scal (argsAt (X 0)).step) (Cert.Spec.c1 (F := Ideal)) := by
  rw [r.i45, s4_ss1, (good45 r).ss]

/-- Vh times K0. -/
theorem c4_p47 : X 47 (Proc.devRef .tc main_v150) = mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN3 (argsAt (X 0))))) := by
  rw [val46 r, (good46 r).bVh, c4_k46 r]; exact whole_DB_left _ _

/-- Scaled by the spectrum. -/
theorem c4_q48 : X 48 (Proc.devRef .tc main_v153) = mulf (Cert.Spec.spB (Cert.Spec.spOf (argsAt (X 0)).S (argsAt (X 0)).shift (argsAt (X 0)).expo)) (mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN3 (argsAt (X 0)))))) := by
  rw [r.i47, s4_mulB, (good47 r).sp, c4_p47 r]

/-- Times W. -/
theorem c4_q49 : X 49 (Proc.devRef .tc main_v154) = mmC (mulf (Cert.Spec.spB (Cert.Spec.spOf (argsAt (X 0)).S (argsAt (X 0)).shift (argsAt (X 0)).expo)) (mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN3 (argsAt (X 0))))))) (argsAt (X 0)).W := by
  rw [val48 r, c4_q48 r, (good48 r).bW]; exact whole_DC_right _ _

/-- U times that: the operator's value at K0. -/
theorem c4_m50 : X 50 (Proc.devRef .tc main_v155) = Cert.Spec.lxwOf (argsAt (X 0)).U (argsAt (X 0)).Vh (argsAt (X 0)).W (Cert.Spec.spOf (argsAt (X 0)).S (argsAt (X 0)).shift (argsAt (X 0)).expo) (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN3 (argsAt (X 0))))) := by
  rw [val49 r, (good49 r).bU, c4_q49 r, lxwOf_mm]; exact whole_DB_left _ _

/-- The state, L0, K0 and the step size times one are still where they were written. -/
theorem c4_h50 : X 50 (Proc.devRef .tc main_v131) = Cert.Spec.hN3 (argsAt (X 0)) :=
  (keep49 r (by decide)).trans ((keep48 r (by decide)).trans ((keep47 r (by decide)).trans ((keep46 r (by decide)).trans ((keep45 r (by decide)).trans ((keep44 r (by decide)).trans ((keep43 r (by decide)).trans ((keep42 r (by decide)).trans ((keep41 r (by decide)).trans (c3_h41 r)))))))))

theorem c4_l50 : X 50 (Proc.devRef .tc main_v146) = Cert.Spec.lxwOf (argsAt (X 0)).U (argsAt (X 0)).Vh (argsAt (X 0)).W (Cert.Spec.spOf (argsAt (X 0)).S (argsAt (X 0)).shift (argsAt (X 0)).expo) (Cert.Spec.hN3 (argsAt (X 0))) :=
  (keep49 r (by decide)).trans ((keep48 r (by decide)).trans ((keep47 r (by decide)).trans ((keep46 r (by decide)).trans ((keep45 r (by decide)).trans (c4_l45 r)))))

theorem c4_k50 : X 50 (Proc.devRef .tc main_v148) = Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN3 (argsAt (X 0)))) :=
  (keep49 r (by decide)).trans ((keep48 r (by decide)).trans ((keep47 r (by decide)).trans ((keep46 r (by decide)).trans (c4_k46 r))))

theorem c4_s50 : X 50 (Proc.devRef .tc main_v149) = mulf (Cert.Spec.scal (argsAt (X 0)).step) (Cert.Spec.c1 (F := Ideal)) :=
  (keep49 r (by decide)).trans ((keep48 r (by decide)).trans ((keep47 r (by decide)).trans ((keep46 r (by decide)).trans (c4_s46 r))))

/-- The stretch after the sixth region leaves the next state. -/
theorem c4_h51 : X 51 (Proc.devRef .tc main_v168) = Cert.Spec.hN4 (argsAt (X 0)) := by
  rw [r.i50, s4_h (X 50) (good50 r).ss (c4_h50 r) (c4_l50 r) (c4_k50 r) (c4_s50 r) (c4_m50 r), Cert.Spec.hN4_eq]
  rfl

/-- And the next state divided by its norm. -/
theorem c4_n51 : X 51 (Proc.devRef .tc main_v173) = Cert.Spec.hnOf (Cert.Spec.hN4 (argsAt (X 0))) := by
  rw [← c4_h51 r, r.i50]; exact s4_hn (X 50)

/-- The seventh region leaves snl times the normalised next state. -/
theorem c4_p52 : X 52 (Proc.devRef .tc main_v174) = mmB (argsAt (X 0)).snl (Cert.Spec.hnOf (Cert.Spec.hN4 (argsAt (X 0)))) := by
  rw [val51 r, (good51 r).bsnl, c4_n51 r]; exact whole_DB_left _ _

theorem c4_n52 : X 52 (Proc.devRef .tc main_v173) = Cert.Spec.hnOf (Cert.Spec.hN4 (argsAt (X 0))) :=
  (keep51 r (by decide)).trans (c4_n51 r)

theorem c4_h52 : X 52 (Proc.devRef .tc main_v168) = Cert.Spec.hN4 (argsAt (X 0)) :=
  (keep51 r (by decide)).trans (c4_h51 r)

/-- The last stretch leaves the next state's energy. -/
theorem c4_e53 : X 53 (Proc.devRef .tc main_v177) = Cert.Spec.energyOf (argsAt (X 0)).snl (Cert.Spec.hN4 (argsAt (X 0))) := by
  rw [r.i52]; exact s4_e (X 52) (c4_p52 r) (c4_n52 r)

theorem c4_h53 : X 53 (Proc.devRef .tc main_v168) = Cert.Spec.hN4 (argsAt (X 0)) :=
  (keep52 r (by decide)).trans (c4_h52 r)

/-! ## Step 5 -/

/-- Vh times the state. -/
theorem c5_p54 : X 54 (Proc.devRef .tc main_v178) = mmB (argsAt (X 0)).Vh (Cert.Spec.hN4 (argsAt (X 0))) := by
  rw [val53 r, (good53 r).bVh, c4_h53 r]; exact whole_DB_left _ _

/-- Scaled by the spectrum. -/
theorem c5_q55 : X 55 (Proc.devRef .tc main_v181) = mulf (Cert.Spec.spB (Cert.Spec.spOf (argsAt (X 0)).S (argsAt (X 0)).shift (argsAt (X 0)).expo)) (mmB (argsAt (X 0)).Vh (Cert.Spec.hN4 (argsAt (X 0)))) := by
  rw [r.i54, s5_mulA, (good54 r).sp, c5_p54 r]

/-- Times W. -/
theorem c5_q56 : X 56 (Proc.devRef .tc main_v182) = mmC (mulf (Cert.Spec.spB (Cert.Spec.spOf (argsAt (X 0)).S (argsAt (X 0)).shift (argsAt (X 0)).expo)) (mmB (argsAt (X 0)).Vh (Cert.Spec.hN4 (argsAt (X 0))))) (argsAt (X 0)).W := by
  rw [val55 r, c5_q55 r, (good55 r).bW]; exact whole_DC_right _ _

/-- U times that: the operator's value L0 at the state. -/
theorem c5_l57 : X 57 (Proc.devRef .tc main_v183) = Cert.Spec.lxwOf (argsAt (X 0)).U (argsAt (X 0)).Vh (argsAt (X 0)).W (Cert.Spec.spOf (argsAt (X 0)).S (argsAt (X 0)).shift (argsAt (X 0)).expo) (Cert.Spec.hN4 (argsAt (X 0))) := by
  rw [val56 r, (good56 r).bU, c5_q56 r, lxwOf_mm]; exact whole_DB_left _ _

/-- The first slope K0. -/
theorem c5_k58 : X 58 (Proc.devRef .tc main_v185) = Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN4 (argsAt (X 0)))) := by
  rw [r.i57, s5_k0, c5_l57 r]

/-- The step size times one. -/
theorem c5_s58 : X 58 (Proc.devRef .tc main_v186) = mulf (Cert.Spec.scal (argsAt (X 0)).step) (Cert.Spec.c1 (F := Ideal)) := by
  rw [r.i57, s5_ss1, (good57 r).ss]

/-- Vh times K0. -/
theorem c5_p59 : X 59 (Proc.devRef .tc main_v187) = mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN4 (argsAt (X 0))))) := by
  rw [val58 r, (good58 r).bVh, c5_k58 r]; exact whole_DB_left _ _

/-- Scaled by the spectrum. -/
theorem c5_q60 : X 60 (Proc.devRef .tc main_v190) = mulf (Cert.Spec.spB (Cert.Spec.spOf (argsAt (X 0)).S (argsAt (X 0)).shift (argsAt (X 0)).expo)) (mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN4 (argsAt (X 0)))))) := by
  rw [r.i59, s5_mulB, (good59 r).sp, c5_p59 r]

/-- Times W. -/
theorem c5_q61 : X 61 (Proc.devRef .tc main_v191) = mmC (mulf (Cert.Spec.spB (Cert.Spec.spOf (argsAt (X 0)).S (argsAt (X 0)).shift (argsAt (X 0)).expo)) (mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN4 (argsAt (X 0))))))) (argsAt (X 0)).W := by
  rw [val60 r, c5_q60 r, (good60 r).bW]; exact whole_DC_right _ _

/-- U times that: the operator's value at K0. -/
theorem c5_m62 : X 62 (Proc.devRef .tc main_v192) = Cert.Spec.lxwOf (argsAt (X 0)).U (argsAt (X 0)).Vh (argsAt (X 0)).W (Cert.Spec.spOf (argsAt (X 0)).S (argsAt (X 0)).shift (argsAt (X 0)).expo) (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN4 (argsAt (X 0))))) := by
  rw [val61 r, (good61 r).bU, c5_q61 r, lxwOf_mm]; exact whole_DB_left _ _

/-- The state, L0, K0 and the step size times one are still where they were written. -/
theorem c5_h62 : X 62 (Proc.devRef .tc main_v168) = Cert.Spec.hN4 (argsAt (X 0)) :=
  (keep61 r (by decide)).trans ((keep60 r (by decide)).trans ((keep59 r (by decide)).trans ((keep58 r (by decide)).trans ((keep57 r (by decide)).trans ((keep56 r (by decide)).trans ((keep55 r (by decide)).trans ((keep54 r (by decide)).trans ((keep53 r (by decide)).trans (c4_h53 r)))))))))

theorem c5_l62 : X 62 (Proc.devRef .tc main_v183) = Cert.Spec.lxwOf (argsAt (X 0)).U (argsAt (X 0)).Vh (argsAt (X 0)).W (Cert.Spec.spOf (argsAt (X 0)).S (argsAt (X 0)).shift (argsAt (X 0)).expo) (Cert.Spec.hN4 (argsAt (X 0))) :=
  (keep61 r (by decide)).trans ((keep60 r (by decide)).trans ((keep59 r (by decide)).trans ((keep58 r (by decide)).trans ((keep57 r (by decide)).trans (c5_l57 r)))))

theorem c5_k62 : X 62 (Proc.devRef .tc main_v185) = Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN4 (argsAt (X 0)))) :=
  (keep61 r (by decide)).trans ((keep60 r (by decide)).trans ((keep59 r (by decide)).trans ((keep58 r (by decide)).trans (c5_k58 r))))

theorem c5_s62 : X 62 (Proc.devRef .tc main_v186) = mulf (Cert.Spec.scal (argsAt (X 0)).step) (Cert.Spec.c1 (F := Ideal)) :=
  (keep61 r (by decide)).trans ((keep60 r (by decide)).trans ((keep59 r (by decide)).trans ((keep58 r (by decide)).trans (c5_s58 r))))

/-- The stretch after the sixth region leaves the next state. -/
theorem c5_h63 : X 63 (Proc.devRef .tc main_v205) = Cert.Spec.hN5 (argsAt (X 0)) := by
  rw [r.i62, s5_h (X 62) (good62 r).ss (c5_h62 r) (c5_l62 r) (c5_k62 r) (c5_s62 r) (c5_m62 r), Cert.Spec.hN5_eq]
  rfl

/-- And the next state divided by its norm. -/
theorem c5_n63 : X 63 (Proc.devRef .tc main_v210) = Cert.Spec.hnOf (Cert.Spec.hN5 (argsAt (X 0))) := by
  rw [← c5_h63 r, r.i62]; exact s5_hn (X 62)

/-- The seventh region leaves snl times the normalised next state. -/
theorem c5_p64 : X 64 (Proc.devRef .tc main_v211) = mmB (argsAt (X 0)).snl (Cert.Spec.hnOf (Cert.Spec.hN5 (argsAt (X 0)))) := by
  rw [val63 r, (good63 r).bsnl, c5_n63 r]; exact whole_DB_left _ _

theorem c5_n64 : X 64 (Proc.devRef .tc main_v210) = Cert.Spec.hnOf (Cert.Spec.hN5 (argsAt (X 0))) :=
  (keep63 r (by decide)).trans (c5_n63 r)

theorem c5_h64 : X 64 (Proc.devRef .tc main_v205) = Cert.Spec.hN5 (argsAt (X 0)) :=
  (keep63 r (by decide)).trans (c5_h63 r)

/-- The last stretch leaves the next state's energy. -/
theorem c5_e65 : X 65 (Proc.devRef .tc main_v214) = Cert.Spec.energyOf (argsAt (X 0)).snl (Cert.Spec.hN5 (argsAt (X 0))) := by
  rw [r.i64]; exact s5_e (X 64) (c5_p64 r) (c5_n64 r)

theorem c5_h65 : X 65 (Proc.devRef .tc main_v205) = Cert.Spec.hN5 (argsAt (X 0)) :=
  (keep64 r (by decide)).trans (c5_h64 r)

/-! ## Step 6 -/

/-- Vh times the state. -/
theorem c6_p66 : X 66 (Proc.devRef .tc main_v215) = mmB (argsAt (X 0)).Vh (Cert.Spec.hN5 (argsAt (X 0))) := by
  rw [val65 r, (good65 r).bVh, c5_h65 r]; exact whole_DB_left _ _

/-- Scaled by the spectrum. -/
theorem c6_q67 : X 67 (Proc.devRef .tc main_v218) = mulf (Cert.Spec.spB (Cert.Spec.spOf (argsAt (X 0)).S (argsAt (X 0)).shift (argsAt (X 0)).expo)) (mmB (argsAt (X 0)).Vh (Cert.Spec.hN5 (argsAt (X 0)))) := by
  rw [r.i66, s6_mulA, (good66 r).sp, c6_p66 r]

/-- Times W. -/
theorem c6_q68 : X 68 (Proc.devRef .tc main_v219) = mmC (mulf (Cert.Spec.spB (Cert.Spec.spOf (argsAt (X 0)).S (argsAt (X 0)).shift (argsAt (X 0)).expo)) (mmB (argsAt (X 0)).Vh (Cert.Spec.hN5 (argsAt (X 0))))) (argsAt (X 0)).W := by
  rw [val67 r, c6_q67 r, (good67 r).bW]; exact whole_DC_right _ _

/-- U times that: the operator's value L0 at the state. -/
theorem c6_l69 : X 69 (Proc.devRef .tc main_v220) = Cert.Spec.lxwOf (argsAt (X 0)).U (argsAt (X 0)).Vh (argsAt (X 0)).W (Cert.Spec.spOf (argsAt (X 0)).S (argsAt (X 0)).shift (argsAt (X 0)).expo) (Cert.Spec.hN5 (argsAt (X 0))) := by
  rw [val68 r, (good68 r).bU, c6_q68 r, lxwOf_mm]; exact whole_DB_left _ _

/-- The first slope K0. -/
theorem c6_k70 : X 70 (Proc.devRef .tc main_v222) = Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN5 (argsAt (X 0)))) := by
  rw [r.i69, s6_k0, c6_l69 r]

/-- The step size times one. -/
theorem c6_s70 : X 70 (Proc.devRef .tc main_v223) = mulf (Cert.Spec.scal (argsAt (X 0)).step) (Cert.Spec.c1 (F := Ideal)) := by
  rw [r.i69, s6_ss1, (good69 r).ss]

/-- Vh times K0. -/
theorem c6_p71 : X 71 (Proc.devRef .tc main_v224) = mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN5 (argsAt (X 0))))) := by
  rw [val70 r, (good70 r).bVh, c6_k70 r]; exact whole_DB_left _ _

/-- Scaled by the spectrum. -/
theorem c6_q72 : X 72 (Proc.devRef .tc main_v227) = mulf (Cert.Spec.spB (Cert.Spec.spOf (argsAt (X 0)).S (argsAt (X 0)).shift (argsAt (X 0)).expo)) (mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN5 (argsAt (X 0)))))) := by
  rw [r.i71, s6_mulB, (good71 r).sp, c6_p71 r]

/-- Times W. -/
theorem c6_q73 : X 73 (Proc.devRef .tc main_v228) = mmC (mulf (Cert.Spec.spB (Cert.Spec.spOf (argsAt (X 0)).S (argsAt (X 0)).shift (argsAt (X 0)).expo)) (mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN5 (argsAt (X 0))))))) (argsAt (X 0)).W := by
  rw [val72 r, c6_q72 r, (good72 r).bW]; exact whole_DC_right _ _

/-- U times that: the operator's value at K0. -/
theorem c6_m74 : X 74 (Proc.devRef .tc main_v229) = Cert.Spec.lxwOf (argsAt (X 0)).U (argsAt (X 0)).Vh (argsAt (X 0)).W (Cert.Spec.spOf (argsAt (X 0)).S (argsAt (X 0)).shift (argsAt (X 0)).expo) (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN5 (argsAt (X 0))))) := by
  rw [val73 r, (good73 r).bU, c6_q73 r, lxwOf_mm]; exact whole_DB_left _ _

/-- The state, L0, K0 and the step size times one are still where they were written. -/
theorem c6_h74 : X 74 (Proc.devRef .tc main_v205) = Cert.Spec.hN5 (argsAt (X 0)) :=
  (keep73 r (by decide)).trans ((keep72 r (by decide)).trans ((keep71 r (by decide)).trans ((keep70 r (by decide)).trans ((keep69 r (by decide)).trans ((keep68 r (by decide)).trans ((keep67 r (by decide)).trans ((keep66 r (by decide)).trans ((keep65 r (by decide)).trans (c5_h65 r)))))))))

theorem c6_l74 : X 74 (Proc.devRef .tc main_v220) = Cert.Spec.lxwOf (argsAt (X 0)).U (argsAt (X 0)).Vh (argsAt (X 0)).W (Cert.Spec.spOf (argsAt (X 0)).S (argsAt (X 0)).shift (argsAt (X 0)).expo) (Cert.Spec.hN5 (argsAt (X 0))) :=
  (keep73 r (by decide)).trans ((keep72 r (by decide)).trans ((keep71 r (by decide)).trans ((keep70 r (by decide)).trans ((keep69 r (by decide)).trans (c6_l69 r)))))

theorem c6_k74 : X 74 (Proc.devRef .tc main_v222) = Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN5 (argsAt (X 0)))) :=
  (keep73 r (by decide)).trans ((keep72 r (by decide)).trans ((keep71 r (by decide)).trans ((keep70 r (by decide)).trans (c6_k70 r))))

theorem c6_s74 : X 74 (Proc.devRef .tc main_v223) = mulf (Cert.Spec.scal (argsAt (X 0)).step) (Cert.Spec.c1 (F := Ideal)) :=
  (keep73 r (by decide)).trans ((keep72 r (by decide)).trans ((keep71 r (by decide)).trans ((keep70 r (by decide)).trans (c6_s70 r))))

/-- The stretch after the sixth region leaves the next state. -/
theorem c6_h75 : X 75 (Proc.devRef .tc main_v242) = Cert.Spec.hN6 (argsAt (X 0)) := by
  rw [r.i74, s6_h (X 74) (good74 r).ss (c6_h74 r) (c6_l74 r) (c6_k74 r) (c6_s74 r) (c6_m74 r), Cert.Spec.hN6_eq]
  rfl

/-- And the next state divided by its norm. -/
theorem c6_n75 : X 75 (Proc.devRef .tc main_v247) = Cert.Spec.hnOf (Cert.Spec.hN6 (argsAt (X 0))) := by
  rw [← c6_h75 r, r.i74]; exact s6_hn (X 74)

/-- The seventh region leaves snl times the normalised next state. -/
theorem c6_p76 : X 76 (Proc.devRef .tc main_v248) = mmB (argsAt (X 0)).snl (Cert.Spec.hnOf (Cert.Spec.hN6 (argsAt (X 0)))) := by
  rw [val75 r, (good75 r).bsnl, c6_n75 r]; exact whole_DB_left _ _

theorem c6_n76 : X 76 (Proc.devRef .tc main_v247) = Cert.Spec.hnOf (Cert.Spec.hN6 (argsAt (X 0))) :=
  (keep75 r (by decide)).trans (c6_n75 r)

theorem c6_h76 : X 76 (Proc.devRef .tc main_v242) = Cert.Spec.hN6 (argsAt (X 0)) :=
  (keep75 r (by decide)).trans (c6_h75 r)

/-- The last stretch leaves the next state's energy. -/
theorem c6_e77 : X 77 (Proc.devRef .tc main_v251) = Cert.Spec.energyOf (argsAt (X 0)).snl (Cert.Spec.hN6 (argsAt (X 0))) := by
  rw [r.i76]; exact s6_e (X 76) (c6_p76 r) (c6_n76 r)

theorem c6_h77 : X 77 (Proc.devRef .tc main_v242) = Cert.Spec.hN6 (argsAt (X 0)) :=
  (keep76 r (by decide)).trans (c6_h76 r)

/-! ## Step 7 -/

/-- Vh times the state. -/
theorem c7_p78 : X 78 (Proc.devRef .tc main_v252) = mmB (argsAt (X 0)).Vh (Cert.Spec.hN6 (argsAt (X 0))) := by
  rw [val77 r, (good77 r).bVh, c6_h77 r]; exact whole_DB_left _ _

/-- Scaled by the spectrum. -/
theorem c7_q79 : X 79 (Proc.devRef .tc main_v255) = mulf (Cert.Spec.spB (Cert.Spec.spOf (argsAt (X 0)).S (argsAt (X 0)).shift (argsAt (X 0)).expo)) (mmB (argsAt (X 0)).Vh (Cert.Spec.hN6 (argsAt (X 0)))) := by
  rw [r.i78, s7_mulA, (good78 r).sp, c7_p78 r]

/-- Times W. -/
theorem c7_q80 : X 80 (Proc.devRef .tc main_v256) = mmC (mulf (Cert.Spec.spB (Cert.Spec.spOf (argsAt (X 0)).S (argsAt (X 0)).shift (argsAt (X 0)).expo)) (mmB (argsAt (X 0)).Vh (Cert.Spec.hN6 (argsAt (X 0))))) (argsAt (X 0)).W := by
  rw [val79 r, c7_q79 r, (good79 r).bW]; exact whole_DC_right _ _

/-- U times that: the operator's value L0 at the state. -/
theorem c7_l81 : X 81 (Proc.devRef .tc main_v257) = Cert.Spec.lxwOf (argsAt (X 0)).U (argsAt (X 0)).Vh (argsAt (X 0)).W (Cert.Spec.spOf (argsAt (X 0)).S (argsAt (X 0)).shift (argsAt (X 0)).expo) (Cert.Spec.hN6 (argsAt (X 0))) := by
  rw [val80 r, (good80 r).bU, c7_q80 r, lxwOf_mm]; exact whole_DB_left _ _

/-- The first slope K0. -/
theorem c7_k82 : X 82 (Proc.devRef .tc main_v259) = Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN6 (argsAt (X 0)))) := by
  rw [r.i81, s7_k0, c7_l81 r]

/-- The step size times one. -/
theorem c7_s82 : X 82 (Proc.devRef .tc main_v260) = mulf (Cert.Spec.scal (argsAt (X 0)).step) (Cert.Spec.c1 (F := Ideal)) := by
  rw [r.i81, s7_ss1, (good81 r).ss]

/-- Vh times K0. -/
theorem c7_p83 : X 83 (Proc.devRef .tc main_v261) = mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN6 (argsAt (X 0))))) := by
  rw [val82 r, (good82 r).bVh, c7_k82 r]; exact whole_DB_left _ _

/-- Scaled by the spectrum. -/
theorem c7_q84 : X 84 (Proc.devRef .tc main_v264) = mulf (Cert.Spec.spB (Cert.Spec.spOf (argsAt (X 0)).S (argsAt (X 0)).shift (argsAt (X 0)).expo)) (mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN6 (argsAt (X 0)))))) := by
  rw [r.i83, s7_mulB, (good83 r).sp, c7_p83 r]

/-- Times W. -/
theorem c7_q85 : X 85 (Proc.devRef .tc main_v265) = mmC (mulf (Cert.Spec.spB (Cert.Spec.spOf (argsAt (X 0)).S (argsAt (X 0)).shift (argsAt (X 0)).expo)) (mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN6 (argsAt (X 0))))))) (argsAt (X 0)).W := by
  rw [val84 r, c7_q84 r, (good84 r).bW]; exact whole_DC_right _ _

/-- U times that: the operator's value at K0. -/
theorem c7_m86 : X 86 (Proc.devRef .tc main_v266) = Cert.Spec.lxwOf (argsAt (X 0)).U (argsAt (X 0)).Vh (argsAt (X 0)).W (Cert.Spec.spOf (argsAt (X 0)).S (argsAt (X 0)).shift (argsAt (X 0)).expo) (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN6 (argsAt (X 0))))) := by
  rw [val85 r, (good85 r).bU, c7_q85 r, lxwOf_mm]; exact whole_DB_left _ _

/-- The state, L0, K0 and the step size times one are still where they were written. -/
theorem c7_h86 : X 86 (Proc.devRef .tc main_v242) = Cert.Spec.hN6 (argsAt (X 0)) :=
  (keep85 r (by decide)).trans ((keep84 r (by decide)).trans ((keep83 r (by decide)).trans ((keep82 r (by decide)).trans ((keep81 r (by decide)).trans ((keep80 r (by decide)).trans ((keep79 r (by decide)).trans ((keep78 r (by decide)).trans ((keep77 r (by decide)).trans (c6_h77 r)))))))))

theorem c7_l86 : X 86 (Proc.devRef .tc main_v257) = Cert.Spec.lxwOf (argsAt (X 0)).U (argsAt (X 0)).Vh (argsAt (X 0)).W (Cert.Spec.spOf (argsAt (X 0)).S (argsAt (X 0)).shift (argsAt (X 0)).expo) (Cert.Spec.hN6 (argsAt (X 0))) :=
  (keep85 r (by decide)).trans ((keep84 r (by decide)).trans ((keep83 r (by decide)).trans ((keep82 r (by decide)).trans ((keep81 r (by decide)).trans (c7_l81 r)))))

theorem c7_k86 : X 86 (Proc.devRef .tc main_v259) = Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN6 (argsAt (X 0)))) :=
  (keep85 r (by decide)).trans ((keep84 r (by decide)).trans ((keep83 r (by decide)).trans ((keep82 r (by decide)).trans (c7_k82 r))))

theorem c7_s86 : X 86 (Proc.devRef .tc main_v260) = mulf (Cert.Spec.scal (argsAt (X 0)).step) (Cert.Spec.c1 (F := Ideal)) :=
  (keep85 r (by decide)).trans ((keep84 r (by decide)).trans ((keep83 r (by decide)).trans ((keep82 r (by decide)).trans (c7_s82 r))))

/-- The stretch after the sixth region leaves the next state. -/
theorem c7_h87 : X 87 (Proc.devRef .tc main_v279) = Cert.Spec.hN7 (argsAt (X 0)) := by
  rw [r.i86, s7_h (X 86) (good86 r).ss (c7_h86 r) (c7_l86 r) (c7_k86 r) (c7_s86 r) (c7_m86 r), Cert.Spec.hN7_eq]
  rfl

/-- And the next state divided by its norm. -/
theorem c7_n87 : X 87 (Proc.devRef .tc main_v284) = Cert.Spec.hnOf (Cert.Spec.hN7 (argsAt (X 0))) := by
  rw [← c7_h87 r, r.i86]; exact s7_hn (X 86)

/-- The seventh region leaves snl times the normalised next state. -/
theorem c7_p88 : X 88 (Proc.devRef .tc main_v285) = mmB (argsAt (X 0)).snl (Cert.Spec.hnOf (Cert.Spec.hN7 (argsAt (X 0)))) := by
  rw [val87 r, (good87 r).bsnl, c7_n87 r]; exact whole_DB_left _ _

theorem c7_n88 : X 88 (Proc.devRef .tc main_v284) = Cert.Spec.hnOf (Cert.Spec.hN7 (argsAt (X 0))) :=
  (keep87 r (by decide)).trans (c7_n87 r)

theorem c7_h88 : X 88 (Proc.devRef .tc main_v279) = Cert.Spec.hN7 (argsAt (X 0)) :=
  (keep87 r (by decide)).trans (c7_h87 r)

/-- The last stretch leaves the next state's energy. -/
theorem c7_e89 : X 89 (Proc.devRef .tc main_v288) = Cert.Spec.energyOf (argsAt (X 0)).snl (Cert.Spec.hN7 (argsAt (X 0))) := by
  rw [r.i88]; exact s7_e (X 88) (c7_p88 r) (c7_n88 r)

theorem c7_h89 : X 89 (Proc.devRef .tc main_v279) = Cert.Spec.hN7 (argsAt (X 0)) :=
  (keep88 r (by decide)).trans (c7_h88 r)

/-! ## Step 8 -/

/-- Vh times the state. -/
theorem c8_p90 : X 90 (Proc.devRef .tc main_v289) = mmB (argsAt (X 0)).Vh (Cert.Spec.hN7 (argsAt (X 0))) := by
  rw [val89 r, (good89 r).bVh, c7_h89 r]; exact whole_DB_left _ _

/-- Scaled by the spectrum. -/
theorem c8_q91 : X 91 (Proc.devRef .tc main_v292) = mulf (Cert.Spec.spB (Cert.Spec.spOf (argsAt (X 0)).S (argsAt (X 0)).shift (argsAt (X 0)).expo)) (mmB (argsAt (X 0)).Vh (Cert.Spec.hN7 (argsAt (X 0)))) := by
  rw [r.i90, s8_mulA, (good90 r).sp, c8_p90 r]

/-- Times W. -/
theorem c8_q92 : X 92 (Proc.devRef .tc main_v293) = mmC (mulf (Cert.Spec.spB (Cert.Spec.spOf (argsAt (X 0)).S (argsAt (X 0)).shift (argsAt (X 0)).expo)) (mmB (argsAt (X 0)).Vh (Cert.Spec.hN7 (argsAt (X 0))))) (argsAt (X 0)).W := by
  rw [val91 r, c8_q91 r, (good91 r).bW]; exact whole_DC_right _ _

/-- U times that: the operator's value L0 at the state. -/
theorem c8_l93 : X 93 (Proc.devRef .tc main_v294) = Cert.Spec.lxwOf (argsAt (X 0)).U (argsAt (X 0)).Vh (argsAt (X 0)).W (Cert.Spec.spOf (argsAt (X 0)).S (argsAt (X 0)).shift (argsAt (X 0)).expo) (Cert.Spec.hN7 (argsAt (X 0))) := by
  rw [val92 r, (good92 r).bU, c8_q92 r, lxwOf_mm]; exact whole_DB_left _ _

/-- The first slope K0. -/
theorem c8_k94 : X 94 (Proc.devRef .tc main_v296) = Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN7 (argsAt (X 0)))) := by
  rw [r.i93, s8_k0, c8_l93 r]

/-- The step size times one. -/
theorem c8_s94 : X 94 (Proc.devRef .tc main_v297) = mulf (Cert.Spec.scal (argsAt (X 0)).step) (Cert.Spec.c1 (F := Ideal)) := by
  rw [r.i93, s8_ss1, (good93 r).ss]

/-- Vh times K0. -/
theorem c8_p95 : X 95 (Proc.devRef .tc main_v298) = mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN7 (argsAt (X 0))))) := by
  rw [val94 r, (good94 r).bVh, c8_k94 r]; exact whole_DB_left _ _

/-- Scaled by the spectrum. -/
theorem c8_q96 : X 96 (Proc.devRef .tc main_v301) = mulf (Cert.Spec.spB (Cert.Spec.spOf (argsAt (X 0)).S (argsAt (X 0)).shift (argsAt (X 0)).expo)) (mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN7 (argsAt (X 0)))))) := by
  rw [r.i95, s8_mulB, (good95 r).sp, c8_p95 r]

/-- Times W. -/
theorem c8_q97 : X 97 (Proc.devRef .tc main_v302) = mmC (mulf (Cert.Spec.spB (Cert.Spec.spOf (argsAt (X 0)).S (argsAt (X 0)).shift (argsAt (X 0)).expo)) (mmB (argsAt (X 0)).Vh (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN7 (argsAt (X 0))))))) (argsAt (X 0)).W := by
  rw [val96 r, c8_q96 r, (good96 r).bW]; exact whole_DC_right _ _

/-- U times that: the operator's value at K0. -/
theorem c8_m98 : X 98 (Proc.devRef .tc main_v303) = Cert.Spec.lxwOf (argsAt (X 0)).U (argsAt (X 0)).Vh (argsAt (X 0)).W (Cert.Spec.spOf (argsAt (X 0)).S (argsAt (X 0)).shift (argsAt (X 0)).expo) (Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN7 (argsAt (X 0))))) := by
  rw [val97 r, (good97 r).bU, c8_q97 r, lxwOf_mm]; exact whole_DB_left _ _

/-- The state, L0, K0 and the step size times one are still where they were written. -/
theorem c8_h98 : X 98 (Proc.devRef .tc main_v279) = Cert.Spec.hN7 (argsAt (X 0)) :=
  (keep97 r (by decide)).trans ((keep96 r (by decide)).trans ((keep95 r (by decide)).trans ((keep94 r (by decide)).trans ((keep93 r (by decide)).trans ((keep92 r (by decide)).trans ((keep91 r (by decide)).trans ((keep90 r (by decide)).trans ((keep89 r (by decide)).trans (c7_h89 r)))))))))

theorem c8_l98 : X 98 (Proc.devRef .tc main_v294) = Cert.Spec.lxwOf (argsAt (X 0)).U (argsAt (X 0)).Vh (argsAt (X 0)).W (Cert.Spec.spOf (argsAt (X 0)).S (argsAt (X 0)).shift (argsAt (X 0)).expo) (Cert.Spec.hN7 (argsAt (X 0))) :=
  (keep97 r (by decide)).trans ((keep96 r (by decide)).trans ((keep95 r (by decide)).trans ((keep94 r (by decide)).trans ((keep93 r (by decide)).trans (c8_l93 r)))))

theorem c8_k98 : X 98 (Proc.devRef .tc main_v296) = Cert.Spec.k0Of (Cert.Spec.lxwOf (argsAt (X 0)).U (argsAt (X 0)).Vh (argsAt (X 0)).W (Cert.Spec.spOf (argsAt (X 0)).S (argsAt (X 0)).shift (argsAt (X 0)).expo) (Cert.Spec.hN7 (argsAt (X 0)))) :=
  (keep97 r (by decide)).trans ((keep96 r (by decide)).trans ((keep95 r (by decide)).trans ((keep94 r (by decide)).trans (c8_k94 r))))

theorem c8_s98 : X 98 (Proc.devRef .tc main_v297) = mulf (Cert.Spec.scal (argsAt (X 0)).step) (Cert.Spec.c1 (F := Ideal)) :=
  (keep97 r (by decide)).trans ((keep96 r (by decide)).trans ((keep95 r (by decide)).trans ((keep94 r (by decide)).trans (c8_s94 r))))

/-- The stretch after the sixth region leaves the next state. -/
theorem c8_h99 : X 99 (Proc.devRef .tc main_v316) = Cert.Spec.hN8 (argsAt (X 0)) := by
  rw [r.i98, s8_h (X 98) (good98 r).ss (c8_h98 r) (c8_l98 r) (c8_k98 r) (c8_s98 r) (c8_m98 r), Cert.Spec.hN8_eq]
  rfl

/-- And the next state divided by its norm. -/
theorem c8_n99 : X 99 (Proc.devRef .tc main_v321) = Cert.Spec.hnOf (Cert.Spec.hN8 (argsAt (X 0))) := by
  rw [← c8_h99 r, r.i98]; exact s8_hn (X 98)

/-- The seventh region leaves snl times the normalised next state. -/
theorem c8_p100 : X 100 (Proc.devRef .tc main_v322) = mmB (argsAt (X 0)).snl (Cert.Spec.hnOf (Cert.Spec.hN8 (argsAt (X 0)))) := by
  rw [val99 r, (good99 r).bsnl, c8_n99 r]; exact whole_DB_left _ _

theorem c8_n100 : X 100 (Proc.devRef .tc main_v321) = Cert.Spec.hnOf (Cert.Spec.hN8 (argsAt (X 0))) :=
  (keep99 r (by decide)).trans (c8_n99 r)

theorem c8_h100 : X 100 (Proc.devRef .tc main_v316) = Cert.Spec.hN8 (argsAt (X 0)) :=
  (keep99 r (by decide)).trans (c8_h99 r)

/-- The last stretch leaves the next state's energy. -/
theorem c8_e101 : X 101 (Proc.devRef .tc main_v325) = Cert.Spec.energyOf (argsAt (X 0)).snl (Cert.Spec.hN8 (argsAt (X 0))) := by
  rw [r.i100]; exact s8_e (X 100) (c8_p100 r) (c8_n100 r)

theorem c8_h101 : X 101 (Proc.devRef .tc main_v316) = Cert.Spec.hN8 (argsAt (X 0)) :=
  (keep100 r (by decide)).trans (c8_h100 r)

/-! ## The energies when the last stretch starts, and the last state when the decoder starts -/

theorem e0_105 : X 105 (Proc.devRef .tc main_v29) = Cert.Spec.energyOf (argsAt (X 0)).snl (Cert.Spec.hN0 (argsAt (X 0))) :=
  (keep104 r (by decide)).trans ((keep103 r (by decide)).trans ((keep102 r (by decide)).trans ((keep101 r (by decide)).trans ((keep100 r (by decide)).trans ((keep99 r (by decide)).trans ((keep98 r (by decide)).trans ((keep97 r (by decide)).trans ((keep96 r (by decide)).trans ((keep95 r (by decide)).trans ((keep94 r (by decide)).trans ((keep93 r (by decide)).trans ((keep92 r (by decide)).trans ((keep91 r (by decide)).trans ((keep90 r (by decide)).trans ((keep89 r (by decide)).trans ((keep88 r (by decide)).trans ((keep87 r (by decide)).trans ((keep86 r (by decide)).trans ((keep85 r (by decide)).trans ((keep84 r (by decide)).trans ((keep83 r (by decide)).trans ((keep82 r (by decide)).trans ((keep81 r (by decide)).trans ((keep80 r (by decide)).trans ((keep79 r (by decide)).trans ((keep78 r (by decide)).trans ((keep77 r (by decide)).trans ((keep76 r (by decide)).trans ((keep75 r (by decide)).trans ((keep74 r (by decide)).trans ((keep73 r (by decide)).trans ((keep72 r (by decide)).trans ((keep71 r (by decide)).trans ((keep70 r (by decide)).trans ((keep69 r (by decide)).trans ((keep68 r (by decide)).trans ((keep67 r (by decide)).trans ((keep66 r (by decide)).trans ((keep65 r (by decide)).trans ((keep64 r (by decide)).trans ((keep63 r (by decide)).trans ((keep62 r (by decide)).trans ((keep61 r (by decide)).trans ((keep60 r (by decide)).trans ((keep59 r (by decide)).trans ((keep58 r (by decide)).trans ((keep57 r (by decide)).trans ((keep56 r (by decide)).trans ((keep55 r (by decide)).trans ((keep54 r (by decide)).trans ((keep53 r (by decide)).trans ((keep52 r (by decide)).trans ((keep51 r (by decide)).trans ((keep50 r (by decide)).trans ((keep49 r (by decide)).trans ((keep48 r (by decide)).trans ((keep47 r (by decide)).trans ((keep46 r (by decide)).trans ((keep45 r (by decide)).trans ((keep44 r (by decide)).trans ((keep43 r (by decide)).trans ((keep42 r (by decide)).trans ((keep41 r (by decide)).trans ((keep40 r (by decide)).trans ((keep39 r (by decide)).trans ((keep38 r (by decide)).trans ((keep37 r (by decide)).trans ((keep36 r (by decide)).trans ((keep35 r (by decide)).trans ((keep34 r (by decide)).trans ((keep33 r (by decide)).trans ((keep32 r (by decide)).trans ((keep31 r (by decide)).trans ((keep30 r (by decide)).trans ((keep29 r (by decide)).trans ((keep28 r (by decide)).trans ((keep27 r (by decide)).trans ((keep26 r (by decide)).trans ((keep25 r (by decide)).trans ((keep24 r (by decide)).trans ((keep23 r (by decide)).trans ((keep22 r (by decide)).trans ((keep21 r (by decide)).trans ((keep20 r (by decide)).trans ((keep19 r (by decide)).trans ((keep18 r (by decide)).trans ((keep17 r (by decide)).trans ((keep16 r (by decide)).trans ((keep15 r (by decide)).trans ((keep14 r (by decide)).trans ((keep13 r (by decide)).trans ((keep12 r (by decide)).trans ((keep11 r (by decide)).trans ((keep10 r (by decide)).trans ((keep9 r (by decide)).trans ((keep8 r (by decide)).trans ((keep7 r (by decide)).trans ((keep6 r (by decide)).trans ((keep5 r (by decide)).trans (c0_e5 r))))))))))))))))))))))))))))))))))))))))))))))))))))))))))))))))))))))))))))))))))))))))))))))))))))

theorem e1_105 : X 105 (Proc.devRef .tc main_v66) = Cert.Spec.energyOf (argsAt (X 0)).snl (Cert.Spec.hN1 (argsAt (X 0))) :=
  (keep104 r (by decide)).trans ((keep103 r (by decide)).trans ((keep102 r (by decide)).trans ((keep101 r (by decide)).trans ((keep100 r (by decide)).trans ((keep99 r (by decide)).trans ((keep98 r (by decide)).trans ((keep97 r (by decide)).trans ((keep96 r (by decide)).trans ((keep95 r (by decide)).trans ((keep94 r (by decide)).trans ((keep93 r (by decide)).trans ((keep92 r (by decide)).trans ((keep91 r (by decide)).trans ((keep90 r (by decide)).trans ((keep89 r (by decide)).trans ((keep88 r (by decide)).trans ((keep87 r (by decide)).trans ((keep86 r (by decide)).trans ((keep85 r (by decide)).trans ((keep84 r (by decide)).trans ((keep83 r (by decide)).trans ((keep82 r (by decide)).trans ((keep81 r (by decide)).trans ((keep80 r (by decide)).trans ((keep79 r (by decide)).trans ((keep78 r (by decide)).trans ((keep77 r (by decide)).trans ((keep76 r (by decide)).trans ((keep75 r (by decide)).trans ((keep74 r (by decide)).trans ((keep73 r (by decide)).trans ((keep72 r (by decide)).trans ((keep71 r (by decide)).trans ((keep70 r (by decide)).trans ((keep69 r (by decide)).trans ((keep68 r (by decide)).trans ((keep67 r (by decide)).trans ((keep66 r (by decide)).trans ((keep65 r (by decide)).trans ((keep64 r (by decide)).trans ((keep63 r (by decide)).trans ((keep62 r (by decide)).trans ((keep61 r (by decide)).trans ((keep60 r (by decide)).trans ((keep59 r (by decide)).trans ((keep58 r (by decide)).trans ((keep57 r (by decide)).trans ((keep56 r (by decide)).trans ((keep55 r (by decide)).trans ((keep54 r (by decide)).trans ((keep53 r (by decide)).trans ((keep52 r (by decide)).trans ((keep51 r (by decide)).trans ((keep50 r (by decide)).trans ((keep49 r (by decide)).trans ((keep48 r (by decide)).trans ((keep47 r (by decide)).trans ((keep46 r (by decide)).trans ((keep45 r (by decide)).trans ((keep44 r (by decide)).trans ((keep43 r (by decide)).trans ((keep42 r (by decide)).trans ((keep41 r (by decide)).trans ((keep40 r (by decide)).trans ((keep39 r (by decide)).trans ((keep38 r (by decide)).trans ((keep37 r (by decide)).trans ((keep36 r (by decide)).trans ((keep35 r (by decide)).trans ((keep34 r (by decide)).trans ((keep33 r (by decide)).trans ((keep32 r (by decide)).trans ((keep31 r (by decide)).trans ((keep30 r (by decide)).trans ((keep29 r (by decide)).trans ((keep28 r (by decide)).trans ((keep27 r (by decide)).trans ((keep26 r (by decide)).trans ((keep25 r (by decide)).trans ((keep24 r (by decide)).trans ((keep23 r (by decide)).trans ((keep22 r (by decide)).trans ((keep21 r (by decide)).trans ((keep20 r (by decide)).trans ((keep19 r (by decide)).trans ((keep18 r (by decide)).trans ((keep17 r (by decide)).trans (c1_e17 r))))))))))))))))))))))))))))))))))))))))))))))))))))))))))))))))))))))))))))))))))))))))

theorem e2_105 : X 105 (Proc.devRef .tc main_v103) = Cert.Spec.energyOf (argsAt (X 0)).snl (Cert.Spec.hN2 (argsAt (X 0))) :=
  (keep104 r (by decide)).trans ((keep103 r (by decide)).trans ((keep102 r (by decide)).trans ((keep101 r (by decide)).trans ((keep100 r (by decide)).trans ((keep99 r (by decide)).trans ((keep98 r (by decide)).trans ((keep97 r (by decide)).trans ((keep96 r (by decide)).trans ((keep95 r (by decide)).trans ((keep94 r (by decide)).trans ((keep93 r (by decide)).trans ((keep92 r (by decide)).trans ((keep91 r (by decide)).trans ((keep90 r (by decide)).trans ((keep89 r (by decide)).trans ((keep88 r (by decide)).trans ((keep87 r (by decide)).trans ((keep86 r (by decide)).trans ((keep85 r (by decide)).trans ((keep84 r (by decide)).trans ((keep83 r (by decide)).trans ((keep82 r (by decide)).trans ((keep81 r (by decide)).trans ((keep80 r (by decide)).trans ((keep79 r (by decide)).trans ((keep78 r (by decide)).trans ((keep77 r (by decide)).trans ((keep76 r (by decide)).trans ((keep75 r (by decide)).trans ((keep74 r (by decide)).trans ((keep73 r (by decide)).trans ((keep72 r (by decide)).trans ((keep71 r (by decide)).trans ((keep70 r (by decide)).trans ((keep69 r (by decide)).trans ((keep68 r (by decide)).trans ((keep67 r (by decide)).trans ((keep66 r (by decide)).trans ((keep65 r (by decide)).trans ((keep64 r (by decide)).trans ((keep63 r (by decide)).trans ((keep62 r (by decide)).trans ((keep61 r (by decide)).trans ((keep60 r (by decide)).trans ((keep59 r (by decide)).trans ((keep58 r (by decide)).trans ((keep57 r (by decide)).trans ((keep56 r (by decide)).trans ((keep55 r (by decide)).trans ((keep54 r (by decide)).trans ((keep53 r (by decide)).trans ((keep52 r (by decide)).trans ((keep51 r (by decide)).trans ((keep50 r (by decide)).trans ((keep49 r (by decide)).trans ((keep48 r (by decide)).trans ((keep47 r (by decide)).trans ((keep46 r (by decide)).trans ((keep45 r (by decide)).trans ((keep44 r (by decide)).trans ((keep43 r (by decide)).trans ((keep42 r (by decide)).trans ((keep41 r (by decide)).trans ((keep40 r (by decide)).trans ((keep39 r (by decide)).trans ((keep38 r (by decide)).trans ((keep37 r (by decide)).trans ((keep36 r (by decide)).trans ((keep35 r (by decide)).trans ((keep34 r (by decide)).trans ((keep33 r (by decide)).trans ((keep32 r (by decide)).trans ((keep31 r (by decide)).trans ((keep30 r (by decide)).trans ((keep29 r (by decide)).trans (c2_e29 r))))))))))))))))))))))))))))))))))))))))))))))))))))))))))))))))))))))))))))

theorem e3_105 : X 105 (Proc.devRef .tc main_v140) = Cert.Spec.energyOf (argsAt (X 0)).snl (Cert.Spec.hN3 (argsAt (X 0))) :=
  (keep104 r (by decide)).trans ((keep103 r (by decide)).trans ((keep102 r (by decide)).trans ((keep101 r (by decide)).trans ((keep100 r (by decide)).trans ((keep99 r (by decide)).trans ((keep98 r (by decide)).trans ((keep97 r (by decide)).trans ((keep96 r (by decide)).trans ((keep95 r (by decide)).trans ((keep94 r (by decide)).trans ((keep93 r (by decide)).trans ((keep92 r (by decide)).trans ((keep91 r (by decide)).trans ((keep90 r (by decide)).trans ((keep89 r (by decide)).trans ((keep88 r (by decide)).trans ((keep87 r (by decide)).trans ((keep86 r (by decide)).trans ((keep85 r (by decide)).trans ((keep84 r (by decide)).trans ((keep83 r (by decide)).trans ((keep82 r (by decide)).trans ((keep81 r (by decide)).trans ((keep80 r (by decide)).trans ((keep79 r (by decide)).trans ((keep78 r (by decide)).trans ((keep77 r (by decide)).trans ((keep76 r (by decide)).trans ((keep75 r (by decide)).trans ((keep74 r (by decide)).trans ((keep73 r (by decide)).trans ((keep72 r (by decide)).trans ((keep71 r (by decide)).trans ((keep70 r (by decide)).trans ((keep69 r (by decide)).trans ((keep68 r (by decide)).trans ((keep67 r (by decide)).trans ((keep66 r (by decide)).trans ((keep65 r (by decide)).trans ((keep64 r (by decide)).trans ((keep63 r (by decide)).trans ((keep62 r (by decide)).trans ((keep61 r (by decide)).trans ((keep60 r (by decide)).trans ((keep59 r (by decide)).trans ((keep58 r (by decide)).trans ((keep57 r (by decide)).trans ((keep56 r (by decide)).trans ((keep55 r (by decide)).trans ((keep54 r (by decide)).trans ((keep53 r (by decide)).trans ((keep52 r (by decide)).trans ((keep51 r (by decide)).trans ((keep50 r (by decide)).trans ((keep49 r (by decide)).trans ((keep48 r (by decide)).trans ((keep47 r (by decide)).trans ((keep46 r (by decide)).trans ((keep45 r (by decide)).trans ((keep44 r (by decide)).trans ((keep43 r (by decide)).trans ((keep42 r (by decide)).trans ((keep41 r (by decide)).trans (c3_e41 r))))))))))))))))))))))))))))))))))))))))))))))))))))))))))))))))

theorem e4_105 : X 105 (Proc.devRef .tc main_v177) = Cert.Spec.energyOf (argsAt (X 0)).snl (Cert.Spec.hN4 (argsAt (X 0))) :=
  (keep104 r (by decide)).trans ((keep103 r (by decide)).trans ((keep102 r (by decide)).trans ((keep101 r (by decide)).trans ((keep100 r (by decide)).trans ((keep99 r (by decide)).trans ((keep98 r (by decide)).trans ((keep97 r (by decide)).trans ((keep96 r (by decide)).trans ((keep95 r (by decide)).trans ((keep94 r (by decide)).trans ((keep93 r (by decide)).trans ((keep92 r (by decide)).trans ((keep91 r (by decide)).trans ((keep90 r (by decide)).trans ((keep89 r (by decide)).trans ((keep88 r (by decide)).trans ((keep87 r (by decide)).trans ((keep86 r (by decide)).trans ((keep85 r (by decide)).trans ((keep84 r (by decide)).trans ((keep83 r (by decide)).trans ((keep82 r (by decide)).trans ((keep81 r (by decide)).trans ((keep80 r (by decide)).trans ((keep79 r (by decide)).trans ((keep78 r (by decide)).trans ((keep77 r (by decide)).trans ((keep76 r (by decide)).trans ((keep75 r (by decide)).trans ((keep74 r (by decide)).trans ((keep73 r (by decide)).trans ((keep72 r (by decide)).trans ((keep71 r (by decide)).trans ((keep70 r (by decide)).trans ((keep69 r (by decide)).trans ((keep68 r (by decide)).trans ((keep67 r (by decide)).trans ((keep66 r (by decide)).trans ((keep65 r (by decide)).trans ((keep64 r (by decide)).trans ((keep63 r (by decide)).trans ((keep62 r (by decide)).trans ((keep61 r (by decide)).trans ((keep60 r (by decide)).trans ((keep59 r (by decide)).trans ((keep58 r (by decide)).trans ((keep57 r (by decide)).trans ((keep56 r (by decide)).trans ((keep55 r (by decide)).trans ((keep54 r (by decide)).trans ((keep53 r (by decide)).trans (c4_e53 r))))))))))))))))))))))))))))))))))))))))))))))))))))

theorem e5_105 : X 105 (Proc.devRef .tc main_v214) = Cert.Spec.energyOf (argsAt (X 0)).snl (Cert.Spec.hN5 (argsAt (X 0))) :=
  (keep104 r (by decide)).trans ((keep103 r (by decide)).trans ((keep102 r (by decide)).trans ((keep101 r (by decide)).trans ((keep100 r (by decide)).trans ((keep99 r (by decide)).trans ((keep98 r (by decide)).trans ((keep97 r (by decide)).trans ((keep96 r (by decide)).trans ((keep95 r (by decide)).trans ((keep94 r (by decide)).trans ((keep93 r (by decide)).trans ((keep92 r (by decide)).trans ((keep91 r (by decide)).trans ((keep90 r (by decide)).trans ((keep89 r (by decide)).trans ((keep88 r (by decide)).trans ((keep87 r (by decide)).trans ((keep86 r (by decide)).trans ((keep85 r (by decide)).trans ((keep84 r (by decide)).trans ((keep83 r (by decide)).trans ((keep82 r (by decide)).trans ((keep81 r (by decide)).trans ((keep80 r (by decide)).trans ((keep79 r (by decide)).trans ((keep78 r (by decide)).trans ((keep77 r (by decide)).trans ((keep76 r (by decide)).trans ((keep75 r (by decide)).trans ((keep74 r (by decide)).trans ((keep73 r (by decide)).trans ((keep72 r (by decide)).trans ((keep71 r (by decide)).trans ((keep70 r (by decide)).trans ((keep69 r (by decide)).trans ((keep68 r (by decide)).trans ((keep67 r (by decide)).trans ((keep66 r (by decide)).trans ((keep65 r (by decide)).trans (c5_e65 r))))))))))))))))))))))))))))))))))))))))

theorem e6_105 : X 105 (Proc.devRef .tc main_v251) = Cert.Spec.energyOf (argsAt (X 0)).snl (Cert.Spec.hN6 (argsAt (X 0))) :=
  (keep104 r (by decide)).trans ((keep103 r (by decide)).trans ((keep102 r (by decide)).trans ((keep101 r (by decide)).trans ((keep100 r (by decide)).trans ((keep99 r (by decide)).trans ((keep98 r (by decide)).trans ((keep97 r (by decide)).trans ((keep96 r (by decide)).trans ((keep95 r (by decide)).trans ((keep94 r (by decide)).trans ((keep93 r (by decide)).trans ((keep92 r (by decide)).trans ((keep91 r (by decide)).trans ((keep90 r (by decide)).trans ((keep89 r (by decide)).trans ((keep88 r (by decide)).trans ((keep87 r (by decide)).trans ((keep86 r (by decide)).trans ((keep85 r (by decide)).trans ((keep84 r (by decide)).trans ((keep83 r (by decide)).trans ((keep82 r (by decide)).trans ((keep81 r (by decide)).trans ((keep80 r (by decide)).trans ((keep79 r (by decide)).trans ((keep78 r (by decide)).trans ((keep77 r (by decide)).trans (c6_e77 r))))))))))))))))))))))))))))

theorem e7_105 : X 105 (Proc.devRef .tc main_v288) = Cert.Spec.energyOf (argsAt (X 0)).snl (Cert.Spec.hN7 (argsAt (X 0))) :=
  (keep104 r (by decide)).trans ((keep103 r (by decide)).trans ((keep102 r (by decide)).trans ((keep101 r (by decide)).trans ((keep100 r (by decide)).trans ((keep99 r (by decide)).trans ((keep98 r (by decide)).trans ((keep97 r (by decide)).trans ((keep96 r (by decide)).trans ((keep95 r (by decide)).trans ((keep94 r (by decide)).trans ((keep93 r (by decide)).trans ((keep92 r (by decide)).trans ((keep91 r (by decide)).trans ((keep90 r (by decide)).trans ((keep89 r (by decide)).trans (c7_e89 r))))))))))))))))

theorem e8_105 : X 105 (Proc.devRef .tc main_v325) = Cert.Spec.energyOf (argsAt (X 0)).snl (Cert.Spec.hN8 (argsAt (X 0))) :=
  (keep104 r (by decide)).trans ((keep103 r (by decide)).trans ((keep102 r (by decide)).trans ((keep101 r (by decide)).trans (c8_e101 r))))

end Cert.KValues

end
-- ==== Proof.KTail.lean ====
/-
  The kernel program's last host stretches in the specification's terms, from any buffer contents V.

  After the last matrix products the program adds each decoder layer's bias row, spread down the 4096 rows, to the
  product; names the rectifier's slope; applies the leaky rectifier z ↦ z where z ≥ 0, slope · z elsewhere; and gathers
  the nine energies, each as a one-element array, into one array of nine. Each of these is the specification's function
  of the same name applied to what the stretch reads: the operations composed are the same, with the same shape
  evidence up to proof.
-/
import proofs.«158944_j64613488001249_1_alg».proof.Proof.KOps
import proofs.«158944_j64613488001249_1_alg».proof.Proof.Spec

set_option maxRecDepth 16384

noncomputable section

namespace Cert.KValues

open Cert.KernelIdeal Cert.KernelIdeal.Gen Cert.KernelIdeal.GenP
open Idealize.ShloMosaic Idealize.ShloMosaic.TcCoe Idealize.SL.Sem Idealize.ShloMosaic.StableHlo

variable {F : FTy → Type} [FloatOps F] [Cert.KernelIdeal.Facts] [Cert.ReferenceIdeal.Facts]

/-! ## The decoder's first layer: the bias, the rectifier's slope, the rectifier -/

/-- The first layer before the rectifier: the product held at main_v326 plus the bias row spread down the rows. -/
theorem dec_pre (V : Valuation τ sig (Elt F)) :
    after hostOps59 V (Proc.devRef .tc main_v329)
      = addf (V (Proc.devRef .tc main_v326)) (Cert.Spec.rowB (V (Proc.devRef .tc main_arg9))) := by
  after_results_simp; rfl

/-- The rectifier's slope. -/
theorem dec_slope (V : Valuation τ sig (Elt F)) :
    after hostOps59 V (Proc.devRef .tc main_cst_66) = Cert.Spec.cSlope := by
  after_results_simp; rfl

/-- The leaky rectifier of what main_v329 holds, with the slope main_cst_66 holds. -/
theorem dec_relu (V : Valuation τ sig (Elt F)) :
    after hostOps59_1 V (Proc.devRef .tc main_v330)
      = Cert.Spec.leakyOf (V (Proc.devRef .tc main_v329)) (V (Proc.devRef .tc main_cst_66)) := by
  after_results_simp; rfl

/-! ## The decoder's second layer, and the nine energies in one array -/

/-- The result: the product held at main_v331 plus the second bias row spread down the rows. -/
theorem dec_out (V : Valuation τ sig (Elt F)) :
    after hostOps60 V (Proc.devRef .tc main_v334)
      = addf (V (Proc.devRef .tc main_v331)) (Cert.Spec.rowB64 (V (Proc.devRef .tc main_arg11))) := by
  after_results_simp; rfl

/-- The nine energies, each as a one-element array, in one array of nine. -/
theorem cat_ens (V : Valuation τ sig (Elt F)) :
    after hostOps60 V (Proc.devRef .tc main_v344)
      = concatenate Cert.ReferenceIdeal.S9 0
          [⟨Cert.ReferenceIdeal.S1, Cert.Spec.e1Of (V (Proc.devRef .tc main_v29))⟩,
            ⟨Cert.ReferenceIdeal.S1, Cert.Spec.e1Of (V (Proc.devRef .tc main_v66))⟩,
            ⟨Cert.ReferenceIdeal.S1, Cert.Spec.e1Of (V (Proc.devRef .tc main_v103))⟩,
            ⟨Cert.ReferenceIdeal.S1, Cert.Spec.e1Of (V (Proc.devRef .tc main_v140))⟩,
            ⟨Cert.ReferenceIdeal.S1, Cert.Spec.e1Of (V (Proc.devRef .tc main_v177))⟩,
            ⟨Cert.ReferenceIdeal.S1, Cert.Spec.e1Of (V (Proc.devRef .tc main_v214))⟩,
            ⟨Cert.ReferenceIdeal.S1, Cert.Spec.e1Of (V (Proc.devRef .tc main_v251))⟩,
            ⟨Cert.ReferenceIdeal.S1, Cert.Spec.e1Of (V (Proc.devRef .tc main_v288))⟩,
            ⟨Cert.ReferenceIdeal.S1, Cert.Spec.e1Of (V (Proc.devRef .tc main_v325))⟩]
          Cert.ReferenceIdeal.Facts₀.concatenates_S1_S1_S1_S1_S1_S1_S1_S1_S1_S9_d0 := by
  after_results_simp; rfl

end Cert.KValues

end
-- ==== Proof.KChain.lean ====
import proofs.«158944_j64613488001249_1_alg».proof.Proof.KStepN
import proofs.«158944_j64613488001249_1_alg».proof.Proof.KTail

/-! The kernel program's two results in the specification's terms.

For any family of valuations that follows the program's items from the launch contents X 0 — a host stretch acting
by its operations, a kernel region rewriting its output array to the whole product of its operand arrays — the
buffer of the first result ends holding the decoder's value at state 8 and the buffer of the second the nine
energies in one array, both as the specification computes them from the argument arrays X 0 holds. The decoder:
a region multiplies state 8 by the transposed first weights, a stretch adds the bias row and names the rectifier's
slope, the rectifier's seven operations follow, a region multiplies by the transposed second weights and the last
stretch adds the second bias row; the same stretch spreads each energy into a one-element array and concatenates
the nine. -/

set_option maxRecDepth 16384

noncomputable section

namespace Cert.KValues

open Cert.KernelIdeal Cert.KernelIdeal.Gen Cert.KernelIdeal.GenP
open Idealize.ShloMosaic Idealize.ShloMosaic.TcCoe Idealize.SL.Sem Idealize.ShloMosaic.StableHlo

variable [Cert.ReferenceIdeal.Facts]

section
variable {X : ℕ → Valuation τ sig (Elt Ideal)} (r : KRun X)
include r

/-- Region 58 leaves state 8 times the transposed first weights. -/
theorem t_p102 : X 102 (Proc.devRef .tc main_v326) = mmC (Cert.Spec.hN8 (argsAt (X 0))) (transpose Cert.ReferenceIdeal.S512x512 [1, 0] (argsAt (X 0)).dec_w0 Cert.ReferenceIdeal.Facts₀.transposes_S512x512_S512x512_1_0) := by
  rw [val101 r, c8_h101 r, (good101 r).bD0]; exact whole_DC_right _ _

/-- Plus the bias row. -/
theorem t_z103 : X 103 (Proc.devRef .tc main_v329) = addf (mmC (Cert.Spec.hN8 (argsAt (X 0))) (transpose Cert.ReferenceIdeal.S512x512 [1, 0] (argsAt (X 0)).dec_w0 Cert.ReferenceIdeal.Facts₀.transposes_S512x512_S512x512_1_0)) (Cert.Spec.rowB (argsAt (X 0)).dec_b0) := by
  rw [r.i102, dec_pre, t_p102 r, (good102 r).dec_b0]

/-- The rectifier's slope. -/
theorem t_c103 : X 103 (Proc.devRef .tc main_cst_66) = Cert.Spec.cSlope := by
  rw [r.i102]; exact dec_slope (X 102)

/-- The rectifier's value. -/
theorem t_y104 : X 104 (Proc.devRef .tc main_v330) = Cert.Spec.leakyOf (addf (mmC (Cert.Spec.hN8 (argsAt (X 0))) (transpose Cert.ReferenceIdeal.S512x512 [1, 0] (argsAt (X 0)).dec_w0 Cert.ReferenceIdeal.Facts₀.transposes_S512x512_S512x512_1_0)) (Cert.Spec.rowB (argsAt (X 0)).dec_b0)) Cert.Spec.cSlope := by
  rw [r.i103, dec_relu, t_z103 r, t_c103 r]

/-- Region 59 leaves that times the transposed second weights. -/
theorem t_p105 : X 105 (Proc.devRef .tc main_v331) = mmD (Cert.Spec.leakyOf (addf (mmC (Cert.Spec.hN8 (argsAt (X 0))) (transpose Cert.ReferenceIdeal.S512x512 [1, 0] (argsAt (X 0)).dec_w0 Cert.ReferenceIdeal.Facts₀.transposes_S512x512_S512x512_1_0)) (Cert.Spec.rowB (argsAt (X 0)).dec_b0)) Cert.Spec.cSlope) (transpose Cert.ReferenceIdeal.S512x64 [1, 0] (argsAt (X 0)).dec_w1 Cert.ReferenceIdeal.Facts₀.transposes_S64x512_S512x64_1_0) := by
  rw [val104 r, t_y104 r, (good104 r).bD1]; exact whole_DD_right _ _

end

/-- The first result: the decoder's value at state 8. -/
theorem out_eq (X : ℕ → Valuation τ sig (Elt Ideal)) (r : KRun X) :
    X 106 (Proc.devRef .tc main_v334) = Cert.Spec.outOf (argsAt (X 0)) := by
  rw [r.i105, dec_out, t_p105 r, (good105 r).dec_b1, Cert.Spec.outOf_eq, decOf_mm]

/-- The second result: the nine energies in one array. -/
theorem ens_eq (X : ℕ → Valuation τ sig (Elt Ideal)) (r : KRun X) :
    X 106 (Proc.devRef .tc main_v344) = Cert.Spec.ensOf (argsAt (X 0)) := by
  rw [r.i105, cat_ens, e0_105 r, e1_105 r, e2_105 r, e3_105 r, e4_105 r, e5_105 r, e6_105 r, e7_105 r, e8_105 r,
    Cert.Spec.ensOf_eq]

end Cert.KValues

end
-- ==== Proof.ValKI0a.lean ====
/-
  Region 0 of @main: from the output blocks to the whole output array.

  The grid is [4, 1]: the point t is block row t, and the reduction axis has one step, so every point zeroes the
  accumulator, adds the product of its two input blocks, and writes the sum back. The output window's block at t is
  rows 1024 t … 1024 t + 1023 of the result, written back at every point. So the array after the region is ONE function
  of the index: row 1024 r + p, column q holds entry (p, q) of the block the point r leaves. The steps: the three windows'
  block indices decided once over the grid; what a point writes back is its block of that function; the four blocks
  written back cover the array (row i lies in the block of the point i / 1024); hence the array after the region. The two
  operand arrays are not written. Last, each input block as a block of its operand array: the left operand's block at the
  point t is its rows 1024 t … 1024 t + 1023 (every column), the right operand's block is the whole array at every point.
-/
import proofs.«158944_j64613488001249_1_alg».proof.Proof.RegKI0
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t the left operand's block is (t, 0), the right operand's (0, 0), the output's (t, 0). -/
theorem idxFacts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-! ## The block a point leaves -/

/-- The block the point at grid position n leaves: the zero block plus the product of the point's two input blocks
    (past the grid's end, where nothing consults it, the block of position 0). -/
def accOf0 (c : Dev nD) (n : ℕ) : Vec F S1024x512 .f32 :=
  if h : n < cfg0.N then k0_pay2 (iblk0 V c 0 ⟨n, h⟩) (iblk0 V c 1 ⟨n, h⟩) (k0_pay1 (F := F))
  else k0_pay2 (iblk0 V c 0 ⟨0, by have h : cfg0.N = 4 := N_0; omega⟩)
    (iblk0 V c 1 ⟨0, by have h : cfg0.N = 4 := N_0; omega⟩) (k0_pay1 (F := F))

theorem accOf0_eq (c : Dev nD) (t : Fin cfg0.N) :
    accOf0 V c t.val = k0_pay2 (iblk0 V c 0 t) (iblk0 V c 1 t) (k0_pay1 (F := F)) := by
  unfold accOf0; exact dif_pos t.isLt

/-- At every point the output block holds that block. -/
theorem outsAt0_out (c : Dev nD) (t : Fin cfg0.N) : (outsAt0 V c t.val t.isLt).1 = accOf0 V c t.val :=
  (outsAt0_last V c t).trans ((outsAt0_first V c t).trans (accOf0_eq V c t).symm)

/-! ## The output array as one function -/

/-- The whole output array: its row 1024 r + p, column q, is entry (p, q) of the block the point r leaves. -/
def whole0 (c : Dev nD) : S4096x512.Idx → Elt F .f32 := fun i =>
  accOf0 V c ((i 0).val / 1024)
    (ix2 ⟨(i 0).val % 1024, Nat.mod_lt _ (by decide)⟩ ⟨(i 1).val, idx2_lt1 i⟩)

/-- The array read at an index given by a block row r and a position y inside the block. -/
theorem whole0_apply (c : Dev nD) (r : ℕ) (y : S1024x512.Idx) (i : S4096x512.Idx)
    (h0 : (i 0).val = 1024 * r + (y 0).val) (h1 : (i 1).val = (y 1).val) :
    whole0 V c i = accOf0 V c r y := by
  have hy : (y 0).val < 1024 := idx2_lt0 y
  have hr : (i 0).val / 1024 = r := by omega
  have hp : (i 0).val % 1024 = (y 0).val := by omega
  have e : (ix2 ⟨(i 0).val % 1024, Nat.mod_lt _ (by decide)⟩ ⟨(i 1).val, idx2_lt1 i⟩ : S1024x512.Idx) = y :=
    funext fun a => match a with
      | ⟨0, _⟩ => Fin.ext hp
      | ⟨1, _⟩ => Fin.ext h1
  unfold whole0
  rw [hr, e]

/-- Row 1024 r + p, column q of the array is entry (p, q) of the block the point r leaves. -/
theorem whole0_ix2 (c : Dev nD) (r : Fin 4) (p : Fin 1024) (q : Fin (S1024x512.size 1)) :
    whole0 V c (ix2 ⟨1024 * r.val + p.val, by have := r.isLt; have := p.isLt; omega⟩ q)
      = accOf0 V c r.val (ix2 p q) :=
  whole0_apply V c r.val (ix2 p q) _ rfl rfl

/-! ## What a point writes back -/

/-- Every point writes back its block of the whole-array function. -/
theorem flushed0_eq (c : Dev nD) (t : Fin cfg0.N) (hf : (cfg0.win 2).flush t = true) :
    (dat0 V c).flushed 2 t = ((cfg0.win 2).blk t).view.read (Elt F) (whole0 V c) := by
  show (cfg0.win 2).cut (grid0.coords t) ((dat0 V c).after 2 t) = _
  rw [after0_2, outsAt0_out V c t]
  obtain ⟨-, -, -, -, e0, e1⟩ := idxFacts0 t
  funext j
  show accOf0 V c t.val j = whole0 V c (((cfg0.win 2).blk t).view.emb j)
  refine (whole0_apply V c t.val j _ ?_ ?_).symm
  · show win0_2.index t (0 : Fin 2) * 1024 + 1 * (j 0).val = 1024 * t.val + (j 0).val
    rw [e0]; omega
  · show win0_2.index t (1 : Fin 2) * S1024x512.size (1 : Fin 2) + 1 * (j 1).val = (j 1).val
    rw [e1, Nat.zero_mul, Nat.zero_add, Nat.one_mul]

/-! ## The blocks written back cover the array -/

/-- An index is in a point's output block iff each coordinate is in the block's range on its axis. -/
theorem memBlk0 (t : Fin cfg0.N) (i : S4096x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v17).slice (win0_2.rect t)).set ↔ _
  rw [View.set_slice_whole, Rect.mem_set_unit]
  exact Iff.rfl

/-- Row i of the array lies in the block written back at the point i / 1024. -/
theorem covered0 (i : S4096x512.Idx) :
    ∃ t : Fin cfg0.N, (cfg0.win 2).flush t = true ∧ i ∈ ((cfg0.win 2).blk t).view.set := by
  have hi0 : (i 0).val < 4096 := idx2_lt0 i
  have hi1 : (i 1).val < S1024x512.size (1 : Fin 2) := idx2_lt1 i
  have hN : cfg0.N = 4 := N_0
  obtain ⟨t, ht⟩ : ∃ t : Fin cfg0.N, t.val = (i 0).val / 1024 :=
    ⟨⟨(i 0).val / 1024, by rw [hN]; omega⟩, rfl⟩
  refine ⟨t, flush0_2 t, ?_⟩
  rw [memBlk0]
  obtain ⟨-, -, -, -, e0, e1⟩ := idxFacts0 t
  intro a
  match a with
  | ⟨0, _⟩ =>
    show win0_2.index t (0 : Fin 2) * 1024 ≤ (i 0).val ∧ (i 0).val < win0_2.index t (0 : Fin 2) * 1024 + 1024
    rw [e0]; omega
  | ⟨1, _⟩ =>
    show win0_2.index t (1 : Fin 2) * S1024x512.size (1 : Fin 2) ≤ (i 1).val
      ∧ (i 1).val < win0_2.index t (1 : Fin 2) * S1024x512.size (1 : Fin 2) + S1024x512.size (1 : Fin 2)
    rw [e1, Nat.zero_mul, Nat.zero_add]
    exact ⟨Nat.zero_le _, hi1⟩

/-! ## The three arrays after the region -/

/-- The output array after the region is the whole-array function. -/
theorem final0_2 (c : Dev nD) : (dat0 V c).arrAt 2 cfg0.N = whole0 V c :=
  (dat0 V c).arrAt_eq_of_cover 2 (whole0 V c) (flushed0_eq V c) covered0

/-- The two input arrays are as the region found them. -/
theorem final0_0 (c : Dev nD) : (dat0 V c).arrAt 0 cfg0.N = V c main_arg0 :=
  ((dat0 V c).arrAt_in 0 rfl cfg0.N).trans (A_eq0 V c 0)
theorem final0_1 (c : Dev nD) : (dat0 V c).arrAt 1 cfg0.N = V c main_v12 :=
  ((dat0 V c).arrAt_in 1 rfl cfg0.N).trans (A_eq0 V c 1)

/-! ## The input blocks as blocks of the operand arrays -/

/-- The left operand's block at the point t: entry (y₀, y₁) is the array's entry (1024 t + y₀, y₁). -/
theorem iblk0_lhs_apply (c : Dev nD) (t : Fin cfg0.N) (y : S1024x128.Idx) (i : S4096x128.Idx)
    (h0 : (i 0).val = 1024 * t.val + (y 0).val) (h1 : (i 1).val = (y 1).val) :
    iblk0 V c 0 t y = (V c main_arg0 : S4096x128.Idx → Elt F .f32) i := by
  obtain ⟨e0, e1, -, -, -, -⟩ := idxFacts0 t
  unfold iblk0
  rw [View.read_apply]
  show V c main_arg0 (((cfg0.win 0).blk t).view.emb y) = V c main_arg0 i
  congr 1
  funext a
  apply Fin.ext
  match a with
  | ⟨0, _⟩ =>
    show win0_0.index t (0 : Fin 2) * 1024 + 1 * (y 0).val = (i 0).val
    rw [e0, h0]; omega
  | ⟨1, _⟩ =>
    show win0_0.index t (1 : Fin 2) * S1024x128.size (1 : Fin 2) + 1 * (y 1).val = (i 1).val
    rw [e1, h1, Nat.zero_mul, Nat.zero_add, Nat.one_mul]

/-- The right operand's block is the whole array at every point. -/
theorem iblk0_rhs_eq (c : Dev nD) (t : Fin cfg0.N) :
    iblk0 V c 1 t = (V c main_v12 : S128x512.Idx → Elt F .bf16) := by
  obtain ⟨-, -, e0, e1, -, -⟩ := idxFacts0 t
  funext y
  unfold iblk0
  rw [View.read_apply]
  show V c main_v12 (((cfg0.win 1).blk t).view.emb y) = V c main_v12 y
  congr 1
  funext a
  apply Fin.ext
  match a with
  | ⟨0, _⟩ =>
    show win0_1.index t (0 : Fin 2) * S128x512.size (0 : Fin 2) + 1 * (y 0).val = (y 0).val
    rw [e0, Nat.zero_mul, Nat.zero_add, Nat.one_mul]
  | ⟨1, _⟩ =>
    show win0_1.index t (1 : Fin 2) * S128x512.size (1 : Fin 2) + 1 * (y 1).val = (y 1).val
    rw [e1, Nat.zero_mul, Nat.zero_add, Nat.one_mul]

end Cert.KernelIdeal.Hand

end
-- ==== Proof.ValKI0b.lean ====
/-
  Region 0 of @main at the extended reals: the output array after the region is the product of the two operand arrays.

  A change of float format is the identity at these values and a reshape to the same shape is the identity, so the
  kernel's one accumulation step is "accumulator plus the product of the two blocks into the zero block", and the
  accumulator starts from the zero block. The block the point r leaves is then zero plus the product of rows
  1024 r … 1024 r + 1023 of the left operand with the whole right operand, which is the same rows of the whole product:
  the contraction axis is not cut, so the sums are the same term by term. Read through the whole-array function of the
  blocks-to-array module, entry (1024 r + p, q) of the output array is that entry of the product.
-/
import proofs.«158944_j64613488001249_1_alg».proof.Proof.ValKI0a
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The accumulation step, and its start, at the extended reals -/

/-- A change of format and a reshape to the same shape are the identity: the step adds the product of the two blocks
    (into the zero block) to the accumulator. -/
theorem accOf0_step (x0 : Vec Ideal S1024x128 .f32) (x1 : Vec Ideal S128x512 .bf16) (acc : Vec Ideal S1024x512 .f32) :
    k0_pay2 (F := Ideal) x0 x1 acc
      = Cert.MMLaw.accStep dot_S1024x128_S128x512_S1024x512_1_0_0_1_n_n none x0 x1 acc := by
  unfold k0_pay2
  simp only [shapeCast_self]
  rfl

/-- The accumulator starts from the zero block. -/
theorem accOf0_init (j : S1024x512.Idx) : k0_pay1 (F := Ideal) j = 0 := by
  unfold k0_pay1
  rw [shapeCast_self]
  exact Ideal.ofBits_zero_f32

/-! ## The block a point leaves is a block of the whole product -/

/-- The block the point r leaves is rows 1024 r … 1024 r + 1023 of the product of the two operand arrays. -/
theorem accOf0_eq_blk (c : Dev nD) (r : Fin 4) (D : DotDims S4096x128 S128x512 S4096x512) (hD : Cert.MMLaw.IsPlain D)
    (prec : Option ContractPrecision) :
    accOf0 V c r.val
      = Cert.MMLaw.rowBlk (Cert.MMLaw.whole D prec (V c main_arg0) (V c main_v12)) r := by
  have hN : cfg0.N = 4 := N_0
  have hr : r.val < cfg0.N := by rw [hN]; exact r.isLt
  rw [accOf0_eq V c ⟨r.val, hr⟩, accOf0_step]
  exact Cert.MMLaw.law41 dot_S1024x128_S128x512_S1024x512_1_0_0_1_n_n ⟨rfl, rfl, rfl, rfl, rfl, rfl⟩ D hD none prec
    (V c main_arg0) (V c main_v12) r (iblk0 V c 0 ⟨r.val, hr⟩) (iblk0 V c 1 ⟨r.val, hr⟩)
    (funext fun y => iblk0_lhs_apply V c ⟨r.val, hr⟩ y _ rfl rfl) (iblk0_rhs_eq V c ⟨r.val, hr⟩)
    (k0_pay1 (F := Ideal)) accOf0_init

/-! ## The output array after the region is the whole product -/

/-- The region leaves in its output array the product of its two operand arrays. -/
theorem final0_2_eq_whole (c : Dev nD) (D : DotDims S4096x128 S128x512 S4096x512) (hD : Cert.MMLaw.IsPlain D)
    (prec : Option ContractPrecision) :
    (dat0 (F := Ideal) V c).arrAt 2 cfg0.N = Cert.MMLaw.whole D prec (V c main_arg0) (V c main_v12) := by
  rw [final0_2]
  funext i
  have hi0 : (i 0).val < 4096 := idx2_lt0 i
  have h := congrFun (accOf0_eq_blk V c ⟨(i 0).val / 1024, by omega⟩ D hD prec)
    (ix2 ⟨(i 0).val % 1024, Nat.mod_lt _ (by decide)⟩ ⟨(i 1).val, idx2_lt1 i⟩)
  rw [Cert.MMLaw.rowBlk_apply] at h
  refine Eq.trans h (congrArg _ ?_)
  funext a
  match a with
  | ⟨0, _⟩ => exact Fin.ext (by show 1024 * ((i 0).val / 1024) + (i 0).val % 1024 = (i 0).val; omega)
  | ⟨1, _⟩ => rfl

/-- The same with the operands at the formats they are stored in. -/
theorem final0_2_eq_dot (c : Dev nD) (D : DotDims S4096x128 S128x512 S4096x512) (hD : Cert.MMLaw.IsPlain D)
    (prec : Option ContractPrecision) :
    (dat0 (F := Ideal) V c).arrAt 2 cfg0.N
      = Host.dotGeneral (F := Ideal) (φ₁ := .f32) (φ₂ := .bf16) D prec (V c main_arg0) (V c main_v12) :=
  final0_2_eq_whole V c D hD prec

end Cert.KernelIdeal.Hand

end
-- ==== Proof.ValKI1a.lean ====
/-
  Region 1 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k1_pay1` (the zero block) and `k1_pay2` (accumulator plus product) are the two stores' payloads.

  So along one row of blocks r the accumulator after its step k is the left fold
    accOf1 r 0 = pay2 (a (r, 0)) (b 0) pay1,    accOf1 r (k + 1) = pay2 (a (r, k + 1)) (b (k + 1)) (accOf1 r k),
  the grid point (r, k) being position 4 r + k; and at k = 3 the output block holds accOf1 r 3.
-/
import proofs.«158944_j64613488001249_1_alg».proof.Proof.RegKI1
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout1_A_eq (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .bf16) (x1 : Vec F S1024x512 .f32) :
    sout1_A c i arg2 harg2 arg3 harg3 arg4 harg4 arg5 harg5 hc0 hc1 x0 x1 = k1_pay2 x0 x1 (k1_pay1 (F := F)) := by
  have hz : (![0, 0] : Fin 2 → Nat) = fun _ => 0 := funext fun a => by fin_cases a <;> rfl
  unfold sout1_A
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout1_B_eq (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .bf16) (x1 : Vec F S1024x512 .f32) (xs0 : Vec F S1024x512 .f32) :
    sout1_B c i arg2 harg2 arg3 harg3 arg4 harg4 arg5 harg5 hc0 hc1 x0 x1 xs0 = k1_pay2 x0 x1 xs0 := by
  have hz : (![0, 0] : Fin 2 → Nat) = fun _ => 0 := funext fun a => by fin_cases a <;> rfl
  unfold sout1_B
  rw [View.read_writes_eq_canon _ _ _ (scover1_B c i arg2 harg2 arg3 harg3 arg4 harg4 arg5 harg5 hc0 hc1 x0 x1 xs0)]
  unfold kernelRun1_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout1_C_eq (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .f32) (xs0 : Vec F S1024x512 .f32) :
    sout1_C c i arg2 harg2 arg3 harg3 arg4 harg4 arg5 harg5 hc0 hc1 x0 x1 xs0 = k1_pay2 x0 x1 xs0 := by
  have hz : (![0, 0] : Fin 2 → Nat) = fun _ => 0 := funext fun a => by fin_cases a <;> rfl
  unfold sout1_C
  rw [View.read_writes_eq_canon _ _ _ (scover1_C c i arg2 harg2 arg3 harg3 arg4 harg4 arg5 harg5 hc0 hc1 x0 x1 xs0)]
  unfold kernelRun1_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out1_C_eq (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .f32) (xs0 : Vec F S1024x512 .f32) :
    out1_C c i arg2 harg2 arg3 harg3 arg4 harg4 arg5 harg5 hc0 hc1 x0 x1 xs0 = k1_pay2 x0 x1 xs0 := by
  have hz : (![0, 0] : Fin 2 → Nat) = fun _ => 0 := funext fun a => by fin_cases a <;> rfl
  unfold out1_C
  rw [View.read_writes_eq_canon _ _ _ (cover1_C c i arg2 harg2 arg3 harg3 arg4 harg4 arg5 harg5 hc0 hc1 x0 x1 xs0)]
  unfold kernelRun1_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk1_lhs (c : Dev nD) (n : ℕ) : Vec F S1024x1024 .bf16 :=
  if h : n < cfg1.N then iblk1 V c 0 ⟨n, h⟩ else iblk1 V c 0 ⟨0, by have h : cfg1.N = 16 := N_1; omega⟩
/-- The right factor's block at grid position `n`. -/
def iblk1_rhs (c : Dev nD) (n : ℕ) : Vec F S1024x512 .f32 :=
  if h : n < cfg1.N then iblk1 V c 1 ⟨n, h⟩ else iblk1 V c 1 ⟨0, by have h : cfg1.N = 16 := N_1; omega⟩

theorem iblk1_lhs_eq (c : Dev nD) (n : ℕ) (h : n < cfg1.N) : iblk1_lhs V c n = iblk1 V c 0 ⟨n, h⟩ := dif_pos h
theorem iblk1_rhs_eq (c : Dev nD) (n : ℕ) (h : n < cfg1.N) : iblk1_rhs V c n = iblk1 V c 1 ⟨n, h⟩ := dif_pos h

/-! ## The accumulator along one row of blocks -/

/-- Row of blocks `r`, after its step `k`: the zero block plus the products of the blocks at positions 4 r, …, 4 r + k,
    added in that order. -/
def accOf1 (c : Dev nD) (r : ℕ) : ℕ → Vec F S1024x512 .f32
  | 0 => k1_pay2 (iblk1_lhs V c (4 * r)) (iblk1_rhs V c (4 * r)) (k1_pay1 (F := F))
  | k + 1 => k1_pay2 (iblk1_lhs V c (4 * r + (k + 1))) (iblk1_rhs V c (4 * r + (k + 1))) (accOf1 c r k)

theorem accOf1_zero (c : Dev nD) (r : ℕ) :
    accOf1 V c r 0 = k1_pay2 (iblk1_lhs V c (4 * r)) (iblk1_rhs V c (4 * r)) (k1_pay1 (F := F)) := rfl
theorem accOf1_succ (c : Dev nD) (r k : ℕ) :
    accOf1 V c r (k + 1) = k1_pay2 (iblk1_lhs V c (4 * r + (k + 1))) (iblk1_rhs V c (4 * r + (k + 1))) (accOf1 V c r k) := rfl

theorem iblk1_lhs_at (c : Dev nD) (t : Fin cfg1.N) (n : ℕ) (hn : n = t.val) : iblk1_lhs V c n = iblk1 V c 0 t := by
  subst hn; unfold iblk1_lhs; exact dif_pos t.isLt
theorem iblk1_rhs_at (c : Dev nD) (t : Fin cfg1.N) (n : ℕ) (hn : n = t.val) : iblk1_rhs V c n = iblk1 V c 1 t := by
  subst hn; unfold iblk1_rhs; exact dif_pos t.isLt

/-- At a grid point with k = 0 the fold starts: the zero block plus the product of the point's two blocks. -/
theorem accOf1_first (c : Dev nD) (t : Fin cfg1.N) (h0 : t.val % 4 = 0) :
    accOf1 V c (t.val / 4) (t.val % 4) = k1_pay2 (iblk1 V c 0 t) (iblk1 V c 1 t) (k1_pay1 (F := F)) := by
  rw [h0, accOf1_zero, iblk1_lhs_at V c t (4 * (t.val / 4)) (by omega), iblk1_rhs_at V c t (4 * (t.val / 4)) (by omega)]

/-- At a grid point with k ≠ 0 the fold takes one step from the position before, which is in the same row of blocks. -/
theorem accOf1_next (c : Dev nD) (t : Fin cfg1.N) (h0 : ¬t.val % 4 = 0) :
    accOf1 V c (t.val / 4) (t.val % 4)
      = k1_pay2 (iblk1 V c 0 t) (iblk1 V c 1 t) (accOf1 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf1_succ, iblk1_lhs_at V c t (4 * (t.val / 4) + (k + 1)) (by omega),
    iblk1_rhs_at V c t (4 * (t.val / 4) + (k + 1)) (by omega)]

/-! ## The accumulator and the output block, point by point, as pure functions of the blocks -/

/-- k = 0: the accumulator restarts from the zero block. -/
theorem outsAt1_first (c : Dev nD) (t : Fin cfg1.N) (h0 : t.val % 4 = 0) :
    (outsAt1 V c t.val t.isLt).2 = k1_pay2 (iblk1 V c 0 t) (iblk1 V c 1 t) (k1_pay1 (F := F)) := by
  rw [outsAt1_A V c t h0]
  dsimp only
  exact sout1_A_eq c (grid1.coords t) (ms1_0 t) (hs1_0 t) (ms1_1 t) (hs1_1 t) (ms1_2 t) (hs1_2 t) scM1 (Memref.isWhole_whole _) (isFirst1 t h0) (notLast1 t (by omega)) (iblk1 V c 0 t) (iblk1 V c 1 t)

/-- k ≠ 0: the point's product is added to what the point before left. -/
theorem outsAt1_next (c : Dev nD) (t : Fin cfg1.N) (h0 : ¬t.val % 4 = 0) :
    (outsAt1 V c t.val t.isLt).2
      = k1_pay2 (iblk1 V c 0 t) (iblk1 V c 1 t) (outsAt1 V c (t.val - 1) (Nat.lt_of_le_of_lt (Nat.sub_le _ _) t.isLt)).2 := by
  by_cases h3 : t.val % 4 = 3
  · rw [outsAt1_C V c t h0 h3]
    dsimp only
    exact sout1_C_eq c (grid1.coords t) (ms1_0 t) (hs1_0 t) (ms1_1 t) (hs1_1 t) (ms1_2 t) (hs1_2 t) scM1 (Memref.isWhole_whole _) (notFirst1 t h0) (isLast1 t h3) (iblk1 V c 0 t) (iblk1 V c 1 t)
      (outsAt1 V c (t.val - 1) (Nat.lt_of_le_of_lt (Nat.sub_le _ _) t.isLt)).2
  · rw [outsAt1_B V c t h0 h3]
    dsimp only
    exact sout1_B_eq c (grid1.coords t) (ms1_0 t) (hs1_0 t) (ms1_1 t) (hs1_1 t) (ms1_2 t) (hs1_2 t) scM1 (Memref.isWhole_whole _) (notFirst1 t h0) (notLast1 t h3) (iblk1 V c 0 t) (iblk1 V c 1 t)
      (outsAt1 V c (t.val - 1) (Nat.lt_of_le_of_lt (Nat.sub_le _ _) t.isLt)).2

/-- k = 3: the output block is the accumulator. -/
theorem outsAt1_last (c : Dev nD) (t : Fin cfg1.N) (h3 : t.val % 4 = 3) :
    (outsAt1 V c t.val t.isLt).1 = (outsAt1 V c t.val t.isLt).2 := by
  have h0 : ¬t.val % 4 = 0 := by omega
  rw [outsAt1_C V c t h0 h3]
  dsimp only
  exact (out1_C_eq c (grid1.coords t) (ms1_0 t) (hs1_0 t) (ms1_1 t) (hs1_1 t) (ms1_2 t) (hs1_2 t) scM1 (Memref.isWhole_whole _) (notFirst1 t h0) (isLast1 t h3) (iblk1 V c 0 t) (iblk1 V c 1 t)
      (outsAt1 V c (t.val - 1) (Nat.lt_of_le_of_lt (Nat.sub_le _ _) t.isLt)).2).trans
    (sout1_C_eq c (grid1.coords t) (ms1_0 t) (hs1_0 t) (ms1_1 t) (hs1_1 t) (ms1_2 t) (hs1_2 t) scM1 (Memref.isWhole_whole _) (notFirst1 t h0) (isLast1 t h3) (iblk1 V c 0 t) (iblk1 V c 1 t)
      (outsAt1 V c (t.val - 1) (Nat.lt_of_le_of_lt (Nat.sub_le _ _) t.isLt)).2).symm

/-! ## The accumulator is the fold -/

/-- After position `n` the accumulator holds row `n / 4`'s fold after its step `n % 4`: by induction on the position. -/
theorem outsAt1_acc_pos (c : Dev nD) :
    ∀ (n : ℕ) (hn : n < cfg1.N), (outsAt1 V c n hn).2 = accOf1 V c (n / 4) (n % 4) := by
  intro n
  induction n with
  | zero =>
    intro hn
    exact (outsAt1_first V c ⟨0, hn⟩ (Nat.zero_mod 4)).trans (accOf1_first V c ⟨0, hn⟩ (Nat.zero_mod 4)).symm
  | succ n ih =>
    intro hn
    by_cases h0 : (n + 1) % 4 = 0
    · exact (outsAt1_first V c ⟨n + 1, hn⟩ h0).trans (accOf1_first V c ⟨n + 1, hn⟩ h0).symm
    · refine (outsAt1_next V c ⟨n + 1, hn⟩ h0).trans (Eq.trans ?_ (accOf1_next V c ⟨n + 1, hn⟩ h0).symm)
      exact congrArg (k1_pay2 (iblk1 V c 0 ⟨n + 1, hn⟩) (iblk1 V c 1 ⟨n + 1, hn⟩)) (ih (Nat.lt_of_succ_lt hn))

/-- At every grid point the accumulator holds its row's fold after the point's step. -/
theorem outsAt1_acc (c : Dev nD) (t : Fin cfg1.N) :
    (outsAt1 V c t.val t.isLt).2 = accOf1 V c (t.val / 4) (t.val % 4) :=
  outsAt1_acc_pos V c t.val t.isLt

/-- At a row's last point the output block holds the row's whole fold. -/
theorem outsAt1_out (c : Dev nD) (t : Fin cfg1.N) (h3 : t.val % 4 = 3) :
    (outsAt1 V c t.val t.isLt).1 = accOf1 V c (t.val / 4) 3 := by
  have e := outsAt1_acc V c t
  rw [h3] at e
  exact (outsAt1_last V c t h3).trans e

end Cert.KernelIdeal.Hand

end
-- ==== Proof.ValKI1b.lean ====
/-
  Region 1 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI1a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0)

/-! ## The output array as one function -/

/-- The whole output array: its row 1024 r + p, column q, is entry (p, q) of the block accumulated over k = 0 … 3 in
    block row r. -/
def whole1 (c : Dev nD) : S4096x512.Idx → Elt F .f32 := fun i =>
  accOf1 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole1_apply (c : Dev nD) (r : ℕ) (y : S1024x512.Idx) (i : S4096x512.Idx)
    (h0 : (i 0).val = 1024 * r + (y 0).val) (h1 : (i 1).val = (y 1).val) :
    whole1 V c i = accOf1 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole1
  rw [hr, e]

/-- Row 1024 r + p, column q of the array is entry (p, q) of block row r's accumulated block. -/
theorem whole1_ix2 (c : Dev nD) (r : Fin 4) (p : Fin 1024) (q : Fin 512) :
    whole1 V c (ix2 (n0 := 4096) (n1 := 512) ⟨1024 * r.val + p.val, by have := r.isLt; have := p.isLt; omega⟩ q)
      = accOf1 V c r.val 3 (ix2 p q) :=
  whole1_apply V c r.val (ix2 p q) _ rfl rfl

/-! ## What a point writes back -/

/-- A point with k = 3 writes back its block of the whole-array function. -/
theorem flushed1_eq (c : Dev nD) (t : Fin cfg1.N) (hf : (cfg1.win 2).flush t = true) :
    (dat1 V c).flushed 2 t = ((cfg1.win 2).blk t).view.read (Elt F) (whole1 V c) := by
  have h3 : t.val % 4 = 3 := (flush1_2 t).mp hf
  show (cfg1.win 2).cut (grid1.coords t) ((dat1 V c).after 2 t) = _
  rw [after1_2, outsAt1_out V c t h3]
  obtain ⟨-, -, -, -, e0, e1⟩ := idxFacts1 t
  funext j
  show accOf1 V c (t.val / 4) 3 j = whole1 V c (((cfg1.win 2).blk t).view.emb j)
  refine (whole1_apply V c (t.val / 4) j _ ?_ ?_).symm
  · show win1_2.index t (0 : Fin 2) * 1024 + 1 * (j 0).val = 1024 * (t.val / 4) + (j 0).val
    rw [e0]; omega
  · show win1_2.index t (1 : Fin 2) * 512 + 1 * (j 1).val = (j 1).val
    rw [e1]; omega

/-! ## The blocks written back cover the array -/

/-- An index is in a point's output block iff each coordinate is in the block's range on its axis. -/
theorem memBlk1 (t : Fin cfg1.N) (i : S4096x512.Idx) :
    i ∈ ((cfg1.win 2).blk t).view.set ↔ ∀ a : Fin 2, win1_2.index t a * S1024x512.size a ≤ (i a).val
      ∧ (i a).val < win1_2.index t a * S1024x512.size a + S1024x512.size a := by
  show i ∈ ((View.whole main_v26).slice (win1_2.rect t)).set ↔ _
  rw [View.set_slice_whole, Rect.mem_set_unit]
  exact Iff.rfl

/-- Row i of the array lies in the block written back at the point (i / 1024, 3). -/
theorem covered1 (i : S4096x512.Idx) :
    ∃ t : Fin cfg1.N, (cfg1.win 2).flush t = true ∧ i ∈ ((cfg1.win 2).blk t).view.set := by
  have hi0 : (i 0).val < 4096 := idx2_lt0 i
  have hi1 : (i 1).val < 512 := idx2_lt1 i
  have hN : cfg1.N = 16 := N_1
  obtain ⟨t, ht⟩ : ∃ t : Fin cfg1.N, t.val = 4 * ((i 0).val / 1024) + 3 :=
    ⟨⟨4 * ((i 0).val / 1024) + 3, by rw [hN]; omega⟩, rfl⟩
  refine ⟨t, (flush1_2 t).mpr (by omega), ?_⟩
  rw [memBlk1]
  obtain ⟨-, -, -, -, e0, e1⟩ := idxFacts1 t
  intro a
  match a with
  | ⟨0, _⟩ =>
    show win1_2.index t (0 : Fin 2) * 1024 ≤ (i 0).val ∧ (i 0).val < win1_2.index t (0 : Fin 2) * 1024 + 1024
    rw [e0]; omega
  | ⟨1, _⟩ =>
    show win1_2.index t (1 : Fin 2) * 512 ≤ (i 1).val ∧ (i 1).val < win1_2.index t (1 : Fin 2) * 512 + 512
    rw [e1]; omega

/-! ## The three arrays after the region -/

/-- The output array after the region is the whole-array function. -/
theorem final1_2 (c : Dev nD) : (dat1 V c).arrAt 2 cfg1.N = whole1 V c :=
  (dat1 V c).arrAt_eq_of_cover 2 (whole1 V c) (flushed1_eq V c) covered1

/-- The two input arrays are as the region found them. -/
theorem final1_0 (c : Dev nD) : (dat1 V c).arrAt 0 cfg1.N = V c main_v9 :=
  ((dat1 V c).arrAt_in 0 rfl cfg1.N).trans (A_eq1 V c 0)
theorem final1_1 (c : Dev nD) : (dat1 V c).arrAt 1 cfg1.N = V c main_v25 :=
  ((dat1 V c).arrAt_in 1 rfl cfg1.N).trans (A_eq1 V c 1)

/-! ## The input blocks as blocks of the operand arrays -/

/-- The left operand's block at the point (r, k): entry (y₀, y₁) is the array's entry (1024 r + y₀, 1024 k + y₁). -/
theorem iblk1_lhs_apply (c : Dev nD) (r k : Fin 4) (y : S1024x1024.Idx) (i : S4096x4096.Idx)
    (h0 : (i 0).val = 1024 * r.val + (y 0).val) (h1 : (i 1).val = 1024 * k.val + (y 1).val) :
    iblk1_lhs V c (4 * r.val + k.val) y = (V c main_v9 : S4096x4096.Idx → Elt F .bf16) i := by
  have hN : cfg1.N = 16 := N_1
  have hr := r.isLt
  have hk := k.isLt
  have hlt : 4 * r.val + k.val < cfg1.N := by rw [hN]; omega
  rw [iblk1_lhs_eq V c _ hlt]
  obtain ⟨e0, e1, -, -, -, -⟩ := idxFacts1 ⟨4 * r.val + k.val, hlt⟩
  have e0' : win1_0.index ⟨4 * r.val + k.val, hlt⟩ (0 : Fin 2) = (4 * r.val + k.val) / 4 := e0
  have e1' : win1_0.index ⟨4 * r.val + k.val, hlt⟩ (1 : Fin 2) = (4 * r.val + k.val) % 4 := e1
  unfold iblk1
  rw [View.read_apply]
  show V c main_v9 (((cfg1.win 0).blk ⟨4 * r.val + k.val, hlt⟩).view.emb y) = V c main_v9 i
  congr 1
  funext a
  apply Fin.ext
  match a with
  | ⟨0, _⟩ =>
    show win1_0.index ⟨4 * r.val + k.val, hlt⟩ (0 : Fin 2) * 1024 + 1 * (y 0).val = (i 0).val
    rw [e0', h0]; omega
  | ⟨1, _⟩ =>
    show win1_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk1_rhs_apply (c : Dev nD) (r k : Fin 4) (y : S1024x512.Idx) (i : S4096x512.Idx)
    (h0 : (i 0).val = 1024 * k.val + (y 0).val) (h1 : (i 1).val = (y 1).val) :
    iblk1_rhs V c (4 * r.val + k.val) y = (V c main_v25 : S4096x512.Idx → Elt F .f32) i := by
  have hN : cfg1.N = 16 := N_1
  have hr := r.isLt
  have hk := k.isLt
  have hlt : 4 * r.val + k.val < cfg1.N := by rw [hN]; omega
  rw [iblk1_rhs_eq V c _ hlt]
  obtain ⟨-, -, e0, e1, -, -⟩ := idxFacts1 ⟨4 * r.val + k.val, hlt⟩
  have e0' : win1_1.index ⟨4 * r.val + k.val, hlt⟩ (0 : Fin 2) = (4 * r.val + k.val) % 4 := e0
  have e1' : win1_1.index ⟨4 * r.val + k.val, hlt⟩ (1 : Fin 2) = 0 := e1
  unfold iblk1
  rw [View.read_apply]
  show V c main_v25 (((cfg1.win 1).blk ⟨4 * r.val + k.val, hlt⟩).view.emb y) = V c main_v25 i
  congr 1
  funext a
  apply Fin.ext
  match a with
  | ⟨0, _⟩ =>
    show win1_1.index ⟨4 * r.val + k.val, hlt⟩ (0 : Fin 2) * 1024 + 1 * (y 0).val = (i 0).val
    rw [e0', h0]; omega
  | ⟨1, _⟩ =>
    show win1_1.index ⟨4 * r.val + k.val, hlt⟩ (1 : Fin 2) * 512 + 1 * (y 1).val = (i 1).val
    rw [e1', h1]; omega

/-- The accumulated block after the fourth step, unfolded: four steps from the zero block. -/
theorem accOf1_three (c : Dev nD) (r : ℕ) :
    accOf1 V c r 3
      = k1_pay2 (iblk1_lhs V c (4 * r + 3)) (iblk1_rhs V c (4 * r + 3))
          (k1_pay2 (iblk1_lhs V c (4 * r + 2)) (iblk1_rhs V c (4 * r + 2))
            (k1_pay2 (iblk1_lhs V c (4 * r + 1)) (iblk1_rhs V c (4 * r + 1))
              (k1_pay2 (iblk1_lhs V c (4 * r)) (iblk1_rhs V c (4 * r)) (k1_pay1 (F := F))))) := rfl

end Cert.KernelIdeal.Hand

end
-- ==== Proof.ValKI1c.lean ====
/-
  Region 1 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI1b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf1_step (x0 : Vec Ideal S1024x1024 .bf16) (x1 acc : Vec Ideal S1024x512 .f32) :
    k1_pay2 (F := Ideal) x0 x1 acc
      = Cert.MMLaw.accStep dot_S1024x1024_S1024x512_S1024x512_1_0_0_1_n_n none x0 x1 acc := by
  unfold k1_pay2
  simp only [shapeCast_self]
  rfl

/-- The accumulator starts from the zero block. -/
theorem accOf1_init (j : S1024x512.Idx) : k1_pay1 (F := Ideal) j = 0 := by
  unfold k1_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf1_eq_blk (c : Dev nD) (r : Fin 4) (D : DotDims S4096x4096 S4096x512 S4096x512) (hD : Cert.MMLaw.IsPlain D)
    (prec : Option ContractPrecision) :
    accOf1 V c r.val 3
      = Cert.MMLaw.blk (nr := 4) (nc := 1) 1024 512 rfl rfl (Cert.MMLaw.whole D prec (V c main_v9) (V c main_v25)) r 0 := by
  rw [accOf1_three]
  simp only [accOf1_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v9) (V c main_v25) r 0
    (fun k => iblk1_lhs V c (4 * r.val + k.val)) (fun k => iblk1_rhs V c (4 * r.val + k.val))
    (fun k => funext fun y => iblk1_lhs_apply V c r k y _ rfl rfl)
    (fun k => funext fun y => iblk1_rhs_apply V c r k y _ rfl (by show 512 * 0 + (y 1).val = (y 1).val; omega))
    (k1_pay1 (F := Ideal)) accOf1_init

/-! ## The output array after the region is the whole product -/

/-- The region leaves in its output array the product of its two operand arrays. -/
theorem final1_2_eq_whole (c : Dev nD) (D : DotDims S4096x4096 S4096x512 S4096x512) (hD : Cert.MMLaw.IsPlain D)
    (prec : Option ContractPrecision) :
    (dat1 (F := Ideal) V c).arrAt 2 cfg1.N = Cert.MMLaw.whole D prec (V c main_v9) (V c main_v25) := by
  rw [final1_2]
  funext i
  have hi0 : (i 0).val < 4096 := idx2_lt0 i
  have h := congrFun (accOf1_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final1_2_eq_dot (c : Dev nD) (D : DotDims S4096x4096 S4096x512 S4096x512) (hD : Cert.MMLaw.IsPlain D)
    (prec : Option ContractPrecision) :
    (dat1 (F := Ideal) V c).arrAt 2 cfg1.N = Host.dotGeneral (F := Ideal) (φ₁ := .bf16) (φ₂ := .f32) D prec (V c main_v9) (V c main_v25) :=
  final1_2_eq_whole V c D hD prec

end Cert.KernelIdeal.Hand

end
-- ==== Proof.ValKI2a.lean ====
/- Laid out by: python3 scratch/layout_regions.py --template-region 1 --region 2 --program KernelIdeal --prefix Val --parts a,b,c --sim main_v9=main_v8,main_v25=main_v20,main_v26=main_v30 --out-dir proof/Proof
   from the hand-written text of region 1 (ValKI1a.lean): the same text, the region's number substituted. -/
/-
  Region 2 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k2_pay1` (the zero block) and `k2_pay2` (accumulator plus product) are the two stores' payloads.

  So along one row of blocks r the accumulator after its step k is the left fold
    accOf2 r 0 = pay2 (a (r, 0)) (b 0) pay1,    accOf2 r (k + 1) = pay2 (a (r, k + 1)) (b (k + 1)) (accOf2 r k),
  the grid point (r, k) being position 4 r + k; and at k = 3 the output block holds accOf2 r 3.
-/
import proofs.«158944_j64613488001249_1_alg».proof.Proof.RegKI2
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout2_A_eq (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond2_0 i) (hc1 : ¬cond2_1 i)
    (x0 : Vec F S1024x1024 .bf16) (x1 : Vec F S1024x512 .f32) :
    sout2_A c i arg2 harg2 arg3 harg3 arg4 harg4 arg5 harg5 hc0 hc1 x0 x1 = k2_pay2 x0 x1 (k2_pay1 (F := F)) := by
  have hz : (![0, 0] : Fin 2 → Nat) = fun _ => 0 := funext fun a => by fin_cases a <;> rfl
  unfold sout2_A
  rw [View.read_writes_eq_canon _ _ _ (scover2_A c i arg2 harg2 arg3 harg3 arg4 harg4 arg5 harg5 hc0 hc1 x0 x1)]
  unfold kernelRun2_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout2_B_eq (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond2_0 i) (hc1 : ¬cond2_1 i)
    (x0 : Vec F S1024x1024 .bf16) (x1 : Vec F S1024x512 .f32) (xs0 : Vec F S1024x512 .f32) :
    sout2_B c i arg2 harg2 arg3 harg3 arg4 harg4 arg5 harg5 hc0 hc1 x0 x1 xs0 = k2_pay2 x0 x1 xs0 := by
  have hz : (![0, 0] : Fin 2 → Nat) = fun _ => 0 := funext fun a => by fin_cases a <;> rfl
  unfold sout2_B
  rw [View.read_writes_eq_canon _ _ _ (scover2_B c i arg2 harg2 arg3 harg3 arg4 harg4 arg5 harg5 hc0 hc1 x0 x1 xs0)]
  unfold kernelRun2_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout2_C_eq (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond2_0 i) (hc1 : cond2_1 i)
    (x0 : Vec F S1024x1024 .bf16) (x1 : Vec F S1024x512 .f32) (xs0 : Vec F S1024x512 .f32) :
    sout2_C c i arg2 harg2 arg3 harg3 arg4 harg4 arg5 harg5 hc0 hc1 x0 x1 xs0 = k2_pay2 x0 x1 xs0 := by
  have hz : (![0, 0] : Fin 2 → Nat) = fun _ => 0 := funext fun a => by fin_cases a <;> rfl
  unfold sout2_C
  rw [View.read_writes_eq_canon _ _ _ (scover2_C c i arg2 harg2 arg3 harg3 arg4 harg4 arg5 harg5 hc0 hc1 x0 x1 xs0)]
  unfold kernelRun2_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out2_C_eq (c : Dev nD) (i : grid2.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond2_0 i) (hc1 : cond2_1 i)
    (x0 : Vec F S1024x1024 .bf16) (x1 : Vec F S1024x512 .f32) (xs0 : Vec F S1024x512 .f32) :
    out2_C c i arg2 harg2 arg3 harg3 arg4 harg4 arg5 harg5 hc0 hc1 x0 x1 xs0 = k2_pay2 x0 x1 xs0 := by
  have hz : (![0, 0] : Fin 2 → Nat) = fun _ => 0 := funext fun a => by fin_cases a <;> rfl
  unfold out2_C
  rw [View.read_writes_eq_canon _ _ _ (cover2_C c i arg2 harg2 arg3 harg3 arg4 harg4 arg5 harg5 hc0 hc1 x0 x1 xs0)]
  unfold kernelRun2_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk2_lhs (c : Dev nD) (n : ℕ) : Vec F S1024x1024 .bf16 :=
  if h : n < cfg2.N then iblk2 V c 0 ⟨n, h⟩ else iblk2 V c 0 ⟨0, by have h : cfg2.N = 16 := N_2; omega⟩
/-- The right factor's block at grid position `n`. -/
def iblk2_rhs (c : Dev nD) (n : ℕ) : Vec F S1024x512 .f32 :=
  if h : n < cfg2.N then iblk2 V c 1 ⟨n, h⟩ else iblk2 V c 1 ⟨0, by have h : cfg2.N = 16 := N_2; omega⟩

theorem iblk2_lhs_eq (c : Dev nD) (n : ℕ) (h : n < cfg2.N) : iblk2_lhs V c n = iblk2 V c 0 ⟨n, h⟩ := dif_pos h
theorem iblk2_rhs_eq (c : Dev nD) (n : ℕ) (h : n < cfg2.N) : iblk2_rhs V c n = iblk2 V c 1 ⟨n, h⟩ := dif_pos h

/-! ## The accumulator along one row of blocks -/

/-- Row of blocks `r`, after its step `k`: the zero block plus the products of the blocks at positions 4 r, …, 4 r + k,
    added in that order. -/
def accOf2 (c : Dev nD) (r : ℕ) : ℕ → Vec F S1024x512 .f32
  | 0 => k2_pay2 (iblk2_lhs V c (4 * r)) (iblk2_rhs V c (4 * r)) (k2_pay1 (F := F))
  | k + 1 => k2_pay2 (iblk2_lhs V c (4 * r + (k + 1))) (iblk2_rhs V c (4 * r + (k + 1))) (accOf2 c r k)

theorem accOf2_zero (c : Dev nD) (r : ℕ) :
    accOf2 V c r 0 = k2_pay2 (iblk2_lhs V c (4 * r)) (iblk2_rhs V c (4 * r)) (k2_pay1 (F := F)) := rfl
theorem accOf2_succ (c : Dev nD) (r k : ℕ) :
    accOf2 V c r (k + 1) = k2_pay2 (iblk2_lhs V c (4 * r + (k + 1))) (iblk2_rhs V c (4 * r + (k + 1))) (accOf2 V c r k) := rfl

theorem iblk2_lhs_at (c : Dev nD) (t : Fin cfg2.N) (n : ℕ) (hn : n = t.val) : iblk2_lhs V c n = iblk2 V c 0 t := by
  subst hn; unfold iblk2_lhs; exact dif_pos t.isLt
theorem iblk2_rhs_at (c : Dev nD) (t : Fin cfg2.N) (n : ℕ) (hn : n = t.val) : iblk2_rhs V c n = iblk2 V c 1 t := by
  subst hn; unfold iblk2_rhs; exact dif_pos t.isLt

/-- At a grid point with k = 0 the fold starts: the zero block plus the product of the point's two blocks. -/
theorem accOf2_first (c : Dev nD) (t : Fin cfg2.N) (h0 : t.val % 4 = 0) :
    accOf2 V c (t.val / 4) (t.val % 4) = k2_pay2 (iblk2 V c 0 t) (iblk2 V c 1 t) (k2_pay1 (F := F)) := by
  rw [h0, accOf2_zero, iblk2_lhs_at V c t (4 * (t.val / 4)) (by omega), iblk2_rhs_at V c t (4 * (t.val / 4)) (by omega)]

/-- At a grid point with k ≠ 0 the fold takes one step from the position before, which is in the same row of blocks. -/
theorem accOf2_next (c : Dev nD) (t : Fin cfg2.N) (h0 : ¬t.val % 4 = 0) :
    accOf2 V c (t.val / 4) (t.val % 4)
      = k2_pay2 (iblk2 V c 0 t) (iblk2 V c 1 t) (accOf2 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf2_succ, iblk2_lhs_at V c t (4 * (t.val / 4) + (k + 1)) (by omega),
    iblk2_rhs_at V c t (4 * (t.val / 4) + (k + 1)) (by omega)]

/-! ## The accumulator and the output block, point by point, as pure functions of the blocks -/

/-- k = 0: the accumulator restarts from the zero block. -/
theorem outsAt2_first (c : Dev nD) (t : Fin cfg2.N) (h0 : t.val % 4 = 0) :
    (outsAt2 V c t.val t.isLt).2 = k2_pay2 (iblk2 V c 0 t) (iblk2 V c 1 t) (k2_pay1 (F := F)) := by
  rw [outsAt2_A V c t h0]
  dsimp only
  exact sout2_A_eq c (grid2.coords t) (ms2_0 t) (hs2_0 t) (ms2_1 t) (hs2_1 t) (ms2_2 t) (hs2_2 t) scM2 (Memref.isWhole_whole _) (isFirst2 t h0) (notLast2 t (by omega)) (iblk2 V c 0 t) (iblk2 V c 1 t)

/-- k ≠ 0: the point's product is added to what the point before left. -/
theorem outsAt2_next (c : Dev nD) (t : Fin cfg2.N) (h0 : ¬t.val % 4 = 0) :
    (outsAt2 V c t.val t.isLt).2
      = k2_pay2 (iblk2 V c 0 t) (iblk2 V c 1 t) (outsAt2 V c (t.val - 1) (Nat.lt_of_le_of_lt (Nat.sub_le _ _) t.isLt)).2 := by
  by_cases h3 : t.val % 4 = 3
  · rw [outsAt2_C V c t h0 h3]
    dsimp only
    exact sout2_C_eq c (grid2.coords t) (ms2_0 t) (hs2_0 t) (ms2_1 t) (hs2_1 t) (ms2_2 t) (hs2_2 t) scM2 (Memref.isWhole_whole _) (notFirst2 t h0) (isLast2 t h3) (iblk2 V c 0 t) (iblk2 V c 1 t)
      (outsAt2 V c (t.val - 1) (Nat.lt_of_le_of_lt (Nat.sub_le _ _) t.isLt)).2
  · rw [outsAt2_B V c t h0 h3]
    dsimp only
    exact sout2_B_eq c (grid2.coords t) (ms2_0 t) (hs2_0 t) (ms2_1 t) (hs2_1 t) (ms2_2 t) (hs2_2 t) scM2 (Memref.isWhole_whole _) (notFirst2 t h0) (notLast2 t h3) (iblk2 V c 0 t) (iblk2 V c 1 t)
      (outsAt2 V c (t.val - 1) (Nat.lt_of_le_of_lt (Nat.sub_le _ _) t.isLt)).2

/-- k = 3: the output block is the accumulator. -/
theorem outsAt2_last (c : Dev nD) (t : Fin cfg2.N) (h3 : t.val % 4 = 3) :
    (outsAt2 V c t.val t.isLt).1 = (outsAt2 V c t.val t.isLt).2 := by
  have h0 : ¬t.val % 4 = 0 := by omega
  rw [outsAt2_C V c t h0 h3]
  dsimp only
  exact (out2_C_eq c (grid2.coords t) (ms2_0 t) (hs2_0 t) (ms2_1 t) (hs2_1 t) (ms2_2 t) (hs2_2 t) scM2 (Memref.isWhole_whole _) (notFirst2 t h0) (isLast2 t h3) (iblk2 V c 0 t) (iblk2 V c 1 t)
      (outsAt2 V c (t.val - 1) (Nat.lt_of_le_of_lt (Nat.sub_le _ _) t.isLt)).2).trans
    (sout2_C_eq c (grid2.coords t) (ms2_0 t) (hs2_0 t) (ms2_1 t) (hs2_1 t) (ms2_2 t) (hs2_2 t) scM2 (Memref.isWhole_whole _) (notFirst2 t h0) (isLast2 t h3) (iblk2 V c 0 t) (iblk2 V c 1 t)
      (outsAt2 V c (t.val - 1) (Nat.lt_of_le_of_lt (Nat.sub_le _ _) t.isLt)).2).symm

/-! ## The accumulator is the fold -/

/-- After position `n` the accumulator holds row `n / 4`'s fold after its step `n % 4`: by induction on the position. -/
theorem outsAt2_acc_pos (c : Dev nD) :
    ∀ (n : ℕ) (hn : n < cfg2.N), (outsAt2 V c n hn).2 = accOf2 V c (n / 4) (n % 4) := by
  intro n
  induction n with
  | zero =>
    intro hn
    exact (outsAt2_first V c ⟨0, hn⟩ (Nat.zero_mod 4)).trans (accOf2_first V c ⟨0, hn⟩ (Nat.zero_mod 4)).symm
  | succ n ih =>
    intro hn
    by_cases h0 : (n + 1) % 4 = 0
    · exact (outsAt2_first V c ⟨n + 1, hn⟩ h0).trans (accOf2_first V c ⟨n + 1, hn⟩ h0).symm
    · refine (outsAt2_next V c ⟨n + 1, hn⟩ h0).trans (Eq.trans ?_ (accOf2_next V c ⟨n + 1, hn⟩ h0).symm)
      exact congrArg (k2_pay2 (iblk2 V c 0 ⟨n + 1, hn⟩) (iblk2 V c 1 ⟨n + 1, hn⟩)) (ih (Nat.lt_of_succ_lt hn))

/-- At every grid point the accumulator holds its row's fold after the point's step. -/
theorem outsAt2_acc (c : Dev nD) (t : Fin cfg2.N) :
    (outsAt2 V c t.val t.isLt).2 = accOf2 V c (t.val / 4) (t.val % 4) :=
  outsAt2_acc_pos V c t.val t.isLt

/-- At a row's last point the output block holds the row's whole fold. -/
theorem outsAt2_out (c : Dev nD) (t : Fin cfg2.N) (h3 : t.val % 4 = 3) :
    (outsAt2 V c t.val t.isLt).1 = accOf2 V c (t.val / 4) 3 := by
  have e := outsAt2_acc V c t
  rw [h3] at e
  exact (outsAt2_last V c t h3).trans e

end Cert.KernelIdeal.Hand

end
-- ==== Proof.ValKI2b.lean ====
/- Laid out by: python3 scratch/layout_regions.py --template-region 1 --region 2 --program KernelIdeal --prefix Val --parts a,b,c --sim main_v9=main_v8,main_v25=main_v20,main_v26=main_v30 --out-dir proof/Proof
   from the hand-written text of region 1 (ValKI1b.lean): the same text, the region's number substituted. -/
/-
  Region 2 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI2a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0 :=
  (by decide +kernel : ∀ t : Fin grid2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0)

/-! ## The output array as one function -/

/-- The whole output array: its row 1024 r + p, column q, is entry (p, q) of the block accumulated over k = 0 … 3 in
    block row r. -/
def whole2 (c : Dev nD) : S4096x512.Idx → Elt F .f32 := fun i =>
  accOf2 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole2_apply (c : Dev nD) (r : ℕ) (y : S1024x512.Idx) (i : S4096x512.Idx)
    (h0 : (i 0).val = 1024 * r + (y 0).val) (h1 : (i 1).val = (y 1).val) :
    whole2 V c i = accOf2 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole2
  rw [hr, e]

/-- Row 1024 r + p, column q of the array is entry (p, q) of block row r's accumulated block. -/
theorem whole2_ix2 (c : Dev nD) (r : Fin 4) (p : Fin 1024) (q : Fin 512) :
    whole2 V c (ix2 (n0 := 4096) (n1 := 512) ⟨1024 * r.val + p.val, by have := r.isLt; have := p.isLt; omega⟩ q)
      = accOf2 V c r.val 3 (ix2 p q) :=
  whole2_apply V c r.val (ix2 p q) _ rfl rfl

/-! ## What a point writes back -/

/-- A point with k = 3 writes back its block of the whole-array function. -/
theorem flushed2_eq (c : Dev nD) (t : Fin cfg2.N) (hf : (cfg2.win 2).flush t = true) :
    (dat2 V c).flushed 2 t = ((cfg2.win 2).blk t).view.read (Elt F) (whole2 V c) := by
  have h3 : t.val % 4 = 3 := (flush2_2 t).mp hf
  show (cfg2.win 2).cut (grid2.coords t) ((dat2 V c).after 2 t) = _
  rw [after2_2, outsAt2_out V c t h3]
  obtain ⟨-, -, -, -, e0, e1⟩ := idxFacts2 t
  funext j
  show accOf2 V c (t.val / 4) 3 j = whole2 V c (((cfg2.win 2).blk t).view.emb j)
  refine (whole2_apply V c (t.val / 4) j _ ?_ ?_).symm
  · show win2_2.index t (0 : Fin 2) * 1024 + 1 * (j 0).val = 1024 * (t.val / 4) + (j 0).val
    rw [e0]; omega
  · show win2_2.index t (1 : Fin 2) * 512 + 1 * (j 1).val = (j 1).val
    rw [e1]; omega

/-! ## The blocks written back cover the array -/

/-- An index is in a point's output block iff each coordinate is in the block's range on its axis. -/
theorem memBlk2 (t : Fin cfg2.N) (i : S4096x512.Idx) :
    i ∈ ((cfg2.win 2).blk t).view.set ↔ ∀ a : Fin 2, win2_2.index t a * S1024x512.size a ≤ (i a).val
      ∧ (i a).val < win2_2.index t a * S1024x512.size a + S1024x512.size a := by
  show i ∈ ((View.whole main_v30).slice (win2_2.rect t)).set ↔ _
  rw [View.set_slice_whole, Rect.mem_set_unit]
  exact Iff.rfl

/-- Row i of the array lies in the block written back at the point (i / 1024, 3). -/
theorem covered2 (i : S4096x512.Idx) :
    ∃ t : Fin cfg2.N, (cfg2.win 2).flush t = true ∧ i ∈ ((cfg2.win 2).blk t).view.set := by
  have hi0 : (i 0).val < 4096 := idx2_lt0 i
  have hi1 : (i 1).val < 512 := idx2_lt1 i
  have hN : cfg2.N = 16 := N_2
  obtain ⟨t, ht⟩ : ∃ t : Fin cfg2.N, t.val = 4 * ((i 0).val / 1024) + 3 :=
    ⟨⟨4 * ((i 0).val / 1024) + 3, by rw [hN]; omega⟩, rfl⟩
  refine ⟨t, (flush2_2 t).mpr (by omega), ?_⟩
  rw [memBlk2]
  obtain ⟨-, -, -, -, e0, e1⟩ := idxFacts2 t
  intro a
  match a with
  | ⟨0, _⟩ =>
    show win2_2.index t (0 : Fin 2) * 1024 ≤ (i 0).val ∧ (i 0).val < win2_2.index t (0 : Fin 2) * 1024 + 1024
    rw [e0]; omega
  | ⟨1, _⟩ =>
    show win2_2.index t (1 : Fin 2) * 512 ≤ (i 1).val ∧ (i 1).val < win2_2.index t (1 : Fin 2) * 512 + 512
    rw [e1]; omega

/-! ## The three arrays after the region -/

/-- The output array after the region is the whole-array function. -/
theorem final2_2 (c : Dev nD) : (dat2 V c).arrAt 2 cfg2.N = whole2 V c :=
  (dat2 V c).arrAt_eq_of_cover 2 (whole2 V c) (flushed2_eq V c) covered2

/-- The two input arrays are as the region found them. -/
theorem final2_0 (c : Dev nD) : (dat2 V c).arrAt 0 cfg2.N = V c main_v8 :=
  ((dat2 V c).arrAt_in 0 rfl cfg2.N).trans (A_eq2 V c 0)
theorem final2_1 (c : Dev nD) : (dat2 V c).arrAt 1 cfg2.N = V c main_v20 :=
  ((dat2 V c).arrAt_in 1 rfl cfg2.N).trans (A_eq2 V c 1)

/-! ## The input blocks as blocks of the operand arrays -/

/-- The left operand's block at the point (r, k): entry (y₀, y₁) is the array's entry (1024 r + y₀, 1024 k + y₁). -/
theorem iblk2_lhs_apply (c : Dev nD) (r k : Fin 4) (y : S1024x1024.Idx) (i : S4096x4096.Idx)
    (h0 : (i 0).val = 1024 * r.val + (y 0).val) (h1 : (i 1).val = 1024 * k.val + (y 1).val) :
    iblk2_lhs V c (4 * r.val + k.val) y = (V c main_v8 : S4096x4096.Idx → Elt F .bf16) i := by
  have hN : cfg2.N = 16 := N_2
  have hr := r.isLt
  have hk := k.isLt
  have hlt : 4 * r.val + k.val < cfg2.N := by rw [hN]; omega
  rw [iblk2_lhs_eq V c _ hlt]
  obtain ⟨e0, e1, -, -, -, -⟩ := idxFacts2 ⟨4 * r.val + k.val, hlt⟩
  have e0' : win2_0.index ⟨4 * r.val + k.val, hlt⟩ (0 : Fin 2) = (4 * r.val + k.val) / 4 := e0
  have e1' : win2_0.index ⟨4 * r.val + k.val, hlt⟩ (1 : Fin 2) = (4 * r.val + k.val) % 4 := e1
  unfold iblk2
  rw [View.read_apply]
  show V c main_v8 (((cfg2.win 0).blk ⟨4 * r.val + k.val, hlt⟩).view.emb y) = V c main_v8 i
  congr 1
  funext a
  apply Fin.ext
  match a with
  | ⟨0, _⟩ =>
    show win2_0.index ⟨4 * r.val + k.val, hlt⟩ (0 : Fin 2) * 1024 + 1 * (y 0).val = (i 0).val
    rw [e0', h0]; omega
  | ⟨1, _⟩ =>
    show win2_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk2_rhs_apply (c : Dev nD) (r k : Fin 4) (y : S1024x512.Idx) (i : S4096x512.Idx)
    (h0 : (i 0).val = 1024 * k.val + (y 0).val) (h1 : (i 1).val = (y 1).val) :
    iblk2_rhs V c (4 * r.val + k.val) y = (V c main_v20 : S4096x512.Idx → Elt F .f32) i := by
  have hN : cfg2.N = 16 := N_2
  have hr := r.isLt
  have hk := k.isLt
  have hlt : 4 * r.val + k.val < cfg2.N := by rw [hN]; omega
  rw [iblk2_rhs_eq V c _ hlt]
  obtain ⟨-, -, e0, e1, -, -⟩ := idxFacts2 ⟨4 * r.val + k.val, hlt⟩
  have e0' : win2_1.index ⟨4 * r.val + k.val, hlt⟩ (0 : Fin 2) = (4 * r.val + k.val) % 4 := e0
  have e1' : win2_1.index ⟨4 * r.val + k.val, hlt⟩ (1 : Fin 2) = 0 := e1
  unfold iblk2
  rw [View.read_apply]
  show V c main_v20 (((cfg2.win 1).blk ⟨4 * r.val + k.val, hlt⟩).view.emb y) = V c main_v20 i
  congr 1
  funext a
  apply Fin.ext
  match a with
  | ⟨0, _⟩ =>
    show win2_1.index ⟨4 * r.val + k.val, hlt⟩ (0 : Fin 2) * 1024 + 1 * (y 0).val = (i 0).val
    rw [e0', h0]; omega
  | ⟨1, _⟩ =>
    show win2_1.index ⟨4 * r.val + k.val, hlt⟩ (1 : Fin 2) * 512 + 1 * (y 1).val = (i 1).val
    rw [e1', h1]; omega

/-- The accumulated block after the fourth step, unfolded: four steps from the zero block. -/
theorem accOf2_three (c : Dev nD) (r : ℕ) :
    accOf2 V c r 3
      = k2_pay2 (iblk2_lhs V c (4 * r + 3)) (iblk2_rhs V c (4 * r + 3))
          (k2_pay2 (iblk2_lhs V c (4 * r + 2)) (iblk2_rhs V c (4 * r + 2))
            (k2_pay2 (iblk2_lhs V c (4 * r + 1)) (iblk2_rhs V c (4 * r + 1))
              (k2_pay2 (iblk2_lhs V c (4 * r)) (iblk2_rhs V c (4 * r)) (k2_pay1 (F := F))))) := rfl

end Cert.KernelIdeal.Hand

end
-- ==== Proof.ValKI2c.lean ====
/- Laid out by: python3 scratch/layout_regions.py --template-region 1 --region 2 --program KernelIdeal --prefix Val --parts a,b,c --sim main_v9=main_v8,main_v25=main_v20,main_v26=main_v30 --out-dir proof/Proof
   from the hand-written text of region 1 (ValKI1c.lean): the same text, the region's number substituted. -/
/-
  Region 2 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI2b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf2_step (x0 : Vec Ideal S1024x1024 .bf16) (x1 acc : Vec Ideal S1024x512 .f32) :
    k2_pay2 (F := Ideal) x0 x1 acc
      = Cert.MMLaw.accStep dot_S1024x1024_S1024x512_S1024x512_1_0_0_1_n_n none x0 x1 acc := by
  unfold k2_pay2
  simp only [shapeCast_self]
  rfl

/-- The accumulator starts from the zero block. -/
theorem accOf2_init (j : S1024x512.Idx) : k2_pay1 (F := Ideal) j = 0 := by
  unfold k2_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf2_eq_blk (c : Dev nD) (r : Fin 4) (D : DotDims S4096x4096 S4096x512 S4096x512) (hD : Cert.MMLaw.IsPlain D)
    (prec : Option ContractPrecision) :
    accOf2 V c r.val 3
      = Cert.MMLaw.blk (nr := 4) (nc := 1) 1024 512 rfl rfl (Cert.MMLaw.whole D prec (V c main_v8) (V c main_v20)) r 0 := by
  rw [accOf2_three]
  simp only [accOf2_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v8) (V c main_v20) r 0
    (fun k => iblk2_lhs V c (4 * r.val + k.val)) (fun k => iblk2_rhs V c (4 * r.val + k.val))
    (fun k => funext fun y => iblk2_lhs_apply V c r k y _ rfl rfl)
    (fun k => funext fun y => iblk2_rhs_apply V c r k y _ rfl (by show 512 * 0 + (y 1).val = (y 1).val; omega))
    (k2_pay1 (F := Ideal)) accOf2_init

/-! ## The output array after the region is the whole product -/

/-- The region leaves in its output array the product of its two operand arrays. -/
theorem final2_2_eq_whole (c : Dev nD) (D : DotDims S4096x4096 S4096x512 S4096x512) (hD : Cert.MMLaw.IsPlain D)
    (prec : Option ContractPrecision) :
    (dat2 (F := Ideal) V c).arrAt 2 cfg2.N = Cert.MMLaw.whole D prec (V c main_v8) (V c main_v20) := by
  rw [final2_2]
  funext i
  have hi0 : (i 0).val < 4096 := idx2_lt0 i
  have h := congrFun (accOf2_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final2_2_eq_dot (c : Dev nD) (D : DotDims S4096x4096 S4096x512 S4096x512) (hD : Cert.MMLaw.IsPlain D)
    (prec : Option ContractPrecision) :
    (dat2 (F := Ideal) V c).arrAt 2 cfg2.N = Host.dotGeneral (F := Ideal) (φ₁ := .bf16) (φ₂ := .f32) D prec (V c main_v8) (V c main_v20) :=
  final2_2_eq_whole V c D hD prec

end Cert.KernelIdeal.Hand

end
-- ==== Proof.ValKI3a.lean ====
/- Laid out by: python3 scratch/layout_grid41.py --prefix Val --template-region 0 --region 3 --program KernelIdeal --parts a,b --shapes S1024x128=S1024x512,S128x512=S512x512,S1024x512=S1024x512,S4096x128=S4096x512,S4096x512=S4096x512,main_arg0=main_v33,main_v12=main_v10,main_v17=main_v34,h0=h0,e0=e0,hi0=hi0,x0=x0
   from the hand-written text of region 0 (ValKI0a.lean): the same text, the region's number, block shapes, operand arrays substituted. -/
/-
  Region 3 of @main: from the output blocks to the whole output array.

  The grid is [4, 1]: the point t is block row t, and the reduction axis has one step, so every point zeroes the
  accumulator, adds the product of its two input blocks, and writes the sum back. The output window's block at t is
  rows 1024 t … 1024 t + 1023 of the result, written back at every point. So the array after the region is ONE function
  of the index: row 1024 r + p, column q holds entry (p, q) of the block the point r leaves. The steps: the three windows'
  block indices decided once over the grid; what a point writes back is its block of that function; the four blocks
  written back cover the array (row i lies in the block of the point i / 1024); hence the array after the region. The two
  operand arrays are not written. Last, each input block as a block of its operand array: the left operand's block at the
  point t is its rows 1024 t … 1024 t + 1023 (every column), the right operand's block is the whole array at every point.
-/
import proofs.«158944_j64613488001249_1_alg».proof.Proof.RegKI3
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t the left operand's block is (t, 0), the right operand's (0, 0), the output's (t, 0). -/
theorem idxFacts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0)

/-! ## The block a point leaves -/

/-- The block the point at grid position n leaves: the zero block plus the product of the point's two input blocks
    (past the grid's end, where nothing consults it, the block of position 0). -/
def accOf3 (c : Dev nD) (n : ℕ) : Vec F S1024x512 .f32 :=
  if h : n < cfg3.N then k3_pay2 (iblk3 V c 0 ⟨n, h⟩) (iblk3 V c 1 ⟨n, h⟩) (k3_pay1 (F := F))
  else k3_pay2 (iblk3 V c 0 ⟨0, by have h : cfg3.N = 4 := N_3; omega⟩)
    (iblk3 V c 1 ⟨0, by have h : cfg3.N = 4 := N_3; omega⟩) (k3_pay1 (F := F))

theorem accOf3_eq (c : Dev nD) (t : Fin cfg3.N) :
    accOf3 V c t.val = k3_pay2 (iblk3 V c 0 t) (iblk3 V c 1 t) (k3_pay1 (F := F)) := by
  unfold accOf3; exact dif_pos t.isLt

/-- At every point the output block holds that block. -/
theorem outsAt3_out (c : Dev nD) (t : Fin cfg3.N) : (outsAt3 V c t.val t.isLt).1 = accOf3 V c t.val :=
  (outsAt3_last V c t).trans ((outsAt3_first V c t).trans (accOf3_eq V c t).symm)

/-! ## The output array as one function -/

/-- The whole output array: its row 1024 r + p, column q, is entry (p, q) of the block the point r leaves. -/
def whole3 (c : Dev nD) : S4096x512.Idx → Elt F .f32 := fun i =>
  accOf3 V c ((i 0).val / 1024)
    (ix2 ⟨(i 0).val % 1024, Nat.mod_lt _ (by decide)⟩ ⟨(i 1).val, idx2_lt1 i⟩)

/-- The array read at an index given by a block row r and a position y inside the block. -/
theorem whole3_apply (c : Dev nD) (r : ℕ) (y : S1024x512.Idx) (i : S4096x512.Idx)
    (h0 : (i 0).val = 1024 * r + (y 0).val) (h1 : (i 1).val = (y 1).val) :
    whole3 V c i = accOf3 V c r y := by
  have hy : (y 0).val < 1024 := idx2_lt0 y
  have hr : (i 0).val / 1024 = r := by omega
  have hp : (i 0).val % 1024 = (y 0).val := by omega
  have e : (ix2 ⟨(i 0).val % 1024, Nat.mod_lt _ (by decide)⟩ ⟨(i 1).val, idx2_lt1 i⟩ : S1024x512.Idx) = y :=
    funext fun a => match a with
      | ⟨0, _⟩ => Fin.ext hp
      | ⟨1, _⟩ => Fin.ext h1
  unfold whole3
  rw [hr, e]

/-- Row 1024 r + p, column q of the array is entry (p, q) of the block the point r leaves. -/
theorem whole3_ix2 (c : Dev nD) (r : Fin 4) (p : Fin 1024) (q : Fin (S1024x512.size 1)) :
    whole3 V c (ix2 ⟨1024 * r.val + p.val, by have := r.isLt; have := p.isLt; omega⟩ q)
      = accOf3 V c r.val (ix2 p q) :=
  whole3_apply V c r.val (ix2 p q) _ rfl rfl

/-! ## What a point writes back -/

/-- Every point writes back its block of the whole-array function. -/
theorem flushed3_eq (c : Dev nD) (t : Fin cfg3.N) (hf : (cfg3.win 2).flush t = true) :
    (dat3 V c).flushed 2 t = ((cfg3.win 2).blk t).view.read (Elt F) (whole3 V c) := by
  show (cfg3.win 2).cut (grid3.coords t) ((dat3 V c).after 2 t) = _
  rw [after3_2, outsAt3_out V c t]
  obtain ⟨-, -, -, -, e0, e1⟩ := idxFacts3 t
  funext j
  show accOf3 V c t.val j = whole3 V c (((cfg3.win 2).blk t).view.emb j)
  refine (whole3_apply V c t.val j _ ?_ ?_).symm
  · show win3_2.index t (0 : Fin 2) * 1024 + 1 * (j 0).val = 1024 * t.val + (j 0).val
    rw [e0]; omega
  · show win3_2.index t (1 : Fin 2) * S1024x512.size (1 : Fin 2) + 1 * (j 1).val = (j 1).val
    rw [e1, Nat.zero_mul, Nat.zero_add, Nat.one_mul]

/-! ## The blocks written back cover the array -/

/-- An index is in a point's output block iff each coordinate is in the block's range on its axis. -/
theorem memBlk3 (t : Fin cfg3.N) (i : S4096x512.Idx) :
    i ∈ ((cfg3.win 2).blk t).view.set ↔ ∀ a : Fin 2, win3_2.index t a * S1024x512.size a ≤ (i a).val
      ∧ (i a).val < win3_2.index t a * S1024x512.size a + S1024x512.size a := by
  show i ∈ ((View.whole main_v34).slice (win3_2.rect t)).set ↔ _
  rw [View.set_slice_whole, Rect.mem_set_unit]
  exact Iff.rfl

/-- Row i of the array lies in the block written back at the point i / 1024. -/
theorem covered3 (i : S4096x512.Idx) :
    ∃ t : Fin cfg3.N, (cfg3.win 2).flush t = true ∧ i ∈ ((cfg3.win 2).blk t).view.set := by
  have hi0 : (i 0).val < 4096 := idx2_lt0 i
  have hi1 : (i 1).val < S1024x512.size (1 : Fin 2) := idx2_lt1 i
  have hN : cfg3.N = 4 := N_3
  obtain ⟨t, ht⟩ : ∃ t : Fin cfg3.N, t.val = (i 0).val / 1024 :=
    ⟨⟨(i 0).val / 1024, by rw [hN]; omega⟩, rfl⟩
  refine ⟨t, flush3_2 t, ?_⟩
  rw [memBlk3]
  obtain ⟨-, -, -, -, e0, e1⟩ := idxFacts3 t
  intro a
  match a with
  | ⟨0, _⟩ =>
    show win3_2.index t (0 : Fin 2) * 1024 ≤ (i 0).val ∧ (i 0).val < win3_2.index t (0 : Fin 2) * 1024 + 1024
    rw [e0]; omega
  | ⟨1, _⟩ =>
    show win3_2.index t (1 : Fin 2) * S1024x512.size (1 : Fin 2) ≤ (i 1).val
      ∧ (i 1).val < win3_2.index t (1 : Fin 2) * S1024x512.size (1 : Fin 2) + S1024x512.size (1 : Fin 2)
    rw [e1, Nat.zero_mul, Nat.zero_add]
    exact ⟨Nat.zero_le _, hi1⟩

/-! ## The three arrays after the region -/

/-- The output array after the region is the whole-array function. -/
theorem final3_2 (c : Dev nD) : (dat3 V c).arrAt 2 cfg3.N = whole3 V c :=
  (dat3 V c).arrAt_eq_of_cover 2 (whole3 V c) (flushed3_eq V c) covered3

/-- The two input arrays are as the region found them. -/
theorem final3_0 (c : Dev nD) : (dat3 V c).arrAt 0 cfg3.N = V c main_v33 :=
  ((dat3 V c).arrAt_in 0 rfl cfg3.N).trans (A_eq3 V c 0)
theorem final3_1 (c : Dev nD) : (dat3 V c).arrAt 1 cfg3.N = V c main_v10 :=
  ((dat3 V c).arrAt_in 1 rfl cfg3.N).trans (A_eq3 V c 1)

/-! ## The input blocks as blocks of the operand arrays -/

/-- The left operand's block at the point t: entry (y₀, y₁) is the array's entry (1024 t + y₀, y₁). -/
theorem iblk3_lhs_apply (c : Dev nD) (t : Fin cfg3.N) (y : S1024x512.Idx) (i : S4096x512.Idx)
    (h0 : (i 0).val = 1024 * t.val + (y 0).val) (h1 : (i 1).val = (y 1).val) :
    iblk3 V c 0 t y = (V c main_v33 : S4096x512.Idx → Elt F .f32) i := by
  obtain ⟨e0, e1, -, -, -, -⟩ := idxFacts3 t
  unfold iblk3
  rw [View.read_apply]
  show V c main_v33 (((cfg3.win 0).blk t).view.emb y) = V c main_v33 i
  congr 1
  funext a
  apply Fin.ext
  match a with
  | ⟨0, _⟩ =>
    show win3_0.index t (0 : Fin 2) * 1024 + 1 * (y 0).val = (i 0).val
    rw [e0, h0]; omega
  | ⟨1, _⟩ =>
    show win3_0.index t (1 : Fin 2) * S1024x512.size (1 : Fin 2) + 1 * (y 1).val = (i 1).val
    rw [e1, h1, Nat.zero_mul, Nat.zero_add, Nat.one_mul]

/-- The right operand's block is the whole array at every point. -/
theorem iblk3_rhs_eq (c : Dev nD) (t : Fin cfg3.N) :
    iblk3 V c 1 t = (V c main_v10 : S512x512.Idx → Elt F .bf16) := by
  obtain ⟨-, -, e0, e1, -, -⟩ := idxFacts3 t
  funext y
  unfold iblk3
  rw [View.read_apply]
  show V c main_v10 (((cfg3.win 1).blk t).view.emb y) = V c main_v10 y
  congr 1
  funext a
  apply Fin.ext
  match a with
  | ⟨0, _⟩ =>
    show win3_1.index t (0 : Fin 2) * S512x512.size (0 : Fin 2) + 1 * (y 0).val = (y 0).val
    rw [e0, Nat.zero_mul, Nat.zero_add, Nat.one_mul]
  | ⟨1, _⟩ =>
    show win3_1.index t (1 : Fin 2) * S512x512.size (1 : Fin 2) + 1 * (y 1).val = (y 1).val
    rw [e1, Nat.zero_mul, Nat.zero_add, Nat.one_mul]

end Cert.KernelIdeal.Hand

end
-- ==== Proof.ValKI3b.lean ====
/- Laid out by: python3 scratch/layout_grid41.py --prefix Val --template-region 0 --region 3 --program KernelIdeal --parts a,b --shapes S1024x128=S1024x512,S128x512=S512x512,S1024x512=S1024x512,S4096x128=S4096x512,S4096x512=S4096x512,main_arg0=main_v33,main_v12=main_v10,main_v17=main_v34,h0=h0,e0=e0,hi0=hi0,x0=x0
   from the hand-written text of region 0 (ValKI0b.lean): the same text, the region's number, block shapes, operand arrays substituted. -/
/-
  Region 3 of @main at the extended reals: the output array after the region is the product of the two operand arrays.

  A change of float format is the identity at these values and a reshape to the same shape is the identity, so the
  kernel's one accumulation step is "accumulator plus the product of the two blocks into the zero block", and the
  accumulator starts from the zero block. The block the point r leaves is then zero plus the product of rows
  1024 r … 1024 r + 1023 of the left operand with the whole right operand, which is the same rows of the whole product:
  the contraction axis is not cut, so the sums are the same term by term. Read through the whole-array function of the
  blocks-to-array module, entry (1024 r + p, q) of the output array is that entry of the product.
-/
import proofs.«158944_j64613488001249_1_alg».proof.Proof.ValKI3a
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The accumulation step, and its start, at the extended reals -/

/-- A change of format and a reshape to the same shape are the identity: the step adds the product of the two blocks
    (into the zero block) to the accumulator. -/
theorem accOf3_step (x0 : Vec Ideal S1024x512 .f32) (x1 : Vec Ideal S512x512 .bf16) (acc : Vec Ideal S1024x512 .f32) :
    k3_pay2 (F := Ideal) x0 x1 acc
      = Cert.MMLaw.accStep dot_S1024x512_S512x512_S1024x512_1_0_0_1_n_n none x0 x1 acc := by
  unfold k3_pay2
  simp only [shapeCast_self]
  rfl

/-- The accumulator starts from the zero block. -/
theorem accOf3_init (j : S1024x512.Idx) : k3_pay1 (F := Ideal) j = 0 := by
  unfold k3_pay1
  rw [shapeCast_self]
  exact Ideal.ofBits_zero_f32

/-! ## The block a point leaves is a block of the whole product -/

/-- The block the point r leaves is rows 1024 r … 1024 r + 1023 of the product of the two operand arrays. -/
theorem accOf3_eq_blk (c : Dev nD) (r : Fin 4) (D : DotDims S4096x512 S512x512 S4096x512) (hD : Cert.MMLaw.IsPlain D)
    (prec : Option ContractPrecision) :
    accOf3 V c r.val
      = Cert.MMLaw.rowBlk (Cert.MMLaw.whole D prec (V c main_v33) (V c main_v10)) r := by
  have hN : cfg3.N = 4 := N_3
  have hr : r.val < cfg3.N := by rw [hN]; exact r.isLt
  rw [accOf3_eq V c ⟨r.val, hr⟩, accOf3_step]
  exact Cert.MMLaw.law41 dot_S1024x512_S512x512_S1024x512_1_0_0_1_n_n ⟨rfl, rfl, rfl, rfl, rfl, rfl⟩ D hD none prec
    (V c main_v33) (V c main_v10) r (iblk3 V c 0 ⟨r.val, hr⟩) (iblk3 V c 1 ⟨r.val, hr⟩)
    (funext fun y => iblk3_lhs_apply V c ⟨r.val, hr⟩ y _ rfl rfl) (iblk3_rhs_eq V c ⟨r.val, hr⟩)
    (k3_pay1 (F := Ideal)) accOf3_init

/-! ## The output array after the region is the whole product -/

/-- The region leaves in its output array the product of its two operand arrays. -/
theorem final3_2_eq_whole (c : Dev nD) (D : DotDims S4096x512 S512x512 S4096x512) (hD : Cert.MMLaw.IsPlain D)
    (prec : Option ContractPrecision) :
    (dat3 (F := Ideal) V c).arrAt 2 cfg3.N = Cert.MMLaw.whole D prec (V c main_v33) (V c main_v10) := by
  rw [final3_2]
  funext i
  have hi0 : (i 0).val < 4096 := idx2_lt0 i
  have h := congrFun (accOf3_eq_blk V c ⟨(i 0).val / 1024, by omega⟩ D hD prec)
    (ix2 ⟨(i 0).val % 1024, Nat.mod_lt _ (by decide)⟩ ⟨(i 1).val, idx2_lt1 i⟩)
  rw [Cert.MMLaw.rowBlk_apply] at h
  refine Eq.trans h (congrArg _ ?_)
  funext a
  match a with
  | ⟨0, _⟩ => exact Fin.ext (by show 1024 * ((i 0).val / 1024) + (i 0).val % 1024 = (i 0).val; omega)
  | ⟨1, _⟩ => rfl

/-- The same with the operands at the formats they are stored in. -/
theorem final3_2_eq_dot (c : Dev nD) (D : DotDims S4096x512 S512x512 S4096x512) (hD : Cert.MMLaw.IsPlain D)
    (prec : Option ContractPrecision) :
    (dat3 (F := Ideal) V c).arrAt 2 cfg3.N
      = Host.dotGeneral (F := Ideal) (φ₁ := .f32) (φ₂ := .bf16) D prec (V c main_v33) (V c main_v10) :=
  final3_2_eq_whole V c D hD prec

end Cert.KernelIdeal.Hand

end
-- ==== Proof.ValKI4a.lean ====
/- Laid out by: python3 scratch/layout_regions.py --template-region 1 --region 4 --program KernelIdeal --prefix Val --parts a,b,c --sim main_v9=main_v7,main_v25=main_v34,main_v26=main_v35 --out-dir proof/Proof
   from the hand-written text of region 1 (ValKI1a.lean): the same text, the region's number substituted. -/
/-
  Region 4 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k4_pay1` (the zero block) and `k4_pay2` (accumulator plus product) are the two stores' payloads.

  So along one row of blocks r the accumulator after its step k is the left fold
    accOf4 r 0 = pay2 (a (r, 0)) (b 0) pay1,    accOf4 r (k + 1) = pay2 (a (r, k + 1)) (b (k + 1)) (accOf4 r k),
  the grid point (r, k) being position 4 r + k; and at k = 3 the output block holds accOf4 r 3.
-/
import proofs.«158944_j64613488001249_1_alg».proof.Proof.RegKI4
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout4_A_eq (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond4_0 i) (hc1 : ¬cond4_1 i)
    (x0 : Vec F S1024x1024 .bf16) (x1 : Vec F S1024x512 .f32) :
    sout4_A c i arg2 harg2 arg3 harg3 arg4 harg4 arg5 harg5 hc0 hc1 x0 x1 = k4_pay2 x0 x1 (k4_pay1 (F := F)) := by
  have hz : (![0, 0] : Fin 2 → Nat) = fun _ => 0 := funext fun a => by fin_cases a <;> rfl
  unfold sout4_A
  rw [View.read_writes_eq_canon _ _ _ (scover4_A c i arg2 harg2 arg3 harg3 arg4 harg4 arg5 harg5 hc0 hc1 x0 x1)]
  unfold kernelRun4_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout4_B_eq (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond4_0 i) (hc1 : ¬cond4_1 i)
    (x0 : Vec F S1024x1024 .bf16) (x1 : Vec F S1024x512 .f32) (xs0 : Vec F S1024x512 .f32) :
    sout4_B c i arg2 harg2 arg3 harg3 arg4 harg4 arg5 harg5 hc0 hc1 x0 x1 xs0 = k4_pay2 x0 x1 xs0 := by
  have hz : (![0, 0] : Fin 2 → Nat) = fun _ => 0 := funext fun a => by fin_cases a <;> rfl
  unfold sout4_B
  rw [View.read_writes_eq_canon _ _ _ (scover4_B c i arg2 harg2 arg3 harg3 arg4 harg4 arg5 harg5 hc0 hc1 x0 x1 xs0)]
  unfold kernelRun4_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout4_C_eq (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond4_0 i) (hc1 : cond4_1 i)
    (x0 : Vec F S1024x1024 .bf16) (x1 : Vec F S1024x512 .f32) (xs0 : Vec F S1024x512 .f32) :
    sout4_C c i arg2 harg2 arg3 harg3 arg4 harg4 arg5 harg5 hc0 hc1 x0 x1 xs0 = k4_pay2 x0 x1 xs0 := by
  have hz : (![0, 0] : Fin 2 → Nat) = fun _ => 0 := funext fun a => by fin_cases a <;> rfl
  unfold sout4_C
  rw [View.read_writes_eq_canon _ _ _ (scover4_C c i arg2 harg2 arg3 harg3 arg4 harg4 arg5 harg5 hc0 hc1 x0 x1 xs0)]
  unfold kernelRun4_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out4_C_eq (c : Dev nD) (i : grid4.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond4_0 i) (hc1 : cond4_1 i)
    (x0 : Vec F S1024x1024 .bf16) (x1 : Vec F S1024x512 .f32) (xs0 : Vec F S1024x512 .f32) :
    out4_C c i arg2 harg2 arg3 harg3 arg4 harg4 arg5 harg5 hc0 hc1 x0 x1 xs0 = k4_pay2 x0 x1 xs0 := by
  have hz : (![0, 0] : Fin 2 → Nat) = fun _ => 0 := funext fun a => by fin_cases a <;> rfl
  unfold out4_C
  rw [View.read_writes_eq_canon _ _ _ (cover4_C c i arg2 harg2 arg3 harg3 arg4 harg4 arg5 harg5 hc0 hc1 x0 x1 xs0)]
  unfold kernelRun4_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk4_lhs (c : Dev nD) (n : ℕ) : Vec F S1024x1024 .bf16 :=
  if h : n < cfg4.N then iblk4 V c 0 ⟨n, h⟩ else iblk4 V c 0 ⟨0, by have h : cfg4.N = 16 := N_4; omega⟩
/-- The right factor's block at grid position `n`. -/
def iblk4_rhs (c : Dev nD) (n : ℕ) : Vec F S1024x512 .f32 :=
  if h : n < cfg4.N then iblk4 V c 1 ⟨n, h⟩ else iblk4 V c 1 ⟨0, by have h : cfg4.N = 16 := N_4; omega⟩

theorem iblk4_lhs_eq (c : Dev nD) (n : ℕ) (h : n < cfg4.N) : iblk4_lhs V c n = iblk4 V c 0 ⟨n, h⟩ := dif_pos h
theorem iblk4_rhs_eq (c : Dev nD) (n : ℕ) (h : n < cfg4.N) : iblk4_rhs V c n = iblk4 V c 1 ⟨n, h⟩ := dif_pos h

/-! ## The accumulator along one row of blocks -/

/-- Row of blocks `r`, after its step `k`: the zero block plus the products of the blocks at positions 4 r, …, 4 r + k,
    added in that order. -/
def accOf4 (c : Dev nD) (r : ℕ) : ℕ → Vec F S1024x512 .f32
  | 0 => k4_pay2 (iblk4_lhs V c (4 * r)) (iblk4_rhs V c (4 * r)) (k4_pay1 (F := F))
  | k + 1 => k4_pay2 (iblk4_lhs V c (4 * r + (k + 1))) (iblk4_rhs V c (4 * r + (k + 1))) (accOf4 c r k)

theorem accOf4_zero (c : Dev nD) (r : ℕ) :
    accOf4 V c r 0 = k4_pay2 (iblk4_lhs V c (4 * r)) (iblk4_rhs V c (4 * r)) (k4_pay1 (F := F)) := rfl
theorem accOf4_succ (c : Dev nD) (r k : ℕ) :
    accOf4 V c r (k + 1) = k4_pay2 (iblk4_lhs V c (4 * r + (k + 1))) (iblk4_rhs V c (4 * r + (k + 1))) (accOf4 V c r k) := rfl

theorem iblk4_lhs_at (c : Dev nD) (t : Fin cfg4.N) (n : ℕ) (hn : n = t.val) : iblk4_lhs V c n = iblk4 V c 0 t := by
  subst hn; unfold iblk4_lhs; exact dif_pos t.isLt
theorem iblk4_rhs_at (c : Dev nD) (t : Fin cfg4.N) (n : ℕ) (hn : n = t.val) : iblk4_rhs V c n = iblk4 V c 1 t := by
  subst hn; unfold iblk4_rhs; exact dif_pos t.isLt

/-- At a grid point with k = 0 the fold starts: the zero block plus the product of the point's two blocks. -/
theorem accOf4_first (c : Dev nD) (t : Fin cfg4.N) (h0 : t.val % 4 = 0) :
    accOf4 V c (t.val / 4) (t.val % 4) = k4_pay2 (iblk4 V c 0 t) (iblk4 V c 1 t) (k4_pay1 (F := F)) := by
  rw [h0, accOf4_zero, iblk4_lhs_at V c t (4 * (t.val / 4)) (by omega), iblk4_rhs_at V c t (4 * (t.val / 4)) (by omega)]

/-- At a grid point with k ≠ 0 the fold takes one step from the position before, which is in the same row of blocks. -/
theorem accOf4_next (c : Dev nD) (t : Fin cfg4.N) (h0 : ¬t.val % 4 = 0) :
    accOf4 V c (t.val / 4) (t.val % 4)
      = k4_pay2 (iblk4 V c 0 t) (iblk4 V c 1 t) (accOf4 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf4_succ, iblk4_lhs_at V c t (4 * (t.val / 4) + (k + 1)) (by omega),
    iblk4_rhs_at V c t (4 * (t.val / 4) + (k + 1)) (by omega)]

/-! ## The accumulator and the output block, point by point, as pure functions of the blocks -/

/-- k = 0: the accumulator restarts from the zero block. -/
theorem outsAt4_first (c : Dev nD) (t : Fin cfg4.N) (h0 : t.val % 4 = 0) :
    (outsAt4 V c t.val t.isLt).2 = k4_pay2 (iblk4 V c 0 t) (iblk4 V c 1 t) (k4_pay1 (F := F)) := by
  rw [outsAt4_A V c t h0]
  dsimp only
  exact sout4_A_eq c (grid4.coords t) (ms4_0 t) (hs4_0 t) (ms4_1 t) (hs4_1 t) (ms4_2 t) (hs4_2 t) scM4 (Memref.isWhole_whole _) (isFirst4 t h0) (notLast4 t (by omega)) (iblk4 V c 0 t) (iblk4 V c 1 t)

/-- k ≠ 0: the point's product is added to what the point before left. -/
theorem outsAt4_next (c : Dev nD) (t : Fin cfg4.N) (h0 : ¬t.val % 4 = 0) :
    (outsAt4 V c t.val t.isLt).2
      = k4_pay2 (iblk4 V c 0 t) (iblk4 V c 1 t) (outsAt4 V c (t.val - 1) (Nat.lt_of_le_of_lt (Nat.sub_le _ _) t.isLt)).2 := by
  by_cases h3 : t.val % 4 = 3
  · rw [outsAt4_C V c t h0 h3]
    dsimp only
    exact sout4_C_eq c (grid4.coords t) (ms4_0 t) (hs4_0 t) (ms4_1 t) (hs4_1 t) (ms4_2 t) (hs4_2 t) scM4 (Memref.isWhole_whole _) (notFirst4 t h0) (isLast4 t h3) (iblk4 V c 0 t) (iblk4 V c 1 t)
      (outsAt4 V c (t.val - 1) (Nat.lt_of_le_of_lt (Nat.sub_le _ _) t.isLt)).2
  · rw [outsAt4_B V c t h0 h3]
    dsimp only
    exact sout4_B_eq c (grid4.coords t) (ms4_0 t) (hs4_0 t) (ms4_1 t) (hs4_1 t) (ms4_2 t) (hs4_2 t) scM4 (Memref.isWhole_whole _) (notFirst4 t h0) (notLast4 t h3) (iblk4 V c 0 t) (iblk4 V c 1 t)
      (outsAt4 V c (t.val - 1) (Nat.lt_of_le_of_lt (Nat.sub_le _ _) t.isLt)).2

/-- k = 3: the output block is the accumulator. -/
theorem outsAt4_last (c : Dev nD) (t : Fin cfg4.N) (h3 : t.val % 4 = 3) :
    (outsAt4 V c t.val t.isLt).1 = (outsAt4 V c t.val t.isLt).2 := by
  have h0 : ¬t.val % 4 = 0 := by omega
  rw [outsAt4_C V c t h0 h3]
  dsimp only
  exact (out4_C_eq c (grid4.coords t) (ms4_0 t) (hs4_0 t) (ms4_1 t) (hs4_1 t) (ms4_2 t) (hs4_2 t) scM4 (Memref.isWhole_whole _) (notFirst4 t h0) (isLast4 t h3) (iblk4 V c 0 t) (iblk4 V c 1 t)
      (outsAt4 V c (t.val - 1) (Nat.lt_of_le_of_lt (Nat.sub_le _ _) t.isLt)).2).trans
    (sout4_C_eq c (grid4.coords t) (ms4_0 t) (hs4_0 t) (ms4_1 t) (hs4_1 t) (ms4_2 t) (hs4_2 t) scM4 (Memref.isWhole_whole _) (notFirst4 t h0) (isLast4 t h3) (iblk4 V c 0 t) (iblk4 V c 1 t)
      (outsAt4 V c (t.val - 1) (Nat.lt_of_le_of_lt (Nat.sub_le _ _) t.isLt)).2).symm

/-! ## The accumulator is the fold -/

/-- After position `n` the accumulator holds row `n / 4`'s fold after its step `n % 4`: by induction on the position. -/
theorem outsAt4_acc_pos (c : Dev nD) :
    ∀ (n : ℕ) (hn : n < cfg4.N), (outsAt4 V c n hn).2 = accOf4 V c (n / 4) (n % 4) := by
  intro n
  induction n with
  | zero =>
    intro hn
    exact (outsAt4_first V c ⟨0, hn⟩ (Nat.zero_mod 4)).trans (accOf4_first V c ⟨0, hn⟩ (Nat.zero_mod 4)).symm
  | succ n ih =>
    intro hn
    by_cases h0 : (n + 1) % 4 = 0
    · exact (outsAt4_first V c ⟨n + 1, hn⟩ h0).trans (accOf4_first V c ⟨n + 1, hn⟩ h0).symm
    · refine (outsAt4_next V c ⟨n + 1, hn⟩ h0).trans (Eq.trans ?_ (accOf4_next V c ⟨n + 1, hn⟩ h0).symm)
      exact congrArg (k4_pay2 (iblk4 V c 0 ⟨n + 1, hn⟩) (iblk4 V c 1 ⟨n + 1, hn⟩)) (ih (Nat.lt_of_succ_lt hn))

/-- At every grid point the accumulator holds its row's fold after the point's step. -/
theorem outsAt4_acc (c : Dev nD) (t : Fin cfg4.N) :
    (outsAt4 V c t.val t.isLt).2 = accOf4 V c (t.val / 4) (t.val % 4) :=
  outsAt4_acc_pos V c t.val t.isLt

/-- At a row's last point the output block holds the row's whole fold. -/
theorem outsAt4_out (c : Dev nD) (t : Fin cfg4.N) (h3 : t.val % 4 = 3) :
    (outsAt4 V c t.val t.isLt).1 = accOf4 V c (t.val / 4) 3 := by
  have e := outsAt4_acc V c t
  rw [h3] at e
  exact (outsAt4_last V c t h3).trans e

end Cert.KernelIdeal.Hand

end
-- ==== Proof.ValKI4b.lean ====
/- Laid out by: python3 scratch/layout_regions.py --template-region 1 --region 4 --program KernelIdeal --prefix Val --parts a,b,c --sim main_v9=main_v7,main_v25=main_v34,main_v26=main_v35 --out-dir proof/Proof
   from the hand-written text of region 1 (ValKI1b.lean): the same text, the region's number substituted. -/
/-
  Region 4 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI4a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts4 : ∀ t : Fin cfg4.N,
    win4_0.index t (0 : Fin 2) = t.val / 4 ∧ win4_0.index t (1 : Fin 2) = t.val % 4
    ∧ win4_1.index t (0 : Fin 2) = t.val % 4 ∧ win4_1.index t (1 : Fin 2) = 0
    ∧ win4_2.index t (0 : Fin 2) = t.val / 4 ∧ win4_2.index t (1 : Fin 2) = 0 :=
  (by decide +kernel : ∀ t : Fin grid4.N,
    win4_0.index t (0 : Fin 2) = t.val / 4 ∧ win4_0.index t (1 : Fin 2) = t.val % 4
    ∧ win4_1.index t (0 : Fin 2) = t.val % 4 ∧ win4_1.index t (1 : Fin 2) = 0
    ∧ win4_2.index t (0 : Fin 2) = t.val / 4 ∧ win4_2.index t (1 : Fin 2) = 0)

/-! ## The output array as one function -/

/-- The whole output array: its row 1024 r + p, column q, is entry (p, q) of the block accumulated over k = 0 … 3 in
    block row r. -/
def whole4 (c : Dev nD) : S4096x512.Idx → Elt F .f32 := fun i =>
  accOf4 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole4_apply (c : Dev nD) (r : ℕ) (y : S1024x512.Idx) (i : S4096x512.Idx)
    (h0 : (i 0).val = 1024 * r + (y 0).val) (h1 : (i 1).val = (y 1).val) :
    whole4 V c i = accOf4 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole4
  rw [hr, e]

/-- Row 1024 r + p, column q of the array is entry (p, q) of block row r's accumulated block. -/
theorem whole4_ix2 (c : Dev nD) (r : Fin 4) (p : Fin 1024) (q : Fin 512) :
    whole4 V c (ix2 (n0 := 4096) (n1 := 512) ⟨1024 * r.val + p.val, by have := r.isLt; have := p.isLt; omega⟩ q)
      = accOf4 V c r.val 3 (ix2 p q) :=
  whole4_apply V c r.val (ix2 p q) _ rfl rfl

/-! ## What a point writes back -/

/-- A point with k = 3 writes back its block of the whole-array function. -/
theorem flushed4_eq (c : Dev nD) (t : Fin cfg4.N) (hf : (cfg4.win 2).flush t = true) :
    (dat4 V c).flushed 2 t = ((cfg4.win 2).blk t).view.read (Elt F) (whole4 V c) := by
  have h3 : t.val % 4 = 3 := (flush4_2 t).mp hf
  show (cfg4.win 2).cut (grid4.coords t) ((dat4 V c).after 2 t) = _
  rw [after4_2, outsAt4_out V c t h3]
  obtain ⟨-, -, -, -, e0, e1⟩ := idxFacts4 t
  funext j
  show accOf4 V c (t.val / 4) 3 j = whole4 V c (((cfg4.win 2).blk t).view.emb j)
  refine (whole4_apply V c (t.val / 4) j _ ?_ ?_).symm
  · show win4_2.index t (0 : Fin 2) * 1024 + 1 * (j 0).val = 1024 * (t.val / 4) + (j 0).val
    rw [e0]; omega
  · show win4_2.index t (1 : Fin 2) * 512 + 1 * (j 1).val = (j 1).val
    rw [e1]; omega

/-! ## The blocks written back cover the array -/

/-- An index is in a point's output block iff each coordinate is in the block's range on its axis. -/
theorem memBlk4 (t : Fin cfg4.N) (i : S4096x512.Idx) :
    i ∈ ((cfg4.win 2).blk t).view.set ↔ ∀ a : Fin 2, win4_2.index t a * S1024x512.size a ≤ (i a).val
      ∧ (i a).val < win4_2.index t a * S1024x512.size a + S1024x512.size a := by
  show i ∈ ((View.whole main_v35).slice (win4_2.rect t)).set ↔ _
  rw [View.set_slice_whole, Rect.mem_set_unit]
  exact Iff.rfl

/-- Row i of the array lies in the block written back at the point (i / 1024, 3). -/
theorem covered4 (i : S4096x512.Idx) :
    ∃ t : Fin cfg4.N, (cfg4.win 2).flush t = true ∧ i ∈ ((cfg4.win 2).blk t).view.set := by
  have hi0 : (i 0).val < 4096 := idx2_lt0 i
  have hi1 : (i 1).val < 512 := idx2_lt1 i
  have hN : cfg4.N = 16 := N_4
  obtain ⟨t, ht⟩ : ∃ t : Fin cfg4.N, t.val = 4 * ((i 0).val / 1024) + 3 :=
    ⟨⟨4 * ((i 0).val / 1024) + 3, by rw [hN]; omega⟩, rfl⟩
  refine ⟨t, (flush4_2 t).mpr (by omega), ?_⟩
  rw [memBlk4]
  obtain ⟨-, -, -, -, e0, e1⟩ := idxFacts4 t
  intro a
  match a with
  | ⟨0, _⟩ =>
    show win4_2.index t (0 : Fin 2) * 1024 ≤ (i 0).val ∧ (i 0).val < win4_2.index t (0 : Fin 2) * 1024 + 1024
    rw [e0]; omega
  | ⟨1, _⟩ =>
    show win4_2.index t (1 : Fin 2) * 512 ≤ (i 1).val ∧ (i 1).val < win4_2.index t (1 : Fin 2) * 512 + 512
    rw [e1]; omega

/-! ## The three arrays after the region -/

/-- The output array after the region is the whole-array function. -/
theorem final4_2 (c : Dev nD) : (dat4 V c).arrAt 2 cfg4.N = whole4 V c :=
  (dat4 V c).arrAt_eq_of_cover 2 (whole4 V c) (flushed4_eq V c) covered4

/-- The two input arrays are as the region found them. -/
theorem final4_0 (c : Dev nD) : (dat4 V c).arrAt 0 cfg4.N = V c main_v7 :=
  ((dat4 V c).arrAt_in 0 rfl cfg4.N).trans (A_eq4 V c 0)
theorem final4_1 (c : Dev nD) : (dat4 V c).arrAt 1 cfg4.N = V c main_v34 :=
  ((dat4 V c).arrAt_in 1 rfl cfg4.N).trans (A_eq4 V c 1)

/-! ## The input blocks as blocks of the operand arrays -/

/-- The left operand's block at the point (r, k): entry (y₀, y₁) is the array's entry (1024 r + y₀, 1024 k + y₁). -/
theorem iblk4_lhs_apply (c : Dev nD) (r k : Fin 4) (y : S1024x1024.Idx) (i : S4096x4096.Idx)
    (h0 : (i 0).val = 1024 * r.val + (y 0).val) (h1 : (i 1).val = 1024 * k.val + (y 1).val) :
    iblk4_lhs V c (4 * r.val + k.val) y = (V c main_v7 : S4096x4096.Idx → Elt F .bf16) i := by
  have hN : cfg4.N = 16 := N_4
  have hr := r.isLt
  have hk := k.isLt
  have hlt : 4 * r.val + k.val < cfg4.N := by rw [hN]; omega
  rw [iblk4_lhs_eq V c _ hlt]
  obtain ⟨e0, e1, -, -, -, -⟩ := idxFacts4 ⟨4 * r.val + k.val, hlt⟩
  have e0' : win4_0.index ⟨4 * r.val + k.val, hlt⟩ (0 : Fin 2) = (4 * r.val + k.val) / 4 := e0
  have e1' : win4_0.index ⟨4 * r.val + k.val, hlt⟩ (1 : Fin 2) = (4 * r.val + k.val) % 4 := e1
  unfold iblk4
  rw [View.read_apply]
  show V c main_v7 (((cfg4.win 0).blk ⟨4 * r.val + k.val, hlt⟩).view.emb y) = V c main_v7 i
  congr 1
  funext a
  apply Fin.ext
  match a with
  | ⟨0, _⟩ =>
    show win4_0.index ⟨4 * r.val + k.val, hlt⟩ (0 : Fin 2) * 1024 + 1 * (y 0).val = (i 0).val
    rw [e0', h0]; omega
  | ⟨1, _⟩ =>
    show win4_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk4_rhs_apply (c : Dev nD) (r k : Fin 4) (y : S1024x512.Idx) (i : S4096x512.Idx)
    (h0 : (i 0).val = 1024 * k.val + (y 0).val) (h1 : (i 1).val = (y 1).val) :
    iblk4_rhs V c (4 * r.val + k.val) y = (V c main_v34 : S4096x512.Idx → Elt F .f32) i := by
  have hN : cfg4.N = 16 := N_4
  have hr := r.isLt
  have hk := k.isLt
  have hlt : 4 * r.val + k.val < cfg4.N := by rw [hN]; omega
  rw [iblk4_rhs_eq V c _ hlt]
  obtain ⟨-, -, e0, e1, -, -⟩ := idxFacts4 ⟨4 * r.val + k.val, hlt⟩
  have e0' : win4_1.index ⟨4 * r.val + k.val, hlt⟩ (0 : Fin 2) = (4 * r.val + k.val) % 4 := e0
  have e1' : win4_1.index ⟨4 * r.val + k.val, hlt⟩ (1 : Fin 2) = 0 := e1
  unfold iblk4
  rw [View.read_apply]
  show V c main_v34 (((cfg4.win 1).blk ⟨4 * r.val + k.val, hlt⟩).view.emb y) = V c main_v34 i
  congr 1
  funext a
  apply Fin.ext
  match a with
  | ⟨0, _⟩ =>
    show win4_1.index ⟨4 * r.val + k.val, hlt⟩ (0 : Fin 2) * 1024 + 1 * (y 0).val = (i 0).val
    rw [e0', h0]; omega
  | ⟨1, _⟩ =>
    show win4_1.index ⟨4 * r.val + k.val, hlt⟩ (1 : Fin 2) * 512 + 1 * (y 1).val = (i 1).val
    rw [e1', h1]; omega

/-- The accumulated block after the fourth step, unfolded: four steps from the zero block. -/
theorem accOf4_three (c : Dev nD) (r : ℕ) :
    accOf4 V c r 3
      = k4_pay2 (iblk4_lhs V c (4 * r + 3)) (iblk4_rhs V c (4 * r + 3))
          (k4_pay2 (iblk4_lhs V c (4 * r + 2)) (iblk4_rhs V c (4 * r + 2))
            (k4_pay2 (iblk4_lhs V c (4 * r + 1)) (iblk4_rhs V c (4 * r + 1))
              (k4_pay2 (iblk4_lhs V c (4 * r)) (iblk4_rhs V c (4 * r)) (k4_pay1 (F := F))))) := rfl

end Cert.KernelIdeal.Hand

end
-- ==== Proof.ValKI4c.lean ====
/- Laid out by: python3 scratch/layout_regions.py --template-region 1 --region 4 --program KernelIdeal --prefix Val --parts a,b,c --sim main_v9=main_v7,main_v25=main_v34,main_v26=main_v35 --out-dir proof/Proof
   from the hand-written text of region 1 (ValKI1c.lean): the same text, the region's number substituted. -/
/-
  Region 4 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI4b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf4_step (x0 : Vec Ideal S1024x1024 .bf16) (x1 acc : Vec Ideal S1024x512 .f32) :
    k4_pay2 (F := Ideal) x0 x1 acc
      = Cert.MMLaw.accStep dot_S1024x1024_S1024x512_S1024x512_1_0_0_1_n_n none x0 x1 acc := by
  unfold k4_pay2
  simp only [shapeCast_self]
  rfl

/-- The accumulator starts from the zero block. -/
theorem accOf4_init (j : S1024x512.Idx) : k4_pay1 (F := Ideal) j = 0 := by
  unfold k4_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf4_eq_blk (c : Dev nD) (r : Fin 4) (D : DotDims S4096x4096 S4096x512 S4096x512) (hD : Cert.MMLaw.IsPlain D)
    (prec : Option ContractPrecision) :
    accOf4 V c r.val 3
      = Cert.MMLaw.blk (nr := 4) (nc := 1) 1024 512 rfl rfl (Cert.MMLaw.whole D prec (V c main_v7) (V c main_v34)) r 0 := by
  rw [accOf4_three]
  simp only [accOf4_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v7) (V c main_v34) r 0
    (fun k => iblk4_lhs V c (4 * r.val + k.val)) (fun k => iblk4_rhs V c (4 * r.val + k.val))
    (fun k => funext fun y => iblk4_lhs_apply V c r k y _ rfl rfl)
    (fun k => funext fun y => iblk4_rhs_apply V c r k y _ rfl (by show 512 * 0 + (y 1).val = (y 1).val; omega))
    (k4_pay1 (F := Ideal)) accOf4_init

/-! ## The output array after the region is the whole product -/

/-- The region leaves in its output array the product of its two operand arrays. -/
theorem final4_2_eq_whole (c : Dev nD) (D : DotDims S4096x4096 S4096x512 S4096x512) (hD : Cert.MMLaw.IsPlain D)
    (prec : Option ContractPrecision) :
    (dat4 (F := Ideal) V c).arrAt 2 cfg4.N = Cert.MMLaw.whole D prec (V c main_v7) (V c main_v34) := by
  rw [final4_2]
  funext i
  have hi0 : (i 0).val < 4096 := idx2_lt0 i
  have h := congrFun (accOf4_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final4_2_eq_dot (c : Dev nD) (D : DotDims S4096x4096 S4096x512 S4096x512) (hD : Cert.MMLaw.IsPlain D)
    (prec : Option ContractPrecision) :
    (dat4 (F := Ideal) V c).arrAt 2 cfg4.N = Host.dotGeneral (F := Ideal) (φ₁ := .bf16) (φ₂ := .f32) D prec (V c main_v7) (V c main_v34) :=
  final4_2_eq_whole V c D hD prec

end Cert.KernelIdeal.Hand

end
-- ==== Proof.ValKI5a.lean ====
/- Laid out by: python3 scratch/layout_regions.py --template-region 1 --region 5 --program KernelIdeal --prefix Val --parts a,b,c --sim main_v9=main_v8,main_v25=main_v37,main_v26=main_v39 --out-dir proof/Proof
   from the hand-written text of region 1 (ValKI1a.lean): the same text, the region's number substituted. -/
/-
  Region 5 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k5_pay1` (the zero block) and `k5_pay2` (accumulator plus product) are the two stores' payloads.

  So along one row of blocks r the accumulator after its step k is the left fold
    accOf5 r 0 = pay2 (a (r, 0)) (b 0) pay1,    accOf5 r (k + 1) = pay2 (a (r, k + 1)) (b (k + 1)) (accOf5 r k),
  the grid point (r, k) being position 4 r + k; and at k = 3 the output block holds accOf5 r 3.
-/
import proofs.«158944_j64613488001249_1_alg».proof.Proof.RegKI5
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout5_A_eq (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond5_0 i) (hc1 : ¬cond5_1 i)
    (x0 : Vec F S1024x1024 .bf16) (x1 : Vec F S1024x512 .f32) :
    sout5_A c i arg2 harg2 arg3 harg3 arg4 harg4 arg5 harg5 hc0 hc1 x0 x1 = k5_pay2 x0 x1 (k5_pay1 (F := F)) := by
  have hz : (![0, 0] : Fin 2 → Nat) = fun _ => 0 := funext fun a => by fin_cases a <;> rfl
  unfold sout5_A
  rw [View.read_writes_eq_canon _ _ _ (scover5_A c i arg2 harg2 arg3 harg3 arg4 harg4 arg5 harg5 hc0 hc1 x0 x1)]
  unfold kernelRun5_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout5_B_eq (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond5_0 i) (hc1 : ¬cond5_1 i)
    (x0 : Vec F S1024x1024 .bf16) (x1 : Vec F S1024x512 .f32) (xs0 : Vec F S1024x512 .f32) :
    sout5_B c i arg2 harg2 arg3 harg3 arg4 harg4 arg5 harg5 hc0 hc1 x0 x1 xs0 = k5_pay2 x0 x1 xs0 := by
  have hz : (![0, 0] : Fin 2 → Nat) = fun _ => 0 := funext fun a => by fin_cases a <;> rfl
  unfold sout5_B
  rw [View.read_writes_eq_canon _ _ _ (scover5_B c i arg2 harg2 arg3 harg3 arg4 harg4 arg5 harg5 hc0 hc1 x0 x1 xs0)]
  unfold kernelRun5_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout5_C_eq (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond5_0 i) (hc1 : cond5_1 i)
    (x0 : Vec F S1024x1024 .bf16) (x1 : Vec F S1024x512 .f32) (xs0 : Vec F S1024x512 .f32) :
    sout5_C c i arg2 harg2 arg3 harg3 arg4 harg4 arg5 harg5 hc0 hc1 x0 x1 xs0 = k5_pay2 x0 x1 xs0 := by
  have hz : (![0, 0] : Fin 2 → Nat) = fun _ => 0 := funext fun a => by fin_cases a <;> rfl
  unfold sout5_C
  rw [View.read_writes_eq_canon _ _ _ (scover5_C c i arg2 harg2 arg3 harg3 arg4 harg4 arg5 harg5 hc0 hc1 x0 x1 xs0)]
  unfold kernelRun5_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out5_C_eq (c : Dev nD) (i : grid5.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond5_0 i) (hc1 : cond5_1 i)
    (x0 : Vec F S1024x1024 .bf16) (x1 : Vec F S1024x512 .f32) (xs0 : Vec F S1024x512 .f32) :
    out5_C c i arg2 harg2 arg3 harg3 arg4 harg4 arg5 harg5 hc0 hc1 x0 x1 xs0 = k5_pay2 x0 x1 xs0 := by
  have hz : (![0, 0] : Fin 2 → Nat) = fun _ => 0 := funext fun a => by fin_cases a <;> rfl
  unfold out5_C
  rw [View.read_writes_eq_canon _ _ _ (cover5_C c i arg2 harg2 arg3 harg3 arg4 harg4 arg5 harg5 hc0 hc1 x0 x1 xs0)]
  unfold kernelRun5_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk5_lhs (c : Dev nD) (n : ℕ) : Vec F S1024x1024 .bf16 :=
  if h : n < cfg5.N then iblk5 V c 0 ⟨n, h⟩ else iblk5 V c 0 ⟨0, by have h : cfg5.N = 16 := N_5; omega⟩
/-- The right factor's block at grid position `n`. -/
def iblk5_rhs (c : Dev nD) (n : ℕ) : Vec F S1024x512 .f32 :=
  if h : n < cfg5.N then iblk5 V c 1 ⟨n, h⟩ else iblk5 V c 1 ⟨0, by have h : cfg5.N = 16 := N_5; omega⟩

theorem iblk5_lhs_eq (c : Dev nD) (n : ℕ) (h : n < cfg5.N) : iblk5_lhs V c n = iblk5 V c 0 ⟨n, h⟩ := dif_pos h
theorem iblk5_rhs_eq (c : Dev nD) (n : ℕ) (h : n < cfg5.N) : iblk5_rhs V c n = iblk5 V c 1 ⟨n, h⟩ := dif_pos h

/-! ## The accumulator along one row of blocks -/

/-- Row of blocks `r`, after its step `k`: the zero block plus the products of the blocks at positions 4 r, …, 4 r + k,
    added in that order. -/
def accOf5 (c : Dev nD) (r : ℕ) : ℕ → Vec F S1024x512 .f32
  | 0 => k5_pay2 (iblk5_lhs V c (4 * r)) (iblk5_rhs V c (4 * r)) (k5_pay1 (F := F))
  | k + 1 => k5_pay2 (iblk5_lhs V c (4 * r + (k + 1))) (iblk5_rhs V c (4 * r + (k + 1))) (accOf5 c r k)

theorem accOf5_zero (c : Dev nD) (r : ℕ) :
    accOf5 V c r 0 = k5_pay2 (iblk5_lhs V c (4 * r)) (iblk5_rhs V c (4 * r)) (k5_pay1 (F := F)) := rfl
theorem accOf5_succ (c : Dev nD) (r k : ℕ) :
    accOf5 V c r (k + 1) = k5_pay2 (iblk5_lhs V c (4 * r + (k + 1))) (iblk5_rhs V c (4 * r + (k + 1))) (accOf5 V c r k) := rfl

theorem iblk5_lhs_at (c : Dev nD) (t : Fin cfg5.N) (n : ℕ) (hn : n = t.val) : iblk5_lhs V c n = iblk5 V c 0 t := by
  subst hn; unfold iblk5_lhs; exact dif_pos t.isLt
theorem iblk5_rhs_at (c : Dev nD) (t : Fin cfg5.N) (n : ℕ) (hn : n = t.val) : iblk5_rhs V c n = iblk5 V c 1 t := by
  subst hn; unfold iblk5_rhs; exact dif_pos t.isLt

/-- At a grid point with k = 0 the fold starts: the zero block plus the product of the point's two blocks. -/
theorem accOf5_first (c : Dev nD) (t : Fin cfg5.N) (h0 : t.val % 4 = 0) :
    accOf5 V c (t.val / 4) (t.val % 4) = k5_pay2 (iblk5 V c 0 t) (iblk5 V c 1 t) (k5_pay1 (F := F)) := by
  rw [h0, accOf5_zero, iblk5_lhs_at V c t (4 * (t.val / 4)) (by omega), iblk5_rhs_at V c t (4 * (t.val / 4)) (by omega)]

/-- At a grid point with k ≠ 0 the fold takes one step from the position before, which is in the same row of blocks. -/
theorem accOf5_next (c : Dev nD) (t : Fin cfg5.N) (h0 : ¬t.val % 4 = 0) :
    accOf5 V c (t.val / 4) (t.val % 4)
      = k5_pay2 (iblk5 V c 0 t) (iblk5 V c 1 t) (accOf5 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf5_succ, iblk5_lhs_at V c t (4 * (t.val / 4) + (k + 1)) (by omega),
    iblk5_rhs_at V c t (4 * (t.val / 4) + (k + 1)) (by omega)]

/-! ## The accumulator and the output block, point by point, as pure functions of the blocks -/

/-- k = 0: the accumulator restarts from the zero block. -/
theorem outsAt5_first (c : Dev nD) (t : Fin cfg5.N) (h0 : t.val % 4 = 0) :
    (outsAt5 V c t.val t.isLt).2 = k5_pay2 (iblk5 V c 0 t) (iblk5 V c 1 t) (k5_pay1 (F := F)) := by
  rw [outsAt5_A V c t h0]
  dsimp only
  exact sout5_A_eq c (grid5.coords t) (ms5_0 t) (hs5_0 t) (ms5_1 t) (hs5_1 t) (ms5_2 t) (hs5_2 t) scM5 (Memref.isWhole_whole _) (isFirst5 t h0) (notLast5 t (by omega)) (iblk5 V c 0 t) (iblk5 V c 1 t)

/-- k ≠ 0: the point's product is added to what the point before left. -/
theorem outsAt5_next (c : Dev nD) (t : Fin cfg5.N) (h0 : ¬t.val % 4 = 0) :
    (outsAt5 V c t.val t.isLt).2
      = k5_pay2 (iblk5 V c 0 t) (iblk5 V c 1 t) (outsAt5 V c (t.val - 1) (Nat.lt_of_le_of_lt (Nat.sub_le _ _) t.isLt)).2 := by
  by_cases h3 : t.val % 4 = 3
  · rw [outsAt5_C V c t h0 h3]
    dsimp only
    exact sout5_C_eq c (grid5.coords t) (ms5_0 t) (hs5_0 t) (ms5_1 t) (hs5_1 t) (ms5_2 t) (hs5_2 t) scM5 (Memref.isWhole_whole _) (notFirst5 t h0) (isLast5 t h3) (iblk5 V c 0 t) (iblk5 V c 1 t)
      (outsAt5 V c (t.val - 1) (Nat.lt_of_le_of_lt (Nat.sub_le _ _) t.isLt)).2
  · rw [outsAt5_B V c t h0 h3]
    dsimp only
    exact sout5_B_eq c (grid5.coords t) (ms5_0 t) (hs5_0 t) (ms5_1 t) (hs5_1 t) (ms5_2 t) (hs5_2 t) scM5 (Memref.isWhole_whole _) (notFirst5 t h0) (notLast5 t h3) (iblk5 V c 0 t) (iblk5 V c 1 t)
      (outsAt5 V c (t.val - 1) (Nat.lt_of_le_of_lt (Nat.sub_le _ _) t.isLt)).2

/-- k = 3: the output block is the accumulator. -/
theorem outsAt5_last (c : Dev nD) (t : Fin cfg5.N) (h3 : t.val % 4 = 3) :
    (outsAt5 V c t.val t.isLt).1 = (outsAt5 V c t.val t.isLt).2 := by
  have h0 : ¬t.val % 4 = 0 := by omega
  rw [outsAt5_C V c t h0 h3]
  dsimp only
  exact (out5_C_eq c (grid5.coords t) (ms5_0 t) (hs5_0 t) (ms5_1 t) (hs5_1 t) (ms5_2 t) (hs5_2 t) scM5 (Memref.isWhole_whole _) (notFirst5 t h0) (isLast5 t h3) (iblk5 V c 0 t) (iblk5 V c 1 t)
      (outsAt5 V c (t.val - 1) (Nat.lt_of_le_of_lt (Nat.sub_le _ _) t.isLt)).2).trans
    (sout5_C_eq c (grid5.coords t) (ms5_0 t) (hs5_0 t) (ms5_1 t) (hs5_1 t) (ms5_2 t) (hs5_2 t) scM5 (Memref.isWhole_whole _) (notFirst5 t h0) (isLast5 t h3) (iblk5 V c 0 t) (iblk5 V c 1 t)
      (outsAt5 V c (t.val - 1) (Nat.lt_of_le_of_lt (Nat.sub_le _ _) t.isLt)).2).symm

/-! ## The accumulator is the fold -/

/-- After position `n` the accumulator holds row `n / 4`'s fold after its step `n % 4`: by induction on the position. -/
theorem outsAt5_acc_pos (c : Dev nD) :
    ∀ (n : ℕ) (hn : n < cfg5.N), (outsAt5 V c n hn).2 = accOf5 V c (n / 4) (n % 4) := by
  intro n
  induction n with
  | zero =>
    intro hn
    exact (outsAt5_first V c ⟨0, hn⟩ (Nat.zero_mod 4)).trans (accOf5_first V c ⟨0, hn⟩ (Nat.zero_mod 4)).symm
  | succ n ih =>
    intro hn
    by_cases h0 : (n + 1) % 4 = 0
    · exact (outsAt5_first V c ⟨n + 1, hn⟩ h0).trans (accOf5_first V c ⟨n + 1, hn⟩ h0).symm
    · refine (outsAt5_next V c ⟨n + 1, hn⟩ h0).trans (Eq.trans ?_ (accOf5_next V c ⟨n + 1, hn⟩ h0).symm)
      exact congrArg (k5_pay2 (iblk5 V c 0 ⟨n + 1, hn⟩) (iblk5 V c 1 ⟨n + 1, hn⟩)) (ih (Nat.lt_of_succ_lt hn))

/-- At every grid point the accumulator holds its row's fold after the point's step. -/
theorem outsAt5_acc (c : Dev nD) (t : Fin cfg5.N) :
    (outsAt5 V c t.val t.isLt).2 = accOf5 V c (t.val / 4) (t.val % 4) :=
  outsAt5_acc_pos V c t.val t.isLt

/-- At a row's last point the output block holds the row's whole fold. -/
theorem outsAt5_out (c : Dev nD) (t : Fin cfg5.N) (h3 : t.val % 4 = 3) :
    (outsAt5 V c t.val t.isLt).1 = accOf5 V c (t.val / 4) 3 := by
  have e := outsAt5_acc V c t
  rw [h3] at e
  exact (outsAt5_last V c t h3).trans e

end Cert.KernelIdeal.Hand

end
-- ==== Proof.ValKI5b.lean ====
/- Laid out by: python3 scratch/layout_regions.py --template-region 1 --region 5 --program KernelIdeal --prefix Val --parts a,b,c --sim main_v9=main_v8,main_v25=main_v37,main_v26=main_v39 --out-dir proof/Proof
   from the hand-written text of region 1 (ValKI1b.lean): the same text, the region's number substituted. -/
/-
  Region 5 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI5a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts5 : ∀ t : Fin cfg5.N,
    win5_0.index t (0 : Fin 2) = t.val / 4 ∧ win5_0.index t (1 : Fin 2) = t.val % 4
    ∧ win5_1.index t (0 : Fin 2) = t.val % 4 ∧ win5_1.index t (1 : Fin 2) = 0
    ∧ win5_2.index t (0 : Fin 2) = t.val / 4 ∧ win5_2.index t (1 : Fin 2) = 0 :=
  (by decide +kernel : ∀ t : Fin grid5.N,
    win5_0.index t (0 : Fin 2) = t.val / 4 ∧ win5_0.index t (1 : Fin 2) = t.val % 4
    ∧ win5_1.index t (0 : Fin 2) = t.val % 4 ∧ win5_1.index t (1 : Fin 2) = 0
    ∧ win5_2.index t (0 : Fin 2) = t.val / 4 ∧ win5_2.index t (1 : Fin 2) = 0)

/-! ## The output array as one function -/

/-- The whole output array: its row 1024 r + p, column q, is entry (p, q) of the block accumulated over k = 0 … 3 in
    block row r. -/
def whole5 (c : Dev nD) : S4096x512.Idx → Elt F .f32 := fun i =>
  accOf5 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole5_apply (c : Dev nD) (r : ℕ) (y : S1024x512.Idx) (i : S4096x512.Idx)
    (h0 : (i 0).val = 1024 * r + (y 0).val) (h1 : (i 1).val = (y 1).val) :
    whole5 V c i = accOf5 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole5
  rw [hr, e]

/-- Row 1024 r + p, column q of the array is entry (p, q) of block row r's accumulated block. -/
theorem whole5_ix2 (c : Dev nD) (r : Fin 4) (p : Fin 1024) (q : Fin 512) :
    whole5 V c (ix2 (n0 := 4096) (n1 := 512) ⟨1024 * r.val + p.val, by have := r.isLt; have := p.isLt; omega⟩ q)
      = accOf5 V c r.val 3 (ix2 p q) :=
  whole5_apply V c r.val (ix2 p q) _ rfl rfl

/-! ## What a point writes back -/

/-- A point with k = 3 writes back its block of the whole-array function. -/
theorem flushed5_eq (c : Dev nD) (t : Fin cfg5.N) (hf : (cfg5.win 2).flush t = true) :
    (dat5 V c).flushed 2 t = ((cfg5.win 2).blk t).view.read (Elt F) (whole5 V c) := by
  have h3 : t.val % 4 = 3 := (flush5_2 t).mp hf
  show (cfg5.win 2).cut (grid5.coords t) ((dat5 V c).after 2 t) = _
  rw [after5_2, outsAt5_out V c t h3]
  obtain ⟨-, -, -, -, e0, e1⟩ := idxFacts5 t
  funext j
  show accOf5 V c (t.val / 4) 3 j = whole5 V c (((cfg5.win 2).blk t).view.emb j)
  refine (whole5_apply V c (t.val / 4) j _ ?_ ?_).symm
  · show win5_2.index t (0 : Fin 2) * 1024 + 1 * (j 0).val = 1024 * (t.val / 4) + (j 0).val
    rw [e0]; omega
  · show win5_2.index t (1 : Fin 2) * 512 + 1 * (j 1).val = (j 1).val
    rw [e1]; omega

/-! ## The blocks written back cover the array -/

/-- An index is in a point's output block iff each coordinate is in the block's range on its axis. -/
theorem memBlk5 (t : Fin cfg5.N) (i : S4096x512.Idx) :
    i ∈ ((cfg5.win 2).blk t).view.set ↔ ∀ a : Fin 2, win5_2.index t a * S1024x512.size a ≤ (i a).val
      ∧ (i a).val < win5_2.index t a * S1024x512.size a + S1024x512.size a := by
  show i ∈ ((View.whole main_v39).slice (win5_2.rect t)).set ↔ _
  rw [View.set_slice_whole, Rect.mem_set_unit]
  exact Iff.rfl

/-- Row i of the array lies in the block written back at the point (i / 1024, 3). -/
theorem covered5 (i : S4096x512.Idx) :
    ∃ t : Fin cfg5.N, (cfg5.win 2).flush t = true ∧ i ∈ ((cfg5.win 2).blk t).view.set := by
  have hi0 : (i 0).val < 4096 := idx2_lt0 i
  have hi1 : (i 1).val < 512 := idx2_lt1 i
  have hN : cfg5.N = 16 := N_5
  obtain ⟨t, ht⟩ : ∃ t : Fin cfg5.N, t.val = 4 * ((i 0).val / 1024) + 3 :=
    ⟨⟨4 * ((i 0).val / 1024) + 3, by rw [hN]; omega⟩, rfl⟩
  refine ⟨t, (flush5_2 t).mpr (by omega), ?_⟩
  rw [memBlk5]
  obtain ⟨-, -, -, -, e0, e1⟩ := idxFacts5 t
  intro a
  match a with
  | ⟨0, _⟩ =>
    show win5_2.index t (0 : Fin 2) * 1024 ≤ (i 0).val ∧ (i 0).val < win5_2.index t (0 : Fin 2) * 1024 + 1024
    rw [e0]; omega
  | ⟨1, _⟩ =>
    show win5_2.index t (1 : Fin 2) * 512 ≤ (i 1).val ∧ (i 1).val < win5_2.index t (1 : Fin 2) * 512 + 512
    rw [e1]; omega

/-! ## The three arrays after the region -/

/-- The output array after the region is the whole-array function. -/
theorem final5_2 (c : Dev nD) : (dat5 V c).arrAt 2 cfg5.N = whole5 V c :=
  (dat5 V c).arrAt_eq_of_cover 2 (whole5 V c) (flushed5_eq V c) covered5

/-- The two input arrays are as the region found them. -/
theorem final5_0 (c : Dev nD) : (dat5 V c).arrAt 0 cfg5.N = V c main_v8 :=
  ((dat5 V c).arrAt_in 0 rfl cfg5.N).trans (A_eq5 V c 0)
theorem final5_1 (c : Dev nD) : (dat5 V c).arrAt 1 cfg5.N = V c main_v37 :=
  ((dat5 V c).arrAt_in 1 rfl cfg5.N).trans (A_eq5 V c 1)

/-! ## The input blocks as blocks of the operand arrays -/

/-- The left operand's block at the point (r, k): entry (y₀, y₁) is the array's entry (1024 r + y₀, 1024 k + y₁). -/
theorem iblk5_lhs_apply (c : Dev nD) (r k : Fin 4) (y : S1024x1024.Idx) (i : S4096x4096.Idx)
    (h0 : (i 0).val = 1024 * r.val + (y 0).val) (h1 : (i 1).val = 1024 * k.val + (y 1).val) :
    iblk5_lhs V c (4 * r.val + k.val) y = (V c main_v8 : S4096x4096.Idx → Elt F .bf16) i := by
  have hN : cfg5.N = 16 := N_5
  have hr := r.isLt
  have hk := k.isLt
  have hlt : 4 * r.val + k.val < cfg5.N := by rw [hN]; omega
  rw [iblk5_lhs_eq V c _ hlt]
  obtain ⟨e0, e1, -, -, -, -⟩ := idxFacts5 ⟨4 * r.val + k.val, hlt⟩
  have e0' : win5_0.index ⟨4 * r.val + k.val, hlt⟩ (0 : Fin 2) = (4 * r.val + k.val) / 4 := e0
  have e1' : win5_0.index ⟨4 * r.val + k.val, hlt⟩ (1 : Fin 2) = (4 * r.val + k.val) % 4 := e1
  unfold iblk5
  rw [View.read_apply]
  show V c main_v8 (((cfg5.win 0).blk ⟨4 * r.val + k.val, hlt⟩).view.emb y) = V c main_v8 i
  congr 1
  funext a
  apply Fin.ext
  match a with
  | ⟨0, _⟩ =>
    show win5_0.index ⟨4 * r.val + k.val, hlt⟩ (0 : Fin 2) * 1024 + 1 * (y 0).val = (i 0).val
    rw [e0', h0]; omega
  | ⟨1, _⟩ =>
    show win5_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk5_rhs_apply (c : Dev nD) (r k : Fin 4) (y : S1024x512.Idx) (i : S4096x512.Idx)
    (h0 : (i 0).val = 1024 * k.val + (y 0).val) (h1 : (i 1).val = (y 1).val) :
    iblk5_rhs V c (4 * r.val + k.val) y = (V c main_v37 : S4096x512.Idx → Elt F .f32) i := by
  have hN : cfg5.N = 16 := N_5
  have hr := r.isLt
  have hk := k.isLt
  have hlt : 4 * r.val + k.val < cfg5.N := by rw [hN]; omega
  rw [iblk5_rhs_eq V c _ hlt]
  obtain ⟨-, -, e0, e1, -, -⟩ := idxFacts5 ⟨4 * r.val + k.val, hlt⟩
  have e0' : win5_1.index ⟨4 * r.val + k.val, hlt⟩ (0 : Fin 2) = (4 * r.val + k.val) % 4 := e0
  have e1' : win5_1.index ⟨4 * r.val + k.val, hlt⟩ (1 : Fin 2) = 0 := e1
  unfold iblk5
  rw [View.read_apply]
  show V c main_v37 (((cfg5.win 1).blk ⟨4 * r.val + k.val, hlt⟩).view.emb y) = V c main_v37 i
  congr 1
  funext a
  apply Fin.ext
  match a with
  | ⟨0, _⟩ =>
    show win5_1.index ⟨4 * r.val + k.val, hlt⟩ (0 : Fin 2) * 1024 + 1 * (y 0).val = (i 0).val
    rw [e0', h0]; omega
  | ⟨1, _⟩ =>
    show win5_1.index ⟨4 * r.val + k.val, hlt⟩ (1 : Fin 2) * 512 + 1 * (y 1).val = (i 1).val
    rw [e1', h1]; omega

/-- The accumulated block after the fourth step, unfolded: four steps from the zero block. -/
theorem accOf5_three (c : Dev nD) (r : ℕ) :
    accOf5 V c r 3
      = k5_pay2 (iblk5_lhs V c (4 * r + 3)) (iblk5_rhs V c (4 * r + 3))
          (k5_pay2 (iblk5_lhs V c (4 * r + 2)) (iblk5_rhs V c (4 * r + 2))
            (k5_pay2 (iblk5_lhs V c (4 * r + 1)) (iblk5_rhs V c (4 * r + 1))
              (k5_pay2 (iblk5_lhs V c (4 * r)) (iblk5_rhs V c (4 * r)) (k5_pay1 (F := F))))) := rfl

end Cert.KernelIdeal.Hand

end
-- ==== Proof.ValKI5c.lean ====
/- Laid out by: python3 scratch/layout_regions.py --template-region 1 --region 5 --program KernelIdeal --prefix Val --parts a,b,c --sim main_v9=main_v8,main_v25=main_v37,main_v26=main_v39 --out-dir proof/Proof
   from the hand-written text of region 1 (ValKI1c.lean): the same text, the region's number substituted. -/
/-
  Region 5 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI5b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf5_step (x0 : Vec Ideal S1024x1024 .bf16) (x1 acc : Vec Ideal S1024x512 .f32) :
    k5_pay2 (F := Ideal) x0 x1 acc
      = Cert.MMLaw.accStep dot_S1024x1024_S1024x512_S1024x512_1_0_0_1_n_n none x0 x1 acc := by
  unfold k5_pay2
  simp only [shapeCast_self]
  rfl

/-- The accumulator starts from the zero block. -/
theorem accOf5_init (j : S1024x512.Idx) : k5_pay1 (F := Ideal) j = 0 := by
  unfold k5_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf5_eq_blk (c : Dev nD) (r : Fin 4) (D : DotDims S4096x4096 S4096x512 S4096x512) (hD : Cert.MMLaw.IsPlain D)
    (prec : Option ContractPrecision) :
    accOf5 V c r.val 3
      = Cert.MMLaw.blk (nr := 4) (nc := 1) 1024 512 rfl rfl (Cert.MMLaw.whole D prec (V c main_v8) (V c main_v37)) r 0 := by
  rw [accOf5_three]
  simp only [accOf5_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v8) (V c main_v37) r 0
    (fun k => iblk5_lhs V c (4 * r.val + k.val)) (fun k => iblk5_rhs V c (4 * r.val + k.val))
    (fun k => funext fun y => iblk5_lhs_apply V c r k y _ rfl rfl)
    (fun k => funext fun y => iblk5_rhs_apply V c r k y _ rfl (by show 512 * 0 + (y 1).val = (y 1).val; omega))
    (k5_pay1 (F := Ideal)) accOf5_init

/-! ## The output array after the region is the whole product -/

/-- The region leaves in its output array the product of its two operand arrays. -/
theorem final5_2_eq_whole (c : Dev nD) (D : DotDims S4096x4096 S4096x512 S4096x512) (hD : Cert.MMLaw.IsPlain D)
    (prec : Option ContractPrecision) :
    (dat5 (F := Ideal) V c).arrAt 2 cfg5.N = Cert.MMLaw.whole D prec (V c main_v8) (V c main_v37) := by
  rw [final5_2]
  funext i
  have hi0 : (i 0).val < 4096 := idx2_lt0 i
  have h := congrFun (accOf5_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final5_2_eq_dot (c : Dev nD) (D : DotDims S4096x4096 S4096x512 S4096x512) (hD : Cert.MMLaw.IsPlain D)
    (prec : Option ContractPrecision) :
    (dat5 (F := Ideal) V c).arrAt 2 cfg5.N = Host.dotGeneral (F := Ideal) (φ₁ := .bf16) (φ₂ := .f32) D prec (V c main_v8) (V c main_v37) :=
  final5_2_eq_whole V c D hD prec

end Cert.KernelIdeal.Hand

end
-- ==== Proof.ValKI6a.lean ====
/- Laid out by: python3 scratch/layout_grid41.py --prefix Val --template-region 0 --region 6 --program KernelIdeal --parts a,b --shapes S1024x128=S1024x512,S128x512=S512x512,S1024x512=S1024x512,S4096x128=S4096x512,S4096x512=S4096x512,main_arg0=main_v42,main_v12=main_v10,main_v17=main_v43,h0=h0,e0=e0,hi0=hi0,x0=x0
   from the hand-written text of region 0 (ValKI0a.lean): the same text, the region's number, block shapes, operand arrays substituted. -/
/-
  Region 6 of @main: from the output blocks to the whole output array.

  The grid is [4, 1]: the point t is block row t, and the reduction axis has one step, so every point zeroes the
  accumulator, adds the product of its two input blocks, and writes the sum back. The output window's block at t is
  rows 1024 t … 1024 t + 1023 of the result, written back at every point. So the array after the region is ONE function
  of the index: row 1024 r + p, column q holds entry (p, q) of the block the point r leaves. The steps: the three windows'
  block indices decided once over the grid; what a point writes back is its block of that function; the four blocks
  written back cover the array (row i lies in the block of the point i / 1024); hence the array after the region. The two
  operand arrays are not written. Last, each input block as a block of its operand array: the left operand's block at the
  point t is its rows 1024 t … 1024 t + 1023 (every column), the right operand's block is the whole array at every point.
-/
import proofs.«158944_j64613488001249_1_alg».proof.Proof.RegKI6
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t the left operand's block is (t, 0), the right operand's (0, 0), the output's (t, 0). -/
theorem idxFacts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0)

/-! ## The block a point leaves -/

/-- The block the point at grid position n leaves: the zero block plus the product of the point's two input blocks
    (past the grid's end, where nothing consults it, the block of position 0). -/
def accOf6 (c : Dev nD) (n : ℕ) : Vec F S1024x512 .f32 :=
  if h : n < cfg6.N then k6_pay2 (iblk6 V c 0 ⟨n, h⟩) (iblk6 V c 1 ⟨n, h⟩) (k6_pay1 (F := F))
  else k6_pay2 (iblk6 V c 0 ⟨0, by have h : cfg6.N = 4 := N_6; omega⟩)
    (iblk6 V c 1 ⟨0, by have h : cfg6.N = 4 := N_6; omega⟩) (k6_pay1 (F := F))

theorem accOf6_eq (c : Dev nD) (t : Fin cfg6.N) :
    accOf6 V c t.val = k6_pay2 (iblk6 V c 0 t) (iblk6 V c 1 t) (k6_pay1 (F := F)) := by
  unfold accOf6; exact dif_pos t.isLt

/-- At every point the output block holds that block. -/
theorem outsAt6_out (c : Dev nD) (t : Fin cfg6.N) : (outsAt6 V c t.val t.isLt).1 = accOf6 V c t.val :=
  (outsAt6_last V c t).trans ((outsAt6_first V c t).trans (accOf6_eq V c t).symm)

/-! ## The output array as one function -/

/-- The whole output array: its row 1024 r + p, column q, is entry (p, q) of the block the point r leaves. -/
def whole6 (c : Dev nD) : S4096x512.Idx → Elt F .f32 := fun i =>
  accOf6 V c ((i 0).val / 1024)
    (ix2 ⟨(i 0).val % 1024, Nat.mod_lt _ (by decide)⟩ ⟨(i 1).val, idx2_lt1 i⟩)

/-- The array read at an index given by a block row r and a position y inside the block. -/
theorem whole6_apply (c : Dev nD) (r : ℕ) (y : S1024x512.Idx) (i : S4096x512.Idx)
    (h0 : (i 0).val = 1024 * r + (y 0).val) (h1 : (i 1).val = (y 1).val) :
    whole6 V c i = accOf6 V c r y := by
  have hy : (y 0).val < 1024 := idx2_lt0 y
  have hr : (i 0).val / 1024 = r := by omega
  have hp : (i 0).val % 1024 = (y 0).val := by omega
  have e : (ix2 ⟨(i 0).val % 1024, Nat.mod_lt _ (by decide)⟩ ⟨(i 1).val, idx2_lt1 i⟩ : S1024x512.Idx) = y :=
    funext fun a => match a with
      | ⟨0, _⟩ => Fin.ext hp
      | ⟨1, _⟩ => Fin.ext h1
  unfold whole6
  rw [hr, e]

/-- Row 1024 r + p, column q of the array is entry (p, q) of the block the point r leaves. -/
theorem whole6_ix2 (c : Dev nD) (r : Fin 4) (p : Fin 1024) (q : Fin (S1024x512.size 1)) :
    whole6 V c (ix2 ⟨1024 * r.val + p.val, by have := r.isLt; have := p.isLt; omega⟩ q)
      = accOf6 V c r.val (ix2 p q) :=
  whole6_apply V c r.val (ix2 p q) _ rfl rfl

/-! ## What a point writes back -/

/-- Every point writes back its block of the whole-array function. -/
theorem flushed6_eq (c : Dev nD) (t : Fin cfg6.N) (hf : (cfg6.win 2).flush t = true) :
    (dat6 V c).flushed 2 t = ((cfg6.win 2).blk t).view.read (Elt F) (whole6 V c) := by
  show (cfg6.win 2).cut (grid6.coords t) ((dat6 V c).after 2 t) = _
  rw [after6_2, outsAt6_out V c t]
  obtain ⟨-, -, -, -, e0, e1⟩ := idxFacts6 t
  funext j
  show accOf6 V c t.val j = whole6 V c (((cfg6.win 2).blk t).view.emb j)
  refine (whole6_apply V c t.val j _ ?_ ?_).symm
  · show win6_2.index t (0 : Fin 2) * 1024 + 1 * (j 0).val = 1024 * t.val + (j 0).val
    rw [e0]; omega
  · show win6_2.index t (1 : Fin 2) * S1024x512.size (1 : Fin 2) + 1 * (j 1).val = (j 1).val
    rw [e1, Nat.zero_mul, Nat.zero_add, Nat.one_mul]

/-! ## The blocks written back cover the array -/

/-- An index is in a point's output block iff each coordinate is in the block's range on its axis. -/
theorem memBlk6 (t : Fin cfg6.N) (i : S4096x512.Idx) :
    i ∈ ((cfg6.win 2).blk t).view.set ↔ ∀ a : Fin 2, win6_2.index t a * S1024x512.size a ≤ (i a).val
      ∧ (i a).val < win6_2.index t a * S1024x512.size a + S1024x512.size a := by
  show i ∈ ((View.whole main_v43).slice (win6_2.rect t)).set ↔ _
  rw [View.set_slice_whole, Rect.mem_set_unit]
  exact Iff.rfl

/-- Row i of the array lies in the block written back at the point i / 1024. -/
theorem covered6 (i : S4096x512.Idx) :
    ∃ t : Fin cfg6.N, (cfg6.win 2).flush t = true ∧ i ∈ ((cfg6.win 2).blk t).view.set := by
  have hi0 : (i 0).val < 4096 := idx2_lt0 i
  have hi1 : (i 1).val < S1024x512.size (1 : Fin 2) := idx2_lt1 i
  have hN : cfg6.N = 4 := N_6
  obtain ⟨t, ht⟩ : ∃ t : Fin cfg6.N, t.val = (i 0).val / 1024 :=
    ⟨⟨(i 0).val / 1024, by rw [hN]; omega⟩, rfl⟩
  refine ⟨t, flush6_2 t, ?_⟩
  rw [memBlk6]
  obtain ⟨-, -, -, -, e0, e1⟩ := idxFacts6 t
  intro a
  match a with
  | ⟨0, _⟩ =>
    show win6_2.index t (0 : Fin 2) * 1024 ≤ (i 0).val ∧ (i 0).val < win6_2.index t (0 : Fin 2) * 1024 + 1024
    rw [e0]; omega
  | ⟨1, _⟩ =>
    show win6_2.index t (1 : Fin 2) * S1024x512.size (1 : Fin 2) ≤ (i 1).val
      ∧ (i 1).val < win6_2.index t (1 : Fin 2) * S1024x512.size (1 : Fin 2) + S1024x512.size (1 : Fin 2)
    rw [e1, Nat.zero_mul, Nat.zero_add]
    exact ⟨Nat.zero_le _, hi1⟩

/-! ## The three arrays after the region -/

/-- The output array after the region is the whole-array function. -/
theorem final6_2 (c : Dev nD) : (dat6 V c).arrAt 2 cfg6.N = whole6 V c :=
  (dat6 V c).arrAt_eq_of_cover 2 (whole6 V c) (flushed6_eq V c) covered6

/-- The two input arrays are as the region found them. -/
theorem final6_0 (c : Dev nD) : (dat6 V c).arrAt 0 cfg6.N = V c main_v42 :=
  ((dat6 V c).arrAt_in 0 rfl cfg6.N).trans (A_eq6 V c 0)
theorem final6_1 (c : Dev nD) : (dat6 V c).arrAt 1 cfg6.N = V c main_v10 :=
  ((dat6 V c).arrAt_in 1 rfl cfg6.N).trans (A_eq6 V c 1)

/-! ## The input blocks as blocks of the operand arrays -/

/-- The left operand's block at the point t: entry (y₀, y₁) is the array's entry (1024 t + y₀, y₁). -/
theorem iblk6_lhs_apply (c : Dev nD) (t : Fin cfg6.N) (y : S1024x512.Idx) (i : S4096x512.Idx)
    (h0 : (i 0).val = 1024 * t.val + (y 0).val) (h1 : (i 1).val = (y 1).val) :
    iblk6 V c 0 t y = (V c main_v42 : S4096x512.Idx → Elt F .f32) i := by
  obtain ⟨e0, e1, -, -, -, -⟩ := idxFacts6 t
  unfold iblk6
  rw [View.read_apply]
  show V c main_v42 (((cfg6.win 0).blk t).view.emb y) = V c main_v42 i
  congr 1
  funext a
  apply Fin.ext
  match a with
  | ⟨0, _⟩ =>
    show win6_0.index t (0 : Fin 2) * 1024 + 1 * (y 0).val = (i 0).val
    rw [e0, h0]; omega
  | ⟨1, _⟩ =>
    show win6_0.index t (1 : Fin 2) * S1024x512.size (1 : Fin 2) + 1 * (y 1).val = (i 1).val
    rw [e1, h1, Nat.zero_mul, Nat.zero_add, Nat.one_mul]

/-- The right operand's block is the whole array at every point. -/
theorem iblk6_rhs_eq (c : Dev nD) (t : Fin cfg6.N) :
    iblk6 V c 1 t = (V c main_v10 : S512x512.Idx → Elt F .bf16) := by
  obtain ⟨-, -, e0, e1, -, -⟩ := idxFacts6 t
  funext y
  unfold iblk6
  rw [View.read_apply]
  show V c main_v10 (((cfg6.win 1).blk t).view.emb y) = V c main_v10 y
  congr 1
  funext a
  apply Fin.ext
  match a with
  | ⟨0, _⟩ =>
    show win6_1.index t (0 : Fin 2) * S512x512.size (0 : Fin 2) + 1 * (y 0).val = (y 0).val
    rw [e0, Nat.zero_mul, Nat.zero_add, Nat.one_mul]
  | ⟨1, _⟩ =>
    show win6_1.index t (1 : Fin 2) * S512x512.size (1 : Fin 2) + 1 * (y 1).val = (y 1).val
    rw [e1, Nat.zero_mul, Nat.zero_add, Nat.one_mul]

end Cert.KernelIdeal.Hand

end
-- ==== Proof.ValKI6b.lean ====
/- Laid out by: python3 scratch/layout_grid41.py --prefix Val --template-region 0 --region 6 --program KernelIdeal --parts a,b --shapes S1024x128=S1024x512,S128x512=S512x512,S1024x512=S1024x512,S4096x128=S4096x512,S4096x512=S4096x512,main_arg0=main_v42,main_v12=main_v10,main_v17=main_v43,h0=h0,e0=e0,hi0=hi0,x0=x0
   from the hand-written text of region 0 (ValKI0b.lean): the same text, the region's number, block shapes, operand arrays substituted. -/
/-
  Region 6 of @main at the extended reals: the output array after the region is the product of the two operand arrays.

  A change of float format is the identity at these values and a reshape to the same shape is the identity, so the
  kernel's one accumulation step is "accumulator plus the product of the two blocks into the zero block", and the
  accumulator starts from the zero block. The block the point r leaves is then zero plus the product of rows
  1024 r … 1024 r + 1023 of the left operand with the whole right operand, which is the same rows of the whole product:
  the contraction axis is not cut, so the sums are the same term by term. Read through the whole-array function of the
  blocks-to-array module, entry (1024 r + p, q) of the output array is that entry of the product.
-/
import proofs.«158944_j64613488001249_1_alg».proof.Proof.ValKI6a
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The accumulation step, and its start, at the extended reals -/

/-- A change of format and a reshape to the same shape are the identity: the step adds the product of the two blocks
    (into the zero block) to the accumulator. -/
theorem accOf6_step (x0 : Vec Ideal S1024x512 .f32) (x1 : Vec Ideal S512x512 .bf16) (acc : Vec Ideal S1024x512 .f32) :
    k6_pay2 (F := Ideal) x0 x1 acc
      = Cert.MMLaw.accStep dot_S1024x512_S512x512_S1024x512_1_0_0_1_n_n none x0 x1 acc := by
  unfold k6_pay2
  simp only [shapeCast_self]
  rfl

/-- The accumulator starts from the zero block. -/
theorem accOf6_init (j : S1024x512.Idx) : k6_pay1 (F := Ideal) j = 0 := by
  unfold k6_pay1
  rw [shapeCast_self]
  exact Ideal.ofBits_zero_f32

/-! ## The block a point leaves is a block of the whole product -/

/-- The block the point r leaves is rows 1024 r … 1024 r + 1023 of the product of the two operand arrays. -/
theorem accOf6_eq_blk (c : Dev nD) (r : Fin 4) (D : DotDims S4096x512 S512x512 S4096x512) (hD : Cert.MMLaw.IsPlain D)
    (prec : Option ContractPrecision) :
    accOf6 V c r.val
      = Cert.MMLaw.rowBlk (Cert.MMLaw.whole D prec (V c main_v42) (V c main_v10)) r := by
  have hN : cfg6.N = 4 := N_6
  have hr : r.val < cfg6.N := by rw [hN]; exact r.isLt
  rw [accOf6_eq V c ⟨r.val, hr⟩, accOf6_step]
  exact Cert.MMLaw.law41 dot_S1024x512_S512x512_S1024x512_1_0_0_1_n_n ⟨rfl, rfl, rfl, rfl, rfl, rfl⟩ D hD none prec
    (V c main_v42) (V c main_v10) r (iblk6 V c 0 ⟨r.val, hr⟩) (iblk6 V c 1 ⟨r.val, hr⟩)
    (funext fun y => iblk6_lhs_apply V c ⟨r.val, hr⟩ y _ rfl rfl) (iblk6_rhs_eq V c ⟨r.val, hr⟩)
    (k6_pay1 (F := Ideal)) accOf6_init

/-! ## The output array after the region is the whole product -/

/-- The region leaves in its output array the product of its two operand arrays. -/
theorem final6_2_eq_whole (c : Dev nD) (D : DotDims S4096x512 S512x512 S4096x512) (hD : Cert.MMLaw.IsPlain D)
    (prec : Option ContractPrecision) :
    (dat6 (F := Ideal) V c).arrAt 2 cfg6.N = Cert.MMLaw.whole D prec (V c main_v42) (V c main_v10) := by
  rw [final6_2]
  funext i
  have hi0 : (i 0).val < 4096 := idx2_lt0 i
  have h := congrFun (accOf6_eq_blk V c ⟨(i 0).val / 1024, by omega⟩ D hD prec)
    (ix2 ⟨(i 0).val % 1024, Nat.mod_lt _ (by decide)⟩ ⟨(i 1).val, idx2_lt1 i⟩)
  rw [Cert.MMLaw.rowBlk_apply] at h
  refine Eq.trans h (congrArg _ ?_)
  funext a
  match a with
  | ⟨0, _⟩ => exact Fin.ext (by show 1024 * ((i 0).val / 1024) + (i 0).val % 1024 = (i 0).val; omega)
  | ⟨1, _⟩ => rfl

/-- The same with the operands at the formats they are stored in. -/
theorem final6_2_eq_dot (c : Dev nD) (D : DotDims S4096x512 S512x512 S4096x512) (hD : Cert.MMLaw.IsPlain D)
    (prec : Option ContractPrecision) :
    (dat6 (F := Ideal) V c).arrAt 2 cfg6.N
      = Host.dotGeneral (F := Ideal) (φ₁ := .f32) (φ₂ := .bf16) D prec (V c main_v42) (V c main_v10) :=
  final6_2_eq_whole V c D hD prec

end Cert.KernelIdeal.Hand

end
-- ==== Proof.ValKI7a.lean ====
/- Laid out by: python3 scratch/layout_regions.py --template-region 1 --region 7 --program KernelIdeal --prefix Val --parts a,b,c --sim main_v9=main_v7,main_v25=main_v43,main_v26=main_v44 --out-dir proof/Proof
   from the hand-written text of region 1 (ValKI1a.lean): the same text, the region's number substituted. -/
/-
  Region 7 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k7_pay1` (the zero block) and `k7_pay2` (accumulator plus product) are the two stores' payloads.

  So along one row of blocks r the accumulator after its step k is the left fold
    accOf7 r 0 = pay2 (a (r, 0)) (b 0) pay1,    accOf7 r (k + 1) = pay2 (a (r, k + 1)) (b (k + 1)) (accOf7 r k),
  the grid point (r, k) being position 4 r + k; and at k = 3 the output block holds accOf7 r 3.
-/
import proofs.«158944_j64613488001249_1_alg».proof.Proof.RegKI7
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout7_A_eq (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond7_0 i) (hc1 : ¬cond7_1 i)
    (x0 : Vec F S1024x1024 .bf16) (x1 : Vec F S1024x512 .f32) :
    sout7_A c i arg2 harg2 arg3 harg3 arg4 harg4 arg5 harg5 hc0 hc1 x0 x1 = k7_pay2 x0 x1 (k7_pay1 (F := F)) := by
  have hz : (![0, 0] : Fin 2 → Nat) = fun _ => 0 := funext fun a => by fin_cases a <;> rfl
  unfold sout7_A
  rw [View.read_writes_eq_canon _ _ _ (scover7_A c i arg2 harg2 arg3 harg3 arg4 harg4 arg5 harg5 hc0 hc1 x0 x1)]
  unfold kernelRun7_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout7_B_eq (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond7_0 i) (hc1 : ¬cond7_1 i)
    (x0 : Vec F S1024x1024 .bf16) (x1 : Vec F S1024x512 .f32) (xs0 : Vec F S1024x512 .f32) :
    sout7_B c i arg2 harg2 arg3 harg3 arg4 harg4 arg5 harg5 hc0 hc1 x0 x1 xs0 = k7_pay2 x0 x1 xs0 := by
  have hz : (![0, 0] : Fin 2 → Nat) = fun _ => 0 := funext fun a => by fin_cases a <;> rfl
  unfold sout7_B
  rw [View.read_writes_eq_canon _ _ _ (scover7_B c i arg2 harg2 arg3 harg3 arg4 harg4 arg5 harg5 hc0 hc1 x0 x1 xs0)]
  unfold kernelRun7_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout7_C_eq (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond7_0 i) (hc1 : cond7_1 i)
    (x0 : Vec F S1024x1024 .bf16) (x1 : Vec F S1024x512 .f32) (xs0 : Vec F S1024x512 .f32) :
    sout7_C c i arg2 harg2 arg3 harg3 arg4 harg4 arg5 harg5 hc0 hc1 x0 x1 xs0 = k7_pay2 x0 x1 xs0 := by
  have hz : (![0, 0] : Fin 2 → Nat) = fun _ => 0 := funext fun a => by fin_cases a <;> rfl
  unfold sout7_C
  rw [View.read_writes_eq_canon _ _ _ (scover7_C c i arg2 harg2 arg3 harg3 arg4 harg4 arg5 harg5 hc0 hc1 x0 x1 xs0)]
  unfold kernelRun7_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out7_C_eq (c : Dev nD) (i : grid7.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond7_0 i) (hc1 : cond7_1 i)
    (x0 : Vec F S1024x1024 .bf16) (x1 : Vec F S1024x512 .f32) (xs0 : Vec F S1024x512 .f32) :
    out7_C c i arg2 harg2 arg3 harg3 arg4 harg4 arg5 harg5 hc0 hc1 x0 x1 xs0 = k7_pay2 x0 x1 xs0 := by
  have hz : (![0, 0] : Fin 2 → Nat) = fun _ => 0 := funext fun a => by fin_cases a <;> rfl
  unfold out7_C
  rw [View.read_writes_eq_canon _ _ _ (cover7_C c i arg2 harg2 arg3 harg3 arg4 harg4 arg5 harg5 hc0 hc1 x0 x1 xs0)]
  unfold kernelRun7_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk7_lhs (c : Dev nD) (n : ℕ) : Vec F S1024x1024 .bf16 :=
  if h : n < cfg7.N then iblk7 V c 0 ⟨n, h⟩ else iblk7 V c 0 ⟨0, by have h : cfg7.N = 16 := N_7; omega⟩
/-- The right factor's block at grid position `n`. -/
def iblk7_rhs (c : Dev nD) (n : ℕ) : Vec F S1024x512 .f32 :=
  if h : n < cfg7.N then iblk7 V c 1 ⟨n, h⟩ else iblk7 V c 1 ⟨0, by have h : cfg7.N = 16 := N_7; omega⟩

theorem iblk7_lhs_eq (c : Dev nD) (n : ℕ) (h : n < cfg7.N) : iblk7_lhs V c n = iblk7 V c 0 ⟨n, h⟩ := dif_pos h
theorem iblk7_rhs_eq (c : Dev nD) (n : ℕ) (h : n < cfg7.N) : iblk7_rhs V c n = iblk7 V c 1 ⟨n, h⟩ := dif_pos h

/-! ## The accumulator along one row of blocks -/

/-- Row of blocks `r`, after its step `k`: the zero block plus the products of the blocks at positions 4 r, …, 4 r + k,
    added in that order. -/
def accOf7 (c : Dev nD) (r : ℕ) : ℕ → Vec F S1024x512 .f32
  | 0 => k7_pay2 (iblk7_lhs V c (4 * r)) (iblk7_rhs V c (4 * r)) (k7_pay1 (F := F))
  | k + 1 => k7_pay2 (iblk7_lhs V c (4 * r + (k + 1))) (iblk7_rhs V c (4 * r + (k + 1))) (accOf7 c r k)

theorem accOf7_zero (c : Dev nD) (r : ℕ) :
    accOf7 V c r 0 = k7_pay2 (iblk7_lhs V c (4 * r)) (iblk7_rhs V c (4 * r)) (k7_pay1 (F := F)) := rfl
theorem accOf7_succ (c : Dev nD) (r k : ℕ) :
    accOf7 V c r (k + 1) = k7_pay2 (iblk7_lhs V c (4 * r + (k + 1))) (iblk7_rhs V c (4 * r + (k + 1))) (accOf7 V c r k) := rfl

theorem iblk7_lhs_at (c : Dev nD) (t : Fin cfg7.N) (n : ℕ) (hn : n = t.val) : iblk7_lhs V c n = iblk7 V c 0 t := by
  subst hn; unfold iblk7_lhs; exact dif_pos t.isLt
theorem iblk7_rhs_at (c : Dev nD) (t : Fin cfg7.N) (n : ℕ) (hn : n = t.val) : iblk7_rhs V c n = iblk7 V c 1 t := by
  subst hn; unfold iblk7_rhs; exact dif_pos t.isLt

/-- At a grid point with k = 0 the fold starts: the zero block plus the product of the point's two blocks. -/
theorem accOf7_first (c : Dev nD) (t : Fin cfg7.N) (h0 : t.val % 4 = 0) :
    accOf7 V c (t.val / 4) (t.val % 4) = k7_pay2 (iblk7 V c 0 t) (iblk7 V c 1 t) (k7_pay1 (F := F)) := by
  rw [h0, accOf7_zero, iblk7_lhs_at V c t (4 * (t.val / 4)) (by omega), iblk7_rhs_at V c t (4 * (t.val / 4)) (by omega)]

/-- At a grid point with k ≠ 0 the fold takes one step from the position before, which is in the same row of blocks. -/
theorem accOf7_next (c : Dev nD) (t : Fin cfg7.N) (h0 : ¬t.val % 4 = 0) :
    accOf7 V c (t.val / 4) (t.val % 4)
      = k7_pay2 (iblk7 V c 0 t) (iblk7 V c 1 t) (accOf7 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf7_succ, iblk7_lhs_at V c t (4 * (t.val / 4) + (k + 1)) (by omega),
    iblk7_rhs_at V c t (4 * (t.val / 4) + (k + 1)) (by omega)]

/-! ## The accumulator and the output block, point by point, as pure functions of the blocks -/

/-- k = 0: the accumulator restarts from the zero block. -/
theorem outsAt7_first (c : Dev nD) (t : Fin cfg7.N) (h0 : t.val % 4 = 0) :
    (outsAt7 V c t.val t.isLt).2 = k7_pay2 (iblk7 V c 0 t) (iblk7 V c 1 t) (k7_pay1 (F := F)) := by
  rw [outsAt7_A V c t h0]
  dsimp only
  exact sout7_A_eq c (grid7.coords t) (ms7_0 t) (hs7_0 t) (ms7_1 t) (hs7_1 t) (ms7_2 t) (hs7_2 t) scM7 (Memref.isWhole_whole _) (isFirst7 t h0) (notLast7 t (by omega)) (iblk7 V c 0 t) (iblk7 V c 1 t)

/-- k ≠ 0: the point's product is added to what the point before left. -/
theorem outsAt7_next (c : Dev nD) (t : Fin cfg7.N) (h0 : ¬t.val % 4 = 0) :
    (outsAt7 V c t.val t.isLt).2
      = k7_pay2 (iblk7 V c 0 t) (iblk7 V c 1 t) (outsAt7 V c (t.val - 1) (Nat.lt_of_le_of_lt (Nat.sub_le _ _) t.isLt)).2 := by
  by_cases h3 : t.val % 4 = 3
  · rw [outsAt7_C V c t h0 h3]
    dsimp only
    exact sout7_C_eq c (grid7.coords t) (ms7_0 t) (hs7_0 t) (ms7_1 t) (hs7_1 t) (ms7_2 t) (hs7_2 t) scM7 (Memref.isWhole_whole _) (notFirst7 t h0) (isLast7 t h3) (iblk7 V c 0 t) (iblk7 V c 1 t)
      (outsAt7 V c (t.val - 1) (Nat.lt_of_le_of_lt (Nat.sub_le _ _) t.isLt)).2
  · rw [outsAt7_B V c t h0 h3]
    dsimp only
    exact sout7_B_eq c (grid7.coords t) (ms7_0 t) (hs7_0 t) (ms7_1 t) (hs7_1 t) (ms7_2 t) (hs7_2 t) scM7 (Memref.isWhole_whole _) (notFirst7 t h0) (notLast7 t h3) (iblk7 V c 0 t) (iblk7 V c 1 t)
      (outsAt7 V c (t.val - 1) (Nat.lt_of_le_of_lt (Nat.sub_le _ _) t.isLt)).2

/-- k = 3: the output block is the accumulator. -/
theorem outsAt7_last (c : Dev nD) (t : Fin cfg7.N) (h3 : t.val % 4 = 3) :
    (outsAt7 V c t.val t.isLt).1 = (outsAt7 V c t.val t.isLt).2 := by
  have h0 : ¬t.val % 4 = 0 := by omega
  rw [outsAt7_C V c t h0 h3]
  dsimp only
  exact (out7_C_eq c (grid7.coords t) (ms7_0 t) (hs7_0 t) (ms7_1 t) (hs7_1 t) (ms7_2 t) (hs7_2 t) scM7 (Memref.isWhole_whole _) (notFirst7 t h0) (isLast7 t h3) (iblk7 V c 0 t) (iblk7 V c 1 t)
      (outsAt7 V c (t.val - 1) (Nat.lt_of_le_of_lt (Nat.sub_le _ _) t.isLt)).2).trans
    (sout7_C_eq c (grid7.coords t) (ms7_0 t) (hs7_0 t) (ms7_1 t) (hs7_1 t) (ms7_2 t) (hs7_2 t) scM7 (Memref.isWhole_whole _) (notFirst7 t h0) (isLast7 t h3) (iblk7 V c 0 t) (iblk7 V c 1 t)
      (outsAt7 V c (t.val - 1) (Nat.lt_of_le_of_lt (Nat.sub_le _ _) t.isLt)).2).symm

/-! ## The accumulator is the fold -/

/-- After position `n` the accumulator holds row `n / 4`'s fold after its step `n % 4`: by induction on the position. -/
theorem outsAt7_acc_pos (c : Dev nD) :
    ∀ (n : ℕ) (hn : n < cfg7.N), (outsAt7 V c n hn).2 = accOf7 V c (n / 4) (n % 4) := by
  intro n
  induction n with
  | zero =>
    intro hn
    exact (outsAt7_first V c ⟨0, hn⟩ (Nat.zero_mod 4)).trans (accOf7_first V c ⟨0, hn⟩ (Nat.zero_mod 4)).symm
  | succ n ih =>
    intro hn
    by_cases h0 : (n + 1) % 4 = 0
    · exact (outsAt7_first V c ⟨n + 1, hn⟩ h0).trans (accOf7_first V c ⟨n + 1, hn⟩ h0).symm
    · refine (outsAt7_next V c ⟨n + 1, hn⟩ h0).trans (Eq.trans ?_ (accOf7_next V c ⟨n + 1, hn⟩ h0).symm)
      exact congrArg (k7_pay2 (iblk7 V c 0 ⟨n + 1, hn⟩) (iblk7 V c 1 ⟨n + 1, hn⟩)) (ih (Nat.lt_of_succ_lt hn))

/-- At every grid point the accumulator holds its row's fold after the point's step. -/
theorem outsAt7_acc (c : Dev nD) (t : Fin cfg7.N) :
    (outsAt7 V c t.val t.isLt).2 = accOf7 V c (t.val / 4) (t.val % 4) :=
  outsAt7_acc_pos V c t.val t.isLt

/-- At a row's last point the output block holds the row's whole fold. -/
theorem outsAt7_out (c : Dev nD) (t : Fin cfg7.N) (h3 : t.val % 4 = 3) :
    (outsAt7 V c t.val t.isLt).1 = accOf7 V c (t.val / 4) 3 := by
  have e := outsAt7_acc V c t
  rw [h3] at e
  exact (outsAt7_last V c t h3).trans e

end Cert.KernelIdeal.Hand

end
-- ==== Proof.ValKI7b.lean ====
/- Laid out by: python3 scratch/layout_regions.py --template-region 1 --region 7 --program KernelIdeal --prefix Val --parts a,b,c --sim main_v9=main_v7,main_v25=main_v43,main_v26=main_v44 --out-dir proof/Proof
   from the hand-written text of region 1 (ValKI1b.lean): the same text, the region's number substituted. -/
/-
  Region 7 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI7a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts7 : ∀ t : Fin cfg7.N,
    win7_0.index t (0 : Fin 2) = t.val / 4 ∧ win7_0.index t (1 : Fin 2) = t.val % 4
    ∧ win7_1.index t (0 : Fin 2) = t.val % 4 ∧ win7_1.index t (1 : Fin 2) = 0
    ∧ win7_2.index t (0 : Fin 2) = t.val / 4 ∧ win7_2.index t (1 : Fin 2) = 0 :=
  (by decide +kernel : ∀ t : Fin grid7.N,
    win7_0.index t (0 : Fin 2) = t.val / 4 ∧ win7_0.index t (1 : Fin 2) = t.val % 4
    ∧ win7_1.index t (0 : Fin 2) = t.val % 4 ∧ win7_1.index t (1 : Fin 2) = 0
    ∧ win7_2.index t (0 : Fin 2) = t.val / 4 ∧ win7_2.index t (1 : Fin 2) = 0)

/-! ## The output array as one function -/

/-- The whole output array: its row 1024 r + p, column q, is entry (p, q) of the block accumulated over k = 0 … 3 in
    block row r. -/
def whole7 (c : Dev nD) : S4096x512.Idx → Elt F .f32 := fun i =>
  accOf7 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole7_apply (c : Dev nD) (r : ℕ) (y : S1024x512.Idx) (i : S4096x512.Idx)
    (h0 : (i 0).val = 1024 * r + (y 0).val) (h1 : (i 1).val = (y 1).val) :
    whole7 V c i = accOf7 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole7
  rw [hr, e]

/-- Row 1024 r + p, column q of the array is entry (p, q) of block row r's accumulated block. -/
theorem whole7_ix2 (c : Dev nD) (r : Fin 4) (p : Fin 1024) (q : Fin 512) :
    whole7 V c (ix2 (n0 := 4096) (n1 := 512) ⟨1024 * r.val + p.val, by have := r.isLt; have := p.isLt; omega⟩ q)
      = accOf7 V c r.val 3 (ix2 p q) :=
  whole7_apply V c r.val (ix2 p q) _ rfl rfl

/-! ## What a point writes back -/

/-- A point with k = 3 writes back its block of the whole-array function. -/
theorem flushed7_eq (c : Dev nD) (t : Fin cfg7.N) (hf : (cfg7.win 2).flush t = true) :
    (dat7 V c).flushed 2 t = ((cfg7.win 2).blk t).view.read (Elt F) (whole7 V c) := by
  have h3 : t.val % 4 = 3 := (flush7_2 t).mp hf
  show (cfg7.win 2).cut (grid7.coords t) ((dat7 V c).after 2 t) = _
  rw [after7_2, outsAt7_out V c t h3]
  obtain ⟨-, -, -, -, e0, e1⟩ := idxFacts7 t
  funext j
  show accOf7 V c (t.val / 4) 3 j = whole7 V c (((cfg7.win 2).blk t).view.emb j)
  refine (whole7_apply V c (t.val / 4) j _ ?_ ?_).symm
  · show win7_2.index t (0 : Fin 2) * 1024 + 1 * (j 0).val = 1024 * (t.val / 4) + (j 0).val
    rw [e0]; omega
  · show win7_2.index t (1 : Fin 2) * 512 + 1 * (j 1).val = (j 1).val
    rw [e1]; omega

/-! ## The blocks written back cover the array -/

/-- An index is in a point's output block iff each coordinate is in the block's range on its axis. -/
theorem memBlk7 (t : Fin cfg7.N) (i : S4096x512.Idx) :
    i ∈ ((cfg7.win 2).blk t).view.set ↔ ∀ a : Fin 2, win7_2.index t a * S1024x512.size a ≤ (i a).val
      ∧ (i a).val < win7_2.index t a * S1024x512.size a + S1024x512.size a := by
  show i ∈ ((View.whole main_v44).slice (win7_2.rect t)).set ↔ _
  rw [View.set_slice_whole, Rect.mem_set_unit]
  exact Iff.rfl

/-- Row i of the array lies in the block written back at the point (i / 1024, 3). -/
theorem covered7 (i : S4096x512.Idx) :
    ∃ t : Fin cfg7.N, (cfg7.win 2).flush t = true ∧ i ∈ ((cfg7.win 2).blk t).view.set := by
  have hi0 : (i 0).val < 4096 := idx2_lt0 i
  have hi1 : (i 1).val < 512 := idx2_lt1 i
  have hN : cfg7.N = 16 := N_7
  obtain ⟨t, ht⟩ : ∃ t : Fin cfg7.N, t.val = 4 * ((i 0).val / 1024) + 3 :=
    ⟨⟨4 * ((i 0).val / 1024) + 3, by rw [hN]; omega⟩, rfl⟩
  refine ⟨t, (flush7_2 t).mpr (by omega), ?_⟩
  rw [memBlk7]
  obtain ⟨-, -, -, -, e0, e1⟩ := idxFacts7 t
  intro a
  match a with
  | ⟨0, _⟩ =>
    show win7_2.index t (0 : Fin 2) * 1024 ≤ (i 0).val ∧ (i 0).val < win7_2.index t (0 : Fin 2) * 1024 + 1024
    rw [e0]; omega
  | ⟨1, _⟩ =>
    show win7_2.index t (1 : Fin 2) * 512 ≤ (i 1).val ∧ (i 1).val < win7_2.index t (1 : Fin 2) * 512 + 512
    rw [e1]; omega

/-! ## The three arrays after the region -/

/-- The output array after the region is the whole-array function. -/
theorem final7_2 (c : Dev nD) : (dat7 V c).arrAt 2 cfg7.N = whole7 V c :=
  (dat7 V c).arrAt_eq_of_cover 2 (whole7 V c) (flushed7_eq V c) covered7

/-- The two input arrays are as the region found them. -/
theorem final7_0 (c : Dev nD) : (dat7 V c).arrAt 0 cfg7.N = V c main_v7 :=
  ((dat7 V c).arrAt_in 0 rfl cfg7.N).trans (A_eq7 V c 0)
theorem final7_1 (c : Dev nD) : (dat7 V c).arrAt 1 cfg7.N = V c main_v43 :=
  ((dat7 V c).arrAt_in 1 rfl cfg7.N).trans (A_eq7 V c 1)

/-! ## The input blocks as blocks of the operand arrays -/

/-- The left operand's block at the point (r, k): entry (y₀, y₁) is the array's entry (1024 r + y₀, 1024 k + y₁). -/
theorem iblk7_lhs_apply (c : Dev nD) (r k : Fin 4) (y : S1024x1024.Idx) (i : S4096x4096.Idx)
    (h0 : (i 0).val = 1024 * r.val + (y 0).val) (h1 : (i 1).val = 1024 * k.val + (y 1).val) :
    iblk7_lhs V c (4 * r.val + k.val) y = (V c main_v7 : S4096x4096.Idx → Elt F .bf16) i := by
  have hN : cfg7.N = 16 := N_7
  have hr := r.isLt
  have hk := k.isLt
  have hlt : 4 * r.val + k.val < cfg7.N := by rw [hN]; omega
  rw [iblk7_lhs_eq V c _ hlt]
  obtain ⟨e0, e1, -, -, -, -⟩ := idxFacts7 ⟨4 * r.val + k.val, hlt⟩
  have e0' : win7_0.index ⟨4 * r.val + k.val, hlt⟩ (0 : Fin 2) = (4 * r.val + k.val) / 4 := e0
  have e1' : win7_0.index ⟨4 * r.val + k.val, hlt⟩ (1 : Fin 2) = (4 * r.val + k.val) % 4 := e1
  unfold iblk7
  rw [View.read_apply]
  show V c main_v7 (((cfg7.win 0).blk ⟨4 * r.val + k.val, hlt⟩).view.emb y) = V c main_v7 i
  congr 1
  funext a
  apply Fin.ext
  match a with
  | ⟨0, _⟩ =>
    show win7_0.index ⟨4 * r.val + k.val, hlt⟩ (0 : Fin 2) * 1024 + 1 * (y 0).val = (i 0).val
    rw [e0', h0]; omega
  | ⟨1, _⟩ =>
    show win7_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk7_rhs_apply (c : Dev nD) (r k : Fin 4) (y : S1024x512.Idx) (i : S4096x512.Idx)
    (h0 : (i 0).val = 1024 * k.val + (y 0).val) (h1 : (i 1).val = (y 1).val) :
    iblk7_rhs V c (4 * r.val + k.val) y = (V c main_v43 : S4096x512.Idx → Elt F .f32) i := by
  have hN : cfg7.N = 16 := N_7
  have hr := r.isLt
  have hk := k.isLt
  have hlt : 4 * r.val + k.val < cfg7.N := by rw [hN]; omega
  rw [iblk7_rhs_eq V c _ hlt]
  obtain ⟨-, -, e0, e1, -, -⟩ := idxFacts7 ⟨4 * r.val + k.val, hlt⟩
  have e0' : win7_1.index ⟨4 * r.val + k.val, hlt⟩ (0 : Fin 2) = (4 * r.val + k.val) % 4 := e0
  have e1' : win7_1.index ⟨4 * r.val + k.val, hlt⟩ (1 : Fin 2) = 0 := e1
  unfold iblk7
  rw [View.read_apply]
  show V c main_v43 (((cfg7.win 1).blk ⟨4 * r.val + k.val, hlt⟩).view.emb y) = V c main_v43 i
  congr 1
  funext a
  apply Fin.ext
  match a with
  | ⟨0, _⟩ =>
    show win7_1.index ⟨4 * r.val + k.val, hlt⟩ (0 : Fin 2) * 1024 + 1 * (y 0).val = (i 0).val
    rw [e0', h0]; omega
  | ⟨1, _⟩ =>
    show win7_1.index ⟨4 * r.val + k.val, hlt⟩ (1 : Fin 2) * 512 + 1 * (y 1).val = (i 1).val
    rw [e1', h1]; omega

/-- The accumulated block after the fourth step, unfolded: four steps from the zero block. -/
theorem accOf7_three (c : Dev nD) (r : ℕ) :
    accOf7 V c r 3
      = k7_pay2 (iblk7_lhs V c (4 * r + 3)) (iblk7_rhs V c (4 * r + 3))
          (k7_pay2 (iblk7_lhs V c (4 * r + 2)) (iblk7_rhs V c (4 * r + 2))
            (k7_pay2 (iblk7_lhs V c (4 * r + 1)) (iblk7_rhs V c (4 * r + 1))
              (k7_pay2 (iblk7_lhs V c (4 * r)) (iblk7_rhs V c (4 * r)) (k7_pay1 (F := F))))) := rfl

end Cert.KernelIdeal.Hand

end
-- ==== Proof.ValKI7c.lean ====
/- Laid out by: python3 scratch/layout_regions.py --template-region 1 --region 7 --program KernelIdeal --prefix Val --parts a,b,c --sim main_v9=main_v7,main_v25=main_v43,main_v26=main_v44 --out-dir proof/Proof
   from the hand-written text of region 1 (ValKI1c.lean): the same text, the region's number substituted. -/
/-
  Region 7 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI7b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf7_step (x0 : Vec Ideal S1024x1024 .bf16) (x1 acc : Vec Ideal S1024x512 .f32) :
    k7_pay2 (F := Ideal) x0 x1 acc
      = Cert.MMLaw.accStep dot_S1024x1024_S1024x512_S1024x512_1_0_0_1_n_n none x0 x1 acc := by
  unfold k7_pay2
  simp only [shapeCast_self]
  rfl

/-- The accumulator starts from the zero block. -/
theorem accOf7_init (j : S1024x512.Idx) : k7_pay1 (F := Ideal) j = 0 := by
  unfold k7_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf7_eq_blk (c : Dev nD) (r : Fin 4) (D : DotDims S4096x4096 S4096x512 S4096x512) (hD : Cert.MMLaw.IsPlain D)
    (prec : Option ContractPrecision) :
    accOf7 V c r.val 3
      = Cert.MMLaw.blk (nr := 4) (nc := 1) 1024 512 rfl rfl (Cert.MMLaw.whole D prec (V c main_v7) (V c main_v43)) r 0 := by
  rw [accOf7_three]
  simp only [accOf7_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v7) (V c main_v43) r 0
    (fun k => iblk7_lhs V c (4 * r.val + k.val)) (fun k => iblk7_rhs V c (4 * r.val + k.val))
    (fun k => funext fun y => iblk7_lhs_apply V c r k y _ rfl rfl)
    (fun k => funext fun y => iblk7_rhs_apply V c r k y _ rfl (by show 512 * 0 + (y 1).val = (y 1).val; omega))
    (k7_pay1 (F := Ideal)) accOf7_init

/-! ## The output array after the region is the whole product -/

/-- The region leaves in its output array the product of its two operand arrays. -/
theorem final7_2_eq_whole (c : Dev nD) (D : DotDims S4096x4096 S4096x512 S4096x512) (hD : Cert.MMLaw.IsPlain D)
    (prec : Option ContractPrecision) :
    (dat7 (F := Ideal) V c).arrAt 2 cfg7.N = Cert.MMLaw.whole D prec (V c main_v7) (V c main_v43) := by
  rw [final7_2]
  funext i
  have hi0 : (i 0).val < 4096 := idx2_lt0 i
  have h := congrFun (accOf7_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final7_2_eq_dot (c : Dev nD) (D : DotDims S4096x4096 S4096x512 S4096x512) (hD : Cert.MMLaw.IsPlain D)
    (prec : Option ContractPrecision) :
    (dat7 (F := Ideal) V c).arrAt 2 cfg7.N = Host.dotGeneral (F := Ideal) (φ₁ := .bf16) (φ₂ := .f32) D prec (V c main_v7) (V c main_v43) :=
  final7_2_eq_whole V c D hD prec

end Cert.KernelIdeal.Hand

end
-- ==== Proof.ValKI8a.lean ====
/- Laid out by: python3 scratch/layout_regions.py --template-region 1 --region 8 --program KernelIdeal --prefix Val --parts a,b,c --sim main_v9=main_v9,main_v25=main_v62,main_v26=main_v63 --out-dir proof/Proof
   from the hand-written text of region 1 (ValKI1a.lean): the same text, the region's number substituted. -/
/-
  Region 8 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k8_pay1` (the zero block) and `k8_pay2` (accumulator plus product) are the two stores' payloads.

  So along one row of blocks r the accumulator after its step k is the left fold
    accOf8 r 0 = pay2 (a (r, 0)) (b 0) pay1,    accOf8 r (k + 1) = pay2 (a (r, k + 1)) (b (k + 1)) (accOf8 r k),
  the grid point (r, k) being position 4 r + k; and at k = 3 the output block holds accOf8 r 3.
-/
import proofs.«158944_j64613488001249_1_alg».proof.Proof.RegKI8
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout8_A_eq (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond8_0 i) (hc1 : ¬cond8_1 i)
    (x0 : Vec F S1024x1024 .bf16) (x1 : Vec F S1024x512 .f32) :
    sout8_A c i arg2 harg2 arg3 harg3 arg4 harg4 arg5 harg5 hc0 hc1 x0 x1 = k8_pay2 x0 x1 (k8_pay1 (F := F)) := by
  have hz : (![0, 0] : Fin 2 → Nat) = fun _ => 0 := funext fun a => by fin_cases a <;> rfl
  unfold sout8_A
  rw [View.read_writes_eq_canon _ _ _ (scover8_A c i arg2 harg2 arg3 harg3 arg4 harg4 arg5 harg5 hc0 hc1 x0 x1)]
  unfold kernelRun8_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout8_B_eq (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond8_0 i) (hc1 : ¬cond8_1 i)
    (x0 : Vec F S1024x1024 .bf16) (x1 : Vec F S1024x512 .f32) (xs0 : Vec F S1024x512 .f32) :
    sout8_B c i arg2 harg2 arg3 harg3 arg4 harg4 arg5 harg5 hc0 hc1 x0 x1 xs0 = k8_pay2 x0 x1 xs0 := by
  have hz : (![0, 0] : Fin 2 → Nat) = fun _ => 0 := funext fun a => by fin_cases a <;> rfl
  unfold sout8_B
  rw [View.read_writes_eq_canon _ _ _ (scover8_B c i arg2 harg2 arg3 harg3 arg4 harg4 arg5 harg5 hc0 hc1 x0 x1 xs0)]
  unfold kernelRun8_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout8_C_eq (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond8_0 i) (hc1 : cond8_1 i)
    (x0 : Vec F S1024x1024 .bf16) (x1 : Vec F S1024x512 .f32) (xs0 : Vec F S1024x512 .f32) :
    sout8_C c i arg2 harg2 arg3 harg3 arg4 harg4 arg5 harg5 hc0 hc1 x0 x1 xs0 = k8_pay2 x0 x1 xs0 := by
  have hz : (![0, 0] : Fin 2 → Nat) = fun _ => 0 := funext fun a => by fin_cases a <;> rfl
  unfold sout8_C
  rw [View.read_writes_eq_canon _ _ _ (scover8_C c i arg2 harg2 arg3 harg3 arg4 harg4 arg5 harg5 hc0 hc1 x0 x1 xs0)]
  unfold kernelRun8_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out8_C_eq (c : Dev nD) (i : grid8.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond8_0 i) (hc1 : cond8_1 i)
    (x0 : Vec F S1024x1024 .bf16) (x1 : Vec F S1024x512 .f32) (xs0 : Vec F S1024x512 .f32) :
    out8_C c i arg2 harg2 arg3 harg3 arg4 harg4 arg5 harg5 hc0 hc1 x0 x1 xs0 = k8_pay2 x0 x1 xs0 := by
  have hz : (![0, 0] : Fin 2 → Nat) = fun _ => 0 := funext fun a => by fin_cases a <;> rfl
  unfold out8_C
  rw [View.read_writes_eq_canon _ _ _ (cover8_C c i arg2 harg2 arg3 harg3 arg4 harg4 arg5 harg5 hc0 hc1 x0 x1 xs0)]
  unfold kernelRun8_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk8_lhs (c : Dev nD) (n : ℕ) : Vec F S1024x1024 .bf16 :=
  if h : n < cfg8.N then iblk8 V c 0 ⟨n, h⟩ else iblk8 V c 0 ⟨0, by have h : cfg8.N = 16 := N_8; omega⟩
/-- The right factor's block at grid position `n`. -/
def iblk8_rhs (c : Dev nD) (n : ℕ) : Vec F S1024x512 .f32 :=
  if h : n < cfg8.N then iblk8 V c 1 ⟨n, h⟩ else iblk8 V c 1 ⟨0, by have h : cfg8.N = 16 := N_8; omega⟩

theorem iblk8_lhs_eq (c : Dev nD) (n : ℕ) (h : n < cfg8.N) : iblk8_lhs V c n = iblk8 V c 0 ⟨n, h⟩ := dif_pos h
theorem iblk8_rhs_eq (c : Dev nD) (n : ℕ) (h : n < cfg8.N) : iblk8_rhs V c n = iblk8 V c 1 ⟨n, h⟩ := dif_pos h

/-! ## The accumulator along one row of blocks -/

/-- Row of blocks `r`, after its step `k`: the zero block plus the products of the blocks at positions 4 r, …, 4 r + k,
    added in that order. -/
def accOf8 (c : Dev nD) (r : ℕ) : ℕ → Vec F S1024x512 .f32
  | 0 => k8_pay2 (iblk8_lhs V c (4 * r)) (iblk8_rhs V c (4 * r)) (k8_pay1 (F := F))
  | k + 1 => k8_pay2 (iblk8_lhs V c (4 * r + (k + 1))) (iblk8_rhs V c (4 * r + (k + 1))) (accOf8 c r k)

theorem accOf8_zero (c : Dev nD) (r : ℕ) :
    accOf8 V c r 0 = k8_pay2 (iblk8_lhs V c (4 * r)) (iblk8_rhs V c (4 * r)) (k8_pay1 (F := F)) := rfl
theorem accOf8_succ (c : Dev nD) (r k : ℕ) :
    accOf8 V c r (k + 1) = k8_pay2 (iblk8_lhs V c (4 * r + (k + 1))) (iblk8_rhs V c (4 * r + (k + 1))) (accOf8 V c r k) := rfl

theorem iblk8_lhs_at (c : Dev nD) (t : Fin cfg8.N) (n : ℕ) (hn : n = t.val) : iblk8_lhs V c n = iblk8 V c 0 t := by
  subst hn; unfold iblk8_lhs; exact dif_pos t.isLt
theorem iblk8_rhs_at (c : Dev nD) (t : Fin cfg8.N) (n : ℕ) (hn : n = t.val) : iblk8_rhs V c n = iblk8 V c 1 t := by
  subst hn; unfold iblk8_rhs; exact dif_pos t.isLt

/-- At a grid point with k = 0 the fold starts: the zero block plus the product of the point's two blocks. -/
theorem accOf8_first (c : Dev nD) (t : Fin cfg8.N) (h0 : t.val % 4 = 0) :
    accOf8 V c (t.val / 4) (t.val % 4) = k8_pay2 (iblk8 V c 0 t) (iblk8 V c 1 t) (k8_pay1 (F := F)) := by
  rw [h0, accOf8_zero, iblk8_lhs_at V c t (4 * (t.val / 4)) (by omega), iblk8_rhs_at V c t (4 * (t.val / 4)) (by omega)]

/-- At a grid point with k ≠ 0 the fold takes one step from the position before, which is in the same row of blocks. -/
theorem accOf8_next (c : Dev nD) (t : Fin cfg8.N) (h0 : ¬t.val % 4 = 0) :
    accOf8 V c (t.val / 4) (t.val % 4)
      = k8_pay2 (iblk8 V c 0 t) (iblk8 V c 1 t) (accOf8 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf8_succ, iblk8_lhs_at V c t (4 * (t.val / 4) + (k + 1)) (by omega),
    iblk8_rhs_at V c t (4 * (t.val / 4) + (k + 1)) (by omega)]

/-! ## The accumulator and the output block, point by point, as pure functions of the blocks -/

/-- k = 0: the accumulator restarts from the zero block. -/
theorem outsAt8_first (c : Dev nD) (t : Fin cfg8.N) (h0 : t.val % 4 = 0) :
    (outsAt8 V c t.val t.isLt).2 = k8_pay2 (iblk8 V c 0 t) (iblk8 V c 1 t) (k8_pay1 (F := F)) := by
  rw [outsAt8_A V c t h0]
  dsimp only
  exact sout8_A_eq c (grid8.coords t) (ms8_0 t) (hs8_0 t) (ms8_1 t) (hs8_1 t) (ms8_2 t) (hs8_2 t) scM8 (Memref.isWhole_whole _) (isFirst8 t h0) (notLast8 t (by omega)) (iblk8 V c 0 t) (iblk8 V c 1 t)

/-- k ≠ 0: the point's product is added to what the point before left. -/
theorem outsAt8_next (c : Dev nD) (t : Fin cfg8.N) (h0 : ¬t.val % 4 = 0) :
    (outsAt8 V c t.val t.isLt).2
      = k8_pay2 (iblk8 V c 0 t) (iblk8 V c 1 t) (outsAt8 V c (t.val - 1) (Nat.lt_of_le_of_lt (Nat.sub_le _ _) t.isLt)).2 := by
  by_cases h3 : t.val % 4 = 3
  · rw [outsAt8_C V c t h0 h3]
    dsimp only
    exact sout8_C_eq c (grid8.coords t) (ms8_0 t) (hs8_0 t) (ms8_1 t) (hs8_1 t) (ms8_2 t) (hs8_2 t) scM8 (Memref.isWhole_whole _) (notFirst8 t h0) (isLast8 t h3) (iblk8 V c 0 t) (iblk8 V c 1 t)
      (outsAt8 V c (t.val - 1) (Nat.lt_of_le_of_lt (Nat.sub_le _ _) t.isLt)).2
  · rw [outsAt8_B V c t h0 h3]
    dsimp only
    exact sout8_B_eq c (grid8.coords t) (ms8_0 t) (hs8_0 t) (ms8_1 t) (hs8_1 t) (ms8_2 t) (hs8_2 t) scM8 (Memref.isWhole_whole _) (notFirst8 t h0) (notLast8 t h3) (iblk8 V c 0 t) (iblk8 V c 1 t)
      (outsAt8 V c (t.val - 1) (Nat.lt_of_le_of_lt (Nat.sub_le _ _) t.isLt)).2

/-- k = 3: the output block is the accumulator. -/
theorem outsAt8_last (c : Dev nD) (t : Fin cfg8.N) (h3 : t.val % 4 = 3) :
    (outsAt8 V c t.val t.isLt).1 = (outsAt8 V c t.val t.isLt).2 := by
  have h0 : ¬t.val % 4 = 0 := by omega
  rw [outsAt8_C V c t h0 h3]
  dsimp only
  exact (out8_C_eq c (grid8.coords t) (ms8_0 t) (hs8_0 t) (ms8_1 t) (hs8_1 t) (ms8_2 t) (hs8_2 t) scM8 (Memref.isWhole_whole _) (notFirst8 t h0) (isLast8 t h3) (iblk8 V c 0 t) (iblk8 V c 1 t)
      (outsAt8 V c (t.val - 1) (Nat.lt_of_le_of_lt (Nat.sub_le _ _) t.isLt)).2).trans
    (sout8_C_eq c (grid8.coords t) (ms8_0 t) (hs8_0 t) (ms8_1 t) (hs8_1 t) (ms8_2 t) (hs8_2 t) scM8 (Memref.isWhole_whole _) (notFirst8 t h0) (isLast8 t h3) (iblk8 V c 0 t) (iblk8 V c 1 t)
      (outsAt8 V c (t.val - 1) (Nat.lt_of_le_of_lt (Nat.sub_le _ _) t.isLt)).2).symm

/-! ## The accumulator is the fold -/

/-- After position `n` the accumulator holds row `n / 4`'s fold after its step `n % 4`: by induction on the position. -/
theorem outsAt8_acc_pos (c : Dev nD) :
    ∀ (n : ℕ) (hn : n < cfg8.N), (outsAt8 V c n hn).2 = accOf8 V c (n / 4) (n % 4) := by
  intro n
  induction n with
  | zero =>
    intro hn
    exact (outsAt8_first V c ⟨0, hn⟩ (Nat.zero_mod 4)).trans (accOf8_first V c ⟨0, hn⟩ (Nat.zero_mod 4)).symm
  | succ n ih =>
    intro hn
    by_cases h0 : (n + 1) % 4 = 0
    · exact (outsAt8_first V c ⟨n + 1, hn⟩ h0).trans (accOf8_first V c ⟨n + 1, hn⟩ h0).symm
    · refine (outsAt8_next V c ⟨n + 1, hn⟩ h0).trans (Eq.trans ?_ (accOf8_next V c ⟨n + 1, hn⟩ h0).symm)
      exact congrArg (k8_pay2 (iblk8 V c 0 ⟨n + 1, hn⟩) (iblk8 V c 1 ⟨n + 1, hn⟩)) (ih (Nat.lt_of_succ_lt hn))

/-- At every grid point the accumulator holds its row's fold after the point's step. -/
theorem outsAt8_acc (c : Dev nD) (t : Fin cfg8.N) :
    (outsAt8 V c t.val t.isLt).2 = accOf8 V c (t.val / 4) (t.val % 4) :=
  outsAt8_acc_pos V c t.val t.isLt

/-- At a row's last point the output block holds the row's whole fold. -/
theorem outsAt8_out (c : Dev nD) (t : Fin cfg8.N) (h3 : t.val % 4 = 3) :
    (outsAt8 V c t.val t.isLt).1 = accOf8 V c (t.val / 4) 3 := by
  have e := outsAt8_acc V c t
  rw [h3] at e
  exact (outsAt8_last V c t h3).trans e

end Cert.KernelIdeal.Hand

end
-- ==== Proof.ValKI8b.lean ====
/- Laid out by: python3 scratch/layout_regions.py --template-region 1 --region 8 --program KernelIdeal --prefix Val --parts a,b,c --sim main_v9=main_v9,main_v25=main_v62,main_v26=main_v63 --out-dir proof/Proof
   from the hand-written text of region 1 (ValKI1b.lean): the same text, the region's number substituted. -/
/-
  Region 8 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI8a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts8 : ∀ t : Fin cfg8.N,
    win8_0.index t (0 : Fin 2) = t.val / 4 ∧ win8_0.index t (1 : Fin 2) = t.val % 4
    ∧ win8_1.index t (0 : Fin 2) = t.val % 4 ∧ win8_1.index t (1 : Fin 2) = 0
    ∧ win8_2.index t (0 : Fin 2) = t.val / 4 ∧ win8_2.index t (1 : Fin 2) = 0 :=
  (by decide +kernel : ∀ t : Fin grid8.N,
    win8_0.index t (0 : Fin 2) = t.val / 4 ∧ win8_0.index t (1 : Fin 2) = t.val % 4
    ∧ win8_1.index t (0 : Fin 2) = t.val % 4 ∧ win8_1.index t (1 : Fin 2) = 0
    ∧ win8_2.index t (0 : Fin 2) = t.val / 4 ∧ win8_2.index t (1 : Fin 2) = 0)

/-! ## The output array as one function -/

/-- The whole output array: its row 1024 r + p, column q, is entry (p, q) of the block accumulated over k = 0 … 3 in
    block row r. -/
def whole8 (c : Dev nD) : S4096x512.Idx → Elt F .f32 := fun i =>
  accOf8 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole8_apply (c : Dev nD) (r : ℕ) (y : S1024x512.Idx) (i : S4096x512.Idx)
    (h0 : (i 0).val = 1024 * r + (y 0).val) (h1 : (i 1).val = (y 1).val) :
    whole8 V c i = accOf8 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole8
  rw [hr, e]

/-- Row 1024 r + p, column q of the array is entry (p, q) of block row r's accumulated block. -/
theorem whole8_ix2 (c : Dev nD) (r : Fin 4) (p : Fin 1024) (q : Fin 512) :
    whole8 V c (ix2 (n0 := 4096) (n1 := 512) ⟨1024 * r.val + p.val, by have := r.isLt; have := p.isLt; omega⟩ q)
      = accOf8 V c r.val 3 (ix2 p q) :=
  whole8_apply V c r.val (ix2 p q) _ rfl rfl

/-! ## What a point writes back -/

/-- A point with k = 3 writes back its block of the whole-array function. -/
theorem flushed8_eq (c : Dev nD) (t : Fin cfg8.N) (hf : (cfg8.win 2).flush t = true) :
    (dat8 V c).flushed 2 t = ((cfg8.win 2).blk t).view.read (Elt F) (whole8 V c) := by
  have h3 : t.val % 4 = 3 := (flush8_2 t).mp hf
  show (cfg8.win 2).cut (grid8.coords t) ((dat8 V c).after 2 t) = _
  rw [after8_2, outsAt8_out V c t h3]
  obtain ⟨-, -, -, -, e0, e1⟩ := idxFacts8 t
  funext j
  show accOf8 V c (t.val / 4) 3 j = whole8 V c (((cfg8.win 2).blk t).view.emb j)
  refine (whole8_apply V c (t.val / 4) j _ ?_ ?_).symm
  · show win8_2.index t (0 : Fin 2) * 1024 + 1 * (j 0).val = 1024 * (t.val / 4) + (j 0).val
    rw [e0]; omega
  · show win8_2.index t (1 : Fin 2) * 512 + 1 * (j 1).val = (j 1).val
    rw [e1]; omega

/-! ## The blocks written back cover the array -/

/-- An index is in a point's output block iff each coordinate is in the block's range on its axis. -/
theorem memBlk8 (t : Fin cfg8.N) (i : S4096x512.Idx) :
    i ∈ ((cfg8.win 2).blk t).view.set ↔ ∀ a : Fin 2, win8_2.index t a * S1024x512.size a ≤ (i a).val
      ∧ (i a).val < win8_2.index t a * S1024x512.size a + S1024x512.size a := by
  show i ∈ ((View.whole main_v63).slice (win8_2.rect t)).set ↔ _
  rw [View.set_slice_whole, Rect.mem_set_unit]
  exact Iff.rfl

/-- Row i of the array lies in the block written back at the point (i / 1024, 3). -/
theorem covered8 (i : S4096x512.Idx) :
    ∃ t : Fin cfg8.N, (cfg8.win 2).flush t = true ∧ i ∈ ((cfg8.win 2).blk t).view.set := by
  have hi0 : (i 0).val < 4096 := idx2_lt0 i
  have hi1 : (i 1).val < 512 := idx2_lt1 i
  have hN : cfg8.N = 16 := N_8
  obtain ⟨t, ht⟩ : ∃ t : Fin cfg8.N, t.val = 4 * ((i 0).val / 1024) + 3 :=
    ⟨⟨4 * ((i 0).val / 1024) + 3, by rw [hN]; omega⟩, rfl⟩
  refine ⟨t, (flush8_2 t).mpr (by omega), ?_⟩
  rw [memBlk8]
  obtain ⟨-, -, -, -, e0, e1⟩ := idxFacts8 t
  intro a
  match a with
  | ⟨0, _⟩ =>
    show win8_2.index t (0 : Fin 2) * 1024 ≤ (i 0).val ∧ (i 0).val < win8_2.index t (0 : Fin 2) * 1024 + 1024
    rw [e0]; omega
  | ⟨1, _⟩ =>
    show win8_2.index t (1 : Fin 2) * 512 ≤ (i 1).val ∧ (i 1).val < win8_2.index t (1 : Fin 2) * 512 + 512
    rw [e1]; omega

/-! ## The three arrays after the region -/

/-- The output array after the region is the whole-array function. -/
theorem final8_2 (c : Dev nD) : (dat8 V c).arrAt 2 cfg8.N = whole8 V c :=
  (dat8 V c).arrAt_eq_of_cover 2 (whole8 V c) (flushed8_eq V c) covered8

/-- The two input arrays are as the region found them. -/
theorem final8_0 (c : Dev nD) : (dat8 V c).arrAt 0 cfg8.N = V c main_v9 :=
  ((dat8 V c).arrAt_in 0 rfl cfg8.N).trans (A_eq8 V c 0)
theorem final8_1 (c : Dev nD) : (dat8 V c).arrAt 1 cfg8.N = V c main_v62 :=
  ((dat8 V c).arrAt_in 1 rfl cfg8.N).trans (A_eq8 V c 1)

/-! ## The input blocks as blocks of the operand arrays -/

/-- The left operand's block at the point (r, k): entry (y₀, y₁) is the array's entry (1024 r + y₀, 1024 k + y₁). -/
theorem iblk8_lhs_apply (c : Dev nD) (r k : Fin 4) (y : S1024x1024.Idx) (i : S4096x4096.Idx)
    (h0 : (i 0).val = 1024 * r.val + (y 0).val) (h1 : (i 1).val = 1024 * k.val + (y 1).val) :
    iblk8_lhs V c (4 * r.val + k.val) y = (V c main_v9 : S4096x4096.Idx → Elt F .bf16) i := by
  have hN : cfg8.N = 16 := N_8
  have hr := r.isLt
  have hk := k.isLt
  have hlt : 4 * r.val + k.val < cfg8.N := by rw [hN]; omega
  rw [iblk8_lhs_eq V c _ hlt]
  obtain ⟨e0, e1, -, -, -, -⟩ := idxFacts8 ⟨4 * r.val + k.val, hlt⟩
  have e0' : win8_0.index ⟨4 * r.val + k.val, hlt⟩ (0 : Fin 2) = (4 * r.val + k.val) / 4 := e0
  have e1' : win8_0.index ⟨4 * r.val + k.val, hlt⟩ (1 : Fin 2) = (4 * r.val + k.val) % 4 := e1
  unfold iblk8
  rw [View.read_apply]
  show V c main_v9 (((cfg8.win 0).blk ⟨4 * r.val + k.val, hlt⟩).view.emb y) = V c main_v9 i
  congr 1
  funext a
  apply Fin.ext
  match a with
  | ⟨0, _⟩ =>
    show win8_0.index ⟨4 * r.val + k.val, hlt⟩ (0 : Fin 2) * 1024 + 1 * (y 0).val = (i 0).val
    rw [e0', h0]; omega
  | ⟨1, _⟩ =>
    show win8_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk8_rhs_apply (c : Dev nD) (r k : Fin 4) (y : S1024x512.Idx) (i : S4096x512.Idx)
    (h0 : (i 0).val = 1024 * k.val + (y 0).val) (h1 : (i 1).val = (y 1).val) :
    iblk8_rhs V c (4 * r.val + k.val) y = (V c main_v62 : S4096x512.Idx → Elt F .f32) i := by
  have hN : cfg8.N = 16 := N_8
  have hr := r.isLt
  have hk := k.isLt
  have hlt : 4 * r.val + k.val < cfg8.N := by rw [hN]; omega
  rw [iblk8_rhs_eq V c _ hlt]
  obtain ⟨-, -, e0, e1, -, -⟩ := idxFacts8 ⟨4 * r.val + k.val, hlt⟩
  have e0' : win8_1.index ⟨4 * r.val + k.val, hlt⟩ (0 : Fin 2) = (4 * r.val + k.val) % 4 := e0
  have e1' : win8_1.index ⟨4 * r.val + k.val, hlt⟩ (1 : Fin 2) = 0 := e1
  unfold iblk8
  rw [View.read_apply]
  show V c main_v62 (((cfg8.win 1).blk ⟨4 * r.val + k.val, hlt⟩).view.emb y) = V c main_v62 i
  congr 1
  funext a
  apply Fin.ext
  match a with
  | ⟨0, _⟩ =>
    show win8_1.index ⟨4 * r.val + k.val, hlt⟩ (0 : Fin 2) * 1024 + 1 * (y 0).val = (i 0).val
    rw [e0', h0]; omega
  | ⟨1, _⟩ =>
    show win8_1.index ⟨4 * r.val + k.val, hlt⟩ (1 : Fin 2) * 512 + 1 * (y 1).val = (i 1).val
    rw [e1', h1]; omega

/-- The accumulated block after the fourth step, unfolded: four steps from the zero block. -/
theorem accOf8_three (c : Dev nD) (r : ℕ) :
    accOf8 V c r 3
      = k8_pay2 (iblk8_lhs V c (4 * r + 3)) (iblk8_rhs V c (4 * r + 3))
          (k8_pay2 (iblk8_lhs V c (4 * r + 2)) (iblk8_rhs V c (4 * r + 2))
            (k8_pay2 (iblk8_lhs V c (4 * r + 1)) (iblk8_rhs V c (4 * r + 1))
              (k8_pay2 (iblk8_lhs V c (4 * r)) (iblk8_rhs V c (4 * r)) (k8_pay1 (F := F))))) := rfl

end Cert.KernelIdeal.Hand

end
-- ==== Proof.ValKI8c.lean ====
/- Laid out by: python3 scratch/layout_regions.py --template-region 1 --region 8 --program KernelIdeal --prefix Val --parts a,b,c --sim main_v9=main_v9,main_v25=main_v62,main_v26=main_v63 --out-dir proof/Proof
   from the hand-written text of region 1 (ValKI1c.lean): the same text, the region's number substituted. -/
/-
  Region 8 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI8b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf8_step (x0 : Vec Ideal S1024x1024 .bf16) (x1 acc : Vec Ideal S1024x512 .f32) :
    k8_pay2 (F := Ideal) x0 x1 acc
      = Cert.MMLaw.accStep dot_S1024x1024_S1024x512_S1024x512_1_0_0_1_n_n none x0 x1 acc := by
  unfold k8_pay2
  simp only [shapeCast_self]
  rfl

/-- The accumulator starts from the zero block. -/
theorem accOf8_init (j : S1024x512.Idx) : k8_pay1 (F := Ideal) j = 0 := by
  unfold k8_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf8_eq_blk (c : Dev nD) (r : Fin 4) (D : DotDims S4096x4096 S4096x512 S4096x512) (hD : Cert.MMLaw.IsPlain D)
    (prec : Option ContractPrecision) :
    accOf8 V c r.val 3
      = Cert.MMLaw.blk (nr := 4) (nc := 1) 1024 512 rfl rfl (Cert.MMLaw.whole D prec (V c main_v9) (V c main_v62)) r 0 := by
  rw [accOf8_three]
  simp only [accOf8_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v9) (V c main_v62) r 0
    (fun k => iblk8_lhs V c (4 * r.val + k.val)) (fun k => iblk8_rhs V c (4 * r.val + k.val))
    (fun k => funext fun y => iblk8_lhs_apply V c r k y _ rfl rfl)
    (fun k => funext fun y => iblk8_rhs_apply V c r k y _ rfl (by show 512 * 0 + (y 1).val = (y 1).val; omega))
    (k8_pay1 (F := Ideal)) accOf8_init

/-! ## The output array after the region is the whole product -/

/-- The region leaves in its output array the product of its two operand arrays. -/
theorem final8_2_eq_whole (c : Dev nD) (D : DotDims S4096x4096 S4096x512 S4096x512) (hD : Cert.MMLaw.IsPlain D)
    (prec : Option ContractPrecision) :
    (dat8 (F := Ideal) V c).arrAt 2 cfg8.N = Cert.MMLaw.whole D prec (V c main_v9) (V c main_v62) := by
  rw [final8_2]
  funext i
  have hi0 : (i 0).val < 4096 := idx2_lt0 i
  have h := congrFun (accOf8_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final8_2_eq_dot (c : Dev nD) (D : DotDims S4096x4096 S4096x512 S4096x512) (hD : Cert.MMLaw.IsPlain D)
    (prec : Option ContractPrecision) :
    (dat8 (F := Ideal) V c).arrAt 2 cfg8.N = Host.dotGeneral (F := Ideal) (φ₁ := .bf16) (φ₂ := .f32) D prec (V c main_v9) (V c main_v62) :=
  final8_2_eq_whole V c D hD prec

end Cert.KernelIdeal.Hand

end
-- ==== Proof.ValKI9a.lean ====
/- Laid out by: python3 scratch/layout_regions.py --template-region 1 --region 9 --program KernelIdeal --prefix Val --parts a,b,c --sim main_v9=main_v8,main_v25=main_v57,main_v26=main_v67 --out-dir proof/Proof
   from the hand-written text of region 1 (ValKI1a.lean): the same text, the region's number substituted. -/
/-
  Region 9 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k9_pay1` (the zero block) and `k9_pay2` (accumulator plus product) are the two stores' payloads.

  So along one row of blocks r the accumulator after its step k is the left fold
    accOf9 r 0 = pay2 (a (r, 0)) (b 0) pay1,    accOf9 r (k + 1) = pay2 (a (r, k + 1)) (b (k + 1)) (accOf9 r k),
  the grid point (r, k) being position 4 r + k; and at k = 3 the output block holds accOf9 r 3.
-/
import proofs.«158944_j64613488001249_1_alg».proof.Proof.RegKI9
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout9_A_eq (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond9_0 i) (hc1 : ¬cond9_1 i)
    (x0 : Vec F S1024x1024 .bf16) (x1 : Vec F S1024x512 .f32) :
    sout9_A c i arg2 harg2 arg3 harg3 arg4 harg4 arg5 harg5 hc0 hc1 x0 x1 = k9_pay2 x0 x1 (k9_pay1 (F := F)) := by
  have hz : (![0, 0] : Fin 2 → Nat) = fun _ => 0 := funext fun a => by fin_cases a <;> rfl
  unfold sout9_A
  rw [View.read_writes_eq_canon _ _ _ (scover9_A c i arg2 harg2 arg3 harg3 arg4 harg4 arg5 harg5 hc0 hc1 x0 x1)]
  unfold kernelRun9_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout9_B_eq (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond9_0 i) (hc1 : ¬cond9_1 i)
    (x0 : Vec F S1024x1024 .bf16) (x1 : Vec F S1024x512 .f32) (xs0 : Vec F S1024x512 .f32) :
    sout9_B c i arg2 harg2 arg3 harg3 arg4 harg4 arg5 harg5 hc0 hc1 x0 x1 xs0 = k9_pay2 x0 x1 xs0 := by
  have hz : (![0, 0] : Fin 2 → Nat) = fun _ => 0 := funext fun a => by fin_cases a <;> rfl
  unfold sout9_B
  rw [View.read_writes_eq_canon _ _ _ (scover9_B c i arg2 harg2 arg3 harg3 arg4 harg4 arg5 harg5 hc0 hc1 x0 x1 xs0)]
  unfold kernelRun9_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout9_C_eq (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond9_0 i) (hc1 : cond9_1 i)
    (x0 : Vec F S1024x1024 .bf16) (x1 : Vec F S1024x512 .f32) (xs0 : Vec F S1024x512 .f32) :
    sout9_C c i arg2 harg2 arg3 harg3 arg4 harg4 arg5 harg5 hc0 hc1 x0 x1 xs0 = k9_pay2 x0 x1 xs0 := by
  have hz : (![0, 0] : Fin 2 → Nat) = fun _ => 0 := funext fun a => by fin_cases a <;> rfl
  unfold sout9_C
  rw [View.read_writes_eq_canon _ _ _ (scover9_C c i arg2 harg2 arg3 harg3 arg4 harg4 arg5 harg5 hc0 hc1 x0 x1 xs0)]
  unfold kernelRun9_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out9_C_eq (c : Dev nD) (i : grid9.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond9_0 i) (hc1 : cond9_1 i)
    (x0 : Vec F S1024x1024 .bf16) (x1 : Vec F S1024x512 .f32) (xs0 : Vec F S1024x512 .f32) :
    out9_C c i arg2 harg2 arg3 harg3 arg4 harg4 arg5 harg5 hc0 hc1 x0 x1 xs0 = k9_pay2 x0 x1 xs0 := by
  have hz : (![0, 0] : Fin 2 → Nat) = fun _ => 0 := funext fun a => by fin_cases a <;> rfl
  unfold out9_C
  rw [View.read_writes_eq_canon _ _ _ (cover9_C c i arg2 harg2 arg3 harg3 arg4 harg4 arg5 harg5 hc0 hc1 x0 x1 xs0)]
  unfold kernelRun9_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk9_lhs (c : Dev nD) (n : ℕ) : Vec F S1024x1024 .bf16 :=
  if h : n < cfg9.N then iblk9 V c 0 ⟨n, h⟩ else iblk9 V c 0 ⟨0, by have h : cfg9.N = 16 := N_9; omega⟩
/-- The right factor's block at grid position `n`. -/
def iblk9_rhs (c : Dev nD) (n : ℕ) : Vec F S1024x512 .f32 :=
  if h : n < cfg9.N then iblk9 V c 1 ⟨n, h⟩ else iblk9 V c 1 ⟨0, by have h : cfg9.N = 16 := N_9; omega⟩

theorem iblk9_lhs_eq (c : Dev nD) (n : ℕ) (h : n < cfg9.N) : iblk9_lhs V c n = iblk9 V c 0 ⟨n, h⟩ := dif_pos h
theorem iblk9_rhs_eq (c : Dev nD) (n : ℕ) (h : n < cfg9.N) : iblk9_rhs V c n = iblk9 V c 1 ⟨n, h⟩ := dif_pos h

/-! ## The accumulator along one row of blocks -/

/-- Row of blocks `r`, after its step `k`: the zero block plus the products of the blocks at positions 4 r, …, 4 r + k,
    added in that order. -/
def accOf9 (c : Dev nD) (r : ℕ) : ℕ → Vec F S1024x512 .f32
  | 0 => k9_pay2 (iblk9_lhs V c (4 * r)) (iblk9_rhs V c (4 * r)) (k9_pay1 (F := F))
  | k + 1 => k9_pay2 (iblk9_lhs V c (4 * r + (k + 1))) (iblk9_rhs V c (4 * r + (k + 1))) (accOf9 c r k)

theorem accOf9_zero (c : Dev nD) (r : ℕ) :
    accOf9 V c r 0 = k9_pay2 (iblk9_lhs V c (4 * r)) (iblk9_rhs V c (4 * r)) (k9_pay1 (F := F)) := rfl
theorem accOf9_succ (c : Dev nD) (r k : ℕ) :
    accOf9 V c r (k + 1) = k9_pay2 (iblk9_lhs V c (4 * r + (k + 1))) (iblk9_rhs V c (4 * r + (k + 1))) (accOf9 V c r k) := rfl

theorem iblk9_lhs_at (c : Dev nD) (t : Fin cfg9.N) (n : ℕ) (hn : n = t.val) : iblk9_lhs V c n = iblk9 V c 0 t := by
  subst hn; unfold iblk9_lhs; exact dif_pos t.isLt
theorem iblk9_rhs_at (c : Dev nD) (t : Fin cfg9.N) (n : ℕ) (hn : n = t.val) : iblk9_rhs V c n = iblk9 V c 1 t := by
  subst hn; unfold iblk9_rhs; exact dif_pos t.isLt

/-- At a grid point with k = 0 the fold starts: the zero block plus the product of the point's two blocks. -/
theorem accOf9_first (c : Dev nD) (t : Fin cfg9.N) (h0 : t.val % 4 = 0) :
    accOf9 V c (t.val / 4) (t.val % 4) = k9_pay2 (iblk9 V c 0 t) (iblk9 V c 1 t) (k9_pay1 (F := F)) := by
  rw [h0, accOf9_zero, iblk9_lhs_at V c t (4 * (t.val / 4)) (by omega), iblk9_rhs_at V c t (4 * (t.val / 4)) (by omega)]

/-- At a grid point with k ≠ 0 the fold takes one step from the position before, which is in the same row of blocks. -/
theorem accOf9_next (c : Dev nD) (t : Fin cfg9.N) (h0 : ¬t.val % 4 = 0) :
    accOf9 V c (t.val / 4) (t.val % 4)
      = k9_pay2 (iblk9 V c 0 t) (iblk9 V c 1 t) (accOf9 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf9_succ, iblk9_lhs_at V c t (4 * (t.val / 4) + (k + 1)) (by omega),
    iblk9_rhs_at V c t (4 * (t.val / 4) + (k + 1)) (by omega)]

/-! ## The accumulator and the output block, point by point, as pure functions of the blocks -/

/-- k = 0: the accumulator restarts from the zero block. -/
theorem outsAt9_first (c : Dev nD) (t : Fin cfg9.N) (h0 : t.val % 4 = 0) :
    (outsAt9 V c t.val t.isLt).2 = k9_pay2 (iblk9 V c 0 t) (iblk9 V c 1 t) (k9_pay1 (F := F)) := by
  rw [outsAt9_A V c t h0]
  dsimp only
  exact sout9_A_eq c (grid9.coords t) (ms9_0 t) (hs9_0 t) (ms9_1 t) (hs9_1 t) (ms9_2 t) (hs9_2 t) scM9 (Memref.isWhole_whole _) (isFirst9 t h0) (notLast9 t (by omega)) (iblk9 V c 0 t) (iblk9 V c 1 t)

/-- k ≠ 0: the point's product is added to what the point before left. -/
theorem outsAt9_next (c : Dev nD) (t : Fin cfg9.N) (h0 : ¬t.val % 4 = 0) :
    (outsAt9 V c t.val t.isLt).2
      = k9_pay2 (iblk9 V c 0 t) (iblk9 V c 1 t) (outsAt9 V c (t.val - 1) (Nat.lt_of_le_of_lt (Nat.sub_le _ _) t.isLt)).2 := by
  by_cases h3 : t.val % 4 = 3
  · rw [outsAt9_C V c t h0 h3]
    dsimp only
    exact sout9_C_eq c (grid9.coords t) (ms9_0 t) (hs9_0 t) (ms9_1 t) (hs9_1 t) (ms9_2 t) (hs9_2 t) scM9 (Memref.isWhole_whole _) (notFirst9 t h0) (isLast9 t h3) (iblk9 V c 0 t) (iblk9 V c 1 t)
      (outsAt9 V c (t.val - 1) (Nat.lt_of_le_of_lt (Nat.sub_le _ _) t.isLt)).2
  · rw [outsAt9_B V c t h0 h3]
    dsimp only
    exact sout9_B_eq c (grid9.coords t) (ms9_0 t) (hs9_0 t) (ms9_1 t) (hs9_1 t) (ms9_2 t) (hs9_2 t) scM9 (Memref.isWhole_whole _) (notFirst9 t h0) (notLast9 t h3) (iblk9 V c 0 t) (iblk9 V c 1 t)
      (outsAt9 V c (t.val - 1) (Nat.lt_of_le_of_lt (Nat.sub_le _ _) t.isLt)).2

/-- k = 3: the output block is the accumulator. -/
theorem outsAt9_last (c : Dev nD) (t : Fin cfg9.N) (h3 : t.val % 4 = 3) :
    (outsAt9 V c t.val t.isLt).1 = (outsAt9 V c t.val t.isLt).2 := by
  have h0 : ¬t.val % 4 = 0 := by omega
  rw [outsAt9_C V c t h0 h3]
  dsimp only
  exact (out9_C_eq c (grid9.coords t) (ms9_0 t) (hs9_0 t) (ms9_1 t) (hs9_1 t) (ms9_2 t) (hs9_2 t) scM9 (Memref.isWhole_whole _) (notFirst9 t h0) (isLast9 t h3) (iblk9 V c 0 t) (iblk9 V c 1 t)
      (outsAt9 V c (t.val - 1) (Nat.lt_of_le_of_lt (Nat.sub_le _ _) t.isLt)).2).trans
    (sout9_C_eq c (grid9.coords t) (ms9_0 t) (hs9_0 t) (ms9_1 t) (hs9_1 t) (ms9_2 t) (hs9_2 t) scM9 (Memref.isWhole_whole _) (notFirst9 t h0) (isLast9 t h3) (iblk9 V c 0 t) (iblk9 V c 1 t)
      (outsAt9 V c (t.val - 1) (Nat.lt_of_le_of_lt (Nat.sub_le _ _) t.isLt)).2).symm

/-! ## The accumulator is the fold -/

/-- After position `n` the accumulator holds row `n / 4`'s fold after its step `n % 4`: by induction on the position. -/
theorem outsAt9_acc_pos (c : Dev nD) :
    ∀ (n : ℕ) (hn : n < cfg9.N), (outsAt9 V c n hn).2 = accOf9 V c (n / 4) (n % 4) := by
  intro n
  induction n with
  | zero =>
    intro hn
    exact (outsAt9_first V c ⟨0, hn⟩ (Nat.zero_mod 4)).trans (accOf9_first V c ⟨0, hn⟩ (Nat.zero_mod 4)).symm
  | succ n ih =>
    intro hn
    by_cases h0 : (n + 1) % 4 = 0
    · exact (outsAt9_first V c ⟨n + 1, hn⟩ h0).trans (accOf9_first V c ⟨n + 1, hn⟩ h0).symm
    · refine (outsAt9_next V c ⟨n + 1, hn⟩ h0).trans (Eq.trans ?_ (accOf9_next V c ⟨n + 1, hn⟩ h0).symm)
      exact congrArg (k9_pay2 (iblk9 V c 0 ⟨n + 1, hn⟩) (iblk9 V c 1 ⟨n + 1, hn⟩)) (ih (Nat.lt_of_succ_lt hn))

/-- At every grid point the accumulator holds its row's fold after the point's step. -/
theorem outsAt9_acc (c : Dev nD) (t : Fin cfg9.N) :
    (outsAt9 V c t.val t.isLt).2 = accOf9 V c (t.val / 4) (t.val % 4) :=
  outsAt9_acc_pos V c t.val t.isLt

/-- At a row's last point the output block holds the row's whole fold. -/
theorem outsAt9_out (c : Dev nD) (t : Fin cfg9.N) (h3 : t.val % 4 = 3) :
    (outsAt9 V c t.val t.isLt).1 = accOf9 V c (t.val / 4) 3 := by
  have e := outsAt9_acc V c t
  rw [h3] at e
  exact (outsAt9_last V c t h3).trans e

end Cert.KernelIdeal.Hand

end
-- ==== Proof.ValKI9b.lean ====
/- Laid out by: python3 scratch/layout_regions.py --template-region 1 --region 9 --program KernelIdeal --prefix Val --parts a,b,c --sim main_v9=main_v8,main_v25=main_v57,main_v26=main_v67 --out-dir proof/Proof
   from the hand-written text of region 1 (ValKI1b.lean): the same text, the region's number substituted. -/
/-
  Region 9 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI9a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts9 : ∀ t : Fin cfg9.N,
    win9_0.index t (0 : Fin 2) = t.val / 4 ∧ win9_0.index t (1 : Fin 2) = t.val % 4
    ∧ win9_1.index t (0 : Fin 2) = t.val % 4 ∧ win9_1.index t (1 : Fin 2) = 0
    ∧ win9_2.index t (0 : Fin 2) = t.val / 4 ∧ win9_2.index t (1 : Fin 2) = 0 :=
  (by decide +kernel : ∀ t : Fin grid9.N,
    win9_0.index t (0 : Fin 2) = t.val / 4 ∧ win9_0.index t (1 : Fin 2) = t.val % 4
    ∧ win9_1.index t (0 : Fin 2) = t.val % 4 ∧ win9_1.index t (1 : Fin 2) = 0
    ∧ win9_2.index t (0 : Fin 2) = t.val / 4 ∧ win9_2.index t (1 : Fin 2) = 0)

/-! ## The output array as one function -/

/-- The whole output array: its row 1024 r + p, column q, is entry (p, q) of the block accumulated over k = 0 … 3 in
    block row r. -/
def whole9 (c : Dev nD) : S4096x512.Idx → Elt F .f32 := fun i =>
  accOf9 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole9_apply (c : Dev nD) (r : ℕ) (y : S1024x512.Idx) (i : S4096x512.Idx)
    (h0 : (i 0).val = 1024 * r + (y 0).val) (h1 : (i 1).val = (y 1).val) :
    whole9 V c i = accOf9 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole9
  rw [hr, e]

/-- Row 1024 r + p, column q of the array is entry (p, q) of block row r's accumulated block. -/
theorem whole9_ix2 (c : Dev nD) (r : Fin 4) (p : Fin 1024) (q : Fin 512) :
    whole9 V c (ix2 (n0 := 4096) (n1 := 512) ⟨1024 * r.val + p.val, by have := r.isLt; have := p.isLt; omega⟩ q)
      = accOf9 V c r.val 3 (ix2 p q) :=
  whole9_apply V c r.val (ix2 p q) _ rfl rfl

/-! ## What a point writes back -/

/-- A point with k = 3 writes back its block of the whole-array function. -/
theorem flushed9_eq (c : Dev nD) (t : Fin cfg9.N) (hf : (cfg9.win 2).flush t = true) :
    (dat9 V c).flushed 2 t = ((cfg9.win 2).blk t).view.read (Elt F) (whole9 V c) := by
  have h3 : t.val % 4 = 3 := (flush9_2 t).mp hf
  show (cfg9.win 2).cut (grid9.coords t) ((dat9 V c).after 2 t) = _
  rw [after9_2, outsAt9_out V c t h3]
  obtain ⟨-, -, -, -, e0, e1⟩ := idxFacts9 t
  funext j
  show accOf9 V c (t.val / 4) 3 j = whole9 V c (((cfg9.win 2).blk t).view.emb j)
  refine (whole9_apply V c (t.val / 4) j _ ?_ ?_).symm
  · show win9_2.index t (0 : Fin 2) * 1024 + 1 * (j 0).val = 1024 * (t.val / 4) + (j 0).val
    rw [e0]; omega
  · show win9_2.index t (1 : Fin 2) * 512 + 1 * (j 1).val = (j 1).val
    rw [e1]; omega

/-! ## The blocks written back cover the array -/

/-- An index is in a point's output block iff each coordinate is in the block's range on its axis. -/
theorem memBlk9 (t : Fin cfg9.N) (i : S4096x512.Idx) :
    i ∈ ((cfg9.win 2).blk t).view.set ↔ ∀ a : Fin 2, win9_2.index t a * S1024x512.size a ≤ (i a).val
      ∧ (i a).val < win9_2.index t a * S1024x512.size a + S1024x512.size a := by
  show i ∈ ((View.whole main_v67).slice (win9_2.rect t)).set ↔ _
  rw [View.set_slice_whole, Rect.mem_set_unit]
  exact Iff.rfl

/-- Row i of the array lies in the block written back at the point (i / 1024, 3). -/
theorem covered9 (i : S4096x512.Idx) :
    ∃ t : Fin cfg9.N, (cfg9.win 2).flush t = true ∧ i ∈ ((cfg9.win 2).blk t).view.set := by
  have hi0 : (i 0).val < 4096 := idx2_lt0 i
  have hi1 : (i 1).val < 512 := idx2_lt1 i
  have hN : cfg9.N = 16 := N_9
  obtain ⟨t, ht⟩ : ∃ t : Fin cfg9.N, t.val = 4 * ((i 0).val / 1024) + 3 :=
    ⟨⟨4 * ((i 0).val / 1024) + 3, by rw [hN]; omega⟩, rfl⟩
  refine ⟨t, (flush9_2 t).mpr (by omega), ?_⟩
  rw [memBlk9]
  obtain ⟨-, -, -, -, e0, e1⟩ := idxFacts9 t
  intro a
  match a with
  | ⟨0, _⟩ =>
    show win9_2.index t (0 : Fin 2) * 1024 ≤ (i 0).val ∧ (i 0).val < win9_2.index t (0 : Fin 2) * 1024 + 1024
    rw [e0]; omega
  | ⟨1, _⟩ =>
    show win9_2.index t (1 : Fin 2) * 512 ≤ (i 1).val ∧ (i 1).val < win9_2.index t (1 : Fin 2) * 512 + 512
    rw [e1]; omega

/-! ## The three arrays after the region -/

/-- The output array after the region is the whole-array function. -/
theorem final9_2 (c : Dev nD) : (dat9 V c).arrAt 2 cfg9.N = whole9 V c :=
  (dat9 V c).arrAt_eq_of_cover 2 (whole9 V c) (flushed9_eq V c) covered9

/-- The two input arrays are as the region found them. -/
theorem final9_0 (c : Dev nD) : (dat9 V c).arrAt 0 cfg9.N = V c main_v8 :=
  ((dat9 V c).arrAt_in 0 rfl cfg9.N).trans (A_eq9 V c 0)
theorem final9_1 (c : Dev nD) : (dat9 V c).arrAt 1 cfg9.N = V c main_v57 :=
  ((dat9 V c).arrAt_in 1 rfl cfg9.N).trans (A_eq9 V c 1)

/-! ## The input blocks as blocks of the operand arrays -/

/-- The left operand's block at the point (r, k): entry (y₀, y₁) is the array's entry (1024 r + y₀, 1024 k + y₁). -/
theorem iblk9_lhs_apply (c : Dev nD) (r k : Fin 4) (y : S1024x1024.Idx) (i : S4096x4096.Idx)
    (h0 : (i 0).val = 1024 * r.val + (y 0).val) (h1 : (i 1).val = 1024 * k.val + (y 1).val) :
    iblk9_lhs V c (4 * r.val + k.val) y = (V c main_v8 : S4096x4096.Idx → Elt F .bf16) i := by
  have hN : cfg9.N = 16 := N_9
  have hr := r.isLt
  have hk := k.isLt
  have hlt : 4 * r.val + k.val < cfg9.N := by rw [hN]; omega
  rw [iblk9_lhs_eq V c _ hlt]
  obtain ⟨e0, e1, -, -, -, -⟩ := idxFacts9 ⟨4 * r.val + k.val, hlt⟩
  have e0' : win9_0.index ⟨4 * r.val + k.val, hlt⟩ (0 : Fin 2) = (4 * r.val + k.val) / 4 := e0
  have e1' : win9_0.index ⟨4 * r.val + k.val, hlt⟩ (1 : Fin 2) = (4 * r.val + k.val) % 4 := e1
  unfold iblk9
  rw [View.read_apply]
  show V c main_v8 (((cfg9.win 0).blk ⟨4 * r.val + k.val, hlt⟩).view.emb y) = V c main_v8 i
  congr 1
  funext a
  apply Fin.ext
  match a with
  | ⟨0, _⟩ =>
    show win9_0.index ⟨4 * r.val + k.val, hlt⟩ (0 : Fin 2) * 1024 + 1 * (y 0).val = (i 0).val
    rw [e0', h0]; omega
  | ⟨1, _⟩ =>
    show win9_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk9_rhs_apply (c : Dev nD) (r k : Fin 4) (y : S1024x512.Idx) (i : S4096x512.Idx)
    (h0 : (i 0).val = 1024 * k.val + (y 0).val) (h1 : (i 1).val = (y 1).val) :
    iblk9_rhs V c (4 * r.val + k.val) y = (V c main_v57 : S4096x512.Idx → Elt F .f32) i := by
  have hN : cfg9.N = 16 := N_9
  have hr := r.isLt
  have hk := k.isLt
  have hlt : 4 * r.val + k.val < cfg9.N := by rw [hN]; omega
  rw [iblk9_rhs_eq V c _ hlt]
  obtain ⟨-, -, e0, e1, -, -⟩ := idxFacts9 ⟨4 * r.val + k.val, hlt⟩
  have e0' : win9_1.index ⟨4 * r.val + k.val, hlt⟩ (0 : Fin 2) = (4 * r.val + k.val) % 4 := e0
  have e1' : win9_1.index ⟨4 * r.val + k.val, hlt⟩ (1 : Fin 2) = 0 := e1
  unfold iblk9
  rw [View.read_apply]
  show V c main_v57 (((cfg9.win 1).blk ⟨4 * r.val + k.val, hlt⟩).view.emb y) = V c main_v57 i
  congr 1
  funext a
  apply Fin.ext
  match a with
  | ⟨0, _⟩ =>
    show win9_1.index ⟨4 * r.val + k.val, hlt⟩ (0 : Fin 2) * 1024 + 1 * (y 0).val = (i 0).val
    rw [e0', h0]; omega
  | ⟨1, _⟩ =>
    show win9_1.index ⟨4 * r.val + k.val, hlt⟩ (1 : Fin 2) * 512 + 1 * (y 1).val = (i 1).val
    rw [e1', h1]; omega

/-- The accumulated block after the fourth step, unfolded: four steps from the zero block. -/
theorem accOf9_three (c : Dev nD) (r : ℕ) :
    accOf9 V c r 3
      = k9_pay2 (iblk9_lhs V c (4 * r + 3)) (iblk9_rhs V c (4 * r + 3))
          (k9_pay2 (iblk9_lhs V c (4 * r + 2)) (iblk9_rhs V c (4 * r + 2))
            (k9_pay2 (iblk9_lhs V c (4 * r + 1)) (iblk9_rhs V c (4 * r + 1))
              (k9_pay2 (iblk9_lhs V c (4 * r)) (iblk9_rhs V c (4 * r)) (k9_pay1 (F := F))))) := rfl

end Cert.KernelIdeal.Hand

end
-- ==== Proof.ValKI9c.lean ====
/- Laid out by: python3 scratch/layout_regions.py --template-region 1 --region 9 --program KernelIdeal --prefix Val --parts a,b,c --sim main_v9=main_v8,main_v25=main_v57,main_v26=main_v67 --out-dir proof/Proof
   from the hand-written text of region 1 (ValKI1c.lean): the same text, the region's number substituted. -/
/-
  Region 9 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI9b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf9_step (x0 : Vec Ideal S1024x1024 .bf16) (x1 acc : Vec Ideal S1024x512 .f32) :
    k9_pay2 (F := Ideal) x0 x1 acc
      = Cert.MMLaw.accStep dot_S1024x1024_S1024x512_S1024x512_1_0_0_1_n_n none x0 x1 acc := by
  unfold k9_pay2
  simp only [shapeCast_self]
  rfl

/-- The accumulator starts from the zero block. -/
theorem accOf9_init (j : S1024x512.Idx) : k9_pay1 (F := Ideal) j = 0 := by
  unfold k9_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf9_eq_blk (c : Dev nD) (r : Fin 4) (D : DotDims S4096x4096 S4096x512 S4096x512) (hD : Cert.MMLaw.IsPlain D)
    (prec : Option ContractPrecision) :
    accOf9 V c r.val 3
      = Cert.MMLaw.blk (nr := 4) (nc := 1) 1024 512 rfl rfl (Cert.MMLaw.whole D prec (V c main_v8) (V c main_v57)) r 0 := by
  rw [accOf9_three]
  simp only [accOf9_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v8) (V c main_v57) r 0
    (fun k => iblk9_lhs V c (4 * r.val + k.val)) (fun k => iblk9_rhs V c (4 * r.val + k.val))
    (fun k => funext fun y => iblk9_lhs_apply V c r k y _ rfl rfl)
    (fun k => funext fun y => iblk9_rhs_apply V c r k y _ rfl (by show 512 * 0 + (y 1).val = (y 1).val; omega))
    (k9_pay1 (F := Ideal)) accOf9_init

/-! ## The output array after the region is the whole product -/

/-- The region leaves in its output array the product of its two operand arrays. -/
theorem final9_2_eq_whole (c : Dev nD) (D : DotDims S4096x4096 S4096x512 S4096x512) (hD : Cert.MMLaw.IsPlain D)
    (prec : Option ContractPrecision) :
    (dat9 (F := Ideal) V c).arrAt 2 cfg9.N = Cert.MMLaw.whole D prec (V c main_v8) (V c main_v57) := by
  rw [final9_2]
  funext i
  have hi0 : (i 0).val < 4096 := idx2_lt0 i
  have h := congrFun (accOf9_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final9_2_eq_dot (c : Dev nD) (D : DotDims S4096x4096 S4096x512 S4096x512) (hD : Cert.MMLaw.IsPlain D)
    (prec : Option ContractPrecision) :
    (dat9 (F := Ideal) V c).arrAt 2 cfg9.N = Host.dotGeneral (F := Ideal) (φ₁ := .bf16) (φ₂ := .f32) D prec (V c main_v8) (V c main_v57) :=
  final9_2_eq_whole V c D hD prec

end Cert.KernelIdeal.Hand

end
-- ==== Proof.ValKI10a.lean ====
/- Laid out by: python3 scratch/layout_grid41.py --prefix Val --template-region 0 --region 10 --program KernelIdeal --parts a,b --shapes S1024x128=S1024x512,S128x512=S512x512,S1024x512=S1024x512,S4096x128=S4096x512,S4096x512=S4096x512,main_arg0=main_v70,main_v12=main_v10,main_v17=main_v71,h0=h0,e0=e0,hi0=hi0,x0=x0
   from the hand-written text of region 0 (ValKI0a.lean): the same text, the region's number, block shapes, operand arrays substituted. -/
/-
  Region 10 of @main: from the output blocks to the whole output array.

  The grid is [4, 1]: the point t is block row t, and the reduction axis has one step, so every point zeroes the
  accumulator, adds the product of its two input blocks, and writes the sum back. The output window's block at t is
  rows 1024 t … 1024 t + 1023 of the result, written back at every point. So the array after the region is ONE function
  of the index: row 1024 r + p, column q holds entry (p, q) of the block the point r leaves. The steps: the three windows'
  block indices decided once over the grid; what a point writes back is its block of that function; the four blocks
  written back cover the array (row i lies in the block of the point i / 1024); hence the array after the region. The two
  operand arrays are not written. Last, each input block as a block of its operand array: the left operand's block at the
  point t is its rows 1024 t … 1024 t + 1023 (every column), the right operand's block is the whole array at every point.
-/
import proofs.«158944_j64613488001249_1_alg».proof.Proof.RegKI10
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t the left operand's block is (t, 0), the right operand's (0, 0), the output's (t, 0). -/
theorem idxFacts10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0)

/-! ## The block a point leaves -/

/-- The block the point at grid position n leaves: the zero block plus the product of the point's two input blocks
    (past the grid's end, where nothing consults it, the block of position 0). -/
def accOf10 (c : Dev nD) (n : ℕ) : Vec F S1024x512 .f32 :=
  if h : n < cfg10.N then k10_pay2 (iblk10 V c 0 ⟨n, h⟩) (iblk10 V c 1 ⟨n, h⟩) (k10_pay1 (F := F))
  else k10_pay2 (iblk10 V c 0 ⟨0, by have h : cfg10.N = 4 := N_10; omega⟩)
    (iblk10 V c 1 ⟨0, by have h : cfg10.N = 4 := N_10; omega⟩) (k10_pay1 (F := F))

theorem accOf10_eq (c : Dev nD) (t : Fin cfg10.N) :
    accOf10 V c t.val = k10_pay2 (iblk10 V c 0 t) (iblk10 V c 1 t) (k10_pay1 (F := F)) := by
  unfold accOf10; exact dif_pos t.isLt

/-- At every point the output block holds that block. -/
theorem outsAt10_out (c : Dev nD) (t : Fin cfg10.N) : (outsAt10 V c t.val t.isLt).1 = accOf10 V c t.val :=
  (outsAt10_last V c t).trans ((outsAt10_first V c t).trans (accOf10_eq V c t).symm)

/-! ## The output array as one function -/

/-- The whole output array: its row 1024 r + p, column q, is entry (p, q) of the block the point r leaves. -/
def whole10 (c : Dev nD) : S4096x512.Idx → Elt F .f32 := fun i =>
  accOf10 V c ((i 0).val / 1024)
    (ix2 ⟨(i 0).val % 1024, Nat.mod_lt _ (by decide)⟩ ⟨(i 1).val, idx2_lt1 i⟩)

/-- The array read at an index given by a block row r and a position y inside the block. -/
theorem whole10_apply (c : Dev nD) (r : ℕ) (y : S1024x512.Idx) (i : S4096x512.Idx)
    (h0 : (i 0).val = 1024 * r + (y 0).val) (h1 : (i 1).val = (y 1).val) :
    whole10 V c i = accOf10 V c r y := by
  have hy : (y 0).val < 1024 := idx2_lt0 y
  have hr : (i 0).val / 1024 = r := by omega
  have hp : (i 0).val % 1024 = (y 0).val := by omega
  have e : (ix2 ⟨(i 0).val % 1024, Nat.mod_lt _ (by decide)⟩ ⟨(i 1).val, idx2_lt1 i⟩ : S1024x512.Idx) = y :=
    funext fun a => match a with
      | ⟨0, _⟩ => Fin.ext hp
      | ⟨1, _⟩ => Fin.ext h1
  unfold whole10
  rw [hr, e]

/-- Row 1024 r + p, column q of the array is entry (p, q) of the block the point r leaves. -/
theorem whole10_ix2 (c : Dev nD) (r : Fin 4) (p : Fin 1024) (q : Fin (S1024x512.size 1)) :
    whole10 V c (ix2 ⟨1024 * r.val + p.val, by have := r.isLt; have := p.isLt; omega⟩ q)
      = accOf10 V c r.val (ix2 p q) :=
  whole10_apply V c r.val (ix2 p q) _ rfl rfl

/-! ## What a point writes back -/

/-- Every point writes back its block of the whole-array function. -/
theorem flushed10_eq (c : Dev nD) (t : Fin cfg10.N) (hf : (cfg10.win 2).flush t = true) :
    (dat10 V c).flushed 2 t = ((cfg10.win 2).blk t).view.read (Elt F) (whole10 V c) := by
  show (cfg10.win 2).cut (grid10.coords t) ((dat10 V c).after 2 t) = _
  rw [after10_2, outsAt10_out V c t]
  obtain ⟨-, -, -, -, e0, e1⟩ := idxFacts10 t
  funext j
  show accOf10 V c t.val j = whole10 V c (((cfg10.win 2).blk t).view.emb j)
  refine (whole10_apply V c t.val j _ ?_ ?_).symm
  · show win10_2.index t (0 : Fin 2) * 1024 + 1 * (j 0).val = 1024 * t.val + (j 0).val
    rw [e0]; omega
  · show win10_2.index t (1 : Fin 2) * S1024x512.size (1 : Fin 2) + 1 * (j 1).val = (j 1).val
    rw [e1, Nat.zero_mul, Nat.zero_add, Nat.one_mul]

/-! ## The blocks written back cover the array -/

/-- An index is in a point's output block iff each coordinate is in the block's range on its axis. -/
theorem memBlk10 (t : Fin cfg10.N) (i : S4096x512.Idx) :
    i ∈ ((cfg10.win 2).blk t).view.set ↔ ∀ a : Fin 2, win10_2.index t a * S1024x512.size a ≤ (i a).val
      ∧ (i a).val < win10_2.index t a * S1024x512.size a + S1024x512.size a := by
  show i ∈ ((View.whole main_v71).slice (win10_2.rect t)).set ↔ _
  rw [View.set_slice_whole, Rect.mem_set_unit]
  exact Iff.rfl

/-- Row i of the array lies in the block written back at the point i / 1024. -/
theorem covered10 (i : S4096x512.Idx) :
    ∃ t : Fin cfg10.N, (cfg10.win 2).flush t = true ∧ i ∈ ((cfg10.win 2).blk t).view.set := by
  have hi0 : (i 0).val < 4096 := idx2_lt0 i
  have hi1 : (i 1).val < S1024x512.size (1 : Fin 2) := idx2_lt1 i
  have hN : cfg10.N = 4 := N_10
  obtain ⟨t, ht⟩ : ∃ t : Fin cfg10.N, t.val = (i 0).val / 1024 :=
    ⟨⟨(i 0).val / 1024, by rw [hN]; omega⟩, rfl⟩
  refine ⟨t, flush10_2 t, ?_⟩
  rw [memBlk10]
  obtain ⟨-, -, -, -, e0, e1⟩ := idxFacts10 t
  intro a
  match a with
  | ⟨0, _⟩ =>
    show win10_2.index t (0 : Fin 2) * 1024 ≤ (i 0).val ∧ (i 0).val < win10_2.index t (0 : Fin 2) * 1024 + 1024
    rw [e0]; omega
  | ⟨1, _⟩ =>
    show win10_2.index t (1 : Fin 2) * S1024x512.size (1 : Fin 2) ≤ (i 1).val
      ∧ (i 1).val < win10_2.index t (1 : Fin 2) * S1024x512.size (1 : Fin 2) + S1024x512.size (1 : Fin 2)
    rw [e1, Nat.zero_mul, Nat.zero_add]
    exact ⟨Nat.zero_le _, hi1⟩

/-! ## The three arrays after the region -/

/-- The output array after the region is the whole-array function. -/
theorem final10_2 (c : Dev nD) : (dat10 V c).arrAt 2 cfg10.N = whole10 V c :=
  (dat10 V c).arrAt_eq_of_cover 2 (whole10 V c) (flushed10_eq V c) covered10

/-- The two input arrays are as the region found them. -/
theorem final10_0 (c : Dev nD) : (dat10 V c).arrAt 0 cfg10.N = V c main_v70 :=
  ((dat10 V c).arrAt_in 0 rfl cfg10.N).trans (A_eq10 V c 0)
theorem final10_1 (c : Dev nD) : (dat10 V c).arrAt 1 cfg10.N = V c main_v10 :=
  ((dat10 V c).arrAt_in 1 rfl cfg10.N).trans (A_eq10 V c 1)

/-! ## The input blocks as blocks of the operand arrays -/

/-- The left operand's block at the point t: entry (y₀, y₁) is the array's entry (1024 t + y₀, y₁). -/
theorem iblk10_lhs_apply (c : Dev nD) (t : Fin cfg10.N) (y : S1024x512.Idx) (i : S4096x512.Idx)
    (h0 : (i 0).val = 1024 * t.val + (y 0).val) (h1 : (i 1).val = (y 1).val) :
    iblk10 V c 0 t y = (V c main_v70 : S4096x512.Idx → Elt F .f32) i := by
  obtain ⟨e0, e1, -, -, -, -⟩ := idxFacts10 t
  unfold iblk10
  rw [View.read_apply]
  show V c main_v70 (((cfg10.win 0).blk t).view.emb y) = V c main_v70 i
  congr 1
  funext a
  apply Fin.ext
  match a with
  | ⟨0, _⟩ =>
    show win10_0.index t (0 : Fin 2) * 1024 + 1 * (y 0).val = (i 0).val
    rw [e0, h0]; omega
  | ⟨1, _⟩ =>
    show win10_0.index t (1 : Fin 2) * S1024x512.size (1 : Fin 2) + 1 * (y 1).val = (i 1).val
    rw [e1, h1, Nat.zero_mul, Nat.zero_add, Nat.one_mul]

/-- The right operand's block is the whole array at every point. -/
theorem iblk10_rhs_eq (c : Dev nD) (t : Fin cfg10.N) :
    iblk10 V c 1 t = (V c main_v10 : S512x512.Idx → Elt F .bf16) := by
  obtain ⟨-, -, e0, e1, -, -⟩ := idxFacts10 t
  funext y
  unfold iblk10
  rw [View.read_apply]
  show V c main_v10 (((cfg10.win 1).blk t).view.emb y) = V c main_v10 y
  congr 1
  funext a
  apply Fin.ext
  match a with
  | ⟨0, _⟩ =>
    show win10_1.index t (0 : Fin 2) * S512x512.size (0 : Fin 2) + 1 * (y 0).val = (y 0).val
    rw [e0, Nat.zero_mul, Nat.zero_add, Nat.one_mul]
  | ⟨1, _⟩ =>
    show win10_1.index t (1 : Fin 2) * S512x512.size (1 : Fin 2) + 1 * (y 1).val = (y 1).val
    rw [e1, Nat.zero_mul, Nat.zero_add, Nat.one_mul]

end Cert.KernelIdeal.Hand

end
-- ==== Proof.ValKI10b.lean ====
/- Laid out by: python3 scratch/layout_grid41.py --prefix Val --template-region 0 --region 10 --program KernelIdeal --parts a,b --shapes S1024x128=S1024x512,S128x512=S512x512,S1024x512=S1024x512,S4096x128=S4096x512,S4096x512=S4096x512,main_arg0=main_v70,main_v12=main_v10,main_v17=main_v71,h0=h0,e0=e0,hi0=hi0,x0=x0
   from the hand-written text of region 0 (ValKI0b.lean): the same text, the region's number, block shapes, operand arrays substituted. -/
/-
  Region 10 of @main at the extended reals: the output array after the region is the product of the two operand arrays.

  A change of float format is the identity at these values and a reshape to the same shape is the identity, so the
  kernel's one accumulation step is "accumulator plus the product of the two blocks into the zero block", and the
  accumulator starts from the zero block. The block the point r leaves is then zero plus the product of rows
  1024 r … 1024 r + 1023 of the left operand with the whole right operand, which is the same rows of the whole product:
  the contraction axis is not cut, so the sums are the same term by term. Read through the whole-array function of the
  blocks-to-array module, entry (1024 r + p, q) of the output array is that entry of the product.
-/
import proofs.«158944_j64613488001249_1_alg».proof.Proof.ValKI10a
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The accumulation step, and its start, at the extended reals -/

/-- A change of format and a reshape to the same shape are the identity: the step adds the product of the two blocks
    (into the zero block) to the accumulator. -/
theorem accOf10_step (x0 : Vec Ideal S1024x512 .f32) (x1 : Vec Ideal S512x512 .bf16) (acc : Vec Ideal S1024x512 .f32) :
    k10_pay2 (F := Ideal) x0 x1 acc
      = Cert.MMLaw.accStep dot_S1024x512_S512x512_S1024x512_1_0_0_1_n_n none x0 x1 acc := by
  unfold k10_pay2
  simp only [shapeCast_self]
  rfl

/-- The accumulator starts from the zero block. -/
theorem accOf10_init (j : S1024x512.Idx) : k10_pay1 (F := Ideal) j = 0 := by
  unfold k10_pay1
  rw [shapeCast_self]
  exact Ideal.ofBits_zero_f32

/-! ## The block a point leaves is a block of the whole product -/

/-- The block the point r leaves is rows 1024 r … 1024 r + 1023 of the product of the two operand arrays. -/
theorem accOf10_eq_blk (c : Dev nD) (r : Fin 4) (D : DotDims S4096x512 S512x512 S4096x512) (hD : Cert.MMLaw.IsPlain D)
    (prec : Option ContractPrecision) :
    accOf10 V c r.val
      = Cert.MMLaw.rowBlk (Cert.MMLaw.whole D prec (V c main_v70) (V c main_v10)) r := by
  have hN : cfg10.N = 4 := N_10
  have hr : r.val < cfg10.N := by rw [hN]; exact r.isLt
  rw [accOf10_eq V c ⟨r.val, hr⟩, accOf10_step]
  exact Cert.MMLaw.law41 dot_S1024x512_S512x512_S1024x512_1_0_0_1_n_n ⟨rfl, rfl, rfl, rfl, rfl, rfl⟩ D hD none prec
    (V c main_v70) (V c main_v10) r (iblk10 V c 0 ⟨r.val, hr⟩) (iblk10 V c 1 ⟨r.val, hr⟩)
    (funext fun y => iblk10_lhs_apply V c ⟨r.val, hr⟩ y _ rfl rfl) (iblk10_rhs_eq V c ⟨r.val, hr⟩)
    (k10_pay1 (F := Ideal)) accOf10_init

/-! ## The output array after the region is the whole product -/

/-- The region leaves in its output array the product of its two operand arrays. -/
theorem final10_2_eq_whole (c : Dev nD) (D : DotDims S4096x512 S512x512 S4096x512) (hD : Cert.MMLaw.IsPlain D)
    (prec : Option ContractPrecision) :
    (dat10 (F := Ideal) V c).arrAt 2 cfg10.N = Cert.MMLaw.whole D prec (V c main_v70) (V c main_v10) := by
  rw [final10_2]
  funext i
  have hi0 : (i 0).val < 4096 := idx2_lt0 i
  have h := congrFun (accOf10_eq_blk V c ⟨(i 0).val / 1024, by omega⟩ D hD prec)
    (ix2 ⟨(i 0).val % 1024, Nat.mod_lt _ (by decide)⟩ ⟨(i 1).val, idx2_lt1 i⟩)
  rw [Cert.MMLaw.rowBlk_apply] at h
  refine Eq.trans h (congrArg _ ?_)
  funext a
  match a with
  | ⟨0, _⟩ => exact Fin.ext (by show 1024 * ((i 0).val / 1024) + (i 0).val % 1024 = (i 0).val; omega)
  | ⟨1, _⟩ => rfl

/-- The same with the operands at the formats they are stored in. -/
theorem final10_2_eq_dot (c : Dev nD) (D : DotDims S4096x512 S512x512 S4096x512) (hD : Cert.MMLaw.IsPlain D)
    (prec : Option ContractPrecision) :
    (dat10 (F := Ideal) V c).arrAt 2 cfg10.N
      = Host.dotGeneral (F := Ideal) (φ₁ := .f32) (φ₂ := .bf16) D prec (V c main_v70) (V c main_v10) :=
  final10_2_eq_whole V c D hD prec

end Cert.KernelIdeal.Hand

end
-- ==== Proof.ValKI11a.lean ====
/- Laid out by: python3 scratch/layout_regions.py --template-region 1 --region 11 --program KernelIdeal --prefix Val --parts a,b,c --sim main_v9=main_v7,main_v25=main_v71,main_v26=main_v72 --out-dir proof/Proof
   from the hand-written text of region 1 (ValKI1a.lean): the same text, the region's number substituted. -/
/-
  Region 11 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k11_pay1` (the zero block) and `k11_pay2` (accumulator plus product) are the two stores' payloads.

  So along one row of blocks r the accumulator after its step k is the left fold
    accOf11 r 0 = pay2 (a (r, 0)) (b 0) pay1,    accOf11 r (k + 1) = pay2 (a (r, k + 1)) (b (k + 1)) (accOf11 r k),
  the grid point (r, k) being position 4 r + k; and at k = 3 the output block holds accOf11 r 3.
-/
import proofs.«158944_j64613488001249_1_alg».proof.Proof.RegKI11
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout11_A_eq (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond11_0 i) (hc1 : ¬cond11_1 i)
    (x0 : Vec F S1024x1024 .bf16) (x1 : Vec F S1024x512 .f32) :
    sout11_A c i arg2 harg2 arg3 harg3 arg4 harg4 arg5 harg5 hc0 hc1 x0 x1 = k11_pay2 x0 x1 (k11_pay1 (F := F)) := by
  have hz : (![0, 0] : Fin 2 → Nat) = fun _ => 0 := funext fun a => by fin_cases a <;> rfl
  unfold sout11_A
  rw [View.read_writes_eq_canon _ _ _ (scover11_A c i arg2 harg2 arg3 harg3 arg4 harg4 arg5 harg5 hc0 hc1 x0 x1)]
  unfold kernelRun11_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout11_B_eq (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond11_0 i) (hc1 : ¬cond11_1 i)
    (x0 : Vec F S1024x1024 .bf16) (x1 : Vec F S1024x512 .f32) (xs0 : Vec F S1024x512 .f32) :
    sout11_B c i arg2 harg2 arg3 harg3 arg4 harg4 arg5 harg5 hc0 hc1 x0 x1 xs0 = k11_pay2 x0 x1 xs0 := by
  have hz : (![0, 0] : Fin 2 → Nat) = fun _ => 0 := funext fun a => by fin_cases a <;> rfl
  unfold sout11_B
  rw [View.read_writes_eq_canon _ _ _ (scover11_B c i arg2 harg2 arg3 harg3 arg4 harg4 arg5 harg5 hc0 hc1 x0 x1 xs0)]
  unfold kernelRun11_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout11_C_eq (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond11_0 i) (hc1 : cond11_1 i)
    (x0 : Vec F S1024x1024 .bf16) (x1 : Vec F S1024x512 .f32) (xs0 : Vec F S1024x512 .f32) :
    sout11_C c i arg2 harg2 arg3 harg3 arg4 harg4 arg5 harg5 hc0 hc1 x0 x1 xs0 = k11_pay2 x0 x1 xs0 := by
  have hz : (![0, 0] : Fin 2 → Nat) = fun _ => 0 := funext fun a => by fin_cases a <;> rfl
  unfold sout11_C
  rw [View.read_writes_eq_canon _ _ _ (scover11_C c i arg2 harg2 arg3 harg3 arg4 harg4 arg5 harg5 hc0 hc1 x0 x1 xs0)]
  unfold kernelRun11_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out11_C_eq (c : Dev nD) (i : grid11.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond11_0 i) (hc1 : cond11_1 i)
    (x0 : Vec F S1024x1024 .bf16) (x1 : Vec F S1024x512 .f32) (xs0 : Vec F S1024x512 .f32) :
    out11_C c i arg2 harg2 arg3 harg3 arg4 harg4 arg5 harg5 hc0 hc1 x0 x1 xs0 = k11_pay2 x0 x1 xs0 := by
  have hz : (![0, 0] : Fin 2 → Nat) = fun _ => 0 := funext fun a => by fin_cases a <;> rfl
  unfold out11_C
  rw [View.read_writes_eq_canon _ _ _ (cover11_C c i arg2 harg2 arg3 harg3 arg4 harg4 arg5 harg5 hc0 hc1 x0 x1 xs0)]
  unfold kernelRun11_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk11_lhs (c : Dev nD) (n : ℕ) : Vec F S1024x1024 .bf16 :=
  if h : n < cfg11.N then iblk11 V c 0 ⟨n, h⟩ else iblk11 V c 0 ⟨0, by have h : cfg11.N = 16 := N_11; omega⟩
/-- The right factor's block at grid position `n`. -/
def iblk11_rhs (c : Dev nD) (n : ℕ) : Vec F S1024x512 .f32 :=
  if h : n < cfg11.N then iblk11 V c 1 ⟨n, h⟩ else iblk11 V c 1 ⟨0, by have h : cfg11.N = 16 := N_11; omega⟩

theorem iblk11_lhs_eq (c : Dev nD) (n : ℕ) (h : n < cfg11.N) : iblk11_lhs V c n = iblk11 V c 0 ⟨n, h⟩ := dif_pos h
theorem iblk11_rhs_eq (c : Dev nD) (n : ℕ) (h : n < cfg11.N) : iblk11_rhs V c n = iblk11 V c 1 ⟨n, h⟩ := dif_pos h

/-! ## The accumulator along one row of blocks -/

/-- Row of blocks `r`, after its step `k`: the zero block plus the products of the blocks at positions 4 r, …, 4 r + k,
    added in that order. -/
def accOf11 (c : Dev nD) (r : ℕ) : ℕ → Vec F S1024x512 .f32
  | 0 => k11_pay2 (iblk11_lhs V c (4 * r)) (iblk11_rhs V c (4 * r)) (k11_pay1 (F := F))
  | k + 1 => k11_pay2 (iblk11_lhs V c (4 * r + (k + 1))) (iblk11_rhs V c (4 * r + (k + 1))) (accOf11 c r k)

theorem accOf11_zero (c : Dev nD) (r : ℕ) :
    accOf11 V c r 0 = k11_pay2 (iblk11_lhs V c (4 * r)) (iblk11_rhs V c (4 * r)) (k11_pay1 (F := F)) := rfl
theorem accOf11_succ (c : Dev nD) (r k : ℕ) :
    accOf11 V c r (k + 1) = k11_pay2 (iblk11_lhs V c (4 * r + (k + 1))) (iblk11_rhs V c (4 * r + (k + 1))) (accOf11 V c r k) := rfl

theorem iblk11_lhs_at (c : Dev nD) (t : Fin cfg11.N) (n : ℕ) (hn : n = t.val) : iblk11_lhs V c n = iblk11 V c 0 t := by
  subst hn; unfold iblk11_lhs; exact dif_pos t.isLt
theorem iblk11_rhs_at (c : Dev nD) (t : Fin cfg11.N) (n : ℕ) (hn : n = t.val) : iblk11_rhs V c n = iblk11 V c 1 t := by
  subst hn; unfold iblk11_rhs; exact dif_pos t.isLt

/-- At a grid point with k = 0 the fold starts: the zero block plus the product of the point's two blocks. -/
theorem accOf11_first (c : Dev nD) (t : Fin cfg11.N) (h0 : t.val % 4 = 0) :
    accOf11 V c (t.val / 4) (t.val % 4) = k11_pay2 (iblk11 V c 0 t) (iblk11 V c 1 t) (k11_pay1 (F := F)) := by
  rw [h0, accOf11_zero, iblk11_lhs_at V c t (4 * (t.val / 4)) (by omega), iblk11_rhs_at V c t (4 * (t.val / 4)) (by omega)]

/-- At a grid point with k ≠ 0 the fold takes one step from the position before, which is in the same row of blocks. -/
theorem accOf11_next (c : Dev nD) (t : Fin cfg11.N) (h0 : ¬t.val % 4 = 0) :
    accOf11 V c (t.val / 4) (t.val % 4)
      = k11_pay2 (iblk11 V c 0 t) (iblk11 V c 1 t) (accOf11 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf11_succ, iblk11_lhs_at V c t (4 * (t.val / 4) + (k + 1)) (by omega),
    iblk11_rhs_at V c t (4 * (t.val / 4) + (k + 1)) (by omega)]

/-! ## The accumulator and the output block, point by point, as pure functions of the blocks -/

/-- k = 0: the accumulator restarts from the zero block. -/
theorem outsAt11_first (c : Dev nD) (t : Fin cfg11.N) (h0 : t.val % 4 = 0) :
    (outsAt11 V c t.val t.isLt).2 = k11_pay2 (iblk11 V c 0 t) (iblk11 V c 1 t) (k11_pay1 (F := F)) := by
  rw [outsAt11_A V c t h0]
  dsimp only
  exact sout11_A_eq c (grid11.coords t) (ms11_0 t) (hs11_0 t) (ms11_1 t) (hs11_1 t) (ms11_2 t) (hs11_2 t) scM11 (Memref.isWhole_whole _) (isFirst11 t h0) (notLast11 t (by omega)) (iblk11 V c 0 t) (iblk11 V c 1 t)

/-- k ≠ 0: the point's product is added to what the point before left. -/
theorem outsAt11_next (c : Dev nD) (t : Fin cfg11.N) (h0 : ¬t.val % 4 = 0) :
    (outsAt11 V c t.val t.isLt).2
      = k11_pay2 (iblk11 V c 0 t) (iblk11 V c 1 t) (outsAt11 V c (t.val - 1) (Nat.lt_of_le_of_lt (Nat.sub_le _ _) t.isLt)).2 := by
  by_cases h3 : t.val % 4 = 3
  · rw [outsAt11_C V c t h0 h3]
    dsimp only
    exact sout11_C_eq c (grid11.coords t) (ms11_0 t) (hs11_0 t) (ms11_1 t) (hs11_1 t) (ms11_2 t) (hs11_2 t) scM11 (Memref.isWhole_whole _) (notFirst11 t h0) (isLast11 t h3) (iblk11 V c 0 t) (iblk11 V c 1 t)
      (outsAt11 V c (t.val - 1) (Nat.lt_of_le_of_lt (Nat.sub_le _ _) t.isLt)).2
  · rw [outsAt11_B V c t h0 h3]
    dsimp only
    exact sout11_B_eq c (grid11.coords t) (ms11_0 t) (hs11_0 t) (ms11_1 t) (hs11_1 t) (ms11_2 t) (hs11_2 t) scM11 (Memref.isWhole_whole _) (notFirst11 t h0) (notLast11 t h3) (iblk11 V c 0 t) (iblk11 V c 1 t)
      (outsAt11 V c (t.val - 1) (Nat.lt_of_le_of_lt (Nat.sub_le _ _) t.isLt)).2

/-- k = 3: the output block is the accumulator. -/
theorem outsAt11_last (c : Dev nD) (t : Fin cfg11.N) (h3 : t.val % 4 = 3) :
    (outsAt11 V c t.val t.isLt).1 = (outsAt11 V c t.val t.isLt).2 := by
  have h0 : ¬t.val % 4 = 0 := by omega
  rw [outsAt11_C V c t h0 h3]
  dsimp only
  exact (out11_C_eq c (grid11.coords t) (ms11_0 t) (hs11_0 t) (ms11_1 t) (hs11_1 t) (ms11_2 t) (hs11_2 t) scM11 (Memref.isWhole_whole _) (notFirst11 t h0) (isLast11 t h3) (iblk11 V c 0 t) (iblk11 V c 1 t)
      (outsAt11 V c (t.val - 1) (Nat.lt_of_le_of_lt (Nat.sub_le _ _) t.isLt)).2).trans
    (sout11_C_eq c (grid11.coords t) (ms11_0 t) (hs11_0 t) (ms11_1 t) (hs11_1 t) (ms11_2 t) (hs11_2 t) scM11 (Memref.isWhole_whole _) (notFirst11 t h0) (isLast11 t h3) (iblk11 V c 0 t) (iblk11 V c 1 t)
      (outsAt11 V c (t.val - 1) (Nat.lt_of_le_of_lt (Nat.sub_le _ _) t.isLt)).2).symm

/-! ## The accumulator is the fold -/

/-- After position `n` the accumulator holds row `n / 4`'s fold after its step `n % 4`: by induction on the position. -/
theorem outsAt11_acc_pos (c : Dev nD) :
    ∀ (n : ℕ) (hn : n < cfg11.N), (outsAt11 V c n hn).2 = accOf11 V c (n / 4) (n % 4) := by
  intro n
  induction n with
  | zero =>
    intro hn
    exact (outsAt11_first V c ⟨0, hn⟩ (Nat.zero_mod 4)).trans (accOf11_first V c ⟨0, hn⟩ (Nat.zero_mod 4)).symm
  | succ n ih =>
    intro hn
    by_cases h0 : (n + 1) % 4 = 0
    · exact (outsAt11_first V c ⟨n + 1, hn⟩ h0).trans (accOf11_first V c ⟨n + 1, hn⟩ h0).symm
    · refine (outsAt11_next V c ⟨n + 1, hn⟩ h0).trans (Eq.trans ?_ (accOf11_next V c ⟨n + 1, hn⟩ h0).symm)
      exact congrArg (k11_pay2 (iblk11 V c 0 ⟨n + 1, hn⟩) (iblk11 V c 1 ⟨n + 1, hn⟩)) (ih (Nat.lt_of_succ_lt hn))

/-- At every grid point the accumulator holds its row's fold after the point's step. -/
theorem outsAt11_acc (c : Dev nD) (t : Fin cfg11.N) :
    (outsAt11 V c t.val t.isLt).2 = accOf11 V c (t.val / 4) (t.val % 4) :=
  outsAt11_acc_pos V c t.val t.isLt

/-- At a row's last point the output block holds the row's whole fold. -/
theorem outsAt11_out (c : Dev nD) (t : Fin cfg11.N) (h3 : t.val % 4 = 3) :
    (outsAt11 V c t.val t.isLt).1 = accOf11 V c (t.val / 4) 3 := by
  have e := outsAt11_acc V c t
  rw [h3] at e
  exact (outsAt11_last V c t h3).trans e

end Cert.KernelIdeal.Hand

end
-- ==== Proof.ValKI11b.lean ====
/- Laid out by: python3 scratch/layout_regions.py --template-region 1 --region 11 --program KernelIdeal --prefix Val --parts a,b,c --sim main_v9=main_v7,main_v25=main_v71,main_v26=main_v72 --out-dir proof/Proof
   from the hand-written text of region 1 (ValKI1b.lean): the same text, the region's number substituted. -/
/-
  Region 11 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI11a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts11 : ∀ t : Fin cfg11.N,
    win11_0.index t (0 : Fin 2) = t.val / 4 ∧ win11_0.index t (1 : Fin 2) = t.val % 4
    ∧ win11_1.index t (0 : Fin 2) = t.val % 4 ∧ win11_1.index t (1 : Fin 2) = 0
    ∧ win11_2.index t (0 : Fin 2) = t.val / 4 ∧ win11_2.index t (1 : Fin 2) = 0 :=
  (by decide +kernel : ∀ t : Fin grid11.N,
    win11_0.index t (0 : Fin 2) = t.val / 4 ∧ win11_0.index t (1 : Fin 2) = t.val % 4
    ∧ win11_1.index t (0 : Fin 2) = t.val % 4 ∧ win11_1.index t (1 : Fin 2) = 0
    ∧ win11_2.index t (0 : Fin 2) = t.val / 4 ∧ win11_2.index t (1 : Fin 2) = 0)

/-! ## The output array as one function -/

/-- The whole output array: its row 1024 r + p, column q, is entry (p, q) of the block accumulated over k = 0 … 3 in
    block row r. -/
def whole11 (c : Dev nD) : S4096x512.Idx → Elt F .f32 := fun i =>
  accOf11 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole11_apply (c : Dev nD) (r : ℕ) (y : S1024x512.Idx) (i : S4096x512.Idx)
    (h0 : (i 0).val = 1024 * r + (y 0).val) (h1 : (i 1).val = (y 1).val) :
    whole11 V c i = accOf11 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole11
  rw [hr, e]

/-- Row 1024 r + p, column q of the array is entry (p, q) of block row r's accumulated block. -/
theorem whole11_ix2 (c : Dev nD) (r : Fin 4) (p : Fin 1024) (q : Fin 512) :
    whole11 V c (ix2 (n0 := 4096) (n1 := 512) ⟨1024 * r.val + p.val, by have := r.isLt; have := p.isLt; omega⟩ q)
      = accOf11 V c r.val 3 (ix2 p q) :=
  whole11_apply V c r.val (ix2 p q) _ rfl rfl

/-! ## What a point writes back -/

/-- A point with k = 3 writes back its block of the whole-array function. -/
theorem flushed11_eq (c : Dev nD) (t : Fin cfg11.N) (hf : (cfg11.win 2).flush t = true) :
    (dat11 V c).flushed 2 t = ((cfg11.win 2).blk t).view.read (Elt F) (whole11 V c) := by
  have h3 : t.val % 4 = 3 := (flush11_2 t).mp hf
  show (cfg11.win 2).cut (grid11.coords t) ((dat11 V c).after 2 t) = _
  rw [after11_2, outsAt11_out V c t h3]
  obtain ⟨-, -, -, -, e0, e1⟩ := idxFacts11 t
  funext j
  show accOf11 V c (t.val / 4) 3 j = whole11 V c (((cfg11.win 2).blk t).view.emb j)
  refine (whole11_apply V c (t.val / 4) j _ ?_ ?_).symm
  · show win11_2.index t (0 : Fin 2) * 1024 + 1 * (j 0).val = 1024 * (t.val / 4) + (j 0).val
    rw [e0]; omega
  · show win11_2.index t (1 : Fin 2) * 512 + 1 * (j 1).val = (j 1).val
    rw [e1]; omega

/-! ## The blocks written back cover the array -/

/-- An index is in a point's output block iff each coordinate is in the block's range on its axis. -/
theorem memBlk11 (t : Fin cfg11.N) (i : S4096x512.Idx) :
    i ∈ ((cfg11.win 2).blk t).view.set ↔ ∀ a : Fin 2, win11_2.index t a * S1024x512.size a ≤ (i a).val
      ∧ (i a).val < win11_2.index t a * S1024x512.size a + S1024x512.size a := by
  show i ∈ ((View.whole main_v72).slice (win11_2.rect t)).set ↔ _
  rw [View.set_slice_whole, Rect.mem_set_unit]
  exact Iff.rfl

/-- Row i of the array lies in the block written back at the point (i / 1024, 3). -/
theorem covered11 (i : S4096x512.Idx) :
    ∃ t : Fin cfg11.N, (cfg11.win 2).flush t = true ∧ i ∈ ((cfg11.win 2).blk t).view.set := by
  have hi0 : (i 0).val < 4096 := idx2_lt0 i
  have hi1 : (i 1).val < 512 := idx2_lt1 i
  have hN : cfg11.N = 16 := N_11
  obtain ⟨t, ht⟩ : ∃ t : Fin cfg11.N, t.val = 4 * ((i 0).val / 1024) + 3 :=
    ⟨⟨4 * ((i 0).val / 1024) + 3, by rw [hN]; omega⟩, rfl⟩
  refine ⟨t, (flush11_2 t).mpr (by omega), ?_⟩
  rw [memBlk11]
  obtain ⟨-, -, -, -, e0, e1⟩ := idxFacts11 t
  intro a
  match a with
  | ⟨0, _⟩ =>
    show win11_2.index t (0 : Fin 2) * 1024 ≤ (i 0).val ∧ (i 0).val < win11_2.index t (0 : Fin 2) * 1024 + 1024
    rw [e0]; omega
  | ⟨1, _⟩ =>
    show win11_2.index t (1 : Fin 2) * 512 ≤ (i 1).val ∧ (i 1).val < win11_2.index t (1 : Fin 2) * 512 + 512
    rw [e1]; omega

/-! ## The three arrays after the region -/

/-- The output array after the region is the whole-array function. -/
theorem final11_2 (c : Dev nD) : (dat11 V c).arrAt 2 cfg11.N = whole11 V c :=
  (dat11 V c).arrAt_eq_of_cover 2 (whole11 V c) (flushed11_eq V c) covered11

/-- The two input arrays are as the region found them. -/
theorem final11_0 (c : Dev nD) : (dat11 V c).arrAt 0 cfg11.N = V c main_v7 :=
  ((dat11 V c).arrAt_in 0 rfl cfg11.N).trans (A_eq11 V c 0)
theorem final11_1 (c : Dev nD) : (dat11 V c).arrAt 1 cfg11.N = V c main_v71 :=
  ((dat11 V c).arrAt_in 1 rfl cfg11.N).trans (A_eq11 V c 1)

/-! ## The input blocks as blocks of the operand arrays -/

/-- The left operand's block at the point (r, k): entry (y₀, y₁) is the array's entry (1024 r + y₀, 1024 k + y₁). -/
theorem iblk11_lhs_apply (c : Dev nD) (r k : Fin 4) (y : S1024x1024.Idx) (i : S4096x4096.Idx)
    (h0 : (i 0).val = 1024 * r.val + (y 0).val) (h1 : (i 1).val = 1024 * k.val + (y 1).val) :
    iblk11_lhs V c (4 * r.val + k.val) y = (V c main_v7 : S4096x4096.Idx → Elt F .bf16) i := by
  have hN : cfg11.N = 16 := N_11
  have hr := r.isLt
  have hk := k.isLt
  have hlt : 4 * r.val + k.val < cfg11.N := by rw [hN]; omega
  rw [iblk11_lhs_eq V c _ hlt]
  obtain ⟨e0, e1, -, -, -, -⟩ := idxFacts11 ⟨4 * r.val + k.val, hlt⟩
  have e0' : win11_0.index ⟨4 * r.val + k.val, hlt⟩ (0 : Fin 2) = (4 * r.val + k.val) / 4 := e0
  have e1' : win11_0.index ⟨4 * r.val + k.val, hlt⟩ (1 : Fin 2) = (4 * r.val + k.val) % 4 := e1
  unfold iblk11
  rw [View.read_apply]
  show V c main_v7 (((cfg11.win 0).blk ⟨4 * r.val + k.val, hlt⟩).view.emb y) = V c main_v7 i
  congr 1
  funext a
  apply Fin.ext
  match a with
  | ⟨0, _⟩ =>
    show win11_0.index ⟨4 * r.val + k.val, hlt⟩ (0 : Fin 2) * 1024 + 1 * (y 0).val = (i 0).val
    rw [e0', h0]; omega
  | ⟨1, _⟩ =>
    show win11_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk11_rhs_apply (c : Dev nD) (r k : Fin 4) (y : S1024x512.Idx) (i : S4096x512.Idx)
    (h0 : (i 0).val = 1024 * k.val + (y 0).val) (h1 : (i 1).val = (y 1).val) :
    iblk11_rhs V c (4 * r.val + k.val) y = (V c main_v71 : S4096x512.Idx → Elt F .f32) i := by
  have hN : cfg11.N = 16 := N_11
  have hr := r.isLt
  have hk := k.isLt
  have hlt : 4 * r.val + k.val < cfg11.N := by rw [hN]; omega
  rw [iblk11_rhs_eq V c _ hlt]
  obtain ⟨-, -, e0, e1, -, -⟩ := idxFacts11 ⟨4 * r.val + k.val, hlt⟩
  have e0' : win11_1.index ⟨4 * r.val + k.val, hlt⟩ (0 : Fin 2) = (4 * r.val + k.val) % 4 := e0
  have e1' : win11_1.index ⟨4 * r.val + k.val, hlt⟩ (1 : Fin 2) = 0 := e1
  unfold iblk11
  rw [View.read_apply]
  show V c main_v71 (((cfg11.win 1).blk ⟨4 * r.val + k.val, hlt⟩).view.emb y) = V c main_v71 i
  congr 1
  funext a
  apply Fin.ext
  match a with
  | ⟨0, _⟩ =>
    show win11_1.index ⟨4 * r.val + k.val, hlt⟩ (0 : Fin 2) * 1024 + 1 * (y 0).val = (i 0).val
    rw [e0', h0]; omega
  | ⟨1, _⟩ =>
    show win11_1.index ⟨4 * r.val + k.val, hlt⟩ (1 : Fin 2) * 512 + 1 * (y 1).val = (i 1).val
    rw [e1', h1]; omega

/-- The accumulated block after the fourth step, unfolded: four steps from the zero block. -/
theorem accOf11_three (c : Dev nD) (r : ℕ) :
    accOf11 V c r 3
      = k11_pay2 (iblk11_lhs V c (4 * r + 3)) (iblk11_rhs V c (4 * r + 3))
          (k11_pay2 (iblk11_lhs V c (4 * r + 2)) (iblk11_rhs V c (4 * r + 2))
            (k11_pay2 (iblk11_lhs V c (4 * r + 1)) (iblk11_rhs V c (4 * r + 1))
              (k11_pay2 (iblk11_lhs V c (4 * r)) (iblk11_rhs V c (4 * r)) (k11_pay1 (F := F))))) := rfl

end Cert.KernelIdeal.Hand

end
-- ==== Proof.ValKI11c.lean ====
/- Laid out by: python3 scratch/layout_regions.py --template-region 1 --region 11 --program KernelIdeal --prefix Val --parts a,b,c --sim main_v9=main_v7,main_v25=main_v71,main_v26=main_v72 --out-dir proof/Proof
   from the hand-written text of region 1 (ValKI1c.lean): the same text, the region's number substituted. -/
/-
  Region 11 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI11b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf11_step (x0 : Vec Ideal S1024x1024 .bf16) (x1 acc : Vec Ideal S1024x512 .f32) :
    k11_pay2 (F := Ideal) x0 x1 acc
      = Cert.MMLaw.accStep dot_S1024x1024_S1024x512_S1024x512_1_0_0_1_n_n none x0 x1 acc := by
  unfold k11_pay2
  simp only [shapeCast_self]
  rfl

/-- The accumulator starts from the zero block. -/
theorem accOf11_init (j : S1024x512.Idx) : k11_pay1 (F := Ideal) j = 0 := by
  unfold k11_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf11_eq_blk (c : Dev nD) (r : Fin 4) (D : DotDims S4096x4096 S4096x512 S4096x512) (hD : Cert.MMLaw.IsPlain D)
    (prec : Option ContractPrecision) :
    accOf11 V c r.val 3
      = Cert.MMLaw.blk (nr := 4) (nc := 1) 1024 512 rfl rfl (Cert.MMLaw.whole D prec (V c main_v7) (V c main_v71)) r 0 := by
  rw [accOf11_three]
  simp only [accOf11_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v7) (V c main_v71) r 0
    (fun k => iblk11_lhs V c (4 * r.val + k.val)) (fun k => iblk11_rhs V c (4 * r.val + k.val))
    (fun k => funext fun y => iblk11_lhs_apply V c r k y _ rfl rfl)
    (fun k => funext fun y => iblk11_rhs_apply V c r k y _ rfl (by show 512 * 0 + (y 1).val = (y 1).val; omega))
    (k11_pay1 (F := Ideal)) accOf11_init

/-! ## The output array after the region is the whole product -/

/-- The region leaves in its output array the product of its two operand arrays. -/
theorem final11_2_eq_whole (c : Dev nD) (D : DotDims S4096x4096 S4096x512 S4096x512) (hD : Cert.MMLaw.IsPlain D)
    (prec : Option ContractPrecision) :
    (dat11 (F := Ideal) V c).arrAt 2 cfg11.N = Cert.MMLaw.whole D prec (V c main_v7) (V c main_v71) := by
  rw [final11_2]
  funext i
  have hi0 : (i 0).val < 4096 := idx2_lt0 i
  have h := congrFun (accOf11_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final11_2_eq_dot (c : Dev nD) (D : DotDims S4096x4096 S4096x512 S4096x512) (hD : Cert.MMLaw.IsPlain D)
    (prec : Option ContractPrecision) :
    (dat11 (F := Ideal) V c).arrAt 2 cfg11.N = Host.dotGeneral (F := Ideal) (φ₁ := .bf16) (φ₂ := .f32) D prec (V c main_v7) (V c main_v71) :=
  final11_2_eq_whole V c D hD prec

end Cert.KernelIdeal.Hand

end
-- ==== Proof.ValKI12a.lean ====
/- Laid out by: python3 scratch/layout_regions.py --template-region 1 --region 12 --program KernelIdeal --prefix Val --parts a,b,c --sim main_v9=main_v8,main_v25=main_v74,main_v26=main_v76 --out-dir proof/Proof
   from the hand-written text of region 1 (ValKI1a.lean): the same text, the region's number substituted. -/
/-
  Region 12 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k12_pay1` (the zero block) and `k12_pay2` (accumulator plus product) are the two stores' payloads.

  So along one row of blocks r the accumulator after its step k is the left fold
    accOf12 r 0 = pay2 (a (r, 0)) (b 0) pay1,    accOf12 r (k + 1) = pay2 (a (r, k + 1)) (b (k + 1)) (accOf12 r k),
  the grid point (r, k) being position 4 r + k; and at k = 3 the output block holds accOf12 r 3.
-/
import proofs.«158944_j64613488001249_1_alg».proof.Proof.RegKI12
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout12_A_eq (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond12_0 i) (hc1 : ¬cond12_1 i)
    (x0 : Vec F S1024x1024 .bf16) (x1 : Vec F S1024x512 .f32) :
    sout12_A c i arg2 harg2 arg3 harg3 arg4 harg4 arg5 harg5 hc0 hc1 x0 x1 = k12_pay2 x0 x1 (k12_pay1 (F := F)) := by
  have hz : (![0, 0] : Fin 2 → Nat) = fun _ => 0 := funext fun a => by fin_cases a <;> rfl
  unfold sout12_A
  rw [View.read_writes_eq_canon _ _ _ (scover12_A c i arg2 harg2 arg3 harg3 arg4 harg4 arg5 harg5 hc0 hc1 x0 x1)]
  unfold kernelRun12_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout12_B_eq (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond12_0 i) (hc1 : ¬cond12_1 i)
    (x0 : Vec F S1024x1024 .bf16) (x1 : Vec F S1024x512 .f32) (xs0 : Vec F S1024x512 .f32) :
    sout12_B c i arg2 harg2 arg3 harg3 arg4 harg4 arg5 harg5 hc0 hc1 x0 x1 xs0 = k12_pay2 x0 x1 xs0 := by
  have hz : (![0, 0] : Fin 2 → Nat) = fun _ => 0 := funext fun a => by fin_cases a <;> rfl
  unfold sout12_B
  rw [View.read_writes_eq_canon _ _ _ (scover12_B c i arg2 harg2 arg3 harg3 arg4 harg4 arg5 harg5 hc0 hc1 x0 x1 xs0)]
  unfold kernelRun12_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout12_C_eq (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond12_0 i) (hc1 : cond12_1 i)
    (x0 : Vec F S1024x1024 .bf16) (x1 : Vec F S1024x512 .f32) (xs0 : Vec F S1024x512 .f32) :
    sout12_C c i arg2 harg2 arg3 harg3 arg4 harg4 arg5 harg5 hc0 hc1 x0 x1 xs0 = k12_pay2 x0 x1 xs0 := by
  have hz : (![0, 0] : Fin 2 → Nat) = fun _ => 0 := funext fun a => by fin_cases a <;> rfl
  unfold sout12_C
  rw [View.read_writes_eq_canon _ _ _ (scover12_C c i arg2 harg2 arg3 harg3 arg4 harg4 arg5 harg5 hc0 hc1 x0 x1 xs0)]
  unfold kernelRun12_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out12_C_eq (c : Dev nD) (i : grid12.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond12_0 i) (hc1 : cond12_1 i)
    (x0 : Vec F S1024x1024 .bf16) (x1 : Vec F S1024x512 .f32) (xs0 : Vec F S1024x512 .f32) :
    out12_C c i arg2 harg2 arg3 harg3 arg4 harg4 arg5 harg5 hc0 hc1 x0 x1 xs0 = k12_pay2 x0 x1 xs0 := by
  have hz : (![0, 0] : Fin 2 → Nat) = fun _ => 0 := funext fun a => by fin_cases a <;> rfl
  unfold out12_C
  rw [View.read_writes_eq_canon _ _ _ (cover12_C c i arg2 harg2 arg3 harg3 arg4 harg4 arg5 harg5 hc0 hc1 x0 x1 xs0)]
  unfold kernelRun12_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk12_lhs (c : Dev nD) (n : ℕ) : Vec F S1024x1024 .bf16 :=
  if h : n < cfg12.N then iblk12 V c 0 ⟨n, h⟩ else iblk12 V c 0 ⟨0, by have h : cfg12.N = 16 := N_12; omega⟩
/-- The right factor's block at grid position `n`. -/
def iblk12_rhs (c : Dev nD) (n : ℕ) : Vec F S1024x512 .f32 :=
  if h : n < cfg12.N then iblk12 V c 1 ⟨n, h⟩ else iblk12 V c 1 ⟨0, by have h : cfg12.N = 16 := N_12; omega⟩

theorem iblk12_lhs_eq (c : Dev nD) (n : ℕ) (h : n < cfg12.N) : iblk12_lhs V c n = iblk12 V c 0 ⟨n, h⟩ := dif_pos h
theorem iblk12_rhs_eq (c : Dev nD) (n : ℕ) (h : n < cfg12.N) : iblk12_rhs V c n = iblk12 V c 1 ⟨n, h⟩ := dif_pos h

/-! ## The accumulator along one row of blocks -/

/-- Row of blocks `r`, after its step `k`: the zero block plus the products of the blocks at positions 4 r, …, 4 r + k,
    added in that order. -/
def accOf12 (c : Dev nD) (r : ℕ) : ℕ → Vec F S1024x512 .f32
  | 0 => k12_pay2 (iblk12_lhs V c (4 * r)) (iblk12_rhs V c (4 * r)) (k12_pay1 (F := F))
  | k + 1 => k12_pay2 (iblk12_lhs V c (4 * r + (k + 1))) (iblk12_rhs V c (4 * r + (k + 1))) (accOf12 c r k)

theorem accOf12_zero (c : Dev nD) (r : ℕ) :
    accOf12 V c r 0 = k12_pay2 (iblk12_lhs V c (4 * r)) (iblk12_rhs V c (4 * r)) (k12_pay1 (F := F)) := rfl
theorem accOf12_succ (c : Dev nD) (r k : ℕ) :
    accOf12 V c r (k + 1) = k12_pay2 (iblk12_lhs V c (4 * r + (k + 1))) (iblk12_rhs V c (4 * r + (k + 1))) (accOf12 V c r k) := rfl

theorem iblk12_lhs_at (c : Dev nD) (t : Fin cfg12.N) (n : ℕ) (hn : n = t.val) : iblk12_lhs V c n = iblk12 V c 0 t := by
  subst hn; unfold iblk12_lhs; exact dif_pos t.isLt
theorem iblk12_rhs_at (c : Dev nD) (t : Fin cfg12.N) (n : ℕ) (hn : n = t.val) : iblk12_rhs V c n = iblk12 V c 1 t := by
  subst hn; unfold iblk12_rhs; exact dif_pos t.isLt

/-- At a grid point with k = 0 the fold starts: the zero block plus the product of the point's two blocks. -/
theorem accOf12_first (c : Dev nD) (t : Fin cfg12.N) (h0 : t.val % 4 = 0) :
    accOf12 V c (t.val / 4) (t.val % 4) = k12_pay2 (iblk12 V c 0 t) (iblk12 V c 1 t) (k12_pay1 (F := F)) := by
  rw [h0, accOf12_zero, iblk12_lhs_at V c t (4 * (t.val / 4)) (by omega), iblk12_rhs_at V c t (4 * (t.val / 4)) (by omega)]

/-- At a grid point with k ≠ 0 the fold takes one step from the position before, which is in the same row of blocks. -/
theorem accOf12_next (c : Dev nD) (t : Fin cfg12.N) (h0 : ¬t.val % 4 = 0) :
    accOf12 V c (t.val / 4) (t.val % 4)
      = k12_pay2 (iblk12 V c 0 t) (iblk12 V c 1 t) (accOf12 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf12_succ, iblk12_lhs_at V c t (4 * (t.val / 4) + (k + 1)) (by omega),
    iblk12_rhs_at V c t (4 * (t.val / 4) + (k + 1)) (by omega)]

/-! ## The accumulator and the output block, point by point, as pure functions of the blocks -/

/-- k = 0: the accumulator restarts from the zero block. -/
theorem outsAt12_first (c : Dev nD) (t : Fin cfg12.N) (h0 : t.val % 4 = 0) :
    (outsAt12 V c t.val t.isLt).2 = k12_pay2 (iblk12 V c 0 t) (iblk12 V c 1 t) (k12_pay1 (F := F)) := by
  rw [outsAt12_A V c t h0]
  dsimp only
  exact sout12_A_eq c (grid12.coords t) (ms12_0 t) (hs12_0 t) (ms12_1 t) (hs12_1 t) (ms12_2 t) (hs12_2 t) scM12 (Memref.isWhole_whole _) (isFirst12 t h0) (notLast12 t (by omega)) (iblk12 V c 0 t) (iblk12 V c 1 t)

/-- k ≠ 0: the point's product is added to what the point before left. -/
theorem outsAt12_next (c : Dev nD) (t : Fin cfg12.N) (h0 : ¬t.val % 4 = 0) :
    (outsAt12 V c t.val t.isLt).2
      = k12_pay2 (iblk12 V c 0 t) (iblk12 V c 1 t) (outsAt12 V c (t.val - 1) (Nat.lt_of_le_of_lt (Nat.sub_le _ _) t.isLt)).2 := by
  by_cases h3 : t.val % 4 = 3
  · rw [outsAt12_C V c t h0 h3]
    dsimp only
    exact sout12_C_eq c (grid12.coords t) (ms12_0 t) (hs12_0 t) (ms12_1 t) (hs12_1 t) (ms12_2 t) (hs12_2 t) scM12 (Memref.isWhole_whole _) (notFirst12 t h0) (isLast12 t h3) (iblk12 V c 0 t) (iblk12 V c 1 t)
      (outsAt12 V c (t.val - 1) (Nat.lt_of_le_of_lt (Nat.sub_le _ _) t.isLt)).2
  · rw [outsAt12_B V c t h0 h3]
    dsimp only
    exact sout12_B_eq c (grid12.coords t) (ms12_0 t) (hs12_0 t) (ms12_1 t) (hs12_1 t) (ms12_2 t) (hs12_2 t) scM12 (Memref.isWhole_whole _) (notFirst12 t h0) (notLast12 t h3) (iblk12 V c 0 t) (iblk12 V c 1 t)
      (outsAt12 V c (t.val - 1) (Nat.lt_of_le_of_lt (Nat.sub_le _ _) t.isLt)).2

/-- k = 3: the output block is the accumulator. -/
theorem outsAt12_last (c : Dev nD) (t : Fin cfg12.N) (h3 : t.val % 4 = 3) :
    (outsAt12 V c t.val t.isLt).1 = (outsAt12 V c t.val t.isLt).2 := by
  have h0 : ¬t.val % 4 = 0 := by omega
  rw [outsAt12_C V c t h0 h3]
  dsimp only
  exact (out12_C_eq c (grid12.coords t) (ms12_0 t) (hs12_0 t) (ms12_1 t) (hs12_1 t) (ms12_2 t) (hs12_2 t) scM12 (Memref.isWhole_whole _) (notFirst12 t h0) (isLast12 t h3) (iblk12 V c 0 t) (iblk12 V c 1 t)
      (outsAt12 V c (t.val - 1) (Nat.lt_of_le_of_lt (Nat.sub_le _ _) t.isLt)).2).trans
    (sout12_C_eq c (grid12.coords t) (ms12_0 t) (hs12_0 t) (ms12_1 t) (hs12_1 t) (ms12_2 t) (hs12_2 t) scM12 (Memref.isWhole_whole _) (notFirst12 t h0) (isLast12 t h3) (iblk12 V c 0 t) (iblk12 V c 1 t)
      (outsAt12 V c (t.val - 1) (Nat.lt_of_le_of_lt (Nat.sub_le _ _) t.isLt)).2).symm

/-! ## The accumulator is the fold -/

/-- After position `n` the accumulator holds row `n / 4`'s fold after its step `n % 4`: by induction on the position. -/
theorem outsAt12_acc_pos (c : Dev nD) :
    ∀ (n : ℕ) (hn : n < cfg12.N), (outsAt12 V c n hn).2 = accOf12 V c (n / 4) (n % 4) := by
  intro n
  induction n with
  | zero =>
    intro hn
    exact (outsAt12_first V c ⟨0, hn⟩ (Nat.zero_mod 4)).trans (accOf12_first V c ⟨0, hn⟩ (Nat.zero_mod 4)).symm
  | succ n ih =>
    intro hn
    by_cases h0 : (n + 1) % 4 = 0
    · exact (outsAt12_first V c ⟨n + 1, hn⟩ h0).trans (accOf12_first V c ⟨n + 1, hn⟩ h0).symm
    · refine (outsAt12_next V c ⟨n + 1, hn⟩ h0).trans (Eq.trans ?_ (accOf12_next V c ⟨n + 1, hn⟩ h0).symm)
      exact congrArg (k12_pay2 (iblk12 V c 0 ⟨n + 1, hn⟩) (iblk12 V c 1 ⟨n + 1, hn⟩)) (ih (Nat.lt_of_succ_lt hn))

/-- At every grid point the accumulator holds its row's fold after the point's step. -/
theorem outsAt12_acc (c : Dev nD) (t : Fin cfg12.N) :
    (outsAt12 V c t.val t.isLt).2 = accOf12 V c (t.val / 4) (t.val % 4) :=
  outsAt12_acc_pos V c t.val t.isLt

/-- At a row's last point the output block holds the row's whole fold. -/
theorem outsAt12_out (c : Dev nD) (t : Fin cfg12.N) (h3 : t.val % 4 = 3) :
    (outsAt12 V c t.val t.isLt).1 = accOf12 V c (t.val / 4) 3 := by
  have e := outsAt12_acc V c t
  rw [h3] at e
  exact (outsAt12_last V c t h3).trans e

end Cert.KernelIdeal.Hand

end
-- ==== Proof.ValKI12b.lean ====
/- Laid out by: python3 scratch/layout_regions.py --template-region 1 --region 12 --program KernelIdeal --prefix Val --parts a,b,c --sim main_v9=main_v8,main_v25=main_v74,main_v26=main_v76 --out-dir proof/Proof
   from the hand-written text of region 1 (ValKI1b.lean): the same text, the region's number substituted. -/
/-
  Region 12 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI12a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts12 : ∀ t : Fin cfg12.N,
    win12_0.index t (0 : Fin 2) = t.val / 4 ∧ win12_0.index t (1 : Fin 2) = t.val % 4
    ∧ win12_1.index t (0 : Fin 2) = t.val % 4 ∧ win12_1.index t (1 : Fin 2) = 0
    ∧ win12_2.index t (0 : Fin 2) = t.val / 4 ∧ win12_2.index t (1 : Fin 2) = 0 :=
  (by decide +kernel : ∀ t : Fin grid12.N,
    win12_0.index t (0 : Fin 2) = t.val / 4 ∧ win12_0.index t (1 : Fin 2) = t.val % 4
    ∧ win12_1.index t (0 : Fin 2) = t.val % 4 ∧ win12_1.index t (1 : Fin 2) = 0
    ∧ win12_2.index t (0 : Fin 2) = t.val / 4 ∧ win12_2.index t (1 : Fin 2) = 0)

/-! ## The output array as one function -/

/-- The whole output array: its row 1024 r + p, column q, is entry (p, q) of the block accumulated over k = 0 … 3 in
    block row r. -/
def whole12 (c : Dev nD) : S4096x512.Idx → Elt F .f32 := fun i =>
  accOf12 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole12_apply (c : Dev nD) (r : ℕ) (y : S1024x512.Idx) (i : S4096x512.Idx)
    (h0 : (i 0).val = 1024 * r + (y 0).val) (h1 : (i 1).val = (y 1).val) :
    whole12 V c i = accOf12 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole12
  rw [hr, e]

/-- Row 1024 r + p, column q of the array is entry (p, q) of block row r's accumulated block. -/
theorem whole12_ix2 (c : Dev nD) (r : Fin 4) (p : Fin 1024) (q : Fin 512) :
    whole12 V c (ix2 (n0 := 4096) (n1 := 512) ⟨1024 * r.val + p.val, by have := r.isLt; have := p.isLt; omega⟩ q)
      = accOf12 V c r.val 3 (ix2 p q) :=
  whole12_apply V c r.val (ix2 p q) _ rfl rfl

/-! ## What a point writes back -/

/-- A point with k = 3 writes back its block of the whole-array function. -/
theorem flushed12_eq (c : Dev nD) (t : Fin cfg12.N) (hf : (cfg12.win 2).flush t = true) :
    (dat12 V c).flushed 2 t = ((cfg12.win 2).blk t).view.read (Elt F) (whole12 V c) := by
  have h3 : t.val % 4 = 3 := (flush12_2 t).mp hf
  show (cfg12.win 2).cut (grid12.coords t) ((dat12 V c).after 2 t) = _
  rw [after12_2, outsAt12_out V c t h3]
  obtain ⟨-, -, -, -, e0, e1⟩ := idxFacts12 t
  funext j
  show accOf12 V c (t.val / 4) 3 j = whole12 V c (((cfg12.win 2).blk t).view.emb j)
  refine (whole12_apply V c (t.val / 4) j _ ?_ ?_).symm
  · show win12_2.index t (0 : Fin 2) * 1024 + 1 * (j 0).val = 1024 * (t.val / 4) + (j 0).val
    rw [e0]; omega
  · show win12_2.index t (1 : Fin 2) * 512 + 1 * (j 1).val = (j 1).val
    rw [e1]; omega

/-! ## The blocks written back cover the array -/

/-- An index is in a point's output block iff each coordinate is in the block's range on its axis. -/
theorem memBlk12 (t : Fin cfg12.N) (i : S4096x512.Idx) :
    i ∈ ((cfg12.win 2).blk t).view.set ↔ ∀ a : Fin 2, win12_2.index t a * S1024x512.size a ≤ (i a).val
      ∧ (i a).val < win12_2.index t a * S1024x512.size a + S1024x512.size a := by
  show i ∈ ((View.whole main_v76).slice (win12_2.rect t)).set ↔ _
  rw [View.set_slice_whole, Rect.mem_set_unit]
  exact Iff.rfl

/-- Row i of the array lies in the block written back at the point (i / 1024, 3). -/
theorem covered12 (i : S4096x512.Idx) :
    ∃ t : Fin cfg12.N, (cfg12.win 2).flush t = true ∧ i ∈ ((cfg12.win 2).blk t).view.set := by
  have hi0 : (i 0).val < 4096 := idx2_lt0 i
  have hi1 : (i 1).val < 512 := idx2_lt1 i
  have hN : cfg12.N = 16 := N_12
  obtain ⟨t, ht⟩ : ∃ t : Fin cfg12.N, t.val = 4 * ((i 0).val / 1024) + 3 :=
    ⟨⟨4 * ((i 0).val / 1024) + 3, by rw [hN]; omega⟩, rfl⟩
  refine ⟨t, (flush12_2 t).mpr (by omega), ?_⟩
  rw [memBlk12]
  obtain ⟨-, -, -, -, e0, e1⟩ := idxFacts12 t
  intro a
  match a with
  | ⟨0, _⟩ =>
    show win12_2.index t (0 : Fin 2) * 1024 ≤ (i 0).val ∧ (i 0).val < win12_2.index t (0 : Fin 2) * 1024 + 1024
    rw [e0]; omega
  | ⟨1, _⟩ =>
    show win12_2.index t (1 : Fin 2) * 512 ≤ (i 1).val ∧ (i 1).val < win12_2.index t (1 : Fin 2) * 512 + 512
    rw [e1]; omega

/-! ## The three arrays after the region -/

/-- The output array after the region is the whole-array function. -/
theorem final12_2 (c : Dev nD) : (dat12 V c).arrAt 2 cfg12.N = whole12 V c :=
  (dat12 V c).arrAt_eq_of_cover 2 (whole12 V c) (flushed12_eq V c) covered12

/-- The two input arrays are as the region found them. -/
theorem final12_0 (c : Dev nD) : (dat12 V c).arrAt 0 cfg12.N = V c main_v8 :=
  ((dat12 V c).arrAt_in 0 rfl cfg12.N).trans (A_eq12 V c 0)
theorem final12_1 (c : Dev nD) : (dat12 V c).arrAt 1 cfg12.N = V c main_v74 :=
  ((dat12 V c).arrAt_in 1 rfl cfg12.N).trans (A_eq12 V c 1)

/-! ## The input blocks as blocks of the operand arrays -/

/-- The left operand's block at the point (r, k): entry (y₀, y₁) is the array's entry (1024 r + y₀, 1024 k + y₁). -/
theorem iblk12_lhs_apply (c : Dev nD) (r k : Fin 4) (y : S1024x1024.Idx) (i : S4096x4096.Idx)
    (h0 : (i 0).val = 1024 * r.val + (y 0).val) (h1 : (i 1).val = 1024 * k.val + (y 1).val) :
    iblk12_lhs V c (4 * r.val + k.val) y = (V c main_v8 : S4096x4096.Idx → Elt F .bf16) i := by
  have hN : cfg12.N = 16 := N_12
  have hr := r.isLt
  have hk := k.isLt
  have hlt : 4 * r.val + k.val < cfg12.N := by rw [hN]; omega
  rw [iblk12_lhs_eq V c _ hlt]
  obtain ⟨e0, e1, -, -, -, -⟩ := idxFacts12 ⟨4 * r.val + k.val, hlt⟩
  have e0' : win12_0.index ⟨4 * r.val + k.val, hlt⟩ (0 : Fin 2) = (4 * r.val + k.val) / 4 := e0
  have e1' : win12_0.index ⟨4 * r.val + k.val, hlt⟩ (1 : Fin 2) = (4 * r.val + k.val) % 4 := e1
  unfold iblk12
  rw [View.read_apply]
  show V c main_v8 (((cfg12.win 0).blk ⟨4 * r.val + k.val, hlt⟩).view.emb y) = V c main_v8 i
  congr 1
  funext a
  apply Fin.ext
  match a with
  | ⟨0, _⟩ =>
    show win12_0.index ⟨4 * r.val + k.val, hlt⟩ (0 : Fin 2) * 1024 + 1 * (y 0).val = (i 0).val
    rw [e0', h0]; omega
  | ⟨1, _⟩ =>
    show win12_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk12_rhs_apply (c : Dev nD) (r k : Fin 4) (y : S1024x512.Idx) (i : S4096x512.Idx)
    (h0 : (i 0).val = 1024 * k.val + (y 0).val) (h1 : (i 1).val = (y 1).val) :
    iblk12_rhs V c (4 * r.val + k.val) y = (V c main_v74 : S4096x512.Idx → Elt F .f32) i := by
  have hN : cfg12.N = 16 := N_12
  have hr := r.isLt
  have hk := k.isLt
  have hlt : 4 * r.val + k.val < cfg12.N := by rw [hN]; omega
  rw [iblk12_rhs_eq V c _ hlt]
  obtain ⟨-, -, e0, e1, -, -⟩ := idxFacts12 ⟨4 * r.val + k.val, hlt⟩
  have e0' : win12_1.index ⟨4 * r.val + k.val, hlt⟩ (0 : Fin 2) = (4 * r.val + k.val) % 4 := e0
  have e1' : win12_1.index ⟨4 * r.val + k.val, hlt⟩ (1 : Fin 2) = 0 := e1
  unfold iblk12
  rw [View.read_apply]
  show V c main_v74 (((cfg12.win 1).blk ⟨4 * r.val + k.val, hlt⟩).view.emb y) = V c main_v74 i
  congr 1
  funext a
  apply Fin.ext
  match a with
  | ⟨0, _⟩ =>
    show win12_1.index ⟨4 * r.val + k.val, hlt⟩ (0 : Fin 2) * 1024 + 1 * (y 0).val = (i 0).val
    rw [e0', h0]; omega
  | ⟨1, _⟩ =>
    show win12_1.index ⟨4 * r.val + k.val, hlt⟩ (1 : Fin 2) * 512 + 1 * (y 1).val = (i 1).val
    rw [e1', h1]; omega

/-- The accumulated block after the fourth step, unfolded: four steps from the zero block. -/
theorem accOf12_three (c : Dev nD) (r : ℕ) :
    accOf12 V c r 3
      = k12_pay2 (iblk12_lhs V c (4 * r + 3)) (iblk12_rhs V c (4 * r + 3))
          (k12_pay2 (iblk12_lhs V c (4 * r + 2)) (iblk12_rhs V c (4 * r + 2))
            (k12_pay2 (iblk12_lhs V c (4 * r + 1)) (iblk12_rhs V c (4 * r + 1))
              (k12_pay2 (iblk12_lhs V c (4 * r)) (iblk12_rhs V c (4 * r)) (k12_pay1 (F := F))))) := rfl

end Cert.KernelIdeal.Hand

end
-- ==== Proof.ValKI12c.lean ====
/- Laid out by: python3 scratch/layout_regions.py --template-region 1 --region 12 --program KernelIdeal --prefix Val --parts a,b,c --sim main_v9=main_v8,main_v25=main_v74,main_v26=main_v76 --out-dir proof/Proof
   from the hand-written text of region 1 (ValKI1c.lean): the same text, the region's number substituted. -/
/-
  Region 12 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI12b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf12_step (x0 : Vec Ideal S1024x1024 .bf16) (x1 acc : Vec Ideal S1024x512 .f32) :
    k12_pay2 (F := Ideal) x0 x1 acc
      = Cert.MMLaw.accStep dot_S1024x1024_S1024x512_S1024x512_1_0_0_1_n_n none x0 x1 acc := by
  unfold k12_pay2
  simp only [shapeCast_self]
  rfl

/-- The accumulator starts from the zero block. -/
theorem accOf12_init (j : S1024x512.Idx) : k12_pay1 (F := Ideal) j = 0 := by
  unfold k12_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf12_eq_blk (c : Dev nD) (r : Fin 4) (D : DotDims S4096x4096 S4096x512 S4096x512) (hD : Cert.MMLaw.IsPlain D)
    (prec : Option ContractPrecision) :
    accOf12 V c r.val 3
      = Cert.MMLaw.blk (nr := 4) (nc := 1) 1024 512 rfl rfl (Cert.MMLaw.whole D prec (V c main_v8) (V c main_v74)) r 0 := by
  rw [accOf12_three]
  simp only [accOf12_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v8) (V c main_v74) r 0
    (fun k => iblk12_lhs V c (4 * r.val + k.val)) (fun k => iblk12_rhs V c (4 * r.val + k.val))
    (fun k => funext fun y => iblk12_lhs_apply V c r k y _ rfl rfl)
    (fun k => funext fun y => iblk12_rhs_apply V c r k y _ rfl (by show 512 * 0 + (y 1).val = (y 1).val; omega))
    (k12_pay1 (F := Ideal)) accOf12_init

/-! ## The output array after the region is the whole product -/

/-- The region leaves in its output array the product of its two operand arrays. -/
theorem final12_2_eq_whole (c : Dev nD) (D : DotDims S4096x4096 S4096x512 S4096x512) (hD : Cert.MMLaw.IsPlain D)
    (prec : Option ContractPrecision) :
    (dat12 (F := Ideal) V c).arrAt 2 cfg12.N = Cert.MMLaw.whole D prec (V c main_v8) (V c main_v74) := by
  rw [final12_2]
  funext i
  have hi0 : (i 0).val < 4096 := idx2_lt0 i
  have h := congrFun (accOf12_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final12_2_eq_dot (c : Dev nD) (D : DotDims S4096x4096 S4096x512 S4096x512) (hD : Cert.MMLaw.IsPlain D)
    (prec : Option ContractPrecision) :
    (dat12 (F := Ideal) V c).arrAt 2 cfg12.N = Host.dotGeneral (F := Ideal) (φ₁ := .bf16) (φ₂ := .f32) D prec (V c main_v8) (V c main_v74) :=
  final12_2_eq_whole V c D hD prec

end Cert.KernelIdeal.Hand

end
-- ==== Proof.ValKI13a.lean ====
/- Laid out by: python3 scratch/layout_grid41.py --prefix Val --template-region 0 --region 13 --program KernelIdeal --parts a,b --shapes S1024x128=S1024x512,S128x512=S512x512,S1024x512=S1024x512,S4096x128=S4096x512,S4096x512=S4096x512,main_arg0=main_v79,main_v12=main_v10,main_v17=main_v80,h0=h0,e0=e0,hi0=hi0,x0=x0
   from the hand-written text of region 0 (ValKI0a.lean): the same text, the region's number, block shapes, operand arrays substituted. -/
/-
  Region 13 of @main: from the output blocks to the whole output array.

  The grid is [4, 1]: the point t is block row t, and the reduction axis has one step, so every point zeroes the
  accumulator, adds the product of its two input blocks, and writes the sum back. The output window's block at t is
  rows 1024 t … 1024 t + 1023 of the result, written back at every point. So the array after the region is ONE function
  of the index: row 1024 r + p, column q holds entry (p, q) of the block the point r leaves. The steps: the three windows'
  block indices decided once over the grid; what a point writes back is its block of that function; the four blocks
  written back cover the array (row i lies in the block of the point i / 1024); hence the array after the region. The two
  operand arrays are not written. Last, each input block as a block of its operand array: the left operand's block at the
  point t is its rows 1024 t … 1024 t + 1023 (every column), the right operand's block is the whole array at every point.
-/
import proofs.«158944_j64613488001249_1_alg».proof.Proof.RegKI13
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t the left operand's block is (t, 0), the right operand's (0, 0), the output's (t, 0). -/
theorem idxFacts13 : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0 :=
  (by decide +kernel : ∀ t : Fin grid13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0)

/-! ## The block a point leaves -/

/-- The block the point at grid position n leaves: the zero block plus the product of the point's two input blocks
    (past the grid's end, where nothing consults it, the block of position 0). -/
def accOf13 (c : Dev nD) (n : ℕ) : Vec F S1024x512 .f32 :=
  if h : n < cfg13.N then k13_pay2 (iblk13 V c 0 ⟨n, h⟩) (iblk13 V c 1 ⟨n, h⟩) (k13_pay1 (F := F))
  else k13_pay2 (iblk13 V c 0 ⟨0, by have h : cfg13.N = 4 := N_13; omega⟩)
    (iblk13 V c 1 ⟨0, by have h : cfg13.N = 4 := N_13; omega⟩) (k13_pay1 (F := F))

theorem accOf13_eq (c : Dev nD) (t : Fin cfg13.N) :
    accOf13 V c t.val = k13_pay2 (iblk13 V c 0 t) (iblk13 V c 1 t) (k13_pay1 (F := F)) := by
  unfold accOf13; exact dif_pos t.isLt

/-- At every point the output block holds that block. -/
theorem outsAt13_out (c : Dev nD) (t : Fin cfg13.N) : (outsAt13 V c t.val t.isLt).1 = accOf13 V c t.val :=
  (outsAt13_last V c t).trans ((outsAt13_first V c t).trans (accOf13_eq V c t).symm)

/-! ## The output array as one function -/

/-- The whole output array: its row 1024 r + p, column q, is entry (p, q) of the block the point r leaves. -/
def whole13 (c : Dev nD) : S4096x512.Idx → Elt F .f32 := fun i =>
  accOf13 V c ((i 0).val / 1024)
    (ix2 ⟨(i 0).val % 1024, Nat.mod_lt _ (by decide)⟩ ⟨(i 1).val, idx2_lt1 i⟩)

/-- The array read at an index given by a block row r and a position y inside the block. -/
theorem whole13_apply (c : Dev nD) (r : ℕ) (y : S1024x512.Idx) (i : S4096x512.Idx)
    (h0 : (i 0).val = 1024 * r + (y 0).val) (h1 : (i 1).val = (y 1).val) :
    whole13 V c i = accOf13 V c r y := by
  have hy : (y 0).val < 1024 := idx2_lt0 y
  have hr : (i 0).val / 1024 = r := by omega
  have hp : (i 0).val % 1024 = (y 0).val := by omega
  have e : (ix2 ⟨(i 0).val % 1024, Nat.mod_lt _ (by decide)⟩ ⟨(i 1).val, idx2_lt1 i⟩ : S1024x512.Idx) = y :=
    funext fun a => match a with
      | ⟨0, _⟩ => Fin.ext hp
      | ⟨1, _⟩ => Fin.ext h1
  unfold whole13
  rw [hr, e]

/-- Row 1024 r + p, column q of the array is entry (p, q) of the block the point r leaves. -/
theorem whole13_ix2 (c : Dev nD) (r : Fin 4) (p : Fin 1024) (q : Fin (S1024x512.size 1)) :
    whole13 V c (ix2 ⟨1024 * r.val + p.val, by have := r.isLt; have := p.isLt; omega⟩ q)
      = accOf13 V c r.val (ix2 p q) :=
  whole13_apply V c r.val (ix2 p q) _ rfl rfl

/-! ## What a point writes back -/

/-- Every point writes back its block of the whole-array function. -/
theorem flushed13_eq (c : Dev nD) (t : Fin cfg13.N) (hf : (cfg13.win 2).flush t = true) :
    (dat13 V c).flushed 2 t = ((cfg13.win 2).blk t).view.read (Elt F) (whole13 V c) := by
  show (cfg13.win 2).cut (grid13.coords t) ((dat13 V c).after 2 t) = _
  rw [after13_2, outsAt13_out V c t]
  obtain ⟨-, -, -, -, e0, e1⟩ := idxFacts13 t
  funext j
  show accOf13 V c t.val j = whole13 V c (((cfg13.win 2).blk t).view.emb j)
  refine (whole13_apply V c t.val j _ ?_ ?_).symm
  · show win13_2.index t (0 : Fin 2) * 1024 + 1 * (j 0).val = 1024 * t.val + (j 0).val
    rw [e0]; omega
  · show win13_2.index t (1 : Fin 2) * S1024x512.size (1 : Fin 2) + 1 * (j 1).val = (j 1).val
    rw [e1, Nat.zero_mul, Nat.zero_add, Nat.one_mul]

/-! ## The blocks written back cover the array -/

/-- An index is in a point's output block iff each coordinate is in the block's range on its axis. -/
theorem memBlk13 (t : Fin cfg13.N) (i : S4096x512.Idx) :
    i ∈ ((cfg13.win 2).blk t).view.set ↔ ∀ a : Fin 2, win13_2.index t a * S1024x512.size a ≤ (i a).val
      ∧ (i a).val < win13_2.index t a * S1024x512.size a + S1024x512.size a := by
  show i ∈ ((View.whole main_v80).slice (win13_2.rect t)).set ↔ _
  rw [View.set_slice_whole, Rect.mem_set_unit]
  exact Iff.rfl

/-- Row i of the array lies in the block written back at the point i / 1024. -/
theorem covered13 (i : S4096x512.Idx) :
    ∃ t : Fin cfg13.N, (cfg13.win 2).flush t = true ∧ i ∈ ((cfg13.win 2).blk t).view.set := by
  have hi0 : (i 0).val < 4096 := idx2_lt0 i
  have hi1 : (i 1).val < S1024x512.size (1 : Fin 2) := idx2_lt1 i
  have hN : cfg13.N = 4 := N_13
  obtain ⟨t, ht⟩ : ∃ t : Fin cfg13.N, t.val = (i 0).val / 1024 :=
    ⟨⟨(i 0).val / 1024, by rw [hN]; omega⟩, rfl⟩
  refine ⟨t, flush13_2 t, ?_⟩
  rw [memBlk13]
  obtain ⟨-, -, -, -, e0, e1⟩ := idxFacts13 t
  intro a
  match a with
  | ⟨0, _⟩ =>
    show win13_2.index t (0 : Fin 2) * 1024 ≤ (i 0).val ∧ (i 0).val < win13_2.index t (0 : Fin 2) * 1024 + 1024
    rw [e0]; omega
  | ⟨1, _⟩ =>
    show win13_2.index t (1 : Fin 2) * S1024x512.size (1 : Fin 2) ≤ (i 1).val
      ∧ (i 1).val < win13_2.index t (1 : Fin 2) * S1024x512.size (1 : Fin 2) + S1024x512.size (1 : Fin 2)
    rw [e1, Nat.zero_mul, Nat.zero_add]
    exact ⟨Nat.zero_le _, hi1⟩

/-! ## The three arrays after the region -/

/-- The output array after the region is the whole-array function. -/
theorem final13_2 (c : Dev nD) : (dat13 V c).arrAt 2 cfg13.N = whole13 V c :=
  (dat13 V c).arrAt_eq_of_cover 2 (whole13 V c) (flushed13_eq V c) covered13

/-- The two input arrays are as the region found them. -/
theorem final13_0 (c : Dev nD) : (dat13 V c).arrAt 0 cfg13.N = V c main_v79 :=
  ((dat13 V c).arrAt_in 0 rfl cfg13.N).trans (A_eq13 V c 0)
theorem final13_1 (c : Dev nD) : (dat13 V c).arrAt 1 cfg13.N = V c main_v10 :=
  ((dat13 V c).arrAt_in 1 rfl cfg13.N).trans (A_eq13 V c 1)

/-! ## The input blocks as blocks of the operand arrays -/

/-- The left operand's block at the point t: entry (y₀, y₁) is the array's entry (1024 t + y₀, y₁). -/
theorem iblk13_lhs_apply (c : Dev nD) (t : Fin cfg13.N) (y : S1024x512.Idx) (i : S4096x512.Idx)
    (h0 : (i 0).val = 1024 * t.val + (y 0).val) (h1 : (i 1).val = (y 1).val) :
    iblk13 V c 0 t y = (V c main_v79 : S4096x512.Idx → Elt F .f32) i := by
  obtain ⟨e0, e1, -, -, -, -⟩ := idxFacts13 t
  unfold iblk13
  rw [View.read_apply]
  show V c main_v79 (((cfg13.win 0).blk t).view.emb y) = V c main_v79 i
  congr 1
  funext a
  apply Fin.ext
  match a with
  | ⟨0, _⟩ =>
    show win13_0.index t (0 : Fin 2) * 1024 + 1 * (y 0).val = (i 0).val
    rw [e0, h0]; omega
  | ⟨1, _⟩ =>
    show win13_0.index t (1 : Fin 2) * S1024x512.size (1 : Fin 2) + 1 * (y 1).val = (i 1).val
    rw [e1, h1, Nat.zero_mul, Nat.zero_add, Nat.one_mul]

/-- The right operand's block is the whole array at every point. -/
theorem iblk13_rhs_eq (c : Dev nD) (t : Fin cfg13.N) :
    iblk13 V c 1 t = (V c main_v10 : S512x512.Idx → Elt F .bf16) := by
  obtain ⟨-, -, e0, e1, -, -⟩ := idxFacts13 t
  funext y
  unfold iblk13
  rw [View.read_apply]
  show V c main_v10 (((cfg13.win 1).blk t).view.emb y) = V c main_v10 y
  congr 1
  funext a
  apply Fin.ext
  match a with
  | ⟨0, _⟩ =>
    show win13_1.index t (0 : Fin 2) * S512x512.size (0 : Fin 2) + 1 * (y 0).val = (y 0).val
    rw [e0, Nat.zero_mul, Nat.zero_add, Nat.one_mul]
  | ⟨1, _⟩ =>
    show win13_1.index t (1 : Fin 2) * S512x512.size (1 : Fin 2) + 1 * (y 1).val = (y 1).val
    rw [e1, Nat.zero_mul, Nat.zero_add, Nat.one_mul]

end Cert.KernelIdeal.Hand

end
-- ==== Proof.ValKI13b.lean ====
/- Laid out by: python3 scratch/layout_grid41.py --prefix Val --template-region 0 --region 13 --program KernelIdeal --parts a,b --shapes S1024x128=S1024x512,S128x512=S512x512,S1024x512=S1024x512,S4096x128=S4096x512,S4096x512=S4096x512,main_arg0=main_v79,main_v12=main_v10,main_v17=main_v80,h0=h0,e0=e0,hi0=hi0,x0=x0
   from the hand-written text of region 0 (ValKI0b.lean): the same text, the region's number, block shapes, operand arrays substituted. -/
/-
  Region 13 of @main at the extended reals: the output array after the region is the product of the two operand arrays.

  A change of float format is the identity at these values and a reshape to the same shape is the identity, so the
  kernel's one accumulation step is "accumulator plus the product of the two blocks into the zero block", and the
  accumulator starts from the zero block. The block the point r leaves is then zero plus the product of rows
  1024 r … 1024 r + 1023 of the left operand with the whole right operand, which is the same rows of the whole product:
  the contraction axis is not cut, so the sums are the same term by term. Read through the whole-array function of the
  blocks-to-array module, entry (1024 r + p, q) of the output array is that entry of the product.
-/
import proofs.«158944_j64613488001249_1_alg».proof.Proof.ValKI13a
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The accumulation step, and its start, at the extended reals -/

/-- A change of format and a reshape to the same shape are the identity: the step adds the product of the two blocks
    (into the zero block) to the accumulator. -/
theorem accOf13_step (x0 : Vec Ideal S1024x512 .f32) (x1 : Vec Ideal S512x512 .bf16) (acc : Vec Ideal S1024x512 .f32) :
    k13_pay2 (F := Ideal) x0 x1 acc
      = Cert.MMLaw.accStep dot_S1024x512_S512x512_S1024x512_1_0_0_1_n_n none x0 x1 acc := by
  unfold k13_pay2
  simp only [shapeCast_self]
  rfl

/-- The accumulator starts from the zero block. -/
theorem accOf13_init (j : S1024x512.Idx) : k13_pay1 (F := Ideal) j = 0 := by
  unfold k13_pay1
  rw [shapeCast_self]
  exact Ideal.ofBits_zero_f32

/-! ## The block a point leaves is a block of the whole product -/

/-- The block the point r leaves is rows 1024 r … 1024 r + 1023 of the product of the two operand arrays. -/
theorem accOf13_eq_blk (c : Dev nD) (r : Fin 4) (D : DotDims S4096x512 S512x512 S4096x512) (hD : Cert.MMLaw.IsPlain D)
    (prec : Option ContractPrecision) :
    accOf13 V c r.val
      = Cert.MMLaw.rowBlk (Cert.MMLaw.whole D prec (V c main_v79) (V c main_v10)) r := by
  have hN : cfg13.N = 4 := N_13
  have hr : r.val < cfg13.N := by rw [hN]; exact r.isLt
  rw [accOf13_eq V c ⟨r.val, hr⟩, accOf13_step]
  exact Cert.MMLaw.law41 dot_S1024x512_S512x512_S1024x512_1_0_0_1_n_n ⟨rfl, rfl, rfl, rfl, rfl, rfl⟩ D hD none prec
    (V c main_v79) (V c main_v10) r (iblk13 V c 0 ⟨r.val, hr⟩) (iblk13 V c 1 ⟨r.val, hr⟩)
    (funext fun y => iblk13_lhs_apply V c ⟨r.val, hr⟩ y _ rfl rfl) (iblk13_rhs_eq V c ⟨r.val, hr⟩)
    (k13_pay1 (F := Ideal)) accOf13_init

/-! ## The output array after the region is the whole product -/

/-- The region leaves in its output array the product of its two operand arrays. -/
theorem final13_2_eq_whole (c : Dev nD) (D : DotDims S4096x512 S512x512 S4096x512) (hD : Cert.MMLaw.IsPlain D)
    (prec : Option ContractPrecision) :
    (dat13 (F := Ideal) V c).arrAt 2 cfg13.N = Cert.MMLaw.whole D prec (V c main_v79) (V c main_v10) := by
  rw [final13_2]
  funext i
  have hi0 : (i 0).val < 4096 := idx2_lt0 i
  have h := congrFun (accOf13_eq_blk V c ⟨(i 0).val / 1024, by omega⟩ D hD prec)
    (ix2 ⟨(i 0).val % 1024, Nat.mod_lt _ (by decide)⟩ ⟨(i 1).val, idx2_lt1 i⟩)
  rw [Cert.MMLaw.rowBlk_apply] at h
  refine Eq.trans h (congrArg _ ?_)
  funext a
  match a with
  | ⟨0, _⟩ => exact Fin.ext (by show 1024 * ((i 0).val / 1024) + (i 0).val % 1024 = (i 0).val; omega)
  | ⟨1, _⟩ => rfl

/-- The same with the operands at the formats they are stored in. -/
theorem final13_2_eq_dot (c : Dev nD) (D : DotDims S4096x512 S512x512 S4096x512) (hD : Cert.MMLaw.IsPlain D)
    (prec : Option ContractPrecision) :
    (dat13 (F := Ideal) V c).arrAt 2 cfg13.N
      = Host.dotGeneral (F := Ideal) (φ₁ := .f32) (φ₂ := .bf16) D prec (V c main_v79) (V c main_v10) :=
  final13_2_eq_whole V c D hD prec

end Cert.KernelIdeal.Hand

end
-- ==== Proof.ValKI14a.lean ====
/- Laid out by: python3 scratch/layout_regions.py --template-region 1 --region 14 --program KernelIdeal --prefix Val --parts a,b,c --sim main_v9=main_v7,main_v25=main_v80,main_v26=main_v81 --out-dir proof/Proof
   from the hand-written text of region 1 (ValKI1a.lean): the same text, the region's number substituted. -/
/-
  Region 14 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k14_pay1` (the zero block) and `k14_pay2` (accumulator plus product) are the two stores' payloads.

  So along one row of blocks r the accumulator after its step k is the left fold
    accOf14 r 0 = pay2 (a (r, 0)) (b 0) pay1,    accOf14 r (k + 1) = pay2 (a (r, k + 1)) (b (k + 1)) (accOf14 r k),
  the grid point (r, k) being position 4 r + k; and at k = 3 the output block holds accOf14 r 3.
-/
import proofs.«158944_j64613488001249_1_alg».proof.Proof.RegKI14
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout14_A_eq (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond14_0 i) (hc1 : ¬cond14_1 i)
    (x0 : Vec F S1024x1024 .bf16) (x1 : Vec F S1024x512 .f32) :
    sout14_A c i arg2 harg2 arg3 harg3 arg4 harg4 arg5 harg5 hc0 hc1 x0 x1 = k14_pay2 x0 x1 (k14_pay1 (F := F)) := by
  have hz : (![0, 0] : Fin 2 → Nat) = fun _ => 0 := funext fun a => by fin_cases a <;> rfl
  unfold sout14_A
  rw [View.read_writes_eq_canon _ _ _ (scover14_A c i arg2 harg2 arg3 harg3 arg4 harg4 arg5 harg5 hc0 hc1 x0 x1)]
  unfold kernelRun14_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout14_B_eq (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond14_0 i) (hc1 : ¬cond14_1 i)
    (x0 : Vec F S1024x1024 .bf16) (x1 : Vec F S1024x512 .f32) (xs0 : Vec F S1024x512 .f32) :
    sout14_B c i arg2 harg2 arg3 harg3 arg4 harg4 arg5 harg5 hc0 hc1 x0 x1 xs0 = k14_pay2 x0 x1 xs0 := by
  have hz : (![0, 0] : Fin 2 → Nat) = fun _ => 0 := funext fun a => by fin_cases a <;> rfl
  unfold sout14_B
  rw [View.read_writes_eq_canon _ _ _ (scover14_B c i arg2 harg2 arg3 harg3 arg4 harg4 arg5 harg5 hc0 hc1 x0 x1 xs0)]
  unfold kernelRun14_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout14_C_eq (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond14_0 i) (hc1 : cond14_1 i)
    (x0 : Vec F S1024x1024 .bf16) (x1 : Vec F S1024x512 .f32) (xs0 : Vec F S1024x512 .f32) :
    sout14_C c i arg2 harg2 arg3 harg3 arg4 harg4 arg5 harg5 hc0 hc1 x0 x1 xs0 = k14_pay2 x0 x1 xs0 := by
  have hz : (![0, 0] : Fin 2 → Nat) = fun _ => 0 := funext fun a => by fin_cases a <;> rfl
  unfold sout14_C
  rw [View.read_writes_eq_canon _ _ _ (scover14_C c i arg2 harg2 arg3 harg3 arg4 harg4 arg5 harg5 hc0 hc1 x0 x1 xs0)]
  unfold kernelRun14_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out14_C_eq (c : Dev nD) (i : grid14.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond14_0 i) (hc1 : cond14_1 i)
    (x0 : Vec F S1024x1024 .bf16) (x1 : Vec F S1024x512 .f32) (xs0 : Vec F S1024x512 .f32) :
    out14_C c i arg2 harg2 arg3 harg3 arg4 harg4 arg5 harg5 hc0 hc1 x0 x1 xs0 = k14_pay2 x0 x1 xs0 := by
  have hz : (![0, 0] : Fin 2 → Nat) = fun _ => 0 := funext fun a => by fin_cases a <;> rfl
  unfold out14_C
  rw [View.read_writes_eq_canon _ _ _ (cover14_C c i arg2 harg2 arg3 harg3 arg4 harg4 arg5 harg5 hc0 hc1 x0 x1 xs0)]
  unfold kernelRun14_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk14_lhs (c : Dev nD) (n : ℕ) : Vec F S1024x1024 .bf16 :=
  if h : n < cfg14.N then iblk14 V c 0 ⟨n, h⟩ else iblk14 V c 0 ⟨0, by have h : cfg14.N = 16 := N_14; omega⟩
/-- The right factor's block at grid position `n`. -/
def iblk14_rhs (c : Dev nD) (n : ℕ) : Vec F S1024x512 .f32 :=
  if h : n < cfg14.N then iblk14 V c 1 ⟨n, h⟩ else iblk14 V c 1 ⟨0, by have h : cfg14.N = 16 := N_14; omega⟩

theorem iblk14_lhs_eq (c : Dev nD) (n : ℕ) (h : n < cfg14.N) : iblk14_lhs V c n = iblk14 V c 0 ⟨n, h⟩ := dif_pos h
theorem iblk14_rhs_eq (c : Dev nD) (n : ℕ) (h : n < cfg14.N) : iblk14_rhs V c n = iblk14 V c 1 ⟨n, h⟩ := dif_pos h

/-! ## The accumulator along one row of blocks -/

/-- Row of blocks `r`, after its step `k`: the zero block plus the products of the blocks at positions 4 r, …, 4 r + k,
    added in that order. -/
def accOf14 (c : Dev nD) (r : ℕ) : ℕ → Vec F S1024x512 .f32
  | 0 => k14_pay2 (iblk14_lhs V c (4 * r)) (iblk14_rhs V c (4 * r)) (k14_pay1 (F := F))
  | k + 1 => k14_pay2 (iblk14_lhs V c (4 * r + (k + 1))) (iblk14_rhs V c (4 * r + (k + 1))) (accOf14 c r k)

theorem accOf14_zero (c : Dev nD) (r : ℕ) :
    accOf14 V c r 0 = k14_pay2 (iblk14_lhs V c (4 * r)) (iblk14_rhs V c (4 * r)) (k14_pay1 (F := F)) := rfl
theorem accOf14_succ (c : Dev nD) (r k : ℕ) :
    accOf14 V c r (k + 1) = k14_pay2 (iblk14_lhs V c (4 * r + (k + 1))) (iblk14_rhs V c (4 * r + (k + 1))) (accOf14 V c r k) := rfl

theorem iblk14_lhs_at (c : Dev nD) (t : Fin cfg14.N) (n : ℕ) (hn : n = t.val) : iblk14_lhs V c n = iblk14 V c 0 t := by
  subst hn; unfold iblk14_lhs; exact dif_pos t.isLt
theorem iblk14_rhs_at (c : Dev nD) (t : Fin cfg14.N) (n : ℕ) (hn : n = t.val) : iblk14_rhs V c n = iblk14 V c 1 t := by
  subst hn; unfold iblk14_rhs; exact dif_pos t.isLt

/-- At a grid point with k = 0 the fold starts: the zero block plus the product of the point's two blocks. -/
theorem accOf14_first (c : Dev nD) (t : Fin cfg14.N) (h0 : t.val % 4 = 0) :
    accOf14 V c (t.val / 4) (t.val % 4) = k14_pay2 (iblk14 V c 0 t) (iblk14 V c 1 t) (k14_pay1 (F := F)) := by
  rw [h0, accOf14_zero, iblk14_lhs_at V c t (4 * (t.val / 4)) (by omega), iblk14_rhs_at V c t (4 * (t.val / 4)) (by omega)]

/-- At a grid point with k ≠ 0 the fold takes one step from the position before, which is in the same row of blocks. -/
theorem accOf14_next (c : Dev nD) (t : Fin cfg14.N) (h0 : ¬t.val % 4 = 0) :
    accOf14 V c (t.val / 4) (t.val % 4)
      = k14_pay2 (iblk14 V c 0 t) (iblk14 V c 1 t) (accOf14 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf14_succ, iblk14_lhs_at V c t (4 * (t.val / 4) + (k + 1)) (by omega),
    iblk14_rhs_at V c t (4 * (t.val / 4) + (k + 1)) (by omega)]

/-! ## The accumulator and the output block, point by point, as pure functions of the blocks -/

/-- k = 0: the accumulator restarts from the zero block. -/
theorem outsAt14_first (c : Dev nD) (t : Fin cfg14.N) (h0 : t.val % 4 = 0) :
    (outsAt14 V c t.val t.isLt).2 = k14_pay2 (iblk14 V c 0 t) (iblk14 V c 1 t) (k14_pay1 (F := F)) := by
  rw [outsAt14_A V c t h0]
  dsimp only
  exact sout14_A_eq c (grid14.coords t) (ms14_0 t) (hs14_0 t) (ms14_1 t) (hs14_1 t) (ms14_2 t) (hs14_2 t) scM14 (Memref.isWhole_whole _) (isFirst14 t h0) (notLast14 t (by omega)) (iblk14 V c 0 t) (iblk14 V c 1 t)

/-- k ≠ 0: the point's product is added to what the point before left. -/
theorem outsAt14_next (c : Dev nD) (t : Fin cfg14.N) (h0 : ¬t.val % 4 = 0) :
    (outsAt14 V c t.val t.isLt).2
      = k14_pay2 (iblk14 V c 0 t) (iblk14 V c 1 t) (outsAt14 V c (t.val - 1) (Nat.lt_of_le_of_lt (Nat.sub_le _ _) t.isLt)).2 := by
  by_cases h3 : t.val % 4 = 3
  · rw [outsAt14_C V c t h0 h3]
    dsimp only
    exact sout14_C_eq c (grid14.coords t) (ms14_0 t) (hs14_0 t) (ms14_1 t) (hs14_1 t) (ms14_2 t) (hs14_2 t) scM14 (Memref.isWhole_whole _) (notFirst14 t h0) (isLast14 t h3) (iblk14 V c 0 t) (iblk14 V c 1 t)
      (outsAt14 V c (t.val - 1) (Nat.lt_of_le_of_lt (Nat.sub_le _ _) t.isLt)).2
  · rw [outsAt14_B V c t h0 h3]
    dsimp only
    exact sout14_B_eq c (grid14.coords t) (ms14_0 t) (hs14_0 t) (ms14_1 t) (hs14_1 t) (ms14_2 t) (hs14_2 t) scM14 (Memref.isWhole_whole _) (notFirst14 t h0) (notLast14 t h3) (iblk14 V c 0 t) (iblk14 V c 1 t)
      (outsAt14 V c (t.val - 1) (Nat.lt_of_le_of_lt (Nat.sub_le _ _) t.isLt)).2

/-- k = 3: the output block is the accumulator. -/
theorem outsAt14_last (c : Dev nD) (t : Fin cfg14.N) (h3 : t.val % 4 = 3) :
    (outsAt14 V c t.val t.isLt).1 = (outsAt14 V c t.val t.isLt).2 := by
  have h0 : ¬t.val % 4 = 0 := by omega
  rw [outsAt14_C V c t h0 h3]
  dsimp only
  exact (out14_C_eq c (grid14.coords t) (ms14_0 t) (hs14_0 t) (ms14_1 t) (hs14_1 t) (ms14_2 t) (hs14_2 t) scM14 (Memref.isWhole_whole _) (notFirst14 t h0) (isLast14 t h3) (iblk14 V c 0 t) (iblk14 V c 1 t)
      (outsAt14 V c (t.val - 1) (Nat.lt_of_le_of_lt (Nat.sub_le _ _) t.isLt)).2).trans
    (sout14_C_eq c (grid14.coords t) (ms14_0 t) (hs14_0 t) (ms14_1 t) (hs14_1 t) (ms14_2 t) (hs14_2 t) scM14 (Memref.isWhole_whole _) (notFirst14 t h0) (isLast14 t h3) (iblk14 V c 0 t) (iblk14 V c 1 t)
      (outsAt14 V c (t.val - 1) (Nat.lt_of_le_of_lt (Nat.sub_le _ _) t.isLt)).2).symm

/-! ## The accumulator is the fold -/

/-- After position `n` the accumulator holds row `n / 4`'s fold after its step `n % 4`: by induction on the position. -/
theorem outsAt14_acc_pos (c : Dev nD) :
    ∀ (n : ℕ) (hn : n < cfg14.N), (outsAt14 V c n hn).2 = accOf14 V c (n / 4) (n % 4) := by
  intro n
  induction n with
  | zero =>
    intro hn
    exact (outsAt14_first V c ⟨0, hn⟩ (Nat.zero_mod 4)).trans (accOf14_first V c ⟨0, hn⟩ (Nat.zero_mod 4)).symm
  | succ n ih =>
    intro hn
    by_cases h0 : (n + 1) % 4 = 0
    · exact (outsAt14_first V c ⟨n + 1, hn⟩ h0).trans (accOf14_first V c ⟨n + 1, hn⟩ h0).symm
    · refine (outsAt14_next V c ⟨n + 1, hn⟩ h0).trans (Eq.trans ?_ (accOf14_next V c ⟨n + 1, hn⟩ h0).symm)
      exact congrArg (k14_pay2 (iblk14 V c 0 ⟨n + 1, hn⟩) (iblk14 V c 1 ⟨n + 1, hn⟩)) (ih (Nat.lt_of_succ_lt hn))

/-- At every grid point the accumulator holds its row's fold after the point's step. -/
theorem outsAt14_acc (c : Dev nD) (t : Fin cfg14.N) :
    (outsAt14 V c t.val t.isLt).2 = accOf14 V c (t.val / 4) (t.val % 4) :=
  outsAt14_acc_pos V c t.val t.isLt

/-- At a row's last point the output block holds the row's whole fold. -/
theorem outsAt14_out (c : Dev nD) (t : Fin cfg14.N) (h3 : t.val % 4 = 3) :
    (outsAt14 V c t.val t.isLt).1 = accOf14 V c (t.val / 4) 3 := by
  have e := outsAt14_acc V c t
  rw [h3] at e
  exact (outsAt14_last V c t h3).trans e

end Cert.KernelIdeal.Hand

end
-- ==== Proof.ValKI14b.lean ====
/- Laid out by: python3 scratch/layout_regions.py --template-region 1 --region 14 --program KernelIdeal --prefix Val --parts a,b,c --sim main_v9=main_v7,main_v25=main_v80,main_v26=main_v81 --out-dir proof/Proof
   from the hand-written text of region 1 (ValKI1b.lean): the same text, the region's number substituted. -/
/-
  Region 14 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI14a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts14 : ∀ t : Fin cfg14.N,
    win14_0.index t (0 : Fin 2) = t.val / 4 ∧ win14_0.index t (1 : Fin 2) = t.val % 4
    ∧ win14_1.index t (0 : Fin 2) = t.val % 4 ∧ win14_1.index t (1 : Fin 2) = 0
    ∧ win14_2.index t (0 : Fin 2) = t.val / 4 ∧ win14_2.index t (1 : Fin 2) = 0 :=
  (by decide +kernel : ∀ t : Fin grid14.N,
    win14_0.index t (0 : Fin 2) = t.val / 4 ∧ win14_0.index t (1 : Fin 2) = t.val % 4
    ∧ win14_1.index t (0 : Fin 2) = t.val % 4 ∧ win14_1.index t (1 : Fin 2) = 0
    ∧ win14_2.index t (0 : Fin 2) = t.val / 4 ∧ win14_2.index t (1 : Fin 2) = 0)

/-! ## The output array as one function -/

/-- The whole output array: its row 1024 r + p, column q, is entry (p, q) of the block accumulated over k = 0 … 3 in
    block row r. -/
def whole14 (c : Dev nD) : S4096x512.Idx → Elt F .f32 := fun i =>
  accOf14 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole14_apply (c : Dev nD) (r : ℕ) (y : S1024x512.Idx) (i : S4096x512.Idx)
    (h0 : (i 0).val = 1024 * r + (y 0).val) (h1 : (i 1).val = (y 1).val) :
    whole14 V c i = accOf14 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole14
  rw [hr, e]

/-- Row 1024 r + p, column q of the array is entry (p, q) of block row r's accumulated block. -/
theorem whole14_ix2 (c : Dev nD) (r : Fin 4) (p : Fin 1024) (q : Fin 512) :
    whole14 V c (ix2 (n0 := 4096) (n1 := 512) ⟨1024 * r.val + p.val, by have := r.isLt; have := p.isLt; omega⟩ q)
      = accOf14 V c r.val 3 (ix2 p q) :=
  whole14_apply V c r.val (ix2 p q) _ rfl rfl

/-! ## What a point writes back -/

/-- A point with k = 3 writes back its block of the whole-array function. -/
theorem flushed14_eq (c : Dev nD) (t : Fin cfg14.N) (hf : (cfg14.win 2).flush t = true) :
    (dat14 V c).flushed 2 t = ((cfg14.win 2).blk t).view.read (Elt F) (whole14 V c) := by
  have h3 : t.val % 4 = 3 := (flush14_2 t).mp hf
  show (cfg14.win 2).cut (grid14.coords t) ((dat14 V c).after 2 t) = _
  rw [after14_2, outsAt14_out V c t h3]
  obtain ⟨-, -, -, -, e0, e1⟩ := idxFacts14 t
  funext j
  show accOf14 V c (t.val / 4) 3 j = whole14 V c (((cfg14.win 2).blk t).view.emb j)
  refine (whole14_apply V c (t.val / 4) j _ ?_ ?_).symm
  · show win14_2.index t (0 : Fin 2) * 1024 + 1 * (j 0).val = 1024 * (t.val / 4) + (j 0).val
    rw [e0]; omega
  · show win14_2.index t (1 : Fin 2) * 512 + 1 * (j 1).val = (j 1).val
    rw [e1]; omega

/-! ## The blocks written back cover the array -/

/-- An index is in a point's output block iff each coordinate is in the block's range on its axis. -/
theorem memBlk14 (t : Fin cfg14.N) (i : S4096x512.Idx) :
    i ∈ ((cfg14.win 2).blk t).view.set ↔ ∀ a : Fin 2, win14_2.index t a * S1024x512.size a ≤ (i a).val
      ∧ (i a).val < win14_2.index t a * S1024x512.size a + S1024x512.size a := by
  show i ∈ ((View.whole main_v81).slice (win14_2.rect t)).set ↔ _
  rw [View.set_slice_whole, Rect.mem_set_unit]
  exact Iff.rfl

/-- Row i of the array lies in the block written back at the point (i / 1024, 3). -/
theorem covered14 (i : S4096x512.Idx) :
    ∃ t : Fin cfg14.N, (cfg14.win 2).flush t = true ∧ i ∈ ((cfg14.win 2).blk t).view.set := by
  have hi0 : (i 0).val < 4096 := idx2_lt0 i
  have hi1 : (i 1).val < 512 := idx2_lt1 i
  have hN : cfg14.N = 16 := N_14
  obtain ⟨t, ht⟩ : ∃ t : Fin cfg14.N, t.val = 4 * ((i 0).val / 1024) + 3 :=
    ⟨⟨4 * ((i 0).val / 1024) + 3, by rw [hN]; omega⟩, rfl⟩
  refine ⟨t, (flush14_2 t).mpr (by omega), ?_⟩
  rw [memBlk14]
  obtain ⟨-, -, -, -, e0, e1⟩ := idxFacts14 t
  intro a
  match a with
  | ⟨0, _⟩ =>
    show win14_2.index t (0 : Fin 2) * 1024 ≤ (i 0).val ∧ (i 0).val < win14_2.index t (0 : Fin 2) * 1024 + 1024
    rw [e0]; omega
  | ⟨1, _⟩ =>
    show win14_2.index t (1 : Fin 2) * 512 ≤ (i 1).val ∧ (i 1).val < win14_2.index t (1 : Fin 2) * 512 + 512
    rw [e1]; omega

/-! ## The three arrays after the region -/

/-- The output array after the region is the whole-array function. -/
theorem final14_2 (c : Dev nD) : (dat14 V c).arrAt 2 cfg14.N = whole14 V c :=
  (dat14 V c).arrAt_eq_of_cover 2 (whole14 V c) (flushed14_eq V c) covered14

/-- The two input arrays are as the region found them. -/
theorem final14_0 (c : Dev nD) : (dat14 V c).arrAt 0 cfg14.N = V c main_v7 :=
  ((dat14 V c).arrAt_in 0 rfl cfg14.N).trans (A_eq14 V c 0)
theorem final14_1 (c : Dev nD) : (dat14 V c).arrAt 1 cfg14.N = V c main_v80 :=
  ((dat14 V c).arrAt_in 1 rfl cfg14.N).trans (A_eq14 V c 1)

/-! ## The input blocks as blocks of the operand arrays -/

/-- The left operand's block at the point (r, k): entry (y₀, y₁) is the array's entry (1024 r + y₀, 1024 k + y₁). -/
theorem iblk14_lhs_apply (c : Dev nD) (r k : Fin 4) (y : S1024x1024.Idx) (i : S4096x4096.Idx)
    (h0 : (i 0).val = 1024 * r.val + (y 0).val) (h1 : (i 1).val = 1024 * k.val + (y 1).val) :
    iblk14_lhs V c (4 * r.val + k.val) y = (V c main_v7 : S4096x4096.Idx → Elt F .bf16) i := by
  have hN : cfg14.N = 16 := N_14
  have hr := r.isLt
  have hk := k.isLt
  have hlt : 4 * r.val + k.val < cfg14.N := by rw [hN]; omega
  rw [iblk14_lhs_eq V c _ hlt]
  obtain ⟨e0, e1, -, -, -, -⟩ := idxFacts14 ⟨4 * r.val + k.val, hlt⟩
  have e0' : win14_0.index ⟨4 * r.val + k.val, hlt⟩ (0 : Fin 2) = (4 * r.val + k.val) / 4 := e0
  have e1' : win14_0.index ⟨4 * r.val + k.val, hlt⟩ (1 : Fin 2) = (4 * r.val + k.val) % 4 := e1
  unfold iblk14
  rw [View.read_apply]
  show V c main_v7 (((cfg14.win 0).blk ⟨4 * r.val + k.val, hlt⟩).view.emb y) = V c main_v7 i
  congr 1
  funext a
  apply Fin.ext
  match a with
  | ⟨0, _⟩ =>
    show win14_0.index ⟨4 * r.val + k.val, hlt⟩ (0 : Fin 2) * 1024 + 1 * (y 0).val = (i 0).val
    rw [e0', h0]; omega
  | ⟨1, _⟩ =>
    show win14_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk14_rhs_apply (c : Dev nD) (r k : Fin 4) (y : S1024x512.Idx) (i : S4096x512.Idx)
    (h0 : (i 0).val = 1024 * k.val + (y 0).val) (h1 : (i 1).val = (y 1).val) :
    iblk14_rhs V c (4 * r.val + k.val) y = (V c main_v80 : S4096x512.Idx → Elt F .f32) i := by
  have hN : cfg14.N = 16 := N_14
  have hr := r.isLt
  have hk := k.isLt
  have hlt : 4 * r.val + k.val < cfg14.N := by rw [hN]; omega
  rw [iblk14_rhs_eq V c _ hlt]
  obtain ⟨-, -, e0, e1, -, -⟩ := idxFacts14 ⟨4 * r.val + k.val, hlt⟩
  have e0' : win14_1.index ⟨4 * r.val + k.val, hlt⟩ (0 : Fin 2) = (4 * r.val + k.val) % 4 := e0
  have e1' : win14_1.index ⟨4 * r.val + k.val, hlt⟩ (1 : Fin 2) = 0 := e1
  unfold iblk14
  rw [View.read_apply]
  show V c main_v80 (((cfg14.win 1).blk ⟨4 * r.val + k.val, hlt⟩).view.emb y) = V c main_v80 i
  congr 1
  funext a
  apply Fin.ext
  match a with
  | ⟨0, _⟩ =>
    show win14_1.index ⟨4 * r.val + k.val, hlt⟩ (0 : Fin 2) * 1024 + 1 * (y 0).val = (i 0).val
    rw [e0', h0]; omega
  | ⟨1, _⟩ =>
    show win14_1.index ⟨4 * r.val + k.val, hlt⟩ (1 : Fin 2) * 512 + 1 * (y 1).val = (i 1).val
    rw [e1', h1]; omega

/-- The accumulated block after the fourth step, unfolded: four steps from the zero block. -/
theorem accOf14_three (c : Dev nD) (r : ℕ) :
    accOf14 V c r 3
      = k14_pay2 (iblk14_lhs V c (4 * r + 3)) (iblk14_rhs V c (4 * r + 3))
          (k14_pay2 (iblk14_lhs V c (4 * r + 2)) (iblk14_rhs V c (4 * r + 2))
            (k14_pay2 (iblk14_lhs V c (4 * r + 1)) (iblk14_rhs V c (4 * r + 1))
              (k14_pay2 (iblk14_lhs V c (4 * r)) (iblk14_rhs V c (4 * r)) (k14_pay1 (F := F))))) := rfl

end Cert.KernelIdeal.Hand

end
-- ==== Proof.ValKI14c.lean ====
/- Laid out by: python3 scratch/layout_regions.py --template-region 1 --region 14 --program KernelIdeal --prefix Val --parts a,b,c --sim main_v9=main_v7,main_v25=main_v80,main_v26=main_v81 --out-dir proof/Proof
   from the hand-written text of region 1 (ValKI1c.lean): the same text, the region's number substituted. -/
/-
  Region 14 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI14b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf14_step (x0 : Vec Ideal S1024x1024 .bf16) (x1 acc : Vec Ideal S1024x512 .f32) :
    k14_pay2 (F := Ideal) x0 x1 acc
      = Cert.MMLaw.accStep dot_S1024x1024_S1024x512_S1024x512_1_0_0_1_n_n none x0 x1 acc := by
  unfold k14_pay2
  simp only [shapeCast_self]
  rfl

/-- The accumulator starts from the zero block. -/
theorem accOf14_init (j : S1024x512.Idx) : k14_pay1 (F := Ideal) j = 0 := by
  unfold k14_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf14_eq_blk (c : Dev nD) (r : Fin 4) (D : DotDims S4096x4096 S4096x512 S4096x512) (hD : Cert.MMLaw.IsPlain D)
    (prec : Option ContractPrecision) :
    accOf14 V c r.val 3
      = Cert.MMLaw.blk (nr := 4) (nc := 1) 1024 512 rfl rfl (Cert.MMLaw.whole D prec (V c main_v7) (V c main_v80)) r 0 := by
  rw [accOf14_three]
  simp only [accOf14_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v7) (V c main_v80) r 0
    (fun k => iblk14_lhs V c (4 * r.val + k.val)) (fun k => iblk14_rhs V c (4 * r.val + k.val))
    (fun k => funext fun y => iblk14_lhs_apply V c r k y _ rfl rfl)
    (fun k => funext fun y => iblk14_rhs_apply V c r k y _ rfl (by show 512 * 0 + (y 1).val = (y 1).val; omega))
    (k14_pay1 (F := Ideal)) accOf14_init

/-! ## The output array after the region is the whole product -/

/-- The region leaves in its output array the product of its two operand arrays. -/
theorem final14_2_eq_whole (c : Dev nD) (D : DotDims S4096x4096 S4096x512 S4096x512) (hD : Cert.MMLaw.IsPlain D)
    (prec : Option ContractPrecision) :
    (dat14 (F := Ideal) V c).arrAt 2 cfg14.N = Cert.MMLaw.whole D prec (V c main_v7) (V c main_v80) := by
  rw [final14_2]
  funext i
  have hi0 : (i 0).val < 4096 := idx2_lt0 i
  have h := congrFun (accOf14_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final14_2_eq_dot (c : Dev nD) (D : DotDims S4096x4096 S4096x512 S4096x512) (hD : Cert.MMLaw.IsPlain D)
    (prec : Option ContractPrecision) :
    (dat14 (F := Ideal) V c).arrAt 2 cfg14.N = Host.dotGeneral (F := Ideal) (φ₁ := .bf16) (φ₂ := .f32) D prec (V c main_v7) (V c main_v80) :=
  final14_2_eq_whole V c D hD prec

end Cert.KernelIdeal.Hand

end
-- ==== Proof.ValKI15a.lean ====
/- Laid out by: python3 scratch/layout_regions.py --template-region 1 --region 15 --program KernelIdeal --prefix Val --parts a,b,c --sim main_v9=main_v9,main_v25=main_v99,main_v26=main_v100 --out-dir proof/Proof
   from the hand-written text of region 1 (ValKI1a.lean): the same text, the region's number substituted. -/
/-
  Region 15 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k15_pay1` (the zero block) and `k15_pay2` (accumulator plus product) are the two stores' payloads.

  So along one row of blocks r the accumulator after its step k is the left fold
    accOf15 r 0 = pay2 (a (r, 0)) (b 0) pay1,    accOf15 r (k + 1) = pay2 (a (r, k + 1)) (b (k + 1)) (accOf15 r k),
  the grid point (r, k) being position 4 r + k; and at k = 3 the output block holds accOf15 r 3.
-/
import proofs.«158944_j64613488001249_1_alg».proof.Proof.RegKI15
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout15_A_eq (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond15_0 i) (hc1 : ¬cond15_1 i)
    (x0 : Vec F S1024x1024 .bf16) (x1 : Vec F S1024x512 .f32) :
    sout15_A c i arg2 harg2 arg3 harg3 arg4 harg4 arg5 harg5 hc0 hc1 x0 x1 = k15_pay2 x0 x1 (k15_pay1 (F := F)) := by
  have hz : (![0, 0] : Fin 2 → Nat) = fun _ => 0 := funext fun a => by fin_cases a <;> rfl
  unfold sout15_A
  rw [View.read_writes_eq_canon _ _ _ (scover15_A c i arg2 harg2 arg3 harg3 arg4 harg4 arg5 harg5 hc0 hc1 x0 x1)]
  unfold kernelRun15_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout15_B_eq (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond15_0 i) (hc1 : ¬cond15_1 i)
    (x0 : Vec F S1024x1024 .bf16) (x1 : Vec F S1024x512 .f32) (xs0 : Vec F S1024x512 .f32) :
    sout15_B c i arg2 harg2 arg3 harg3 arg4 harg4 arg5 harg5 hc0 hc1 x0 x1 xs0 = k15_pay2 x0 x1 xs0 := by
  have hz : (![0, 0] : Fin 2 → Nat) = fun _ => 0 := funext fun a => by fin_cases a <;> rfl
  unfold sout15_B
  rw [View.read_writes_eq_canon _ _ _ (scover15_B c i arg2 harg2 arg3 harg3 arg4 harg4 arg5 harg5 hc0 hc1 x0 x1 xs0)]
  unfold kernelRun15_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout15_C_eq (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond15_0 i) (hc1 : cond15_1 i)
    (x0 : Vec F S1024x1024 .bf16) (x1 : Vec F S1024x512 .f32) (xs0 : Vec F S1024x512 .f32) :
    sout15_C c i arg2 harg2 arg3 harg3 arg4 harg4 arg5 harg5 hc0 hc1 x0 x1 xs0 = k15_pay2 x0 x1 xs0 := by
  have hz : (![0, 0] : Fin 2 → Nat) = fun _ => 0 := funext fun a => by fin_cases a <;> rfl
  unfold sout15_C
  rw [View.read_writes_eq_canon _ _ _ (scover15_C c i arg2 harg2 arg3 harg3 arg4 harg4 arg5 harg5 hc0 hc1 x0 x1 xs0)]
  unfold kernelRun15_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out15_C_eq (c : Dev nD) (i : grid15.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond15_0 i) (hc1 : cond15_1 i)
    (x0 : Vec F S1024x1024 .bf16) (x1 : Vec F S1024x512 .f32) (xs0 : Vec F S1024x512 .f32) :
    out15_C c i arg2 harg2 arg3 harg3 arg4 harg4 arg5 harg5 hc0 hc1 x0 x1 xs0 = k15_pay2 x0 x1 xs0 := by
  have hz : (![0, 0] : Fin 2 → Nat) = fun _ => 0 := funext fun a => by fin_cases a <;> rfl
  unfold out15_C
  rw [View.read_writes_eq_canon _ _ _ (cover15_C c i arg2 harg2 arg3 harg3 arg4 harg4 arg5 harg5 hc0 hc1 x0 x1 xs0)]
  unfold kernelRun15_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk15_lhs (c : Dev nD) (n : ℕ) : Vec F S1024x1024 .bf16 :=
  if h : n < cfg15.N then iblk15 V c 0 ⟨n, h⟩ else iblk15 V c 0 ⟨0, by have h : cfg15.N = 16 := N_15; omega⟩
/-- The right factor's block at grid position `n`. -/
def iblk15_rhs (c : Dev nD) (n : ℕ) : Vec F S1024x512 .f32 :=
  if h : n < cfg15.N then iblk15 V c 1 ⟨n, h⟩ else iblk15 V c 1 ⟨0, by have h : cfg15.N = 16 := N_15; omega⟩

theorem iblk15_lhs_eq (c : Dev nD) (n : ℕ) (h : n < cfg15.N) : iblk15_lhs V c n = iblk15 V c 0 ⟨n, h⟩ := dif_pos h
theorem iblk15_rhs_eq (c : Dev nD) (n : ℕ) (h : n < cfg15.N) : iblk15_rhs V c n = iblk15 V c 1 ⟨n, h⟩ := dif_pos h

/-! ## The accumulator along one row of blocks -/

/-- Row of blocks `r`, after its step `k`: the zero block plus the products of the blocks at positions 4 r, …, 4 r + k,
    added in that order. -/
def accOf15 (c : Dev nD) (r : ℕ) : ℕ → Vec F S1024x512 .f32
  | 0 => k15_pay2 (iblk15_lhs V c (4 * r)) (iblk15_rhs V c (4 * r)) (k15_pay1 (F := F))
  | k + 1 => k15_pay2 (iblk15_lhs V c (4 * r + (k + 1))) (iblk15_rhs V c (4 * r + (k + 1))) (accOf15 c r k)

theorem accOf15_zero (c : Dev nD) (r : ℕ) :
    accOf15 V c r 0 = k15_pay2 (iblk15_lhs V c (4 * r)) (iblk15_rhs V c (4 * r)) (k15_pay1 (F := F)) := rfl
theorem accOf15_succ (c : Dev nD) (r k : ℕ) :
    accOf15 V c r (k + 1) = k15_pay2 (iblk15_lhs V c (4 * r + (k + 1))) (iblk15_rhs V c (4 * r + (k + 1))) (accOf15 V c r k) := rfl

theorem iblk15_lhs_at (c : Dev nD) (t : Fin cfg15.N) (n : ℕ) (hn : n = t.val) : iblk15_lhs V c n = iblk15 V c 0 t := by
  subst hn; unfold iblk15_lhs; exact dif_pos t.isLt
theorem iblk15_rhs_at (c : Dev nD) (t : Fin cfg15.N) (n : ℕ) (hn : n = t.val) : iblk15_rhs V c n = iblk15 V c 1 t := by
  subst hn; unfold iblk15_rhs; exact dif_pos t.isLt

/-- At a grid point with k = 0 the fold starts: the zero block plus the product of the point's two blocks. -/
theorem accOf15_first (c : Dev nD) (t : Fin cfg15.N) (h0 : t.val % 4 = 0) :
    accOf15 V c (t.val / 4) (t.val % 4) = k15_pay2 (iblk15 V c 0 t) (iblk15 V c 1 t) (k15_pay1 (F := F)) := by
  rw [h0, accOf15_zero, iblk15_lhs_at V c t (4 * (t.val / 4)) (by omega), iblk15_rhs_at V c t (4 * (t.val / 4)) (by omega)]

/-- At a grid point with k ≠ 0 the fold takes one step from the position before, which is in the same row of blocks. -/
theorem accOf15_next (c : Dev nD) (t : Fin cfg15.N) (h0 : ¬t.val % 4 = 0) :
    accOf15 V c (t.val / 4) (t.val % 4)
      = k15_pay2 (iblk15 V c 0 t) (iblk15 V c 1 t) (accOf15 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf15_succ, iblk15_lhs_at V c t (4 * (t.val / 4) + (k + 1)) (by omega),
    iblk15_rhs_at V c t (4 * (t.val / 4) + (k + 1)) (by omega)]

/-! ## The accumulator and the output block, point by point, as pure functions of the blocks -/

/-- k = 0: the accumulator restarts from the zero block. -/
theorem outsAt15_first (c : Dev nD) (t : Fin cfg15.N) (h0 : t.val % 4 = 0) :
    (outsAt15 V c t.val t.isLt).2 = k15_pay2 (iblk15 V c 0 t) (iblk15 V c 1 t) (k15_pay1 (F := F)) := by
  rw [outsAt15_A V c t h0]
  dsimp only
  exact sout15_A_eq c (grid15.coords t) (ms15_0 t) (hs15_0 t) (ms15_1 t) (hs15_1 t) (ms15_2 t) (hs15_2 t) scM15 (Memref.isWhole_whole _) (isFirst15 t h0) (notLast15 t (by omega)) (iblk15 V c 0 t) (iblk15 V c 1 t)

/-- k ≠ 0: the point's product is added to what the point before left. -/
theorem outsAt15_next (c : Dev nD) (t : Fin cfg15.N) (h0 : ¬t.val % 4 = 0) :
    (outsAt15 V c t.val t.isLt).2
      = k15_pay2 (iblk15 V c 0 t) (iblk15 V c 1 t) (outsAt15 V c (t.val - 1) (Nat.lt_of_le_of_lt (Nat.sub_le _ _) t.isLt)).2 := by
  by_cases h3 : t.val % 4 = 3
  · rw [outsAt15_C V c t h0 h3]
    dsimp only
    exact sout15_C_eq c (grid15.coords t) (ms15_0 t) (hs15_0 t) (ms15_1 t) (hs15_1 t) (ms15_2 t) (hs15_2 t) scM15 (Memref.isWhole_whole _) (notFirst15 t h0) (isLast15 t h3) (iblk15 V c 0 t) (iblk15 V c 1 t)
      (outsAt15 V c (t.val - 1) (Nat.lt_of_le_of_lt (Nat.sub_le _ _) t.isLt)).2
  · rw [outsAt15_B V c t h0 h3]
    dsimp only
    exact sout15_B_eq c (grid15.coords t) (ms15_0 t) (hs15_0 t) (ms15_1 t) (hs15_1 t) (ms15_2 t) (hs15_2 t) scM15 (Memref.isWhole_whole _) (notFirst15 t h0) (notLast15 t h3) (iblk15 V c 0 t) (iblk15 V c 1 t)
      (outsAt15 V c (t.val - 1) (Nat.lt_of_le_of_lt (Nat.sub_le _ _) t.isLt)).2

/-- k = 3: the output block is the accumulator. -/
theorem outsAt15_last (c : Dev nD) (t : Fin cfg15.N) (h3 : t.val % 4 = 3) :
    (outsAt15 V c t.val t.isLt).1 = (outsAt15 V c t.val t.isLt).2 := by
  have h0 : ¬t.val % 4 = 0 := by omega
  rw [outsAt15_C V c t h0 h3]
  dsimp only
  exact (out15_C_eq c (grid15.coords t) (ms15_0 t) (hs15_0 t) (ms15_1 t) (hs15_1 t) (ms15_2 t) (hs15_2 t) scM15 (Memref.isWhole_whole _) (notFirst15 t h0) (isLast15 t h3) (iblk15 V c 0 t) (iblk15 V c 1 t)
      (outsAt15 V c (t.val - 1) (Nat.lt_of_le_of_lt (Nat.sub_le _ _) t.isLt)).2).trans
    (sout15_C_eq c (grid15.coords t) (ms15_0 t) (hs15_0 t) (ms15_1 t) (hs15_1 t) (ms15_2 t) (hs15_2 t) scM15 (Memref.isWhole_whole _) (notFirst15 t h0) (isLast15 t h3) (iblk15 V c 0 t) (iblk15 V c 1 t)
      (outsAt15 V c (t.val - 1) (Nat.lt_of_le_of_lt (Nat.sub_le _ _) t.isLt)).2).symm

/-! ## The accumulator is the fold -/

/-- After position `n` the accumulator holds row `n / 4`'s fold after its step `n % 4`: by induction on the position. -/
theorem outsAt15_acc_pos (c : Dev nD) :
    ∀ (n : ℕ) (hn : n < cfg15.N), (outsAt15 V c n hn).2 = accOf15 V c (n / 4) (n % 4) := by
  intro n
  induction n with
  | zero =>
    intro hn
    exact (outsAt15_first V c ⟨0, hn⟩ (Nat.zero_mod 4)).trans (accOf15_first V c ⟨0, hn⟩ (Nat.zero_mod 4)).symm
  | succ n ih =>
    intro hn
    by_cases h0 : (n + 1) % 4 = 0
    · exact (outsAt15_first V c ⟨n + 1, hn⟩ h0).trans (accOf15_first V c ⟨n + 1, hn⟩ h0).symm
    · refine (outsAt15_next V c ⟨n + 1, hn⟩ h0).trans (Eq.trans ?_ (accOf15_next V c ⟨n + 1, hn⟩ h0).symm)
      exact congrArg (k15_pay2 (iblk15 V c 0 ⟨n + 1, hn⟩) (iblk15 V c 1 ⟨n + 1, hn⟩)) (ih (Nat.lt_of_succ_lt hn))

/-- At every grid point the accumulator holds its row's fold after the point's step. -/
theorem outsAt15_acc (c : Dev nD) (t : Fin cfg15.N) :
    (outsAt15 V c t.val t.isLt).2 = accOf15 V c (t.val / 4) (t.val % 4) :=
  outsAt15_acc_pos V c t.val t.isLt

/-- At a row's last point the output block holds the row's whole fold. -/
theorem outsAt15_out (c : Dev nD) (t : Fin cfg15.N) (h3 : t.val % 4 = 3) :
    (outsAt15 V c t.val t.isLt).1 = accOf15 V c (t.val / 4) 3 := by
  have e := outsAt15_acc V c t
  rw [h3] at e
  exact (outsAt15_last V c t h3).trans e

end Cert.KernelIdeal.Hand

end
-- ==== Proof.ValKI15b.lean ====
/- Laid out by: python3 scratch/layout_regions.py --template-region 1 --region 15 --program KernelIdeal --prefix Val --parts a,b,c --sim main_v9=main_v9,main_v25=main_v99,main_v26=main_v100 --out-dir proof/Proof
   from the hand-written text of region 1 (ValKI1b.lean): the same text, the region's number substituted. -/
/-
  Region 15 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI15a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts15 : ∀ t : Fin cfg15.N,
    win15_0.index t (0 : Fin 2) = t.val / 4 ∧ win15_0.index t (1 : Fin 2) = t.val % 4
    ∧ win15_1.index t (0 : Fin 2) = t.val % 4 ∧ win15_1.index t (1 : Fin 2) = 0
    ∧ win15_2.index t (0 : Fin 2) = t.val / 4 ∧ win15_2.index t (1 : Fin 2) = 0 :=
  (by decide +kernel : ∀ t : Fin grid15.N,
    win15_0.index t (0 : Fin 2) = t.val / 4 ∧ win15_0.index t (1 : Fin 2) = t.val % 4
    ∧ win15_1.index t (0 : Fin 2) = t.val % 4 ∧ win15_1.index t (1 : Fin 2) = 0
    ∧ win15_2.index t (0 : Fin 2) = t.val / 4 ∧ win15_2.index t (1 : Fin 2) = 0)

/-! ## The output array as one function -/

/-- The whole output array: its row 1024 r + p, column q, is entry (p, q) of the block accumulated over k = 0 … 3 in
    block row r. -/
def whole15 (c : Dev nD) : S4096x512.Idx → Elt F .f32 := fun i =>
  accOf15 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole15_apply (c : Dev nD) (r : ℕ) (y : S1024x512.Idx) (i : S4096x512.Idx)
    (h0 : (i 0).val = 1024 * r + (y 0).val) (h1 : (i 1).val = (y 1).val) :
    whole15 V c i = accOf15 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole15
  rw [hr, e]

/-- Row 1024 r + p, column q of the array is entry (p, q) of block row r's accumulated block. -/
theorem whole15_ix2 (c : Dev nD) (r : Fin 4) (p : Fin 1024) (q : Fin 512) :
    whole15 V c (ix2 (n0 := 4096) (n1 := 512) ⟨1024 * r.val + p.val, by have := r.isLt; have := p.isLt; omega⟩ q)
      = accOf15 V c r.val 3 (ix2 p q) :=
  whole15_apply V c r.val (ix2 p q) _ rfl rfl

/-! ## What a point writes back -/

/-- A point with k = 3 writes back its block of the whole-array function. -/
theorem flushed15_eq (c : Dev nD) (t : Fin cfg15.N) (hf : (cfg15.win 2).flush t = true) :
    (dat15 V c).flushed 2 t = ((cfg15.win 2).blk t).view.read (Elt F) (whole15 V c) := by
  have h3 : t.val % 4 = 3 := (flush15_2 t).mp hf
  show (cfg15.win 2).cut (grid15.coords t) ((dat15 V c).after 2 t) = _
  rw [after15_2, outsAt15_out V c t h3]
  obtain ⟨-, -, -, -, e0, e1⟩ := idxFacts15 t
  funext j
  show accOf15 V c (t.val / 4) 3 j = whole15 V c (((cfg15.win 2).blk t).view.emb j)
  refine (whole15_apply V c (t.val / 4) j _ ?_ ?_).symm
  · show win15_2.index t (0 : Fin 2) * 1024 + 1 * (j 0).val = 1024 * (t.val / 4) + (j 0).val
    rw [e0]; omega
  · show win15_2.index t (1 : Fin 2) * 512 + 1 * (j 1).val = (j 1).val
    rw [e1]; omega

/-! ## The blocks written back cover the array -/

/-- An index is in a point's output block iff each coordinate is in the block's range on its axis. -/
theorem memBlk15 (t : Fin cfg15.N) (i : S4096x512.Idx) :
    i ∈ ((cfg15.win 2).blk t).view.set ↔ ∀ a : Fin 2, win15_2.index t a * S1024x512.size a ≤ (i a).val
      ∧ (i a).val < win15_2.index t a * S1024x512.size a + S1024x512.size a := by
  show i ∈ ((View.whole main_v100).slice (win15_2.rect t)).set ↔ _
  rw [View.set_slice_whole, Rect.mem_set_unit]
  exact Iff.rfl

/-- Row i of the array lies in the block written back at the point (i / 1024, 3). -/
theorem covered15 (i : S4096x512.Idx) :
    ∃ t : Fin cfg15.N, (cfg15.win 2).flush t = true ∧ i ∈ ((cfg15.win 2).blk t).view.set := by
  have hi0 : (i 0).val < 4096 := idx2_lt0 i
  have hi1 : (i 1).val < 512 := idx2_lt1 i
  have hN : cfg15.N = 16 := N_15
  obtain ⟨t, ht⟩ : ∃ t : Fin cfg15.N, t.val = 4 * ((i 0).val / 1024) + 3 :=
    ⟨⟨4 * ((i 0).val / 1024) + 3, by rw [hN]; omega⟩, rfl⟩
  refine ⟨t, (flush15_2 t).mpr (by omega), ?_⟩
  rw [memBlk15]
  obtain ⟨-, -, -, -, e0, e1⟩ := idxFacts15 t
  intro a
  match a with
  | ⟨0, _⟩ =>
    show win15_2.index t (0 : Fin 2) * 1024 ≤ (i 0).val ∧ (i 0).val < win15_2.index t (0 : Fin 2) * 1024 + 1024
    rw [e0]; omega
  | ⟨1, _⟩ =>
    show win15_2.index t (1 : Fin 2) * 512 ≤ (i 1).val ∧ (i 1).val < win15_2.index t (1 : Fin 2) * 512 + 512
    rw [e1]; omega

/-! ## The three arrays after the region -/

/-- The output array after the region is the whole-array function. -/
theorem final15_2 (c : Dev nD) : (dat15 V c).arrAt 2 cfg15.N = whole15 V c :=
  (dat15 V c).arrAt_eq_of_cover 2 (whole15 V c) (flushed15_eq V c) covered15

/-- The two input arrays are as the region found them. -/
theorem final15_0 (c : Dev nD) : (dat15 V c).arrAt 0 cfg15.N = V c main_v9 :=
  ((dat15 V c).arrAt_in 0 rfl cfg15.N).trans (A_eq15 V c 0)
theorem final15_1 (c : Dev nD) : (dat15 V c).arrAt 1 cfg15.N = V c main_v99 :=
  ((dat15 V c).arrAt_in 1 rfl cfg15.N).trans (A_eq15 V c 1)

/-! ## The input blocks as blocks of the operand arrays -/

/-- The left operand's block at the point (r, k): entry (y₀, y₁) is the array's entry (1024 r + y₀, 1024 k + y₁). -/
theorem iblk15_lhs_apply (c : Dev nD) (r k : Fin 4) (y : S1024x1024.Idx) (i : S4096x4096.Idx)
    (h0 : (i 0).val = 1024 * r.val + (y 0).val) (h1 : (i 1).val = 1024 * k.val + (y 1).val) :
    iblk15_lhs V c (4 * r.val + k.val) y = (V c main_v9 : S4096x4096.Idx → Elt F .bf16) i := by
  have hN : cfg15.N = 16 := N_15
  have hr := r.isLt
  have hk := k.isLt
  have hlt : 4 * r.val + k.val < cfg15.N := by rw [hN]; omega
  rw [iblk15_lhs_eq V c _ hlt]
  obtain ⟨e0, e1, -, -, -, -⟩ := idxFacts15 ⟨4 * r.val + k.val, hlt⟩
  have e0' : win15_0.index ⟨4 * r.val + k.val, hlt⟩ (0 : Fin 2) = (4 * r.val + k.val) / 4 := e0
  have e1' : win15_0.index ⟨4 * r.val + k.val, hlt⟩ (1 : Fin 2) = (4 * r.val + k.val) % 4 := e1
  unfold iblk15
  rw [View.read_apply]
  show V c main_v9 (((cfg15.win 0).blk ⟨4 * r.val + k.val, hlt⟩).view.emb y) = V c main_v9 i
  congr 1
  funext a
  apply Fin.ext
  match a with
  | ⟨0, _⟩ =>
    show win15_0.index ⟨4 * r.val + k.val, hlt⟩ (0 : Fin 2) * 1024 + 1 * (y 0).val = (i 0).val
    rw [e0', h0]; omega
  | ⟨1, _⟩ =>
    show win15_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk15_rhs_apply (c : Dev nD) (r k : Fin 4) (y : S1024x512.Idx) (i : S4096x512.Idx)
    (h0 : (i 0).val = 1024 * k.val + (y 0).val) (h1 : (i 1).val = (y 1).val) :
    iblk15_rhs V c (4 * r.val + k.val) y = (V c main_v99 : S4096x512.Idx → Elt F .f32) i := by
  have hN : cfg15.N = 16 := N_15
  have hr := r.isLt
  have hk := k.isLt
  have hlt : 4 * r.val + k.val < cfg15.N := by rw [hN]; omega
  rw [iblk15_rhs_eq V c _ hlt]
  obtain ⟨-, -, e0, e1, -, -⟩ := idxFacts15 ⟨4 * r.val + k.val, hlt⟩
  have e0' : win15_1.index ⟨4 * r.val + k.val, hlt⟩ (0 : Fin 2) = (4 * r.val + k.val) % 4 := e0
  have e1' : win15_1.index ⟨4 * r.val + k.val, hlt⟩ (1 : Fin 2) = 0 := e1
  unfold iblk15
  rw [View.read_apply]
  show V c main_v99 (((cfg15.win 1).blk ⟨4 * r.val + k.val, hlt⟩).view.emb y) = V c main_v99 i
  congr 1
  funext a
  apply Fin.ext
  match a with
  | ⟨0, _⟩ =>
    show win15_1.index ⟨4 * r.val + k.val, hlt⟩ (0 : Fin 2) * 1024 + 1 * (y 0).val = (i 0).val
    rw [e0', h0]; omega
  | ⟨1, _⟩ =>
    show win15_1.index ⟨4 * r.val + k.val, hlt⟩ (1 : Fin 2) * 512 + 1 * (y 1).val = (i 1).val
    rw [e1', h1]; omega

/-- The accumulated block after the fourth step, unfolded: four steps from the zero block. -/
theorem accOf15_three (c : Dev nD) (r : ℕ) :
    accOf15 V c r 3
      = k15_pay2 (iblk15_lhs V c (4 * r + 3)) (iblk15_rhs V c (4 * r + 3))
          (k15_pay2 (iblk15_lhs V c (4 * r + 2)) (iblk15_rhs V c (4 * r + 2))
            (k15_pay2 (iblk15_lhs V c (4 * r + 1)) (iblk15_rhs V c (4 * r + 1))
              (k15_pay2 (iblk15_lhs V c (4 * r)) (iblk15_rhs V c (4 * r)) (k15_pay1 (F := F))))) := rfl

end Cert.KernelIdeal.Hand

end
-- ==== Proof.ValKI15c.lean ====
/- Laid out by: python3 scratch/layout_regions.py --template-region 1 --region 15 --program KernelIdeal --prefix Val --parts a,b,c --sim main_v9=main_v9,main_v25=main_v99,main_v26=main_v100 --out-dir proof/Proof
   from the hand-written text of region 1 (ValKI1c.lean): the same text, the region's number substituted. -/
/-
  Region 15 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI15b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf15_step (x0 : Vec Ideal S1024x1024 .bf16) (x1 acc : Vec Ideal S1024x512 .f32) :
    k15_pay2 (F := Ideal) x0 x1 acc
      = Cert.MMLaw.accStep dot_S1024x1024_S1024x512_S1024x512_1_0_0_1_n_n none x0 x1 acc := by
  unfold k15_pay2
  simp only [shapeCast_self]
  rfl

/-- The accumulator starts from the zero block. -/
theorem accOf15_init (j : S1024x512.Idx) : k15_pay1 (F := Ideal) j = 0 := by
  unfold k15_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf15_eq_blk (c : Dev nD) (r : Fin 4) (D : DotDims S4096x4096 S4096x512 S4096x512) (hD : Cert.MMLaw.IsPlain D)
    (prec : Option ContractPrecision) :
    accOf15 V c r.val 3
      = Cert.MMLaw.blk (nr := 4) (nc := 1) 1024 512 rfl rfl (Cert.MMLaw.whole D prec (V c main_v9) (V c main_v99)) r 0 := by
  rw [accOf15_three]
  simp only [accOf15_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v9) (V c main_v99) r 0
    (fun k => iblk15_lhs V c (4 * r.val + k.val)) (fun k => iblk15_rhs V c (4 * r.val + k.val))
    (fun k => funext fun y => iblk15_lhs_apply V c r k y _ rfl rfl)
    (fun k => funext fun y => iblk15_rhs_apply V c r k y _ rfl (by show 512 * 0 + (y 1).val = (y 1).val; omega))
    (k15_pay1 (F := Ideal)) accOf15_init

/-! ## The output array after the region is the whole product -/

/-- The region leaves in its output array the product of its two operand arrays. -/
theorem final15_2_eq_whole (c : Dev nD) (D : DotDims S4096x4096 S4096x512 S4096x512) (hD : Cert.MMLaw.IsPlain D)
    (prec : Option ContractPrecision) :
    (dat15 (F := Ideal) V c).arrAt 2 cfg15.N = Cert.MMLaw.whole D prec (V c main_v9) (V c main_v99) := by
  rw [final15_2]
  funext i
  have hi0 : (i 0).val < 4096 := idx2_lt0 i
  have h := congrFun (accOf15_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final15_2_eq_dot (c : Dev nD) (D : DotDims S4096x4096 S4096x512 S4096x512) (hD : Cert.MMLaw.IsPlain D)
    (prec : Option ContractPrecision) :
    (dat15 (F := Ideal) V c).arrAt 2 cfg15.N = Host.dotGeneral (F := Ideal) (φ₁ := .bf16) (φ₂ := .f32) D prec (V c main_v9) (V c main_v99) :=
  final15_2_eq_whole V c D hD prec

end Cert.KernelIdeal.Hand

end
-- ==== Proof.ValKI16a.lean ====
/- Laid out by: python3 scratch/layout_regions.py --template-region 1 --region 16 --program KernelIdeal --prefix Val --parts a,b,c --sim main_v9=main_v8,main_v25=main_v94,main_v26=main_v104 --out-dir proof/Proof
   from the hand-written text of region 1 (ValKI1a.lean): the same text, the region's number substituted. -/
/-
  Region 16 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k16_pay1` (the zero block) and `k16_pay2` (accumulator plus product) are the two stores' payloads.

  So along one row of blocks r the accumulator after its step k is the left fold
    accOf16 r 0 = pay2 (a (r, 0)) (b 0) pay1,    accOf16 r (k + 1) = pay2 (a (r, k + 1)) (b (k + 1)) (accOf16 r k),
  the grid point (r, k) being position 4 r + k; and at k = 3 the output block holds accOf16 r 3.
-/
import proofs.«158944_j64613488001249_1_alg».proof.Proof.RegKI16
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout16_A_eq (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond16_0 i) (hc1 : ¬cond16_1 i)
    (x0 : Vec F S1024x1024 .bf16) (x1 : Vec F S1024x512 .f32) :
    sout16_A c i arg2 harg2 arg3 harg3 arg4 harg4 arg5 harg5 hc0 hc1 x0 x1 = k16_pay2 x0 x1 (k16_pay1 (F := F)) := by
  have hz : (![0, 0] : Fin 2 → Nat) = fun _ => 0 := funext fun a => by fin_cases a <;> rfl
  unfold sout16_A
  rw [View.read_writes_eq_canon _ _ _ (scover16_A c i arg2 harg2 arg3 harg3 arg4 harg4 arg5 harg5 hc0 hc1 x0 x1)]
  unfold kernelRun16_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout16_B_eq (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond16_0 i) (hc1 : ¬cond16_1 i)
    (x0 : Vec F S1024x1024 .bf16) (x1 : Vec F S1024x512 .f32) (xs0 : Vec F S1024x512 .f32) :
    sout16_B c i arg2 harg2 arg3 harg3 arg4 harg4 arg5 harg5 hc0 hc1 x0 x1 xs0 = k16_pay2 x0 x1 xs0 := by
  have hz : (![0, 0] : Fin 2 → Nat) = fun _ => 0 := funext fun a => by fin_cases a <;> rfl
  unfold sout16_B
  rw [View.read_writes_eq_canon _ _ _ (scover16_B c i arg2 harg2 arg3 harg3 arg4 harg4 arg5 harg5 hc0 hc1 x0 x1 xs0)]
  unfold kernelRun16_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout16_C_eq (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond16_0 i) (hc1 : cond16_1 i)
    (x0 : Vec F S1024x1024 .bf16) (x1 : Vec F S1024x512 .f32) (xs0 : Vec F S1024x512 .f32) :
    sout16_C c i arg2 harg2 arg3 harg3 arg4 harg4 arg5 harg5 hc0 hc1 x0 x1 xs0 = k16_pay2 x0 x1 xs0 := by
  have hz : (![0, 0] : Fin 2 → Nat) = fun _ => 0 := funext fun a => by fin_cases a <;> rfl
  unfold sout16_C
  rw [View.read_writes_eq_canon _ _ _ (scover16_C c i arg2 harg2 arg3 harg3 arg4 harg4 arg5 harg5 hc0 hc1 x0 x1 xs0)]
  unfold kernelRun16_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out16_C_eq (c : Dev nD) (i : grid16.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond16_0 i) (hc1 : cond16_1 i)
    (x0 : Vec F S1024x1024 .bf16) (x1 : Vec F S1024x512 .f32) (xs0 : Vec F S1024x512 .f32) :
    out16_C c i arg2 harg2 arg3 harg3 arg4 harg4 arg5 harg5 hc0 hc1 x0 x1 xs0 = k16_pay2 x0 x1 xs0 := by
  have hz : (![0, 0] : Fin 2 → Nat) = fun _ => 0 := funext fun a => by fin_cases a <;> rfl
  unfold out16_C
  rw [View.read_writes_eq_canon _ _ _ (cover16_C c i arg2 harg2 arg3 harg3 arg4 harg4 arg5 harg5 hc0 hc1 x0 x1 xs0)]
  unfold kernelRun16_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk16_lhs (c : Dev nD) (n : ℕ) : Vec F S1024x1024 .bf16 :=
  if h : n < cfg16.N then iblk16 V c 0 ⟨n, h⟩ else iblk16 V c 0 ⟨0, by have h : cfg16.N = 16 := N_16; omega⟩
/-- The right factor's block at grid position `n`. -/
def iblk16_rhs (c : Dev nD) (n : ℕ) : Vec F S1024x512 .f32 :=
  if h : n < cfg16.N then iblk16 V c 1 ⟨n, h⟩ else iblk16 V c 1 ⟨0, by have h : cfg16.N = 16 := N_16; omega⟩

theorem iblk16_lhs_eq (c : Dev nD) (n : ℕ) (h : n < cfg16.N) : iblk16_lhs V c n = iblk16 V c 0 ⟨n, h⟩ := dif_pos h
theorem iblk16_rhs_eq (c : Dev nD) (n : ℕ) (h : n < cfg16.N) : iblk16_rhs V c n = iblk16 V c 1 ⟨n, h⟩ := dif_pos h

/-! ## The accumulator along one row of blocks -/

/-- Row of blocks `r`, after its step `k`: the zero block plus the products of the blocks at positions 4 r, …, 4 r + k,
    added in that order. -/
def accOf16 (c : Dev nD) (r : ℕ) : ℕ → Vec F S1024x512 .f32
  | 0 => k16_pay2 (iblk16_lhs V c (4 * r)) (iblk16_rhs V c (4 * r)) (k16_pay1 (F := F))
  | k + 1 => k16_pay2 (iblk16_lhs V c (4 * r + (k + 1))) (iblk16_rhs V c (4 * r + (k + 1))) (accOf16 c r k)

theorem accOf16_zero (c : Dev nD) (r : ℕ) :
    accOf16 V c r 0 = k16_pay2 (iblk16_lhs V c (4 * r)) (iblk16_rhs V c (4 * r)) (k16_pay1 (F := F)) := rfl
theorem accOf16_succ (c : Dev nD) (r k : ℕ) :
    accOf16 V c r (k + 1) = k16_pay2 (iblk16_lhs V c (4 * r + (k + 1))) (iblk16_rhs V c (4 * r + (k + 1))) (accOf16 V c r k) := rfl

theorem iblk16_lhs_at (c : Dev nD) (t : Fin cfg16.N) (n : ℕ) (hn : n = t.val) : iblk16_lhs V c n = iblk16 V c 0 t := by
  subst hn; unfold iblk16_lhs; exact dif_pos t.isLt
theorem iblk16_rhs_at (c : Dev nD) (t : Fin cfg16.N) (n : ℕ) (hn : n = t.val) : iblk16_rhs V c n = iblk16 V c 1 t := by
  subst hn; unfold iblk16_rhs; exact dif_pos t.isLt

/-- At a grid point with k = 0 the fold starts: the zero block plus the product of the point's two blocks. -/
theorem accOf16_first (c : Dev nD) (t : Fin cfg16.N) (h0 : t.val % 4 = 0) :
    accOf16 V c (t.val / 4) (t.val % 4) = k16_pay2 (iblk16 V c 0 t) (iblk16 V c 1 t) (k16_pay1 (F := F)) := by
  rw [h0, accOf16_zero, iblk16_lhs_at V c t (4 * (t.val / 4)) (by omega), iblk16_rhs_at V c t (4 * (t.val / 4)) (by omega)]

/-- At a grid point with k ≠ 0 the fold takes one step from the position before, which is in the same row of blocks. -/
theorem accOf16_next (c : Dev nD) (t : Fin cfg16.N) (h0 : ¬t.val % 4 = 0) :
    accOf16 V c (t.val / 4) (t.val % 4)
      = k16_pay2 (iblk16 V c 0 t) (iblk16 V c 1 t) (accOf16 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf16_succ, iblk16_lhs_at V c t (4 * (t.val / 4) + (k + 1)) (by omega),
    iblk16_rhs_at V c t (4 * (t.val / 4) + (k + 1)) (by omega)]

/-! ## The accumulator and the output block, point by point, as pure functions of the blocks -/

/-- k = 0: the accumulator restarts from the zero block. -/
theorem outsAt16_first (c : Dev nD) (t : Fin cfg16.N) (h0 : t.val % 4 = 0) :
    (outsAt16 V c t.val t.isLt).2 = k16_pay2 (iblk16 V c 0 t) (iblk16 V c 1 t) (k16_pay1 (F := F)) := by
  rw [outsAt16_A V c t h0]
  dsimp only
  exact sout16_A_eq c (grid16.coords t) (ms16_0 t) (hs16_0 t) (ms16_1 t) (hs16_1 t) (ms16_2 t) (hs16_2 t) scM16 (Memref.isWhole_whole _) (isFirst16 t h0) (notLast16 t (by omega)) (iblk16 V c 0 t) (iblk16 V c 1 t)

/-- k ≠ 0: the point's product is added to what the point before left. -/
theorem outsAt16_next (c : Dev nD) (t : Fin cfg16.N) (h0 : ¬t.val % 4 = 0) :
    (outsAt16 V c t.val t.isLt).2
      = k16_pay2 (iblk16 V c 0 t) (iblk16 V c 1 t) (outsAt16 V c (t.val - 1) (Nat.lt_of_le_of_lt (Nat.sub_le _ _) t.isLt)).2 := by
  by_cases h3 : t.val % 4 = 3
  · rw [outsAt16_C V c t h0 h3]
    dsimp only
    exact sout16_C_eq c (grid16.coords t) (ms16_0 t) (hs16_0 t) (ms16_1 t) (hs16_1 t) (ms16_2 t) (hs16_2 t) scM16 (Memref.isWhole_whole _) (notFirst16 t h0) (isLast16 t h3) (iblk16 V c 0 t) (iblk16 V c 1 t)
      (outsAt16 V c (t.val - 1) (Nat.lt_of_le_of_lt (Nat.sub_le _ _) t.isLt)).2
  · rw [outsAt16_B V c t h0 h3]
    dsimp only
    exact sout16_B_eq c (grid16.coords t) (ms16_0 t) (hs16_0 t) (ms16_1 t) (hs16_1 t) (ms16_2 t) (hs16_2 t) scM16 (Memref.isWhole_whole _) (notFirst16 t h0) (notLast16 t h3) (iblk16 V c 0 t) (iblk16 V c 1 t)
      (outsAt16 V c (t.val - 1) (Nat.lt_of_le_of_lt (Nat.sub_le _ _) t.isLt)).2

/-- k = 3: the output block is the accumulator. -/
theorem outsAt16_last (c : Dev nD) (t : Fin cfg16.N) (h3 : t.val % 4 = 3) :
    (outsAt16 V c t.val t.isLt).1 = (outsAt16 V c t.val t.isLt).2 := by
  have h0 : ¬t.val % 4 = 0 := by omega
  rw [outsAt16_C V c t h0 h3]
  dsimp only
  exact (out16_C_eq c (grid16.coords t) (ms16_0 t) (hs16_0 t) (ms16_1 t) (hs16_1 t) (ms16_2 t) (hs16_2 t) scM16 (Memref.isWhole_whole _) (notFirst16 t h0) (isLast16 t h3) (iblk16 V c 0 t) (iblk16 V c 1 t)
      (outsAt16 V c (t.val - 1) (Nat.lt_of_le_of_lt (Nat.sub_le _ _) t.isLt)).2).trans
    (sout16_C_eq c (grid16.coords t) (ms16_0 t) (hs16_0 t) (ms16_1 t) (hs16_1 t) (ms16_2 t) (hs16_2 t) scM16 (Memref.isWhole_whole _) (notFirst16 t h0) (isLast16 t h3) (iblk16 V c 0 t) (iblk16 V c 1 t)
      (outsAt16 V c (t.val - 1) (Nat.lt_of_le_of_lt (Nat.sub_le _ _) t.isLt)).2).symm

/-! ## The accumulator is the fold -/

/-- After position `n` the accumulator holds row `n / 4`'s fold after its step `n % 4`: by induction on the position. -/
theorem outsAt16_acc_pos (c : Dev nD) :
    ∀ (n : ℕ) (hn : n < cfg16.N), (outsAt16 V c n hn).2 = accOf16 V c (n / 4) (n % 4) := by
  intro n
  induction n with
  | zero =>
    intro hn
    exact (outsAt16_first V c ⟨0, hn⟩ (Nat.zero_mod 4)).trans (accOf16_first V c ⟨0, hn⟩ (Nat.zero_mod 4)).symm
  | succ n ih =>
    intro hn
    by_cases h0 : (n + 1) % 4 = 0
    · exact (outsAt16_first V c ⟨n + 1, hn⟩ h0).trans (accOf16_first V c ⟨n + 1, hn⟩ h0).symm
    · refine (outsAt16_next V c ⟨n + 1, hn⟩ h0).trans (Eq.trans ?_ (accOf16_next V c ⟨n + 1, hn⟩ h0).symm)
      exact congrArg (k16_pay2 (iblk16 V c 0 ⟨n + 1, hn⟩) (iblk16 V c 1 ⟨n + 1, hn⟩)) (ih (Nat.lt_of_succ_lt hn))

/-- At every grid point the accumulator holds its row's fold after the point's step. -/
theorem outsAt16_acc (c : Dev nD) (t : Fin cfg16.N) :
    (outsAt16 V c t.val t.isLt).2 = accOf16 V c (t.val / 4) (t.val % 4) :=
  outsAt16_acc_pos V c t.val t.isLt

/-- At a row's last point the output block holds the row's whole fold. -/
theorem outsAt16_out (c : Dev nD) (t : Fin cfg16.N) (h3 : t.val % 4 = 3) :
    (outsAt16 V c t.val t.isLt).1 = accOf16 V c (t.val / 4) 3 := by
  have e := outsAt16_acc V c t
  rw [h3] at e
  exact (outsAt16_last V c t h3).trans e

end Cert.KernelIdeal.Hand

end
-- ==== Proof.ValKI16b.lean ====
/- Laid out by: python3 scratch/layout_regions.py --template-region 1 --region 16 --program KernelIdeal --prefix Val --parts a,b,c --sim main_v9=main_v8,main_v25=main_v94,main_v26=main_v104 --out-dir proof/Proof
   from the hand-written text of region 1 (ValKI1b.lean): the same text, the region's number substituted. -/
/-
  Region 16 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI16a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts16 : ∀ t : Fin cfg16.N,
    win16_0.index t (0 : Fin 2) = t.val / 4 ∧ win16_0.index t (1 : Fin 2) = t.val % 4
    ∧ win16_1.index t (0 : Fin 2) = t.val % 4 ∧ win16_1.index t (1 : Fin 2) = 0
    ∧ win16_2.index t (0 : Fin 2) = t.val / 4 ∧ win16_2.index t (1 : Fin 2) = 0 :=
  (by decide +kernel : ∀ t : Fin grid16.N,
    win16_0.index t (0 : Fin 2) = t.val / 4 ∧ win16_0.index t (1 : Fin 2) = t.val % 4
    ∧ win16_1.index t (0 : Fin 2) = t.val % 4 ∧ win16_1.index t (1 : Fin 2) = 0
    ∧ win16_2.index t (0 : Fin 2) = t.val / 4 ∧ win16_2.index t (1 : Fin 2) = 0)

/-! ## The output array as one function -/

/-- The whole output array: its row 1024 r + p, column q, is entry (p, q) of the block accumulated over k = 0 … 3 in
    block row r. -/
def whole16 (c : Dev nD) : S4096x512.Idx → Elt F .f32 := fun i =>
  accOf16 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole16_apply (c : Dev nD) (r : ℕ) (y : S1024x512.Idx) (i : S4096x512.Idx)
    (h0 : (i 0).val = 1024 * r + (y 0).val) (h1 : (i 1).val = (y 1).val) :
    whole16 V c i = accOf16 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole16
  rw [hr, e]

/-- Row 1024 r + p, column q of the array is entry (p, q) of block row r's accumulated block. -/
theorem whole16_ix2 (c : Dev nD) (r : Fin 4) (p : Fin 1024) (q : Fin 512) :
    whole16 V c (ix2 (n0 := 4096) (n1 := 512) ⟨1024 * r.val + p.val, by have := r.isLt; have := p.isLt; omega⟩ q)
      = accOf16 V c r.val 3 (ix2 p q) :=
  whole16_apply V c r.val (ix2 p q) _ rfl rfl

/-! ## What a point writes back -/

/-- A point with k = 3 writes back its block of the whole-array function. -/
theorem flushed16_eq (c : Dev nD) (t : Fin cfg16.N) (hf : (cfg16.win 2).flush t = true) :
    (dat16 V c).flushed 2 t = ((cfg16.win 2).blk t).view.read (Elt F) (whole16 V c) := by
  have h3 : t.val % 4 = 3 := (flush16_2 t).mp hf
  show (cfg16.win 2).cut (grid16.coords t) ((dat16 V c).after 2 t) = _
  rw [after16_2, outsAt16_out V c t h3]
  obtain ⟨-, -, -, -, e0, e1⟩ := idxFacts16 t
  funext j
  show accOf16 V c (t.val / 4) 3 j = whole16 V c (((cfg16.win 2).blk t).view.emb j)
  refine (whole16_apply V c (t.val / 4) j _ ?_ ?_).symm
  · show win16_2.index t (0 : Fin 2) * 1024 + 1 * (j 0).val = 1024 * (t.val / 4) + (j 0).val
    rw [e0]; omega
  · show win16_2.index t (1 : Fin 2) * 512 + 1 * (j 1).val = (j 1).val
    rw [e1]; omega

/-! ## The blocks written back cover the array -/

/-- An index is in a point's output block iff each coordinate is in the block's range on its axis. -/
theorem memBlk16 (t : Fin cfg16.N) (i : S4096x512.Idx) :
    i ∈ ((cfg16.win 2).blk t).view.set ↔ ∀ a : Fin 2, win16_2.index t a * S1024x512.size a ≤ (i a).val
      ∧ (i a).val < win16_2.index t a * S1024x512.size a + S1024x512.size a := by
  show i ∈ ((View.whole main_v104).slice (win16_2.rect t)).set ↔ _
  rw [View.set_slice_whole, Rect.mem_set_unit]
  exact Iff.rfl

/-- Row i of the array lies in the block written back at the point (i / 1024, 3). -/
theorem covered16 (i : S4096x512.Idx) :
    ∃ t : Fin cfg16.N, (cfg16.win 2).flush t = true ∧ i ∈ ((cfg16.win 2).blk t).view.set := by
  have hi0 : (i 0).val < 4096 := idx2_lt0 i
  have hi1 : (i 1).val < 512 := idx2_lt1 i
  have hN : cfg16.N = 16 := N_16
  obtain ⟨t, ht⟩ : ∃ t : Fin cfg16.N, t.val = 4 * ((i 0).val / 1024) + 3 :=
    ⟨⟨4 * ((i 0).val / 1024) + 3, by rw [hN]; omega⟩, rfl⟩
  refine ⟨t, (flush16_2 t).mpr (by omega), ?_⟩
  rw [memBlk16]
  obtain ⟨-, -, -, -, e0, e1⟩ := idxFacts16 t
  intro a
  match a with
  | ⟨0, _⟩ =>
    show win16_2.index t (0 : Fin 2) * 1024 ≤ (i 0).val ∧ (i 0).val < win16_2.index t (0 : Fin 2) * 1024 + 1024
    rw [e0]; omega
  | ⟨1, _⟩ =>
    show win16_2.index t (1 : Fin 2) * 512 ≤ (i 1).val ∧ (i 1).val < win16_2.index t (1 : Fin 2) * 512 + 512
    rw [e1]; omega

/-! ## The three arrays after the region -/

/-- The output array after the region is the whole-array function. -/
theorem final16_2 (c : Dev nD) : (dat16 V c).arrAt 2 cfg16.N = whole16 V c :=
  (dat16 V c).arrAt_eq_of_cover 2 (whole16 V c) (flushed16_eq V c) covered16

/-- The two input arrays are as the region found them. -/
theorem final16_0 (c : Dev nD) : (dat16 V c).arrAt 0 cfg16.N = V c main_v8 :=
  ((dat16 V c).arrAt_in 0 rfl cfg16.N).trans (A_eq16 V c 0)
theorem final16_1 (c : Dev nD) : (dat16 V c).arrAt 1 cfg16.N = V c main_v94 :=
  ((dat16 V c).arrAt_in 1 rfl cfg16.N).trans (A_eq16 V c 1)

/-! ## The input blocks as blocks of the operand arrays -/

/-- The left operand's block at the point (r, k): entry (y₀, y₁) is the array's entry (1024 r + y₀, 1024 k + y₁). -/
theorem iblk16_lhs_apply (c : Dev nD) (r k : Fin 4) (y : S1024x1024.Idx) (i : S4096x4096.Idx)
    (h0 : (i 0).val = 1024 * r.val + (y 0).val) (h1 : (i 1).val = 1024 * k.val + (y 1).val) :
    iblk16_lhs V c (4 * r.val + k.val) y = (V c main_v8 : S4096x4096.Idx → Elt F .bf16) i := by
  have hN : cfg16.N = 16 := N_16
  have hr := r.isLt
  have hk := k.isLt
  have hlt : 4 * r.val + k.val < cfg16.N := by rw [hN]; omega
  rw [iblk16_lhs_eq V c _ hlt]
  obtain ⟨e0, e1, -, -, -, -⟩ := idxFacts16 ⟨4 * r.val + k.val, hlt⟩
  have e0' : win16_0.index ⟨4 * r.val + k.val, hlt⟩ (0 : Fin 2) = (4 * r.val + k.val) / 4 := e0
  have e1' : win16_0.index ⟨4 * r.val + k.val, hlt⟩ (1 : Fin 2) = (4 * r.val + k.val) % 4 := e1
  unfold iblk16
  rw [View.read_apply]
  show V c main_v8 (((cfg16.win 0).blk ⟨4 * r.val + k.val, hlt⟩).view.emb y) = V c main_v8 i
  congr 1
  funext a
  apply Fin.ext
  match a with
  | ⟨0, _⟩ =>
    show win16_0.index ⟨4 * r.val + k.val, hlt⟩ (0 : Fin 2) * 1024 + 1 * (y 0).val = (i 0).val
    rw [e0', h0]; omega
  | ⟨1, _⟩ =>
    show win16_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk16_rhs_apply (c : Dev nD) (r k : Fin 4) (y : S1024x512.Idx) (i : S4096x512.Idx)
    (h0 : (i 0).val = 1024 * k.val + (y 0).val) (h1 : (i 1).val = (y 1).val) :
    iblk16_rhs V c (4 * r.val + k.val) y = (V c main_v94 : S4096x512.Idx → Elt F .f32) i := by
  have hN : cfg16.N = 16 := N_16
  have hr := r.isLt
  have hk := k.isLt
  have hlt : 4 * r.val + k.val < cfg16.N := by rw [hN]; omega
  rw [iblk16_rhs_eq V c _ hlt]
  obtain ⟨-, -, e0, e1, -, -⟩ := idxFacts16 ⟨4 * r.val + k.val, hlt⟩
  have e0' : win16_1.index ⟨4 * r.val + k.val, hlt⟩ (0 : Fin 2) = (4 * r.val + k.val) % 4 := e0
  have e1' : win16_1.index ⟨4 * r.val + k.val, hlt⟩ (1 : Fin 2) = 0 := e1
  unfold iblk16
  rw [View.read_apply]
  show V c main_v94 (((cfg16.win 1).blk ⟨4 * r.val + k.val, hlt⟩).view.emb y) = V c main_v94 i
  congr 1
  funext a
  apply Fin.ext
  match a with
  | ⟨0, _⟩ =>
    show win16_1.index ⟨4 * r.val + k.val, hlt⟩ (0 : Fin 2) * 1024 + 1 * (y 0).val = (i 0).val
    rw [e0', h0]; omega
  | ⟨1, _⟩ =>
    show win16_1.index ⟨4 * r.val + k.val, hlt⟩ (1 : Fin 2) * 512 + 1 * (y 1).val = (i 1).val
    rw [e1', h1]; omega

/-- The accumulated block after the fourth step, unfolded: four steps from the zero block. -/
theorem accOf16_three (c : Dev nD) (r : ℕ) :
    accOf16 V c r 3
      = k16_pay2 (iblk16_lhs V c (4 * r + 3)) (iblk16_rhs V c (4 * r + 3))
          (k16_pay2 (iblk16_lhs V c (4 * r + 2)) (iblk16_rhs V c (4 * r + 2))
            (k16_pay2 (iblk16_lhs V c (4 * r + 1)) (iblk16_rhs V c (4 * r + 1))
              (k16_pay2 (iblk16_lhs V c (4 * r)) (iblk16_rhs V c (4 * r)) (k16_pay1 (F := F))))) := rfl

end Cert.KernelIdeal.Hand

end
-- ==== Proof.ValKI16c.lean ====
/- Laid out by: python3 scratch/layout_regions.py --template-region 1 --region 16 --program KernelIdeal --prefix Val --parts a,b,c --sim main_v9=main_v8,main_v25=main_v94,main_v26=main_v104 --out-dir proof/Proof
   from the hand-written text of region 1 (ValKI1c.lean): the same text, the region's number substituted. -/
/-
  Region 16 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI16b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf16_step (x0 : Vec Ideal S1024x1024 .bf16) (x1 acc : Vec Ideal S1024x512 .f32) :
    k16_pay2 (F := Ideal) x0 x1 acc
      = Cert.MMLaw.accStep dot_S1024x1024_S1024x512_S1024x512_1_0_0_1_n_n none x0 x1 acc := by
  unfold k16_pay2
  simp only [shapeCast_self]
  rfl

/-- The accumulator starts from the zero block. -/
theorem accOf16_init (j : S1024x512.Idx) : k16_pay1 (F := Ideal) j = 0 := by
  unfold k16_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf16_eq_blk (c : Dev nD) (r : Fin 4) (D : DotDims S4096x4096 S4096x512 S4096x512) (hD : Cert.MMLaw.IsPlain D)
    (prec : Option ContractPrecision) :
    accOf16 V c r.val 3
      = Cert.MMLaw.blk (nr := 4) (nc := 1) 1024 512 rfl rfl (Cert.MMLaw.whole D prec (V c main_v8) (V c main_v94)) r 0 := by
  rw [accOf16_three]
  simp only [accOf16_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v8) (V c main_v94) r 0
    (fun k => iblk16_lhs V c (4 * r.val + k.val)) (fun k => iblk16_rhs V c (4 * r.val + k.val))
    (fun k => funext fun y => iblk16_lhs_apply V c r k y _ rfl rfl)
    (fun k => funext fun y => iblk16_rhs_apply V c r k y _ rfl (by show 512 * 0 + (y 1).val = (y 1).val; omega))
    (k16_pay1 (F := Ideal)) accOf16_init

/-! ## The output array after the region is the whole product -/

/-- The region leaves in its output array the product of its two operand arrays. -/
theorem final16_2_eq_whole (c : Dev nD) (D : DotDims S4096x4096 S4096x512 S4096x512) (hD : Cert.MMLaw.IsPlain D)
    (prec : Option ContractPrecision) :
    (dat16 (F := Ideal) V c).arrAt 2 cfg16.N = Cert.MMLaw.whole D prec (V c main_v8) (V c main_v94) := by
  rw [final16_2]
  funext i
  have hi0 : (i 0).val < 4096 := idx2_lt0 i
  have h := congrFun (accOf16_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final16_2_eq_dot (c : Dev nD) (D : DotDims S4096x4096 S4096x512 S4096x512) (hD : Cert.MMLaw.IsPlain D)
    (prec : Option ContractPrecision) :
    (dat16 (F := Ideal) V c).arrAt 2 cfg16.N = Host.dotGeneral (F := Ideal) (φ₁ := .bf16) (φ₂ := .f32) D prec (V c main_v8) (V c main_v94) :=
  final16_2_eq_whole V c D hD prec

end Cert.KernelIdeal.Hand

end
-- ==== Proof.ValKI17a.lean ====
/- Laid out by: python3 scratch/layout_grid41.py --prefix Val --template-region 0 --region 17 --program KernelIdeal --parts a,b --shapes S1024x128=S1024x512,S128x512=S512x512,S1024x512=S1024x512,S4096x128=S4096x512,S4096x512=S4096x512,main_arg0=main_v107,main_v12=main_v10,main_v17=main_v108,h0=h0,e0=e0,hi0=hi0,x0=x0
   from the hand-written text of region 0 (ValKI0a.lean): the same text, the region's number, block shapes, operand arrays substituted. -/
/-
  Region 17 of @main: from the output blocks to the whole output array.

  The grid is [4, 1]: the point t is block row t, and the reduction axis has one step, so every point zeroes the
  accumulator, adds the product of its two input blocks, and writes the sum back. The output window's block at t is
  rows 1024 t … 1024 t + 1023 of the result, written back at every point. So the array after the region is ONE function
  of the index: row 1024 r + p, column q holds entry (p, q) of the block the point r leaves. The steps: the three windows'
  block indices decided once over the grid; what a point writes back is its block of that function; the four blocks
  written back cover the array (row i lies in the block of the point i / 1024); hence the array after the region. The two
  operand arrays are not written. Last, each input block as a block of its operand array: the left operand's block at the
  point t is its rows 1024 t … 1024 t + 1023 (every column), the right operand's block is the whole array at every point.
-/
import proofs.«158944_j64613488001249_1_alg».proof.Proof.RegKI17
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t the left operand's block is (t, 0), the right operand's (0, 0), the output's (t, 0). -/
theorem idxFacts17 : ∀ t : Fin cfg17.N,
    win17_0.index t (0 : Fin 2) = t.val ∧ win17_0.index t (1 : Fin 2) = 0
    ∧ win17_1.index t (0 : Fin 2) = 0 ∧ win17_1.index t (1 : Fin 2) = 0
    ∧ win17_2.index t (0 : Fin 2) = t.val ∧ win17_2.index t (1 : Fin 2) = 0 :=
  (by decide +kernel : ∀ t : Fin grid17.N,
    win17_0.index t (0 : Fin 2) = t.val ∧ win17_0.index t (1 : Fin 2) = 0
    ∧ win17_1.index t (0 : Fin 2) = 0 ∧ win17_1.index t (1 : Fin 2) = 0
    ∧ win17_2.index t (0 : Fin 2) = t.val ∧ win17_2.index t (1 : Fin 2) = 0)

/-! ## The block a point leaves -/

/-- The block the point at grid position n leaves: the zero block plus the product of the point's two input blocks
    (past the grid's end, where nothing consults it, the block of position 0). -/
def accOf17 (c : Dev nD) (n : ℕ) : Vec F S1024x512 .f32 :=
  if h : n < cfg17.N then k17_pay2 (iblk17 V c 0 ⟨n, h⟩) (iblk17 V c 1 ⟨n, h⟩) (k17_pay1 (F := F))
  else k17_pay2 (iblk17 V c 0 ⟨0, by have h : cfg17.N = 4 := N_17; omega⟩)
    (iblk17 V c 1 ⟨0, by have h : cfg17.N = 4 := N_17; omega⟩) (k17_pay1 (F := F))

theorem accOf17_eq (c : Dev nD) (t : Fin cfg17.N) :
    accOf17 V c t.val = k17_pay2 (iblk17 V c 0 t) (iblk17 V c 1 t) (k17_pay1 (F := F)) := by
  unfold accOf17; exact dif_pos t.isLt

/-- At every point the output block holds that block. -/
theorem outsAt17_out (c : Dev nD) (t : Fin cfg17.N) : (outsAt17 V c t.val t.isLt).1 = accOf17 V c t.val :=
  (outsAt17_last V c t).trans ((outsAt17_first V c t).trans (accOf17_eq V c t).symm)

/-! ## The output array as one function -/

/-- The whole output array: its row 1024 r + p, column q, is entry (p, q) of the block the point r leaves. -/
def whole17 (c : Dev nD) : S4096x512.Idx → Elt F .f32 := fun i =>
  accOf17 V c ((i 0).val / 1024)
    (ix2 ⟨(i 0).val % 1024, Nat.mod_lt _ (by decide)⟩ ⟨(i 1).val, idx2_lt1 i⟩)

/-- The array read at an index given by a block row r and a position y inside the block. -/
theorem whole17_apply (c : Dev nD) (r : ℕ) (y : S1024x512.Idx) (i : S4096x512.Idx)
    (h0 : (i 0).val = 1024 * r + (y 0).val) (h1 : (i 1).val = (y 1).val) :
    whole17 V c i = accOf17 V c r y := by
  have hy : (y 0).val < 1024 := idx2_lt0 y
  have hr : (i 0).val / 1024 = r := by omega
  have hp : (i 0).val % 1024 = (y 0).val := by omega
  have e : (ix2 ⟨(i 0).val % 1024, Nat.mod_lt _ (by decide)⟩ ⟨(i 1).val, idx2_lt1 i⟩ : S1024x512.Idx) = y :=
    funext fun a => match a with
      | ⟨0, _⟩ => Fin.ext hp
      | ⟨1, _⟩ => Fin.ext h1
  unfold whole17
  rw [hr, e]

/-- Row 1024 r + p, column q of the array is entry (p, q) of the block the point r leaves. -/
theorem whole17_ix2 (c : Dev nD) (r : Fin 4) (p : Fin 1024) (q : Fin (S1024x512.size 1)) :
    whole17 V c (ix2 ⟨1024 * r.val + p.val, by have := r.isLt; have := p.isLt; omega⟩ q)
      = accOf17 V c r.val (ix2 p q) :=
  whole17_apply V c r.val (ix2 p q) _ rfl rfl

/-! ## What a point writes back -/

/-- Every point writes back its block of the whole-array function. -/
theorem flushed17_eq (c : Dev nD) (t : Fin cfg17.N) (hf : (cfg17.win 2).flush t = true) :
    (dat17 V c).flushed 2 t = ((cfg17.win 2).blk t).view.read (Elt F) (whole17 V c) := by
  show (cfg17.win 2).cut (grid17.coords t) ((dat17 V c).after 2 t) = _
  rw [after17_2, outsAt17_out V c t]
  obtain ⟨-, -, -, -, e0, e1⟩ := idxFacts17 t
  funext j
  show accOf17 V c t.val j = whole17 V c (((cfg17.win 2).blk t).view.emb j)
  refine (whole17_apply V c t.val j _ ?_ ?_).symm
  · show win17_2.index t (0 : Fin 2) * 1024 + 1 * (j 0).val = 1024 * t.val + (j 0).val
    rw [e0]; omega
  · show win17_2.index t (1 : Fin 2) * S1024x512.size (1 : Fin 2) + 1 * (j 1).val = (j 1).val
    rw [e1, Nat.zero_mul, Nat.zero_add, Nat.one_mul]

/-! ## The blocks written back cover the array -/

/-- An index is in a point's output block iff each coordinate is in the block's range on its axis. -/
theorem memBlk17 (t : Fin cfg17.N) (i : S4096x512.Idx) :
    i ∈ ((cfg17.win 2).blk t).view.set ↔ ∀ a : Fin 2, win17_2.index t a * S1024x512.size a ≤ (i a).val
      ∧ (i a).val < win17_2.index t a * S1024x512.size a + S1024x512.size a := by
  show i ∈ ((View.whole main_v108).slice (win17_2.rect t)).set ↔ _
  rw [View.set_slice_whole, Rect.mem_set_unit]
  exact Iff.rfl

/-- Row i of the array lies in the block written back at the point i / 1024. -/
theorem covered17 (i : S4096x512.Idx) :
    ∃ t : Fin cfg17.N, (cfg17.win 2).flush t = true ∧ i ∈ ((cfg17.win 2).blk t).view.set := by
  have hi0 : (i 0).val < 4096 := idx2_lt0 i
  have hi1 : (i 1).val < S1024x512.size (1 : Fin 2) := idx2_lt1 i
  have hN : cfg17.N = 4 := N_17
  obtain ⟨t, ht⟩ : ∃ t : Fin cfg17.N, t.val = (i 0).val / 1024 :=
    ⟨⟨(i 0).val / 1024, by rw [hN]; omega⟩, rfl⟩
  refine ⟨t, flush17_2 t, ?_⟩
  rw [memBlk17]
  obtain ⟨-, -, -, -, e0, e1⟩ := idxFacts17 t
  intro a
  match a with
  | ⟨0, _⟩ =>
    show win17_2.index t (0 : Fin 2) * 1024 ≤ (i 0).val ∧ (i 0).val < win17_2.index t (0 : Fin 2) * 1024 + 1024
    rw [e0]; omega
  | ⟨1, _⟩ =>
    show win17_2.index t (1 : Fin 2) * S1024x512.size (1 : Fin 2) ≤ (i 1).val
      ∧ (i 1).val < win17_2.index t (1 : Fin 2) * S1024x512.size (1 : Fin 2) + S1024x512.size (1 : Fin 2)
    rw [e1, Nat.zero_mul, Nat.zero_add]
    exact ⟨Nat.zero_le _, hi1⟩

/-! ## The three arrays after the region -/

/-- The output array after the region is the whole-array function. -/
theorem final17_2 (c : Dev nD) : (dat17 V c).arrAt 2 cfg17.N = whole17 V c :=
  (dat17 V c).arrAt_eq_of_cover 2 (whole17 V c) (flushed17_eq V c) covered17

/-- The two input arrays are as the region found them. -/
theorem final17_0 (c : Dev nD) : (dat17 V c).arrAt 0 cfg17.N = V c main_v107 :=
  ((dat17 V c).arrAt_in 0 rfl cfg17.N).trans (A_eq17 V c 0)
theorem final17_1 (c : Dev nD) : (dat17 V c).arrAt 1 cfg17.N = V c main_v10 :=
  ((dat17 V c).arrAt_in 1 rfl cfg17.N).trans (A_eq17 V c 1)

/-! ## The input blocks as blocks of the operand arrays -/

/-- The left operand's block at the point t: entry (y₀, y₁) is the array's entry (1024 t + y₀, y₁). -/
theorem iblk17_lhs_apply (c : Dev nD) (t : Fin cfg17.N) (y : S1024x512.Idx) (i : S4096x512.Idx)
    (h0 : (i 0).val = 1024 * t.val + (y 0).val) (h1 : (i 1).val = (y 1).val) :
    iblk17 V c 0 t y = (V c main_v107 : S4096x512.Idx → Elt F .f32) i := by
  obtain ⟨e0, e1, -, -, -, -⟩ := idxFacts17 t
  unfold iblk17
  rw [View.read_apply]
  show V c main_v107 (((cfg17.win 0).blk t).view.emb y) = V c main_v107 i
  congr 1
  funext a
  apply Fin.ext
  match a with
  | ⟨0, _⟩ =>
    show win17_0.index t (0 : Fin 2) * 1024 + 1 * (y 0).val = (i 0).val
    rw [e0, h0]; omega
  | ⟨1, _⟩ =>
    show win17_0.index t (1 : Fin 2) * S1024x512.size (1 : Fin 2) + 1 * (y 1).val = (i 1).val
    rw [e1, h1, Nat.zero_mul, Nat.zero_add, Nat.one_mul]

/-- The right operand's block is the whole array at every point. -/
theorem iblk17_rhs_eq (c : Dev nD) (t : Fin cfg17.N) :
    iblk17 V c 1 t = (V c main_v10 : S512x512.Idx → Elt F .bf16) := by
  obtain ⟨-, -, e0, e1, -, -⟩ := idxFacts17 t
  funext y
  unfold iblk17
  rw [View.read_apply]
  show V c main_v10 (((cfg17.win 1).blk t).view.emb y) = V c main_v10 y
  congr 1
  funext a
  apply Fin.ext
  match a with
  | ⟨0, _⟩ =>
    show win17_1.index t (0 : Fin 2) * S512x512.size (0 : Fin 2) + 1 * (y 0).val = (y 0).val
    rw [e0, Nat.zero_mul, Nat.zero_add, Nat.one_mul]
  | ⟨1, _⟩ =>
    show win17_1.index t (1 : Fin 2) * S512x512.size (1 : Fin 2) + 1 * (y 1).val = (y 1).val
    rw [e1, Nat.zero_mul, Nat.zero_add, Nat.one_mul]

end Cert.KernelIdeal.Hand

end
-- ==== Proof.ValKI17b.lean ====
/- Laid out by: python3 scratch/layout_grid41.py --prefix Val --template-region 0 --region 17 --program KernelIdeal --parts a,b --shapes S1024x128=S1024x512,S128x512=S512x512,S1024x512=S1024x512,S4096x128=S4096x512,S4096x512=S4096x512,main_arg0=main_v107,main_v12=main_v10,main_v17=main_v108,h0=h0,e0=e0,hi0=hi0,x0=x0
   from the hand-written text of region 0 (ValKI0b.lean): the same text, the region's number, block shapes, operand arrays substituted. -/
/-
  Region 17 of @main at the extended reals: the output array after the region is the product of the two operand arrays.

  A change of float format is the identity at these values and a reshape to the same shape is the identity, so the
  kernel's one accumulation step is "accumulator plus the product of the two blocks into the zero block", and the
  accumulator starts from the zero block. The block the point r leaves is then zero plus the product of rows
  1024 r … 1024 r + 1023 of the left operand with the whole right operand, which is the same rows of the whole product:
  the contraction axis is not cut, so the sums are the same term by term. Read through the whole-array function of the
  blocks-to-array module, entry (1024 r + p, q) of the output array is that entry of the product.
-/
import proofs.«158944_j64613488001249_1_alg».proof.Proof.ValKI17a
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The accumulation step, and its start, at the extended reals -/

/-- A change of format and a reshape to the same shape are the identity: the step adds the product of the two blocks
    (into the zero block) to the accumulator. -/
theorem accOf17_step (x0 : Vec Ideal S1024x512 .f32) (x1 : Vec Ideal S512x512 .bf16) (acc : Vec Ideal S1024x512 .f32) :
    k17_pay2 (F := Ideal) x0 x1 acc
      = Cert.MMLaw.accStep dot_S1024x512_S512x512_S1024x512_1_0_0_1_n_n none x0 x1 acc := by
  unfold k17_pay2
  simp only [shapeCast_self]
  rfl

/-- The accumulator starts from the zero block. -/
theorem accOf17_init (j : S1024x512.Idx) : k17_pay1 (F := Ideal) j = 0 := by
  unfold k17_pay1
  rw [shapeCast_self]
  exact Ideal.ofBits_zero_f32

/-! ## The block a point leaves is a block of the whole product -/

/-- The block the point r leaves is rows 1024 r … 1024 r + 1023 of the product of the two operand arrays. -/
theorem accOf17_eq_blk (c : Dev nD) (r : Fin 4) (D : DotDims S4096x512 S512x512 S4096x512) (hD : Cert.MMLaw.IsPlain D)
    (prec : Option ContractPrecision) :
    accOf17 V c r.val
      = Cert.MMLaw.rowBlk (Cert.MMLaw.whole D prec (V c main_v107) (V c main_v10)) r := by
  have hN : cfg17.N = 4 := N_17
  have hr : r.val < cfg17.N := by rw [hN]; exact r.isLt
  rw [accOf17_eq V c ⟨r.val, hr⟩, accOf17_step]
  exact Cert.MMLaw.law41 dot_S1024x512_S512x512_S1024x512_1_0_0_1_n_n ⟨rfl, rfl, rfl, rfl, rfl, rfl⟩ D hD none prec
    (V c main_v107) (V c main_v10) r (iblk17 V c 0 ⟨r.val, hr⟩) (iblk17 V c 1 ⟨r.val, hr⟩)
    (funext fun y => iblk17_lhs_apply V c ⟨r.val, hr⟩ y _ rfl rfl) (iblk17_rhs_eq V c ⟨r.val, hr⟩)
    (k17_pay1 (F := Ideal)) accOf17_init

/-! ## The output array after the region is the whole product -/

/-- The region leaves in its output array the product of its two operand arrays. -/
theorem final17_2_eq_whole (c : Dev nD) (D : DotDims S4096x512 S512x512 S4096x512) (hD : Cert.MMLaw.IsPlain D)
    (prec : Option ContractPrecision) :
    (dat17 (F := Ideal) V c).arrAt 2 cfg17.N = Cert.MMLaw.whole D prec (V c main_v107) (V c main_v10) := by
  rw [final17_2]
  funext i
  have hi0 : (i 0).val < 4096 := idx2_lt0 i
  have h := congrFun (accOf17_eq_blk V c ⟨(i 0).val / 1024, by omega⟩ D hD prec)
    (ix2 ⟨(i 0).val % 1024, Nat.mod_lt _ (by decide)⟩ ⟨(i 1).val, idx2_lt1 i⟩)
  rw [Cert.MMLaw.rowBlk_apply] at h
  refine Eq.trans h (congrArg _ ?_)
  funext a
  match a with
  | ⟨0, _⟩ => exact Fin.ext (by show 1024 * ((i 0).val / 1024) + (i 0).val % 1024 = (i 0).val; omega)
  | ⟨1, _⟩ => rfl

/-- The same with the operands at the formats they are stored in. -/
theorem final17_2_eq_dot (c : Dev nD) (D : DotDims S4096x512 S512x512 S4096x512) (hD : Cert.MMLaw.IsPlain D)
    (prec : Option ContractPrecision) :
    (dat17 (F := Ideal) V c).arrAt 2 cfg17.N
      = Host.dotGeneral (F := Ideal) (φ₁ := .f32) (φ₂ := .bf16) D prec (V c main_v107) (V c main_v10) :=
  final17_2_eq_whole V c D hD prec

end Cert.KernelIdeal.Hand

end
-- ==== Proof.ValKI18a.lean ====
/- Laid out by: python3 scratch/layout_regions.py --template-region 1 --region 18 --program KernelIdeal --prefix Val --parts a,b,c --sim main_v9=main_v7,main_v25=main_v108,main_v26=main_v109 --out-dir proof/Proof
   from the hand-written text of region 1 (ValKI1a.lean): the same text, the region's number substituted. -/
/-
  Region 18 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k18_pay1` (the zero block) and `k18_pay2` (accumulator plus product) are the two stores' payloads.

  So along one row of blocks r the accumulator after its step k is the left fold
    accOf18 r 0 = pay2 (a (r, 0)) (b 0) pay1,    accOf18 r (k + 1) = pay2 (a (r, k + 1)) (b (k + 1)) (accOf18 r k),
  the grid point (r, k) being position 4 r + k; and at k = 3 the output block holds accOf18 r 3.
-/
import proofs.«158944_j64613488001249_1_alg».proof.Proof.RegKI18
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout18_A_eq (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond18_0 i) (hc1 : ¬cond18_1 i)
    (x0 : Vec F S1024x1024 .bf16) (x1 : Vec F S1024x512 .f32) :
    sout18_A c i arg2 harg2 arg3 harg3 arg4 harg4 arg5 harg5 hc0 hc1 x0 x1 = k18_pay2 x0 x1 (k18_pay1 (F := F)) := by
  have hz : (![0, 0] : Fin 2 → Nat) = fun _ => 0 := funext fun a => by fin_cases a <;> rfl
  unfold sout18_A
  rw [View.read_writes_eq_canon _ _ _ (scover18_A c i arg2 harg2 arg3 harg3 arg4 harg4 arg5 harg5 hc0 hc1 x0 x1)]
  unfold kernelRun18_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout18_B_eq (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond18_0 i) (hc1 : ¬cond18_1 i)
    (x0 : Vec F S1024x1024 .bf16) (x1 : Vec F S1024x512 .f32) (xs0 : Vec F S1024x512 .f32) :
    sout18_B c i arg2 harg2 arg3 harg3 arg4 harg4 arg5 harg5 hc0 hc1 x0 x1 xs0 = k18_pay2 x0 x1 xs0 := by
  have hz : (![0, 0] : Fin 2 → Nat) = fun _ => 0 := funext fun a => by fin_cases a <;> rfl
  unfold sout18_B
  rw [View.read_writes_eq_canon _ _ _ (scover18_B c i arg2 harg2 arg3 harg3 arg4 harg4 arg5 harg5 hc0 hc1 x0 x1 xs0)]
  unfold kernelRun18_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout18_C_eq (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond18_0 i) (hc1 : cond18_1 i)
    (x0 : Vec F S1024x1024 .bf16) (x1 : Vec F S1024x512 .f32) (xs0 : Vec F S1024x512 .f32) :
    sout18_C c i arg2 harg2 arg3 harg3 arg4 harg4 arg5 harg5 hc0 hc1 x0 x1 xs0 = k18_pay2 x0 x1 xs0 := by
  have hz : (![0, 0] : Fin 2 → Nat) = fun _ => 0 := funext fun a => by fin_cases a <;> rfl
  unfold sout18_C
  rw [View.read_writes_eq_canon _ _ _ (scover18_C c i arg2 harg2 arg3 harg3 arg4 harg4 arg5 harg5 hc0 hc1 x0 x1 xs0)]
  unfold kernelRun18_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out18_C_eq (c : Dev nD) (i : grid18.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond18_0 i) (hc1 : cond18_1 i)
    (x0 : Vec F S1024x1024 .bf16) (x1 : Vec F S1024x512 .f32) (xs0 : Vec F S1024x512 .f32) :
    out18_C c i arg2 harg2 arg3 harg3 arg4 harg4 arg5 harg5 hc0 hc1 x0 x1 xs0 = k18_pay2 x0 x1 xs0 := by
  have hz : (![0, 0] : Fin 2 → Nat) = fun _ => 0 := funext fun a => by fin_cases a <;> rfl
  unfold out18_C
  rw [View.read_writes_eq_canon _ _ _ (cover18_C c i arg2 harg2 arg3 harg3 arg4 harg4 arg5 harg5 hc0 hc1 x0 x1 xs0)]
  unfold kernelRun18_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk18_lhs (c : Dev nD) (n : ℕ) : Vec F S1024x1024 .bf16 :=
  if h : n < cfg18.N then iblk18 V c 0 ⟨n, h⟩ else iblk18 V c 0 ⟨0, by have h : cfg18.N = 16 := N_18; omega⟩
/-- The right factor's block at grid position `n`. -/
def iblk18_rhs (c : Dev nD) (n : ℕ) : Vec F S1024x512 .f32 :=
  if h : n < cfg18.N then iblk18 V c 1 ⟨n, h⟩ else iblk18 V c 1 ⟨0, by have h : cfg18.N = 16 := N_18; omega⟩

theorem iblk18_lhs_eq (c : Dev nD) (n : ℕ) (h : n < cfg18.N) : iblk18_lhs V c n = iblk18 V c 0 ⟨n, h⟩ := dif_pos h
theorem iblk18_rhs_eq (c : Dev nD) (n : ℕ) (h : n < cfg18.N) : iblk18_rhs V c n = iblk18 V c 1 ⟨n, h⟩ := dif_pos h

/-! ## The accumulator along one row of blocks -/

/-- Row of blocks `r`, after its step `k`: the zero block plus the products of the blocks at positions 4 r, …, 4 r + k,
    added in that order. -/
def accOf18 (c : Dev nD) (r : ℕ) : ℕ → Vec F S1024x512 .f32
  | 0 => k18_pay2 (iblk18_lhs V c (4 * r)) (iblk18_rhs V c (4 * r)) (k18_pay1 (F := F))
  | k + 1 => k18_pay2 (iblk18_lhs V c (4 * r + (k + 1))) (iblk18_rhs V c (4 * r + (k + 1))) (accOf18 c r k)

theorem accOf18_zero (c : Dev nD) (r : ℕ) :
    accOf18 V c r 0 = k18_pay2 (iblk18_lhs V c (4 * r)) (iblk18_rhs V c (4 * r)) (k18_pay1 (F := F)) := rfl
theorem accOf18_succ (c : Dev nD) (r k : ℕ) :
    accOf18 V c r (k + 1) = k18_pay2 (iblk18_lhs V c (4 * r + (k + 1))) (iblk18_rhs V c (4 * r + (k + 1))) (accOf18 V c r k) := rfl

theorem iblk18_lhs_at (c : Dev nD) (t : Fin cfg18.N) (n : ℕ) (hn : n = t.val) : iblk18_lhs V c n = iblk18 V c 0 t := by
  subst hn; unfold iblk18_lhs; exact dif_pos t.isLt
theorem iblk18_rhs_at (c : Dev nD) (t : Fin cfg18.N) (n : ℕ) (hn : n = t.val) : iblk18_rhs V c n = iblk18 V c 1 t := by
  subst hn; unfold iblk18_rhs; exact dif_pos t.isLt

/-- At a grid point with k = 0 the fold starts: the zero block plus the product of the point's two blocks. -/
theorem accOf18_first (c : Dev nD) (t : Fin cfg18.N) (h0 : t.val % 4 = 0) :
    accOf18 V c (t.val / 4) (t.val % 4) = k18_pay2 (iblk18 V c 0 t) (iblk18 V c 1 t) (k18_pay1 (F := F)) := by
  rw [h0, accOf18_zero, iblk18_lhs_at V c t (4 * (t.val / 4)) (by omega), iblk18_rhs_at V c t (4 * (t.val / 4)) (by omega)]

/-- At a grid point with k ≠ 0 the fold takes one step from the position before, which is in the same row of blocks. -/
theorem accOf18_next (c : Dev nD) (t : Fin cfg18.N) (h0 : ¬t.val % 4 = 0) :
    accOf18 V c (t.val / 4) (t.val % 4)
      = k18_pay2 (iblk18 V c 0 t) (iblk18 V c 1 t) (accOf18 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf18_succ, iblk18_lhs_at V c t (4 * (t.val / 4) + (k + 1)) (by omega),
    iblk18_rhs_at V c t (4 * (t.val / 4) + (k + 1)) (by omega)]

/-! ## The accumulator and the output block, point by point, as pure functions of the blocks -/

/-- k = 0: the accumulator restarts from the zero block. -/
theorem outsAt18_first (c : Dev nD) (t : Fin cfg18.N) (h0 : t.val % 4 = 0) :
    (outsAt18 V c t.val t.isLt).2 = k18_pay2 (iblk18 V c 0 t) (iblk18 V c 1 t) (k18_pay1 (F := F)) := by
  rw [outsAt18_A V c t h0]
  dsimp only
  exact sout18_A_eq c (grid18.coords t) (ms18_0 t) (hs18_0 t) (ms18_1 t) (hs18_1 t) (ms18_2 t) (hs18_2 t) scM18 (Memref.isWhole_whole _) (isFirst18 t h0) (notLast18 t (by omega)) (iblk18 V c 0 t) (iblk18 V c 1 t)

/-- k ≠ 0: the point's product is added to what the point before left. -/
theorem outsAt18_next (c : Dev nD) (t : Fin cfg18.N) (h0 : ¬t.val % 4 = 0) :
    (outsAt18 V c t.val t.isLt).2
      = k18_pay2 (iblk18 V c 0 t) (iblk18 V c 1 t) (outsAt18 V c (t.val - 1) (Nat.lt_of_le_of_lt (Nat.sub_le _ _) t.isLt)).2 := by
  by_cases h3 : t.val % 4 = 3
  · rw [outsAt18_C V c t h0 h3]
    dsimp only
    exact sout18_C_eq c (grid18.coords t) (ms18_0 t) (hs18_0 t) (ms18_1 t) (hs18_1 t) (ms18_2 t) (hs18_2 t) scM18 (Memref.isWhole_whole _) (notFirst18 t h0) (isLast18 t h3) (iblk18 V c 0 t) (iblk18 V c 1 t)
      (outsAt18 V c (t.val - 1) (Nat.lt_of_le_of_lt (Nat.sub_le _ _) t.isLt)).2
  · rw [outsAt18_B V c t h0 h3]
    dsimp only
    exact sout18_B_eq c (grid18.coords t) (ms18_0 t) (hs18_0 t) (ms18_1 t) (hs18_1 t) (ms18_2 t) (hs18_2 t) scM18 (Memref.isWhole_whole _) (notFirst18 t h0) (notLast18 t h3) (iblk18 V c 0 t) (iblk18 V c 1 t)
      (outsAt18 V c (t.val - 1) (Nat.lt_of_le_of_lt (Nat.sub_le _ _) t.isLt)).2

/-- k = 3: the output block is the accumulator. -/
theorem outsAt18_last (c : Dev nD) (t : Fin cfg18.N) (h3 : t.val % 4 = 3) :
    (outsAt18 V c t.val t.isLt).1 = (outsAt18 V c t.val t.isLt).2 := by
  have h0 : ¬t.val % 4 = 0 := by omega
  rw [outsAt18_C V c t h0 h3]
  dsimp only
  exact (out18_C_eq c (grid18.coords t) (ms18_0 t) (hs18_0 t) (ms18_1 t) (hs18_1 t) (ms18_2 t) (hs18_2 t) scM18 (Memref.isWhole_whole _) (notFirst18 t h0) (isLast18 t h3) (iblk18 V c 0 t) (iblk18 V c 1 t)
      (outsAt18 V c (t.val - 1) (Nat.lt_of_le_of_lt (Nat.sub_le _ _) t.isLt)).2).trans
    (sout18_C_eq c (grid18.coords t) (ms18_0 t) (hs18_0 t) (ms18_1 t) (hs18_1 t) (ms18_2 t) (hs18_2 t) scM18 (Memref.isWhole_whole _) (notFirst18 t h0) (isLast18 t h3) (iblk18 V c 0 t) (iblk18 V c 1 t)
      (outsAt18 V c (t.val - 1) (Nat.lt_of_le_of_lt (Nat.sub_le _ _) t.isLt)).2).symm

/-! ## The accumulator is the fold -/

/-- After position `n` the accumulator holds row `n / 4`'s fold after its step `n % 4`: by induction on the position. -/
theorem outsAt18_acc_pos (c : Dev nD) :
    ∀ (n : ℕ) (hn : n < cfg18.N), (outsAt18 V c n hn).2 = accOf18 V c (n / 4) (n % 4) := by
  intro n
  induction n with
  | zero =>
    intro hn
    exact (outsAt18_first V c ⟨0, hn⟩ (Nat.zero_mod 4)).trans (accOf18_first V c ⟨0, hn⟩ (Nat.zero_mod 4)).symm
  | succ n ih =>
    intro hn
    by_cases h0 : (n + 1) % 4 = 0
    · exact (outsAt18_first V c ⟨n + 1, hn⟩ h0).trans (accOf18_first V c ⟨n + 1, hn⟩ h0).symm
    · refine (outsAt18_next V c ⟨n + 1, hn⟩ h0).trans (Eq.trans ?_ (accOf18_next V c ⟨n + 1, hn⟩ h0).symm)
      exact congrArg (k18_pay2 (iblk18 V c 0 ⟨n + 1, hn⟩) (iblk18 V c 1 ⟨n + 1, hn⟩)) (ih (Nat.lt_of_succ_lt hn))

/-- At every grid point the accumulator holds its row's fold after the point's step. -/
theorem outsAt18_acc (c : Dev nD) (t : Fin cfg18.N) :
    (outsAt18 V c t.val t.isLt).2 = accOf18 V c (t.val / 4) (t.val % 4) :=
  outsAt18_acc_pos V c t.val t.isLt

/-- At a row's last point the output block holds the row's whole fold. -/
theorem outsAt18_out (c : Dev nD) (t : Fin cfg18.N) (h3 : t.val % 4 = 3) :
    (outsAt18 V c t.val t.isLt).1 = accOf18 V c (t.val / 4) 3 := by
  have e := outsAt18_acc V c t
  rw [h3] at e
  exact (outsAt18_last V c t h3).trans e

end Cert.KernelIdeal.Hand

end
-- ==== Proof.ValKI18b.lean ====
/- Laid out by: python3 scratch/layout_regions.py --template-region 1 --region 18 --program KernelIdeal --prefix Val --parts a,b,c --sim main_v9=main_v7,main_v25=main_v108,main_v26=main_v109 --out-dir proof/Proof
   from the hand-written text of region 1 (ValKI1b.lean): the same text, the region's number substituted. -/
/-
  Region 18 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI18a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts18 : ∀ t : Fin cfg18.N,
    win18_0.index t (0 : Fin 2) = t.val / 4 ∧ win18_0.index t (1 : Fin 2) = t.val % 4
    ∧ win18_1.index t (0 : Fin 2) = t.val % 4 ∧ win18_1.index t (1 : Fin 2) = 0
    ∧ win18_2.index t (0 : Fin 2) = t.val / 4 ∧ win18_2.index t (1 : Fin 2) = 0 :=
  (by decide +kernel : ∀ t : Fin grid18.N,
    win18_0.index t (0 : Fin 2) = t.val / 4 ∧ win18_0.index t (1 : Fin 2) = t.val % 4
    ∧ win18_1.index t (0 : Fin 2) = t.val % 4 ∧ win18_1.index t (1 : Fin 2) = 0
    ∧ win18_2.index t (0 : Fin 2) = t.val / 4 ∧ win18_2.index t (1 : Fin 2) = 0)

/-! ## The output array as one function -/

/-- The whole output array: its row 1024 r + p, column q, is entry (p, q) of the block accumulated over k = 0 … 3 in
    block row r. -/
def whole18 (c : Dev nD) : S4096x512.Idx → Elt F .f32 := fun i =>
  accOf18 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole18_apply (c : Dev nD) (r : ℕ) (y : S1024x512.Idx) (i : S4096x512.Idx)
    (h0 : (i 0).val = 1024 * r + (y 0).val) (h1 : (i 1).val = (y 1).val) :
    whole18 V c i = accOf18 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole18
  rw [hr, e]

/-- Row 1024 r + p, column q of the array is entry (p, q) of block row r's accumulated block. -/
theorem whole18_ix2 (c : Dev nD) (r : Fin 4) (p : Fin 1024) (q : Fin 512) :
    whole18 V c (ix2 (n0 := 4096) (n1 := 512) ⟨1024 * r.val + p.val, by have := r.isLt; have := p.isLt; omega⟩ q)
      = accOf18 V c r.val 3 (ix2 p q) :=
  whole18_apply V c r.val (ix2 p q) _ rfl rfl

/-! ## What a point writes back -/

/-- A point with k = 3 writes back its block of the whole-array function. -/
theorem flushed18_eq (c : Dev nD) (t : Fin cfg18.N) (hf : (cfg18.win 2).flush t = true) :
    (dat18 V c).flushed 2 t = ((cfg18.win 2).blk t).view.read (Elt F) (whole18 V c) := by
  have h3 : t.val % 4 = 3 := (flush18_2 t).mp hf
  show (cfg18.win 2).cut (grid18.coords t) ((dat18 V c).after 2 t) = _
  rw [after18_2, outsAt18_out V c t h3]
  obtain ⟨-, -, -, -, e0, e1⟩ := idxFacts18 t
  funext j
  show accOf18 V c (t.val / 4) 3 j = whole18 V c (((cfg18.win 2).blk t).view.emb j)
  refine (whole18_apply V c (t.val / 4) j _ ?_ ?_).symm
  · show win18_2.index t (0 : Fin 2) * 1024 + 1 * (j 0).val = 1024 * (t.val / 4) + (j 0).val
    rw [e0]; omega
  · show win18_2.index t (1 : Fin 2) * 512 + 1 * (j 1).val = (j 1).val
    rw [e1]; omega

/-! ## The blocks written back cover the array -/

/-- An index is in a point's output block iff each coordinate is in the block's range on its axis. -/
theorem memBlk18 (t : Fin cfg18.N) (i : S4096x512.Idx) :
    i ∈ ((cfg18.win 2).blk t).view.set ↔ ∀ a : Fin 2, win18_2.index t a * S1024x512.size a ≤ (i a).val
      ∧ (i a).val < win18_2.index t a * S1024x512.size a + S1024x512.size a := by
  show i ∈ ((View.whole main_v109).slice (win18_2.rect t)).set ↔ _
  rw [View.set_slice_whole, Rect.mem_set_unit]
  exact Iff.rfl

/-- Row i of the array lies in the block written back at the point (i / 1024, 3). -/
theorem covered18 (i : S4096x512.Idx) :
    ∃ t : Fin cfg18.N, (cfg18.win 2).flush t = true ∧ i ∈ ((cfg18.win 2).blk t).view.set := by
  have hi0 : (i 0).val < 4096 := idx2_lt0 i
  have hi1 : (i 1).val < 512 := idx2_lt1 i
  have hN : cfg18.N = 16 := N_18
  obtain ⟨t, ht⟩ : ∃ t : Fin cfg18.N, t.val = 4 * ((i 0).val / 1024) + 3 :=
    ⟨⟨4 * ((i 0).val / 1024) + 3, by rw [hN]; omega⟩, rfl⟩
  refine ⟨t, (flush18_2 t).mpr (by omega), ?_⟩
  rw [memBlk18]
  obtain ⟨-, -, -, -, e0, e1⟩ := idxFacts18 t
  intro a
  match a with
  | ⟨0, _⟩ =>
    show win18_2.index t (0 : Fin 2) * 1024 ≤ (i 0).val ∧ (i 0).val < win18_2.index t (0 : Fin 2) * 1024 + 1024
    rw [e0]; omega
  | ⟨1, _⟩ =>
    show win18_2.index t (1 : Fin 2) * 512 ≤ (i 1).val ∧ (i 1).val < win18_2.index t (1 : Fin 2) * 512 + 512
    rw [e1]; omega

/-! ## The three arrays after the region -/

/-- The output array after the region is the whole-array function. -/
theorem final18_2 (c : Dev nD) : (dat18 V c).arrAt 2 cfg18.N = whole18 V c :=
  (dat18 V c).arrAt_eq_of_cover 2 (whole18 V c) (flushed18_eq V c) covered18

/-- The two input arrays are as the region found them. -/
theorem final18_0 (c : Dev nD) : (dat18 V c).arrAt 0 cfg18.N = V c main_v7 :=
  ((dat18 V c).arrAt_in 0 rfl cfg18.N).trans (A_eq18 V c 0)
theorem final18_1 (c : Dev nD) : (dat18 V c).arrAt 1 cfg18.N = V c main_v108 :=
  ((dat18 V c).arrAt_in 1 rfl cfg18.N).trans (A_eq18 V c 1)

/-! ## The input blocks as blocks of the operand arrays -/

/-- The left operand's block at the point (r, k): entry (y₀, y₁) is the array's entry (1024 r + y₀, 1024 k + y₁). -/
theorem iblk18_lhs_apply (c : Dev nD) (r k : Fin 4) (y : S1024x1024.Idx) (i : S4096x4096.Idx)
    (h0 : (i 0).val = 1024 * r.val + (y 0).val) (h1 : (i 1).val = 1024 * k.val + (y 1).val) :
    iblk18_lhs V c (4 * r.val + k.val) y = (V c main_v7 : S4096x4096.Idx → Elt F .bf16) i := by
  have hN : cfg18.N = 16 := N_18
  have hr := r.isLt
  have hk := k.isLt
  have hlt : 4 * r.val + k.val < cfg18.N := by rw [hN]; omega
  rw [iblk18_lhs_eq V c _ hlt]
  obtain ⟨e0, e1, -, -, -, -⟩ := idxFacts18 ⟨4 * r.val + k.val, hlt⟩
  have e0' : win18_0.index ⟨4 * r.val + k.val, hlt⟩ (0 : Fin 2) = (4 * r.val + k.val) / 4 := e0
  have e1' : win18_0.index ⟨4 * r.val + k.val, hlt⟩ (1 : Fin 2) = (4 * r.val + k.val) % 4 := e1
  unfold iblk18
  rw [View.read_apply]
  show V c main_v7 (((cfg18.win 0).blk ⟨4 * r.val + k.val, hlt⟩).view.emb y) = V c main_v7 i
  congr 1
  funext a
  apply Fin.ext
  match a with
  | ⟨0, _⟩ =>
    show win18_0.index ⟨4 * r.val + k.val, hlt⟩ (0 : Fin 2) * 1024 + 1 * (y 0).val = (i 0).val
    rw [e0', h0]; omega
  | ⟨1, _⟩ =>
    show win18_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk18_rhs_apply (c : Dev nD) (r k : Fin 4) (y : S1024x512.Idx) (i : S4096x512.Idx)
    (h0 : (i 0).val = 1024 * k.val + (y 0).val) (h1 : (i 1).val = (y 1).val) :
    iblk18_rhs V c (4 * r.val + k.val) y = (V c main_v108 : S4096x512.Idx → Elt F .f32) i := by
  have hN : cfg18.N = 16 := N_18
  have hr := r.isLt
  have hk := k.isLt
  have hlt : 4 * r.val + k.val < cfg18.N := by rw [hN]; omega
  rw [iblk18_rhs_eq V c _ hlt]
  obtain ⟨-, -, e0, e1, -, -⟩ := idxFacts18 ⟨4 * r.val + k.val, hlt⟩
  have e0' : win18_1.index ⟨4 * r.val + k.val, hlt⟩ (0 : Fin 2) = (4 * r.val + k.val) % 4 := e0
  have e1' : win18_1.index ⟨4 * r.val + k.val, hlt⟩ (1 : Fin 2) = 0 := e1
  unfold iblk18
  rw [View.read_apply]
  show V c main_v108 (((cfg18.win 1).blk ⟨4 * r.val + k.val, hlt⟩).view.emb y) = V c main_v108 i
  congr 1
  funext a
  apply Fin.ext
  match a with
  | ⟨0, _⟩ =>
    show win18_1.index ⟨4 * r.val + k.val, hlt⟩ (0 : Fin 2) * 1024 + 1 * (y 0).val = (i 0).val
    rw [e0', h0]; omega
  | ⟨1, _⟩ =>
    show win18_1.index ⟨4 * r.val + k.val, hlt⟩ (1 : Fin 2) * 512 + 1 * (y 1).val = (i 1).val
    rw [e1', h1]; omega

/-- The accumulated block after the fourth step, unfolded: four steps from the zero block. -/
theorem accOf18_three (c : Dev nD) (r : ℕ) :
    accOf18 V c r 3
      = k18_pay2 (iblk18_lhs V c (4 * r + 3)) (iblk18_rhs V c (4 * r + 3))
          (k18_pay2 (iblk18_lhs V c (4 * r + 2)) (iblk18_rhs V c (4 * r + 2))
            (k18_pay2 (iblk18_lhs V c (4 * r + 1)) (iblk18_rhs V c (4 * r + 1))
              (k18_pay2 (iblk18_lhs V c (4 * r)) (iblk18_rhs V c (4 * r)) (k18_pay1 (F := F))))) := rfl

end Cert.KernelIdeal.Hand

end
-- ==== Proof.ValKI18c.lean ====
/- Laid out by: python3 scratch/layout_regions.py --template-region 1 --region 18 --program KernelIdeal --prefix Val --parts a,b,c --sim main_v9=main_v7,main_v25=main_v108,main_v26=main_v109 --out-dir proof/Proof
   from the hand-written text of region 1 (ValKI1c.lean): the same text, the region's number substituted. -/
/-
  Region 18 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI18b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf18_step (x0 : Vec Ideal S1024x1024 .bf16) (x1 acc : Vec Ideal S1024x512 .f32) :
    k18_pay2 (F := Ideal) x0 x1 acc
      = Cert.MMLaw.accStep dot_S1024x1024_S1024x512_S1024x512_1_0_0_1_n_n none x0 x1 acc := by
  unfold k18_pay2
  simp only [shapeCast_self]
  rfl

/-- The accumulator starts from the zero block. -/
theorem accOf18_init (j : S1024x512.Idx) : k18_pay1 (F := Ideal) j = 0 := by
  unfold k18_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf18_eq_blk (c : Dev nD) (r : Fin 4) (D : DotDims S4096x4096 S4096x512 S4096x512) (hD : Cert.MMLaw.IsPlain D)
    (prec : Option ContractPrecision) :
    accOf18 V c r.val 3
      = Cert.MMLaw.blk (nr := 4) (nc := 1) 1024 512 rfl rfl (Cert.MMLaw.whole D prec (V c main_v7) (V c main_v108)) r 0 := by
  rw [accOf18_three]
  simp only [accOf18_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v7) (V c main_v108) r 0
    (fun k => iblk18_lhs V c (4 * r.val + k.val)) (fun k => iblk18_rhs V c (4 * r.val + k.val))
    (fun k => funext fun y => iblk18_lhs_apply V c r k y _ rfl rfl)
    (fun k => funext fun y => iblk18_rhs_apply V c r k y _ rfl (by show 512 * 0 + (y 1).val = (y 1).val; omega))
    (k18_pay1 (F := Ideal)) accOf18_init

/-! ## The output array after the region is the whole product -/

/-- The region leaves in its output array the product of its two operand arrays. -/
theorem final18_2_eq_whole (c : Dev nD) (D : DotDims S4096x4096 S4096x512 S4096x512) (hD : Cert.MMLaw.IsPlain D)
    (prec : Option ContractPrecision) :
    (dat18 (F := Ideal) V c).arrAt 2 cfg18.N = Cert.MMLaw.whole D prec (V c main_v7) (V c main_v108) := by
  rw [final18_2]
  funext i
  have hi0 : (i 0).val < 4096 := idx2_lt0 i
  have h := congrFun (accOf18_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final18_2_eq_dot (c : Dev nD) (D : DotDims S4096x4096 S4096x512 S4096x512) (hD : Cert.MMLaw.IsPlain D)
    (prec : Option ContractPrecision) :
    (dat18 (F := Ideal) V c).arrAt 2 cfg18.N = Host.dotGeneral (F := Ideal) (φ₁ := .bf16) (φ₂ := .f32) D prec (V c main_v7) (V c main_v108) :=
  final18_2_eq_whole V c D hD prec

end Cert.KernelIdeal.Hand

end
-- ==== Proof.ValKI19a.lean ====
/- Laid out by: python3 scratch/layout_regions.py --template-region 1 --region 19 --program KernelIdeal --prefix Val --parts a,b,c --sim main_v9=main_v8,main_v25=main_v111,main_v26=main_v113 --out-dir proof/Proof
   from the hand-written text of region 1 (ValKI1a.lean): the same text, the region's number substituted. -/
/-
  Region 19 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k19_pay1` (the zero block) and `k19_pay2` (accumulator plus product) are the two stores' payloads.

  So along one row of blocks r the accumulator after its step k is the left fold
    accOf19 r 0 = pay2 (a (r, 0)) (b 0) pay1,    accOf19 r (k + 1) = pay2 (a (r, k + 1)) (b (k + 1)) (accOf19 r k),
  the grid point (r, k) being position 4 r + k; and at k = 3 the output block holds accOf19 r 3.
-/
import proofs.«158944_j64613488001249_1_alg».proof.Proof.RegKI19
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout19_A_eq (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond19_0 i) (hc1 : ¬cond19_1 i)
    (x0 : Vec F S1024x1024 .bf16) (x1 : Vec F S1024x512 .f32) :
    sout19_A c i arg2 harg2 arg3 harg3 arg4 harg4 arg5 harg5 hc0 hc1 x0 x1 = k19_pay2 x0 x1 (k19_pay1 (F := F)) := by
  have hz : (![0, 0] : Fin 2 → Nat) = fun _ => 0 := funext fun a => by fin_cases a <;> rfl
  unfold sout19_A
  rw [View.read_writes_eq_canon _ _ _ (scover19_A c i arg2 harg2 arg3 harg3 arg4 harg4 arg5 harg5 hc0 hc1 x0 x1)]
  unfold kernelRun19_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout19_B_eq (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond19_0 i) (hc1 : ¬cond19_1 i)
    (x0 : Vec F S1024x1024 .bf16) (x1 : Vec F S1024x512 .f32) (xs0 : Vec F S1024x512 .f32) :
    sout19_B c i arg2 harg2 arg3 harg3 arg4 harg4 arg5 harg5 hc0 hc1 x0 x1 xs0 = k19_pay2 x0 x1 xs0 := by
  have hz : (![0, 0] : Fin 2 → Nat) = fun _ => 0 := funext fun a => by fin_cases a <;> rfl
  unfold sout19_B
  rw [View.read_writes_eq_canon _ _ _ (scover19_B c i arg2 harg2 arg3 harg3 arg4 harg4 arg5 harg5 hc0 hc1 x0 x1 xs0)]
  unfold kernelRun19_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout19_C_eq (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond19_0 i) (hc1 : cond19_1 i)
    (x0 : Vec F S1024x1024 .bf16) (x1 : Vec F S1024x512 .f32) (xs0 : Vec F S1024x512 .f32) :
    sout19_C c i arg2 harg2 arg3 harg3 arg4 harg4 arg5 harg5 hc0 hc1 x0 x1 xs0 = k19_pay2 x0 x1 xs0 := by
  have hz : (![0, 0] : Fin 2 → Nat) = fun _ => 0 := funext fun a => by fin_cases a <;> rfl
  unfold sout19_C
  rw [View.read_writes_eq_canon _ _ _ (scover19_C c i arg2 harg2 arg3 harg3 arg4 harg4 arg5 harg5 hc0 hc1 x0 x1 xs0)]
  unfold kernelRun19_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out19_C_eq (c : Dev nD) (i : grid19.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond19_0 i) (hc1 : cond19_1 i)
    (x0 : Vec F S1024x1024 .bf16) (x1 : Vec F S1024x512 .f32) (xs0 : Vec F S1024x512 .f32) :
    out19_C c i arg2 harg2 arg3 harg3 arg4 harg4 arg5 harg5 hc0 hc1 x0 x1 xs0 = k19_pay2 x0 x1 xs0 := by
  have hz : (![0, 0] : Fin 2 → Nat) = fun _ => 0 := funext fun a => by fin_cases a <;> rfl
  unfold out19_C
  rw [View.read_writes_eq_canon _ _ _ (cover19_C c i arg2 harg2 arg3 harg3 arg4 harg4 arg5 harg5 hc0 hc1 x0 x1 xs0)]
  unfold kernelRun19_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk19_lhs (c : Dev nD) (n : ℕ) : Vec F S1024x1024 .bf16 :=
  if h : n < cfg19.N then iblk19 V c 0 ⟨n, h⟩ else iblk19 V c 0 ⟨0, by have h : cfg19.N = 16 := N_19; omega⟩
/-- The right factor's block at grid position `n`. -/
def iblk19_rhs (c : Dev nD) (n : ℕ) : Vec F S1024x512 .f32 :=
  if h : n < cfg19.N then iblk19 V c 1 ⟨n, h⟩ else iblk19 V c 1 ⟨0, by have h : cfg19.N = 16 := N_19; omega⟩

theorem iblk19_lhs_eq (c : Dev nD) (n : ℕ) (h : n < cfg19.N) : iblk19_lhs V c n = iblk19 V c 0 ⟨n, h⟩ := dif_pos h
theorem iblk19_rhs_eq (c : Dev nD) (n : ℕ) (h : n < cfg19.N) : iblk19_rhs V c n = iblk19 V c 1 ⟨n, h⟩ := dif_pos h

/-! ## The accumulator along one row of blocks -/

/-- Row of blocks `r`, after its step `k`: the zero block plus the products of the blocks at positions 4 r, …, 4 r + k,
    added in that order. -/
def accOf19 (c : Dev nD) (r : ℕ) : ℕ → Vec F S1024x512 .f32
  | 0 => k19_pay2 (iblk19_lhs V c (4 * r)) (iblk19_rhs V c (4 * r)) (k19_pay1 (F := F))
  | k + 1 => k19_pay2 (iblk19_lhs V c (4 * r + (k + 1))) (iblk19_rhs V c (4 * r + (k + 1))) (accOf19 c r k)

theorem accOf19_zero (c : Dev nD) (r : ℕ) :
    accOf19 V c r 0 = k19_pay2 (iblk19_lhs V c (4 * r)) (iblk19_rhs V c (4 * r)) (k19_pay1 (F := F)) := rfl
theorem accOf19_succ (c : Dev nD) (r k : ℕ) :
    accOf19 V c r (k + 1) = k19_pay2 (iblk19_lhs V c (4 * r + (k + 1))) (iblk19_rhs V c (4 * r + (k + 1))) (accOf19 V c r k) := rfl

theorem iblk19_lhs_at (c : Dev nD) (t : Fin cfg19.N) (n : ℕ) (hn : n = t.val) : iblk19_lhs V c n = iblk19 V c 0 t := by
  subst hn; unfold iblk19_lhs; exact dif_pos t.isLt
theorem iblk19_rhs_at (c : Dev nD) (t : Fin cfg19.N) (n : ℕ) (hn : n = t.val) : iblk19_rhs V c n = iblk19 V c 1 t := by
  subst hn; unfold iblk19_rhs; exact dif_pos t.isLt

/-- At a grid point with k = 0 the fold starts: the zero block plus the product of the point's two blocks. -/
theorem accOf19_first (c : Dev nD) (t : Fin cfg19.N) (h0 : t.val % 4 = 0) :
    accOf19 V c (t.val / 4) (t.val % 4) = k19_pay2 (iblk19 V c 0 t) (iblk19 V c 1 t) (k19_pay1 (F := F)) := by
  rw [h0, accOf19_zero, iblk19_lhs_at V c t (4 * (t.val / 4)) (by omega), iblk19_rhs_at V c t (4 * (t.val / 4)) (by omega)]

/-- At a grid point with k ≠ 0 the fold takes one step from the position before, which is in the same row of blocks. -/
theorem accOf19_next (c : Dev nD) (t : Fin cfg19.N) (h0 : ¬t.val % 4 = 0) :
    accOf19 V c (t.val / 4) (t.val % 4)
      = k19_pay2 (iblk19 V c 0 t) (iblk19 V c 1 t) (accOf19 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf19_succ, iblk19_lhs_at V c t (4 * (t.val / 4) + (k + 1)) (by omega),
    iblk19_rhs_at V c t (4 * (t.val / 4) + (k + 1)) (by omega)]

/-! ## The accumulator and the output block, point by point, as pure functions of the blocks -/

/-- k = 0: the accumulator restarts from the zero block. -/
theorem outsAt19_first (c : Dev nD) (t : Fin cfg19.N) (h0 : t.val % 4 = 0) :
    (outsAt19 V c t.val t.isLt).2 = k19_pay2 (iblk19 V c 0 t) (iblk19 V c 1 t) (k19_pay1 (F := F)) := by
  rw [outsAt19_A V c t h0]
  dsimp only
  exact sout19_A_eq c (grid19.coords t) (ms19_0 t) (hs19_0 t) (ms19_1 t) (hs19_1 t) (ms19_2 t) (hs19_2 t) scM19 (Memref.isWhole_whole _) (isFirst19 t h0) (notLast19 t (by omega)) (iblk19 V c 0 t) (iblk19 V c 1 t)

/-- k ≠ 0: the point's product is added to what the point before left. -/
theorem outsAt19_next (c : Dev nD) (t : Fin cfg19.N) (h0 : ¬t.val % 4 = 0) :
    (outsAt19 V c t.val t.isLt).2
      = k19_pay2 (iblk19 V c 0 t) (iblk19 V c 1 t) (outsAt19 V c (t.val - 1) (Nat.lt_of_le_of_lt (Nat.sub_le _ _) t.isLt)).2 := by
  by_cases h3 : t.val % 4 = 3
  · rw [outsAt19_C V c t h0 h3]
    dsimp only
    exact sout19_C_eq c (grid19.coords t) (ms19_0 t) (hs19_0 t) (ms19_1 t) (hs19_1 t) (ms19_2 t) (hs19_2 t) scM19 (Memref.isWhole_whole _) (notFirst19 t h0) (isLast19 t h3) (iblk19 V c 0 t) (iblk19 V c 1 t)
      (outsAt19 V c (t.val - 1) (Nat.lt_of_le_of_lt (Nat.sub_le _ _) t.isLt)).2
  · rw [outsAt19_B V c t h0 h3]
    dsimp only
    exact sout19_B_eq c (grid19.coords t) (ms19_0 t) (hs19_0 t) (ms19_1 t) (hs19_1 t) (ms19_2 t) (hs19_2 t) scM19 (Memref.isWhole_whole _) (notFirst19 t h0) (notLast19 t h3) (iblk19 V c 0 t) (iblk19 V c 1 t)
      (outsAt19 V c (t.val - 1) (Nat.lt_of_le_of_lt (Nat.sub_le _ _) t.isLt)).2

/-- k = 3: the output block is the accumulator. -/
theorem outsAt19_last (c : Dev nD) (t : Fin cfg19.N) (h3 : t.val % 4 = 3) :
    (outsAt19 V c t.val t.isLt).1 = (outsAt19 V c t.val t.isLt).2 := by
  have h0 : ¬t.val % 4 = 0 := by omega
  rw [outsAt19_C V c t h0 h3]
  dsimp only
  exact (out19_C_eq c (grid19.coords t) (ms19_0 t) (hs19_0 t) (ms19_1 t) (hs19_1 t) (ms19_2 t) (hs19_2 t) scM19 (Memref.isWhole_whole _) (notFirst19 t h0) (isLast19 t h3) (iblk19 V c 0 t) (iblk19 V c 1 t)
      (outsAt19 V c (t.val - 1) (Nat.lt_of_le_of_lt (Nat.sub_le _ _) t.isLt)).2).trans
    (sout19_C_eq c (grid19.coords t) (ms19_0 t) (hs19_0 t) (ms19_1 t) (hs19_1 t) (ms19_2 t) (hs19_2 t) scM19 (Memref.isWhole_whole _) (notFirst19 t h0) (isLast19 t h3) (iblk19 V c 0 t) (iblk19 V c 1 t)
      (outsAt19 V c (t.val - 1) (Nat.lt_of_le_of_lt (Nat.sub_le _ _) t.isLt)).2).symm

/-! ## The accumulator is the fold -/

/-- After position `n` the accumulator holds row `n / 4`'s fold after its step `n % 4`: by induction on the position. -/
theorem outsAt19_acc_pos (c : Dev nD) :
    ∀ (n : ℕ) (hn : n < cfg19.N), (outsAt19 V c n hn).2 = accOf19 V c (n / 4) (n % 4) := by
  intro n
  induction n with
  | zero =>
    intro hn
    exact (outsAt19_first V c ⟨0, hn⟩ (Nat.zero_mod 4)).trans (accOf19_first V c ⟨0, hn⟩ (Nat.zero_mod 4)).symm
  | succ n ih =>
    intro hn
    by_cases h0 : (n + 1) % 4 = 0
    · exact (outsAt19_first V c ⟨n + 1, hn⟩ h0).trans (accOf19_first V c ⟨n + 1, hn⟩ h0).symm
    · refine (outsAt19_next V c ⟨n + 1, hn⟩ h0).trans (Eq.trans ?_ (accOf19_next V c ⟨n + 1, hn⟩ h0).symm)
      exact congrArg (k19_pay2 (iblk19 V c 0 ⟨n + 1, hn⟩) (iblk19 V c 1 ⟨n + 1, hn⟩)) (ih (Nat.lt_of_succ_lt hn))

/-- At every grid point the accumulator holds its row's fold after the point's step. -/
theorem outsAt19_acc (c : Dev nD) (t : Fin cfg19.N) :
    (outsAt19 V c t.val t.isLt).2 = accOf19 V c (t.val / 4) (t.val % 4) :=
  outsAt19_acc_pos V c t.val t.isLt

/-- At a row's last point the output block holds the row's whole fold. -/
theorem outsAt19_out (c : Dev nD) (t : Fin cfg19.N) (h3 : t.val % 4 = 3) :
    (outsAt19 V c t.val t.isLt).1 = accOf19 V c (t.val / 4) 3 := by
  have e := outsAt19_acc V c t
  rw [h3] at e
  exact (outsAt19_last V c t h3).trans e

end Cert.KernelIdeal.Hand

end
-- ==== Proof.ValKI19b.lean ====
/- Laid out by: python3 scratch/layout_regions.py --template-region 1 --region 19 --program KernelIdeal --prefix Val --parts a,b,c --sim main_v9=main_v8,main_v25=main_v111,main_v26=main_v113 --out-dir proof/Proof
   from the hand-written text of region 1 (ValKI1b.lean): the same text, the region's number substituted. -/
/-
  Region 19 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI19a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts19 : ∀ t : Fin cfg19.N,
    win19_0.index t (0 : Fin 2) = t.val / 4 ∧ win19_0.index t (1 : Fin 2) = t.val % 4
    ∧ win19_1.index t (0 : Fin 2) = t.val % 4 ∧ win19_1.index t (1 : Fin 2) = 0
    ∧ win19_2.index t (0 : Fin 2) = t.val / 4 ∧ win19_2.index t (1 : Fin 2) = 0 :=
  (by decide +kernel : ∀ t : Fin grid19.N,
    win19_0.index t (0 : Fin 2) = t.val / 4 ∧ win19_0.index t (1 : Fin 2) = t.val % 4
    ∧ win19_1.index t (0 : Fin 2) = t.val % 4 ∧ win19_1.index t (1 : Fin 2) = 0
    ∧ win19_2.index t (0 : Fin 2) = t.val / 4 ∧ win19_2.index t (1 : Fin 2) = 0)

/-! ## The output array as one function -/

/-- The whole output array: its row 1024 r + p, column q, is entry (p, q) of the block accumulated over k = 0 … 3 in
    block row r. -/
def whole19 (c : Dev nD) : S4096x512.Idx → Elt F .f32 := fun i =>
  accOf19 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole19_apply (c : Dev nD) (r : ℕ) (y : S1024x512.Idx) (i : S4096x512.Idx)
    (h0 : (i 0).val = 1024 * r + (y 0).val) (h1 : (i 1).val = (y 1).val) :
    whole19 V c i = accOf19 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole19
  rw [hr, e]

/-- Row 1024 r + p, column q of the array is entry (p, q) of block row r's accumulated block. -/
theorem whole19_ix2 (c : Dev nD) (r : Fin 4) (p : Fin 1024) (q : Fin 512) :
    whole19 V c (ix2 (n0 := 4096) (n1 := 512) ⟨1024 * r.val + p.val, by have := r.isLt; have := p.isLt; omega⟩ q)
      = accOf19 V c r.val 3 (ix2 p q) :=
  whole19_apply V c r.val (ix2 p q) _ rfl rfl

/-! ## What a point writes back -/

/-- A point with k = 3 writes back its block of the whole-array function. -/
theorem flushed19_eq (c : Dev nD) (t : Fin cfg19.N) (hf : (cfg19.win 2).flush t = true) :
    (dat19 V c).flushed 2 t = ((cfg19.win 2).blk t).view.read (Elt F) (whole19 V c) := by
  have h3 : t.val % 4 = 3 := (flush19_2 t).mp hf
  show (cfg19.win 2).cut (grid19.coords t) ((dat19 V c).after 2 t) = _
  rw [after19_2, outsAt19_out V c t h3]
  obtain ⟨-, -, -, -, e0, e1⟩ := idxFacts19 t
  funext j
  show accOf19 V c (t.val / 4) 3 j = whole19 V c (((cfg19.win 2).blk t).view.emb j)
  refine (whole19_apply V c (t.val / 4) j _ ?_ ?_).symm
  · show win19_2.index t (0 : Fin 2) * 1024 + 1 * (j 0).val = 1024 * (t.val / 4) + (j 0).val
    rw [e0]; omega
  · show win19_2.index t (1 : Fin 2) * 512 + 1 * (j 1).val = (j 1).val
    rw [e1]; omega

/-! ## The blocks written back cover the array -/

/-- An index is in a point's output block iff each coordinate is in the block's range on its axis. -/
theorem memBlk19 (t : Fin cfg19.N) (i : S4096x512.Idx) :
    i ∈ ((cfg19.win 2).blk t).view.set ↔ ∀ a : Fin 2, win19_2.index t a * S1024x512.size a ≤ (i a).val
      ∧ (i a).val < win19_2.index t a * S1024x512.size a + S1024x512.size a := by
  show i ∈ ((View.whole main_v113).slice (win19_2.rect t)).set ↔ _
  rw [View.set_slice_whole, Rect.mem_set_unit]
  exact Iff.rfl

/-- Row i of the array lies in the block written back at the point (i / 1024, 3). -/
theorem covered19 (i : S4096x512.Idx) :
    ∃ t : Fin cfg19.N, (cfg19.win 2).flush t = true ∧ i ∈ ((cfg19.win 2).blk t).view.set := by
  have hi0 : (i 0).val < 4096 := idx2_lt0 i
  have hi1 : (i 1).val < 512 := idx2_lt1 i
  have hN : cfg19.N = 16 := N_19
  obtain ⟨t, ht⟩ : ∃ t : Fin cfg19.N, t.val = 4 * ((i 0).val / 1024) + 3 :=
    ⟨⟨4 * ((i 0).val / 1024) + 3, by rw [hN]; omega⟩, rfl⟩
  refine ⟨t, (flush19_2 t).mpr (by omega), ?_⟩
  rw [memBlk19]
  obtain ⟨-, -, -, -, e0, e1⟩ := idxFacts19 t
  intro a
  match a with
  | ⟨0, _⟩ =>
    show win19_2.index t (0 : Fin 2) * 1024 ≤ (i 0).val ∧ (i 0).val < win19_2.index t (0 : Fin 2) * 1024 + 1024
    rw [e0]; omega
  | ⟨1, _⟩ =>
    show win19_2.index t (1 : Fin 2) * 512 ≤ (i 1).val ∧ (i 1).val < win19_2.index t (1 : Fin 2) * 512 + 512
    rw [e1]; omega

/-! ## The three arrays after the region -/

/-- The output array after the region is the whole-array function. -/
theorem final19_2 (c : Dev nD) : (dat19 V c).arrAt 2 cfg19.N = whole19 V c :=
  (dat19 V c).arrAt_eq_of_cover 2 (whole19 V c) (flushed19_eq V c) covered19

/-- The two input arrays are as the region found them. -/
theorem final19_0 (c : Dev nD) : (dat19 V c).arrAt 0 cfg19.N = V c main_v8 :=
  ((dat19 V c).arrAt_in 0 rfl cfg19.N).trans (A_eq19 V c 0)
theorem final19_1 (c : Dev nD) : (dat19 V c).arrAt 1 cfg19.N = V c main_v111 :=
  ((dat19 V c).arrAt_in 1 rfl cfg19.N).trans (A_eq19 V c 1)

/-! ## The input blocks as blocks of the operand arrays -/

/-- The left operand's block at the point (r, k): entry (y₀, y₁) is the array's entry (1024 r + y₀, 1024 k + y₁). -/
theorem iblk19_lhs_apply (c : Dev nD) (r k : Fin 4) (y : S1024x1024.Idx) (i : S4096x4096.Idx)
    (h0 : (i 0).val = 1024 * r.val + (y 0).val) (h1 : (i 1).val = 1024 * k.val + (y 1).val) :
    iblk19_lhs V c (4 * r.val + k.val) y = (V c main_v8 : S4096x4096.Idx → Elt F .bf16) i := by
  have hN : cfg19.N = 16 := N_19
  have hr := r.isLt
  have hk := k.isLt
  have hlt : 4 * r.val + k.val < cfg19.N := by rw [hN]; omega
  rw [iblk19_lhs_eq V c _ hlt]
  obtain ⟨e0, e1, -, -, -, -⟩ := idxFacts19 ⟨4 * r.val + k.val, hlt⟩
  have e0' : win19_0.index ⟨4 * r.val + k.val, hlt⟩ (0 : Fin 2) = (4 * r.val + k.val) / 4 := e0
  have e1' : win19_0.index ⟨4 * r.val + k.val, hlt⟩ (1 : Fin 2) = (4 * r.val + k.val) % 4 := e1
  unfold iblk19
  rw [View.read_apply]
  show V c main_v8 (((cfg19.win 0).blk ⟨4 * r.val + k.val, hlt⟩).view.emb y) = V c main_v8 i
  congr 1
  funext a
  apply Fin.ext
  match a with
  | ⟨0, _⟩ =>
    show win19_0.index ⟨4 * r.val + k.val, hlt⟩ (0 : Fin 2) * 1024 + 1 * (y 0).val = (i 0).val
    rw [e0', h0]; omega
  | ⟨1, _⟩ =>
    show win19_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk19_rhs_apply (c : Dev nD) (r k : Fin 4) (y : S1024x512.Idx) (i : S4096x512.Idx)
    (h0 : (i 0).val = 1024 * k.val + (y 0).val) (h1 : (i 1).val = (y 1).val) :
    iblk19_rhs V c (4 * r.val + k.val) y = (V c main_v111 : S4096x512.Idx → Elt F .f32) i := by
  have hN : cfg19.N = 16 := N_19
  have hr := r.isLt
  have hk := k.isLt
  have hlt : 4 * r.val + k.val < cfg19.N := by rw [hN]; omega
  rw [iblk19_rhs_eq V c _ hlt]
  obtain ⟨-, -, e0, e1, -, -⟩ := idxFacts19 ⟨4 * r.val + k.val, hlt⟩
  have e0' : win19_1.index ⟨4 * r.val + k.val, hlt⟩ (0 : Fin 2) = (4 * r.val + k.val) % 4 := e0
  have e1' : win19_1.index ⟨4 * r.val + k.val, hlt⟩ (1 : Fin 2) = 0 := e1
  unfold iblk19
  rw [View.read_apply]
  show V c main_v111 (((cfg19.win 1).blk ⟨4 * r.val + k.val, hlt⟩).view.emb y) = V c main_v111 i
  congr 1
  funext a
  apply Fin.ext
  match a with
  | ⟨0, _⟩ =>
    show win19_1.index ⟨4 * r.val + k.val, hlt⟩ (0 : Fin 2) * 1024 + 1 * (y 0).val = (i 0).val
    rw [e0', h0]; omega
  | ⟨1, _⟩ =>
    show win19_1.index ⟨4 * r.val + k.val, hlt⟩ (1 : Fin 2) * 512 + 1 * (y 1).val = (i 1).val
    rw [e1', h1]; omega

/-- The accumulated block after the fourth step, unfolded: four steps from the zero block. -/
theorem accOf19_three (c : Dev nD) (r : ℕ) :
    accOf19 V c r 3
      = k19_pay2 (iblk19_lhs V c (4 * r + 3)) (iblk19_rhs V c (4 * r + 3))
          (k19_pay2 (iblk19_lhs V c (4 * r + 2)) (iblk19_rhs V c (4 * r + 2))
            (k19_pay2 (iblk19_lhs V c (4 * r + 1)) (iblk19_rhs V c (4 * r + 1))
              (k19_pay2 (iblk19_lhs V c (4 * r)) (iblk19_rhs V c (4 * r)) (k19_pay1 (F := F))))) := rfl

end Cert.KernelIdeal.Hand

end
-- ==== Proof.ValKI19c.lean ====
/- Laid out by: python3 scratch/layout_regions.py --template-region 1 --region 19 --program KernelIdeal --prefix Val --parts a,b,c --sim main_v9=main_v8,main_v25=main_v111,main_v26=main_v113 --out-dir proof/Proof
   from the hand-written text of region 1 (ValKI1c.lean): the same text, the region's number substituted. -/
/-
  Region 19 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI19b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf19_step (x0 : Vec Ideal S1024x1024 .bf16) (x1 acc : Vec Ideal S1024x512 .f32) :
    k19_pay2 (F := Ideal) x0 x1 acc
      = Cert.MMLaw.accStep dot_S1024x1024_S1024x512_S1024x512_1_0_0_1_n_n none x0 x1 acc := by
  unfold k19_pay2
  simp only [shapeCast_self]
  rfl

/-- The accumulator starts from the zero block. -/
theorem accOf19_init (j : S1024x512.Idx) : k19_pay1 (F := Ideal) j = 0 := by
  unfold k19_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf19_eq_blk (c : Dev nD) (r : Fin 4) (D : DotDims S4096x4096 S4096x512 S4096x512) (hD : Cert.MMLaw.IsPlain D)
    (prec : Option ContractPrecision) :
    accOf19 V c r.val 3
      = Cert.MMLaw.blk (nr := 4) (nc := 1) 1024 512 rfl rfl (Cert.MMLaw.whole D prec (V c main_v8) (V c main_v111)) r 0 := by
  rw [accOf19_three]
  simp only [accOf19_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v8) (V c main_v111) r 0
    (fun k => iblk19_lhs V c (4 * r.val + k.val)) (fun k => iblk19_rhs V c (4 * r.val + k.val))
    (fun k => funext fun y => iblk19_lhs_apply V c r k y _ rfl rfl)
    (fun k => funext fun y => iblk19_rhs_apply V c r k y _ rfl (by show 512 * 0 + (y 1).val = (y 1).val; omega))
    (k19_pay1 (F := Ideal)) accOf19_init

/-! ## The output array after the region is the whole product -/

/-- The region leaves in its output array the product of its two operand arrays. -/
theorem final19_2_eq_whole (c : Dev nD) (D : DotDims S4096x4096 S4096x512 S4096x512) (hD : Cert.MMLaw.IsPlain D)
    (prec : Option ContractPrecision) :
    (dat19 (F := Ideal) V c).arrAt 2 cfg19.N = Cert.MMLaw.whole D prec (V c main_v8) (V c main_v111) := by
  rw [final19_2]
  funext i
  have hi0 : (i 0).val < 4096 := idx2_lt0 i
  have h := congrFun (accOf19_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final19_2_eq_dot (c : Dev nD) (D : DotDims S4096x4096 S4096x512 S4096x512) (hD : Cert.MMLaw.IsPlain D)
    (prec : Option ContractPrecision) :
    (dat19 (F := Ideal) V c).arrAt 2 cfg19.N = Host.dotGeneral (F := Ideal) (φ₁ := .bf16) (φ₂ := .f32) D prec (V c main_v8) (V c main_v111) :=
  final19_2_eq_whole V c D hD prec

end Cert.KernelIdeal.Hand

end
-- ==== Proof.ValKI20a.lean ====
/- Laid out by: python3 scratch/layout_grid41.py --prefix Val --template-region 0 --region 20 --program KernelIdeal --parts a,b --shapes S1024x128=S1024x512,S128x512=S512x512,S1024x512=S1024x512,S4096x128=S4096x512,S4096x512=S4096x512,main_arg0=main_v116,main_v12=main_v10,main_v17=main_v117,h0=h0,e0=e0,hi0=hi0,x0=x0
   from the hand-written text of region 0 (ValKI0a.lean): the same text, the region's number, block shapes, operand arrays substituted. -/
/-
  Region 20 of @main: from the output blocks to the whole output array.

  The grid is [4, 1]: the point t is block row t, and the reduction axis has one step, so every point zeroes the
  accumulator, adds the product of its two input blocks, and writes the sum back. The output window's block at t is
  rows 1024 t … 1024 t + 1023 of the result, written back at every point. So the array after the region is ONE function
  of the index: row 1024 r + p, column q holds entry (p, q) of the block the point r leaves. The steps: the three windows'
  block indices decided once over the grid; what a point writes back is its block of that function; the four blocks
  written back cover the array (row i lies in the block of the point i / 1024); hence the array after the region. The two
  operand arrays are not written. Last, each input block as a block of its operand array: the left operand's block at the
  point t is its rows 1024 t … 1024 t + 1023 (every column), the right operand's block is the whole array at every point.
-/
import proofs.«158944_j64613488001249_1_alg».proof.Proof.RegKI20
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t the left operand's block is (t, 0), the right operand's (0, 0), the output's (t, 0). -/
theorem idxFacts20 : ∀ t : Fin cfg20.N,
    win20_0.index t (0 : Fin 2) = t.val ∧ win20_0.index t (1 : Fin 2) = 0
    ∧ win20_1.index t (0 : Fin 2) = 0 ∧ win20_1.index t (1 : Fin 2) = 0
    ∧ win20_2.index t (0 : Fin 2) = t.val ∧ win20_2.index t (1 : Fin 2) = 0 :=
  (by decide +kernel : ∀ t : Fin grid20.N,
    win20_0.index t (0 : Fin 2) = t.val ∧ win20_0.index t (1 : Fin 2) = 0
    ∧ win20_1.index t (0 : Fin 2) = 0 ∧ win20_1.index t (1 : Fin 2) = 0
    ∧ win20_2.index t (0 : Fin 2) = t.val ∧ win20_2.index t (1 : Fin 2) = 0)

/-! ## The block a point leaves -/

/-- The block the point at grid position n leaves: the zero block plus the product of the point's two input blocks
    (past the grid's end, where nothing consults it, the block of position 0). -/
def accOf20 (c : Dev nD) (n : ℕ) : Vec F S1024x512 .f32 :=
  if h : n < cfg20.N then k20_pay2 (iblk20 V c 0 ⟨n, h⟩) (iblk20 V c 1 ⟨n, h⟩) (k20_pay1 (F := F))
  else k20_pay2 (iblk20 V c 0 ⟨0, by have h : cfg20.N = 4 := N_20; omega⟩)
    (iblk20 V c 1 ⟨0, by have h : cfg20.N = 4 := N_20; omega⟩) (k20_pay1 (F := F))

theorem accOf20_eq (c : Dev nD) (t : Fin cfg20.N) :
    accOf20 V c t.val = k20_pay2 (iblk20 V c 0 t) (iblk20 V c 1 t) (k20_pay1 (F := F)) := by
  unfold accOf20; exact dif_pos t.isLt

/-- At every point the output block holds that block. -/
theorem outsAt20_out (c : Dev nD) (t : Fin cfg20.N) : (outsAt20 V c t.val t.isLt).1 = accOf20 V c t.val :=
  (outsAt20_last V c t).trans ((outsAt20_first V c t).trans (accOf20_eq V c t).symm)

/-! ## The output array as one function -/

/-- The whole output array: its row 1024 r + p, column q, is entry (p, q) of the block the point r leaves. -/
def whole20 (c : Dev nD) : S4096x512.Idx → Elt F .f32 := fun i =>
  accOf20 V c ((i 0).val / 1024)
    (ix2 ⟨(i 0).val % 1024, Nat.mod_lt _ (by decide)⟩ ⟨(i 1).val, idx2_lt1 i⟩)

/-- The array read at an index given by a block row r and a position y inside the block. -/
theorem whole20_apply (c : Dev nD) (r : ℕ) (y : S1024x512.Idx) (i : S4096x512.Idx)
    (h0 : (i 0).val = 1024 * r + (y 0).val) (h1 : (i 1).val = (y 1).val) :
    whole20 V c i = accOf20 V c r y := by
  have hy : (y 0).val < 1024 := idx2_lt0 y
  have hr : (i 0).val / 1024 = r := by omega
  have hp : (i 0).val % 1024 = (y 0).val := by omega
  have e : (ix2 ⟨(i 0).val % 1024, Nat.mod_lt _ (by decide)⟩ ⟨(i 1).val, idx2_lt1 i⟩ : S1024x512.Idx) = y :=
    funext fun a => match a with
      | ⟨0, _⟩ => Fin.ext hp
      | ⟨1, _⟩ => Fin.ext h1
  unfold whole20
  rw [hr, e]

/-- Row 1024 r + p, column q of the array is entry (p, q) of the block the point r leaves. -/
theorem whole20_ix2 (c : Dev nD) (r : Fin 4) (p : Fin 1024) (q : Fin (S1024x512.size 1)) :
    whole20 V c (ix2 ⟨1024 * r.val + p.val, by have := r.isLt; have := p.isLt; omega⟩ q)
      = accOf20 V c r.val (ix2 p q) :=
  whole20_apply V c r.val (ix2 p q) _ rfl rfl

/-! ## What a point writes back -/

/-- Every point writes back its block of the whole-array function. -/
theorem flushed20_eq (c : Dev nD) (t : Fin cfg20.N) (hf : (cfg20.win 2).flush t = true) :
    (dat20 V c).flushed 2 t = ((cfg20.win 2).blk t).view.read (Elt F) (whole20 V c) := by
  show (cfg20.win 2).cut (grid20.coords t) ((dat20 V c).after 2 t) = _
  rw [after20_2, outsAt20_out V c t]
  obtain ⟨-, -, -, -, e0, e1⟩ := idxFacts20 t
  funext j
  show accOf20 V c t.val j = whole20 V c (((cfg20.win 2).blk t).view.emb j)
  refine (whole20_apply V c t.val j _ ?_ ?_).symm
  · show win20_2.index t (0 : Fin 2) * 1024 + 1 * (j 0).val = 1024 * t.val + (j 0).val
    rw [e0]; omega
  · show win20_2.index t (1 : Fin 2) * S1024x512.size (1 : Fin 2) + 1 * (j 1).val = (j 1).val
    rw [e1, Nat.zero_mul, Nat.zero_add, Nat.one_mul]

/-! ## The blocks written back cover the array -/

/-- An index is in a point's output block iff each coordinate is in the block's range on its axis. -/
theorem memBlk20 (t : Fin cfg20.N) (i : S4096x512.Idx) :
    i ∈ ((cfg20.win 2).blk t).view.set ↔ ∀ a : Fin 2, win20_2.index t a * S1024x512.size a ≤ (i a).val
      ∧ (i a).val < win20_2.index t a * S1024x512.size a + S1024x512.size a := by
  show i ∈ ((View.whole main_v117).slice (win20_2.rect t)).set ↔ _
  rw [View.set_slice_whole, Rect.mem_set_unit]
  exact Iff.rfl

/-- Row i of the array lies in the block written back at the point i / 1024. -/
theorem covered20 (i : S4096x512.Idx) :
    ∃ t : Fin cfg20.N, (cfg20.win 2).flush t = true ∧ i ∈ ((cfg20.win 2).blk t).view.set := by
  have hi0 : (i 0).val < 4096 := idx2_lt0 i
  have hi1 : (i 1).val < S1024x512.size (1 : Fin 2) := idx2_lt1 i
  have hN : cfg20.N = 4 := N_20
  obtain ⟨t, ht⟩ : ∃ t : Fin cfg20.N, t.val = (i 0).val / 1024 :=
    ⟨⟨(i 0).val / 1024, by rw [hN]; omega⟩, rfl⟩
  refine ⟨t, flush20_2 t, ?_⟩
  rw [memBlk20]
  obtain ⟨-, -, -, -, e0, e1⟩ := idxFacts20 t
  intro a
  match a with
  | ⟨0, _⟩ =>
    show win20_2.index t (0 : Fin 2) * 1024 ≤ (i 0).val ∧ (i 0).val < win20_2.index t (0 : Fin 2) * 1024 + 1024
    rw [e0]; omega
  | ⟨1, _⟩ =>
    show win20_2.index t (1 : Fin 2) * S1024x512.size (1 : Fin 2) ≤ (i 1).val
      ∧ (i 1).val < win20_2.index t (1 : Fin 2) * S1024x512.size (1 : Fin 2) + S1024x512.size (1 : Fin 2)
    rw [e1, Nat.zero_mul, Nat.zero_add]
    exact ⟨Nat.zero_le _, hi1⟩

/-! ## The three arrays after the region -/

/-- The output array after the region is the whole-array function. -/
theorem final20_2 (c : Dev nD) : (dat20 V c).arrAt 2 cfg20.N = whole20 V c :=
  (dat20 V c).arrAt_eq_of_cover 2 (whole20 V c) (flushed20_eq V c) covered20

/-- The two input arrays are as the region found them. -/
theorem final20_0 (c : Dev nD) : (dat20 V c).arrAt 0 cfg20.N = V c main_v116 :=
  ((dat20 V c).arrAt_in 0 rfl cfg20.N).trans (A_eq20 V c 0)
theorem final20_1 (c : Dev nD) : (dat20 V c).arrAt 1 cfg20.N = V c main_v10 :=
  ((dat20 V c).arrAt_in 1 rfl cfg20.N).trans (A_eq20 V c 1)

/-! ## The input blocks as blocks of the operand arrays -/

/-- The left operand's block at the point t: entry (y₀, y₁) is the array's entry (1024 t + y₀, y₁). -/
theorem iblk20_lhs_apply (c : Dev nD) (t : Fin cfg20.N) (y : S1024x512.Idx) (i : S4096x512.Idx)
    (h0 : (i 0).val = 1024 * t.val + (y 0).val) (h1 : (i 1).val = (y 1).val) :
    iblk20 V c 0 t y = (V c main_v116 : S4096x512.Idx → Elt F .f32) i := by
  obtain ⟨e0, e1, -, -, -, -⟩ := idxFacts20 t
  unfold iblk20
  rw [View.read_apply]
  show V c main_v116 (((cfg20.win 0).blk t).view.emb y) = V c main_v116 i
  congr 1
  funext a
  apply Fin.ext
  match a with
  | ⟨0, _⟩ =>
    show win20_0.index t (0 : Fin 2) * 1024 + 1 * (y 0).val = (i 0).val
    rw [e0, h0]; omega
  | ⟨1, _⟩ =>
    show win20_0.index t (1 : Fin 2) * S1024x512.size (1 : Fin 2) + 1 * (y 1).val = (i 1).val
    rw [e1, h1, Nat.zero_mul, Nat.zero_add, Nat.one_mul]

/-- The right operand's block is the whole array at every point. -/
theorem iblk20_rhs_eq (c : Dev nD) (t : Fin cfg20.N) :
    iblk20 V c 1 t = (V c main_v10 : S512x512.Idx → Elt F .bf16) := by
  obtain ⟨-, -, e0, e1, -, -⟩ := idxFacts20 t
  funext y
  unfold iblk20
  rw [View.read_apply]
  show V c main_v10 (((cfg20.win 1).blk t).view.emb y) = V c main_v10 y
  congr 1
  funext a
  apply Fin.ext
  match a with
  | ⟨0, _⟩ =>
    show win20_1.index t (0 : Fin 2) * S512x512.size (0 : Fin 2) + 1 * (y 0).val = (y 0).val
    rw [e0, Nat.zero_mul, Nat.zero_add, Nat.one_mul]
  | ⟨1, _⟩ =>
    show win20_1.index t (1 : Fin 2) * S512x512.size (1 : Fin 2) + 1 * (y 1).val = (y 1).val
    rw [e1, Nat.zero_mul, Nat.zero_add, Nat.one_mul]

end Cert.KernelIdeal.Hand

end
-- ==== Proof.ValKI20b.lean ====
/- Laid out by: python3 scratch/layout_grid41.py --prefix Val --template-region 0 --region 20 --program KernelIdeal --parts a,b --shapes S1024x128=S1024x512,S128x512=S512x512,S1024x512=S1024x512,S4096x128=S4096x512,S4096x512=S4096x512,main_arg0=main_v116,main_v12=main_v10,main_v17=main_v117,h0=h0,e0=e0,hi0=hi0,x0=x0
   from the hand-written text of region 0 (ValKI0b.lean): the same text, the region's number, block shapes, operand arrays substituted. -/
/-
  Region 20 of @main at the extended reals: the output array after the region is the product of the two operand arrays.

  A change of float format is the identity at these values and a reshape to the same shape is the identity, so the
  kernel's one accumulation step is "accumulator plus the product of the two blocks into the zero block", and the
  accumulator starts from the zero block. The block the point r leaves is then zero plus the product of rows
  1024 r … 1024 r + 1023 of the left operand with the whole right operand, which is the same rows of the whole product:
  the contraction axis is not cut, so the sums are the same term by term. Read through the whole-array function of the
  blocks-to-array module, entry (1024 r + p, q) of the output array is that entry of the product.
-/
import proofs.«158944_j64613488001249_1_alg».proof.Proof.ValKI20a
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The accumulation step, and its start, at the extended reals -/

/-- A change of format and a reshape to the same shape are the identity: the step adds the product of the two blocks
    (into the zero block) to the accumulator. -/
theorem accOf20_step (x0 : Vec Ideal S1024x512 .f32) (x1 : Vec Ideal S512x512 .bf16) (acc : Vec Ideal S1024x512 .f32) :
    k20_pay2 (F := Ideal) x0 x1 acc
      = Cert.MMLaw.accStep dot_S1024x512_S512x512_S1024x512_1_0_0_1_n_n none x0 x1 acc := by
  unfold k20_pay2
  simp only [shapeCast_self]
  rfl

/-- The accumulator starts from the zero block. -/
theorem accOf20_init (j : S1024x512.Idx) : k20_pay1 (F := Ideal) j = 0 := by
  unfold k20_pay1
  rw [shapeCast_self]
  exact Ideal.ofBits_zero_f32

/-! ## The block a point leaves is a block of the whole product -/

/-- The block the point r leaves is rows 1024 r … 1024 r + 1023 of the product of the two operand arrays. -/
theorem accOf20_eq_blk (c : Dev nD) (r : Fin 4) (D : DotDims S4096x512 S512x512 S4096x512) (hD : Cert.MMLaw.IsPlain D)
    (prec : Option ContractPrecision) :
    accOf20 V c r.val
      = Cert.MMLaw.rowBlk (Cert.MMLaw.whole D prec (V c main_v116) (V c main_v10)) r := by
  have hN : cfg20.N = 4 := N_20
  have hr : r.val < cfg20.N := by rw [hN]; exact r.isLt
  rw [accOf20_eq V c ⟨r.val, hr⟩, accOf20_step]
  exact Cert.MMLaw.law41 dot_S1024x512_S512x512_S1024x512_1_0_0_1_n_n ⟨rfl, rfl, rfl, rfl, rfl, rfl⟩ D hD none prec
    (V c main_v116) (V c main_v10) r (iblk20 V c 0 ⟨r.val, hr⟩) (iblk20 V c 1 ⟨r.val, hr⟩)
    (funext fun y => iblk20_lhs_apply V c ⟨r.val, hr⟩ y _ rfl rfl) (iblk20_rhs_eq V c ⟨r.val, hr⟩)
    (k20_pay1 (F := Ideal)) accOf20_init

/-! ## The output array after the region is the whole product -/

/-- The region leaves in its output array the product of its two operand arrays. -/
theorem final20_2_eq_whole (c : Dev nD) (D : DotDims S4096x512 S512x512 S4096x512) (hD : Cert.MMLaw.IsPlain D)
    (prec : Option ContractPrecision) :
    (dat20 (F := Ideal) V c).arrAt 2 cfg20.N = Cert.MMLaw.whole D prec (V c main_v116) (V c main_v10) := by
  rw [final20_2]
  funext i
  have hi0 : (i 0).val < 4096 := idx2_lt0 i
  have h := congrFun (accOf20_eq_blk V c ⟨(i 0).val / 1024, by omega⟩ D hD prec)
    (ix2 ⟨(i 0).val % 1024, Nat.mod_lt _ (by decide)⟩ ⟨(i 1).val, idx2_lt1 i⟩)
  rw [Cert.MMLaw.rowBlk_apply] at h
  refine Eq.trans h (congrArg _ ?_)
  funext a
  match a with
  | ⟨0, _⟩ => exact Fin.ext (by show 1024 * ((i 0).val / 1024) + (i 0).val % 1024 = (i 0).val; omega)
  | ⟨1, _⟩ => rfl

/-- The same with the operands at the formats they are stored in. -/
theorem final20_2_eq_dot (c : Dev nD) (D : DotDims S4096x512 S512x512 S4096x512) (hD : Cert.MMLaw.IsPlain D)
    (prec : Option ContractPrecision) :
    (dat20 (F := Ideal) V c).arrAt 2 cfg20.N
      = Host.dotGeneral (F := Ideal) (φ₁ := .f32) (φ₂ := .bf16) D prec (V c main_v116) (V c main_v10) :=
  final20_2_eq_whole V c D hD prec

end Cert.KernelIdeal.Hand

end
-- ==== Proof.ValKI21a.lean ====
/- Laid out by: python3 scratch/layout_regions.py --template-region 1 --region 21 --program KernelIdeal --prefix Val --parts a,b,c --sim main_v9=main_v7,main_v25=main_v117,main_v26=main_v118 --out-dir proof/Proof
   from the hand-written text of region 1 (ValKI1a.lean): the same text, the region's number substituted. -/
/-
  Region 21 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k21_pay1` (the zero block) and `k21_pay2` (accumulator plus product) are the two stores' payloads.

  So along one row of blocks r the accumulator after its step k is the left fold
    accOf21 r 0 = pay2 (a (r, 0)) (b 0) pay1,    accOf21 r (k + 1) = pay2 (a (r, k + 1)) (b (k + 1)) (accOf21 r k),
  the grid point (r, k) being position 4 r + k; and at k = 3 the output block holds accOf21 r 3.
-/
import proofs.«158944_j64613488001249_1_alg».proof.Proof.RegKI21
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout21_A_eq (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond21_0 i) (hc1 : ¬cond21_1 i)
    (x0 : Vec F S1024x1024 .bf16) (x1 : Vec F S1024x512 .f32) :
    sout21_A c i arg2 harg2 arg3 harg3 arg4 harg4 arg5 harg5 hc0 hc1 x0 x1 = k21_pay2 x0 x1 (k21_pay1 (F := F)) := by
  have hz : (![0, 0] : Fin 2 → Nat) = fun _ => 0 := funext fun a => by fin_cases a <;> rfl
  unfold sout21_A
  rw [View.read_writes_eq_canon _ _ _ (scover21_A c i arg2 harg2 arg3 harg3 arg4 harg4 arg5 harg5 hc0 hc1 x0 x1)]
  unfold kernelRun21_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout21_B_eq (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond21_0 i) (hc1 : ¬cond21_1 i)
    (x0 : Vec F S1024x1024 .bf16) (x1 : Vec F S1024x512 .f32) (xs0 : Vec F S1024x512 .f32) :
    sout21_B c i arg2 harg2 arg3 harg3 arg4 harg4 arg5 harg5 hc0 hc1 x0 x1 xs0 = k21_pay2 x0 x1 xs0 := by
  have hz : (![0, 0] : Fin 2 → Nat) = fun _ => 0 := funext fun a => by fin_cases a <;> rfl
  unfold sout21_B
  rw [View.read_writes_eq_canon _ _ _ (scover21_B c i arg2 harg2 arg3 harg3 arg4 harg4 arg5 harg5 hc0 hc1 x0 x1 xs0)]
  unfold kernelRun21_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout21_C_eq (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond21_0 i) (hc1 : cond21_1 i)
    (x0 : Vec F S1024x1024 .bf16) (x1 : Vec F S1024x512 .f32) (xs0 : Vec F S1024x512 .f32) :
    sout21_C c i arg2 harg2 arg3 harg3 arg4 harg4 arg5 harg5 hc0 hc1 x0 x1 xs0 = k21_pay2 x0 x1 xs0 := by
  have hz : (![0, 0] : Fin 2 → Nat) = fun _ => 0 := funext fun a => by fin_cases a <;> rfl
  unfold sout21_C
  rw [View.read_writes_eq_canon _ _ _ (scover21_C c i arg2 harg2 arg3 harg3 arg4 harg4 arg5 harg5 hc0 hc1 x0 x1 xs0)]
  unfold kernelRun21_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out21_C_eq (c : Dev nD) (i : grid21.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond21_0 i) (hc1 : cond21_1 i)
    (x0 : Vec F S1024x1024 .bf16) (x1 : Vec F S1024x512 .f32) (xs0 : Vec F S1024x512 .f32) :
    out21_C c i arg2 harg2 arg3 harg3 arg4 harg4 arg5 harg5 hc0 hc1 x0 x1 xs0 = k21_pay2 x0 x1 xs0 := by
  have hz : (![0, 0] : Fin 2 → Nat) = fun _ => 0 := funext fun a => by fin_cases a <;> rfl
  unfold out21_C
  rw [View.read_writes_eq_canon _ _ _ (cover21_C c i arg2 harg2 arg3 harg3 arg4 harg4 arg5 harg5 hc0 hc1 x0 x1 xs0)]
  unfold kernelRun21_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk21_lhs (c : Dev nD) (n : ℕ) : Vec F S1024x1024 .bf16 :=
  if h : n < cfg21.N then iblk21 V c 0 ⟨n, h⟩ else iblk21 V c 0 ⟨0, by have h : cfg21.N = 16 := N_21; omega⟩
/-- The right factor's block at grid position `n`. -/
def iblk21_rhs (c : Dev nD) (n : ℕ) : Vec F S1024x512 .f32 :=
  if h : n < cfg21.N then iblk21 V c 1 ⟨n, h⟩ else iblk21 V c 1 ⟨0, by have h : cfg21.N = 16 := N_21; omega⟩

theorem iblk21_lhs_eq (c : Dev nD) (n : ℕ) (h : n < cfg21.N) : iblk21_lhs V c n = iblk21 V c 0 ⟨n, h⟩ := dif_pos h
theorem iblk21_rhs_eq (c : Dev nD) (n : ℕ) (h : n < cfg21.N) : iblk21_rhs V c n = iblk21 V c 1 ⟨n, h⟩ := dif_pos h

/-! ## The accumulator along one row of blocks -/

/-- Row of blocks `r`, after its step `k`: the zero block plus the products of the blocks at positions 4 r, …, 4 r + k,
    added in that order. -/
def accOf21 (c : Dev nD) (r : ℕ) : ℕ → Vec F S1024x512 .f32
  | 0 => k21_pay2 (iblk21_lhs V c (4 * r)) (iblk21_rhs V c (4 * r)) (k21_pay1 (F := F))
  | k + 1 => k21_pay2 (iblk21_lhs V c (4 * r + (k + 1))) (iblk21_rhs V c (4 * r + (k + 1))) (accOf21 c r k)

theorem accOf21_zero (c : Dev nD) (r : ℕ) :
    accOf21 V c r 0 = k21_pay2 (iblk21_lhs V c (4 * r)) (iblk21_rhs V c (4 * r)) (k21_pay1 (F := F)) := rfl
theorem accOf21_succ (c : Dev nD) (r k : ℕ) :
    accOf21 V c r (k + 1) = k21_pay2 (iblk21_lhs V c (4 * r + (k + 1))) (iblk21_rhs V c (4 * r + (k + 1))) (accOf21 V c r k) := rfl

theorem iblk21_lhs_at (c : Dev nD) (t : Fin cfg21.N) (n : ℕ) (hn : n = t.val) : iblk21_lhs V c n = iblk21 V c 0 t := by
  subst hn; unfold iblk21_lhs; exact dif_pos t.isLt
theorem iblk21_rhs_at (c : Dev nD) (t : Fin cfg21.N) (n : ℕ) (hn : n = t.val) : iblk21_rhs V c n = iblk21 V c 1 t := by
  subst hn; unfold iblk21_rhs; exact dif_pos t.isLt

/-- At a grid point with k = 0 the fold starts: the zero block plus the product of the point's two blocks. -/
theorem accOf21_first (c : Dev nD) (t : Fin cfg21.N) (h0 : t.val % 4 = 0) :
    accOf21 V c (t.val / 4) (t.val % 4) = k21_pay2 (iblk21 V c 0 t) (iblk21 V c 1 t) (k21_pay1 (F := F)) := by
  rw [h0, accOf21_zero, iblk21_lhs_at V c t (4 * (t.val / 4)) (by omega), iblk21_rhs_at V c t (4 * (t.val / 4)) (by omega)]

/-- At a grid point with k ≠ 0 the fold takes one step from the position before, which is in the same row of blocks. -/
theorem accOf21_next (c : Dev nD) (t : Fin cfg21.N) (h0 : ¬t.val % 4 = 0) :
    accOf21 V c (t.val / 4) (t.val % 4)
      = k21_pay2 (iblk21 V c 0 t) (iblk21 V c 1 t) (accOf21 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf21_succ, iblk21_lhs_at V c t (4 * (t.val / 4) + (k + 1)) (by omega),
    iblk21_rhs_at V c t (4 * (t.val / 4) + (k + 1)) (by omega)]

/-! ## The accumulator and the output block, point by point, as pure functions of the blocks -/

/-- k = 0: the accumulator restarts from the zero block. -/
theorem outsAt21_first (c : Dev nD) (t : Fin cfg21.N) (h0 : t.val % 4 = 0) :
    (outsAt21 V c t.val t.isLt).2 = k21_pay2 (iblk21 V c 0 t) (iblk21 V c 1 t) (k21_pay1 (F := F)) := by
  rw [outsAt21_A V c t h0]
  dsimp only
  exact sout21_A_eq c (grid21.coords t) (ms21_0 t) (hs21_0 t) (ms21_1 t) (hs21_1 t) (ms21_2 t) (hs21_2 t) scM21 (Memref.isWhole_whole _) (isFirst21 t h0) (notLast21 t (by omega)) (iblk21 V c 0 t) (iblk21 V c 1 t)

/-- k ≠ 0: the point's product is added to what the point before left. -/
theorem outsAt21_next (c : Dev nD) (t : Fin cfg21.N) (h0 : ¬t.val % 4 = 0) :
    (outsAt21 V c t.val t.isLt).2
      = k21_pay2 (iblk21 V c 0 t) (iblk21 V c 1 t) (outsAt21 V c (t.val - 1) (Nat.lt_of_le_of_lt (Nat.sub_le _ _) t.isLt)).2 := by
  by_cases h3 : t.val % 4 = 3
  · rw [outsAt21_C V c t h0 h3]
    dsimp only
    exact sout21_C_eq c (grid21.coords t) (ms21_0 t) (hs21_0 t) (ms21_1 t) (hs21_1 t) (ms21_2 t) (hs21_2 t) scM21 (Memref.isWhole_whole _) (notFirst21 t h0) (isLast21 t h3) (iblk21 V c 0 t) (iblk21 V c 1 t)
      (outsAt21 V c (t.val - 1) (Nat.lt_of_le_of_lt (Nat.sub_le _ _) t.isLt)).2
  · rw [outsAt21_B V c t h0 h3]
    dsimp only
    exact sout21_B_eq c (grid21.coords t) (ms21_0 t) (hs21_0 t) (ms21_1 t) (hs21_1 t) (ms21_2 t) (hs21_2 t) scM21 (Memref.isWhole_whole _) (notFirst21 t h0) (notLast21 t h3) (iblk21 V c 0 t) (iblk21 V c 1 t)
      (outsAt21 V c (t.val - 1) (Nat.lt_of_le_of_lt (Nat.sub_le _ _) t.isLt)).2

/-- k = 3: the output block is the accumulator. -/
theorem outsAt21_last (c : Dev nD) (t : Fin cfg21.N) (h3 : t.val % 4 = 3) :
    (outsAt21 V c t.val t.isLt).1 = (outsAt21 V c t.val t.isLt).2 := by
  have h0 : ¬t.val % 4 = 0 := by omega
  rw [outsAt21_C V c t h0 h3]
  dsimp only
  exact (out21_C_eq c (grid21.coords t) (ms21_0 t) (hs21_0 t) (ms21_1 t) (hs21_1 t) (ms21_2 t) (hs21_2 t) scM21 (Memref.isWhole_whole _) (notFirst21 t h0) (isLast21 t h3) (iblk21 V c 0 t) (iblk21 V c 1 t)
      (outsAt21 V c (t.val - 1) (Nat.lt_of_le_of_lt (Nat.sub_le _ _) t.isLt)).2).trans
    (sout21_C_eq c (grid21.coords t) (ms21_0 t) (hs21_0 t) (ms21_1 t) (hs21_1 t) (ms21_2 t) (hs21_2 t) scM21 (Memref.isWhole_whole _) (notFirst21 t h0) (isLast21 t h3) (iblk21 V c 0 t) (iblk21 V c 1 t)
      (outsAt21 V c (t.val - 1) (Nat.lt_of_le_of_lt (Nat.sub_le _ _) t.isLt)).2).symm

/-! ## The accumulator is the fold -/

/-- After position `n` the accumulator holds row `n / 4`'s fold after its step `n % 4`: by induction on the position. -/
theorem outsAt21_acc_pos (c : Dev nD) :
    ∀ (n : ℕ) (hn : n < cfg21.N), (outsAt21 V c n hn).2 = accOf21 V c (n / 4) (n % 4) := by
  intro n
  induction n with
  | zero =>
    intro hn
    exact (outsAt21_first V c ⟨0, hn⟩ (Nat.zero_mod 4)).trans (accOf21_first V c ⟨0, hn⟩ (Nat.zero_mod 4)).symm
  | succ n ih =>
    intro hn
    by_cases h0 : (n + 1) % 4 = 0
    · exact (outsAt21_first V c ⟨n + 1, hn⟩ h0).trans (accOf21_first V c ⟨n + 1, hn⟩ h0).symm
    · refine (outsAt21_next V c ⟨n + 1, hn⟩ h0).trans (Eq.trans ?_ (accOf21_next V c ⟨n + 1, hn⟩ h0).symm)
      exact congrArg (k21_pay2 (iblk21 V c 0 ⟨n + 1, hn⟩) (iblk21 V c 1 ⟨n + 1, hn⟩)) (ih (Nat.lt_of_succ_lt hn))

/-- At every grid point the accumulator holds its row's fold after the point's step. -/
theorem outsAt21_acc (c : Dev nD) (t : Fin cfg21.N) :
    (outsAt21 V c t.val t.isLt).2 = accOf21 V c (t.val / 4) (t.val % 4) :=
  outsAt21_acc_pos V c t.val t.isLt

/-- At a row's last point the output block holds the row's whole fold. -/
theorem outsAt21_out (c : Dev nD) (t : Fin cfg21.N) (h3 : t.val % 4 = 3) :
    (outsAt21 V c t.val t.isLt).1 = accOf21 V c (t.val / 4) 3 := by
  have e := outsAt21_acc V c t
  rw [h3] at e
  exact (outsAt21_last V c t h3).trans e

end Cert.KernelIdeal.Hand

end
-- ==== Proof.ValKI21b.lean ====
/- Laid out by: python3 scratch/layout_regions.py --template-region 1 --region 21 --program KernelIdeal --prefix Val --parts a,b,c --sim main_v9=main_v7,main_v25=main_v117,main_v26=main_v118 --out-dir proof/Proof
   from the hand-written text of region 1 (ValKI1b.lean): the same text, the region's number substituted. -/
/-
  Region 21 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI21a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts21 : ∀ t : Fin cfg21.N,
    win21_0.index t (0 : Fin 2) = t.val / 4 ∧ win21_0.index t (1 : Fin 2) = t.val % 4
    ∧ win21_1.index t (0 : Fin 2) = t.val % 4 ∧ win21_1.index t (1 : Fin 2) = 0
    ∧ win21_2.index t (0 : Fin 2) = t.val / 4 ∧ win21_2.index t (1 : Fin 2) = 0 :=
  (by decide +kernel : ∀ t : Fin grid21.N,
    win21_0.index t (0 : Fin 2) = t.val / 4 ∧ win21_0.index t (1 : Fin 2) = t.val % 4
    ∧ win21_1.index t (0 : Fin 2) = t.val % 4 ∧ win21_1.index t (1 : Fin 2) = 0
    ∧ win21_2.index t (0 : Fin 2) = t.val / 4 ∧ win21_2.index t (1 : Fin 2) = 0)

/-! ## The output array as one function -/

/-- The whole output array: its row 1024 r + p, column q, is entry (p, q) of the block accumulated over k = 0 … 3 in
    block row r. -/
def whole21 (c : Dev nD) : S4096x512.Idx → Elt F .f32 := fun i =>
  accOf21 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole21_apply (c : Dev nD) (r : ℕ) (y : S1024x512.Idx) (i : S4096x512.Idx)
    (h0 : (i 0).val = 1024 * r + (y 0).val) (h1 : (i 1).val = (y 1).val) :
    whole21 V c i = accOf21 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole21
  rw [hr, e]

/-- Row 1024 r + p, column q of the array is entry (p, q) of block row r's accumulated block. -/
theorem whole21_ix2 (c : Dev nD) (r : Fin 4) (p : Fin 1024) (q : Fin 512) :
    whole21 V c (ix2 (n0 := 4096) (n1 := 512) ⟨1024 * r.val + p.val, by have := r.isLt; have := p.isLt; omega⟩ q)
      = accOf21 V c r.val 3 (ix2 p q) :=
  whole21_apply V c r.val (ix2 p q) _ rfl rfl

/-! ## What a point writes back -/

/-- A point with k = 3 writes back its block of the whole-array function. -/
theorem flushed21_eq (c : Dev nD) (t : Fin cfg21.N) (hf : (cfg21.win 2).flush t = true) :
    (dat21 V c).flushed 2 t = ((cfg21.win 2).blk t).view.read (Elt F) (whole21 V c) := by
  have h3 : t.val % 4 = 3 := (flush21_2 t).mp hf
  show (cfg21.win 2).cut (grid21.coords t) ((dat21 V c).after 2 t) = _
  rw [after21_2, outsAt21_out V c t h3]
  obtain ⟨-, -, -, -, e0, e1⟩ := idxFacts21 t
  funext j
  show accOf21 V c (t.val / 4) 3 j = whole21 V c (((cfg21.win 2).blk t).view.emb j)
  refine (whole21_apply V c (t.val / 4) j _ ?_ ?_).symm
  · show win21_2.index t (0 : Fin 2) * 1024 + 1 * (j 0).val = 1024 * (t.val / 4) + (j 0).val
    rw [e0]; omega
  · show win21_2.index t (1 : Fin 2) * 512 + 1 * (j 1).val = (j 1).val
    rw [e1]; omega

/-! ## The blocks written back cover the array -/

/-- An index is in a point's output block iff each coordinate is in the block's range on its axis. -/
theorem memBlk21 (t : Fin cfg21.N) (i : S4096x512.Idx) :
    i ∈ ((cfg21.win 2).blk t).view.set ↔ ∀ a : Fin 2, win21_2.index t a * S1024x512.size a ≤ (i a).val
      ∧ (i a).val < win21_2.index t a * S1024x512.size a + S1024x512.size a := by
  show i ∈ ((View.whole main_v118).slice (win21_2.rect t)).set ↔ _
  rw [View.set_slice_whole, Rect.mem_set_unit]
  exact Iff.rfl

/-- Row i of the array lies in the block written back at the point (i / 1024, 3). -/
theorem covered21 (i : S4096x512.Idx) :
    ∃ t : Fin cfg21.N, (cfg21.win 2).flush t = true ∧ i ∈ ((cfg21.win 2).blk t).view.set := by
  have hi0 : (i 0).val < 4096 := idx2_lt0 i
  have hi1 : (i 1).val < 512 := idx2_lt1 i
  have hN : cfg21.N = 16 := N_21
  obtain ⟨t, ht⟩ : ∃ t : Fin cfg21.N, t.val = 4 * ((i 0).val / 1024) + 3 :=
    ⟨⟨4 * ((i 0).val / 1024) + 3, by rw [hN]; omega⟩, rfl⟩
  refine ⟨t, (flush21_2 t).mpr (by omega), ?_⟩
  rw [memBlk21]
  obtain ⟨-, -, -, -, e0, e1⟩ := idxFacts21 t
  intro a
  match a with
  | ⟨0, _⟩ =>
    show win21_2.index t (0 : Fin 2) * 1024 ≤ (i 0).val ∧ (i 0).val < win21_2.index t (0 : Fin 2) * 1024 + 1024
    rw [e0]; omega
  | ⟨1, _⟩ =>
    show win21_2.index t (1 : Fin 2) * 512 ≤ (i 1).val ∧ (i 1).val < win21_2.index t (1 : Fin 2) * 512 + 512
    rw [e1]; omega

/-! ## The three arrays after the region -/

/-- The output array after the region is the whole-array function. -/
theorem final21_2 (c : Dev nD) : (dat21 V c).arrAt 2 cfg21.N = whole21 V c :=
  (dat21 V c).arrAt_eq_of_cover 2 (whole21 V c) (flushed21_eq V c) covered21

/-- The two input arrays are as the region found them. -/
theorem final21_0 (c : Dev nD) : (dat21 V c).arrAt 0 cfg21.N = V c main_v7 :=
  ((dat21 V c).arrAt_in 0 rfl cfg21.N).trans (A_eq21 V c 0)
theorem final21_1 (c : Dev nD) : (dat21 V c).arrAt 1 cfg21.N = V c main_v117 :=
  ((dat21 V c).arrAt_in 1 rfl cfg21.N).trans (A_eq21 V c 1)

/-! ## The input blocks as blocks of the operand arrays -/

/-- The left operand's block at the point (r, k): entry (y₀, y₁) is the array's entry (1024 r + y₀, 1024 k + y₁). -/
theorem iblk21_lhs_apply (c : Dev nD) (r k : Fin 4) (y : S1024x1024.Idx) (i : S4096x4096.Idx)
    (h0 : (i 0).val = 1024 * r.val + (y 0).val) (h1 : (i 1).val = 1024 * k.val + (y 1).val) :
    iblk21_lhs V c (4 * r.val + k.val) y = (V c main_v7 : S4096x4096.Idx → Elt F .bf16) i := by
  have hN : cfg21.N = 16 := N_21
  have hr := r.isLt
  have hk := k.isLt
  have hlt : 4 * r.val + k.val < cfg21.N := by rw [hN]; omega
  rw [iblk21_lhs_eq V c _ hlt]
  obtain ⟨e0, e1, -, -, -, -⟩ := idxFacts21 ⟨4 * r.val + k.val, hlt⟩
  have e0' : win21_0.index ⟨4 * r.val + k.val, hlt⟩ (0 : Fin 2) = (4 * r.val + k.val) / 4 := e0
  have e1' : win21_0.index ⟨4 * r.val + k.val, hlt⟩ (1 : Fin 2) = (4 * r.val + k.val) % 4 := e1
  unfold iblk21
  rw [View.read_apply]
  show V c main_v7 (((cfg21.win 0).blk ⟨4 * r.val + k.val, hlt⟩).view.emb y) = V c main_v7 i
  congr 1
  funext a
  apply Fin.ext
  match a with
  | ⟨0, _⟩ =>
    show win21_0.index ⟨4 * r.val + k.val, hlt⟩ (0 : Fin 2) * 1024 + 1 * (y 0).val = (i 0).val
    rw [e0', h0]; omega
  | ⟨1, _⟩ =>
    show win21_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk21_rhs_apply (c : Dev nD) (r k : Fin 4) (y : S1024x512.Idx) (i : S4096x512.Idx)
    (h0 : (i 0).val = 1024 * k.val + (y 0).val) (h1 : (i 1).val = (y 1).val) :
    iblk21_rhs V c (4 * r.val + k.val) y = (V c main_v117 : S4096x512.Idx → Elt F .f32) i := by
  have hN : cfg21.N = 16 := N_21
  have hr := r.isLt
  have hk := k.isLt
  have hlt : 4 * r.val + k.val < cfg21.N := by rw [hN]; omega
  rw [iblk21_rhs_eq V c _ hlt]
  obtain ⟨-, -, e0, e1, -, -⟩ := idxFacts21 ⟨4 * r.val + k.val, hlt⟩
  have e0' : win21_1.index ⟨4 * r.val + k.val, hlt⟩ (0 : Fin 2) = (4 * r.val + k.val) % 4 := e0
  have e1' : win21_1.index ⟨4 * r.val + k.val, hlt⟩ (1 : Fin 2) = 0 := e1
  unfold iblk21
  rw [View.read_apply]
  show V c main_v117 (((cfg21.win 1).blk ⟨4 * r.val + k.val, hlt⟩).view.emb y) = V c main_v117 i
  congr 1
  funext a
  apply Fin.ext
  match a with
  | ⟨0, _⟩ =>
    show win21_1.index ⟨4 * r.val + k.val, hlt⟩ (0 : Fin 2) * 1024 + 1 * (y 0).val = (i 0).val
    rw [e0', h0]; omega
  | ⟨1, _⟩ =>
    show win21_1.index ⟨4 * r.val + k.val, hlt⟩ (1 : Fin 2) * 512 + 1 * (y 1).val = (i 1).val
    rw [e1', h1]; omega

/-- The accumulated block after the fourth step, unfolded: four steps from the zero block. -/
theorem accOf21_three (c : Dev nD) (r : ℕ) :
    accOf21 V c r 3
      = k21_pay2 (iblk21_lhs V c (4 * r + 3)) (iblk21_rhs V c (4 * r + 3))
          (k21_pay2 (iblk21_lhs V c (4 * r + 2)) (iblk21_rhs V c (4 * r + 2))
            (k21_pay2 (iblk21_lhs V c (4 * r + 1)) (iblk21_rhs V c (4 * r + 1))
              (k21_pay2 (iblk21_lhs V c (4 * r)) (iblk21_rhs V c (4 * r)) (k21_pay1 (F := F))))) := rfl

end Cert.KernelIdeal.Hand

end
-- ==== Proof.ValKI21c.lean ====
/- Laid out by: python3 scratch/layout_regions.py --template-region 1 --region 21 --program KernelIdeal --prefix Val --parts a,b,c --sim main_v9=main_v7,main_v25=main_v117,main_v26=main_v118 --out-dir proof/Proof
   from the hand-written text of region 1 (ValKI1c.lean): the same text, the region's number substituted. -/
/-
  Region 21 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI21b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf21_step (x0 : Vec Ideal S1024x1024 .bf16) (x1 acc : Vec Ideal S1024x512 .f32) :
    k21_pay2 (F := Ideal) x0 x1 acc
      = Cert.MMLaw.accStep dot_S1024x1024_S1024x512_S1024x512_1_0_0_1_n_n none x0 x1 acc := by
  unfold k21_pay2
  simp only [shapeCast_self]
  rfl

/-- The accumulator starts from the zero block. -/
theorem accOf21_init (j : S1024x512.Idx) : k21_pay1 (F := Ideal) j = 0 := by
  unfold k21_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf21_eq_blk (c : Dev nD) (r : Fin 4) (D : DotDims S4096x4096 S4096x512 S4096x512) (hD : Cert.MMLaw.IsPlain D)
    (prec : Option ContractPrecision) :
    accOf21 V c r.val 3
      = Cert.MMLaw.blk (nr := 4) (nc := 1) 1024 512 rfl rfl (Cert.MMLaw.whole D prec (V c main_v7) (V c main_v117)) r 0 := by
  rw [accOf21_three]
  simp only [accOf21_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v7) (V c main_v117) r 0
    (fun k => iblk21_lhs V c (4 * r.val + k.val)) (fun k => iblk21_rhs V c (4 * r.val + k.val))
    (fun k => funext fun y => iblk21_lhs_apply V c r k y _ rfl rfl)
    (fun k => funext fun y => iblk21_rhs_apply V c r k y _ rfl (by show 512 * 0 + (y 1).val = (y 1).val; omega))
    (k21_pay1 (F := Ideal)) accOf21_init

/-! ## The output array after the region is the whole product -/

/-- The region leaves in its output array the product of its two operand arrays. -/
theorem final21_2_eq_whole (c : Dev nD) (D : DotDims S4096x4096 S4096x512 S4096x512) (hD : Cert.MMLaw.IsPlain D)
    (prec : Option ContractPrecision) :
    (dat21 (F := Ideal) V c).arrAt 2 cfg21.N = Cert.MMLaw.whole D prec (V c main_v7) (V c main_v117) := by
  rw [final21_2]
  funext i
  have hi0 : (i 0).val < 4096 := idx2_lt0 i
  have h := congrFun (accOf21_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final21_2_eq_dot (c : Dev nD) (D : DotDims S4096x4096 S4096x512 S4096x512) (hD : Cert.MMLaw.IsPlain D)
    (prec : Option ContractPrecision) :
    (dat21 (F := Ideal) V c).arrAt 2 cfg21.N = Host.dotGeneral (F := Ideal) (φ₁ := .bf16) (φ₂ := .f32) D prec (V c main_v7) (V c main_v117) :=
  final21_2_eq_whole V c D hD prec

end Cert.KernelIdeal.Hand

end
-- ==== Proof.ValKI22a.lean ====
/- Laid out by: python3 scratch/layout_regions.py --template-region 1 --region 22 --program KernelIdeal --prefix Val --parts a,b,c --sim main_v9=main_v9,main_v25=main_v136,main_v26=main_v137 --out-dir proof/Proof
   from the hand-written text of region 1 (ValKI1a.lean): the same text, the region's number substituted. -/
/-
  Region 22 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k22_pay1` (the zero block) and `k22_pay2` (accumulator plus product) are the two stores' payloads.

  So along one row of blocks r the accumulator after its step k is the left fold
    accOf22 r 0 = pay2 (a (r, 0)) (b 0) pay1,    accOf22 r (k + 1) = pay2 (a (r, k + 1)) (b (k + 1)) (accOf22 r k),
  the grid point (r, k) being position 4 r + k; and at k = 3 the output block holds accOf22 r 3.
-/
import proofs.«158944_j64613488001249_1_alg».proof.Proof.RegKI22
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout22_A_eq (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond22_0 i) (hc1 : ¬cond22_1 i)
    (x0 : Vec F S1024x1024 .bf16) (x1 : Vec F S1024x512 .f32) :
    sout22_A c i arg2 harg2 arg3 harg3 arg4 harg4 arg5 harg5 hc0 hc1 x0 x1 = k22_pay2 x0 x1 (k22_pay1 (F := F)) := by
  have hz : (![0, 0] : Fin 2 → Nat) = fun _ => 0 := funext fun a => by fin_cases a <;> rfl
  unfold sout22_A
  rw [View.read_writes_eq_canon _ _ _ (scover22_A c i arg2 harg2 arg3 harg3 arg4 harg4 arg5 harg5 hc0 hc1 x0 x1)]
  unfold kernelRun22_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout22_B_eq (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond22_0 i) (hc1 : ¬cond22_1 i)
    (x0 : Vec F S1024x1024 .bf16) (x1 : Vec F S1024x512 .f32) (xs0 : Vec F S1024x512 .f32) :
    sout22_B c i arg2 harg2 arg3 harg3 arg4 harg4 arg5 harg5 hc0 hc1 x0 x1 xs0 = k22_pay2 x0 x1 xs0 := by
  have hz : (![0, 0] : Fin 2 → Nat) = fun _ => 0 := funext fun a => by fin_cases a <;> rfl
  unfold sout22_B
  rw [View.read_writes_eq_canon _ _ _ (scover22_B c i arg2 harg2 arg3 harg3 arg4 harg4 arg5 harg5 hc0 hc1 x0 x1 xs0)]
  unfold kernelRun22_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout22_C_eq (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond22_0 i) (hc1 : cond22_1 i)
    (x0 : Vec F S1024x1024 .bf16) (x1 : Vec F S1024x512 .f32) (xs0 : Vec F S1024x512 .f32) :
    sout22_C c i arg2 harg2 arg3 harg3 arg4 harg4 arg5 harg5 hc0 hc1 x0 x1 xs0 = k22_pay2 x0 x1 xs0 := by
  have hz : (![0, 0] : Fin 2 → Nat) = fun _ => 0 := funext fun a => by fin_cases a <;> rfl
  unfold sout22_C
  rw [View.read_writes_eq_canon _ _ _ (scover22_C c i arg2 harg2 arg3 harg3 arg4 harg4 arg5 harg5 hc0 hc1 x0 x1 xs0)]
  unfold kernelRun22_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out22_C_eq (c : Dev nD) (i : grid22.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond22_0 i) (hc1 : cond22_1 i)
    (x0 : Vec F S1024x1024 .bf16) (x1 : Vec F S1024x512 .f32) (xs0 : Vec F S1024x512 .f32) :
    out22_C c i arg2 harg2 arg3 harg3 arg4 harg4 arg5 harg5 hc0 hc1 x0 x1 xs0 = k22_pay2 x0 x1 xs0 := by
  have hz : (![0, 0] : Fin 2 → Nat) = fun _ => 0 := funext fun a => by fin_cases a <;> rfl
  unfold out22_C
  rw [View.read_writes_eq_canon _ _ _ (cover22_C c i arg2 harg2 arg3 harg3 arg4 harg4 arg5 harg5 hc0 hc1 x0 x1 xs0)]
  unfold kernelRun22_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk22_lhs (c : Dev nD) (n : ℕ) : Vec F S1024x1024 .bf16 :=
  if h : n < cfg22.N then iblk22 V c 0 ⟨n, h⟩ else iblk22 V c 0 ⟨0, by have h : cfg22.N = 16 := N_22; omega⟩
/-- The right factor's block at grid position `n`. -/
def iblk22_rhs (c : Dev nD) (n : ℕ) : Vec F S1024x512 .f32 :=
  if h : n < cfg22.N then iblk22 V c 1 ⟨n, h⟩ else iblk22 V c 1 ⟨0, by have h : cfg22.N = 16 := N_22; omega⟩

theorem iblk22_lhs_eq (c : Dev nD) (n : ℕ) (h : n < cfg22.N) : iblk22_lhs V c n = iblk22 V c 0 ⟨n, h⟩ := dif_pos h
theorem iblk22_rhs_eq (c : Dev nD) (n : ℕ) (h : n < cfg22.N) : iblk22_rhs V c n = iblk22 V c 1 ⟨n, h⟩ := dif_pos h

/-! ## The accumulator along one row of blocks -/

/-- Row of blocks `r`, after its step `k`: the zero block plus the products of the blocks at positions 4 r, …, 4 r + k,
    added in that order. -/
def accOf22 (c : Dev nD) (r : ℕ) : ℕ → Vec F S1024x512 .f32
  | 0 => k22_pay2 (iblk22_lhs V c (4 * r)) (iblk22_rhs V c (4 * r)) (k22_pay1 (F := F))
  | k + 1 => k22_pay2 (iblk22_lhs V c (4 * r + (k + 1))) (iblk22_rhs V c (4 * r + (k + 1))) (accOf22 c r k)

theorem accOf22_zero (c : Dev nD) (r : ℕ) :
    accOf22 V c r 0 = k22_pay2 (iblk22_lhs V c (4 * r)) (iblk22_rhs V c (4 * r)) (k22_pay1 (F := F)) := rfl
theorem accOf22_succ (c : Dev nD) (r k : ℕ) :
    accOf22 V c r (k + 1) = k22_pay2 (iblk22_lhs V c (4 * r + (k + 1))) (iblk22_rhs V c (4 * r + (k + 1))) (accOf22 V c r k) := rfl

theorem iblk22_lhs_at (c : Dev nD) (t : Fin cfg22.N) (n : ℕ) (hn : n = t.val) : iblk22_lhs V c n = iblk22 V c 0 t := by
  subst hn; unfold iblk22_lhs; exact dif_pos t.isLt
theorem iblk22_rhs_at (c : Dev nD) (t : Fin cfg22.N) (n : ℕ) (hn : n = t.val) : iblk22_rhs V c n = iblk22 V c 1 t := by
  subst hn; unfold iblk22_rhs; exact dif_pos t.isLt

/-- At a grid point with k = 0 the fold starts: the zero block plus the product of the point's two blocks. -/
theorem accOf22_first (c : Dev nD) (t : Fin cfg22.N) (h0 : t.val % 4 = 0) :
    accOf22 V c (t.val / 4) (t.val % 4) = k22_pay2 (iblk22 V c 0 t) (iblk22 V c 1 t) (k22_pay1 (F := F)) := by
  rw [h0, accOf22_zero, iblk22_lhs_at V c t (4 * (t.val / 4)) (by omega), iblk22_rhs_at V c t (4 * (t.val / 4)) (by omega)]

/-- At a grid point with k ≠ 0 the fold takes one step from the position before, which is in the same row of blocks. -/
theorem accOf22_next (c : Dev nD) (t : Fin cfg22.N) (h0 : ¬t.val % 4 = 0) :
    accOf22 V c (t.val / 4) (t.val % 4)
      = k22_pay2 (iblk22 V c 0 t) (iblk22 V c 1 t) (accOf22 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf22_succ, iblk22_lhs_at V c t (4 * (t.val / 4) + (k + 1)) (by omega),
    iblk22_rhs_at V c t (4 * (t.val / 4) + (k + 1)) (by omega)]

/-! ## The accumulator and the output block, point by point, as pure functions of the blocks -/

/-- k = 0: the accumulator restarts from the zero block. -/
theorem outsAt22_first (c : Dev nD) (t : Fin cfg22.N) (h0 : t.val % 4 = 0) :
    (outsAt22 V c t.val t.isLt).2 = k22_pay2 (iblk22 V c 0 t) (iblk22 V c 1 t) (k22_pay1 (F := F)) := by
  rw [outsAt22_A V c t h0]
  dsimp only
  exact sout22_A_eq c (grid22.coords t) (ms22_0 t) (hs22_0 t) (ms22_1 t) (hs22_1 t) (ms22_2 t) (hs22_2 t) scM22 (Memref.isWhole_whole _) (isFirst22 t h0) (notLast22 t (by omega)) (iblk22 V c 0 t) (iblk22 V c 1 t)

/-- k ≠ 0: the point's product is added to what the point before left. -/
theorem outsAt22_next (c : Dev nD) (t : Fin cfg22.N) (h0 : ¬t.val % 4 = 0) :
    (outsAt22 V c t.val t.isLt).2
      = k22_pay2 (iblk22 V c 0 t) (iblk22 V c 1 t) (outsAt22 V c (t.val - 1) (Nat.lt_of_le_of_lt (Nat.sub_le _ _) t.isLt)).2 := by
  by_cases h3 : t.val % 4 = 3
  · rw [outsAt22_C V c t h0 h3]
    dsimp only
    exact sout22_C_eq c (grid22.coords t) (ms22_0 t) (hs22_0 t) (ms22_1 t) (hs22_1 t) (ms22_2 t) (hs22_2 t) scM22 (Memref.isWhole_whole _) (notFirst22 t h0) (isLast22 t h3) (iblk22 V c 0 t) (iblk22 V c 1 t)
      (outsAt22 V c (t.val - 1) (Nat.lt_of_le_of_lt (Nat.sub_le _ _) t.isLt)).2
  · rw [outsAt22_B V c t h0 h3]
    dsimp only
    exact sout22_B_eq c (grid22.coords t) (ms22_0 t) (hs22_0 t) (ms22_1 t) (hs22_1 t) (ms22_2 t) (hs22_2 t) scM22 (Memref.isWhole_whole _) (notFirst22 t h0) (notLast22 t h3) (iblk22 V c 0 t) (iblk22 V c 1 t)
      (outsAt22 V c (t.val - 1) (Nat.lt_of_le_of_lt (Nat.sub_le _ _) t.isLt)).2

/-- k = 3: the output block is the accumulator. -/
theorem outsAt22_last (c : Dev nD) (t : Fin cfg22.N) (h3 : t.val % 4 = 3) :
    (outsAt22 V c t.val t.isLt).1 = (outsAt22 V c t.val t.isLt).2 := by
  have h0 : ¬t.val % 4 = 0 := by omega
  rw [outsAt22_C V c t h0 h3]
  dsimp only
  exact (out22_C_eq c (grid22.coords t) (ms22_0 t) (hs22_0 t) (ms22_1 t) (hs22_1 t) (ms22_2 t) (hs22_2 t) scM22 (Memref.isWhole_whole _) (notFirst22 t h0) (isLast22 t h3) (iblk22 V c 0 t) (iblk22 V c 1 t)
      (outsAt22 V c (t.val - 1) (Nat.lt_of_le_of_lt (Nat.sub_le _ _) t.isLt)).2).trans
    (sout22_C_eq c (grid22.coords t) (ms22_0 t) (hs22_0 t) (ms22_1 t) (hs22_1 t) (ms22_2 t) (hs22_2 t) scM22 (Memref.isWhole_whole _) (notFirst22 t h0) (isLast22 t h3) (iblk22 V c 0 t) (iblk22 V c 1 t)
      (outsAt22 V c (t.val - 1) (Nat.lt_of_le_of_lt (Nat.sub_le _ _) t.isLt)).2).symm

/-! ## The accumulator is the fold -/

/-- After position `n` the accumulator holds row `n / 4`'s fold after its step `n % 4`: by induction on the position. -/
theorem outsAt22_acc_pos (c : Dev nD) :
    ∀ (n : ℕ) (hn : n < cfg22.N), (outsAt22 V c n hn).2 = accOf22 V c (n / 4) (n % 4) := by
  intro n
  induction n with
  | zero =>
    intro hn
    exact (outsAt22_first V c ⟨0, hn⟩ (Nat.zero_mod 4)).trans (accOf22_first V c ⟨0, hn⟩ (Nat.zero_mod 4)).symm
  | succ n ih =>
    intro hn
    by_cases h0 : (n + 1) % 4 = 0
    · exact (outsAt22_first V c ⟨n + 1, hn⟩ h0).trans (accOf22_first V c ⟨n + 1, hn⟩ h0).symm
    · refine (outsAt22_next V c ⟨n + 1, hn⟩ h0).trans (Eq.trans ?_ (accOf22_next V c ⟨n + 1, hn⟩ h0).symm)
      exact congrArg (k22_pay2 (iblk22 V c 0 ⟨n + 1, hn⟩) (iblk22 V c 1 ⟨n + 1, hn⟩)) (ih (Nat.lt_of_succ_lt hn))

/-- At every grid point the accumulator holds its row's fold after the point's step. -/
theorem outsAt22_acc (c : Dev nD) (t : Fin cfg22.N) :
    (outsAt22 V c t.val t.isLt).2 = accOf22 V c (t.val / 4) (t.val % 4) :=
  outsAt22_acc_pos V c t.val t.isLt

/-- At a row's last point the output block holds the row's whole fold. -/
theorem outsAt22_out (c : Dev nD) (t : Fin cfg22.N) (h3 : t.val % 4 = 3) :
    (outsAt22 V c t.val t.isLt).1 = accOf22 V c (t.val / 4) 3 := by
  have e := outsAt22_acc V c t
  rw [h3] at e
  exact (outsAt22_last V c t h3).trans e

end Cert.KernelIdeal.Hand

end
-- ==== Proof.ValKI22b.lean ====
/- Laid out by: python3 scratch/layout_regions.py --template-region 1 --region 22 --program KernelIdeal --prefix Val --parts a,b,c --sim main_v9=main_v9,main_v25=main_v136,main_v26=main_v137 --out-dir proof/Proof
   from the hand-written text of region 1 (ValKI1b.lean): the same text, the region's number substituted. -/
/-
  Region 22 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI22a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts22 : ∀ t : Fin cfg22.N,
    win22_0.index t (0 : Fin 2) = t.val / 4 ∧ win22_0.index t (1 : Fin 2) = t.val % 4
    ∧ win22_1.index t (0 : Fin 2) = t.val % 4 ∧ win22_1.index t (1 : Fin 2) = 0
    ∧ win22_2.index t (0 : Fin 2) = t.val / 4 ∧ win22_2.index t (1 : Fin 2) = 0 :=
  (by decide +kernel : ∀ t : Fin grid22.N,
    win22_0.index t (0 : Fin 2) = t.val / 4 ∧ win22_0.index t (1 : Fin 2) = t.val % 4
    ∧ win22_1.index t (0 : Fin 2) = t.val % 4 ∧ win22_1.index t (1 : Fin 2) = 0
    ∧ win22_2.index t (0 : Fin 2) = t.val / 4 ∧ win22_2.index t (1 : Fin 2) = 0)

/-! ## The output array as one function -/

/-- The whole output array: its row 1024 r + p, column q, is entry (p, q) of the block accumulated over k = 0 … 3 in
    block row r. -/
def whole22 (c : Dev nD) : S4096x512.Idx → Elt F .f32 := fun i =>
  accOf22 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole22_apply (c : Dev nD) (r : ℕ) (y : S1024x512.Idx) (i : S4096x512.Idx)
    (h0 : (i 0).val = 1024 * r + (y 0).val) (h1 : (i 1).val = (y 1).val) :
    whole22 V c i = accOf22 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole22
  rw [hr, e]

/-- Row 1024 r + p, column q of the array is entry (p, q) of block row r's accumulated block. -/
theorem whole22_ix2 (c : Dev nD) (r : Fin 4) (p : Fin 1024) (q : Fin 512) :
    whole22 V c (ix2 (n0 := 4096) (n1 := 512) ⟨1024 * r.val + p.val, by have := r.isLt; have := p.isLt; omega⟩ q)
      = accOf22 V c r.val 3 (ix2 p q) :=
  whole22_apply V c r.val (ix2 p q) _ rfl rfl

/-! ## What a point writes back -/

/-- A point with k = 3 writes back its block of the whole-array function. -/
theorem flushed22_eq (c : Dev nD) (t : Fin cfg22.N) (hf : (cfg22.win 2).flush t = true) :
    (dat22 V c).flushed 2 t = ((cfg22.win 2).blk t).view.read (Elt F) (whole22 V c) := by
  have h3 : t.val % 4 = 3 := (flush22_2 t).mp hf
  show (cfg22.win 2).cut (grid22.coords t) ((dat22 V c).after 2 t) = _
  rw [after22_2, outsAt22_out V c t h3]
  obtain ⟨-, -, -, -, e0, e1⟩ := idxFacts22 t
  funext j
  show accOf22 V c (t.val / 4) 3 j = whole22 V c (((cfg22.win 2).blk t).view.emb j)
  refine (whole22_apply V c (t.val / 4) j _ ?_ ?_).symm
  · show win22_2.index t (0 : Fin 2) * 1024 + 1 * (j 0).val = 1024 * (t.val / 4) + (j 0).val
    rw [e0]; omega
  · show win22_2.index t (1 : Fin 2) * 512 + 1 * (j 1).val = (j 1).val
    rw [e1]; omega

/-! ## The blocks written back cover the array -/

/-- An index is in a point's output block iff each coordinate is in the block's range on its axis. -/
theorem memBlk22 (t : Fin cfg22.N) (i : S4096x512.Idx) :
    i ∈ ((cfg22.win 2).blk t).view.set ↔ ∀ a : Fin 2, win22_2.index t a * S1024x512.size a ≤ (i a).val
      ∧ (i a).val < win22_2.index t a * S1024x512.size a + S1024x512.size a := by
  show i ∈ ((View.whole main_v137).slice (win22_2.rect t)).set ↔ _
  rw [View.set_slice_whole, Rect.mem_set_unit]
  exact Iff.rfl

/-- Row i of the array lies in the block written back at the point (i / 1024, 3). -/
theorem covered22 (i : S4096x512.Idx) :
    ∃ t : Fin cfg22.N, (cfg22.win 2).flush t = true ∧ i ∈ ((cfg22.win 2).blk t).view.set := by
  have hi0 : (i 0).val < 4096 := idx2_lt0 i
  have hi1 : (i 1).val < 512 := idx2_lt1 i
  have hN : cfg22.N = 16 := N_22
  obtain ⟨t, ht⟩ : ∃ t : Fin cfg22.N, t.val = 4 * ((i 0).val / 1024) + 3 :=
    ⟨⟨4 * ((i 0).val / 1024) + 3, by rw [hN]; omega⟩, rfl⟩
  refine ⟨t, (flush22_2 t).mpr (by omega), ?_⟩
  rw [memBlk22]
  obtain ⟨-, -, -, -, e0, e1⟩ := idxFacts22 t
  intro a
  match a with
  | ⟨0, _⟩ =>
    show win22_2.index t (0 : Fin 2) * 1024 ≤ (i 0).val ∧ (i 0).val < win22_2.index t (0 : Fin 2) * 1024 + 1024
    rw [e0]; omega
  | ⟨1, _⟩ =>
    show win22_2.index t (1 : Fin 2) * 512 ≤ (i 1).val ∧ (i 1).val < win22_2.index t (1 : Fin 2) * 512 + 512
    rw [e1]; omega

/-! ## The three arrays after the region -/

/-- The output array after the region is the whole-array function. -/
theorem final22_2 (c : Dev nD) : (dat22 V c).arrAt 2 cfg22.N = whole22 V c :=
  (dat22 V c).arrAt_eq_of_cover 2 (whole22 V c) (flushed22_eq V c) covered22

/-- The two input arrays are as the region found them. -/
theorem final22_0 (c : Dev nD) : (dat22 V c).arrAt 0 cfg22.N = V c main_v9 :=
  ((dat22 V c).arrAt_in 0 rfl cfg22.N).trans (A_eq22 V c 0)
theorem final22_1 (c : Dev nD) : (dat22 V c).arrAt 1 cfg22.N = V c main_v136 :=
  ((dat22 V c).arrAt_in 1 rfl cfg22.N).trans (A_eq22 V c 1)

/-! ## The input blocks as blocks of the operand arrays -/

/-- The left operand's block at the point (r, k): entry (y₀, y₁) is the array's entry (1024 r + y₀, 1024 k + y₁). -/
theorem iblk22_lhs_apply (c : Dev nD) (r k : Fin 4) (y : S1024x1024.Idx) (i : S4096x4096.Idx)
    (h0 : (i 0).val = 1024 * r.val + (y 0).val) (h1 : (i 1).val = 1024 * k.val + (y 1).val) :
    iblk22_lhs V c (4 * r.val + k.val) y = (V c main_v9 : S4096x4096.Idx → Elt F .bf16) i := by
  have hN : cfg22.N = 16 := N_22
  have hr := r.isLt
  have hk := k.isLt
  have hlt : 4 * r.val + k.val < cfg22.N := by rw [hN]; omega
  rw [iblk22_lhs_eq V c _ hlt]
  obtain ⟨e0, e1, -, -, -, -⟩ := idxFacts22 ⟨4 * r.val + k.val, hlt⟩
  have e0' : win22_0.index ⟨4 * r.val + k.val, hlt⟩ (0 : Fin 2) = (4 * r.val + k.val) / 4 := e0
  have e1' : win22_0.index ⟨4 * r.val + k.val, hlt⟩ (1 : Fin 2) = (4 * r.val + k.val) % 4 := e1
  unfold iblk22
  rw [View.read_apply]
  show V c main_v9 (((cfg22.win 0).blk ⟨4 * r.val + k.val, hlt⟩).view.emb y) = V c main_v9 i
  congr 1
  funext a
  apply Fin.ext
  match a with
  | ⟨0, _⟩ =>
    show win22_0.index ⟨4 * r.val + k.val, hlt⟩ (0 : Fin 2) * 1024 + 1 * (y 0).val = (i 0).val
    rw [e0', h0]; omega
  | ⟨1, _⟩ =>
    show win22_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk22_rhs_apply (c : Dev nD) (r k : Fin 4) (y : S1024x512.Idx) (i : S4096x512.Idx)
    (h0 : (i 0).val = 1024 * k.val + (y 0).val) (h1 : (i 1).val = (y 1).val) :
    iblk22_rhs V c (4 * r.val + k.val) y = (V c main_v136 : S4096x512.Idx → Elt F .f32) i := by
  have hN : cfg22.N = 16 := N_22
  have hr := r.isLt
  have hk := k.isLt
  have hlt : 4 * r.val + k.val < cfg22.N := by rw [hN]; omega
  rw [iblk22_rhs_eq V c _ hlt]
  obtain ⟨-, -, e0, e1, -, -⟩ := idxFacts22 ⟨4 * r.val + k.val, hlt⟩
  have e0' : win22_1.index ⟨4 * r.val + k.val, hlt⟩ (0 : Fin 2) = (4 * r.val + k.val) % 4 := e0
  have e1' : win22_1.index ⟨4 * r.val + k.val, hlt⟩ (1 : Fin 2) = 0 := e1
  unfold iblk22
  rw [View.read_apply]
  show V c main_v136 (((cfg22.win 1).blk ⟨4 * r.val + k.val, hlt⟩).view.emb y) = V c main_v136 i
  congr 1
  funext a
  apply Fin.ext
  match a with
  | ⟨0, _⟩ =>
    show win22_1.index ⟨4 * r.val + k.val, hlt⟩ (0 : Fin 2) * 1024 + 1 * (y 0).val = (i 0).val
    rw [e0', h0]; omega
  | ⟨1, _⟩ =>
    show win22_1.index ⟨4 * r.val + k.val, hlt⟩ (1 : Fin 2) * 512 + 1 * (y 1).val = (i 1).val
    rw [e1', h1]; omega

/-- The accumulated block after the fourth step, unfolded: four steps from the zero block. -/
theorem accOf22_three (c : Dev nD) (r : ℕ) :
    accOf22 V c r 3
      = k22_pay2 (iblk22_lhs V c (4 * r + 3)) (iblk22_rhs V c (4 * r + 3))
          (k22_pay2 (iblk22_lhs V c (4 * r + 2)) (iblk22_rhs V c (4 * r + 2))
            (k22_pay2 (iblk22_lhs V c (4 * r + 1)) (iblk22_rhs V c (4 * r + 1))
              (k22_pay2 (iblk22_lhs V c (4 * r)) (iblk22_rhs V c (4 * r)) (k22_pay1 (F := F))))) := rfl

end Cert.KernelIdeal.Hand

end
-- ==== Proof.ValKI22c.lean ====
/- Laid out by: python3 scratch/layout_regions.py --template-region 1 --region 22 --program KernelIdeal --prefix Val --parts a,b,c --sim main_v9=main_v9,main_v25=main_v136,main_v26=main_v137 --out-dir proof/Proof
   from the hand-written text of region 1 (ValKI1c.lean): the same text, the region's number substituted. -/
/-
  Region 22 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI22b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf22_step (x0 : Vec Ideal S1024x1024 .bf16) (x1 acc : Vec Ideal S1024x512 .f32) :
    k22_pay2 (F := Ideal) x0 x1 acc
      = Cert.MMLaw.accStep dot_S1024x1024_S1024x512_S1024x512_1_0_0_1_n_n none x0 x1 acc := by
  unfold k22_pay2
  simp only [shapeCast_self]
  rfl

/-- The accumulator starts from the zero block. -/
theorem accOf22_init (j : S1024x512.Idx) : k22_pay1 (F := Ideal) j = 0 := by
  unfold k22_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf22_eq_blk (c : Dev nD) (r : Fin 4) (D : DotDims S4096x4096 S4096x512 S4096x512) (hD : Cert.MMLaw.IsPlain D)
    (prec : Option ContractPrecision) :
    accOf22 V c r.val 3
      = Cert.MMLaw.blk (nr := 4) (nc := 1) 1024 512 rfl rfl (Cert.MMLaw.whole D prec (V c main_v9) (V c main_v136)) r 0 := by
  rw [accOf22_three]
  simp only [accOf22_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v9) (V c main_v136) r 0
    (fun k => iblk22_lhs V c (4 * r.val + k.val)) (fun k => iblk22_rhs V c (4 * r.val + k.val))
    (fun k => funext fun y => iblk22_lhs_apply V c r k y _ rfl rfl)
    (fun k => funext fun y => iblk22_rhs_apply V c r k y _ rfl (by show 512 * 0 + (y 1).val = (y 1).val; omega))
    (k22_pay1 (F := Ideal)) accOf22_init

/-! ## The output array after the region is the whole product -/

/-- The region leaves in its output array the product of its two operand arrays. -/
theorem final22_2_eq_whole (c : Dev nD) (D : DotDims S4096x4096 S4096x512 S4096x512) (hD : Cert.MMLaw.IsPlain D)
    (prec : Option ContractPrecision) :
    (dat22 (F := Ideal) V c).arrAt 2 cfg22.N = Cert.MMLaw.whole D prec (V c main_v9) (V c main_v136) := by
  rw [final22_2]
  funext i
  have hi0 : (i 0).val < 4096 := idx2_lt0 i
  have h := congrFun (accOf22_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final22_2_eq_dot (c : Dev nD) (D : DotDims S4096x4096 S4096x512 S4096x512) (hD : Cert.MMLaw.IsPlain D)
    (prec : Option ContractPrecision) :
    (dat22 (F := Ideal) V c).arrAt 2 cfg22.N = Host.dotGeneral (F := Ideal) (φ₁ := .bf16) (φ₂ := .f32) D prec (V c main_v9) (V c main_v136) :=
  final22_2_eq_whole V c D hD prec

end Cert.KernelIdeal.Hand

end
-- ==== Proof.ValKI23a.lean ====
/- Laid out by: python3 scratch/layout_regions.py --template-region 1 --region 23 --program KernelIdeal --prefix Val --parts a,b,c --sim main_v9=main_v8,main_v25=main_v131,main_v26=main_v141 --out-dir proof/Proof
   from the hand-written text of region 1 (ValKI1a.lean): the same text, the region's number substituted. -/
/-
  Region 23 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k23_pay1` (the zero block) and `k23_pay2` (accumulator plus product) are the two stores' payloads.

  So along one row of blocks r the accumulator after its step k is the left fold
    accOf23 r 0 = pay2 (a (r, 0)) (b 0) pay1,    accOf23 r (k + 1) = pay2 (a (r, k + 1)) (b (k + 1)) (accOf23 r k),
  the grid point (r, k) being position 4 r + k; and at k = 3 the output block holds accOf23 r 3.
-/
import proofs.«158944_j64613488001249_1_alg».proof.Proof.RegKI23
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout23_A_eq (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond23_0 i) (hc1 : ¬cond23_1 i)
    (x0 : Vec F S1024x1024 .bf16) (x1 : Vec F S1024x512 .f32) :
    sout23_A c i arg2 harg2 arg3 harg3 arg4 harg4 arg5 harg5 hc0 hc1 x0 x1 = k23_pay2 x0 x1 (k23_pay1 (F := F)) := by
  have hz : (![0, 0] : Fin 2 → Nat) = fun _ => 0 := funext fun a => by fin_cases a <;> rfl
  unfold sout23_A
  rw [View.read_writes_eq_canon _ _ _ (scover23_A c i arg2 harg2 arg3 harg3 arg4 harg4 arg5 harg5 hc0 hc1 x0 x1)]
  unfold kernelRun23_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout23_B_eq (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond23_0 i) (hc1 : ¬cond23_1 i)
    (x0 : Vec F S1024x1024 .bf16) (x1 : Vec F S1024x512 .f32) (xs0 : Vec F S1024x512 .f32) :
    sout23_B c i arg2 harg2 arg3 harg3 arg4 harg4 arg5 harg5 hc0 hc1 x0 x1 xs0 = k23_pay2 x0 x1 xs0 := by
  have hz : (![0, 0] : Fin 2 → Nat) = fun _ => 0 := funext fun a => by fin_cases a <;> rfl
  unfold sout23_B
  rw [View.read_writes_eq_canon _ _ _ (scover23_B c i arg2 harg2 arg3 harg3 arg4 harg4 arg5 harg5 hc0 hc1 x0 x1 xs0)]
  unfold kernelRun23_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout23_C_eq (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond23_0 i) (hc1 : cond23_1 i)
    (x0 : Vec F S1024x1024 .bf16) (x1 : Vec F S1024x512 .f32) (xs0 : Vec F S1024x512 .f32) :
    sout23_C c i arg2 harg2 arg3 harg3 arg4 harg4 arg5 harg5 hc0 hc1 x0 x1 xs0 = k23_pay2 x0 x1 xs0 := by
  have hz : (![0, 0] : Fin 2 → Nat) = fun _ => 0 := funext fun a => by fin_cases a <;> rfl
  unfold sout23_C
  rw [View.read_writes_eq_canon _ _ _ (scover23_C c i arg2 harg2 arg3 harg3 arg4 harg4 arg5 harg5 hc0 hc1 x0 x1 xs0)]
  unfold kernelRun23_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out23_C_eq (c : Dev nD) (i : grid23.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond23_0 i) (hc1 : cond23_1 i)
    (x0 : Vec F S1024x1024 .bf16) (x1 : Vec F S1024x512 .f32) (xs0 : Vec F S1024x512 .f32) :
    out23_C c i arg2 harg2 arg3 harg3 arg4 harg4 arg5 harg5 hc0 hc1 x0 x1 xs0 = k23_pay2 x0 x1 xs0 := by
  have hz : (![0, 0] : Fin 2 → Nat) = fun _ => 0 := funext fun a => by fin_cases a <;> rfl
  unfold out23_C
  rw [View.read_writes_eq_canon _ _ _ (cover23_C c i arg2 harg2 arg3 harg3 arg4 harg4 arg5 harg5 hc0 hc1 x0 x1 xs0)]
  unfold kernelRun23_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk23_lhs (c : Dev nD) (n : ℕ) : Vec F S1024x1024 .bf16 :=
  if h : n < cfg23.N then iblk23 V c 0 ⟨n, h⟩ else iblk23 V c 0 ⟨0, by have h : cfg23.N = 16 := N_23; omega⟩
/-- The right factor's block at grid position `n`. -/
def iblk23_rhs (c : Dev nD) (n : ℕ) : Vec F S1024x512 .f32 :=
  if h : n < cfg23.N then iblk23 V c 1 ⟨n, h⟩ else iblk23 V c 1 ⟨0, by have h : cfg23.N = 16 := N_23; omega⟩

theorem iblk23_lhs_eq (c : Dev nD) (n : ℕ) (h : n < cfg23.N) : iblk23_lhs V c n = iblk23 V c 0 ⟨n, h⟩ := dif_pos h
theorem iblk23_rhs_eq (c : Dev nD) (n : ℕ) (h : n < cfg23.N) : iblk23_rhs V c n = iblk23 V c 1 ⟨n, h⟩ := dif_pos h

/-! ## The accumulator along one row of blocks -/

/-- Row of blocks `r`, after its step `k`: the zero block plus the products of the blocks at positions 4 r, …, 4 r + k,
    added in that order. -/
def accOf23 (c : Dev nD) (r : ℕ) : ℕ → Vec F S1024x512 .f32
  | 0 => k23_pay2 (iblk23_lhs V c (4 * r)) (iblk23_rhs V c (4 * r)) (k23_pay1 (F := F))
  | k + 1 => k23_pay2 (iblk23_lhs V c (4 * r + (k + 1))) (iblk23_rhs V c (4 * r + (k + 1))) (accOf23 c r k)

theorem accOf23_zero (c : Dev nD) (r : ℕ) :
    accOf23 V c r 0 = k23_pay2 (iblk23_lhs V c (4 * r)) (iblk23_rhs V c (4 * r)) (k23_pay1 (F := F)) := rfl
theorem accOf23_succ (c : Dev nD) (r k : ℕ) :
    accOf23 V c r (k + 1) = k23_pay2 (iblk23_lhs V c (4 * r + (k + 1))) (iblk23_rhs V c (4 * r + (k + 1))) (accOf23 V c r k) := rfl

theorem iblk23_lhs_at (c : Dev nD) (t : Fin cfg23.N) (n : ℕ) (hn : n = t.val) : iblk23_lhs V c n = iblk23 V c 0 t := by
  subst hn; unfold iblk23_lhs; exact dif_pos t.isLt
theorem iblk23_rhs_at (c : Dev nD) (t : Fin cfg23.N) (n : ℕ) (hn : n = t.val) : iblk23_rhs V c n = iblk23 V c 1 t := by
  subst hn; unfold iblk23_rhs; exact dif_pos t.isLt

/-- At a grid point with k = 0 the fold starts: the zero block plus the product of the point's two blocks. -/
theorem accOf23_first (c : Dev nD) (t : Fin cfg23.N) (h0 : t.val % 4 = 0) :
    accOf23 V c (t.val / 4) (t.val % 4) = k23_pay2 (iblk23 V c 0 t) (iblk23 V c 1 t) (k23_pay1 (F := F)) := by
  rw [h0, accOf23_zero, iblk23_lhs_at V c t (4 * (t.val / 4)) (by omega), iblk23_rhs_at V c t (4 * (t.val / 4)) (by omega)]

/-- At a grid point with k ≠ 0 the fold takes one step from the position before, which is in the same row of blocks. -/
theorem accOf23_next (c : Dev nD) (t : Fin cfg23.N) (h0 : ¬t.val % 4 = 0) :
    accOf23 V c (t.val / 4) (t.val % 4)
      = k23_pay2 (iblk23 V c 0 t) (iblk23 V c 1 t) (accOf23 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf23_succ, iblk23_lhs_at V c t (4 * (t.val / 4) + (k + 1)) (by omega),
    iblk23_rhs_at V c t (4 * (t.val / 4) + (k + 1)) (by omega)]

/-! ## The accumulator and the output block, point by point, as pure functions of the blocks -/

/-- k = 0: the accumulator restarts from the zero block. -/
theorem outsAt23_first (c : Dev nD) (t : Fin cfg23.N) (h0 : t.val % 4 = 0) :
    (outsAt23 V c t.val t.isLt).2 = k23_pay2 (iblk23 V c 0 t) (iblk23 V c 1 t) (k23_pay1 (F := F)) := by
  rw [outsAt23_A V c t h0]
  dsimp only
  exact sout23_A_eq c (grid23.coords t) (ms23_0 t) (hs23_0 t) (ms23_1 t) (hs23_1 t) (ms23_2 t) (hs23_2 t) scM23 (Memref.isWhole_whole _) (isFirst23 t h0) (notLast23 t (by omega)) (iblk23 V c 0 t) (iblk23 V c 1 t)

/-- k ≠ 0: the point's product is added to what the point before left. -/
theorem outsAt23_next (c : Dev nD) (t : Fin cfg23.N) (h0 : ¬t.val % 4 = 0) :
    (outsAt23 V c t.val t.isLt).2
      = k23_pay2 (iblk23 V c 0 t) (iblk23 V c 1 t) (outsAt23 V c (t.val - 1) (Nat.lt_of_le_of_lt (Nat.sub_le _ _) t.isLt)).2 := by
  by_cases h3 : t.val % 4 = 3
  · rw [outsAt23_C V c t h0 h3]
    dsimp only
    exact sout23_C_eq c (grid23.coords t) (ms23_0 t) (hs23_0 t) (ms23_1 t) (hs23_1 t) (ms23_2 t) (hs23_2 t) scM23 (Memref.isWhole_whole _) (notFirst23 t h0) (isLast23 t h3) (iblk23 V c 0 t) (iblk23 V c 1 t)
      (outsAt23 V c (t.val - 1) (Nat.lt_of_le_of_lt (Nat.sub_le _ _) t.isLt)).2
  · rw [outsAt23_B V c t h0 h3]
    dsimp only
    exact sout23_B_eq c (grid23.coords t) (ms23_0 t) (hs23_0 t) (ms23_1 t) (hs23_1 t) (ms23_2 t) (hs23_2 t) scM23 (Memref.isWhole_whole _) (notFirst23 t h0) (notLast23 t h3) (iblk23 V c 0 t) (iblk23 V c 1 t)
      (outsAt23 V c (t.val - 1) (Nat.lt_of_le_of_lt (Nat.sub_le _ _) t.isLt)).2

/-- k = 3: the output block is the accumulator. -/
theorem outsAt23_last (c : Dev nD) (t : Fin cfg23.N) (h3 : t.val % 4 = 3) :
    (outsAt23 V c t.val t.isLt).1 = (outsAt23 V c t.val t.isLt).2 := by
  have h0 : ¬t.val % 4 = 0 := by omega
  rw [outsAt23_C V c t h0 h3]
  dsimp only
  exact (out23_C_eq c (grid23.coords t) (ms23_0 t) (hs23_0 t) (ms23_1 t) (hs23_1 t) (ms23_2 t) (hs23_2 t) scM23 (Memref.isWhole_whole _) (notFirst23 t h0) (isLast23 t h3) (iblk23 V c 0 t) (iblk23 V c 1 t)
      (outsAt23 V c (t.val - 1) (Nat.lt_of_le_of_lt (Nat.sub_le _ _) t.isLt)).2).trans
    (sout23_C_eq c (grid23.coords t) (ms23_0 t) (hs23_0 t) (ms23_1 t) (hs23_1 t) (ms23_2 t) (hs23_2 t) scM23 (Memref.isWhole_whole _) (notFirst23 t h0) (isLast23 t h3) (iblk23 V c 0 t) (iblk23 V c 1 t)
      (outsAt23 V c (t.val - 1) (Nat.lt_of_le_of_lt (Nat.sub_le _ _) t.isLt)).2).symm

/-! ## The accumulator is the fold -/

/-- After position `n` the accumulator holds row `n / 4`'s fold after its step `n % 4`: by induction on the position. -/
theorem outsAt23_acc_pos (c : Dev nD) :
    ∀ (n : ℕ) (hn : n < cfg23.N), (outsAt23 V c n hn).2 = accOf23 V c (n / 4) (n % 4) := by
  intro n
  induction n with
  | zero =>
    intro hn
    exact (outsAt23_first V c ⟨0, hn⟩ (Nat.zero_mod 4)).trans (accOf23_first V c ⟨0, hn⟩ (Nat.zero_mod 4)).symm
  | succ n ih =>
    intro hn
    by_cases h0 : (n + 1) % 4 = 0
    · exact (outsAt23_first V c ⟨n + 1, hn⟩ h0).trans (accOf23_first V c ⟨n + 1, hn⟩ h0).symm
    · refine (outsAt23_next V c ⟨n + 1, hn⟩ h0).trans (Eq.trans ?_ (accOf23_next V c ⟨n + 1, hn⟩ h0).symm)
      exact congrArg (k23_pay2 (iblk23 V c 0 ⟨n + 1, hn⟩) (iblk23 V c 1 ⟨n + 1, hn⟩)) (ih (Nat.lt_of_succ_lt hn))

/-- At every grid point the accumulator holds its row's fold after the point's step. -/
theorem outsAt23_acc (c : Dev nD) (t : Fin cfg23.N) :
    (outsAt23 V c t.val t.isLt).2 = accOf23 V c (t.val / 4) (t.val % 4) :=
  outsAt23_acc_pos V c t.val t.isLt

/-- At a row's last point the output block holds the row's whole fold. -/
theorem outsAt23_out (c : Dev nD) (t : Fin cfg23.N) (h3 : t.val % 4 = 3) :
    (outsAt23 V c t.val t.isLt).1 = accOf23 V c (t.val / 4) 3 := by
  have e := outsAt23_acc V c t
  rw [h3] at e
  exact (outsAt23_last V c t h3).trans e

end Cert.KernelIdeal.Hand

end
-- ==== Proof.ValKI23b.lean ====
/- Laid out by: python3 scratch/layout_regions.py --template-region 1 --region 23 --program KernelIdeal --prefix Val --parts a,b,c --sim main_v9=main_v8,main_v25=main_v131,main_v26=main_v141 --out-dir proof/Proof
   from the hand-written text of region 1 (ValKI1b.lean): the same text, the region's number substituted. -/
/-
  Region 23 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI23a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts23 : ∀ t : Fin cfg23.N,
    win23_0.index t (0 : Fin 2) = t.val / 4 ∧ win23_0.index t (1 : Fin 2) = t.val % 4
    ∧ win23_1.index t (0 : Fin 2) = t.val % 4 ∧ win23_1.index t (1 : Fin 2) = 0
    ∧ win23_2.index t (0 : Fin 2) = t.val / 4 ∧ win23_2.index t (1 : Fin 2) = 0 :=
  (by decide +kernel : ∀ t : Fin grid23.N,
    win23_0.index t (0 : Fin 2) = t.val / 4 ∧ win23_0.index t (1 : Fin 2) = t.val % 4
    ∧ win23_1.index t (0 : Fin 2) = t.val % 4 ∧ win23_1.index t (1 : Fin 2) = 0
    ∧ win23_2.index t (0 : Fin 2) = t.val / 4 ∧ win23_2.index t (1 : Fin 2) = 0)

/-! ## The output array as one function -/

/-- The whole output array: its row 1024 r + p, column q, is entry (p, q) of the block accumulated over k = 0 … 3 in
    block row r. -/
def whole23 (c : Dev nD) : S4096x512.Idx → Elt F .f32 := fun i =>
  accOf23 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole23_apply (c : Dev nD) (r : ℕ) (y : S1024x512.Idx) (i : S4096x512.Idx)
    (h0 : (i 0).val = 1024 * r + (y 0).val) (h1 : (i 1).val = (y 1).val) :
    whole23 V c i = accOf23 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole23
  rw [hr, e]

/-- Row 1024 r + p, column q of the array is entry (p, q) of block row r's accumulated block. -/
theorem whole23_ix2 (c : Dev nD) (r : Fin 4) (p : Fin 1024) (q : Fin 512) :
    whole23 V c (ix2 (n0 := 4096) (n1 := 512) ⟨1024 * r.val + p.val, by have := r.isLt; have := p.isLt; omega⟩ q)
      = accOf23 V c r.val 3 (ix2 p q) :=
  whole23_apply V c r.val (ix2 p q) _ rfl rfl

/-! ## What a point writes back -/

/-- A point with k = 3 writes back its block of the whole-array function. -/
theorem flushed23_eq (c : Dev nD) (t : Fin cfg23.N) (hf : (cfg23.win 2).flush t = true) :
    (dat23 V c).flushed 2 t = ((cfg23.win 2).blk t).view.read (Elt F) (whole23 V c) := by
  have h3 : t.val % 4 = 3 := (flush23_2 t).mp hf
  show (cfg23.win 2).cut (grid23.coords t) ((dat23 V c).after 2 t) = _
  rw [after23_2, outsAt23_out V c t h3]
  obtain ⟨-, -, -, -, e0, e1⟩ := idxFacts23 t
  funext j
  show accOf23 V c (t.val / 4) 3 j = whole23 V c (((cfg23.win 2).blk t).view.emb j)
  refine (whole23_apply V c (t.val / 4) j _ ?_ ?_).symm
  · show win23_2.index t (0 : Fin 2) * 1024 + 1 * (j 0).val = 1024 * (t.val / 4) + (j 0).val
    rw [e0]; omega
  · show win23_2.index t (1 : Fin 2) * 512 + 1 * (j 1).val = (j 1).val
    rw [e1]; omega

/-! ## The blocks written back cover the array -/

/-- An index is in a point's output block iff each coordinate is in the block's range on its axis. -/
theorem memBlk23 (t : Fin cfg23.N) (i : S4096x512.Idx) :
    i ∈ ((cfg23.win 2).blk t).view.set ↔ ∀ a : Fin 2, win23_2.index t a * S1024x512.size a ≤ (i a).val
      ∧ (i a).val < win23_2.index t a * S1024x512.size a + S1024x512.size a := by
  show i ∈ ((View.whole main_v141).slice (win23_2.rect t)).set ↔ _
  rw [View.set_slice_whole, Rect.mem_set_unit]
  exact Iff.rfl

/-- Row i of the array lies in the block written back at the point (i / 1024, 3). -/
theorem covered23 (i : S4096x512.Idx) :
    ∃ t : Fin cfg23.N, (cfg23.win 2).flush t = true ∧ i ∈ ((cfg23.win 2).blk t).view.set := by
  have hi0 : (i 0).val < 4096 := idx2_lt0 i
  have hi1 : (i 1).val < 512 := idx2_lt1 i
  have hN : cfg23.N = 16 := N_23
  obtain ⟨t, ht⟩ : ∃ t : Fin cfg23.N, t.val = 4 * ((i 0).val / 1024) + 3 :=
    ⟨⟨4 * ((i 0).val / 1024) + 3, by rw [hN]; omega⟩, rfl⟩
  refine ⟨t, (flush23_2 t).mpr (by omega), ?_⟩
  rw [memBlk23]
  obtain ⟨-, -, -, -, e0, e1⟩ := idxFacts23 t
  intro a
  match a with
  | ⟨0, _⟩ =>
    show win23_2.index t (0 : Fin 2) * 1024 ≤ (i 0).val ∧ (i 0).val < win23_2.index t (0 : Fin 2) * 1024 + 1024
    rw [e0]; omega
  | ⟨1, _⟩ =>
    show win23_2.index t (1 : Fin 2) * 512 ≤ (i 1).val ∧ (i 1).val < win23_2.index t (1 : Fin 2) * 512 + 512
    rw [e1]; omega

/-! ## The three arrays after the region -/

/-- The output array after the region is the whole-array function. -/
theorem final23_2 (c : Dev nD) : (dat23 V c).arrAt 2 cfg23.N = whole23 V c :=
  (dat23 V c).arrAt_eq_of_cover 2 (whole23 V c) (flushed23_eq V c) covered23

/-- The two input arrays are as the region found them. -/
theorem final23_0 (c : Dev nD) : (dat23 V c).arrAt 0 cfg23.N = V c main_v8 :=
  ((dat23 V c).arrAt_in 0 rfl cfg23.N).trans (A_eq23 V c 0)
theorem final23_1 (c : Dev nD) : (dat23 V c).arrAt 1 cfg23.N = V c main_v131 :=
  ((dat23 V c).arrAt_in 1 rfl cfg23.N).trans (A_eq23 V c 1)

/-! ## The input blocks as blocks of the operand arrays -/

/-- The left operand's block at the point (r, k): entry (y₀, y₁) is the array's entry (1024 r + y₀, 1024 k + y₁). -/
theorem iblk23_lhs_apply (c : Dev nD) (r k : Fin 4) (y : S1024x1024.Idx) (i : S4096x4096.Idx)
    (h0 : (i 0).val = 1024 * r.val + (y 0).val) (h1 : (i 1).val = 1024 * k.val + (y 1).val) :
    iblk23_lhs V c (4 * r.val + k.val) y = (V c main_v8 : S4096x4096.Idx → Elt F .bf16) i := by
  have hN : cfg23.N = 16 := N_23
  have hr := r.isLt
  have hk := k.isLt
  have hlt : 4 * r.val + k.val < cfg23.N := by rw [hN]; omega
  rw [iblk23_lhs_eq V c _ hlt]
  obtain ⟨e0, e1, -, -, -, -⟩ := idxFacts23 ⟨4 * r.val + k.val, hlt⟩
  have e0' : win23_0.index ⟨4 * r.val + k.val, hlt⟩ (0 : Fin 2) = (4 * r.val + k.val) / 4 := e0
  have e1' : win23_0.index ⟨4 * r.val + k.val, hlt⟩ (1 : Fin 2) = (4 * r.val + k.val) % 4 := e1
  unfold iblk23
  rw [View.read_apply]
  show V c main_v8 (((cfg23.win 0).blk ⟨4 * r.val + k.val, hlt⟩).view.emb y) = V c main_v8 i
  congr 1
  funext a
  apply Fin.ext
  match a with
  | ⟨0, _⟩ =>
    show win23_0.index ⟨4 * r.val + k.val, hlt⟩ (0 : Fin 2) * 1024 + 1 * (y 0).val = (i 0).val
    rw [e0', h0]; omega
  | ⟨1, _⟩ =>
    show win23_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk23_rhs_apply (c : Dev nD) (r k : Fin 4) (y : S1024x512.Idx) (i : S4096x512.Idx)
    (h0 : (i 0).val = 1024 * k.val + (y 0).val) (h1 : (i 1).val = (y 1).val) :
    iblk23_rhs V c (4 * r.val + k.val) y = (V c main_v131 : S4096x512.Idx → Elt F .f32) i := by
  have hN : cfg23.N = 16 := N_23
  have hr := r.isLt
  have hk := k.isLt
  have hlt : 4 * r.val + k.val < cfg23.N := by rw [hN]; omega
  rw [iblk23_rhs_eq V c _ hlt]
  obtain ⟨-, -, e0, e1, -, -⟩ := idxFacts23 ⟨4 * r.val + k.val, hlt⟩
  have e0' : win23_1.index ⟨4 * r.val + k.val, hlt⟩ (0 : Fin 2) = (4 * r.val + k.val) % 4 := e0
  have e1' : win23_1.index ⟨4 * r.val + k.val, hlt⟩ (1 : Fin 2) = 0 := e1
  unfold iblk23
  rw [View.read_apply]
  show V c main_v131 (((cfg23.win 1).blk ⟨4 * r.val + k.val, hlt⟩).view.emb y) = V c main_v131 i
  congr 1
  funext a
  apply Fin.ext
  match a with
  | ⟨0, _⟩ =>
    show win23_1.index ⟨4 * r.val + k.val, hlt⟩ (0 : Fin 2) * 1024 + 1 * (y 0).val = (i 0).val
    rw [e0', h0]; omega
  | ⟨1, _⟩ =>
    show win23_1.index ⟨4 * r.val + k.val, hlt⟩ (1 : Fin 2) * 512 + 1 * (y 1).val = (i 1).val
    rw [e1', h1]; omega

/-- The accumulated block after the fourth step, unfolded: four steps from the zero block. -/
theorem accOf23_three (c : Dev nD) (r : ℕ) :
    accOf23 V c r 3
      = k23_pay2 (iblk23_lhs V c (4 * r + 3)) (iblk23_rhs V c (4 * r + 3))
          (k23_pay2 (iblk23_lhs V c (4 * r + 2)) (iblk23_rhs V c (4 * r + 2))
            (k23_pay2 (iblk23_lhs V c (4 * r + 1)) (iblk23_rhs V c (4 * r + 1))
              (k23_pay2 (iblk23_lhs V c (4 * r)) (iblk23_rhs V c (4 * r)) (k23_pay1 (F := F))))) := rfl

end Cert.KernelIdeal.Hand

end
-- ==== Proof.ValKI23c.lean ====
/- Laid out by: python3 scratch/layout_regions.py --template-region 1 --region 23 --program KernelIdeal --prefix Val --parts a,b,c --sim main_v9=main_v8,main_v25=main_v131,main_v26=main_v141 --out-dir proof/Proof
   from the hand-written text of region 1 (ValKI1c.lean): the same text, the region's number substituted. -/
/-
  Region 23 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI23b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf23_step (x0 : Vec Ideal S1024x1024 .bf16) (x1 acc : Vec Ideal S1024x512 .f32) :
    k23_pay2 (F := Ideal) x0 x1 acc
      = Cert.MMLaw.accStep dot_S1024x1024_S1024x512_S1024x512_1_0_0_1_n_n none x0 x1 acc := by
  unfold k23_pay2
  simp only [shapeCast_self]
  rfl

/-- The accumulator starts from the zero block. -/
theorem accOf23_init (j : S1024x512.Idx) : k23_pay1 (F := Ideal) j = 0 := by
  unfold k23_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf23_eq_blk (c : Dev nD) (r : Fin 4) (D : DotDims S4096x4096 S4096x512 S4096x512) (hD : Cert.MMLaw.IsPlain D)
    (prec : Option ContractPrecision) :
    accOf23 V c r.val 3
      = Cert.MMLaw.blk (nr := 4) (nc := 1) 1024 512 rfl rfl (Cert.MMLaw.whole D prec (V c main_v8) (V c main_v131)) r 0 := by
  rw [accOf23_three]
  simp only [accOf23_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v8) (V c main_v131) r 0
    (fun k => iblk23_lhs V c (4 * r.val + k.val)) (fun k => iblk23_rhs V c (4 * r.val + k.val))
    (fun k => funext fun y => iblk23_lhs_apply V c r k y _ rfl rfl)
    (fun k => funext fun y => iblk23_rhs_apply V c r k y _ rfl (by show 512 * 0 + (y 1).val = (y 1).val; omega))
    (k23_pay1 (F := Ideal)) accOf23_init

/-! ## The output array after the region is the whole product -/

/-- The region leaves in its output array the product of its two operand arrays. -/
theorem final23_2_eq_whole (c : Dev nD) (D : DotDims S4096x4096 S4096x512 S4096x512) (hD : Cert.MMLaw.IsPlain D)
    (prec : Option ContractPrecision) :
    (dat23 (F := Ideal) V c).arrAt 2 cfg23.N = Cert.MMLaw.whole D prec (V c main_v8) (V c main_v131) := by
  rw [final23_2]
  funext i
  have hi0 : (i 0).val < 4096 := idx2_lt0 i
  have h := congrFun (accOf23_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final23_2_eq_dot (c : Dev nD) (D : DotDims S4096x4096 S4096x512 S4096x512) (hD : Cert.MMLaw.IsPlain D)
    (prec : Option ContractPrecision) :
    (dat23 (F := Ideal) V c).arrAt 2 cfg23.N = Host.dotGeneral (F := Ideal) (φ₁ := .bf16) (φ₂ := .f32) D prec (V c main_v8) (V c main_v131) :=
  final23_2_eq_whole V c D hD prec

end Cert.KernelIdeal.Hand

end
-- ==== Proof.ValKI24a.lean ====
/- Laid out by: python3 scratch/layout_grid41.py --prefix Val --template-region 0 --region 24 --program KernelIdeal --parts a,b --shapes S1024x128=S1024x512,S128x512=S512x512,S1024x512=S1024x512,S4096x128=S4096x512,S4096x512=S4096x512,main_arg0=main_v144,main_v12=main_v10,main_v17=main_v145,h0=h0,e0=e0,hi0=hi0,x0=x0
   from the hand-written text of region 0 (ValKI0a.lean): the same text, the region's number, block shapes, operand arrays substituted. -/
/-
  Region 24 of @main: from the output blocks to the whole output array.

  The grid is [4, 1]: the point t is block row t, and the reduction axis has one step, so every point zeroes the
  accumulator, adds the product of its two input blocks, and writes the sum back. The output window's block at t is
  rows 1024 t … 1024 t + 1023 of the result, written back at every point. So the array after the region is ONE function
  of the index: row 1024 r + p, column q holds entry (p, q) of the block the point r leaves. The steps: the three windows'
  block indices decided once over the grid; what a point writes back is its block of that function; the four blocks
  written back cover the array (row i lies in the block of the point i / 1024); hence the array after the region. The two
  operand arrays are not written. Last, each input block as a block of its operand array: the left operand's block at the
  point t is its rows 1024 t … 1024 t + 1023 (every column), the right operand's block is the whole array at every point.
-/
import proofs.«158944_j64613488001249_1_alg».proof.Proof.RegKI24
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t the left operand's block is (t, 0), the right operand's (0, 0), the output's (t, 0). -/
theorem idxFacts24 : ∀ t : Fin cfg24.N,
    win24_0.index t (0 : Fin 2) = t.val ∧ win24_0.index t (1 : Fin 2) = 0
    ∧ win24_1.index t (0 : Fin 2) = 0 ∧ win24_1.index t (1 : Fin 2) = 0
    ∧ win24_2.index t (0 : Fin 2) = t.val ∧ win24_2.index t (1 : Fin 2) = 0 :=
  (by decide +kernel : ∀ t : Fin grid24.N,
    win24_0.index t (0 : Fin 2) = t.val ∧ win24_0.index t (1 : Fin 2) = 0
    ∧ win24_1.index t (0 : Fin 2) = 0 ∧ win24_1.index t (1 : Fin 2) = 0
    ∧ win24_2.index t (0 : Fin 2) = t.val ∧ win24_2.index t (1 : Fin 2) = 0)

/-! ## The block a point leaves -/

/-- The block the point at grid position n leaves: the zero block plus the product of the point's two input blocks
    (past the grid's end, where nothing consults it, the block of position 0). -/
def accOf24 (c : Dev nD) (n : ℕ) : Vec F S1024x512 .f32 :=
  if h : n < cfg24.N then k24_pay2 (iblk24 V c 0 ⟨n, h⟩) (iblk24 V c 1 ⟨n, h⟩) (k24_pay1 (F := F))
  else k24_pay2 (iblk24 V c 0 ⟨0, by have h : cfg24.N = 4 := N_24; omega⟩)
    (iblk24 V c 1 ⟨0, by have h : cfg24.N = 4 := N_24; omega⟩) (k24_pay1 (F := F))

theorem accOf24_eq (c : Dev nD) (t : Fin cfg24.N) :
    accOf24 V c t.val = k24_pay2 (iblk24 V c 0 t) (iblk24 V c 1 t) (k24_pay1 (F := F)) := by
  unfold accOf24; exact dif_pos t.isLt

/-- At every point the output block holds that block. -/
theorem outsAt24_out (c : Dev nD) (t : Fin cfg24.N) : (outsAt24 V c t.val t.isLt).1 = accOf24 V c t.val :=
  (outsAt24_last V c t).trans ((outsAt24_first V c t).trans (accOf24_eq V c t).symm)

/-! ## The output array as one function -/

/-- The whole output array: its row 1024 r + p, column q, is entry (p, q) of the block the point r leaves. -/
def whole24 (c : Dev nD) : S4096x512.Idx → Elt F .f32 := fun i =>
  accOf24 V c ((i 0).val / 1024)
    (ix2 ⟨(i 0).val % 1024, Nat.mod_lt _ (by decide)⟩ ⟨(i 1).val, idx2_lt1 i⟩)

/-- The array read at an index given by a block row r and a position y inside the block. -/
theorem whole24_apply (c : Dev nD) (r : ℕ) (y : S1024x512.Idx) (i : S4096x512.Idx)
    (h0 : (i 0).val = 1024 * r + (y 0).val) (h1 : (i 1).val = (y 1).val) :
    whole24 V c i = accOf24 V c r y := by
  have hy : (y 0).val < 1024 := idx2_lt0 y
  have hr : (i 0).val / 1024 = r := by omega
  have hp : (i 0).val % 1024 = (y 0).val := by omega
  have e : (ix2 ⟨(i 0).val % 1024, Nat.mod_lt _ (by decide)⟩ ⟨(i 1).val, idx2_lt1 i⟩ : S1024x512.Idx) = y :=
    funext fun a => match a with
      | ⟨0, _⟩ => Fin.ext hp
      | ⟨1, _⟩ => Fin.ext h1
  unfold whole24
  rw [hr, e]

/-- Row 1024 r + p, column q of the array is entry (p, q) of the block the point r leaves. -/
theorem whole24_ix2 (c : Dev nD) (r : Fin 4) (p : Fin 1024) (q : Fin (S1024x512.size 1)) :
    whole24 V c (ix2 ⟨1024 * r.val + p.val, by have := r.isLt; have := p.isLt; omega⟩ q)
      = accOf24 V c r.val (ix2 p q) :=
  whole24_apply V c r.val (ix2 p q) _ rfl rfl

/-! ## What a point writes back -/

/-- Every point writes back its block of the whole-array function. -/
theorem flushed24_eq (c : Dev nD) (t : Fin cfg24.N) (hf : (cfg24.win 2).flush t = true) :
    (dat24 V c).flushed 2 t = ((cfg24.win 2).blk t).view.read (Elt F) (whole24 V c) := by
  show (cfg24.win 2).cut (grid24.coords t) ((dat24 V c).after 2 t) = _
  rw [after24_2, outsAt24_out V c t]
  obtain ⟨-, -, -, -, e0, e1⟩ := idxFacts24 t
  funext j
  show accOf24 V c t.val j = whole24 V c (((cfg24.win 2).blk t).view.emb j)
  refine (whole24_apply V c t.val j _ ?_ ?_).symm
  · show win24_2.index t (0 : Fin 2) * 1024 + 1 * (j 0).val = 1024 * t.val + (j 0).val
    rw [e0]; omega
  · show win24_2.index t (1 : Fin 2) * S1024x512.size (1 : Fin 2) + 1 * (j 1).val = (j 1).val
    rw [e1, Nat.zero_mul, Nat.zero_add, Nat.one_mul]

/-! ## The blocks written back cover the array -/

/-- An index is in a point's output block iff each coordinate is in the block's range on its axis. -/
theorem memBlk24 (t : Fin cfg24.N) (i : S4096x512.Idx) :
    i ∈ ((cfg24.win 2).blk t).view.set ↔ ∀ a : Fin 2, win24_2.index t a * S1024x512.size a ≤ (i a).val
      ∧ (i a).val < win24_2.index t a * S1024x512.size a + S1024x512.size a := by
  show i ∈ ((View.whole main_v145).slice (win24_2.rect t)).set ↔ _
  rw [View.set_slice_whole, Rect.mem_set_unit]
  exact Iff.rfl

/-- Row i of the array lies in the block written back at the point i / 1024. -/
theorem covered24 (i : S4096x512.Idx) :
    ∃ t : Fin cfg24.N, (cfg24.win 2).flush t = true ∧ i ∈ ((cfg24.win 2).blk t).view.set := by
  have hi0 : (i 0).val < 4096 := idx2_lt0 i
  have hi1 : (i 1).val < S1024x512.size (1 : Fin 2) := idx2_lt1 i
  have hN : cfg24.N = 4 := N_24
  obtain ⟨t, ht⟩ : ∃ t : Fin cfg24.N, t.val = (i 0).val / 1024 :=
    ⟨⟨(i 0).val / 1024, by rw [hN]; omega⟩, rfl⟩
  refine ⟨t, flush24_2 t, ?_⟩
  rw [memBlk24]
  obtain ⟨-, -, -, -, e0, e1⟩ := idxFacts24 t
  intro a
  match a with
  | ⟨0, _⟩ =>
    show win24_2.index t (0 : Fin 2) * 1024 ≤ (i 0).val ∧ (i 0).val < win24_2.index t (0 : Fin 2) * 1024 + 1024
    rw [e0]; omega
  | ⟨1, _⟩ =>
    show win24_2.index t (1 : Fin 2) * S1024x512.size (1 : Fin 2) ≤ (i 1).val
      ∧ (i 1).val < win24_2.index t (1 : Fin 2) * S1024x512.size (1 : Fin 2) + S1024x512.size (1 : Fin 2)
    rw [e1, Nat.zero_mul, Nat.zero_add]
    exact ⟨Nat.zero_le _, hi1⟩

/-! ## The three arrays after the region -/

/-- The output array after the region is the whole-array function. -/
theorem final24_2 (c : Dev nD) : (dat24 V c).arrAt 2 cfg24.N = whole24 V c :=
  (dat24 V c).arrAt_eq_of_cover 2 (whole24 V c) (flushed24_eq V c) covered24

/-- The two input arrays are as the region found them. -/
theorem final24_0 (c : Dev nD) : (dat24 V c).arrAt 0 cfg24.N = V c main_v144 :=
  ((dat24 V c).arrAt_in 0 rfl cfg24.N).trans (A_eq24 V c 0)
theorem final24_1 (c : Dev nD) : (dat24 V c).arrAt 1 cfg24.N = V c main_v10 :=
  ((dat24 V c).arrAt_in 1 rfl cfg24.N).trans (A_eq24 V c 1)

/-! ## The input blocks as blocks of the operand arrays -/

/-- The left operand's block at the point t: entry (y₀, y₁) is the array's entry (1024 t + y₀, y₁). -/
theorem iblk24_lhs_apply (c : Dev nD) (t : Fin cfg24.N) (y : S1024x512.Idx) (i : S4096x512.Idx)
    (h0 : (i 0).val = 1024 * t.val + (y 0).val) (h1 : (i 1).val = (y 1).val) :
    iblk24 V c 0 t y = (V c main_v144 : S4096x512.Idx → Elt F .f32) i := by
  obtain ⟨e0, e1, -, -, -, -⟩ := idxFacts24 t
  unfold iblk24
  rw [View.read_apply]
  show V c main_v144 (((cfg24.win 0).blk t).view.emb y) = V c main_v144 i
  congr 1
  funext a
  apply Fin.ext
  match a with
  | ⟨0, _⟩ =>
    show win24_0.index t (0 : Fin 2) * 1024 + 1 * (y 0).val = (i 0).val
    rw [e0, h0]; omega
  | ⟨1, _⟩ =>
    show win24_0.index t (1 : Fin 2) * S1024x512.size (1 : Fin 2) + 1 * (y 1).val = (i 1).val
    rw [e1, h1, Nat.zero_mul, Nat.zero_add, Nat.one_mul]

/-- The right operand's block is the whole array at every point. -/
theorem iblk24_rhs_eq (c : Dev nD) (t : Fin cfg24.N) :
    iblk24 V c 1 t = (V c main_v10 : S512x512.Idx → Elt F .bf16) := by
  obtain ⟨-, -, e0, e1, -, -⟩ := idxFacts24 t
  funext y
  unfold iblk24
  rw [View.read_apply]
  show V c main_v10 (((cfg24.win 1).blk t).view.emb y) = V c main_v10 y
  congr 1
  funext a
  apply Fin.ext
  match a with
  | ⟨0, _⟩ =>
    show win24_1.index t (0 : Fin 2) * S512x512.size (0 : Fin 2) + 1 * (y 0).val = (y 0).val
    rw [e0, Nat.zero_mul, Nat.zero_add, Nat.one_mul]
  | ⟨1, _⟩ =>
    show win24_1.index t (1 : Fin 2) * S512x512.size (1 : Fin 2) + 1 * (y 1).val = (y 1).val
    rw [e1, Nat.zero_mul, Nat.zero_add, Nat.one_mul]

end Cert.KernelIdeal.Hand

end
-- ==== Proof.ValKI24b.lean ====
/- Laid out by: python3 scratch/layout_grid41.py --prefix Val --template-region 0 --region 24 --program KernelIdeal --parts a,b --shapes S1024x128=S1024x512,S128x512=S512x512,S1024x512=S1024x512,S4096x128=S4096x512,S4096x512=S4096x512,main_arg0=main_v144,main_v12=main_v10,main_v17=main_v145,h0=h0,e0=e0,hi0=hi0,x0=x0
   from the hand-written text of region 0 (ValKI0b.lean): the same text, the region's number, block shapes, operand arrays substituted. -/
/-
  Region 24 of @main at the extended reals: the output array after the region is the product of the two operand arrays.

  A change of float format is the identity at these values and a reshape to the same shape is the identity, so the
  kernel's one accumulation step is "accumulator plus the product of the two blocks into the zero block", and the
  accumulator starts from the zero block. The block the point r leaves is then zero plus the product of rows
  1024 r … 1024 r + 1023 of the left operand with the whole right operand, which is the same rows of the whole product:
  the contraction axis is not cut, so the sums are the same term by term. Read through the whole-array function of the
  blocks-to-array module, entry (1024 r + p, q) of the output array is that entry of the product.
-/
import proofs.«158944_j64613488001249_1_alg».proof.Proof.ValKI24a
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The accumulation step, and its start, at the extended reals -/

/-- A change of format and a reshape to the same shape are the identity: the step adds the product of the two blocks
    (into the zero block) to the accumulator. -/
theorem accOf24_step (x0 : Vec Ideal S1024x512 .f32) (x1 : Vec Ideal S512x512 .bf16) (acc : Vec Ideal S1024x512 .f32) :
    k24_pay2 (F := Ideal) x0 x1 acc
      = Cert.MMLaw.accStep dot_S1024x512_S512x512_S1024x512_1_0_0_1_n_n none x0 x1 acc := by
  unfold k24_pay2
  simp only [shapeCast_self]
  rfl

/-- The accumulator starts from the zero block. -/
theorem accOf24_init (j : S1024x512.Idx) : k24_pay1 (F := Ideal) j = 0 := by
  unfold k24_pay1
  rw [shapeCast_self]
  exact Ideal.ofBits_zero_f32

/-! ## The block a point leaves is a block of the whole product -/

/-- The block the point r leaves is rows 1024 r … 1024 r + 1023 of the product of the two operand arrays. -/
theorem accOf24_eq_blk (c : Dev nD) (r : Fin 4) (D : DotDims S4096x512 S512x512 S4096x512) (hD : Cert.MMLaw.IsPlain D)
    (prec : Option ContractPrecision) :
    accOf24 V c r.val
      = Cert.MMLaw.rowBlk (Cert.MMLaw.whole D prec (V c main_v144) (V c main_v10)) r := by
  have hN : cfg24.N = 4 := N_24
  have hr : r.val < cfg24.N := by rw [hN]; exact r.isLt
  rw [accOf24_eq V c ⟨r.val, hr⟩, accOf24_step]
  exact Cert.MMLaw.law41 dot_S1024x512_S512x512_S1024x512_1_0_0_1_n_n ⟨rfl, rfl, rfl, rfl, rfl, rfl⟩ D hD none prec
    (V c main_v144) (V c main_v10) r (iblk24 V c 0 ⟨r.val, hr⟩) (iblk24 V c 1 ⟨r.val, hr⟩)
    (funext fun y => iblk24_lhs_apply V c ⟨r.val, hr⟩ y _ rfl rfl) (iblk24_rhs_eq V c ⟨r.val, hr⟩)
    (k24_pay1 (F := Ideal)) accOf24_init

/-! ## The output array after the region is the whole product -/

/-- The region leaves in its output array the product of its two operand arrays. -/
theorem final24_2_eq_whole (c : Dev nD) (D : DotDims S4096x512 S512x512 S4096x512) (hD : Cert.MMLaw.IsPlain D)
    (prec : Option ContractPrecision) :
    (dat24 (F := Ideal) V c).arrAt 2 cfg24.N = Cert.MMLaw.whole D prec (V c main_v144) (V c main_v10) := by
  rw [final24_2]
  funext i
  have hi0 : (i 0).val < 4096 := idx2_lt0 i
  have h := congrFun (accOf24_eq_blk V c ⟨(i 0).val / 1024, by omega⟩ D hD prec)
    (ix2 ⟨(i 0).val % 1024, Nat.mod_lt _ (by decide)⟩ ⟨(i 1).val, idx2_lt1 i⟩)
  rw [Cert.MMLaw.rowBlk_apply] at h
  refine Eq.trans h (congrArg _ ?_)
  funext a
  match a with
  | ⟨0, _⟩ => exact Fin.ext (by show 1024 * ((i 0).val / 1024) + (i 0).val % 1024 = (i 0).val; omega)
  | ⟨1, _⟩ => rfl

/-- The same with the operands at the formats they are stored in. -/
theorem final24_2_eq_dot (c : Dev nD) (D : DotDims S4096x512 S512x512 S4096x512) (hD : Cert.MMLaw.IsPlain D)
    (prec : Option ContractPrecision) :
    (dat24 (F := Ideal) V c).arrAt 2 cfg24.N
      = Host.dotGeneral (F := Ideal) (φ₁ := .f32) (φ₂ := .bf16) D prec (V c main_v144) (V c main_v10) :=
  final24_2_eq_whole V c D hD prec

end Cert.KernelIdeal.Hand

end
-- ==== Proof.ValKI25a.lean ====
/- Laid out by: python3 scratch/layout_regions.py --template-region 1 --region 25 --program KernelIdeal --prefix Val --parts a,b,c --sim main_v9=main_v7,main_v25=main_v145,main_v26=main_v146 --out-dir proof/Proof
   from the hand-written text of region 1 (ValKI1a.lean): the same text, the region's number substituted. -/
/-
  Region 25 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k25_pay1` (the zero block) and `k25_pay2` (accumulator plus product) are the two stores' payloads.

  So along one row of blocks r the accumulator after its step k is the left fold
    accOf25 r 0 = pay2 (a (r, 0)) (b 0) pay1,    accOf25 r (k + 1) = pay2 (a (r, k + 1)) (b (k + 1)) (accOf25 r k),
  the grid point (r, k) being position 4 r + k; and at k = 3 the output block holds accOf25 r 3.
-/
import proofs.«158944_j64613488001249_1_alg».proof.Proof.RegKI25
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout25_A_eq (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond25_0 i) (hc1 : ¬cond25_1 i)
    (x0 : Vec F S1024x1024 .bf16) (x1 : Vec F S1024x512 .f32) :
    sout25_A c i arg2 harg2 arg3 harg3 arg4 harg4 arg5 harg5 hc0 hc1 x0 x1 = k25_pay2 x0 x1 (k25_pay1 (F := F)) := by
  have hz : (![0, 0] : Fin 2 → Nat) = fun _ => 0 := funext fun a => by fin_cases a <;> rfl
  unfold sout25_A
  rw [View.read_writes_eq_canon _ _ _ (scover25_A c i arg2 harg2 arg3 harg3 arg4 harg4 arg5 harg5 hc0 hc1 x0 x1)]
  unfold kernelRun25_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout25_B_eq (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond25_0 i) (hc1 : ¬cond25_1 i)
    (x0 : Vec F S1024x1024 .bf16) (x1 : Vec F S1024x512 .f32) (xs0 : Vec F S1024x512 .f32) :
    sout25_B c i arg2 harg2 arg3 harg3 arg4 harg4 arg5 harg5 hc0 hc1 x0 x1 xs0 = k25_pay2 x0 x1 xs0 := by
  have hz : (![0, 0] : Fin 2 → Nat) = fun _ => 0 := funext fun a => by fin_cases a <;> rfl
  unfold sout25_B
  rw [View.read_writes_eq_canon _ _ _ (scover25_B c i arg2 harg2 arg3 harg3 arg4 harg4 arg5 harg5 hc0 hc1 x0 x1 xs0)]
  unfold kernelRun25_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout25_C_eq (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond25_0 i) (hc1 : cond25_1 i)
    (x0 : Vec F S1024x1024 .bf16) (x1 : Vec F S1024x512 .f32) (xs0 : Vec F S1024x512 .f32) :
    sout25_C c i arg2 harg2 arg3 harg3 arg4 harg4 arg5 harg5 hc0 hc1 x0 x1 xs0 = k25_pay2 x0 x1 xs0 := by
  have hz : (![0, 0] : Fin 2 → Nat) = fun _ => 0 := funext fun a => by fin_cases a <;> rfl
  unfold sout25_C
  rw [View.read_writes_eq_canon _ _ _ (scover25_C c i arg2 harg2 arg3 harg3 arg4 harg4 arg5 harg5 hc0 hc1 x0 x1 xs0)]
  unfold kernelRun25_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out25_C_eq (c : Dev nD) (i : grid25.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond25_0 i) (hc1 : cond25_1 i)
    (x0 : Vec F S1024x1024 .bf16) (x1 : Vec F S1024x512 .f32) (xs0 : Vec F S1024x512 .f32) :
    out25_C c i arg2 harg2 arg3 harg3 arg4 harg4 arg5 harg5 hc0 hc1 x0 x1 xs0 = k25_pay2 x0 x1 xs0 := by
  have hz : (![0, 0] : Fin 2 → Nat) = fun _ => 0 := funext fun a => by fin_cases a <;> rfl
  unfold out25_C
  rw [View.read_writes_eq_canon _ _ _ (cover25_C c i arg2 harg2 arg3 harg3 arg4 harg4 arg5 harg5 hc0 hc1 x0 x1 xs0)]
  unfold kernelRun25_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk25_lhs (c : Dev nD) (n : ℕ) : Vec F S1024x1024 .bf16 :=
  if h : n < cfg25.N then iblk25 V c 0 ⟨n, h⟩ else iblk25 V c 0 ⟨0, by have h : cfg25.N = 16 := N_25; omega⟩
/-- The right factor's block at grid position `n`. -/
def iblk25_rhs (c : Dev nD) (n : ℕ) : Vec F S1024x512 .f32 :=
  if h : n < cfg25.N then iblk25 V c 1 ⟨n, h⟩ else iblk25 V c 1 ⟨0, by have h : cfg25.N = 16 := N_25; omega⟩

theorem iblk25_lhs_eq (c : Dev nD) (n : ℕ) (h : n < cfg25.N) : iblk25_lhs V c n = iblk25 V c 0 ⟨n, h⟩ := dif_pos h
theorem iblk25_rhs_eq (c : Dev nD) (n : ℕ) (h : n < cfg25.N) : iblk25_rhs V c n = iblk25 V c 1 ⟨n, h⟩ := dif_pos h

/-! ## The accumulator along one row of blocks -/

/-- Row of blocks `r`, after its step `k`: the zero block plus the products of the blocks at positions 4 r, …, 4 r + k,
    added in that order. -/
def accOf25 (c : Dev nD) (r : ℕ) : ℕ → Vec F S1024x512 .f32
  | 0 => k25_pay2 (iblk25_lhs V c (4 * r)) (iblk25_rhs V c (4 * r)) (k25_pay1 (F := F))
  | k + 1 => k25_pay2 (iblk25_lhs V c (4 * r + (k + 1))) (iblk25_rhs V c (4 * r + (k + 1))) (accOf25 c r k)

theorem accOf25_zero (c : Dev nD) (r : ℕ) :
    accOf25 V c r 0 = k25_pay2 (iblk25_lhs V c (4 * r)) (iblk25_rhs V c (4 * r)) (k25_pay1 (F := F)) := rfl
theorem accOf25_succ (c : Dev nD) (r k : ℕ) :
    accOf25 V c r (k + 1) = k25_pay2 (iblk25_lhs V c (4 * r + (k + 1))) (iblk25_rhs V c (4 * r + (k + 1))) (accOf25 V c r k) := rfl

theorem iblk25_lhs_at (c : Dev nD) (t : Fin cfg25.N) (n : ℕ) (hn : n = t.val) : iblk25_lhs V c n = iblk25 V c 0 t := by
  subst hn; unfold iblk25_lhs; exact dif_pos t.isLt
theorem iblk25_rhs_at (c : Dev nD) (t : Fin cfg25.N) (n : ℕ) (hn : n = t.val) : iblk25_rhs V c n = iblk25 V c 1 t := by
  subst hn; unfold iblk25_rhs; exact dif_pos t.isLt

/-- At a grid point with k = 0 the fold starts: the zero block plus the product of the point's two blocks. -/
theorem accOf25_first (c : Dev nD) (t : Fin cfg25.N) (h0 : t.val % 4 = 0) :
    accOf25 V c (t.val / 4) (t.val % 4) = k25_pay2 (iblk25 V c 0 t) (iblk25 V c 1 t) (k25_pay1 (F := F)) := by
  rw [h0, accOf25_zero, iblk25_lhs_at V c t (4 * (t.val / 4)) (by omega), iblk25_rhs_at V c t (4 * (t.val / 4)) (by omega)]

/-- At a grid point with k ≠ 0 the fold takes one step from the position before, which is in the same row of blocks. -/
theorem accOf25_next (c : Dev nD) (t : Fin cfg25.N) (h0 : ¬t.val % 4 = 0) :
    accOf25 V c (t.val / 4) (t.val % 4)
      = k25_pay2 (iblk25 V c 0 t) (iblk25 V c 1 t) (accOf25 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf25_succ, iblk25_lhs_at V c t (4 * (t.val / 4) + (k + 1)) (by omega),
    iblk25_rhs_at V c t (4 * (t.val / 4) + (k + 1)) (by omega)]

/-! ## The accumulator and the output block, point by point, as pure functions of the blocks -/

/-- k = 0: the accumulator restarts from the zero block. -/
theorem outsAt25_first (c : Dev nD) (t : Fin cfg25.N) (h0 : t.val % 4 = 0) :
    (outsAt25 V c t.val t.isLt).2 = k25_pay2 (iblk25 V c 0 t) (iblk25 V c 1 t) (k25_pay1 (F := F)) := by
  rw [outsAt25_A V c t h0]
  dsimp only
  exact sout25_A_eq c (grid25.coords t) (ms25_0 t) (hs25_0 t) (ms25_1 t) (hs25_1 t) (ms25_2 t) (hs25_2 t) scM25 (Memref.isWhole_whole _) (isFirst25 t h0) (notLast25 t (by omega)) (iblk25 V c 0 t) (iblk25 V c 1 t)

/-- k ≠ 0: the point's product is added to what the point before left. -/
theorem outsAt25_next (c : Dev nD) (t : Fin cfg25.N) (h0 : ¬t.val % 4 = 0) :
    (outsAt25 V c t.val t.isLt).2
      = k25_pay2 (iblk25 V c 0 t) (iblk25 V c 1 t) (outsAt25 V c (t.val - 1) (Nat.lt_of_le_of_lt (Nat.sub_le _ _) t.isLt)).2 := by
  by_cases h3 : t.val % 4 = 3
  · rw [outsAt25_C V c t h0 h3]
    dsimp only
    exact sout25_C_eq c (grid25.coords t) (ms25_0 t) (hs25_0 t) (ms25_1 t) (hs25_1 t) (ms25_2 t) (hs25_2 t) scM25 (Memref.isWhole_whole _) (notFirst25 t h0) (isLast25 t h3) (iblk25 V c 0 t) (iblk25 V c 1 t)
      (outsAt25 V c (t.val - 1) (Nat.lt_of_le_of_lt (Nat.sub_le _ _) t.isLt)).2
  · rw [outsAt25_B V c t h0 h3]
    dsimp only
    exact sout25_B_eq c (grid25.coords t) (ms25_0 t) (hs25_0 t) (ms25_1 t) (hs25_1 t) (ms25_2 t) (hs25_2 t) scM25 (Memref.isWhole_whole _) (notFirst25 t h0) (notLast25 t h3) (iblk25 V c 0 t) (iblk25 V c 1 t)
      (outsAt25 V c (t.val - 1) (Nat.lt_of_le_of_lt (Nat.sub_le _ _) t.isLt)).2

/-- k = 3: the output block is the accumulator. -/
theorem outsAt25_last (c : Dev nD) (t : Fin cfg25.N) (h3 : t.val % 4 = 3) :
    (outsAt25 V c t.val t.isLt).1 = (outsAt25 V c t.val t.isLt).2 := by
  have h0 : ¬t.val % 4 = 0 := by omega
  rw [outsAt25_C V c t h0 h3]
  dsimp only
  exact (out25_C_eq c (grid25.coords t) (ms25_0 t) (hs25_0 t) (ms25_1 t) (hs25_1 t) (ms25_2 t) (hs25_2 t) scM25 (Memref.isWhole_whole _) (notFirst25 t h0) (isLast25 t h3) (iblk25 V c 0 t) (iblk25 V c 1 t)
      (outsAt25 V c (t.val - 1) (Nat.lt_of_le_of_lt (Nat.sub_le _ _) t.isLt)).2).trans
    (sout25_C_eq c (grid25.coords t) (ms25_0 t) (hs25_0 t) (ms25_1 t) (hs25_1 t) (ms25_2 t) (hs25_2 t) scM25 (Memref.isWhole_whole _) (notFirst25 t h0) (isLast25 t h3) (iblk25 V c 0 t) (iblk25 V c 1 t)
      (outsAt25 V c (t.val - 1) (Nat.lt_of_le_of_lt (Nat.sub_le _ _) t.isLt)).2).symm

/-! ## The accumulator is the fold -/

/-- After position `n` the accumulator holds row `n / 4`'s fold after its step `n % 4`: by induction on the position. -/
theorem outsAt25_acc_pos (c : Dev nD) :
    ∀ (n : ℕ) (hn : n < cfg25.N), (outsAt25 V c n hn).2 = accOf25 V c (n / 4) (n % 4) := by
  intro n
  induction n with
  | zero =>
    intro hn
    exact (outsAt25_first V c ⟨0, hn⟩ (Nat.zero_mod 4)).trans (accOf25_first V c ⟨0, hn⟩ (Nat.zero_mod 4)).symm
  | succ n ih =>
    intro hn
    by_cases h0 : (n + 1) % 4 = 0
    · exact (outsAt25_first V c ⟨n + 1, hn⟩ h0).trans (accOf25_first V c ⟨n + 1, hn⟩ h0).symm
    · refine (outsAt25_next V c ⟨n + 1, hn⟩ h0).trans (Eq.trans ?_ (accOf25_next V c ⟨n + 1, hn⟩ h0).symm)
      exact congrArg (k25_pay2 (iblk25 V c 0 ⟨n + 1, hn⟩) (iblk25 V c 1 ⟨n + 1, hn⟩)) (ih (Nat.lt_of_succ_lt hn))

/-- At every grid point the accumulator holds its row's fold after the point's step. -/
theorem outsAt25_acc (c : Dev nD) (t : Fin cfg25.N) :
    (outsAt25 V c t.val t.isLt).2 = accOf25 V c (t.val / 4) (t.val % 4) :=
  outsAt25_acc_pos V c t.val t.isLt

/-- At a row's last point the output block holds the row's whole fold. -/
theorem outsAt25_out (c : Dev nD) (t : Fin cfg25.N) (h3 : t.val % 4 = 3) :
    (outsAt25 V c t.val t.isLt).1 = accOf25 V c (t.val / 4) 3 := by
  have e := outsAt25_acc V c t
  rw [h3] at e
  exact (outsAt25_last V c t h3).trans e

end Cert.KernelIdeal.Hand

end
-- ==== Proof.ValKI25b.lean ====
/- Laid out by: python3 scratch/layout_regions.py --template-region 1 --region 25 --program KernelIdeal --prefix Val --parts a,b,c --sim main_v9=main_v7,main_v25=main_v145,main_v26=main_v146 --out-dir proof/Proof
   from the hand-written text of region 1 (ValKI1b.lean): the same text, the region's number substituted. -/
/-
  Region 25 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI25a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts25 : ∀ t : Fin cfg25.N,
    win25_0.index t (0 : Fin 2) = t.val / 4 ∧ win25_0.index t (1 : Fin 2) = t.val % 4
    ∧ win25_1.index t (0 : Fin 2) = t.val % 4 ∧ win25_1.index t (1 : Fin 2) = 0
    ∧ win25_2.index t (0 : Fin 2) = t.val / 4 ∧ win25_2.index t (1 : Fin 2) = 0 :=
  (by decide +kernel : ∀ t : Fin grid25.N,
    win25_0.index t (0 : Fin 2) = t.val / 4 ∧ win25_0.index t (1 : Fin 2) = t.val % 4
    ∧ win25_1.index t (0 : Fin 2) = t.val % 4 ∧ win25_1.index t (1 : Fin 2) = 0
    ∧ win25_2.index t (0 : Fin 2) = t.val / 4 ∧ win25_2.index t (1 : Fin 2) = 0)

/-! ## The output array as one function -/

/-- The whole output array: its row 1024 r + p, column q, is entry (p, q) of the block accumulated over k = 0 … 3 in
    block row r. -/
def whole25 (c : Dev nD) : S4096x512.Idx → Elt F .f32 := fun i =>
  accOf25 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole25_apply (c : Dev nD) (r : ℕ) (y : S1024x512.Idx) (i : S4096x512.Idx)
    (h0 : (i 0).val = 1024 * r + (y 0).val) (h1 : (i 1).val = (y 1).val) :
    whole25 V c i = accOf25 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole25
  rw [hr, e]

/-- Row 1024 r + p, column q of the array is entry (p, q) of block row r's accumulated block. -/
theorem whole25_ix2 (c : Dev nD) (r : Fin 4) (p : Fin 1024) (q : Fin 512) :
    whole25 V c (ix2 (n0 := 4096) (n1 := 512) ⟨1024 * r.val + p.val, by have := r.isLt; have := p.isLt; omega⟩ q)
      = accOf25 V c r.val 3 (ix2 p q) :=
  whole25_apply V c r.val (ix2 p q) _ rfl rfl

/-! ## What a point writes back -/

/-- A point with k = 3 writes back its block of the whole-array function. -/
theorem flushed25_eq (c : Dev nD) (t : Fin cfg25.N) (hf : (cfg25.win 2).flush t = true) :
    (dat25 V c).flushed 2 t = ((cfg25.win 2).blk t).view.read (Elt F) (whole25 V c) := by
  have h3 : t.val % 4 = 3 := (flush25_2 t).mp hf
  show (cfg25.win 2).cut (grid25.coords t) ((dat25 V c).after 2 t) = _
  rw [after25_2, outsAt25_out V c t h3]
  obtain ⟨-, -, -, -, e0, e1⟩ := idxFacts25 t
  funext j
  show accOf25 V c (t.val / 4) 3 j = whole25 V c (((cfg25.win 2).blk t).view.emb j)
  refine (whole25_apply V c (t.val / 4) j _ ?_ ?_).symm
  · show win25_2.index t (0 : Fin 2) * 1024 + 1 * (j 0).val = 1024 * (t.val / 4) + (j 0).val
    rw [e0]; omega
  · show win25_2.index t (1 : Fin 2) * 512 + 1 * (j 1).val = (j 1).val
    rw [e1]; omega

/-! ## The blocks written back cover the array -/

/-- An index is in a point's output block iff each coordinate is in the block's range on its axis. -/
theorem memBlk25 (t : Fin cfg25.N) (i : S4096x512.Idx) :
    i ∈ ((cfg25.win 2).blk t).view.set ↔ ∀ a : Fin 2, win25_2.index t a * S1024x512.size a ≤ (i a).val
      ∧ (i a).val < win25_2.index t a * S1024x512.size a + S1024x512.size a := by
  show i ∈ ((View.whole main_v146).slice (win25_2.rect t)).set ↔ _
  rw [View.set_slice_whole, Rect.mem_set_unit]
  exact Iff.rfl

/-- Row i of the array lies in the block written back at the point (i / 1024, 3). -/
theorem covered25 (i : S4096x512.Idx) :
    ∃ t : Fin cfg25.N, (cfg25.win 2).flush t = true ∧ i ∈ ((cfg25.win 2).blk t).view.set := by
  have hi0 : (i 0).val < 4096 := idx2_lt0 i
  have hi1 : (i 1).val < 512 := idx2_lt1 i
  have hN : cfg25.N = 16 := N_25
  obtain ⟨t, ht⟩ : ∃ t : Fin cfg25.N, t.val = 4 * ((i 0).val / 1024) + 3 :=
    ⟨⟨4 * ((i 0).val / 1024) + 3, by rw [hN]; omega⟩, rfl⟩
  refine ⟨t, (flush25_2 t).mpr (by omega), ?_⟩
  rw [memBlk25]
  obtain ⟨-, -, -, -, e0, e1⟩ := idxFacts25 t
  intro a
  match a with
  | ⟨0, _⟩ =>
    show win25_2.index t (0 : Fin 2) * 1024 ≤ (i 0).val ∧ (i 0).val < win25_2.index t (0 : Fin 2) * 1024 + 1024
    rw [e0]; omega
  | ⟨1, _⟩ =>
    show win25_2.index t (1 : Fin 2) * 512 ≤ (i 1).val ∧ (i 1).val < win25_2.index t (1 : Fin 2) * 512 + 512
    rw [e1]; omega

/-! ## The three arrays after the region -/

/-- The output array after the region is the whole-array function. -/
theorem final25_2 (c : Dev nD) : (dat25 V c).arrAt 2 cfg25.N = whole25 V c :=
  (dat25 V c).arrAt_eq_of_cover 2 (whole25 V c) (flushed25_eq V c) covered25

/-- The two input arrays are as the region found them. -/
theorem final25_0 (c : Dev nD) : (dat25 V c).arrAt 0 cfg25.N = V c main_v7 :=
  ((dat25 V c).arrAt_in 0 rfl cfg25.N).trans (A_eq25 V c 0)
theorem final25_1 (c : Dev nD) : (dat25 V c).arrAt 1 cfg25.N = V c main_v145 :=
  ((dat25 V c).arrAt_in 1 rfl cfg25.N).trans (A_eq25 V c 1)

/-! ## The input blocks as blocks of the operand arrays -/

/-- The left operand's block at the point (r, k): entry (y₀, y₁) is the array's entry (1024 r + y₀, 1024 k + y₁). -/
theorem iblk25_lhs_apply (c : Dev nD) (r k : Fin 4) (y : S1024x1024.Idx) (i : S4096x4096.Idx)
    (h0 : (i 0).val = 1024 * r.val + (y 0).val) (h1 : (i 1).val = 1024 * k.val + (y 1).val) :
    iblk25_lhs V c (4 * r.val + k.val) y = (V c main_v7 : S4096x4096.Idx → Elt F .bf16) i := by
  have hN : cfg25.N = 16 := N_25
  have hr := r.isLt
  have hk := k.isLt
  have hlt : 4 * r.val + k.val < cfg25.N := by rw [hN]; omega
  rw [iblk25_lhs_eq V c _ hlt]
  obtain ⟨e0, e1, -, -, -, -⟩ := idxFacts25 ⟨4 * r.val + k.val, hlt⟩
  have e0' : win25_0.index ⟨4 * r.val + k.val, hlt⟩ (0 : Fin 2) = (4 * r.val + k.val) / 4 := e0
  have e1' : win25_0.index ⟨4 * r.val + k.val, hlt⟩ (1 : Fin 2) = (4 * r.val + k.val) % 4 := e1
  unfold iblk25
  rw [View.read_apply]
  show V c main_v7 (((cfg25.win 0).blk ⟨4 * r.val + k.val, hlt⟩).view.emb y) = V c main_v7 i
  congr 1
  funext a
  apply Fin.ext
  match a with
  | ⟨0, _⟩ =>
    show win25_0.index ⟨4 * r.val + k.val, hlt⟩ (0 : Fin 2) * 1024 + 1 * (y 0).val = (i 0).val
    rw [e0', h0]; omega
  | ⟨1, _⟩ =>
    show win25_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk25_rhs_apply (c : Dev nD) (r k : Fin 4) (y : S1024x512.Idx) (i : S4096x512.Idx)
    (h0 : (i 0).val = 1024 * k.val + (y 0).val) (h1 : (i 1).val = (y 1).val) :
    iblk25_rhs V c (4 * r.val + k.val) y = (V c main_v145 : S4096x512.Idx → Elt F .f32) i := by
  have hN : cfg25.N = 16 := N_25
  have hr := r.isLt
  have hk := k.isLt
  have hlt : 4 * r.val + k.val < cfg25.N := by rw [hN]; omega
  rw [iblk25_rhs_eq V c _ hlt]
  obtain ⟨-, -, e0, e1, -, -⟩ := idxFacts25 ⟨4 * r.val + k.val, hlt⟩
  have e0' : win25_1.index ⟨4 * r.val + k.val, hlt⟩ (0 : Fin 2) = (4 * r.val + k.val) % 4 := e0
  have e1' : win25_1.index ⟨4 * r.val + k.val, hlt⟩ (1 : Fin 2) = 0 := e1
  unfold iblk25
  rw [View.read_apply]
  show V c main_v145 (((cfg25.win 1).blk ⟨4 * r.val + k.val, hlt⟩).view.emb y) = V c main_v145 i
  congr 1
  funext a
  apply Fin.ext
  match a with
  | ⟨0, _⟩ =>
    show win25_1.index ⟨4 * r.val + k.val, hlt⟩ (0 : Fin 2) * 1024 + 1 * (y 0).val = (i 0).val
    rw [e0', h0]; omega
  | ⟨1, _⟩ =>
    show win25_1.index ⟨4 * r.val + k.val, hlt⟩ (1 : Fin 2) * 512 + 1 * (y 1).val = (i 1).val
    rw [e1', h1]; omega

/-- The accumulated block after the fourth step, unfolded: four steps from the zero block. -/
theorem accOf25_three (c : Dev nD) (r : ℕ) :
    accOf25 V c r 3
      = k25_pay2 (iblk25_lhs V c (4 * r + 3)) (iblk25_rhs V c (4 * r + 3))
          (k25_pay2 (iblk25_lhs V c (4 * r + 2)) (iblk25_rhs V c (4 * r + 2))
            (k25_pay2 (iblk25_lhs V c (4 * r + 1)) (iblk25_rhs V c (4 * r + 1))
              (k25_pay2 (iblk25_lhs V c (4 * r)) (iblk25_rhs V c (4 * r)) (k25_pay1 (F := F))))) := rfl

end Cert.KernelIdeal.Hand

end
-- ==== Proof.ValKI25c.lean ====
/- Laid out by: python3 scratch/layout_regions.py --template-region 1 --region 25 --program KernelIdeal --prefix Val --parts a,b,c --sim main_v9=main_v7,main_v25=main_v145,main_v26=main_v146 --out-dir proof/Proof
   from the hand-written text of region 1 (ValKI1c.lean): the same text, the region's number substituted. -/
/-
  Region 25 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI25b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf25_step (x0 : Vec Ideal S1024x1024 .bf16) (x1 acc : Vec Ideal S1024x512 .f32) :
    k25_pay2 (F := Ideal) x0 x1 acc
      = Cert.MMLaw.accStep dot_S1024x1024_S1024x512_S1024x512_1_0_0_1_n_n none x0 x1 acc := by
  unfold k25_pay2
  simp only [shapeCast_self]
  rfl

/-- The accumulator starts from the zero block. -/
theorem accOf25_init (j : S1024x512.Idx) : k25_pay1 (F := Ideal) j = 0 := by
  unfold k25_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf25_eq_blk (c : Dev nD) (r : Fin 4) (D : DotDims S4096x4096 S4096x512 S4096x512) (hD : Cert.MMLaw.IsPlain D)
    (prec : Option ContractPrecision) :
    accOf25 V c r.val 3
      = Cert.MMLaw.blk (nr := 4) (nc := 1) 1024 512 rfl rfl (Cert.MMLaw.whole D prec (V c main_v7) (V c main_v145)) r 0 := by
  rw [accOf25_three]
  simp only [accOf25_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v7) (V c main_v145) r 0
    (fun k => iblk25_lhs V c (4 * r.val + k.val)) (fun k => iblk25_rhs V c (4 * r.val + k.val))
    (fun k => funext fun y => iblk25_lhs_apply V c r k y _ rfl rfl)
    (fun k => funext fun y => iblk25_rhs_apply V c r k y _ rfl (by show 512 * 0 + (y 1).val = (y 1).val; omega))
    (k25_pay1 (F := Ideal)) accOf25_init

/-! ## The output array after the region is the whole product -/

/-- The region leaves in its output array the product of its two operand arrays. -/
theorem final25_2_eq_whole (c : Dev nD) (D : DotDims S4096x4096 S4096x512 S4096x512) (hD : Cert.MMLaw.IsPlain D)
    (prec : Option ContractPrecision) :
    (dat25 (F := Ideal) V c).arrAt 2 cfg25.N = Cert.MMLaw.whole D prec (V c main_v7) (V c main_v145) := by
  rw [final25_2]
  funext i
  have hi0 : (i 0).val < 4096 := idx2_lt0 i
  have h := congrFun (accOf25_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final25_2_eq_dot (c : Dev nD) (D : DotDims S4096x4096 S4096x512 S4096x512) (hD : Cert.MMLaw.IsPlain D)
    (prec : Option ContractPrecision) :
    (dat25 (F := Ideal) V c).arrAt 2 cfg25.N = Host.dotGeneral (F := Ideal) (φ₁ := .bf16) (φ₂ := .f32) D prec (V c main_v7) (V c main_v145) :=
  final25_2_eq_whole V c D hD prec

end Cert.KernelIdeal.Hand

end
-- ==== Proof.ValKI26a.lean ====
/- Laid out by: python3 scratch/layout_regions.py --template-region 1 --region 26 --program KernelIdeal --prefix Val --parts a,b,c --sim main_v9=main_v8,main_v25=main_v148,main_v26=main_v150 --out-dir proof/Proof
   from the hand-written text of region 1 (ValKI1a.lean): the same text, the region's number substituted. -/
/-
  Region 26 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k26_pay1` (the zero block) and `k26_pay2` (accumulator plus product) are the two stores' payloads.

  So along one row of blocks r the accumulator after its step k is the left fold
    accOf26 r 0 = pay2 (a (r, 0)) (b 0) pay1,    accOf26 r (k + 1) = pay2 (a (r, k + 1)) (b (k + 1)) (accOf26 r k),
  the grid point (r, k) being position 4 r + k; and at k = 3 the output block holds accOf26 r 3.
-/
import proofs.«158944_j64613488001249_1_alg».proof.Proof.RegKI26
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout26_A_eq (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond26_0 i) (hc1 : ¬cond26_1 i)
    (x0 : Vec F S1024x1024 .bf16) (x1 : Vec F S1024x512 .f32) :
    sout26_A c i arg2 harg2 arg3 harg3 arg4 harg4 arg5 harg5 hc0 hc1 x0 x1 = k26_pay2 x0 x1 (k26_pay1 (F := F)) := by
  have hz : (![0, 0] : Fin 2 → Nat) = fun _ => 0 := funext fun a => by fin_cases a <;> rfl
  unfold sout26_A
  rw [View.read_writes_eq_canon _ _ _ (scover26_A c i arg2 harg2 arg3 harg3 arg4 harg4 arg5 harg5 hc0 hc1 x0 x1)]
  unfold kernelRun26_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout26_B_eq (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond26_0 i) (hc1 : ¬cond26_1 i)
    (x0 : Vec F S1024x1024 .bf16) (x1 : Vec F S1024x512 .f32) (xs0 : Vec F S1024x512 .f32) :
    sout26_B c i arg2 harg2 arg3 harg3 arg4 harg4 arg5 harg5 hc0 hc1 x0 x1 xs0 = k26_pay2 x0 x1 xs0 := by
  have hz : (![0, 0] : Fin 2 → Nat) = fun _ => 0 := funext fun a => by fin_cases a <;> rfl
  unfold sout26_B
  rw [View.read_writes_eq_canon _ _ _ (scover26_B c i arg2 harg2 arg3 harg3 arg4 harg4 arg5 harg5 hc0 hc1 x0 x1 xs0)]
  unfold kernelRun26_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout26_C_eq (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond26_0 i) (hc1 : cond26_1 i)
    (x0 : Vec F S1024x1024 .bf16) (x1 : Vec F S1024x512 .f32) (xs0 : Vec F S1024x512 .f32) :
    sout26_C c i arg2 harg2 arg3 harg3 arg4 harg4 arg5 harg5 hc0 hc1 x0 x1 xs0 = k26_pay2 x0 x1 xs0 := by
  have hz : (![0, 0] : Fin 2 → Nat) = fun _ => 0 := funext fun a => by fin_cases a <;> rfl
  unfold sout26_C
  rw [View.read_writes_eq_canon _ _ _ (scover26_C c i arg2 harg2 arg3 harg3 arg4 harg4 arg5 harg5 hc0 hc1 x0 x1 xs0)]
  unfold kernelRun26_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out26_C_eq (c : Dev nD) (i : grid26.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond26_0 i) (hc1 : cond26_1 i)
    (x0 : Vec F S1024x1024 .bf16) (x1 : Vec F S1024x512 .f32) (xs0 : Vec F S1024x512 .f32) :
    out26_C c i arg2 harg2 arg3 harg3 arg4 harg4 arg5 harg5 hc0 hc1 x0 x1 xs0 = k26_pay2 x0 x1 xs0 := by
  have hz : (![0, 0] : Fin 2 → Nat) = fun _ => 0 := funext fun a => by fin_cases a <;> rfl
  unfold out26_C
  rw [View.read_writes_eq_canon _ _ _ (cover26_C c i arg2 harg2 arg3 harg3 arg4 harg4 arg5 harg5 hc0 hc1 x0 x1 xs0)]
  unfold kernelRun26_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk26_lhs (c : Dev nD) (n : ℕ) : Vec F S1024x1024 .bf16 :=
  if h : n < cfg26.N then iblk26 V c 0 ⟨n, h⟩ else iblk26 V c 0 ⟨0, by have h : cfg26.N = 16 := N_26; omega⟩
/-- The right factor's block at grid position `n`. -/
def iblk26_rhs (c : Dev nD) (n : ℕ) : Vec F S1024x512 .f32 :=
  if h : n < cfg26.N then iblk26 V c 1 ⟨n, h⟩ else iblk26 V c 1 ⟨0, by have h : cfg26.N = 16 := N_26; omega⟩

theorem iblk26_lhs_eq (c : Dev nD) (n : ℕ) (h : n < cfg26.N) : iblk26_lhs V c n = iblk26 V c 0 ⟨n, h⟩ := dif_pos h
theorem iblk26_rhs_eq (c : Dev nD) (n : ℕ) (h : n < cfg26.N) : iblk26_rhs V c n = iblk26 V c 1 ⟨n, h⟩ := dif_pos h

/-! ## The accumulator along one row of blocks -/

/-- Row of blocks `r`, after its step `k`: the zero block plus the products of the blocks at positions 4 r, …, 4 r + k,
    added in that order. -/
def accOf26 (c : Dev nD) (r : ℕ) : ℕ → Vec F S1024x512 .f32
  | 0 => k26_pay2 (iblk26_lhs V c (4 * r)) (iblk26_rhs V c (4 * r)) (k26_pay1 (F := F))
  | k + 1 => k26_pay2 (iblk26_lhs V c (4 * r + (k + 1))) (iblk26_rhs V c (4 * r + (k + 1))) (accOf26 c r k)

theorem accOf26_zero (c : Dev nD) (r : ℕ) :
    accOf26 V c r 0 = k26_pay2 (iblk26_lhs V c (4 * r)) (iblk26_rhs V c (4 * r)) (k26_pay1 (F := F)) := rfl
theorem accOf26_succ (c : Dev nD) (r k : ℕ) :
    accOf26 V c r (k + 1) = k26_pay2 (iblk26_lhs V c (4 * r + (k + 1))) (iblk26_rhs V c (4 * r + (k + 1))) (accOf26 V c r k) := rfl

theorem iblk26_lhs_at (c : Dev nD) (t : Fin cfg26.N) (n : ℕ) (hn : n = t.val) : iblk26_lhs V c n = iblk26 V c 0 t := by
  subst hn; unfold iblk26_lhs; exact dif_pos t.isLt
theorem iblk26_rhs_at (c : Dev nD) (t : Fin cfg26.N) (n : ℕ) (hn : n = t.val) : iblk26_rhs V c n = iblk26 V c 1 t := by
  subst hn; unfold iblk26_rhs; exact dif_pos t.isLt

/-- At a grid point with k = 0 the fold starts: the zero block plus the product of the point's two blocks. -/
theorem accOf26_first (c : Dev nD) (t : Fin cfg26.N) (h0 : t.val % 4 = 0) :
    accOf26 V c (t.val / 4) (t.val % 4) = k26_pay2 (iblk26 V c 0 t) (iblk26 V c 1 t) (k26_pay1 (F := F)) := by
  rw [h0, accOf26_zero, iblk26_lhs_at V c t (4 * (t.val / 4)) (by omega), iblk26_rhs_at V c t (4 * (t.val / 4)) (by omega)]

/-- At a grid point with k ≠ 0 the fold takes one step from the position before, which is in the same row of blocks. -/
theorem accOf26_next (c : Dev nD) (t : Fin cfg26.N) (h0 : ¬t.val % 4 = 0) :
    accOf26 V c (t.val / 4) (t.val % 4)
      = k26_pay2 (iblk26 V c 0 t) (iblk26 V c 1 t) (accOf26 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf26_succ, iblk26_lhs_at V c t (4 * (t.val / 4) + (k + 1)) (by omega),
    iblk26_rhs_at V c t (4 * (t.val / 4) + (k + 1)) (by omega)]

/-! ## The accumulator and the output block, point by point, as pure functions of the blocks -/

/-- k = 0: the accumulator restarts from the zero block. -/
theorem outsAt26_first (c : Dev nD) (t : Fin cfg26.N) (h0 : t.val % 4 = 0) :
    (outsAt26 V c t.val t.isLt).2 = k26_pay2 (iblk26 V c 0 t) (iblk26 V c 1 t) (k26_pay1 (F := F)) := by
  rw [outsAt26_A V c t h0]
  dsimp only
  exact sout26_A_eq c (grid26.coords t) (ms26_0 t) (hs26_0 t) (ms26_1 t) (hs26_1 t) (ms26_2 t) (hs26_2 t) scM26 (Memref.isWhole_whole _) (isFirst26 t h0) (notLast26 t (by omega)) (iblk26 V c 0 t) (iblk26 V c 1 t)

/-- k ≠ 0: the point's product is added to what the point before left. -/
theorem outsAt26_next (c : Dev nD) (t : Fin cfg26.N) (h0 : ¬t.val % 4 = 0) :
    (outsAt26 V c t.val t.isLt).2
      = k26_pay2 (iblk26 V c 0 t) (iblk26 V c 1 t) (outsAt26 V c (t.val - 1) (Nat.lt_of_le_of_lt (Nat.sub_le _ _) t.isLt)).2 := by
  by_cases h3 : t.val % 4 = 3
  · rw [outsAt26_C V c t h0 h3]
    dsimp only
    exact sout26_C_eq c (grid26.coords t) (ms26_0 t) (hs26_0 t) (ms26_1 t) (hs26_1 t) (ms26_2 t) (hs26_2 t) scM26 (Memref.isWhole_whole _) (notFirst26 t h0) (isLast26 t h3) (iblk26 V c 0 t) (iblk26 V c 1 t)
      (outsAt26 V c (t.val - 1) (Nat.lt_of_le_of_lt (Nat.sub_le _ _) t.isLt)).2
  · rw [outsAt26_B V c t h0 h3]
    dsimp only
    exact sout26_B_eq c (grid26.coords t) (ms26_0 t) (hs26_0 t) (ms26_1 t) (hs26_1 t) (ms26_2 t) (hs26_2 t) scM26 (Memref.isWhole_whole _) (notFirst26 t h0) (notLast26 t h3) (iblk26 V c 0 t) (iblk26 V c 1 t)
      (outsAt26 V c (t.val - 1) (Nat.lt_of_le_of_lt (Nat.sub_le _ _) t.isLt)).2

/-- k = 3: the output block is the accumulator. -/
theorem outsAt26_last (c : Dev nD) (t : Fin cfg26.N) (h3 : t.val % 4 = 3) :
    (outsAt26 V c t.val t.isLt).1 = (outsAt26 V c t.val t.isLt).2 := by
  have h0 : ¬t.val % 4 = 0 := by omega
  rw [outsAt26_C V c t h0 h3]
  dsimp only
  exact (out26_C_eq c (grid26.coords t) (ms26_0 t) (hs26_0 t) (ms26_1 t) (hs26_1 t) (ms26_2 t) (hs26_2 t) scM26 (Memref.isWhole_whole _) (notFirst26 t h0) (isLast26 t h3) (iblk26 V c 0 t) (iblk26 V c 1 t)
      (outsAt26 V c (t.val - 1) (Nat.lt_of_le_of_lt (Nat.sub_le _ _) t.isLt)).2).trans
    (sout26_C_eq c (grid26.coords t) (ms26_0 t) (hs26_0 t) (ms26_1 t) (hs26_1 t) (ms26_2 t) (hs26_2 t) scM26 (Memref.isWhole_whole _) (notFirst26 t h0) (isLast26 t h3) (iblk26 V c 0 t) (iblk26 V c 1 t)
      (outsAt26 V c (t.val - 1) (Nat.lt_of_le_of_lt (Nat.sub_le _ _) t.isLt)).2).symm

/-! ## The accumulator is the fold -/

/-- After position `n` the accumulator holds row `n / 4`'s fold after its step `n % 4`: by induction on the position. -/
theorem outsAt26_acc_pos (c : Dev nD) :
    ∀ (n : ℕ) (hn : n < cfg26.N), (outsAt26 V c n hn).2 = accOf26 V c (n / 4) (n % 4) := by
  intro n
  induction n with
  | zero =>
    intro hn
    exact (outsAt26_first V c ⟨0, hn⟩ (Nat.zero_mod 4)).trans (accOf26_first V c ⟨0, hn⟩ (Nat.zero_mod 4)).symm
  | succ n ih =>
    intro hn
    by_cases h0 : (n + 1) % 4 = 0
    · exact (outsAt26_first V c ⟨n + 1, hn⟩ h0).trans (accOf26_first V c ⟨n + 1, hn⟩ h0).symm
    · refine (outsAt26_next V c ⟨n + 1, hn⟩ h0).trans (Eq.trans ?_ (accOf26_next V c ⟨n + 1, hn⟩ h0).symm)
      exact congrArg (k26_pay2 (iblk26 V c 0 ⟨n + 1, hn⟩) (iblk26 V c 1 ⟨n + 1, hn⟩)) (ih (Nat.lt_of_succ_lt hn))

/-- At every grid point the accumulator holds its row's fold after the point's step. -/
theorem outsAt26_acc (c : Dev nD) (t : Fin cfg26.N) :
    (outsAt26 V c t.val t.isLt).2 = accOf26 V c (t.val / 4) (t.val % 4) :=
  outsAt26_acc_pos V c t.val t.isLt

/-- At a row's last point the output block holds the row's whole fold. -/
theorem outsAt26_out (c : Dev nD) (t : Fin cfg26.N) (h3 : t.val % 4 = 3) :
    (outsAt26 V c t.val t.isLt).1 = accOf26 V c (t.val / 4) 3 := by
  have e := outsAt26_acc V c t
  rw [h3] at e
  exact (outsAt26_last V c t h3).trans e

end Cert.KernelIdeal.Hand

end
-- ==== Proof.ValKI26b.lean ====
/- Laid out by: python3 scratch/layout_regions.py --template-region 1 --region 26 --program KernelIdeal --prefix Val --parts a,b,c --sim main_v9=main_v8,main_v25=main_v148,main_v26=main_v150 --out-dir proof/Proof
   from the hand-written text of region 1 (ValKI1b.lean): the same text, the region's number substituted. -/
/-
  Region 26 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI26a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts26 : ∀ t : Fin cfg26.N,
    win26_0.index t (0 : Fin 2) = t.val / 4 ∧ win26_0.index t (1 : Fin 2) = t.val % 4
    ∧ win26_1.index t (0 : Fin 2) = t.val % 4 ∧ win26_1.index t (1 : Fin 2) = 0
    ∧ win26_2.index t (0 : Fin 2) = t.val / 4 ∧ win26_2.index t (1 : Fin 2) = 0 :=
  (by decide +kernel : ∀ t : Fin grid26.N,
    win26_0.index t (0 : Fin 2) = t.val / 4 ∧ win26_0.index t (1 : Fin 2) = t.val % 4
    ∧ win26_1.index t (0 : Fin 2) = t.val % 4 ∧ win26_1.index t (1 : Fin 2) = 0
    ∧ win26_2.index t (0 : Fin 2) = t.val / 4 ∧ win26_2.index t (1 : Fin 2) = 0)

/-! ## The output array as one function -/

/-- The whole output array: its row 1024 r + p, column q, is entry (p, q) of the block accumulated over k = 0 … 3 in
    block row r. -/
def whole26 (c : Dev nD) : S4096x512.Idx → Elt F .f32 := fun i =>
  accOf26 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole26_apply (c : Dev nD) (r : ℕ) (y : S1024x512.Idx) (i : S4096x512.Idx)
    (h0 : (i 0).val = 1024 * r + (y 0).val) (h1 : (i 1).val = (y 1).val) :
    whole26 V c i = accOf26 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole26
  rw [hr, e]

/-- Row 1024 r + p, column q of the array is entry (p, q) of block row r's accumulated block. -/
theorem whole26_ix2 (c : Dev nD) (r : Fin 4) (p : Fin 1024) (q : Fin 512) :
    whole26 V c (ix2 (n0 := 4096) (n1 := 512) ⟨1024 * r.val + p.val, by have := r.isLt; have := p.isLt; omega⟩ q)
      = accOf26 V c r.val 3 (ix2 p q) :=
  whole26_apply V c r.val (ix2 p q) _ rfl rfl

/-! ## What a point writes back -/

/-- A point with k = 3 writes back its block of the whole-array function. -/
theorem flushed26_eq (c : Dev nD) (t : Fin cfg26.N) (hf : (cfg26.win 2).flush t = true) :
    (dat26 V c).flushed 2 t = ((cfg26.win 2).blk t).view.read (Elt F) (whole26 V c) := by
  have h3 : t.val % 4 = 3 := (flush26_2 t).mp hf
  show (cfg26.win 2).cut (grid26.coords t) ((dat26 V c).after 2 t) = _
  rw [after26_2, outsAt26_out V c t h3]
  obtain ⟨-, -, -, -, e0, e1⟩ := idxFacts26 t
  funext j
  show accOf26 V c (t.val / 4) 3 j = whole26 V c (((cfg26.win 2).blk t).view.emb j)
  refine (whole26_apply V c (t.val / 4) j _ ?_ ?_).symm
  · show win26_2.index t (0 : Fin 2) * 1024 + 1 * (j 0).val = 1024 * (t.val / 4) + (j 0).val
    rw [e0]; omega
  · show win26_2.index t (1 : Fin 2) * 512 + 1 * (j 1).val = (j 1).val
    rw [e1]; omega

/-! ## The blocks written back cover the array -/

/-- An index is in a point's output block iff each coordinate is in the block's range on its axis. -/
theorem memBlk26 (t : Fin cfg26.N) (i : S4096x512.Idx) :
    i ∈ ((cfg26.win 2).blk t).view.set ↔ ∀ a : Fin 2, win26_2.index t a * S1024x512.size a ≤ (i a).val
      ∧ (i a).val < win26_2.index t a * S1024x512.size a + S1024x512.size a := by
  show i ∈ ((View.whole main_v150).slice (win26_2.rect t)).set ↔ _
  rw [View.set_slice_whole, Rect.mem_set_unit]
  exact Iff.rfl

/-- Row i of the array lies in the block written back at the point (i / 1024, 3). -/
theorem covered26 (i : S4096x512.Idx) :
    ∃ t : Fin cfg26.N, (cfg26.win 2).flush t = true ∧ i ∈ ((cfg26.win 2).blk t).view.set := by
  have hi0 : (i 0).val < 4096 := idx2_lt0 i
  have hi1 : (i 1).val < 512 := idx2_lt1 i
  have hN : cfg26.N = 16 := N_26
  obtain ⟨t, ht⟩ : ∃ t : Fin cfg26.N, t.val = 4 * ((i 0).val / 1024) + 3 :=
    ⟨⟨4 * ((i 0).val / 1024) + 3, by rw [hN]; omega⟩, rfl⟩
  refine ⟨t, (flush26_2 t).mpr (by omega), ?_⟩
  rw [memBlk26]
  obtain ⟨-, -, -, -, e0, e1⟩ := idxFacts26 t
  intro a
  match a with
  | ⟨0, _⟩ =>
    show win26_2.index t (0 : Fin 2) * 1024 ≤ (i 0).val ∧ (i 0).val < win26_2.index t (0 : Fin 2) * 1024 + 1024
    rw [e0]; omega
  | ⟨1, _⟩ =>
    show win26_2.index t (1 : Fin 2) * 512 ≤ (i 1).val ∧ (i 1).val < win26_2.index t (1 : Fin 2) * 512 + 512
    rw [e1]; omega

/-! ## The three arrays after the region -/

/-- The output array after the region is the whole-array function. -/
theorem final26_2 (c : Dev nD) : (dat26 V c).arrAt 2 cfg26.N = whole26 V c :=
  (dat26 V c).arrAt_eq_of_cover 2 (whole26 V c) (flushed26_eq V c) covered26

/-- The two input arrays are as the region found them. -/
theorem final26_0 (c : Dev nD) : (dat26 V c).arrAt 0 cfg26.N = V c main_v8 :=
  ((dat26 V c).arrAt_in 0 rfl cfg26.N).trans (A_eq26 V c 0)
theorem final26_1 (c : Dev nD) : (dat26 V c).arrAt 1 cfg26.N = V c main_v148 :=
  ((dat26 V c).arrAt_in 1 rfl cfg26.N).trans (A_eq26 V c 1)

/-! ## The input blocks as blocks of the operand arrays -/

/-- The left operand's block at the point (r, k): entry (y₀, y₁) is the array's entry (1024 r + y₀, 1024 k + y₁). -/
theorem iblk26_lhs_apply (c : Dev nD) (r k : Fin 4) (y : S1024x1024.Idx) (i : S4096x4096.Idx)
    (h0 : (i 0).val = 1024 * r.val + (y 0).val) (h1 : (i 1).val = 1024 * k.val + (y 1).val) :
    iblk26_lhs V c (4 * r.val + k.val) y = (V c main_v8 : S4096x4096.Idx → Elt F .bf16) i := by
  have hN : cfg26.N = 16 := N_26
  have hr := r.isLt
  have hk := k.isLt
  have hlt : 4 * r.val + k.val < cfg26.N := by rw [hN]; omega
  rw [iblk26_lhs_eq V c _ hlt]
  obtain ⟨e0, e1, -, -, -, -⟩ := idxFacts26 ⟨4 * r.val + k.val, hlt⟩
  have e0' : win26_0.index ⟨4 * r.val + k.val, hlt⟩ (0 : Fin 2) = (4 * r.val + k.val) / 4 := e0
  have e1' : win26_0.index ⟨4 * r.val + k.val, hlt⟩ (1 : Fin 2) = (4 * r.val + k.val) % 4 := e1
  unfold iblk26
  rw [View.read_apply]
  show V c main_v8 (((cfg26.win 0).blk ⟨4 * r.val + k.val, hlt⟩).view.emb y) = V c main_v8 i
  congr 1
  funext a
  apply Fin.ext
  match a with
  | ⟨0, _⟩ =>
    show win26_0.index ⟨4 * r.val + k.val, hlt⟩ (0 : Fin 2) * 1024 + 1 * (y 0).val = (i 0).val
    rw [e0', h0]; omega
  | ⟨1, _⟩ =>
    show win26_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk26_rhs_apply (c : Dev nD) (r k : Fin 4) (y : S1024x512.Idx) (i : S4096x512.Idx)
    (h0 : (i 0).val = 1024 * k.val + (y 0).val) (h1 : (i 1).val = (y 1).val) :
    iblk26_rhs V c (4 * r.val + k.val) y = (V c main_v148 : S4096x512.Idx → Elt F .f32) i := by
  have hN : cfg26.N = 16 := N_26
  have hr := r.isLt
  have hk := k.isLt
  have hlt : 4 * r.val + k.val < cfg26.N := by rw [hN]; omega
  rw [iblk26_rhs_eq V c _ hlt]
  obtain ⟨-, -, e0, e1, -, -⟩ := idxFacts26 ⟨4 * r.val + k.val, hlt⟩
  have e0' : win26_1.index ⟨4 * r.val + k.val, hlt⟩ (0 : Fin 2) = (4 * r.val + k.val) % 4 := e0
  have e1' : win26_1.index ⟨4 * r.val + k.val, hlt⟩ (1 : Fin 2) = 0 := e1
  unfold iblk26
  rw [View.read_apply]
  show V c main_v148 (((cfg26.win 1).blk ⟨4 * r.val + k.val, hlt⟩).view.emb y) = V c main_v148 i
  congr 1
  funext a
  apply Fin.ext
  match a with
  | ⟨0, _⟩ =>
    show win26_1.index ⟨4 * r.val + k.val, hlt⟩ (0 : Fin 2) * 1024 + 1 * (y 0).val = (i 0).val
    rw [e0', h0]; omega
  | ⟨1, _⟩ =>
    show win26_1.index ⟨4 * r.val + k.val, hlt⟩ (1 : Fin 2) * 512 + 1 * (y 1).val = (i 1).val
    rw [e1', h1]; omega

/-- The accumulated block after the fourth step, unfolded: four steps from the zero block. -/
theorem accOf26_three (c : Dev nD) (r : ℕ) :
    accOf26 V c r 3
      = k26_pay2 (iblk26_lhs V c (4 * r + 3)) (iblk26_rhs V c (4 * r + 3))
          (k26_pay2 (iblk26_lhs V c (4 * r + 2)) (iblk26_rhs V c (4 * r + 2))
            (k26_pay2 (iblk26_lhs V c (4 * r + 1)) (iblk26_rhs V c (4 * r + 1))
              (k26_pay2 (iblk26_lhs V c (4 * r)) (iblk26_rhs V c (4 * r)) (k26_pay1 (F := F))))) := rfl

end Cert.KernelIdeal.Hand

end
-- ==== Proof.ValKI26c.lean ====
/- Laid out by: python3 scratch/layout_regions.py --template-region 1 --region 26 --program KernelIdeal --prefix Val --parts a,b,c --sim main_v9=main_v8,main_v25=main_v148,main_v26=main_v150 --out-dir proof/Proof
   from the hand-written text of region 1 (ValKI1c.lean): the same text, the region's number substituted. -/
/-
  Region 26 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI26b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf26_step (x0 : Vec Ideal S1024x1024 .bf16) (x1 acc : Vec Ideal S1024x512 .f32) :
    k26_pay2 (F := Ideal) x0 x1 acc
      = Cert.MMLaw.accStep dot_S1024x1024_S1024x512_S1024x512_1_0_0_1_n_n none x0 x1 acc := by
  unfold k26_pay2
  simp only [shapeCast_self]
  rfl

/-- The accumulator starts from the zero block. -/
theorem accOf26_init (j : S1024x512.Idx) : k26_pay1 (F := Ideal) j = 0 := by
  unfold k26_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf26_eq_blk (c : Dev nD) (r : Fin 4) (D : DotDims S4096x4096 S4096x512 S4096x512) (hD : Cert.MMLaw.IsPlain D)
    (prec : Option ContractPrecision) :
    accOf26 V c r.val 3
      = Cert.MMLaw.blk (nr := 4) (nc := 1) 1024 512 rfl rfl (Cert.MMLaw.whole D prec (V c main_v8) (V c main_v148)) r 0 := by
  rw [accOf26_three]
  simp only [accOf26_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v8) (V c main_v148) r 0
    (fun k => iblk26_lhs V c (4 * r.val + k.val)) (fun k => iblk26_rhs V c (4 * r.val + k.val))
    (fun k => funext fun y => iblk26_lhs_apply V c r k y _ rfl rfl)
    (fun k => funext fun y => iblk26_rhs_apply V c r k y _ rfl (by show 512 * 0 + (y 1).val = (y 1).val; omega))
    (k26_pay1 (F := Ideal)) accOf26_init

/-! ## The output array after the region is the whole product -/

/-- The region leaves in its output array the product of its two operand arrays. -/
theorem final26_2_eq_whole (c : Dev nD) (D : DotDims S4096x4096 S4096x512 S4096x512) (hD : Cert.MMLaw.IsPlain D)
    (prec : Option ContractPrecision) :
    (dat26 (F := Ideal) V c).arrAt 2 cfg26.N = Cert.MMLaw.whole D prec (V c main_v8) (V c main_v148) := by
  rw [final26_2]
  funext i
  have hi0 : (i 0).val < 4096 := idx2_lt0 i
  have h := congrFun (accOf26_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final26_2_eq_dot (c : Dev nD) (D : DotDims S4096x4096 S4096x512 S4096x512) (hD : Cert.MMLaw.IsPlain D)
    (prec : Option ContractPrecision) :
    (dat26 (F := Ideal) V c).arrAt 2 cfg26.N = Host.dotGeneral (F := Ideal) (φ₁ := .bf16) (φ₂ := .f32) D prec (V c main_v8) (V c main_v148) :=
  final26_2_eq_whole V c D hD prec

end Cert.KernelIdeal.Hand

end
-- ==== Proof.ValKI27a.lean ====
/- Laid out by: python3 scratch/layout_grid41.py --prefix Val --template-region 0 --region 27 --program KernelIdeal --parts a,b --shapes S1024x128=S1024x512,S128x512=S512x512,S1024x512=S1024x512,S4096x128=S4096x512,S4096x512=S4096x512,main_arg0=main_v153,main_v12=main_v10,main_v17=main_v154,h0=h0,e0=e0,hi0=hi0,x0=x0
   from the hand-written text of region 0 (ValKI0a.lean): the same text, the region's number, block shapes, operand arrays substituted. -/
/-
  Region 27 of @main: from the output blocks to the whole output array.

  The grid is [4, 1]: the point t is block row t, and the reduction axis has one step, so every point zeroes the
  accumulator, adds the product of its two input blocks, and writes the sum back. The output window's block at t is
  rows 1024 t … 1024 t + 1023 of the result, written back at every point. So the array after the region is ONE function
  of the index: row 1024 r + p, column q holds entry (p, q) of the block the point r leaves. The steps: the three windows'
  block indices decided once over the grid; what a point writes back is its block of that function; the four blocks
  written back cover the array (row i lies in the block of the point i / 1024); hence the array after the region. The two
  operand arrays are not written. Last, each input block as a block of its operand array: the left operand's block at the
  point t is its rows 1024 t … 1024 t + 1023 (every column), the right operand's block is the whole array at every point.
-/
import proofs.«158944_j64613488001249_1_alg».proof.Proof.RegKI27
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t the left operand's block is (t, 0), the right operand's (0, 0), the output's (t, 0). -/
theorem idxFacts27 : ∀ t : Fin cfg27.N,
    win27_0.index t (0 : Fin 2) = t.val ∧ win27_0.index t (1 : Fin 2) = 0
    ∧ win27_1.index t (0 : Fin 2) = 0 ∧ win27_1.index t (1 : Fin 2) = 0
    ∧ win27_2.index t (0 : Fin 2) = t.val ∧ win27_2.index t (1 : Fin 2) = 0 :=
  (by decide +kernel : ∀ t : Fin grid27.N,
    win27_0.index t (0 : Fin 2) = t.val ∧ win27_0.index t (1 : Fin 2) = 0
    ∧ win27_1.index t (0 : Fin 2) = 0 ∧ win27_1.index t (1 : Fin 2) = 0
    ∧ win27_2.index t (0 : Fin 2) = t.val ∧ win27_2.index t (1 : Fin 2) = 0)

/-! ## The block a point leaves -/

/-- The block the point at grid position n leaves: the zero block plus the product of the point's two input blocks
    (past the grid's end, where nothing consults it, the block of position 0). -/
def accOf27 (c : Dev nD) (n : ℕ) : Vec F S1024x512 .f32 :=
  if h : n < cfg27.N then k27_pay2 (iblk27 V c 0 ⟨n, h⟩) (iblk27 V c 1 ⟨n, h⟩) (k27_pay1 (F := F))
  else k27_pay2 (iblk27 V c 0 ⟨0, by have h : cfg27.N = 4 := N_27; omega⟩)
    (iblk27 V c 1 ⟨0, by have h : cfg27.N = 4 := N_27; omega⟩) (k27_pay1 (F := F))

theorem accOf27_eq (c : Dev nD) (t : Fin cfg27.N) :
    accOf27 V c t.val = k27_pay2 (iblk27 V c 0 t) (iblk27 V c 1 t) (k27_pay1 (F := F)) := by
  unfold accOf27; exact dif_pos t.isLt

/-- At every point the output block holds that block. -/
theorem outsAt27_out (c : Dev nD) (t : Fin cfg27.N) : (outsAt27 V c t.val t.isLt).1 = accOf27 V c t.val :=
  (outsAt27_last V c t).trans ((outsAt27_first V c t).trans (accOf27_eq V c t).symm)

/-! ## The output array as one function -/

/-- The whole output array: its row 1024 r + p, column q, is entry (p, q) of the block the point r leaves. -/
def whole27 (c : Dev nD) : S4096x512.Idx → Elt F .f32 := fun i =>
  accOf27 V c ((i 0).val / 1024)
    (ix2 ⟨(i 0).val % 1024, Nat.mod_lt _ (by decide)⟩ ⟨(i 1).val, idx2_lt1 i⟩)

/-- The array read at an index given by a block row r and a position y inside the block. -/
theorem whole27_apply (c : Dev nD) (r : ℕ) (y : S1024x512.Idx) (i : S4096x512.Idx)
    (h0 : (i 0).val = 1024 * r + (y 0).val) (h1 : (i 1).val = (y 1).val) :
    whole27 V c i = accOf27 V c r y := by
  have hy : (y 0).val < 1024 := idx2_lt0 y
  have hr : (i 0).val / 1024 = r := by omega
  have hp : (i 0).val % 1024 = (y 0).val := by omega
  have e : (ix2 ⟨(i 0).val % 1024, Nat.mod_lt _ (by decide)⟩ ⟨(i 1).val, idx2_lt1 i⟩ : S1024x512.Idx) = y :=
    funext fun a => match a with
      | ⟨0, _⟩ => Fin.ext hp
      | ⟨1, _⟩ => Fin.ext h1
  unfold whole27
  rw [hr, e]

/-- Row 1024 r + p, column q of the array is entry (p, q) of the block the point r leaves. -/
theorem whole27_ix2 (c : Dev nD) (r : Fin 4) (p : Fin 1024) (q : Fin (S1024x512.size 1)) :
    whole27 V c (ix2 ⟨1024 * r.val + p.val, by have := r.isLt; have := p.isLt; omega⟩ q)
      = accOf27 V c r.val (ix2 p q) :=
  whole27_apply V c r.val (ix2 p q) _ rfl rfl

/-! ## What a point writes back -/

/-- Every point writes back its block of the whole-array function. -/
theorem flushed27_eq (c : Dev nD) (t : Fin cfg27.N) (hf : (cfg27.win 2).flush t = true) :
    (dat27 V c).flushed 2 t = ((cfg27.win 2).blk t).view.read (Elt F) (whole27 V c) := by
  show (cfg27.win 2).cut (grid27.coords t) ((dat27 V c).after 2 t) = _
  rw [after27_2, outsAt27_out V c t]
  obtain ⟨-, -, -, -, e0, e1⟩ := idxFacts27 t
  funext j
  show accOf27 V c t.val j = whole27 V c (((cfg27.win 2).blk t).view.emb j)
  refine (whole27_apply V c t.val j _ ?_ ?_).symm
  · show win27_2.index t (0 : Fin 2) * 1024 + 1 * (j 0).val = 1024 * t.val + (j 0).val
    rw [e0]; omega
  · show win27_2.index t (1 : Fin 2) * S1024x512.size (1 : Fin 2) + 1 * (j 1).val = (j 1).val
    rw [e1, Nat.zero_mul, Nat.zero_add, Nat.one_mul]

/-! ## The blocks written back cover the array -/

/-- An index is in a point's output block iff each coordinate is in the block's range on its axis. -/
theorem memBlk27 (t : Fin cfg27.N) (i : S4096x512.Idx) :
    i ∈ ((cfg27.win 2).blk t).view.set ↔ ∀ a : Fin 2, win27_2.index t a * S1024x512.size a ≤ (i a).val
      ∧ (i a).val < win27_2.index t a * S1024x512.size a + S1024x512.size a := by
  show i ∈ ((View.whole main_v154).slice (win27_2.rect t)).set ↔ _
  rw [View.set_slice_whole, Rect.mem_set_unit]
  exact Iff.rfl

/-- Row i of the array lies in the block written back at the point i / 1024. -/
theorem covered27 (i : S4096x512.Idx) :
    ∃ t : Fin cfg27.N, (cfg27.win 2).flush t = true ∧ i ∈ ((cfg27.win 2).blk t).view.set := by
  have hi0 : (i 0).val < 4096 := idx2_lt0 i
  have hi1 : (i 1).val < S1024x512.size (1 : Fin 2) := idx2_lt1 i
  have hN : cfg27.N = 4 := N_27
  obtain ⟨t, ht⟩ : ∃ t : Fin cfg27.N, t.val = (i 0).val / 1024 :=
    ⟨⟨(i 0).val / 1024, by rw [hN]; omega⟩, rfl⟩
  refine ⟨t, flush27_2 t, ?_⟩
  rw [memBlk27]
  obtain ⟨-, -, -, -, e0, e1⟩ := idxFacts27 t
  intro a
  match a with
  | ⟨0, _⟩ =>
    show win27_2.index t (0 : Fin 2) * 1024 ≤ (i 0).val ∧ (i 0).val < win27_2.index t (0 : Fin 2) * 1024 + 1024
    rw [e0]; omega
  | ⟨1, _⟩ =>
    show win27_2.index t (1 : Fin 2) * S1024x512.size (1 : Fin 2) ≤ (i 1).val
      ∧ (i 1).val < win27_2.index t (1 : Fin 2) * S1024x512.size (1 : Fin 2) + S1024x512.size (1 : Fin 2)
    rw [e1, Nat.zero_mul, Nat.zero_add]
    exact ⟨Nat.zero_le _, hi1⟩

/-! ## The three arrays after the region -/

/-- The output array after the region is the whole-array function. -/
theorem final27_2 (c : Dev nD) : (dat27 V c).arrAt 2 cfg27.N = whole27 V c :=
  (dat27 V c).arrAt_eq_of_cover 2 (whole27 V c) (flushed27_eq V c) covered27

/-- The two input arrays are as the region found them. -/
theorem final27_0 (c : Dev nD) : (dat27 V c).arrAt 0 cfg27.N = V c main_v153 :=
  ((dat27 V c).arrAt_in 0 rfl cfg27.N).trans (A_eq27 V c 0)
theorem final27_1 (c : Dev nD) : (dat27 V c).arrAt 1 cfg27.N = V c main_v10 :=
  ((dat27 V c).arrAt_in 1 rfl cfg27.N).trans (A_eq27 V c 1)

/-! ## The input blocks as blocks of the operand arrays -/

/-- The left operand's block at the point t: entry (y₀, y₁) is the array's entry (1024 t + y₀, y₁). -/
theorem iblk27_lhs_apply (c : Dev nD) (t : Fin cfg27.N) (y : S1024x512.Idx) (i : S4096x512.Idx)
    (h0 : (i 0).val = 1024 * t.val + (y 0).val) (h1 : (i 1).val = (y 1).val) :
    iblk27 V c 0 t y = (V c main_v153 : S4096x512.Idx → Elt F .f32) i := by
  obtain ⟨e0, e1, -, -, -, -⟩ := idxFacts27 t
  unfold iblk27
  rw [View.read_apply]
  show V c main_v153 (((cfg27.win 0).blk t).view.emb y) = V c main_v153 i
  congr 1
  funext a
  apply Fin.ext
  match a with
  | ⟨0, _⟩ =>
    show win27_0.index t (0 : Fin 2) * 1024 + 1 * (y 0).val = (i 0).val
    rw [e0, h0]; omega
  | ⟨1, _⟩ =>
    show win27_0.index t (1 : Fin 2) * S1024x512.size (1 : Fin 2) + 1 * (y 1).val = (i 1).val
    rw [e1, h1, Nat.zero_mul, Nat.zero_add, Nat.one_mul]

/-- The right operand's block is the whole array at every point. -/
theorem iblk27_rhs_eq (c : Dev nD) (t : Fin cfg27.N) :
    iblk27 V c 1 t = (V c main_v10 : S512x512.Idx → Elt F .bf16) := by
  obtain ⟨-, -, e0, e1, -, -⟩ := idxFacts27 t
  funext y
  unfold iblk27
  rw [View.read_apply]
  show V c main_v10 (((cfg27.win 1).blk t).view.emb y) = V c main_v10 y
  congr 1
  funext a
  apply Fin.ext
  match a with
  | ⟨0, _⟩ =>
    show win27_1.index t (0 : Fin 2) * S512x512.size (0 : Fin 2) + 1 * (y 0).val = (y 0).val
    rw [e0, Nat.zero_mul, Nat.zero_add, Nat.one_mul]
  | ⟨1, _⟩ =>
    show win27_1.index t (1 : Fin 2) * S512x512.size (1 : Fin 2) + 1 * (y 1).val = (y 1).val
    rw [e1, Nat.zero_mul, Nat.zero_add, Nat.one_mul]

end Cert.KernelIdeal.Hand

end
-- ==== Proof.ValKI27b.lean ====
/- Laid out by: python3 scratch/layout_grid41.py --prefix Val --template-region 0 --region 27 --program KernelIdeal --parts a,b --shapes S1024x128=S1024x512,S128x512=S512x512,S1024x512=S1024x512,S4096x128=S4096x512,S4096x512=S4096x512,main_arg0=main_v153,main_v12=main_v10,main_v17=main_v154,h0=h0,e0=e0,hi0=hi0,x0=x0
   from the hand-written text of region 0 (ValKI0b.lean): the same text, the region's number, block shapes, operand arrays substituted. -/
/-
  Region 27 of @main at the extended reals: the output array after the region is the product of the two operand arrays.

  A change of float format is the identity at these values and a reshape to the same shape is the identity, so the
  kernel's one accumulation step is "accumulator plus the product of the two blocks into the zero block", and the
  accumulator starts from the zero block. The block the point r leaves is then zero plus the product of rows
  1024 r … 1024 r + 1023 of the left operand with the whole right operand, which is the same rows of the whole product:
  the contraction axis is not cut, so the sums are the same term by term. Read through the whole-array function of the
  blocks-to-array module, entry (1024 r + p, q) of the output array is that entry of the product.
-/
import proofs.«158944_j64613488001249_1_alg».proof.Proof.ValKI27a
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The accumulation step, and its start, at the extended reals -/

/-- A change of format and a reshape to the same shape are the identity: the step adds the product of the two blocks
    (into the zero block) to the accumulator. -/
theorem accOf27_step (x0 : Vec Ideal S1024x512 .f32) (x1 : Vec Ideal S512x512 .bf16) (acc : Vec Ideal S1024x512 .f32) :
    k27_pay2 (F := Ideal) x0 x1 acc
      = Cert.MMLaw.accStep dot_S1024x512_S512x512_S1024x512_1_0_0_1_n_n none x0 x1 acc := by
  unfold k27_pay2
  simp only [shapeCast_self]
  rfl

/-- The accumulator starts from the zero block. -/
theorem accOf27_init (j : S1024x512.Idx) : k27_pay1 (F := Ideal) j = 0 := by
  unfold k27_pay1
  rw [shapeCast_self]
  exact Ideal.ofBits_zero_f32

/-! ## The block a point leaves is a block of the whole product -/

/-- The block the point r leaves is rows 1024 r … 1024 r + 1023 of the product of the two operand arrays. -/
theorem accOf27_eq_blk (c : Dev nD) (r : Fin 4) (D : DotDims S4096x512 S512x512 S4096x512) (hD : Cert.MMLaw.IsPlain D)
    (prec : Option ContractPrecision) :
    accOf27 V c r.val
      = Cert.MMLaw.rowBlk (Cert.MMLaw.whole D prec (V c main_v153) (V c main_v10)) r := by
  have hN : cfg27.N = 4 := N_27
  have hr : r.val < cfg27.N := by rw [hN]; exact r.isLt
  rw [accOf27_eq V c ⟨r.val, hr⟩, accOf27_step]
  exact Cert.MMLaw.law41 dot_S1024x512_S512x512_S1024x512_1_0_0_1_n_n ⟨rfl, rfl, rfl, rfl, rfl, rfl⟩ D hD none prec
    (V c main_v153) (V c main_v10) r (iblk27 V c 0 ⟨r.val, hr⟩) (iblk27 V c 1 ⟨r.val, hr⟩)
    (funext fun y => iblk27_lhs_apply V c ⟨r.val, hr⟩ y _ rfl rfl) (iblk27_rhs_eq V c ⟨r.val, hr⟩)
    (k27_pay1 (F := Ideal)) accOf27_init

/-! ## The output array after the region is the whole product -/

/-- The region leaves in its output array the product of its two operand arrays. -/
theorem final27_2_eq_whole (c : Dev nD) (D : DotDims S4096x512 S512x512 S4096x512) (hD : Cert.MMLaw.IsPlain D)
    (prec : Option ContractPrecision) :
    (dat27 (F := Ideal) V c).arrAt 2 cfg27.N = Cert.MMLaw.whole D prec (V c main_v153) (V c main_v10) := by
  rw [final27_2]
  funext i
  have hi0 : (i 0).val < 4096 := idx2_lt0 i
  have h := congrFun (accOf27_eq_blk V c ⟨(i 0).val / 1024, by omega⟩ D hD prec)
    (ix2 ⟨(i 0).val % 1024, Nat.mod_lt _ (by decide)⟩ ⟨(i 1).val, idx2_lt1 i⟩)
  rw [Cert.MMLaw.rowBlk_apply] at h
  refine Eq.trans h (congrArg _ ?_)
  funext a
  match a with
  | ⟨0, _⟩ => exact Fin.ext (by show 1024 * ((i 0).val / 1024) + (i 0).val % 1024 = (i 0).val; omega)
  | ⟨1, _⟩ => rfl

/-- The same with the operands at the formats they are stored in. -/
theorem final27_2_eq_dot (c : Dev nD) (D : DotDims S4096x512 S512x512 S4096x512) (hD : Cert.MMLaw.IsPlain D)
    (prec : Option ContractPrecision) :
    (dat27 (F := Ideal) V c).arrAt 2 cfg27.N
      = Host.dotGeneral (F := Ideal) (φ₁ := .f32) (φ₂ := .bf16) D prec (V c main_v153) (V c main_v10) :=
  final27_2_eq_whole V c D hD prec

end Cert.KernelIdeal.Hand

end
-- ==== Proof.ValKI28a.lean ====
/- Laid out by: python3 scratch/layout_regions.py --template-region 1 --region 28 --program KernelIdeal --prefix Val --parts a,b,c --sim main_v9=main_v7,main_v25=main_v154,main_v26=main_v155 --out-dir proof/Proof
   from the hand-written text of region 1 (ValKI1a.lean): the same text, the region's number substituted. -/
/-
  Region 28 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k28_pay1` (the zero block) and `k28_pay2` (accumulator plus product) are the two stores' payloads.

  So along one row of blocks r the accumulator after its step k is the left fold
    accOf28 r 0 = pay2 (a (r, 0)) (b 0) pay1,    accOf28 r (k + 1) = pay2 (a (r, k + 1)) (b (k + 1)) (accOf28 r k),
  the grid point (r, k) being position 4 r + k; and at k = 3 the output block holds accOf28 r 3.
-/
import proofs.«158944_j64613488001249_1_alg».proof.Proof.RegKI28
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout28_A_eq (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond28_0 i) (hc1 : ¬cond28_1 i)
    (x0 : Vec F S1024x1024 .bf16) (x1 : Vec F S1024x512 .f32) :
    sout28_A c i arg2 harg2 arg3 harg3 arg4 harg4 arg5 harg5 hc0 hc1 x0 x1 = k28_pay2 x0 x1 (k28_pay1 (F := F)) := by
  have hz : (![0, 0] : Fin 2 → Nat) = fun _ => 0 := funext fun a => by fin_cases a <;> rfl
  unfold sout28_A
  rw [View.read_writes_eq_canon _ _ _ (scover28_A c i arg2 harg2 arg3 harg3 arg4 harg4 arg5 harg5 hc0 hc1 x0 x1)]
  unfold kernelRun28_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout28_B_eq (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond28_0 i) (hc1 : ¬cond28_1 i)
    (x0 : Vec F S1024x1024 .bf16) (x1 : Vec F S1024x512 .f32) (xs0 : Vec F S1024x512 .f32) :
    sout28_B c i arg2 harg2 arg3 harg3 arg4 harg4 arg5 harg5 hc0 hc1 x0 x1 xs0 = k28_pay2 x0 x1 xs0 := by
  have hz : (![0, 0] : Fin 2 → Nat) = fun _ => 0 := funext fun a => by fin_cases a <;> rfl
  unfold sout28_B
  rw [View.read_writes_eq_canon _ _ _ (scover28_B c i arg2 harg2 arg3 harg3 arg4 harg4 arg5 harg5 hc0 hc1 x0 x1 xs0)]
  unfold kernelRun28_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout28_C_eq (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond28_0 i) (hc1 : cond28_1 i)
    (x0 : Vec F S1024x1024 .bf16) (x1 : Vec F S1024x512 .f32) (xs0 : Vec F S1024x512 .f32) :
    sout28_C c i arg2 harg2 arg3 harg3 arg4 harg4 arg5 harg5 hc0 hc1 x0 x1 xs0 = k28_pay2 x0 x1 xs0 := by
  have hz : (![0, 0] : Fin 2 → Nat) = fun _ => 0 := funext fun a => by fin_cases a <;> rfl
  unfold sout28_C
  rw [View.read_writes_eq_canon _ _ _ (scover28_C c i arg2 harg2 arg3 harg3 arg4 harg4 arg5 harg5 hc0 hc1 x0 x1 xs0)]
  unfold kernelRun28_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out28_C_eq (c : Dev nD) (i : grid28.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond28_0 i) (hc1 : cond28_1 i)
    (x0 : Vec F S1024x1024 .bf16) (x1 : Vec F S1024x512 .f32) (xs0 : Vec F S1024x512 .f32) :
    out28_C c i arg2 harg2 arg3 harg3 arg4 harg4 arg5 harg5 hc0 hc1 x0 x1 xs0 = k28_pay2 x0 x1 xs0 := by
  have hz : (![0, 0] : Fin 2 → Nat) = fun _ => 0 := funext fun a => by fin_cases a <;> rfl
  unfold out28_C
  rw [View.read_writes_eq_canon _ _ _ (cover28_C c i arg2 harg2 arg3 harg3 arg4 harg4 arg5 harg5 hc0 hc1 x0 x1 xs0)]
  unfold kernelRun28_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk28_lhs (c : Dev nD) (n : ℕ) : Vec F S1024x1024 .bf16 :=
  if h : n < cfg28.N then iblk28 V c 0 ⟨n, h⟩ else iblk28 V c 0 ⟨0, by have h : cfg28.N = 16 := N_28; omega⟩
/-- The right factor's block at grid position `n`. -/
def iblk28_rhs (c : Dev nD) (n : ℕ) : Vec F S1024x512 .f32 :=
  if h : n < cfg28.N then iblk28 V c 1 ⟨n, h⟩ else iblk28 V c 1 ⟨0, by have h : cfg28.N = 16 := N_28; omega⟩

theorem iblk28_lhs_eq (c : Dev nD) (n : ℕ) (h : n < cfg28.N) : iblk28_lhs V c n = iblk28 V c 0 ⟨n, h⟩ := dif_pos h
theorem iblk28_rhs_eq (c : Dev nD) (n : ℕ) (h : n < cfg28.N) : iblk28_rhs V c n = iblk28 V c 1 ⟨n, h⟩ := dif_pos h

/-! ## The accumulator along one row of blocks -/

/-- Row of blocks `r`, after its step `k`: the zero block plus the products of the blocks at positions 4 r, …, 4 r + k,
    added in that order. -/
def accOf28 (c : Dev nD) (r : ℕ) : ℕ → Vec F S1024x512 .f32
  | 0 => k28_pay2 (iblk28_lhs V c (4 * r)) (iblk28_rhs V c (4 * r)) (k28_pay1 (F := F))
  | k + 1 => k28_pay2 (iblk28_lhs V c (4 * r + (k + 1))) (iblk28_rhs V c (4 * r + (k + 1))) (accOf28 c r k)

theorem accOf28_zero (c : Dev nD) (r : ℕ) :
    accOf28 V c r 0 = k28_pay2 (iblk28_lhs V c (4 * r)) (iblk28_rhs V c (4 * r)) (k28_pay1 (F := F)) := rfl
theorem accOf28_succ (c : Dev nD) (r k : ℕ) :
    accOf28 V c r (k + 1) = k28_pay2 (iblk28_lhs V c (4 * r + (k + 1))) (iblk28_rhs V c (4 * r + (k + 1))) (accOf28 V c r k) := rfl

theorem iblk28_lhs_at (c : Dev nD) (t : Fin cfg28.N) (n : ℕ) (hn : n = t.val) : iblk28_lhs V c n = iblk28 V c 0 t := by
  subst hn; unfold iblk28_lhs; exact dif_pos t.isLt
theorem iblk28_rhs_at (c : Dev nD) (t : Fin cfg28.N) (n : ℕ) (hn : n = t.val) : iblk28_rhs V c n = iblk28 V c 1 t := by
  subst hn; unfold iblk28_rhs; exact dif_pos t.isLt

/-- At a grid point with k = 0 the fold starts: the zero block plus the product of the point's two blocks. -/
theorem accOf28_first (c : Dev nD) (t : Fin cfg28.N) (h0 : t.val % 4 = 0) :
    accOf28 V c (t.val / 4) (t.val % 4) = k28_pay2 (iblk28 V c 0 t) (iblk28 V c 1 t) (k28_pay1 (F := F)) := by
  rw [h0, accOf28_zero, iblk28_lhs_at V c t (4 * (t.val / 4)) (by omega), iblk28_rhs_at V c t (4 * (t.val / 4)) (by omega)]

/-- At a grid point with k ≠ 0 the fold takes one step from the position before, which is in the same row of blocks. -/
theorem accOf28_next (c : Dev nD) (t : Fin cfg28.N) (h0 : ¬t.val % 4 = 0) :
    accOf28 V c (t.val / 4) (t.val % 4)
      = k28_pay2 (iblk28 V c 0 t) (iblk28 V c 1 t) (accOf28 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf28_succ, iblk28_lhs_at V c t (4 * (t.val / 4) + (k + 1)) (by omega),
    iblk28_rhs_at V c t (4 * (t.val / 4) + (k + 1)) (by omega)]

/-! ## The accumulator and the output block, point by point, as pure functions of the blocks -/

/-- k = 0: the accumulator restarts from the zero block. -/
theorem outsAt28_first (c : Dev nD) (t : Fin cfg28.N) (h0 : t.val % 4 = 0) :
    (outsAt28 V c t.val t.isLt).2 = k28_pay2 (iblk28 V c 0 t) (iblk28 V c 1 t) (k28_pay1 (F := F)) := by
  rw [outsAt28_A V c t h0]
  dsimp only
  exact sout28_A_eq c (grid28.coords t) (ms28_0 t) (hs28_0 t) (ms28_1 t) (hs28_1 t) (ms28_2 t) (hs28_2 t) scM28 (Memref.isWhole_whole _) (isFirst28 t h0) (notLast28 t (by omega)) (iblk28 V c 0 t) (iblk28 V c 1 t)

/-- k ≠ 0: the point's product is added to what the point before left. -/
theorem outsAt28_next (c : Dev nD) (t : Fin cfg28.N) (h0 : ¬t.val % 4 = 0) :
    (outsAt28 V c t.val t.isLt).2
      = k28_pay2 (iblk28 V c 0 t) (iblk28 V c 1 t) (outsAt28 V c (t.val - 1) (Nat.lt_of_le_of_lt (Nat.sub_le _ _) t.isLt)).2 := by
  by_cases h3 : t.val % 4 = 3
  · rw [outsAt28_C V c t h0 h3]
    dsimp only
    exact sout28_C_eq c (grid28.coords t) (ms28_0 t) (hs28_0 t) (ms28_1 t) (hs28_1 t) (ms28_2 t) (hs28_2 t) scM28 (Memref.isWhole_whole _) (notFirst28 t h0) (isLast28 t h3) (iblk28 V c 0 t) (iblk28 V c 1 t)
      (outsAt28 V c (t.val - 1) (Nat.lt_of_le_of_lt (Nat.sub_le _ _) t.isLt)).2
  · rw [outsAt28_B V c t h0 h3]
    dsimp only
    exact sout28_B_eq c (grid28.coords t) (ms28_0 t) (hs28_0 t) (ms28_1 t) (hs28_1 t) (ms28_2 t) (hs28_2 t) scM28 (Memref.isWhole_whole _) (notFirst28 t h0) (notLast28 t h3) (iblk28 V c 0 t) (iblk28 V c 1 t)
      (outsAt28 V c (t.val - 1) (Nat.lt_of_le_of_lt (Nat.sub_le _ _) t.isLt)).2

/-- k = 3: the output block is the accumulator. -/
theorem outsAt28_last (c : Dev nD) (t : Fin cfg28.N) (h3 : t.val % 4 = 3) :
    (outsAt28 V c t.val t.isLt).1 = (outsAt28 V c t.val t.isLt).2 := by
  have h0 : ¬t.val % 4 = 0 := by omega
  rw [outsAt28_C V c t h0 h3]
  dsimp only
  exact (out28_C_eq c (grid28.coords t) (ms28_0 t) (hs28_0 t) (ms28_1 t) (hs28_1 t) (ms28_2 t) (hs28_2 t) scM28 (Memref.isWhole_whole _) (notFirst28 t h0) (isLast28 t h3) (iblk28 V c 0 t) (iblk28 V c 1 t)
      (outsAt28 V c (t.val - 1) (Nat.lt_of_le_of_lt (Nat.sub_le _ _) t.isLt)).2).trans
    (sout28_C_eq c (grid28.coords t) (ms28_0 t) (hs28_0 t) (ms28_1 t) (hs28_1 t) (ms28_2 t) (hs28_2 t) scM28 (Memref.isWhole_whole _) (notFirst28 t h0) (isLast28 t h3) (iblk28 V c 0 t) (iblk28 V c 1 t)
      (outsAt28 V c (t.val - 1) (Nat.lt_of_le_of_lt (Nat.sub_le _ _) t.isLt)).2).symm

/-! ## The accumulator is the fold -/

/-- After position `n` the accumulator holds row `n / 4`'s fold after its step `n % 4`: by induction on the position. -/
theorem outsAt28_acc_pos (c : Dev nD) :
    ∀ (n : ℕ) (hn : n < cfg28.N), (outsAt28 V c n hn).2 = accOf28 V c (n / 4) (n % 4) := by
  intro n
  induction n with
  | zero =>
    intro hn
    exact (outsAt28_first V c ⟨0, hn⟩ (Nat.zero_mod 4)).trans (accOf28_first V c ⟨0, hn⟩ (Nat.zero_mod 4)).symm
  | succ n ih =>
    intro hn
    by_cases h0 : (n + 1) % 4 = 0
    · exact (outsAt28_first V c ⟨n + 1, hn⟩ h0).trans (accOf28_first V c ⟨n + 1, hn⟩ h0).symm
    · refine (outsAt28_next V c ⟨n + 1, hn⟩ h0).trans (Eq.trans ?_ (accOf28_next V c ⟨n + 1, hn⟩ h0).symm)
      exact congrArg (k28_pay2 (iblk28 V c 0 ⟨n + 1, hn⟩) (iblk28 V c 1 ⟨n + 1, hn⟩)) (ih (Nat.lt_of_succ_lt hn))

/-- At every grid point the accumulator holds its row's fold after the point's step. -/
theorem outsAt28_acc (c : Dev nD) (t : Fin cfg28.N) :
    (outsAt28 V c t.val t.isLt).2 = accOf28 V c (t.val / 4) (t.val % 4) :=
  outsAt28_acc_pos V c t.val t.isLt

/-- At a row's last point the output block holds the row's whole fold. -/
theorem outsAt28_out (c : Dev nD) (t : Fin cfg28.N) (h3 : t.val % 4 = 3) :
    (outsAt28 V c t.val t.isLt).1 = accOf28 V c (t.val / 4) 3 := by
  have e := outsAt28_acc V c t
  rw [h3] at e
  exact (outsAt28_last V c t h3).trans e

end Cert.KernelIdeal.Hand

end
-- ==== Proof.ValKI28b.lean ====
/- Laid out by: python3 scratch/layout_regions.py --template-region 1 --region 28 --program KernelIdeal --prefix Val --parts a,b,c --sim main_v9=main_v7,main_v25=main_v154,main_v26=main_v155 --out-dir proof/Proof
   from the hand-written text of region 1 (ValKI1b.lean): the same text, the region's number substituted. -/
/-
  Region 28 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI28a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts28 : ∀ t : Fin cfg28.N,
    win28_0.index t (0 : Fin 2) = t.val / 4 ∧ win28_0.index t (1 : Fin 2) = t.val % 4
    ∧ win28_1.index t (0 : Fin 2) = t.val % 4 ∧ win28_1.index t (1 : Fin 2) = 0
    ∧ win28_2.index t (0 : Fin 2) = t.val / 4 ∧ win28_2.index t (1 : Fin 2) = 0 :=
  (by decide +kernel : ∀ t : Fin grid28.N,
    win28_0.index t (0 : Fin 2) = t.val / 4 ∧ win28_0.index t (1 : Fin 2) = t.val % 4
    ∧ win28_1.index t (0 : Fin 2) = t.val % 4 ∧ win28_1.index t (1 : Fin 2) = 0
    ∧ win28_2.index t (0 : Fin 2) = t.val / 4 ∧ win28_2.index t (1 : Fin 2) = 0)

/-! ## The output array as one function -/

/-- The whole output array: its row 1024 r + p, column q, is entry (p, q) of the block accumulated over k = 0 … 3 in
    block row r. -/
def whole28 (c : Dev nD) : S4096x512.Idx → Elt F .f32 := fun i =>
  accOf28 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole28_apply (c : Dev nD) (r : ℕ) (y : S1024x512.Idx) (i : S4096x512.Idx)
    (h0 : (i 0).val = 1024 * r + (y 0).val) (h1 : (i 1).val = (y 1).val) :
    whole28 V c i = accOf28 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole28
  rw [hr, e]

/-- Row 1024 r + p, column q of the array is entry (p, q) of block row r's accumulated block. -/
theorem whole28_ix2 (c : Dev nD) (r : Fin 4) (p : Fin 1024) (q : Fin 512) :
    whole28 V c (ix2 (n0 := 4096) (n1 := 512) ⟨1024 * r.val + p.val, by have := r.isLt; have := p.isLt; omega⟩ q)
      = accOf28 V c r.val 3 (ix2 p q) :=
  whole28_apply V c r.val (ix2 p q) _ rfl rfl

/-! ## What a point writes back -/

/-- A point with k = 3 writes back its block of the whole-array function. -/
theorem flushed28_eq (c : Dev nD) (t : Fin cfg28.N) (hf : (cfg28.win 2).flush t = true) :
    (dat28 V c).flushed 2 t = ((cfg28.win 2).blk t).view.read (Elt F) (whole28 V c) := by
  have h3 : t.val % 4 = 3 := (flush28_2 t).mp hf
  show (cfg28.win 2).cut (grid28.coords t) ((dat28 V c).after 2 t) = _
  rw [after28_2, outsAt28_out V c t h3]
  obtain ⟨-, -, -, -, e0, e1⟩ := idxFacts28 t
  funext j
  show accOf28 V c (t.val / 4) 3 j = whole28 V c (((cfg28.win 2).blk t).view.emb j)
  refine (whole28_apply V c (t.val / 4) j _ ?_ ?_).symm
  · show win28_2.index t (0 : Fin 2) * 1024 + 1 * (j 0).val = 1024 * (t.val / 4) + (j 0).val
    rw [e0]; omega
  · show win28_2.index t (1 : Fin 2) * 512 + 1 * (j 1).val = (j 1).val
    rw [e1]; omega

/-! ## The blocks written back cover the array -/

/-- An index is in a point's output block iff each coordinate is in the block's range on its axis. -/
theorem memBlk28 (t : Fin cfg28.N) (i : S4096x512.Idx) :
    i ∈ ((cfg28.win 2).blk t).view.set ↔ ∀ a : Fin 2, win28_2.index t a * S1024x512.size a ≤ (i a).val
      ∧ (i a).val < win28_2.index t a * S1024x512.size a + S1024x512.size a := by
  show i ∈ ((View.whole main_v155).slice (win28_2.rect t)).set ↔ _
  rw [View.set_slice_whole, Rect.mem_set_unit]
  exact Iff.rfl

/-- Row i of the array lies in the block written back at the point (i / 1024, 3). -/
theorem covered28 (i : S4096x512.Idx) :
    ∃ t : Fin cfg28.N, (cfg28.win 2).flush t = true ∧ i ∈ ((cfg28.win 2).blk t).view.set := by
  have hi0 : (i 0).val < 4096 := idx2_lt0 i
  have hi1 : (i 1).val < 512 := idx2_lt1 i
  have hN : cfg28.N = 16 := N_28
  obtain ⟨t, ht⟩ : ∃ t : Fin cfg28.N, t.val = 4 * ((i 0).val / 1024) + 3 :=
    ⟨⟨4 * ((i 0).val / 1024) + 3, by rw [hN]; omega⟩, rfl⟩
  refine ⟨t, (flush28_2 t).mpr (by omega), ?_⟩
  rw [memBlk28]
  obtain ⟨-, -, -, -, e0, e1⟩ := idxFacts28 t
  intro a
  match a with
  | ⟨0, _⟩ =>
    show win28_2.index t (0 : Fin 2) * 1024 ≤ (i 0).val ∧ (i 0).val < win28_2.index t (0 : Fin 2) * 1024 + 1024
    rw [e0]; omega
  | ⟨1, _⟩ =>
    show win28_2.index t (1 : Fin 2) * 512 ≤ (i 1).val ∧ (i 1).val < win28_2.index t (1 : Fin 2) * 512 + 512
    rw [e1]; omega

/-! ## The three arrays after the region -/

/-- The output array after the region is the whole-array function. -/
theorem final28_2 (c : Dev nD) : (dat28 V c).arrAt 2 cfg28.N = whole28 V c :=
  (dat28 V c).arrAt_eq_of_cover 2 (whole28 V c) (flushed28_eq V c) covered28

/-- The two input arrays are as the region found them. -/
theorem final28_0 (c : Dev nD) : (dat28 V c).arrAt 0 cfg28.N = V c main_v7 :=
  ((dat28 V c).arrAt_in 0 rfl cfg28.N).trans (A_eq28 V c 0)
theorem final28_1 (c : Dev nD) : (dat28 V c).arrAt 1 cfg28.N = V c main_v154 :=
  ((dat28 V c).arrAt_in 1 rfl cfg28.N).trans (A_eq28 V c 1)

/-! ## The input blocks as blocks of the operand arrays -/

/-- The left operand's block at the point (r, k): entry (y₀, y₁) is the array's entry (1024 r + y₀, 1024 k + y₁). -/
theorem iblk28_lhs_apply (c : Dev nD) (r k : Fin 4) (y : S1024x1024.Idx) (i : S4096x4096.Idx)
    (h0 : (i 0).val = 1024 * r.val + (y 0).val) (h1 : (i 1).val = 1024 * k.val + (y 1).val) :
    iblk28_lhs V c (4 * r.val + k.val) y = (V c main_v7 : S4096x4096.Idx → Elt F .bf16) i := by
  have hN : cfg28.N = 16 := N_28
  have hr := r.isLt
  have hk := k.isLt
  have hlt : 4 * r.val + k.val < cfg28.N := by rw [hN]; omega
  rw [iblk28_lhs_eq V c _ hlt]
  obtain ⟨e0, e1, -, -, -, -⟩ := idxFacts28 ⟨4 * r.val + k.val, hlt⟩
  have e0' : win28_0.index ⟨4 * r.val + k.val, hlt⟩ (0 : Fin 2) = (4 * r.val + k.val) / 4 := e0
  have e1' : win28_0.index ⟨4 * r.val + k.val, hlt⟩ (1 : Fin 2) = (4 * r.val + k.val) % 4 := e1
  unfold iblk28
  rw [View.read_apply]
  show V c main_v7 (((cfg28.win 0).blk ⟨4 * r.val + k.val, hlt⟩).view.emb y) = V c main_v7 i
  congr 1
  funext a
  apply Fin.ext
  match a with
  | ⟨0, _⟩ =>
    show win28_0.index ⟨4 * r.val + k.val, hlt⟩ (0 : Fin 2) * 1024 + 1 * (y 0).val = (i 0).val
    rw [e0', h0]; omega
  | ⟨1, _⟩ =>
    show win28_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk28_rhs_apply (c : Dev nD) (r k : Fin 4) (y : S1024x512.Idx) (i : S4096x512.Idx)
    (h0 : (i 0).val = 1024 * k.val + (y 0).val) (h1 : (i 1).val = (y 1).val) :
    iblk28_rhs V c (4 * r.val + k.val) y = (V c main_v154 : S4096x512.Idx → Elt F .f32) i := by
  have hN : cfg28.N = 16 := N_28
  have hr := r.isLt
  have hk := k.isLt
  have hlt : 4 * r.val + k.val < cfg28.N := by rw [hN]; omega
  rw [iblk28_rhs_eq V c _ hlt]
  obtain ⟨-, -, e0, e1, -, -⟩ := idxFacts28 ⟨4 * r.val + k.val, hlt⟩
  have e0' : win28_1.index ⟨4 * r.val + k.val, hlt⟩ (0 : Fin 2) = (4 * r.val + k.val) % 4 := e0
  have e1' : win28_1.index ⟨4 * r.val + k.val, hlt⟩ (1 : Fin 2) = 0 := e1
  unfold iblk28
  rw [View.read_apply]
  show V c main_v154 (((cfg28.win 1).blk ⟨4 * r.val + k.val, hlt⟩).view.emb y) = V c main_v154 i
  congr 1
  funext a
  apply Fin.ext
  match a with
  | ⟨0, _⟩ =>
    show win28_1.index ⟨4 * r.val + k.val, hlt⟩ (0 : Fin 2) * 1024 + 1 * (y 0).val = (i 0).val
    rw [e0', h0]; omega
  | ⟨1, _⟩ =>
    show win28_1.index ⟨4 * r.val + k.val, hlt⟩ (1 : Fin 2) * 512 + 1 * (y 1).val = (i 1).val
    rw [e1', h1]; omega

/-- The accumulated block after the fourth step, unfolded: four steps from the zero block. -/
theorem accOf28_three (c : Dev nD) (r : ℕ) :
    accOf28 V c r 3
      = k28_pay2 (iblk28_lhs V c (4 * r + 3)) (iblk28_rhs V c (4 * r + 3))
          (k28_pay2 (iblk28_lhs V c (4 * r + 2)) (iblk28_rhs V c (4 * r + 2))
            (k28_pay2 (iblk28_lhs V c (4 * r + 1)) (iblk28_rhs V c (4 * r + 1))
              (k28_pay2 (iblk28_lhs V c (4 * r)) (iblk28_rhs V c (4 * r)) (k28_pay1 (F := F))))) := rfl

end Cert.KernelIdeal.Hand

end
-- ==== Proof.ValKI28c.lean ====
/- Laid out by: python3 scratch/layout_regions.py --template-region 1 --region 28 --program KernelIdeal --prefix Val --parts a,b,c --sim main_v9=main_v7,main_v25=main_v154,main_v26=main_v155 --out-dir proof/Proof
   from the hand-written text of region 1 (ValKI1c.lean): the same text, the region's number substituted. -/
/-
  Region 28 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI28b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf28_step (x0 : Vec Ideal S1024x1024 .bf16) (x1 acc : Vec Ideal S1024x512 .f32) :
    k28_pay2 (F := Ideal) x0 x1 acc
      = Cert.MMLaw.accStep dot_S1024x1024_S1024x512_S1024x512_1_0_0_1_n_n none x0 x1 acc := by
  unfold k28_pay2
  simp only [shapeCast_self]
  rfl

/-- The accumulator starts from the zero block. -/
theorem accOf28_init (j : S1024x512.Idx) : k28_pay1 (F := Ideal) j = 0 := by
  unfold k28_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf28_eq_blk (c : Dev nD) (r : Fin 4) (D : DotDims S4096x4096 S4096x512 S4096x512) (hD : Cert.MMLaw.IsPlain D)
    (prec : Option ContractPrecision) :
    accOf28 V c r.val 3
      = Cert.MMLaw.blk (nr := 4) (nc := 1) 1024 512 rfl rfl (Cert.MMLaw.whole D prec (V c main_v7) (V c main_v154)) r 0 := by
  rw [accOf28_three]
  simp only [accOf28_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v7) (V c main_v154) r 0
    (fun k => iblk28_lhs V c (4 * r.val + k.val)) (fun k => iblk28_rhs V c (4 * r.val + k.val))
    (fun k => funext fun y => iblk28_lhs_apply V c r k y _ rfl rfl)
    (fun k => funext fun y => iblk28_rhs_apply V c r k y _ rfl (by show 512 * 0 + (y 1).val = (y 1).val; omega))
    (k28_pay1 (F := Ideal)) accOf28_init

/-! ## The output array after the region is the whole product -/

/-- The region leaves in its output array the product of its two operand arrays. -/
theorem final28_2_eq_whole (c : Dev nD) (D : DotDims S4096x4096 S4096x512 S4096x512) (hD : Cert.MMLaw.IsPlain D)
    (prec : Option ContractPrecision) :
    (dat28 (F := Ideal) V c).arrAt 2 cfg28.N = Cert.MMLaw.whole D prec (V c main_v7) (V c main_v154) := by
  rw [final28_2]
  funext i
  have hi0 : (i 0).val < 4096 := idx2_lt0 i
  have h := congrFun (accOf28_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final28_2_eq_dot (c : Dev nD) (D : DotDims S4096x4096 S4096x512 S4096x512) (hD : Cert.MMLaw.IsPlain D)
    (prec : Option ContractPrecision) :
    (dat28 (F := Ideal) V c).arrAt 2 cfg28.N = Host.dotGeneral (F := Ideal) (φ₁ := .bf16) (φ₂ := .f32) D prec (V c main_v7) (V c main_v154) :=
  final28_2_eq_whole V c D hD prec

end Cert.KernelIdeal.Hand

end
-- ==== Proof.ValKI29a.lean ====
/- Laid out by: python3 scratch/layout_regions.py --template-region 1 --region 29 --program KernelIdeal --prefix Val --parts a,b,c --sim main_v9=main_v9,main_v25=main_v173,main_v26=main_v174 --out-dir proof/Proof
   from the hand-written text of region 1 (ValKI1a.lean): the same text, the region's number substituted. -/
/-
  Region 29 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k29_pay1` (the zero block) and `k29_pay2` (accumulator plus product) are the two stores' payloads.

  So along one row of blocks r the accumulator after its step k is the left fold
    accOf29 r 0 = pay2 (a (r, 0)) (b 0) pay1,    accOf29 r (k + 1) = pay2 (a (r, k + 1)) (b (k + 1)) (accOf29 r k),
  the grid point (r, k) being position 4 r + k; and at k = 3 the output block holds accOf29 r 3.
-/
import proofs.«158944_j64613488001249_1_alg».proof.Proof.RegKI29
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout29_A_eq (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond29_0 i) (hc1 : ¬cond29_1 i)
    (x0 : Vec F S1024x1024 .bf16) (x1 : Vec F S1024x512 .f32) :
    sout29_A c i arg2 harg2 arg3 harg3 arg4 harg4 arg5 harg5 hc0 hc1 x0 x1 = k29_pay2 x0 x1 (k29_pay1 (F := F)) := by
  have hz : (![0, 0] : Fin 2 → Nat) = fun _ => 0 := funext fun a => by fin_cases a <;> rfl
  unfold sout29_A
  rw [View.read_writes_eq_canon _ _ _ (scover29_A c i arg2 harg2 arg3 harg3 arg4 harg4 arg5 harg5 hc0 hc1 x0 x1)]
  unfold kernelRun29_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout29_B_eq (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond29_0 i) (hc1 : ¬cond29_1 i)
    (x0 : Vec F S1024x1024 .bf16) (x1 : Vec F S1024x512 .f32) (xs0 : Vec F S1024x512 .f32) :
    sout29_B c i arg2 harg2 arg3 harg3 arg4 harg4 arg5 harg5 hc0 hc1 x0 x1 xs0 = k29_pay2 x0 x1 xs0 := by
  have hz : (![0, 0] : Fin 2 → Nat) = fun _ => 0 := funext fun a => by fin_cases a <;> rfl
  unfold sout29_B
  rw [View.read_writes_eq_canon _ _ _ (scover29_B c i arg2 harg2 arg3 harg3 arg4 harg4 arg5 harg5 hc0 hc1 x0 x1 xs0)]
  unfold kernelRun29_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout29_C_eq (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond29_0 i) (hc1 : cond29_1 i)
    (x0 : Vec F S1024x1024 .bf16) (x1 : Vec F S1024x512 .f32) (xs0 : Vec F S1024x512 .f32) :
    sout29_C c i arg2 harg2 arg3 harg3 arg4 harg4 arg5 harg5 hc0 hc1 x0 x1 xs0 = k29_pay2 x0 x1 xs0 := by
  have hz : (![0, 0] : Fin 2 → Nat) = fun _ => 0 := funext fun a => by fin_cases a <;> rfl
  unfold sout29_C
  rw [View.read_writes_eq_canon _ _ _ (scover29_C c i arg2 harg2 arg3 harg3 arg4 harg4 arg5 harg5 hc0 hc1 x0 x1 xs0)]
  unfold kernelRun29_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out29_C_eq (c : Dev nD) (i : grid29.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond29_0 i) (hc1 : cond29_1 i)
    (x0 : Vec F S1024x1024 .bf16) (x1 : Vec F S1024x512 .f32) (xs0 : Vec F S1024x512 .f32) :
    out29_C c i arg2 harg2 arg3 harg3 arg4 harg4 arg5 harg5 hc0 hc1 x0 x1 xs0 = k29_pay2 x0 x1 xs0 := by
  have hz : (![0, 0] : Fin 2 → Nat) = fun _ => 0 := funext fun a => by fin_cases a <;> rfl
  unfold out29_C
  rw [View.read_writes_eq_canon _ _ _ (cover29_C c i arg2 harg2 arg3 harg3 arg4 harg4 arg5 harg5 hc0 hc1 x0 x1 xs0)]
  unfold kernelRun29_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk29_lhs (c : Dev nD) (n : ℕ) : Vec F S1024x1024 .bf16 :=
  if h : n < cfg29.N then iblk29 V c 0 ⟨n, h⟩ else iblk29 V c 0 ⟨0, by have h : cfg29.N = 16 := N_29; omega⟩
/-- The right factor's block at grid position `n`. -/
def iblk29_rhs (c : Dev nD) (n : ℕ) : Vec F S1024x512 .f32 :=
  if h : n < cfg29.N then iblk29 V c 1 ⟨n, h⟩ else iblk29 V c 1 ⟨0, by have h : cfg29.N = 16 := N_29; omega⟩

theorem iblk29_lhs_eq (c : Dev nD) (n : ℕ) (h : n < cfg29.N) : iblk29_lhs V c n = iblk29 V c 0 ⟨n, h⟩ := dif_pos h
theorem iblk29_rhs_eq (c : Dev nD) (n : ℕ) (h : n < cfg29.N) : iblk29_rhs V c n = iblk29 V c 1 ⟨n, h⟩ := dif_pos h

/-! ## The accumulator along one row of blocks -/

/-- Row of blocks `r`, after its step `k`: the zero block plus the products of the blocks at positions 4 r, …, 4 r + k,
    added in that order. -/
def accOf29 (c : Dev nD) (r : ℕ) : ℕ → Vec F S1024x512 .f32
  | 0 => k29_pay2 (iblk29_lhs V c (4 * r)) (iblk29_rhs V c (4 * r)) (k29_pay1 (F := F))
  | k + 1 => k29_pay2 (iblk29_lhs V c (4 * r + (k + 1))) (iblk29_rhs V c (4 * r + (k + 1))) (accOf29 c r k)

theorem accOf29_zero (c : Dev nD) (r : ℕ) :
    accOf29 V c r 0 = k29_pay2 (iblk29_lhs V c (4 * r)) (iblk29_rhs V c (4 * r)) (k29_pay1 (F := F)) := rfl
theorem accOf29_succ (c : Dev nD) (r k : ℕ) :
    accOf29 V c r (k + 1) = k29_pay2 (iblk29_lhs V c (4 * r + (k + 1))) (iblk29_rhs V c (4 * r + (k + 1))) (accOf29 V c r k) := rfl

theorem iblk29_lhs_at (c : Dev nD) (t : Fin cfg29.N) (n : ℕ) (hn : n = t.val) : iblk29_lhs V c n = iblk29 V c 0 t := by
  subst hn; unfold iblk29_lhs; exact dif_pos t.isLt
theorem iblk29_rhs_at (c : Dev nD) (t : Fin cfg29.N) (n : ℕ) (hn : n = t.val) : iblk29_rhs V c n = iblk29 V c 1 t := by
  subst hn; unfold iblk29_rhs; exact dif_pos t.isLt

/-- At a grid point with k = 0 the fold starts: the zero block plus the product of the point's two blocks. -/
theorem accOf29_first (c : Dev nD) (t : Fin cfg29.N) (h0 : t.val % 4 = 0) :
    accOf29 V c (t.val / 4) (t.val % 4) = k29_pay2 (iblk29 V c 0 t) (iblk29 V c 1 t) (k29_pay1 (F := F)) := by
  rw [h0, accOf29_zero, iblk29_lhs_at V c t (4 * (t.val / 4)) (by omega), iblk29_rhs_at V c t (4 * (t.val / 4)) (by omega)]

/-- At a grid point with k ≠ 0 the fold takes one step from the position before, which is in the same row of blocks. -/
theorem accOf29_next (c : Dev nD) (t : Fin cfg29.N) (h0 : ¬t.val % 4 = 0) :
    accOf29 V c (t.val / 4) (t.val % 4)
      = k29_pay2 (iblk29 V c 0 t) (iblk29 V c 1 t) (accOf29 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf29_succ, iblk29_lhs_at V c t (4 * (t.val / 4) + (k + 1)) (by omega),
    iblk29_rhs_at V c t (4 * (t.val / 4) + (k + 1)) (by omega)]

/-! ## The accumulator and the output block, point by point, as pure functions of the blocks -/

/-- k = 0: the accumulator restarts from the zero block. -/
theorem outsAt29_first (c : Dev nD) (t : Fin cfg29.N) (h0 : t.val % 4 = 0) :
    (outsAt29 V c t.val t.isLt).2 = k29_pay2 (iblk29 V c 0 t) (iblk29 V c 1 t) (k29_pay1 (F := F)) := by
  rw [outsAt29_A V c t h0]
  dsimp only
  exact sout29_A_eq c (grid29.coords t) (ms29_0 t) (hs29_0 t) (ms29_1 t) (hs29_1 t) (ms29_2 t) (hs29_2 t) scM29 (Memref.isWhole_whole _) (isFirst29 t h0) (notLast29 t (by omega)) (iblk29 V c 0 t) (iblk29 V c 1 t)

/-- k ≠ 0: the point's product is added to what the point before left. -/
theorem outsAt29_next (c : Dev nD) (t : Fin cfg29.N) (h0 : ¬t.val % 4 = 0) :
    (outsAt29 V c t.val t.isLt).2
      = k29_pay2 (iblk29 V c 0 t) (iblk29 V c 1 t) (outsAt29 V c (t.val - 1) (Nat.lt_of_le_of_lt (Nat.sub_le _ _) t.isLt)).2 := by
  by_cases h3 : t.val % 4 = 3
  · rw [outsAt29_C V c t h0 h3]
    dsimp only
    exact sout29_C_eq c (grid29.coords t) (ms29_0 t) (hs29_0 t) (ms29_1 t) (hs29_1 t) (ms29_2 t) (hs29_2 t) scM29 (Memref.isWhole_whole _) (notFirst29 t h0) (isLast29 t h3) (iblk29 V c 0 t) (iblk29 V c 1 t)
      (outsAt29 V c (t.val - 1) (Nat.lt_of_le_of_lt (Nat.sub_le _ _) t.isLt)).2
  · rw [outsAt29_B V c t h0 h3]
    dsimp only
    exact sout29_B_eq c (grid29.coords t) (ms29_0 t) (hs29_0 t) (ms29_1 t) (hs29_1 t) (ms29_2 t) (hs29_2 t) scM29 (Memref.isWhole_whole _) (notFirst29 t h0) (notLast29 t h3) (iblk29 V c 0 t) (iblk29 V c 1 t)
      (outsAt29 V c (t.val - 1) (Nat.lt_of_le_of_lt (Nat.sub_le _ _) t.isLt)).2

/-- k = 3: the output block is the accumulator. -/
theorem outsAt29_last (c : Dev nD) (t : Fin cfg29.N) (h3 : t.val % 4 = 3) :
    (outsAt29 V c t.val t.isLt).1 = (outsAt29 V c t.val t.isLt).2 := by
  have h0 : ¬t.val % 4 = 0 := by omega
  rw [outsAt29_C V c t h0 h3]
  dsimp only
  exact (out29_C_eq c (grid29.coords t) (ms29_0 t) (hs29_0 t) (ms29_1 t) (hs29_1 t) (ms29_2 t) (hs29_2 t) scM29 (Memref.isWhole_whole _) (notFirst29 t h0) (isLast29 t h3) (iblk29 V c 0 t) (iblk29 V c 1 t)
      (outsAt29 V c (t.val - 1) (Nat.lt_of_le_of_lt (Nat.sub_le _ _) t.isLt)).2).trans
    (sout29_C_eq c (grid29.coords t) (ms29_0 t) (hs29_0 t) (ms29_1 t) (hs29_1 t) (ms29_2 t) (hs29_2 t) scM29 (Memref.isWhole_whole _) (notFirst29 t h0) (isLast29 t h3) (iblk29 V c 0 t) (iblk29 V c 1 t)
      (outsAt29 V c (t.val - 1) (Nat.lt_of_le_of_lt (Nat.sub_le _ _) t.isLt)).2).symm

/-! ## The accumulator is the fold -/

/-- After position `n` the accumulator holds row `n / 4`'s fold after its step `n % 4`: by induction on the position. -/
theorem outsAt29_acc_pos (c : Dev nD) :
    ∀ (n : ℕ) (hn : n < cfg29.N), (outsAt29 V c n hn).2 = accOf29 V c (n / 4) (n % 4) := by
  intro n
  induction n with
  | zero =>
    intro hn
    exact (outsAt29_first V c ⟨0, hn⟩ (Nat.zero_mod 4)).trans (accOf29_first V c ⟨0, hn⟩ (Nat.zero_mod 4)).symm
  | succ n ih =>
    intro hn
    by_cases h0 : (n + 1) % 4 = 0
    · exact (outsAt29_first V c ⟨n + 1, hn⟩ h0).trans (accOf29_first V c ⟨n + 1, hn⟩ h0).symm
    · refine (outsAt29_next V c ⟨n + 1, hn⟩ h0).trans (Eq.trans ?_ (accOf29_next V c ⟨n + 1, hn⟩ h0).symm)
      exact congrArg (k29_pay2 (iblk29 V c 0 ⟨n + 1, hn⟩) (iblk29 V c 1 ⟨n + 1, hn⟩)) (ih (Nat.lt_of_succ_lt hn))

/-- At every grid point the accumulator holds its row's fold after the point's step. -/
theorem outsAt29_acc (c : Dev nD) (t : Fin cfg29.N) :
    (outsAt29 V c t.val t.isLt).2 = accOf29 V c (t.val / 4) (t.val % 4) :=
  outsAt29_acc_pos V c t.val t.isLt

/-- At a row's last point the output block holds the row's whole fold. -/
theorem outsAt29_out (c : Dev nD) (t : Fin cfg29.N) (h3 : t.val % 4 = 3) :
    (outsAt29 V c t.val t.isLt).1 = accOf29 V c (t.val / 4) 3 := by
  have e := outsAt29_acc V c t
  rw [h3] at e
  exact (outsAt29_last V c t h3).trans e

end Cert.KernelIdeal.Hand

end
-- ==== Proof.ValKI29b.lean ====
/- Laid out by: python3 scratch/layout_regions.py --template-region 1 --region 29 --program KernelIdeal --prefix Val --parts a,b,c --sim main_v9=main_v9,main_v25=main_v173,main_v26=main_v174 --out-dir proof/Proof
   from the hand-written text of region 1 (ValKI1b.lean): the same text, the region's number substituted. -/
/-
  Region 29 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI29a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts29 : ∀ t : Fin cfg29.N,
    win29_0.index t (0 : Fin 2) = t.val / 4 ∧ win29_0.index t (1 : Fin 2) = t.val % 4
    ∧ win29_1.index t (0 : Fin 2) = t.val % 4 ∧ win29_1.index t (1 : Fin 2) = 0
    ∧ win29_2.index t (0 : Fin 2) = t.val / 4 ∧ win29_2.index t (1 : Fin 2) = 0 :=
  (by decide +kernel : ∀ t : Fin grid29.N,
    win29_0.index t (0 : Fin 2) = t.val / 4 ∧ win29_0.index t (1 : Fin 2) = t.val % 4
    ∧ win29_1.index t (0 : Fin 2) = t.val % 4 ∧ win29_1.index t (1 : Fin 2) = 0
    ∧ win29_2.index t (0 : Fin 2) = t.val / 4 ∧ win29_2.index t (1 : Fin 2) = 0)

/-! ## The output array as one function -/

/-- The whole output array: its row 1024 r + p, column q, is entry (p, q) of the block accumulated over k = 0 … 3 in
    block row r. -/
def whole29 (c : Dev nD) : S4096x512.Idx → Elt F .f32 := fun i =>
  accOf29 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole29_apply (c : Dev nD) (r : ℕ) (y : S1024x512.Idx) (i : S4096x512.Idx)
    (h0 : (i 0).val = 1024 * r + (y 0).val) (h1 : (i 1).val = (y 1).val) :
    whole29 V c i = accOf29 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole29
  rw [hr, e]

/-- Row 1024 r + p, column q of the array is entry (p, q) of block row r's accumulated block. -/
theorem whole29_ix2 (c : Dev nD) (r : Fin 4) (p : Fin 1024) (q : Fin 512) :
    whole29 V c (ix2 (n0 := 4096) (n1 := 512) ⟨1024 * r.val + p.val, by have := r.isLt; have := p.isLt; omega⟩ q)
      = accOf29 V c r.val 3 (ix2 p q) :=
  whole29_apply V c r.val (ix2 p q) _ rfl rfl

/-! ## What a point writes back -/

/-- A point with k = 3 writes back its block of the whole-array function. -/
theorem flushed29_eq (c : Dev nD) (t : Fin cfg29.N) (hf : (cfg29.win 2).flush t = true) :
    (dat29 V c).flushed 2 t = ((cfg29.win 2).blk t).view.read (Elt F) (whole29 V c) := by
  have h3 : t.val % 4 = 3 := (flush29_2 t).mp hf
  show (cfg29.win 2).cut (grid29.coords t) ((dat29 V c).after 2 t) = _
  rw [after29_2, outsAt29_out V c t h3]
  obtain ⟨-, -, -, -, e0, e1⟩ := idxFacts29 t
  funext j
  show accOf29 V c (t.val / 4) 3 j = whole29 V c (((cfg29.win 2).blk t).view.emb j)
  refine (whole29_apply V c (t.val / 4) j _ ?_ ?_).symm
  · show win29_2.index t (0 : Fin 2) * 1024 + 1 * (j 0).val = 1024 * (t.val / 4) + (j 0).val
    rw [e0]; omega
  · show win29_2.index t (1 : Fin 2) * 512 + 1 * (j 1).val = (j 1).val
    rw [e1]; omega

/-! ## The blocks written back cover the array -/

/-- An index is in a point's output block iff each coordinate is in the block's range on its axis. -/
theorem memBlk29 (t : Fin cfg29.N) (i : S4096x512.Idx) :
    i ∈ ((cfg29.win 2).blk t).view.set ↔ ∀ a : Fin 2, win29_2.index t a * S1024x512.size a ≤ (i a).val
      ∧ (i a).val < win29_2.index t a * S1024x512.size a + S1024x512.size a := by
  show i ∈ ((View.whole main_v174).slice (win29_2.rect t)).set ↔ _
  rw [View.set_slice_whole, Rect.mem_set_unit]
  exact Iff.rfl

/-- Row i of the array lies in the block written back at the point (i / 1024, 3). -/
theorem covered29 (i : S4096x512.Idx) :
    ∃ t : Fin cfg29.N, (cfg29.win 2).flush t = true ∧ i ∈ ((cfg29.win 2).blk t).view.set := by
  have hi0 : (i 0).val < 4096 := idx2_lt0 i
  have hi1 : (i 1).val < 512 := idx2_lt1 i
  have hN : cfg29.N = 16 := N_29
  obtain ⟨t, ht⟩ : ∃ t : Fin cfg29.N, t.val = 4 * ((i 0).val / 1024) + 3 :=
    ⟨⟨4 * ((i 0).val / 1024) + 3, by rw [hN]; omega⟩, rfl⟩
  refine ⟨t, (flush29_2 t).mpr (by omega), ?_⟩
  rw [memBlk29]
  obtain ⟨-, -, -, -, e0, e1⟩ := idxFacts29 t
  intro a
  match a with
  | ⟨0, _⟩ =>
    show win29_2.index t (0 : Fin 2) * 1024 ≤ (i 0).val ∧ (i 0).val < win29_2.index t (0 : Fin 2) * 1024 + 1024
    rw [e0]; omega
  | ⟨1, _⟩ =>
    show win29_2.index t (1 : Fin 2) * 512 ≤ (i 1).val ∧ (i 1).val < win29_2.index t (1 : Fin 2) * 512 + 512
    rw [e1]; omega

/-! ## The three arrays after the region -/

/-- The output array after the region is the whole-array function. -/
theorem final29_2 (c : Dev nD) : (dat29 V c).arrAt 2 cfg29.N = whole29 V c :=
  (dat29 V c).arrAt_eq_of_cover 2 (whole29 V c) (flushed29_eq V c) covered29

/-- The two input arrays are as the region found them. -/
theorem final29_0 (c : Dev nD) : (dat29 V c).arrAt 0 cfg29.N = V c main_v9 :=
  ((dat29 V c).arrAt_in 0 rfl cfg29.N).trans (A_eq29 V c 0)
theorem final29_1 (c : Dev nD) : (dat29 V c).arrAt 1 cfg29.N = V c main_v173 :=
  ((dat29 V c).arrAt_in 1 rfl cfg29.N).trans (A_eq29 V c 1)

/-! ## The input blocks as blocks of the operand arrays -/

/-- The left operand's block at the point (r, k): entry (y₀, y₁) is the array's entry (1024 r + y₀, 1024 k + y₁). -/
theorem iblk29_lhs_apply (c : Dev nD) (r k : Fin 4) (y : S1024x1024.Idx) (i : S4096x4096.Idx)
    (h0 : (i 0).val = 1024 * r.val + (y 0).val) (h1 : (i 1).val = 1024 * k.val + (y 1).val) :
    iblk29_lhs V c (4 * r.val + k.val) y = (V c main_v9 : S4096x4096.Idx → Elt F .bf16) i := by
  have hN : cfg29.N = 16 := N_29
  have hr := r.isLt
  have hk := k.isLt
  have hlt : 4 * r.val + k.val < cfg29.N := by rw [hN]; omega
  rw [iblk29_lhs_eq V c _ hlt]
  obtain ⟨e0, e1, -, -, -, -⟩ := idxFacts29 ⟨4 * r.val + k.val, hlt⟩
  have e0' : win29_0.index ⟨4 * r.val + k.val, hlt⟩ (0 : Fin 2) = (4 * r.val + k.val) / 4 := e0
  have e1' : win29_0.index ⟨4 * r.val + k.val, hlt⟩ (1 : Fin 2) = (4 * r.val + k.val) % 4 := e1
  unfold iblk29
  rw [View.read_apply]
  show V c main_v9 (((cfg29.win 0).blk ⟨4 * r.val + k.val, hlt⟩).view.emb y) = V c main_v9 i
  congr 1
  funext a
  apply Fin.ext
  match a with
  | ⟨0, _⟩ =>
    show win29_0.index ⟨4 * r.val + k.val, hlt⟩ (0 : Fin 2) * 1024 + 1 * (y 0).val = (i 0).val
    rw [e0', h0]; omega
  | ⟨1, _⟩ =>
    show win29_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk29_rhs_apply (c : Dev nD) (r k : Fin 4) (y : S1024x512.Idx) (i : S4096x512.Idx)
    (h0 : (i 0).val = 1024 * k.val + (y 0).val) (h1 : (i 1).val = (y 1).val) :
    iblk29_rhs V c (4 * r.val + k.val) y = (V c main_v173 : S4096x512.Idx → Elt F .f32) i := by
  have hN : cfg29.N = 16 := N_29
  have hr := r.isLt
  have hk := k.isLt
  have hlt : 4 * r.val + k.val < cfg29.N := by rw [hN]; omega
  rw [iblk29_rhs_eq V c _ hlt]
  obtain ⟨-, -, e0, e1, -, -⟩ := idxFacts29 ⟨4 * r.val + k.val, hlt⟩
  have e0' : win29_1.index ⟨4 * r.val + k.val, hlt⟩ (0 : Fin 2) = (4 * r.val + k.val) % 4 := e0
  have e1' : win29_1.index ⟨4 * r.val + k.val, hlt⟩ (1 : Fin 2) = 0 := e1
  unfold iblk29
  rw [View.read_apply]
  show V c main_v173 (((cfg29.win 1).blk ⟨4 * r.val + k.val, hlt⟩).view.emb y) = V c main_v173 i
  congr 1
  funext a
  apply Fin.ext
  match a with
  | ⟨0, _⟩ =>
    show win29_1.index ⟨4 * r.val + k.val, hlt⟩ (0 : Fin 2) * 1024 + 1 * (y 0).val = (i 0).val
    rw [e0', h0]; omega
  | ⟨1, _⟩ =>
    show win29_1.index ⟨4 * r.val + k.val, hlt⟩ (1 : Fin 2) * 512 + 1 * (y 1).val = (i 1).val
    rw [e1', h1]; omega

/-- The accumulated block after the fourth step, unfolded: four steps from the zero block. -/
theorem accOf29_three (c : Dev nD) (r : ℕ) :
    accOf29 V c r 3
      = k29_pay2 (iblk29_lhs V c (4 * r + 3)) (iblk29_rhs V c (4 * r + 3))
          (k29_pay2 (iblk29_lhs V c (4 * r + 2)) (iblk29_rhs V c (4 * r + 2))
            (k29_pay2 (iblk29_lhs V c (4 * r + 1)) (iblk29_rhs V c (4 * r + 1))
              (k29_pay2 (iblk29_lhs V c (4 * r)) (iblk29_rhs V c (4 * r)) (k29_pay1 (F := F))))) := rfl

end Cert.KernelIdeal.Hand

end
-- ==== Proof.ValKI29c.lean ====
/- Laid out by: python3 scratch/layout_regions.py --template-region 1 --region 29 --program KernelIdeal --prefix Val --parts a,b,c --sim main_v9=main_v9,main_v25=main_v173,main_v26=main_v174 --out-dir proof/Proof
   from the hand-written text of region 1 (ValKI1c.lean): the same text, the region's number substituted. -/
/-
  Region 29 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI29b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf29_step (x0 : Vec Ideal S1024x1024 .bf16) (x1 acc : Vec Ideal S1024x512 .f32) :
    k29_pay2 (F := Ideal) x0 x1 acc
      = Cert.MMLaw.accStep dot_S1024x1024_S1024x512_S1024x512_1_0_0_1_n_n none x0 x1 acc := by
  unfold k29_pay2
  simp only [shapeCast_self]
  rfl

/-- The accumulator starts from the zero block. -/
theorem accOf29_init (j : S1024x512.Idx) : k29_pay1 (F := Ideal) j = 0 := by
  unfold k29_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf29_eq_blk (c : Dev nD) (r : Fin 4) (D : DotDims S4096x4096 S4096x512 S4096x512) (hD : Cert.MMLaw.IsPlain D)
    (prec : Option ContractPrecision) :
    accOf29 V c r.val 3
      = Cert.MMLaw.blk (nr := 4) (nc := 1) 1024 512 rfl rfl (Cert.MMLaw.whole D prec (V c main_v9) (V c main_v173)) r 0 := by
  rw [accOf29_three]
  simp only [accOf29_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v9) (V c main_v173) r 0
    (fun k => iblk29_lhs V c (4 * r.val + k.val)) (fun k => iblk29_rhs V c (4 * r.val + k.val))
    (fun k => funext fun y => iblk29_lhs_apply V c r k y _ rfl rfl)
    (fun k => funext fun y => iblk29_rhs_apply V c r k y _ rfl (by show 512 * 0 + (y 1).val = (y 1).val; omega))
    (k29_pay1 (F := Ideal)) accOf29_init

/-! ## The output array after the region is the whole product -/

/-- The region leaves in its output array the product of its two operand arrays. -/
theorem final29_2_eq_whole (c : Dev nD) (D : DotDims S4096x4096 S4096x512 S4096x512) (hD : Cert.MMLaw.IsPlain D)
    (prec : Option ContractPrecision) :
    (dat29 (F := Ideal) V c).arrAt 2 cfg29.N = Cert.MMLaw.whole D prec (V c main_v9) (V c main_v173) := by
  rw [final29_2]
  funext i
  have hi0 : (i 0).val < 4096 := idx2_lt0 i
  have h := congrFun (accOf29_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final29_2_eq_dot (c : Dev nD) (D : DotDims S4096x4096 S4096x512 S4096x512) (hD : Cert.MMLaw.IsPlain D)
    (prec : Option ContractPrecision) :
    (dat29 (F := Ideal) V c).arrAt 2 cfg29.N = Host.dotGeneral (F := Ideal) (φ₁ := .bf16) (φ₂ := .f32) D prec (V c main_v9) (V c main_v173) :=
  final29_2_eq_whole V c D hD prec

end Cert.KernelIdeal.Hand

end
-- ==== Proof.ValKI30a.lean ====
/- Laid out by: python3 scratch/layout_regions.py --template-region 1 --region 30 --program KernelIdeal --prefix Val --parts a,b,c --sim main_v9=main_v8,main_v25=main_v168,main_v26=main_v178 --out-dir proof/Proof
   from the hand-written text of region 1 (ValKI1a.lean): the same text, the region's number substituted. -/
/-
  Region 30 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k30_pay1` (the zero block) and `k30_pay2` (accumulator plus product) are the two stores' payloads.

  So along one row of blocks r the accumulator after its step k is the left fold
    accOf30 r 0 = pay2 (a (r, 0)) (b 0) pay1,    accOf30 r (k + 1) = pay2 (a (r, k + 1)) (b (k + 1)) (accOf30 r k),
  the grid point (r, k) being position 4 r + k; and at k = 3 the output block holds accOf30 r 3.
-/
import proofs.«158944_j64613488001249_1_alg».proof.Proof.RegKI30
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout30_A_eq (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond30_0 i) (hc1 : ¬cond30_1 i)
    (x0 : Vec F S1024x1024 .bf16) (x1 : Vec F S1024x512 .f32) :
    sout30_A c i arg2 harg2 arg3 harg3 arg4 harg4 arg5 harg5 hc0 hc1 x0 x1 = k30_pay2 x0 x1 (k30_pay1 (F := F)) := by
  have hz : (![0, 0] : Fin 2 → Nat) = fun _ => 0 := funext fun a => by fin_cases a <;> rfl
  unfold sout30_A
  rw [View.read_writes_eq_canon _ _ _ (scover30_A c i arg2 harg2 arg3 harg3 arg4 harg4 arg5 harg5 hc0 hc1 x0 x1)]
  unfold kernelRun30_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout30_B_eq (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond30_0 i) (hc1 : ¬cond30_1 i)
    (x0 : Vec F S1024x1024 .bf16) (x1 : Vec F S1024x512 .f32) (xs0 : Vec F S1024x512 .f32) :
    sout30_B c i arg2 harg2 arg3 harg3 arg4 harg4 arg5 harg5 hc0 hc1 x0 x1 xs0 = k30_pay2 x0 x1 xs0 := by
  have hz : (![0, 0] : Fin 2 → Nat) = fun _ => 0 := funext fun a => by fin_cases a <;> rfl
  unfold sout30_B
  rw [View.read_writes_eq_canon _ _ _ (scover30_B c i arg2 harg2 arg3 harg3 arg4 harg4 arg5 harg5 hc0 hc1 x0 x1 xs0)]
  unfold kernelRun30_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout30_C_eq (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond30_0 i) (hc1 : cond30_1 i)
    (x0 : Vec F S1024x1024 .bf16) (x1 : Vec F S1024x512 .f32) (xs0 : Vec F S1024x512 .f32) :
    sout30_C c i arg2 harg2 arg3 harg3 arg4 harg4 arg5 harg5 hc0 hc1 x0 x1 xs0 = k30_pay2 x0 x1 xs0 := by
  have hz : (![0, 0] : Fin 2 → Nat) = fun _ => 0 := funext fun a => by fin_cases a <;> rfl
  unfold sout30_C
  rw [View.read_writes_eq_canon _ _ _ (scover30_C c i arg2 harg2 arg3 harg3 arg4 harg4 arg5 harg5 hc0 hc1 x0 x1 xs0)]
  unfold kernelRun30_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out30_C_eq (c : Dev nD) (i : grid30.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond30_0 i) (hc1 : cond30_1 i)
    (x0 : Vec F S1024x1024 .bf16) (x1 : Vec F S1024x512 .f32) (xs0 : Vec F S1024x512 .f32) :
    out30_C c i arg2 harg2 arg3 harg3 arg4 harg4 arg5 harg5 hc0 hc1 x0 x1 xs0 = k30_pay2 x0 x1 xs0 := by
  have hz : (![0, 0] : Fin 2 → Nat) = fun _ => 0 := funext fun a => by fin_cases a <;> rfl
  unfold out30_C
  rw [View.read_writes_eq_canon _ _ _ (cover30_C c i arg2 harg2 arg3 harg3 arg4 harg4 arg5 harg5 hc0 hc1 x0 x1 xs0)]
  unfold kernelRun30_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk30_lhs (c : Dev nD) (n : ℕ) : Vec F S1024x1024 .bf16 :=
  if h : n < cfg30.N then iblk30 V c 0 ⟨n, h⟩ else iblk30 V c 0 ⟨0, by have h : cfg30.N = 16 := N_30; omega⟩
/-- The right factor's block at grid position `n`. -/
def iblk30_rhs (c : Dev nD) (n : ℕ) : Vec F S1024x512 .f32 :=
  if h : n < cfg30.N then iblk30 V c 1 ⟨n, h⟩ else iblk30 V c 1 ⟨0, by have h : cfg30.N = 16 := N_30; omega⟩

theorem iblk30_lhs_eq (c : Dev nD) (n : ℕ) (h : n < cfg30.N) : iblk30_lhs V c n = iblk30 V c 0 ⟨n, h⟩ := dif_pos h
theorem iblk30_rhs_eq (c : Dev nD) (n : ℕ) (h : n < cfg30.N) : iblk30_rhs V c n = iblk30 V c 1 ⟨n, h⟩ := dif_pos h

/-! ## The accumulator along one row of blocks -/

/-- Row of blocks `r`, after its step `k`: the zero block plus the products of the blocks at positions 4 r, …, 4 r + k,
    added in that order. -/
def accOf30 (c : Dev nD) (r : ℕ) : ℕ → Vec F S1024x512 .f32
  | 0 => k30_pay2 (iblk30_lhs V c (4 * r)) (iblk30_rhs V c (4 * r)) (k30_pay1 (F := F))
  | k + 1 => k30_pay2 (iblk30_lhs V c (4 * r + (k + 1))) (iblk30_rhs V c (4 * r + (k + 1))) (accOf30 c r k)

theorem accOf30_zero (c : Dev nD) (r : ℕ) :
    accOf30 V c r 0 = k30_pay2 (iblk30_lhs V c (4 * r)) (iblk30_rhs V c (4 * r)) (k30_pay1 (F := F)) := rfl
theorem accOf30_succ (c : Dev nD) (r k : ℕ) :
    accOf30 V c r (k + 1) = k30_pay2 (iblk30_lhs V c (4 * r + (k + 1))) (iblk30_rhs V c (4 * r + (k + 1))) (accOf30 V c r k) := rfl

theorem iblk30_lhs_at (c : Dev nD) (t : Fin cfg30.N) (n : ℕ) (hn : n = t.val) : iblk30_lhs V c n = iblk30 V c 0 t := by
  subst hn; unfold iblk30_lhs; exact dif_pos t.isLt
theorem iblk30_rhs_at (c : Dev nD) (t : Fin cfg30.N) (n : ℕ) (hn : n = t.val) : iblk30_rhs V c n = iblk30 V c 1 t := by
  subst hn; unfold iblk30_rhs; exact dif_pos t.isLt

/-- At a grid point with k = 0 the fold starts: the zero block plus the product of the point's two blocks. -/
theorem accOf30_first (c : Dev nD) (t : Fin cfg30.N) (h0 : t.val % 4 = 0) :
    accOf30 V c (t.val / 4) (t.val % 4) = k30_pay2 (iblk30 V c 0 t) (iblk30 V c 1 t) (k30_pay1 (F := F)) := by
  rw [h0, accOf30_zero, iblk30_lhs_at V c t (4 * (t.val / 4)) (by omega), iblk30_rhs_at V c t (4 * (t.val / 4)) (by omega)]

/-- At a grid point with k ≠ 0 the fold takes one step from the position before, which is in the same row of blocks. -/
theorem accOf30_next (c : Dev nD) (t : Fin cfg30.N) (h0 : ¬t.val % 4 = 0) :
    accOf30 V c (t.val / 4) (t.val % 4)
      = k30_pay2 (iblk30 V c 0 t) (iblk30 V c 1 t) (accOf30 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf30_succ, iblk30_lhs_at V c t (4 * (t.val / 4) + (k + 1)) (by omega),
    iblk30_rhs_at V c t (4 * (t.val / 4) + (k + 1)) (by omega)]

/-! ## The accumulator and the output block, point by point, as pure functions of the blocks -/

/-- k = 0: the accumulator restarts from the zero block. -/
theorem outsAt30_first (c : Dev nD) (t : Fin cfg30.N) (h0 : t.val % 4 = 0) :
    (outsAt30 V c t.val t.isLt).2 = k30_pay2 (iblk30 V c 0 t) (iblk30 V c 1 t) (k30_pay1 (F := F)) := by
  rw [outsAt30_A V c t h0]
  dsimp only
  exact sout30_A_eq c (grid30.coords t) (ms30_0 t) (hs30_0 t) (ms30_1 t) (hs30_1 t) (ms30_2 t) (hs30_2 t) scM30 (Memref.isWhole_whole _) (isFirst30 t h0) (notLast30 t (by omega)) (iblk30 V c 0 t) (iblk30 V c 1 t)

/-- k ≠ 0: the point's product is added to what the point before left. -/
theorem outsAt30_next (c : Dev nD) (t : Fin cfg30.N) (h0 : ¬t.val % 4 = 0) :
    (outsAt30 V c t.val t.isLt).2
      = k30_pay2 (iblk30 V c 0 t) (iblk30 V c 1 t) (outsAt30 V c (t.val - 1) (Nat.lt_of_le_of_lt (Nat.sub_le _ _) t.isLt)).2 := by
  by_cases h3 : t.val % 4 = 3
  · rw [outsAt30_C V c t h0 h3]
    dsimp only
    exact sout30_C_eq c (grid30.coords t) (ms30_0 t) (hs30_0 t) (ms30_1 t) (hs30_1 t) (ms30_2 t) (hs30_2 t) scM30 (Memref.isWhole_whole _) (notFirst30 t h0) (isLast30 t h3) (iblk30 V c 0 t) (iblk30 V c 1 t)
      (outsAt30 V c (t.val - 1) (Nat.lt_of_le_of_lt (Nat.sub_le _ _) t.isLt)).2
  · rw [outsAt30_B V c t h0 h3]
    dsimp only
    exact sout30_B_eq c (grid30.coords t) (ms30_0 t) (hs30_0 t) (ms30_1 t) (hs30_1 t) (ms30_2 t) (hs30_2 t) scM30 (Memref.isWhole_whole _) (notFirst30 t h0) (notLast30 t h3) (iblk30 V c 0 t) (iblk30 V c 1 t)
      (outsAt30 V c (t.val - 1) (Nat.lt_of_le_of_lt (Nat.sub_le _ _) t.isLt)).2

/-- k = 3: the output block is the accumulator. -/
theorem outsAt30_last (c : Dev nD) (t : Fin cfg30.N) (h3 : t.val % 4 = 3) :
    (outsAt30 V c t.val t.isLt).1 = (outsAt30 V c t.val t.isLt).2 := by
  have h0 : ¬t.val % 4 = 0 := by omega
  rw [outsAt30_C V c t h0 h3]
  dsimp only
  exact (out30_C_eq c (grid30.coords t) (ms30_0 t) (hs30_0 t) (ms30_1 t) (hs30_1 t) (ms30_2 t) (hs30_2 t) scM30 (Memref.isWhole_whole _) (notFirst30 t h0) (isLast30 t h3) (iblk30 V c 0 t) (iblk30 V c 1 t)
      (outsAt30 V c (t.val - 1) (Nat.lt_of_le_of_lt (Nat.sub_le _ _) t.isLt)).2).trans
    (sout30_C_eq c (grid30.coords t) (ms30_0 t) (hs30_0 t) (ms30_1 t) (hs30_1 t) (ms30_2 t) (hs30_2 t) scM30 (Memref.isWhole_whole _) (notFirst30 t h0) (isLast30 t h3) (iblk30 V c 0 t) (iblk30 V c 1 t)
      (outsAt30 V c (t.val - 1) (Nat.lt_of_le_of_lt (Nat.sub_le _ _) t.isLt)).2).symm

/-! ## The accumulator is the fold -/

/-- After position `n` the accumulator holds row `n / 4`'s fold after its step `n % 4`: by induction on the position. -/
theorem outsAt30_acc_pos (c : Dev nD) :
    ∀ (n : ℕ) (hn : n < cfg30.N), (outsAt30 V c n hn).2 = accOf30 V c (n / 4) (n % 4) := by
  intro n
  induction n with
  | zero =>
    intro hn
    exact (outsAt30_first V c ⟨0, hn⟩ (Nat.zero_mod 4)).trans (accOf30_first V c ⟨0, hn⟩ (Nat.zero_mod 4)).symm
  | succ n ih =>
    intro hn
    by_cases h0 : (n + 1) % 4 = 0
    · exact (outsAt30_first V c ⟨n + 1, hn⟩ h0).trans (accOf30_first V c ⟨n + 1, hn⟩ h0).symm
    · refine (outsAt30_next V c ⟨n + 1, hn⟩ h0).trans (Eq.trans ?_ (accOf30_next V c ⟨n + 1, hn⟩ h0).symm)
      exact congrArg (k30_pay2 (iblk30 V c 0 ⟨n + 1, hn⟩) (iblk30 V c 1 ⟨n + 1, hn⟩)) (ih (Nat.lt_of_succ_lt hn))

/-- At every grid point the accumulator holds its row's fold after the point's step. -/
theorem outsAt30_acc (c : Dev nD) (t : Fin cfg30.N) :
    (outsAt30 V c t.val t.isLt).2 = accOf30 V c (t.val / 4) (t.val % 4) :=
  outsAt30_acc_pos V c t.val t.isLt

/-- At a row's last point the output block holds the row's whole fold. -/
theorem outsAt30_out (c : Dev nD) (t : Fin cfg30.N) (h3 : t.val % 4 = 3) :
    (outsAt30 V c t.val t.isLt).1 = accOf30 V c (t.val / 4) 3 := by
  have e := outsAt30_acc V c t
  rw [h3] at e
  exact (outsAt30_last V c t h3).trans e

end Cert.KernelIdeal.Hand

end
-- ==== Proof.ValKI30b.lean ====
/- Laid out by: python3 scratch/layout_regions.py --template-region 1 --region 30 --program KernelIdeal --prefix Val --parts a,b,c --sim main_v9=main_v8,main_v25=main_v168,main_v26=main_v178 --out-dir proof/Proof
   from the hand-written text of region 1 (ValKI1b.lean): the same text, the region's number substituted. -/
/-
  Region 30 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI30a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts30 : ∀ t : Fin cfg30.N,
    win30_0.index t (0 : Fin 2) = t.val / 4 ∧ win30_0.index t (1 : Fin 2) = t.val % 4
    ∧ win30_1.index t (0 : Fin 2) = t.val % 4 ∧ win30_1.index t (1 : Fin 2) = 0
    ∧ win30_2.index t (0 : Fin 2) = t.val / 4 ∧ win30_2.index t (1 : Fin 2) = 0 :=
  (by decide +kernel : ∀ t : Fin grid30.N,
    win30_0.index t (0 : Fin 2) = t.val / 4 ∧ win30_0.index t (1 : Fin 2) = t.val % 4
    ∧ win30_1.index t (0 : Fin 2) = t.val % 4 ∧ win30_1.index t (1 : Fin 2) = 0
    ∧ win30_2.index t (0 : Fin 2) = t.val / 4 ∧ win30_2.index t (1 : Fin 2) = 0)

/-! ## The output array as one function -/

/-- The whole output array: its row 1024 r + p, column q, is entry (p, q) of the block accumulated over k = 0 … 3 in
    block row r. -/
def whole30 (c : Dev nD) : S4096x512.Idx → Elt F .f32 := fun i =>
  accOf30 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole30_apply (c : Dev nD) (r : ℕ) (y : S1024x512.Idx) (i : S4096x512.Idx)
    (h0 : (i 0).val = 1024 * r + (y 0).val) (h1 : (i 1).val = (y 1).val) :
    whole30 V c i = accOf30 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole30
  rw [hr, e]

/-- Row 1024 r + p, column q of the array is entry (p, q) of block row r's accumulated block. -/
theorem whole30_ix2 (c : Dev nD) (r : Fin 4) (p : Fin 1024) (q : Fin 512) :
    whole30 V c (ix2 (n0 := 4096) (n1 := 512) ⟨1024 * r.val + p.val, by have := r.isLt; have := p.isLt; omega⟩ q)
      = accOf30 V c r.val 3 (ix2 p q) :=
  whole30_apply V c r.val (ix2 p q) _ rfl rfl

/-! ## What a point writes back -/

/-- A point with k = 3 writes back its block of the whole-array function. -/
theorem flushed30_eq (c : Dev nD) (t : Fin cfg30.N) (hf : (cfg30.win 2).flush t = true) :
    (dat30 V c).flushed 2 t = ((cfg30.win 2).blk t).view.read (Elt F) (whole30 V c) := by
  have h3 : t.val % 4 = 3 := (flush30_2 t).mp hf
  show (cfg30.win 2).cut (grid30.coords t) ((dat30 V c).after 2 t) = _
  rw [after30_2, outsAt30_out V c t h3]
  obtain ⟨-, -, -, -, e0, e1⟩ := idxFacts30 t
  funext j
  show accOf30 V c (t.val / 4) 3 j = whole30 V c (((cfg30.win 2).blk t).view.emb j)
  refine (whole30_apply V c (t.val / 4) j _ ?_ ?_).symm
  · show win30_2.index t (0 : Fin 2) * 1024 + 1 * (j 0).val = 1024 * (t.val / 4) + (j 0).val
    rw [e0]; omega
  · show win30_2.index t (1 : Fin 2) * 512 + 1 * (j 1).val = (j 1).val
    rw [e1]; omega

/-! ## The blocks written back cover the array -/

/-- An index is in a point's output block iff each coordinate is in the block's range on its axis. -/
theorem memBlk30 (t : Fin cfg30.N) (i : S4096x512.Idx) :
    i ∈ ((cfg30.win 2).blk t).view.set ↔ ∀ a : Fin 2, win30_2.index t a * S1024x512.size a ≤ (i a).val
      ∧ (i a).val < win30_2.index t a * S1024x512.size a + S1024x512.size a := by
  show i ∈ ((View.whole main_v178).slice (win30_2.rect t)).set ↔ _
  rw [View.set_slice_whole, Rect.mem_set_unit]
  exact Iff.rfl

/-- Row i of the array lies in the block written back at the point (i / 1024, 3). -/
theorem covered30 (i : S4096x512.Idx) :
    ∃ t : Fin cfg30.N, (cfg30.win 2).flush t = true ∧ i ∈ ((cfg30.win 2).blk t).view.set := by
  have hi0 : (i 0).val < 4096 := idx2_lt0 i
  have hi1 : (i 1).val < 512 := idx2_lt1 i
  have hN : cfg30.N = 16 := N_30
  obtain ⟨t, ht⟩ : ∃ t : Fin cfg30.N, t.val = 4 * ((i 0).val / 1024) + 3 :=
    ⟨⟨4 * ((i 0).val / 1024) + 3, by rw [hN]; omega⟩, rfl⟩
  refine ⟨t, (flush30_2 t).mpr (by omega), ?_⟩
  rw [memBlk30]
  obtain ⟨-, -, -, -, e0, e1⟩ := idxFacts30 t
  intro a
  match a with
  | ⟨0, _⟩ =>
    show win30_2.index t (0 : Fin 2) * 1024 ≤ (i 0).val ∧ (i 0).val < win30_2.index t (0 : Fin 2) * 1024 + 1024
    rw [e0]; omega
  | ⟨1, _⟩ =>
    show win30_2.index t (1 : Fin 2) * 512 ≤ (i 1).val ∧ (i 1).val < win30_2.index t (1 : Fin 2) * 512 + 512
    rw [e1]; omega

/-! ## The three arrays after the region -/

/-- The output array after the region is the whole-array function. -/
theorem final30_2 (c : Dev nD) : (dat30 V c).arrAt 2 cfg30.N = whole30 V c :=
  (dat30 V c).arrAt_eq_of_cover 2 (whole30 V c) (flushed30_eq V c) covered30

/-- The two input arrays are as the region found them. -/
theorem final30_0 (c : Dev nD) : (dat30 V c).arrAt 0 cfg30.N = V c main_v8 :=
  ((dat30 V c).arrAt_in 0 rfl cfg30.N).trans (A_eq30 V c 0)
theorem final30_1 (c : Dev nD) : (dat30 V c).arrAt 1 cfg30.N = V c main_v168 :=
  ((dat30 V c).arrAt_in 1 rfl cfg30.N).trans (A_eq30 V c 1)

/-! ## The input blocks as blocks of the operand arrays -/

/-- The left operand's block at the point (r, k): entry (y₀, y₁) is the array's entry (1024 r + y₀, 1024 k + y₁). -/
theorem iblk30_lhs_apply (c : Dev nD) (r k : Fin 4) (y : S1024x1024.Idx) (i : S4096x4096.Idx)
    (h0 : (i 0).val = 1024 * r.val + (y 0).val) (h1 : (i 1).val = 1024 * k.val + (y 1).val) :
    iblk30_lhs V c (4 * r.val + k.val) y = (V c main_v8 : S4096x4096.Idx → Elt F .bf16) i := by
  have hN : cfg30.N = 16 := N_30
  have hr := r.isLt
  have hk := k.isLt
  have hlt : 4 * r.val + k.val < cfg30.N := by rw [hN]; omega
  rw [iblk30_lhs_eq V c _ hlt]
  obtain ⟨e0, e1, -, -, -, -⟩ := idxFacts30 ⟨4 * r.val + k.val, hlt⟩
  have e0' : win30_0.index ⟨4 * r.val + k.val, hlt⟩ (0 : Fin 2) = (4 * r.val + k.val) / 4 := e0
  have e1' : win30_0.index ⟨4 * r.val + k.val, hlt⟩ (1 : Fin 2) = (4 * r.val + k.val) % 4 := e1
  unfold iblk30
  rw [View.read_apply]
  show V c main_v8 (((cfg30.win 0).blk ⟨4 * r.val + k.val, hlt⟩).view.emb y) = V c main_v8 i
  congr 1
  funext a
  apply Fin.ext
  match a with
  | ⟨0, _⟩ =>
    show win30_0.index ⟨4 * r.val + k.val, hlt⟩ (0 : Fin 2) * 1024 + 1 * (y 0).val = (i 0).val
    rw [e0', h0]; omega
  | ⟨1, _⟩ =>
    show win30_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk30_rhs_apply (c : Dev nD) (r k : Fin 4) (y : S1024x512.Idx) (i : S4096x512.Idx)
    (h0 : (i 0).val = 1024 * k.val + (y 0).val) (h1 : (i 1).val = (y 1).val) :
    iblk30_rhs V c (4 * r.val + k.val) y = (V c main_v168 : S4096x512.Idx → Elt F .f32) i := by
  have hN : cfg30.N = 16 := N_30
  have hr := r.isLt
  have hk := k.isLt
  have hlt : 4 * r.val + k.val < cfg30.N := by rw [hN]; omega
  rw [iblk30_rhs_eq V c _ hlt]
  obtain ⟨-, -, e0, e1, -, -⟩ := idxFacts30 ⟨4 * r.val + k.val, hlt⟩
  have e0' : win30_1.index ⟨4 * r.val + k.val, hlt⟩ (0 : Fin 2) = (4 * r.val + k.val) % 4 := e0
  have e1' : win30_1.index ⟨4 * r.val + k.val, hlt⟩ (1 : Fin 2) = 0 := e1
  unfold iblk30
  rw [View.read_apply]
  show V c main_v168 (((cfg30.win 1).blk ⟨4 * r.val + k.val, hlt⟩).view.emb y) = V c main_v168 i
  congr 1
  funext a
  apply Fin.ext
  match a with
  | ⟨0, _⟩ =>
    show win30_1.index ⟨4 * r.val + k.val, hlt⟩ (0 : Fin 2) * 1024 + 1 * (y 0).val = (i 0).val
    rw [e0', h0]; omega
  | ⟨1, _⟩ =>
    show win30_1.index ⟨4 * r.val + k.val, hlt⟩ (1 : Fin 2) * 512 + 1 * (y 1).val = (i 1).val
    rw [e1', h1]; omega

/-- The accumulated block after the fourth step, unfolded: four steps from the zero block. -/
theorem accOf30_three (c : Dev nD) (r : ℕ) :
    accOf30 V c r 3
      = k30_pay2 (iblk30_lhs V c (4 * r + 3)) (iblk30_rhs V c (4 * r + 3))
          (k30_pay2 (iblk30_lhs V c (4 * r + 2)) (iblk30_rhs V c (4 * r + 2))
            (k30_pay2 (iblk30_lhs V c (4 * r + 1)) (iblk30_rhs V c (4 * r + 1))
              (k30_pay2 (iblk30_lhs V c (4 * r)) (iblk30_rhs V c (4 * r)) (k30_pay1 (F := F))))) := rfl

end Cert.KernelIdeal.Hand

end
-- ==== Proof.ValKI30c.lean ====
/- Laid out by: python3 scratch/layout_regions.py --template-region 1 --region 30 --program KernelIdeal --prefix Val --parts a,b,c --sim main_v9=main_v8,main_v25=main_v168,main_v26=main_v178 --out-dir proof/Proof
   from the hand-written text of region 1 (ValKI1c.lean): the same text, the region's number substituted. -/
/-
  Region 30 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI30b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf30_step (x0 : Vec Ideal S1024x1024 .bf16) (x1 acc : Vec Ideal S1024x512 .f32) :
    k30_pay2 (F := Ideal) x0 x1 acc
      = Cert.MMLaw.accStep dot_S1024x1024_S1024x512_S1024x512_1_0_0_1_n_n none x0 x1 acc := by
  unfold k30_pay2
  simp only [shapeCast_self]
  rfl

/-- The accumulator starts from the zero block. -/
theorem accOf30_init (j : S1024x512.Idx) : k30_pay1 (F := Ideal) j = 0 := by
  unfold k30_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf30_eq_blk (c : Dev nD) (r : Fin 4) (D : DotDims S4096x4096 S4096x512 S4096x512) (hD : Cert.MMLaw.IsPlain D)
    (prec : Option ContractPrecision) :
    accOf30 V c r.val 3
      = Cert.MMLaw.blk (nr := 4) (nc := 1) 1024 512 rfl rfl (Cert.MMLaw.whole D prec (V c main_v8) (V c main_v168)) r 0 := by
  rw [accOf30_three]
  simp only [accOf30_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v8) (V c main_v168) r 0
    (fun k => iblk30_lhs V c (4 * r.val + k.val)) (fun k => iblk30_rhs V c (4 * r.val + k.val))
    (fun k => funext fun y => iblk30_lhs_apply V c r k y _ rfl rfl)
    (fun k => funext fun y => iblk30_rhs_apply V c r k y _ rfl (by show 512 * 0 + (y 1).val = (y 1).val; omega))
    (k30_pay1 (F := Ideal)) accOf30_init

/-! ## The output array after the region is the whole product -/

/-- The region leaves in its output array the product of its two operand arrays. -/
theorem final30_2_eq_whole (c : Dev nD) (D : DotDims S4096x4096 S4096x512 S4096x512) (hD : Cert.MMLaw.IsPlain D)
    (prec : Option ContractPrecision) :
    (dat30 (F := Ideal) V c).arrAt 2 cfg30.N = Cert.MMLaw.whole D prec (V c main_v8) (V c main_v168) := by
  rw [final30_2]
  funext i
  have hi0 : (i 0).val < 4096 := idx2_lt0 i
  have h := congrFun (accOf30_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final30_2_eq_dot (c : Dev nD) (D : DotDims S4096x4096 S4096x512 S4096x512) (hD : Cert.MMLaw.IsPlain D)
    (prec : Option ContractPrecision) :
    (dat30 (F := Ideal) V c).arrAt 2 cfg30.N = Host.dotGeneral (F := Ideal) (φ₁ := .bf16) (φ₂ := .f32) D prec (V c main_v8) (V c main_v168) :=
  final30_2_eq_whole V c D hD prec

end Cert.KernelIdeal.Hand

end
-- ==== Proof.ValKI31a.lean ====
/- Laid out by: python3 scratch/layout_grid41.py --prefix Val --template-region 0 --region 31 --program KernelIdeal --parts a,b --shapes S1024x128=S1024x512,S128x512=S512x512,S1024x512=S1024x512,S4096x128=S4096x512,S4096x512=S4096x512,main_arg0=main_v181,main_v12=main_v10,main_v17=main_v182,h0=h0,e0=e0,hi0=hi0,x0=x0
   from the hand-written text of region 0 (ValKI0a.lean): the same text, the region's number, block shapes, operand arrays substituted. -/
/-
  Region 31 of @main: from the output blocks to the whole output array.

  The grid is [4, 1]: the point t is block row t, and the reduction axis has one step, so every point zeroes the
  accumulator, adds the product of its two input blocks, and writes the sum back. The output window's block at t is
  rows 1024 t … 1024 t + 1023 of the result, written back at every point. So the array after the region is ONE function
  of the index: row 1024 r + p, column q holds entry (p, q) of the block the point r leaves. The steps: the three windows'
  block indices decided once over the grid; what a point writes back is its block of that function; the four blocks
  written back cover the array (row i lies in the block of the point i / 1024); hence the array after the region. The two
  operand arrays are not written. Last, each input block as a block of its operand array: the left operand's block at the
  point t is its rows 1024 t … 1024 t + 1023 (every column), the right operand's block is the whole array at every point.
-/
import proofs.«158944_j64613488001249_1_alg».proof.Proof.RegKI31
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t the left operand's block is (t, 0), the right operand's (0, 0), the output's (t, 0). -/
theorem idxFacts31 : ∀ t : Fin cfg31.N,
    win31_0.index t (0 : Fin 2) = t.val ∧ win31_0.index t (1 : Fin 2) = 0
    ∧ win31_1.index t (0 : Fin 2) = 0 ∧ win31_1.index t (1 : Fin 2) = 0
    ∧ win31_2.index t (0 : Fin 2) = t.val ∧ win31_2.index t (1 : Fin 2) = 0 :=
  (by decide +kernel : ∀ t : Fin grid31.N,
    win31_0.index t (0 : Fin 2) = t.val ∧ win31_0.index t (1 : Fin 2) = 0
    ∧ win31_1.index t (0 : Fin 2) = 0 ∧ win31_1.index t (1 : Fin 2) = 0
    ∧ win31_2.index t (0 : Fin 2) = t.val ∧ win31_2.index t (1 : Fin 2) = 0)

/-! ## The block a point leaves -/

/-- The block the point at grid position n leaves: the zero block plus the product of the point's two input blocks
    (past the grid's end, where nothing consults it, the block of position 0). -/
def accOf31 (c : Dev nD) (n : ℕ) : Vec F S1024x512 .f32 :=
  if h : n < cfg31.N then k31_pay2 (iblk31 V c 0 ⟨n, h⟩) (iblk31 V c 1 ⟨n, h⟩) (k31_pay1 (F := F))
  else k31_pay2 (iblk31 V c 0 ⟨0, by have h : cfg31.N = 4 := N_31; omega⟩)
    (iblk31 V c 1 ⟨0, by have h : cfg31.N = 4 := N_31; omega⟩) (k31_pay1 (F := F))

theorem accOf31_eq (c : Dev nD) (t : Fin cfg31.N) :
    accOf31 V c t.val = k31_pay2 (iblk31 V c 0 t) (iblk31 V c 1 t) (k31_pay1 (F := F)) := by
  unfold accOf31; exact dif_pos t.isLt

/-- At every point the output block holds that block. -/
theorem outsAt31_out (c : Dev nD) (t : Fin cfg31.N) : (outsAt31 V c t.val t.isLt).1 = accOf31 V c t.val :=
  (outsAt31_last V c t).trans ((outsAt31_first V c t).trans (accOf31_eq V c t).symm)

/-! ## The output array as one function -/

/-- The whole output array: its row 1024 r + p, column q, is entry (p, q) of the block the point r leaves. -/
def whole31 (c : Dev nD) : S4096x512.Idx → Elt F .f32 := fun i =>
  accOf31 V c ((i 0).val / 1024)
    (ix2 ⟨(i 0).val % 1024, Nat.mod_lt _ (by decide)⟩ ⟨(i 1).val, idx2_lt1 i⟩)

/-- The array read at an index given by a block row r and a position y inside the block. -/
theorem whole31_apply (c : Dev nD) (r : ℕ) (y : S1024x512.Idx) (i : S4096x512.Idx)
    (h0 : (i 0).val = 1024 * r + (y 0).val) (h1 : (i 1).val = (y 1).val) :
    whole31 V c i = accOf31 V c r y := by
  have hy : (y 0).val < 1024 := idx2_lt0 y
  have hr : (i 0).val / 1024 = r := by omega
  have hp : (i 0).val % 1024 = (y 0).val := by omega
  have e : (ix2 ⟨(i 0).val % 1024, Nat.mod_lt _ (by decide)⟩ ⟨(i 1).val, idx2_lt1 i⟩ : S1024x512.Idx) = y :=
    funext fun a => match a with
      | ⟨0, _⟩ => Fin.ext hp
      | ⟨1, _⟩ => Fin.ext h1
  unfold whole31
  rw [hr, e]

/-- Row 1024 r + p, column q of the array is entry (p, q) of the block the point r leaves. -/
theorem whole31_ix2 (c : Dev nD) (r : Fin 4) (p : Fin 1024) (q : Fin (S1024x512.size 1)) :
    whole31 V c (ix2 ⟨1024 * r.val + p.val, by have := r.isLt; have := p.isLt; omega⟩ q)
      = accOf31 V c r.val (ix2 p q) :=
  whole31_apply V c r.val (ix2 p q) _ rfl rfl

/-! ## What a point writes back -/

/-- Every point writes back its block of the whole-array function. -/
theorem flushed31_eq (c : Dev nD) (t : Fin cfg31.N) (hf : (cfg31.win 2).flush t = true) :
    (dat31 V c).flushed 2 t = ((cfg31.win 2).blk t).view.read (Elt F) (whole31 V c) := by
  show (cfg31.win 2).cut (grid31.coords t) ((dat31 V c).after 2 t) = _
  rw [after31_2, outsAt31_out V c t]
  obtain ⟨-, -, -, -, e0, e1⟩ := idxFacts31 t
  funext j
  show accOf31 V c t.val j = whole31 V c (((cfg31.win 2).blk t).view.emb j)
  refine (whole31_apply V c t.val j _ ?_ ?_).symm
  · show win31_2.index t (0 : Fin 2) * 1024 + 1 * (j 0).val = 1024 * t.val + (j 0).val
    rw [e0]; omega
  · show win31_2.index t (1 : Fin 2) * S1024x512.size (1 : Fin 2) + 1 * (j 1).val = (j 1).val
    rw [e1, Nat.zero_mul, Nat.zero_add, Nat.one_mul]

/-! ## The blocks written back cover the array -/

/-- An index is in a point's output block iff each coordinate is in the block's range on its axis. -/
theorem memBlk31 (t : Fin cfg31.N) (i : S4096x512.Idx) :
    i ∈ ((cfg31.win 2).blk t).view.set ↔ ∀ a : Fin 2, win31_2.index t a * S1024x512.size a ≤ (i a).val
      ∧ (i a).val < win31_2.index t a * S1024x512.size a + S1024x512.size a := by
  show i ∈ ((View.whole main_v182).slice (win31_2.rect t)).set ↔ _
  rw [View.set_slice_whole, Rect.mem_set_unit]
  exact Iff.rfl

/-- Row i of the array lies in the block written back at the point i / 1024. -/
theorem covered31 (i : S4096x512.Idx) :
    ∃ t : Fin cfg31.N, (cfg31.win 2).flush t = true ∧ i ∈ ((cfg31.win 2).blk t).view.set := by
  have hi0 : (i 0).val < 4096 := idx2_lt0 i
  have hi1 : (i 1).val < S1024x512.size (1 : Fin 2) := idx2_lt1 i
  have hN : cfg31.N = 4 := N_31
  obtain ⟨t, ht⟩ : ∃ t : Fin cfg31.N, t.val = (i 0).val / 1024 :=
    ⟨⟨(i 0).val / 1024, by rw [hN]; omega⟩, rfl⟩
  refine ⟨t, flush31_2 t, ?_⟩
  rw [memBlk31]
  obtain ⟨-, -, -, -, e0, e1⟩ := idxFacts31 t
  intro a
  match a with
  | ⟨0, _⟩ =>
    show win31_2.index t (0 : Fin 2) * 1024 ≤ (i 0).val ∧ (i 0).val < win31_2.index t (0 : Fin 2) * 1024 + 1024
    rw [e0]; omega
  | ⟨1, _⟩ =>
    show win31_2.index t (1 : Fin 2) * S1024x512.size (1 : Fin 2) ≤ (i 1).val
      ∧ (i 1).val < win31_2.index t (1 : Fin 2) * S1024x512.size (1 : Fin 2) + S1024x512.size (1 : Fin 2)
    rw [e1, Nat.zero_mul, Nat.zero_add]
    exact ⟨Nat.zero_le _, hi1⟩

/-! ## The three arrays after the region -/

/-- The output array after the region is the whole-array function. -/
theorem final31_2 (c : Dev nD) : (dat31 V c).arrAt 2 cfg31.N = whole31 V c :=
  (dat31 V c).arrAt_eq_of_cover 2 (whole31 V c) (flushed31_eq V c) covered31

/-- The two input arrays are as the region found them. -/
theorem final31_0 (c : Dev nD) : (dat31 V c).arrAt 0 cfg31.N = V c main_v181 :=
  ((dat31 V c).arrAt_in 0 rfl cfg31.N).trans (A_eq31 V c 0)
theorem final31_1 (c : Dev nD) : (dat31 V c).arrAt 1 cfg31.N = V c main_v10 :=
  ((dat31 V c).arrAt_in 1 rfl cfg31.N).trans (A_eq31 V c 1)

/-! ## The input blocks as blocks of the operand arrays -/

/-- The left operand's block at the point t: entry (y₀, y₁) is the array's entry (1024 t + y₀, y₁). -/
theorem iblk31_lhs_apply (c : Dev nD) (t : Fin cfg31.N) (y : S1024x512.Idx) (i : S4096x512.Idx)
    (h0 : (i 0).val = 1024 * t.val + (y 0).val) (h1 : (i 1).val = (y 1).val) :
    iblk31 V c 0 t y = (V c main_v181 : S4096x512.Idx → Elt F .f32) i := by
  obtain ⟨e0, e1, -, -, -, -⟩ := idxFacts31 t
  unfold iblk31
  rw [View.read_apply]
  show V c main_v181 (((cfg31.win 0).blk t).view.emb y) = V c main_v181 i
  congr 1
  funext a
  apply Fin.ext
  match a with
  | ⟨0, _⟩ =>
    show win31_0.index t (0 : Fin 2) * 1024 + 1 * (y 0).val = (i 0).val
    rw [e0, h0]; omega
  | ⟨1, _⟩ =>
    show win31_0.index t (1 : Fin 2) * S1024x512.size (1 : Fin 2) + 1 * (y 1).val = (i 1).val
    rw [e1, h1, Nat.zero_mul, Nat.zero_add, Nat.one_mul]

/-- The right operand's block is the whole array at every point. -/
theorem iblk31_rhs_eq (c : Dev nD) (t : Fin cfg31.N) :
    iblk31 V c 1 t = (V c main_v10 : S512x512.Idx → Elt F .bf16) := by
  obtain ⟨-, -, e0, e1, -, -⟩ := idxFacts31 t
  funext y
  unfold iblk31
  rw [View.read_apply]
  show V c main_v10 (((cfg31.win 1).blk t).view.emb y) = V c main_v10 y
  congr 1
  funext a
  apply Fin.ext
  match a with
  | ⟨0, _⟩ =>
    show win31_1.index t (0 : Fin 2) * S512x512.size (0 : Fin 2) + 1 * (y 0).val = (y 0).val
    rw [e0, Nat.zero_mul, Nat.zero_add, Nat.one_mul]
  | ⟨1, _⟩ =>
    show win31_1.index t (1 : Fin 2) * S512x512.size (1 : Fin 2) + 1 * (y 1).val = (y 1).val
    rw [e1, Nat.zero_mul, Nat.zero_add, Nat.one_mul]

end Cert.KernelIdeal.Hand

end
-- ==== Proof.ValKI31b.lean ====
/- Laid out by: python3 scratch/layout_grid41.py --prefix Val --template-region 0 --region 31 --program KernelIdeal --parts a,b --shapes S1024x128=S1024x512,S128x512=S512x512,S1024x512=S1024x512,S4096x128=S4096x512,S4096x512=S4096x512,main_arg0=main_v181,main_v12=main_v10,main_v17=main_v182,h0=h0,e0=e0,hi0=hi0,x0=x0
   from the hand-written text of region 0 (ValKI0b.lean): the same text, the region's number, block shapes, operand arrays substituted. -/
/-
  Region 31 of @main at the extended reals: the output array after the region is the product of the two operand arrays.

  A change of float format is the identity at these values and a reshape to the same shape is the identity, so the
  kernel's one accumulation step is "accumulator plus the product of the two blocks into the zero block", and the
  accumulator starts from the zero block. The block the point r leaves is then zero plus the product of rows
  1024 r … 1024 r + 1023 of the left operand with the whole right operand, which is the same rows of the whole product:
  the contraction axis is not cut, so the sums are the same term by term. Read through the whole-array function of the
  blocks-to-array module, entry (1024 r + p, q) of the output array is that entry of the product.
-/
import proofs.«158944_j64613488001249_1_alg».proof.Proof.ValKI31a
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The accumulation step, and its start, at the extended reals -/

/-- A change of format and a reshape to the same shape are the identity: the step adds the product of the two blocks
    (into the zero block) to the accumulator. -/
theorem accOf31_step (x0 : Vec Ideal S1024x512 .f32) (x1 : Vec Ideal S512x512 .bf16) (acc : Vec Ideal S1024x512 .f32) :
    k31_pay2 (F := Ideal) x0 x1 acc
      = Cert.MMLaw.accStep dot_S1024x512_S512x512_S1024x512_1_0_0_1_n_n none x0 x1 acc := by
  unfold k31_pay2
  simp only [shapeCast_self]
  rfl

/-- The accumulator starts from the zero block. -/
theorem accOf31_init (j : S1024x512.Idx) : k31_pay1 (F := Ideal) j = 0 := by
  unfold k31_pay1
  rw [shapeCast_self]
  exact Ideal.ofBits_zero_f32

/-! ## The block a point leaves is a block of the whole product -/

/-- The block the point r leaves is rows 1024 r … 1024 r + 1023 of the product of the two operand arrays. -/
theorem accOf31_eq_blk (c : Dev nD) (r : Fin 4) (D : DotDims S4096x512 S512x512 S4096x512) (hD : Cert.MMLaw.IsPlain D)
    (prec : Option ContractPrecision) :
    accOf31 V c r.val
      = Cert.MMLaw.rowBlk (Cert.MMLaw.whole D prec (V c main_v181) (V c main_v10)) r := by
  have hN : cfg31.N = 4 := N_31
  have hr : r.val < cfg31.N := by rw [hN]; exact r.isLt
  rw [accOf31_eq V c ⟨r.val, hr⟩, accOf31_step]
  exact Cert.MMLaw.law41 dot_S1024x512_S512x512_S1024x512_1_0_0_1_n_n ⟨rfl, rfl, rfl, rfl, rfl, rfl⟩ D hD none prec
    (V c main_v181) (V c main_v10) r (iblk31 V c 0 ⟨r.val, hr⟩) (iblk31 V c 1 ⟨r.val, hr⟩)
    (funext fun y => iblk31_lhs_apply V c ⟨r.val, hr⟩ y _ rfl rfl) (iblk31_rhs_eq V c ⟨r.val, hr⟩)
    (k31_pay1 (F := Ideal)) accOf31_init

/-! ## The output array after the region is the whole product -/

/-- The region leaves in its output array the product of its two operand arrays. -/
theorem final31_2_eq_whole (c : Dev nD) (D : DotDims S4096x512 S512x512 S4096x512) (hD : Cert.MMLaw.IsPlain D)
    (prec : Option ContractPrecision) :
    (dat31 (F := Ideal) V c).arrAt 2 cfg31.N = Cert.MMLaw.whole D prec (V c main_v181) (V c main_v10) := by
  rw [final31_2]
  funext i
  have hi0 : (i 0).val < 4096 := idx2_lt0 i
  have h := congrFun (accOf31_eq_blk V c ⟨(i 0).val / 1024, by omega⟩ D hD prec)
    (ix2 ⟨(i 0).val % 1024, Nat.mod_lt _ (by decide)⟩ ⟨(i 1).val, idx2_lt1 i⟩)
  rw [Cert.MMLaw.rowBlk_apply] at h
  refine Eq.trans h (congrArg _ ?_)
  funext a
  match a with
  | ⟨0, _⟩ => exact Fin.ext (by show 1024 * ((i 0).val / 1024) + (i 0).val % 1024 = (i 0).val; omega)
  | ⟨1, _⟩ => rfl

/-- The same with the operands at the formats they are stored in. -/
theorem final31_2_eq_dot (c : Dev nD) (D : DotDims S4096x512 S512x512 S4096x512) (hD : Cert.MMLaw.IsPlain D)
    (prec : Option ContractPrecision) :
    (dat31 (F := Ideal) V c).arrAt 2 cfg31.N
      = Host.dotGeneral (F := Ideal) (φ₁ := .f32) (φ₂ := .bf16) D prec (V c main_v181) (V c main_v10) :=
  final31_2_eq_whole V c D hD prec

end Cert.KernelIdeal.Hand

end
-- ==== Proof.ValKI32a.lean ====
/- Laid out by: python3 scratch/layout_regions.py --template-region 1 --region 32 --program KernelIdeal --prefix Val --parts a,b,c --sim main_v9=main_v7,main_v25=main_v182,main_v26=main_v183 --out-dir proof/Proof
   from the hand-written text of region 1 (ValKI1a.lean): the same text, the region's number substituted. -/
/-
  Region 32 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k32_pay1` (the zero block) and `k32_pay2` (accumulator plus product) are the two stores' payloads.

  So along one row of blocks r the accumulator after its step k is the left fold
    accOf32 r 0 = pay2 (a (r, 0)) (b 0) pay1,    accOf32 r (k + 1) = pay2 (a (r, k + 1)) (b (k + 1)) (accOf32 r k),
  the grid point (r, k) being position 4 r + k; and at k = 3 the output block holds accOf32 r 3.
-/
import proofs.«158944_j64613488001249_1_alg».proof.Proof.RegKI32
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout32_A_eq (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond32_0 i) (hc1 : ¬cond32_1 i)
    (x0 : Vec F S1024x1024 .bf16) (x1 : Vec F S1024x512 .f32) :
    sout32_A c i arg2 harg2 arg3 harg3 arg4 harg4 arg5 harg5 hc0 hc1 x0 x1 = k32_pay2 x0 x1 (k32_pay1 (F := F)) := by
  have hz : (![0, 0] : Fin 2 → Nat) = fun _ => 0 := funext fun a => by fin_cases a <;> rfl
  unfold sout32_A
  rw [View.read_writes_eq_canon _ _ _ (scover32_A c i arg2 harg2 arg3 harg3 arg4 harg4 arg5 harg5 hc0 hc1 x0 x1)]
  unfold kernelRun32_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout32_B_eq (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond32_0 i) (hc1 : ¬cond32_1 i)
    (x0 : Vec F S1024x1024 .bf16) (x1 : Vec F S1024x512 .f32) (xs0 : Vec F S1024x512 .f32) :
    sout32_B c i arg2 harg2 arg3 harg3 arg4 harg4 arg5 harg5 hc0 hc1 x0 x1 xs0 = k32_pay2 x0 x1 xs0 := by
  have hz : (![0, 0] : Fin 2 → Nat) = fun _ => 0 := funext fun a => by fin_cases a <;> rfl
  unfold sout32_B
  rw [View.read_writes_eq_canon _ _ _ (scover32_B c i arg2 harg2 arg3 harg3 arg4 harg4 arg5 harg5 hc0 hc1 x0 x1 xs0)]
  unfold kernelRun32_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout32_C_eq (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond32_0 i) (hc1 : cond32_1 i)
    (x0 : Vec F S1024x1024 .bf16) (x1 : Vec F S1024x512 .f32) (xs0 : Vec F S1024x512 .f32) :
    sout32_C c i arg2 harg2 arg3 harg3 arg4 harg4 arg5 harg5 hc0 hc1 x0 x1 xs0 = k32_pay2 x0 x1 xs0 := by
  have hz : (![0, 0] : Fin 2 → Nat) = fun _ => 0 := funext fun a => by fin_cases a <;> rfl
  unfold sout32_C
  rw [View.read_writes_eq_canon _ _ _ (scover32_C c i arg2 harg2 arg3 harg3 arg4 harg4 arg5 harg5 hc0 hc1 x0 x1 xs0)]
  unfold kernelRun32_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out32_C_eq (c : Dev nD) (i : grid32.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond32_0 i) (hc1 : cond32_1 i)
    (x0 : Vec F S1024x1024 .bf16) (x1 : Vec F S1024x512 .f32) (xs0 : Vec F S1024x512 .f32) :
    out32_C c i arg2 harg2 arg3 harg3 arg4 harg4 arg5 harg5 hc0 hc1 x0 x1 xs0 = k32_pay2 x0 x1 xs0 := by
  have hz : (![0, 0] : Fin 2 → Nat) = fun _ => 0 := funext fun a => by fin_cases a <;> rfl
  unfold out32_C
  rw [View.read_writes_eq_canon _ _ _ (cover32_C c i arg2 harg2 arg3 harg3 arg4 harg4 arg5 harg5 hc0 hc1 x0 x1 xs0)]
  unfold kernelRun32_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk32_lhs (c : Dev nD) (n : ℕ) : Vec F S1024x1024 .bf16 :=
  if h : n < cfg32.N then iblk32 V c 0 ⟨n, h⟩ else iblk32 V c 0 ⟨0, by have h : cfg32.N = 16 := N_32; omega⟩
/-- The right factor's block at grid position `n`. -/
def iblk32_rhs (c : Dev nD) (n : ℕ) : Vec F S1024x512 .f32 :=
  if h : n < cfg32.N then iblk32 V c 1 ⟨n, h⟩ else iblk32 V c 1 ⟨0, by have h : cfg32.N = 16 := N_32; omega⟩

theorem iblk32_lhs_eq (c : Dev nD) (n : ℕ) (h : n < cfg32.N) : iblk32_lhs V c n = iblk32 V c 0 ⟨n, h⟩ := dif_pos h
theorem iblk32_rhs_eq (c : Dev nD) (n : ℕ) (h : n < cfg32.N) : iblk32_rhs V c n = iblk32 V c 1 ⟨n, h⟩ := dif_pos h

/-! ## The accumulator along one row of blocks -/

/-- Row of blocks `r`, after its step `k`: the zero block plus the products of the blocks at positions 4 r, …, 4 r + k,
    added in that order. -/
def accOf32 (c : Dev nD) (r : ℕ) : ℕ → Vec F S1024x512 .f32
  | 0 => k32_pay2 (iblk32_lhs V c (4 * r)) (iblk32_rhs V c (4 * r)) (k32_pay1 (F := F))
  | k + 1 => k32_pay2 (iblk32_lhs V c (4 * r + (k + 1))) (iblk32_rhs V c (4 * r + (k + 1))) (accOf32 c r k)

theorem accOf32_zero (c : Dev nD) (r : ℕ) :
    accOf32 V c r 0 = k32_pay2 (iblk32_lhs V c (4 * r)) (iblk32_rhs V c (4 * r)) (k32_pay1 (F := F)) := rfl
theorem accOf32_succ (c : Dev nD) (r k : ℕ) :
    accOf32 V c r (k + 1) = k32_pay2 (iblk32_lhs V c (4 * r + (k + 1))) (iblk32_rhs V c (4 * r + (k + 1))) (accOf32 V c r k) := rfl

theorem iblk32_lhs_at (c : Dev nD) (t : Fin cfg32.N) (n : ℕ) (hn : n = t.val) : iblk32_lhs V c n = iblk32 V c 0 t := by
  subst hn; unfold iblk32_lhs; exact dif_pos t.isLt
theorem iblk32_rhs_at (c : Dev nD) (t : Fin cfg32.N) (n : ℕ) (hn : n = t.val) : iblk32_rhs V c n = iblk32 V c 1 t := by
  subst hn; unfold iblk32_rhs; exact dif_pos t.isLt

/-- At a grid point with k = 0 the fold starts: the zero block plus the product of the point's two blocks. -/
theorem accOf32_first (c : Dev nD) (t : Fin cfg32.N) (h0 : t.val % 4 = 0) :
    accOf32 V c (t.val / 4) (t.val % 4) = k32_pay2 (iblk32 V c 0 t) (iblk32 V c 1 t) (k32_pay1 (F := F)) := by
  rw [h0, accOf32_zero, iblk32_lhs_at V c t (4 * (t.val / 4)) (by omega), iblk32_rhs_at V c t (4 * (t.val / 4)) (by omega)]

/-- At a grid point with k ≠ 0 the fold takes one step from the position before, which is in the same row of blocks. -/
theorem accOf32_next (c : Dev nD) (t : Fin cfg32.N) (h0 : ¬t.val % 4 = 0) :
    accOf32 V c (t.val / 4) (t.val % 4)
      = k32_pay2 (iblk32 V c 0 t) (iblk32 V c 1 t) (accOf32 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf32_succ, iblk32_lhs_at V c t (4 * (t.val / 4) + (k + 1)) (by omega),
    iblk32_rhs_at V c t (4 * (t.val / 4) + (k + 1)) (by omega)]

/-! ## The accumulator and the output block, point by point, as pure functions of the blocks -/

/-- k = 0: the accumulator restarts from the zero block. -/
theorem outsAt32_first (c : Dev nD) (t : Fin cfg32.N) (h0 : t.val % 4 = 0) :
    (outsAt32 V c t.val t.isLt).2 = k32_pay2 (iblk32 V c 0 t) (iblk32 V c 1 t) (k32_pay1 (F := F)) := by
  rw [outsAt32_A V c t h0]
  dsimp only
  exact sout32_A_eq c (grid32.coords t) (ms32_0 t) (hs32_0 t) (ms32_1 t) (hs32_1 t) (ms32_2 t) (hs32_2 t) scM32 (Memref.isWhole_whole _) (isFirst32 t h0) (notLast32 t (by omega)) (iblk32 V c 0 t) (iblk32 V c 1 t)

/-- k ≠ 0: the point's product is added to what the point before left. -/
theorem outsAt32_next (c : Dev nD) (t : Fin cfg32.N) (h0 : ¬t.val % 4 = 0) :
    (outsAt32 V c t.val t.isLt).2
      = k32_pay2 (iblk32 V c 0 t) (iblk32 V c 1 t) (outsAt32 V c (t.val - 1) (Nat.lt_of_le_of_lt (Nat.sub_le _ _) t.isLt)).2 := by
  by_cases h3 : t.val % 4 = 3
  · rw [outsAt32_C V c t h0 h3]
    dsimp only
    exact sout32_C_eq c (grid32.coords t) (ms32_0 t) (hs32_0 t) (ms32_1 t) (hs32_1 t) (ms32_2 t) (hs32_2 t) scM32 (Memref.isWhole_whole _) (notFirst32 t h0) (isLast32 t h3) (iblk32 V c 0 t) (iblk32 V c 1 t)
      (outsAt32 V c (t.val - 1) (Nat.lt_of_le_of_lt (Nat.sub_le _ _) t.isLt)).2
  · rw [outsAt32_B V c t h0 h3]
    dsimp only
    exact sout32_B_eq c (grid32.coords t) (ms32_0 t) (hs32_0 t) (ms32_1 t) (hs32_1 t) (ms32_2 t) (hs32_2 t) scM32 (Memref.isWhole_whole _) (notFirst32 t h0) (notLast32 t h3) (iblk32 V c 0 t) (iblk32 V c 1 t)
      (outsAt32 V c (t.val - 1) (Nat.lt_of_le_of_lt (Nat.sub_le _ _) t.isLt)).2

/-- k = 3: the output block is the accumulator. -/
theorem outsAt32_last (c : Dev nD) (t : Fin cfg32.N) (h3 : t.val % 4 = 3) :
    (outsAt32 V c t.val t.isLt).1 = (outsAt32 V c t.val t.isLt).2 := by
  have h0 : ¬t.val % 4 = 0 := by omega
  rw [outsAt32_C V c t h0 h3]
  dsimp only
  exact (out32_C_eq c (grid32.coords t) (ms32_0 t) (hs32_0 t) (ms32_1 t) (hs32_1 t) (ms32_2 t) (hs32_2 t) scM32 (Memref.isWhole_whole _) (notFirst32 t h0) (isLast32 t h3) (iblk32 V c 0 t) (iblk32 V c 1 t)
      (outsAt32 V c (t.val - 1) (Nat.lt_of_le_of_lt (Nat.sub_le _ _) t.isLt)).2).trans
    (sout32_C_eq c (grid32.coords t) (ms32_0 t) (hs32_0 t) (ms32_1 t) (hs32_1 t) (ms32_2 t) (hs32_2 t) scM32 (Memref.isWhole_whole _) (notFirst32 t h0) (isLast32 t h3) (iblk32 V c 0 t) (iblk32 V c 1 t)
      (outsAt32 V c (t.val - 1) (Nat.lt_of_le_of_lt (Nat.sub_le _ _) t.isLt)).2).symm

/-! ## The accumulator is the fold -/

/-- After position `n` the accumulator holds row `n / 4`'s fold after its step `n % 4`: by induction on the position. -/
theorem outsAt32_acc_pos (c : Dev nD) :
    ∀ (n : ℕ) (hn : n < cfg32.N), (outsAt32 V c n hn).2 = accOf32 V c (n / 4) (n % 4) := by
  intro n
  induction n with
  | zero =>
    intro hn
    exact (outsAt32_first V c ⟨0, hn⟩ (Nat.zero_mod 4)).trans (accOf32_first V c ⟨0, hn⟩ (Nat.zero_mod 4)).symm
  | succ n ih =>
    intro hn
    by_cases h0 : (n + 1) % 4 = 0
    · exact (outsAt32_first V c ⟨n + 1, hn⟩ h0).trans (accOf32_first V c ⟨n + 1, hn⟩ h0).symm
    · refine (outsAt32_next V c ⟨n + 1, hn⟩ h0).trans (Eq.trans ?_ (accOf32_next V c ⟨n + 1, hn⟩ h0).symm)
      exact congrArg (k32_pay2 (iblk32 V c 0 ⟨n + 1, hn⟩) (iblk32 V c 1 ⟨n + 1, hn⟩)) (ih (Nat.lt_of_succ_lt hn))

/-- At every grid point the accumulator holds its row's fold after the point's step. -/
theorem outsAt32_acc (c : Dev nD) (t : Fin cfg32.N) :
    (outsAt32 V c t.val t.isLt).2 = accOf32 V c (t.val / 4) (t.val % 4) :=
  outsAt32_acc_pos V c t.val t.isLt

/-- At a row's last point the output block holds the row's whole fold. -/
theorem outsAt32_out (c : Dev nD) (t : Fin cfg32.N) (h3 : t.val % 4 = 3) :
    (outsAt32 V c t.val t.isLt).1 = accOf32 V c (t.val / 4) 3 := by
  have e := outsAt32_acc V c t
  rw [h3] at e
  exact (outsAt32_last V c t h3).trans e

end Cert.KernelIdeal.Hand

end
-- ==== Proof.ValKI32b.lean ====
/- Laid out by: python3 scratch/layout_regions.py --template-region 1 --region 32 --program KernelIdeal --prefix Val --parts a,b,c --sim main_v9=main_v7,main_v25=main_v182,main_v26=main_v183 --out-dir proof/Proof
   from the hand-written text of region 1 (ValKI1b.lean): the same text, the region's number substituted. -/
/-
  Region 32 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI32a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts32 : ∀ t : Fin cfg32.N,
    win32_0.index t (0 : Fin 2) = t.val / 4 ∧ win32_0.index t (1 : Fin 2) = t.val % 4
    ∧ win32_1.index t (0 : Fin 2) = t.val % 4 ∧ win32_1.index t (1 : Fin 2) = 0
    ∧ win32_2.index t (0 : Fin 2) = t.val / 4 ∧ win32_2.index t (1 : Fin 2) = 0 :=
  (by decide +kernel : ∀ t : Fin grid32.N,
    win32_0.index t (0 : Fin 2) = t.val / 4 ∧ win32_0.index t (1 : Fin 2) = t.val % 4
    ∧ win32_1.index t (0 : Fin 2) = t.val % 4 ∧ win32_1.index t (1 : Fin 2) = 0
    ∧ win32_2.index t (0 : Fin 2) = t.val / 4 ∧ win32_2.index t (1 : Fin 2) = 0)

/-! ## The output array as one function -/

/-- The whole output array: its row 1024 r + p, column q, is entry (p, q) of the block accumulated over k = 0 … 3 in
    block row r. -/
def whole32 (c : Dev nD) : S4096x512.Idx → Elt F .f32 := fun i =>
  accOf32 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole32_apply (c : Dev nD) (r : ℕ) (y : S1024x512.Idx) (i : S4096x512.Idx)
    (h0 : (i 0).val = 1024 * r + (y 0).val) (h1 : (i 1).val = (y 1).val) :
    whole32 V c i = accOf32 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole32
  rw [hr, e]

/-- Row 1024 r + p, column q of the array is entry (p, q) of block row r's accumulated block. -/
theorem whole32_ix2 (c : Dev nD) (r : Fin 4) (p : Fin 1024) (q : Fin 512) :
    whole32 V c (ix2 (n0 := 4096) (n1 := 512) ⟨1024 * r.val + p.val, by have := r.isLt; have := p.isLt; omega⟩ q)
      = accOf32 V c r.val 3 (ix2 p q) :=
  whole32_apply V c r.val (ix2 p q) _ rfl rfl

/-! ## What a point writes back -/

/-- A point with k = 3 writes back its block of the whole-array function. -/
theorem flushed32_eq (c : Dev nD) (t : Fin cfg32.N) (hf : (cfg32.win 2).flush t = true) :
    (dat32 V c).flushed 2 t = ((cfg32.win 2).blk t).view.read (Elt F) (whole32 V c) := by
  have h3 : t.val % 4 = 3 := (flush32_2 t).mp hf
  show (cfg32.win 2).cut (grid32.coords t) ((dat32 V c).after 2 t) = _
  rw [after32_2, outsAt32_out V c t h3]
  obtain ⟨-, -, -, -, e0, e1⟩ := idxFacts32 t
  funext j
  show accOf32 V c (t.val / 4) 3 j = whole32 V c (((cfg32.win 2).blk t).view.emb j)
  refine (whole32_apply V c (t.val / 4) j _ ?_ ?_).symm
  · show win32_2.index t (0 : Fin 2) * 1024 + 1 * (j 0).val = 1024 * (t.val / 4) + (j 0).val
    rw [e0]; omega
  · show win32_2.index t (1 : Fin 2) * 512 + 1 * (j 1).val = (j 1).val
    rw [e1]; omega

/-! ## The blocks written back cover the array -/

/-- An index is in a point's output block iff each coordinate is in the block's range on its axis. -/
theorem memBlk32 (t : Fin cfg32.N) (i : S4096x512.Idx) :
    i ∈ ((cfg32.win 2).blk t).view.set ↔ ∀ a : Fin 2, win32_2.index t a * S1024x512.size a ≤ (i a).val
      ∧ (i a).val < win32_2.index t a * S1024x512.size a + S1024x512.size a := by
  show i ∈ ((View.whole main_v183).slice (win32_2.rect t)).set ↔ _
  rw [View.set_slice_whole, Rect.mem_set_unit]
  exact Iff.rfl

/-- Row i of the array lies in the block written back at the point (i / 1024, 3). -/
theorem covered32 (i : S4096x512.Idx) :
    ∃ t : Fin cfg32.N, (cfg32.win 2).flush t = true ∧ i ∈ ((cfg32.win 2).blk t).view.set := by
  have hi0 : (i 0).val < 4096 := idx2_lt0 i
  have hi1 : (i 1).val < 512 := idx2_lt1 i
  have hN : cfg32.N = 16 := N_32
  obtain ⟨t, ht⟩ : ∃ t : Fin cfg32.N, t.val = 4 * ((i 0).val / 1024) + 3 :=
    ⟨⟨4 * ((i 0).val / 1024) + 3, by rw [hN]; omega⟩, rfl⟩
  refine ⟨t, (flush32_2 t).mpr (by omega), ?_⟩
  rw [memBlk32]
  obtain ⟨-, -, -, -, e0, e1⟩ := idxFacts32 t
  intro a
  match a with
  | ⟨0, _⟩ =>
    show win32_2.index t (0 : Fin 2) * 1024 ≤ (i 0).val ∧ (i 0).val < win32_2.index t (0 : Fin 2) * 1024 + 1024
    rw [e0]; omega
  | ⟨1, _⟩ =>
    show win32_2.index t (1 : Fin 2) * 512 ≤ (i 1).val ∧ (i 1).val < win32_2.index t (1 : Fin 2) * 512 + 512
    rw [e1]; omega

/-! ## The three arrays after the region -/

/-- The output array after the region is the whole-array function. -/
theorem final32_2 (c : Dev nD) : (dat32 V c).arrAt 2 cfg32.N = whole32 V c :=
  (dat32 V c).arrAt_eq_of_cover 2 (whole32 V c) (flushed32_eq V c) covered32

/-- The two input arrays are as the region found them. -/
theorem final32_0 (c : Dev nD) : (dat32 V c).arrAt 0 cfg32.N = V c main_v7 :=
  ((dat32 V c).arrAt_in 0 rfl cfg32.N).trans (A_eq32 V c 0)
theorem final32_1 (c : Dev nD) : (dat32 V c).arrAt 1 cfg32.N = V c main_v182 :=
  ((dat32 V c).arrAt_in 1 rfl cfg32.N).trans (A_eq32 V c 1)

/-! ## The input blocks as blocks of the operand arrays -/

/-- The left operand's block at the point (r, k): entry (y₀, y₁) is the array's entry (1024 r + y₀, 1024 k + y₁). -/
theorem iblk32_lhs_apply (c : Dev nD) (r k : Fin 4) (y : S1024x1024.Idx) (i : S4096x4096.Idx)
    (h0 : (i 0).val = 1024 * r.val + (y 0).val) (h1 : (i 1).val = 1024 * k.val + (y 1).val) :
    iblk32_lhs V c (4 * r.val + k.val) y = (V c main_v7 : S4096x4096.Idx → Elt F .bf16) i := by
  have hN : cfg32.N = 16 := N_32
  have hr := r.isLt
  have hk := k.isLt
  have hlt : 4 * r.val + k.val < cfg32.N := by rw [hN]; omega
  rw [iblk32_lhs_eq V c _ hlt]
  obtain ⟨e0, e1, -, -, -, -⟩ := idxFacts32 ⟨4 * r.val + k.val, hlt⟩
  have e0' : win32_0.index ⟨4 * r.val + k.val, hlt⟩ (0 : Fin 2) = (4 * r.val + k.val) / 4 := e0
  have e1' : win32_0.index ⟨4 * r.val + k.val, hlt⟩ (1 : Fin 2) = (4 * r.val + k.val) % 4 := e1
  unfold iblk32
  rw [View.read_apply]
  show V c main_v7 (((cfg32.win 0).blk ⟨4 * r.val + k.val, hlt⟩).view.emb y) = V c main_v7 i
  congr 1
  funext a
  apply Fin.ext
  match a with
  | ⟨0, _⟩ =>
    show win32_0.index ⟨4 * r.val + k.val, hlt⟩ (0 : Fin 2) * 1024 + 1 * (y 0).val = (i 0).val
    rw [e0', h0]; omega
  | ⟨1, _⟩ =>
    show win32_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk32_rhs_apply (c : Dev nD) (r k : Fin 4) (y : S1024x512.Idx) (i : S4096x512.Idx)
    (h0 : (i 0).val = 1024 * k.val + (y 0).val) (h1 : (i 1).val = (y 1).val) :
    iblk32_rhs V c (4 * r.val + k.val) y = (V c main_v182 : S4096x512.Idx → Elt F .f32) i := by
  have hN : cfg32.N = 16 := N_32
  have hr := r.isLt
  have hk := k.isLt
  have hlt : 4 * r.val + k.val < cfg32.N := by rw [hN]; omega
  rw [iblk32_rhs_eq V c _ hlt]
  obtain ⟨-, -, e0, e1, -, -⟩ := idxFacts32 ⟨4 * r.val + k.val, hlt⟩
  have e0' : win32_1.index ⟨4 * r.val + k.val, hlt⟩ (0 : Fin 2) = (4 * r.val + k.val) % 4 := e0
  have e1' : win32_1.index ⟨4 * r.val + k.val, hlt⟩ (1 : Fin 2) = 0 := e1
  unfold iblk32
  rw [View.read_apply]
  show V c main_v182 (((cfg32.win 1).blk ⟨4 * r.val + k.val, hlt⟩).view.emb y) = V c main_v182 i
  congr 1
  funext a
  apply Fin.ext
  match a with
  | ⟨0, _⟩ =>
    show win32_1.index ⟨4 * r.val + k.val, hlt⟩ (0 : Fin 2) * 1024 + 1 * (y 0).val = (i 0).val
    rw [e0', h0]; omega
  | ⟨1, _⟩ =>
    show win32_1.index ⟨4 * r.val + k.val, hlt⟩ (1 : Fin 2) * 512 + 1 * (y 1).val = (i 1).val
    rw [e1', h1]; omega

/-- The accumulated block after the fourth step, unfolded: four steps from the zero block. -/
theorem accOf32_three (c : Dev nD) (r : ℕ) :
    accOf32 V c r 3
      = k32_pay2 (iblk32_lhs V c (4 * r + 3)) (iblk32_rhs V c (4 * r + 3))
          (k32_pay2 (iblk32_lhs V c (4 * r + 2)) (iblk32_rhs V c (4 * r + 2))
            (k32_pay2 (iblk32_lhs V c (4 * r + 1)) (iblk32_rhs V c (4 * r + 1))
              (k32_pay2 (iblk32_lhs V c (4 * r)) (iblk32_rhs V c (4 * r)) (k32_pay1 (F := F))))) := rfl

end Cert.KernelIdeal.Hand

end
-- ==== Proof.ValKI32c.lean ====
/- Laid out by: python3 scratch/layout_regions.py --template-region 1 --region 32 --program KernelIdeal --prefix Val --parts a,b,c --sim main_v9=main_v7,main_v25=main_v182,main_v26=main_v183 --out-dir proof/Proof
   from the hand-written text of region 1 (ValKI1c.lean): the same text, the region's number substituted. -/
/-
  Region 32 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI32b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf32_step (x0 : Vec Ideal S1024x1024 .bf16) (x1 acc : Vec Ideal S1024x512 .f32) :
    k32_pay2 (F := Ideal) x0 x1 acc
      = Cert.MMLaw.accStep dot_S1024x1024_S1024x512_S1024x512_1_0_0_1_n_n none x0 x1 acc := by
  unfold k32_pay2
  simp only [shapeCast_self]
  rfl

/-- The accumulator starts from the zero block. -/
theorem accOf32_init (j : S1024x512.Idx) : k32_pay1 (F := Ideal) j = 0 := by
  unfold k32_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf32_eq_blk (c : Dev nD) (r : Fin 4) (D : DotDims S4096x4096 S4096x512 S4096x512) (hD : Cert.MMLaw.IsPlain D)
    (prec : Option ContractPrecision) :
    accOf32 V c r.val 3
      = Cert.MMLaw.blk (nr := 4) (nc := 1) 1024 512 rfl rfl (Cert.MMLaw.whole D prec (V c main_v7) (V c main_v182)) r 0 := by
  rw [accOf32_three]
  simp only [accOf32_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v7) (V c main_v182) r 0
    (fun k => iblk32_lhs V c (4 * r.val + k.val)) (fun k => iblk32_rhs V c (4 * r.val + k.val))
    (fun k => funext fun y => iblk32_lhs_apply V c r k y _ rfl rfl)
    (fun k => funext fun y => iblk32_rhs_apply V c r k y _ rfl (by show 512 * 0 + (y 1).val = (y 1).val; omega))
    (k32_pay1 (F := Ideal)) accOf32_init

/-! ## The output array after the region is the whole product -/

/-- The region leaves in its output array the product of its two operand arrays. -/
theorem final32_2_eq_whole (c : Dev nD) (D : DotDims S4096x4096 S4096x512 S4096x512) (hD : Cert.MMLaw.IsPlain D)
    (prec : Option ContractPrecision) :
    (dat32 (F := Ideal) V c).arrAt 2 cfg32.N = Cert.MMLaw.whole D prec (V c main_v7) (V c main_v182) := by
  rw [final32_2]
  funext i
  have hi0 : (i 0).val < 4096 := idx2_lt0 i
  have h := congrFun (accOf32_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final32_2_eq_dot (c : Dev nD) (D : DotDims S4096x4096 S4096x512 S4096x512) (hD : Cert.MMLaw.IsPlain D)
    (prec : Option ContractPrecision) :
    (dat32 (F := Ideal) V c).arrAt 2 cfg32.N = Host.dotGeneral (F := Ideal) (φ₁ := .bf16) (φ₂ := .f32) D prec (V c main_v7) (V c main_v182) :=
  final32_2_eq_whole V c D hD prec

end Cert.KernelIdeal.Hand

end
-- ==== Proof.ValKI33a.lean ====
/- Laid out by: python3 scratch/layout_regions.py --template-region 1 --region 33 --program KernelIdeal --prefix Val --parts a,b,c --sim main_v9=main_v8,main_v25=main_v185,main_v26=main_v187 --out-dir proof/Proof
   from the hand-written text of region 1 (ValKI1a.lean): the same text, the region's number substituted. -/
/-
  Region 33 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k33_pay1` (the zero block) and `k33_pay2` (accumulator plus product) are the two stores' payloads.

  So along one row of blocks r the accumulator after its step k is the left fold
    accOf33 r 0 = pay2 (a (r, 0)) (b 0) pay1,    accOf33 r (k + 1) = pay2 (a (r, k + 1)) (b (k + 1)) (accOf33 r k),
  the grid point (r, k) being position 4 r + k; and at k = 3 the output block holds accOf33 r 3.
-/
import proofs.«158944_j64613488001249_1_alg».proof.Proof.RegKI33
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout33_A_eq (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond33_0 i) (hc1 : ¬cond33_1 i)
    (x0 : Vec F S1024x1024 .bf16) (x1 : Vec F S1024x512 .f32) :
    sout33_A c i arg2 harg2 arg3 harg3 arg4 harg4 arg5 harg5 hc0 hc1 x0 x1 = k33_pay2 x0 x1 (k33_pay1 (F := F)) := by
  have hz : (![0, 0] : Fin 2 → Nat) = fun _ => 0 := funext fun a => by fin_cases a <;> rfl
  unfold sout33_A
  rw [View.read_writes_eq_canon _ _ _ (scover33_A c i arg2 harg2 arg3 harg3 arg4 harg4 arg5 harg5 hc0 hc1 x0 x1)]
  unfold kernelRun33_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout33_B_eq (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond33_0 i) (hc1 : ¬cond33_1 i)
    (x0 : Vec F S1024x1024 .bf16) (x1 : Vec F S1024x512 .f32) (xs0 : Vec F S1024x512 .f32) :
    sout33_B c i arg2 harg2 arg3 harg3 arg4 harg4 arg5 harg5 hc0 hc1 x0 x1 xs0 = k33_pay2 x0 x1 xs0 := by
  have hz : (![0, 0] : Fin 2 → Nat) = fun _ => 0 := funext fun a => by fin_cases a <;> rfl
  unfold sout33_B
  rw [View.read_writes_eq_canon _ _ _ (scover33_B c i arg2 harg2 arg3 harg3 arg4 harg4 arg5 harg5 hc0 hc1 x0 x1 xs0)]
  unfold kernelRun33_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout33_C_eq (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond33_0 i) (hc1 : cond33_1 i)
    (x0 : Vec F S1024x1024 .bf16) (x1 : Vec F S1024x512 .f32) (xs0 : Vec F S1024x512 .f32) :
    sout33_C c i arg2 harg2 arg3 harg3 arg4 harg4 arg5 harg5 hc0 hc1 x0 x1 xs0 = k33_pay2 x0 x1 xs0 := by
  have hz : (![0, 0] : Fin 2 → Nat) = fun _ => 0 := funext fun a => by fin_cases a <;> rfl
  unfold sout33_C
  rw [View.read_writes_eq_canon _ _ _ (scover33_C c i arg2 harg2 arg3 harg3 arg4 harg4 arg5 harg5 hc0 hc1 x0 x1 xs0)]
  unfold kernelRun33_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out33_C_eq (c : Dev nD) (i : grid33.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond33_0 i) (hc1 : cond33_1 i)
    (x0 : Vec F S1024x1024 .bf16) (x1 : Vec F S1024x512 .f32) (xs0 : Vec F S1024x512 .f32) :
    out33_C c i arg2 harg2 arg3 harg3 arg4 harg4 arg5 harg5 hc0 hc1 x0 x1 xs0 = k33_pay2 x0 x1 xs0 := by
  have hz : (![0, 0] : Fin 2 → Nat) = fun _ => 0 := funext fun a => by fin_cases a <;> rfl
  unfold out33_C
  rw [View.read_writes_eq_canon _ _ _ (cover33_C c i arg2 harg2 arg3 harg3 arg4 harg4 arg5 harg5 hc0 hc1 x0 x1 xs0)]
  unfold kernelRun33_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk33_lhs (c : Dev nD) (n : ℕ) : Vec F S1024x1024 .bf16 :=
  if h : n < cfg33.N then iblk33 V c 0 ⟨n, h⟩ else iblk33 V c 0 ⟨0, by have h : cfg33.N = 16 := N_33; omega⟩
/-- The right factor's block at grid position `n`. -/
def iblk33_rhs (c : Dev nD) (n : ℕ) : Vec F S1024x512 .f32 :=
  if h : n < cfg33.N then iblk33 V c 1 ⟨n, h⟩ else iblk33 V c 1 ⟨0, by have h : cfg33.N = 16 := N_33; omega⟩

theorem iblk33_lhs_eq (c : Dev nD) (n : ℕ) (h : n < cfg33.N) : iblk33_lhs V c n = iblk33 V c 0 ⟨n, h⟩ := dif_pos h
theorem iblk33_rhs_eq (c : Dev nD) (n : ℕ) (h : n < cfg33.N) : iblk33_rhs V c n = iblk33 V c 1 ⟨n, h⟩ := dif_pos h

/-! ## The accumulator along one row of blocks -/

/-- Row of blocks `r`, after its step `k`: the zero block plus the products of the blocks at positions 4 r, …, 4 r + k,
    added in that order. -/
def accOf33 (c : Dev nD) (r : ℕ) : ℕ → Vec F S1024x512 .f32
  | 0 => k33_pay2 (iblk33_lhs V c (4 * r)) (iblk33_rhs V c (4 * r)) (k33_pay1 (F := F))
  | k + 1 => k33_pay2 (iblk33_lhs V c (4 * r + (k + 1))) (iblk33_rhs V c (4 * r + (k + 1))) (accOf33 c r k)

theorem accOf33_zero (c : Dev nD) (r : ℕ) :
    accOf33 V c r 0 = k33_pay2 (iblk33_lhs V c (4 * r)) (iblk33_rhs V c (4 * r)) (k33_pay1 (F := F)) := rfl
theorem accOf33_succ (c : Dev nD) (r k : ℕ) :
    accOf33 V c r (k + 1) = k33_pay2 (iblk33_lhs V c (4 * r + (k + 1))) (iblk33_rhs V c (4 * r + (k + 1))) (accOf33 V c r k) := rfl

theorem iblk33_lhs_at (c : Dev nD) (t : Fin cfg33.N) (n : ℕ) (hn : n = t.val) : iblk33_lhs V c n = iblk33 V c 0 t := by
  subst hn; unfold iblk33_lhs; exact dif_pos t.isLt
theorem iblk33_rhs_at (c : Dev nD) (t : Fin cfg33.N) (n : ℕ) (hn : n = t.val) : iblk33_rhs V c n = iblk33 V c 1 t := by
  subst hn; unfold iblk33_rhs; exact dif_pos t.isLt

/-- At a grid point with k = 0 the fold starts: the zero block plus the product of the point's two blocks. -/
theorem accOf33_first (c : Dev nD) (t : Fin cfg33.N) (h0 : t.val % 4 = 0) :
    accOf33 V c (t.val / 4) (t.val % 4) = k33_pay2 (iblk33 V c 0 t) (iblk33 V c 1 t) (k33_pay1 (F := F)) := by
  rw [h0, accOf33_zero, iblk33_lhs_at V c t (4 * (t.val / 4)) (by omega), iblk33_rhs_at V c t (4 * (t.val / 4)) (by omega)]

/-- At a grid point with k ≠ 0 the fold takes one step from the position before, which is in the same row of blocks. -/
theorem accOf33_next (c : Dev nD) (t : Fin cfg33.N) (h0 : ¬t.val % 4 = 0) :
    accOf33 V c (t.val / 4) (t.val % 4)
      = k33_pay2 (iblk33 V c 0 t) (iblk33 V c 1 t) (accOf33 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf33_succ, iblk33_lhs_at V c t (4 * (t.val / 4) + (k + 1)) (by omega),
    iblk33_rhs_at V c t (4 * (t.val / 4) + (k + 1)) (by omega)]

/-! ## The accumulator and the output block, point by point, as pure functions of the blocks -/

/-- k = 0: the accumulator restarts from the zero block. -/
theorem outsAt33_first (c : Dev nD) (t : Fin cfg33.N) (h0 : t.val % 4 = 0) :
    (outsAt33 V c t.val t.isLt).2 = k33_pay2 (iblk33 V c 0 t) (iblk33 V c 1 t) (k33_pay1 (F := F)) := by
  rw [outsAt33_A V c t h0]
  dsimp only
  exact sout33_A_eq c (grid33.coords t) (ms33_0 t) (hs33_0 t) (ms33_1 t) (hs33_1 t) (ms33_2 t) (hs33_2 t) scM33 (Memref.isWhole_whole _) (isFirst33 t h0) (notLast33 t (by omega)) (iblk33 V c 0 t) (iblk33 V c 1 t)

/-- k ≠ 0: the point's product is added to what the point before left. -/
theorem outsAt33_next (c : Dev nD) (t : Fin cfg33.N) (h0 : ¬t.val % 4 = 0) :
    (outsAt33 V c t.val t.isLt).2
      = k33_pay2 (iblk33 V c 0 t) (iblk33 V c 1 t) (outsAt33 V c (t.val - 1) (Nat.lt_of_le_of_lt (Nat.sub_le _ _) t.isLt)).2 := by
  by_cases h3 : t.val % 4 = 3
  · rw [outsAt33_C V c t h0 h3]
    dsimp only
    exact sout33_C_eq c (grid33.coords t) (ms33_0 t) (hs33_0 t) (ms33_1 t) (hs33_1 t) (ms33_2 t) (hs33_2 t) scM33 (Memref.isWhole_whole _) (notFirst33 t h0) (isLast33 t h3) (iblk33 V c 0 t) (iblk33 V c 1 t)
      (outsAt33 V c (t.val - 1) (Nat.lt_of_le_of_lt (Nat.sub_le _ _) t.isLt)).2
  · rw [outsAt33_B V c t h0 h3]
    dsimp only
    exact sout33_B_eq c (grid33.coords t) (ms33_0 t) (hs33_0 t) (ms33_1 t) (hs33_1 t) (ms33_2 t) (hs33_2 t) scM33 (Memref.isWhole_whole _) (notFirst33 t h0) (notLast33 t h3) (iblk33 V c 0 t) (iblk33 V c 1 t)
      (outsAt33 V c (t.val - 1) (Nat.lt_of_le_of_lt (Nat.sub_le _ _) t.isLt)).2

/-- k = 3: the output block is the accumulator. -/
theorem outsAt33_last (c : Dev nD) (t : Fin cfg33.N) (h3 : t.val % 4 = 3) :
    (outsAt33 V c t.val t.isLt).1 = (outsAt33 V c t.val t.isLt).2 := by
  have h0 : ¬t.val % 4 = 0 := by omega
  rw [outsAt33_C V c t h0 h3]
  dsimp only
  exact (out33_C_eq c (grid33.coords t) (ms33_0 t) (hs33_0 t) (ms33_1 t) (hs33_1 t) (ms33_2 t) (hs33_2 t) scM33 (Memref.isWhole_whole _) (notFirst33 t h0) (isLast33 t h3) (iblk33 V c 0 t) (iblk33 V c 1 t)
      (outsAt33 V c (t.val - 1) (Nat.lt_of_le_of_lt (Nat.sub_le _ _) t.isLt)).2).trans
    (sout33_C_eq c (grid33.coords t) (ms33_0 t) (hs33_0 t) (ms33_1 t) (hs33_1 t) (ms33_2 t) (hs33_2 t) scM33 (Memref.isWhole_whole _) (notFirst33 t h0) (isLast33 t h3) (iblk33 V c 0 t) (iblk33 V c 1 t)
      (outsAt33 V c (t.val - 1) (Nat.lt_of_le_of_lt (Nat.sub_le _ _) t.isLt)).2).symm

/-! ## The accumulator is the fold -/

/-- After position `n` the accumulator holds row `n / 4`'s fold after its step `n % 4`: by induction on the position. -/
theorem outsAt33_acc_pos (c : Dev nD) :
    ∀ (n : ℕ) (hn : n < cfg33.N), (outsAt33 V c n hn).2 = accOf33 V c (n / 4) (n % 4) := by
  intro n
  induction n with
  | zero =>
    intro hn
    exact (outsAt33_first V c ⟨0, hn⟩ (Nat.zero_mod 4)).trans (accOf33_first V c ⟨0, hn⟩ (Nat.zero_mod 4)).symm
  | succ n ih =>
    intro hn
    by_cases h0 : (n + 1) % 4 = 0
    · exact (outsAt33_first V c ⟨n + 1, hn⟩ h0).trans (accOf33_first V c ⟨n + 1, hn⟩ h0).symm
    · refine (outsAt33_next V c ⟨n + 1, hn⟩ h0).trans (Eq.trans ?_ (accOf33_next V c ⟨n + 1, hn⟩ h0).symm)
      exact congrArg (k33_pay2 (iblk33 V c 0 ⟨n + 1, hn⟩) (iblk33 V c 1 ⟨n + 1, hn⟩)) (ih (Nat.lt_of_succ_lt hn))

/-- At every grid point the accumulator holds its row's fold after the point's step. -/
theorem outsAt33_acc (c : Dev nD) (t : Fin cfg33.N) :
    (outsAt33 V c t.val t.isLt).2 = accOf33 V c (t.val / 4) (t.val % 4) :=
  outsAt33_acc_pos V c t.val t.isLt

/-- At a row's last point the output block holds the row's whole fold. -/
theorem outsAt33_out (c : Dev nD) (t : Fin cfg33.N) (h3 : t.val % 4 = 3) :
    (outsAt33 V c t.val t.isLt).1 = accOf33 V c (t.val / 4) 3 := by
  have e := outsAt33_acc V c t
  rw [h3] at e
  exact (outsAt33_last V c t h3).trans e

end Cert.KernelIdeal.Hand

end
-- ==== Proof.ValKI33b.lean ====
/- Laid out by: python3 scratch/layout_regions.py --template-region 1 --region 33 --program KernelIdeal --prefix Val --parts a,b,c --sim main_v9=main_v8,main_v25=main_v185,main_v26=main_v187 --out-dir proof/Proof
   from the hand-written text of region 1 (ValKI1b.lean): the same text, the region's number substituted. -/
/-
  Region 33 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI33a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts33 : ∀ t : Fin cfg33.N,
    win33_0.index t (0 : Fin 2) = t.val / 4 ∧ win33_0.index t (1 : Fin 2) = t.val % 4
    ∧ win33_1.index t (0 : Fin 2) = t.val % 4 ∧ win33_1.index t (1 : Fin 2) = 0
    ∧ win33_2.index t (0 : Fin 2) = t.val / 4 ∧ win33_2.index t (1 : Fin 2) = 0 :=
  (by decide +kernel : ∀ t : Fin grid33.N,
    win33_0.index t (0 : Fin 2) = t.val / 4 ∧ win33_0.index t (1 : Fin 2) = t.val % 4
    ∧ win33_1.index t (0 : Fin 2) = t.val % 4 ∧ win33_1.index t (1 : Fin 2) = 0
    ∧ win33_2.index t (0 : Fin 2) = t.val / 4 ∧ win33_2.index t (1 : Fin 2) = 0)

/-! ## The output array as one function -/

/-- The whole output array: its row 1024 r + p, column q, is entry (p, q) of the block accumulated over k = 0 … 3 in
    block row r. -/
def whole33 (c : Dev nD) : S4096x512.Idx → Elt F .f32 := fun i =>
  accOf33 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole33_apply (c : Dev nD) (r : ℕ) (y : S1024x512.Idx) (i : S4096x512.Idx)
    (h0 : (i 0).val = 1024 * r + (y 0).val) (h1 : (i 1).val = (y 1).val) :
    whole33 V c i = accOf33 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole33
  rw [hr, e]

/-- Row 1024 r + p, column q of the array is entry (p, q) of block row r's accumulated block. -/
theorem whole33_ix2 (c : Dev nD) (r : Fin 4) (p : Fin 1024) (q : Fin 512) :
    whole33 V c (ix2 (n0 := 4096) (n1 := 512) ⟨1024 * r.val + p.val, by have := r.isLt; have := p.isLt; omega⟩ q)
      = accOf33 V c r.val 3 (ix2 p q) :=
  whole33_apply V c r.val (ix2 p q) _ rfl rfl

/-! ## What a point writes back -/

/-- A point with k = 3 writes back its block of the whole-array function. -/
theorem flushed33_eq (c : Dev nD) (t : Fin cfg33.N) (hf : (cfg33.win 2).flush t = true) :
    (dat33 V c).flushed 2 t = ((cfg33.win 2).blk t).view.read (Elt F) (whole33 V c) := by
  have h3 : t.val % 4 = 3 := (flush33_2 t).mp hf
  show (cfg33.win 2).cut (grid33.coords t) ((dat33 V c).after 2 t) = _
  rw [after33_2, outsAt33_out V c t h3]
  obtain ⟨-, -, -, -, e0, e1⟩ := idxFacts33 t
  funext j
  show accOf33 V c (t.val / 4) 3 j = whole33 V c (((cfg33.win 2).blk t).view.emb j)
  refine (whole33_apply V c (t.val / 4) j _ ?_ ?_).symm
  · show win33_2.index t (0 : Fin 2) * 1024 + 1 * (j 0).val = 1024 * (t.val / 4) + (j 0).val
    rw [e0]; omega
  · show win33_2.index t (1 : Fin 2) * 512 + 1 * (j 1).val = (j 1).val
    rw [e1]; omega

/-! ## The blocks written back cover the array -/

/-- An index is in a point's output block iff each coordinate is in the block's range on its axis. -/
theorem memBlk33 (t : Fin cfg33.N) (i : S4096x512.Idx) :
    i ∈ ((cfg33.win 2).blk t).view.set ↔ ∀ a : Fin 2, win33_2.index t a * S1024x512.size a ≤ (i a).val
      ∧ (i a).val < win33_2.index t a * S1024x512.size a + S1024x512.size a := by
  show i ∈ ((View.whole main_v187).slice (win33_2.rect t)).set ↔ _
  rw [View.set_slice_whole, Rect.mem_set_unit]
  exact Iff.rfl

/-- Row i of the array lies in the block written back at the point (i / 1024, 3). -/
theorem covered33 (i : S4096x512.Idx) :
    ∃ t : Fin cfg33.N, (cfg33.win 2).flush t = true ∧ i ∈ ((cfg33.win 2).blk t).view.set := by
  have hi0 : (i 0).val < 4096 := idx2_lt0 i
  have hi1 : (i 1).val < 512 := idx2_lt1 i
  have hN : cfg33.N = 16 := N_33
  obtain ⟨t, ht⟩ : ∃ t : Fin cfg33.N, t.val = 4 * ((i 0).val / 1024) + 3 :=
    ⟨⟨4 * ((i 0).val / 1024) + 3, by rw [hN]; omega⟩, rfl⟩
  refine ⟨t, (flush33_2 t).mpr (by omega), ?_⟩
  rw [memBlk33]
  obtain ⟨-, -, -, -, e0, e1⟩ := idxFacts33 t
  intro a
  match a with
  | ⟨0, _⟩ =>
    show win33_2.index t (0 : Fin 2) * 1024 ≤ (i 0).val ∧ (i 0).val < win33_2.index t (0 : Fin 2) * 1024 + 1024
    rw [e0]; omega
  | ⟨1, _⟩ =>
    show win33_2.index t (1 : Fin 2) * 512 ≤ (i 1).val ∧ (i 1).val < win33_2.index t (1 : Fin 2) * 512 + 512
    rw [e1]; omega

/-! ## The three arrays after the region -/

/-- The output array after the region is the whole-array function. -/
theorem final33_2 (c : Dev nD) : (dat33 V c).arrAt 2 cfg33.N = whole33 V c :=
  (dat33 V c).arrAt_eq_of_cover 2 (whole33 V c) (flushed33_eq V c) covered33

/-- The two input arrays are as the region found them. -/
theorem final33_0 (c : Dev nD) : (dat33 V c).arrAt 0 cfg33.N = V c main_v8 :=
  ((dat33 V c).arrAt_in 0 rfl cfg33.N).trans (A_eq33 V c 0)
theorem final33_1 (c : Dev nD) : (dat33 V c).arrAt 1 cfg33.N = V c main_v185 :=
  ((dat33 V c).arrAt_in 1 rfl cfg33.N).trans (A_eq33 V c 1)

/-! ## The input blocks as blocks of the operand arrays -/

/-- The left operand's block at the point (r, k): entry (y₀, y₁) is the array's entry (1024 r + y₀, 1024 k + y₁). -/
theorem iblk33_lhs_apply (c : Dev nD) (r k : Fin 4) (y : S1024x1024.Idx) (i : S4096x4096.Idx)
    (h0 : (i 0).val = 1024 * r.val + (y 0).val) (h1 : (i 1).val = 1024 * k.val + (y 1).val) :
    iblk33_lhs V c (4 * r.val + k.val) y = (V c main_v8 : S4096x4096.Idx → Elt F .bf16) i := by
  have hN : cfg33.N = 16 := N_33
  have hr := r.isLt
  have hk := k.isLt
  have hlt : 4 * r.val + k.val < cfg33.N := by rw [hN]; omega
  rw [iblk33_lhs_eq V c _ hlt]
  obtain ⟨e0, e1, -, -, -, -⟩ := idxFacts33 ⟨4 * r.val + k.val, hlt⟩
  have e0' : win33_0.index ⟨4 * r.val + k.val, hlt⟩ (0 : Fin 2) = (4 * r.val + k.val) / 4 := e0
  have e1' : win33_0.index ⟨4 * r.val + k.val, hlt⟩ (1 : Fin 2) = (4 * r.val + k.val) % 4 := e1
  unfold iblk33
  rw [View.read_apply]
  show V c main_v8 (((cfg33.win 0).blk ⟨4 * r.val + k.val, hlt⟩).view.emb y) = V c main_v8 i
  congr 1
  funext a
  apply Fin.ext
  match a with
  | ⟨0, _⟩ =>
    show win33_0.index ⟨4 * r.val + k.val, hlt⟩ (0 : Fin 2) * 1024 + 1 * (y 0).val = (i 0).val
    rw [e0', h0]; omega
  | ⟨1, _⟩ =>
    show win33_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk33_rhs_apply (c : Dev nD) (r k : Fin 4) (y : S1024x512.Idx) (i : S4096x512.Idx)
    (h0 : (i 0).val = 1024 * k.val + (y 0).val) (h1 : (i 1).val = (y 1).val) :
    iblk33_rhs V c (4 * r.val + k.val) y = (V c main_v185 : S4096x512.Idx → Elt F .f32) i := by
  have hN : cfg33.N = 16 := N_33
  have hr := r.isLt
  have hk := k.isLt
  have hlt : 4 * r.val + k.val < cfg33.N := by rw [hN]; omega
  rw [iblk33_rhs_eq V c _ hlt]
  obtain ⟨-, -, e0, e1, -, -⟩ := idxFacts33 ⟨4 * r.val + k.val, hlt⟩
  have e0' : win33_1.index ⟨4 * r.val + k.val, hlt⟩ (0 : Fin 2) = (4 * r.val + k.val) % 4 := e0
  have e1' : win33_1.index ⟨4 * r.val + k.val, hlt⟩ (1 : Fin 2) = 0 := e1
  unfold iblk33
  rw [View.read_apply]
  show V c main_v185 (((cfg33.win 1).blk ⟨4 * r.val + k.val, hlt⟩).view.emb y) = V c main_v185 i
  congr 1
  funext a
  apply Fin.ext
  match a with
  | ⟨0, _⟩ =>
    show win33_1.index ⟨4 * r.val + k.val, hlt⟩ (0 : Fin 2) * 1024 + 1 * (y 0).val = (i 0).val
    rw [e0', h0]; omega
  | ⟨1, _⟩ =>
    show win33_1.index ⟨4 * r.val + k.val, hlt⟩ (1 : Fin 2) * 512 + 1 * (y 1).val = (i 1).val
    rw [e1', h1]; omega

/-- The accumulated block after the fourth step, unfolded: four steps from the zero block. -/
theorem accOf33_three (c : Dev nD) (r : ℕ) :
    accOf33 V c r 3
      = k33_pay2 (iblk33_lhs V c (4 * r + 3)) (iblk33_rhs V c (4 * r + 3))
          (k33_pay2 (iblk33_lhs V c (4 * r + 2)) (iblk33_rhs V c (4 * r + 2))
            (k33_pay2 (iblk33_lhs V c (4 * r + 1)) (iblk33_rhs V c (4 * r + 1))
              (k33_pay2 (iblk33_lhs V c (4 * r)) (iblk33_rhs V c (4 * r)) (k33_pay1 (F := F))))) := rfl

end Cert.KernelIdeal.Hand

end
-- ==== Proof.ValKI33c.lean ====
/- Laid out by: python3 scratch/layout_regions.py --template-region 1 --region 33 --program KernelIdeal --prefix Val --parts a,b,c --sim main_v9=main_v8,main_v25=main_v185,main_v26=main_v187 --out-dir proof/Proof
   from the hand-written text of region 1 (ValKI1c.lean): the same text, the region's number substituted. -/
/-
  Region 33 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI33b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf33_step (x0 : Vec Ideal S1024x1024 .bf16) (x1 acc : Vec Ideal S1024x512 .f32) :
    k33_pay2 (F := Ideal) x0 x1 acc
      = Cert.MMLaw.accStep dot_S1024x1024_S1024x512_S1024x512_1_0_0_1_n_n none x0 x1 acc := by
  unfold k33_pay2
  simp only [shapeCast_self]
  rfl

/-- The accumulator starts from the zero block. -/
theorem accOf33_init (j : S1024x512.Idx) : k33_pay1 (F := Ideal) j = 0 := by
  unfold k33_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf33_eq_blk (c : Dev nD) (r : Fin 4) (D : DotDims S4096x4096 S4096x512 S4096x512) (hD : Cert.MMLaw.IsPlain D)
    (prec : Option ContractPrecision) :
    accOf33 V c r.val 3
      = Cert.MMLaw.blk (nr := 4) (nc := 1) 1024 512 rfl rfl (Cert.MMLaw.whole D prec (V c main_v8) (V c main_v185)) r 0 := by
  rw [accOf33_three]
  simp only [accOf33_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v8) (V c main_v185) r 0
    (fun k => iblk33_lhs V c (4 * r.val + k.val)) (fun k => iblk33_rhs V c (4 * r.val + k.val))
    (fun k => funext fun y => iblk33_lhs_apply V c r k y _ rfl rfl)
    (fun k => funext fun y => iblk33_rhs_apply V c r k y _ rfl (by show 512 * 0 + (y 1).val = (y 1).val; omega))
    (k33_pay1 (F := Ideal)) accOf33_init

/-! ## The output array after the region is the whole product -/

/-- The region leaves in its output array the product of its two operand arrays. -/
theorem final33_2_eq_whole (c : Dev nD) (D : DotDims S4096x4096 S4096x512 S4096x512) (hD : Cert.MMLaw.IsPlain D)
    (prec : Option ContractPrecision) :
    (dat33 (F := Ideal) V c).arrAt 2 cfg33.N = Cert.MMLaw.whole D prec (V c main_v8) (V c main_v185) := by
  rw [final33_2]
  funext i
  have hi0 : (i 0).val < 4096 := idx2_lt0 i
  have h := congrFun (accOf33_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final33_2_eq_dot (c : Dev nD) (D : DotDims S4096x4096 S4096x512 S4096x512) (hD : Cert.MMLaw.IsPlain D)
    (prec : Option ContractPrecision) :
    (dat33 (F := Ideal) V c).arrAt 2 cfg33.N = Host.dotGeneral (F := Ideal) (φ₁ := .bf16) (φ₂ := .f32) D prec (V c main_v8) (V c main_v185) :=
  final33_2_eq_whole V c D hD prec

end Cert.KernelIdeal.Hand

end
-- ==== Proof.ValKI34a.lean ====
/- Laid out by: python3 scratch/layout_grid41.py --prefix Val --template-region 0 --region 34 --program KernelIdeal --parts a,b --shapes S1024x128=S1024x512,S128x512=S512x512,S1024x512=S1024x512,S4096x128=S4096x512,S4096x512=S4096x512,main_arg0=main_v190,main_v12=main_v10,main_v17=main_v191,h0=h0,e0=e0,hi0=hi0,x0=x0
   from the hand-written text of region 0 (ValKI0a.lean): the same text, the region's number, block shapes, operand arrays substituted. -/
/-
  Region 34 of @main: from the output blocks to the whole output array.

  The grid is [4, 1]: the point t is block row t, and the reduction axis has one step, so every point zeroes the
  accumulator, adds the product of its two input blocks, and writes the sum back. The output window's block at t is
  rows 1024 t … 1024 t + 1023 of the result, written back at every point. So the array after the region is ONE function
  of the index: row 1024 r + p, column q holds entry (p, q) of the block the point r leaves. The steps: the three windows'
  block indices decided once over the grid; what a point writes back is its block of that function; the four blocks
  written back cover the array (row i lies in the block of the point i / 1024); hence the array after the region. The two
  operand arrays are not written. Last, each input block as a block of its operand array: the left operand's block at the
  point t is its rows 1024 t … 1024 t + 1023 (every column), the right operand's block is the whole array at every point.
-/
import proofs.«158944_j64613488001249_1_alg».proof.Proof.RegKI34
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t the left operand's block is (t, 0), the right operand's (0, 0), the output's (t, 0). -/
theorem idxFacts34 : ∀ t : Fin cfg34.N,
    win34_0.index t (0 : Fin 2) = t.val ∧ win34_0.index t (1 : Fin 2) = 0
    ∧ win34_1.index t (0 : Fin 2) = 0 ∧ win34_1.index t (1 : Fin 2) = 0
    ∧ win34_2.index t (0 : Fin 2) = t.val ∧ win34_2.index t (1 : Fin 2) = 0 :=
  (by decide +kernel : ∀ t : Fin grid34.N,
    win34_0.index t (0 : Fin 2) = t.val ∧ win34_0.index t (1 : Fin 2) = 0
    ∧ win34_1.index t (0 : Fin 2) = 0 ∧ win34_1.index t (1 : Fin 2) = 0
    ∧ win34_2.index t (0 : Fin 2) = t.val ∧ win34_2.index t (1 : Fin 2) = 0)

/-! ## The block a point leaves -/

/-- The block the point at grid position n leaves: the zero block plus the product of the point's two input blocks
    (past the grid's end, where nothing consults it, the block of position 0). -/
def accOf34 (c : Dev nD) (n : ℕ) : Vec F S1024x512 .f32 :=
  if h : n < cfg34.N then k34_pay2 (iblk34 V c 0 ⟨n, h⟩) (iblk34 V c 1 ⟨n, h⟩) (k34_pay1 (F := F))
  else k34_pay2 (iblk34 V c 0 ⟨0, by have h : cfg34.N = 4 := N_34; omega⟩)
    (iblk34 V c 1 ⟨0, by have h : cfg34.N = 4 := N_34; omega⟩) (k34_pay1 (F := F))

theorem accOf34_eq (c : Dev nD) (t : Fin cfg34.N) :
    accOf34 V c t.val = k34_pay2 (iblk34 V c 0 t) (iblk34 V c 1 t) (k34_pay1 (F := F)) := by
  unfold accOf34; exact dif_pos t.isLt

/-- At every point the output block holds that block. -/
theorem outsAt34_out (c : Dev nD) (t : Fin cfg34.N) : (outsAt34 V c t.val t.isLt).1 = accOf34 V c t.val :=
  (outsAt34_last V c t).trans ((outsAt34_first V c t).trans (accOf34_eq V c t).symm)

/-! ## The output array as one function -/

/-- The whole output array: its row 1024 r + p, column q, is entry (p, q) of the block the point r leaves. -/
def whole34 (c : Dev nD) : S4096x512.Idx → Elt F .f32 := fun i =>
  accOf34 V c ((i 0).val / 1024)
    (ix2 ⟨(i 0).val % 1024, Nat.mod_lt _ (by decide)⟩ ⟨(i 1).val, idx2_lt1 i⟩)

/-- The array read at an index given by a block row r and a position y inside the block. -/
theorem whole34_apply (c : Dev nD) (r : ℕ) (y : S1024x512.Idx) (i : S4096x512.Idx)
    (h0 : (i 0).val = 1024 * r + (y 0).val) (h1 : (i 1).val = (y 1).val) :
    whole34 V c i = accOf34 V c r y := by
  have hy : (y 0).val < 1024 := idx2_lt0 y
  have hr : (i 0).val / 1024 = r := by omega
  have hp : (i 0).val % 1024 = (y 0).val := by omega
  have e : (ix2 ⟨(i 0).val % 1024, Nat.mod_lt _ (by decide)⟩ ⟨(i 1).val, idx2_lt1 i⟩ : S1024x512.Idx) = y :=
    funext fun a => match a with
      | ⟨0, _⟩ => Fin.ext hp
      | ⟨1, _⟩ => Fin.ext h1
  unfold whole34
  rw [hr, e]

/-- Row 1024 r + p, column q of the array is entry (p, q) of the block the point r leaves. -/
theorem whole34_ix2 (c : Dev nD) (r : Fin 4) (p : Fin 1024) (q : Fin (S1024x512.size 1)) :
    whole34 V c (ix2 ⟨1024 * r.val + p.val, by have := r.isLt; have := p.isLt; omega⟩ q)
      = accOf34 V c r.val (ix2 p q) :=
  whole34_apply V c r.val (ix2 p q) _ rfl rfl

/-! ## What a point writes back -/

/-- Every point writes back its block of the whole-array function. -/
theorem flushed34_eq (c : Dev nD) (t : Fin cfg34.N) (hf : (cfg34.win 2).flush t = true) :
    (dat34 V c).flushed 2 t = ((cfg34.win 2).blk t).view.read (Elt F) (whole34 V c) := by
  show (cfg34.win 2).cut (grid34.coords t) ((dat34 V c).after 2 t) = _
  rw [after34_2, outsAt34_out V c t]
  obtain ⟨-, -, -, -, e0, e1⟩ := idxFacts34 t
  funext j
  show accOf34 V c t.val j = whole34 V c (((cfg34.win 2).blk t).view.emb j)
  refine (whole34_apply V c t.val j _ ?_ ?_).symm
  · show win34_2.index t (0 : Fin 2) * 1024 + 1 * (j 0).val = 1024 * t.val + (j 0).val
    rw [e0]; omega
  · show win34_2.index t (1 : Fin 2) * S1024x512.size (1 : Fin 2) + 1 * (j 1).val = (j 1).val
    rw [e1, Nat.zero_mul, Nat.zero_add, Nat.one_mul]

/-! ## The blocks written back cover the array -/

/-- An index is in a point's output block iff each coordinate is in the block's range on its axis. -/
theorem memBlk34 (t : Fin cfg34.N) (i : S4096x512.Idx) :
    i ∈ ((cfg34.win 2).blk t).view.set ↔ ∀ a : Fin 2, win34_2.index t a * S1024x512.size a ≤ (i a).val
      ∧ (i a).val < win34_2.index t a * S1024x512.size a + S1024x512.size a := by
  show i ∈ ((View.whole main_v191).slice (win34_2.rect t)).set ↔ _
  rw [View.set_slice_whole, Rect.mem_set_unit]
  exact Iff.rfl

/-- Row i of the array lies in the block written back at the point i / 1024. -/
theorem covered34 (i : S4096x512.Idx) :
    ∃ t : Fin cfg34.N, (cfg34.win 2).flush t = true ∧ i ∈ ((cfg34.win 2).blk t).view.set := by
  have hi0 : (i 0).val < 4096 := idx2_lt0 i
  have hi1 : (i 1).val < S1024x512.size (1 : Fin 2) := idx2_lt1 i
  have hN : cfg34.N = 4 := N_34
  obtain ⟨t, ht⟩ : ∃ t : Fin cfg34.N, t.val = (i 0).val / 1024 :=
    ⟨⟨(i 0).val / 1024, by rw [hN]; omega⟩, rfl⟩
  refine ⟨t, flush34_2 t, ?_⟩
  rw [memBlk34]
  obtain ⟨-, -, -, -, e0, e1⟩ := idxFacts34 t
  intro a
  match a with
  | ⟨0, _⟩ =>
    show win34_2.index t (0 : Fin 2) * 1024 ≤ (i 0).val ∧ (i 0).val < win34_2.index t (0 : Fin 2) * 1024 + 1024
    rw [e0]; omega
  | ⟨1, _⟩ =>
    show win34_2.index t (1 : Fin 2) * S1024x512.size (1 : Fin 2) ≤ (i 1).val
      ∧ (i 1).val < win34_2.index t (1 : Fin 2) * S1024x512.size (1 : Fin 2) + S1024x512.size (1 : Fin 2)
    rw [e1, Nat.zero_mul, Nat.zero_add]
    exact ⟨Nat.zero_le _, hi1⟩

/-! ## The three arrays after the region -/

/-- The output array after the region is the whole-array function. -/
theorem final34_2 (c : Dev nD) : (dat34 V c).arrAt 2 cfg34.N = whole34 V c :=
  (dat34 V c).arrAt_eq_of_cover 2 (whole34 V c) (flushed34_eq V c) covered34

/-- The two input arrays are as the region found them. -/
theorem final34_0 (c : Dev nD) : (dat34 V c).arrAt 0 cfg34.N = V c main_v190 :=
  ((dat34 V c).arrAt_in 0 rfl cfg34.N).trans (A_eq34 V c 0)
theorem final34_1 (c : Dev nD) : (dat34 V c).arrAt 1 cfg34.N = V c main_v10 :=
  ((dat34 V c).arrAt_in 1 rfl cfg34.N).trans (A_eq34 V c 1)

/-! ## The input blocks as blocks of the operand arrays -/

/-- The left operand's block at the point t: entry (y₀, y₁) is the array's entry (1024 t + y₀, y₁). -/
theorem iblk34_lhs_apply (c : Dev nD) (t : Fin cfg34.N) (y : S1024x512.Idx) (i : S4096x512.Idx)
    (h0 : (i 0).val = 1024 * t.val + (y 0).val) (h1 : (i 1).val = (y 1).val) :
    iblk34 V c 0 t y = (V c main_v190 : S4096x512.Idx → Elt F .f32) i := by
  obtain ⟨e0, e1, -, -, -, -⟩ := idxFacts34 t
  unfold iblk34
  rw [View.read_apply]
  show V c main_v190 (((cfg34.win 0).blk t).view.emb y) = V c main_v190 i
  congr 1
  funext a
  apply Fin.ext
  match a with
  | ⟨0, _⟩ =>
    show win34_0.index t (0 : Fin 2) * 1024 + 1 * (y 0).val = (i 0).val
    rw [e0, h0]; omega
  | ⟨1, _⟩ =>
    show win34_0.index t (1 : Fin 2) * S1024x512.size (1 : Fin 2) + 1 * (y 1).val = (i 1).val
    rw [e1, h1, Nat.zero_mul, Nat.zero_add, Nat.one_mul]

/-- The right operand's block is the whole array at every point. -/
theorem iblk34_rhs_eq (c : Dev nD) (t : Fin cfg34.N) :
    iblk34 V c 1 t = (V c main_v10 : S512x512.Idx → Elt F .bf16) := by
  obtain ⟨-, -, e0, e1, -, -⟩ := idxFacts34 t
  funext y
  unfold iblk34
  rw [View.read_apply]
  show V c main_v10 (((cfg34.win 1).blk t).view.emb y) = V c main_v10 y
  congr 1
  funext a
  apply Fin.ext
  match a with
  | ⟨0, _⟩ =>
    show win34_1.index t (0 : Fin 2) * S512x512.size (0 : Fin 2) + 1 * (y 0).val = (y 0).val
    rw [e0, Nat.zero_mul, Nat.zero_add, Nat.one_mul]
  | ⟨1, _⟩ =>
    show win34_1.index t (1 : Fin 2) * S512x512.size (1 : Fin 2) + 1 * (y 1).val = (y 1).val
    rw [e1, Nat.zero_mul, Nat.zero_add, Nat.one_mul]

end Cert.KernelIdeal.Hand

end
-- ==== Proof.ValKI34b.lean ====
/- Laid out by: python3 scratch/layout_grid41.py --prefix Val --template-region 0 --region 34 --program KernelIdeal --parts a,b --shapes S1024x128=S1024x512,S128x512=S512x512,S1024x512=S1024x512,S4096x128=S4096x512,S4096x512=S4096x512,main_arg0=main_v190,main_v12=main_v10,main_v17=main_v191,h0=h0,e0=e0,hi0=hi0,x0=x0
   from the hand-written text of region 0 (ValKI0b.lean): the same text, the region's number, block shapes, operand arrays substituted. -/
/-
  Region 34 of @main at the extended reals: the output array after the region is the product of the two operand arrays.

  A change of float format is the identity at these values and a reshape to the same shape is the identity, so the
  kernel's one accumulation step is "accumulator plus the product of the two blocks into the zero block", and the
  accumulator starts from the zero block. The block the point r leaves is then zero plus the product of rows
  1024 r … 1024 r + 1023 of the left operand with the whole right operand, which is the same rows of the whole product:
  the contraction axis is not cut, so the sums are the same term by term. Read through the whole-array function of the
  blocks-to-array module, entry (1024 r + p, q) of the output array is that entry of the product.
-/
import proofs.«158944_j64613488001249_1_alg».proof.Proof.ValKI34a
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The accumulation step, and its start, at the extended reals -/

/-- A change of format and a reshape to the same shape are the identity: the step adds the product of the two blocks
    (into the zero block) to the accumulator. -/
theorem accOf34_step (x0 : Vec Ideal S1024x512 .f32) (x1 : Vec Ideal S512x512 .bf16) (acc : Vec Ideal S1024x512 .f32) :
    k34_pay2 (F := Ideal) x0 x1 acc
      = Cert.MMLaw.accStep dot_S1024x512_S512x512_S1024x512_1_0_0_1_n_n none x0 x1 acc := by
  unfold k34_pay2
  simp only [shapeCast_self]
  rfl

/-- The accumulator starts from the zero block. -/
theorem accOf34_init (j : S1024x512.Idx) : k34_pay1 (F := Ideal) j = 0 := by
  unfold k34_pay1
  rw [shapeCast_self]
  exact Ideal.ofBits_zero_f32

/-! ## The block a point leaves is a block of the whole product -/

/-- The block the point r leaves is rows 1024 r … 1024 r + 1023 of the product of the two operand arrays. -/
theorem accOf34_eq_blk (c : Dev nD) (r : Fin 4) (D : DotDims S4096x512 S512x512 S4096x512) (hD : Cert.MMLaw.IsPlain D)
    (prec : Option ContractPrecision) :
    accOf34 V c r.val
      = Cert.MMLaw.rowBlk (Cert.MMLaw.whole D prec (V c main_v190) (V c main_v10)) r := by
  have hN : cfg34.N = 4 := N_34
  have hr : r.val < cfg34.N := by rw [hN]; exact r.isLt
  rw [accOf34_eq V c ⟨r.val, hr⟩, accOf34_step]
  exact Cert.MMLaw.law41 dot_S1024x512_S512x512_S1024x512_1_0_0_1_n_n ⟨rfl, rfl, rfl, rfl, rfl, rfl⟩ D hD none prec
    (V c main_v190) (V c main_v10) r (iblk34 V c 0 ⟨r.val, hr⟩) (iblk34 V c 1 ⟨r.val, hr⟩)
    (funext fun y => iblk34_lhs_apply V c ⟨r.val, hr⟩ y _ rfl rfl) (iblk34_rhs_eq V c ⟨r.val, hr⟩)
    (k34_pay1 (F := Ideal)) accOf34_init

/-! ## The output array after the region is the whole product -/

/-- The region leaves in its output array the product of its two operand arrays. -/
theorem final34_2_eq_whole (c : Dev nD) (D : DotDims S4096x512 S512x512 S4096x512) (hD : Cert.MMLaw.IsPlain D)
    (prec : Option ContractPrecision) :
    (dat34 (F := Ideal) V c).arrAt 2 cfg34.N = Cert.MMLaw.whole D prec (V c main_v190) (V c main_v10) := by
  rw [final34_2]
  funext i
  have hi0 : (i 0).val < 4096 := idx2_lt0 i
  have h := congrFun (accOf34_eq_blk V c ⟨(i 0).val / 1024, by omega⟩ D hD prec)
    (ix2 ⟨(i 0).val % 1024, Nat.mod_lt _ (by decide)⟩ ⟨(i 1).val, idx2_lt1 i⟩)
  rw [Cert.MMLaw.rowBlk_apply] at h
  refine Eq.trans h (congrArg _ ?_)
  funext a
  match a with
  | ⟨0, _⟩ => exact Fin.ext (by show 1024 * ((i 0).val / 1024) + (i 0).val % 1024 = (i 0).val; omega)
  | ⟨1, _⟩ => rfl

/-- The same with the operands at the formats they are stored in. -/
theorem final34_2_eq_dot (c : Dev nD) (D : DotDims S4096x512 S512x512 S4096x512) (hD : Cert.MMLaw.IsPlain D)
    (prec : Option ContractPrecision) :
    (dat34 (F := Ideal) V c).arrAt 2 cfg34.N
      = Host.dotGeneral (F := Ideal) (φ₁ := .f32) (φ₂ := .bf16) D prec (V c main_v190) (V c main_v10) :=
  final34_2_eq_whole V c D hD prec

end Cert.KernelIdeal.Hand

end
-- ==== Proof.ValKI35a.lean ====
/- Laid out by: python3 scratch/layout_regions.py --template-region 1 --region 35 --program KernelIdeal --prefix Val --parts a,b,c --sim main_v9=main_v7,main_v25=main_v191,main_v26=main_v192 --out-dir proof/Proof
   from the hand-written text of region 1 (ValKI1a.lean): the same text, the region's number substituted. -/
/-
  Region 35 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k35_pay1` (the zero block) and `k35_pay2` (accumulator plus product) are the two stores' payloads.

  So along one row of blocks r the accumulator after its step k is the left fold
    accOf35 r 0 = pay2 (a (r, 0)) (b 0) pay1,    accOf35 r (k + 1) = pay2 (a (r, k + 1)) (b (k + 1)) (accOf35 r k),
  the grid point (r, k) being position 4 r + k; and at k = 3 the output block holds accOf35 r 3.
-/
import proofs.«158944_j64613488001249_1_alg».proof.Proof.RegKI35
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout35_A_eq (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond35_0 i) (hc1 : ¬cond35_1 i)
    (x0 : Vec F S1024x1024 .bf16) (x1 : Vec F S1024x512 .f32) :
    sout35_A c i arg2 harg2 arg3 harg3 arg4 harg4 arg5 harg5 hc0 hc1 x0 x1 = k35_pay2 x0 x1 (k35_pay1 (F := F)) := by
  have hz : (![0, 0] : Fin 2 → Nat) = fun _ => 0 := funext fun a => by fin_cases a <;> rfl
  unfold sout35_A
  rw [View.read_writes_eq_canon _ _ _ (scover35_A c i arg2 harg2 arg3 harg3 arg4 harg4 arg5 harg5 hc0 hc1 x0 x1)]
  unfold kernelRun35_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout35_B_eq (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond35_0 i) (hc1 : ¬cond35_1 i)
    (x0 : Vec F S1024x1024 .bf16) (x1 : Vec F S1024x512 .f32) (xs0 : Vec F S1024x512 .f32) :
    sout35_B c i arg2 harg2 arg3 harg3 arg4 harg4 arg5 harg5 hc0 hc1 x0 x1 xs0 = k35_pay2 x0 x1 xs0 := by
  have hz : (![0, 0] : Fin 2 → Nat) = fun _ => 0 := funext fun a => by fin_cases a <;> rfl
  unfold sout35_B
  rw [View.read_writes_eq_canon _ _ _ (scover35_B c i arg2 harg2 arg3 harg3 arg4 harg4 arg5 harg5 hc0 hc1 x0 x1 xs0)]
  unfold kernelRun35_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout35_C_eq (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond35_0 i) (hc1 : cond35_1 i)
    (x0 : Vec F S1024x1024 .bf16) (x1 : Vec F S1024x512 .f32) (xs0 : Vec F S1024x512 .f32) :
    sout35_C c i arg2 harg2 arg3 harg3 arg4 harg4 arg5 harg5 hc0 hc1 x0 x1 xs0 = k35_pay2 x0 x1 xs0 := by
  have hz : (![0, 0] : Fin 2 → Nat) = fun _ => 0 := funext fun a => by fin_cases a <;> rfl
  unfold sout35_C
  rw [View.read_writes_eq_canon _ _ _ (scover35_C c i arg2 harg2 arg3 harg3 arg4 harg4 arg5 harg5 hc0 hc1 x0 x1 xs0)]
  unfold kernelRun35_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out35_C_eq (c : Dev nD) (i : grid35.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond35_0 i) (hc1 : cond35_1 i)
    (x0 : Vec F S1024x1024 .bf16) (x1 : Vec F S1024x512 .f32) (xs0 : Vec F S1024x512 .f32) :
    out35_C c i arg2 harg2 arg3 harg3 arg4 harg4 arg5 harg5 hc0 hc1 x0 x1 xs0 = k35_pay2 x0 x1 xs0 := by
  have hz : (![0, 0] : Fin 2 → Nat) = fun _ => 0 := funext fun a => by fin_cases a <;> rfl
  unfold out35_C
  rw [View.read_writes_eq_canon _ _ _ (cover35_C c i arg2 harg2 arg3 harg3 arg4 harg4 arg5 harg5 hc0 hc1 x0 x1 xs0)]
  unfold kernelRun35_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk35_lhs (c : Dev nD) (n : ℕ) : Vec F S1024x1024 .bf16 :=
  if h : n < cfg35.N then iblk35 V c 0 ⟨n, h⟩ else iblk35 V c 0 ⟨0, by have h : cfg35.N = 16 := N_35; omega⟩
/-- The right factor's block at grid position `n`. -/
def iblk35_rhs (c : Dev nD) (n : ℕ) : Vec F S1024x512 .f32 :=
  if h : n < cfg35.N then iblk35 V c 1 ⟨n, h⟩ else iblk35 V c 1 ⟨0, by have h : cfg35.N = 16 := N_35; omega⟩

theorem iblk35_lhs_eq (c : Dev nD) (n : ℕ) (h : n < cfg35.N) : iblk35_lhs V c n = iblk35 V c 0 ⟨n, h⟩ := dif_pos h
theorem iblk35_rhs_eq (c : Dev nD) (n : ℕ) (h : n < cfg35.N) : iblk35_rhs V c n = iblk35 V c 1 ⟨n, h⟩ := dif_pos h

/-! ## The accumulator along one row of blocks -/

/-- Row of blocks `r`, after its step `k`: the zero block plus the products of the blocks at positions 4 r, …, 4 r + k,
    added in that order. -/
def accOf35 (c : Dev nD) (r : ℕ) : ℕ → Vec F S1024x512 .f32
  | 0 => k35_pay2 (iblk35_lhs V c (4 * r)) (iblk35_rhs V c (4 * r)) (k35_pay1 (F := F))
  | k + 1 => k35_pay2 (iblk35_lhs V c (4 * r + (k + 1))) (iblk35_rhs V c (4 * r + (k + 1))) (accOf35 c r k)

theorem accOf35_zero (c : Dev nD) (r : ℕ) :
    accOf35 V c r 0 = k35_pay2 (iblk35_lhs V c (4 * r)) (iblk35_rhs V c (4 * r)) (k35_pay1 (F := F)) := rfl
theorem accOf35_succ (c : Dev nD) (r k : ℕ) :
    accOf35 V c r (k + 1) = k35_pay2 (iblk35_lhs V c (4 * r + (k + 1))) (iblk35_rhs V c (4 * r + (k + 1))) (accOf35 V c r k) := rfl

theorem iblk35_lhs_at (c : Dev nD) (t : Fin cfg35.N) (n : ℕ) (hn : n = t.val) : iblk35_lhs V c n = iblk35 V c 0 t := by
  subst hn; unfold iblk35_lhs; exact dif_pos t.isLt
theorem iblk35_rhs_at (c : Dev nD) (t : Fin cfg35.N) (n : ℕ) (hn : n = t.val) : iblk35_rhs V c n = iblk35 V c 1 t := by
  subst hn; unfold iblk35_rhs; exact dif_pos t.isLt

/-- At a grid point with k = 0 the fold starts: the zero block plus the product of the point's two blocks. -/
theorem accOf35_first (c : Dev nD) (t : Fin cfg35.N) (h0 : t.val % 4 = 0) :
    accOf35 V c (t.val / 4) (t.val % 4) = k35_pay2 (iblk35 V c 0 t) (iblk35 V c 1 t) (k35_pay1 (F := F)) := by
  rw [h0, accOf35_zero, iblk35_lhs_at V c t (4 * (t.val / 4)) (by omega), iblk35_rhs_at V c t (4 * (t.val / 4)) (by omega)]

/-- At a grid point with k ≠ 0 the fold takes one step from the position before, which is in the same row of blocks. -/
theorem accOf35_next (c : Dev nD) (t : Fin cfg35.N) (h0 : ¬t.val % 4 = 0) :
    accOf35 V c (t.val / 4) (t.val % 4)
      = k35_pay2 (iblk35 V c 0 t) (iblk35 V c 1 t) (accOf35 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf35_succ, iblk35_lhs_at V c t (4 * (t.val / 4) + (k + 1)) (by omega),
    iblk35_rhs_at V c t (4 * (t.val / 4) + (k + 1)) (by omega)]

/-! ## The accumulator and the output block, point by point, as pure functions of the blocks -/

/-- k = 0: the accumulator restarts from the zero block. -/
theorem outsAt35_first (c : Dev nD) (t : Fin cfg35.N) (h0 : t.val % 4 = 0) :
    (outsAt35 V c t.val t.isLt).2 = k35_pay2 (iblk35 V c 0 t) (iblk35 V c 1 t) (k35_pay1 (F := F)) := by
  rw [outsAt35_A V c t h0]
  dsimp only
  exact sout35_A_eq c (grid35.coords t) (ms35_0 t) (hs35_0 t) (ms35_1 t) (hs35_1 t) (ms35_2 t) (hs35_2 t) scM35 (Memref.isWhole_whole _) (isFirst35 t h0) (notLast35 t (by omega)) (iblk35 V c 0 t) (iblk35 V c 1 t)

/-- k ≠ 0: the point's product is added to what the point before left. -/
theorem outsAt35_next (c : Dev nD) (t : Fin cfg35.N) (h0 : ¬t.val % 4 = 0) :
    (outsAt35 V c t.val t.isLt).2
      = k35_pay2 (iblk35 V c 0 t) (iblk35 V c 1 t) (outsAt35 V c (t.val - 1) (Nat.lt_of_le_of_lt (Nat.sub_le _ _) t.isLt)).2 := by
  by_cases h3 : t.val % 4 = 3
  · rw [outsAt35_C V c t h0 h3]
    dsimp only
    exact sout35_C_eq c (grid35.coords t) (ms35_0 t) (hs35_0 t) (ms35_1 t) (hs35_1 t) (ms35_2 t) (hs35_2 t) scM35 (Memref.isWhole_whole _) (notFirst35 t h0) (isLast35 t h3) (iblk35 V c 0 t) (iblk35 V c 1 t)
      (outsAt35 V c (t.val - 1) (Nat.lt_of_le_of_lt (Nat.sub_le _ _) t.isLt)).2
  · rw [outsAt35_B V c t h0 h3]
    dsimp only
    exact sout35_B_eq c (grid35.coords t) (ms35_0 t) (hs35_0 t) (ms35_1 t) (hs35_1 t) (ms35_2 t) (hs35_2 t) scM35 (Memref.isWhole_whole _) (notFirst35 t h0) (notLast35 t h3) (iblk35 V c 0 t) (iblk35 V c 1 t)
      (outsAt35 V c (t.val - 1) (Nat.lt_of_le_of_lt (Nat.sub_le _ _) t.isLt)).2

/-- k = 3: the output block is the accumulator. -/
theorem outsAt35_last (c : Dev nD) (t : Fin cfg35.N) (h3 : t.val % 4 = 3) :
    (outsAt35 V c t.val t.isLt).1 = (outsAt35 V c t.val t.isLt).2 := by
  have h0 : ¬t.val % 4 = 0 := by omega
  rw [outsAt35_C V c t h0 h3]
  dsimp only
  exact (out35_C_eq c (grid35.coords t) (ms35_0 t) (hs35_0 t) (ms35_1 t) (hs35_1 t) (ms35_2 t) (hs35_2 t) scM35 (Memref.isWhole_whole _) (notFirst35 t h0) (isLast35 t h3) (iblk35 V c 0 t) (iblk35 V c 1 t)
      (outsAt35 V c (t.val - 1) (Nat.lt_of_le_of_lt (Nat.sub_le _ _) t.isLt)).2).trans
    (sout35_C_eq c (grid35.coords t) (ms35_0 t) (hs35_0 t) (ms35_1 t) (hs35_1 t) (ms35_2 t) (hs35_2 t) scM35 (Memref.isWhole_whole _) (notFirst35 t h0) (isLast35 t h3) (iblk35 V c 0 t) (iblk35 V c 1 t)
      (outsAt35 V c (t.val - 1) (Nat.lt_of_le_of_lt (Nat.sub_le _ _) t.isLt)).2).symm

/-! ## The accumulator is the fold -/

/-- After position `n` the accumulator holds row `n / 4`'s fold after its step `n % 4`: by induction on the position. -/
theorem outsAt35_acc_pos (c : Dev nD) :
    ∀ (n : ℕ) (hn : n < cfg35.N), (outsAt35 V c n hn).2 = accOf35 V c (n / 4) (n % 4) := by
  intro n
  induction n with
  | zero =>
    intro hn
    exact (outsAt35_first V c ⟨0, hn⟩ (Nat.zero_mod 4)).trans (accOf35_first V c ⟨0, hn⟩ (Nat.zero_mod 4)).symm
  | succ n ih =>
    intro hn
    by_cases h0 : (n + 1) % 4 = 0
    · exact (outsAt35_first V c ⟨n + 1, hn⟩ h0).trans (accOf35_first V c ⟨n + 1, hn⟩ h0).symm
    · refine (outsAt35_next V c ⟨n + 1, hn⟩ h0).trans (Eq.trans ?_ (accOf35_next V c ⟨n + 1, hn⟩ h0).symm)
      exact congrArg (k35_pay2 (iblk35 V c 0 ⟨n + 1, hn⟩) (iblk35 V c 1 ⟨n + 1, hn⟩)) (ih (Nat.lt_of_succ_lt hn))

/-- At every grid point the accumulator holds its row's fold after the point's step. -/
theorem outsAt35_acc (c : Dev nD) (t : Fin cfg35.N) :
    (outsAt35 V c t.val t.isLt).2 = accOf35 V c (t.val / 4) (t.val % 4) :=
  outsAt35_acc_pos V c t.val t.isLt

/-- At a row's last point the output block holds the row's whole fold. -/
theorem outsAt35_out (c : Dev nD) (t : Fin cfg35.N) (h3 : t.val % 4 = 3) :
    (outsAt35 V c t.val t.isLt).1 = accOf35 V c (t.val / 4) 3 := by
  have e := outsAt35_acc V c t
  rw [h3] at e
  exact (outsAt35_last V c t h3).trans e

end Cert.KernelIdeal.Hand

end
-- ==== Proof.ValKI35b.lean ====
/- Laid out by: python3 scratch/layout_regions.py --template-region 1 --region 35 --program KernelIdeal --prefix Val --parts a,b,c --sim main_v9=main_v7,main_v25=main_v191,main_v26=main_v192 --out-dir proof/Proof
   from the hand-written text of region 1 (ValKI1b.lean): the same text, the region's number substituted. -/
/-
  Region 35 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI35a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts35 : ∀ t : Fin cfg35.N,
    win35_0.index t (0 : Fin 2) = t.val / 4 ∧ win35_0.index t (1 : Fin 2) = t.val % 4
    ∧ win35_1.index t (0 : Fin 2) = t.val % 4 ∧ win35_1.index t (1 : Fin 2) = 0
    ∧ win35_2.index t (0 : Fin 2) = t.val / 4 ∧ win35_2.index t (1 : Fin 2) = 0 :=
  (by decide +kernel : ∀ t : Fin grid35.N,
    win35_0.index t (0 : Fin 2) = t.val / 4 ∧ win35_0.index t (1 : Fin 2) = t.val % 4
    ∧ win35_1.index t (0 : Fin 2) = t.val % 4 ∧ win35_1.index t (1 : Fin 2) = 0
    ∧ win35_2.index t (0 : Fin 2) = t.val / 4 ∧ win35_2.index t (1 : Fin 2) = 0)

/-! ## The output array as one function -/

/-- The whole output array: its row 1024 r + p, column q, is entry (p, q) of the block accumulated over k = 0 … 3 in
    block row r. -/
def whole35 (c : Dev nD) : S4096x512.Idx → Elt F .f32 := fun i =>
  accOf35 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole35_apply (c : Dev nD) (r : ℕ) (y : S1024x512.Idx) (i : S4096x512.Idx)
    (h0 : (i 0).val = 1024 * r + (y 0).val) (h1 : (i 1).val = (y 1).val) :
    whole35 V c i = accOf35 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole35
  rw [hr, e]

/-- Row 1024 r + p, column q of the array is entry (p, q) of block row r's accumulated block. -/
theorem whole35_ix2 (c : Dev nD) (r : Fin 4) (p : Fin 1024) (q : Fin 512) :
    whole35 V c (ix2 (n0 := 4096) (n1 := 512) ⟨1024 * r.val + p.val, by have := r.isLt; have := p.isLt; omega⟩ q)
      = accOf35 V c r.val 3 (ix2 p q) :=
  whole35_apply V c r.val (ix2 p q) _ rfl rfl

/-! ## What a point writes back -/

/-- A point with k = 3 writes back its block of the whole-array function. -/
theorem flushed35_eq (c : Dev nD) (t : Fin cfg35.N) (hf : (cfg35.win 2).flush t = true) :
    (dat35 V c).flushed 2 t = ((cfg35.win 2).blk t).view.read (Elt F) (whole35 V c) := by
  have h3 : t.val % 4 = 3 := (flush35_2 t).mp hf
  show (cfg35.win 2).cut (grid35.coords t) ((dat35 V c).after 2 t) = _
  rw [after35_2, outsAt35_out V c t h3]
  obtain ⟨-, -, -, -, e0, e1⟩ := idxFacts35 t
  funext j
  show accOf35 V c (t.val / 4) 3 j = whole35 V c (((cfg35.win 2).blk t).view.emb j)
  refine (whole35_apply V c (t.val / 4) j _ ?_ ?_).symm
  · show win35_2.index t (0 : Fin 2) * 1024 + 1 * (j 0).val = 1024 * (t.val / 4) + (j 0).val
    rw [e0]; omega
  · show win35_2.index t (1 : Fin 2) * 512 + 1 * (j 1).val = (j 1).val
    rw [e1]; omega

/-! ## The blocks written back cover the array -/

/-- An index is in a point's output block iff each coordinate is in the block's range on its axis. -/
theorem memBlk35 (t : Fin cfg35.N) (i : S4096x512.Idx) :
    i ∈ ((cfg35.win 2).blk t).view.set ↔ ∀ a : Fin 2, win35_2.index t a * S1024x512.size a ≤ (i a).val
      ∧ (i a).val < win35_2.index t a * S1024x512.size a + S1024x512.size a := by
  show i ∈ ((View.whole main_v192).slice (win35_2.rect t)).set ↔ _
  rw [View.set_slice_whole, Rect.mem_set_unit]
  exact Iff.rfl

/-- Row i of the array lies in the block written back at the point (i / 1024, 3). -/
theorem covered35 (i : S4096x512.Idx) :
    ∃ t : Fin cfg35.N, (cfg35.win 2).flush t = true ∧ i ∈ ((cfg35.win 2).blk t).view.set := by
  have hi0 : (i 0).val < 4096 := idx2_lt0 i
  have hi1 : (i 1).val < 512 := idx2_lt1 i
  have hN : cfg35.N = 16 := N_35
  obtain ⟨t, ht⟩ : ∃ t : Fin cfg35.N, t.val = 4 * ((i 0).val / 1024) + 3 :=
    ⟨⟨4 * ((i 0).val / 1024) + 3, by rw [hN]; omega⟩, rfl⟩
  refine ⟨t, (flush35_2 t).mpr (by omega), ?_⟩
  rw [memBlk35]
  obtain ⟨-, -, -, -, e0, e1⟩ := idxFacts35 t
  intro a
  match a with
  | ⟨0, _⟩ =>
    show win35_2.index t (0 : Fin 2) * 1024 ≤ (i 0).val ∧ (i 0).val < win35_2.index t (0 : Fin 2) * 1024 + 1024
    rw [e0]; omega
  | ⟨1, _⟩ =>
    show win35_2.index t (1 : Fin 2) * 512 ≤ (i 1).val ∧ (i 1).val < win35_2.index t (1 : Fin 2) * 512 + 512
    rw [e1]; omega

/-! ## The three arrays after the region -/

/-- The output array after the region is the whole-array function. -/
theorem final35_2 (c : Dev nD) : (dat35 V c).arrAt 2 cfg35.N = whole35 V c :=
  (dat35 V c).arrAt_eq_of_cover 2 (whole35 V c) (flushed35_eq V c) covered35

/-- The two input arrays are as the region found them. -/
theorem final35_0 (c : Dev nD) : (dat35 V c).arrAt 0 cfg35.N = V c main_v7 :=
  ((dat35 V c).arrAt_in 0 rfl cfg35.N).trans (A_eq35 V c 0)
theorem final35_1 (c : Dev nD) : (dat35 V c).arrAt 1 cfg35.N = V c main_v191 :=
  ((dat35 V c).arrAt_in 1 rfl cfg35.N).trans (A_eq35 V c 1)

/-! ## The input blocks as blocks of the operand arrays -/

/-- The left operand's block at the point (r, k): entry (y₀, y₁) is the array's entry (1024 r + y₀, 1024 k + y₁). -/
theorem iblk35_lhs_apply (c : Dev nD) (r k : Fin 4) (y : S1024x1024.Idx) (i : S4096x4096.Idx)
    (h0 : (i 0).val = 1024 * r.val + (y 0).val) (h1 : (i 1).val = 1024 * k.val + (y 1).val) :
    iblk35_lhs V c (4 * r.val + k.val) y = (V c main_v7 : S4096x4096.Idx → Elt F .bf16) i := by
  have hN : cfg35.N = 16 := N_35
  have hr := r.isLt
  have hk := k.isLt
  have hlt : 4 * r.val + k.val < cfg35.N := by rw [hN]; omega
  rw [iblk35_lhs_eq V c _ hlt]
  obtain ⟨e0, e1, -, -, -, -⟩ := idxFacts35 ⟨4 * r.val + k.val, hlt⟩
  have e0' : win35_0.index ⟨4 * r.val + k.val, hlt⟩ (0 : Fin 2) = (4 * r.val + k.val) / 4 := e0
  have e1' : win35_0.index ⟨4 * r.val + k.val, hlt⟩ (1 : Fin 2) = (4 * r.val + k.val) % 4 := e1
  unfold iblk35
  rw [View.read_apply]
  show V c main_v7 (((cfg35.win 0).blk ⟨4 * r.val + k.val, hlt⟩).view.emb y) = V c main_v7 i
  congr 1
  funext a
  apply Fin.ext
  match a with
  | ⟨0, _⟩ =>
    show win35_0.index ⟨4 * r.val + k.val, hlt⟩ (0 : Fin 2) * 1024 + 1 * (y 0).val = (i 0).val
    rw [e0', h0]; omega
  | ⟨1, _⟩ =>
    show win35_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk35_rhs_apply (c : Dev nD) (r k : Fin 4) (y : S1024x512.Idx) (i : S4096x512.Idx)
    (h0 : (i 0).val = 1024 * k.val + (y 0).val) (h1 : (i 1).val = (y 1).val) :
    iblk35_rhs V c (4 * r.val + k.val) y = (V c main_v191 : S4096x512.Idx → Elt F .f32) i := by
  have hN : cfg35.N = 16 := N_35
  have hr := r.isLt
  have hk := k.isLt
  have hlt : 4 * r.val + k.val < cfg35.N := by rw [hN]; omega
  rw [iblk35_rhs_eq V c _ hlt]
  obtain ⟨-, -, e0, e1, -, -⟩ := idxFacts35 ⟨4 * r.val + k.val, hlt⟩
  have e0' : win35_1.index ⟨4 * r.val + k.val, hlt⟩ (0 : Fin 2) = (4 * r.val + k.val) % 4 := e0
  have e1' : win35_1.index ⟨4 * r.val + k.val, hlt⟩ (1 : Fin 2) = 0 := e1
  unfold iblk35
  rw [View.read_apply]
  show V c main_v191 (((cfg35.win 1).blk ⟨4 * r.val + k.val, hlt⟩).view.emb y) = V c main_v191 i
  congr 1
  funext a
  apply Fin.ext
  match a with
  | ⟨0, _⟩ =>
    show win35_1.index ⟨4 * r.val + k.val, hlt⟩ (0 : Fin 2) * 1024 + 1 * (y 0).val = (i 0).val
    rw [e0', h0]; omega
  | ⟨1, _⟩ =>
    show win35_1.index ⟨4 * r.val + k.val, hlt⟩ (1 : Fin 2) * 512 + 1 * (y 1).val = (i 1).val
    rw [e1', h1]; omega

/-- The accumulated block after the fourth step, unfolded: four steps from the zero block. -/
theorem accOf35_three (c : Dev nD) (r : ℕ) :
    accOf35 V c r 3
      = k35_pay2 (iblk35_lhs V c (4 * r + 3)) (iblk35_rhs V c (4 * r + 3))
          (k35_pay2 (iblk35_lhs V c (4 * r + 2)) (iblk35_rhs V c (4 * r + 2))
            (k35_pay2 (iblk35_lhs V c (4 * r + 1)) (iblk35_rhs V c (4 * r + 1))
              (k35_pay2 (iblk35_lhs V c (4 * r)) (iblk35_rhs V c (4 * r)) (k35_pay1 (F := F))))) := rfl

end Cert.KernelIdeal.Hand

end
-- ==== Proof.ValKI35c.lean ====
/- Laid out by: python3 scratch/layout_regions.py --template-region 1 --region 35 --program KernelIdeal --prefix Val --parts a,b,c --sim main_v9=main_v7,main_v25=main_v191,main_v26=main_v192 --out-dir proof/Proof
   from the hand-written text of region 1 (ValKI1c.lean): the same text, the region's number substituted. -/
/-
  Region 35 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI35b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf35_step (x0 : Vec Ideal S1024x1024 .bf16) (x1 acc : Vec Ideal S1024x512 .f32) :
    k35_pay2 (F := Ideal) x0 x1 acc
      = Cert.MMLaw.accStep dot_S1024x1024_S1024x512_S1024x512_1_0_0_1_n_n none x0 x1 acc := by
  unfold k35_pay2
  simp only [shapeCast_self]
  rfl

/-- The accumulator starts from the zero block. -/
theorem accOf35_init (j : S1024x512.Idx) : k35_pay1 (F := Ideal) j = 0 := by
  unfold k35_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf35_eq_blk (c : Dev nD) (r : Fin 4) (D : DotDims S4096x4096 S4096x512 S4096x512) (hD : Cert.MMLaw.IsPlain D)
    (prec : Option ContractPrecision) :
    accOf35 V c r.val 3
      = Cert.MMLaw.blk (nr := 4) (nc := 1) 1024 512 rfl rfl (Cert.MMLaw.whole D prec (V c main_v7) (V c main_v191)) r 0 := by
  rw [accOf35_three]
  simp only [accOf35_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v7) (V c main_v191) r 0
    (fun k => iblk35_lhs V c (4 * r.val + k.val)) (fun k => iblk35_rhs V c (4 * r.val + k.val))
    (fun k => funext fun y => iblk35_lhs_apply V c r k y _ rfl rfl)
    (fun k => funext fun y => iblk35_rhs_apply V c r k y _ rfl (by show 512 * 0 + (y 1).val = (y 1).val; omega))
    (k35_pay1 (F := Ideal)) accOf35_init

/-! ## The output array after the region is the whole product -/

/-- The region leaves in its output array the product of its two operand arrays. -/
theorem final35_2_eq_whole (c : Dev nD) (D : DotDims S4096x4096 S4096x512 S4096x512) (hD : Cert.MMLaw.IsPlain D)
    (prec : Option ContractPrecision) :
    (dat35 (F := Ideal) V c).arrAt 2 cfg35.N = Cert.MMLaw.whole D prec (V c main_v7) (V c main_v191) := by
  rw [final35_2]
  funext i
  have hi0 : (i 0).val < 4096 := idx2_lt0 i
  have h := congrFun (accOf35_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final35_2_eq_dot (c : Dev nD) (D : DotDims S4096x4096 S4096x512 S4096x512) (hD : Cert.MMLaw.IsPlain D)
    (prec : Option ContractPrecision) :
    (dat35 (F := Ideal) V c).arrAt 2 cfg35.N = Host.dotGeneral (F := Ideal) (φ₁ := .bf16) (φ₂ := .f32) D prec (V c main_v7) (V c main_v191) :=
  final35_2_eq_whole V c D hD prec

end Cert.KernelIdeal.Hand

end
-- ==== Proof.ValKI36a.lean ====
/- Laid out by: python3 scratch/layout_regions.py --template-region 1 --region 36 --program KernelIdeal --prefix Val --parts a,b,c --sim main_v9=main_v9,main_v25=main_v210,main_v26=main_v211 --out-dir proof/Proof
   from the hand-written text of region 1 (ValKI1a.lean): the same text, the region's number substituted. -/
/-
  Region 36 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k36_pay1` (the zero block) and `k36_pay2` (accumulator plus product) are the two stores' payloads.

  So along one row of blocks r the accumulator after its step k is the left fold
    accOf36 r 0 = pay2 (a (r, 0)) (b 0) pay1,    accOf36 r (k + 1) = pay2 (a (r, k + 1)) (b (k + 1)) (accOf36 r k),
  the grid point (r, k) being position 4 r + k; and at k = 3 the output block holds accOf36 r 3.
-/
import proofs.«158944_j64613488001249_1_alg».proof.Proof.RegKI36
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout36_A_eq (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond36_0 i) (hc1 : ¬cond36_1 i)
    (x0 : Vec F S1024x1024 .bf16) (x1 : Vec F S1024x512 .f32) :
    sout36_A c i arg2 harg2 arg3 harg3 arg4 harg4 arg5 harg5 hc0 hc1 x0 x1 = k36_pay2 x0 x1 (k36_pay1 (F := F)) := by
  have hz : (![0, 0] : Fin 2 → Nat) = fun _ => 0 := funext fun a => by fin_cases a <;> rfl
  unfold sout36_A
  rw [View.read_writes_eq_canon _ _ _ (scover36_A c i arg2 harg2 arg3 harg3 arg4 harg4 arg5 harg5 hc0 hc1 x0 x1)]
  unfold kernelRun36_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout36_B_eq (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond36_0 i) (hc1 : ¬cond36_1 i)
    (x0 : Vec F S1024x1024 .bf16) (x1 : Vec F S1024x512 .f32) (xs0 : Vec F S1024x512 .f32) :
    sout36_B c i arg2 harg2 arg3 harg3 arg4 harg4 arg5 harg5 hc0 hc1 x0 x1 xs0 = k36_pay2 x0 x1 xs0 := by
  have hz : (![0, 0] : Fin 2 → Nat) = fun _ => 0 := funext fun a => by fin_cases a <;> rfl
  unfold sout36_B
  rw [View.read_writes_eq_canon _ _ _ (scover36_B c i arg2 harg2 arg3 harg3 arg4 harg4 arg5 harg5 hc0 hc1 x0 x1 xs0)]
  unfold kernelRun36_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout36_C_eq (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond36_0 i) (hc1 : cond36_1 i)
    (x0 : Vec F S1024x1024 .bf16) (x1 : Vec F S1024x512 .f32) (xs0 : Vec F S1024x512 .f32) :
    sout36_C c i arg2 harg2 arg3 harg3 arg4 harg4 arg5 harg5 hc0 hc1 x0 x1 xs0 = k36_pay2 x0 x1 xs0 := by
  have hz : (![0, 0] : Fin 2 → Nat) = fun _ => 0 := funext fun a => by fin_cases a <;> rfl
  unfold sout36_C
  rw [View.read_writes_eq_canon _ _ _ (scover36_C c i arg2 harg2 arg3 harg3 arg4 harg4 arg5 harg5 hc0 hc1 x0 x1 xs0)]
  unfold kernelRun36_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out36_C_eq (c : Dev nD) (i : grid36.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond36_0 i) (hc1 : cond36_1 i)
    (x0 : Vec F S1024x1024 .bf16) (x1 : Vec F S1024x512 .f32) (xs0 : Vec F S1024x512 .f32) :
    out36_C c i arg2 harg2 arg3 harg3 arg4 harg4 arg5 harg5 hc0 hc1 x0 x1 xs0 = k36_pay2 x0 x1 xs0 := by
  have hz : (![0, 0] : Fin 2 → Nat) = fun _ => 0 := funext fun a => by fin_cases a <;> rfl
  unfold out36_C
  rw [View.read_writes_eq_canon _ _ _ (cover36_C c i arg2 harg2 arg3 harg3 arg4 harg4 arg5 harg5 hc0 hc1 x0 x1 xs0)]
  unfold kernelRun36_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk36_lhs (c : Dev nD) (n : ℕ) : Vec F S1024x1024 .bf16 :=
  if h : n < cfg36.N then iblk36 V c 0 ⟨n, h⟩ else iblk36 V c 0 ⟨0, by have h : cfg36.N = 16 := N_36; omega⟩
/-- The right factor's block at grid position `n`. -/
def iblk36_rhs (c : Dev nD) (n : ℕ) : Vec F S1024x512 .f32 :=
  if h : n < cfg36.N then iblk36 V c 1 ⟨n, h⟩ else iblk36 V c 1 ⟨0, by have h : cfg36.N = 16 := N_36; omega⟩

theorem iblk36_lhs_eq (c : Dev nD) (n : ℕ) (h : n < cfg36.N) : iblk36_lhs V c n = iblk36 V c 0 ⟨n, h⟩ := dif_pos h
theorem iblk36_rhs_eq (c : Dev nD) (n : ℕ) (h : n < cfg36.N) : iblk36_rhs V c n = iblk36 V c 1 ⟨n, h⟩ := dif_pos h

/-! ## The accumulator along one row of blocks -/

/-- Row of blocks `r`, after its step `k`: the zero block plus the products of the blocks at positions 4 r, …, 4 r + k,
    added in that order. -/
def accOf36 (c : Dev nD) (r : ℕ) : ℕ → Vec F S1024x512 .f32
  | 0 => k36_pay2 (iblk36_lhs V c (4 * r)) (iblk36_rhs V c (4 * r)) (k36_pay1 (F := F))
  | k + 1 => k36_pay2 (iblk36_lhs V c (4 * r + (k + 1))) (iblk36_rhs V c (4 * r + (k + 1))) (accOf36 c r k)

theorem accOf36_zero (c : Dev nD) (r : ℕ) :
    accOf36 V c r 0 = k36_pay2 (iblk36_lhs V c (4 * r)) (iblk36_rhs V c (4 * r)) (k36_pay1 (F := F)) := rfl
theorem accOf36_succ (c : Dev nD) (r k : ℕ) :
    accOf36 V c r (k + 1) = k36_pay2 (iblk36_lhs V c (4 * r + (k + 1))) (iblk36_rhs V c (4 * r + (k + 1))) (accOf36 V c r k) := rfl

theorem iblk36_lhs_at (c : Dev nD) (t : Fin cfg36.N) (n : ℕ) (hn : n = t.val) : iblk36_lhs V c n = iblk36 V c 0 t := by
  subst hn; unfold iblk36_lhs; exact dif_pos t.isLt
theorem iblk36_rhs_at (c : Dev nD) (t : Fin cfg36.N) (n : ℕ) (hn : n = t.val) : iblk36_rhs V c n = iblk36 V c 1 t := by
  subst hn; unfold iblk36_rhs; exact dif_pos t.isLt

/-- At a grid point with k = 0 the fold starts: the zero block plus the product of the point's two blocks. -/
theorem accOf36_first (c : Dev nD) (t : Fin cfg36.N) (h0 : t.val % 4 = 0) :
    accOf36 V c (t.val / 4) (t.val % 4) = k36_pay2 (iblk36 V c 0 t) (iblk36 V c 1 t) (k36_pay1 (F := F)) := by
  rw [h0, accOf36_zero, iblk36_lhs_at V c t (4 * (t.val / 4)) (by omega), iblk36_rhs_at V c t (4 * (t.val / 4)) (by omega)]

/-- At a grid point with k ≠ 0 the fold takes one step from the position before, which is in the same row of blocks. -/
theorem accOf36_next (c : Dev nD) (t : Fin cfg36.N) (h0 : ¬t.val % 4 = 0) :
    accOf36 V c (t.val / 4) (t.val % 4)
      = k36_pay2 (iblk36 V c 0 t) (iblk36 V c 1 t) (accOf36 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf36_succ, iblk36_lhs_at V c t (4 * (t.val / 4) + (k + 1)) (by omega),
    iblk36_rhs_at V c t (4 * (t.val / 4) + (k + 1)) (by omega)]

/-! ## The accumulator and the output block, point by point, as pure functions of the blocks -/

/-- k = 0: the accumulator restarts from the zero block. -/
theorem outsAt36_first (c : Dev nD) (t : Fin cfg36.N) (h0 : t.val % 4 = 0) :
    (outsAt36 V c t.val t.isLt).2 = k36_pay2 (iblk36 V c 0 t) (iblk36 V c 1 t) (k36_pay1 (F := F)) := by
  rw [outsAt36_A V c t h0]
  dsimp only
  exact sout36_A_eq c (grid36.coords t) (ms36_0 t) (hs36_0 t) (ms36_1 t) (hs36_1 t) (ms36_2 t) (hs36_2 t) scM36 (Memref.isWhole_whole _) (isFirst36 t h0) (notLast36 t (by omega)) (iblk36 V c 0 t) (iblk36 V c 1 t)

/-- k ≠ 0: the point's product is added to what the point before left. -/
theorem outsAt36_next (c : Dev nD) (t : Fin cfg36.N) (h0 : ¬t.val % 4 = 0) :
    (outsAt36 V c t.val t.isLt).2
      = k36_pay2 (iblk36 V c 0 t) (iblk36 V c 1 t) (outsAt36 V c (t.val - 1) (Nat.lt_of_le_of_lt (Nat.sub_le _ _) t.isLt)).2 := by
  by_cases h3 : t.val % 4 = 3
  · rw [outsAt36_C V c t h0 h3]
    dsimp only
    exact sout36_C_eq c (grid36.coords t) (ms36_0 t) (hs36_0 t) (ms36_1 t) (hs36_1 t) (ms36_2 t) (hs36_2 t) scM36 (Memref.isWhole_whole _) (notFirst36 t h0) (isLast36 t h3) (iblk36 V c 0 t) (iblk36 V c 1 t)
      (outsAt36 V c (t.val - 1) (Nat.lt_of_le_of_lt (Nat.sub_le _ _) t.isLt)).2
  · rw [outsAt36_B V c t h0 h3]
    dsimp only
    exact sout36_B_eq c (grid36.coords t) (ms36_0 t) (hs36_0 t) (ms36_1 t) (hs36_1 t) (ms36_2 t) (hs36_2 t) scM36 (Memref.isWhole_whole _) (notFirst36 t h0) (notLast36 t h3) (iblk36 V c 0 t) (iblk36 V c 1 t)
      (outsAt36 V c (t.val - 1) (Nat.lt_of_le_of_lt (Nat.sub_le _ _) t.isLt)).2

/-- k = 3: the output block is the accumulator. -/
theorem outsAt36_last (c : Dev nD) (t : Fin cfg36.N) (h3 : t.val % 4 = 3) :
    (outsAt36 V c t.val t.isLt).1 = (outsAt36 V c t.val t.isLt).2 := by
  have h0 : ¬t.val % 4 = 0 := by omega
  rw [outsAt36_C V c t h0 h3]
  dsimp only
  exact (out36_C_eq c (grid36.coords t) (ms36_0 t) (hs36_0 t) (ms36_1 t) (hs36_1 t) (ms36_2 t) (hs36_2 t) scM36 (Memref.isWhole_whole _) (notFirst36 t h0) (isLast36 t h3) (iblk36 V c 0 t) (iblk36 V c 1 t)
      (outsAt36 V c (t.val - 1) (Nat.lt_of_le_of_lt (Nat.sub_le _ _) t.isLt)).2).trans
    (sout36_C_eq c (grid36.coords t) (ms36_0 t) (hs36_0 t) (ms36_1 t) (hs36_1 t) (ms36_2 t) (hs36_2 t) scM36 (Memref.isWhole_whole _) (notFirst36 t h0) (isLast36 t h3) (iblk36 V c 0 t) (iblk36 V c 1 t)
      (outsAt36 V c (t.val - 1) (Nat.lt_of_le_of_lt (Nat.sub_le _ _) t.isLt)).2).symm

/-! ## The accumulator is the fold -/

/-- After position `n` the accumulator holds row `n / 4`'s fold after its step `n % 4`: by induction on the position. -/
theorem outsAt36_acc_pos (c : Dev nD) :
    ∀ (n : ℕ) (hn : n < cfg36.N), (outsAt36 V c n hn).2 = accOf36 V c (n / 4) (n % 4) := by
  intro n
  induction n with
  | zero =>
    intro hn
    exact (outsAt36_first V c ⟨0, hn⟩ (Nat.zero_mod 4)).trans (accOf36_first V c ⟨0, hn⟩ (Nat.zero_mod 4)).symm
  | succ n ih =>
    intro hn
    by_cases h0 : (n + 1) % 4 = 0
    · exact (outsAt36_first V c ⟨n + 1, hn⟩ h0).trans (accOf36_first V c ⟨n + 1, hn⟩ h0).symm
    · refine (outsAt36_next V c ⟨n + 1, hn⟩ h0).trans (Eq.trans ?_ (accOf36_next V c ⟨n + 1, hn⟩ h0).symm)
      exact congrArg (k36_pay2 (iblk36 V c 0 ⟨n + 1, hn⟩) (iblk36 V c 1 ⟨n + 1, hn⟩)) (ih (Nat.lt_of_succ_lt hn))

/-- At every grid point the accumulator holds its row's fold after the point's step. -/
theorem outsAt36_acc (c : Dev nD) (t : Fin cfg36.N) :
    (outsAt36 V c t.val t.isLt).2 = accOf36 V c (t.val / 4) (t.val % 4) :=
  outsAt36_acc_pos V c t.val t.isLt

/-- At a row's last point the output block holds the row's whole fold. -/
theorem outsAt36_out (c : Dev nD) (t : Fin cfg36.N) (h3 : t.val % 4 = 3) :
    (outsAt36 V c t.val t.isLt).1 = accOf36 V c (t.val / 4) 3 := by
  have e := outsAt36_acc V c t
  rw [h3] at e
  exact (outsAt36_last V c t h3).trans e

end Cert.KernelIdeal.Hand

end
-- ==== Proof.ValKI36b.lean ====
/- Laid out by: python3 scratch/layout_regions.py --template-region 1 --region 36 --program KernelIdeal --prefix Val --parts a,b,c --sim main_v9=main_v9,main_v25=main_v210,main_v26=main_v211 --out-dir proof/Proof
   from the hand-written text of region 1 (ValKI1b.lean): the same text, the region's number substituted. -/
/-
  Region 36 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI36a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts36 : ∀ t : Fin cfg36.N,
    win36_0.index t (0 : Fin 2) = t.val / 4 ∧ win36_0.index t (1 : Fin 2) = t.val % 4
    ∧ win36_1.index t (0 : Fin 2) = t.val % 4 ∧ win36_1.index t (1 : Fin 2) = 0
    ∧ win36_2.index t (0 : Fin 2) = t.val / 4 ∧ win36_2.index t (1 : Fin 2) = 0 :=
  (by decide +kernel : ∀ t : Fin grid36.N,
    win36_0.index t (0 : Fin 2) = t.val / 4 ∧ win36_0.index t (1 : Fin 2) = t.val % 4
    ∧ win36_1.index t (0 : Fin 2) = t.val % 4 ∧ win36_1.index t (1 : Fin 2) = 0
    ∧ win36_2.index t (0 : Fin 2) = t.val / 4 ∧ win36_2.index t (1 : Fin 2) = 0)

/-! ## The output array as one function -/

/-- The whole output array: its row 1024 r + p, column q, is entry (p, q) of the block accumulated over k = 0 … 3 in
    block row r. -/
def whole36 (c : Dev nD) : S4096x512.Idx → Elt F .f32 := fun i =>
  accOf36 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole36_apply (c : Dev nD) (r : ℕ) (y : S1024x512.Idx) (i : S4096x512.Idx)
    (h0 : (i 0).val = 1024 * r + (y 0).val) (h1 : (i 1).val = (y 1).val) :
    whole36 V c i = accOf36 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole36
  rw [hr, e]

/-- Row 1024 r + p, column q of the array is entry (p, q) of block row r's accumulated block. -/
theorem whole36_ix2 (c : Dev nD) (r : Fin 4) (p : Fin 1024) (q : Fin 512) :
    whole36 V c (ix2 (n0 := 4096) (n1 := 512) ⟨1024 * r.val + p.val, by have := r.isLt; have := p.isLt; omega⟩ q)
      = accOf36 V c r.val 3 (ix2 p q) :=
  whole36_apply V c r.val (ix2 p q) _ rfl rfl

/-! ## What a point writes back -/

/-- A point with k = 3 writes back its block of the whole-array function. -/
theorem flushed36_eq (c : Dev nD) (t : Fin cfg36.N) (hf : (cfg36.win 2).flush t = true) :
    (dat36 V c).flushed 2 t = ((cfg36.win 2).blk t).view.read (Elt F) (whole36 V c) := by
  have h3 : t.val % 4 = 3 := (flush36_2 t).mp hf
  show (cfg36.win 2).cut (grid36.coords t) ((dat36 V c).after 2 t) = _
  rw [after36_2, outsAt36_out V c t h3]
  obtain ⟨-, -, -, -, e0, e1⟩ := idxFacts36 t
  funext j
  show accOf36 V c (t.val / 4) 3 j = whole36 V c (((cfg36.win 2).blk t).view.emb j)
  refine (whole36_apply V c (t.val / 4) j _ ?_ ?_).symm
  · show win36_2.index t (0 : Fin 2) * 1024 + 1 * (j 0).val = 1024 * (t.val / 4) + (j 0).val
    rw [e0]; omega
  · show win36_2.index t (1 : Fin 2) * 512 + 1 * (j 1).val = (j 1).val
    rw [e1]; omega

/-! ## The blocks written back cover the array -/

/-- An index is in a point's output block iff each coordinate is in the block's range on its axis. -/
theorem memBlk36 (t : Fin cfg36.N) (i : S4096x512.Idx) :
    i ∈ ((cfg36.win 2).blk t).view.set ↔ ∀ a : Fin 2, win36_2.index t a * S1024x512.size a ≤ (i a).val
      ∧ (i a).val < win36_2.index t a * S1024x512.size a + S1024x512.size a := by
  show i ∈ ((View.whole main_v211).slice (win36_2.rect t)).set ↔ _
  rw [View.set_slice_whole, Rect.mem_set_unit]
  exact Iff.rfl

/-- Row i of the array lies in the block written back at the point (i / 1024, 3). -/
theorem covered36 (i : S4096x512.Idx) :
    ∃ t : Fin cfg36.N, (cfg36.win 2).flush t = true ∧ i ∈ ((cfg36.win 2).blk t).view.set := by
  have hi0 : (i 0).val < 4096 := idx2_lt0 i
  have hi1 : (i 1).val < 512 := idx2_lt1 i
  have hN : cfg36.N = 16 := N_36
  obtain ⟨t, ht⟩ : ∃ t : Fin cfg36.N, t.val = 4 * ((i 0).val / 1024) + 3 :=
    ⟨⟨4 * ((i 0).val / 1024) + 3, by rw [hN]; omega⟩, rfl⟩
  refine ⟨t, (flush36_2 t).mpr (by omega), ?_⟩
  rw [memBlk36]
  obtain ⟨-, -, -, -, e0, e1⟩ := idxFacts36 t
  intro a
  match a with
  | ⟨0, _⟩ =>
    show win36_2.index t (0 : Fin 2) * 1024 ≤ (i 0).val ∧ (i 0).val < win36_2.index t (0 : Fin 2) * 1024 + 1024
    rw [e0]; omega
  | ⟨1, _⟩ =>
    show win36_2.index t (1 : Fin 2) * 512 ≤ (i 1).val ∧ (i 1).val < win36_2.index t (1 : Fin 2) * 512 + 512
    rw [e1]; omega

/-! ## The three arrays after the region -/

/-- The output array after the region is the whole-array function. -/
theorem final36_2 (c : Dev nD) : (dat36 V c).arrAt 2 cfg36.N = whole36 V c :=
  (dat36 V c).arrAt_eq_of_cover 2 (whole36 V c) (flushed36_eq V c) covered36

/-- The two input arrays are as the region found them. -/
theorem final36_0 (c : Dev nD) : (dat36 V c).arrAt 0 cfg36.N = V c main_v9 :=
  ((dat36 V c).arrAt_in 0 rfl cfg36.N).trans (A_eq36 V c 0)
theorem final36_1 (c : Dev nD) : (dat36 V c).arrAt 1 cfg36.N = V c main_v210 :=
  ((dat36 V c).arrAt_in 1 rfl cfg36.N).trans (A_eq36 V c 1)

/-! ## The input blocks as blocks of the operand arrays -/

/-- The left operand's block at the point (r, k): entry (y₀, y₁) is the array's entry (1024 r + y₀, 1024 k + y₁). -/
theorem iblk36_lhs_apply (c : Dev nD) (r k : Fin 4) (y : S1024x1024.Idx) (i : S4096x4096.Idx)
    (h0 : (i 0).val = 1024 * r.val + (y 0).val) (h1 : (i 1).val = 1024 * k.val + (y 1).val) :
    iblk36_lhs V c (4 * r.val + k.val) y = (V c main_v9 : S4096x4096.Idx → Elt F .bf16) i := by
  have hN : cfg36.N = 16 := N_36
  have hr := r.isLt
  have hk := k.isLt
  have hlt : 4 * r.val + k.val < cfg36.N := by rw [hN]; omega
  rw [iblk36_lhs_eq V c _ hlt]
  obtain ⟨e0, e1, -, -, -, -⟩ := idxFacts36 ⟨4 * r.val + k.val, hlt⟩
  have e0' : win36_0.index ⟨4 * r.val + k.val, hlt⟩ (0 : Fin 2) = (4 * r.val + k.val) / 4 := e0
  have e1' : win36_0.index ⟨4 * r.val + k.val, hlt⟩ (1 : Fin 2) = (4 * r.val + k.val) % 4 := e1
  unfold iblk36
  rw [View.read_apply]
  show V c main_v9 (((cfg36.win 0).blk ⟨4 * r.val + k.val, hlt⟩).view.emb y) = V c main_v9 i
  congr 1
  funext a
  apply Fin.ext
  match a with
  | ⟨0, _⟩ =>
    show win36_0.index ⟨4 * r.val + k.val, hlt⟩ (0 : Fin 2) * 1024 + 1 * (y 0).val = (i 0).val
    rw [e0', h0]; omega
  | ⟨1, _⟩ =>
    show win36_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk36_rhs_apply (c : Dev nD) (r k : Fin 4) (y : S1024x512.Idx) (i : S4096x512.Idx)
    (h0 : (i 0).val = 1024 * k.val + (y 0).val) (h1 : (i 1).val = (y 1).val) :
    iblk36_rhs V c (4 * r.val + k.val) y = (V c main_v210 : S4096x512.Idx → Elt F .f32) i := by
  have hN : cfg36.N = 16 := N_36
  have hr := r.isLt
  have hk := k.isLt
  have hlt : 4 * r.val + k.val < cfg36.N := by rw [hN]; omega
  rw [iblk36_rhs_eq V c _ hlt]
  obtain ⟨-, -, e0, e1, -, -⟩ := idxFacts36 ⟨4 * r.val + k.val, hlt⟩
  have e0' : win36_1.index ⟨4 * r.val + k.val, hlt⟩ (0 : Fin 2) = (4 * r.val + k.val) % 4 := e0
  have e1' : win36_1.index ⟨4 * r.val + k.val, hlt⟩ (1 : Fin 2) = 0 := e1
  unfold iblk36
  rw [View.read_apply]
  show V c main_v210 (((cfg36.win 1).blk ⟨4 * r.val + k.val, hlt⟩).view.emb y) = V c main_v210 i
  congr 1
  funext a
  apply Fin.ext
  match a with
  | ⟨0, _⟩ =>
    show win36_1.index ⟨4 * r.val + k.val, hlt⟩ (0 : Fin 2) * 1024 + 1 * (y 0).val = (i 0).val
    rw [e0', h0]; omega
  | ⟨1, _⟩ =>
    show win36_1.index ⟨4 * r.val + k.val, hlt⟩ (1 : Fin 2) * 512 + 1 * (y 1).val = (i 1).val
    rw [e1', h1]; omega

/-- The accumulated block after the fourth step, unfolded: four steps from the zero block. -/
theorem accOf36_three (c : Dev nD) (r : ℕ) :
    accOf36 V c r 3
      = k36_pay2 (iblk36_lhs V c (4 * r + 3)) (iblk36_rhs V c (4 * r + 3))
          (k36_pay2 (iblk36_lhs V c (4 * r + 2)) (iblk36_rhs V c (4 * r + 2))
            (k36_pay2 (iblk36_lhs V c (4 * r + 1)) (iblk36_rhs V c (4 * r + 1))
              (k36_pay2 (iblk36_lhs V c (4 * r)) (iblk36_rhs V c (4 * r)) (k36_pay1 (F := F))))) := rfl

end Cert.KernelIdeal.Hand

end
-- ==== Proof.ValKI36c.lean ====
/- Laid out by: python3 scratch/layout_regions.py --template-region 1 --region 36 --program KernelIdeal --prefix Val --parts a,b,c --sim main_v9=main_v9,main_v25=main_v210,main_v26=main_v211 --out-dir proof/Proof
   from the hand-written text of region 1 (ValKI1c.lean): the same text, the region's number substituted. -/
/-
  Region 36 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI36b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf36_step (x0 : Vec Ideal S1024x1024 .bf16) (x1 acc : Vec Ideal S1024x512 .f32) :
    k36_pay2 (F := Ideal) x0 x1 acc
      = Cert.MMLaw.accStep dot_S1024x1024_S1024x512_S1024x512_1_0_0_1_n_n none x0 x1 acc := by
  unfold k36_pay2
  simp only [shapeCast_self]
  rfl

/-- The accumulator starts from the zero block. -/
theorem accOf36_init (j : S1024x512.Idx) : k36_pay1 (F := Ideal) j = 0 := by
  unfold k36_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf36_eq_blk (c : Dev nD) (r : Fin 4) (D : DotDims S4096x4096 S4096x512 S4096x512) (hD : Cert.MMLaw.IsPlain D)
    (prec : Option ContractPrecision) :
    accOf36 V c r.val 3
      = Cert.MMLaw.blk (nr := 4) (nc := 1) 1024 512 rfl rfl (Cert.MMLaw.whole D prec (V c main_v9) (V c main_v210)) r 0 := by
  rw [accOf36_three]
  simp only [accOf36_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v9) (V c main_v210) r 0
    (fun k => iblk36_lhs V c (4 * r.val + k.val)) (fun k => iblk36_rhs V c (4 * r.val + k.val))
    (fun k => funext fun y => iblk36_lhs_apply V c r k y _ rfl rfl)
    (fun k => funext fun y => iblk36_rhs_apply V c r k y _ rfl (by show 512 * 0 + (y 1).val = (y 1).val; omega))
    (k36_pay1 (F := Ideal)) accOf36_init

/-! ## The output array after the region is the whole product -/

/-- The region leaves in its output array the product of its two operand arrays. -/
theorem final36_2_eq_whole (c : Dev nD) (D : DotDims S4096x4096 S4096x512 S4096x512) (hD : Cert.MMLaw.IsPlain D)
    (prec : Option ContractPrecision) :
    (dat36 (F := Ideal) V c).arrAt 2 cfg36.N = Cert.MMLaw.whole D prec (V c main_v9) (V c main_v210) := by
  rw [final36_2]
  funext i
  have hi0 : (i 0).val < 4096 := idx2_lt0 i
  have h := congrFun (accOf36_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final36_2_eq_dot (c : Dev nD) (D : DotDims S4096x4096 S4096x512 S4096x512) (hD : Cert.MMLaw.IsPlain D)
    (prec : Option ContractPrecision) :
    (dat36 (F := Ideal) V c).arrAt 2 cfg36.N = Host.dotGeneral (F := Ideal) (φ₁ := .bf16) (φ₂ := .f32) D prec (V c main_v9) (V c main_v210) :=
  final36_2_eq_whole V c D hD prec

end Cert.KernelIdeal.Hand

end
-- ==== Proof.ValKI37a.lean ====
/- Laid out by: python3 scratch/layout_regions.py --template-region 1 --region 37 --program KernelIdeal --prefix Val --parts a,b,c --sim main_v9=main_v8,main_v25=main_v205,main_v26=main_v215 --out-dir proof/Proof
   from the hand-written text of region 1 (ValKI1a.lean): the same text, the region's number substituted. -/
/-
  Region 37 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k37_pay1` (the zero block) and `k37_pay2` (accumulator plus product) are the two stores' payloads.

  So along one row of blocks r the accumulator after its step k is the left fold
    accOf37 r 0 = pay2 (a (r, 0)) (b 0) pay1,    accOf37 r (k + 1) = pay2 (a (r, k + 1)) (b (k + 1)) (accOf37 r k),
  the grid point (r, k) being position 4 r + k; and at k = 3 the output block holds accOf37 r 3.
-/
import proofs.«158944_j64613488001249_1_alg».proof.Proof.RegKI37
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout37_A_eq (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond37_0 i) (hc1 : ¬cond37_1 i)
    (x0 : Vec F S1024x1024 .bf16) (x1 : Vec F S1024x512 .f32) :
    sout37_A c i arg2 harg2 arg3 harg3 arg4 harg4 arg5 harg5 hc0 hc1 x0 x1 = k37_pay2 x0 x1 (k37_pay1 (F := F)) := by
  have hz : (![0, 0] : Fin 2 → Nat) = fun _ => 0 := funext fun a => by fin_cases a <;> rfl
  unfold sout37_A
  rw [View.read_writes_eq_canon _ _ _ (scover37_A c i arg2 harg2 arg3 harg3 arg4 harg4 arg5 harg5 hc0 hc1 x0 x1)]
  unfold kernelRun37_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout37_B_eq (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond37_0 i) (hc1 : ¬cond37_1 i)
    (x0 : Vec F S1024x1024 .bf16) (x1 : Vec F S1024x512 .f32) (xs0 : Vec F S1024x512 .f32) :
    sout37_B c i arg2 harg2 arg3 harg3 arg4 harg4 arg5 harg5 hc0 hc1 x0 x1 xs0 = k37_pay2 x0 x1 xs0 := by
  have hz : (![0, 0] : Fin 2 → Nat) = fun _ => 0 := funext fun a => by fin_cases a <;> rfl
  unfold sout37_B
  rw [View.read_writes_eq_canon _ _ _ (scover37_B c i arg2 harg2 arg3 harg3 arg4 harg4 arg5 harg5 hc0 hc1 x0 x1 xs0)]
  unfold kernelRun37_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout37_C_eq (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond37_0 i) (hc1 : cond37_1 i)
    (x0 : Vec F S1024x1024 .bf16) (x1 : Vec F S1024x512 .f32) (xs0 : Vec F S1024x512 .f32) :
    sout37_C c i arg2 harg2 arg3 harg3 arg4 harg4 arg5 harg5 hc0 hc1 x0 x1 xs0 = k37_pay2 x0 x1 xs0 := by
  have hz : (![0, 0] : Fin 2 → Nat) = fun _ => 0 := funext fun a => by fin_cases a <;> rfl
  unfold sout37_C
  rw [View.read_writes_eq_canon _ _ _ (scover37_C c i arg2 harg2 arg3 harg3 arg4 harg4 arg5 harg5 hc0 hc1 x0 x1 xs0)]
  unfold kernelRun37_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out37_C_eq (c : Dev nD) (i : grid37.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond37_0 i) (hc1 : cond37_1 i)
    (x0 : Vec F S1024x1024 .bf16) (x1 : Vec F S1024x512 .f32) (xs0 : Vec F S1024x512 .f32) :
    out37_C c i arg2 harg2 arg3 harg3 arg4 harg4 arg5 harg5 hc0 hc1 x0 x1 xs0 = k37_pay2 x0 x1 xs0 := by
  have hz : (![0, 0] : Fin 2 → Nat) = fun _ => 0 := funext fun a => by fin_cases a <;> rfl
  unfold out37_C
  rw [View.read_writes_eq_canon _ _ _ (cover37_C c i arg2 harg2 arg3 harg3 arg4 harg4 arg5 harg5 hc0 hc1 x0 x1 xs0)]
  unfold kernelRun37_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk37_lhs (c : Dev nD) (n : ℕ) : Vec F S1024x1024 .bf16 :=
  if h : n < cfg37.N then iblk37 V c 0 ⟨n, h⟩ else iblk37 V c 0 ⟨0, by have h : cfg37.N = 16 := N_37; omega⟩
/-- The right factor's block at grid position `n`. -/
def iblk37_rhs (c : Dev nD) (n : ℕ) : Vec F S1024x512 .f32 :=
  if h : n < cfg37.N then iblk37 V c 1 ⟨n, h⟩ else iblk37 V c 1 ⟨0, by have h : cfg37.N = 16 := N_37; omega⟩

theorem iblk37_lhs_eq (c : Dev nD) (n : ℕ) (h : n < cfg37.N) : iblk37_lhs V c n = iblk37 V c 0 ⟨n, h⟩ := dif_pos h
theorem iblk37_rhs_eq (c : Dev nD) (n : ℕ) (h : n < cfg37.N) : iblk37_rhs V c n = iblk37 V c 1 ⟨n, h⟩ := dif_pos h

/-! ## The accumulator along one row of blocks -/

/-- Row of blocks `r`, after its step `k`: the zero block plus the products of the blocks at positions 4 r, …, 4 r + k,
    added in that order. -/
def accOf37 (c : Dev nD) (r : ℕ) : ℕ → Vec F S1024x512 .f32
  | 0 => k37_pay2 (iblk37_lhs V c (4 * r)) (iblk37_rhs V c (4 * r)) (k37_pay1 (F := F))
  | k + 1 => k37_pay2 (iblk37_lhs V c (4 * r + (k + 1))) (iblk37_rhs V c (4 * r + (k + 1))) (accOf37 c r k)

theorem accOf37_zero (c : Dev nD) (r : ℕ) :
    accOf37 V c r 0 = k37_pay2 (iblk37_lhs V c (4 * r)) (iblk37_rhs V c (4 * r)) (k37_pay1 (F := F)) := rfl
theorem accOf37_succ (c : Dev nD) (r k : ℕ) :
    accOf37 V c r (k + 1) = k37_pay2 (iblk37_lhs V c (4 * r + (k + 1))) (iblk37_rhs V c (4 * r + (k + 1))) (accOf37 V c r k) := rfl

theorem iblk37_lhs_at (c : Dev nD) (t : Fin cfg37.N) (n : ℕ) (hn : n = t.val) : iblk37_lhs V c n = iblk37 V c 0 t := by
  subst hn; unfold iblk37_lhs; exact dif_pos t.isLt
theorem iblk37_rhs_at (c : Dev nD) (t : Fin cfg37.N) (n : ℕ) (hn : n = t.val) : iblk37_rhs V c n = iblk37 V c 1 t := by
  subst hn; unfold iblk37_rhs; exact dif_pos t.isLt

/-- At a grid point with k = 0 the fold starts: the zero block plus the product of the point's two blocks. -/
theorem accOf37_first (c : Dev nD) (t : Fin cfg37.N) (h0 : t.val % 4 = 0) :
    accOf37 V c (t.val / 4) (t.val % 4) = k37_pay2 (iblk37 V c 0 t) (iblk37 V c 1 t) (k37_pay1 (F := F)) := by
  rw [h0, accOf37_zero, iblk37_lhs_at V c t (4 * (t.val / 4)) (by omega), iblk37_rhs_at V c t (4 * (t.val / 4)) (by omega)]

/-- At a grid point with k ≠ 0 the fold takes one step from the position before, which is in the same row of blocks. -/
theorem accOf37_next (c : Dev nD) (t : Fin cfg37.N) (h0 : ¬t.val % 4 = 0) :
    accOf37 V c (t.val / 4) (t.val % 4)
      = k37_pay2 (iblk37 V c 0 t) (iblk37 V c 1 t) (accOf37 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf37_succ, iblk37_lhs_at V c t (4 * (t.val / 4) + (k + 1)) (by omega),
    iblk37_rhs_at V c t (4 * (t.val / 4) + (k + 1)) (by omega)]

/-! ## The accumulator and the output block, point by point, as pure functions of the blocks -/

/-- k = 0: the accumulator restarts from the zero block. -/
theorem outsAt37_first (c : Dev nD) (t : Fin cfg37.N) (h0 : t.val % 4 = 0) :
    (outsAt37 V c t.val t.isLt).2 = k37_pay2 (iblk37 V c 0 t) (iblk37 V c 1 t) (k37_pay1 (F := F)) := by
  rw [outsAt37_A V c t h0]
  dsimp only
  exact sout37_A_eq c (grid37.coords t) (ms37_0 t) (hs37_0 t) (ms37_1 t) (hs37_1 t) (ms37_2 t) (hs37_2 t) scM37 (Memref.isWhole_whole _) (isFirst37 t h0) (notLast37 t (by omega)) (iblk37 V c 0 t) (iblk37 V c 1 t)

/-- k ≠ 0: the point's product is added to what the point before left. -/
theorem outsAt37_next (c : Dev nD) (t : Fin cfg37.N) (h0 : ¬t.val % 4 = 0) :
    (outsAt37 V c t.val t.isLt).2
      = k37_pay2 (iblk37 V c 0 t) (iblk37 V c 1 t) (outsAt37 V c (t.val - 1) (Nat.lt_of_le_of_lt (Nat.sub_le _ _) t.isLt)).2 := by
  by_cases h3 : t.val % 4 = 3
  · rw [outsAt37_C V c t h0 h3]
    dsimp only
    exact sout37_C_eq c (grid37.coords t) (ms37_0 t) (hs37_0 t) (ms37_1 t) (hs37_1 t) (ms37_2 t) (hs37_2 t) scM37 (Memref.isWhole_whole _) (notFirst37 t h0) (isLast37 t h3) (iblk37 V c 0 t) (iblk37 V c 1 t)
      (outsAt37 V c (t.val - 1) (Nat.lt_of_le_of_lt (Nat.sub_le _ _) t.isLt)).2
  · rw [outsAt37_B V c t h0 h3]
    dsimp only
    exact sout37_B_eq c (grid37.coords t) (ms37_0 t) (hs37_0 t) (ms37_1 t) (hs37_1 t) (ms37_2 t) (hs37_2 t) scM37 (Memref.isWhole_whole _) (notFirst37 t h0) (notLast37 t h3) (iblk37 V c 0 t) (iblk37 V c 1 t)
      (outsAt37 V c (t.val - 1) (Nat.lt_of_le_of_lt (Nat.sub_le _ _) t.isLt)).2

/-- k = 3: the output block is the accumulator. -/
theorem outsAt37_last (c : Dev nD) (t : Fin cfg37.N) (h3 : t.val % 4 = 3) :
    (outsAt37 V c t.val t.isLt).1 = (outsAt37 V c t.val t.isLt).2 := by
  have h0 : ¬t.val % 4 = 0 := by omega
  rw [outsAt37_C V c t h0 h3]
  dsimp only
  exact (out37_C_eq c (grid37.coords t) (ms37_0 t) (hs37_0 t) (ms37_1 t) (hs37_1 t) (ms37_2 t) (hs37_2 t) scM37 (Memref.isWhole_whole _) (notFirst37 t h0) (isLast37 t h3) (iblk37 V c 0 t) (iblk37 V c 1 t)
      (outsAt37 V c (t.val - 1) (Nat.lt_of_le_of_lt (Nat.sub_le _ _) t.isLt)).2).trans
    (sout37_C_eq c (grid37.coords t) (ms37_0 t) (hs37_0 t) (ms37_1 t) (hs37_1 t) (ms37_2 t) (hs37_2 t) scM37 (Memref.isWhole_whole _) (notFirst37 t h0) (isLast37 t h3) (iblk37 V c 0 t) (iblk37 V c 1 t)
      (outsAt37 V c (t.val - 1) (Nat.lt_of_le_of_lt (Nat.sub_le _ _) t.isLt)).2).symm

/-! ## The accumulator is the fold -/

/-- After position `n` the accumulator holds row `n / 4`'s fold after its step `n % 4`: by induction on the position. -/
theorem outsAt37_acc_pos (c : Dev nD) :
    ∀ (n : ℕ) (hn : n < cfg37.N), (outsAt37 V c n hn).2 = accOf37 V c (n / 4) (n % 4) := by
  intro n
  induction n with
  | zero =>
    intro hn
    exact (outsAt37_first V c ⟨0, hn⟩ (Nat.zero_mod 4)).trans (accOf37_first V c ⟨0, hn⟩ (Nat.zero_mod 4)).symm
  | succ n ih =>
    intro hn
    by_cases h0 : (n + 1) % 4 = 0
    · exact (outsAt37_first V c ⟨n + 1, hn⟩ h0).trans (accOf37_first V c ⟨n + 1, hn⟩ h0).symm
    · refine (outsAt37_next V c ⟨n + 1, hn⟩ h0).trans (Eq.trans ?_ (accOf37_next V c ⟨n + 1, hn⟩ h0).symm)
      exact congrArg (k37_pay2 (iblk37 V c 0 ⟨n + 1, hn⟩) (iblk37 V c 1 ⟨n + 1, hn⟩)) (ih (Nat.lt_of_succ_lt hn))

/-- At every grid point the accumulator holds its row's fold after the point's step. -/
theorem outsAt37_acc (c : Dev nD) (t : Fin cfg37.N) :
    (outsAt37 V c t.val t.isLt).2 = accOf37 V c (t.val / 4) (t.val % 4) :=
  outsAt37_acc_pos V c t.val t.isLt

/-- At a row's last point the output block holds the row's whole fold. -/
theorem outsAt37_out (c : Dev nD) (t : Fin cfg37.N) (h3 : t.val % 4 = 3) :
    (outsAt37 V c t.val t.isLt).1 = accOf37 V c (t.val / 4) 3 := by
  have e := outsAt37_acc V c t
  rw [h3] at e
  exact (outsAt37_last V c t h3).trans e

end Cert.KernelIdeal.Hand

end
-- ==== Proof.ValKI37b.lean ====
/- Laid out by: python3 scratch/layout_regions.py --template-region 1 --region 37 --program KernelIdeal --prefix Val --parts a,b,c --sim main_v9=main_v8,main_v25=main_v205,main_v26=main_v215 --out-dir proof/Proof
   from the hand-written text of region 1 (ValKI1b.lean): the same text, the region's number substituted. -/
/-
  Region 37 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI37a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts37 : ∀ t : Fin cfg37.N,
    win37_0.index t (0 : Fin 2) = t.val / 4 ∧ win37_0.index t (1 : Fin 2) = t.val % 4
    ∧ win37_1.index t (0 : Fin 2) = t.val % 4 ∧ win37_1.index t (1 : Fin 2) = 0
    ∧ win37_2.index t (0 : Fin 2) = t.val / 4 ∧ win37_2.index t (1 : Fin 2) = 0 :=
  (by decide +kernel : ∀ t : Fin grid37.N,
    win37_0.index t (0 : Fin 2) = t.val / 4 ∧ win37_0.index t (1 : Fin 2) = t.val % 4
    ∧ win37_1.index t (0 : Fin 2) = t.val % 4 ∧ win37_1.index t (1 : Fin 2) = 0
    ∧ win37_2.index t (0 : Fin 2) = t.val / 4 ∧ win37_2.index t (1 : Fin 2) = 0)

/-! ## The output array as one function -/

/-- The whole output array: its row 1024 r + p, column q, is entry (p, q) of the block accumulated over k = 0 … 3 in
    block row r. -/
def whole37 (c : Dev nD) : S4096x512.Idx → Elt F .f32 := fun i =>
  accOf37 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole37_apply (c : Dev nD) (r : ℕ) (y : S1024x512.Idx) (i : S4096x512.Idx)
    (h0 : (i 0).val = 1024 * r + (y 0).val) (h1 : (i 1).val = (y 1).val) :
    whole37 V c i = accOf37 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole37
  rw [hr, e]

/-- Row 1024 r + p, column q of the array is entry (p, q) of block row r's accumulated block. -/
theorem whole37_ix2 (c : Dev nD) (r : Fin 4) (p : Fin 1024) (q : Fin 512) :
    whole37 V c (ix2 (n0 := 4096) (n1 := 512) ⟨1024 * r.val + p.val, by have := r.isLt; have := p.isLt; omega⟩ q)
      = accOf37 V c r.val 3 (ix2 p q) :=
  whole37_apply V c r.val (ix2 p q) _ rfl rfl

/-! ## What a point writes back -/

/-- A point with k = 3 writes back its block of the whole-array function. -/
theorem flushed37_eq (c : Dev nD) (t : Fin cfg37.N) (hf : (cfg37.win 2).flush t = true) :
    (dat37 V c).flushed 2 t = ((cfg37.win 2).blk t).view.read (Elt F) (whole37 V c) := by
  have h3 : t.val % 4 = 3 := (flush37_2 t).mp hf
  show (cfg37.win 2).cut (grid37.coords t) ((dat37 V c).after 2 t) = _
  rw [after37_2, outsAt37_out V c t h3]
  obtain ⟨-, -, -, -, e0, e1⟩ := idxFacts37 t
  funext j
  show accOf37 V c (t.val / 4) 3 j = whole37 V c (((cfg37.win 2).blk t).view.emb j)
  refine (whole37_apply V c (t.val / 4) j _ ?_ ?_).symm
  · show win37_2.index t (0 : Fin 2) * 1024 + 1 * (j 0).val = 1024 * (t.val / 4) + (j 0).val
    rw [e0]; omega
  · show win37_2.index t (1 : Fin 2) * 512 + 1 * (j 1).val = (j 1).val
    rw [e1]; omega

/-! ## The blocks written back cover the array -/

/-- An index is in a point's output block iff each coordinate is in the block's range on its axis. -/
theorem memBlk37 (t : Fin cfg37.N) (i : S4096x512.Idx) :
    i ∈ ((cfg37.win 2).blk t).view.set ↔ ∀ a : Fin 2, win37_2.index t a * S1024x512.size a ≤ (i a).val
      ∧ (i a).val < win37_2.index t a * S1024x512.size a + S1024x512.size a := by
  show i ∈ ((View.whole main_v215).slice (win37_2.rect t)).set ↔ _
  rw [View.set_slice_whole, Rect.mem_set_unit]
  exact Iff.rfl

/-- Row i of the array lies in the block written back at the point (i / 1024, 3). -/
theorem covered37 (i : S4096x512.Idx) :
    ∃ t : Fin cfg37.N, (cfg37.win 2).flush t = true ∧ i ∈ ((cfg37.win 2).blk t).view.set := by
  have hi0 : (i 0).val < 4096 := idx2_lt0 i
  have hi1 : (i 1).val < 512 := idx2_lt1 i
  have hN : cfg37.N = 16 := N_37
  obtain ⟨t, ht⟩ : ∃ t : Fin cfg37.N, t.val = 4 * ((i 0).val / 1024) + 3 :=
    ⟨⟨4 * ((i 0).val / 1024) + 3, by rw [hN]; omega⟩, rfl⟩
  refine ⟨t, (flush37_2 t).mpr (by omega), ?_⟩
  rw [memBlk37]
  obtain ⟨-, -, -, -, e0, e1⟩ := idxFacts37 t
  intro a
  match a with
  | ⟨0, _⟩ =>
    show win37_2.index t (0 : Fin 2) * 1024 ≤ (i 0).val ∧ (i 0).val < win37_2.index t (0 : Fin 2) * 1024 + 1024
    rw [e0]; omega
  | ⟨1, _⟩ =>
    show win37_2.index t (1 : Fin 2) * 512 ≤ (i 1).val ∧ (i 1).val < win37_2.index t (1 : Fin 2) * 512 + 512
    rw [e1]; omega

/-! ## The three arrays after the region -/

/-- The output array after the region is the whole-array function. -/
theorem final37_2 (c : Dev nD) : (dat37 V c).arrAt 2 cfg37.N = whole37 V c :=
  (dat37 V c).arrAt_eq_of_cover 2 (whole37 V c) (flushed37_eq V c) covered37

/-- The two input arrays are as the region found them. -/
theorem final37_0 (c : Dev nD) : (dat37 V c).arrAt 0 cfg37.N = V c main_v8 :=
  ((dat37 V c).arrAt_in 0 rfl cfg37.N).trans (A_eq37 V c 0)
theorem final37_1 (c : Dev nD) : (dat37 V c).arrAt 1 cfg37.N = V c main_v205 :=
  ((dat37 V c).arrAt_in 1 rfl cfg37.N).trans (A_eq37 V c 1)

/-! ## The input blocks as blocks of the operand arrays -/

/-- The left operand's block at the point (r, k): entry (y₀, y₁) is the array's entry (1024 r + y₀, 1024 k + y₁). -/
theorem iblk37_lhs_apply (c : Dev nD) (r k : Fin 4) (y : S1024x1024.Idx) (i : S4096x4096.Idx)
    (h0 : (i 0).val = 1024 * r.val + (y 0).val) (h1 : (i 1).val = 1024 * k.val + (y 1).val) :
    iblk37_lhs V c (4 * r.val + k.val) y = (V c main_v8 : S4096x4096.Idx → Elt F .bf16) i := by
  have hN : cfg37.N = 16 := N_37
  have hr := r.isLt
  have hk := k.isLt
  have hlt : 4 * r.val + k.val < cfg37.N := by rw [hN]; omega
  rw [iblk37_lhs_eq V c _ hlt]
  obtain ⟨e0, e1, -, -, -, -⟩ := idxFacts37 ⟨4 * r.val + k.val, hlt⟩
  have e0' : win37_0.index ⟨4 * r.val + k.val, hlt⟩ (0 : Fin 2) = (4 * r.val + k.val) / 4 := e0
  have e1' : win37_0.index ⟨4 * r.val + k.val, hlt⟩ (1 : Fin 2) = (4 * r.val + k.val) % 4 := e1
  unfold iblk37
  rw [View.read_apply]
  show V c main_v8 (((cfg37.win 0).blk ⟨4 * r.val + k.val, hlt⟩).view.emb y) = V c main_v8 i
  congr 1
  funext a
  apply Fin.ext
  match a with
  | ⟨0, _⟩ =>
    show win37_0.index ⟨4 * r.val + k.val, hlt⟩ (0 : Fin 2) * 1024 + 1 * (y 0).val = (i 0).val
    rw [e0', h0]; omega
  | ⟨1, _⟩ =>
    show win37_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk37_rhs_apply (c : Dev nD) (r k : Fin 4) (y : S1024x512.Idx) (i : S4096x512.Idx)
    (h0 : (i 0).val = 1024 * k.val + (y 0).val) (h1 : (i 1).val = (y 1).val) :
    iblk37_rhs V c (4 * r.val + k.val) y = (V c main_v205 : S4096x512.Idx → Elt F .f32) i := by
  have hN : cfg37.N = 16 := N_37
  have hr := r.isLt
  have hk := k.isLt
  have hlt : 4 * r.val + k.val < cfg37.N := by rw [hN]; omega
  rw [iblk37_rhs_eq V c _ hlt]
  obtain ⟨-, -, e0, e1, -, -⟩ := idxFacts37 ⟨4 * r.val + k.val, hlt⟩
  have e0' : win37_1.index ⟨4 * r.val + k.val, hlt⟩ (0 : Fin 2) = (4 * r.val + k.val) % 4 := e0
  have e1' : win37_1.index ⟨4 * r.val + k.val, hlt⟩ (1 : Fin 2) = 0 := e1
  unfold iblk37
  rw [View.read_apply]
  show V c main_v205 (((cfg37.win 1).blk ⟨4 * r.val + k.val, hlt⟩).view.emb y) = V c main_v205 i
  congr 1
  funext a
  apply Fin.ext
  match a with
  | ⟨0, _⟩ =>
    show win37_1.index ⟨4 * r.val + k.val, hlt⟩ (0 : Fin 2) * 1024 + 1 * (y 0).val = (i 0).val
    rw [e0', h0]; omega
  | ⟨1, _⟩ =>
    show win37_1.index ⟨4 * r.val + k.val, hlt⟩ (1 : Fin 2) * 512 + 1 * (y 1).val = (i 1).val
    rw [e1', h1]; omega

/-- The accumulated block after the fourth step, unfolded: four steps from the zero block. -/
theorem accOf37_three (c : Dev nD) (r : ℕ) :
    accOf37 V c r 3
      = k37_pay2 (iblk37_lhs V c (4 * r + 3)) (iblk37_rhs V c (4 * r + 3))
          (k37_pay2 (iblk37_lhs V c (4 * r + 2)) (iblk37_rhs V c (4 * r + 2))
            (k37_pay2 (iblk37_lhs V c (4 * r + 1)) (iblk37_rhs V c (4 * r + 1))
              (k37_pay2 (iblk37_lhs V c (4 * r)) (iblk37_rhs V c (4 * r)) (k37_pay1 (F := F))))) := rfl

end Cert.KernelIdeal.Hand

end
-- ==== Proof.ValKI37c.lean ====
/- Laid out by: python3 scratch/layout_regions.py --template-region 1 --region 37 --program KernelIdeal --prefix Val --parts a,b,c --sim main_v9=main_v8,main_v25=main_v205,main_v26=main_v215 --out-dir proof/Proof
   from the hand-written text of region 1 (ValKI1c.lean): the same text, the region's number substituted. -/
/-
  Region 37 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI37b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf37_step (x0 : Vec Ideal S1024x1024 .bf16) (x1 acc : Vec Ideal S1024x512 .f32) :
    k37_pay2 (F := Ideal) x0 x1 acc
      = Cert.MMLaw.accStep dot_S1024x1024_S1024x512_S1024x512_1_0_0_1_n_n none x0 x1 acc := by
  unfold k37_pay2
  simp only [shapeCast_self]
  rfl

/-- The accumulator starts from the zero block. -/
theorem accOf37_init (j : S1024x512.Idx) : k37_pay1 (F := Ideal) j = 0 := by
  unfold k37_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf37_eq_blk (c : Dev nD) (r : Fin 4) (D : DotDims S4096x4096 S4096x512 S4096x512) (hD : Cert.MMLaw.IsPlain D)
    (prec : Option ContractPrecision) :
    accOf37 V c r.val 3
      = Cert.MMLaw.blk (nr := 4) (nc := 1) 1024 512 rfl rfl (Cert.MMLaw.whole D prec (V c main_v8) (V c main_v205)) r 0 := by
  rw [accOf37_three]
  simp only [accOf37_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v8) (V c main_v205) r 0
    (fun k => iblk37_lhs V c (4 * r.val + k.val)) (fun k => iblk37_rhs V c (4 * r.val + k.val))
    (fun k => funext fun y => iblk37_lhs_apply V c r k y _ rfl rfl)
    (fun k => funext fun y => iblk37_rhs_apply V c r k y _ rfl (by show 512 * 0 + (y 1).val = (y 1).val; omega))
    (k37_pay1 (F := Ideal)) accOf37_init

/-! ## The output array after the region is the whole product -/

/-- The region leaves in its output array the product of its two operand arrays. -/
theorem final37_2_eq_whole (c : Dev nD) (D : DotDims S4096x4096 S4096x512 S4096x512) (hD : Cert.MMLaw.IsPlain D)
    (prec : Option ContractPrecision) :
    (dat37 (F := Ideal) V c).arrAt 2 cfg37.N = Cert.MMLaw.whole D prec (V c main_v8) (V c main_v205) := by
  rw [final37_2]
  funext i
  have hi0 : (i 0).val < 4096 := idx2_lt0 i
  have h := congrFun (accOf37_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final37_2_eq_dot (c : Dev nD) (D : DotDims S4096x4096 S4096x512 S4096x512) (hD : Cert.MMLaw.IsPlain D)
    (prec : Option ContractPrecision) :
    (dat37 (F := Ideal) V c).arrAt 2 cfg37.N = Host.dotGeneral (F := Ideal) (φ₁ := .bf16) (φ₂ := .f32) D prec (V c main_v8) (V c main_v205) :=
  final37_2_eq_whole V c D hD prec

end Cert.KernelIdeal.Hand

end
-- ==== Proof.ValKI38a.lean ====
/- Laid out by: python3 scratch/layout_grid41.py --prefix Val --template-region 0 --region 38 --program KernelIdeal --parts a,b --shapes S1024x128=S1024x512,S128x512=S512x512,S1024x512=S1024x512,S4096x128=S4096x512,S4096x512=S4096x512,main_arg0=main_v218,main_v12=main_v10,main_v17=main_v219,h0=h0,e0=e0,hi0=hi0,x0=x0
   from the hand-written text of region 0 (ValKI0a.lean): the same text, the region's number, block shapes, operand arrays substituted. -/
/-
  Region 38 of @main: from the output blocks to the whole output array.

  The grid is [4, 1]: the point t is block row t, and the reduction axis has one step, so every point zeroes the
  accumulator, adds the product of its two input blocks, and writes the sum back. The output window's block at t is
  rows 1024 t … 1024 t + 1023 of the result, written back at every point. So the array after the region is ONE function
  of the index: row 1024 r + p, column q holds entry (p, q) of the block the point r leaves. The steps: the three windows'
  block indices decided once over the grid; what a point writes back is its block of that function; the four blocks
  written back cover the array (row i lies in the block of the point i / 1024); hence the array after the region. The two
  operand arrays are not written. Last, each input block as a block of its operand array: the left operand's block at the
  point t is its rows 1024 t … 1024 t + 1023 (every column), the right operand's block is the whole array at every point.
-/
import proofs.«158944_j64613488001249_1_alg».proof.Proof.RegKI38
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t the left operand's block is (t, 0), the right operand's (0, 0), the output's (t, 0). -/
theorem idxFacts38 : ∀ t : Fin cfg38.N,
    win38_0.index t (0 : Fin 2) = t.val ∧ win38_0.index t (1 : Fin 2) = 0
    ∧ win38_1.index t (0 : Fin 2) = 0 ∧ win38_1.index t (1 : Fin 2) = 0
    ∧ win38_2.index t (0 : Fin 2) = t.val ∧ win38_2.index t (1 : Fin 2) = 0 :=
  (by decide +kernel : ∀ t : Fin grid38.N,
    win38_0.index t (0 : Fin 2) = t.val ∧ win38_0.index t (1 : Fin 2) = 0
    ∧ win38_1.index t (0 : Fin 2) = 0 ∧ win38_1.index t (1 : Fin 2) = 0
    ∧ win38_2.index t (0 : Fin 2) = t.val ∧ win38_2.index t (1 : Fin 2) = 0)

/-! ## The block a point leaves -/

/-- The block the point at grid position n leaves: the zero block plus the product of the point's two input blocks
    (past the grid's end, where nothing consults it, the block of position 0). -/
def accOf38 (c : Dev nD) (n : ℕ) : Vec F S1024x512 .f32 :=
  if h : n < cfg38.N then k38_pay2 (iblk38 V c 0 ⟨n, h⟩) (iblk38 V c 1 ⟨n, h⟩) (k38_pay1 (F := F))
  else k38_pay2 (iblk38 V c 0 ⟨0, by have h : cfg38.N = 4 := N_38; omega⟩)
    (iblk38 V c 1 ⟨0, by have h : cfg38.N = 4 := N_38; omega⟩) (k38_pay1 (F := F))

theorem accOf38_eq (c : Dev nD) (t : Fin cfg38.N) :
    accOf38 V c t.val = k38_pay2 (iblk38 V c 0 t) (iblk38 V c 1 t) (k38_pay1 (F := F)) := by
  unfold accOf38; exact dif_pos t.isLt

/-- At every point the output block holds that block. -/
theorem outsAt38_out (c : Dev nD) (t : Fin cfg38.N) : (outsAt38 V c t.val t.isLt).1 = accOf38 V c t.val :=
  (outsAt38_last V c t).trans ((outsAt38_first V c t).trans (accOf38_eq V c t).symm)

/-! ## The output array as one function -/

/-- The whole output array: its row 1024 r + p, column q, is entry (p, q) of the block the point r leaves. -/
def whole38 (c : Dev nD) : S4096x512.Idx → Elt F .f32 := fun i =>
  accOf38 V c ((i 0).val / 1024)
    (ix2 ⟨(i 0).val % 1024, Nat.mod_lt _ (by decide)⟩ ⟨(i 1).val, idx2_lt1 i⟩)

/-- The array read at an index given by a block row r and a position y inside the block. -/
theorem whole38_apply (c : Dev nD) (r : ℕ) (y : S1024x512.Idx) (i : S4096x512.Idx)
    (h0 : (i 0).val = 1024 * r + (y 0).val) (h1 : (i 1).val = (y 1).val) :
    whole38 V c i = accOf38 V c r y := by
  have hy : (y 0).val < 1024 := idx2_lt0 y
  have hr : (i 0).val / 1024 = r := by omega
  have hp : (i 0).val % 1024 = (y 0).val := by omega
  have e : (ix2 ⟨(i 0).val % 1024, Nat.mod_lt _ (by decide)⟩ ⟨(i 1).val, idx2_lt1 i⟩ : S1024x512.Idx) = y :=
    funext fun a => match a with
      | ⟨0, _⟩ => Fin.ext hp
      | ⟨1, _⟩ => Fin.ext h1
  unfold whole38
  rw [hr, e]

/-- Row 1024 r + p, column q of the array is entry (p, q) of the block the point r leaves. -/
theorem whole38_ix2 (c : Dev nD) (r : Fin 4) (p : Fin 1024) (q : Fin (S1024x512.size 1)) :
    whole38 V c (ix2 ⟨1024 * r.val + p.val, by have := r.isLt; have := p.isLt; omega⟩ q)
      = accOf38 V c r.val (ix2 p q) :=
  whole38_apply V c r.val (ix2 p q) _ rfl rfl

/-! ## What a point writes back -/

/-- Every point writes back its block of the whole-array function. -/
theorem flushed38_eq (c : Dev nD) (t : Fin cfg38.N) (hf : (cfg38.win 2).flush t = true) :
    (dat38 V c).flushed 2 t = ((cfg38.win 2).blk t).view.read (Elt F) (whole38 V c) := by
  show (cfg38.win 2).cut (grid38.coords t) ((dat38 V c).after 2 t) = _
  rw [after38_2, outsAt38_out V c t]
  obtain ⟨-, -, -, -, e0, e1⟩ := idxFacts38 t
  funext j
  show accOf38 V c t.val j = whole38 V c (((cfg38.win 2).blk t).view.emb j)
  refine (whole38_apply V c t.val j _ ?_ ?_).symm
  · show win38_2.index t (0 : Fin 2) * 1024 + 1 * (j 0).val = 1024 * t.val + (j 0).val
    rw [e0]; omega
  · show win38_2.index t (1 : Fin 2) * S1024x512.size (1 : Fin 2) + 1 * (j 1).val = (j 1).val
    rw [e1, Nat.zero_mul, Nat.zero_add, Nat.one_mul]

/-! ## The blocks written back cover the array -/

/-- An index is in a point's output block iff each coordinate is in the block's range on its axis. -/
theorem memBlk38 (t : Fin cfg38.N) (i : S4096x512.Idx) :
    i ∈ ((cfg38.win 2).blk t).view.set ↔ ∀ a : Fin 2, win38_2.index t a * S1024x512.size a ≤ (i a).val
      ∧ (i a).val < win38_2.index t a * S1024x512.size a + S1024x512.size a := by
  show i ∈ ((View.whole main_v219).slice (win38_2.rect t)).set ↔ _
  rw [View.set_slice_whole, Rect.mem_set_unit]
  exact Iff.rfl

/-- Row i of the array lies in the block written back at the point i / 1024. -/
theorem covered38 (i : S4096x512.Idx) :
    ∃ t : Fin cfg38.N, (cfg38.win 2).flush t = true ∧ i ∈ ((cfg38.win 2).blk t).view.set := by
  have hi0 : (i 0).val < 4096 := idx2_lt0 i
  have hi1 : (i 1).val < S1024x512.size (1 : Fin 2) := idx2_lt1 i
  have hN : cfg38.N = 4 := N_38
  obtain ⟨t, ht⟩ : ∃ t : Fin cfg38.N, t.val = (i 0).val / 1024 :=
    ⟨⟨(i 0).val / 1024, by rw [hN]; omega⟩, rfl⟩
  refine ⟨t, flush38_2 t, ?_⟩
  rw [memBlk38]
  obtain ⟨-, -, -, -, e0, e1⟩ := idxFacts38 t
  intro a
  match a with
  | ⟨0, _⟩ =>
    show win38_2.index t (0 : Fin 2) * 1024 ≤ (i 0).val ∧ (i 0).val < win38_2.index t (0 : Fin 2) * 1024 + 1024
    rw [e0]; omega
  | ⟨1, _⟩ =>
    show win38_2.index t (1 : Fin 2) * S1024x512.size (1 : Fin 2) ≤ (i 1).val
      ∧ (i 1).val < win38_2.index t (1 : Fin 2) * S1024x512.size (1 : Fin 2) + S1024x512.size (1 : Fin 2)
    rw [e1, Nat.zero_mul, Nat.zero_add]
    exact ⟨Nat.zero_le _, hi1⟩

/-! ## The three arrays after the region -/

/-- The output array after the region is the whole-array function. -/
theorem final38_2 (c : Dev nD) : (dat38 V c).arrAt 2 cfg38.N = whole38 V c :=
  (dat38 V c).arrAt_eq_of_cover 2 (whole38 V c) (flushed38_eq V c) covered38

/-- The two input arrays are as the region found them. -/
theorem final38_0 (c : Dev nD) : (dat38 V c).arrAt 0 cfg38.N = V c main_v218 :=
  ((dat38 V c).arrAt_in 0 rfl cfg38.N).trans (A_eq38 V c 0)
theorem final38_1 (c : Dev nD) : (dat38 V c).arrAt 1 cfg38.N = V c main_v10 :=
  ((dat38 V c).arrAt_in 1 rfl cfg38.N).trans (A_eq38 V c 1)

/-! ## The input blocks as blocks of the operand arrays -/

/-- The left operand's block at the point t: entry (y₀, y₁) is the array's entry (1024 t + y₀, y₁). -/
theorem iblk38_lhs_apply (c : Dev nD) (t : Fin cfg38.N) (y : S1024x512.Idx) (i : S4096x512.Idx)
    (h0 : (i 0).val = 1024 * t.val + (y 0).val) (h1 : (i 1).val = (y 1).val) :
    iblk38 V c 0 t y = (V c main_v218 : S4096x512.Idx → Elt F .f32) i := by
  obtain ⟨e0, e1, -, -, -, -⟩ := idxFacts38 t
  unfold iblk38
  rw [View.read_apply]
  show V c main_v218 (((cfg38.win 0).blk t).view.emb y) = V c main_v218 i
  congr 1
  funext a
  apply Fin.ext
  match a with
  | ⟨0, _⟩ =>
    show win38_0.index t (0 : Fin 2) * 1024 + 1 * (y 0).val = (i 0).val
    rw [e0, h0]; omega
  | ⟨1, _⟩ =>
    show win38_0.index t (1 : Fin 2) * S1024x512.size (1 : Fin 2) + 1 * (y 1).val = (i 1).val
    rw [e1, h1, Nat.zero_mul, Nat.zero_add, Nat.one_mul]

/-- The right operand's block is the whole array at every point. -/
theorem iblk38_rhs_eq (c : Dev nD) (t : Fin cfg38.N) :
    iblk38 V c 1 t = (V c main_v10 : S512x512.Idx → Elt F .bf16) := by
  obtain ⟨-, -, e0, e1, -, -⟩ := idxFacts38 t
  funext y
  unfold iblk38
  rw [View.read_apply]
  show V c main_v10 (((cfg38.win 1).blk t).view.emb y) = V c main_v10 y
  congr 1
  funext a
  apply Fin.ext
  match a with
  | ⟨0, _⟩ =>
    show win38_1.index t (0 : Fin 2) * S512x512.size (0 : Fin 2) + 1 * (y 0).val = (y 0).val
    rw [e0, Nat.zero_mul, Nat.zero_add, Nat.one_mul]
  | ⟨1, _⟩ =>
    show win38_1.index t (1 : Fin 2) * S512x512.size (1 : Fin 2) + 1 * (y 1).val = (y 1).val
    rw [e1, Nat.zero_mul, Nat.zero_add, Nat.one_mul]

end Cert.KernelIdeal.Hand

end
-- ==== Proof.ValKI38b.lean ====
/- Laid out by: python3 scratch/layout_grid41.py --prefix Val --template-region 0 --region 38 --program KernelIdeal --parts a,b --shapes S1024x128=S1024x512,S128x512=S512x512,S1024x512=S1024x512,S4096x128=S4096x512,S4096x512=S4096x512,main_arg0=main_v218,main_v12=main_v10,main_v17=main_v219,h0=h0,e0=e0,hi0=hi0,x0=x0
   from the hand-written text of region 0 (ValKI0b.lean): the same text, the region's number, block shapes, operand arrays substituted. -/
/-
  Region 38 of @main at the extended reals: the output array after the region is the product of the two operand arrays.

  A change of float format is the identity at these values and a reshape to the same shape is the identity, so the
  kernel's one accumulation step is "accumulator plus the product of the two blocks into the zero block", and the
  accumulator starts from the zero block. The block the point r leaves is then zero plus the product of rows
  1024 r … 1024 r + 1023 of the left operand with the whole right operand, which is the same rows of the whole product:
  the contraction axis is not cut, so the sums are the same term by term. Read through the whole-array function of the
  blocks-to-array module, entry (1024 r + p, q) of the output array is that entry of the product.
-/
import proofs.«158944_j64613488001249_1_alg».proof.Proof.ValKI38a
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The accumulation step, and its start, at the extended reals -/

/-- A change of format and a reshape to the same shape are the identity: the step adds the product of the two blocks
    (into the zero block) to the accumulator. -/
theorem accOf38_step (x0 : Vec Ideal S1024x512 .f32) (x1 : Vec Ideal S512x512 .bf16) (acc : Vec Ideal S1024x512 .f32) :
    k38_pay2 (F := Ideal) x0 x1 acc
      = Cert.MMLaw.accStep dot_S1024x512_S512x512_S1024x512_1_0_0_1_n_n none x0 x1 acc := by
  unfold k38_pay2
  simp only [shapeCast_self]
  rfl

/-- The accumulator starts from the zero block. -/
theorem accOf38_init (j : S1024x512.Idx) : k38_pay1 (F := Ideal) j = 0 := by
  unfold k38_pay1
  rw [shapeCast_self]
  exact Ideal.ofBits_zero_f32

/-! ## The block a point leaves is a block of the whole product -/

/-- The block the point r leaves is rows 1024 r … 1024 r + 1023 of the product of the two operand arrays. -/
theorem accOf38_eq_blk (c : Dev nD) (r : Fin 4) (D : DotDims S4096x512 S512x512 S4096x512) (hD : Cert.MMLaw.IsPlain D)
    (prec : Option ContractPrecision) :
    accOf38 V c r.val
      = Cert.MMLaw.rowBlk (Cert.MMLaw.whole D prec (V c main_v218) (V c main_v10)) r := by
  have hN : cfg38.N = 4 := N_38
  have hr : r.val < cfg38.N := by rw [hN]; exact r.isLt
  rw [accOf38_eq V c ⟨r.val, hr⟩, accOf38_step]
  exact Cert.MMLaw.law41 dot_S1024x512_S512x512_S1024x512_1_0_0_1_n_n ⟨rfl, rfl, rfl, rfl, rfl, rfl⟩ D hD none prec
    (V c main_v218) (V c main_v10) r (iblk38 V c 0 ⟨r.val, hr⟩) (iblk38 V c 1 ⟨r.val, hr⟩)
    (funext fun y => iblk38_lhs_apply V c ⟨r.val, hr⟩ y _ rfl rfl) (iblk38_rhs_eq V c ⟨r.val, hr⟩)
    (k38_pay1 (F := Ideal)) accOf38_init

/-! ## The output array after the region is the whole product -/

/-- The region leaves in its output array the product of its two operand arrays. -/
theorem final38_2_eq_whole (c : Dev nD) (D : DotDims S4096x512 S512x512 S4096x512) (hD : Cert.MMLaw.IsPlain D)
    (prec : Option ContractPrecision) :
    (dat38 (F := Ideal) V c).arrAt 2 cfg38.N = Cert.MMLaw.whole D prec (V c main_v218) (V c main_v10) := by
  rw [final38_2]
  funext i
  have hi0 : (i 0).val < 4096 := idx2_lt0 i
  have h := congrFun (accOf38_eq_blk V c ⟨(i 0).val / 1024, by omega⟩ D hD prec)
    (ix2 ⟨(i 0).val % 1024, Nat.mod_lt _ (by decide)⟩ ⟨(i 1).val, idx2_lt1 i⟩)
  rw [Cert.MMLaw.rowBlk_apply] at h
  refine Eq.trans h (congrArg _ ?_)
  funext a
  match a with
  | ⟨0, _⟩ => exact Fin.ext (by show 1024 * ((i 0).val / 1024) + (i 0).val % 1024 = (i 0).val; omega)
  | ⟨1, _⟩ => rfl

/-- The same with the operands at the formats they are stored in. -/
theorem final38_2_eq_dot (c : Dev nD) (D : DotDims S4096x512 S512x512 S4096x512) (hD : Cert.MMLaw.IsPlain D)
    (prec : Option ContractPrecision) :
    (dat38 (F := Ideal) V c).arrAt 2 cfg38.N
      = Host.dotGeneral (F := Ideal) (φ₁ := .f32) (φ₂ := .bf16) D prec (V c main_v218) (V c main_v10) :=
  final38_2_eq_whole V c D hD prec

end Cert.KernelIdeal.Hand

end
-- ==== Proof.ValKI39a.lean ====
/- Laid out by: python3 scratch/layout_regions.py --template-region 1 --region 39 --program KernelIdeal --prefix Val --parts a,b,c --sim main_v9=main_v7,main_v25=main_v219,main_v26=main_v220 --out-dir proof/Proof
   from the hand-written text of region 1 (ValKI1a.lean): the same text, the region's number substituted. -/
/-
  Region 39 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k39_pay1` (the zero block) and `k39_pay2` (accumulator plus product) are the two stores' payloads.

  So along one row of blocks r the accumulator after its step k is the left fold
    accOf39 r 0 = pay2 (a (r, 0)) (b 0) pay1,    accOf39 r (k + 1) = pay2 (a (r, k + 1)) (b (k + 1)) (accOf39 r k),
  the grid point (r, k) being position 4 r + k; and at k = 3 the output block holds accOf39 r 3.
-/
import proofs.«158944_j64613488001249_1_alg».proof.Proof.RegKI39
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout39_A_eq (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond39_0 i) (hc1 : ¬cond39_1 i)
    (x0 : Vec F S1024x1024 .bf16) (x1 : Vec F S1024x512 .f32) :
    sout39_A c i arg2 harg2 arg3 harg3 arg4 harg4 arg5 harg5 hc0 hc1 x0 x1 = k39_pay2 x0 x1 (k39_pay1 (F := F)) := by
  have hz : (![0, 0] : Fin 2 → Nat) = fun _ => 0 := funext fun a => by fin_cases a <;> rfl
  unfold sout39_A
  rw [View.read_writes_eq_canon _ _ _ (scover39_A c i arg2 harg2 arg3 harg3 arg4 harg4 arg5 harg5 hc0 hc1 x0 x1)]
  unfold kernelRun39_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout39_B_eq (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond39_0 i) (hc1 : ¬cond39_1 i)
    (x0 : Vec F S1024x1024 .bf16) (x1 : Vec F S1024x512 .f32) (xs0 : Vec F S1024x512 .f32) :
    sout39_B c i arg2 harg2 arg3 harg3 arg4 harg4 arg5 harg5 hc0 hc1 x0 x1 xs0 = k39_pay2 x0 x1 xs0 := by
  have hz : (![0, 0] : Fin 2 → Nat) = fun _ => 0 := funext fun a => by fin_cases a <;> rfl
  unfold sout39_B
  rw [View.read_writes_eq_canon _ _ _ (scover39_B c i arg2 harg2 arg3 harg3 arg4 harg4 arg5 harg5 hc0 hc1 x0 x1 xs0)]
  unfold kernelRun39_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout39_C_eq (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond39_0 i) (hc1 : cond39_1 i)
    (x0 : Vec F S1024x1024 .bf16) (x1 : Vec F S1024x512 .f32) (xs0 : Vec F S1024x512 .f32) :
    sout39_C c i arg2 harg2 arg3 harg3 arg4 harg4 arg5 harg5 hc0 hc1 x0 x1 xs0 = k39_pay2 x0 x1 xs0 := by
  have hz : (![0, 0] : Fin 2 → Nat) = fun _ => 0 := funext fun a => by fin_cases a <;> rfl
  unfold sout39_C
  rw [View.read_writes_eq_canon _ _ _ (scover39_C c i arg2 harg2 arg3 harg3 arg4 harg4 arg5 harg5 hc0 hc1 x0 x1 xs0)]
  unfold kernelRun39_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out39_C_eq (c : Dev nD) (i : grid39.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond39_0 i) (hc1 : cond39_1 i)
    (x0 : Vec F S1024x1024 .bf16) (x1 : Vec F S1024x512 .f32) (xs0 : Vec F S1024x512 .f32) :
    out39_C c i arg2 harg2 arg3 harg3 arg4 harg4 arg5 harg5 hc0 hc1 x0 x1 xs0 = k39_pay2 x0 x1 xs0 := by
  have hz : (![0, 0] : Fin 2 → Nat) = fun _ => 0 := funext fun a => by fin_cases a <;> rfl
  unfold out39_C
  rw [View.read_writes_eq_canon _ _ _ (cover39_C c i arg2 harg2 arg3 harg3 arg4 harg4 arg5 harg5 hc0 hc1 x0 x1 xs0)]
  unfold kernelRun39_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk39_lhs (c : Dev nD) (n : ℕ) : Vec F S1024x1024 .bf16 :=
  if h : n < cfg39.N then iblk39 V c 0 ⟨n, h⟩ else iblk39 V c 0 ⟨0, by have h : cfg39.N = 16 := N_39; omega⟩
/-- The right factor's block at grid position `n`. -/
def iblk39_rhs (c : Dev nD) (n : ℕ) : Vec F S1024x512 .f32 :=
  if h : n < cfg39.N then iblk39 V c 1 ⟨n, h⟩ else iblk39 V c 1 ⟨0, by have h : cfg39.N = 16 := N_39; omega⟩

theorem iblk39_lhs_eq (c : Dev nD) (n : ℕ) (h : n < cfg39.N) : iblk39_lhs V c n = iblk39 V c 0 ⟨n, h⟩ := dif_pos h
theorem iblk39_rhs_eq (c : Dev nD) (n : ℕ) (h : n < cfg39.N) : iblk39_rhs V c n = iblk39 V c 1 ⟨n, h⟩ := dif_pos h

/-! ## The accumulator along one row of blocks -/

/-- Row of blocks `r`, after its step `k`: the zero block plus the products of the blocks at positions 4 r, …, 4 r + k,
    added in that order. -/
def accOf39 (c : Dev nD) (r : ℕ) : ℕ → Vec F S1024x512 .f32
  | 0 => k39_pay2 (iblk39_lhs V c (4 * r)) (iblk39_rhs V c (4 * r)) (k39_pay1 (F := F))
  | k + 1 => k39_pay2 (iblk39_lhs V c (4 * r + (k + 1))) (iblk39_rhs V c (4 * r + (k + 1))) (accOf39 c r k)

theorem accOf39_zero (c : Dev nD) (r : ℕ) :
    accOf39 V c r 0 = k39_pay2 (iblk39_lhs V c (4 * r)) (iblk39_rhs V c (4 * r)) (k39_pay1 (F := F)) := rfl
theorem accOf39_succ (c : Dev nD) (r k : ℕ) :
    accOf39 V c r (k + 1) = k39_pay2 (iblk39_lhs V c (4 * r + (k + 1))) (iblk39_rhs V c (4 * r + (k + 1))) (accOf39 V c r k) := rfl

theorem iblk39_lhs_at (c : Dev nD) (t : Fin cfg39.N) (n : ℕ) (hn : n = t.val) : iblk39_lhs V c n = iblk39 V c 0 t := by
  subst hn; unfold iblk39_lhs; exact dif_pos t.isLt
theorem iblk39_rhs_at (c : Dev nD) (t : Fin cfg39.N) (n : ℕ) (hn : n = t.val) : iblk39_rhs V c n = iblk39 V c 1 t := by
  subst hn; unfold iblk39_rhs; exact dif_pos t.isLt

/-- At a grid point with k = 0 the fold starts: the zero block plus the product of the point's two blocks. -/
theorem accOf39_first (c : Dev nD) (t : Fin cfg39.N) (h0 : t.val % 4 = 0) :
    accOf39 V c (t.val / 4) (t.val % 4) = k39_pay2 (iblk39 V c 0 t) (iblk39 V c 1 t) (k39_pay1 (F := F)) := by
  rw [h0, accOf39_zero, iblk39_lhs_at V c t (4 * (t.val / 4)) (by omega), iblk39_rhs_at V c t (4 * (t.val / 4)) (by omega)]

/-- At a grid point with k ≠ 0 the fold takes one step from the position before, which is in the same row of blocks. -/
theorem accOf39_next (c : Dev nD) (t : Fin cfg39.N) (h0 : ¬t.val % 4 = 0) :
    accOf39 V c (t.val / 4) (t.val % 4)
      = k39_pay2 (iblk39 V c 0 t) (iblk39 V c 1 t) (accOf39 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf39_succ, iblk39_lhs_at V c t (4 * (t.val / 4) + (k + 1)) (by omega),
    iblk39_rhs_at V c t (4 * (t.val / 4) + (k + 1)) (by omega)]

/-! ## The accumulator and the output block, point by point, as pure functions of the blocks -/

/-- k = 0: the accumulator restarts from the zero block. -/
theorem outsAt39_first (c : Dev nD) (t : Fin cfg39.N) (h0 : t.val % 4 = 0) :
    (outsAt39 V c t.val t.isLt).2 = k39_pay2 (iblk39 V c 0 t) (iblk39 V c 1 t) (k39_pay1 (F := F)) := by
  rw [outsAt39_A V c t h0]
  dsimp only
  exact sout39_A_eq c (grid39.coords t) (ms39_0 t) (hs39_0 t) (ms39_1 t) (hs39_1 t) (ms39_2 t) (hs39_2 t) scM39 (Memref.isWhole_whole _) (isFirst39 t h0) (notLast39 t (by omega)) (iblk39 V c 0 t) (iblk39 V c 1 t)

/-- k ≠ 0: the point's product is added to what the point before left. -/
theorem outsAt39_next (c : Dev nD) (t : Fin cfg39.N) (h0 : ¬t.val % 4 = 0) :
    (outsAt39 V c t.val t.isLt).2
      = k39_pay2 (iblk39 V c 0 t) (iblk39 V c 1 t) (outsAt39 V c (t.val - 1) (Nat.lt_of_le_of_lt (Nat.sub_le _ _) t.isLt)).2 := by
  by_cases h3 : t.val % 4 = 3
  · rw [outsAt39_C V c t h0 h3]
    dsimp only
    exact sout39_C_eq c (grid39.coords t) (ms39_0 t) (hs39_0 t) (ms39_1 t) (hs39_1 t) (ms39_2 t) (hs39_2 t) scM39 (Memref.isWhole_whole _) (notFirst39 t h0) (isLast39 t h3) (iblk39 V c 0 t) (iblk39 V c 1 t)
      (outsAt39 V c (t.val - 1) (Nat.lt_of_le_of_lt (Nat.sub_le _ _) t.isLt)).2
  · rw [outsAt39_B V c t h0 h3]
    dsimp only
    exact sout39_B_eq c (grid39.coords t) (ms39_0 t) (hs39_0 t) (ms39_1 t) (hs39_1 t) (ms39_2 t) (hs39_2 t) scM39 (Memref.isWhole_whole _) (notFirst39 t h0) (notLast39 t h3) (iblk39 V c 0 t) (iblk39 V c 1 t)
      (outsAt39 V c (t.val - 1) (Nat.lt_of_le_of_lt (Nat.sub_le _ _) t.isLt)).2

/-- k = 3: the output block is the accumulator. -/
theorem outsAt39_last (c : Dev nD) (t : Fin cfg39.N) (h3 : t.val % 4 = 3) :
    (outsAt39 V c t.val t.isLt).1 = (outsAt39 V c t.val t.isLt).2 := by
  have h0 : ¬t.val % 4 = 0 := by omega
  rw [outsAt39_C V c t h0 h3]
  dsimp only
  exact (out39_C_eq c (grid39.coords t) (ms39_0 t) (hs39_0 t) (ms39_1 t) (hs39_1 t) (ms39_2 t) (hs39_2 t) scM39 (Memref.isWhole_whole _) (notFirst39 t h0) (isLast39 t h3) (iblk39 V c 0 t) (iblk39 V c 1 t)
      (outsAt39 V c (t.val - 1) (Nat.lt_of_le_of_lt (Nat.sub_le _ _) t.isLt)).2).trans
    (sout39_C_eq c (grid39.coords t) (ms39_0 t) (hs39_0 t) (ms39_1 t) (hs39_1 t) (ms39_2 t) (hs39_2 t) scM39 (Memref.isWhole_whole _) (notFirst39 t h0) (isLast39 t h3) (iblk39 V c 0 t) (iblk39 V c 1 t)
      (outsAt39 V c (t.val - 1) (Nat.lt_of_le_of_lt (Nat.sub_le _ _) t.isLt)).2).symm

/-! ## The accumulator is the fold -/

/-- After position `n` the accumulator holds row `n / 4`'s fold after its step `n % 4`: by induction on the position. -/
theorem outsAt39_acc_pos (c : Dev nD) :
    ∀ (n : ℕ) (hn : n < cfg39.N), (outsAt39 V c n hn).2 = accOf39 V c (n / 4) (n % 4) := by
  intro n
  induction n with
  | zero =>
    intro hn
    exact (outsAt39_first V c ⟨0, hn⟩ (Nat.zero_mod 4)).trans (accOf39_first V c ⟨0, hn⟩ (Nat.zero_mod 4)).symm
  | succ n ih =>
    intro hn
    by_cases h0 : (n + 1) % 4 = 0
    · exact (outsAt39_first V c ⟨n + 1, hn⟩ h0).trans (accOf39_first V c ⟨n + 1, hn⟩ h0).symm
    · refine (outsAt39_next V c ⟨n + 1, hn⟩ h0).trans (Eq.trans ?_ (accOf39_next V c ⟨n + 1, hn⟩ h0).symm)
      exact congrArg (k39_pay2 (iblk39 V c 0 ⟨n + 1, hn⟩) (iblk39 V c 1 ⟨n + 1, hn⟩)) (ih (Nat.lt_of_succ_lt hn))

/-- At every grid point the accumulator holds its row's fold after the point's step. -/
theorem outsAt39_acc (c : Dev nD) (t : Fin cfg39.N) :
    (outsAt39 V c t.val t.isLt).2 = accOf39 V c (t.val / 4) (t.val % 4) :=
  outsAt39_acc_pos V c t.val t.isLt

/-- At a row's last point the output block holds the row's whole fold. -/
theorem outsAt39_out (c : Dev nD) (t : Fin cfg39.N) (h3 : t.val % 4 = 3) :
    (outsAt39 V c t.val t.isLt).1 = accOf39 V c (t.val / 4) 3 := by
  have e := outsAt39_acc V c t
  rw [h3] at e
  exact (outsAt39_last V c t h3).trans e

end Cert.KernelIdeal.Hand

end
-- ==== Proof.ValKI39b.lean ====
/- Laid out by: python3 scratch/layout_regions.py --template-region 1 --region 39 --program KernelIdeal --prefix Val --parts a,b,c --sim main_v9=main_v7,main_v25=main_v219,main_v26=main_v220 --out-dir proof/Proof
   from the hand-written text of region 1 (ValKI1b.lean): the same text, the region's number substituted. -/
/-
  Region 39 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI39a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts39 : ∀ t : Fin cfg39.N,
    win39_0.index t (0 : Fin 2) = t.val / 4 ∧ win39_0.index t (1 : Fin 2) = t.val % 4
    ∧ win39_1.index t (0 : Fin 2) = t.val % 4 ∧ win39_1.index t (1 : Fin 2) = 0
    ∧ win39_2.index t (0 : Fin 2) = t.val / 4 ∧ win39_2.index t (1 : Fin 2) = 0 :=
  (by decide +kernel : ∀ t : Fin grid39.N,
    win39_0.index t (0 : Fin 2) = t.val / 4 ∧ win39_0.index t (1 : Fin 2) = t.val % 4
    ∧ win39_1.index t (0 : Fin 2) = t.val % 4 ∧ win39_1.index t (1 : Fin 2) = 0
    ∧ win39_2.index t (0 : Fin 2) = t.val / 4 ∧ win39_2.index t (1 : Fin 2) = 0)

/-! ## The output array as one function -/

/-- The whole output array: its row 1024 r + p, column q, is entry (p, q) of the block accumulated over k = 0 … 3 in
    block row r. -/
def whole39 (c : Dev nD) : S4096x512.Idx → Elt F .f32 := fun i =>
  accOf39 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole39_apply (c : Dev nD) (r : ℕ) (y : S1024x512.Idx) (i : S4096x512.Idx)
    (h0 : (i 0).val = 1024 * r + (y 0).val) (h1 : (i 1).val = (y 1).val) :
    whole39 V c i = accOf39 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole39
  rw [hr, e]

/-- Row 1024 r + p, column q of the array is entry (p, q) of block row r's accumulated block. -/
theorem whole39_ix2 (c : Dev nD) (r : Fin 4) (p : Fin 1024) (q : Fin 512) :
    whole39 V c (ix2 (n0 := 4096) (n1 := 512) ⟨1024 * r.val + p.val, by have := r.isLt; have := p.isLt; omega⟩ q)
      = accOf39 V c r.val 3 (ix2 p q) :=
  whole39_apply V c r.val (ix2 p q) _ rfl rfl

/-! ## What a point writes back -/

/-- A point with k = 3 writes back its block of the whole-array function. -/
theorem flushed39_eq (c : Dev nD) (t : Fin cfg39.N) (hf : (cfg39.win 2).flush t = true) :
    (dat39 V c).flushed 2 t = ((cfg39.win 2).blk t).view.read (Elt F) (whole39 V c) := by
  have h3 : t.val % 4 = 3 := (flush39_2 t).mp hf
  show (cfg39.win 2).cut (grid39.coords t) ((dat39 V c).after 2 t) = _
  rw [after39_2, outsAt39_out V c t h3]
  obtain ⟨-, -, -, -, e0, e1⟩ := idxFacts39 t
  funext j
  show accOf39 V c (t.val / 4) 3 j = whole39 V c (((cfg39.win 2).blk t).view.emb j)
  refine (whole39_apply V c (t.val / 4) j _ ?_ ?_).symm
  · show win39_2.index t (0 : Fin 2) * 1024 + 1 * (j 0).val = 1024 * (t.val / 4) + (j 0).val
    rw [e0]; omega
  · show win39_2.index t (1 : Fin 2) * 512 + 1 * (j 1).val = (j 1).val
    rw [e1]; omega

/-! ## The blocks written back cover the array -/

/-- An index is in a point's output block iff each coordinate is in the block's range on its axis. -/
theorem memBlk39 (t : Fin cfg39.N) (i : S4096x512.Idx) :
    i ∈ ((cfg39.win 2).blk t).view.set ↔ ∀ a : Fin 2, win39_2.index t a * S1024x512.size a ≤ (i a).val
      ∧ (i a).val < win39_2.index t a * S1024x512.size a + S1024x512.size a := by
  show i ∈ ((View.whole main_v220).slice (win39_2.rect t)).set ↔ _
  rw [View.set_slice_whole, Rect.mem_set_unit]
  exact Iff.rfl

/-- Row i of the array lies in the block written back at the point (i / 1024, 3). -/
theorem covered39 (i : S4096x512.Idx) :
    ∃ t : Fin cfg39.N, (cfg39.win 2).flush t = true ∧ i ∈ ((cfg39.win 2).blk t).view.set := by
  have hi0 : (i 0).val < 4096 := idx2_lt0 i
  have hi1 : (i 1).val < 512 := idx2_lt1 i
  have hN : cfg39.N = 16 := N_39
  obtain ⟨t, ht⟩ : ∃ t : Fin cfg39.N, t.val = 4 * ((i 0).val / 1024) + 3 :=
    ⟨⟨4 * ((i 0).val / 1024) + 3, by rw [hN]; omega⟩, rfl⟩
  refine ⟨t, (flush39_2 t).mpr (by omega), ?_⟩
  rw [memBlk39]
  obtain ⟨-, -, -, -, e0, e1⟩ := idxFacts39 t
  intro a
  match a with
  | ⟨0, _⟩ =>
    show win39_2.index t (0 : Fin 2) * 1024 ≤ (i 0).val ∧ (i 0).val < win39_2.index t (0 : Fin 2) * 1024 + 1024
    rw [e0]; omega
  | ⟨1, _⟩ =>
    show win39_2.index t (1 : Fin 2) * 512 ≤ (i 1).val ∧ (i 1).val < win39_2.index t (1 : Fin 2) * 512 + 512
    rw [e1]; omega

/-! ## The three arrays after the region -/

/-- The output array after the region is the whole-array function. -/
theorem final39_2 (c : Dev nD) : (dat39 V c).arrAt 2 cfg39.N = whole39 V c :=
  (dat39 V c).arrAt_eq_of_cover 2 (whole39 V c) (flushed39_eq V c) covered39

/-- The two input arrays are as the region found them. -/
theorem final39_0 (c : Dev nD) : (dat39 V c).arrAt 0 cfg39.N = V c main_v7 :=
  ((dat39 V c).arrAt_in 0 rfl cfg39.N).trans (A_eq39 V c 0)
theorem final39_1 (c : Dev nD) : (dat39 V c).arrAt 1 cfg39.N = V c main_v219 :=
  ((dat39 V c).arrAt_in 1 rfl cfg39.N).trans (A_eq39 V c 1)

/-! ## The input blocks as blocks of the operand arrays -/

/-- The left operand's block at the point (r, k): entry (y₀, y₁) is the array's entry (1024 r + y₀, 1024 k + y₁). -/
theorem iblk39_lhs_apply (c : Dev nD) (r k : Fin 4) (y : S1024x1024.Idx) (i : S4096x4096.Idx)
    (h0 : (i 0).val = 1024 * r.val + (y 0).val) (h1 : (i 1).val = 1024 * k.val + (y 1).val) :
    iblk39_lhs V c (4 * r.val + k.val) y = (V c main_v7 : S4096x4096.Idx → Elt F .bf16) i := by
  have hN : cfg39.N = 16 := N_39
  have hr := r.isLt
  have hk := k.isLt
  have hlt : 4 * r.val + k.val < cfg39.N := by rw [hN]; omega
  rw [iblk39_lhs_eq V c _ hlt]
  obtain ⟨e0, e1, -, -, -, -⟩ := idxFacts39 ⟨4 * r.val + k.val, hlt⟩
  have e0' : win39_0.index ⟨4 * r.val + k.val, hlt⟩ (0 : Fin 2) = (4 * r.val + k.val) / 4 := e0
  have e1' : win39_0.index ⟨4 * r.val + k.val, hlt⟩ (1 : Fin 2) = (4 * r.val + k.val) % 4 := e1
  unfold iblk39
  rw [View.read_apply]
  show V c main_v7 (((cfg39.win 0).blk ⟨4 * r.val + k.val, hlt⟩).view.emb y) = V c main_v7 i
  congr 1
  funext a
  apply Fin.ext
  match a with
  | ⟨0, _⟩ =>
    show win39_0.index ⟨4 * r.val + k.val, hlt⟩ (0 : Fin 2) * 1024 + 1 * (y 0).val = (i 0).val
    rw [e0', h0]; omega
  | ⟨1, _⟩ =>
    show win39_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk39_rhs_apply (c : Dev nD) (r k : Fin 4) (y : S1024x512.Idx) (i : S4096x512.Idx)
    (h0 : (i 0).val = 1024 * k.val + (y 0).val) (h1 : (i 1).val = (y 1).val) :
    iblk39_rhs V c (4 * r.val + k.val) y = (V c main_v219 : S4096x512.Idx → Elt F .f32) i := by
  have hN : cfg39.N = 16 := N_39
  have hr := r.isLt
  have hk := k.isLt
  have hlt : 4 * r.val + k.val < cfg39.N := by rw [hN]; omega
  rw [iblk39_rhs_eq V c _ hlt]
  obtain ⟨-, -, e0, e1, -, -⟩ := idxFacts39 ⟨4 * r.val + k.val, hlt⟩
  have e0' : win39_1.index ⟨4 * r.val + k.val, hlt⟩ (0 : Fin 2) = (4 * r.val + k.val) % 4 := e0
  have e1' : win39_1.index ⟨4 * r.val + k.val, hlt⟩ (1 : Fin 2) = 0 := e1
  unfold iblk39
  rw [View.read_apply]
  show V c main_v219 (((cfg39.win 1).blk ⟨4 * r.val + k.val, hlt⟩).view.emb y) = V c main_v219 i
  congr 1
  funext a
  apply Fin.ext
  match a with
  | ⟨0, _⟩ =>
    show win39_1.index ⟨4 * r.val + k.val, hlt⟩ (0 : Fin 2) * 1024 + 1 * (y 0).val = (i 0).val
    rw [e0', h0]; omega
  | ⟨1, _⟩ =>
    show win39_1.index ⟨4 * r.val + k.val, hlt⟩ (1 : Fin 2) * 512 + 1 * (y 1).val = (i 1).val
    rw [e1', h1]; omega

/-- The accumulated block after the fourth step, unfolded: four steps from the zero block. -/
theorem accOf39_three (c : Dev nD) (r : ℕ) :
    accOf39 V c r 3
      = k39_pay2 (iblk39_lhs V c (4 * r + 3)) (iblk39_rhs V c (4 * r + 3))
          (k39_pay2 (iblk39_lhs V c (4 * r + 2)) (iblk39_rhs V c (4 * r + 2))
            (k39_pay2 (iblk39_lhs V c (4 * r + 1)) (iblk39_rhs V c (4 * r + 1))
              (k39_pay2 (iblk39_lhs V c (4 * r)) (iblk39_rhs V c (4 * r)) (k39_pay1 (F := F))))) := rfl

end Cert.KernelIdeal.Hand

end
-- ==== Proof.ValKI39c.lean ====
/- Laid out by: python3 scratch/layout_regions.py --template-region 1 --region 39 --program KernelIdeal --prefix Val --parts a,b,c --sim main_v9=main_v7,main_v25=main_v219,main_v26=main_v220 --out-dir proof/Proof
   from the hand-written text of region 1 (ValKI1c.lean): the same text, the region's number substituted. -/
/-
  Region 39 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI39b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf39_step (x0 : Vec Ideal S1024x1024 .bf16) (x1 acc : Vec Ideal S1024x512 .f32) :
    k39_pay2 (F := Ideal) x0 x1 acc
      = Cert.MMLaw.accStep dot_S1024x1024_S1024x512_S1024x512_1_0_0_1_n_n none x0 x1 acc := by
  unfold k39_pay2
  simp only [shapeCast_self]
  rfl

/-- The accumulator starts from the zero block. -/
theorem accOf39_init (j : S1024x512.Idx) : k39_pay1 (F := Ideal) j = 0 := by
  unfold k39_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf39_eq_blk (c : Dev nD) (r : Fin 4) (D : DotDims S4096x4096 S4096x512 S4096x512) (hD : Cert.MMLaw.IsPlain D)
    (prec : Option ContractPrecision) :
    accOf39 V c r.val 3
      = Cert.MMLaw.blk (nr := 4) (nc := 1) 1024 512 rfl rfl (Cert.MMLaw.whole D prec (V c main_v7) (V c main_v219)) r 0 := by
  rw [accOf39_three]
  simp only [accOf39_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v7) (V c main_v219) r 0
    (fun k => iblk39_lhs V c (4 * r.val + k.val)) (fun k => iblk39_rhs V c (4 * r.val + k.val))
    (fun k => funext fun y => iblk39_lhs_apply V c r k y _ rfl rfl)
    (fun k => funext fun y => iblk39_rhs_apply V c r k y _ rfl (by show 512 * 0 + (y 1).val = (y 1).val; omega))
    (k39_pay1 (F := Ideal)) accOf39_init

/-! ## The output array after the region is the whole product -/

/-- The region leaves in its output array the product of its two operand arrays. -/
theorem final39_2_eq_whole (c : Dev nD) (D : DotDims S4096x4096 S4096x512 S4096x512) (hD : Cert.MMLaw.IsPlain D)
    (prec : Option ContractPrecision) :
    (dat39 (F := Ideal) V c).arrAt 2 cfg39.N = Cert.MMLaw.whole D prec (V c main_v7) (V c main_v219) := by
  rw [final39_2]
  funext i
  have hi0 : (i 0).val < 4096 := idx2_lt0 i
  have h := congrFun (accOf39_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final39_2_eq_dot (c : Dev nD) (D : DotDims S4096x4096 S4096x512 S4096x512) (hD : Cert.MMLaw.IsPlain D)
    (prec : Option ContractPrecision) :
    (dat39 (F := Ideal) V c).arrAt 2 cfg39.N = Host.dotGeneral (F := Ideal) (φ₁ := .bf16) (φ₂ := .f32) D prec (V c main_v7) (V c main_v219) :=
  final39_2_eq_whole V c D hD prec

end Cert.KernelIdeal.Hand

end
-- ==== Proof.ValKI40a.lean ====
/- Laid out by: python3 scratch/layout_regions.py --template-region 1 --region 40 --program KernelIdeal --prefix Val --parts a,b,c --sim main_v9=main_v8,main_v25=main_v222,main_v26=main_v224 --out-dir proof/Proof
   from the hand-written text of region 1 (ValKI1a.lean): the same text, the region's number substituted. -/
/-
  Region 40 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k40_pay1` (the zero block) and `k40_pay2` (accumulator plus product) are the two stores' payloads.

  So along one row of blocks r the accumulator after its step k is the left fold
    accOf40 r 0 = pay2 (a (r, 0)) (b 0) pay1,    accOf40 r (k + 1) = pay2 (a (r, k + 1)) (b (k + 1)) (accOf40 r k),
  the grid point (r, k) being position 4 r + k; and at k = 3 the output block holds accOf40 r 3.
-/
import proofs.«158944_j64613488001249_1_alg».proof.Proof.RegKI40
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout40_A_eq (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond40_0 i) (hc1 : ¬cond40_1 i)
    (x0 : Vec F S1024x1024 .bf16) (x1 : Vec F S1024x512 .f32) :
    sout40_A c i arg2 harg2 arg3 harg3 arg4 harg4 arg5 harg5 hc0 hc1 x0 x1 = k40_pay2 x0 x1 (k40_pay1 (F := F)) := by
  have hz : (![0, 0] : Fin 2 → Nat) = fun _ => 0 := funext fun a => by fin_cases a <;> rfl
  unfold sout40_A
  rw [View.read_writes_eq_canon _ _ _ (scover40_A c i arg2 harg2 arg3 harg3 arg4 harg4 arg5 harg5 hc0 hc1 x0 x1)]
  unfold kernelRun40_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout40_B_eq (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond40_0 i) (hc1 : ¬cond40_1 i)
    (x0 : Vec F S1024x1024 .bf16) (x1 : Vec F S1024x512 .f32) (xs0 : Vec F S1024x512 .f32) :
    sout40_B c i arg2 harg2 arg3 harg3 arg4 harg4 arg5 harg5 hc0 hc1 x0 x1 xs0 = k40_pay2 x0 x1 xs0 := by
  have hz : (![0, 0] : Fin 2 → Nat) = fun _ => 0 := funext fun a => by fin_cases a <;> rfl
  unfold sout40_B
  rw [View.read_writes_eq_canon _ _ _ (scover40_B c i arg2 harg2 arg3 harg3 arg4 harg4 arg5 harg5 hc0 hc1 x0 x1 xs0)]
  unfold kernelRun40_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout40_C_eq (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond40_0 i) (hc1 : cond40_1 i)
    (x0 : Vec F S1024x1024 .bf16) (x1 : Vec F S1024x512 .f32) (xs0 : Vec F S1024x512 .f32) :
    sout40_C c i arg2 harg2 arg3 harg3 arg4 harg4 arg5 harg5 hc0 hc1 x0 x1 xs0 = k40_pay2 x0 x1 xs0 := by
  have hz : (![0, 0] : Fin 2 → Nat) = fun _ => 0 := funext fun a => by fin_cases a <;> rfl
  unfold sout40_C
  rw [View.read_writes_eq_canon _ _ _ (scover40_C c i arg2 harg2 arg3 harg3 arg4 harg4 arg5 harg5 hc0 hc1 x0 x1 xs0)]
  unfold kernelRun40_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out40_C_eq (c : Dev nD) (i : grid40.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond40_0 i) (hc1 : cond40_1 i)
    (x0 : Vec F S1024x1024 .bf16) (x1 : Vec F S1024x512 .f32) (xs0 : Vec F S1024x512 .f32) :
    out40_C c i arg2 harg2 arg3 harg3 arg4 harg4 arg5 harg5 hc0 hc1 x0 x1 xs0 = k40_pay2 x0 x1 xs0 := by
  have hz : (![0, 0] : Fin 2 → Nat) = fun _ => 0 := funext fun a => by fin_cases a <;> rfl
  unfold out40_C
  rw [View.read_writes_eq_canon _ _ _ (cover40_C c i arg2 harg2 arg3 harg3 arg4 harg4 arg5 harg5 hc0 hc1 x0 x1 xs0)]
  unfold kernelRun40_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk40_lhs (c : Dev nD) (n : ℕ) : Vec F S1024x1024 .bf16 :=
  if h : n < cfg40.N then iblk40 V c 0 ⟨n, h⟩ else iblk40 V c 0 ⟨0, by have h : cfg40.N = 16 := N_40; omega⟩
/-- The right factor's block at grid position `n`. -/
def iblk40_rhs (c : Dev nD) (n : ℕ) : Vec F S1024x512 .f32 :=
  if h : n < cfg40.N then iblk40 V c 1 ⟨n, h⟩ else iblk40 V c 1 ⟨0, by have h : cfg40.N = 16 := N_40; omega⟩

theorem iblk40_lhs_eq (c : Dev nD) (n : ℕ) (h : n < cfg40.N) : iblk40_lhs V c n = iblk40 V c 0 ⟨n, h⟩ := dif_pos h
theorem iblk40_rhs_eq (c : Dev nD) (n : ℕ) (h : n < cfg40.N) : iblk40_rhs V c n = iblk40 V c 1 ⟨n, h⟩ := dif_pos h

/-! ## The accumulator along one row of blocks -/

/-- Row of blocks `r`, after its step `k`: the zero block plus the products of the blocks at positions 4 r, …, 4 r + k,
    added in that order. -/
def accOf40 (c : Dev nD) (r : ℕ) : ℕ → Vec F S1024x512 .f32
  | 0 => k40_pay2 (iblk40_lhs V c (4 * r)) (iblk40_rhs V c (4 * r)) (k40_pay1 (F := F))
  | k + 1 => k40_pay2 (iblk40_lhs V c (4 * r + (k + 1))) (iblk40_rhs V c (4 * r + (k + 1))) (accOf40 c r k)

theorem accOf40_zero (c : Dev nD) (r : ℕ) :
    accOf40 V c r 0 = k40_pay2 (iblk40_lhs V c (4 * r)) (iblk40_rhs V c (4 * r)) (k40_pay1 (F := F)) := rfl
theorem accOf40_succ (c : Dev nD) (r k : ℕ) :
    accOf40 V c r (k + 1) = k40_pay2 (iblk40_lhs V c (4 * r + (k + 1))) (iblk40_rhs V c (4 * r + (k + 1))) (accOf40 V c r k) := rfl

theorem iblk40_lhs_at (c : Dev nD) (t : Fin cfg40.N) (n : ℕ) (hn : n = t.val) : iblk40_lhs V c n = iblk40 V c 0 t := by
  subst hn; unfold iblk40_lhs; exact dif_pos t.isLt
theorem iblk40_rhs_at (c : Dev nD) (t : Fin cfg40.N) (n : ℕ) (hn : n = t.val) : iblk40_rhs V c n = iblk40 V c 1 t := by
  subst hn; unfold iblk40_rhs; exact dif_pos t.isLt

/-- At a grid point with k = 0 the fold starts: the zero block plus the product of the point's two blocks. -/
theorem accOf40_first (c : Dev nD) (t : Fin cfg40.N) (h0 : t.val % 4 = 0) :
    accOf40 V c (t.val / 4) (t.val % 4) = k40_pay2 (iblk40 V c 0 t) (iblk40 V c 1 t) (k40_pay1 (F := F)) := by
  rw [h0, accOf40_zero, iblk40_lhs_at V c t (4 * (t.val / 4)) (by omega), iblk40_rhs_at V c t (4 * (t.val / 4)) (by omega)]

/-- At a grid point with k ≠ 0 the fold takes one step from the position before, which is in the same row of blocks. -/
theorem accOf40_next (c : Dev nD) (t : Fin cfg40.N) (h0 : ¬t.val % 4 = 0) :
    accOf40 V c (t.val / 4) (t.val % 4)
      = k40_pay2 (iblk40 V c 0 t) (iblk40 V c 1 t) (accOf40 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf40_succ, iblk40_lhs_at V c t (4 * (t.val / 4) + (k + 1)) (by omega),
    iblk40_rhs_at V c t (4 * (t.val / 4) + (k + 1)) (by omega)]

/-! ## The accumulator and the output block, point by point, as pure functions of the blocks -/

/-- k = 0: the accumulator restarts from the zero block. -/
theorem outsAt40_first (c : Dev nD) (t : Fin cfg40.N) (h0 : t.val % 4 = 0) :
    (outsAt40 V c t.val t.isLt).2 = k40_pay2 (iblk40 V c 0 t) (iblk40 V c 1 t) (k40_pay1 (F := F)) := by
  rw [outsAt40_A V c t h0]
  dsimp only
  exact sout40_A_eq c (grid40.coords t) (ms40_0 t) (hs40_0 t) (ms40_1 t) (hs40_1 t) (ms40_2 t) (hs40_2 t) scM40 (Memref.isWhole_whole _) (isFirst40 t h0) (notLast40 t (by omega)) (iblk40 V c 0 t) (iblk40 V c 1 t)

/-- k ≠ 0: the point's product is added to what the point before left. -/
theorem outsAt40_next (c : Dev nD) (t : Fin cfg40.N) (h0 : ¬t.val % 4 = 0) :
    (outsAt40 V c t.val t.isLt).2
      = k40_pay2 (iblk40 V c 0 t) (iblk40 V c 1 t) (outsAt40 V c (t.val - 1) (Nat.lt_of_le_of_lt (Nat.sub_le _ _) t.isLt)).2 := by
  by_cases h3 : t.val % 4 = 3
  · rw [outsAt40_C V c t h0 h3]
    dsimp only
    exact sout40_C_eq c (grid40.coords t) (ms40_0 t) (hs40_0 t) (ms40_1 t) (hs40_1 t) (ms40_2 t) (hs40_2 t) scM40 (Memref.isWhole_whole _) (notFirst40 t h0) (isLast40 t h3) (iblk40 V c 0 t) (iblk40 V c 1 t)
      (outsAt40 V c (t.val - 1) (Nat.lt_of_le_of_lt (Nat.sub_le _ _) t.isLt)).2
  · rw [outsAt40_B V c t h0 h3]
    dsimp only
    exact sout40_B_eq c (grid40.coords t) (ms40_0 t) (hs40_0 t) (ms40_1 t) (hs40_1 t) (ms40_2 t) (hs40_2 t) scM40 (Memref.isWhole_whole _) (notFirst40 t h0) (notLast40 t h3) (iblk40 V c 0 t) (iblk40 V c 1 t)
      (outsAt40 V c (t.val - 1) (Nat.lt_of_le_of_lt (Nat.sub_le _ _) t.isLt)).2

/-- k = 3: the output block is the accumulator. -/
theorem outsAt40_last (c : Dev nD) (t : Fin cfg40.N) (h3 : t.val % 4 = 3) :
    (outsAt40 V c t.val t.isLt).1 = (outsAt40 V c t.val t.isLt).2 := by
  have h0 : ¬t.val % 4 = 0 := by omega
  rw [outsAt40_C V c t h0 h3]
  dsimp only
  exact (out40_C_eq c (grid40.coords t) (ms40_0 t) (hs40_0 t) (ms40_1 t) (hs40_1 t) (ms40_2 t) (hs40_2 t) scM40 (Memref.isWhole_whole _) (notFirst40 t h0) (isLast40 t h3) (iblk40 V c 0 t) (iblk40 V c 1 t)
      (outsAt40 V c (t.val - 1) (Nat.lt_of_le_of_lt (Nat.sub_le _ _) t.isLt)).2).trans
    (sout40_C_eq c (grid40.coords t) (ms40_0 t) (hs40_0 t) (ms40_1 t) (hs40_1 t) (ms40_2 t) (hs40_2 t) scM40 (Memref.isWhole_whole _) (notFirst40 t h0) (isLast40 t h3) (iblk40 V c 0 t) (iblk40 V c 1 t)
      (outsAt40 V c (t.val - 1) (Nat.lt_of_le_of_lt (Nat.sub_le _ _) t.isLt)).2).symm

/-! ## The accumulator is the fold -/

/-- After position `n` the accumulator holds row `n / 4`'s fold after its step `n % 4`: by induction on the position. -/
theorem outsAt40_acc_pos (c : Dev nD) :
    ∀ (n : ℕ) (hn : n < cfg40.N), (outsAt40 V c n hn).2 = accOf40 V c (n / 4) (n % 4) := by
  intro n
  induction n with
  | zero =>
    intro hn
    exact (outsAt40_first V c ⟨0, hn⟩ (Nat.zero_mod 4)).trans (accOf40_first V c ⟨0, hn⟩ (Nat.zero_mod 4)).symm
  | succ n ih =>
    intro hn
    by_cases h0 : (n + 1) % 4 = 0
    · exact (outsAt40_first V c ⟨n + 1, hn⟩ h0).trans (accOf40_first V c ⟨n + 1, hn⟩ h0).symm
    · refine (outsAt40_next V c ⟨n + 1, hn⟩ h0).trans (Eq.trans ?_ (accOf40_next V c ⟨n + 1, hn⟩ h0).symm)
      exact congrArg (k40_pay2 (iblk40 V c 0 ⟨n + 1, hn⟩) (iblk40 V c 1 ⟨n + 1, hn⟩)) (ih (Nat.lt_of_succ_lt hn))

/-- At every grid point the accumulator holds its row's fold after the point's step. -/
theorem outsAt40_acc (c : Dev nD) (t : Fin cfg40.N) :
    (outsAt40 V c t.val t.isLt).2 = accOf40 V c (t.val / 4) (t.val % 4) :=
  outsAt40_acc_pos V c t.val t.isLt

/-- At a row's last point the output block holds the row's whole fold. -/
theorem outsAt40_out (c : Dev nD) (t : Fin cfg40.N) (h3 : t.val % 4 = 3) :
    (outsAt40 V c t.val t.isLt).1 = accOf40 V c (t.val / 4) 3 := by
  have e := outsAt40_acc V c t
  rw [h3] at e
  exact (outsAt40_last V c t h3).trans e

end Cert.KernelIdeal.Hand

end
-- ==== Proof.ValKI40b.lean ====
/- Laid out by: python3 scratch/layout_regions.py --template-region 1 --region 40 --program KernelIdeal --prefix Val --parts a,b,c --sim main_v9=main_v8,main_v25=main_v222,main_v26=main_v224 --out-dir proof/Proof
   from the hand-written text of region 1 (ValKI1b.lean): the same text, the region's number substituted. -/
/-
  Region 40 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI40a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts40 : ∀ t : Fin cfg40.N,
    win40_0.index t (0 : Fin 2) = t.val / 4 ∧ win40_0.index t (1 : Fin 2) = t.val % 4
    ∧ win40_1.index t (0 : Fin 2) = t.val % 4 ∧ win40_1.index t (1 : Fin 2) = 0
    ∧ win40_2.index t (0 : Fin 2) = t.val / 4 ∧ win40_2.index t (1 : Fin 2) = 0 :=
  (by decide +kernel : ∀ t : Fin grid40.N,
    win40_0.index t (0 : Fin 2) = t.val / 4 ∧ win40_0.index t (1 : Fin 2) = t.val % 4
    ∧ win40_1.index t (0 : Fin 2) = t.val % 4 ∧ win40_1.index t (1 : Fin 2) = 0
    ∧ win40_2.index t (0 : Fin 2) = t.val / 4 ∧ win40_2.index t (1 : Fin 2) = 0)

/-! ## The output array as one function -/

/-- The whole output array: its row 1024 r + p, column q, is entry (p, q) of the block accumulated over k = 0 … 3 in
    block row r. -/
def whole40 (c : Dev nD) : S4096x512.Idx → Elt F .f32 := fun i =>
  accOf40 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole40_apply (c : Dev nD) (r : ℕ) (y : S1024x512.Idx) (i : S4096x512.Idx)
    (h0 : (i 0).val = 1024 * r + (y 0).val) (h1 : (i 1).val = (y 1).val) :
    whole40 V c i = accOf40 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole40
  rw [hr, e]

/-- Row 1024 r + p, column q of the array is entry (p, q) of block row r's accumulated block. -/
theorem whole40_ix2 (c : Dev nD) (r : Fin 4) (p : Fin 1024) (q : Fin 512) :
    whole40 V c (ix2 (n0 := 4096) (n1 := 512) ⟨1024 * r.val + p.val, by have := r.isLt; have := p.isLt; omega⟩ q)
      = accOf40 V c r.val 3 (ix2 p q) :=
  whole40_apply V c r.val (ix2 p q) _ rfl rfl

/-! ## What a point writes back -/

/-- A point with k = 3 writes back its block of the whole-array function. -/
theorem flushed40_eq (c : Dev nD) (t : Fin cfg40.N) (hf : (cfg40.win 2).flush t = true) :
    (dat40 V c).flushed 2 t = ((cfg40.win 2).blk t).view.read (Elt F) (whole40 V c) := by
  have h3 : t.val % 4 = 3 := (flush40_2 t).mp hf
  show (cfg40.win 2).cut (grid40.coords t) ((dat40 V c).after 2 t) = _
  rw [after40_2, outsAt40_out V c t h3]
  obtain ⟨-, -, -, -, e0, e1⟩ := idxFacts40 t
  funext j
  show accOf40 V c (t.val / 4) 3 j = whole40 V c (((cfg40.win 2).blk t).view.emb j)
  refine (whole40_apply V c (t.val / 4) j _ ?_ ?_).symm
  · show win40_2.index t (0 : Fin 2) * 1024 + 1 * (j 0).val = 1024 * (t.val / 4) + (j 0).val
    rw [e0]; omega
  · show win40_2.index t (1 : Fin 2) * 512 + 1 * (j 1).val = (j 1).val
    rw [e1]; omega

/-! ## The blocks written back cover the array -/

/-- An index is in a point's output block iff each coordinate is in the block's range on its axis. -/
theorem memBlk40 (t : Fin cfg40.N) (i : S4096x512.Idx) :
    i ∈ ((cfg40.win 2).blk t).view.set ↔ ∀ a : Fin 2, win40_2.index t a * S1024x512.size a ≤ (i a).val
      ∧ (i a).val < win40_2.index t a * S1024x512.size a + S1024x512.size a := by
  show i ∈ ((View.whole main_v224).slice (win40_2.rect t)).set ↔ _
  rw [View.set_slice_whole, Rect.mem_set_unit]
  exact Iff.rfl

/-- Row i of the array lies in the block written back at the point (i / 1024, 3). -/
theorem covered40 (i : S4096x512.Idx) :
    ∃ t : Fin cfg40.N, (cfg40.win 2).flush t = true ∧ i ∈ ((cfg40.win 2).blk t).view.set := by
  have hi0 : (i 0).val < 4096 := idx2_lt0 i
  have hi1 : (i 1).val < 512 := idx2_lt1 i
  have hN : cfg40.N = 16 := N_40
  obtain ⟨t, ht⟩ : ∃ t : Fin cfg40.N, t.val = 4 * ((i 0).val / 1024) + 3 :=
    ⟨⟨4 * ((i 0).val / 1024) + 3, by rw [hN]; omega⟩, rfl⟩
  refine ⟨t, (flush40_2 t).mpr (by omega), ?_⟩
  rw [memBlk40]
  obtain ⟨-, -, -, -, e0, e1⟩ := idxFacts40 t
  intro a
  match a with
  | ⟨0, _⟩ =>
    show win40_2.index t (0 : Fin 2) * 1024 ≤ (i 0).val ∧ (i 0).val < win40_2.index t (0 : Fin 2) * 1024 + 1024
    rw [e0]; omega
  | ⟨1, _⟩ =>
    show win40_2.index t (1 : Fin 2) * 512 ≤ (i 1).val ∧ (i 1).val < win40_2.index t (1 : Fin 2) * 512 + 512
    rw [e1]; omega

/-! ## The three arrays after the region -/

/-- The output array after the region is the whole-array function. -/
theorem final40_2 (c : Dev nD) : (dat40 V c).arrAt 2 cfg40.N = whole40 V c :=
  (dat40 V c).arrAt_eq_of_cover 2 (whole40 V c) (flushed40_eq V c) covered40

/-- The two input arrays are as the region found them. -/
theorem final40_0 (c : Dev nD) : (dat40 V c).arrAt 0 cfg40.N = V c main_v8 :=
  ((dat40 V c).arrAt_in 0 rfl cfg40.N).trans (A_eq40 V c 0)
theorem final40_1 (c : Dev nD) : (dat40 V c).arrAt 1 cfg40.N = V c main_v222 :=
  ((dat40 V c).arrAt_in 1 rfl cfg40.N).trans (A_eq40 V c 1)

/-! ## The input blocks as blocks of the operand arrays -/

/-- The left operand's block at the point (r, k): entry (y₀, y₁) is the array's entry (1024 r + y₀, 1024 k + y₁). -/
theorem iblk40_lhs_apply (c : Dev nD) (r k : Fin 4) (y : S1024x1024.Idx) (i : S4096x4096.Idx)
    (h0 : (i 0).val = 1024 * r.val + (y 0).val) (h1 : (i 1).val = 1024 * k.val + (y 1).val) :
    iblk40_lhs V c (4 * r.val + k.val) y = (V c main_v8 : S4096x4096.Idx → Elt F .bf16) i := by
  have hN : cfg40.N = 16 := N_40
  have hr := r.isLt
  have hk := k.isLt
  have hlt : 4 * r.val + k.val < cfg40.N := by rw [hN]; omega
  rw [iblk40_lhs_eq V c _ hlt]
  obtain ⟨e0, e1, -, -, -, -⟩ := idxFacts40 ⟨4 * r.val + k.val, hlt⟩
  have e0' : win40_0.index ⟨4 * r.val + k.val, hlt⟩ (0 : Fin 2) = (4 * r.val + k.val) / 4 := e0
  have e1' : win40_0.index ⟨4 * r.val + k.val, hlt⟩ (1 : Fin 2) = (4 * r.val + k.val) % 4 := e1
  unfold iblk40
  rw [View.read_apply]
  show V c main_v8 (((cfg40.win 0).blk ⟨4 * r.val + k.val, hlt⟩).view.emb y) = V c main_v8 i
  congr 1
  funext a
  apply Fin.ext
  match a with
  | ⟨0, _⟩ =>
    show win40_0.index ⟨4 * r.val + k.val, hlt⟩ (0 : Fin 2) * 1024 + 1 * (y 0).val = (i 0).val
    rw [e0', h0]; omega
  | ⟨1, _⟩ =>
    show win40_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk40_rhs_apply (c : Dev nD) (r k : Fin 4) (y : S1024x512.Idx) (i : S4096x512.Idx)
    (h0 : (i 0).val = 1024 * k.val + (y 0).val) (h1 : (i 1).val = (y 1).val) :
    iblk40_rhs V c (4 * r.val + k.val) y = (V c main_v222 : S4096x512.Idx → Elt F .f32) i := by
  have hN : cfg40.N = 16 := N_40
  have hr := r.isLt
  have hk := k.isLt
  have hlt : 4 * r.val + k.val < cfg40.N := by rw [hN]; omega
  rw [iblk40_rhs_eq V c _ hlt]
  obtain ⟨-, -, e0, e1, -, -⟩ := idxFacts40 ⟨4 * r.val + k.val, hlt⟩
  have e0' : win40_1.index ⟨4 * r.val + k.val, hlt⟩ (0 : Fin 2) = (4 * r.val + k.val) % 4 := e0
  have e1' : win40_1.index ⟨4 * r.val + k.val, hlt⟩ (1 : Fin 2) = 0 := e1
  unfold iblk40
  rw [View.read_apply]
  show V c main_v222 (((cfg40.win 1).blk ⟨4 * r.val + k.val, hlt⟩).view.emb y) = V c main_v222 i
  congr 1
  funext a
  apply Fin.ext
  match a with
  | ⟨0, _⟩ =>
    show win40_1.index ⟨4 * r.val + k.val, hlt⟩ (0 : Fin 2) * 1024 + 1 * (y 0).val = (i 0).val
    rw [e0', h0]; omega
  | ⟨1, _⟩ =>
    show win40_1.index ⟨4 * r.val + k.val, hlt⟩ (1 : Fin 2) * 512 + 1 * (y 1).val = (i 1).val
    rw [e1', h1]; omega

/-- The accumulated block after the fourth step, unfolded: four steps from the zero block. -/
theorem accOf40_three (c : Dev nD) (r : ℕ) :
    accOf40 V c r 3
      = k40_pay2 (iblk40_lhs V c (4 * r + 3)) (iblk40_rhs V c (4 * r + 3))
          (k40_pay2 (iblk40_lhs V c (4 * r + 2)) (iblk40_rhs V c (4 * r + 2))
            (k40_pay2 (iblk40_lhs V c (4 * r + 1)) (iblk40_rhs V c (4 * r + 1))
              (k40_pay2 (iblk40_lhs V c (4 * r)) (iblk40_rhs V c (4 * r)) (k40_pay1 (F := F))))) := rfl

end Cert.KernelIdeal.Hand

end
-- ==== Proof.ValKI40c.lean ====
/- Laid out by: python3 scratch/layout_regions.py --template-region 1 --region 40 --program KernelIdeal --prefix Val --parts a,b,c --sim main_v9=main_v8,main_v25=main_v222,main_v26=main_v224 --out-dir proof/Proof
   from the hand-written text of region 1 (ValKI1c.lean): the same text, the region's number substituted. -/
/-
  Region 40 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI40b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf40_step (x0 : Vec Ideal S1024x1024 .bf16) (x1 acc : Vec Ideal S1024x512 .f32) :
    k40_pay2 (F := Ideal) x0 x1 acc
      = Cert.MMLaw.accStep dot_S1024x1024_S1024x512_S1024x512_1_0_0_1_n_n none x0 x1 acc := by
  unfold k40_pay2
  simp only [shapeCast_self]
  rfl

/-- The accumulator starts from the zero block. -/
theorem accOf40_init (j : S1024x512.Idx) : k40_pay1 (F := Ideal) j = 0 := by
  unfold k40_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf40_eq_blk (c : Dev nD) (r : Fin 4) (D : DotDims S4096x4096 S4096x512 S4096x512) (hD : Cert.MMLaw.IsPlain D)
    (prec : Option ContractPrecision) :
    accOf40 V c r.val 3
      = Cert.MMLaw.blk (nr := 4) (nc := 1) 1024 512 rfl rfl (Cert.MMLaw.whole D prec (V c main_v8) (V c main_v222)) r 0 := by
  rw [accOf40_three]
  simp only [accOf40_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v8) (V c main_v222) r 0
    (fun k => iblk40_lhs V c (4 * r.val + k.val)) (fun k => iblk40_rhs V c (4 * r.val + k.val))
    (fun k => funext fun y => iblk40_lhs_apply V c r k y _ rfl rfl)
    (fun k => funext fun y => iblk40_rhs_apply V c r k y _ rfl (by show 512 * 0 + (y 1).val = (y 1).val; omega))
    (k40_pay1 (F := Ideal)) accOf40_init

/-! ## The output array after the region is the whole product -/

/-- The region leaves in its output array the product of its two operand arrays. -/
theorem final40_2_eq_whole (c : Dev nD) (D : DotDims S4096x4096 S4096x512 S4096x512) (hD : Cert.MMLaw.IsPlain D)
    (prec : Option ContractPrecision) :
    (dat40 (F := Ideal) V c).arrAt 2 cfg40.N = Cert.MMLaw.whole D prec (V c main_v8) (V c main_v222) := by
  rw [final40_2]
  funext i
  have hi0 : (i 0).val < 4096 := idx2_lt0 i
  have h := congrFun (accOf40_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final40_2_eq_dot (c : Dev nD) (D : DotDims S4096x4096 S4096x512 S4096x512) (hD : Cert.MMLaw.IsPlain D)
    (prec : Option ContractPrecision) :
    (dat40 (F := Ideal) V c).arrAt 2 cfg40.N = Host.dotGeneral (F := Ideal) (φ₁ := .bf16) (φ₂ := .f32) D prec (V c main_v8) (V c main_v222) :=
  final40_2_eq_whole V c D hD prec

end Cert.KernelIdeal.Hand

end
-- ==== Proof.ValKI41a.lean ====
/- Laid out by: python3 scratch/layout_grid41.py --prefix Val --template-region 0 --region 41 --program KernelIdeal --parts a,b --shapes S1024x128=S1024x512,S128x512=S512x512,S1024x512=S1024x512,S4096x128=S4096x512,S4096x512=S4096x512,main_arg0=main_v227,main_v12=main_v10,main_v17=main_v228,h0=h0,e0=e0,hi0=hi0,x0=x0
   from the hand-written text of region 0 (ValKI0a.lean): the same text, the region's number, block shapes, operand arrays substituted. -/
/-
  Region 41 of @main: from the output blocks to the whole output array.

  The grid is [4, 1]: the point t is block row t, and the reduction axis has one step, so every point zeroes the
  accumulator, adds the product of its two input blocks, and writes the sum back. The output window's block at t is
  rows 1024 t … 1024 t + 1023 of the result, written back at every point. So the array after the region is ONE function
  of the index: row 1024 r + p, column q holds entry (p, q) of the block the point r leaves. The steps: the three windows'
  block indices decided once over the grid; what a point writes back is its block of that function; the four blocks
  written back cover the array (row i lies in the block of the point i / 1024); hence the array after the region. The two
  operand arrays are not written. Last, each input block as a block of its operand array: the left operand's block at the
  point t is its rows 1024 t … 1024 t + 1023 (every column), the right operand's block is the whole array at every point.
-/
import proofs.«158944_j64613488001249_1_alg».proof.Proof.RegKI41
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t the left operand's block is (t, 0), the right operand's (0, 0), the output's (t, 0). -/
theorem idxFacts41 : ∀ t : Fin cfg41.N,
    win41_0.index t (0 : Fin 2) = t.val ∧ win41_0.index t (1 : Fin 2) = 0
    ∧ win41_1.index t (0 : Fin 2) = 0 ∧ win41_1.index t (1 : Fin 2) = 0
    ∧ win41_2.index t (0 : Fin 2) = t.val ∧ win41_2.index t (1 : Fin 2) = 0 :=
  (by decide +kernel : ∀ t : Fin grid41.N,
    win41_0.index t (0 : Fin 2) = t.val ∧ win41_0.index t (1 : Fin 2) = 0
    ∧ win41_1.index t (0 : Fin 2) = 0 ∧ win41_1.index t (1 : Fin 2) = 0
    ∧ win41_2.index t (0 : Fin 2) = t.val ∧ win41_2.index t (1 : Fin 2) = 0)

/-! ## The block a point leaves -/

/-- The block the point at grid position n leaves: the zero block plus the product of the point's two input blocks
    (past the grid's end, where nothing consults it, the block of position 0). -/
def accOf41 (c : Dev nD) (n : ℕ) : Vec F S1024x512 .f32 :=
  if h : n < cfg41.N then k41_pay2 (iblk41 V c 0 ⟨n, h⟩) (iblk41 V c 1 ⟨n, h⟩) (k41_pay1 (F := F))
  else k41_pay2 (iblk41 V c 0 ⟨0, by have h : cfg41.N = 4 := N_41; omega⟩)
    (iblk41 V c 1 ⟨0, by have h : cfg41.N = 4 := N_41; omega⟩) (k41_pay1 (F := F))

theorem accOf41_eq (c : Dev nD) (t : Fin cfg41.N) :
    accOf41 V c t.val = k41_pay2 (iblk41 V c 0 t) (iblk41 V c 1 t) (k41_pay1 (F := F)) := by
  unfold accOf41; exact dif_pos t.isLt

/-- At every point the output block holds that block. -/
theorem outsAt41_out (c : Dev nD) (t : Fin cfg41.N) : (outsAt41 V c t.val t.isLt).1 = accOf41 V c t.val :=
  (outsAt41_last V c t).trans ((outsAt41_first V c t).trans (accOf41_eq V c t).symm)

/-! ## The output array as one function -/

/-- The whole output array: its row 1024 r + p, column q, is entry (p, q) of the block the point r leaves. -/
def whole41 (c : Dev nD) : S4096x512.Idx → Elt F .f32 := fun i =>
  accOf41 V c ((i 0).val / 1024)
    (ix2 ⟨(i 0).val % 1024, Nat.mod_lt _ (by decide)⟩ ⟨(i 1).val, idx2_lt1 i⟩)

/-- The array read at an index given by a block row r and a position y inside the block. -/
theorem whole41_apply (c : Dev nD) (r : ℕ) (y : S1024x512.Idx) (i : S4096x512.Idx)
    (h0 : (i 0).val = 1024 * r + (y 0).val) (h1 : (i 1).val = (y 1).val) :
    whole41 V c i = accOf41 V c r y := by
  have hy : (y 0).val < 1024 := idx2_lt0 y
  have hr : (i 0).val / 1024 = r := by omega
  have hp : (i 0).val % 1024 = (y 0).val := by omega
  have e : (ix2 ⟨(i 0).val % 1024, Nat.mod_lt _ (by decide)⟩ ⟨(i 1).val, idx2_lt1 i⟩ : S1024x512.Idx) = y :=
    funext fun a => match a with
      | ⟨0, _⟩ => Fin.ext hp
      | ⟨1, _⟩ => Fin.ext h1
  unfold whole41
  rw [hr, e]

/-- Row 1024 r + p, column q of the array is entry (p, q) of the block the point r leaves. -/
theorem whole41_ix2 (c : Dev nD) (r : Fin 4) (p : Fin 1024) (q : Fin (S1024x512.size 1)) :
    whole41 V c (ix2 ⟨1024 * r.val + p.val, by have := r.isLt; have := p.isLt; omega⟩ q)
      = accOf41 V c r.val (ix2 p q) :=
  whole41_apply V c r.val (ix2 p q) _ rfl rfl

/-! ## What a point writes back -/

/-- Every point writes back its block of the whole-array function. -/
theorem flushed41_eq (c : Dev nD) (t : Fin cfg41.N) (hf : (cfg41.win 2).flush t = true) :
    (dat41 V c).flushed 2 t = ((cfg41.win 2).blk t).view.read (Elt F) (whole41 V c) := by
  show (cfg41.win 2).cut (grid41.coords t) ((dat41 V c).after 2 t) = _
  rw [after41_2, outsAt41_out V c t]
  obtain ⟨-, -, -, -, e0, e1⟩ := idxFacts41 t
  funext j
  show accOf41 V c t.val j = whole41 V c (((cfg41.win 2).blk t).view.emb j)
  refine (whole41_apply V c t.val j _ ?_ ?_).symm
  · show win41_2.index t (0 : Fin 2) * 1024 + 1 * (j 0).val = 1024 * t.val + (j 0).val
    rw [e0]; omega
  · show win41_2.index t (1 : Fin 2) * S1024x512.size (1 : Fin 2) + 1 * (j 1).val = (j 1).val
    rw [e1, Nat.zero_mul, Nat.zero_add, Nat.one_mul]

/-! ## The blocks written back cover the array -/

/-- An index is in a point's output block iff each coordinate is in the block's range on its axis. -/
theorem memBlk41 (t : Fin cfg41.N) (i : S4096x512.Idx) :
    i ∈ ((cfg41.win 2).blk t).view.set ↔ ∀ a : Fin 2, win41_2.index t a * S1024x512.size a ≤ (i a).val
      ∧ (i a).val < win41_2.index t a * S1024x512.size a + S1024x512.size a := by
  show i ∈ ((View.whole main_v228).slice (win41_2.rect t)).set ↔ _
  rw [View.set_slice_whole, Rect.mem_set_unit]
  exact Iff.rfl

/-- Row i of the array lies in the block written back at the point i / 1024. -/
theorem covered41 (i : S4096x512.Idx) :
    ∃ t : Fin cfg41.N, (cfg41.win 2).flush t = true ∧ i ∈ ((cfg41.win 2).blk t).view.set := by
  have hi0 : (i 0).val < 4096 := idx2_lt0 i
  have hi1 : (i 1).val < S1024x512.size (1 : Fin 2) := idx2_lt1 i
  have hN : cfg41.N = 4 := N_41
  obtain ⟨t, ht⟩ : ∃ t : Fin cfg41.N, t.val = (i 0).val / 1024 :=
    ⟨⟨(i 0).val / 1024, by rw [hN]; omega⟩, rfl⟩
  refine ⟨t, flush41_2 t, ?_⟩
  rw [memBlk41]
  obtain ⟨-, -, -, -, e0, e1⟩ := idxFacts41 t
  intro a
  match a with
  | ⟨0, _⟩ =>
    show win41_2.index t (0 : Fin 2) * 1024 ≤ (i 0).val ∧ (i 0).val < win41_2.index t (0 : Fin 2) * 1024 + 1024
    rw [e0]; omega
  | ⟨1, _⟩ =>
    show win41_2.index t (1 : Fin 2) * S1024x512.size (1 : Fin 2) ≤ (i 1).val
      ∧ (i 1).val < win41_2.index t (1 : Fin 2) * S1024x512.size (1 : Fin 2) + S1024x512.size (1 : Fin 2)
    rw [e1, Nat.zero_mul, Nat.zero_add]
    exact ⟨Nat.zero_le _, hi1⟩

/-! ## The three arrays after the region -/

/-- The output array after the region is the whole-array function. -/
theorem final41_2 (c : Dev nD) : (dat41 V c).arrAt 2 cfg41.N = whole41 V c :=
  (dat41 V c).arrAt_eq_of_cover 2 (whole41 V c) (flushed41_eq V c) covered41

/-- The two input arrays are as the region found them. -/
theorem final41_0 (c : Dev nD) : (dat41 V c).arrAt 0 cfg41.N = V c main_v227 :=
  ((dat41 V c).arrAt_in 0 rfl cfg41.N).trans (A_eq41 V c 0)
theorem final41_1 (c : Dev nD) : (dat41 V c).arrAt 1 cfg41.N = V c main_v10 :=
  ((dat41 V c).arrAt_in 1 rfl cfg41.N).trans (A_eq41 V c 1)

/-! ## The input blocks as blocks of the operand arrays -/

/-- The left operand's block at the point t: entry (y₀, y₁) is the array's entry (1024 t + y₀, y₁). -/
theorem iblk41_lhs_apply (c : Dev nD) (t : Fin cfg41.N) (y : S1024x512.Idx) (i : S4096x512.Idx)
    (h0 : (i 0).val = 1024 * t.val + (y 0).val) (h1 : (i 1).val = (y 1).val) :
    iblk41 V c 0 t y = (V c main_v227 : S4096x512.Idx → Elt F .f32) i := by
  obtain ⟨e0, e1, -, -, -, -⟩ := idxFacts41 t
  unfold iblk41
  rw [View.read_apply]
  show V c main_v227 (((cfg41.win 0).blk t).view.emb y) = V c main_v227 i
  congr 1
  funext a
  apply Fin.ext
  match a with
  | ⟨0, _⟩ =>
    show win41_0.index t (0 : Fin 2) * 1024 + 1 * (y 0).val = (i 0).val
    rw [e0, h0]; omega
  | ⟨1, _⟩ =>
    show win41_0.index t (1 : Fin 2) * S1024x512.size (1 : Fin 2) + 1 * (y 1).val = (i 1).val
    rw [e1, h1, Nat.zero_mul, Nat.zero_add, Nat.one_mul]

/-- The right operand's block is the whole array at every point. -/
theorem iblk41_rhs_eq (c : Dev nD) (t : Fin cfg41.N) :
    iblk41 V c 1 t = (V c main_v10 : S512x512.Idx → Elt F .bf16) := by
  obtain ⟨-, -, e0, e1, -, -⟩ := idxFacts41 t
  funext y
  unfold iblk41
  rw [View.read_apply]
  show V c main_v10 (((cfg41.win 1).blk t).view.emb y) = V c main_v10 y
  congr 1
  funext a
  apply Fin.ext
  match a with
  | ⟨0, _⟩ =>
    show win41_1.index t (0 : Fin 2) * S512x512.size (0 : Fin 2) + 1 * (y 0).val = (y 0).val
    rw [e0, Nat.zero_mul, Nat.zero_add, Nat.one_mul]
  | ⟨1, _⟩ =>
    show win41_1.index t (1 : Fin 2) * S512x512.size (1 : Fin 2) + 1 * (y 1).val = (y 1).val
    rw [e1, Nat.zero_mul, Nat.zero_add, Nat.one_mul]

end Cert.KernelIdeal.Hand

end
-- ==== Proof.ValKI41b.lean ====
/- Laid out by: python3 scratch/layout_grid41.py --prefix Val --template-region 0 --region 41 --program KernelIdeal --parts a,b --shapes S1024x128=S1024x512,S128x512=S512x512,S1024x512=S1024x512,S4096x128=S4096x512,S4096x512=S4096x512,main_arg0=main_v227,main_v12=main_v10,main_v17=main_v228,h0=h0,e0=e0,hi0=hi0,x0=x0
   from the hand-written text of region 0 (ValKI0b.lean): the same text, the region's number, block shapes, operand arrays substituted. -/
/-
  Region 41 of @main at the extended reals: the output array after the region is the product of the two operand arrays.

  A change of float format is the identity at these values and a reshape to the same shape is the identity, so the
  kernel's one accumulation step is "accumulator plus the product of the two blocks into the zero block", and the
  accumulator starts from the zero block. The block the point r leaves is then zero plus the product of rows
  1024 r … 1024 r + 1023 of the left operand with the whole right operand, which is the same rows of the whole product:
  the contraction axis is not cut, so the sums are the same term by term. Read through the whole-array function of the
  blocks-to-array module, entry (1024 r + p, q) of the output array is that entry of the product.
-/
import proofs.«158944_j64613488001249_1_alg».proof.Proof.ValKI41a
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The accumulation step, and its start, at the extended reals -/

/-- A change of format and a reshape to the same shape are the identity: the step adds the product of the two blocks
    (into the zero block) to the accumulator. -/
theorem accOf41_step (x0 : Vec Ideal S1024x512 .f32) (x1 : Vec Ideal S512x512 .bf16) (acc : Vec Ideal S1024x512 .f32) :
    k41_pay2 (F := Ideal) x0 x1 acc
      = Cert.MMLaw.accStep dot_S1024x512_S512x512_S1024x512_1_0_0_1_n_n none x0 x1 acc := by
  unfold k41_pay2
  simp only [shapeCast_self]
  rfl

/-- The accumulator starts from the zero block. -/
theorem accOf41_init (j : S1024x512.Idx) : k41_pay1 (F := Ideal) j = 0 := by
  unfold k41_pay1
  rw [shapeCast_self]
  exact Ideal.ofBits_zero_f32

/-! ## The block a point leaves is a block of the whole product -/

/-- The block the point r leaves is rows 1024 r … 1024 r + 1023 of the product of the two operand arrays. -/
theorem accOf41_eq_blk (c : Dev nD) (r : Fin 4) (D : DotDims S4096x512 S512x512 S4096x512) (hD : Cert.MMLaw.IsPlain D)
    (prec : Option ContractPrecision) :
    accOf41 V c r.val
      = Cert.MMLaw.rowBlk (Cert.MMLaw.whole D prec (V c main_v227) (V c main_v10)) r := by
  have hN : cfg41.N = 4 := N_41
  have hr : r.val < cfg41.N := by rw [hN]; exact r.isLt
  rw [accOf41_eq V c ⟨r.val, hr⟩, accOf41_step]
  exact Cert.MMLaw.law41 dot_S1024x512_S512x512_S1024x512_1_0_0_1_n_n ⟨rfl, rfl, rfl, rfl, rfl, rfl⟩ D hD none prec
    (V c main_v227) (V c main_v10) r (iblk41 V c 0 ⟨r.val, hr⟩) (iblk41 V c 1 ⟨r.val, hr⟩)
    (funext fun y => iblk41_lhs_apply V c ⟨r.val, hr⟩ y _ rfl rfl) (iblk41_rhs_eq V c ⟨r.val, hr⟩)
    (k41_pay1 (F := Ideal)) accOf41_init

/-! ## The output array after the region is the whole product -/

/-- The region leaves in its output array the product of its two operand arrays. -/
theorem final41_2_eq_whole (c : Dev nD) (D : DotDims S4096x512 S512x512 S4096x512) (hD : Cert.MMLaw.IsPlain D)
    (prec : Option ContractPrecision) :
    (dat41 (F := Ideal) V c).arrAt 2 cfg41.N = Cert.MMLaw.whole D prec (V c main_v227) (V c main_v10) := by
  rw [final41_2]
  funext i
  have hi0 : (i 0).val < 4096 := idx2_lt0 i
  have h := congrFun (accOf41_eq_blk V c ⟨(i 0).val / 1024, by omega⟩ D hD prec)
    (ix2 ⟨(i 0).val % 1024, Nat.mod_lt _ (by decide)⟩ ⟨(i 1).val, idx2_lt1 i⟩)
  rw [Cert.MMLaw.rowBlk_apply] at h
  refine Eq.trans h (congrArg _ ?_)
  funext a
  match a with
  | ⟨0, _⟩ => exact Fin.ext (by show 1024 * ((i 0).val / 1024) + (i 0).val % 1024 = (i 0).val; omega)
  | ⟨1, _⟩ => rfl

/-- The same with the operands at the formats they are stored in. -/
theorem final41_2_eq_dot (c : Dev nD) (D : DotDims S4096x512 S512x512 S4096x512) (hD : Cert.MMLaw.IsPlain D)
    (prec : Option ContractPrecision) :
    (dat41 (F := Ideal) V c).arrAt 2 cfg41.N
      = Host.dotGeneral (F := Ideal) (φ₁ := .f32) (φ₂ := .bf16) D prec (V c main_v227) (V c main_v10) :=
  final41_2_eq_whole V c D hD prec

end Cert.KernelIdeal.Hand

end
-- ==== Proof.ValKI42a.lean ====
/- Laid out by: python3 scratch/layout_regions.py --template-region 1 --region 42 --program KernelIdeal --prefix Val --parts a,b,c --sim main_v9=main_v7,main_v25=main_v228,main_v26=main_v229 --out-dir proof/Proof
   from the hand-written text of region 1 (ValKI1a.lean): the same text, the region's number substituted. -/
/-
  Region 42 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k42_pay1` (the zero block) and `k42_pay2` (accumulator plus product) are the two stores' payloads.

  So along one row of blocks r the accumulator after its step k is the left fold
    accOf42 r 0 = pay2 (a (r, 0)) (b 0) pay1,    accOf42 r (k + 1) = pay2 (a (r, k + 1)) (b (k + 1)) (accOf42 r k),
  the grid point (r, k) being position 4 r + k; and at k = 3 the output block holds accOf42 r 3.
-/
import proofs.«158944_j64613488001249_1_alg».proof.Proof.RegKI42
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout42_A_eq (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond42_0 i) (hc1 : ¬cond42_1 i)
    (x0 : Vec F S1024x1024 .bf16) (x1 : Vec F S1024x512 .f32) :
    sout42_A c i arg2 harg2 arg3 harg3 arg4 harg4 arg5 harg5 hc0 hc1 x0 x1 = k42_pay2 x0 x1 (k42_pay1 (F := F)) := by
  have hz : (![0, 0] : Fin 2 → Nat) = fun _ => 0 := funext fun a => by fin_cases a <;> rfl
  unfold sout42_A
  rw [View.read_writes_eq_canon _ _ _ (scover42_A c i arg2 harg2 arg3 harg3 arg4 harg4 arg5 harg5 hc0 hc1 x0 x1)]
  unfold kernelRun42_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout42_B_eq (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond42_0 i) (hc1 : ¬cond42_1 i)
    (x0 : Vec F S1024x1024 .bf16) (x1 : Vec F S1024x512 .f32) (xs0 : Vec F S1024x512 .f32) :
    sout42_B c i arg2 harg2 arg3 harg3 arg4 harg4 arg5 harg5 hc0 hc1 x0 x1 xs0 = k42_pay2 x0 x1 xs0 := by
  have hz : (![0, 0] : Fin 2 → Nat) = fun _ => 0 := funext fun a => by fin_cases a <;> rfl
  unfold sout42_B
  rw [View.read_writes_eq_canon _ _ _ (scover42_B c i arg2 harg2 arg3 harg3 arg4 harg4 arg5 harg5 hc0 hc1 x0 x1 xs0)]
  unfold kernelRun42_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout42_C_eq (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond42_0 i) (hc1 : cond42_1 i)
    (x0 : Vec F S1024x1024 .bf16) (x1 : Vec F S1024x512 .f32) (xs0 : Vec F S1024x512 .f32) :
    sout42_C c i arg2 harg2 arg3 harg3 arg4 harg4 arg5 harg5 hc0 hc1 x0 x1 xs0 = k42_pay2 x0 x1 xs0 := by
  have hz : (![0, 0] : Fin 2 → Nat) = fun _ => 0 := funext fun a => by fin_cases a <;> rfl
  unfold sout42_C
  rw [View.read_writes_eq_canon _ _ _ (scover42_C c i arg2 harg2 arg3 harg3 arg4 harg4 arg5 harg5 hc0 hc1 x0 x1 xs0)]
  unfold kernelRun42_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out42_C_eq (c : Dev nD) (i : grid42.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond42_0 i) (hc1 : cond42_1 i)
    (x0 : Vec F S1024x1024 .bf16) (x1 : Vec F S1024x512 .f32) (xs0 : Vec F S1024x512 .f32) :
    out42_C c i arg2 harg2 arg3 harg3 arg4 harg4 arg5 harg5 hc0 hc1 x0 x1 xs0 = k42_pay2 x0 x1 xs0 := by
  have hz : (![0, 0] : Fin 2 → Nat) = fun _ => 0 := funext fun a => by fin_cases a <;> rfl
  unfold out42_C
  rw [View.read_writes_eq_canon _ _ _ (cover42_C c i arg2 harg2 arg3 harg3 arg4 harg4 arg5 harg5 hc0 hc1 x0 x1 xs0)]
  unfold kernelRun42_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk42_lhs (c : Dev nD) (n : ℕ) : Vec F S1024x1024 .bf16 :=
  if h : n < cfg42.N then iblk42 V c 0 ⟨n, h⟩ else iblk42 V c 0 ⟨0, by have h : cfg42.N = 16 := N_42; omega⟩
/-- The right factor's block at grid position `n`. -/
def iblk42_rhs (c : Dev nD) (n : ℕ) : Vec F S1024x512 .f32 :=
  if h : n < cfg42.N then iblk42 V c 1 ⟨n, h⟩ else iblk42 V c 1 ⟨0, by have h : cfg42.N = 16 := N_42; omega⟩

theorem iblk42_lhs_eq (c : Dev nD) (n : ℕ) (h : n < cfg42.N) : iblk42_lhs V c n = iblk42 V c 0 ⟨n, h⟩ := dif_pos h
theorem iblk42_rhs_eq (c : Dev nD) (n : ℕ) (h : n < cfg42.N) : iblk42_rhs V c n = iblk42 V c 1 ⟨n, h⟩ := dif_pos h

/-! ## The accumulator along one row of blocks -/

/-- Row of blocks `r`, after its step `k`: the zero block plus the products of the blocks at positions 4 r, …, 4 r + k,
    added in that order. -/
def accOf42 (c : Dev nD) (r : ℕ) : ℕ → Vec F S1024x512 .f32
  | 0 => k42_pay2 (iblk42_lhs V c (4 * r)) (iblk42_rhs V c (4 * r)) (k42_pay1 (F := F))
  | k + 1 => k42_pay2 (iblk42_lhs V c (4 * r + (k + 1))) (iblk42_rhs V c (4 * r + (k + 1))) (accOf42 c r k)

theorem accOf42_zero (c : Dev nD) (r : ℕ) :
    accOf42 V c r 0 = k42_pay2 (iblk42_lhs V c (4 * r)) (iblk42_rhs V c (4 * r)) (k42_pay1 (F := F)) := rfl
theorem accOf42_succ (c : Dev nD) (r k : ℕ) :
    accOf42 V c r (k + 1) = k42_pay2 (iblk42_lhs V c (4 * r + (k + 1))) (iblk42_rhs V c (4 * r + (k + 1))) (accOf42 V c r k) := rfl

theorem iblk42_lhs_at (c : Dev nD) (t : Fin cfg42.N) (n : ℕ) (hn : n = t.val) : iblk42_lhs V c n = iblk42 V c 0 t := by
  subst hn; unfold iblk42_lhs; exact dif_pos t.isLt
theorem iblk42_rhs_at (c : Dev nD) (t : Fin cfg42.N) (n : ℕ) (hn : n = t.val) : iblk42_rhs V c n = iblk42 V c 1 t := by
  subst hn; unfold iblk42_rhs; exact dif_pos t.isLt

/-- At a grid point with k = 0 the fold starts: the zero block plus the product of the point's two blocks. -/
theorem accOf42_first (c : Dev nD) (t : Fin cfg42.N) (h0 : t.val % 4 = 0) :
    accOf42 V c (t.val / 4) (t.val % 4) = k42_pay2 (iblk42 V c 0 t) (iblk42 V c 1 t) (k42_pay1 (F := F)) := by
  rw [h0, accOf42_zero, iblk42_lhs_at V c t (4 * (t.val / 4)) (by omega), iblk42_rhs_at V c t (4 * (t.val / 4)) (by omega)]

/-- At a grid point with k ≠ 0 the fold takes one step from the position before, which is in the same row of blocks. -/
theorem accOf42_next (c : Dev nD) (t : Fin cfg42.N) (h0 : ¬t.val % 4 = 0) :
    accOf42 V c (t.val / 4) (t.val % 4)
      = k42_pay2 (iblk42 V c 0 t) (iblk42 V c 1 t) (accOf42 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf42_succ, iblk42_lhs_at V c t (4 * (t.val / 4) + (k + 1)) (by omega),
    iblk42_rhs_at V c t (4 * (t.val / 4) + (k + 1)) (by omega)]

/-! ## The accumulator and the output block, point by point, as pure functions of the blocks -/

/-- k = 0: the accumulator restarts from the zero block. -/
theorem outsAt42_first (c : Dev nD) (t : Fin cfg42.N) (h0 : t.val % 4 = 0) :
    (outsAt42 V c t.val t.isLt).2 = k42_pay2 (iblk42 V c 0 t) (iblk42 V c 1 t) (k42_pay1 (F := F)) := by
  rw [outsAt42_A V c t h0]
  dsimp only
  exact sout42_A_eq c (grid42.coords t) (ms42_0 t) (hs42_0 t) (ms42_1 t) (hs42_1 t) (ms42_2 t) (hs42_2 t) scM42 (Memref.isWhole_whole _) (isFirst42 t h0) (notLast42 t (by omega)) (iblk42 V c 0 t) (iblk42 V c 1 t)

/-- k ≠ 0: the point's product is added to what the point before left. -/
theorem outsAt42_next (c : Dev nD) (t : Fin cfg42.N) (h0 : ¬t.val % 4 = 0) :
    (outsAt42 V c t.val t.isLt).2
      = k42_pay2 (iblk42 V c 0 t) (iblk42 V c 1 t) (outsAt42 V c (t.val - 1) (Nat.lt_of_le_of_lt (Nat.sub_le _ _) t.isLt)).2 := by
  by_cases h3 : t.val % 4 = 3
  · rw [outsAt42_C V c t h0 h3]
    dsimp only
    exact sout42_C_eq c (grid42.coords t) (ms42_0 t) (hs42_0 t) (ms42_1 t) (hs42_1 t) (ms42_2 t) (hs42_2 t) scM42 (Memref.isWhole_whole _) (notFirst42 t h0) (isLast42 t h3) (iblk42 V c 0 t) (iblk42 V c 1 t)
      (outsAt42 V c (t.val - 1) (Nat.lt_of_le_of_lt (Nat.sub_le _ _) t.isLt)).2
  · rw [outsAt42_B V c t h0 h3]
    dsimp only
    exact sout42_B_eq c (grid42.coords t) (ms42_0 t) (hs42_0 t) (ms42_1 t) (hs42_1 t) (ms42_2 t) (hs42_2 t) scM42 (Memref.isWhole_whole _) (notFirst42 t h0) (notLast42 t h3) (iblk42 V c 0 t) (iblk42 V c 1 t)
      (outsAt42 V c (t.val - 1) (Nat.lt_of_le_of_lt (Nat.sub_le _ _) t.isLt)).2

/-- k = 3: the output block is the accumulator. -/
theorem outsAt42_last (c : Dev nD) (t : Fin cfg42.N) (h3 : t.val % 4 = 3) :
    (outsAt42 V c t.val t.isLt).1 = (outsAt42 V c t.val t.isLt).2 := by
  have h0 : ¬t.val % 4 = 0 := by omega
  rw [outsAt42_C V c t h0 h3]
  dsimp only
  exact (out42_C_eq c (grid42.coords t) (ms42_0 t) (hs42_0 t) (ms42_1 t) (hs42_1 t) (ms42_2 t) (hs42_2 t) scM42 (Memref.isWhole_whole _) (notFirst42 t h0) (isLast42 t h3) (iblk42 V c 0 t) (iblk42 V c 1 t)
      (outsAt42 V c (t.val - 1) (Nat.lt_of_le_of_lt (Nat.sub_le _ _) t.isLt)).2).trans
    (sout42_C_eq c (grid42.coords t) (ms42_0 t) (hs42_0 t) (ms42_1 t) (hs42_1 t) (ms42_2 t) (hs42_2 t) scM42 (Memref.isWhole_whole _) (notFirst42 t h0) (isLast42 t h3) (iblk42 V c 0 t) (iblk42 V c 1 t)
      (outsAt42 V c (t.val - 1) (Nat.lt_of_le_of_lt (Nat.sub_le _ _) t.isLt)).2).symm

/-! ## The accumulator is the fold -/

/-- After position `n` the accumulator holds row `n / 4`'s fold after its step `n % 4`: by induction on the position. -/
theorem outsAt42_acc_pos (c : Dev nD) :
    ∀ (n : ℕ) (hn : n < cfg42.N), (outsAt42 V c n hn).2 = accOf42 V c (n / 4) (n % 4) := by
  intro n
  induction n with
  | zero =>
    intro hn
    exact (outsAt42_first V c ⟨0, hn⟩ (Nat.zero_mod 4)).trans (accOf42_first V c ⟨0, hn⟩ (Nat.zero_mod 4)).symm
  | succ n ih =>
    intro hn
    by_cases h0 : (n + 1) % 4 = 0
    · exact (outsAt42_first V c ⟨n + 1, hn⟩ h0).trans (accOf42_first V c ⟨n + 1, hn⟩ h0).symm
    · refine (outsAt42_next V c ⟨n + 1, hn⟩ h0).trans (Eq.trans ?_ (accOf42_next V c ⟨n + 1, hn⟩ h0).symm)
      exact congrArg (k42_pay2 (iblk42 V c 0 ⟨n + 1, hn⟩) (iblk42 V c 1 ⟨n + 1, hn⟩)) (ih (Nat.lt_of_succ_lt hn))

/-- At every grid point the accumulator holds its row's fold after the point's step. -/
theorem outsAt42_acc (c : Dev nD) (t : Fin cfg42.N) :
    (outsAt42 V c t.val t.isLt).2 = accOf42 V c (t.val / 4) (t.val % 4) :=
  outsAt42_acc_pos V c t.val t.isLt

/-- At a row's last point the output block holds the row's whole fold. -/
theorem outsAt42_out (c : Dev nD) (t : Fin cfg42.N) (h3 : t.val % 4 = 3) :
    (outsAt42 V c t.val t.isLt).1 = accOf42 V c (t.val / 4) 3 := by
  have e := outsAt42_acc V c t
  rw [h3] at e
  exact (outsAt42_last V c t h3).trans e

end Cert.KernelIdeal.Hand

end
-- ==== Proof.ValKI42b.lean ====
/- Laid out by: python3 scratch/layout_regions.py --template-region 1 --region 42 --program KernelIdeal --prefix Val --parts a,b,c --sim main_v9=main_v7,main_v25=main_v228,main_v26=main_v229 --out-dir proof/Proof
   from the hand-written text of region 1 (ValKI1b.lean): the same text, the region's number substituted. -/
/-
  Region 42 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI42a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts42 : ∀ t : Fin cfg42.N,
    win42_0.index t (0 : Fin 2) = t.val / 4 ∧ win42_0.index t (1 : Fin 2) = t.val % 4
    ∧ win42_1.index t (0 : Fin 2) = t.val % 4 ∧ win42_1.index t (1 : Fin 2) = 0
    ∧ win42_2.index t (0 : Fin 2) = t.val / 4 ∧ win42_2.index t (1 : Fin 2) = 0 :=
  (by decide +kernel : ∀ t : Fin grid42.N,
    win42_0.index t (0 : Fin 2) = t.val / 4 ∧ win42_0.index t (1 : Fin 2) = t.val % 4
    ∧ win42_1.index t (0 : Fin 2) = t.val % 4 ∧ win42_1.index t (1 : Fin 2) = 0
    ∧ win42_2.index t (0 : Fin 2) = t.val / 4 ∧ win42_2.index t (1 : Fin 2) = 0)

/-! ## The output array as one function -/

/-- The whole output array: its row 1024 r + p, column q, is entry (p, q) of the block accumulated over k = 0 … 3 in
    block row r. -/
def whole42 (c : Dev nD) : S4096x512.Idx → Elt F .f32 := fun i =>
  accOf42 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole42_apply (c : Dev nD) (r : ℕ) (y : S1024x512.Idx) (i : S4096x512.Idx)
    (h0 : (i 0).val = 1024 * r + (y 0).val) (h1 : (i 1).val = (y 1).val) :
    whole42 V c i = accOf42 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole42
  rw [hr, e]

/-- Row 1024 r + p, column q of the array is entry (p, q) of block row r's accumulated block. -/
theorem whole42_ix2 (c : Dev nD) (r : Fin 4) (p : Fin 1024) (q : Fin 512) :
    whole42 V c (ix2 (n0 := 4096) (n1 := 512) ⟨1024 * r.val + p.val, by have := r.isLt; have := p.isLt; omega⟩ q)
      = accOf42 V c r.val 3 (ix2 p q) :=
  whole42_apply V c r.val (ix2 p q) _ rfl rfl

/-! ## What a point writes back -/

/-- A point with k = 3 writes back its block of the whole-array function. -/
theorem flushed42_eq (c : Dev nD) (t : Fin cfg42.N) (hf : (cfg42.win 2).flush t = true) :
    (dat42 V c).flushed 2 t = ((cfg42.win 2).blk t).view.read (Elt F) (whole42 V c) := by
  have h3 : t.val % 4 = 3 := (flush42_2 t).mp hf
  show (cfg42.win 2).cut (grid42.coords t) ((dat42 V c).after 2 t) = _
  rw [after42_2, outsAt42_out V c t h3]
  obtain ⟨-, -, -, -, e0, e1⟩ := idxFacts42 t
  funext j
  show accOf42 V c (t.val / 4) 3 j = whole42 V c (((cfg42.win 2).blk t).view.emb j)
  refine (whole42_apply V c (t.val / 4) j _ ?_ ?_).symm
  · show win42_2.index t (0 : Fin 2) * 1024 + 1 * (j 0).val = 1024 * (t.val / 4) + (j 0).val
    rw [e0]; omega
  · show win42_2.index t (1 : Fin 2) * 512 + 1 * (j 1).val = (j 1).val
    rw [e1]; omega

/-! ## The blocks written back cover the array -/

/-- An index is in a point's output block iff each coordinate is in the block's range on its axis. -/
theorem memBlk42 (t : Fin cfg42.N) (i : S4096x512.Idx) :
    i ∈ ((cfg42.win 2).blk t).view.set ↔ ∀ a : Fin 2, win42_2.index t a * S1024x512.size a ≤ (i a).val
      ∧ (i a).val < win42_2.index t a * S1024x512.size a + S1024x512.size a := by
  show i ∈ ((View.whole main_v229).slice (win42_2.rect t)).set ↔ _
  rw [View.set_slice_whole, Rect.mem_set_unit]
  exact Iff.rfl

/-- Row i of the array lies in the block written back at the point (i / 1024, 3). -/
theorem covered42 (i : S4096x512.Idx) :
    ∃ t : Fin cfg42.N, (cfg42.win 2).flush t = true ∧ i ∈ ((cfg42.win 2).blk t).view.set := by
  have hi0 : (i 0).val < 4096 := idx2_lt0 i
  have hi1 : (i 1).val < 512 := idx2_lt1 i
  have hN : cfg42.N = 16 := N_42
  obtain ⟨t, ht⟩ : ∃ t : Fin cfg42.N, t.val = 4 * ((i 0).val / 1024) + 3 :=
    ⟨⟨4 * ((i 0).val / 1024) + 3, by rw [hN]; omega⟩, rfl⟩
  refine ⟨t, (flush42_2 t).mpr (by omega), ?_⟩
  rw [memBlk42]
  obtain ⟨-, -, -, -, e0, e1⟩ := idxFacts42 t
  intro a
  match a with
  | ⟨0, _⟩ =>
    show win42_2.index t (0 : Fin 2) * 1024 ≤ (i 0).val ∧ (i 0).val < win42_2.index t (0 : Fin 2) * 1024 + 1024
    rw [e0]; omega
  | ⟨1, _⟩ =>
    show win42_2.index t (1 : Fin 2) * 512 ≤ (i 1).val ∧ (i 1).val < win42_2.index t (1 : Fin 2) * 512 + 512
    rw [e1]; omega

/-! ## The three arrays after the region -/

/-- The output array after the region is the whole-array function. -/
theorem final42_2 (c : Dev nD) : (dat42 V c).arrAt 2 cfg42.N = whole42 V c :=
  (dat42 V c).arrAt_eq_of_cover 2 (whole42 V c) (flushed42_eq V c) covered42

/-- The two input arrays are as the region found them. -/
theorem final42_0 (c : Dev nD) : (dat42 V c).arrAt 0 cfg42.N = V c main_v7 :=
  ((dat42 V c).arrAt_in 0 rfl cfg42.N).trans (A_eq42 V c 0)
theorem final42_1 (c : Dev nD) : (dat42 V c).arrAt 1 cfg42.N = V c main_v228 :=
  ((dat42 V c).arrAt_in 1 rfl cfg42.N).trans (A_eq42 V c 1)

/-! ## The input blocks as blocks of the operand arrays -/

/-- The left operand's block at the point (r, k): entry (y₀, y₁) is the array's entry (1024 r + y₀, 1024 k + y₁). -/
theorem iblk42_lhs_apply (c : Dev nD) (r k : Fin 4) (y : S1024x1024.Idx) (i : S4096x4096.Idx)
    (h0 : (i 0).val = 1024 * r.val + (y 0).val) (h1 : (i 1).val = 1024 * k.val + (y 1).val) :
    iblk42_lhs V c (4 * r.val + k.val) y = (V c main_v7 : S4096x4096.Idx → Elt F .bf16) i := by
  have hN : cfg42.N = 16 := N_42
  have hr := r.isLt
  have hk := k.isLt
  have hlt : 4 * r.val + k.val < cfg42.N := by rw [hN]; omega
  rw [iblk42_lhs_eq V c _ hlt]
  obtain ⟨e0, e1, -, -, -, -⟩ := idxFacts42 ⟨4 * r.val + k.val, hlt⟩
  have e0' : win42_0.index ⟨4 * r.val + k.val, hlt⟩ (0 : Fin 2) = (4 * r.val + k.val) / 4 := e0
  have e1' : win42_0.index ⟨4 * r.val + k.val, hlt⟩ (1 : Fin 2) = (4 * r.val + k.val) % 4 := e1
  unfold iblk42
  rw [View.read_apply]
  show V c main_v7 (((cfg42.win 0).blk ⟨4 * r.val + k.val, hlt⟩).view.emb y) = V c main_v7 i
  congr 1
  funext a
  apply Fin.ext
  match a with
  | ⟨0, _⟩ =>
    show win42_0.index ⟨4 * r.val + k.val, hlt⟩ (0 : Fin 2) * 1024 + 1 * (y 0).val = (i 0).val
    rw [e0', h0]; omega
  | ⟨1, _⟩ =>
    show win42_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk42_rhs_apply (c : Dev nD) (r k : Fin 4) (y : S1024x512.Idx) (i : S4096x512.Idx)
    (h0 : (i 0).val = 1024 * k.val + (y 0).val) (h1 : (i 1).val = (y 1).val) :
    iblk42_rhs V c (4 * r.val + k.val) y = (V c main_v228 : S4096x512.Idx → Elt F .f32) i := by
  have hN : cfg42.N = 16 := N_42
  have hr := r.isLt
  have hk := k.isLt
  have hlt : 4 * r.val + k.val < cfg42.N := by rw [hN]; omega
  rw [iblk42_rhs_eq V c _ hlt]
  obtain ⟨-, -, e0, e1, -, -⟩ := idxFacts42 ⟨4 * r.val + k.val, hlt⟩
  have e0' : win42_1.index ⟨4 * r.val + k.val, hlt⟩ (0 : Fin 2) = (4 * r.val + k.val) % 4 := e0
  have e1' : win42_1.index ⟨4 * r.val + k.val, hlt⟩ (1 : Fin 2) = 0 := e1
  unfold iblk42
  rw [View.read_apply]
  show V c main_v228 (((cfg42.win 1).blk ⟨4 * r.val + k.val, hlt⟩).view.emb y) = V c main_v228 i
  congr 1
  funext a
  apply Fin.ext
  match a with
  | ⟨0, _⟩ =>
    show win42_1.index ⟨4 * r.val + k.val, hlt⟩ (0 : Fin 2) * 1024 + 1 * (y 0).val = (i 0).val
    rw [e0', h0]; omega
  | ⟨1, _⟩ =>
    show win42_1.index ⟨4 * r.val + k.val, hlt⟩ (1 : Fin 2) * 512 + 1 * (y 1).val = (i 1).val
    rw [e1', h1]; omega

/-- The accumulated block after the fourth step, unfolded: four steps from the zero block. -/
theorem accOf42_three (c : Dev nD) (r : ℕ) :
    accOf42 V c r 3
      = k42_pay2 (iblk42_lhs V c (4 * r + 3)) (iblk42_rhs V c (4 * r + 3))
          (k42_pay2 (iblk42_lhs V c (4 * r + 2)) (iblk42_rhs V c (4 * r + 2))
            (k42_pay2 (iblk42_lhs V c (4 * r + 1)) (iblk42_rhs V c (4 * r + 1))
              (k42_pay2 (iblk42_lhs V c (4 * r)) (iblk42_rhs V c (4 * r)) (k42_pay1 (F := F))))) := rfl

end Cert.KernelIdeal.Hand

end
-- ==== Proof.ValKI42c.lean ====
/- Laid out by: python3 scratch/layout_regions.py --template-region 1 --region 42 --program KernelIdeal --prefix Val --parts a,b,c --sim main_v9=main_v7,main_v25=main_v228,main_v26=main_v229 --out-dir proof/Proof
   from the hand-written text of region 1 (ValKI1c.lean): the same text, the region's number substituted. -/
/-
  Region 42 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI42b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf42_step (x0 : Vec Ideal S1024x1024 .bf16) (x1 acc : Vec Ideal S1024x512 .f32) :
    k42_pay2 (F := Ideal) x0 x1 acc
      = Cert.MMLaw.accStep dot_S1024x1024_S1024x512_S1024x512_1_0_0_1_n_n none x0 x1 acc := by
  unfold k42_pay2
  simp only [shapeCast_self]
  rfl

/-- The accumulator starts from the zero block. -/
theorem accOf42_init (j : S1024x512.Idx) : k42_pay1 (F := Ideal) j = 0 := by
  unfold k42_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf42_eq_blk (c : Dev nD) (r : Fin 4) (D : DotDims S4096x4096 S4096x512 S4096x512) (hD : Cert.MMLaw.IsPlain D)
    (prec : Option ContractPrecision) :
    accOf42 V c r.val 3
      = Cert.MMLaw.blk (nr := 4) (nc := 1) 1024 512 rfl rfl (Cert.MMLaw.whole D prec (V c main_v7) (V c main_v228)) r 0 := by
  rw [accOf42_three]
  simp only [accOf42_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v7) (V c main_v228) r 0
    (fun k => iblk42_lhs V c (4 * r.val + k.val)) (fun k => iblk42_rhs V c (4 * r.val + k.val))
    (fun k => funext fun y => iblk42_lhs_apply V c r k y _ rfl rfl)
    (fun k => funext fun y => iblk42_rhs_apply V c r k y _ rfl (by show 512 * 0 + (y 1).val = (y 1).val; omega))
    (k42_pay1 (F := Ideal)) accOf42_init

/-! ## The output array after the region is the whole product -/

/-- The region leaves in its output array the product of its two operand arrays. -/
theorem final42_2_eq_whole (c : Dev nD) (D : DotDims S4096x4096 S4096x512 S4096x512) (hD : Cert.MMLaw.IsPlain D)
    (prec : Option ContractPrecision) :
    (dat42 (F := Ideal) V c).arrAt 2 cfg42.N = Cert.MMLaw.whole D prec (V c main_v7) (V c main_v228) := by
  rw [final42_2]
  funext i
  have hi0 : (i 0).val < 4096 := idx2_lt0 i
  have h := congrFun (accOf42_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final42_2_eq_dot (c : Dev nD) (D : DotDims S4096x4096 S4096x512 S4096x512) (hD : Cert.MMLaw.IsPlain D)
    (prec : Option ContractPrecision) :
    (dat42 (F := Ideal) V c).arrAt 2 cfg42.N = Host.dotGeneral (F := Ideal) (φ₁ := .bf16) (φ₂ := .f32) D prec (V c main_v7) (V c main_v228) :=
  final42_2_eq_whole V c D hD prec

end Cert.KernelIdeal.Hand

end
-- ==== Proof.ValKI43a.lean ====
/- Laid out by: python3 scratch/layout_regions.py --template-region 1 --region 43 --program KernelIdeal --prefix Val --parts a,b,c --sim main_v9=main_v9,main_v25=main_v247,main_v26=main_v248 --out-dir proof/Proof
   from the hand-written text of region 1 (ValKI1a.lean): the same text, the region's number substituted. -/
/-
  Region 43 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k43_pay1` (the zero block) and `k43_pay2` (accumulator plus product) are the two stores' payloads.

  So along one row of blocks r the accumulator after its step k is the left fold
    accOf43 r 0 = pay2 (a (r, 0)) (b 0) pay1,    accOf43 r (k + 1) = pay2 (a (r, k + 1)) (b (k + 1)) (accOf43 r k),
  the grid point (r, k) being position 4 r + k; and at k = 3 the output block holds accOf43 r 3.
-/
import proofs.«158944_j64613488001249_1_alg».proof.Proof.RegKI43
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout43_A_eq (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond43_0 i) (hc1 : ¬cond43_1 i)
    (x0 : Vec F S1024x1024 .bf16) (x1 : Vec F S1024x512 .f32) :
    sout43_A c i arg2 harg2 arg3 harg3 arg4 harg4 arg5 harg5 hc0 hc1 x0 x1 = k43_pay2 x0 x1 (k43_pay1 (F := F)) := by
  have hz : (![0, 0] : Fin 2 → Nat) = fun _ => 0 := funext fun a => by fin_cases a <;> rfl
  unfold sout43_A
  rw [View.read_writes_eq_canon _ _ _ (scover43_A c i arg2 harg2 arg3 harg3 arg4 harg4 arg5 harg5 hc0 hc1 x0 x1)]
  unfold kernelRun43_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout43_B_eq (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond43_0 i) (hc1 : ¬cond43_1 i)
    (x0 : Vec F S1024x1024 .bf16) (x1 : Vec F S1024x512 .f32) (xs0 : Vec F S1024x512 .f32) :
    sout43_B c i arg2 harg2 arg3 harg3 arg4 harg4 arg5 harg5 hc0 hc1 x0 x1 xs0 = k43_pay2 x0 x1 xs0 := by
  have hz : (![0, 0] : Fin 2 → Nat) = fun _ => 0 := funext fun a => by fin_cases a <;> rfl
  unfold sout43_B
  rw [View.read_writes_eq_canon _ _ _ (scover43_B c i arg2 harg2 arg3 harg3 arg4 harg4 arg5 harg5 hc0 hc1 x0 x1 xs0)]
  unfold kernelRun43_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout43_C_eq (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond43_0 i) (hc1 : cond43_1 i)
    (x0 : Vec F S1024x1024 .bf16) (x1 : Vec F S1024x512 .f32) (xs0 : Vec F S1024x512 .f32) :
    sout43_C c i arg2 harg2 arg3 harg3 arg4 harg4 arg5 harg5 hc0 hc1 x0 x1 xs0 = k43_pay2 x0 x1 xs0 := by
  have hz : (![0, 0] : Fin 2 → Nat) = fun _ => 0 := funext fun a => by fin_cases a <;> rfl
  unfold sout43_C
  rw [View.read_writes_eq_canon _ _ _ (scover43_C c i arg2 harg2 arg3 harg3 arg4 harg4 arg5 harg5 hc0 hc1 x0 x1 xs0)]
  unfold kernelRun43_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out43_C_eq (c : Dev nD) (i : grid43.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond43_0 i) (hc1 : cond43_1 i)
    (x0 : Vec F S1024x1024 .bf16) (x1 : Vec F S1024x512 .f32) (xs0 : Vec F S1024x512 .f32) :
    out43_C c i arg2 harg2 arg3 harg3 arg4 harg4 arg5 harg5 hc0 hc1 x0 x1 xs0 = k43_pay2 x0 x1 xs0 := by
  have hz : (![0, 0] : Fin 2 → Nat) = fun _ => 0 := funext fun a => by fin_cases a <;> rfl
  unfold out43_C
  rw [View.read_writes_eq_canon _ _ _ (cover43_C c i arg2 harg2 arg3 harg3 arg4 harg4 arg5 harg5 hc0 hc1 x0 x1 xs0)]
  unfold kernelRun43_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk43_lhs (c : Dev nD) (n : ℕ) : Vec F S1024x1024 .bf16 :=
  if h : n < cfg43.N then iblk43 V c 0 ⟨n, h⟩ else iblk43 V c 0 ⟨0, by have h : cfg43.N = 16 := N_43; omega⟩
/-- The right factor's block at grid position `n`. -/
def iblk43_rhs (c : Dev nD) (n : ℕ) : Vec F S1024x512 .f32 :=
  if h : n < cfg43.N then iblk43 V c 1 ⟨n, h⟩ else iblk43 V c 1 ⟨0, by have h : cfg43.N = 16 := N_43; omega⟩

theorem iblk43_lhs_eq (c : Dev nD) (n : ℕ) (h : n < cfg43.N) : iblk43_lhs V c n = iblk43 V c 0 ⟨n, h⟩ := dif_pos h
theorem iblk43_rhs_eq (c : Dev nD) (n : ℕ) (h : n < cfg43.N) : iblk43_rhs V c n = iblk43 V c 1 ⟨n, h⟩ := dif_pos h

/-! ## The accumulator along one row of blocks -/

/-- Row of blocks `r`, after its step `k`: the zero block plus the products of the blocks at positions 4 r, …, 4 r + k,
    added in that order. -/
def accOf43 (c : Dev nD) (r : ℕ) : ℕ → Vec F S1024x512 .f32
  | 0 => k43_pay2 (iblk43_lhs V c (4 * r)) (iblk43_rhs V c (4 * r)) (k43_pay1 (F := F))
  | k + 1 => k43_pay2 (iblk43_lhs V c (4 * r + (k + 1))) (iblk43_rhs V c (4 * r + (k + 1))) (accOf43 c r k)

theorem accOf43_zero (c : Dev nD) (r : ℕ) :
    accOf43 V c r 0 = k43_pay2 (iblk43_lhs V c (4 * r)) (iblk43_rhs V c (4 * r)) (k43_pay1 (F := F)) := rfl
theorem accOf43_succ (c : Dev nD) (r k : ℕ) :
    accOf43 V c r (k + 1) = k43_pay2 (iblk43_lhs V c (4 * r + (k + 1))) (iblk43_rhs V c (4 * r + (k + 1))) (accOf43 V c r k) := rfl

theorem iblk43_lhs_at (c : Dev nD) (t : Fin cfg43.N) (n : ℕ) (hn : n = t.val) : iblk43_lhs V c n = iblk43 V c 0 t := by
  subst hn; unfold iblk43_lhs; exact dif_pos t.isLt
theorem iblk43_rhs_at (c : Dev nD) (t : Fin cfg43.N) (n : ℕ) (hn : n = t.val) : iblk43_rhs V c n = iblk43 V c 1 t := by
  subst hn; unfold iblk43_rhs; exact dif_pos t.isLt

/-- At a grid point with k = 0 the fold starts: the zero block plus the product of the point's two blocks. -/
theorem accOf43_first (c : Dev nD) (t : Fin cfg43.N) (h0 : t.val % 4 = 0) :
    accOf43 V c (t.val / 4) (t.val % 4) = k43_pay2 (iblk43 V c 0 t) (iblk43 V c 1 t) (k43_pay1 (F := F)) := by
  rw [h0, accOf43_zero, iblk43_lhs_at V c t (4 * (t.val / 4)) (by omega), iblk43_rhs_at V c t (4 * (t.val / 4)) (by omega)]

/-- At a grid point with k ≠ 0 the fold takes one step from the position before, which is in the same row of blocks. -/
theorem accOf43_next (c : Dev nD) (t : Fin cfg43.N) (h0 : ¬t.val % 4 = 0) :
    accOf43 V c (t.val / 4) (t.val % 4)
      = k43_pay2 (iblk43 V c 0 t) (iblk43 V c 1 t) (accOf43 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf43_succ, iblk43_lhs_at V c t (4 * (t.val / 4) + (k + 1)) (by omega),
    iblk43_rhs_at V c t (4 * (t.val / 4) + (k + 1)) (by omega)]

/-! ## The accumulator and the output block, point by point, as pure functions of the blocks -/

/-- k = 0: the accumulator restarts from the zero block. -/
theorem outsAt43_first (c : Dev nD) (t : Fin cfg43.N) (h0 : t.val % 4 = 0) :
    (outsAt43 V c t.val t.isLt).2 = k43_pay2 (iblk43 V c 0 t) (iblk43 V c 1 t) (k43_pay1 (F := F)) := by
  rw [outsAt43_A V c t h0]
  dsimp only
  exact sout43_A_eq c (grid43.coords t) (ms43_0 t) (hs43_0 t) (ms43_1 t) (hs43_1 t) (ms43_2 t) (hs43_2 t) scM43 (Memref.isWhole_whole _) (isFirst43 t h0) (notLast43 t (by omega)) (iblk43 V c 0 t) (iblk43 V c 1 t)

/-- k ≠ 0: the point's product is added to what the point before left. -/
theorem outsAt43_next (c : Dev nD) (t : Fin cfg43.N) (h0 : ¬t.val % 4 = 0) :
    (outsAt43 V c t.val t.isLt).2
      = k43_pay2 (iblk43 V c 0 t) (iblk43 V c 1 t) (outsAt43 V c (t.val - 1) (Nat.lt_of_le_of_lt (Nat.sub_le _ _) t.isLt)).2 := by
  by_cases h3 : t.val % 4 = 3
  · rw [outsAt43_C V c t h0 h3]
    dsimp only
    exact sout43_C_eq c (grid43.coords t) (ms43_0 t) (hs43_0 t) (ms43_1 t) (hs43_1 t) (ms43_2 t) (hs43_2 t) scM43 (Memref.isWhole_whole _) (notFirst43 t h0) (isLast43 t h3) (iblk43 V c 0 t) (iblk43 V c 1 t)
      (outsAt43 V c (t.val - 1) (Nat.lt_of_le_of_lt (Nat.sub_le _ _) t.isLt)).2
  · rw [outsAt43_B V c t h0 h3]
    dsimp only
    exact sout43_B_eq c (grid43.coords t) (ms43_0 t) (hs43_0 t) (ms43_1 t) (hs43_1 t) (ms43_2 t) (hs43_2 t) scM43 (Memref.isWhole_whole _) (notFirst43 t h0) (notLast43 t h3) (iblk43 V c 0 t) (iblk43 V c 1 t)
      (outsAt43 V c (t.val - 1) (Nat.lt_of_le_of_lt (Nat.sub_le _ _) t.isLt)).2

/-- k = 3: the output block is the accumulator. -/
theorem outsAt43_last (c : Dev nD) (t : Fin cfg43.N) (h3 : t.val % 4 = 3) :
    (outsAt43 V c t.val t.isLt).1 = (outsAt43 V c t.val t.isLt).2 := by
  have h0 : ¬t.val % 4 = 0 := by omega
  rw [outsAt43_C V c t h0 h3]
  dsimp only
  exact (out43_C_eq c (grid43.coords t) (ms43_0 t) (hs43_0 t) (ms43_1 t) (hs43_1 t) (ms43_2 t) (hs43_2 t) scM43 (Memref.isWhole_whole _) (notFirst43 t h0) (isLast43 t h3) (iblk43 V c 0 t) (iblk43 V c 1 t)
      (outsAt43 V c (t.val - 1) (Nat.lt_of_le_of_lt (Nat.sub_le _ _) t.isLt)).2).trans
    (sout43_C_eq c (grid43.coords t) (ms43_0 t) (hs43_0 t) (ms43_1 t) (hs43_1 t) (ms43_2 t) (hs43_2 t) scM43 (Memref.isWhole_whole _) (notFirst43 t h0) (isLast43 t h3) (iblk43 V c 0 t) (iblk43 V c 1 t)
      (outsAt43 V c (t.val - 1) (Nat.lt_of_le_of_lt (Nat.sub_le _ _) t.isLt)).2).symm

/-! ## The accumulator is the fold -/

/-- After position `n` the accumulator holds row `n / 4`'s fold after its step `n % 4`: by induction on the position. -/
theorem outsAt43_acc_pos (c : Dev nD) :
    ∀ (n : ℕ) (hn : n < cfg43.N), (outsAt43 V c n hn).2 = accOf43 V c (n / 4) (n % 4) := by
  intro n
  induction n with
  | zero =>
    intro hn
    exact (outsAt43_first V c ⟨0, hn⟩ (Nat.zero_mod 4)).trans (accOf43_first V c ⟨0, hn⟩ (Nat.zero_mod 4)).symm
  | succ n ih =>
    intro hn
    by_cases h0 : (n + 1) % 4 = 0
    · exact (outsAt43_first V c ⟨n + 1, hn⟩ h0).trans (accOf43_first V c ⟨n + 1, hn⟩ h0).symm
    · refine (outsAt43_next V c ⟨n + 1, hn⟩ h0).trans (Eq.trans ?_ (accOf43_next V c ⟨n + 1, hn⟩ h0).symm)
      exact congrArg (k43_pay2 (iblk43 V c 0 ⟨n + 1, hn⟩) (iblk43 V c 1 ⟨n + 1, hn⟩)) (ih (Nat.lt_of_succ_lt hn))

/-- At every grid point the accumulator holds its row's fold after the point's step. -/
theorem outsAt43_acc (c : Dev nD) (t : Fin cfg43.N) :
    (outsAt43 V c t.val t.isLt).2 = accOf43 V c (t.val / 4) (t.val % 4) :=
  outsAt43_acc_pos V c t.val t.isLt

/-- At a row's last point the output block holds the row's whole fold. -/
theorem outsAt43_out (c : Dev nD) (t : Fin cfg43.N) (h3 : t.val % 4 = 3) :
    (outsAt43 V c t.val t.isLt).1 = accOf43 V c (t.val / 4) 3 := by
  have e := outsAt43_acc V c t
  rw [h3] at e
  exact (outsAt43_last V c t h3).trans e

end Cert.KernelIdeal.Hand

end
-- ==== Proof.ValKI43b.lean ====
/- Laid out by: python3 scratch/layout_regions.py --template-region 1 --region 43 --program KernelIdeal --prefix Val --parts a,b,c --sim main_v9=main_v9,main_v25=main_v247,main_v26=main_v248 --out-dir proof/Proof
   from the hand-written text of region 1 (ValKI1b.lean): the same text, the region's number substituted. -/
/-
  Region 43 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI43a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts43 : ∀ t : Fin cfg43.N,
    win43_0.index t (0 : Fin 2) = t.val / 4 ∧ win43_0.index t (1 : Fin 2) = t.val % 4
    ∧ win43_1.index t (0 : Fin 2) = t.val % 4 ∧ win43_1.index t (1 : Fin 2) = 0
    ∧ win43_2.index t (0 : Fin 2) = t.val / 4 ∧ win43_2.index t (1 : Fin 2) = 0 :=
  (by decide +kernel : ∀ t : Fin grid43.N,
    win43_0.index t (0 : Fin 2) = t.val / 4 ∧ win43_0.index t (1 : Fin 2) = t.val % 4
    ∧ win43_1.index t (0 : Fin 2) = t.val % 4 ∧ win43_1.index t (1 : Fin 2) = 0
    ∧ win43_2.index t (0 : Fin 2) = t.val / 4 ∧ win43_2.index t (1 : Fin 2) = 0)

/-! ## The output array as one function -/

/-- The whole output array: its row 1024 r + p, column q, is entry (p, q) of the block accumulated over k = 0 … 3 in
    block row r. -/
def whole43 (c : Dev nD) : S4096x512.Idx → Elt F .f32 := fun i =>
  accOf43 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole43_apply (c : Dev nD) (r : ℕ) (y : S1024x512.Idx) (i : S4096x512.Idx)
    (h0 : (i 0).val = 1024 * r + (y 0).val) (h1 : (i 1).val = (y 1).val) :
    whole43 V c i = accOf43 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole43
  rw [hr, e]

/-- Row 1024 r + p, column q of the array is entry (p, q) of block row r's accumulated block. -/
theorem whole43_ix2 (c : Dev nD) (r : Fin 4) (p : Fin 1024) (q : Fin 512) :
    whole43 V c (ix2 (n0 := 4096) (n1 := 512) ⟨1024 * r.val + p.val, by have := r.isLt; have := p.isLt; omega⟩ q)
      = accOf43 V c r.val 3 (ix2 p q) :=
  whole43_apply V c r.val (ix2 p q) _ rfl rfl

/-! ## What a point writes back -/

/-- A point with k = 3 writes back its block of the whole-array function. -/
theorem flushed43_eq (c : Dev nD) (t : Fin cfg43.N) (hf : (cfg43.win 2).flush t = true) :
    (dat43 V c).flushed 2 t = ((cfg43.win 2).blk t).view.read (Elt F) (whole43 V c) := by
  have h3 : t.val % 4 = 3 := (flush43_2 t).mp hf
  show (cfg43.win 2).cut (grid43.coords t) ((dat43 V c).after 2 t) = _
  rw [after43_2, outsAt43_out V c t h3]
  obtain ⟨-, -, -, -, e0, e1⟩ := idxFacts43 t
  funext j
  show accOf43 V c (t.val / 4) 3 j = whole43 V c (((cfg43.win 2).blk t).view.emb j)
  refine (whole43_apply V c (t.val / 4) j _ ?_ ?_).symm
  · show win43_2.index t (0 : Fin 2) * 1024 + 1 * (j 0).val = 1024 * (t.val / 4) + (j 0).val
    rw [e0]; omega
  · show win43_2.index t (1 : Fin 2) * 512 + 1 * (j 1).val = (j 1).val
    rw [e1]; omega

/-! ## The blocks written back cover the array -/

/-- An index is in a point's output block iff each coordinate is in the block's range on its axis. -/
theorem memBlk43 (t : Fin cfg43.N) (i : S4096x512.Idx) :
    i ∈ ((cfg43.win 2).blk t).view.set ↔ ∀ a : Fin 2, win43_2.index t a * S1024x512.size a ≤ (i a).val
      ∧ (i a).val < win43_2.index t a * S1024x512.size a + S1024x512.size a := by
  show i ∈ ((View.whole main_v248).slice (win43_2.rect t)).set ↔ _
  rw [View.set_slice_whole, Rect.mem_set_unit]
  exact Iff.rfl

/-- Row i of the array lies in the block written back at the point (i / 1024, 3). -/
theorem covered43 (i : S4096x512.Idx) :
    ∃ t : Fin cfg43.N, (cfg43.win 2).flush t = true ∧ i ∈ ((cfg43.win 2).blk t).view.set := by
  have hi0 : (i 0).val < 4096 := idx2_lt0 i
  have hi1 : (i 1).val < 512 := idx2_lt1 i
  have hN : cfg43.N = 16 := N_43
  obtain ⟨t, ht⟩ : ∃ t : Fin cfg43.N, t.val = 4 * ((i 0).val / 1024) + 3 :=
    ⟨⟨4 * ((i 0).val / 1024) + 3, by rw [hN]; omega⟩, rfl⟩
  refine ⟨t, (flush43_2 t).mpr (by omega), ?_⟩
  rw [memBlk43]
  obtain ⟨-, -, -, -, e0, e1⟩ := idxFacts43 t
  intro a
  match a with
  | ⟨0, _⟩ =>
    show win43_2.index t (0 : Fin 2) * 1024 ≤ (i 0).val ∧ (i 0).val < win43_2.index t (0 : Fin 2) * 1024 + 1024
    rw [e0]; omega
  | ⟨1, _⟩ =>
    show win43_2.index t (1 : Fin 2) * 512 ≤ (i 1).val ∧ (i 1).val < win43_2.index t (1 : Fin 2) * 512 + 512
    rw [e1]; omega

/-! ## The three arrays after the region -/

/-- The output array after the region is the whole-array function. -/
theorem final43_2 (c : Dev nD) : (dat43 V c).arrAt 2 cfg43.N = whole43 V c :=
  (dat43 V c).arrAt_eq_of_cover 2 (whole43 V c) (flushed43_eq V c) covered43

/-- The two input arrays are as the region found them. -/
theorem final43_0 (c : Dev nD) : (dat43 V c).arrAt 0 cfg43.N = V c main_v9 :=
  ((dat43 V c).arrAt_in 0 rfl cfg43.N).trans (A_eq43 V c 0)
theorem final43_1 (c : Dev nD) : (dat43 V c).arrAt 1 cfg43.N = V c main_v247 :=
  ((dat43 V c).arrAt_in 1 rfl cfg43.N).trans (A_eq43 V c 1)

/-! ## The input blocks as blocks of the operand arrays -/

/-- The left operand's block at the point (r, k): entry (y₀, y₁) is the array's entry (1024 r + y₀, 1024 k + y₁). -/
theorem iblk43_lhs_apply (c : Dev nD) (r k : Fin 4) (y : S1024x1024.Idx) (i : S4096x4096.Idx)
    (h0 : (i 0).val = 1024 * r.val + (y 0).val) (h1 : (i 1).val = 1024 * k.val + (y 1).val) :
    iblk43_lhs V c (4 * r.val + k.val) y = (V c main_v9 : S4096x4096.Idx → Elt F .bf16) i := by
  have hN : cfg43.N = 16 := N_43
  have hr := r.isLt
  have hk := k.isLt
  have hlt : 4 * r.val + k.val < cfg43.N := by rw [hN]; omega
  rw [iblk43_lhs_eq V c _ hlt]
  obtain ⟨e0, e1, -, -, -, -⟩ := idxFacts43 ⟨4 * r.val + k.val, hlt⟩
  have e0' : win43_0.index ⟨4 * r.val + k.val, hlt⟩ (0 : Fin 2) = (4 * r.val + k.val) / 4 := e0
  have e1' : win43_0.index ⟨4 * r.val + k.val, hlt⟩ (1 : Fin 2) = (4 * r.val + k.val) % 4 := e1
  unfold iblk43
  rw [View.read_apply]
  show V c main_v9 (((cfg43.win 0).blk ⟨4 * r.val + k.val, hlt⟩).view.emb y) = V c main_v9 i
  congr 1
  funext a
  apply Fin.ext
  match a with
  | ⟨0, _⟩ =>
    show win43_0.index ⟨4 * r.val + k.val, hlt⟩ (0 : Fin 2) * 1024 + 1 * (y 0).val = (i 0).val
    rw [e0', h0]; omega
  | ⟨1, _⟩ =>
    show win43_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk43_rhs_apply (c : Dev nD) (r k : Fin 4) (y : S1024x512.Idx) (i : S4096x512.Idx)
    (h0 : (i 0).val = 1024 * k.val + (y 0).val) (h1 : (i 1).val = (y 1).val) :
    iblk43_rhs V c (4 * r.val + k.val) y = (V c main_v247 : S4096x512.Idx → Elt F .f32) i := by
  have hN : cfg43.N = 16 := N_43
  have hr := r.isLt
  have hk := k.isLt
  have hlt : 4 * r.val + k.val < cfg43.N := by rw [hN]; omega
  rw [iblk43_rhs_eq V c _ hlt]
  obtain ⟨-, -, e0, e1, -, -⟩ := idxFacts43 ⟨4 * r.val + k.val, hlt⟩
  have e0' : win43_1.index ⟨4 * r.val + k.val, hlt⟩ (0 : Fin 2) = (4 * r.val + k.val) % 4 := e0
  have e1' : win43_1.index ⟨4 * r.val + k.val, hlt⟩ (1 : Fin 2) = 0 := e1
  unfold iblk43
  rw [View.read_apply]
  show V c main_v247 (((cfg43.win 1).blk ⟨4 * r.val + k.val, hlt⟩).view.emb y) = V c main_v247 i
  congr 1
  funext a
  apply Fin.ext
  match a with
  | ⟨0, _⟩ =>
    show win43_1.index ⟨4 * r.val + k.val, hlt⟩ (0 : Fin 2) * 1024 + 1 * (y 0).val = (i 0).val
    rw [e0', h0]; omega
  | ⟨1, _⟩ =>
    show win43_1.index ⟨4 * r.val + k.val, hlt⟩ (1 : Fin 2) * 512 + 1 * (y 1).val = (i 1).val
    rw [e1', h1]; omega

/-- The accumulated block after the fourth step, unfolded: four steps from the zero block. -/
theorem accOf43_three (c : Dev nD) (r : ℕ) :
    accOf43 V c r 3
      = k43_pay2 (iblk43_lhs V c (4 * r + 3)) (iblk43_rhs V c (4 * r + 3))
          (k43_pay2 (iblk43_lhs V c (4 * r + 2)) (iblk43_rhs V c (4 * r + 2))
            (k43_pay2 (iblk43_lhs V c (4 * r + 1)) (iblk43_rhs V c (4 * r + 1))
              (k43_pay2 (iblk43_lhs V c (4 * r)) (iblk43_rhs V c (4 * r)) (k43_pay1 (F := F))))) := rfl

end Cert.KernelIdeal.Hand

end
-- ==== Proof.ValKI43c.lean ====
/- Laid out by: python3 scratch/layout_regions.py --template-region 1 --region 43 --program KernelIdeal --prefix Val --parts a,b,c --sim main_v9=main_v9,main_v25=main_v247,main_v26=main_v248 --out-dir proof/Proof
   from the hand-written text of region 1 (ValKI1c.lean): the same text, the region's number substituted. -/
/-
  Region 43 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI43b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf43_step (x0 : Vec Ideal S1024x1024 .bf16) (x1 acc : Vec Ideal S1024x512 .f32) :
    k43_pay2 (F := Ideal) x0 x1 acc
      = Cert.MMLaw.accStep dot_S1024x1024_S1024x512_S1024x512_1_0_0_1_n_n none x0 x1 acc := by
  unfold k43_pay2
  simp only [shapeCast_self]
  rfl

/-- The accumulator starts from the zero block. -/
theorem accOf43_init (j : S1024x512.Idx) : k43_pay1 (F := Ideal) j = 0 := by
  unfold k43_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf43_eq_blk (c : Dev nD) (r : Fin 4) (D : DotDims S4096x4096 S4096x512 S4096x512) (hD : Cert.MMLaw.IsPlain D)
    (prec : Option ContractPrecision) :
    accOf43 V c r.val 3
      = Cert.MMLaw.blk (nr := 4) (nc := 1) 1024 512 rfl rfl (Cert.MMLaw.whole D prec (V c main_v9) (V c main_v247)) r 0 := by
  rw [accOf43_three]
  simp only [accOf43_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v9) (V c main_v247) r 0
    (fun k => iblk43_lhs V c (4 * r.val + k.val)) (fun k => iblk43_rhs V c (4 * r.val + k.val))
    (fun k => funext fun y => iblk43_lhs_apply V c r k y _ rfl rfl)
    (fun k => funext fun y => iblk43_rhs_apply V c r k y _ rfl (by show 512 * 0 + (y 1).val = (y 1).val; omega))
    (k43_pay1 (F := Ideal)) accOf43_init

/-! ## The output array after the region is the whole product -/

/-- The region leaves in its output array the product of its two operand arrays. -/
theorem final43_2_eq_whole (c : Dev nD) (D : DotDims S4096x4096 S4096x512 S4096x512) (hD : Cert.MMLaw.IsPlain D)
    (prec : Option ContractPrecision) :
    (dat43 (F := Ideal) V c).arrAt 2 cfg43.N = Cert.MMLaw.whole D prec (V c main_v9) (V c main_v247) := by
  rw [final43_2]
  funext i
  have hi0 : (i 0).val < 4096 := idx2_lt0 i
  have h := congrFun (accOf43_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final43_2_eq_dot (c : Dev nD) (D : DotDims S4096x4096 S4096x512 S4096x512) (hD : Cert.MMLaw.IsPlain D)
    (prec : Option ContractPrecision) :
    (dat43 (F := Ideal) V c).arrAt 2 cfg43.N = Host.dotGeneral (F := Ideal) (φ₁ := .bf16) (φ₂ := .f32) D prec (V c main_v9) (V c main_v247) :=
  final43_2_eq_whole V c D hD prec

end Cert.KernelIdeal.Hand

end
-- ==== Proof.ValKI44a.lean ====
/- Laid out by: python3 scratch/layout_regions.py --template-region 1 --region 44 --program KernelIdeal --prefix Val --parts a,b,c --sim main_v9=main_v8,main_v25=main_v242,main_v26=main_v252 --out-dir proof/Proof
   from the hand-written text of region 1 (ValKI1a.lean): the same text, the region's number substituted. -/
/-
  Region 44 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k44_pay1` (the zero block) and `k44_pay2` (accumulator plus product) are the two stores' payloads.

  So along one row of blocks r the accumulator after its step k is the left fold
    accOf44 r 0 = pay2 (a (r, 0)) (b 0) pay1,    accOf44 r (k + 1) = pay2 (a (r, k + 1)) (b (k + 1)) (accOf44 r k),
  the grid point (r, k) being position 4 r + k; and at k = 3 the output block holds accOf44 r 3.
-/
import proofs.«158944_j64613488001249_1_alg».proof.Proof.RegKI44
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout44_A_eq (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond44_0 i) (hc1 : ¬cond44_1 i)
    (x0 : Vec F S1024x1024 .bf16) (x1 : Vec F S1024x512 .f32) :
    sout44_A c i arg2 harg2 arg3 harg3 arg4 harg4 arg5 harg5 hc0 hc1 x0 x1 = k44_pay2 x0 x1 (k44_pay1 (F := F)) := by
  have hz : (![0, 0] : Fin 2 → Nat) = fun _ => 0 := funext fun a => by fin_cases a <;> rfl
  unfold sout44_A
  rw [View.read_writes_eq_canon _ _ _ (scover44_A c i arg2 harg2 arg3 harg3 arg4 harg4 arg5 harg5 hc0 hc1 x0 x1)]
  unfold kernelRun44_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout44_B_eq (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond44_0 i) (hc1 : ¬cond44_1 i)
    (x0 : Vec F S1024x1024 .bf16) (x1 : Vec F S1024x512 .f32) (xs0 : Vec F S1024x512 .f32) :
    sout44_B c i arg2 harg2 arg3 harg3 arg4 harg4 arg5 harg5 hc0 hc1 x0 x1 xs0 = k44_pay2 x0 x1 xs0 := by
  have hz : (![0, 0] : Fin 2 → Nat) = fun _ => 0 := funext fun a => by fin_cases a <;> rfl
  unfold sout44_B
  rw [View.read_writes_eq_canon _ _ _ (scover44_B c i arg2 harg2 arg3 harg3 arg4 harg4 arg5 harg5 hc0 hc1 x0 x1 xs0)]
  unfold kernelRun44_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout44_C_eq (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond44_0 i) (hc1 : cond44_1 i)
    (x0 : Vec F S1024x1024 .bf16) (x1 : Vec F S1024x512 .f32) (xs0 : Vec F S1024x512 .f32) :
    sout44_C c i arg2 harg2 arg3 harg3 arg4 harg4 arg5 harg5 hc0 hc1 x0 x1 xs0 = k44_pay2 x0 x1 xs0 := by
  have hz : (![0, 0] : Fin 2 → Nat) = fun _ => 0 := funext fun a => by fin_cases a <;> rfl
  unfold sout44_C
  rw [View.read_writes_eq_canon _ _ _ (scover44_C c i arg2 harg2 arg3 harg3 arg4 harg4 arg5 harg5 hc0 hc1 x0 x1 xs0)]
  unfold kernelRun44_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out44_C_eq (c : Dev nD) (i : grid44.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond44_0 i) (hc1 : cond44_1 i)
    (x0 : Vec F S1024x1024 .bf16) (x1 : Vec F S1024x512 .f32) (xs0 : Vec F S1024x512 .f32) :
    out44_C c i arg2 harg2 arg3 harg3 arg4 harg4 arg5 harg5 hc0 hc1 x0 x1 xs0 = k44_pay2 x0 x1 xs0 := by
  have hz : (![0, 0] : Fin 2 → Nat) = fun _ => 0 := funext fun a => by fin_cases a <;> rfl
  unfold out44_C
  rw [View.read_writes_eq_canon _ _ _ (cover44_C c i arg2 harg2 arg3 harg3 arg4 harg4 arg5 harg5 hc0 hc1 x0 x1 xs0)]
  unfold kernelRun44_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk44_lhs (c : Dev nD) (n : ℕ) : Vec F S1024x1024 .bf16 :=
  if h : n < cfg44.N then iblk44 V c 0 ⟨n, h⟩ else iblk44 V c 0 ⟨0, by have h : cfg44.N = 16 := N_44; omega⟩
/-- The right factor's block at grid position `n`. -/
def iblk44_rhs (c : Dev nD) (n : ℕ) : Vec F S1024x512 .f32 :=
  if h : n < cfg44.N then iblk44 V c 1 ⟨n, h⟩ else iblk44 V c 1 ⟨0, by have h : cfg44.N = 16 := N_44; omega⟩

theorem iblk44_lhs_eq (c : Dev nD) (n : ℕ) (h : n < cfg44.N) : iblk44_lhs V c n = iblk44 V c 0 ⟨n, h⟩ := dif_pos h
theorem iblk44_rhs_eq (c : Dev nD) (n : ℕ) (h : n < cfg44.N) : iblk44_rhs V c n = iblk44 V c 1 ⟨n, h⟩ := dif_pos h

/-! ## The accumulator along one row of blocks -/

/-- Row of blocks `r`, after its step `k`: the zero block plus the products of the blocks at positions 4 r, …, 4 r + k,
    added in that order. -/
def accOf44 (c : Dev nD) (r : ℕ) : ℕ → Vec F S1024x512 .f32
  | 0 => k44_pay2 (iblk44_lhs V c (4 * r)) (iblk44_rhs V c (4 * r)) (k44_pay1 (F := F))
  | k + 1 => k44_pay2 (iblk44_lhs V c (4 * r + (k + 1))) (iblk44_rhs V c (4 * r + (k + 1))) (accOf44 c r k)

theorem accOf44_zero (c : Dev nD) (r : ℕ) :
    accOf44 V c r 0 = k44_pay2 (iblk44_lhs V c (4 * r)) (iblk44_rhs V c (4 * r)) (k44_pay1 (F := F)) := rfl
theorem accOf44_succ (c : Dev nD) (r k : ℕ) :
    accOf44 V c r (k + 1) = k44_pay2 (iblk44_lhs V c (4 * r + (k + 1))) (iblk44_rhs V c (4 * r + (k + 1))) (accOf44 V c r k) := rfl

theorem iblk44_lhs_at (c : Dev nD) (t : Fin cfg44.N) (n : ℕ) (hn : n = t.val) : iblk44_lhs V c n = iblk44 V c 0 t := by
  subst hn; unfold iblk44_lhs; exact dif_pos t.isLt
theorem iblk44_rhs_at (c : Dev nD) (t : Fin cfg44.N) (n : ℕ) (hn : n = t.val) : iblk44_rhs V c n = iblk44 V c 1 t := by
  subst hn; unfold iblk44_rhs; exact dif_pos t.isLt

/-- At a grid point with k = 0 the fold starts: the zero block plus the product of the point's two blocks. -/
theorem accOf44_first (c : Dev nD) (t : Fin cfg44.N) (h0 : t.val % 4 = 0) :
    accOf44 V c (t.val / 4) (t.val % 4) = k44_pay2 (iblk44 V c 0 t) (iblk44 V c 1 t) (k44_pay1 (F := F)) := by
  rw [h0, accOf44_zero, iblk44_lhs_at V c t (4 * (t.val / 4)) (by omega), iblk44_rhs_at V c t (4 * (t.val / 4)) (by omega)]

/-- At a grid point with k ≠ 0 the fold takes one step from the position before, which is in the same row of blocks. -/
theorem accOf44_next (c : Dev nD) (t : Fin cfg44.N) (h0 : ¬t.val % 4 = 0) :
    accOf44 V c (t.val / 4) (t.val % 4)
      = k44_pay2 (iblk44 V c 0 t) (iblk44 V c 1 t) (accOf44 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf44_succ, iblk44_lhs_at V c t (4 * (t.val / 4) + (k + 1)) (by omega),
    iblk44_rhs_at V c t (4 * (t.val / 4) + (k + 1)) (by omega)]

/-! ## The accumulator and the output block, point by point, as pure functions of the blocks -/

/-- k = 0: the accumulator restarts from the zero block. -/
theorem outsAt44_first (c : Dev nD) (t : Fin cfg44.N) (h0 : t.val % 4 = 0) :
    (outsAt44 V c t.val t.isLt).2 = k44_pay2 (iblk44 V c 0 t) (iblk44 V c 1 t) (k44_pay1 (F := F)) := by
  rw [outsAt44_A V c t h0]
  dsimp only
  exact sout44_A_eq c (grid44.coords t) (ms44_0 t) (hs44_0 t) (ms44_1 t) (hs44_1 t) (ms44_2 t) (hs44_2 t) scM44 (Memref.isWhole_whole _) (isFirst44 t h0) (notLast44 t (by omega)) (iblk44 V c 0 t) (iblk44 V c 1 t)

/-- k ≠ 0: the point's product is added to what the point before left. -/
theorem outsAt44_next (c : Dev nD) (t : Fin cfg44.N) (h0 : ¬t.val % 4 = 0) :
    (outsAt44 V c t.val t.isLt).2
      = k44_pay2 (iblk44 V c 0 t) (iblk44 V c 1 t) (outsAt44 V c (t.val - 1) (Nat.lt_of_le_of_lt (Nat.sub_le _ _) t.isLt)).2 := by
  by_cases h3 : t.val % 4 = 3
  · rw [outsAt44_C V c t h0 h3]
    dsimp only
    exact sout44_C_eq c (grid44.coords t) (ms44_0 t) (hs44_0 t) (ms44_1 t) (hs44_1 t) (ms44_2 t) (hs44_2 t) scM44 (Memref.isWhole_whole _) (notFirst44 t h0) (isLast44 t h3) (iblk44 V c 0 t) (iblk44 V c 1 t)
      (outsAt44 V c (t.val - 1) (Nat.lt_of_le_of_lt (Nat.sub_le _ _) t.isLt)).2
  · rw [outsAt44_B V c t h0 h3]
    dsimp only
    exact sout44_B_eq c (grid44.coords t) (ms44_0 t) (hs44_0 t) (ms44_1 t) (hs44_1 t) (ms44_2 t) (hs44_2 t) scM44 (Memref.isWhole_whole _) (notFirst44 t h0) (notLast44 t h3) (iblk44 V c 0 t) (iblk44 V c 1 t)
      (outsAt44 V c (t.val - 1) (Nat.lt_of_le_of_lt (Nat.sub_le _ _) t.isLt)).2

/-- k = 3: the output block is the accumulator. -/
theorem outsAt44_last (c : Dev nD) (t : Fin cfg44.N) (h3 : t.val % 4 = 3) :
    (outsAt44 V c t.val t.isLt).1 = (outsAt44 V c t.val t.isLt).2 := by
  have h0 : ¬t.val % 4 = 0 := by omega
  rw [outsAt44_C V c t h0 h3]
  dsimp only
  exact (out44_C_eq c (grid44.coords t) (ms44_0 t) (hs44_0 t) (ms44_1 t) (hs44_1 t) (ms44_2 t) (hs44_2 t) scM44 (Memref.isWhole_whole _) (notFirst44 t h0) (isLast44 t h3) (iblk44 V c 0 t) (iblk44 V c 1 t)
      (outsAt44 V c (t.val - 1) (Nat.lt_of_le_of_lt (Nat.sub_le _ _) t.isLt)).2).trans
    (sout44_C_eq c (grid44.coords t) (ms44_0 t) (hs44_0 t) (ms44_1 t) (hs44_1 t) (ms44_2 t) (hs44_2 t) scM44 (Memref.isWhole_whole _) (notFirst44 t h0) (isLast44 t h3) (iblk44 V c 0 t) (iblk44 V c 1 t)
      (outsAt44 V c (t.val - 1) (Nat.lt_of_le_of_lt (Nat.sub_le _ _) t.isLt)).2).symm

/-! ## The accumulator is the fold -/

/-- After position `n` the accumulator holds row `n / 4`'s fold after its step `n % 4`: by induction on the position. -/
theorem outsAt44_acc_pos (c : Dev nD) :
    ∀ (n : ℕ) (hn : n < cfg44.N), (outsAt44 V c n hn).2 = accOf44 V c (n / 4) (n % 4) := by
  intro n
  induction n with
  | zero =>
    intro hn
    exact (outsAt44_first V c ⟨0, hn⟩ (Nat.zero_mod 4)).trans (accOf44_first V c ⟨0, hn⟩ (Nat.zero_mod 4)).symm
  | succ n ih =>
    intro hn
    by_cases h0 : (n + 1) % 4 = 0
    · exact (outsAt44_first V c ⟨n + 1, hn⟩ h0).trans (accOf44_first V c ⟨n + 1, hn⟩ h0).symm
    · refine (outsAt44_next V c ⟨n + 1, hn⟩ h0).trans (Eq.trans ?_ (accOf44_next V c ⟨n + 1, hn⟩ h0).symm)
      exact congrArg (k44_pay2 (iblk44 V c 0 ⟨n + 1, hn⟩) (iblk44 V c 1 ⟨n + 1, hn⟩)) (ih (Nat.lt_of_succ_lt hn))

/-- At every grid point the accumulator holds its row's fold after the point's step. -/
theorem outsAt44_acc (c : Dev nD) (t : Fin cfg44.N) :
    (outsAt44 V c t.val t.isLt).2 = accOf44 V c (t.val / 4) (t.val % 4) :=
  outsAt44_acc_pos V c t.val t.isLt

/-- At a row's last point the output block holds the row's whole fold. -/
theorem outsAt44_out (c : Dev nD) (t : Fin cfg44.N) (h3 : t.val % 4 = 3) :
    (outsAt44 V c t.val t.isLt).1 = accOf44 V c (t.val / 4) 3 := by
  have e := outsAt44_acc V c t
  rw [h3] at e
  exact (outsAt44_last V c t h3).trans e

end Cert.KernelIdeal.Hand

end
-- ==== Proof.ValKI44b.lean ====
/- Laid out by: python3 scratch/layout_regions.py --template-region 1 --region 44 --program KernelIdeal --prefix Val --parts a,b,c --sim main_v9=main_v8,main_v25=main_v242,main_v26=main_v252 --out-dir proof/Proof
   from the hand-written text of region 1 (ValKI1b.lean): the same text, the region's number substituted. -/
/-
  Region 44 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI44a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts44 : ∀ t : Fin cfg44.N,
    win44_0.index t (0 : Fin 2) = t.val / 4 ∧ win44_0.index t (1 : Fin 2) = t.val % 4
    ∧ win44_1.index t (0 : Fin 2) = t.val % 4 ∧ win44_1.index t (1 : Fin 2) = 0
    ∧ win44_2.index t (0 : Fin 2) = t.val / 4 ∧ win44_2.index t (1 : Fin 2) = 0 :=
  (by decide +kernel : ∀ t : Fin grid44.N,
    win44_0.index t (0 : Fin 2) = t.val / 4 ∧ win44_0.index t (1 : Fin 2) = t.val % 4
    ∧ win44_1.index t (0 : Fin 2) = t.val % 4 ∧ win44_1.index t (1 : Fin 2) = 0
    ∧ win44_2.index t (0 : Fin 2) = t.val / 4 ∧ win44_2.index t (1 : Fin 2) = 0)

/-! ## The output array as one function -/

/-- The whole output array: its row 1024 r + p, column q, is entry (p, q) of the block accumulated over k = 0 … 3 in
    block row r. -/
def whole44 (c : Dev nD) : S4096x512.Idx → Elt F .f32 := fun i =>
  accOf44 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole44_apply (c : Dev nD) (r : ℕ) (y : S1024x512.Idx) (i : S4096x512.Idx)
    (h0 : (i 0).val = 1024 * r + (y 0).val) (h1 : (i 1).val = (y 1).val) :
    whole44 V c i = accOf44 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole44
  rw [hr, e]

/-- Row 1024 r + p, column q of the array is entry (p, q) of block row r's accumulated block. -/
theorem whole44_ix2 (c : Dev nD) (r : Fin 4) (p : Fin 1024) (q : Fin 512) :
    whole44 V c (ix2 (n0 := 4096) (n1 := 512) ⟨1024 * r.val + p.val, by have := r.isLt; have := p.isLt; omega⟩ q)
      = accOf44 V c r.val 3 (ix2 p q) :=
  whole44_apply V c r.val (ix2 p q) _ rfl rfl

/-! ## What a point writes back -/

/-- A point with k = 3 writes back its block of the whole-array function. -/
theorem flushed44_eq (c : Dev nD) (t : Fin cfg44.N) (hf : (cfg44.win 2).flush t = true) :
    (dat44 V c).flushed 2 t = ((cfg44.win 2).blk t).view.read (Elt F) (whole44 V c) := by
  have h3 : t.val % 4 = 3 := (flush44_2 t).mp hf
  show (cfg44.win 2).cut (grid44.coords t) ((dat44 V c).after 2 t) = _
  rw [after44_2, outsAt44_out V c t h3]
  obtain ⟨-, -, -, -, e0, e1⟩ := idxFacts44 t
  funext j
  show accOf44 V c (t.val / 4) 3 j = whole44 V c (((cfg44.win 2).blk t).view.emb j)
  refine (whole44_apply V c (t.val / 4) j _ ?_ ?_).symm
  · show win44_2.index t (0 : Fin 2) * 1024 + 1 * (j 0).val = 1024 * (t.val / 4) + (j 0).val
    rw [e0]; omega
  · show win44_2.index t (1 : Fin 2) * 512 + 1 * (j 1).val = (j 1).val
    rw [e1]; omega

/-! ## The blocks written back cover the array -/

/-- An index is in a point's output block iff each coordinate is in the block's range on its axis. -/
theorem memBlk44 (t : Fin cfg44.N) (i : S4096x512.Idx) :
    i ∈ ((cfg44.win 2).blk t).view.set ↔ ∀ a : Fin 2, win44_2.index t a * S1024x512.size a ≤ (i a).val
      ∧ (i a).val < win44_2.index t a * S1024x512.size a + S1024x512.size a := by
  show i ∈ ((View.whole main_v252).slice (win44_2.rect t)).set ↔ _
  rw [View.set_slice_whole, Rect.mem_set_unit]
  exact Iff.rfl

/-- Row i of the array lies in the block written back at the point (i / 1024, 3). -/
theorem covered44 (i : S4096x512.Idx) :
    ∃ t : Fin cfg44.N, (cfg44.win 2).flush t = true ∧ i ∈ ((cfg44.win 2).blk t).view.set := by
  have hi0 : (i 0).val < 4096 := idx2_lt0 i
  have hi1 : (i 1).val < 512 := idx2_lt1 i
  have hN : cfg44.N = 16 := N_44
  obtain ⟨t, ht⟩ : ∃ t : Fin cfg44.N, t.val = 4 * ((i 0).val / 1024) + 3 :=
    ⟨⟨4 * ((i 0).val / 1024) + 3, by rw [hN]; omega⟩, rfl⟩
  refine ⟨t, (flush44_2 t).mpr (by omega), ?_⟩
  rw [memBlk44]
  obtain ⟨-, -, -, -, e0, e1⟩ := idxFacts44 t
  intro a
  match a with
  | ⟨0, _⟩ =>
    show win44_2.index t (0 : Fin 2) * 1024 ≤ (i 0).val ∧ (i 0).val < win44_2.index t (0 : Fin 2) * 1024 + 1024
    rw [e0]; omega
  | ⟨1, _⟩ =>
    show win44_2.index t (1 : Fin 2) * 512 ≤ (i 1).val ∧ (i 1).val < win44_2.index t (1 : Fin 2) * 512 + 512
    rw [e1]; omega

/-! ## The three arrays after the region -/

/-- The output array after the region is the whole-array function. -/
theorem final44_2 (c : Dev nD) : (dat44 V c).arrAt 2 cfg44.N = whole44 V c :=
  (dat44 V c).arrAt_eq_of_cover 2 (whole44 V c) (flushed44_eq V c) covered44

/-- The two input arrays are as the region found them. -/
theorem final44_0 (c : Dev nD) : (dat44 V c).arrAt 0 cfg44.N = V c main_v8 :=
  ((dat44 V c).arrAt_in 0 rfl cfg44.N).trans (A_eq44 V c 0)
theorem final44_1 (c : Dev nD) : (dat44 V c).arrAt 1 cfg44.N = V c main_v242 :=
  ((dat44 V c).arrAt_in 1 rfl cfg44.N).trans (A_eq44 V c 1)

/-! ## The input blocks as blocks of the operand arrays -/

/-- The left operand's block at the point (r, k): entry (y₀, y₁) is the array's entry (1024 r + y₀, 1024 k + y₁). -/
theorem iblk44_lhs_apply (c : Dev nD) (r k : Fin 4) (y : S1024x1024.Idx) (i : S4096x4096.Idx)
    (h0 : (i 0).val = 1024 * r.val + (y 0).val) (h1 : (i 1).val = 1024 * k.val + (y 1).val) :
    iblk44_lhs V c (4 * r.val + k.val) y = (V c main_v8 : S4096x4096.Idx → Elt F .bf16) i := by
  have hN : cfg44.N = 16 := N_44
  have hr := r.isLt
  have hk := k.isLt
  have hlt : 4 * r.val + k.val < cfg44.N := by rw [hN]; omega
  rw [iblk44_lhs_eq V c _ hlt]
  obtain ⟨e0, e1, -, -, -, -⟩ := idxFacts44 ⟨4 * r.val + k.val, hlt⟩
  have e0' : win44_0.index ⟨4 * r.val + k.val, hlt⟩ (0 : Fin 2) = (4 * r.val + k.val) / 4 := e0
  have e1' : win44_0.index ⟨4 * r.val + k.val, hlt⟩ (1 : Fin 2) = (4 * r.val + k.val) % 4 := e1
  unfold iblk44
  rw [View.read_apply]
  show V c main_v8 (((cfg44.win 0).blk ⟨4 * r.val + k.val, hlt⟩).view.emb y) = V c main_v8 i
  congr 1
  funext a
  apply Fin.ext
  match a with
  | ⟨0, _⟩ =>
    show win44_0.index ⟨4 * r.val + k.val, hlt⟩ (0 : Fin 2) * 1024 + 1 * (y 0).val = (i 0).val
    rw [e0', h0]; omega
  | ⟨1, _⟩ =>
    show win44_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk44_rhs_apply (c : Dev nD) (r k : Fin 4) (y : S1024x512.Idx) (i : S4096x512.Idx)
    (h0 : (i 0).val = 1024 * k.val + (y 0).val) (h1 : (i 1).val = (y 1).val) :
    iblk44_rhs V c (4 * r.val + k.val) y = (V c main_v242 : S4096x512.Idx → Elt F .f32) i := by
  have hN : cfg44.N = 16 := N_44
  have hr := r.isLt
  have hk := k.isLt
  have hlt : 4 * r.val + k.val < cfg44.N := by rw [hN]; omega
  rw [iblk44_rhs_eq V c _ hlt]
  obtain ⟨-, -, e0, e1, -, -⟩ := idxFacts44 ⟨4 * r.val + k.val, hlt⟩
  have e0' : win44_1.index ⟨4 * r.val + k.val, hlt⟩ (0 : Fin 2) = (4 * r.val + k.val) % 4 := e0
  have e1' : win44_1.index ⟨4 * r.val + k.val, hlt⟩ (1 : Fin 2) = 0 := e1
  unfold iblk44
  rw [View.read_apply]
  show V c main_v242 (((cfg44.win 1).blk ⟨4 * r.val + k.val, hlt⟩).view.emb y) = V c main_v242 i
  congr 1
  funext a
  apply Fin.ext
  match a with
  | ⟨0, _⟩ =>
    show win44_1.index ⟨4 * r.val + k.val, hlt⟩ (0 : Fin 2) * 1024 + 1 * (y 0).val = (i 0).val
    rw [e0', h0]; omega
  | ⟨1, _⟩ =>
    show win44_1.index ⟨4 * r.val + k.val, hlt⟩ (1 : Fin 2) * 512 + 1 * (y 1).val = (i 1).val
    rw [e1', h1]; omega

/-- The accumulated block after the fourth step, unfolded: four steps from the zero block. -/
theorem accOf44_three (c : Dev nD) (r : ℕ) :
    accOf44 V c r 3
      = k44_pay2 (iblk44_lhs V c (4 * r + 3)) (iblk44_rhs V c (4 * r + 3))
          (k44_pay2 (iblk44_lhs V c (4 * r + 2)) (iblk44_rhs V c (4 * r + 2))
            (k44_pay2 (iblk44_lhs V c (4 * r + 1)) (iblk44_rhs V c (4 * r + 1))
              (k44_pay2 (iblk44_lhs V c (4 * r)) (iblk44_rhs V c (4 * r)) (k44_pay1 (F := F))))) := rfl

end Cert.KernelIdeal.Hand

end
-- ==== Proof.ValKI44c.lean ====
/- Laid out by: python3 scratch/layout_regions.py --template-region 1 --region 44 --program KernelIdeal --prefix Val --parts a,b,c --sim main_v9=main_v8,main_v25=main_v242,main_v26=main_v252 --out-dir proof/Proof
   from the hand-written text of region 1 (ValKI1c.lean): the same text, the region's number substituted. -/
/-
  Region 44 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI44b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf44_step (x0 : Vec Ideal S1024x1024 .bf16) (x1 acc : Vec Ideal S1024x512 .f32) :
    k44_pay2 (F := Ideal) x0 x1 acc
      = Cert.MMLaw.accStep dot_S1024x1024_S1024x512_S1024x512_1_0_0_1_n_n none x0 x1 acc := by
  unfold k44_pay2
  simp only [shapeCast_self]
  rfl

/-- The accumulator starts from the zero block. -/
theorem accOf44_init (j : S1024x512.Idx) : k44_pay1 (F := Ideal) j = 0 := by
  unfold k44_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf44_eq_blk (c : Dev nD) (r : Fin 4) (D : DotDims S4096x4096 S4096x512 S4096x512) (hD : Cert.MMLaw.IsPlain D)
    (prec : Option ContractPrecision) :
    accOf44 V c r.val 3
      = Cert.MMLaw.blk (nr := 4) (nc := 1) 1024 512 rfl rfl (Cert.MMLaw.whole D prec (V c main_v8) (V c main_v242)) r 0 := by
  rw [accOf44_three]
  simp only [accOf44_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v8) (V c main_v242) r 0
    (fun k => iblk44_lhs V c (4 * r.val + k.val)) (fun k => iblk44_rhs V c (4 * r.val + k.val))
    (fun k => funext fun y => iblk44_lhs_apply V c r k y _ rfl rfl)
    (fun k => funext fun y => iblk44_rhs_apply V c r k y _ rfl (by show 512 * 0 + (y 1).val = (y 1).val; omega))
    (k44_pay1 (F := Ideal)) accOf44_init

/-! ## The output array after the region is the whole product -/

/-- The region leaves in its output array the product of its two operand arrays. -/
theorem final44_2_eq_whole (c : Dev nD) (D : DotDims S4096x4096 S4096x512 S4096x512) (hD : Cert.MMLaw.IsPlain D)
    (prec : Option ContractPrecision) :
    (dat44 (F := Ideal) V c).arrAt 2 cfg44.N = Cert.MMLaw.whole D prec (V c main_v8) (V c main_v242) := by
  rw [final44_2]
  funext i
  have hi0 : (i 0).val < 4096 := idx2_lt0 i
  have h := congrFun (accOf44_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final44_2_eq_dot (c : Dev nD) (D : DotDims S4096x4096 S4096x512 S4096x512) (hD : Cert.MMLaw.IsPlain D)
    (prec : Option ContractPrecision) :
    (dat44 (F := Ideal) V c).arrAt 2 cfg44.N = Host.dotGeneral (F := Ideal) (φ₁ := .bf16) (φ₂ := .f32) D prec (V c main_v8) (V c main_v242) :=
  final44_2_eq_whole V c D hD prec

end Cert.KernelIdeal.Hand

end
-- ==== Proof.ValKI45a.lean ====
/- Laid out by: python3 scratch/layout_grid41.py --prefix Val --template-region 0 --region 45 --program KernelIdeal --parts a,b --shapes S1024x128=S1024x512,S128x512=S512x512,S1024x512=S1024x512,S4096x128=S4096x512,S4096x512=S4096x512,main_arg0=main_v255,main_v12=main_v10,main_v17=main_v256,h0=h0,e0=e0,hi0=hi0,x0=x0
   from the hand-written text of region 0 (ValKI0a.lean): the same text, the region's number, block shapes, operand arrays substituted. -/
/-
  Region 45 of @main: from the output blocks to the whole output array.

  The grid is [4, 1]: the point t is block row t, and the reduction axis has one step, so every point zeroes the
  accumulator, adds the product of its two input blocks, and writes the sum back. The output window's block at t is
  rows 1024 t … 1024 t + 1023 of the result, written back at every point. So the array after the region is ONE function
  of the index: row 1024 r + p, column q holds entry (p, q) of the block the point r leaves. The steps: the three windows'
  block indices decided once over the grid; what a point writes back is its block of that function; the four blocks
  written back cover the array (row i lies in the block of the point i / 1024); hence the array after the region. The two
  operand arrays are not written. Last, each input block as a block of its operand array: the left operand's block at the
  point t is its rows 1024 t … 1024 t + 1023 (every column), the right operand's block is the whole array at every point.
-/
import proofs.«158944_j64613488001249_1_alg».proof.Proof.RegKI45
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t the left operand's block is (t, 0), the right operand's (0, 0), the output's (t, 0). -/
theorem idxFacts45 : ∀ t : Fin cfg45.N,
    win45_0.index t (0 : Fin 2) = t.val ∧ win45_0.index t (1 : Fin 2) = 0
    ∧ win45_1.index t (0 : Fin 2) = 0 ∧ win45_1.index t (1 : Fin 2) = 0
    ∧ win45_2.index t (0 : Fin 2) = t.val ∧ win45_2.index t (1 : Fin 2) = 0 :=
  (by decide +kernel : ∀ t : Fin grid45.N,
    win45_0.index t (0 : Fin 2) = t.val ∧ win45_0.index t (1 : Fin 2) = 0
    ∧ win45_1.index t (0 : Fin 2) = 0 ∧ win45_1.index t (1 : Fin 2) = 0
    ∧ win45_2.index t (0 : Fin 2) = t.val ∧ win45_2.index t (1 : Fin 2) = 0)

/-! ## The block a point leaves -/

/-- The block the point at grid position n leaves: the zero block plus the product of the point's two input blocks
    (past the grid's end, where nothing consults it, the block of position 0). -/
def accOf45 (c : Dev nD) (n : ℕ) : Vec F S1024x512 .f32 :=
  if h : n < cfg45.N then k45_pay2 (iblk45 V c 0 ⟨n, h⟩) (iblk45 V c 1 ⟨n, h⟩) (k45_pay1 (F := F))
  else k45_pay2 (iblk45 V c 0 ⟨0, by have h : cfg45.N = 4 := N_45; omega⟩)
    (iblk45 V c 1 ⟨0, by have h : cfg45.N = 4 := N_45; omega⟩) (k45_pay1 (F := F))

theorem accOf45_eq (c : Dev nD) (t : Fin cfg45.N) :
    accOf45 V c t.val = k45_pay2 (iblk45 V c 0 t) (iblk45 V c 1 t) (k45_pay1 (F := F)) := by
  unfold accOf45; exact dif_pos t.isLt

/-- At every point the output block holds that block. -/
theorem outsAt45_out (c : Dev nD) (t : Fin cfg45.N) : (outsAt45 V c t.val t.isLt).1 = accOf45 V c t.val :=
  (outsAt45_last V c t).trans ((outsAt45_first V c t).trans (accOf45_eq V c t).symm)

/-! ## The output array as one function -/

/-- The whole output array: its row 1024 r + p, column q, is entry (p, q) of the block the point r leaves. -/
def whole45 (c : Dev nD) : S4096x512.Idx → Elt F .f32 := fun i =>
  accOf45 V c ((i 0).val / 1024)
    (ix2 ⟨(i 0).val % 1024, Nat.mod_lt _ (by decide)⟩ ⟨(i 1).val, idx2_lt1 i⟩)

/-- The array read at an index given by a block row r and a position y inside the block. -/
theorem whole45_apply (c : Dev nD) (r : ℕ) (y : S1024x512.Idx) (i : S4096x512.Idx)
    (h0 : (i 0).val = 1024 * r + (y 0).val) (h1 : (i 1).val = (y 1).val) :
    whole45 V c i = accOf45 V c r y := by
  have hy : (y 0).val < 1024 := idx2_lt0 y
  have hr : (i 0).val / 1024 = r := by omega
  have hp : (i 0).val % 1024 = (y 0).val := by omega
  have e : (ix2 ⟨(i 0).val % 1024, Nat.mod_lt _ (by decide)⟩ ⟨(i 1).val, idx2_lt1 i⟩ : S1024x512.Idx) = y :=
    funext fun a => match a with
      | ⟨0, _⟩ => Fin.ext hp
      | ⟨1, _⟩ => Fin.ext h1
  unfold whole45
  rw [hr, e]

/-- Row 1024 r + p, column q of the array is entry (p, q) of the block the point r leaves. -/
theorem whole45_ix2 (c : Dev nD) (r : Fin 4) (p : Fin 1024) (q : Fin (S1024x512.size 1)) :
    whole45 V c (ix2 ⟨1024 * r.val + p.val, by have := r.isLt; have := p.isLt; omega⟩ q)
      = accOf45 V c r.val (ix2 p q) :=
  whole45_apply V c r.val (ix2 p q) _ rfl rfl

/-! ## What a point writes back -/

/-- Every point writes back its block of the whole-array function. -/
theorem flushed45_eq (c : Dev nD) (t : Fin cfg45.N) (hf : (cfg45.win 2).flush t = true) :
    (dat45 V c).flushed 2 t = ((cfg45.win 2).blk t).view.read (Elt F) (whole45 V c) := by
  show (cfg45.win 2).cut (grid45.coords t) ((dat45 V c).after 2 t) = _
  rw [after45_2, outsAt45_out V c t]
  obtain ⟨-, -, -, -, e0, e1⟩ := idxFacts45 t
  funext j
  show accOf45 V c t.val j = whole45 V c (((cfg45.win 2).blk t).view.emb j)
  refine (whole45_apply V c t.val j _ ?_ ?_).symm
  · show win45_2.index t (0 : Fin 2) * 1024 + 1 * (j 0).val = 1024 * t.val + (j 0).val
    rw [e0]; omega
  · show win45_2.index t (1 : Fin 2) * S1024x512.size (1 : Fin 2) + 1 * (j 1).val = (j 1).val
    rw [e1, Nat.zero_mul, Nat.zero_add, Nat.one_mul]

/-! ## The blocks written back cover the array -/

/-- An index is in a point's output block iff each coordinate is in the block's range on its axis. -/
theorem memBlk45 (t : Fin cfg45.N) (i : S4096x512.Idx) :
    i ∈ ((cfg45.win 2).blk t).view.set ↔ ∀ a : Fin 2, win45_2.index t a * S1024x512.size a ≤ (i a).val
      ∧ (i a).val < win45_2.index t a * S1024x512.size a + S1024x512.size a := by
  show i ∈ ((View.whole main_v256).slice (win45_2.rect t)).set ↔ _
  rw [View.set_slice_whole, Rect.mem_set_unit]
  exact Iff.rfl

/-- Row i of the array lies in the block written back at the point i / 1024. -/
theorem covered45 (i : S4096x512.Idx) :
    ∃ t : Fin cfg45.N, (cfg45.win 2).flush t = true ∧ i ∈ ((cfg45.win 2).blk t).view.set := by
  have hi0 : (i 0).val < 4096 := idx2_lt0 i
  have hi1 : (i 1).val < S1024x512.size (1 : Fin 2) := idx2_lt1 i
  have hN : cfg45.N = 4 := N_45
  obtain ⟨t, ht⟩ : ∃ t : Fin cfg45.N, t.val = (i 0).val / 1024 :=
    ⟨⟨(i 0).val / 1024, by rw [hN]; omega⟩, rfl⟩
  refine ⟨t, flush45_2 t, ?_⟩
  rw [memBlk45]
  obtain ⟨-, -, -, -, e0, e1⟩ := idxFacts45 t
  intro a
  match a with
  | ⟨0, _⟩ =>
    show win45_2.index t (0 : Fin 2) * 1024 ≤ (i 0).val ∧ (i 0).val < win45_2.index t (0 : Fin 2) * 1024 + 1024
    rw [e0]; omega
  | ⟨1, _⟩ =>
    show win45_2.index t (1 : Fin 2) * S1024x512.size (1 : Fin 2) ≤ (i 1).val
      ∧ (i 1).val < win45_2.index t (1 : Fin 2) * S1024x512.size (1 : Fin 2) + S1024x512.size (1 : Fin 2)
    rw [e1, Nat.zero_mul, Nat.zero_add]
    exact ⟨Nat.zero_le _, hi1⟩

/-! ## The three arrays after the region -/

/-- The output array after the region is the whole-array function. -/
theorem final45_2 (c : Dev nD) : (dat45 V c).arrAt 2 cfg45.N = whole45 V c :=
  (dat45 V c).arrAt_eq_of_cover 2 (whole45 V c) (flushed45_eq V c) covered45

/-- The two input arrays are as the region found them. -/
theorem final45_0 (c : Dev nD) : (dat45 V c).arrAt 0 cfg45.N = V c main_v255 :=
  ((dat45 V c).arrAt_in 0 rfl cfg45.N).trans (A_eq45 V c 0)
theorem final45_1 (c : Dev nD) : (dat45 V c).arrAt 1 cfg45.N = V c main_v10 :=
  ((dat45 V c).arrAt_in 1 rfl cfg45.N).trans (A_eq45 V c 1)

/-! ## The input blocks as blocks of the operand arrays -/

/-- The left operand's block at the point t: entry (y₀, y₁) is the array's entry (1024 t + y₀, y₁). -/
theorem iblk45_lhs_apply (c : Dev nD) (t : Fin cfg45.N) (y : S1024x512.Idx) (i : S4096x512.Idx)
    (h0 : (i 0).val = 1024 * t.val + (y 0).val) (h1 : (i 1).val = (y 1).val) :
    iblk45 V c 0 t y = (V c main_v255 : S4096x512.Idx → Elt F .f32) i := by
  obtain ⟨e0, e1, -, -, -, -⟩ := idxFacts45 t
  unfold iblk45
  rw [View.read_apply]
  show V c main_v255 (((cfg45.win 0).blk t).view.emb y) = V c main_v255 i
  congr 1
  funext a
  apply Fin.ext
  match a with
  | ⟨0, _⟩ =>
    show win45_0.index t (0 : Fin 2) * 1024 + 1 * (y 0).val = (i 0).val
    rw [e0, h0]; omega
  | ⟨1, _⟩ =>
    show win45_0.index t (1 : Fin 2) * S1024x512.size (1 : Fin 2) + 1 * (y 1).val = (i 1).val
    rw [e1, h1, Nat.zero_mul, Nat.zero_add, Nat.one_mul]

/-- The right operand's block is the whole array at every point. -/
theorem iblk45_rhs_eq (c : Dev nD) (t : Fin cfg45.N) :
    iblk45 V c 1 t = (V c main_v10 : S512x512.Idx → Elt F .bf16) := by
  obtain ⟨-, -, e0, e1, -, -⟩ := idxFacts45 t
  funext y
  unfold iblk45
  rw [View.read_apply]
  show V c main_v10 (((cfg45.win 1).blk t).view.emb y) = V c main_v10 y
  congr 1
  funext a
  apply Fin.ext
  match a with
  | ⟨0, _⟩ =>
    show win45_1.index t (0 : Fin 2) * S512x512.size (0 : Fin 2) + 1 * (y 0).val = (y 0).val
    rw [e0, Nat.zero_mul, Nat.zero_add, Nat.one_mul]
  | ⟨1, _⟩ =>
    show win45_1.index t (1 : Fin 2) * S512x512.size (1 : Fin 2) + 1 * (y 1).val = (y 1).val
    rw [e1, Nat.zero_mul, Nat.zero_add, Nat.one_mul]

end Cert.KernelIdeal.Hand

end
-- ==== Proof.ValKI45b.lean ====
/- Laid out by: python3 scratch/layout_grid41.py --prefix Val --template-region 0 --region 45 --program KernelIdeal --parts a,b --shapes S1024x128=S1024x512,S128x512=S512x512,S1024x512=S1024x512,S4096x128=S4096x512,S4096x512=S4096x512,main_arg0=main_v255,main_v12=main_v10,main_v17=main_v256,h0=h0,e0=e0,hi0=hi0,x0=x0
   from the hand-written text of region 0 (ValKI0b.lean): the same text, the region's number, block shapes, operand arrays substituted. -/
/-
  Region 45 of @main at the extended reals: the output array after the region is the product of the two operand arrays.

  A change of float format is the identity at these values and a reshape to the same shape is the identity, so the
  kernel's one accumulation step is "accumulator plus the product of the two blocks into the zero block", and the
  accumulator starts from the zero block. The block the point r leaves is then zero plus the product of rows
  1024 r … 1024 r + 1023 of the left operand with the whole right operand, which is the same rows of the whole product:
  the contraction axis is not cut, so the sums are the same term by term. Read through the whole-array function of the
  blocks-to-array module, entry (1024 r + p, q) of the output array is that entry of the product.
-/
import proofs.«158944_j64613488001249_1_alg».proof.Proof.ValKI45a
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The accumulation step, and its start, at the extended reals -/

/-- A change of format and a reshape to the same shape are the identity: the step adds the product of the two blocks
    (into the zero block) to the accumulator. -/
theorem accOf45_step (x0 : Vec Ideal S1024x512 .f32) (x1 : Vec Ideal S512x512 .bf16) (acc : Vec Ideal S1024x512 .f32) :
    k45_pay2 (F := Ideal) x0 x1 acc
      = Cert.MMLaw.accStep dot_S1024x512_S512x512_S1024x512_1_0_0_1_n_n none x0 x1 acc := by
  unfold k45_pay2
  simp only [shapeCast_self]
  rfl

/-- The accumulator starts from the zero block. -/
theorem accOf45_init (j : S1024x512.Idx) : k45_pay1 (F := Ideal) j = 0 := by
  unfold k45_pay1
  rw [shapeCast_self]
  exact Ideal.ofBits_zero_f32

/-! ## The block a point leaves is a block of the whole product -/

/-- The block the point r leaves is rows 1024 r … 1024 r + 1023 of the product of the two operand arrays. -/
theorem accOf45_eq_blk (c : Dev nD) (r : Fin 4) (D : DotDims S4096x512 S512x512 S4096x512) (hD : Cert.MMLaw.IsPlain D)
    (prec : Option ContractPrecision) :
    accOf45 V c r.val
      = Cert.MMLaw.rowBlk (Cert.MMLaw.whole D prec (V c main_v255) (V c main_v10)) r := by
  have hN : cfg45.N = 4 := N_45
  have hr : r.val < cfg45.N := by rw [hN]; exact r.isLt
  rw [accOf45_eq V c ⟨r.val, hr⟩, accOf45_step]
  exact Cert.MMLaw.law41 dot_S1024x512_S512x512_S1024x512_1_0_0_1_n_n ⟨rfl, rfl, rfl, rfl, rfl, rfl⟩ D hD none prec
    (V c main_v255) (V c main_v10) r (iblk45 V c 0 ⟨r.val, hr⟩) (iblk45 V c 1 ⟨r.val, hr⟩)
    (funext fun y => iblk45_lhs_apply V c ⟨r.val, hr⟩ y _ rfl rfl) (iblk45_rhs_eq V c ⟨r.val, hr⟩)
    (k45_pay1 (F := Ideal)) accOf45_init

/-! ## The output array after the region is the whole product -/

/-- The region leaves in its output array the product of its two operand arrays. -/
theorem final45_2_eq_whole (c : Dev nD) (D : DotDims S4096x512 S512x512 S4096x512) (hD : Cert.MMLaw.IsPlain D)
    (prec : Option ContractPrecision) :
    (dat45 (F := Ideal) V c).arrAt 2 cfg45.N = Cert.MMLaw.whole D prec (V c main_v255) (V c main_v10) := by
  rw [final45_2]
  funext i
  have hi0 : (i 0).val < 4096 := idx2_lt0 i
  have h := congrFun (accOf45_eq_blk V c ⟨(i 0).val / 1024, by omega⟩ D hD prec)
    (ix2 ⟨(i 0).val % 1024, Nat.mod_lt _ (by decide)⟩ ⟨(i 1).val, idx2_lt1 i⟩)
  rw [Cert.MMLaw.rowBlk_apply] at h
  refine Eq.trans h (congrArg _ ?_)
  funext a
  match a with
  | ⟨0, _⟩ => exact Fin.ext (by show 1024 * ((i 0).val / 1024) + (i 0).val % 1024 = (i 0).val; omega)
  | ⟨1, _⟩ => rfl

/-- The same with the operands at the formats they are stored in. -/
theorem final45_2_eq_dot (c : Dev nD) (D : DotDims S4096x512 S512x512 S4096x512) (hD : Cert.MMLaw.IsPlain D)
    (prec : Option ContractPrecision) :
    (dat45 (F := Ideal) V c).arrAt 2 cfg45.N
      = Host.dotGeneral (F := Ideal) (φ₁ := .f32) (φ₂ := .bf16) D prec (V c main_v255) (V c main_v10) :=
  final45_2_eq_whole V c D hD prec

end Cert.KernelIdeal.Hand

end
-- ==== Proof.ValKI46a.lean ====
/- Laid out by: python3 scratch/layout_regions.py --template-region 1 --region 46 --program KernelIdeal --prefix Val --parts a,b,c --sim main_v9=main_v7,main_v25=main_v256,main_v26=main_v257 --out-dir proof/Proof
   from the hand-written text of region 1 (ValKI1a.lean): the same text, the region's number substituted. -/
/-
  Region 46 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k46_pay1` (the zero block) and `k46_pay2` (accumulator plus product) are the two stores' payloads.

  So along one row of blocks r the accumulator after its step k is the left fold
    accOf46 r 0 = pay2 (a (r, 0)) (b 0) pay1,    accOf46 r (k + 1) = pay2 (a (r, k + 1)) (b (k + 1)) (accOf46 r k),
  the grid point (r, k) being position 4 r + k; and at k = 3 the output block holds accOf46 r 3.
-/
import proofs.«158944_j64613488001249_1_alg».proof.Proof.RegKI46
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout46_A_eq (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond46_0 i) (hc1 : ¬cond46_1 i)
    (x0 : Vec F S1024x1024 .bf16) (x1 : Vec F S1024x512 .f32) :
    sout46_A c i arg2 harg2 arg3 harg3 arg4 harg4 arg5 harg5 hc0 hc1 x0 x1 = k46_pay2 x0 x1 (k46_pay1 (F := F)) := by
  have hz : (![0, 0] : Fin 2 → Nat) = fun _ => 0 := funext fun a => by fin_cases a <;> rfl
  unfold sout46_A
  rw [View.read_writes_eq_canon _ _ _ (scover46_A c i arg2 harg2 arg3 harg3 arg4 harg4 arg5 harg5 hc0 hc1 x0 x1)]
  unfold kernelRun46_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout46_B_eq (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond46_0 i) (hc1 : ¬cond46_1 i)
    (x0 : Vec F S1024x1024 .bf16) (x1 : Vec F S1024x512 .f32) (xs0 : Vec F S1024x512 .f32) :
    sout46_B c i arg2 harg2 arg3 harg3 arg4 harg4 arg5 harg5 hc0 hc1 x0 x1 xs0 = k46_pay2 x0 x1 xs0 := by
  have hz : (![0, 0] : Fin 2 → Nat) = fun _ => 0 := funext fun a => by fin_cases a <;> rfl
  unfold sout46_B
  rw [View.read_writes_eq_canon _ _ _ (scover46_B c i arg2 harg2 arg3 harg3 arg4 harg4 arg5 harg5 hc0 hc1 x0 x1 xs0)]
  unfold kernelRun46_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout46_C_eq (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond46_0 i) (hc1 : cond46_1 i)
    (x0 : Vec F S1024x1024 .bf16) (x1 : Vec F S1024x512 .f32) (xs0 : Vec F S1024x512 .f32) :
    sout46_C c i arg2 harg2 arg3 harg3 arg4 harg4 arg5 harg5 hc0 hc1 x0 x1 xs0 = k46_pay2 x0 x1 xs0 := by
  have hz : (![0, 0] : Fin 2 → Nat) = fun _ => 0 := funext fun a => by fin_cases a <;> rfl
  unfold sout46_C
  rw [View.read_writes_eq_canon _ _ _ (scover46_C c i arg2 harg2 arg3 harg3 arg4 harg4 arg5 harg5 hc0 hc1 x0 x1 xs0)]
  unfold kernelRun46_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out46_C_eq (c : Dev nD) (i : grid46.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond46_0 i) (hc1 : cond46_1 i)
    (x0 : Vec F S1024x1024 .bf16) (x1 : Vec F S1024x512 .f32) (xs0 : Vec F S1024x512 .f32) :
    out46_C c i arg2 harg2 arg3 harg3 arg4 harg4 arg5 harg5 hc0 hc1 x0 x1 xs0 = k46_pay2 x0 x1 xs0 := by
  have hz : (![0, 0] : Fin 2 → Nat) = fun _ => 0 := funext fun a => by fin_cases a <;> rfl
  unfold out46_C
  rw [View.read_writes_eq_canon _ _ _ (cover46_C c i arg2 harg2 arg3 harg3 arg4 harg4 arg5 harg5 hc0 hc1 x0 x1 xs0)]
  unfold kernelRun46_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk46_lhs (c : Dev nD) (n : ℕ) : Vec F S1024x1024 .bf16 :=
  if h : n < cfg46.N then iblk46 V c 0 ⟨n, h⟩ else iblk46 V c 0 ⟨0, by have h : cfg46.N = 16 := N_46; omega⟩
/-- The right factor's block at grid position `n`. -/
def iblk46_rhs (c : Dev nD) (n : ℕ) : Vec F S1024x512 .f32 :=
  if h : n < cfg46.N then iblk46 V c 1 ⟨n, h⟩ else iblk46 V c 1 ⟨0, by have h : cfg46.N = 16 := N_46; omega⟩

theorem iblk46_lhs_eq (c : Dev nD) (n : ℕ) (h : n < cfg46.N) : iblk46_lhs V c n = iblk46 V c 0 ⟨n, h⟩ := dif_pos h
theorem iblk46_rhs_eq (c : Dev nD) (n : ℕ) (h : n < cfg46.N) : iblk46_rhs V c n = iblk46 V c 1 ⟨n, h⟩ := dif_pos h

/-! ## The accumulator along one row of blocks -/

/-- Row of blocks `r`, after its step `k`: the zero block plus the products of the blocks at positions 4 r, …, 4 r + k,
    added in that order. -/
def accOf46 (c : Dev nD) (r : ℕ) : ℕ → Vec F S1024x512 .f32
  | 0 => k46_pay2 (iblk46_lhs V c (4 * r)) (iblk46_rhs V c (4 * r)) (k46_pay1 (F := F))
  | k + 1 => k46_pay2 (iblk46_lhs V c (4 * r + (k + 1))) (iblk46_rhs V c (4 * r + (k + 1))) (accOf46 c r k)

theorem accOf46_zero (c : Dev nD) (r : ℕ) :
    accOf46 V c r 0 = k46_pay2 (iblk46_lhs V c (4 * r)) (iblk46_rhs V c (4 * r)) (k46_pay1 (F := F)) := rfl
theorem accOf46_succ (c : Dev nD) (r k : ℕ) :
    accOf46 V c r (k + 1) = k46_pay2 (iblk46_lhs V c (4 * r + (k + 1))) (iblk46_rhs V c (4 * r + (k + 1))) (accOf46 V c r k) := rfl

theorem iblk46_lhs_at (c : Dev nD) (t : Fin cfg46.N) (n : ℕ) (hn : n = t.val) : iblk46_lhs V c n = iblk46 V c 0 t := by
  subst hn; unfold iblk46_lhs; exact dif_pos t.isLt
theorem iblk46_rhs_at (c : Dev nD) (t : Fin cfg46.N) (n : ℕ) (hn : n = t.val) : iblk46_rhs V c n = iblk46 V c 1 t := by
  subst hn; unfold iblk46_rhs; exact dif_pos t.isLt

/-- At a grid point with k = 0 the fold starts: the zero block plus the product of the point's two blocks. -/
theorem accOf46_first (c : Dev nD) (t : Fin cfg46.N) (h0 : t.val % 4 = 0) :
    accOf46 V c (t.val / 4) (t.val % 4) = k46_pay2 (iblk46 V c 0 t) (iblk46 V c 1 t) (k46_pay1 (F := F)) := by
  rw [h0, accOf46_zero, iblk46_lhs_at V c t (4 * (t.val / 4)) (by omega), iblk46_rhs_at V c t (4 * (t.val / 4)) (by omega)]

/-- At a grid point with k ≠ 0 the fold takes one step from the position before, which is in the same row of blocks. -/
theorem accOf46_next (c : Dev nD) (t : Fin cfg46.N) (h0 : ¬t.val % 4 = 0) :
    accOf46 V c (t.val / 4) (t.val % 4)
      = k46_pay2 (iblk46 V c 0 t) (iblk46 V c 1 t) (accOf46 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf46_succ, iblk46_lhs_at V c t (4 * (t.val / 4) + (k + 1)) (by omega),
    iblk46_rhs_at V c t (4 * (t.val / 4) + (k + 1)) (by omega)]

/-! ## The accumulator and the output block, point by point, as pure functions of the blocks -/

/-- k = 0: the accumulator restarts from the zero block. -/
theorem outsAt46_first (c : Dev nD) (t : Fin cfg46.N) (h0 : t.val % 4 = 0) :
    (outsAt46 V c t.val t.isLt).2 = k46_pay2 (iblk46 V c 0 t) (iblk46 V c 1 t) (k46_pay1 (F := F)) := by
  rw [outsAt46_A V c t h0]
  dsimp only
  exact sout46_A_eq c (grid46.coords t) (ms46_0 t) (hs46_0 t) (ms46_1 t) (hs46_1 t) (ms46_2 t) (hs46_2 t) scM46 (Memref.isWhole_whole _) (isFirst46 t h0) (notLast46 t (by omega)) (iblk46 V c 0 t) (iblk46 V c 1 t)

/-- k ≠ 0: the point's product is added to what the point before left. -/
theorem outsAt46_next (c : Dev nD) (t : Fin cfg46.N) (h0 : ¬t.val % 4 = 0) :
    (outsAt46 V c t.val t.isLt).2
      = k46_pay2 (iblk46 V c 0 t) (iblk46 V c 1 t) (outsAt46 V c (t.val - 1) (Nat.lt_of_le_of_lt (Nat.sub_le _ _) t.isLt)).2 := by
  by_cases h3 : t.val % 4 = 3
  · rw [outsAt46_C V c t h0 h3]
    dsimp only
    exact sout46_C_eq c (grid46.coords t) (ms46_0 t) (hs46_0 t) (ms46_1 t) (hs46_1 t) (ms46_2 t) (hs46_2 t) scM46 (Memref.isWhole_whole _) (notFirst46 t h0) (isLast46 t h3) (iblk46 V c 0 t) (iblk46 V c 1 t)
      (outsAt46 V c (t.val - 1) (Nat.lt_of_le_of_lt (Nat.sub_le _ _) t.isLt)).2
  · rw [outsAt46_B V c t h0 h3]
    dsimp only
    exact sout46_B_eq c (grid46.coords t) (ms46_0 t) (hs46_0 t) (ms46_1 t) (hs46_1 t) (ms46_2 t) (hs46_2 t) scM46 (Memref.isWhole_whole _) (notFirst46 t h0) (notLast46 t h3) (iblk46 V c 0 t) (iblk46 V c 1 t)
      (outsAt46 V c (t.val - 1) (Nat.lt_of_le_of_lt (Nat.sub_le _ _) t.isLt)).2

/-- k = 3: the output block is the accumulator. -/
theorem outsAt46_last (c : Dev nD) (t : Fin cfg46.N) (h3 : t.val % 4 = 3) :
    (outsAt46 V c t.val t.isLt).1 = (outsAt46 V c t.val t.isLt).2 := by
  have h0 : ¬t.val % 4 = 0 := by omega
  rw [outsAt46_C V c t h0 h3]
  dsimp only
  exact (out46_C_eq c (grid46.coords t) (ms46_0 t) (hs46_0 t) (ms46_1 t) (hs46_1 t) (ms46_2 t) (hs46_2 t) scM46 (Memref.isWhole_whole _) (notFirst46 t h0) (isLast46 t h3) (iblk46 V c 0 t) (iblk46 V c 1 t)
      (outsAt46 V c (t.val - 1) (Nat.lt_of_le_of_lt (Nat.sub_le _ _) t.isLt)).2).trans
    (sout46_C_eq c (grid46.coords t) (ms46_0 t) (hs46_0 t) (ms46_1 t) (hs46_1 t) (ms46_2 t) (hs46_2 t) scM46 (Memref.isWhole_whole _) (notFirst46 t h0) (isLast46 t h3) (iblk46 V c 0 t) (iblk46 V c 1 t)
      (outsAt46 V c (t.val - 1) (Nat.lt_of_le_of_lt (Nat.sub_le _ _) t.isLt)).2).symm

/-! ## The accumulator is the fold -/

/-- After position `n` the accumulator holds row `n / 4`'s fold after its step `n % 4`: by induction on the position. -/
theorem outsAt46_acc_pos (c : Dev nD) :
    ∀ (n : ℕ) (hn : n < cfg46.N), (outsAt46 V c n hn).2 = accOf46 V c (n / 4) (n % 4) := by
  intro n
  induction n with
  | zero =>
    intro hn
    exact (outsAt46_first V c ⟨0, hn⟩ (Nat.zero_mod 4)).trans (accOf46_first V c ⟨0, hn⟩ (Nat.zero_mod 4)).symm
  | succ n ih =>
    intro hn
    by_cases h0 : (n + 1) % 4 = 0
    · exact (outsAt46_first V c ⟨n + 1, hn⟩ h0).trans (accOf46_first V c ⟨n + 1, hn⟩ h0).symm
    · refine (outsAt46_next V c ⟨n + 1, hn⟩ h0).trans (Eq.trans ?_ (accOf46_next V c ⟨n + 1, hn⟩ h0).symm)
      exact congrArg (k46_pay2 (iblk46 V c 0 ⟨n + 1, hn⟩) (iblk46 V c 1 ⟨n + 1, hn⟩)) (ih (Nat.lt_of_succ_lt hn))

/-- At every grid point the accumulator holds its row's fold after the point's step. -/
theorem outsAt46_acc (c : Dev nD) (t : Fin cfg46.N) :
    (outsAt46 V c t.val t.isLt).2 = accOf46 V c (t.val / 4) (t.val % 4) :=
  outsAt46_acc_pos V c t.val t.isLt

/-- At a row's last point the output block holds the row's whole fold. -/
theorem outsAt46_out (c : Dev nD) (t : Fin cfg46.N) (h3 : t.val % 4 = 3) :
    (outsAt46 V c t.val t.isLt).1 = accOf46 V c (t.val / 4) 3 := by
  have e := outsAt46_acc V c t
  rw [h3] at e
  exact (outsAt46_last V c t h3).trans e

end Cert.KernelIdeal.Hand

end
-- ==== Proof.ValKI46b.lean ====
/- Laid out by: python3 scratch/layout_regions.py --template-region 1 --region 46 --program KernelIdeal --prefix Val --parts a,b,c --sim main_v9=main_v7,main_v25=main_v256,main_v26=main_v257 --out-dir proof/Proof
   from the hand-written text of region 1 (ValKI1b.lean): the same text, the region's number substituted. -/
/-
  Region 46 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI46a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts46 : ∀ t : Fin cfg46.N,
    win46_0.index t (0 : Fin 2) = t.val / 4 ∧ win46_0.index t (1 : Fin 2) = t.val % 4
    ∧ win46_1.index t (0 : Fin 2) = t.val % 4 ∧ win46_1.index t (1 : Fin 2) = 0
    ∧ win46_2.index t (0 : Fin 2) = t.val / 4 ∧ win46_2.index t (1 : Fin 2) = 0 :=
  (by decide +kernel : ∀ t : Fin grid46.N,
    win46_0.index t (0 : Fin 2) = t.val / 4 ∧ win46_0.index t (1 : Fin 2) = t.val % 4
    ∧ win46_1.index t (0 : Fin 2) = t.val % 4 ∧ win46_1.index t (1 : Fin 2) = 0
    ∧ win46_2.index t (0 : Fin 2) = t.val / 4 ∧ win46_2.index t (1 : Fin 2) = 0)

/-! ## The output array as one function -/

/-- The whole output array: its row 1024 r + p, column q, is entry (p, q) of the block accumulated over k = 0 … 3 in
    block row r. -/
def whole46 (c : Dev nD) : S4096x512.Idx → Elt F .f32 := fun i =>
  accOf46 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole46_apply (c : Dev nD) (r : ℕ) (y : S1024x512.Idx) (i : S4096x512.Idx)
    (h0 : (i 0).val = 1024 * r + (y 0).val) (h1 : (i 1).val = (y 1).val) :
    whole46 V c i = accOf46 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole46
  rw [hr, e]

/-- Row 1024 r + p, column q of the array is entry (p, q) of block row r's accumulated block. -/
theorem whole46_ix2 (c : Dev nD) (r : Fin 4) (p : Fin 1024) (q : Fin 512) :
    whole46 V c (ix2 (n0 := 4096) (n1 := 512) ⟨1024 * r.val + p.val, by have := r.isLt; have := p.isLt; omega⟩ q)
      = accOf46 V c r.val 3 (ix2 p q) :=
  whole46_apply V c r.val (ix2 p q) _ rfl rfl

/-! ## What a point writes back -/

/-- A point with k = 3 writes back its block of the whole-array function. -/
theorem flushed46_eq (c : Dev nD) (t : Fin cfg46.N) (hf : (cfg46.win 2).flush t = true) :
    (dat46 V c).flushed 2 t = ((cfg46.win 2).blk t).view.read (Elt F) (whole46 V c) := by
  have h3 : t.val % 4 = 3 := (flush46_2 t).mp hf
  show (cfg46.win 2).cut (grid46.coords t) ((dat46 V c).after 2 t) = _
  rw [after46_2, outsAt46_out V c t h3]
  obtain ⟨-, -, -, -, e0, e1⟩ := idxFacts46 t
  funext j
  show accOf46 V c (t.val / 4) 3 j = whole46 V c (((cfg46.win 2).blk t).view.emb j)
  refine (whole46_apply V c (t.val / 4) j _ ?_ ?_).symm
  · show win46_2.index t (0 : Fin 2) * 1024 + 1 * (j 0).val = 1024 * (t.val / 4) + (j 0).val
    rw [e0]; omega
  · show win46_2.index t (1 : Fin 2) * 512 + 1 * (j 1).val = (j 1).val
    rw [e1]; omega

/-! ## The blocks written back cover the array -/

/-- An index is in a point's output block iff each coordinate is in the block's range on its axis. -/
theorem memBlk46 (t : Fin cfg46.N) (i : S4096x512.Idx) :
    i ∈ ((cfg46.win 2).blk t).view.set ↔ ∀ a : Fin 2, win46_2.index t a * S1024x512.size a ≤ (i a).val
      ∧ (i a).val < win46_2.index t a * S1024x512.size a + S1024x512.size a := by
  show i ∈ ((View.whole main_v257).slice (win46_2.rect t)).set ↔ _
  rw [View.set_slice_whole, Rect.mem_set_unit]
  exact Iff.rfl

/-- Row i of the array lies in the block written back at the point (i / 1024, 3). -/
theorem covered46 (i : S4096x512.Idx) :
    ∃ t : Fin cfg46.N, (cfg46.win 2).flush t = true ∧ i ∈ ((cfg46.win 2).blk t).view.set := by
  have hi0 : (i 0).val < 4096 := idx2_lt0 i
  have hi1 : (i 1).val < 512 := idx2_lt1 i
  have hN : cfg46.N = 16 := N_46
  obtain ⟨t, ht⟩ : ∃ t : Fin cfg46.N, t.val = 4 * ((i 0).val / 1024) + 3 :=
    ⟨⟨4 * ((i 0).val / 1024) + 3, by rw [hN]; omega⟩, rfl⟩
  refine ⟨t, (flush46_2 t).mpr (by omega), ?_⟩
  rw [memBlk46]
  obtain ⟨-, -, -, -, e0, e1⟩ := idxFacts46 t
  intro a
  match a with
  | ⟨0, _⟩ =>
    show win46_2.index t (0 : Fin 2) * 1024 ≤ (i 0).val ∧ (i 0).val < win46_2.index t (0 : Fin 2) * 1024 + 1024
    rw [e0]; omega
  | ⟨1, _⟩ =>
    show win46_2.index t (1 : Fin 2) * 512 ≤ (i 1).val ∧ (i 1).val < win46_2.index t (1 : Fin 2) * 512 + 512
    rw [e1]; omega

/-! ## The three arrays after the region -/

/-- The output array after the region is the whole-array function. -/
theorem final46_2 (c : Dev nD) : (dat46 V c).arrAt 2 cfg46.N = whole46 V c :=
  (dat46 V c).arrAt_eq_of_cover 2 (whole46 V c) (flushed46_eq V c) covered46

/-- The two input arrays are as the region found them. -/
theorem final46_0 (c : Dev nD) : (dat46 V c).arrAt 0 cfg46.N = V c main_v7 :=
  ((dat46 V c).arrAt_in 0 rfl cfg46.N).trans (A_eq46 V c 0)
theorem final46_1 (c : Dev nD) : (dat46 V c).arrAt 1 cfg46.N = V c main_v256 :=
  ((dat46 V c).arrAt_in 1 rfl cfg46.N).trans (A_eq46 V c 1)

/-! ## The input blocks as blocks of the operand arrays -/

/-- The left operand's block at the point (r, k): entry (y₀, y₁) is the array's entry (1024 r + y₀, 1024 k + y₁). -/
theorem iblk46_lhs_apply (c : Dev nD) (r k : Fin 4) (y : S1024x1024.Idx) (i : S4096x4096.Idx)
    (h0 : (i 0).val = 1024 * r.val + (y 0).val) (h1 : (i 1).val = 1024 * k.val + (y 1).val) :
    iblk46_lhs V c (4 * r.val + k.val) y = (V c main_v7 : S4096x4096.Idx → Elt F .bf16) i := by
  have hN : cfg46.N = 16 := N_46
  have hr := r.isLt
  have hk := k.isLt
  have hlt : 4 * r.val + k.val < cfg46.N := by rw [hN]; omega
  rw [iblk46_lhs_eq V c _ hlt]
  obtain ⟨e0, e1, -, -, -, -⟩ := idxFacts46 ⟨4 * r.val + k.val, hlt⟩
  have e0' : win46_0.index ⟨4 * r.val + k.val, hlt⟩ (0 : Fin 2) = (4 * r.val + k.val) / 4 := e0
  have e1' : win46_0.index ⟨4 * r.val + k.val, hlt⟩ (1 : Fin 2) = (4 * r.val + k.val) % 4 := e1
  unfold iblk46
  rw [View.read_apply]
  show V c main_v7 (((cfg46.win 0).blk ⟨4 * r.val + k.val, hlt⟩).view.emb y) = V c main_v7 i
  congr 1
  funext a
  apply Fin.ext
  match a with
  | ⟨0, _⟩ =>
    show win46_0.index ⟨4 * r.val + k.val, hlt⟩ (0 : Fin 2) * 1024 + 1 * (y 0).val = (i 0).val
    rw [e0', h0]; omega
  | ⟨1, _⟩ =>
    show win46_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk46_rhs_apply (c : Dev nD) (r k : Fin 4) (y : S1024x512.Idx) (i : S4096x512.Idx)
    (h0 : (i 0).val = 1024 * k.val + (y 0).val) (h1 : (i 1).val = (y 1).val) :
    iblk46_rhs V c (4 * r.val + k.val) y = (V c main_v256 : S4096x512.Idx → Elt F .f32) i := by
  have hN : cfg46.N = 16 := N_46
  have hr := r.isLt
  have hk := k.isLt
  have hlt : 4 * r.val + k.val < cfg46.N := by rw [hN]; omega
  rw [iblk46_rhs_eq V c _ hlt]
  obtain ⟨-, -, e0, e1, -, -⟩ := idxFacts46 ⟨4 * r.val + k.val, hlt⟩
  have e0' : win46_1.index ⟨4 * r.val + k.val, hlt⟩ (0 : Fin 2) = (4 * r.val + k.val) % 4 := e0
  have e1' : win46_1.index ⟨4 * r.val + k.val, hlt⟩ (1 : Fin 2) = 0 := e1
  unfold iblk46
  rw [View.read_apply]
  show V c main_v256 (((cfg46.win 1).blk ⟨4 * r.val + k.val, hlt⟩).view.emb y) = V c main_v256 i
  congr 1
  funext a
  apply Fin.ext
  match a with
  | ⟨0, _⟩ =>
    show win46_1.index ⟨4 * r.val + k.val, hlt⟩ (0 : Fin 2) * 1024 + 1 * (y 0).val = (i 0).val
    rw [e0', h0]; omega
  | ⟨1, _⟩ =>
    show win46_1.index ⟨4 * r.val + k.val, hlt⟩ (1 : Fin 2) * 512 + 1 * (y 1).val = (i 1).val
    rw [e1', h1]; omega

/-- The accumulated block after the fourth step, unfolded: four steps from the zero block. -/
theorem accOf46_three (c : Dev nD) (r : ℕ) :
    accOf46 V c r 3
      = k46_pay2 (iblk46_lhs V c (4 * r + 3)) (iblk46_rhs V c (4 * r + 3))
          (k46_pay2 (iblk46_lhs V c (4 * r + 2)) (iblk46_rhs V c (4 * r + 2))
            (k46_pay2 (iblk46_lhs V c (4 * r + 1)) (iblk46_rhs V c (4 * r + 1))
              (k46_pay2 (iblk46_lhs V c (4 * r)) (iblk46_rhs V c (4 * r)) (k46_pay1 (F := F))))) := rfl

end Cert.KernelIdeal.Hand

end
-- ==== Proof.ValKI46c.lean ====
/- Laid out by: python3 scratch/layout_regions.py --template-region 1 --region 46 --program KernelIdeal --prefix Val --parts a,b,c --sim main_v9=main_v7,main_v25=main_v256,main_v26=main_v257 --out-dir proof/Proof
   from the hand-written text of region 1 (ValKI1c.lean): the same text, the region's number substituted. -/
/-
  Region 46 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI46b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf46_step (x0 : Vec Ideal S1024x1024 .bf16) (x1 acc : Vec Ideal S1024x512 .f32) :
    k46_pay2 (F := Ideal) x0 x1 acc
      = Cert.MMLaw.accStep dot_S1024x1024_S1024x512_S1024x512_1_0_0_1_n_n none x0 x1 acc := by
  unfold k46_pay2
  simp only [shapeCast_self]
  rfl

/-- The accumulator starts from the zero block. -/
theorem accOf46_init (j : S1024x512.Idx) : k46_pay1 (F := Ideal) j = 0 := by
  unfold k46_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf46_eq_blk (c : Dev nD) (r : Fin 4) (D : DotDims S4096x4096 S4096x512 S4096x512) (hD : Cert.MMLaw.IsPlain D)
    (prec : Option ContractPrecision) :
    accOf46 V c r.val 3
      = Cert.MMLaw.blk (nr := 4) (nc := 1) 1024 512 rfl rfl (Cert.MMLaw.whole D prec (V c main_v7) (V c main_v256)) r 0 := by
  rw [accOf46_three]
  simp only [accOf46_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v7) (V c main_v256) r 0
    (fun k => iblk46_lhs V c (4 * r.val + k.val)) (fun k => iblk46_rhs V c (4 * r.val + k.val))
    (fun k => funext fun y => iblk46_lhs_apply V c r k y _ rfl rfl)
    (fun k => funext fun y => iblk46_rhs_apply V c r k y _ rfl (by show 512 * 0 + (y 1).val = (y 1).val; omega))
    (k46_pay1 (F := Ideal)) accOf46_init

/-! ## The output array after the region is the whole product -/

/-- The region leaves in its output array the product of its two operand arrays. -/
theorem final46_2_eq_whole (c : Dev nD) (D : DotDims S4096x4096 S4096x512 S4096x512) (hD : Cert.MMLaw.IsPlain D)
    (prec : Option ContractPrecision) :
    (dat46 (F := Ideal) V c).arrAt 2 cfg46.N = Cert.MMLaw.whole D prec (V c main_v7) (V c main_v256) := by
  rw [final46_2]
  funext i
  have hi0 : (i 0).val < 4096 := idx2_lt0 i
  have h := congrFun (accOf46_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final46_2_eq_dot (c : Dev nD) (D : DotDims S4096x4096 S4096x512 S4096x512) (hD : Cert.MMLaw.IsPlain D)
    (prec : Option ContractPrecision) :
    (dat46 (F := Ideal) V c).arrAt 2 cfg46.N = Host.dotGeneral (F := Ideal) (φ₁ := .bf16) (φ₂ := .f32) D prec (V c main_v7) (V c main_v256) :=
  final46_2_eq_whole V c D hD prec

end Cert.KernelIdeal.Hand

end
-- ==== Proof.ValKI47a.lean ====
/- Laid out by: python3 scratch/layout_regions.py --template-region 1 --region 47 --program KernelIdeal --prefix Val --parts a,b,c --sim main_v9=main_v8,main_v25=main_v259,main_v26=main_v261 --out-dir proof/Proof
   from the hand-written text of region 1 (ValKI1a.lean): the same text, the region's number substituted. -/
/-
  Region 47 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k47_pay1` (the zero block) and `k47_pay2` (accumulator plus product) are the two stores' payloads.

  So along one row of blocks r the accumulator after its step k is the left fold
    accOf47 r 0 = pay2 (a (r, 0)) (b 0) pay1,    accOf47 r (k + 1) = pay2 (a (r, k + 1)) (b (k + 1)) (accOf47 r k),
  the grid point (r, k) being position 4 r + k; and at k = 3 the output block holds accOf47 r 3.
-/
import proofs.«158944_j64613488001249_1_alg».proof.Proof.RegKI47
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout47_A_eq (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond47_0 i) (hc1 : ¬cond47_1 i)
    (x0 : Vec F S1024x1024 .bf16) (x1 : Vec F S1024x512 .f32) :
    sout47_A c i arg2 harg2 arg3 harg3 arg4 harg4 arg5 harg5 hc0 hc1 x0 x1 = k47_pay2 x0 x1 (k47_pay1 (F := F)) := by
  have hz : (![0, 0] : Fin 2 → Nat) = fun _ => 0 := funext fun a => by fin_cases a <;> rfl
  unfold sout47_A
  rw [View.read_writes_eq_canon _ _ _ (scover47_A c i arg2 harg2 arg3 harg3 arg4 harg4 arg5 harg5 hc0 hc1 x0 x1)]
  unfold kernelRun47_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout47_B_eq (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond47_0 i) (hc1 : ¬cond47_1 i)
    (x0 : Vec F S1024x1024 .bf16) (x1 : Vec F S1024x512 .f32) (xs0 : Vec F S1024x512 .f32) :
    sout47_B c i arg2 harg2 arg3 harg3 arg4 harg4 arg5 harg5 hc0 hc1 x0 x1 xs0 = k47_pay2 x0 x1 xs0 := by
  have hz : (![0, 0] : Fin 2 → Nat) = fun _ => 0 := funext fun a => by fin_cases a <;> rfl
  unfold sout47_B
  rw [View.read_writes_eq_canon _ _ _ (scover47_B c i arg2 harg2 arg3 harg3 arg4 harg4 arg5 harg5 hc0 hc1 x0 x1 xs0)]
  unfold kernelRun47_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout47_C_eq (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond47_0 i) (hc1 : cond47_1 i)
    (x0 : Vec F S1024x1024 .bf16) (x1 : Vec F S1024x512 .f32) (xs0 : Vec F S1024x512 .f32) :
    sout47_C c i arg2 harg2 arg3 harg3 arg4 harg4 arg5 harg5 hc0 hc1 x0 x1 xs0 = k47_pay2 x0 x1 xs0 := by
  have hz : (![0, 0] : Fin 2 → Nat) = fun _ => 0 := funext fun a => by fin_cases a <;> rfl
  unfold sout47_C
  rw [View.read_writes_eq_canon _ _ _ (scover47_C c i arg2 harg2 arg3 harg3 arg4 harg4 arg5 harg5 hc0 hc1 x0 x1 xs0)]
  unfold kernelRun47_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out47_C_eq (c : Dev nD) (i : grid47.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond47_0 i) (hc1 : cond47_1 i)
    (x0 : Vec F S1024x1024 .bf16) (x1 : Vec F S1024x512 .f32) (xs0 : Vec F S1024x512 .f32) :
    out47_C c i arg2 harg2 arg3 harg3 arg4 harg4 arg5 harg5 hc0 hc1 x0 x1 xs0 = k47_pay2 x0 x1 xs0 := by
  have hz : (![0, 0] : Fin 2 → Nat) = fun _ => 0 := funext fun a => by fin_cases a <;> rfl
  unfold out47_C
  rw [View.read_writes_eq_canon _ _ _ (cover47_C c i arg2 harg2 arg3 harg3 arg4 harg4 arg5 harg5 hc0 hc1 x0 x1 xs0)]
  unfold kernelRun47_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk47_lhs (c : Dev nD) (n : ℕ) : Vec F S1024x1024 .bf16 :=
  if h : n < cfg47.N then iblk47 V c 0 ⟨n, h⟩ else iblk47 V c 0 ⟨0, by have h : cfg47.N = 16 := N_47; omega⟩
/-- The right factor's block at grid position `n`. -/
def iblk47_rhs (c : Dev nD) (n : ℕ) : Vec F S1024x512 .f32 :=
  if h : n < cfg47.N then iblk47 V c 1 ⟨n, h⟩ else iblk47 V c 1 ⟨0, by have h : cfg47.N = 16 := N_47; omega⟩

theorem iblk47_lhs_eq (c : Dev nD) (n : ℕ) (h : n < cfg47.N) : iblk47_lhs V c n = iblk47 V c 0 ⟨n, h⟩ := dif_pos h
theorem iblk47_rhs_eq (c : Dev nD) (n : ℕ) (h : n < cfg47.N) : iblk47_rhs V c n = iblk47 V c 1 ⟨n, h⟩ := dif_pos h

/-! ## The accumulator along one row of blocks -/

/-- Row of blocks `r`, after its step `k`: the zero block plus the products of the blocks at positions 4 r, …, 4 r + k,
    added in that order. -/
def accOf47 (c : Dev nD) (r : ℕ) : ℕ → Vec F S1024x512 .f32
  | 0 => k47_pay2 (iblk47_lhs V c (4 * r)) (iblk47_rhs V c (4 * r)) (k47_pay1 (F := F))
  | k + 1 => k47_pay2 (iblk47_lhs V c (4 * r + (k + 1))) (iblk47_rhs V c (4 * r + (k + 1))) (accOf47 c r k)

theorem accOf47_zero (c : Dev nD) (r : ℕ) :
    accOf47 V c r 0 = k47_pay2 (iblk47_lhs V c (4 * r)) (iblk47_rhs V c (4 * r)) (k47_pay1 (F := F)) := rfl
theorem accOf47_succ (c : Dev nD) (r k : ℕ) :
    accOf47 V c r (k + 1) = k47_pay2 (iblk47_lhs V c (4 * r + (k + 1))) (iblk47_rhs V c (4 * r + (k + 1))) (accOf47 V c r k) := rfl

theorem iblk47_lhs_at (c : Dev nD) (t : Fin cfg47.N) (n : ℕ) (hn : n = t.val) : iblk47_lhs V c n = iblk47 V c 0 t := by
  subst hn; unfold iblk47_lhs; exact dif_pos t.isLt
theorem iblk47_rhs_at (c : Dev nD) (t : Fin cfg47.N) (n : ℕ) (hn : n = t.val) : iblk47_rhs V c n = iblk47 V c 1 t := by
  subst hn; unfold iblk47_rhs; exact dif_pos t.isLt

/-- At a grid point with k = 0 the fold starts: the zero block plus the product of the point's two blocks. -/
theorem accOf47_first (c : Dev nD) (t : Fin cfg47.N) (h0 : t.val % 4 = 0) :
    accOf47 V c (t.val / 4) (t.val % 4) = k47_pay2 (iblk47 V c 0 t) (iblk47 V c 1 t) (k47_pay1 (F := F)) := by
  rw [h0, accOf47_zero, iblk47_lhs_at V c t (4 * (t.val / 4)) (by omega), iblk47_rhs_at V c t (4 * (t.val / 4)) (by omega)]

/-- At a grid point with k ≠ 0 the fold takes one step from the position before, which is in the same row of blocks. -/
theorem accOf47_next (c : Dev nD) (t : Fin cfg47.N) (h0 : ¬t.val % 4 = 0) :
    accOf47 V c (t.val / 4) (t.val % 4)
      = k47_pay2 (iblk47 V c 0 t) (iblk47 V c 1 t) (accOf47 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf47_succ, iblk47_lhs_at V c t (4 * (t.val / 4) + (k + 1)) (by omega),
    iblk47_rhs_at V c t (4 * (t.val / 4) + (k + 1)) (by omega)]

/-! ## The accumulator and the output block, point by point, as pure functions of the blocks -/

/-- k = 0: the accumulator restarts from the zero block. -/
theorem outsAt47_first (c : Dev nD) (t : Fin cfg47.N) (h0 : t.val % 4 = 0) :
    (outsAt47 V c t.val t.isLt).2 = k47_pay2 (iblk47 V c 0 t) (iblk47 V c 1 t) (k47_pay1 (F := F)) := by
  rw [outsAt47_A V c t h0]
  dsimp only
  exact sout47_A_eq c (grid47.coords t) (ms47_0 t) (hs47_0 t) (ms47_1 t) (hs47_1 t) (ms47_2 t) (hs47_2 t) scM47 (Memref.isWhole_whole _) (isFirst47 t h0) (notLast47 t (by omega)) (iblk47 V c 0 t) (iblk47 V c 1 t)

/-- k ≠ 0: the point's product is added to what the point before left. -/
theorem outsAt47_next (c : Dev nD) (t : Fin cfg47.N) (h0 : ¬t.val % 4 = 0) :
    (outsAt47 V c t.val t.isLt).2
      = k47_pay2 (iblk47 V c 0 t) (iblk47 V c 1 t) (outsAt47 V c (t.val - 1) (Nat.lt_of_le_of_lt (Nat.sub_le _ _) t.isLt)).2 := by
  by_cases h3 : t.val % 4 = 3
  · rw [outsAt47_C V c t h0 h3]
    dsimp only
    exact sout47_C_eq c (grid47.coords t) (ms47_0 t) (hs47_0 t) (ms47_1 t) (hs47_1 t) (ms47_2 t) (hs47_2 t) scM47 (Memref.isWhole_whole _) (notFirst47 t h0) (isLast47 t h3) (iblk47 V c 0 t) (iblk47 V c 1 t)
      (outsAt47 V c (t.val - 1) (Nat.lt_of_le_of_lt (Nat.sub_le _ _) t.isLt)).2
  · rw [outsAt47_B V c t h0 h3]
    dsimp only
    exact sout47_B_eq c (grid47.coords t) (ms47_0 t) (hs47_0 t) (ms47_1 t) (hs47_1 t) (ms47_2 t) (hs47_2 t) scM47 (Memref.isWhole_whole _) (notFirst47 t h0) (notLast47 t h3) (iblk47 V c 0 t) (iblk47 V c 1 t)
      (outsAt47 V c (t.val - 1) (Nat.lt_of_le_of_lt (Nat.sub_le _ _) t.isLt)).2

/-- k = 3: the output block is the accumulator. -/
theorem outsAt47_last (c : Dev nD) (t : Fin cfg47.N) (h3 : t.val % 4 = 3) :
    (outsAt47 V c t.val t.isLt).1 = (outsAt47 V c t.val t.isLt).2 := by
  have h0 : ¬t.val % 4 = 0 := by omega
  rw [outsAt47_C V c t h0 h3]
  dsimp only
  exact (out47_C_eq c (grid47.coords t) (ms47_0 t) (hs47_0 t) (ms47_1 t) (hs47_1 t) (ms47_2 t) (hs47_2 t) scM47 (Memref.isWhole_whole _) (notFirst47 t h0) (isLast47 t h3) (iblk47 V c 0 t) (iblk47 V c 1 t)
      (outsAt47 V c (t.val - 1) (Nat.lt_of_le_of_lt (Nat.sub_le _ _) t.isLt)).2).trans
    (sout47_C_eq c (grid47.coords t) (ms47_0 t) (hs47_0 t) (ms47_1 t) (hs47_1 t) (ms47_2 t) (hs47_2 t) scM47 (Memref.isWhole_whole _) (notFirst47 t h0) (isLast47 t h3) (iblk47 V c 0 t) (iblk47 V c 1 t)
      (outsAt47 V c (t.val - 1) (Nat.lt_of_le_of_lt (Nat.sub_le _ _) t.isLt)).2).symm

/-! ## The accumulator is the fold -/

/-- After position `n` the accumulator holds row `n / 4`'s fold after its step `n % 4`: by induction on the position. -/
theorem outsAt47_acc_pos (c : Dev nD) :
    ∀ (n : ℕ) (hn : n < cfg47.N), (outsAt47 V c n hn).2 = accOf47 V c (n / 4) (n % 4) := by
  intro n
  induction n with
  | zero =>
    intro hn
    exact (outsAt47_first V c ⟨0, hn⟩ (Nat.zero_mod 4)).trans (accOf47_first V c ⟨0, hn⟩ (Nat.zero_mod 4)).symm
  | succ n ih =>
    intro hn
    by_cases h0 : (n + 1) % 4 = 0
    · exact (outsAt47_first V c ⟨n + 1, hn⟩ h0).trans (accOf47_first V c ⟨n + 1, hn⟩ h0).symm
    · refine (outsAt47_next V c ⟨n + 1, hn⟩ h0).trans (Eq.trans ?_ (accOf47_next V c ⟨n + 1, hn⟩ h0).symm)
      exact congrArg (k47_pay2 (iblk47 V c 0 ⟨n + 1, hn⟩) (iblk47 V c 1 ⟨n + 1, hn⟩)) (ih (Nat.lt_of_succ_lt hn))

/-- At every grid point the accumulator holds its row's fold after the point's step. -/
theorem outsAt47_acc (c : Dev nD) (t : Fin cfg47.N) :
    (outsAt47 V c t.val t.isLt).2 = accOf47 V c (t.val / 4) (t.val % 4) :=
  outsAt47_acc_pos V c t.val t.isLt

/-- At a row's last point the output block holds the row's whole fold. -/
theorem outsAt47_out (c : Dev nD) (t : Fin cfg47.N) (h3 : t.val % 4 = 3) :
    (outsAt47 V c t.val t.isLt).1 = accOf47 V c (t.val / 4) 3 := by
  have e := outsAt47_acc V c t
  rw [h3] at e
  exact (outsAt47_last V c t h3).trans e

end Cert.KernelIdeal.Hand

end
-- ==== Proof.ValKI47b.lean ====
/- Laid out by: python3 scratch/layout_regions.py --template-region 1 --region 47 --program KernelIdeal --prefix Val --parts a,b,c --sim main_v9=main_v8,main_v25=main_v259,main_v26=main_v261 --out-dir proof/Proof
   from the hand-written text of region 1 (ValKI1b.lean): the same text, the region's number substituted. -/
/-
  Region 47 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI47a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts47 : ∀ t : Fin cfg47.N,
    win47_0.index t (0 : Fin 2) = t.val / 4 ∧ win47_0.index t (1 : Fin 2) = t.val % 4
    ∧ win47_1.index t (0 : Fin 2) = t.val % 4 ∧ win47_1.index t (1 : Fin 2) = 0
    ∧ win47_2.index t (0 : Fin 2) = t.val / 4 ∧ win47_2.index t (1 : Fin 2) = 0 :=
  (by decide +kernel : ∀ t : Fin grid47.N,
    win47_0.index t (0 : Fin 2) = t.val / 4 ∧ win47_0.index t (1 : Fin 2) = t.val % 4
    ∧ win47_1.index t (0 : Fin 2) = t.val % 4 ∧ win47_1.index t (1 : Fin 2) = 0
    ∧ win47_2.index t (0 : Fin 2) = t.val / 4 ∧ win47_2.index t (1 : Fin 2) = 0)

/-! ## The output array as one function -/

/-- The whole output array: its row 1024 r + p, column q, is entry (p, q) of the block accumulated over k = 0 … 3 in
    block row r. -/
def whole47 (c : Dev nD) : S4096x512.Idx → Elt F .f32 := fun i =>
  accOf47 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole47_apply (c : Dev nD) (r : ℕ) (y : S1024x512.Idx) (i : S4096x512.Idx)
    (h0 : (i 0).val = 1024 * r + (y 0).val) (h1 : (i 1).val = (y 1).val) :
    whole47 V c i = accOf47 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole47
  rw [hr, e]

/-- Row 1024 r + p, column q of the array is entry (p, q) of block row r's accumulated block. -/
theorem whole47_ix2 (c : Dev nD) (r : Fin 4) (p : Fin 1024) (q : Fin 512) :
    whole47 V c (ix2 (n0 := 4096) (n1 := 512) ⟨1024 * r.val + p.val, by have := r.isLt; have := p.isLt; omega⟩ q)
      = accOf47 V c r.val 3 (ix2 p q) :=
  whole47_apply V c r.val (ix2 p q) _ rfl rfl

/-! ## What a point writes back -/

/-- A point with k = 3 writes back its block of the whole-array function. -/
theorem flushed47_eq (c : Dev nD) (t : Fin cfg47.N) (hf : (cfg47.win 2).flush t = true) :
    (dat47 V c).flushed 2 t = ((cfg47.win 2).blk t).view.read (Elt F) (whole47 V c) := by
  have h3 : t.val % 4 = 3 := (flush47_2 t).mp hf
  show (cfg47.win 2).cut (grid47.coords t) ((dat47 V c).after 2 t) = _
  rw [after47_2, outsAt47_out V c t h3]
  obtain ⟨-, -, -, -, e0, e1⟩ := idxFacts47 t
  funext j
  show accOf47 V c (t.val / 4) 3 j = whole47 V c (((cfg47.win 2).blk t).view.emb j)
  refine (whole47_apply V c (t.val / 4) j _ ?_ ?_).symm
  · show win47_2.index t (0 : Fin 2) * 1024 + 1 * (j 0).val = 1024 * (t.val / 4) + (j 0).val
    rw [e0]; omega
  · show win47_2.index t (1 : Fin 2) * 512 + 1 * (j 1).val = (j 1).val
    rw [e1]; omega

/-! ## The blocks written back cover the array -/

/-- An index is in a point's output block iff each coordinate is in the block's range on its axis. -/
theorem memBlk47 (t : Fin cfg47.N) (i : S4096x512.Idx) :
    i ∈ ((cfg47.win 2).blk t).view.set ↔ ∀ a : Fin 2, win47_2.index t a * S1024x512.size a ≤ (i a).val
      ∧ (i a).val < win47_2.index t a * S1024x512.size a + S1024x512.size a := by
  show i ∈ ((View.whole main_v261).slice (win47_2.rect t)).set ↔ _
  rw [View.set_slice_whole, Rect.mem_set_unit]
  exact Iff.rfl

/-- Row i of the array lies in the block written back at the point (i / 1024, 3). -/
theorem covered47 (i : S4096x512.Idx) :
    ∃ t : Fin cfg47.N, (cfg47.win 2).flush t = true ∧ i ∈ ((cfg47.win 2).blk t).view.set := by
  have hi0 : (i 0).val < 4096 := idx2_lt0 i
  have hi1 : (i 1).val < 512 := idx2_lt1 i
  have hN : cfg47.N = 16 := N_47
  obtain ⟨t, ht⟩ : ∃ t : Fin cfg47.N, t.val = 4 * ((i 0).val / 1024) + 3 :=
    ⟨⟨4 * ((i 0).val / 1024) + 3, by rw [hN]; omega⟩, rfl⟩
  refine ⟨t, (flush47_2 t).mpr (by omega), ?_⟩
  rw [memBlk47]
  obtain ⟨-, -, -, -, e0, e1⟩ := idxFacts47 t
  intro a
  match a with
  | ⟨0, _⟩ =>
    show win47_2.index t (0 : Fin 2) * 1024 ≤ (i 0).val ∧ (i 0).val < win47_2.index t (0 : Fin 2) * 1024 + 1024
    rw [e0]; omega
  | ⟨1, _⟩ =>
    show win47_2.index t (1 : Fin 2) * 512 ≤ (i 1).val ∧ (i 1).val < win47_2.index t (1 : Fin 2) * 512 + 512
    rw [e1]; omega

/-! ## The three arrays after the region -/

/-- The output array after the region is the whole-array function. -/
theorem final47_2 (c : Dev nD) : (dat47 V c).arrAt 2 cfg47.N = whole47 V c :=
  (dat47 V c).arrAt_eq_of_cover 2 (whole47 V c) (flushed47_eq V c) covered47

/-- The two input arrays are as the region found them. -/
theorem final47_0 (c : Dev nD) : (dat47 V c).arrAt 0 cfg47.N = V c main_v8 :=
  ((dat47 V c).arrAt_in 0 rfl cfg47.N).trans (A_eq47 V c 0)
theorem final47_1 (c : Dev nD) : (dat47 V c).arrAt 1 cfg47.N = V c main_v259 :=
  ((dat47 V c).arrAt_in 1 rfl cfg47.N).trans (A_eq47 V c 1)

/-! ## The input blocks as blocks of the operand arrays -/

/-- The left operand's block at the point (r, k): entry (y₀, y₁) is the array's entry (1024 r + y₀, 1024 k + y₁). -/
theorem iblk47_lhs_apply (c : Dev nD) (r k : Fin 4) (y : S1024x1024.Idx) (i : S4096x4096.Idx)
    (h0 : (i 0).val = 1024 * r.val + (y 0).val) (h1 : (i 1).val = 1024 * k.val + (y 1).val) :
    iblk47_lhs V c (4 * r.val + k.val) y = (V c main_v8 : S4096x4096.Idx → Elt F .bf16) i := by
  have hN : cfg47.N = 16 := N_47
  have hr := r.isLt
  have hk := k.isLt
  have hlt : 4 * r.val + k.val < cfg47.N := by rw [hN]; omega
  rw [iblk47_lhs_eq V c _ hlt]
  obtain ⟨e0, e1, -, -, -, -⟩ := idxFacts47 ⟨4 * r.val + k.val, hlt⟩
  have e0' : win47_0.index ⟨4 * r.val + k.val, hlt⟩ (0 : Fin 2) = (4 * r.val + k.val) / 4 := e0
  have e1' : win47_0.index ⟨4 * r.val + k.val, hlt⟩ (1 : Fin 2) = (4 * r.val + k.val) % 4 := e1
  unfold iblk47
  rw [View.read_apply]
  show V c main_v8 (((cfg47.win 0).blk ⟨4 * r.val + k.val, hlt⟩).view.emb y) = V c main_v8 i
  congr 1
  funext a
  apply Fin.ext
  match a with
  | ⟨0, _⟩ =>
    show win47_0.index ⟨4 * r.val + k.val, hlt⟩ (0 : Fin 2) * 1024 + 1 * (y 0).val = (i 0).val
    rw [e0', h0]; omega
  | ⟨1, _⟩ =>
    show win47_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk47_rhs_apply (c : Dev nD) (r k : Fin 4) (y : S1024x512.Idx) (i : S4096x512.Idx)
    (h0 : (i 0).val = 1024 * k.val + (y 0).val) (h1 : (i 1).val = (y 1).val) :
    iblk47_rhs V c (4 * r.val + k.val) y = (V c main_v259 : S4096x512.Idx → Elt F .f32) i := by
  have hN : cfg47.N = 16 := N_47
  have hr := r.isLt
  have hk := k.isLt
  have hlt : 4 * r.val + k.val < cfg47.N := by rw [hN]; omega
  rw [iblk47_rhs_eq V c _ hlt]
  obtain ⟨-, -, e0, e1, -, -⟩ := idxFacts47 ⟨4 * r.val + k.val, hlt⟩
  have e0' : win47_1.index ⟨4 * r.val + k.val, hlt⟩ (0 : Fin 2) = (4 * r.val + k.val) % 4 := e0
  have e1' : win47_1.index ⟨4 * r.val + k.val, hlt⟩ (1 : Fin 2) = 0 := e1
  unfold iblk47
  rw [View.read_apply]
  show V c main_v259 (((cfg47.win 1).blk ⟨4 * r.val + k.val, hlt⟩).view.emb y) = V c main_v259 i
  congr 1
  funext a
  apply Fin.ext
  match a with
  | ⟨0, _⟩ =>
    show win47_1.index ⟨4 * r.val + k.val, hlt⟩ (0 : Fin 2) * 1024 + 1 * (y 0).val = (i 0).val
    rw [e0', h0]; omega
  | ⟨1, _⟩ =>
    show win47_1.index ⟨4 * r.val + k.val, hlt⟩ (1 : Fin 2) * 512 + 1 * (y 1).val = (i 1).val
    rw [e1', h1]; omega

/-- The accumulated block after the fourth step, unfolded: four steps from the zero block. -/
theorem accOf47_three (c : Dev nD) (r : ℕ) :
    accOf47 V c r 3
      = k47_pay2 (iblk47_lhs V c (4 * r + 3)) (iblk47_rhs V c (4 * r + 3))
          (k47_pay2 (iblk47_lhs V c (4 * r + 2)) (iblk47_rhs V c (4 * r + 2))
            (k47_pay2 (iblk47_lhs V c (4 * r + 1)) (iblk47_rhs V c (4 * r + 1))
              (k47_pay2 (iblk47_lhs V c (4 * r)) (iblk47_rhs V c (4 * r)) (k47_pay1 (F := F))))) := rfl

end Cert.KernelIdeal.Hand

end
-- ==== Proof.ValKI47c.lean ====
/- Laid out by: python3 scratch/layout_regions.py --template-region 1 --region 47 --program KernelIdeal --prefix Val --parts a,b,c --sim main_v9=main_v8,main_v25=main_v259,main_v26=main_v261 --out-dir proof/Proof
   from the hand-written text of region 1 (ValKI1c.lean): the same text, the region's number substituted. -/
/-
  Region 47 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI47b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf47_step (x0 : Vec Ideal S1024x1024 .bf16) (x1 acc : Vec Ideal S1024x512 .f32) :
    k47_pay2 (F := Ideal) x0 x1 acc
      = Cert.MMLaw.accStep dot_S1024x1024_S1024x512_S1024x512_1_0_0_1_n_n none x0 x1 acc := by
  unfold k47_pay2
  simp only [shapeCast_self]
  rfl

/-- The accumulator starts from the zero block. -/
theorem accOf47_init (j : S1024x512.Idx) : k47_pay1 (F := Ideal) j = 0 := by
  unfold k47_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf47_eq_blk (c : Dev nD) (r : Fin 4) (D : DotDims S4096x4096 S4096x512 S4096x512) (hD : Cert.MMLaw.IsPlain D)
    (prec : Option ContractPrecision) :
    accOf47 V c r.val 3
      = Cert.MMLaw.blk (nr := 4) (nc := 1) 1024 512 rfl rfl (Cert.MMLaw.whole D prec (V c main_v8) (V c main_v259)) r 0 := by
  rw [accOf47_three]
  simp only [accOf47_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v8) (V c main_v259) r 0
    (fun k => iblk47_lhs V c (4 * r.val + k.val)) (fun k => iblk47_rhs V c (4 * r.val + k.val))
    (fun k => funext fun y => iblk47_lhs_apply V c r k y _ rfl rfl)
    (fun k => funext fun y => iblk47_rhs_apply V c r k y _ rfl (by show 512 * 0 + (y 1).val = (y 1).val; omega))
    (k47_pay1 (F := Ideal)) accOf47_init

/-! ## The output array after the region is the whole product -/

/-- The region leaves in its output array the product of its two operand arrays. -/
theorem final47_2_eq_whole (c : Dev nD) (D : DotDims S4096x4096 S4096x512 S4096x512) (hD : Cert.MMLaw.IsPlain D)
    (prec : Option ContractPrecision) :
    (dat47 (F := Ideal) V c).arrAt 2 cfg47.N = Cert.MMLaw.whole D prec (V c main_v8) (V c main_v259) := by
  rw [final47_2]
  funext i
  have hi0 : (i 0).val < 4096 := idx2_lt0 i
  have h := congrFun (accOf47_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final47_2_eq_dot (c : Dev nD) (D : DotDims S4096x4096 S4096x512 S4096x512) (hD : Cert.MMLaw.IsPlain D)
    (prec : Option ContractPrecision) :
    (dat47 (F := Ideal) V c).arrAt 2 cfg47.N = Host.dotGeneral (F := Ideal) (φ₁ := .bf16) (φ₂ := .f32) D prec (V c main_v8) (V c main_v259) :=
  final47_2_eq_whole V c D hD prec

end Cert.KernelIdeal.Hand

end
-- ==== Proof.ValKI48a.lean ====
/- Laid out by: python3 scratch/layout_grid41.py --prefix Val --template-region 0 --region 48 --program KernelIdeal --parts a,b --shapes S1024x128=S1024x512,S128x512=S512x512,S1024x512=S1024x512,S4096x128=S4096x512,S4096x512=S4096x512,main_arg0=main_v264,main_v12=main_v10,main_v17=main_v265,h0=h0,e0=e0,hi0=hi0,x0=x0
   from the hand-written text of region 0 (ValKI0a.lean): the same text, the region's number, block shapes, operand arrays substituted. -/
/-
  Region 48 of @main: from the output blocks to the whole output array.

  The grid is [4, 1]: the point t is block row t, and the reduction axis has one step, so every point zeroes the
  accumulator, adds the product of its two input blocks, and writes the sum back. The output window's block at t is
  rows 1024 t … 1024 t + 1023 of the result, written back at every point. So the array after the region is ONE function
  of the index: row 1024 r + p, column q holds entry (p, q) of the block the point r leaves. The steps: the three windows'
  block indices decided once over the grid; what a point writes back is its block of that function; the four blocks
  written back cover the array (row i lies in the block of the point i / 1024); hence the array after the region. The two
  operand arrays are not written. Last, each input block as a block of its operand array: the left operand's block at the
  point t is its rows 1024 t … 1024 t + 1023 (every column), the right operand's block is the whole array at every point.
-/
import proofs.«158944_j64613488001249_1_alg».proof.Proof.RegKI48
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t the left operand's block is (t, 0), the right operand's (0, 0), the output's (t, 0). -/
theorem idxFacts48 : ∀ t : Fin cfg48.N,
    win48_0.index t (0 : Fin 2) = t.val ∧ win48_0.index t (1 : Fin 2) = 0
    ∧ win48_1.index t (0 : Fin 2) = 0 ∧ win48_1.index t (1 : Fin 2) = 0
    ∧ win48_2.index t (0 : Fin 2) = t.val ∧ win48_2.index t (1 : Fin 2) = 0 :=
  (by decide +kernel : ∀ t : Fin grid48.N,
    win48_0.index t (0 : Fin 2) = t.val ∧ win48_0.index t (1 : Fin 2) = 0
    ∧ win48_1.index t (0 : Fin 2) = 0 ∧ win48_1.index t (1 : Fin 2) = 0
    ∧ win48_2.index t (0 : Fin 2) = t.val ∧ win48_2.index t (1 : Fin 2) = 0)

/-! ## The block a point leaves -/

/-- The block the point at grid position n leaves: the zero block plus the product of the point's two input blocks
    (past the grid's end, where nothing consults it, the block of position 0). -/
def accOf48 (c : Dev nD) (n : ℕ) : Vec F S1024x512 .f32 :=
  if h : n < cfg48.N then k48_pay2 (iblk48 V c 0 ⟨n, h⟩) (iblk48 V c 1 ⟨n, h⟩) (k48_pay1 (F := F))
  else k48_pay2 (iblk48 V c 0 ⟨0, by have h : cfg48.N = 4 := N_48; omega⟩)
    (iblk48 V c 1 ⟨0, by have h : cfg48.N = 4 := N_48; omega⟩) (k48_pay1 (F := F))

theorem accOf48_eq (c : Dev nD) (t : Fin cfg48.N) :
    accOf48 V c t.val = k48_pay2 (iblk48 V c 0 t) (iblk48 V c 1 t) (k48_pay1 (F := F)) := by
  unfold accOf48; exact dif_pos t.isLt

/-- At every point the output block holds that block. -/
theorem outsAt48_out (c : Dev nD) (t : Fin cfg48.N) : (outsAt48 V c t.val t.isLt).1 = accOf48 V c t.val :=
  (outsAt48_last V c t).trans ((outsAt48_first V c t).trans (accOf48_eq V c t).symm)

/-! ## The output array as one function -/

/-- The whole output array: its row 1024 r + p, column q, is entry (p, q) of the block the point r leaves. -/
def whole48 (c : Dev nD) : S4096x512.Idx → Elt F .f32 := fun i =>
  accOf48 V c ((i 0).val / 1024)
    (ix2 ⟨(i 0).val % 1024, Nat.mod_lt _ (by decide)⟩ ⟨(i 1).val, idx2_lt1 i⟩)

/-- The array read at an index given by a block row r and a position y inside the block. -/
theorem whole48_apply (c : Dev nD) (r : ℕ) (y : S1024x512.Idx) (i : S4096x512.Idx)
    (h0 : (i 0).val = 1024 * r + (y 0).val) (h1 : (i 1).val = (y 1).val) :
    whole48 V c i = accOf48 V c r y := by
  have hy : (y 0).val < 1024 := idx2_lt0 y
  have hr : (i 0).val / 1024 = r := by omega
  have hp : (i 0).val % 1024 = (y 0).val := by omega
  have e : (ix2 ⟨(i 0).val % 1024, Nat.mod_lt _ (by decide)⟩ ⟨(i 1).val, idx2_lt1 i⟩ : S1024x512.Idx) = y :=
    funext fun a => match a with
      | ⟨0, _⟩ => Fin.ext hp
      | ⟨1, _⟩ => Fin.ext h1
  unfold whole48
  rw [hr, e]

/-- Row 1024 r + p, column q of the array is entry (p, q) of the block the point r leaves. -/
theorem whole48_ix2 (c : Dev nD) (r : Fin 4) (p : Fin 1024) (q : Fin (S1024x512.size 1)) :
    whole48 V c (ix2 ⟨1024 * r.val + p.val, by have := r.isLt; have := p.isLt; omega⟩ q)
      = accOf48 V c r.val (ix2 p q) :=
  whole48_apply V c r.val (ix2 p q) _ rfl rfl

/-! ## What a point writes back -/

/-- Every point writes back its block of the whole-array function. -/
theorem flushed48_eq (c : Dev nD) (t : Fin cfg48.N) (hf : (cfg48.win 2).flush t = true) :
    (dat48 V c).flushed 2 t = ((cfg48.win 2).blk t).view.read (Elt F) (whole48 V c) := by
  show (cfg48.win 2).cut (grid48.coords t) ((dat48 V c).after 2 t) = _
  rw [after48_2, outsAt48_out V c t]
  obtain ⟨-, -, -, -, e0, e1⟩ := idxFacts48 t
  funext j
  show accOf48 V c t.val j = whole48 V c (((cfg48.win 2).blk t).view.emb j)
  refine (whole48_apply V c t.val j _ ?_ ?_).symm
  · show win48_2.index t (0 : Fin 2) * 1024 + 1 * (j 0).val = 1024 * t.val + (j 0).val
    rw [e0]; omega
  · show win48_2.index t (1 : Fin 2) * S1024x512.size (1 : Fin 2) + 1 * (j 1).val = (j 1).val
    rw [e1, Nat.zero_mul, Nat.zero_add, Nat.one_mul]

/-! ## The blocks written back cover the array -/

/-- An index is in a point's output block iff each coordinate is in the block's range on its axis. -/
theorem memBlk48 (t : Fin cfg48.N) (i : S4096x512.Idx) :
    i ∈ ((cfg48.win 2).blk t).view.set ↔ ∀ a : Fin 2, win48_2.index t a * S1024x512.size a ≤ (i a).val
      ∧ (i a).val < win48_2.index t a * S1024x512.size a + S1024x512.size a := by
  show i ∈ ((View.whole main_v265).slice (win48_2.rect t)).set ↔ _
  rw [View.set_slice_whole, Rect.mem_set_unit]
  exact Iff.rfl

/-- Row i of the array lies in the block written back at the point i / 1024. -/
theorem covered48 (i : S4096x512.Idx) :
    ∃ t : Fin cfg48.N, (cfg48.win 2).flush t = true ∧ i ∈ ((cfg48.win 2).blk t).view.set := by
  have hi0 : (i 0).val < 4096 := idx2_lt0 i
  have hi1 : (i 1).val < S1024x512.size (1 : Fin 2) := idx2_lt1 i
  have hN : cfg48.N = 4 := N_48
  obtain ⟨t, ht⟩ : ∃ t : Fin cfg48.N, t.val = (i 0).val / 1024 :=
    ⟨⟨(i 0).val / 1024, by rw [hN]; omega⟩, rfl⟩
  refine ⟨t, flush48_2 t, ?_⟩
  rw [memBlk48]
  obtain ⟨-, -, -, -, e0, e1⟩ := idxFacts48 t
  intro a
  match a with
  | ⟨0, _⟩ =>
    show win48_2.index t (0 : Fin 2) * 1024 ≤ (i 0).val ∧ (i 0).val < win48_2.index t (0 : Fin 2) * 1024 + 1024
    rw [e0]; omega
  | ⟨1, _⟩ =>
    show win48_2.index t (1 : Fin 2) * S1024x512.size (1 : Fin 2) ≤ (i 1).val
      ∧ (i 1).val < win48_2.index t (1 : Fin 2) * S1024x512.size (1 : Fin 2) + S1024x512.size (1 : Fin 2)
    rw [e1, Nat.zero_mul, Nat.zero_add]
    exact ⟨Nat.zero_le _, hi1⟩

/-! ## The three arrays after the region -/

/-- The output array after the region is the whole-array function. -/
theorem final48_2 (c : Dev nD) : (dat48 V c).arrAt 2 cfg48.N = whole48 V c :=
  (dat48 V c).arrAt_eq_of_cover 2 (whole48 V c) (flushed48_eq V c) covered48

/-- The two input arrays are as the region found them. -/
theorem final48_0 (c : Dev nD) : (dat48 V c).arrAt 0 cfg48.N = V c main_v264 :=
  ((dat48 V c).arrAt_in 0 rfl cfg48.N).trans (A_eq48 V c 0)
theorem final48_1 (c : Dev nD) : (dat48 V c).arrAt 1 cfg48.N = V c main_v10 :=
  ((dat48 V c).arrAt_in 1 rfl cfg48.N).trans (A_eq48 V c 1)

/-! ## The input blocks as blocks of the operand arrays -/

/-- The left operand's block at the point t: entry (y₀, y₁) is the array's entry (1024 t + y₀, y₁). -/
theorem iblk48_lhs_apply (c : Dev nD) (t : Fin cfg48.N) (y : S1024x512.Idx) (i : S4096x512.Idx)
    (h0 : (i 0).val = 1024 * t.val + (y 0).val) (h1 : (i 1).val = (y 1).val) :
    iblk48 V c 0 t y = (V c main_v264 : S4096x512.Idx → Elt F .f32) i := by
  obtain ⟨e0, e1, -, -, -, -⟩ := idxFacts48 t
  unfold iblk48
  rw [View.read_apply]
  show V c main_v264 (((cfg48.win 0).blk t).view.emb y) = V c main_v264 i
  congr 1
  funext a
  apply Fin.ext
  match a with
  | ⟨0, _⟩ =>
    show win48_0.index t (0 : Fin 2) * 1024 + 1 * (y 0).val = (i 0).val
    rw [e0, h0]; omega
  | ⟨1, _⟩ =>
    show win48_0.index t (1 : Fin 2) * S1024x512.size (1 : Fin 2) + 1 * (y 1).val = (i 1).val
    rw [e1, h1, Nat.zero_mul, Nat.zero_add, Nat.one_mul]

/-- The right operand's block is the whole array at every point. -/
theorem iblk48_rhs_eq (c : Dev nD) (t : Fin cfg48.N) :
    iblk48 V c 1 t = (V c main_v10 : S512x512.Idx → Elt F .bf16) := by
  obtain ⟨-, -, e0, e1, -, -⟩ := idxFacts48 t
  funext y
  unfold iblk48
  rw [View.read_apply]
  show V c main_v10 (((cfg48.win 1).blk t).view.emb y) = V c main_v10 y
  congr 1
  funext a
  apply Fin.ext
  match a with
  | ⟨0, _⟩ =>
    show win48_1.index t (0 : Fin 2) * S512x512.size (0 : Fin 2) + 1 * (y 0).val = (y 0).val
    rw [e0, Nat.zero_mul, Nat.zero_add, Nat.one_mul]
  | ⟨1, _⟩ =>
    show win48_1.index t (1 : Fin 2) * S512x512.size (1 : Fin 2) + 1 * (y 1).val = (y 1).val
    rw [e1, Nat.zero_mul, Nat.zero_add, Nat.one_mul]

end Cert.KernelIdeal.Hand

end
-- ==== Proof.ValKI48b.lean ====
/- Laid out by: python3 scratch/layout_grid41.py --prefix Val --template-region 0 --region 48 --program KernelIdeal --parts a,b --shapes S1024x128=S1024x512,S128x512=S512x512,S1024x512=S1024x512,S4096x128=S4096x512,S4096x512=S4096x512,main_arg0=main_v264,main_v12=main_v10,main_v17=main_v265,h0=h0,e0=e0,hi0=hi0,x0=x0
   from the hand-written text of region 0 (ValKI0b.lean): the same text, the region's number, block shapes, operand arrays substituted. -/
/-
  Region 48 of @main at the extended reals: the output array after the region is the product of the two operand arrays.

  A change of float format is the identity at these values and a reshape to the same shape is the identity, so the
  kernel's one accumulation step is "accumulator plus the product of the two blocks into the zero block", and the
  accumulator starts from the zero block. The block the point r leaves is then zero plus the product of rows
  1024 r … 1024 r + 1023 of the left operand with the whole right operand, which is the same rows of the whole product:
  the contraction axis is not cut, so the sums are the same term by term. Read through the whole-array function of the
  blocks-to-array module, entry (1024 r + p, q) of the output array is that entry of the product.
-/
import proofs.«158944_j64613488001249_1_alg».proof.Proof.ValKI48a
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The accumulation step, and its start, at the extended reals -/

/-- A change of format and a reshape to the same shape are the identity: the step adds the product of the two blocks
    (into the zero block) to the accumulator. -/
theorem accOf48_step (x0 : Vec Ideal S1024x512 .f32) (x1 : Vec Ideal S512x512 .bf16) (acc : Vec Ideal S1024x512 .f32) :
    k48_pay2 (F := Ideal) x0 x1 acc
      = Cert.MMLaw.accStep dot_S1024x512_S512x512_S1024x512_1_0_0_1_n_n none x0 x1 acc := by
  unfold k48_pay2
  simp only [shapeCast_self]
  rfl

/-- The accumulator starts from the zero block. -/
theorem accOf48_init (j : S1024x512.Idx) : k48_pay1 (F := Ideal) j = 0 := by
  unfold k48_pay1
  rw [shapeCast_self]
  exact Ideal.ofBits_zero_f32

/-! ## The block a point leaves is a block of the whole product -/

/-- The block the point r leaves is rows 1024 r … 1024 r + 1023 of the product of the two operand arrays. -/
theorem accOf48_eq_blk (c : Dev nD) (r : Fin 4) (D : DotDims S4096x512 S512x512 S4096x512) (hD : Cert.MMLaw.IsPlain D)
    (prec : Option ContractPrecision) :
    accOf48 V c r.val
      = Cert.MMLaw.rowBlk (Cert.MMLaw.whole D prec (V c main_v264) (V c main_v10)) r := by
  have hN : cfg48.N = 4 := N_48
  have hr : r.val < cfg48.N := by rw [hN]; exact r.isLt
  rw [accOf48_eq V c ⟨r.val, hr⟩, accOf48_step]
  exact Cert.MMLaw.law41 dot_S1024x512_S512x512_S1024x512_1_0_0_1_n_n ⟨rfl, rfl, rfl, rfl, rfl, rfl⟩ D hD none prec
    (V c main_v264) (V c main_v10) r (iblk48 V c 0 ⟨r.val, hr⟩) (iblk48 V c 1 ⟨r.val, hr⟩)
    (funext fun y => iblk48_lhs_apply V c ⟨r.val, hr⟩ y _ rfl rfl) (iblk48_rhs_eq V c ⟨r.val, hr⟩)
    (k48_pay1 (F := Ideal)) accOf48_init

/-! ## The output array after the region is the whole product -/

/-- The region leaves in its output array the product of its two operand arrays. -/
theorem final48_2_eq_whole (c : Dev nD) (D : DotDims S4096x512 S512x512 S4096x512) (hD : Cert.MMLaw.IsPlain D)
    (prec : Option ContractPrecision) :
    (dat48 (F := Ideal) V c).arrAt 2 cfg48.N = Cert.MMLaw.whole D prec (V c main_v264) (V c main_v10) := by
  rw [final48_2]
  funext i
  have hi0 : (i 0).val < 4096 := idx2_lt0 i
  have h := congrFun (accOf48_eq_blk V c ⟨(i 0).val / 1024, by omega⟩ D hD prec)
    (ix2 ⟨(i 0).val % 1024, Nat.mod_lt _ (by decide)⟩ ⟨(i 1).val, idx2_lt1 i⟩)
  rw [Cert.MMLaw.rowBlk_apply] at h
  refine Eq.trans h (congrArg _ ?_)
  funext a
  match a with
  | ⟨0, _⟩ => exact Fin.ext (by show 1024 * ((i 0).val / 1024) + (i 0).val % 1024 = (i 0).val; omega)
  | ⟨1, _⟩ => rfl

/-- The same with the operands at the formats they are stored in. -/
theorem final48_2_eq_dot (c : Dev nD) (D : DotDims S4096x512 S512x512 S4096x512) (hD : Cert.MMLaw.IsPlain D)
    (prec : Option ContractPrecision) :
    (dat48 (F := Ideal) V c).arrAt 2 cfg48.N
      = Host.dotGeneral (F := Ideal) (φ₁ := .f32) (φ₂ := .bf16) D prec (V c main_v264) (V c main_v10) :=
  final48_2_eq_whole V c D hD prec

end Cert.KernelIdeal.Hand

end
-- ==== Proof.ValKI49a.lean ====
/- Laid out by: python3 scratch/layout_regions.py --template-region 1 --region 49 --program KernelIdeal --prefix Val --parts a,b,c --sim main_v9=main_v7,main_v25=main_v265,main_v26=main_v266 --out-dir proof/Proof
   from the hand-written text of region 1 (ValKI1a.lean): the same text, the region's number substituted. -/
/-
  Region 49 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k49_pay1` (the zero block) and `k49_pay2` (accumulator plus product) are the two stores' payloads.

  So along one row of blocks r the accumulator after its step k is the left fold
    accOf49 r 0 = pay2 (a (r, 0)) (b 0) pay1,    accOf49 r (k + 1) = pay2 (a (r, k + 1)) (b (k + 1)) (accOf49 r k),
  the grid point (r, k) being position 4 r + k; and at k = 3 the output block holds accOf49 r 3.
-/
import proofs.«158944_j64613488001249_1_alg».proof.Proof.RegKI49
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout49_A_eq (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond49_0 i) (hc1 : ¬cond49_1 i)
    (x0 : Vec F S1024x1024 .bf16) (x1 : Vec F S1024x512 .f32) :
    sout49_A c i arg2 harg2 arg3 harg3 arg4 harg4 arg5 harg5 hc0 hc1 x0 x1 = k49_pay2 x0 x1 (k49_pay1 (F := F)) := by
  have hz : (![0, 0] : Fin 2 → Nat) = fun _ => 0 := funext fun a => by fin_cases a <;> rfl
  unfold sout49_A
  rw [View.read_writes_eq_canon _ _ _ (scover49_A c i arg2 harg2 arg3 harg3 arg4 harg4 arg5 harg5 hc0 hc1 x0 x1)]
  unfold kernelRun49_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout49_B_eq (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond49_0 i) (hc1 : ¬cond49_1 i)
    (x0 : Vec F S1024x1024 .bf16) (x1 : Vec F S1024x512 .f32) (xs0 : Vec F S1024x512 .f32) :
    sout49_B c i arg2 harg2 arg3 harg3 arg4 harg4 arg5 harg5 hc0 hc1 x0 x1 xs0 = k49_pay2 x0 x1 xs0 := by
  have hz : (![0, 0] : Fin 2 → Nat) = fun _ => 0 := funext fun a => by fin_cases a <;> rfl
  unfold sout49_B
  rw [View.read_writes_eq_canon _ _ _ (scover49_B c i arg2 harg2 arg3 harg3 arg4 harg4 arg5 harg5 hc0 hc1 x0 x1 xs0)]
  unfold kernelRun49_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout49_C_eq (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond49_0 i) (hc1 : cond49_1 i)
    (x0 : Vec F S1024x1024 .bf16) (x1 : Vec F S1024x512 .f32) (xs0 : Vec F S1024x512 .f32) :
    sout49_C c i arg2 harg2 arg3 harg3 arg4 harg4 arg5 harg5 hc0 hc1 x0 x1 xs0 = k49_pay2 x0 x1 xs0 := by
  have hz : (![0, 0] : Fin 2 → Nat) = fun _ => 0 := funext fun a => by fin_cases a <;> rfl
  unfold sout49_C
  rw [View.read_writes_eq_canon _ _ _ (scover49_C c i arg2 harg2 arg3 harg3 arg4 harg4 arg5 harg5 hc0 hc1 x0 x1 xs0)]
  unfold kernelRun49_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out49_C_eq (c : Dev nD) (i : grid49.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond49_0 i) (hc1 : cond49_1 i)
    (x0 : Vec F S1024x1024 .bf16) (x1 : Vec F S1024x512 .f32) (xs0 : Vec F S1024x512 .f32) :
    out49_C c i arg2 harg2 arg3 harg3 arg4 harg4 arg5 harg5 hc0 hc1 x0 x1 xs0 = k49_pay2 x0 x1 xs0 := by
  have hz : (![0, 0] : Fin 2 → Nat) = fun _ => 0 := funext fun a => by fin_cases a <;> rfl
  unfold out49_C
  rw [View.read_writes_eq_canon _ _ _ (cover49_C c i arg2 harg2 arg3 harg3 arg4 harg4 arg5 harg5 hc0 hc1 x0 x1 xs0)]
  unfold kernelRun49_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk49_lhs (c : Dev nD) (n : ℕ) : Vec F S1024x1024 .bf16 :=
  if h : n < cfg49.N then iblk49 V c 0 ⟨n, h⟩ else iblk49 V c 0 ⟨0, by have h : cfg49.N = 16 := N_49; omega⟩
/-- The right factor's block at grid position `n`. -/
def iblk49_rhs (c : Dev nD) (n : ℕ) : Vec F S1024x512 .f32 :=
  if h : n < cfg49.N then iblk49 V c 1 ⟨n, h⟩ else iblk49 V c 1 ⟨0, by have h : cfg49.N = 16 := N_49; omega⟩

theorem iblk49_lhs_eq (c : Dev nD) (n : ℕ) (h : n < cfg49.N) : iblk49_lhs V c n = iblk49 V c 0 ⟨n, h⟩ := dif_pos h
theorem iblk49_rhs_eq (c : Dev nD) (n : ℕ) (h : n < cfg49.N) : iblk49_rhs V c n = iblk49 V c 1 ⟨n, h⟩ := dif_pos h

/-! ## The accumulator along one row of blocks -/

/-- Row of blocks `r`, after its step `k`: the zero block plus the products of the blocks at positions 4 r, …, 4 r + k,
    added in that order. -/
def accOf49 (c : Dev nD) (r : ℕ) : ℕ → Vec F S1024x512 .f32
  | 0 => k49_pay2 (iblk49_lhs V c (4 * r)) (iblk49_rhs V c (4 * r)) (k49_pay1 (F := F))
  | k + 1 => k49_pay2 (iblk49_lhs V c (4 * r + (k + 1))) (iblk49_rhs V c (4 * r + (k + 1))) (accOf49 c r k)

theorem accOf49_zero (c : Dev nD) (r : ℕ) :
    accOf49 V c r 0 = k49_pay2 (iblk49_lhs V c (4 * r)) (iblk49_rhs V c (4 * r)) (k49_pay1 (F := F)) := rfl
theorem accOf49_succ (c : Dev nD) (r k : ℕ) :
    accOf49 V c r (k + 1) = k49_pay2 (iblk49_lhs V c (4 * r + (k + 1))) (iblk49_rhs V c (4 * r + (k + 1))) (accOf49 V c r k) := rfl

theorem iblk49_lhs_at (c : Dev nD) (t : Fin cfg49.N) (n : ℕ) (hn : n = t.val) : iblk49_lhs V c n = iblk49 V c 0 t := by
  subst hn; unfold iblk49_lhs; exact dif_pos t.isLt
theorem iblk49_rhs_at (c : Dev nD) (t : Fin cfg49.N) (n : ℕ) (hn : n = t.val) : iblk49_rhs V c n = iblk49 V c 1 t := by
  subst hn; unfold iblk49_rhs; exact dif_pos t.isLt

/-- At a grid point with k = 0 the fold starts: the zero block plus the product of the point's two blocks. -/
theorem accOf49_first (c : Dev nD) (t : Fin cfg49.N) (h0 : t.val % 4 = 0) :
    accOf49 V c (t.val / 4) (t.val % 4) = k49_pay2 (iblk49 V c 0 t) (iblk49 V c 1 t) (k49_pay1 (F := F)) := by
  rw [h0, accOf49_zero, iblk49_lhs_at V c t (4 * (t.val / 4)) (by omega), iblk49_rhs_at V c t (4 * (t.val / 4)) (by omega)]

/-- At a grid point with k ≠ 0 the fold takes one step from the position before, which is in the same row of blocks. -/
theorem accOf49_next (c : Dev nD) (t : Fin cfg49.N) (h0 : ¬t.val % 4 = 0) :
    accOf49 V c (t.val / 4) (t.val % 4)
      = k49_pay2 (iblk49 V c 0 t) (iblk49 V c 1 t) (accOf49 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf49_succ, iblk49_lhs_at V c t (4 * (t.val / 4) + (k + 1)) (by omega),
    iblk49_rhs_at V c t (4 * (t.val / 4) + (k + 1)) (by omega)]

/-! ## The accumulator and the output block, point by point, as pure functions of the blocks -/

/-- k = 0: the accumulator restarts from the zero block. -/
theorem outsAt49_first (c : Dev nD) (t : Fin cfg49.N) (h0 : t.val % 4 = 0) :
    (outsAt49 V c t.val t.isLt).2 = k49_pay2 (iblk49 V c 0 t) (iblk49 V c 1 t) (k49_pay1 (F := F)) := by
  rw [outsAt49_A V c t h0]
  dsimp only
  exact sout49_A_eq c (grid49.coords t) (ms49_0 t) (hs49_0 t) (ms49_1 t) (hs49_1 t) (ms49_2 t) (hs49_2 t) scM49 (Memref.isWhole_whole _) (isFirst49 t h0) (notLast49 t (by omega)) (iblk49 V c 0 t) (iblk49 V c 1 t)

/-- k ≠ 0: the point's product is added to what the point before left. -/
theorem outsAt49_next (c : Dev nD) (t : Fin cfg49.N) (h0 : ¬t.val % 4 = 0) :
    (outsAt49 V c t.val t.isLt).2
      = k49_pay2 (iblk49 V c 0 t) (iblk49 V c 1 t) (outsAt49 V c (t.val - 1) (Nat.lt_of_le_of_lt (Nat.sub_le _ _) t.isLt)).2 := by
  by_cases h3 : t.val % 4 = 3
  · rw [outsAt49_C V c t h0 h3]
    dsimp only
    exact sout49_C_eq c (grid49.coords t) (ms49_0 t) (hs49_0 t) (ms49_1 t) (hs49_1 t) (ms49_2 t) (hs49_2 t) scM49 (Memref.isWhole_whole _) (notFirst49 t h0) (isLast49 t h3) (iblk49 V c 0 t) (iblk49 V c 1 t)
      (outsAt49 V c (t.val - 1) (Nat.lt_of_le_of_lt (Nat.sub_le _ _) t.isLt)).2
  · rw [outsAt49_B V c t h0 h3]
    dsimp only
    exact sout49_B_eq c (grid49.coords t) (ms49_0 t) (hs49_0 t) (ms49_1 t) (hs49_1 t) (ms49_2 t) (hs49_2 t) scM49 (Memref.isWhole_whole _) (notFirst49 t h0) (notLast49 t h3) (iblk49 V c 0 t) (iblk49 V c 1 t)
      (outsAt49 V c (t.val - 1) (Nat.lt_of_le_of_lt (Nat.sub_le _ _) t.isLt)).2

/-- k = 3: the output block is the accumulator. -/
theorem outsAt49_last (c : Dev nD) (t : Fin cfg49.N) (h3 : t.val % 4 = 3) :
    (outsAt49 V c t.val t.isLt).1 = (outsAt49 V c t.val t.isLt).2 := by
  have h0 : ¬t.val % 4 = 0 := by omega
  rw [outsAt49_C V c t h0 h3]
  dsimp only
  exact (out49_C_eq c (grid49.coords t) (ms49_0 t) (hs49_0 t) (ms49_1 t) (hs49_1 t) (ms49_2 t) (hs49_2 t) scM49 (Memref.isWhole_whole _) (notFirst49 t h0) (isLast49 t h3) (iblk49 V c 0 t) (iblk49 V c 1 t)
      (outsAt49 V c (t.val - 1) (Nat.lt_of_le_of_lt (Nat.sub_le _ _) t.isLt)).2).trans
    (sout49_C_eq c (grid49.coords t) (ms49_0 t) (hs49_0 t) (ms49_1 t) (hs49_1 t) (ms49_2 t) (hs49_2 t) scM49 (Memref.isWhole_whole _) (notFirst49 t h0) (isLast49 t h3) (iblk49 V c 0 t) (iblk49 V c 1 t)
      (outsAt49 V c (t.val - 1) (Nat.lt_of_le_of_lt (Nat.sub_le _ _) t.isLt)).2).symm

/-! ## The accumulator is the fold -/

/-- After position `n` the accumulator holds row `n / 4`'s fold after its step `n % 4`: by induction on the position. -/
theorem outsAt49_acc_pos (c : Dev nD) :
    ∀ (n : ℕ) (hn : n < cfg49.N), (outsAt49 V c n hn).2 = accOf49 V c (n / 4) (n % 4) := by
  intro n
  induction n with
  | zero =>
    intro hn
    exact (outsAt49_first V c ⟨0, hn⟩ (Nat.zero_mod 4)).trans (accOf49_first V c ⟨0, hn⟩ (Nat.zero_mod 4)).symm
  | succ n ih =>
    intro hn
    by_cases h0 : (n + 1) % 4 = 0
    · exact (outsAt49_first V c ⟨n + 1, hn⟩ h0).trans (accOf49_first V c ⟨n + 1, hn⟩ h0).symm
    · refine (outsAt49_next V c ⟨n + 1, hn⟩ h0).trans (Eq.trans ?_ (accOf49_next V c ⟨n + 1, hn⟩ h0).symm)
      exact congrArg (k49_pay2 (iblk49 V c 0 ⟨n + 1, hn⟩) (iblk49 V c 1 ⟨n + 1, hn⟩)) (ih (Nat.lt_of_succ_lt hn))

/-- At every grid point the accumulator holds its row's fold after the point's step. -/
theorem outsAt49_acc (c : Dev nD) (t : Fin cfg49.N) :
    (outsAt49 V c t.val t.isLt).2 = accOf49 V c (t.val / 4) (t.val % 4) :=
  outsAt49_acc_pos V c t.val t.isLt

/-- At a row's last point the output block holds the row's whole fold. -/
theorem outsAt49_out (c : Dev nD) (t : Fin cfg49.N) (h3 : t.val % 4 = 3) :
    (outsAt49 V c t.val t.isLt).1 = accOf49 V c (t.val / 4) 3 := by
  have e := outsAt49_acc V c t
  rw [h3] at e
  exact (outsAt49_last V c t h3).trans e

end Cert.KernelIdeal.Hand

end
-- ==== Proof.ValKI49b.lean ====
/- Laid out by: python3 scratch/layout_regions.py --template-region 1 --region 49 --program KernelIdeal --prefix Val --parts a,b,c --sim main_v9=main_v7,main_v25=main_v265,main_v26=main_v266 --out-dir proof/Proof
   from the hand-written text of region 1 (ValKI1b.lean): the same text, the region's number substituted. -/
/-
  Region 49 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI49a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts49 : ∀ t : Fin cfg49.N,
    win49_0.index t (0 : Fin 2) = t.val / 4 ∧ win49_0.index t (1 : Fin 2) = t.val % 4
    ∧ win49_1.index t (0 : Fin 2) = t.val % 4 ∧ win49_1.index t (1 : Fin 2) = 0
    ∧ win49_2.index t (0 : Fin 2) = t.val / 4 ∧ win49_2.index t (1 : Fin 2) = 0 :=
  (by decide +kernel : ∀ t : Fin grid49.N,
    win49_0.index t (0 : Fin 2) = t.val / 4 ∧ win49_0.index t (1 : Fin 2) = t.val % 4
    ∧ win49_1.index t (0 : Fin 2) = t.val % 4 ∧ win49_1.index t (1 : Fin 2) = 0
    ∧ win49_2.index t (0 : Fin 2) = t.val / 4 ∧ win49_2.index t (1 : Fin 2) = 0)

/-! ## The output array as one function -/

/-- The whole output array: its row 1024 r + p, column q, is entry (p, q) of the block accumulated over k = 0 … 3 in
    block row r. -/
def whole49 (c : Dev nD) : S4096x512.Idx → Elt F .f32 := fun i =>
  accOf49 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole49_apply (c : Dev nD) (r : ℕ) (y : S1024x512.Idx) (i : S4096x512.Idx)
    (h0 : (i 0).val = 1024 * r + (y 0).val) (h1 : (i 1).val = (y 1).val) :
    whole49 V c i = accOf49 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole49
  rw [hr, e]

/-- Row 1024 r + p, column q of the array is entry (p, q) of block row r's accumulated block. -/
theorem whole49_ix2 (c : Dev nD) (r : Fin 4) (p : Fin 1024) (q : Fin 512) :
    whole49 V c (ix2 (n0 := 4096) (n1 := 512) ⟨1024 * r.val + p.val, by have := r.isLt; have := p.isLt; omega⟩ q)
      = accOf49 V c r.val 3 (ix2 p q) :=
  whole49_apply V c r.val (ix2 p q) _ rfl rfl

/-! ## What a point writes back -/

/-- A point with k = 3 writes back its block of the whole-array function. -/
theorem flushed49_eq (c : Dev nD) (t : Fin cfg49.N) (hf : (cfg49.win 2).flush t = true) :
    (dat49 V c).flushed 2 t = ((cfg49.win 2).blk t).view.read (Elt F) (whole49 V c) := by
  have h3 : t.val % 4 = 3 := (flush49_2 t).mp hf
  show (cfg49.win 2).cut (grid49.coords t) ((dat49 V c).after 2 t) = _
  rw [after49_2, outsAt49_out V c t h3]
  obtain ⟨-, -, -, -, e0, e1⟩ := idxFacts49 t
  funext j
  show accOf49 V c (t.val / 4) 3 j = whole49 V c (((cfg49.win 2).blk t).view.emb j)
  refine (whole49_apply V c (t.val / 4) j _ ?_ ?_).symm
  · show win49_2.index t (0 : Fin 2) * 1024 + 1 * (j 0).val = 1024 * (t.val / 4) + (j 0).val
    rw [e0]; omega
  · show win49_2.index t (1 : Fin 2) * 512 + 1 * (j 1).val = (j 1).val
    rw [e1]; omega

/-! ## The blocks written back cover the array -/

/-- An index is in a point's output block iff each coordinate is in the block's range on its axis. -/
theorem memBlk49 (t : Fin cfg49.N) (i : S4096x512.Idx) :
    i ∈ ((cfg49.win 2).blk t).view.set ↔ ∀ a : Fin 2, win49_2.index t a * S1024x512.size a ≤ (i a).val
      ∧ (i a).val < win49_2.index t a * S1024x512.size a + S1024x512.size a := by
  show i ∈ ((View.whole main_v266).slice (win49_2.rect t)).set ↔ _
  rw [View.set_slice_whole, Rect.mem_set_unit]
  exact Iff.rfl

/-- Row i of the array lies in the block written back at the point (i / 1024, 3). -/
theorem covered49 (i : S4096x512.Idx) :
    ∃ t : Fin cfg49.N, (cfg49.win 2).flush t = true ∧ i ∈ ((cfg49.win 2).blk t).view.set := by
  have hi0 : (i 0).val < 4096 := idx2_lt0 i
  have hi1 : (i 1).val < 512 := idx2_lt1 i
  have hN : cfg49.N = 16 := N_49
  obtain ⟨t, ht⟩ : ∃ t : Fin cfg49.N, t.val = 4 * ((i 0).val / 1024) + 3 :=
    ⟨⟨4 * ((i 0).val / 1024) + 3, by rw [hN]; omega⟩, rfl⟩
  refine ⟨t, (flush49_2 t).mpr (by omega), ?_⟩
  rw [memBlk49]
  obtain ⟨-, -, -, -, e0, e1⟩ := idxFacts49 t
  intro a
  match a with
  | ⟨0, _⟩ =>
    show win49_2.index t (0 : Fin 2) * 1024 ≤ (i 0).val ∧ (i 0).val < win49_2.index t (0 : Fin 2) * 1024 + 1024
    rw [e0]; omega
  | ⟨1, _⟩ =>
    show win49_2.index t (1 : Fin 2) * 512 ≤ (i 1).val ∧ (i 1).val < win49_2.index t (1 : Fin 2) * 512 + 512
    rw [e1]; omega

/-! ## The three arrays after the region -/

/-- The output array after the region is the whole-array function. -/
theorem final49_2 (c : Dev nD) : (dat49 V c).arrAt 2 cfg49.N = whole49 V c :=
  (dat49 V c).arrAt_eq_of_cover 2 (whole49 V c) (flushed49_eq V c) covered49

/-- The two input arrays are as the region found them. -/
theorem final49_0 (c : Dev nD) : (dat49 V c).arrAt 0 cfg49.N = V c main_v7 :=
  ((dat49 V c).arrAt_in 0 rfl cfg49.N).trans (A_eq49 V c 0)
theorem final49_1 (c : Dev nD) : (dat49 V c).arrAt 1 cfg49.N = V c main_v265 :=
  ((dat49 V c).arrAt_in 1 rfl cfg49.N).trans (A_eq49 V c 1)

/-! ## The input blocks as blocks of the operand arrays -/

/-- The left operand's block at the point (r, k): entry (y₀, y₁) is the array's entry (1024 r + y₀, 1024 k + y₁). -/
theorem iblk49_lhs_apply (c : Dev nD) (r k : Fin 4) (y : S1024x1024.Idx) (i : S4096x4096.Idx)
    (h0 : (i 0).val = 1024 * r.val + (y 0).val) (h1 : (i 1).val = 1024 * k.val + (y 1).val) :
    iblk49_lhs V c (4 * r.val + k.val) y = (V c main_v7 : S4096x4096.Idx → Elt F .bf16) i := by
  have hN : cfg49.N = 16 := N_49
  have hr := r.isLt
  have hk := k.isLt
  have hlt : 4 * r.val + k.val < cfg49.N := by rw [hN]; omega
  rw [iblk49_lhs_eq V c _ hlt]
  obtain ⟨e0, e1, -, -, -, -⟩ := idxFacts49 ⟨4 * r.val + k.val, hlt⟩
  have e0' : win49_0.index ⟨4 * r.val + k.val, hlt⟩ (0 : Fin 2) = (4 * r.val + k.val) / 4 := e0
  have e1' : win49_0.index ⟨4 * r.val + k.val, hlt⟩ (1 : Fin 2) = (4 * r.val + k.val) % 4 := e1
  unfold iblk49
  rw [View.read_apply]
  show V c main_v7 (((cfg49.win 0).blk ⟨4 * r.val + k.val, hlt⟩).view.emb y) = V c main_v7 i
  congr 1
  funext a
  apply Fin.ext
  match a with
  | ⟨0, _⟩ =>
    show win49_0.index ⟨4 * r.val + k.val, hlt⟩ (0 : Fin 2) * 1024 + 1 * (y 0).val = (i 0).val
    rw [e0', h0]; omega
  | ⟨1, _⟩ =>
    show win49_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk49_rhs_apply (c : Dev nD) (r k : Fin 4) (y : S1024x512.Idx) (i : S4096x512.Idx)
    (h0 : (i 0).val = 1024 * k.val + (y 0).val) (h1 : (i 1).val = (y 1).val) :
    iblk49_rhs V c (4 * r.val + k.val) y = (V c main_v265 : S4096x512.Idx → Elt F .f32) i := by
  have hN : cfg49.N = 16 := N_49
  have hr := r.isLt
  have hk := k.isLt
  have hlt : 4 * r.val + k.val < cfg49.N := by rw [hN]; omega
  rw [iblk49_rhs_eq V c _ hlt]
  obtain ⟨-, -, e0, e1, -, -⟩ := idxFacts49 ⟨4 * r.val + k.val, hlt⟩
  have e0' : win49_1.index ⟨4 * r.val + k.val, hlt⟩ (0 : Fin 2) = (4 * r.val + k.val) % 4 := e0
  have e1' : win49_1.index ⟨4 * r.val + k.val, hlt⟩ (1 : Fin 2) = 0 := e1
  unfold iblk49
  rw [View.read_apply]
  show V c main_v265 (((cfg49.win 1).blk ⟨4 * r.val + k.val, hlt⟩).view.emb y) = V c main_v265 i
  congr 1
  funext a
  apply Fin.ext
  match a with
  | ⟨0, _⟩ =>
    show win49_1.index ⟨4 * r.val + k.val, hlt⟩ (0 : Fin 2) * 1024 + 1 * (y 0).val = (i 0).val
    rw [e0', h0]; omega
  | ⟨1, _⟩ =>
    show win49_1.index ⟨4 * r.val + k.val, hlt⟩ (1 : Fin 2) * 512 + 1 * (y 1).val = (i 1).val
    rw [e1', h1]; omega

/-- The accumulated block after the fourth step, unfolded: four steps from the zero block. -/
theorem accOf49_three (c : Dev nD) (r : ℕ) :
    accOf49 V c r 3
      = k49_pay2 (iblk49_lhs V c (4 * r + 3)) (iblk49_rhs V c (4 * r + 3))
          (k49_pay2 (iblk49_lhs V c (4 * r + 2)) (iblk49_rhs V c (4 * r + 2))
            (k49_pay2 (iblk49_lhs V c (4 * r + 1)) (iblk49_rhs V c (4 * r + 1))
              (k49_pay2 (iblk49_lhs V c (4 * r)) (iblk49_rhs V c (4 * r)) (k49_pay1 (F := F))))) := rfl

end Cert.KernelIdeal.Hand

end
-- ==== Proof.ValKI49c.lean ====
/- Laid out by: python3 scratch/layout_regions.py --template-region 1 --region 49 --program KernelIdeal --prefix Val --parts a,b,c --sim main_v9=main_v7,main_v25=main_v265,main_v26=main_v266 --out-dir proof/Proof
   from the hand-written text of region 1 (ValKI1c.lean): the same text, the region's number substituted. -/
/-
  Region 49 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI49b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf49_step (x0 : Vec Ideal S1024x1024 .bf16) (x1 acc : Vec Ideal S1024x512 .f32) :
    k49_pay2 (F := Ideal) x0 x1 acc
      = Cert.MMLaw.accStep dot_S1024x1024_S1024x512_S1024x512_1_0_0_1_n_n none x0 x1 acc := by
  unfold k49_pay2
  simp only [shapeCast_self]
  rfl

/-- The accumulator starts from the zero block. -/
theorem accOf49_init (j : S1024x512.Idx) : k49_pay1 (F := Ideal) j = 0 := by
  unfold k49_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf49_eq_blk (c : Dev nD) (r : Fin 4) (D : DotDims S4096x4096 S4096x512 S4096x512) (hD : Cert.MMLaw.IsPlain D)
    (prec : Option ContractPrecision) :
    accOf49 V c r.val 3
      = Cert.MMLaw.blk (nr := 4) (nc := 1) 1024 512 rfl rfl (Cert.MMLaw.whole D prec (V c main_v7) (V c main_v265)) r 0 := by
  rw [accOf49_three]
  simp only [accOf49_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v7) (V c main_v265) r 0
    (fun k => iblk49_lhs V c (4 * r.val + k.val)) (fun k => iblk49_rhs V c (4 * r.val + k.val))
    (fun k => funext fun y => iblk49_lhs_apply V c r k y _ rfl rfl)
    (fun k => funext fun y => iblk49_rhs_apply V c r k y _ rfl (by show 512 * 0 + (y 1).val = (y 1).val; omega))
    (k49_pay1 (F := Ideal)) accOf49_init

/-! ## The output array after the region is the whole product -/

/-- The region leaves in its output array the product of its two operand arrays. -/
theorem final49_2_eq_whole (c : Dev nD) (D : DotDims S4096x4096 S4096x512 S4096x512) (hD : Cert.MMLaw.IsPlain D)
    (prec : Option ContractPrecision) :
    (dat49 (F := Ideal) V c).arrAt 2 cfg49.N = Cert.MMLaw.whole D prec (V c main_v7) (V c main_v265) := by
  rw [final49_2]
  funext i
  have hi0 : (i 0).val < 4096 := idx2_lt0 i
  have h := congrFun (accOf49_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final49_2_eq_dot (c : Dev nD) (D : DotDims S4096x4096 S4096x512 S4096x512) (hD : Cert.MMLaw.IsPlain D)
    (prec : Option ContractPrecision) :
    (dat49 (F := Ideal) V c).arrAt 2 cfg49.N = Host.dotGeneral (F := Ideal) (φ₁ := .bf16) (φ₂ := .f32) D prec (V c main_v7) (V c main_v265) :=
  final49_2_eq_whole V c D hD prec

end Cert.KernelIdeal.Hand

end
-- ==== Proof.ValKI50a.lean ====
/- Laid out by: python3 scratch/layout_regions.py --template-region 1 --region 50 --program KernelIdeal --prefix Val --parts a,b,c --sim main_v9=main_v9,main_v25=main_v284,main_v26=main_v285 --out-dir proof/Proof
   from the hand-written text of region 1 (ValKI1a.lean): the same text, the region's number substituted. -/
/-
  Region 50 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k50_pay1` (the zero block) and `k50_pay2` (accumulator plus product) are the two stores' payloads.

  So along one row of blocks r the accumulator after its step k is the left fold
    accOf50 r 0 = pay2 (a (r, 0)) (b 0) pay1,    accOf50 r (k + 1) = pay2 (a (r, k + 1)) (b (k + 1)) (accOf50 r k),
  the grid point (r, k) being position 4 r + k; and at k = 3 the output block holds accOf50 r 3.
-/
import proofs.«158944_j64613488001249_1_alg».proof.Proof.RegKI50
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout50_A_eq (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond50_0 i) (hc1 : ¬cond50_1 i)
    (x0 : Vec F S1024x1024 .bf16) (x1 : Vec F S1024x512 .f32) :
    sout50_A c i arg2 harg2 arg3 harg3 arg4 harg4 arg5 harg5 hc0 hc1 x0 x1 = k50_pay2 x0 x1 (k50_pay1 (F := F)) := by
  have hz : (![0, 0] : Fin 2 → Nat) = fun _ => 0 := funext fun a => by fin_cases a <;> rfl
  unfold sout50_A
  rw [View.read_writes_eq_canon _ _ _ (scover50_A c i arg2 harg2 arg3 harg3 arg4 harg4 arg5 harg5 hc0 hc1 x0 x1)]
  unfold kernelRun50_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout50_B_eq (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond50_0 i) (hc1 : ¬cond50_1 i)
    (x0 : Vec F S1024x1024 .bf16) (x1 : Vec F S1024x512 .f32) (xs0 : Vec F S1024x512 .f32) :
    sout50_B c i arg2 harg2 arg3 harg3 arg4 harg4 arg5 harg5 hc0 hc1 x0 x1 xs0 = k50_pay2 x0 x1 xs0 := by
  have hz : (![0, 0] : Fin 2 → Nat) = fun _ => 0 := funext fun a => by fin_cases a <;> rfl
  unfold sout50_B
  rw [View.read_writes_eq_canon _ _ _ (scover50_B c i arg2 harg2 arg3 harg3 arg4 harg4 arg5 harg5 hc0 hc1 x0 x1 xs0)]
  unfold kernelRun50_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout50_C_eq (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond50_0 i) (hc1 : cond50_1 i)
    (x0 : Vec F S1024x1024 .bf16) (x1 : Vec F S1024x512 .f32) (xs0 : Vec F S1024x512 .f32) :
    sout50_C c i arg2 harg2 arg3 harg3 arg4 harg4 arg5 harg5 hc0 hc1 x0 x1 xs0 = k50_pay2 x0 x1 xs0 := by
  have hz : (![0, 0] : Fin 2 → Nat) = fun _ => 0 := funext fun a => by fin_cases a <;> rfl
  unfold sout50_C
  rw [View.read_writes_eq_canon _ _ _ (scover50_C c i arg2 harg2 arg3 harg3 arg4 harg4 arg5 harg5 hc0 hc1 x0 x1 xs0)]
  unfold kernelRun50_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out50_C_eq (c : Dev nD) (i : grid50.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond50_0 i) (hc1 : cond50_1 i)
    (x0 : Vec F S1024x1024 .bf16) (x1 : Vec F S1024x512 .f32) (xs0 : Vec F S1024x512 .f32) :
    out50_C c i arg2 harg2 arg3 harg3 arg4 harg4 arg5 harg5 hc0 hc1 x0 x1 xs0 = k50_pay2 x0 x1 xs0 := by
  have hz : (![0, 0] : Fin 2 → Nat) = fun _ => 0 := funext fun a => by fin_cases a <;> rfl
  unfold out50_C
  rw [View.read_writes_eq_canon _ _ _ (cover50_C c i arg2 harg2 arg3 harg3 arg4 harg4 arg5 harg5 hc0 hc1 x0 x1 xs0)]
  unfold kernelRun50_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk50_lhs (c : Dev nD) (n : ℕ) : Vec F S1024x1024 .bf16 :=
  if h : n < cfg50.N then iblk50 V c 0 ⟨n, h⟩ else iblk50 V c 0 ⟨0, by have h : cfg50.N = 16 := N_50; omega⟩
/-- The right factor's block at grid position `n`. -/
def iblk50_rhs (c : Dev nD) (n : ℕ) : Vec F S1024x512 .f32 :=
  if h : n < cfg50.N then iblk50 V c 1 ⟨n, h⟩ else iblk50 V c 1 ⟨0, by have h : cfg50.N = 16 := N_50; omega⟩

theorem iblk50_lhs_eq (c : Dev nD) (n : ℕ) (h : n < cfg50.N) : iblk50_lhs V c n = iblk50 V c 0 ⟨n, h⟩ := dif_pos h
theorem iblk50_rhs_eq (c : Dev nD) (n : ℕ) (h : n < cfg50.N) : iblk50_rhs V c n = iblk50 V c 1 ⟨n, h⟩ := dif_pos h

/-! ## The accumulator along one row of blocks -/

/-- Row of blocks `r`, after its step `k`: the zero block plus the products of the blocks at positions 4 r, …, 4 r + k,
    added in that order. -/
def accOf50 (c : Dev nD) (r : ℕ) : ℕ → Vec F S1024x512 .f32
  | 0 => k50_pay2 (iblk50_lhs V c (4 * r)) (iblk50_rhs V c (4 * r)) (k50_pay1 (F := F))
  | k + 1 => k50_pay2 (iblk50_lhs V c (4 * r + (k + 1))) (iblk50_rhs V c (4 * r + (k + 1))) (accOf50 c r k)

theorem accOf50_zero (c : Dev nD) (r : ℕ) :
    accOf50 V c r 0 = k50_pay2 (iblk50_lhs V c (4 * r)) (iblk50_rhs V c (4 * r)) (k50_pay1 (F := F)) := rfl
theorem accOf50_succ (c : Dev nD) (r k : ℕ) :
    accOf50 V c r (k + 1) = k50_pay2 (iblk50_lhs V c (4 * r + (k + 1))) (iblk50_rhs V c (4 * r + (k + 1))) (accOf50 V c r k) := rfl

theorem iblk50_lhs_at (c : Dev nD) (t : Fin cfg50.N) (n : ℕ) (hn : n = t.val) : iblk50_lhs V c n = iblk50 V c 0 t := by
  subst hn; unfold iblk50_lhs; exact dif_pos t.isLt
theorem iblk50_rhs_at (c : Dev nD) (t : Fin cfg50.N) (n : ℕ) (hn : n = t.val) : iblk50_rhs V c n = iblk50 V c 1 t := by
  subst hn; unfold iblk50_rhs; exact dif_pos t.isLt

/-- At a grid point with k = 0 the fold starts: the zero block plus the product of the point's two blocks. -/
theorem accOf50_first (c : Dev nD) (t : Fin cfg50.N) (h0 : t.val % 4 = 0) :
    accOf50 V c (t.val / 4) (t.val % 4) = k50_pay2 (iblk50 V c 0 t) (iblk50 V c 1 t) (k50_pay1 (F := F)) := by
  rw [h0, accOf50_zero, iblk50_lhs_at V c t (4 * (t.val / 4)) (by omega), iblk50_rhs_at V c t (4 * (t.val / 4)) (by omega)]

/-- At a grid point with k ≠ 0 the fold takes one step from the position before, which is in the same row of blocks. -/
theorem accOf50_next (c : Dev nD) (t : Fin cfg50.N) (h0 : ¬t.val % 4 = 0) :
    accOf50 V c (t.val / 4) (t.val % 4)
      = k50_pay2 (iblk50 V c 0 t) (iblk50 V c 1 t) (accOf50 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf50_succ, iblk50_lhs_at V c t (4 * (t.val / 4) + (k + 1)) (by omega),
    iblk50_rhs_at V c t (4 * (t.val / 4) + (k + 1)) (by omega)]

/-! ## The accumulator and the output block, point by point, as pure functions of the blocks -/

/-- k = 0: the accumulator restarts from the zero block. -/
theorem outsAt50_first (c : Dev nD) (t : Fin cfg50.N) (h0 : t.val % 4 = 0) :
    (outsAt50 V c t.val t.isLt).2 = k50_pay2 (iblk50 V c 0 t) (iblk50 V c 1 t) (k50_pay1 (F := F)) := by
  rw [outsAt50_A V c t h0]
  dsimp only
  exact sout50_A_eq c (grid50.coords t) (ms50_0 t) (hs50_0 t) (ms50_1 t) (hs50_1 t) (ms50_2 t) (hs50_2 t) scM50 (Memref.isWhole_whole _) (isFirst50 t h0) (notLast50 t (by omega)) (iblk50 V c 0 t) (iblk50 V c 1 t)

/-- k ≠ 0: the point's product is added to what the point before left. -/
theorem outsAt50_next (c : Dev nD) (t : Fin cfg50.N) (h0 : ¬t.val % 4 = 0) :
    (outsAt50 V c t.val t.isLt).2
      = k50_pay2 (iblk50 V c 0 t) (iblk50 V c 1 t) (outsAt50 V c (t.val - 1) (Nat.lt_of_le_of_lt (Nat.sub_le _ _) t.isLt)).2 := by
  by_cases h3 : t.val % 4 = 3
  · rw [outsAt50_C V c t h0 h3]
    dsimp only
    exact sout50_C_eq c (grid50.coords t) (ms50_0 t) (hs50_0 t) (ms50_1 t) (hs50_1 t) (ms50_2 t) (hs50_2 t) scM50 (Memref.isWhole_whole _) (notFirst50 t h0) (isLast50 t h3) (iblk50 V c 0 t) (iblk50 V c 1 t)
      (outsAt50 V c (t.val - 1) (Nat.lt_of_le_of_lt (Nat.sub_le _ _) t.isLt)).2
  · rw [outsAt50_B V c t h0 h3]
    dsimp only
    exact sout50_B_eq c (grid50.coords t) (ms50_0 t) (hs50_0 t) (ms50_1 t) (hs50_1 t) (ms50_2 t) (hs50_2 t) scM50 (Memref.isWhole_whole _) (notFirst50 t h0) (notLast50 t h3) (iblk50 V c 0 t) (iblk50 V c 1 t)
      (outsAt50 V c (t.val - 1) (Nat.lt_of_le_of_lt (Nat.sub_le _ _) t.isLt)).2

/-- k = 3: the output block is the accumulator. -/
theorem outsAt50_last (c : Dev nD) (t : Fin cfg50.N) (h3 : t.val % 4 = 3) :
    (outsAt50 V c t.val t.isLt).1 = (outsAt50 V c t.val t.isLt).2 := by
  have h0 : ¬t.val % 4 = 0 := by omega
  rw [outsAt50_C V c t h0 h3]
  dsimp only
  exact (out50_C_eq c (grid50.coords t) (ms50_0 t) (hs50_0 t) (ms50_1 t) (hs50_1 t) (ms50_2 t) (hs50_2 t) scM50 (Memref.isWhole_whole _) (notFirst50 t h0) (isLast50 t h3) (iblk50 V c 0 t) (iblk50 V c 1 t)
      (outsAt50 V c (t.val - 1) (Nat.lt_of_le_of_lt (Nat.sub_le _ _) t.isLt)).2).trans
    (sout50_C_eq c (grid50.coords t) (ms50_0 t) (hs50_0 t) (ms50_1 t) (hs50_1 t) (ms50_2 t) (hs50_2 t) scM50 (Memref.isWhole_whole _) (notFirst50 t h0) (isLast50 t h3) (iblk50 V c 0 t) (iblk50 V c 1 t)
      (outsAt50 V c (t.val - 1) (Nat.lt_of_le_of_lt (Nat.sub_le _ _) t.isLt)).2).symm

/-! ## The accumulator is the fold -/

/-- After position `n` the accumulator holds row `n / 4`'s fold after its step `n % 4`: by induction on the position. -/
theorem outsAt50_acc_pos (c : Dev nD) :
    ∀ (n : ℕ) (hn : n < cfg50.N), (outsAt50 V c n hn).2 = accOf50 V c (n / 4) (n % 4) := by
  intro n
  induction n with
  | zero =>
    intro hn
    exact (outsAt50_first V c ⟨0, hn⟩ (Nat.zero_mod 4)).trans (accOf50_first V c ⟨0, hn⟩ (Nat.zero_mod 4)).symm
  | succ n ih =>
    intro hn
    by_cases h0 : (n + 1) % 4 = 0
    · exact (outsAt50_first V c ⟨n + 1, hn⟩ h0).trans (accOf50_first V c ⟨n + 1, hn⟩ h0).symm
    · refine (outsAt50_next V c ⟨n + 1, hn⟩ h0).trans (Eq.trans ?_ (accOf50_next V c ⟨n + 1, hn⟩ h0).symm)
      exact congrArg (k50_pay2 (iblk50 V c 0 ⟨n + 1, hn⟩) (iblk50 V c 1 ⟨n + 1, hn⟩)) (ih (Nat.lt_of_succ_lt hn))

/-- At every grid point the accumulator holds its row's fold after the point's step. -/
theorem outsAt50_acc (c : Dev nD) (t : Fin cfg50.N) :
    (outsAt50 V c t.val t.isLt).2 = accOf50 V c (t.val / 4) (t.val % 4) :=
  outsAt50_acc_pos V c t.val t.isLt

/-- At a row's last point the output block holds the row's whole fold. -/
theorem outsAt50_out (c : Dev nD) (t : Fin cfg50.N) (h3 : t.val % 4 = 3) :
    (outsAt50 V c t.val t.isLt).1 = accOf50 V c (t.val / 4) 3 := by
  have e := outsAt50_acc V c t
  rw [h3] at e
  exact (outsAt50_last V c t h3).trans e

end Cert.KernelIdeal.Hand

end
-- ==== Proof.ValKI50b.lean ====
/- Laid out by: python3 scratch/layout_regions.py --template-region 1 --region 50 --program KernelIdeal --prefix Val --parts a,b,c --sim main_v9=main_v9,main_v25=main_v284,main_v26=main_v285 --out-dir proof/Proof
   from the hand-written text of region 1 (ValKI1b.lean): the same text, the region's number substituted. -/
/-
  Region 50 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI50a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts50 : ∀ t : Fin cfg50.N,
    win50_0.index t (0 : Fin 2) = t.val / 4 ∧ win50_0.index t (1 : Fin 2) = t.val % 4
    ∧ win50_1.index t (0 : Fin 2) = t.val % 4 ∧ win50_1.index t (1 : Fin 2) = 0
    ∧ win50_2.index t (0 : Fin 2) = t.val / 4 ∧ win50_2.index t (1 : Fin 2) = 0 :=
  (by decide +kernel : ∀ t : Fin grid50.N,
    win50_0.index t (0 : Fin 2) = t.val / 4 ∧ win50_0.index t (1 : Fin 2) = t.val % 4
    ∧ win50_1.index t (0 : Fin 2) = t.val % 4 ∧ win50_1.index t (1 : Fin 2) = 0
    ∧ win50_2.index t (0 : Fin 2) = t.val / 4 ∧ win50_2.index t (1 : Fin 2) = 0)

/-! ## The output array as one function -/

/-- The whole output array: its row 1024 r + p, column q, is entry (p, q) of the block accumulated over k = 0 … 3 in
    block row r. -/
def whole50 (c : Dev nD) : S4096x512.Idx → Elt F .f32 := fun i =>
  accOf50 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole50_apply (c : Dev nD) (r : ℕ) (y : S1024x512.Idx) (i : S4096x512.Idx)
    (h0 : (i 0).val = 1024 * r + (y 0).val) (h1 : (i 1).val = (y 1).val) :
    whole50 V c i = accOf50 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole50
  rw [hr, e]

/-- Row 1024 r + p, column q of the array is entry (p, q) of block row r's accumulated block. -/
theorem whole50_ix2 (c : Dev nD) (r : Fin 4) (p : Fin 1024) (q : Fin 512) :
    whole50 V c (ix2 (n0 := 4096) (n1 := 512) ⟨1024 * r.val + p.val, by have := r.isLt; have := p.isLt; omega⟩ q)
      = accOf50 V c r.val 3 (ix2 p q) :=
  whole50_apply V c r.val (ix2 p q) _ rfl rfl

/-! ## What a point writes back -/

/-- A point with k = 3 writes back its block of the whole-array function. -/
theorem flushed50_eq (c : Dev nD) (t : Fin cfg50.N) (hf : (cfg50.win 2).flush t = true) :
    (dat50 V c).flushed 2 t = ((cfg50.win 2).blk t).view.read (Elt F) (whole50 V c) := by
  have h3 : t.val % 4 = 3 := (flush50_2 t).mp hf
  show (cfg50.win 2).cut (grid50.coords t) ((dat50 V c).after 2 t) = _
  rw [after50_2, outsAt50_out V c t h3]
  obtain ⟨-, -, -, -, e0, e1⟩ := idxFacts50 t
  funext j
  show accOf50 V c (t.val / 4) 3 j = whole50 V c (((cfg50.win 2).blk t).view.emb j)
  refine (whole50_apply V c (t.val / 4) j _ ?_ ?_).symm
  · show win50_2.index t (0 : Fin 2) * 1024 + 1 * (j 0).val = 1024 * (t.val / 4) + (j 0).val
    rw [e0]; omega
  · show win50_2.index t (1 : Fin 2) * 512 + 1 * (j 1).val = (j 1).val
    rw [e1]; omega

/-! ## The blocks written back cover the array -/

/-- An index is in a point's output block iff each coordinate is in the block's range on its axis. -/
theorem memBlk50 (t : Fin cfg50.N) (i : S4096x512.Idx) :
    i ∈ ((cfg50.win 2).blk t).view.set ↔ ∀ a : Fin 2, win50_2.index t a * S1024x512.size a ≤ (i a).val
      ∧ (i a).val < win50_2.index t a * S1024x512.size a + S1024x512.size a := by
  show i ∈ ((View.whole main_v285).slice (win50_2.rect t)).set ↔ _
  rw [View.set_slice_whole, Rect.mem_set_unit]
  exact Iff.rfl

/-- Row i of the array lies in the block written back at the point (i / 1024, 3). -/
theorem covered50 (i : S4096x512.Idx) :
    ∃ t : Fin cfg50.N, (cfg50.win 2).flush t = true ∧ i ∈ ((cfg50.win 2).blk t).view.set := by
  have hi0 : (i 0).val < 4096 := idx2_lt0 i
  have hi1 : (i 1).val < 512 := idx2_lt1 i
  have hN : cfg50.N = 16 := N_50
  obtain ⟨t, ht⟩ : ∃ t : Fin cfg50.N, t.val = 4 * ((i 0).val / 1024) + 3 :=
    ⟨⟨4 * ((i 0).val / 1024) + 3, by rw [hN]; omega⟩, rfl⟩
  refine ⟨t, (flush50_2 t).mpr (by omega), ?_⟩
  rw [memBlk50]
  obtain ⟨-, -, -, -, e0, e1⟩ := idxFacts50 t
  intro a
  match a with
  | ⟨0, _⟩ =>
    show win50_2.index t (0 : Fin 2) * 1024 ≤ (i 0).val ∧ (i 0).val < win50_2.index t (0 : Fin 2) * 1024 + 1024
    rw [e0]; omega
  | ⟨1, _⟩ =>
    show win50_2.index t (1 : Fin 2) * 512 ≤ (i 1).val ∧ (i 1).val < win50_2.index t (1 : Fin 2) * 512 + 512
    rw [e1]; omega

/-! ## The three arrays after the region -/

/-- The output array after the region is the whole-array function. -/
theorem final50_2 (c : Dev nD) : (dat50 V c).arrAt 2 cfg50.N = whole50 V c :=
  (dat50 V c).arrAt_eq_of_cover 2 (whole50 V c) (flushed50_eq V c) covered50

/-- The two input arrays are as the region found them. -/
theorem final50_0 (c : Dev nD) : (dat50 V c).arrAt 0 cfg50.N = V c main_v9 :=
  ((dat50 V c).arrAt_in 0 rfl cfg50.N).trans (A_eq50 V c 0)
theorem final50_1 (c : Dev nD) : (dat50 V c).arrAt 1 cfg50.N = V c main_v284 :=
  ((dat50 V c).arrAt_in 1 rfl cfg50.N).trans (A_eq50 V c 1)

/-! ## The input blocks as blocks of the operand arrays -/

/-- The left operand's block at the point (r, k): entry (y₀, y₁) is the array's entry (1024 r + y₀, 1024 k + y₁). -/
theorem iblk50_lhs_apply (c : Dev nD) (r k : Fin 4) (y : S1024x1024.Idx) (i : S4096x4096.Idx)
    (h0 : (i 0).val = 1024 * r.val + (y 0).val) (h1 : (i 1).val = 1024 * k.val + (y 1).val) :
    iblk50_lhs V c (4 * r.val + k.val) y = (V c main_v9 : S4096x4096.Idx → Elt F .bf16) i := by
  have hN : cfg50.N = 16 := N_50
  have hr := r.isLt
  have hk := k.isLt
  have hlt : 4 * r.val + k.val < cfg50.N := by rw [hN]; omega
  rw [iblk50_lhs_eq V c _ hlt]
  obtain ⟨e0, e1, -, -, -, -⟩ := idxFacts50 ⟨4 * r.val + k.val, hlt⟩
  have e0' : win50_0.index ⟨4 * r.val + k.val, hlt⟩ (0 : Fin 2) = (4 * r.val + k.val) / 4 := e0
  have e1' : win50_0.index ⟨4 * r.val + k.val, hlt⟩ (1 : Fin 2) = (4 * r.val + k.val) % 4 := e1
  unfold iblk50
  rw [View.read_apply]
  show V c main_v9 (((cfg50.win 0).blk ⟨4 * r.val + k.val, hlt⟩).view.emb y) = V c main_v9 i
  congr 1
  funext a
  apply Fin.ext
  match a with
  | ⟨0, _⟩ =>
    show win50_0.index ⟨4 * r.val + k.val, hlt⟩ (0 : Fin 2) * 1024 + 1 * (y 0).val = (i 0).val
    rw [e0', h0]; omega
  | ⟨1, _⟩ =>
    show win50_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk50_rhs_apply (c : Dev nD) (r k : Fin 4) (y : S1024x512.Idx) (i : S4096x512.Idx)
    (h0 : (i 0).val = 1024 * k.val + (y 0).val) (h1 : (i 1).val = (y 1).val) :
    iblk50_rhs V c (4 * r.val + k.val) y = (V c main_v284 : S4096x512.Idx → Elt F .f32) i := by
  have hN : cfg50.N = 16 := N_50
  have hr := r.isLt
  have hk := k.isLt
  have hlt : 4 * r.val + k.val < cfg50.N := by rw [hN]; omega
  rw [iblk50_rhs_eq V c _ hlt]
  obtain ⟨-, -, e0, e1, -, -⟩ := idxFacts50 ⟨4 * r.val + k.val, hlt⟩
  have e0' : win50_1.index ⟨4 * r.val + k.val, hlt⟩ (0 : Fin 2) = (4 * r.val + k.val) % 4 := e0
  have e1' : win50_1.index ⟨4 * r.val + k.val, hlt⟩ (1 : Fin 2) = 0 := e1
  unfold iblk50
  rw [View.read_apply]
  show V c main_v284 (((cfg50.win 1).blk ⟨4 * r.val + k.val, hlt⟩).view.emb y) = V c main_v284 i
  congr 1
  funext a
  apply Fin.ext
  match a with
  | ⟨0, _⟩ =>
    show win50_1.index ⟨4 * r.val + k.val, hlt⟩ (0 : Fin 2) * 1024 + 1 * (y 0).val = (i 0).val
    rw [e0', h0]; omega
  | ⟨1, _⟩ =>
    show win50_1.index ⟨4 * r.val + k.val, hlt⟩ (1 : Fin 2) * 512 + 1 * (y 1).val = (i 1).val
    rw [e1', h1]; omega

/-- The accumulated block after the fourth step, unfolded: four steps from the zero block. -/
theorem accOf50_three (c : Dev nD) (r : ℕ) :
    accOf50 V c r 3
      = k50_pay2 (iblk50_lhs V c (4 * r + 3)) (iblk50_rhs V c (4 * r + 3))
          (k50_pay2 (iblk50_lhs V c (4 * r + 2)) (iblk50_rhs V c (4 * r + 2))
            (k50_pay2 (iblk50_lhs V c (4 * r + 1)) (iblk50_rhs V c (4 * r + 1))
              (k50_pay2 (iblk50_lhs V c (4 * r)) (iblk50_rhs V c (4 * r)) (k50_pay1 (F := F))))) := rfl

end Cert.KernelIdeal.Hand

end
-- ==== Proof.ValKI50c.lean ====
/- Laid out by: python3 scratch/layout_regions.py --template-region 1 --region 50 --program KernelIdeal --prefix Val --parts a,b,c --sim main_v9=main_v9,main_v25=main_v284,main_v26=main_v285 --out-dir proof/Proof
   from the hand-written text of region 1 (ValKI1c.lean): the same text, the region's number substituted. -/
/-
  Region 50 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI50b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf50_step (x0 : Vec Ideal S1024x1024 .bf16) (x1 acc : Vec Ideal S1024x512 .f32) :
    k50_pay2 (F := Ideal) x0 x1 acc
      = Cert.MMLaw.accStep dot_S1024x1024_S1024x512_S1024x512_1_0_0_1_n_n none x0 x1 acc := by
  unfold k50_pay2
  simp only [shapeCast_self]
  rfl

/-- The accumulator starts from the zero block. -/
theorem accOf50_init (j : S1024x512.Idx) : k50_pay1 (F := Ideal) j = 0 := by
  unfold k50_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf50_eq_blk (c : Dev nD) (r : Fin 4) (D : DotDims S4096x4096 S4096x512 S4096x512) (hD : Cert.MMLaw.IsPlain D)
    (prec : Option ContractPrecision) :
    accOf50 V c r.val 3
      = Cert.MMLaw.blk (nr := 4) (nc := 1) 1024 512 rfl rfl (Cert.MMLaw.whole D prec (V c main_v9) (V c main_v284)) r 0 := by
  rw [accOf50_three]
  simp only [accOf50_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v9) (V c main_v284) r 0
    (fun k => iblk50_lhs V c (4 * r.val + k.val)) (fun k => iblk50_rhs V c (4 * r.val + k.val))
    (fun k => funext fun y => iblk50_lhs_apply V c r k y _ rfl rfl)
    (fun k => funext fun y => iblk50_rhs_apply V c r k y _ rfl (by show 512 * 0 + (y 1).val = (y 1).val; omega))
    (k50_pay1 (F := Ideal)) accOf50_init

/-! ## The output array after the region is the whole product -/

/-- The region leaves in its output array the product of its two operand arrays. -/
theorem final50_2_eq_whole (c : Dev nD) (D : DotDims S4096x4096 S4096x512 S4096x512) (hD : Cert.MMLaw.IsPlain D)
    (prec : Option ContractPrecision) :
    (dat50 (F := Ideal) V c).arrAt 2 cfg50.N = Cert.MMLaw.whole D prec (V c main_v9) (V c main_v284) := by
  rw [final50_2]
  funext i
  have hi0 : (i 0).val < 4096 := idx2_lt0 i
  have h := congrFun (accOf50_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final50_2_eq_dot (c : Dev nD) (D : DotDims S4096x4096 S4096x512 S4096x512) (hD : Cert.MMLaw.IsPlain D)
    (prec : Option ContractPrecision) :
    (dat50 (F := Ideal) V c).arrAt 2 cfg50.N = Host.dotGeneral (F := Ideal) (φ₁ := .bf16) (φ₂ := .f32) D prec (V c main_v9) (V c main_v284) :=
  final50_2_eq_whole V c D hD prec

end Cert.KernelIdeal.Hand

end
-- ==== Proof.ValKI51a.lean ====
/- Laid out by: python3 scratch/layout_regions.py --template-region 1 --region 51 --program KernelIdeal --prefix Val --parts a,b,c --sim main_v9=main_v8,main_v25=main_v279,main_v26=main_v289 --out-dir proof/Proof
   from the hand-written text of region 1 (ValKI1a.lean): the same text, the region's number substituted. -/
/-
  Region 51 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k51_pay1` (the zero block) and `k51_pay2` (accumulator plus product) are the two stores' payloads.

  So along one row of blocks r the accumulator after its step k is the left fold
    accOf51 r 0 = pay2 (a (r, 0)) (b 0) pay1,    accOf51 r (k + 1) = pay2 (a (r, k + 1)) (b (k + 1)) (accOf51 r k),
  the grid point (r, k) being position 4 r + k; and at k = 3 the output block holds accOf51 r 3.
-/
import proofs.«158944_j64613488001249_1_alg».proof.Proof.RegKI51
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout51_A_eq (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond51_0 i) (hc1 : ¬cond51_1 i)
    (x0 : Vec F S1024x1024 .bf16) (x1 : Vec F S1024x512 .f32) :
    sout51_A c i arg2 harg2 arg3 harg3 arg4 harg4 arg5 harg5 hc0 hc1 x0 x1 = k51_pay2 x0 x1 (k51_pay1 (F := F)) := by
  have hz : (![0, 0] : Fin 2 → Nat) = fun _ => 0 := funext fun a => by fin_cases a <;> rfl
  unfold sout51_A
  rw [View.read_writes_eq_canon _ _ _ (scover51_A c i arg2 harg2 arg3 harg3 arg4 harg4 arg5 harg5 hc0 hc1 x0 x1)]
  unfold kernelRun51_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout51_B_eq (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond51_0 i) (hc1 : ¬cond51_1 i)
    (x0 : Vec F S1024x1024 .bf16) (x1 : Vec F S1024x512 .f32) (xs0 : Vec F S1024x512 .f32) :
    sout51_B c i arg2 harg2 arg3 harg3 arg4 harg4 arg5 harg5 hc0 hc1 x0 x1 xs0 = k51_pay2 x0 x1 xs0 := by
  have hz : (![0, 0] : Fin 2 → Nat) = fun _ => 0 := funext fun a => by fin_cases a <;> rfl
  unfold sout51_B
  rw [View.read_writes_eq_canon _ _ _ (scover51_B c i arg2 harg2 arg3 harg3 arg4 harg4 arg5 harg5 hc0 hc1 x0 x1 xs0)]
  unfold kernelRun51_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout51_C_eq (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond51_0 i) (hc1 : cond51_1 i)
    (x0 : Vec F S1024x1024 .bf16) (x1 : Vec F S1024x512 .f32) (xs0 : Vec F S1024x512 .f32) :
    sout51_C c i arg2 harg2 arg3 harg3 arg4 harg4 arg5 harg5 hc0 hc1 x0 x1 xs0 = k51_pay2 x0 x1 xs0 := by
  have hz : (![0, 0] : Fin 2 → Nat) = fun _ => 0 := funext fun a => by fin_cases a <;> rfl
  unfold sout51_C
  rw [View.read_writes_eq_canon _ _ _ (scover51_C c i arg2 harg2 arg3 harg3 arg4 harg4 arg5 harg5 hc0 hc1 x0 x1 xs0)]
  unfold kernelRun51_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out51_C_eq (c : Dev nD) (i : grid51.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond51_0 i) (hc1 : cond51_1 i)
    (x0 : Vec F S1024x1024 .bf16) (x1 : Vec F S1024x512 .f32) (xs0 : Vec F S1024x512 .f32) :
    out51_C c i arg2 harg2 arg3 harg3 arg4 harg4 arg5 harg5 hc0 hc1 x0 x1 xs0 = k51_pay2 x0 x1 xs0 := by
  have hz : (![0, 0] : Fin 2 → Nat) = fun _ => 0 := funext fun a => by fin_cases a <;> rfl
  unfold out51_C
  rw [View.read_writes_eq_canon _ _ _ (cover51_C c i arg2 harg2 arg3 harg3 arg4 harg4 arg5 harg5 hc0 hc1 x0 x1 xs0)]
  unfold kernelRun51_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk51_lhs (c : Dev nD) (n : ℕ) : Vec F S1024x1024 .bf16 :=
  if h : n < cfg51.N then iblk51 V c 0 ⟨n, h⟩ else iblk51 V c 0 ⟨0, by have h : cfg51.N = 16 := N_51; omega⟩
/-- The right factor's block at grid position `n`. -/
def iblk51_rhs (c : Dev nD) (n : ℕ) : Vec F S1024x512 .f32 :=
  if h : n < cfg51.N then iblk51 V c 1 ⟨n, h⟩ else iblk51 V c 1 ⟨0, by have h : cfg51.N = 16 := N_51; omega⟩

theorem iblk51_lhs_eq (c : Dev nD) (n : ℕ) (h : n < cfg51.N) : iblk51_lhs V c n = iblk51 V c 0 ⟨n, h⟩ := dif_pos h
theorem iblk51_rhs_eq (c : Dev nD) (n : ℕ) (h : n < cfg51.N) : iblk51_rhs V c n = iblk51 V c 1 ⟨n, h⟩ := dif_pos h

/-! ## The accumulator along one row of blocks -/

/-- Row of blocks `r`, after its step `k`: the zero block plus the products of the blocks at positions 4 r, …, 4 r + k,
    added in that order. -/
def accOf51 (c : Dev nD) (r : ℕ) : ℕ → Vec F S1024x512 .f32
  | 0 => k51_pay2 (iblk51_lhs V c (4 * r)) (iblk51_rhs V c (4 * r)) (k51_pay1 (F := F))
  | k + 1 => k51_pay2 (iblk51_lhs V c (4 * r + (k + 1))) (iblk51_rhs V c (4 * r + (k + 1))) (accOf51 c r k)

theorem accOf51_zero (c : Dev nD) (r : ℕ) :
    accOf51 V c r 0 = k51_pay2 (iblk51_lhs V c (4 * r)) (iblk51_rhs V c (4 * r)) (k51_pay1 (F := F)) := rfl
theorem accOf51_succ (c : Dev nD) (r k : ℕ) :
    accOf51 V c r (k + 1) = k51_pay2 (iblk51_lhs V c (4 * r + (k + 1))) (iblk51_rhs V c (4 * r + (k + 1))) (accOf51 V c r k) := rfl

theorem iblk51_lhs_at (c : Dev nD) (t : Fin cfg51.N) (n : ℕ) (hn : n = t.val) : iblk51_lhs V c n = iblk51 V c 0 t := by
  subst hn; unfold iblk51_lhs; exact dif_pos t.isLt
theorem iblk51_rhs_at (c : Dev nD) (t : Fin cfg51.N) (n : ℕ) (hn : n = t.val) : iblk51_rhs V c n = iblk51 V c 1 t := by
  subst hn; unfold iblk51_rhs; exact dif_pos t.isLt

/-- At a grid point with k = 0 the fold starts: the zero block plus the product of the point's two blocks. -/
theorem accOf51_first (c : Dev nD) (t : Fin cfg51.N) (h0 : t.val % 4 = 0) :
    accOf51 V c (t.val / 4) (t.val % 4) = k51_pay2 (iblk51 V c 0 t) (iblk51 V c 1 t) (k51_pay1 (F := F)) := by
  rw [h0, accOf51_zero, iblk51_lhs_at V c t (4 * (t.val / 4)) (by omega), iblk51_rhs_at V c t (4 * (t.val / 4)) (by omega)]

/-- At a grid point with k ≠ 0 the fold takes one step from the position before, which is in the same row of blocks. -/
theorem accOf51_next (c : Dev nD) (t : Fin cfg51.N) (h0 : ¬t.val % 4 = 0) :
    accOf51 V c (t.val / 4) (t.val % 4)
      = k51_pay2 (iblk51 V c 0 t) (iblk51 V c 1 t) (accOf51 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf51_succ, iblk51_lhs_at V c t (4 * (t.val / 4) + (k + 1)) (by omega),
    iblk51_rhs_at V c t (4 * (t.val / 4) + (k + 1)) (by omega)]

/-! ## The accumulator and the output block, point by point, as pure functions of the blocks -/

/-- k = 0: the accumulator restarts from the zero block. -/
theorem outsAt51_first (c : Dev nD) (t : Fin cfg51.N) (h0 : t.val % 4 = 0) :
    (outsAt51 V c t.val t.isLt).2 = k51_pay2 (iblk51 V c 0 t) (iblk51 V c 1 t) (k51_pay1 (F := F)) := by
  rw [outsAt51_A V c t h0]
  dsimp only
  exact sout51_A_eq c (grid51.coords t) (ms51_0 t) (hs51_0 t) (ms51_1 t) (hs51_1 t) (ms51_2 t) (hs51_2 t) scM51 (Memref.isWhole_whole _) (isFirst51 t h0) (notLast51 t (by omega)) (iblk51 V c 0 t) (iblk51 V c 1 t)

/-- k ≠ 0: the point's product is added to what the point before left. -/
theorem outsAt51_next (c : Dev nD) (t : Fin cfg51.N) (h0 : ¬t.val % 4 = 0) :
    (outsAt51 V c t.val t.isLt).2
      = k51_pay2 (iblk51 V c 0 t) (iblk51 V c 1 t) (outsAt51 V c (t.val - 1) (Nat.lt_of_le_of_lt (Nat.sub_le _ _) t.isLt)).2 := by
  by_cases h3 : t.val % 4 = 3
  · rw [outsAt51_C V c t h0 h3]
    dsimp only
    exact sout51_C_eq c (grid51.coords t) (ms51_0 t) (hs51_0 t) (ms51_1 t) (hs51_1 t) (ms51_2 t) (hs51_2 t) scM51 (Memref.isWhole_whole _) (notFirst51 t h0) (isLast51 t h3) (iblk51 V c 0 t) (iblk51 V c 1 t)
      (outsAt51 V c (t.val - 1) (Nat.lt_of_le_of_lt (Nat.sub_le _ _) t.isLt)).2
  · rw [outsAt51_B V c t h0 h3]
    dsimp only
    exact sout51_B_eq c (grid51.coords t) (ms51_0 t) (hs51_0 t) (ms51_1 t) (hs51_1 t) (ms51_2 t) (hs51_2 t) scM51 (Memref.isWhole_whole _) (notFirst51 t h0) (notLast51 t h3) (iblk51 V c 0 t) (iblk51 V c 1 t)
      (outsAt51 V c (t.val - 1) (Nat.lt_of_le_of_lt (Nat.sub_le _ _) t.isLt)).2

/-- k = 3: the output block is the accumulator. -/
theorem outsAt51_last (c : Dev nD) (t : Fin cfg51.N) (h3 : t.val % 4 = 3) :
    (outsAt51 V c t.val t.isLt).1 = (outsAt51 V c t.val t.isLt).2 := by
  have h0 : ¬t.val % 4 = 0 := by omega
  rw [outsAt51_C V c t h0 h3]
  dsimp only
  exact (out51_C_eq c (grid51.coords t) (ms51_0 t) (hs51_0 t) (ms51_1 t) (hs51_1 t) (ms51_2 t) (hs51_2 t) scM51 (Memref.isWhole_whole _) (notFirst51 t h0) (isLast51 t h3) (iblk51 V c 0 t) (iblk51 V c 1 t)
      (outsAt51 V c (t.val - 1) (Nat.lt_of_le_of_lt (Nat.sub_le _ _) t.isLt)).2).trans
    (sout51_C_eq c (grid51.coords t) (ms51_0 t) (hs51_0 t) (ms51_1 t) (hs51_1 t) (ms51_2 t) (hs51_2 t) scM51 (Memref.isWhole_whole _) (notFirst51 t h0) (isLast51 t h3) (iblk51 V c 0 t) (iblk51 V c 1 t)
      (outsAt51 V c (t.val - 1) (Nat.lt_of_le_of_lt (Nat.sub_le _ _) t.isLt)).2).symm

/-! ## The accumulator is the fold -/

/-- After position `n` the accumulator holds row `n / 4`'s fold after its step `n % 4`: by induction on the position. -/
theorem outsAt51_acc_pos (c : Dev nD) :
    ∀ (n : ℕ) (hn : n < cfg51.N), (outsAt51 V c n hn).2 = accOf51 V c (n / 4) (n % 4) := by
  intro n
  induction n with
  | zero =>
    intro hn
    exact (outsAt51_first V c ⟨0, hn⟩ (Nat.zero_mod 4)).trans (accOf51_first V c ⟨0, hn⟩ (Nat.zero_mod 4)).symm
  | succ n ih =>
    intro hn
    by_cases h0 : (n + 1) % 4 = 0
    · exact (outsAt51_first V c ⟨n + 1, hn⟩ h0).trans (accOf51_first V c ⟨n + 1, hn⟩ h0).symm
    · refine (outsAt51_next V c ⟨n + 1, hn⟩ h0).trans (Eq.trans ?_ (accOf51_next V c ⟨n + 1, hn⟩ h0).symm)
      exact congrArg (k51_pay2 (iblk51 V c 0 ⟨n + 1, hn⟩) (iblk51 V c 1 ⟨n + 1, hn⟩)) (ih (Nat.lt_of_succ_lt hn))

/-- At every grid point the accumulator holds its row's fold after the point's step. -/
theorem outsAt51_acc (c : Dev nD) (t : Fin cfg51.N) :
    (outsAt51 V c t.val t.isLt).2 = accOf51 V c (t.val / 4) (t.val % 4) :=
  outsAt51_acc_pos V c t.val t.isLt

/-- At a row's last point the output block holds the row's whole fold. -/
theorem outsAt51_out (c : Dev nD) (t : Fin cfg51.N) (h3 : t.val % 4 = 3) :
    (outsAt51 V c t.val t.isLt).1 = accOf51 V c (t.val / 4) 3 := by
  have e := outsAt51_acc V c t
  rw [h3] at e
  exact (outsAt51_last V c t h3).trans e

end Cert.KernelIdeal.Hand

end
-- ==== Proof.ValKI51b.lean ====
/- Laid out by: python3 scratch/layout_regions.py --template-region 1 --region 51 --program KernelIdeal --prefix Val --parts a,b,c --sim main_v9=main_v8,main_v25=main_v279,main_v26=main_v289 --out-dir proof/Proof
   from the hand-written text of region 1 (ValKI1b.lean): the same text, the region's number substituted. -/
/-
  Region 51 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI51a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts51 : ∀ t : Fin cfg51.N,
    win51_0.index t (0 : Fin 2) = t.val / 4 ∧ win51_0.index t (1 : Fin 2) = t.val % 4
    ∧ win51_1.index t (0 : Fin 2) = t.val % 4 ∧ win51_1.index t (1 : Fin 2) = 0
    ∧ win51_2.index t (0 : Fin 2) = t.val / 4 ∧ win51_2.index t (1 : Fin 2) = 0 :=
  (by decide +kernel : ∀ t : Fin grid51.N,
    win51_0.index t (0 : Fin 2) = t.val / 4 ∧ win51_0.index t (1 : Fin 2) = t.val % 4
    ∧ win51_1.index t (0 : Fin 2) = t.val % 4 ∧ win51_1.index t (1 : Fin 2) = 0
    ∧ win51_2.index t (0 : Fin 2) = t.val / 4 ∧ win51_2.index t (1 : Fin 2) = 0)

/-! ## The output array as one function -/

/-- The whole output array: its row 1024 r + p, column q, is entry (p, q) of the block accumulated over k = 0 … 3 in
    block row r. -/
def whole51 (c : Dev nD) : S4096x512.Idx → Elt F .f32 := fun i =>
  accOf51 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole51_apply (c : Dev nD) (r : ℕ) (y : S1024x512.Idx) (i : S4096x512.Idx)
    (h0 : (i 0).val = 1024 * r + (y 0).val) (h1 : (i 1).val = (y 1).val) :
    whole51 V c i = accOf51 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole51
  rw [hr, e]

/-- Row 1024 r + p, column q of the array is entry (p, q) of block row r's accumulated block. -/
theorem whole51_ix2 (c : Dev nD) (r : Fin 4) (p : Fin 1024) (q : Fin 512) :
    whole51 V c (ix2 (n0 := 4096) (n1 := 512) ⟨1024 * r.val + p.val, by have := r.isLt; have := p.isLt; omega⟩ q)
      = accOf51 V c r.val 3 (ix2 p q) :=
  whole51_apply V c r.val (ix2 p q) _ rfl rfl

/-! ## What a point writes back -/

/-- A point with k = 3 writes back its block of the whole-array function. -/
theorem flushed51_eq (c : Dev nD) (t : Fin cfg51.N) (hf : (cfg51.win 2).flush t = true) :
    (dat51 V c).flushed 2 t = ((cfg51.win 2).blk t).view.read (Elt F) (whole51 V c) := by
  have h3 : t.val % 4 = 3 := (flush51_2 t).mp hf
  show (cfg51.win 2).cut (grid51.coords t) ((dat51 V c).after 2 t) = _
  rw [after51_2, outsAt51_out V c t h3]
  obtain ⟨-, -, -, -, e0, e1⟩ := idxFacts51 t
  funext j
  show accOf51 V c (t.val / 4) 3 j = whole51 V c (((cfg51.win 2).blk t).view.emb j)
  refine (whole51_apply V c (t.val / 4) j _ ?_ ?_).symm
  · show win51_2.index t (0 : Fin 2) * 1024 + 1 * (j 0).val = 1024 * (t.val / 4) + (j 0).val
    rw [e0]; omega
  · show win51_2.index t (1 : Fin 2) * 512 + 1 * (j 1).val = (j 1).val
    rw [e1]; omega

/-! ## The blocks written back cover the array -/

/-- An index is in a point's output block iff each coordinate is in the block's range on its axis. -/
theorem memBlk51 (t : Fin cfg51.N) (i : S4096x512.Idx) :
    i ∈ ((cfg51.win 2).blk t).view.set ↔ ∀ a : Fin 2, win51_2.index t a * S1024x512.size a ≤ (i a).val
      ∧ (i a).val < win51_2.index t a * S1024x512.size a + S1024x512.size a := by
  show i ∈ ((View.whole main_v289).slice (win51_2.rect t)).set ↔ _
  rw [View.set_slice_whole, Rect.mem_set_unit]
  exact Iff.rfl

/-- Row i of the array lies in the block written back at the point (i / 1024, 3). -/
theorem covered51 (i : S4096x512.Idx) :
    ∃ t : Fin cfg51.N, (cfg51.win 2).flush t = true ∧ i ∈ ((cfg51.win 2).blk t).view.set := by
  have hi0 : (i 0).val < 4096 := idx2_lt0 i
  have hi1 : (i 1).val < 512 := idx2_lt1 i
  have hN : cfg51.N = 16 := N_51
  obtain ⟨t, ht⟩ : ∃ t : Fin cfg51.N, t.val = 4 * ((i 0).val / 1024) + 3 :=
    ⟨⟨4 * ((i 0).val / 1024) + 3, by rw [hN]; omega⟩, rfl⟩
  refine ⟨t, (flush51_2 t).mpr (by omega), ?_⟩
  rw [memBlk51]
  obtain ⟨-, -, -, -, e0, e1⟩ := idxFacts51 t
  intro a
  match a with
  | ⟨0, _⟩ =>
    show win51_2.index t (0 : Fin 2) * 1024 ≤ (i 0).val ∧ (i 0).val < win51_2.index t (0 : Fin 2) * 1024 + 1024
    rw [e0]; omega
  | ⟨1, _⟩ =>
    show win51_2.index t (1 : Fin 2) * 512 ≤ (i 1).val ∧ (i 1).val < win51_2.index t (1 : Fin 2) * 512 + 512
    rw [e1]; omega

/-! ## The three arrays after the region -/

/-- The output array after the region is the whole-array function. -/
theorem final51_2 (c : Dev nD) : (dat51 V c).arrAt 2 cfg51.N = whole51 V c :=
  (dat51 V c).arrAt_eq_of_cover 2 (whole51 V c) (flushed51_eq V c) covered51

/-- The two input arrays are as the region found them. -/
theorem final51_0 (c : Dev nD) : (dat51 V c).arrAt 0 cfg51.N = V c main_v8 :=
  ((dat51 V c).arrAt_in 0 rfl cfg51.N).trans (A_eq51 V c 0)
theorem final51_1 (c : Dev nD) : (dat51 V c).arrAt 1 cfg51.N = V c main_v279 :=
  ((dat51 V c).arrAt_in 1 rfl cfg51.N).trans (A_eq51 V c 1)

/-! ## The input blocks as blocks of the operand arrays -/

/-- The left operand's block at the point (r, k): entry (y₀, y₁) is the array's entry (1024 r + y₀, 1024 k + y₁). -/
theorem iblk51_lhs_apply (c : Dev nD) (r k : Fin 4) (y : S1024x1024.Idx) (i : S4096x4096.Idx)
    (h0 : (i 0).val = 1024 * r.val + (y 0).val) (h1 : (i 1).val = 1024 * k.val + (y 1).val) :
    iblk51_lhs V c (4 * r.val + k.val) y = (V c main_v8 : S4096x4096.Idx → Elt F .bf16) i := by
  have hN : cfg51.N = 16 := N_51
  have hr := r.isLt
  have hk := k.isLt
  have hlt : 4 * r.val + k.val < cfg51.N := by rw [hN]; omega
  rw [iblk51_lhs_eq V c _ hlt]
  obtain ⟨e0, e1, -, -, -, -⟩ := idxFacts51 ⟨4 * r.val + k.val, hlt⟩
  have e0' : win51_0.index ⟨4 * r.val + k.val, hlt⟩ (0 : Fin 2) = (4 * r.val + k.val) / 4 := e0
  have e1' : win51_0.index ⟨4 * r.val + k.val, hlt⟩ (1 : Fin 2) = (4 * r.val + k.val) % 4 := e1
  unfold iblk51
  rw [View.read_apply]
  show V c main_v8 (((cfg51.win 0).blk ⟨4 * r.val + k.val, hlt⟩).view.emb y) = V c main_v8 i
  congr 1
  funext a
  apply Fin.ext
  match a with
  | ⟨0, _⟩ =>
    show win51_0.index ⟨4 * r.val + k.val, hlt⟩ (0 : Fin 2) * 1024 + 1 * (y 0).val = (i 0).val
    rw [e0', h0]; omega
  | ⟨1, _⟩ =>
    show win51_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk51_rhs_apply (c : Dev nD) (r k : Fin 4) (y : S1024x512.Idx) (i : S4096x512.Idx)
    (h0 : (i 0).val = 1024 * k.val + (y 0).val) (h1 : (i 1).val = (y 1).val) :
    iblk51_rhs V c (4 * r.val + k.val) y = (V c main_v279 : S4096x512.Idx → Elt F .f32) i := by
  have hN : cfg51.N = 16 := N_51
  have hr := r.isLt
  have hk := k.isLt
  have hlt : 4 * r.val + k.val < cfg51.N := by rw [hN]; omega
  rw [iblk51_rhs_eq V c _ hlt]
  obtain ⟨-, -, e0, e1, -, -⟩ := idxFacts51 ⟨4 * r.val + k.val, hlt⟩
  have e0' : win51_1.index ⟨4 * r.val + k.val, hlt⟩ (0 : Fin 2) = (4 * r.val + k.val) % 4 := e0
  have e1' : win51_1.index ⟨4 * r.val + k.val, hlt⟩ (1 : Fin 2) = 0 := e1
  unfold iblk51
  rw [View.read_apply]
  show V c main_v279 (((cfg51.win 1).blk ⟨4 * r.val + k.val, hlt⟩).view.emb y) = V c main_v279 i
  congr 1
  funext a
  apply Fin.ext
  match a with
  | ⟨0, _⟩ =>
    show win51_1.index ⟨4 * r.val + k.val, hlt⟩ (0 : Fin 2) * 1024 + 1 * (y 0).val = (i 0).val
    rw [e0', h0]; omega
  | ⟨1, _⟩ =>
    show win51_1.index ⟨4 * r.val + k.val, hlt⟩ (1 : Fin 2) * 512 + 1 * (y 1).val = (i 1).val
    rw [e1', h1]; omega

/-- The accumulated block after the fourth step, unfolded: four steps from the zero block. -/
theorem accOf51_three (c : Dev nD) (r : ℕ) :
    accOf51 V c r 3
      = k51_pay2 (iblk51_lhs V c (4 * r + 3)) (iblk51_rhs V c (4 * r + 3))
          (k51_pay2 (iblk51_lhs V c (4 * r + 2)) (iblk51_rhs V c (4 * r + 2))
            (k51_pay2 (iblk51_lhs V c (4 * r + 1)) (iblk51_rhs V c (4 * r + 1))
              (k51_pay2 (iblk51_lhs V c (4 * r)) (iblk51_rhs V c (4 * r)) (k51_pay1 (F := F))))) := rfl

end Cert.KernelIdeal.Hand

end
-- ==== Proof.ValKI51c.lean ====
/- Laid out by: python3 scratch/layout_regions.py --template-region 1 --region 51 --program KernelIdeal --prefix Val --parts a,b,c --sim main_v9=main_v8,main_v25=main_v279,main_v26=main_v289 --out-dir proof/Proof
   from the hand-written text of region 1 (ValKI1c.lean): the same text, the region's number substituted. -/
/-
  Region 51 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI51b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf51_step (x0 : Vec Ideal S1024x1024 .bf16) (x1 acc : Vec Ideal S1024x512 .f32) :
    k51_pay2 (F := Ideal) x0 x1 acc
      = Cert.MMLaw.accStep dot_S1024x1024_S1024x512_S1024x512_1_0_0_1_n_n none x0 x1 acc := by
  unfold k51_pay2
  simp only [shapeCast_self]
  rfl

/-- The accumulator starts from the zero block. -/
theorem accOf51_init (j : S1024x512.Idx) : k51_pay1 (F := Ideal) j = 0 := by
  unfold k51_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf51_eq_blk (c : Dev nD) (r : Fin 4) (D : DotDims S4096x4096 S4096x512 S4096x512) (hD : Cert.MMLaw.IsPlain D)
    (prec : Option ContractPrecision) :
    accOf51 V c r.val 3
      = Cert.MMLaw.blk (nr := 4) (nc := 1) 1024 512 rfl rfl (Cert.MMLaw.whole D prec (V c main_v8) (V c main_v279)) r 0 := by
  rw [accOf51_three]
  simp only [accOf51_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v8) (V c main_v279) r 0
    (fun k => iblk51_lhs V c (4 * r.val + k.val)) (fun k => iblk51_rhs V c (4 * r.val + k.val))
    (fun k => funext fun y => iblk51_lhs_apply V c r k y _ rfl rfl)
    (fun k => funext fun y => iblk51_rhs_apply V c r k y _ rfl (by show 512 * 0 + (y 1).val = (y 1).val; omega))
    (k51_pay1 (F := Ideal)) accOf51_init

/-! ## The output array after the region is the whole product -/

/-- The region leaves in its output array the product of its two operand arrays. -/
theorem final51_2_eq_whole (c : Dev nD) (D : DotDims S4096x4096 S4096x512 S4096x512) (hD : Cert.MMLaw.IsPlain D)
    (prec : Option ContractPrecision) :
    (dat51 (F := Ideal) V c).arrAt 2 cfg51.N = Cert.MMLaw.whole D prec (V c main_v8) (V c main_v279) := by
  rw [final51_2]
  funext i
  have hi0 : (i 0).val < 4096 := idx2_lt0 i
  have h := congrFun (accOf51_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final51_2_eq_dot (c : Dev nD) (D : DotDims S4096x4096 S4096x512 S4096x512) (hD : Cert.MMLaw.IsPlain D)
    (prec : Option ContractPrecision) :
    (dat51 (F := Ideal) V c).arrAt 2 cfg51.N = Host.dotGeneral (F := Ideal) (φ₁ := .bf16) (φ₂ := .f32) D prec (V c main_v8) (V c main_v279) :=
  final51_2_eq_whole V c D hD prec

end Cert.KernelIdeal.Hand

end
-- ==== Proof.ValKI52a.lean ====
/- Laid out by: python3 scratch/layout_grid41.py --prefix Val --template-region 0 --region 52 --program KernelIdeal --parts a,b --shapes S1024x128=S1024x512,S128x512=S512x512,S1024x512=S1024x512,S4096x128=S4096x512,S4096x512=S4096x512,main_arg0=main_v292,main_v12=main_v10,main_v17=main_v293,h0=h0,e0=e0,hi0=hi0,x0=x0
   from the hand-written text of region 0 (ValKI0a.lean): the same text, the region's number, block shapes, operand arrays substituted. -/
/-
  Region 52 of @main: from the output blocks to the whole output array.

  The grid is [4, 1]: the point t is block row t, and the reduction axis has one step, so every point zeroes the
  accumulator, adds the product of its two input blocks, and writes the sum back. The output window's block at t is
  rows 1024 t … 1024 t + 1023 of the result, written back at every point. So the array after the region is ONE function
  of the index: row 1024 r + p, column q holds entry (p, q) of the block the point r leaves. The steps: the three windows'
  block indices decided once over the grid; what a point writes back is its block of that function; the four blocks
  written back cover the array (row i lies in the block of the point i / 1024); hence the array after the region. The two
  operand arrays are not written. Last, each input block as a block of its operand array: the left operand's block at the
  point t is its rows 1024 t … 1024 t + 1023 (every column), the right operand's block is the whole array at every point.
-/
import proofs.«158944_j64613488001249_1_alg».proof.Proof.RegKI52
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t the left operand's block is (t, 0), the right operand's (0, 0), the output's (t, 0). -/
theorem idxFacts52 : ∀ t : Fin cfg52.N,
    win52_0.index t (0 : Fin 2) = t.val ∧ win52_0.index t (1 : Fin 2) = 0
    ∧ win52_1.index t (0 : Fin 2) = 0 ∧ win52_1.index t (1 : Fin 2) = 0
    ∧ win52_2.index t (0 : Fin 2) = t.val ∧ win52_2.index t (1 : Fin 2) = 0 :=
  (by decide +kernel : ∀ t : Fin grid52.N,
    win52_0.index t (0 : Fin 2) = t.val ∧ win52_0.index t (1 : Fin 2) = 0
    ∧ win52_1.index t (0 : Fin 2) = 0 ∧ win52_1.index t (1 : Fin 2) = 0
    ∧ win52_2.index t (0 : Fin 2) = t.val ∧ win52_2.index t (1 : Fin 2) = 0)

/-! ## The block a point leaves -/

/-- The block the point at grid position n leaves: the zero block plus the product of the point's two input blocks
    (past the grid's end, where nothing consults it, the block of position 0). -/
def accOf52 (c : Dev nD) (n : ℕ) : Vec F S1024x512 .f32 :=
  if h : n < cfg52.N then k52_pay2 (iblk52 V c 0 ⟨n, h⟩) (iblk52 V c 1 ⟨n, h⟩) (k52_pay1 (F := F))
  else k52_pay2 (iblk52 V c 0 ⟨0, by have h : cfg52.N = 4 := N_52; omega⟩)
    (iblk52 V c 1 ⟨0, by have h : cfg52.N = 4 := N_52; omega⟩) (k52_pay1 (F := F))

theorem accOf52_eq (c : Dev nD) (t : Fin cfg52.N) :
    accOf52 V c t.val = k52_pay2 (iblk52 V c 0 t) (iblk52 V c 1 t) (k52_pay1 (F := F)) := by
  unfold accOf52; exact dif_pos t.isLt

/-- At every point the output block holds that block. -/
theorem outsAt52_out (c : Dev nD) (t : Fin cfg52.N) : (outsAt52 V c t.val t.isLt).1 = accOf52 V c t.val :=
  (outsAt52_last V c t).trans ((outsAt52_first V c t).trans (accOf52_eq V c t).symm)

/-! ## The output array as one function -/

/-- The whole output array: its row 1024 r + p, column q, is entry (p, q) of the block the point r leaves. -/
def whole52 (c : Dev nD) : S4096x512.Idx → Elt F .f32 := fun i =>
  accOf52 V c ((i 0).val / 1024)
    (ix2 ⟨(i 0).val % 1024, Nat.mod_lt _ (by decide)⟩ ⟨(i 1).val, idx2_lt1 i⟩)

/-- The array read at an index given by a block row r and a position y inside the block. -/
theorem whole52_apply (c : Dev nD) (r : ℕ) (y : S1024x512.Idx) (i : S4096x512.Idx)
    (h0 : (i 0).val = 1024 * r + (y 0).val) (h1 : (i 1).val = (y 1).val) :
    whole52 V c i = accOf52 V c r y := by
  have hy : (y 0).val < 1024 := idx2_lt0 y
  have hr : (i 0).val / 1024 = r := by omega
  have hp : (i 0).val % 1024 = (y 0).val := by omega
  have e : (ix2 ⟨(i 0).val % 1024, Nat.mod_lt _ (by decide)⟩ ⟨(i 1).val, idx2_lt1 i⟩ : S1024x512.Idx) = y :=
    funext fun a => match a with
      | ⟨0, _⟩ => Fin.ext hp
      | ⟨1, _⟩ => Fin.ext h1
  unfold whole52
  rw [hr, e]

/-- Row 1024 r + p, column q of the array is entry (p, q) of the block the point r leaves. -/
theorem whole52_ix2 (c : Dev nD) (r : Fin 4) (p : Fin 1024) (q : Fin (S1024x512.size 1)) :
    whole52 V c (ix2 ⟨1024 * r.val + p.val, by have := r.isLt; have := p.isLt; omega⟩ q)
      = accOf52 V c r.val (ix2 p q) :=
  whole52_apply V c r.val (ix2 p q) _ rfl rfl

/-! ## What a point writes back -/

/-- Every point writes back its block of the whole-array function. -/
theorem flushed52_eq (c : Dev nD) (t : Fin cfg52.N) (hf : (cfg52.win 2).flush t = true) :
    (dat52 V c).flushed 2 t = ((cfg52.win 2).blk t).view.read (Elt F) (whole52 V c) := by
  show (cfg52.win 2).cut (grid52.coords t) ((dat52 V c).after 2 t) = _
  rw [after52_2, outsAt52_out V c t]
  obtain ⟨-, -, -, -, e0, e1⟩ := idxFacts52 t
  funext j
  show accOf52 V c t.val j = whole52 V c (((cfg52.win 2).blk t).view.emb j)
  refine (whole52_apply V c t.val j _ ?_ ?_).symm
  · show win52_2.index t (0 : Fin 2) * 1024 + 1 * (j 0).val = 1024 * t.val + (j 0).val
    rw [e0]; omega
  · show win52_2.index t (1 : Fin 2) * S1024x512.size (1 : Fin 2) + 1 * (j 1).val = (j 1).val
    rw [e1, Nat.zero_mul, Nat.zero_add, Nat.one_mul]

/-! ## The blocks written back cover the array -/

/-- An index is in a point's output block iff each coordinate is in the block's range on its axis. -/
theorem memBlk52 (t : Fin cfg52.N) (i : S4096x512.Idx) :
    i ∈ ((cfg52.win 2).blk t).view.set ↔ ∀ a : Fin 2, win52_2.index t a * S1024x512.size a ≤ (i a).val
      ∧ (i a).val < win52_2.index t a * S1024x512.size a + S1024x512.size a := by
  show i ∈ ((View.whole main_v293).slice (win52_2.rect t)).set ↔ _
  rw [View.set_slice_whole, Rect.mem_set_unit]
  exact Iff.rfl

/-- Row i of the array lies in the block written back at the point i / 1024. -/
theorem covered52 (i : S4096x512.Idx) :
    ∃ t : Fin cfg52.N, (cfg52.win 2).flush t = true ∧ i ∈ ((cfg52.win 2).blk t).view.set := by
  have hi0 : (i 0).val < 4096 := idx2_lt0 i
  have hi1 : (i 1).val < S1024x512.size (1 : Fin 2) := idx2_lt1 i
  have hN : cfg52.N = 4 := N_52
  obtain ⟨t, ht⟩ : ∃ t : Fin cfg52.N, t.val = (i 0).val / 1024 :=
    ⟨⟨(i 0).val / 1024, by rw [hN]; omega⟩, rfl⟩
  refine ⟨t, flush52_2 t, ?_⟩
  rw [memBlk52]
  obtain ⟨-, -, -, -, e0, e1⟩ := idxFacts52 t
  intro a
  match a with
  | ⟨0, _⟩ =>
    show win52_2.index t (0 : Fin 2) * 1024 ≤ (i 0).val ∧ (i 0).val < win52_2.index t (0 : Fin 2) * 1024 + 1024
    rw [e0]; omega
  | ⟨1, _⟩ =>
    show win52_2.index t (1 : Fin 2) * S1024x512.size (1 : Fin 2) ≤ (i 1).val
      ∧ (i 1).val < win52_2.index t (1 : Fin 2) * S1024x512.size (1 : Fin 2) + S1024x512.size (1 : Fin 2)
    rw [e1, Nat.zero_mul, Nat.zero_add]
    exact ⟨Nat.zero_le _, hi1⟩

/-! ## The three arrays after the region -/

/-- The output array after the region is the whole-array function. -/
theorem final52_2 (c : Dev nD) : (dat52 V c).arrAt 2 cfg52.N = whole52 V c :=
  (dat52 V c).arrAt_eq_of_cover 2 (whole52 V c) (flushed52_eq V c) covered52

/-- The two input arrays are as the region found them. -/
theorem final52_0 (c : Dev nD) : (dat52 V c).arrAt 0 cfg52.N = V c main_v292 :=
  ((dat52 V c).arrAt_in 0 rfl cfg52.N).trans (A_eq52 V c 0)
theorem final52_1 (c : Dev nD) : (dat52 V c).arrAt 1 cfg52.N = V c main_v10 :=
  ((dat52 V c).arrAt_in 1 rfl cfg52.N).trans (A_eq52 V c 1)

/-! ## The input blocks as blocks of the operand arrays -/

/-- The left operand's block at the point t: entry (y₀, y₁) is the array's entry (1024 t + y₀, y₁). -/
theorem iblk52_lhs_apply (c : Dev nD) (t : Fin cfg52.N) (y : S1024x512.Idx) (i : S4096x512.Idx)
    (h0 : (i 0).val = 1024 * t.val + (y 0).val) (h1 : (i 1).val = (y 1).val) :
    iblk52 V c 0 t y = (V c main_v292 : S4096x512.Idx → Elt F .f32) i := by
  obtain ⟨e0, e1, -, -, -, -⟩ := idxFacts52 t
  unfold iblk52
  rw [View.read_apply]
  show V c main_v292 (((cfg52.win 0).blk t).view.emb y) = V c main_v292 i
  congr 1
  funext a
  apply Fin.ext
  match a with
  | ⟨0, _⟩ =>
    show win52_0.index t (0 : Fin 2) * 1024 + 1 * (y 0).val = (i 0).val
    rw [e0, h0]; omega
  | ⟨1, _⟩ =>
    show win52_0.index t (1 : Fin 2) * S1024x512.size (1 : Fin 2) + 1 * (y 1).val = (i 1).val
    rw [e1, h1, Nat.zero_mul, Nat.zero_add, Nat.one_mul]

/-- The right operand's block is the whole array at every point. -/
theorem iblk52_rhs_eq (c : Dev nD) (t : Fin cfg52.N) :
    iblk52 V c 1 t = (V c main_v10 : S512x512.Idx → Elt F .bf16) := by
  obtain ⟨-, -, e0, e1, -, -⟩ := idxFacts52 t
  funext y
  unfold iblk52
  rw [View.read_apply]
  show V c main_v10 (((cfg52.win 1).blk t).view.emb y) = V c main_v10 y
  congr 1
  funext a
  apply Fin.ext
  match a with
  | ⟨0, _⟩ =>
    show win52_1.index t (0 : Fin 2) * S512x512.size (0 : Fin 2) + 1 * (y 0).val = (y 0).val
    rw [e0, Nat.zero_mul, Nat.zero_add, Nat.one_mul]
  | ⟨1, _⟩ =>
    show win52_1.index t (1 : Fin 2) * S512x512.size (1 : Fin 2) + 1 * (y 1).val = (y 1).val
    rw [e1, Nat.zero_mul, Nat.zero_add, Nat.one_mul]

end Cert.KernelIdeal.Hand

end
-- ==== Proof.ValKI52b.lean ====
/- Laid out by: python3 scratch/layout_grid41.py --prefix Val --template-region 0 --region 52 --program KernelIdeal --parts a,b --shapes S1024x128=S1024x512,S128x512=S512x512,S1024x512=S1024x512,S4096x128=S4096x512,S4096x512=S4096x512,main_arg0=main_v292,main_v12=main_v10,main_v17=main_v293,h0=h0,e0=e0,hi0=hi0,x0=x0
   from the hand-written text of region 0 (ValKI0b.lean): the same text, the region's number, block shapes, operand arrays substituted. -/
/-
  Region 52 of @main at the extended reals: the output array after the region is the product of the two operand arrays.

  A change of float format is the identity at these values and a reshape to the same shape is the identity, so the
  kernel's one accumulation step is "accumulator plus the product of the two blocks into the zero block", and the
  accumulator starts from the zero block. The block the point r leaves is then zero plus the product of rows
  1024 r … 1024 r + 1023 of the left operand with the whole right operand, which is the same rows of the whole product:
  the contraction axis is not cut, so the sums are the same term by term. Read through the whole-array function of the
  blocks-to-array module, entry (1024 r + p, q) of the output array is that entry of the product.
-/
import proofs.«158944_j64613488001249_1_alg».proof.Proof.ValKI52a
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The accumulation step, and its start, at the extended reals -/

/-- A change of format and a reshape to the same shape are the identity: the step adds the product of the two blocks
    (into the zero block) to the accumulator. -/
theorem accOf52_step (x0 : Vec Ideal S1024x512 .f32) (x1 : Vec Ideal S512x512 .bf16) (acc : Vec Ideal S1024x512 .f32) :
    k52_pay2 (F := Ideal) x0 x1 acc
      = Cert.MMLaw.accStep dot_S1024x512_S512x512_S1024x512_1_0_0_1_n_n none x0 x1 acc := by
  unfold k52_pay2
  simp only [shapeCast_self]
  rfl

/-- The accumulator starts from the zero block. -/
theorem accOf52_init (j : S1024x512.Idx) : k52_pay1 (F := Ideal) j = 0 := by
  unfold k52_pay1
  rw [shapeCast_self]
  exact Ideal.ofBits_zero_f32

/-! ## The block a point leaves is a block of the whole product -/

/-- The block the point r leaves is rows 1024 r … 1024 r + 1023 of the product of the two operand arrays. -/
theorem accOf52_eq_blk (c : Dev nD) (r : Fin 4) (D : DotDims S4096x512 S512x512 S4096x512) (hD : Cert.MMLaw.IsPlain D)
    (prec : Option ContractPrecision) :
    accOf52 V c r.val
      = Cert.MMLaw.rowBlk (Cert.MMLaw.whole D prec (V c main_v292) (V c main_v10)) r := by
  have hN : cfg52.N = 4 := N_52
  have hr : r.val < cfg52.N := by rw [hN]; exact r.isLt
  rw [accOf52_eq V c ⟨r.val, hr⟩, accOf52_step]
  exact Cert.MMLaw.law41 dot_S1024x512_S512x512_S1024x512_1_0_0_1_n_n ⟨rfl, rfl, rfl, rfl, rfl, rfl⟩ D hD none prec
    (V c main_v292) (V c main_v10) r (iblk52 V c 0 ⟨r.val, hr⟩) (iblk52 V c 1 ⟨r.val, hr⟩)
    (funext fun y => iblk52_lhs_apply V c ⟨r.val, hr⟩ y _ rfl rfl) (iblk52_rhs_eq V c ⟨r.val, hr⟩)
    (k52_pay1 (F := Ideal)) accOf52_init

/-! ## The output array after the region is the whole product -/

/-- The region leaves in its output array the product of its two operand arrays. -/
theorem final52_2_eq_whole (c : Dev nD) (D : DotDims S4096x512 S512x512 S4096x512) (hD : Cert.MMLaw.IsPlain D)
    (prec : Option ContractPrecision) :
    (dat52 (F := Ideal) V c).arrAt 2 cfg52.N = Cert.MMLaw.whole D prec (V c main_v292) (V c main_v10) := by
  rw [final52_2]
  funext i
  have hi0 : (i 0).val < 4096 := idx2_lt0 i
  have h := congrFun (accOf52_eq_blk V c ⟨(i 0).val / 1024, by omega⟩ D hD prec)
    (ix2 ⟨(i 0).val % 1024, Nat.mod_lt _ (by decide)⟩ ⟨(i 1).val, idx2_lt1 i⟩)
  rw [Cert.MMLaw.rowBlk_apply] at h
  refine Eq.trans h (congrArg _ ?_)
  funext a
  match a with
  | ⟨0, _⟩ => exact Fin.ext (by show 1024 * ((i 0).val / 1024) + (i 0).val % 1024 = (i 0).val; omega)
  | ⟨1, _⟩ => rfl

/-- The same with the operands at the formats they are stored in. -/
theorem final52_2_eq_dot (c : Dev nD) (D : DotDims S4096x512 S512x512 S4096x512) (hD : Cert.MMLaw.IsPlain D)
    (prec : Option ContractPrecision) :
    (dat52 (F := Ideal) V c).arrAt 2 cfg52.N
      = Host.dotGeneral (F := Ideal) (φ₁ := .f32) (φ₂ := .bf16) D prec (V c main_v292) (V c main_v10) :=
  final52_2_eq_whole V c D hD prec

end Cert.KernelIdeal.Hand

end
-- ==== Proof.ValKI53a.lean ====
/- Laid out by: python3 scratch/layout_regions.py --template-region 1 --region 53 --program KernelIdeal --prefix Val --parts a,b,c --sim main_v9=main_v7,main_v25=main_v293,main_v26=main_v294 --out-dir proof/Proof
   from the hand-written text of region 1 (ValKI1a.lean): the same text, the region's number substituted. -/
/-
  Region 53 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k53_pay1` (the zero block) and `k53_pay2` (accumulator plus product) are the two stores' payloads.

  So along one row of blocks r the accumulator after its step k is the left fold
    accOf53 r 0 = pay2 (a (r, 0)) (b 0) pay1,    accOf53 r (k + 1) = pay2 (a (r, k + 1)) (b (k + 1)) (accOf53 r k),
  the grid point (r, k) being position 4 r + k; and at k = 3 the output block holds accOf53 r 3.
-/
import proofs.«158944_j64613488001249_1_alg».proof.Proof.RegKI53
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout53_A_eq (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond53_0 i) (hc1 : ¬cond53_1 i)
    (x0 : Vec F S1024x1024 .bf16) (x1 : Vec F S1024x512 .f32) :
    sout53_A c i arg2 harg2 arg3 harg3 arg4 harg4 arg5 harg5 hc0 hc1 x0 x1 = k53_pay2 x0 x1 (k53_pay1 (F := F)) := by
  have hz : (![0, 0] : Fin 2 → Nat) = fun _ => 0 := funext fun a => by fin_cases a <;> rfl
  unfold sout53_A
  rw [View.read_writes_eq_canon _ _ _ (scover53_A c i arg2 harg2 arg3 harg3 arg4 harg4 arg5 harg5 hc0 hc1 x0 x1)]
  unfold kernelRun53_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout53_B_eq (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond53_0 i) (hc1 : ¬cond53_1 i)
    (x0 : Vec F S1024x1024 .bf16) (x1 : Vec F S1024x512 .f32) (xs0 : Vec F S1024x512 .f32) :
    sout53_B c i arg2 harg2 arg3 harg3 arg4 harg4 arg5 harg5 hc0 hc1 x0 x1 xs0 = k53_pay2 x0 x1 xs0 := by
  have hz : (![0, 0] : Fin 2 → Nat) = fun _ => 0 := funext fun a => by fin_cases a <;> rfl
  unfold sout53_B
  rw [View.read_writes_eq_canon _ _ _ (scover53_B c i arg2 harg2 arg3 harg3 arg4 harg4 arg5 harg5 hc0 hc1 x0 x1 xs0)]
  unfold kernelRun53_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout53_C_eq (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond53_0 i) (hc1 : cond53_1 i)
    (x0 : Vec F S1024x1024 .bf16) (x1 : Vec F S1024x512 .f32) (xs0 : Vec F S1024x512 .f32) :
    sout53_C c i arg2 harg2 arg3 harg3 arg4 harg4 arg5 harg5 hc0 hc1 x0 x1 xs0 = k53_pay2 x0 x1 xs0 := by
  have hz : (![0, 0] : Fin 2 → Nat) = fun _ => 0 := funext fun a => by fin_cases a <;> rfl
  unfold sout53_C
  rw [View.read_writes_eq_canon _ _ _ (scover53_C c i arg2 harg2 arg3 harg3 arg4 harg4 arg5 harg5 hc0 hc1 x0 x1 xs0)]
  unfold kernelRun53_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out53_C_eq (c : Dev nD) (i : grid53.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond53_0 i) (hc1 : cond53_1 i)
    (x0 : Vec F S1024x1024 .bf16) (x1 : Vec F S1024x512 .f32) (xs0 : Vec F S1024x512 .f32) :
    out53_C c i arg2 harg2 arg3 harg3 arg4 harg4 arg5 harg5 hc0 hc1 x0 x1 xs0 = k53_pay2 x0 x1 xs0 := by
  have hz : (![0, 0] : Fin 2 → Nat) = fun _ => 0 := funext fun a => by fin_cases a <;> rfl
  unfold out53_C
  rw [View.read_writes_eq_canon _ _ _ (cover53_C c i arg2 harg2 arg3 harg3 arg4 harg4 arg5 harg5 hc0 hc1 x0 x1 xs0)]
  unfold kernelRun53_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk53_lhs (c : Dev nD) (n : ℕ) : Vec F S1024x1024 .bf16 :=
  if h : n < cfg53.N then iblk53 V c 0 ⟨n, h⟩ else iblk53 V c 0 ⟨0, by have h : cfg53.N = 16 := N_53; omega⟩
/-- The right factor's block at grid position `n`. -/
def iblk53_rhs (c : Dev nD) (n : ℕ) : Vec F S1024x512 .f32 :=
  if h : n < cfg53.N then iblk53 V c 1 ⟨n, h⟩ else iblk53 V c 1 ⟨0, by have h : cfg53.N = 16 := N_53; omega⟩

theorem iblk53_lhs_eq (c : Dev nD) (n : ℕ) (h : n < cfg53.N) : iblk53_lhs V c n = iblk53 V c 0 ⟨n, h⟩ := dif_pos h
theorem iblk53_rhs_eq (c : Dev nD) (n : ℕ) (h : n < cfg53.N) : iblk53_rhs V c n = iblk53 V c 1 ⟨n, h⟩ := dif_pos h

/-! ## The accumulator along one row of blocks -/

/-- Row of blocks `r`, after its step `k`: the zero block plus the products of the blocks at positions 4 r, …, 4 r + k,
    added in that order. -/
def accOf53 (c : Dev nD) (r : ℕ) : ℕ → Vec F S1024x512 .f32
  | 0 => k53_pay2 (iblk53_lhs V c (4 * r)) (iblk53_rhs V c (4 * r)) (k53_pay1 (F := F))
  | k + 1 => k53_pay2 (iblk53_lhs V c (4 * r + (k + 1))) (iblk53_rhs V c (4 * r + (k + 1))) (accOf53 c r k)

theorem accOf53_zero (c : Dev nD) (r : ℕ) :
    accOf53 V c r 0 = k53_pay2 (iblk53_lhs V c (4 * r)) (iblk53_rhs V c (4 * r)) (k53_pay1 (F := F)) := rfl
theorem accOf53_succ (c : Dev nD) (r k : ℕ) :
    accOf53 V c r (k + 1) = k53_pay2 (iblk53_lhs V c (4 * r + (k + 1))) (iblk53_rhs V c (4 * r + (k + 1))) (accOf53 V c r k) := rfl

theorem iblk53_lhs_at (c : Dev nD) (t : Fin cfg53.N) (n : ℕ) (hn : n = t.val) : iblk53_lhs V c n = iblk53 V c 0 t := by
  subst hn; unfold iblk53_lhs; exact dif_pos t.isLt
theorem iblk53_rhs_at (c : Dev nD) (t : Fin cfg53.N) (n : ℕ) (hn : n = t.val) : iblk53_rhs V c n = iblk53 V c 1 t := by
  subst hn; unfold iblk53_rhs; exact dif_pos t.isLt

/-- At a grid point with k = 0 the fold starts: the zero block plus the product of the point's two blocks. -/
theorem accOf53_first (c : Dev nD) (t : Fin cfg53.N) (h0 : t.val % 4 = 0) :
    accOf53 V c (t.val / 4) (t.val % 4) = k53_pay2 (iblk53 V c 0 t) (iblk53 V c 1 t) (k53_pay1 (F := F)) := by
  rw [h0, accOf53_zero, iblk53_lhs_at V c t (4 * (t.val / 4)) (by omega), iblk53_rhs_at V c t (4 * (t.val / 4)) (by omega)]

/-- At a grid point with k ≠ 0 the fold takes one step from the position before, which is in the same row of blocks. -/
theorem accOf53_next (c : Dev nD) (t : Fin cfg53.N) (h0 : ¬t.val % 4 = 0) :
    accOf53 V c (t.val / 4) (t.val % 4)
      = k53_pay2 (iblk53 V c 0 t) (iblk53 V c 1 t) (accOf53 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf53_succ, iblk53_lhs_at V c t (4 * (t.val / 4) + (k + 1)) (by omega),
    iblk53_rhs_at V c t (4 * (t.val / 4) + (k + 1)) (by omega)]

/-! ## The accumulator and the output block, point by point, as pure functions of the blocks -/

/-- k = 0: the accumulator restarts from the zero block. -/
theorem outsAt53_first (c : Dev nD) (t : Fin cfg53.N) (h0 : t.val % 4 = 0) :
    (outsAt53 V c t.val t.isLt).2 = k53_pay2 (iblk53 V c 0 t) (iblk53 V c 1 t) (k53_pay1 (F := F)) := by
  rw [outsAt53_A V c t h0]
  dsimp only
  exact sout53_A_eq c (grid53.coords t) (ms53_0 t) (hs53_0 t) (ms53_1 t) (hs53_1 t) (ms53_2 t) (hs53_2 t) scM53 (Memref.isWhole_whole _) (isFirst53 t h0) (notLast53 t (by omega)) (iblk53 V c 0 t) (iblk53 V c 1 t)

/-- k ≠ 0: the point's product is added to what the point before left. -/
theorem outsAt53_next (c : Dev nD) (t : Fin cfg53.N) (h0 : ¬t.val % 4 = 0) :
    (outsAt53 V c t.val t.isLt).2
      = k53_pay2 (iblk53 V c 0 t) (iblk53 V c 1 t) (outsAt53 V c (t.val - 1) (Nat.lt_of_le_of_lt (Nat.sub_le _ _) t.isLt)).2 := by
  by_cases h3 : t.val % 4 = 3
  · rw [outsAt53_C V c t h0 h3]
    dsimp only
    exact sout53_C_eq c (grid53.coords t) (ms53_0 t) (hs53_0 t) (ms53_1 t) (hs53_1 t) (ms53_2 t) (hs53_2 t) scM53 (Memref.isWhole_whole _) (notFirst53 t h0) (isLast53 t h3) (iblk53 V c 0 t) (iblk53 V c 1 t)
      (outsAt53 V c (t.val - 1) (Nat.lt_of_le_of_lt (Nat.sub_le _ _) t.isLt)).2
  · rw [outsAt53_B V c t h0 h3]
    dsimp only
    exact sout53_B_eq c (grid53.coords t) (ms53_0 t) (hs53_0 t) (ms53_1 t) (hs53_1 t) (ms53_2 t) (hs53_2 t) scM53 (Memref.isWhole_whole _) (notFirst53 t h0) (notLast53 t h3) (iblk53 V c 0 t) (iblk53 V c 1 t)
      (outsAt53 V c (t.val - 1) (Nat.lt_of_le_of_lt (Nat.sub_le _ _) t.isLt)).2

/-- k = 3: the output block is the accumulator. -/
theorem outsAt53_last (c : Dev nD) (t : Fin cfg53.N) (h3 : t.val % 4 = 3) :
    (outsAt53 V c t.val t.isLt).1 = (outsAt53 V c t.val t.isLt).2 := by
  have h0 : ¬t.val % 4 = 0 := by omega
  rw [outsAt53_C V c t h0 h3]
  dsimp only
  exact (out53_C_eq c (grid53.coords t) (ms53_0 t) (hs53_0 t) (ms53_1 t) (hs53_1 t) (ms53_2 t) (hs53_2 t) scM53 (Memref.isWhole_whole _) (notFirst53 t h0) (isLast53 t h3) (iblk53 V c 0 t) (iblk53 V c 1 t)
      (outsAt53 V c (t.val - 1) (Nat.lt_of_le_of_lt (Nat.sub_le _ _) t.isLt)).2).trans
    (sout53_C_eq c (grid53.coords t) (ms53_0 t) (hs53_0 t) (ms53_1 t) (hs53_1 t) (ms53_2 t) (hs53_2 t) scM53 (Memref.isWhole_whole _) (notFirst53 t h0) (isLast53 t h3) (iblk53 V c 0 t) (iblk53 V c 1 t)
      (outsAt53 V c (t.val - 1) (Nat.lt_of_le_of_lt (Nat.sub_le _ _) t.isLt)).2).symm

/-! ## The accumulator is the fold -/

/-- After position `n` the accumulator holds row `n / 4`'s fold after its step `n % 4`: by induction on the position. -/
theorem outsAt53_acc_pos (c : Dev nD) :
    ∀ (n : ℕ) (hn : n < cfg53.N), (outsAt53 V c n hn).2 = accOf53 V c (n / 4) (n % 4) := by
  intro n
  induction n with
  | zero =>
    intro hn
    exact (outsAt53_first V c ⟨0, hn⟩ (Nat.zero_mod 4)).trans (accOf53_first V c ⟨0, hn⟩ (Nat.zero_mod 4)).symm
  | succ n ih =>
    intro hn
    by_cases h0 : (n + 1) % 4 = 0
    · exact (outsAt53_first V c ⟨n + 1, hn⟩ h0).trans (accOf53_first V c ⟨n + 1, hn⟩ h0).symm
    · refine (outsAt53_next V c ⟨n + 1, hn⟩ h0).trans (Eq.trans ?_ (accOf53_next V c ⟨n + 1, hn⟩ h0).symm)
      exact congrArg (k53_pay2 (iblk53 V c 0 ⟨n + 1, hn⟩) (iblk53 V c 1 ⟨n + 1, hn⟩)) (ih (Nat.lt_of_succ_lt hn))

/-- At every grid point the accumulator holds its row's fold after the point's step. -/
theorem outsAt53_acc (c : Dev nD) (t : Fin cfg53.N) :
    (outsAt53 V c t.val t.isLt).2 = accOf53 V c (t.val / 4) (t.val % 4) :=
  outsAt53_acc_pos V c t.val t.isLt

/-- At a row's last point the output block holds the row's whole fold. -/
theorem outsAt53_out (c : Dev nD) (t : Fin cfg53.N) (h3 : t.val % 4 = 3) :
    (outsAt53 V c t.val t.isLt).1 = accOf53 V c (t.val / 4) 3 := by
  have e := outsAt53_acc V c t
  rw [h3] at e
  exact (outsAt53_last V c t h3).trans e

end Cert.KernelIdeal.Hand

end
-- ==== Proof.ValKI53b.lean ====
/- Laid out by: python3 scratch/layout_regions.py --template-region 1 --region 53 --program KernelIdeal --prefix Val --parts a,b,c --sim main_v9=main_v7,main_v25=main_v293,main_v26=main_v294 --out-dir proof/Proof
   from the hand-written text of region 1 (ValKI1b.lean): the same text, the region's number substituted. -/
/-
  Region 53 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI53a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts53 : ∀ t : Fin cfg53.N,
    win53_0.index t (0 : Fin 2) = t.val / 4 ∧ win53_0.index t (1 : Fin 2) = t.val % 4
    ∧ win53_1.index t (0 : Fin 2) = t.val % 4 ∧ win53_1.index t (1 : Fin 2) = 0
    ∧ win53_2.index t (0 : Fin 2) = t.val / 4 ∧ win53_2.index t (1 : Fin 2) = 0 :=
  (by decide +kernel : ∀ t : Fin grid53.N,
    win53_0.index t (0 : Fin 2) = t.val / 4 ∧ win53_0.index t (1 : Fin 2) = t.val % 4
    ∧ win53_1.index t (0 : Fin 2) = t.val % 4 ∧ win53_1.index t (1 : Fin 2) = 0
    ∧ win53_2.index t (0 : Fin 2) = t.val / 4 ∧ win53_2.index t (1 : Fin 2) = 0)

/-! ## The output array as one function -/

/-- The whole output array: its row 1024 r + p, column q, is entry (p, q) of the block accumulated over k = 0 … 3 in
    block row r. -/
def whole53 (c : Dev nD) : S4096x512.Idx → Elt F .f32 := fun i =>
  accOf53 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole53_apply (c : Dev nD) (r : ℕ) (y : S1024x512.Idx) (i : S4096x512.Idx)
    (h0 : (i 0).val = 1024 * r + (y 0).val) (h1 : (i 1).val = (y 1).val) :
    whole53 V c i = accOf53 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole53
  rw [hr, e]

/-- Row 1024 r + p, column q of the array is entry (p, q) of block row r's accumulated block. -/
theorem whole53_ix2 (c : Dev nD) (r : Fin 4) (p : Fin 1024) (q : Fin 512) :
    whole53 V c (ix2 (n0 := 4096) (n1 := 512) ⟨1024 * r.val + p.val, by have := r.isLt; have := p.isLt; omega⟩ q)
      = accOf53 V c r.val 3 (ix2 p q) :=
  whole53_apply V c r.val (ix2 p q) _ rfl rfl

/-! ## What a point writes back -/

/-- A point with k = 3 writes back its block of the whole-array function. -/
theorem flushed53_eq (c : Dev nD) (t : Fin cfg53.N) (hf : (cfg53.win 2).flush t = true) :
    (dat53 V c).flushed 2 t = ((cfg53.win 2).blk t).view.read (Elt F) (whole53 V c) := by
  have h3 : t.val % 4 = 3 := (flush53_2 t).mp hf
  show (cfg53.win 2).cut (grid53.coords t) ((dat53 V c).after 2 t) = _
  rw [after53_2, outsAt53_out V c t h3]
  obtain ⟨-, -, -, -, e0, e1⟩ := idxFacts53 t
  funext j
  show accOf53 V c (t.val / 4) 3 j = whole53 V c (((cfg53.win 2).blk t).view.emb j)
  refine (whole53_apply V c (t.val / 4) j _ ?_ ?_).symm
  · show win53_2.index t (0 : Fin 2) * 1024 + 1 * (j 0).val = 1024 * (t.val / 4) + (j 0).val
    rw [e0]; omega
  · show win53_2.index t (1 : Fin 2) * 512 + 1 * (j 1).val = (j 1).val
    rw [e1]; omega

/-! ## The blocks written back cover the array -/

/-- An index is in a point's output block iff each coordinate is in the block's range on its axis. -/
theorem memBlk53 (t : Fin cfg53.N) (i : S4096x512.Idx) :
    i ∈ ((cfg53.win 2).blk t).view.set ↔ ∀ a : Fin 2, win53_2.index t a * S1024x512.size a ≤ (i a).val
      ∧ (i a).val < win53_2.index t a * S1024x512.size a + S1024x512.size a := by
  show i ∈ ((View.whole main_v294).slice (win53_2.rect t)).set ↔ _
  rw [View.set_slice_whole, Rect.mem_set_unit]
  exact Iff.rfl

/-- Row i of the array lies in the block written back at the point (i / 1024, 3). -/
theorem covered53 (i : S4096x512.Idx) :
    ∃ t : Fin cfg53.N, (cfg53.win 2).flush t = true ∧ i ∈ ((cfg53.win 2).blk t).view.set := by
  have hi0 : (i 0).val < 4096 := idx2_lt0 i
  have hi1 : (i 1).val < 512 := idx2_lt1 i
  have hN : cfg53.N = 16 := N_53
  obtain ⟨t, ht⟩ : ∃ t : Fin cfg53.N, t.val = 4 * ((i 0).val / 1024) + 3 :=
    ⟨⟨4 * ((i 0).val / 1024) + 3, by rw [hN]; omega⟩, rfl⟩
  refine ⟨t, (flush53_2 t).mpr (by omega), ?_⟩
  rw [memBlk53]
  obtain ⟨-, -, -, -, e0, e1⟩ := idxFacts53 t
  intro a
  match a with
  | ⟨0, _⟩ =>
    show win53_2.index t (0 : Fin 2) * 1024 ≤ (i 0).val ∧ (i 0).val < win53_2.index t (0 : Fin 2) * 1024 + 1024
    rw [e0]; omega
  | ⟨1, _⟩ =>
    show win53_2.index t (1 : Fin 2) * 512 ≤ (i 1).val ∧ (i 1).val < win53_2.index t (1 : Fin 2) * 512 + 512
    rw [e1]; omega

/-! ## The three arrays after the region -/

/-- The output array after the region is the whole-array function. -/
theorem final53_2 (c : Dev nD) : (dat53 V c).arrAt 2 cfg53.N = whole53 V c :=
  (dat53 V c).arrAt_eq_of_cover 2 (whole53 V c) (flushed53_eq V c) covered53

/-- The two input arrays are as the region found them. -/
theorem final53_0 (c : Dev nD) : (dat53 V c).arrAt 0 cfg53.N = V c main_v7 :=
  ((dat53 V c).arrAt_in 0 rfl cfg53.N).trans (A_eq53 V c 0)
theorem final53_1 (c : Dev nD) : (dat53 V c).arrAt 1 cfg53.N = V c main_v293 :=
  ((dat53 V c).arrAt_in 1 rfl cfg53.N).trans (A_eq53 V c 1)

/-! ## The input blocks as blocks of the operand arrays -/

/-- The left operand's block at the point (r, k): entry (y₀, y₁) is the array's entry (1024 r + y₀, 1024 k + y₁). -/
theorem iblk53_lhs_apply (c : Dev nD) (r k : Fin 4) (y : S1024x1024.Idx) (i : S4096x4096.Idx)
    (h0 : (i 0).val = 1024 * r.val + (y 0).val) (h1 : (i 1).val = 1024 * k.val + (y 1).val) :
    iblk53_lhs V c (4 * r.val + k.val) y = (V c main_v7 : S4096x4096.Idx → Elt F .bf16) i := by
  have hN : cfg53.N = 16 := N_53
  have hr := r.isLt
  have hk := k.isLt
  have hlt : 4 * r.val + k.val < cfg53.N := by rw [hN]; omega
  rw [iblk53_lhs_eq V c _ hlt]
  obtain ⟨e0, e1, -, -, -, -⟩ := idxFacts53 ⟨4 * r.val + k.val, hlt⟩
  have e0' : win53_0.index ⟨4 * r.val + k.val, hlt⟩ (0 : Fin 2) = (4 * r.val + k.val) / 4 := e0
  have e1' : win53_0.index ⟨4 * r.val + k.val, hlt⟩ (1 : Fin 2) = (4 * r.val + k.val) % 4 := e1
  unfold iblk53
  rw [View.read_apply]
  show V c main_v7 (((cfg53.win 0).blk ⟨4 * r.val + k.val, hlt⟩).view.emb y) = V c main_v7 i
  congr 1
  funext a
  apply Fin.ext
  match a with
  | ⟨0, _⟩ =>
    show win53_0.index ⟨4 * r.val + k.val, hlt⟩ (0 : Fin 2) * 1024 + 1 * (y 0).val = (i 0).val
    rw [e0', h0]; omega
  | ⟨1, _⟩ =>
    show win53_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk53_rhs_apply (c : Dev nD) (r k : Fin 4) (y : S1024x512.Idx) (i : S4096x512.Idx)
    (h0 : (i 0).val = 1024 * k.val + (y 0).val) (h1 : (i 1).val = (y 1).val) :
    iblk53_rhs V c (4 * r.val + k.val) y = (V c main_v293 : S4096x512.Idx → Elt F .f32) i := by
  have hN : cfg53.N = 16 := N_53
  have hr := r.isLt
  have hk := k.isLt
  have hlt : 4 * r.val + k.val < cfg53.N := by rw [hN]; omega
  rw [iblk53_rhs_eq V c _ hlt]
  obtain ⟨-, -, e0, e1, -, -⟩ := idxFacts53 ⟨4 * r.val + k.val, hlt⟩
  have e0' : win53_1.index ⟨4 * r.val + k.val, hlt⟩ (0 : Fin 2) = (4 * r.val + k.val) % 4 := e0
  have e1' : win53_1.index ⟨4 * r.val + k.val, hlt⟩ (1 : Fin 2) = 0 := e1
  unfold iblk53
  rw [View.read_apply]
  show V c main_v293 (((cfg53.win 1).blk ⟨4 * r.val + k.val, hlt⟩).view.emb y) = V c main_v293 i
  congr 1
  funext a
  apply Fin.ext
  match a with
  | ⟨0, _⟩ =>
    show win53_1.index ⟨4 * r.val + k.val, hlt⟩ (0 : Fin 2) * 1024 + 1 * (y 0).val = (i 0).val
    rw [e0', h0]; omega
  | ⟨1, _⟩ =>
    show win53_1.index ⟨4 * r.val + k.val, hlt⟩ (1 : Fin 2) * 512 + 1 * (y 1).val = (i 1).val
    rw [e1', h1]; omega

/-- The accumulated block after the fourth step, unfolded: four steps from the zero block. -/
theorem accOf53_three (c : Dev nD) (r : ℕ) :
    accOf53 V c r 3
      = k53_pay2 (iblk53_lhs V c (4 * r + 3)) (iblk53_rhs V c (4 * r + 3))
          (k53_pay2 (iblk53_lhs V c (4 * r + 2)) (iblk53_rhs V c (4 * r + 2))
            (k53_pay2 (iblk53_lhs V c (4 * r + 1)) (iblk53_rhs V c (4 * r + 1))
              (k53_pay2 (iblk53_lhs V c (4 * r)) (iblk53_rhs V c (4 * r)) (k53_pay1 (F := F))))) := rfl

end Cert.KernelIdeal.Hand

end
-- ==== Proof.ValKI53c.lean ====
/- Laid out by: python3 scratch/layout_regions.py --template-region 1 --region 53 --program KernelIdeal --prefix Val --parts a,b,c --sim main_v9=main_v7,main_v25=main_v293,main_v26=main_v294 --out-dir proof/Proof
   from the hand-written text of region 1 (ValKI1c.lean): the same text, the region's number substituted. -/
/-
  Region 53 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI53b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf53_step (x0 : Vec Ideal S1024x1024 .bf16) (x1 acc : Vec Ideal S1024x512 .f32) :
    k53_pay2 (F := Ideal) x0 x1 acc
      = Cert.MMLaw.accStep dot_S1024x1024_S1024x512_S1024x512_1_0_0_1_n_n none x0 x1 acc := by
  unfold k53_pay2
  simp only [shapeCast_self]
  rfl

/-- The accumulator starts from the zero block. -/
theorem accOf53_init (j : S1024x512.Idx) : k53_pay1 (F := Ideal) j = 0 := by
  unfold k53_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf53_eq_blk (c : Dev nD) (r : Fin 4) (D : DotDims S4096x4096 S4096x512 S4096x512) (hD : Cert.MMLaw.IsPlain D)
    (prec : Option ContractPrecision) :
    accOf53 V c r.val 3
      = Cert.MMLaw.blk (nr := 4) (nc := 1) 1024 512 rfl rfl (Cert.MMLaw.whole D prec (V c main_v7) (V c main_v293)) r 0 := by
  rw [accOf53_three]
  simp only [accOf53_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v7) (V c main_v293) r 0
    (fun k => iblk53_lhs V c (4 * r.val + k.val)) (fun k => iblk53_rhs V c (4 * r.val + k.val))
    (fun k => funext fun y => iblk53_lhs_apply V c r k y _ rfl rfl)
    (fun k => funext fun y => iblk53_rhs_apply V c r k y _ rfl (by show 512 * 0 + (y 1).val = (y 1).val; omega))
    (k53_pay1 (F := Ideal)) accOf53_init

/-! ## The output array after the region is the whole product -/

/-- The region leaves in its output array the product of its two operand arrays. -/
theorem final53_2_eq_whole (c : Dev nD) (D : DotDims S4096x4096 S4096x512 S4096x512) (hD : Cert.MMLaw.IsPlain D)
    (prec : Option ContractPrecision) :
    (dat53 (F := Ideal) V c).arrAt 2 cfg53.N = Cert.MMLaw.whole D prec (V c main_v7) (V c main_v293) := by
  rw [final53_2]
  funext i
  have hi0 : (i 0).val < 4096 := idx2_lt0 i
  have h := congrFun (accOf53_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final53_2_eq_dot (c : Dev nD) (D : DotDims S4096x4096 S4096x512 S4096x512) (hD : Cert.MMLaw.IsPlain D)
    (prec : Option ContractPrecision) :
    (dat53 (F := Ideal) V c).arrAt 2 cfg53.N = Host.dotGeneral (F := Ideal) (φ₁ := .bf16) (φ₂ := .f32) D prec (V c main_v7) (V c main_v293) :=
  final53_2_eq_whole V c D hD prec

end Cert.KernelIdeal.Hand

end
-- ==== Proof.ValKI54a.lean ====
/- Laid out by: python3 scratch/layout_regions.py --template-region 1 --region 54 --program KernelIdeal --prefix Val --parts a,b,c --sim main_v9=main_v8,main_v25=main_v296,main_v26=main_v298 --out-dir proof/Proof
   from the hand-written text of region 1 (ValKI1a.lean): the same text, the region's number substituted. -/
/-
  Region 54 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k54_pay1` (the zero block) and `k54_pay2` (accumulator plus product) are the two stores' payloads.

  So along one row of blocks r the accumulator after its step k is the left fold
    accOf54 r 0 = pay2 (a (r, 0)) (b 0) pay1,    accOf54 r (k + 1) = pay2 (a (r, k + 1)) (b (k + 1)) (accOf54 r k),
  the grid point (r, k) being position 4 r + k; and at k = 3 the output block holds accOf54 r 3.
-/
import proofs.«158944_j64613488001249_1_alg».proof.Proof.RegKI54
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout54_A_eq (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond54_0 i) (hc1 : ¬cond54_1 i)
    (x0 : Vec F S1024x1024 .bf16) (x1 : Vec F S1024x512 .f32) :
    sout54_A c i arg2 harg2 arg3 harg3 arg4 harg4 arg5 harg5 hc0 hc1 x0 x1 = k54_pay2 x0 x1 (k54_pay1 (F := F)) := by
  have hz : (![0, 0] : Fin 2 → Nat) = fun _ => 0 := funext fun a => by fin_cases a <;> rfl
  unfold sout54_A
  rw [View.read_writes_eq_canon _ _ _ (scover54_A c i arg2 harg2 arg3 harg3 arg4 harg4 arg5 harg5 hc0 hc1 x0 x1)]
  unfold kernelRun54_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout54_B_eq (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond54_0 i) (hc1 : ¬cond54_1 i)
    (x0 : Vec F S1024x1024 .bf16) (x1 : Vec F S1024x512 .f32) (xs0 : Vec F S1024x512 .f32) :
    sout54_B c i arg2 harg2 arg3 harg3 arg4 harg4 arg5 harg5 hc0 hc1 x0 x1 xs0 = k54_pay2 x0 x1 xs0 := by
  have hz : (![0, 0] : Fin 2 → Nat) = fun _ => 0 := funext fun a => by fin_cases a <;> rfl
  unfold sout54_B
  rw [View.read_writes_eq_canon _ _ _ (scover54_B c i arg2 harg2 arg3 harg3 arg4 harg4 arg5 harg5 hc0 hc1 x0 x1 xs0)]
  unfold kernelRun54_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout54_C_eq (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond54_0 i) (hc1 : cond54_1 i)
    (x0 : Vec F S1024x1024 .bf16) (x1 : Vec F S1024x512 .f32) (xs0 : Vec F S1024x512 .f32) :
    sout54_C c i arg2 harg2 arg3 harg3 arg4 harg4 arg5 harg5 hc0 hc1 x0 x1 xs0 = k54_pay2 x0 x1 xs0 := by
  have hz : (![0, 0] : Fin 2 → Nat) = fun _ => 0 := funext fun a => by fin_cases a <;> rfl
  unfold sout54_C
  rw [View.read_writes_eq_canon _ _ _ (scover54_C c i arg2 harg2 arg3 harg3 arg4 harg4 arg5 harg5 hc0 hc1 x0 x1 xs0)]
  unfold kernelRun54_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out54_C_eq (c : Dev nD) (i : grid54.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond54_0 i) (hc1 : cond54_1 i)
    (x0 : Vec F S1024x1024 .bf16) (x1 : Vec F S1024x512 .f32) (xs0 : Vec F S1024x512 .f32) :
    out54_C c i arg2 harg2 arg3 harg3 arg4 harg4 arg5 harg5 hc0 hc1 x0 x1 xs0 = k54_pay2 x0 x1 xs0 := by
  have hz : (![0, 0] : Fin 2 → Nat) = fun _ => 0 := funext fun a => by fin_cases a <;> rfl
  unfold out54_C
  rw [View.read_writes_eq_canon _ _ _ (cover54_C c i arg2 harg2 arg3 harg3 arg4 harg4 arg5 harg5 hc0 hc1 x0 x1 xs0)]
  unfold kernelRun54_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk54_lhs (c : Dev nD) (n : ℕ) : Vec F S1024x1024 .bf16 :=
  if h : n < cfg54.N then iblk54 V c 0 ⟨n, h⟩ else iblk54 V c 0 ⟨0, by have h : cfg54.N = 16 := N_54; omega⟩
/-- The right factor's block at grid position `n`. -/
def iblk54_rhs (c : Dev nD) (n : ℕ) : Vec F S1024x512 .f32 :=
  if h : n < cfg54.N then iblk54 V c 1 ⟨n, h⟩ else iblk54 V c 1 ⟨0, by have h : cfg54.N = 16 := N_54; omega⟩

theorem iblk54_lhs_eq (c : Dev nD) (n : ℕ) (h : n < cfg54.N) : iblk54_lhs V c n = iblk54 V c 0 ⟨n, h⟩ := dif_pos h
theorem iblk54_rhs_eq (c : Dev nD) (n : ℕ) (h : n < cfg54.N) : iblk54_rhs V c n = iblk54 V c 1 ⟨n, h⟩ := dif_pos h

/-! ## The accumulator along one row of blocks -/

/-- Row of blocks `r`, after its step `k`: the zero block plus the products of the blocks at positions 4 r, …, 4 r + k,
    added in that order. -/
def accOf54 (c : Dev nD) (r : ℕ) : ℕ → Vec F S1024x512 .f32
  | 0 => k54_pay2 (iblk54_lhs V c (4 * r)) (iblk54_rhs V c (4 * r)) (k54_pay1 (F := F))
  | k + 1 => k54_pay2 (iblk54_lhs V c (4 * r + (k + 1))) (iblk54_rhs V c (4 * r + (k + 1))) (accOf54 c r k)

theorem accOf54_zero (c : Dev nD) (r : ℕ) :
    accOf54 V c r 0 = k54_pay2 (iblk54_lhs V c (4 * r)) (iblk54_rhs V c (4 * r)) (k54_pay1 (F := F)) := rfl
theorem accOf54_succ (c : Dev nD) (r k : ℕ) :
    accOf54 V c r (k + 1) = k54_pay2 (iblk54_lhs V c (4 * r + (k + 1))) (iblk54_rhs V c (4 * r + (k + 1))) (accOf54 V c r k) := rfl

theorem iblk54_lhs_at (c : Dev nD) (t : Fin cfg54.N) (n : ℕ) (hn : n = t.val) : iblk54_lhs V c n = iblk54 V c 0 t := by
  subst hn; unfold iblk54_lhs; exact dif_pos t.isLt
theorem iblk54_rhs_at (c : Dev nD) (t : Fin cfg54.N) (n : ℕ) (hn : n = t.val) : iblk54_rhs V c n = iblk54 V c 1 t := by
  subst hn; unfold iblk54_rhs; exact dif_pos t.isLt

/-- At a grid point with k = 0 the fold starts: the zero block plus the product of the point's two blocks. -/
theorem accOf54_first (c : Dev nD) (t : Fin cfg54.N) (h0 : t.val % 4 = 0) :
    accOf54 V c (t.val / 4) (t.val % 4) = k54_pay2 (iblk54 V c 0 t) (iblk54 V c 1 t) (k54_pay1 (F := F)) := by
  rw [h0, accOf54_zero, iblk54_lhs_at V c t (4 * (t.val / 4)) (by omega), iblk54_rhs_at V c t (4 * (t.val / 4)) (by omega)]

/-- At a grid point with k ≠ 0 the fold takes one step from the position before, which is in the same row of blocks. -/
theorem accOf54_next (c : Dev nD) (t : Fin cfg54.N) (h0 : ¬t.val % 4 = 0) :
    accOf54 V c (t.val / 4) (t.val % 4)
      = k54_pay2 (iblk54 V c 0 t) (iblk54 V c 1 t) (accOf54 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf54_succ, iblk54_lhs_at V c t (4 * (t.val / 4) + (k + 1)) (by omega),
    iblk54_rhs_at V c t (4 * (t.val / 4) + (k + 1)) (by omega)]

/-! ## The accumulator and the output block, point by point, as pure functions of the blocks -/

/-- k = 0: the accumulator restarts from the zero block. -/
theorem outsAt54_first (c : Dev nD) (t : Fin cfg54.N) (h0 : t.val % 4 = 0) :
    (outsAt54 V c t.val t.isLt).2 = k54_pay2 (iblk54 V c 0 t) (iblk54 V c 1 t) (k54_pay1 (F := F)) := by
  rw [outsAt54_A V c t h0]
  dsimp only
  exact sout54_A_eq c (grid54.coords t) (ms54_0 t) (hs54_0 t) (ms54_1 t) (hs54_1 t) (ms54_2 t) (hs54_2 t) scM54 (Memref.isWhole_whole _) (isFirst54 t h0) (notLast54 t (by omega)) (iblk54 V c 0 t) (iblk54 V c 1 t)

/-- k ≠ 0: the point's product is added to what the point before left. -/
theorem outsAt54_next (c : Dev nD) (t : Fin cfg54.N) (h0 : ¬t.val % 4 = 0) :
    (outsAt54 V c t.val t.isLt).2
      = k54_pay2 (iblk54 V c 0 t) (iblk54 V c 1 t) (outsAt54 V c (t.val - 1) (Nat.lt_of_le_of_lt (Nat.sub_le _ _) t.isLt)).2 := by
  by_cases h3 : t.val % 4 = 3
  · rw [outsAt54_C V c t h0 h3]
    dsimp only
    exact sout54_C_eq c (grid54.coords t) (ms54_0 t) (hs54_0 t) (ms54_1 t) (hs54_1 t) (ms54_2 t) (hs54_2 t) scM54 (Memref.isWhole_whole _) (notFirst54 t h0) (isLast54 t h3) (iblk54 V c 0 t) (iblk54 V c 1 t)
      (outsAt54 V c (t.val - 1) (Nat.lt_of_le_of_lt (Nat.sub_le _ _) t.isLt)).2
  · rw [outsAt54_B V c t h0 h3]
    dsimp only
    exact sout54_B_eq c (grid54.coords t) (ms54_0 t) (hs54_0 t) (ms54_1 t) (hs54_1 t) (ms54_2 t) (hs54_2 t) scM54 (Memref.isWhole_whole _) (notFirst54 t h0) (notLast54 t h3) (iblk54 V c 0 t) (iblk54 V c 1 t)
      (outsAt54 V c (t.val - 1) (Nat.lt_of_le_of_lt (Nat.sub_le _ _) t.isLt)).2

/-- k = 3: the output block is the accumulator. -/
theorem outsAt54_last (c : Dev nD) (t : Fin cfg54.N) (h3 : t.val % 4 = 3) :
    (outsAt54 V c t.val t.isLt).1 = (outsAt54 V c t.val t.isLt).2 := by
  have h0 : ¬t.val % 4 = 0 := by omega
  rw [outsAt54_C V c t h0 h3]
  dsimp only
  exact (out54_C_eq c (grid54.coords t) (ms54_0 t) (hs54_0 t) (ms54_1 t) (hs54_1 t) (ms54_2 t) (hs54_2 t) scM54 (Memref.isWhole_whole _) (notFirst54 t h0) (isLast54 t h3) (iblk54 V c 0 t) (iblk54 V c 1 t)
      (outsAt54 V c (t.val - 1) (Nat.lt_of_le_of_lt (Nat.sub_le _ _) t.isLt)).2).trans
    (sout54_C_eq c (grid54.coords t) (ms54_0 t) (hs54_0 t) (ms54_1 t) (hs54_1 t) (ms54_2 t) (hs54_2 t) scM54 (Memref.isWhole_whole _) (notFirst54 t h0) (isLast54 t h3) (iblk54 V c 0 t) (iblk54 V c 1 t)
      (outsAt54 V c (t.val - 1) (Nat.lt_of_le_of_lt (Nat.sub_le _ _) t.isLt)).2).symm

/-! ## The accumulator is the fold -/

/-- After position `n` the accumulator holds row `n / 4`'s fold after its step `n % 4`: by induction on the position. -/
theorem outsAt54_acc_pos (c : Dev nD) :
    ∀ (n : ℕ) (hn : n < cfg54.N), (outsAt54 V c n hn).2 = accOf54 V c (n / 4) (n % 4) := by
  intro n
  induction n with
  | zero =>
    intro hn
    exact (outsAt54_first V c ⟨0, hn⟩ (Nat.zero_mod 4)).trans (accOf54_first V c ⟨0, hn⟩ (Nat.zero_mod 4)).symm
  | succ n ih =>
    intro hn
    by_cases h0 : (n + 1) % 4 = 0
    · exact (outsAt54_first V c ⟨n + 1, hn⟩ h0).trans (accOf54_first V c ⟨n + 1, hn⟩ h0).symm
    · refine (outsAt54_next V c ⟨n + 1, hn⟩ h0).trans (Eq.trans ?_ (accOf54_next V c ⟨n + 1, hn⟩ h0).symm)
      exact congrArg (k54_pay2 (iblk54 V c 0 ⟨n + 1, hn⟩) (iblk54 V c 1 ⟨n + 1, hn⟩)) (ih (Nat.lt_of_succ_lt hn))

/-- At every grid point the accumulator holds its row's fold after the point's step. -/
theorem outsAt54_acc (c : Dev nD) (t : Fin cfg54.N) :
    (outsAt54 V c t.val t.isLt).2 = accOf54 V c (t.val / 4) (t.val % 4) :=
  outsAt54_acc_pos V c t.val t.isLt

/-- At a row's last point the output block holds the row's whole fold. -/
theorem outsAt54_out (c : Dev nD) (t : Fin cfg54.N) (h3 : t.val % 4 = 3) :
    (outsAt54 V c t.val t.isLt).1 = accOf54 V c (t.val / 4) 3 := by
  have e := outsAt54_acc V c t
  rw [h3] at e
  exact (outsAt54_last V c t h3).trans e

end Cert.KernelIdeal.Hand

end
-- ==== Proof.ValKI54b.lean ====
/- Laid out by: python3 scratch/layout_regions.py --template-region 1 --region 54 --program KernelIdeal --prefix Val --parts a,b,c --sim main_v9=main_v8,main_v25=main_v296,main_v26=main_v298 --out-dir proof/Proof
   from the hand-written text of region 1 (ValKI1b.lean): the same text, the region's number substituted. -/
/-
  Region 54 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI54a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts54 : ∀ t : Fin cfg54.N,
    win54_0.index t (0 : Fin 2) = t.val / 4 ∧ win54_0.index t (1 : Fin 2) = t.val % 4
    ∧ win54_1.index t (0 : Fin 2) = t.val % 4 ∧ win54_1.index t (1 : Fin 2) = 0
    ∧ win54_2.index t (0 : Fin 2) = t.val / 4 ∧ win54_2.index t (1 : Fin 2) = 0 :=
  (by decide +kernel : ∀ t : Fin grid54.N,
    win54_0.index t (0 : Fin 2) = t.val / 4 ∧ win54_0.index t (1 : Fin 2) = t.val % 4
    ∧ win54_1.index t (0 : Fin 2) = t.val % 4 ∧ win54_1.index t (1 : Fin 2) = 0
    ∧ win54_2.index t (0 : Fin 2) = t.val / 4 ∧ win54_2.index t (1 : Fin 2) = 0)

/-! ## The output array as one function -/

/-- The whole output array: its row 1024 r + p, column q, is entry (p, q) of the block accumulated over k = 0 … 3 in
    block row r. -/
def whole54 (c : Dev nD) : S4096x512.Idx → Elt F .f32 := fun i =>
  accOf54 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole54_apply (c : Dev nD) (r : ℕ) (y : S1024x512.Idx) (i : S4096x512.Idx)
    (h0 : (i 0).val = 1024 * r + (y 0).val) (h1 : (i 1).val = (y 1).val) :
    whole54 V c i = accOf54 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole54
  rw [hr, e]

/-- Row 1024 r + p, column q of the array is entry (p, q) of block row r's accumulated block. -/
theorem whole54_ix2 (c : Dev nD) (r : Fin 4) (p : Fin 1024) (q : Fin 512) :
    whole54 V c (ix2 (n0 := 4096) (n1 := 512) ⟨1024 * r.val + p.val, by have := r.isLt; have := p.isLt; omega⟩ q)
      = accOf54 V c r.val 3 (ix2 p q) :=
  whole54_apply V c r.val (ix2 p q) _ rfl rfl

/-! ## What a point writes back -/

/-- A point with k = 3 writes back its block of the whole-array function. -/
theorem flushed54_eq (c : Dev nD) (t : Fin cfg54.N) (hf : (cfg54.win 2).flush t = true) :
    (dat54 V c).flushed 2 t = ((cfg54.win 2).blk t).view.read (Elt F) (whole54 V c) := by
  have h3 : t.val % 4 = 3 := (flush54_2 t).mp hf
  show (cfg54.win 2).cut (grid54.coords t) ((dat54 V c).after 2 t) = _
  rw [after54_2, outsAt54_out V c t h3]
  obtain ⟨-, -, -, -, e0, e1⟩ := idxFacts54 t
  funext j
  show accOf54 V c (t.val / 4) 3 j = whole54 V c (((cfg54.win 2).blk t).view.emb j)
  refine (whole54_apply V c (t.val / 4) j _ ?_ ?_).symm
  · show win54_2.index t (0 : Fin 2) * 1024 + 1 * (j 0).val = 1024 * (t.val / 4) + (j 0).val
    rw [e0]; omega
  · show win54_2.index t (1 : Fin 2) * 512 + 1 * (j 1).val = (j 1).val
    rw [e1]; omega

/-! ## The blocks written back cover the array -/

/-- An index is in a point's output block iff each coordinate is in the block's range on its axis. -/
theorem memBlk54 (t : Fin cfg54.N) (i : S4096x512.Idx) :
    i ∈ ((cfg54.win 2).blk t).view.set ↔ ∀ a : Fin 2, win54_2.index t a * S1024x512.size a ≤ (i a).val
      ∧ (i a).val < win54_2.index t a * S1024x512.size a + S1024x512.size a := by
  show i ∈ ((View.whole main_v298).slice (win54_2.rect t)).set ↔ _
  rw [View.set_slice_whole, Rect.mem_set_unit]
  exact Iff.rfl

/-- Row i of the array lies in the block written back at the point (i / 1024, 3). -/
theorem covered54 (i : S4096x512.Idx) :
    ∃ t : Fin cfg54.N, (cfg54.win 2).flush t = true ∧ i ∈ ((cfg54.win 2).blk t).view.set := by
  have hi0 : (i 0).val < 4096 := idx2_lt0 i
  have hi1 : (i 1).val < 512 := idx2_lt1 i
  have hN : cfg54.N = 16 := N_54
  obtain ⟨t, ht⟩ : ∃ t : Fin cfg54.N, t.val = 4 * ((i 0).val / 1024) + 3 :=
    ⟨⟨4 * ((i 0).val / 1024) + 3, by rw [hN]; omega⟩, rfl⟩
  refine ⟨t, (flush54_2 t).mpr (by omega), ?_⟩
  rw [memBlk54]
  obtain ⟨-, -, -, -, e0, e1⟩ := idxFacts54 t
  intro a
  match a with
  | ⟨0, _⟩ =>
    show win54_2.index t (0 : Fin 2) * 1024 ≤ (i 0).val ∧ (i 0).val < win54_2.index t (0 : Fin 2) * 1024 + 1024
    rw [e0]; omega
  | ⟨1, _⟩ =>
    show win54_2.index t (1 : Fin 2) * 512 ≤ (i 1).val ∧ (i 1).val < win54_2.index t (1 : Fin 2) * 512 + 512
    rw [e1]; omega

/-! ## The three arrays after the region -/

/-- The output array after the region is the whole-array function. -/
theorem final54_2 (c : Dev nD) : (dat54 V c).arrAt 2 cfg54.N = whole54 V c :=
  (dat54 V c).arrAt_eq_of_cover 2 (whole54 V c) (flushed54_eq V c) covered54

/-- The two input arrays are as the region found them. -/
theorem final54_0 (c : Dev nD) : (dat54 V c).arrAt 0 cfg54.N = V c main_v8 :=
  ((dat54 V c).arrAt_in 0 rfl cfg54.N).trans (A_eq54 V c 0)
theorem final54_1 (c : Dev nD) : (dat54 V c).arrAt 1 cfg54.N = V c main_v296 :=
  ((dat54 V c).arrAt_in 1 rfl cfg54.N).trans (A_eq54 V c 1)

/-! ## The input blocks as blocks of the operand arrays -/

/-- The left operand's block at the point (r, k): entry (y₀, y₁) is the array's entry (1024 r + y₀, 1024 k + y₁). -/
theorem iblk54_lhs_apply (c : Dev nD) (r k : Fin 4) (y : S1024x1024.Idx) (i : S4096x4096.Idx)
    (h0 : (i 0).val = 1024 * r.val + (y 0).val) (h1 : (i 1).val = 1024 * k.val + (y 1).val) :
    iblk54_lhs V c (4 * r.val + k.val) y = (V c main_v8 : S4096x4096.Idx → Elt F .bf16) i := by
  have hN : cfg54.N = 16 := N_54
  have hr := r.isLt
  have hk := k.isLt
  have hlt : 4 * r.val + k.val < cfg54.N := by rw [hN]; omega
  rw [iblk54_lhs_eq V c _ hlt]
  obtain ⟨e0, e1, -, -, -, -⟩ := idxFacts54 ⟨4 * r.val + k.val, hlt⟩
  have e0' : win54_0.index ⟨4 * r.val + k.val, hlt⟩ (0 : Fin 2) = (4 * r.val + k.val) / 4 := e0
  have e1' : win54_0.index ⟨4 * r.val + k.val, hlt⟩ (1 : Fin 2) = (4 * r.val + k.val) % 4 := e1
  unfold iblk54
  rw [View.read_apply]
  show V c main_v8 (((cfg54.win 0).blk ⟨4 * r.val + k.val, hlt⟩).view.emb y) = V c main_v8 i
  congr 1
  funext a
  apply Fin.ext
  match a with
  | ⟨0, _⟩ =>
    show win54_0.index ⟨4 * r.val + k.val, hlt⟩ (0 : Fin 2) * 1024 + 1 * (y 0).val = (i 0).val
    rw [e0', h0]; omega
  | ⟨1, _⟩ =>
    show win54_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk54_rhs_apply (c : Dev nD) (r k : Fin 4) (y : S1024x512.Idx) (i : S4096x512.Idx)
    (h0 : (i 0).val = 1024 * k.val + (y 0).val) (h1 : (i 1).val = (y 1).val) :
    iblk54_rhs V c (4 * r.val + k.val) y = (V c main_v296 : S4096x512.Idx → Elt F .f32) i := by
  have hN : cfg54.N = 16 := N_54
  have hr := r.isLt
  have hk := k.isLt
  have hlt : 4 * r.val + k.val < cfg54.N := by rw [hN]; omega
  rw [iblk54_rhs_eq V c _ hlt]
  obtain ⟨-, -, e0, e1, -, -⟩ := idxFacts54 ⟨4 * r.val + k.val, hlt⟩
  have e0' : win54_1.index ⟨4 * r.val + k.val, hlt⟩ (0 : Fin 2) = (4 * r.val + k.val) % 4 := e0
  have e1' : win54_1.index ⟨4 * r.val + k.val, hlt⟩ (1 : Fin 2) = 0 := e1
  unfold iblk54
  rw [View.read_apply]
  show V c main_v296 (((cfg54.win 1).blk ⟨4 * r.val + k.val, hlt⟩).view.emb y) = V c main_v296 i
  congr 1
  funext a
  apply Fin.ext
  match a with
  | ⟨0, _⟩ =>
    show win54_1.index ⟨4 * r.val + k.val, hlt⟩ (0 : Fin 2) * 1024 + 1 * (y 0).val = (i 0).val
    rw [e0', h0]; omega
  | ⟨1, _⟩ =>
    show win54_1.index ⟨4 * r.val + k.val, hlt⟩ (1 : Fin 2) * 512 + 1 * (y 1).val = (i 1).val
    rw [e1', h1]; omega

/-- The accumulated block after the fourth step, unfolded: four steps from the zero block. -/
theorem accOf54_three (c : Dev nD) (r : ℕ) :
    accOf54 V c r 3
      = k54_pay2 (iblk54_lhs V c (4 * r + 3)) (iblk54_rhs V c (4 * r + 3))
          (k54_pay2 (iblk54_lhs V c (4 * r + 2)) (iblk54_rhs V c (4 * r + 2))
            (k54_pay2 (iblk54_lhs V c (4 * r + 1)) (iblk54_rhs V c (4 * r + 1))
              (k54_pay2 (iblk54_lhs V c (4 * r)) (iblk54_rhs V c (4 * r)) (k54_pay1 (F := F))))) := rfl

end Cert.KernelIdeal.Hand

end
-- ==== Proof.ValKI54c.lean ====
/- Laid out by: python3 scratch/layout_regions.py --template-region 1 --region 54 --program KernelIdeal --prefix Val --parts a,b,c --sim main_v9=main_v8,main_v25=main_v296,main_v26=main_v298 --out-dir proof/Proof
   from the hand-written text of region 1 (ValKI1c.lean): the same text, the region's number substituted. -/
/-
  Region 54 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI54b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf54_step (x0 : Vec Ideal S1024x1024 .bf16) (x1 acc : Vec Ideal S1024x512 .f32) :
    k54_pay2 (F := Ideal) x0 x1 acc
      = Cert.MMLaw.accStep dot_S1024x1024_S1024x512_S1024x512_1_0_0_1_n_n none x0 x1 acc := by
  unfold k54_pay2
  simp only [shapeCast_self]
  rfl

/-- The accumulator starts from the zero block. -/
theorem accOf54_init (j : S1024x512.Idx) : k54_pay1 (F := Ideal) j = 0 := by
  unfold k54_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf54_eq_blk (c : Dev nD) (r : Fin 4) (D : DotDims S4096x4096 S4096x512 S4096x512) (hD : Cert.MMLaw.IsPlain D)
    (prec : Option ContractPrecision) :
    accOf54 V c r.val 3
      = Cert.MMLaw.blk (nr := 4) (nc := 1) 1024 512 rfl rfl (Cert.MMLaw.whole D prec (V c main_v8) (V c main_v296)) r 0 := by
  rw [accOf54_three]
  simp only [accOf54_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v8) (V c main_v296) r 0
    (fun k => iblk54_lhs V c (4 * r.val + k.val)) (fun k => iblk54_rhs V c (4 * r.val + k.val))
    (fun k => funext fun y => iblk54_lhs_apply V c r k y _ rfl rfl)
    (fun k => funext fun y => iblk54_rhs_apply V c r k y _ rfl (by show 512 * 0 + (y 1).val = (y 1).val; omega))
    (k54_pay1 (F := Ideal)) accOf54_init

/-! ## The output array after the region is the whole product -/

/-- The region leaves in its output array the product of its two operand arrays. -/
theorem final54_2_eq_whole (c : Dev nD) (D : DotDims S4096x4096 S4096x512 S4096x512) (hD : Cert.MMLaw.IsPlain D)
    (prec : Option ContractPrecision) :
    (dat54 (F := Ideal) V c).arrAt 2 cfg54.N = Cert.MMLaw.whole D prec (V c main_v8) (V c main_v296) := by
  rw [final54_2]
  funext i
  have hi0 : (i 0).val < 4096 := idx2_lt0 i
  have h := congrFun (accOf54_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final54_2_eq_dot (c : Dev nD) (D : DotDims S4096x4096 S4096x512 S4096x512) (hD : Cert.MMLaw.IsPlain D)
    (prec : Option ContractPrecision) :
    (dat54 (F := Ideal) V c).arrAt 2 cfg54.N = Host.dotGeneral (F := Ideal) (φ₁ := .bf16) (φ₂ := .f32) D prec (V c main_v8) (V c main_v296) :=
  final54_2_eq_whole V c D hD prec

end Cert.KernelIdeal.Hand

end
-- ==== Proof.ValKI55a.lean ====
/- Laid out by: python3 scratch/layout_grid41.py --prefix Val --template-region 0 --region 55 --program KernelIdeal --parts a,b --shapes S1024x128=S1024x512,S128x512=S512x512,S1024x512=S1024x512,S4096x128=S4096x512,S4096x512=S4096x512,main_arg0=main_v301,main_v12=main_v10,main_v17=main_v302,h0=h0,e0=e0,hi0=hi0,x0=x0
   from the hand-written text of region 0 (ValKI0a.lean): the same text, the region's number, block shapes, operand arrays substituted. -/
/-
  Region 55 of @main: from the output blocks to the whole output array.

  The grid is [4, 1]: the point t is block row t, and the reduction axis has one step, so every point zeroes the
  accumulator, adds the product of its two input blocks, and writes the sum back. The output window's block at t is
  rows 1024 t … 1024 t + 1023 of the result, written back at every point. So the array after the region is ONE function
  of the index: row 1024 r + p, column q holds entry (p, q) of the block the point r leaves. The steps: the three windows'
  block indices decided once over the grid; what a point writes back is its block of that function; the four blocks
  written back cover the array (row i lies in the block of the point i / 1024); hence the array after the region. The two
  operand arrays are not written. Last, each input block as a block of its operand array: the left operand's block at the
  point t is its rows 1024 t … 1024 t + 1023 (every column), the right operand's block is the whole array at every point.
-/
import proofs.«158944_j64613488001249_1_alg».proof.Proof.RegKI55
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t the left operand's block is (t, 0), the right operand's (0, 0), the output's (t, 0). -/
theorem idxFacts55 : ∀ t : Fin cfg55.N,
    win55_0.index t (0 : Fin 2) = t.val ∧ win55_0.index t (1 : Fin 2) = 0
    ∧ win55_1.index t (0 : Fin 2) = 0 ∧ win55_1.index t (1 : Fin 2) = 0
    ∧ win55_2.index t (0 : Fin 2) = t.val ∧ win55_2.index t (1 : Fin 2) = 0 :=
  (by decide +kernel : ∀ t : Fin grid55.N,
    win55_0.index t (0 : Fin 2) = t.val ∧ win55_0.index t (1 : Fin 2) = 0
    ∧ win55_1.index t (0 : Fin 2) = 0 ∧ win55_1.index t (1 : Fin 2) = 0
    ∧ win55_2.index t (0 : Fin 2) = t.val ∧ win55_2.index t (1 : Fin 2) = 0)

/-! ## The block a point leaves -/

/-- The block the point at grid position n leaves: the zero block plus the product of the point's two input blocks
    (past the grid's end, where nothing consults it, the block of position 0). -/
def accOf55 (c : Dev nD) (n : ℕ) : Vec F S1024x512 .f32 :=
  if h : n < cfg55.N then k55_pay2 (iblk55 V c 0 ⟨n, h⟩) (iblk55 V c 1 ⟨n, h⟩) (k55_pay1 (F := F))
  else k55_pay2 (iblk55 V c 0 ⟨0, by have h : cfg55.N = 4 := N_55; omega⟩)
    (iblk55 V c 1 ⟨0, by have h : cfg55.N = 4 := N_55; omega⟩) (k55_pay1 (F := F))

theorem accOf55_eq (c : Dev nD) (t : Fin cfg55.N) :
    accOf55 V c t.val = k55_pay2 (iblk55 V c 0 t) (iblk55 V c 1 t) (k55_pay1 (F := F)) := by
  unfold accOf55; exact dif_pos t.isLt

/-- At every point the output block holds that block. -/
theorem outsAt55_out (c : Dev nD) (t : Fin cfg55.N) : (outsAt55 V c t.val t.isLt).1 = accOf55 V c t.val :=
  (outsAt55_last V c t).trans ((outsAt55_first V c t).trans (accOf55_eq V c t).symm)

/-! ## The output array as one function -/

/-- The whole output array: its row 1024 r + p, column q, is entry (p, q) of the block the point r leaves. -/
def whole55 (c : Dev nD) : S4096x512.Idx → Elt F .f32 := fun i =>
  accOf55 V c ((i 0).val / 1024)
    (ix2 ⟨(i 0).val % 1024, Nat.mod_lt _ (by decide)⟩ ⟨(i 1).val, idx2_lt1 i⟩)

/-- The array read at an index given by a block row r and a position y inside the block. -/
theorem whole55_apply (c : Dev nD) (r : ℕ) (y : S1024x512.Idx) (i : S4096x512.Idx)
    (h0 : (i 0).val = 1024 * r + (y 0).val) (h1 : (i 1).val = (y 1).val) :
    whole55 V c i = accOf55 V c r y := by
  have hy : (y 0).val < 1024 := idx2_lt0 y
  have hr : (i 0).val / 1024 = r := by omega
  have hp : (i 0).val % 1024 = (y 0).val := by omega
  have e : (ix2 ⟨(i 0).val % 1024, Nat.mod_lt _ (by decide)⟩ ⟨(i 1).val, idx2_lt1 i⟩ : S1024x512.Idx) = y :=
    funext fun a => match a with
      | ⟨0, _⟩ => Fin.ext hp
      | ⟨1, _⟩ => Fin.ext h1
  unfold whole55
  rw [hr, e]

/-- Row 1024 r + p, column q of the array is entry (p, q) of the block the point r leaves. -/
theorem whole55_ix2 (c : Dev nD) (r : Fin 4) (p : Fin 1024) (q : Fin (S1024x512.size 1)) :
    whole55 V c (ix2 ⟨1024 * r.val + p.val, by have := r.isLt; have := p.isLt; omega⟩ q)
      = accOf55 V c r.val (ix2 p q) :=
  whole55_apply V c r.val (ix2 p q) _ rfl rfl

/-! ## What a point writes back -/

/-- Every point writes back its block of the whole-array function. -/
theorem flushed55_eq (c : Dev nD) (t : Fin cfg55.N) (hf : (cfg55.win 2).flush t = true) :
    (dat55 V c).flushed 2 t = ((cfg55.win 2).blk t).view.read (Elt F) (whole55 V c) := by
  show (cfg55.win 2).cut (grid55.coords t) ((dat55 V c).after 2 t) = _
  rw [after55_2, outsAt55_out V c t]
  obtain ⟨-, -, -, -, e0, e1⟩ := idxFacts55 t
  funext j
  show accOf55 V c t.val j = whole55 V c (((cfg55.win 2).blk t).view.emb j)
  refine (whole55_apply V c t.val j _ ?_ ?_).symm
  · show win55_2.index t (0 : Fin 2) * 1024 + 1 * (j 0).val = 1024 * t.val + (j 0).val
    rw [e0]; omega
  · show win55_2.index t (1 : Fin 2) * S1024x512.size (1 : Fin 2) + 1 * (j 1).val = (j 1).val
    rw [e1, Nat.zero_mul, Nat.zero_add, Nat.one_mul]

/-! ## The blocks written back cover the array -/

/-- An index is in a point's output block iff each coordinate is in the block's range on its axis. -/
theorem memBlk55 (t : Fin cfg55.N) (i : S4096x512.Idx) :
    i ∈ ((cfg55.win 2).blk t).view.set ↔ ∀ a : Fin 2, win55_2.index t a * S1024x512.size a ≤ (i a).val
      ∧ (i a).val < win55_2.index t a * S1024x512.size a + S1024x512.size a := by
  show i ∈ ((View.whole main_v302).slice (win55_2.rect t)).set ↔ _
  rw [View.set_slice_whole, Rect.mem_set_unit]
  exact Iff.rfl

/-- Row i of the array lies in the block written back at the point i / 1024. -/
theorem covered55 (i : S4096x512.Idx) :
    ∃ t : Fin cfg55.N, (cfg55.win 2).flush t = true ∧ i ∈ ((cfg55.win 2).blk t).view.set := by
  have hi0 : (i 0).val < 4096 := idx2_lt0 i
  have hi1 : (i 1).val < S1024x512.size (1 : Fin 2) := idx2_lt1 i
  have hN : cfg55.N = 4 := N_55
  obtain ⟨t, ht⟩ : ∃ t : Fin cfg55.N, t.val = (i 0).val / 1024 :=
    ⟨⟨(i 0).val / 1024, by rw [hN]; omega⟩, rfl⟩
  refine ⟨t, flush55_2 t, ?_⟩
  rw [memBlk55]
  obtain ⟨-, -, -, -, e0, e1⟩ := idxFacts55 t
  intro a
  match a with
  | ⟨0, _⟩ =>
    show win55_2.index t (0 : Fin 2) * 1024 ≤ (i 0).val ∧ (i 0).val < win55_2.index t (0 : Fin 2) * 1024 + 1024
    rw [e0]; omega
  | ⟨1, _⟩ =>
    show win55_2.index t (1 : Fin 2) * S1024x512.size (1 : Fin 2) ≤ (i 1).val
      ∧ (i 1).val < win55_2.index t (1 : Fin 2) * S1024x512.size (1 : Fin 2) + S1024x512.size (1 : Fin 2)
    rw [e1, Nat.zero_mul, Nat.zero_add]
    exact ⟨Nat.zero_le _, hi1⟩

/-! ## The three arrays after the region -/

/-- The output array after the region is the whole-array function. -/
theorem final55_2 (c : Dev nD) : (dat55 V c).arrAt 2 cfg55.N = whole55 V c :=
  (dat55 V c).arrAt_eq_of_cover 2 (whole55 V c) (flushed55_eq V c) covered55

/-- The two input arrays are as the region found them. -/
theorem final55_0 (c : Dev nD) : (dat55 V c).arrAt 0 cfg55.N = V c main_v301 :=
  ((dat55 V c).arrAt_in 0 rfl cfg55.N).trans (A_eq55 V c 0)
theorem final55_1 (c : Dev nD) : (dat55 V c).arrAt 1 cfg55.N = V c main_v10 :=
  ((dat55 V c).arrAt_in 1 rfl cfg55.N).trans (A_eq55 V c 1)

/-! ## The input blocks as blocks of the operand arrays -/

/-- The left operand's block at the point t: entry (y₀, y₁) is the array's entry (1024 t + y₀, y₁). -/
theorem iblk55_lhs_apply (c : Dev nD) (t : Fin cfg55.N) (y : S1024x512.Idx) (i : S4096x512.Idx)
    (h0 : (i 0).val = 1024 * t.val + (y 0).val) (h1 : (i 1).val = (y 1).val) :
    iblk55 V c 0 t y = (V c main_v301 : S4096x512.Idx → Elt F .f32) i := by
  obtain ⟨e0, e1, -, -, -, -⟩ := idxFacts55 t
  unfold iblk55
  rw [View.read_apply]
  show V c main_v301 (((cfg55.win 0).blk t).view.emb y) = V c main_v301 i
  congr 1
  funext a
  apply Fin.ext
  match a with
  | ⟨0, _⟩ =>
    show win55_0.index t (0 : Fin 2) * 1024 + 1 * (y 0).val = (i 0).val
    rw [e0, h0]; omega
  | ⟨1, _⟩ =>
    show win55_0.index t (1 : Fin 2) * S1024x512.size (1 : Fin 2) + 1 * (y 1).val = (i 1).val
    rw [e1, h1, Nat.zero_mul, Nat.zero_add, Nat.one_mul]

/-- The right operand's block is the whole array at every point. -/
theorem iblk55_rhs_eq (c : Dev nD) (t : Fin cfg55.N) :
    iblk55 V c 1 t = (V c main_v10 : S512x512.Idx → Elt F .bf16) := by
  obtain ⟨-, -, e0, e1, -, -⟩ := idxFacts55 t
  funext y
  unfold iblk55
  rw [View.read_apply]
  show V c main_v10 (((cfg55.win 1).blk t).view.emb y) = V c main_v10 y
  congr 1
  funext a
  apply Fin.ext
  match a with
  | ⟨0, _⟩ =>
    show win55_1.index t (0 : Fin 2) * S512x512.size (0 : Fin 2) + 1 * (y 0).val = (y 0).val
    rw [e0, Nat.zero_mul, Nat.zero_add, Nat.one_mul]
  | ⟨1, _⟩ =>
    show win55_1.index t (1 : Fin 2) * S512x512.size (1 : Fin 2) + 1 * (y 1).val = (y 1).val
    rw [e1, Nat.zero_mul, Nat.zero_add, Nat.one_mul]

end Cert.KernelIdeal.Hand

end
-- ==== Proof.ValKI55b.lean ====
/- Laid out by: python3 scratch/layout_grid41.py --prefix Val --template-region 0 --region 55 --program KernelIdeal --parts a,b --shapes S1024x128=S1024x512,S128x512=S512x512,S1024x512=S1024x512,S4096x128=S4096x512,S4096x512=S4096x512,main_arg0=main_v301,main_v12=main_v10,main_v17=main_v302,h0=h0,e0=e0,hi0=hi0,x0=x0
   from the hand-written text of region 0 (ValKI0b.lean): the same text, the region's number, block shapes, operand arrays substituted. -/
/-
  Region 55 of @main at the extended reals: the output array after the region is the product of the two operand arrays.

  A change of float format is the identity at these values and a reshape to the same shape is the identity, so the
  kernel's one accumulation step is "accumulator plus the product of the two blocks into the zero block", and the
  accumulator starts from the zero block. The block the point r leaves is then zero plus the product of rows
  1024 r … 1024 r + 1023 of the left operand with the whole right operand, which is the same rows of the whole product:
  the contraction axis is not cut, so the sums are the same term by term. Read through the whole-array function of the
  blocks-to-array module, entry (1024 r + p, q) of the output array is that entry of the product.
-/
import proofs.«158944_j64613488001249_1_alg».proof.Proof.ValKI55a
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The accumulation step, and its start, at the extended reals -/

/-- A change of format and a reshape to the same shape are the identity: the step adds the product of the two blocks
    (into the zero block) to the accumulator. -/
theorem accOf55_step (x0 : Vec Ideal S1024x512 .f32) (x1 : Vec Ideal S512x512 .bf16) (acc : Vec Ideal S1024x512 .f32) :
    k55_pay2 (F := Ideal) x0 x1 acc
      = Cert.MMLaw.accStep dot_S1024x512_S512x512_S1024x512_1_0_0_1_n_n none x0 x1 acc := by
  unfold k55_pay2
  simp only [shapeCast_self]
  rfl

/-- The accumulator starts from the zero block. -/
theorem accOf55_init (j : S1024x512.Idx) : k55_pay1 (F := Ideal) j = 0 := by
  unfold k55_pay1
  rw [shapeCast_self]
  exact Ideal.ofBits_zero_f32

/-! ## The block a point leaves is a block of the whole product -/

/-- The block the point r leaves is rows 1024 r … 1024 r + 1023 of the product of the two operand arrays. -/
theorem accOf55_eq_blk (c : Dev nD) (r : Fin 4) (D : DotDims S4096x512 S512x512 S4096x512) (hD : Cert.MMLaw.IsPlain D)
    (prec : Option ContractPrecision) :
    accOf55 V c r.val
      = Cert.MMLaw.rowBlk (Cert.MMLaw.whole D prec (V c main_v301) (V c main_v10)) r := by
  have hN : cfg55.N = 4 := N_55
  have hr : r.val < cfg55.N := by rw [hN]; exact r.isLt
  rw [accOf55_eq V c ⟨r.val, hr⟩, accOf55_step]
  exact Cert.MMLaw.law41 dot_S1024x512_S512x512_S1024x512_1_0_0_1_n_n ⟨rfl, rfl, rfl, rfl, rfl, rfl⟩ D hD none prec
    (V c main_v301) (V c main_v10) r (iblk55 V c 0 ⟨r.val, hr⟩) (iblk55 V c 1 ⟨r.val, hr⟩)
    (funext fun y => iblk55_lhs_apply V c ⟨r.val, hr⟩ y _ rfl rfl) (iblk55_rhs_eq V c ⟨r.val, hr⟩)
    (k55_pay1 (F := Ideal)) accOf55_init

/-! ## The output array after the region is the whole product -/

/-- The region leaves in its output array the product of its two operand arrays. -/
theorem final55_2_eq_whole (c : Dev nD) (D : DotDims S4096x512 S512x512 S4096x512) (hD : Cert.MMLaw.IsPlain D)
    (prec : Option ContractPrecision) :
    (dat55 (F := Ideal) V c).arrAt 2 cfg55.N = Cert.MMLaw.whole D prec (V c main_v301) (V c main_v10) := by
  rw [final55_2]
  funext i
  have hi0 : (i 0).val < 4096 := idx2_lt0 i
  have h := congrFun (accOf55_eq_blk V c ⟨(i 0).val / 1024, by omega⟩ D hD prec)
    (ix2 ⟨(i 0).val % 1024, Nat.mod_lt _ (by decide)⟩ ⟨(i 1).val, idx2_lt1 i⟩)
  rw [Cert.MMLaw.rowBlk_apply] at h
  refine Eq.trans h (congrArg _ ?_)
  funext a
  match a with
  | ⟨0, _⟩ => exact Fin.ext (by show 1024 * ((i 0).val / 1024) + (i 0).val % 1024 = (i 0).val; omega)
  | ⟨1, _⟩ => rfl

/-- The same with the operands at the formats they are stored in. -/
theorem final55_2_eq_dot (c : Dev nD) (D : DotDims S4096x512 S512x512 S4096x512) (hD : Cert.MMLaw.IsPlain D)
    (prec : Option ContractPrecision) :
    (dat55 (F := Ideal) V c).arrAt 2 cfg55.N
      = Host.dotGeneral (F := Ideal) (φ₁ := .f32) (φ₂ := .bf16) D prec (V c main_v301) (V c main_v10) :=
  final55_2_eq_whole V c D hD prec

end Cert.KernelIdeal.Hand

end
-- ==== Proof.ValKI56a.lean ====
/- Laid out by: python3 scratch/layout_regions.py --template-region 1 --region 56 --program KernelIdeal --prefix Val --parts a,b,c --sim main_v9=main_v7,main_v25=main_v302,main_v26=main_v303 --out-dir proof/Proof
   from the hand-written text of region 1 (ValKI1a.lean): the same text, the region's number substituted. -/
/-
  Region 56 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k56_pay1` (the zero block) and `k56_pay2` (accumulator plus product) are the two stores' payloads.

  So along one row of blocks r the accumulator after its step k is the left fold
    accOf56 r 0 = pay2 (a (r, 0)) (b 0) pay1,    accOf56 r (k + 1) = pay2 (a (r, k + 1)) (b (k + 1)) (accOf56 r k),
  the grid point (r, k) being position 4 r + k; and at k = 3 the output block holds accOf56 r 3.
-/
import proofs.«158944_j64613488001249_1_alg».proof.Proof.RegKI56
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout56_A_eq (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond56_0 i) (hc1 : ¬cond56_1 i)
    (x0 : Vec F S1024x1024 .bf16) (x1 : Vec F S1024x512 .f32) :
    sout56_A c i arg2 harg2 arg3 harg3 arg4 harg4 arg5 harg5 hc0 hc1 x0 x1 = k56_pay2 x0 x1 (k56_pay1 (F := F)) := by
  have hz : (![0, 0] : Fin 2 → Nat) = fun _ => 0 := funext fun a => by fin_cases a <;> rfl
  unfold sout56_A
  rw [View.read_writes_eq_canon _ _ _ (scover56_A c i arg2 harg2 arg3 harg3 arg4 harg4 arg5 harg5 hc0 hc1 x0 x1)]
  unfold kernelRun56_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout56_B_eq (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond56_0 i) (hc1 : ¬cond56_1 i)
    (x0 : Vec F S1024x1024 .bf16) (x1 : Vec F S1024x512 .f32) (xs0 : Vec F S1024x512 .f32) :
    sout56_B c i arg2 harg2 arg3 harg3 arg4 harg4 arg5 harg5 hc0 hc1 x0 x1 xs0 = k56_pay2 x0 x1 xs0 := by
  have hz : (![0, 0] : Fin 2 → Nat) = fun _ => 0 := funext fun a => by fin_cases a <;> rfl
  unfold sout56_B
  rw [View.read_writes_eq_canon _ _ _ (scover56_B c i arg2 harg2 arg3 harg3 arg4 harg4 arg5 harg5 hc0 hc1 x0 x1 xs0)]
  unfold kernelRun56_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout56_C_eq (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond56_0 i) (hc1 : cond56_1 i)
    (x0 : Vec F S1024x1024 .bf16) (x1 : Vec F S1024x512 .f32) (xs0 : Vec F S1024x512 .f32) :
    sout56_C c i arg2 harg2 arg3 harg3 arg4 harg4 arg5 harg5 hc0 hc1 x0 x1 xs0 = k56_pay2 x0 x1 xs0 := by
  have hz : (![0, 0] : Fin 2 → Nat) = fun _ => 0 := funext fun a => by fin_cases a <;> rfl
  unfold sout56_C
  rw [View.read_writes_eq_canon _ _ _ (scover56_C c i arg2 harg2 arg3 harg3 arg4 harg4 arg5 harg5 hc0 hc1 x0 x1 xs0)]
  unfold kernelRun56_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out56_C_eq (c : Dev nD) (i : grid56.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond56_0 i) (hc1 : cond56_1 i)
    (x0 : Vec F S1024x1024 .bf16) (x1 : Vec F S1024x512 .f32) (xs0 : Vec F S1024x512 .f32) :
    out56_C c i arg2 harg2 arg3 harg3 arg4 harg4 arg5 harg5 hc0 hc1 x0 x1 xs0 = k56_pay2 x0 x1 xs0 := by
  have hz : (![0, 0] : Fin 2 → Nat) = fun _ => 0 := funext fun a => by fin_cases a <;> rfl
  unfold out56_C
  rw [View.read_writes_eq_canon _ _ _ (cover56_C c i arg2 harg2 arg3 harg3 arg4 harg4 arg5 harg5 hc0 hc1 x0 x1 xs0)]
  unfold kernelRun56_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk56_lhs (c : Dev nD) (n : ℕ) : Vec F S1024x1024 .bf16 :=
  if h : n < cfg56.N then iblk56 V c 0 ⟨n, h⟩ else iblk56 V c 0 ⟨0, by have h : cfg56.N = 16 := N_56; omega⟩
/-- The right factor's block at grid position `n`. -/
def iblk56_rhs (c : Dev nD) (n : ℕ) : Vec F S1024x512 .f32 :=
  if h : n < cfg56.N then iblk56 V c 1 ⟨n, h⟩ else iblk56 V c 1 ⟨0, by have h : cfg56.N = 16 := N_56; omega⟩

theorem iblk56_lhs_eq (c : Dev nD) (n : ℕ) (h : n < cfg56.N) : iblk56_lhs V c n = iblk56 V c 0 ⟨n, h⟩ := dif_pos h
theorem iblk56_rhs_eq (c : Dev nD) (n : ℕ) (h : n < cfg56.N) : iblk56_rhs V c n = iblk56 V c 1 ⟨n, h⟩ := dif_pos h

/-! ## The accumulator along one row of blocks -/

/-- Row of blocks `r`, after its step `k`: the zero block plus the products of the blocks at positions 4 r, …, 4 r + k,
    added in that order. -/
def accOf56 (c : Dev nD) (r : ℕ) : ℕ → Vec F S1024x512 .f32
  | 0 => k56_pay2 (iblk56_lhs V c (4 * r)) (iblk56_rhs V c (4 * r)) (k56_pay1 (F := F))
  | k + 1 => k56_pay2 (iblk56_lhs V c (4 * r + (k + 1))) (iblk56_rhs V c (4 * r + (k + 1))) (accOf56 c r k)

theorem accOf56_zero (c : Dev nD) (r : ℕ) :
    accOf56 V c r 0 = k56_pay2 (iblk56_lhs V c (4 * r)) (iblk56_rhs V c (4 * r)) (k56_pay1 (F := F)) := rfl
theorem accOf56_succ (c : Dev nD) (r k : ℕ) :
    accOf56 V c r (k + 1) = k56_pay2 (iblk56_lhs V c (4 * r + (k + 1))) (iblk56_rhs V c (4 * r + (k + 1))) (accOf56 V c r k) := rfl

theorem iblk56_lhs_at (c : Dev nD) (t : Fin cfg56.N) (n : ℕ) (hn : n = t.val) : iblk56_lhs V c n = iblk56 V c 0 t := by
  subst hn; unfold iblk56_lhs; exact dif_pos t.isLt
theorem iblk56_rhs_at (c : Dev nD) (t : Fin cfg56.N) (n : ℕ) (hn : n = t.val) : iblk56_rhs V c n = iblk56 V c 1 t := by
  subst hn; unfold iblk56_rhs; exact dif_pos t.isLt

/-- At a grid point with k = 0 the fold starts: the zero block plus the product of the point's two blocks. -/
theorem accOf56_first (c : Dev nD) (t : Fin cfg56.N) (h0 : t.val % 4 = 0) :
    accOf56 V c (t.val / 4) (t.val % 4) = k56_pay2 (iblk56 V c 0 t) (iblk56 V c 1 t) (k56_pay1 (F := F)) := by
  rw [h0, accOf56_zero, iblk56_lhs_at V c t (4 * (t.val / 4)) (by omega), iblk56_rhs_at V c t (4 * (t.val / 4)) (by omega)]

/-- At a grid point with k ≠ 0 the fold takes one step from the position before, which is in the same row of blocks. -/
theorem accOf56_next (c : Dev nD) (t : Fin cfg56.N) (h0 : ¬t.val % 4 = 0) :
    accOf56 V c (t.val / 4) (t.val % 4)
      = k56_pay2 (iblk56 V c 0 t) (iblk56 V c 1 t) (accOf56 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf56_succ, iblk56_lhs_at V c t (4 * (t.val / 4) + (k + 1)) (by omega),
    iblk56_rhs_at V c t (4 * (t.val / 4) + (k + 1)) (by omega)]

/-! ## The accumulator and the output block, point by point, as pure functions of the blocks -/

/-- k = 0: the accumulator restarts from the zero block. -/
theorem outsAt56_first (c : Dev nD) (t : Fin cfg56.N) (h0 : t.val % 4 = 0) :
    (outsAt56 V c t.val t.isLt).2 = k56_pay2 (iblk56 V c 0 t) (iblk56 V c 1 t) (k56_pay1 (F := F)) := by
  rw [outsAt56_A V c t h0]
  dsimp only
  exact sout56_A_eq c (grid56.coords t) (ms56_0 t) (hs56_0 t) (ms56_1 t) (hs56_1 t) (ms56_2 t) (hs56_2 t) scM56 (Memref.isWhole_whole _) (isFirst56 t h0) (notLast56 t (by omega)) (iblk56 V c 0 t) (iblk56 V c 1 t)

/-- k ≠ 0: the point's product is added to what the point before left. -/
theorem outsAt56_next (c : Dev nD) (t : Fin cfg56.N) (h0 : ¬t.val % 4 = 0) :
    (outsAt56 V c t.val t.isLt).2
      = k56_pay2 (iblk56 V c 0 t) (iblk56 V c 1 t) (outsAt56 V c (t.val - 1) (Nat.lt_of_le_of_lt (Nat.sub_le _ _) t.isLt)).2 := by
  by_cases h3 : t.val % 4 = 3
  · rw [outsAt56_C V c t h0 h3]
    dsimp only
    exact sout56_C_eq c (grid56.coords t) (ms56_0 t) (hs56_0 t) (ms56_1 t) (hs56_1 t) (ms56_2 t) (hs56_2 t) scM56 (Memref.isWhole_whole _) (notFirst56 t h0) (isLast56 t h3) (iblk56 V c 0 t) (iblk56 V c 1 t)
      (outsAt56 V c (t.val - 1) (Nat.lt_of_le_of_lt (Nat.sub_le _ _) t.isLt)).2
  · rw [outsAt56_B V c t h0 h3]
    dsimp only
    exact sout56_B_eq c (grid56.coords t) (ms56_0 t) (hs56_0 t) (ms56_1 t) (hs56_1 t) (ms56_2 t) (hs56_2 t) scM56 (Memref.isWhole_whole _) (notFirst56 t h0) (notLast56 t h3) (iblk56 V c 0 t) (iblk56 V c 1 t)
      (outsAt56 V c (t.val - 1) (Nat.lt_of_le_of_lt (Nat.sub_le _ _) t.isLt)).2

/-- k = 3: the output block is the accumulator. -/
theorem outsAt56_last (c : Dev nD) (t : Fin cfg56.N) (h3 : t.val % 4 = 3) :
    (outsAt56 V c t.val t.isLt).1 = (outsAt56 V c t.val t.isLt).2 := by
  have h0 : ¬t.val % 4 = 0 := by omega
  rw [outsAt56_C V c t h0 h3]
  dsimp only
  exact (out56_C_eq c (grid56.coords t) (ms56_0 t) (hs56_0 t) (ms56_1 t) (hs56_1 t) (ms56_2 t) (hs56_2 t) scM56 (Memref.isWhole_whole _) (notFirst56 t h0) (isLast56 t h3) (iblk56 V c 0 t) (iblk56 V c 1 t)
      (outsAt56 V c (t.val - 1) (Nat.lt_of_le_of_lt (Nat.sub_le _ _) t.isLt)).2).trans
    (sout56_C_eq c (grid56.coords t) (ms56_0 t) (hs56_0 t) (ms56_1 t) (hs56_1 t) (ms56_2 t) (hs56_2 t) scM56 (Memref.isWhole_whole _) (notFirst56 t h0) (isLast56 t h3) (iblk56 V c 0 t) (iblk56 V c 1 t)
      (outsAt56 V c (t.val - 1) (Nat.lt_of_le_of_lt (Nat.sub_le _ _) t.isLt)).2).symm

/-! ## The accumulator is the fold -/

/-- After position `n` the accumulator holds row `n / 4`'s fold after its step `n % 4`: by induction on the position. -/
theorem outsAt56_acc_pos (c : Dev nD) :
    ∀ (n : ℕ) (hn : n < cfg56.N), (outsAt56 V c n hn).2 = accOf56 V c (n / 4) (n % 4) := by
  intro n
  induction n with
  | zero =>
    intro hn
    exact (outsAt56_first V c ⟨0, hn⟩ (Nat.zero_mod 4)).trans (accOf56_first V c ⟨0, hn⟩ (Nat.zero_mod 4)).symm
  | succ n ih =>
    intro hn
    by_cases h0 : (n + 1) % 4 = 0
    · exact (outsAt56_first V c ⟨n + 1, hn⟩ h0).trans (accOf56_first V c ⟨n + 1, hn⟩ h0).symm
    · refine (outsAt56_next V c ⟨n + 1, hn⟩ h0).trans (Eq.trans ?_ (accOf56_next V c ⟨n + 1, hn⟩ h0).symm)
      exact congrArg (k56_pay2 (iblk56 V c 0 ⟨n + 1, hn⟩) (iblk56 V c 1 ⟨n + 1, hn⟩)) (ih (Nat.lt_of_succ_lt hn))

/-- At every grid point the accumulator holds its row's fold after the point's step. -/
theorem outsAt56_acc (c : Dev nD) (t : Fin cfg56.N) :
    (outsAt56 V c t.val t.isLt).2 = accOf56 V c (t.val / 4) (t.val % 4) :=
  outsAt56_acc_pos V c t.val t.isLt

/-- At a row's last point the output block holds the row's whole fold. -/
theorem outsAt56_out (c : Dev nD) (t : Fin cfg56.N) (h3 : t.val % 4 = 3) :
    (outsAt56 V c t.val t.isLt).1 = accOf56 V c (t.val / 4) 3 := by
  have e := outsAt56_acc V c t
  rw [h3] at e
  exact (outsAt56_last V c t h3).trans e

end Cert.KernelIdeal.Hand

end
-- ==== Proof.ValKI56b.lean ====
/- Laid out by: python3 scratch/layout_regions.py --template-region 1 --region 56 --program KernelIdeal --prefix Val --parts a,b,c --sim main_v9=main_v7,main_v25=main_v302,main_v26=main_v303 --out-dir proof/Proof
   from the hand-written text of region 1 (ValKI1b.lean): the same text, the region's number substituted. -/
/-
  Region 56 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI56a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts56 : ∀ t : Fin cfg56.N,
    win56_0.index t (0 : Fin 2) = t.val / 4 ∧ win56_0.index t (1 : Fin 2) = t.val % 4
    ∧ win56_1.index t (0 : Fin 2) = t.val % 4 ∧ win56_1.index t (1 : Fin 2) = 0
    ∧ win56_2.index t (0 : Fin 2) = t.val / 4 ∧ win56_2.index t (1 : Fin 2) = 0 :=
  (by decide +kernel : ∀ t : Fin grid56.N,
    win56_0.index t (0 : Fin 2) = t.val / 4 ∧ win56_0.index t (1 : Fin 2) = t.val % 4
    ∧ win56_1.index t (0 : Fin 2) = t.val % 4 ∧ win56_1.index t (1 : Fin 2) = 0
    ∧ win56_2.index t (0 : Fin 2) = t.val / 4 ∧ win56_2.index t (1 : Fin 2) = 0)

/-! ## The output array as one function -/

/-- The whole output array: its row 1024 r + p, column q, is entry (p, q) of the block accumulated over k = 0 … 3 in
    block row r. -/
def whole56 (c : Dev nD) : S4096x512.Idx → Elt F .f32 := fun i =>
  accOf56 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole56_apply (c : Dev nD) (r : ℕ) (y : S1024x512.Idx) (i : S4096x512.Idx)
    (h0 : (i 0).val = 1024 * r + (y 0).val) (h1 : (i 1).val = (y 1).val) :
    whole56 V c i = accOf56 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole56
  rw [hr, e]

/-- Row 1024 r + p, column q of the array is entry (p, q) of block row r's accumulated block. -/
theorem whole56_ix2 (c : Dev nD) (r : Fin 4) (p : Fin 1024) (q : Fin 512) :
    whole56 V c (ix2 (n0 := 4096) (n1 := 512) ⟨1024 * r.val + p.val, by have := r.isLt; have := p.isLt; omega⟩ q)
      = accOf56 V c r.val 3 (ix2 p q) :=
  whole56_apply V c r.val (ix2 p q) _ rfl rfl

/-! ## What a point writes back -/

/-- A point with k = 3 writes back its block of the whole-array function. -/
theorem flushed56_eq (c : Dev nD) (t : Fin cfg56.N) (hf : (cfg56.win 2).flush t = true) :
    (dat56 V c).flushed 2 t = ((cfg56.win 2).blk t).view.read (Elt F) (whole56 V c) := by
  have h3 : t.val % 4 = 3 := (flush56_2 t).mp hf
  show (cfg56.win 2).cut (grid56.coords t) ((dat56 V c).after 2 t) = _
  rw [after56_2, outsAt56_out V c t h3]
  obtain ⟨-, -, -, -, e0, e1⟩ := idxFacts56 t
  funext j
  show accOf56 V c (t.val / 4) 3 j = whole56 V c (((cfg56.win 2).blk t).view.emb j)
  refine (whole56_apply V c (t.val / 4) j _ ?_ ?_).symm
  · show win56_2.index t (0 : Fin 2) * 1024 + 1 * (j 0).val = 1024 * (t.val / 4) + (j 0).val
    rw [e0]; omega
  · show win56_2.index t (1 : Fin 2) * 512 + 1 * (j 1).val = (j 1).val
    rw [e1]; omega

/-! ## The blocks written back cover the array -/

/-- An index is in a point's output block iff each coordinate is in the block's range on its axis. -/
theorem memBlk56 (t : Fin cfg56.N) (i : S4096x512.Idx) :
    i ∈ ((cfg56.win 2).blk t).view.set ↔ ∀ a : Fin 2, win56_2.index t a * S1024x512.size a ≤ (i a).val
      ∧ (i a).val < win56_2.index t a * S1024x512.size a + S1024x512.size a := by
  show i ∈ ((View.whole main_v303).slice (win56_2.rect t)).set ↔ _
  rw [View.set_slice_whole, Rect.mem_set_unit]
  exact Iff.rfl

/-- Row i of the array lies in the block written back at the point (i / 1024, 3). -/
theorem covered56 (i : S4096x512.Idx) :
    ∃ t : Fin cfg56.N, (cfg56.win 2).flush t = true ∧ i ∈ ((cfg56.win 2).blk t).view.set := by
  have hi0 : (i 0).val < 4096 := idx2_lt0 i
  have hi1 : (i 1).val < 512 := idx2_lt1 i
  have hN : cfg56.N = 16 := N_56
  obtain ⟨t, ht⟩ : ∃ t : Fin cfg56.N, t.val = 4 * ((i 0).val / 1024) + 3 :=
    ⟨⟨4 * ((i 0).val / 1024) + 3, by rw [hN]; omega⟩, rfl⟩
  refine ⟨t, (flush56_2 t).mpr (by omega), ?_⟩
  rw [memBlk56]
  obtain ⟨-, -, -, -, e0, e1⟩ := idxFacts56 t
  intro a
  match a with
  | ⟨0, _⟩ =>
    show win56_2.index t (0 : Fin 2) * 1024 ≤ (i 0).val ∧ (i 0).val < win56_2.index t (0 : Fin 2) * 1024 + 1024
    rw [e0]; omega
  | ⟨1, _⟩ =>
    show win56_2.index t (1 : Fin 2) * 512 ≤ (i 1).val ∧ (i 1).val < win56_2.index t (1 : Fin 2) * 512 + 512
    rw [e1]; omega

/-! ## The three arrays after the region -/

/-- The output array after the region is the whole-array function. -/
theorem final56_2 (c : Dev nD) : (dat56 V c).arrAt 2 cfg56.N = whole56 V c :=
  (dat56 V c).arrAt_eq_of_cover 2 (whole56 V c) (flushed56_eq V c) covered56

/-- The two input arrays are as the region found them. -/
theorem final56_0 (c : Dev nD) : (dat56 V c).arrAt 0 cfg56.N = V c main_v7 :=
  ((dat56 V c).arrAt_in 0 rfl cfg56.N).trans (A_eq56 V c 0)
theorem final56_1 (c : Dev nD) : (dat56 V c).arrAt 1 cfg56.N = V c main_v302 :=
  ((dat56 V c).arrAt_in 1 rfl cfg56.N).trans (A_eq56 V c 1)

/-! ## The input blocks as blocks of the operand arrays -/

/-- The left operand's block at the point (r, k): entry (y₀, y₁) is the array's entry (1024 r + y₀, 1024 k + y₁). -/
theorem iblk56_lhs_apply (c : Dev nD) (r k : Fin 4) (y : S1024x1024.Idx) (i : S4096x4096.Idx)
    (h0 : (i 0).val = 1024 * r.val + (y 0).val) (h1 : (i 1).val = 1024 * k.val + (y 1).val) :
    iblk56_lhs V c (4 * r.val + k.val) y = (V c main_v7 : S4096x4096.Idx → Elt F .bf16) i := by
  have hN : cfg56.N = 16 := N_56
  have hr := r.isLt
  have hk := k.isLt
  have hlt : 4 * r.val + k.val < cfg56.N := by rw [hN]; omega
  rw [iblk56_lhs_eq V c _ hlt]
  obtain ⟨e0, e1, -, -, -, -⟩ := idxFacts56 ⟨4 * r.val + k.val, hlt⟩
  have e0' : win56_0.index ⟨4 * r.val + k.val, hlt⟩ (0 : Fin 2) = (4 * r.val + k.val) / 4 := e0
  have e1' : win56_0.index ⟨4 * r.val + k.val, hlt⟩ (1 : Fin 2) = (4 * r.val + k.val) % 4 := e1
  unfold iblk56
  rw [View.read_apply]
  show V c main_v7 (((cfg56.win 0).blk ⟨4 * r.val + k.val, hlt⟩).view.emb y) = V c main_v7 i
  congr 1
  funext a
  apply Fin.ext
  match a with
  | ⟨0, _⟩ =>
    show win56_0.index ⟨4 * r.val + k.val, hlt⟩ (0 : Fin 2) * 1024 + 1 * (y 0).val = (i 0).val
    rw [e0', h0]; omega
  | ⟨1, _⟩ =>
    show win56_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk56_rhs_apply (c : Dev nD) (r k : Fin 4) (y : S1024x512.Idx) (i : S4096x512.Idx)
    (h0 : (i 0).val = 1024 * k.val + (y 0).val) (h1 : (i 1).val = (y 1).val) :
    iblk56_rhs V c (4 * r.val + k.val) y = (V c main_v302 : S4096x512.Idx → Elt F .f32) i := by
  have hN : cfg56.N = 16 := N_56
  have hr := r.isLt
  have hk := k.isLt
  have hlt : 4 * r.val + k.val < cfg56.N := by rw [hN]; omega
  rw [iblk56_rhs_eq V c _ hlt]
  obtain ⟨-, -, e0, e1, -, -⟩ := idxFacts56 ⟨4 * r.val + k.val, hlt⟩
  have e0' : win56_1.index ⟨4 * r.val + k.val, hlt⟩ (0 : Fin 2) = (4 * r.val + k.val) % 4 := e0
  have e1' : win56_1.index ⟨4 * r.val + k.val, hlt⟩ (1 : Fin 2) = 0 := e1
  unfold iblk56
  rw [View.read_apply]
  show V c main_v302 (((cfg56.win 1).blk ⟨4 * r.val + k.val, hlt⟩).view.emb y) = V c main_v302 i
  congr 1
  funext a
  apply Fin.ext
  match a with
  | ⟨0, _⟩ =>
    show win56_1.index ⟨4 * r.val + k.val, hlt⟩ (0 : Fin 2) * 1024 + 1 * (y 0).val = (i 0).val
    rw [e0', h0]; omega
  | ⟨1, _⟩ =>
    show win56_1.index ⟨4 * r.val + k.val, hlt⟩ (1 : Fin 2) * 512 + 1 * (y 1).val = (i 1).val
    rw [e1', h1]; omega

/-- The accumulated block after the fourth step, unfolded: four steps from the zero block. -/
theorem accOf56_three (c : Dev nD) (r : ℕ) :
    accOf56 V c r 3
      = k56_pay2 (iblk56_lhs V c (4 * r + 3)) (iblk56_rhs V c (4 * r + 3))
          (k56_pay2 (iblk56_lhs V c (4 * r + 2)) (iblk56_rhs V c (4 * r + 2))
            (k56_pay2 (iblk56_lhs V c (4 * r + 1)) (iblk56_rhs V c (4 * r + 1))
              (k56_pay2 (iblk56_lhs V c (4 * r)) (iblk56_rhs V c (4 * r)) (k56_pay1 (F := F))))) := rfl

end Cert.KernelIdeal.Hand

end
-- ==== Proof.ValKI56c.lean ====
/- Laid out by: python3 scratch/layout_regions.py --template-region 1 --region 56 --program KernelIdeal --prefix Val --parts a,b,c --sim main_v9=main_v7,main_v25=main_v302,main_v26=main_v303 --out-dir proof/Proof
   from the hand-written text of region 1 (ValKI1c.lean): the same text, the region's number substituted. -/
/-
  Region 56 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI56b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf56_step (x0 : Vec Ideal S1024x1024 .bf16) (x1 acc : Vec Ideal S1024x512 .f32) :
    k56_pay2 (F := Ideal) x0 x1 acc
      = Cert.MMLaw.accStep dot_S1024x1024_S1024x512_S1024x512_1_0_0_1_n_n none x0 x1 acc := by
  unfold k56_pay2
  simp only [shapeCast_self]
  rfl

/-- The accumulator starts from the zero block. -/
theorem accOf56_init (j : S1024x512.Idx) : k56_pay1 (F := Ideal) j = 0 := by
  unfold k56_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf56_eq_blk (c : Dev nD) (r : Fin 4) (D : DotDims S4096x4096 S4096x512 S4096x512) (hD : Cert.MMLaw.IsPlain D)
    (prec : Option ContractPrecision) :
    accOf56 V c r.val 3
      = Cert.MMLaw.blk (nr := 4) (nc := 1) 1024 512 rfl rfl (Cert.MMLaw.whole D prec (V c main_v7) (V c main_v302)) r 0 := by
  rw [accOf56_three]
  simp only [accOf56_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v7) (V c main_v302) r 0
    (fun k => iblk56_lhs V c (4 * r.val + k.val)) (fun k => iblk56_rhs V c (4 * r.val + k.val))
    (fun k => funext fun y => iblk56_lhs_apply V c r k y _ rfl rfl)
    (fun k => funext fun y => iblk56_rhs_apply V c r k y _ rfl (by show 512 * 0 + (y 1).val = (y 1).val; omega))
    (k56_pay1 (F := Ideal)) accOf56_init

/-! ## The output array after the region is the whole product -/

/-- The region leaves in its output array the product of its two operand arrays. -/
theorem final56_2_eq_whole (c : Dev nD) (D : DotDims S4096x4096 S4096x512 S4096x512) (hD : Cert.MMLaw.IsPlain D)
    (prec : Option ContractPrecision) :
    (dat56 (F := Ideal) V c).arrAt 2 cfg56.N = Cert.MMLaw.whole D prec (V c main_v7) (V c main_v302) := by
  rw [final56_2]
  funext i
  have hi0 : (i 0).val < 4096 := idx2_lt0 i
  have h := congrFun (accOf56_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final56_2_eq_dot (c : Dev nD) (D : DotDims S4096x4096 S4096x512 S4096x512) (hD : Cert.MMLaw.IsPlain D)
    (prec : Option ContractPrecision) :
    (dat56 (F := Ideal) V c).arrAt 2 cfg56.N = Host.dotGeneral (F := Ideal) (φ₁ := .bf16) (φ₂ := .f32) D prec (V c main_v7) (V c main_v302) :=
  final56_2_eq_whole V c D hD prec

end Cert.KernelIdeal.Hand

end
-- ==== Proof.ValKI57a.lean ====
/- Laid out by: python3 scratch/layout_regions.py --template-region 1 --region 57 --program KernelIdeal --prefix Val --parts a,b,c --sim main_v9=main_v9,main_v25=main_v321,main_v26=main_v322 --out-dir proof/Proof
   from the hand-written text of region 1 (ValKI1a.lean): the same text, the region's number substituted. -/
/-
  Region 57 of @main: what the accumulator holds, as pure functions of the two inputs' blocks.

  The body's stores are found by its runs as lists of pieces over the whole accumulator (and, at k = 3, over the whole
  output block). Each list is read back here as a value:
    k = 0      zeros are stored, read back, and the product of the two blocks added:   pay2 a b pay1
    k = 1, 2   the product is added to what the point before left (`s`):              pay2 a b s
    k = 3      the same, and the output block receives a copy of the accumulator:      pay2 a b s   in both
  where `k57_pay1` (the zero block) and `k57_pay2` (accumulator plus product) are the two stores' payloads.

  So along one row of blocks r the accumulator after its step k is the left fold
    accOf57 r 0 = pay2 (a (r, 0)) (b 0) pay1,    accOf57 r (k + 1) = pay2 (a (r, k + 1)) (b (k + 1)) (accOf57 r k),
  the grid point (r, k) being position 4 r + k; and at k = 3 the output block holds accOf57 r 3.
-/
import proofs.«158944_j64613488001249_1_alg».proof.Proof.RegKI57
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's pieces read back as -/

/-- k = 0: the zero block is stored over the whole accumulator and read back; the second store, again over the whole
    accumulator, leaves the zero block plus the product of the two input blocks. -/
theorem sout57_A_eq (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : cond57_0 i) (hc1 : ¬cond57_1 i)
    (x0 : Vec F S1024x1024 .bf16) (x1 : Vec F S1024x512 .f32) :
    sout57_A c i arg2 harg2 arg3 harg3 arg4 harg4 arg5 harg5 hc0 hc1 x0 x1 = k57_pay2 x0 x1 (k57_pay1 (F := F)) := by
  have hz : (![0, 0] : Fin 2 → Nat) = fun _ => 0 := funext fun a => by fin_cases a <;> rfl
  unfold sout57_A
  rw [View.read_writes_eq_canon _ _ _ (scover57_A c i arg2 harg2 arg3 harg3 arg4 harg4 arg5 harg5 hc0 hc1 x0 x1)]
  unfold kernelRun57_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz, View.ld_unit_zero (S := S1024x512) hz]

/-- k = 1, 2: the one store over the whole accumulator leaves what it held plus the product. -/
theorem sout57_B_eq (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond57_0 i) (hc1 : ¬cond57_1 i)
    (x0 : Vec F S1024x1024 .bf16) (x1 : Vec F S1024x512 .f32) (xs0 : Vec F S1024x512 .f32) :
    sout57_B c i arg2 harg2 arg3 harg3 arg4 harg4 arg5 harg5 hc0 hc1 x0 x1 xs0 = k57_pay2 x0 x1 xs0 := by
  have hz : (![0, 0] : Fin 2 → Nat) = fun _ => 0 := funext fun a => by fin_cases a <;> rfl
  unfold sout57_B
  rw [View.read_writes_eq_canon _ _ _ (scover57_B c i arg2 harg2 arg3 harg3 arg4 harg4 arg5 harg5 hc0 hc1 x0 x1 xs0)]
  unfold kernelRun57_B
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the accumulator: as at k = 1, 2. -/
theorem sout57_C_eq (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond57_0 i) (hc1 : cond57_1 i)
    (x0 : Vec F S1024x1024 .bf16) (x1 : Vec F S1024x512 .f32) (xs0 : Vec F S1024x512 .f32) :
    sout57_C c i arg2 harg2 arg3 harg3 arg4 harg4 arg5 harg5 hc0 hc1 x0 x1 xs0 = k57_pay2 x0 x1 xs0 := by
  have hz : (![0, 0] : Fin 2 → Nat) = fun _ => 0 := funext fun a => by fin_cases a <;> rfl
  unfold sout57_C
  rw [View.read_writes_eq_canon _ _ _ (scover57_C c i arg2 harg2 arg3 harg3 arg4 harg4 arg5 harg5 hc0 hc1 x0 x1 xs0)]
  unfold kernelRun57_C
  dsimp only
  sl_unfold_words
  rw [View.canon_unit_zero hz]
  simp only [View.readAt_eq_ld, harg2.read_unread, harg3.read_unread, harg5.read_unread, View.ld_unit_zero (S := S1024x1024) hz, View.ld_unit_zero (S := S1024x512) hz]

/-- k = 3, the output block: the accumulator just stored is read back whole and stored over the whole output block. -/
theorem out57_C_eq (c : Dev nD) (i : grid57.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (hc0 : ¬cond57_0 i) (hc1 : cond57_1 i)
    (x0 : Vec F S1024x1024 .bf16) (x1 : Vec F S1024x512 .f32) (xs0 : Vec F S1024x512 .f32) :
    out57_C c i arg2 harg2 arg3 harg3 arg4 harg4 arg5 harg5 hc0 hc1 x0 x1 xs0 = k57_pay2 x0 x1 xs0 := by
  have hz : (![0, 0] : Fin 2 → Nat) = fun _ => 0 := funext fun a => by fin_cases a <;> rfl
  unfold out57_C
  rw [View.read_writes_eq_canon _ _ _ (cover57_C c i arg2 harg2 arg3 harg3 arg4 harg4 arg5 harg5 hc0 hc1 x0 x1 xs0)]
  unfold kernelRun57_C
  dsimp only
  sl_unfold_words
  rw [View.canon_unit_zero hz]
  simp only [View.readAt_eq_ld, harg2.read_unread, harg3.read_unread, harg5.read_unread, View.readCov_unit_zero (S := S1024x512) _ hz, View.ld_unit_zero (S := S1024x1024) hz, View.ld_unit_zero (S := S1024x512) hz]

variable (V : (c : Dev nD) → (b : Ref sig .tc) → Buf (Elt F) ((c : Thread nD τ).loc b))

/-! ## The two factors' blocks by grid position -/

/-- The left factor's block at grid position `n` (past the grid's end, where nothing consults it, the block at position 0). -/
def iblk57_lhs (c : Dev nD) (n : ℕ) : Vec F S1024x1024 .bf16 :=
  if h : n < cfg57.N then iblk57 V c 0 ⟨n, h⟩ else iblk57 V c 0 ⟨0, by have h : cfg57.N = 16 := N_57; omega⟩
/-- The right factor's block at grid position `n`. -/
def iblk57_rhs (c : Dev nD) (n : ℕ) : Vec F S1024x512 .f32 :=
  if h : n < cfg57.N then iblk57 V c 1 ⟨n, h⟩ else iblk57 V c 1 ⟨0, by have h : cfg57.N = 16 := N_57; omega⟩

theorem iblk57_lhs_eq (c : Dev nD) (n : ℕ) (h : n < cfg57.N) : iblk57_lhs V c n = iblk57 V c 0 ⟨n, h⟩ := dif_pos h
theorem iblk57_rhs_eq (c : Dev nD) (n : ℕ) (h : n < cfg57.N) : iblk57_rhs V c n = iblk57 V c 1 ⟨n, h⟩ := dif_pos h

/-! ## The accumulator along one row of blocks -/

/-- Row of blocks `r`, after its step `k`: the zero block plus the products of the blocks at positions 4 r, …, 4 r + k,
    added in that order. -/
def accOf57 (c : Dev nD) (r : ℕ) : ℕ → Vec F S1024x512 .f32
  | 0 => k57_pay2 (iblk57_lhs V c (4 * r)) (iblk57_rhs V c (4 * r)) (k57_pay1 (F := F))
  | k + 1 => k57_pay2 (iblk57_lhs V c (4 * r + (k + 1))) (iblk57_rhs V c (4 * r + (k + 1))) (accOf57 c r k)

theorem accOf57_zero (c : Dev nD) (r : ℕ) :
    accOf57 V c r 0 = k57_pay2 (iblk57_lhs V c (4 * r)) (iblk57_rhs V c (4 * r)) (k57_pay1 (F := F)) := rfl
theorem accOf57_succ (c : Dev nD) (r k : ℕ) :
    accOf57 V c r (k + 1) = k57_pay2 (iblk57_lhs V c (4 * r + (k + 1))) (iblk57_rhs V c (4 * r + (k + 1))) (accOf57 V c r k) := rfl

theorem iblk57_lhs_at (c : Dev nD) (t : Fin cfg57.N) (n : ℕ) (hn : n = t.val) : iblk57_lhs V c n = iblk57 V c 0 t := by
  subst hn; unfold iblk57_lhs; exact dif_pos t.isLt
theorem iblk57_rhs_at (c : Dev nD) (t : Fin cfg57.N) (n : ℕ) (hn : n = t.val) : iblk57_rhs V c n = iblk57 V c 1 t := by
  subst hn; unfold iblk57_rhs; exact dif_pos t.isLt

/-- At a grid point with k = 0 the fold starts: the zero block plus the product of the point's two blocks. -/
theorem accOf57_first (c : Dev nD) (t : Fin cfg57.N) (h0 : t.val % 4 = 0) :
    accOf57 V c (t.val / 4) (t.val % 4) = k57_pay2 (iblk57 V c 0 t) (iblk57 V c 1 t) (k57_pay1 (F := F)) := by
  rw [h0, accOf57_zero, iblk57_lhs_at V c t (4 * (t.val / 4)) (by omega), iblk57_rhs_at V c t (4 * (t.val / 4)) (by omega)]

/-- At a grid point with k ≠ 0 the fold takes one step from the position before, which is in the same row of blocks. -/
theorem accOf57_next (c : Dev nD) (t : Fin cfg57.N) (h0 : ¬t.val % 4 = 0) :
    accOf57 V c (t.val / 4) (t.val % 4)
      = k57_pay2 (iblk57 V c 0 t) (iblk57 V c 1 t) (accOf57 V c ((t.val - 1) / 4) ((t.val - 1) % 4)) := by
  obtain ⟨k, hk⟩ : ∃ k, t.val % 4 = k + 1 := ⟨t.val % 4 - 1, by omega⟩
  have e1 : (t.val - 1) / 4 = t.val / 4 := by omega
  have e2 : (t.val - 1) % 4 = k := by omega
  rw [e1, e2, hk, accOf57_succ, iblk57_lhs_at V c t (4 * (t.val / 4) + (k + 1)) (by omega),
    iblk57_rhs_at V c t (4 * (t.val / 4) + (k + 1)) (by omega)]

/-! ## The accumulator and the output block, point by point, as pure functions of the blocks -/

/-- k = 0: the accumulator restarts from the zero block. -/
theorem outsAt57_first (c : Dev nD) (t : Fin cfg57.N) (h0 : t.val % 4 = 0) :
    (outsAt57 V c t.val t.isLt).2 = k57_pay2 (iblk57 V c 0 t) (iblk57 V c 1 t) (k57_pay1 (F := F)) := by
  rw [outsAt57_A V c t h0]
  dsimp only
  exact sout57_A_eq c (grid57.coords t) (ms57_0 t) (hs57_0 t) (ms57_1 t) (hs57_1 t) (ms57_2 t) (hs57_2 t) scM57 (Memref.isWhole_whole _) (isFirst57 t h0) (notLast57 t (by omega)) (iblk57 V c 0 t) (iblk57 V c 1 t)

/-- k ≠ 0: the point's product is added to what the point before left. -/
theorem outsAt57_next (c : Dev nD) (t : Fin cfg57.N) (h0 : ¬t.val % 4 = 0) :
    (outsAt57 V c t.val t.isLt).2
      = k57_pay2 (iblk57 V c 0 t) (iblk57 V c 1 t) (outsAt57 V c (t.val - 1) (Nat.lt_of_le_of_lt (Nat.sub_le _ _) t.isLt)).2 := by
  by_cases h3 : t.val % 4 = 3
  · rw [outsAt57_C V c t h0 h3]
    dsimp only
    exact sout57_C_eq c (grid57.coords t) (ms57_0 t) (hs57_0 t) (ms57_1 t) (hs57_1 t) (ms57_2 t) (hs57_2 t) scM57 (Memref.isWhole_whole _) (notFirst57 t h0) (isLast57 t h3) (iblk57 V c 0 t) (iblk57 V c 1 t)
      (outsAt57 V c (t.val - 1) (Nat.lt_of_le_of_lt (Nat.sub_le _ _) t.isLt)).2
  · rw [outsAt57_B V c t h0 h3]
    dsimp only
    exact sout57_B_eq c (grid57.coords t) (ms57_0 t) (hs57_0 t) (ms57_1 t) (hs57_1 t) (ms57_2 t) (hs57_2 t) scM57 (Memref.isWhole_whole _) (notFirst57 t h0) (notLast57 t h3) (iblk57 V c 0 t) (iblk57 V c 1 t)
      (outsAt57 V c (t.val - 1) (Nat.lt_of_le_of_lt (Nat.sub_le _ _) t.isLt)).2

/-- k = 3: the output block is the accumulator. -/
theorem outsAt57_last (c : Dev nD) (t : Fin cfg57.N) (h3 : t.val % 4 = 3) :
    (outsAt57 V c t.val t.isLt).1 = (outsAt57 V c t.val t.isLt).2 := by
  have h0 : ¬t.val % 4 = 0 := by omega
  rw [outsAt57_C V c t h0 h3]
  dsimp only
  exact (out57_C_eq c (grid57.coords t) (ms57_0 t) (hs57_0 t) (ms57_1 t) (hs57_1 t) (ms57_2 t) (hs57_2 t) scM57 (Memref.isWhole_whole _) (notFirst57 t h0) (isLast57 t h3) (iblk57 V c 0 t) (iblk57 V c 1 t)
      (outsAt57 V c (t.val - 1) (Nat.lt_of_le_of_lt (Nat.sub_le _ _) t.isLt)).2).trans
    (sout57_C_eq c (grid57.coords t) (ms57_0 t) (hs57_0 t) (ms57_1 t) (hs57_1 t) (ms57_2 t) (hs57_2 t) scM57 (Memref.isWhole_whole _) (notFirst57 t h0) (isLast57 t h3) (iblk57 V c 0 t) (iblk57 V c 1 t)
      (outsAt57 V c (t.val - 1) (Nat.lt_of_le_of_lt (Nat.sub_le _ _) t.isLt)).2).symm

/-! ## The accumulator is the fold -/

/-- After position `n` the accumulator holds row `n / 4`'s fold after its step `n % 4`: by induction on the position. -/
theorem outsAt57_acc_pos (c : Dev nD) :
    ∀ (n : ℕ) (hn : n < cfg57.N), (outsAt57 V c n hn).2 = accOf57 V c (n / 4) (n % 4) := by
  intro n
  induction n with
  | zero =>
    intro hn
    exact (outsAt57_first V c ⟨0, hn⟩ (Nat.zero_mod 4)).trans (accOf57_first V c ⟨0, hn⟩ (Nat.zero_mod 4)).symm
  | succ n ih =>
    intro hn
    by_cases h0 : (n + 1) % 4 = 0
    · exact (outsAt57_first V c ⟨n + 1, hn⟩ h0).trans (accOf57_first V c ⟨n + 1, hn⟩ h0).symm
    · refine (outsAt57_next V c ⟨n + 1, hn⟩ h0).trans (Eq.trans ?_ (accOf57_next V c ⟨n + 1, hn⟩ h0).symm)
      exact congrArg (k57_pay2 (iblk57 V c 0 ⟨n + 1, hn⟩) (iblk57 V c 1 ⟨n + 1, hn⟩)) (ih (Nat.lt_of_succ_lt hn))

/-- At every grid point the accumulator holds its row's fold after the point's step. -/
theorem outsAt57_acc (c : Dev nD) (t : Fin cfg57.N) :
    (outsAt57 V c t.val t.isLt).2 = accOf57 V c (t.val / 4) (t.val % 4) :=
  outsAt57_acc_pos V c t.val t.isLt

/-- At a row's last point the output block holds the row's whole fold. -/
theorem outsAt57_out (c : Dev nD) (t : Fin cfg57.N) (h3 : t.val % 4 = 3) :
    (outsAt57 V c t.val t.isLt).1 = accOf57 V c (t.val / 4) 3 := by
  have e := outsAt57_acc V c t
  rw [h3] at e
  exact (outsAt57_last V c t h3).trans e

end Cert.KernelIdeal.Hand

end
-- ==== Proof.ValKI57b.lean ====
/- Laid out by: python3 scratch/layout_regions.py --template-region 1 --region 57 --program KernelIdeal --prefix Val --parts a,b,c --sim main_v9=main_v9,main_v25=main_v321,main_v26=main_v322 --out-dir proof/Proof
   from the hand-written text of region 1 (ValKI1b.lean): the same text, the region's number substituted. -/
/-
  Region 57 of @main: from the output blocks to the whole output array.

  The grid point t is (r, k) = (t / 4, t % 4). The output window's block at t is block (r, 0) of the f32[4096, 512] result,
  rows 1024 r … 1024 r + 1023; it is written back exactly at the points with k = 3, and there its buffer holds the block
  accumulated over k = 0 … 3 in block row r. So the array after the region is ONE function of the index: row 1024 r + p,
  column q holds entry (p, q) of block row r's accumulated block. The steps: the three windows' block indices decided once
  over the grid; what a point with k = 3 writes back is its block of that function; the four blocks written back cover the
  array (row i lies in the block of the point (i / 1024, 3)); hence the array after the region. The two operand arrays are
  not written. Last, each input block as a block of its operand array (a coordinate is block index times block size plus
  the coordinate inside the block), and the accumulated block unfolded into its four steps.
-/
import proofs.«158944_j64613488001249_1_alg».proof.Proof.ValKI57a
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t = (r, k) = (t / 4, t % 4) the left operand's block is (r, k), the right operand's (k, 0), the
    output's (r, 0). -/
theorem idxFacts57 : ∀ t : Fin cfg57.N,
    win57_0.index t (0 : Fin 2) = t.val / 4 ∧ win57_0.index t (1 : Fin 2) = t.val % 4
    ∧ win57_1.index t (0 : Fin 2) = t.val % 4 ∧ win57_1.index t (1 : Fin 2) = 0
    ∧ win57_2.index t (0 : Fin 2) = t.val / 4 ∧ win57_2.index t (1 : Fin 2) = 0 :=
  (by decide +kernel : ∀ t : Fin grid57.N,
    win57_0.index t (0 : Fin 2) = t.val / 4 ∧ win57_0.index t (1 : Fin 2) = t.val % 4
    ∧ win57_1.index t (0 : Fin 2) = t.val % 4 ∧ win57_1.index t (1 : Fin 2) = 0
    ∧ win57_2.index t (0 : Fin 2) = t.val / 4 ∧ win57_2.index t (1 : Fin 2) = 0)

/-! ## The output array as one function -/

/-- The whole output array: its row 1024 r + p, column q, is entry (p, q) of the block accumulated over k = 0 … 3 in
    block row r. -/
def whole57 (c : Dev nD) : S4096x512.Idx → Elt F .f32 := fun i =>
  accOf57 V c ((i 0).val / 1024) 3
    (ix2 (n0 := 1024) (n1 := 512) ⟨(i 0).val % 1024, Nat.mod_lt _ (by decide)⟩ ⟨(i 1).val, idx2_lt1 i⟩)

/-- The array read at an index given by a block row r and a position y inside the block. -/
theorem whole57_apply (c : Dev nD) (r : ℕ) (y : S1024x512.Idx) (i : S4096x512.Idx)
    (h0 : (i 0).val = 1024 * r + (y 0).val) (h1 : (i 1).val = (y 1).val) :
    whole57 V c i = accOf57 V c r 3 y := by
  have hy : (y 0).val < 1024 := idx2_lt0 y
  have hr : (i 0).val / 1024 = r := by omega
  have hp : (i 0).val % 1024 = (y 0).val := by omega
  have e : (ix2 (n0 := 1024) (n1 := 512) ⟨(i 0).val % 1024, Nat.mod_lt _ (by decide)⟩ ⟨(i 1).val, idx2_lt1 i⟩) = y :=
    funext fun a => match a with
      | ⟨0, _⟩ => Fin.ext hp
      | ⟨1, _⟩ => Fin.ext h1
  unfold whole57
  rw [hr, e]

/-- Row 1024 r + p, column q of the array is entry (p, q) of block row r's accumulated block. -/
theorem whole57_ix2 (c : Dev nD) (r : Fin 4) (p : Fin 1024) (q : Fin 512) :
    whole57 V c (ix2 (n0 := 4096) (n1 := 512) ⟨1024 * r.val + p.val, by have := r.isLt; have := p.isLt; omega⟩ q)
      = accOf57 V c r.val 3 (ix2 p q) :=
  whole57_apply V c r.val (ix2 p q) _ rfl rfl

/-! ## What a point writes back -/

/-- A point with k = 3 writes back its block of the whole-array function. -/
theorem flushed57_eq (c : Dev nD) (t : Fin cfg57.N) (hf : (cfg57.win 2).flush t = true) :
    (dat57 V c).flushed 2 t = ((cfg57.win 2).blk t).view.read (Elt F) (whole57 V c) := by
  have h3 : t.val % 4 = 3 := (flush57_2 t).mp hf
  show (cfg57.win 2).cut (grid57.coords t) ((dat57 V c).after 2 t) = _
  rw [after57_2, outsAt57_out V c t h3]
  obtain ⟨-, -, -, -, e0, e1⟩ := idxFacts57 t
  funext j
  show accOf57 V c (t.val / 4) 3 j = whole57 V c (((cfg57.win 2).blk t).view.emb j)
  refine (whole57_apply V c (t.val / 4) j _ ?_ ?_).symm
  · show win57_2.index t (0 : Fin 2) * 1024 + 1 * (j 0).val = 1024 * (t.val / 4) + (j 0).val
    rw [e0]; omega
  · show win57_2.index t (1 : Fin 2) * 512 + 1 * (j 1).val = (j 1).val
    rw [e1]; omega

/-! ## The blocks written back cover the array -/

/-- An index is in a point's output block iff each coordinate is in the block's range on its axis. -/
theorem memBlk57 (t : Fin cfg57.N) (i : S4096x512.Idx) :
    i ∈ ((cfg57.win 2).blk t).view.set ↔ ∀ a : Fin 2, win57_2.index t a * S1024x512.size a ≤ (i a).val
      ∧ (i a).val < win57_2.index t a * S1024x512.size a + S1024x512.size a := by
  show i ∈ ((View.whole main_v322).slice (win57_2.rect t)).set ↔ _
  rw [View.set_slice_whole, Rect.mem_set_unit]
  exact Iff.rfl

/-- Row i of the array lies in the block written back at the point (i / 1024, 3). -/
theorem covered57 (i : S4096x512.Idx) :
    ∃ t : Fin cfg57.N, (cfg57.win 2).flush t = true ∧ i ∈ ((cfg57.win 2).blk t).view.set := by
  have hi0 : (i 0).val < 4096 := idx2_lt0 i
  have hi1 : (i 1).val < 512 := idx2_lt1 i
  have hN : cfg57.N = 16 := N_57
  obtain ⟨t, ht⟩ : ∃ t : Fin cfg57.N, t.val = 4 * ((i 0).val / 1024) + 3 :=
    ⟨⟨4 * ((i 0).val / 1024) + 3, by rw [hN]; omega⟩, rfl⟩
  refine ⟨t, (flush57_2 t).mpr (by omega), ?_⟩
  rw [memBlk57]
  obtain ⟨-, -, -, -, e0, e1⟩ := idxFacts57 t
  intro a
  match a with
  | ⟨0, _⟩ =>
    show win57_2.index t (0 : Fin 2) * 1024 ≤ (i 0).val ∧ (i 0).val < win57_2.index t (0 : Fin 2) * 1024 + 1024
    rw [e0]; omega
  | ⟨1, _⟩ =>
    show win57_2.index t (1 : Fin 2) * 512 ≤ (i 1).val ∧ (i 1).val < win57_2.index t (1 : Fin 2) * 512 + 512
    rw [e1]; omega

/-! ## The three arrays after the region -/

/-- The output array after the region is the whole-array function. -/
theorem final57_2 (c : Dev nD) : (dat57 V c).arrAt 2 cfg57.N = whole57 V c :=
  (dat57 V c).arrAt_eq_of_cover 2 (whole57 V c) (flushed57_eq V c) covered57

/-- The two input arrays are as the region found them. -/
theorem final57_0 (c : Dev nD) : (dat57 V c).arrAt 0 cfg57.N = V c main_v9 :=
  ((dat57 V c).arrAt_in 0 rfl cfg57.N).trans (A_eq57 V c 0)
theorem final57_1 (c : Dev nD) : (dat57 V c).arrAt 1 cfg57.N = V c main_v321 :=
  ((dat57 V c).arrAt_in 1 rfl cfg57.N).trans (A_eq57 V c 1)

/-! ## The input blocks as blocks of the operand arrays -/

/-- The left operand's block at the point (r, k): entry (y₀, y₁) is the array's entry (1024 r + y₀, 1024 k + y₁). -/
theorem iblk57_lhs_apply (c : Dev nD) (r k : Fin 4) (y : S1024x1024.Idx) (i : S4096x4096.Idx)
    (h0 : (i 0).val = 1024 * r.val + (y 0).val) (h1 : (i 1).val = 1024 * k.val + (y 1).val) :
    iblk57_lhs V c (4 * r.val + k.val) y = (V c main_v9 : S4096x4096.Idx → Elt F .bf16) i := by
  have hN : cfg57.N = 16 := N_57
  have hr := r.isLt
  have hk := k.isLt
  have hlt : 4 * r.val + k.val < cfg57.N := by rw [hN]; omega
  rw [iblk57_lhs_eq V c _ hlt]
  obtain ⟨e0, e1, -, -, -, -⟩ := idxFacts57 ⟨4 * r.val + k.val, hlt⟩
  have e0' : win57_0.index ⟨4 * r.val + k.val, hlt⟩ (0 : Fin 2) = (4 * r.val + k.val) / 4 := e0
  have e1' : win57_0.index ⟨4 * r.val + k.val, hlt⟩ (1 : Fin 2) = (4 * r.val + k.val) % 4 := e1
  unfold iblk57
  rw [View.read_apply]
  show V c main_v9 (((cfg57.win 0).blk ⟨4 * r.val + k.val, hlt⟩).view.emb y) = V c main_v9 i
  congr 1
  funext a
  apply Fin.ext
  match a with
  | ⟨0, _⟩ =>
    show win57_0.index ⟨4 * r.val + k.val, hlt⟩ (0 : Fin 2) * 1024 + 1 * (y 0).val = (i 0).val
    rw [e0', h0]; omega
  | ⟨1, _⟩ =>
    show win57_0.index ⟨4 * r.val + k.val, hlt⟩ (1 : Fin 2) * 1024 + 1 * (y 1).val = (i 1).val
    rw [e1', h1]; omega

/-- The right operand's block at the point (r, k): entry (y₀, y₁) is the array's entry (1024 k + y₀, y₁). -/
theorem iblk57_rhs_apply (c : Dev nD) (r k : Fin 4) (y : S1024x512.Idx) (i : S4096x512.Idx)
    (h0 : (i 0).val = 1024 * k.val + (y 0).val) (h1 : (i 1).val = (y 1).val) :
    iblk57_rhs V c (4 * r.val + k.val) y = (V c main_v321 : S4096x512.Idx → Elt F .f32) i := by
  have hN : cfg57.N = 16 := N_57
  have hr := r.isLt
  have hk := k.isLt
  have hlt : 4 * r.val + k.val < cfg57.N := by rw [hN]; omega
  rw [iblk57_rhs_eq V c _ hlt]
  obtain ⟨-, -, e0, e1, -, -⟩ := idxFacts57 ⟨4 * r.val + k.val, hlt⟩
  have e0' : win57_1.index ⟨4 * r.val + k.val, hlt⟩ (0 : Fin 2) = (4 * r.val + k.val) % 4 := e0
  have e1' : win57_1.index ⟨4 * r.val + k.val, hlt⟩ (1 : Fin 2) = 0 := e1
  unfold iblk57
  rw [View.read_apply]
  show V c main_v321 (((cfg57.win 1).blk ⟨4 * r.val + k.val, hlt⟩).view.emb y) = V c main_v321 i
  congr 1
  funext a
  apply Fin.ext
  match a with
  | ⟨0, _⟩ =>
    show win57_1.index ⟨4 * r.val + k.val, hlt⟩ (0 : Fin 2) * 1024 + 1 * (y 0).val = (i 0).val
    rw [e0', h0]; omega
  | ⟨1, _⟩ =>
    show win57_1.index ⟨4 * r.val + k.val, hlt⟩ (1 : Fin 2) * 512 + 1 * (y 1).val = (i 1).val
    rw [e1', h1]; omega

/-- The accumulated block after the fourth step, unfolded: four steps from the zero block. -/
theorem accOf57_three (c : Dev nD) (r : ℕ) :
    accOf57 V c r 3
      = k57_pay2 (iblk57_lhs V c (4 * r + 3)) (iblk57_rhs V c (4 * r + 3))
          (k57_pay2 (iblk57_lhs V c (4 * r + 2)) (iblk57_rhs V c (4 * r + 2))
            (k57_pay2 (iblk57_lhs V c (4 * r + 1)) (iblk57_rhs V c (4 * r + 1))
              (k57_pay2 (iblk57_lhs V c (4 * r)) (iblk57_rhs V c (4 * r)) (k57_pay1 (F := F))))) := rfl

end Cert.KernelIdeal.Hand

end
-- ==== Proof.ValKI57c.lean ====
/- Laid out by: python3 scratch/layout_regions.py --template-region 1 --region 57 --program KernelIdeal --prefix Val --parts a,b,c --sim main_v9=main_v9,main_v25=main_v321,main_v26=main_v322 --out-dir proof/Proof
   from the hand-written text of region 1 (ValKI1c.lean): the same text, the region's number substituted. -/
/-
  Region 57 of @main at the extended reals: the output array after the region is the product of the two operand arrays.

  A change of float format is the identity at these values and a reshape to the same shape is the identity, so one step of
  the kernel's accumulation is "accumulator plus the product of the two blocks into the zero block", and the accumulator
  starts from the zero block. Block row r's accumulated block is then the four-step fold of the products of the blocks
  (r, k) of the left operand and (k, 0) of the right operand, which is block (r, 0) of the whole product: a finite sum over
  the contraction axis regrouped into its four blocks. Read through the whole-array function of the blocks-to-array module,
  entry (1024 r + p, q) of the output array is that entry of the product.
-/
import proofs.«158944_j64613488001249_1_alg».proof.Proof.ValKI57b
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One step of the accumulation, and its start, at the extended reals -/

/-- A change of format and a reshape to the same shape are the identity: the step adds the product of the two blocks
    (into the zero block) to the accumulator. -/
theorem accOf57_step (x0 : Vec Ideal S1024x1024 .bf16) (x1 acc : Vec Ideal S1024x512 .f32) :
    k57_pay2 (F := Ideal) x0 x1 acc
      = Cert.MMLaw.accStep dot_S1024x1024_S1024x512_S1024x512_1_0_0_1_n_n none x0 x1 acc := by
  unfold k57_pay2
  simp only [shapeCast_self]
  rfl

/-- The accumulator starts from the zero block. -/
theorem accOf57_init (j : S1024x512.Idx) : k57_pay1 (F := Ideal) j = 0 := by
  unfold k57_pay1
  rw [shapeCast_self]
  exact Ideal.ofBits_zero_f32

/-! ## The accumulated block is a block of the whole product -/

/-- Block row r's accumulated block is block (r, 0) of the product of the two operand arrays: the sum over the
    contraction axis, regrouped into its four blocks. -/
theorem accOf57_eq_blk (c : Dev nD) (r : Fin 4) (D : DotDims S4096x4096 S4096x512 S4096x512) (hD : Cert.MMLaw.IsPlain D)
    (prec : Option ContractPrecision) :
    accOf57 V c r.val 3
      = Cert.MMLaw.blk (nr := 4) (nc := 1) 1024 512 rfl rfl (Cert.MMLaw.whole D prec (V c main_v9) (V c main_v321)) r 0 := by
  rw [accOf57_three]
  simp only [accOf57_step]
  exact Cert.MMLaw.fold4_eq_whole (nr := 4) (nc := 1) (m := 1024) (kb := 1024) (n := 512) rfl rfl rfl
    dot_S1024x1024_S1024x512_S1024x512_1_0_0_1_n_n ⟨rfl, rfl, rfl, rfl, rfl, rfl⟩ D hD none prec (V c main_v9) (V c main_v321) r 0
    (fun k => iblk57_lhs V c (4 * r.val + k.val)) (fun k => iblk57_rhs V c (4 * r.val + k.val))
    (fun k => funext fun y => iblk57_lhs_apply V c r k y _ rfl rfl)
    (fun k => funext fun y => iblk57_rhs_apply V c r k y _ rfl (by show 512 * 0 + (y 1).val = (y 1).val; omega))
    (k57_pay1 (F := Ideal)) accOf57_init

/-! ## The output array after the region is the whole product -/

/-- The region leaves in its output array the product of its two operand arrays. -/
theorem final57_2_eq_whole (c : Dev nD) (D : DotDims S4096x4096 S4096x512 S4096x512) (hD : Cert.MMLaw.IsPlain D)
    (prec : Option ContractPrecision) :
    (dat57 (F := Ideal) V c).arrAt 2 cfg57.N = Cert.MMLaw.whole D prec (V c main_v9) (V c main_v321) := by
  rw [final57_2]
  funext i
  have hi0 : (i 0).val < 4096 := idx2_lt0 i
  have h := congrFun (accOf57_eq_blk V c ⟨(i 0).val / 1024, by omega⟩ D hD prec)
    (ix2 (n0 := 1024) (n1 := 512) ⟨(i 0).val % 1024, Nat.mod_lt _ (by decide)⟩ ⟨(i 1).val, idx2_lt1 i⟩)
  rw [Cert.MMLaw.blk_apply] at h
  refine Eq.trans h (congrArg _ ?_)
  funext a
  match a with
  | ⟨0, _⟩ => exact Fin.ext (by show 1024 * ((i 0).val / 1024) + (i 0).val % 1024 = (i 0).val; omega)
  | ⟨1, _⟩ => exact Fin.ext (by show 512 * 0 + (i 1).val = (i 1).val; omega)

/-- The same with the operands at the formats they are stored in. -/
theorem final57_2_eq_dot (c : Dev nD) (D : DotDims S4096x4096 S4096x512 S4096x512) (hD : Cert.MMLaw.IsPlain D)
    (prec : Option ContractPrecision) :
    (dat57 (F := Ideal) V c).arrAt 2 cfg57.N = Host.dotGeneral (F := Ideal) (φ₁ := .bf16) (φ₂ := .f32) D prec (V c main_v9) (V c main_v321) :=
  final57_2_eq_whole V c D hD prec

end Cert.KernelIdeal.Hand

end
-- ==== Proof.ValKI58a.lean ====
/- Laid out by: python3 scratch/layout_grid41.py --prefix Val --template-region 0 --region 58 --program KernelIdeal --parts a,b --shapes S1024x128=S1024x512,S128x512=S512x512,S1024x512=S1024x512,S4096x128=S4096x512,S4096x512=S4096x512,main_arg0=main_v316,main_v12=main_v14,main_v17=main_v326,h0=h0,e0=e0,hi0=hi0,x0=x0
   from the hand-written text of region 0 (ValKI0a.lean): the same text, the region's number, block shapes, operand arrays substituted. -/
/-
  Region 58 of @main: from the output blocks to the whole output array.

  The grid is [4, 1]: the point t is block row t, and the reduction axis has one step, so every point zeroes the
  accumulator, adds the product of its two input blocks, and writes the sum back. The output window's block at t is
  rows 1024 t … 1024 t + 1023 of the result, written back at every point. So the array after the region is ONE function
  of the index: row 1024 r + p, column q holds entry (p, q) of the block the point r leaves. The steps: the three windows'
  block indices decided once over the grid; what a point writes back is its block of that function; the four blocks
  written back cover the array (row i lies in the block of the point i / 1024); hence the array after the region. The two
  operand arrays are not written. Last, each input block as a block of its operand array: the left operand's block at the
  point t is its rows 1024 t … 1024 t + 1023 (every column), the right operand's block is the whole array at every point.
-/
import proofs.«158944_j64613488001249_1_alg».proof.Proof.RegKI58
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t the left operand's block is (t, 0), the right operand's (0, 0), the output's (t, 0). -/
theorem idxFacts58 : ∀ t : Fin cfg58.N,
    win58_0.index t (0 : Fin 2) = t.val ∧ win58_0.index t (1 : Fin 2) = 0
    ∧ win58_1.index t (0 : Fin 2) = 0 ∧ win58_1.index t (1 : Fin 2) = 0
    ∧ win58_2.index t (0 : Fin 2) = t.val ∧ win58_2.index t (1 : Fin 2) = 0 :=
  (by decide +kernel : ∀ t : Fin grid58.N,
    win58_0.index t (0 : Fin 2) = t.val ∧ win58_0.index t (1 : Fin 2) = 0
    ∧ win58_1.index t (0 : Fin 2) = 0 ∧ win58_1.index t (1 : Fin 2) = 0
    ∧ win58_2.index t (0 : Fin 2) = t.val ∧ win58_2.index t (1 : Fin 2) = 0)

/-! ## The block a point leaves -/

/-- The block the point at grid position n leaves: the zero block plus the product of the point's two input blocks
    (past the grid's end, where nothing consults it, the block of position 0). -/
def accOf58 (c : Dev nD) (n : ℕ) : Vec F S1024x512 .f32 :=
  if h : n < cfg58.N then k58_pay2 (iblk58 V c 0 ⟨n, h⟩) (iblk58 V c 1 ⟨n, h⟩) (k58_pay1 (F := F))
  else k58_pay2 (iblk58 V c 0 ⟨0, by have h : cfg58.N = 4 := N_58; omega⟩)
    (iblk58 V c 1 ⟨0, by have h : cfg58.N = 4 := N_58; omega⟩) (k58_pay1 (F := F))

theorem accOf58_eq (c : Dev nD) (t : Fin cfg58.N) :
    accOf58 V c t.val = k58_pay2 (iblk58 V c 0 t) (iblk58 V c 1 t) (k58_pay1 (F := F)) := by
  unfold accOf58; exact dif_pos t.isLt

/-- At every point the output block holds that block. -/
theorem outsAt58_out (c : Dev nD) (t : Fin cfg58.N) : (outsAt58 V c t.val t.isLt).1 = accOf58 V c t.val :=
  (outsAt58_last V c t).trans ((outsAt58_first V c t).trans (accOf58_eq V c t).symm)

/-! ## The output array as one function -/

/-- The whole output array: its row 1024 r + p, column q, is entry (p, q) of the block the point r leaves. -/
def whole58 (c : Dev nD) : S4096x512.Idx → Elt F .f32 := fun i =>
  accOf58 V c ((i 0).val / 1024)
    (ix2 ⟨(i 0).val % 1024, Nat.mod_lt _ (by decide)⟩ ⟨(i 1).val, idx2_lt1 i⟩)

/-- The array read at an index given by a block row r and a position y inside the block. -/
theorem whole58_apply (c : Dev nD) (r : ℕ) (y : S1024x512.Idx) (i : S4096x512.Idx)
    (h0 : (i 0).val = 1024 * r + (y 0).val) (h1 : (i 1).val = (y 1).val) :
    whole58 V c i = accOf58 V c r y := by
  have hy : (y 0).val < 1024 := idx2_lt0 y
  have hr : (i 0).val / 1024 = r := by omega
  have hp : (i 0).val % 1024 = (y 0).val := by omega
  have e : (ix2 ⟨(i 0).val % 1024, Nat.mod_lt _ (by decide)⟩ ⟨(i 1).val, idx2_lt1 i⟩ : S1024x512.Idx) = y :=
    funext fun a => match a with
      | ⟨0, _⟩ => Fin.ext hp
      | ⟨1, _⟩ => Fin.ext h1
  unfold whole58
  rw [hr, e]

/-- Row 1024 r + p, column q of the array is entry (p, q) of the block the point r leaves. -/
theorem whole58_ix2 (c : Dev nD) (r : Fin 4) (p : Fin 1024) (q : Fin (S1024x512.size 1)) :
    whole58 V c (ix2 ⟨1024 * r.val + p.val, by have := r.isLt; have := p.isLt; omega⟩ q)
      = accOf58 V c r.val (ix2 p q) :=
  whole58_apply V c r.val (ix2 p q) _ rfl rfl

/-! ## What a point writes back -/

/-- Every point writes back its block of the whole-array function. -/
theorem flushed58_eq (c : Dev nD) (t : Fin cfg58.N) (hf : (cfg58.win 2).flush t = true) :
    (dat58 V c).flushed 2 t = ((cfg58.win 2).blk t).view.read (Elt F) (whole58 V c) := by
  show (cfg58.win 2).cut (grid58.coords t) ((dat58 V c).after 2 t) = _
  rw [after58_2, outsAt58_out V c t]
  obtain ⟨-, -, -, -, e0, e1⟩ := idxFacts58 t
  funext j
  show accOf58 V c t.val j = whole58 V c (((cfg58.win 2).blk t).view.emb j)
  refine (whole58_apply V c t.val j _ ?_ ?_).symm
  · show win58_2.index t (0 : Fin 2) * 1024 + 1 * (j 0).val = 1024 * t.val + (j 0).val
    rw [e0]; omega
  · show win58_2.index t (1 : Fin 2) * S1024x512.size (1 : Fin 2) + 1 * (j 1).val = (j 1).val
    rw [e1, Nat.zero_mul, Nat.zero_add, Nat.one_mul]

/-! ## The blocks written back cover the array -/

/-- An index is in a point's output block iff each coordinate is in the block's range on its axis. -/
theorem memBlk58 (t : Fin cfg58.N) (i : S4096x512.Idx) :
    i ∈ ((cfg58.win 2).blk t).view.set ↔ ∀ a : Fin 2, win58_2.index t a * S1024x512.size a ≤ (i a).val
      ∧ (i a).val < win58_2.index t a * S1024x512.size a + S1024x512.size a := by
  show i ∈ ((View.whole main_v326).slice (win58_2.rect t)).set ↔ _
  rw [View.set_slice_whole, Rect.mem_set_unit]
  exact Iff.rfl

/-- Row i of the array lies in the block written back at the point i / 1024. -/
theorem covered58 (i : S4096x512.Idx) :
    ∃ t : Fin cfg58.N, (cfg58.win 2).flush t = true ∧ i ∈ ((cfg58.win 2).blk t).view.set := by
  have hi0 : (i 0).val < 4096 := idx2_lt0 i
  have hi1 : (i 1).val < S1024x512.size (1 : Fin 2) := idx2_lt1 i
  have hN : cfg58.N = 4 := N_58
  obtain ⟨t, ht⟩ : ∃ t : Fin cfg58.N, t.val = (i 0).val / 1024 :=
    ⟨⟨(i 0).val / 1024, by rw [hN]; omega⟩, rfl⟩
  refine ⟨t, flush58_2 t, ?_⟩
  rw [memBlk58]
  obtain ⟨-, -, -, -, e0, e1⟩ := idxFacts58 t
  intro a
  match a with
  | ⟨0, _⟩ =>
    show win58_2.index t (0 : Fin 2) * 1024 ≤ (i 0).val ∧ (i 0).val < win58_2.index t (0 : Fin 2) * 1024 + 1024
    rw [e0]; omega
  | ⟨1, _⟩ =>
    show win58_2.index t (1 : Fin 2) * S1024x512.size (1 : Fin 2) ≤ (i 1).val
      ∧ (i 1).val < win58_2.index t (1 : Fin 2) * S1024x512.size (1 : Fin 2) + S1024x512.size (1 : Fin 2)
    rw [e1, Nat.zero_mul, Nat.zero_add]
    exact ⟨Nat.zero_le _, hi1⟩

/-! ## The three arrays after the region -/

/-- The output array after the region is the whole-array function. -/
theorem final58_2 (c : Dev nD) : (dat58 V c).arrAt 2 cfg58.N = whole58 V c :=
  (dat58 V c).arrAt_eq_of_cover 2 (whole58 V c) (flushed58_eq V c) covered58

/-- The two input arrays are as the region found them. -/
theorem final58_0 (c : Dev nD) : (dat58 V c).arrAt 0 cfg58.N = V c main_v316 :=
  ((dat58 V c).arrAt_in 0 rfl cfg58.N).trans (A_eq58 V c 0)
theorem final58_1 (c : Dev nD) : (dat58 V c).arrAt 1 cfg58.N = V c main_v14 :=
  ((dat58 V c).arrAt_in 1 rfl cfg58.N).trans (A_eq58 V c 1)

/-! ## The input blocks as blocks of the operand arrays -/

/-- The left operand's block at the point t: entry (y₀, y₁) is the array's entry (1024 t + y₀, y₁). -/
theorem iblk58_lhs_apply (c : Dev nD) (t : Fin cfg58.N) (y : S1024x512.Idx) (i : S4096x512.Idx)
    (h0 : (i 0).val = 1024 * t.val + (y 0).val) (h1 : (i 1).val = (y 1).val) :
    iblk58 V c 0 t y = (V c main_v316 : S4096x512.Idx → Elt F .f32) i := by
  obtain ⟨e0, e1, -, -, -, -⟩ := idxFacts58 t
  unfold iblk58
  rw [View.read_apply]
  show V c main_v316 (((cfg58.win 0).blk t).view.emb y) = V c main_v316 i
  congr 1
  funext a
  apply Fin.ext
  match a with
  | ⟨0, _⟩ =>
    show win58_0.index t (0 : Fin 2) * 1024 + 1 * (y 0).val = (i 0).val
    rw [e0, h0]; omega
  | ⟨1, _⟩ =>
    show win58_0.index t (1 : Fin 2) * S1024x512.size (1 : Fin 2) + 1 * (y 1).val = (i 1).val
    rw [e1, h1, Nat.zero_mul, Nat.zero_add, Nat.one_mul]

/-- The right operand's block is the whole array at every point. -/
theorem iblk58_rhs_eq (c : Dev nD) (t : Fin cfg58.N) :
    iblk58 V c 1 t = (V c main_v14 : S512x512.Idx → Elt F .bf16) := by
  obtain ⟨-, -, e0, e1, -, -⟩ := idxFacts58 t
  funext y
  unfold iblk58
  rw [View.read_apply]
  show V c main_v14 (((cfg58.win 1).blk t).view.emb y) = V c main_v14 y
  congr 1
  funext a
  apply Fin.ext
  match a with
  | ⟨0, _⟩ =>
    show win58_1.index t (0 : Fin 2) * S512x512.size (0 : Fin 2) + 1 * (y 0).val = (y 0).val
    rw [e0, Nat.zero_mul, Nat.zero_add, Nat.one_mul]
  | ⟨1, _⟩ =>
    show win58_1.index t (1 : Fin 2) * S512x512.size (1 : Fin 2) + 1 * (y 1).val = (y 1).val
    rw [e1, Nat.zero_mul, Nat.zero_add, Nat.one_mul]

end Cert.KernelIdeal.Hand

end
-- ==== Proof.ValKI58b.lean ====
/- Laid out by: python3 scratch/layout_grid41.py --prefix Val --template-region 0 --region 58 --program KernelIdeal --parts a,b --shapes S1024x128=S1024x512,S128x512=S512x512,S1024x512=S1024x512,S4096x128=S4096x512,S4096x512=S4096x512,main_arg0=main_v316,main_v12=main_v14,main_v17=main_v326,h0=h0,e0=e0,hi0=hi0,x0=x0
   from the hand-written text of region 0 (ValKI0b.lean): the same text, the region's number, block shapes, operand arrays substituted. -/
/-
  Region 58 of @main at the extended reals: the output array after the region is the product of the two operand arrays.

  A change of float format is the identity at these values and a reshape to the same shape is the identity, so the
  kernel's one accumulation step is "accumulator plus the product of the two blocks into the zero block", and the
  accumulator starts from the zero block. The block the point r leaves is then zero plus the product of rows
  1024 r … 1024 r + 1023 of the left operand with the whole right operand, which is the same rows of the whole product:
  the contraction axis is not cut, so the sums are the same term by term. Read through the whole-array function of the
  blocks-to-array module, entry (1024 r + p, q) of the output array is that entry of the product.
-/
import proofs.«158944_j64613488001249_1_alg».proof.Proof.ValKI58a
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The accumulation step, and its start, at the extended reals -/

/-- A change of format and a reshape to the same shape are the identity: the step adds the product of the two blocks
    (into the zero block) to the accumulator. -/
theorem accOf58_step (x0 : Vec Ideal S1024x512 .f32) (x1 : Vec Ideal S512x512 .bf16) (acc : Vec Ideal S1024x512 .f32) :
    k58_pay2 (F := Ideal) x0 x1 acc
      = Cert.MMLaw.accStep dot_S1024x512_S512x512_S1024x512_1_0_0_1_n_n none x0 x1 acc := by
  unfold k58_pay2
  simp only [shapeCast_self]
  rfl

/-- The accumulator starts from the zero block. -/
theorem accOf58_init (j : S1024x512.Idx) : k58_pay1 (F := Ideal) j = 0 := by
  unfold k58_pay1
  rw [shapeCast_self]
  exact Ideal.ofBits_zero_f32

/-! ## The block a point leaves is a block of the whole product -/

/-- The block the point r leaves is rows 1024 r … 1024 r + 1023 of the product of the two operand arrays. -/
theorem accOf58_eq_blk (c : Dev nD) (r : Fin 4) (D : DotDims S4096x512 S512x512 S4096x512) (hD : Cert.MMLaw.IsPlain D)
    (prec : Option ContractPrecision) :
    accOf58 V c r.val
      = Cert.MMLaw.rowBlk (Cert.MMLaw.whole D prec (V c main_v316) (V c main_v14)) r := by
  have hN : cfg58.N = 4 := N_58
  have hr : r.val < cfg58.N := by rw [hN]; exact r.isLt
  rw [accOf58_eq V c ⟨r.val, hr⟩, accOf58_step]
  exact Cert.MMLaw.law41 dot_S1024x512_S512x512_S1024x512_1_0_0_1_n_n ⟨rfl, rfl, rfl, rfl, rfl, rfl⟩ D hD none prec
    (V c main_v316) (V c main_v14) r (iblk58 V c 0 ⟨r.val, hr⟩) (iblk58 V c 1 ⟨r.val, hr⟩)
    (funext fun y => iblk58_lhs_apply V c ⟨r.val, hr⟩ y _ rfl rfl) (iblk58_rhs_eq V c ⟨r.val, hr⟩)
    (k58_pay1 (F := Ideal)) accOf58_init

/-! ## The output array after the region is the whole product -/

/-- The region leaves in its output array the product of its two operand arrays. -/
theorem final58_2_eq_whole (c : Dev nD) (D : DotDims S4096x512 S512x512 S4096x512) (hD : Cert.MMLaw.IsPlain D)
    (prec : Option ContractPrecision) :
    (dat58 (F := Ideal) V c).arrAt 2 cfg58.N = Cert.MMLaw.whole D prec (V c main_v316) (V c main_v14) := by
  rw [final58_2]
  funext i
  have hi0 : (i 0).val < 4096 := idx2_lt0 i
  have h := congrFun (accOf58_eq_blk V c ⟨(i 0).val / 1024, by omega⟩ D hD prec)
    (ix2 ⟨(i 0).val % 1024, Nat.mod_lt _ (by decide)⟩ ⟨(i 1).val, idx2_lt1 i⟩)
  rw [Cert.MMLaw.rowBlk_apply] at h
  refine Eq.trans h (congrArg _ ?_)
  funext a
  match a with
  | ⟨0, _⟩ => exact Fin.ext (by show 1024 * ((i 0).val / 1024) + (i 0).val % 1024 = (i 0).val; omega)
  | ⟨1, _⟩ => rfl

/-- The same with the operands at the formats they are stored in. -/
theorem final58_2_eq_dot (c : Dev nD) (D : DotDims S4096x512 S512x512 S4096x512) (hD : Cert.MMLaw.IsPlain D)
    (prec : Option ContractPrecision) :
    (dat58 (F := Ideal) V c).arrAt 2 cfg58.N
      = Host.dotGeneral (F := Ideal) (φ₁ := .f32) (φ₂ := .bf16) D prec (V c main_v316) (V c main_v14) :=
  final58_2_eq_whole V c D hD prec

end Cert.KernelIdeal.Hand

end
-- ==== Proof.ValKI59a.lean ====
/- Laid out by: python3 scratch/layout_grid41.py --prefix Val --template-region 0 --region 59 --program KernelIdeal --parts a,b --shapes S1024x128=S1024x512,S128x512=S512x64,S1024x512=S1024x64,S4096x128=S4096x512,S4096x512=S4096x64,main_arg0=main_v330,main_v12=main_v16,main_v17=main_v331,h0=h0,e0=e0,hi0=hi0,x0=x0
   from the hand-written text of region 0 (ValKI0a.lean): the same text, the region's number, block shapes, operand arrays substituted. -/
/-
  Region 59 of @main: from the output blocks to the whole output array.

  The grid is [4, 1]: the point t is block row t, and the reduction axis has one step, so every point zeroes the
  accumulator, adds the product of its two input blocks, and writes the sum back. The output window's block at t is
  rows 1024 t … 1024 t + 1023 of the result, written back at every point. So the array after the region is ONE function
  of the index: row 1024 r + p, column q holds entry (p, q) of the block the point r leaves. The steps: the three windows'
  block indices decided once over the grid; what a point writes back is its block of that function; the four blocks
  written back cover the array (row i lies in the block of the point i / 1024); hence the array after the region. The two
  operand arrays are not written. Last, each input block as a block of its operand array: the left operand's block at the
  point t is its rows 1024 t … 1024 t + 1023 (every column), the right operand's block is the whole array at every point.
-/
import proofs.«158944_j64613488001249_1_alg».proof.Proof.RegKI59
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices over the grid -/

/-- At the point t the left operand's block is (t, 0), the right operand's (0, 0), the output's (t, 0). -/
theorem idxFacts59 : ∀ t : Fin cfg59.N,
    win59_0.index t (0 : Fin 2) = t.val ∧ win59_0.index t (1 : Fin 2) = 0
    ∧ win59_1.index t (0 : Fin 2) = 0 ∧ win59_1.index t (1 : Fin 2) = 0
    ∧ win59_2.index t (0 : Fin 2) = t.val ∧ win59_2.index t (1 : Fin 2) = 0 :=
  (by decide +kernel : ∀ t : Fin grid59.N,
    win59_0.index t (0 : Fin 2) = t.val ∧ win59_0.index t (1 : Fin 2) = 0
    ∧ win59_1.index t (0 : Fin 2) = 0 ∧ win59_1.index t (1 : Fin 2) = 0
    ∧ win59_2.index t (0 : Fin 2) = t.val ∧ win59_2.index t (1 : Fin 2) = 0)

/-! ## The block a point leaves -/

/-- The block the point at grid position n leaves: the zero block plus the product of the point's two input blocks
    (past the grid's end, where nothing consults it, the block of position 0). -/
def accOf59 (c : Dev nD) (n : ℕ) : Vec F S1024x64 .f32 :=
  if h : n < cfg59.N then k59_pay2 (iblk59 V c 0 ⟨n, h⟩) (iblk59 V c 1 ⟨n, h⟩) (k59_pay1 (F := F))
  else k59_pay2 (iblk59 V c 0 ⟨0, by have h : cfg59.N = 4 := N_59; omega⟩)
    (iblk59 V c 1 ⟨0, by have h : cfg59.N = 4 := N_59; omega⟩) (k59_pay1 (F := F))

theorem accOf59_eq (c : Dev nD) (t : Fin cfg59.N) :
    accOf59 V c t.val = k59_pay2 (iblk59 V c 0 t) (iblk59 V c 1 t) (k59_pay1 (F := F)) := by
  unfold accOf59; exact dif_pos t.isLt

/-- At every point the output block holds that block. -/
theorem outsAt59_out (c : Dev nD) (t : Fin cfg59.N) : (outsAt59 V c t.val t.isLt).1 = accOf59 V c t.val :=
  (outsAt59_last V c t).trans ((outsAt59_first V c t).trans (accOf59_eq V c t).symm)

/-! ## The output array as one function -/

/-- The whole output array: its row 1024 r + p, column q, is entry (p, q) of the block the point r leaves. -/
def whole59 (c : Dev nD) : S4096x64.Idx → Elt F .f32 := fun i =>
  accOf59 V c ((i 0).val / 1024)
    (ix2 ⟨(i 0).val % 1024, Nat.mod_lt _ (by decide)⟩ ⟨(i 1).val, idx2_lt1 i⟩)

/-- The array read at an index given by a block row r and a position y inside the block. -/
theorem whole59_apply (c : Dev nD) (r : ℕ) (y : S1024x64.Idx) (i : S4096x64.Idx)
    (h0 : (i 0).val = 1024 * r + (y 0).val) (h1 : (i 1).val = (y 1).val) :
    whole59 V c i = accOf59 V c r y := by
  have hy : (y 0).val < 1024 := idx2_lt0 y
  have hr : (i 0).val / 1024 = r := by omega
  have hp : (i 0).val % 1024 = (y 0).val := by omega
  have e : (ix2 ⟨(i 0).val % 1024, Nat.mod_lt _ (by decide)⟩ ⟨(i 1).val, idx2_lt1 i⟩ : S1024x64.Idx) = y :=
    funext fun a => match a with
      | ⟨0, _⟩ => Fin.ext hp
      | ⟨1, _⟩ => Fin.ext h1
  unfold whole59
  rw [hr, e]

/-- Row 1024 r + p, column q of the array is entry (p, q) of the block the point r leaves. -/
theorem whole59_ix2 (c : Dev nD) (r : Fin 4) (p : Fin 1024) (q : Fin (S1024x64.size 1)) :
    whole59 V c (ix2 ⟨1024 * r.val + p.val, by have := r.isLt; have := p.isLt; omega⟩ q)
      = accOf59 V c r.val (ix2 p q) :=
  whole59_apply V c r.val (ix2 p q) _ rfl rfl

/-! ## What a point writes back -/

/-- Every point writes back its block of the whole-array function. -/
theorem flushed59_eq (c : Dev nD) (t : Fin cfg59.N) (hf : (cfg59.win 2).flush t = true) :
    (dat59 V c).flushed 2 t = ((cfg59.win 2).blk t).view.read (Elt F) (whole59 V c) := by
  show (cfg59.win 2).cut (grid59.coords t) ((dat59 V c).after 2 t) = _
  rw [after59_2, outsAt59_out V c t]
  obtain ⟨-, -, -, -, e0, e1⟩ := idxFacts59 t
  funext j
  show accOf59 V c t.val j = whole59 V c (((cfg59.win 2).blk t).view.emb j)
  refine (whole59_apply V c t.val j _ ?_ ?_).symm
  · show win59_2.index t (0 : Fin 2) * 1024 + 1 * (j 0).val = 1024 * t.val + (j 0).val
    rw [e0]; omega
  · show win59_2.index t (1 : Fin 2) * S1024x64.size (1 : Fin 2) + 1 * (j 1).val = (j 1).val
    rw [e1, Nat.zero_mul, Nat.zero_add, Nat.one_mul]

/-! ## The blocks written back cover the array -/

/-- An index is in a point's output block iff each coordinate is in the block's range on its axis. -/
theorem memBlk59 (t : Fin cfg59.N) (i : S4096x64.Idx) :
    i ∈ ((cfg59.win 2).blk t).view.set ↔ ∀ a : Fin 2, win59_2.index t a * S1024x64.size a ≤ (i a).val
      ∧ (i a).val < win59_2.index t a * S1024x64.size a + S1024x64.size a := by
  show i ∈ ((View.whole main_v331).slice (win59_2.rect t)).set ↔ _
  rw [View.set_slice_whole, Rect.mem_set_unit]
  exact Iff.rfl

/-- Row i of the array lies in the block written back at the point i / 1024. -/
theorem covered59 (i : S4096x64.Idx) :
    ∃ t : Fin cfg59.N, (cfg59.win 2).flush t = true ∧ i ∈ ((cfg59.win 2).blk t).view.set := by
  have hi0 : (i 0).val < 4096 := idx2_lt0 i
  have hi1 : (i 1).val < S1024x64.size (1 : Fin 2) := idx2_lt1 i
  have hN : cfg59.N = 4 := N_59
  obtain ⟨t, ht⟩ : ∃ t : Fin cfg59.N, t.val = (i 0).val / 1024 :=
    ⟨⟨(i 0).val / 1024, by rw [hN]; omega⟩, rfl⟩
  refine ⟨t, flush59_2 t, ?_⟩
  rw [memBlk59]
  obtain ⟨-, -, -, -, e0, e1⟩ := idxFacts59 t
  intro a
  match a with
  | ⟨0, _⟩ =>
    show win59_2.index t (0 : Fin 2) * 1024 ≤ (i 0).val ∧ (i 0).val < win59_2.index t (0 : Fin 2) * 1024 + 1024
    rw [e0]; omega
  | ⟨1, _⟩ =>
    show win59_2.index t (1 : Fin 2) * S1024x64.size (1 : Fin 2) ≤ (i 1).val
      ∧ (i 1).val < win59_2.index t (1 : Fin 2) * S1024x64.size (1 : Fin 2) + S1024x64.size (1 : Fin 2)
    rw [e1, Nat.zero_mul, Nat.zero_add]
    exact ⟨Nat.zero_le _, hi1⟩

/-! ## The three arrays after the region -/

/-- The output array after the region is the whole-array function. -/
theorem final59_2 (c : Dev nD) : (dat59 V c).arrAt 2 cfg59.N = whole59 V c :=
  (dat59 V c).arrAt_eq_of_cover 2 (whole59 V c) (flushed59_eq V c) covered59

/-- The two input arrays are as the region found them. -/
theorem final59_0 (c : Dev nD) : (dat59 V c).arrAt 0 cfg59.N = V c main_v330 :=
  ((dat59 V c).arrAt_in 0 rfl cfg59.N).trans (A_eq59 V c 0)
theorem final59_1 (c : Dev nD) : (dat59 V c).arrAt 1 cfg59.N = V c main_v16 :=
  ((dat59 V c).arrAt_in 1 rfl cfg59.N).trans (A_eq59 V c 1)

/-! ## The input blocks as blocks of the operand arrays -/

/-- The left operand's block at the point t: entry (y₀, y₁) is the array's entry (1024 t + y₀, y₁). -/
theorem iblk59_lhs_apply (c : Dev nD) (t : Fin cfg59.N) (y : S1024x512.Idx) (i : S4096x512.Idx)
    (h0 : (i 0).val = 1024 * t.val + (y 0).val) (h1 : (i 1).val = (y 1).val) :
    iblk59 V c 0 t y = (V c main_v330 : S4096x512.Idx → Elt F .f32) i := by
  obtain ⟨e0, e1, -, -, -, -⟩ := idxFacts59 t
  unfold iblk59
  rw [View.read_apply]
  show V c main_v330 (((cfg59.win 0).blk t).view.emb y) = V c main_v330 i
  congr 1
  funext a
  apply Fin.ext
  match a with
  | ⟨0, _⟩ =>
    show win59_0.index t (0 : Fin 2) * 1024 + 1 * (y 0).val = (i 0).val
    rw [e0, h0]; omega
  | ⟨1, _⟩ =>
    show win59_0.index t (1 : Fin 2) * S1024x512.size (1 : Fin 2) + 1 * (y 1).val = (i 1).val
    rw [e1, h1, Nat.zero_mul, Nat.zero_add, Nat.one_mul]

/-- The right operand's block is the whole array at every point. -/
theorem iblk59_rhs_eq (c : Dev nD) (t : Fin cfg59.N) :
    iblk59 V c 1 t = (V c main_v16 : S512x64.Idx → Elt F .bf16) := by
  obtain ⟨-, -, e0, e1, -, -⟩ := idxFacts59 t
  funext y
  unfold iblk59
  rw [View.read_apply]
  show V c main_v16 (((cfg59.win 1).blk t).view.emb y) = V c main_v16 y
  congr 1
  funext a
  apply Fin.ext
  match a with
  | ⟨0, _⟩ =>
    show win59_1.index t (0 : Fin 2) * S512x64.size (0 : Fin 2) + 1 * (y 0).val = (y 0).val
    rw [e0, Nat.zero_mul, Nat.zero_add, Nat.one_mul]
  | ⟨1, _⟩ =>
    show win59_1.index t (1 : Fin 2) * S512x64.size (1 : Fin 2) + 1 * (y 1).val = (y 1).val
    rw [e1, Nat.zero_mul, Nat.zero_add, Nat.one_mul]

end Cert.KernelIdeal.Hand

end
-- ==== Proof.ValKI59b.lean ====
/- Laid out by: python3 scratch/layout_grid41.py --prefix Val --template-region 0 --region 59 --program KernelIdeal --parts a,b --shapes S1024x128=S1024x512,S128x512=S512x64,S1024x512=S1024x64,S4096x128=S4096x512,S4096x512=S4096x64,main_arg0=main_v330,main_v12=main_v16,main_v17=main_v331,h0=h0,e0=e0,hi0=hi0,x0=x0
   from the hand-written text of region 0 (ValKI0b.lean): the same text, the region's number, block shapes, operand arrays substituted. -/
/-
  Region 59 of @main at the extended reals: the output array after the region is the product of the two operand arrays.

  A change of float format is the identity at these values and a reshape to the same shape is the identity, so the
  kernel's one accumulation step is "accumulator plus the product of the two blocks into the zero block", and the
  accumulator starts from the zero block. The block the point r leaves is then zero plus the product of rows
  1024 r … 1024 r + 1023 of the left operand with the whole right operand, which is the same rows of the whole product:
  the contraction axis is not cut, so the sums are the same term by term. Read through the whole-array function of the
  blocks-to-array module, entry (1024 r + p, q) of the output array is that entry of the product.
-/
import proofs.«158944_j64613488001249_1_alg».proof.Proof.ValKI59a
import proofs.«158944_j64613488001249_1_alg».proof.Proof.MMLaw

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The accumulation step, and its start, at the extended reals -/

/-- A change of format and a reshape to the same shape are the identity: the step adds the product of the two blocks
    (into the zero block) to the accumulator. -/
theorem accOf59_step (x0 : Vec Ideal S1024x512 .f32) (x1 : Vec Ideal S512x64 .bf16) (acc : Vec Ideal S1024x64 .f32) :
    k59_pay2 (F := Ideal) x0 x1 acc
      = Cert.MMLaw.accStep dot_S1024x512_S512x64_S1024x64_1_0_0_1_n_n none x0 x1 acc := by
  unfold k59_pay2
  simp only [shapeCast_self]
  rfl

/-- The accumulator starts from the zero block. -/
theorem accOf59_init (j : S1024x64.Idx) : k59_pay1 (F := Ideal) j = 0 := by
  unfold k59_pay1
  rw [shapeCast_self]
  exact Ideal.ofBits_zero_f32

/-! ## The block a point leaves is a block of the whole product -/

/-- The block the point r leaves is rows 1024 r … 1024 r + 1023 of the product of the two operand arrays. -/
theorem accOf59_eq_blk (c : Dev nD) (r : Fin 4) (D : DotDims S4096x512 S512x64 S4096x64) (hD : Cert.MMLaw.IsPlain D)
    (prec : Option ContractPrecision) :
    accOf59 V c r.val
      = Cert.MMLaw.rowBlk (Cert.MMLaw.whole D prec (V c main_v330) (V c main_v16)) r := by
  have hN : cfg59.N = 4 := N_59
  have hr : r.val < cfg59.N := by rw [hN]; exact r.isLt
  rw [accOf59_eq V c ⟨r.val, hr⟩, accOf59_step]
  exact Cert.MMLaw.law41 dot_S1024x512_S512x64_S1024x64_1_0_0_1_n_n ⟨rfl, rfl, rfl, rfl, rfl, rfl⟩ D hD none prec
    (V c main_v330) (V c main_v16) r (iblk59 V c 0 ⟨r.val, hr⟩) (iblk59 V c 1 ⟨r.val, hr⟩)
    (funext fun y => iblk59_lhs_apply V c ⟨r.val, hr⟩ y _ rfl rfl) (iblk59_rhs_eq V c ⟨r.val, hr⟩)
    (k59_pay1 (F := Ideal)) accOf59_init

/-! ## The output array after the region is the whole product -/

/-- The region leaves in its output array the product of its two operand arrays. -/
theorem final59_2_eq_whole (c : Dev nD) (D : DotDims S4096x512 S512x64 S4096x64) (hD : Cert.MMLaw.IsPlain D)
    (prec : Option ContractPrecision) :
    (dat59 (F := Ideal) V c).arrAt 2 cfg59.N = Cert.MMLaw.whole D prec (V c main_v330) (V c main_v16) := by
  rw [final59_2]
  funext i
  have hi0 : (i 0).val < 4096 := idx2_lt0 i
  have h := congrFun (accOf59_eq_blk V c ⟨(i 0).val / 1024, by omega⟩ D hD prec)
    (ix2 ⟨(i 0).val % 1024, Nat.mod_lt _ (by decide)⟩ ⟨(i 1).val, idx2_lt1 i⟩)
  rw [Cert.MMLaw.rowBlk_apply] at h
  refine Eq.trans h (congrArg _ ?_)
  funext a
  match a with
  | ⟨0, _⟩ => exact Fin.ext (by show 1024 * ((i 0).val / 1024) + (i 0).val % 1024 = (i 0).val; omega)
  | ⟨1, _⟩ => rfl

/-- The same with the operands at the formats they are stored in. -/
theorem final59_2_eq_dot (c : Dev nD) (D : DotDims S4096x512 S512x64 S4096x64) (hD : Cert.MMLaw.IsPlain D)
    (prec : Option ContractPrecision) :
    (dat59 (F := Ideal) V c).arrAt 2 cfg59.N
      = Host.dotGeneral (F := Ideal) (φ₁ := .f32) (φ₂ := .bf16) D prec (V c main_v330) (V c main_v16) :=
  final59_2_eq_whole V c D hD prec

end Cert.KernelIdeal.Hand

end
-- ==== Proof.ValKIAll.lean ====
/-
  Every kernel region's output array at the ideal instance, gathered: for each of the sixty regions the theorem
  `final<K>_2_eq_whole` says that the array the region leaves is the whole matrix product of the two arrays it read.
  Gathered here so that the argument about the whole program cites the sixty together.
-/
import proofs.«158944_j64613488001249_1_alg».proof.Proof.ValKI0b
import proofs.«158944_j64613488001249_1_alg».proof.Proof.ValKI1c
import proofs.«158944_j64613488001249_1_alg».proof.Proof.ValKI2c
import proofs.«158944_j64613488001249_1_alg».proof.Proof.ValKI3b
import proofs.«158944_j64613488001249_1_alg».proof.Proof.ValKI4c
import proofs.«158944_j64613488001249_1_alg».proof.Proof.ValKI5c
import proofs.«158944_j64613488001249_1_alg».proof.Proof.ValKI6b
import proofs.«158944_j64613488001249_1_alg».proof.Proof.ValKI7c
import proofs.«158944_j64613488001249_1_alg».proof.Proof.ValKI8c
import proofs.«158944_j64613488001249_1_alg».proof.Proof.ValKI9c
import proofs.«158944_j64613488001249_1_alg».proof.Proof.ValKI10b
import proofs.«158944_j64613488001249_1_alg».proof.Proof.ValKI11c
import proofs.«158944_j64613488001249_1_alg».proof.Proof.ValKI12c
import proofs.«158944_j64613488001249_1_alg».proof.Proof.ValKI13b
import proofs.«158944_j64613488001249_1_alg».proof.Proof.ValKI14c
import proofs.«158944_j64613488001249_1_alg».proof.Proof.ValKI15c
import proofs.«158944_j64613488001249_1_alg».proof.Proof.ValKI16c
import proofs.«158944_j64613488001249_1_alg».proof.Proof.ValKI17b
import proofs.«158944_j64613488001249_1_alg».proof.Proof.ValKI18c
import proofs.«158944_j64613488001249_1_alg».proof.Proof.ValKI19c
import proofs.«158944_j64613488001249_1_alg».proof.Proof.ValKI20b
import proofs.«158944_j64613488001249_1_alg».proof.Proof.ValKI21c
import proofs.«158944_j64613488001249_1_alg».proof.Proof.ValKI22c
import proofs.«158944_j64613488001249_1_alg».proof.Proof.ValKI23c
import proofs.«158944_j64613488001249_1_alg».proof.Proof.ValKI24b
import proofs.«158944_j64613488001249_1_alg».proof.Proof.ValKI25c
import proofs.«158944_j64613488001249_1_alg».proof.Proof.ValKI26c
import proofs.«158944_j64613488001249_1_alg».proof.Proof.ValKI27b
import proofs.«158944_j64613488001249_1_alg».proof.Proof.ValKI28c
import proofs.«158944_j64613488001249_1_alg».proof.Proof.ValKI29c
import proofs.«158944_j64613488001249_1_alg».proof.Proof.ValKI30c
import proofs.«158944_j64613488001249_1_alg».proof.Proof.ValKI31b
import proofs.«158944_j64613488001249_1_alg».proof.Proof.ValKI32c
import proofs.«158944_j64613488001249_1_alg».proof.Proof.ValKI33c
import proofs.«158944_j64613488001249_1_alg».proof.Proof.ValKI34b
import proofs.«158944_j64613488001249_1_alg».proof.Proof.ValKI35c
import proofs.«158944_j64613488001249_1_alg».proof.Proof.ValKI36c
import proofs.«158944_j64613488001249_1_alg».proof.Proof.ValKI37c
import proofs.«158944_j64613488001249_1_alg».proof.Proof.ValKI38b
import proofs.«158944_j64613488001249_1_alg».proof.Proof.ValKI39c
import proofs.«158944_j64613488001249_1_alg».proof.Proof.ValKI40c
import proofs.«158944_j64613488001249_1_alg».proof.Proof.ValKI41b
import proofs.«158944_j64613488001249_1_alg».proof.Proof.ValKI42c
import proofs.«158944_j64613488001249_1_alg».proof.Proof.ValKI43c
import proofs.«158944_j64613488001249_1_alg».proof.Proof.ValKI44c
import proofs.«158944_j64613488001249_1_alg».proof.Proof.ValKI45b
import proofs.«158944_j64613488001249_1_alg».proof.Proof.ValKI46c
import proofs.«158944_j64613488001249_1_alg».proof.Proof.ValKI47c
import proofs.«158944_j64613488001249_1_alg».proof.Proof.ValKI48b
import proofs.«158944_j64613488001249_1_alg».proof.Proof.ValKI49c
import proofs.«158944_j64613488001249_1_alg».proof.Proof.ValKI50c
import proofs.«158944_j64613488001249_1_alg».proof.Proof.ValKI51c
import proofs.«158944_j64613488001249_1_alg».proof.Proof.ValKI52b
import proofs.«158944_j64613488001249_1_alg».proof.Proof.ValKI53c
import proofs.«158944_j64613488001249_1_alg».proof.Proof.ValKI54c
import proofs.«158944_j64613488001249_1_alg».proof.Proof.ValKI55b
import proofs.«158944_j64613488001249_1_alg».proof.Proof.ValKI56c
import proofs.«158944_j64613488001249_1_alg».proof.Proof.ValKI57c
import proofs.«158944_j64613488001249_1_alg».proof.Proof.ValKI58b
import proofs.«158944_j64613488001249_1_alg».proof.Proof.ValKI59b
-- ==== Proof.KGlue.lean ====
import proofs.«158944_j64613488001249_1_alg».proof.Proof.Gen.ReferenceIdeal
import proofs.«158944_j64613488001249_1_alg».proof.Proof.ChainValsKI
import proofs.«158944_j64613488001249_1_alg».proof.Proof.KChain
import proofs.«158944_j64613488001249_1_alg».proof.Proof.ValKIAll

set_option maxRecDepth 16384

noncomputable section

namespace Cert.KGlue

open Cert.KernelIdeal Cert.KernelIdeal.Gen Cert.KernelIdeal.GenP Cert.KernelIdeal.Hand Cert.KValues
open Idealize.ShloMosaic Idealize.ShloMosaic.TcCoe Idealize.SL.Sem

variable (m : (ℓ : Loc nD τ sig) → Buf (Elt Ideal) ℓ) (c : Dev nD)

/-- Core c's unscoped buffers between the items of @main, as one family: valuation j is what the first j items leave. -/
def X : ℕ → Valuation τ sig (Elt Ideal)
  | 0 => U0 m c
  | 1 => U1 m c
  | 2 => U2 m c
  | 3 => U3 m c
  | 4 => U4 m c
  | 5 => U5 m c
  | 6 => U6 m c
  | 7 => U7 m c
  | 8 => U8 m c
  | 9 => U9 m c
  | 10 => U10 m c
  | 11 => U11 m c
  | 12 => U12 m c
  | 13 => U13 m c
  | 14 => U14 m c
  | 15 => U15 m c
  | 16 => U16 m c
  | 17 => U17 m c
  | 18 => U18 m c
  | 19 => U19 m c
  | 20 => U20 m c
  | 21 => U21 m c
  | 22 => U22 m c
  | 23 => U23 m c
  | 24 => U24 m c
  | 25 => U25 m c
  | 26 => U26 m c
  | 27 => U27 m c
  | 28 => U28 m c
  | 29 => U29 m c
  | 30 => U30 m c
  | 31 => U31 m c
  | 32 => U32 m c
  | 33 => U33 m c
  | 34 => U34 m c
  | 35 => U35 m c
  | 36 => U36 m c
  | 37 => U37 m c
  | 38 => U38 m c
  | 39 => U39 m c
  | 40 => U40 m c
  | 41 => U41 m c
  | 42 => U42 m c
  | 43 => U43 m c
  | 44 => U44 m c
  | 45 => U45 m c
  | 46 => U46 m c
  | 47 => U47 m c
  | 48 => U48 m c
  | 49 => U49 m c
  | 50 => U50 m c
  | 51 => U51 m c
  | 52 => U52 m c
  | 53 => U53 m c
  | 54 => U54 m c
  | 55 => U55 m c
  | 56 => U56 m c
  | 57 => U57 m c
  | 58 => U58 m c
  | 59 => U59 m c
  | 60 => U60 m c
  | 61 => U61 m c
  | 62 => U62 m c
  | 63 => U63 m c
  | 64 => U64 m c
  | 65 => U65 m c
  | 66 => U66 m c
  | 67 => U67 m c
  | 68 => U68 m c
  | 69 => U69 m c
  | 70 => U70 m c
  | 71 => U71 m c
  | 72 => U72 m c
  | 73 => U73 m c
  | 74 => U74 m c
  | 75 => U75 m c
  | 76 => U76 m c
  | 77 => U77 m c
  | 78 => U78 m c
  | 79 => U79 m c
  | 80 => U80 m c
  | 81 => U81 m c
  | 82 => U82 m c
  | 83 => U83 m c
  | 84 => U84 m c
  | 85 => U85 m c
  | 86 => U86 m c
  | 87 => U87 m c
  | 88 => U88 m c
  | 89 => U89 m c
  | 90 => U90 m c
  | 91 => U91 m c
  | 92 => U92 m c
  | 93 => U93 m c
  | 94 => U94 m c
  | 95 => U95 m c
  | 96 => U96 m c
  | 97 => U97 m c
  | 98 => U98 m c
  | 99 => U99 m c
  | 100 => U100 m c
  | 101 => U101 m c
  | 102 => U102 m c
  | 103 => U103 m c
  | 104 => U104 m c
  | 105 => U105 m c
  | _ => U106 m c

/-! Valuation j of the family, named. -/

theorem X_0 : X m c 0 = U0 m c := rfl
theorem X_1 : X m c 1 = U1 m c := rfl
theorem X_2 : X m c 2 = U2 m c := rfl
theorem X_3 : X m c 3 = U3 m c := rfl
theorem X_4 : X m c 4 = U4 m c := rfl
theorem X_5 : X m c 5 = U5 m c := rfl
theorem X_6 : X m c 6 = U6 m c := rfl
theorem X_7 : X m c 7 = U7 m c := rfl
theorem X_8 : X m c 8 = U8 m c := rfl
theorem X_9 : X m c 9 = U9 m c := rfl
theorem X_10 : X m c 10 = U10 m c := rfl
theorem X_11 : X m c 11 = U11 m c := rfl
theorem X_12 : X m c 12 = U12 m c := rfl
theorem X_13 : X m c 13 = U13 m c := rfl
theorem X_14 : X m c 14 = U14 m c := rfl
theorem X_15 : X m c 15 = U15 m c := rfl
theorem X_16 : X m c 16 = U16 m c := rfl
theorem X_17 : X m c 17 = U17 m c := rfl
theorem X_18 : X m c 18 = U18 m c := rfl
theorem X_19 : X m c 19 = U19 m c := rfl
theorem X_20 : X m c 20 = U20 m c := rfl
theorem X_21 : X m c 21 = U21 m c := rfl
theorem X_22 : X m c 22 = U22 m c := rfl
theorem X_23 : X m c 23 = U23 m c := rfl
theorem X_24 : X m c 24 = U24 m c := rfl
theorem X_25 : X m c 25 = U25 m c := rfl
theorem X_26 : X m c 26 = U26 m c := rfl
theorem X_27 : X m c 27 = U27 m c := rfl
theorem X_28 : X m c 28 = U28 m c := rfl
theorem X_29 : X m c 29 = U29 m c := rfl
theorem X_30 : X m c 30 = U30 m c := rfl
theorem X_31 : X m c 31 = U31 m c := rfl
theorem X_32 : X m c 32 = U32 m c := rfl
theorem X_33 : X m c 33 = U33 m c := rfl
theorem X_34 : X m c 34 = U34 m c := rfl
theorem X_35 : X m c 35 = U35 m c := rfl
theorem X_36 : X m c 36 = U36 m c := rfl
theorem X_37 : X m c 37 = U37 m c := rfl
theorem X_38 : X m c 38 = U38 m c := rfl
theorem X_39 : X m c 39 = U39 m c := rfl
theorem X_40 : X m c 40 = U40 m c := rfl
theorem X_41 : X m c 41 = U41 m c := rfl
theorem X_42 : X m c 42 = U42 m c := rfl
theorem X_43 : X m c 43 = U43 m c := rfl
theorem X_44 : X m c 44 = U44 m c := rfl
theorem X_45 : X m c 45 = U45 m c := rfl
theorem X_46 : X m c 46 = U46 m c := rfl
theorem X_47 : X m c 47 = U47 m c := rfl
theorem X_48 : X m c 48 = U48 m c := rfl
theorem X_49 : X m c 49 = U49 m c := rfl
theorem X_50 : X m c 50 = U50 m c := rfl
theorem X_51 : X m c 51 = U51 m c := rfl
theorem X_52 : X m c 52 = U52 m c := rfl
theorem X_53 : X m c 53 = U53 m c := rfl
theorem X_54 : X m c 54 = U54 m c := rfl
theorem X_55 : X m c 55 = U55 m c := rfl
theorem X_56 : X m c 56 = U56 m c := rfl
theorem X_57 : X m c 57 = U57 m c := rfl
theorem X_58 : X m c 58 = U58 m c := rfl
theorem X_59 : X m c 59 = U59 m c := rfl
theorem X_60 : X m c 60 = U60 m c := rfl
theorem X_61 : X m c 61 = U61 m c := rfl
theorem X_62 : X m c 62 = U62 m c := rfl
theorem X_63 : X m c 63 = U63 m c := rfl
theorem X_64 : X m c 64 = U64 m c := rfl
theorem X_65 : X m c 65 = U65 m c := rfl
theorem X_66 : X m c 66 = U66 m c := rfl
theorem X_67 : X m c 67 = U67 m c := rfl
theorem X_68 : X m c 68 = U68 m c := rfl
theorem X_69 : X m c 69 = U69 m c := rfl
theorem X_70 : X m c 70 = U70 m c := rfl
theorem X_71 : X m c 71 = U71 m c := rfl
theorem X_72 : X m c 72 = U72 m c := rfl
theorem X_73 : X m c 73 = U73 m c := rfl
theorem X_74 : X m c 74 = U74 m c := rfl
theorem X_75 : X m c 75 = U75 m c := rfl
theorem X_76 : X m c 76 = U76 m c := rfl
theorem X_77 : X m c 77 = U77 m c := rfl
theorem X_78 : X m c 78 = U78 m c := rfl
theorem X_79 : X m c 79 = U79 m c := rfl
theorem X_80 : X m c 80 = U80 m c := rfl
theorem X_81 : X m c 81 = U81 m c := rfl
theorem X_82 : X m c 82 = U82 m c := rfl
theorem X_83 : X m c 83 = U83 m c := rfl
theorem X_84 : X m c 84 = U84 m c := rfl
theorem X_85 : X m c 85 = U85 m c := rfl
theorem X_86 : X m c 86 = U86 m c := rfl
theorem X_87 : X m c 87 = U87 m c := rfl
theorem X_88 : X m c 88 = U88 m c := rfl
theorem X_89 : X m c 89 = U89 m c := rfl
theorem X_90 : X m c 90 = U90 m c := rfl
theorem X_91 : X m c 91 = U91 m c := rfl
theorem X_92 : X m c 92 = U92 m c := rfl
theorem X_93 : X m c 93 = U93 m c := rfl
theorem X_94 : X m c 94 = U94 m c := rfl
theorem X_95 : X m c 95 = U95 m c := rfl
theorem X_96 : X m c 96 = U96 m c := rfl
theorem X_97 : X m c 97 = U97 m c := rfl
theorem X_98 : X m c 98 = U98 m c := rfl
theorem X_99 : X m c 99 = U99 m c := rfl
theorem X_100 : X m c 100 = U100 m c := rfl
theorem X_101 : X m c 101 = U101 m c := rfl
theorem X_102 : X m c 102 = U102 m c := rfl
theorem X_103 : X m c 103 = U103 m c := rfl
theorem X_104 : X m c 104 = U104 m c := rfl
theorem X_105 : X m c 105 = U105 m c := rfl
theorem X_106 : X m c 106 = U106 m c := rfl

/-! A region's step at ANY entry valuation W: its output array, which the region leaves at what its write-backs
    hold, is the whole product of its two operand arrays as W holds them. -/

theorem region0 (W : Dev nD → Valuation τ sig (Elt Ideal)) (c : Dev nD) :
    Function.update (W c) (Proc.devRef .tc main_v17) ((dat0 (F := Ideal) (fun c b => W c b) c).arrAt 2 cfg0.N)
      = Function.update (W c) (Proc.devRef .tc main_v17) (Cert.MMLaw.whole DA none (W c (Proc.devRef .tc main_arg0)) (W c (Proc.devRef .tc main_v12))) :=
  congrArg (Function.update (W c) _) (final0_2_eq_whole (fun c b => W c b) c DA DA_plain none)
theorem region1 (W : Dev nD → Valuation τ sig (Elt Ideal)) (c : Dev nD) :
    Function.update (W c) (Proc.devRef .tc main_v26) ((dat1 (F := Ideal) (fun c b => W c b) c).arrAt 2 cfg1.N)
      = Function.update (W c) (Proc.devRef .tc main_v26) (Cert.MMLaw.whole DB none (W c (Proc.devRef .tc main_v9)) (W c (Proc.devRef .tc main_v25))) :=
  congrArg (Function.update (W c) _) (final1_2_eq_whole (fun c b => W c b) c DB DB_plain none)
theorem region2 (W : Dev nD → Valuation τ sig (Elt Ideal)) (c : Dev nD) :
    Function.update (W c) (Proc.devRef .tc main_v30) ((dat2 (F := Ideal) (fun c b => W c b) c).arrAt 2 cfg2.N)
      = Function.update (W c) (Proc.devRef .tc main_v30) (Cert.MMLaw.whole DB none (W c (Proc.devRef .tc main_v8)) (W c (Proc.devRef .tc main_v20))) :=
  congrArg (Function.update (W c) _) (final2_2_eq_whole (fun c b => W c b) c DB DB_plain none)
theorem region3 (W : Dev nD → Valuation τ sig (Elt Ideal)) (c : Dev nD) :
    Function.update (W c) (Proc.devRef .tc main_v34) ((dat3 (F := Ideal) (fun c b => W c b) c).arrAt 2 cfg3.N)
      = Function.update (W c) (Proc.devRef .tc main_v34) (Cert.MMLaw.whole DC none (W c (Proc.devRef .tc main_v33)) (W c (Proc.devRef .tc main_v10))) :=
  congrArg (Function.update (W c) _) (final3_2_eq_whole (fun c b => W c b) c DC DC_plain none)
theorem region4 (W : Dev nD → Valuation τ sig (Elt Ideal)) (c : Dev nD) :
    Function.update (W c) (Proc.devRef .tc main_v35) ((dat4 (F := Ideal) (fun c b => W c b) c).arrAt 2 cfg4.N)
      = Function.update (W c) (Proc.devRef .tc main_v35) (Cert.MMLaw.whole DB none (W c (Proc.devRef .tc main_v7)) (W c (Proc.devRef .tc main_v34))) :=
  congrArg (Function.update (W c) _) (final4_2_eq_whole (fun c b => W c b) c DB DB_plain none)
theorem region5 (W : Dev nD → Valuation τ sig (Elt Ideal)) (c : Dev nD) :
    Function.update (W c) (Proc.devRef .tc main_v39) ((dat5 (F := Ideal) (fun c b => W c b) c).arrAt 2 cfg5.N)
      = Function.update (W c) (Proc.devRef .tc main_v39) (Cert.MMLaw.whole DB none (W c (Proc.devRef .tc main_v8)) (W c (Proc.devRef .tc main_v37))) :=
  congrArg (Function.update (W c) _) (final5_2_eq_whole (fun c b => W c b) c DB DB_plain none)
theorem region6 (W : Dev nD → Valuation τ sig (Elt Ideal)) (c : Dev nD) :
    Function.update (W c) (Proc.devRef .tc main_v43) ((dat6 (F := Ideal) (fun c b => W c b) c).arrAt 2 cfg6.N)
      = Function.update (W c) (Proc.devRef .tc main_v43) (Cert.MMLaw.whole DC none (W c (Proc.devRef .tc main_v42)) (W c (Proc.devRef .tc main_v10))) :=
  congrArg (Function.update (W c) _) (final6_2_eq_whole (fun c b => W c b) c DC DC_plain none)
theorem region7 (W : Dev nD → Valuation τ sig (Elt Ideal)) (c : Dev nD) :
    Function.update (W c) (Proc.devRef .tc main_v44) ((dat7 (F := Ideal) (fun c b => W c b) c).arrAt 2 cfg7.N)
      = Function.update (W c) (Proc.devRef .tc main_v44) (Cert.MMLaw.whole DB none (W c (Proc.devRef .tc main_v7)) (W c (Proc.devRef .tc main_v43))) :=
  congrArg (Function.update (W c) _) (final7_2_eq_whole (fun c b => W c b) c DB DB_plain none)
theorem region8 (W : Dev nD → Valuation τ sig (Elt Ideal)) (c : Dev nD) :
    Function.update (W c) (Proc.devRef .tc main_v63) ((dat8 (F := Ideal) (fun c b => W c b) c).arrAt 2 cfg8.N)
      = Function.update (W c) (Proc.devRef .tc main_v63) (Cert.MMLaw.whole DB none (W c (Proc.devRef .tc main_v9)) (W c (Proc.devRef .tc main_v62))) :=
  congrArg (Function.update (W c) _) (final8_2_eq_whole (fun c b => W c b) c DB DB_plain none)
theorem region9 (W : Dev nD → Valuation τ sig (Elt Ideal)) (c : Dev nD) :
    Function.update (W c) (Proc.devRef .tc main_v67) ((dat9 (F := Ideal) (fun c b => W c b) c).arrAt 2 cfg9.N)
      = Function.update (W c) (Proc.devRef .tc main_v67) (Cert.MMLaw.whole DB none (W c (Proc.devRef .tc main_v8)) (W c (Proc.devRef .tc main_v57))) :=
  congrArg (Function.update (W c) _) (final9_2_eq_whole (fun c b => W c b) c DB DB_plain none)
theorem region10 (W : Dev nD → Valuation τ sig (Elt Ideal)) (c : Dev nD) :
    Function.update (W c) (Proc.devRef .tc main_v71) ((dat10 (F := Ideal) (fun c b => W c b) c).arrAt 2 cfg10.N)
      = Function.update (W c) (Proc.devRef .tc main_v71) (Cert.MMLaw.whole DC none (W c (Proc.devRef .tc main_v70)) (W c (Proc.devRef .tc main_v10))) :=
  congrArg (Function.update (W c) _) (final10_2_eq_whole (fun c b => W c b) c DC DC_plain none)
theorem region11 (W : Dev nD → Valuation τ sig (Elt Ideal)) (c : Dev nD) :
    Function.update (W c) (Proc.devRef .tc main_v72) ((dat11 (F := Ideal) (fun c b => W c b) c).arrAt 2 cfg11.N)
      = Function.update (W c) (Proc.devRef .tc main_v72) (Cert.MMLaw.whole DB none (W c (Proc.devRef .tc main_v7)) (W c (Proc.devRef .tc main_v71))) :=
  congrArg (Function.update (W c) _) (final11_2_eq_whole (fun c b => W c b) c DB DB_plain none)
theorem region12 (W : Dev nD → Valuation τ sig (Elt Ideal)) (c : Dev nD) :
    Function.update (W c) (Proc.devRef .tc main_v76) ((dat12 (F := Ideal) (fun c b => W c b) c).arrAt 2 cfg12.N)
      = Function.update (W c) (Proc.devRef .tc main_v76) (Cert.MMLaw.whole DB none (W c (Proc.devRef .tc main_v8)) (W c (Proc.devRef .tc main_v74))) :=
  congrArg (Function.update (W c) _) (final12_2_eq_whole (fun c b => W c b) c DB DB_plain none)
theorem region13 (W : Dev nD → Valuation τ sig (Elt Ideal)) (c : Dev nD) :
    Function.update (W c) (Proc.devRef .tc main_v80) ((dat13 (F := Ideal) (fun c b => W c b) c).arrAt 2 cfg13.N)
      = Function.update (W c) (Proc.devRef .tc main_v80) (Cert.MMLaw.whole DC none (W c (Proc.devRef .tc main_v79)) (W c (Proc.devRef .tc main_v10))) :=
  congrArg (Function.update (W c) _) (final13_2_eq_whole (fun c b => W c b) c DC DC_plain none)
theorem region14 (W : Dev nD → Valuation τ sig (Elt Ideal)) (c : Dev nD) :
    Function.update (W c) (Proc.devRef .tc main_v81) ((dat14 (F := Ideal) (fun c b => W c b) c).arrAt 2 cfg14.N)
      = Function.update (W c) (Proc.devRef .tc main_v81) (Cert.MMLaw.whole DB none (W c (Proc.devRef .tc main_v7)) (W c (Proc.devRef .tc main_v80))) :=
  congrArg (Function.update (W c) _) (final14_2_eq_whole (fun c b => W c b) c DB DB_plain none)
theorem region15 (W : Dev nD → Valuation τ sig (Elt Ideal)) (c : Dev nD) :
    Function.update (W c) (Proc.devRef .tc main_v100) ((dat15 (F := Ideal) (fun c b => W c b) c).arrAt 2 cfg15.N)
      = Function.update (W c) (Proc.devRef .tc main_v100) (Cert.MMLaw.whole DB none (W c (Proc.devRef .tc main_v9)) (W c (Proc.devRef .tc main_v99))) :=
  congrArg (Function.update (W c) _) (final15_2_eq_whole (fun c b => W c b) c DB DB_plain none)
theorem region16 (W : Dev nD → Valuation τ sig (Elt Ideal)) (c : Dev nD) :
    Function.update (W c) (Proc.devRef .tc main_v104) ((dat16 (F := Ideal) (fun c b => W c b) c).arrAt 2 cfg16.N)
      = Function.update (W c) (Proc.devRef .tc main_v104) (Cert.MMLaw.whole DB none (W c (Proc.devRef .tc main_v8)) (W c (Proc.devRef .tc main_v94))) :=
  congrArg (Function.update (W c) _) (final16_2_eq_whole (fun c b => W c b) c DB DB_plain none)
theorem region17 (W : Dev nD → Valuation τ sig (Elt Ideal)) (c : Dev nD) :
    Function.update (W c) (Proc.devRef .tc main_v108) ((dat17 (F := Ideal) (fun c b => W c b) c).arrAt 2 cfg17.N)
      = Function.update (W c) (Proc.devRef .tc main_v108) (Cert.MMLaw.whole DC none (W c (Proc.devRef .tc main_v107)) (W c (Proc.devRef .tc main_v10))) :=
  congrArg (Function.update (W c) _) (final17_2_eq_whole (fun c b => W c b) c DC DC_plain none)
theorem region18 (W : Dev nD → Valuation τ sig (Elt Ideal)) (c : Dev nD) :
    Function.update (W c) (Proc.devRef .tc main_v109) ((dat18 (F := Ideal) (fun c b => W c b) c).arrAt 2 cfg18.N)
      = Function.update (W c) (Proc.devRef .tc main_v109) (Cert.MMLaw.whole DB none (W c (Proc.devRef .tc main_v7)) (W c (Proc.devRef .tc main_v108))) :=
  congrArg (Function.update (W c) _) (final18_2_eq_whole (fun c b => W c b) c DB DB_plain none)
theorem region19 (W : Dev nD → Valuation τ sig (Elt Ideal)) (c : Dev nD) :
    Function.update (W c) (Proc.devRef .tc main_v113) ((dat19 (F := Ideal) (fun c b => W c b) c).arrAt 2 cfg19.N)
      = Function.update (W c) (Proc.devRef .tc main_v113) (Cert.MMLaw.whole DB none (W c (Proc.devRef .tc main_v8)) (W c (Proc.devRef .tc main_v111))) :=
  congrArg (Function.update (W c) _) (final19_2_eq_whole (fun c b => W c b) c DB DB_plain none)
theorem region20 (W : Dev nD → Valuation τ sig (Elt Ideal)) (c : Dev nD) :
    Function.update (W c) (Proc.devRef .tc main_v117) ((dat20 (F := Ideal) (fun c b => W c b) c).arrAt 2 cfg20.N)
      = Function.update (W c) (Proc.devRef .tc main_v117) (Cert.MMLaw.whole DC none (W c (Proc.devRef .tc main_v116)) (W c (Proc.devRef .tc main_v10))) :=
  congrArg (Function.update (W c) _) (final20_2_eq_whole (fun c b => W c b) c DC DC_plain none)
theorem region21 (W : Dev nD → Valuation τ sig (Elt Ideal)) (c : Dev nD) :
    Function.update (W c) (Proc.devRef .tc main_v118) ((dat21 (F := Ideal) (fun c b => W c b) c).arrAt 2 cfg21.N)
      = Function.update (W c) (Proc.devRef .tc main_v118) (Cert.MMLaw.whole DB none (W c (Proc.devRef .tc main_v7)) (W c (Proc.devRef .tc main_v117))) :=
  congrArg (Function.update (W c) _) (final21_2_eq_whole (fun c b => W c b) c DB DB_plain none)
theorem region22 (W : Dev nD → Valuation τ sig (Elt Ideal)) (c : Dev nD) :
    Function.update (W c) (Proc.devRef .tc main_v137) ((dat22 (F := Ideal) (fun c b => W c b) c).arrAt 2 cfg22.N)
      = Function.update (W c) (Proc.devRef .tc main_v137) (Cert.MMLaw.whole DB none (W c (Proc.devRef .tc main_v9)) (W c (Proc.devRef .tc main_v136))) :=
  congrArg (Function.update (W c) _) (final22_2_eq_whole (fun c b => W c b) c DB DB_plain none)
theorem region23 (W : Dev nD → Valuation τ sig (Elt Ideal)) (c : Dev nD) :
    Function.update (W c) (Proc.devRef .tc main_v141) ((dat23 (F := Ideal) (fun c b => W c b) c).arrAt 2 cfg23.N)
      = Function.update (W c) (Proc.devRef .tc main_v141) (Cert.MMLaw.whole DB none (W c (Proc.devRef .tc main_v8)) (W c (Proc.devRef .tc main_v131))) :=
  congrArg (Function.update (W c) _) (final23_2_eq_whole (fun c b => W c b) c DB DB_plain none)
theorem region24 (W : Dev nD → Valuation τ sig (Elt Ideal)) (c : Dev nD) :
    Function.update (W c) (Proc.devRef .tc main_v145) ((dat24 (F := Ideal) (fun c b => W c b) c).arrAt 2 cfg24.N)
      = Function.update (W c) (Proc.devRef .tc main_v145) (Cert.MMLaw.whole DC none (W c (Proc.devRef .tc main_v144)) (W c (Proc.devRef .tc main_v10))) :=
  congrArg (Function.update (W c) _) (final24_2_eq_whole (fun c b => W c b) c DC DC_plain none)
theorem region25 (W : Dev nD → Valuation τ sig (Elt Ideal)) (c : Dev nD) :
    Function.update (W c) (Proc.devRef .tc main_v146) ((dat25 (F := Ideal) (fun c b => W c b) c).arrAt 2 cfg25.N)
      = Function.update (W c) (Proc.devRef .tc main_v146) (Cert.MMLaw.whole DB none (W c (Proc.devRef .tc main_v7)) (W c (Proc.devRef .tc main_v145))) :=
  congrArg (Function.update (W c) _) (final25_2_eq_whole (fun c b => W c b) c DB DB_plain none)
theorem region26 (W : Dev nD → Valuation τ sig (Elt Ideal)) (c : Dev nD) :
    Function.update (W c) (Proc.devRef .tc main_v150) ((dat26 (F := Ideal) (fun c b => W c b) c).arrAt 2 cfg26.N)
      = Function.update (W c) (Proc.devRef .tc main_v150) (Cert.MMLaw.whole DB none (W c (Proc.devRef .tc main_v8)) (W c (Proc.devRef .tc main_v148))) :=
  congrArg (Function.update (W c) _) (final26_2_eq_whole (fun c b => W c b) c DB DB_plain none)
theorem region27 (W : Dev nD → Valuation τ sig (Elt Ideal)) (c : Dev nD) :
    Function.update (W c) (Proc.devRef .tc main_v154) ((dat27 (F := Ideal) (fun c b => W c b) c).arrAt 2 cfg27.N)
      = Function.update (W c) (Proc.devRef .tc main_v154) (Cert.MMLaw.whole DC none (W c (Proc.devRef .tc main_v153)) (W c (Proc.devRef .tc main_v10))) :=
  congrArg (Function.update (W c) _) (final27_2_eq_whole (fun c b => W c b) c DC DC_plain none)
theorem region28 (W : Dev nD → Valuation τ sig (Elt Ideal)) (c : Dev nD) :
    Function.update (W c) (Proc.devRef .tc main_v155) ((dat28 (F := Ideal) (fun c b => W c b) c).arrAt 2 cfg28.N)
      = Function.update (W c) (Proc.devRef .tc main_v155) (Cert.MMLaw.whole DB none (W c (Proc.devRef .tc main_v7)) (W c (Proc.devRef .tc main_v154))) :=
  congrArg (Function.update (W c) _) (final28_2_eq_whole (fun c b => W c b) c DB DB_plain none)
theorem region29 (W : Dev nD → Valuation τ sig (Elt Ideal)) (c : Dev nD) :
    Function.update (W c) (Proc.devRef .tc main_v174) ((dat29 (F := Ideal) (fun c b => W c b) c).arrAt 2 cfg29.N)
      = Function.update (W c) (Proc.devRef .tc main_v174) (Cert.MMLaw.whole DB none (W c (Proc.devRef .tc main_v9)) (W c (Proc.devRef .tc main_v173))) :=
  congrArg (Function.update (W c) _) (final29_2_eq_whole (fun c b => W c b) c DB DB_plain none)
theorem region30 (W : Dev nD → Valuation τ sig (Elt Ideal)) (c : Dev nD) :
    Function.update (W c) (Proc.devRef .tc main_v178) ((dat30 (F := Ideal) (fun c b => W c b) c).arrAt 2 cfg30.N)
      = Function.update (W c) (Proc.devRef .tc main_v178) (Cert.MMLaw.whole DB none (W c (Proc.devRef .tc main_v8)) (W c (Proc.devRef .tc main_v168))) :=
  congrArg (Function.update (W c) _) (final30_2_eq_whole (fun c b => W c b) c DB DB_plain none)
theorem region31 (W : Dev nD → Valuation τ sig (Elt Ideal)) (c : Dev nD) :
    Function.update (W c) (Proc.devRef .tc main_v182) ((dat31 (F := Ideal) (fun c b => W c b) c).arrAt 2 cfg31.N)
      = Function.update (W c) (Proc.devRef .tc main_v182) (Cert.MMLaw.whole DC none (W c (Proc.devRef .tc main_v181)) (W c (Proc.devRef .tc main_v10))) :=
  congrArg (Function.update (W c) _) (final31_2_eq_whole (fun c b => W c b) c DC DC_plain none)
theorem region32 (W : Dev nD → Valuation τ sig (Elt Ideal)) (c : Dev nD) :
    Function.update (W c) (Proc.devRef .tc main_v183) ((dat32 (F := Ideal) (fun c b => W c b) c).arrAt 2 cfg32.N)
      = Function.update (W c) (Proc.devRef .tc main_v183) (Cert.MMLaw.whole DB none (W c (Proc.devRef .tc main_v7)) (W c (Proc.devRef .tc main_v182))) :=
  congrArg (Function.update (W c) _) (final32_2_eq_whole (fun c b => W c b) c DB DB_plain none)
theorem region33 (W : Dev nD → Valuation τ sig (Elt Ideal)) (c : Dev nD) :
    Function.update (W c) (Proc.devRef .tc main_v187) ((dat33 (F := Ideal) (fun c b => W c b) c).arrAt 2 cfg33.N)
      = Function.update (W c) (Proc.devRef .tc main_v187) (Cert.MMLaw.whole DB none (W c (Proc.devRef .tc main_v8)) (W c (Proc.devRef .tc main_v185))) :=
  congrArg (Function.update (W c) _) (final33_2_eq_whole (fun c b => W c b) c DB DB_plain none)
theorem region34 (W : Dev nD → Valuation τ sig (Elt Ideal)) (c : Dev nD) :
    Function.update (W c) (Proc.devRef .tc main_v191) ((dat34 (F := Ideal) (fun c b => W c b) c).arrAt 2 cfg34.N)
      = Function.update (W c) (Proc.devRef .tc main_v191) (Cert.MMLaw.whole DC none (W c (Proc.devRef .tc main_v190)) (W c (Proc.devRef .tc main_v10))) :=
  congrArg (Function.update (W c) _) (final34_2_eq_whole (fun c b => W c b) c DC DC_plain none)
theorem region35 (W : Dev nD → Valuation τ sig (Elt Ideal)) (c : Dev nD) :
    Function.update (W c) (Proc.devRef .tc main_v192) ((dat35 (F := Ideal) (fun c b => W c b) c).arrAt 2 cfg35.N)
      = Function.update (W c) (Proc.devRef .tc main_v192) (Cert.MMLaw.whole DB none (W c (Proc.devRef .tc main_v7)) (W c (Proc.devRef .tc main_v191))) :=
  congrArg (Function.update (W c) _) (final35_2_eq_whole (fun c b => W c b) c DB DB_plain none)
theorem region36 (W : Dev nD → Valuation τ sig (Elt Ideal)) (c : Dev nD) :
    Function.update (W c) (Proc.devRef .tc main_v211) ((dat36 (F := Ideal) (fun c b => W c b) c).arrAt 2 cfg36.N)
      = Function.update (W c) (Proc.devRef .tc main_v211) (Cert.MMLaw.whole DB none (W c (Proc.devRef .tc main_v9)) (W c (Proc.devRef .tc main_v210))) :=
  congrArg (Function.update (W c) _) (final36_2_eq_whole (fun c b => W c b) c DB DB_plain none)
theorem region37 (W : Dev nD → Valuation τ sig (Elt Ideal)) (c : Dev nD) :
    Function.update (W c) (Proc.devRef .tc main_v215) ((dat37 (F := Ideal) (fun c b => W c b) c).arrAt 2 cfg37.N)
      = Function.update (W c) (Proc.devRef .tc main_v215) (Cert.MMLaw.whole DB none (W c (Proc.devRef .tc main_v8)) (W c (Proc.devRef .tc main_v205))) :=
  congrArg (Function.update (W c) _) (final37_2_eq_whole (fun c b => W c b) c DB DB_plain none)
theorem region38 (W : Dev nD → Valuation τ sig (Elt Ideal)) (c : Dev nD) :
    Function.update (W c) (Proc.devRef .tc main_v219) ((dat38 (F := Ideal) (fun c b => W c b) c).arrAt 2 cfg38.N)
      = Function.update (W c) (Proc.devRef .tc main_v219) (Cert.MMLaw.whole DC none (W c (Proc.devRef .tc main_v218)) (W c (Proc.devRef .tc main_v10))) :=
  congrArg (Function.update (W c) _) (final38_2_eq_whole (fun c b => W c b) c DC DC_plain none)
theorem region39 (W : Dev nD → Valuation τ sig (Elt Ideal)) (c : Dev nD) :
    Function.update (W c) (Proc.devRef .tc main_v220) ((dat39 (F := Ideal) (fun c b => W c b) c).arrAt 2 cfg39.N)
      = Function.update (W c) (Proc.devRef .tc main_v220) (Cert.MMLaw.whole DB none (W c (Proc.devRef .tc main_v7)) (W c (Proc.devRef .tc main_v219))) :=
  congrArg (Function.update (W c) _) (final39_2_eq_whole (fun c b => W c b) c DB DB_plain none)
theorem region40 (W : Dev nD → Valuation τ sig (Elt Ideal)) (c : Dev nD) :
    Function.update (W c) (Proc.devRef .tc main_v224) ((dat40 (F := Ideal) (fun c b => W c b) c).arrAt 2 cfg40.N)
      = Function.update (W c) (Proc.devRef .tc main_v224) (Cert.MMLaw.whole DB none (W c (Proc.devRef .tc main_v8)) (W c (Proc.devRef .tc main_v222))) :=
  congrArg (Function.update (W c) _) (final40_2_eq_whole (fun c b => W c b) c DB DB_plain none)
theorem region41 (W : Dev nD → Valuation τ sig (Elt Ideal)) (c : Dev nD) :
    Function.update (W c) (Proc.devRef .tc main_v228) ((dat41 (F := Ideal) (fun c b => W c b) c).arrAt 2 cfg41.N)
      = Function.update (W c) (Proc.devRef .tc main_v228) (Cert.MMLaw.whole DC none (W c (Proc.devRef .tc main_v227)) (W c (Proc.devRef .tc main_v10))) :=
  congrArg (Function.update (W c) _) (final41_2_eq_whole (fun c b => W c b) c DC DC_plain none)
theorem region42 (W : Dev nD → Valuation τ sig (Elt Ideal)) (c : Dev nD) :
    Function.update (W c) (Proc.devRef .tc main_v229) ((dat42 (F := Ideal) (fun c b => W c b) c).arrAt 2 cfg42.N)
      = Function.update (W c) (Proc.devRef .tc main_v229) (Cert.MMLaw.whole DB none (W c (Proc.devRef .tc main_v7)) (W c (Proc.devRef .tc main_v228))) :=
  congrArg (Function.update (W c) _) (final42_2_eq_whole (fun c b => W c b) c DB DB_plain none)
theorem region43 (W : Dev nD → Valuation τ sig (Elt Ideal)) (c : Dev nD) :
    Function.update (W c) (Proc.devRef .tc main_v248) ((dat43 (F := Ideal) (fun c b => W c b) c).arrAt 2 cfg43.N)
      = Function.update (W c) (Proc.devRef .tc main_v248) (Cert.MMLaw.whole DB none (W c (Proc.devRef .tc main_v9)) (W c (Proc.devRef .tc main_v247))) :=
  congrArg (Function.update (W c) _) (final43_2_eq_whole (fun c b => W c b) c DB DB_plain none)
theorem region44 (W : Dev nD → Valuation τ sig (Elt Ideal)) (c : Dev nD) :
    Function.update (W c) (Proc.devRef .tc main_v252) ((dat44 (F := Ideal) (fun c b => W c b) c).arrAt 2 cfg44.N)
      = Function.update (W c) (Proc.devRef .tc main_v252) (Cert.MMLaw.whole DB none (W c (Proc.devRef .tc main_v8)) (W c (Proc.devRef .tc main_v242))) :=
  congrArg (Function.update (W c) _) (final44_2_eq_whole (fun c b => W c b) c DB DB_plain none)
theorem region45 (W : Dev nD → Valuation τ sig (Elt Ideal)) (c : Dev nD) :
    Function.update (W c) (Proc.devRef .tc main_v256) ((dat45 (F := Ideal) (fun c b => W c b) c).arrAt 2 cfg45.N)
      = Function.update (W c) (Proc.devRef .tc main_v256) (Cert.MMLaw.whole DC none (W c (Proc.devRef .tc main_v255)) (W c (Proc.devRef .tc main_v10))) :=
  congrArg (Function.update (W c) _) (final45_2_eq_whole (fun c b => W c b) c DC DC_plain none)
theorem region46 (W : Dev nD → Valuation τ sig (Elt Ideal)) (c : Dev nD) :
    Function.update (W c) (Proc.devRef .tc main_v257) ((dat46 (F := Ideal) (fun c b => W c b) c).arrAt 2 cfg46.N)
      = Function.update (W c) (Proc.devRef .tc main_v257) (Cert.MMLaw.whole DB none (W c (Proc.devRef .tc main_v7)) (W c (Proc.devRef .tc main_v256))) :=
  congrArg (Function.update (W c) _) (final46_2_eq_whole (fun c b => W c b) c DB DB_plain none)
theorem region47 (W : Dev nD → Valuation τ sig (Elt Ideal)) (c : Dev nD) :
    Function.update (W c) (Proc.devRef .tc main_v261) ((dat47 (F := Ideal) (fun c b => W c b) c).arrAt 2 cfg47.N)
      = Function.update (W c) (Proc.devRef .tc main_v261) (Cert.MMLaw.whole DB none (W c (Proc.devRef .tc main_v8)) (W c (Proc.devRef .tc main_v259))) :=
  congrArg (Function.update (W c) _) (final47_2_eq_whole (fun c b => W c b) c DB DB_plain none)
theorem region48 (W : Dev nD → Valuation τ sig (Elt Ideal)) (c : Dev nD) :
    Function.update (W c) (Proc.devRef .tc main_v265) ((dat48 (F := Ideal) (fun c b => W c b) c).arrAt 2 cfg48.N)
      = Function.update (W c) (Proc.devRef .tc main_v265) (Cert.MMLaw.whole DC none (W c (Proc.devRef .tc main_v264)) (W c (Proc.devRef .tc main_v10))) :=
  congrArg (Function.update (W c) _) (final48_2_eq_whole (fun c b => W c b) c DC DC_plain none)
theorem region49 (W : Dev nD → Valuation τ sig (Elt Ideal)) (c : Dev nD) :
    Function.update (W c) (Proc.devRef .tc main_v266) ((dat49 (F := Ideal) (fun c b => W c b) c).arrAt 2 cfg49.N)
      = Function.update (W c) (Proc.devRef .tc main_v266) (Cert.MMLaw.whole DB none (W c (Proc.devRef .tc main_v7)) (W c (Proc.devRef .tc main_v265))) :=
  congrArg (Function.update (W c) _) (final49_2_eq_whole (fun c b => W c b) c DB DB_plain none)
theorem region50 (W : Dev nD → Valuation τ sig (Elt Ideal)) (c : Dev nD) :
    Function.update (W c) (Proc.devRef .tc main_v285) ((dat50 (F := Ideal) (fun c b => W c b) c).arrAt 2 cfg50.N)
      = Function.update (W c) (Proc.devRef .tc main_v285) (Cert.MMLaw.whole DB none (W c (Proc.devRef .tc main_v9)) (W c (Proc.devRef .tc main_v284))) :=
  congrArg (Function.update (W c) _) (final50_2_eq_whole (fun c b => W c b) c DB DB_plain none)
theorem region51 (W : Dev nD → Valuation τ sig (Elt Ideal)) (c : Dev nD) :
    Function.update (W c) (Proc.devRef .tc main_v289) ((dat51 (F := Ideal) (fun c b => W c b) c).arrAt 2 cfg51.N)
      = Function.update (W c) (Proc.devRef .tc main_v289) (Cert.MMLaw.whole DB none (W c (Proc.devRef .tc main_v8)) (W c (Proc.devRef .tc main_v279))) :=
  congrArg (Function.update (W c) _) (final51_2_eq_whole (fun c b => W c b) c DB DB_plain none)
theorem region52 (W : Dev nD → Valuation τ sig (Elt Ideal)) (c : Dev nD) :
    Function.update (W c) (Proc.devRef .tc main_v293) ((dat52 (F := Ideal) (fun c b => W c b) c).arrAt 2 cfg52.N)
      = Function.update (W c) (Proc.devRef .tc main_v293) (Cert.MMLaw.whole DC none (W c (Proc.devRef .tc main_v292)) (W c (Proc.devRef .tc main_v10))) :=
  congrArg (Function.update (W c) _) (final52_2_eq_whole (fun c b => W c b) c DC DC_plain none)
theorem region53 (W : Dev nD → Valuation τ sig (Elt Ideal)) (c : Dev nD) :
    Function.update (W c) (Proc.devRef .tc main_v294) ((dat53 (F := Ideal) (fun c b => W c b) c).arrAt 2 cfg53.N)
      = Function.update (W c) (Proc.devRef .tc main_v294) (Cert.MMLaw.whole DB none (W c (Proc.devRef .tc main_v7)) (W c (Proc.devRef .tc main_v293))) :=
  congrArg (Function.update (W c) _) (final53_2_eq_whole (fun c b => W c b) c DB DB_plain none)
theorem region54 (W : Dev nD → Valuation τ sig (Elt Ideal)) (c : Dev nD) :
    Function.update (W c) (Proc.devRef .tc main_v298) ((dat54 (F := Ideal) (fun c b => W c b) c).arrAt 2 cfg54.N)
      = Function.update (W c) (Proc.devRef .tc main_v298) (Cert.MMLaw.whole DB none (W c (Proc.devRef .tc main_v8)) (W c (Proc.devRef .tc main_v296))) :=
  congrArg (Function.update (W c) _) (final54_2_eq_whole (fun c b => W c b) c DB DB_plain none)
theorem region55 (W : Dev nD → Valuation τ sig (Elt Ideal)) (c : Dev nD) :
    Function.update (W c) (Proc.devRef .tc main_v302) ((dat55 (F := Ideal) (fun c b => W c b) c).arrAt 2 cfg55.N)
      = Function.update (W c) (Proc.devRef .tc main_v302) (Cert.MMLaw.whole DC none (W c (Proc.devRef .tc main_v301)) (W c (Proc.devRef .tc main_v10))) :=
  congrArg (Function.update (W c) _) (final55_2_eq_whole (fun c b => W c b) c DC DC_plain none)
theorem region56 (W : Dev nD → Valuation τ sig (Elt Ideal)) (c : Dev nD) :
    Function.update (W c) (Proc.devRef .tc main_v303) ((dat56 (F := Ideal) (fun c b => W c b) c).arrAt 2 cfg56.N)
      = Function.update (W c) (Proc.devRef .tc main_v303) (Cert.MMLaw.whole DB none (W c (Proc.devRef .tc main_v7)) (W c (Proc.devRef .tc main_v302))) :=
  congrArg (Function.update (W c) _) (final56_2_eq_whole (fun c b => W c b) c DB DB_plain none)
theorem region57 (W : Dev nD → Valuation τ sig (Elt Ideal)) (c : Dev nD) :
    Function.update (W c) (Proc.devRef .tc main_v322) ((dat57 (F := Ideal) (fun c b => W c b) c).arrAt 2 cfg57.N)
      = Function.update (W c) (Proc.devRef .tc main_v322) (Cert.MMLaw.whole DB none (W c (Proc.devRef .tc main_v9)) (W c (Proc.devRef .tc main_v321))) :=
  congrArg (Function.update (W c) _) (final57_2_eq_whole (fun c b => W c b) c DB DB_plain none)
theorem region58 (W : Dev nD → Valuation τ sig (Elt Ideal)) (c : Dev nD) :
    Function.update (W c) (Proc.devRef .tc main_v326) ((dat58 (F := Ideal) (fun c b => W c b) c).arrAt 2 cfg58.N)
      = Function.update (W c) (Proc.devRef .tc main_v326) (Cert.MMLaw.whole DC none (W c (Proc.devRef .tc main_v316)) (W c (Proc.devRef .tc main_v14))) :=
  congrArg (Function.update (W c) _) (final58_2_eq_whole (fun c b => W c b) c DC DC_plain none)
theorem region59 (W : Dev nD → Valuation τ sig (Elt Ideal)) (c : Dev nD) :
    Function.update (W c) (Proc.devRef .tc main_v331) ((dat59 (F := Ideal) (fun c b => W c b) c).arrAt 2 cfg59.N)
      = Function.update (W c) (Proc.devRef .tc main_v331) (Cert.MMLaw.whole DD none (W c (Proc.devRef .tc main_v330)) (W c (Proc.devRef .tc main_v16))) :=
  congrArg (Function.update (W c) _) (final59_2_eq_whole (fun c b => W c b) c DD DD_plain none)

/-! The family steps as the program does: a host stretch folds its operations' results; a region replaces its
    output array by the whole product of its two operand arrays. One equation per item. -/

theorem step0 : X m c 1 = StableHlo.after hostOps0 (X m c 0) :=
  (rfl : U1 m c = StableHlo.after hostOps0 (U0 m c))
theorem step1 : X m c 2 = Function.update (X m c 1) (Proc.devRef .tc main_v17) (Cert.MMLaw.whole DA none (X m c 1 (Proc.devRef .tc main_arg0)) (X m c 1 (Proc.devRef .tc main_v12))) := by
  rw [X_2, X_1]
  exact region0 (fun c => U1 m c) c
theorem step2 : X m c 3 = StableHlo.after hostOps1 (X m c 2) :=
  (rfl : U3 m c = StableHlo.after hostOps1 (U2 m c))
theorem step3 : X m c 4 = Function.update (X m c 3) (Proc.devRef .tc main_v26) (Cert.MMLaw.whole DB none (X m c 3 (Proc.devRef .tc main_v9)) (X m c 3 (Proc.devRef .tc main_v25))) := by
  rw [X_4, X_3]
  exact region1 (fun c => U3 m c) c
theorem step4 : X m c 5 = StableHlo.after hostOps2 (X m c 4) :=
  (rfl : U5 m c = StableHlo.after hostOps2 (U4 m c))
theorem step5 : X m c 6 = Function.update (X m c 5) (Proc.devRef .tc main_v30) (Cert.MMLaw.whole DB none (X m c 5 (Proc.devRef .tc main_v8)) (X m c 5 (Proc.devRef .tc main_v20))) := by
  rw [X_6, X_5]
  exact region2 (fun c => U5 m c) c
theorem step6 : X m c 7 = StableHlo.after hostOps3 (X m c 6) :=
  (rfl : U7 m c = StableHlo.after hostOps3 (U6 m c))
theorem step7 : X m c 8 = Function.update (X m c 7) (Proc.devRef .tc main_v34) (Cert.MMLaw.whole DC none (X m c 7 (Proc.devRef .tc main_v33)) (X m c 7 (Proc.devRef .tc main_v10))) := by
  rw [X_8, X_7]
  exact region3 (fun c => U7 m c) c
theorem step8 : X m c 9 = Function.update (X m c 8) (Proc.devRef .tc main_v35) (Cert.MMLaw.whole DB none (X m c 8 (Proc.devRef .tc main_v7)) (X m c 8 (Proc.devRef .tc main_v34))) := by
  rw [X_9, X_8]
  exact region4 (fun c => U8 m c) c
theorem step9 : X m c 10 = StableHlo.after hostOps5 (X m c 9) :=
  (rfl : U10 m c = StableHlo.after hostOps5 (U9 m c))
theorem step10 : X m c 11 = Function.update (X m c 10) (Proc.devRef .tc main_v39) (Cert.MMLaw.whole DB none (X m c 10 (Proc.devRef .tc main_v8)) (X m c 10 (Proc.devRef .tc main_v37))) := by
  rw [X_11, X_10]
  exact region5 (fun c => U10 m c) c
theorem step11 : X m c 12 = StableHlo.after hostOps6 (X m c 11) :=
  (rfl : U12 m c = StableHlo.after hostOps6 (U11 m c))
theorem step12 : X m c 13 = Function.update (X m c 12) (Proc.devRef .tc main_v43) (Cert.MMLaw.whole DC none (X m c 12 (Proc.devRef .tc main_v42)) (X m c 12 (Proc.devRef .tc main_v10))) := by
  rw [X_13, X_12]
  exact region6 (fun c => U12 m c) c
theorem step13 : X m c 14 = Function.update (X m c 13) (Proc.devRef .tc main_v44) (Cert.MMLaw.whole DB none (X m c 13 (Proc.devRef .tc main_v7)) (X m c 13 (Proc.devRef .tc main_v43))) := by
  rw [X_14, X_13]
  exact region7 (fun c => U13 m c) c
theorem step14 : X m c 15 = StableHlo.after hostOps8 (X m c 14) :=
  (rfl : U15 m c = StableHlo.after hostOps8 (U14 m c))
theorem step15 : X m c 16 = Function.update (X m c 15) (Proc.devRef .tc main_v63) (Cert.MMLaw.whole DB none (X m c 15 (Proc.devRef .tc main_v9)) (X m c 15 (Proc.devRef .tc main_v62))) := by
  rw [X_16, X_15]
  exact region8 (fun c => U15 m c) c
theorem step16 : X m c 17 = StableHlo.after hostOps9 (X m c 16) :=
  (rfl : U17 m c = StableHlo.after hostOps9 (U16 m c))
theorem step17 : X m c 18 = Function.update (X m c 17) (Proc.devRef .tc main_v67) (Cert.MMLaw.whole DB none (X m c 17 (Proc.devRef .tc main_v8)) (X m c 17 (Proc.devRef .tc main_v57))) := by
  rw [X_18, X_17]
  exact region9 (fun c => U17 m c) c
theorem step18 : X m c 19 = StableHlo.after hostOps10 (X m c 18) :=
  (rfl : U19 m c = StableHlo.after hostOps10 (U18 m c))
theorem step19 : X m c 20 = Function.update (X m c 19) (Proc.devRef .tc main_v71) (Cert.MMLaw.whole DC none (X m c 19 (Proc.devRef .tc main_v70)) (X m c 19 (Proc.devRef .tc main_v10))) := by
  rw [X_20, X_19]
  exact region10 (fun c => U19 m c) c
theorem step20 : X m c 21 = Function.update (X m c 20) (Proc.devRef .tc main_v72) (Cert.MMLaw.whole DB none (X m c 20 (Proc.devRef .tc main_v7)) (X m c 20 (Proc.devRef .tc main_v71))) := by
  rw [X_21, X_20]
  exact region11 (fun c => U20 m c) c
theorem step21 : X m c 22 = StableHlo.after hostOps12 (X m c 21) :=
  (rfl : U22 m c = StableHlo.after hostOps12 (U21 m c))
theorem step22 : X m c 23 = Function.update (X m c 22) (Proc.devRef .tc main_v76) (Cert.MMLaw.whole DB none (X m c 22 (Proc.devRef .tc main_v8)) (X m c 22 (Proc.devRef .tc main_v74))) := by
  rw [X_23, X_22]
  exact region12 (fun c => U22 m c) c
theorem step23 : X m c 24 = StableHlo.after hostOps13 (X m c 23) :=
  (rfl : U24 m c = StableHlo.after hostOps13 (U23 m c))
theorem step24 : X m c 25 = Function.update (X m c 24) (Proc.devRef .tc main_v80) (Cert.MMLaw.whole DC none (X m c 24 (Proc.devRef .tc main_v79)) (X m c 24 (Proc.devRef .tc main_v10))) := by
  rw [X_25, X_24]
  exact region13 (fun c => U24 m c) c
theorem step25 : X m c 26 = Function.update (X m c 25) (Proc.devRef .tc main_v81) (Cert.MMLaw.whole DB none (X m c 25 (Proc.devRef .tc main_v7)) (X m c 25 (Proc.devRef .tc main_v80))) := by
  rw [X_26, X_25]
  exact region14 (fun c => U25 m c) c
theorem step26 : X m c 27 = StableHlo.after hostOps15 (X m c 26) :=
  (rfl : U27 m c = StableHlo.after hostOps15 (U26 m c))
theorem step27 : X m c 28 = Function.update (X m c 27) (Proc.devRef .tc main_v100) (Cert.MMLaw.whole DB none (X m c 27 (Proc.devRef .tc main_v9)) (X m c 27 (Proc.devRef .tc main_v99))) := by
  rw [X_28, X_27]
  exact region15 (fun c => U27 m c) c
theorem step28 : X m c 29 = StableHlo.after hostOps16 (X m c 28) :=
  (rfl : U29 m c = StableHlo.after hostOps16 (U28 m c))
theorem step29 : X m c 30 = Function.update (X m c 29) (Proc.devRef .tc main_v104) (Cert.MMLaw.whole DB none (X m c 29 (Proc.devRef .tc main_v8)) (X m c 29 (Proc.devRef .tc main_v94))) := by
  rw [X_30, X_29]
  exact region16 (fun c => U29 m c) c
theorem step30 : X m c 31 = StableHlo.after hostOps17 (X m c 30) :=
  (rfl : U31 m c = StableHlo.after hostOps17 (U30 m c))
theorem step31 : X m c 32 = Function.update (X m c 31) (Proc.devRef .tc main_v108) (Cert.MMLaw.whole DC none (X m c 31 (Proc.devRef .tc main_v107)) (X m c 31 (Proc.devRef .tc main_v10))) := by
  rw [X_32, X_31]
  exact region17 (fun c => U31 m c) c
theorem step32 : X m c 33 = Function.update (X m c 32) (Proc.devRef .tc main_v109) (Cert.MMLaw.whole DB none (X m c 32 (Proc.devRef .tc main_v7)) (X m c 32 (Proc.devRef .tc main_v108))) := by
  rw [X_33, X_32]
  exact region18 (fun c => U32 m c) c
theorem step33 : X m c 34 = StableHlo.after hostOps19 (X m c 33) :=
  (rfl : U34 m c = StableHlo.after hostOps19 (U33 m c))
theorem step34 : X m c 35 = Function.update (X m c 34) (Proc.devRef .tc main_v113) (Cert.MMLaw.whole DB none (X m c 34 (Proc.devRef .tc main_v8)) (X m c 34 (Proc.devRef .tc main_v111))) := by
  rw [X_35, X_34]
  exact region19 (fun c => U34 m c) c
theorem step35 : X m c 36 = StableHlo.after hostOps20 (X m c 35) :=
  (rfl : U36 m c = StableHlo.after hostOps20 (U35 m c))
theorem step36 : X m c 37 = Function.update (X m c 36) (Proc.devRef .tc main_v117) (Cert.MMLaw.whole DC none (X m c 36 (Proc.devRef .tc main_v116)) (X m c 36 (Proc.devRef .tc main_v10))) := by
  rw [X_37, X_36]
  exact region20 (fun c => U36 m c) c
theorem step37 : X m c 38 = Function.update (X m c 37) (Proc.devRef .tc main_v118) (Cert.MMLaw.whole DB none (X m c 37 (Proc.devRef .tc main_v7)) (X m c 37 (Proc.devRef .tc main_v117))) := by
  rw [X_38, X_37]
  exact region21 (fun c => U37 m c) c
theorem step38 : X m c 39 = StableHlo.after hostOps22 (X m c 38) :=
  (rfl : U39 m c = StableHlo.after hostOps22 (U38 m c))
theorem step39 : X m c 40 = Function.update (X m c 39) (Proc.devRef .tc main_v137) (Cert.MMLaw.whole DB none (X m c 39 (Proc.devRef .tc main_v9)) (X m c 39 (Proc.devRef .tc main_v136))) := by
  rw [X_40, X_39]
  exact region22 (fun c => U39 m c) c
theorem step40 : X m c 41 = StableHlo.after hostOps23 (X m c 40) :=
  (rfl : U41 m c = StableHlo.after hostOps23 (U40 m c))
theorem step41 : X m c 42 = Function.update (X m c 41) (Proc.devRef .tc main_v141) (Cert.MMLaw.whole DB none (X m c 41 (Proc.devRef .tc main_v8)) (X m c 41 (Proc.devRef .tc main_v131))) := by
  rw [X_42, X_41]
  exact region23 (fun c => U41 m c) c
theorem step42 : X m c 43 = StableHlo.after hostOps24 (X m c 42) :=
  (rfl : U43 m c = StableHlo.after hostOps24 (U42 m c))
theorem step43 : X m c 44 = Function.update (X m c 43) (Proc.devRef .tc main_v145) (Cert.MMLaw.whole DC none (X m c 43 (Proc.devRef .tc main_v144)) (X m c 43 (Proc.devRef .tc main_v10))) := by
  rw [X_44, X_43]
  exact region24 (fun c => U43 m c) c
theorem step44 : X m c 45 = Function.update (X m c 44) (Proc.devRef .tc main_v146) (Cert.MMLaw.whole DB none (X m c 44 (Proc.devRef .tc main_v7)) (X m c 44 (Proc.devRef .tc main_v145))) := by
  rw [X_45, X_44]
  exact region25 (fun c => U44 m c) c
theorem step45 : X m c 46 = StableHlo.after hostOps26 (X m c 45) :=
  (rfl : U46 m c = StableHlo.after hostOps26 (U45 m c))
theorem step46 : X m c 47 = Function.update (X m c 46) (Proc.devRef .tc main_v150) (Cert.MMLaw.whole DB none (X m c 46 (Proc.devRef .tc main_v8)) (X m c 46 (Proc.devRef .tc main_v148))) := by
  rw [X_47, X_46]
  exact region26 (fun c => U46 m c) c
theorem step47 : X m c 48 = StableHlo.after hostOps27 (X m c 47) :=
  (rfl : U48 m c = StableHlo.after hostOps27 (U47 m c))
theorem step48 : X m c 49 = Function.update (X m c 48) (Proc.devRef .tc main_v154) (Cert.MMLaw.whole DC none (X m c 48 (Proc.devRef .tc main_v153)) (X m c 48 (Proc.devRef .tc main_v10))) := by
  rw [X_49, X_48]
  exact region27 (fun c => U48 m c) c
theorem step49 : X m c 50 = Function.update (X m c 49) (Proc.devRef .tc main_v155) (Cert.MMLaw.whole DB none (X m c 49 (Proc.devRef .tc main_v7)) (X m c 49 (Proc.devRef .tc main_v154))) := by
  rw [X_50, X_49]
  exact region28 (fun c => U49 m c) c
theorem step50 : X m c 51 = StableHlo.after hostOps29 (X m c 50) :=
  (rfl : U51 m c = StableHlo.after hostOps29 (U50 m c))
theorem step51 : X m c 52 = Function.update (X m c 51) (Proc.devRef .tc main_v174) (Cert.MMLaw.whole DB none (X m c 51 (Proc.devRef .tc main_v9)) (X m c 51 (Proc.devRef .tc main_v173))) := by
  rw [X_52, X_51]
  exact region29 (fun c => U51 m c) c
theorem step52 : X m c 53 = StableHlo.after hostOps30 (X m c 52) :=
  (rfl : U53 m c = StableHlo.after hostOps30 (U52 m c))
theorem step53 : X m c 54 = Function.update (X m c 53) (Proc.devRef .tc main_v178) (Cert.MMLaw.whole DB none (X m c 53 (Proc.devRef .tc main_v8)) (X m c 53 (Proc.devRef .tc main_v168))) := by
  rw [X_54, X_53]
  exact region30 (fun c => U53 m c) c
theorem step54 : X m c 55 = StableHlo.after hostOps31 (X m c 54) :=
  (rfl : U55 m c = StableHlo.after hostOps31 (U54 m c))
theorem step55 : X m c 56 = Function.update (X m c 55) (Proc.devRef .tc main_v182) (Cert.MMLaw.whole DC none (X m c 55 (Proc.devRef .tc main_v181)) (X m c 55 (Proc.devRef .tc main_v10))) := by
  rw [X_56, X_55]
  exact region31 (fun c => U55 m c) c
theorem step56 : X m c 57 = Function.update (X m c 56) (Proc.devRef .tc main_v183) (Cert.MMLaw.whole DB none (X m c 56 (Proc.devRef .tc main_v7)) (X m c 56 (Proc.devRef .tc main_v182))) := by
  rw [X_57, X_56]
  exact region32 (fun c => U56 m c) c
theorem step57 : X m c 58 = StableHlo.after hostOps33 (X m c 57) :=
  (rfl : U58 m c = StableHlo.after hostOps33 (U57 m c))
theorem step58 : X m c 59 = Function.update (X m c 58) (Proc.devRef .tc main_v187) (Cert.MMLaw.whole DB none (X m c 58 (Proc.devRef .tc main_v8)) (X m c 58 (Proc.devRef .tc main_v185))) := by
  rw [X_59, X_58]
  exact region33 (fun c => U58 m c) c
theorem step59 : X m c 60 = StableHlo.after hostOps34 (X m c 59) :=
  (rfl : U60 m c = StableHlo.after hostOps34 (U59 m c))
theorem step60 : X m c 61 = Function.update (X m c 60) (Proc.devRef .tc main_v191) (Cert.MMLaw.whole DC none (X m c 60 (Proc.devRef .tc main_v190)) (X m c 60 (Proc.devRef .tc main_v10))) := by
  rw [X_61, X_60]
  exact region34 (fun c => U60 m c) c
theorem step61 : X m c 62 = Function.update (X m c 61) (Proc.devRef .tc main_v192) (Cert.MMLaw.whole DB none (X m c 61 (Proc.devRef .tc main_v7)) (X m c 61 (Proc.devRef .tc main_v191))) := by
  rw [X_62, X_61]
  exact region35 (fun c => U61 m c) c
theorem step62 : X m c 63 = StableHlo.after hostOps36 (X m c 62) :=
  (rfl : U63 m c = StableHlo.after hostOps36 (U62 m c))
theorem step63 : X m c 64 = Function.update (X m c 63) (Proc.devRef .tc main_v211) (Cert.MMLaw.whole DB none (X m c 63 (Proc.devRef .tc main_v9)) (X m c 63 (Proc.devRef .tc main_v210))) := by
  rw [X_64, X_63]
  exact region36 (fun c => U63 m c) c
theorem step64 : X m c 65 = StableHlo.after hostOps37 (X m c 64) :=
  (rfl : U65 m c = StableHlo.after hostOps37 (U64 m c))
theorem step65 : X m c 66 = Function.update (X m c 65) (Proc.devRef .tc main_v215) (Cert.MMLaw.whole DB none (X m c 65 (Proc.devRef .tc main_v8)) (X m c 65 (Proc.devRef .tc main_v205))) := by
  rw [X_66, X_65]
  exact region37 (fun c => U65 m c) c
theorem step66 : X m c 67 = StableHlo.after hostOps38 (X m c 66) :=
  (rfl : U67 m c = StableHlo.after hostOps38 (U66 m c))
theorem step67 : X m c 68 = Function.update (X m c 67) (Proc.devRef .tc main_v219) (Cert.MMLaw.whole DC none (X m c 67 (Proc.devRef .tc main_v218)) (X m c 67 (Proc.devRef .tc main_v10))) := by
  rw [X_68, X_67]
  exact region38 (fun c => U67 m c) c
theorem step68 : X m c 69 = Function.update (X m c 68) (Proc.devRef .tc main_v220) (Cert.MMLaw.whole DB none (X m c 68 (Proc.devRef .tc main_v7)) (X m c 68 (Proc.devRef .tc main_v219))) := by
  rw [X_69, X_68]
  exact region39 (fun c => U68 m c) c
theorem step69 : X m c 70 = StableHlo.after hostOps40 (X m c 69) :=
  (rfl : U70 m c = StableHlo.after hostOps40 (U69 m c))
theorem step70 : X m c 71 = Function.update (X m c 70) (Proc.devRef .tc main_v224) (Cert.MMLaw.whole DB none (X m c 70 (Proc.devRef .tc main_v8)) (X m c 70 (Proc.devRef .tc main_v222))) := by
  rw [X_71, X_70]
  exact region40 (fun c => U70 m c) c
theorem step71 : X m c 72 = StableHlo.after hostOps41 (X m c 71) :=
  (rfl : U72 m c = StableHlo.after hostOps41 (U71 m c))
theorem step72 : X m c 73 = Function.update (X m c 72) (Proc.devRef .tc main_v228) (Cert.MMLaw.whole DC none (X m c 72 (Proc.devRef .tc main_v227)) (X m c 72 (Proc.devRef .tc main_v10))) := by
  rw [X_73, X_72]
  exact region41 (fun c => U72 m c) c
theorem step73 : X m c 74 = Function.update (X m c 73) (Proc.devRef .tc main_v229) (Cert.MMLaw.whole DB none (X m c 73 (Proc.devRef .tc main_v7)) (X m c 73 (Proc.devRef .tc main_v228))) := by
  rw [X_74, X_73]
  exact region42 (fun c => U73 m c) c
theorem step74 : X m c 75 = StableHlo.after hostOps43 (X m c 74) :=
  (rfl : U75 m c = StableHlo.after hostOps43 (U74 m c))
theorem step75 : X m c 76 = Function.update (X m c 75) (Proc.devRef .tc main_v248) (Cert.MMLaw.whole DB none (X m c 75 (Proc.devRef .tc main_v9)) (X m c 75 (Proc.devRef .tc main_v247))) := by
  rw [X_76, X_75]
  exact region43 (fun c => U75 m c) c
theorem step76 : X m c 77 = StableHlo.after hostOps44 (X m c 76) :=
  (rfl : U77 m c = StableHlo.after hostOps44 (U76 m c))
theorem step77 : X m c 78 = Function.update (X m c 77) (Proc.devRef .tc main_v252) (Cert.MMLaw.whole DB none (X m c 77 (Proc.devRef .tc main_v8)) (X m c 77 (Proc.devRef .tc main_v242))) := by
  rw [X_78, X_77]
  exact region44 (fun c => U77 m c) c
theorem step78 : X m c 79 = StableHlo.after hostOps45 (X m c 78) :=
  (rfl : U79 m c = StableHlo.after hostOps45 (U78 m c))
theorem step79 : X m c 80 = Function.update (X m c 79) (Proc.devRef .tc main_v256) (Cert.MMLaw.whole DC none (X m c 79 (Proc.devRef .tc main_v255)) (X m c 79 (Proc.devRef .tc main_v10))) := by
  rw [X_80, X_79]
  exact region45 (fun c => U79 m c) c
theorem step80 : X m c 81 = Function.update (X m c 80) (Proc.devRef .tc main_v257) (Cert.MMLaw.whole DB none (X m c 80 (Proc.devRef .tc main_v7)) (X m c 80 (Proc.devRef .tc main_v256))) := by
  rw [X_81, X_80]
  exact region46 (fun c => U80 m c) c
theorem step81 : X m c 82 = StableHlo.after hostOps47 (X m c 81) :=
  (rfl : U82 m c = StableHlo.after hostOps47 (U81 m c))
theorem step82 : X m c 83 = Function.update (X m c 82) (Proc.devRef .tc main_v261) (Cert.MMLaw.whole DB none (X m c 82 (Proc.devRef .tc main_v8)) (X m c 82 (Proc.devRef .tc main_v259))) := by
  rw [X_83, X_82]
  exact region47 (fun c => U82 m c) c
theorem step83 : X m c 84 = StableHlo.after hostOps48 (X m c 83) :=
  (rfl : U84 m c = StableHlo.after hostOps48 (U83 m c))
theorem step84 : X m c 85 = Function.update (X m c 84) (Proc.devRef .tc main_v265) (Cert.MMLaw.whole DC none (X m c 84 (Proc.devRef .tc main_v264)) (X m c 84 (Proc.devRef .tc main_v10))) := by
  rw [X_85, X_84]
  exact region48 (fun c => U84 m c) c
theorem step85 : X m c 86 = Function.update (X m c 85) (Proc.devRef .tc main_v266) (Cert.MMLaw.whole DB none (X m c 85 (Proc.devRef .tc main_v7)) (X m c 85 (Proc.devRef .tc main_v265))) := by
  rw [X_86, X_85]
  exact region49 (fun c => U85 m c) c
theorem step86 : X m c 87 = StableHlo.after hostOps50 (X m c 86) :=
  (rfl : U87 m c = StableHlo.after hostOps50 (U86 m c))
theorem step87 : X m c 88 = Function.update (X m c 87) (Proc.devRef .tc main_v285) (Cert.MMLaw.whole DB none (X m c 87 (Proc.devRef .tc main_v9)) (X m c 87 (Proc.devRef .tc main_v284))) := by
  rw [X_88, X_87]
  exact region50 (fun c => U87 m c) c
theorem step88 : X m c 89 = StableHlo.after hostOps51 (X m c 88) :=
  (rfl : U89 m c = StableHlo.after hostOps51 (U88 m c))
theorem step89 : X m c 90 = Function.update (X m c 89) (Proc.devRef .tc main_v289) (Cert.MMLaw.whole DB none (X m c 89 (Proc.devRef .tc main_v8)) (X m c 89 (Proc.devRef .tc main_v279))) := by
  rw [X_90, X_89]
  exact region51 (fun c => U89 m c) c
theorem step90 : X m c 91 = StableHlo.after hostOps52 (X m c 90) :=
  (rfl : U91 m c = StableHlo.after hostOps52 (U90 m c))
theorem step91 : X m c 92 = Function.update (X m c 91) (Proc.devRef .tc main_v293) (Cert.MMLaw.whole DC none (X m c 91 (Proc.devRef .tc main_v292)) (X m c 91 (Proc.devRef .tc main_v10))) := by
  rw [X_92, X_91]
  exact region52 (fun c => U91 m c) c
theorem step92 : X m c 93 = Function.update (X m c 92) (Proc.devRef .tc main_v294) (Cert.MMLaw.whole DB none (X m c 92 (Proc.devRef .tc main_v7)) (X m c 92 (Proc.devRef .tc main_v293))) := by
  rw [X_93, X_92]
  exact region53 (fun c => U92 m c) c
theorem step93 : X m c 94 = StableHlo.after hostOps54 (X m c 93) :=
  (rfl : U94 m c = StableHlo.after hostOps54 (U93 m c))
theorem step94 : X m c 95 = Function.update (X m c 94) (Proc.devRef .tc main_v298) (Cert.MMLaw.whole DB none (X m c 94 (Proc.devRef .tc main_v8)) (X m c 94 (Proc.devRef .tc main_v296))) := by
  rw [X_95, X_94]
  exact region54 (fun c => U94 m c) c
theorem step95 : X m c 96 = StableHlo.after hostOps55 (X m c 95) :=
  (rfl : U96 m c = StableHlo.after hostOps55 (U95 m c))
theorem step96 : X m c 97 = Function.update (X m c 96) (Proc.devRef .tc main_v302) (Cert.MMLaw.whole DC none (X m c 96 (Proc.devRef .tc main_v301)) (X m c 96 (Proc.devRef .tc main_v10))) := by
  rw [X_97, X_96]
  exact region55 (fun c => U96 m c) c
theorem step97 : X m c 98 = Function.update (X m c 97) (Proc.devRef .tc main_v303) (Cert.MMLaw.whole DB none (X m c 97 (Proc.devRef .tc main_v7)) (X m c 97 (Proc.devRef .tc main_v302))) := by
  rw [X_98, X_97]
  exact region56 (fun c => U97 m c) c
theorem step98 : X m c 99 = StableHlo.after hostOps57 (X m c 98) :=
  (rfl : U99 m c = StableHlo.after hostOps57 (U98 m c))
theorem step99 : X m c 100 = Function.update (X m c 99) (Proc.devRef .tc main_v322) (Cert.MMLaw.whole DB none (X m c 99 (Proc.devRef .tc main_v9)) (X m c 99 (Proc.devRef .tc main_v321))) := by
  rw [X_100, X_99]
  exact region57 (fun c => U99 m c) c
theorem step100 : X m c 101 = StableHlo.after hostOps58 (X m c 100) :=
  (rfl : U101 m c = StableHlo.after hostOps58 (U100 m c))
theorem step101 : X m c 102 = Function.update (X m c 101) (Proc.devRef .tc main_v326) (Cert.MMLaw.whole DC none (X m c 101 (Proc.devRef .tc main_v316)) (X m c 101 (Proc.devRef .tc main_v14))) := by
  rw [X_102, X_101]
  exact region58 (fun c => U101 m c) c
theorem step102 : X m c 103 = StableHlo.after hostOps59 (X m c 102) :=
  (rfl : U103 m c = StableHlo.after hostOps59 (U102 m c))
theorem step103 : X m c 104 = StableHlo.after hostOps59_1 (X m c 103) :=
  (rfl : U104 m c = StableHlo.after hostOps59_1 (U103 m c))
theorem step104 : X m c 105 = Function.update (X m c 104) (Proc.devRef .tc main_v331) (Cert.MMLaw.whole DD none (X m c 104 (Proc.devRef .tc main_v330)) (X m c 104 (Proc.devRef .tc main_v16))) := by
  rw [X_105, X_104]
  exact region59 (fun c => U104 m c) c
theorem step105 : X m c 106 = StableHlo.after hostOps60 (X m c 105) :=
  (rfl : U106 m c = StableHlo.after hostOps60 (U105 m c))

/-- The family is a run of the program in the specification's sense. -/
theorem krun : KRun (X m c) where
  i0 := step0 m c
  i1 := step1 m c
  i2 := step2 m c
  i3 := step3 m c
  i4 := step4 m c
  i5 := step5 m c
  i6 := step6 m c
  i7 := step7 m c
  i8 := step8 m c
  i9 := step9 m c
  i10 := step10 m c
  i11 := step11 m c
  i12 := step12 m c
  i13 := step13 m c
  i14 := step14 m c
  i15 := step15 m c
  i16 := step16 m c
  i17 := step17 m c
  i18 := step18 m c
  i19 := step19 m c
  i20 := step20 m c
  i21 := step21 m c
  i22 := step22 m c
  i23 := step23 m c
  i24 := step24 m c
  i25 := step25 m c
  i26 := step26 m c
  i27 := step27 m c
  i28 := step28 m c
  i29 := step29 m c
  i30 := step30 m c
  i31 := step31 m c
  i32 := step32 m c
  i33 := step33 m c
  i34 := step34 m c
  i35 := step35 m c
  i36 := step36 m c
  i37 := step37 m c
  i38 := step38 m c
  i39 := step39 m c
  i40 := step40 m c
  i41 := step41 m c
  i42 := step42 m c
  i43 := step43 m c
  i44 := step44 m c
  i45 := step45 m c
  i46 := step46 m c
  i47 := step47 m c
  i48 := step48 m c
  i49 := step49 m c
  i50 := step50 m c
  i51 := step51 m c
  i52 := step52 m c
  i53 := step53 m c
  i54 := step54 m c
  i55 := step55 m c
  i56 := step56 m c
  i57 := step57 m c
  i58 := step58 m c
  i59 := step59 m c
  i60 := step60 m c
  i61 := step61 m c
  i62 := step62 m c
  i63 := step63 m c
  i64 := step64 m c
  i65 := step65 m c
  i66 := step66 m c
  i67 := step67 m c
  i68 := step68 m c
  i69 := step69 m c
  i70 := step70 m c
  i71 := step71 m c
  i72 := step72 m c
  i73 := step73 m c
  i74 := step74 m c
  i75 := step75 m c
  i76 := step76 m c
  i77 := step77 m c
  i78 := step78 m c
  i79 := step79 m c
  i80 := step80 m c
  i81 := step81 m c
  i82 := step82 m c
  i83 := step83 m c
  i84 := step84 m c
  i85 := step85 m c
  i86 := step86 m c
  i87 := step87 m c
  i88 := step88 m c
  i89 := step89 m c
  i90 := step90 m c
  i91 := step91 m c
  i92 := step92 m c
  i93 := step93 m c
  i94 := step94 m c
  i95 := step95 m c
  i96 := step96 m c
  i97 := step97 m c
  i98 := step98 m c
  i99 := step99 m c
  i100 := step100 m c
  i101 := step101 m c
  i102 := step102 m c
  i103 := step103 m c
  i104 := step104 m c
  i105 := step105 m c

end Cert.KGlue

end
-- ==== Proof.RefOpsLib.lean ====
import proofs.«158944_j64613488001249_1_alg».proof.ReferenceIdeal
import Idealize.ShloMosaic.Lib.StableHlo.Run

/-! A list of operations with the references it writes, and what a reference it does not write keeps. -/

noncomputable section

namespace Cert.RefValues

open Cert.ReferenceIdeal Idealize.ShloMosaic Idealize.ShloMosaic.TcCoe Idealize.SL.Sem Idealize.ShloMosaic.StableHlo
open Cert.ReferenceIdeal.Facts₀

variable {F : FTy → Type} [FloatOps F] [Facts]

/-- The operations of a list write only the references of W. -/
class WritesOnly (ops : List (HloOp τ sig (Elt F))) (W : outParam (List (Ref sig .tc))) : Prop where
  sub : ops.Forall fun op => op.writes ⊆ (W.map (Proc.devRef (τ := τ) .tc)).toFinset

/-- A reference the list does not write keeps its contents. -/
theorem keep (ops : List (HloOp τ sig (Elt F))) {W : List (Ref sig .tc)} [h : WritesOnly ops W]
    (V : Valuation τ sig (Elt F)) {r : Ref sig .tc} (hr : r ∉ W) :
    after ops V (no_index (Proc.devRef .tc r)) = V (Proc.devRef .tc r) :=
  after_of_writes_sub ops V h.sub hr

end Cert.RefValues

end
-- ==== Proof.RefOpsE.lean ====
import proofs.«158944_j64613488001249_1_alg».proof.Proof.RefOpsLib

/-! The reference's prelude (the spectrum, the step size, the encoder), the energy of each of the nine states, the decoder, the nine broadcasts of the energies and their concatenation, as literal lists of operations. Each list with the references its operations write. -/

noncomputable section

namespace Cert.RefValues

open Cert.ReferenceIdeal Idealize.ShloMosaic Idealize.ShloMosaic.TcCoe Idealize.SL.Sem Idealize.ShloMosaic.StableHlo
open Cert.ReferenceIdeal.Facts₀

variable {F : FTy → Type} [FloatOps F] [Facts]

abbrev opsPre : List (HloOp τ sig (Elt F)) :=
  [ StableHlo.reshape main_arg14 main_v0 rfl shapeCasts_S1_S_,
    StableHlo.reshape main_arg12 main_v1 rfl shapeCasts_S1_S_,
    StableHlo.unary main_v1 main_v2 (broadcastInDim S4096 ![] bcast_S_S4096 : (⟨S_, .f32⟩ : BufTy).Contents (Elt F) → (⟨S4096, .f32⟩ : BufTy).Contents (Elt F)),
    StableHlo.binary main_v2 main_arg2 main_v3 (addf : (⟨S4096, .f32⟩ : BufTy).Contents (Elt F) → (⟨S4096, .f32⟩ : BufTy).Contents (Elt F) → (⟨S4096, .f32⟩ : BufTy).Contents (Elt F)),
    StableHlo.reshape main_arg13 main_v4 rfl shapeCasts_S1_S_,
    StableHlo.unary main_v4 main_v5 (broadcastInDim S4096 ![] bcast_S_S4096 : (⟨S_, .f32⟩ : BufTy).Contents (Elt F) → (⟨S4096, .f32⟩ : BufTy).Contents (Elt F)),
    StableHlo.binary main_v3 main_v5 main_v6 (Host.powf : (⟨S4096, .f32⟩ : BufTy).Contents (Elt F) → (⟨S4096, .f32⟩ : BufTy).Contents (Elt F) → (⟨S4096, .f32⟩ : BufTy).Contents (Elt F)),
    StableHlo.unary main_arg5 main_v7 ((transpose S128x512 [1, 0] · transposes_S512x128_S128x512_1_0) : (⟨S512x128, .f32⟩ : BufTy).Contents (Elt F) → (⟨S128x512, .f32⟩ : BufTy).Contents (Elt F)),
    StableHlo.binary main_arg0 main_v7 main_v8 ((fun l r => Host.dotGeneral dot_S4096x128_S128x512_S4096x512_1_0_0_1_n_n none l r) : (⟨S4096x128, .f32⟩ : BufTy).Contents (Elt F) → (⟨S128x512, .f32⟩ : BufTy).Contents (Elt F) → (⟨S4096x512, .f32⟩ : BufTy).Contents (Elt F)),
    StableHlo.unary main_arg6 main_v9 (broadcastInDim S1x512 ![1] bcast_S512_S1x512_1 : (⟨S512, .f32⟩ : BufTy).Contents (Elt F) → (⟨S1x512, .f32⟩ : BufTy).Contents (Elt F)),
    StableHlo.unary main_v9 main_v10 (broadcastInDim S4096x512 ![0, 1] bcast_S1x512_S4096x512_0_1 : (⟨S1x512, .f32⟩ : BufTy).Contents (Elt F) → (⟨S4096x512, .f32⟩ : BufTy).Contents (Elt F)),
    StableHlo.binary main_v8 main_v10 main_v11 (addf : (⟨S4096x512, .f32⟩ : BufTy).Contents (Elt F) → (⟨S4096x512, .f32⟩ : BufTy).Contents (Elt F) → (⟨S4096x512, .f32⟩ : BufTy).Contents (Elt F)) ]
abbrev opsPre_W : List (Ref sig .tc) := [main_v0, main_v1, main_v2, main_v3, main_v4, main_v5, main_v6, main_v7, main_v8, main_v9, main_v10, main_v11]
instance opsPre_writes : WritesOnly (opsPre (F := F)) opsPre_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev opsEn0 : List (HloOp τ sig (Elt F)) :=
  [ StableHlo.TRef.binary (.of main_v11 : StableHlo.TRef sig ⟨S4096x512, .f32⟩) (.of main_v11 : StableHlo.TRef sig ⟨S4096x512, .f32⟩) main_call0.v0 mulf,
    StableHlo.TRef.nullary main_call0.cst (constant S_ .f32 0x00000000#32),
    StableHlo.TRef.binary main_call0.v0 main_call0.cst main_call0.v1 (fun x v => Host.reduceAdd x v reducesTo_S4096x512_S_d0_1 h_S_),
    StableHlo.TRef.unary main_call0.v1 main_call0.v2 Host.sqrt,
    StableHlo.unary main_v12 main_v13 (broadcastInDim S4096x512 ![] bcast_S_S4096x512 : (⟨S_, .f32⟩ : BufTy).Contents (Elt F) → (⟨S4096x512, .f32⟩ : BufTy).Contents (Elt F)),
    StableHlo.binary main_v11 main_v13 main_v14 (Host.divf : (⟨S4096x512, .f32⟩ : BufTy).Contents (Elt F) → (⟨S4096x512, .f32⟩ : BufTy).Contents (Elt F) → (⟨S4096x512, .f32⟩ : BufTy).Contents (Elt F)),
    StableHlo.binary main_arg4 main_v14 main_v15 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.binary main_v15 main_v14 main_v16 (mulf : (⟨S4096x512, .f32⟩ : BufTy).Contents (Elt F) → (⟨S4096x512, .f32⟩ : BufTy).Contents (Elt F) → (⟨S4096x512, .f32⟩ : BufTy).Contents (Elt F)),
    StableHlo.nullary main_cst (constant S_ .f32 0x00000000#32),
    StableHlo.binary main_v16 main_cst main_v17 ((fun x v => Host.reduceAdd x v reducesTo_S4096x512_S_d0_1 h_S_) : (⟨S4096x512, .f32⟩ : BufTy).Contents (Elt F) → (⟨S_, .f32⟩ : BufTy).Contents (Elt F) → (⟨S_, .f32⟩ : BufTy).Contents (Elt F)),
    StableHlo.nullary main_cst_0 (constant S_ .f32 0x3F000000#32),
    StableHlo.binary main_cst_0 main_v17 main_v18 (mulf : (⟨S_, .f32⟩ : BufTy).Contents (Elt F) → (⟨S_, .f32⟩ : BufTy).Contents (Elt F) → (⟨S_, .f32⟩ : BufTy).Contents (Elt F)) ]
abbrev opsEn0_W : List (Ref sig .tc) := [main_call0_v0, main_call0_cst, main_call0_v1, main_v12, main_v13, main_v14, main_v15, main_v16, main_cst, main_v17, main_cst_0, main_v18]
instance opsEn0_writes : WritesOnly (opsEn0 (F := F)) opsEn0_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev opsEn1 : List (HloOp τ sig (Elt F)) :=
  [ StableHlo.TRef.binary (.of main_v46 : StableHlo.TRef sig ⟨S4096x512, .f32⟩) (.of main_v46 : StableHlo.TRef sig ⟨S4096x512, .f32⟩) main_call1.v0 mulf,
    StableHlo.TRef.nullary main_call1.cst (constant S_ .f32 0x00000000#32),
    StableHlo.TRef.binary main_call1.v0 main_call1.cst main_call1.v1 (fun x v => Host.reduceAdd x v reducesTo_S4096x512_S_d0_1 h_S_),
    StableHlo.TRef.unary main_call1.v1 main_call1.v2 Host.sqrt,
    StableHlo.unary main_v47 main_v48 (broadcastInDim S4096x512 ![] bcast_S_S4096x512 : (⟨S_, .f32⟩ : BufTy).Contents (Elt F) → (⟨S4096x512, .f32⟩ : BufTy).Contents (Elt F)),
    StableHlo.binary main_v46 main_v48 main_v49 (Host.divf : (⟨S4096x512, .f32⟩ : BufTy).Contents (Elt F) → (⟨S4096x512, .f32⟩ : BufTy).Contents (Elt F) → (⟨S4096x512, .f32⟩ : BufTy).Contents (Elt F)),
    StableHlo.binary main_arg4 main_v49 main_v50 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.binary main_v50 main_v49 main_v51 (mulf : (⟨S4096x512, .f32⟩ : BufTy).Contents (Elt F) → (⟨S4096x512, .f32⟩ : BufTy).Contents (Elt F) → (⟨S4096x512, .f32⟩ : BufTy).Contents (Elt F)),
    StableHlo.nullary main_cst_6 (constant S_ .f32 0x00000000#32),
    StableHlo.binary main_v51 main_cst_6 main_v52 ((fun x v => Host.reduceAdd x v reducesTo_S4096x512_S_d0_1 h_S_) : (⟨S4096x512, .f32⟩ : BufTy).Contents (Elt F) → (⟨S_, .f32⟩ : BufTy).Contents (Elt F) → (⟨S_, .f32⟩ : BufTy).Contents (Elt F)),
    StableHlo.nullary main_cst_7 (constant S_ .f32 0x3F000000#32),
    StableHlo.binary main_cst_7 main_v52 main_v53 (mulf : (⟨S_, .f32⟩ : BufTy).Contents (Elt F) → (⟨S_, .f32⟩ : BufTy).Contents (Elt F) → (⟨S_, .f32⟩ : BufTy).Contents (Elt F)) ]
abbrev opsEn1_W : List (Ref sig .tc) := [main_call1_v0, main_call1_cst, main_call1_v1, main_v47, main_v48, main_v49, main_v50, main_v51, main_cst_6, main_v52, main_cst_7, main_v53]
instance opsEn1_writes : WritesOnly (opsEn1 (F := F)) opsEn1_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev opsEn2 : List (HloOp τ sig (Elt F)) :=
  [ StableHlo.TRef.binary (.of main_v81 : StableHlo.TRef sig ⟨S4096x512, .f32⟩) (.of main_v81 : StableHlo.TRef sig ⟨S4096x512, .f32⟩) main_call2.v0 mulf,
    StableHlo.TRef.nullary main_call2.cst (constant S_ .f32 0x00000000#32),
    StableHlo.TRef.binary main_call2.v0 main_call2.cst main_call2.v1 (fun x v => Host.reduceAdd x v reducesTo_S4096x512_S_d0_1 h_S_),
    StableHlo.TRef.unary main_call2.v1 main_call2.v2 Host.sqrt,
    StableHlo.unary main_v82 main_v83 (broadcastInDim S4096x512 ![] bcast_S_S4096x512 : (⟨S_, .f32⟩ : BufTy).Contents (Elt F) → (⟨S4096x512, .f32⟩ : BufTy).Contents (Elt F)),
    StableHlo.binary main_v81 main_v83 main_v84 (Host.divf : (⟨S4096x512, .f32⟩ : BufTy).Contents (Elt F) → (⟨S4096x512, .f32⟩ : BufTy).Contents (Elt F) → (⟨S4096x512, .f32⟩ : BufTy).Contents (Elt F)),
    StableHlo.binary main_arg4 main_v84 main_v85 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.binary main_v85 main_v84 main_v86 (mulf : (⟨S4096x512, .f32⟩ : BufTy).Contents (Elt F) → (⟨S4096x512, .f32⟩ : BufTy).Contents (Elt F) → (⟨S4096x512, .f32⟩ : BufTy).Contents (Elt F)),
    StableHlo.nullary main_cst_13 (constant S_ .f32 0x00000000#32),
    StableHlo.binary main_v86 main_cst_13 main_v87 ((fun x v => Host.reduceAdd x v reducesTo_S4096x512_S_d0_1 h_S_) : (⟨S4096x512, .f32⟩ : BufTy).Contents (Elt F) → (⟨S_, .f32⟩ : BufTy).Contents (Elt F) → (⟨S_, .f32⟩ : BufTy).Contents (Elt F)),
    StableHlo.nullary main_cst_14 (constant S_ .f32 0x3F000000#32),
    StableHlo.binary main_cst_14 main_v87 main_v88 (mulf : (⟨S_, .f32⟩ : BufTy).Contents (Elt F) → (⟨S_, .f32⟩ : BufTy).Contents (Elt F) → (⟨S_, .f32⟩ : BufTy).Contents (Elt F)) ]
abbrev opsEn2_W : List (Ref sig .tc) := [main_call2_v0, main_call2_cst, main_call2_v1, main_v82, main_v83, main_v84, main_v85, main_v86, main_cst_13, main_v87, main_cst_14, main_v88]
instance opsEn2_writes : WritesOnly (opsEn2 (F := F)) opsEn2_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev opsEn3 : List (HloOp τ sig (Elt F)) :=
  [ StableHlo.TRef.binary (.of main_v116 : StableHlo.TRef sig ⟨S4096x512, .f32⟩) (.of main_v116 : StableHlo.TRef sig ⟨S4096x512, .f32⟩) main_call3.v0 mulf,
    StableHlo.TRef.nullary main_call3.cst (constant S_ .f32 0x00000000#32),
    StableHlo.TRef.binary main_call3.v0 main_call3.cst main_call3.v1 (fun x v => Host.reduceAdd x v reducesTo_S4096x512_S_d0_1 h_S_),
    StableHlo.TRef.unary main_call3.v1 main_call3.v2 Host.sqrt,
    StableHlo.unary main_v117 main_v118 (broadcastInDim S4096x512 ![] bcast_S_S4096x512 : (⟨S_, .f32⟩ : BufTy).Contents (Elt F) → (⟨S4096x512, .f32⟩ : BufTy).Contents (Elt F)),
    StableHlo.binary main_v116 main_v118 main_v119 (Host.divf : (⟨S4096x512, .f32⟩ : BufTy).Contents (Elt F) → (⟨S4096x512, .f32⟩ : BufTy).Contents (Elt F) → (⟨S4096x512, .f32⟩ : BufTy).Contents (Elt F)),
    StableHlo.binary main_arg4 main_v119 main_v120 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.binary main_v120 main_v119 main_v121 (mulf : (⟨S4096x512, .f32⟩ : BufTy).Contents (Elt F) → (⟨S4096x512, .f32⟩ : BufTy).Contents (Elt F) → (⟨S4096x512, .f32⟩ : BufTy).Contents (Elt F)),
    StableHlo.nullary main_cst_20 (constant S_ .f32 0x00000000#32),
    StableHlo.binary main_v121 main_cst_20 main_v122 ((fun x v => Host.reduceAdd x v reducesTo_S4096x512_S_d0_1 h_S_) : (⟨S4096x512, .f32⟩ : BufTy).Contents (Elt F) → (⟨S_, .f32⟩ : BufTy).Contents (Elt F) → (⟨S_, .f32⟩ : BufTy).Contents (Elt F)),
    StableHlo.nullary main_cst_21 (constant S_ .f32 0x3F000000#32),
    StableHlo.binary main_cst_21 main_v122 main_v123 (mulf : (⟨S_, .f32⟩ : BufTy).Contents (Elt F) → (⟨S_, .f32⟩ : BufTy).Contents (Elt F) → (⟨S_, .f32⟩ : BufTy).Contents (Elt F)) ]
abbrev opsEn3_W : List (Ref sig .tc) := [main_call3_v0, main_call3_cst, main_call3_v1, main_v117, main_v118, main_v119, main_v120, main_v121, main_cst_20, main_v122, main_cst_21, main_v123]
instance opsEn3_writes : WritesOnly (opsEn3 (F := F)) opsEn3_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev opsEn4 : List (HloOp τ sig (Elt F)) :=
  [ StableHlo.TRef.binary (.of main_v151 : StableHlo.TRef sig ⟨S4096x512, .f32⟩) (.of main_v151 : StableHlo.TRef sig ⟨S4096x512, .f32⟩) main_call4.v0 mulf,
    StableHlo.TRef.nullary main_call4.cst (constant S_ .f32 0x00000000#32),
    StableHlo.TRef.binary main_call4.v0 main_call4.cst main_call4.v1 (fun x v => Host.reduceAdd x v reducesTo_S4096x512_S_d0_1 h_S_),
    StableHlo.TRef.unary main_call4.v1 main_call4.v2 Host.sqrt,
    StableHlo.unary main_v152 main_v153 (broadcastInDim S4096x512 ![] bcast_S_S4096x512 : (⟨S_, .f32⟩ : BufTy).Contents (Elt F) → (⟨S4096x512, .f32⟩ : BufTy).Contents (Elt F)),
    StableHlo.binary main_v151 main_v153 main_v154 (Host.divf : (⟨S4096x512, .f32⟩ : BufTy).Contents (Elt F) → (⟨S4096x512, .f32⟩ : BufTy).Contents (Elt F) → (⟨S4096x512, .f32⟩ : BufTy).Contents (Elt F)),
    StableHlo.binary main_arg4 main_v154 main_v155 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.binary main_v155 main_v154 main_v156 (mulf : (⟨S4096x512, .f32⟩ : BufTy).Contents (Elt F) → (⟨S4096x512, .f32⟩ : BufTy).Contents (Elt F) → (⟨S4096x512, .f32⟩ : BufTy).Contents (Elt F)),
    StableHlo.nullary main_cst_27 (constant S_ .f32 0x00000000#32),
    StableHlo.binary main_v156 main_cst_27 main_v157 ((fun x v => Host.reduceAdd x v reducesTo_S4096x512_S_d0_1 h_S_) : (⟨S4096x512, .f32⟩ : BufTy).Contents (Elt F) → (⟨S_, .f32⟩ : BufTy).Contents (Elt F) → (⟨S_, .f32⟩ : BufTy).Contents (Elt F)),
    StableHlo.nullary main_cst_28 (constant S_ .f32 0x3F000000#32),
    StableHlo.binary main_cst_28 main_v157 main_v158 (mulf : (⟨S_, .f32⟩ : BufTy).Contents (Elt F) → (⟨S_, .f32⟩ : BufTy).Contents (Elt F) → (⟨S_, .f32⟩ : BufTy).Contents (Elt F)) ]
abbrev opsEn4_W : List (Ref sig .tc) := [main_call4_v0, main_call4_cst, main_call4_v1, main_v152, main_v153, main_v154, main_v155, main_v156, main_cst_27, main_v157, main_cst_28, main_v158]
instance opsEn4_writes : WritesOnly (opsEn4 (F := F)) opsEn4_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev opsEn5 : List (HloOp τ sig (Elt F)) :=
  [ StableHlo.TRef.binary (.of main_v186 : StableHlo.TRef sig ⟨S4096x512, .f32⟩) (.of main_v186 : StableHlo.TRef sig ⟨S4096x512, .f32⟩) main_call5.v0 mulf,
    StableHlo.TRef.nullary main_call5.cst (constant S_ .f32 0x00000000#32),
    StableHlo.TRef.binary main_call5.v0 main_call5.cst main_call5.v1 (fun x v => Host.reduceAdd x v reducesTo_S4096x512_S_d0_1 h_S_),
    StableHlo.TRef.unary main_call5.v1 main_call5.v2 Host.sqrt,
    StableHlo.unary main_v187 main_v188 (broadcastInDim S4096x512 ![] bcast_S_S4096x512 : (⟨S_, .f32⟩ : BufTy).Contents (Elt F) → (⟨S4096x512, .f32⟩ : BufTy).Contents (Elt F)),
    StableHlo.binary main_v186 main_v188 main_v189 (Host.divf : (⟨S4096x512, .f32⟩ : BufTy).Contents (Elt F) → (⟨S4096x512, .f32⟩ : BufTy).Contents (Elt F) → (⟨S4096x512, .f32⟩ : BufTy).Contents (Elt F)),
    StableHlo.binary main_arg4 main_v189 main_v190 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.binary main_v190 main_v189 main_v191 (mulf : (⟨S4096x512, .f32⟩ : BufTy).Contents (Elt F) → (⟨S4096x512, .f32⟩ : BufTy).Contents (Elt F) → (⟨S4096x512, .f32⟩ : BufTy).Contents (Elt F)),
    StableHlo.nullary main_cst_34 (constant S_ .f32 0x00000000#32),
    StableHlo.binary main_v191 main_cst_34 main_v192 ((fun x v => Host.reduceAdd x v reducesTo_S4096x512_S_d0_1 h_S_) : (⟨S4096x512, .f32⟩ : BufTy).Contents (Elt F) → (⟨S_, .f32⟩ : BufTy).Contents (Elt F) → (⟨S_, .f32⟩ : BufTy).Contents (Elt F)),
    StableHlo.nullary main_cst_35 (constant S_ .f32 0x3F000000#32),
    StableHlo.binary main_cst_35 main_v192 main_v193 (mulf : (⟨S_, .f32⟩ : BufTy).Contents (Elt F) → (⟨S_, .f32⟩ : BufTy).Contents (Elt F) → (⟨S_, .f32⟩ : BufTy).Contents (Elt F)) ]
abbrev opsEn5_W : List (Ref sig .tc) := [main_call5_v0, main_call5_cst, main_call5_v1, main_v187, main_v188, main_v189, main_v190, main_v191, main_cst_34, main_v192, main_cst_35, main_v193]
instance opsEn5_writes : WritesOnly (opsEn5 (F := F)) opsEn5_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev opsEn6 : List (HloOp τ sig (Elt F)) :=
  [ StableHlo.TRef.binary (.of main_v221 : StableHlo.TRef sig ⟨S4096x512, .f32⟩) (.of main_v221 : StableHlo.TRef sig ⟨S4096x512, .f32⟩) main_call6.v0 mulf,
    StableHlo.TRef.nullary main_call6.cst (constant S_ .f32 0x00000000#32),
    StableHlo.TRef.binary main_call6.v0 main_call6.cst main_call6.v1 (fun x v => Host.reduceAdd x v reducesTo_S4096x512_S_d0_1 h_S_),
    StableHlo.TRef.unary main_call6.v1 main_call6.v2 Host.sqrt,
    StableHlo.unary main_v222 main_v223 (broadcastInDim S4096x512 ![] bcast_S_S4096x512 : (⟨S_, .f32⟩ : BufTy).Contents (Elt F) → (⟨S4096x512, .f32⟩ : BufTy).Contents (Elt F)),
    StableHlo.binary main_v221 main_v223 main_v224 (Host.divf : (⟨S4096x512, .f32⟩ : BufTy).Contents (Elt F) → (⟨S4096x512, .f32⟩ : BufTy).Contents (Elt F) → (⟨S4096x512, .f32⟩ : BufTy).Contents (Elt F)),
    StableHlo.binary main_arg4 main_v224 main_v225 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.binary main_v225 main_v224 main_v226 (mulf : (⟨S4096x512, .f32⟩ : BufTy).Contents (Elt F) → (⟨S4096x512, .f32⟩ : BufTy).Contents (Elt F) → (⟨S4096x512, .f32⟩ : BufTy).Contents (Elt F)),
    StableHlo.nullary main_cst_41 (constant S_ .f32 0x00000000#32),
    StableHlo.binary main_v226 main_cst_41 main_v227 ((fun x v => Host.reduceAdd x v reducesTo_S4096x512_S_d0_1 h_S_) : (⟨S4096x512, .f32⟩ : BufTy).Contents (Elt F) → (⟨S_, .f32⟩ : BufTy).Contents (Elt F) → (⟨S_, .f32⟩ : BufTy).Contents (Elt F)),
    StableHlo.nullary main_cst_42 (constant S_ .f32 0x3F000000#32),
    StableHlo.binary main_cst_42 main_v227 main_v228 (mulf : (⟨S_, .f32⟩ : BufTy).Contents (Elt F) → (⟨S_, .f32⟩ : BufTy).Contents (Elt F) → (⟨S_, .f32⟩ : BufTy).Contents (Elt F)) ]
abbrev opsEn6_W : List (Ref sig .tc) := [main_call6_v0, main_call6_cst, main_call6_v1, main_v222, main_v223, main_v224, main_v225, main_v226, main_cst_41, main_v227, main_cst_42, main_v228]
instance opsEn6_writes : WritesOnly (opsEn6 (F := F)) opsEn6_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev opsEn7 : List (HloOp τ sig (Elt F)) :=
  [ StableHlo.TRef.binary (.of main_v256 : StableHlo.TRef sig ⟨S4096x512, .f32⟩) (.of main_v256 : StableHlo.TRef sig ⟨S4096x512, .f32⟩) main_call7.v0 mulf,
    StableHlo.TRef.nullary main_call7.cst (constant S_ .f32 0x00000000#32),
    StableHlo.TRef.binary main_call7.v0 main_call7.cst main_call7.v1 (fun x v => Host.reduceAdd x v reducesTo_S4096x512_S_d0_1 h_S_),
    StableHlo.TRef.unary main_call7.v1 main_call7.v2 Host.sqrt,
    StableHlo.unary main_v257 main_v258 (broadcastInDim S4096x512 ![] bcast_S_S4096x512 : (⟨S_, .f32⟩ : BufTy).Contents (Elt F) → (⟨S4096x512, .f32⟩ : BufTy).Contents (Elt F)),
    StableHlo.binary main_v256 main_v258 main_v259 (Host.divf : (⟨S4096x512, .f32⟩ : BufTy).Contents (Elt F) → (⟨S4096x512, .f32⟩ : BufTy).Contents (Elt F) → (⟨S4096x512, .f32⟩ : BufTy).Contents (Elt F)),
    StableHlo.binary main_arg4 main_v259 main_v260 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.binary main_v260 main_v259 main_v261 (mulf : (⟨S4096x512, .f32⟩ : BufTy).Contents (Elt F) → (⟨S4096x512, .f32⟩ : BufTy).Contents (Elt F) → (⟨S4096x512, .f32⟩ : BufTy).Contents (Elt F)),
    StableHlo.nullary main_cst_48 (constant S_ .f32 0x00000000#32),
    StableHlo.binary main_v261 main_cst_48 main_v262 ((fun x v => Host.reduceAdd x v reducesTo_S4096x512_S_d0_1 h_S_) : (⟨S4096x512, .f32⟩ : BufTy).Contents (Elt F) → (⟨S_, .f32⟩ : BufTy).Contents (Elt F) → (⟨S_, .f32⟩ : BufTy).Contents (Elt F)),
    StableHlo.nullary main_cst_49 (constant S_ .f32 0x3F000000#32),
    StableHlo.binary main_cst_49 main_v262 main_v263 (mulf : (⟨S_, .f32⟩ : BufTy).Contents (Elt F) → (⟨S_, .f32⟩ : BufTy).Contents (Elt F) → (⟨S_, .f32⟩ : BufTy).Contents (Elt F)) ]
abbrev opsEn7_W : List (Ref sig .tc) := [main_call7_v0, main_call7_cst, main_call7_v1, main_v257, main_v258, main_v259, main_v260, main_v261, main_cst_48, main_v262, main_cst_49, main_v263]
instance opsEn7_writes : WritesOnly (opsEn7 (F := F)) opsEn7_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev opsEn8 : List (HloOp τ sig (Elt F)) :=
  [ StableHlo.TRef.binary (.of main_v291 : StableHlo.TRef sig ⟨S4096x512, .f32⟩) (.of main_v291 : StableHlo.TRef sig ⟨S4096x512, .f32⟩) main_call8.v0 mulf,
    StableHlo.TRef.nullary main_call8.cst (constant S_ .f32 0x00000000#32),
    StableHlo.TRef.binary main_call8.v0 main_call8.cst main_call8.v1 (fun x v => Host.reduceAdd x v reducesTo_S4096x512_S_d0_1 h_S_),
    StableHlo.TRef.unary main_call8.v1 main_call8.v2 Host.sqrt,
    StableHlo.unary main_v292 main_v293 (broadcastInDim S4096x512 ![] bcast_S_S4096x512 : (⟨S_, .f32⟩ : BufTy).Contents (Elt F) → (⟨S4096x512, .f32⟩ : BufTy).Contents (Elt F)),
    StableHlo.binary main_v291 main_v293 main_v294 (Host.divf : (⟨S4096x512, .f32⟩ : BufTy).Contents (Elt F) → (⟨S4096x512, .f32⟩ : BufTy).Contents (Elt F) → (⟨S4096x512, .f32⟩ : BufTy).Contents (Elt F)),
    StableHlo.binary main_arg4 main_v294 main_v295 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.binary main_v295 main_v294 main_v296 (mulf : (⟨S4096x512, .f32⟩ : BufTy).Contents (Elt F) → (⟨S4096x512, .f32⟩ : BufTy).Contents (Elt F) → (⟨S4096x512, .f32⟩ : BufTy).Contents (Elt F)),
    StableHlo.nullary main_cst_55 (constant S_ .f32 0x00000000#32),
    StableHlo.binary main_v296 main_cst_55 main_v297 ((fun x v => Host.reduceAdd x v reducesTo_S4096x512_S_d0_1 h_S_) : (⟨S4096x512, .f32⟩ : BufTy).Contents (Elt F) → (⟨S_, .f32⟩ : BufTy).Contents (Elt F) → (⟨S_, .f32⟩ : BufTy).Contents (Elt F)),
    StableHlo.nullary main_cst_56 (constant S_ .f32 0x3F000000#32),
    StableHlo.binary main_cst_56 main_v297 main_v298 (mulf : (⟨S_, .f32⟩ : BufTy).Contents (Elt F) → (⟨S_, .f32⟩ : BufTy).Contents (Elt F) → (⟨S_, .f32⟩ : BufTy).Contents (Elt F)) ]
abbrev opsEn8_W : List (Ref sig .tc) := [main_call8_v0, main_call8_cst, main_call8_v1, main_v292, main_v293, main_v294, main_v295, main_v296, main_cst_55, main_v297, main_cst_56, main_v298]
instance opsEn8_writes : WritesOnly (opsEn8 (F := F)) opsEn8_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev opsDec : List (HloOp τ sig (Elt F)) :=
  [ StableHlo.unary main_arg8 main_v299 ((transpose S512x512 [1, 0] · transposes_S512x512_S512x512_1_0) : (⟨S512x512, .f32⟩ : BufTy).Contents (Elt F) → (⟨S512x512, .f32⟩ : BufTy).Contents (Elt F)),
    StableHlo.binary main_v291 main_v299 main_v300 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.unary main_arg9 main_v301 (broadcastInDim S1x512 ![1] bcast_S512_S1x512_1 : (⟨S512, .f32⟩ : BufTy).Contents (Elt F) → (⟨S1x512, .f32⟩ : BufTy).Contents (Elt F)),
    StableHlo.unary main_v301 main_v302 (broadcastInDim S4096x512 ![0, 1] bcast_S1x512_S4096x512_0_1 : (⟨S1x512, .f32⟩ : BufTy).Contents (Elt F) → (⟨S4096x512, .f32⟩ : BufTy).Contents (Elt F)),
    StableHlo.binary main_v300 main_v302 main_v303 (addf : (⟨S4096x512, .f32⟩ : BufTy).Contents (Elt F) → (⟨S4096x512, .f32⟩ : BufTy).Contents (Elt F) → (⟨S4096x512, .f32⟩ : BufTy).Contents (Elt F)),
    StableHlo.nullary main_cst_57 (constant S_ .f32 0x3C23D70A#32),
    StableHlo.TRef.nullary main_call9.cst (constant S_ .f32 0x00000000#32),
    StableHlo.TRef.unary main_call9.cst main_call9.v0 (broadcastInDim S4096x512 ![] bcast_S_S4096x512),
    StableHlo.TRef.binary (.of main_v303 : StableHlo.TRef sig ⟨S4096x512, .f32⟩) main_call9.v0 main_call9.v1 (cmpf .oge),
    StableHlo.TRef.unary (.of main_cst_57 : StableHlo.TRef sig ⟨S_, .f32⟩) main_call9.v2 id,
    StableHlo.TRef.unary main_call9.v2 main_call9.v3 (broadcastInDim S4096x512 ![] bcast_S_S4096x512),
    StableHlo.TRef.binary main_call9.v3 (.of main_v303 : StableHlo.TRef sig ⟨S4096x512, .f32⟩) main_call9.v4 mulf,
    StableHlo.TRef.ternary main_call9.v1 (.of main_v303 : StableHlo.TRef sig ⟨S4096x512, .f32⟩) main_call9.v4 main_call9.call0.v0 select,
    StableHlo.unary main_arg10 main_v305 ((transpose S512x64 [1, 0] · transposes_S64x512_S512x64_1_0) : (⟨S64x512, .f32⟩ : BufTy).Contents (Elt F) → (⟨S512x64, .f32⟩ : BufTy).Contents (Elt F)),
    StableHlo.binary main_v304 main_v305 main_v306 ((fun l r => Host.dotGeneral dot_S4096x512_S512x64_S4096x64_1_0_0_1_n_n none l r) : (⟨S4096x512, .f32⟩ : BufTy).Contents (Elt F) → (⟨S512x64, .f32⟩ : BufTy).Contents (Elt F) → (⟨S4096x64, .f32⟩ : BufTy).Contents (Elt F)),
    StableHlo.unary main_arg11 main_v307 (broadcastInDim S1x64 ![1] bcast_S64_S1x64_1 : (⟨S64, .f32⟩ : BufTy).Contents (Elt F) → (⟨S1x64, .f32⟩ : BufTy).Contents (Elt F)),
    StableHlo.unary main_v307 main_v308 (broadcastInDim S4096x64 ![0, 1] bcast_S1x64_S4096x64_0_1 : (⟨S1x64, .f32⟩ : BufTy).Contents (Elt F) → (⟨S4096x64, .f32⟩ : BufTy).Contents (Elt F)),
    StableHlo.binary main_v306 main_v308 main_v309 (addf : (⟨S4096x64, .f32⟩ : BufTy).Contents (Elt F) → (⟨S4096x64, .f32⟩ : BufTy).Contents (Elt F) → (⟨S4096x64, .f32⟩ : BufTy).Contents (Elt F)) ]
abbrev opsDec_W : List (Ref sig .tc) := [main_v299, main_v300, main_v301, main_v302, main_v303, main_cst_57, main_call9_cst, main_call9_v0, main_call9_v1, main_call9_v2, main_call9_v3, main_call9_v4, main_v304, main_v305, main_v306, main_v307, main_v308, main_v309]
instance opsDec_writes : WritesOnly (opsDec (F := F)) opsDec_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev opsBc : List (HloOp τ sig (Elt F)) :=
  [ StableHlo.unary main_v18 main_v310 (broadcastInDim S1 ![] bcast_S_S1 : (⟨S_, .f32⟩ : BufTy).Contents (Elt F) → (⟨S1, .f32⟩ : BufTy).Contents (Elt F)),
    StableHlo.unary main_v53 main_v311 (broadcastInDim S1 ![] bcast_S_S1 : (⟨S_, .f32⟩ : BufTy).Contents (Elt F) → (⟨S1, .f32⟩ : BufTy).Contents (Elt F)),
    StableHlo.unary main_v88 main_v312 (broadcastInDim S1 ![] bcast_S_S1 : (⟨S_, .f32⟩ : BufTy).Contents (Elt F) → (⟨S1, .f32⟩ : BufTy).Contents (Elt F)),
    StableHlo.unary main_v123 main_v313 (broadcastInDim S1 ![] bcast_S_S1 : (⟨S_, .f32⟩ : BufTy).Contents (Elt F) → (⟨S1, .f32⟩ : BufTy).Contents (Elt F)),
    StableHlo.unary main_v158 main_v314 (broadcastInDim S1 ![] bcast_S_S1 : (⟨S_, .f32⟩ : BufTy).Contents (Elt F) → (⟨S1, .f32⟩ : BufTy).Contents (Elt F)),
    StableHlo.unary main_v193 main_v315 (broadcastInDim S1 ![] bcast_S_S1 : (⟨S_, .f32⟩ : BufTy).Contents (Elt F) → (⟨S1, .f32⟩ : BufTy).Contents (Elt F)),
    StableHlo.unary main_v228 main_v316 (broadcastInDim S1 ![] bcast_S_S1 : (⟨S_, .f32⟩ : BufTy).Contents (Elt F) → (⟨S1, .f32⟩ : BufTy).Contents (Elt F)),
    StableHlo.unary main_v263 main_v317 (broadcastInDim S1 ![] bcast_S_S1 : (⟨S_, .f32⟩ : BufTy).Contents (Elt F) → (⟨S1, .f32⟩ : BufTy).Contents (Elt F)),
    StableHlo.unary main_v298 main_v318 (broadcastInDim S1 ![] bcast_S_S1 : (⟨S_, .f32⟩ : BufTy).Contents (Elt F) → (⟨S1, .f32⟩ : BufTy).Contents (Elt F)) ]
abbrev opsBc_W : List (Ref sig .tc) := [main_v310, main_v311, main_v312, main_v313, main_v314, main_v315, main_v316, main_v317, main_v318]
instance opsBc_writes : WritesOnly (opsBc (F := F)) opsBc_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev opsCat : List (HloOp τ sig (Elt F)) :=
  [ StableHlo.nary ![main_v310, main_v311, main_v312, main_v313, main_v314, main_v315, main_v316, main_v317, main_v318] main_v319 (fun u => concatenate S9 0 [⟨S1, u 0⟩, ⟨S1, u 1⟩, ⟨S1, u 2⟩, ⟨S1, u 3⟩, ⟨S1, u 4⟩, ⟨S1, u 5⟩, ⟨S1, u 6⟩, ⟨S1, u 7⟩, ⟨S1, u 8⟩] concatenates_S1_S1_S1_S1_S1_S1_S1_S1_S1_S9_d0) ]
abbrev opsCat_W : List (Ref sig .tc) := [main_v319]
instance opsCat_writes : WritesOnly (opsCat (F := F)) opsCat_W where
  sub := by
    simp only [List.Forall]
    exact (by simp only [nullary_writes, unary_writes, binary_writes, ternary_writes, reshape_writes, nary_writes, Finset.singleton_subset_iff, List.mem_toFinset]; exact List.mem_map_of_mem (by decide))

end Cert.RefValues

end
-- ==== Proof.RefOpsS1.lean ====
import proofs.«158944_j64613488001249_1_alg».proof.Proof.RefOpsLib

/-! Heun steps 1 to 4 of the reference as literal lists of operations. Each list with the references its operations write. -/

noncomputable section

namespace Cert.RefValues

open Cert.ReferenceIdeal Idealize.ShloMosaic Idealize.ShloMosaic.TcCoe Idealize.SL.Sem Idealize.ShloMosaic.StableHlo
open Cert.ReferenceIdeal.Facts₀

variable {F : FTy → Type} [FloatOps F] [Facts]

abbrev opsStep1 : List (HloOp τ sig (Elt F)) :=
  [ StableHlo.unary main_v6 main_v19 (broadcastInDim S4096x1 ![0] bcast_S4096_S4096x1_0 : (⟨S4096, .f32⟩ : BufTy).Contents (Elt F) → (⟨S4096x1, .f32⟩ : BufTy).Contents (Elt F)),
    StableHlo.binary main_arg3 main_v11 main_v20 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v19 main_v21 (broadcastInDim S4096x512 ![0, 1] bcast_S4096x1_S4096x512_0_1 : (⟨S4096x1, .f32⟩ : BufTy).Contents (Elt F) → (⟨S4096x512, .f32⟩ : BufTy).Contents (Elt F)),
    StableHlo.binary main_v21 main_v20 main_v22 (mulf : (⟨S4096x512, .f32⟩ : BufTy).Contents (Elt F) → (⟨S4096x512, .f32⟩ : BufTy).Contents (Elt F) → (⟨S4096x512, .f32⟩ : BufTy).Contents (Elt F)),
    StableHlo.binary main_v22 main_arg7 main_v23 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.binary main_arg1 main_v23 main_v24 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.nullary main_cst_1 (constant S_ .f32 0xBF800000#32),
    StableHlo.unary main_cst_1 main_v25 (broadcastInDim S4096x512 ![] bcast_S_S4096x512 : (⟨S_, .f32⟩ : BufTy).Contents (Elt F) → (⟨S4096x512, .f32⟩ : BufTy).Contents (Elt F)),
    StableHlo.binary main_v25 main_v24 main_v26 (mulf : (⟨S4096x512, .f32⟩ : BufTy).Contents (Elt F) → (⟨S4096x512, .f32⟩ : BufTy).Contents (Elt F) → (⟨S4096x512, .f32⟩ : BufTy).Contents (Elt F)),
    StableHlo.nullary main_cst_2 (constant S_ .f32 0x3F800000#32),
    StableHlo.binary main_v0 main_cst_2 main_v27 (mulf : (⟨S_, .f32⟩ : BufTy).Contents (Elt F) → (⟨S_, .f32⟩ : BufTy).Contents (Elt F) → (⟨S_, .f32⟩ : BufTy).Contents (Elt F)),
    StableHlo.unary main_v6 main_v28 (broadcastInDim S4096x1 ![0] bcast_S4096_S4096x1_0 : (⟨S4096, .f32⟩ : BufTy).Contents (Elt F) → (⟨S4096x1, .f32⟩ : BufTy).Contents (Elt F)),
    StableHlo.binary main_arg3 main_v26 main_v29 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v28 main_v30 (broadcastInDim S4096x512 ![0, 1] bcast_S4096x1_S4096x512_0_1 : (⟨S4096x1, .f32⟩ : BufTy).Contents (Elt F) → (⟨S4096x512, .f32⟩ : BufTy).Contents (Elt F)),
    StableHlo.binary main_v30 main_v29 main_v31 (mulf : (⟨S4096x512, .f32⟩ : BufTy).Contents (Elt F) → (⟨S4096x512, .f32⟩ : BufTy).Contents (Elt F) → (⟨S4096x512, .f32⟩ : BufTy).Contents (Elt F)),
    StableHlo.binary main_v31 main_arg7 main_v32 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.binary main_arg1 main_v32 main_v33 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v27 main_v34 (broadcastInDim S4096x512 ![] bcast_S_S4096x512 : (⟨S_, .f32⟩ : BufTy).Contents (Elt F) → (⟨S4096x512, .f32⟩ : BufTy).Contents (Elt F)),
    StableHlo.binary main_v34 main_v33 main_v35 (mulf : (⟨S4096x512, .f32⟩ : BufTy).Contents (Elt F) → (⟨S4096x512, .f32⟩ : BufTy).Contents (Elt F) → (⟨S4096x512, .f32⟩ : BufTy).Contents (Elt F)),
    StableHlo.binary main_v24 main_v35 main_v36 (addf : (⟨S4096x512, .f32⟩ : BufTy).Contents (Elt F) → (⟨S4096x512, .f32⟩ : BufTy).Contents (Elt F) → (⟨S4096x512, .f32⟩ : BufTy).Contents (Elt F)),
    StableHlo.nullary main_cst_3 (constant S_ .f32 0xBF800000#32),
    StableHlo.unary main_cst_3 main_v37 (broadcastInDim S4096x512 ![] bcast_S_S4096x512 : (⟨S_, .f32⟩ : BufTy).Contents (Elt F) → (⟨S4096x512, .f32⟩ : BufTy).Contents (Elt F)),
    StableHlo.binary main_v37 main_v36 main_v38 (mulf : (⟨S4096x512, .f32⟩ : BufTy).Contents (Elt F) → (⟨S4096x512, .f32⟩ : BufTy).Contents (Elt F) → (⟨S4096x512, .f32⟩ : BufTy).Contents (Elt F)),
    StableHlo.nullary main_cst_4 (constant S_ .f32 0x3F000000#32),
    StableHlo.unary main_cst_4 main_v39 (broadcastInDim S4096x512 ![] bcast_S_S4096x512 : (⟨S_, .f32⟩ : BufTy).Contents (Elt F) → (⟨S4096x512, .f32⟩ : BufTy).Contents (Elt F)),
    StableHlo.binary main_v39 main_v26 main_v40 (mulf : (⟨S4096x512, .f32⟩ : BufTy).Contents (Elt F) → (⟨S4096x512, .f32⟩ : BufTy).Contents (Elt F) → (⟨S4096x512, .f32⟩ : BufTy).Contents (Elt F)),
    StableHlo.nullary main_cst_5 (constant S_ .f32 0x3F000000#32),
    StableHlo.unary main_cst_5 main_v41 (broadcastInDim S4096x512 ![] bcast_S_S4096x512 : (⟨S_, .f32⟩ : BufTy).Contents (Elt F) → (⟨S4096x512, .f32⟩ : BufTy).Contents (Elt F)),
    StableHlo.binary main_v41 main_v38 main_v42 (mulf : (⟨S4096x512, .f32⟩ : BufTy).Contents (Elt F) → (⟨S4096x512, .f32⟩ : BufTy).Contents (Elt F) → (⟨S4096x512, .f32⟩ : BufTy).Contents (Elt F)),
    StableHlo.binary main_v40 main_v42 main_v43 (addf : (⟨S4096x512, .f32⟩ : BufTy).Contents (Elt F) → (⟨S4096x512, .f32⟩ : BufTy).Contents (Elt F) → (⟨S4096x512, .f32⟩ : BufTy).Contents (Elt F)),
    StableHlo.unary main_v0 main_v44 (broadcastInDim S4096x512 ![] bcast_S_S4096x512 : (⟨S_, .f32⟩ : BufTy).Contents (Elt F) → (⟨S4096x512, .f32⟩ : BufTy).Contents (Elt F)),
    StableHlo.binary main_v44 main_v43 main_v45 (mulf : (⟨S4096x512, .f32⟩ : BufTy).Contents (Elt F) → (⟨S4096x512, .f32⟩ : BufTy).Contents (Elt F) → (⟨S4096x512, .f32⟩ : BufTy).Contents (Elt F)),
    StableHlo.binary main_v11 main_v45 main_v46 (addf : (⟨S4096x512, .f32⟩ : BufTy).Contents (Elt F) → (⟨S4096x512, .f32⟩ : BufTy).Contents (Elt F) → (⟨S4096x512, .f32⟩ : BufTy).Contents (Elt F)) ]
abbrev opsStep1_W : List (Ref sig .tc) := [main_v19, main_v20, main_v21, main_v22, main_v23, main_v24, main_cst_1, main_v25, main_v26, main_cst_2, main_v27, main_v28, main_v29, main_v30, main_v31, main_v32, main_v33, main_v34, main_v35, main_v36, main_cst_3, main_v37, main_v38, main_cst_4, main_v39, main_v40, main_cst_5, main_v41, main_v42, main_v43, main_v44, main_v45, main_v46]
instance opsStep1_writes : WritesOnly (opsStep1 (F := F)) opsStep1_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev opsStep2 : List (HloOp τ sig (Elt F)) :=
  [ StableHlo.unary main_v6 main_v54 (broadcastInDim S4096x1 ![0] bcast_S4096_S4096x1_0 : (⟨S4096, .f32⟩ : BufTy).Contents (Elt F) → (⟨S4096x1, .f32⟩ : BufTy).Contents (Elt F)),
    StableHlo.binary main_arg3 main_v46 main_v55 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v54 main_v56 (broadcastInDim S4096x512 ![0, 1] bcast_S4096x1_S4096x512_0_1 : (⟨S4096x1, .f32⟩ : BufTy).Contents (Elt F) → (⟨S4096x512, .f32⟩ : BufTy).Contents (Elt F)),
    StableHlo.binary main_v56 main_v55 main_v57 (mulf : (⟨S4096x512, .f32⟩ : BufTy).Contents (Elt F) → (⟨S4096x512, .f32⟩ : BufTy).Contents (Elt F) → (⟨S4096x512, .f32⟩ : BufTy).Contents (Elt F)),
    StableHlo.binary main_v57 main_arg7 main_v58 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.binary main_arg1 main_v58 main_v59 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.nullary main_cst_8 (constant S_ .f32 0xBF800000#32),
    StableHlo.unary main_cst_8 main_v60 (broadcastInDim S4096x512 ![] bcast_S_S4096x512 : (⟨S_, .f32⟩ : BufTy).Contents (Elt F) → (⟨S4096x512, .f32⟩ : BufTy).Contents (Elt F)),
    StableHlo.binary main_v60 main_v59 main_v61 (mulf : (⟨S4096x512, .f32⟩ : BufTy).Contents (Elt F) → (⟨S4096x512, .f32⟩ : BufTy).Contents (Elt F) → (⟨S4096x512, .f32⟩ : BufTy).Contents (Elt F)),
    StableHlo.nullary main_cst_9 (constant S_ .f32 0x3F800000#32),
    StableHlo.binary main_v0 main_cst_9 main_v62 (mulf : (⟨S_, .f32⟩ : BufTy).Contents (Elt F) → (⟨S_, .f32⟩ : BufTy).Contents (Elt F) → (⟨S_, .f32⟩ : BufTy).Contents (Elt F)),
    StableHlo.unary main_v6 main_v63 (broadcastInDim S4096x1 ![0] bcast_S4096_S4096x1_0 : (⟨S4096, .f32⟩ : BufTy).Contents (Elt F) → (⟨S4096x1, .f32⟩ : BufTy).Contents (Elt F)),
    StableHlo.binary main_arg3 main_v61 main_v64 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v63 main_v65 (broadcastInDim S4096x512 ![0, 1] bcast_S4096x1_S4096x512_0_1 : (⟨S4096x1, .f32⟩ : BufTy).Contents (Elt F) → (⟨S4096x512, .f32⟩ : BufTy).Contents (Elt F)),
    StableHlo.binary main_v65 main_v64 main_v66 (mulf : (⟨S4096x512, .f32⟩ : BufTy).Contents (Elt F) → (⟨S4096x512, .f32⟩ : BufTy).Contents (Elt F) → (⟨S4096x512, .f32⟩ : BufTy).Contents (Elt F)),
    StableHlo.binary main_v66 main_arg7 main_v67 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.binary main_arg1 main_v67 main_v68 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v62 main_v69 (broadcastInDim S4096x512 ![] bcast_S_S4096x512 : (⟨S_, .f32⟩ : BufTy).Contents (Elt F) → (⟨S4096x512, .f32⟩ : BufTy).Contents (Elt F)),
    StableHlo.binary main_v69 main_v68 main_v70 (mulf : (⟨S4096x512, .f32⟩ : BufTy).Contents (Elt F) → (⟨S4096x512, .f32⟩ : BufTy).Contents (Elt F) → (⟨S4096x512, .f32⟩ : BufTy).Contents (Elt F)),
    StableHlo.binary main_v59 main_v70 main_v71 (addf : (⟨S4096x512, .f32⟩ : BufTy).Contents (Elt F) → (⟨S4096x512, .f32⟩ : BufTy).Contents (Elt F) → (⟨S4096x512, .f32⟩ : BufTy).Contents (Elt F)),
    StableHlo.nullary main_cst_10 (constant S_ .f32 0xBF800000#32),
    StableHlo.unary main_cst_10 main_v72 (broadcastInDim S4096x512 ![] bcast_S_S4096x512 : (⟨S_, .f32⟩ : BufTy).Contents (Elt F) → (⟨S4096x512, .f32⟩ : BufTy).Contents (Elt F)),
    StableHlo.binary main_v72 main_v71 main_v73 (mulf : (⟨S4096x512, .f32⟩ : BufTy).Contents (Elt F) → (⟨S4096x512, .f32⟩ : BufTy).Contents (Elt F) → (⟨S4096x512, .f32⟩ : BufTy).Contents (Elt F)),
    StableHlo.nullary main_cst_11 (constant S_ .f32 0x3F000000#32),
    StableHlo.unary main_cst_11 main_v74 (broadcastInDim S4096x512 ![] bcast_S_S4096x512 : (⟨S_, .f32⟩ : BufTy).Contents (Elt F) → (⟨S4096x512, .f32⟩ : BufTy).Contents (Elt F)),
    StableHlo.binary main_v74 main_v61 main_v75 (mulf : (⟨S4096x512, .f32⟩ : BufTy).Contents (Elt F) → (⟨S4096x512, .f32⟩ : BufTy).Contents (Elt F) → (⟨S4096x512, .f32⟩ : BufTy).Contents (Elt F)),
    StableHlo.nullary main_cst_12 (constant S_ .f32 0x3F000000#32),
    StableHlo.unary main_cst_12 main_v76 (broadcastInDim S4096x512 ![] bcast_S_S4096x512 : (⟨S_, .f32⟩ : BufTy).Contents (Elt F) → (⟨S4096x512, .f32⟩ : BufTy).Contents (Elt F)),
    StableHlo.binary main_v76 main_v73 main_v77 (mulf : (⟨S4096x512, .f32⟩ : BufTy).Contents (Elt F) → (⟨S4096x512, .f32⟩ : BufTy).Contents (Elt F) → (⟨S4096x512, .f32⟩ : BufTy).Contents (Elt F)),
    StableHlo.binary main_v75 main_v77 main_v78 (addf : (⟨S4096x512, .f32⟩ : BufTy).Contents (Elt F) → (⟨S4096x512, .f32⟩ : BufTy).Contents (Elt F) → (⟨S4096x512, .f32⟩ : BufTy).Contents (Elt F)),
    StableHlo.unary main_v0 main_v79 (broadcastInDim S4096x512 ![] bcast_S_S4096x512 : (⟨S_, .f32⟩ : BufTy).Contents (Elt F) → (⟨S4096x512, .f32⟩ : BufTy).Contents (Elt F)),
    StableHlo.binary main_v79 main_v78 main_v80 (mulf : (⟨S4096x512, .f32⟩ : BufTy).Contents (Elt F) → (⟨S4096x512, .f32⟩ : BufTy).Contents (Elt F) → (⟨S4096x512, .f32⟩ : BufTy).Contents (Elt F)),
    StableHlo.binary main_v46 main_v80 main_v81 (addf : (⟨S4096x512, .f32⟩ : BufTy).Contents (Elt F) → (⟨S4096x512, .f32⟩ : BufTy).Contents (Elt F) → (⟨S4096x512, .f32⟩ : BufTy).Contents (Elt F)) ]
abbrev opsStep2_W : List (Ref sig .tc) := [main_v54, main_v55, main_v56, main_v57, main_v58, main_v59, main_cst_8, main_v60, main_v61, main_cst_9, main_v62, main_v63, main_v64, main_v65, main_v66, main_v67, main_v68, main_v69, main_v70, main_v71, main_cst_10, main_v72, main_v73, main_cst_11, main_v74, main_v75, main_cst_12, main_v76, main_v77, main_v78, main_v79, main_v80, main_v81]
instance opsStep2_writes : WritesOnly (opsStep2 (F := F)) opsStep2_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev opsStep3 : List (HloOp τ sig (Elt F)) :=
  [ StableHlo.unary main_v6 main_v89 (broadcastInDim S4096x1 ![0] bcast_S4096_S4096x1_0 : (⟨S4096, .f32⟩ : BufTy).Contents (Elt F) → (⟨S4096x1, .f32⟩ : BufTy).Contents (Elt F)),
    StableHlo.binary main_arg3 main_v81 main_v90 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v89 main_v91 (broadcastInDim S4096x512 ![0, 1] bcast_S4096x1_S4096x512_0_1 : (⟨S4096x1, .f32⟩ : BufTy).Contents (Elt F) → (⟨S4096x512, .f32⟩ : BufTy).Contents (Elt F)),
    StableHlo.binary main_v91 main_v90 main_v92 (mulf : (⟨S4096x512, .f32⟩ : BufTy).Contents (Elt F) → (⟨S4096x512, .f32⟩ : BufTy).Contents (Elt F) → (⟨S4096x512, .f32⟩ : BufTy).Contents (Elt F)),
    StableHlo.binary main_v92 main_arg7 main_v93 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.binary main_arg1 main_v93 main_v94 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.nullary main_cst_15 (constant S_ .f32 0xBF800000#32),
    StableHlo.unary main_cst_15 main_v95 (broadcastInDim S4096x512 ![] bcast_S_S4096x512 : (⟨S_, .f32⟩ : BufTy).Contents (Elt F) → (⟨S4096x512, .f32⟩ : BufTy).Contents (Elt F)),
    StableHlo.binary main_v95 main_v94 main_v96 (mulf : (⟨S4096x512, .f32⟩ : BufTy).Contents (Elt F) → (⟨S4096x512, .f32⟩ : BufTy).Contents (Elt F) → (⟨S4096x512, .f32⟩ : BufTy).Contents (Elt F)),
    StableHlo.nullary main_cst_16 (constant S_ .f32 0x3F800000#32),
    StableHlo.binary main_v0 main_cst_16 main_v97 (mulf : (⟨S_, .f32⟩ : BufTy).Contents (Elt F) → (⟨S_, .f32⟩ : BufTy).Contents (Elt F) → (⟨S_, .f32⟩ : BufTy).Contents (Elt F)),
    StableHlo.unary main_v6 main_v98 (broadcastInDim S4096x1 ![0] bcast_S4096_S4096x1_0 : (⟨S4096, .f32⟩ : BufTy).Contents (Elt F) → (⟨S4096x1, .f32⟩ : BufTy).Contents (Elt F)),
    StableHlo.binary main_arg3 main_v96 main_v99 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v98 main_v100 (broadcastInDim S4096x512 ![0, 1] bcast_S4096x1_S4096x512_0_1 : (⟨S4096x1, .f32⟩ : BufTy).Contents (Elt F) → (⟨S4096x512, .f32⟩ : BufTy).Contents (Elt F)),
    StableHlo.binary main_v100 main_v99 main_v101 (mulf : (⟨S4096x512, .f32⟩ : BufTy).Contents (Elt F) → (⟨S4096x512, .f32⟩ : BufTy).Contents (Elt F) → (⟨S4096x512, .f32⟩ : BufTy).Contents (Elt F)),
    StableHlo.binary main_v101 main_arg7 main_v102 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.binary main_arg1 main_v102 main_v103 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v97 main_v104 (broadcastInDim S4096x512 ![] bcast_S_S4096x512 : (⟨S_, .f32⟩ : BufTy).Contents (Elt F) → (⟨S4096x512, .f32⟩ : BufTy).Contents (Elt F)),
    StableHlo.binary main_v104 main_v103 main_v105 (mulf : (⟨S4096x512, .f32⟩ : BufTy).Contents (Elt F) → (⟨S4096x512, .f32⟩ : BufTy).Contents (Elt F) → (⟨S4096x512, .f32⟩ : BufTy).Contents (Elt F)),
    StableHlo.binary main_v94 main_v105 main_v106 (addf : (⟨S4096x512, .f32⟩ : BufTy).Contents (Elt F) → (⟨S4096x512, .f32⟩ : BufTy).Contents (Elt F) → (⟨S4096x512, .f32⟩ : BufTy).Contents (Elt F)),
    StableHlo.nullary main_cst_17 (constant S_ .f32 0xBF800000#32),
    StableHlo.unary main_cst_17 main_v107 (broadcastInDim S4096x512 ![] bcast_S_S4096x512 : (⟨S_, .f32⟩ : BufTy).Contents (Elt F) → (⟨S4096x512, .f32⟩ : BufTy).Contents (Elt F)),
    StableHlo.binary main_v107 main_v106 main_v108 (mulf : (⟨S4096x512, .f32⟩ : BufTy).Contents (Elt F) → (⟨S4096x512, .f32⟩ : BufTy).Contents (Elt F) → (⟨S4096x512, .f32⟩ : BufTy).Contents (Elt F)),
    StableHlo.nullary main_cst_18 (constant S_ .f32 0x3F000000#32),
    StableHlo.unary main_cst_18 main_v109 (broadcastInDim S4096x512 ![] bcast_S_S4096x512 : (⟨S_, .f32⟩ : BufTy).Contents (Elt F) → (⟨S4096x512, .f32⟩ : BufTy).Contents (Elt F)),
    StableHlo.binary main_v109 main_v96 main_v110 (mulf : (⟨S4096x512, .f32⟩ : BufTy).Contents (Elt F) → (⟨S4096x512, .f32⟩ : BufTy).Contents (Elt F) → (⟨S4096x512, .f32⟩ : BufTy).Contents (Elt F)),
    StableHlo.nullary main_cst_19 (constant S_ .f32 0x3F000000#32),
    StableHlo.unary main_cst_19 main_v111 (broadcastInDim S4096x512 ![] bcast_S_S4096x512 : (⟨S_, .f32⟩ : BufTy).Contents (Elt F) → (⟨S4096x512, .f32⟩ : BufTy).Contents (Elt F)),
    StableHlo.binary main_v111 main_v108 main_v112 (mulf : (⟨S4096x512, .f32⟩ : BufTy).Contents (Elt F) → (⟨S4096x512, .f32⟩ : BufTy).Contents (Elt F) → (⟨S4096x512, .f32⟩ : BufTy).Contents (Elt F)),
    StableHlo.binary main_v110 main_v112 main_v113 (addf : (⟨S4096x512, .f32⟩ : BufTy).Contents (Elt F) → (⟨S4096x512, .f32⟩ : BufTy).Contents (Elt F) → (⟨S4096x512, .f32⟩ : BufTy).Contents (Elt F)),
    StableHlo.unary main_v0 main_v114 (broadcastInDim S4096x512 ![] bcast_S_S4096x512 : (⟨S_, .f32⟩ : BufTy).Contents (Elt F) → (⟨S4096x512, .f32⟩ : BufTy).Contents (Elt F)),
    StableHlo.binary main_v114 main_v113 main_v115 (mulf : (⟨S4096x512, .f32⟩ : BufTy).Contents (Elt F) → (⟨S4096x512, .f32⟩ : BufTy).Contents (Elt F) → (⟨S4096x512, .f32⟩ : BufTy).Contents (Elt F)),
    StableHlo.binary main_v81 main_v115 main_v116 (addf : (⟨S4096x512, .f32⟩ : BufTy).Contents (Elt F) → (⟨S4096x512, .f32⟩ : BufTy).Contents (Elt F) → (⟨S4096x512, .f32⟩ : BufTy).Contents (Elt F)) ]
abbrev opsStep3_W : List (Ref sig .tc) := [main_v89, main_v90, main_v91, main_v92, main_v93, main_v94, main_cst_15, main_v95, main_v96, main_cst_16, main_v97, main_v98, main_v99, main_v100, main_v101, main_v102, main_v103, main_v104, main_v105, main_v106, main_cst_17, main_v107, main_v108, main_cst_18, main_v109, main_v110, main_cst_19, main_v111, main_v112, main_v113, main_v114, main_v115, main_v116]
instance opsStep3_writes : WritesOnly (opsStep3 (F := F)) opsStep3_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev opsStep4 : List (HloOp τ sig (Elt F)) :=
  [ StableHlo.unary main_v6 main_v124 (broadcastInDim S4096x1 ![0] bcast_S4096_S4096x1_0 : (⟨S4096, .f32⟩ : BufTy).Contents (Elt F) → (⟨S4096x1, .f32⟩ : BufTy).Contents (Elt F)),
    StableHlo.binary main_arg3 main_v116 main_v125 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v124 main_v126 (broadcastInDim S4096x512 ![0, 1] bcast_S4096x1_S4096x512_0_1 : (⟨S4096x1, .f32⟩ : BufTy).Contents (Elt F) → (⟨S4096x512, .f32⟩ : BufTy).Contents (Elt F)),
    StableHlo.binary main_v126 main_v125 main_v127 (mulf : (⟨S4096x512, .f32⟩ : BufTy).Contents (Elt F) → (⟨S4096x512, .f32⟩ : BufTy).Contents (Elt F) → (⟨S4096x512, .f32⟩ : BufTy).Contents (Elt F)),
    StableHlo.binary main_v127 main_arg7 main_v128 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.binary main_arg1 main_v128 main_v129 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.nullary main_cst_22 (constant S_ .f32 0xBF800000#32),
    StableHlo.unary main_cst_22 main_v130 (broadcastInDim S4096x512 ![] bcast_S_S4096x512 : (⟨S_, .f32⟩ : BufTy).Contents (Elt F) → (⟨S4096x512, .f32⟩ : BufTy).Contents (Elt F)),
    StableHlo.binary main_v130 main_v129 main_v131 (mulf : (⟨S4096x512, .f32⟩ : BufTy).Contents (Elt F) → (⟨S4096x512, .f32⟩ : BufTy).Contents (Elt F) → (⟨S4096x512, .f32⟩ : BufTy).Contents (Elt F)),
    StableHlo.nullary main_cst_23 (constant S_ .f32 0x3F800000#32),
    StableHlo.binary main_v0 main_cst_23 main_v132 (mulf : (⟨S_, .f32⟩ : BufTy).Contents (Elt F) → (⟨S_, .f32⟩ : BufTy).Contents (Elt F) → (⟨S_, .f32⟩ : BufTy).Contents (Elt F)),
    StableHlo.unary main_v6 main_v133 (broadcastInDim S4096x1 ![0] bcast_S4096_S4096x1_0 : (⟨S4096, .f32⟩ : BufTy).Contents (Elt F) → (⟨S4096x1, .f32⟩ : BufTy).Contents (Elt F)),
    StableHlo.binary main_arg3 main_v131 main_v134 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v133 main_v135 (broadcastInDim S4096x512 ![0, 1] bcast_S4096x1_S4096x512_0_1 : (⟨S4096x1, .f32⟩ : BufTy).Contents (Elt F) → (⟨S4096x512, .f32⟩ : BufTy).Contents (Elt F)),
    StableHlo.binary main_v135 main_v134 main_v136 (mulf : (⟨S4096x512, .f32⟩ : BufTy).Contents (Elt F) → (⟨S4096x512, .f32⟩ : BufTy).Contents (Elt F) → (⟨S4096x512, .f32⟩ : BufTy).Contents (Elt F)),
    StableHlo.binary main_v136 main_arg7 main_v137 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.binary main_arg1 main_v137 main_v138 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v132 main_v139 (broadcastInDim S4096x512 ![] bcast_S_S4096x512 : (⟨S_, .f32⟩ : BufTy).Contents (Elt F) → (⟨S4096x512, .f32⟩ : BufTy).Contents (Elt F)),
    StableHlo.binary main_v139 main_v138 main_v140 (mulf : (⟨S4096x512, .f32⟩ : BufTy).Contents (Elt F) → (⟨S4096x512, .f32⟩ : BufTy).Contents (Elt F) → (⟨S4096x512, .f32⟩ : BufTy).Contents (Elt F)),
    StableHlo.binary main_v129 main_v140 main_v141 (addf : (⟨S4096x512, .f32⟩ : BufTy).Contents (Elt F) → (⟨S4096x512, .f32⟩ : BufTy).Contents (Elt F) → (⟨S4096x512, .f32⟩ : BufTy).Contents (Elt F)),
    StableHlo.nullary main_cst_24 (constant S_ .f32 0xBF800000#32),
    StableHlo.unary main_cst_24 main_v142 (broadcastInDim S4096x512 ![] bcast_S_S4096x512 : (⟨S_, .f32⟩ : BufTy).Contents (Elt F) → (⟨S4096x512, .f32⟩ : BufTy).Contents (Elt F)),
    StableHlo.binary main_v142 main_v141 main_v143 (mulf : (⟨S4096x512, .f32⟩ : BufTy).Contents (Elt F) → (⟨S4096x512, .f32⟩ : BufTy).Contents (Elt F) → (⟨S4096x512, .f32⟩ : BufTy).Contents (Elt F)),
    StableHlo.nullary main_cst_25 (constant S_ .f32 0x3F000000#32),
    StableHlo.unary main_cst_25 main_v144 (broadcastInDim S4096x512 ![] bcast_S_S4096x512 : (⟨S_, .f32⟩ : BufTy).Contents (Elt F) → (⟨S4096x512, .f32⟩ : BufTy).Contents (Elt F)),
    StableHlo.binary main_v144 main_v131 main_v145 (mulf : (⟨S4096x512, .f32⟩ : BufTy).Contents (Elt F) → (⟨S4096x512, .f32⟩ : BufTy).Contents (Elt F) → (⟨S4096x512, .f32⟩ : BufTy).Contents (Elt F)),
    StableHlo.nullary main_cst_26 (constant S_ .f32 0x3F000000#32),
    StableHlo.unary main_cst_26 main_v146 (broadcastInDim S4096x512 ![] bcast_S_S4096x512 : (⟨S_, .f32⟩ : BufTy).Contents (Elt F) → (⟨S4096x512, .f32⟩ : BufTy).Contents (Elt F)),
    StableHlo.binary main_v146 main_v143 main_v147 (mulf : (⟨S4096x512, .f32⟩ : BufTy).Contents (Elt F) → (⟨S4096x512, .f32⟩ : BufTy).Contents (Elt F) → (⟨S4096x512, .f32⟩ : BufTy).Contents (Elt F)),
    StableHlo.binary main_v145 main_v147 main_v148 (addf : (⟨S4096x512, .f32⟩ : BufTy).Contents (Elt F) → (⟨S4096x512, .f32⟩ : BufTy).Contents (Elt F) → (⟨S4096x512, .f32⟩ : BufTy).Contents (Elt F)),
    StableHlo.unary main_v0 main_v149 (broadcastInDim S4096x512 ![] bcast_S_S4096x512 : (⟨S_, .f32⟩ : BufTy).Contents (Elt F) → (⟨S4096x512, .f32⟩ : BufTy).Contents (Elt F)),
    StableHlo.binary main_v149 main_v148 main_v150 (mulf : (⟨S4096x512, .f32⟩ : BufTy).Contents (Elt F) → (⟨S4096x512, .f32⟩ : BufTy).Contents (Elt F) → (⟨S4096x512, .f32⟩ : BufTy).Contents (Elt F)),
    StableHlo.binary main_v116 main_v150 main_v151 (addf : (⟨S4096x512, .f32⟩ : BufTy).Contents (Elt F) → (⟨S4096x512, .f32⟩ : BufTy).Contents (Elt F) → (⟨S4096x512, .f32⟩ : BufTy).Contents (Elt F)) ]
abbrev opsStep4_W : List (Ref sig .tc) := [main_v124, main_v125, main_v126, main_v127, main_v128, main_v129, main_cst_22, main_v130, main_v131, main_cst_23, main_v132, main_v133, main_v134, main_v135, main_v136, main_v137, main_v138, main_v139, main_v140, main_v141, main_cst_24, main_v142, main_v143, main_cst_25, main_v144, main_v145, main_cst_26, main_v146, main_v147, main_v148, main_v149, main_v150, main_v151]
instance opsStep4_writes : WritesOnly (opsStep4 (F := F)) opsStep4_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

end Cert.RefValues

end
-- ==== Proof.RefStage.lean ====
import proofs.«158944_j64613488001249_1_alg».proof.Proof.Spec
import proofs.«158944_j64613488001249_1_alg».proof.Proof.RefOpsE
import proofs.«158944_j64613488001249_1_alg».proof.Proof.RefOpsS1

/-! The reference's stages read in the specification's terms, for any valuation the stage starts from.

A stage is a list of operations; what one buffer holds after it is the composition of the operations'
functions over what the stage read. Read at the result of each stage, that composition is the specification's
function of the same name: the prelude leaves the scalar step size, the shifted spectrum and the encoded
state; an energy stage leaves the energy of the state it read; a step leaves Heun's step of it; the decoder
its two layers; the last two stages the nine energies as one array. Every stage after the prelude reads,
besides the state, only arrays that no stage writes and the prelude's two results: a valuation holding them
is called good, and stays good through every stage. -/

noncomputable section

namespace Cert.RefValues

open Cert.ReferenceIdeal Idealize.ShloMosaic Idealize.ShloMosaic.TcCoe Idealize.SL.Sem Idealize.ShloMosaic.StableHlo
open Cert.ReferenceIdeal.Facts₀

variable {F : FTy → Type} [FloatOps F] [Facts]

/-! ## What the stages after the prelude read besides the state -/

/-- The fifteen argument arrays as a valuation holds them. -/
def argsAt (V : Valuation τ sig (Elt F)) : Spec.Args F where
  x := V (Proc.devRef .tc main_arg0)
  U := V (Proc.devRef .tc main_arg1)
  S := V (Proc.devRef .tc main_arg2)
  Vh := V (Proc.devRef .tc main_arg3)
  snl := V (Proc.devRef .tc main_arg4)
  enc_w := V (Proc.devRef .tc main_arg5)
  enc_b := V (Proc.devRef .tc main_arg6)
  W := V (Proc.devRef .tc main_arg7)
  dec_w0 := V (Proc.devRef .tc main_arg8)
  dec_b0 := V (Proc.devRef .tc main_arg9)
  dec_w1 := V (Proc.devRef .tc main_arg10)
  dec_b1 := V (Proc.devRef .tc main_arg11)
  shift := V (Proc.devRef .tc main_arg12)
  expo := V (Proc.devRef .tc main_arg13)
  step := V (Proc.devRef .tc main_arg14)

/-- The references every later stage reads and none writes: the operator arrays U, Vh, snl, W, the decoder's
    four arrays, the step size as a scalar and the shifted spectrum. -/
abbrev baseRefs : List (Ref sig .tc) :=
  [main_arg1, main_arg3, main_arg4, main_arg7, main_arg8, main_arg9, main_arg10, main_arg11, main_v0, main_v6]

/-- A valuation that holds, at those references, the arrays of `a`, the scalar step size and the shifted spectrum. -/
structure Good (a : Spec.Args F) (V : Valuation τ sig (Elt F)) : Prop where
  U : V (Proc.devRef .tc main_arg1) = a.U
  Vh : V (Proc.devRef .tc main_arg3) = a.Vh
  snl : V (Proc.devRef .tc main_arg4) = a.snl
  W : V (Proc.devRef .tc main_arg7) = a.W
  dec_w0 : V (Proc.devRef .tc main_arg8) = a.dec_w0
  dec_b0 : V (Proc.devRef .tc main_arg9) = a.dec_b0
  dec_w1 : V (Proc.devRef .tc main_arg10) = a.dec_w1
  dec_b1 : V (Proc.devRef .tc main_arg11) = a.dec_b1
  ss : V (Proc.devRef .tc main_v0) = Spec.scal a.step
  sp : V (Proc.devRef .tc main_v6) = Spec.spOf a.S a.shift a.expo

/-- A list of operations that writes none of those references keeps the valuation good. -/
theorem Good.after {a : Spec.Args F} {V : Valuation τ sig (Elt F)} (g : Good a V)
    (ops : List (HloOp τ sig (Elt F))) {W : List (Ref sig .tc)} [WritesOnly ops W]
    (hW : ∀ r ∈ baseRefs, r ∉ W) : Good a (after ops V) where
  U := (keep ops V (hW main_arg1 (by decide))).trans g.U
  Vh := (keep ops V (hW main_arg3 (by decide))).trans g.Vh
  snl := (keep ops V (hW main_arg4 (by decide))).trans g.snl
  W := (keep ops V (hW main_arg7 (by decide))).trans g.W
  dec_w0 := (keep ops V (hW main_arg8 (by decide))).trans g.dec_w0
  dec_b0 := (keep ops V (hW main_arg9 (by decide))).trans g.dec_b0
  dec_w1 := (keep ops V (hW main_arg10 (by decide))).trans g.dec_w1
  dec_b1 := (keep ops V (hW main_arg11 (by decide))).trans g.dec_b1
  ss := (keep ops V (hW main_v0 (by decide))).trans g.ss
  sp := (keep ops V (hW main_v6 (by decide))).trans g.sp

/-! ## The prelude -/

/-- The step size as a scalar. -/
theorem pre_ss (V : Valuation τ sig (Elt F)) :
    after opsPre V (Proc.devRef .tc main_v0) = Spec.scal (V (Proc.devRef .tc main_arg14)) := by
  after_results_simp; rfl

/-- The shifted spectrum. -/
theorem pre_sp (V : Valuation τ sig (Elt F)) :
    after opsPre V (Proc.devRef .tc main_v6)
      = Spec.spOf (V (Proc.devRef .tc main_arg2)) (V (Proc.devRef .tc main_arg12)) (V (Proc.devRef .tc main_arg13)) := by
  after_results_simp; rfl

/-- The encoded state. -/
theorem pre_h (V : Valuation τ sig (Elt F)) :
    after opsPre V (Proc.devRef .tc main_v11)
      = Spec.encOf (V (Proc.devRef .tc main_arg0)) (V (Proc.devRef .tc main_arg5)) (V (Proc.devRef .tc main_arg6)) := by
  after_results_simp; rfl

/-- After the prelude the valuation is good for the arrays it started from. -/
theorem good_pre (V : Valuation τ sig (Elt F)) : Good (argsAt V) (after opsPre V) where
  U := keep opsPre V (by decide)
  Vh := keep opsPre V (by decide)
  snl := keep opsPre V (by decide)
  W := keep opsPre V (by decide)
  dec_w0 := keep opsPre V (by decide)
  dec_b0 := keep opsPre V (by decide)
  dec_w1 := keep opsPre V (by decide)
  dec_b1 := keep opsPre V (by decide)
  ss := pre_ss V
  sp := pre_sp V

/-! ## An energy, a step (the first of each; the others are the same text at shifted references) -/

/-- The energy of the state held at main_v11. -/
theorem en0_e {a : Spec.Args F} {V : Valuation τ sig (Elt F)} (g : Good a V) {h : Vec F S4096x512 .f32}
    (hh : V (Proc.devRef .tc main_v11) = h) :
    after opsEn0 V (Proc.devRef .tc main_v18) = Spec.energyOf a.snl h := by
  after_results_simp
  rw [g.snl, hh]
  rfl

/-- Heun's step from the state held at main_v11. -/
theorem step1_h {a : Spec.Args F} {V : Valuation τ sig (Elt F)} (g : Good a V) {h : Vec F S4096x512 .f32}
    (hh : V (Proc.devRef .tc main_v11) = h) :
    after opsStep1 V (Proc.devRef .tc main_v46)
      = Spec.stepOf a.U a.Vh a.W (Spec.spOf a.S a.shift a.expo) a.step h := by
  after_results_simp
  rw [g.U, g.Vh, g.W, g.sp, g.ss, hh]
  rfl

/-! ## The decoder, the nine one-element arrays, their concatenation -/

/-- The decoder's two layers on the state held at main_v291. -/
theorem dec_out {a : Spec.Args F} {V : Valuation τ sig (Elt F)} (g : Good a V) {h : Vec F S4096x512 .f32}
    (hh : V (Proc.devRef .tc main_v291) = h) :
    after opsDec V (Proc.devRef .tc main_v309) = Spec.decOf a.dec_w0 a.dec_b0 a.dec_w1 a.dec_b1 h := by
  after_results_simp
  rw [g.dec_w0, g.dec_b0, g.dec_w1, g.dec_b1, hh]
  rfl

/-- Energy 0 as a one-element array (the first of nine; the others are the same text at shifted references). -/
theorem bc_e0 (V : Valuation τ sig (Elt F)) :
    after opsBc V (Proc.devRef .tc main_v310) = Spec.e1Of (V (Proc.devRef .tc main_v18)) := by
  after_results_simp; rfl

/-- The nine one-element arrays in one. -/
theorem cat_ens (V : Valuation τ sig (Elt F)) :
    after opsCat V (Proc.devRef .tc main_v319)
      = concatenate S9 0
          [⟨S1, V (Proc.devRef .tc main_v310)⟩, ⟨S1, V (Proc.devRef .tc main_v311)⟩, ⟨S1, V (Proc.devRef .tc main_v312)⟩,
            ⟨S1, V (Proc.devRef .tc main_v313)⟩, ⟨S1, V (Proc.devRef .tc main_v314)⟩, ⟨S1, V (Proc.devRef .tc main_v315)⟩,
            ⟨S1, V (Proc.devRef .tc main_v316)⟩, ⟨S1, V (Proc.devRef .tc main_v317)⟩, ⟨S1, V (Proc.devRef .tc main_v318)⟩]
          concatenates_S1_S1_S1_S1_S1_S1_S1_S1_S1_S9_d0 := by
  after_results_simp; rfl

end Cert.RefValues

end
-- ==== Proof.RefOpsS2.lean ====
import proofs.«158944_j64613488001249_1_alg».proof.Proof.RefOpsLib

/-! Heun steps 5 to 8 of the reference as literal lists of operations. Each list with the references its operations write. -/

noncomputable section

namespace Cert.RefValues

open Cert.ReferenceIdeal Idealize.ShloMosaic Idealize.ShloMosaic.TcCoe Idealize.SL.Sem Idealize.ShloMosaic.StableHlo
open Cert.ReferenceIdeal.Facts₀

variable {F : FTy → Type} [FloatOps F] [Facts]

abbrev opsStep5 : List (HloOp τ sig (Elt F)) :=
  [ StableHlo.unary main_v6 main_v159 (broadcastInDim S4096x1 ![0] bcast_S4096_S4096x1_0 : (⟨S4096, .f32⟩ : BufTy).Contents (Elt F) → (⟨S4096x1, .f32⟩ : BufTy).Contents (Elt F)),
    StableHlo.binary main_arg3 main_v151 main_v160 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v159 main_v161 (broadcastInDim S4096x512 ![0, 1] bcast_S4096x1_S4096x512_0_1 : (⟨S4096x1, .f32⟩ : BufTy).Contents (Elt F) → (⟨S4096x512, .f32⟩ : BufTy).Contents (Elt F)),
    StableHlo.binary main_v161 main_v160 main_v162 (mulf : (⟨S4096x512, .f32⟩ : BufTy).Contents (Elt F) → (⟨S4096x512, .f32⟩ : BufTy).Contents (Elt F) → (⟨S4096x512, .f32⟩ : BufTy).Contents (Elt F)),
    StableHlo.binary main_v162 main_arg7 main_v163 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.binary main_arg1 main_v163 main_v164 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.nullary main_cst_29 (constant S_ .f32 0xBF800000#32),
    StableHlo.unary main_cst_29 main_v165 (broadcastInDim S4096x512 ![] bcast_S_S4096x512 : (⟨S_, .f32⟩ : BufTy).Contents (Elt F) → (⟨S4096x512, .f32⟩ : BufTy).Contents (Elt F)),
    StableHlo.binary main_v165 main_v164 main_v166 (mulf : (⟨S4096x512, .f32⟩ : BufTy).Contents (Elt F) → (⟨S4096x512, .f32⟩ : BufTy).Contents (Elt F) → (⟨S4096x512, .f32⟩ : BufTy).Contents (Elt F)),
    StableHlo.nullary main_cst_30 (constant S_ .f32 0x3F800000#32),
    StableHlo.binary main_v0 main_cst_30 main_v167 (mulf : (⟨S_, .f32⟩ : BufTy).Contents (Elt F) → (⟨S_, .f32⟩ : BufTy).Contents (Elt F) → (⟨S_, .f32⟩ : BufTy).Contents (Elt F)),
    StableHlo.unary main_v6 main_v168 (broadcastInDim S4096x1 ![0] bcast_S4096_S4096x1_0 : (⟨S4096, .f32⟩ : BufTy).Contents (Elt F) → (⟨S4096x1, .f32⟩ : BufTy).Contents (Elt F)),
    StableHlo.binary main_arg3 main_v166 main_v169 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v168 main_v170 (broadcastInDim S4096x512 ![0, 1] bcast_S4096x1_S4096x512_0_1 : (⟨S4096x1, .f32⟩ : BufTy).Contents (Elt F) → (⟨S4096x512, .f32⟩ : BufTy).Contents (Elt F)),
    StableHlo.binary main_v170 main_v169 main_v171 (mulf : (⟨S4096x512, .f32⟩ : BufTy).Contents (Elt F) → (⟨S4096x512, .f32⟩ : BufTy).Contents (Elt F) → (⟨S4096x512, .f32⟩ : BufTy).Contents (Elt F)),
    StableHlo.binary main_v171 main_arg7 main_v172 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.binary main_arg1 main_v172 main_v173 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v167 main_v174 (broadcastInDim S4096x512 ![] bcast_S_S4096x512 : (⟨S_, .f32⟩ : BufTy).Contents (Elt F) → (⟨S4096x512, .f32⟩ : BufTy).Contents (Elt F)),
    StableHlo.binary main_v174 main_v173 main_v175 (mulf : (⟨S4096x512, .f32⟩ : BufTy).Contents (Elt F) → (⟨S4096x512, .f32⟩ : BufTy).Contents (Elt F) → (⟨S4096x512, .f32⟩ : BufTy).Contents (Elt F)),
    StableHlo.binary main_v164 main_v175 main_v176 (addf : (⟨S4096x512, .f32⟩ : BufTy).Contents (Elt F) → (⟨S4096x512, .f32⟩ : BufTy).Contents (Elt F) → (⟨S4096x512, .f32⟩ : BufTy).Contents (Elt F)),
    StableHlo.nullary main_cst_31 (constant S_ .f32 0xBF800000#32),
    StableHlo.unary main_cst_31 main_v177 (broadcastInDim S4096x512 ![] bcast_S_S4096x512 : (⟨S_, .f32⟩ : BufTy).Contents (Elt F) → (⟨S4096x512, .f32⟩ : BufTy).Contents (Elt F)),
    StableHlo.binary main_v177 main_v176 main_v178 (mulf : (⟨S4096x512, .f32⟩ : BufTy).Contents (Elt F) → (⟨S4096x512, .f32⟩ : BufTy).Contents (Elt F) → (⟨S4096x512, .f32⟩ : BufTy).Contents (Elt F)),
    StableHlo.nullary main_cst_32 (constant S_ .f32 0x3F000000#32),
    StableHlo.unary main_cst_32 main_v179 (broadcastInDim S4096x512 ![] bcast_S_S4096x512 : (⟨S_, .f32⟩ : BufTy).Contents (Elt F) → (⟨S4096x512, .f32⟩ : BufTy).Contents (Elt F)),
    StableHlo.binary main_v179 main_v166 main_v180 (mulf : (⟨S4096x512, .f32⟩ : BufTy).Contents (Elt F) → (⟨S4096x512, .f32⟩ : BufTy).Contents (Elt F) → (⟨S4096x512, .f32⟩ : BufTy).Contents (Elt F)),
    StableHlo.nullary main_cst_33 (constant S_ .f32 0x3F000000#32),
    StableHlo.unary main_cst_33 main_v181 (broadcastInDim S4096x512 ![] bcast_S_S4096x512 : (⟨S_, .f32⟩ : BufTy).Contents (Elt F) → (⟨S4096x512, .f32⟩ : BufTy).Contents (Elt F)),
    StableHlo.binary main_v181 main_v178 main_v182 (mulf : (⟨S4096x512, .f32⟩ : BufTy).Contents (Elt F) → (⟨S4096x512, .f32⟩ : BufTy).Contents (Elt F) → (⟨S4096x512, .f32⟩ : BufTy).Contents (Elt F)),
    StableHlo.binary main_v180 main_v182 main_v183 (addf : (⟨S4096x512, .f32⟩ : BufTy).Contents (Elt F) → (⟨S4096x512, .f32⟩ : BufTy).Contents (Elt F) → (⟨S4096x512, .f32⟩ : BufTy).Contents (Elt F)),
    StableHlo.unary main_v0 main_v184 (broadcastInDim S4096x512 ![] bcast_S_S4096x512 : (⟨S_, .f32⟩ : BufTy).Contents (Elt F) → (⟨S4096x512, .f32⟩ : BufTy).Contents (Elt F)),
    StableHlo.binary main_v184 main_v183 main_v185 (mulf : (⟨S4096x512, .f32⟩ : BufTy).Contents (Elt F) → (⟨S4096x512, .f32⟩ : BufTy).Contents (Elt F) → (⟨S4096x512, .f32⟩ : BufTy).Contents (Elt F)),
    StableHlo.binary main_v151 main_v185 main_v186 (addf : (⟨S4096x512, .f32⟩ : BufTy).Contents (Elt F) → (⟨S4096x512, .f32⟩ : BufTy).Contents (Elt F) → (⟨S4096x512, .f32⟩ : BufTy).Contents (Elt F)) ]
abbrev opsStep5_W : List (Ref sig .tc) := [main_v159, main_v160, main_v161, main_v162, main_v163, main_v164, main_cst_29, main_v165, main_v166, main_cst_30, main_v167, main_v168, main_v169, main_v170, main_v171, main_v172, main_v173, main_v174, main_v175, main_v176, main_cst_31, main_v177, main_v178, main_cst_32, main_v179, main_v180, main_cst_33, main_v181, main_v182, main_v183, main_v184, main_v185, main_v186]
instance opsStep5_writes : WritesOnly (opsStep5 (F := F)) opsStep5_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev opsStep6 : List (HloOp τ sig (Elt F)) :=
  [ StableHlo.unary main_v6 main_v194 (broadcastInDim S4096x1 ![0] bcast_S4096_S4096x1_0 : (⟨S4096, .f32⟩ : BufTy).Contents (Elt F) → (⟨S4096x1, .f32⟩ : BufTy).Contents (Elt F)),
    StableHlo.binary main_arg3 main_v186 main_v195 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v194 main_v196 (broadcastInDim S4096x512 ![0, 1] bcast_S4096x1_S4096x512_0_1 : (⟨S4096x1, .f32⟩ : BufTy).Contents (Elt F) → (⟨S4096x512, .f32⟩ : BufTy).Contents (Elt F)),
    StableHlo.binary main_v196 main_v195 main_v197 (mulf : (⟨S4096x512, .f32⟩ : BufTy).Contents (Elt F) → (⟨S4096x512, .f32⟩ : BufTy).Contents (Elt F) → (⟨S4096x512, .f32⟩ : BufTy).Contents (Elt F)),
    StableHlo.binary main_v197 main_arg7 main_v198 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.binary main_arg1 main_v198 main_v199 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.nullary main_cst_36 (constant S_ .f32 0xBF800000#32),
    StableHlo.unary main_cst_36 main_v200 (broadcastInDim S4096x512 ![] bcast_S_S4096x512 : (⟨S_, .f32⟩ : BufTy).Contents (Elt F) → (⟨S4096x512, .f32⟩ : BufTy).Contents (Elt F)),
    StableHlo.binary main_v200 main_v199 main_v201 (mulf : (⟨S4096x512, .f32⟩ : BufTy).Contents (Elt F) → (⟨S4096x512, .f32⟩ : BufTy).Contents (Elt F) → (⟨S4096x512, .f32⟩ : BufTy).Contents (Elt F)),
    StableHlo.nullary main_cst_37 (constant S_ .f32 0x3F800000#32),
    StableHlo.binary main_v0 main_cst_37 main_v202 (mulf : (⟨S_, .f32⟩ : BufTy).Contents (Elt F) → (⟨S_, .f32⟩ : BufTy).Contents (Elt F) → (⟨S_, .f32⟩ : BufTy).Contents (Elt F)),
    StableHlo.unary main_v6 main_v203 (broadcastInDim S4096x1 ![0] bcast_S4096_S4096x1_0 : (⟨S4096, .f32⟩ : BufTy).Contents (Elt F) → (⟨S4096x1, .f32⟩ : BufTy).Contents (Elt F)),
    StableHlo.binary main_arg3 main_v201 main_v204 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v203 main_v205 (broadcastInDim S4096x512 ![0, 1] bcast_S4096x1_S4096x512_0_1 : (⟨S4096x1, .f32⟩ : BufTy).Contents (Elt F) → (⟨S4096x512, .f32⟩ : BufTy).Contents (Elt F)),
    StableHlo.binary main_v205 main_v204 main_v206 (mulf : (⟨S4096x512, .f32⟩ : BufTy).Contents (Elt F) → (⟨S4096x512, .f32⟩ : BufTy).Contents (Elt F) → (⟨S4096x512, .f32⟩ : BufTy).Contents (Elt F)),
    StableHlo.binary main_v206 main_arg7 main_v207 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.binary main_arg1 main_v207 main_v208 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v202 main_v209 (broadcastInDim S4096x512 ![] bcast_S_S4096x512 : (⟨S_, .f32⟩ : BufTy).Contents (Elt F) → (⟨S4096x512, .f32⟩ : BufTy).Contents (Elt F)),
    StableHlo.binary main_v209 main_v208 main_v210 (mulf : (⟨S4096x512, .f32⟩ : BufTy).Contents (Elt F) → (⟨S4096x512, .f32⟩ : BufTy).Contents (Elt F) → (⟨S4096x512, .f32⟩ : BufTy).Contents (Elt F)),
    StableHlo.binary main_v199 main_v210 main_v211 (addf : (⟨S4096x512, .f32⟩ : BufTy).Contents (Elt F) → (⟨S4096x512, .f32⟩ : BufTy).Contents (Elt F) → (⟨S4096x512, .f32⟩ : BufTy).Contents (Elt F)),
    StableHlo.nullary main_cst_38 (constant S_ .f32 0xBF800000#32),
    StableHlo.unary main_cst_38 main_v212 (broadcastInDim S4096x512 ![] bcast_S_S4096x512 : (⟨S_, .f32⟩ : BufTy).Contents (Elt F) → (⟨S4096x512, .f32⟩ : BufTy).Contents (Elt F)),
    StableHlo.binary main_v212 main_v211 main_v213 (mulf : (⟨S4096x512, .f32⟩ : BufTy).Contents (Elt F) → (⟨S4096x512, .f32⟩ : BufTy).Contents (Elt F) → (⟨S4096x512, .f32⟩ : BufTy).Contents (Elt F)),
    StableHlo.nullary main_cst_39 (constant S_ .f32 0x3F000000#32),
    StableHlo.unary main_cst_39 main_v214 (broadcastInDim S4096x512 ![] bcast_S_S4096x512 : (⟨S_, .f32⟩ : BufTy).Contents (Elt F) → (⟨S4096x512, .f32⟩ : BufTy).Contents (Elt F)),
    StableHlo.binary main_v214 main_v201 main_v215 (mulf : (⟨S4096x512, .f32⟩ : BufTy).Contents (Elt F) → (⟨S4096x512, .f32⟩ : BufTy).Contents (Elt F) → (⟨S4096x512, .f32⟩ : BufTy).Contents (Elt F)),
    StableHlo.nullary main_cst_40 (constant S_ .f32 0x3F000000#32),
    StableHlo.unary main_cst_40 main_v216 (broadcastInDim S4096x512 ![] bcast_S_S4096x512 : (⟨S_, .f32⟩ : BufTy).Contents (Elt F) → (⟨S4096x512, .f32⟩ : BufTy).Contents (Elt F)),
    StableHlo.binary main_v216 main_v213 main_v217 (mulf : (⟨S4096x512, .f32⟩ : BufTy).Contents (Elt F) → (⟨S4096x512, .f32⟩ : BufTy).Contents (Elt F) → (⟨S4096x512, .f32⟩ : BufTy).Contents (Elt F)),
    StableHlo.binary main_v215 main_v217 main_v218 (addf : (⟨S4096x512, .f32⟩ : BufTy).Contents (Elt F) → (⟨S4096x512, .f32⟩ : BufTy).Contents (Elt F) → (⟨S4096x512, .f32⟩ : BufTy).Contents (Elt F)),
    StableHlo.unary main_v0 main_v219 (broadcastInDim S4096x512 ![] bcast_S_S4096x512 : (⟨S_, .f32⟩ : BufTy).Contents (Elt F) → (⟨S4096x512, .f32⟩ : BufTy).Contents (Elt F)),
    StableHlo.binary main_v219 main_v218 main_v220 (mulf : (⟨S4096x512, .f32⟩ : BufTy).Contents (Elt F) → (⟨S4096x512, .f32⟩ : BufTy).Contents (Elt F) → (⟨S4096x512, .f32⟩ : BufTy).Contents (Elt F)),
    StableHlo.binary main_v186 main_v220 main_v221 (addf : (⟨S4096x512, .f32⟩ : BufTy).Contents (Elt F) → (⟨S4096x512, .f32⟩ : BufTy).Contents (Elt F) → (⟨S4096x512, .f32⟩ : BufTy).Contents (Elt F)) ]
abbrev opsStep6_W : List (Ref sig .tc) := [main_v194, main_v195, main_v196, main_v197, main_v198, main_v199, main_cst_36, main_v200, main_v201, main_cst_37, main_v202, main_v203, main_v204, main_v205, main_v206, main_v207, main_v208, main_v209, main_v210, main_v211, main_cst_38, main_v212, main_v213, main_cst_39, main_v214, main_v215, main_cst_40, main_v216, main_v217, main_v218, main_v219, main_v220, main_v221]
instance opsStep6_writes : WritesOnly (opsStep6 (F := F)) opsStep6_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev opsStep7 : List (HloOp τ sig (Elt F)) :=
  [ StableHlo.unary main_v6 main_v229 (broadcastInDim S4096x1 ![0] bcast_S4096_S4096x1_0 : (⟨S4096, .f32⟩ : BufTy).Contents (Elt F) → (⟨S4096x1, .f32⟩ : BufTy).Contents (Elt F)),
    StableHlo.binary main_arg3 main_v221 main_v230 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v229 main_v231 (broadcastInDim S4096x512 ![0, 1] bcast_S4096x1_S4096x512_0_1 : (⟨S4096x1, .f32⟩ : BufTy).Contents (Elt F) → (⟨S4096x512, .f32⟩ : BufTy).Contents (Elt F)),
    StableHlo.binary main_v231 main_v230 main_v232 (mulf : (⟨S4096x512, .f32⟩ : BufTy).Contents (Elt F) → (⟨S4096x512, .f32⟩ : BufTy).Contents (Elt F) → (⟨S4096x512, .f32⟩ : BufTy).Contents (Elt F)),
    StableHlo.binary main_v232 main_arg7 main_v233 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.binary main_arg1 main_v233 main_v234 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.nullary main_cst_43 (constant S_ .f32 0xBF800000#32),
    StableHlo.unary main_cst_43 main_v235 (broadcastInDim S4096x512 ![] bcast_S_S4096x512 : (⟨S_, .f32⟩ : BufTy).Contents (Elt F) → (⟨S4096x512, .f32⟩ : BufTy).Contents (Elt F)),
    StableHlo.binary main_v235 main_v234 main_v236 (mulf : (⟨S4096x512, .f32⟩ : BufTy).Contents (Elt F) → (⟨S4096x512, .f32⟩ : BufTy).Contents (Elt F) → (⟨S4096x512, .f32⟩ : BufTy).Contents (Elt F)),
    StableHlo.nullary main_cst_44 (constant S_ .f32 0x3F800000#32),
    StableHlo.binary main_v0 main_cst_44 main_v237 (mulf : (⟨S_, .f32⟩ : BufTy).Contents (Elt F) → (⟨S_, .f32⟩ : BufTy).Contents (Elt F) → (⟨S_, .f32⟩ : BufTy).Contents (Elt F)),
    StableHlo.unary main_v6 main_v238 (broadcastInDim S4096x1 ![0] bcast_S4096_S4096x1_0 : (⟨S4096, .f32⟩ : BufTy).Contents (Elt F) → (⟨S4096x1, .f32⟩ : BufTy).Contents (Elt F)),
    StableHlo.binary main_arg3 main_v236 main_v239 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v238 main_v240 (broadcastInDim S4096x512 ![0, 1] bcast_S4096x1_S4096x512_0_1 : (⟨S4096x1, .f32⟩ : BufTy).Contents (Elt F) → (⟨S4096x512, .f32⟩ : BufTy).Contents (Elt F)),
    StableHlo.binary main_v240 main_v239 main_v241 (mulf : (⟨S4096x512, .f32⟩ : BufTy).Contents (Elt F) → (⟨S4096x512, .f32⟩ : BufTy).Contents (Elt F) → (⟨S4096x512, .f32⟩ : BufTy).Contents (Elt F)),
    StableHlo.binary main_v241 main_arg7 main_v242 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.binary main_arg1 main_v242 main_v243 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v237 main_v244 (broadcastInDim S4096x512 ![] bcast_S_S4096x512 : (⟨S_, .f32⟩ : BufTy).Contents (Elt F) → (⟨S4096x512, .f32⟩ : BufTy).Contents (Elt F)),
    StableHlo.binary main_v244 main_v243 main_v245 (mulf : (⟨S4096x512, .f32⟩ : BufTy).Contents (Elt F) → (⟨S4096x512, .f32⟩ : BufTy).Contents (Elt F) → (⟨S4096x512, .f32⟩ : BufTy).Contents (Elt F)),
    StableHlo.binary main_v234 main_v245 main_v246 (addf : (⟨S4096x512, .f32⟩ : BufTy).Contents (Elt F) → (⟨S4096x512, .f32⟩ : BufTy).Contents (Elt F) → (⟨S4096x512, .f32⟩ : BufTy).Contents (Elt F)),
    StableHlo.nullary main_cst_45 (constant S_ .f32 0xBF800000#32),
    StableHlo.unary main_cst_45 main_v247 (broadcastInDim S4096x512 ![] bcast_S_S4096x512 : (⟨S_, .f32⟩ : BufTy).Contents (Elt F) → (⟨S4096x512, .f32⟩ : BufTy).Contents (Elt F)),
    StableHlo.binary main_v247 main_v246 main_v248 (mulf : (⟨S4096x512, .f32⟩ : BufTy).Contents (Elt F) → (⟨S4096x512, .f32⟩ : BufTy).Contents (Elt F) → (⟨S4096x512, .f32⟩ : BufTy).Contents (Elt F)),
    StableHlo.nullary main_cst_46 (constant S_ .f32 0x3F000000#32),
    StableHlo.unary main_cst_46 main_v249 (broadcastInDim S4096x512 ![] bcast_S_S4096x512 : (⟨S_, .f32⟩ : BufTy).Contents (Elt F) → (⟨S4096x512, .f32⟩ : BufTy).Contents (Elt F)),
    StableHlo.binary main_v249 main_v236 main_v250 (mulf : (⟨S4096x512, .f32⟩ : BufTy).Contents (Elt F) → (⟨S4096x512, .f32⟩ : BufTy).Contents (Elt F) → (⟨S4096x512, .f32⟩ : BufTy).Contents (Elt F)),
    StableHlo.nullary main_cst_47 (constant S_ .f32 0x3F000000#32),
    StableHlo.unary main_cst_47 main_v251 (broadcastInDim S4096x512 ![] bcast_S_S4096x512 : (⟨S_, .f32⟩ : BufTy).Contents (Elt F) → (⟨S4096x512, .f32⟩ : BufTy).Contents (Elt F)),
    StableHlo.binary main_v251 main_v248 main_v252 (mulf : (⟨S4096x512, .f32⟩ : BufTy).Contents (Elt F) → (⟨S4096x512, .f32⟩ : BufTy).Contents (Elt F) → (⟨S4096x512, .f32⟩ : BufTy).Contents (Elt F)),
    StableHlo.binary main_v250 main_v252 main_v253 (addf : (⟨S4096x512, .f32⟩ : BufTy).Contents (Elt F) → (⟨S4096x512, .f32⟩ : BufTy).Contents (Elt F) → (⟨S4096x512, .f32⟩ : BufTy).Contents (Elt F)),
    StableHlo.unary main_v0 main_v254 (broadcastInDim S4096x512 ![] bcast_S_S4096x512 : (⟨S_, .f32⟩ : BufTy).Contents (Elt F) → (⟨S4096x512, .f32⟩ : BufTy).Contents (Elt F)),
    StableHlo.binary main_v254 main_v253 main_v255 (mulf : (⟨S4096x512, .f32⟩ : BufTy).Contents (Elt F) → (⟨S4096x512, .f32⟩ : BufTy).Contents (Elt F) → (⟨S4096x512, .f32⟩ : BufTy).Contents (Elt F)),
    StableHlo.binary main_v221 main_v255 main_v256 (addf : (⟨S4096x512, .f32⟩ : BufTy).Contents (Elt F) → (⟨S4096x512, .f32⟩ : BufTy).Contents (Elt F) → (⟨S4096x512, .f32⟩ : BufTy).Contents (Elt F)) ]
abbrev opsStep7_W : List (Ref sig .tc) := [main_v229, main_v230, main_v231, main_v232, main_v233, main_v234, main_cst_43, main_v235, main_v236, main_cst_44, main_v237, main_v238, main_v239, main_v240, main_v241, main_v242, main_v243, main_v244, main_v245, main_v246, main_cst_45, main_v247, main_v248, main_cst_46, main_v249, main_v250, main_cst_47, main_v251, main_v252, main_v253, main_v254, main_v255, main_v256]
instance opsStep7_writes : WritesOnly (opsStep7 (F := F)) opsStep7_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

abbrev opsStep8 : List (HloOp τ sig (Elt F)) :=
  [ StableHlo.unary main_v6 main_v264 (broadcastInDim S4096x1 ![0] bcast_S4096_S4096x1_0 : (⟨S4096, .f32⟩ : BufTy).Contents (Elt F) → (⟨S4096x1, .f32⟩ : BufTy).Contents (Elt F)),
    StableHlo.binary main_arg3 main_v256 main_v265 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v264 main_v266 (broadcastInDim S4096x512 ![0, 1] bcast_S4096x1_S4096x512_0_1 : (⟨S4096x1, .f32⟩ : BufTy).Contents (Elt F) → (⟨S4096x512, .f32⟩ : BufTy).Contents (Elt F)),
    StableHlo.binary main_v266 main_v265 main_v267 (mulf : (⟨S4096x512, .f32⟩ : BufTy).Contents (Elt F) → (⟨S4096x512, .f32⟩ : BufTy).Contents (Elt F) → (⟨S4096x512, .f32⟩ : BufTy).Contents (Elt F)),
    StableHlo.binary main_v267 main_arg7 main_v268 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.binary main_arg1 main_v268 main_v269 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.nullary main_cst_50 (constant S_ .f32 0xBF800000#32),
    StableHlo.unary main_cst_50 main_v270 (broadcastInDim S4096x512 ![] bcast_S_S4096x512 : (⟨S_, .f32⟩ : BufTy).Contents (Elt F) → (⟨S4096x512, .f32⟩ : BufTy).Contents (Elt F)),
    StableHlo.binary main_v270 main_v269 main_v271 (mulf : (⟨S4096x512, .f32⟩ : BufTy).Contents (Elt F) → (⟨S4096x512, .f32⟩ : BufTy).Contents (Elt F) → (⟨S4096x512, .f32⟩ : BufTy).Contents (Elt F)),
    StableHlo.nullary main_cst_51 (constant S_ .f32 0x3F800000#32),
    StableHlo.binary main_v0 main_cst_51 main_v272 (mulf : (⟨S_, .f32⟩ : BufTy).Contents (Elt F) → (⟨S_, .f32⟩ : BufTy).Contents (Elt F) → (⟨S_, .f32⟩ : BufTy).Contents (Elt F)),
    StableHlo.unary main_v6 main_v273 (broadcastInDim S4096x1 ![0] bcast_S4096_S4096x1_0 : (⟨S4096, .f32⟩ : BufTy).Contents (Elt F) → (⟨S4096x1, .f32⟩ : BufTy).Contents (Elt F)),
    StableHlo.binary main_arg3 main_v271 main_v274 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v273 main_v275 (broadcastInDim S4096x512 ![0, 1] bcast_S4096x1_S4096x512_0_1 : (⟨S4096x1, .f32⟩ : BufTy).Contents (Elt F) → (⟨S4096x512, .f32⟩ : BufTy).Contents (Elt F)),
    StableHlo.binary main_v275 main_v274 main_v276 (mulf : (⟨S4096x512, .f32⟩ : BufTy).Contents (Elt F) → (⟨S4096x512, .f32⟩ : BufTy).Contents (Elt F) → (⟨S4096x512, .f32⟩ : BufTy).Contents (Elt F)),
    StableHlo.binary main_v276 main_arg7 main_v277 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.binary main_arg1 main_v277 main_v278 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.unary main_v272 main_v279 (broadcastInDim S4096x512 ![] bcast_S_S4096x512 : (⟨S_, .f32⟩ : BufTy).Contents (Elt F) → (⟨S4096x512, .f32⟩ : BufTy).Contents (Elt F)),
    StableHlo.binary main_v279 main_v278 main_v280 (mulf : (⟨S4096x512, .f32⟩ : BufTy).Contents (Elt F) → (⟨S4096x512, .f32⟩ : BufTy).Contents (Elt F) → (⟨S4096x512, .f32⟩ : BufTy).Contents (Elt F)),
    StableHlo.binary main_v269 main_v280 main_v281 (addf : (⟨S4096x512, .f32⟩ : BufTy).Contents (Elt F) → (⟨S4096x512, .f32⟩ : BufTy).Contents (Elt F) → (⟨S4096x512, .f32⟩ : BufTy).Contents (Elt F)),
    StableHlo.nullary main_cst_52 (constant S_ .f32 0xBF800000#32),
    StableHlo.unary main_cst_52 main_v282 (broadcastInDim S4096x512 ![] bcast_S_S4096x512 : (⟨S_, .f32⟩ : BufTy).Contents (Elt F) → (⟨S4096x512, .f32⟩ : BufTy).Contents (Elt F)),
    StableHlo.binary main_v282 main_v281 main_v283 (mulf : (⟨S4096x512, .f32⟩ : BufTy).Contents (Elt F) → (⟨S4096x512, .f32⟩ : BufTy).Contents (Elt F) → (⟨S4096x512, .f32⟩ : BufTy).Contents (Elt F)),
    StableHlo.nullary main_cst_53 (constant S_ .f32 0x3F000000#32),
    StableHlo.unary main_cst_53 main_v284 (broadcastInDim S4096x512 ![] bcast_S_S4096x512 : (⟨S_, .f32⟩ : BufTy).Contents (Elt F) → (⟨S4096x512, .f32⟩ : BufTy).Contents (Elt F)),
    StableHlo.binary main_v284 main_v271 main_v285 (mulf : (⟨S4096x512, .f32⟩ : BufTy).Contents (Elt F) → (⟨S4096x512, .f32⟩ : BufTy).Contents (Elt F) → (⟨S4096x512, .f32⟩ : BufTy).Contents (Elt F)),
    StableHlo.nullary main_cst_54 (constant S_ .f32 0x3F000000#32),
    StableHlo.unary main_cst_54 main_v286 (broadcastInDim S4096x512 ![] bcast_S_S4096x512 : (⟨S_, .f32⟩ : BufTy).Contents (Elt F) → (⟨S4096x512, .f32⟩ : BufTy).Contents (Elt F)),
    StableHlo.binary main_v286 main_v283 main_v287 (mulf : (⟨S4096x512, .f32⟩ : BufTy).Contents (Elt F) → (⟨S4096x512, .f32⟩ : BufTy).Contents (Elt F) → (⟨S4096x512, .f32⟩ : BufTy).Contents (Elt F)),
    StableHlo.binary main_v285 main_v287 main_v288 (addf : (⟨S4096x512, .f32⟩ : BufTy).Contents (Elt F) → (⟨S4096x512, .f32⟩ : BufTy).Contents (Elt F) → (⟨S4096x512, .f32⟩ : BufTy).Contents (Elt F)),
    StableHlo.unary main_v0 main_v289 (broadcastInDim S4096x512 ![] bcast_S_S4096x512 : (⟨S_, .f32⟩ : BufTy).Contents (Elt F) → (⟨S4096x512, .f32⟩ : BufTy).Contents (Elt F)),
    StableHlo.binary main_v289 main_v288 main_v290 (mulf : (⟨S4096x512, .f32⟩ : BufTy).Contents (Elt F) → (⟨S4096x512, .f32⟩ : BufTy).Contents (Elt F) → (⟨S4096x512, .f32⟩ : BufTy).Contents (Elt F)),
    StableHlo.binary main_v256 main_v290 main_v291 (addf : (⟨S4096x512, .f32⟩ : BufTy).Contents (Elt F) → (⟨S4096x512, .f32⟩ : BufTy).Contents (Elt F) → (⟨S4096x512, .f32⟩ : BufTy).Contents (Elt F)) ]
abbrev opsStep8_W : List (Ref sig .tc) := [main_v264, main_v265, main_v266, main_v267, main_v268, main_v269, main_cst_50, main_v270, main_v271, main_cst_51, main_v272, main_v273, main_v274, main_v275, main_v276, main_v277, main_v278, main_v279, main_v280, main_v281, main_cst_52, main_v282, main_v283, main_cst_53, main_v284, main_v285, main_cst_54, main_v286, main_v287, main_v288, main_v289, main_v290, main_v291]
instance opsStep8_writes : WritesOnly (opsStep8 (F := F)) opsStep8_W where
  sub := by
    simp only [List.Forall]
    exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

end Cert.RefValues

end
-- ==== Proof.RefStageN.lean ====
import proofs.«158944_j64613488001249_1_alg».proof.Proof.RefStage
import proofs.«158944_j64613488001249_1_alg».proof.Proof.RefOpsS2

/-! The energies of states 1 to 8, Heun's steps 2 to 8 and energies 1 to 8 as one-element arrays: the text of
the first of each kind at the reference numbers of the others (35 further a step). -/

noncomputable section

namespace Cert.RefValues

open Cert.ReferenceIdeal Idealize.ShloMosaic Idealize.ShloMosaic.TcCoe Idealize.SL.Sem Idealize.ShloMosaic.StableHlo
open Cert.ReferenceIdeal.Facts₀

variable {F : FTy → Type} [FloatOps F] [Facts]

/-- The energy of the state held at main_v46. -/
theorem en1_e {a : Spec.Args F} {V : Valuation τ sig (Elt F)} (g : Good a V) {h : Vec F S4096x512 .f32}
    (hh : V (Proc.devRef .tc main_v46) = h) :
    after opsEn1 V (Proc.devRef .tc main_v53) = Spec.energyOf a.snl h := by
  after_results_simp
  rw [g.snl, hh]
  rfl

/-- The energy of the state held at main_v81. -/
theorem en2_e {a : Spec.Args F} {V : Valuation τ sig (Elt F)} (g : Good a V) {h : Vec F S4096x512 .f32}
    (hh : V (Proc.devRef .tc main_v81) = h) :
    after opsEn2 V (Proc.devRef .tc main_v88) = Spec.energyOf a.snl h := by
  after_results_simp
  rw [g.snl, hh]
  rfl

/-- The energy of the state held at main_v116. -/
theorem en3_e {a : Spec.Args F} {V : Valuation τ sig (Elt F)} (g : Good a V) {h : Vec F S4096x512 .f32}
    (hh : V (Proc.devRef .tc main_v116) = h) :
    after opsEn3 V (Proc.devRef .tc main_v123) = Spec.energyOf a.snl h := by
  after_results_simp
  rw [g.snl, hh]
  rfl

/-- The energy of the state held at main_v151. -/
theorem en4_e {a : Spec.Args F} {V : Valuation τ sig (Elt F)} (g : Good a V) {h : Vec F S4096x512 .f32}
    (hh : V (Proc.devRef .tc main_v151) = h) :
    after opsEn4 V (Proc.devRef .tc main_v158) = Spec.energyOf a.snl h := by
  after_results_simp
  rw [g.snl, hh]
  rfl

/-- The energy of the state held at main_v186. -/
theorem en5_e {a : Spec.Args F} {V : Valuation τ sig (Elt F)} (g : Good a V) {h : Vec F S4096x512 .f32}
    (hh : V (Proc.devRef .tc main_v186) = h) :
    after opsEn5 V (Proc.devRef .tc main_v193) = Spec.energyOf a.snl h := by
  after_results_simp
  rw [g.snl, hh]
  rfl

/-- The energy of the state held at main_v221. -/
theorem en6_e {a : Spec.Args F} {V : Valuation τ sig (Elt F)} (g : Good a V) {h : Vec F S4096x512 .f32}
    (hh : V (Proc.devRef .tc main_v221) = h) :
    after opsEn6 V (Proc.devRef .tc main_v228) = Spec.energyOf a.snl h := by
  after_results_simp
  rw [g.snl, hh]
  rfl

/-- The energy of the state held at main_v256. -/
theorem en7_e {a : Spec.Args F} {V : Valuation τ sig (Elt F)} (g : Good a V) {h : Vec F S4096x512 .f32}
    (hh : V (Proc.devRef .tc main_v256) = h) :
    after opsEn7 V (Proc.devRef .tc main_v263) = Spec.energyOf a.snl h := by
  after_results_simp
  rw [g.snl, hh]
  rfl

/-- The energy of the state held at main_v291. -/
theorem en8_e {a : Spec.Args F} {V : Valuation τ sig (Elt F)} (g : Good a V) {h : Vec F S4096x512 .f32}
    (hh : V (Proc.devRef .tc main_v291) = h) :
    after opsEn8 V (Proc.devRef .tc main_v298) = Spec.energyOf a.snl h := by
  after_results_simp
  rw [g.snl, hh]
  rfl

/-- Heun's step from the state held at main_v46. -/
theorem step2_h {a : Spec.Args F} {V : Valuation τ sig (Elt F)} (g : Good a V) {h : Vec F S4096x512 .f32}
    (hh : V (Proc.devRef .tc main_v46) = h) :
    after opsStep2 V (Proc.devRef .tc main_v81)
      = Spec.stepOf a.U a.Vh a.W (Spec.spOf a.S a.shift a.expo) a.step h := by
  after_results_simp
  rw [g.U, g.Vh, g.W, g.sp, g.ss, hh]
  rfl

/-- Heun's step from the state held at main_v81. -/
theorem step3_h {a : Spec.Args F} {V : Valuation τ sig (Elt F)} (g : Good a V) {h : Vec F S4096x512 .f32}
    (hh : V (Proc.devRef .tc main_v81) = h) :
    after opsStep3 V (Proc.devRef .tc main_v116)
      = Spec.stepOf a.U a.Vh a.W (Spec.spOf a.S a.shift a.expo) a.step h := by
  after_results_simp
  rw [g.U, g.Vh, g.W, g.sp, g.ss, hh]
  rfl

/-- Heun's step from the state held at main_v116. -/
theorem step4_h {a : Spec.Args F} {V : Valuation τ sig (Elt F)} (g : Good a V) {h : Vec F S4096x512 .f32}
    (hh : V (Proc.devRef .tc main_v116) = h) :
    after opsStep4 V (Proc.devRef .tc main_v151)
      = Spec.stepOf a.U a.Vh a.W (Spec.spOf a.S a.shift a.expo) a.step h := by
  after_results_simp
  rw [g.U, g.Vh, g.W, g.sp, g.ss, hh]
  rfl

/-- Heun's step from the state held at main_v151. -/
theorem step5_h {a : Spec.Args F} {V : Valuation τ sig (Elt F)} (g : Good a V) {h : Vec F S4096x512 .f32}
    (hh : V (Proc.devRef .tc main_v151) = h) :
    after opsStep5 V (Proc.devRef .tc main_v186)
      = Spec.stepOf a.U a.Vh a.W (Spec.spOf a.S a.shift a.expo) a.step h := by
  after_results_simp
  rw [g.U, g.Vh, g.W, g.sp, g.ss, hh]
  rfl

/-- Heun's step from the state held at main_v186. -/
theorem step6_h {a : Spec.Args F} {V : Valuation τ sig (Elt F)} (g : Good a V) {h : Vec F S4096x512 .f32}
    (hh : V (Proc.devRef .tc main_v186) = h) :
    after opsStep6 V (Proc.devRef .tc main_v221)
      = Spec.stepOf a.U a.Vh a.W (Spec.spOf a.S a.shift a.expo) a.step h := by
  after_results_simp
  rw [g.U, g.Vh, g.W, g.sp, g.ss, hh]
  rfl

/-- Heun's step from the state held at main_v221. -/
theorem step7_h {a : Spec.Args F} {V : Valuation τ sig (Elt F)} (g : Good a V) {h : Vec F S4096x512 .f32}
    (hh : V (Proc.devRef .tc main_v221) = h) :
    after opsStep7 V (Proc.devRef .tc main_v256)
      = Spec.stepOf a.U a.Vh a.W (Spec.spOf a.S a.shift a.expo) a.step h := by
  after_results_simp
  rw [g.U, g.Vh, g.W, g.sp, g.ss, hh]
  rfl

/-- Heun's step from the state held at main_v256. -/
theorem step8_h {a : Spec.Args F} {V : Valuation τ sig (Elt F)} (g : Good a V) {h : Vec F S4096x512 .f32}
    (hh : V (Proc.devRef .tc main_v256) = h) :
    after opsStep8 V (Proc.devRef .tc main_v291)
      = Spec.stepOf a.U a.Vh a.W (Spec.spOf a.S a.shift a.expo) a.step h := by
  after_results_simp
  rw [g.U, g.Vh, g.W, g.sp, g.ss, hh]
  rfl

/-- Energy 1 as a one-element array. -/
theorem bc_e1 (V : Valuation τ sig (Elt F)) :
    after opsBc V (Proc.devRef .tc main_v311) = Spec.e1Of (V (Proc.devRef .tc main_v53)) := by
  after_results_simp; rfl

/-- Energy 2 as a one-element array. -/
theorem bc_e2 (V : Valuation τ sig (Elt F)) :
    after opsBc V (Proc.devRef .tc main_v312) = Spec.e1Of (V (Proc.devRef .tc main_v88)) := by
  after_results_simp; rfl

/-- Energy 3 as a one-element array. -/
theorem bc_e3 (V : Valuation τ sig (Elt F)) :
    after opsBc V (Proc.devRef .tc main_v313) = Spec.e1Of (V (Proc.devRef .tc main_v123)) := by
  after_results_simp; rfl

/-- Energy 4 as a one-element array. -/
theorem bc_e4 (V : Valuation τ sig (Elt F)) :
    after opsBc V (Proc.devRef .tc main_v314) = Spec.e1Of (V (Proc.devRef .tc main_v158)) := by
  after_results_simp; rfl

/-- Energy 5 as a one-element array. -/
theorem bc_e5 (V : Valuation τ sig (Elt F)) :
    after opsBc V (Proc.devRef .tc main_v315) = Spec.e1Of (V (Proc.devRef .tc main_v193)) := by
  after_results_simp; rfl

/-- Energy 6 as a one-element array. -/
theorem bc_e6 (V : Valuation τ sig (Elt F)) :
    after opsBc V (Proc.devRef .tc main_v316) = Spec.e1Of (V (Proc.devRef .tc main_v228)) := by
  after_results_simp; rfl

/-- Energy 7 as a one-element array. -/
theorem bc_e7 (V : Valuation τ sig (Elt F)) :
    after opsBc V (Proc.devRef .tc main_v317) = Spec.e1Of (V (Proc.devRef .tc main_v263)) := by
  after_results_simp; rfl

/-- Energy 8 as a one-element array. -/
theorem bc_e8 (V : Valuation τ sig (Elt F)) :
    after opsBc V (Proc.devRef .tc main_v318) = Spec.e1Of (V (Proc.devRef .tc main_v298)) := by
  after_results_simp; rfl

end Cert.RefValues

end
-- ==== Proof.RefChain.lean ====
import proofs.«158944_j64613488001249_1_alg».proof.Proof.RefStageN

/-! The reference's valuations stage by stage from the contents V0 it starts from, and what each holds.

XP is the valuation after the prelude, XE n the one after the energy of state n, XS n the one after step n.
Each is good for the arrays V0 holds, each XS n and XE n holds state n of the specification at that state's
reference, and XE n holds the energy of state n at that energy's reference. -/

noncomputable section

namespace Cert.RefValues

open Cert.ReferenceIdeal Idealize.ShloMosaic Idealize.ShloMosaic.TcCoe Idealize.SL.Sem Idealize.ShloMosaic.StableHlo
open Cert.ReferenceIdeal.Facts₀

variable {F : FTy → Type} [FloatOps F] [Facts] (V0 : Valuation τ sig (Elt F))

/-- After the prelude. -/
def XP : Valuation τ sig (Elt F) := after opsPre V0
/-- After the energy of the encoded state. -/
def XE0 : Valuation τ sig (Elt F) := after opsEn0 (XP V0)

theorem good_XP : Good (argsAt V0) (XP V0) := good_pre V0

theorem h_XP : XP V0 (Proc.devRef .tc main_v11) = Spec.hN0 (argsAt V0) := by
  rw [Spec.hN0_eq]; exact pre_h V0

theorem good_XE0 : Good (argsAt V0) (XE0 V0) := (good_XP V0).after opsEn0 (by decide)

theorem h_XE0 : XE0 V0 (Proc.devRef .tc main_v11) = Spec.hN0 (argsAt V0) :=
  (keep opsEn0 (XP V0) (by decide)).trans (h_XP V0)

theorem e_XE0 : XE0 V0 (Proc.devRef .tc main_v18) = Spec.energyOf (argsAt V0).snl (Spec.hN0 (argsAt V0)) :=
  en0_e (good_XP V0) (h_XP V0)

/-! ## Step 1 and the energy of state 1 (the other seven are the same text at shifted numbers) -/

/-- After step 1. -/
def XS1 : Valuation τ sig (Elt F) := after opsStep1 (XE0 V0)
/-- After the energy of state 1. -/
def XE1 : Valuation τ sig (Elt F) := after opsEn1 (XS1 V0)

theorem good_XS1 : Good (argsAt V0) (XS1 V0) := (good_XE0 V0).after opsStep1 (by decide)

theorem h_XS1 : XS1 V0 (Proc.devRef .tc main_v46) = Spec.hN1 (argsAt V0) := by
  rw [Spec.hN1_eq]; exact step1_h (good_XE0 V0) (h_XE0 V0)

theorem good_XE1 : Good (argsAt V0) (XE1 V0) := (good_XS1 V0).after opsEn1 (by decide)

theorem h_XE1 : XE1 V0 (Proc.devRef .tc main_v46) = Spec.hN1 (argsAt V0) :=
  (keep opsEn1 (XS1 V0) (by decide)).trans (h_XS1 V0)

theorem e_XE1 : XE1 V0 (Proc.devRef .tc main_v53) = Spec.energyOf (argsAt V0).snl (Spec.hN1 (argsAt V0)) :=
  en1_e (good_XS1 V0) (h_XS1 V0)

end Cert.RefValues

end
-- ==== Proof.RefChainN.lean ====
import proofs.«158944_j64613488001249_1_alg».proof.Proof.RefChain

/-! Steps 2 to 8 and the energies of states 2 to 8: the valuations after each, good, holding the state and its
energy; the text of step 1 at the numbers of the others. -/

noncomputable section

namespace Cert.RefValues

open Cert.ReferenceIdeal Idealize.ShloMosaic Idealize.ShloMosaic.TcCoe Idealize.SL.Sem Idealize.ShloMosaic.StableHlo
open Cert.ReferenceIdeal.Facts₀

variable {F : FTy → Type} [FloatOps F] [Facts] (V0 : Valuation τ sig (Elt F))

/-- After step 2. -/
def XS2 : Valuation τ sig (Elt F) := after opsStep2 (XE1 V0)
/-- After the energy of state 2. -/
def XE2 : Valuation τ sig (Elt F) := after opsEn2 (XS2 V0)

theorem good_XS2 : Good (argsAt V0) (XS2 V0) := (good_XE1 V0).after opsStep2 (by decide)

theorem h_XS2 : XS2 V0 (Proc.devRef .tc main_v81) = Spec.hN2 (argsAt V0) := by
  rw [Spec.hN2_eq]; exact step2_h (good_XE1 V0) (h_XE1 V0)

theorem good_XE2 : Good (argsAt V0) (XE2 V0) := (good_XS2 V0).after opsEn2 (by decide)

theorem h_XE2 : XE2 V0 (Proc.devRef .tc main_v81) = Spec.hN2 (argsAt V0) :=
  (keep opsEn2 (XS2 V0) (by decide)).trans (h_XS2 V0)

theorem e_XE2 : XE2 V0 (Proc.devRef .tc main_v88) = Spec.energyOf (argsAt V0).snl (Spec.hN2 (argsAt V0)) :=
  en2_e (good_XS2 V0) (h_XS2 V0)

/-- After step 3. -/
def XS3 : Valuation τ sig (Elt F) := after opsStep3 (XE2 V0)
/-- After the energy of state 3. -/
def XE3 : Valuation τ sig (Elt F) := after opsEn3 (XS3 V0)

theorem good_XS3 : Good (argsAt V0) (XS3 V0) := (good_XE2 V0).after opsStep3 (by decide)

theorem h_XS3 : XS3 V0 (Proc.devRef .tc main_v116) = Spec.hN3 (argsAt V0) := by
  rw [Spec.hN3_eq]; exact step3_h (good_XE2 V0) (h_XE2 V0)

theorem good_XE3 : Good (argsAt V0) (XE3 V0) := (good_XS3 V0).after opsEn3 (by decide)

theorem h_XE3 : XE3 V0 (Proc.devRef .tc main_v116) = Spec.hN3 (argsAt V0) :=
  (keep opsEn3 (XS3 V0) (by decide)).trans (h_XS3 V0)

theorem e_XE3 : XE3 V0 (Proc.devRef .tc main_v123) = Spec.energyOf (argsAt V0).snl (Spec.hN3 (argsAt V0)) :=
  en3_e (good_XS3 V0) (h_XS3 V0)

/-- After step 4. -/
def XS4 : Valuation τ sig (Elt F) := after opsStep4 (XE3 V0)
/-- After the energy of state 4. -/
def XE4 : Valuation τ sig (Elt F) := after opsEn4 (XS4 V0)

theorem good_XS4 : Good (argsAt V0) (XS4 V0) := (good_XE3 V0).after opsStep4 (by decide)

theorem h_XS4 : XS4 V0 (Proc.devRef .tc main_v151) = Spec.hN4 (argsAt V0) := by
  rw [Spec.hN4_eq]; exact step4_h (good_XE3 V0) (h_XE3 V0)

theorem good_XE4 : Good (argsAt V0) (XE4 V0) := (good_XS4 V0).after opsEn4 (by decide)

theorem h_XE4 : XE4 V0 (Proc.devRef .tc main_v151) = Spec.hN4 (argsAt V0) :=
  (keep opsEn4 (XS4 V0) (by decide)).trans (h_XS4 V0)

theorem e_XE4 : XE4 V0 (Proc.devRef .tc main_v158) = Spec.energyOf (argsAt V0).snl (Spec.hN4 (argsAt V0)) :=
  en4_e (good_XS4 V0) (h_XS4 V0)

/-- After step 5. -/
def XS5 : Valuation τ sig (Elt F) := after opsStep5 (XE4 V0)
/-- After the energy of state 5. -/
def XE5 : Valuation τ sig (Elt F) := after opsEn5 (XS5 V0)

theorem good_XS5 : Good (argsAt V0) (XS5 V0) := (good_XE4 V0).after opsStep5 (by decide)

theorem h_XS5 : XS5 V0 (Proc.devRef .tc main_v186) = Spec.hN5 (argsAt V0) := by
  rw [Spec.hN5_eq]; exact step5_h (good_XE4 V0) (h_XE4 V0)

theorem good_XE5 : Good (argsAt V0) (XE5 V0) := (good_XS5 V0).after opsEn5 (by decide)

theorem h_XE5 : XE5 V0 (Proc.devRef .tc main_v186) = Spec.hN5 (argsAt V0) :=
  (keep opsEn5 (XS5 V0) (by decide)).trans (h_XS5 V0)

theorem e_XE5 : XE5 V0 (Proc.devRef .tc main_v193) = Spec.energyOf (argsAt V0).snl (Spec.hN5 (argsAt V0)) :=
  en5_e (good_XS5 V0) (h_XS5 V0)

/-- After step 6. -/
def XS6 : Valuation τ sig (Elt F) := after opsStep6 (XE5 V0)
/-- After the energy of state 6. -/
def XE6 : Valuation τ sig (Elt F) := after opsEn6 (XS6 V0)

theorem good_XS6 : Good (argsAt V0) (XS6 V0) := (good_XE5 V0).after opsStep6 (by decide)

theorem h_XS6 : XS6 V0 (Proc.devRef .tc main_v221) = Spec.hN6 (argsAt V0) := by
  rw [Spec.hN6_eq]; exact step6_h (good_XE5 V0) (h_XE5 V0)

theorem good_XE6 : Good (argsAt V0) (XE6 V0) := (good_XS6 V0).after opsEn6 (by decide)

theorem h_XE6 : XE6 V0 (Proc.devRef .tc main_v221) = Spec.hN6 (argsAt V0) :=
  (keep opsEn6 (XS6 V0) (by decide)).trans (h_XS6 V0)

theorem e_XE6 : XE6 V0 (Proc.devRef .tc main_v228) = Spec.energyOf (argsAt V0).snl (Spec.hN6 (argsAt V0)) :=
  en6_e (good_XS6 V0) (h_XS6 V0)

/-- After step 7. -/
def XS7 : Valuation τ sig (Elt F) := after opsStep7 (XE6 V0)
/-- After the energy of state 7. -/
def XE7 : Valuation τ sig (Elt F) := after opsEn7 (XS7 V0)

theorem good_XS7 : Good (argsAt V0) (XS7 V0) := (good_XE6 V0).after opsStep7 (by decide)

theorem h_XS7 : XS7 V0 (Proc.devRef .tc main_v256) = Spec.hN7 (argsAt V0) := by
  rw [Spec.hN7_eq]; exact step7_h (good_XE6 V0) (h_XE6 V0)

theorem good_XE7 : Good (argsAt V0) (XE7 V0) := (good_XS7 V0).after opsEn7 (by decide)

theorem h_XE7 : XE7 V0 (Proc.devRef .tc main_v256) = Spec.hN7 (argsAt V0) :=
  (keep opsEn7 (XS7 V0) (by decide)).trans (h_XS7 V0)

theorem e_XE7 : XE7 V0 (Proc.devRef .tc main_v263) = Spec.energyOf (argsAt V0).snl (Spec.hN7 (argsAt V0)) :=
  en7_e (good_XS7 V0) (h_XS7 V0)

/-- After step 8. -/
def XS8 : Valuation τ sig (Elt F) := after opsStep8 (XE7 V0)
/-- After the energy of state 8. -/
def XE8 : Valuation τ sig (Elt F) := after opsEn8 (XS8 V0)

theorem good_XS8 : Good (argsAt V0) (XS8 V0) := (good_XE7 V0).after opsStep8 (by decide)

theorem h_XS8 : XS8 V0 (Proc.devRef .tc main_v291) = Spec.hN8 (argsAt V0) := by
  rw [Spec.hN8_eq]; exact step8_h (good_XE7 V0) (h_XE7 V0)

theorem good_XE8 : Good (argsAt V0) (XE8 V0) := (good_XS8 V0).after opsEn8 (by decide)

theorem h_XE8 : XE8 V0 (Proc.devRef .tc main_v291) = Spec.hN8 (argsAt V0) :=
  (keep opsEn8 (XS8 V0) (by decide)).trans (h_XS8 V0)

theorem e_XE8 : XE8 V0 (Proc.devRef .tc main_v298) = Spec.energyOf (argsAt V0).snl (Spec.hN8 (argsAt V0)) :=
  en8_e (good_XS8 V0) (h_XS8 V0)

end Cert.RefValues

end
-- ==== Proof.RefValues.lean ====
import proofs.«158944_j64613488001249_1_alg».proof.Proof.RefChainN
import proofs.«158944_j64613488001249_1_alg».proof.Proof.RefRun

/-! The reference's two results in the specification's terms.

The run leaves every buffer at the fold of @main's operations over the launch contents. That list of
operations is the stages' lists one after the other, so the fold is the last of the stage valuations. There
the [4096, 64] result is the decoder of state 8, and the [9] result gathers the nine energies, each kept
from the stage that made it through every later stage. -/

noncomputable section

namespace Cert.RefValues

open Cert.ReferenceIdeal Cert.ReferenceIdeal.Gen Idealize.ShloMosaic Idealize.ShloMosaic.TcCoe Idealize.SL.Sem Idealize.ShloMosaic.StableHlo
open Cert.ReferenceIdeal.Facts₀

variable {F : FTy → Type} [FloatOps F] (V0 : Valuation τ sig (Elt F))

/-- After the decoder. -/
def XD : Valuation τ sig (Elt F) := after opsDec (XE8 V0)
/-- After the nine broadcasts. -/
def XB : Valuation τ sig (Elt F) := after opsBc (XD V0)
/-- After the concatenate: the last valuation. -/
def XC : Valuation τ sig (Elt F) := after opsCat (XB V0)

/-! ## The [4096, 64] result -/

theorem out_XC : XC V0 (Proc.devRef .tc main_v309) = Spec.outOf (argsAt V0) := by
  rw [Spec.outOf_eq]
  exact (keep opsCat (XB V0) (by decide)).trans
    ((keep opsBc (XD V0) (by decide)).trans (dec_out (good_XE8 V0) (h_XE8 V0)))

/-! ## The energies, each kept to the end -/

/-- Strips from a valuation every stage that does not write the reference read. -/
local macro "strip_stages" : tactic =>
  `(tactic| simp (disch := decide) only [XD, XE8, XS8, XE7, XS7, XE6, XS6, XE5, XS5, XE4, XS4, XE3, XS3, XE2, XS2,
      XE1, XS1, XE0, XP, keep])

theorem e0_XD : XD V0 (Proc.devRef .tc main_v18) = Spec.energyOf (argsAt V0).snl (Spec.hN0 (argsAt V0)) := by
  rw [← e_XE0 V0]; strip_stages
theorem e1_XD : XD V0 (Proc.devRef .tc main_v53) = Spec.energyOf (argsAt V0).snl (Spec.hN1 (argsAt V0)) := by
  rw [← e_XE1 V0]; strip_stages
theorem e2_XD : XD V0 (Proc.devRef .tc main_v88) = Spec.energyOf (argsAt V0).snl (Spec.hN2 (argsAt V0)) := by
  rw [← e_XE2 V0]; strip_stages
theorem e3_XD : XD V0 (Proc.devRef .tc main_v123) = Spec.energyOf (argsAt V0).snl (Spec.hN3 (argsAt V0)) := by
  rw [← e_XE3 V0]; strip_stages
theorem e4_XD : XD V0 (Proc.devRef .tc main_v158) = Spec.energyOf (argsAt V0).snl (Spec.hN4 (argsAt V0)) := by
  rw [← e_XE4 V0]; strip_stages
theorem e5_XD : XD V0 (Proc.devRef .tc main_v193) = Spec.energyOf (argsAt V0).snl (Spec.hN5 (argsAt V0)) := by
  rw [← e_XE5 V0]; strip_stages
theorem e6_XD : XD V0 (Proc.devRef .tc main_v228) = Spec.energyOf (argsAt V0).snl (Spec.hN6 (argsAt V0)) := by
  rw [← e_XE6 V0]; strip_stages
theorem e7_XD : XD V0 (Proc.devRef .tc main_v263) = Spec.energyOf (argsAt V0).snl (Spec.hN7 (argsAt V0)) := by
  rw [← e_XE7 V0]; strip_stages
theorem e8_XD : XD V0 (Proc.devRef .tc main_v298) = Spec.energyOf (argsAt V0).snl (Spec.hN8 (argsAt V0)) := by
  rw [← e_XE8 V0]; strip_stages

/-! ## The [9] result -/

theorem ens_XC : XC V0 (Proc.devRef .tc main_v319) = Spec.ensOf (argsAt V0) := by
  rw [Spec.ensOf_eq, XC, cat_ens, XB, bc_e0, bc_e1, bc_e2, bc_e3, bc_e4, bc_e5, bc_e6, bc_e7, bc_e8,
    e0_XD, e1_XD, e2_XD, e3_XD, e4_XD, e5_XD, e6_XD, e7_XD, e8_XD]

/-! ## The run's last valuation is the stages' last -/

/-- The stages' lists, one after the other. -/
abbrev allOps : List (HloOp τ sig (Elt F)) :=
  opsPre ++ (opsEn0 ++ (opsStep1 ++ (opsEn1 ++ (opsStep2 ++ (opsEn2 ++ (opsStep3 ++ (opsEn3 ++ (opsStep4 ++ (opsEn4 ++
  (opsStep5 ++ (opsEn5 ++ (opsStep6 ++ (opsEn6 ++ (opsStep7 ++ (opsEn7 ++ (opsStep8 ++ (opsEn8 ++
  (opsDec ++ (opsBc ++ opsCat)))))))))))))))))))

/-- The fold of the stages' lists is the stage valuations, each over the one before. -/
theorem after_allOps : after allOps V0 = XC V0 := by
  simp only [allOps, StableHlo.after_append]
  rfl

/-- @main's operations window by window are the same operations stage by stage. -/
theorem ops_eq_allOps : (Cert.RefRun.ops : List (HloOp τ sig (Elt F))) = allOps := rfl

/-- The run's last valuation. -/
theorem W_end_eq : Cert.RefRun.W_end V0 = XC V0 := by
  rw [← after_allOps, ← ops_eq_allOps]
  exact (Cert.RefRun.after_ops V0).symm

/-- The [4096, 64] result of the reference is the specification's, of the argument arrays the run starts from. -/
theorem out_eq : Cert.RefRun.W_end V0 (Proc.devRef .tc main_v309) = Spec.outOf (argsAt V0) := by
  rw [W_end_eq]; exact out_XC V0

/-- The [9] result of the reference is the specification's. -/
theorem ens_eq : Cert.RefRun.W_end V0 (Proc.devRef .tc main_v319) = Spec.ensOf (argsAt V0) := by
  rw [W_end_eq]; exact ens_XC V0

/-! ## At the launch contents of a memory -/

/-- The fifteen argument arrays device c holds in memory m. -/
def argsOf (m : (ℓ : Loc nD τ sig) → Buf (Elt F) ℓ) (c : Dev nD) : Spec.Args F := argsAt fun b => m (c, b)

/-- From the launch contents, the run's [4096, 64] result is the specification's of the device's argument arrays. -/
theorem out_eq_mem (m : (ℓ : Loc nD τ sig) → Buf (Elt F) ℓ) (c : Dev nD) :
    Cert.RefRun.W_end (fun b => m (c, b)) (Proc.devRef .tc main_v309) = Spec.outOf (argsOf m c) :=
  out_eq _

/-- From the launch contents, the run's [9] result is the specification's of the device's argument arrays. -/
theorem ens_eq_mem (m : (ℓ : Loc nD τ sig) → Buf (Elt F) ℓ) (c : Dev nD) :
    Cert.RefRun.W_end (fun b => m (c, b)) (Proc.devRef .tc main_v319) = Spec.ensOf (argsOf m c) :=
  ens_eq _

end Cert.RefValues

end
-- ==== Proof.lean ====
/- The claim. Each of the three programs leaves its fifteen argument arrays as launched (the three frames); the kernel
   program at machine words and at the extended reals is one text up to the float values (preserves); and at the extended
   reals the kernel program's two results are the reference's (algebraic): both are the specification's `outOf` and `ensOf`
   of the arguments.

   kernel.py and reference.py are one program except that every matrix product of kernel.py is a tiled kernel: the
   product's rows in four blocks of 1024, its contraction axis whole or in four blocks of 1024, an accumulator block
   zeroed at the first contraction block, increased by the product of the two operand blocks at each, and written to the
   output block at the last. At the extended reals a change of float format is the identity and a finite sum may be
   regrouped (addition there is commutative and associative, with no finiteness needed), so each such region leaves in
   its output array exactly the whole product the reference's one operation computes. Between the regions both programs
   run the same host operations. Hence after every item the kernel program's buffers hold the same functions of the
   fifteen arguments as the reference's: the encoder, nine states of Heun's method on the spectral operator with their
   nine normalised energies, and the decoder. No operation or region writes an argument's buffer.

   The pieces: the chain of the sixty regions and the host stretches between them gives each kernel program's run with
   every unscoped buffer at a last valuation (`Cert.Kernel.Hand`, `Cert.KernelIdeal.Hand`); the valuations between the
   items step as the specification's chain asks (`Cert.KGlue`), so the last one holds the two functions at the result
   buffers (`Cert.KValues`); the reference's line of operations gives its run and the same two functions
   (`Cert.RefRun`, `Cert.RefValues`); `Cert.Glue.claim_of` reads the five conjuncts off these. -/
import proofs.«158944_j64613488001249_1_alg».proof.Defs
import proofs.«158944_j64613488001249_1_alg».proof.Proof.Glue
import proofs.«158944_j64613488001249_1_alg».proof.Proof.ChainK
import proofs.«158944_j64613488001249_1_alg».proof.Proof.ChainKI
import proofs.«158944_j64613488001249_1_alg».proof.Proof.KChain
import proofs.«158944_j64613488001249_1_alg».proof.Proof.KGlue
import proofs.«158944_j64613488001249_1_alg».proof.Proof.RefValues

noncomputable section

namespace Cert.Proof

open Idealize.ShloMosaic Idealize.SL.Sem

/-- The kernel program's last valuation holds, at its first result buffer, the specification's decoded output of the
    arguments: the valuations between the items step as the specification's chain asks. -/
theorem outK (m : (ℓ : Loc Cert.KernelIdeal.nD Cert.KernelIdeal.τ Cert.KernelIdeal.sig) → Buf (Elt Ideal) ℓ) (c : Dev Cert.KernelIdeal.nD) :
    Cert.KernelIdeal.Hand.U106 (F := Ideal) m c (Proc.devRef .tc Cert.KernelIdeal.main_v334) = Cert.Spec.outOf (Cert.Glue.argsKI m c) :=
  Cert.KValues.out_eq (Cert.KGlue.X m c) (Cert.KGlue.krun m c)

/-- And, at its second result buffer, the specification's nine energies. -/
theorem ensK (m : (ℓ : Loc Cert.KernelIdeal.nD Cert.KernelIdeal.τ Cert.KernelIdeal.sig) → Buf (Elt Ideal) ℓ) (c : Dev Cert.KernelIdeal.nD) :
    Cert.KernelIdeal.Hand.U106 (F := Ideal) m c (Proc.devRef .tc Cert.KernelIdeal.main_v344) = Cert.Spec.ensOf (Cert.Glue.argsKI m c) :=
  Cert.KValues.ens_eq (Cert.KGlue.X m c) (Cert.KGlue.krun m c)

theorem claim : Cert.Claim :=
  Cert.Glue.claim_of
    (fun m => Cert.Kernel.Hand.U106 (F := Bits) m)
    (fun m ρ => Cert.Kernel.Hand.run_all (F := Bits) m ρ)
    (fun m c =>
      ⟨Cert.Kernel.Hand.U106_arg0 m c, Cert.Kernel.Hand.U106_arg1 m c, Cert.Kernel.Hand.U106_arg2 m c, Cert.Kernel.Hand.U106_arg3 m c, Cert.Kernel.Hand.U106_arg4 m c, Cert.Kernel.Hand.U106_arg5 m c, Cert.Kernel.Hand.U106_arg6 m c, Cert.Kernel.Hand.U106_arg7 m c, Cert.Kernel.Hand.U106_arg8 m c, Cert.Kernel.Hand.U106_arg9 m c, Cert.Kernel.Hand.U106_arg10 m c, Cert.Kernel.Hand.U106_arg11 m c, Cert.Kernel.Hand.U106_arg12 m c, Cert.Kernel.Hand.U106_arg13 m c, Cert.Kernel.Hand.U106_arg14 m c⟩)
    (fun m => Cert.KernelIdeal.Hand.U106 (F := Ideal) m)
    (fun m ρ => Cert.KernelIdeal.Hand.run_all (F := Ideal) m ρ)
    (fun m c =>
      ⟨Cert.KernelIdeal.Hand.U106_arg0 m c, Cert.KernelIdeal.Hand.U106_arg1 m c, Cert.KernelIdeal.Hand.U106_arg2 m c, Cert.KernelIdeal.Hand.U106_arg3 m c, Cert.KernelIdeal.Hand.U106_arg4 m c, Cert.KernelIdeal.Hand.U106_arg5 m c, Cert.KernelIdeal.Hand.U106_arg6 m c, Cert.KernelIdeal.Hand.U106_arg7 m c, Cert.KernelIdeal.Hand.U106_arg8 m c, Cert.KernelIdeal.Hand.U106_arg9 m c, Cert.KernelIdeal.Hand.U106_arg10 m c, Cert.KernelIdeal.Hand.U106_arg11 m c, Cert.KernelIdeal.Hand.U106_arg12 m c, Cert.KernelIdeal.Hand.U106_arg13 m c, Cert.KernelIdeal.Hand.U106_arg14 m c⟩)
    outK ensK
    (fun m' c => Cert.RefValues.out_eq (fun b => m' (c, b)))
    (fun m' c => Cert.RefValues.ens_eq (fun b => m' (c, b)))

end Cert.Proof

end
